-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v220)) (v1 : (c : Dev Cert.KernelIdeal.nD) → Buf (Elt Ideal) ((c.tc : Thread Cert.KernelIdeal.nD Cert.KernelIdeal.τ).loc Cert.KernelIdeal.main_v227)) (v2 : (c : Dev Cert.KernelIdeal.nD) → Buf (Elt Ideal) ((c.tc : Thread Cert.KernelIdeal.nD Cert.KernelIdeal.τ).loc Cert.KernelIdeal.main_v213)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v220) = v0 c
          ∧ r.2.mem ((c.tc : Thread Cert.KernelIdeal.nD Cert.KernelIdeal.τ).loc Cert.KernelIdeal.main_v227) = v1 c
          ∧ r.2.mem ((c.tc : Thread Cert.KernelIdeal.nD Cert.KernelIdeal.τ).loc Cert.KernelIdeal.main_v213) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v123) = v1 c
          ∧ r.2.mem ((c.tc : Thread Cert.ReferenceIdeal.nD Cert.ReferenceIdeal.τ).loc Cert.ReferenceIdeal.main_v109) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x64 : Shape := ⟨2, ![40000, 64]⟩
abbrev S60000x64 : Shape := ⟨2, ![60000, 64]⟩
abbrev S1600000 : Shape := ⟨1, ![1600000]⟩
abbrev S4096 : Shape := ⟨1, ![4096]⟩
abbrev S_ : Shape := ⟨0, ![]⟩

class Facts : Prop where
  bcast_S_S40000x64 : S_.BroadcastsInDim S40000x64 (![] : Fin 0 → Fin S40000x64.rank)
  reducesTo_S40000x64_S_d0_1 : S40000x64.ReducesTo [0, 1] S_
  h_S_ : 0 < S_.numel
  bcast_S_S60000x64 : S_.BroadcastsInDim S60000x64 (![] : Fin 0 → Fin S60000x64.rank)
  reducesTo_S60000x64_S_d0_1 : S60000x64.ReducesTo [0, 1] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg4 : IVec S1600000 32) (main_v13 : IVec S_ 1) (main_v15 : IVec S1600000 1) (main_c_5 : IVec S_ 1) : IVec S_ 1 :=
  let main_v16 : IVec S_ 1 := (fun x v => Host.reduce IntOp.andi x v reducesTo_S1600000_S_d0 h_S_) main_v15 main_c_5
  let main_v17 : IVec S_ 1 := andi main_v13 main_v16
  let main_c_6 : IVec S_ 32 := constantI S_ 32 100000#32
  let main_v18 : IVec S1600000 32 := broadcastInDim S1600000 ![] bcast_S_S1600000 main_c_6
  let main_v19 : IVec S1600000 1 := cmpi .slt main_arg4 main_v18
  let main_c_7 : IVec S_ 1 := constantI S_ 1 1#1
  let main_v20 : IVec S_ 1 := (fun x v => Host.reduce IntOp.andi x v reducesTo_S1600000_S_d0 h_S_) main_v19 main_c_7
  let main_v21 : IVec S_ 1 := andi main_v17 main_v20
  main_v21

def fn {F : FTy → Type} [FloatOps F] (main_arg0 : FVec F S40000x64 .f32) (main_arg1 : FVec F S60000x64 .f32) (main_arg2 : FVec F S1600000 .f32) (main_arg3 : IVec S1600000 32) (main_arg4 : IVec S1600000 32) (main_arg5 : IVec S4096 32) (main_arg6 : IVec S4096 32) : IVec S_ 1 :=
  let main_v0 : FVec F S40000x64 .f32 := Host.absf main_arg0
  let main_cst : FVec F S_ .f32 := constant S_ .f32 0x7F800000#32
  let main_v1 : FVec F S40000x64 .f32 := broadcastInDim S40000x64 ![] bcast_S_S40000x64 main_cst
  let main_v2 : IVec S40000x64 1 := cmpf .olt main_v0 main_v1
  let main_c : IVec S_ 1 := constantI S_ 1 1#1
  let main_v3 : IVec S_ 1 := (fun x v => Host.reduce IntOp.andi x v reducesTo_S40000x64_S_d0_1 h_S_) main_v2 main_c
  let main_v4 : FVec F S60000x64 .f32 := Host.absf main_arg1
  let main_cst_0 : FVec F S_ .f32 := constant S_ .f32 0x7F800000#32
  let main_v5 : FVec F S60000x64 .f32 := broadcastInDim S60000x64 ![] bcast_S_S60000x64 main_cst_0
  let main_v6 : IVec S60000x64 1 := cmpf .olt main_v4 main_v5
  let main_c_1 : IVec S_ 1 := constantI S_ 1 1#1
  let main_v7 : IVec S_ 1 := (fun x v => Host.reduce IntOp.andi x v reducesTo_S60000x64_S_d0_1 h_S_) main_v6 main_c_1
  let main_v8 : IVec S_ 1 := andi main_v3 main_v7
  let main_v9 : FVec F S1600000 .f32 := Host.absf main_arg2
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_c_4 : IVec S_ 32 := constantI S_ 32 0#32
  let main_v14 : IVec S1600000 32 := broadcastInDim S1600000 ![] bcast_S_S1600000 main_c_4
  let main_v15 : IVec S1600000 1 := cmpi .sge main_arg4 main_v14
  let main_c_5 : IVec S_ 1 := constantI S_ 1 1#1
  fn_part1 (F := F) main_arg4 main_v13 main_v15 main_c_5
-- ==== Kernel.lean ====
abbrev S40000x64 : Shape := ⟨2, ![40000, 64]⟩
abbrev S60000x64 : Shape := ⟨2, ![60000, 64]⟩
abbrev S1600000 : Shape := ⟨1, ![1600000]⟩
abbrev S4096 : Shape := ⟨1, ![4096]⟩
abbrev S100000x64 : Shape := ⟨2, ![100000, 64]⟩
abbrev S_ : Shape := ⟨0, ![]⟩
abbrev S102400x64 : Shape := ⟨2, ![102400, 64]⟩
abbrev S4096x64 : Shape := ⟨2, ![4096, 64]⟩
abbrev S4096x63 : Shape := ⟨2, ![4096, 63]⟩
abbrev S4096x1 : Shape := ⟨2, ![4096, 1]⟩
abbrev S100000 : Shape := ⟨1, ![100000]⟩
abbrev S100000x1 : Shape := ⟨2, ![100000, 1]⟩
abbrev S8x1 : Shape := ⟨2, ![8, 1]⟩
abbrev S8x64 : Shape := ⟨2, ![8, 64]⟩
abbrev S8 : Shape := ⟨1, ![8]⟩
abbrev S1 : Shape := ⟨1, ![1]⟩
abbrev S1x64 : Shape := ⟨2, ![1, 64]⟩
abbrev S64 : Shape := ⟨1, ![64]⟩
abbrev S1600000x64 : Shape := ⟨2, ![1600000, 64]⟩
abbrev S1600000x1 : Shape := ⟨2, ![1600000, 1]⟩

abbrev nBuf : Space → Nat
  | .hbm => 197
  | .vmem => 244
  | .smem => 48
  | _ => 0

abbrev hbmTy0_0 (i : Nat) : BufTy := match i % 128 with
  | 0 => ⟨S40000x64, .f32⟩
  | 1 => ⟨S60000x64, .f32⟩
  | 2 => ⟨S1600000, .f32⟩
  | 3 => ⟨S1600000, .i32⟩
  | 4 => ⟨S1600000, .i32⟩
  | 5 => ⟨S4096, .i32⟩
  | 6 => ⟨S4096, .i32⟩
  | 7 => ⟨S100000x64, .f32⟩
  | 8 => ⟨S_, .i32⟩
  | 9 => ⟨S_, .f32⟩
  | 10 => ⟨S102400x64, .f32⟩
  | 11 => ⟨S102400x64, .f32⟩
  | 12 => ⟨S100000x64, .f32⟩
  | 13 => ⟨S_, .f32⟩
  | 14 => ⟨S100000x64, .f32⟩
  | 15 => ⟨S100000, .f32⟩
  | 16 => ⟨S100000x1, .f32⟩
  | 17 => ⟨S100000x64, .f32⟩
  | 18 => ⟨S100000, .f32⟩
  | 19 => ⟨S100000x1, .f32⟩
  | 20 => ⟨S100000x64, .f32⟩
  | 21 => ⟨S100000, .f32⟩
  | 22 => ⟨S100000x1, .f32⟩
  | 23 => ⟨S100000x64, .f32⟩
  | 24 => ⟨S100000, .f32⟩
  | 25 => ⟨S100000x1, .f32⟩
  | 26 => ⟨S100000x64, .f32⟩
  | 27 => ⟨S100000, .f32⟩
  | 28 => ⟨S100000x1, .f32⟩
  | 29 => ⟨S100000x64, .f32⟩
  | 30 => ⟨S100000, .f32⟩
  | 31 => ⟨S100000x1, .f32⟩
  | 32 => ⟨S100000x64, .f32⟩
  | 33 => ⟨S100000, .f32⟩
  | 34 => ⟨S100000x1, .f32⟩
  | 35 => ⟨S100000x64, .f32⟩
  | 36 => ⟨S100000, .f32⟩
  | 37 => ⟨S100000x1, .f32⟩
  | 38 => ⟨S100000x64, .f32⟩
  | 39 => ⟨S100000, .f32⟩
  | 40 => ⟨S100000x1, .f32⟩
  | 41 => ⟨S100000x64, .f32⟩
  | 42 => ⟨S100000, .f32⟩
  | 43 => ⟨S100000x1, .f32⟩
  | 44 => ⟨S100000x64, .f32⟩
  | 45 => ⟨S100000, .f32⟩
  | 46 => ⟨S100000x1, .f32⟩
  | 47 => ⟨S100000x64, .f32⟩
  | 48 => ⟨S100000, .f32⟩
  | 49 => ⟨S100000x1, .f32⟩
  | 50 => ⟨S100000x64, .f32⟩
  | 51 => ⟨S100000, .f32⟩
  | 52 => ⟨S100000x1, .f32⟩
  | 53 => ⟨S100000x64, .f32⟩
  | 54 => ⟨S100000, .f32⟩
  | 55 => ⟨S100000x1, .f32⟩
  | 56 => ⟨S100000x64, .f32⟩
  | 57 => ⟨S100000, .f32⟩
  | 58 => ⟨S100000x1, .f32⟩
  | 59 => ⟨S100000x64, .f32⟩
  | 60 => ⟨S100000, .f32⟩
  | 61 => ⟨S100000x1, .f32⟩
  | 62 => ⟨S100000x64, .f32⟩
  | 63 => ⟨S1600000x64, .f32⟩
  | 64 => ⟨S_, .f32⟩
  | 65 => ⟨S100000x64, .f32⟩
  | 66 => ⟨S1600000x1, .i32⟩
  | 67 => ⟨S100000x64, .f32⟩
  | 68 => ⟨S100000x64, .f32⟩
  | 69 => ⟨S100000, .f32⟩
  | 70 => ⟨S100000x1, .f32⟩
  | 71 => ⟨S100000x64, .f32⟩
  | 72 => ⟨S100000, .f32⟩
  | 73 => ⟨S100000x1, .f32⟩
  | 74 => ⟨S100000x64, .f32⟩
  | 75 => ⟨S100000, .f32⟩
  | 76 => ⟨S100000x1, .f32⟩
  | 77 => ⟨S100000x64, .f32⟩
  | 78 => ⟨S100000, .f32⟩
  | 79 => ⟨S100000x1, .f32⟩
  | 80 => ⟨S100000x64, .f32⟩
  | 81 => ⟨S100000, .f32⟩
  | 82 => ⟨S100000x1, .f32⟩
  | 83 => ⟨S100000x64, .f32⟩
  | 84 => ⟨S100000, .f32⟩
  | 85 => ⟨S100000x1, .f32⟩
  | 86 => ⟨S100000x64, .f32⟩
  | 87 => ⟨S100000, .f32⟩
  | 88 => ⟨S100000x1, .f32⟩
  | 89 => ⟨S100000x64, .f32⟩
  | 90 => ⟨S100000, .f32⟩
  | 91 => ⟨S100000x1, .f32⟩
  | 92 => ⟨S100000x64, .f32⟩
  | 93 => ⟨S100000, .f32⟩
  | 94 => ⟨S100000x1, .f32⟩
  | 95 => ⟨S100000x64, .f32⟩
  | 96 => ⟨S100000, .f32⟩
  | 97 => ⟨S100000x1, .f32⟩
  | 98 => ⟨S100000x64, .f32⟩
  | 99 => ⟨S100000, .f32⟩
  | 100 => ⟨S100000x1, .f32⟩
  | 101 => ⟨S100000x64, .f32⟩
  | 102 => ⟨S100000, .f32⟩
  | 103 => ⟨S100000x1, .f32⟩
  | 104 => ⟨S100000x64, .f32⟩
  | 105 => ⟨S100000, .f32⟩
  | 106 => ⟨S100000x1, .f32⟩
  | 107 => ⟨S100000x64, .f32⟩
  | 108 => ⟨S100000, .f32⟩
  | 109 => ⟨S100000x1, .f32⟩
  | 110 => ⟨S100000x64, .f32⟩
  | 111 => ⟨S100000, .f32⟩
  | 112 => ⟨S100000x1, .f32⟩
  | 113 => ⟨S100000x64, .f32⟩
  | 114 => ⟨S100000, .f32⟩
  | 115 => ⟨S100000x1, .f32⟩
  | 116 => ⟨S100000x64, .f32⟩
  | 117 => ⟨S1600000x64, .f32⟩
  | 118 => ⟨S_, .f32⟩
  | 119 => ⟨S100000x64, .f32⟩
  | 120 => ⟨S1600000x1, .i32⟩
  | 121 => ⟨S100000x64, .f32⟩
  | 122 => ⟨S100000x64, .f32⟩
  | 123 => ⟨S100000, .f32⟩
  | 124 => ⟨S100000x1, .f32⟩
  | 125 => ⟨S100000x64, .f32⟩
  | 126 => ⟨S100000, .f32⟩
  | 127 => ⟨S100000x1, .f32⟩
  | _ => ⟨S40000x64, .f32⟩

abbrev hbmTy0_1 (i : Nat) : BufTy := match i % 128 with
  | 0 => ⟨S100000x64, .f32⟩
  | 1 => ⟨S100000, .f32⟩
  | 2 => ⟨S100000x1, .f32⟩
  | 3 => ⟨S100000x64, .f32⟩
  | 4 => ⟨S100000, .f32⟩
  | 5 => ⟨S100000x1, .f32⟩
  | 6 => ⟨S100000x64, .f32⟩
  | 7 => ⟨S100000, .f32⟩
  | 8 => ⟨S100000x1, .f32⟩
  | 9 => ⟨S100000x64, .f32⟩
  | 10 => ⟨S100000, .f32⟩
  | 11 => ⟨S100000x1, .f32⟩
  | 12 => ⟨S100000x64, .f32⟩
  | 13 => ⟨S100000, .f32⟩
  | 14 => ⟨S100000x1, .f32⟩
  | 15 => ⟨S100000x64, .f32⟩
  | 16 => ⟨S100000, .f32⟩
  | 17 => ⟨S100000x1, .f32⟩
  | 18 => ⟨S100000x64, .f32⟩
  | 19 => ⟨S100000, .f32⟩
  | 20 => ⟨S100000x1, .f32⟩
  | 21 => ⟨S100000x64, .f32⟩
  | 22 => ⟨S100000, .f32⟩
  | 23 => ⟨S100000x1, .f32⟩
  | 24 => ⟨S100000x64, .f32⟩
  | 25 => ⟨S100000, .f32⟩
  | 26 => ⟨S100000x1, .f32⟩
  | 27 => ⟨S100000x64, .f32⟩
  | 28 => ⟨S100000, .f32⟩
  | 29 => ⟨S100000x1, .f32⟩
  | 30 => ⟨S100000x64, .f32⟩
  | 31 => ⟨S100000, .f32⟩
  | 32 => ⟨S100000x1, .f32⟩
  | 33 => ⟨S100000x64, .f32⟩
  | 34 => ⟨S100000, .f32⟩
  | 35 => ⟨S100000x1, .f32⟩
  | 36 => ⟨S100000x64, .f32⟩
  | 37 => ⟨S100000, .f32⟩
  | 38 => ⟨S100000x1, .f32⟩
  | 39 => ⟨S100000x64, .f32⟩
  | 40 => ⟨S100000, .f32⟩
  | 41 => ⟨S100000x1, .f32⟩
  | 42 => ⟨S100000x64, .f32⟩
  | 43 => ⟨S1600000x64, .f32⟩
  | 44 => ⟨S_, .f32⟩
  | 45 => ⟨S100000x64, .f32⟩
  | 46 => ⟨S1600000x1, .i32⟩
  | 47 => ⟨S100000x64, .f32⟩
  | 48 => ⟨S100000x64, .f32⟩
  | 49 => ⟨S40000x64, .f32⟩
  | 50 => ⟨S60000x64, .f32⟩
  | 51 => ⟨S_, .i32⟩
  | 52 => ⟨S4096, .i32⟩
  | 53 => ⟨S4096, .i1⟩
  | 54 => ⟨S_, .i32⟩
  | 55 => ⟨S4096, .i32⟩
  | 56 => ⟨S4096, .i32⟩
  | 57 => ⟨S4096, .i32⟩
  | 58 => ⟨S4096x1, .i32⟩
  | 59 => ⟨S4096x64, .f32⟩
  | 60 => ⟨S_, .i32⟩
  | 61 => ⟨S4096, .i32⟩
  | 62 => ⟨S4096, .i1⟩
  | 63 => ⟨S_, .i32⟩
  | 64 => ⟨S4096, .i32⟩
  | 65 => ⟨S4096, .i32⟩
  | 66 => ⟨S4096, .i32⟩
  | 67 => ⟨S4096x1, .i32⟩
  | 68 => ⟨S4096x64, .f32⟩
  | _ => ⟨S40000x64, .f32⟩

abbrev hbmTy (i : Nat) : BufTy := match i / 128 with
  | 0 => hbmTy0_0 i
  | 1 => hbmTy0_1 i
  | _ => ⟨S40000x64, .f32⟩

abbrev vmemTy0_0 (i : Nat) : BufTy := match i % 128 with
  | 0 => ⟨S4096x64, .f32⟩
  | 1 => ⟨S4096x64, .f32⟩
  | 2 => ⟨S4096x64, .f32⟩
  | 3 => ⟨S4096x64, .f32⟩
  | 4 => ⟨S8x1, .f32⟩
  | 5 => ⟨S8x1, .f32⟩
  | 6 => ⟨S8x64, .f32⟩
  | 7 => ⟨S8x64, .f32⟩
  | 8 => ⟨S8x64, .f32⟩
  | 9 => ⟨S8x1, .f32⟩
  | 10 => ⟨S8x1, .f32⟩
  | 11 => ⟨S8x64, .f32⟩
  | 12 => ⟨S8x64, .f32⟩
  | 13 => ⟨S8x64, .f32⟩
  | 14 => ⟨S8x1, .f32⟩
  | 15 => ⟨S8x1, .f32⟩
  | 16 => ⟨S8x64, .f32⟩
  | 17 => ⟨S8x64, .f32⟩
  | 18 => ⟨S8x64, .f32⟩
  | 19 => ⟨S8x1, .f32⟩
  | 20 => ⟨S8x1, .f32⟩
  | 21 => ⟨S8x64, .f32⟩
  | 22 => ⟨S8x64, .f32⟩
  | 23 => ⟨S8x64, .f32⟩
  | 24 => ⟨S8x1, .f32⟩
  | 25 => ⟨S8x1, .f32⟩
  | 26 => ⟨S8x64, .f32⟩
  | 27 => ⟨S8x64, .f32⟩
  | 28 => ⟨S8x64, .f32⟩
  | 29 => ⟨S8x1, .f32⟩
  | 30 => ⟨S8x1, .f32⟩
  | 31 => ⟨S8x64, .f32⟩
  | 32 => ⟨S8x64, .f32⟩
  | 33 => ⟨S8x64, .f32⟩
  | 34 => ⟨S8x1, .f32⟩
  | 35 => ⟨S8x1, .f32⟩
  | 36 => ⟨S8x64, .f32⟩
  | 37 => ⟨S8x64, .f32⟩
  | 38 => ⟨S8x64, .f32⟩
  | 39 => ⟨S8x1, .f32⟩
  | 40 => ⟨S8x1, .f32⟩
  | 41 => ⟨S8x64, .f32⟩
  | 42 => ⟨S8x64, .f32⟩
  | 43 => ⟨S8x64, .f32⟩
  | 44 => ⟨S8x1, .f32⟩
  | 45 => ⟨S8x1, .f32⟩
  | 46 => ⟨S8x64, .f32⟩
  | 47 => ⟨S8x64, .f32⟩
  | 48 => ⟨S8x64, .f32⟩
  | 49 => ⟨S8x1, .f32⟩
  | 50 => ⟨S8x1, .f32⟩
  | 51 => ⟨S8x64, .f32⟩
  | 52 => ⟨S8x64, .f32⟩
  | 53 => ⟨S8x64, .f32⟩
  | 54 => ⟨S8x1, .f32⟩
  | 55 => ⟨S8x1, .f32⟩
  | 56 => ⟨S8x64, .f32⟩
  | 57 => ⟨S8x64, .f32⟩
  | 58 => ⟨S8x64, .f32⟩
  | 59 => ⟨S8x1, .f32⟩
  | 60 => ⟨S8x1, .f32⟩
  | 61 => ⟨S8x64, .f32⟩
  | 62 => ⟨S8x64, .f32⟩
  | 63 => ⟨S8x64, .f32⟩
  | 64 => ⟨S8x1, .f32⟩
  | 65 => ⟨S8x1, .f32⟩
  | 66 => ⟨S8x64, .f32⟩
  | 67 => ⟨S8x64, .f32⟩
  | 68 => ⟨S8x64, .f32⟩
  | 69 => ⟨S8x1, .f32⟩
  | 70 => ⟨S8x1, .f32⟩
  | 71 => ⟨S8x64, .f32⟩
  | 72 => ⟨S8x64, .f32⟩
  | 73 => ⟨S8x64, .f32⟩
  | 74 => ⟨S8x1, .f32⟩
  | 75 => ⟨S8x1, .f32⟩
  | 76 => ⟨S8x64, .f32⟩
  | 77 => ⟨S8x64, .f32⟩
  | 78 => ⟨S8x64, .f32⟩
  | 79 => ⟨S8x1, .f32⟩
  | 80 => ⟨S8x1, .f32⟩
  | 81 => ⟨S8x64, .f32⟩
  | 82 => ⟨S8x64, .f32⟩
  | 83 => ⟨S8x64, .f32⟩
  | 84 => ⟨S8x1, .f32⟩
  | 85 => ⟨S8x1, .f32⟩
  | 86 => ⟨S8x64, .f32⟩
  | 87 => ⟨S8x64, .f32⟩
  | 88 => ⟨S8x64, .f32⟩
  | 89 => ⟨S8x1, .f32⟩
  | 90 => ⟨S8x1, .f32⟩
  | 91 => ⟨S8x64, .f32⟩
  | 92 => ⟨S8x64, .f32⟩
  | 93 => ⟨S8x64, .f32⟩
  | 94 => ⟨S8x1, .f32⟩
  | 95 => ⟨S8x1, .f32⟩
  | 96 => ⟨S8x64, .f32⟩
  | 97 => ⟨S8x64, .f32⟩
  | 98 => ⟨S8x64, .f32⟩
  | 99 => ⟨S8x1, .f32⟩
  | 100 => ⟨S8x1, .f32⟩
  | 101 => ⟨S8x64, .f32⟩
  | 102 => ⟨S8x64, .f32⟩
  | 103 => ⟨S8x64, .f32⟩
  | 104 => ⟨S8x1, .f32⟩
  | 105 => ⟨S8x1, .f32⟩
  | 106 => ⟨S8x64, .f32⟩
  | 107 => ⟨S8x64, .f32⟩
  | 108 => ⟨S8x64, .f32⟩
  | 109 => ⟨S8x1, .f32⟩
  | 110 => ⟨S8x1, .f32⟩
  | 111 => ⟨S8x64, .f32⟩
  | 112 => ⟨S8x64, .f32⟩
  | 113 => ⟨S8x64, .f32⟩
  | 114 => ⟨S8x1, .f32⟩
  | 115 => ⟨S8x1, .f32⟩
  | 116 => ⟨S8x64, .f32⟩
  | 117 => ⟨S8x64, .f32⟩
  | 118 => ⟨S8x64, .f32⟩
  | 119 => ⟨S8x1, .f32⟩
  | 120 => ⟨S8x1, .f32⟩
  | 121 => ⟨S8x64, .f32⟩
  | 122 => ⟨S8x64, .f32⟩
  | 123 => ⟨S8x64, .f32⟩
  | 124 => ⟨S8x1, .f32⟩
  | 125 => ⟨S8x1, .f32⟩
  | 126 => ⟨S8x64, .f32⟩
  | 127 => ⟨S8x64, .f32⟩
  | _ => ⟨S40000x64, .f32⟩

abbrev vmemTy0_1 (i : Nat) : BufTy := match i % 128 with
  | 0 => ⟨S8x64, .f32⟩
  | 1 => ⟨S8x1, .f32⟩
  | 2 => ⟨S8x1, .f32⟩
  | 3 => ⟨S8x64, .f32⟩
  | 4 => ⟨S8x64, .f32⟩
  | 5 => ⟨S8x64, .f32⟩
  | 6 => ⟨S8x1, .f32⟩
  | 7 => ⟨S8x1, .f32⟩
  | 8 => ⟨S8x64, .f32⟩
  | 9 => ⟨S8x64, .f32⟩
  | 10 => ⟨S8x64, .f32⟩
  | 11 => ⟨S8x1, .f32⟩
  | 12 => ⟨S8x1, .f32⟩
  | 13 => ⟨S8x64, .f32⟩
  | 14 => ⟨S8x64, .f32⟩
  | 15 => ⟨S8x64, .f32⟩
  | 16 => ⟨S8x1, .f32⟩
  | 17 => ⟨S8x1, .f32⟩
  | 18 => ⟨S8x64, .f32⟩
  | 19 => ⟨S8x64, .f32⟩
  | 20 => ⟨S8x64, .f32⟩
  | 21 => ⟨S8x1, .f32⟩
  | 22 => ⟨S8x1, .f32⟩
  | 23 => ⟨S8x64, .f32⟩
  | 24 => ⟨S8x64, .f32⟩
  | 25 => ⟨S8x64, .f32⟩
  | 26 => ⟨S8x1, .f32⟩
  | 27 => ⟨S8x1, .f32⟩
  | 28 => ⟨S8x64, .f32⟩
  | 29 => ⟨S8x64, .f32⟩
  | 30 => ⟨S8x64, .f32⟩
  | 31 => ⟨S8x1, .f32⟩
  | 32 => ⟨S8x1, .f32⟩
  | 33 => ⟨S8x64, .f32⟩
  | 34 => ⟨S8x64, .f32⟩
  | 35 => ⟨S8x64, .f32⟩
  | 36 => ⟨S8x1, .f32⟩
  | 37 => ⟨S8x1, .f32⟩
  | 38 => ⟨S8x64, .f32⟩
  | 39 => ⟨S8x64, .f32⟩
  | 40 => ⟨S8x64, .f32⟩
  | 41 => ⟨S8x1, .f32⟩
  | 42 => ⟨S8x1, .f32⟩
  | 43 => ⟨S8x64, .f32⟩
  | 44 => ⟨S8x64, .f32⟩
  | 45 => ⟨S8x64, .f32⟩
  | 46 => ⟨S8x1, .f32⟩
  | 47 => ⟨S8x1, .f32⟩
  | 48 => ⟨S8x64, .f32⟩
  | 49 => ⟨S8x64, .f32⟩
  | 50 => ⟨S8x64, .f32⟩
  | 51 => ⟨S8x1, .f32⟩
  | 52 => ⟨S8x1, .f32⟩
  | 53 => ⟨S8x64, .f32⟩
  | 54 => ⟨S8x64, .f32⟩
  | 55 => ⟨S8x64, .f32⟩
  | 56 => ⟨S8x1, .f32⟩
  | 57 => ⟨S8x1, .f32⟩
  | 58 => ⟨S8x64, .f32⟩
  | 59 => ⟨S8x64, .f32⟩
  | 60 => ⟨S8x64, .f32⟩
  | 61 => ⟨S8x1, .f32⟩
  | 62 => ⟨S8x1, .f32⟩
  | 63 => ⟨S8x64, .f32⟩
  | 64 => ⟨S8x64, .f32⟩
  | 65 => ⟨S8x64, .f32⟩
  | 66 => ⟨S8x1, .f32⟩
  | 67 => ⟨S8x1, .f32⟩
  | 68 => ⟨S8x64, .f32⟩
  | 69 => ⟨S8x64, .f32⟩
  | 70 => ⟨S8x64, .f32⟩
  | 71 => ⟨S8x1, .f32⟩
  | 72 => ⟨S8x1, .f32⟩
  | 73 => ⟨S8x64, .f32⟩
  | 74 => ⟨S8x64, .f32⟩
  | 75 => ⟨S8x64, .f32⟩
  | 76 => ⟨S8x1, .f32⟩
  | 77 => ⟨S8x1, .f32⟩
  | 78 => ⟨S8x64, .f32⟩
  | 79 => ⟨S8x64, .f32⟩
  | 80 => ⟨S8x64, .f32⟩
  | 81 => ⟨S8x1, .f32⟩
  | 82 => ⟨S8x1, .f32⟩
  | 83 => ⟨S8x64, .f32⟩
  | 84 => ⟨S8x64, .f32⟩
  | 85 => ⟨S8x64, .f32⟩
  | 86 => ⟨S8x1, .f32⟩
  | 87 => ⟨S8x1, .f32⟩
  | 88 => ⟨S8x64, .f32⟩
  | 89 => ⟨S8x64, .f32⟩
  | 90 => ⟨S8x64, .f32⟩
  | 91 => ⟨S8x1, .f32⟩
  | 92 => ⟨S8x1, .f32⟩
  | 93 => ⟨S8x64, .f32⟩
  | 94 => ⟨S8x64, .f32⟩
  | 95 => ⟨S8x64, .f32⟩
  | 96 => ⟨S8x1, .f32⟩
  | 97 => ⟨S8x1, .f32⟩
  | 98 => ⟨S8x64, .f32⟩
  | 99 => ⟨S8x64, .f32⟩
  | 100 => ⟨S8x64, .f32⟩
  | 101 => ⟨S8x1, .f32⟩
  | 102 => ⟨S8x1, .f32⟩
  | 103 => ⟨S8x64, .f32⟩
  | 104 => ⟨S8x64, .f32⟩
  | 105 => ⟨S8x64, .f32⟩
  | 106 => ⟨S8x1, .f32⟩
  | 107 => ⟨S8x1, .f32⟩
  | 108 => ⟨S8x64, .f32⟩
  | 109 => ⟨S8x64, .f32⟩
  | 110 => ⟨S8x64, .f32⟩
  | 111 => ⟨S8x1, .f32⟩
  | 112 => ⟨S8x1, .f32⟩
  | 113 => ⟨S8x64, .f32⟩
  | 114 => ⟨S8x64, .f32⟩
  | 115 => ⟨S8x64, .f32⟩
  | _ => ⟨S40000x64, .f32⟩

abbrev vmemTy (i : Nat) : BufTy := match i / 128 with
  | 0 => vmemTy0_0 i
  | 1 => vmemTy0_1 i
  | _ => ⟨S40000x64, .f32⟩

abbrev bufTy : (tb : Table) → Fin (tcTables nBuf tb) → BufTy
  | .hbm, ⟨i, _⟩ => hbmTy i
  | .local _ .vmem, ⟨i, _⟩ => vmemTy i
  | .local _ .smem, ⟨0, _⟩ => ⟨S100000, .i32⟩
  | .local _ .smem, ⟨1, _⟩ => ⟨S100000, .i32⟩
  | .local _ .smem, ⟨2, _⟩ => ⟨S100000, .i32⟩
  | .local _ .smem, ⟨3, _⟩ => ⟨S100000, .i32⟩
  | .local _ .smem, ⟨4, _⟩ => ⟨S100000, .i32⟩
  | .local _ .smem, ⟨5, _⟩ => ⟨S100000, .i32⟩
  | .local _ .smem, ⟨6, _⟩ => ⟨S100000, .i32⟩
  | .local _ .smem, ⟨7, _⟩ => ⟨S100000, .i32⟩
  | .local _ .smem, ⟨8, _⟩ => ⟨S100000, .i32⟩
  | .local _ .smem, ⟨9, _⟩ => ⟨S100000, .i32⟩
  | .local _ .smem, ⟨10, _⟩ => ⟨S100000, .i32⟩
  | .local _ .smem, ⟨11, _⟩ => ⟨S100000, .i32⟩
  | .local _ .smem, ⟨12, _⟩ => ⟨S100000, .i32⟩
  | .local _ .smem, ⟨13, _⟩ => ⟨S100000, .i32⟩
  | .local _ .smem, ⟨14, _⟩ => ⟨S100000, .i32⟩
  | .local _ .smem, ⟨15, _⟩ => ⟨S100000, .i32⟩
  | .local _ .smem, ⟨16, _⟩ => ⟨S100000, .i32⟩
  | .local _ .smem, ⟨17, _⟩ => ⟨S100000, .i32⟩
  | .local _ .smem, ⟨18, _⟩ => ⟨S100000, .i32⟩
  | .local _ .smem, ⟨19, _⟩ => ⟨S100000, .i32⟩
  | .local _ .smem, ⟨20, _⟩ => ⟨S100000, .i32⟩
  | .local _ .smem, ⟨21, _⟩ => ⟨S100000, .i32⟩
  | .local _ .smem, ⟨22, _⟩ => ⟨S100000, .i32⟩
  | .local _ .smem, ⟨23, _⟩ => ⟨S100000, .i32⟩
  | .local _ .smem, ⟨24, _⟩ => ⟨S100000, .i32⟩
  | .local _ .smem, ⟨25, _⟩ => ⟨S100000, .i32⟩
  | .local _ .smem, ⟨26, _⟩ => ⟨S100000, .i32⟩
  | .local _ .smem, ⟨27, _⟩ => ⟨S100000, .i32⟩
  | .local _ .smem, ⟨28, _⟩ => ⟨S100000, .i32⟩
  | .local _ .smem, ⟨29, _⟩ => ⟨S100000, .i32⟩
  | .local _ .smem, ⟨30, _⟩ => ⟨S100000, .i32⟩
  | .local _ .smem, ⟨31, _⟩ => ⟨S100000, .i32⟩
  | .local _ .smem, ⟨32, _⟩ => ⟨S100000, .i32⟩
  | .local _ .smem, ⟨33, _⟩ => ⟨S100000, .i32⟩
  | .local _ .smem, ⟨34, _⟩ => ⟨S100000, .i32⟩
  | .local _ .smem, ⟨35, _⟩ => ⟨S100000, .i32⟩
  | .local _ .smem, ⟨36, _⟩ => ⟨S100000, .i32⟩
  | .local _ .smem, ⟨37, _⟩ => ⟨S100000, .i32⟩
  | .local _ .smem, ⟨38, _⟩ => ⟨S100000, .i32⟩
  | .local _ .smem, ⟨39, _⟩ => ⟨S100000, .i32⟩
  | .local _ .smem, ⟨40, _⟩ => ⟨S100000, .i32⟩
  | .local _ .smem, ⟨41, _⟩ => ⟨S100000, .i32⟩
  | .local _ .smem, ⟨42, _⟩ => ⟨S100000, .i32⟩
  | .local _ .smem, ⟨43, _⟩ => ⟨S100000, .i32⟩
  | .local _ .smem, ⟨44, _⟩ => ⟨S100000, .i32⟩
  | .local _ .smem, ⟨45, _⟩ => ⟨S100000, .i32⟩
  | .local _ .smem, ⟨46, _⟩ => ⟨S100000, .i32⟩
  | .local _ .smem, ⟨47, _⟩ => ⟨S100000, .i32⟩
  | _, _ => ⟨S40000x64, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_3 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_4 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | _ => false

abbrev dmaSemScopedAt (i : Nat) : Bool := match i / 128 with
  | 0 => dmaSemScopedAt0_0 i
  | 1 => dmaSemScopedAt0_1 i
  | 2 => dmaSemScopedAt0_2 i
  | 3 => dmaSemScopedAt0_3 i
  | 4 => dmaSemScopedAt0_4 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 580 → Bool
  | ⟨i, _⟩ => dmaSemScopedAt i

abbrev sig : RefSig :=
  ofTc nBuf bufTy 0 580 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v42 : Ref sig .tc := ⟨.hbm, 42, rfl⟩
abbrev main_v43 : Ref sig .tc := ⟨.hbm, 43, rfl⟩
abbrev main_v44 : Ref sig .tc := ⟨.hbm, 44, rfl⟩
abbrev main_v46 : Ref sig .tc := ⟨.hbm, 45, rfl⟩
abbrev main_v47 : Ref sig .tc := ⟨.hbm, 46, rfl⟩
abbrev main_v48 : Ref sig .tc := ⟨.hbm, 47, rfl⟩
abbrev main_v50 : Ref sig .tc := ⟨.hbm, 48, rfl⟩
abbrev main_v51 : Ref sig .tc := ⟨.hbm, 49, rfl⟩
abbrev main_v52 : Ref sig .tc := ⟨.hbm, 50, rfl⟩
abbrev main_v54 : Ref sig .tc := ⟨.hbm, 51, rfl⟩
abbrev main_v55 : Ref sig .tc := ⟨.hbm, 52, rfl⟩
abbrev main_v56 : Ref sig .tc := ⟨.hbm, 53, rfl⟩
abbrev main_v58 : Ref sig .tc := ⟨.hbm, 54, rfl⟩
abbrev main_v59 : Ref sig .tc := ⟨.hbm, 55, rfl⟩
abbrev main_v60 : Ref sig .tc := ⟨.hbm, 56, rfl⟩
abbrev main_v62 : Ref sig .tc := ⟨.hbm, 57, rfl⟩
abbrev main_v63 : Ref sig .tc := ⟨.hbm, 58, rfl⟩
abbrev main_v64 : Ref sig .tc := ⟨.hbm, 59, rfl⟩
abbrev main_v66 : Ref sig .tc := ⟨.hbm, 60, rfl⟩
abbrev main_v67 : Ref sig .tc := ⟨.hbm, 61, rfl⟩
abbrev main_v68 : Ref sig .tc := ⟨.hbm, 62, rfl⟩
abbrev main_v69 : Ref sig .tc := ⟨.hbm, 63, rfl⟩
abbrev main_cst_0 : Ref sig .tc := ⟨.hbm, 64, rfl⟩
abbrev main_v70 : Ref sig .tc := ⟨.hbm, 65, rfl⟩
abbrev main_v71 : Ref sig .tc := ⟨.hbm, 66, rfl⟩
abbrev main_v72 : Ref sig .tc := ⟨.hbm, 67, rfl⟩
abbrev main_v73 : Ref sig .tc := ⟨.hbm, 68, rfl⟩
abbrev main_v75 : Ref sig .tc := ⟨.hbm, 69, rfl⟩
abbrev main_v76 : Ref sig .tc := ⟨.hbm, 70, rfl⟩
abbrev main_v77 : Ref sig .tc := ⟨.hbm, 71, rfl⟩
abbrev main_v79 : Ref sig .tc := ⟨.hbm, 72, rfl⟩
abbrev main_v80 : Ref sig .tc := ⟨.hbm, 73, rfl⟩
abbrev main_v81 : Ref sig .tc := ⟨.hbm, 74, rfl⟩
abbrev main_v83 : Ref sig .tc := ⟨.hbm, 75, rfl⟩
abbrev main_v84 : Ref sig .tc := ⟨.hbm, 76, rfl⟩
abbrev main_v85 : Ref sig .tc := ⟨.hbm, 77, rfl⟩
abbrev main_v87 : Ref sig .tc := ⟨.hbm, 78, rfl⟩
abbrev main_v88 : Ref sig .tc := ⟨.hbm, 79, rfl⟩
abbrev main_v89 : Ref sig .tc := ⟨.hbm, 80, rfl⟩
abbrev main_v91 : Ref sig .tc := ⟨.hbm, 81, rfl⟩
abbrev main_v92 : Ref sig .tc := ⟨.hbm, 82, rfl⟩
abbrev main_v93 : Ref sig .tc := ⟨.hbm, 83, rfl⟩
abbrev main_v95 : Ref sig .tc := ⟨.hbm, 84, rfl⟩
abbrev main_v96 : Ref sig .tc := ⟨.hbm, 85, rfl⟩
abbrev main_v97 : Ref sig .tc := ⟨.hbm, 86, rfl⟩
abbrev main_v99 : Ref sig .tc := ⟨.hbm, 87, rfl⟩
abbrev main_v100 : Ref sig .tc := ⟨.hbm, 88, rfl⟩
abbrev main_v101 : Ref sig .tc := ⟨.hbm, 89, rfl⟩
abbrev main_v103 : Ref sig .tc := ⟨.hbm, 90, rfl⟩
abbrev main_v104 : Ref sig .tc := ⟨.hbm, 91, rfl⟩
abbrev main_v105 : Ref sig .tc := ⟨.hbm, 92, rfl⟩
abbrev main_v107 : Ref sig .tc := ⟨.hbm, 93, rfl⟩
abbrev main_v108 : Ref sig .tc := ⟨.hbm, 94, rfl⟩
abbrev main_v109 : Ref sig .tc := ⟨.hbm, 95, rfl⟩
abbrev main_v111 : Ref sig .tc := ⟨.hbm, 96, rfl⟩
abbrev main_v112 : Ref sig .tc := ⟨.hbm, 97, rfl⟩
abbrev main_v113 : Ref sig .tc := ⟨.hbm, 98, rfl⟩
abbrev main_v115 : Ref sig .tc := ⟨.hbm, 99, rfl⟩
abbrev main_v116 : Ref sig .tc := ⟨.hbm, 100, rfl⟩
abbrev main_v117 : Ref sig .tc := ⟨.hbm, 101, rfl⟩
abbrev main_v119 : Ref sig .tc := ⟨.hbm, 102, rfl⟩
abbrev main_v120 : Ref sig .tc := ⟨.hbm, 103, rfl⟩
abbrev main_v121 : Ref sig .tc := ⟨.hbm, 104, rfl⟩
abbrev main_v123 : Ref sig .tc := ⟨.hbm, 105, rfl⟩
abbrev main_v124 : Ref sig .tc := ⟨.hbm, 106, rfl⟩
abbrev main_v125 : Ref sig .tc := ⟨.hbm, 107, rfl⟩
abbrev main_v127 : Ref sig .tc := ⟨.hbm, 108, rfl⟩
abbrev main_v128 : Ref sig .tc := ⟨.hbm, 109, rfl⟩
abbrev main_v129 : Ref sig .tc := ⟨.hbm, 110, rfl⟩
abbrev main_v131 : Ref sig .tc := ⟨.hbm, 111, rfl⟩
abbrev main_v132 : Ref sig .tc := ⟨.hbm, 112, rfl⟩
abbrev main_v133 : Ref sig .tc := ⟨.hbm, 113, rfl⟩
abbrev main_v135 : Ref sig .tc := ⟨.hbm, 114, rfl⟩
abbrev main_v136 : Ref sig .tc := ⟨.hbm, 115, rfl⟩
abbrev main_v137 : Ref sig .tc := ⟨.hbm, 116, rfl⟩
abbrev main_v138 : Ref sig .tc := ⟨.hbm, 117, rfl⟩
abbrev main_cst_1 : Ref sig .tc := ⟨.hbm, 118, rfl⟩
abbrev main_v139 : Ref sig .tc := ⟨.hbm, 119, rfl⟩
abbrev main_v140 : Ref sig .tc := ⟨.hbm, 120, rfl⟩
abbrev main_v141 : Ref sig .tc := ⟨.hbm, 121, rfl⟩
abbrev main_v142 : Ref sig .tc := ⟨.hbm, 122, rfl⟩
abbrev main_v144 : Ref sig .tc := ⟨.hbm, 123, rfl⟩
abbrev main_v145 : Ref sig .tc := ⟨.hbm, 124, rfl⟩
abbrev main_v146 : Ref sig .tc := ⟨.hbm, 125, rfl⟩
abbrev main_v148 : Ref sig .tc := ⟨.hbm, 126, rfl⟩
abbrev main_v149 : Ref sig .tc := ⟨.hbm, 127, rfl⟩
abbrev main_v150 : Ref sig .tc := ⟨.hbm, 128, rfl⟩
abbrev main_v152 : Ref sig .tc := ⟨.hbm, 129, rfl⟩
abbrev main_v153 : Ref sig .tc := ⟨.hbm, 130, rfl⟩
abbrev main_v154 : Ref sig .tc := ⟨.hbm, 131, rfl⟩
abbrev main_v156 : Ref sig .tc := ⟨.hbm, 132, rfl⟩
abbrev main_v157 : Ref sig .tc := ⟨.hbm, 133, rfl⟩
abbrev main_v158 : Ref sig .tc := ⟨.hbm, 134, rfl⟩
abbrev main_v160 : Ref sig .tc := ⟨.hbm, 135, rfl⟩
abbrev main_v161 : Ref sig .tc := ⟨.hbm, 136, rfl⟩
abbrev main_v162 : Ref sig .tc := ⟨.hbm, 137, rfl⟩
abbrev main_v164 : Ref sig .tc := ⟨.hbm, 138, rfl⟩
abbrev main_v165 : Ref sig .tc := ⟨.hbm, 139, rfl⟩
abbrev main_v166 : Ref sig .tc := ⟨.hbm, 140, rfl⟩
abbrev main_v168 : Ref sig .tc := ⟨.hbm, 141, rfl⟩
abbrev main_v169 : Ref sig .tc := ⟨.hbm, 142, rfl⟩
abbrev main_v170 : Ref sig .tc := ⟨.hbm, 143, rfl⟩
abbrev main_v172 : Ref sig .tc := ⟨.hbm, 144, rfl⟩
abbrev main_v173 : Ref sig .tc := ⟨.hbm, 145, rfl⟩
abbrev main_v174 : Ref sig .tc := ⟨.hbm, 146, rfl⟩
abbrev main_v176 : Ref sig .tc := ⟨.hbm, 147, rfl⟩
abbrev main_v177 : Ref sig .tc := ⟨.hbm, 148, rfl⟩
abbrev main_v178 : Ref sig .tc := ⟨.hbm, 149, rfl⟩
abbrev main_v180 : Ref sig .tc := ⟨.hbm, 150, rfl⟩
abbrev main_v181 : Ref sig .tc := ⟨.hbm, 151, rfl⟩
abbrev main_v182 : Ref sig .tc := ⟨.hbm, 152, rfl⟩
abbrev main_v184 : Ref sig .tc := ⟨.hbm, 153, rfl⟩
abbrev main_v185 : Ref sig .tc := ⟨.hbm, 154, rfl⟩
abbrev main_v186 : Ref sig .tc := ⟨.hbm, 155, rfl⟩
abbrev main_v188 : Ref sig .tc := ⟨.hbm, 156, rfl⟩
abbrev main_v189 : Ref sig .tc := ⟨.hbm, 157, rfl⟩
abbrev main_v190 : Ref sig .tc := ⟨.hbm, 158, rfl⟩
abbrev main_v192 : Ref sig .tc := ⟨.hbm, 159, rfl⟩
abbrev main_v193 : Ref sig .tc := ⟨.hbm, 160, rfl⟩
abbrev main_v194 : Ref sig .tc := ⟨.hbm, 161, rfl⟩
abbrev main_v196 : Ref sig .tc := ⟨.hbm, 162, rfl⟩
abbrev main_v197 : Ref sig .tc := ⟨.hbm, 163, rfl⟩
abbrev main_v198 : Ref sig .tc := ⟨.hbm, 164, rfl⟩
abbrev main_v200 : Ref sig .tc := ⟨.hbm, 165, rfl⟩
abbrev main_v201 : Ref sig .tc := ⟨.hbm, 166, rfl⟩
abbrev main_v202 : Ref sig .tc := ⟨.hbm, 167, rfl⟩
abbrev main_v204 : Ref sig .tc := ⟨.hbm, 168, rfl⟩
abbrev main_v205 : Ref sig .tc := ⟨.hbm, 169, rfl⟩
abbrev main_v206 : Ref sig .tc := ⟨.hbm, 170, rfl⟩
abbrev main_v207 : Ref sig .tc := ⟨.hbm, 171, rfl⟩
abbrev main_cst_2 : Ref sig .tc := ⟨.hbm, 172, rfl⟩
abbrev main_v208 : Ref sig .tc := ⟨.hbm, 173, rfl⟩
abbrev main_v209 : Ref sig .tc := ⟨.hbm, 174, rfl⟩
abbrev main_v210 : Ref sig .tc := ⟨.hbm, 175, rfl⟩
abbrev main_v211 : Ref sig .tc := ⟨.hbm, 176, rfl⟩
abbrev main_v212 : Ref sig .tc := ⟨.hbm, 177, rfl⟩
abbrev main_v213 : Ref sig .tc := ⟨.hbm, 178, rfl⟩
abbrev main_c_3 : Ref sig .tc := ⟨.hbm, 179, rfl⟩
abbrev main_v214 : Ref sig .tc := ⟨.hbm, 180, rfl⟩
abbrev main_v215 : Ref sig .tc := ⟨.hbm, 181, rfl⟩
abbrev main_c_4 : Ref sig .tc := ⟨.hbm, 182, rfl⟩
abbrev main_v216 : Ref sig .tc := ⟨.hbm, 183, rfl⟩
abbrev main_v217 : Ref sig .tc := ⟨.hbm, 184, rfl⟩
abbrev main_v218 : Ref sig .tc := ⟨.hbm, 185, rfl⟩
abbrev main_v219 : Ref sig .tc := ⟨.hbm, 186, rfl⟩
abbrev main_v220 : Ref sig .tc := ⟨.hbm, 187, rfl⟩
abbrev main_c_5 : Ref sig .tc := ⟨.hbm, 188, rfl⟩
abbrev main_v221 : Ref sig .tc := ⟨.hbm, 189, rfl⟩
abbrev main_v222 : Ref sig .tc := ⟨.hbm, 190, rfl⟩
abbrev main_c_6 : Ref sig .tc := ⟨.hbm, 191, rfl⟩
abbrev main_v223 : Ref sig .tc := ⟨.hbm, 192, rfl⟩
abbrev main_v224 : Ref sig .tc := ⟨.hbm, 193, rfl⟩
abbrev main_v225 : Ref sig .tc := ⟨.hbm, 194, rfl⟩
abbrev main_v226 : Ref sig .tc := ⟨.hbm, 195, rfl⟩
abbrev main_v227 : Ref sig .tc := ⟨.hbm, 196, rfl⟩
abbrev main_v5 : Ref sig .tc := ⟨.smem, 0, rfl⟩
abbrev main_v9 : Ref sig .tc := ⟨.smem, 1, rfl⟩
abbrev main_v13 : Ref sig .tc := ⟨.smem, 2, rfl⟩
abbrev main_v17 : Ref sig .tc := ⟨.smem, 3, rfl⟩
abbrev main_v21 : Ref sig .tc := ⟨.smem, 4, rfl⟩
abbrev main_v25 : Ref sig .tc := ⟨.smem, 5, rfl⟩
abbrev main_v29 : Ref sig .tc := ⟨.smem, 6, rfl⟩
abbrev main_v33 : Ref sig .tc := ⟨.smem, 7, rfl⟩
abbrev main_v37 : Ref sig .tc := ⟨.smem, 8, rfl⟩
abbrev main_v41 : Ref sig .tc := ⟨.smem, 9, rfl⟩
abbrev main_v45 : Ref sig .tc := ⟨.smem, 10, rfl⟩
abbrev main_v49 : Ref sig .tc := ⟨.smem, 11, rfl⟩
abbrev main_v53 : Ref sig .tc := ⟨.smem, 12, rfl⟩
abbrev main_v57 : Ref sig .tc := ⟨.smem, 13, rfl⟩
abbrev main_v61 : Ref sig .tc := ⟨.smem, 14, rfl⟩
abbrev main_v65 : Ref sig .tc := ⟨.smem, 15, rfl⟩
abbrev main_v74 : Ref sig .tc := ⟨.smem, 16, rfl⟩
abbrev main_v78 : Ref sig .tc := ⟨.smem, 17, rfl⟩
abbrev main_v82 : Ref sig .tc := ⟨.smem, 18, rfl⟩
abbrev main_v86 : Ref sig .tc := ⟨.smem, 19, rfl⟩
abbrev main_v90 : Ref sig .tc := ⟨.smem, 20, rfl⟩
abbrev main_v94 : Ref sig .tc := ⟨.smem, 21, rfl⟩
abbrev main_v98 : Ref sig .tc := ⟨.smem, 22, rfl⟩
abbrev main_v102 : Ref sig .tc := ⟨.smem, 23, rfl⟩
abbrev main_v106 : Ref sig .tc := ⟨.smem, 24, rfl⟩
abbrev main_v110 : Ref sig .tc := ⟨.smem, 25, rfl⟩
abbrev main_v114 : Ref sig .tc := ⟨.smem, 26, rfl⟩
abbrev main_v118 : Ref sig .tc := ⟨.smem, 27, rfl⟩
abbrev main_v122 : Ref sig .tc := ⟨.smem, 28, rfl⟩
abbrev main_v126 : Ref sig .tc := ⟨.smem, 29, rfl⟩
abbrev main_v130 : Ref sig .tc := ⟨.smem, 30, rfl⟩
abbrev main_v134 : Ref sig .tc := ⟨.smem, 31, rfl⟩
abbrev main_v143 : Ref sig .tc := ⟨.smem, 32, rfl⟩
abbrev main_v147 : Ref sig .tc := ⟨.smem, 33, rfl⟩
abbrev main_v151 : Ref sig .tc := ⟨.smem, 34, rfl⟩
abbrev main_v155 : Ref sig .tc := ⟨.smem, 35, rfl⟩
abbrev main_v159 : Ref sig .tc := ⟨.smem, 36, rfl⟩
abbrev main_v163 : Ref sig .tc := ⟨.smem, 37, rfl⟩
abbrev main_v167 : Ref sig .tc := ⟨.smem, 38, rfl⟩
abbrev main_v171 : Ref sig .tc := ⟨.smem, 39, rfl⟩
abbrev main_v175 : Ref sig .tc := ⟨.smem, 40, rfl⟩
abbrev main_v179 : Ref sig .tc := ⟨.smem, 41, rfl⟩
abbrev main_v183 : Ref sig .tc := ⟨.smem, 42, rfl⟩
abbrev main_v187 : Ref sig .tc := ⟨.smem, 43, rfl⟩
abbrev main_v191 : Ref sig .tc := ⟨.smem, 44, rfl⟩
abbrev main_v195 : Ref sig .tc := ⟨.smem, 45, rfl⟩
abbrev main_v199 : Ref sig .tc := ⟨.smem, 46, rfl⟩
abbrev main_v203 : Ref sig .tc := ⟨.smem, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_scratch0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_scratch0 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg1_1 : Ref sig .tc := ⟨.vmem, 17, rfl⟩
abbrev cc3_scratch0 : Ref sig .tc := ⟨.vmem, 18, rfl⟩
abbrev cc4_stg0_0 : Ref sig .tc := ⟨.vmem, 19, rfl⟩
abbrev cc4_stg0_1 : Ref sig .tc := ⟨.vmem, 20, rfl⟩
abbrev cc4_stg1_0 : Ref sig .tc := ⟨.vmem, 21, rfl⟩
abbrev cc4_stg1_1 : Ref sig .tc := ⟨.vmem, 22, rfl⟩
abbrev cc4_scratch0 : Ref sig .tc := ⟨.vmem, 23, rfl⟩
abbrev cc5_stg0_0 : Ref sig .tc := ⟨.vmem, 24, rfl⟩
abbrev cc5_stg0_1 : Ref sig .tc := ⟨.vmem, 25, rfl⟩
abbrev cc5_stg1_0 : Ref sig .tc := ⟨.vmem, 26, rfl⟩
abbrev cc5_stg1_1 : Ref sig .tc := ⟨.vmem, 27, rfl⟩
abbrev cc5_scratch0 : Ref sig .tc := ⟨.vmem, 28, rfl⟩
abbrev cc6_stg0_0 : Ref sig .tc := ⟨.vmem, 29, rfl⟩
abbrev cc6_stg0_1 : Ref sig .tc := ⟨.vmem, 30, rfl⟩
abbrev cc6_stg1_0 : Ref sig .tc := ⟨.vmem, 31, rfl⟩
abbrev cc6_stg1_1 : Ref sig .tc := ⟨.vmem, 32, rfl⟩
abbrev cc6_scratch0 : Ref sig .tc := ⟨.vmem, 33, rfl⟩
abbrev cc7_stg0_0 : Ref sig .tc := ⟨.vmem, 34, rfl⟩
abbrev cc7_stg0_1 : Ref sig .tc := ⟨.vmem, 35, rfl⟩
abbrev cc7_stg1_0 : Ref sig .tc := ⟨.vmem, 36, rfl⟩
abbrev cc7_stg1_1 : Ref sig .tc := ⟨.vmem, 37, rfl⟩
abbrev cc7_scratch0 : Ref sig .tc := ⟨.vmem, 38, rfl⟩
abbrev cc8_stg0_0 : Ref sig .tc := ⟨.vmem, 39, rfl⟩
abbrev cc8_stg0_1 : Ref sig .tc := ⟨.vmem, 40, rfl⟩
abbrev cc8_stg1_0 : Ref sig .tc := ⟨.vmem, 41, rfl⟩
abbrev cc8_stg1_1 : Ref sig .tc := ⟨.vmem, 42, rfl⟩
abbrev cc8_scratch0 : Ref sig .tc := ⟨.vmem, 43, rfl⟩
abbrev cc9_stg0_0 : Ref sig .tc := ⟨.vmem, 44, rfl⟩
abbrev cc9_stg0_1 : Ref sig .tc := ⟨.vmem, 45, rfl⟩
abbrev cc9_stg1_0 : Ref sig .tc := ⟨.vmem, 46, rfl⟩
abbrev cc9_stg1_1 : Ref sig .tc := ⟨.vmem, 47, rfl⟩
abbrev cc9_scratch0 : Ref sig .tc := ⟨.vmem, 48, rfl⟩
abbrev cc10_stg0_0 : Ref sig .tc := ⟨.vmem, 49, rfl⟩
abbrev cc10_stg0_1 : Ref sig .tc := ⟨.vmem, 50, rfl⟩
abbrev cc10_stg1_0 : Ref sig .tc := ⟨.vmem, 51, rfl⟩
abbrev cc10_stg1_1 : Ref sig .tc := ⟨.vmem, 52, rfl⟩
abbrev cc10_scratch0 : Ref sig .tc := ⟨.vmem, 53, rfl⟩
abbrev cc11_stg0_0 : Ref sig .tc := ⟨.vmem, 54, rfl⟩
abbrev cc11_stg0_1 : Ref sig .tc := ⟨.vmem, 55, rfl⟩
abbrev cc11_stg1_0 : Ref sig .tc := ⟨.vmem, 56, rfl⟩
abbrev cc11_stg1_1 : Ref sig .tc := ⟨.vmem, 57, rfl⟩
abbrev cc11_scratch0 : Ref sig .tc := ⟨.vmem, 58, rfl⟩
abbrev cc12_stg0_0 : Ref sig .tc := ⟨.vmem, 59, rfl⟩
abbrev cc12_stg0_1 : Ref sig .tc := ⟨.vmem, 60, rfl⟩
abbrev cc12_stg1_0 : Ref sig .tc := ⟨.vmem, 61, rfl⟩
abbrev cc12_stg1_1 : Ref sig .tc := ⟨.vmem, 62, rfl⟩
abbrev cc12_scratch0 : Ref sig .tc := ⟨.vmem, 63, rfl⟩
abbrev cc13_stg0_0 : Ref sig .tc := ⟨.vmem, 64, rfl⟩
abbrev cc13_stg0_1 : Ref sig .tc := ⟨.vmem, 65, rfl⟩
abbrev cc13_stg1_0 : Ref sig .tc := ⟨.vmem, 66, rfl⟩
abbrev cc13_stg1_1 : Ref sig .tc := ⟨.vmem, 67, rfl⟩
abbrev cc13_scratch0 : Ref sig .tc := ⟨.vmem, 68, rfl⟩
abbrev cc14_stg0_0 : Ref sig .tc := ⟨.vmem, 69, rfl⟩
abbrev cc14_stg0_1 : Ref sig .tc := ⟨.vmem, 70, rfl⟩
abbrev cc14_stg1_0 : Ref sig .tc := ⟨.vmem, 71, rfl⟩
abbrev cc14_stg1_1 : Ref sig .tc := ⟨.vmem, 72, rfl⟩
abbrev cc14_scratch0 : Ref sig .tc := ⟨.vmem, 73, rfl⟩
abbrev cc15_stg0_0 : Ref sig .tc := ⟨.vmem, 74, rfl⟩
abbrev cc15_stg0_1 : Ref sig .tc := ⟨.vmem, 75, rfl⟩
abbrev cc15_stg1_0 : Ref sig .tc := ⟨.vmem, 76, rfl⟩
abbrev cc15_stg1_1 : Ref sig .tc := ⟨.vmem, 77, rfl⟩
abbrev cc15_scratch0 : Ref sig .tc := ⟨.vmem, 78, rfl⟩
abbrev cc16_stg0_0 : Ref sig .tc := ⟨.vmem, 79, rfl⟩
abbrev cc16_stg0_1 : Ref sig .tc := ⟨.vmem, 80, rfl⟩
abbrev cc16_stg1_0 : Ref sig .tc := ⟨.vmem, 81, rfl⟩
abbrev cc16_stg1_1 : Ref sig .tc := ⟨.vmem, 82, rfl⟩
abbrev cc16_scratch0 : Ref sig .tc := ⟨.vmem, 83, rfl⟩
abbrev cc17_stg0_0 : Ref sig .tc := ⟨.vmem, 84, rfl⟩
abbrev cc17_stg0_1 : Ref sig .tc := ⟨.vmem, 85, rfl⟩
abbrev cc17_stg1_0 : Ref sig .tc := ⟨.vmem, 86, rfl⟩
abbrev cc17_stg1_1 : Ref sig .tc := ⟨.vmem, 87, rfl⟩
abbrev cc17_scratch0 : Ref sig .tc := ⟨.vmem, 88, rfl⟩
abbrev cc18_stg0_0 : Ref sig .tc := ⟨.vmem, 89, rfl⟩
abbrev cc18_stg0_1 : Ref sig .tc := ⟨.vmem, 90, rfl⟩
abbrev cc18_stg1_0 : Ref sig .tc := ⟨.vmem, 91, rfl⟩
abbrev cc18_stg1_1 : Ref sig .tc := ⟨.vmem, 92, rfl⟩
abbrev cc18_scratch0 : Ref sig .tc := ⟨.vmem, 93, rfl⟩
abbrev cc19_stg0_0 : Ref sig .tc := ⟨.vmem, 94, rfl⟩
abbrev cc19_stg0_1 : Ref sig .tc := ⟨.vmem, 95, rfl⟩
abbrev cc19_stg1_0 : Ref sig .tc := ⟨.vmem, 96, rfl⟩
abbrev cc19_stg1_1 : Ref sig .tc := ⟨.vmem, 97, rfl⟩
abbrev cc19_scratch0 : Ref sig .tc := ⟨.vmem, 98, rfl⟩
abbrev cc20_stg0_0 : Ref sig .tc := ⟨.vmem, 99, rfl⟩
abbrev cc20_stg0_1 : Ref sig .tc := ⟨.vmem, 100, rfl⟩
abbrev cc20_stg1_0 : Ref sig .tc := ⟨.vmem, 101, rfl⟩
abbrev cc20_stg1_1 : Ref sig .tc := ⟨.vmem, 102, rfl⟩
abbrev cc20_scratch0 : Ref sig .tc := ⟨.vmem, 103, rfl⟩
abbrev cc21_stg0_0 : Ref sig .tc := ⟨.vmem, 104, rfl⟩
abbrev cc21_stg0_1 : Ref sig .tc := ⟨.vmem, 105, rfl⟩
abbrev cc21_stg1_0 : Ref sig .tc := ⟨.vmem, 106, rfl⟩
abbrev cc21_stg1_1 : Ref sig .tc := ⟨.vmem, 107, rfl⟩
abbrev cc21_scratch0 : Ref sig .tc := ⟨.vmem, 108, rfl⟩
abbrev cc22_stg0_0 : Ref sig .tc := ⟨.vmem, 109, rfl⟩
abbrev cc22_stg0_1 : Ref sig .tc := ⟨.vmem, 110, rfl⟩
abbrev cc22_stg1_0 : Ref sig .tc := ⟨.vmem, 111, rfl⟩
abbrev cc22_stg1_1 : Ref sig .tc := ⟨.vmem, 112, rfl⟩
abbrev cc22_scratch0 : Ref sig .tc := ⟨.vmem, 113, rfl⟩
abbrev cc23_stg0_0 : Ref sig .tc := ⟨.vmem, 114, rfl⟩
abbrev cc23_stg0_1 : Ref sig .tc := ⟨.vmem, 115, rfl⟩
abbrev cc23_stg1_0 : Ref sig .tc := ⟨.vmem, 116, rfl⟩
abbrev cc23_stg1_1 : Ref sig .tc := ⟨.vmem, 117, rfl⟩
abbrev cc23_scratch0 : Ref sig .tc := ⟨.vmem, 118, rfl⟩
abbrev cc24_stg0_0 : Ref sig .tc := ⟨.vmem, 119, rfl⟩
abbrev cc24_stg0_1 : Ref sig .tc := ⟨.vmem, 120, rfl⟩
abbrev cc24_stg1_0 : Ref sig .tc := ⟨.vmem, 121, rfl⟩
abbrev cc24_stg1_1 : Ref sig .tc := ⟨.vmem, 122, rfl⟩
abbrev cc24_scratch0 : Ref sig .tc := ⟨.vmem, 123, rfl⟩
abbrev cc25_stg0_0 : Ref sig .tc := ⟨.vmem, 124, rfl⟩
abbrev cc25_stg0_1 : Ref sig .tc := ⟨.vmem, 125, rfl⟩
abbrev cc25_stg1_0 : Ref sig .tc := ⟨.vmem, 126, rfl⟩
abbrev cc25_stg1_1 : Ref sig .tc := ⟨.vmem, 127, rfl⟩
abbrev cc25_scratch0 : Ref sig .tc := ⟨.vmem, 128, rfl⟩
abbrev cc26_stg0_0 : Ref sig .tc := ⟨.vmem, 129, rfl⟩
abbrev cc26_stg0_1 : Ref sig .tc := ⟨.vmem, 130, rfl⟩
abbrev cc26_stg1_0 : Ref sig .tc := ⟨.vmem, 131, rfl⟩
abbrev cc26_stg1_1 : Ref sig .tc := ⟨.vmem, 132, rfl⟩
abbrev cc26_scratch0 : Ref sig .tc := ⟨.vmem, 133, rfl⟩
abbrev cc27_stg0_0 : Ref sig .tc := ⟨.vmem, 134, rfl⟩
abbrev cc27_stg0_1 : Ref sig .tc := ⟨.vmem, 135, rfl⟩
abbrev cc27_stg1_0 : Ref sig .tc := ⟨.vmem, 136, rfl⟩
abbrev cc27_stg1_1 : Ref sig .tc := ⟨.vmem, 137, rfl⟩
abbrev cc27_scratch0 : Ref sig .tc := ⟨.vmem, 138, rfl⟩
abbrev cc28_stg0_0 : Ref sig .tc := ⟨.vmem, 139, rfl⟩
abbrev cc28_stg0_1 : Ref sig .tc := ⟨.vmem, 140, rfl⟩
abbrev cc28_stg1_0 : Ref sig .tc := ⟨.vmem, 141, rfl⟩
abbrev cc28_stg1_1 : Ref sig .tc := ⟨.vmem, 142, rfl⟩
abbrev cc28_scratch0 : Ref sig .tc := ⟨.vmem, 143, rfl⟩
abbrev cc29_stg0_0 : Ref sig .tc := ⟨.vmem, 144, rfl⟩
abbrev cc29_stg0_1 : Ref sig .tc := ⟨.vmem, 145, rfl⟩
abbrev cc29_stg1_0 : Ref sig .tc := ⟨.vmem, 146, rfl⟩
abbrev cc29_stg1_1 : Ref sig .tc := ⟨.vmem, 147, rfl⟩
abbrev cc29_scratch0 : Ref sig .tc := ⟨.vmem, 148, rfl⟩
abbrev cc30_stg0_0 : Ref sig .tc := ⟨.vmem, 149, rfl⟩
abbrev cc30_stg0_1 : Ref sig .tc := ⟨.vmem, 150, rfl⟩
abbrev cc30_stg1_0 : Ref sig .tc := ⟨.vmem, 151, rfl⟩
abbrev cc30_stg1_1 : Ref sig .tc := ⟨.vmem, 152, rfl⟩
abbrev cc30_scratch0 : Ref sig .tc := ⟨.vmem, 153, rfl⟩
abbrev cc31_stg0_0 : Ref sig .tc := ⟨.vmem, 154, rfl⟩
abbrev cc31_stg0_1 : Ref sig .tc := ⟨.vmem, 155, rfl⟩
abbrev cc31_stg1_0 : Ref sig .tc := ⟨.vmem, 156, rfl⟩
abbrev cc31_stg1_1 : Ref sig .tc := ⟨.vmem, 157, rfl⟩
abbrev cc31_scratch0 : Ref sig .tc := ⟨.vmem, 158, rfl⟩
abbrev cc32_stg0_0 : Ref sig .tc := ⟨.vmem, 159, rfl⟩
abbrev cc32_stg0_1 : Ref sig .tc := ⟨.vmem, 160, rfl⟩
abbrev cc32_stg1_0 : Ref sig .tc := ⟨.vmem, 161, rfl⟩
abbrev cc32_stg1_1 : Ref sig .tc := ⟨.vmem, 162, rfl⟩
abbrev cc32_scratch0 : Ref sig .tc := ⟨.vmem, 163, rfl⟩
abbrev cc33_stg0_0 : Ref sig .tc := ⟨.vmem, 164, rfl⟩
abbrev cc33_stg0_1 : Ref sig .tc := ⟨.vmem, 165, rfl⟩
abbrev cc33_stg1_0 : Ref sig .tc := ⟨.vmem, 166, rfl⟩
abbrev cc33_stg1_1 : Ref sig .tc := ⟨.vmem, 167, rfl⟩
abbrev cc33_scratch0 : Ref sig .tc := ⟨.vmem, 168, rfl⟩
abbrev cc34_stg0_0 : Ref sig .tc := ⟨.vmem, 169, rfl⟩
abbrev cc34_stg0_1 : Ref sig .tc := ⟨.vmem, 170, rfl⟩
abbrev cc34_stg1_0 : Ref sig .tc := ⟨.vmem, 171, rfl⟩
abbrev cc34_stg1_1 : Ref sig .tc := ⟨.vmem, 172, rfl⟩
abbrev cc34_scratch0 : Ref sig .tc := ⟨.vmem, 173, rfl⟩
abbrev cc35_stg0_0 : Ref sig .tc := ⟨.vmem, 174, rfl⟩
abbrev cc35_stg0_1 : Ref sig .tc := ⟨.vmem, 175, rfl⟩
abbrev cc35_stg1_0 : Ref sig .tc := ⟨.vmem, 176, rfl⟩
abbrev cc35_stg1_1 : Ref sig .tc := ⟨.vmem, 177, rfl⟩
abbrev cc35_scratch0 : Ref sig .tc := ⟨.vmem, 178, rfl⟩
abbrev cc36_stg0_0 : Ref sig .tc := ⟨.vmem, 179, rfl⟩
abbrev cc36_stg0_1 : Ref sig .tc := ⟨.vmem, 180, rfl⟩
abbrev cc36_stg1_0 : Ref sig .tc := ⟨.vmem, 181, rfl⟩
abbrev cc36_stg1_1 : Ref sig .tc := ⟨.vmem, 182, rfl⟩
abbrev cc36_scratch0 : Ref sig .tc := ⟨.vmem, 183, rfl⟩
abbrev cc37_stg0_0 : Ref sig .tc := ⟨.vmem, 184, rfl⟩
abbrev cc37_stg0_1 : Ref sig .tc := ⟨.vmem, 185, rfl⟩
abbrev cc37_stg1_0 : Ref sig .tc := ⟨.vmem, 186, rfl⟩
abbrev cc37_stg1_1 : Ref sig .tc := ⟨.vmem, 187, rfl⟩
abbrev cc37_scratch0 : Ref sig .tc := ⟨.vmem, 188, rfl⟩
abbrev cc38_stg0_0 : Ref sig .tc := ⟨.vmem, 189, rfl⟩
abbrev cc38_stg0_1 : Ref sig .tc := ⟨.vmem, 190, rfl⟩
abbrev cc38_stg1_0 : Ref sig .tc := ⟨.vmem, 191, rfl⟩
abbrev cc38_stg1_1 : Ref sig .tc := ⟨.vmem, 192, rfl⟩
abbrev cc38_scratch0 : Ref sig .tc := ⟨.vmem, 193, rfl⟩
abbrev cc39_stg0_0 : Ref sig .tc := ⟨.vmem, 194, rfl⟩
abbrev cc39_stg0_1 : Ref sig .tc := ⟨.vmem, 195, rfl⟩
abbrev cc39_stg1_0 : Ref sig .tc := ⟨.vmem, 196, rfl⟩
abbrev cc39_stg1_1 : Ref sig .tc := ⟨.vmem, 197, rfl⟩
abbrev cc39_scratch0 : Ref sig .tc := ⟨.vmem, 198, rfl⟩
abbrev cc40_stg0_0 : Ref sig .tc := ⟨.vmem, 199, rfl⟩
abbrev cc40_stg0_1 : Ref sig .tc := ⟨.vmem, 200, rfl⟩
abbrev cc40_stg1_0 : Ref sig .tc := ⟨.vmem, 201, rfl⟩
abbrev cc40_stg1_1 : Ref sig .tc := ⟨.vmem, 202, rfl⟩
abbrev cc40_scratch0 : Ref sig .tc := ⟨.vmem, 203, rfl⟩
abbrev cc41_stg0_0 : Ref sig .tc := ⟨.vmem, 204, rfl⟩
abbrev cc41_stg0_1 : Ref sig .tc := ⟨.vmem, 205, rfl⟩
abbrev cc41_stg1_0 : Ref sig .tc := ⟨.vmem, 206, rfl⟩
abbrev cc41_stg1_1 : Ref sig .tc := ⟨.vmem, 207, rfl⟩
abbrev cc41_scratch0 : Ref sig .tc := ⟨.vmem, 208, rfl⟩
abbrev cc42_stg0_0 : Ref sig .tc := ⟨.vmem, 209, rfl⟩
abbrev cc42_stg0_1 : Ref sig .tc := ⟨.vmem, 210, rfl⟩
abbrev cc42_stg1_0 : Ref sig .tc := ⟨.vmem, 211, rfl⟩
abbrev cc42_stg1_1 : Ref sig .tc := ⟨.vmem, 212, rfl⟩
abbrev cc42_scratch0 : Ref sig .tc := ⟨.vmem, 213, rfl⟩
abbrev cc43_stg0_0 : Ref sig .tc := ⟨.vmem, 214, rfl⟩
abbrev cc43_stg0_1 : Ref sig .tc := ⟨.vmem, 215, rfl⟩
abbrev cc43_stg1_0 : Ref sig .tc := ⟨.vmem, 216, rfl⟩
abbrev cc43_stg1_1 : Ref sig .tc := ⟨.vmem, 217, rfl⟩
abbrev cc43_scratch0 : Ref sig .tc := ⟨.vmem, 218, rfl⟩
abbrev cc44_stg0_0 : Ref sig .tc := ⟨.vmem, 219, rfl⟩
abbrev cc44_stg0_1 : Ref sig .tc := ⟨.vmem, 220, rfl⟩
abbrev cc44_stg1_0 : Ref sig .tc := ⟨.vmem, 221, rfl⟩
abbrev cc44_stg1_1 : Ref sig .tc := ⟨.vmem, 222, rfl⟩
abbrev cc44_scratch0 : Ref sig .tc := ⟨.vmem, 223, rfl⟩
abbrev cc45_stg0_0 : Ref sig .tc := ⟨.vmem, 224, rfl⟩
abbrev cc45_stg0_1 : Ref sig .tc := ⟨.vmem, 225, rfl⟩
abbrev cc45_stg1_0 : Ref sig .tc := ⟨.vmem, 226, rfl⟩
abbrev cc45_stg1_1 : Ref sig .tc := ⟨.vmem, 227, rfl⟩
abbrev cc45_scratch0 : Ref sig .tc := ⟨.vmem, 228, rfl⟩
abbrev cc46_stg0_0 : Ref sig .tc := ⟨.vmem, 229, rfl⟩
abbrev cc46_stg0_1 : Ref sig .tc := ⟨.vmem, 230, rfl⟩
abbrev cc46_stg1_0 : Ref sig .tc := ⟨.vmem, 231, rfl⟩
abbrev cc46_stg1_1 : Ref sig .tc := ⟨.vmem, 232, rfl⟩
abbrev cc46_scratch0 : Ref sig .tc := ⟨.vmem, 233, rfl⟩
abbrev cc47_stg0_0 : Ref sig .tc := ⟨.vmem, 234, rfl⟩
abbrev cc47_stg0_1 : Ref sig .tc := ⟨.vmem, 235, rfl⟩
abbrev cc47_stg1_0 : Ref sig .tc := ⟨.vmem, 236, rfl⟩
abbrev cc47_stg1_1 : Ref sig .tc := ⟨.vmem, 237, rfl⟩
abbrev cc47_scratch0 : Ref sig .tc := ⟨.vmem, 238, rfl⟩
abbrev cc48_stg0_0 : Ref sig .tc := ⟨.vmem, 239, rfl⟩
abbrev cc48_stg0_1 : Ref sig .tc := ⟨.vmem, 240, rfl⟩
abbrev cc48_stg1_0 : Ref sig .tc := ⟨.vmem, 241, rfl⟩
abbrev cc48_stg1_1 : Ref sig .tc := ⟨.vmem, 242, rfl⟩
abbrev cc48_scratch0 : Ref sig .tc := ⟨.vmem, 243, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 16
abbrev cc2_sem0_1 : DmaSem sig := 17
abbrev cc2_sem1_0 : DmaSem sig := 18
abbrev cc2_sem1_1 : DmaSem sig := 19
abbrev cc3_sem0_0 : DmaSem sig := 28
abbrev cc3_sem0_1 : DmaSem sig := 29
abbrev cc3_sem1_0 : DmaSem sig := 30
abbrev cc3_sem1_1 : DmaSem sig := 31
abbrev cc4_sem0_0 : DmaSem sig := 40
abbrev cc4_sem0_1 : DmaSem sig := 41
abbrev cc4_sem1_0 : DmaSem sig := 42
abbrev cc4_sem1_1 : DmaSem sig := 43
abbrev cc5_sem0_0 : DmaSem sig := 52
abbrev cc5_sem0_1 : DmaSem sig := 53
abbrev cc5_sem1_0 : DmaSem sig := 54
abbrev cc5_sem1_1 : DmaSem sig := 55
abbrev cc6_sem0_0 : DmaSem sig := 64
abbrev cc6_sem0_1 : DmaSem sig := 65
abbrev cc6_sem1_0 : DmaSem sig := 66
abbrev cc6_sem1_1 : DmaSem sig := 67
abbrev cc7_sem0_0 : DmaSem sig := 76
abbrev cc7_sem0_1 : DmaSem sig := 77
abbrev cc7_sem1_0 : DmaSem sig := 78
abbrev cc7_sem1_1 : DmaSem sig := 79
abbrev cc8_sem0_0 : DmaSem sig := 88
abbrev cc8_sem0_1 : DmaSem sig := 89
abbrev cc8_sem1_0 : DmaSem sig := 90
abbrev cc8_sem1_1 : DmaSem sig := 91
abbrev cc9_sem0_0 : DmaSem sig := 100
abbrev cc9_sem0_1 : DmaSem sig := 101
abbrev cc9_sem1_0 : DmaSem sig := 102
abbrev cc9_sem1_1 : DmaSem sig := 103
abbrev cc10_sem0_0 : DmaSem sig := 112
abbrev cc10_sem0_1 : DmaSem sig := 113
abbrev cc10_sem1_0 : DmaSem sig := 114
abbrev cc10_sem1_1 : DmaSem sig := 115
abbrev cc11_sem0_0 : DmaSem sig := 124
abbrev cc11_sem0_1 : DmaSem sig := 125
abbrev cc11_sem1_0 : DmaSem sig := 126
abbrev cc11_sem1_1 : DmaSem sig := 127
abbrev cc12_sem0_0 : DmaSem sig := 136
abbrev cc12_sem0_1 : DmaSem sig := 137
abbrev cc12_sem1_0 : DmaSem sig := 138
abbrev cc12_sem1_1 : DmaSem sig := 139
abbrev cc13_sem0_0 : DmaSem sig := 148
abbrev cc13_sem0_1 : DmaSem sig := 149
abbrev cc13_sem1_0 : DmaSem sig := 150
abbrev cc13_sem1_1 : DmaSem sig := 151
abbrev cc14_sem0_0 : DmaSem sig := 160
abbrev cc14_sem0_1 : DmaSem sig := 161
abbrev cc14_sem1_0 : DmaSem sig := 162
abbrev cc14_sem1_1 : DmaSem sig := 163
abbrev cc15_sem0_0 : DmaSem sig := 172
abbrev cc15_sem0_1 : DmaSem sig := 173
abbrev cc15_sem1_0 : DmaSem sig := 174
abbrev cc15_sem1_1 : DmaSem sig := 175
abbrev cc16_sem0_0 : DmaSem sig := 184
abbrev cc16_sem0_1 : DmaSem sig := 185
abbrev cc16_sem1_0 : DmaSem sig := 186
abbrev cc16_sem1_1 : DmaSem sig := 187
abbrev cc17_sem0_0 : DmaSem sig := 196
abbrev cc17_sem0_1 : DmaSem sig := 197
abbrev cc17_sem1_0 : DmaSem sig := 198
abbrev cc17_sem1_1 : DmaSem sig := 199
abbrev cc18_sem0_0 : DmaSem sig := 208
abbrev cc18_sem0_1 : DmaSem sig := 209
abbrev cc18_sem1_0 : DmaSem sig := 210
abbrev cc18_sem1_1 : DmaSem sig := 211
abbrev cc19_sem0_0 : DmaSem sig := 220
abbrev cc19_sem0_1 : DmaSem sig := 221
abbrev cc19_sem1_0 : DmaSem sig := 222
abbrev cc19_sem1_1 : DmaSem sig := 223
abbrev cc20_sem0_0 : DmaSem sig := 232
abbrev cc20_sem0_1 : DmaSem sig := 233
abbrev cc20_sem1_0 : DmaSem sig := 234
abbrev cc20_sem1_1 : DmaSem sig := 235
abbrev cc21_sem0_0 : DmaSem sig := 244
abbrev cc21_sem0_1 : DmaSem sig := 245
abbrev cc21_sem1_0 : DmaSem sig := 246
abbrev cc21_sem1_1 : DmaSem sig := 247
abbrev cc22_sem0_0 : DmaSem sig := 256
abbrev cc22_sem0_1 : DmaSem sig := 257
abbrev cc22_sem1_0 : DmaSem sig := 258
abbrev cc22_sem1_1 : DmaSem sig := 259
abbrev cc23_sem0_0 : DmaSem sig := 268
abbrev cc23_sem0_1 : DmaSem sig := 269
abbrev cc23_sem1_0 : DmaSem sig := 270
abbrev cc23_sem1_1 : DmaSem sig := 271
abbrev cc24_sem0_0 : DmaSem sig := 280
abbrev cc24_sem0_1 : DmaSem sig := 281
abbrev cc24_sem1_0 : DmaSem sig := 282
abbrev cc24_sem1_1 : DmaSem sig := 283
abbrev cc25_sem0_0 : DmaSem sig := 292
abbrev cc25_sem0_1 : DmaSem sig := 293
abbrev cc25_sem1_0 : DmaSem sig := 294
abbrev cc25_sem1_1 : DmaSem sig := 295
abbrev cc26_sem0_0 : DmaSem sig := 304
abbrev cc26_sem0_1 : DmaSem sig := 305
abbrev cc26_sem1_0 : DmaSem sig := 306
abbrev cc26_sem1_1 : DmaSem sig := 307
abbrev cc27_sem0_0 : DmaSem sig := 316
abbrev cc27_sem0_1 : DmaSem sig := 317
abbrev cc27_sem1_0 : DmaSem sig := 318
abbrev cc27_sem1_1 : DmaSem sig := 319
abbrev cc28_sem0_0 : DmaSem sig := 328
abbrev cc28_sem0_1 : DmaSem sig := 329
abbrev cc28_sem1_0 : DmaSem sig := 330
abbrev cc28_sem1_1 : DmaSem sig := 331
abbrev cc29_sem0_0 : DmaSem sig := 340
abbrev cc29_sem0_1 : DmaSem sig := 341
abbrev cc29_sem1_0 : DmaSem sig := 342
abbrev cc29_sem1_1 : DmaSem sig := 343
abbrev cc30_sem0_0 : DmaSem sig := 352
abbrev cc30_sem0_1 : DmaSem sig := 353
abbrev cc30_sem1_0 : DmaSem sig := 354
abbrev cc30_sem1_1 : DmaSem sig := 355
abbrev cc31_sem0_0 : DmaSem sig := 364
abbrev cc31_sem0_1 : DmaSem sig := 365
abbrev cc31_sem1_0 : DmaSem sig := 366
abbrev cc31_sem1_1 : DmaSem sig := 367
abbrev cc32_sem0_0 : DmaSem sig := 376
abbrev cc32_sem0_1 : DmaSem sig := 377
abbrev cc32_sem1_0 : DmaSem sig := 378
abbrev cc32_sem1_1 : DmaSem sig := 379
abbrev cc33_sem0_0 : DmaSem sig := 388
abbrev cc33_sem0_1 : DmaSem sig := 389
abbrev cc33_sem1_0 : DmaSem sig := 390
abbrev cc33_sem1_1 : DmaSem sig := 391
abbrev cc34_sem0_0 : DmaSem sig := 400
abbrev cc34_sem0_1 : DmaSem sig := 401
abbrev cc34_sem1_0 : DmaSem sig := 402
abbrev cc34_sem1_1 : DmaSem sig := 403
abbrev cc35_sem0_0 : DmaSem sig := 412
abbrev cc35_sem0_1 : DmaSem sig := 413
abbrev cc35_sem1_0 : DmaSem sig := 414
abbrev cc35_sem1_1 : DmaSem sig := 415
abbrev cc36_sem0_0 : DmaSem sig := 424
abbrev cc36_sem0_1 : DmaSem sig := 425
abbrev cc36_sem1_0 : DmaSem sig := 426
abbrev cc36_sem1_1 : DmaSem sig := 427
abbrev cc37_sem0_0 : DmaSem sig := 436
abbrev cc37_sem0_1 : DmaSem sig := 437
abbrev cc37_sem1_0 : DmaSem sig := 438
abbrev cc37_sem1_1 : DmaSem sig := 439
abbrev cc38_sem0_0 : DmaSem sig := 448
abbrev cc38_sem0_1 : DmaSem sig := 449
abbrev cc38_sem1_0 : DmaSem sig := 450
abbrev cc38_sem1_1 : DmaSem sig := 451
abbrev cc39_sem0_0 : DmaSem sig := 460
abbrev cc39_sem0_1 : DmaSem sig := 461
abbrev cc39_sem1_0 : DmaSem sig := 462
abbrev cc39_sem1_1 : DmaSem sig := 463
abbrev cc40_sem0_0 : DmaSem sig := 472
abbrev cc40_sem0_1 : DmaSem sig := 473
abbrev cc40_sem1_0 : DmaSem sig := 474
abbrev cc40_sem1_1 : DmaSem sig := 475
abbrev cc41_sem0_0 : DmaSem sig := 484
abbrev cc41_sem0_1 : DmaSem sig := 485
abbrev cc41_sem1_0 : DmaSem sig := 486
abbrev cc41_sem1_1 : DmaSem sig := 487
abbrev cc42_sem0_0 : DmaSem sig := 496
abbrev cc42_sem0_1 : DmaSem sig := 497
abbrev cc42_sem1_0 : DmaSem sig := 498
abbrev cc42_sem1_1 : DmaSem sig := 499
abbrev cc43_sem0_0 : DmaSem sig := 508
abbrev cc43_sem0_1 : DmaSem sig := 509
abbrev cc43_sem1_0 : DmaSem sig := 510
abbrev cc43_sem1_1 : DmaSem sig := 511
abbrev cc44_sem0_0 : DmaSem sig := 520
abbrev cc44_sem0_1 : DmaSem sig := 521
abbrev cc44_sem1_0 : DmaSem sig := 522
abbrev cc44_sem1_1 : DmaSem sig := 523
abbrev cc45_sem0_0 : DmaSem sig := 532
abbrev cc45_sem0_1 : DmaSem sig := 533
abbrev cc45_sem1_0 : DmaSem sig := 534
abbrev cc45_sem1_1 : DmaSem sig := 535
abbrev cc46_sem0_0 : DmaSem sig := 544
abbrev cc46_sem0_1 : DmaSem sig := 545
abbrev cc46_sem1_0 : DmaSem sig := 546
abbrev cc46_sem1_1 : DmaSem sig := 547
abbrev cc47_sem0_0 : DmaSem sig := 556
abbrev cc47_sem0_1 : DmaSem sig := 557
abbrev cc47_sem1_0 : DmaSem sig := 558
abbrev cc47_sem1_1 : DmaSem sig := 559
abbrev cc48_sem0_0 : DmaSem sig := 568
abbrev cc48_sem0_1 : DmaSem sig := 569
abbrev cc48_sem1_0 : DmaSem sig := 570
abbrev cc48_sem1_1 : DmaSem sig := 571

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![12500], ![false]⟩

abbrev pre1 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k1_off2 (v3 : BitVec 32) : Fin 2 → Nat :=
  let c0_i32_3 : BitVec 32 := 0#32
  ![v3.toNat, 0]

def k1_off3 (i : grid1.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k1_off4 (v12 : BitVec 32) : Fin 2 → Nat :=
  let c0_i32_7 : BitVec 32 := 0#32
  ![v12.toNat, 0]

def k1_off5 (i : grid1.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k1_off6 (v21 : BitVec 32) : Fin 2 → Nat :=
  let c0_i32_11 : BitVec 32 := 0#32
  ![v21.toNat, 0]

def k1_off7 (i : grid1.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k1_off8 (v30 : BitVec 32) : Fin 2 → Nat :=
  let c0_i32_15 : BitVec 32 := 0#32
  ![v30.toNat, 0]

def k1_off9 (i : grid1.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k1_off10 (v39 : BitVec 32) : Fin 2 → Nat :=
  let c0_i32_19 : BitVec 32 := 0#32
  ![v39.toNat, 0]

def k1_off11 (i : grid1.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k1_off12 (v48 : BitVec 32) : Fin 2 → Nat :=
  let c0_i32_23 : BitVec 32 := 0#32
  ![v48.toNat, 0]

def k1_off13 (i : grid1.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k1_off14 (v57 : BitVec 32) : Fin 2 → Nat :=
  let c0_i32_27 : BitVec 32 := 0#32
  ![v57.toNat, 0]

def k1_off15 (i : grid1.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k1_off16 (v66 : BitVec 32) : Fin 2 → Nat :=
  let c0_i32_31 : BitVec 32 := 0#32
  ![v66.toNat, 0]

def k1_chk8 (v66 : BitVec 32) : Prop :=
  (∀ a, (k1_off16 v66) a + S1x64.size a ≤ S100000x64.size a)
instance k1_chk8.dec : ∀ (v66 : BitVec 32), Decidable (k1_chk8 v66) := fun v66 => decidable_of_iff' _ (Iff.of_eq (k1_chk8.eq_1 v66))
theorem k1_off16_inb : ∀ (v66 : BitVec 32) (k1_hw8 : k1_chk8 v66), ∀ a, (k1_off16 v66) a + S1x64.size a ≤ S100000x64.size a := fun v66 k1_hw8 => k1_hw8

def k1_off17 (v3 : BitVec 32) : Fin 2 → Nat :=
  let c0_i32_35 : BitVec 32 := 0#32
  ![v3.toNat, 0]

def k1_chk1 (v3 : BitVec 32) : Prop :=
  (∀ a, (k1_off2 v3) a + S1x64.size a ≤ S100000x64.size a) ∧
  (∀ a, (k1_off17 v3) a + S1x64.size a ≤ S100000x64.size a)
instance k1_chk1.dec : ∀ (v3 : BitVec 32), Decidable (k1_chk1 v3) := fun v3 => decidable_of_iff' _ (Iff.of_eq (k1_chk1.eq_1 v3))
theorem k1_off2_inb : ∀ (v3 : BitVec 32) (k1_hw1 : k1_chk1 v3), ∀ a, (k1_off2 v3) a + S1x64.size a ≤ S100000x64.size a := fun v3 k1_hw1 => k1_hw1.1
theorem k1_off17_inb : ∀ (v3 : BitVec 32) (k1_hw1 : k1_chk1 v3), ∀ a, (k1_off17 v3) a + S1x64.size a ≤ S100000x64.size a := fun v3 k1_hw1 => k1_hw1.2

def k1_off18 (v12 : BitVec 32) : Fin 2 → Nat :=
  let c0_i32_39 : BitVec 32 := 0#32
  ![v12.toNat, 0]

def k1_chk2 (v12 : BitVec 32) : Prop :=
  (∀ a, (k1_off4 v12) a + S1x64.size a ≤ S100000x64.size a) ∧
  (∀ a, (k1_off18 v12) a + S1x64.size a ≤ S100000x64.size a)
instance k1_chk2.dec : ∀ (v12 : BitVec 32), Decidable (k1_chk2 v12) := fun v12 => decidable_of_iff' _ (Iff.of_eq (k1_chk2.eq_1 v12))
theorem k1_off4_inb : ∀ (v12 : BitVec 32) (k1_hw2 : k1_chk2 v12), ∀ a, (k1_off4 v12) a + S1x64.size a ≤ S100000x64.size a := fun v12 k1_hw2 => k1_hw2.1
theorem k1_off18_inb : ∀ (v12 : BitVec 32) (k1_hw2 : k1_chk2 v12), ∀ a, (k1_off18 v12) a + S1x64.size a ≤ S100000x64.size a := fun v12 k1_hw2 => k1_hw2.2

def k1_off19 (v21 : BitVec 32) : Fin 2 → Nat :=
  let c0_i32_43 : BitVec 32 := 0#32
  ![v21.toNat, 0]

def k1_chk3 (v21 : BitVec 32) : Prop :=
  (∀ a, (k1_off6 v21) a + S1x64.size a ≤ S100000x64.size a) ∧
  (∀ a, (k1_off19 v21) a + S1x64.size a ≤ S100000x64.size a)
instance k1_chk3.dec : ∀ (v21 : BitVec 32), Decidable (k1_chk3 v21) := fun v21 => decidable_of_iff' _ (Iff.of_eq (k1_chk3.eq_1 v21))
theorem k1_off6_inb : ∀ (v21 : BitVec 32) (k1_hw3 : k1_chk3 v21), ∀ a, (k1_off6 v21) a + S1x64.size a ≤ S100000x64.size a := fun v21 k1_hw3 => k1_hw3.1
theorem k1_off19_inb : ∀ (v21 : BitVec 32) (k1_hw3 : k1_chk3 v21), ∀ a, (k1_off19 v21) a + S1x64.size a ≤ S100000x64.size a := fun v21 k1_hw3 => k1_hw3.2

def k1_off20 (v30 : BitVec 32) : Fin 2 → Nat :=
  let c0_i32_47 : BitVec 32 := 0#32
  ![v30.toNat, 0]

def k1_chk4 (v30 : BitVec 32) : Prop :=
  (∀ a, (k1_off8 v30) a + S1x64.size a ≤ S100000x64.size a) ∧
  (∀ a, (k1_off20 v30) a + S1x64.size a ≤ S100000x64.size a)
instance k1_chk4.dec : ∀ (v30 : BitVec 32), Decidable (k1_chk4 v30) := fun v30 => decidable_of_iff' _ (Iff.of_eq (k1_chk4.eq_1 v30))
theorem k1_off8_inb : ∀ (v30 : BitVec 32) (k1_hw4 : k1_chk4 v30), ∀ a, (k1_off8 v30) a + S1x64.size a ≤ S100000x64.size a := fun v30 k1_hw4 => k1_hw4.1
theorem k1_off20_inb : ∀ (v30 : BitVec 32) (k1_hw4 : k1_chk4 v30), ∀ a, (k1_off20 v30) a + S1x64.size a ≤ S100000x64.size a := fun v30 k1_hw4 => k1_hw4.2

def k1_off21 (v39 : BitVec 32) : Fin 2 → Nat :=
  let c0_i32_51 : BitVec 32 := 0#32
  ![v39.toNat, 0]

def k1_chk5 (v39 : BitVec 32) : Prop :=
  (∀ a, (k1_off10 v39) a + S1x64.size a ≤ S100000x64.size a) ∧
  (∀ a, (k1_off21 v39) a + S1x64.size a ≤ S100000x64.size a)
instance k1_chk5.dec : ∀ (v39 : BitVec 32), Decidable (k1_chk5 v39) := fun v39 => decidable_of_iff' _ (Iff.of_eq (k1_chk5.eq_1 v39))
theorem k1_off10_inb : ∀ (v39 : BitVec 32) (k1_hw5 : k1_chk5 v39), ∀ a, (k1_off10 v39) a + S1x64.size a ≤ S100000x64.size a := fun v39 k1_hw5 => k1_hw5.1
theorem k1_off21_inb : ∀ (v39 : BitVec 32) (k1_hw5 : k1_chk5 v39), ∀ a, (k1_off21 v39) a + S1x64.size a ≤ S100000x64.size a := fun v39 k1_hw5 => k1_hw5.2

def k1_off22 (v48 : BitVec 32) : Fin 2 → Nat :=
  let c0_i32_55 : BitVec 32 := 0#32
  ![v48.toNat, 0]

def k1_chk6 (v48 : BitVec 32) : Prop :=
  (∀ a, (k1_off12 v48) a + S1x64.size a ≤ S100000x64.size a) ∧
  (∀ a, (k1_off22 v48) a + S1x64.size a ≤ S100000x64.size a)
instance k1_chk6.dec : ∀ (v48 : BitVec 32), Decidable (k1_chk6 v48) := fun v48 => decidable_of_iff' _ (Iff.of_eq (k1_chk6.eq_1 v48))
theorem k1_off12_inb : ∀ (v48 : BitVec 32) (k1_hw6 : k1_chk6 v48), ∀ a, (k1_off12 v48) a + S1x64.size a ≤ S100000x64.size a := fun v48 k1_hw6 => k1_hw6.1
theorem k1_off22_inb : ∀ (v48 : BitVec 32) (k1_hw6 : k1_chk6 v48), ∀ a, (k1_off22 v48) a + S1x64.size a ≤ S100000x64.size a := fun v48 k1_hw6 => k1_hw6.2

def k1_off23 (v57 : BitVec 32) : Fin 2 → Nat :=
  let c0_i32_59 : BitVec 32 := 0#32
  ![v57.toNat, 0]

def k1_chk7 (v57 : BitVec 32) : Prop :=
  (∀ a, (k1_off14 v57) a + S1x64.size a ≤ S100000x64.size a) ∧
  (∀ a, (k1_off23 v57) a + S1x64.size a ≤ S100000x64.size a)
instance k1_chk7.dec : ∀ (v57 : BitVec 32), Decidable (k1_chk7 v57) := fun v57 => decidable_of_iff' _ (Iff.of_eq (k1_chk7.eq_1 v57))
theorem k1_off14_inb : ∀ (v57 : BitVec 32) (k1_hw7 : k1_chk7 v57), ∀ a, (k1_off14 v57) a + S1x64.size a ≤ S100000x64.size a := fun v57 k1_hw7 => k1_hw7.1
theorem k1_off23_inb : ∀ (v57 : BitVec 32) (k1_hw7 : k1_chk7 v57), ∀ a, (k1_off23 v57) a + S1x64.size a ≤ S100000x64.size a := fun v57 k1_hw7 => k1_hw7.2

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![12500], ![false]⟩

abbrev pre2 : Pipeline.Prefetch sig := ⟨1, ![main_v9.idx], fun | 0 => main_v9.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k2_off2 (v3 : BitVec 32) : Fin 2 → Nat :=
  let c0_i32_3 : BitVec 32 := 0#32
  ![v3.toNat, 0]

def k2_off3 (i : grid2.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k2_off4 (v12 : BitVec 32) : Fin 2 → Nat :=
  let c0_i32_7 : BitVec 32 := 0#32
  ![v12.toNat, 0]

def k2_off5 (i : grid2.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k2_off6 (v21 : BitVec 32) : Fin 2 → Nat :=
  let c0_i32_11 : BitVec 32 := 0#32
  ![v21.toNat, 0]

def k2_off7 (i : grid2.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k2_off8 (v30 : BitVec 32) : Fin 2 → Nat :=
  let c0_i32_15 : BitVec 32 := 0#32
  ![v30.toNat, 0]

def k2_off9 (i : grid2.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k2_off10 (v39 : BitVec 32) : Fin 2 → Nat :=
  let c0_i32_19 : BitVec 32 := 0#32
  ![v39.toNat, 0]

def k2_off11 (i : grid2.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k2_off12 (v48 : BitVec 32) : Fin 2 → Nat :=
  let c0_i32_23 : BitVec 32 := 0#32
  ![v48.toNat, 0]

def k2_off13 (i : grid2.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k2_off14 (v57 : BitVec 32) : Fin 2 → Nat :=
  let c0_i32_27 : BitVec 32 := 0#32
  ![v57.toNat, 0]

def k2_off15 (i : grid2.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k2_off16 (v66 : BitVec 32) : Fin 2 → Nat :=
  let c0_i32_31 : BitVec 32 := 0#32
  ![v66.toNat, 0]

def k2_chk8 (v66 : BitVec 32) : Prop :=
  (∀ a, (k2_off16 v66) a + S1x64.size a ≤ S100000x64.size a)
instance k2_chk8.dec : ∀ (v66 : BitVec 32), Decidable (k2_chk8 v66) := fun v66 => decidable_of_iff' _ (Iff.of_eq (k2_chk8.eq_1 v66))
theorem k2_off16_inb : ∀ (v66 : BitVec 32) (k2_hw8 : k2_chk8 v66), ∀ a, (k2_off16 v66) a + S1x64.size a ≤ S100000x64.size a := fun v66 k2_hw8 => k2_hw8

def k2_off17 (v3 : BitVec 32) : Fin 2 → Nat :=
  let c0_i32_35 : BitVec 32 := 0#32
  ![v3.toNat, 0]

def k2_chk1 (v3 : BitVec 32) : Prop :=
  (∀ a, (k2_off2 v3) a + S1x64.size a ≤ S100000x64.size a) ∧
  (∀ a, (k2_off17 v3) a + S1x64.size a ≤ S100000x64.size a)
instance k2_chk1.dec : ∀ (v3 : BitVec 32), Decidable (k2_chk1 v3) := fun v3 => decidable_of_iff' _ (Iff.of_eq (k2_chk1.eq_1 v3))
theorem k2_off2_inb : ∀ (v3 : BitVec 32) (k2_hw1 : k2_chk1 v3), ∀ a, (k2_off2 v3) a + S1x64.size a ≤ S100000x64.size a := fun v3 k2_hw1 => k2_hw1.1
theorem k2_off17_inb : ∀ (v3 : BitVec 32) (k2_hw1 : k2_chk1 v3), ∀ a, (k2_off17 v3) a + S1x64.size a ≤ S100000x64.size a := fun v3 k2_hw1 => k2_hw1.2

def k2_off18 (v12 : BitVec 32) : Fin 2 → Nat :=
  let c0_i32_39 : BitVec 32 := 0#32
  ![v12.toNat, 0]

def k2_chk2 (v12 : BitVec 32) : Prop :=
  (∀ a, (k2_off4 v12) a + S1x64.size a ≤ S100000x64.size a) ∧
  (∀ a, (k2_off18 v12) a + S1x64.size a ≤ S100000x64.size a)
instance k2_chk2.dec : ∀ (v12 : BitVec 32), Decidable (k2_chk2 v12) := fun v12 => decidable_of_iff' _ (Iff.of_eq (k2_chk2.eq_1 v12))
theorem k2_off4_inb : ∀ (v12 : BitVec 32) (k2_hw2 : k2_chk2 v12), ∀ a, (k2_off4 v12) a + S1x64.size a ≤ S100000x64.size a := fun v12 k2_hw2 => k2_hw2.1
theorem k2_off18_inb : ∀ (v12 : BitVec 32) (k2_hw2 : k2_chk2 v12), ∀ a, (k2_off18 v12) a + S1x64.size a ≤ S100000x64.size a := fun v12 k2_hw2 => k2_hw2.2

def k2_off19 (v21 : BitVec 32) : Fin 2 → Nat :=
  let c0_i32_43 : BitVec 32 := 0#32
  ![v21.toNat, 0]

def k2_chk3 (v21 : BitVec 32) : Prop :=
  (∀ a, (k2_off6 v21) a + S1x64.size a ≤ S100000x64.size a) ∧
  (∀ a, (k2_off19 v21) a + S1x64.size a ≤ S100000x64.size a)
instance k2_chk3.dec : ∀ (v21 : BitVec 32), Decidable (k2_chk3 v21) := fun v21 => decidable_of_iff' _ (Iff.of_eq (k2_chk3.eq_1 v21))
theorem k2_off6_inb : ∀ (v21 : BitVec 32) (k2_hw3 : k2_chk3 v21), ∀ a, (k2_off6 v21) a + S1x64.size a ≤ S100000x64.size a := fun v21 k2_hw3 => k2_hw3.1
theorem k2_off19_inb : ∀ (v21 : BitVec 32) (k2_hw3 : k2_chk3 v21), ∀ a, (k2_off19 v21) a + S1x64.size a ≤ S100000x64.size a := fun v21 k2_hw3 => k2_hw3.2

def k2_off20 (v30 : BitVec 32) : Fin 2 → Nat :=
  let c0_i32_47 : BitVec 32 := 0#32
  ![v30.toNat, 0]

def k2_chk4 (v30 : BitVec 32) : Prop :=
  (∀ a, (k2_off8 v30) a + S1x64.size a ≤ S100000x64.size a) ∧
  (∀ a, (k2_off20 v30) a + S1x64.size a ≤ S100000x64.size a)
instance k2_chk4.dec : ∀ (v30 : BitVec 32), Decidable (k2_chk4 v30) := fun v30 => decidable_of_iff' _ (Iff.of_eq (k2_chk4.eq_1 v30))
theorem k2_off8_inb : ∀ (v30 : BitVec 32) (k2_hw4 : k2_chk4 v30), ∀ a, (k2_off8 v30) a + S1x64.size a ≤ S100000x64.size a := fun v30 k2_hw4 => k2_hw4.1
theorem k2_off20_inb : ∀ (v30 : BitVec 32) (k2_hw4 : k2_chk4 v30), ∀ a, (k2_off20 v30) a + S1x64.size a ≤ S100000x64.size a := fun v30 k2_hw4 => k2_hw4.2

def k2_off21 (v39 : BitVec 32) : Fin 2 → Nat :=
  let c0_i32_51 : BitVec 32 := 0#32
  ![v39.toNat, 0]

def k2_chk5 (v39 : BitVec 32) : Prop :=
  (∀ a, (k2_off10 v39) a + S1x64.size a ≤ S100000x64.size a) ∧
  (∀ a, (k2_off21 v39) a + S1x64.size a ≤ S100000x64.size a)
instance k2_chk5.dec : ∀ (v39 : BitVec 32), Decidable (k2_chk5 v39) := fun v39 => decidable_of_iff' _ (Iff.of_eq (k2_chk5.eq_1 v39))
theorem k2_off10_inb : ∀ (v39 : BitVec 32) (k2_hw5 : k2_chk5 v39), ∀ a, (k2_off10 v39) a + S1x64.size a ≤ S100000x64.size a := fun v39 k2_hw5 => k2_hw5.1
theorem k2_off21_inb : ∀ (v39 : BitVec 32) (k2_hw5 : k2_chk5 v39), ∀ a, (k2_off21 v39) a + S1x64.size a ≤ S100000x64.size a := fun v39 k2_hw5 => k2_hw5.2

def k2_off22 (v48 : BitVec 32) : Fin 2 → Nat :=
  let c0_i32_55 : BitVec 32 := 0#32
  ![v48.toNat, 0]

def k2_chk6 (v48 : BitVec 32) : Prop :=
  (∀ a, (k2_off12 v48) a + S1x64.size a ≤ S100000x64.size a) ∧
  (∀ a, (k2_off22 v48) a + S1x64.size a ≤ S100000x64.size a)
instance k2_chk6.dec : ∀ (v48 : BitVec 32), Decidable (k2_chk6 v48) := fun v48 => decidable_of_iff' _ (Iff.of_eq (k2_chk6.eq_1 v48))
theorem k2_off12_inb : ∀ (v48 : BitVec 32) (k2_hw6 : k2_chk6 v48), ∀ a, (k2_off12 v48) a + S1x64.size a ≤ S100000x64.size a := fun v48 k2_hw6 => k2_hw6.1
theorem k2_off22_inb : ∀ (v48 : BitVec 32) (k2_hw6 : k2_chk6 v48), ∀ a, (k2_off22 v48) a + S1x64.size a ≤ S100000x64.size a := fun v48 k2_hw6 => k2_hw6.2

def k2_off23 (v57 : BitVec 32) : Fin 2 → Nat :=
  let c0_i32_59 : BitVec 32 := 0#32
  ![v57.toNat, 0]

def k2_chk7 (v57 : BitVec 32) : Prop :=
  (∀ a, (k2_off14 v57) a + S1x64.size a ≤ S100000x64.size a) ∧
  (∀ a, (k2_off23 v57) a + S1x64.size a ≤ S100000x64.size a)
instance k2_chk7.dec : ∀ (v57 : BitVec 32), Decidable (k2_chk7 v57) := fun v57 => decidable_of_iff' _ (Iff.of_eq (k2_chk7.eq_1 v57))
theorem k2_off14_inb : ∀ (v57 : BitVec 32) (k2_hw7 : k2_chk7 v57), ∀ a, (k2_off14 v57) a + S1x64.size a ≤ S100000x64.size a := fun v57 k2_hw7 => k2_hw7.1
theorem k2_off23_inb : ∀ (v57 : BitVec 32) (k2_hw7 : k2_chk7 v57), ∀ a, (k2_off23 v57) a + S1x64.size a ≤ S100000x64.size a := fun v57 k2_hw7 => k2_hw7.2

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![12500], ![false]⟩

abbrev pre3 : Pipeline.Prefetch sig := ⟨1, ![main_v13.idx], fun | 0 => main_v13.names | ⟨_ + 1, h⟩ => absurd h (Nat.not_lt.2 (Nat.le_add_left _ _)), fun | 0 => rfl | ⟨_ + 1, h⟩ => absurd h (Nat.not_lt.2 (Nat.le_add_left _ _))⟩

def k3_off1 (i : grid3.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k3_off2 (v3 : BitVec 32) : Fin 2 → Nat :=
  let c0_i32_3 : BitVec 32 := 0#32
  ![v3.toNat, 0]

def k3_off3 (i : grid3.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k3_off4 (v12 : BitVec 32) : Fin 2 → Nat :=
  let c0_i32_7 : BitVec 32 := 0#32
  ![v12.toNat, 0]

def k3_off5 (i : grid3.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k3_off6 (v21 : BitVec 32) : Fin 2 → Nat :=
  let c0_i32_11 : BitVec 32 := 0#32
  ![v21.toNat, 0]

def k3_off7 (i : grid3.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k3_off8 (v30 : BitVec 32) : Fin 2 → Nat :=
  let c0_i32_15 : BitVec 32 := 0#32
  ![v30.toNat, 0]

def k3_off9 (i : grid3.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k3_off10 (v39 : BitVec 32) : Fin 2 → Nat :=
  let c0_i32_19 : BitVec 32 := 0#32
  ![v39.toNat, 0]

def k3_off11 (i : grid3.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k3_off12 (v48 : BitVec 32) : Fin 2 → Nat :=
  let c0_i32_23 : BitVec 32 := 0#32
  ![v48.toNat, 0]

def k3_off13 (i : grid3.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k3_off14 (v57 : BitVec 32) : Fin 2 → Nat :=
  let c0_i32_27 : BitVec 32 := 0#32
  ![v57.toNat, 0]

def k3_off15 (i : grid3.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k3_off16 (v66 : BitVec 32) : Fin 2 → Nat :=
  let c0_i32_31 : BitVec 32 := 0#32
  ![v66.toNat, 0]

def k3_chk8 (v66 : BitVec 32) : Prop :=
  (∀ a, (k3_off16 v66) a + S1x64.size a ≤ S100000x64.size a)
instance k3_chk8.dec : ∀ (v66 : BitVec 32), Decidable (k3_chk8 v66) := fun v66 => decidable_of_iff' _ (Iff.of_eq (k3_chk8.eq_1 v66))
theorem k3_off16_inb : ∀ (v66 : BitVec 32) (k3_hw8 : k3_chk8 v66), ∀ a, (k3_off16 v66) a + S1x64.size a ≤ S100000x64.size a := fun v66 k3_hw8 => k3_hw8

def k3_off17 (v3 : BitVec 32) : Fin 2 → Nat :=
  let c0_i32_35 : BitVec 32 := 0#32
  ![v3.toNat, 0]

def k3_chk1 (v3 : BitVec 32) : Prop :=
  (∀ a, (k3_off2 v3) a + S1x64.size a ≤ S100000x64.size a) ∧
  (∀ a, (k3_off17 v3) a + S1x64.size a ≤ S100000x64.size a)
instance k3_chk1.dec : ∀ (v3 : BitVec 32), Decidable (k3_chk1 v3) := fun v3 => decidable_of_iff' _ (Iff.of_eq (k3_chk1.eq_1 v3))
theorem k3_off2_inb : ∀ (v3 : BitVec 32) (k3_hw1 : k3_chk1 v3), ∀ a, (k3_off2 v3) a + S1x64.size a ≤ S100000x64.size a := fun v3 k3_hw1 => k3_hw1.1
theorem k3_off17_inb : ∀ (v3 : BitVec 32) (k3_hw1 : k3_chk1 v3), ∀ a, (k3_off17 v3) a + S1x64.size a ≤ S100000x64.size a := fun v3 k3_hw1 => k3_hw1.2

def k3_off18 (v12 : BitVec 32) : Fin 2 → Nat :=
  let c0_i32_39 : BitVec 32 := 0#32
  ![v12.toNat, 0]

def k3_chk2 (v12 : BitVec 32) : Prop :=
  (∀ a, (k3_off4 v12) a + S1x64.size a ≤ S100000x64.size a) ∧
  (∀ a, (k3_off18 v12) a + S1x64.size a ≤ S100000x64.size a)
instance k3_chk2.dec : ∀ (v12 : BitVec 32), Decidable (k3_chk2 v12) := fun v12 => decidable_of_iff' _ (Iff.of_eq (k3_chk2.eq_1 v12))
theorem k3_off4_inb : ∀ (v12 : BitVec 32) (k3_hw2 : k3_chk2 v12), ∀ a, (k3_off4 v12) a + S1x64.size a ≤ S100000x64.size a := fun v12 k3_hw2 => k3_hw2.1
theorem k3_off18_inb : ∀ (v12 : BitVec 32) (k3_hw2 : k3_chk2 v12), ∀ a, (k3_off18 v12) a + S1x64.size a ≤ S100000x64.size a := fun v12 k3_hw2 => k3_hw2.2

def k3_off19 (v21 : BitVec 32) : Fin 2 → Nat :=
  let c0_i32_43 : BitVec 32 := 0#32
  ![v21.toNat, 0]

def k3_chk3 (v21 : BitVec 32) : Prop :=
  (∀ a, (k3_off6 v21) a + S1x64.size a ≤ S100000x64.size a) ∧
  (∀ a, (k3_off19 v21) a + S1x64.size a ≤ S100000x64.size a)
instance k3_chk3.dec : ∀ (v21 : BitVec 32), Decidable (k3_chk3 v21) := fun v21 => decidable_of_iff' _ (Iff.of_eq (k3_chk3.eq_1 v21))
theorem k3_off6_inb : ∀ (v21 : BitVec 32) (k3_hw3 : k3_chk3 v21), ∀ a, (k3_off6 v21) a + S1x64.size a ≤ S100000x64.size a := fun v21 k3_hw3 => k3_hw3.1
theorem k3_off19_inb : ∀ (v21 : BitVec 32) (k3_hw3 : k3_chk3 v21), ∀ a, (k3_off19 v21) a + S1x64.size a ≤ S100000x64.size a := fun v21 k3_hw3 => k3_hw3.2

def k3_off20 (v30 : BitVec 32) : Fin 2 → Nat :=
  let c0_i32_47 : BitVec 32 := 0#32
  ![v30.toNat, 0]

def k3_chk4 (v30 : BitVec 32) : Prop :=
  (∀ a, (k3_off8 v30) a + S1x64.size a ≤ S100000x64.size a) ∧
  (∀ a, (k3_off20 v30) a + S1x64.size a ≤ S100000x64.size a)
instance k3_chk4.dec : ∀ (v30 : BitVec 32), Decidable (k3_chk4 v30) := fun v30 => decidable_of_iff' _ (Iff.of_eq (k3_chk4.eq_1 v30))
theorem k3_off8_inb : ∀ (v30 : BitVec 32) (k3_hw4 : k3_chk4 v30), ∀ a, (k3_off8 v30) a + S1x64.size a ≤ S100000x64.size a := fun v30 k3_hw4 => k3_hw4.1
theorem k3_off20_inb : ∀ (v30 : BitVec 32) (k3_hw4 : k3_chk4 v30), ∀ a, (k3_off20 v30) a + S1x64.size a ≤ S100000x64.size a := fun v30 k3_hw4 => k3_hw4.2

def k3_off21 (v39 : BitVec 32) : Fin 2 → Nat :=
  let c0_i32_51 : BitVec 32 := 0#32
  ![v39.toNat, 0]

def k3_chk5 (v39 : BitVec 32) : Prop :=
  (∀ a, (k3_off10 v39) a + S1x64.size a ≤ S100000x64.size a) ∧
  (∀ a, (k3_off21 v39) a + S1x64.size a ≤ S100000x64.size a)
instance k3_chk5.dec : ∀ (v39 : BitVec 32), Decidable (k3_chk5 v39) := fun v39 => decidable_of_iff' _ (Iff.of_eq (k3_chk5.eq_1 v39))
theorem k3_off10_inb : ∀ (v39 : BitVec 32) (k3_hw5 : k3_chk5 v39), ∀ a, (k3_off10 v39) a + S1x64.size a ≤ S100000x64.size a := fun v39 k3_hw5 => k3_hw5.1
theorem k3_off21_inb : ∀ (v39 : BitVec 32) (k3_hw5 : k3_chk5 v39), ∀ a, (k3_off21 v39) a + S1x64.size a ≤ S100000x64.size a := fun v39 k3_hw5 => k3_hw5.2

def k3_off22 (v48 : BitVec 32) : Fin 2 → Nat :=
  let c0_i32_55 : BitVec 32 := 0#32
  ![v48.toNat, 0]

def k3_chk6 (v48 : BitVec 32) : Prop :=
  (∀ a, (k3_off12 v48) a + S1x64.size a ≤ S100000x64.size a) ∧
  (∀ a, (k3_off22 v48) a + S1x64.size a ≤ S100000x64.size a)
instance k3_chk6.dec : ∀ (v48 : BitVec 32), Decidable (k3_chk6 v48) := fun v48 => decidable_of_iff' _ (Iff.of_eq (k3_chk6.eq_1 v48))
theorem k3_off12_inb : ∀ (v48 : BitVec 32) (k3_hw6 : k3_chk6 v48), ∀ a, (k3_off12 v48) a + S1x64.size a ≤ S100000x64.size a := fun v48 k3_hw6 => k3_hw6.1
theorem k3_off22_inb : ∀ (v48 : BitVec 32) (k3_hw6 : k3_chk6 v48), ∀ a, (k3_off22 v48) a + S1x64.size a ≤ S100000x64.size a := fun v48 k3_hw6 => k3_hw6.2

def k3_off23 (v57 : BitVec 32) : Fin 2 → Nat :=
  let c0_i32_59 : BitVec 32 := 0#32
  ![v57.toNat, 0]

def k3_chk7 (v57 : BitVec 32) : Prop :=
  (∀ a, (k3_off14 v57) a + S1x64.size a ≤ S100000x64.size a) ∧
  (∀ a, (k3_off23 v57) a + S1x64.size a ≤ S100000x64.size a)
instance k3_chk7.dec : ∀ (v57 : BitVec 32), Decidable (k3_chk7 v57) := fun v57 => decidable_of_iff' _ (Iff.of_eq (k3_chk7.eq_1 v57))
theorem k3_off14_inb : ∀ (v57 : BitVec 32) (k3_hw7 : k3_chk7 v57), ∀ a, (k3_off14 v57) a + S1x64.size a ≤ S100000x64.size a := fun v57 k3_hw7 => k3_hw7.1
theorem k3_off23_inb : ∀ (v57 : BitVec 32) (k3_hw7 : k3_chk7 v57), ∀ a, (k3_off23 v57) a + S1x64.size a ≤ S100000x64.size a := fun v57 k3_hw7 => k3_hw7.2

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨1, ![12500], ![false]⟩

abbrev pre4 : Pipeline.Prefetch sig := ⟨1, ![main_v17.idx], fun | 0 => main_v17.names | ⟨_ + 1, h⟩ => absurd h (Nat.not_lt.2 (Nat.le_add_left _ _)), fun | 0 => rfl | ⟨_ + 1, h⟩ => absurd h (Nat.not_lt.2 (Nat.le_add_left _ _))⟩

def k4_off1 (i : grid4.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k4_off2 (v3 : BitVec 32) : Fin 2 → Nat :=
  let c0_i32_3 : BitVec 32 := 0#32
  ![v3.toNat, 0]

def k4_off3 (i : grid4.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k4_off4 (v12 : BitVec 32) : Fin 2 → Nat :=
  let c0_i32_7 : BitVec 32 := 0#32
  ![v12.toNat, 0]

def k4_off5 (i : grid4.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k4_off6 (v21 : BitVec 32) : Fin 2 → Nat :=
  let c0_i32_11 : BitVec 32 := 0#32
  ![v21.toNat, 0]

def k4_off7 (i : grid4.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k4_off8 (v30 : BitVec 32) : Fin 2 → Nat :=
  let c0_i32_15 : BitVec 32 := 0#32
  ![v30.toNat, 0]

def k4_off9 (i : grid4.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k4_off10 (v39 : BitVec 32) : Fin 2 → Nat :=
  let c0_i32_19 : BitVec 32 := 0#32
  ![v39.toNat, 0]

def k4_off11 (i : grid4.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k4_off12 (v48 : BitVec 32) : Fin 2 → Nat :=
  let c0_i32_23 : BitVec 32 := 0#32
  ![v48.toNat, 0]

def k4_off13 (i : grid4.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k4_off14 (v57 : BitVec 32) : Fin 2 → Nat :=
  let c0_i32_27 : BitVec 32 := 0#32
  ![v57.toNat, 0]

def k4_off15 (i : grid4.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k4_off16 (v66 : BitVec 32) : Fin 2 → Nat :=
  let c0_i32_31 : BitVec 32 := 0#32
  ![v66.toNat, 0]

def k4_chk8 (v66 : BitVec 32) : Prop :=
  (∀ a, (k4_off16 v66) a + S1x64.size a ≤ S100000x64.size a)
instance k4_chk8.dec : ∀ (v66 : BitVec 32), Decidable (k4_chk8 v66) := fun v66 => decidable_of_iff' _ (Iff.of_eq (k4_chk8.eq_1 v66))
theorem k4_off16_inb : ∀ (v66 : BitVec 32) (k4_hw8 : k4_chk8 v66), ∀ a, (k4_off16 v66) a + S1x64.size a ≤ S100000x64.size a := fun v66 k4_hw8 => k4_hw8

def k4_off17 (v3 : BitVec 32) : Fin 2 → Nat :=
  let c0_i32_35 : BitVec 32 := 0#32
  ![v3.toNat, 0]

def k4_chk1 (v3 : BitVec 32) : Prop :=
  (∀ a, (k4_off2 v3) a + S1x64.size a ≤ S100000x64.size a) ∧
  (∀ a, (k4_off17 v3) a + S1x64.size a ≤ S100000x64.size a)
instance k4_chk1.dec : ∀ (v3 : BitVec 32), Decidable (k4_chk1 v3) := fun v3 => decidable_of_iff' _ (Iff.of_eq (k4_chk1.eq_1 v3))
theorem k4_off2_inb : ∀ (v3 : BitVec 32) (k4_hw1 : k4_chk1 v3), ∀ a, (k4_off2 v3) a + S1x64.size a ≤ S100000x64.size a := fun v3 k4_hw1 => k4_hw1.1
theorem k4_off17_inb : ∀ (v3 : BitVec 32) (k4_hw1 : k4_chk1 v3), ∀ a, (k4_off17 v3) a + S1x64.size a ≤ S100000x64.size a := fun v3 k4_hw1 => k4_hw1.2

def k4_off18 (v12 : BitVec 32) : Fin 2 → Nat :=
  let c0_i32_39 : BitVec 32 := 0#32
  ![v12.toNat, 0]

def k4_chk2 (v12 : BitVec 32) : Prop :=
  (∀ a, (k4_off4 v12) a + S1x64.size a ≤ S100000x64.size a) ∧
  (∀ a, (k4_off18 v12) a + S1x64.size a ≤ S100000x64.size a)
instance k4_chk2.dec : ∀ (v12 : BitVec 32), Decidable (k4_chk2 v12) := fun v12 => decidable_of_iff' _ (Iff.of_eq (k4_chk2.eq_1 v12))
theorem k4_off4_inb : ∀ (v12 : BitVec 32) (k4_hw2 : k4_chk2 v12), ∀ a, (k4_off4 v12) a + S1x64.size a ≤ S100000x64.size a := fun v12 k4_hw2 => k4_hw2.1
theorem k4_off18_inb : ∀ (v12 : BitVec 32) (k4_hw2 : k4_chk2 v12), ∀ a, (k4_off18 v12) a + S1x64.size a ≤ S100000x64.size a := fun v12 k4_hw2 => k4_hw2.2

def k4_off19 (v21 : BitVec 32) : Fin 2 → Nat :=
  let c0_i32_43 : BitVec 32 := 0#32
  ![v21.toNat, 0]

def k4_chk3 (v21 : BitVec 32) : Prop :=
  (∀ a, (k4_off6 v21) a + S1x64.size a ≤ S100000x64.size a) ∧
  (∀ a, (k4_off19 v21) a + S1x64.size a ≤ S100000x64.size a)
instance k4_chk3.dec : ∀ (v21 : BitVec 32), Decidable (k4_chk3 v21) := fun v21 => decidable_of_iff' _ (Iff.of_eq (k4_chk3.eq_1 v21))
theorem k4_off6_inb : ∀ (v21 : BitVec 32) (k4_hw3 : k4_chk3 v21), ∀ a, (k4_off6 v21) a + S1x64.size a ≤ S100000x64.size a := fun v21 k4_hw3 => k4_hw3.1
theorem k4_off19_inb : ∀ (v21 : BitVec 32) (k4_hw3 : k4_chk3 v21), ∀ a, (k4_off19 v21) a + S1x64.size a ≤ S100000x64.size a := fun v21 k4_hw3 => k4_hw3.2

def k4_off20 (v30 : BitVec 32) : Fin 2 → Nat :=
  let c0_i32_47 : BitVec 32 := 0#32
  ![v30.toNat, 0]

def k4_chk4 (v30 : BitVec 32) : Prop :=
  (∀ a, (k4_off8 v30) a + S1x64.size a ≤ S100000x64.size a) ∧
  (∀ a, (k4_off20 v30) a + S1x64.size a ≤ S100000x64.size a)
instance k4_chk4.dec : ∀ (v30 : BitVec 32), Decidable (k4_chk4 v30) := fun v30 => decidable_of_iff' _ (Iff.of_eq (k4_chk4.eq_1 v30))
theorem k4_off8_inb : ∀ (v30 : BitVec 32) (k4_hw4 : k4_chk4 v30), ∀ a, (k4_off8 v30) a + S1x64.size a ≤ S100000x64.size a := fun v30 k4_hw4 => k4_hw4.1
theorem k4_off20_inb : ∀ (v30 : BitVec 32) (k4_hw4 : k4_chk4 v30), ∀ a, (k4_off20 v30) a + S1x64.size a ≤ S100000x64.size a := fun v30 k4_hw4 => k4_hw4.2

def k4_off21 (v39 : BitVec 32) : Fin 2 → Nat :=
  let c0_i32_51 : BitVec 32 := 0#32
  ![v39.toNat, 0]

def k4_chk5 (v39 : BitVec 32) : Prop :=
  (∀ a, (k4_off10 v39) a + S1x64.size a ≤ S100000x64.size a) ∧
  (∀ a, (k4_off21 v39) a + S1x64.size a ≤ S100000x64.size a)
instance k4_chk5.dec : ∀ (v39 : BitVec 32), Decidable (k4_chk5 v39) := fun v39 => decidable_of_iff' _ (Iff.of_eq (k4_chk5.eq_1 v39))
theorem k4_off10_inb : ∀ (v39 : BitVec 32) (k4_hw5 : k4_chk5 v39), ∀ a, (k4_off10 v39) a + S1x64.size a ≤ S100000x64.size a := fun v39 k4_hw5 => k4_hw5.1
theorem k4_off21_inb : ∀ (v39 : BitVec 32) (k4_hw5 : k4_chk5 v39), ∀ a, (k4_off21 v39) a + S1x64.size a ≤ S100000x64.size a := fun v39 k4_hw5 => k4_hw5.2

def k4_off22 (v48 : BitVec 32) : Fin 2 → Nat :=
  let c0_i32_55 : BitVec 32 := 0#32
  ![v48.toNat, 0]

def k4_chk6 (v48 : BitVec 32) : Prop :=
  (∀ a, (k4_off12 v48) a + S1x64.size a ≤ S100000x64.size a) ∧
  (∀ a, (k4_off22 v48) a + S1x64.size a ≤ S100000x64.size a)
instance k4_chk6.dec : ∀ (v48 : BitVec 32), Decidable (k4_chk6 v48) := fun v48 => decidable_of_iff' _ (Iff.of_eq (k4_chk6.eq_1 v48))
theorem k4_off12_inb : ∀ (v48 : BitVec 32) (k4_hw6 : k4_chk6 v48), ∀ a, (k4_off12 v48) a + S1x64.size a ≤ S100000x64.size a := fun v48 k4_hw6 => k4_hw6.1
theorem k4_off22_inb : ∀ (v48 : BitVec 32) (k4_hw6 : k4_chk6 v48), ∀ a, (k4_off22 v48) a + S1x64.size a ≤ S100000x64.size a := fun v48 k4_hw6 => k4_hw6.2

def k4_off23 (v57 : BitVec 32) : Fin 2 → Nat :=
  let c0_i32_59 : BitVec 32 := 0#32
  ![v57.toNat, 0]

def k4_chk7 (v57 : BitVec 32) : Prop :=
  (∀ a, (k4_off14 v57) a + S1x64.size a ≤ S100000x64.size a) ∧
  (∀ a, (k4_off23 v57) a + S1x64.size a ≤ S100000x64.size a)
instance k4_chk7.dec : ∀ (v57 : BitVec 32), Decidable (k4_chk7 v57) := fun v57 => decidable_of_iff' _ (Iff.of_eq (k4_chk7.eq_1 v57))
theorem k4_off14_inb : ∀ (v57 : BitVec 32) (k4_hw7 : k4_chk7 v57), ∀ a, (k4_off14 v57) a + S1x64.size a ≤ S100000x64.size a := fun v57 k4_hw7 => k4_hw7.1
theorem k4_off23_inb : ∀ (v57 : BitVec 32) (k4_hw7 : k4_chk7 v57), ∀ a, (k4_off23 v57) a + S1x64.size a ≤ S100000x64.size a := fun v57 k4_hw7 => k4_hw7.2

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8x1 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev grid5 : Pipeline.Grid := ⟨1, ![12500], ![false]⟩

abbrev pre5 : Pipeline.Prefetch sig := ⟨1, ![main_v21.idx], fun | 0 => main_v21.names | ⟨_ + 1, h⟩ => absurd h (Nat.not_lt.2 (Nat.le_add_left _ _)), fun | 0 => rfl | ⟨_ + 1, h⟩ => absurd h (Nat.not_lt.2 (Nat.le_add_left _ _))⟩

def k5_off1 (i : grid5.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k5_off2 (v3 : BitVec 32) : Fin 2 → Nat :=
  let c0_i32_3 : BitVec 32 := 0#32
  ![v3.toNat, 0]

def k5_off3 (i : grid5.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k5_off4 (v12 : BitVec 32) : Fin 2 → Nat :=
  let c0_i32_7 : BitVec 32 := 0#32
  ![v12.toNat, 0]

def k5_off5 (i : grid5.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k5_off6 (v21 : BitVec 32) : Fin 2 → Nat :=
  let c0_i32_11 : BitVec 32 := 0#32
  ![v21.toNat, 0]

def k5_off7 (i : grid5.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k5_off8 (v30 : BitVec 32) : Fin 2 → Nat :=
  let c0_i32_15 : BitVec 32 := 0#32
  ![v30.toNat, 0]

def k5_off9 (i : grid5.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k5_off10 (v39 : BitVec 32) : Fin 2 → Nat :=
  let c0_i32_19 : BitVec 32 := 0#32
  ![v39.toNat, 0]

def k5_off11 (i : grid5.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k5_off12 (v48 : BitVec 32) : Fin 2 → Nat :=
  let c0_i32_23 : BitVec 32 := 0#32
  ![v48.toNat, 0]

def k5_off13 (i : grid5.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k5_off14 (v57 : BitVec 32) : Fin 2 → Nat :=
  let c0_i32_27 : BitVec 32 := 0#32
  ![v57.toNat, 0]

def k5_off15 (i : grid5.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k5_off16 (v66 : BitVec 32) : Fin 2 → Nat :=
  let c0_i32_31 : BitVec 32 := 0#32
  ![v66.toNat, 0]

def k5_chk8 (v66 : BitVec 32) : Prop :=
  (∀ a, (k5_off16 v66) a + S1x64.size a ≤ S100000x64.size a)
instance k5_chk8.dec : ∀ (v66 : BitVec 32), Decidable (k5_chk8 v66) := fun v66 => decidable_of_iff' _ (Iff.of_eq (k5_chk8.eq_1 v66))
theorem k5_off16_inb : ∀ (v66 : BitVec 32) (k5_hw8 : k5_chk8 v66), ∀ a, (k5_off16 v66) a + S1x64.size a ≤ S100000x64.size a := fun v66 k5_hw8 => k5_hw8

def k5_off17 (v3 : BitVec 32) : Fin 2 → Nat :=
  let c0_i32_35 : BitVec 32 := 0#32
  ![v3.toNat, 0]

def k5_chk1 (v3 : BitVec 32) : Prop :=
  (∀ a, (k5_off2 v3) a + S1x64.size a ≤ S100000x64.size a) ∧
  (∀ a, (k5_off17 v3) a + S1x64.size a ≤ S100000x64.size a)
instance k5_chk1.dec : ∀ (v3 : BitVec 32), Decidable (k5_chk1 v3) := fun v3 => decidable_of_iff' _ (Iff.of_eq (k5_chk1.eq_1 v3))
theorem k5_off2_inb : ∀ (v3 : BitVec 32) (k5_hw1 : k5_chk1 v3), ∀ a, (k5_off2 v3) a + S1x64.size a ≤ S100000x64.size a := fun v3 k5_hw1 => k5_hw1.1
theorem k5_off17_inb : ∀ (v3 : BitVec 32) (k5_hw1 : k5_chk1 v3), ∀ a, (k5_off17 v3) a + S1x64.size a ≤ S100000x64.size a := fun v3 k5_hw1 => k5_hw1.2

def k5_off18 (v12 : BitVec 32) : Fin 2 → Nat :=
  let c0_i32_39 : BitVec 32 := 0#32
  ![v12.toNat, 0]

def k5_chk2 (v12 : BitVec 32) : Prop :=
  (∀ a, (k5_off4 v12) a + S1x64.size a ≤ S100000x64.size a) ∧
  (∀ a, (k5_off18 v12) a + S1x64.size a ≤ S100000x64.size a)
instance k5_chk2.dec : ∀ (v12 : BitVec 32), Decidable (k5_chk2 v12) := fun v12 => decidable_of_iff' _ (Iff.of_eq (k5_chk2.eq_1 v12))
theorem k5_off4_inb : ∀ (v12 : BitVec 32) (k5_hw2 : k5_chk2 v12), ∀ a, (k5_off4 v12) a + S1x64.size a ≤ S100000x64.size a := fun v12 k5_hw2 => k5_hw2.1
theorem k5_off18_inb : ∀ (v12 : BitVec 32) (k5_hw2 : k5_chk2 v12), ∀ a, (k5_off18 v12) a + S1x64.size a ≤ S100000x64.size a := fun v12 k5_hw2 => k5_hw2.2

def k5_off19 (v21 : BitVec 32) : Fin 2 → Nat :=
  let c0_i32_43 : BitVec 32 := 0#32
  ![v21.toNat, 0]

def k5_chk3 (v21 : BitVec 32) : Prop :=
  (∀ a, (k5_off6 v21) a + S1x64.size a ≤ S100000x64.size a) ∧
  (∀ a, (k5_off19 v21) a + S1x64.size a ≤ S100000x64.size a)
instance k5_chk3.dec : ∀ (v21 : BitVec 32), Decidable (k5_chk3 v21) := fun v21 => decidable_of_iff' _ (Iff.of_eq (k5_chk3.eq_1 v21))
theorem k5_off6_inb : ∀ (v21 : BitVec 32) (k5_hw3 : k5_chk3 v21), ∀ a, (k5_off6 v21) a + S1x64.size a ≤ S100000x64.size a := fun v21 k5_hw3 => k5_hw3.1
theorem k5_off19_inb : ∀ (v21 : BitVec 32) (k5_hw3 : k5_chk3 v21), ∀ a, (k5_off19 v21) a + S1x64.size a ≤ S100000x64.size a := fun v21 k5_hw3 => k5_hw3.2

def k5_off20 (v30 : BitVec 32) : Fin 2 → Nat :=
  let c0_i32_47 : BitVec 32 := 0#32
  ![v30.toNat, 0]

def k5_chk4 (v30 : BitVec 32) : Prop :=
  (∀ a, (k5_off8 v30) a + S1x64.size a ≤ S100000x64.size a) ∧
  (∀ a, (k5_off20 v30) a + S1x64.size a ≤ S100000x64.size a)
instance k5_chk4.dec : ∀ (v30 : BitVec 32), Decidable (k5_chk4 v30) := fun v30 => decidable_of_iff' _ (Iff.of_eq (k5_chk4.eq_1 v30))
theorem k5_off8_inb : ∀ (v30 : BitVec 32) (k5_hw4 : k5_chk4 v30), ∀ a, (k5_off8 v30) a + S1x64.size a ≤ S100000x64.size a := fun v30 k5_hw4 => k5_hw4.1
theorem k5_off20_inb : ∀ (v30 : BitVec 32) (k5_hw4 : k5_chk4 v30), ∀ a, (k5_off20 v30) a + S1x64.size a ≤ S100000x64.size a := fun v30 k5_hw4 => k5_hw4.2

def k5_off21 (v39 : BitVec 32) : Fin 2 → Nat :=
  let c0_i32_51 : BitVec 32 := 0#32
  ![v39.toNat, 0]

def k5_chk5 (v39 : BitVec 32) : Prop :=
  (∀ a, (k5_off10 v39) a + S1x64.size a ≤ S100000x64.size a) ∧
  (∀ a, (k5_off21 v39) a + S1x64.size a ≤ S100000x64.size a)
instance k5_chk5.dec : ∀ (v39 : BitVec 32), Decidable (k5_chk5 v39) := fun v39 => decidable_of_iff' _ (Iff.of_eq (k5_chk5.eq_1 v39))
theorem k5_off10_inb : ∀ (v39 : BitVec 32) (k5_hw5 : k5_chk5 v39), ∀ a, (k5_off10 v39) a + S1x64.size a ≤ S100000x64.size a := fun v39 k5_hw5 => k5_hw5.1
theorem k5_off21_inb : ∀ (v39 : BitVec 32) (k5_hw5 : k5_chk5 v39), ∀ a, (k5_off21 v39) a + S1x64.size a ≤ S100000x64.size a := fun v39 k5_hw5 => k5_hw5.2

def k5_off22 (v48 : BitVec 32) : Fin 2 → Nat :=
  let c0_i32_55 : BitVec 32 := 0#32
  ![v48.toNat, 0]

def k5_chk6 (v48 : BitVec 32) : Prop :=
  (∀ a, (k5_off12 v48) a + S1x64.size a ≤ S100000x64.size a) ∧
  (∀ a, (k5_off22 v48) a + S1x64.size a ≤ S100000x64.size a)
instance k5_chk6.dec : ∀ (v48 : BitVec 32), Decidable (k5_chk6 v48) := fun v48 => decidable_of_iff' _ (Iff.of_eq (k5_chk6.eq_1 v48))
theorem k5_off12_inb : ∀ (v48 : BitVec 32) (k5_hw6 : k5_chk6 v48), ∀ a, (k5_off12 v48) a + S1x64.size a ≤ S100000x64.size a := fun v48 k5_hw6 => k5_hw6.1
theorem k5_off22_inb : ∀ (v48 : BitVec 32) (k5_hw6 : k5_chk6 v48), ∀ a, (k5_off22 v48) a + S1x64.size a ≤ S100000x64.size a := fun v48 k5_hw6 => k5_hw6.2

def k5_off23 (v57 : BitVec 32) : Fin 2 → Nat :=
  let c0_i32_59 : BitVec 32 := 0#32
  ![v57.toNat, 0]

def k5_chk7 (v57 : BitVec 32) : Prop :=
  (∀ a, (k5_off14 v57) a + S1x64.size a ≤ S100000x64.size a) ∧
  (∀ a, (k5_off23 v57) a + S1x64.size a ≤ S100000x64.size a)
instance k5_chk7.dec : ∀ (v57 : BitVec 32), Decidable (k5_chk7 v57) := fun v57 => decidable_of_iff' _ (Iff.of_eq (k5_chk7.eq_1 v57))
theorem k5_off14_inb : ∀ (v57 : BitVec 32) (k5_hw7 : k5_chk7 v57), ∀ a, (k5_off14 v57) a + S1x64.size a ≤ S100000x64.size a := fun v57 k5_hw7 => k5_hw7.1
theorem k5_off23_inb : ∀ (v57 : BitVec 32) (k5_hw7 : k5_chk7 v57), ∀ a, (k5_off23 v57) a + S1x64.size a ≤ S100000x64.size a := fun v57 k5_hw7 => k5_hw7.2

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev grid6 : Pipeline.Grid := ⟨1, ![12500], ![false]⟩

abbrev pre6 : Pipeline.Prefetch sig := ⟨1, ![main_v25.idx], fun | 0 => main_v25.names | ⟨_ + 1, h⟩ => absurd h (Nat.not_lt.2 (Nat.le_add_left _ _)), fun | 0 => rfl | ⟨_ + 1, h⟩ => absurd h (Nat.not_lt.2 (Nat.le_add_left _ _))⟩

def k6_off1 (i : grid6.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k6_off2 (v3 : BitVec 32) : Fin 2 → Nat :=
  let c0_i32_3 : BitVec 32 := 0#32
  ![v3.toNat, 0]

def k6_off3 (i : grid6.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k6_off4 (v12 : BitVec 32) : Fin 2 → Nat :=
  let c0_i32_7 : BitVec 32 := 0#32
  ![v12.toNat, 0]

def k6_off5 (i : grid6.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k6_off6 (v21 : BitVec 32) : Fin 2 → Nat :=
  let c0_i32_11 : BitVec 32 := 0#32
  ![v21.toNat, 0]

def k6_off7 (i : grid6.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k6_off8 (v30 : BitVec 32) : Fin 2 → Nat :=
  let c0_i32_15 : BitVec 32 := 0#32
  ![v30.toNat, 0]

def k6_off9 (i : grid6.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k6_off10 (v39 : BitVec 32) : Fin 2 → Nat :=
  let c0_i32_19 : BitVec 32 := 0#32
  ![v39.toNat, 0]

def k6_off11 (i : grid6.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k6_off12 (v48 : BitVec 32) : Fin 2 → Nat :=
  let c0_i32_23 : BitVec 32 := 0#32
  ![v48.toNat, 0]

def k6_off13 (i : grid6.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k6_off14 (v57 : BitVec 32) : Fin 2 → Nat :=
  let c0_i32_27 : BitVec 32 := 0#32
  ![v57.toNat, 0]

def k6_off15 (i : grid6.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k6_off16 (v66 : BitVec 32) : Fin 2 → Nat :=
  let c0_i32_31 : BitVec 32 := 0#32
  ![v66.toNat, 0]

def k6_chk8 (v66 : BitVec 32) : Prop :=
  (∀ a, (k6_off16 v66) a + S1x64.size a ≤ S100000x64.size a)
instance k6_chk8.dec : ∀ (v66 : BitVec 32), Decidable (k6_chk8 v66) := fun v66 => decidable_of_iff' _ (Iff.of_eq (k6_chk8.eq_1 v66))
theorem k6_off16_inb : ∀ (v66 : BitVec 32) (k6_hw8 : k6_chk8 v66), ∀ a, (k6_off16 v66) a + S1x64.size a ≤ S100000x64.size a := fun v66 k6_hw8 => k6_hw8

def k6_off17 (v3 : BitVec 32) : Fin 2 → Nat :=
  let c0_i32_35 : BitVec 32 := 0#32
  ![v3.toNat, 0]

def k6_chk1 (v3 : BitVec 32) : Prop :=
  (∀ a, (k6_off2 v3) a + S1x64.size a ≤ S100000x64.size a) ∧
  (∀ a, (k6_off17 v3) a + S1x64.size a ≤ S100000x64.size a)
instance k6_chk1.dec : ∀ (v3 : BitVec 32), Decidable (k6_chk1 v3) := fun v3 => decidable_of_iff' _ (Iff.of_eq (k6_chk1.eq_1 v3))
theorem k6_off2_inb : ∀ (v3 : BitVec 32) (k6_hw1 : k6_chk1 v3), ∀ a, (k6_off2 v3) a + S1x64.size a ≤ S100000x64.size a := fun v3 k6_hw1 => k6_hw1.1
theorem k6_off17_inb : ∀ (v3 : BitVec 32) (k6_hw1 : k6_chk1 v3), ∀ a, (k6_off17 v3) a + S1x64.size a ≤ S100000x64.size a := fun v3 k6_hw1 => k6_hw1.2

def k6_off18 (v12 : BitVec 32) : Fin 2 → Nat :=
  let c0_i32_39 : BitVec 32 := 0#32
  ![v12.toNat, 0]

def k6_chk2 (v12 : BitVec 32) : Prop :=
  (∀ a, (k6_off4 v12) a + S1x64.size a ≤ S100000x64.size a) ∧
  (∀ a, (k6_off18 v12) a + S1x64.size a ≤ S100000x64.size a)
instance k6_chk2.dec : ∀ (v12 : BitVec 32), Decidable (k6_chk2 v12) := fun v12 => decidable_of_iff' _ (Iff.of_eq (k6_chk2.eq_1 v12))
theorem k6_off4_inb : ∀ (v12 : BitVec 32) (k6_hw2 : k6_chk2 v12), ∀ a, (k6_off4 v12) a + S1x64.size a ≤ S100000x64.size a := fun v12 k6_hw2 => k6_hw2.1
theorem k6_off18_inb : ∀ (v12 : BitVec 32) (k6_hw2 : k6_chk2 v12), ∀ a, (k6_off18 v12) a + S1x64.size a ≤ S100000x64.size a := fun v12 k6_hw2 => k6_hw2.2

def k6_off19 (v21 : BitVec 32) : Fin 2 → Nat :=
  let c0_i32_43 : BitVec 32 := 0#32
  ![v21.toNat, 0]

def k6_chk3 (v21 : BitVec 32) : Prop :=
  (∀ a, (k6_off6 v21) a + S1x64.size a ≤ S100000x64.size a) ∧
  (∀ a, (k6_off19 v21) a + S1x64.size a ≤ S100000x64.size a)
instance k6_chk3.dec : ∀ (v21 : BitVec 32), Decidable (k6_chk3 v21) := fun v21 => decidable_of_iff' _ (Iff.of_eq (k6_chk3.eq_1 v21))
theorem k6_off6_inb : ∀ (v21 : BitVec 32) (k6_hw3 : k6_chk3 v21), ∀ a, (k6_off6 v21) a + S1x64.size a ≤ S100000x64.size a := fun v21 k6_hw3 => k6_hw3.1
theorem k6_off19_inb : ∀ (v21 : BitVec 32) (k6_hw3 : k6_chk3 v21), ∀ a, (k6_off19 v21) a + S1x64.size a ≤ S100000x64.size a := fun v21 k6_hw3 => k6_hw3.2

def k6_off20 (v30 : BitVec 32) : Fin 2 → Nat :=
  let c0_i32_47 : BitVec 32 := 0#32
  ![v30.toNat, 0]

def k6_chk4 (v30 : BitVec 32) : Prop :=
  (∀ a, (k6_off8 v30) a + S1x64.size a ≤ S100000x64.size a) ∧
  (∀ a, (k6_off20 v30) a + S1x64.size a ≤ S100000x64.size a)
instance k6_chk4.dec : ∀ (v30 : BitVec 32), Decidable (k6_chk4 v30) := fun v30 => decidable_of_iff' _ (Iff.of_eq (k6_chk4.eq_1 v30))
theorem k6_off8_inb : ∀ (v30 : BitVec 32) (k6_hw4 : k6_chk4 v30), ∀ a, (k6_off8 v30) a + S1x64.size a ≤ S100000x64.size a := fun v30 k6_hw4 => k6_hw4.1
theorem k6_off20_inb : ∀ (v30 : BitVec 32) (k6_hw4 : k6_chk4 v30), ∀ a, (k6_off20 v30) a + S1x64.size a ≤ S100000x64.size a := fun v30 k6_hw4 => k6_hw4.2

def k6_off21 (v39 : BitVec 32) : Fin 2 → Nat :=
  let c0_i32_51 : BitVec 32 := 0#32
  ![v39.toNat, 0]

def k6_chk5 (v39 : BitVec 32) : Prop :=
  (∀ a, (k6_off10 v39) a + S1x64.size a ≤ S100000x64.size a) ∧
  (∀ a, (k6_off21 v39) a + S1x64.size a ≤ S100000x64.size a)
instance k6_chk5.dec : ∀ (v39 : BitVec 32), Decidable (k6_chk5 v39) := fun v39 => decidable_of_iff' _ (Iff.of_eq (k6_chk5.eq_1 v39))
theorem k6_off10_inb : ∀ (v39 : BitVec 32) (k6_hw5 : k6_chk5 v39), ∀ a, (k6_off10 v39) a + S1x64.size a ≤ S100000x64.size a := fun v39 k6_hw5 => k6_hw5.1
theorem k6_off21_inb : ∀ (v39 : BitVec 32) (k6_hw5 : k6_chk5 v39), ∀ a, (k6_off21 v39) a + S1x64.size a ≤ S100000x64.size a := fun v39 k6_hw5 => k6_hw5.2

def k6_off22 (v48 : BitVec 32) : Fin 2 → Nat :=
  let c0_i32_55 : BitVec 32 := 0#32
  ![v48.toNat, 0]

def k6_chk6 (v48 : BitVec 32) : Prop :=
  (∀ a, (k6_off12 v48) a + S1x64.size a ≤ S100000x64.size a) ∧
  (∀ a, (k6_off22 v48) a + S1x64.size a ≤ S100000x64.size a)
instance k6_chk6.dec : ∀ (v48 : BitVec 32), Decidable (k6_chk6 v48) := fun v48 => decidable_of_iff' _ (Iff.of_eq (k6_chk6.eq_1 v48))
theorem k6_off12_inb : ∀ (v48 : BitVec 32) (k6_hw6 : k6_chk6 v48), ∀ a, (k6_off12 v48) a + S1x64.size a ≤ S100000x64.size a := fun v48 k6_hw6 => k6_hw6.1
theorem k6_off22_inb : ∀ (v48 : BitVec 32) (k6_hw6 : k6_chk6 v48), ∀ a, (k6_off22 v48) a + S1x64.size a ≤ S100000x64.size a := fun v48 k6_hw6 => k6_hw6.2

def k6_off23 (v57 : BitVec 32) : Fin 2 → Nat :=
  let c0_i32_59 : BitVec 32 := 0#32
  ![v57.toNat, 0]

def k6_chk7 (v57 : BitVec 32) : Prop :=
  (∀ a, (k6_off14 v57) a + S1x64.size a ≤ S100000x64.size a) ∧
  (∀ a, (k6_off23 v57) a + S1x64.size a ≤ S100000x64.size a)
instance k6_chk7.dec : ∀ (v57 : BitVec 32), Decidable (k6_chk7 v57) := fun v57 => decidable_of_iff' _ (Iff.of_eq (k6_chk7.eq_1 v57))
theorem k6_off14_inb : ∀ (v57 : BitVec 32) (k6_hw7 : k6_chk7 v57), ∀ a, (k6_off14 v57) a + S1x64.size a ≤ S100000x64.size a := fun v57 k6_hw7 => k6_hw7.1
theorem k6_off23_inb : ∀ (v57 : BitVec 32) (k6_hw7 : k6_chk7 v57), ∀ a, (k6_off23 v57) a + S1x64.size a ≤ S100000x64.size a := fun v57 k6_hw7 => k6_hw7.2

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8x1 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S8x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev grid7 : Pipeline.Grid := ⟨1, ![12500], ![false]⟩

abbrev pre7 : Pipeline.Prefetch sig := ⟨1, ![main_v29.idx], fun | 0 => main_v29.names | ⟨_ + 1, h⟩ => absurd h (Nat.not_lt.2 (Nat.le_add_left _ _)), fun | 0 => rfl | ⟨_ + 1, h⟩ => absurd h (Nat.not_lt.2 (Nat.le_add_left _ _))⟩

def k7_off1 (i : grid7.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k7_off2 (v3 : BitVec 32) : Fin 2 → Nat :=
  let c0_i32_3 : BitVec 32 := 0#32
  ![v3.toNat, 0]

def k7_off3 (i : grid7.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k7_off4 (v12 : BitVec 32) : Fin 2 → Nat :=
  let c0_i32_7 : BitVec 32 := 0#32
  ![v12.toNat, 0]

def k7_off5 (i : grid7.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k7_off6 (v21 : BitVec 32) : Fin 2 → Nat :=
  let c0_i32_11 : BitVec 32 := 0#32
  ![v21.toNat, 0]

def k7_off7 (i : grid7.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k7_off8 (v30 : BitVec 32) : Fin 2 → Nat :=
  let c0_i32_15 : BitVec 32 := 0#32
  ![v30.toNat, 0]

def k7_off9 (i : grid7.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k7_off10 (v39 : BitVec 32) : Fin 2 → Nat :=
  let c0_i32_19 : BitVec 32 := 0#32
  ![v39.toNat, 0]

def k7_off11 (i : grid7.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k7_off12 (v48 : BitVec 32) : Fin 2 → Nat :=
  let c0_i32_23 : BitVec 32 := 0#32
  ![v48.toNat, 0]

def k7_off13 (i : grid7.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k7_off14 (v57 : BitVec 32) : Fin 2 → Nat :=
  let c0_i32_27 : BitVec 32 := 0#32
  ![v57.toNat, 0]

def k7_off15 (i : grid7.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k7_off16 (v66 : BitVec 32) : Fin 2 → Nat :=
  let c0_i32_31 : BitVec 32 := 0#32
  ![v66.toNat, 0]

def k7_chk8 (v66 : BitVec 32) : Prop :=
  (∀ a, (k7_off16 v66) a + S1x64.size a ≤ S100000x64.size a)
instance k7_chk8.dec : ∀ (v66 : BitVec 32), Decidable (k7_chk8 v66) := fun v66 => decidable_of_iff' _ (Iff.of_eq (k7_chk8.eq_1 v66))
theorem k7_off16_inb : ∀ (v66 : BitVec 32) (k7_hw8 : k7_chk8 v66), ∀ a, (k7_off16 v66) a + S1x64.size a ≤ S100000x64.size a := fun v66 k7_hw8 => k7_hw8

def k7_off17 (v3 : BitVec 32) : Fin 2 → Nat :=
  let c0_i32_35 : BitVec 32 := 0#32
  ![v3.toNat, 0]

def k7_chk1 (v3 : BitVec 32) : Prop :=
  (∀ a, (k7_off2 v3) a + S1x64.size a ≤ S100000x64.size a) ∧
  (∀ a, (k7_off17 v3) a + S1x64.size a ≤ S100000x64.size a)
instance k7_chk1.dec : ∀ (v3 : BitVec 32), Decidable (k7_chk1 v3) := fun v3 => decidable_of_iff' _ (Iff.of_eq (k7_chk1.eq_1 v3))
theorem k7_off2_inb : ∀ (v3 : BitVec 32) (k7_hw1 : k7_chk1 v3), ∀ a, (k7_off2 v3) a + S1x64.size a ≤ S100000x64.size a := fun v3 k7_hw1 => k7_hw1.1
theorem k7_off17_inb : ∀ (v3 : BitVec 32) (k7_hw1 : k7_chk1 v3), ∀ a, (k7_off17 v3) a + S1x64.size a ≤ S100000x64.size a := fun v3 k7_hw1 => k7_hw1.2

def k7_off18 (v12 : BitVec 32) : Fin 2 → Nat :=
  let c0_i32_39 : BitVec 32 := 0#32
  ![v12.toNat, 0]

def k7_chk2 (v12 : BitVec 32) : Prop :=
  (∀ a, (k7_off4 v12) a + S1x64.size a ≤ S100000x64.size a) ∧
  (∀ a, (k7_off18 v12) a + S1x64.size a ≤ S100000x64.size a)
instance k7_chk2.dec : ∀ (v12 : BitVec 32), Decidable (k7_chk2 v12) := fun v12 => decidable_of_iff' _ (Iff.of_eq (k7_chk2.eq_1 v12))
theorem k7_off4_inb : ∀ (v12 : BitVec 32) (k7_hw2 : k7_chk2 v12), ∀ a, (k7_off4 v12) a + S1x64.size a ≤ S100000x64.size a := fun v12 k7_hw2 => k7_hw2.1
theorem k7_off18_inb : ∀ (v12 : BitVec 32) (k7_hw2 : k7_chk2 v12), ∀ a, (k7_off18 v12) a + S1x64.size a ≤ S100000x64.size a := fun v12 k7_hw2 => k7_hw2.2

def k7_off19 (v21 : BitVec 32) : Fin 2 → Nat :=
  let c0_i32_43 : BitVec 32 := 0#32
  ![v21.toNat, 0]

def k7_chk3 (v21 : BitVec 32) : Prop :=
  (∀ a, (k7_off6 v21) a + S1x64.size a ≤ S100000x64.size a) ∧
  (∀ a, (k7_off19 v21) a + S1x64.size a ≤ S100000x64.size a)
instance k7_chk3.dec : ∀ (v21 : BitVec 32), Decidable (k7_chk3 v21) := fun v21 => decidable_of_iff' _ (Iff.of_eq (k7_chk3.eq_1 v21))
theorem k7_off6_inb : ∀ (v21 : BitVec 32) (k7_hw3 : k7_chk3 v21), ∀ a, (k7_off6 v21) a + S1x64.size a ≤ S100000x64.size a := fun v21 k7_hw3 => k7_hw3.1
theorem k7_off19_inb : ∀ (v21 : BitVec 32) (k7_hw3 : k7_chk3 v21), ∀ a, (k7_off19 v21) a + S1x64.size a ≤ S100000x64.size a := fun v21 k7_hw3 => k7_hw3.2

def k7_off20 (v30 : BitVec 32) : Fin 2 → Nat :=
  let c0_i32_47 : BitVec 32 := 0#32
  ![v30.toNat, 0]

def k7_chk4 (v30 : BitVec 32) : Prop :=
  (∀ a, (k7_off8 v30) a + S1x64.size a ≤ S100000x64.size a) ∧
  (∀ a, (k7_off20 v30) a + S1x64.size a ≤ S100000x64.size a)
instance k7_chk4.dec : ∀ (v30 : BitVec 32), Decidable (k7_chk4 v30) := fun v30 => decidable_of_iff' _ (Iff.of_eq (k7_chk4.eq_1 v30))
theorem k7_off8_inb : ∀ (v30 : BitVec 32) (k7_hw4 : k7_chk4 v30), ∀ a, (k7_off8 v30) a + S1x64.size a ≤ S100000x64.size a := fun v30 k7_hw4 => k7_hw4.1
theorem k7_off20_inb : ∀ (v30 : BitVec 32) (k7_hw4 : k7_chk4 v30), ∀ a, (k7_off20 v30) a + S1x64.size a ≤ S100000x64.size a := fun v30 k7_hw4 => k7_hw4.2

def k7_off21 (v39 : BitVec 32) : Fin 2 → Nat :=
  let c0_i32_51 : BitVec 32 := 0#32
  ![v39.toNat, 0]

def k7_chk5 (v39 : BitVec 32) : Prop :=
  (∀ a, (k7_off10 v39) a + S1x64.size a ≤ S100000x64.size a) ∧
  (∀ a, (k7_off21 v39) a + S1x64.size a ≤ S100000x64.size a)
instance k7_chk5.dec : ∀ (v39 : BitVec 32), Decidable (k7_chk5 v39) := fun v39 => decidable_of_iff' _ (Iff.of_eq (k7_chk5.eq_1 v39))
theorem k7_off10_inb : ∀ (v39 : BitVec 32) (k7_hw5 : k7_chk5 v39), ∀ a, (k7_off10 v39) a + S1x64.size a ≤ S100000x64.size a := fun v39 k7_hw5 => k7_hw5.1
theorem k7_off21_inb : ∀ (v39 : BitVec 32) (k7_hw5 : k7_chk5 v39), ∀ a, (k7_off21 v39) a + S1x64.size a ≤ S100000x64.size a := fun v39 k7_hw5 => k7_hw5.2

def k7_off22 (v48 : BitVec 32) : Fin 2 → Nat :=
  let c0_i32_55 : BitVec 32 := 0#32
  ![v48.toNat, 0]

def k7_chk6 (v48 : BitVec 32) : Prop :=
  (∀ a, (k7_off12 v48) a + S1x64.size a ≤ S100000x64.size a) ∧
  (∀ a, (k7_off22 v48) a + S1x64.size a ≤ S100000x64.size a)
instance k7_chk6.dec : ∀ (v48 : BitVec 32), Decidable (k7_chk6 v48) := fun v48 => decidable_of_iff' _ (Iff.of_eq (k7_chk6.eq_1 v48))
theorem k7_off12_inb : ∀ (v48 : BitVec 32) (k7_hw6 : k7_chk6 v48), ∀ a, (k7_off12 v48) a + S1x64.size a ≤ S100000x64.size a := fun v48 k7_hw6 => k7_hw6.1
theorem k7_off22_inb : ∀ (v48 : BitVec 32) (k7_hw6 : k7_chk6 v48), ∀ a, (k7_off22 v48) a + S1x64.size a ≤ S100000x64.size a := fun v48 k7_hw6 => k7_hw6.2

def k7_off23 (v57 : BitVec 32) : Fin 2 → Nat :=
  let c0_i32_59 : BitVec 32 := 0#32
  ![v57.toNat, 0]

def k7_chk7 (v57 : BitVec 32) : Prop :=
  (∀ a, (k7_off14 v57) a + S1x64.size a ≤ S100000x64.size a) ∧
  (∀ a, (k7_off23 v57) a + S1x64.size a ≤ S100000x64.size a)
instance k7_chk7.dec : ∀ (v57 : BitVec 32), Decidable (k7_chk7 v57) := fun v57 => decidable_of_iff' _ (Iff.of_eq (k7_chk7.eq_1 v57))
theorem k7_off14_inb : ∀ (v57 : BitVec 32) (k7_hw7 : k7_chk7 v57), ∀ a, (k7_off14 v57) a + S1x64.size a ≤ S100000x64.size a := fun v57 k7_hw7 => k7_hw7.1
theorem k7_off23_inb : ∀ (v57 : BitVec 32) (k7_hw7 : k7_chk7 v57), ∀ a, (k7_off23 v57) a + S1x64.size a ≤ S100000x64.size a := fun v57 k7_hw7 => k7_hw7.2

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8x1 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S8x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev grid8 : Pipeline.Grid := ⟨1, ![12500], ![false]⟩

abbrev pre8 : Pipeline.Prefetch sig := ⟨1, ![main_v33.idx], fun | 0 => main_v33.names | ⟨_ + 1, h⟩ => absurd h (Nat.not_lt.2 (Nat.le_add_left _ _)), fun | 0 => rfl | ⟨_ + 1, h⟩ => absurd h (Nat.not_lt.2 (Nat.le_add_left _ _))⟩

def k8_off1 (i : grid8.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k8_off2 (v3 : BitVec 32) : Fin 2 → Nat :=
  let c0_i32_3 : BitVec 32 := 0#32
  ![v3.toNat, 0]

def k8_off3 (i : grid8.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k8_off4 (v12 : BitVec 32) : Fin 2 → Nat :=
  let c0_i32_7 : BitVec 32 := 0#32
  ![v12.toNat, 0]

def k8_off5 (i : grid8.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k8_off6 (v21 : BitVec 32) : Fin 2 → Nat :=
  let c0_i32_11 : BitVec 32 := 0#32
  ![v21.toNat, 0]

def k8_off7 (i : grid8.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k8_off8 (v30 : BitVec 32) : Fin 2 → Nat :=
  let c0_i32_15 : BitVec 32 := 0#32
  ![v30.toNat, 0]

def k8_off9 (i : grid8.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k8_off10 (v39 : BitVec 32) : Fin 2 → Nat :=
  let c0_i32_19 : BitVec 32 := 0#32
  ![v39.toNat, 0]

def k8_off11 (i : grid8.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k8_off12 (v48 : BitVec 32) : Fin 2 → Nat :=
  let c0_i32_23 : BitVec 32 := 0#32
  ![v48.toNat, 0]

def k8_off13 (i : grid8.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k8_off14 (v57 : BitVec 32) : Fin 2 → Nat :=
  let c0_i32_27 : BitVec 32 := 0#32
  ![v57.toNat, 0]

def k8_off15 (i : grid8.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k8_off16 (v66 : BitVec 32) : Fin 2 → Nat :=
  let c0_i32_31 : BitVec 32 := 0#32
  ![v66.toNat, 0]

def k8_chk8 (v66 : BitVec 32) : Prop :=
  (∀ a, (k8_off16 v66) a + S1x64.size a ≤ S100000x64.size a)
instance k8_chk8.dec : ∀ (v66 : BitVec 32), Decidable (k8_chk8 v66) := fun v66 => decidable_of_iff' _ (Iff.of_eq (k8_chk8.eq_1 v66))
theorem k8_off16_inb : ∀ (v66 : BitVec 32) (k8_hw8 : k8_chk8 v66), ∀ a, (k8_off16 v66) a + S1x64.size a ≤ S100000x64.size a := fun v66 k8_hw8 => k8_hw8

def k8_off17 (v3 : BitVec 32) : Fin 2 → Nat :=
  let c0_i32_35 : BitVec 32 := 0#32
  ![v3.toNat, 0]

def k8_chk1 (v3 : BitVec 32) : Prop :=
  (∀ a, (k8_off2 v3) a + S1x64.size a ≤ S100000x64.size a) ∧
  (∀ a, (k8_off17 v3) a + S1x64.size a ≤ S100000x64.size a)
instance k8_chk1.dec : ∀ (v3 : BitVec 32), Decidable (k8_chk1 v3) := fun v3 => decidable_of_iff' _ (Iff.of_eq (k8_chk1.eq_1 v3))
theorem k8_off2_inb : ∀ (v3 : BitVec 32) (k8_hw1 : k8_chk1 v3), ∀ a, (k8_off2 v3) a + S1x64.size a ≤ S100000x64.size a := fun v3 k8_hw1 => k8_hw1.1
theorem k8_off17_inb : ∀ (v3 : BitVec 32) (k8_hw1 : k8_chk1 v3), ∀ a, (k8_off17 v3) a + S1x64.size a ≤ S100000x64.size a := fun v3 k8_hw1 => k8_hw1.2

def k8_off18 (v12 : BitVec 32) : Fin 2 → Nat :=
  let c0_i32_39 : BitVec 32 := 0#32
  ![v12.toNat, 0]

def k8_chk2 (v12 : BitVec 32) : Prop :=
  (∀ a, (k8_off4 v12) a + S1x64.size a ≤ S100000x64.size a) ∧
  (∀ a, (k8_off18 v12) a + S1x64.size a ≤ S100000x64.size a)
instance k8_chk2.dec : ∀ (v12 : BitVec 32), Decidable (k8_chk2 v12) := fun v12 => decidable_of_iff' _ (Iff.of_eq (k8_chk2.eq_1 v12))
theorem k8_off4_inb : ∀ (v12 : BitVec 32) (k8_hw2 : k8_chk2 v12), ∀ a, (k8_off4 v12) a + S1x64.size a ≤ S100000x64.size a := fun v12 k8_hw2 => k8_hw2.1
theorem k8_off18_inb : ∀ (v12 : BitVec 32) (k8_hw2 : k8_chk2 v12), ∀ a, (k8_off18 v12) a + S1x64.size a ≤ S100000x64.size a := fun v12 k8_hw2 => k8_hw2.2

def k8_off19 (v21 : BitVec 32) : Fin 2 → Nat :=
  let c0_i32_43 : BitVec 32 := 0#32
  ![v21.toNat, 0]

def k8_chk3 (v21 : BitVec 32) : Prop :=
  (∀ a, (k8_off6 v21) a + S1x64.size a ≤ S100000x64.size a) ∧
  (∀ a, (k8_off19 v21) a + S1x64.size a ≤ S100000x64.size a)
instance k8_chk3.dec : ∀ (v21 : BitVec 32), Decidable (k8_chk3 v21) := fun v21 => decidable_of_iff' _ (Iff.of_eq (k8_chk3.eq_1 v21))
theorem k8_off6_inb : ∀ (v21 : BitVec 32) (k8_hw3 : k8_chk3 v21), ∀ a, (k8_off6 v21) a + S1x64.size a ≤ S100000x64.size a := fun v21 k8_hw3 => k8_hw3.1
theorem k8_off19_inb : ∀ (v21 : BitVec 32) (k8_hw3 : k8_chk3 v21), ∀ a, (k8_off19 v21) a + S1x64.size a ≤ S100000x64.size a := fun v21 k8_hw3 => k8_hw3.2

def k8_off20 (v30 : BitVec 32) : Fin 2 → Nat :=
  let c0_i32_47 : BitVec 32 := 0#32
  ![v30.toNat, 0]

def k8_chk4 (v30 : BitVec 32) : Prop :=
  (∀ a, (k8_off8 v30) a + S1x64.size a ≤ S100000x64.size a) ∧
  (∀ a, (k8_off20 v30) a + S1x64.size a ≤ S100000x64.size a)
instance k8_chk4.dec : ∀ (v30 : BitVec 32), Decidable (k8_chk4 v30) := fun v30 => decidable_of_iff' _ (Iff.of_eq (k8_chk4.eq_1 v30))
theorem k8_off8_inb : ∀ (v30 : BitVec 32) (k8_hw4 : k8_chk4 v30), ∀ a, (k8_off8 v30) a + S1x64.size a ≤ S100000x64.size a := fun v30 k8_hw4 => k8_hw4.1
theorem k8_off20_inb : ∀ (v30 : BitVec 32) (k8_hw4 : k8_chk4 v30), ∀ a, (k8_off20 v30) a + S1x64.size a ≤ S100000x64.size a := fun v30 k8_hw4 => k8_hw4.2

def k8_off21 (v39 : BitVec 32) : Fin 2 → Nat :=
  let c0_i32_51 : BitVec 32 := 0#32
  ![v39.toNat, 0]

def k8_chk5 (v39 : BitVec 32) : Prop :=
  (∀ a, (k8_off10 v39) a + S1x64.size a ≤ S100000x64.size a) ∧
  (∀ a, (k8_off21 v39) a + S1x64.size a ≤ S100000x64.size a)
instance k8_chk5.dec : ∀ (v39 : BitVec 32), Decidable (k8_chk5 v39) := fun v39 => decidable_of_iff' _ (Iff.of_eq (k8_chk5.eq_1 v39))
theorem k8_off10_inb : ∀ (v39 : BitVec 32) (k8_hw5 : k8_chk5 v39), ∀ a, (k8_off10 v39) a + S1x64.size a ≤ S100000x64.size a := fun v39 k8_hw5 => k8_hw5.1
theorem k8_off21_inb : ∀ (v39 : BitVec 32) (k8_hw5 : k8_chk5 v39), ∀ a, (k8_off21 v39) a + S1x64.size a ≤ S100000x64.size a := fun v39 k8_hw5 => k8_hw5.2

def k8_off22 (v48 : BitVec 32) : Fin 2 → Nat :=
  let c0_i32_55 : BitVec 32 := 0#32
  ![v48.toNat, 0]

def k8_chk6 (v48 : BitVec 32) : Prop :=
  (∀ a, (k8_off12 v48) a + S1x64.size a ≤ S100000x64.size a) ∧
  (∀ a, (k8_off22 v48) a + S1x64.size a ≤ S100000x64.size a)
instance k8_chk6.dec : ∀ (v48 : BitVec 32), Decidable (k8_chk6 v48) := fun v48 => decidable_of_iff' _ (Iff.of_eq (k8_chk6.eq_1 v48))
theorem k8_off12_inb : ∀ (v48 : BitVec 32) (k8_hw6 : k8_chk6 v48), ∀ a, (k8_off12 v48) a + S1x64.size a ≤ S100000x64.size a := fun v48 k8_hw6 => k8_hw6.1
theorem k8_off22_inb : ∀ (v48 : BitVec 32) (k8_hw6 : k8_chk6 v48), ∀ a, (k8_off22 v48) a + S1x64.size a ≤ S100000x64.size a := fun v48 k8_hw6 => k8_hw6.2

def k8_off23 (v57 : BitVec 32) : Fin 2 → Nat :=
  let c0_i32_59 : BitVec 32 := 0#32
  ![v57.toNat, 0]

def k8_chk7 (v57 : BitVec 32) : Prop :=
  (∀ a, (k8_off14 v57) a + S1x64.size a ≤ S100000x64.size a) ∧
  (∀ a, (k8_off23 v57) a + S1x64.size a ≤ S100000x64.size a)
instance k8_chk7.dec : ∀ (v57 : BitVec 32), Decidable (k8_chk7 v57) := fun v57 => decidable_of_iff' _ (Iff.of_eq (k8_chk7.eq_1 v57))
theorem k8_off14_inb : ∀ (v57 : BitVec 32) (k8_hw7 : k8_chk7 v57), ∀ a, (k8_off14 v57) a + S1x64.size a ≤ S100000x64.size a := fun v57 k8_hw7 => k8_hw7.1
theorem k8_off23_inb : ∀ (v57 : BitVec 32) (k8_hw7 : k8_chk7 v57), ∀ a, (k8_off23 v57) a + S1x64.size a ≤ S100000x64.size a := fun v57 k8_hw7 => k8_hw7.2

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S8x1 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S8x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev grid9 : Pipeline.Grid := ⟨1, ![12500], ![false]⟩

abbrev pre9 : Pipeline.Prefetch sig := ⟨1, ![main_v37.idx], fun | 0 => main_v37.names | ⟨_ + 1, h⟩ => absurd h (Nat.not_lt.2 (Nat.le_add_left _ _)), fun | 0 => rfl | ⟨_ + 1, h⟩ => absurd h (Nat.not_lt.2 (Nat.le_add_left _ _))⟩

def k9_off1 (i : grid9.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k9_off2 (v3 : BitVec 32) : Fin 2 → Nat :=
  let c0_i32_3 : BitVec 32 := 0#32
  ![v3.toNat, 0]

def k9_off3 (i : grid9.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k9_off4 (v12 : BitVec 32) : Fin 2 → Nat :=
  let c0_i32_7 : BitVec 32 := 0#32
  ![v12.toNat, 0]

def k9_off5 (i : grid9.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k9_off6 (v21 : BitVec 32) : Fin 2 → Nat :=
  let c0_i32_11 : BitVec 32 := 0#32
  ![v21.toNat, 0]

def k9_off7 (i : grid9.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k9_off8 (v30 : BitVec 32) : Fin 2 → Nat :=
  let c0_i32_15 : BitVec 32 := 0#32
  ![v30.toNat, 0]

def k9_off9 (i : grid9.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k9_off10 (v39 : BitVec 32) : Fin 2 → Nat :=
  let c0_i32_19 : BitVec 32 := 0#32
  ![v39.toNat, 0]

def k9_off11 (i : grid9.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k9_off12 (v48 : BitVec 32) : Fin 2 → Nat :=
  let c0_i32_23 : BitVec 32 := 0#32
  ![v48.toNat, 0]

def k9_off13 (i : grid9.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k9_off14 (v57 : BitVec 32) : Fin 2 → Nat :=
  let c0_i32_27 : BitVec 32 := 0#32
  ![v57.toNat, 0]

def k9_off15 (i : grid9.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k9_off16 (v66 : BitVec 32) : Fin 2 → Nat :=
  let c0_i32_31 : BitVec 32 := 0#32
  ![v66.toNat, 0]

def k9_chk8 (v66 : BitVec 32) : Prop :=
  (∀ a, (k9_off16 v66) a + S1x64.size a ≤ S100000x64.size a)
instance k9_chk8.dec : ∀ (v66 : BitVec 32), Decidable (k9_chk8 v66) := fun v66 => decidable_of_iff' _ (Iff.of_eq (k9_chk8.eq_1 v66))
theorem k9_off16_inb : ∀ (v66 : BitVec 32) (k9_hw8 : k9_chk8 v66), ∀ a, (k9_off16 v66) a + S1x64.size a ≤ S100000x64.size a := fun v66 k9_hw8 => k9_hw8

def k9_off17 (v3 : BitVec 32) : Fin 2 → Nat :=
  let c0_i32_35 : BitVec 32 := 0#32
  ![v3.toNat, 0]

def k9_chk1 (v3 : BitVec 32) : Prop :=
  (∀ a, (k9_off2 v3) a + S1x64.size a ≤ S100000x64.size a) ∧
  (∀ a, (k9_off17 v3) a + S1x64.size a ≤ S100000x64.size a)
instance k9_chk1.dec : ∀ (v3 : BitVec 32), Decidable (k9_chk1 v3) := fun v3 => decidable_of_iff' _ (Iff.of_eq (k9_chk1.eq_1 v3))
theorem k9_off2_inb : ∀ (v3 : BitVec 32) (k9_hw1 : k9_chk1 v3), ∀ a, (k9_off2 v3) a + S1x64.size a ≤ S100000x64.size a := fun v3 k9_hw1 => k9_hw1.1
theorem k9_off17_inb : ∀ (v3 : BitVec 32) (k9_hw1 : k9_chk1 v3), ∀ a, (k9_off17 v3) a + S1x64.size a ≤ S100000x64.size a := fun v3 k9_hw1 => k9_hw1.2

def k9_off18 (v12 : BitVec 32) : Fin 2 → Nat :=
  let c0_i32_39 : BitVec 32 := 0#32
  ![v12.toNat, 0]

def k9_chk2 (v12 : BitVec 32) : Prop :=
  (∀ a, (k9_off4 v12) a + S1x64.size a ≤ S100000x64.size a) ∧
  (∀ a, (k9_off18 v12) a + S1x64.size a ≤ S100000x64.size a)
instance k9_chk2.dec : ∀ (v12 : BitVec 32), Decidable (k9_chk2 v12) := fun v12 => decidable_of_iff' _ (Iff.of_eq (k9_chk2.eq_1 v12))
theorem k9_off4_inb : ∀ (v12 : BitVec 32) (k9_hw2 : k9_chk2 v12), ∀ a, (k9_off4 v12) a + S1x64.size a ≤ S100000x64.size a := fun v12 k9_hw2 => k9_hw2.1
theorem k9_off18_inb : ∀ (v12 : BitVec 32) (k9_hw2 : k9_chk2 v12), ∀ a, (k9_off18 v12) a + S1x64.size a ≤ S100000x64.size a := fun v12 k9_hw2 => k9_hw2.2

def k9_off19 (v21 : BitVec 32) : Fin 2 → Nat :=
  let c0_i32_43 : BitVec 32 := 0#32
  ![v21.toNat, 0]

def k9_chk3 (v21 : BitVec 32) : Prop :=
  (∀ a, (k9_off6 v21) a + S1x64.size a ≤ S100000x64.size a) ∧
  (∀ a, (k9_off19 v21) a + S1x64.size a ≤ S100000x64.size a)
instance k9_chk3.dec : ∀ (v21 : BitVec 32), Decidable (k9_chk3 v21) := fun v21 => decidable_of_iff' _ (Iff.of_eq (k9_chk3.eq_1 v21))
theorem k9_off6_inb : ∀ (v21 : BitVec 32) (k9_hw3 : k9_chk3 v21), ∀ a, (k9_off6 v21) a + S1x64.size a ≤ S100000x64.size a := fun v21 k9_hw3 => k9_hw3.1
theorem k9_off19_inb : ∀ (v21 : BitVec 32) (k9_hw3 : k9_chk3 v21), ∀ a, (k9_off19 v21) a + S1x64.size a ≤ S100000x64.size a := fun v21 k9_hw3 => k9_hw3.2

def k9_off20 (v30 : BitVec 32) : Fin 2 → Nat :=
  let c0_i32_47 : BitVec 32 := 0#32
  ![v30.toNat, 0]

def k9_chk4 (v30 : BitVec 32) : Prop :=
  (∀ a, (k9_off8 v30) a + S1x64.size a ≤ S100000x64.size a) ∧
  (∀ a, (k9_off20 v30) a + S1x64.size a ≤ S100000x64.size a)
instance k9_chk4.dec : ∀ (v30 : BitVec 32), Decidable (k9_chk4 v30) := fun v30 => decidable_of_iff' _ (Iff.of_eq (k9_chk4.eq_1 v30))
theorem k9_off8_inb : ∀ (v30 : BitVec 32) (k9_hw4 : k9_chk4 v30), ∀ a, (k9_off8 v30) a + S1x64.size a ≤ S100000x64.size a := fun v30 k9_hw4 => k9_hw4.1
theorem k9_off20_inb : ∀ (v30 : BitVec 32) (k9_hw4 : k9_chk4 v30), ∀ a, (k9_off20 v30) a + S1x64.size a ≤ S100000x64.size a := fun v30 k9_hw4 => k9_hw4.2

def k9_off21 (v39 : BitVec 32) : Fin 2 → Nat :=
  let c0_i32_51 : BitVec 32 := 0#32
  ![v39.toNat, 0]

def k9_chk5 (v39 : BitVec 32) : Prop :=
  (∀ a, (k9_off10 v39) a + S1x64.size a ≤ S100000x64.size a) ∧
  (∀ a, (k9_off21 v39) a + S1x64.size a ≤ S100000x64.size a)
instance k9_chk5.dec : ∀ (v39 : BitVec 32), Decidable (k9_chk5 v39) := fun v39 => decidable_of_iff' _ (Iff.of_eq (k9_chk5.eq_1 v39))
theorem k9_off10_inb : ∀ (v39 : BitVec 32) (k9_hw5 : k9_chk5 v39), ∀ a, (k9_off10 v39) a + S1x64.size a ≤ S100000x64.size a := fun v39 k9_hw5 => k9_hw5.1
theorem k9_off21_inb : ∀ (v39 : BitVec 32) (k9_hw5 : k9_chk5 v39), ∀ a, (k9_off21 v39) a + S1x64.size a ≤ S100000x64.size a := fun v39 k9_hw5 => k9_hw5.2

def k9_off22 (v48 : BitVec 32) : Fin 2 → Nat :=
  let c0_i32_55 : BitVec 32 := 0#32
  ![v48.toNat, 0]

def k9_chk6 (v48 : BitVec 32) : Prop :=
  (∀ a, (k9_off12 v48) a + S1x64.size a ≤ S100000x64.size a) ∧
  (∀ a, (k9_off22 v48) a + S1x64.size a ≤ S100000x64.size a)
instance k9_chk6.dec : ∀ (v48 : BitVec 32), Decidable (k9_chk6 v48) := fun v48 => decidable_of_iff' _ (Iff.of_eq (k9_chk6.eq_1 v48))
theorem k9_off12_inb : ∀ (v48 : BitVec 32) (k9_hw6 : k9_chk6 v48), ∀ a, (k9_off12 v48) a + S1x64.size a ≤ S100000x64.size a := fun v48 k9_hw6 => k9_hw6.1
theorem k9_off22_inb : ∀ (v48 : BitVec 32) (k9_hw6 : k9_chk6 v48), ∀ a, (k9_off22 v48) a + S1x64.size a ≤ S100000x64.size a := fun v48 k9_hw6 => k9_hw6.2

def k9_off23 (v57 : BitVec 32) : Fin 2 → Nat :=
  let c0_i32_59 : BitVec 32 := 0#32
  ![v57.toNat, 0]

def k9_chk7 (v57 : BitVec 32) : Prop :=
  (∀ a, (k9_off14 v57) a + S1x64.size a ≤ S100000x64.size a) ∧
  (∀ a, (k9_off23 v57) a + S1x64.size a ≤ S100000x64.size a)
instance k9_chk7.dec : ∀ (v57 : BitVec 32), Decidable (k9_chk7 v57) := fun v57 => decidable_of_iff' _ (Iff.of_eq (k9_chk7.eq_1 v57))
theorem k9_off14_inb : ∀ (v57 : BitVec 32) (k9_hw7 : k9_chk7 v57), ∀ a, (k9_off14 v57) a + S1x64.size a ≤ S100000x64.size a := fun v57 k9_hw7 => k9_hw7.1
theorem k9_off23_inb : ∀ (v57 : BitVec 32) (k9_hw7 : k9_chk7 v57), ∀ a, (k9_off23 v57) a + S1x64.size a ≤ S100000x64.size a := fun v57 k9_hw7 => k9_hw7.2

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S8x1 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S8x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev grid10 : Pipeline.Grid := ⟨1, ![12500], ![false]⟩

abbrev pre10 : Pipeline.Prefetch sig := ⟨1, ![main_v41.idx], fun | 0 => main_v41.names | ⟨_ + 1, h⟩ => absurd h (Nat.not_lt.2 (Nat.le_add_left _ _)), fun | 0 => rfl | ⟨_ + 1, h⟩ => absurd h (Nat.not_lt.2 (Nat.le_add_left _ _))⟩

def k10_off1 (i : grid10.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k10_off2 (v3 : BitVec 32) : Fin 2 → Nat :=
  let c0_i32_3 : BitVec 32 := 0#32
  ![v3.toNat, 0]

def k10_off3 (i : grid10.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k10_off4 (v12 : BitVec 32) : Fin 2 → Nat :=
  let c0_i32_7 : BitVec 32 := 0#32
  ![v12.toNat, 0]

def k10_off5 (i : grid10.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k10_off6 (v21 : BitVec 32) : Fin 2 → Nat :=
  let c0_i32_11 : BitVec 32 := 0#32
  ![v21.toNat, 0]

def k10_off7 (i : grid10.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k10_off8 (v30 : BitVec 32) : Fin 2 → Nat :=
  let c0_i32_15 : BitVec 32 := 0#32
  ![v30.toNat, 0]

def k10_off9 (i : grid10.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k10_off10 (v39 : BitVec 32) : Fin 2 → Nat :=
  let c0_i32_19 : BitVec 32 := 0#32
  ![v39.toNat, 0]

def k10_off11 (i : grid10.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k10_off12 (v48 : BitVec 32) : Fin 2 → Nat :=
  let c0_i32_23 : BitVec 32 := 0#32
  ![v48.toNat, 0]

def k10_off13 (i : grid10.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k10_off14 (v57 : BitVec 32) : Fin 2 → Nat :=
  let c0_i32_27 : BitVec 32 := 0#32
  ![v57.toNat, 0]

def k10_off15 (i : grid10.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k10_off16 (v66 : BitVec 32) : Fin 2 → Nat :=
  let c0_i32_31 : BitVec 32 := 0#32
  ![v66.toNat, 0]

def k10_chk8 (v66 : BitVec 32) : Prop :=
  (∀ a, (k10_off16 v66) a + S1x64.size a ≤ S100000x64.size a)
instance k10_chk8.dec : ∀ (v66 : BitVec 32), Decidable (k10_chk8 v66) := fun v66 => decidable_of_iff' _ (Iff.of_eq (k10_chk8.eq_1 v66))
theorem k10_off16_inb : ∀ (v66 : BitVec 32) (k10_hw8 : k10_chk8 v66), ∀ a, (k10_off16 v66) a + S1x64.size a ≤ S100000x64.size a := fun v66 k10_hw8 => k10_hw8

def k10_off17 (v3 : BitVec 32) : Fin 2 → Nat :=
  let c0_i32_35 : BitVec 32 := 0#32
  ![v3.toNat, 0]

def k10_chk1 (v3 : BitVec 32) : Prop :=
  (∀ a, (k10_off2 v3) a + S1x64.size a ≤ S100000x64.size a) ∧
  (∀ a, (k10_off17 v3) a + S1x64.size a ≤ S100000x64.size a)
instance k10_chk1.dec : ∀ (v3 : BitVec 32), Decidable (k10_chk1 v3) := fun v3 => decidable_of_iff' _ (Iff.of_eq (k10_chk1.eq_1 v3))
theorem k10_off2_inb : ∀ (v3 : BitVec 32) (k10_hw1 : k10_chk1 v3), ∀ a, (k10_off2 v3) a + S1x64.size a ≤ S100000x64.size a := fun v3 k10_hw1 => k10_hw1.1
theorem k10_off17_inb : ∀ (v3 : BitVec 32) (k10_hw1 : k10_chk1 v3), ∀ a, (k10_off17 v3) a + S1x64.size a ≤ S100000x64.size a := fun v3 k10_hw1 => k10_hw1.2

def k10_off18 (v12 : BitVec 32) : Fin 2 → Nat :=
  let c0_i32_39 : BitVec 32 := 0#32
  ![v12.toNat, 0]

def k10_chk2 (v12 : BitVec 32) : Prop :=
  (∀ a, (k10_off4 v12) a + S1x64.size a ≤ S100000x64.size a) ∧
  (∀ a, (k10_off18 v12) a + S1x64.size a ≤ S100000x64.size a)
instance k10_chk2.dec : ∀ (v12 : BitVec 32), Decidable (k10_chk2 v12) := fun v12 => decidable_of_iff' _ (Iff.of_eq (k10_chk2.eq_1 v12))
theorem k10_off4_inb : ∀ (v12 : BitVec 32) (k10_hw2 : k10_chk2 v12), ∀ a, (k10_off4 v12) a + S1x64.size a ≤ S100000x64.size a := fun v12 k10_hw2 => k10_hw2.1
theorem k10_off18_inb : ∀ (v12 : BitVec 32) (k10_hw2 : k10_chk2 v12), ∀ a, (k10_off18 v12) a + S1x64.size a ≤ S100000x64.size a := fun v12 k10_hw2 => k10_hw2.2

def k10_off19 (v21 : BitVec 32) : Fin 2 → Nat :=
  let c0_i32_43 : BitVec 32 := 0#32
  ![v21.toNat, 0]

def k10_chk3 (v21 : BitVec 32) : Prop :=
  (∀ a, (k10_off6 v21) a + S1x64.size a ≤ S100000x64.size a) ∧
  (∀ a, (k10_off19 v21) a + S1x64.size a ≤ S100000x64.size a)
instance k10_chk3.dec : ∀ (v21 : BitVec 32), Decidable (k10_chk3 v21) := fun v21 => decidable_of_iff' _ (Iff.of_eq (k10_chk3.eq_1 v21))
theorem k10_off6_inb : ∀ (v21 : BitVec 32) (k10_hw3 : k10_chk3 v21), ∀ a, (k10_off6 v21) a + S1x64.size a ≤ S100000x64.size a := fun v21 k10_hw3 => k10_hw3.1
theorem k10_off19_inb : ∀ (v21 : BitVec 32) (k10_hw3 : k10_chk3 v21), ∀ a, (k10_off19 v21) a + S1x64.size a ≤ S100000x64.size a := fun v21 k10_hw3 => k10_hw3.2

def k10_off20 (v30 : BitVec 32) : Fin 2 → Nat :=
  let c0_i32_47 : BitVec 32 := 0#32
  ![v30.toNat, 0]

def k10_chk4 (v30 : BitVec 32) : Prop :=
  (∀ a, (k10_off8 v30) a + S1x64.size a ≤ S100000x64.size a) ∧
  (∀ a, (k10_off20 v30) a + S1x64.size a ≤ S100000x64.size a)
instance k10_chk4.dec : ∀ (v30 : BitVec 32), Decidable (k10_chk4 v30) := fun v30 => decidable_of_iff' _ (Iff.of_eq (k10_chk4.eq_1 v30))
theorem k10_off8_inb : ∀ (v30 : BitVec 32) (k10_hw4 : k10_chk4 v30), ∀ a, (k10_off8 v30) a + S1x64.size a ≤ S100000x64.size a := fun v30 k10_hw4 => k10_hw4.1
theorem k10_off20_inb : ∀ (v30 : BitVec 32) (k10_hw4 : k10_chk4 v30), ∀ a, (k10_off20 v30) a + S1x64.size a ≤ S100000x64.size a := fun v30 k10_hw4 => k10_hw4.2

def k10_off21 (v39 : BitVec 32) : Fin 2 → Nat :=
  let c0_i32_51 : BitVec 32 := 0#32
  ![v39.toNat, 0]

def k10_chk5 (v39 : BitVec 32) : Prop :=
  (∀ a, (k10_off10 v39) a + S1x64.size a ≤ S100000x64.size a) ∧
  (∀ a, (k10_off21 v39) a + S1x64.size a ≤ S100000x64.size a)
instance k10_chk5.dec : ∀ (v39 : BitVec 32), Decidable (k10_chk5 v39) := fun v39 => decidable_of_iff' _ (Iff.of_eq (k10_chk5.eq_1 v39))
theorem k10_off10_inb : ∀ (v39 : BitVec 32) (k10_hw5 : k10_chk5 v39), ∀ a, (k10_off10 v39) a + S1x64.size a ≤ S100000x64.size a := fun v39 k10_hw5 => k10_hw5.1
theorem k10_off21_inb : ∀ (v39 : BitVec 32) (k10_hw5 : k10_chk5 v39), ∀ a, (k10_off21 v39) a + S1x64.size a ≤ S100000x64.size a := fun v39 k10_hw5 => k10_hw5.2

def k10_off22 (v48 : BitVec 32) : Fin 2 → Nat :=
  let c0_i32_55 : BitVec 32 := 0#32
  ![v48.toNat, 0]

def k10_chk6 (v48 : BitVec 32) : Prop :=
  (∀ a, (k10_off12 v48) a + S1x64.size a ≤ S100000x64.size a) ∧
  (∀ a, (k10_off22 v48) a + S1x64.size a ≤ S100000x64.size a)
instance k10_chk6.dec : ∀ (v48 : BitVec 32), Decidable (k10_chk6 v48) := fun v48 => decidable_of_iff' _ (Iff.of_eq (k10_chk6.eq_1 v48))
theorem k10_off12_inb : ∀ (v48 : BitVec 32) (k10_hw6 : k10_chk6 v48), ∀ a, (k10_off12 v48) a + S1x64.size a ≤ S100000x64.size a := fun v48 k10_hw6 => k10_hw6.1
theorem k10_off22_inb : ∀ (v48 : BitVec 32) (k10_hw6 : k10_chk6 v48), ∀ a, (k10_off22 v48) a + S1x64.size a ≤ S100000x64.size a := fun v48 k10_hw6 => k10_hw6.2

def k10_off23 (v57 : BitVec 32) : Fin 2 → Nat :=
  let c0_i32_59 : BitVec 32 := 0#32
  ![v57.toNat, 0]

def k10_chk7 (v57 : BitVec 32) : Prop :=
  (∀ a, (k10_off14 v57) a + S1x64.size a ≤ S100000x64.size a) ∧
  (∀ a, (k10_off23 v57) a + S1x64.size a ≤ S100000x64.size a)
instance k10_chk7.dec : ∀ (v57 : BitVec 32), Decidable (k10_chk7 v57) := fun v57 => decidable_of_iff' _ (Iff.of_eq (k10_chk7.eq_1 v57))
theorem k10_off14_inb : ∀ (v57 : BitVec 32) (k10_hw7 : k10_chk7 v57), ∀ a, (k10_off14 v57) a + S1x64.size a ≤ S100000x64.size a := fun v57 k10_hw7 => k10_hw7.1
theorem k10_off23_inb : ∀ (v57 : BitVec 32) (k10_hw7 : k10_chk7 v57), ∀ a, (k10_off23 v57) a + S1x64.size a ≤ S100000x64.size a := fun v57 k10_hw7 => k10_hw7.2

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S8x1 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S8x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev grid11 : Pipeline.Grid := ⟨1, ![12500], ![false]⟩

abbrev pre11 : Pipeline.Prefetch sig := ⟨1, ![main_v45.idx], fun | 0 => main_v45.names | ⟨_ + 1, h⟩ => absurd h (Nat.not_lt.2 (Nat.le_add_left _ _)), fun | 0 => rfl | ⟨_ + 1, h⟩ => absurd h (Nat.not_lt.2 (Nat.le_add_left _ _))⟩

def k11_off1 (i : grid11.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k11_off2 (v3 : BitVec 32) : Fin 2 → Nat :=
  let c0_i32_3 : BitVec 32 := 0#32
  ![v3.toNat, 0]

def k11_off3 (i : grid11.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k11_off4 (v12 : BitVec 32) : Fin 2 → Nat :=
  let c0_i32_7 : BitVec 32 := 0#32
  ![v12.toNat, 0]

def k11_off5 (i : grid11.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k11_off6 (v21 : BitVec 32) : Fin 2 → Nat :=
  let c0_i32_11 : BitVec 32 := 0#32
  ![v21.toNat, 0]

def k11_off7 (i : grid11.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k11_off8 (v30 : BitVec 32) : Fin 2 → Nat :=
  let c0_i32_15 : BitVec 32 := 0#32
  ![v30.toNat, 0]

def k11_off9 (i : grid11.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k11_off10 (v39 : BitVec 32) : Fin 2 → Nat :=
  let c0_i32_19 : BitVec 32 := 0#32
  ![v39.toNat, 0]

def k11_off11 (i : grid11.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k11_off12 (v48 : BitVec 32) : Fin 2 → Nat :=
  let c0_i32_23 : BitVec 32 := 0#32
  ![v48.toNat, 0]

def k11_off13 (i : grid11.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k11_off14 (v57 : BitVec 32) : Fin 2 → Nat :=
  let c0_i32_27 : BitVec 32 := 0#32
  ![v57.toNat, 0]

def k11_off15 (i : grid11.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k11_off16 (v66 : BitVec 32) : Fin 2 → Nat :=
  let c0_i32_31 : BitVec 32 := 0#32
  ![v66.toNat, 0]

def k11_chk8 (v66 : BitVec 32) : Prop :=
  (∀ a, (k11_off16 v66) a + S1x64.size a ≤ S100000x64.size a)
instance k11_chk8.dec : ∀ (v66 : BitVec 32), Decidable (k11_chk8 v66) := fun v66 => decidable_of_iff' _ (Iff.of_eq (k11_chk8.eq_1 v66))
theorem k11_off16_inb : ∀ (v66 : BitVec 32) (k11_hw8 : k11_chk8 v66), ∀ a, (k11_off16 v66) a + S1x64.size a ≤ S100000x64.size a := fun v66 k11_hw8 => k11_hw8

def k11_off17 (v3 : BitVec 32) : Fin 2 → Nat :=
  let c0_i32_35 : BitVec 32 := 0#32
  ![v3.toNat, 0]

def k11_chk1 (v3 : BitVec 32) : Prop :=
  (∀ a, (k11_off2 v3) a + S1x64.size a ≤ S100000x64.size a) ∧
  (∀ a, (k11_off17 v3) a + S1x64.size a ≤ S100000x64.size a)
instance k11_chk1.dec : ∀ (v3 : BitVec 32), Decidable (k11_chk1 v3) := fun v3 => decidable_of_iff' _ (Iff.of_eq (k11_chk1.eq_1 v3))
theorem k11_off2_inb : ∀ (v3 : BitVec 32) (k11_hw1 : k11_chk1 v3), ∀ a, (k11_off2 v3) a + S1x64.size a ≤ S100000x64.size a := fun v3 k11_hw1 => k11_hw1.1
theorem k11_off17_inb : ∀ (v3 : BitVec 32) (k11_hw1 : k11_chk1 v3), ∀ a, (k11_off17 v3) a + S1x64.size a ≤ S100000x64.size a := fun v3 k11_hw1 => k11_hw1.2

def k11_off18 (v12 : BitVec 32) : Fin 2 → Nat :=
  let c0_i32_39 : BitVec 32 := 0#32
  ![v12.toNat, 0]

def k11_chk2 (v12 : BitVec 32) : Prop :=
  (∀ a, (k11_off4 v12) a + S1x64.size a ≤ S100000x64.size a) ∧
  (∀ a, (k11_off18 v12) a + S1x64.size a ≤ S100000x64.size a)
instance k11_chk2.dec : ∀ (v12 : BitVec 32), Decidable (k11_chk2 v12) := fun v12 => decidable_of_iff' _ (Iff.of_eq (k11_chk2.eq_1 v12))
theorem k11_off4_inb : ∀ (v12 : BitVec 32) (k11_hw2 : k11_chk2 v12), ∀ a, (k11_off4 v12) a + S1x64.size a ≤ S100000x64.size a := fun v12 k11_hw2 => k11_hw2.1
theorem k11_off18_inb : ∀ (v12 : BitVec 32) (k11_hw2 : k11_chk2 v12), ∀ a, (k11_off18 v12) a + S1x64.size a ≤ S100000x64.size a := fun v12 k11_hw2 => k11_hw2.2

def k11_off19 (v21 : BitVec 32) : Fin 2 → Nat :=
  let c0_i32_43 : BitVec 32 := 0#32
  ![v21.toNat, 0]

def k11_chk3 (v21 : BitVec 32) : Prop :=
  (∀ a, (k11_off6 v21) a + S1x64.size a ≤ S100000x64.size a) ∧
  (∀ a, (k11_off19 v21) a + S1x64.size a ≤ S100000x64.size a)
instance k11_chk3.dec : ∀ (v21 : BitVec 32), Decidable (k11_chk3 v21) := fun v21 => decidable_of_iff' _ (Iff.of_eq (k11_chk3.eq_1 v21))
theorem k11_off6_inb : ∀ (v21 : BitVec 32) (k11_hw3 : k11_chk3 v21), ∀ a, (k11_off6 v21) a + S1x64.size a ≤ S100000x64.size a := fun v21 k11_hw3 => k11_hw3.1
theorem k11_off19_inb : ∀ (v21 : BitVec 32) (k11_hw3 : k11_chk3 v21), ∀ a, (k11_off19 v21) a + S1x64.size a ≤ S100000x64.size a := fun v21 k11_hw3 => k11_hw3.2

def k11_off20 (v30 : BitVec 32) : Fin 2 → Nat :=
  let c0_i32_47 : BitVec 32 := 0#32
  ![v30.toNat, 0]

def k11_chk4 (v30 : BitVec 32) : Prop :=
  (∀ a, (k11_off8 v30) a + S1x64.size a ≤ S100000x64.size a) ∧
  (∀ a, (k11_off20 v30) a + S1x64.size a ≤ S100000x64.size a)
instance k11_chk4.dec : ∀ (v30 : BitVec 32), Decidable (k11_chk4 v30) := fun v30 => decidable_of_iff' _ (Iff.of_eq (k11_chk4.eq_1 v30))
theorem k11_off8_inb : ∀ (v30 : BitVec 32) (k11_hw4 : k11_chk4 v30), ∀ a, (k11_off8 v30) a + S1x64.size a ≤ S100000x64.size a := fun v30 k11_hw4 => k11_hw4.1
theorem k11_off20_inb : ∀ (v30 : BitVec 32) (k11_hw4 : k11_chk4 v30), ∀ a, (k11_off20 v30) a + S1x64.size a ≤ S100000x64.size a := fun v30 k11_hw4 => k11_hw4.2

def k11_off21 (v39 : BitVec 32) : Fin 2 → Nat :=
  let c0_i32_51 : BitVec 32 := 0#32
  ![v39.toNat, 0]

def k11_chk5 (v39 : BitVec 32) : Prop :=
  (∀ a, (k11_off10 v39) a + S1x64.size a ≤ S100000x64.size a) ∧
  (∀ a, (k11_off21 v39) a + S1x64.size a ≤ S100000x64.size a)
instance k11_chk5.dec : ∀ (v39 : BitVec 32), Decidable (k11_chk5 v39) := fun v39 => decidable_of_iff' _ (Iff.of_eq (k11_chk5.eq_1 v39))
theorem k11_off10_inb : ∀ (v39 : BitVec 32) (k11_hw5 : k11_chk5 v39), ∀ a, (k11_off10 v39) a + S1x64.size a ≤ S100000x64.size a := fun v39 k11_hw5 => k11_hw5.1
theorem k11_off21_inb : ∀ (v39 : BitVec 32) (k11_hw5 : k11_chk5 v39), ∀ a, (k11_off21 v39) a + S1x64.size a ≤ S100000x64.size a := fun v39 k11_hw5 => k11_hw5.2

def k11_off22 (v48 : BitVec 32) : Fin 2 → Nat :=
  let c0_i32_55 : BitVec 32 := 0#32
  ![v48.toNat, 0]

def k11_chk6 (v48 : BitVec 32) : Prop :=
  (∀ a, (k11_off12 v48) a + S1x64.size a ≤ S100000x64.size a) ∧
  (∀ a, (k11_off22 v48) a + S1x64.size a ≤ S100000x64.size a)
instance k11_chk6.dec : ∀ (v48 : BitVec 32), Decidable (k11_chk6 v48) := fun v48 => decidable_of_iff' _ (Iff.of_eq (k11_chk6.eq_1 v48))
theorem k11_off12_inb : ∀ (v48 : BitVec 32) (k11_hw6 : k11_chk6 v48), ∀ a, (k11_off12 v48) a + S1x64.size a ≤ S100000x64.size a := fun v48 k11_hw6 => k11_hw6.1
theorem k11_off22_inb : ∀ (v48 : BitVec 32) (k11_hw6 : k11_chk6 v48), ∀ a, (k11_off22 v48) a + S1x64.size a ≤ S100000x64.size a := fun v48 k11_hw6 => k11_hw6.2

def k11_off23 (v57 : BitVec 32) : Fin 2 → Nat :=
  let c0_i32_59 : BitVec 32 := 0#32
  ![v57.toNat, 0]

def k11_chk7 (v57 : BitVec 32) : Prop :=
  (∀ a, (k11_off14 v57) a + S1x64.size a ≤ S100000x64.size a) ∧
  (∀ a, (k11_off23 v57) a + S1x64.size a ≤ S100000x64.size a)
instance k11_chk7.dec : ∀ (v57 : BitVec 32), Decidable (k11_chk7 v57) := fun v57 => decidable_of_iff' _ (Iff.of_eq (k11_chk7.eq_1 v57))
theorem k11_off14_inb : ∀ (v57 : BitVec 32) (k11_hw7 : k11_chk7 v57), ∀ a, (k11_off14 v57) a + S1x64.size a ≤ S100000x64.size a := fun v57 k11_hw7 => k11_hw7.1
theorem k11_off23_inb : ∀ (v57 : BitVec 32) (k11_hw7 : k11_chk7 v57), ∀ a, (k11_off23 v57) a + S1x64.size a ≤ S100000x64.size a := fun v57 k11_hw7 => k11_hw7.2

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S8x1 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S8x64 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev grid12 : Pipeline.Grid := ⟨1, ![12500], ![false]⟩

abbrev pre12 : Pipeline.Prefetch sig := ⟨1, ![main_v49.idx], fun | 0 => main_v49.names | ⟨_ + 1, h⟩ => absurd h (Nat.not_lt.2 (Nat.le_add_left _ _)), fun | 0 => rfl | ⟨_ + 1, h⟩ => absurd h (Nat.not_lt.2 (Nat.le_add_left _ _))⟩

def k12_off1 (i : grid12.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k12_off2 (v3 : BitVec 32) : Fin 2 → Nat :=
  let c0_i32_3 : BitVec 32 := 0#32
  ![v3.toNat, 0]

def k12_off3 (i : grid12.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k12_off4 (v12 : BitVec 32) : Fin 2 → Nat :=
  let c0_i32_7 : BitVec 32 := 0#32
  ![v12.toNat, 0]

def k12_off5 (i : grid12.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k12_off6 (v21 : BitVec 32) : Fin 2 → Nat :=
  let c0_i32_11 : BitVec 32 := 0#32
  ![v21.toNat, 0]

def k12_off7 (i : grid12.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k12_off8 (v30 : BitVec 32) : Fin 2 → Nat :=
  let c0_i32_15 : BitVec 32 := 0#32
  ![v30.toNat, 0]

def k12_off9 (i : grid12.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k12_off10 (v39 : BitVec 32) : Fin 2 → Nat :=
  let c0_i32_19 : BitVec 32 := 0#32
  ![v39.toNat, 0]

def k12_off11 (i : grid12.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k12_off12 (v48 : BitVec 32) : Fin 2 → Nat :=
  let c0_i32_23 : BitVec 32 := 0#32
  ![v48.toNat, 0]

def k12_off13 (i : grid12.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k12_off14 (v57 : BitVec 32) : Fin 2 → Nat :=
  let c0_i32_27 : BitVec 32 := 0#32
  ![v57.toNat, 0]

def k12_off15 (i : grid12.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k12_off16 (v66 : BitVec 32) : Fin 2 → Nat :=
  let c0_i32_31 : BitVec 32 := 0#32
  ![v66.toNat, 0]

def k12_chk8 (v66 : BitVec 32) : Prop :=
  (∀ a, (k12_off16 v66) a + S1x64.size a ≤ S100000x64.size a)
instance k12_chk8.dec : ∀ (v66 : BitVec 32), Decidable (k12_chk8 v66) := fun v66 => decidable_of_iff' _ (Iff.of_eq (k12_chk8.eq_1 v66))
theorem k12_off16_inb : ∀ (v66 : BitVec 32) (k12_hw8 : k12_chk8 v66), ∀ a, (k12_off16 v66) a + S1x64.size a ≤ S100000x64.size a := fun v66 k12_hw8 => k12_hw8

def k12_off17 (v3 : BitVec 32) : Fin 2 → Nat :=
  let c0_i32_35 : BitVec 32 := 0#32
  ![v3.toNat, 0]

def k12_chk1 (v3 : BitVec 32) : Prop :=
  (∀ a, (k12_off2 v3) a + S1x64.size a ≤ S100000x64.size a) ∧
  (∀ a, (k12_off17 v3) a + S1x64.size a ≤ S100000x64.size a)
instance k12_chk1.dec : ∀ (v3 : BitVec 32), Decidable (k12_chk1 v3) := fun v3 => decidable_of_iff' _ (Iff.of_eq (k12_chk1.eq_1 v3))
theorem k12_off2_inb : ∀ (v3 : BitVec 32) (k12_hw1 : k12_chk1 v3), ∀ a, (k12_off2 v3) a + S1x64.size a ≤ S100000x64.size a := fun v3 k12_hw1 => k12_hw1.1
theorem k12_off17_inb : ∀ (v3 : BitVec 32) (k12_hw1 : k12_chk1 v3), ∀ a, (k12_off17 v3) a + S1x64.size a ≤ S100000x64.size a := fun v3 k12_hw1 => k12_hw1.2

def k12_off18 (v12 : BitVec 32) : Fin 2 → Nat :=
  let c0_i32_39 : BitVec 32 := 0#32
  ![v12.toNat, 0]

def k12_chk2 (v12 : BitVec 32) : Prop :=
  (∀ a, (k12_off4 v12) a + S1x64.size a ≤ S100000x64.size a) ∧
  (∀ a, (k12_off18 v12) a + S1x64.size a ≤ S100000x64.size a)
instance k12_chk2.dec : ∀ (v12 : BitVec 32), Decidable (k12_chk2 v12) := fun v12 => decidable_of_iff' _ (Iff.of_eq (k12_chk2.eq_1 v12))
theorem k12_off4_inb : ∀ (v12 : BitVec 32) (k12_hw2 : k12_chk2 v12), ∀ a, (k12_off4 v12) a + S1x64.size a ≤ S100000x64.size a := fun v12 k12_hw2 => k12_hw2.1
theorem k12_off18_inb : ∀ (v12 : BitVec 32) (k12_hw2 : k12_chk2 v12), ∀ a, (k12_off18 v12) a + S1x64.size a ≤ S100000x64.size a := fun v12 k12_hw2 => k12_hw2.2

def k12_off19 (v21 : BitVec 32) : Fin 2 → Nat :=
  let c0_i32_43 : BitVec 32 := 0#32
  ![v21.toNat, 0]

def k12_chk3 (v21 : BitVec 32) : Prop :=
  (∀ a, (k12_off6 v21) a + S1x64.size a ≤ S100000x64.size a) ∧
  (∀ a, (k12_off19 v21) a + S1x64.size a ≤ S100000x64.size a)
instance k12_chk3.dec : ∀ (v21 : BitVec 32), Decidable (k12_chk3 v21) := fun v21 => decidable_of_iff' _ (Iff.of_eq (k12_chk3.eq_1 v21))
theorem k12_off6_inb : ∀ (v21 : BitVec 32) (k12_hw3 : k12_chk3 v21), ∀ a, (k12_off6 v21) a + S1x64.size a ≤ S100000x64.size a := fun v21 k12_hw3 => k12_hw3.1
theorem k12_off19_inb : ∀ (v21 : BitVec 32) (k12_hw3 : k12_chk3 v21), ∀ a, (k12_off19 v21) a + S1x64.size a ≤ S100000x64.size a := fun v21 k12_hw3 => k12_hw3.2

def k12_off20 (v30 : BitVec 32) : Fin 2 → Nat :=
  let c0_i32_47 : BitVec 32 := 0#32
  ![v30.toNat, 0]

def k12_chk4 (v30 : BitVec 32) : Prop :=
  (∀ a, (k12_off8 v30) a + S1x64.size a ≤ S100000x64.size a) ∧
  (∀ a, (k12_off20 v30) a + S1x64.size a ≤ S100000x64.size a)
instance k12_chk4.dec : ∀ (v30 : BitVec 32), Decidable (k12_chk4 v30) := fun v30 => decidable_of_iff' _ (Iff.of_eq (k12_chk4.eq_1 v30))
theorem k12_off8_inb : ∀ (v30 : BitVec 32) (k12_hw4 : k12_chk4 v30), ∀ a, (k12_off8 v30) a + S1x64.size a ≤ S100000x64.size a := fun v30 k12_hw4 => k12_hw4.1
theorem k12_off20_inb : ∀ (v30 : BitVec 32) (k12_hw4 : k12_chk4 v30), ∀ a, (k12_off20 v30) a + S1x64.size a ≤ S100000x64.size a := fun v30 k12_hw4 => k12_hw4.2

def k12_off21 (v39 : BitVec 32) : Fin 2 → Nat :=
  let c0_i32_51 : BitVec 32 := 0#32
  ![v39.toNat, 0]

def k12_chk5 (v39 : BitVec 32) : Prop :=
  (∀ a, (k12_off10 v39) a + S1x64.size a ≤ S100000x64.size a) ∧
  (∀ a, (k12_off21 v39) a + S1x64.size a ≤ S100000x64.size a)
instance k12_chk5.dec : ∀ (v39 : BitVec 32), Decidable (k12_chk5 v39) := fun v39 => decidable_of_iff' _ (Iff.of_eq (k12_chk5.eq_1 v39))
theorem k12_off10_inb : ∀ (v39 : BitVec 32) (k12_hw5 : k12_chk5 v39), ∀ a, (k12_off10 v39) a + S1x64.size a ≤ S100000x64.size a := fun v39 k12_hw5 => k12_hw5.1
theorem k12_off21_inb : ∀ (v39 : BitVec 32) (k12_hw5 : k12_chk5 v39), ∀ a, (k12_off21 v39) a + S1x64.size a ≤ S100000x64.size a := fun v39 k12_hw5 => k12_hw5.2

def k12_off22 (v48 : BitVec 32) : Fin 2 → Nat :=
  let c0_i32_55 : BitVec 32 := 0#32
  ![v48.toNat, 0]

def k12_chk6 (v48 : BitVec 32) : Prop :=
  (∀ a, (k12_off12 v48) a + S1x64.size a ≤ S100000x64.size a) ∧
  (∀ a, (k12_off22 v48) a + S1x64.size a ≤ S100000x64.size a)
instance k12_chk6.dec : ∀ (v48 : BitVec 32), Decidable (k12_chk6 v48) := fun v48 => decidable_of_iff' _ (Iff.of_eq (k12_chk6.eq_1 v48))
theorem k12_off12_inb : ∀ (v48 : BitVec 32) (k12_hw6 : k12_chk6 v48), ∀ a, (k12_off12 v48) a + S1x64.size a ≤ S100000x64.size a := fun v48 k12_hw6 => k12_hw6.1
theorem k12_off22_inb : ∀ (v48 : BitVec 32) (k12_hw6 : k12_chk6 v48), ∀ a, (k12_off22 v48) a + S1x64.size a ≤ S100000x64.size a := fun v48 k12_hw6 => k12_hw6.2

def k12_off23 (v57 : BitVec 32) : Fin 2 → Nat :=
  let c0_i32_59 : BitVec 32 := 0#32
  ![v57.toNat, 0]

def k12_chk7 (v57 : BitVec 32) : Prop :=
  (∀ a, (k12_off14 v57) a + S1x64.size a ≤ S100000x64.size a) ∧
  (∀ a, (k12_off23 v57) a + S1x64.size a ≤ S100000x64.size a)
instance k12_chk7.dec : ∀ (v57 : BitVec 32), Decidable (k12_chk7 v57) := fun v57 => decidable_of_iff' _ (Iff.of_eq (k12_chk7.eq_1 v57))
theorem k12_off14_inb : ∀ (v57 : BitVec 32) (k12_hw7 : k12_chk7 v57), ∀ a, (k12_off14 v57) a + S1x64.size a ≤ S100000x64.size a := fun v57 k12_hw7 => k12_hw7.1
theorem k12_off23_inb : ∀ (v57 : BitVec 32) (k12_hw7 : k12_chk7 v57), ∀ a, (k12_off23 v57) a + S1x64.size a ≤ S100000x64.size a := fun v57 k12_hw7 => k12_hw7.2

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S8x1 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S8x64 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev grid13 : Pipeline.Grid := ⟨1, ![12500], ![false]⟩

abbrev pre13 : Pipeline.Prefetch sig := ⟨1, ![main_v53.idx], fun | 0 => main_v53.names | ⟨_ + 1, h⟩ => absurd h (Nat.not_lt.2 (Nat.le_add_left _ _)), fun | 0 => rfl | ⟨_ + 1, h⟩ => absurd h (Nat.not_lt.2 (Nat.le_add_left _ _))⟩

def k13_off1 (i : grid13.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k13_off2 (v3 : BitVec 32) : Fin 2 → Nat :=
  let c0_i32_3 : BitVec 32 := 0#32
  ![v3.toNat, 0]

def k13_off3 (i : grid13.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k13_off4 (v12 : BitVec 32) : Fin 2 → Nat :=
  let c0_i32_7 : BitVec 32 := 0#32
  ![v12.toNat, 0]

def k13_off5 (i : grid13.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k13_off6 (v21 : BitVec 32) : Fin 2 → Nat :=
  let c0_i32_11 : BitVec 32 := 0#32
  ![v21.toNat, 0]

def k13_off7 (i : grid13.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k13_off8 (v30 : BitVec 32) : Fin 2 → Nat :=
  let c0_i32_15 : BitVec 32 := 0#32
  ![v30.toNat, 0]

def k13_off9 (i : grid13.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k13_off10 (v39 : BitVec 32) : Fin 2 → Nat :=
  let c0_i32_19 : BitVec 32 := 0#32
  ![v39.toNat, 0]

def k13_off11 (i : grid13.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k13_off12 (v48 : BitVec 32) : Fin 2 → Nat :=
  let c0_i32_23 : BitVec 32 := 0#32
  ![v48.toNat, 0]

def k13_off13 (i : grid13.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k13_off14 (v57 : BitVec 32) : Fin 2 → Nat :=
  let c0_i32_27 : BitVec 32 := 0#32
  ![v57.toNat, 0]

def k13_off15 (i : grid13.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k13_off16 (v66 : BitVec 32) : Fin 2 → Nat :=
  let c0_i32_31 : BitVec 32 := 0#32
  ![v66.toNat, 0]

def k13_chk8 (v66 : BitVec 32) : Prop :=
  (∀ a, (k13_off16 v66) a + S1x64.size a ≤ S100000x64.size a)
instance k13_chk8.dec : ∀ (v66 : BitVec 32), Decidable (k13_chk8 v66) := fun v66 => decidable_of_iff' _ (Iff.of_eq (k13_chk8.eq_1 v66))
theorem k13_off16_inb : ∀ (v66 : BitVec 32) (k13_hw8 : k13_chk8 v66), ∀ a, (k13_off16 v66) a + S1x64.size a ≤ S100000x64.size a := fun v66 k13_hw8 => k13_hw8

def k13_off17 (v3 : BitVec 32) : Fin 2 → Nat :=
  let c0_i32_35 : BitVec 32 := 0#32
  ![v3.toNat, 0]

def k13_chk1 (v3 : BitVec 32) : Prop :=
  (∀ a, (k13_off2 v3) a + S1x64.size a ≤ S100000x64.size a) ∧
  (∀ a, (k13_off17 v3) a + S1x64.size a ≤ S100000x64.size a)
instance k13_chk1.dec : ∀ (v3 : BitVec 32), Decidable (k13_chk1 v3) := fun v3 => decidable_of_iff' _ (Iff.of_eq (k13_chk1.eq_1 v3))
theorem k13_off2_inb : ∀ (v3 : BitVec 32) (k13_hw1 : k13_chk1 v3), ∀ a, (k13_off2 v3) a + S1x64.size a ≤ S100000x64.size a := fun v3 k13_hw1 => k13_hw1.1
theorem k13_off17_inb : ∀ (v3 : BitVec 32) (k13_hw1 : k13_chk1 v3), ∀ a, (k13_off17 v3) a + S1x64.size a ≤ S100000x64.size a := fun v3 k13_hw1 => k13_hw1.2

def k13_off18 (v12 : BitVec 32) : Fin 2 → Nat :=
  let c0_i32_39 : BitVec 32 := 0#32
  ![v12.toNat, 0]

def k13_chk2 (v12 : BitVec 32) : Prop :=
  (∀ a, (k13_off4 v12) a + S1x64.size a ≤ S100000x64.size a) ∧
  (∀ a, (k13_off18 v12) a + S1x64.size a ≤ S100000x64.size a)
instance k13_chk2.dec : ∀ (v12 : BitVec 32), Decidable (k13_chk2 v12) := fun v12 => decidable_of_iff' _ (Iff.of_eq (k13_chk2.eq_1 v12))
theorem k13_off4_inb : ∀ (v12 : BitVec 32) (k13_hw2 : k13_chk2 v12), ∀ a, (k13_off4 v12) a + S1x64.size a ≤ S100000x64.size a := fun v12 k13_hw2 => k13_hw2.1
theorem k13_off18_inb : ∀ (v12 : BitVec 32) (k13_hw2 : k13_chk2 v12), ∀ a, (k13_off18 v12) a + S1x64.size a ≤ S100000x64.size a := fun v12 k13_hw2 => k13_hw2.2

def k13_off19 (v21 : BitVec 32) : Fin 2 → Nat :=
  let c0_i32_43 : BitVec 32 := 0#32
  ![v21.toNat, 0]

def k13_chk3 (v21 : BitVec 32) : Prop :=
  (∀ a, (k13_off6 v21) a + S1x64.size a ≤ S100000x64.size a) ∧
  (∀ a, (k13_off19 v21) a + S1x64.size a ≤ S100000x64.size a)
instance k13_chk3.dec : ∀ (v21 : BitVec 32), Decidable (k13_chk3 v21) := fun v21 => decidable_of_iff' _ (Iff.of_eq (k13_chk3.eq_1 v21))
theorem k13_off6_inb : ∀ (v21 : BitVec 32) (k13_hw3 : k13_chk3 v21), ∀ a, (k13_off6 v21) a + S1x64.size a ≤ S100000x64.size a := fun v21 k13_hw3 => k13_hw3.1
theorem k13_off19_inb : ∀ (v21 : BitVec 32) (k13_hw3 : k13_chk3 v21), ∀ a, (k13_off19 v21) a + S1x64.size a ≤ S100000x64.size a := fun v21 k13_hw3 => k13_hw3.2

def k13_off20 (v30 : BitVec 32) : Fin 2 → Nat :=
  let c0_i32_47 : BitVec 32 := 0#32
  ![v30.toNat, 0]

def k13_chk4 (v30 : BitVec 32) : Prop :=
  (∀ a, (k13_off8 v30) a + S1x64.size a ≤ S100000x64.size a) ∧
  (∀ a, (k13_off20 v30) a + S1x64.size a ≤ S100000x64.size a)
instance k13_chk4.dec : ∀ (v30 : BitVec 32), Decidable (k13_chk4 v30) := fun v30 => decidable_of_iff' _ (Iff.of_eq (k13_chk4.eq_1 v30))
theorem k13_off8_inb : ∀ (v30 : BitVec 32) (k13_hw4 : k13_chk4 v30), ∀ a, (k13_off8 v30) a + S1x64.size a ≤ S100000x64.size a := fun v30 k13_hw4 => k13_hw4.1
theorem k13_off20_inb : ∀ (v30 : BitVec 32) (k13_hw4 : k13_chk4 v30), ∀ a, (k13_off20 v30) a + S1x64.size a ≤ S100000x64.size a := fun v30 k13_hw4 => k13_hw4.2

def k13_off21 (v39 : BitVec 32) : Fin 2 → Nat :=
  let c0_i32_51 : BitVec 32 := 0#32
  ![v39.toNat, 0]

def k13_chk5 (v39 : BitVec 32) : Prop :=
  (∀ a, (k13_off10 v39) a + S1x64.size a ≤ S100000x64.size a) ∧
  (∀ a, (k13_off21 v39) a + S1x64.size a ≤ S100000x64.size a)
instance k13_chk5.dec : ∀ (v39 : BitVec 32), Decidable (k13_chk5 v39) := fun v39 => decidable_of_iff' _ (Iff.of_eq (k13_chk5.eq_1 v39))
theorem k13_off10_inb : ∀ (v39 : BitVec 32) (k13_hw5 : k13_chk5 v39), ∀ a, (k13_off10 v39) a + S1x64.size a ≤ S100000x64.size a := fun v39 k13_hw5 => k13_hw5.1
theorem k13_off21_inb : ∀ (v39 : BitVec 32) (k13_hw5 : k13_chk5 v39), ∀ a, (k13_off21 v39) a + S1x64.size a ≤ S100000x64.size a := fun v39 k13_hw5 => k13_hw5.2

def k13_off22 (v48 : BitVec 32) : Fin 2 → Nat :=
  let c0_i32_55 : BitVec 32 := 0#32
  ![v48.toNat, 0]

def k13_chk6 (v48 : BitVec 32) : Prop :=
  (∀ a, (k13_off12 v48) a + S1x64.size a ≤ S100000x64.size a) ∧
  (∀ a, (k13_off22 v48) a + S1x64.size a ≤ S100000x64.size a)
instance k13_chk6.dec : ∀ (v48 : BitVec 32), Decidable (k13_chk6 v48) := fun v48 => decidable_of_iff' _ (Iff.of_eq (k13_chk6.eq_1 v48))
theorem k13_off12_inb : ∀ (v48 : BitVec 32) (k13_hw6 : k13_chk6 v48), ∀ a, (k13_off12 v48) a + S1x64.size a ≤ S100000x64.size a := fun v48 k13_hw6 => k13_hw6.1
theorem k13_off22_inb : ∀ (v48 : BitVec 32) (k13_hw6 : k13_chk6 v48), ∀ a, (k13_off22 v48) a + S1x64.size a ≤ S100000x64.size a := fun v48 k13_hw6 => k13_hw6.2

def k13_off23 (v57 : BitVec 32) : Fin 2 → Nat :=
  let c0_i32_59 : BitVec 32 := 0#32
  ![v57.toNat, 0]

def k13_chk7 (v57 : BitVec 32) : Prop :=
  (∀ a, (k13_off14 v57) a + S1x64.size a ≤ S100000x64.size a) ∧
  (∀ a, (k13_off23 v57) a + S1x64.size a ≤ S100000x64.size a)
instance k13_chk7.dec : ∀ (v57 : BitVec 32), Decidable (k13_chk7 v57) := fun v57 => decidable_of_iff' _ (Iff.of_eq (k13_chk7.eq_1 v57))
theorem k13_off14_inb : ∀ (v57 : BitVec 32) (k13_hw7 : k13_chk7 v57), ∀ a, (k13_off14 v57) a + S1x64.size a ≤ S100000x64.size a := fun v57 k13_hw7 => k13_hw7.1
theorem k13_off23_inb : ∀ (v57 : BitVec 32) (k13_hw7 : k13_chk7 v57), ∀ a, (k13_off23 v57) a + S1x64.size a ≤ S100000x64.size a := fun v57 k13_hw7 => k13_hw7.2

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S8x1 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S8x64 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev grid14 : Pipeline.Grid := ⟨1, ![12500], ![false]⟩

abbrev pre14 : Pipeline.Prefetch sig := ⟨1, ![main_v57.idx], fun | 0 => main_v57.names | ⟨_ + 1, h⟩ => absurd h (Nat.not_lt.2 (Nat.le_add_left _ _)), fun | 0 => rfl | ⟨_ + 1, h⟩ => absurd h (Nat.not_lt.2 (Nat.le_add_left _ _))⟩

def k14_off1 (i : grid14.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k14_off2 (v3 : BitVec 32) : Fin 2 → Nat :=
  let c0_i32_3 : BitVec 32 := 0#32
  ![v3.toNat, 0]

def k14_off3 (i : grid14.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k14_off4 (v12 : BitVec 32) : Fin 2 → Nat :=
  let c0_i32_7 : BitVec 32 := 0#32
  ![v12.toNat, 0]

def k14_off5 (i : grid14.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k14_off6 (v21 : BitVec 32) : Fin 2 → Nat :=
  let c0_i32_11 : BitVec 32 := 0#32
  ![v21.toNat, 0]

def k14_off7 (i : grid14.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k14_off8 (v30 : BitVec 32) : Fin 2 → Nat :=
  let c0_i32_15 : BitVec 32 := 0#32
  ![v30.toNat, 0]

def k14_off9 (i : grid14.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k14_off10 (v39 : BitVec 32) : Fin 2 → Nat :=
  let c0_i32_19 : BitVec 32 := 0#32
  ![v39.toNat, 0]

def k14_off11 (i : grid14.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k14_off12 (v48 : BitVec 32) : Fin 2 → Nat :=
  let c0_i32_23 : BitVec 32 := 0#32
  ![v48.toNat, 0]

def k14_off13 (i : grid14.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k14_off14 (v57 : BitVec 32) : Fin 2 → Nat :=
  let c0_i32_27 : BitVec 32 := 0#32
  ![v57.toNat, 0]

def k14_off15 (i : grid14.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k14_off16 (v66 : BitVec 32) : Fin 2 → Nat :=
  let c0_i32_31 : BitVec 32 := 0#32
  ![v66.toNat, 0]

def k14_chk8 (v66 : BitVec 32) : Prop :=
  (∀ a, (k14_off16 v66) a + S1x64.size a ≤ S100000x64.size a)
instance k14_chk8.dec : ∀ (v66 : BitVec 32), Decidable (k14_chk8 v66) := fun v66 => decidable_of_iff' _ (Iff.of_eq (k14_chk8.eq_1 v66))
theorem k14_off16_inb : ∀ (v66 : BitVec 32) (k14_hw8 : k14_chk8 v66), ∀ a, (k14_off16 v66) a + S1x64.size a ≤ S100000x64.size a := fun v66 k14_hw8 => k14_hw8

def k14_off17 (v3 : BitVec 32) : Fin 2 → Nat :=
  let c0_i32_35 : BitVec 32 := 0#32
  ![v3.toNat, 0]

def k14_chk1 (v3 : BitVec 32) : Prop :=
  (∀ a, (k14_off2 v3) a + S1x64.size a ≤ S100000x64.size a) ∧
  (∀ a, (k14_off17 v3) a + S1x64.size a ≤ S100000x64.size a)
instance k14_chk1.dec : ∀ (v3 : BitVec 32), Decidable (k14_chk1 v3) := fun v3 => decidable_of_iff' _ (Iff.of_eq (k14_chk1.eq_1 v3))
theorem k14_off2_inb : ∀ (v3 : BitVec 32) (k14_hw1 : k14_chk1 v3), ∀ a, (k14_off2 v3) a + S1x64.size a ≤ S100000x64.size a := fun v3 k14_hw1 => k14_hw1.1
theorem k14_off17_inb : ∀ (v3 : BitVec 32) (k14_hw1 : k14_chk1 v3), ∀ a, (k14_off17 v3) a + S1x64.size a ≤ S100000x64.size a := fun v3 k14_hw1 => k14_hw1.2

def k14_off18 (v12 : BitVec 32) : Fin 2 → Nat :=
  let c0_i32_39 : BitVec 32 := 0#32
  ![v12.toNat, 0]

def k14_chk2 (v12 : BitVec 32) : Prop :=
  (∀ a, (k14_off4 v12) a + S1x64.size a ≤ S100000x64.size a) ∧
  (∀ a, (k14_off18 v12) a + S1x64.size a ≤ S100000x64.size a)
instance k14_chk2.dec : ∀ (v12 : BitVec 32), Decidable (k14_chk2 v12) := fun v12 => decidable_of_iff' _ (Iff.of_eq (k14_chk2.eq_1 v12))
theorem k14_off4_inb : ∀ (v12 : BitVec 32) (k14_hw2 : k14_chk2 v12), ∀ a, (k14_off4 v12) a + S1x64.size a ≤ S100000x64.size a := fun v12 k14_hw2 => k14_hw2.1
theorem k14_off18_inb : ∀ (v12 : BitVec 32) (k14_hw2 : k14_chk2 v12), ∀ a, (k14_off18 v12) a + S1x64.size a ≤ S100000x64.size a := fun v12 k14_hw2 => k14_hw2.2

def k14_off19 (v21 : BitVec 32) : Fin 2 → Nat :=
  let c0_i32_43 : BitVec 32 := 0#32
  ![v21.toNat, 0]

def k14_chk3 (v21 : BitVec 32) : Prop :=
  (∀ a, (k14_off6 v21) a + S1x64.size a ≤ S100000x64.size a) ∧
  (∀ a, (k14_off19 v21) a + S1x64.size a ≤ S100000x64.size a)
instance k14_chk3.dec : ∀ (v21 : BitVec 32), Decidable (k14_chk3 v21) := fun v21 => decidable_of_iff' _ (Iff.of_eq (k14_chk3.eq_1 v21))
theorem k14_off6_inb : ∀ (v21 : BitVec 32) (k14_hw3 : k14_chk3 v21), ∀ a, (k14_off6 v21) a + S1x64.size a ≤ S100000x64.size a := fun v21 k14_hw3 => k14_hw3.1
theorem k14_off19_inb : ∀ (v21 : BitVec 32) (k14_hw3 : k14_chk3 v21), ∀ a, (k14_off19 v21) a + S1x64.size a ≤ S100000x64.size a := fun v21 k14_hw3 => k14_hw3.2

def k14_off20 (v30 : BitVec 32) : Fin 2 → Nat :=
  let c0_i32_47 : BitVec 32 := 0#32
  ![v30.toNat, 0]

def k14_chk4 (v30 : BitVec 32) : Prop :=
  (∀ a, (k14_off8 v30) a + S1x64.size a ≤ S100000x64.size a) ∧
  (∀ a, (k14_off20 v30) a + S1x64.size a ≤ S100000x64.size a)
instance k14_chk4.dec : ∀ (v30 : BitVec 32), Decidable (k14_chk4 v30) := fun v30 => decidable_of_iff' _ (Iff.of_eq (k14_chk4.eq_1 v30))
theorem k14_off8_inb : ∀ (v30 : BitVec 32) (k14_hw4 : k14_chk4 v30), ∀ a, (k14_off8 v30) a + S1x64.size a ≤ S100000x64.size a := fun v30 k14_hw4 => k14_hw4.1
theorem k14_off20_inb : ∀ (v30 : BitVec 32) (k14_hw4 : k14_chk4 v30), ∀ a, (k14_off20 v30) a + S1x64.size a ≤ S100000x64.size a := fun v30 k14_hw4 => k14_hw4.2

def k14_off21 (v39 : BitVec 32) : Fin 2 → Nat :=
  let c0_i32_51 : BitVec 32 := 0#32
  ![v39.toNat, 0]

def k14_chk5 (v39 : BitVec 32) : Prop :=
  (∀ a, (k14_off10 v39) a + S1x64.size a ≤ S100000x64.size a) ∧
  (∀ a, (k14_off21 v39) a + S1x64.size a ≤ S100000x64.size a)
instance k14_chk5.dec : ∀ (v39 : BitVec 32), Decidable (k14_chk5 v39) := fun v39 => decidable_of_iff' _ (Iff.of_eq (k14_chk5.eq_1 v39))
theorem k14_off10_inb : ∀ (v39 : BitVec 32) (k14_hw5 : k14_chk5 v39), ∀ a, (k14_off10 v39) a + S1x64.size a ≤ S100000x64.size a := fun v39 k14_hw5 => k14_hw5.1
theorem k14_off21_inb : ∀ (v39 : BitVec 32) (k14_hw5 : k14_chk5 v39), ∀ a, (k14_off21 v39) a + S1x64.size a ≤ S100000x64.size a := fun v39 k14_hw5 => k14_hw5.2

def k14_off22 (v48 : BitVec 32) : Fin 2 → Nat :=
  let c0_i32_55 : BitVec 32 := 0#32
  ![v48.toNat, 0]

def k14_chk6 (v48 : BitVec 32) : Prop :=
  (∀ a, (k14_off12 v48) a + S1x64.size a ≤ S100000x64.size a) ∧
  (∀ a, (k14_off22 v48) a + S1x64.size a ≤ S100000x64.size a)
instance k14_chk6.dec : ∀ (v48 : BitVec 32), Decidable (k14_chk6 v48) := fun v48 => decidable_of_iff' _ (Iff.of_eq (k14_chk6.eq_1 v48))
theorem k14_off12_inb : ∀ (v48 : BitVec 32) (k14_hw6 : k14_chk6 v48), ∀ a, (k14_off12 v48) a + S1x64.size a ≤ S100000x64.size a := fun v48 k14_hw6 => k14_hw6.1
theorem k14_off22_inb : ∀ (v48 : BitVec 32) (k14_hw6 : k14_chk6 v48), ∀ a, (k14_off22 v48) a + S1x64.size a ≤ S100000x64.size a := fun v48 k14_hw6 => k14_hw6.2

def k14_off23 (v57 : BitVec 32) : Fin 2 → Nat :=
  let c0_i32_59 : BitVec 32 := 0#32
  ![v57.toNat, 0]

def k14_chk7 (v57 : BitVec 32) : Prop :=
  (∀ a, (k14_off14 v57) a + S1x64.size a ≤ S100000x64.size a) ∧
  (∀ a, (k14_off23 v57) a + S1x64.size a ≤ S100000x64.size a)
instance k14_chk7.dec : ∀ (v57 : BitVec 32), Decidable (k14_chk7 v57) := fun v57 => decidable_of_iff' _ (Iff.of_eq (k14_chk7.eq_1 v57))
theorem k14_off14_inb : ∀ (v57 : BitVec 32) (k14_hw7 : k14_chk7 v57), ∀ a, (k14_off14 v57) a + S1x64.size a ≤ S100000x64.size a := fun v57 k14_hw7 => k14_hw7.1
theorem k14_off23_inb : ∀ (v57 : BitVec 32) (k14_hw7 : k14_chk7 v57), ∀ a, (k14_off23 v57) a + S1x64.size a ≤ S100000x64.size a := fun v57 k14_hw7 => k14_hw7.2

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S8x1 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S8x64 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev grid15 : Pipeline.Grid := ⟨1, ![12500], ![false]⟩

abbrev pre15 : Pipeline.Prefetch sig := ⟨1, ![main_v61.idx], fun | 0 => main_v61.names | ⟨_ + 1, h⟩ => absurd h (Nat.not_lt.2 (Nat.le_add_left _ _)), fun | 0 => rfl | ⟨_ + 1, h⟩ => absurd h (Nat.not_lt.2 (Nat.le_add_left _ _))⟩

def k15_off1 (i : grid15.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k15_off2 (v3 : BitVec 32) : Fin 2 → Nat :=
  let c0_i32_3 : BitVec 32 := 0#32
  ![v3.toNat, 0]

def k15_off3 (i : grid15.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k15_off4 (v12 : BitVec 32) : Fin 2 → Nat :=
  let c0_i32_7 : BitVec 32 := 0#32
  ![v12.toNat, 0]

def k15_off5 (i : grid15.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k15_off6 (v21 : BitVec 32) : Fin 2 → Nat :=
  let c0_i32_11 : BitVec 32 := 0#32
  ![v21.toNat, 0]

def k15_off7 (i : grid15.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k15_off8 (v30 : BitVec 32) : Fin 2 → Nat :=
  let c0_i32_15 : BitVec 32 := 0#32
  ![v30.toNat, 0]

def k15_off9 (i : grid15.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k15_off10 (v39 : BitVec 32) : Fin 2 → Nat :=
  let c0_i32_19 : BitVec 32 := 0#32
  ![v39.toNat, 0]

def k15_off11 (i : grid15.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k15_off12 (v48 : BitVec 32) : Fin 2 → Nat :=
  let c0_i32_23 : BitVec 32 := 0#32
  ![v48.toNat, 0]

def k15_off13 (i : grid15.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k15_off14 (v57 : BitVec 32) : Fin 2 → Nat :=
  let c0_i32_27 : BitVec 32 := 0#32
  ![v57.toNat, 0]

def k15_off15 (i : grid15.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k15_off16 (v66 : BitVec 32) : Fin 2 → Nat :=
  let c0_i32_31 : BitVec 32 := 0#32
  ![v66.toNat, 0]

def k15_chk8 (v66 : BitVec 32) : Prop :=
  (∀ a, (k15_off16 v66) a + S1x64.size a ≤ S100000x64.size a)
instance k15_chk8.dec : ∀ (v66 : BitVec 32), Decidable (k15_chk8 v66) := fun v66 => decidable_of_iff' _ (Iff.of_eq (k15_chk8.eq_1 v66))
theorem k15_off16_inb : ∀ (v66 : BitVec 32) (k15_hw8 : k15_chk8 v66), ∀ a, (k15_off16 v66) a + S1x64.size a ≤ S100000x64.size a := fun v66 k15_hw8 => k15_hw8

def k15_off17 (v3 : BitVec 32) : Fin 2 → Nat :=
  let c0_i32_35 : BitVec 32 := 0#32
  ![v3.toNat, 0]

def k15_chk1 (v3 : BitVec 32) : Prop :=
  (∀ a, (k15_off2 v3) a + S1x64.size a ≤ S100000x64.size a) ∧
  (∀ a, (k15_off17 v3) a + S1x64.size a ≤ S100000x64.size a)
instance k15_chk1.dec : ∀ (v3 : BitVec 32), Decidable (k15_chk1 v3) := fun v3 => decidable_of_iff' _ (Iff.of_eq (k15_chk1.eq_1 v3))
theorem k15_off2_inb : ∀ (v3 : BitVec 32) (k15_hw1 : k15_chk1 v3), ∀ a, (k15_off2 v3) a + S1x64.size a ≤ S100000x64.size a := fun v3 k15_hw1 => k15_hw1.1
theorem k15_off17_inb : ∀ (v3 : BitVec 32) (k15_hw1 : k15_chk1 v3), ∀ a, (k15_off17 v3) a + S1x64.size a ≤ S100000x64.size a := fun v3 k15_hw1 => k15_hw1.2

def k15_off18 (v12 : BitVec 32) : Fin 2 → Nat :=
  let c0_i32_39 : BitVec 32 := 0#32
  ![v12.toNat, 0]

def k15_chk2 (v12 : BitVec 32) : Prop :=
  (∀ a, (k15_off4 v12) a + S1x64.size a ≤ S100000x64.size a) ∧
  (∀ a, (k15_off18 v12) a + S1x64.size a ≤ S100000x64.size a)
instance k15_chk2.dec : ∀ (v12 : BitVec 32), Decidable (k15_chk2 v12) := fun v12 => decidable_of_iff' _ (Iff.of_eq (k15_chk2.eq_1 v12))
theorem k15_off4_inb : ∀ (v12 : BitVec 32) (k15_hw2 : k15_chk2 v12), ∀ a, (k15_off4 v12) a + S1x64.size a ≤ S100000x64.size a := fun v12 k15_hw2 => k15_hw2.1
theorem k15_off18_inb : ∀ (v12 : BitVec 32) (k15_hw2 : k15_chk2 v12), ∀ a, (k15_off18 v12) a + S1x64.size a ≤ S100000x64.size a := fun v12 k15_hw2 => k15_hw2.2

def k15_off19 (v21 : BitVec 32) : Fin 2 → Nat :=
  let c0_i32_43 : BitVec 32 := 0#32
  ![v21.toNat, 0]

def k15_chk3 (v21 : BitVec 32) : Prop :=
  (∀ a, (k15_off6 v21) a + S1x64.size a ≤ S100000x64.size a) ∧
  (∀ a, (k15_off19 v21) a + S1x64.size a ≤ S100000x64.size a)
instance k15_chk3.dec : ∀ (v21 : BitVec 32), Decidable (k15_chk3 v21) := fun v21 => decidable_of_iff' _ (Iff.of_eq (k15_chk3.eq_1 v21))
theorem k15_off6_inb : ∀ (v21 : BitVec 32) (k15_hw3 : k15_chk3 v21), ∀ a, (k15_off6 v21) a + S1x64.size a ≤ S100000x64.size a := fun v21 k15_hw3 => k15_hw3.1
theorem k15_off19_inb : ∀ (v21 : BitVec 32) (k15_hw3 : k15_chk3 v21), ∀ a, (k15_off19 v21) a + S1x64.size a ≤ S100000x64.size a := fun v21 k15_hw3 => k15_hw3.2

def k15_off20 (v30 : BitVec 32) : Fin 2 → Nat :=
  let c0_i32_47 : BitVec 32 := 0#32
  ![v30.toNat, 0]

def k15_chk4 (v30 : BitVec 32) : Prop :=
  (∀ a, (k15_off8 v30) a + S1x64.size a ≤ S100000x64.size a) ∧
  (∀ a, (k15_off20 v30) a + S1x64.size a ≤ S100000x64.size a)
instance k15_chk4.dec : ∀ (v30 : BitVec 32), Decidable (k15_chk4 v30) := fun v30 => decidable_of_iff' _ (Iff.of_eq (k15_chk4.eq_1 v30))
theorem k15_off8_inb : ∀ (v30 : BitVec 32) (k15_hw4 : k15_chk4 v30), ∀ a, (k15_off8 v30) a + S1x64.size a ≤ S100000x64.size a := fun v30 k15_hw4 => k15_hw4.1
theorem k15_off20_inb : ∀ (v30 : BitVec 32) (k15_hw4 : k15_chk4 v30), ∀ a, (k15_off20 v30) a + S1x64.size a ≤ S100000x64.size a := fun v30 k15_hw4 => k15_hw4.2

def k15_off21 (v39 : BitVec 32) : Fin 2 → Nat :=
  let c0_i32_51 : BitVec 32 := 0#32
  ![v39.toNat, 0]

def k15_chk5 (v39 : BitVec 32) : Prop :=
  (∀ a, (k15_off10 v39) a + S1x64.size a ≤ S100000x64.size a) ∧
  (∀ a, (k15_off21 v39) a + S1x64.size a ≤ S100000x64.size a)
instance k15_chk5.dec : ∀ (v39 : BitVec 32), Decidable (k15_chk5 v39) := fun v39 => decidable_of_iff' _ (Iff.of_eq (k15_chk5.eq_1 v39))
theorem k15_off10_inb : ∀ (v39 : BitVec 32) (k15_hw5 : k15_chk5 v39), ∀ a, (k15_off10 v39) a + S1x64.size a ≤ S100000x64.size a := fun v39 k15_hw5 => k15_hw5.1
theorem k15_off21_inb : ∀ (v39 : BitVec 32) (k15_hw5 : k15_chk5 v39), ∀ a, (k15_off21 v39) a + S1x64.size a ≤ S100000x64.size a := fun v39 k15_hw5 => k15_hw5.2

def k15_off22 (v48 : BitVec 32) : Fin 2 → Nat :=
  let c0_i32_55 : BitVec 32 := 0#32
  ![v48.toNat, 0]

def k15_chk6 (v48 : BitVec 32) : Prop :=
  (∀ a, (k15_off12 v48) a + S1x64.size a ≤ S100000x64.size a) ∧
  (∀ a, (k15_off22 v48) a + S1x64.size a ≤ S100000x64.size a)
instance k15_chk6.dec : ∀ (v48 : BitVec 32), Decidable (k15_chk6 v48) := fun v48 => decidable_of_iff' _ (Iff.of_eq (k15_chk6.eq_1 v48))
theorem k15_off12_inb : ∀ (v48 : BitVec 32) (k15_hw6 : k15_chk6 v48), ∀ a, (k15_off12 v48) a + S1x64.size a ≤ S100000x64.size a := fun v48 k15_hw6 => k15_hw6.1
theorem k15_off22_inb : ∀ (v48 : BitVec 32) (k15_hw6 : k15_chk6 v48), ∀ a, (k15_off22 v48) a + S1x64.size a ≤ S100000x64.size a := fun v48 k15_hw6 => k15_hw6.2

def k15_off23 (v57 : BitVec 32) : Fin 2 → Nat :=
  let c0_i32_59 : BitVec 32 := 0#32
  ![v57.toNat, 0]

def k15_chk7 (v57 : BitVec 32) : Prop :=
  (∀ a, (k15_off14 v57) a + S1x64.size a ≤ S100000x64.size a) ∧
  (∀ a, (k15_off23 v57) a + S1x64.size a ≤ S100000x64.size a)
instance k15_chk7.dec : ∀ (v57 : BitVec 32), Decidable (k15_chk7 v57) := fun v57 => decidable_of_iff' _ (Iff.of_eq (k15_chk7.eq_1 v57))
theorem k15_off14_inb : ∀ (v57 : BitVec 32) (k15_hw7 : k15_chk7 v57), ∀ a, (k15_off14 v57) a + S1x64.size a ≤ S100000x64.size a := fun v57 k15_hw7 => k15_hw7.1
theorem k15_off23_inb : ∀ (v57 : BitVec 32) (k15_hw7 : k15_chk7 v57), ∀ a, (k15_off23 v57) a + S1x64.size a ≤ S100000x64.size a := fun v57 k15_hw7 => k15_hw7.2

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S8x1 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S8x64 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev grid16 : Pipeline.Grid := ⟨1, ![12500], ![false]⟩

abbrev pre16 : Pipeline.Prefetch sig := ⟨1, ![main_v65.idx], fun | 0 => main_v65.names | ⟨_ + 1, h⟩ => absurd h (Nat.not_lt.2 (Nat.le_add_left _ _)), fun | 0 => rfl | ⟨_ + 1, h⟩ => absurd h (Nat.not_lt.2 (Nat.le_add_left _ _))⟩

def k16_off1 (i : grid16.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k16_off2 (v3 : BitVec 32) : Fin 2 → Nat :=
  let c0_i32_3 : BitVec 32 := 0#32
  ![v3.toNat, 0]

def k16_off3 (i : grid16.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k16_off4 (v12 : BitVec 32) : Fin 2 → Nat :=
  let c0_i32_7 : BitVec 32 := 0#32
  ![v12.toNat, 0]

def k16_off5 (i : grid16.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k16_off6 (v21 : BitVec 32) : Fin 2 → Nat :=
  let c0_i32_11 : BitVec 32 := 0#32
  ![v21.toNat, 0]

def k16_off7 (i : grid16.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k16_off8 (v30 : BitVec 32) : Fin 2 → Nat :=
  let c0_i32_15 : BitVec 32 := 0#32
  ![v30.toNat, 0]

def k16_off9 (i : grid16.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k16_off10 (v39 : BitVec 32) : Fin 2 → Nat :=
  let c0_i32_19 : BitVec 32 := 0#32
  ![v39.toNat, 0]

def k16_off11 (i : grid16.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k16_off12 (v48 : BitVec 32) : Fin 2 → Nat :=
  let c0_i32_23 : BitVec 32 := 0#32
  ![v48.toNat, 0]

def k16_off13 (i : grid16.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k16_off14 (v57 : BitVec 32) : Fin 2 → Nat :=
  let c0_i32_27 : BitVec 32 := 0#32
  ![v57.toNat, 0]

def k16_off15 (i : grid16.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k16_off16 (v66 : BitVec 32) : Fin 2 → Nat :=
  let c0_i32_31 : BitVec 32 := 0#32
  ![v66.toNat, 0]

def k16_chk8 (v66 : BitVec 32) : Prop :=
  (∀ a, (k16_off16 v66) a + S1x64.size a ≤ S100000x64.size a)
instance k16_chk8.dec : ∀ (v66 : BitVec 32), Decidable (k16_chk8 v66) := fun v66 => decidable_of_iff' _ (Iff.of_eq (k16_chk8.eq_1 v66))
theorem k16_off16_inb : ∀ (v66 : BitVec 32) (k16_hw8 : k16_chk8 v66), ∀ a, (k16_off16 v66) a + S1x64.size a ≤ S100000x64.size a := fun v66 k16_hw8 => k16_hw8

def k16_off17 (v3 : BitVec 32) : Fin 2 → Nat :=
  let c0_i32_35 : BitVec 32 := 0#32
  ![v3.toNat, 0]

def k16_chk1 (v3 : BitVec 32) : Prop :=
  (∀ a, (k16_off2 v3) a + S1x64.size a ≤ S100000x64.size a) ∧
  (∀ a, (k16_off17 v3) a + S1x64.size a ≤ S100000x64.size a)
instance k16_chk1.dec : ∀ (v3 : BitVec 32), Decidable (k16_chk1 v3) := fun v3 => decidable_of_iff' _ (Iff.of_eq (k16_chk1.eq_1 v3))
theorem k16_off2_inb : ∀ (v3 : BitVec 32) (k16_hw1 : k16_chk1 v3), ∀ a, (k16_off2 v3) a + S1x64.size a ≤ S100000x64.size a := fun v3 k16_hw1 => k16_hw1.1
theorem k16_off17_inb : ∀ (v3 : BitVec 32) (k16_hw1 : k16_chk1 v3), ∀ a, (k16_off17 v3) a + S1x64.size a ≤ S100000x64.size a := fun v3 k16_hw1 => k16_hw1.2

def k16_off18 (v12 : BitVec 32) : Fin 2 → Nat :=
  let c0_i32_39 : BitVec 32 := 0#32
  ![v12.toNat, 0]

def k16_chk2 (v12 : BitVec 32) : Prop :=
  (∀ a, (k16_off4 v12) a + S1x64.size a ≤ S100000x64.size a) ∧
  (∀ a, (k16_off18 v12) a + S1x64.size a ≤ S100000x64.size a)
instance k16_chk2.dec : ∀ (v12 : BitVec 32), Decidable (k16_chk2 v12) := fun v12 => decidable_of_iff' _ (Iff.of_eq (k16_chk2.eq_1 v12))
theorem k16_off4_inb : ∀ (v12 : BitVec 32) (k16_hw2 : k16_chk2 v12), ∀ a, (k16_off4 v12) a + S1x64.size a ≤ S100000x64.size a := fun v12 k16_hw2 => k16_hw2.1
theorem k16_off18_inb : ∀ (v12 : BitVec 32) (k16_hw2 : k16_chk2 v12), ∀ a, (k16_off18 v12) a + S1x64.size a ≤ S100000x64.size a := fun v12 k16_hw2 => k16_hw2.2

def k16_off19 (v21 : BitVec 32) : Fin 2 → Nat :=
  let c0_i32_43 : BitVec 32 := 0#32
  ![v21.toNat, 0]

def k16_chk3 (v21 : BitVec 32) : Prop :=
  (∀ a, (k16_off6 v21) a + S1x64.size a ≤ S100000x64.size a) ∧
  (∀ a, (k16_off19 v21) a + S1x64.size a ≤ S100000x64.size a)
instance k16_chk3.dec : ∀ (v21 : BitVec 32), Decidable (k16_chk3 v21) := fun v21 => decidable_of_iff' _ (Iff.of_eq (k16_chk3.eq_1 v21))
theorem k16_off6_inb : ∀ (v21 : BitVec 32) (k16_hw3 : k16_chk3 v21), ∀ a, (k16_off6 v21) a + S1x64.size a ≤ S100000x64.size a := fun v21 k16_hw3 => k16_hw3.1
theorem k16_off19_inb : ∀ (v21 : BitVec 32) (k16_hw3 : k16_chk3 v21), ∀ a, (k16_off19 v21) a + S1x64.size a ≤ S100000x64.size a := fun v21 k16_hw3 => k16_hw3.2

def k16_off20 (v30 : BitVec 32) : Fin 2 → Nat :=
  let c0_i32_47 : BitVec 32 := 0#32
  ![v30.toNat, 0]

def k16_chk4 (v30 : BitVec 32) : Prop :=
  (∀ a, (k16_off8 v30) a + S1x64.size a ≤ S100000x64.size a) ∧
  (∀ a, (k16_off20 v30) a + S1x64.size a ≤ S100000x64.size a)
instance k16_chk4.dec : ∀ (v30 : BitVec 32), Decidable (k16_chk4 v30) := fun v30 => decidable_of_iff' _ (Iff.of_eq (k16_chk4.eq_1 v30))
theorem k16_off8_inb : ∀ (v30 : BitVec 32) (k16_hw4 : k16_chk4 v30), ∀ a, (k16_off8 v30) a + S1x64.size a ≤ S100000x64.size a := fun v30 k16_hw4 => k16_hw4.1
theorem k16_off20_inb : ∀ (v30 : BitVec 32) (k16_hw4 : k16_chk4 v30), ∀ a, (k16_off20 v30) a + S1x64.size a ≤ S100000x64.size a := fun v30 k16_hw4 => k16_hw4.2

def k16_off21 (v39 : BitVec 32) : Fin 2 → Nat :=
  let c0_i32_51 : BitVec 32 := 0#32
  ![v39.toNat, 0]

def k16_chk5 (v39 : BitVec 32) : Prop :=
  (∀ a, (k16_off10 v39) a + S1x64.size a ≤ S100000x64.size a) ∧
  (∀ a, (k16_off21 v39) a + S1x64.size a ≤ S100000x64.size a)
instance k16_chk5.dec : ∀ (v39 : BitVec 32), Decidable (k16_chk5 v39) := fun v39 => decidable_of_iff' _ (Iff.of_eq (k16_chk5.eq_1 v39))
theorem k16_off10_inb : ∀ (v39 : BitVec 32) (k16_hw5 : k16_chk5 v39), ∀ a, (k16_off10 v39) a + S1x64.size a ≤ S100000x64.size a := fun v39 k16_hw5 => k16_hw5.1
theorem k16_off21_inb : ∀ (v39 : BitVec 32) (k16_hw5 : k16_chk5 v39), ∀ a, (k16_off21 v39) a + S1x64.size a ≤ S100000x64.size a := fun v39 k16_hw5 => k16_hw5.2

def k16_off22 (v48 : BitVec 32) : Fin 2 → Nat :=
  let c0_i32_55 : BitVec 32 := 0#32
  ![v48.toNat, 0]

def k16_chk6 (v48 : BitVec 32) : Prop :=
  (∀ a, (k16_off12 v48) a + S1x64.size a ≤ S100000x64.size a) ∧
  (∀ a, (k16_off22 v48) a + S1x64.size a ≤ S100000x64.size a)
instance k16_chk6.dec : ∀ (v48 : BitVec 32), Decidable (k16_chk6 v48) := fun v48 => decidable_of_iff' _ (Iff.of_eq (k16_chk6.eq_1 v48))
theorem k16_off12_inb : ∀ (v48 : BitVec 32) (k16_hw6 : k16_chk6 v48), ∀ a, (k16_off12 v48) a + S1x64.size a ≤ S100000x64.size a := fun v48 k16_hw6 => k16_hw6.1
theorem k16_off22_inb : ∀ (v48 : BitVec 32) (k16_hw6 : k16_chk6 v48), ∀ a, (k16_off22 v48) a + S1x64.size a ≤ S100000x64.size a := fun v48 k16_hw6 => k16_hw6.2

def k16_off23 (v57 : BitVec 32) : Fin 2 → Nat :=
  let c0_i32_59 : BitVec 32 := 0#32
  ![v57.toNat, 0]

def k16_chk7 (v57 : BitVec 32) : Prop :=
  (∀ a, (k16_off14 v57) a + S1x64.size a ≤ S100000x64.size a) ∧
  (∀ a, (k16_off23 v57) a + S1x64.size a ≤ S100000x64.size a)
instance k16_chk7.dec : ∀ (v57 : BitVec 32), Decidable (k16_chk7 v57) := fun v57 => decidable_of_iff' _ (Iff.of_eq (k16_chk7.eq_1 v57))
theorem k16_off14_inb : ∀ (v57 : BitVec 32) (k16_hw7 : k16_chk7 v57), ∀ a, (k16_off14 v57) a + S1x64.size a ≤ S100000x64.size a := fun v57 k16_hw7 => k16_hw7.1
theorem k16_off23_inb : ∀ (v57 : BitVec 32) (k16_hw7 : k16_chk7 v57), ∀ a, (k16_off23 v57) a + S1x64.size a ≤ S100000x64.size a := fun v57 k16_hw7 => k16_hw7.2

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S8x1 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S8x64 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev grid17 : Pipeline.Grid := ⟨1, ![12500], ![false]⟩

abbrev pre17 : Pipeline.Prefetch sig := ⟨1, ![main_v74.idx], fun | 0 => main_v74.names | ⟨_ + 1, h⟩ => absurd h (Nat.not_lt.2 (Nat.le_add_left _ _)), fun | 0 => rfl | ⟨_ + 1, h⟩ => absurd h (Nat.not_lt.2 (Nat.le_add_left _ _))⟩

def k17_off1 (i : grid17.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k17_off2 (v3 : BitVec 32) : Fin 2 → Nat :=
  let c0_i32_3 : BitVec 32 := 0#32
  ![v3.toNat, 0]

def k17_off3 (i : grid17.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k17_off4 (v12 : BitVec 32) : Fin 2 → Nat :=
  let c0_i32_7 : BitVec 32 := 0#32
  ![v12.toNat, 0]

def k17_off5 (i : grid17.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k17_off6 (v21 : BitVec 32) : Fin 2 → Nat :=
  let c0_i32_11 : BitVec 32 := 0#32
  ![v21.toNat, 0]

def k17_off7 (i : grid17.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k17_off8 (v30 : BitVec 32) : Fin 2 → Nat :=
  let c0_i32_15 : BitVec 32 := 0#32
  ![v30.toNat, 0]

def k17_off9 (i : grid17.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k17_off10 (v39 : BitVec 32) : Fin 2 → Nat :=
  let c0_i32_19 : BitVec 32 := 0#32
  ![v39.toNat, 0]

def k17_off11 (i : grid17.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k17_off12 (v48 : BitVec 32) : Fin 2 → Nat :=
  let c0_i32_23 : BitVec 32 := 0#32
  ![v48.toNat, 0]

def k17_off13 (i : grid17.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k17_off14 (v57 : BitVec 32) : Fin 2 → Nat :=
  let c0_i32_27 : BitVec 32 := 0#32
  ![v57.toNat, 0]

def k17_off15 (i : grid17.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k17_off16 (v66 : BitVec 32) : Fin 2 → Nat :=
  let c0_i32_31 : BitVec 32 := 0#32
  ![v66.toNat, 0]

def k17_chk8 (v66 : BitVec 32) : Prop :=
  (∀ a, (k17_off16 v66) a + S1x64.size a ≤ S100000x64.size a)
instance k17_chk8.dec : ∀ (v66 : BitVec 32), Decidable (k17_chk8 v66) := fun v66 => decidable_of_iff' _ (Iff.of_eq (k17_chk8.eq_1 v66))
theorem k17_off16_inb : ∀ (v66 : BitVec 32) (k17_hw8 : k17_chk8 v66), ∀ a, (k17_off16 v66) a + S1x64.size a ≤ S100000x64.size a := fun v66 k17_hw8 => k17_hw8

def k17_off17 (v3 : BitVec 32) : Fin 2 → Nat :=
  let c0_i32_35 : BitVec 32 := 0#32
  ![v3.toNat, 0]

def k17_chk1 (v3 : BitVec 32) : Prop :=
  (∀ a, (k17_off2 v3) a + S1x64.size a ≤ S100000x64.size a) ∧
  (∀ a, (k17_off17 v3) a + S1x64.size a ≤ S100000x64.size a)
instance k17_chk1.dec : ∀ (v3 : BitVec 32), Decidable (k17_chk1 v3) := fun v3 => decidable_of_iff' _ (Iff.of_eq (k17_chk1.eq_1 v3))
theorem k17_off2_inb : ∀ (v3 : BitVec 32) (k17_hw1 : k17_chk1 v3), ∀ a, (k17_off2 v3) a + S1x64.size a ≤ S100000x64.size a := fun v3 k17_hw1 => k17_hw1.1
theorem k17_off17_inb : ∀ (v3 : BitVec 32) (k17_hw1 : k17_chk1 v3), ∀ a, (k17_off17 v3) a + S1x64.size a ≤ S100000x64.size a := fun v3 k17_hw1 => k17_hw1.2

def k17_off18 (v12 : BitVec 32) : Fin 2 → Nat :=
  let c0_i32_39 : BitVec 32 := 0#32
  ![v12.toNat, 0]

def k17_chk2 (v12 : BitVec 32) : Prop :=
  (∀ a, (k17_off4 v12) a + S1x64.size a ≤ S100000x64.size a) ∧
  (∀ a, (k17_off18 v12) a + S1x64.size a ≤ S100000x64.size a)
instance k17_chk2.dec : ∀ (v12 : BitVec 32), Decidable (k17_chk2 v12) := fun v12 => decidable_of_iff' _ (Iff.of_eq (k17_chk2.eq_1 v12))
theorem k17_off4_inb : ∀ (v12 : BitVec 32) (k17_hw2 : k17_chk2 v12), ∀ a, (k17_off4 v12) a + S1x64.size a ≤ S100000x64.size a := fun v12 k17_hw2 => k17_hw2.1
theorem k17_off18_inb : ∀ (v12 : BitVec 32) (k17_hw2 : k17_chk2 v12), ∀ a, (k17_off18 v12) a + S1x64.size a ≤ S100000x64.size a := fun v12 k17_hw2 => k17_hw2.2

def k17_off19 (v21 : BitVec 32) : Fin 2 → Nat :=
  let c0_i32_43 : BitVec 32 := 0#32
  ![v21.toNat, 0]

def k17_chk3 (v21 : BitVec 32) : Prop :=
  (∀ a, (k17_off6 v21) a + S1x64.size a ≤ S100000x64.size a) ∧
  (∀ a, (k17_off19 v21) a + S1x64.size a ≤ S100000x64.size a)
instance k17_chk3.dec : ∀ (v21 : BitVec 32), Decidable (k17_chk3 v21) := fun v21 => decidable_of_iff' _ (Iff.of_eq (k17_chk3.eq_1 v21))
theorem k17_off6_inb : ∀ (v21 : BitVec 32) (k17_hw3 : k17_chk3 v21), ∀ a, (k17_off6 v21) a + S1x64.size a ≤ S100000x64.size a := fun v21 k17_hw3 => k17_hw3.1
theorem k17_off19_inb : ∀ (v21 : BitVec 32) (k17_hw3 : k17_chk3 v21), ∀ a, (k17_off19 v21) a + S1x64.size a ≤ S100000x64.size a := fun v21 k17_hw3 => k17_hw3.2

def k17_off20 (v30 : BitVec 32) : Fin 2 → Nat :=
  let c0_i32_47 : BitVec 32 := 0#32
  ![v30.toNat, 0]

def k17_chk4 (v30 : BitVec 32) : Prop :=
  (∀ a, (k17_off8 v30) a + S1x64.size a ≤ S100000x64.size a) ∧
  (∀ a, (k17_off20 v30) a + S1x64.size a ≤ S100000x64.size a)
instance k17_chk4.dec : ∀ (v30 : BitVec 32), Decidable (k17_chk4 v30) := fun v30 => decidable_of_iff' _ (Iff.of_eq (k17_chk4.eq_1 v30))
theorem k17_off8_inb : ∀ (v30 : BitVec 32) (k17_hw4 : k17_chk4 v30), ∀ a, (k17_off8 v30) a + S1x64.size a ≤ S100000x64.size a := fun v30 k17_hw4 => k17_hw4.1
theorem k17_off20_inb : ∀ (v30 : BitVec 32) (k17_hw4 : k17_chk4 v30), ∀ a, (k17_off20 v30) a + S1x64.size a ≤ S100000x64.size a := fun v30 k17_hw4 => k17_hw4.2

def k17_off21 (v39 : BitVec 32) : Fin 2 → Nat :=
  let c0_i32_51 : BitVec 32 := 0#32
  ![v39.toNat, 0]

def k17_chk5 (v39 : BitVec 32) : Prop :=
  (∀ a, (k17_off10 v39) a + S1x64.size a ≤ S100000x64.size a) ∧
  (∀ a, (k17_off21 v39) a + S1x64.size a ≤ S100000x64.size a)
instance k17_chk5.dec : ∀ (v39 : BitVec 32), Decidable (k17_chk5 v39) := fun v39 => decidable_of_iff' _ (Iff.of_eq (k17_chk5.eq_1 v39))
theorem k17_off10_inb : ∀ (v39 : BitVec 32) (k17_hw5 : k17_chk5 v39), ∀ a, (k17_off10 v39) a + S1x64.size a ≤ S100000x64.size a := fun v39 k17_hw5 => k17_hw5.1
theorem k17_off21_inb : ∀ (v39 : BitVec 32) (k17_hw5 : k17_chk5 v39), ∀ a, (k17_off21 v39) a + S1x64.size a ≤ S100000x64.size a := fun v39 k17_hw5 => k17_hw5.2

def k17_off22 (v48 : BitVec 32) : Fin 2 → Nat :=
  let c0_i32_55 : BitVec 32 := 0#32
  ![v48.toNat, 0]

def k17_chk6 (v48 : BitVec 32) : Prop :=
  (∀ a, (k17_off12 v48) a + S1x64.size a ≤ S100000x64.size a) ∧
  (∀ a, (k17_off22 v48) a + S1x64.size a ≤ S100000x64.size a)
instance k17_chk6.dec : ∀ (v48 : BitVec 32), Decidable (k17_chk6 v48) := fun v48 => decidable_of_iff' _ (Iff.of_eq (k17_chk6.eq_1 v48))
theorem k17_off12_inb : ∀ (v48 : BitVec 32) (k17_hw6 : k17_chk6 v48), ∀ a, (k17_off12 v48) a + S1x64.size a ≤ S100000x64.size a := fun v48 k17_hw6 => k17_hw6.1
theorem k17_off22_inb : ∀ (v48 : BitVec 32) (k17_hw6 : k17_chk6 v48), ∀ a, (k17_off22 v48) a + S1x64.size a ≤ S100000x64.size a := fun v48 k17_hw6 => k17_hw6.2

def k17_off23 (v57 : BitVec 32) : Fin 2 → Nat :=
  let c0_i32_59 : BitVec 32 := 0#32
  ![v57.toNat, 0]

def k17_chk7 (v57 : BitVec 32) : Prop :=
  (∀ a, (k17_off14 v57) a + S1x64.size a ≤ S100000x64.size a) ∧
  (∀ a, (k17_off23 v57) a + S1x64.size a ≤ S100000x64.size a)
instance k17_chk7.dec : ∀ (v57 : BitVec 32), Decidable (k17_chk7 v57) := fun v57 => decidable_of_iff' _ (Iff.of_eq (k17_chk7.eq_1 v57))
theorem k17_off14_inb : ∀ (v57 : BitVec 32) (k17_hw7 : k17_chk7 v57), ∀ a, (k17_off14 v57) a + S1x64.size a ≤ S100000x64.size a := fun v57 k17_hw7 => k17_hw7.1
theorem k17_off23_inb : ∀ (v57 : BitVec 32) (k17_hw7 : k17_chk7 v57), ∀ a, (k17_off23 v57) a + S1x64.size a ≤ S100000x64.size a := fun v57 k17_hw7 => k17_hw7.2

def cc17_transform_1 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_2 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S8x1 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 2 → Memref sig .tc .vmem S8x64 .f32 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![true]

abbrev grid18 : Pipeline.Grid := ⟨1, ![12500], ![false]⟩

abbrev pre18 : Pipeline.Prefetch sig := ⟨1, ![main_v78.idx], fun | 0 => main_v78.names | ⟨_ + 1, h⟩ => absurd h (Nat.not_lt.2 (Nat.le_add_left _ _)), fun | 0 => rfl | ⟨_ + 1, h⟩ => absurd h (Nat.not_lt.2 (Nat.le_add_left _ _))⟩

def k18_off1 (i : grid18.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k18_off2 (v3 : BitVec 32) : Fin 2 → Nat :=
  let c0_i32_3 : BitVec 32 := 0#32
  ![v3.toNat, 0]

def k18_off3 (i : grid18.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k18_off4 (v12 : BitVec 32) : Fin 2 → Nat :=
  let c0_i32_7 : BitVec 32 := 0#32
  ![v12.toNat, 0]

def k18_off5 (i : grid18.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k18_off6 (v21 : BitVec 32) : Fin 2 → Nat :=
  let c0_i32_11 : BitVec 32 := 0#32
  ![v21.toNat, 0]

def k18_off7 (i : grid18.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k18_off8 (v30 : BitVec 32) : Fin 2 → Nat :=
  let c0_i32_15 : BitVec 32 := 0#32
  ![v30.toNat, 0]

def k18_off9 (i : grid18.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k18_off10 (v39 : BitVec 32) : Fin 2 → Nat :=
  let c0_i32_19 : BitVec 32 := 0#32
  ![v39.toNat, 0]

def k18_off11 (i : grid18.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k18_off12 (v48 : BitVec 32) : Fin 2 → Nat :=
  let c0_i32_23 : BitVec 32 := 0#32
  ![v48.toNat, 0]

def k18_off13 (i : grid18.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k18_off14 (v57 : BitVec 32) : Fin 2 → Nat :=
  let c0_i32_27 : BitVec 32 := 0#32
  ![v57.toNat, 0]

def k18_off15 (i : grid18.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k18_off16 (v66 : BitVec 32) : Fin 2 → Nat :=
  let c0_i32_31 : BitVec 32 := 0#32
  ![v66.toNat, 0]

def k18_chk8 (v66 : BitVec 32) : Prop :=
  (∀ a, (k18_off16 v66) a + S1x64.size a ≤ S100000x64.size a)
instance k18_chk8.dec : ∀ (v66 : BitVec 32), Decidable (k18_chk8 v66) := fun v66 => decidable_of_iff' _ (Iff.of_eq (k18_chk8.eq_1 v66))
theorem k18_off16_inb : ∀ (v66 : BitVec 32) (k18_hw8 : k18_chk8 v66), ∀ a, (k18_off16 v66) a + S1x64.size a ≤ S100000x64.size a := fun v66 k18_hw8 => k18_hw8

def k18_off17 (v3 : BitVec 32) : Fin 2 → Nat :=
  let c0_i32_35 : BitVec 32 := 0#32
  ![v3.toNat, 0]

def k18_chk1 (v3 : BitVec 32) : Prop :=
  (∀ a, (k18_off2 v3) a + S1x64.size a ≤ S100000x64.size a) ∧
  (∀ a, (k18_off17 v3) a + S1x64.size a ≤ S100000x64.size a)
instance k18_chk1.dec : ∀ (v3 : BitVec 32), Decidable (k18_chk1 v3) := fun v3 => decidable_of_iff' _ (Iff.of_eq (k18_chk1.eq_1 v3))
theorem k18_off2_inb : ∀ (v3 : BitVec 32) (k18_hw1 : k18_chk1 v3), ∀ a, (k18_off2 v3) a + S1x64.size a ≤ S100000x64.size a := fun v3 k18_hw1 => k18_hw1.1
theorem k18_off17_inb : ∀ (v3 : BitVec 32) (k18_hw1 : k18_chk1 v3), ∀ a, (k18_off17 v3) a + S1x64.size a ≤ S100000x64.size a := fun v3 k18_hw1 => k18_hw1.2

def k18_off18 (v12 : BitVec 32) : Fin 2 → Nat :=
  let c0_i32_39 : BitVec 32 := 0#32
  ![v12.toNat, 0]

def k18_chk2 (v12 : BitVec 32) : Prop :=
  (∀ a, (k18_off4 v12) a + S1x64.size a ≤ S100000x64.size a) ∧
  (∀ a, (k18_off18 v12) a + S1x64.size a ≤ S100000x64.size a)
instance k18_chk2.dec : ∀ (v12 : BitVec 32), Decidable (k18_chk2 v12) := fun v12 => decidable_of_iff' _ (Iff.of_eq (k18_chk2.eq_1 v12))
theorem k18_off4_inb : ∀ (v12 : BitVec 32) (k18_hw2 : k18_chk2 v12), ∀ a, (k18_off4 v12) a + S1x64.size a ≤ S100000x64.size a := fun v12 k18_hw2 => k18_hw2.1
theorem k18_off18_inb : ∀ (v12 : BitVec 32) (k18_hw2 : k18_chk2 v12), ∀ a, (k18_off18 v12) a + S1x64.size a ≤ S100000x64.size a := fun v12 k18_hw2 => k18_hw2.2

def k18_off19 (v21 : BitVec 32) : Fin 2 → Nat :=
  let c0_i32_43 : BitVec 32 := 0#32
  ![v21.toNat, 0]

def k18_chk3 (v21 : BitVec 32) : Prop :=
  (∀ a, (k18_off6 v21) a + S1x64.size a ≤ S100000x64.size a) ∧
  (∀ a, (k18_off19 v21) a + S1x64.size a ≤ S100000x64.size a)
instance k18_chk3.dec : ∀ (v21 : BitVec 32), Decidable (k18_chk3 v21) := fun v21 => decidable_of_iff' _ (Iff.of_eq (k18_chk3.eq_1 v21))
theorem k18_off6_inb : ∀ (v21 : BitVec 32) (k18_hw3 : k18_chk3 v21), ∀ a, (k18_off6 v21) a + S1x64.size a ≤ S100000x64.size a := fun v21 k18_hw3 => k18_hw3.1
theorem k18_off19_inb : ∀ (v21 : BitVec 32) (k18_hw3 : k18_chk3 v21), ∀ a, (k18_off19 v21) a + S1x64.size a ≤ S100000x64.size a := fun v21 k18_hw3 => k18_hw3.2

def k18_off20 (v30 : BitVec 32) : Fin 2 → Nat :=
  let c0_i32_47 : BitVec 32 := 0#32
  ![v30.toNat, 0]

def k18_chk4 (v30 : BitVec 32) : Prop :=
  (∀ a, (k18_off8 v30) a + S1x64.size a ≤ S100000x64.size a) ∧
  (∀ a, (k18_off20 v30) a + S1x64.size a ≤ S100000x64.size a)
instance k18_chk4.dec : ∀ (v30 : BitVec 32), Decidable (k18_chk4 v30) := fun v30 => decidable_of_iff' _ (Iff.of_eq (k18_chk4.eq_1 v30))
theorem k18_off8_inb : ∀ (v30 : BitVec 32) (k18_hw4 : k18_chk4 v30), ∀ a, (k18_off8 v30) a + S1x64.size a ≤ S100000x64.size a := fun v30 k18_hw4 => k18_hw4.1
theorem k18_off20_inb : ∀ (v30 : BitVec 32) (k18_hw4 : k18_chk4 v30), ∀ a, (k18_off20 v30) a + S1x64.size a ≤ S100000x64.size a := fun v30 k18_hw4 => k18_hw4.2

def k18_off21 (v39 : BitVec 32) : Fin 2 → Nat :=
  let c0_i32_51 : BitVec 32 := 0#32
  ![v39.toNat, 0]

def k18_chk5 (v39 : BitVec 32) : Prop :=
  (∀ a, (k18_off10 v39) a + S1x64.size a ≤ S100000x64.size a) ∧
  (∀ a, (k18_off21 v39) a + S1x64.size a ≤ S100000x64.size a)
instance k18_chk5.dec : ∀ (v39 : BitVec 32), Decidable (k18_chk5 v39) := fun v39 => decidable_of_iff' _ (Iff.of_eq (k18_chk5.eq_1 v39))
theorem k18_off10_inb : ∀ (v39 : BitVec 32) (k18_hw5 : k18_chk5 v39), ∀ a, (k18_off10 v39) a + S1x64.size a ≤ S100000x64.size a := fun v39 k18_hw5 => k18_hw5.1
theorem k18_off21_inb : ∀ (v39 : BitVec 32) (k18_hw5 : k18_chk5 v39), ∀ a, (k18_off21 v39) a + S1x64.size a ≤ S100000x64.size a := fun v39 k18_hw5 => k18_hw5.2

def k18_off22 (v48 : BitVec 32) : Fin 2 → Nat :=
  let c0_i32_55 : BitVec 32 := 0#32
  ![v48.toNat, 0]

def k18_chk6 (v48 : BitVec 32) : Prop :=
  (∀ a, (k18_off12 v48) a + S1x64.size a ≤ S100000x64.size a) ∧
  (∀ a, (k18_off22 v48) a + S1x64.size a ≤ S100000x64.size a)
instance k18_chk6.dec : ∀ (v48 : BitVec 32), Decidable (k18_chk6 v48) := fun v48 => decidable_of_iff' _ (Iff.of_eq (k18_chk6.eq_1 v48))
theorem k18_off12_inb : ∀ (v48 : BitVec 32) (k18_hw6 : k18_chk6 v48), ∀ a, (k18_off12 v48) a + S1x64.size a ≤ S100000x64.size a := fun v48 k18_hw6 => k18_hw6.1
theorem k18_off22_inb : ∀ (v48 : BitVec 32) (k18_hw6 : k18_chk6 v48), ∀ a, (k18_off22 v48) a + S1x64.size a ≤ S100000x64.size a := fun v48 k18_hw6 => k18_hw6.2

def k18_off23 (v57 : BitVec 32) : Fin 2 → Nat :=
  let c0_i32_59 : BitVec 32 := 0#32
  ![v57.toNat, 0]

def k18_chk7 (v57 : BitVec 32) : Prop :=
  (∀ a, (k18_off14 v57) a + S1x64.size a ≤ S100000x64.size a) ∧
  (∀ a, (k18_off23 v57) a + S1x64.size a ≤ S100000x64.size a)
instance k18_chk7.dec : ∀ (v57 : BitVec 32), Decidable (k18_chk7 v57) := fun v57 => decidable_of_iff' _ (Iff.of_eq (k18_chk7.eq_1 v57))
theorem k18_off14_inb : ∀ (v57 : BitVec 32) (k18_hw7 : k18_chk7 v57), ∀ a, (k18_off14 v57) a + S1x64.size a ≤ S100000x64.size a := fun v57 k18_hw7 => k18_hw7.1
theorem k18_off23_inb : ∀ (v57 : BitVec 32) (k18_hw7 : k18_chk7 v57), ∀ a, (k18_off23 v57) a + S1x64.size a ≤ S100000x64.size a := fun v57 k18_hw7 => k18_hw7.2

def cc18_transform_1 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_2 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S8x1 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 2 → Memref sig .tc .vmem S8x64 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![true]

abbrev grid19 : Pipeline.Grid := ⟨1, ![12500], ![false]⟩

abbrev pre19 : Pipeline.Prefetch sig := ⟨1, ![main_v82.idx], fun | 0 => main_v82.names | ⟨_ + 1, h⟩ => absurd h (Nat.not_lt.2 (Nat.le_add_left _ _)), fun | 0 => rfl | ⟨_ + 1, h⟩ => absurd h (Nat.not_lt.2 (Nat.le_add_left _ _))⟩

def k19_off1 (i : grid19.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k19_off2 (v3 : BitVec 32) : Fin 2 → Nat :=
  let c0_i32_3 : BitVec 32 := 0#32
  ![v3.toNat, 0]

def k19_off3 (i : grid19.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k19_off4 (v12 : BitVec 32) : Fin 2 → Nat :=
  let c0_i32_7 : BitVec 32 := 0#32
  ![v12.toNat, 0]

def k19_off5 (i : grid19.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k19_off6 (v21 : BitVec 32) : Fin 2 → Nat :=
  let c0_i32_11 : BitVec 32 := 0#32
  ![v21.toNat, 0]

def k19_off7 (i : grid19.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k19_off8 (v30 : BitVec 32) : Fin 2 → Nat :=
  let c0_i32_15 : BitVec 32 := 0#32
  ![v30.toNat, 0]

def k19_off9 (i : grid19.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k19_off10 (v39 : BitVec 32) : Fin 2 → Nat :=
  let c0_i32_19 : BitVec 32 := 0#32
  ![v39.toNat, 0]

def k19_off11 (i : grid19.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k19_off12 (v48 : BitVec 32) : Fin 2 → Nat :=
  let c0_i32_23 : BitVec 32 := 0#32
  ![v48.toNat, 0]

def k19_off13 (i : grid19.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k19_off14 (v57 : BitVec 32) : Fin 2 → Nat :=
  let c0_i32_27 : BitVec 32 := 0#32
  ![v57.toNat, 0]

def k19_off15 (i : grid19.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k19_off16 (v66 : BitVec 32) : Fin 2 → Nat :=
  let c0_i32_31 : BitVec 32 := 0#32
  ![v66.toNat, 0]

def k19_chk8 (v66 : BitVec 32) : Prop :=
  (∀ a, (k19_off16 v66) a + S1x64.size a ≤ S100000x64.size a)
instance k19_chk8.dec : ∀ (v66 : BitVec 32), Decidable (k19_chk8 v66) := fun v66 => decidable_of_iff' _ (Iff.of_eq (k19_chk8.eq_1 v66))
theorem k19_off16_inb : ∀ (v66 : BitVec 32) (k19_hw8 : k19_chk8 v66), ∀ a, (k19_off16 v66) a + S1x64.size a ≤ S100000x64.size a := fun v66 k19_hw8 => k19_hw8

def k19_off17 (v3 : BitVec 32) : Fin 2 → Nat :=
  let c0_i32_35 : BitVec 32 := 0#32
  ![v3.toNat, 0]

def k19_chk1 (v3 : BitVec 32) : Prop :=
  (∀ a, (k19_off2 v3) a + S1x64.size a ≤ S100000x64.size a) ∧
  (∀ a, (k19_off17 v3) a + S1x64.size a ≤ S100000x64.size a)
instance k19_chk1.dec : ∀ (v3 : BitVec 32), Decidable (k19_chk1 v3) := fun v3 => decidable_of_iff' _ (Iff.of_eq (k19_chk1.eq_1 v3))
theorem k19_off2_inb : ∀ (v3 : BitVec 32) (k19_hw1 : k19_chk1 v3), ∀ a, (k19_off2 v3) a + S1x64.size a ≤ S100000x64.size a := fun v3 k19_hw1 => k19_hw1.1
theorem k19_off17_inb : ∀ (v3 : BitVec 32) (k19_hw1 : k19_chk1 v3), ∀ a, (k19_off17 v3) a + S1x64.size a ≤ S100000x64.size a := fun v3 k19_hw1 => k19_hw1.2

def k19_off18 (v12 : BitVec 32) : Fin 2 → Nat :=
  let c0_i32_39 : BitVec 32 := 0#32
  ![v12.toNat, 0]

def k19_chk2 (v12 : BitVec 32) : Prop :=
  (∀ a, (k19_off4 v12) a + S1x64.size a ≤ S100000x64.size a) ∧
  (∀ a, (k19_off18 v12) a + S1x64.size a ≤ S100000x64.size a)
instance k19_chk2.dec : ∀ (v12 : BitVec 32), Decidable (k19_chk2 v12) := fun v12 => decidable_of_iff' _ (Iff.of_eq (k19_chk2.eq_1 v12))
theorem k19_off4_inb : ∀ (v12 : BitVec 32) (k19_hw2 : k19_chk2 v12), ∀ a, (k19_off4 v12) a + S1x64.size a ≤ S100000x64.size a := fun v12 k19_hw2 => k19_hw2.1
theorem k19_off18_inb : ∀ (v12 : BitVec 32) (k19_hw2 : k19_chk2 v12), ∀ a, (k19_off18 v12) a + S1x64.size a ≤ S100000x64.size a := fun v12 k19_hw2 => k19_hw2.2

def k19_off19 (v21 : BitVec 32) : Fin 2 → Nat :=
  let c0_i32_43 : BitVec 32 := 0#32
  ![v21.toNat, 0]

def k19_chk3 (v21 : BitVec 32) : Prop :=
  (∀ a, (k19_off6 v21) a + S1x64.size a ≤ S100000x64.size a) ∧
  (∀ a, (k19_off19 v21) a + S1x64.size a ≤ S100000x64.size a)
instance k19_chk3.dec : ∀ (v21 : BitVec 32), Decidable (k19_chk3 v21) := fun v21 => decidable_of_iff' _ (Iff.of_eq (k19_chk3.eq_1 v21))
theorem k19_off6_inb : ∀ (v21 : BitVec 32) (k19_hw3 : k19_chk3 v21), ∀ a, (k19_off6 v21) a + S1x64.size a ≤ S100000x64.size a := fun v21 k19_hw3 => k19_hw3.1
theorem k19_off19_inb : ∀ (v21 : BitVec 32) (k19_hw3 : k19_chk3 v21), ∀ a, (k19_off19 v21) a + S1x64.size a ≤ S100000x64.size a := fun v21 k19_hw3 => k19_hw3.2

def k19_off20 (v30 : BitVec 32) : Fin 2 → Nat :=
  let c0_i32_47 : BitVec 32 := 0#32
  ![v30.toNat, 0]

def k19_chk4 (v30 : BitVec 32) : Prop :=
  (∀ a, (k19_off8 v30) a + S1x64.size a ≤ S100000x64.size a) ∧
  (∀ a, (k19_off20 v30) a + S1x64.size a ≤ S100000x64.size a)
instance k19_chk4.dec : ∀ (v30 : BitVec 32), Decidable (k19_chk4 v30) := fun v30 => decidable_of_iff' _ (Iff.of_eq (k19_chk4.eq_1 v30))
theorem k19_off8_inb : ∀ (v30 : BitVec 32) (k19_hw4 : k19_chk4 v30), ∀ a, (k19_off8 v30) a + S1x64.size a ≤ S100000x64.size a := fun v30 k19_hw4 => k19_hw4.1
theorem k19_off20_inb : ∀ (v30 : BitVec 32) (k19_hw4 : k19_chk4 v30), ∀ a, (k19_off20 v30) a + S1x64.size a ≤ S100000x64.size a := fun v30 k19_hw4 => k19_hw4.2

def k19_off21 (v39 : BitVec 32) : Fin 2 → Nat :=
  let c0_i32_51 : BitVec 32 := 0#32
  ![v39.toNat, 0]

def k19_chk5 (v39 : BitVec 32) : Prop :=
  (∀ a, (k19_off10 v39) a + S1x64.size a ≤ S100000x64.size a) ∧
  (∀ a, (k19_off21 v39) a + S1x64.size a ≤ S100000x64.size a)
instance k19_chk5.dec : ∀ (v39 : BitVec 32), Decidable (k19_chk5 v39) := fun v39 => decidable_of_iff' _ (Iff.of_eq (k19_chk5.eq_1 v39))
theorem k19_off10_inb : ∀ (v39 : BitVec 32) (k19_hw5 : k19_chk5 v39), ∀ a, (k19_off10 v39) a + S1x64.size a ≤ S100000x64.size a := fun v39 k19_hw5 => k19_hw5.1
theorem k19_off21_inb : ∀ (v39 : BitVec 32) (k19_hw5 : k19_chk5 v39), ∀ a, (k19_off21 v39) a + S1x64.size a ≤ S100000x64.size a := fun v39 k19_hw5 => k19_hw5.2

def k19_off22 (v48 : BitVec 32) : Fin 2 → Nat :=
  let c0_i32_55 : BitVec 32 := 0#32
  ![v48.toNat, 0]

def k19_chk6 (v48 : BitVec 32) : Prop :=
  (∀ a, (k19_off12 v48) a + S1x64.size a ≤ S100000x64.size a) ∧
  (∀ a, (k19_off22 v48) a + S1x64.size a ≤ S100000x64.size a)
instance k19_chk6.dec : ∀ (v48 : BitVec 32), Decidable (k19_chk6 v48) := fun v48 => decidable_of_iff' _ (Iff.of_eq (k19_chk6.eq_1 v48))
theorem k19_off12_inb : ∀ (v48 : BitVec 32) (k19_hw6 : k19_chk6 v48), ∀ a, (k19_off12 v48) a + S1x64.size a ≤ S100000x64.size a := fun v48 k19_hw6 => k19_hw6.1
theorem k19_off22_inb : ∀ (v48 : BitVec 32) (k19_hw6 : k19_chk6 v48), ∀ a, (k19_off22 v48) a + S1x64.size a ≤ S100000x64.size a := fun v48 k19_hw6 => k19_hw6.2

def k19_off23 (v57 : BitVec 32) : Fin 2 → Nat :=
  let c0_i32_59 : BitVec 32 := 0#32
  ![v57.toNat, 0]

def k19_chk7 (v57 : BitVec 32) : Prop :=
  (∀ a, (k19_off14 v57) a + S1x64.size a ≤ S100000x64.size a) ∧
  (∀ a, (k19_off23 v57) a + S1x64.size a ≤ S100000x64.size a)
instance k19_chk7.dec : ∀ (v57 : BitVec 32), Decidable (k19_chk7 v57) := fun v57 => decidable_of_iff' _ (Iff.of_eq (k19_chk7.eq_1 v57))
theorem k19_off14_inb : ∀ (v57 : BitVec 32) (k19_hw7 : k19_chk7 v57), ∀ a, (k19_off14 v57) a + S1x64.size a ≤ S100000x64.size a := fun v57 k19_hw7 => k19_hw7.1
theorem k19_off23_inb : ∀ (v57 : BitVec 32) (k19_hw7 : k19_chk7 v57), ∀ a, (k19_off23 v57) a + S1x64.size a ≤ S100000x64.size a := fun v57 k19_hw7 => k19_hw7.2

def cc19_transform_1 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_2 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S8x1 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 2 → Memref sig .tc .vmem S8x64 .f32 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![true]

abbrev grid20 : Pipeline.Grid := ⟨1, ![12500], ![false]⟩

abbrev pre20 : Pipeline.Prefetch sig := ⟨1, ![main_v86.idx], fun | 0 => main_v86.names | ⟨_ + 1, h⟩ => absurd h (Nat.not_lt.2 (Nat.le_add_left _ _)), fun | 0 => rfl | ⟨_ + 1, h⟩ => absurd h (Nat.not_lt.2 (Nat.le_add_left _ _))⟩

def k20_off1 (i : grid20.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k20_off2 (v3 : BitVec 32) : Fin 2 → Nat :=
  let c0_i32_3 : BitVec 32 := 0#32
  ![v3.toNat, 0]

def k20_off3 (i : grid20.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k20_off4 (v12 : BitVec 32) : Fin 2 → Nat :=
  let c0_i32_7 : BitVec 32 := 0#32
  ![v12.toNat, 0]

def k20_off5 (i : grid20.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k20_off6 (v21 : BitVec 32) : Fin 2 → Nat :=
  let c0_i32_11 : BitVec 32 := 0#32
  ![v21.toNat, 0]

def k20_off7 (i : grid20.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k20_off8 (v30 : BitVec 32) : Fin 2 → Nat :=
  let c0_i32_15 : BitVec 32 := 0#32
  ![v30.toNat, 0]

def k20_off9 (i : grid20.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k20_off10 (v39 : BitVec 32) : Fin 2 → Nat :=
  let c0_i32_19 : BitVec 32 := 0#32
  ![v39.toNat, 0]

def k20_off11 (i : grid20.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k20_off12 (v48 : BitVec 32) : Fin 2 → Nat :=
  let c0_i32_23 : BitVec 32 := 0#32
  ![v48.toNat, 0]

def k20_off13 (i : grid20.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k20_off14 (v57 : BitVec 32) : Fin 2 → Nat :=
  let c0_i32_27 : BitVec 32 := 0#32
  ![v57.toNat, 0]

def k20_off15 (i : grid20.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k20_off16 (v66 : BitVec 32) : Fin 2 → Nat :=
  let c0_i32_31 : BitVec 32 := 0#32
  ![v66.toNat, 0]

def k20_chk8 (v66 : BitVec 32) : Prop :=
  (∀ a, (k20_off16 v66) a + S1x64.size a ≤ S100000x64.size a)
instance k20_chk8.dec : ∀ (v66 : BitVec 32), Decidable (k20_chk8 v66) := fun v66 => decidable_of_iff' _ (Iff.of_eq (k20_chk8.eq_1 v66))
theorem k20_off16_inb : ∀ (v66 : BitVec 32) (k20_hw8 : k20_chk8 v66), ∀ a, (k20_off16 v66) a + S1x64.size a ≤ S100000x64.size a := fun v66 k20_hw8 => k20_hw8

def k20_off17 (v3 : BitVec 32) : Fin 2 → Nat :=
  let c0_i32_35 : BitVec 32 := 0#32
  ![v3.toNat, 0]

def k20_chk1 (v3 : BitVec 32) : Prop :=
  (∀ a, (k20_off2 v3) a + S1x64.size a ≤ S100000x64.size a) ∧
  (∀ a, (k20_off17 v3) a + S1x64.size a ≤ S100000x64.size a)
instance k20_chk1.dec : ∀ (v3 : BitVec 32), Decidable (k20_chk1 v3) := fun v3 => decidable_of_iff' _ (Iff.of_eq (k20_chk1.eq_1 v3))
theorem k20_off2_inb : ∀ (v3 : BitVec 32) (k20_hw1 : k20_chk1 v3), ∀ a, (k20_off2 v3) a + S1x64.size a ≤ S100000x64.size a := fun v3 k20_hw1 => k20_hw1.1
theorem k20_off17_inb : ∀ (v3 : BitVec 32) (k20_hw1 : k20_chk1 v3), ∀ a, (k20_off17 v3) a + S1x64.size a ≤ S100000x64.size a := fun v3 k20_hw1 => k20_hw1.2

def k20_off18 (v12 : BitVec 32) : Fin 2 → Nat :=
  let c0_i32_39 : BitVec 32 := 0#32
  ![v12.toNat, 0]

def k20_chk2 (v12 : BitVec 32) : Prop :=
  (∀ a, (k20_off4 v12) a + S1x64.size a ≤ S100000x64.size a) ∧
  (∀ a, (k20_off18 v12) a + S1x64.size a ≤ S100000x64.size a)
instance k20_chk2.dec : ∀ (v12 : BitVec 32), Decidable (k20_chk2 v12) := fun v12 => decidable_of_iff' _ (Iff.of_eq (k20_chk2.eq_1 v12))
theorem k20_off4_inb : ∀ (v12 : BitVec 32) (k20_hw2 : k20_chk2 v12), ∀ a, (k20_off4 v12) a + S1x64.size a ≤ S100000x64.size a := fun v12 k20_hw2 => k20_hw2.1
theorem k20_off18_inb : ∀ (v12 : BitVec 32) (k20_hw2 : k20_chk2 v12), ∀ a, (k20_off18 v12) a + S1x64.size a ≤ S100000x64.size a := fun v12 k20_hw2 => k20_hw2.2

def k20_off19 (v21 : BitVec 32) : Fin 2 → Nat :=
  let c0_i32_43 : BitVec 32 := 0#32
  ![v21.toNat, 0]

def k20_chk3 (v21 : BitVec 32) : Prop :=
  (∀ a, (k20_off6 v21) a + S1x64.size a ≤ S100000x64.size a) ∧
  (∀ a, (k20_off19 v21) a + S1x64.size a ≤ S100000x64.size a)
instance k20_chk3.dec : ∀ (v21 : BitVec 32), Decidable (k20_chk3 v21) := fun v21 => decidable_of_iff' _ (Iff.of_eq (k20_chk3.eq_1 v21))
theorem k20_off6_inb : ∀ (v21 : BitVec 32) (k20_hw3 : k20_chk3 v21), ∀ a, (k20_off6 v21) a + S1x64.size a ≤ S100000x64.size a := fun v21 k20_hw3 => k20_hw3.1
theorem k20_off19_inb : ∀ (v21 : BitVec 32) (k20_hw3 : k20_chk3 v21), ∀ a, (k20_off19 v21) a + S1x64.size a ≤ S100000x64.size a := fun v21 k20_hw3 => k20_hw3.2

def k20_off20 (v30 : BitVec 32) : Fin 2 → Nat :=
  let c0_i32_47 : BitVec 32 := 0#32
  ![v30.toNat, 0]

def k20_chk4 (v30 : BitVec 32) : Prop :=
  (∀ a, (k20_off8 v30) a + S1x64.size a ≤ S100000x64.size a) ∧
  (∀ a, (k20_off20 v30) a + S1x64.size a ≤ S100000x64.size a)
instance k20_chk4.dec : ∀ (v30 : BitVec 32), Decidable (k20_chk4 v30) := fun v30 => decidable_of_iff' _ (Iff.of_eq (k20_chk4.eq_1 v30))
theorem k20_off8_inb : ∀ (v30 : BitVec 32) (k20_hw4 : k20_chk4 v30), ∀ a, (k20_off8 v30) a + S1x64.size a ≤ S100000x64.size a := fun v30 k20_hw4 => k20_hw4.1
theorem k20_off20_inb : ∀ (v30 : BitVec 32) (k20_hw4 : k20_chk4 v30), ∀ a, (k20_off20 v30) a + S1x64.size a ≤ S100000x64.size a := fun v30 k20_hw4 => k20_hw4.2

def k20_off21 (v39 : BitVec 32) : Fin 2 → Nat :=
  let c0_i32_51 : BitVec 32 := 0#32
  ![v39.toNat, 0]

def k20_chk5 (v39 : BitVec 32) : Prop :=
  (∀ a, (k20_off10 v39) a + S1x64.size a ≤ S100000x64.size a) ∧
  (∀ a, (k20_off21 v39) a + S1x64.size a ≤ S100000x64.size a)
instance k20_chk5.dec : ∀ (v39 : BitVec 32), Decidable (k20_chk5 v39) := fun v39 => decidable_of_iff' _ (Iff.of_eq (k20_chk5.eq_1 v39))
theorem k20_off10_inb : ∀ (v39 : BitVec 32) (k20_hw5 : k20_chk5 v39), ∀ a, (k20_off10 v39) a + S1x64.size a ≤ S100000x64.size a := fun v39 k20_hw5 => k20_hw5.1
theorem k20_off21_inb : ∀ (v39 : BitVec 32) (k20_hw5 : k20_chk5 v39), ∀ a, (k20_off21 v39) a + S1x64.size a ≤ S100000x64.size a := fun v39 k20_hw5 => k20_hw5.2

def k20_off22 (v48 : BitVec 32) : Fin 2 → Nat :=
  let c0_i32_55 : BitVec 32 := 0#32
  ![v48.toNat, 0]

def k20_chk6 (v48 : BitVec 32) : Prop :=
  (∀ a, (k20_off12 v48) a + S1x64.size a ≤ S100000x64.size a) ∧
  (∀ a, (k20_off22 v48) a + S1x64.size a ≤ S100000x64.size a)
instance k20_chk6.dec : ∀ (v48 : BitVec 32), Decidable (k20_chk6 v48) := fun v48 => decidable_of_iff' _ (Iff.of_eq (k20_chk6.eq_1 v48))
theorem k20_off12_inb : ∀ (v48 : BitVec 32) (k20_hw6 : k20_chk6 v48), ∀ a, (k20_off12 v48) a + S1x64.size a ≤ S100000x64.size a := fun v48 k20_hw6 => k20_hw6.1
theorem k20_off22_inb : ∀ (v48 : BitVec 32) (k20_hw6 : k20_chk6 v48), ∀ a, (k20_off22 v48) a + S1x64.size a ≤ S100000x64.size a := fun v48 k20_hw6 => k20_hw6.2

def k20_off23 (v57 : BitVec 32) : Fin 2 → Nat :=
  let c0_i32_59 : BitVec 32 := 0#32
  ![v57.toNat, 0]

def k20_chk7 (v57 : BitVec 32) : Prop :=
  (∀ a, (k20_off14 v57) a + S1x64.size a ≤ S100000x64.size a) ∧
  (∀ a, (k20_off23 v57) a + S1x64.size a ≤ S100000x64.size a)
instance k20_chk7.dec : ∀ (v57 : BitVec 32), Decidable (k20_chk7 v57) := fun v57 => decidable_of_iff' _ (Iff.of_eq (k20_chk7.eq_1 v57))
theorem k20_off14_inb : ∀ (v57 : BitVec 32) (k20_hw7 : k20_chk7 v57), ∀ a, (k20_off14 v57) a + S1x64.size a ≤ S100000x64.size a := fun v57 k20_hw7 => k20_hw7.1
theorem k20_off23_inb : ∀ (v57 : BitVec 32) (k20_hw7 : k20_chk7 v57), ∀ a, (k20_off23 v57) a + S1x64.size a ≤ S100000x64.size a := fun v57 k20_hw7 => k20_hw7.2

def cc20_transform_1 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_2 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S8x1 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 2 → Memref sig .tc .vmem S8x64 .f32 := fun | 0 => Memref.whole cc20_stg1_0 | 1 => Memref.whole cc20_stg1_1 | ⟨_ + 2, h⟩ => absurd h (Nat.not_lt.2 (Nat.le_add_left _ _))
abbrev sem20_1 : Fin 2 → DmaSem sig := fun | 0 => cc20_sem1_0 | 1 => cc20_sem1_1 | ⟨_ + 2, h⟩ => absurd h (Nat.not_lt.2 (Nat.le_add_left _ _))
abbrev reads20_1 : Fin grid20.rank → Bool := ![true]

abbrev grid21 : Pipeline.Grid := ⟨1, ![12500], ![false]⟩

abbrev pre21 : Pipeline.Prefetch sig := ⟨1, ![main_v90.idx], fun | 0 => main_v90.names | ⟨_ + 1, h⟩ => absurd h (Nat.not_lt.2 (Nat.le_add_left _ _)), fun | 0 => rfl | ⟨_ + 1, h⟩ => absurd h (Nat.not_lt.2 (Nat.le_add_left _ _))⟩

def k21_off1 (i : grid21.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k21_off2 (v3 : BitVec 32) : Fin 2 → Nat :=
  let c0_i32_3 : BitVec 32 := 0#32
  ![v3.toNat, 0]

def k21_off3 (i : grid21.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k21_off4 (v12 : BitVec 32) : Fin 2 → Nat :=
  let c0_i32_7 : BitVec 32 := 0#32
  ![v12.toNat, 0]

def k21_off5 (i : grid21.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k21_off6 (v21 : BitVec 32) : Fin 2 → Nat :=
  let c0_i32_11 : BitVec 32 := 0#32
  ![v21.toNat, 0]

def k21_off7 (i : grid21.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k21_off8 (v30 : BitVec 32) : Fin 2 → Nat :=
  let c0_i32_15 : BitVec 32 := 0#32
  ![v30.toNat, 0]

def k21_off9 (i : grid21.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k21_off10 (v39 : BitVec 32) : Fin 2 → Nat :=
  let c0_i32_19 : BitVec 32 := 0#32
  ![v39.toNat, 0]

def k21_off11 (i : grid21.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k21_off12 (v48 : BitVec 32) : Fin 2 → Nat :=
  let c0_i32_23 : BitVec 32 := 0#32
  ![v48.toNat, 0]

def k21_off13 (i : grid21.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k21_off14 (v57 : BitVec 32) : Fin 2 → Nat :=
  let c0_i32_27 : BitVec 32 := 0#32
  ![v57.toNat, 0]

def k21_off15 (i : grid21.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k21_off16 (v66 : BitVec 32) : Fin 2 → Nat :=
  let c0_i32_31 : BitVec 32 := 0#32
  ![v66.toNat, 0]

def k21_chk8 (v66 : BitVec 32) : Prop :=
  (∀ a, (k21_off16 v66) a + S1x64.size a ≤ S100000x64.size a)
instance k21_chk8.dec : ∀ (v66 : BitVec 32), Decidable (k21_chk8 v66) := fun v66 => decidable_of_iff' _ (Iff.of_eq (k21_chk8.eq_1 v66))
theorem k21_off16_inb : ∀ (v66 : BitVec 32) (k21_hw8 : k21_chk8 v66), ∀ a, (k21_off16 v66) a + S1x64.size a ≤ S100000x64.size a := fun v66 k21_hw8 => k21_hw8

def k21_off17 (v3 : BitVec 32) : Fin 2 → Nat :=
  let c0_i32_35 : BitVec 32 := 0#32
  ![v3.toNat, 0]

def k21_chk1 (v3 : BitVec 32) : Prop :=
  (∀ a, (k21_off2 v3) a + S1x64.size a ≤ S100000x64.size a) ∧
  (∀ a, (k21_off17 v3) a + S1x64.size a ≤ S100000x64.size a)
instance k21_chk1.dec : ∀ (v3 : BitVec 32), Decidable (k21_chk1 v3) := fun v3 => decidable_of_iff' _ (Iff.of_eq (k21_chk1.eq_1 v3))
theorem k21_off2_inb : ∀ (v3 : BitVec 32) (k21_hw1 : k21_chk1 v3), ∀ a, (k21_off2 v3) a + S1x64.size a ≤ S100000x64.size a := fun v3 k21_hw1 => k21_hw1.1
theorem k21_off17_inb : ∀ (v3 : BitVec 32) (k21_hw1 : k21_chk1 v3), ∀ a, (k21_off17 v3) a + S1x64.size a ≤ S100000x64.size a := fun v3 k21_hw1 => k21_hw1.2

def k21_off18 (v12 : BitVec 32) : Fin 2 → Nat :=
  let c0_i32_39 : BitVec 32 := 0#32
  ![v12.toNat, 0]

def k21_chk2 (v12 : BitVec 32) : Prop :=
  (∀ a, (k21_off4 v12) a + S1x64.size a ≤ S100000x64.size a) ∧
  (∀ a, (k21_off18 v12) a + S1x64.size a ≤ S100000x64.size a)
instance k21_chk2.dec : ∀ (v12 : BitVec 32), Decidable (k21_chk2 v12) := fun v12 => decidable_of_iff' _ (Iff.of_eq (k21_chk2.eq_1 v12))
theorem k21_off4_inb : ∀ (v12 : BitVec 32) (k21_hw2 : k21_chk2 v12), ∀ a, (k21_off4 v12) a + S1x64.size a ≤ S100000x64.size a := fun v12 k21_hw2 => k21_hw2.1
theorem k21_off18_inb : ∀ (v12 : BitVec 32) (k21_hw2 : k21_chk2 v12), ∀ a, (k21_off18 v12) a + S1x64.size a ≤ S100000x64.size a := fun v12 k21_hw2 => k21_hw2.2

def k21_off19 (v21 : BitVec 32) : Fin 2 → Nat :=
  let c0_i32_43 : BitVec 32 := 0#32
  ![v21.toNat, 0]

def k21_chk3 (v21 : BitVec 32) : Prop :=
  (∀ a, (k21_off6 v21) a + S1x64.size a ≤ S100000x64.size a) ∧
  (∀ a, (k21_off19 v21) a + S1x64.size a ≤ S100000x64.size a)
instance k21_chk3.dec : ∀ (v21 : BitVec 32), Decidable (k21_chk3 v21) := fun v21 => decidable_of_iff' _ (Iff.of_eq (k21_chk3.eq_1 v21))
theorem k21_off6_inb : ∀ (v21 : BitVec 32) (k21_hw3 : k21_chk3 v21), ∀ a, (k21_off6 v21) a + S1x64.size a ≤ S100000x64.size a := fun v21 k21_hw3 => k21_hw3.1
theorem k21_off19_inb : ∀ (v21 : BitVec 32) (k21_hw3 : k21_chk3 v21), ∀ a, (k21_off19 v21) a + S1x64.size a ≤ S100000x64.size a := fun v21 k21_hw3 => k21_hw3.2

def k21_off20 (v30 : BitVec 32) : Fin 2 → Nat :=
  let c0_i32_47 : BitVec 32 := 0#32
  ![v30.toNat, 0]

def k21_chk4 (v30 : BitVec 32) : Prop :=
  (∀ a, (k21_off8 v30) a + S1x64.size a ≤ S100000x64.size a) ∧
  (∀ a, (k21_off20 v30) a + S1x64.size a ≤ S100000x64.size a)
instance k21_chk4.dec : ∀ (v30 : BitVec 32), Decidable (k21_chk4 v30) := fun v30 => decidable_of_iff' _ (Iff.of_eq (k21_chk4.eq_1 v30))
theorem k21_off8_inb : ∀ (v30 : BitVec 32) (k21_hw4 : k21_chk4 v30), ∀ a, (k21_off8 v30) a + S1x64.size a ≤ S100000x64.size a := fun v30 k21_hw4 => k21_hw4.1
theorem k21_off20_inb : ∀ (v30 : BitVec 32) (k21_hw4 : k21_chk4 v30), ∀ a, (k21_off20 v30) a + S1x64.size a ≤ S100000x64.size a := fun v30 k21_hw4 => k21_hw4.2

def k21_off21 (v39 : BitVec 32) : Fin 2 → Nat :=
  let c0_i32_51 : BitVec 32 := 0#32
  ![v39.toNat, 0]

def k21_chk5 (v39 : BitVec 32) : Prop :=
  (∀ a, (k21_off10 v39) a + S1x64.size a ≤ S100000x64.size a) ∧
  (∀ a, (k21_off21 v39) a + S1x64.size a ≤ S100000x64.size a)
instance k21_chk5.dec : ∀ (v39 : BitVec 32), Decidable (k21_chk5 v39) := fun v39 => decidable_of_iff' _ (Iff.of_eq (k21_chk5.eq_1 v39))
theorem k21_off10_inb : ∀ (v39 : BitVec 32) (k21_hw5 : k21_chk5 v39), ∀ a, (k21_off10 v39) a + S1x64.size a ≤ S100000x64.size a := fun v39 k21_hw5 => k21_hw5.1
theorem k21_off21_inb : ∀ (v39 : BitVec 32) (k21_hw5 : k21_chk5 v39), ∀ a, (k21_off21 v39) a + S1x64.size a ≤ S100000x64.size a := fun v39 k21_hw5 => k21_hw5.2

def k21_off22 (v48 : BitVec 32) : Fin 2 → Nat :=
  let c0_i32_55 : BitVec 32 := 0#32
  ![v48.toNat, 0]

def k21_chk6 (v48 : BitVec 32) : Prop :=
  (∀ a, (k21_off12 v48) a + S1x64.size a ≤ S100000x64.size a) ∧
  (∀ a, (k21_off22 v48) a + S1x64.size a ≤ S100000x64.size a)
instance k21_chk6.dec : ∀ (v48 : BitVec 32), Decidable (k21_chk6 v48) := fun v48 => decidable_of_iff' _ (Iff.of_eq (k21_chk6.eq_1 v48))
theorem k21_off12_inb : ∀ (v48 : BitVec 32) (k21_hw6 : k21_chk6 v48), ∀ a, (k21_off12 v48) a + S1x64.size a ≤ S100000x64.size a := fun v48 k21_hw6 => k21_hw6.1
theorem k21_off22_inb : ∀ (v48 : BitVec 32) (k21_hw6 : k21_chk6 v48), ∀ a, (k21_off22 v48) a + S1x64.size a ≤ S100000x64.size a := fun v48 k21_hw6 => k21_hw6.2

def k21_off23 (v57 : BitVec 32) : Fin 2 → Nat :=
  let c0_i32_59 : BitVec 32 := 0#32
  ![v57.toNat, 0]

def k21_chk7 (v57 : BitVec 32) : Prop :=
  (∀ a, (k21_off14 v57) a + S1x64.size a ≤ S100000x64.size a) ∧
  (∀ a, (k21_off23 v57) a + S1x64.size a ≤ S100000x64.size a)
instance k21_chk7.dec : ∀ (v57 : BitVec 32), Decidable (k21_chk7 v57) := fun v57 => decidable_of_iff' _ (Iff.of_eq (k21_chk7.eq_1 v57))
theorem k21_off14_inb : ∀ (v57 : BitVec 32) (k21_hw7 : k21_chk7 v57), ∀ a, (k21_off14 v57) a + S1x64.size a ≤ S100000x64.size a := fun v57 k21_hw7 => k21_hw7.1
theorem k21_off23_inb : ∀ (v57 : BitVec 32) (k21_hw7 : k21_chk7 v57), ∀ a, (k21_off23 v57) a + S1x64.size a ≤ S100000x64.size a := fun v57 k21_hw7 => k21_hw7.2

def cc21_transform_1 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_2 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage21_0 : Fin 2 → Memref sig .tc .vmem S8x1 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true]

abbrev stage21_1 : Fin 2 → Memref sig .tc .vmem S8x64 .f32 := fun | 0 => Memref.whole cc21_stg1_0 | 1 => Memref.whole cc21_stg1_1 | ⟨_ + 2, h⟩ => absurd h (Nat.not_lt.2 (Nat.le_add_left _ _))
abbrev sem21_1 : Fin 2 → DmaSem sig := fun | 0 => cc21_sem1_0 | 1 => cc21_sem1_1 | ⟨_ + 2, h⟩ => absurd h (Nat.not_lt.2 (Nat.le_add_left _ _))
abbrev reads21_1 : Fin grid21.rank → Bool := ![true]

abbrev grid22 : Pipeline.Grid := ⟨1, ![12500], ![false]⟩

abbrev pre22 : Pipeline.Prefetch sig := ⟨1, ![main_v94.idx], fun | 0 => main_v94.names | ⟨_ + 1, h⟩ => absurd h (Nat.not_lt.2 (Nat.le_add_left _ _)), fun | 0 => rfl | ⟨_ + 1, h⟩ => absurd h (Nat.not_lt.2 (Nat.le_add_left _ _))⟩

def k22_off1 (i : grid22.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k22_off2 (v3 : BitVec 32) : Fin 2 → Nat :=
  let c0_i32_3 : BitVec 32 := 0#32
  ![v3.toNat, 0]

def k22_off3 (i : grid22.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k22_off4 (v12 : BitVec 32) : Fin 2 → Nat :=
  let c0_i32_7 : BitVec 32 := 0#32
  ![v12.toNat, 0]

def k22_off5 (i : grid22.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k22_off6 (v21 : BitVec 32) : Fin 2 → Nat :=
  let c0_i32_11 : BitVec 32 := 0#32
  ![v21.toNat, 0]

def k22_off7 (i : grid22.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k22_off8 (v30 : BitVec 32) : Fin 2 → Nat :=
  let c0_i32_15 : BitVec 32 := 0#32
  ![v30.toNat, 0]

def k22_off9 (i : grid22.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k22_off10 (v39 : BitVec 32) : Fin 2 → Nat :=
  let c0_i32_19 : BitVec 32 := 0#32
  ![v39.toNat, 0]

def k22_off11 (i : grid22.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k22_off12 (v48 : BitVec 32) : Fin 2 → Nat :=
  let c0_i32_23 : BitVec 32 := 0#32
  ![v48.toNat, 0]

def k22_off13 (i : grid22.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k22_off14 (v57 : BitVec 32) : Fin 2 → Nat :=
  let c0_i32_27 : BitVec 32 := 0#32
  ![v57.toNat, 0]

def k22_off15 (i : grid22.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k22_off16 (v66 : BitVec 32) : Fin 2 → Nat :=
  let c0_i32_31 : BitVec 32 := 0#32
  ![v66.toNat, 0]

def k22_chk8 (v66 : BitVec 32) : Prop :=
  (∀ a, (k22_off16 v66) a + S1x64.size a ≤ S100000x64.size a)
instance k22_chk8.dec : ∀ (v66 : BitVec 32), Decidable (k22_chk8 v66) := fun v66 => decidable_of_iff' _ (Iff.of_eq (k22_chk8.eq_1 v66))
theorem k22_off16_inb : ∀ (v66 : BitVec 32) (k22_hw8 : k22_chk8 v66), ∀ a, (k22_off16 v66) a + S1x64.size a ≤ S100000x64.size a := fun v66 k22_hw8 => k22_hw8

def k22_off17 (v3 : BitVec 32) : Fin 2 → Nat :=
  let c0_i32_35 : BitVec 32 := 0#32
  ![v3.toNat, 0]

def k22_chk1 (v3 : BitVec 32) : Prop :=
  (∀ a, (k22_off2 v3) a + S1x64.size a ≤ S100000x64.size a) ∧
  (∀ a, (k22_off17 v3) a + S1x64.size a ≤ S100000x64.size a)
instance k22_chk1.dec : ∀ (v3 : BitVec 32), Decidable (k22_chk1 v3) := fun v3 => decidable_of_iff' _ (Iff.of_eq (k22_chk1.eq_1 v3))
theorem k22_off2_inb : ∀ (v3 : BitVec 32) (k22_hw1 : k22_chk1 v3), ∀ a, (k22_off2 v3) a + S1x64.size a ≤ S100000x64.size a := fun v3 k22_hw1 => k22_hw1.1
theorem k22_off17_inb : ∀ (v3 : BitVec 32) (k22_hw1 : k22_chk1 v3), ∀ a, (k22_off17 v3) a + S1x64.size a ≤ S100000x64.size a := fun v3 k22_hw1 => k22_hw1.2

def k22_off18 (v12 : BitVec 32) : Fin 2 → Nat :=
  let c0_i32_39 : BitVec 32 := 0#32
  ![v12.toNat, 0]

def k22_chk2 (v12 : BitVec 32) : Prop :=
  (∀ a, (k22_off4 v12) a + S1x64.size a ≤ S100000x64.size a) ∧
  (∀ a, (k22_off18 v12) a + S1x64.size a ≤ S100000x64.size a)
instance k22_chk2.dec : ∀ (v12 : BitVec 32), Decidable (k22_chk2 v12) := fun v12 => decidable_of_iff' _ (Iff.of_eq (k22_chk2.eq_1 v12))
theorem k22_off4_inb : ∀ (v12 : BitVec 32) (k22_hw2 : k22_chk2 v12), ∀ a, (k22_off4 v12) a + S1x64.size a ≤ S100000x64.size a := fun v12 k22_hw2 => k22_hw2.1
theorem k22_off18_inb : ∀ (v12 : BitVec 32) (k22_hw2 : k22_chk2 v12), ∀ a, (k22_off18 v12) a + S1x64.size a ≤ S100000x64.size a := fun v12 k22_hw2 => k22_hw2.2

def k22_off19 (v21 : BitVec 32) : Fin 2 → Nat :=
  let c0_i32_43 : BitVec 32 := 0#32
  ![v21.toNat, 0]

def k22_chk3 (v21 : BitVec 32) : Prop :=
  (∀ a, (k22_off6 v21) a + S1x64.size a ≤ S100000x64.size a) ∧
  (∀ a, (k22_off19 v21) a + S1x64.size a ≤ S100000x64.size a)
instance k22_chk3.dec : ∀ (v21 : BitVec 32), Decidable (k22_chk3 v21) := fun v21 => decidable_of_iff' _ (Iff.of_eq (k22_chk3.eq_1 v21))
theorem k22_off6_inb : ∀ (v21 : BitVec 32) (k22_hw3 : k22_chk3 v21), ∀ a, (k22_off6 v21) a + S1x64.size a ≤ S100000x64.size a := fun v21 k22_hw3 => k22_hw3.1
theorem k22_off19_inb : ∀ (v21 : BitVec 32) (k22_hw3 : k22_chk3 v21), ∀ a, (k22_off19 v21) a + S1x64.size a ≤ S100000x64.size a := fun v21 k22_hw3 => k22_hw3.2

def k22_off20 (v30 : BitVec 32) : Fin 2 → Nat :=
  let c0_i32_47 : BitVec 32 := 0#32
  ![v30.toNat, 0]

def k22_chk4 (v30 : BitVec 32) : Prop :=
  (∀ a, (k22_off8 v30) a + S1x64.size a ≤ S100000x64.size a) ∧
  (∀ a, (k22_off20 v30) a + S1x64.size a ≤ S100000x64.size a)
instance k22_chk4.dec : ∀ (v30 : BitVec 32), Decidable (k22_chk4 v30) := fun v30 => decidable_of_iff' _ (Iff.of_eq (k22_chk4.eq_1 v30))
theorem k22_off8_inb : ∀ (v30 : BitVec 32) (k22_hw4 : k22_chk4 v30), ∀ a, (k22_off8 v30) a + S1x64.size a ≤ S100000x64.size a := fun v30 k22_hw4 => k22_hw4.1
theorem k22_off20_inb : ∀ (v30 : BitVec 32) (k22_hw4 : k22_chk4 v30), ∀ a, (k22_off20 v30) a + S1x64.size a ≤ S100000x64.size a := fun v30 k22_hw4 => k22_hw4.2

def k22_off21 (v39 : BitVec 32) : Fin 2 → Nat :=
  let c0_i32_51 : BitVec 32 := 0#32
  ![v39.toNat, 0]

def k22_chk5 (v39 : BitVec 32) : Prop :=
  (∀ a, (k22_off10 v39) a + S1x64.size a ≤ S100000x64.size a) ∧
  (∀ a, (k22_off21 v39) a + S1x64.size a ≤ S100000x64.size a)
instance k22_chk5.dec : ∀ (v39 : BitVec 32), Decidable (k22_chk5 v39) := fun v39 => decidable_of_iff' _ (Iff.of_eq (k22_chk5.eq_1 v39))
theorem k22_off10_inb : ∀ (v39 : BitVec 32) (k22_hw5 : k22_chk5 v39), ∀ a, (k22_off10 v39) a + S1x64.size a ≤ S100000x64.size a := fun v39 k22_hw5 => k22_hw5.1
theorem k22_off21_inb : ∀ (v39 : BitVec 32) (k22_hw5 : k22_chk5 v39), ∀ a, (k22_off21 v39) a + S1x64.size a ≤ S100000x64.size a := fun v39 k22_hw5 => k22_hw5.2

def k22_off22 (v48 : BitVec 32) : Fin 2 → Nat :=
  let c0_i32_55 : BitVec 32 := 0#32
  ![v48.toNat, 0]

def k22_chk6 (v48 : BitVec 32) : Prop :=
  (∀ a, (k22_off12 v48) a + S1x64.size a ≤ S100000x64.size a) ∧
  (∀ a, (k22_off22 v48) a + S1x64.size a ≤ S100000x64.size a)
instance k22_chk6.dec : ∀ (v48 : BitVec 32), Decidable (k22_chk6 v48) := fun v48 => decidable_of_iff' _ (Iff.of_eq (k22_chk6.eq_1 v48))
theorem k22_off12_inb : ∀ (v48 : BitVec 32) (k22_hw6 : k22_chk6 v48), ∀ a, (k22_off12 v48) a + S1x64.size a ≤ S100000x64.size a := fun v48 k22_hw6 => k22_hw6.1
theorem k22_off22_inb : ∀ (v48 : BitVec 32) (k22_hw6 : k22_chk6 v48), ∀ a, (k22_off22 v48) a + S1x64.size a ≤ S100000x64.size a := fun v48 k22_hw6 => k22_hw6.2

def k22_off23 (v57 : BitVec 32) : Fin 2 → Nat :=
  let c0_i32_59 : BitVec 32 := 0#32
  ![v57.toNat, 0]

def k22_chk7 (v57 : BitVec 32) : Prop :=
  (∀ a, (k22_off14 v57) a + S1x64.size a ≤ S100000x64.size a) ∧
  (∀ a, (k22_off23 v57) a + S1x64.size a ≤ S100000x64.size a)
instance k22_chk7.dec : ∀ (v57 : BitVec 32), Decidable (k22_chk7 v57) := fun v57 => decidable_of_iff' _ (Iff.of_eq (k22_chk7.eq_1 v57))
theorem k22_off14_inb : ∀ (v57 : BitVec 32) (k22_hw7 : k22_chk7 v57), ∀ a, (k22_off14 v57) a + S1x64.size a ≤ S100000x64.size a := fun v57 k22_hw7 => k22_hw7.1
theorem k22_off23_inb : ∀ (v57 : BitVec 32) (k22_hw7 : k22_chk7 v57), ∀ a, (k22_off23 v57) a + S1x64.size a ≤ S100000x64.size a := fun v57 k22_hw7 => k22_hw7.2

def cc22_transform_1 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_2 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage22_0 : Fin 2 → Memref sig .tc .vmem S8x1 .f32 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true]

abbrev stage22_1 : Fin 2 → Memref sig .tc .vmem S8x64 .f32 := fun | 0 => Memref.whole cc22_stg1_0 | 1 => Memref.whole cc22_stg1_1 | ⟨_ + 2, h⟩ => absurd h (Nat.not_lt.2 (Nat.le_add_left _ _))
abbrev sem22_1 : Fin 2 → DmaSem sig := fun | 0 => cc22_sem1_0 | 1 => cc22_sem1_1 | ⟨_ + 2, h⟩ => absurd h (Nat.not_lt.2 (Nat.le_add_left _ _))
abbrev reads22_1 : Fin grid22.rank → Bool := ![true]

abbrev grid23 : Pipeline.Grid := ⟨1, ![12500], ![false]⟩

abbrev pre23 : Pipeline.Prefetch sig := ⟨1, ![main_v98.idx], fun | 0 => main_v98.names | ⟨_ + 1, h⟩ => absurd h (Nat.not_lt.2 (Nat.le_add_left _ _)), fun | 0 => rfl | ⟨_ + 1, h⟩ => absurd h (Nat.not_lt.2 (Nat.le_add_left _ _))⟩

def k23_off1 (i : grid23.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k23_off2 (v3 : BitVec 32) : Fin 2 → Nat :=
  let c0_i32_3 : BitVec 32 := 0#32
  ![v3.toNat, 0]

def k23_off3 (i : grid23.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k23_off4 (v12 : BitVec 32) : Fin 2 → Nat :=
  let c0_i32_7 : BitVec 32 := 0#32
  ![v12.toNat, 0]

def k23_off5 (i : grid23.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k23_off6 (v21 : BitVec 32) : Fin 2 → Nat :=
  let c0_i32_11 : BitVec 32 := 0#32
  ![v21.toNat, 0]

def k23_off7 (i : grid23.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k23_off8 (v30 : BitVec 32) : Fin 2 → Nat :=
  let c0_i32_15 : BitVec 32 := 0#32
  ![v30.toNat, 0]

def k23_off9 (i : grid23.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k23_off10 (v39 : BitVec 32) : Fin 2 → Nat :=
  let c0_i32_19 : BitVec 32 := 0#32
  ![v39.toNat, 0]

def k23_off11 (i : grid23.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k23_off12 (v48 : BitVec 32) : Fin 2 → Nat :=
  let c0_i32_23 : BitVec 32 := 0#32
  ![v48.toNat, 0]

def k23_off13 (i : grid23.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k23_off14 (v57 : BitVec 32) : Fin 2 → Nat :=
  let c0_i32_27 : BitVec 32 := 0#32
  ![v57.toNat, 0]

def k23_off15 (i : grid23.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k23_off16 (v66 : BitVec 32) : Fin 2 → Nat :=
  let c0_i32_31 : BitVec 32 := 0#32
  ![v66.toNat, 0]

def k23_chk8 (v66 : BitVec 32) : Prop :=
  (∀ a, (k23_off16 v66) a + S1x64.size a ≤ S100000x64.size a)
instance k23_chk8.dec : ∀ (v66 : BitVec 32), Decidable (k23_chk8 v66) := fun v66 => decidable_of_iff' _ (Iff.of_eq (k23_chk8.eq_1 v66))
theorem k23_off16_inb : ∀ (v66 : BitVec 32) (k23_hw8 : k23_chk8 v66), ∀ a, (k23_off16 v66) a + S1x64.size a ≤ S100000x64.size a := fun v66 k23_hw8 => k23_hw8

def k23_off17 (v3 : BitVec 32) : Fin 2 → Nat :=
  let c0_i32_35 : BitVec 32 := 0#32
  ![v3.toNat, 0]

def k23_chk1 (v3 : BitVec 32) : Prop :=
  (∀ a, (k23_off2 v3) a + S1x64.size a ≤ S100000x64.size a) ∧
  (∀ a, (k23_off17 v3) a + S1x64.size a ≤ S100000x64.size a)
instance k23_chk1.dec : ∀ (v3 : BitVec 32), Decidable (k23_chk1 v3) := fun v3 => decidable_of_iff' _ (Iff.of_eq (k23_chk1.eq_1 v3))
theorem k23_off2_inb : ∀ (v3 : BitVec 32) (k23_hw1 : k23_chk1 v3), ∀ a, (k23_off2 v3) a + S1x64.size a ≤ S100000x64.size a := fun v3 k23_hw1 => k23_hw1.1
theorem k23_off17_inb : ∀ (v3 : BitVec 32) (k23_hw1 : k23_chk1 v3), ∀ a, (k23_off17 v3) a + S1x64.size a ≤ S100000x64.size a := fun v3 k23_hw1 => k23_hw1.2

def k23_off18 (v12 : BitVec 32) : Fin 2 → Nat :=
  let c0_i32_39 : BitVec 32 := 0#32
  ![v12.toNat, 0]

def k23_chk2 (v12 : BitVec 32) : Prop :=
  (∀ a, (k23_off4 v12) a + S1x64.size a ≤ S100000x64.size a) ∧
  (∀ a, (k23_off18 v12) a + S1x64.size a ≤ S100000x64.size a)
instance k23_chk2.dec : ∀ (v12 : BitVec 32), Decidable (k23_chk2 v12) := fun v12 => decidable_of_iff' _ (Iff.of_eq (k23_chk2.eq_1 v12))
theorem k23_off4_inb : ∀ (v12 : BitVec 32) (k23_hw2 : k23_chk2 v12), ∀ a, (k23_off4 v12) a + S1x64.size a ≤ S100000x64.size a := fun v12 k23_hw2 => k23_hw2.1
theorem k23_off18_inb : ∀ (v12 : BitVec 32) (k23_hw2 : k23_chk2 v12), ∀ a, (k23_off18 v12) a + S1x64.size a ≤ S100000x64.size a := fun v12 k23_hw2 => k23_hw2.2

def k23_off19 (v21 : BitVec 32) : Fin 2 → Nat :=
  let c0_i32_43 : BitVec 32 := 0#32
  ![v21.toNat, 0]

def k23_chk3 (v21 : BitVec 32) : Prop :=
  (∀ a, (k23_off6 v21) a + S1x64.size a ≤ S100000x64.size a) ∧
  (∀ a, (k23_off19 v21) a + S1x64.size a ≤ S100000x64.size a)
instance k23_chk3.dec : ∀ (v21 : BitVec 32), Decidable (k23_chk3 v21) := fun v21 => decidable_of_iff' _ (Iff.of_eq (k23_chk3.eq_1 v21))
theorem k23_off6_inb : ∀ (v21 : BitVec 32) (k23_hw3 : k23_chk3 v21), ∀ a, (k23_off6 v21) a + S1x64.size a ≤ S100000x64.size a := fun v21 k23_hw3 => k23_hw3.1
theorem k23_off19_inb : ∀ (v21 : BitVec 32) (k23_hw3 : k23_chk3 v21), ∀ a, (k23_off19 v21) a + S1x64.size a ≤ S100000x64.size a := fun v21 k23_hw3 => k23_hw3.2

def k23_off20 (v30 : BitVec 32) : Fin 2 → Nat :=
  let c0_i32_47 : BitVec 32 := 0#32
  ![v30.toNat, 0]

def k23_chk4 (v30 : BitVec 32) : Prop :=
  (∀ a, (k23_off8 v30) a + S1x64.size a ≤ S100000x64.size a) ∧
  (∀ a, (k23_off20 v30) a + S1x64.size a ≤ S100000x64.size a)
instance k23_chk4.dec : ∀ (v30 : BitVec 32), Decidable (k23_chk4 v30) := fun v30 => decidable_of_iff' _ (Iff.of_eq (k23_chk4.eq_1 v30))
theorem k23_off8_inb : ∀ (v30 : BitVec 32) (k23_hw4 : k23_chk4 v30), ∀ a, (k23_off8 v30) a + S1x64.size a ≤ S100000x64.size a := fun v30 k23_hw4 => k23_hw4.1
theorem k23_off20_inb : ∀ (v30 : BitVec 32) (k23_hw4 : k23_chk4 v30), ∀ a, (k23_off20 v30) a + S1x64.size a ≤ S100000x64.size a := fun v30 k23_hw4 => k23_hw4.2

def k23_off21 (v39 : BitVec 32) : Fin 2 → Nat :=
  let c0_i32_51 : BitVec 32 := 0#32
  ![v39.toNat, 0]

def k23_chk5 (v39 : BitVec 32) : Prop :=
  (∀ a, (k23_off10 v39) a + S1x64.size a ≤ S100000x64.size a) ∧
  (∀ a, (k23_off21 v39) a + S1x64.size a ≤ S100000x64.size a)
instance k23_chk5.dec : ∀ (v39 : BitVec 32), Decidable (k23_chk5 v39) := fun v39 => decidable_of_iff' _ (Iff.of_eq (k23_chk5.eq_1 v39))
theorem k23_off10_inb : ∀ (v39 : BitVec 32) (k23_hw5 : k23_chk5 v39), ∀ a, (k23_off10 v39) a + S1x64.size a ≤ S100000x64.size a := fun v39 k23_hw5 => k23_hw5.1
theorem k23_off21_inb : ∀ (v39 : BitVec 32) (k23_hw5 : k23_chk5 v39), ∀ a, (k23_off21 v39) a + S1x64.size a ≤ S100000x64.size a := fun v39 k23_hw5 => k23_hw5.2

def k23_off22 (v48 : BitVec 32) : Fin 2 → Nat :=
  let c0_i32_55 : BitVec 32 := 0#32
  ![v48.toNat, 0]

def k23_chk6 (v48 : BitVec 32) : Prop :=
  (∀ a, (k23_off12 v48) a + S1x64.size a ≤ S100000x64.size a) ∧
  (∀ a, (k23_off22 v48) a + S1x64.size a ≤ S100000x64.size a)
instance k23_chk6.dec : ∀ (v48 : BitVec 32), Decidable (k23_chk6 v48) := fun v48 => decidable_of_iff' _ (Iff.of_eq (k23_chk6.eq_1 v48))
theorem k23_off12_inb : ∀ (v48 : BitVec 32) (k23_hw6 : k23_chk6 v48), ∀ a, (k23_off12 v48) a + S1x64.size a ≤ S100000x64.size a := fun v48 k23_hw6 => k23_hw6.1
theorem k23_off22_inb : ∀ (v48 : BitVec 32) (k23_hw6 : k23_chk6 v48), ∀ a, (k23_off22 v48) a + S1x64.size a ≤ S100000x64.size a := fun v48 k23_hw6 => k23_hw6.2

def k23_off23 (v57 : BitVec 32) : Fin 2 → Nat :=
  let c0_i32_59 : BitVec 32 := 0#32
  ![v57.toNat, 0]

def k23_chk7 (v57 : BitVec 32) : Prop :=
  (∀ a, (k23_off14 v57) a + S1x64.size a ≤ S100000x64.size a) ∧
  (∀ a, (k23_off23 v57) a + S1x64.size a ≤ S100000x64.size a)
instance k23_chk7.dec : ∀ (v57 : BitVec 32), Decidable (k23_chk7 v57) := fun v57 => decidable_of_iff' _ (Iff.of_eq (k23_chk7.eq_1 v57))
theorem k23_off14_inb : ∀ (v57 : BitVec 32) (k23_hw7 : k23_chk7 v57), ∀ a, (k23_off14 v57) a + S1x64.size a ≤ S100000x64.size a := fun v57 k23_hw7 => k23_hw7.1
theorem k23_off23_inb : ∀ (v57 : BitVec 32) (k23_hw7 : k23_chk7 v57), ∀ a, (k23_off23 v57) a + S1x64.size a ≤ S100000x64.size a := fun v57 k23_hw7 => k23_hw7.2

def cc23_transform_1 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_2 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage23_0 : Fin 2 → Memref sig .tc .vmem S8x1 .f32 := fun | 0 => Memref.whole cc23_stg0_0 | 1 => Memref.whole cc23_stg0_1 | ⟨_ + 2, h⟩ => absurd h (Nat.not_lt.2 (Nat.le_add_left _ _))
abbrev sem23_0 : Fin 2 → DmaSem sig := fun | 0 => cc23_sem0_0 | 1 => cc23_sem0_1 | ⟨_ + 2, h⟩ => absurd h (Nat.not_lt.2 (Nat.le_add_left _ _))
abbrev reads23_0 : Fin grid23.rank → Bool := ![true]

abbrev stage23_1 : Fin 2 → Memref sig .tc .vmem S8x64 .f32 := fun | 0 => Memref.whole cc23_stg1_0 | 1 => Memref.whole cc23_stg1_1 | ⟨_ + 2, h⟩ => absurd h (Nat.not_lt.2 (Nat.le_add_left _ _))
abbrev sem23_1 : Fin 2 → DmaSem sig := fun | 0 => cc23_sem1_0 | 1 => cc23_sem1_1 | ⟨_ + 2, h⟩ => absurd h (Nat.not_lt.2 (Nat.le_add_left _ _))
abbrev reads23_1 : Fin grid23.rank → Bool := ![true]

abbrev grid24 : Pipeline.Grid := ⟨1, ![12500], ![false]⟩

abbrev pre24 : Pipeline.Prefetch sig := ⟨1, ![main_v102.idx], fun | 0 => main_v102.names | ⟨_ + 1, h⟩ => absurd h (Nat.not_lt.2 (Nat.le_add_left _ _)), fun | 0 => rfl | ⟨_ + 1, h⟩ => absurd h (Nat.not_lt.2 (Nat.le_add_left _ _))⟩

def k24_off1 (i : grid24.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k24_off2 (v3 : BitVec 32) : Fin 2 → Nat :=
  let c0_i32_3 : BitVec 32 := 0#32
  ![v3.toNat, 0]

def k24_off3 (i : grid24.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k24_off4 (v12 : BitVec 32) : Fin 2 → Nat :=
  let c0_i32_7 : BitVec 32 := 0#32
  ![v12.toNat, 0]

def k24_off5 (i : grid24.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k24_off6 (v21 : BitVec 32) : Fin 2 → Nat :=
  let c0_i32_11 : BitVec 32 := 0#32
  ![v21.toNat, 0]

def k24_off7 (i : grid24.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k24_off8 (v30 : BitVec 32) : Fin 2 → Nat :=
  let c0_i32_15 : BitVec 32 := 0#32
  ![v30.toNat, 0]

def k24_off9 (i : grid24.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k24_off10 (v39 : BitVec 32) : Fin 2 → Nat :=
  let c0_i32_19 : BitVec 32 := 0#32
  ![v39.toNat, 0]

def k24_off11 (i : grid24.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k24_off12 (v48 : BitVec 32) : Fin 2 → Nat :=
  let c0_i32_23 : BitVec 32 := 0#32
  ![v48.toNat, 0]

def k24_off13 (i : grid24.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k24_off14 (v57 : BitVec 32) : Fin 2 → Nat :=
  let c0_i32_27 : BitVec 32 := 0#32
  ![v57.toNat, 0]

def k24_off15 (i : grid24.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k24_off16 (v66 : BitVec 32) : Fin 2 → Nat :=
  let c0_i32_31 : BitVec 32 := 0#32
  ![v66.toNat, 0]

def k24_chk8 (v66 : BitVec 32) : Prop :=
  (∀ a, (k24_off16 v66) a + S1x64.size a ≤ S100000x64.size a)
instance k24_chk8.dec : ∀ (v66 : BitVec 32), Decidable (k24_chk8 v66) := fun v66 => decidable_of_iff' _ (Iff.of_eq (k24_chk8.eq_1 v66))
theorem k24_off16_inb : ∀ (v66 : BitVec 32) (k24_hw8 : k24_chk8 v66), ∀ a, (k24_off16 v66) a + S1x64.size a ≤ S100000x64.size a := fun v66 k24_hw8 => k24_hw8

def k24_off17 (v3 : BitVec 32) : Fin 2 → Nat :=
  let c0_i32_35 : BitVec 32 := 0#32
  ![v3.toNat, 0]

def k24_chk1 (v3 : BitVec 32) : Prop :=
  (∀ a, (k24_off2 v3) a + S1x64.size a ≤ S100000x64.size a) ∧
  (∀ a, (k24_off17 v3) a + S1x64.size a ≤ S100000x64.size a)
instance k24_chk1.dec : ∀ (v3 : BitVec 32), Decidable (k24_chk1 v3) := fun v3 => decidable_of_iff' _ (Iff.of_eq (k24_chk1.eq_1 v3))
theorem k24_off2_inb : ∀ (v3 : BitVec 32) (k24_hw1 : k24_chk1 v3), ∀ a, (k24_off2 v3) a + S1x64.size a ≤ S100000x64.size a := fun v3 k24_hw1 => k24_hw1.1
theorem k24_off17_inb : ∀ (v3 : BitVec 32) (k24_hw1 : k24_chk1 v3), ∀ a, (k24_off17 v3) a + S1x64.size a ≤ S100000x64.size a := fun v3 k24_hw1 => k24_hw1.2

def k24_off18 (v12 : BitVec 32) : Fin 2 → Nat :=
  let c0_i32_39 : BitVec 32 := 0#32
  ![v12.toNat, 0]

def k24_chk2 (v12 : BitVec 32) : Prop :=
  (∀ a, (k24_off4 v12) a + S1x64.size a ≤ S100000x64.size a) ∧
  (∀ a, (k24_off18 v12) a + S1x64.size a ≤ S100000x64.size a)
instance k24_chk2.dec : ∀ (v12 : BitVec 32), Decidable (k24_chk2 v12) := fun v12 => decidable_of_iff' _ (Iff.of_eq (k24_chk2.eq_1 v12))
theorem k24_off4_inb : ∀ (v12 : BitVec 32) (k24_hw2 : k24_chk2 v12), ∀ a, (k24_off4 v12) a + S1x64.size a ≤ S100000x64.size a := fun v12 k24_hw2 => k24_hw2.1
theorem k24_off18_inb : ∀ (v12 : BitVec 32) (k24_hw2 : k24_chk2 v12), ∀ a, (k24_off18 v12) a + S1x64.size a ≤ S100000x64.size a := fun v12 k24_hw2 => k24_hw2.2

def k24_off19 (v21 : BitVec 32) : Fin 2 → Nat :=
  let c0_i32_43 : BitVec 32 := 0#32
  ![v21.toNat, 0]

def k24_chk3 (v21 : BitVec 32) : Prop :=
  (∀ a, (k24_off6 v21) a + S1x64.size a ≤ S100000x64.size a) ∧
  (∀ a, (k24_off19 v21) a + S1x64.size a ≤ S100000x64.size a)
instance k24_chk3.dec : ∀ (v21 : BitVec 32), Decidable (k24_chk3 v21) := fun v21 => decidable_of_iff' _ (Iff.of_eq (k24_chk3.eq_1 v21))
theorem k24_off6_inb : ∀ (v21 : BitVec 32) (k24_hw3 : k24_chk3 v21), ∀ a, (k24_off6 v21) a + S1x64.size a ≤ S100000x64.size a := fun v21 k24_hw3 => k24_hw3.1
theorem k24_off19_inb : ∀ (v21 : BitVec 32) (k24_hw3 : k24_chk3 v21), ∀ a, (k24_off19 v21) a + S1x64.size a ≤ S100000x64.size a := fun v21 k24_hw3 => k24_hw3.2

def k24_off20 (v30 : BitVec 32) : Fin 2 → Nat :=
  let c0_i32_47 : BitVec 32 := 0#32
  ![v30.toNat, 0]

def k24_chk4 (v30 : BitVec 32) : Prop :=
  (∀ a, (k24_off8 v30) a + S1x64.size a ≤ S100000x64.size a) ∧
  (∀ a, (k24_off20 v30) a + S1x64.size a ≤ S100000x64.size a)
instance k24_chk4.dec : ∀ (v30 : BitVec 32), Decidable (k24_chk4 v30) := fun v30 => decidable_of_iff' _ (Iff.of_eq (k24_chk4.eq_1 v30))
theorem k24_off8_inb : ∀ (v30 : BitVec 32) (k24_hw4 : k24_chk4 v30), ∀ a, (k24_off8 v30) a + S1x64.size a ≤ S100000x64.size a := fun v30 k24_hw4 => k24_hw4.1
theorem k24_off20_inb : ∀ (v30 : BitVec 32) (k24_hw4 : k24_chk4 v30), ∀ a, (k24_off20 v30) a + S1x64.size a ≤ S100000x64.size a := fun v30 k24_hw4 => k24_hw4.2

def k24_off21 (v39 : BitVec 32) : Fin 2 → Nat :=
  let c0_i32_51 : BitVec 32 := 0#32
  ![v39.toNat, 0]

def k24_chk5 (v39 : BitVec 32) : Prop :=
  (∀ a, (k24_off10 v39) a + S1x64.size a ≤ S100000x64.size a) ∧
  (∀ a, (k24_off21 v39) a + S1x64.size a ≤ S100000x64.size a)
instance k24_chk5.dec : ∀ (v39 : BitVec 32), Decidable (k24_chk5 v39) := fun v39 => decidable_of_iff' _ (Iff.of_eq (k24_chk5.eq_1 v39))
theorem k24_off10_inb : ∀ (v39 : BitVec 32) (k24_hw5 : k24_chk5 v39), ∀ a, (k24_off10 v39) a + S1x64.size a ≤ S100000x64.size a := fun v39 k24_hw5 => k24_hw5.1
theorem k24_off21_inb : ∀ (v39 : BitVec 32) (k24_hw5 : k24_chk5 v39), ∀ a, (k24_off21 v39) a + S1x64.size a ≤ S100000x64.size a := fun v39 k24_hw5 => k24_hw5.2

def k24_off22 (v48 : BitVec 32) : Fin 2 → Nat :=
  let c0_i32_55 : BitVec 32 := 0#32
  ![v48.toNat, 0]

def k24_chk6 (v48 : BitVec 32) : Prop :=
  (∀ a, (k24_off12 v48) a + S1x64.size a ≤ S100000x64.size a) ∧
  (∀ a, (k24_off22 v48) a + S1x64.size a ≤ S100000x64.size a)
instance k24_chk6.dec : ∀ (v48 : BitVec 32), Decidable (k24_chk6 v48) := fun v48 => decidable_of_iff' _ (Iff.of_eq (k24_chk6.eq_1 v48))
theorem k24_off12_inb : ∀ (v48 : BitVec 32) (k24_hw6 : k24_chk6 v48), ∀ a, (k24_off12 v48) a + S1x64.size a ≤ S100000x64.size a := fun v48 k24_hw6 => k24_hw6.1
theorem k24_off22_inb : ∀ (v48 : BitVec 32) (k24_hw6 : k24_chk6 v48), ∀ a, (k24_off22 v48) a + S1x64.size a ≤ S100000x64.size a := fun v48 k24_hw6 => k24_hw6.2

def k24_off23 (v57 : BitVec 32) : Fin 2 → Nat :=
  let c0_i32_59 : BitVec 32 := 0#32
  ![v57.toNat, 0]

def k24_chk7 (v57 : BitVec 32) : Prop :=
  (∀ a, (k24_off14 v57) a + S1x64.size a ≤ S100000x64.size a) ∧
  (∀ a, (k24_off23 v57) a + S1x64.size a ≤ S100000x64.size a)
instance k24_chk7.dec : ∀ (v57 : BitVec 32), Decidable (k24_chk7 v57) := fun v57 => decidable_of_iff' _ (Iff.of_eq (k24_chk7.eq_1 v57))
theorem k24_off14_inb : ∀ (v57 : BitVec 32) (k24_hw7 : k24_chk7 v57), ∀ a, (k24_off14 v57) a + S1x64.size a ≤ S100000x64.size a := fun v57 k24_hw7 => k24_hw7.1
theorem k24_off23_inb : ∀ (v57 : BitVec 32) (k24_hw7 : k24_chk7 v57), ∀ a, (k24_off23 v57) a + S1x64.size a ≤ S100000x64.size a := fun v57 k24_hw7 => k24_hw7.2

def cc24_transform_1 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_2 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage24_0 : Fin 2 → Memref sig .tc .vmem S8x1 .f32 := fun | 0 => Memref.whole cc24_stg0_0 | 1 => Memref.whole cc24_stg0_1 | ⟨_ + 2, h⟩ => absurd h (Nat.not_lt.2 (Nat.le_add_left _ _))
abbrev sem24_0 : Fin 2 → DmaSem sig := fun | 0 => cc24_sem0_0 | 1 => cc24_sem0_1 | ⟨_ + 2, h⟩ => absurd h (Nat.not_lt.2 (Nat.le_add_left _ _))
abbrev reads24_0 : Fin grid24.rank → Bool := ![true]

abbrev stage24_1 : Fin 2 → Memref sig .tc .vmem S8x64 .f32 := fun | 0 => Memref.whole cc24_stg1_0 | 1 => Memref.whole cc24_stg1_1 | ⟨_ + 2, h⟩ => absurd h (Nat.not_lt.2 (Nat.le_add_left _ _))
abbrev sem24_1 : Fin 2 → DmaSem sig := fun | 0 => cc24_sem1_0 | 1 => cc24_sem1_1 | ⟨_ + 2, h⟩ => absurd h (Nat.not_lt.2 (Nat.le_add_left _ _))
abbrev reads24_1 : Fin grid24.rank → Bool := ![true]

abbrev grid25 : Pipeline.Grid := ⟨1, ![12500], ![false]⟩

abbrev pre25 : Pipeline.Prefetch sig := ⟨1, ![main_v106.idx], fun | 0 => main_v106.names | ⟨_ + 1, h⟩ => absurd h (Nat.not_lt.2 (Nat.le_add_left _ _)), fun | 0 => rfl | ⟨_ + 1, h⟩ => absurd h (Nat.not_lt.2 (Nat.le_add_left _ _))⟩

def k25_off1 (i : grid25.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k25_off2 (v3 : BitVec 32) : Fin 2 → Nat :=
  let c0_i32_3 : BitVec 32 := 0#32
  ![v3.toNat, 0]

def k25_off3 (i : grid25.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k25_off4 (v12 : BitVec 32) : Fin 2 → Nat :=
  let c0_i32_7 : BitVec 32 := 0#32
  ![v12.toNat, 0]

def k25_off5 (i : grid25.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k25_off6 (v21 : BitVec 32) : Fin 2 → Nat :=
  let c0_i32_11 : BitVec 32 := 0#32
  ![v21.toNat, 0]

def k25_off7 (i : grid25.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k25_off8 (v30 : BitVec 32) : Fin 2 → Nat :=
  let c0_i32_15 : BitVec 32 := 0#32
  ![v30.toNat, 0]

def k25_off9 (i : grid25.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k25_off10 (v39 : BitVec 32) : Fin 2 → Nat :=
  let c0_i32_19 : BitVec 32 := 0#32
  ![v39.toNat, 0]

def k25_off11 (i : grid25.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k25_off12 (v48 : BitVec 32) : Fin 2 → Nat :=
  let c0_i32_23 : BitVec 32 := 0#32
  ![v48.toNat, 0]

def k25_off13 (i : grid25.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k25_off14 (v57 : BitVec 32) : Fin 2 → Nat :=
  let c0_i32_27 : BitVec 32 := 0#32
  ![v57.toNat, 0]

def k25_off15 (i : grid25.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k25_off16 (v66 : BitVec 32) : Fin 2 → Nat :=
  let c0_i32_31 : BitVec 32 := 0#32
  ![v66.toNat, 0]

def k25_chk8 (v66 : BitVec 32) : Prop :=
  (∀ a, (k25_off16 v66) a + S1x64.size a ≤ S100000x64.size a)
instance k25_chk8.dec : ∀ (v66 : BitVec 32), Decidable (k25_chk8 v66) := fun v66 => decidable_of_iff' _ (Iff.of_eq (k25_chk8.eq_1 v66))
theorem k25_off16_inb : ∀ (v66 : BitVec 32) (k25_hw8 : k25_chk8 v66), ∀ a, (k25_off16 v66) a + S1x64.size a ≤ S100000x64.size a := fun v66 k25_hw8 => k25_hw8

def k25_off17 (v3 : BitVec 32) : Fin 2 → Nat :=
  let c0_i32_35 : BitVec 32 := 0#32
  ![v3.toNat, 0]

def k25_chk1 (v3 : BitVec 32) : Prop :=
  (∀ a, (k25_off2 v3) a + S1x64.size a ≤ S100000x64.size a) ∧
  (∀ a, (k25_off17 v3) a + S1x64.size a ≤ S100000x64.size a)
instance k25_chk1.dec : ∀ (v3 : BitVec 32), Decidable (k25_chk1 v3) := fun v3 => decidable_of_iff' _ (Iff.of_eq (k25_chk1.eq_1 v3))
theorem k25_off2_inb : ∀ (v3 : BitVec 32) (k25_hw1 : k25_chk1 v3), ∀ a, (k25_off2 v3) a + S1x64.size a ≤ S100000x64.size a := fun v3 k25_hw1 => k25_hw1.1
theorem k25_off17_inb : ∀ (v3 : BitVec 32) (k25_hw1 : k25_chk1 v3), ∀ a, (k25_off17 v3) a + S1x64.size a ≤ S100000x64.size a := fun v3 k25_hw1 => k25_hw1.2

def k25_off18 (v12 : BitVec 32) : Fin 2 → Nat :=
  let c0_i32_39 : BitVec 32 := 0#32
  ![v12.toNat, 0]

def k25_chk2 (v12 : BitVec 32) : Prop :=
  (∀ a, (k25_off4 v12) a + S1x64.size a ≤ S100000x64.size a) ∧
  (∀ a, (k25_off18 v12) a + S1x64.size a ≤ S100000x64.size a)
instance k25_chk2.dec : ∀ (v12 : BitVec 32), Decidable (k25_chk2 v12) := fun v12 => decidable_of_iff' _ (Iff.of_eq (k25_chk2.eq_1 v12))
theorem k25_off4_inb : ∀ (v12 : BitVec 32) (k25_hw2 : k25_chk2 v12), ∀ a, (k25_off4 v12) a + S1x64.size a ≤ S100000x64.size a := fun v12 k25_hw2 => k25_hw2.1
theorem k25_off18_inb : ∀ (v12 : BitVec 32) (k25_hw2 : k25_chk2 v12), ∀ a, (k25_off18 v12) a + S1x64.size a ≤ S100000x64.size a := fun v12 k25_hw2 => k25_hw2.2

def k25_off19 (v21 : BitVec 32) : Fin 2 → Nat :=
  let c0_i32_43 : BitVec 32 := 0#32
  ![v21.toNat, 0]

def k25_chk3 (v21 : BitVec 32) : Prop :=
  (∀ a, (k25_off6 v21) a + S1x64.size a ≤ S100000x64.size a) ∧
  (∀ a, (k25_off19 v21) a + S1x64.size a ≤ S100000x64.size a)
instance k25_chk3.dec : ∀ (v21 : BitVec 32), Decidable (k25_chk3 v21) := fun v21 => decidable_of_iff' _ (Iff.of_eq (k25_chk3.eq_1 v21))
theorem k25_off6_inb : ∀ (v21 : BitVec 32) (k25_hw3 : k25_chk3 v21), ∀ a, (k25_off6 v21) a + S1x64.size a ≤ S100000x64.size a := fun v21 k25_hw3 => k25_hw3.1
theorem k25_off19_inb : ∀ (v21 : BitVec 32) (k25_hw3 : k25_chk3 v21), ∀ a, (k25_off19 v21) a + S1x64.size a ≤ S100000x64.size a := fun v21 k25_hw3 => k25_hw3.2

def k25_off20 (v30 : BitVec 32) : Fin 2 → Nat :=
  let c0_i32_47 : BitVec 32 := 0#32
  ![v30.toNat, 0]

def k25_chk4 (v30 : BitVec 32) : Prop :=
  (∀ a, (k25_off8 v30) a + S1x64.size a ≤ S100000x64.size a) ∧
  (∀ a, (k25_off20 v30) a + S1x64.size a ≤ S100000x64.size a)
instance k25_chk4.dec : ∀ (v30 : BitVec 32), Decidable (k25_chk4 v30) := fun v30 => decidable_of_iff' _ (Iff.of_eq (k25_chk4.eq_1 v30))
theorem k25_off8_inb : ∀ (v30 : BitVec 32) (k25_hw4 : k25_chk4 v30), ∀ a, (k25_off8 v30) a + S1x64.size a ≤ S100000x64.size a := fun v30 k25_hw4 => k25_hw4.1
theorem k25_off20_inb : ∀ (v30 : BitVec 32) (k25_hw4 : k25_chk4 v30), ∀ a, (k25_off20 v30) a + S1x64.size a ≤ S100000x64.size a := fun v30 k25_hw4 => k25_hw4.2

def k25_off21 (v39 : BitVec 32) : Fin 2 → Nat :=
  let c0_i32_51 : BitVec 32 := 0#32
  ![v39.toNat, 0]

def k25_chk5 (v39 : BitVec 32) : Prop :=
  (∀ a, (k25_off10 v39) a + S1x64.size a ≤ S100000x64.size a) ∧
  (∀ a, (k25_off21 v39) a + S1x64.size a ≤ S100000x64.size a)
instance k25_chk5.dec : ∀ (v39 : BitVec 32), Decidable (k25_chk5 v39) := fun v39 => decidable_of_iff' _ (Iff.of_eq (k25_chk5.eq_1 v39))
theorem k25_off10_inb : ∀ (v39 : BitVec 32) (k25_hw5 : k25_chk5 v39), ∀ a, (k25_off10 v39) a + S1x64.size a ≤ S100000x64.size a := fun v39 k25_hw5 => k25_hw5.1
theorem k25_off21_inb : ∀ (v39 : BitVec 32) (k25_hw5 : k25_chk5 v39), ∀ a, (k25_off21 v39) a + S1x64.size a ≤ S100000x64.size a := fun v39 k25_hw5 => k25_hw5.2

def k25_off22 (v48 : BitVec 32) : Fin 2 → Nat :=
  let c0_i32_55 : BitVec 32 := 0#32
  ![v48.toNat, 0]

def k25_chk6 (v48 : BitVec 32) : Prop :=
  (∀ a, (k25_off12 v48) a + S1x64.size a ≤ S100000x64.size a) ∧
  (∀ a, (k25_off22 v48) a + S1x64.size a ≤ S100000x64.size a)
instance k25_chk6.dec : ∀ (v48 : BitVec 32), Decidable (k25_chk6 v48) := fun v48 => decidable_of_iff' _ (Iff.of_eq (k25_chk6.eq_1 v48))
theorem k25_off12_inb : ∀ (v48 : BitVec 32) (k25_hw6 : k25_chk6 v48), ∀ a, (k25_off12 v48) a + S1x64.size a ≤ S100000x64.size a := fun v48 k25_hw6 => k25_hw6.1
theorem k25_off22_inb : ∀ (v48 : BitVec 32) (k25_hw6 : k25_chk6 v48), ∀ a, (k25_off22 v48) a + S1x64.size a ≤ S100000x64.size a := fun v48 k25_hw6 => k25_hw6.2

def k25_off23 (v57 : BitVec 32) : Fin 2 → Nat :=
  let c0_i32_59 : BitVec 32 := 0#32
  ![v57.toNat, 0]

def k25_chk7 (v57 : BitVec 32) : Prop :=
  (∀ a, (k25_off14 v57) a + S1x64.size a ≤ S100000x64.size a) ∧
  (∀ a, (k25_off23 v57) a + S1x64.size a ≤ S100000x64.size a)
instance k25_chk7.dec : ∀ (v57 : BitVec 32), Decidable (k25_chk7 v57) := fun v57 => decidable_of_iff' _ (Iff.of_eq (k25_chk7.eq_1 v57))
theorem k25_off14_inb : ∀ (v57 : BitVec 32) (k25_hw7 : k25_chk7 v57), ∀ a, (k25_off14 v57) a + S1x64.size a ≤ S100000x64.size a := fun v57 k25_hw7 => k25_hw7.1
theorem k25_off23_inb : ∀ (v57 : BitVec 32) (k25_hw7 : k25_chk7 v57), ∀ a, (k25_off23 v57) a + S1x64.size a ≤ S100000x64.size a := fun v57 k25_hw7 => k25_hw7.2

def cc25_transform_1 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

def cc25_transform_2 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage25_0 : Fin 2 → Memref sig .tc .vmem S8x1 .f32 := fun | 0 => Memref.whole cc25_stg0_0 | 1 => Memref.whole cc25_stg0_1 | ⟨_ + 2, h⟩ => absurd h (Nat.not_lt.2 (Nat.le_add_left _ _))
abbrev sem25_0 : Fin 2 → DmaSem sig := fun | 0 => cc25_sem0_0 | 1 => cc25_sem0_1 | ⟨_ + 2, h⟩ => absurd h (Nat.not_lt.2 (Nat.le_add_left _ _))
abbrev reads25_0 : Fin grid25.rank → Bool := ![true]

abbrev stage25_1 : Fin 2 → Memref sig .tc .vmem S8x64 .f32 := fun | 0 => Memref.whole cc25_stg1_0 | 1 => Memref.whole cc25_stg1_1 | ⟨_ + 2, h⟩ => absurd h (Nat.not_lt.2 (Nat.le_add_left _ _))
abbrev sem25_1 : Fin 2 → DmaSem sig := fun | 0 => cc25_sem1_0 | 1 => cc25_sem1_1 | ⟨_ + 2, h⟩ => absurd h (Nat.not_lt.2 (Nat.le_add_left _ _))
abbrev reads25_1 : Fin grid25.rank → Bool := ![true]

abbrev grid26 : Pipeline.Grid := ⟨1, ![12500], ![false]⟩

abbrev pre26 : Pipeline.Prefetch sig := ⟨1, ![main_v110.idx], fun | 0 => main_v110.names | ⟨_ + 1, h⟩ => absurd h (Nat.not_lt.2 (Nat.le_add_left _ _)), fun | 0 => rfl | ⟨_ + 1, h⟩ => absurd h (Nat.not_lt.2 (Nat.le_add_left _ _))⟩

def k26_off1 (i : grid26.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k26_off2 (v3 : BitVec 32) : Fin 2 → Nat :=
  let c0_i32_3 : BitVec 32 := 0#32
  ![v3.toNat, 0]

def k26_off3 (i : grid26.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k26_off4 (v12 : BitVec 32) : Fin 2 → Nat :=
  let c0_i32_7 : BitVec 32 := 0#32
  ![v12.toNat, 0]

def k26_off5 (i : grid26.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k26_off6 (v21 : BitVec 32) : Fin 2 → Nat :=
  let c0_i32_11 : BitVec 32 := 0#32
  ![v21.toNat, 0]

def k26_off7 (i : grid26.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k26_off8 (v30 : BitVec 32) : Fin 2 → Nat :=
  let c0_i32_15 : BitVec 32 := 0#32
  ![v30.toNat, 0]

def k26_off9 (i : grid26.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k26_off10 (v39 : BitVec 32) : Fin 2 → Nat :=
  let c0_i32_19 : BitVec 32 := 0#32
  ![v39.toNat, 0]

def k26_off11 (i : grid26.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k26_off12 (v48 : BitVec 32) : Fin 2 → Nat :=
  let c0_i32_23 : BitVec 32 := 0#32
  ![v48.toNat, 0]

def k26_off13 (i : grid26.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k26_off14 (v57 : BitVec 32) : Fin 2 → Nat :=
  let c0_i32_27 : BitVec 32 := 0#32
  ![v57.toNat, 0]

def k26_off15 (i : grid26.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k26_off16 (v66 : BitVec 32) : Fin 2 → Nat :=
  let c0_i32_31 : BitVec 32 := 0#32
  ![v66.toNat, 0]

def k26_chk8 (v66 : BitVec 32) : Prop :=
  (∀ a, (k26_off16 v66) a + S1x64.size a ≤ S100000x64.size a)
instance k26_chk8.dec : ∀ (v66 : BitVec 32), Decidable (k26_chk8 v66) := fun v66 => decidable_of_iff' _ (Iff.of_eq (k26_chk8.eq_1 v66))
theorem k26_off16_inb : ∀ (v66 : BitVec 32) (k26_hw8 : k26_chk8 v66), ∀ a, (k26_off16 v66) a + S1x64.size a ≤ S100000x64.size a := fun v66 k26_hw8 => k26_hw8

def k26_off17 (v3 : BitVec 32) : Fin 2 → Nat :=
  let c0_i32_35 : BitVec 32 := 0#32
  ![v3.toNat, 0]

def k26_chk1 (v3 : BitVec 32) : Prop :=
  (∀ a, (k26_off2 v3) a + S1x64.size a ≤ S100000x64.size a) ∧
  (∀ a, (k26_off17 v3) a + S1x64.size a ≤ S100000x64.size a)
instance k26_chk1.dec : ∀ (v3 : BitVec 32), Decidable (k26_chk1 v3) := fun v3 => decidable_of_iff' _ (Iff.of_eq (k26_chk1.eq_1 v3))
theorem k26_off2_inb : ∀ (v3 : BitVec 32) (k26_hw1 : k26_chk1 v3), ∀ a, (k26_off2 v3) a + S1x64.size a ≤ S100000x64.size a := fun v3 k26_hw1 => k26_hw1.1
theorem k26_off17_inb : ∀ (v3 : BitVec 32) (k26_hw1 : k26_chk1 v3), ∀ a, (k26_off17 v3) a + S1x64.size a ≤ S100000x64.size a := fun v3 k26_hw1 => k26_hw1.2

def k26_off18 (v12 : BitVec 32) : Fin 2 → Nat :=
  let c0_i32_39 : BitVec 32 := 0#32
  ![v12.toNat, 0]

def k26_chk2 (v12 : BitVec 32) : Prop :=
  (∀ a, (k26_off4 v12) a + S1x64.size a ≤ S100000x64.size a) ∧
  (∀ a, (k26_off18 v12) a + S1x64.size a ≤ S100000x64.size a)
instance k26_chk2.dec : ∀ (v12 : BitVec 32), Decidable (k26_chk2 v12) := fun v12 => decidable_of_iff' _ (Iff.of_eq (k26_chk2.eq_1 v12))
theorem k26_off4_inb : ∀ (v12 : BitVec 32) (k26_hw2 : k26_chk2 v12), ∀ a, (k26_off4 v12) a + S1x64.size a ≤ S100000x64.size a := fun v12 k26_hw2 => k26_hw2.1
theorem k26_off18_inb : ∀ (v12 : BitVec 32) (k26_hw2 : k26_chk2 v12), ∀ a, (k26_off18 v12) a + S1x64.size a ≤ S100000x64.size a := fun v12 k26_hw2 => k26_hw2.2

def k26_off19 (v21 : BitVec 32) : Fin 2 → Nat :=
  let c0_i32_43 : BitVec 32 := 0#32
  ![v21.toNat, 0]

def k26_chk3 (v21 : BitVec 32) : Prop :=
  (∀ a, (k26_off6 v21) a + S1x64.size a ≤ S100000x64.size a) ∧
  (∀ a, (k26_off19 v21) a + S1x64.size a ≤ S100000x64.size a)
instance k26_chk3.dec : ∀ (v21 : BitVec 32), Decidable (k26_chk3 v21) := fun v21 => decidable_of_iff' _ (Iff.of_eq (k26_chk3.eq_1 v21))
theorem k26_off6_inb : ∀ (v21 : BitVec 32) (k26_hw3 : k26_chk3 v21), ∀ a, (k26_off6 v21) a + S1x64.size a ≤ S100000x64.size a := fun v21 k26_hw3 => k26_hw3.1
theorem k26_off19_inb : ∀ (v21 : BitVec 32) (k26_hw3 : k26_chk3 v21), ∀ a, (k26_off19 v21) a + S1x64.size a ≤ S100000x64.size a := fun v21 k26_hw3 => k26_hw3.2

def k26_off20 (v30 : BitVec 32) : Fin 2 → Nat :=
  let c0_i32_47 : BitVec 32 := 0#32
  ![v30.toNat, 0]

def k26_chk4 (v30 : BitVec 32) : Prop :=
  (∀ a, (k26_off8 v30) a + S1x64.size a ≤ S100000x64.size a) ∧
  (∀ a, (k26_off20 v30) a + S1x64.size a ≤ S100000x64.size a)
instance k26_chk4.dec : ∀ (v30 : BitVec 32), Decidable (k26_chk4 v30) := fun v30 => decidable_of_iff' _ (Iff.of_eq (k26_chk4.eq_1 v30))
theorem k26_off8_inb : ∀ (v30 : BitVec 32) (k26_hw4 : k26_chk4 v30), ∀ a, (k26_off8 v30) a + S1x64.size a ≤ S100000x64.size a := fun v30 k26_hw4 => k26_hw4.1
theorem k26_off20_inb : ∀ (v30 : BitVec 32) (k26_hw4 : k26_chk4 v30), ∀ a, (k26_off20 v30) a + S1x64.size a ≤ S100000x64.size a := fun v30 k26_hw4 => k26_hw4.2

def k26_off21 (v39 : BitVec 32) : Fin 2 → Nat :=
  let c0_i32_51 : BitVec 32 := 0#32
  ![v39.toNat, 0]

def k26_chk5 (v39 : BitVec 32) : Prop :=
  (∀ a, (k26_off10 v39) a + S1x64.size a ≤ S100000x64.size a) ∧
  (∀ a, (k26_off21 v39) a + S1x64.size a ≤ S100000x64.size a)
instance k26_chk5.dec : ∀ (v39 : BitVec 32), Decidable (k26_chk5 v39) := fun v39 => decidable_of_iff' _ (Iff.of_eq (k26_chk5.eq_1 v39))
theorem k26_off10_inb : ∀ (v39 : BitVec 32) (k26_hw5 : k26_chk5 v39), ∀ a, (k26_off10 v39) a + S1x64.size a ≤ S100000x64.size a := fun v39 k26_hw5 => k26_hw5.1
theorem k26_off21_inb : ∀ (v39 : BitVec 32) (k26_hw5 : k26_chk5 v39), ∀ a, (k26_off21 v39) a + S1x64.size a ≤ S100000x64.size a := fun v39 k26_hw5 => k26_hw5.2

def k26_off22 (v48 : BitVec 32) : Fin 2 → Nat :=
  let c0_i32_55 : BitVec 32 := 0#32
  ![v48.toNat, 0]

def k26_chk6 (v48 : BitVec 32) : Prop :=
  (∀ a, (k26_off12 v48) a + S1x64.size a ≤ S100000x64.size a) ∧
  (∀ a, (k26_off22 v48) a + S1x64.size a ≤ S100000x64.size a)
instance k26_chk6.dec : ∀ (v48 : BitVec 32), Decidable (k26_chk6 v48) := fun v48 => decidable_of_iff' _ (Iff.of_eq (k26_chk6.eq_1 v48))
theorem k26_off12_inb : ∀ (v48 : BitVec 32) (k26_hw6 : k26_chk6 v48), ∀ a, (k26_off12 v48) a + S1x64.size a ≤ S100000x64.size a := fun v48 k26_hw6 => k26_hw6.1
theorem k26_off22_inb : ∀ (v48 : BitVec 32) (k26_hw6 : k26_chk6 v48), ∀ a, (k26_off22 v48) a + S1x64.size a ≤ S100000x64.size a := fun v48 k26_hw6 => k26_hw6.2

def k26_off23 (v57 : BitVec 32) : Fin 2 → Nat :=
  let c0_i32_59 : BitVec 32 := 0#32
  ![v57.toNat, 0]

def k26_chk7 (v57 : BitVec 32) : Prop :=
  (∀ a, (k26_off14 v57) a + S1x64.size a ≤ S100000x64.size a) ∧
  (∀ a, (k26_off23 v57) a + S1x64.size a ≤ S100000x64.size a)
instance k26_chk7.dec : ∀ (v57 : BitVec 32), Decidable (k26_chk7 v57) := fun v57 => decidable_of_iff' _ (Iff.of_eq (k26_chk7.eq_1 v57))
theorem k26_off14_inb : ∀ (v57 : BitVec 32) (k26_hw7 : k26_chk7 v57), ∀ a, (k26_off14 v57) a + S1x64.size a ≤ S100000x64.size a := fun v57 k26_hw7 => k26_hw7.1
theorem k26_off23_inb : ∀ (v57 : BitVec 32) (k26_hw7 : k26_chk7 v57), ∀ a, (k26_off23 v57) a + S1x64.size a ≤ S100000x64.size a := fun v57 k26_hw7 => k26_hw7.2

def cc26_transform_1 (i : grid26.Coords) : Fin 2 → Nat :=
  let arg0 : BitVec 32 := BitVec.ofNat 32 (i 0).val
  let c0_i32 : BitVec 32 := 0#32
  let c0_i32_0 : BitVec 32 := 0#32
  ![arg0.toNat, c0_i32.toNat]

def cc26_transform_2 (i : grid26.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage26_0 : Fin 2 → Memref sig .tc .vmem S8x1 .f32 := fun | 0 => Memref.whole cc26_stg0_0 | 1 => Memref.whole cc26_stg0_1 | ⟨_ + 2, h⟩ => absurd h (Nat.not_lt.2 (Nat.le_add_left _ _))
abbrev sem26_0 : Fin 2 → DmaSem sig := fun | 0 => cc26_sem0_0 | 1 => cc26_sem0_1 | ⟨_ + 2, h⟩ => absurd h (Nat.not_lt.2 (Nat.le_add_left _ _))
abbrev reads26_0 : Fin grid26.rank → Bool := ![true]

abbrev stage26_1 : Fin 2 → Memref sig .tc .vmem S8x64 .f32 := fun | 0 => Memref.whole cc26_stg1_0 | 1 => Memref.whole cc26_stg1_1 | ⟨_ + 2, h⟩ => absurd h (Nat.not_lt.2 (Nat.le_add_left _ _))
abbrev sem26_1 : Fin 2 → DmaSem sig := fun | 0 => cc26_sem1_0 | 1 => cc26_sem1_1 | ⟨_ + 2, h⟩ => absurd h (Nat.not_lt.2 (Nat.le_add_left _ _))
abbrev reads26_1 : Fin grid26.rank → Bool := ![true]

abbrev grid27 : Pipeline.Grid := ⟨1, ![12500], ![false]⟩

abbrev pre27 : Pipeline.Prefetch sig := ⟨1, ![main_v114.idx], fun | 0 => main_v114.names | ⟨_ + 1, h⟩ => absurd h (Nat.not_lt.2 (Nat.le_add_left _ _)), fun | 0 => rfl | ⟨_ + 1, h⟩ => absurd h (Nat.not_lt.2 (Nat.le_add_left _ _))⟩

def k27_off1 (i : grid27.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k27_off2 (v3 : BitVec 32) : Fin 2 → Nat :=
  let c0_i32_3 : BitVec 32 := 0#32
  ![v3.toNat, 0]

def k27_off3 (i : grid27.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k27_off4 (v12 : BitVec 32) : Fin 2 → Nat :=
  let c0_i32_7 : BitVec 32 := 0#32
  ![v12.toNat, 0]

def k27_off5 (i : grid27.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k27_off6 (v21 : BitVec 32) : Fin 2 → Nat :=
  let c0_i32_11 : BitVec 32 := 0#32
  ![v21.toNat, 0]

def k27_off7 (i : grid27.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k27_off8 (v30 : BitVec 32) : Fin 2 → Nat :=
  let c0_i32_15 : BitVec 32 := 0#32
  ![v30.toNat, 0]

def k27_off9 (i : grid27.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k27_off10 (v39 : BitVec 32) : Fin 2 → Nat :=
  let c0_i32_19 : BitVec 32 := 0#32
  ![v39.toNat, 0]

def k27_off11 (i : grid27.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k27_off12 (v48 : BitVec 32) : Fin 2 → Nat :=
  let c0_i32_23 : BitVec 32 := 0#32
  ![v48.toNat, 0]

def k27_off13 (i : grid27.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k27_off14 (v57 : BitVec 32) : Fin 2 → Nat :=
  let c0_i32_27 : BitVec 32 := 0#32
  ![v57.toNat, 0]

def k27_off15 (i : grid27.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k27_off16 (v66 : BitVec 32) : Fin 2 → Nat :=
  let c0_i32_31 : BitVec 32 := 0#32
  ![v66.toNat, 0]

def k27_chk8 (v66 : BitVec 32) : Prop :=
  (∀ a, (k27_off16 v66) a + S1x64.size a ≤ S100000x64.size a)
instance k27_chk8.dec : ∀ (v66 : BitVec 32), Decidable (k27_chk8 v66) := fun v66 => decidable_of_iff' _ (Iff.of_eq (k27_chk8.eq_1 v66))
theorem k27_off16_inb : ∀ (v66 : BitVec 32) (k27_hw8 : k27_chk8 v66), ∀ a, (k27_off16 v66) a + S1x64.size a ≤ S100000x64.size a := fun v66 k27_hw8 => k27_hw8

def k27_off17 (v3 : BitVec 32) : Fin 2 → Nat :=
  let c0_i32_35 : BitVec 32 := 0#32
  ![v3.toNat, 0]

def k27_chk1 (v3 : BitVec 32) : Prop :=
  (∀ a, (k27_off2 v3) a + S1x64.size a ≤ S100000x64.size a) ∧
  (∀ a, (k27_off17 v3) a + S1x64.size a ≤ S100000x64.size a)
instance k27_chk1.dec : ∀ (v3 : BitVec 32), Decidable (k27_chk1 v3) := fun v3 => decidable_of_iff' _ (Iff.of_eq (k27_chk1.eq_1 v3))
theorem k27_off2_inb : ∀ (v3 : BitVec 32) (k27_hw1 : k27_chk1 v3), ∀ a, (k27_off2 v3) a + S1x64.size a ≤ S100000x64.size a := fun v3 k27_hw1 => k27_hw1.1
theorem k27_off17_inb : ∀ (v3 : BitVec 32) (k27_hw1 : k27_chk1 v3), ∀ a, (k27_off17 v3) a + S1x64.size a ≤ S100000x64.size a := fun v3 k27_hw1 => k27_hw1.2

def k27_off18 (v12 : BitVec 32) : Fin 2 → Nat :=
  let c0_i32_39 : BitVec 32 := 0#32
  ![v12.toNat, 0]

def k27_chk2 (v12 : BitVec 32) : Prop :=
  (∀ a, (k27_off4 v12) a + S1x64.size a ≤ S100000x64.size a) ∧
  (∀ a, (k27_off18 v12) a + S1x64.size a ≤ S100000x64.size a)
instance k27_chk2.dec : ∀ (v12 : BitVec 32), Decidable (k27_chk2 v12) := fun v12 => decidable_of_iff' _ (Iff.of_eq (k27_chk2.eq_1 v12))
theorem k27_off4_inb : ∀ (v12 : BitVec 32) (k27_hw2 : k27_chk2 v12), ∀ a, (k27_off4 v12) a + S1x64.size a ≤ S100000x64.size a := fun v12 k27_hw2 => k27_hw2.1
theorem k27_off18_inb : ∀ (v12 : BitVec 32) (k27_hw2 : k27_chk2 v12), ∀ a, (k27_off18 v12) a + S1x64.size a ≤ S100000x64.size a := fun v12 k27_hw2 => k27_hw2.2

def k27_off19 (v21 : BitVec 32) : Fin 2 → Nat :=
  let c0_i32_43 : BitVec 32 := 0#32
  ![v21.toNat, 0]

def k27_chk3 (v21 : BitVec 32) : Prop :=
  (∀ a, (k27_off6 v21) a + S1x64.size a ≤ S100000x64.size a) ∧
  (∀ a, (k27_off19 v21) a + S1x64.size a ≤ S100000x64.size a)
instance k27_chk3.dec : ∀ (v21 : BitVec 32), Decidable (k27_chk3 v21) := fun v21 => decidable_of_iff' _ (Iff.of_eq (k27_chk3.eq_1 v21))
theorem k27_off6_inb : ∀ (v21 : BitVec 32) (k27_hw3 : k27_chk3 v21), ∀ a, (k27_off6 v21) a + S1x64.size a ≤ S100000x64.size a := fun v21 k27_hw3 => k27_hw3.1
theorem k27_off19_inb : ∀ (v21 : BitVec 32) (k27_hw3 : k27_chk3 v21), ∀ a, (k27_off19 v21) a + S1x64.size a ≤ S100000x64.size a := fun v21 k27_hw3 => k27_hw3.2

def k27_off20 (v30 : BitVec 32) : Fin 2 → Nat :=
  let c0_i32_47 : BitVec 32 := 0#32
  ![v30.toNat, 0]

def k27_chk4 (v30 : BitVec 32) : Prop :=
  (∀ a, (k27_off8 v30) a + S1x64.size a ≤ S100000x64.size a) ∧
  (∀ a, (k27_off20 v30) a + S1x64.size a ≤ S100000x64.size a)
instance k27_chk4.dec : ∀ (v30 : BitVec 32), Decidable (k27_chk4 v30) := fun v30 => decidable_of_iff' _ (Iff.of_eq (k27_chk4.eq_1 v30))
theorem k27_off8_inb : ∀ (v30 : BitVec 32) (k27_hw4 : k27_chk4 v30), ∀ a, (k27_off8 v30) a + S1x64.size a ≤ S100000x64.size a := fun v30 k27_hw4 => k27_hw4.1
theorem k27_off20_inb : ∀ (v30 : BitVec 32) (k27_hw4 : k27_chk4 v30), ∀ a, (k27_off20 v30) a + S1x64.size a ≤ S100000x64.size a := fun v30 k27_hw4 => k27_hw4.2

def k27_off21 (v39 : BitVec 32) : Fin 2 → Nat :=
  let c0_i32_51 : BitVec 32 := 0#32
  ![v39.toNat, 0]

def k27_chk5 (v39 : BitVec 32) : Prop :=
  (∀ a, (k27_off10 v39) a + S1x64.size a ≤ S100000x64.size a) ∧
  (∀ a, (k27_off21 v39) a + S1x64.size a ≤ S100000x64.size a)
instance k27_chk5.dec : ∀ (v39 : BitVec 32), Decidable (k27_chk5 v39) := fun v39 => decidable_of_iff' _ (Iff.of_eq (k27_chk5.eq_1 v39))
theorem k27_off10_inb : ∀ (v39 : BitVec 32) (k27_hw5 : k27_chk5 v39), ∀ a, (k27_off10 v39) a + S1x64.size a ≤ S100000x64.size a := fun v39 k27_hw5 => k27_hw5.1
theorem k27_off21_inb : ∀ (v39 : BitVec 32) (k27_hw5 : k27_chk5 v39), ∀ a, (k27_off21 v39) a + S1x64.size a ≤ S100000x64.size a := fun v39 k27_hw5 => k27_hw5.2

def k27_off22 (v48 : BitVec 32) : Fin 2 → Nat :=
  let c0_i32_55 : BitVec 32 := 0#32
  ![v48.toNat, 0]

def k27_chk6 (v48 : BitVec 32) : Prop :=
  (∀ a, (k27_off12 v48) a + S1x64.size a ≤ S100000x64.size a) ∧
  (∀ a, (k27_off22 v48) a + S1x64.size a ≤ S100000x64.size a)
instance k27_chk6.dec : ∀ (v48 : BitVec 32), Decidable (k27_chk6 v48) := fun v48 => decidable_of_iff' _ (Iff.of_eq (k27_chk6.eq_1 v48))
theorem k27_off12_inb : ∀ (v48 : BitVec 32) (k27_hw6 : k27_chk6 v48), ∀ a, (k27_off12 v48) a + S1x64.size a ≤ S100000x64.size a := fun v48 k27_hw6 => k27_hw6.1
theorem k27_off22_inb : ∀ (v48 : BitVec 32) (k27_hw6 : k27_chk6 v48), ∀ a, (k27_off22 v48) a + S1x64.size a ≤ S100000x64.size a := fun v48 k27_hw6 => k27_hw6.2

def k27_off23 (v57 : BitVec 32) : Fin 2 → Nat :=
  let c0_i32_59 : BitVec 32 := 0#32
  ![v57.toNat, 0]

def k27_chk7 (v57 : BitVec 32) : Prop :=
  (∀ a, (k27_off14 v57) a + S1x64.size a ≤ S100000x64.size a) ∧
  (∀ a, (k27_off23 v57) a + S1x64.size a ≤ S100000x64.size a)
instance k27_chk7.dec : ∀ (v57 : BitVec 32), Decidable (k27_chk7 v57) := fun v57 => decidable_of_iff' _ (Iff.of_eq (k27_chk7.eq_1 v57))
theorem k27_off14_inb : ∀ (v57 : BitVec 32) (k27_hw7 : k27_chk7 v57), ∀ a, (k27_off14 v57) a + S1x64.size a ≤ S100000x64.size a := fun v57 k27_hw7 => k27_hw7.1
theorem k27_off23_inb : ∀ (v57 : BitVec 32) (k27_hw7 : k27_chk7 v57), ∀ a, (k27_off23 v57) a + S1x64.size a ≤ S100000x64.size a := fun v57 k27_hw7 => k27_hw7.2

def cc27_transform_1 (i : grid27.Coords) : Fin 2 → Nat :=
  let arg0 : BitVec 32 := BitVec.ofNat 32 (i 0).val
  let c0_i32 : BitVec 32 := 0#32
  let c0_i32_0 : BitVec 32 := 0#32
  ![arg0.toNat, c0_i32.toNat]

def cc27_transform_2 (i : grid27.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage27_0 : Fin 2 → Memref sig .tc .vmem S8x1 .f32 := fun | 0 => Memref.whole cc27_stg0_0 | 1 => Memref.whole cc27_stg0_1 | ⟨_ + 2, h⟩ => absurd h (Nat.not_lt.2 (Nat.le_add_left _ _))
abbrev sem27_0 : Fin 2 → DmaSem sig := fun | 0 => cc27_sem0_0 | 1 => cc27_sem0_1 | ⟨_ + 2, h⟩ => absurd h (Nat.not_lt.2 (Nat.le_add_left _ _))
abbrev reads27_0 : Fin grid27.rank → Bool := ![true]

abbrev stage27_1 : Fin 2 → Memref sig .tc .vmem S8x64 .f32 := fun | 0 => Memref.whole cc27_stg1_0 | 1 => Memref.whole cc27_stg1_1 | ⟨_ + 2, h⟩ => absurd h (Nat.not_lt.2 (Nat.le_add_left _ _))
abbrev sem27_1 : Fin 2 → DmaSem sig := fun | 0 => cc27_sem1_0 | 1 => cc27_sem1_1 | ⟨_ + 2, h⟩ => absurd h (Nat.not_lt.2 (Nat.le_add_left _ _))
abbrev reads27_1 : Fin grid27.rank → Bool := ![true]

abbrev grid28 : Pipeline.Grid := ⟨1, ![12500], ![false]⟩

abbrev pre28 : Pipeline.Prefetch sig := ⟨1, ![main_v118.idx], fun | 0 => main_v118.names | ⟨_ + 1, h⟩ => absurd h (Nat.not_lt.2 (Nat.le_add_left _ _)), fun | 0 => rfl | ⟨_ + 1, h⟩ => absurd h (Nat.not_lt.2 (Nat.le_add_left _ _))⟩

def k28_off1 (i : grid28.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k28_off2 (v3 : BitVec 32) : Fin 2 → Nat :=
  let c0_i32_3 : BitVec 32 := 0#32
  ![v3.toNat, 0]

def k28_off3 (i : grid28.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k28_off4 (v12 : BitVec 32) : Fin 2 → Nat :=
  let c0_i32_7 : BitVec 32 := 0#32
  ![v12.toNat, 0]

def k28_off5 (i : grid28.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k28_off6 (v21 : BitVec 32) : Fin 2 → Nat :=
  let c0_i32_11 : BitVec 32 := 0#32
  ![v21.toNat, 0]

def k28_off7 (i : grid28.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k28_off8 (v30 : BitVec 32) : Fin 2 → Nat :=
  let c0_i32_15 : BitVec 32 := 0#32
  ![v30.toNat, 0]

def k28_off9 (i : grid28.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k28_off10 (v39 : BitVec 32) : Fin 2 → Nat :=
  let c0_i32_19 : BitVec 32 := 0#32
  ![v39.toNat, 0]

def k28_off11 (i : grid28.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k28_off12 (v48 : BitVec 32) : Fin 2 → Nat :=
  let c0_i32_23 : BitVec 32 := 0#32
  ![v48.toNat, 0]

def k28_off13 (i : grid28.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k28_off14 (v57 : BitVec 32) : Fin 2 → Nat :=
  let c0_i32_27 : BitVec 32 := 0#32
  ![v57.toNat, 0]

def k28_off15 (i : grid28.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k28_off16 (v66 : BitVec 32) : Fin 2 → Nat :=
  let c0_i32_31 : BitVec 32 := 0#32
  ![v66.toNat, 0]

def k28_chk8 (v66 : BitVec 32) : Prop :=
  (∀ a, (k28_off16 v66) a + S1x64.size a ≤ S100000x64.size a)
instance k28_chk8.dec : ∀ (v66 : BitVec 32), Decidable (k28_chk8 v66) := fun v66 => decidable_of_iff' _ (Iff.of_eq (k28_chk8.eq_1 v66))
theorem k28_off16_inb : ∀ (v66 : BitVec 32) (k28_hw8 : k28_chk8 v66), ∀ a, (k28_off16 v66) a + S1x64.size a ≤ S100000x64.size a := fun v66 k28_hw8 => k28_hw8

def k28_off17 (v3 : BitVec 32) : Fin 2 → Nat :=
  let c0_i32_35 : BitVec 32 := 0#32
  ![v3.toNat, 0]

def k28_chk1 (v3 : BitVec 32) : Prop :=
  (∀ a, (k28_off2 v3) a + S1x64.size a ≤ S100000x64.size a) ∧
  (∀ a, (k28_off17 v3) a + S1x64.size a ≤ S100000x64.size a)
instance k28_chk1.dec : ∀ (v3 : BitVec 32), Decidable (k28_chk1 v3) := fun v3 => decidable_of_iff' _ (Iff.of_eq (k28_chk1.eq_1 v3))
theorem k28_off2_inb : ∀ (v3 : BitVec 32) (k28_hw1 : k28_chk1 v3), ∀ a, (k28_off2 v3) a + S1x64.size a ≤ S100000x64.size a := fun v3 k28_hw1 => k28_hw1.1
theorem k28_off17_inb : ∀ (v3 : BitVec 32) (k28_hw1 : k28_chk1 v3), ∀ a, (k28_off17 v3) a + S1x64.size a ≤ S100000x64.size a := fun v3 k28_hw1 => k28_hw1.2

def k28_off18 (v12 : BitVec 32) : Fin 2 → Nat :=
  let c0_i32_39 : BitVec 32 := 0#32
  ![v12.toNat, 0]

def k28_chk2 (v12 : BitVec 32) : Prop :=
  (∀ a, (k28_off4 v12) a + S1x64.size a ≤ S100000x64.size a) ∧
  (∀ a, (k28_off18 v12) a + S1x64.size a ≤ S100000x64.size a)
instance k28_chk2.dec : ∀ (v12 : BitVec 32), Decidable (k28_chk2 v12) := fun v12 => decidable_of_iff' _ (Iff.of_eq (k28_chk2.eq_1 v12))
theorem k28_off4_inb : ∀ (v12 : BitVec 32) (k28_hw2 : k28_chk2 v12), ∀ a, (k28_off4 v12) a + S1x64.size a ≤ S100000x64.size a := fun v12 k28_hw2 => k28_hw2.1
theorem k28_off18_inb : ∀ (v12 : BitVec 32) (k28_hw2 : k28_chk2 v12), ∀ a, (k28_off18 v12) a + S1x64.size a ≤ S100000x64.size a := fun v12 k28_hw2 => k28_hw2.2

def k28_off19 (v21 : BitVec 32) : Fin 2 → Nat :=
  let c0_i32_43 : BitVec 32 := 0#32
  ![v21.toNat, 0]

def k28_chk3 (v21 : BitVec 32) : Prop :=
  (∀ a, (k28_off6 v21) a + S1x64.size a ≤ S100000x64.size a) ∧
  (∀ a, (k28_off19 v21) a + S1x64.size a ≤ S100000x64.size a)
instance k28_chk3.dec : ∀ (v21 : BitVec 32), Decidable (k28_chk3 v21) := fun v21 => decidable_of_iff' _ (Iff.of_eq (k28_chk3.eq_1 v21))
theorem k28_off6_inb : ∀ (v21 : BitVec 32) (k28_hw3 : k28_chk3 v21), ∀ a, (k28_off6 v21) a + S1x64.size a ≤ S100000x64.size a := fun v21 k28_hw3 => k28_hw3.1
theorem k28_off19_inb : ∀ (v21 : BitVec 32) (k28_hw3 : k28_chk3 v21), ∀ a, (k28_off19 v21) a + S1x64.size a ≤ S100000x64.size a := fun v21 k28_hw3 => k28_hw3.2

def k28_off20 (v30 : BitVec 32) : Fin 2 → Nat :=
  let c0_i32_47 : BitVec 32 := 0#32
  ![v30.toNat, 0]

def k28_chk4 (v30 : BitVec 32) : Prop :=
  (∀ a, (k28_off8 v30) a + S1x64.size a ≤ S100000x64.size a) ∧
  (∀ a, (k28_off20 v30) a + S1x64.size a ≤ S100000x64.size a)
instance k28_chk4.dec : ∀ (v30 : BitVec 32), Decidable (k28_chk4 v30) := fun v30 => decidable_of_iff' _ (Iff.of_eq (k28_chk4.eq_1 v30))
theorem k28_off8_inb : ∀ (v30 : BitVec 32) (k28_hw4 : k28_chk4 v30), ∀ a, (k28_off8 v30) a + S1x64.size a ≤ S100000x64.size a := fun v30 k28_hw4 => k28_hw4.1
theorem k28_off20_inb : ∀ (v30 : BitVec 32) (k28_hw4 : k28_chk4 v30), ∀ a, (k28_off20 v30) a + S1x64.size a ≤ S100000x64.size a := fun v30 k28_hw4 => k28_hw4.2

def k28_off21 (v39 : BitVec 32) : Fin 2 → Nat :=
  let c0_i32_51 : BitVec 32 := 0#32
  ![v39.toNat, 0]

def k28_chk5 (v39 : BitVec 32) : Prop :=
  (∀ a, (k28_off10 v39) a + S1x64.size a ≤ S100000x64.size a) ∧
  (∀ a, (k28_off21 v39) a + S1x64.size a ≤ S100000x64.size a)
instance k28_chk5.dec : ∀ (v39 : BitVec 32), Decidable (k28_chk5 v39) := fun v39 => decidable_of_iff' _ (Iff.of_eq (k28_chk5.eq_1 v39))
theorem k28_off10_inb : ∀ (v39 : BitVec 32) (k28_hw5 : k28_chk5 v39), ∀ a, (k28_off10 v39) a + S1x64.size a ≤ S100000x64.size a := fun v39 k28_hw5 => k28_hw5.1
theorem k28_off21_inb : ∀ (v39 : BitVec 32) (k28_hw5 : k28_chk5 v39), ∀ a, (k28_off21 v39) a + S1x64.size a ≤ S100000x64.size a := fun v39 k28_hw5 => k28_hw5.2

def k28_off22 (v48 : BitVec 32) : Fin 2 → Nat :=
  let c0_i32_55 : BitVec 32 := 0#32
  ![v48.toNat, 0]

def k28_chk6 (v48 : BitVec 32) : Prop :=
  (∀ a, (k28_off12 v48) a + S1x64.size a ≤ S100000x64.size a) ∧
  (∀ a, (k28_off22 v48) a + S1x64.size a ≤ S100000x64.size a)
instance k28_chk6.dec : ∀ (v48 : BitVec 32), Decidable (k28_chk6 v48) := fun v48 => decidable_of_iff' _ (Iff.of_eq (k28_chk6.eq_1 v48))
theorem k28_off12_inb : ∀ (v48 : BitVec 32) (k28_hw6 : k28_chk6 v48), ∀ a, (k28_off12 v48) a + S1x64.size a ≤ S100000x64.size a := fun v48 k28_hw6 => k28_hw6.1
theorem k28_off22_inb : ∀ (v48 : BitVec 32) (k28_hw6 : k28_chk6 v48), ∀ a, (k28_off22 v48) a + S1x64.size a ≤ S100000x64.size a := fun v48 k28_hw6 => k28_hw6.2

def k28_off23 (v57 : BitVec 32) : Fin 2 → Nat :=
  let c0_i32_59 : BitVec 32 := 0#32
  ![v57.toNat, 0]

def k28_chk7 (v57 : BitVec 32) : Prop :=
  (∀ a, (k28_off14 v57) a + S1x64.size a ≤ S100000x64.size a) ∧
  (∀ a, (k28_off23 v57) a + S1x64.size a ≤ S100000x64.size a)
instance k28_chk7.dec : ∀ (v57 : BitVec 32), Decidable (k28_chk7 v57) := fun v57 => decidable_of_iff' _ (Iff.of_eq (k28_chk7.eq_1 v57))
theorem k28_off14_inb : ∀ (v57 : BitVec 32) (k28_hw7 : k28_chk7 v57), ∀ a, (k28_off14 v57) a + S1x64.size a ≤ S100000x64.size a := fun v57 k28_hw7 => k28_hw7.1
theorem k28_off23_inb : ∀ (v57 : BitVec 32) (k28_hw7 : k28_chk7 v57), ∀ a, (k28_off23 v57) a + S1x64.size a ≤ S100000x64.size a := fun v57 k28_hw7 => k28_hw7.2

def cc28_transform_1 (i : grid28.Coords) : Fin 2 → Nat :=
  let arg0 : BitVec 32 := BitVec.ofNat 32 (i 0).val
  let c0_i32 : BitVec 32 := 0#32
  let c0_i32_0 : BitVec 32 := 0#32
  ![arg0.toNat, c0_i32.toNat]

def cc28_transform_2 (i : grid28.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage28_0 : Fin 2 → Memref sig .tc .vmem S8x1 .f32 := fun | 0 => Memref.whole cc28_stg0_0 | 1 => Memref.whole cc28_stg0_1 | ⟨_ + 2, h⟩ => absurd h (Nat.not_lt.2 (Nat.le_add_left _ _))
abbrev sem28_0 : Fin 2 → DmaSem sig := fun | 0 => cc28_sem0_0 | 1 => cc28_sem0_1 | ⟨_ + 2, h⟩ => absurd h (Nat.not_lt.2 (Nat.le_add_left _ _))
abbrev reads28_0 : Fin grid28.rank → Bool := ![true]

abbrev stage28_1 : Fin 2 → Memref sig .tc .vmem S8x64 .f32 := fun | 0 => Memref.whole cc28_stg1_0 | 1 => Memref.whole cc28_stg1_1 | ⟨_ + 2, h⟩ => absurd h (Nat.not_lt.2 (Nat.le_add_left _ _))
abbrev sem28_1 : Fin 2 → DmaSem sig := fun | 0 => cc28_sem1_0 | 1 => cc28_sem1_1 | ⟨_ + 2, h⟩ => absurd h (Nat.not_lt.2 (Nat.le_add_left _ _))
abbrev reads28_1 : Fin grid28.rank → Bool := ![true]

abbrev grid29 : Pipeline.Grid := ⟨1, ![12500], ![false]⟩

abbrev pre29 : Pipeline.Prefetch sig := ⟨1, ![main_v122.idx], fun | 0 => main_v122.names | ⟨_ + 1, h⟩ => absurd h (Nat.not_lt.2 (Nat.le_add_left _ _)), fun | 0 => rfl | ⟨_ + 1, h⟩ => absurd h (Nat.not_lt.2 (Nat.le_add_left _ _))⟩

def k29_off1 (i : grid29.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k29_off2 (v3 : BitVec 32) : Fin 2 → Nat :=
  let c0_i32_3 : BitVec 32 := 0#32
  ![v3.toNat, 0]

def k29_off3 (i : grid29.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k29_off4 (v12 : BitVec 32) : Fin 2 → Nat :=
  let c0_i32_7 : BitVec 32 := 0#32
  ![v12.toNat, 0]

def k29_off5 (i : grid29.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k29_off6 (v21 : BitVec 32) : Fin 2 → Nat :=
  let c0_i32_11 : BitVec 32 := 0#32
  ![v21.toNat, 0]

def k29_off7 (i : grid29.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k29_off8 (v30 : BitVec 32) : Fin 2 → Nat :=
  let c0_i32_15 : BitVec 32 := 0#32
  ![v30.toNat, 0]

def k29_off9 (i : grid29.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k29_off10 (v39 : BitVec 32) : Fin 2 → Nat :=
  let c0_i32_19 : BitVec 32 := 0#32
  ![v39.toNat, 0]

def k29_off11 (i : grid29.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k29_off12 (v48 : BitVec 32) : Fin 2 → Nat :=
  let c0_i32_23 : BitVec 32 := 0#32
  ![v48.toNat, 0]

def k29_off13 (i : grid29.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k29_off14 (v57 : BitVec 32) : Fin 2 → Nat :=
  let c0_i32_27 : BitVec 32 := 0#32
  ![v57.toNat, 0]

def k29_off15 (i : grid29.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k29_off16 (v66 : BitVec 32) : Fin 2 → Nat :=
  let c0_i32_31 : BitVec 32 := 0#32
  ![v66.toNat, 0]

def k29_chk8 (v66 : BitVec 32) : Prop :=
  (∀ a, (k29_off16 v66) a + S1x64.size a ≤ S100000x64.size a)
instance k29_chk8.dec : ∀ (v66 : BitVec 32), Decidable (k29_chk8 v66) := fun v66 => decidable_of_iff' _ (Iff.of_eq (k29_chk8.eq_1 v66))
theorem k29_off16_inb : ∀ (v66 : BitVec 32) (k29_hw8 : k29_chk8 v66), ∀ a, (k29_off16 v66) a + S1x64.size a ≤ S100000x64.size a := fun v66 k29_hw8 => k29_hw8

def k29_off17 (v3 : BitVec 32) : Fin 2 → Nat :=
  let c0_i32_35 : BitVec 32 := 0#32
  ![v3.toNat, 0]

def k29_chk1 (v3 : BitVec 32) : Prop :=
  (∀ a, (k29_off2 v3) a + S1x64.size a ≤ S100000x64.size a) ∧
  (∀ a, (k29_off17 v3) a + S1x64.size a ≤ S100000x64.size a)
instance k29_chk1.dec : ∀ (v3 : BitVec 32), Decidable (k29_chk1 v3) := fun v3 => decidable_of_iff' _ (Iff.of_eq (k29_chk1.eq_1 v3))
theorem k29_off2_inb : ∀ (v3 : BitVec 32) (k29_hw1 : k29_chk1 v3), ∀ a, (k29_off2 v3) a + S1x64.size a ≤ S100000x64.size a := fun v3 k29_hw1 => k29_hw1.1
theorem k29_off17_inb : ∀ (v3 : BitVec 32) (k29_hw1 : k29_chk1 v3), ∀ a, (k29_off17 v3) a + S1x64.size a ≤ S100000x64.size a := fun v3 k29_hw1 => k29_hw1.2

def k29_off18 (v12 : BitVec 32) : Fin 2 → Nat :=
  let c0_i32_39 : BitVec 32 := 0#32
  ![v12.toNat, 0]

def k29_chk2 (v12 : BitVec 32) : Prop :=
  (∀ a, (k29_off4 v12) a + S1x64.size a ≤ S100000x64.size a) ∧
  (∀ a, (k29_off18 v12) a + S1x64.size a ≤ S100000x64.size a)
instance k29_chk2.dec : ∀ (v12 : BitVec 32), Decidable (k29_chk2 v12) := fun v12 => decidable_of_iff' _ (Iff.of_eq (k29_chk2.eq_1 v12))
theorem k29_off4_inb : ∀ (v12 : BitVec 32) (k29_hw2 : k29_chk2 v12), ∀ a, (k29_off4 v12) a + S1x64.size a ≤ S100000x64.size a := fun v12 k29_hw2 => k29_hw2.1
theorem k29_off18_inb : ∀ (v12 : BitVec 32) (k29_hw2 : k29_chk2 v12), ∀ a, (k29_off18 v12) a + S1x64.size a ≤ S100000x64.size a := fun v12 k29_hw2 => k29_hw2.2

def k29_off19 (v21 : BitVec 32) : Fin 2 → Nat :=
  let c0_i32_43 : BitVec 32 := 0#32
  ![v21.toNat, 0]

def k29_chk3 (v21 : BitVec 32) : Prop :=
  (∀ a, (k29_off6 v21) a + S1x64.size a ≤ S100000x64.size a) ∧
  (∀ a, (k29_off19 v21) a + S1x64.size a ≤ S100000x64.size a)
instance k29_chk3.dec : ∀ (v21 : BitVec 32), Decidable (k29_chk3 v21) := fun v21 => decidable_of_iff' _ (Iff.of_eq (k29_chk3.eq_1 v21))
theorem k29_off6_inb : ∀ (v21 : BitVec 32) (k29_hw3 : k29_chk3 v21), ∀ a, (k29_off6 v21) a + S1x64.size a ≤ S100000x64.size a := fun v21 k29_hw3 => k29_hw3.1
theorem k29_off19_inb : ∀ (v21 : BitVec 32) (k29_hw3 : k29_chk3 v21), ∀ a, (k29_off19 v21) a + S1x64.size a ≤ S100000x64.size a := fun v21 k29_hw3 => k29_hw3.2

def k29_off20 (v30 : BitVec 32) : Fin 2 → Nat :=
  let c0_i32_47 : BitVec 32 := 0#32
  ![v30.toNat, 0]

def k29_chk4 (v30 : BitVec 32) : Prop :=
  (∀ a, (k29_off8 v30) a + S1x64.size a ≤ S100000x64.size a) ∧
  (∀ a, (k29_off20 v30) a + S1x64.size a ≤ S100000x64.size a)
instance k29_chk4.dec : ∀ (v30 : BitVec 32), Decidable (k29_chk4 v30) := fun v30 => decidable_of_iff' _ (Iff.of_eq (k29_chk4.eq_1 v30))
theorem k29_off8_inb : ∀ (v30 : BitVec 32) (k29_hw4 : k29_chk4 v30), ∀ a, (k29_off8 v30) a + S1x64.size a ≤ S100000x64.size a := fun v30 k29_hw4 => k29_hw4.1
theorem k29_off20_inb : ∀ (v30 : BitVec 32) (k29_hw4 : k29_chk4 v30), ∀ a, (k29_off20 v30) a + S1x64.size a ≤ S100000x64.size a := fun v30 k29_hw4 => k29_hw4.2

def k29_off21 (v39 : BitVec 32) : Fin 2 → Nat :=
  let c0_i32_51 : BitVec 32 := 0#32
  ![v39.toNat, 0]

def k29_chk5 (v39 : BitVec 32) : Prop :=
  (∀ a, (k29_off10 v39) a + S1x64.size a ≤ S100000x64.size a) ∧
  (∀ a, (k29_off21 v39) a + S1x64.size a ≤ S100000x64.size a)
instance k29_chk5.dec : ∀ (v39 : BitVec 32), Decidable (k29_chk5 v39) := fun v39 => decidable_of_iff' _ (Iff.of_eq (k29_chk5.eq_1 v39))
theorem k29_off10_inb : ∀ (v39 : BitVec 32) (k29_hw5 : k29_chk5 v39), ∀ a, (k29_off10 v39) a + S1x64.size a ≤ S100000x64.size a := fun v39 k29_hw5 => k29_hw5.1
theorem k29_off21_inb : ∀ (v39 : BitVec 32) (k29_hw5 : k29_chk5 v39), ∀ a, (k29_off21 v39) a + S1x64.size a ≤ S100000x64.size a := fun v39 k29_hw5 => k29_hw5.2

def k29_off22 (v48 : BitVec 32) : Fin 2 → Nat :=
  let c0_i32_55 : BitVec 32 := 0#32
  ![v48.toNat, 0]

def k29_chk6 (v48 : BitVec 32) : Prop :=
  (∀ a, (k29_off12 v48) a + S1x64.size a ≤ S100000x64.size a) ∧
  (∀ a, (k29_off22 v48) a + S1x64.size a ≤ S100000x64.size a)
instance k29_chk6.dec : ∀ (v48 : BitVec 32), Decidable (k29_chk6 v48) := fun v48 => decidable_of_iff' _ (Iff.of_eq (k29_chk6.eq_1 v48))
theorem k29_off12_inb : ∀ (v48 : BitVec 32) (k29_hw6 : k29_chk6 v48), ∀ a, (k29_off12 v48) a + S1x64.size a ≤ S100000x64.size a := fun v48 k29_hw6 => k29_hw6.1
theorem k29_off22_inb : ∀ (v48 : BitVec 32) (k29_hw6 : k29_chk6 v48), ∀ a, (k29_off22 v48) a + S1x64.size a ≤ S100000x64.size a := fun v48 k29_hw6 => k29_hw6.2

def k29_off23 (v57 : BitVec 32) : Fin 2 → Nat :=
  let c0_i32_59 : BitVec 32 := 0#32
  ![v57.toNat, 0]

def k29_chk7 (v57 : BitVec 32) : Prop :=
  (∀ a, (k29_off14 v57) a + S1x64.size a ≤ S100000x64.size a) ∧
  (∀ a, (k29_off23 v57) a + S1x64.size a ≤ S100000x64.size a)
instance k29_chk7.dec : ∀ (v57 : BitVec 32), Decidable (k29_chk7 v57) := fun v57 => decidable_of_iff' _ (Iff.of_eq (k29_chk7.eq_1 v57))
theorem k29_off14_inb : ∀ (v57 : BitVec 32) (k29_hw7 : k29_chk7 v57), ∀ a, (k29_off14 v57) a + S1x64.size a ≤ S100000x64.size a := fun v57 k29_hw7 => k29_hw7.1
theorem k29_off23_inb : ∀ (v57 : BitVec 32) (k29_hw7 : k29_chk7 v57), ∀ a, (k29_off23 v57) a + S1x64.size a ≤ S100000x64.size a := fun v57 k29_hw7 => k29_hw7.2

def cc29_transform_1 (i : grid29.Coords) : Fin 2 → Nat :=
  let arg0 : BitVec 32 := BitVec.ofNat 32 (i 0).val
  let c0_i32 : BitVec 32 := 0#32
  let c0_i32_0 : BitVec 32 := 0#32
  ![arg0.toNat, c0_i32.toNat]

def cc29_transform_2 (i : grid29.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage29_0 : Fin 2 → Memref sig .tc .vmem S8x1 .f32 := fun | 0 => Memref.whole cc29_stg0_0 | 1 => Memref.whole cc29_stg0_1 | ⟨_ + 2, h⟩ => absurd h (Nat.not_lt.2 (Nat.le_add_left _ _))
abbrev sem29_0 : Fin 2 → DmaSem sig := fun | 0 => cc29_sem0_0 | 1 => cc29_sem0_1 | ⟨_ + 2, h⟩ => absurd h (Nat.not_lt.2 (Nat.le_add_left _ _))
abbrev reads29_0 : Fin grid29.rank → Bool := ![true]

abbrev stage29_1 : Fin 2 → Memref sig .tc .vmem S8x64 .f32 := fun | 0 => Memref.whole cc29_stg1_0 | 1 => Memref.whole cc29_stg1_1 | ⟨_ + 2, h⟩ => absurd h (Nat.not_lt.2 (Nat.le_add_left _ _))
abbrev sem29_1 : Fin 2 → DmaSem sig := fun | 0 => cc29_sem1_0 | 1 => cc29_sem1_1 | ⟨_ + 2, h⟩ => absurd h (Nat.not_lt.2 (Nat.le_add_left _ _))
abbrev reads29_1 : Fin grid29.rank → Bool := ![true]

abbrev grid30 : Pipeline.Grid := ⟨1, ![12500], ![false]⟩

abbrev pre30 : Pipeline.Prefetch sig := ⟨1, ![main_v126.idx], fun | 0 => main_v126.names | ⟨_ + 1, h⟩ => absurd h (Nat.not_lt.2 (Nat.le_add_left _ _)), fun | 0 => rfl | ⟨_ + 1, h⟩ => absurd h (Nat.not_lt.2 (Nat.le_add_left _ _))⟩

def k30_off1 (i : grid30.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k30_off2 (v3 : BitVec 32) : Fin 2 → Nat :=
  let c0_i32_3 : BitVec 32 := 0#32
  ![v3.toNat, 0]

def k30_off3 (i : grid30.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k30_off4 (v12 : BitVec 32) : Fin 2 → Nat :=
  let c0_i32_7 : BitVec 32 := 0#32
  ![v12.toNat, 0]

def k30_off5 (i : grid30.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k30_off6 (v21 : BitVec 32) : Fin 2 → Nat :=
  let c0_i32_11 : BitVec 32 := 0#32
  ![v21.toNat, 0]

def k30_off7 (i : grid30.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k30_off8 (v30 : BitVec 32) : Fin 2 → Nat :=
  let c0_i32_15 : BitVec 32 := 0#32
  ![v30.toNat, 0]

def k30_off9 (i : grid30.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k30_off10 (v39 : BitVec 32) : Fin 2 → Nat :=
  let c0_i32_19 : BitVec 32 := 0#32
  ![v39.toNat, 0]

def k30_off11 (i : grid30.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k30_off12 (v48 : BitVec 32) : Fin 2 → Nat :=
  let c0_i32_23 : BitVec 32 := 0#32
  ![v48.toNat, 0]

def k30_off13 (i : grid30.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k30_off14 (v57 : BitVec 32) : Fin 2 → Nat :=
  let c0_i32_27 : BitVec 32 := 0#32
  ![v57.toNat, 0]

def k30_off15 (i : grid30.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k30_off16 (v66 : BitVec 32) : Fin 2 → Nat :=
  let c0_i32_31 : BitVec 32 := 0#32
  ![v66.toNat, 0]

def k30_chk8 (v66 : BitVec 32) : Prop :=
  (∀ a, (k30_off16 v66) a + S1x64.size a ≤ S100000x64.size a)
instance k30_chk8.dec : ∀ (v66 : BitVec 32), Decidable (k30_chk8 v66) := fun v66 => decidable_of_iff' _ (Iff.of_eq (k30_chk8.eq_1 v66))
theorem k30_off16_inb : ∀ (v66 : BitVec 32) (k30_hw8 : k30_chk8 v66), ∀ a, (k30_off16 v66) a + S1x64.size a ≤ S100000x64.size a := fun v66 k30_hw8 => k30_hw8

def k30_off17 (v3 : BitVec 32) : Fin 2 → Nat :=
  let c0_i32_35 : BitVec 32 := 0#32
  ![v3.toNat, 0]

def k30_chk1 (v3 : BitVec 32) : Prop :=
  (∀ a, (k30_off2 v3) a + S1x64.size a ≤ S100000x64.size a) ∧
  (∀ a, (k30_off17 v3) a + S1x64.size a ≤ S100000x64.size a)
instance k30_chk1.dec : ∀ (v3 : BitVec 32), Decidable (k30_chk1 v3) := fun v3 => decidable_of_iff' _ (Iff.of_eq (k30_chk1.eq_1 v3))
theorem k30_off2_inb : ∀ (v3 : BitVec 32) (k30_hw1 : k30_chk1 v3), ∀ a, (k30_off2 v3) a + S1x64.size a ≤ S100000x64.size a := fun v3 k30_hw1 => k30_hw1.1
theorem k30_off17_inb : ∀ (v3 : BitVec 32) (k30_hw1 : k30_chk1 v3), ∀ a, (k30_off17 v3) a + S1x64.size a ≤ S100000x64.size a := fun v3 k30_hw1 => k30_hw1.2

def k30_off18 (v12 : BitVec 32) : Fin 2 → Nat :=
  let c0_i32_39 : BitVec 32 := 0#32
  ![v12.toNat, 0]

def k30_chk2 (v12 : BitVec 32) : Prop :=
  (∀ a, (k30_off4 v12) a + S1x64.size a ≤ S100000x64.size a) ∧
  (∀ a, (k30_off18 v12) a + S1x64.size a ≤ S100000x64.size a)
instance k30_chk2.dec : ∀ (v12 : BitVec 32), Decidable (k30_chk2 v12) := fun v12 => decidable_of_iff' _ (Iff.of_eq (k30_chk2.eq_1 v12))
theorem k30_off4_inb : ∀ (v12 : BitVec 32) (k30_hw2 : k30_chk2 v12), ∀ a, (k30_off4 v12) a + S1x64.size a ≤ S100000x64.size a := fun v12 k30_hw2 => k30_hw2.1
theorem k30_off18_inb : ∀ (v12 : BitVec 32) (k30_hw2 : k30_chk2 v12), ∀ a, (k30_off18 v12) a + S1x64.size a ≤ S100000x64.size a := fun v12 k30_hw2 => k30_hw2.2

def k30_off19 (v21 : BitVec 32) : Fin 2 → Nat :=
  let c0_i32_43 : BitVec 32 := 0#32
  ![v21.toNat, 0]

def k30_chk3 (v21 : BitVec 32) : Prop :=
  (∀ a, (k30_off6 v21) a + S1x64.size a ≤ S100000x64.size a) ∧
  (∀ a, (k30_off19 v21) a + S1x64.size a ≤ S100000x64.size a)
instance k30_chk3.dec : ∀ (v21 : BitVec 32), Decidable (k30_chk3 v21) := fun v21 => decidable_of_iff' _ (Iff.of_eq (k30_chk3.eq_1 v21))
theorem k30_off6_inb : ∀ (v21 : BitVec 32) (k30_hw3 : k30_chk3 v21), ∀ a, (k30_off6 v21) a + S1x64.size a ≤ S100000x64.size a := fun v21 k30_hw3 => k30_hw3.1
theorem k30_off19_inb : ∀ (v21 : BitVec 32) (k30_hw3 : k30_chk3 v21), ∀ a, (k30_off19 v21) a + S1x64.size a ≤ S100000x64.size a := fun v21 k30_hw3 => k30_hw3.2

def k30_off20 (v30 : BitVec 32) : Fin 2 → Nat :=
  let c0_i32_47 : BitVec 32 := 0#32
  ![v30.toNat, 0]

def k30_chk4 (v30 : BitVec 32) : Prop :=
  (∀ a, (k30_off8 v30) a + S1x64.size a ≤ S100000x64.size a) ∧
  (∀ a, (k30_off20 v30) a + S1x64.size a ≤ S100000x64.size a)
instance k30_chk4.dec : ∀ (v30 : BitVec 32), Decidable (k30_chk4 v30) := fun v30 => decidable_of_iff' _ (Iff.of_eq (k30_chk4.eq_1 v30))
theorem k30_off8_inb : ∀ (v30 : BitVec 32) (k30_hw4 : k30_chk4 v30), ∀ a, (k30_off8 v30) a + S1x64.size a ≤ S100000x64.size a := fun v30 k30_hw4 => k30_hw4.1
theorem k30_off20_inb : ∀ (v30 : BitVec 32) (k30_hw4 : k30_chk4 v30), ∀ a, (k30_off20 v30) a + S1x64.size a ≤ S100000x64.size a := fun v30 k30_hw4 => k30_hw4.2

def k30_off21 (v39 : BitVec 32) : Fin 2 → Nat :=
  let c0_i32_51 : BitVec 32 := 0#32
  ![v39.toNat, 0]

def k30_chk5 (v39 : BitVec 32) : Prop :=
  (∀ a, (k30_off10 v39) a + S1x64.size a ≤ S100000x64.size a) ∧
  (∀ a, (k30_off21 v39) a + S1x64.size a ≤ S100000x64.size a)
instance k30_chk5.dec : ∀ (v39 : BitVec 32), Decidable (k30_chk5 v39) := fun v39 => decidable_of_iff' _ (Iff.of_eq (k30_chk5.eq_1 v39))
theorem k30_off10_inb : ∀ (v39 : BitVec 32) (k30_hw5 : k30_chk5 v39), ∀ a, (k30_off10 v39) a + S1x64.size a ≤ S100000x64.size a := fun v39 k30_hw5 => k30_hw5.1
theorem k30_off21_inb : ∀ (v39 : BitVec 32) (k30_hw5 : k30_chk5 v39), ∀ a, (k30_off21 v39) a + S1x64.size a ≤ S100000x64.size a := fun v39 k30_hw5 => k30_hw5.2

def k30_off22 (v48 : BitVec 32) : Fin 2 → Nat :=
  let c0_i32_55 : BitVec 32 := 0#32
  ![v48.toNat, 0]

def k30_chk6 (v48 : BitVec 32) : Prop :=
  (∀ a, (k30_off12 v48) a + S1x64.size a ≤ S100000x64.size a) ∧
  (∀ a, (k30_off22 v48) a + S1x64.size a ≤ S100000x64.size a)
instance k30_chk6.dec : ∀ (v48 : BitVec 32), Decidable (k30_chk6 v48) := fun v48 => decidable_of_iff' _ (Iff.of_eq (k30_chk6.eq_1 v48))
theorem k30_off12_inb : ∀ (v48 : BitVec 32) (k30_hw6 : k30_chk6 v48), ∀ a, (k30_off12 v48) a + S1x64.size a ≤ S100000x64.size a := fun v48 k30_hw6 => k30_hw6.1
theorem k30_off22_inb : ∀ (v48 : BitVec 32) (k30_hw6 : k30_chk6 v48), ∀ a, (k30_off22 v48) a + S1x64.size a ≤ S100000x64.size a := fun v48 k30_hw6 => k30_hw6.2

def k30_off23 (v57 : BitVec 32) : Fin 2 → Nat :=
  let c0_i32_59 : BitVec 32 := 0#32
  ![v57.toNat, 0]

def k30_chk7 (v57 : BitVec 32) : Prop :=
  (∀ a, (k30_off14 v57) a + S1x64.size a ≤ S100000x64.size a) ∧
  (∀ a, (k30_off23 v57) a + S1x64.size a ≤ S100000x64.size a)
instance k30_chk7.dec : ∀ (v57 : BitVec 32), Decidable (k30_chk7 v57) := fun v57 => decidable_of_iff' _ (Iff.of_eq (k30_chk7.eq_1 v57))
theorem k30_off14_inb : ∀ (v57 : BitVec 32) (k30_hw7 : k30_chk7 v57), ∀ a, (k30_off14 v57) a + S1x64.size a ≤ S100000x64.size a := fun v57 k30_hw7 => k30_hw7.1
theorem k30_off23_inb : ∀ (v57 : BitVec 32) (k30_hw7 : k30_chk7 v57), ∀ a, (k30_off23 v57) a + S1x64.size a ≤ S100000x64.size a := fun v57 k30_hw7 => k30_hw7.2

def cc30_transform_1 (i : grid30.Coords) : Fin 2 → Nat :=
  let arg0 : BitVec 32 := BitVec.ofNat 32 (i 0).val
  let c0_i32 : BitVec 32 := 0#32
  let c0_i32_0 : BitVec 32 := 0#32
  ![arg0.toNat, c0_i32.toNat]

def cc30_transform_2 (i : grid30.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage30_0 : Fin 2 → Memref sig .tc .vmem S8x1 .f32 := fun | 0 => Memref.whole cc30_stg0_0 | 1 => Memref.whole cc30_stg0_1 | ⟨_ + 2, h⟩ => absurd h (Nat.not_lt.2 (Nat.le_add_left _ _))
abbrev sem30_0 : Fin 2 → DmaSem sig := fun | 0 => cc30_sem0_0 | 1 => cc30_sem0_1 | ⟨_ + 2, h⟩ => absurd h (Nat.not_lt.2 (Nat.le_add_left _ _))
abbrev reads30_0 : Fin grid30.rank → Bool := ![true]

abbrev stage30_1 : Fin 2 → Memref sig .tc .vmem S8x64 .f32 := fun | 0 => Memref.whole cc30_stg1_0 | 1 => Memref.whole cc30_stg1_1 | ⟨_ + 2, h⟩ => absurd h (Nat.not_lt.2 (Nat.le_add_left _ _))
abbrev sem30_1 : Fin 2 → DmaSem sig := fun | 0 => cc30_sem1_0 | 1 => cc30_sem1_1 | ⟨_ + 2, h⟩ => absurd h (Nat.not_lt.2 (Nat.le_add_left _ _))
abbrev reads30_1 : Fin grid30.rank → Bool := ![true]

abbrev grid31 : Pipeline.Grid := ⟨1, ![12500], ![false]⟩

abbrev pre31 : Pipeline.Prefetch sig := ⟨1, ![main_v130.idx], fun | 0 => main_v130.names | ⟨_ + 1, h⟩ => absurd h (Nat.not_lt.2 (Nat.le_add_left _ _)), fun | 0 => rfl | ⟨_ + 1, h⟩ => absurd h (Nat.not_lt.2 (Nat.le_add_left _ _))⟩

def k31_off1 (i : grid31.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k31_off2 (v3 : BitVec 32) : Fin 2 → Nat :=
  let c0_i32_3 : BitVec 32 := 0#32
  ![v3.toNat, 0]

def k31_off3 (i : grid31.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k31_off4 (v12 : BitVec 32) : Fin 2 → Nat :=
  let c0_i32_7 : BitVec 32 := 0#32
  ![v12.toNat, 0]

def k31_off5 (i : grid31.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k31_off6 (v21 : BitVec 32) : Fin 2 → Nat :=
  let c0_i32_11 : BitVec 32 := 0#32
  ![v21.toNat, 0]

def k31_off7 (i : grid31.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k31_off8 (v30 : BitVec 32) : Fin 2 → Nat :=
  let c0_i32_15 : BitVec 32 := 0#32
  ![v30.toNat, 0]

def k31_off9 (i : grid31.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k31_off10 (v39 : BitVec 32) : Fin 2 → Nat :=
  let c0_i32_19 : BitVec 32 := 0#32
  ![v39.toNat, 0]

def k31_off11 (i : grid31.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k31_off12 (v48 : BitVec 32) : Fin 2 → Nat :=
  let c0_i32_23 : BitVec 32 := 0#32
  ![v48.toNat, 0]

def k31_off13 (i : grid31.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k31_off14 (v57 : BitVec 32) : Fin 2 → Nat :=
  let c0_i32_27 : BitVec 32 := 0#32
  ![v57.toNat, 0]

def k31_off15 (i : grid31.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k31_off16 (v66 : BitVec 32) : Fin 2 → Nat :=
  let c0_i32_31 : BitVec 32 := 0#32
  ![v66.toNat, 0]

def k31_chk8 (v66 : BitVec 32) : Prop :=
  (∀ a, (k31_off16 v66) a + S1x64.size a ≤ S100000x64.size a)
instance k31_chk8.dec : ∀ (v66 : BitVec 32), Decidable (k31_chk8 v66) := fun v66 => decidable_of_iff' _ (Iff.of_eq (k31_chk8.eq_1 v66))
theorem k31_off16_inb : ∀ (v66 : BitVec 32) (k31_hw8 : k31_chk8 v66), ∀ a, (k31_off16 v66) a + S1x64.size a ≤ S100000x64.size a := fun v66 k31_hw8 => k31_hw8

def k31_off17 (v3 : BitVec 32) : Fin 2 → Nat :=
  let c0_i32_35 : BitVec 32 := 0#32
  ![v3.toNat, 0]

def k31_chk1 (v3 : BitVec 32) : Prop :=
  (∀ a, (k31_off2 v3) a + S1x64.size a ≤ S100000x64.size a) ∧
  (∀ a, (k31_off17 v3) a + S1x64.size a ≤ S100000x64.size a)
instance k31_chk1.dec : ∀ (v3 : BitVec 32), Decidable (k31_chk1 v3) := fun v3 => decidable_of_iff' _ (Iff.of_eq (k31_chk1.eq_1 v3))
theorem k31_off2_inb : ∀ (v3 : BitVec 32) (k31_hw1 : k31_chk1 v3), ∀ a, (k31_off2 v3) a + S1x64.size a ≤ S100000x64.size a := fun v3 k31_hw1 => k31_hw1.1
theorem k31_off17_inb : ∀ (v3 : BitVec 32) (k31_hw1 : k31_chk1 v3), ∀ a, (k31_off17 v3) a + S1x64.size a ≤ S100000x64.size a := fun v3 k31_hw1 => k31_hw1.2

def k31_off18 (v12 : BitVec 32) : Fin 2 → Nat :=
  let c0_i32_39 : BitVec 32 := 0#32
  ![v12.toNat, 0]

def k31_chk2 (v12 : BitVec 32) : Prop :=
  (∀ a, (k31_off4 v12) a + S1x64.size a ≤ S100000x64.size a) ∧
  (∀ a, (k31_off18 v12) a + S1x64.size a ≤ S100000x64.size a)
instance k31_chk2.dec : ∀ (v12 : BitVec 32), Decidable (k31_chk2 v12) := fun v12 => decidable_of_iff' _ (Iff.of_eq (k31_chk2.eq_1 v12))
theorem k31_off4_inb : ∀ (v12 : BitVec 32) (k31_hw2 : k31_chk2 v12), ∀ a, (k31_off4 v12) a + S1x64.size a ≤ S100000x64.size a := fun v12 k31_hw2 => k31_hw2.1
theorem k31_off18_inb : ∀ (v12 : BitVec 32) (k31_hw2 : k31_chk2 v12), ∀ a, (k31_off18 v12) a + S1x64.size a ≤ S100000x64.size a := fun v12 k31_hw2 => k31_hw2.2

def k31_off19 (v21 : BitVec 32) : Fin 2 → Nat :=
  let c0_i32_43 : BitVec 32 := 0#32
  ![v21.toNat, 0]

def k31_chk3 (v21 : BitVec 32) : Prop :=
  (∀ a, (k31_off6 v21) a + S1x64.size a ≤ S100000x64.size a) ∧
  (∀ a, (k31_off19 v21) a + S1x64.size a ≤ S100000x64.size a)
instance k31_chk3.dec : ∀ (v21 : BitVec 32), Decidable (k31_chk3 v21) := fun v21 => decidable_of_iff' _ (Iff.of_eq (k31_chk3.eq_1 v21))
theorem k31_off6_inb : ∀ (v21 : BitVec 32) (k31_hw3 : k31_chk3 v21), ∀ a, (k31_off6 v21) a + S1x64.size a ≤ S100000x64.size a := fun v21 k31_hw3 => k31_hw3.1
theorem k31_off19_inb : ∀ (v21 : BitVec 32) (k31_hw3 : k31_chk3 v21), ∀ a, (k31_off19 v21) a + S1x64.size a ≤ S100000x64.size a := fun v21 k31_hw3 => k31_hw3.2

def k31_off20 (v30 : BitVec 32) : Fin 2 → Nat :=
  let c0_i32_47 : BitVec 32 := 0#32
  ![v30.toNat, 0]

def k31_chk4 (v30 : BitVec 32) : Prop :=
  (∀ a, (k31_off8 v30) a + S1x64.size a ≤ S100000x64.size a) ∧
  (∀ a, (k31_off20 v30) a + S1x64.size a ≤ S100000x64.size a)
instance k31_chk4.dec : ∀ (v30 : BitVec 32), Decidable (k31_chk4 v30) := fun v30 => decidable_of_iff' _ (Iff.of_eq (k31_chk4.eq_1 v30))
theorem k31_off8_inb : ∀ (v30 : BitVec 32) (k31_hw4 : k31_chk4 v30), ∀ a, (k31_off8 v30) a + S1x64.size a ≤ S100000x64.size a := fun v30 k31_hw4 => k31_hw4.1
theorem k31_off20_inb : ∀ (v30 : BitVec 32) (k31_hw4 : k31_chk4 v30), ∀ a, (k31_off20 v30) a + S1x64.size a ≤ S100000x64.size a := fun v30 k31_hw4 => k31_hw4.2

def k31_off21 (v39 : BitVec 32) : Fin 2 → Nat :=
  let c0_i32_51 : BitVec 32 := 0#32
  ![v39.toNat, 0]

def k31_chk5 (v39 : BitVec 32) : Prop :=
  (∀ a, (k31_off10 v39) a + S1x64.size a ≤ S100000x64.size a) ∧
  (∀ a, (k31_off21 v39) a + S1x64.size a ≤ S100000x64.size a)
instance k31_chk5.dec : ∀ (v39 : BitVec 32), Decidable (k31_chk5 v39) := fun v39 => decidable_of_iff' _ (Iff.of_eq (k31_chk5.eq_1 v39))
theorem k31_off10_inb : ∀ (v39 : BitVec 32) (k31_hw5 : k31_chk5 v39), ∀ a, (k31_off10 v39) a + S1x64.size a ≤ S100000x64.size a := fun v39 k31_hw5 => k31_hw5.1
theorem k31_off21_inb : ∀ (v39 : BitVec 32) (k31_hw5 : k31_chk5 v39), ∀ a, (k31_off21 v39) a + S1x64.size a ≤ S100000x64.size a := fun v39 k31_hw5 => k31_hw5.2

def k31_off22 (v48 : BitVec 32) : Fin 2 → Nat :=
  let c0_i32_55 : BitVec 32 := 0#32
  ![v48.toNat, 0]

def k31_chk6 (v48 : BitVec 32) : Prop :=
  (∀ a, (k31_off12 v48) a + S1x64.size a ≤ S100000x64.size a) ∧
  (∀ a, (k31_off22 v48) a + S1x64.size a ≤ S100000x64.size a)
instance k31_chk6.dec : ∀ (v48 : BitVec 32), Decidable (k31_chk6 v48) := fun v48 => decidable_of_iff' _ (Iff.of_eq (k31_chk6.eq_1 v48))
theorem k31_off12_inb : ∀ (v48 : BitVec 32) (k31_hw6 : k31_chk6 v48), ∀ a, (k31_off12 v48) a + S1x64.size a ≤ S100000x64.size a := fun v48 k31_hw6 => k31_hw6.1
theorem k31_off22_inb : ∀ (v48 : BitVec 32) (k31_hw6 : k31_chk6 v48), ∀ a, (k31_off22 v48) a + S1x64.size a ≤ S100000x64.size a := fun v48 k31_hw6 => k31_hw6.2

def k31_off23 (v57 : BitVec 32) : Fin 2 → Nat :=
  let c0_i32_59 : BitVec 32 := 0#32
  ![v57.toNat, 0]

def k31_chk7 (v57 : BitVec 32) : Prop :=
  (∀ a, (k31_off14 v57) a + S1x64.size a ≤ S100000x64.size a) ∧
  (∀ a, (k31_off23 v57) a + S1x64.size a ≤ S100000x64.size a)
instance k31_chk7.dec : ∀ (v57 : BitVec 32), Decidable (k31_chk7 v57) := fun v57 => decidable_of_iff' _ (Iff.of_eq (k31_chk7.eq_1 v57))
theorem k31_off14_inb : ∀ (v57 : BitVec 32) (k31_hw7 : k31_chk7 v57), ∀ a, (k31_off14 v57) a + S1x64.size a ≤ S100000x64.size a := fun v57 k31_hw7 => k31_hw7.1
theorem k31_off23_inb : ∀ (v57 : BitVec 32) (k31_hw7 : k31_chk7 v57), ∀ a, (k31_off23 v57) a + S1x64.size a ≤ S100000x64.size a := fun v57 k31_hw7 => k31_hw7.2

def cc31_transform_1 (i : grid31.Coords) : Fin 2 → Nat :=
  let arg0 : BitVec 32 := BitVec.ofNat 32 (i 0).val
  let c0_i32 : BitVec 32 := 0#32
  let c0_i32_0 : BitVec 32 := 0#32
  ![arg0.toNat, c0_i32.toNat]

def cc31_transform_2 (i : grid31.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage31_0 : Fin 2 → Memref sig .tc .vmem S8x1 .f32 := fun | 0 => Memref.whole cc31_stg0_0 | 1 => Memref.whole cc31_stg0_1 | ⟨_ + 2, h⟩ => absurd h (Nat.not_lt.2 (Nat.le_add_left _ _))
abbrev sem31_0 : Fin 2 → DmaSem sig := fun | 0 => cc31_sem0_0 | 1 => cc31_sem0_1 | ⟨_ + 2, h⟩ => absurd h (Nat.not_lt.2 (Nat.le_add_left _ _))
abbrev reads31_0 : Fin grid31.rank → Bool := ![true]

abbrev stage31_1 : Fin 2 → Memref sig .tc .vmem S8x64 .f32 := fun | 0 => Memref.whole cc31_stg1_0 | 1 => Memref.whole cc31_stg1_1 | ⟨_ + 2, h⟩ => absurd h (Nat.not_lt.2 (Nat.le_add_left _ _))
abbrev sem31_1 : Fin 2 → DmaSem sig := fun | 0 => cc31_sem1_0 | 1 => cc31_sem1_1 | ⟨_ + 2, h⟩ => absurd h (Nat.not_lt.2 (Nat.le_add_left _ _))
abbrev reads31_1 : Fin grid31.rank → Bool := ![true]

abbrev grid32 : Pipeline.Grid := ⟨1, ![12500], ![false]⟩

abbrev pre32 : Pipeline.Prefetch sig := ⟨1, ![main_v134.idx], fun | 0 => main_v134.names | ⟨_ + 1, h⟩ => absurd h (Nat.not_lt.2 (Nat.le_add_left _ _)), fun | 0 => rfl | ⟨_ + 1, h⟩ => absurd h (Nat.not_lt.2 (Nat.le_add_left _ _))⟩

def k32_off1 (i : grid32.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k32_off2 (v3 : BitVec 32) : Fin 2 → Nat :=
  let c0_i32_3 : BitVec 32 := 0#32
  ![v3.toNat, 0]

def k32_off3 (i : grid32.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k32_off4 (v12 : BitVec 32) : Fin 2 → Nat :=
  let c0_i32_7 : BitVec 32 := 0#32
  ![v12.toNat, 0]

def k32_off5 (i : grid32.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k32_off6 (v21 : BitVec 32) : Fin 2 → Nat :=
  let c0_i32_11 : BitVec 32 := 0#32
  ![v21.toNat, 0]

def k32_off7 (i : grid32.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k32_off8 (v30 : BitVec 32) : Fin 2 → Nat :=
  let c0_i32_15 : BitVec 32 := 0#32
  ![v30.toNat, 0]

def k32_off9 (i : grid32.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k32_off10 (v39 : BitVec 32) : Fin 2 → Nat :=
  let c0_i32_19 : BitVec 32 := 0#32
  ![v39.toNat, 0]

def k32_off11 (i : grid32.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k32_off12 (v48 : BitVec 32) : Fin 2 → Nat :=
  let c0_i32_23 : BitVec 32 := 0#32
  ![v48.toNat, 0]

def k32_off13 (i : grid32.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k32_off14 (v57 : BitVec 32) : Fin 2 → Nat :=
  let c0_i32_27 : BitVec 32 := 0#32
  ![v57.toNat, 0]

def k32_off15 (i : grid32.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k32_off16 (v66 : BitVec 32) : Fin 2 → Nat :=
  let c0_i32_31 : BitVec 32 := 0#32
  ![v66.toNat, 0]

def k32_chk8 (v66 : BitVec 32) : Prop :=
  (∀ a, (k32_off16 v66) a + S1x64.size a ≤ S100000x64.size a)
instance k32_chk8.dec : ∀ (v66 : BitVec 32), Decidable (k32_chk8 v66) := fun v66 => decidable_of_iff' _ (Iff.of_eq (k32_chk8.eq_1 v66))
theorem k32_off16_inb : ∀ (v66 : BitVec 32) (k32_hw8 : k32_chk8 v66), ∀ a, (k32_off16 v66) a + S1x64.size a ≤ S100000x64.size a := fun v66 k32_hw8 => k32_hw8

def k32_off17 (v3 : BitVec 32) : Fin 2 → Nat :=
  let c0_i32_35 : BitVec 32 := 0#32
  ![v3.toNat, 0]

def k32_chk1 (v3 : BitVec 32) : Prop :=
  (∀ a, (k32_off2 v3) a + S1x64.size a ≤ S100000x64.size a) ∧
  (∀ a, (k32_off17 v3) a + S1x64.size a ≤ S100000x64.size a)
instance k32_chk1.dec : ∀ (v3 : BitVec 32), Decidable (k32_chk1 v3) := fun v3 => decidable_of_iff' _ (Iff.of_eq (k32_chk1.eq_1 v3))
theorem k32_off2_inb : ∀ (v3 : BitVec 32) (k32_hw1 : k32_chk1 v3), ∀ a, (k32_off2 v3) a + S1x64.size a ≤ S100000x64.size a := fun v3 k32_hw1 => k32_hw1.1
theorem k32_off17_inb : ∀ (v3 : BitVec 32) (k32_hw1 : k32_chk1 v3), ∀ a, (k32_off17 v3) a + S1x64.size a ≤ S100000x64.size a := fun v3 k32_hw1 => k32_hw1.2

def k32_off18 (v12 : BitVec 32) : Fin 2 → Nat :=
  let c0_i32_39 : BitVec 32 := 0#32
  ![v12.toNat, 0]

def k32_chk2 (v12 : BitVec 32) : Prop :=
  (∀ a, (k32_off4 v12) a + S1x64.size a ≤ S100000x64.size a) ∧
  (∀ a, (k32_off18 v12) a + S1x64.size a ≤ S100000x64.size a)
instance k32_chk2.dec : ∀ (v12 : BitVec 32), Decidable (k32_chk2 v12) := fun v12 => decidable_of_iff' _ (Iff.of_eq (k32_chk2.eq_1 v12))
theorem k32_off4_inb : ∀ (v12 : BitVec 32) (k32_hw2 : k32_chk2 v12), ∀ a, (k32_off4 v12) a + S1x64.size a ≤ S100000x64.size a := fun v12 k32_hw2 => k32_hw2.1
theorem k32_off18_inb : ∀ (v12 : BitVec 32) (k32_hw2 : k32_chk2 v12), ∀ a, (k32_off18 v12) a + S1x64.size a ≤ S100000x64.size a := fun v12 k32_hw2 => k32_hw2.2

def k32_off19 (v21 : BitVec 32) : Fin 2 → Nat :=
  let c0_i32_43 : BitVec 32 := 0#32
  ![v21.toNat, 0]

def k32_chk3 (v21 : BitVec 32) : Prop :=
  (∀ a, (k32_off6 v21) a + S1x64.size a ≤ S100000x64.size a) ∧
  (∀ a, (k32_off19 v21) a + S1x64.size a ≤ S100000x64.size a)
instance k32_chk3.dec : ∀ (v21 : BitVec 32), Decidable (k32_chk3 v21) := fun v21 => decidable_of_iff' _ (Iff.of_eq (k32_chk3.eq_1 v21))
theorem k32_off6_inb : ∀ (v21 : BitVec 32) (k32_hw3 : k32_chk3 v21), ∀ a, (k32_off6 v21) a + S1x64.size a ≤ S100000x64.size a := fun v21 k32_hw3 => k32_hw3.1
theorem k32_off19_inb : ∀ (v21 : BitVec 32) (k32_hw3 : k32_chk3 v21), ∀ a, (k32_off19 v21) a + S1x64.size a ≤ S100000x64.size a := fun v21 k32_hw3 => k32_hw3.2

def k32_off20 (v30 : BitVec 32) : Fin 2 → Nat :=
  let c0_i32_47 : BitVec 32 := 0#32
  ![v30.toNat, 0]

def k32_chk4 (v30 : BitVec 32) : Prop :=
  (∀ a, (k32_off8 v30) a + S1x64.size a ≤ S100000x64.size a) ∧
  (∀ a, (k32_off20 v30) a + S1x64.size a ≤ S100000x64.size a)
instance k32_chk4.dec : ∀ (v30 : BitVec 32), Decidable (k32_chk4 v30) := fun v30 => decidable_of_iff' _ (Iff.of_eq (k32_chk4.eq_1 v30))
theorem k32_off8_inb : ∀ (v30 : BitVec 32) (k32_hw4 : k32_chk4 v30), ∀ a, (k32_off8 v30) a + S1x64.size a ≤ S100000x64.size a := fun v30 k32_hw4 => k32_hw4.1
theorem k32_off20_inb : ∀ (v30 : BitVec 32) (k32_hw4 : k32_chk4 v30), ∀ a, (k32_off20 v30) a + S1x64.size a ≤ S100000x64.size a := fun v30 k32_hw4 => k32_hw4.2

def k32_off21 (v39 : BitVec 32) : Fin 2 → Nat :=
  let c0_i32_51 : BitVec 32 := 0#32
  ![v39.toNat, 0]

def k32_chk5 (v39 : BitVec 32) : Prop :=
  (∀ a, (k32_off10 v39) a + S1x64.size a ≤ S100000x64.size a) ∧
  (∀ a, (k32_off21 v39) a + S1x64.size a ≤ S100000x64.size a)
instance k32_chk5.dec : ∀ (v39 : BitVec 32), Decidable (k32_chk5 v39) := fun v39 => decidable_of_iff' _ (Iff.of_eq (k32_chk5.eq_1 v39))
theorem k32_off10_inb : ∀ (v39 : BitVec 32) (k32_hw5 : k32_chk5 v39), ∀ a, (k32_off10 v39) a + S1x64.size a ≤ S100000x64.size a := fun v39 k32_hw5 => k32_hw5.1
theorem k32_off21_inb : ∀ (v39 : BitVec 32) (k32_hw5 : k32_chk5 v39), ∀ a, (k32_off21 v39) a + S1x64.size a ≤ S100000x64.size a := fun v39 k32_hw5 => k32_hw5.2

def k32_off22 (v48 : BitVec 32) : Fin 2 → Nat :=
  let c0_i32_55 : BitVec 32 := 0#32
  ![v48.toNat, 0]

def k32_chk6 (v48 : BitVec 32) : Prop :=
  (∀ a, (k32_off12 v48) a + S1x64.size a ≤ S100000x64.size a) ∧
  (∀ a, (k32_off22 v48) a + S1x64.size a ≤ S100000x64.size a)
instance k32_chk6.dec : ∀ (v48 : BitVec 32), Decidable (k32_chk6 v48) := fun v48 => decidable_of_iff' _ (Iff.of_eq (k32_chk6.eq_1 v48))
theorem k32_off12_inb : ∀ (v48 : BitVec 32) (k32_hw6 : k32_chk6 v48), ∀ a, (k32_off12 v48) a + S1x64.size a ≤ S100000x64.size a := fun v48 k32_hw6 => k32_hw6.1
theorem k32_off22_inb : ∀ (v48 : BitVec 32) (k32_hw6 : k32_chk6 v48), ∀ a, (k32_off22 v48) a + S1x64.size a ≤ S100000x64.size a := fun v48 k32_hw6 => k32_hw6.2

def k32_off23 (v57 : BitVec 32) : Fin 2 → Nat :=
  let c0_i32_59 : BitVec 32 := 0#32
  ![v57.toNat, 0]

def k32_chk7 (v57 : BitVec 32) : Prop :=
  (∀ a, (k32_off14 v57) a + S1x64.size a ≤ S100000x64.size a) ∧
  (∀ a, (k32_off23 v57) a + S1x64.size a ≤ S100000x64.size a)
instance k32_chk7.dec : ∀ (v57 : BitVec 32), Decidable (k32_chk7 v57) := fun v57 => decidable_of_iff' _ (Iff.of_eq (k32_chk7.eq_1 v57))
theorem k32_off14_inb : ∀ (v57 : BitVec 32) (k32_hw7 : k32_chk7 v57), ∀ a, (k32_off14 v57) a + S1x64.size a ≤ S100000x64.size a := fun v57 k32_hw7 => k32_hw7.1
theorem k32_off23_inb : ∀ (v57 : BitVec 32) (k32_hw7 : k32_chk7 v57), ∀ a, (k32_off23 v57) a + S1x64.size a ≤ S100000x64.size a := fun v57 k32_hw7 => k32_hw7.2

def cc32_transform_1 (i : grid32.Coords) : Fin 2 → Nat :=
  let arg0 : BitVec 32 := BitVec.ofNat 32 (i 0).val
  let c0_i32 : BitVec 32 := 0#32
  let c0_i32_0 : BitVec 32 := 0#32
  ![arg0.toNat, c0_i32.toNat]

def cc32_transform_2 (i : grid32.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage32_0 : Fin 2 → Memref sig .tc .vmem S8x1 .f32 := fun | 0 => Memref.whole cc32_stg0_0 | 1 => Memref.whole cc32_stg0_1 | ⟨_ + 2, h⟩ => absurd h (Nat.not_lt.2 (Nat.le_add_left _ _))
abbrev sem32_0 : Fin 2 → DmaSem sig := fun | 0 => cc32_sem0_0 | 1 => cc32_sem0_1 | ⟨_ + 2, h⟩ => absurd h (Nat.not_lt.2 (Nat.le_add_left _ _))
abbrev reads32_0 : Fin grid32.rank → Bool := ![true]

abbrev stage32_1 : Fin 2 → Memref sig .tc .vmem S8x64 .f32 := fun | 0 => Memref.whole cc32_stg1_0 | 1 => Memref.whole cc32_stg1_1 | ⟨_ + 2, h⟩ => absurd h (Nat.not_lt.2 (Nat.le_add_left _ _))
abbrev sem32_1 : Fin 2 → DmaSem sig := fun | 0 => cc32_sem1_0 | 1 => cc32_sem1_1 | ⟨_ + 2, h⟩ => absurd h (Nat.not_lt.2 (Nat.le_add_left _ _))
abbrev reads32_1 : Fin grid32.rank → Bool := ![true]

abbrev grid33 : Pipeline.Grid := ⟨1, ![12500], ![false]⟩

abbrev pre33 : Pipeline.Prefetch sig := ⟨1, ![main_v143.idx], fun | 0 => main_v143.names | ⟨_ + 1, h⟩ => absurd h (Nat.not_lt.2 (Nat.le_add_left _ _)), fun | 0 => rfl | ⟨_ + 1, h⟩ => absurd h (Nat.not_lt.2 (Nat.le_add_left _ _))⟩

def k33_off1 (i : grid33.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k33_off2 (v3 : BitVec 32) : Fin 2 → Nat :=
  let c0_i32_3 : BitVec 32 := 0#32
  ![v3.toNat, 0]

def k33_off3 (i : grid33.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k33_off4 (v12 : BitVec 32) : Fin 2 → Nat :=
  let c0_i32_7 : BitVec 32 := 0#32
  ![v12.toNat, 0]

def k33_off5 (i : grid33.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k33_off6 (v21 : BitVec 32) : Fin 2 → Nat :=
  let c0_i32_11 : BitVec 32 := 0#32
  ![v21.toNat, 0]

def k33_off7 (i : grid33.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k33_off8 (v30 : BitVec 32) : Fin 2 → Nat :=
  let c0_i32_15 : BitVec 32 := 0#32
  ![v30.toNat, 0]

def k33_off9 (i : grid33.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k33_off10 (v39 : BitVec 32) : Fin 2 → Nat :=
  let c0_i32_19 : BitVec 32 := 0#32
  ![v39.toNat, 0]

def k33_off11 (i : grid33.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k33_off12 (v48 : BitVec 32) : Fin 2 → Nat :=
  let c0_i32_23 : BitVec 32 := 0#32
  ![v48.toNat, 0]

def k33_off13 (i : grid33.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k33_off14 (v57 : BitVec 32) : Fin 2 → Nat :=
  let c0_i32_27 : BitVec 32 := 0#32
  ![v57.toNat, 0]

def k33_off15 (i : grid33.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k33_off16 (v66 : BitVec 32) : Fin 2 → Nat :=
  let c0_i32_31 : BitVec 32 := 0#32
  ![v66.toNat, 0]

def k33_chk8 (v66 : BitVec 32) : Prop :=
  (∀ a, (k33_off16 v66) a + S1x64.size a ≤ S100000x64.size a)
instance k33_chk8.dec : ∀ (v66 : BitVec 32), Decidable (k33_chk8 v66) := fun v66 => decidable_of_iff' _ (Iff.of_eq (k33_chk8.eq_1 v66))
theorem k33_off16_inb : ∀ (v66 : BitVec 32) (k33_hw8 : k33_chk8 v66), ∀ a, (k33_off16 v66) a + S1x64.size a ≤ S100000x64.size a := fun v66 k33_hw8 => k33_hw8

def k33_off17 (v3 : BitVec 32) : Fin 2 → Nat :=
  let c0_i32_35 : BitVec 32 := 0#32
  ![v3.toNat, 0]

def k33_chk1 (v3 : BitVec 32) : Prop :=
  (∀ a, (k33_off2 v3) a + S1x64.size a ≤ S100000x64.size a) ∧
  (∀ a, (k33_off17 v3) a + S1x64.size a ≤ S100000x64.size a)
instance k33_chk1.dec : ∀ (v3 : BitVec 32), Decidable (k33_chk1 v3) := fun v3 => decidable_of_iff' _ (Iff.of_eq (k33_chk1.eq_1 v3))
theorem k33_off2_inb : ∀ (v3 : BitVec 32) (k33_hw1 : k33_chk1 v3), ∀ a, (k33_off2 v3) a + S1x64.size a ≤ S100000x64.size a := fun v3 k33_hw1 => k33_hw1.1
theorem k33_off17_inb : ∀ (v3 : BitVec 32) (k33_hw1 : k33_chk1 v3), ∀ a, (k33_off17 v3) a + S1x64.size a ≤ S100000x64.size a := fun v3 k33_hw1 => k33_hw1.2

def k33_off18 (v12 : BitVec 32) : Fin 2 → Nat :=
  let c0_i32_39 : BitVec 32 := 0#32
  ![v12.toNat, 0]

def k33_chk2 (v12 : BitVec 32) : Prop :=
  (∀ a, (k33_off4 v12) a + S1x64.size a ≤ S100000x64.size a) ∧
  (∀ a, (k33_off18 v12) a + S1x64.size a ≤ S100000x64.size a)
instance k33_chk2.dec : ∀ (v12 : BitVec 32), Decidable (k33_chk2 v12) := fun v12 => decidable_of_iff' _ (Iff.of_eq (k33_chk2.eq_1 v12))
theorem k33_off4_inb : ∀ (v12 : BitVec 32) (k33_hw2 : k33_chk2 v12), ∀ a, (k33_off4 v12) a + S1x64.size a ≤ S100000x64.size a := fun v12 k33_hw2 => k33_hw2.1
theorem k33_off18_inb : ∀ (v12 : BitVec 32) (k33_hw2 : k33_chk2 v12), ∀ a, (k33_off18 v12) a + S1x64.size a ≤ S100000x64.size a := fun v12 k33_hw2 => k33_hw2.2

def k33_off19 (v21 : BitVec 32) : Fin 2 → Nat :=
  let c0_i32_43 : BitVec 32 := 0#32
  ![v21.toNat, 0]

def k33_chk3 (v21 : BitVec 32) : Prop :=
  (∀ a, (k33_off6 v21) a + S1x64.size a ≤ S100000x64.size a) ∧
  (∀ a, (k33_off19 v21) a + S1x64.size a ≤ S100000x64.size a)
instance k33_chk3.dec : ∀ (v21 : BitVec 32), Decidable (k33_chk3 v21) := fun v21 => decidable_of_iff' _ (Iff.of_eq (k33_chk3.eq_1 v21))
theorem k33_off6_inb : ∀ (v21 : BitVec 32) (k33_hw3 : k33_chk3 v21), ∀ a, (k33_off6 v21) a + S1x64.size a ≤ S100000x64.size a := fun v21 k33_hw3 => k33_hw3.1
theorem k33_off19_inb : ∀ (v21 : BitVec 32) (k33_hw3 : k33_chk3 v21), ∀ a, (k33_off19 v21) a + S1x64.size a ≤ S100000x64.size a := fun v21 k33_hw3 => k33_hw3.2

def k33_off20 (v30 : BitVec 32) : Fin 2 → Nat :=
  let c0_i32_47 : BitVec 32 := 0#32
  ![v30.toNat, 0]

def k33_chk4 (v30 : BitVec 32) : Prop :=
  (∀ a, (k33_off8 v30) a + S1x64.size a ≤ S100000x64.size a) ∧
  (∀ a, (k33_off20 v30) a + S1x64.size a ≤ S100000x64.size a)
instance k33_chk4.dec : ∀ (v30 : BitVec 32), Decidable (k33_chk4 v30) := fun v30 => decidable_of_iff' _ (Iff.of_eq (k33_chk4.eq_1 v30))
theorem k33_off8_inb : ∀ (v30 : BitVec 32) (k33_hw4 : k33_chk4 v30), ∀ a, (k33_off8 v30) a + S1x64.size a ≤ S100000x64.size a := fun v30 k33_hw4 => k33_hw4.1
theorem k33_off20_inb : ∀ (v30 : BitVec 32) (k33_hw4 : k33_chk4 v30), ∀ a, (k33_off20 v30) a + S1x64.size a ≤ S100000x64.size a := fun v30 k33_hw4 => k33_hw4.2

def k33_off21 (v39 : BitVec 32) : Fin 2 → Nat :=
  let c0_i32_51 : BitVec 32 := 0#32
  ![v39.toNat, 0]

def k33_chk5 (v39 : BitVec 32) : Prop :=
  (∀ a, (k33_off10 v39) a + S1x64.size a ≤ S100000x64.size a) ∧
  (∀ a, (k33_off21 v39) a + S1x64.size a ≤ S100000x64.size a)
instance k33_chk5.dec : ∀ (v39 : BitVec 32), Decidable (k33_chk5 v39) := fun v39 => decidable_of_iff' _ (Iff.of_eq (k33_chk5.eq_1 v39))
theorem k33_off10_inb : ∀ (v39 : BitVec 32) (k33_hw5 : k33_chk5 v39), ∀ a, (k33_off10 v39) a + S1x64.size a ≤ S100000x64.size a := fun v39 k33_hw5 => k33_hw5.1
theorem k33_off21_inb : ∀ (v39 : BitVec 32) (k33_hw5 : k33_chk5 v39), ∀ a, (k33_off21 v39) a + S1x64.size a ≤ S100000x64.size a := fun v39 k33_hw5 => k33_hw5.2

def k33_off22 (v48 : BitVec 32) : Fin 2 → Nat :=
  let c0_i32_55 : BitVec 32 := 0#32
  ![v48.toNat, 0]

def k33_chk6 (v48 : BitVec 32) : Prop :=
  (∀ a, (k33_off12 v48) a + S1x64.size a ≤ S100000x64.size a) ∧
  (∀ a, (k33_off22 v48) a + S1x64.size a ≤ S100000x64.size a)
instance k33_chk6.dec : ∀ (v48 : BitVec 32), Decidable (k33_chk6 v48) := fun v48 => decidable_of_iff' _ (Iff.of_eq (k33_chk6.eq_1 v48))
theorem k33_off12_inb : ∀ (v48 : BitVec 32) (k33_hw6 : k33_chk6 v48), ∀ a, (k33_off12 v48) a + S1x64.size a ≤ S100000x64.size a := fun v48 k33_hw6 => k33_hw6.1
theorem k33_off22_inb : ∀ (v48 : BitVec 32) (k33_hw6 : k33_chk6 v48), ∀ a, (k33_off22 v48) a + S1x64.size a ≤ S100000x64.size a := fun v48 k33_hw6 => k33_hw6.2

def k33_off23 (v57 : BitVec 32) : Fin 2 → Nat :=
  let c0_i32_59 : BitVec 32 := 0#32
  ![v57.toNat, 0]

def k33_chk7 (v57 : BitVec 32) : Prop :=
  (∀ a, (k33_off14 v57) a + S1x64.size a ≤ S100000x64.size a) ∧
  (∀ a, (k33_off23 v57) a + S1x64.size a ≤ S100000x64.size a)
instance k33_chk7.dec : ∀ (v57 : BitVec 32), Decidable (k33_chk7 v57) := fun v57 => decidable_of_iff' _ (Iff.of_eq (k33_chk7.eq_1 v57))
theorem k33_off14_inb : ∀ (v57 : BitVec 32) (k33_hw7 : k33_chk7 v57), ∀ a, (k33_off14 v57) a + S1x64.size a ≤ S100000x64.size a := fun v57 k33_hw7 => k33_hw7.1
theorem k33_off23_inb : ∀ (v57 : BitVec 32) (k33_hw7 : k33_chk7 v57), ∀ a, (k33_off23 v57) a + S1x64.size a ≤ S100000x64.size a := fun v57 k33_hw7 => k33_hw7.2

def cc33_transform_1 (i : grid33.Coords) : Fin 2 → Nat :=
  let arg0 : BitVec 32 := BitVec.ofNat 32 (i 0).val
  let c0_i32 : BitVec 32 := 0#32
  let c0_i32_0 : BitVec 32 := 0#32
  ![arg0.toNat, c0_i32.toNat]

def cc33_transform_2 (i : grid33.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage33_0 : Fin 2 → Memref sig .tc .vmem S8x1 .f32 := fun | 0 => Memref.whole cc33_stg0_0 | 1 => Memref.whole cc33_stg0_1 | ⟨_ + 2, h⟩ => absurd h (Nat.not_lt.2 (Nat.le_add_left _ _))
abbrev sem33_0 : Fin 2 → DmaSem sig := fun | 0 => cc33_sem0_0 | 1 => cc33_sem0_1 | ⟨_ + 2, h⟩ => absurd h (Nat.not_lt.2 (Nat.le_add_left _ _))
abbrev reads33_0 : Fin grid33.rank → Bool := ![true]

abbrev stage33_1 : Fin 2 → Memref sig .tc .vmem S8x64 .f32 := fun | 0 => Memref.whole cc33_stg1_0 | 1 => Memref.whole cc33_stg1_1 | ⟨_ + 2, h⟩ => absurd h (Nat.not_lt.2 (Nat.le_add_left _ _))
abbrev sem33_1 : Fin 2 → DmaSem sig := fun | 0 => cc33_sem1_0 | 1 => cc33_sem1_1 | ⟨_ + 2, h⟩ => absurd h (Nat.not_lt.2 (Nat.le_add_left _ _))
abbrev reads33_1 : Fin grid33.rank → Bool := ![true]

abbrev grid34 : Pipeline.Grid := ⟨1, ![12500], ![false]⟩

abbrev pre34 : Pipeline.Prefetch sig := ⟨1, ![main_v147.idx], fun | 0 => main_v147.names | ⟨_ + 1, h⟩ => absurd h (Nat.not_lt.2 (Nat.le_add_left _ _)), fun | 0 => rfl | ⟨_ + 1, h⟩ => absurd h (Nat.not_lt.2 (Nat.le_add_left _ _))⟩

def k34_off1 (i : grid34.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k34_off2 (v3 : BitVec 32) : Fin 2 → Nat :=
  let c0_i32_3 : BitVec 32 := 0#32
  ![v3.toNat, 0]

def k34_off3 (i : grid34.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k34_off4 (v12 : BitVec 32) : Fin 2 → Nat :=
  let c0_i32_7 : BitVec 32 := 0#32
  ![v12.toNat, 0]

def k34_off5 (i : grid34.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k34_off6 (v21 : BitVec 32) : Fin 2 → Nat :=
  let c0_i32_11 : BitVec 32 := 0#32
  ![v21.toNat, 0]

def k34_off7 (i : grid34.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k34_off8 (v30 : BitVec 32) : Fin 2 → Nat :=
  let c0_i32_15 : BitVec 32 := 0#32
  ![v30.toNat, 0]

def k34_off9 (i : grid34.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k34_off10 (v39 : BitVec 32) : Fin 2 → Nat :=
  let c0_i32_19 : BitVec 32 := 0#32
  ![v39.toNat, 0]

def k34_off11 (i : grid34.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k34_off12 (v48 : BitVec 32) : Fin 2 → Nat :=
  let c0_i32_23 : BitVec 32 := 0#32
  ![v48.toNat, 0]

def k34_off13 (i : grid34.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k34_off14 (v57 : BitVec 32) : Fin 2 → Nat :=
  let c0_i32_27 : BitVec 32 := 0#32
  ![v57.toNat, 0]

def k34_off15 (i : grid34.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k34_off16 (v66 : BitVec 32) : Fin 2 → Nat :=
  let c0_i32_31 : BitVec 32 := 0#32
  ![v66.toNat, 0]

def k34_chk8 (v66 : BitVec 32) : Prop :=
  (∀ a, (k34_off16 v66) a + S1x64.size a ≤ S100000x64.size a)
instance k34_chk8.dec : ∀ (v66 : BitVec 32), Decidable (k34_chk8 v66) := fun v66 => decidable_of_iff' _ (Iff.of_eq (k34_chk8.eq_1 v66))
theorem k34_off16_inb : ∀ (v66 : BitVec 32) (k34_hw8 : k34_chk8 v66), ∀ a, (k34_off16 v66) a + S1x64.size a ≤ S100000x64.size a := fun v66 k34_hw8 => k34_hw8

def k34_off17 (v3 : BitVec 32) : Fin 2 → Nat :=
  let c0_i32_35 : BitVec 32 := 0#32
  ![v3.toNat, 0]

def k34_chk1 (v3 : BitVec 32) : Prop :=
  (∀ a, (k34_off2 v3) a + S1x64.size a ≤ S100000x64.size a) ∧
  (∀ a, (k34_off17 v3) a + S1x64.size a ≤ S100000x64.size a)
instance k34_chk1.dec : ∀ (v3 : BitVec 32), Decidable (k34_chk1 v3) := fun v3 => decidable_of_iff' _ (Iff.of_eq (k34_chk1.eq_1 v3))
theorem k34_off2_inb : ∀ (v3 : BitVec 32) (k34_hw1 : k34_chk1 v3), ∀ a, (k34_off2 v3) a + S1x64.size a ≤ S100000x64.size a := fun v3 k34_hw1 => k34_hw1.1
theorem k34_off17_inb : ∀ (v3 : BitVec 32) (k34_hw1 : k34_chk1 v3), ∀ a, (k34_off17 v3) a + S1x64.size a ≤ S100000x64.size a := fun v3 k34_hw1 => k34_hw1.2

def k34_off18 (v12 : BitVec 32) : Fin 2 → Nat :=
  let c0_i32_39 : BitVec 32 := 0#32
  ![v12.toNat, 0]

def k34_chk2 (v12 : BitVec 32) : Prop :=
  (∀ a, (k34_off4 v12) a + S1x64.size a ≤ S100000x64.size a) ∧
  (∀ a, (k34_off18 v12) a + S1x64.size a ≤ S100000x64.size a)
instance k34_chk2.dec : ∀ (v12 : BitVec 32), Decidable (k34_chk2 v12) := fun v12 => decidable_of_iff' _ (Iff.of_eq (k34_chk2.eq_1 v12))
theorem k34_off4_inb : ∀ (v12 : BitVec 32) (k34_hw2 : k34_chk2 v12), ∀ a, (k34_off4 v12) a + S1x64.size a ≤ S100000x64.size a := fun v12 k34_hw2 => k34_hw2.1
theorem k34_off18_inb : ∀ (v12 : BitVec 32) (k34_hw2 : k34_chk2 v12), ∀ a, (k34_off18 v12) a + S1x64.size a ≤ S100000x64.size a := fun v12 k34_hw2 => k34_hw2.2

def k34_off19 (v21 : BitVec 32) : Fin 2 → Nat :=
  let c0_i32_43 : BitVec 32 := 0#32
  ![v21.toNat, 0]

def k34_chk3 (v21 : BitVec 32) : Prop :=
  (∀ a, (k34_off6 v21) a + S1x64.size a ≤ S100000x64.size a) ∧
  (∀ a, (k34_off19 v21) a + S1x64.size a ≤ S100000x64.size a)
instance k34_chk3.dec : ∀ (v21 : BitVec 32), Decidable (k34_chk3 v21) := fun v21 => decidable_of_iff' _ (Iff.of_eq (k34_chk3.eq_1 v21))
theorem k34_off6_inb : ∀ (v21 : BitVec 32) (k34_hw3 : k34_chk3 v21), ∀ a, (k34_off6 v21) a + S1x64.size a ≤ S100000x64.size a := fun v21 k34_hw3 => k34_hw3.1
theorem k34_off19_inb : ∀ (v21 : BitVec 32) (k34_hw3 : k34_chk3 v21), ∀ a, (k34_off19 v21) a + S1x64.size a ≤ S100000x64.size a := fun v21 k34_hw3 => k34_hw3.2

def k34_off20 (v30 : BitVec 32) : Fin 2 → Nat :=
  let c0_i32_47 : BitVec 32 := 0#32
  ![v30.toNat, 0]

def k34_chk4 (v30 : BitVec 32) : Prop :=
  (∀ a, (k34_off8 v30) a + S1x64.size a ≤ S100000x64.size a) ∧
  (∀ a, (k34_off20 v30) a + S1x64.size a ≤ S100000x64.size a)
instance k34_chk4.dec : ∀ (v30 : BitVec 32), Decidable (k34_chk4 v30) := fun v30 => decidable_of_iff' _ (Iff.of_eq (k34_chk4.eq_1 v30))
theorem k34_off8_inb : ∀ (v30 : BitVec 32) (k34_hw4 : k34_chk4 v30), ∀ a, (k34_off8 v30) a + S1x64.size a ≤ S100000x64.size a := fun v30 k34_hw4 => k34_hw4.1
theorem k34_off20_inb : ∀ (v30 : BitVec 32) (k34_hw4 : k34_chk4 v30), ∀ a, (k34_off20 v30) a + S1x64.size a ≤ S100000x64.size a := fun v30 k34_hw4 => k34_hw4.2

def k34_off21 (v39 : BitVec 32) : Fin 2 → Nat :=
  let c0_i32_51 : BitVec 32 := 0#32
  ![v39.toNat, 0]

def k34_chk5 (v39 : BitVec 32) : Prop :=
  (∀ a, (k34_off10 v39) a + S1x64.size a ≤ S100000x64.size a) ∧
  (∀ a, (k34_off21 v39) a + S1x64.size a ≤ S100000x64.size a)
instance k34_chk5.dec : ∀ (v39 : BitVec 32), Decidable (k34_chk5 v39) := fun v39 => decidable_of_iff' _ (Iff.of_eq (k34_chk5.eq_1 v39))
theorem k34_off10_inb : ∀ (v39 : BitVec 32) (k34_hw5 : k34_chk5 v39), ∀ a, (k34_off10 v39) a + S1x64.size a ≤ S100000x64.size a := fun v39 k34_hw5 => k34_hw5.1
theorem k34_off21_inb : ∀ (v39 : BitVec 32) (k34_hw5 : k34_chk5 v39), ∀ a, (k34_off21 v39) a + S1x64.size a ≤ S100000x64.size a := fun v39 k34_hw5 => k34_hw5.2

def k34_off22 (v48 : BitVec 32) : Fin 2 → Nat :=
  let c0_i32_55 : BitVec 32 := 0#32
  ![v48.toNat, 0]

def k34_chk6 (v48 : BitVec 32) : Prop :=
  (∀ a, (k34_off12 v48) a + S1x64.size a ≤ S100000x64.size a) ∧
  (∀ a, (k34_off22 v48) a + S1x64.size a ≤ S100000x64.size a)
instance k34_chk6.dec : ∀ (v48 : BitVec 32), Decidable (k34_chk6 v48) := fun v48 => decidable_of_iff' _ (Iff.of_eq (k34_chk6.eq_1 v48))
theorem k34_off12_inb : ∀ (v48 : BitVec 32) (k34_hw6 : k34_chk6 v48), ∀ a, (k34_off12 v48) a + S1x64.size a ≤ S100000x64.size a := fun v48 k34_hw6 => k34_hw6.1
theorem k34_off22_inb : ∀ (v48 : BitVec 32) (k34_hw6 : k34_chk6 v48), ∀ a, (k34_off22 v48) a + S1x64.size a ≤ S100000x64.size a := fun v48 k34_hw6 => k34_hw6.2

def k34_off23 (v57 : BitVec 32) : Fin 2 → Nat :=
  let c0_i32_59 : BitVec 32 := 0#32
  ![v57.toNat, 0]

def k34_chk7 (v57 : BitVec 32) : Prop :=
  (∀ a, (k34_off14 v57) a + S1x64.size a ≤ S100000x64.size a) ∧
  (∀ a, (k34_off23 v57) a + S1x64.size a ≤ S100000x64.size a)
instance k34_chk7.dec : ∀ (v57 : BitVec 32), Decidable (k34_chk7 v57) := fun v57 => decidable_of_iff' _ (Iff.of_eq (k34_chk7.eq_1 v57))
theorem k34_off14_inb : ∀ (v57 : BitVec 32) (k34_hw7 : k34_chk7 v57), ∀ a, (k34_off14 v57) a + S1x64.size a ≤ S100000x64.size a := fun v57 k34_hw7 => k34_hw7.1
theorem k34_off23_inb : ∀ (v57 : BitVec 32) (k34_hw7 : k34_chk7 v57), ∀ a, (k34_off23 v57) a + S1x64.size a ≤ S100000x64.size a := fun v57 k34_hw7 => k34_hw7.2

def cc34_transform_1 (i : grid34.Coords) : Fin 2 → Nat :=
  let arg0 : BitVec 32 := BitVec.ofNat 32 (i 0).val
  let c0_i32 : BitVec 32 := 0#32
  let c0_i32_0 : BitVec 32 := 0#32
  ![arg0.toNat, c0_i32.toNat]

def cc34_transform_2 (i : grid34.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage34_0 : Fin 2 → Memref sig .tc .vmem S8x1 .f32 := fun | 0 => Memref.whole cc34_stg0_0 | 1 => Memref.whole cc34_stg0_1 | ⟨_ + 2, h⟩ => absurd h (Nat.not_lt.2 (Nat.le_add_left _ _))
abbrev sem34_0 : Fin 2 → DmaSem sig := fun | 0 => cc34_sem0_0 | 1 => cc34_sem0_1 | ⟨_ + 2, h⟩ => absurd h (Nat.not_lt.2 (Nat.le_add_left _ _))
abbrev reads34_0 : Fin grid34.rank → Bool := ![true]

abbrev stage34_1 : Fin 2 → Memref sig .tc .vmem S8x64 .f32 := fun | 0 => Memref.whole cc34_stg1_0 | 1 => Memref.whole cc34_stg1_1 | ⟨_ + 2, h⟩ => absurd h (Nat.not_lt.2 (Nat.le_add_left _ _))
abbrev sem34_1 : Fin 2 → DmaSem sig := fun | 0 => cc34_sem1_0 | 1 => cc34_sem1_1 | ⟨_ + 2, h⟩ => absurd h (Nat.not_lt.2 (Nat.le_add_left _ _))
abbrev reads34_1 : Fin grid34.rank → Bool := ![true]

abbrev grid35 : Pipeline.Grid := ⟨1, ![12500], ![false]⟩

abbrev pre35 : Pipeline.Prefetch sig := ⟨1, ![main_v151.idx], fun | 0 => main_v151.names | ⟨_ + 1, h⟩ => absurd h (Nat.not_lt.2 (Nat.le_add_left _ _)), fun | 0 => rfl | ⟨_ + 1, h⟩ => absurd h (Nat.not_lt.2 (Nat.le_add_left _ _))⟩

def k35_off1 (i : grid35.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k35_off2 (v3 : BitVec 32) : Fin 2 → Nat :=
  let c0_i32_3 : BitVec 32 := 0#32
  ![v3.toNat, 0]

def k35_off3 (i : grid35.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k35_off4 (v12 : BitVec 32) : Fin 2 → Nat :=
  let c0_i32_7 : BitVec 32 := 0#32
  ![v12.toNat, 0]

def k35_off5 (i : grid35.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k35_off6 (v21 : BitVec 32) : Fin 2 → Nat :=
  let c0_i32_11 : BitVec 32 := 0#32
  ![v21.toNat, 0]

def k35_off7 (i : grid35.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k35_off8 (v30 : BitVec 32) : Fin 2 → Nat :=
  let c0_i32_15 : BitVec 32 := 0#32
  ![v30.toNat, 0]

def k35_off9 (i : grid35.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k35_off10 (v39 : BitVec 32) : Fin 2 → Nat :=
  let c0_i32_19 : BitVec 32 := 0#32
  ![v39.toNat, 0]

def k35_off11 (i : grid35.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k35_off12 (v48 : BitVec 32) : Fin 2 → Nat :=
  let c0_i32_23 : BitVec 32 := 0#32
  ![v48.toNat, 0]

def k35_off13 (i : grid35.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k35_off14 (v57 : BitVec 32) : Fin 2 → Nat :=
  let c0_i32_27 : BitVec 32 := 0#32
  ![v57.toNat, 0]

def k35_off15 (i : grid35.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k35_off16 (v66 : BitVec 32) : Fin 2 → Nat :=
  let c0_i32_31 : BitVec 32 := 0#32
  ![v66.toNat, 0]

def k35_chk8 (v66 : BitVec 32) : Prop :=
  (∀ a, (k35_off16 v66) a + S1x64.size a ≤ S100000x64.size a)
instance k35_chk8.dec : ∀ (v66 : BitVec 32), Decidable (k35_chk8 v66) := fun v66 => decidable_of_iff' _ (Iff.of_eq (k35_chk8.eq_1 v66))
theorem k35_off16_inb : ∀ (v66 : BitVec 32) (k35_hw8 : k35_chk8 v66), ∀ a, (k35_off16 v66) a + S1x64.size a ≤ S100000x64.size a := fun v66 k35_hw8 => k35_hw8

def k35_off17 (v3 : BitVec 32) : Fin 2 → Nat :=
  let c0_i32_35 : BitVec 32 := 0#32
  ![v3.toNat, 0]

def k35_chk1 (v3 : BitVec 32) : Prop :=
  (∀ a, (k35_off2 v3) a + S1x64.size a ≤ S100000x64.size a) ∧
  (∀ a, (k35_off17 v3) a + S1x64.size a ≤ S100000x64.size a)
instance k35_chk1.dec : ∀ (v3 : BitVec 32), Decidable (k35_chk1 v3) := fun v3 => decidable_of_iff' _ (Iff.of_eq (k35_chk1.eq_1 v3))
theorem k35_off2_inb : ∀ (v3 : BitVec 32) (k35_hw1 : k35_chk1 v3), ∀ a, (k35_off2 v3) a + S1x64.size a ≤ S100000x64.size a := fun v3 k35_hw1 => k35_hw1.1
theorem k35_off17_inb : ∀ (v3 : BitVec 32) (k35_hw1 : k35_chk1 v3), ∀ a, (k35_off17 v3) a + S1x64.size a ≤ S100000x64.size a := fun v3 k35_hw1 => k35_hw1.2

def k35_off18 (v12 : BitVec 32) : Fin 2 → Nat :=
  let c0_i32_39 : BitVec 32 := 0#32
  ![v12.toNat, 0]

def k35_chk2 (v12 : BitVec 32) : Prop :=
  (∀ a, (k35_off4 v12) a + S1x64.size a ≤ S100000x64.size a) ∧
  (∀ a, (k35_off18 v12) a + S1x64.size a ≤ S100000x64.size a)
instance k35_chk2.dec : ∀ (v12 : BitVec 32), Decidable (k35_chk2 v12) := fun v12 => decidable_of_iff' _ (Iff.of_eq (k35_chk2.eq_1 v12))
theorem k35_off4_inb : ∀ (v12 : BitVec 32) (k35_hw2 : k35_chk2 v12), ∀ a, (k35_off4 v12) a + S1x64.size a ≤ S100000x64.size a := fun v12 k35_hw2 => k35_hw2.1
theorem k35_off18_inb : ∀ (v12 : BitVec 32) (k35_hw2 : k35_chk2 v12), ∀ a, (k35_off18 v12) a + S1x64.size a ≤ S100000x64.size a := fun v12 k35_hw2 => k35_hw2.2

def k35_off19 (v21 : BitVec 32) : Fin 2 → Nat :=
  let c0_i32_43 : BitVec 32 := 0#32
  ![v21.toNat, 0]

def k35_chk3 (v21 : BitVec 32) : Prop :=
  (∀ a, (k35_off6 v21) a + S1x64.size a ≤ S100000x64.size a) ∧
  (∀ a, (k35_off19 v21) a + S1x64.size a ≤ S100000x64.size a)
instance k35_chk3.dec : ∀ (v21 : BitVec 32), Decidable (k35_chk3 v21) := fun v21 => decidable_of_iff' _ (Iff.of_eq (k35_chk3.eq_1 v21))
theorem k35_off6_inb : ∀ (v21 : BitVec 32) (k35_hw3 : k35_chk3 v21), ∀ a, (k35_off6 v21) a + S1x64.size a ≤ S100000x64.size a := fun v21 k35_hw3 => k35_hw3.1
theorem k35_off19_inb : ∀ (v21 : BitVec 32) (k35_hw3 : k35_chk3 v21), ∀ a, (k35_off19 v21) a + S1x64.size a ≤ S100000x64.size a := fun v21 k35_hw3 => k35_hw3.2

def k35_off20 (v30 : BitVec 32) : Fin 2 → Nat :=
  let c0_i32_47 : BitVec 32 := 0#32
  ![v30.toNat, 0]

def k35_chk4 (v30 : BitVec 32) : Prop :=
  (∀ a, (k35_off8 v30) a + S1x64.size a ≤ S100000x64.size a) ∧
  (∀ a, (k35_off20 v30) a + S1x64.size a ≤ S100000x64.size a)
instance k35_chk4.dec : ∀ (v30 : BitVec 32), Decidable (k35_chk4 v30) := fun v30 => decidable_of_iff' _ (Iff.of_eq (k35_chk4.eq_1 v30))
theorem k35_off8_inb : ∀ (v30 : BitVec 32) (k35_hw4 : k35_chk4 v30), ∀ a, (k35_off8 v30) a + S1x64.size a ≤ S100000x64.size a := fun v30 k35_hw4 => k35_hw4.1
theorem k35_off20_inb : ∀ (v30 : BitVec 32) (k35_hw4 : k35_chk4 v30), ∀ a, (k35_off20 v30) a + S1x64.size a ≤ S100000x64.size a := fun v30 k35_hw4 => k35_hw4.2

def k35_off21 (v39 : BitVec 32) : Fin 2 → Nat :=
  let c0_i32_51 : BitVec 32 := 0#32
  ![v39.toNat, 0]

def k35_chk5 (v39 : BitVec 32) : Prop :=
  (∀ a, (k35_off10 v39) a + S1x64.size a ≤ S100000x64.size a) ∧
  (∀ a, (k35_off21 v39) a + S1x64.size a ≤ S100000x64.size a)
instance k35_chk5.dec : ∀ (v39 : BitVec 32), Decidable (k35_chk5 v39) := fun v39 => decidable_of_iff' _ (Iff.of_eq (k35_chk5.eq_1 v39))
theorem k35_off10_inb : ∀ (v39 : BitVec 32) (k35_hw5 : k35_chk5 v39), ∀ a, (k35_off10 v39) a + S1x64.size a ≤ S100000x64.size a := fun v39 k35_hw5 => k35_hw5.1
theorem k35_off21_inb : ∀ (v39 : BitVec 32) (k35_hw5 : k35_chk5 v39), ∀ a, (k35_off21 v39) a + S1x64.size a ≤ S100000x64.size a := fun v39 k35_hw5 => k35_hw5.2

def k35_off22 (v48 : BitVec 32) : Fin 2 → Nat :=
  let c0_i32_55 : BitVec 32 := 0#32
  ![v48.toNat, 0]

def k35_chk6 (v48 : BitVec 32) : Prop :=
  (∀ a, (k35_off12 v48) a + S1x64.size a ≤ S100000x64.size a) ∧
  (∀ a, (k35_off22 v48) a + S1x64.size a ≤ S100000x64.size a)
instance k35_chk6.dec : ∀ (v48 : BitVec 32), Decidable (k35_chk6 v48) := fun v48 => decidable_of_iff' _ (Iff.of_eq (k35_chk6.eq_1 v48))
theorem k35_off12_inb : ∀ (v48 : BitVec 32) (k35_hw6 : k35_chk6 v48), ∀ a, (k35_off12 v48) a + S1x64.size a ≤ S100000x64.size a := fun v48 k35_hw6 => k35_hw6.1
theorem k35_off22_inb : ∀ (v48 : BitVec 32) (k35_hw6 : k35_chk6 v48), ∀ a, (k35_off22 v48) a + S1x64.size a ≤ S100000x64.size a := fun v48 k35_hw6 => k35_hw6.2

def k35_off23 (v57 : BitVec 32) : Fin 2 → Nat :=
  let c0_i32_59 : BitVec 32 := 0#32
  ![v57.toNat, 0]

def k35_chk7 (v57 : BitVec 32) : Prop :=
  (∀ a, (k35_off14 v57) a + S1x64.size a ≤ S100000x64.size a) ∧
  (∀ a, (k35_off23 v57) a + S1x64.size a ≤ S100000x64.size a)
instance k35_chk7.dec : ∀ (v57 : BitVec 32), Decidable (k35_chk7 v57) := fun v57 => decidable_of_iff' _ (Iff.of_eq (k35_chk7.eq_1 v57))
theorem k35_off14_inb : ∀ (v57 : BitVec 32) (k35_hw7 : k35_chk7 v57), ∀ a, (k35_off14 v57) a + S1x64.size a ≤ S100000x64.size a := fun v57 k35_hw7 => k35_hw7.1
theorem k35_off23_inb : ∀ (v57 : BitVec 32) (k35_hw7 : k35_chk7 v57), ∀ a, (k35_off23 v57) a + S1x64.size a ≤ S100000x64.size a := fun v57 k35_hw7 => k35_hw7.2

def cc35_transform_1 (i : grid35.Coords) : Fin 2 → Nat :=
  let arg0 : BitVec 32 := BitVec.ofNat 32 (i 0).val
  let c0_i32 : BitVec 32 := 0#32
  let c0_i32_0 : BitVec 32 := 0#32
  ![arg0.toNat, c0_i32.toNat]

def cc35_transform_2 (i : grid35.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage35_0 : Fin 2 → Memref sig .tc .vmem S8x1 .f32 := fun | 0 => Memref.whole cc35_stg0_0 | 1 => Memref.whole cc35_stg0_1 | ⟨_ + 2, h⟩ => absurd h (Nat.not_lt.2 (Nat.le_add_left _ _))
abbrev sem35_0 : Fin 2 → DmaSem sig := fun | 0 => cc35_sem0_0 | 1 => cc35_sem0_1 | ⟨_ + 2, h⟩ => absurd h (Nat.not_lt.2 (Nat.le_add_left _ _))
abbrev reads35_0 : Fin grid35.rank → Bool := ![true]

abbrev stage35_1 : Fin 2 → Memref sig .tc .vmem S8x64 .f32 := fun | 0 => Memref.whole cc35_stg1_0 | 1 => Memref.whole cc35_stg1_1 | ⟨_ + 2, h⟩ => absurd h (Nat.not_lt.2 (Nat.le_add_left _ _))
abbrev sem35_1 : Fin 2 → DmaSem sig := fun | 0 => cc35_sem1_0 | 1 => cc35_sem1_1 | ⟨_ + 2, h⟩ => absurd h (Nat.not_lt.2 (Nat.le_add_left _ _))
abbrev reads35_1 : Fin grid35.rank → Bool := ![true]

abbrev grid36 : Pipeline.Grid := ⟨1, ![12500], ![false]⟩

abbrev pre36 : Pipeline.Prefetch sig := ⟨1, ![main_v155.idx], fun | 0 => main_v155.names | ⟨_ + 1, h⟩ => absurd h (Nat.not_lt.2 (Nat.le_add_left _ _)), fun | 0 => rfl | ⟨_ + 1, h⟩ => absurd h (Nat.not_lt.2 (Nat.le_add_left _ _))⟩

def k36_off1 (i : grid36.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k36_off2 (v3 : BitVec 32) : Fin 2 → Nat :=
  let c0_i32_3 : BitVec 32 := 0#32
  ![v3.toNat, 0]

def k36_off3 (i : grid36.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k36_off4 (v12 : BitVec 32) : Fin 2 → Nat :=
  let c0_i32_7 : BitVec 32 := 0#32
  ![v12.toNat, 0]

def k36_off5 (i : grid36.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k36_off6 (v21 : BitVec 32) : Fin 2 → Nat :=
  let c0_i32_11 : BitVec 32 := 0#32
  ![v21.toNat, 0]

def k36_off7 (i : grid36.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k36_off8 (v30 : BitVec 32) : Fin 2 → Nat :=
  let c0_i32_15 : BitVec 32 := 0#32
  ![v30.toNat, 0]

def k36_off9 (i : grid36.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k36_off10 (v39 : BitVec 32) : Fin 2 → Nat :=
  let c0_i32_19 : BitVec 32 := 0#32
  ![v39.toNat, 0]

def k36_off11 (i : grid36.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k36_off12 (v48 : BitVec 32) : Fin 2 → Nat :=
  let c0_i32_23 : BitVec 32 := 0#32
  ![v48.toNat, 0]

def k36_off13 (i : grid36.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k36_off14 (v57 : BitVec 32) : Fin 2 → Nat :=
  let c0_i32_27 : BitVec 32 := 0#32
  ![v57.toNat, 0]

def k36_off15 (i : grid36.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k36_off16 (v66 : BitVec 32) : Fin 2 → Nat :=
  let c0_i32_31 : BitVec 32 := 0#32
  ![v66.toNat, 0]

def k36_chk8 (v66 : BitVec 32) : Prop :=
  (∀ a, (k36_off16 v66) a + S1x64.size a ≤ S100000x64.size a)
instance k36_chk8.dec : ∀ (v66 : BitVec 32), Decidable (k36_chk8 v66) := fun v66 => decidable_of_iff' _ (Iff.of_eq (k36_chk8.eq_1 v66))
theorem k36_off16_inb : ∀ (v66 : BitVec 32) (k36_hw8 : k36_chk8 v66), ∀ a, (k36_off16 v66) a + S1x64.size a ≤ S100000x64.size a := fun v66 k36_hw8 => k36_hw8

def k36_off17 (v3 : BitVec 32) : Fin 2 → Nat :=
  let c0_i32_35 : BitVec 32 := 0#32
  ![v3.toNat, 0]

def k36_chk1 (v3 : BitVec 32) : Prop :=
  (∀ a, (k36_off2 v3) a + S1x64.size a ≤ S100000x64.size a) ∧
  (∀ a, (k36_off17 v3) a + S1x64.size a ≤ S100000x64.size a)
instance k36_chk1.dec : ∀ (v3 : BitVec 32), Decidable (k36_chk1 v3) := fun v3 => decidable_of_iff' _ (Iff.of_eq (k36_chk1.eq_1 v3))
theorem k36_off2_inb : ∀ (v3 : BitVec 32) (k36_hw1 : k36_chk1 v3), ∀ a, (k36_off2 v3) a + S1x64.size a ≤ S100000x64.size a := fun v3 k36_hw1 => k36_hw1.1
theorem k36_off17_inb : ∀ (v3 : BitVec 32) (k36_hw1 : k36_chk1 v3), ∀ a, (k36_off17 v3) a + S1x64.size a ≤ S100000x64.size a := fun v3 k36_hw1 => k36_hw1.2

def k36_off18 (v12 : BitVec 32) : Fin 2 → Nat :=
  let c0_i32_39 : BitVec 32 := 0#32
  ![v12.toNat, 0]

def k36_chk2 (v12 : BitVec 32) : Prop :=
  (∀ a, (k36_off4 v12) a + S1x64.size a ≤ S100000x64.size a) ∧
  (∀ a, (k36_off18 v12) a + S1x64.size a ≤ S100000x64.size a)
instance k36_chk2.dec : ∀ (v12 : BitVec 32), Decidable (k36_chk2 v12) := fun v12 => decidable_of_iff' _ (Iff.of_eq (k36_chk2.eq_1 v12))
theorem k36_off4_inb : ∀ (v12 : BitVec 32) (k36_hw2 : k36_chk2 v12), ∀ a, (k36_off4 v12) a + S1x64.size a ≤ S100000x64.size a := fun v12 k36_hw2 => k36_hw2.1
theorem k36_off18_inb : ∀ (v12 : BitVec 32) (k36_hw2 : k36_chk2 v12), ∀ a, (k36_off18 v12) a + S1x64.size a ≤ S100000x64.size a := fun v12 k36_hw2 => k36_hw2.2

def k36_off19 (v21 : BitVec 32) : Fin 2 → Nat :=
  let c0_i32_43 : BitVec 32 := 0#32
  ![v21.toNat, 0]

def k36_chk3 (v21 : BitVec 32) : Prop :=
  (∀ a, (k36_off6 v21) a + S1x64.size a ≤ S100000x64.size a) ∧
  (∀ a, (k36_off19 v21) a + S1x64.size a ≤ S100000x64.size a)
instance k36_chk3.dec : ∀ (v21 : BitVec 32), Decidable (k36_chk3 v21) := fun v21 => decidable_of_iff' _ (Iff.of_eq (k36_chk3.eq_1 v21))
theorem k36_off6_inb : ∀ (v21 : BitVec 32) (k36_hw3 : k36_chk3 v21), ∀ a, (k36_off6 v21) a + S1x64.size a ≤ S100000x64.size a := fun v21 k36_hw3 => k36_hw3.1
theorem k36_off19_inb : ∀ (v21 : BitVec 32) (k36_hw3 : k36_chk3 v21), ∀ a, (k36_off19 v21) a + S1x64.size a ≤ S100000x64.size a := fun v21 k36_hw3 => k36_hw3.2

def k36_off20 (v30 : BitVec 32) : Fin 2 → Nat :=
  let c0_i32_47 : BitVec 32 := 0#32
  ![v30.toNat, 0]

def k36_chk4 (v30 : BitVec 32) : Prop :=
  (∀ a, (k36_off8 v30) a + S1x64.size a ≤ S100000x64.size a) ∧
  (∀ a, (k36_off20 v30) a + S1x64.size a ≤ S100000x64.size a)
instance k36_chk4.dec : ∀ (v30 : BitVec 32), Decidable (k36_chk4 v30) := fun v30 => decidable_of_iff' _ (Iff.of_eq (k36_chk4.eq_1 v30))
theorem k36_off8_inb : ∀ (v30 : BitVec 32) (k36_hw4 : k36_chk4 v30), ∀ a, (k36_off8 v30) a + S1x64.size a ≤ S100000x64.size a := fun v30 k36_hw4 => k36_hw4.1
theorem k36_off20_inb : ∀ (v30 : BitVec 32) (k36_hw4 : k36_chk4 v30), ∀ a, (k36_off20 v30) a + S1x64.size a ≤ S100000x64.size a := fun v30 k36_hw4 => k36_hw4.2

def k36_off21 (v39 : BitVec 32) : Fin 2 → Nat :=
  let c0_i32_51 : BitVec 32 := 0#32
  ![v39.toNat, 0]

def k36_chk5 (v39 : BitVec 32) : Prop :=
  (∀ a, (k36_off10 v39) a + S1x64.size a ≤ S100000x64.size a) ∧
  (∀ a, (k36_off21 v39) a + S1x64.size a ≤ S100000x64.size a)
instance k36_chk5.dec : ∀ (v39 : BitVec 32), Decidable (k36_chk5 v39) := fun v39 => decidable_of_iff' _ (Iff.of_eq (k36_chk5.eq_1 v39))
theorem k36_off10_inb : ∀ (v39 : BitVec 32) (k36_hw5 : k36_chk5 v39), ∀ a, (k36_off10 v39) a + S1x64.size a ≤ S100000x64.size a := fun v39 k36_hw5 => k36_hw5.1
theorem k36_off21_inb : ∀ (v39 : BitVec 32) (k36_hw5 : k36_chk5 v39), ∀ a, (k36_off21 v39) a + S1x64.size a ≤ S100000x64.size a := fun v39 k36_hw5 => k36_hw5.2

def k36_off22 (v48 : BitVec 32) : Fin 2 → Nat :=
  let c0_i32_55 : BitVec 32 := 0#32
  ![v48.toNat, 0]

def k36_chk6 (v48 : BitVec 32) : Prop :=
  (∀ a, (k36_off12 v48) a + S1x64.size a ≤ S100000x64.size a) ∧
  (∀ a, (k36_off22 v48) a + S1x64.size a ≤ S100000x64.size a)
instance k36_chk6.dec : ∀ (v48 : BitVec 32), Decidable (k36_chk6 v48) := fun v48 => decidable_of_iff' _ (Iff.of_eq (k36_chk6.eq_1 v48))
theorem k36_off12_inb : ∀ (v48 : BitVec 32) (k36_hw6 : k36_chk6 v48), ∀ a, (k36_off12 v48) a + S1x64.size a ≤ S100000x64.size a := fun v48 k36_hw6 => k36_hw6.1
theorem k36_off22_inb : ∀ (v48 : BitVec 32) (k36_hw6 : k36_chk6 v48), ∀ a, (k36_off22 v48) a + S1x64.size a ≤ S100000x64.size a := fun v48 k36_hw6 => k36_hw6.2

def k36_off23 (v57 : BitVec 32) : Fin 2 → Nat :=
  let c0_i32_59 : BitVec 32 := 0#32
  ![v57.toNat, 0]

def k36_chk7 (v57 : BitVec 32) : Prop :=
  (∀ a, (k36_off14 v57) a + S1x64.size a ≤ S100000x64.size a) ∧
  (∀ a, (k36_off23 v57) a + S1x64.size a ≤ S100000x64.size a)
instance k36_chk7.dec : ∀ (v57 : BitVec 32), Decidable (k36_chk7 v57) := fun v57 => decidable_of_iff' _ (Iff.of_eq (k36_chk7.eq_1 v57))
theorem k36_off14_inb : ∀ (v57 : BitVec 32) (k36_hw7 : k36_chk7 v57), ∀ a, (k36_off14 v57) a + S1x64.size a ≤ S100000x64.size a := fun v57 k36_hw7 => k36_hw7.1
theorem k36_off23_inb : ∀ (v57 : BitVec 32) (k36_hw7 : k36_chk7 v57), ∀ a, (k36_off23 v57) a + S1x64.size a ≤ S100000x64.size a := fun v57 k36_hw7 => k36_hw7.2

def cc36_transform_1 (i : grid36.Coords) : Fin 2 → Nat :=
  let arg0 : BitVec 32 := BitVec.ofNat 32 (i 0).val
  let c0_i32 : BitVec 32 := 0#32
  let c0_i32_0 : BitVec 32 := 0#32
  ![arg0.toNat, c0_i32.toNat]

def cc36_transform_2 (i : grid36.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage36_0 : Fin 2 → Memref sig .tc .vmem S8x1 .f32 := fun | 0 => Memref.whole cc36_stg0_0 | 1 => Memref.whole cc36_stg0_1 | ⟨_ + 2, h⟩ => absurd h (Nat.not_lt.2 (Nat.le_add_left _ _))
abbrev sem36_0 : Fin 2 → DmaSem sig := fun | 0 => cc36_sem0_0 | 1 => cc36_sem0_1 | ⟨_ + 2, h⟩ => absurd h (Nat.not_lt.2 (Nat.le_add_left _ _))
abbrev reads36_0 : Fin grid36.rank → Bool := ![true]

abbrev stage36_1 : Fin 2 → Memref sig .tc .vmem S8x64 .f32 := fun | 0 => Memref.whole cc36_stg1_0 | 1 => Memref.whole cc36_stg1_1 | ⟨_ + 2, h⟩ => absurd h (Nat.not_lt.2 (Nat.le_add_left _ _))
abbrev sem36_1 : Fin 2 → DmaSem sig := fun | 0 => cc36_sem1_0 | 1 => cc36_sem1_1 | ⟨_ + 2, h⟩ => absurd h (Nat.not_lt.2 (Nat.le_add_left _ _))
abbrev reads36_1 : Fin grid36.rank → Bool := ![true]

abbrev grid37 : Pipeline.Grid := ⟨1, ![12500], ![false]⟩

abbrev pre37 : Pipeline.Prefetch sig := ⟨1, ![main_v159.idx], fun | 0 => main_v159.names | ⟨_ + 1, h⟩ => absurd h (Nat.not_lt.2 (Nat.le_add_left _ _)), fun | 0 => rfl | ⟨_ + 1, h⟩ => absurd h (Nat.not_lt.2 (Nat.le_add_left _ _))⟩

def k37_off1 (i : grid37.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k37_off2 (v3 : BitVec 32) : Fin 2 → Nat :=
  let c0_i32_3 : BitVec 32 := 0#32
  ![v3.toNat, 0]

def k37_off3 (i : grid37.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k37_off4 (v12 : BitVec 32) : Fin 2 → Nat :=
  let c0_i32_7 : BitVec 32 := 0#32
  ![v12.toNat, 0]

def k37_off5 (i : grid37.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k37_off6 (v21 : BitVec 32) : Fin 2 → Nat :=
  let c0_i32_11 : BitVec 32 := 0#32
  ![v21.toNat, 0]

def k37_off7 (i : grid37.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k37_off8 (v30 : BitVec 32) : Fin 2 → Nat :=
  let c0_i32_15 : BitVec 32 := 0#32
  ![v30.toNat, 0]

def k37_off9 (i : grid37.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k37_off10 (v39 : BitVec 32) : Fin 2 → Nat :=
  let c0_i32_19 : BitVec 32 := 0#32
  ![v39.toNat, 0]

def k37_off11 (i : grid37.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k37_off12 (v48 : BitVec 32) : Fin 2 → Nat :=
  let c0_i32_23 : BitVec 32 := 0#32
  ![v48.toNat, 0]

def k37_off13 (i : grid37.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k37_off14 (v57 : BitVec 32) : Fin 2 → Nat :=
  let c0_i32_27 : BitVec 32 := 0#32
  ![v57.toNat, 0]

def k37_off15 (i : grid37.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k37_off16 (v66 : BitVec 32) : Fin 2 → Nat :=
  let c0_i32_31 : BitVec 32 := 0#32
  ![v66.toNat, 0]

def k37_chk8 (v66 : BitVec 32) : Prop :=
  (∀ a, (k37_off16 v66) a + S1x64.size a ≤ S100000x64.size a)
instance k37_chk8.dec : ∀ (v66 : BitVec 32), Decidable (k37_chk8 v66) := fun v66 => decidable_of_iff' _ (Iff.of_eq (k37_chk8.eq_1 v66))
theorem k37_off16_inb : ∀ (v66 : BitVec 32) (k37_hw8 : k37_chk8 v66), ∀ a, (k37_off16 v66) a + S1x64.size a ≤ S100000x64.size a := fun v66 k37_hw8 => k37_hw8

def k37_off17 (v3 : BitVec 32) : Fin 2 → Nat :=
  let c0_i32_35 : BitVec 32 := 0#32
  ![v3.toNat, 0]

def k37_chk1 (v3 : BitVec 32) : Prop :=
  (∀ a, (k37_off2 v3) a + S1x64.size a ≤ S100000x64.size a) ∧
  (∀ a, (k37_off17 v3) a + S1x64.size a ≤ S100000x64.size a)
instance k37_chk1.dec : ∀ (v3 : BitVec 32), Decidable (k37_chk1 v3) := fun v3 => decidable_of_iff' _ (Iff.of_eq (k37_chk1.eq_1 v3))
theorem k37_off2_inb : ∀ (v3 : BitVec 32) (k37_hw1 : k37_chk1 v3), ∀ a, (k37_off2 v3) a + S1x64.size a ≤ S100000x64.size a := fun v3 k37_hw1 => k37_hw1.1
theorem k37_off17_inb : ∀ (v3 : BitVec 32) (k37_hw1 : k37_chk1 v3), ∀ a, (k37_off17 v3) a + S1x64.size a ≤ S100000x64.size a := fun v3 k37_hw1 => k37_hw1.2

def k37_off18 (v12 : BitVec 32) : Fin 2 → Nat :=
  let c0_i32_39 : BitVec 32 := 0#32
  ![v12.toNat, 0]

def k37_chk2 (v12 : BitVec 32) : Prop :=
  (∀ a, (k37_off4 v12) a + S1x64.size a ≤ S100000x64.size a) ∧
  (∀ a, (k37_off18 v12) a + S1x64.size a ≤ S100000x64.size a)
instance k37_chk2.dec : ∀ (v12 : BitVec 32), Decidable (k37_chk2 v12) := fun v12 => decidable_of_iff' _ (Iff.of_eq (k37_chk2.eq_1 v12))
theorem k37_off4_inb : ∀ (v12 : BitVec 32) (k37_hw2 : k37_chk2 v12), ∀ a, (k37_off4 v12) a + S1x64.size a ≤ S100000x64.size a := fun v12 k37_hw2 => k37_hw2.1
theorem k37_off18_inb : ∀ (v12 : BitVec 32) (k37_hw2 : k37_chk2 v12), ∀ a, (k37_off18 v12) a + S1x64.size a ≤ S100000x64.size a := fun v12 k37_hw2 => k37_hw2.2

def k37_off19 (v21 : BitVec 32) : Fin 2 → Nat :=
  let c0_i32_43 : BitVec 32 := 0#32
  ![v21.toNat, 0]

def k37_chk3 (v21 : BitVec 32) : Prop :=
  (∀ a, (k37_off6 v21) a + S1x64.size a ≤ S100000x64.size a) ∧
  (∀ a, (k37_off19 v21) a + S1x64.size a ≤ S100000x64.size a)
instance k37_chk3.dec : ∀ (v21 : BitVec 32), Decidable (k37_chk3 v21) := fun v21 => decidable_of_iff' _ (Iff.of_eq (k37_chk3.eq_1 v21))
theorem k37_off6_inb : ∀ (v21 : BitVec 32) (k37_hw3 : k37_chk3 v21), ∀ a, (k37_off6 v21) a + S1x64.size a ≤ S100000x64.size a := fun v21 k37_hw3 => k37_hw3.1
theorem k37_off19_inb : ∀ (v21 : BitVec 32) (k37_hw3 : k37_chk3 v21), ∀ a, (k37_off19 v21) a + S1x64.size a ≤ S100000x64.size a := fun v21 k37_hw3 => k37_hw3.2

def k37_off20 (v30 : BitVec 32) : Fin 2 → Nat :=
  let c0_i32_47 : BitVec 32 := 0#32
  ![v30.toNat, 0]

def k37_chk4 (v30 : BitVec 32) : Prop :=
  (∀ a, (k37_off8 v30) a + S1x64.size a ≤ S100000x64.size a) ∧
  (∀ a, (k37_off20 v30) a + S1x64.size a ≤ S100000x64.size a)
instance k37_chk4.dec : ∀ (v30 : BitVec 32), Decidable (k37_chk4 v30) := fun v30 => decidable_of_iff' _ (Iff.of_eq (k37_chk4.eq_1 v30))
theorem k37_off8_inb : ∀ (v30 : BitVec 32) (k37_hw4 : k37_chk4 v30), ∀ a, (k37_off8 v30) a + S1x64.size a ≤ S100000x64.size a := fun v30 k37_hw4 => k37_hw4.1
theorem k37_off20_inb : ∀ (v30 : BitVec 32) (k37_hw4 : k37_chk4 v30), ∀ a, (k37_off20 v30) a + S1x64.size a ≤ S100000x64.size a := fun v30 k37_hw4 => k37_hw4.2

def k37_off21 (v39 : BitVec 32) : Fin 2 → Nat :=
  let c0_i32_51 : BitVec 32 := 0#32
  ![v39.toNat, 0]

def k37_chk5 (v39 : BitVec 32) : Prop :=
  (∀ a, (k37_off10 v39) a + S1x64.size a ≤ S100000x64.size a) ∧
  (∀ a, (k37_off21 v39) a + S1x64.size a ≤ S100000x64.size a)
instance k37_chk5.dec : ∀ (v39 : BitVec 32), Decidable (k37_chk5 v39) := fun v39 => decidable_of_iff' _ (Iff.of_eq (k37_chk5.eq_1 v39))
theorem k37_off10_inb : ∀ (v39 : BitVec 32) (k37_hw5 : k37_chk5 v39), ∀ a, (k37_off10 v39) a + S1x64.size a ≤ S100000x64.size a := fun v39 k37_hw5 => k37_hw5.1
theorem k37_off21_inb : ∀ (v39 : BitVec 32) (k37_hw5 : k37_chk5 v39), ∀ a, (k37_off21 v39) a + S1x64.size a ≤ S100000x64.size a := fun v39 k37_hw5 => k37_hw5.2

def k37_off22 (v48 : BitVec 32) : Fin 2 → Nat :=
  let c0_i32_55 : BitVec 32 := 0#32
  ![v48.toNat, 0]

def k37_chk6 (v48 : BitVec 32) : Prop :=
  (∀ a, (k37_off12 v48) a + S1x64.size a ≤ S100000x64.size a) ∧
  (∀ a, (k37_off22 v48) a + S1x64.size a ≤ S100000x64.size a)
instance k37_chk6.dec : ∀ (v48 : BitVec 32), Decidable (k37_chk6 v48) := fun v48 => decidable_of_iff' _ (Iff.of_eq (k37_chk6.eq_1 v48))
theorem k37_off12_inb : ∀ (v48 : BitVec 32) (k37_hw6 : k37_chk6 v48), ∀ a, (k37_off12 v48) a + S1x64.size a ≤ S100000x64.size a := fun v48 k37_hw6 => k37_hw6.1
theorem k37_off22_inb : ∀ (v48 : BitVec 32) (k37_hw6 : k37_chk6 v48), ∀ a, (k37_off22 v48) a + S1x64.size a ≤ S100000x64.size a := fun v48 k37_hw6 => k37_hw6.2

def k37_off23 (v57 : BitVec 32) : Fin 2 → Nat :=
  let c0_i32_59 : BitVec 32 := 0#32
  ![v57.toNat, 0]

def k37_chk7 (v57 : BitVec 32) : Prop :=
  (∀ a, (k37_off14 v57) a + S1x64.size a ≤ S100000x64.size a) ∧
  (∀ a, (k37_off23 v57) a + S1x64.size a ≤ S100000x64.size a)
instance k37_chk7.dec : ∀ (v57 : BitVec 32), Decidable (k37_chk7 v57) := fun v57 => decidable_of_iff' _ (Iff.of_eq (k37_chk7.eq_1 v57))
theorem k37_off14_inb : ∀ (v57 : BitVec 32) (k37_hw7 : k37_chk7 v57), ∀ a, (k37_off14 v57) a + S1x64.size a ≤ S100000x64.size a := fun v57 k37_hw7 => k37_hw7.1
theorem k37_off23_inb : ∀ (v57 : BitVec 32) (k37_hw7 : k37_chk7 v57), ∀ a, (k37_off23 v57) a + S1x64.size a ≤ S100000x64.size a := fun v57 k37_hw7 => k37_hw7.2

def cc37_transform_1 (i : grid37.Coords) : Fin 2 → Nat :=
  let arg0 : BitVec 32 := BitVec.ofNat 32 (i 0).val
  let c0_i32 : BitVec 32 := 0#32
  let c0_i32_0 : BitVec 32 := 0#32
  ![arg0.toNat, c0_i32.toNat]

def cc37_transform_2 (i : grid37.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage37_0 : Fin 2 → Memref sig .tc .vmem S8x1 .f32 := fun | 0 => Memref.whole cc37_stg0_0 | 1 => Memref.whole cc37_stg0_1 | ⟨_ + 2, h⟩ => absurd h (Nat.not_lt.2 (Nat.le_add_left _ _))
abbrev sem37_0 : Fin 2 → DmaSem sig := fun | 0 => cc37_sem0_0 | 1 => cc37_sem0_1 | ⟨_ + 2, h⟩ => absurd h (Nat.not_lt.2 (Nat.le_add_left _ _))
abbrev reads37_0 : Fin grid37.rank → Bool := ![true]

abbrev stage37_1 : Fin 2 → Memref sig .tc .vmem S8x64 .f32 := fun | 0 => Memref.whole cc37_stg1_0 | 1 => Memref.whole cc37_stg1_1 | ⟨_ + 2, h⟩ => absurd h (Nat.not_lt.2 (Nat.le_add_left _ _))
abbrev sem37_1 : Fin 2 → DmaSem sig := fun | 0 => cc37_sem1_0 | 1 => cc37_sem1_1 | ⟨_ + 2, h⟩ => absurd h (Nat.not_lt.2 (Nat.le_add_left _ _))
abbrev reads37_1 : Fin grid37.rank → Bool := ![true]

abbrev grid38 : Pipeline.Grid := ⟨1, ![12500], ![false]⟩

abbrev pre38 : Pipeline.Prefetch sig := ⟨1, ![main_v163.idx], fun | 0 => main_v163.names | ⟨_ + 1, h⟩ => absurd h (Nat.not_lt.2 (Nat.le_add_left _ _)), fun | 0 => rfl | ⟨_ + 1, h⟩ => absurd h (Nat.not_lt.2 (Nat.le_add_left _ _))⟩

def k38_off1 (i : grid38.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k38_off2 (v3 : BitVec 32) : Fin 2 → Nat :=
  let c0_i32_3 : BitVec 32 := 0#32
  ![v3.toNat, 0]

def k38_off3 (i : grid38.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k38_off4 (v12 : BitVec 32) : Fin 2 → Nat :=
  let c0_i32_7 : BitVec 32 := 0#32
  ![v12.toNat, 0]

def k38_off5 (i : grid38.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k38_off6 (v21 : BitVec 32) : Fin 2 → Nat :=
  let c0_i32_11 : BitVec 32 := 0#32
  ![v21.toNat, 0]

def k38_off7 (i : grid38.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k38_off8 (v30 : BitVec 32) : Fin 2 → Nat :=
  let c0_i32_15 : BitVec 32 := 0#32
  ![v30.toNat, 0]

def k38_off9 (i : grid38.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k38_off10 (v39 : BitVec 32) : Fin 2 → Nat :=
  let c0_i32_19 : BitVec 32 := 0#32
  ![v39.toNat, 0]

def k38_off11 (i : grid38.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k38_off12 (v48 : BitVec 32) : Fin 2 → Nat :=
  let c0_i32_23 : BitVec 32 := 0#32
  ![v48.toNat, 0]

def k38_off13 (i : grid38.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k38_off14 (v57 : BitVec 32) : Fin 2 → Nat :=
  let c0_i32_27 : BitVec 32 := 0#32
  ![v57.toNat, 0]

def k38_off15 (i : grid38.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k38_off16 (v66 : BitVec 32) : Fin 2 → Nat :=
  let c0_i32_31 : BitVec 32 := 0#32
  ![v66.toNat, 0]

def k38_chk8 (v66 : BitVec 32) : Prop :=
  (∀ a, (k38_off16 v66) a + S1x64.size a ≤ S100000x64.size a)
instance k38_chk8.dec : ∀ (v66 : BitVec 32), Decidable (k38_chk8 v66) := fun v66 => decidable_of_iff' _ (Iff.of_eq (k38_chk8.eq_1 v66))
theorem k38_off16_inb : ∀ (v66 : BitVec 32) (k38_hw8 : k38_chk8 v66), ∀ a, (k38_off16 v66) a + S1x64.size a ≤ S100000x64.size a := fun v66 k38_hw8 => k38_hw8

def k38_off17 (v3 : BitVec 32) : Fin 2 → Nat :=
  let c0_i32_35 : BitVec 32 := 0#32
  ![v3.toNat, 0]

def k38_chk1 (v3 : BitVec 32) : Prop :=
  (∀ a, (k38_off2 v3) a + S1x64.size a ≤ S100000x64.size a) ∧
  (∀ a, (k38_off17 v3) a + S1x64.size a ≤ S100000x64.size a)
instance k38_chk1.dec : ∀ (v3 : BitVec 32), Decidable (k38_chk1 v3) := fun v3 => decidable_of_iff' _ (Iff.of_eq (k38_chk1.eq_1 v3))
theorem k38_off2_inb : ∀ (v3 : BitVec 32) (k38_hw1 : k38_chk1 v3), ∀ a, (k38_off2 v3) a + S1x64.size a ≤ S100000x64.size a := fun v3 k38_hw1 => k38_hw1.1
theorem k38_off17_inb : ∀ (v3 : BitVec 32) (k38_hw1 : k38_chk1 v3), ∀ a, (k38_off17 v3) a + S1x64.size a ≤ S100000x64.size a := fun v3 k38_hw1 => k38_hw1.2

def k38_off18 (v12 : BitVec 32) : Fin 2 → Nat :=
  let c0_i32_39 : BitVec 32 := 0#32
  ![v12.toNat, 0]

def k38_chk2 (v12 : BitVec 32) : Prop :=
  (∀ a, (k38_off4 v12) a + S1x64.size a ≤ S100000x64.size a) ∧
  (∀ a, (k38_off18 v12) a + S1x64.size a ≤ S100000x64.size a)
instance k38_chk2.dec : ∀ (v12 : BitVec 32), Decidable (k38_chk2 v12) := fun v12 => decidable_of_iff' _ (Iff.of_eq (k38_chk2.eq_1 v12))
theorem k38_off4_inb : ∀ (v12 : BitVec 32) (k38_hw2 : k38_chk2 v12), ∀ a, (k38_off4 v12) a + S1x64.size a ≤ S100000x64.size a := fun v12 k38_hw2 => k38_hw2.1
theorem k38_off18_inb : ∀ (v12 : BitVec 32) (k38_hw2 : k38_chk2 v12), ∀ a, (k38_off18 v12) a + S1x64.size a ≤ S100000x64.size a := fun v12 k38_hw2 => k38_hw2.2

def k38_off19 (v21 : BitVec 32) : Fin 2 → Nat :=
  let c0_i32_43 : BitVec 32 := 0#32
  ![v21.toNat, 0]

def k38_chk3 (v21 : BitVec 32) : Prop :=
  (∀ a, (k38_off6 v21) a + S1x64.size a ≤ S100000x64.size a) ∧
  (∀ a, (k38_off19 v21) a + S1x64.size a ≤ S100000x64.size a)
instance k38_chk3.dec : ∀ (v21 : BitVec 32), Decidable (k38_chk3 v21) := fun v21 => decidable_of_iff' _ (Iff.of_eq (k38_chk3.eq_1 v21))
theorem k38_off6_inb : ∀ (v21 : BitVec 32) (k38_hw3 : k38_chk3 v21), ∀ a, (k38_off6 v21) a + S1x64.size a ≤ S100000x64.size a := fun v21 k38_hw3 => k38_hw3.1
theorem k38_off19_inb : ∀ (v21 : BitVec 32) (k38_hw3 : k38_chk3 v21), ∀ a, (k38_off19 v21) a + S1x64.size a ≤ S100000x64.size a := fun v21 k38_hw3 => k38_hw3.2

def k38_off20 (v30 : BitVec 32) : Fin 2 → Nat :=
  let c0_i32_47 : BitVec 32 := 0#32
  ![v30.toNat, 0]

def k38_chk4 (v30 : BitVec 32) : Prop :=
  (∀ a, (k38_off8 v30) a + S1x64.size a ≤ S100000x64.size a) ∧
  (∀ a, (k38_off20 v30) a + S1x64.size a ≤ S100000x64.size a)
instance k38_chk4.dec : ∀ (v30 : BitVec 32), Decidable (k38_chk4 v30) := fun v30 => decidable_of_iff' _ (Iff.of_eq (k38_chk4.eq_1 v30))
theorem k38_off8_inb : ∀ (v30 : BitVec 32) (k38_hw4 : k38_chk4 v30), ∀ a, (k38_off8 v30) a + S1x64.size a ≤ S100000x64.size a := fun v30 k38_hw4 => k38_hw4.1
theorem k38_off20_inb : ∀ (v30 : BitVec 32) (k38_hw4 : k38_chk4 v30), ∀ a, (k38_off20 v30) a + S1x64.size a ≤ S100000x64.size a := fun v30 k38_hw4 => k38_hw4.2

def k38_off21 (v39 : BitVec 32) : Fin 2 → Nat :=
  let c0_i32_51 : BitVec 32 := 0#32
  ![v39.toNat, 0]

def k38_chk5 (v39 : BitVec 32) : Prop :=
  (∀ a, (k38_off10 v39) a + S1x64.size a ≤ S100000x64.size a) ∧
  (∀ a, (k38_off21 v39) a + S1x64.size a ≤ S100000x64.size a)
instance k38_chk5.dec : ∀ (v39 : BitVec 32), Decidable (k38_chk5 v39) := fun v39 => decidable_of_iff' _ (Iff.of_eq (k38_chk5.eq_1 v39))
theorem k38_off10_inb : ∀ (v39 : BitVec 32) (k38_hw5 : k38_chk5 v39), ∀ a, (k38_off10 v39) a + S1x64.size a ≤ S100000x64.size a := fun v39 k38_hw5 => k38_hw5.1
theorem k38_off21_inb : ∀ (v39 : BitVec 32) (k38_hw5 : k38_chk5 v39), ∀ a, (k38_off21 v39) a + S1x64.size a ≤ S100000x64.size a := fun v39 k38_hw5 => k38_hw5.2

def k38_off22 (v48 : BitVec 32) : Fin 2 → Nat :=
  let c0_i32_55 : BitVec 32 := 0#32
  ![v48.toNat, 0]

def k38_chk6 (v48 : BitVec 32) : Prop :=
  (∀ a, (k38_off12 v48) a + S1x64.size a ≤ S100000x64.size a) ∧
  (∀ a, (k38_off22 v48) a + S1x64.size a ≤ S100000x64.size a)
instance k38_chk6.dec : ∀ (v48 : BitVec 32), Decidable (k38_chk6 v48) := fun v48 => decidable_of_iff' _ (Iff.of_eq (k38_chk6.eq_1 v48))
theorem k38_off12_inb : ∀ (v48 : BitVec 32) (k38_hw6 : k38_chk6 v48), ∀ a, (k38_off12 v48) a + S1x64.size a ≤ S100000x64.size a := fun v48 k38_hw6 => k38_hw6.1
theorem k38_off22_inb : ∀ (v48 : BitVec 32) (k38_hw6 : k38_chk6 v48), ∀ a, (k38_off22 v48) a + S1x64.size a ≤ S100000x64.size a := fun v48 k38_hw6 => k38_hw6.2

def k38_off23 (v57 : BitVec 32) : Fin 2 → Nat :=
  let c0_i32_59 : BitVec 32 := 0#32
  ![v57.toNat, 0]

def k38_chk7 (v57 : BitVec 32) : Prop :=
  (∀ a, (k38_off14 v57) a + S1x64.size a ≤ S100000x64.size a) ∧
  (∀ a, (k38_off23 v57) a + S1x64.size a ≤ S100000x64.size a)
instance k38_chk7.dec : ∀ (v57 : BitVec 32), Decidable (k38_chk7 v57) := fun v57 => decidable_of_iff' _ (Iff.of_eq (k38_chk7.eq_1 v57))
theorem k38_off14_inb : ∀ (v57 : BitVec 32) (k38_hw7 : k38_chk7 v57), ∀ a, (k38_off14 v57) a + S1x64.size a ≤ S100000x64.size a := fun v57 k38_hw7 => k38_hw7.1
theorem k38_off23_inb : ∀ (v57 : BitVec 32) (k38_hw7 : k38_chk7 v57), ∀ a, (k38_off23 v57) a + S1x64.size a ≤ S100000x64.size a := fun v57 k38_hw7 => k38_hw7.2

def cc38_transform_1 (i : grid38.Coords) : Fin 2 → Nat :=
  let arg0 : BitVec 32 := BitVec.ofNat 32 (i 0).val
  let c0_i32 : BitVec 32 := 0#32
  let c0_i32_0 : BitVec 32 := 0#32
  ![arg0.toNat, c0_i32.toNat]

def cc38_transform_2 (i : grid38.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage38_0 : Fin 2 → Memref sig .tc .vmem S8x1 .f32 := fun | 0 => Memref.whole cc38_stg0_0 | 1 => Memref.whole cc38_stg0_1 | ⟨_ + 2, h⟩ => absurd h (Nat.not_lt.2 (Nat.le_add_left _ _))
abbrev sem38_0 : Fin 2 → DmaSem sig := fun | 0 => cc38_sem0_0 | 1 => cc38_sem0_1 | ⟨_ + 2, h⟩ => absurd h (Nat.not_lt.2 (Nat.le_add_left _ _))
abbrev reads38_0 : Fin grid38.rank → Bool := ![true]

abbrev stage38_1 : Fin 2 → Memref sig .tc .vmem S8x64 .f32 := fun | 0 => Memref.whole cc38_stg1_0 | 1 => Memref.whole cc38_stg1_1 | ⟨_ + 2, h⟩ => absurd h (Nat.not_lt.2 (Nat.le_add_left _ _))
abbrev sem38_1 : Fin 2 → DmaSem sig := fun | 0 => cc38_sem1_0 | 1 => cc38_sem1_1 | ⟨_ + 2, h⟩ => absurd h (Nat.not_lt.2 (Nat.le_add_left _ _))
abbrev reads38_1 : Fin grid38.rank → Bool := ![true]

abbrev grid39 : Pipeline.Grid := ⟨1, ![12500], ![false]⟩

abbrev pre39 : Pipeline.Prefetch sig := ⟨1, ![main_v167.idx], fun | 0 => main_v167.names | ⟨_ + 1, h⟩ => absurd h (Nat.not_lt.2 (Nat.le_add_left _ _)), fun | 0 => rfl | ⟨_ + 1, h⟩ => absurd h (Nat.not_lt.2 (Nat.le_add_left _ _))⟩

def k39_off1 (i : grid39.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k39_off2 (v3 : BitVec 32) : Fin 2 → Nat :=
  let c0_i32_3 : BitVec 32 := 0#32
  ![v3.toNat, 0]

def k39_off3 (i : grid39.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k39_off4 (v12 : BitVec 32) : Fin 2 → Nat :=
  let c0_i32_7 : BitVec 32 := 0#32
  ![v12.toNat, 0]

def k39_off5 (i : grid39.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k39_off6 (v21 : BitVec 32) : Fin 2 → Nat :=
  let c0_i32_11 : BitVec 32 := 0#32
  ![v21.toNat, 0]

def k39_off7 (i : grid39.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k39_off8 (v30 : BitVec 32) : Fin 2 → Nat :=
  let c0_i32_15 : BitVec 32 := 0#32
  ![v30.toNat, 0]

def k39_off9 (i : grid39.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k39_off10 (v39 : BitVec 32) : Fin 2 → Nat :=
  let c0_i32_19 : BitVec 32 := 0#32
  ![v39.toNat, 0]

def k39_off11 (i : grid39.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k39_off12 (v48 : BitVec 32) : Fin 2 → Nat :=
  let c0_i32_23 : BitVec 32 := 0#32
  ![v48.toNat, 0]

def k39_off13 (i : grid39.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k39_off14 (v57 : BitVec 32) : Fin 2 → Nat :=
  let c0_i32_27 : BitVec 32 := 0#32
  ![v57.toNat, 0]

def k39_off15 (i : grid39.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k39_off16 (v66 : BitVec 32) : Fin 2 → Nat :=
  let c0_i32_31 : BitVec 32 := 0#32
  ![v66.toNat, 0]

def k39_chk8 (v66 : BitVec 32) : Prop :=
  (∀ a, (k39_off16 v66) a + S1x64.size a ≤ S100000x64.size a)
instance k39_chk8.dec : ∀ (v66 : BitVec 32), Decidable (k39_chk8 v66) := fun v66 => decidable_of_iff' _ (Iff.of_eq (k39_chk8.eq_1 v66))
theorem k39_off16_inb : ∀ (v66 : BitVec 32) (k39_hw8 : k39_chk8 v66), ∀ a, (k39_off16 v66) a + S1x64.size a ≤ S100000x64.size a := fun v66 k39_hw8 => k39_hw8

def k39_off17 (v3 : BitVec 32) : Fin 2 → Nat :=
  let c0_i32_35 : BitVec 32 := 0#32
  ![v3.toNat, 0]

def k39_chk1 (v3 : BitVec 32) : Prop :=
  (∀ a, (k39_off2 v3) a + S1x64.size a ≤ S100000x64.size a) ∧
  (∀ a, (k39_off17 v3) a + S1x64.size a ≤ S100000x64.size a)
instance k39_chk1.dec : ∀ (v3 : BitVec 32), Decidable (k39_chk1 v3) := fun v3 => decidable_of_iff' _ (Iff.of_eq (k39_chk1.eq_1 v3))
theorem k39_off2_inb : ∀ (v3 : BitVec 32) (k39_hw1 : k39_chk1 v3), ∀ a, (k39_off2 v3) a + S1x64.size a ≤ S100000x64.size a := fun v3 k39_hw1 => k39_hw1.1
theorem k39_off17_inb : ∀ (v3 : BitVec 32) (k39_hw1 : k39_chk1 v3), ∀ a, (k39_off17 v3) a + S1x64.size a ≤ S100000x64.size a := fun v3 k39_hw1 => k39_hw1.2

def k39_off18 (v12 : BitVec 32) : Fin 2 → Nat :=
  let c0_i32_39 : BitVec 32 := 0#32
  ![v12.toNat, 0]

def k39_chk2 (v12 : BitVec 32) : Prop :=
  (∀ a, (k39_off4 v12) a + S1x64.size a ≤ S100000x64.size a) ∧
  (∀ a, (k39_off18 v12) a + S1x64.size a ≤ S100000x64.size a)
instance k39_chk2.dec : ∀ (v12 : BitVec 32), Decidable (k39_chk2 v12) := fun v12 => decidable_of_iff' _ (Iff.of_eq (k39_chk2.eq_1 v12))
theorem k39_off4_inb : ∀ (v12 : BitVec 32) (k39_hw2 : k39_chk2 v12), ∀ a, (k39_off4 v12) a + S1x64.size a ≤ S100000x64.size a := fun v12 k39_hw2 => k39_hw2.1
theorem k39_off18_inb : ∀ (v12 : BitVec 32) (k39_hw2 : k39_chk2 v12), ∀ a, (k39_off18 v12) a + S1x64.size a ≤ S100000x64.size a := fun v12 k39_hw2 => k39_hw2.2

def k39_off19 (v21 : BitVec 32) : Fin 2 → Nat :=
  let c0_i32_43 : BitVec 32 := 0#32
  ![v21.toNat, 0]

def k39_chk3 (v21 : BitVec 32) : Prop :=
  (∀ a, (k39_off6 v21) a + S1x64.size a ≤ S100000x64.size a) ∧
  (∀ a, (k39_off19 v21) a + S1x64.size a ≤ S100000x64.size a)
instance k39_chk3.dec : ∀ (v21 : BitVec 32), Decidable (k39_chk3 v21) := fun v21 => decidable_of_iff' _ (Iff.of_eq (k39_chk3.eq_1 v21))
theorem k39_off6_inb : ∀ (v21 : BitVec 32) (k39_hw3 : k39_chk3 v21), ∀ a, (k39_off6 v21) a + S1x64.size a ≤ S100000x64.size a := fun v21 k39_hw3 => k39_hw3.1
theorem k39_off19_inb : ∀ (v21 : BitVec 32) (k39_hw3 : k39_chk3 v21), ∀ a, (k39_off19 v21) a + S1x64.size a ≤ S100000x64.size a := fun v21 k39_hw3 => k39_hw3.2

def k39_off20 (v30 : BitVec 32) : Fin 2 → Nat :=
  let c0_i32_47 : BitVec 32 := 0#32
  ![v30.toNat, 0]

def k39_chk4 (v30 : BitVec 32) : Prop :=
  (∀ a, (k39_off8 v30) a + S1x64.size a ≤ S100000x64.size a) ∧
  (∀ a, (k39_off20 v30) a + S1x64.size a ≤ S100000x64.size a)
instance k39_chk4.dec : ∀ (v30 : BitVec 32), Decidable (k39_chk4 v30) := fun v30 => decidable_of_iff' _ (Iff.of_eq (k39_chk4.eq_1 v30))
theorem k39_off8_inb : ∀ (v30 : BitVec 32) (k39_hw4 : k39_chk4 v30), ∀ a, (k39_off8 v30) a + S1x64.size a ≤ S100000x64.size a := fun v30 k39_hw4 => k39_hw4.1
theorem k39_off20_inb : ∀ (v30 : BitVec 32) (k39_hw4 : k39_chk4 v30), ∀ a, (k39_off20 v30) a + S1x64.size a ≤ S100000x64.size a := fun v30 k39_hw4 => k39_hw4.2

def k39_off21 (v39 : BitVec 32) : Fin 2 → Nat :=
  let c0_i32_51 : BitVec 32 := 0#32
  ![v39.toNat, 0]

def k39_chk5 (v39 : BitVec 32) : Prop :=
  (∀ a, (k39_off10 v39) a + S1x64.size a ≤ S100000x64.size a) ∧
  (∀ a, (k39_off21 v39) a + S1x64.size a ≤ S100000x64.size a)
instance k39_chk5.dec : ∀ (v39 : BitVec 32), Decidable (k39_chk5 v39) := fun v39 => decidable_of_iff' _ (Iff.of_eq (k39_chk5.eq_1 v39))
theorem k39_off10_inb : ∀ (v39 : BitVec 32) (k39_hw5 : k39_chk5 v39), ∀ a, (k39_off10 v39) a + S1x64.size a ≤ S100000x64.size a := fun v39 k39_hw5 => k39_hw5.1
theorem k39_off21_inb : ∀ (v39 : BitVec 32) (k39_hw5 : k39_chk5 v39), ∀ a, (k39_off21 v39) a + S1x64.size a ≤ S100000x64.size a := fun v39 k39_hw5 => k39_hw5.2

def k39_off22 (v48 : BitVec 32) : Fin 2 → Nat :=
  let c0_i32_55 : BitVec 32 := 0#32
  ![v48.toNat, 0]

def k39_chk6 (v48 : BitVec 32) : Prop :=
  (∀ a, (k39_off12 v48) a + S1x64.size a ≤ S100000x64.size a) ∧
  (∀ a, (k39_off22 v48) a + S1x64.size a ≤ S100000x64.size a)
instance k39_chk6.dec : ∀ (v48 : BitVec 32), Decidable (k39_chk6 v48) := fun v48 => decidable_of_iff' _ (Iff.of_eq (k39_chk6.eq_1 v48))
theorem k39_off12_inb : ∀ (v48 : BitVec 32) (k39_hw6 : k39_chk6 v48), ∀ a, (k39_off12 v48) a + S1x64.size a ≤ S100000x64.size a := fun v48 k39_hw6 => k39_hw6.1
theorem k39_off22_inb : ∀ (v48 : BitVec 32) (k39_hw6 : k39_chk6 v48), ∀ a, (k39_off22 v48) a + S1x64.size a ≤ S100000x64.size a := fun v48 k39_hw6 => k39_hw6.2

def k39_off23 (v57 : BitVec 32) : Fin 2 → Nat :=
  let c0_i32_59 : BitVec 32 := 0#32
  ![v57.toNat, 0]

def k39_chk7 (v57 : BitVec 32) : Prop :=
  (∀ a, (k39_off14 v57) a + S1x64.size a ≤ S100000x64.size a) ∧
  (∀ a, (k39_off23 v57) a + S1x64.size a ≤ S100000x64.size a)
instance k39_chk7.dec : ∀ (v57 : BitVec 32), Decidable (k39_chk7 v57) := fun v57 => decidable_of_iff' _ (Iff.of_eq (k39_chk7.eq_1 v57))
theorem k39_off14_inb : ∀ (v57 : BitVec 32) (k39_hw7 : k39_chk7 v57), ∀ a, (k39_off14 v57) a + S1x64.size a ≤ S100000x64.size a := fun v57 k39_hw7 => k39_hw7.1
theorem k39_off23_inb : ∀ (v57 : BitVec 32) (k39_hw7 : k39_chk7 v57), ∀ a, (k39_off23 v57) a + S1x64.size a ≤ S100000x64.size a := fun v57 k39_hw7 => k39_hw7.2

def cc39_transform_1 (i : grid39.Coords) : Fin 2 → Nat :=
  let arg0 : BitVec 32 := BitVec.ofNat 32 (i 0).val
  let c0_i32 : BitVec 32 := 0#32
  let c0_i32_0 : BitVec 32 := 0#32
  ![arg0.toNat, c0_i32.toNat]

def cc39_transform_2 (i : grid39.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage39_0 : Fin 2 → Memref sig .tc .vmem S8x1 .f32 := fun | 0 => Memref.whole cc39_stg0_0 | 1 => Memref.whole cc39_stg0_1 | ⟨_ + 2, h⟩ => absurd h (Nat.not_lt.2 (Nat.le_add_left _ _))
abbrev sem39_0 : Fin 2 → DmaSem sig := fun | 0 => cc39_sem0_0 | 1 => cc39_sem0_1 | ⟨_ + 2, h⟩ => absurd h (Nat.not_lt.2 (Nat.le_add_left _ _))
abbrev reads39_0 : Fin grid39.rank → Bool := ![true]

abbrev stage39_1 : Fin 2 → Memref sig .tc .vmem S8x64 .f32 := fun | 0 => Memref.whole cc39_stg1_0 | 1 => Memref.whole cc39_stg1_1 | ⟨_ + 2, h⟩ => absurd h (Nat.not_lt.2 (Nat.le_add_left _ _))
abbrev sem39_1 : Fin 2 → DmaSem sig := fun | 0 => cc39_sem1_0 | 1 => cc39_sem1_1 | ⟨_ + 2, h⟩ => absurd h (Nat.not_lt.2 (Nat.le_add_left _ _))
abbrev reads39_1 : Fin grid39.rank → Bool := ![true]

abbrev grid40 : Pipeline.Grid := ⟨1, ![12500], ![false]⟩

abbrev pre40 : Pipeline.Prefetch sig := ⟨1, ![main_v171.idx], fun | 0 => main_v171.names | ⟨_ + 1, h⟩ => absurd h (Nat.not_lt.2 (Nat.le_add_left _ _)), fun | 0 => rfl | ⟨_ + 1, h⟩ => absurd h (Nat.not_lt.2 (Nat.le_add_left _ _))⟩

def k40_off1 (i : grid40.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k40_off2 (v3 : BitVec 32) : Fin 2 → Nat :=
  let c0_i32_3 : BitVec 32 := 0#32
  ![v3.toNat, 0]

def k40_off3 (i : grid40.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k40_off4 (v12 : BitVec 32) : Fin 2 → Nat :=
  let c0_i32_7 : BitVec 32 := 0#32
  ![v12.toNat, 0]

def k40_off5 (i : grid40.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k40_off6 (v21 : BitVec 32) : Fin 2 → Nat :=
  let c0_i32_11 : BitVec 32 := 0#32
  ![v21.toNat, 0]

def k40_off7 (i : grid40.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k40_off8 (v30 : BitVec 32) : Fin 2 → Nat :=
  let c0_i32_15 : BitVec 32 := 0#32
  ![v30.toNat, 0]

def k40_off9 (i : grid40.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k40_off10 (v39 : BitVec 32) : Fin 2 → Nat :=
  let c0_i32_19 : BitVec 32 := 0#32
  ![v39.toNat, 0]

def k40_off11 (i : grid40.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k40_off12 (v48 : BitVec 32) : Fin 2 → Nat :=
  let c0_i32_23 : BitVec 32 := 0#32
  ![v48.toNat, 0]

def k40_off13 (i : grid40.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k40_off14 (v57 : BitVec 32) : Fin 2 → Nat :=
  let c0_i32_27 : BitVec 32 := 0#32
  ![v57.toNat, 0]

def k40_off15 (i : grid40.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k40_off16 (v66 : BitVec 32) : Fin 2 → Nat :=
  let c0_i32_31 : BitVec 32 := 0#32
  ![v66.toNat, 0]

def k40_chk8 (v66 : BitVec 32) : Prop :=
  (∀ a, (k40_off16 v66) a + S1x64.size a ≤ S100000x64.size a)
instance k40_chk8.dec : ∀ (v66 : BitVec 32), Decidable (k40_chk8 v66) := fun v66 => decidable_of_iff' _ (Iff.of_eq (k40_chk8.eq_1 v66))
theorem k40_off16_inb : ∀ (v66 : BitVec 32) (k40_hw8 : k40_chk8 v66), ∀ a, (k40_off16 v66) a + S1x64.size a ≤ S100000x64.size a := fun v66 k40_hw8 => k40_hw8

def k40_off17 (v3 : BitVec 32) : Fin 2 → Nat :=
  let c0_i32_35 : BitVec 32 := 0#32
  ![v3.toNat, 0]

def k40_chk1 (v3 : BitVec 32) : Prop :=
  (∀ a, (k40_off2 v3) a + S1x64.size a ≤ S100000x64.size a) ∧
  (∀ a, (k40_off17 v3) a + S1x64.size a ≤ S100000x64.size a)
instance k40_chk1.dec : ∀ (v3 : BitVec 32), Decidable (k40_chk1 v3) := fun v3 => decidable_of_iff' _ (Iff.of_eq (k40_chk1.eq_1 v3))
theorem k40_off2_inb : ∀ (v3 : BitVec 32) (k40_hw1 : k40_chk1 v3), ∀ a, (k40_off2 v3) a + S1x64.size a ≤ S100000x64.size a := fun v3 k40_hw1 => k40_hw1.1
theorem k40_off17_inb : ∀ (v3 : BitVec 32) (k40_hw1 : k40_chk1 v3), ∀ a, (k40_off17 v3) a + S1x64.size a ≤ S100000x64.size a := fun v3 k40_hw1 => k40_hw1.2

def k40_off18 (v12 : BitVec 32) : Fin 2 → Nat :=
  let c0_i32_39 : BitVec 32 := 0#32
  ![v12.toNat, 0]

def k40_chk2 (v12 : BitVec 32) : Prop :=
  (∀ a, (k40_off4 v12) a + S1x64.size a ≤ S100000x64.size a) ∧
  (∀ a, (k40_off18 v12) a + S1x64.size a ≤ S100000x64.size a)
instance k40_chk2.dec : ∀ (v12 : BitVec 32), Decidable (k40_chk2 v12) := fun v12 => decidable_of_iff' _ (Iff.of_eq (k40_chk2.eq_1 v12))
theorem k40_off4_inb : ∀ (v12 : BitVec 32) (k40_hw2 : k40_chk2 v12), ∀ a, (k40_off4 v12) a + S1x64.size a ≤ S100000x64.size a := fun v12 k40_hw2 => k40_hw2.1
theorem k40_off18_inb : ∀ (v12 : BitVec 32) (k40_hw2 : k40_chk2 v12), ∀ a, (k40_off18 v12) a + S1x64.size a ≤ S100000x64.size a := fun v12 k40_hw2 => k40_hw2.2

def k40_off19 (v21 : BitVec 32) : Fin 2 → Nat :=
  let c0_i32_43 : BitVec 32 := 0#32
  ![v21.toNat, 0]

def k40_chk3 (v21 : BitVec 32) : Prop :=
  (∀ a, (k40_off6 v21) a + S1x64.size a ≤ S100000x64.size a) ∧
  (∀ a, (k40_off19 v21) a + S1x64.size a ≤ S100000x64.size a)
instance k40_chk3.dec : ∀ (v21 : BitVec 32), Decidable (k40_chk3 v21) := fun v21 => decidable_of_iff' _ (Iff.of_eq (k40_chk3.eq_1 v21))
theorem k40_off6_inb : ∀ (v21 : BitVec 32) (k40_hw3 : k40_chk3 v21), ∀ a, (k40_off6 v21) a + S1x64.size a ≤ S100000x64.size a := fun v21 k40_hw3 => k40_hw3.1
theorem k40_off19_inb : ∀ (v21 : BitVec 32) (k40_hw3 : k40_chk3 v21), ∀ a, (k40_off19 v21) a + S1x64.size a ≤ S100000x64.size a := fun v21 k40_hw3 => k40_hw3.2

def k40_off20 (v30 : BitVec 32) : Fin 2 → Nat :=
  let c0_i32_47 : BitVec 32 := 0#32
  ![v30.toNat, 0]

def k40_chk4 (v30 : BitVec 32) : Prop :=
  (∀ a, (k40_off8 v30) a + S1x64.size a ≤ S100000x64.size a) ∧
  (∀ a, (k40_off20 v30) a + S1x64.size a ≤ S100000x64.size a)
instance k40_chk4.dec : ∀ (v30 : BitVec 32), Decidable (k40_chk4 v30) := fun v30 => decidable_of_iff' _ (Iff.of_eq (k40_chk4.eq_1 v30))
theorem k40_off8_inb : ∀ (v30 : BitVec 32) (k40_hw4 : k40_chk4 v30), ∀ a, (k40_off8 v30) a + S1x64.size a ≤ S100000x64.size a := fun v30 k40_hw4 => k40_hw4.1
theorem k40_off20_inb : ∀ (v30 : BitVec 32) (k40_hw4 : k40_chk4 v30), ∀ a, (k40_off20 v30) a + S1x64.size a ≤ S100000x64.size a := fun v30 k40_hw4 => k40_hw4.2

def k40_off21 (v39 : BitVec 32) : Fin 2 → Nat :=
  let c0_i32_51 : BitVec 32 := 0#32
  ![v39.toNat, 0]

def k40_chk5 (v39 : BitVec 32) : Prop :=
  (∀ a, (k40_off10 v39) a + S1x64.size a ≤ S100000x64.size a) ∧
  (∀ a, (k40_off21 v39) a + S1x64.size a ≤ S100000x64.size a)
instance k40_chk5.dec : ∀ (v39 : BitVec 32), Decidable (k40_chk5 v39) := fun v39 => decidable_of_iff' _ (Iff.of_eq (k40_chk5.eq_1 v39))
theorem k40_off10_inb : ∀ (v39 : BitVec 32) (k40_hw5 : k40_chk5 v39), ∀ a, (k40_off10 v39) a + S1x64.size a ≤ S100000x64.size a := fun v39 k40_hw5 => k40_hw5.1
theorem k40_off21_inb : ∀ (v39 : BitVec 32) (k40_hw5 : k40_chk5 v39), ∀ a, (k40_off21 v39) a + S1x64.size a ≤ S100000x64.size a := fun v39 k40_hw5 => k40_hw5.2

def k40_off22 (v48 : BitVec 32) : Fin 2 → Nat :=
  let c0_i32_55 : BitVec 32 := 0#32
  ![v48.toNat, 0]

def k40_chk6 (v48 : BitVec 32) : Prop :=
  (∀ a, (k40_off12 v48) a + S1x64.size a ≤ S100000x64.size a) ∧
  (∀ a, (k40_off22 v48) a + S1x64.size a ≤ S100000x64.size a)
instance k40_chk6.dec : ∀ (v48 : BitVec 32), Decidable (k40_chk6 v48) := fun v48 => decidable_of_iff' _ (Iff.of_eq (k40_chk6.eq_1 v48))
theorem k40_off12_inb : ∀ (v48 : BitVec 32) (k40_hw6 : k40_chk6 v48), ∀ a, (k40_off12 v48) a + S1x64.size a ≤ S100000x64.size a := fun v48 k40_hw6 => k40_hw6.1
theorem k40_off22_inb : ∀ (v48 : BitVec 32) (k40_hw6 : k40_chk6 v48), ∀ a, (k40_off22 v48) a + S1x64.size a ≤ S100000x64.size a := fun v48 k40_hw6 => k40_hw6.2

def k40_off23 (v57 : BitVec 32) : Fin 2 → Nat :=
  let c0_i32_59 : BitVec 32 := 0#32
  ![v57.toNat, 0]

def k40_chk7 (v57 : BitVec 32) : Prop :=
  (∀ a, (k40_off14 v57) a + S1x64.size a ≤ S100000x64.size a) ∧
  (∀ a, (k40_off23 v57) a + S1x64.size a ≤ S100000x64.size a)
instance k40_chk7.dec : ∀ (v57 : BitVec 32), Decidable (k40_chk7 v57) := fun v57 => decidable_of_iff' _ (Iff.of_eq (k40_chk7.eq_1 v57))
theorem k40_off14_inb : ∀ (v57 : BitVec 32) (k40_hw7 : k40_chk7 v57), ∀ a, (k40_off14 v57) a + S1x64.size a ≤ S100000x64.size a := fun v57 k40_hw7 => k40_hw7.1
theorem k40_off23_inb : ∀ (v57 : BitVec 32) (k40_hw7 : k40_chk7 v57), ∀ a, (k40_off23 v57) a + S1x64.size a ≤ S100000x64.size a := fun v57 k40_hw7 => k40_hw7.2

def cc40_transform_1 (i : grid40.Coords) : Fin 2 → Nat :=
  let arg0 : BitVec 32 := BitVec.ofNat 32 (i 0).val
  let c0_i32 : BitVec 32 := 0#32
  let c0_i32_0 : BitVec 32 := 0#32
  ![arg0.toNat, c0_i32.toNat]

def cc40_transform_2 (i : grid40.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage40_0 : Fin 2 → Memref sig .tc .vmem S8x1 .f32 := fun | 0 => Memref.whole cc40_stg0_0 | 1 => Memref.whole cc40_stg0_1 | ⟨_ + 2, h⟩ => absurd h (Nat.not_lt.2 (Nat.le_add_left _ _))
abbrev sem40_0 : Fin 2 → DmaSem sig := fun | 0 => cc40_sem0_0 | 1 => cc40_sem0_1 | ⟨_ + 2, h⟩ => absurd h (Nat.not_lt.2 (Nat.le_add_left _ _))
abbrev reads40_0 : Fin grid40.rank → Bool := ![true]

abbrev stage40_1 : Fin 2 → Memref sig .tc .vmem S8x64 .f32 := fun | 0 => Memref.whole cc40_stg1_0 | 1 => Memref.whole cc40_stg1_1 | ⟨_ + 2, h⟩ => absurd h (Nat.not_lt.2 (Nat.le_add_left _ _))
abbrev sem40_1 : Fin 2 → DmaSem sig := fun | 0 => cc40_sem1_0 | 1 => cc40_sem1_1 | ⟨_ + 2, h⟩ => absurd h (Nat.not_lt.2 (Nat.le_add_left _ _))
abbrev reads40_1 : Fin grid40.rank → Bool := ![true]

abbrev grid41 : Pipeline.Grid := ⟨1, ![12500], ![false]⟩

abbrev pre41 : Pipeline.Prefetch sig := ⟨1, ![main_v175.idx], fun | 0 => main_v175.names | ⟨_ + 1, h⟩ => absurd h (Nat.not_lt.2 (Nat.le_add_left _ _)), fun | 0 => rfl | ⟨_ + 1, h⟩ => absurd h (Nat.not_lt.2 (Nat.le_add_left _ _))⟩

def k41_off1 (i : grid41.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k41_off2 (v3 : BitVec 32) : Fin 2 → Nat :=
  let c0_i32_3 : BitVec 32 := 0#32
  ![v3.toNat, 0]

def k41_off3 (i : grid41.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k41_off4 (v12 : BitVec 32) : Fin 2 → Nat :=
  let c0_i32_7 : BitVec 32 := 0#32
  ![v12.toNat, 0]

def k41_off5 (i : grid41.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k41_off6 (v21 : BitVec 32) : Fin 2 → Nat :=
  let c0_i32_11 : BitVec 32 := 0#32
  ![v21.toNat, 0]

def k41_off7 (i : grid41.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k41_off8 (v30 : BitVec 32) : Fin 2 → Nat :=
  let c0_i32_15 : BitVec 32 := 0#32
  ![v30.toNat, 0]

def k41_off9 (i : grid41.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k41_off10 (v39 : BitVec 32) : Fin 2 → Nat :=
  let c0_i32_19 : BitVec 32 := 0#32
  ![v39.toNat, 0]

def k41_off11 (i : grid41.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k41_off12 (v48 : BitVec 32) : Fin 2 → Nat :=
  let c0_i32_23 : BitVec 32 := 0#32
  ![v48.toNat, 0]

def k41_off13 (i : grid41.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k41_off14 (v57 : BitVec 32) : Fin 2 → Nat :=
  let c0_i32_27 : BitVec 32 := 0#32
  ![v57.toNat, 0]

def k41_off15 (i : grid41.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k41_off16 (v66 : BitVec 32) : Fin 2 → Nat :=
  let c0_i32_31 : BitVec 32 := 0#32
  ![v66.toNat, 0]

def k41_chk8 (v66 : BitVec 32) : Prop :=
  (∀ a, (k41_off16 v66) a + S1x64.size a ≤ S100000x64.size a)
instance k41_chk8.dec : ∀ (v66 : BitVec 32), Decidable (k41_chk8 v66) := fun v66 => decidable_of_iff' _ (Iff.of_eq (k41_chk8.eq_1 v66))
theorem k41_off16_inb : ∀ (v66 : BitVec 32) (k41_hw8 : k41_chk8 v66), ∀ a, (k41_off16 v66) a + S1x64.size a ≤ S100000x64.size a := fun v66 k41_hw8 => k41_hw8

def k41_off17 (v3 : BitVec 32) : Fin 2 → Nat :=
  let c0_i32_35 : BitVec 32 := 0#32
  ![v3.toNat, 0]

def k41_chk1 (v3 : BitVec 32) : Prop :=
  (∀ a, (k41_off2 v3) a + S1x64.size a ≤ S100000x64.size a) ∧
  (∀ a, (k41_off17 v3) a + S1x64.size a ≤ S100000x64.size a)
instance k41_chk1.dec : ∀ (v3 : BitVec 32), Decidable (k41_chk1 v3) := fun v3 => decidable_of_iff' _ (Iff.of_eq (k41_chk1.eq_1 v3))
theorem k41_off2_inb : ∀ (v3 : BitVec 32) (k41_hw1 : k41_chk1 v3), ∀ a, (k41_off2 v3) a + S1x64.size a ≤ S100000x64.size a := fun v3 k41_hw1 => k41_hw1.1
theorem k41_off17_inb : ∀ (v3 : BitVec 32) (k41_hw1 : k41_chk1 v3), ∀ a, (k41_off17 v3) a + S1x64.size a ≤ S100000x64.size a := fun v3 k41_hw1 => k41_hw1.2

def k41_off18 (v12 : BitVec 32) : Fin 2 → Nat :=
  let c0_i32_39 : BitVec 32 := 0#32
  ![v12.toNat, 0]

def k41_chk2 (v12 : BitVec 32) : Prop :=
  (∀ a, (k41_off4 v12) a + S1x64.size a ≤ S100000x64.size a) ∧
  (∀ a, (k41_off18 v12) a + S1x64.size a ≤ S100000x64.size a)
instance k41_chk2.dec : ∀ (v12 : BitVec 32), Decidable (k41_chk2 v12) := fun v12 => decidable_of_iff' _ (Iff.of_eq (k41_chk2.eq_1 v12))
theorem k41_off4_inb : ∀ (v12 : BitVec 32) (k41_hw2 : k41_chk2 v12), ∀ a, (k41_off4 v12) a + S1x64.size a ≤ S100000x64.size a := fun v12 k41_hw2 => k41_hw2.1
theorem k41_off18_inb : ∀ (v12 : BitVec 32) (k41_hw2 : k41_chk2 v12), ∀ a, (k41_off18 v12) a + S1x64.size a ≤ S100000x64.size a := fun v12 k41_hw2 => k41_hw2.2

def k41_off19 (v21 : BitVec 32) : Fin 2 → Nat :=
  let c0_i32_43 : BitVec 32 := 0#32
  ![v21.toNat, 0]

def k41_chk3 (v21 : BitVec 32) : Prop :=
  (∀ a, (k41_off6 v21) a + S1x64.size a ≤ S100000x64.size a) ∧
  (∀ a, (k41_off19 v21) a + S1x64.size a ≤ S100000x64.size a)
instance k41_chk3.dec : ∀ (v21 : BitVec 32), Decidable (k41_chk3 v21) := fun v21 => decidable_of_iff' _ (Iff.of_eq (k41_chk3.eq_1 v21))
theorem k41_off6_inb : ∀ (v21 : BitVec 32) (k41_hw3 : k41_chk3 v21), ∀ a, (k41_off6 v21) a + S1x64.size a ≤ S100000x64.size a := fun v21 k41_hw3 => k41_hw3.1
theorem k41_off19_inb : ∀ (v21 : BitVec 32) (k41_hw3 : k41_chk3 v21), ∀ a, (k41_off19 v21) a + S1x64.size a ≤ S100000x64.size a := fun v21 k41_hw3 => k41_hw3.2

def k41_off20 (v30 : BitVec 32) : Fin 2 → Nat :=
  let c0_i32_47 : BitVec 32 := 0#32
  ![v30.toNat, 0]

def k41_chk4 (v30 : BitVec 32) : Prop :=
  (∀ a, (k41_off8 v30) a + S1x64.size a ≤ S100000x64.size a) ∧
  (∀ a, (k41_off20 v30) a + S1x64.size a ≤ S100000x64.size a)
instance k41_chk4.dec : ∀ (v30 : BitVec 32), Decidable (k41_chk4 v30) := fun v30 => decidable_of_iff' _ (Iff.of_eq (k41_chk4.eq_1 v30))
theorem k41_off8_inb : ∀ (v30 : BitVec 32) (k41_hw4 : k41_chk4 v30), ∀ a, (k41_off8 v30) a + S1x64.size a ≤ S100000x64.size a := fun v30 k41_hw4 => k41_hw4.1
theorem k41_off20_inb : ∀ (v30 : BitVec 32) (k41_hw4 : k41_chk4 v30), ∀ a, (k41_off20 v30) a + S1x64.size a ≤ S100000x64.size a := fun v30 k41_hw4 => k41_hw4.2

def k41_off21 (v39 : BitVec 32) : Fin 2 → Nat :=
  let c0_i32_51 : BitVec 32 := 0#32
  ![v39.toNat, 0]

def k41_chk5 (v39 : BitVec 32) : Prop :=
  (∀ a, (k41_off10 v39) a + S1x64.size a ≤ S100000x64.size a) ∧
  (∀ a, (k41_off21 v39) a + S1x64.size a ≤ S100000x64.size a)
instance k41_chk5.dec : ∀ (v39 : BitVec 32), Decidable (k41_chk5 v39) := fun v39 => decidable_of_iff' _ (Iff.of_eq (k41_chk5.eq_1 v39))
theorem k41_off10_inb : ∀ (v39 : BitVec 32) (k41_hw5 : k41_chk5 v39), ∀ a, (k41_off10 v39) a + S1x64.size a ≤ S100000x64.size a := fun v39 k41_hw5 => k41_hw5.1
theorem k41_off21_inb : ∀ (v39 : BitVec 32) (k41_hw5 : k41_chk5 v39), ∀ a, (k41_off21 v39) a + S1x64.size a ≤ S100000x64.size a := fun v39 k41_hw5 => k41_hw5.2

def k41_off22 (v48 : BitVec 32) : Fin 2 → Nat :=
  let c0_i32_55 : BitVec 32 := 0#32
  ![v48.toNat, 0]

def k41_chk6 (v48 : BitVec 32) : Prop :=
  (∀ a, (k41_off12 v48) a + S1x64.size a ≤ S100000x64.size a) ∧
  (∀ a, (k41_off22 v48) a + S1x64.size a ≤ S100000x64.size a)
instance k41_chk6.dec : ∀ (v48 : BitVec 32), Decidable (k41_chk6 v48) := fun v48 => decidable_of_iff' _ (Iff.of_eq (k41_chk6.eq_1 v48))
theorem k41_off12_inb : ∀ (v48 : BitVec 32) (k41_hw6 : k41_chk6 v48), ∀ a, (k41_off12 v48) a + S1x64.size a ≤ S100000x64.size a := fun v48 k41_hw6 => k41_hw6.1
theorem k41_off22_inb : ∀ (v48 : BitVec 32) (k41_hw6 : k41_chk6 v48), ∀ a, (k41_off22 v48) a + S1x64.size a ≤ S100000x64.size a := fun v48 k41_hw6 => k41_hw6.2

def k41_off23 (v57 : BitVec 32) : Fin 2 → Nat :=
  let c0_i32_59 : BitVec 32 := 0#32
  ![v57.toNat, 0]

def k41_chk7 (v57 : BitVec 32) : Prop :=
  (∀ a, (k41_off14 v57) a + S1x64.size a ≤ S100000x64.size a) ∧
  (∀ a, (k41_off23 v57) a + S1x64.size a ≤ S100000x64.size a)
instance k41_chk7.dec : ∀ (v57 : BitVec 32), Decidable (k41_chk7 v57) := fun v57 => decidable_of_iff' _ (Iff.of_eq (k41_chk7.eq_1 v57))
theorem k41_off14_inb : ∀ (v57 : BitVec 32) (k41_hw7 : k41_chk7 v57), ∀ a, (k41_off14 v57) a + S1x64.size a ≤ S100000x64.size a := fun v57 k41_hw7 => k41_hw7.1
theorem k41_off23_inb : ∀ (v57 : BitVec 32) (k41_hw7 : k41_chk7 v57), ∀ a, (k41_off23 v57) a + S1x64.size a ≤ S100000x64.size a := fun v57 k41_hw7 => k41_hw7.2

def cc41_transform_1 (i : grid41.Coords) : Fin 2 → Nat :=
  let arg0 : BitVec 32 := BitVec.ofNat 32 (i 0).val
  let c0_i32 : BitVec 32 := 0#32
  let c0_i32_0 : BitVec 32 := 0#32
  ![arg0.toNat, c0_i32.toNat]

def cc41_transform_2 (i : grid41.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage41_0 : Fin 2 → Memref sig .tc .vmem S8x1 .f32 := fun | 0 => Memref.whole cc41_stg0_0 | 1 => Memref.whole cc41_stg0_1 | ⟨_ + 2, h⟩ => absurd h (Nat.not_lt.2 (Nat.le_add_left _ _))
abbrev sem41_0 : Fin 2 → DmaSem sig := fun | 0 => cc41_sem0_0 | 1 => cc41_sem0_1 | ⟨_ + 2, h⟩ => absurd h (Nat.not_lt.2 (Nat.le_add_left _ _))
abbrev reads41_0 : Fin grid41.rank → Bool := ![true]

abbrev stage41_1 : Fin 2 → Memref sig .tc .vmem S8x64 .f32 := fun | 0 => Memref.whole cc41_stg1_0 | 1 => Memref.whole cc41_stg1_1 | ⟨_ + 2, h⟩ => absurd h (Nat.not_lt.2 (Nat.le_add_left _ _))
abbrev sem41_1 : Fin 2 → DmaSem sig := fun | 0 => cc41_sem1_0 | 1 => cc41_sem1_1 | ⟨_ + 2, h⟩ => absurd h (Nat.not_lt.2 (Nat.le_add_left _ _))
abbrev reads41_1 : Fin grid41.rank → Bool := ![true]

abbrev grid42 : Pipeline.Grid := ⟨1, ![12500], ![false]⟩

abbrev pre42 : Pipeline.Prefetch sig := ⟨1, ![main_v179.idx], fun | 0 => main_v179.names | ⟨_ + 1, h⟩ => absurd h (Nat.not_lt.2 (Nat.le_add_left _ _)), fun | 0 => rfl | ⟨_ + 1, h⟩ => absurd h (Nat.not_lt.2 (Nat.le_add_left _ _))⟩

def k42_off1 (i : grid42.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k42_off2 (v3 : BitVec 32) : Fin 2 → Nat :=
  let c0_i32_3 : BitVec 32 := 0#32
  ![v3.toNat, 0]

def k42_off3 (i : grid42.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k42_off4 (v12 : BitVec 32) : Fin 2 → Nat :=
  let c0_i32_7 : BitVec 32 := 0#32
  ![v12.toNat, 0]

def k42_off5 (i : grid42.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k42_off6 (v21 : BitVec 32) : Fin 2 → Nat :=
  let c0_i32_11 : BitVec 32 := 0#32
  ![v21.toNat, 0]

def k42_off7 (i : grid42.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k42_off8 (v30 : BitVec 32) : Fin 2 → Nat :=
  let c0_i32_15 : BitVec 32 := 0#32
  ![v30.toNat, 0]

def k42_off9 (i : grid42.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k42_off10 (v39 : BitVec 32) : Fin 2 → Nat :=
  let c0_i32_19 : BitVec 32 := 0#32
  ![v39.toNat, 0]

def k42_off11 (i : grid42.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k42_off12 (v48 : BitVec 32) : Fin 2 → Nat :=
  let c0_i32_23 : BitVec 32 := 0#32
  ![v48.toNat, 0]

def k42_off13 (i : grid42.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k42_off14 (v57 : BitVec 32) : Fin 2 → Nat :=
  let c0_i32_27 : BitVec 32 := 0#32
  ![v57.toNat, 0]

def k42_off15 (i : grid42.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k42_off16 (v66 : BitVec 32) : Fin 2 → Nat :=
  let c0_i32_31 : BitVec 32 := 0#32
  ![v66.toNat, 0]

def k42_chk8 (v66 : BitVec 32) : Prop :=
  (∀ a, (k42_off16 v66) a + S1x64.size a ≤ S100000x64.size a)
instance k42_chk8.dec : ∀ (v66 : BitVec 32), Decidable (k42_chk8 v66) := fun v66 => decidable_of_iff' _ (Iff.of_eq (k42_chk8.eq_1 v66))
theorem k42_off16_inb : ∀ (v66 : BitVec 32) (k42_hw8 : k42_chk8 v66), ∀ a, (k42_off16 v66) a + S1x64.size a ≤ S100000x64.size a := fun v66 k42_hw8 => k42_hw8

def k42_off17 (v3 : BitVec 32) : Fin 2 → Nat :=
  let c0_i32_35 : BitVec 32 := 0#32
  ![v3.toNat, 0]

def k42_chk1 (v3 : BitVec 32) : Prop :=
  (∀ a, (k42_off2 v3) a + S1x64.size a ≤ S100000x64.size a) ∧
  (∀ a, (k42_off17 v3) a + S1x64.size a ≤ S100000x64.size a)
instance k42_chk1.dec : ∀ (v3 : BitVec 32), Decidable (k42_chk1 v3) := fun v3 => decidable_of_iff' _ (Iff.of_eq (k42_chk1.eq_1 v3))
theorem k42_off2_inb : ∀ (v3 : BitVec 32) (k42_hw1 : k42_chk1 v3), ∀ a, (k42_off2 v3) a + S1x64.size a ≤ S100000x64.size a := fun v3 k42_hw1 => k42_hw1.1
theorem k42_off17_inb : ∀ (v3 : BitVec 32) (k42_hw1 : k42_chk1 v3), ∀ a, (k42_off17 v3) a + S1x64.size a ≤ S100000x64.size a := fun v3 k42_hw1 => k42_hw1.2

def k42_off18 (v12 : BitVec 32) : Fin 2 → Nat :=
  let c0_i32_39 : BitVec 32 := 0#32
  ![v12.toNat, 0]

def k42_chk2 (v12 : BitVec 32) : Prop :=
  (∀ a, (k42_off4 v12) a + S1x64.size a ≤ S100000x64.size a) ∧
  (∀ a, (k42_off18 v12) a + S1x64.size a ≤ S100000x64.size a)
instance k42_chk2.dec : ∀ (v12 : BitVec 32), Decidable (k42_chk2 v12) := fun v12 => decidable_of_iff' _ (Iff.of_eq (k42_chk2.eq_1 v12))
theorem k42_off4_inb : ∀ (v12 : BitVec 32) (k42_hw2 : k42_chk2 v12), ∀ a, (k42_off4 v12) a + S1x64.size a ≤ S100000x64.size a := fun v12 k42_hw2 => k42_hw2.1
theorem k42_off18_inb : ∀ (v12 : BitVec 32) (k42_hw2 : k42_chk2 v12), ∀ a, (k42_off18 v12) a + S1x64.size a ≤ S100000x64.size a := fun v12 k42_hw2 => k42_hw2.2

def k42_off19 (v21 : BitVec 32) : Fin 2 → Nat :=
  let c0_i32_43 : BitVec 32 := 0#32
  ![v21.toNat, 0]

def k42_chk3 (v21 : BitVec 32) : Prop :=
  (∀ a, (k42_off6 v21) a + S1x64.size a ≤ S100000x64.size a) ∧
  (∀ a, (k42_off19 v21) a + S1x64.size a ≤ S100000x64.size a)
instance k42_chk3.dec : ∀ (v21 : BitVec 32), Decidable (k42_chk3 v21) := fun v21 => decidable_of_iff' _ (Iff.of_eq (k42_chk3.eq_1 v21))
theorem k42_off6_inb : ∀ (v21 : BitVec 32) (k42_hw3 : k42_chk3 v21), ∀ a, (k42_off6 v21) a + S1x64.size a ≤ S100000x64.size a := fun v21 k42_hw3 => k42_hw3.1
theorem k42_off19_inb : ∀ (v21 : BitVec 32) (k42_hw3 : k42_chk3 v21), ∀ a, (k42_off19 v21) a + S1x64.size a ≤ S100000x64.size a := fun v21 k42_hw3 => k42_hw3.2

def k42_off20 (v30 : BitVec 32) : Fin 2 → Nat :=
  let c0_i32_47 : BitVec 32 := 0#32
  ![v30.toNat, 0]

def k42_chk4 (v30 : BitVec 32) : Prop :=
  (∀ a, (k42_off8 v30) a + S1x64.size a ≤ S100000x64.size a) ∧
  (∀ a, (k42_off20 v30) a + S1x64.size a ≤ S100000x64.size a)
instance k42_chk4.dec : ∀ (v30 : BitVec 32), Decidable (k42_chk4 v30) := fun v30 => decidable_of_iff' _ (Iff.of_eq (k42_chk4.eq_1 v30))
theorem k42_off8_inb : ∀ (v30 : BitVec 32) (k42_hw4 : k42_chk4 v30), ∀ a, (k42_off8 v30) a + S1x64.size a ≤ S100000x64.size a := fun v30 k42_hw4 => k42_hw4.1
theorem k42_off20_inb : ∀ (v30 : BitVec 32) (k42_hw4 : k42_chk4 v30), ∀ a, (k42_off20 v30) a + S1x64.size a ≤ S100000x64.size a := fun v30 k42_hw4 => k42_hw4.2

def k42_off21 (v39 : BitVec 32) : Fin 2 → Nat :=
  let c0_i32_51 : BitVec 32 := 0#32
  ![v39.toNat, 0]

def k42_chk5 (v39 : BitVec 32) : Prop :=
  (∀ a, (k42_off10 v39) a + S1x64.size a ≤ S100000x64.size a) ∧
  (∀ a, (k42_off21 v39) a + S1x64.size a ≤ S100000x64.size a)
instance k42_chk5.dec : ∀ (v39 : BitVec 32), Decidable (k42_chk5 v39) := fun v39 => decidable_of_iff' _ (Iff.of_eq (k42_chk5.eq_1 v39))
theorem k42_off10_inb : ∀ (v39 : BitVec 32) (k42_hw5 : k42_chk5 v39), ∀ a, (k42_off10 v39) a + S1x64.size a ≤ S100000x64.size a := fun v39 k42_hw5 => k42_hw5.1
theorem k42_off21_inb : ∀ (v39 : BitVec 32) (k42_hw5 : k42_chk5 v39), ∀ a, (k42_off21 v39) a + S1x64.size a ≤ S100000x64.size a := fun v39 k42_hw5 => k42_hw5.2

def k42_off22 (v48 : BitVec 32) : Fin 2 → Nat :=
  let c0_i32_55 : BitVec 32 := 0#32
  ![v48.toNat, 0]

def k42_chk6 (v48 : BitVec 32) : Prop :=
  (∀ a, (k42_off12 v48) a + S1x64.size a ≤ S100000x64.size a) ∧
  (∀ a, (k42_off22 v48) a + S1x64.size a ≤ S100000x64.size a)
instance k42_chk6.dec : ∀ (v48 : BitVec 32), Decidable (k42_chk6 v48) := fun v48 => decidable_of_iff' _ (Iff.of_eq (k42_chk6.eq_1 v48))
theorem k42_off12_inb : ∀ (v48 : BitVec 32) (k42_hw6 : k42_chk6 v48), ∀ a, (k42_off12 v48) a + S1x64.size a ≤ S100000x64.size a := fun v48 k42_hw6 => k42_hw6.1
theorem k42_off22_inb : ∀ (v48 : BitVec 32) (k42_hw6 : k42_chk6 v48), ∀ a, (k42_off22 v48) a + S1x64.size a ≤ S100000x64.size a := fun v48 k42_hw6 => k42_hw6.2

def k42_off23 (v57 : BitVec 32) : Fin 2 → Nat :=
  let c0_i32_59 : BitVec 32 := 0#32
  ![v57.toNat, 0]

def k42_chk7 (v57 : BitVec 32) : Prop :=
  (∀ a, (k42_off14 v57) a + S1x64.size a ≤ S100000x64.size a) ∧
  (∀ a, (k42_off23 v57) a + S1x64.size a ≤ S100000x64.size a)
instance k42_chk7.dec : ∀ (v57 : BitVec 32), Decidable (k42_chk7 v57) := fun v57 => decidable_of_iff' _ (Iff.of_eq (k42_chk7.eq_1 v57))
theorem k42_off14_inb : ∀ (v57 : BitVec 32) (k42_hw7 : k42_chk7 v57), ∀ a, (k42_off14 v57) a + S1x64.size a ≤ S100000x64.size a := fun v57 k42_hw7 => k42_hw7.1
theorem k42_off23_inb : ∀ (v57 : BitVec 32) (k42_hw7 : k42_chk7 v57), ∀ a, (k42_off23 v57) a + S1x64.size a ≤ S100000x64.size a := fun v57 k42_hw7 => k42_hw7.2

def cc42_transform_1 (i : grid42.Coords) : Fin 2 → Nat :=
  let arg0 : BitVec 32 := BitVec.ofNat 32 (i 0).val
  let c0_i32 : BitVec 32 := 0#32
  let c0_i32_0 : BitVec 32 := 0#32
  ![arg0.toNat, c0_i32.toNat]

def cc42_transform_2 (i : grid42.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage42_0 : Fin 2 → Memref sig .tc .vmem S8x1 .f32 := fun | 0 => Memref.whole cc42_stg0_0 | 1 => Memref.whole cc42_stg0_1 | ⟨_ + 2, h⟩ => absurd h (Nat.not_lt.2 (Nat.le_add_left _ _))
abbrev sem42_0 : Fin 2 → DmaSem sig := fun | 0 => cc42_sem0_0 | 1 => cc42_sem0_1 | ⟨_ + 2, h⟩ => absurd h (Nat.not_lt.2 (Nat.le_add_left _ _))
abbrev reads42_0 : Fin grid42.rank → Bool := ![true]

abbrev stage42_1 : Fin 2 → Memref sig .tc .vmem S8x64 .f32 := fun | 0 => Memref.whole cc42_stg1_0 | 1 => Memref.whole cc42_stg1_1 | ⟨_ + 2, h⟩ => absurd h (Nat.not_lt.2 (Nat.le_add_left _ _))
abbrev sem42_1 : Fin 2 → DmaSem sig := fun | 0 => cc42_sem1_0 | 1 => cc42_sem1_1 | ⟨_ + 2, h⟩ => absurd h (Nat.not_lt.2 (Nat.le_add_left _ _))
abbrev reads42_1 : Fin grid42.rank → Bool := ![true]

abbrev grid43 : Pipeline.Grid := ⟨1, ![12500], ![false]⟩

abbrev pre43 : Pipeline.Prefetch sig := ⟨1, ![main_v183.idx], fun | 0 => main_v183.names | ⟨_ + 1, h⟩ => absurd h (Nat.not_lt.2 (Nat.le_add_left _ _)), fun | 0 => rfl | ⟨_ + 1, h⟩ => absurd h (Nat.not_lt.2 (Nat.le_add_left _ _))⟩

def k43_off1 (i : grid43.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k43_off2 (v3 : BitVec 32) : Fin 2 → Nat :=
  let c0_i32_3 : BitVec 32 := 0#32
  ![v3.toNat, 0]

def k43_off3 (i : grid43.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k43_off4 (v12 : BitVec 32) : Fin 2 → Nat :=
  let c0_i32_7 : BitVec 32 := 0#32
  ![v12.toNat, 0]

def k43_off5 (i : grid43.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k43_off6 (v21 : BitVec 32) : Fin 2 → Nat :=
  let c0_i32_11 : BitVec 32 := 0#32
  ![v21.toNat, 0]

def k43_off7 (i : grid43.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k43_off8 (v30 : BitVec 32) : Fin 2 → Nat :=
  let c0_i32_15 : BitVec 32 := 0#32
  ![v30.toNat, 0]

def k43_off9 (i : grid43.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k43_off10 (v39 : BitVec 32) : Fin 2 → Nat :=
  let c0_i32_19 : BitVec 32 := 0#32
  ![v39.toNat, 0]

def k43_off11 (i : grid43.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k43_off12 (v48 : BitVec 32) : Fin 2 → Nat :=
  let c0_i32_23 : BitVec 32 := 0#32
  ![v48.toNat, 0]

def k43_off13 (i : grid43.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k43_off14 (v57 : BitVec 32) : Fin 2 → Nat :=
  let c0_i32_27 : BitVec 32 := 0#32
  ![v57.toNat, 0]

def k43_off15 (i : grid43.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k43_off16 (v66 : BitVec 32) : Fin 2 → Nat :=
  let c0_i32_31 : BitVec 32 := 0#32
  ![v66.toNat, 0]

def k43_chk8 (v66 : BitVec 32) : Prop :=
  (∀ a, (k43_off16 v66) a + S1x64.size a ≤ S100000x64.size a)
instance k43_chk8.dec : ∀ (v66 : BitVec 32), Decidable (k43_chk8 v66) := fun v66 => decidable_of_iff' _ (Iff.of_eq (k43_chk8.eq_1 v66))
theorem k43_off16_inb : ∀ (v66 : BitVec 32) (k43_hw8 : k43_chk8 v66), ∀ a, (k43_off16 v66) a + S1x64.size a ≤ S100000x64.size a := fun v66 k43_hw8 => k43_hw8

def k43_off17 (v3 : BitVec 32) : Fin 2 → Nat :=
  let c0_i32_35 : BitVec 32 := 0#32
  ![v3.toNat, 0]

def k43_chk1 (v3 : BitVec 32) : Prop :=
  (∀ a, (k43_off2 v3) a + S1x64.size a ≤ S100000x64.size a) ∧
  (∀ a, (k43_off17 v3) a + S1x64.size a ≤ S100000x64.size a)
instance k43_chk1.dec : ∀ (v3 : BitVec 32), Decidable (k43_chk1 v3) := fun v3 => decidable_of_iff' _ (Iff.of_eq (k43_chk1.eq_1 v3))
theorem k43_off2_inb : ∀ (v3 : BitVec 32) (k43_hw1 : k43_chk1 v3), ∀ a, (k43_off2 v3) a + S1x64.size a ≤ S100000x64.size a := fun v3 k43_hw1 => k43_hw1.1
theorem k43_off17_inb : ∀ (v3 : BitVec 32) (k43_hw1 : k43_chk1 v3), ∀ a, (k43_off17 v3) a + S1x64.size a ≤ S100000x64.size a := fun v3 k43_hw1 => k43_hw1.2

def k43_off18 (v12 : BitVec 32) : Fin 2 → Nat :=
  let c0_i32_39 : BitVec 32 := 0#32
  ![v12.toNat, 0]

def k43_chk2 (v12 : BitVec 32) : Prop :=
  (∀ a, (k43_off4 v12) a + S1x64.size a ≤ S100000x64.size a) ∧
  (∀ a, (k43_off18 v12) a + S1x64.size a ≤ S100000x64.size a)
instance k43_chk2.dec : ∀ (v12 : BitVec 32), Decidable (k43_chk2 v12) := fun v12 => decidable_of_iff' _ (Iff.of_eq (k43_chk2.eq_1 v12))
theorem k43_off4_inb : ∀ (v12 : BitVec 32) (k43_hw2 : k43_chk2 v12), ∀ a, (k43_off4 v12) a + S1x64.size a ≤ S100000x64.size a := fun v12 k43_hw2 => k43_hw2.1
theorem k43_off18_inb : ∀ (v12 : BitVec 32) (k43_hw2 : k43_chk2 v12), ∀ a, (k43_off18 v12) a + S1x64.size a ≤ S100000x64.size a := fun v12 k43_hw2 => k43_hw2.2

def k43_off19 (v21 : BitVec 32) : Fin 2 → Nat :=
  let c0_i32_43 : BitVec 32 := 0#32
  ![v21.toNat, 0]

def k43_chk3 (v21 : BitVec 32) : Prop :=
  (∀ a, (k43_off6 v21) a + S1x64.size a ≤ S100000x64.size a) ∧
  (∀ a, (k43_off19 v21) a + S1x64.size a ≤ S100000x64.size a)
instance k43_chk3.dec : ∀ (v21 : BitVec 32), Decidable (k43_chk3 v21) := fun v21 => decidable_of_iff' _ (Iff.of_eq (k43_chk3.eq_1 v21))
theorem k43_off6_inb : ∀ (v21 : BitVec 32) (k43_hw3 : k43_chk3 v21), ∀ a, (k43_off6 v21) a + S1x64.size a ≤ S100000x64.size a := fun v21 k43_hw3 => k43_hw3.1
theorem k43_off19_inb : ∀ (v21 : BitVec 32) (k43_hw3 : k43_chk3 v21), ∀ a, (k43_off19 v21) a + S1x64.size a ≤ S100000x64.size a := fun v21 k43_hw3 => k43_hw3.2

def k43_off20 (v30 : BitVec 32) : Fin 2 → Nat :=
  let c0_i32_47 : BitVec 32 := 0#32
  ![v30.toNat, 0]

def k43_chk4 (v30 : BitVec 32) : Prop :=
  (∀ a, (k43_off8 v30) a + S1x64.size a ≤ S100000x64.size a) ∧
  (∀ a, (k43_off20 v30) a + S1x64.size a ≤ S100000x64.size a)
instance k43_chk4.dec : ∀ (v30 : BitVec 32), Decidable (k43_chk4 v30) := fun v30 => decidable_of_iff' _ (Iff.of_eq (k43_chk4.eq_1 v30))
theorem k43_off8_inb : ∀ (v30 : BitVec 32) (k43_hw4 : k43_chk4 v30), ∀ a, (k43_off8 v30) a + S1x64.size a ≤ S100000x64.size a := fun v30 k43_hw4 => k43_hw4.1
theorem k43_off20_inb : ∀ (v30 : BitVec 32) (k43_hw4 : k43_chk4 v30), ∀ a, (k43_off20 v30) a + S1x64.size a ≤ S100000x64.size a := fun v30 k43_hw4 => k43_hw4.2

def k43_off21 (v39 : BitVec 32) : Fin 2 → Nat :=
  let c0_i32_51 : BitVec 32 := 0#32
  ![v39.toNat, 0]

def k43_chk5 (v39 : BitVec 32) : Prop :=
  (∀ a, (k43_off10 v39) a + S1x64.size a ≤ S100000x64.size a) ∧
  (∀ a, (k43_off21 v39) a + S1x64.size a ≤ S100000x64.size a)
instance k43_chk5.dec : ∀ (v39 : BitVec 32), Decidable (k43_chk5 v39) := fun v39 => decidable_of_iff' _ (Iff.of_eq (k43_chk5.eq_1 v39))
theorem k43_off10_inb : ∀ (v39 : BitVec 32) (k43_hw5 : k43_chk5 v39), ∀ a, (k43_off10 v39) a + S1x64.size a ≤ S100000x64.size a := fun v39 k43_hw5 => k43_hw5.1
theorem k43_off21_inb : ∀ (v39 : BitVec 32) (k43_hw5 : k43_chk5 v39), ∀ a, (k43_off21 v39) a + S1x64.size a ≤ S100000x64.size a := fun v39 k43_hw5 => k43_hw5.2

def k43_off22 (v48 : BitVec 32) : Fin 2 → Nat :=
  let c0_i32_55 : BitVec 32 := 0#32
  ![v48.toNat, 0]

def k43_chk6 (v48 : BitVec 32) : Prop :=
  (∀ a, (k43_off12 v48) a + S1x64.size a ≤ S100000x64.size a) ∧
  (∀ a, (k43_off22 v48) a + S1x64.size a ≤ S100000x64.size a)
instance k43_chk6.dec : ∀ (v48 : BitVec 32), Decidable (k43_chk6 v48) := fun v48 => decidable_of_iff' _ (Iff.of_eq (k43_chk6.eq_1 v48))
theorem k43_off12_inb : ∀ (v48 : BitVec 32) (k43_hw6 : k43_chk6 v48), ∀ a, (k43_off12 v48) a + S1x64.size a ≤ S100000x64.size a := fun v48 k43_hw6 => k43_hw6.1
theorem k43_off22_inb : ∀ (v48 : BitVec 32) (k43_hw6 : k43_chk6 v48), ∀ a, (k43_off22 v48) a + S1x64.size a ≤ S100000x64.size a := fun v48 k43_hw6 => k43_hw6.2

def k43_off23 (v57 : BitVec 32) : Fin 2 → Nat :=
  let c0_i32_59 : BitVec 32 := 0#32
  ![v57.toNat, 0]

def k43_chk7 (v57 : BitVec 32) : Prop :=
  (∀ a, (k43_off14 v57) a + S1x64.size a ≤ S100000x64.size a) ∧
  (∀ a, (k43_off23 v57) a + S1x64.size a ≤ S100000x64.size a)
instance k43_chk7.dec : ∀ (v57 : BitVec 32), Decidable (k43_chk7 v57) := fun v57 => decidable_of_iff' _ (Iff.of_eq (k43_chk7.eq_1 v57))
theorem k43_off14_inb : ∀ (v57 : BitVec 32) (k43_hw7 : k43_chk7 v57), ∀ a, (k43_off14 v57) a + S1x64.size a ≤ S100000x64.size a := fun v57 k43_hw7 => k43_hw7.1
theorem k43_off23_inb : ∀ (v57 : BitVec 32) (k43_hw7 : k43_chk7 v57), ∀ a, (k43_off23 v57) a + S1x64.size a ≤ S100000x64.size a := fun v57 k43_hw7 => k43_hw7.2

def cc43_transform_1 (i : grid43.Coords) : Fin 2 → Nat :=
  let arg0 : BitVec 32 := BitVec.ofNat 32 (i 0).val
  let c0_i32 : BitVec 32 := 0#32
  let c0_i32_0 : BitVec 32 := 0#32
  ![arg0.toNat, c0_i32.toNat]

def cc43_transform_2 (i : grid43.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage43_0 : Fin 2 → Memref sig .tc .vmem S8x1 .f32 := fun | 0 => Memref.whole cc43_stg0_0 | 1 => Memref.whole cc43_stg0_1 | ⟨_ + 2, h⟩ => absurd h (Nat.not_lt.2 (Nat.le_add_left _ _))
abbrev sem43_0 : Fin 2 → DmaSem sig := fun | 0 => cc43_sem0_0 | 1 => cc43_sem0_1 | ⟨_ + 2, h⟩ => absurd h (Nat.not_lt.2 (Nat.le_add_left _ _))
abbrev reads43_0 : Fin grid43.rank → Bool := ![true]

abbrev stage43_1 : Fin 2 → Memref sig .tc .vmem S8x64 .f32 := fun | 0 => Memref.whole cc43_stg1_0 | 1 => Memref.whole cc43_stg1_1 | ⟨_ + 2, h⟩ => absurd h (Nat.not_lt.2 (Nat.le_add_left _ _))
abbrev sem43_1 : Fin 2 → DmaSem sig := fun | 0 => cc43_sem1_0 | 1 => cc43_sem1_1 | ⟨_ + 2, h⟩ => absurd h (Nat.not_lt.2 (Nat.le_add_left _ _))
abbrev reads43_1 : Fin grid43.rank → Bool := ![true]

abbrev grid44 : Pipeline.Grid := ⟨1, ![12500], ![false]⟩

abbrev pre44 : Pipeline.Prefetch sig := ⟨1, ![main_v187.idx], fun | 0 => main_v187.names | ⟨_ + 1, h⟩ => absurd h (Nat.not_lt.2 (Nat.le_add_left _ _)), fun | 0 => rfl | ⟨_ + 1, h⟩ => absurd h (Nat.not_lt.2 (Nat.le_add_left _ _))⟩

def k44_off1 (i : grid44.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k44_off2 (v3 : BitVec 32) : Fin 2 → Nat :=
  let c0_i32_3 : BitVec 32 := 0#32
  ![v3.toNat, 0]

def k44_off3 (i : grid44.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k44_off4 (v12 : BitVec 32) : Fin 2 → Nat :=
  let c0_i32_7 : BitVec 32 := 0#32
  ![v12.toNat, 0]

def k44_off5 (i : grid44.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k44_off6 (v21 : BitVec 32) : Fin 2 → Nat :=
  let c0_i32_11 : BitVec 32 := 0#32
  ![v21.toNat, 0]

def k44_off7 (i : grid44.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k44_off8 (v30 : BitVec 32) : Fin 2 → Nat :=
  let c0_i32_15 : BitVec 32 := 0#32
  ![v30.toNat, 0]

def k44_off9 (i : grid44.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k44_off10 (v39 : BitVec 32) : Fin 2 → Nat :=
  let c0_i32_19 : BitVec 32 := 0#32
  ![v39.toNat, 0]

def k44_off11 (i : grid44.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k44_off12 (v48 : BitVec 32) : Fin 2 → Nat :=
  let c0_i32_23 : BitVec 32 := 0#32
  ![v48.toNat, 0]

def k44_off13 (i : grid44.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k44_off14 (v57 : BitVec 32) : Fin 2 → Nat :=
  let c0_i32_27 : BitVec 32 := 0#32
  ![v57.toNat, 0]

def k44_off15 (i : grid44.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k44_off16 (v66 : BitVec 32) : Fin 2 → Nat :=
  let c0_i32_31 : BitVec 32 := 0#32
  ![v66.toNat, 0]

def k44_chk8 (v66 : BitVec 32) : Prop :=
  (∀ a, (k44_off16 v66) a + S1x64.size a ≤ S100000x64.size a)
instance k44_chk8.dec : ∀ (v66 : BitVec 32), Decidable (k44_chk8 v66) := fun v66 => decidable_of_iff' _ (Iff.of_eq (k44_chk8.eq_1 v66))
theorem k44_off16_inb : ∀ (v66 : BitVec 32) (k44_hw8 : k44_chk8 v66), ∀ a, (k44_off16 v66) a + S1x64.size a ≤ S100000x64.size a := fun v66 k44_hw8 => k44_hw8

def k44_off17 (v3 : BitVec 32) : Fin 2 → Nat :=
  let c0_i32_35 : BitVec 32 := 0#32
  ![v3.toNat, 0]

def k44_chk1 (v3 : BitVec 32) : Prop :=
  (∀ a, (k44_off2 v3) a + S1x64.size a ≤ S100000x64.size a) ∧
  (∀ a, (k44_off17 v3) a + S1x64.size a ≤ S100000x64.size a)
instance k44_chk1.dec : ∀ (v3 : BitVec 32), Decidable (k44_chk1 v3) := fun v3 => decidable_of_iff' _ (Iff.of_eq (k44_chk1.eq_1 v3))
theorem k44_off2_inb : ∀ (v3 : BitVec 32) (k44_hw1 : k44_chk1 v3), ∀ a, (k44_off2 v3) a + S1x64.size a ≤ S100000x64.size a := fun v3 k44_hw1 => k44_hw1.1
theorem k44_off17_inb : ∀ (v3 : BitVec 32) (k44_hw1 : k44_chk1 v3), ∀ a, (k44_off17 v3) a + S1x64.size a ≤ S100000x64.size a := fun v3 k44_hw1 => k44_hw1.2

def k44_off18 (v12 : BitVec 32) : Fin 2 → Nat :=
  let c0_i32_39 : BitVec 32 := 0#32
  ![v12.toNat, 0]

def k44_chk2 (v12 : BitVec 32) : Prop :=
  (∀ a, (k44_off4 v12) a + S1x64.size a ≤ S100000x64.size a) ∧
  (∀ a, (k44_off18 v12) a + S1x64.size a ≤ S100000x64.size a)
instance k44_chk2.dec : ∀ (v12 : BitVec 32), Decidable (k44_chk2 v12) := fun v12 => decidable_of_iff' _ (Iff.of_eq (k44_chk2.eq_1 v12))
theorem k44_off4_inb : ∀ (v12 : BitVec 32) (k44_hw2 : k44_chk2 v12), ∀ a, (k44_off4 v12) a + S1x64.size a ≤ S100000x64.size a := fun v12 k44_hw2 => k44_hw2.1
theorem k44_off18_inb : ∀ (v12 : BitVec 32) (k44_hw2 : k44_chk2 v12), ∀ a, (k44_off18 v12) a + S1x64.size a ≤ S100000x64.size a := fun v12 k44_hw2 => k44_hw2.2

def k44_off19 (v21 : BitVec 32) : Fin 2 → Nat :=
  let c0_i32_43 : BitVec 32 := 0#32
  ![v21.toNat, 0]

def k44_chk3 (v21 : BitVec 32) : Prop :=
  (∀ a, (k44_off6 v21) a + S1x64.size a ≤ S100000x64.size a) ∧
  (∀ a, (k44_off19 v21) a + S1x64.size a ≤ S100000x64.size a)
instance k44_chk3.dec : ∀ (v21 : BitVec 32), Decidable (k44_chk3 v21) := fun v21 => decidable_of_iff' _ (Iff.of_eq (k44_chk3.eq_1 v21))
theorem k44_off6_inb : ∀ (v21 : BitVec 32) (k44_hw3 : k44_chk3 v21), ∀ a, (k44_off6 v21) a + S1x64.size a ≤ S100000x64.size a := fun v21 k44_hw3 => k44_hw3.1
theorem k44_off19_inb : ∀ (v21 : BitVec 32) (k44_hw3 : k44_chk3 v21), ∀ a, (k44_off19 v21) a + S1x64.size a ≤ S100000x64.size a := fun v21 k44_hw3 => k44_hw3.2

def k44_off20 (v30 : BitVec 32) : Fin 2 → Nat :=
  let c0_i32_47 : BitVec 32 := 0#32
  ![v30.toNat, 0]

def k44_chk4 (v30 : BitVec 32) : Prop :=
  (∀ a, (k44_off8 v30) a + S1x64.size a ≤ S100000x64.size a) ∧
  (∀ a, (k44_off20 v30) a + S1x64.size a ≤ S100000x64.size a)
instance k44_chk4.dec : ∀ (v30 : BitVec 32), Decidable (k44_chk4 v30) := fun v30 => decidable_of_iff' _ (Iff.of_eq (k44_chk4.eq_1 v30))
theorem k44_off8_inb : ∀ (v30 : BitVec 32) (k44_hw4 : k44_chk4 v30), ∀ a, (k44_off8 v30) a + S1x64.size a ≤ S100000x64.size a := fun v30 k44_hw4 => k44_hw4.1
theorem k44_off20_inb : ∀ (v30 : BitVec 32) (k44_hw4 : k44_chk4 v30), ∀ a, (k44_off20 v30) a + S1x64.size a ≤ S100000x64.size a := fun v30 k44_hw4 => k44_hw4.2

def k44_off21 (v39 : BitVec 32) : Fin 2 → Nat :=
  let c0_i32_51 : BitVec 32 := 0#32
  ![v39.toNat, 0]

def k44_chk5 (v39 : BitVec 32) : Prop :=
  (∀ a, (k44_off10 v39) a + S1x64.size a ≤ S100000x64.size a) ∧
  (∀ a, (k44_off21 v39) a + S1x64.size a ≤ S100000x64.size a)
instance k44_chk5.dec : ∀ (v39 : BitVec 32), Decidable (k44_chk5 v39) := fun v39 => decidable_of_iff' _ (Iff.of_eq (k44_chk5.eq_1 v39))
theorem k44_off10_inb : ∀ (v39 : BitVec 32) (k44_hw5 : k44_chk5 v39), ∀ a, (k44_off10 v39) a + S1x64.size a ≤ S100000x64.size a := fun v39 k44_hw5 => k44_hw5.1
theorem k44_off21_inb : ∀ (v39 : BitVec 32) (k44_hw5 : k44_chk5 v39), ∀ a, (k44_off21 v39) a + S1x64.size a ≤ S100000x64.size a := fun v39 k44_hw5 => k44_hw5.2

def k44_off22 (v48 : BitVec 32) : Fin 2 → Nat :=
  let c0_i32_55 : BitVec 32 := 0#32
  ![v48.toNat, 0]

def k44_chk6 (v48 : BitVec 32) : Prop :=
  (∀ a, (k44_off12 v48) a + S1x64.size a ≤ S100000x64.size a) ∧
  (∀ a, (k44_off22 v48) a + S1x64.size a ≤ S100000x64.size a)
instance k44_chk6.dec : ∀ (v48 : BitVec 32), Decidable (k44_chk6 v48) := fun v48 => decidable_of_iff' _ (Iff.of_eq (k44_chk6.eq_1 v48))
theorem k44_off12_inb : ∀ (v48 : BitVec 32) (k44_hw6 : k44_chk6 v48), ∀ a, (k44_off12 v48) a + S1x64.size a ≤ S100000x64.size a := fun v48 k44_hw6 => k44_hw6.1
theorem k44_off22_inb : ∀ (v48 : BitVec 32) (k44_hw6 : k44_chk6 v48), ∀ a, (k44_off22 v48) a + S1x64.size a ≤ S100000x64.size a := fun v48 k44_hw6 => k44_hw6.2

def k44_off23 (v57 : BitVec 32) : Fin 2 → Nat :=
  let c0_i32_59 : BitVec 32 := 0#32
  ![v57.toNat, 0]

def k44_chk7 (v57 : BitVec 32) : Prop :=
  (∀ a, (k44_off14 v57) a + S1x64.size a ≤ S100000x64.size a) ∧
  (∀ a, (k44_off23 v57) a + S1x64.size a ≤ S100000x64.size a)
instance k44_chk7.dec : ∀ (v57 : BitVec 32), Decidable (k44_chk7 v57) := fun v57 => decidable_of_iff' _ (Iff.of_eq (k44_chk7.eq_1 v57))
theorem k44_off14_inb : ∀ (v57 : BitVec 32) (k44_hw7 : k44_chk7 v57), ∀ a, (k44_off14 v57) a + S1x64.size a ≤ S100000x64.size a := fun v57 k44_hw7 => k44_hw7.1
theorem k44_off23_inb : ∀ (v57 : BitVec 32) (k44_hw7 : k44_chk7 v57), ∀ a, (k44_off23 v57) a + S1x64.size a ≤ S100000x64.size a := fun v57 k44_hw7 => k44_hw7.2

def cc44_transform_1 (i : grid44.Coords) : Fin 2 → Nat :=
  let arg0 : BitVec 32 := BitVec.ofNat 32 (i 0).val
  let c0_i32 : BitVec 32 := 0#32
  let c0_i32_0 : BitVec 32 := 0#32
  ![arg0.toNat, c0_i32.toNat]

def cc44_transform_2 (i : grid44.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage44_0 : Fin 2 → Memref sig .tc .vmem S8x1 .f32 := fun | 0 => Memref.whole cc44_stg0_0 | 1 => Memref.whole cc44_stg0_1 | ⟨_ + 2, h⟩ => absurd h (Nat.not_lt.2 (Nat.le_add_left _ _))
abbrev sem44_0 : Fin 2 → DmaSem sig := fun | 0 => cc44_sem0_0 | 1 => cc44_sem0_1 | ⟨_ + 2, h⟩ => absurd h (Nat.not_lt.2 (Nat.le_add_left _ _))
abbrev reads44_0 : Fin grid44.rank → Bool := ![true]

abbrev stage44_1 : Fin 2 → Memref sig .tc .vmem S8x64 .f32 := fun | 0 => Memref.whole cc44_stg1_0 | 1 => Memref.whole cc44_stg1_1 | ⟨_ + 2, h⟩ => absurd h (Nat.not_lt.2 (Nat.le_add_left _ _))
abbrev sem44_1 : Fin 2 → DmaSem sig := fun | 0 => cc44_sem1_0 | 1 => cc44_sem1_1 | ⟨_ + 2, h⟩ => absurd h (Nat.not_lt.2 (Nat.le_add_left _ _))
abbrev reads44_1 : Fin grid44.rank → Bool := ![true]

abbrev grid45 : Pipeline.Grid := ⟨1, ![12500], ![false]⟩

abbrev pre45 : Pipeline.Prefetch sig := ⟨1, ![main_v191.idx], fun | 0 => main_v191.names | ⟨_ + 1, h⟩ => absurd h (Nat.not_lt.2 (Nat.le_add_left _ _)), fun | 0 => rfl | ⟨_ + 1, h⟩ => absurd h (Nat.not_lt.2 (Nat.le_add_left _ _))⟩

def k45_off1 (i : grid45.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k45_off2 (v3 : BitVec 32) : Fin 2 → Nat :=
  let c0_i32_3 : BitVec 32 := 0#32
  ![v3.toNat, 0]

def k45_off3 (i : grid45.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k45_off4 (v12 : BitVec 32) : Fin 2 → Nat :=
  let c0_i32_7 : BitVec 32 := 0#32
  ![v12.toNat, 0]

def k45_off5 (i : grid45.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k45_off6 (v21 : BitVec 32) : Fin 2 → Nat :=
  let c0_i32_11 : BitVec 32 := 0#32
  ![v21.toNat, 0]

def k45_off7 (i : grid45.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k45_off8 (v30 : BitVec 32) : Fin 2 → Nat :=
  let c0_i32_15 : BitVec 32 := 0#32
  ![v30.toNat, 0]

def k45_off9 (i : grid45.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k45_off10 (v39 : BitVec 32) : Fin 2 → Nat :=
  let c0_i32_19 : BitVec 32 := 0#32
  ![v39.toNat, 0]

def k45_off11 (i : grid45.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k45_off12 (v48 : BitVec 32) : Fin 2 → Nat :=
  let c0_i32_23 : BitVec 32 := 0#32
  ![v48.toNat, 0]

def k45_off13 (i : grid45.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k45_off14 (v57 : BitVec 32) : Fin 2 → Nat :=
  let c0_i32_27 : BitVec 32 := 0#32
  ![v57.toNat, 0]

def k45_off15 (i : grid45.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k45_off16 (v66 : BitVec 32) : Fin 2 → Nat :=
  let c0_i32_31 : BitVec 32 := 0#32
  ![v66.toNat, 0]

def k45_chk8 (v66 : BitVec 32) : Prop :=
  (∀ a, (k45_off16 v66) a + S1x64.size a ≤ S100000x64.size a)
instance k45_chk8.dec : ∀ (v66 : BitVec 32), Decidable (k45_chk8 v66) := fun v66 => decidable_of_iff' _ (Iff.of_eq (k45_chk8.eq_1 v66))
theorem k45_off16_inb : ∀ (v66 : BitVec 32) (k45_hw8 : k45_chk8 v66), ∀ a, (k45_off16 v66) a + S1x64.size a ≤ S100000x64.size a := fun v66 k45_hw8 => k45_hw8

def k45_off17 (v3 : BitVec 32) : Fin 2 → Nat :=
  let c0_i32_35 : BitVec 32 := 0#32
  ![v3.toNat, 0]

def k45_chk1 (v3 : BitVec 32) : Prop :=
  (∀ a, (k45_off2 v3) a + S1x64.size a ≤ S100000x64.size a) ∧
  (∀ a, (k45_off17 v3) a + S1x64.size a ≤ S100000x64.size a)
instance k45_chk1.dec : ∀ (v3 : BitVec 32), Decidable (k45_chk1 v3) := fun v3 => decidable_of_iff' _ (Iff.of_eq (k45_chk1.eq_1 v3))
theorem k45_off2_inb : ∀ (v3 : BitVec 32) (k45_hw1 : k45_chk1 v3), ∀ a, (k45_off2 v3) a + S1x64.size a ≤ S100000x64.size a := fun v3 k45_hw1 => k45_hw1.1
theorem k45_off17_inb : ∀ (v3 : BitVec 32) (k45_hw1 : k45_chk1 v3), ∀ a, (k45_off17 v3) a + S1x64.size a ≤ S100000x64.size a := fun v3 k45_hw1 => k45_hw1.2

def k45_off18 (v12 : BitVec 32) : Fin 2 → Nat :=
  let c0_i32_39 : BitVec 32 := 0#32
  ![v12.toNat, 0]

def k45_chk2 (v12 : BitVec 32) : Prop :=
  (∀ a, (k45_off4 v12) a + S1x64.size a ≤ S100000x64.size a) ∧
  (∀ a, (k45_off18 v12) a + S1x64.size a ≤ S100000x64.size a)
instance k45_chk2.dec : ∀ (v12 : BitVec 32), Decidable (k45_chk2 v12) := fun v12 => decidable_of_iff' _ (Iff.of_eq (k45_chk2.eq_1 v12))
theorem k45_off4_inb : ∀ (v12 : BitVec 32) (k45_hw2 : k45_chk2 v12), ∀ a, (k45_off4 v12) a + S1x64.size a ≤ S100000x64.size a := fun v12 k45_hw2 => k45_hw2.1
theorem k45_off18_inb : ∀ (v12 : BitVec 32) (k45_hw2 : k45_chk2 v12), ∀ a, (k45_off18 v12) a + S1x64.size a ≤ S100000x64.size a := fun v12 k45_hw2 => k45_hw2.2

def k45_off19 (v21 : BitVec 32) : Fin 2 → Nat :=
  let c0_i32_43 : BitVec 32 := 0#32
  ![v21.toNat, 0]

def k45_chk3 (v21 : BitVec 32) : Prop :=
  (∀ a, (k45_off6 v21) a + S1x64.size a ≤ S100000x64.size a) ∧
  (∀ a, (k45_off19 v21) a + S1x64.size a ≤ S100000x64.size a)
instance k45_chk3.dec : ∀ (v21 : BitVec 32), Decidable (k45_chk3 v21) := fun v21 => decidable_of_iff' _ (Iff.of_eq (k45_chk3.eq_1 v21))
theorem k45_off6_inb : ∀ (v21 : BitVec 32) (k45_hw3 : k45_chk3 v21), ∀ a, (k45_off6 v21) a + S1x64.size a ≤ S100000x64.size a := fun v21 k45_hw3 => k45_hw3.1
theorem k45_off19_inb : ∀ (v21 : BitVec 32) (k45_hw3 : k45_chk3 v21), ∀ a, (k45_off19 v21) a + S1x64.size a ≤ S100000x64.size a := fun v21 k45_hw3 => k45_hw3.2

def k45_off20 (v30 : BitVec 32) : Fin 2 → Nat :=
  let c0_i32_47 : BitVec 32 := 0#32
  ![v30.toNat, 0]

def k45_chk4 (v30 : BitVec 32) : Prop :=
  (∀ a, (k45_off8 v30) a + S1x64.size a ≤ S100000x64.size a) ∧
  (∀ a, (k45_off20 v30) a + S1x64.size a ≤ S100000x64.size a)
instance k45_chk4.dec : ∀ (v30 : BitVec 32), Decidable (k45_chk4 v30) := fun v30 => decidable_of_iff' _ (Iff.of_eq (k45_chk4.eq_1 v30))
theorem k45_off8_inb : ∀ (v30 : BitVec 32) (k45_hw4 : k45_chk4 v30), ∀ a, (k45_off8 v30) a + S1x64.size a ≤ S100000x64.size a := fun v30 k45_hw4 => k45_hw4.1
theorem k45_off20_inb : ∀ (v30 : BitVec 32) (k45_hw4 : k45_chk4 v30), ∀ a, (k45_off20 v30) a + S1x64.size a ≤ S100000x64.size a := fun v30 k45_hw4 => k45_hw4.2

def k45_off21 (v39 : BitVec 32) : Fin 2 → Nat :=
  let c0_i32_51 : BitVec 32 := 0#32
  ![v39.toNat, 0]

def k45_chk5 (v39 : BitVec 32) : Prop :=
  (∀ a, (k45_off10 v39) a + S1x64.size a ≤ S100000x64.size a) ∧
  (∀ a, (k45_off21 v39) a + S1x64.size a ≤ S100000x64.size a)
instance k45_chk5.dec : ∀ (v39 : BitVec 32), Decidable (k45_chk5 v39) := fun v39 => decidable_of_iff' _ (Iff.of_eq (k45_chk5.eq_1 v39))
theorem k45_off10_inb : ∀ (v39 : BitVec 32) (k45_hw5 : k45_chk5 v39), ∀ a, (k45_off10 v39) a + S1x64.size a ≤ S100000x64.size a := fun v39 k45_hw5 => k45_hw5.1
theorem k45_off21_inb : ∀ (v39 : BitVec 32) (k45_hw5 : k45_chk5 v39), ∀ a, (k45_off21 v39) a + S1x64.size a ≤ S100000x64.size a := fun v39 k45_hw5 => k45_hw5.2

def k45_off22 (v48 : BitVec 32) : Fin 2 → Nat :=
  let c0_i32_55 : BitVec 32 := 0#32
  ![v48.toNat, 0]

def k45_chk6 (v48 : BitVec 32) : Prop :=
  (∀ a, (k45_off12 v48) a + S1x64.size a ≤ S100000x64.size a) ∧
  (∀ a, (k45_off22 v48) a + S1x64.size a ≤ S100000x64.size a)
instance k45_chk6.dec : ∀ (v48 : BitVec 32), Decidable (k45_chk6 v48) := fun v48 => decidable_of_iff' _ (Iff.of_eq (k45_chk6.eq_1 v48))
theorem k45_off12_inb : ∀ (v48 : BitVec 32) (k45_hw6 : k45_chk6 v48), ∀ a, (k45_off12 v48) a + S1x64.size a ≤ S100000x64.size a := fun v48 k45_hw6 => k45_hw6.1
theorem k45_off22_inb : ∀ (v48 : BitVec 32) (k45_hw6 : k45_chk6 v48), ∀ a, (k45_off22 v48) a + S1x64.size a ≤ S100000x64.size a := fun v48 k45_hw6 => k45_hw6.2

def k45_off23 (v57 : BitVec 32) : Fin 2 → Nat :=
  let c0_i32_59 : BitVec 32 := 0#32
  ![v57.toNat, 0]

def k45_chk7 (v57 : BitVec 32) : Prop :=
  (∀ a, (k45_off14 v57) a + S1x64.size a ≤ S100000x64.size a) ∧
  (∀ a, (k45_off23 v57) a + S1x64.size a ≤ S100000x64.size a)
instance k45_chk7.dec : ∀ (v57 : BitVec 32), Decidable (k45_chk7 v57) := fun v57 => decidable_of_iff' _ (Iff.of_eq (k45_chk7.eq_1 v57))
theorem k45_off14_inb : ∀ (v57 : BitVec 32) (k45_hw7 : k45_chk7 v57), ∀ a, (k45_off14 v57) a + S1x64.size a ≤ S100000x64.size a := fun v57 k45_hw7 => k45_hw7.1
theorem k45_off23_inb : ∀ (v57 : BitVec 32) (k45_hw7 : k45_chk7 v57), ∀ a, (k45_off23 v57) a + S1x64.size a ≤ S100000x64.size a := fun v57 k45_hw7 => k45_hw7.2

def cc45_transform_1 (i : grid45.Coords) : Fin 2 → Nat :=
  let arg0 : BitVec 32 := BitVec.ofNat 32 (i 0).val
  let c0_i32 : BitVec 32 := 0#32
  let c0_i32_0 : BitVec 32 := 0#32
  ![arg0.toNat, c0_i32.toNat]

def cc45_transform_2 (i : grid45.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage45_0 : Fin 2 → Memref sig .tc .vmem S8x1 .f32 := fun | 0 => Memref.whole cc45_stg0_0 | 1 => Memref.whole cc45_stg0_1 | ⟨_ + 2, h⟩ => absurd h (Nat.not_lt.2 (Nat.le_add_left _ _))
abbrev sem45_0 : Fin 2 → DmaSem sig := fun | 0 => cc45_sem0_0 | 1 => cc45_sem0_1 | ⟨_ + 2, h⟩ => absurd h (Nat.not_lt.2 (Nat.le_add_left _ _))
abbrev reads45_0 : Fin grid45.rank → Bool := ![true]

abbrev stage45_1 : Fin 2 → Memref sig .tc .vmem S8x64 .f32 := fun | 0 => Memref.whole cc45_stg1_0 | 1 => Memref.whole cc45_stg1_1 | ⟨_ + 2, h⟩ => absurd h (Nat.not_lt.2 (Nat.le_add_left _ _))
abbrev sem45_1 : Fin 2 → DmaSem sig := fun | 0 => cc45_sem1_0 | 1 => cc45_sem1_1 | ⟨_ + 2, h⟩ => absurd h (Nat.not_lt.2 (Nat.le_add_left _ _))
abbrev reads45_1 : Fin grid45.rank → Bool := ![true]

abbrev grid46 : Pipeline.Grid := ⟨1, ![12500], ![false]⟩

abbrev pre46 : Pipeline.Prefetch sig := ⟨1, ![main_v195.idx], fun | 0 => main_v195.names | ⟨_ + 1, h⟩ => absurd h (Nat.not_lt.2 (Nat.le_add_left _ _)), fun | 0 => rfl | ⟨_ + 1, h⟩ => absurd h (Nat.not_lt.2 (Nat.le_add_left _ _))⟩

def k46_off1 (i : grid46.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k46_off2 (v3 : BitVec 32) : Fin 2 → Nat :=
  let c0_i32_3 : BitVec 32 := 0#32
  ![v3.toNat, 0]

def k46_off3 (i : grid46.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k46_off4 (v12 : BitVec 32) : Fin 2 → Nat :=
  let c0_i32_7 : BitVec 32 := 0#32
  ![v12.toNat, 0]

def k46_off5 (i : grid46.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k46_off6 (v21 : BitVec 32) : Fin 2 → Nat :=
  let c0_i32_11 : BitVec 32 := 0#32
  ![v21.toNat, 0]

def k46_off7 (i : grid46.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k46_off8 (v30 : BitVec 32) : Fin 2 → Nat :=
  let c0_i32_15 : BitVec 32 := 0#32
  ![v30.toNat, 0]

def k46_off9 (i : grid46.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k46_off10 (v39 : BitVec 32) : Fin 2 → Nat :=
  let c0_i32_19 : BitVec 32 := 0#32
  ![v39.toNat, 0]

def k46_off11 (i : grid46.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k46_off12 (v48 : BitVec 32) : Fin 2 → Nat :=
  let c0_i32_23 : BitVec 32 := 0#32
  ![v48.toNat, 0]

def k46_off13 (i : grid46.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k46_off14 (v57 : BitVec 32) : Fin 2 → Nat :=
  let c0_i32_27 : BitVec 32 := 0#32
  ![v57.toNat, 0]

def k46_off15 (i : grid46.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k46_off16 (v66 : BitVec 32) : Fin 2 → Nat :=
  let c0_i32_31 : BitVec 32 := 0#32
  ![v66.toNat, 0]

def k46_chk8 (v66 : BitVec 32) : Prop :=
  (∀ a, (k46_off16 v66) a + S1x64.size a ≤ S100000x64.size a)
instance k46_chk8.dec : ∀ (v66 : BitVec 32), Decidable (k46_chk8 v66) := fun v66 => decidable_of_iff' _ (Iff.of_eq (k46_chk8.eq_1 v66))
theorem k46_off16_inb : ∀ (v66 : BitVec 32) (k46_hw8 : k46_chk8 v66), ∀ a, (k46_off16 v66) a + S1x64.size a ≤ S100000x64.size a := fun v66 k46_hw8 => k46_hw8

def k46_off17 (v3 : BitVec 32) : Fin 2 → Nat :=
  let c0_i32_35 : BitVec 32 := 0#32
  ![v3.toNat, 0]

def k46_chk1 (v3 : BitVec 32) : Prop :=
  (∀ a, (k46_off2 v3) a + S1x64.size a ≤ S100000x64.size a) ∧
  (∀ a, (k46_off17 v3) a + S1x64.size a ≤ S100000x64.size a)
instance k46_chk1.dec : ∀ (v3 : BitVec 32), Decidable (k46_chk1 v3) := fun v3 => decidable_of_iff' _ (Iff.of_eq (k46_chk1.eq_1 v3))
theorem k46_off2_inb : ∀ (v3 : BitVec 32) (k46_hw1 : k46_chk1 v3), ∀ a, (k46_off2 v3) a + S1x64.size a ≤ S100000x64.size a := fun v3 k46_hw1 => k46_hw1.1
theorem k46_off17_inb : ∀ (v3 : BitVec 32) (k46_hw1 : k46_chk1 v3), ∀ a, (k46_off17 v3) a + S1x64.size a ≤ S100000x64.size a := fun v3 k46_hw1 => k46_hw1.2

def k46_off18 (v12 : BitVec 32) : Fin 2 → Nat :=
  let c0_i32_39 : BitVec 32 := 0#32
  ![v12.toNat, 0]

def k46_chk2 (v12 : BitVec 32) : Prop :=
  (∀ a, (k46_off4 v12) a + S1x64.size a ≤ S100000x64.size a) ∧
  (∀ a, (k46_off18 v12) a + S1x64.size a ≤ S100000x64.size a)
instance k46_chk2.dec : ∀ (v12 : BitVec 32), Decidable (k46_chk2 v12) := fun v12 => decidable_of_iff' _ (Iff.of_eq (k46_chk2.eq_1 v12))
theorem k46_off4_inb : ∀ (v12 : BitVec 32) (k46_hw2 : k46_chk2 v12), ∀ a, (k46_off4 v12) a + S1x64.size a ≤ S100000x64.size a := fun v12 k46_hw2 => k46_hw2.1
theorem k46_off18_inb : ∀ (v12 : BitVec 32) (k46_hw2 : k46_chk2 v12), ∀ a, (k46_off18 v12) a + S1x64.size a ≤ S100000x64.size a := fun v12 k46_hw2 => k46_hw2.2

def k46_off19 (v21 : BitVec 32) : Fin 2 → Nat :=
  let c0_i32_43 : BitVec 32 := 0#32
  ![v21.toNat, 0]

def k46_chk3 (v21 : BitVec 32) : Prop :=
  (∀ a, (k46_off6 v21) a + S1x64.size a ≤ S100000x64.size a) ∧
  (∀ a, (k46_off19 v21) a + S1x64.size a ≤ S100000x64.size a)
instance k46_chk3.dec : ∀ (v21 : BitVec 32), Decidable (k46_chk3 v21) := fun v21 => decidable_of_iff' _ (Iff.of_eq (k46_chk3.eq_1 v21))
theorem k46_off6_inb : ∀ (v21 : BitVec 32) (k46_hw3 : k46_chk3 v21), ∀ a, (k46_off6 v21) a + S1x64.size a ≤ S100000x64.size a := fun v21 k46_hw3 => k46_hw3.1
theorem k46_off19_inb : ∀ (v21 : BitVec 32) (k46_hw3 : k46_chk3 v21), ∀ a, (k46_off19 v21) a + S1x64.size a ≤ S100000x64.size a := fun v21 k46_hw3 => k46_hw3.2

def k46_off20 (v30 : BitVec 32) : Fin 2 → Nat :=
  let c0_i32_47 : BitVec 32 := 0#32
  ![v30.toNat, 0]

def k46_chk4 (v30 : BitVec 32) : Prop :=
  (∀ a, (k46_off8 v30) a + S1x64.size a ≤ S100000x64.size a) ∧
  (∀ a, (k46_off20 v30) a + S1x64.size a ≤ S100000x64.size a)
instance k46_chk4.dec : ∀ (v30 : BitVec 32), Decidable (k46_chk4 v30) := fun v30 => decidable_of_iff' _ (Iff.of_eq (k46_chk4.eq_1 v30))
theorem k46_off8_inb : ∀ (v30 : BitVec 32) (k46_hw4 : k46_chk4 v30), ∀ a, (k46_off8 v30) a + S1x64.size a ≤ S100000x64.size a := fun v30 k46_hw4 => k46_hw4.1
theorem k46_off20_inb : ∀ (v30 : BitVec 32) (k46_hw4 : k46_chk4 v30), ∀ a, (k46_off20 v30) a + S1x64.size a ≤ S100000x64.size a := fun v30 k46_hw4 => k46_hw4.2

def k46_off21 (v39 : BitVec 32) : Fin 2 → Nat :=
  let c0_i32_51 : BitVec 32 := 0#32
  ![v39.toNat, 0]

def k46_chk5 (v39 : BitVec 32) : Prop :=
  (∀ a, (k46_off10 v39) a + S1x64.size a ≤ S100000x64.size a) ∧
  (∀ a, (k46_off21 v39) a + S1x64.size a ≤ S100000x64.size a)
instance k46_chk5.dec : ∀ (v39 : BitVec 32), Decidable (k46_chk5 v39) := fun v39 => decidable_of_iff' _ (Iff.of_eq (k46_chk5.eq_1 v39))
theorem k46_off10_inb : ∀ (v39 : BitVec 32) (k46_hw5 : k46_chk5 v39), ∀ a, (k46_off10 v39) a + S1x64.size a ≤ S100000x64.size a := fun v39 k46_hw5 => k46_hw5.1
theorem k46_off21_inb : ∀ (v39 : BitVec 32) (k46_hw5 : k46_chk5 v39), ∀ a, (k46_off21 v39) a + S1x64.size a ≤ S100000x64.size a := fun v39 k46_hw5 => k46_hw5.2

def k46_off22 (v48 : BitVec 32) : Fin 2 → Nat :=
  let c0_i32_55 : BitVec 32 := 0#32
  ![v48.toNat, 0]

def k46_chk6 (v48 : BitVec 32) : Prop :=
  (∀ a, (k46_off12 v48) a + S1x64.size a ≤ S100000x64.size a) ∧
  (∀ a, (k46_off22 v48) a + S1x64.size a ≤ S100000x64.size a)
instance k46_chk6.dec : ∀ (v48 : BitVec 32), Decidable (k46_chk6 v48) := fun v48 => decidable_of_iff' _ (Iff.of_eq (k46_chk6.eq_1 v48))
theorem k46_off12_inb : ∀ (v48 : BitVec 32) (k46_hw6 : k46_chk6 v48), ∀ a, (k46_off12 v48) a + S1x64.size a ≤ S100000x64.size a := fun v48 k46_hw6 => k46_hw6.1
theorem k46_off22_inb : ∀ (v48 : BitVec 32) (k46_hw6 : k46_chk6 v48), ∀ a, (k46_off22 v48) a + S1x64.size a ≤ S100000x64.size a := fun v48 k46_hw6 => k46_hw6.2

def k46_off23 (v57 : BitVec 32) : Fin 2 → Nat :=
  let c0_i32_59 : BitVec 32 := 0#32
  ![v57.toNat, 0]

def k46_chk7 (v57 : BitVec 32) : Prop :=
  (∀ a, (k46_off14 v57) a + S1x64.size a ≤ S100000x64.size a) ∧
  (∀ a, (k46_off23 v57) a + S1x64.size a ≤ S100000x64.size a)
instance k46_chk7.dec : ∀ (v57 : BitVec 32), Decidable (k46_chk7 v57) := fun v57 => decidable_of_iff' _ (Iff.of_eq (k46_chk7.eq_1 v57))
theorem k46_off14_inb : ∀ (v57 : BitVec 32) (k46_hw7 : k46_chk7 v57), ∀ a, (k46_off14 v57) a + S1x64.size a ≤ S100000x64.size a := fun v57 k46_hw7 => k46_hw7.1
theorem k46_off23_inb : ∀ (v57 : BitVec 32) (k46_hw7 : k46_chk7 v57), ∀ a, (k46_off23 v57) a + S1x64.size a ≤ S100000x64.size a := fun v57 k46_hw7 => k46_hw7.2

def cc46_transform_1 (i : grid46.Coords) : Fin 2 → Nat :=
  let arg0 : BitVec 32 := BitVec.ofNat 32 (i 0).val
  let c0_i32 : BitVec 32 := 0#32
  let c0_i32_0 : BitVec 32 := 0#32
  ![arg0.toNat, c0_i32.toNat]

def cc46_transform_2 (i : grid46.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage46_0 : Fin 2 → Memref sig .tc .vmem S8x1 .f32 := fun | 0 => Memref.whole cc46_stg0_0 | 1 => Memref.whole cc46_stg0_1 | ⟨_ + 2, h⟩ => absurd h (Nat.not_lt.2 (Nat.le_add_left _ _))
abbrev sem46_0 : Fin 2 → DmaSem sig := fun | 0 => cc46_sem0_0 | 1 => cc46_sem0_1 | ⟨_ + 2, h⟩ => absurd h (Nat.not_lt.2 (Nat.le_add_left _ _))
abbrev reads46_0 : Fin grid46.rank → Bool := ![true]

abbrev stage46_1 : Fin 2 → Memref sig .tc .vmem S8x64 .f32 := fun | 0 => Memref.whole cc46_stg1_0 | 1 => Memref.whole cc46_stg1_1 | ⟨_ + 2, h⟩ => absurd h (Nat.not_lt.2 (Nat.le_add_left _ _))
abbrev sem46_1 : Fin 2 → DmaSem sig := fun | 0 => cc46_sem1_0 | 1 => cc46_sem1_1 | ⟨_ + 2, h⟩ => absurd h (Nat.not_lt.2 (Nat.le_add_left _ _))
abbrev reads46_1 : Fin grid46.rank → Bool := ![true]

abbrev grid47 : Pipeline.Grid := ⟨1, ![12500], ![false]⟩

abbrev pre47 : Pipeline.Prefetch sig := ⟨1, ![main_v199.idx], fun | 0 => main_v199.names | ⟨_ + 1, h⟩ => absurd h (Nat.not_lt.2 (Nat.le_add_left _ _)), fun | 0 => rfl | ⟨_ + 1, h⟩ => absurd h (Nat.not_lt.2 (Nat.le_add_left _ _))⟩

def k47_off1 (i : grid47.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k47_off2 (v3 : BitVec 32) : Fin 2 → Nat :=
  let c0_i32_3 : BitVec 32 := 0#32
  ![v3.toNat, 0]

def k47_off3 (i : grid47.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k47_off4 (v12 : BitVec 32) : Fin 2 → Nat :=
  let c0_i32_7 : BitVec 32 := 0#32
  ![v12.toNat, 0]

def k47_off5 (i : grid47.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k47_off6 (v21 : BitVec 32) : Fin 2 → Nat :=
  let c0_i32_11 : BitVec 32 := 0#32
  ![v21.toNat, 0]

def k47_off7 (i : grid47.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k47_off8 (v30 : BitVec 32) : Fin 2 → Nat :=
  let c0_i32_15 : BitVec 32 := 0#32
  ![v30.toNat, 0]

def k47_off9 (i : grid47.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k47_off10 (v39 : BitVec 32) : Fin 2 → Nat :=
  let c0_i32_19 : BitVec 32 := 0#32
  ![v39.toNat, 0]

def k47_off11 (i : grid47.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k47_off12 (v48 : BitVec 32) : Fin 2 → Nat :=
  let c0_i32_23 : BitVec 32 := 0#32
  ![v48.toNat, 0]

def k47_off13 (i : grid47.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k47_off14 (v57 : BitVec 32) : Fin 2 → Nat :=
  let c0_i32_27 : BitVec 32 := 0#32
  ![v57.toNat, 0]

def k47_off15 (i : grid47.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k47_off16 (v66 : BitVec 32) : Fin 2 → Nat :=
  let c0_i32_31 : BitVec 32 := 0#32
  ![v66.toNat, 0]

def k47_chk8 (v66 : BitVec 32) : Prop :=
  (∀ a, (k47_off16 v66) a + S1x64.size a ≤ S100000x64.size a)
instance k47_chk8.dec : ∀ (v66 : BitVec 32), Decidable (k47_chk8 v66) := fun v66 => decidable_of_iff' _ (Iff.of_eq (k47_chk8.eq_1 v66))
theorem k47_off16_inb : ∀ (v66 : BitVec 32) (k47_hw8 : k47_chk8 v66), ∀ a, (k47_off16 v66) a + S1x64.size a ≤ S100000x64.size a := fun v66 k47_hw8 => k47_hw8

def k47_off17 (v3 : BitVec 32) : Fin 2 → Nat :=
  let c0_i32_35 : BitVec 32 := 0#32
  ![v3.toNat, 0]

def k47_chk1 (v3 : BitVec 32) : Prop :=
  (∀ a, (k47_off2 v3) a + S1x64.size a ≤ S100000x64.size a) ∧
  (∀ a, (k47_off17 v3) a + S1x64.size a ≤ S100000x64.size a)
instance k47_chk1.dec : ∀ (v3 : BitVec 32), Decidable (k47_chk1 v3) := fun v3 => decidable_of_iff' _ (Iff.of_eq (k47_chk1.eq_1 v3))
theorem k47_off2_inb : ∀ (v3 : BitVec 32) (k47_hw1 : k47_chk1 v3), ∀ a, (k47_off2 v3) a + S1x64.size a ≤ S100000x64.size a := fun v3 k47_hw1 => k47_hw1.1
theorem k47_off17_inb : ∀ (v3 : BitVec 32) (k47_hw1 : k47_chk1 v3), ∀ a, (k47_off17 v3) a + S1x64.size a ≤ S100000x64.size a := fun v3 k47_hw1 => k47_hw1.2

def k47_off18 (v12 : BitVec 32) : Fin 2 → Nat :=
  let c0_i32_39 : BitVec 32 := 0#32
  ![v12.toNat, 0]

def k47_chk2 (v12 : BitVec 32) : Prop :=
  (∀ a, (k47_off4 v12) a + S1x64.size a ≤ S100000x64.size a) ∧
  (∀ a, (k47_off18 v12) a + S1x64.size a ≤ S100000x64.size a)
instance k47_chk2.dec : ∀ (v12 : BitVec 32), Decidable (k47_chk2 v12) := fun v12 => decidable_of_iff' _ (Iff.of_eq (k47_chk2.eq_1 v12))
theorem k47_off4_inb : ∀ (v12 : BitVec 32) (k47_hw2 : k47_chk2 v12), ∀ a, (k47_off4 v12) a + S1x64.size a ≤ S100000x64.size a := fun v12 k47_hw2 => k47_hw2.1
theorem k47_off18_inb : ∀ (v12 : BitVec 32) (k47_hw2 : k47_chk2 v12), ∀ a, (k47_off18 v12) a + S1x64.size a ≤ S100000x64.size a := fun v12 k47_hw2 => k47_hw2.2

def k47_off19 (v21 : BitVec 32) : Fin 2 → Nat :=
  let c0_i32_43 : BitVec 32 := 0#32
  ![v21.toNat, 0]

def k47_chk3 (v21 : BitVec 32) : Prop :=
  (∀ a, (k47_off6 v21) a + S1x64.size a ≤ S100000x64.size a) ∧
  (∀ a, (k47_off19 v21) a + S1x64.size a ≤ S100000x64.size a)
instance k47_chk3.dec : ∀ (v21 : BitVec 32), Decidable (k47_chk3 v21) := fun v21 => decidable_of_iff' _ (Iff.of_eq (k47_chk3.eq_1 v21))
theorem k47_off6_inb : ∀ (v21 : BitVec 32) (k47_hw3 : k47_chk3 v21), ∀ a, (k47_off6 v21) a + S1x64.size a ≤ S100000x64.size a := fun v21 k47_hw3 => k47_hw3.1
theorem k47_off19_inb : ∀ (v21 : BitVec 32) (k47_hw3 : k47_chk3 v21), ∀ a, (k47_off19 v21) a + S1x64.size a ≤ S100000x64.size a := fun v21 k47_hw3 => k47_hw3.2

def k47_off20 (v30 : BitVec 32) : Fin 2 → Nat :=
  let c0_i32_47 : BitVec 32 := 0#32
  ![v30.toNat, 0]

def k47_chk4 (v30 : BitVec 32) : Prop :=
  (∀ a, (k47_off8 v30) a + S1x64.size a ≤ S100000x64.size a) ∧
  (∀ a, (k47_off20 v30) a + S1x64.size a ≤ S100000x64.size a)
instance k47_chk4.dec : ∀ (v30 : BitVec 32), Decidable (k47_chk4 v30) := fun v30 => decidable_of_iff' _ (Iff.of_eq (k47_chk4.eq_1 v30))
theorem k47_off8_inb : ∀ (v30 : BitVec 32) (k47_hw4 : k47_chk4 v30), ∀ a, (k47_off8 v30) a + S1x64.size a ≤ S100000x64.size a := fun v30 k47_hw4 => k47_hw4.1
theorem k47_off20_inb : ∀ (v30 : BitVec 32) (k47_hw4 : k47_chk4 v30), ∀ a, (k47_off20 v30) a + S1x64.size a ≤ S100000x64.size a := fun v30 k47_hw4 => k47_hw4.2

def k47_off21 (v39 : BitVec 32) : Fin 2 → Nat :=
  let c0_i32_51 : BitVec 32 := 0#32
  ![v39.toNat, 0]

def k47_chk5 (v39 : BitVec 32) : Prop :=
  (∀ a, (k47_off10 v39) a + S1x64.size a ≤ S100000x64.size a) ∧
  (∀ a, (k47_off21 v39) a + S1x64.size a ≤ S100000x64.size a)
instance k47_chk5.dec : ∀ (v39 : BitVec 32), Decidable (k47_chk5 v39) := fun v39 => decidable_of_iff' _ (Iff.of_eq (k47_chk5.eq_1 v39))
theorem k47_off10_inb : ∀ (v39 : BitVec 32) (k47_hw5 : k47_chk5 v39), ∀ a, (k47_off10 v39) a + S1x64.size a ≤ S100000x64.size a := fun v39 k47_hw5 => k47_hw5.1
theorem k47_off21_inb : ∀ (v39 : BitVec 32) (k47_hw5 : k47_chk5 v39), ∀ a, (k47_off21 v39) a + S1x64.size a ≤ S100000x64.size a := fun v39 k47_hw5 => k47_hw5.2

def k47_off22 (v48 : BitVec 32) : Fin 2 → Nat :=
  let c0_i32_55 : BitVec 32 := 0#32
  ![v48.toNat, 0]

def k47_chk6 (v48 : BitVec 32) : Prop :=
  (∀ a, (k47_off12 v48) a + S1x64.size a ≤ S100000x64.size a) ∧
  (∀ a, (k47_off22 v48) a + S1x64.size a ≤ S100000x64.size a)
instance k47_chk6.dec : ∀ (v48 : BitVec 32), Decidable (k47_chk6 v48) := fun v48 => decidable_of_iff' _ (Iff.of_eq (k47_chk6.eq_1 v48))
theorem k47_off12_inb : ∀ (v48 : BitVec 32) (k47_hw6 : k47_chk6 v48), ∀ a, (k47_off12 v48) a + S1x64.size a ≤ S100000x64.size a := fun v48 k47_hw6 => k47_hw6.1
theorem k47_off22_inb : ∀ (v48 : BitVec 32) (k47_hw6 : k47_chk6 v48), ∀ a, (k47_off22 v48) a + S1x64.size a ≤ S100000x64.size a := fun v48 k47_hw6 => k47_hw6.2

def k47_off23 (v57 : BitVec 32) : Fin 2 → Nat :=
  let c0_i32_59 : BitVec 32 := 0#32
  ![v57.toNat, 0]

def k47_chk7 (v57 : BitVec 32) : Prop :=
  (∀ a, (k47_off14 v57) a + S1x64.size a ≤ S100000x64.size a) ∧
  (∀ a, (k47_off23 v57) a + S1x64.size a ≤ S100000x64.size a)
instance k47_chk7.dec : ∀ (v57 : BitVec 32), Decidable (k47_chk7 v57) := fun v57 => decidable_of_iff' _ (Iff.of_eq (k47_chk7.eq_1 v57))
theorem k47_off14_inb : ∀ (v57 : BitVec 32) (k47_hw7 : k47_chk7 v57), ∀ a, (k47_off14 v57) a + S1x64.size a ≤ S100000x64.size a := fun v57 k47_hw7 => k47_hw7.1
theorem k47_off23_inb : ∀ (v57 : BitVec 32) (k47_hw7 : k47_chk7 v57), ∀ a, (k47_off23 v57) a + S1x64.size a ≤ S100000x64.size a := fun v57 k47_hw7 => k47_hw7.2

def cc47_transform_1 (i : grid47.Coords) : Fin 2 → Nat :=
  let arg0 : BitVec 32 := BitVec.ofNat 32 (i 0).val
  let c0_i32 : BitVec 32 := 0#32
  let c0_i32_0 : BitVec 32 := 0#32
  ![arg0.toNat, c0_i32.toNat]

def cc47_transform_2 (i : grid47.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage47_0 : Fin 2 → Memref sig .tc .vmem S8x1 .f32 := fun | 0 => Memref.whole cc47_stg0_0 | 1 => Memref.whole cc47_stg0_1 | ⟨_ + 2, h⟩ => absurd h (Nat.not_lt.2 (Nat.le_add_left _ _))
abbrev sem47_0 : Fin 2 → DmaSem sig := fun | 0 => cc47_sem0_0 | 1 => cc47_sem0_1 | ⟨_ + 2, h⟩ => absurd h (Nat.not_lt.2 (Nat.le_add_left _ _))
abbrev reads47_0 : Fin grid47.rank → Bool := ![true]

abbrev stage47_1 : Fin 2 → Memref sig .tc .vmem S8x64 .f32 := fun | 0 => Memref.whole cc47_stg1_0 | 1 => Memref.whole cc47_stg1_1 | ⟨_ + 2, h⟩ => absurd h (Nat.not_lt.2 (Nat.le_add_left _ _))
abbrev sem47_1 : Fin 2 → DmaSem sig := fun | 0 => cc47_sem1_0 | 1 => cc47_sem1_1 | ⟨_ + 2, h⟩ => absurd h (Nat.not_lt.2 (Nat.le_add_left _ _))
abbrev reads47_1 : Fin grid47.rank → Bool := ![true]

abbrev grid48 : Pipeline.Grid := ⟨1, ![12500], ![false]⟩

abbrev pre48 : Pipeline.Prefetch sig := ⟨1, ![main_v203.idx], fun | 0 => main_v203.names | ⟨_ + 1, h⟩ => absurd h (Nat.not_lt.2 (Nat.le_add_left _ _)), fun | 0 => rfl | ⟨_ + 1, h⟩ => absurd h (Nat.not_lt.2 (Nat.le_add_left _ _))⟩

def k48_off1 (i : grid48.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k48_off2 (v3 : BitVec 32) : Fin 2 → Nat :=
  let c0_i32_3 : BitVec 32 := 0#32
  ![v3.toNat, 0]

def k48_off3 (i : grid48.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k48_off4 (v12 : BitVec 32) : Fin 2 → Nat :=
  let c0_i32_7 : BitVec 32 := 0#32
  ![v12.toNat, 0]

def k48_off5 (i : grid48.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k48_off6 (v21 : BitVec 32) : Fin 2 → Nat :=
  let c0_i32_11 : BitVec 32 := 0#32
  ![v21.toNat, 0]

def k48_off7 (i : grid48.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k48_off8 (v30 : BitVec 32) : Fin 2 → Nat :=
  let c0_i32_15 : BitVec 32 := 0#32
  ![v30.toNat, 0]

def k48_off9 (i : grid48.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k48_off10 (v39 : BitVec 32) : Fin 2 → Nat :=
  let c0_i32_19 : BitVec 32 := 0#32
  ![v39.toNat, 0]

def k48_off11 (i : grid48.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k48_off12 (v48 : BitVec 32) : Fin 2 → Nat :=
  let c0_i32_23 : BitVec 32 := 0#32
  ![v48.toNat, 0]

def k48_off13 (i : grid48.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k48_off14 (v57 : BitVec 32) : Fin 2 → Nat :=
  let c0_i32_27 : BitVec 32 := 0#32
  ![v57.toNat, 0]

def k48_off15 (i : grid48.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k48_off16 (v66 : BitVec 32) : Fin 2 → Nat :=
  let c0_i32_31 : BitVec 32 := 0#32
  ![v66.toNat, 0]

def k48_chk8 (v66 : BitVec 32) : Prop :=
  (∀ a, (k48_off16 v66) a + S1x64.size a ≤ S100000x64.size a)
instance k48_chk8.dec : ∀ (v66 : BitVec 32), Decidable (k48_chk8 v66) := fun v66 => decidable_of_iff' _ (Iff.of_eq (k48_chk8.eq_1 v66))
theorem k48_off16_inb : ∀ (v66 : BitVec 32) (k48_hw8 : k48_chk8 v66), ∀ a, (k48_off16 v66) a + S1x64.size a ≤ S100000x64.size a := fun v66 k48_hw8 => k48_hw8

def k48_off17 (v3 : BitVec 32) : Fin 2 → Nat :=
  let c0_i32_35 : BitVec 32 := 0#32
  ![v3.toNat, 0]

def k48_chk1 (v3 : BitVec 32) : Prop :=
  (∀ a, (k48_off2 v3) a + S1x64.size a ≤ S100000x64.size a) ∧
  (∀ a, (k48_off17 v3) a + S1x64.size a ≤ S100000x64.size a)
instance k48_chk1.dec : ∀ (v3 : BitVec 32), Decidable (k48_chk1 v3) := fun v3 => decidable_of_iff' _ (Iff.of_eq (k48_chk1.eq_1 v3))
theorem k48_off2_inb : ∀ (v3 : BitVec 32) (k48_hw1 : k48_chk1 v3), ∀ a, (k48_off2 v3) a + S1x64.size a ≤ S100000x64.size a := fun v3 k48_hw1 => k48_hw1.1
theorem k48_off17_inb : ∀ (v3 : BitVec 32) (k48_hw1 : k48_chk1 v3), ∀ a, (k48_off17 v3) a + S1x64.size a ≤ S100000x64.size a := fun v3 k48_hw1 => k48_hw1.2

def k48_off18 (v12 : BitVec 32) : Fin 2 → Nat :=
  let c0_i32_39 : BitVec 32 := 0#32
  ![v12.toNat, 0]

def k48_chk2 (v12 : BitVec 32) : Prop :=
  (∀ a, (k48_off4 v12) a + S1x64.size a ≤ S100000x64.size a) ∧
  (∀ a, (k48_off18 v12) a + S1x64.size a ≤ S100000x64.size a)
instance k48_chk2.dec : ∀ (v12 : BitVec 32), Decidable (k48_chk2 v12) := fun v12 => decidable_of_iff' _ (Iff.of_eq (k48_chk2.eq_1 v12))
theorem k48_off4_inb : ∀ (v12 : BitVec 32) (k48_hw2 : k48_chk2 v12), ∀ a, (k48_off4 v12) a + S1x64.size a ≤ S100000x64.size a := fun v12 k48_hw2 => k48_hw2.1
theorem k48_off18_inb : ∀ (v12 : BitVec 32) (k48_hw2 : k48_chk2 v12), ∀ a, (k48_off18 v12) a + S1x64.size a ≤ S100000x64.size a := fun v12 k48_hw2 => k48_hw2.2

def k48_off19 (v21 : BitVec 32) : Fin 2 → Nat :=
  let c0_i32_43 : BitVec 32 := 0#32
  ![v21.toNat, 0]

def k48_chk3 (v21 : BitVec 32) : Prop :=
  (∀ a, (k48_off6 v21) a + S1x64.size a ≤ S100000x64.size a) ∧
  (∀ a, (k48_off19 v21) a + S1x64.size a ≤ S100000x64.size a)
instance k48_chk3.dec : ∀ (v21 : BitVec 32), Decidable (k48_chk3 v21) := fun v21 => decidable_of_iff' _ (Iff.of_eq (k48_chk3.eq_1 v21))
theorem k48_off6_inb : ∀ (v21 : BitVec 32) (k48_hw3 : k48_chk3 v21), ∀ a, (k48_off6 v21) a + S1x64.size a ≤ S100000x64.size a := fun v21 k48_hw3 => k48_hw3.1
theorem k48_off19_inb : ∀ (v21 : BitVec 32) (k48_hw3 : k48_chk3 v21), ∀ a, (k48_off19 v21) a + S1x64.size a ≤ S100000x64.size a := fun v21 k48_hw3 => k48_hw3.2

def k48_off20 (v30 : BitVec 32) : Fin 2 → Nat :=
  let c0_i32_47 : BitVec 32 := 0#32
  ![v30.toNat, 0]

def k48_chk4 (v30 : BitVec 32) : Prop :=
  (∀ a, (k48_off8 v30) a + S1x64.size a ≤ S100000x64.size a) ∧
  (∀ a, (k48_off20 v30) a + S1x64.size a ≤ S100000x64.size a)
instance k48_chk4.dec : ∀ (v30 : BitVec 32), Decidable (k48_chk4 v30) := fun v30 => decidable_of_iff' _ (Iff.of_eq (k48_chk4.eq_1 v30))
theorem k48_off8_inb : ∀ (v30 : BitVec 32) (k48_hw4 : k48_chk4 v30), ∀ a, (k48_off8 v30) a + S1x64.size a ≤ S100000x64.size a := fun v30 k48_hw4 => k48_hw4.1
theorem k48_off20_inb : ∀ (v30 : BitVec 32) (k48_hw4 : k48_chk4 v30), ∀ a, (k48_off20 v30) a + S1x64.size a ≤ S100000x64.size a := fun v30 k48_hw4 => k48_hw4.2

def k48_off21 (v39 : BitVec 32) : Fin 2 → Nat :=
  let c0_i32_51 : BitVec 32 := 0#32
  ![v39.toNat, 0]

def k48_chk5 (v39 : BitVec 32) : Prop :=
  (∀ a, (k48_off10 v39) a + S1x64.size a ≤ S100000x64.size a) ∧
  (∀ a, (k48_off21 v39) a + S1x64.size a ≤ S100000x64.size a)
instance k48_chk5.dec : ∀ (v39 : BitVec 32), Decidable (k48_chk5 v39) := fun v39 => decidable_of_iff' _ (Iff.of_eq (k48_chk5.eq_1 v39))
theorem k48_off10_inb : ∀ (v39 : BitVec 32) (k48_hw5 : k48_chk5 v39), ∀ a, (k48_off10 v39) a + S1x64.size a ≤ S100000x64.size a := fun v39 k48_hw5 => k48_hw5.1
theorem k48_off21_inb : ∀ (v39 : BitVec 32) (k48_hw5 : k48_chk5 v39), ∀ a, (k48_off21 v39) a + S1x64.size a ≤ S100000x64.size a := fun v39 k48_hw5 => k48_hw5.2

def k48_off22 (v48 : BitVec 32) : Fin 2 → Nat :=
  let c0_i32_55 : BitVec 32 := 0#32
  ![v48.toNat, 0]

def k48_chk6 (v48 : BitVec 32) : Prop :=
  (∀ a, (k48_off12 v48) a + S1x64.size a ≤ S100000x64.size a) ∧
  (∀ a, (k48_off22 v48) a + S1x64.size a ≤ S100000x64.size a)
instance k48_chk6.dec : ∀ (v48 : BitVec 32), Decidable (k48_chk6 v48) := fun v48 => decidable_of_iff' _ (Iff.of_eq (k48_chk6.eq_1 v48))
theorem k48_off12_inb : ∀ (v48 : BitVec 32) (k48_hw6 : k48_chk6 v48), ∀ a, (k48_off12 v48) a + S1x64.size a ≤ S100000x64.size a := fun v48 k48_hw6 => k48_hw6.1
theorem k48_off22_inb : ∀ (v48 : BitVec 32) (k48_hw6 : k48_chk6 v48), ∀ a, (k48_off22 v48) a + S1x64.size a ≤ S100000x64.size a := fun v48 k48_hw6 => k48_hw6.2

def k48_off23 (v57 : BitVec 32) : Fin 2 → Nat :=
  let c0_i32_59 : BitVec 32 := 0#32
  ![v57.toNat, 0]

def k48_chk7 (v57 : BitVec 32) : Prop :=
  (∀ a, (k48_off14 v57) a + S1x64.size a ≤ S100000x64.size a) ∧
  (∀ a, (k48_off23 v57) a + S1x64.size a ≤ S100000x64.size a)
instance k48_chk7.dec : ∀ (v57 : BitVec 32), Decidable (k48_chk7 v57) := fun v57 => decidable_of_iff' _ (Iff.of_eq (k48_chk7.eq_1 v57))
theorem k48_off14_inb : ∀ (v57 : BitVec 32) (k48_hw7 : k48_chk7 v57), ∀ a, (k48_off14 v57) a + S1x64.size a ≤ S100000x64.size a := fun v57 k48_hw7 => k48_hw7.1
theorem k48_off23_inb : ∀ (v57 : BitVec 32) (k48_hw7 : k48_chk7 v57), ∀ a, (k48_off23 v57) a + S1x64.size a ≤ S100000x64.size a := fun v57 k48_hw7 => k48_hw7.2

def cc48_transform_1 (i : grid48.Coords) : Fin 2 → Nat :=
  let arg0 : BitVec 32 := BitVec.ofNat 32 (i 0).val
  let c0_i32 : BitVec 32 := 0#32
  let c0_i32_0 : BitVec 32 := 0#32
  ![arg0.toNat, c0_i32.toNat]

def cc48_transform_2 (i : grid48.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage48_0 : Fin 2 → Memref sig .tc .vmem S8x1 .f32 := fun | 0 => Memref.whole cc48_stg0_0 | 1 => Memref.whole cc48_stg0_1 | ⟨_ + 2, h⟩ => absurd h (Nat.not_lt.2 (Nat.le_add_left _ _))
abbrev sem48_0 : Fin 2 → DmaSem sig := fun | 0 => cc48_sem0_0 | 1 => cc48_sem0_1 | ⟨_ + 2, h⟩ => absurd h (Nat.not_lt.2 (Nat.le_add_left _ _))
abbrev reads48_0 : Fin grid48.rank → Bool := ![true]

abbrev stage48_1 : Fin 2 → Memref sig .tc .vmem S8x64 .f32 := fun | 0 => Memref.whole cc48_stg1_0 | 1 => Memref.whole cc48_stg1_1 | ⟨_ + 2, h⟩ => absurd h (Nat.not_lt.2 (Nat.le_add_left _ _))
abbrev sem48_1 : Fin 2 → DmaSem sig := fun | 0 => cc48_sem1_0 | 1 => cc48_sem1_1 | ⟨_ + 2, h⟩ => absurd h (Nat.not_lt.2 (Nat.le_add_left _ _))
abbrev reads48_1 : Fin grid48.rank → Bool := ![true]

class K0.Facts₀ : Prop where
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S102400x64.size a
  hwx0_0 : ∀ i : grid0.Coords, EltTy.bits .f32 = 32 ∨ (Rect.block (s := S102400x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S102400x64.size a
  hwx0_1 : ∀ i : grid0.Coords, EltTy.bits .f32 = 32 ∨ (Rect.block (s := S102400x64) S4096x64.size (cc0_transform_1 i) (hinb0_1 i)).WholeWords (EltTy.packing .f32)

class K1.Facts₀ : Prop where
  hrank1 : 0 < grid1.rank
  k1_off1_inb : ∀ i : grid1.Coords, ∀ a, (k1_off1 i) a + S1.size a ≤ S100000.size a
  k1_off3_inb : ∀ i : grid1.Coords, ∀ a, (k1_off3 i) a + S1.size a ≤ S100000.size a
  k1_off5_inb : ∀ i : grid1.Coords, ∀ a, (k1_off5 i) a + S1.size a ≤ S100000.size a
  k1_off7_inb : ∀ i : grid1.Coords, ∀ a, (k1_off7 i) a + S1.size a ≤ S100000.size a
  k1_off9_inb : ∀ i : grid1.Coords, ∀ a, (k1_off9 i) a + S1.size a ≤ S100000.size a
  k1_off11_inb : ∀ i : grid1.Coords, ∀ a, (k1_off11 i) a + S1.size a ≤ S100000.size a
  k1_off13_inb : ∀ i : grid1.Coords, ∀ a, (k1_off13 i) a + S1.size a ≤ S100000.size a
  k1_off15_inb : ∀ i : grid1.Coords, ∀ a, (k1_off15 i) a + S1.size a ≤ S100000.size a
  hstage1_0 : ∀ j, (stage1_0 j).IsWhole
  nbuf1_0 : grid1.bufCount reads1_0 false = 2
  hreads1_0 : ∀ i i' : grid1.Coords, (∀ a, reads1_0 a = true → i a = i' a) → cc1_transform_1 i = cc1_transform_1 i'
  hinb1_0 : ∀ (i : grid1.Coords) a, (cc1_transform_1 i a + 1) * S8x1.size a ≤ S100000x1.size a
  hwx1_0 : ∀ i : grid1.Coords, EltTy.bits .f32 = 32 ∨ (Rect.block (s := S100000x1) S8x1.size (cc1_transform_1 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_2 i = cc1_transform_2 i'
  hinb1_1 : ∀ (i : grid1.Coords) a, (cc1_transform_2 i a + 1) * S8x64.size a ≤ S100000x64.size a
  hwx1_1 : ∀ i : grid1.Coords, EltTy.bits .f32 = 32 ∨ (Rect.block (s := S100000x64) S8x64.size (cc1_transform_2 i) (hinb1_1 i)).WholeWords (EltTy.packing .f32)

class K2.Facts₀ : Prop where
  hrank2 : 0 < grid2.rank
  k2_off1_inb : ∀ i : grid2.Coords, ∀ a, (k2_off1 i) a + S1.size a ≤ S100000.size a
  k2_off3_inb : ∀ i : grid2.Coords, ∀ a, (k2_off3 i) a + S1.size a ≤ S100000.size a
  k2_off5_inb : ∀ i : grid2.Coords, ∀ a, (k2_off5 i) a + S1.size a ≤ S100000.size a
  k2_off7_inb : ∀ i : grid2.Coords, ∀ a, (k2_off7 i) a + S1.size a ≤ S100000.size a
  k2_off9_inb : ∀ i : grid2.Coords, ∀ a, (k2_off9 i) a + S1.size a ≤ S100000.size a
  k2_off11_inb : ∀ i : grid2.Coords, ∀ a, (k2_off11 i) a + S1.size a ≤ S100000.size a
  k2_off13_inb : ∀ i : grid2.Coords, ∀ a, (k2_off13 i) a + S1.size a ≤ S100000.size a
  k2_off15_inb : ∀ i : grid2.Coords, ∀ a, (k2_off15 i) a + S1.size a ≤ S100000.size a
  hstage2_0 : ∀ j, (stage2_0 j).IsWhole
  nbuf2_0 : grid2.bufCount reads2_0 false = 2
  hreads2_0 : ∀ i i' : grid2.Coords, (∀ a, reads2_0 a = true → i a = i' a) → cc2_transform_1 i = cc2_transform_1 i'
  hinb2_0 : ∀ (i : grid2.Coords) a, (cc2_transform_1 i a + 1) * S8x1.size a ≤ S100000x1.size a
  hwx2_0 : ∀ i : grid2.Coords, EltTy.bits .f32 = 32 ∨ (Rect.block (s := S100000x1) S8x1.size (cc2_transform_1 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_2 i = cc2_transform_2 i'
  hinb2_1 : ∀ (i : grid2.Coords) a, (cc2_transform_2 i a + 1) * S8x64.size a ≤ S100000x64.size a
  hwx2_1 : ∀ i : grid2.Coords, EltTy.bits .f32 = 32 ∨ (Rect.block (s := S100000x64) S8x64.size (cc2_transform_2 i) (hinb2_1 i)).WholeWords (EltTy.packing .f32)

class K3.Facts₀ : Prop where
  hrank3 : 0 < grid3.rank
  k3_off1_inb : ∀ i : grid3.Coords, ∀ a, (k3_off1 i) a + S1.size a ≤ S100000.size a
  k3_off3_inb : ∀ i : grid3.Coords, ∀ a, (k3_off3 i) a + S1.size a ≤ S100000.size a
  k3_off5_inb : ∀ i : grid3.Coords, ∀ a, (k3_off5 i) a + S1.size a ≤ S100000.size a
  k3_off7_inb : ∀ i : grid3.Coords, ∀ a, (k3_off7 i) a + S1.size a ≤ S100000.size a
  k3_off9_inb : ∀ i : grid3.Coords, ∀ a, (k3_off9 i) a + S1.size a ≤ S100000.size a
  k3_off11_inb : ∀ i : grid3.Coords, ∀ a, (k3_off11 i) a + S1.size a ≤ S100000.size a
  k3_off13_inb : ∀ i : grid3.Coords, ∀ a, (k3_off13 i) a + S1.size a ≤ S100000.size a
  k3_off15_inb : ∀ i : grid3.Coords, ∀ a, (k3_off15 i) a + S1.size a ≤ S100000.size a
  hstage3_0 : ∀ j, (stage3_0 j).IsWhole
  nbuf3_0 : grid3.bufCount reads3_0 false = 2
  hreads3_0 : ∀ i i' : grid3.Coords, (∀ a, reads3_0 a = true → i a = i' a) → cc3_transform_1 i = cc3_transform_1 i'
  hinb3_0 : ∀ (i : grid3.Coords) a, (cc3_transform_1 i a + 1) * S8x1.size a ≤ S100000x1.size a
  hwx3_0 : ∀ i : grid3.Coords, EltTy.bits .f32 = 32 ∨ (Rect.block (s := S100000x1) S8x1.size (cc3_transform_1 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_2 i = cc3_transform_2 i'
  hinb3_1 : ∀ (i : grid3.Coords) a, (cc3_transform_2 i a + 1) * S8x64.size a ≤ S100000x64.size a
  hwx3_1 : ∀ i : grid3.Coords, EltTy.bits .f32 = 32 ∨ (Rect.block (s := S100000x64) S8x64.size (cc3_transform_2 i) (hinb3_1 i)).WholeWords (EltTy.packing .f32)

class K4.Facts₀ : Prop where
  hrank4 : 0 < grid4.rank
  k4_off1_inb : ∀ i : grid4.Coords, ∀ a, (k4_off1 i) a + S1.size a ≤ S100000.size a
  k4_off3_inb : ∀ i : grid4.Coords, ∀ a, (k4_off3 i) a + S1.size a ≤ S100000.size a
  k4_off5_inb : ∀ i : grid4.Coords, ∀ a, (k4_off5 i) a + S1.size a ≤ S100000.size a
  k4_off7_inb : ∀ i : grid4.Coords, ∀ a, (k4_off7 i) a + S1.size a ≤ S100000.size a
  k4_off9_inb : ∀ i : grid4.Coords, ∀ a, (k4_off9 i) a + S1.size a ≤ S100000.size a
  k4_off11_inb : ∀ i : grid4.Coords, ∀ a, (k4_off11 i) a + S1.size a ≤ S100000.size a
  k4_off13_inb : ∀ i : grid4.Coords, ∀ a, (k4_off13 i) a + S1.size a ≤ S100000.size a
  k4_off15_inb : ∀ i : grid4.Coords, ∀ a, (k4_off15 i) a + S1.size a ≤ S100000.size a
  hstage4_0 : ∀ j, (stage4_0 j).IsWhole
  nbuf4_0 : grid4.bufCount reads4_0 false = 2
  hreads4_0 : ∀ i i' : grid4.Coords, (∀ a, reads4_0 a = true → i a = i' a) → cc4_transform_1 i = cc4_transform_1 i'
  hinb4_0 : ∀ (i : grid4.Coords) a, (cc4_transform_1 i a + 1) * S8x1.size a ≤ S100000x1.size a
  hwx4_0 : ∀ i : grid4.Coords, EltTy.bits .f32 = 32 ∨ (Rect.block (s := S100000x1) S8x1.size (cc4_transform_1 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_2 i = cc4_transform_2 i'
  hinb4_1 : ∀ (i : grid4.Coords) a, (cc4_transform_2 i a + 1) * S8x64.size a ≤ S100000x64.size a
  hwx4_1 : ∀ i : grid4.Coords, EltTy.bits .f32 = 32 ∨ (Rect.block (s := S100000x64) S8x64.size (cc4_transform_2 i) (hinb4_1 i)).WholeWords (EltTy.packing .f32)

class K5.Facts₀ : Prop where
  hrank5 : 0 < grid5.rank
  k5_off1_inb : ∀ i : grid5.Coords, ∀ a, (k5_off1 i) a + S1.size a ≤ S100000.size a
  k5_off3_inb : ∀ i : grid5.Coords, ∀ a, (k5_off3 i) a + S1.size a ≤ S100000.size a
  k5_off5_inb : ∀ i : grid5.Coords, ∀ a, (k5_off5 i) a + S1.size a ≤ S100000.size a
  k5_off7_inb : ∀ i : grid5.Coords, ∀ a, (k5_off7 i) a + S1.size a ≤ S100000.size a
  k5_off9_inb : ∀ i : grid5.Coords, ∀ a, (k5_off9 i) a + S1.size a ≤ S100000.size a
  k5_off11_inb : ∀ i : grid5.Coords, ∀ a, (k5_off11 i) a + S1.size a ≤ S100000.size a
  k5_off13_inb : ∀ i : grid5.Coords, ∀ a, (k5_off13 i) a + S1.size a ≤ S100000.size a
  k5_off15_inb : ∀ i : grid5.Coords, ∀ a, (k5_off15 i) a + S1.size a ≤ S100000.size a
  hstage5_0 : ∀ j, (stage5_0 j).IsWhole
  nbuf5_0 : grid5.bufCount reads5_0 false = 2
  hreads5_0 : ∀ i i' : grid5.Coords, (∀ a, reads5_0 a = true → i a = i' a) → cc5_transform_1 i = cc5_transform_1 i'
  hinb5_0 : ∀ (i : grid5.Coords) a, (cc5_transform_1 i a + 1) * S8x1.size a ≤ S100000x1.size a
  hwx5_0 : ∀ i : grid5.Coords, EltTy.bits .f32 = 32 ∨ (Rect.block (s := S100000x1) S8x1.size (cc5_transform_1 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_2 i = cc5_transform_2 i'
  hinb5_1 : ∀ (i : grid5.Coords) a, (cc5_transform_2 i a + 1) * S8x64.size a ≤ S100000x64.size a
  hwx5_1 : ∀ i : grid5.Coords, EltTy.bits .f32 = 32 ∨ (Rect.block (s := S100000x64) S8x64.size (cc5_transform_2 i) (hinb5_1 i)).WholeWords (EltTy.packing .f32)

class K6.Facts₀ : Prop where
  hrank6 : 0 < grid6.rank
  k6_off1_inb : ∀ i : grid6.Coords, ∀ a, (k6_off1 i) a + S1.size a ≤ S100000.size a
  k6_off3_inb : ∀ i : grid6.Coords, ∀ a, (k6_off3 i) a + S1.size a ≤ S100000.size a
  k6_off5_inb : ∀ i : grid6.Coords, ∀ a, (k6_off5 i) a + S1.size a ≤ S100000.size a
  k6_off7_inb : ∀ i : grid6.Coords, ∀ a, (k6_off7 i) a + S1.size a ≤ S100000.size a
  k6_off9_inb : ∀ i : grid6.Coords, ∀ a, (k6_off9 i) a + S1.size a ≤ S100000.size a
  k6_off11_inb : ∀ i : grid6.Coords, ∀ a, (k6_off11 i) a + S1.size a ≤ S100000.size a
  k6_off13_inb : ∀ i : grid6.Coords, ∀ a, (k6_off13 i) a + S1.size a ≤ S100000.size a
  k6_off15_inb : ∀ i : grid6.Coords, ∀ a, (k6_off15 i) a + S1.size a ≤ S100000.size a
  hstage6_0 : ∀ j, (stage6_0 j).IsWhole
  nbuf6_0 : grid6.bufCount reads6_0 false = 2
  hreads6_0 : ∀ i i' : grid6.Coords, (∀ a, reads6_0 a = true → i a = i' a) → cc6_transform_1 i = cc6_transform_1 i'
  hinb6_0 : ∀ (i : grid6.Coords) a, (cc6_transform_1 i a + 1) * S8x1.size a ≤ S100000x1.size a
  hwx6_0 : ∀ i : grid6.Coords, EltTy.bits .f32 = 32 ∨ (Rect.block (s := S100000x1) S8x1.size (cc6_transform_1 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_2 i = cc6_transform_2 i'
  hinb6_1 : ∀ (i : grid6.Coords) a, (cc6_transform_2 i a + 1) * S8x64.size a ≤ S100000x64.size a
  hwx6_1 : ∀ i : grid6.Coords, EltTy.bits .f32 = 32 ∨ (Rect.block (s := S100000x64) S8x64.size (cc6_transform_2 i) (hinb6_1 i)).WholeWords (EltTy.packing .f32)

class K7.Facts₀ : Prop where
  hrank7 : 0 < grid7.rank
  k7_off1_inb : ∀ i : grid7.Coords, ∀ a, (k7_off1 i) a + S1.size a ≤ S100000.size a
  k7_off3_inb : ∀ i : grid7.Coords, ∀ a, (k7_off3 i) a + S1.size a ≤ S100000.size a
  k7_off5_inb : ∀ i : grid7.Coords, ∀ a, (k7_off5 i) a + S1.size a ≤ S100000.size a
  k7_off7_inb : ∀ i : grid7.Coords, ∀ a, (k7_off7 i) a + S1.size a ≤ S100000.size a
  k7_off9_inb : ∀ i : grid7.Coords, ∀ a, (k7_off9 i) a + S1.size a ≤ S100000.size a
  k7_off11_inb : ∀ i : grid7.Coords, ∀ a, (k7_off11 i) a + S1.size a ≤ S100000.size a
  k7_off13_inb : ∀ i : grid7.Coords, ∀ a, (k7_off13 i) a + S1.size a ≤ S100000.size a
  k7_off15_inb : ∀ i : grid7.Coords, ∀ a, (k7_off15 i) a + S1.size a ≤ S100000.size a
  hstage7_0 : ∀ j, (stage7_0 j).IsWhole
  nbuf7_0 : grid7.bufCount reads7_0 false = 2
  hreads7_0 : ∀ i i' : grid7.Coords, (∀ a, reads7_0 a = true → i a = i' a) → cc7_transform_1 i = cc7_transform_1 i'
  hinb7_0 : ∀ (i : grid7.Coords) a, (cc7_transform_1 i a + 1) * S8x1.size a ≤ S100000x1.size a
  hwx7_0 : ∀ i : grid7.Coords, EltTy.bits .f32 = 32 ∨ (Rect.block (s := S100000x1) S8x1.size (cc7_transform_1 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_2 i = cc7_transform_2 i'
  hinb7_1 : ∀ (i : grid7.Coords) a, (cc7_transform_2 i a + 1) * S8x64.size a ≤ S100000x64.size a
  hwx7_1 : ∀ i : grid7.Coords, EltTy.bits .f32 = 32 ∨ (Rect.block (s := S100000x64) S8x64.size (cc7_transform_2 i) (hinb7_1 i)).WholeWords (EltTy.packing .f32)

class K8.Facts₀ : Prop where
  hrank8 : 0 < grid8.rank
  k8_off1_inb : ∀ i : grid8.Coords, ∀ a, (k8_off1 i) a + S1.size a ≤ S100000.size a
  k8_off3_inb : ∀ i : grid8.Coords, ∀ a, (k8_off3 i) a + S1.size a ≤ S100000.size a
  k8_off5_inb : ∀ i : grid8.Coords, ∀ a, (k8_off5 i) a + S1.size a ≤ S100000.size a
  k8_off7_inb : ∀ i : grid8.Coords, ∀ a, (k8_off7 i) a + S1.size a ≤ S100000.size a
  k8_off9_inb : ∀ i : grid8.Coords, ∀ a, (k8_off9 i) a + S1.size a ≤ S100000.size a
  k8_off11_inb : ∀ i : grid8.Coords, ∀ a, (k8_off11 i) a + S1.size a ≤ S100000.size a
  k8_off13_inb : ∀ i : grid8.Coords, ∀ a, (k8_off13 i) a + S1.size a ≤ S100000.size a
  k8_off15_inb : ∀ i : grid8.Coords, ∀ a, (k8_off15 i) a + S1.size a ≤ S100000.size a
  hstage8_0 : ∀ j, (stage8_0 j).IsWhole
  nbuf8_0 : grid8.bufCount reads8_0 false = 2
  hreads8_0 : ∀ i i' : grid8.Coords, (∀ a, reads8_0 a = true → i a = i' a) → cc8_transform_1 i = cc8_transform_1 i'
  hinb8_0 : ∀ (i : grid8.Coords) a, (cc8_transform_1 i a + 1) * S8x1.size a ≤ S100000x1.size a
  hwx8_0 : ∀ i : grid8.Coords, EltTy.bits .f32 = 32 ∨ (Rect.block (s := S100000x1) S8x1.size (cc8_transform_1 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_2 i = cc8_transform_2 i'
  hinb8_1 : ∀ (i : grid8.Coords) a, (cc8_transform_2 i a + 1) * S8x64.size a ≤ S100000x64.size a
  hwx8_1 : ∀ i : grid8.Coords, EltTy.bits .f32 = 32 ∨ (Rect.block (s := S100000x64) S8x64.size (cc8_transform_2 i) (hinb8_1 i)).WholeWords (EltTy.packing .f32)

class K9.Facts₀ : Prop where
  hrank9 : 0 < grid9.rank
  k9_off1_inb : ∀ i : grid9.Coords, ∀ a, (k9_off1 i) a + S1.size a ≤ S100000.size a
  k9_off3_inb : ∀ i : grid9.Coords, ∀ a, (k9_off3 i) a + S1.size a ≤ S100000.size a
  k9_off5_inb : ∀ i : grid9.Coords, ∀ a, (k9_off5 i) a + S1.size a ≤ S100000.size a
  k9_off7_inb : ∀ i : grid9.Coords, ∀ a, (k9_off7 i) a + S1.size a ≤ S100000.size a
  k9_off9_inb : ∀ i : grid9.Coords, ∀ a, (k9_off9 i) a + S1.size a ≤ S100000.size a
  k9_off11_inb : ∀ i : grid9.Coords, ∀ a, (k9_off11 i) a + S1.size a ≤ S100000.size a
  k9_off13_inb : ∀ i : grid9.Coords, ∀ a, (k9_off13 i) a + S1.size a ≤ S100000.size a
  k9_off15_inb : ∀ i : grid9.Coords, ∀ a, (k9_off15 i) a + S1.size a ≤ S100000.size a
  hstage9_0 : ∀ j, (stage9_0 j).IsWhole
  nbuf9_0 : grid9.bufCount reads9_0 false = 2
  hreads9_0 : ∀ i i' : grid9.Coords, (∀ a, reads9_0 a = true → i a = i' a) → cc9_transform_1 i = cc9_transform_1 i'
  hinb9_0 : ∀ (i : grid9.Coords) a, (cc9_transform_1 i a + 1) * S8x1.size a ≤ S100000x1.size a
  hwx9_0 : ∀ i : grid9.Coords, EltTy.bits .f32 = 32 ∨ (Rect.block (s := S100000x1) S8x1.size (cc9_transform_1 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_2 i = cc9_transform_2 i'
  hinb9_1 : ∀ (i : grid9.Coords) a, (cc9_transform_2 i a + 1) * S8x64.size a ≤ S100000x64.size a
  hwx9_1 : ∀ i : grid9.Coords, EltTy.bits .f32 = 32 ∨ (Rect.block (s := S100000x64) S8x64.size (cc9_transform_2 i) (hinb9_1 i)).WholeWords (EltTy.packing .f32)

class K10.Facts₀ : Prop where
  hrank10 : 0 < grid10.rank
  k10_off1_inb : ∀ i : grid10.Coords, ∀ a, (k10_off1 i) a + S1.size a ≤ S100000.size a
  k10_off3_inb : ∀ i : grid10.Coords, ∀ a, (k10_off3 i) a + S1.size a ≤ S100000.size a
  k10_off5_inb : ∀ i : grid10.Coords, ∀ a, (k10_off5 i) a + S1.size a ≤ S100000.size a
  k10_off7_inb : ∀ i : grid10.Coords, ∀ a, (k10_off7 i) a + S1.size a ≤ S100000.size a
  k10_off9_inb : ∀ i : grid10.Coords, ∀ a, (k10_off9 i) a + S1.size a ≤ S100000.size a
  k10_off11_inb : ∀ i : grid10.Coords, ∀ a, (k10_off11 i) a + S1.size a ≤ S100000.size a
  k10_off13_inb : ∀ i : grid10.Coords, ∀ a, (k10_off13 i) a + S1.size a ≤ S100000.size a
  k10_off15_inb : ∀ i : grid10.Coords, ∀ a, (k10_off15 i) a + S1.size a ≤ S100000.size a
  hstage10_0 : ∀ j, (stage10_0 j).IsWhole
  nbuf10_0 : grid10.bufCount reads10_0 false = 2
  hreads10_0 : ∀ i i' : grid10.Coords, (∀ a, reads10_0 a = true → i a = i' a) → cc10_transform_1 i = cc10_transform_1 i'
  hinb10_0 : ∀ (i : grid10.Coords) a, (cc10_transform_1 i a + 1) * S8x1.size a ≤ S100000x1.size a
  hwx10_0 : ∀ i : grid10.Coords, EltTy.bits .f32 = 32 ∨ (Rect.block (s := S100000x1) S8x1.size (cc10_transform_1 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_2 i = cc10_transform_2 i'
  hinb10_1 : ∀ (i : grid10.Coords) a, (cc10_transform_2 i a + 1) * S8x64.size a ≤ S100000x64.size a
  hwx10_1 : ∀ i : grid10.Coords, EltTy.bits .f32 = 32 ∨ (Rect.block (s := S100000x64) S8x64.size (cc10_transform_2 i) (hinb10_1 i)).WholeWords (EltTy.packing .f32)

class K11.Facts₀ : Prop where
  hrank11 : 0 < grid11.rank
  k11_off1_inb : ∀ i : grid11.Coords, ∀ a, (k11_off1 i) a + S1.size a ≤ S100000.size a
  k11_off3_inb : ∀ i : grid11.Coords, ∀ a, (k11_off3 i) a + S1.size a ≤ S100000.size a
  k11_off5_inb : ∀ i : grid11.Coords, ∀ a, (k11_off5 i) a + S1.size a ≤ S100000.size a
  k11_off7_inb : ∀ i : grid11.Coords, ∀ a, (k11_off7 i) a + S1.size a ≤ S100000.size a
  k11_off9_inb : ∀ i : grid11.Coords, ∀ a, (k11_off9 i) a + S1.size a ≤ S100000.size a
  k11_off11_inb : ∀ i : grid11.Coords, ∀ a, (k11_off11 i) a + S1.size a ≤ S100000.size a
  k11_off13_inb : ∀ i : grid11.Coords, ∀ a, (k11_off13 i) a + S1.size a ≤ S100000.size a
  k11_off15_inb : ∀ i : grid11.Coords, ∀ a, (k11_off15 i) a + S1.size a ≤ S100000.size a
  hstage11_0 : ∀ j, (stage11_0 j).IsWhole
  nbuf11_0 : grid11.bufCount reads11_0 false = 2
  hreads11_0 : ∀ i i' : grid11.Coords, (∀ a, reads11_0 a = true → i a = i' a) → cc11_transform_1 i = cc11_transform_1 i'
  hinb11_0 : ∀ (i : grid11.Coords) a, (cc11_transform_1 i a + 1) * S8x1.size a ≤ S100000x1.size a
  hwx11_0 : ∀ i : grid11.Coords, EltTy.bits .f32 = 32 ∨ (Rect.block (s := S100000x1) S8x1.size (cc11_transform_1 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_2 i = cc11_transform_2 i'
  hinb11_1 : ∀ (i : grid11.Coords) a, (cc11_transform_2 i a + 1) * S8x64.size a ≤ S100000x64.size a
  hwx11_1 : ∀ i : grid11.Coords, EltTy.bits .f32 = 32 ∨ (Rect.block (s := S100000x64) S8x64.size (cc11_transform_2 i) (hinb11_1 i)).WholeWords (EltTy.packing .f32)

class K12.Facts₀ : Prop where
  hrank12 : 0 < grid12.rank
  k12_off1_inb : ∀ i : grid12.Coords, ∀ a, (k12_off1 i) a + S1.size a ≤ S100000.size a
  k12_off3_inb : ∀ i : grid12.Coords, ∀ a, (k12_off3 i) a + S1.size a ≤ S100000.size a
  k12_off5_inb : ∀ i : grid12.Coords, ∀ a, (k12_off5 i) a + S1.size a ≤ S100000.size a
  k12_off7_inb : ∀ i : grid12.Coords, ∀ a, (k12_off7 i) a + S1.size a ≤ S100000.size a
  k12_off9_inb : ∀ i : grid12.Coords, ∀ a, (k12_off9 i) a + S1.size a ≤ S100000.size a
  k12_off11_inb : ∀ i : grid12.Coords, ∀ a, (k12_off11 i) a + S1.size a ≤ S100000.size a
  k12_off13_inb : ∀ i : grid12.Coords, ∀ a, (k12_off13 i) a + S1.size a ≤ S100000.size a
  k12_off15_inb : ∀ i : grid12.Coords, ∀ a, (k12_off15 i) a + S1.size a ≤ S100000.size a
  hstage12_0 : ∀ j, (stage12_0 j).IsWhole
  nbuf12_0 : grid12.bufCount reads12_0 false = 2
  hreads12_0 : ∀ i i' : grid12.Coords, (∀ a, reads12_0 a = true → i a = i' a) → cc12_transform_1 i = cc12_transform_1 i'
  hinb12_0 : ∀ (i : grid12.Coords) a, (cc12_transform_1 i a + 1) * S8x1.size a ≤ S100000x1.size a
  hwx12_0 : ∀ i : grid12.Coords, EltTy.bits .f32 = 32 ∨ (Rect.block (s := S100000x1) S8x1.size (cc12_transform_1 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_2 i = cc12_transform_2 i'
  hinb12_1 : ∀ (i : grid12.Coords) a, (cc12_transform_2 i a + 1) * S8x64.size a ≤ S100000x64.size a
  hwx12_1 : ∀ i : grid12.Coords, EltTy.bits .f32 = 32 ∨ (Rect.block (s := S100000x64) S8x64.size (cc12_transform_2 i) (hinb12_1 i)).WholeWords (EltTy.packing .f32)

class K13.Facts₀ : Prop where
  hrank13 : 0 < grid13.rank
  k13_off1_inb : ∀ i : grid13.Coords, ∀ a, (k13_off1 i) a + S1.size a ≤ S100000.size a
  k13_off3_inb : ∀ i : grid13.Coords, ∀ a, (k13_off3 i) a + S1.size a ≤ S100000.size a
  k13_off5_inb : ∀ i : grid13.Coords, ∀ a, (k13_off5 i) a + S1.size a ≤ S100000.size a
  k13_off7_inb : ∀ i : grid13.Coords, ∀ a, (k13_off7 i) a + S1.size a ≤ S100000.size a
  k13_off9_inb : ∀ i : grid13.Coords, ∀ a, (k13_off9 i) a + S1.size a ≤ S100000.size a
  k13_off11_inb : ∀ i : grid13.Coords, ∀ a, (k13_off11 i) a + S1.size a ≤ S100000.size a
  k13_off13_inb : ∀ i : grid13.Coords, ∀ a, (k13_off13 i) a + S1.size a ≤ S100000.size a
  k13_off15_inb : ∀ i : grid13.Coords, ∀ a, (k13_off15 i) a + S1.size a ≤ S100000.size a
  hstage13_0 : ∀ j, (stage13_0 j).IsWhole
  nbuf13_0 : grid13.bufCount reads13_0 false = 2
  hreads13_0 : ∀ i i' : grid13.Coords, (∀ a, reads13_0 a = true → i a = i' a) → cc13_transform_1 i = cc13_transform_1 i'
  hinb13_0 : ∀ (i : grid13.Coords) a, (cc13_transform_1 i a + 1) * S8x1.size a ≤ S100000x1.size a
  hwx13_0 : ∀ i : grid13.Coords, EltTy.bits .f32 = 32 ∨ (Rect.block (s := S100000x1) S8x1.size (cc13_transform_1 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_2 i = cc13_transform_2 i'
  hinb13_1 : ∀ (i : grid13.Coords) a, (cc13_transform_2 i a + 1) * S8x64.size a ≤ S100000x64.size a
  hwx13_1 : ∀ i : grid13.Coords, EltTy.bits .f32 = 32 ∨ (Rect.block (s := S100000x64) S8x64.size (cc13_transform_2 i) (hinb13_1 i)).WholeWords (EltTy.packing .f32)

class K14.Facts₀ : Prop where
  hrank14 : 0 < grid14.rank
  k14_off1_inb : ∀ i : grid14.Coords, ∀ a, (k14_off1 i) a + S1.size a ≤ S100000.size a
  k14_off3_inb : ∀ i : grid14.Coords, ∀ a, (k14_off3 i) a + S1.size a ≤ S100000.size a
  k14_off5_inb : ∀ i : grid14.Coords, ∀ a, (k14_off5 i) a + S1.size a ≤ S100000.size a
  k14_off7_inb : ∀ i : grid14.Coords, ∀ a, (k14_off7 i) a + S1.size a ≤ S100000.size a
  k14_off9_inb : ∀ i : grid14.Coords, ∀ a, (k14_off9 i) a + S1.size a ≤ S100000.size a
  k14_off11_inb : ∀ i : grid14.Coords, ∀ a, (k14_off11 i) a + S1.size a ≤ S100000.size a
  k14_off13_inb : ∀ i : grid14.Coords, ∀ a, (k14_off13 i) a + S1.size a ≤ S100000.size a
  k14_off15_inb : ∀ i : grid14.Coords, ∀ a, (k14_off15 i) a + S1.size a ≤ S100000.size a
  hstage14_0 : ∀ j, (stage14_0 j).IsWhole
  nbuf14_0 : grid14.bufCount reads14_0 false = 2
  hreads14_0 : ∀ i i' : grid14.Coords, (∀ a, reads14_0 a = true → i a = i' a) → cc14_transform_1 i = cc14_transform_1 i'
  hinb14_0 : ∀ (i : grid14.Coords) a, (cc14_transform_1 i a + 1) * S8x1.size a ≤ S100000x1.size a
  hwx14_0 : ∀ i : grid14.Coords, EltTy.bits .f32 = 32 ∨ (Rect.block (s := S100000x1) S8x1.size (cc14_transform_1 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_2 i = cc14_transform_2 i'
  hinb14_1 : ∀ (i : grid14.Coords) a, (cc14_transform_2 i a + 1) * S8x64.size a ≤ S100000x64.size a
  hwx14_1 : ∀ i : grid14.Coords, EltTy.bits .f32 = 32 ∨ (Rect.block (s := S100000x64) S8x64.size (cc14_transform_2 i) (hinb14_1 i)).WholeWords (EltTy.packing .f32)

class K15.Facts₀ : Prop where
  hrank15 : 0 < grid15.rank
  k15_off1_inb : ∀ i : grid15.Coords, ∀ a, (k15_off1 i) a + S1.size a ≤ S100000.size a
  k15_off3_inb : ∀ i : grid15.Coords, ∀ a, (k15_off3 i) a + S1.size a ≤ S100000.size a
  k15_off5_inb : ∀ i : grid15.Coords, ∀ a, (k15_off5 i) a + S1.size a ≤ S100000.size a
  k15_off7_inb : ∀ i : grid15.Coords, ∀ a, (k15_off7 i) a + S1.size a ≤ S100000.size a
  k15_off9_inb : ∀ i : grid15.Coords, ∀ a, (k15_off9 i) a + S1.size a ≤ S100000.size a
  k15_off11_inb : ∀ i : grid15.Coords, ∀ a, (k15_off11 i) a + S1.size a ≤ S100000.size a
  k15_off13_inb : ∀ i : grid15.Coords, ∀ a, (k15_off13 i) a + S1.size a ≤ S100000.size a
  k15_off15_inb : ∀ i : grid15.Coords, ∀ a, (k15_off15 i) a + S1.size a ≤ S100000.size a
  hstage15_0 : ∀ j, (stage15_0 j).IsWhole
  nbuf15_0 : grid15.bufCount reads15_0 false = 2
  hreads15_0 : ∀ i i' : grid15.Coords, (∀ a, reads15_0 a = true → i a = i' a) → cc15_transform_1 i = cc15_transform_1 i'
  hinb15_0 : ∀ (i : grid15.Coords) a, (cc15_transform_1 i a + 1) * S8x1.size a ≤ S100000x1.size a
  hwx15_0 : ∀ i : grid15.Coords, EltTy.bits .f32 = 32 ∨ (Rect.block (s := S100000x1) S8x1.size (cc15_transform_1 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_2 i = cc15_transform_2 i'
  hinb15_1 : ∀ (i : grid15.Coords) a, (cc15_transform_2 i a + 1) * S8x64.size a ≤ S100000x64.size a
  hwx15_1 : ∀ i : grid15.Coords, EltTy.bits .f32 = 32 ∨ (Rect.block (s := S100000x64) S8x64.size (cc15_transform_2 i) (hinb15_1 i)).WholeWords (EltTy.packing .f32)

class K16.Facts₀ : Prop where
  hrank16 : 0 < grid16.rank
  k16_off1_inb : ∀ i : grid16.Coords, ∀ a, (k16_off1 i) a + S1.size a ≤ S100000.size a
  k16_off3_inb : ∀ i : grid16.Coords, ∀ a, (k16_off3 i) a + S1.size a ≤ S100000.size a
  k16_off5_inb : ∀ i : grid16.Coords, ∀ a, (k16_off5 i) a + S1.size a ≤ S100000.size a
  k16_off7_inb : ∀ i : grid16.Coords, ∀ a, (k16_off7 i) a + S1.size a ≤ S100000.size a
  k16_off9_inb : ∀ i : grid16.Coords, ∀ a, (k16_off9 i) a + S1.size a ≤ S100000.size a
  k16_off11_inb : ∀ i : grid16.Coords, ∀ a, (k16_off11 i) a + S1.size a ≤ S100000.size a
  k16_off13_inb : ∀ i : grid16.Coords, ∀ a, (k16_off13 i) a + S1.size a ≤ S100000.size a
  k16_off15_inb : ∀ i : grid16.Coords, ∀ a, (k16_off15 i) a + S1.size a ≤ S100000.size a
  hstage16_0 : ∀ j, (stage16_0 j).IsWhole
  nbuf16_0 : grid16.bufCount reads16_0 false = 2
  hreads16_0 : ∀ i i' : grid16.Coords, (∀ a, reads16_0 a = true → i a = i' a) → cc16_transform_1 i = cc16_transform_1 i'
  hinb16_0 : ∀ (i : grid16.Coords) a, (cc16_transform_1 i a + 1) * S8x1.size a ≤ S100000x1.size a
  hwx16_0 : ∀ i : grid16.Coords, EltTy.bits .f32 = 32 ∨ (Rect.block (s := S100000x1) S8x1.size (cc16_transform_1 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_2 i = cc16_transform_2 i'
  hinb16_1 : ∀ (i : grid16.Coords) a, (cc16_transform_2 i a + 1) * S8x64.size a ≤ S100000x64.size a
  hwx16_1 : ∀ i : grid16.Coords, EltTy.bits .f32 = 32 ∨ (Rect.block (s := S100000x64) S8x64.size (cc16_transform_2 i) (hinb16_1 i)).WholeWords (EltTy.packing .f32)

class K17.Facts₀ : Prop where
  hrank17 : 0 < grid17.rank
  k17_off1_inb : ∀ i : grid17.Coords, ∀ a, (k17_off1 i) a + S1.size a ≤ S100000.size a
  k17_off3_inb : ∀ i : grid17.Coords, ∀ a, (k17_off3 i) a + S1.size a ≤ S100000.size a
  k17_off5_inb : ∀ i : grid17.Coords, ∀ a, (k17_off5 i) a + S1.size a ≤ S100000.size a
  k17_off7_inb : ∀ i : grid17.Coords, ∀ a, (k17_off7 i) a + S1.size a ≤ S100000.size a
  k17_off9_inb : ∀ i : grid17.Coords, ∀ a, (k17_off9 i) a + S1.size a ≤ S100000.size a
  k17_off11_inb : ∀ i : grid17.Coords, ∀ a, (k17_off11 i) a + S1.size a ≤ S100000.size a
  k17_off13_inb : ∀ i : grid17.Coords, ∀ a, (k17_off13 i) a + S1.size a ≤ S100000.size a
  k17_off15_inb : ∀ i : grid17.Coords, ∀ a, (k17_off15 i) a + S1.size a ≤ S100000.size a
  hstage17_0 : ∀ j, (stage17_0 j).IsWhole
  nbuf17_0 : grid17.bufCount reads17_0 false = 2
  hreads17_0 : ∀ i i' : grid17.Coords, (∀ a, reads17_0 a = true → i a = i' a) → cc17_transform_1 i = cc17_transform_1 i'
  hinb17_0 : ∀ (i : grid17.Coords) a, (cc17_transform_1 i a + 1) * S8x1.size a ≤ S100000x1.size a
  hwx17_0 : ∀ i : grid17.Coords, EltTy.bits .f32 = 32 ∨ (Rect.block (s := S100000x1) S8x1.size (cc17_transform_1 i) (hinb17_0 i)).WholeWords (EltTy.packing .f32)
  hstage17_1 : ∀ j, (stage17_1 j).IsWhole
  nbuf17_1 : grid17.bufCount reads17_1 false = 2
  hreads17_1 : ∀ i i' : grid17.Coords, (∀ a, reads17_1 a = true → i a = i' a) → cc17_transform_2 i = cc17_transform_2 i'
  hinb17_1 : ∀ (i : grid17.Coords) a, (cc17_transform_2 i a + 1) * S8x64.size a ≤ S100000x64.size a
  hwx17_1 : ∀ i : grid17.Coords, EltTy.bits .f32 = 32 ∨ (Rect.block (s := S100000x64) S8x64.size (cc17_transform_2 i) (hinb17_1 i)).WholeWords (EltTy.packing .f32)

class K18.Facts₀ : Prop where
  hrank18 : 0 < grid18.rank
  k18_off1_inb : ∀ i : grid18.Coords, ∀ a, (k18_off1 i) a + S1.size a ≤ S100000.size a
  k18_off3_inb : ∀ i : grid18.Coords, ∀ a, (k18_off3 i) a + S1.size a ≤ S100000.size a
  k18_off5_inb : ∀ i : grid18.Coords, ∀ a, (k18_off5 i) a + S1.size a ≤ S100000.size a
  k18_off7_inb : ∀ i : grid18.Coords, ∀ a, (k18_off7 i) a + S1.size a ≤ S100000.size a
  k18_off9_inb : ∀ i : grid18.Coords, ∀ a, (k18_off9 i) a + S1.size a ≤ S100000.size a
  k18_off11_inb : ∀ i : grid18.Coords, ∀ a, (k18_off11 i) a + S1.size a ≤ S100000.size a
  k18_off13_inb : ∀ i : grid18.Coords, ∀ a, (k18_off13 i) a + S1.size a ≤ S100000.size a
  k18_off15_inb : ∀ i : grid18.Coords, ∀ a, (k18_off15 i) a + S1.size a ≤ S100000.size a
  hstage18_0 : ∀ j, (stage18_0 j).IsWhole
  nbuf18_0 : grid18.bufCount reads18_0 false = 2
  hreads18_0 : ∀ i i' : grid18.Coords, (∀ a, reads18_0 a = true → i a = i' a) → cc18_transform_1 i = cc18_transform_1 i'
  hinb18_0 : ∀ (i : grid18.Coords) a, (cc18_transform_1 i a + 1) * S8x1.size a ≤ S100000x1.size a
  hwx18_0 : ∀ i : grid18.Coords, EltTy.bits .f32 = 32 ∨ (Rect.block (s := S100000x1) S8x1.size (cc18_transform_1 i) (hinb18_0 i)).WholeWords (EltTy.packing .f32)
  hstage18_1 : ∀ j, (stage18_1 j).IsWhole
  nbuf18_1 : grid18.bufCount reads18_1 false = 2
  hreads18_1 : ∀ i i' : grid18.Coords, (∀ a, reads18_1 a = true → i a = i' a) → cc18_transform_2 i = cc18_transform_2 i'
  hinb18_1 : ∀ (i : grid18.Coords) a, (cc18_transform_2 i a + 1) * S8x64.size a ≤ S100000x64.size a
  hwx18_1 : ∀ i : grid18.Coords, EltTy.bits .f32 = 32 ∨ (Rect.block (s := S100000x64) S8x64.size (cc18_transform_2 i) (hinb18_1 i)).WholeWords (EltTy.packing .f32)

class K19.Facts₀ : Prop where
  hrank19 : 0 < grid19.rank
  k19_off1_inb : ∀ i : grid19.Coords, ∀ a, (k19_off1 i) a + S1.size a ≤ S100000.size a
  k19_off3_inb : ∀ i : grid19.Coords, ∀ a, (k19_off3 i) a + S1.size a ≤ S100000.size a
  k19_off5_inb : ∀ i : grid19.Coords, ∀ a, (k19_off5 i) a + S1.size a ≤ S100000.size a
  k19_off7_inb : ∀ i : grid19.Coords, ∀ a, (k19_off7 i) a + S1.size a ≤ S100000.size a
  k19_off9_inb : ∀ i : grid19.Coords, ∀ a, (k19_off9 i) a + S1.size a ≤ S100000.size a
  k19_off11_inb : ∀ i : grid19.Coords, ∀ a, (k19_off11 i) a + S1.size a ≤ S100000.size a
  k19_off13_inb : ∀ i : grid19.Coords, ∀ a, (k19_off13 i) a + S1.size a ≤ S100000.size a
  k19_off15_inb : ∀ i : grid19.Coords, ∀ a, (k19_off15 i) a + S1.size a ≤ S100000.size a
  hstage19_0 : ∀ j, (stage19_0 j).IsWhole
  nbuf19_0 : grid19.bufCount reads19_0 false = 2
  hreads19_0 : ∀ i i' : grid19.Coords, (∀ a, reads19_0 a = true → i a = i' a) → cc19_transform_1 i = cc19_transform_1 i'
  hinb19_0 : ∀ (i : grid19.Coords) a, (cc19_transform_1 i a + 1) * S8x1.size a ≤ S100000x1.size a
  hwx19_0 : ∀ i : grid19.Coords, EltTy.bits .f32 = 32 ∨ (Rect.block (s := S100000x1) S8x1.size (cc19_transform_1 i) (hinb19_0 i)).WholeWords (EltTy.packing .f32)
  hstage19_1 : ∀ j, (stage19_1 j).IsWhole
  nbuf19_1 : grid19.bufCount reads19_1 false = 2
  hreads19_1 : ∀ i i' : grid19.Coords, (∀ a, reads19_1 a = true → i a = i' a) → cc19_transform_2 i = cc19_transform_2 i'
  hinb19_1 : ∀ (i : grid19.Coords) a, (cc19_transform_2 i a + 1) * S8x64.size a ≤ S100000x64.size a
  hwx19_1 : ∀ i : grid19.Coords, EltTy.bits .f32 = 32 ∨ (Rect.block (s := S100000x64) S8x64.size (cc19_transform_2 i) (hinb19_1 i)).WholeWords (EltTy.packing .f32)

class K20.Facts₀ : Prop where
  hrank20 : 0 < grid20.rank
  k20_off1_inb : ∀ i : grid20.Coords, ∀ a, (k20_off1 i) a + S1.size a ≤ S100000.size a
  k20_off3_inb : ∀ i : grid20.Coords, ∀ a, (k20_off3 i) a + S1.size a ≤ S100000.size a
  k20_off5_inb : ∀ i : grid20.Coords, ∀ a, (k20_off5 i) a + S1.size a ≤ S100000.size a
  k20_off7_inb : ∀ i : grid20.Coords, ∀ a, (k20_off7 i) a + S1.size a ≤ S100000.size a
  k20_off9_inb : ∀ i : grid20.Coords, ∀ a, (k20_off9 i) a + S1.size a ≤ S100000.size a
  k20_off11_inb : ∀ i : grid20.Coords, ∀ a, (k20_off11 i) a + S1.size a ≤ S100000.size a
  k20_off13_inb : ∀ i : grid20.Coords, ∀ a, (k20_off13 i) a + S1.size a ≤ S100000.size a
  k20_off15_inb : ∀ i : grid20.Coords, ∀ a, (k20_off15 i) a + S1.size a ≤ S100000.size a
  hstage20_0 : ∀ j, (stage20_0 j).IsWhole
  nbuf20_0 : grid20.bufCount reads20_0 false = 2
  hreads20_0 : ∀ i i' : grid20.Coords, (∀ a, reads20_0 a = true → i a = i' a) → cc20_transform_1 i = cc20_transform_1 i'
  hinb20_0 : ∀ (i : grid20.Coords) a, (cc20_transform_1 i a + 1) * S8x1.size a ≤ S100000x1.size a
  hwx20_0 : ∀ i : grid20.Coords, EltTy.bits .f32 = 32 ∨ (Rect.block (s := S100000x1) S8x1.size (cc20_transform_1 i) (hinb20_0 i)).WholeWords (EltTy.packing .f32)
  hstage20_1 : ∀ j, (stage20_1 j).IsWhole
  nbuf20_1 : grid20.bufCount reads20_1 false = 2
  hreads20_1 : ∀ i i' : grid20.Coords, (∀ a, reads20_1 a = true → i a = i' a) → cc20_transform_2 i = cc20_transform_2 i'
  hinb20_1 : ∀ (i : grid20.Coords) a, (cc20_transform_2 i a + 1) * S8x64.size a ≤ S100000x64.size a
  hwx20_1 : ∀ i : grid20.Coords, EltTy.bits .f32 = 32 ∨ (Rect.block (s := S100000x64) S8x64.size (cc20_transform_2 i) (hinb20_1 i)).WholeWords (EltTy.packing .f32)

class K21.Facts₀ : Prop where
  hrank21 : 0 < grid21.rank
  k21_off1_inb : ∀ i : grid21.Coords, ∀ a, (k21_off1 i) a + S1.size a ≤ S100000.size a
  k21_off3_inb : ∀ i : grid21.Coords, ∀ a, (k21_off3 i) a + S1.size a ≤ S100000.size a
  k21_off5_inb : ∀ i : grid21.Coords, ∀ a, (k21_off5 i) a + S1.size a ≤ S100000.size a
  k21_off7_inb : ∀ i : grid21.Coords, ∀ a, (k21_off7 i) a + S1.size a ≤ S100000.size a
  k21_off9_inb : ∀ i : grid21.Coords, ∀ a, (k21_off9 i) a + S1.size a ≤ S100000.size a
  k21_off11_inb : ∀ i : grid21.Coords, ∀ a, (k21_off11 i) a + S1.size a ≤ S100000.size a
  k21_off13_inb : ∀ i : grid21.Coords, ∀ a, (k21_off13 i) a + S1.size a ≤ S100000.size a
  k21_off15_inb : ∀ i : grid21.Coords, ∀ a, (k21_off15 i) a + S1.size a ≤ S100000.size a
  hstage21_0 : ∀ j, (stage21_0 j).IsWhole
  nbuf21_0 : grid21.bufCount reads21_0 false = 2
  hreads21_0 : ∀ i i' : grid21.Coords, (∀ a, reads21_0 a = true → i a = i' a) → cc21_transform_1 i = cc21_transform_1 i'
  hinb21_0 : ∀ (i : grid21.Coords) a, (cc21_transform_1 i a + 1) * S8x1.size a ≤ S100000x1.size a
  hwx21_0 : ∀ i : grid21.Coords, EltTy.bits .f32 = 32 ∨ (Rect.block (s := S100000x1) S8x1.size (cc21_transform_1 i) (hinb21_0 i)).WholeWords (EltTy.packing .f32)
  hstage21_1 : ∀ j, (stage21_1 j).IsWhole
  nbuf21_1 : grid21.bufCount reads21_1 false = 2
  hreads21_1 : ∀ i i' : grid21.Coords, (∀ a, reads21_1 a = true → i a = i' a) → cc21_transform_2 i = cc21_transform_2 i'
  hinb21_1 : ∀ (i : grid21.Coords) a, (cc21_transform_2 i a + 1) * S8x64.size a ≤ S100000x64.size a
  hwx21_1 : ∀ i : grid21.Coords, EltTy.bits .f32 = 32 ∨ (Rect.block (s := S100000x64) S8x64.size (cc21_transform_2 i) (hinb21_1 i)).WholeWords (EltTy.packing .f32)

class K22.Facts₀ : Prop where
  hrank22 : 0 < grid22.rank
  k22_off1_inb : ∀ i : grid22.Coords, ∀ a, (k22_off1 i) a + S1.size a ≤ S100000.size a
  k22_off3_inb : ∀ i : grid22.Coords, ∀ a, (k22_off3 i) a + S1.size a ≤ S100000.size a
  k22_off5_inb : ∀ i : grid22.Coords, ∀ a, (k22_off5 i) a + S1.size a ≤ S100000.size a
  k22_off7_inb : ∀ i : grid22.Coords, ∀ a, (k22_off7 i) a + S1.size a ≤ S100000.size a
  k22_off9_inb : ∀ i : grid22.Coords, ∀ a, (k22_off9 i) a + S1.size a ≤ S100000.size a
  k22_off11_inb : ∀ i : grid22.Coords, ∀ a, (k22_off11 i) a + S1.size a ≤ S100000.size a
  k22_off13_inb : ∀ i : grid22.Coords, ∀ a, (k22_off13 i) a + S1.size a ≤ S100000.size a
  k22_off15_inb : ∀ i : grid22.Coords, ∀ a, (k22_off15 i) a + S1.size a ≤ S100000.size a
  hstage22_0 : ∀ j, (stage22_0 j).IsWhole
  nbuf22_0 : grid22.bufCount reads22_0 false = 2
  hreads22_0 : ∀ i i' : grid22.Coords, (∀ a, reads22_0 a = true → i a = i' a) → cc22_transform_1 i = cc22_transform_1 i'
  hinb22_0 : ∀ (i : grid22.Coords) a, (cc22_transform_1 i a + 1) * S8x1.size a ≤ S100000x1.size a
  hwx22_0 : ∀ i : grid22.Coords, EltTy.bits .f32 = 32 ∨ (Rect.block (s := S100000x1) S8x1.size (cc22_transform_1 i) (hinb22_0 i)).WholeWords (EltTy.packing .f32)
  hstage22_1 : ∀ j, (stage22_1 j).IsWhole
  nbuf22_1 : grid22.bufCount reads22_1 false = 2
  hreads22_1 : ∀ i i' : grid22.Coords, (∀ a, reads22_1 a = true → i a = i' a) → cc22_transform_2 i = cc22_transform_2 i'
  hinb22_1 : ∀ (i : grid22.Coords) a, (cc22_transform_2 i a + 1) * S8x64.size a ≤ S100000x64.size a
  hwx22_1 : ∀ i : grid22.Coords, EltTy.bits .f32 = 32 ∨ (Rect.block (s := S100000x64) S8x64.size (cc22_transform_2 i) (hinb22_1 i)).WholeWords (EltTy.packing .f32)

class K23.Facts₀ : Prop where
  hrank23 : 0 < grid23.rank
  k23_off1_inb : ∀ i : grid23.Coords, ∀ a, (k23_off1 i) a + S1.size a ≤ S100000.size a
  k23_off3_inb : ∀ i : grid23.Coords, ∀ a, (k23_off3 i) a + S1.size a ≤ S100000.size a
  k23_off5_inb : ∀ i : grid23.Coords, ∀ a, (k23_off5 i) a + S1.size a ≤ S100000.size a
  k23_off7_inb : ∀ i : grid23.Coords, ∀ a, (k23_off7 i) a + S1.size a ≤ S100000.size a
  k23_off9_inb : ∀ i : grid23.Coords, ∀ a, (k23_off9 i) a + S1.size a ≤ S100000.size a
  k23_off11_inb : ∀ i : grid23.Coords, ∀ a, (k23_off11 i) a + S1.size a ≤ S100000.size a
  k23_off13_inb : ∀ i : grid23.Coords, ∀ a, (k23_off13 i) a + S1.size a ≤ S100000.size a
  k23_off15_inb : ∀ i : grid23.Coords, ∀ a, (k23_off15 i) a + S1.size a ≤ S100000.size a
  hstage23_0 : ∀ j, (stage23_0 j).IsWhole
  nbuf23_0 : grid23.bufCount reads23_0 false = 2
  hreads23_0 : ∀ i i' : grid23.Coords, (∀ a, reads23_0 a = true → i a = i' a) → cc23_transform_1 i = cc23_transform_1 i'
  hinb23_0 : ∀ (i : grid23.Coords) a, (cc23_transform_1 i a + 1) * S8x1.size a ≤ S100000x1.size a
  hwx23_0 : ∀ i : grid23.Coords, EltTy.bits .f32 = 32 ∨ (Rect.block (s := S100000x1) S8x1.size (cc23_transform_1 i) (hinb23_0 i)).WholeWords (EltTy.packing .f32)
  hstage23_1 : ∀ j, (stage23_1 j).IsWhole
  nbuf23_1 : grid23.bufCount reads23_1 false = 2
  hreads23_1 : ∀ i i' : grid23.Coords, (∀ a, reads23_1 a = true → i a = i' a) → cc23_transform_2 i = cc23_transform_2 i'
  hinb23_1 : ∀ (i : grid23.Coords) a, (cc23_transform_2 i a + 1) * S8x64.size a ≤ S100000x64.size a
  hwx23_1 : ∀ i : grid23.Coords, EltTy.bits .f32 = 32 ∨ (Rect.block (s := S100000x64) S8x64.size (cc23_transform_2 i) (hinb23_1 i)).WholeWords (EltTy.packing .f32)

class K24.Facts₀ : Prop where
  hrank24 : 0 < grid24.rank
  k24_off1_inb : ∀ i : grid24.Coords, ∀ a, (k24_off1 i) a + S1.size a ≤ S100000.size a
  k24_off3_inb : ∀ i : grid24.Coords, ∀ a, (k24_off3 i) a + S1.size a ≤ S100000.size a
  k24_off5_inb : ∀ i : grid24.Coords, ∀ a, (k24_off5 i) a + S1.size a ≤ S100000.size a
  k24_off7_inb : ∀ i : grid24.Coords, ∀ a, (k24_off7 i) a + S1.size a ≤ S100000.size a
  k24_off9_inb : ∀ i : grid24.Coords, ∀ a, (k24_off9 i) a + S1.size a ≤ S100000.size a
  k24_off11_inb : ∀ i : grid24.Coords, ∀ a, (k24_off11 i) a + S1.size a ≤ S100000.size a
  k24_off13_inb : ∀ i : grid24.Coords, ∀ a, (k24_off13 i) a + S1.size a ≤ S100000.size a
  k24_off15_inb : ∀ i : grid24.Coords, ∀ a, (k24_off15 i) a + S1.size a ≤ S100000.size a
  hstage24_0 : ∀ j, (stage24_0 j).IsWhole
  nbuf24_0 : grid24.bufCount reads24_0 false = 2
  hreads24_0 : ∀ i i' : grid24.Coords, (∀ a, reads24_0 a = true → i a = i' a) → cc24_transform_1 i = cc24_transform_1 i'
  hinb24_0 : ∀ (i : grid24.Coords) a, (cc24_transform_1 i a + 1) * S8x1.size a ≤ S100000x1.size a
  hwx24_0 : ∀ i : grid24.Coords, EltTy.bits .f32 = 32 ∨ (Rect.block (s := S100000x1) S8x1.size (cc24_transform_1 i) (hinb24_0 i)).WholeWords (EltTy.packing .f32)
  hstage24_1 : ∀ j, (stage24_1 j).IsWhole
  nbuf24_1 : grid24.bufCount reads24_1 false = 2
  hreads24_1 : ∀ i i' : grid24.Coords, (∀ a, reads24_1 a = true → i a = i' a) → cc24_transform_2 i = cc24_transform_2 i'
  hinb24_1 : ∀ (i : grid24.Coords) a, (cc24_transform_2 i a + 1) * S8x64.size a ≤ S100000x64.size a
  hwx24_1 : ∀ i : grid24.Coords, EltTy.bits .f32 = 32 ∨ (Rect.block (s := S100000x64) S8x64.size (cc24_transform_2 i) (hinb24_1 i)).WholeWords (EltTy.packing .f32)

class K25.Facts₀ : Prop where
  hrank25 : 0 < grid25.rank
  k25_off1_inb : ∀ i : grid25.Coords, ∀ a, (k25_off1 i) a + S1.size a ≤ S100000.size a
  k25_off3_inb : ∀ i : grid25.Coords, ∀ a, (k25_off3 i) a + S1.size a ≤ S100000.size a
  k25_off5_inb : ∀ i : grid25.Coords, ∀ a, (k25_off5 i) a + S1.size a ≤ S100000.size a
  k25_off7_inb : ∀ i : grid25.Coords, ∀ a, (k25_off7 i) a + S1.size a ≤ S100000.size a
  k25_off9_inb : ∀ i : grid25.Coords, ∀ a, (k25_off9 i) a + S1.size a ≤ S100000.size a
  k25_off11_inb : ∀ i : grid25.Coords, ∀ a, (k25_off11 i) a + S1.size a ≤ S100000.size a
  k25_off13_inb : ∀ i : grid25.Coords, ∀ a, (k25_off13 i) a + S1.size a ≤ S100000.size a
  k25_off15_inb : ∀ i : grid25.Coords, ∀ a, (k25_off15 i) a + S1.size a ≤ S100000.size a
  hstage25_0 : ∀ j, (stage25_0 j).IsWhole
  nbuf25_0 : grid25.bufCount reads25_0 false = 2
  hreads25_0 : ∀ i i' : grid25.Coords, (∀ a, reads25_0 a = true → i a = i' a) → cc25_transform_1 i = cc25_transform_1 i'
  hinb25_0 : ∀ (i : grid25.Coords) a, (cc25_transform_1 i a + 1) * S8x1.size a ≤ S100000x1.size a
  hwx25_0 : ∀ i : grid25.Coords, EltTy.bits .f32 = 32 ∨ (Rect.block (s := S100000x1) S8x1.size (cc25_transform_1 i) (hinb25_0 i)).WholeWords (EltTy.packing .f32)
  hstage25_1 : ∀ j, (stage25_1 j).IsWhole
  nbuf25_1 : grid25.bufCount reads25_1 false = 2
  hreads25_1 : ∀ i i' : grid25.Coords, (∀ a, reads25_1 a = true → i a = i' a) → cc25_transform_2 i = cc25_transform_2 i'
  hinb25_1 : ∀ (i : grid25.Coords) a, (cc25_transform_2 i a + 1) * S8x64.size a ≤ S100000x64.size a
  hwx25_1 : ∀ i : grid25.Coords, EltTy.bits .f32 = 32 ∨ (Rect.block (s := S100000x64) S8x64.size (cc25_transform_2 i) (hinb25_1 i)).WholeWords (EltTy.packing .f32)

class K26.Facts₀ : Prop where
  hrank26 : 0 < grid26.rank
  k26_off1_inb : ∀ i : grid26.Coords, ∀ a, (k26_off1 i) a + S1.size a ≤ S100000.size a
  k26_off3_inb : ∀ i : grid26.Coords, ∀ a, (k26_off3 i) a + S1.size a ≤ S100000.size a
  k26_off5_inb : ∀ i : grid26.Coords, ∀ a, (k26_off5 i) a + S1.size a ≤ S100000.size a
  k26_off7_inb : ∀ i : grid26.Coords, ∀ a, (k26_off7 i) a + S1.size a ≤ S100000.size a
  k26_off9_inb : ∀ i : grid26.Coords, ∀ a, (k26_off9 i) a + S1.size a ≤ S100000.size a
  k26_off11_inb : ∀ i : grid26.Coords, ∀ a, (k26_off11 i) a + S1.size a ≤ S100000.size a
  k26_off13_inb : ∀ i : grid26.Coords, ∀ a, (k26_off13 i) a + S1.size a ≤ S100000.size a
  k26_off15_inb : ∀ i : grid26.Coords, ∀ a, (k26_off15 i) a + S1.size a ≤ S100000.size a
  hstage26_0 : ∀ j, (stage26_0 j).IsWhole
  nbuf26_0 : grid26.bufCount reads26_0 false = 2
  hreads26_0 : ∀ i i' : grid26.Coords, (∀ a, reads26_0 a = true → i a = i' a) → cc26_transform_1 i = cc26_transform_1 i'
  hinb26_0 : ∀ (i : grid26.Coords) a, (cc26_transform_1 i a + 1) * S8x1.size a ≤ S100000x1.size a
  hwx26_0 : ∀ i : grid26.Coords, EltTy.bits .f32 = 32 ∨ (Rect.block (s := S100000x1) S8x1.size (cc26_transform_1 i) (hinb26_0 i)).WholeWords (EltTy.packing .f32)
  hstage26_1 : ∀ j, (stage26_1 j).IsWhole
  nbuf26_1 : grid26.bufCount reads26_1 false = 2
  hreads26_1 : ∀ i i' : grid26.Coords, (∀ a, reads26_1 a = true → i a = i' a) → cc26_transform_2 i = cc26_transform_2 i'
  hinb26_1 : ∀ (i : grid26.Coords) a, (cc26_transform_2 i a + 1) * S8x64.size a ≤ S100000x64.size a
  hwx26_1 : ∀ i : grid26.Coords, EltTy.bits .f32 = 32 ∨ (Rect.block (s := S100000x64) S8x64.size (cc26_transform_2 i) (hinb26_1 i)).WholeWords (EltTy.packing .f32)

class K27.Facts₀ : Prop where
  hrank27 : 0 < grid27.rank
  k27_off1_inb : ∀ i : grid27.Coords, ∀ a, (k27_off1 i) a + S1.size a ≤ S100000.size a
  k27_off3_inb : ∀ i : grid27.Coords, ∀ a, (k27_off3 i) a + S1.size a ≤ S100000.size a
  k27_off5_inb : ∀ i : grid27.Coords, ∀ a, (k27_off5 i) a + S1.size a ≤ S100000.size a
  k27_off7_inb : ∀ i : grid27.Coords, ∀ a, (k27_off7 i) a + S1.size a ≤ S100000.size a
  k27_off9_inb : ∀ i : grid27.Coords, ∀ a, (k27_off9 i) a + S1.size a ≤ S100000.size a
  k27_off11_inb : ∀ i : grid27.Coords, ∀ a, (k27_off11 i) a + S1.size a ≤ S100000.size a
  k27_off13_inb : ∀ i : grid27.Coords, ∀ a, (k27_off13 i) a + S1.size a ≤ S100000.size a
  k27_off15_inb : ∀ i : grid27.Coords, ∀ a, (k27_off15 i) a + S1.size a ≤ S100000.size a
  hstage27_0 : ∀ j, (stage27_0 j).IsWhole
  nbuf27_0 : grid27.bufCount reads27_0 false = 2
  hreads27_0 : ∀ i i' : grid27.Coords, (∀ a, reads27_0 a = true → i a = i' a) → cc27_transform_1 i = cc27_transform_1 i'
  hinb27_0 : ∀ (i : grid27.Coords) a, (cc27_transform_1 i a + 1) * S8x1.size a ≤ S100000x1.size a
  hwx27_0 : ∀ i : grid27.Coords, EltTy.bits .f32 = 32 ∨ (Rect.block (s := S100000x1) S8x1.size (cc27_transform_1 i) (hinb27_0 i)).WholeWords (EltTy.packing .f32)
  hstage27_1 : ∀ j, (stage27_1 j).IsWhole
  nbuf27_1 : grid27.bufCount reads27_1 false = 2
  hreads27_1 : ∀ i i' : grid27.Coords, (∀ a, reads27_1 a = true → i a = i' a) → cc27_transform_2 i = cc27_transform_2 i'
  hinb27_1 : ∀ (i : grid27.Coords) a, (cc27_transform_2 i a + 1) * S8x64.size a ≤ S100000x64.size a
  hwx27_1 : ∀ i : grid27.Coords, EltTy.bits .f32 = 32 ∨ (Rect.block (s := S100000x64) S8x64.size (cc27_transform_2 i) (hinb27_1 i)).WholeWords (EltTy.packing .f32)

class K28.Facts₀ : Prop where
  hrank28 : 0 < grid28.rank
  k28_off1_inb : ∀ i : grid28.Coords, ∀ a, (k28_off1 i) a + S1.size a ≤ S100000.size a
  k28_off3_inb : ∀ i : grid28.Coords, ∀ a, (k28_off3 i) a + S1.size a ≤ S100000.size a
  k28_off5_inb : ∀ i : grid28.Coords, ∀ a, (k28_off5 i) a + S1.size a ≤ S100000.size a
  k28_off7_inb : ∀ i : grid28.Coords, ∀ a, (k28_off7 i) a + S1.size a ≤ S100000.size a
  k28_off9_inb : ∀ i : grid28.Coords, ∀ a, (k28_off9 i) a + S1.size a ≤ S100000.size a
  k28_off11_inb : ∀ i : grid28.Coords, ∀ a, (k28_off11 i) a + S1.size a ≤ S100000.size a
  k28_off13_inb : ∀ i : grid28.Coords, ∀ a, (k28_off13 i) a + S1.size a ≤ S100000.size a
  k28_off15_inb : ∀ i : grid28.Coords, ∀ a, (k28_off15 i) a + S1.size a ≤ S100000.size a
  hstage28_0 : ∀ j, (stage28_0 j).IsWhole
  nbuf28_0 : grid28.bufCount reads28_0 false = 2
  hreads28_0 : ∀ i i' : grid28.Coords, (∀ a, reads28_0 a = true → i a = i' a) → cc28_transform_1 i = cc28_transform_1 i'
  hinb28_0 : ∀ (i : grid28.Coords) a, (cc28_transform_1 i a + 1) * S8x1.size a ≤ S100000x1.size a
  hwx28_0 : ∀ i : grid28.Coords, EltTy.bits .f32 = 32 ∨ (Rect.block (s := S100000x1) S8x1.size (cc28_transform_1 i) (hinb28_0 i)).WholeWords (EltTy.packing .f32)
  hstage28_1 : ∀ j, (stage28_1 j).IsWhole
  nbuf28_1 : grid28.bufCount reads28_1 false = 2
  hreads28_1 : ∀ i i' : grid28.Coords, (∀ a, reads28_1 a = true → i a = i' a) → cc28_transform_2 i = cc28_transform_2 i'
  hinb28_1 : ∀ (i : grid28.Coords) a, (cc28_transform_2 i a + 1) * S8x64.size a ≤ S100000x64.size a
  hwx28_1 : ∀ i : grid28.Coords, EltTy.bits .f32 = 32 ∨ (Rect.block (s := S100000x64) S8x64.size (cc28_transform_2 i) (hinb28_1 i)).WholeWords (EltTy.packing .f32)

class K29.Facts₀ : Prop where
  hrank29 : 0 < grid29.rank
  k29_off1_inb : ∀ i : grid29.Coords, ∀ a, (k29_off1 i) a + S1.size a ≤ S100000.size a
  k29_off3_inb : ∀ i : grid29.Coords, ∀ a, (k29_off3 i) a + S1.size a ≤ S100000.size a
  k29_off5_inb : ∀ i : grid29.Coords, ∀ a, (k29_off5 i) a + S1.size a ≤ S100000.size a
  k29_off7_inb : ∀ i : grid29.Coords, ∀ a, (k29_off7 i) a + S1.size a ≤ S100000.size a
  k29_off9_inb : ∀ i : grid29.Coords, ∀ a, (k29_off9 i) a + S1.size a ≤ S100000.size a
  k29_off11_inb : ∀ i : grid29.Coords, ∀ a, (k29_off11 i) a + S1.size a ≤ S100000.size a
  k29_off13_inb : ∀ i : grid29.Coords, ∀ a, (k29_off13 i) a + S1.size a ≤ S100000.size a
  k29_off15_inb : ∀ i : grid29.Coords, ∀ a, (k29_off15 i) a + S1.size a ≤ S100000.size a
  hstage29_0 : ∀ j, (stage29_0 j).IsWhole
  nbuf29_0 : grid29.bufCount reads29_0 false = 2
  hreads29_0 : ∀ i i' : grid29.Coords, (∀ a, reads29_0 a = true → i a = i' a) → cc29_transform_1 i = cc29_transform_1 i'
  hinb29_0 : ∀ (i : grid29.Coords) a, (cc29_transform_1 i a + 1) * S8x1.size a ≤ S100000x1.size a
  hwx29_0 : ∀ i : grid29.Coords, EltTy.bits .f32 = 32 ∨ (Rect.block (s := S100000x1) S8x1.size (cc29_transform_1 i) (hinb29_0 i)).WholeWords (EltTy.packing .f32)
  hstage29_1 : ∀ j, (stage29_1 j).IsWhole
  nbuf29_1 : grid29.bufCount reads29_1 false = 2
  hreads29_1 : ∀ i i' : grid29.Coords, (∀ a, reads29_1 a = true → i a = i' a) → cc29_transform_2 i = cc29_transform_2 i'
  hinb29_1 : ∀ (i : grid29.Coords) a, (cc29_transform_2 i a + 1) * S8x64.size a ≤ S100000x64.size a
  hwx29_1 : ∀ i : grid29.Coords, EltTy.bits .f32 = 32 ∨ (Rect.block (s := S100000x64) S8x64.size (cc29_transform_2 i) (hinb29_1 i)).WholeWords (EltTy.packing .f32)

class K30.Facts₀ : Prop where
  hrank30 : 0 < grid30.rank
  k30_off1_inb : ∀ i : grid30.Coords, ∀ a, (k30_off1 i) a + S1.size a ≤ S100000.size a
  k30_off3_inb : ∀ i : grid30.Coords, ∀ a, (k30_off3 i) a + S1.size a ≤ S100000.size a
  k30_off5_inb : ∀ i : grid30.Coords, ∀ a, (k30_off5 i) a + S1.size a ≤ S100000.size a
  k30_off7_inb : ∀ i : grid30.Coords, ∀ a, (k30_off7 i) a + S1.size a ≤ S100000.size a
  k30_off9_inb : ∀ i : grid30.Coords, ∀ a, (k30_off9 i) a + S1.size a ≤ S100000.size a
  k30_off11_inb : ∀ i : grid30.Coords, ∀ a, (k30_off11 i) a + S1.size a ≤ S100000.size a
  k30_off13_inb : ∀ i : grid30.Coords, ∀ a, (k30_off13 i) a + S1.size a ≤ S100000.size a
  k30_off15_inb : ∀ i : grid30.Coords, ∀ a, (k30_off15 i) a + S1.size a ≤ S100000.size a
  hstage30_0 : ∀ j, (stage30_0 j).IsWhole
  nbuf30_0 : grid30.bufCount reads30_0 false = 2
  hreads30_0 : ∀ i i' : grid30.Coords, (∀ a, reads30_0 a = true → i a = i' a) → cc30_transform_1 i = cc30_transform_1 i'
  hinb30_0 : ∀ (i : grid30.Coords) a, (cc30_transform_1 i a + 1) * S8x1.size a ≤ S100000x1.size a
  hwx30_0 : ∀ i : grid30.Coords, EltTy.bits .f32 = 32 ∨ (Rect.block (s := S100000x1) S8x1.size (cc30_transform_1 i) (hinb30_0 i)).WholeWords (EltTy.packing .f32)
  hstage30_1 : ∀ j, (stage30_1 j).IsWhole
  nbuf30_1 : grid30.bufCount reads30_1 false = 2
  hreads30_1 : ∀ i i' : grid30.Coords, (∀ a, reads30_1 a = true → i a = i' a) → cc30_transform_2 i = cc30_transform_2 i'
  hinb30_1 : ∀ (i : grid30.Coords) a, (cc30_transform_2 i a + 1) * S8x64.size a ≤ S100000x64.size a
  hwx30_1 : ∀ i : grid30.Coords, EltTy.bits .f32 = 32 ∨ (Rect.block (s := S100000x64) S8x64.size (cc30_transform_2 i) (hinb30_1 i)).WholeWords (EltTy.packing .f32)

class K31.Facts₀ : Prop where
  hrank31 : 0 < grid31.rank
  k31_off1_inb : ∀ i : grid31.Coords, ∀ a, (k31_off1 i) a + S1.size a ≤ S100000.size a
  k31_off3_inb : ∀ i : grid31.Coords, ∀ a, (k31_off3 i) a + S1.size a ≤ S100000.size a
  k31_off5_inb : ∀ i : grid31.Coords, ∀ a, (k31_off5 i) a + S1.size a ≤ S100000.size a
  k31_off7_inb : ∀ i : grid31.Coords, ∀ a, (k31_off7 i) a + S1.size a ≤ S100000.size a
  k31_off9_inb : ∀ i : grid31.Coords, ∀ a, (k31_off9 i) a + S1.size a ≤ S100000.size a
  k31_off11_inb : ∀ i : grid31.Coords, ∀ a, (k31_off11 i) a + S1.size a ≤ S100000.size a
  k31_off13_inb : ∀ i : grid31.Coords, ∀ a, (k31_off13 i) a + S1.size a ≤ S100000.size a
  k31_off15_inb : ∀ i : grid31.Coords, ∀ a, (k31_off15 i) a + S1.size a ≤ S100000.size a
  hstage31_0 : ∀ j, (stage31_0 j).IsWhole
  nbuf31_0 : grid31.bufCount reads31_0 false = 2
  hreads31_0 : ∀ i i' : grid31.Coords, (∀ a, reads31_0 a = true → i a = i' a) → cc31_transform_1 i = cc31_transform_1 i'
  hinb31_0 : ∀ (i : grid31.Coords) a, (cc31_transform_1 i a + 1) * S8x1.size a ≤ S100000x1.size a
  hwx31_0 : ∀ i : grid31.Coords, EltTy.bits .f32 = 32 ∨ (Rect.block (s := S100000x1) S8x1.size (cc31_transform_1 i) (hinb31_0 i)).WholeWords (EltTy.packing .f32)
  hstage31_1 : ∀ j, (stage31_1 j).IsWhole
  nbuf31_1 : grid31.bufCount reads31_1 false = 2
  hreads31_1 : ∀ i i' : grid31.Coords, (∀ a, reads31_1 a = true → i a = i' a) → cc31_transform_2 i = cc31_transform_2 i'
  hinb31_1 : ∀ (i : grid31.Coords) a, (cc31_transform_2 i a + 1) * S8x64.size a ≤ S100000x64.size a
  hwx31_1 : ∀ i : grid31.Coords, EltTy.bits .f32 = 32 ∨ (Rect.block (s := S100000x64) S8x64.size (cc31_transform_2 i) (hinb31_1 i)).WholeWords (EltTy.packing .f32)

class K32.Facts₀ : Prop where
  hrank32 : 0 < grid32.rank
  k32_off1_inb : ∀ i : grid32.Coords, ∀ a, (k32_off1 i) a + S1.size a ≤ S100000.size a
  k32_off3_inb : ∀ i : grid32.Coords, ∀ a, (k32_off3 i) a + S1.size a ≤ S100000.size a
  k32_off5_inb : ∀ i : grid32.Coords, ∀ a, (k32_off5 i) a + S1.size a ≤ S100000.size a
  k32_off7_inb : ∀ i : grid32.Coords, ∀ a, (k32_off7 i) a + S1.size a ≤ S100000.size a
  k32_off9_inb : ∀ i : grid32.Coords, ∀ a, (k32_off9 i) a + S1.size a ≤ S100000.size a
  k32_off11_inb : ∀ i : grid32.Coords, ∀ a, (k32_off11 i) a + S1.size a ≤ S100000.size a
  k32_off13_inb : ∀ i : grid32.Coords, ∀ a, (k32_off13 i) a + S1.size a ≤ S100000.size a
  k32_off15_inb : ∀ i : grid32.Coords, ∀ a, (k32_off15 i) a + S1.size a ≤ S100000.size a
  hstage32_0 : ∀ j, (stage32_0 j).IsWhole
  nbuf32_0 : grid32.bufCount reads32_0 false = 2
  hreads32_0 : ∀ i i' : grid32.Coords, (∀ a, reads32_0 a = true → i a = i' a) → cc32_transform_1 i = cc32_transform_1 i'
  hinb32_0 : ∀ (i : grid32.Coords) a, (cc32_transform_1 i a + 1) * S8x1.size a ≤ S100000x1.size a
  hwx32_0 : ∀ i : grid32.Coords, EltTy.bits .f32 = 32 ∨ (Rect.block (s := S100000x1) S8x1.size (cc32_transform_1 i) (hinb32_0 i)).WholeWords (EltTy.packing .f32)
  hstage32_1 : ∀ j, (stage32_1 j).IsWhole
  nbuf32_1 : grid32.bufCount reads32_1 false = 2
  hreads32_1 : ∀ i i' : grid32.Coords, (∀ a, reads32_1 a = true → i a = i' a) → cc32_transform_2 i = cc32_transform_2 i'
  hinb32_1 : ∀ (i : grid32.Coords) a, (cc32_transform_2 i a + 1) * S8x64.size a ≤ S100000x64.size a
  hwx32_1 : ∀ i : grid32.Coords, EltTy.bits .f32 = 32 ∨ (Rect.block (s := S100000x64) S8x64.size (cc32_transform_2 i) (hinb32_1 i)).WholeWords (EltTy.packing .f32)

class K33.Facts₀ : Prop where
  hrank33 : 0 < grid33.rank
  k33_off1_inb : ∀ i : grid33.Coords, ∀ a, (k33_off1 i) a + S1.size a ≤ S100000.size a
  k33_off3_inb : ∀ i : grid33.Coords, ∀ a, (k33_off3 i) a + S1.size a ≤ S100000.size a
  k33_off5_inb : ∀ i : grid33.Coords, ∀ a, (k33_off5 i) a + S1.size a ≤ S100000.size a
  k33_off7_inb : ∀ i : grid33.Coords, ∀ a, (k33_off7 i) a + S1.size a ≤ S100000.size a
  k33_off9_inb : ∀ i : grid33.Coords, ∀ a, (k33_off9 i) a + S1.size a ≤ S100000.size a
  k33_off11_inb : ∀ i : grid33.Coords, ∀ a, (k33_off11 i) a + S1.size a ≤ S100000.size a
  k33_off13_inb : ∀ i : grid33.Coords, ∀ a, (k33_off13 i) a + S1.size a ≤ S100000.size a
  k33_off15_inb : ∀ i : grid33.Coords, ∀ a, (k33_off15 i) a + S1.size a ≤ S100000.size a
  hstage33_0 : ∀ j, (stage33_0 j).IsWhole
  nbuf33_0 : grid33.bufCount reads33_0 false = 2
  hreads33_0 : ∀ i i' : grid33.Coords, (∀ a, reads33_0 a = true → i a = i' a) → cc33_transform_1 i = cc33_transform_1 i'
  hinb33_0 : ∀ (i : grid33.Coords) a, (cc33_transform_1 i a + 1) * S8x1.size a ≤ S100000x1.size a
  hwx33_0 : ∀ i : grid33.Coords, EltTy.bits .f32 = 32 ∨ (Rect.block (s := S100000x1) S8x1.size (cc33_transform_1 i) (hinb33_0 i)).WholeWords (EltTy.packing .f32)
  hstage33_1 : ∀ j, (stage33_1 j).IsWhole
  nbuf33_1 : grid33.bufCount reads33_1 false = 2
  hreads33_1 : ∀ i i' : grid33.Coords, (∀ a, reads33_1 a = true → i a = i' a) → cc33_transform_2 i = cc33_transform_2 i'
  hinb33_1 : ∀ (i : grid33.Coords) a, (cc33_transform_2 i a + 1) * S8x64.size a ≤ S100000x64.size a
  hwx33_1 : ∀ i : grid33.Coords, EltTy.bits .f32 = 32 ∨ (Rect.block (s := S100000x64) S8x64.size (cc33_transform_2 i) (hinb33_1 i)).WholeWords (EltTy.packing .f32)

class K34.Facts₀ : Prop where
  hrank34 : 0 < grid34.rank
  k34_off1_inb : ∀ i : grid34.Coords, ∀ a, (k34_off1 i) a + S1.size a ≤ S100000.size a
  k34_off3_inb : ∀ i : grid34.Coords, ∀ a, (k34_off3 i) a + S1.size a ≤ S100000.size a
  k34_off5_inb : ∀ i : grid34.Coords, ∀ a, (k34_off5 i) a + S1.size a ≤ S100000.size a
  k34_off7_inb : ∀ i : grid34.Coords, ∀ a, (k34_off7 i) a + S1.size a ≤ S100000.size a
  k34_off9_inb : ∀ i : grid34.Coords, ∀ a, (k34_off9 i) a + S1.size a ≤ S100000.size a
  k34_off11_inb : ∀ i : grid34.Coords, ∀ a, (k34_off11 i) a + S1.size a ≤ S100000.size a
  k34_off13_inb : ∀ i : grid34.Coords, ∀ a, (k34_off13 i) a + S1.size a ≤ S100000.size a
  k34_off15_inb : ∀ i : grid34.Coords, ∀ a, (k34_off15 i) a + S1.size a ≤ S100000.size a
  hstage34_0 : ∀ j, (stage34_0 j).IsWhole
  nbuf34_0 : grid34.bufCount reads34_0 false = 2
  hreads34_0 : ∀ i i' : grid34.Coords, (∀ a, reads34_0 a = true → i a = i' a) → cc34_transform_1 i = cc34_transform_1 i'
  hinb34_0 : ∀ (i : grid34.Coords) a, (cc34_transform_1 i a + 1) * S8x1.size a ≤ S100000x1.size a
  hwx34_0 : ∀ i : grid34.Coords, EltTy.bits .f32 = 32 ∨ (Rect.block (s := S100000x1) S8x1.size (cc34_transform_1 i) (hinb34_0 i)).WholeWords (EltTy.packing .f32)
  hstage34_1 : ∀ j, (stage34_1 j).IsWhole
  nbuf34_1 : grid34.bufCount reads34_1 false = 2
  hreads34_1 : ∀ i i' : grid34.Coords, (∀ a, reads34_1 a = true → i a = i' a) → cc34_transform_2 i = cc34_transform_2 i'
  hinb34_1 : ∀ (i : grid34.Coords) a, (cc34_transform_2 i a + 1) * S8x64.size a ≤ S100000x64.size a
  hwx34_1 : ∀ i : grid34.Coords, EltTy.bits .f32 = 32 ∨ (Rect.block (s := S100000x64) S8x64.size (cc34_transform_2 i) (hinb34_1 i)).WholeWords (EltTy.packing .f32)

class K35.Facts₀ : Prop where
  hrank35 : 0 < grid35.rank
  k35_off1_inb : ∀ i : grid35.Coords, ∀ a, (k35_off1 i) a + S1.size a ≤ S100000.size a
  k35_off3_inb : ∀ i : grid35.Coords, ∀ a, (k35_off3 i) a + S1.size a ≤ S100000.size a
  k35_off5_inb : ∀ i : grid35.Coords, ∀ a, (k35_off5 i) a + S1.size a ≤ S100000.size a
  k35_off7_inb : ∀ i : grid35.Coords, ∀ a, (k35_off7 i) a + S1.size a ≤ S100000.size a
  k35_off9_inb : ∀ i : grid35.Coords, ∀ a, (k35_off9 i) a + S1.size a ≤ S100000.size a
  k35_off11_inb : ∀ i : grid35.Coords, ∀ a, (k35_off11 i) a + S1.size a ≤ S100000.size a
  k35_off13_inb : ∀ i : grid35.Coords, ∀ a, (k35_off13 i) a + S1.size a ≤ S100000.size a
  k35_off15_inb : ∀ i : grid35.Coords, ∀ a, (k35_off15 i) a + S1.size a ≤ S100000.size a
  hstage35_0 : ∀ j, (stage35_0 j).IsWhole
  nbuf35_0 : grid35.bufCount reads35_0 false = 2
  hreads35_0 : ∀ i i' : grid35.Coords, (∀ a, reads35_0 a = true → i a = i' a) → cc35_transform_1 i = cc35_transform_1 i'
  hinb35_0 : ∀ (i : grid35.Coords) a, (cc35_transform_1 i a + 1) * S8x1.size a ≤ S100000x1.size a
  hwx35_0 : ∀ i : grid35.Coords, EltTy.bits .f32 = 32 ∨ (Rect.block (s := S100000x1) S8x1.size (cc35_transform_1 i) (hinb35_0 i)).WholeWords (EltTy.packing .f32)
  hstage35_1 : ∀ j, (stage35_1 j).IsWhole
  nbuf35_1 : grid35.bufCount reads35_1 false = 2
  hreads35_1 : ∀ i i' : grid35.Coords, (∀ a, reads35_1 a = true → i a = i' a) → cc35_transform_2 i = cc35_transform_2 i'
  hinb35_1 : ∀ (i : grid35.Coords) a, (cc35_transform_2 i a + 1) * S8x64.size a ≤ S100000x64.size a
  hwx35_1 : ∀ i : grid35.Coords, EltTy.bits .f32 = 32 ∨ (Rect.block (s := S100000x64) S8x64.size (cc35_transform_2 i) (hinb35_1 i)).WholeWords (EltTy.packing .f32)

class K36.Facts₀ : Prop where
  hrank36 : 0 < grid36.rank
  k36_off1_inb : ∀ i : grid36.Coords, ∀ a, (k36_off1 i) a + S1.size a ≤ S100000.size a
  k36_off3_inb : ∀ i : grid36.Coords, ∀ a, (k36_off3 i) a + S1.size a ≤ S100000.size a
  k36_off5_inb : ∀ i : grid36.Coords, ∀ a, (k36_off5 i) a + S1.size a ≤ S100000.size a
  k36_off7_inb : ∀ i : grid36.Coords, ∀ a, (k36_off7 i) a + S1.size a ≤ S100000.size a
  k36_off9_inb : ∀ i : grid36.Coords, ∀ a, (k36_off9 i) a + S1.size a ≤ S100000.size a
  k36_off11_inb : ∀ i : grid36.Coords, ∀ a, (k36_off11 i) a + S1.size a ≤ S100000.size a
  k36_off13_inb : ∀ i : grid36.Coords, ∀ a, (k36_off13 i) a + S1.size a ≤ S100000.size a
  k36_off15_inb : ∀ i : grid36.Coords, ∀ a, (k36_off15 i) a + S1.size a ≤ S100000.size a
  hstage36_0 : ∀ j, (stage36_0 j).IsWhole
  nbuf36_0 : grid36.bufCount reads36_0 false = 2
  hreads36_0 : ∀ i i' : grid36.Coords, (∀ a, reads36_0 a = true → i a = i' a) → cc36_transform_1 i = cc36_transform_1 i'
  hinb36_0 : ∀ (i : grid36.Coords) a, (cc36_transform_1 i a + 1) * S8x1.size a ≤ S100000x1.size a
  hwx36_0 : ∀ i : grid36.Coords, EltTy.bits .f32 = 32 ∨ (Rect.block (s := S100000x1) S8x1.size (cc36_transform_1 i) (hinb36_0 i)).WholeWords (EltTy.packing .f32)
  hstage36_1 : ∀ j, (stage36_1 j).IsWhole
  nbuf36_1 : grid36.bufCount reads36_1 false = 2
  hreads36_1 : ∀ i i' : grid36.Coords, (∀ a, reads36_1 a = true → i a = i' a) → cc36_transform_2 i = cc36_transform_2 i'
  hinb36_1 : ∀ (i : grid36.Coords) a, (cc36_transform_2 i a + 1) * S8x64.size a ≤ S100000x64.size a
  hwx36_1 : ∀ i : grid36.Coords, EltTy.bits .f32 = 32 ∨ (Rect.block (s := S100000x64) S8x64.size (cc36_transform_2 i) (hinb36_1 i)).WholeWords (EltTy.packing .f32)

class K37.Facts₀ : Prop where
  hrank37 : 0 < grid37.rank
  k37_off1_inb : ∀ i : grid37.Coords, ∀ a, (k37_off1 i) a + S1.size a ≤ S100000.size a
  k37_off3_inb : ∀ i : grid37.Coords, ∀ a, (k37_off3 i) a + S1.size a ≤ S100000.size a
  k37_off5_inb : ∀ i : grid37.Coords, ∀ a, (k37_off5 i) a + S1.size a ≤ S100000.size a
  k37_off7_inb : ∀ i : grid37.Coords, ∀ a, (k37_off7 i) a + S1.size a ≤ S100000.size a
  k37_off9_inb : ∀ i : grid37.Coords, ∀ a, (k37_off9 i) a + S1.size a ≤ S100000.size a
  k37_off11_inb : ∀ i : grid37.Coords, ∀ a, (k37_off11 i) a + S1.size a ≤ S100000.size a
  k37_off13_inb : ∀ i : grid37.Coords, ∀ a, (k37_off13 i) a + S1.size a ≤ S100000.size a
  k37_off15_inb : ∀ i : grid37.Coords, ∀ a, (k37_off15 i) a + S1.size a ≤ S100000.size a
  hstage37_0 : ∀ j, (stage37_0 j).IsWhole
  nbuf37_0 : grid37.bufCount reads37_0 false = 2
  hreads37_0 : ∀ i i' : grid37.Coords, (∀ a, reads37_0 a = true → i a = i' a) → cc37_transform_1 i = cc37_transform_1 i'
  hinb37_0 : ∀ (i : grid37.Coords) a, (cc37_transform_1 i a + 1) * S8x1.size a ≤ S100000x1.size a
  hwx37_0 : ∀ i : grid37.Coords, EltTy.bits .f32 = 32 ∨ (Rect.block (s := S100000x1) S8x1.size (cc37_transform_1 i) (hinb37_0 i)).WholeWords (EltTy.packing .f32)
  hstage37_1 : ∀ j, (stage37_1 j).IsWhole
  nbuf37_1 : grid37.bufCount reads37_1 false = 2
  hreads37_1 : ∀ i i' : grid37.Coords, (∀ a, reads37_1 a = true → i a = i' a) → cc37_transform_2 i = cc37_transform_2 i'
  hinb37_1 : ∀ (i : grid37.Coords) a, (cc37_transform_2 i a + 1) * S8x64.size a ≤ S100000x64.size a
  hwx37_1 : ∀ i : grid37.Coords, EltTy.bits .f32 = 32 ∨ (Rect.block (s := S100000x64) S8x64.size (cc37_transform_2 i) (hinb37_1 i)).WholeWords (EltTy.packing .f32)

class K38.Facts₀ : Prop where
  hrank38 : 0 < grid38.rank
  k38_off1_inb : ∀ i : grid38.Coords, ∀ a, (k38_off1 i) a + S1.size a ≤ S100000.size a
  k38_off3_inb : ∀ i : grid38.Coords, ∀ a, (k38_off3 i) a + S1.size a ≤ S100000.size a
  k38_off5_inb : ∀ i : grid38.Coords, ∀ a, (k38_off5 i) a + S1.size a ≤ S100000.size a
  k38_off7_inb : ∀ i : grid38.Coords, ∀ a, (k38_off7 i) a + S1.size a ≤ S100000.size a
  k38_off9_inb : ∀ i : grid38.Coords, ∀ a, (k38_off9 i) a + S1.size a ≤ S100000.size a
  k38_off11_inb : ∀ i : grid38.Coords, ∀ a, (k38_off11 i) a + S1.size a ≤ S100000.size a
  k38_off13_inb : ∀ i : grid38.Coords, ∀ a, (k38_off13 i) a + S1.size a ≤ S100000.size a
  k38_off15_inb : ∀ i : grid38.Coords, ∀ a, (k38_off15 i) a + S1.size a ≤ S100000.size a
  hstage38_0 : ∀ j, (stage38_0 j).IsWhole
  nbuf38_0 : grid38.bufCount reads38_0 false = 2
  hreads38_0 : ∀ i i' : grid38.Coords, (∀ a, reads38_0 a = true → i a = i' a) → cc38_transform_1 i = cc38_transform_1 i'
  hinb38_0 : ∀ (i : grid38.Coords) a, (cc38_transform_1 i a + 1) * S8x1.size a ≤ S100000x1.size a
  hwx38_0 : ∀ i : grid38.Coords, EltTy.bits .f32 = 32 ∨ (Rect.block (s := S100000x1) S8x1.size (cc38_transform_1 i) (hinb38_0 i)).WholeWords (EltTy.packing .f32)
  hstage38_1 : ∀ j, (stage38_1 j).IsWhole
  nbuf38_1 : grid38.bufCount reads38_1 false = 2
  hreads38_1 : ∀ i i' : grid38.Coords, (∀ a, reads38_1 a = true → i a = i' a) → cc38_transform_2 i = cc38_transform_2 i'
  hinb38_1 : ∀ (i : grid38.Coords) a, (cc38_transform_2 i a + 1) * S8x64.size a ≤ S100000x64.size a
  hwx38_1 : ∀ i : grid38.Coords, EltTy.bits .f32 = 32 ∨ (Rect.block (s := S100000x64) S8x64.size (cc38_transform_2 i) (hinb38_1 i)).WholeWords (EltTy.packing .f32)

class K39.Facts₀ : Prop where
  hrank39 : 0 < grid39.rank
  k39_off1_inb : ∀ i : grid39.Coords, ∀ a, (k39_off1 i) a + S1.size a ≤ S100000.size a
  k39_off3_inb : ∀ i : grid39.Coords, ∀ a, (k39_off3 i) a + S1.size a ≤ S100000.size a
  k39_off5_inb : ∀ i : grid39.Coords, ∀ a, (k39_off5 i) a + S1.size a ≤ S100000.size a
  k39_off7_inb : ∀ i : grid39.Coords, ∀ a, (k39_off7 i) a + S1.size a ≤ S100000.size a
  k39_off9_inb : ∀ i : grid39.Coords, ∀ a, (k39_off9 i) a + S1.size a ≤ S100000.size a
  k39_off11_inb : ∀ i : grid39.Coords, ∀ a, (k39_off11 i) a + S1.size a ≤ S100000.size a
  k39_off13_inb : ∀ i : grid39.Coords, ∀ a, (k39_off13 i) a + S1.size a ≤ S100000.size a
  k39_off15_inb : ∀ i : grid39.Coords, ∀ a, (k39_off15 i) a + S1.size a ≤ S100000.size a
  hstage39_0 : ∀ j, (stage39_0 j).IsWhole
  nbuf39_0 : grid39.bufCount reads39_0 false = 2
  hreads39_0 : ∀ i i' : grid39.Coords, (∀ a, reads39_0 a = true → i a = i' a) → cc39_transform_1 i = cc39_transform_1 i'
  hinb39_0 : ∀ (i : grid39.Coords) a, (cc39_transform_1 i a + 1) * S8x1.size a ≤ S100000x1.size a
  hwx39_0 : ∀ i : grid39.Coords, EltTy.bits .f32 = 32 ∨ (Rect.block (s := S100000x1) S8x1.size (cc39_transform_1 i) (hinb39_0 i)).WholeWords (EltTy.packing .f32)
  hstage39_1 : ∀ j, (stage39_1 j).IsWhole
  nbuf39_1 : grid39.bufCount reads39_1 false = 2
  hreads39_1 : ∀ i i' : grid39.Coords, (∀ a, reads39_1 a = true → i a = i' a) → cc39_transform_2 i = cc39_transform_2 i'
  hinb39_1 : ∀ (i : grid39.Coords) a, (cc39_transform_2 i a + 1) * S8x64.size a ≤ S100000x64.size a
  hwx39_1 : ∀ i : grid39.Coords, EltTy.bits .f32 = 32 ∨ (Rect.block (s := S100000x64) S8x64.size (cc39_transform_2 i) (hinb39_1 i)).WholeWords (EltTy.packing .f32)

class K40.Facts₀ : Prop where
  hrank40 : 0 < grid40.rank
  k40_off1_inb : ∀ i : grid40.Coords, ∀ a, (k40_off1 i) a + S1.size a ≤ S100000.size a
  k40_off3_inb : ∀ i : grid40.Coords, ∀ a, (k40_off3 i) a + S1.size a ≤ S100000.size a
  k40_off5_inb : ∀ i : grid40.Coords, ∀ a, (k40_off5 i) a + S1.size a ≤ S100000.size a
  k40_off7_inb : ∀ i : grid40.Coords, ∀ a, (k40_off7 i) a + S1.size a ≤ S100000.size a
  k40_off9_inb : ∀ i : grid40.Coords, ∀ a, (k40_off9 i) a + S1.size a ≤ S100000.size a
  k40_off11_inb : ∀ i : grid40.Coords, ∀ a, (k40_off11 i) a + S1.size a ≤ S100000.size a
  k40_off13_inb : ∀ i : grid40.Coords, ∀ a, (k40_off13 i) a + S1.size a ≤ S100000.size a
  k40_off15_inb : ∀ i : grid40.Coords, ∀ a, (k40_off15 i) a + S1.size a ≤ S100000.size a
  hstage40_0 : ∀ j, (stage40_0 j).IsWhole
  nbuf40_0 : grid40.bufCount reads40_0 false = 2
  hreads40_0 : ∀ i i' : grid40.Coords, (∀ a, reads40_0 a = true → i a = i' a) → cc40_transform_1 i = cc40_transform_1 i'
  hinb40_0 : ∀ (i : grid40.Coords) a, (cc40_transform_1 i a + 1) * S8x1.size a ≤ S100000x1.size a
  hwx40_0 : ∀ i : grid40.Coords, EltTy.bits .f32 = 32 ∨ (Rect.block (s := S100000x1) S8x1.size (cc40_transform_1 i) (hinb40_0 i)).WholeWords (EltTy.packing .f32)
  hstage40_1 : ∀ j, (stage40_1 j).IsWhole
  nbuf40_1 : grid40.bufCount reads40_1 false = 2
  hreads40_1 : ∀ i i' : grid40.Coords, (∀ a, reads40_1 a = true → i a = i' a) → cc40_transform_2 i = cc40_transform_2 i'
  hinb40_1 : ∀ (i : grid40.Coords) a, (cc40_transform_2 i a + 1) * S8x64.size a ≤ S100000x64.size a
  hwx40_1 : ∀ i : grid40.Coords, EltTy.bits .f32 = 32 ∨ (Rect.block (s := S100000x64) S8x64.size (cc40_transform_2 i) (hinb40_1 i)).WholeWords (EltTy.packing .f32)

class K41.Facts₀ : Prop where
  hrank41 : 0 < grid41.rank
  k41_off1_inb : ∀ i : grid41.Coords, ∀ a, (k41_off1 i) a + S1.size a ≤ S100000.size a
  k41_off3_inb : ∀ i : grid41.Coords, ∀ a, (k41_off3 i) a + S1.size a ≤ S100000.size a
  k41_off5_inb : ∀ i : grid41.Coords, ∀ a, (k41_off5 i) a + S1.size a ≤ S100000.size a
  k41_off7_inb : ∀ i : grid41.Coords, ∀ a, (k41_off7 i) a + S1.size a ≤ S100000.size a
  k41_off9_inb : ∀ i : grid41.Coords, ∀ a, (k41_off9 i) a + S1.size a ≤ S100000.size a
  k41_off11_inb : ∀ i : grid41.Coords, ∀ a, (k41_off11 i) a + S1.size a ≤ S100000.size a
  k41_off13_inb : ∀ i : grid41.Coords, ∀ a, (k41_off13 i) a + S1.size a ≤ S100000.size a
  k41_off15_inb : ∀ i : grid41.Coords, ∀ a, (k41_off15 i) a + S1.size a ≤ S100000.size a
  hstage41_0 : ∀ j, (stage41_0 j).IsWhole
  nbuf41_0 : grid41.bufCount reads41_0 false = 2
  hreads41_0 : ∀ i i' : grid41.Coords, (∀ a, reads41_0 a = true → i a = i' a) → cc41_transform_1 i = cc41_transform_1 i'
  hinb41_0 : ∀ (i : grid41.Coords) a, (cc41_transform_1 i a + 1) * S8x1.size a ≤ S100000x1.size a
  hwx41_0 : ∀ i : grid41.Coords, EltTy.bits .f32 = 32 ∨ (Rect.block (s := S100000x1) S8x1.size (cc41_transform_1 i) (hinb41_0 i)).WholeWords (EltTy.packing .f32)
  hstage41_1 : ∀ j, (stage41_1 j).IsWhole
  nbuf41_1 : grid41.bufCount reads41_1 false = 2
  hreads41_1 : ∀ i i' : grid41.Coords, (∀ a, reads41_1 a = true → i a = i' a) → cc41_transform_2 i = cc41_transform_2 i'
  hinb41_1 : ∀ (i : grid41.Coords) a, (cc41_transform_2 i a + 1) * S8x64.size a ≤ S100000x64.size a
  hwx41_1 : ∀ i : grid41.Coords, EltTy.bits .f32 = 32 ∨ (Rect.block (s := S100000x64) S8x64.size (cc41_transform_2 i) (hinb41_1 i)).WholeWords (EltTy.packing .f32)

class K42.Facts₀ : Prop where
  hrank42 : 0 < grid42.rank
  k42_off1_inb : ∀ i : grid42.Coords, ∀ a, (k42_off1 i) a + S1.size a ≤ S100000.size a
  k42_off3_inb : ∀ i : grid42.Coords, ∀ a, (k42_off3 i) a + S1.size a ≤ S100000.size a
  k42_off5_inb : ∀ i : grid42.Coords, ∀ a, (k42_off5 i) a + S1.size a ≤ S100000.size a
  k42_off7_inb : ∀ i : grid42.Coords, ∀ a, (k42_off7 i) a + S1.size a ≤ S100000.size a
  k42_off9_inb : ∀ i : grid42.Coords, ∀ a, (k42_off9 i) a + S1.size a ≤ S100000.size a
  k42_off11_inb : ∀ i : grid42.Coords, ∀ a, (k42_off11 i) a + S1.size a ≤ S100000.size a
  k42_off13_inb : ∀ i : grid42.Coords, ∀ a, (k42_off13 i) a + S1.size a ≤ S100000.size a
  k42_off15_inb : ∀ i : grid42.Coords, ∀ a, (k42_off15 i) a + S1.size a ≤ S100000.size a
  hstage42_0 : ∀ j, (stage42_0 j).IsWhole
  nbuf42_0 : grid42.bufCount reads42_0 false = 2
  hreads42_0 : ∀ i i' : grid42.Coords, (∀ a, reads42_0 a = true → i a = i' a) → cc42_transform_1 i = cc42_transform_1 i'
  hinb42_0 : ∀ (i : grid42.Coords) a, (cc42_transform_1 i a + 1) * S8x1.size a ≤ S100000x1.size a
  hwx42_0 : ∀ i : grid42.Coords, EltTy.bits .f32 = 32 ∨ (Rect.block (s := S100000x1) S8x1.size (cc42_transform_1 i) (hinb42_0 i)).WholeWords (EltTy.packing .f32)
  hstage42_1 : ∀ j, (stage42_1 j).IsWhole
  nbuf42_1 : grid42.bufCount reads42_1 false = 2
  hreads42_1 : ∀ i i' : grid42.Coords, (∀ a, reads42_1 a = true → i a = i' a) → cc42_transform_2 i = cc42_transform_2 i'
  hinb42_1 : ∀ (i : grid42.Coords) a, (cc42_transform_2 i a + 1) * S8x64.size a ≤ S100000x64.size a
  hwx42_1 : ∀ i : grid42.Coords, EltTy.bits .f32 = 32 ∨ (Rect.block (s := S100000x64) S8x64.size (cc42_transform_2 i) (hinb42_1 i)).WholeWords (EltTy.packing .f32)

class K43.Facts₀ : Prop where
  hrank43 : 0 < grid43.rank
  k43_off1_inb : ∀ i : grid43.Coords, ∀ a, (k43_off1 i) a + S1.size a ≤ S100000.size a
  k43_off3_inb : ∀ i : grid43.Coords, ∀ a, (k43_off3 i) a + S1.size a ≤ S100000.size a
  k43_off5_inb : ∀ i : grid43.Coords, ∀ a, (k43_off5 i) a + S1.size a ≤ S100000.size a
  k43_off7_inb : ∀ i : grid43.Coords, ∀ a, (k43_off7 i) a + S1.size a ≤ S100000.size a
  k43_off9_inb : ∀ i : grid43.Coords, ∀ a, (k43_off9 i) a + S1.size a ≤ S100000.size a
  k43_off11_inb : ∀ i : grid43.Coords, ∀ a, (k43_off11 i) a + S1.size a ≤ S100000.size a
  k43_off13_inb : ∀ i : grid43.Coords, ∀ a, (k43_off13 i) a + S1.size a ≤ S100000.size a
  k43_off15_inb : ∀ i : grid43.Coords, ∀ a, (k43_off15 i) a + S1.size a ≤ S100000.size a
  hstage43_0 : ∀ j, (stage43_0 j).IsWhole
  nbuf43_0 : grid43.bufCount reads43_0 false = 2
  hreads43_0 : ∀ i i' : grid43.Coords, (∀ a, reads43_0 a = true → i a = i' a) → cc43_transform_1 i = cc43_transform_1 i'
  hinb43_0 : ∀ (i : grid43.Coords) a, (cc43_transform_1 i a + 1) * S8x1.size a ≤ S100000x1.size a
  hwx43_0 : ∀ i : grid43.Coords, EltTy.bits .f32 = 32 ∨ (Rect.block (s := S100000x1) S8x1.size (cc43_transform_1 i) (hinb43_0 i)).WholeWords (EltTy.packing .f32)
  hstage43_1 : ∀ j, (stage43_1 j).IsWhole
  nbuf43_1 : grid43.bufCount reads43_1 false = 2
  hreads43_1 : ∀ i i' : grid43.Coords, (∀ a, reads43_1 a = true → i a = i' a) → cc43_transform_2 i = cc43_transform_2 i'
  hinb43_1 : ∀ (i : grid43.Coords) a, (cc43_transform_2 i a + 1) * S8x64.size a ≤ S100000x64.size a
  hwx43_1 : ∀ i : grid43.Coords, EltTy.bits .f32 = 32 ∨ (Rect.block (s := S100000x64) S8x64.size (cc43_transform_2 i) (hinb43_1 i)).WholeWords (EltTy.packing .f32)

class K44.Facts₀ : Prop where
  hrank44 : 0 < grid44.rank
  k44_off1_inb : ∀ i : grid44.Coords, ∀ a, (k44_off1 i) a + S1.size a ≤ S100000.size a
  k44_off3_inb : ∀ i : grid44.Coords, ∀ a, (k44_off3 i) a + S1.size a ≤ S100000.size a
  k44_off5_inb : ∀ i : grid44.Coords, ∀ a, (k44_off5 i) a + S1.size a ≤ S100000.size a
  k44_off7_inb : ∀ i : grid44.Coords, ∀ a, (k44_off7 i) a + S1.size a ≤ S100000.size a
  k44_off9_inb : ∀ i : grid44.Coords, ∀ a, (k44_off9 i) a + S1.size a ≤ S100000.size a
  k44_off11_inb : ∀ i : grid44.Coords, ∀ a, (k44_off11 i) a + S1.size a ≤ S100000.size a
  k44_off13_inb : ∀ i : grid44.Coords, ∀ a, (k44_off13 i) a + S1.size a ≤ S100000.size a
  k44_off15_inb : ∀ i : grid44.Coords, ∀ a, (k44_off15 i) a + S1.size a ≤ S100000.size a
  hstage44_0 : ∀ j, (stage44_0 j).IsWhole
  nbuf44_0 : grid44.bufCount reads44_0 false = 2
  hreads44_0 : ∀ i i' : grid44.Coords, (∀ a, reads44_0 a = true → i a = i' a) → cc44_transform_1 i = cc44_transform_1 i'
  hinb44_0 : ∀ (i : grid44.Coords) a, (cc44_transform_1 i a + 1) * S8x1.size a ≤ S100000x1.size a
  hwx44_0 : ∀ i : grid44.Coords, EltTy.bits .f32 = 32 ∨ (Rect.block (s := S100000x1) S8x1.size (cc44_transform_1 i) (hinb44_0 i)).WholeWords (EltTy.packing .f32)
  hstage44_1 : ∀ j, (stage44_1 j).IsWhole
  nbuf44_1 : grid44.bufCount reads44_1 false = 2
  hreads44_1 : ∀ i i' : grid44.Coords, (∀ a, reads44_1 a = true → i a = i' a) → cc44_transform_2 i = cc44_transform_2 i'
  hinb44_1 : ∀ (i : grid44.Coords) a, (cc44_transform_2 i a + 1) * S8x64.size a ≤ S100000x64.size a
  hwx44_1 : ∀ i : grid44.Coords, EltTy.bits .f32 = 32 ∨ (Rect.block (s := S100000x64) S8x64.size (cc44_transform_2 i) (hinb44_1 i)).WholeWords (EltTy.packing .f32)

class K45.Facts₀ : Prop where
  hrank45 : 0 < grid45.rank
  k45_off1_inb : ∀ i : grid45.Coords, ∀ a, (k45_off1 i) a + S1.size a ≤ S100000.size a
  k45_off3_inb : ∀ i : grid45.Coords, ∀ a, (k45_off3 i) a + S1.size a ≤ S100000.size a
  k45_off5_inb : ∀ i : grid45.Coords, ∀ a, (k45_off5 i) a + S1.size a ≤ S100000.size a
  k45_off7_inb : ∀ i : grid45.Coords, ∀ a, (k45_off7 i) a + S1.size a ≤ S100000.size a
  k45_off9_inb : ∀ i : grid45.Coords, ∀ a, (k45_off9 i) a + S1.size a ≤ S100000.size a
  k45_off11_inb : ∀ i : grid45.Coords, ∀ a, (k45_off11 i) a + S1.size a ≤ S100000.size a
  k45_off13_inb : ∀ i : grid45.Coords, ∀ a, (k45_off13 i) a + S1.size a ≤ S100000.size a
  k45_off15_inb : ∀ i : grid45.Coords, ∀ a, (k45_off15 i) a + S1.size a ≤ S100000.size a
  hstage45_0 : ∀ j, (stage45_0 j).IsWhole
  nbuf45_0 : grid45.bufCount reads45_0 false = 2
  hreads45_0 : ∀ i i' : grid45.Coords, (∀ a, reads45_0 a = true → i a = i' a) → cc45_transform_1 i = cc45_transform_1 i'
  hinb45_0 : ∀ (i : grid45.Coords) a, (cc45_transform_1 i a + 1) * S8x1.size a ≤ S100000x1.size a
  hwx45_0 : ∀ i : grid45.Coords, EltTy.bits .f32 = 32 ∨ (Rect.block (s := S100000x1) S8x1.size (cc45_transform_1 i) (hinb45_0 i)).WholeWords (EltTy.packing .f32)
  hstage45_1 : ∀ j, (stage45_1 j).IsWhole
  nbuf45_1 : grid45.bufCount reads45_1 false = 2
  hreads45_1 : ∀ i i' : grid45.Coords, (∀ a, reads45_1 a = true → i a = i' a) → cc45_transform_2 i = cc45_transform_2 i'
  hinb45_1 : ∀ (i : grid45.Coords) a, (cc45_transform_2 i a + 1) * S8x64.size a ≤ S100000x64.size a
  hwx45_1 : ∀ i : grid45.Coords, EltTy.bits .f32 = 32 ∨ (Rect.block (s := S100000x64) S8x64.size (cc45_transform_2 i) (hinb45_1 i)).WholeWords (EltTy.packing .f32)

class K46.Facts₀ : Prop where
  hrank46 : 0 < grid46.rank
  k46_off1_inb : ∀ i : grid46.Coords, ∀ a, (k46_off1 i) a + S1.size a ≤ S100000.size a
  k46_off3_inb : ∀ i : grid46.Coords, ∀ a, (k46_off3 i) a + S1.size a ≤ S100000.size a
  k46_off5_inb : ∀ i : grid46.Coords, ∀ a, (k46_off5 i) a + S1.size a ≤ S100000.size a
  k46_off7_inb : ∀ i : grid46.Coords, ∀ a, (k46_off7 i) a + S1.size a ≤ S100000.size a
  k46_off9_inb : ∀ i : grid46.Coords, ∀ a, (k46_off9 i) a + S1.size a ≤ S100000.size a
  k46_off11_inb : ∀ i : grid46.Coords, ∀ a, (k46_off11 i) a + S1.size a ≤ S100000.size a
  k46_off13_inb : ∀ i : grid46.Coords, ∀ a, (k46_off13 i) a + S1.size a ≤ S100000.size a
  k46_off15_inb : ∀ i : grid46.Coords, ∀ a, (k46_off15 i) a + S1.size a ≤ S100000.size a
  hstage46_0 : ∀ j, (stage46_0 j).IsWhole
  nbuf46_0 : grid46.bufCount reads46_0 false = 2
  hreads46_0 : ∀ i i' : grid46.Coords, (∀ a, reads46_0 a = true → i a = i' a) → cc46_transform_1 i = cc46_transform_1 i'
  hinb46_0 : ∀ (i : grid46.Coords) a, (cc46_transform_1 i a + 1) * S8x1.size a ≤ S100000x1.size a
  hwx46_0 : ∀ i : grid46.Coords, EltTy.bits .f32 = 32 ∨ (Rect.block (s := S100000x1) S8x1.size (cc46_transform_1 i) (hinb46_0 i)).WholeWords (EltTy.packing .f32)
  hstage46_1 : ∀ j, (stage46_1 j).IsWhole
  nbuf46_1 : grid46.bufCount reads46_1 false = 2
  hreads46_1 : ∀ i i' : grid46.Coords, (∀ a, reads46_1 a = true → i a = i' a) → cc46_transform_2 i = cc46_transform_2 i'
  hinb46_1 : ∀ (i : grid46.Coords) a, (cc46_transform_2 i a + 1) * S8x64.size a ≤ S100000x64.size a
  hwx46_1 : ∀ i : grid46.Coords, EltTy.bits .f32 = 32 ∨ (Rect.block (s := S100000x64) S8x64.size (cc46_transform_2 i) (hinb46_1 i)).WholeWords (EltTy.packing .f32)

class K47.Facts₀ : Prop where
  hrank47 : 0 < grid47.rank
  k47_off1_inb : ∀ i : grid47.Coords, ∀ a, (k47_off1 i) a + S1.size a ≤ S100000.size a
  k47_off3_inb : ∀ i : grid47.Coords, ∀ a, (k47_off3 i) a + S1.size a ≤ S100000.size a
  k47_off5_inb : ∀ i : grid47.Coords, ∀ a, (k47_off5 i) a + S1.size a ≤ S100000.size a
  k47_off7_inb : ∀ i : grid47.Coords, ∀ a, (k47_off7 i) a + S1.size a ≤ S100000.size a
  k47_off9_inb : ∀ i : grid47.Coords, ∀ a, (k47_off9 i) a + S1.size a ≤ S100000.size a
  k47_off11_inb : ∀ i : grid47.Coords, ∀ a, (k47_off11 i) a + S1.size a ≤ S100000.size a
  k47_off13_inb : ∀ i : grid47.Coords, ∀ a, (k47_off13 i) a + S1.size a ≤ S100000.size a
  k47_off15_inb : ∀ i : grid47.Coords, ∀ a, (k47_off15 i) a + S1.size a ≤ S100000.size a
  hstage47_0 : ∀ j, (stage47_0 j).IsWhole
  nbuf47_0 : grid47.bufCount reads47_0 false = 2
  hreads47_0 : ∀ i i' : grid47.Coords, (∀ a, reads47_0 a = true → i a = i' a) → cc47_transform_1 i = cc47_transform_1 i'
  hinb47_0 : ∀ (i : grid47.Coords) a, (cc47_transform_1 i a + 1) * S8x1.size a ≤ S100000x1.size a
  hwx47_0 : ∀ i : grid47.Coords, EltTy.bits .f32 = 32 ∨ (Rect.block (s := S100000x1) S8x1.size (cc47_transform_1 i) (hinb47_0 i)).WholeWords (EltTy.packing .f32)
  hstage47_1 : ∀ j, (stage47_1 j).IsWhole
  nbuf47_1 : grid47.bufCount reads47_1 false = 2
  hreads47_1 : ∀ i i' : grid47.Coords, (∀ a, reads47_1 a = true → i a = i' a) → cc47_transform_2 i = cc47_transform_2 i'
  hinb47_1 : ∀ (i : grid47.Coords) a, (cc47_transform_2 i a + 1) * S8x64.size a ≤ S100000x64.size a
  hwx47_1 : ∀ i : grid47.Coords, EltTy.bits .f32 = 32 ∨ (Rect.block (s := S100000x64) S8x64.size (cc47_transform_2 i) (hinb47_1 i)).WholeWords (EltTy.packing .f32)

class K48.Facts₀ : Prop where
  hrank48 : 0 < grid48.rank
  k48_off1_inb : ∀ i : grid48.Coords, ∀ a, (k48_off1 i) a + S1.size a ≤ S100000.size a
  k48_off3_inb : ∀ i : grid48.Coords, ∀ a, (k48_off3 i) a + S1.size a ≤ S100000.size a
  k48_off5_inb : ∀ i : grid48.Coords, ∀ a, (k48_off5 i) a + S1.size a ≤ S100000.size a
  k48_off7_inb : ∀ i : grid48.Coords, ∀ a, (k48_off7 i) a + S1.size a ≤ S100000.size a
  k48_off9_inb : ∀ i : grid48.Coords, ∀ a, (k48_off9 i) a + S1.size a ≤ S100000.size a
  k48_off11_inb : ∀ i : grid48.Coords, ∀ a, (k48_off11 i) a + S1.size a ≤ S100000.size a
  k48_off13_inb : ∀ i : grid48.Coords, ∀ a, (k48_off13 i) a + S1.size a ≤ S100000.size a
  k48_off15_inb : ∀ i : grid48.Coords, ∀ a, (k48_off15 i) a + S1.size a ≤ S100000.size a
  hstage48_0 : ∀ j, (stage48_0 j).IsWhole
  nbuf48_0 : grid48.bufCount reads48_0 false = 2
  hreads48_0 : ∀ i i' : grid48.Coords, (∀ a, reads48_0 a = true → i a = i' a) → cc48_transform_1 i = cc48_transform_1 i'
  hinb48_0 : ∀ (i : grid48.Coords) a, (cc48_transform_1 i a + 1) * S8x1.size a ≤ S100000x1.size a
  hwx48_0 : ∀ i : grid48.Coords, EltTy.bits .f32 = 32 ∨ (Rect.block (s := S100000x1) S8x1.size (cc48_transform_1 i) (hinb48_0 i)).WholeWords (EltTy.packing .f32)
  hstage48_1 : ∀ j, (stage48_1 j).IsWhole
  nbuf48_1 : grid48.bufCount reads48_1 false = 2
  hreads48_1 : ∀ i i' : grid48.Coords, (∀ a, reads48_1 a = true → i a = i' a) → cc48_transform_2 i = cc48_transform_2 i'
  hinb48_1 : ∀ (i : grid48.Coords) a, (cc48_transform_2 i a + 1) * S8x64.size a ≤ S100000x64.size a
  hwx48_1 : ∀ i : grid48.Coords, EltTy.bits .f32 = 32 ∨ (Rect.block (s := S100000x64) S8x64.size (cc48_transform_2 i) (hinb48_1 i)).WholeWords (EltTy.packing .f32)

class Shapes1.Facts₀ : Prop where
  concatenates_S40000x64_S60000x64_S100000x64_d0 : Shape.Concatenates [S40000x64, S60000x64] S100000x64 0
  pads_S100000x64_S102400x64_024000_000 : S100000x64.Pads (![0, 0] : Fin 2 → Nat) ![2400, 0] ![0, 0] S102400x64
  h_S_ : 0 < S_.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  slices_S4096x64_o0_1_S4096x63 : S4096x64.Slices ![0, 1] S4096x63
  reduces_S4096x63_S4096 : S4096x63.Reduces [1] S4096
  shapeCasts_S4096_S4096x1 : S4096.ShapeCasts S4096x1
  broadcasts_S4096x1_S4096x63 : S4096x1.Broadcasts S4096x63
  concatenates_S4096x1_S4096x63_S4096x64_d1 : Shape.Concatenates [S4096x1, S4096x63] S4096x64 1
  slices_S102400x64_S100000x64_0_0 : S102400x64.Slices ![0, 0] S100000x64
  bcast_S_S100000x64 : S_.BroadcastsInDim S100000x64 (![] : Fin 0 → Fin S100000x64.rank)
  slices_S1600000_S100000_0 : S1600000.Slices ![0] S100000
  shapeCasts_S100000_S100000x1 : S100000.ShapeCasts S100000x1
  numel1_S1 : S1.numel = 1
  inb_S8_S1_0 : ∀ a, (![0] : Fin 1 → Nat) a + S1.size a ≤ S8.size a
  squeezes_S1_S_ : S1.Squeezes S_
  inb_S8x64_S1x64_0_0 : ∀ a, (![0, 0] : Fin 2 → Nat) a + S1x64.size a ≤ S8x64.size a
  squeezes_S1x64_S64 : S1x64.Squeezes S64
  inb_S8_S1_1 : ∀ a, (![1] : Fin 1 → Nat) a + S1.size a ≤ S8.size a
  inb_S8x64_S1x64_1_0 : ∀ a, (![1, 0] : Fin 2 → Nat) a + S1x64.size a ≤ S8x64.size a
  inb_S8_S1_2 : ∀ a, (![2] : Fin 1 → Nat) a + S1.size a ≤ S8.size a
  inb_S8x64_S1x64_2_0 : ∀ a, (![2, 0] : Fin 2 → Nat) a + S1x64.size a ≤ S8x64.size a
  inb_S8_S1_3 : ∀ a, (![3] : Fin 1 → Nat) a + S1.size a ≤ S8.size a
  inb_S8x64_S1x64_3_0 : ∀ a, (![3, 0] : Fin 2 → Nat) a + S1x64.size a ≤ S8x64.size a
  inb_S8_S1_4 : ∀ a, (![4] : Fin 1 → Nat) a + S1.size a ≤ S8.size a
  inb_S8x64_S1x64_4_0 : ∀ a, (![4, 0] : Fin 2 → Nat) a + S1x64.size a ≤ S8x64.size a
  inb_S8_S1_5 : ∀ a, (![5] : Fin 1 → Nat) a + S1.size a ≤ S8.size a
  inb_S8x64_S1x64_5_0 : ∀ a, (![5, 0] : Fin 2 → Nat) a + S1x64.size a ≤ S8x64.size a
  inb_S8_S1_6 : ∀ a, (![6] : Fin 1 → Nat) a + S1.size a ≤ S8.size a
  inb_S8x64_S1x64_6_0 : ∀ a, (![6, 0] : Fin 2 → Nat) a + S1x64.size a ≤ S8x64.size a
  inb_S8_S1_7 : ∀ a, (![7] : Fin 1 → Nat) a + S1.size a ≤ S8.size a
  inb_S8x64_S1x64_7_0 : ∀ a, (![7, 0] : Fin 2 → Nat) a + S1x64.size a ≤ S8x64.size a
  inb_S8x64_S8x64_0_0 : ∀ a, (![0, 0] : Fin 2 → Nat) a + S8x64.size a ≤ S8x64.size a
  h_S8x64 : 0 < S8x64.numel
  inb_S8x1_S8x1_0_0 : ∀ a, (![0, 0] : Fin 2 → Nat) a + S8x1.size a ≤ S8x1.size a
  h_S8x1 : 0 < S8x1.numel
  shapeCasts_S8x1_S8x1 : S8x1.ShapeCasts S8x1
  broadcasts_S8x1_S8x64 : S8x1.Broadcasts S8x64
  slices_S1600000_S100000_100000 : S1600000.Slices ![100000] S100000
  slices_S1600000_S100000_200000 : S1600000.Slices ![200000] S100000
  slices_S1600000_S100000_300000 : S1600000.Slices ![300000] S100000
  slices_S1600000_S100000_400000 : S1600000.Slices ![400000] S100000
  slices_S1600000_S100000_500000 : S1600000.Slices ![500000] S100000
  slices_S1600000_S100000_600000 : S1600000.Slices ![600000] S100000
  slices_S1600000_S100000_700000 : S1600000.Slices ![700000] S100000
  slices_S1600000_S100000_800000 : S1600000.Slices ![800000] S100000
  slices_S1600000_S100000_900000 : S1600000.Slices ![900000] S100000
  slices_S1600000_S100000_1000000 : S1600000.Slices ![1000000] S100000
  slices_S1600000_S100000_1100000 : S1600000.Slices ![1100000] S100000
  slices_S1600000_S100000_1200000 : S1600000.Slices ![1200000] S100000
  slices_S1600000_S100000_1300000 : S1600000.Slices ![1300000] S100000
  slices_S1600000_S100000_1400000 : S1600000.Slices ![1400000] S100000
  slices_S1600000_S100000_1500000 : S1600000.Slices ![1500000] S100000
  concatenates_S100000x64_S100000x64_S100000x64_S100000x64_S100000x64_S100000x64_S100000x64_S100000x64_S100000x64_S100000x64_S100000x64_S100000x64_S100000x64_S100000x64_S100000x64_S100000x64_S1600000x64_d0 : Shape.Concatenates [S100000x64, S100000x64, S100000x64, S100000x64, S100000x64, S100000x64, S100000x64, S100000x64, S100000x64, S100000x64, S100000x64, S100000x64, S100000x64, S100000x64, S100000x64, S100000x64] S1600000x64 0
  bcast_S1600000_S1600000x1_0 : S1600000.BroadcastsInDim S1600000x1 (![0] : Fin 1 → Fin S1600000x1.rank)
  slices_S100000x64_S40000x64_0_0 : S100000x64.Slices ![0, 0] S40000x64
  slices_S100000x64_S60000x64_40000_0 : S100000x64.Slices ![40000, 0] S60000x64
  bcast_S_S4096 : S_.BroadcastsInDim S4096 (![] : Fin 0 → Fin S4096.rank)
  bcast_S4096_S4096x1_0 : S4096.BroadcastsInDim S4096x1 (![0] : Fin 1 → Fin S4096x1.rank)
  scatter_S100000x64_S1600000x1_S1600000x64_1_0_0_1_wf : ScatterDims.WF S100000x64 S1600000x1 S1600000x64 [1] [0] [0] 1
  gather_S40000x64_S4096x1_S4096x64_1_0_n_n_0_1_164_wf : GatherDims.WF S40000x64 S4096x1 S4096x64 [1] [0] [] [0] [] 1 ![1, 64]
  gather_S60000x64_S4096x1_S4096x64_1_0_n_n_0_1_164_wf : GatherDims.WF S60000x64 S4096x1 S4096x64 [1] [0] [] [0] [] 1 ![1, 64]
  hcc1_scratch1 : 8 + S8.numel ≤ 580
  hcc2_scratch1 : 20 + S8.numel ≤ 580
  hcc3_scratch1 : 32 + S8.numel ≤ 580
  hcc4_scratch1 : 44 + S8.numel ≤ 580
  hcc5_scratch1 : 56 + S8.numel ≤ 580
  hcc6_scratch1 : 68 + S8.numel ≤ 580
  hcc7_scratch1 : 80 + S8.numel ≤ 580
  hcc8_scratch1 : 92 + S8.numel ≤ 580
  hcc9_scratch1 : 104 + S8.numel ≤ 580
  hcc10_scratch1 : 116 + S8.numel ≤ 580
  hcc11_scratch1 : 128 + S8.numel ≤ 580
  hcc12_scratch1 : 140 + S8.numel ≤ 580
  hcc13_scratch1 : 152 + S8.numel ≤ 580
  hcc14_scratch1 : 164 + S8.numel ≤ 580
  hcc15_scratch1 : 176 + S8.numel ≤ 580
  hcc16_scratch1 : 188 + S8.numel ≤ 580
  hcc17_scratch1 : 200 + S8.numel ≤ 580
  hcc18_scratch1 : 212 + S8.numel ≤ 580
  hcc19_scratch1 : 224 + S8.numel ≤ 580
  hcc20_scratch1 : 236 + S8.numel ≤ 580
  hcc21_scratch1 : 248 + S8.numel ≤ 580
  hcc22_scratch1 : 260 + S8.numel ≤ 580
  hcc23_scratch1 : 272 + S8.numel ≤ 580
  hcc24_scratch1 : 284 + S8.numel ≤ 580
  hcc25_scratch1 : 296 + S8.numel ≤ 580
  hcc26_scratch1 : 308 + S8.numel ≤ 580
  hcc27_scratch1 : 320 + S8.numel ≤ 580
  hcc28_scratch1 : 332 + S8.numel ≤ 580
  hcc29_scratch1 : 344 + S8.numel ≤ 580
  hcc30_scratch1 : 356 + S8.numel ≤ 580
  hcc31_scratch1 : 368 + S8.numel ≤ 580
  hcc32_scratch1 : 380 + S8.numel ≤ 580
  hcc33_scratch1 : 392 + S8.numel ≤ 580
  hcc34_scratch1 : 404 + S8.numel ≤ 580
  hcc35_scratch1 : 416 + S8.numel ≤ 580
  hcc36_scratch1 : 428 + S8.numel ≤ 580
  hcc37_scratch1 : 440 + S8.numel ≤ 580
  hcc38_scratch1 : 452 + S8.numel ≤ 580
  hcc39_scratch1 : 464 + S8.numel ≤ 580
  hcc40_scratch1 : 476 + S8.numel ≤ 580
  hcc41_scratch1 : 488 + S8.numel ≤ 580
  hcc42_scratch1 : 500 + S8.numel ≤ 580
  hcc43_scratch1 : 512 + S8.numel ≤ 580
  hcc44_scratch1 : 524 + S8.numel ≤ 580
  hcc45_scratch1 : 536 + S8.numel ≤ 580
  hcc46_scratch1 : 548 + S8.numel ≤ 580
  hcc47_scratch1 : 560 + S8.numel ≤ 580
  hcc48_scratch1 : 572 + S8.numel ≤ 580

class Facts₀ : Prop where
  k0 : K0.Facts₀
  k1 : K1.Facts₀
  k2 : K2.Facts₀
  k3 : K3.Facts₀
  k4 : K4.Facts₀
  k5 : K5.Facts₀
  k6 : K6.Facts₀
  k7 : K7.Facts₀
  k8 : K8.Facts₀
  k9 : K9.Facts₀
  k10 : K10.Facts₀
  k11 : K11.Facts₀
  k12 : K12.Facts₀
  k13 : K13.Facts₀
  k14 : K14.Facts₀
  k15 : K15.Facts₀
  k16 : K16.Facts₀
  k17 : K17.Facts₀
  k18 : K18.Facts₀
  k19 : K19.Facts₀
  k20 : K20.Facts₀
  k21 : K21.Facts₀
  k22 : K22.Facts₀
  k23 : K23.Facts₀
  k24 : K24.Facts₀
  k25 : K25.Facts₀
  k26 : K26.Facts₀
  k27 : K27.Facts₀
  k28 : K28.Facts₀
  k29 : K29.Facts₀
  k30 : K30.Facts₀
  k31 : K31.Facts₀
  k32 : K32.Facts₀
  k33 : K33.Facts₀
  k34 : K34.Facts₀
  k35 : K35.Facts₀
  k36 : K36.Facts₀
  k37 : K37.Facts₀
  k38 : K38.Facts₀
  k39 : K39.Facts₀
  k40 : K40.Facts₀
  k41 : K41.Facts₀
  k42 : K42.Facts₀
  k43 : K43.Facts₀
  k44 : K44.Facts₀
  k45 : K45.Facts₀
  k46 : K46.Facts₀
  k47 : K47.Facts₀
  k48 : K48.Facts₀
  shapes1 : Shapes1.Facts₀
attribute [instance] Facts₀.k0 Facts₀.k1 Facts₀.k2 Facts₀.k3 Facts₀.k4 Facts₀.k5 Facts₀.k6 Facts₀.k7 Facts₀.k8 Facts₀.k9 Facts₀.k10 Facts₀.k11 Facts₀.k12 Facts₀.k13 Facts₀.k14 Facts₀.k15 Facts₀.k16 Facts₀.k17 Facts₀.k18 Facts₀.k19 Facts₀.k20 Facts₀.k21 Facts₀.k22 Facts₀.k23 Facts₀.k24 Facts₀.k25 Facts₀.k26 Facts₀.k27 Facts₀.k28 Facts₀.k29 Facts₀.k30 Facts₀.k31 Facts₀.k32 Facts₀.k33 Facts₀.k34 Facts₀.k35 Facts₀.k36 Facts₀.k37 Facts₀.k38 Facts₀.k39 Facts₀.k40 Facts₀.k41 Facts₀.k42 Facts₀.k43 Facts₀.k44 Facts₀.k45 Facts₀.k46 Facts₀.k47 Facts₀.k48 Facts₀.shapes1

variable [Facts₀]

abbrev cc1_scratch1 : DmaSems sig S8 := SemArray.consecutive 8 S8 hcc1_scratch1
abbrev cc2_scratch1 : DmaSems sig S8 := SemArray.consecutive 20 S8 hcc2_scratch1
abbrev cc3_scratch1 : DmaSems sig S8 := SemArray.consecutive 32 S8 hcc3_scratch1
abbrev cc4_scratch1 : DmaSems sig S8 := SemArray.consecutive 44 S8 hcc4_scratch1
abbrev cc5_scratch1 : DmaSems sig S8 := SemArray.consecutive 56 S8 hcc5_scratch1
abbrev cc6_scratch1 : DmaSems sig S8 := SemArray.consecutive 68 S8 hcc6_scratch1
abbrev cc7_scratch1 : DmaSems sig S8 := SemArray.consecutive 80 S8 hcc7_scratch1
abbrev cc8_scratch1 : DmaSems sig S8 := SemArray.consecutive 92 S8 hcc8_scratch1
abbrev cc9_scratch1 : DmaSems sig S8 := SemArray.consecutive 104 S8 hcc9_scratch1
abbrev cc10_scratch1 : DmaSems sig S8 := SemArray.consecutive 116 S8 hcc10_scratch1
abbrev cc11_scratch1 : DmaSems sig S8 := SemArray.consecutive 128 S8 hcc11_scratch1
abbrev cc12_scratch1 : DmaSems sig S8 := SemArray.consecutive 140 S8 hcc12_scratch1
abbrev cc13_scratch1 : DmaSems sig S8 := SemArray.consecutive 152 S8 hcc13_scratch1
abbrev cc14_scratch1 : DmaSems sig S8 := SemArray.consecutive 164 S8 hcc14_scratch1
abbrev cc15_scratch1 : DmaSems sig S8 := SemArray.consecutive 176 S8 hcc15_scratch1
abbrev cc16_scratch1 : DmaSems sig S8 := SemArray.consecutive 188 S8 hcc16_scratch1
abbrev cc17_scratch1 : DmaSems sig S8 := SemArray.consecutive 200 S8 hcc17_scratch1
abbrev cc18_scratch1 : DmaSems sig S8 := SemArray.consecutive 212 S8 hcc18_scratch1
abbrev cc19_scratch1 : DmaSems sig S8 := SemArray.consecutive 224 S8 hcc19_scratch1
abbrev cc20_scratch1 : DmaSems sig S8 := SemArray.consecutive 236 S8 hcc20_scratch1
abbrev cc21_scratch1 : DmaSems sig S8 := SemArray.consecutive 248 S8 hcc21_scratch1
abbrev cc22_scratch1 : DmaSems sig S8 := SemArray.consecutive 260 S8 hcc22_scratch1
abbrev cc23_scratch1 : DmaSems sig S8 := SemArray.consecutive 272 S8 hcc23_scratch1
abbrev cc24_scratch1 : DmaSems sig S8 := SemArray.consecutive 284 S8 hcc24_scratch1
abbrev cc25_scratch1 : DmaSems sig S8 := SemArray.consecutive 296 S8 hcc25_scratch1
abbrev cc26_scratch1 : DmaSems sig S8 := SemArray.consecutive 308 S8 hcc26_scratch1
abbrev cc27_scratch1 : DmaSems sig S8 := SemArray.consecutive 320 S8 hcc27_scratch1
abbrev cc28_scratch1 : DmaSems sig S8 := SemArray.consecutive 332 S8 hcc28_scratch1
abbrev cc29_scratch1 : DmaSems sig S8 := SemArray.consecutive 344 S8 hcc29_scratch1
abbrev cc30_scratch1 : DmaSems sig S8 := SemArray.consecutive 356 S8 hcc30_scratch1
abbrev cc31_scratch1 : DmaSems sig S8 := SemArray.consecutive 368 S8 hcc31_scratch1
abbrev cc32_scratch1 : DmaSems sig S8 := SemArray.consecutive 380 S8 hcc32_scratch1
abbrev cc33_scratch1 : DmaSems sig S8 := SemArray.consecutive 392 S8 hcc33_scratch1
abbrev cc34_scratch1 : DmaSems sig S8 := SemArray.consecutive 404 S8 hcc34_scratch1
abbrev cc35_scratch1 : DmaSems sig S8 := SemArray.consecutive 416 S8 hcc35_scratch1
abbrev cc36_scratch1 : DmaSems sig S8 := SemArray.consecutive 428 S8 hcc36_scratch1
abbrev cc37_scratch1 : DmaSems sig S8 := SemArray.consecutive 440 S8 hcc37_scratch1
abbrev cc38_scratch1 : DmaSems sig S8 := SemArray.consecutive 452 S8 hcc38_scratch1
abbrev cc39_scratch1 : DmaSems sig S8 := SemArray.consecutive 464 S8 hcc39_scratch1
abbrev cc40_scratch1 : DmaSems sig S8 := SemArray.consecutive 476 S8 hcc40_scratch1
abbrev cc41_scratch1 : DmaSems sig S8 := SemArray.consecutive 488 S8 hcc41_scratch1
abbrev cc42_scratch1 : DmaSems sig S8 := SemArray.consecutive 500 S8 hcc42_scratch1
abbrev cc43_scratch1 : DmaSems sig S8 := SemArray.consecutive 512 S8 hcc43_scratch1
abbrev cc44_scratch1 : DmaSems sig S8 := SemArray.consecutive 524 S8 hcc44_scratch1
abbrev cc45_scratch1 : DmaSems sig S8 := SemArray.consecutive 536 S8 hcc45_scratch1
abbrev cc46_scratch1 : DmaSems sig S8 := SemArray.consecutive 548 S8 hcc46_scratch1
abbrev cc47_scratch1 : DmaSems sig S8 := SemArray.consecutive 560 S8 hcc47_scratch1
abbrev cc48_scratch1 : DmaSems sig S8 := SemArray.consecutive 572 S8 hcc48_scratch1
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S40000x64_S4096x1_S4096x64_1_0_n_n_0_1_164 : GatherDims S40000x64 S4096x1 S4096x64 where
  offsetDims := [1]
  collapsedSliceDims := [0]
  operandBatchingDims := []
  startIndicesBatchingDims := []
  startIndexMap := [0]
  indexVectorDim := 1
  sliceSizes := ![1, 64]
  wf := gather_S40000x64_S4096x1_S4096x64_1_0_n_n_0_1_164_wf
def gather_S60000x64_S4096x1_S4096x64_1_0_n_n_0_1_164 : GatherDims S60000x64 S4096x1 S4096x64 where
  offsetDims := [1]
  collapsedSliceDims := [0]
  operandBatchingDims := []
  startIndicesBatchingDims := []
  startIndexMap := [0]
  indexVectorDim := 1
  sliceSizes := ![1, 64]
  wf := gather_S60000x64_S4096x1_S4096x64_1_0_n_n_0_1_164_wf

abbrev win0_0 : Pipeline.Window sig grid0 :=
  Pipeline.Window.ofSpec (Memref.whole main_v1) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev spec1_0 : Pipeline.WinSpec sig grid1.rank :=
  Pipeline.WinSpec.ofSpec (Memref.whole main_v7) S8x1.size reads1_0 false false 2 stage1_0 sem1_0 nbuf1_0 hstage1_0

abbrev spec1_1 : Pipeline.WinSpec sig grid1.rank :=
  Pipeline.WinSpec.ofSpec (Memref.whole main_v8) S8x64.size reads1_1 true false 2 stage1_1 sem1_1 nbuf1_1 hstage1_1

abbrev spec1 : Fin 2 → Pipeline.WinSpec sig grid1.rank := fun | 0 => spec1_0 | 1 => spec1_1 | ⟨_ + 2, h⟩ => absurd h (Nat.not_lt.2 (Nat.le_add_left _ _))
theorem hcount1 : ∀ w, grid1.bufCount (spec1 w).reads (spec1 w).sync = (spec1 w).nbuf := fun | 0 => nbuf1_0 | 1 => nbuf1_1 | ⟨_ + 2, h⟩ => absurd h (Nat.not_lt.2 (Nat.le_add_left _ _))
abbrev ix1 (pf : pre1.Contents (Elt F)) : (w : Fin 2) → grid1.Coords → Fin (spec1 w).shape.rank → Nat := fun | 0 => cc1_transform_1 | 1 => cc1_transform_2 | ⟨_ + 2, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | ⟨_ + 2, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | ⟨_ + 2, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | ⟨_ + 2, h⟩ => absurd h (Nat.not_lt.2 (Nat.le_add_left _ _))
abbrev spec2_0 : Pipeline.WinSpec sig grid2.rank :=
  Pipeline.WinSpec.ofSpec (Memref.whole main_v11) S8x1.size reads2_0 false false 2 stage2_0 sem2_0 nbuf2_0 hstage2_0

abbrev spec2_1 : Pipeline.WinSpec sig grid2.rank :=
  Pipeline.WinSpec.ofSpec (Memref.whole main_v12) S8x64.size reads2_1 true false 2 stage2_1 sem2_1 nbuf2_1 hstage2_1

abbrev spec2 : Fin 2 → Pipeline.WinSpec sig grid2.rank := fun | 0 => spec2_0 | 1 => spec2_1 | ⟨_ + 2, h⟩ => absurd h (Nat.not_lt.2 (Nat.le_add_left _ _))
theorem hcount2 : ∀ w, grid2.bufCount (spec2 w).reads (spec2 w).sync = (spec2 w).nbuf := fun | 0 => nbuf2_0 | 1 => nbuf2_1 | ⟨_ + 2, h⟩ => absurd h (Nat.not_lt.2 (Nat.le_add_left _ _))
abbrev ix2 (pf : pre2.Contents (Elt F)) : (w : Fin 2) → grid2.Coords → Fin (spec2 w).shape.rank → Nat := fun | 0 => cc2_transform_1 | 1 => cc2_transform_2 | ⟨_ + 2, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 | 1 => hreads2_1 | ⟨_ + 2, h⟩ => absurd h (Nat.not_lt.2 (Nat.le_add_left _ _))
def ok2 (_ : pre2.Contents (Elt F)) : Prop :=
  True
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun _ _ => fun | 0 => hinb2_0 | 1 => hinb2_1 | ⟨_ + 2, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun _ _ => fun | 0 => hwx2_0 | 1 => hwx2_1 | ⟨_ + 2, h⟩ => absurd h (Nat.not_lt.2 (Nat.le_add_left _ _))
abbrev spec3_0 : Pipeline.WinSpec sig grid3.rank :=
  Pipeline.WinSpec.ofSpec (Memref.whole main_v15) S8x1.size reads3_0 false false 2 stage3_0 sem3_0 nbuf3_0 hstage3_0

abbrev spec3_1 : Pipeline.WinSpec sig grid3.rank :=
  Pipeline.WinSpec.ofSpec (Memref.whole main_v16) S8x64.size reads3_1 true false 2 stage3_1 sem3_1 nbuf3_1 hstage3_1

abbrev spec3 : Fin 2 → Pipeline.WinSpec sig grid3.rank := fun | 0 => spec3_0 | 1 => spec3_1 | ⟨_ + 2, h⟩ => absurd h (Nat.not_lt.2 (Nat.le_add_left _ _))
theorem hcount3 : ∀ w, grid3.bufCount (spec3 w).reads (spec3 w).sync = (spec3 w).nbuf := fun | 0 => nbuf3_0 | 1 => nbuf3_1 | ⟨_ + 2, h⟩ => absurd h (Nat.not_lt.2 (Nat.le_add_left _ _))
abbrev ix3 (pf : pre3.Contents (Elt F)) : (w : Fin 2) → grid3.Coords → Fin (spec3 w).shape.rank → Nat := fun | 0 => cc3_transform_1 | 1 => cc3_transform_2 | ⟨_ + 2, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 | 1 => hreads3_1 | ⟨_ + 2, h⟩ => absurd h (Nat.not_lt.2 (Nat.le_add_left _ _))
def ok3 (_ : pre3.Contents (Elt F)) : Prop :=
  True
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun _ _ => fun | 0 => hinb3_0 | 1 => hinb3_1 | ⟨_ + 2, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun _ _ => fun | 0 => hwx3_0 | 1 => hwx3_1 | ⟨_ + 2, h⟩ => absurd h (Nat.not_lt.2 (Nat.le_add_left _ _))
abbrev spec4_0 : Pipeline.WinSpec sig grid4.rank :=
  Pipeline.WinSpec.ofSpec (Memref.whole main_v19) S8x1.size reads4_0 false false 2 stage4_0 sem4_0 nbuf4_0 hstage4_0

abbrev spec4_1 : Pipeline.WinSpec sig grid4.rank :=
  Pipeline.WinSpec.ofSpec (Memref.whole main_v20) S8x64.size reads4_1 true false 2 stage4_1 sem4_1 nbuf4_1 hstage4_1

abbrev spec4 : Fin 2 → Pipeline.WinSpec sig grid4.rank := fun | 0 => spec4_0 | 1 => spec4_1 | ⟨_ + 2, h⟩ => absurd h (Nat.not_lt.2 (Nat.le_add_left _ _))
theorem hcount4 : ∀ w, grid4.bufCount (spec4 w).reads (spec4 w).sync = (spec4 w).nbuf := fun | 0 => nbuf4_0 | 1 => nbuf4_1 | ⟨_ + 2, h⟩ => absurd h (Nat.not_lt.2 (Nat.le_add_left _ _))
abbrev ix4 (pf : pre4.Contents (Elt F)) : (w : Fin 2) → grid4.Coords → Fin (spec4 w).shape.rank → Nat := fun | 0 => cc4_transform_1 | 1 => cc4_transform_2 | ⟨_ + 2, h⟩ => absurd h (Nat.not_lt.2 (Nat.le_add_left _ _))
theorem hreads4 : ∀ (pf : pre4.Contents (Elt F)) w (i i' : grid4.Coords), (∀ a, (spec4 w).reads a = true → i a = i' a) → ix4 pf w i = ix4 pf w i' := fun pf => fun | 0 => hreads4_0 | 1 => hreads4_1 | ⟨_ + 2, h⟩ => absurd h (Nat.not_lt.2 (Nat.le_add_left _ _))
def ok4 (_ : pre4.Contents (Elt F)) : Prop :=
  True
instance (pf : pre4.Contents (Elt F)) : Decidable (ok4 pf) := decidable_of_iff' _ (Iff.of_eq (ok4.eq_1 pf))
theorem hinb4 : ∀ (pf : pre4.Contents (Elt F)), ok4 pf → ∀ w (i : grid4.Coords) a, (ix4 pf w i a + 1) * (spec4 w).size a ≤ (spec4 w).shape.size a :=
  fun _ _ => fun | 0 => hinb4_0 | 1 => hinb4_1 | ⟨_ + 2, h⟩ => absurd h (Nat.not_lt.2 (Nat.le_add_left _ _))
theorem hwx4 : ∀ (pf : pre4.Contents (Elt F)) (hok : ok4 pf) w (i : grid4.Coords), (spec4 w).elt.bits = 32 ∨ (Rect.block (spec4 w).size (ix4 pf w i) (hinb4 pf hok w i)).WholeWords (spec4 w).elt.packing :=
  fun _ _ => fun | 0 => hwx4_0 | 1 => hwx4_1 | ⟨_ + 2, h⟩ => absurd h (Nat.not_lt.2 (Nat.le_add_left _ _))
abbrev spec5_0 : Pipeline.WinSpec sig grid5.rank :=
  Pipeline.WinSpec.ofSpec (Memref.whole main_v23) S8x1.size reads5_0 false false 2 stage5_0 sem5_0 nbuf5_0 hstage5_0

abbrev spec5_1 : Pipeline.WinSpec sig grid5.rank :=
  Pipeline.WinSpec.ofSpec (Memref.whole main_v24) S8x64.size reads5_1 true false 2 stage5_1 sem5_1 nbuf5_1 hstage5_1

abbrev spec5 : Fin 2 → Pipeline.WinSpec sig grid5.rank := fun | 0 => spec5_0 | 1 => spec5_1 | ⟨_ + 2, h⟩ => absurd h (Nat.not_lt.2 (Nat.le_add_left _ _))
theorem hcount5 : ∀ w, grid5.bufCount (spec5 w).reads (spec5 w).sync = (spec5 w).nbuf := fun | 0 => nbuf5_0 | 1 => nbuf5_1 | ⟨_ + 2, h⟩ => absurd h (Nat.not_lt.2 (Nat.le_add_left _ _))
abbrev ix5 (pf : pre5.Contents (Elt F)) : (w : Fin 2) → grid5.Coords → Fin (spec5 w).shape.rank → Nat := fun | 0 => cc5_transform_1 | 1 => cc5_transform_2 | ⟨_ + 2, h⟩ => absurd h (Nat.not_lt.2 (Nat.le_add_left _ _))
theorem hreads5 : ∀ (pf : pre5.Contents (Elt F)) w (i i' : grid5.Coords), (∀ a, (spec5 w).reads a = true → i a = i' a) → ix5 pf w i = ix5 pf w i' := fun pf => fun | 0 => hreads5_0 | 1 => hreads5_1 | ⟨_ + 2, h⟩ => absurd h (Nat.not_lt.2 (Nat.le_add_left _ _))
def ok5 (_ : pre5.Contents (Elt F)) : Prop :=
  True
instance (pf : pre5.Contents (Elt F)) : Decidable (ok5 pf) := decidable_of_iff' _ (Iff.of_eq (ok5.eq_1 pf))
theorem hinb5 : ∀ (pf : pre5.Contents (Elt F)), ok5 pf → ∀ w (i : grid5.Coords) a, (ix5 pf w i a + 1) * (spec5 w).size a ≤ (spec5 w).shape.size a :=
  fun _ _ => fun | 0 => hinb5_0 | 1 => hinb5_1 | ⟨_ + 2, h⟩ => absurd h (Nat.not_lt.2 (Nat.le_add_left _ _))
theorem hwx5 : ∀ (pf : pre5.Contents (Elt F)) (hok : ok5 pf) w (i : grid5.Coords), (spec5 w).elt.bits = 32 ∨ (Rect.block (spec5 w).size (ix5 pf w i) (hinb5 pf hok w i)).WholeWords (spec5 w).elt.packing :=
  fun _ _ => fun | 0 => hwx5_0 | 1 => hwx5_1 | ⟨_ + 2, h⟩ => absurd h (Nat.not_lt.2 (Nat.le_add_left _ _))
abbrev spec6_0 : Pipeline.WinSpec sig grid6.rank :=
  Pipeline.WinSpec.ofSpec (Memref.whole main_v27) S8x1.size reads6_0 false false 2 stage6_0 sem6_0 nbuf6_0 hstage6_0

abbrev spec6_1 : Pipeline.WinSpec sig grid6.rank :=
  Pipeline.WinSpec.ofSpec (Memref.whole main_v28) S8x64.size reads6_1 true false 2 stage6_1 sem6_1 nbuf6_1 hstage6_1

abbrev spec6 : Fin 2 → Pipeline.WinSpec sig grid6.rank := fun | 0 => spec6_0 | 1 => spec6_1 | ⟨_ + 2, h⟩ => absurd h (Nat.not_lt.2 (Nat.le_add_left _ _))
theorem hcount6 : ∀ w, grid6.bufCount (spec6 w).reads (spec6 w).sync = (spec6 w).nbuf := fun | 0 => nbuf6_0 | 1 => nbuf6_1 | ⟨_ + 2, h⟩ => absurd h (Nat.not_lt.2 (Nat.le_add_left _ _))
abbrev ix6 (pf : pre6.Contents (Elt F)) : (w : Fin 2) → grid6.Coords → Fin (spec6 w).shape.rank → Nat := fun | 0 => cc6_transform_1 | 1 => cc6_transform_2 | ⟨_ + 2, h⟩ => absurd h (Nat.not_lt.2 (Nat.le_add_left _ _))
theorem hreads6 : ∀ (pf : pre6.Contents (Elt F)) w (i i' : grid6.Coords), (∀ a, (spec6 w).reads a = true → i a = i' a) → ix6 pf w i = ix6 pf w i' := fun pf => fun | 0 => hreads6_0 | 1 => hreads6_1 | ⟨_ + 2, h⟩ => absurd h (Nat.not_lt.2 (Nat.le_add_left _ _))
def ok6 (_ : pre6.Contents (Elt F)) : Prop :=
  True
instance (pf : pre6.Contents (Elt F)) : Decidable (ok6 pf) := decidable_of_iff' _ (Iff.of_eq (ok6.eq_1 pf))
theorem hinb6 : ∀ (pf : pre6.Contents (Elt F)), ok6 pf → ∀ w (i : grid6.Coords) a, (ix6 pf w i a + 1) * (spec6 w).size a ≤ (spec6 w).shape.size a :=
  fun _ _ => fun | 0 => hinb6_0 | 1 => hinb6_1 | ⟨_ + 2, h⟩ => absurd h (Nat.not_lt.2 (Nat.le_add_left _ _))
theorem hwx6 : ∀ (pf : pre6.Contents (Elt F)) (hok : ok6 pf) w (i : grid6.Coords), (spec6 w).elt.bits = 32 ∨ (Rect.block (spec6 w).size (ix6 pf w i) (hinb6 pf hok w i)).WholeWords (spec6 w).elt.packing :=
  fun _ _ => fun | 0 => hwx6_0 | 1 => hwx6_1 | ⟨_ + 2, h⟩ => absurd h (Nat.not_lt.2 (Nat.le_add_left _ _))
abbrev spec7_0 : Pipeline.WinSpec sig grid7.rank :=
  Pipeline.WinSpec.ofSpec (Memref.whole main_v31) S8x1.size reads7_0 false false 2 stage7_0 sem7_0 nbuf7_0 hstage7_0

abbrev spec7_1 : Pipeline.WinSpec sig grid7.rank :=
  Pipeline.WinSpec.ofSpec (Memref.whole main_v32) S8x64.size reads7_1 true false 2 stage7_1 sem7_1 nbuf7_1 hstage7_1

abbrev spec7 : Fin 2 → Pipeline.WinSpec sig grid7.rank := fun | 0 => spec7_0 | 1 => spec7_1 | ⟨_ + 2, h⟩ => absurd h (Nat.not_lt.2 (Nat.le_add_left _ _))
theorem hcount7 : ∀ w, grid7.bufCount (spec7 w).reads (spec7 w).sync = (spec7 w).nbuf := fun | 0 => nbuf7_0 | 1 => nbuf7_1 | ⟨_ + 2, h⟩ => absurd h (Nat.not_lt.2 (Nat.le_add_left _ _))
abbrev ix7 (pf : pre7.Contents (Elt F)) : (w : Fin 2) → grid7.Coords → Fin (spec7 w).shape.rank → Nat := fun | 0 => cc7_transform_1 | 1 => cc7_transform_2 | ⟨_ + 2, h⟩ => absurd h (Nat.not_lt.2 (Nat.le_add_left _ _))
theorem hreads7 : ∀ (pf : pre7.Contents (Elt F)) w (i i' : grid7.Coords), (∀ a, (spec7 w).reads a = true → i a = i' a) → ix7 pf w i = ix7 pf w i' := fun pf => fun | 0 => hreads7_0 | 1 => hreads7_1 | ⟨_ + 2, h⟩ => absurd h (Nat.not_lt.2 (Nat.le_add_left _ _))
def ok7 (_ : pre7.Contents (Elt F)) : Prop :=
  True
instance (pf : pre7.Contents (Elt F)) : Decidable (ok7 pf) := decidable_of_iff' _ (Iff.of_eq (ok7.eq_1 pf))
theorem hinb7 : ∀ (pf : pre7.Contents (Elt F)), ok7 pf → ∀ w (i : grid7.Coords) a, (ix7 pf w i a + 1) * (spec7 w).size a ≤ (spec7 w).shape.size a :=
  fun _ _ => fun | 0 => hinb7_0 | 1 => hinb7_1 | ⟨_ + 2, h⟩ => absurd h (Nat.not_lt.2 (Nat.le_add_left _ _))
theorem hwx7 : ∀ (pf : pre7.Contents (Elt F)) (hok : ok7 pf) w (i : grid7.Coords), (spec7 w).elt.bits = 32 ∨ (Rect.block (spec7 w).size (ix7 pf w i) (hinb7 pf hok w i)).WholeWords (spec7 w).elt.packing :=
  fun _ _ => fun | 0 => hwx7_0 | 1 => hwx7_1 | ⟨_ + 2, h⟩ => absurd h (Nat.not_lt.2 (Nat.le_add_left _ _))
abbrev spec8_0 : Pipeline.WinSpec sig grid8.rank :=
  Pipeline.WinSpec.ofSpec (Memref.whole main_v35) S8x1.size reads8_0 false false 2 stage8_0 sem8_0 nbuf8_0 hstage8_0

abbrev spec8_1 : Pipeline.WinSpec sig grid8.rank :=
  Pipeline.WinSpec.ofSpec (Memref.whole main_v36) S8x64.size reads8_1 true false 2 stage8_1 sem8_1 nbuf8_1 hstage8_1

abbrev spec8 : Fin 2 → Pipeline.WinSpec sig grid8.rank := fun | 0 => spec8_0 | 1 => spec8_1 | ⟨_ + 2, h⟩ => absurd h (Nat.not_lt.2 (Nat.le_add_left _ _))
theorem hcount8 : ∀ w, grid8.bufCount (spec8 w).reads (spec8 w).sync = (spec8 w).nbuf := fun | 0 => nbuf8_0 | 1 => nbuf8_1 | ⟨_ + 2, h⟩ => absurd h (Nat.not_lt.2 (Nat.le_add_left _ _))
abbrev ix8 (pf : pre8.Contents (Elt F)) : (w : Fin 2) → grid8.Coords → Fin (spec8 w).shape.rank → Nat := fun | 0 => cc8_transform_1 | 1 => cc8_transform_2 | ⟨_ + 2, h⟩ => absurd h (Nat.not_lt.2 (Nat.le_add_left _ _))
theorem hreads8 : ∀ (pf : pre8.Contents (Elt F)) w (i i' : grid8.Coords), (∀ a, (spec8 w).reads a = true → i a = i' a) → ix8 pf w i = ix8 pf w i' := fun pf => fun | 0 => hreads8_0 | 1 => hreads8_1 | ⟨_ + 2, h⟩ => absurd h (Nat.not_lt.2 (Nat.le_add_left _ _))
def ok8 (_ : pre8.Contents (Elt F)) : Prop :=
  True
instance (pf : pre8.Contents (Elt F)) : Decidable (ok8 pf) := decidable_of_iff' _ (Iff.of_eq (ok8.eq_1 pf))
theorem hinb8 : ∀ (pf : pre8.Contents (Elt F)), ok8 pf → ∀ w (i : grid8.Coords) a, (ix8 pf w i a + 1) * (spec8 w).size a ≤ (spec8 w).shape.size a :=
  fun _ _ => fun | 0 => hinb8_0 | 1 => hinb8_1 | ⟨_ + 2, h⟩ => absurd h (Nat.not_lt.2 (Nat.le_add_left _ _))
theorem hwx8 : ∀ (pf : pre8.Contents (Elt F)) (hok : ok8 pf) w (i : grid8.Coords), (spec8 w).elt.bits = 32 ∨ (Rect.block (spec8 w).size (ix8 pf w i) (hinb8 pf hok w i)).WholeWords (spec8 w).elt.packing :=
  fun _ _ => fun | 0 => hwx8_0 | 1 => hwx8_1 | ⟨_ + 2, h⟩ => absurd h (Nat.not_lt.2 (Nat.le_add_left _ _))
abbrev spec9_0 : Pipeline.WinSpec sig grid9.rank :=
  Pipeline.WinSpec.ofSpec (Memref.whole main_v39) S8x1.size reads9_0 false false 2 stage9_0 sem9_0 nbuf9_0 hstage9_0

abbrev spec9_1 : Pipeline.WinSpec sig grid9.rank :=
  Pipeline.WinSpec.ofSpec (Memref.whole main_v40) S8x64.size reads9_1 true false 2 stage9_1 sem9_1 nbuf9_1 hstage9_1

abbrev spec9 : Fin 2 → Pipeline.WinSpec sig grid9.rank := fun | 0 => spec9_0 | 1 => spec9_1 | ⟨_ + 2, h⟩ => absurd h (Nat.not_lt.2 (Nat.le_add_left _ _))
theorem hcount9 : ∀ w, grid9.bufCount (spec9 w).reads (spec9 w).sync = (spec9 w).nbuf := fun | 0 => nbuf9_0 | 1 => nbuf9_1 | ⟨_ + 2, h⟩ => absurd h (Nat.not_lt.2 (Nat.le_add_left _ _))
abbrev ix9 (pf : pre9.Contents (Elt F)) : (w : Fin 2) → grid9.Coords → Fin (spec9 w).shape.rank → Nat := fun | 0 => cc9_transform_1 | 1 => cc9_transform_2 | ⟨_ + 2, h⟩ => absurd h (Nat.not_lt.2 (Nat.le_add_left _ _))
theorem hreads9 : ∀ (pf : pre9.Contents (Elt F)) w (i i' : grid9.Coords), (∀ a, (spec9 w).reads a = true → i a = i' a) → ix9 pf w i = ix9 pf w i' := fun pf => fun | 0 => hreads9_0 | 1 => hreads9_1 | ⟨_ + 2, h⟩ => absurd h (Nat.not_lt.2 (Nat.le_add_left _ _))
def ok9 (_ : pre9.Contents (Elt F)) : Prop :=
  True
instance (pf : pre9.Contents (Elt F)) : Decidable (ok9 pf) := decidable_of_iff' _ (Iff.of_eq (ok9.eq_1 pf))
theorem hinb9 : ∀ (pf : pre9.Contents (Elt F)), ok9 pf → ∀ w (i : grid9.Coords) a, (ix9 pf w i a + 1) * (spec9 w).size a ≤ (spec9 w).shape.size a :=
  fun _ _ => fun | 0 => hinb9_0 | 1 => hinb9_1 | ⟨_ + 2, h⟩ => absurd h (Nat.not_lt.2 (Nat.le_add_left _ _))
theorem hwx9 : ∀ (pf : pre9.Contents (Elt F)) (hok : ok9 pf) w (i : grid9.Coords), (spec9 w).elt.bits = 32 ∨ (Rect.block (spec9 w).size (ix9 pf w i) (hinb9 pf hok w i)).WholeWords (spec9 w).elt.packing :=
  fun _ _ => fun | 0 => hwx9_0 | 1 => hwx9_1 | ⟨_ + 2, h⟩ => absurd h (Nat.not_lt.2 (Nat.le_add_left _ _))
abbrev spec10_0 : Pipeline.WinSpec sig grid10.rank :=
  Pipeline.WinSpec.ofSpec (Memref.whole main_v43) S8x1.size reads10_0 false false 2 stage10_0 sem10_0 nbuf10_0 hstage10_0

abbrev spec10_1 : Pipeline.WinSpec sig grid10.rank :=
  Pipeline.WinSpec.ofSpec (Memref.whole main_v44) S8x64.size reads10_1 true false 2 stage10_1 sem10_1 nbuf10_1 hstage10_1

abbrev spec10 : Fin 2 → Pipeline.WinSpec sig grid10.rank := fun | 0 => spec10_0 | 1 => spec10_1 | ⟨_ + 2, h⟩ => absurd h (Nat.not_lt.2 (Nat.le_add_left _ _))
theorem hcount10 : ∀ w, grid10.bufCount (spec10 w).reads (spec10 w).sync = (spec10 w).nbuf := fun | 0 => nbuf10_0 | 1 => nbuf10_1 | ⟨_ + 2, h⟩ => absurd h (Nat.not_lt.2 (Nat.le_add_left _ _))
abbrev ix10 (pf : pre10.Contents (Elt F)) : (w : Fin 2) → grid10.Coords → Fin (spec10 w).shape.rank → Nat := fun | 0 => cc10_transform_1 | 1 => cc10_transform_2 | ⟨_ + 2, h⟩ => absurd h (Nat.not_lt.2 (Nat.le_add_left _ _))
theorem hreads10 : ∀ (pf : pre10.Contents (Elt F)) w (i i' : grid10.Coords), (∀ a, (spec10 w).reads a = true → i a = i' a) → ix10 pf w i = ix10 pf w i' := fun pf => fun | 0 => hreads10_0 | 1 => hreads10_1 | ⟨_ + 2, h⟩ => absurd h (Nat.not_lt.2 (Nat.le_add_left _ _))
def ok10 (_ : pre10.Contents (Elt F)) : Prop :=
  True
instance (pf : pre10.Contents (Elt F)) : Decidable (ok10 pf) := decidable_of_iff' _ (Iff.of_eq (ok10.eq_1 pf))
theorem hinb10 : ∀ (pf : pre10.Contents (Elt F)), ok10 pf → ∀ w (i : grid10.Coords) a, (ix10 pf w i a + 1) * (spec10 w).size a ≤ (spec10 w).shape.size a :=
  fun _ _ => fun | 0 => hinb10_0 | 1 => hinb10_1 | ⟨_ + 2, h⟩ => absurd h (Nat.not_lt.2 (Nat.le_add_left _ _))
theorem hwx10 : ∀ (pf : pre10.Contents (Elt F)) (hok : ok10 pf) w (i : grid10.Coords), (spec10 w).elt.bits = 32 ∨ (Rect.block (spec10 w).size (ix10 pf w i) (hinb10 pf hok w i)).WholeWords (spec10 w).elt.packing :=
  fun _ _ => fun | 0 => hwx10_0 | 1 => hwx10_1 | ⟨_ + 2, h⟩ => absurd h (Nat.not_lt.2 (Nat.le_add_left _ _))
abbrev spec11_0 : Pipeline.WinSpec sig grid11.rank :=
  Pipeline.WinSpec.ofSpec (Memref.whole main_v47) S8x1.size reads11_0 false false 2 stage11_0 sem11_0 nbuf11_0 hstage11_0

abbrev spec11_1 : Pipeline.WinSpec sig grid11.rank :=
  Pipeline.WinSpec.ofSpec (Memref.whole main_v48) S8x64.size reads11_1 true false 2 stage11_1 sem11_1 nbuf11_1 hstage11_1

abbrev spec11 : Fin 2 → Pipeline.WinSpec sig grid11.rank := fun | 0 => spec11_0 | 1 => spec11_1 | ⟨_ + 2, h⟩ => absurd h (Nat.not_lt.2 (Nat.le_add_left _ _))
theorem hcount11 : ∀ w, grid11.bufCount (spec11 w).reads (spec11 w).sync = (spec11 w).nbuf := fun | 0 => nbuf11_0 | 1 => nbuf11_1 | ⟨_ + 2, h⟩ => absurd h (Nat.not_lt.2 (Nat.le_add_left _ _))
abbrev ix11 (pf : pre11.Contents (Elt F)) : (w : Fin 2) → grid11.Coords → Fin (spec11 w).shape.rank → Nat := fun | 0 => cc11_transform_1 | 1 => cc11_transform_2 | ⟨_ + 2, h⟩ => absurd h (Nat.not_lt.2 (Nat.le_add_left _ _))
theorem hreads11 : ∀ (pf : pre11.Contents (Elt F)) w (i i' : grid11.Coords), (∀ a, (spec11 w).reads a = true → i a = i' a) → ix11 pf w i = ix11 pf w i' := fun pf => fun | 0 => hreads11_0 | 1 => hreads11_1 | ⟨_ + 2, h⟩ => absurd h (Nat.not_lt.2 (Nat.le_add_left _ _))
def ok11 (_ : pre11.Contents (Elt F)) : Prop :=
  True
instance (pf : pre11.Contents (Elt F)) : Decidable (ok11 pf) := decidable_of_iff' _ (Iff.of_eq (ok11.eq_1 pf))
theorem hinb11 : ∀ (pf : pre11.Contents (Elt F)), ok11 pf → ∀ w (i : grid11.Coords) a, (ix11 pf w i a + 1) * (spec11 w).size a ≤ (spec11 w).shape.size a :=
  fun _ _ => fun | 0 => hinb11_0 | 1 => hinb11_1 | ⟨_ + 2, h⟩ => absurd h (Nat.not_lt.2 (Nat.le_add_left _ _))
theorem hwx11 : ∀ (pf : pre11.Contents (Elt F)) (hok : ok11 pf) w (i : grid11.Coords), (spec11 w).elt.bits = 32 ∨ (Rect.block (spec11 w).size (ix11 pf w i) (hinb11 pf hok w i)).WholeWords (spec11 w).elt.packing :=
  fun _ _ => fun | 0 => hwx11_0 | 1 => hwx11_1 | ⟨_ + 2, h⟩ => absurd h (Nat.not_lt.2 (Nat.le_add_left _ _))
abbrev spec12_0 : Pipeline.WinSpec sig grid12.rank :=
  Pipeline.WinSpec.ofSpec (Memref.whole main_v51) S8x1.size reads12_0 false false 2 stage12_0 sem12_0 nbuf12_0 hstage12_0

abbrev spec12_1 : Pipeline.WinSpec sig grid12.rank :=
  Pipeline.WinSpec.ofSpec (Memref.whole main_v52) S8x64.size reads12_1 true false 2 stage12_1 sem12_1 nbuf12_1 hstage12_1

abbrev spec12 : Fin 2 → Pipeline.WinSpec sig grid12.rank := fun | 0 => spec12_0 | 1 => spec12_1 | ⟨_ + 2, h⟩ => absurd h (Nat.not_lt.2 (Nat.le_add_left _ _))
theorem hcount12 : ∀ w, grid12.bufCount (spec12 w).reads (spec12 w).sync = (spec12 w).nbuf := fun | 0 => nbuf12_0 | 1 => nbuf12_1 | ⟨_ + 2, h⟩ => absurd h (Nat.not_lt.2 (Nat.le_add_left _ _))
abbrev ix12 (pf : pre12.Contents (Elt F)) : (w : Fin 2) → grid12.Coords → Fin (spec12 w).shape.rank → Nat := fun | 0 => cc12_transform_1 | 1 => cc12_transform_2 | ⟨_ + 2, h⟩ => absurd h (Nat.not_lt.2 (Nat.le_add_left _ _))
theorem hreads12 : ∀ (pf : pre12.Contents (Elt F)) w (i i' : grid12.Coords), (∀ a, (spec12 w).reads a = true → i a = i' a) → ix12 pf w i = ix12 pf w i' := fun pf => fun | 0 => hreads12_0 | 1 => hreads12_1 | ⟨_ + 2, h⟩ => absurd h (Nat.not_lt.2 (Nat.le_add_left _ _))
def ok12 (_ : pre12.Contents (Elt F)) : Prop :=
  True
instance (pf : pre12.Contents (Elt F)) : Decidable (ok12 pf) := decidable_of_iff' _ (Iff.of_eq (ok12.eq_1 pf))
theorem hinb12 : ∀ (pf : pre12.Contents (Elt F)), ok12 pf → ∀ w (i : grid12.Coords) a, (ix12 pf w i a + 1) * (spec12 w).size a ≤ (spec12 w).shape.size a :=
  fun _ _ => fun | 0 => hinb12_0 | 1 => hinb12_1 | ⟨_ + 2, h⟩ => absurd h (Nat.not_lt.2 (Nat.le_add_left _ _))
theorem hwx12 : ∀ (pf : pre12.Contents (Elt F)) (hok : ok12 pf) w (i : grid12.Coords), (spec12 w).elt.bits = 32 ∨ (Rect.block (spec12 w).size (ix12 pf w i) (hinb12 pf hok w i)).WholeWords (spec12 w).elt.packing :=
  fun _ _ => fun | 0 => hwx12_0 | 1 => hwx12_1 | ⟨_ + 2, h⟩ => absurd h (Nat.not_lt.2 (Nat.le_add_left _ _))
abbrev spec13_0 : Pipeline.WinSpec sig grid13.rank :=
  Pipeline.WinSpec.ofSpec (Memref.whole main_v55) S8x1.size reads13_0 false false 2 stage13_0 sem13_0 nbuf13_0 hstage13_0

abbrev spec13_1 : Pipeline.WinSpec sig grid13.rank :=
  Pipeline.WinSpec.ofSpec (Memref.whole main_v56) S8x64.size reads13_1 true false 2 stage13_1 sem13_1 nbuf13_1 hstage13_1

abbrev spec13 : Fin 2 → Pipeline.WinSpec sig grid13.rank := fun | 0 => spec13_0 | 1 => spec13_1 | ⟨_ + 2, h⟩ => absurd h (Nat.not_lt.2 (Nat.le_add_left _ _))
theorem hcount13 : ∀ w, grid13.bufCount (spec13 w).reads (spec13 w).sync = (spec13 w).nbuf := fun | 0 => nbuf13_0 | 1 => nbuf13_1 | ⟨_ + 2, h⟩ => absurd h (Nat.not_lt.2 (Nat.le_add_left _ _))
abbrev ix13 (pf : pre13.Contents (Elt F)) : (w : Fin 2) → grid13.Coords → Fin (spec13 w).shape.rank → Nat := fun | 0 => cc13_transform_1 | 1 => cc13_transform_2 | ⟨_ + 2, h⟩ => absurd h (Nat.not_lt.2 (Nat.le_add_left _ _))
theorem hreads13 : ∀ (pf : pre13.Contents (Elt F)) w (i i' : grid13.Coords), (∀ a, (spec13 w).reads a = true → i a = i' a) → ix13 pf w i = ix13 pf w i' := fun pf => fun | 0 => hreads13_0 | 1 => hreads13_1 | ⟨_ + 2, h⟩ => absurd h (Nat.not_lt.2 (Nat.le_add_left _ _))
def ok13 (_ : pre13.Contents (Elt F)) : Prop :=
  True
instance (pf : pre13.Contents (Elt F)) : Decidable (ok13 pf) := decidable_of_iff' _ (Iff.of_eq (ok13.eq_1 pf))
theorem hinb13 : ∀ (pf : pre13.Contents (Elt F)), ok13 pf → ∀ w (i : grid13.Coords) a, (ix13 pf w i a + 1) * (spec13 w).size a ≤ (spec13 w).shape.size a :=
  fun _ _ => fun | 0 => hinb13_0 | 1 => hinb13_1 | ⟨_ + 2, h⟩ => absurd h (Nat.not_lt.2 (Nat.le_add_left _ _))
theorem hwx13 : ∀ (pf : pre13.Contents (Elt F)) (hok : ok13 pf) w (i : grid13.Coords), (spec13 w).elt.bits = 32 ∨ (Rect.block (spec13 w).size (ix13 pf w i) (hinb13 pf hok w i)).WholeWords (spec13 w).elt.packing :=
  fun _ _ => fun | 0 => hwx13_0 | 1 => hwx13_1 | ⟨_ + 2, h⟩ => absurd h (Nat.not_lt.2 (Nat.le_add_left _ _))
abbrev spec14_0 : Pipeline.WinSpec sig grid14.rank :=
  Pipeline.WinSpec.ofSpec (Memref.whole main_v59) S8x1.size reads14_0 false false 2 stage14_0 sem14_0 nbuf14_0 hstage14_0

abbrev spec14_1 : Pipeline.WinSpec sig grid14.rank :=
  Pipeline.WinSpec.ofSpec (Memref.whole main_v60) S8x64.size reads14_1 true false 2 stage14_1 sem14_1 nbuf14_1 hstage14_1

abbrev spec14 : Fin 2 → Pipeline.WinSpec sig grid14.rank := fun | 0 => spec14_0 | 1 => spec14_1 | ⟨_ + 2, h⟩ => absurd h (Nat.not_lt.2 (Nat.le_add_left _ _))
theorem hcount14 : ∀ w, grid14.bufCount (spec14 w).reads (spec14 w).sync = (spec14 w).nbuf := fun | 0 => nbuf14_0 | 1 => nbuf14_1 | ⟨_ + 2, h⟩ => absurd h (Nat.not_lt.2 (Nat.le_add_left _ _))
abbrev ix14 (pf : pre14.Contents (Elt F)) : (w : Fin 2) → grid14.Coords → Fin (spec14 w).shape.rank → Nat := fun | 0 => cc14_transform_1 | 1 => cc14_transform_2 | ⟨_ + 2, h⟩ => absurd h (Nat.not_lt.2 (Nat.le_add_left _ _))
theorem hreads14 : ∀ (pf : pre14.Contents (Elt F)) w (i i' : grid14.Coords), (∀ a, (spec14 w).reads a = true → i a = i' a) → ix14 pf w i = ix14 pf w i' := fun pf => fun | 0 => hreads14_0 | 1 => hreads14_1 | ⟨_ + 2, h⟩ => absurd h (Nat.not_lt.2 (Nat.le_add_left _ _))
def ok14 (_ : pre14.Contents (Elt F)) : Prop :=
  True
instance (pf : pre14.Contents (Elt F)) : Decidable (ok14 pf) := decidable_of_iff' _ (Iff.of_eq (ok14.eq_1 pf))
theorem hinb14 : ∀ (pf : pre14.Contents (Elt F)), ok14 pf → ∀ w (i : grid14.Coords) a, (ix14 pf w i a + 1) * (spec14 w).size a ≤ (spec14 w).shape.size a :=
  fun _ _ => fun | 0 => hinb14_0 | 1 => hinb14_1 | ⟨_ + 2, h⟩ => absurd h (Nat.not_lt.2 (Nat.le_add_left _ _))
theorem hwx14 : ∀ (pf : pre14.Contents (Elt F)) (hok : ok14 pf) w (i : grid14.Coords), (spec14 w).elt.bits = 32 ∨ (Rect.block (spec14 w).size (ix14 pf w i) (hinb14 pf hok w i)).WholeWords (spec14 w).elt.packing :=
  fun _ _ => fun | 0 => hwx14_0 | 1 => hwx14_1 | ⟨_ + 2, h⟩ => absurd h (Nat.not_lt.2 (Nat.le_add_left _ _))
abbrev spec15_0 : Pipeline.WinSpec sig grid15.rank :=
  Pipeline.WinSpec.ofSpec (Memref.whole main_v63) S8x1.size reads15_0 false false 2 stage15_0 sem15_0 nbuf15_0 hstage15_0

abbrev spec15_1 : Pipeline.WinSpec sig grid15.rank :=
  Pipeline.WinSpec.ofSpec (Memref.whole main_v64) S8x64.size reads15_1 true false 2 stage15_1 sem15_1 nbuf15_1 hstage15_1

abbrev spec15 : Fin 2 → Pipeline.WinSpec sig grid15.rank := fun | 0 => spec15_0 | 1 => spec15_1 | ⟨_ + 2, h⟩ => absurd h (Nat.not_lt.2 (Nat.le_add_left _ _))
theorem hcount15 : ∀ w, grid15.bufCount (spec15 w).reads (spec15 w).sync = (spec15 w).nbuf := fun | 0 => nbuf15_0 | 1 => nbuf15_1 | ⟨_ + 2, h⟩ => absurd h (Nat.not_lt.2 (Nat.le_add_left _ _))
abbrev ix15 (pf : pre15.Contents (Elt F)) : (w : Fin 2) → grid15.Coords → Fin (spec15 w).shape.rank → Nat := fun | 0 => cc15_transform_1 | 1 => cc15_transform_2 | ⟨_ + 2, h⟩ => absurd h (Nat.not_lt.2 (Nat.le_add_left _ _))
theorem hreads15 : ∀ (pf : pre15.Contents (Elt F)) w (i i' : grid15.Coords), (∀ a, (spec15 w).reads a = true → i a = i' a) → ix15 pf w i = ix15 pf w i' := fun pf => fun | 0 => hreads15_0 | 1 => hreads15_1 | ⟨_ + 2, h⟩ => absurd h (Nat.not_lt.2 (Nat.le_add_left _ _))
def ok15 (_ : pre15.Contents (Elt F)) : Prop :=
  True
instance (pf : pre15.Contents (Elt F)) : Decidable (ok15 pf) := decidable_of_iff' _ (Iff.of_eq (ok15.eq_1 pf))
theorem hinb15 : ∀ (pf : pre15.Contents (Elt F)), ok15 pf → ∀ w (i : grid15.Coords) a, (ix15 pf w i a + 1) * (spec15 w).size a ≤ (spec15 w).shape.size a :=
  fun _ _ => fun | 0 => hinb15_0 | 1 => hinb15_1 | ⟨_ + 2, h⟩ => absurd h (Nat.not_lt.2 (Nat.le_add_left _ _))
theorem hwx15 : ∀ (pf : pre15.Contents (Elt F)) (hok : ok15 pf) w (i : grid15.Coords), (spec15 w).elt.bits = 32 ∨ (Rect.block (spec15 w).size (ix15 pf w i) (hinb15 pf hok w i)).WholeWords (spec15 w).elt.packing :=
  fun _ _ => fun | 0 => hwx15_0 | 1 => hwx15_1 | ⟨_ + 2, h⟩ => absurd h (Nat.not_lt.2 (Nat.le_add_left _ _))
abbrev spec16_0 : Pipeline.WinSpec sig grid16.rank :=
  Pipeline.WinSpec.ofSpec (Memref.whole main_v67) S8x1.size reads16_0 false false 2 stage16_0 sem16_0 nbuf16_0 hstage16_0

abbrev spec16_1 : Pipeline.WinSpec sig grid16.rank :=
  Pipeline.WinSpec.ofSpec (Memref.whole main_v68) S8x64.size reads16_1 true false 2 stage16_1 sem16_1 nbuf16_1 hstage16_1

abbrev spec16 : Fin 2 → Pipeline.WinSpec sig grid16.rank := fun | 0 => spec16_0 | 1 => spec16_1 | ⟨_ + 2, h⟩ => absurd h (Nat.not_lt.2 (Nat.le_add_left _ _))
theorem hcount16 : ∀ w, grid16.bufCount (spec16 w).reads (spec16 w).sync = (spec16 w).nbuf := fun | 0 => nbuf16_0 | 1 => nbuf16_1 | ⟨_ + 2, h⟩ => absurd h (Nat.not_lt.2 (Nat.le_add_left _ _))
abbrev ix16 (pf : pre16.Contents (Elt F)) : (w : Fin 2) → grid16.Coords → Fin (spec16 w).shape.rank → Nat := fun | 0 => cc16_transform_1 | 1 => cc16_transform_2 | ⟨_ + 2, h⟩ => absurd h (Nat.not_lt.2 (Nat.le_add_left _ _))
theorem hreads16 : ∀ (pf : pre16.Contents (Elt F)) w (i i' : grid16.Coords), (∀ a, (spec16 w).reads a = true → i a = i' a) → ix16 pf w i = ix16 pf w i' := fun pf => fun | 0 => hreads16_0 | 1 => hreads16_1 | ⟨_ + 2, h⟩ => absurd h (Nat.not_lt.2 (Nat.le_add_left _ _))
def ok16 (_ : pre16.Contents (Elt F)) : Prop :=
  True
instance (pf : pre16.Contents (Elt F)) : Decidable (ok16 pf) := decidable_of_iff' _ (Iff.of_eq (ok16.eq_1 pf))
theorem hinb16 : ∀ (pf : pre16.Contents (Elt F)), ok16 pf → ∀ w (i : grid16.Coords) a, (ix16 pf w i a + 1) * (spec16 w).size a ≤ (spec16 w).shape.size a :=
  fun _ _ => fun | 0 => hinb16_0 | 1 => hinb16_1 | ⟨_ + 2, h⟩ => absurd h (Nat.not_lt.2 (Nat.le_add_left _ _))
theorem hwx16 : ∀ (pf : pre16.Contents (Elt F)) (hok : ok16 pf) w (i : grid16.Coords), (spec16 w).elt.bits = 32 ∨ (Rect.block (spec16 w).size (ix16 pf w i) (hinb16 pf hok w i)).WholeWords (spec16 w).elt.packing :=
  fun _ _ => fun | 0 => hwx16_0 | 1 => hwx16_1 | ⟨_ + 2, h⟩ => absurd h (Nat.not_lt.2 (Nat.le_add_left _ _))
abbrev spec17_0 : Pipeline.WinSpec sig grid17.rank :=
  Pipeline.WinSpec.ofSpec (Memref.whole main_v76) S8x1.size reads17_0 false false 2 stage17_0 sem17_0 nbuf17_0 hstage17_0

abbrev spec17_1 : Pipeline.WinSpec sig grid17.rank :=
  Pipeline.WinSpec.ofSpec (Memref.whole main_v77) S8x64.size reads17_1 true false 2 stage17_1 sem17_1 nbuf17_1 hstage17_1

abbrev spec17 : Fin 2 → Pipeline.WinSpec sig grid17.rank := fun | 0 => spec17_0 | 1 => spec17_1 | ⟨_ + 2, h⟩ => absurd h (Nat.not_lt.2 (Nat.le_add_left _ _))
theorem hcount17 : ∀ w, grid17.bufCount (spec17 w).reads (spec17 w).sync = (spec17 w).nbuf := fun | 0 => nbuf17_0 | 1 => nbuf17_1 | ⟨_ + 2, h⟩ => absurd h (Nat.not_lt.2 (Nat.le_add_left _ _))
abbrev ix17 (pf : pre17.Contents (Elt F)) : (w : Fin 2) → grid17.Coords → Fin (spec17 w).shape.rank → Nat := fun | 0 => cc17_transform_1 | 1 => cc17_transform_2 | ⟨_ + 2, h⟩ => absurd h (Nat.not_lt.2 (Nat.le_add_left _ _))
theorem hreads17 : ∀ (pf : pre17.Contents (Elt F)) w (i i' : grid17.Coords), (∀ a, (spec17 w).reads a = true → i a = i' a) → ix17 pf w i = ix17 pf w i' := fun pf => fun | 0 => hreads17_0 | 1 => hreads17_1 | ⟨_ + 2, h⟩ => absurd h (Nat.not_lt.2 (Nat.le_add_left _ _))
def ok17 (_ : pre17.Contents (Elt F)) : Prop :=
  True
instance (pf : pre17.Contents (Elt F)) : Decidable (ok17 pf) := decidable_of_iff' _ (Iff.of_eq (ok17.eq_1 pf))
theorem hinb17 : ∀ (pf : pre17.Contents (Elt F)), ok17 pf → ∀ w (i : grid17.Coords) a, (ix17 pf w i a + 1) * (spec17 w).size a ≤ (spec17 w).shape.size a :=
  fun _ _ => fun | 0 => hinb17_0 | 1 => hinb17_1 | ⟨_ + 2, h⟩ => absurd h (Nat.not_lt.2 (Nat.le_add_left _ _))
theorem hwx17 : ∀ (pf : pre17.Contents (Elt F)) (hok : ok17 pf) w (i : grid17.Coords), (spec17 w).elt.bits = 32 ∨ (Rect.block (spec17 w).size (ix17 pf w i) (hinb17 pf hok w i)).WholeWords (spec17 w).elt.packing :=
  fun _ _ => fun | 0 => hwx17_0 | 1 => hwx17_1 | ⟨_ + 2, h⟩ => absurd h (Nat.not_lt.2 (Nat.le_add_left _ _))
abbrev spec18_0 : Pipeline.WinSpec sig grid18.rank :=
  Pipeline.WinSpec.ofSpec (Memref.whole main_v80) S8x1.size reads18_0 false false 2 stage18_0 sem18_0 nbuf18_0 hstage18_0

abbrev spec18_1 : Pipeline.WinSpec sig grid18.rank :=
  Pipeline.WinSpec.ofSpec (Memref.whole main_v81) S8x64.size reads18_1 true false 2 stage18_1 sem18_1 nbuf18_1 hstage18_1

abbrev spec18 : Fin 2 → Pipeline.WinSpec sig grid18.rank := fun | 0 => spec18_0 | 1 => spec18_1 | ⟨_ + 2, h⟩ => absurd h (Nat.not_lt.2 (Nat.le_add_left _ _))
theorem hcount18 : ∀ w, grid18.bufCount (spec18 w).reads (spec18 w).sync = (spec18 w).nbuf := fun | 0 => nbuf18_0 | 1 => nbuf18_1 | ⟨_ + 2, h⟩ => absurd h (Nat.not_lt.2 (Nat.le_add_left _ _))
abbrev ix18 (pf : pre18.Contents (Elt F)) : (w : Fin 2) → grid18.Coords → Fin (spec18 w).shape.rank → Nat := fun | 0 => cc18_transform_1 | 1 => cc18_transform_2 | ⟨_ + 2, h⟩ => absurd h (Nat.not_lt.2 (Nat.le_add_left _ _))
theorem hreads18 : ∀ (pf : pre18.Contents (Elt F)) w (i i' : grid18.Coords), (∀ a, (spec18 w).reads a = true → i a = i' a) → ix18 pf w i = ix18 pf w i' := fun pf => fun | 0 => hreads18_0 | 1 => hreads18_1 | ⟨_ + 2, h⟩ => absurd h (Nat.not_lt.2 (Nat.le_add_left _ _))
def ok18 (_ : pre18.Contents (Elt F)) : Prop :=
  True
instance (pf : pre18.Contents (Elt F)) : Decidable (ok18 pf) := decidable_of_iff' _ (Iff.of_eq (ok18.eq_1 pf))
theorem hinb18 : ∀ (pf : pre18.Contents (Elt F)), ok18 pf → ∀ w (i : grid18.Coords) a, (ix18 pf w i a + 1) * (spec18 w).size a ≤ (spec18 w).shape.size a :=
  fun _ _ => fun | 0 => hinb18_0 | 1 => hinb18_1 | ⟨_ + 2, h⟩ => absurd h (Nat.not_lt.2 (Nat.le_add_left _ _))
theorem hwx18 : ∀ (pf : pre18.Contents (Elt F)) (hok : ok18 pf) w (i : grid18.Coords), (spec18 w).elt.bits = 32 ∨ (Rect.block (spec18 w).size (ix18 pf w i) (hinb18 pf hok w i)).WholeWords (spec18 w).elt.packing :=
  fun _ _ => fun | 0 => hwx18_0 | 1 => hwx18_1 | ⟨_ + 2, h⟩ => absurd h (Nat.not_lt.2 (Nat.le_add_left _ _))
abbrev spec19_0 : Pipeline.WinSpec sig grid19.rank :=
  Pipeline.WinSpec.ofSpec (Memref.whole main_v84) S8x1.size reads19_0 false false 2 stage19_0 sem19_0 nbuf19_0 hstage19_0

abbrev spec19_1 : Pipeline.WinSpec sig grid19.rank :=
  Pipeline.WinSpec.ofSpec (Memref.whole main_v85) S8x64.size reads19_1 true false 2 stage19_1 sem19_1 nbuf19_1 hstage19_1

abbrev spec19 : Fin 2 → Pipeline.WinSpec sig grid19.rank := fun | 0 => spec19_0 | 1 => spec19_1 | ⟨_ + 2, h⟩ => absurd h (Nat.not_lt.2 (Nat.le_add_left _ _))
theorem hcount19 : ∀ w, grid19.bufCount (spec19 w).reads (spec19 w).sync = (spec19 w).nbuf := fun | 0 => nbuf19_0 | 1 => nbuf19_1 | ⟨_ + 2, h⟩ => absurd h (Nat.not_lt.2 (Nat.le_add_left _ _))
abbrev ix19 (pf : pre19.Contents (Elt F)) : (w : Fin 2) → grid19.Coords → Fin (spec19 w).shape.rank → Nat := fun | 0 => cc19_transform_1 | 1 => cc19_transform_2 | ⟨_ + 2, h⟩ => absurd h (Nat.not_lt.2 (Nat.le_add_left _ _))
theorem hreads19 : ∀ (pf : pre19.Contents (Elt F)) w (i i' : grid19.Coords), (∀ a, (spec19 w).reads a = true → i a = i' a) → ix19 pf w i = ix19 pf w i' := fun pf => fun | 0 => hreads19_0 | 1 => hreads19_1 | ⟨_ + 2, h⟩ => absurd h (Nat.not_lt.2 (Nat.le_add_left _ _))
def ok19 (_ : pre19.Contents (Elt F)) : Prop :=
  True
instance (pf : pre19.Contents (Elt F)) : Decidable (ok19 pf) := decidable_of_iff' _ (Iff.of_eq (ok19.eq_1 pf))
theorem hinb19 : ∀ (pf : pre19.Contents (Elt F)), ok19 pf → ∀ w (i : grid19.Coords) a, (ix19 pf w i a + 1) * (spec19 w).size a ≤ (spec19 w).shape.size a :=
  fun _ _ => fun | 0 => hinb19_0 | 1 => hinb19_1 | ⟨_ + 2, h⟩ => absurd h (Nat.not_lt.2 (Nat.le_add_left _ _))
theorem hwx19 : ∀ (pf : pre19.Contents (Elt F)) (hok : ok19 pf) w (i : grid19.Coords), (spec19 w).elt.bits = 32 ∨ (Rect.block (spec19 w).size (ix19 pf w i) (hinb19 pf hok w i)).WholeWords (spec19 w).elt.packing :=
  fun _ _ => fun | 0 => hwx19_0 | 1 => hwx19_1 | ⟨_ + 2, h⟩ => absurd h (Nat.not_lt.2 (Nat.le_add_left _ _))
abbrev spec20_0 : Pipeline.WinSpec sig grid20.rank :=
  Pipeline.WinSpec.ofSpec (Memref.whole main_v88) S8x1.size reads20_0 false false 2 stage20_0 sem20_0 nbuf20_0 hstage20_0

abbrev spec20_1 : Pipeline.WinSpec sig grid20.rank :=
  Pipeline.WinSpec.ofSpec (Memref.whole main_v89) S8x64.size reads20_1 true false 2 stage20_1 sem20_1 nbuf20_1 hstage20_1

abbrev spec20 : Fin 2 → Pipeline.WinSpec sig grid20.rank := fun | 0 => spec20_0 | 1 => spec20_1 | ⟨_ + 2, h⟩ => absurd h (Nat.not_lt.2 (Nat.le_add_left _ _))
theorem hcount20 : ∀ w, grid20.bufCount (spec20 w).reads (spec20 w).sync = (spec20 w).nbuf := fun | 0 => nbuf20_0 | 1 => nbuf20_1 | ⟨_ + 2, h⟩ => absurd h (Nat.not_lt.2 (Nat.le_add_left _ _))
abbrev ix20 (pf : pre20.Contents (Elt F)) : (w : Fin 2) → grid20.Coords → Fin (spec20 w).shape.rank → Nat := fun | 0 => cc20_transform_1 | 1 => cc20_transform_2 | ⟨_ + 2, h⟩ => absurd h (Nat.not_lt.2 (Nat.le_add_left _ _))
theorem hreads20 : ∀ (pf : pre20.Contents (Elt F)) w (i i' : grid20.Coords), (∀ a, (spec20 w).reads a = true → i a = i' a) → ix20 pf w i = ix20 pf w i' := fun pf => fun | 0 => hreads20_0 | 1 => hreads20_1 | ⟨_ + 2, h⟩ => absurd h (Nat.not_lt.2 (Nat.le_add_left _ _))
def ok20 (_ : pre20.Contents (Elt F)) : Prop :=
  True
instance (pf : pre20.Contents (Elt F)) : Decidable (ok20 pf) := decidable_of_iff' _ (Iff.of_eq (ok20.eq_1 pf))
theorem hinb20 : ∀ (pf : pre20.Contents (Elt F)), ok20 pf → ∀ w (i : grid20.Coords) a, (ix20 pf w i a + 1) * (spec20 w).size a ≤ (spec20 w).shape.size a :=
  fun _ _ => fun | 0 => hinb20_0 | 1 => hinb20_1 | ⟨_ + 2, h⟩ => absurd h (Nat.not_lt.2 (Nat.le_add_left _ _))
theorem hwx20 : ∀ (pf : pre20.Contents (Elt F)) (hok : ok20 pf) w (i : grid20.Coords), (spec20 w).elt.bits = 32 ∨ (Rect.block (spec20 w).size (ix20 pf w i) (hinb20 pf hok w i)).WholeWords (spec20 w).elt.packing :=
  fun _ _ => fun | 0 => hwx20_0 | 1 => hwx20_1 | ⟨_ + 2, h⟩ => absurd h (Nat.not_lt.2 (Nat.le_add_left _ _))
abbrev spec21_0 : Pipeline.WinSpec sig grid21.rank :=
  Pipeline.WinSpec.ofSpec (Memref.whole main_v92) S8x1.size reads21_0 false false 2 stage21_0 sem21_0 nbuf21_0 hstage21_0

abbrev spec21_1 : Pipeline.WinSpec sig grid21.rank :=
  Pipeline.WinSpec.ofSpec (Memref.whole main_v93) S8x64.size reads21_1 true false 2 stage21_1 sem21_1 nbuf21_1 hstage21_1

abbrev spec21 : Fin 2 → Pipeline.WinSpec sig grid21.rank := fun | 0 => spec21_0 | 1 => spec21_1 | ⟨_ + 2, h⟩ => absurd h (Nat.not_lt.2 (Nat.le_add_left _ _))
theorem hcount21 : ∀ w, grid21.bufCount (spec21 w).reads (spec21 w).sync = (spec21 w).nbuf := fun | 0 => nbuf21_0 | 1 => nbuf21_1 | ⟨_ + 2, h⟩ => absurd h (Nat.not_lt.2 (Nat.le_add_left _ _))
abbrev ix21 (pf : pre21.Contents (Elt F)) : (w : Fin 2) → grid21.Coords → Fin (spec21 w).shape.rank → Nat := fun | 0 => cc21_transform_1 | 1 => cc21_transform_2 | ⟨_ + 2, h⟩ => absurd h (Nat.not_lt.2 (Nat.le_add_left _ _))
theorem hreads21 : ∀ (pf : pre21.Contents (Elt F)) w (i i' : grid21.Coords), (∀ a, (spec21 w).reads a = true → i a = i' a) → ix21 pf w i = ix21 pf w i' := fun pf => fun | 0 => hreads21_0 | 1 => hreads21_1 | ⟨_ + 2, h⟩ => absurd h (Nat.not_lt.2 (Nat.le_add_left _ _))
def ok21 (_ : pre21.Contents (Elt F)) : Prop :=
  True
instance (pf : pre21.Contents (Elt F)) : Decidable (ok21 pf) := decidable_of_iff' _ (Iff.of_eq (ok21.eq_1 pf))
theorem hinb21 : ∀ (pf : pre21.Contents (Elt F)), ok21 pf → ∀ w (i : grid21.Coords) a, (ix21 pf w i a + 1) * (spec21 w).size a ≤ (spec21 w).shape.size a :=
  fun _ _ => fun | 0 => hinb21_0 | 1 => hinb21_1 | ⟨_ + 2, h⟩ => absurd h (Nat.not_lt.2 (Nat.le_add_left _ _))
theorem hwx21 : ∀ (pf : pre21.Contents (Elt F)) (hok : ok21 pf) w (i : grid21.Coords), (spec21 w).elt.bits = 32 ∨ (Rect.block (spec21 w).size (ix21 pf w i) (hinb21 pf hok w i)).WholeWords (spec21 w).elt.packing :=
  fun _ _ => fun | 0 => hwx21_0 | 1 => hwx21_1 | ⟨_ + 2, h⟩ => absurd h (Nat.not_lt.2 (Nat.le_add_left _ _))
abbrev spec22_0 : Pipeline.WinSpec sig grid22.rank :=
  Pipeline.WinSpec.ofSpec (Memref.whole main_v96) S8x1.size reads22_0 false false 2 stage22_0 sem22_0 nbuf22_0 hstage22_0

abbrev spec22_1 : Pipeline.WinSpec sig grid22.rank :=
  Pipeline.WinSpec.ofSpec (Memref.whole main_v97) S8x64.size reads22_1 true false 2 stage22_1 sem22_1 nbuf22_1 hstage22_1

abbrev spec22 : Fin 2 → Pipeline.WinSpec sig grid22.rank := fun | 0 => spec22_0 | 1 => spec22_1 | ⟨_ + 2, h⟩ => absurd h (Nat.not_lt.2 (Nat.le_add_left _ _))
theorem hcount22 : ∀ w, grid22.bufCount (spec22 w).reads (spec22 w).sync = (spec22 w).nbuf := fun | 0 => nbuf22_0 | 1 => nbuf22_1 | ⟨_ + 2, h⟩ => absurd h (Nat.not_lt.2 (Nat.le_add_left _ _))
abbrev ix22 (pf : pre22.Contents (Elt F)) : (w : Fin 2) → grid22.Coords → Fin (spec22 w).shape.rank → Nat := fun | 0 => cc22_transform_1 | 1 => cc22_transform_2 | ⟨_ + 2, h⟩ => absurd h (Nat.not_lt.2 (Nat.le_add_left _ _))
theorem hreads22 : ∀ (pf : pre22.Contents (Elt F)) w (i i' : grid22.Coords), (∀ a, (spec22 w).reads a = true → i a = i' a) → ix22 pf w i = ix22 pf w i' := fun pf => fun | 0 => hreads22_0 | 1 => hreads22_1 | ⟨_ + 2, h⟩ => absurd h (Nat.not_lt.2 (Nat.le_add_left _ _))
def ok22 (_ : pre22.Contents (Elt F)) : Prop :=
  True
instance (pf : pre22.Contents (Elt F)) : Decidable (ok22 pf) := decidable_of_iff' _ (Iff.of_eq (ok22.eq_1 pf))
theorem hinb22 : ∀ (pf : pre22.Contents (Elt F)), ok22 pf → ∀ w (i : grid22.Coords) a, (ix22 pf w i a + 1) * (spec22 w).size a ≤ (spec22 w).shape.size a :=
  fun _ _ => fun | 0 => hinb22_0 | 1 => hinb22_1 | ⟨_ + 2, h⟩ => absurd h (Nat.not_lt.2 (Nat.le_add_left _ _))
theorem hwx22 : ∀ (pf : pre22.Contents (Elt F)) (hok : ok22 pf) w (i : grid22.Coords), (spec22 w).elt.bits = 32 ∨ (Rect.block (spec22 w).size (ix22 pf w i) (hinb22 pf hok w i)).WholeWords (spec22 w).elt.packing :=
  fun _ _ => fun | 0 => hwx22_0 | 1 => hwx22_1 | ⟨_ + 2, h⟩ => absurd h (Nat.not_lt.2 (Nat.le_add_left _ _))
abbrev spec23_0 : Pipeline.WinSpec sig grid23.rank :=
  Pipeline.WinSpec.ofSpec (Memref.whole main_v100) S8x1.size reads23_0 false false 2 stage23_0 sem23_0 nbuf23_0 hstage23_0

abbrev spec23_1 : Pipeline.WinSpec sig grid23.rank :=
  Pipeline.WinSpec.ofSpec (Memref.whole main_v101) S8x64.size reads23_1 true false 2 stage23_1 sem23_1 nbuf23_1 hstage23_1

abbrev spec23 : Fin 2 → Pipeline.WinSpec sig grid23.rank := fun | 0 => spec23_0 | 1 => spec23_1 | ⟨_ + 2, h⟩ => absurd h (Nat.not_lt.2 (Nat.le_add_left _ _))
theorem hcount23 : ∀ w, grid23.bufCount (spec23 w).reads (spec23 w).sync = (spec23 w).nbuf := fun | 0 => nbuf23_0 | 1 => nbuf23_1 | ⟨_ + 2, h⟩ => absurd h (Nat.not_lt.2 (Nat.le_add_left _ _))
abbrev ix23 (pf : pre23.Contents (Elt F)) : (w : Fin 2) → grid23.Coords → Fin (spec23 w).shape.rank → Nat := fun | 0 => cc23_transform_1 | 1 => cc23_transform_2 | ⟨_ + 2, h⟩ => absurd h (Nat.not_lt.2 (Nat.le_add_left _ _))
theorem hreads23 : ∀ (pf : pre23.Contents (Elt F)) w (i i' : grid23.Coords), (∀ a, (spec23 w).reads a = true → i a = i' a) → ix23 pf w i = ix23 pf w i' := fun pf => fun | 0 => hreads23_0 | 1 => hreads23_1 | ⟨_ + 2, h⟩ => absurd h (Nat.not_lt.2 (Nat.le_add_left _ _))
def ok23 (_ : pre23.Contents (Elt F)) : Prop :=
  True
instance (pf : pre23.Contents (Elt F)) : Decidable (ok23 pf) := decidable_of_iff' _ (Iff.of_eq (ok23.eq_1 pf))
theorem hinb23 : ∀ (pf : pre23.Contents (Elt F)), ok23 pf → ∀ w (i : grid23.Coords) a, (ix23 pf w i a + 1) * (spec23 w).size a ≤ (spec23 w).shape.size a :=
  fun _ _ => fun | 0 => hinb23_0 | 1 => hinb23_1 | ⟨_ + 2, h⟩ => absurd h (Nat.not_lt.2 (Nat.le_add_left _ _))
theorem hwx23 : ∀ (pf : pre23.Contents (Elt F)) (hok : ok23 pf) w (i : grid23.Coords), (spec23 w).elt.bits = 32 ∨ (Rect.block (spec23 w).size (ix23 pf w i) (hinb23 pf hok w i)).WholeWords (spec23 w).elt.packing :=
  fun _ _ => fun | 0 => hwx23_0 | 1 => hwx23_1 | ⟨_ + 2, h⟩ => absurd h (Nat.not_lt.2 (Nat.le_add_left _ _))
abbrev spec24_0 : Pipeline.WinSpec sig grid24.rank :=
  Pipeline.WinSpec.ofSpec (Memref.whole main_v104) S8x1.size reads24_0 false false 2 stage24_0 sem24_0 nbuf24_0 hstage24_0

abbrev spec24_1 : Pipeline.WinSpec sig grid24.rank :=
  Pipeline.WinSpec.ofSpec (Memref.whole main_v105) S8x64.size reads24_1 true false 2 stage24_1 sem24_1 nbuf24_1 hstage24_1

abbrev spec24 : Fin 2 → Pipeline.WinSpec sig grid24.rank := fun | 0 => spec24_0 | 1 => spec24_1 | ⟨_ + 2, h⟩ => absurd h (Nat.not_lt.2 (Nat.le_add_left _ _))
theorem hcount24 : ∀ w, grid24.bufCount (spec24 w).reads (spec24 w).sync = (spec24 w).nbuf := fun | 0 => nbuf24_0 | 1 => nbuf24_1 | ⟨_ + 2, h⟩ => absurd h (Nat.not_lt.2 (Nat.le_add_left _ _))
abbrev ix24 (pf : pre24.Contents (Elt F)) : (w : Fin 2) → grid24.Coords → Fin (spec24 w).shape.rank → Nat := fun | 0 => cc24_transform_1 | 1 => cc24_transform_2 | ⟨_ + 2, h⟩ => absurd h (Nat.not_lt.2 (Nat.le_add_left _ _))
theorem hreads24 : ∀ (pf : pre24.Contents (Elt F)) w (i i' : grid24.Coords), (∀ a, (spec24 w).reads a = true → i a = i' a) → ix24 pf w i = ix24 pf w i' := fun pf => fun | 0 => hreads24_0 | 1 => hreads24_1 | ⟨_ + 2, h⟩ => absurd h (Nat.not_lt.2 (Nat.le_add_left _ _))
def ok24 (_ : pre24.Contents (Elt F)) : Prop :=
  True
instance (pf : pre24.Contents (Elt F)) : Decidable (ok24 pf) := decidable_of_iff' _ (Iff.of_eq (ok24.eq_1 pf))
theorem hinb24 : ∀ (pf : pre24.Contents (Elt F)), ok24 pf → ∀ w (i : grid24.Coords) a, (ix24 pf w i a + 1) * (spec24 w).size a ≤ (spec24 w).shape.size a :=
  fun _ _ => fun | 0 => hinb24_0 | 1 => hinb24_1 | ⟨_ + 2, h⟩ => absurd h (Nat.not_lt.2 (Nat.le_add_left _ _))
theorem hwx24 : ∀ (pf : pre24.Contents (Elt F)) (hok : ok24 pf) w (i : grid24.Coords), (spec24 w).elt.bits = 32 ∨ (Rect.block (spec24 w).size (ix24 pf w i) (hinb24 pf hok w i)).WholeWords (spec24 w).elt.packing :=
  fun _ _ => fun | 0 => hwx24_0 | 1 => hwx24_1 | ⟨_ + 2, h⟩ => absurd h (Nat.not_lt.2 (Nat.le_add_left _ _))
abbrev spec25_0 : Pipeline.WinSpec sig grid25.rank :=
  Pipeline.WinSpec.ofSpec (Memref.whole main_v108) S8x1.size reads25_0 false false 2 stage25_0 sem25_0 nbuf25_0 hstage25_0

abbrev spec25_1 : Pipeline.WinSpec sig grid25.rank :=
  Pipeline.WinSpec.ofSpec (Memref.whole main_v109) S8x64.size reads25_1 true false 2 stage25_1 sem25_1 nbuf25_1 hstage25_1

abbrev spec25 : Fin 2 → Pipeline.WinSpec sig grid25.rank := fun | 0 => spec25_0 | 1 => spec25_1 | ⟨_ + 2, h⟩ => absurd h (Nat.not_lt.2 (Nat.le_add_left _ _))
theorem hcount25 : ∀ w, grid25.bufCount (spec25 w).reads (spec25 w).sync = (spec25 w).nbuf := fun | 0 => nbuf25_0 | 1 => nbuf25_1 | ⟨_ + 2, h⟩ => absurd h (Nat.not_lt.2 (Nat.le_add_left _ _))
abbrev ix25 (pf : pre25.Contents (Elt F)) : (w : Fin 2) → grid25.Coords → Fin (spec25 w).shape.rank → Nat := fun | 0 => cc25_transform_1 | 1 => cc25_transform_2 | ⟨_ + 2, h⟩ => absurd h (Nat.not_lt.2 (Nat.le_add_left _ _))
theorem hreads25 : ∀ (pf : pre25.Contents (Elt F)) w (i i' : grid25.Coords), (∀ a, (spec25 w).reads a = true → i a = i' a) → ix25 pf w i = ix25 pf w i' := fun pf => fun | 0 => hreads25_0 | 1 => hreads25_1 | ⟨_ + 2, h⟩ => absurd h (Nat.not_lt.2 (Nat.le_add_left _ _))
def ok25 (_ : pre25.Contents (Elt F)) : Prop :=
  True
instance (pf : pre25.Contents (Elt F)) : Decidable (ok25 pf) := decidable_of_iff' _ (Iff.of_eq (ok25.eq_1 pf))
theorem hinb25 : ∀ (pf : pre25.Contents (Elt F)), ok25 pf → ∀ w (i : grid25.Coords) a, (ix25 pf w i a + 1) * (spec25 w).size a ≤ (spec25 w).shape.size a :=
  fun _ _ => fun | 0 => hinb25_0 | 1 => hinb25_1 | ⟨_ + 2, h⟩ => absurd h (Nat.not_lt.2 (Nat.le_add_left _ _))
theorem hwx25 : ∀ (pf : pre25.Contents (Elt F)) (hok : ok25 pf) w (i : grid25.Coords), (spec25 w).elt.bits = 32 ∨ (Rect.block (spec25 w).size (ix25 pf w i) (hinb25 pf hok w i)).WholeWords (spec25 w).elt.packing :=
  fun _ _ => fun | 0 => hwx25_0 | 1 => hwx25_1 | ⟨_ + 2, h⟩ => absurd h (Nat.not_lt.2 (Nat.le_add_left _ _))
abbrev spec26_0 : Pipeline.WinSpec sig grid26.rank :=
  Pipeline.WinSpec.ofSpec (Memref.whole main_v112) S8x1.size reads26_0 false false 2 stage26_0 sem26_0 nbuf26_0 hstage26_0

abbrev spec26_1 : Pipeline.WinSpec sig grid26.rank :=
  Pipeline.WinSpec.ofSpec (Memref.whole main_v113) S8x64.size reads26_1 true false 2 stage26_1 sem26_1 nbuf26_1 hstage26_1

abbrev spec26 : Fin 2 → Pipeline.WinSpec sig grid26.rank := fun | 0 => spec26_0 | 1 => spec26_1 | ⟨_ + 2, h⟩ => absurd h (Nat.not_lt.2 (Nat.le_add_left _ _))
theorem hcount26 : ∀ w, grid26.bufCount (spec26 w).reads (spec26 w).sync = (spec26 w).nbuf := fun | 0 => nbuf26_0 | 1 => nbuf26_1 | ⟨_ + 2, h⟩ => absurd h (Nat.not_lt.2 (Nat.le_add_left _ _))
abbrev ix26 (pf : pre26.Contents (Elt F)) : (w : Fin 2) → grid26.Coords → Fin (spec26 w).shape.rank → Nat := fun | 0 => cc26_transform_1 | 1 => cc26_transform_2 | ⟨_ + 2, h⟩ => absurd h (Nat.not_lt.2 (Nat.le_add_left _ _))
theorem hreads26 : ∀ (pf : pre26.Contents (Elt F)) w (i i' : grid26.Coords), (∀ a, (spec26 w).reads a = true → i a = i' a) → ix26 pf w i = ix26 pf w i' := fun pf => fun | 0 => hreads26_0 | 1 => hreads26_1 | ⟨_ + 2, h⟩ => absurd h (Nat.not_lt.2 (Nat.le_add_left _ _))
def ok26 (_ : pre26.Contents (Elt F)) : Prop :=
  True
instance (pf : pre26.Contents (Elt F)) : Decidable (ok26 pf) := decidable_of_iff' _ (Iff.of_eq (ok26.eq_1 pf))
theorem hinb26 : ∀ (pf : pre26.Contents (Elt F)), ok26 pf → ∀ w (i : grid26.Coords) a, (ix26 pf w i a + 1) * (spec26 w).size a ≤ (spec26 w).shape.size a :=
  fun _ _ => fun | 0 => hinb26_0 | 1 => hinb26_1 | ⟨_ + 2, h⟩ => absurd h (Nat.not_lt.2 (Nat.le_add_left _ _))
theorem hwx26 : ∀ (pf : pre26.Contents (Elt F)) (hok : ok26 pf) w (i : grid26.Coords), (spec26 w).elt.bits = 32 ∨ (Rect.block (spec26 w).size (ix26 pf w i) (hinb26 pf hok w i)).WholeWords (spec26 w).elt.packing :=
  fun _ _ => fun | 0 => hwx26_0 | 1 => hwx26_1 | ⟨_ + 2, h⟩ => absurd h (Nat.not_lt.2 (Nat.le_add_left _ _))
abbrev spec27_0 : Pipeline.WinSpec sig grid27.rank :=
  Pipeline.WinSpec.ofSpec (Memref.whole main_v116) S8x1.size reads27_0 false false 2 stage27_0 sem27_0 nbuf27_0 hstage27_0

abbrev spec27_1 : Pipeline.WinSpec sig grid27.rank :=
  Pipeline.WinSpec.ofSpec (Memref.whole main_v117) S8x64.size reads27_1 true false 2 stage27_1 sem27_1 nbuf27_1 hstage27_1

abbrev spec27 : Fin 2 → Pipeline.WinSpec sig grid27.rank := fun | 0 => spec27_0 | 1 => spec27_1 | ⟨_ + 2, h⟩ => absurd h (Nat.not_lt.2 (Nat.le_add_left _ _))
theorem hcount27 : ∀ w, grid27.bufCount (spec27 w).reads (spec27 w).sync = (spec27 w).nbuf := fun | 0 => nbuf27_0 | 1 => nbuf27_1 | ⟨_ + 2, h⟩ => absurd h (Nat.not_lt.2 (Nat.le_add_left _ _))
abbrev ix27 (pf : pre27.Contents (Elt F)) : (w : Fin 2) → grid27.Coords → Fin (spec27 w).shape.rank → Nat := fun | 0 => cc27_transform_1 | 1 => cc27_transform_2 | ⟨_ + 2, h⟩ => absurd h (Nat.not_lt.2 (Nat.le_add_left _ _))
theorem hreads27 : ∀ (pf : pre27.Contents (Elt F)) w (i i' : grid27.Coords), (∀ a, (spec27 w).reads a = true → i a = i' a) → ix27 pf w i = ix27 pf w i' := fun pf => fun | 0 => hreads27_0 | 1 => hreads27_1 | ⟨_ + 2, h⟩ => absurd h (Nat.not_lt.2 (Nat.le_add_left _ _))
def ok27 (_ : pre27.Contents (Elt F)) : Prop :=
  True
instance (pf : pre27.Contents (Elt F)) : Decidable (ok27 pf) := decidable_of_iff' _ (Iff.of_eq (ok27.eq_1 pf))
theorem hinb27 : ∀ (pf : pre27.Contents (Elt F)), ok27 pf → ∀ w (i : grid27.Coords) a, (ix27 pf w i a + 1) * (spec27 w).size a ≤ (spec27 w).shape.size a :=
  fun _ _ => fun | 0 => hinb27_0 | 1 => hinb27_1 | ⟨_ + 2, h⟩ => absurd h (Nat.not_lt.2 (Nat.le_add_left _ _))
theorem hwx27 : ∀ (pf : pre27.Contents (Elt F)) (hok : ok27 pf) w (i : grid27.Coords), (spec27 w).elt.bits = 32 ∨ (Rect.block (spec27 w).size (ix27 pf w i) (hinb27 pf hok w i)).WholeWords (spec27 w).elt.packing :=
  fun _ _ => fun | 0 => hwx27_0 | 1 => hwx27_1 | ⟨_ + 2, h⟩ => absurd h (Nat.not_lt.2 (Nat.le_add_left _ _))
abbrev spec28_0 : Pipeline.WinSpec sig grid28.rank :=
  Pipeline.WinSpec.ofSpec (Memref.whole main_v120) S8x1.size reads28_0 false false 2 stage28_0 sem28_0 nbuf28_0 hstage28_0

abbrev spec28_1 : Pipeline.WinSpec sig grid28.rank :=
  Pipeline.WinSpec.ofSpec (Memref.whole main_v121) S8x64.size reads28_1 true false 2 stage28_1 sem28_1 nbuf28_1 hstage28_1

abbrev spec28 : Fin 2 → Pipeline.WinSpec sig grid28.rank := fun | 0 => spec28_0 | 1 => spec28_1 | ⟨_ + 2, h⟩ => absurd h (Nat.not_lt.2 (Nat.le_add_left _ _))
theorem hcount28 : ∀ w, grid28.bufCount (spec28 w).reads (spec28 w).sync = (spec28 w).nbuf := fun | 0 => nbuf28_0 | 1 => nbuf28_1 | ⟨_ + 2, h⟩ => absurd h (Nat.not_lt.2 (Nat.le_add_left _ _))
abbrev ix28 (pf : pre28.Contents (Elt F)) : (w : Fin 2) → grid28.Coords → Fin (spec28 w).shape.rank → Nat := fun | 0 => cc28_transform_1 | 1 => cc28_transform_2 | ⟨_ + 2, h⟩ => absurd h (Nat.not_lt.2 (Nat.le_add_left _ _))
theorem hreads28 : ∀ (pf : pre28.Contents (Elt F)) w (i i' : grid28.Coords), (∀ a, (spec28 w).reads a = true → i a = i' a) → ix28 pf w i = ix28 pf w i' := fun pf => fun | 0 => hreads28_0 | 1 => hreads28_1 | ⟨_ + 2, h⟩ => absurd h (Nat.not_lt.2 (Nat.le_add_left _ _))
def ok28 (_ : pre28.Contents (Elt F)) : Prop :=
  True
instance (pf : pre28.Contents (Elt F)) : Decidable (ok28 pf) := decidable_of_iff' _ (Iff.of_eq (ok28.eq_1 pf))
theorem hinb28 : ∀ (pf : pre28.Contents (Elt F)), ok28 pf → ∀ w (i : grid28.Coords) a, (ix28 pf w i a + 1) * (spec28 w).size a ≤ (spec28 w).shape.size a :=
  fun _ _ => fun | 0 => hinb28_0 | 1 => hinb28_1 | ⟨_ + 2, h⟩ => absurd h (Nat.not_lt.2 (Nat.le_add_left _ _))
theorem hwx28 : ∀ (pf : pre28.Contents (Elt F)) (hok : ok28 pf) w (i : grid28.Coords), (spec28 w).elt.bits = 32 ∨ (Rect.block (spec28 w).size (ix28 pf w i) (hinb28 pf hok w i)).WholeWords (spec28 w).elt.packing :=
  fun _ _ => fun | 0 => hwx28_0 | 1 => hwx28_1 | ⟨_ + 2, h⟩ => absurd h (Nat.not_lt.2 (Nat.le_add_left _ _))
abbrev spec29_0 : Pipeline.WinSpec sig grid29.rank :=
  Pipeline.WinSpec.ofSpec (Memref.whole main_v124) S8x1.size reads29_0 false false 2 stage29_0 sem29_0 nbuf29_0 hstage29_0

abbrev spec29_1 : Pipeline.WinSpec sig grid29.rank :=
  Pipeline.WinSpec.ofSpec (Memref.whole main_v125) S8x64.size reads29_1 true false 2 stage29_1 sem29_1 nbuf29_1 hstage29_1

abbrev spec29 : Fin 2 → Pipeline.WinSpec sig grid29.rank := fun | 0 => spec29_0 | 1 => spec29_1 | ⟨_ + 2, h⟩ => absurd h (Nat.not_lt.2 (Nat.le_add_left _ _))
theorem hcount29 : ∀ w, grid29.bufCount (spec29 w).reads (spec29 w).sync = (spec29 w).nbuf := fun | 0 => nbuf29_0 | 1 => nbuf29_1 | ⟨_ + 2, h⟩ => absurd h (Nat.not_lt.2 (Nat.le_add_left _ _))
abbrev ix29 (pf : pre29.Contents (Elt F)) : (w : Fin 2) → grid29.Coords → Fin (spec29 w).shape.rank → Nat := fun | 0 => cc29_transform_1 | 1 => cc29_transform_2 | ⟨_ + 2, h⟩ => absurd h (Nat.not_lt.2 (Nat.le_add_left _ _))
theorem hreads29 : ∀ (pf : pre29.Contents (Elt F)) w (i i' : grid29.Coords), (∀ a, (spec29 w).reads a = true → i a = i' a) → ix29 pf w i = ix29 pf w i' := fun pf => fun | 0 => hreads29_0 | 1 => hreads29_1 | ⟨_ + 2, h⟩ => absurd h (Nat.not_lt.2 (Nat.le_add_left _ _))
def ok29 (_ : pre29.Contents (Elt F)) : Prop :=
  True
instance (pf : pre29.Contents (Elt F)) : Decidable (ok29 pf) := decidable_of_iff' _ (Iff.of_eq (ok29.eq_1 pf))
theorem hinb29 : ∀ (pf : pre29.Contents (Elt F)), ok29 pf → ∀ w (i : grid29.Coords) a, (ix29 pf w i a + 1) * (spec29 w).size a ≤ (spec29 w).shape.size a :=
  fun _ _ => fun | 0 => hinb29_0 | 1 => hinb29_1 | ⟨_ + 2, h⟩ => absurd h (Nat.not_lt.2 (Nat.le_add_left _ _))
theorem hwx29 : ∀ (pf : pre29.Contents (Elt F)) (hok : ok29 pf) w (i : grid29.Coords), (spec29 w).elt.bits = 32 ∨ (Rect.block (spec29 w).size (ix29 pf w i) (hinb29 pf hok w i)).WholeWords (spec29 w).elt.packing :=
  fun _ _ => fun | 0 => hwx29_0 | 1 => hwx29_1 | ⟨_ + 2, h⟩ => absurd h (Nat.not_lt.2 (Nat.le_add_left _ _))
abbrev spec30_0 : Pipeline.WinSpec sig grid30.rank :=
  Pipeline.WinSpec.ofSpec (Memref.whole main_v128) S8x1.size reads30_0 false false 2 stage30_0 sem30_0 nbuf30_0 hstage30_0

abbrev spec30_1 : Pipeline.WinSpec sig grid30.rank :=
  Pipeline.WinSpec.ofSpec (Memref.whole main_v129) S8x64.size reads30_1 true false 2 stage30_1 sem30_1 nbuf30_1 hstage30_1

abbrev spec30 : Fin 2 → Pipeline.WinSpec sig grid30.rank := fun | 0 => spec30_0 | 1 => spec30_1 | ⟨_ + 2, h⟩ => absurd h (Nat.not_lt.2 (Nat.le_add_left _ _))
theorem hcount30 : ∀ w, grid30.bufCount (spec30 w).reads (spec30 w).sync = (spec30 w).nbuf := fun | 0 => nbuf30_0 | 1 => nbuf30_1 | ⟨_ + 2, h⟩ => absurd h (Nat.not_lt.2 (Nat.le_add_left _ _))
abbrev ix30 (pf : pre30.Contents (Elt F)) : (w : Fin 2) → grid30.Coords → Fin (spec30 w).shape.rank → Nat := fun | 0 => cc30_transform_1 | 1 => cc30_transform_2 | ⟨_ + 2, h⟩ => absurd h (Nat.not_lt.2 (Nat.le_add_left _ _))
theorem hreads30 : ∀ (pf : pre30.Contents (Elt F)) w (i i' : grid30.Coords), (∀ a, (spec30 w).reads a = true → i a = i' a) → ix30 pf w i = ix30 pf w i' := fun pf => fun | 0 => hreads30_0 | 1 => hreads30_1 | ⟨_ + 2, h⟩ => absurd h (Nat.not_lt.2 (Nat.le_add_left _ _))
def ok30 (_ : pre30.Contents (Elt F)) : Prop :=
  True
instance (pf : pre30.Contents (Elt F)) : Decidable (ok30 pf) := decidable_of_iff' _ (Iff.of_eq (ok30.eq_1 pf))
theorem hinb30 : ∀ (pf : pre30.Contents (Elt F)), ok30 pf → ∀ w (i : grid30.Coords) a, (ix30 pf w i a + 1) * (spec30 w).size a ≤ (spec30 w).shape.size a :=
  fun _ _ => fun | 0 => hinb30_0 | 1 => hinb30_1 | ⟨_ + 2, h⟩ => absurd h (Nat.not_lt.2 (Nat.le_add_left _ _))
theorem hwx30 : ∀ (pf : pre30.Contents (Elt F)) (hok : ok30 pf) w (i : grid30.Coords), (spec30 w).elt.bits = 32 ∨ (Rect.block (spec30 w).size (ix30 pf w i) (hinb30 pf hok w i)).WholeWords (spec30 w).elt.packing :=
  fun _ _ => fun | 0 => hwx30_0 | 1 => hwx30_1 | ⟨_ + 2, h⟩ => absurd h (Nat.not_lt.2 (Nat.le_add_left _ _))
abbrev spec31_0 : Pipeline.WinSpec sig grid31.rank :=
  Pipeline.WinSpec.ofSpec (Memref.whole main_v132) S8x1.size reads31_0 false false 2 stage31_0 sem31_0 nbuf31_0 hstage31_0

abbrev spec31_1 : Pipeline.WinSpec sig grid31.rank :=
  Pipeline.WinSpec.ofSpec (Memref.whole main_v133) S8x64.size reads31_1 true false 2 stage31_1 sem31_1 nbuf31_1 hstage31_1

abbrev spec31 : Fin 2 → Pipeline.WinSpec sig grid31.rank := fun | 0 => spec31_0 | 1 => spec31_1 | ⟨_ + 2, h⟩ => absurd h (Nat.not_lt.2 (Nat.le_add_left _ _))
theorem hcount31 : ∀ w, grid31.bufCount (spec31 w).reads (spec31 w).sync = (spec31 w).nbuf := fun | 0 => nbuf31_0 | 1 => nbuf31_1 | ⟨_ + 2, h⟩ => absurd h (Nat.not_lt.2 (Nat.le_add_left _ _))
abbrev ix31 (pf : pre31.Contents (Elt F)) : (w : Fin 2) → grid31.Coords → Fin (spec31 w).shape.rank → Nat := fun | 0 => cc31_transform_1 | 1 => cc31_transform_2 | ⟨_ + 2, h⟩ => absurd h (Nat.not_lt.2 (Nat.le_add_left _ _))
theorem hreads31 : ∀ (pf : pre31.Contents (Elt F)) w (i i' : grid31.Coords), (∀ a, (spec31 w).reads a = true → i a = i' a) → ix31 pf w i = ix31 pf w i' := fun pf => fun | 0 => hreads31_0 | 1 => hreads31_1 | ⟨_ + 2, h⟩ => absurd h (Nat.not_lt.2 (Nat.le_add_left _ _))
def ok31 (_ : pre31.Contents (Elt F)) : Prop :=
  True
instance (pf : pre31.Contents (Elt F)) : Decidable (ok31 pf) := decidable_of_iff' _ (Iff.of_eq (ok31.eq_1 pf))
theorem hinb31 : ∀ (pf : pre31.Contents (Elt F)), ok31 pf → ∀ w (i : grid31.Coords) a, (ix31 pf w i a + 1) * (spec31 w).size a ≤ (spec31 w).shape.size a :=
  fun _ _ => fun | 0 => hinb31_0 | 1 => hinb31_1 | ⟨_ + 2, h⟩ => absurd h (Nat.not_lt.2 (Nat.le_add_left _ _))
theorem hwx31 : ∀ (pf : pre31.Contents (Elt F)) (hok : ok31 pf) w (i : grid31.Coords), (spec31 w).elt.bits = 32 ∨ (Rect.block (spec31 w).size (ix31 pf w i) (hinb31 pf hok w i)).WholeWords (spec31 w).elt.packing :=
  fun _ _ => fun | 0 => hwx31_0 | 1 => hwx31_1 | ⟨_ + 2, h⟩ => absurd h (Nat.not_lt.2 (Nat.le_add_left _ _))
abbrev spec32_0 : Pipeline.WinSpec sig grid32.rank :=
  Pipeline.WinSpec.ofSpec (Memref.whole main_v136) S8x1.size reads32_0 false false 2 stage32_0 sem32_0 nbuf32_0 hstage32_0

abbrev spec32_1 : Pipeline.WinSpec sig grid32.rank :=
  Pipeline.WinSpec.ofSpec (Memref.whole main_v137) S8x64.size reads32_1 true false 2 stage32_1 sem32_1 nbuf32_1 hstage32_1

abbrev spec32 : Fin 2 → Pipeline.WinSpec sig grid32.rank := fun | 0 => spec32_0 | 1 => spec32_1 | ⟨_ + 2, h⟩ => absurd h (Nat.not_lt.2 (Nat.le_add_left _ _))
theorem hcount32 : ∀ w, grid32.bufCount (spec32 w).reads (spec32 w).sync = (spec32 w).nbuf := fun | 0 => nbuf32_0 | 1 => nbuf32_1 | ⟨_ + 2, h⟩ => absurd h (Nat.not_lt.2 (Nat.le_add_left _ _))
abbrev ix32 (pf : pre32.Contents (Elt F)) : (w : Fin 2) → grid32.Coords → Fin (spec32 w).shape.rank → Nat := fun | 0 => cc32_transform_1 | 1 => cc32_transform_2 | ⟨_ + 2, h⟩ => absurd h (Nat.not_lt.2 (Nat.le_add_left _ _))
theorem hreads32 : ∀ (pf : pre32.Contents (Elt F)) w (i i' : grid32.Coords), (∀ a, (spec32 w).reads a = true → i a = i' a) → ix32 pf w i = ix32 pf w i' := fun pf => fun | 0 => hreads32_0 | 1 => hreads32_1 | ⟨_ + 2, h⟩ => absurd h (Nat.not_lt.2 (Nat.le_add_left _ _))
def ok32 (_ : pre32.Contents (Elt F)) : Prop :=
  True
instance (pf : pre32.Contents (Elt F)) : Decidable (ok32 pf) := decidable_of_iff' _ (Iff.of_eq (ok32.eq_1 pf))
theorem hinb32 : ∀ (pf : pre32.Contents (Elt F)), ok32 pf → ∀ w (i : grid32.Coords) a, (ix32 pf w i a + 1) * (spec32 w).size a ≤ (spec32 w).shape.size a :=
  fun _ _ => fun | 0 => hinb32_0 | 1 => hinb32_1 | ⟨_ + 2, h⟩ => absurd h (Nat.not_lt.2 (Nat.le_add_left _ _))
theorem hwx32 : ∀ (pf : pre32.Contents (Elt F)) (hok : ok32 pf) w (i : grid32.Coords), (spec32 w).elt.bits = 32 ∨ (Rect.block (spec32 w).size (ix32 pf w i) (hinb32 pf hok w i)).WholeWords (spec32 w).elt.packing :=
  fun _ _ => fun | 0 => hwx32_0 | 1 => hwx32_1 | ⟨_ + 2, h⟩ => absurd h (Nat.not_lt.2 (Nat.le_add_left _ _))
abbrev spec33_0 : Pipeline.WinSpec sig grid33.rank :=
  Pipeline.WinSpec.ofSpec (Memref.whole main_v145) S8x1.size reads33_0 false false 2 stage33_0 sem33_0 nbuf33_0 hstage33_0

abbrev spec33_1 : Pipeline.WinSpec sig grid33.rank :=
  Pipeline.WinSpec.ofSpec (Memref.whole main_v146) S8x64.size reads33_1 true false 2 stage33_1 sem33_1 nbuf33_1 hstage33_1

abbrev spec33 : Fin 2 → Pipeline.WinSpec sig grid33.rank := fun | 0 => spec33_0 | 1 => spec33_1 | ⟨_ + 2, h⟩ => absurd h (Nat.not_lt.2 (Nat.le_add_left _ _))
theorem hcount33 : ∀ w, grid33.bufCount (spec33 w).reads (spec33 w).sync = (spec33 w).nbuf := fun | 0 => nbuf33_0 | 1 => nbuf33_1 | ⟨_ + 2, h⟩ => absurd h (Nat.not_lt.2 (Nat.le_add_left _ _))
abbrev ix33 (pf : pre33.Contents (Elt F)) : (w : Fin 2) → grid33.Coords → Fin (spec33 w).shape.rank → Nat := fun | 0 => cc33_transform_1 | 1 => cc33_transform_2 | ⟨_ + 2, h⟩ => absurd h (Nat.not_lt.2 (Nat.le_add_left _ _))
theorem hreads33 : ∀ (pf : pre33.Contents (Elt F)) w (i i' : grid33.Coords), (∀ a, (spec33 w).reads a = true → i a = i' a) → ix33 pf w i = ix33 pf w i' := fun pf => fun | 0 => hreads33_0 | 1 => hreads33_1 | ⟨_ + 2, h⟩ => absurd h (Nat.not_lt.2 (Nat.le_add_left _ _))
def ok33 (_ : pre33.Contents (Elt F)) : Prop :=
  True
instance (pf : pre33.Contents (Elt F)) : Decidable (ok33 pf) := decidable_of_iff' _ (Iff.of_eq (ok33.eq_1 pf))
theorem hinb33 : ∀ (pf : pre33.Contents (Elt F)), ok33 pf → ∀ w (i : grid33.Coords) a, (ix33 pf w i a + 1) * (spec33 w).size a ≤ (spec33 w).shape.size a :=
  fun _ _ => fun | 0 => hinb33_0 | 1 => hinb33_1 | ⟨_ + 2, h⟩ => absurd h (Nat.not_lt.2 (Nat.le_add_left _ _))
theorem hwx33 : ∀ (pf : pre33.Contents (Elt F)) (hok : ok33 pf) w (i : grid33.Coords), (spec33 w).elt.bits = 32 ∨ (Rect.block (spec33 w).size (ix33 pf w i) (hinb33 pf hok w i)).WholeWords (spec33 w).elt.packing :=
  fun _ _ => fun | 0 => hwx33_0 | 1 => hwx33_1 | ⟨_ + 2, h⟩ => absurd h (Nat.not_lt.2 (Nat.le_add_left _ _))
abbrev spec34_0 : Pipeline.WinSpec sig grid34.rank :=
  Pipeline.WinSpec.ofSpec (Memref.whole main_v149) S8x1.size reads34_0 false false 2 stage34_0 sem34_0 nbuf34_0 hstage34_0

abbrev spec34_1 : Pipeline.WinSpec sig grid34.rank :=
  Pipeline.WinSpec.ofSpec (Memref.whole main_v150) S8x64.size reads34_1 true false 2 stage34_1 sem34_1 nbuf34_1 hstage34_1

abbrev spec34 : Fin 2 → Pipeline.WinSpec sig grid34.rank := fun | 0 => spec34_0 | 1 => spec34_1 | ⟨_ + 2, h⟩ => absurd h (Nat.not_lt.2 (Nat.le_add_left _ _))
theorem hcount34 : ∀ w, grid34.bufCount (spec34 w).reads (spec34 w).sync = (spec34 w).nbuf := fun | 0 => nbuf34_0 | 1 => nbuf34_1 | ⟨_ + 2, h⟩ => absurd h (Nat.not_lt.2 (Nat.le_add_left _ _))
abbrev ix34 (pf : pre34.Contents (Elt F)) : (w : Fin 2) → grid34.Coords → Fin (spec34 w).shape.rank → Nat := fun | 0 => cc34_transform_1 | 1 => cc34_transform_2 | ⟨_ + 2, h⟩ => absurd h (Nat.not_lt.2 (Nat.le_add_left _ _))
theorem hreads34 : ∀ (pf : pre34.Contents (Elt F)) w (i i' : grid34.Coords), (∀ a, (spec34 w).reads a = true → i a = i' a) → ix34 pf w i = ix34 pf w i' := fun pf => fun | 0 => hreads34_0 | 1 => hreads34_1 | ⟨_ + 2, h⟩ => absurd h (Nat.not_lt.2 (Nat.le_add_left _ _))
def ok34 (_ : pre34.Contents (Elt F)) : Prop :=
  True
instance (pf : pre34.Contents (Elt F)) : Decidable (ok34 pf) := decidable_of_iff' _ (Iff.of_eq (ok34.eq_1 pf))
theorem hinb34 : ∀ (pf : pre34.Contents (Elt F)), ok34 pf → ∀ w (i : grid34.Coords) a, (ix34 pf w i a + 1) * (spec34 w).size a ≤ (spec34 w).shape.size a :=
  fun _ _ => fun | 0 => hinb34_0 | 1 => hinb34_1 | ⟨_ + 2, h⟩ => absurd h (Nat.not_lt.2 (Nat.le_add_left _ _))
theorem hwx34 : ∀ (pf : pre34.Contents (Elt F)) (hok : ok34 pf) w (i : grid34.Coords), (spec34 w).elt.bits = 32 ∨ (Rect.block (spec34 w).size (ix34 pf w i) (hinb34 pf hok w i)).WholeWords (spec34 w).elt.packing :=
  fun _ _ => fun | 0 => hwx34_0 | 1 => hwx34_1 | ⟨_ + 2, h⟩ => absurd h (Nat.not_lt.2 (Nat.le_add_left _ _))
abbrev spec35_0 : Pipeline.WinSpec sig grid35.rank :=
  Pipeline.WinSpec.ofSpec (Memref.whole main_v153) S8x1.size reads35_0 false false 2 stage35_0 sem35_0 nbuf35_0 hstage35_0

abbrev spec35_1 : Pipeline.WinSpec sig grid35.rank :=
  Pipeline.WinSpec.ofSpec (Memref.whole main_v154) S8x64.size reads35_1 true false 2 stage35_1 sem35_1 nbuf35_1 hstage35_1

abbrev spec35 : Fin 2 → Pipeline.WinSpec sig grid35.rank := fun | 0 => spec35_0 | 1 => spec35_1 | ⟨_ + 2, h⟩ => absurd h (Nat.not_lt.2 (Nat.le_add_left _ _))
theorem hcount35 : ∀ w, grid35.bufCount (spec35 w).reads (spec35 w).sync = (spec35 w).nbuf := fun | 0 => nbuf35_0 | 1 => nbuf35_1 | ⟨_ + 2, h⟩ => absurd h (Nat.not_lt.2 (Nat.le_add_left _ _))
abbrev ix35 (pf : pre35.Contents (Elt F)) : (w : Fin 2) → grid35.Coords → Fin (spec35 w).shape.rank → Nat := fun | 0 => cc35_transform_1 | 1 => cc35_transform_2 | ⟨_ + 2, h⟩ => absurd h (Nat.not_lt.2 (Nat.le_add_left _ _))
theorem hreads35 : ∀ (pf : pre35.Contents (Elt F)) w (i i' : grid35.Coords), (∀ a, (spec35 w).reads a = true → i a = i' a) → ix35 pf w i = ix35 pf w i' := fun pf => fun | 0 => hreads35_0 | 1 => hreads35_1 | ⟨_ + 2, h⟩ => absurd h (Nat.not_lt.2 (Nat.le_add_left _ _))
def ok35 (_ : pre35.Contents (Elt F)) : Prop :=
  True
instance (pf : pre35.Contents (Elt F)) : Decidable (ok35 pf) := decidable_of_iff' _ (Iff.of_eq (ok35.eq_1 pf))
theorem hinb35 : ∀ (pf : pre35.Contents (Elt F)), ok35 pf → ∀ w (i : grid35.Coords) a, (ix35 pf w i a + 1) * (spec35 w).size a ≤ (spec35 w).shape.size a :=
  fun _ _ => fun | 0 => hinb35_0 | 1 => hinb35_1 | ⟨_ + 2, h⟩ => absurd h (Nat.not_lt.2 (Nat.le_add_left _ _))
theorem hwx35 : ∀ (pf : pre35.Contents (Elt F)) (hok : ok35 pf) w (i : grid35.Coords), (spec35 w).elt.bits = 32 ∨ (Rect.block (spec35 w).size (ix35 pf w i) (hinb35 pf hok w i)).WholeWords (spec35 w).elt.packing :=
  fun _ _ => fun | 0 => hwx35_0 | 1 => hwx35_1 | ⟨_ + 2, h⟩ => absurd h (Nat.not_lt.2 (Nat.le_add_left _ _))
abbrev spec36_0 : Pipeline.WinSpec sig grid36.rank :=
  Pipeline.WinSpec.ofSpec (Memref.whole main_v157) S8x1.size reads36_0 false false 2 stage36_0 sem36_0 nbuf36_0 hstage36_0

abbrev spec36_1 : Pipeline.WinSpec sig grid36.rank :=
  Pipeline.WinSpec.ofSpec (Memref.whole main_v158) S8x64.size reads36_1 true false 2 stage36_1 sem36_1 nbuf36_1 hstage36_1

abbrev spec36 : Fin 2 → Pipeline.WinSpec sig grid36.rank := fun | 0 => spec36_0 | 1 => spec36_1 | ⟨_ + 2, h⟩ => absurd h (Nat.not_lt.2 (Nat.le_add_left _ _))
theorem hcount36 : ∀ w, grid36.bufCount (spec36 w).reads (spec36 w).sync = (spec36 w).nbuf := fun | 0 => nbuf36_0 | 1 => nbuf36_1 | ⟨_ + 2, h⟩ => absurd h (Nat.not_lt.2 (Nat.le_add_left _ _))
abbrev ix36 (pf : pre36.Contents (Elt F)) : (w : Fin 2) → grid36.Coords → Fin (spec36 w).shape.rank → Nat := fun | 0 => cc36_transform_1 | 1 => cc36_transform_2 | ⟨_ + 2, h⟩ => absurd h (Nat.not_lt.2 (Nat.le_add_left _ _))
theorem hreads36 : ∀ (pf : pre36.Contents (Elt F)) w (i i' : grid36.Coords), (∀ a, (spec36 w).reads a = true → i a = i' a) → ix36 pf w i = ix36 pf w i' := fun pf => fun | 0 => hreads36_0 | 1 => hreads36_1 | ⟨_ + 2, h⟩ => absurd h (Nat.not_lt.2 (Nat.le_add_left _ _))
def ok36 (_ : pre36.Contents (Elt F)) : Prop :=
  True
instance (pf : pre36.Contents (Elt F)) : Decidable (ok36 pf) := decidable_of_iff' _ (Iff.of_eq (ok36.eq_1 pf))
theorem hinb36 : ∀ (pf : pre36.Contents (Elt F)), ok36 pf → ∀ w (i : grid36.Coords) a, (ix36 pf w i a + 1) * (spec36 w).size a ≤ (spec36 w).shape.size a :=
  fun _ _ => fun | 0 => hinb36_0 | 1 => hinb36_1 | ⟨_ + 2, h⟩ => absurd h (Nat.not_lt.2 (Nat.le_add_left _ _))
theorem hwx36 : ∀ (pf : pre36.Contents (Elt F)) (hok : ok36 pf) w (i : grid36.Coords), (spec36 w).elt.bits = 32 ∨ (Rect.block (spec36 w).size (ix36 pf w i) (hinb36 pf hok w i)).WholeWords (spec36 w).elt.packing :=
  fun _ _ => fun | 0 => hwx36_0 | 1 => hwx36_1 | ⟨_ + 2, h⟩ => absurd h (Nat.not_lt.2 (Nat.le_add_left _ _))
abbrev spec37_0 : Pipeline.WinSpec sig grid37.rank :=
  Pipeline.WinSpec.ofSpec (Memref.whole main_v161) S8x1.size reads37_0 false false 2 stage37_0 sem37_0 nbuf37_0 hstage37_0

abbrev spec37_1 : Pipeline.WinSpec sig grid37.rank :=
  Pipeline.WinSpec.ofSpec (Memref.whole main_v162) S8x64.size reads37_1 true false 2 stage37_1 sem37_1 nbuf37_1 hstage37_1

abbrev spec37 : Fin 2 → Pipeline.WinSpec sig grid37.rank := fun | 0 => spec37_0 | 1 => spec37_1 | ⟨_ + 2, h⟩ => absurd h (Nat.not_lt.2 (Nat.le_add_left _ _))
theorem hcount37 : ∀ w, grid37.bufCount (spec37 w).reads (spec37 w).sync = (spec37 w).nbuf := fun | 0 => nbuf37_0 | 1 => nbuf37_1 | ⟨_ + 2, h⟩ => absurd h (Nat.not_lt.2 (Nat.le_add_left _ _))
abbrev ix37 (pf : pre37.Contents (Elt F)) : (w : Fin 2) → grid37.Coords → Fin (spec37 w).shape.rank → Nat := fun | 0 => cc37_transform_1 | 1 => cc37_transform_2 | ⟨_ + 2, h⟩ => absurd h (Nat.not_lt.2 (Nat.le_add_left _ _))
theorem hreads37 : ∀ (pf : pre37.Contents (Elt F)) w (i i' : grid37.Coords), (∀ a, (spec37 w).reads a = true → i a = i' a) → ix37 pf w i = ix37 pf w i' := fun pf => fun | 0 => hreads37_0 | 1 => hreads37_1 | ⟨_ + 2, h⟩ => absurd h (Nat.not_lt.2 (Nat.le_add_left _ _))
def ok37 (_ : pre37.Contents (Elt F)) : Prop :=
  True
instance (pf : pre37.Contents (Elt F)) : Decidable (ok37 pf) := decidable_of_iff' _ (Iff.of_eq (ok37.eq_1 pf))
theorem hinb37 : ∀ (pf : pre37.Contents (Elt F)), ok37 pf → ∀ w (i : grid37.Coords) a, (ix37 pf w i a + 1) * (spec37 w).size a ≤ (spec37 w).shape.size a :=
  fun _ _ => fun | 0 => hinb37_0 | 1 => hinb37_1 | ⟨_ + 2, h⟩ => absurd h (Nat.not_lt.2 (Nat.le_add_left _ _))
theorem hwx37 : ∀ (pf : pre37.Contents (Elt F)) (hok : ok37 pf) w (i : grid37.Coords), (spec37 w).elt.bits = 32 ∨ (Rect.block (spec37 w).size (ix37 pf w i) (hinb37 pf hok w i)).WholeWords (spec37 w).elt.packing :=
  fun _ _ => fun | 0 => hwx37_0 | 1 => hwx37_1 | ⟨_ + 2, h⟩ => absurd h (Nat.not_lt.2 (Nat.le_add_left _ _))
abbrev spec38_0 : Pipeline.WinSpec sig grid38.rank :=
  Pipeline.WinSpec.ofSpec (Memref.whole main_v165) S8x1.size reads38_0 false false 2 stage38_0 sem38_0 nbuf38_0 hstage38_0

abbrev spec38_1 : Pipeline.WinSpec sig grid38.rank :=
  Pipeline.WinSpec.ofSpec (Memref.whole main_v166) S8x64.size reads38_1 true false 2 stage38_1 sem38_1 nbuf38_1 hstage38_1

abbrev spec38 : Fin 2 → Pipeline.WinSpec sig grid38.rank := fun | 0 => spec38_0 | 1 => spec38_1 | ⟨_ + 2, h⟩ => absurd h (Nat.not_lt.2 (Nat.le_add_left _ _))
theorem hcount38 : ∀ w, grid38.bufCount (spec38 w).reads (spec38 w).sync = (spec38 w).nbuf := fun | 0 => nbuf38_0 | 1 => nbuf38_1 | ⟨_ + 2, h⟩ => absurd h (Nat.not_lt.2 (Nat.le_add_left _ _))
abbrev ix38 (pf : pre38.Contents (Elt F)) : (w : Fin 2) → grid38.Coords → Fin (spec38 w).shape.rank → Nat := fun | 0 => cc38_transform_1 | 1 => cc38_transform_2 | ⟨_ + 2, h⟩ => absurd h (Nat.not_lt.2 (Nat.le_add_left _ _))
theorem hreads38 : ∀ (pf : pre38.Contents (Elt F)) w (i i' : grid38.Coords), (∀ a, (spec38 w).reads a = true → i a = i' a) → ix38 pf w i = ix38 pf w i' := fun pf => fun | 0 => hreads38_0 | 1 => hreads38_1 | ⟨_ + 2, h⟩ => absurd h (Nat.not_lt.2 (Nat.le_add_left _ _))
def ok38 (_ : pre38.Contents (Elt F)) : Prop :=
  True
instance (pf : pre38.Contents (Elt F)) : Decidable (ok38 pf) := decidable_of_iff' _ (Iff.of_eq (ok38.eq_1 pf))
theorem hinb38 : ∀ (pf : pre38.Contents (Elt F)), ok38 pf → ∀ w (i : grid38.Coords) a, (ix38 pf w i a + 1) * (spec38 w).size a ≤ (spec38 w).shape.size a :=
  fun _ _ => fun | 0 => hinb38_0 | 1 => hinb38_1 | ⟨_ + 2, h⟩ => absurd h (Nat.not_lt.2 (Nat.le_add_left _ _))
theorem hwx38 : ∀ (pf : pre38.Contents (Elt F)) (hok : ok38 pf) w (i : grid38.Coords), (spec38 w).elt.bits = 32 ∨ (Rect.block (spec38 w).size (ix38 pf w i) (hinb38 pf hok w i)).WholeWords (spec38 w).elt.packing :=
  fun _ _ => fun | 0 => hwx38_0 | 1 => hwx38_1 | ⟨_ + 2, h⟩ => absurd h (Nat.not_lt.2 (Nat.le_add_left _ _))
abbrev spec39_0 : Pipeline.WinSpec sig grid39.rank :=
  Pipeline.WinSpec.ofSpec (Memref.whole main_v169) S8x1.size reads39_0 false false 2 stage39_0 sem39_0 nbuf39_0 hstage39_0

abbrev spec39_1 : Pipeline.WinSpec sig grid39.rank :=
  Pipeline.WinSpec.ofSpec (Memref.whole main_v170) S8x64.size reads39_1 true false 2 stage39_1 sem39_1 nbuf39_1 hstage39_1

abbrev spec39 : Fin 2 → Pipeline.WinSpec sig grid39.rank := fun | 0 => spec39_0 | 1 => spec39_1 | ⟨_ + 2, h⟩ => absurd h (Nat.not_lt.2 (Nat.le_add_left _ _))
theorem hcount39 : ∀ w, grid39.bufCount (spec39 w).reads (spec39 w).sync = (spec39 w).nbuf := fun | 0 => nbuf39_0 | 1 => nbuf39_1 | ⟨_ + 2, h⟩ => absurd h (Nat.not_lt.2 (Nat.le_add_left _ _))
abbrev ix39 (pf : pre39.Contents (Elt F)) : (w : Fin 2) → grid39.Coords → Fin (spec39 w).shape.rank → Nat := fun | 0 => cc39_transform_1 | 1 => cc39_transform_2 | ⟨_ + 2, h⟩ => absurd h (Nat.not_lt.2 (Nat.le_add_left _ _))
theorem hreads39 : ∀ (pf : pre39.Contents (Elt F)) w (i i' : grid39.Coords), (∀ a, (spec39 w).reads a = true → i a = i' a) → ix39 pf w i = ix39 pf w i' := fun pf => fun | 0 => hreads39_0 | 1 => hreads39_1 | ⟨_ + 2, h⟩ => absurd h (Nat.not_lt.2 (Nat.le_add_left _ _))
def ok39 (_ : pre39.Contents (Elt F)) : Prop :=
  True
instance (pf : pre39.Contents (Elt F)) : Decidable (ok39 pf) := decidable_of_iff' _ (Iff.of_eq (ok39.eq_1 pf))
theorem hinb39 : ∀ (pf : pre39.Contents (Elt F)), ok39 pf → ∀ w (i : grid39.Coords) a, (ix39 pf w i a + 1) * (spec39 w).size a ≤ (spec39 w).shape.size a :=
  fun _ _ => fun | 0 => hinb39_0 | 1 => hinb39_1 | ⟨_ + 2, h⟩ => absurd h (Nat.not_lt.2 (Nat.le_add_left _ _))
theorem hwx39 : ∀ (pf : pre39.Contents (Elt F)) (hok : ok39 pf) w (i : grid39.Coords), (spec39 w).elt.bits = 32 ∨ (Rect.block (spec39 w).size (ix39 pf w i) (hinb39 pf hok w i)).WholeWords (spec39 w).elt.packing :=
  fun _ _ => fun | 0 => hwx39_0 | 1 => hwx39_1 | ⟨_ + 2, h⟩ => absurd h (Nat.not_lt.2 (Nat.le_add_left _ _))
abbrev spec40_0 : Pipeline.WinSpec sig grid40.rank :=
  Pipeline.WinSpec.ofSpec (Memref.whole main_v173) S8x1.size reads40_0 false false 2 stage40_0 sem40_0 nbuf40_0 hstage40_0

abbrev spec40_1 : Pipeline.WinSpec sig grid40.rank :=
  Pipeline.WinSpec.ofSpec (Memref.whole main_v174) S8x64.size reads40_1 true false 2 stage40_1 sem40_1 nbuf40_1 hstage40_1

abbrev spec40 : Fin 2 → Pipeline.WinSpec sig grid40.rank := fun | 0 => spec40_0 | 1 => spec40_1 | ⟨_ + 2, h⟩ => absurd h (Nat.not_lt.2 (Nat.le_add_left _ _))
theorem hcount40 : ∀ w, grid40.bufCount (spec40 w).reads (spec40 w).sync = (spec40 w).nbuf := fun | 0 => nbuf40_0 | 1 => nbuf40_1 | ⟨_ + 2, h⟩ => absurd h (Nat.not_lt.2 (Nat.le_add_left _ _))
abbrev ix40 (pf : pre40.Contents (Elt F)) : (w : Fin 2) → grid40.Coords → Fin (spec40 w).shape.rank → Nat := fun | 0 => cc40_transform_1 | 1 => cc40_transform_2 | ⟨_ + 2, h⟩ => absurd h (Nat.not_lt.2 (Nat.le_add_left _ _))
theorem hreads40 : ∀ (pf : pre40.Contents (Elt F)) w (i i' : grid40.Coords), (∀ a, (spec40 w).reads a = true → i a = i' a) → ix40 pf w i = ix40 pf w i' := fun pf => fun | 0 => hreads40_0 | 1 => hreads40_1 | ⟨_ + 2, h⟩ => absurd h (Nat.not_lt.2 (Nat.le_add_left _ _))
def ok40 (_ : pre40.Contents (Elt F)) : Prop :=
  True
instance (pf : pre40.Contents (Elt F)) : Decidable (ok40 pf) := decidable_of_iff' _ (Iff.of_eq (ok40.eq_1 pf))
theorem hinb40 : ∀ (pf : pre40.Contents (Elt F)), ok40 pf → ∀ w (i : grid40.Coords) a, (ix40 pf w i a + 1) * (spec40 w).size a ≤ (spec40 w).shape.size a :=
  fun _ _ => fun | 0 => hinb40_0 | 1 => hinb40_1 | ⟨_ + 2, h⟩ => absurd h (Nat.not_lt.2 (Nat.le_add_left _ _))
theorem hwx40 : ∀ (pf : pre40.Contents (Elt F)) (hok : ok40 pf) w (i : grid40.Coords), (spec40 w).elt.bits = 32 ∨ (Rect.block (spec40 w).size (ix40 pf w i) (hinb40 pf hok w i)).WholeWords (spec40 w).elt.packing :=
  fun _ _ => fun | 0 => hwx40_0 | 1 => hwx40_1 | ⟨_ + 2, h⟩ => absurd h (Nat.not_lt.2 (Nat.le_add_left _ _))
abbrev spec41_0 : Pipeline.WinSpec sig grid41.rank :=
  Pipeline.WinSpec.ofSpec (Memref.whole main_v177) S8x1.size reads41_0 false false 2 stage41_0 sem41_0 nbuf41_0 hstage41_0

abbrev spec41_1 : Pipeline.WinSpec sig grid41.rank :=
  Pipeline.WinSpec.ofSpec (Memref.whole main_v178) S8x64.size reads41_1 true false 2 stage41_1 sem41_1 nbuf41_1 hstage41_1

abbrev spec41 : Fin 2 → Pipeline.WinSpec sig grid41.rank := fun | 0 => spec41_0 | 1 => spec41_1 | ⟨_ + 2, h⟩ => absurd h (Nat.not_lt.2 (Nat.le_add_left _ _))
theorem hcount41 : ∀ w, grid41.bufCount (spec41 w).reads (spec41 w).sync = (spec41 w).nbuf := fun | 0 => nbuf41_0 | 1 => nbuf41_1 | ⟨_ + 2, h⟩ => absurd h (Nat.not_lt.2 (Nat.le_add_left _ _))
abbrev ix41 (pf : pre41.Contents (Elt F)) : (w : Fin 2) → grid41.Coords → Fin (spec41 w).shape.rank → Nat := fun | 0 => cc41_transform_1 | 1 => cc41_transform_2 | ⟨_ + 2, h⟩ => absurd h (Nat.not_lt.2 (Nat.le_add_left _ _))
theorem hreads41 : ∀ (pf : pre41.Contents (Elt F)) w (i i' : grid41.Coords), (∀ a, (spec41 w).reads a = true → i a = i' a) → ix41 pf w i = ix41 pf w i' := fun pf => fun | 0 => hreads41_0 | 1 => hreads41_1 | ⟨_ + 2, h⟩ => absurd h (Nat.not_lt.2 (Nat.le_add_left _ _))
def ok41 (_ : pre41.Contents (Elt F)) : Prop :=
  True
instance (pf : pre41.Contents (Elt F)) : Decidable (ok41 pf) := decidable_of_iff' _ (Iff.of_eq (ok41.eq_1 pf))
theorem hinb41 : ∀ (pf : pre41.Contents (Elt F)), ok41 pf → ∀ w (i : grid41.Coords) a, (ix41 pf w i a + 1) * (spec41 w).size a ≤ (spec41 w).shape.size a :=
  fun _ _ => fun | 0 => hinb41_0 | 1 => hinb41_1 | ⟨_ + 2, h⟩ => absurd h (Nat.not_lt.2 (Nat.le_add_left _ _))
theorem hwx41 : ∀ (pf : pre41.Contents (Elt F)) (hok : ok41 pf) w (i : grid41.Coords), (spec41 w).elt.bits = 32 ∨ (Rect.block (spec41 w).size (ix41 pf w i) (hinb41 pf hok w i)).WholeWords (spec41 w).elt.packing :=
  fun _ _ => fun | 0 => hwx41_0 | 1 => hwx41_1 | ⟨_ + 2, h⟩ => absurd h (Nat.not_lt.2 (Nat.le_add_left _ _))
abbrev spec42_0 : Pipeline.WinSpec sig grid42.rank :=
  Pipeline.WinSpec.ofSpec (Memref.whole main_v181) S8x1.size reads42_0 false false 2 stage42_0 sem42_0 nbuf42_0 hstage42_0

abbrev spec42_1 : Pipeline.WinSpec sig grid42.rank :=
  Pipeline.WinSpec.ofSpec (Memref.whole main_v182) S8x64.size reads42_1 true false 2 stage42_1 sem42_1 nbuf42_1 hstage42_1

abbrev spec42 : Fin 2 → Pipeline.WinSpec sig grid42.rank := fun | 0 => spec42_0 | 1 => spec42_1 | ⟨_ + 2, h⟩ => absurd h (Nat.not_lt.2 (Nat.le_add_left _ _))
theorem hcount42 : ∀ w, grid42.bufCount (spec42 w).reads (spec42 w).sync = (spec42 w).nbuf := fun | 0 => nbuf42_0 | 1 => nbuf42_1 | ⟨_ + 2, h⟩ => absurd h (Nat.not_lt.2 (Nat.le_add_left _ _))
abbrev ix42 (pf : pre42.Contents (Elt F)) : (w : Fin 2) → grid42.Coords → Fin (spec42 w).shape.rank → Nat := fun | 0 => cc42_transform_1 | 1 => cc42_transform_2 | ⟨_ + 2, h⟩ => absurd h (Nat.not_lt.2 (Nat.le_add_left _ _))
theorem hreads42 : ∀ (pf : pre42.Contents (Elt F)) w (i i' : grid42.Coords), (∀ a, (spec42 w).reads a = true → i a = i' a) → ix42 pf w i = ix42 pf w i' := fun pf => fun | 0 => hreads42_0 | 1 => hreads42_1 | ⟨_ + 2, h⟩ => absurd h (Nat.not_lt.2 (Nat.le_add_left _ _))
def ok42 (_ : pre42.Contents (Elt F)) : Prop :=
  True
instance (pf : pre42.Contents (Elt F)) : Decidable (ok42 pf) := decidable_of_iff' _ (Iff.of_eq (ok42.eq_1 pf))
theorem hinb42 : ∀ (pf : pre42.Contents (Elt F)), ok42 pf → ∀ w (i : grid42.Coords) a, (ix42 pf w i a + 1) * (spec42 w).size a ≤ (spec42 w).shape.size a :=
  fun _ _ => fun | 0 => hinb42_0 | 1 => hinb42_1 | ⟨_ + 2, h⟩ => absurd h (Nat.not_lt.2 (Nat.le_add_left _ _))
theorem hwx42 : ∀ (pf : pre42.Contents (Elt F)) (hok : ok42 pf) w (i : grid42.Coords), (spec42 w).elt.bits = 32 ∨ (Rect.block (spec42 w).size (ix42 pf w i) (hinb42 pf hok w i)).WholeWords (spec42 w).elt.packing :=
  fun _ _ => fun | 0 => hwx42_0 | 1 => hwx42_1 | ⟨_ + 2, h⟩ => absurd h (Nat.not_lt.2 (Nat.le_add_left _ _))
abbrev spec43_0 : Pipeline.WinSpec sig grid43.rank :=
  Pipeline.WinSpec.ofSpec (Memref.whole main_v185) S8x1.size reads43_0 false false 2 stage43_0 sem43_0 nbuf43_0 hstage43_0

abbrev spec43_1 : Pipeline.WinSpec sig grid43.rank :=
  Pipeline.WinSpec.ofSpec (Memref.whole main_v186) S8x64.size reads43_1 true false 2 stage43_1 sem43_1 nbuf43_1 hstage43_1

abbrev spec43 : Fin 2 → Pipeline.WinSpec sig grid43.rank := fun | 0 => spec43_0 | 1 => spec43_1 | ⟨_ + 2, h⟩ => absurd h (Nat.not_lt.2 (Nat.le_add_left _ _))
theorem hcount43 : ∀ w, grid43.bufCount (spec43 w).reads (spec43 w).sync = (spec43 w).nbuf := fun | 0 => nbuf43_0 | 1 => nbuf43_1 | ⟨_ + 2, h⟩ => absurd h (Nat.not_lt.2 (Nat.le_add_left _ _))
abbrev ix43 (pf : pre43.Contents (Elt F)) : (w : Fin 2) → grid43.Coords → Fin (spec43 w).shape.rank → Nat := fun | 0 => cc43_transform_1 | 1 => cc43_transform_2 | ⟨_ + 2, h⟩ => absurd h (Nat.not_lt.2 (Nat.le_add_left _ _))
theorem hreads43 : ∀ (pf : pre43.Contents (Elt F)) w (i i' : grid43.Coords), (∀ a, (spec43 w).reads a = true → i a = i' a) → ix43 pf w i = ix43 pf w i' := fun pf => fun | 0 => hreads43_0 | 1 => hreads43_1 | ⟨_ + 2, h⟩ => absurd h (Nat.not_lt.2 (Nat.le_add_left _ _))
def ok43 (_ : pre43.Contents (Elt F)) : Prop :=
  True
instance (pf : pre43.Contents (Elt F)) : Decidable (ok43 pf) := decidable_of_iff' _ (Iff.of_eq (ok43.eq_1 pf))
theorem hinb43 : ∀ (pf : pre43.Contents (Elt F)), ok43 pf → ∀ w (i : grid43.Coords) a, (ix43 pf w i a + 1) * (spec43 w).size a ≤ (spec43 w).shape.size a :=
  fun _ _ => fun | 0 => hinb43_0 | 1 => hinb43_1 | ⟨_ + 2, h⟩ => absurd h (Nat.not_lt.2 (Nat.le_add_left _ _))
theorem hwx43 : ∀ (pf : pre43.Contents (Elt F)) (hok : ok43 pf) w (i : grid43.Coords), (spec43 w).elt.bits = 32 ∨ (Rect.block (spec43 w).size (ix43 pf w i) (hinb43 pf hok w i)).WholeWords (spec43 w).elt.packing :=
  fun _ _ => fun | 0 => hwx43_0 | 1 => hwx43_1 | ⟨_ + 2, h⟩ => absurd h (Nat.not_lt.2 (Nat.le_add_left _ _))
abbrev spec44_0 : Pipeline.WinSpec sig grid44.rank :=
  Pipeline.WinSpec.ofSpec (Memref.whole main_v189) S8x1.size reads44_0 false false 2 stage44_0 sem44_0 nbuf44_0 hstage44_0

abbrev spec44_1 : Pipeline.WinSpec sig grid44.rank :=
  Pipeline.WinSpec.ofSpec (Memref.whole main_v190) S8x64.size reads44_1 true false 2 stage44_1 sem44_1 nbuf44_1 hstage44_1

abbrev spec44 : Fin 2 → Pipeline.WinSpec sig grid44.rank := fun | 0 => spec44_0 | 1 => spec44_1 | ⟨_ + 2, h⟩ => absurd h (Nat.not_lt.2 (Nat.le_add_left _ _))
theorem hcount44 : ∀ w, grid44.bufCount (spec44 w).reads (spec44 w).sync = (spec44 w).nbuf := fun | 0 => nbuf44_0 | 1 => nbuf44_1 | ⟨_ + 2, h⟩ => absurd h (Nat.not_lt.2 (Nat.le_add_left _ _))
abbrev ix44 (pf : pre44.Contents (Elt F)) : (w : Fin 2) → grid44.Coords → Fin (spec44 w).shape.rank → Nat := fun | 0 => cc44_transform_1 | 1 => cc44_transform_2 | ⟨_ + 2, h⟩ => absurd h (Nat.not_lt.2 (Nat.le_add_left _ _))
theorem hreads44 : ∀ (pf : pre44.Contents (Elt F)) w (i i' : grid44.Coords), (∀ a, (spec44 w).reads a = true → i a = i' a) → ix44 pf w i = ix44 pf w i' := fun pf => fun | 0 => hreads44_0 | 1 => hreads44_1 | ⟨_ + 2, h⟩ => absurd h (Nat.not_lt.2 (Nat.le_add_left _ _))
def ok44 (_ : pre44.Contents (Elt F)) : Prop :=
  True
instance (pf : pre44.Contents (Elt F)) : Decidable (ok44 pf) := decidable_of_iff' _ (Iff.of_eq (ok44.eq_1 pf))
theorem hinb44 : ∀ (pf : pre44.Contents (Elt F)), ok44 pf → ∀ w (i : grid44.Coords) a, (ix44 pf w i a + 1) * (spec44 w).size a ≤ (spec44 w).shape.size a :=
  fun _ _ => fun | 0 => hinb44_0 | 1 => hinb44_1 | ⟨_ + 2, h⟩ => absurd h (Nat.not_lt.2 (Nat.le_add_left _ _))
theorem hwx44 : ∀ (pf : pre44.Contents (Elt F)) (hok : ok44 pf) w (i : grid44.Coords), (spec44 w).elt.bits = 32 ∨ (Rect.block (spec44 w).size (ix44 pf w i) (hinb44 pf hok w i)).WholeWords (spec44 w).elt.packing :=
  fun _ _ => fun | 0 => hwx44_0 | 1 => hwx44_1 | ⟨_ + 2, h⟩ => absurd h (Nat.not_lt.2 (Nat.le_add_left _ _))
abbrev spec45_0 : Pipeline.WinSpec sig grid45.rank :=
  Pipeline.WinSpec.ofSpec (Memref.whole main_v193) S8x1.size reads45_0 false false 2 stage45_0 sem45_0 nbuf45_0 hstage45_0

abbrev spec45_1 : Pipeline.WinSpec sig grid45.rank :=
  Pipeline.WinSpec.ofSpec (Memref.whole main_v194) S8x64.size reads45_1 true false 2 stage45_1 sem45_1 nbuf45_1 hstage45_1

abbrev spec45 : Fin 2 → Pipeline.WinSpec sig grid45.rank := fun | 0 => spec45_0 | 1 => spec45_1 | ⟨_ + 2, h⟩ => absurd h (Nat.not_lt.2 (Nat.le_add_left _ _))
theorem hcount45 : ∀ w, grid45.bufCount (spec45 w).reads (spec45 w).sync = (spec45 w).nbuf := fun | 0 => nbuf45_0 | 1 => nbuf45_1 | ⟨_ + 2, h⟩ => absurd h (Nat.not_lt.2 (Nat.le_add_left _ _))
abbrev ix45 (pf : pre45.Contents (Elt F)) : (w : Fin 2) → grid45.Coords → Fin (spec45 w).shape.rank → Nat := fun | 0 => cc45_transform_1 | 1 => cc45_transform_2 | ⟨_ + 2, h⟩ => absurd h (Nat.not_lt.2 (Nat.le_add_left _ _))
theorem hreads45 : ∀ (pf : pre45.Contents (Elt F)) w (i i' : grid45.Coords), (∀ a, (spec45 w).reads a = true → i a = i' a) → ix45 pf w i = ix45 pf w i' := fun pf => fun | 0 => hreads45_0 | 1 => hreads45_1 | ⟨_ + 2, h⟩ => absurd h (Nat.not_lt.2 (Nat.le_add_left _ _))
def ok45 (_ : pre45.Contents (Elt F)) : Prop :=
  True
instance (pf : pre45.Contents (Elt F)) : Decidable (ok45 pf) := decidable_of_iff' _ (Iff.of_eq (ok45.eq_1 pf))
theorem hinb45 : ∀ (pf : pre45.Contents (Elt F)), ok45 pf → ∀ w (i : grid45.Coords) a, (ix45 pf w i a + 1) * (spec45 w).size a ≤ (spec45 w).shape.size a :=
  fun _ _ => fun | 0 => hinb45_0 | 1 => hinb45_1 | ⟨_ + 2, h⟩ => absurd h (Nat.not_lt.2 (Nat.le_add_left _ _))
theorem hwx45 : ∀ (pf : pre45.Contents (Elt F)) (hok : ok45 pf) w (i : grid45.Coords), (spec45 w).elt.bits = 32 ∨ (Rect.block (spec45 w).size (ix45 pf w i) (hinb45 pf hok w i)).WholeWords (spec45 w).elt.packing :=
  fun _ _ => fun | 0 => hwx45_0 | 1 => hwx45_1 | ⟨_ + 2, h⟩ => absurd h (Nat.not_lt.2 (Nat.le_add_left _ _))
abbrev spec46_0 : Pipeline.WinSpec sig grid46.rank :=
  Pipeline.WinSpec.ofSpec (Memref.whole main_v197) S8x1.size reads46_0 false false 2 stage46_0 sem46_0 nbuf46_0 hstage46_0

abbrev spec46_1 : Pipeline.WinSpec sig grid46.rank :=
  Pipeline.WinSpec.ofSpec (Memref.whole main_v198) S8x64.size reads46_1 true false 2 stage46_1 sem46_1 nbuf46_1 hstage46_1

abbrev spec46 : Fin 2 → Pipeline.WinSpec sig grid46.rank := fun | 0 => spec46_0 | 1 => spec46_1 | ⟨_ + 2, h⟩ => absurd h (Nat.not_lt.2 (Nat.le_add_left _ _))
theorem hcount46 : ∀ w, grid46.bufCount (spec46 w).reads (spec46 w).sync = (spec46 w).nbuf := fun | 0 => nbuf46_0 | 1 => nbuf46_1 | ⟨_ + 2, h⟩ => absurd h (Nat.not_lt.2 (Nat.le_add_left _ _))
abbrev ix46 (pf : pre46.Contents (Elt F)) : (w : Fin 2) → grid46.Coords → Fin (spec46 w).shape.rank → Nat := fun | 0 => cc46_transform_1 | 1 => cc46_transform_2 | ⟨_ + 2, h⟩ => absurd h (Nat.not_lt.2 (Nat.le_add_left _ _))
theorem hreads46 : ∀ (pf : pre46.Contents (Elt F)) w (i i' : grid46.Coords), (∀ a, (spec46 w).reads a = true → i a = i' a) → ix46 pf w i = ix46 pf w i' := fun pf => fun | 0 => hreads46_0 | 1 => hreads46_1 | ⟨_ + 2, h⟩ => absurd h (Nat.not_lt.2 (Nat.le_add_left _ _))
def ok46 (_ : pre46.Contents (Elt F)) : Prop :=
  True
instance (pf : pre46.Contents (Elt F)) : Decidable (ok46 pf) := decidable_of_iff' _ (Iff.of_eq (ok46.eq_1 pf))
theorem hinb46 : ∀ (pf : pre46.Contents (Elt F)), ok46 pf → ∀ w (i : grid46.Coords) a, (ix46 pf w i a + 1) * (spec46 w).size a ≤ (spec46 w).shape.size a :=
  fun _ _ => fun | 0 => hinb46_0 | 1 => hinb46_1 | ⟨_ + 2, h⟩ => absurd h (Nat.not_lt.2 (Nat.le_add_left _ _))
theorem hwx46 : ∀ (pf : pre46.Contents (Elt F)) (hok : ok46 pf) w (i : grid46.Coords), (spec46 w).elt.bits = 32 ∨ (Rect.block (spec46 w).size (ix46 pf w i) (hinb46 pf hok w i)).WholeWords (spec46 w).elt.packing :=
  fun _ _ => fun | 0 => hwx46_0 | 1 => hwx46_1 | ⟨_ + 2, h⟩ => absurd h (Nat.not_lt.2 (Nat.le_add_left _ _))
abbrev spec47_0 : Pipeline.WinSpec sig grid47.rank :=
  Pipeline.WinSpec.ofSpec (Memref.whole main_v201) S8x1.size reads47_0 false false 2 stage47_0 sem47_0 nbuf47_0 hstage47_0

abbrev spec47_1 : Pipeline.WinSpec sig grid47.rank :=
  Pipeline.WinSpec.ofSpec (Memref.whole main_v202) S8x64.size reads47_1 true false 2 stage47_1 sem47_1 nbuf47_1 hstage47_1

abbrev spec47 : Fin 2 → Pipeline.WinSpec sig grid47.rank := fun | 0 => spec47_0 | 1 => spec47_1 | ⟨_ + 2, h⟩ => absurd h (Nat.not_lt.2 (Nat.le_add_left _ _))
theorem hcount47 : ∀ w, grid47.bufCount (spec47 w).reads (spec47 w).sync = (spec47 w).nbuf := fun | 0 => nbuf47_0 | 1 => nbuf47_1 | ⟨_ + 2, h⟩ => absurd h (Nat.not_lt.2 (Nat.le_add_left _ _))
abbrev ix47 (pf : pre47.Contents (Elt F)) : (w : Fin 2) → grid47.Coords → Fin (spec47 w).shape.rank → Nat := fun | 0 => cc47_transform_1 | 1 => cc47_transform_2 | ⟨_ + 2, h⟩ => absurd h (Nat.not_lt.2 (Nat.le_add_left _ _))
theorem hreads47 : ∀ (pf : pre47.Contents (Elt F)) w (i i' : grid47.Coords), (∀ a, (spec47 w).reads a = true → i a = i' a) → ix47 pf w i = ix47 pf w i' := fun pf => fun | 0 => hreads47_0 | 1 => hreads47_1 | ⟨_ + 2, h⟩ => absurd h (Nat.not_lt.2 (Nat.le_add_left _ _))
def ok47 (_ : pre47.Contents (Elt F)) : Prop :=
  True
instance (pf : pre47.Contents (Elt F)) : Decidable (ok47 pf) := decidable_of_iff' _ (Iff.of_eq (ok47.eq_1 pf))
theorem hinb47 : ∀ (pf : pre47.Contents (Elt F)), ok47 pf → ∀ w (i : grid47.Coords) a, (ix47 pf w i a + 1) * (spec47 w).size a ≤ (spec47 w).shape.size a :=
  fun _ _ => fun | 0 => hinb47_0 | 1 => hinb47_1 | ⟨_ + 2, h⟩ => absurd h (Nat.not_lt.2 (Nat.le_add_left _ _))
theorem hwx47 : ∀ (pf : pre47.Contents (Elt F)) (hok : ok47 pf) w (i : grid47.Coords), (spec47 w).elt.bits = 32 ∨ (Rect.block (spec47 w).size (ix47 pf w i) (hinb47 pf hok w i)).WholeWords (spec47 w).elt.packing :=
  fun _ _ => fun | 0 => hwx47_0 | 1 => hwx47_1 | ⟨_ + 2, h⟩ => absurd h (Nat.not_lt.2 (Nat.le_add_left _ _))
abbrev spec48_0 : Pipeline.WinSpec sig grid48.rank :=
  Pipeline.WinSpec.ofSpec (Memref.whole main_v205) S8x1.size reads48_0 false false 2 stage48_0 sem48_0 nbuf48_0 hstage48_0

abbrev spec48_1 : Pipeline.WinSpec sig grid48.rank :=
  Pipeline.WinSpec.ofSpec (Memref.whole main_v206) S8x64.size reads48_1 true false 2 stage48_1 sem48_1 nbuf48_1 hstage48_1

abbrev spec48 : Fin 2 → Pipeline.WinSpec sig grid48.rank := fun | 0 => spec48_0 | 1 => spec48_1 | ⟨_ + 2, h⟩ => absurd h (Nat.not_lt.2 (Nat.le_add_left _ _))
theorem hcount48 : ∀ w, grid48.bufCount (spec48 w).reads (spec48 w).sync = (spec48 w).nbuf := fun | 0 => nbuf48_0 | 1 => nbuf48_1 | ⟨_ + 2, h⟩ => absurd h (Nat.not_lt.2 (Nat.le_add_left _ _))
abbrev ix48 (pf : pre48.Contents (Elt F)) : (w : Fin 2) → grid48.Coords → Fin (spec48 w).shape.rank → Nat := fun | 0 => cc48_transform_1 | 1 => cc48_transform_2 | ⟨_ + 2, h⟩ => absurd h (Nat.not_lt.2 (Nat.le_add_left _ _))
theorem hreads48 : ∀ (pf : pre48.Contents (Elt F)) w (i i' : grid48.Coords), (∀ a, (spec48 w).reads a = true → i a = i' a) → ix48 pf w i = ix48 pf w i' := fun pf => fun | 0 => hreads48_0 | 1 => hreads48_1 | ⟨_ + 2, h⟩ => absurd h (Nat.not_lt.2 (Nat.le_add_left _ _))
def ok48 (_ : pre48.Contents (Elt F)) : Prop :=
  True
instance (pf : pre48.Contents (Elt F)) : Decidable (ok48 pf) := decidable_of_iff' _ (Iff.of_eq (ok48.eq_1 pf))
theorem hinb48 : ∀ (pf : pre48.Contents (Elt F)), ok48 pf → ∀ w (i : grid48.Coords) a, (ix48 pf w i a + 1) * (spec48 w).size a ≤ (spec48 w).shape.size a :=
  fun _ _ => fun | 0 => hinb48_0 | 1 => hinb48_1 | ⟨_ + 2, h⟩ => absurd h (Nat.not_lt.2 (Nat.le_add_left _ _))
theorem hwx48 : ∀ (pf : pre48.Contents (Elt F)) (hok : ok48 pf) w (i : grid48.Coords), (spec48 w).elt.bits = 32 ∨ (Rect.block (spec48 w).size (ix48 pf w i) (hinb48 pf hok w i)).WholeWords (spec48 w).elt.packing :=
  fun _ _ => fun | 0 => hwx48_0 | 1 => hwx48_1 | ⟨_ + 2, h⟩ => absurd h (Nat.not_lt.2 (Nat.le_add_left _ _))

class Facts : Prop extends Facts₀ where
  harr1 : ∀ w, (spec1 w).arr.IsWhole
  harr2 : ∀ w, (spec2 w).arr.IsWhole
  harr3 : ∀ w, (spec3 w).arr.IsWhole
  harr4 : ∀ w, (spec4 w).arr.IsWhole
  harr5 : ∀ w, (spec5 w).arr.IsWhole
  harr6 : ∀ w, (spec6 w).arr.IsWhole
  harr7 : ∀ w, (spec7 w).arr.IsWhole
  harr8 : ∀ w, (spec8 w).arr.IsWhole
  harr9 : ∀ w, (spec9 w).arr.IsWhole
  harr10 : ∀ w, (spec10 w).arr.IsWhole
  harr11 : ∀ w, (spec11 w).arr.IsWhole
  harr12 : ∀ w, (spec12 w).arr.IsWhole
  harr13 : ∀ w, (spec13 w).arr.IsWhole
  harr14 : ∀ w, (spec14 w).arr.IsWhole
  harr15 : ∀ w, (spec15 w).arr.IsWhole
  harr16 : ∀ w, (spec16 w).arr.IsWhole
  harr17 : ∀ w, (spec17 w).arr.IsWhole
  harr18 : ∀ w, (spec18 w).arr.IsWhole
  harr19 : ∀ w, (spec19 w).arr.IsWhole
  harr20 : ∀ w, (spec20 w).arr.IsWhole
  harr21 : ∀ w, (spec21 w).arr.IsWhole
  harr22 : ∀ w, (spec22 w).arr.IsWhole
  harr23 : ∀ w, (spec23 w).arr.IsWhole
  harr24 : ∀ w, (spec24 w).arr.IsWhole
  harr25 : ∀ w, (spec25 w).arr.IsWhole
  harr26 : ∀ w, (spec26 w).arr.IsWhole
  harr27 : ∀ w, (spec27 w).arr.IsWhole
  harr28 : ∀ w, (spec28 w).arr.IsWhole
  harr29 : ∀ w, (spec29 w).arr.IsWhole
  harr30 : ∀ w, (spec30 w).arr.IsWhole
  harr31 : ∀ w, (spec31 w).arr.IsWhole
  harr32 : ∀ w, (spec32 w).arr.IsWhole
  harr33 : ∀ w, (spec33 w).arr.IsWhole
  harr34 : ∀ w, (spec34 w).arr.IsWhole
  harr35 : ∀ w, (spec35 w).arr.IsWhole
  harr36 : ∀ w, (spec36 w).arr.IsWhole
  harr37 : ∀ w, (spec37 w).arr.IsWhole
  harr38 : ∀ w, (spec38 w).arr.IsWhole
  harr39 : ∀ w, (spec39 w).arr.IsWhole
  harr40 : ∀ w, (spec40 w).arr.IsWhole
  harr41 : ∀ w, (spec41 w).arr.IsWhole
  harr42 : ∀ w, (spec42 w).arr.IsWhole
  harr43 : ∀ w, (spec43 w).arr.IsWhole
  harr44 : ∀ w, (spec44 w).arr.IsWhole
  harr45 : ∀ w, (spec45 w).arr.IsWhole
  harr46 : ∀ w, (spec46 w).arr.IsWhole
  harr47 : ∀ w, (spec47 w).arr.IsWhole
  harr48 : ∀ w, (spec48 w).arr.IsWhole

variable [Facts]
-- ==== ReferenceIdeal.lean ====
abbrev S40000x64 : Shape := ⟨2, ![40000, 64]⟩
abbrev S60000x64 : Shape := ⟨2, ![60000, 64]⟩
abbrev S1600000 : Shape := ⟨1, ![1600000]⟩
abbrev S4096 : Shape := ⟨1, ![4096]⟩
abbrev S40000x63 : Shape := ⟨2, ![40000, 63]⟩
abbrev S_ : Shape := ⟨0, ![]⟩
abbrev S40000 : Shape := ⟨1, ![40000]⟩
abbrev S40000x1 : Shape := ⟨2, ![40000, 1]⟩
abbrev S60000x63 : Shape := ⟨2, ![60000, 63]⟩
abbrev S60000 : Shape := ⟨1, ![60000]⟩
abbrev S60000x1 : Shape := ⟨2, ![60000, 1]⟩
abbrev S100000x64 : Shape := ⟨2, ![100000, 64]⟩
abbrev S1600000x1 : Shape := ⟨2, ![1600000, 1]⟩
abbrev S1600000x64 : Shape := ⟨2, ![1600000, 64]⟩
abbrev S4096x1 : Shape := ⟨2, ![4096, 1]⟩
abbrev S4096x64 : Shape := ⟨2, ![4096, 64]⟩

abbrev nBuf : Space → Nat
  | .hbm => 189
  | .vmem => 0
  | .smem => 0
  | _ => 0

abbrev hbmTy0_0 (i : Nat) : BufTy := match i % 128 with
  | 0 => ⟨S40000x64, .f32⟩
  | 1 => ⟨S60000x64, .f32⟩
  | 2 => ⟨S1600000, .f32⟩
  | 3 => ⟨S1600000, .i32⟩
  | 4 => ⟨S1600000, .i32⟩
  | 5 => ⟨S4096, .i32⟩
  | 6 => ⟨S4096, .i32⟩
  | 7 => ⟨S40000x63, .f32⟩
  | 8 => ⟨S40000x63, .f32⟩
  | 9 => ⟨S_, .f32⟩
  | 10 => ⟨S40000, .f32⟩
  | 11 => ⟨S40000x1, .f32⟩
  | 12 => ⟨S_, .f32⟩
  | 13 => ⟨S40000x1, .f32⟩
  | 14 => ⟨S40000x1, .f32⟩
  | 15 => ⟨S_, .f32⟩
  | 16 => ⟨S_, .f32⟩
  | 17 => ⟨S40000x1, .f32⟩
  | 18 => ⟨S40000x1, .f32⟩
  | 19 => ⟨S40000x1, .f32⟩
  | 20 => ⟨S40000x64, .f32⟩
  | 21 => ⟨S40000x63, .f32⟩
  | 22 => ⟨S40000x63, .f32⟩
  | 23 => ⟨S_, .f32⟩
  | 24 => ⟨S40000, .f32⟩
  | 25 => ⟨S40000x1, .f32⟩
  | 26 => ⟨S40000x1, .f32⟩
  | 27 => ⟨S_, .f32⟩
  | 28 => ⟨S_, .f32⟩
  | 29 => ⟨S40000x1, .f32⟩
  | 30 => ⟨S40000x1, .f32⟩
  | 31 => ⟨S40000x1, .f32⟩
  | 32 => ⟨S_, .f32⟩
  | 33 => ⟨S40000x1, .f32⟩
  | 34 => ⟨S40000x1, .f32⟩
  | 35 => ⟨S_, .f32⟩
  | 36 => ⟨S_, .f32⟩
  | 37 => ⟨S40000x1, .f32⟩
  | 38 => ⟨S40000x1, .f32⟩
  | 39 => ⟨S_, .f32⟩
  | 40 => ⟨S_, .f32⟩
  | 41 => ⟨S40000x1, .f32⟩
  | 42 => ⟨S40000x1, .f32⟩
  | 43 => ⟨S40000x1, .f32⟩
  | 44 => ⟨S_, .f32⟩
  | 45 => ⟨S40000x1, .f32⟩
  | 46 => ⟨S40000x1, .f32⟩
  | 47 => ⟨S40000x1, .f32⟩
  | 48 => ⟨S40000x1, .f32⟩
  | 49 => ⟨S40000x1, .f32⟩
  | 50 => ⟨S_, .f32⟩
  | 51 => ⟨S40000x1, .f32⟩
  | 52 => ⟨S40000x1, .f32⟩
  | 53 => ⟨S40000x63, .f32⟩
  | 54 => ⟨S40000x63, .f32⟩
  | 55 => ⟨S40000x63, .f32⟩
  | 56 => ⟨S40000x63, .f32⟩
  | 57 => ⟨S40000x1, .f32⟩
  | 58 => ⟨S_, .f32⟩
  | 59 => ⟨S40000x1, .f32⟩
  | 60 => ⟨S40000x64, .f32⟩
  | 61 => ⟨S60000x63, .f32⟩
  | 62 => ⟨S60000x63, .f32⟩
  | 63 => ⟨S_, .f32⟩
  | 64 => ⟨S60000, .f32⟩
  | 65 => ⟨S60000x1, .f32⟩
  | 66 => ⟨S_, .f32⟩
  | 67 => ⟨S60000x1, .f32⟩
  | 68 => ⟨S60000x1, .f32⟩
  | 69 => ⟨S_, .f32⟩
  | 70 => ⟨S_, .f32⟩
  | 71 => ⟨S60000x1, .f32⟩
  | 72 => ⟨S60000x1, .f32⟩
  | 73 => ⟨S60000x1, .f32⟩
  | 74 => ⟨S60000x64, .f32⟩
  | 75 => ⟨S60000x63, .f32⟩
  | 76 => ⟨S60000x63, .f32⟩
  | 77 => ⟨S_, .f32⟩
  | 78 => ⟨S60000, .f32⟩
  | 79 => ⟨S60000x1, .f32⟩
  | 80 => ⟨S60000x1, .f32⟩
  | 81 => ⟨S_, .f32⟩
  | 82 => ⟨S_, .f32⟩
  | 83 => ⟨S60000x1, .f32⟩
  | 84 => ⟨S60000x1, .f32⟩
  | 85 => ⟨S60000x1, .f32⟩
  | 86 => ⟨S_, .f32⟩
  | 87 => ⟨S60000x1, .f32⟩
  | 88 => ⟨S60000x1, .f32⟩
  | 89 => ⟨S_, .f32⟩
  | 90 => ⟨S_, .f32⟩
  | 91 => ⟨S60000x1, .f32⟩
  | 92 => ⟨S60000x1, .f32⟩
  | 93 => ⟨S_, .f32⟩
  | 94 => ⟨S_, .f32⟩
  | 95 => ⟨S60000x1, .f32⟩
  | 96 => ⟨S60000x1, .f32⟩
  | 97 => ⟨S60000x1, .f32⟩
  | 98 => ⟨S_, .f32⟩
  | 99 => ⟨S60000x1, .f32⟩
  | 100 => ⟨S60000x1, .f32⟩
  | 101 => ⟨S60000x1, .f32⟩
  | 102 => ⟨S60000x1, .f32⟩
  | 103 => ⟨S60000x1, .f32⟩
  | 104 => ⟨S_, .f32⟩
  | 105 => ⟨S60000x1, .f32⟩
  | 106 => ⟨S60000x1, .f32⟩
  | 107 => ⟨S60000x63, .f32⟩
  | 108 => ⟨S60000x63, .f32⟩
  | 109 => ⟨S60000x63, .f32⟩
  | 110 => ⟨S60000x63, .f32⟩
  | 111 => ⟨S60000x1, .f32⟩
  | 112 => ⟨S_, .f32⟩
  | 113 => ⟨S60000x1, .f32⟩
  | 114 => ⟨S60000x64, .f32⟩
  | 115 => ⟨S100000x64, .f32⟩
  | 116 => ⟨S_, .f32⟩
  | 117 => ⟨S100000x64, .f32⟩
  | 118 => ⟨S1600000x1, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x64, .f32⟩
  | _ => ⟨S40000x64, .f32⟩

abbrev hbmTy0_1 (i : Nat) : BufTy := match i % 128 with
  | 0 => ⟨S1600000x64, .f32⟩
  | 1 => ⟨S1600000x64, .f32⟩
  | 2 => ⟨S_, .f32⟩
  | 3 => ⟨S100000x64, .f32⟩
  | 4 => ⟨S1600000x1, .i32⟩
  | 5 => ⟨S100000x64, .f32⟩
  | 6 => ⟨S100000x64, .f32⟩
  | 7 => ⟨S1600000x1, .f32⟩
  | 8 => ⟨S_, .i32⟩
  | 9 => ⟨S1600000, .i32⟩
  | 10 => ⟨S1600000, .i1⟩
  | 11 => ⟨S_, .i32⟩
  | 12 => ⟨S1600000, .i32⟩
  | 13 => ⟨S1600000, .i32⟩
  | 14 => ⟨S1600000, .i32⟩
  | 15 => ⟨S1600000x1, .i32⟩
  | 16 => ⟨S1600000x64, .f32⟩
  | 17 => ⟨S1600000x64, .f32⟩
  | 18 => ⟨S1600000x64, .f32⟩
  | 19 => ⟨S_, .f32⟩
  | 20 => ⟨S100000x64, .f32⟩
  | 21 => ⟨S1600000x1, .i32⟩
  | 22 => ⟨S100000x64, .f32⟩
  | 23 => ⟨S100000x64, .f32⟩
  | 24 => ⟨S1600000x1, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x64, .f32⟩
  | 34 => ⟨S1600000x64, .f32⟩
  | 35 => ⟨S1600000x64, .f32⟩
  | 36 => ⟨S_, .f32⟩
  | 37 => ⟨S100000x64, .f32⟩
  | 38 => ⟨S1600000x1, .i32⟩
  | 39 => ⟨S100000x64, .f32⟩
  | 40 => ⟨S100000x64, .f32⟩
  | 41 => ⟨S40000x64, .f32⟩
  | 42 => ⟨S60000x64, .f32⟩
  | 43 => ⟨S_, .i32⟩
  | 44 => ⟨S4096, .i32⟩
  | 45 => ⟨S4096, .i1⟩
  | 46 => ⟨S_, .i32⟩
  | 47 => ⟨S4096, .i32⟩
  | 48 => ⟨S4096, .i32⟩
  | 49 => ⟨S4096, .i32⟩
  | 50 => ⟨S4096x1, .i32⟩
  | 51 => ⟨S4096x64, .f32⟩
  | 52 => ⟨S_, .i32⟩
  | 53 => ⟨S4096, .i32⟩
  | 54 => ⟨S4096, .i1⟩
  | 55 => ⟨S_, .i32⟩
  | 56 => ⟨S4096, .i32⟩
  | 57 => ⟨S4096, .i32⟩
  | 58 => ⟨S4096, .i32⟩
  | 59 => ⟨S4096x1, .i32⟩
  | 60 => ⟨S4096x64, .f32⟩
  | _ => ⟨S40000x64, .f32⟩

abbrev hbmTy (i : Nat) : BufTy := match i / 128 with
  | 0 => hbmTy0_0 i
  | 1 => hbmTy0_1 i
  | _ => ⟨S40000x64, .f32⟩

abbrev bufTy : (tb : Table) → Fin (tcTables nBuf tb) → BufTy
  | .hbm, ⟨i, _⟩ => hbmTy i
  | _, _ => ⟨S40000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call1_v0 : Ref sig .tc := ⟨.hbm, 22, rfl⟩
abbrev main_call1_cst : Ref sig .tc := ⟨.hbm, 23, rfl⟩
abbrev main_call1_v1 : Ref sig .tc := ⟨.hbm, 24, rfl⟩
abbrev main_call1_v2 : Ref sig .tc := ⟨.hbm, 25, rfl⟩
abbrev main_v10 : Ref sig .tc := ⟨.hbm, 26, rfl⟩
abbrev main_cst_2 : Ref sig .tc := ⟨.hbm, 27, rfl⟩
abbrev main_call2_v0 : Ref sig .tc := ⟨.hbm, 28, rfl⟩
abbrev main_call2_v1 : Ref sig .tc := ⟨.hbm, 29, rfl⟩
abbrev main_v11 : Ref sig .tc := ⟨.hbm, 30, rfl⟩
abbrev main_v12 : Ref sig .tc := ⟨.hbm, 31, rfl⟩
abbrev main_cst_3 : Ref sig .tc := ⟨.hbm, 32, rfl⟩
abbrev main_v13 : Ref sig .tc := ⟨.hbm, 33, rfl⟩
abbrev main_v14 : Ref sig .tc := ⟨.hbm, 34, rfl⟩
abbrev main_cst_4 : Ref sig .tc := ⟨.hbm, 35, rfl⟩
abbrev main_call3_v0 : Ref sig .tc := ⟨.hbm, 36, rfl⟩
abbrev main_call3_v1 : Ref sig .tc := ⟨.hbm, 37, rfl⟩
abbrev main_v15 : Ref sig .tc := ⟨.hbm, 38, rfl⟩
abbrev main_cst_5 : Ref sig .tc := ⟨.hbm, 39, rfl⟩
abbrev main_call4_v0 : Ref sig .tc := ⟨.hbm, 40, rfl⟩
abbrev main_call4_v1 : Ref sig .tc := ⟨.hbm, 41, rfl⟩
abbrev main_v16 : Ref sig .tc := ⟨.hbm, 42, rfl⟩
abbrev main_v17 : Ref sig .tc := ⟨.hbm, 43, rfl⟩
abbrev main_cst_6 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_7 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_8 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_9 : Ref sig .tc := ⟨.hbm, 63, rfl⟩
abbrev main_v34 : Ref sig .tc := ⟨.hbm, 64, rfl⟩
abbrev main_v35 : Ref sig .tc := ⟨.hbm, 65, rfl⟩
abbrev main_cst_10 : Ref sig .tc := ⟨.hbm, 66, rfl⟩
abbrev main_v36 : Ref sig .tc := ⟨.hbm, 67, rfl⟩
abbrev main_v37 : Ref sig .tc := ⟨.hbm, 68, rfl⟩
abbrev main_cst_11 : Ref sig .tc := ⟨.hbm, 69, rfl⟩
abbrev main_call5_v0 : Ref sig .tc := ⟨.hbm, 70, rfl⟩
abbrev main_call5_v1 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_call6_v0 : Ref sig .tc := ⟨.hbm, 76, rfl⟩
abbrev main_call6_cst : Ref sig .tc := ⟨.hbm, 77, rfl⟩
abbrev main_call6_v1 : Ref sig .tc := ⟨.hbm, 78, rfl⟩
abbrev main_call6_v2 : Ref sig .tc := ⟨.hbm, 79, rfl⟩
abbrev main_v42 : Ref sig .tc := ⟨.hbm, 80, rfl⟩
abbrev main_cst_12 : Ref sig .tc := ⟨.hbm, 81, rfl⟩
abbrev main_call7_v0 : Ref sig .tc := ⟨.hbm, 82, rfl⟩
abbrev main_call7_v1 : Ref sig .tc := ⟨.hbm, 83, rfl⟩
abbrev main_v43 : Ref sig .tc := ⟨.hbm, 84, rfl⟩
abbrev main_v44 : Ref sig .tc := ⟨.hbm, 85, rfl⟩
abbrev main_cst_13 : Ref sig .tc := ⟨.hbm, 86, rfl⟩
abbrev main_v45 : Ref sig .tc := ⟨.hbm, 87, rfl⟩
abbrev main_v46 : Ref sig .tc := ⟨.hbm, 88, rfl⟩
abbrev main_cst_14 : Ref sig .tc := ⟨.hbm, 89, rfl⟩
abbrev main_call8_v0 : Ref sig .tc := ⟨.hbm, 90, rfl⟩
abbrev main_call8_v1 : Ref sig .tc := ⟨.hbm, 91, rfl⟩
abbrev main_v47 : Ref sig .tc := ⟨.hbm, 92, rfl⟩
abbrev main_cst_15 : Ref sig .tc := ⟨.hbm, 93, rfl⟩
abbrev main_call9_v0 : Ref sig .tc := ⟨.hbm, 94, rfl⟩
abbrev main_call9_v1 : Ref sig .tc := ⟨.hbm, 95, rfl⟩
abbrev main_v48 : Ref sig .tc := ⟨.hbm, 96, rfl⟩
abbrev main_v49 : Ref sig .tc := ⟨.hbm, 97, rfl⟩
abbrev main_cst_16 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_cst_17 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_cst_18 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_cst_19 : Ref sig .tc := ⟨.hbm, 116, rfl⟩
abbrev main_v65 : Ref sig .tc := ⟨.hbm, 117, rfl⟩
abbrev main_v66 : Ref sig .tc := ⟨.hbm, 118, rfl⟩
abbrev main_c : Ref sig .tc := ⟨.hbm, 119, rfl⟩
abbrev main_v67 : Ref sig .tc := ⟨.hbm, 120, rfl⟩
abbrev main_v68 : Ref sig .tc := ⟨.hbm, 121, rfl⟩
abbrev main_c_20 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_cst_21 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_c_22 : Ref sig .tc := ⟨.hbm, 136, rfl⟩
abbrev main_v81 : Ref sig .tc := ⟨.hbm, 137, rfl⟩
abbrev main_v82 : Ref sig .tc := ⟨.hbm, 138, rfl⟩
abbrev main_c_23 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_cst_24 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_c_25 : Ref sig .tc := ⟨.hbm, 153, rfl⟩
abbrev main_v95 : Ref sig .tc := ⟨.hbm, 154, rfl⟩
abbrev main_v96 : Ref sig .tc := ⟨.hbm, 155, rfl⟩
abbrev main_c_26 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_cst_27 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_c_28 : Ref sig .tc := ⟨.hbm, 171, rfl⟩
abbrev main_v110 : Ref sig .tc := ⟨.hbm, 172, rfl⟩
abbrev main_v111 : Ref sig .tc := ⟨.hbm, 173, rfl⟩
abbrev main_c_29 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_c_30 : Ref sig .tc := ⟨.hbm, 180, rfl⟩
abbrev main_v117 : Ref sig .tc := ⟨.hbm, 181, rfl⟩
abbrev main_v118 : Ref sig .tc := ⟨.hbm, 182, rfl⟩
abbrev main_c_31 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩

abbrev nD : Nat := 1
abbrev τ : Topo := Topo.v7x

variable {F : FTy → Type} [FloatOps F]

class Facts₀ : Prop where
  slices_S40000x64_S40000x63_0_1 : S40000x64.Slices ![0, 1] S40000x63
  reducesTo_S40000x63_S40000_d1 : S40000x63.ReducesTo [1] S40000
  h_S_ : 0 < S_.numel
  bcast_S40000_S40000x1_0 : S40000.BroadcastsInDim S40000x1 (![0] : Fin 1 → Fin S40000x1.rank)
  bcast_S_S40000x1 : S_.BroadcastsInDim S40000x1 (![] : Fin 0 → Fin S40000x1.rank)
  concatenates_S40000x1_S40000x63_S40000x64_d1 : Shape.Concatenates [S40000x1, S40000x63] S40000x64 1
  slices_S40000x64_S40000x1_0_0 : S40000x64.Slices ![0, 0] S40000x1
  bcast_S40000x1_S40000x63_0_1 : S40000x1.BroadcastsInDim S40000x63 (![0, 1] : Fin 2 → Fin S40000x63.rank)
  slices_S40000x63_S40000x1_0_0 : S40000x63.Slices ![0, 0] S40000x1
  slices_S60000x64_S60000x63_0_1 : S60000x64.Slices ![0, 1] S60000x63
  reducesTo_S60000x63_S60000_d1 : S60000x63.ReducesTo [1] S60000
  bcast_S60000_S60000x1_0 : S60000.BroadcastsInDim S60000x1 (![0] : Fin 1 → Fin S60000x1.rank)
  bcast_S_S60000x1 : S_.BroadcastsInDim S60000x1 (![] : Fin 0 → Fin S60000x1.rank)
  concatenates_S60000x1_S60000x63_S60000x64_d1 : Shape.Concatenates [S60000x1, S60000x63] S60000x64 1
  slices_S60000x64_S60000x1_0_0 : S60000x64.Slices ![0, 0] S60000x1
  bcast_S60000x1_S60000x63_0_1 : S60000x1.BroadcastsInDim S60000x63 (![0, 1] : Fin 2 → Fin S60000x63.rank)
  slices_S60000x63_S60000x1_0_0 : S60000x63.Slices ![0, 0] S60000x1
  concatenates_S40000x64_S60000x64_S100000x64_d0 : Shape.Concatenates [S40000x64, S60000x64] S100000x64 0
  bcast_S_S100000x64 : S_.BroadcastsInDim S100000x64 (![] : Fin 0 → Fin S100000x64.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  slices_S100000x64_S40000x64_0_0 : S100000x64.Slices ![0, 0] S40000x64
  slices_S100000x64_S60000x64_40000_0 : S100000x64.Slices ![40000, 0] S60000x64
  bcast_S_S4096 : S_.BroadcastsInDim S4096 (![] : Fin 0 → Fin S4096.rank)
  bcast_S4096_S4096x1_0 : S4096.BroadcastsInDim S4096x1 (![0] : Fin 1 → Fin S4096x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  gather_S40000x64_S4096x1_S4096x64_1_0_n_n_0_1_164_wf : GatherDims.WF S40000x64 S4096x1 S4096x64 [1] [0] [] [0] [] 1 ![1, 64]
  gather_S60000x64_S4096x1_S4096x64_1_0_n_n_0_1_164_wf : GatherDims.WF S60000x64 S4096x1 S4096x64 [1] [0] [] [0] [] 1 ![1, 64]

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S40000x64_S4096x1_S4096x64_1_0_n_n_0_1_164 : GatherDims S40000x64 S4096x1 S4096x64 where
  offsetDims := [1]
  collapsedSliceDims := [0]
  operandBatchingDims := []
  startIndicesBatchingDims := []
  startIndexMap := [0]
  indexVectorDim := 1
  sliceSizes := ![1, 64]
  wf := gather_S40000x64_S4096x1_S4096x64_1_0_n_n_0_1_164_wf
def gather_S60000x64_S4096x1_S4096x64_1_0_n_n_0_1_164 : GatherDims S60000x64 S4096x1 S4096x64 where
  offsetDims := [1]
  collapsedSliceDims := [0]
  operandBatchingDims := []
  startIndicesBatchingDims := []
  startIndexMap := [0]
  indexVectorDim := 1
  sliceSizes := ![1, 64]
  wf := gather_S60000x64_S4096x1_S4096x64_1_0_n_n_0_1_164_wf

class Facts : Prop extends Facts₀ where

variable [Facts]
-- ==== Proof.K.Common.lean ====
/-
  What every region's record and the launch share: the resource algebra (the pipeline library's copy beside the
  counters the kernel's own transfers draw their tokens from), the trivial level assignment (no core owes another
  anything), what rides beside the buffers between two segments of the host program (the generator register at some
  state, nothing owed), and a host stretch as a segment from a boundary valuation.
-/
import proofs.«421643_j28415503630349_2_alg».proof.Proof.Gen.Kernel.Launch
import Idealize.ShloMosaic.Lib.Pipeline.Frame
import Idealize.ShloMosaic.Lib.Pipeline.FrameSuffix
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

abbrev 𝒱₀ : Variants := Variants.none
/-- No core owes another anything: no level is assigned. -/
abbrev L : GSem nD τ sig → Finset Unit := fun _ => ∅
abbrev lv : GSem nD τ sig → Unit → ℕ := fun _ _ => 0

/-- Beside the buffers, through every segment: the generator register at some state and the core owing nothing. -/
abbrev R (c : Dev nD) : sProp 𝕄 := iprop((∃ r, prngReg c r) ∗ ∃ W, owes (c : Thread nD τ) (0 : CellTallies nD τ sig Unit) W)

/-- A stretch of host operations as a segment: over the unscoped buffers from the contents `W`, `R` riding along;
    it leaves them at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A boundary valuation read at the TensorCore's references: what a region's proof data are stated at. -/
abbrev Vof (W : Dev nD → Valuation τ sig (Elt F)) : (c : Dev nD) → (b : Ref sig .tc) → Buf (Elt F) ((c : Thread nD τ).loc b) :=
  fun c b => W c b

/-- An unscoped TensorCore reference is among those a boundary's thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.K.Region0.lean ====
import proofs.«421643_j28415503630349_2_alg».proof.Proof.Gen.Kernel.Launch
import proofs.«421643_j28415503630349_2_alg».proof.Proof.Gen.Kernel.Skeleton
import proofs.«421643_j28415503630349_2_alg».proof.Proof.Gen.Kernel.Points
import proofs.«421643_j28415503630349_2_alg».proof.Proof.K.Common
import Idealize.ShloMosaic.Lib.Pipeline.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0: the row-wise map over the padded table, one 4096x64 block per grid point

The first pallas_call walks a grid of 25 points.  At point t it is handed block t of the padded input
array (rows 4096 t .. 4096 t + 4095, all 64 columns) in one staging buffer and an output staging buffer of the same
shape; it reads the whole input block, computes from it a 4096x64 value (a function of the block alone), reads the
output buffer (the value is dropped) and overwrites the whole output buffer with the computed value.

Everything is stated at a parameter V, the contents of the core's buffers when the region is entered, so that the
same text serves wherever in the run the region is placed. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

section Region0

variable (V : (c : Dev nD) → (b : Ref sig .tc) → Buf (Elt F) ((c : Thread nD τ).loc b))

/-! ## The blocks -/

/-- Block t of window w: the window's array, at the contents V gives it, read through the block's view. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The input window is never cut and never idle, and the body does not write its buffer: so whatever proof data
    has V's array for it and leaves the block in place finds, at every point, exactly block t in the current
    buffer (a point where no fetch happened has the same block index as the point before). -/
theorem before0_0_of {c : Dev nD} (dat : Dat τ (Elt F) Unit ℕ (UD sig nD τ) ℕ cfg0 c)
    (hA : dat.A 0 = V c (Pipeline.arrRef spec0 0)) (hafter : ∀ t, dat.after 0 t = iblk0 V c 0 t)
    (t : Fin cfg0.N) (d) : dat.before 0 t d = iblk0 V c 0 t := by
  have hkeep : ∀ t, (cfg0.win 0).cut (cfg0.grid.coords t) (dat.after 0 t) = dat.blockOf 0 t := fun t => by
    rw [hafter]; unfold Dat.blockOf iblk0; rw [hA]; try rfl
  refine (dat.before_in_eq_fetched 0 rfl (fun _ => rfl) (fun _ _ _ => rfl) hkeep t d).trans ?_
  unfold Dat.fetched Dat.blockOf iblk0; rw [hA]; try rfl

/-! ## The one store -/

/-- The rectangle of the body's accesses: the whole 4096x64 buffer. -/
abbrev r0_0 : Rect S4096x64 := Rect.unit (s := S4096x64) ![0, 0] S4096x64.size inb_S4096x64_S4096x64_0_0

/-- What the output buffer holds after the body when the input buffer reads x0: the single whole-buffer store of the
    payload computed from the loaded block. -/
def out0_1 (x0 : Vec F S4096x64 .f32) : Vec F S4096x64 .f32 :=
  View.canon [⟨r0_0, k0_pay1 (View.ld x0 r0_0)⟩]

/-- One piece of the full size tiles the buffer (a 1x1 arrangement of blocks), hence covers every index. -/
theorem cover0_1 (p0 : Vec F S4096x64 .f32) (y : S4096x64.Idx) :
    ∃ pc ∈ ([⟨r0_0, p0⟩] : List (View.Piece (Elt F) S4096x64 .f32)), y ∈ pc.1.set :=
  View.cover_of_tiled [⟨r0_0, p0⟩] S4096x64.size (by rfl) y

/-! ## The body's triple -/

set_option maxHeartbeats 1000000 in
/-- On whole staging memrefs, the input's reading x0 and the output's at any contents, the body runs to the state with
    the input's unchanged and the output's at out0_1 x0: load, load, store, executed symbolically; the store's
    piece covers the buffer, so what is read afterwards is the canonical contents of that one piece. The grid
    coordinate plays no part. -/
theorem sound_kernel0 (c : Dev nD) (E : Set ℕ) (i : grid0.Coords)
    (arg1 : Memref sig .tc .vmem S4096x64 .f32) (harg1 : arg1.IsWhole)
    (arg2 : Memref sig .tc .vmem S4096x64 .f32) (harg2 : arg2.IsWhole)
    (x0 : Vec F S4096x64 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__hyp_kernel i arg1 harg1 arg2 harg2) K := by
  simp only [cc0__hyp_kernel_eq_skeleton]; unfold cc0__hyp_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The proof data -/

/-- Pipeline 0 on core c: the arrays as V has them; after the body at point t the input buffer still at block t and the
    output buffer at out0_1 of block t; the invariant is the scoped rest with the generator register, untouched;
    full shares; nothing owed. -/
def dat0 (c : Dev nD) : Dat τ (Elt F) Unit ℕ (UD sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input buffer holds block t at every point. -/
theorem before0_0 (c : Dev nD) (t : Fin cfg0.N) (d) : (dat0 V c).before 0 t d = iblk0 V c 0 t :=
  before0_0_of V (dat0 V c) (A_eq0 V c 0) (after0_0 V c) t d

/-! ## The obligation at a point -/

/-- What the body is given at point t, the two windows written out: -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it gives back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- At any point the input memref reads block t, so the body's triple applies at x0 := block t; the invariant and the
    debt statement are the same at t and t + 1 and are carried across unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of pipeline 0, at every point of the grid. -/
theorem body_obligation0 (c : Dev nD) :
    BodyObligation (dat0 (F := F) V c) (defs₀ (F := F)) Variants.none () Set.univ := fun t => by
  rw [bigSep_W0, bigSep_W0]
  exact sound_body0 V c t

end Region0

/-! ## The buffers when the region is left -/

section Record0

variable (Win : Dev nD → Valuation τ sig (Elt F))

/-- Every buffer at the region's exit: the two arrays at what the write-backs have left after the last point, every
    other buffer as it was on entry. -/
def Wout0 (c : Dev nD) : Valuation τ sig (Elt F) :=
  Pipeline.withArrays spec0 c (Win c) fun w => (dat0 (Vof Win) c).arrAt w cfg0.N

theorem Wout0_arr (c : Dev nD) (w : Fin cfg0.W) :
    Wout0 Win c (Proc.devRef .tc (Pipeline.arrRef spec0 w)) = (dat0 (Vof Win) c).arrAt w cfg0.N := by
  unfold Wout0; exact Pipeline.withArrays_arr spec0 winFacts0.arr_inj c _ _ w

theorem Wout0_of_ne (c : Dev nD) (b : Ref sig .tc) (hb : ∀ w, Pipeline.arrRef spec0 w ≠ b) :
    Wout0 Win c (Proc.devRef .tc b) = Win c (Proc.devRef .tc b) := by
  unfold Wout0; exact Pipeline.withArrays_of_ne spec0 c _ _ b hb

end Record0

/-! ## Region 0 as a segment

The four entailments are stated for ANY family of proof data over the 49 pipelines (at any admissible table contents)
whose member 0, on the core at hand, has full shares, reads its arrays off the entry valuation and has the class
invariant. Between two items the core holds every unscoped buffer at a valuation, the generator register at some state,
and owes nothing. -/

section Seg0

variable (adm : (p : Fin 49) → (pcfgs (F := F) p).Adm)
  (pdats : (p : Fin 49) → (c : Dev nD) → Dat τ (Elt F) Unit ℕ (UD sig nD τ) ℕ (Pipeline.pin (pcfgs (F := F)) adm p) c)

set_option backward.isDefEq.respectTransparency.types false in
/-- ENTRY: the two arrays are split out of the unscoped buffers (distinct whole unscoped buffers, read off the entry
    valuation); there is no table; the debt statement at the first point holds of a core owing nothing; the generator
    register goes to the invariant; the other unscoped buffers go round the region. -/
theorem hentry0 (Win : Dev nD → Valuation τ sig (Elt F)) (c : Dev nD)
    (hq : ∀ w, (pdats 0 c).q w = fullShare)
    (hA : ∀ w, (pdats 0 c).A w = Vof Win c (Pipeline.arrRef spec0 w))
    (howed : ∀ t, (pdats 0 c).owed t = 0) (hrec : (pdats 0 c).recorded 0 = Set.univ) :
    iprop((StableHlo.held (c : Thread nD τ) (Pipeline.ucRefs τ sig) (Win c) ∗ R c)
          ∗ Pipeline.ownSems0 (fun k : PEmpty => k.elim) c ∗ levAts L lv)
      ⊢ |={Set.univ}=> iprop((pdats 0 c).arrays ((pdats 0 c).arrAt · 0)
          ∗ Pipeline.prefHeld (pcfgs (F := F) 0).pre c (fun _ => fullShare) (adm 0).1
          ∗ (pdats 0 c).owesAt () 0 ∗ (∃ r, prngReg c r)
          ∗ Pipeline.unscopedRest (Ix := Unit) (Name := ℕ) (U := UD sig nD τ) (Lvl := ℕ) spec0 c (Vof Win c)) := by
  rw [Pipeline.ownSems0_none]
  have hsplit := Pipeline.arrays_of_unscopedBufs (p := 0) (pcfgs (F := F)) adm pdats (launch0 (F := F)).win
    (launch0 (F := F)).arr_whole c ((pdats 0 c).share_full hq) (Vof Win c) hA
  rw [Pipeline.unscopedBufs_held] at hsplit
  iintro ⟨⟨Hub, Hp, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold Pipeline.Dat.owesAt Pipeline.owesWithin
    rw [howed]
    icases HO with ⟨%W, HO⟩; iexists W; isplitr
    · ipureintro; exact fun _ _ => Or.inl (by rw [hrec]; exact Set.mem_univ _)
    iexact HO
  isplitl [Hp]; · iexact Hp
  iexact Hrest

/-- IN: the invariant at the first point is the scoped rest beside the generator register. -/
theorem hin0 (c : Dev nD) (hΦ : (pdats 0 c).Φ 0 = Pipeline.ΦA spec0 c) :
    iprop((∃ r, prngReg c r) ∗ Pipeline.prefHeld (pcfgs (F := F) 0).pre c (fun _ => fullShare) (adm 0).1
        ∗ Pipeline.scopedRest (Ix := Unit) (Name := ℕ) (U := UD sig nD τ) (Lvl := ℕ) (Val := Elt F)
            (Pipeline.pin (pcfgs (F := F)) adm 0).spec c)
      ⊢ (pdats 0 c).Φ 0 := by
  rw [hΦ]; unfold Pipeline.ΦA
  iintro ⟨Hp, -, Hr⟩
  isplitl [Hr]; · iexact Hr
  iexact Hp

/-- OUT: the invariant at the last point gives both back; the kernel has no semaphore of its own. -/
theorem hout0 (c : Dev nD) (hΦ : (pdats 0 c).Φ (Fin.last (Pipeline.pin (pcfgs (F := F)) adm 0).N) = Pipeline.ΦA spec0 c) :
    (pdats 0 c).Φ (Fin.last (Pipeline.pin (pcfgs (F := F)) adm 0).N)
      ⊢ iprop((∃ r, prngReg c r) ∗ Pipeline.ownSems0 (fun k : PEmpty => k.elim) c
          ∗ Pipeline.scopedRest (Ix := Unit) (Name := ℕ) (U := UD sig nD τ) (Lvl := ℕ) (Val := Elt F)
              (Pipeline.pin (pcfgs (F := F)) adm 0).spec c) := by
  rw [Pipeline.ownSems0_none, hΦ]; unfold Pipeline.ΦA
  iintro ⟨Hr, Hp⟩
  isplitl [Hp]; · iexact Hp
  isplitr; · iempintro
  iexact Hr

set_option backward.isDefEq.respectTransparency.types false in
/-- EXIT: the arrays at what the write-backs leave, beside the buffers that went round at the entry valuation, are
    every unscoped buffer at any valuation that has the arrays so and agrees with the entry one elsewhere. -/
theorem hexit0 (Win Wout : Dev nD → Valuation τ sig (Elt F)) (c : Dev nD)
    (hq : ∀ w, (pdats 0 c).q w = fullShare) (howed : ∀ t, (pdats 0 c).owed t = 0)
    (hF : ∀ w, (pdats 0 c).arrAt w cfg0.N = Vof Wout c (Pipeline.arrRef spec0 w))
    (hrest : ∀ b, b ∉ Finset.univ.image (Pipeline.arrRef spec0) → Vof Wout c b = Vof Win c b) :
    iprop((pdats 0 c).arrays ((pdats 0 c).arrAt · (Pipeline.pin (pcfgs (F := F)) adm 0).N)
        ∗ (pdats 0 c).owesAt () (Fin.last (Pipeline.pin (pcfgs (F := F)) adm 0).N) ∗ (∃ r, prngReg c r)
        ∗ Pipeline.unscopedRest (Ix := Unit) (Name := ℕ) (U := UD sig nD τ) (Lvl := ℕ) spec0 c (Vof Win c))
      ⊢ |={Set.univ}=> iprop(StableHlo.held (c : Thread nD τ) (Pipeline.ucRefs τ sig) (Wout c) ∗ R c) := by
  have hjoin := Pipeline.unscopedBufs_of_arrays (p := 0) (pcfgs (F := F)) adm (Ix := Unit) (Name := ℕ) (U := UD sig nD τ) (Lvl := ℕ)
    (launch0 (F := F)).win (launch0 (F := F)).arr_whole c pdats ((pdats 0 c).share_full hq)
    (Vof Win c) (Vof Wout c) ((pdats 0 c).arrAt · cfg0.N) hF hrest
  rw [Pipeline.unscopedBufs_held] at hjoin
  iintro ⟨Ha, HO, HY, Hrest⟩
  imodintro
  isplitl [Ha Hrest]
  · iapply hjoin; isplitl [Ha] <;> iassumption
  isplitl [HY]; · iexact HY
  unfold Pipeline.Dat.owesAt Pipeline.owesWithin
  rw [howed]
  icases HO with ⟨%W, -, HO⟩; iexists W; iexact HO

set_option backward.isDefEq.respectTransparency.types false in
/-- THE REGION over the thread state "every unscoped buffer at a valuation, the generator register at some state, nothing
    owed": entered at Win, left at Wout0 Win; no semaphore of the kernel's own, no table. -/
def reg0 (Win : Dev nD → Valuation τ sig (Elt F)) (hd : ∀ c, pdats (0 : Fin 49) c = dat0 (Vof Win) c) :
    Pipeline.RegionSeg (pcfgs (F := F)) adm pdats () defs₀ 𝒱₀ L lv (0 : Fin 49) where
  win := (launch0 (F := F)).win.to₀
  block_pos := (launch0 (F := F)).block_pos
  stage_whole := (launch0 (F := F)).stage_whole
  K := PEmpty
  osem k := k.elim
  ho := Pipeline.OwnSemFacts.none _
  hbody c := by rw [hd c]; exact (body_obligation0 (Vof Win) c).loose
  hwaits := Pipeline.hwaits_of_owed_zero _ _ _ _ L lv (0 : Fin 49) fun c t => by rw [hd c] <;> rfl
  pre c := iprop(StableHlo.held (c : Thread nD τ) (Pipeline.ucRefs τ sig) (Win c) ∗ R c)
  post c := iprop(StableHlo.held (c : Thread nD τ) (Pipeline.ucRefs τ sig) (Wout0 Win c) ∗ R c)
  X c := iprop(∃ r, prngReg c r)
  Y c := iprop(∃ r, prngReg c r)
  Z c := Pipeline.unscopedRest (Ix := Unit) (Name := ℕ) (U := UD sig nD τ) (Lvl := ℕ) spec0 c (Vof Win c)
  hentry c := hentry0 adm pdats Win c (fun w => by rw [hd c] <;> rfl) (fun w => by rw [hd c] <;> rfl)
    (fun t => by rw [hd c] <;> rfl) (by rw [hd c] <;> rfl)
  hin c := hin0 adm pdats c (by rw [hd c] <;> rfl)
  hout c := hout0 adm pdats c (by rw [hd c] <;> rfl)
  hexit c := hexit0 adm pdats Win (Wout0 Win) c (fun w => by rw [hd c] <;> rfl) (fun t => by rw [hd c] <;> rfl)
    (fun w => by rw [hd c]; exact (Wout0_arr Win c w).symm)
    (fun b hb => Wout0_of_ne Win c b fun w e => hb (Finset.mem_image.mpr ⟨w, Finset.mem_univ _, e⟩))

end Seg0

end Cert.Kernel.Hand

end
-- ==== Proof.K.FnEq.lean ====
/-
  The 48 gather regions run one kernel function: the functions printed for regions 2 to 48 are region 1's, by unfolding
  (they differ only in the names of their side conditions and of their offset computations).
-/
import proofs.«421643_j28415503630349_2_alg».proof.Kernel

set_option maxRecDepth 65536

noncomputable section
namespace Cert.Kernel.Hand
open Cert.Kernel Idealize.ShloMosaic Idealize.SL.Sem
variable {F : FTy → Type} [FloatOps F] [Facts]

set_option maxHeartbeats 4000000 in
theorem gather_fn_eq_2 : cc2__gather_mul_kernel (F := F) = cc1__gather_mul_kernel (F := F) := rfl
set_option maxHeartbeats 4000000 in
theorem gather_fn_eq_3 : cc3__gather_mul_kernel (F := F) = cc1__gather_mul_kernel (F := F) := rfl
set_option maxHeartbeats 4000000 in
theorem gather_fn_eq_4 : cc4__gather_mul_kernel (F := F) = cc1__gather_mul_kernel (F := F) := rfl
set_option maxHeartbeats 4000000 in
theorem gather_fn_eq_5 : cc5__gather_mul_kernel (F := F) = cc1__gather_mul_kernel (F := F) := rfl
set_option maxHeartbeats 4000000 in
theorem gather_fn_eq_6 : cc6__gather_mul_kernel (F := F) = cc1__gather_mul_kernel (F := F) := rfl
set_option maxHeartbeats 4000000 in
theorem gather_fn_eq_7 : cc7__gather_mul_kernel (F := F) = cc1__gather_mul_kernel (F := F) := rfl
set_option maxHeartbeats 4000000 in
theorem gather_fn_eq_8 : cc8__gather_mul_kernel (F := F) = cc1__gather_mul_kernel (F := F) := rfl
set_option maxHeartbeats 4000000 in
theorem gather_fn_eq_9 : cc9__gather_mul_kernel (F := F) = cc1__gather_mul_kernel (F := F) := rfl
set_option maxHeartbeats 4000000 in
theorem gather_fn_eq_10 : cc10__gather_mul_kernel (F := F) = cc1__gather_mul_kernel (F := F) := rfl
set_option maxHeartbeats 4000000 in
theorem gather_fn_eq_11 : cc11__gather_mul_kernel (F := F) = cc1__gather_mul_kernel (F := F) := rfl
set_option maxHeartbeats 4000000 in
theorem gather_fn_eq_12 : cc12__gather_mul_kernel (F := F) = cc1__gather_mul_kernel (F := F) := rfl
set_option maxHeartbeats 4000000 in
theorem gather_fn_eq_13 : cc13__gather_mul_kernel (F := F) = cc1__gather_mul_kernel (F := F) := rfl
set_option maxHeartbeats 4000000 in
theorem gather_fn_eq_14 : cc14__gather_mul_kernel (F := F) = cc1__gather_mul_kernel (F := F) := rfl
set_option maxHeartbeats 4000000 in
theorem gather_fn_eq_15 : cc15__gather_mul_kernel (F := F) = cc1__gather_mul_kernel (F := F) := rfl
set_option maxHeartbeats 4000000 in
theorem gather_fn_eq_16 : cc16__gather_mul_kernel (F := F) = cc1__gather_mul_kernel (F := F) := rfl
set_option maxHeartbeats 4000000 in
theorem gather_fn_eq_17 : cc17__gather_mul_kernel (F := F) = cc1__gather_mul_kernel (F := F) := rfl
set_option maxHeartbeats 4000000 in
theorem gather_fn_eq_18 : cc18__gather_mul_kernel (F := F) = cc1__gather_mul_kernel (F := F) := rfl
set_option maxHeartbeats 4000000 in
theorem gather_fn_eq_19 : cc19__gather_mul_kernel (F := F) = cc1__gather_mul_kernel (F := F) := rfl
set_option maxHeartbeats 4000000 in
theorem gather_fn_eq_20 : cc20__gather_mul_kernel (F := F) = cc1__gather_mul_kernel (F := F) := rfl
set_option maxHeartbeats 4000000 in
theorem gather_fn_eq_21 : cc21__gather_mul_kernel (F := F) = cc1__gather_mul_kernel (F := F) := rfl
set_option maxHeartbeats 4000000 in
theorem gather_fn_eq_22 : cc22__gather_mul_kernel (F := F) = cc1__gather_mul_kernel (F := F) := rfl
set_option maxHeartbeats 4000000 in
theorem gather_fn_eq_23 : cc23__gather_mul_kernel (F := F) = cc1__gather_mul_kernel (F := F) := rfl
set_option maxHeartbeats 4000000 in
theorem gather_fn_eq_24 : cc24__gather_mul_kernel (F := F) = cc1__gather_mul_kernel (F := F) := rfl
set_option maxHeartbeats 4000000 in
theorem gather_fn_eq_25 : cc25__gather_mul_kernel (F := F) = cc1__gather_mul_kernel (F := F) := rfl
set_option maxHeartbeats 4000000 in
theorem gather_fn_eq_26 : cc26__gather_mul_kernel (F := F) = cc1__gather_mul_kernel (F := F) := rfl
set_option maxHeartbeats 4000000 in
theorem gather_fn_eq_27 : cc27__gather_mul_kernel (F := F) = cc1__gather_mul_kernel (F := F) := rfl
set_option maxHeartbeats 4000000 in
theorem gather_fn_eq_28 : cc28__gather_mul_kernel (F := F) = cc1__gather_mul_kernel (F := F) := rfl
set_option maxHeartbeats 4000000 in
theorem gather_fn_eq_29 : cc29__gather_mul_kernel (F := F) = cc1__gather_mul_kernel (F := F) := rfl
set_option maxHeartbeats 4000000 in
theorem gather_fn_eq_30 : cc30__gather_mul_kernel (F := F) = cc1__gather_mul_kernel (F := F) := rfl
set_option maxHeartbeats 4000000 in
theorem gather_fn_eq_31 : cc31__gather_mul_kernel (F := F) = cc1__gather_mul_kernel (F := F) := rfl
set_option maxHeartbeats 4000000 in
theorem gather_fn_eq_32 : cc32__gather_mul_kernel (F := F) = cc1__gather_mul_kernel (F := F) := rfl
set_option maxHeartbeats 4000000 in
theorem gather_fn_eq_33 : cc33__gather_mul_kernel (F := F) = cc1__gather_mul_kernel (F := F) := rfl
set_option maxHeartbeats 4000000 in
theorem gather_fn_eq_34 : cc34__gather_mul_kernel (F := F) = cc1__gather_mul_kernel (F := F) := rfl
set_option maxHeartbeats 4000000 in
theorem gather_fn_eq_35 : cc35__gather_mul_kernel (F := F) = cc1__gather_mul_kernel (F := F) := rfl
set_option maxHeartbeats 4000000 in
theorem gather_fn_eq_36 : cc36__gather_mul_kernel (F := F) = cc1__gather_mul_kernel (F := F) := rfl
set_option maxHeartbeats 4000000 in
theorem gather_fn_eq_37 : cc37__gather_mul_kernel (F := F) = cc1__gather_mul_kernel (F := F) := rfl
set_option maxHeartbeats 4000000 in
theorem gather_fn_eq_38 : cc38__gather_mul_kernel (F := F) = cc1__gather_mul_kernel (F := F) := rfl
set_option maxHeartbeats 4000000 in
theorem gather_fn_eq_39 : cc39__gather_mul_kernel (F := F) = cc1__gather_mul_kernel (F := F) := rfl
set_option maxHeartbeats 4000000 in
theorem gather_fn_eq_40 : cc40__gather_mul_kernel (F := F) = cc1__gather_mul_kernel (F := F) := rfl
set_option maxHeartbeats 4000000 in
theorem gather_fn_eq_41 : cc41__gather_mul_kernel (F := F) = cc1__gather_mul_kernel (F := F) := rfl
set_option maxHeartbeats 4000000 in
theorem gather_fn_eq_42 : cc42__gather_mul_kernel (F := F) = cc1__gather_mul_kernel (F := F) := rfl
set_option maxHeartbeats 4000000 in
theorem gather_fn_eq_43 : cc43__gather_mul_kernel (F := F) = cc1__gather_mul_kernel (F := F) := rfl
set_option maxHeartbeats 4000000 in
theorem gather_fn_eq_44 : cc44__gather_mul_kernel (F := F) = cc1__gather_mul_kernel (F := F) := rfl
set_option maxHeartbeats 4000000 in
theorem gather_fn_eq_45 : cc45__gather_mul_kernel (F := F) = cc1__gather_mul_kernel (F := F) := rfl
set_option maxHeartbeats 4000000 in
theorem gather_fn_eq_46 : cc46__gather_mul_kernel (F := F) = cc1__gather_mul_kernel (F := F) := rfl
set_option maxHeartbeats 4000000 in
theorem gather_fn_eq_47 : cc47__gather_mul_kernel (F := F) = cc1__gather_mul_kernel (F := F) := rfl
set_option maxHeartbeats 4000000 in
theorem gather_fn_eq_48 : cc48__gather_mul_kernel (F := F) = cc1__gather_mul_kernel (F := F) := rfl

end Cert.Kernel.Hand
end
-- ==== Proof.K.GatherDefs.lean ====
/-
  The gather body's vocabulary, independent of which of the forty-eight gather launches runs it: the block a grid
  point gathers (row j of the block is the row of the array that table word 8·i + j names), what the body stores
  (that block scaled row by row by the values block), and the eight cells of the body's semaphore array as the
  body's own slice-and-squeeze of the array spells them, with their counters at zero.
-/
import proofs.«421643_j28415503630349_2_alg».proof.Proof.Gen.Kernel.Skeleton
import Idealize.ShloMosaic.Lib.ValueIdx
import Idealize.ShloMosaic.Lib.Pipeline.Frame

noncomputable section

namespace Cert.Kernel.Hand

open Cert.Kernel Cert.Kernel.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Word 8·i + j of the table lies inside it: the grid has 12500 points of eight words each. -/
theorem gather_word_lt (i : grid1.Coords) (j : Fin 8) : 8 * (i 0).val + j.val < 100000 := by
  have h : (i 0).val < 12500 := (i 0).isLt
  have := j.isLt
  omega

/-- The block gathered at grid point i: its row j is the array's row named by table word 8·i + j, the word read
    modulo the row count so that the definition is total (a word below the row count is read as itself). -/
def gatherG (T : Vec F S100000 .i32) (X : Vec F S100000x64 .f32) (i : grid1.Coords) : Vec F S8x64 .f32 :=
  fun y => X (ValueIdx.ix2 (⟨BitVec.toNat (T (ValueIdx.ix1 ⟨8 * (i 0).val + (y 0).val, gather_word_lt i (y 0)⟩)) % 100000,
    Nat.mod_lt _ (by decide)⟩ : Fin 100000) (y 1))

/-- What the body stores into its output block: the gathered block scaled row by row by the values block. -/
abbrev gatherOut (G : Vec F S8x64 .f32) (v : Vec F S8x1 .f32) : Vec F S8x64 .f32 := k1_pay1 G v

/-- At a word below the row count the gathered block's entry (j, k) is the array's entry (word, k). -/
theorem gatherG_apply (T : Vec F S100000 .i32) (X : Vec F S100000x64 .f32) (i : grid1.Coords) (j : Fin 8) (k : Fin 64)
    (h : BitVec.toNat (T (ValueIdx.ix1 ⟨8 * (i 0).val + j.val, gather_word_lt i j⟩)) < 100000) :
    gatherG T X i (ValueIdx.ix2 j k)
      = X (ValueIdx.ix2 (⟨BitVec.toNat (T (ValueIdx.ix1 ⟨8 * (i 0).val + j.val, gather_word_lt i j⟩)), h⟩ : Fin 100000) k) := by
  unfold gatherG
  congr 1
  funext a
  match a with
  | ⟨0, _⟩ => exact Fin.ext (Nat.mod_eq_of_lt h)
  | ⟨1, _⟩ => rfl

/-- Cell j of an array of eight semaphores, as the body's slice and squeeze of the array name it. -/
abbrev gsem0 (a : DmaSems sig S8) : DmaSem sig := ((a.slice (Rect.unit (s := S8) ![0] S1.size inb_S8_S1_0)).squeeze S_ squeezes_S1_S_).sem
abbrev gsem1 (a : DmaSems sig S8) : DmaSem sig := ((a.slice (Rect.unit (s := S8) ![1] S1.size inb_S8_S1_1)).squeeze S_ squeezes_S1_S_).sem
abbrev gsem2 (a : DmaSems sig S8) : DmaSem sig := ((a.slice (Rect.unit (s := S8) ![2] S1.size inb_S8_S1_2)).squeeze S_ squeezes_S1_S_).sem
abbrev gsem3 (a : DmaSems sig S8) : DmaSem sig := ((a.slice (Rect.unit (s := S8) ![3] S1.size inb_S8_S1_3)).squeeze S_ squeezes_S1_S_).sem
abbrev gsem4 (a : DmaSems sig S8) : DmaSem sig := ((a.slice (Rect.unit (s := S8) ![4] S1.size inb_S8_S1_4)).squeeze S_ squeezes_S1_S_).sem
abbrev gsem5 (a : DmaSems sig S8) : DmaSem sig := ((a.slice (Rect.unit (s := S8) ![5] S1.size inb_S8_S1_5)).squeeze S_ squeezes_S1_S_).sem
abbrev gsem6 (a : DmaSems sig S8) : DmaSem sig := ((a.slice (Rect.unit (s := S8) ![6] S1.size inb_S8_S1_6)).squeeze S_ squeezes_S1_S_).sem
abbrev gsem7 (a : DmaSems sig S8) : DmaSem sig := ((a.slice (Rect.unit (s := S8) ![7] S1.size inb_S8_S1_7)).squeeze S_ squeezes_S1_S_).sem

/-- The eight cells' counters at zero. -/
abbrev gsems0 (c : Dev nD) (a : DmaSems sig S8) : sProp 𝕄 :=
  iprop(semVal ((c : Thread nD τ), SemLoc.dma (gsem0 a)) 0 ∗ semVal ((c : Thread nD τ), SemLoc.dma (gsem1 a)) 0
    ∗ semVal ((c : Thread nD τ), SemLoc.dma (gsem2 a)) 0 ∗ semVal ((c : Thread nD τ), SemLoc.dma (gsem3 a)) 0
    ∗ semVal ((c : Thread nD τ), SemLoc.dma (gsem4 a)) 0 ∗ semVal ((c : Thread nD τ), SemLoc.dma (gsem5 a)) 0
    ∗ semVal ((c : Thread nD τ), SemLoc.dma (gsem6 a)) 0 ∗ semVal ((c : Thread nD τ), SemLoc.dma (gsem7 a)) 0)

end Cert.Kernel.Hand

end
-- ==== Proof.K.PreCols.lean ====
/-
  The precondition read back at the column table. The printed predicate ends in
  `all(cols ≥ 0) ∧ all(cols < 100000)` (signed compares of argument 4 against broadcast literals, each reduced by
  `and` from 1 into a rank-0 result, the results joined by `and`). Its value being 1 therefore says of EVERY word
  of `cols` that it lies in [0, 100000) signed, hence is below 100000 read unsigned. The same bound passes to any
  block of consecutive words cut out of `cols` (a slice only re-indexes), and a word below 100000 names a row of a
  [100000, 64] array: row offset v, column offset 0, block [1, 64] fits — which is every side condition the gather
  body assumes of a table word. Stated at any float instance F: no float operation is read.
-/
import proofs.«421643_j28415503630349_2_alg».proof.Kernel
import proofs.«421643_j28415503630349_2_alg».proof.Pre_finite_inputs
import Idealize.ShloMosaic.Lib.ReduceAll

noncomputable section

namespace Cert.Kernel.Hand

open Idealize.ShloMosaic Idealize.SL.Sem

/-- A shape of rank 0 has exactly one index. -/
instance subsingleton_idx_rank0 : Subsingleton Cert.Pre_finite_inputs.S_.Idx :=
  ⟨fun a b => funext fun d => d.elim0⟩

/-- A 32-bit word that is ≥ 0 and < 100000 read signed is < 100000 read unsigned: nonnegative signed means the top
    bit is clear, so the signed and unsigned readings agree. -/
theorem toNat_lt_of_signed (w : BitVec 32) (h0 : (0#32 : BitVec 32).toInt ≤ w.toInt)
    (h1 : w.toInt < (100000#32 : BitVec 32).toInt) : w.toNat < 100000 := by
  have hz : (0#32 : BitVec 32).toInt = 0 := by decide
  have hk : (100000#32 : BitVec 32).toInt = 100000 := by decide
  rw [hz] at h0
  rw [hk] at h1
  have hc : 2 * w.toNat < 2 ^ 32 := BitVec.toInt_pos_iff.1 h0
  rw [BitVec.toInt_eq_toNat_of_lt hc] at h1
  omega

/-- THE PRINTED PREDICATE DECODED AT ONE WORD OF ARGUMENT 4. If the predicate's value is 1 then its last two
    conjuncts are 1; each is a reduction by `and` into the single rank-0 index, so every element of the compared
    mask is 1; the masks are `cols ≥ 0` and `cols < 100000` elementwise (the broadcast of a scalar literal reads
    the literal everywhere). -/
theorem fn_cols_lt {F : FTy → Type} [FloatOps F] [Cert.Pre_finite_inputs.Facts]
    (a0 : FVec F Cert.Pre_finite_inputs.S40000x64 .f32) (a1 : FVec F Cert.Pre_finite_inputs.S60000x64 .f32)
    (a2 : FVec F Cert.Pre_finite_inputs.S1600000 .f32) (a3 a4 : IVec Cert.Pre_finite_inputs.S1600000 32)
    (a5 a6 : IVec Cert.Pre_finite_inputs.S4096 32)
    (h : Cert.Pre_finite_inputs.fn (F := F) a0 a1 a2 a3 a4 a5 a6 = fun _ => 1#1)
    (e : Cert.Pre_finite_inputs.S1600000.Idx) : (a4 e).toNat < 100000 := by
  have h0 := congrFun h (fun d => d.elim0)
  dsimp only [Cert.Pre_finite_inputs.fn, Cert.Pre_finite_inputs.fn_part1, andi] at h0
  obtain ⟨h12, hlt⟩ := IntOp.andi_eq_one.1 h0
  obtain ⟨-, hge⟩ := IntOp.andi_eq_one.1 h12
  have hge' := Host.reduce_andi_all _ _ _ _ _ hge e
  have hlt' := Host.reduce_andi_all _ _ _ _ _ hlt e
  dsimp only [cmpi, broadcastInDim, constantI] at hge' hlt'
  exact toNat_lt_of_signed _ (IntOp.cmpi_sge.1 hge') (IntOp.cmpi_slt.1 hlt')

/-- (1) Under the certificate's precondition on the launch memory `m` (the printed predicate of the seven argument
    arrays is 1 on every device), every word of the column table is below 100000. -/
theorem cols_lt {F : FTy → Type} [FloatOps F] [Cert.Pre_finite_inputs.Facts]
    (m : (ℓ : Loc nD τ sig) → Buf (Elt F) ℓ)
    (h : ∀ c : Dev nD,
      (Cert.Pre_finite_inputs.fn (F := F) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6))) = (fun _ => 1#1))
    (c : Dev nD) (e : S1600000.Idx) : (m ((c.tc : Thread nD τ).loc main_arg4) e).toNat < 100000 :=
  fn_cols_lt _ _ _ _ _ _ _ (h c) e

/-- (2) A block cut out of an array of words all below `n` has all its words below `n`: a slice at unit strides
    reads the array at the shifted index. One statement for every offset and every pair of shapes. -/
theorem slice_lt {s t : Shape} {w : Nat} {n : Nat} {x : s.Idx → BitVec w} (hx : ∀ e, (x e).toNat < n)
    (off : Fin s.rank → Nat) (hs : s.Slices off t) (i : t.Idx) :
    (extractStridedSlice t off x hs i).toNat < n :=
  hx _

/-- (1) and (2) together: every word of every [100000] block of the column table is below 100000. -/
theorem cols_slice_lt {F : FTy → Type} [FloatOps F] [Cert.Pre_finite_inputs.Facts]
    (m : (ℓ : Loc nD τ sig) → Buf (Elt F) ℓ)
    (h : ∀ c : Dev nD,
      (Cert.Pre_finite_inputs.fn (F := F) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6))) = (fun _ => 1#1))
    (c : Dev nD) (off : Fin S1600000.rank → Nat) (hs : S1600000.Slices off S100000) (i : S100000.Idx) :
    (extractStridedSlice S100000 off (m ((c.tc : Thread nD τ).loc main_arg4) : S1600000.Idx → BitVec 32) hs i).toNat
      < 100000 :=
  slice_lt (cols_lt m h c) off hs i

/-- A word below 100000 names a row of a [100000, 64] array: the [1, 64] block at row v, column 0 lies inside. -/
theorem row_inb (v : BitVec 32) (h : v.toNat < 100000) :
    ∀ a, (![v.toNat, 0] : Fin 2 → Nat) a + S1x64.size a ≤ S100000x64.size a := by
  intro a
  fin_cases a <;> simp [S1x64, S100000x64] <;> omega

/-! (3) Each side condition the gather body assumes of a table word is one or two instances of `row_inb`: the
    offsets it names are `![v.toNat, 0]` by unfolding. -/

theorem chk1_of_lt (v : BitVec 32) (h : v.toNat < 100000) : k1_chk1 v := by
  unfold k1_chk1; exact ⟨row_inb v h, row_inb v h⟩
theorem chk2_of_lt (v : BitVec 32) (h : v.toNat < 100000) : k1_chk2 v := by
  unfold k1_chk2; exact ⟨row_inb v h, row_inb v h⟩
theorem chk3_of_lt (v : BitVec 32) (h : v.toNat < 100000) : k1_chk3 v := by
  unfold k1_chk3; exact ⟨row_inb v h, row_inb v h⟩
theorem chk4_of_lt (v : BitVec 32) (h : v.toNat < 100000) : k1_chk4 v := by
  unfold k1_chk4; exact ⟨row_inb v h, row_inb v h⟩
theorem chk5_of_lt (v : BitVec 32) (h : v.toNat < 100000) : k1_chk5 v := by
  unfold k1_chk5; exact ⟨row_inb v h, row_inb v h⟩
theorem chk6_of_lt (v : BitVec 32) (h : v.toNat < 100000) : k1_chk6 v := by
  unfold k1_chk6; exact ⟨row_inb v h, row_inb v h⟩
theorem chk7_of_lt (v : BitVec 32) (h : v.toNat < 100000) : k1_chk7 v := by
  unfold k1_chk7; exact ⟨row_inb v h, row_inb v h⟩
theorem chk8_of_lt (v : BitVec 32) (h : v.toNat < 100000) : k1_chk8 v := by
  unfold k1_chk8; exact row_inb v h

theorem chk_of_lt (v : BitVec 32) (h : v.toNat < 100000) :
    k1_chk1 v ∧ k1_chk2 v ∧ k1_chk3 v ∧ k1_chk4 v ∧ k1_chk5 v ∧ k1_chk6 v ∧ k1_chk7 v ∧ k1_chk8 v :=
  ⟨chk1_of_lt v h, chk2_of_lt v h, chk3_of_lt v h, chk4_of_lt v h, chk5_of_lt v h, chk6_of_lt v h, chk7_of_lt v h,
    chk8_of_lt v h⟩

/-- The same eight facts for region 1 in one step: unfold the eight side conditions and give each offset bound by
    `row_inb`. (The sibling regions' statements are this one with the region number replaced.) -/
theorem chk_of_lt_1 (v : BitVec 32) (h : v.toNat < 100000) :
    k1_chk1 v ∧ k1_chk2 v ∧ k1_chk3 v ∧ k1_chk4 v ∧ k1_chk5 v ∧ k1_chk6 v ∧ k1_chk7 v ∧ k1_chk8 v := by
  unfold k1_chk1 k1_chk2 k1_chk3 k1_chk4 k1_chk5 k1_chk6 k1_chk7 k1_chk8
  exact ⟨⟨row_inb v h, row_inb v h⟩, ⟨row_inb v h, row_inb v h⟩, ⟨row_inb v h, row_inb v h⟩, ⟨row_inb v h, row_inb v h⟩, ⟨row_inb v h, row_inb v h⟩, ⟨row_inb v h, row_inb v h⟩, ⟨row_inb v h, row_inb v h⟩, row_inb v h⟩

end Cert.Kernel.Hand

end
-- ==== Proof.K.GatherBody.lean ====
/-
  The gather body, run once. At grid point i the body reads the eight table words 8·i + j, assumes of each that it
  names a row of the array (true of a word below the row count), copies that row of the array into row j of its
  scratch block by a transfer of its own on semaphore j, waits for the eight transfers, and stores the scratch block
  scaled row by row by the values block. The array is read by eight transfers in flight at once, so it is held as
  eight read shares while they fly; each transfer lends only its own row of the scratch block, and the eight rows
  written, the block reads back as ONE function of the table and the array: the gathered block.
-/
import proofs.«421643_j28415503630349_2_alg».proof.Proof.K.GatherDefs
import proofs.«421643_j28415503630349_2_alg».proof.Proof.K.PreCols
import Idealize.ShloMosaic.Lib.Tactic
import Idealize.ShloMosaic.Lib.Writes
import Idealize.ShloMosaic.Lib.Pipeline.Frame
import Idealize.ShloMosaic.Lib.Pipeline.Value

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## Reading back a scratch block written row by row -/

section Rows

variable {Val : EltTy → Type} {sg : RefSig} {κ κ' : Kind} {sp sp' : Space} {e : EltTy}

/-- A write through a reshaped view of what a reshaped source reads, both reshaped alike, is the write through the
    view of what the source reads: the two re-indexings cancel. -/
theorem reshape_write_read {s s' : Shape} (vd : View sg κ sp s e) (vs : View sg κ' sp' s e) (h : s'.numel = s.numel)
    (f : vd.ty.Contents Val) (g : vs.ty.Contents Val) :
    (vd.reshape s' h).write Val f ((vs.reshape s' h).read Val g) Finset.univ = vd.write Val f (vs.read Val g) Finset.univ := by
  rw [View.write_reshape_univ]
  congr 1
  funext x
  show vs.read Val g (Shape.reshapeEquiv h ((Shape.reshapeEquiv h).symm x)) = vs.read Val g x
  rw [Equiv.apply_symm_apply]

/-- Entry (j, k) of an eight-row block after row l was written: the written row's entry k when j = l, else what
    was there. -/
theorem read_row_write (v : View sg κ sp S8x64 e) (l : ℕ) (inb : ∀ a, (![l, 0] : Fin 2 → ℕ) a + S1x64.size a ≤ S8x64.size a)
    (f : v.ty.Contents Val) (w : S1x64.Idx → Val e) (j : Fin 8) (k : Fin 64) :
    v.read Val ((v.slice (Rect.unit (s := S8x64) ![l, 0] S1x64.size inb)).write Val f w Finset.univ) (ValueIdx.ix2 j k)
      = if j.val = l then w (ValueIdx.ix2 (0 : Fin 1) k) else v.read Val f (ValueIdx.ix2 j k) := by
  by_cases h : j.val = l
  · rw [if_pos h]
    have e1 : (ValueIdx.ix2 j k : S8x64.Idx) = (Rect.unit (s := S8x64) ![l, 0] S1x64.size inb).emb (ValueIdx.ix2 (0 : Fin 1) k) := by
      funext a
      match a with
      | ⟨0, _⟩ => exact Fin.ext (by show j.val = l + 1 * 0; omega)
      | ⟨1, _⟩ => exact Fin.ext (by show k.val = 0 + 1 * k.val; omega)
    rw [e1, View.read_slice_write_emb _ _ _ (Finset.mem_univ _)]
  · rw [if_neg h]
    refine View.read_slice_write_of_not_mem _ _ _ _ ?_
    rw [Rect.map_emb_univ]
    intro hm
    obtain ⟨t, ht, e⟩ := (LoadRect.mem_set _).mp hm ⟨0, by decide⟩
    have ht' : t < 1 := ht
    have e' : j.val = l + 1 * t := e
    exact h (by omega)

/-- Entry (j, k) of an eight-row block after its eight rows were written, row 0 first: row j's payload at k. -/
theorem read_rows8 (v : View sg κ sp S8x64 e) (f : v.ty.Contents Val) (w0 w1 w2 w3 w4 w5 w6 w7 : S1x64.Idx → Val e)
    (b0 : ∀ a, (![0, 0] : Fin 2 → ℕ) a + S1x64.size a ≤ S8x64.size a) (b1 : ∀ a, (![1, 0] : Fin 2 → ℕ) a + S1x64.size a ≤ S8x64.size a)
    (b2 : ∀ a, (![2, 0] : Fin 2 → ℕ) a + S1x64.size a ≤ S8x64.size a) (b3 : ∀ a, (![3, 0] : Fin 2 → ℕ) a + S1x64.size a ≤ S8x64.size a)
    (b4 : ∀ a, (![4, 0] : Fin 2 → ℕ) a + S1x64.size a ≤ S8x64.size a) (b5 : ∀ a, (![5, 0] : Fin 2 → ℕ) a + S1x64.size a ≤ S8x64.size a)
    (b6 : ∀ a, (![6, 0] : Fin 2 → ℕ) a + S1x64.size a ≤ S8x64.size a) (b7 : ∀ a, (![7, 0] : Fin 2 → ℕ) a + S1x64.size a ≤ S8x64.size a)
    (j : Fin 8) (k : Fin 64) :
    v.read Val
      ((v.slice (Rect.unit (s := S8x64) ![7, 0] S1x64.size b7)).write Val
        ((v.slice (Rect.unit (s := S8x64) ![6, 0] S1x64.size b6)).write Val
          ((v.slice (Rect.unit (s := S8x64) ![5, 0] S1x64.size b5)).write Val
            ((v.slice (Rect.unit (s := S8x64) ![4, 0] S1x64.size b4)).write Val
              ((v.slice (Rect.unit (s := S8x64) ![3, 0] S1x64.size b3)).write Val
                ((v.slice (Rect.unit (s := S8x64) ![2, 0] S1x64.size b2)).write Val
                  ((v.slice (Rect.unit (s := S8x64) ![1, 0] S1x64.size b1)).write Val
                    ((v.slice (Rect.unit (s := S8x64) ![0, 0] S1x64.size b0)).write Val f w0 Finset.univ)
                    w1 Finset.univ) w2 Finset.univ) w3 Finset.univ) w4 Finset.univ) w5 Finset.univ) w6 Finset.univ) w7 Finset.univ)
      (ValueIdx.ix2 j k)
      = (![w0, w1, w2, w3, w4, w5, w6, w7] : Fin 8 → S1x64.Idx → Val e) j (ValueIdx.ix2 (0 : Fin 1) k) := by
  rw [read_row_write, read_row_write, read_row_write, read_row_write, read_row_write, read_row_write, read_row_write, read_row_write]
  fin_cases j <;> first | rfl | simp

end Rows

/-- The table word the body reads at offset 8·i + j is word 8·i + j of the table. -/
theorem tbl_word (T : Vec F S100000 .i32) (i : grid1.Coords) (j : Fin 8) (off : Fin 1 → ℕ)
    (hoff : off = ![8 * (i 0).val + j.val]) (inb : ∀ a, off a + S1.size a ≤ S100000.size a) (h1 : 0 < S1.numel) :
    T ((Rect.unit (s := S100000) off S1.size inb).toLoadRect.idx (Shape.Idx.first h1))
      = T (ValueIdx.ix1 ⟨8 * (i 0).val + j.val, gather_word_lt i j⟩) := by
  subst hoff
  congr 1
  funext a
  match a with
  | ⟨0, _⟩ => exact Fin.ext (by show 8 * (i 0).val + j.val + 1 * 0 = 8 * (i 0).val + j.val; omega)

/-- Entry k of the row the body copies for block row j — the array read through the one-row rectangle at the word's
    row — is the gathered block's entry (j, k). -/
theorem src_row (T : Vec F S100000 .i32) (X : Vec F S100000x64 .f32) (i : grid1.Coords) (j : Fin 8) (k : Fin 64)
    (w : BitVec 32) (hw : w = T (ValueIdx.ix1 ⟨8 * (i 0).val + j.val, gather_word_lt i j⟩)) (hl : w.toNat < 100000)
    (off : Fin 2 → ℕ) (ho : off = ![w.toNat, 0]) (ib : ∀ a, off a + S1x64.size a ≤ S100000x64.size a) :
    X ((Rect.unit (s := S100000x64) off S1x64.size ib).emb (ValueIdx.ix2 (0 : Fin 1) k)) = gatherG T X i (ValueIdx.ix2 j k) := by
  subst ho
  subst hw
  rw [gatherG_apply T X i j k hl]
  congr 1
  funext a
  match a with
  | ⟨0, _⟩ => exact Fin.ext (by show BitVec.toNat _ + 1 * 0 = BitVec.toNat _; omega)
  | ⟨1, _⟩ => exact Fin.ext (by show 0 + 1 * k.val = k.val; omega)

/-- THE SCRATCH READ BACK. After the eight rows of the scratch block were written, row j with the array's one-row
    rectangle at the row that table word 8·i + j names (each through the squeezed views, re-indexed alike on both
    sides), the block reads as the gathered block — whatever it held before. -/
theorem gathered_scratch {κ κ' : Kind} {sp sp' : Space} (v5 : View sig κ sp S8x64 .f32) (v2 : View sig κ' sp' S100000x64 .f32)
    (f5 : v5.ty.Contents (Elt F)) (fx : v2.ty.Contents (Elt F)) (T : Vec F S100000 .i32) (i : grid1.Coords)
    (h : S64.numel = S1x64.numel)
    (w0 : BitVec 32) (w1 : BitVec 32) (w2 : BitVec 32) (w3 : BitVec 32) (w4 : BitVec 32) (w5 : BitVec 32) (w6 : BitVec 32) (w7 : BitVec 32)
    (hw0 : w0 = T (ValueIdx.ix1 ⟨8 * (i 0).val + (0 : Fin 8).val, gather_word_lt i 0⟩))
    (hw1 : w1 = T (ValueIdx.ix1 ⟨8 * (i 0).val + (1 : Fin 8).val, gather_word_lt i 1⟩))
    (hw2 : w2 = T (ValueIdx.ix1 ⟨8 * (i 0).val + (2 : Fin 8).val, gather_word_lt i 2⟩))
    (hw3 : w3 = T (ValueIdx.ix1 ⟨8 * (i 0).val + (3 : Fin 8).val, gather_word_lt i 3⟩))
    (hw4 : w4 = T (ValueIdx.ix1 ⟨8 * (i 0).val + (4 : Fin 8).val, gather_word_lt i 4⟩))
    (hw5 : w5 = T (ValueIdx.ix1 ⟨8 * (i 0).val + (5 : Fin 8).val, gather_word_lt i 5⟩))
    (hw6 : w6 = T (ValueIdx.ix1 ⟨8 * (i 0).val + (6 : Fin 8).val, gather_word_lt i 6⟩))
    (hw7 : w7 = T (ValueIdx.ix1 ⟨8 * (i 0).val + (7 : Fin 8).val, gather_word_lt i 7⟩))
    (hl0 : w0.toNat < 100000) (hl1 : w1.toNat < 100000) (hl2 : w2.toNat < 100000) (hl3 : w3.toNat < 100000) (hl4 : w4.toNat < 100000) (hl5 : w5.toNat < 100000) (hl6 : w6.toNat < 100000) (hl7 : w7.toNat < 100000)
    (off0 : Fin 2 → ℕ) (off1 : Fin 2 → ℕ) (off2 : Fin 2 → ℕ) (off3 : Fin 2 → ℕ) (off4 : Fin 2 → ℕ) (off5 : Fin 2 → ℕ) (off6 : Fin 2 → ℕ) (off7 : Fin 2 → ℕ)
    (ho0 : off0 = ![w0.toNat, 0]) (ho1 : off1 = ![w1.toNat, 0]) (ho2 : off2 = ![w2.toNat, 0]) (ho3 : off3 = ![w3.toNat, 0]) (ho4 : off4 = ![w4.toNat, 0]) (ho5 : off5 = ![w5.toNat, 0]) (ho6 : off6 = ![w6.toNat, 0]) (ho7 : off7 = ![w7.toNat, 0])
    (ib0 : ∀ a, off0 a + S1x64.size a ≤ S100000x64.size a)
    (ib1 : ∀ a, off1 a + S1x64.size a ≤ S100000x64.size a)
    (ib2 : ∀ a, off2 a + S1x64.size a ≤ S100000x64.size a)
    (ib3 : ∀ a, off3 a + S1x64.size a ≤ S100000x64.size a)
    (ib4 : ∀ a, off4 a + S1x64.size a ≤ S100000x64.size a)
    (ib5 : ∀ a, off5 a + S1x64.size a ≤ S100000x64.size a)
    (ib6 : ∀ a, off6 a + S1x64.size a ≤ S100000x64.size a)
    (ib7 : ∀ a, off7 a + S1x64.size a ≤ S100000x64.size a)
    (jb0 : ∀ a, (![0, 0] : Fin 2 → ℕ) a + S1x64.size a ≤ S8x64.size a)
    (jb1 : ∀ a, (![1, 0] : Fin 2 → ℕ) a + S1x64.size a ≤ S8x64.size a)
    (jb2 : ∀ a, (![2, 0] : Fin 2 → ℕ) a + S1x64.size a ≤ S8x64.size a)
    (jb3 : ∀ a, (![3, 0] : Fin 2 → ℕ) a + S1x64.size a ≤ S8x64.size a)
    (jb4 : ∀ a, (![4, 0] : Fin 2 → ℕ) a + S1x64.size a ≤ S8x64.size a)
    (jb5 : ∀ a, (![5, 0] : Fin 2 → ℕ) a + S1x64.size a ≤ S8x64.size a)
    (jb6 : ∀ a, (![6, 0] : Fin 2 → ℕ) a + S1x64.size a ≤ S8x64.size a)
    (jb7 : ∀ a, (![7, 0] : Fin 2 → ℕ) a + S1x64.size a ≤ S8x64.size a) :
    v5.read (Elt F)
        (((v5.slice (Rect.unit (s := S8x64) ![7, 0] S1x64.size jb7)).reshape S64 h).write (Elt F) (((v5.slice (Rect.unit (s := S8x64) ![6, 0] S1x64.size jb6)).reshape S64 h).write (Elt F) (((v5.slice (Rect.unit (s := S8x64) ![5, 0] S1x64.size jb5)).reshape S64 h).write (Elt F) (((v5.slice (Rect.unit (s := S8x64) ![4, 0] S1x64.size jb4)).reshape S64 h).write (Elt F) (((v5.slice (Rect.unit (s := S8x64) ![3, 0] S1x64.size jb3)).reshape S64 h).write (Elt F) (((v5.slice (Rect.unit (s := S8x64) ![2, 0] S1x64.size jb2)).reshape S64 h).write (Elt F) (((v5.slice (Rect.unit (s := S8x64) ![1, 0] S1x64.size jb1)).reshape S64 h).write (Elt F) (((v5.slice (Rect.unit (s := S8x64) ![0, 0] S1x64.size jb0)).reshape S64 h).write (Elt F) f5
          (((v2.slice (Rect.unit (s := S100000x64) off0 S1x64.size ib0)).reshape S64 h).read (Elt F) fx) Finset.univ)
          (((v2.slice (Rect.unit (s := S100000x64) off1 S1x64.size ib1)).reshape S64 h).read (Elt F) fx) Finset.univ)
          (((v2.slice (Rect.unit (s := S100000x64) off2 S1x64.size ib2)).reshape S64 h).read (Elt F) fx) Finset.univ)
          (((v2.slice (Rect.unit (s := S100000x64) off3 S1x64.size ib3)).reshape S64 h).read (Elt F) fx) Finset.univ)
          (((v2.slice (Rect.unit (s := S100000x64) off4 S1x64.size ib4)).reshape S64 h).read (Elt F) fx) Finset.univ)
          (((v2.slice (Rect.unit (s := S100000x64) off5 S1x64.size ib5)).reshape S64 h).read (Elt F) fx) Finset.univ)
          (((v2.slice (Rect.unit (s := S100000x64) off6 S1x64.size ib6)).reshape S64 h).read (Elt F) fx) Finset.univ)
          (((v2.slice (Rect.unit (s := S100000x64) off7 S1x64.size ib7)).reshape S64 h).read (Elt F) fx) Finset.univ)
      = gatherG T (v2.read (Elt F) fx) i := by
  funext y
  obtain ⟨j, k, rfl⟩ : ∃ (j : Fin 8) (k : Fin 64), y = ValueIdx.ix2 j k := ⟨y 0, y 1, ValueIdx.eq_ix2 y⟩
  simp only [reshape_write_read]
  rw [read_rows8]
  fin_cases j
  · exact src_row T (v2.read (Elt F) fx) i 0 k w0 hw0 hl0 off0 ho0 ib0
  · exact src_row T (v2.read (Elt F) fx) i 1 k w1 hw1 hl1 off1 ho1 ib1
  · exact src_row T (v2.read (Elt F) fx) i 2 k w2 hw2 hl2 off2 ho2 ib2
  · exact src_row T (v2.read (Elt F) fx) i 3 k w3 hw3 hl3 off3 ho3 ib3
  · exact src_row T (v2.read (Elt F) fx) i 4 k w4 hw4 hl4 off4 ho4 ib4
  · exact src_row T (v2.read (Elt F) fx) i 5 k w5 hw5 hl5 off5 ho5 ib5
  · exact src_row T (v2.read (Elt F) fx) i 6 k w6 hw6 hl6 off6 ho6 ib6
  · exact src_row T (v2.read (Elt F) fx) i 7 k w7 hw7 hl7 off7 ho7 ib7

/-- Both offsets of the whole-block rectangle are zero. -/
theorem hz2 : (![0, 0] : Fin 2 → Nat) = fun _ => 0 := by funext a; fin_cases a <;> rfl

/-- The gather body's run, as a predicate of the kernel function (the forty-eight gather launches print the same
    function): from the table and the array held at any shares, the values block, the output block and the scratch
    block held whole, the eight cells at zero and nothing owed, with every table word below the row count, the
    function runs to its return handing everything back — the output block at the gathered block scaled by the values
    block, the cells at zero again. -/
abbrev GatherRunStmt (kern : (i : grid1.Coords) → (arg1 : Memref sig .tc .smem S100000 .i32) → arg1.IsWhole →
    (arg2 : Memref sig .tc .hbm S100000x64 .f32) → arg2.IsWhole → (arg3 : Memref sig .tc .vmem S8x1 .f32) → arg3.IsWhole →
    (arg4 : Memref sig .tc .vmem S8x64 .f32) → arg4.IsWhole → (arg5 : Memref sig .tc .vmem S8x64 .f32) → arg5.IsWhole →
    DmaSems sig S8 → Prog (TpuEff nD τ sig (Elt F) Λ₀ .tc) PUnit) : Prop :=
  ∀ (c : Dev nD) (i : grid1.Coords)
    (arg1 : Memref sig .tc .smem S100000 .i32) (harg1 : arg1.IsWhole) (arg2 : Memref sig .tc .hbm S100000x64 .f32) (harg2 : arg2.IsWhole)
    (arg3 : Memref sig .tc .vmem S8x1 .f32) (harg3 : arg3.IsWhole) (arg4 : Memref sig .tc .vmem S8x64 .f32) (harg4 : arg4.IsWhole)
    (arg5 : Memref sig .tc .vmem S8x64 .f32) (harg5 : arg5.IsWhole) (arg6 : DmaSems sig S8)
    (qt qx : PosShare TreeShare)
    (ft : Buf (Elt F) (arg1.view.loc (c : Thread nD τ))) (fx : Buf (Elt F) (arg2.view.loc (c : Thread nD τ))) (v : Vec F S8x1 .f32)
    (hT : ∀ y : S100000.Idx, BitVec.toNat (arg1.view.read (Elt F) ft y) < 100000)
    (W : Waits sig Unit) (K : PUnit → sProp 𝕄),
    iprop((arg1.view.loc (c : Thread nD τ) ↦{qt} ft) ∗ (arg2.view.loc (c : Thread nD τ) ↦{qx} fx)
        ∗ owns (c : Thread nD τ) arg3 fullShare v
        ∗ (∃ d, owns (c : Thread nD τ) arg4 fullShare d) ∗ (∃ d, owns (c : Thread nD τ) arg5 fullShare d)
        ∗ gsems0 c arg6 ∗ owes (c : Thread nD τ) 0 W
        ∗ (iprop((arg1.view.loc (c : Thread nD τ) ↦{qt} ft) ∗ (arg2.view.loc (c : Thread nD τ) ↦{qx} fx)
            ∗ owns (c : Thread nD τ) arg3 fullShare v
            ∗ owns (c : Thread nD τ) arg4 fullShare (gatherOut (gatherG (arg1.view.read (Elt F) ft) (arg2.view.read (Elt F) fx) i) v)
            ∗ (∃ d, owns (c : Thread nD τ) arg5 fullShare d)
            ∗ gsems0 c arg6 ∗ (∃ W', owes (c : Thread nD τ) 0 W')) -∗ K ⟨⟩))
      ⊢ wp frame (wpE (defs₀ (F := F)) Variants.none c none) Set.univ
          (kern i arg1 harg1 arg2 harg2 arg3 harg3 arg4 harg4 arg5 harg5 arg6) K

set_option sl_exec.dmaWindow true in
set_option sl_exec.rejoinHeartbeats 80000 in
set_option maxHeartbeats 4000000 in
/-- THE RUN. The array's share is cut into eight read shares (seven successive halvings), one per transfer in flight;
    the scratch block is held whole, so that each transfer lends its own row and the wait puts the row back; the
    assumes are discharged from the bound on the table's words; at the return the shares are joined again and the
    output block's contents are read off: one covering store of the scaled scratch block, the scratch block the
    gathered block (`gathered_scratch`). -/
theorem gather_kernel_run : GatherRunStmt (F := F) (cc1__gather_mul_kernel (F := F)) := by
    intro c i arg1 harg1 arg2 harg2 arg3 harg3 arg4 harg4 arg5 harg5 arg6 qt qx ft fx v hT W K
    simp only [cc1__gather_mul_kernel_eq_skeleton]; unfold cc1__gather_mul_kernel_skel
    unfold owns
    rw [harg5.set_eq_univ]
    iintro ⟨H1, H2, ⟨%f3, %hf3, H3⟩, ⟨%d4, %f4, -, H4⟩, ⟨%d5, %f5, -, H5⟩, ⟨Hs0, Hs1, Hs2, Hs3, Hs4, Hs5, Hs6, Hs7⟩, HW, Hk⟩
    obtain rfl := harg3.eq_unread hf3
    ihave H2 := (pointsTo_share (PosShare.mem_left_op_right qx)).1 $$ H2
    icases H2 with ⟨H2, Hx0⟩
    ihave H2 := (pointsTo_share (PosShare.mem_left_op_right qx.left)).1 $$ H2
    icases H2 with ⟨H2, Hx1⟩
    ihave H2 := (pointsTo_share (PosShare.mem_left_op_right qx.left.left)).1 $$ H2
    icases H2 with ⟨H2, Hx2⟩
    ihave H2 := (pointsTo_share (PosShare.mem_left_op_right qx.left.left.left)).1 $$ H2
    icases H2 with ⟨H2, Hx3⟩
    ihave H2 := (pointsTo_share (PosShare.mem_left_op_right qx.left.left.left.left)).1 $$ H2
    icases H2 with ⟨H2, Hx4⟩
    ihave H2 := (pointsTo_share (PosShare.mem_left_op_right qx.left.left.left.left.left)).1 $$ H2
    icases H2 with ⟨H2, Hx5⟩
    ihave H2 := (pointsTo_share (PosShare.mem_left_op_right qx.left.left.left.left.left.left)).1 $$ H2
    icases H2 with ⟨Hx7, Hx6⟩
    sl_exec (disch := first
      | exact chk1_of_lt _ (hT _) | exact chk2_of_lt _ (hT _) | exact chk3_of_lt _ (hT _) | exact chk4_of_lt _ (hT _)
      | exact chk5_of_lt _ (hT _) | exact chk6_of_lt _ (hT _) | exact chk7_of_lt _ (hT _) | exact chk8_of_lt _ (hT _))
    sl_step
    iapply Hk
    isplitl [H1]; · iexact H1
    isplitl [Hx0 Hx1 Hx2 Hx3 Hx4 Hx5 Hx6 Hx7]
    ·
      iapply (pointsTo_share (PosShare.mem_left_op_right qx)).2
      isplitr [Hx0]
      ·
        iapply (pointsTo_share (PosShare.mem_left_op_right qx.left)).2
        isplitr [Hx1]
        ·
          iapply (pointsTo_share (PosShare.mem_left_op_right qx.left.left)).2
          isplitr [Hx2]
          ·
            iapply (pointsTo_share (PosShare.mem_left_op_right qx.left.left.left)).2
            isplitr [Hx3]
            ·
              iapply (pointsTo_share (PosShare.mem_left_op_right qx.left.left.left.left)).2
              isplitr [Hx4]
              ·
                iapply (pointsTo_share (PosShare.mem_left_op_right qx.left.left.left.left.left)).2
                isplitr [Hx5]
                ·
                  iapply (pointsTo_share (PosShare.mem_left_op_right qx.left.left.left.left.left.left)).2
                  isplitr [Hx6]
                  ·
                    iexact Hx7
                  · iexact Hx6
                · iexact Hx5
              · iexact Hx4
            · iexact Hx3
          · iexact Hx2
        · iexact Hx1
      · iexact Hx0
    isplitl [H3]
    · iexists _; isplitr; · ipureintro; exact harg3.read_unread _
      iexact H3
    isplitl [H4]
    · iexists _; isplitr; swap; · iexact H4
      ipureintro
      rw [View.read_writes_eq_canon _ _ _ (fun y => ⟨_, List.mem_singleton_self _, View.mem_set_unit_zero hz2 inb_S8x64_S8x64_0_0 y⟩),
        View.canon_unit_zero hz2]
      show k1_pay1 _ _ = k1_pay1 _ _
      congr 1
      · sl_unfold_run_names
        rw [View.readAt_eq_ld, View.ld_unit_zero hz2]
        simp only [Memref.view_squeeze, Memref.view_slice, ReadAs.apply_same]
        refine gathered_scratch (F := F) arg5.view arg2.view f5 fx (arg1.view.read (Elt F) ft) i _ _ _ _ _ _ _ _ _
          (tbl_word (arg1.view.read (Elt F) ft) i 0 (k1_off1 i) (k1_off1_eq i) (k1_off1_inb i) (by rw [numel1_S1]; exact Nat.one_pos))
          (tbl_word (arg1.view.read (Elt F) ft) i 1 (k1_off3 i) (k1_off3_eq i) (k1_off3_inb i) (by rw [numel1_S1]; exact Nat.one_pos))
          (tbl_word (arg1.view.read (Elt F) ft) i 2 (k1_off5 i) (k1_off5_eq i) (k1_off5_inb i) (by rw [numel1_S1]; exact Nat.one_pos))
          (tbl_word (arg1.view.read (Elt F) ft) i 3 (k1_off7 i) (k1_off7_eq i) (k1_off7_inb i) (by rw [numel1_S1]; exact Nat.one_pos))
          (tbl_word (arg1.view.read (Elt F) ft) i 4 (k1_off9 i) (k1_off9_eq i) (k1_off9_inb i) (by rw [numel1_S1]; exact Nat.one_pos))
          (tbl_word (arg1.view.read (Elt F) ft) i 5 (k1_off11 i) (k1_off11_eq i) (k1_off11_inb i) (by rw [numel1_S1]; exact Nat.one_pos))
          (tbl_word (arg1.view.read (Elt F) ft) i 6 (k1_off13 i) (k1_off13_eq i) (k1_off13_inb i) (by rw [numel1_S1]; exact Nat.one_pos))
          (tbl_word (arg1.view.read (Elt F) ft) i 7 (k1_off15 i) (k1_off15_eq i) (k1_off15_inb i) (by rw [numel1_S1]; exact Nat.one_pos))
          ?_ ?_ ?_ ?_ ?_ ?_ ?_ ?_ _ _ _ _ _ _ _ _ ?_ ?_ ?_ ?_ ?_ ?_ ?_ ?_ _ _ _ _ _ _ _ _ _ _ _ _ _ _ _ _
        · exact hT _
        · exact hT _
        · exact hT _
        · exact hT _
        · exact hT _
        · exact hT _
        · exact hT _
        · exact hT _
        · rfl
        · rfl
        · rfl
        · rfl
        · rfl
        · rfl
        · rfl
        · rfl
      · rw [View.readAt_eq_ld, harg3.read_unread, View.ld_unit_zero hz2]
    isplitl [H5]
    · iexists _, _; isplitr; swap; · iexact H5
      ipureintro; rfl
    isplitl [Hs0 Hs1 Hs2 Hs3 Hs4 Hs5 Hs6 Hs7]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      iexact Hs7
    iexists _; iexact HW

end Cert.Kernel.Hand

end
-- ==== Proof.K.BodyEq.lean ====
/-
  The body run of every gather region: region 1's, transported along the equality of the kernel functions.
-/
import proofs.«421643_j28415503630349_2_alg».proof.Proof.K.FnEq
import proofs.«421643_j28415503630349_2_alg».proof.Proof.K.GatherBody

noncomputable section
namespace Cert.Kernel.Hand
open Cert.Kernel Cert.Kernel.Gen Idealize.ShloMosaic Idealize.SL.Sem
variable {F : FTy → Type} [FloatOps F]

theorem gather_kernel_run_2 : GatherRunStmt (F := F) (cc2__gather_mul_kernel (F := F)) := by
  rw [gather_fn_eq_2]; exact gather_kernel_run
theorem gather_kernel_run_3 : GatherRunStmt (F := F) (cc3__gather_mul_kernel (F := F)) := by
  rw [gather_fn_eq_3]; exact gather_kernel_run
theorem gather_kernel_run_4 : GatherRunStmt (F := F) (cc4__gather_mul_kernel (F := F)) := by
  rw [gather_fn_eq_4]; exact gather_kernel_run
theorem gather_kernel_run_5 : GatherRunStmt (F := F) (cc5__gather_mul_kernel (F := F)) := by
  rw [gather_fn_eq_5]; exact gather_kernel_run
theorem gather_kernel_run_6 : GatherRunStmt (F := F) (cc6__gather_mul_kernel (F := F)) := by
  rw [gather_fn_eq_6]; exact gather_kernel_run
theorem gather_kernel_run_7 : GatherRunStmt (F := F) (cc7__gather_mul_kernel (F := F)) := by
  rw [gather_fn_eq_7]; exact gather_kernel_run
theorem gather_kernel_run_8 : GatherRunStmt (F := F) (cc8__gather_mul_kernel (F := F)) := by
  rw [gather_fn_eq_8]; exact gather_kernel_run
theorem gather_kernel_run_9 : GatherRunStmt (F := F) (cc9__gather_mul_kernel (F := F)) := by
  rw [gather_fn_eq_9]; exact gather_kernel_run
theorem gather_kernel_run_10 : GatherRunStmt (F := F) (cc10__gather_mul_kernel (F := F)) := by
  rw [gather_fn_eq_10]; exact gather_kernel_run
theorem gather_kernel_run_11 : GatherRunStmt (F := F) (cc11__gather_mul_kernel (F := F)) := by
  rw [gather_fn_eq_11]; exact gather_kernel_run
theorem gather_kernel_run_12 : GatherRunStmt (F := F) (cc12__gather_mul_kernel (F := F)) := by
  rw [gather_fn_eq_12]; exact gather_kernel_run
theorem gather_kernel_run_13 : GatherRunStmt (F := F) (cc13__gather_mul_kernel (F := F)) := by
  rw [gather_fn_eq_13]; exact gather_kernel_run
theorem gather_kernel_run_14 : GatherRunStmt (F := F) (cc14__gather_mul_kernel (F := F)) := by
  rw [gather_fn_eq_14]; exact gather_kernel_run
theorem gather_kernel_run_15 : GatherRunStmt (F := F) (cc15__gather_mul_kernel (F := F)) := by
  rw [gather_fn_eq_15]; exact gather_kernel_run
theorem gather_kernel_run_16 : GatherRunStmt (F := F) (cc16__gather_mul_kernel (F := F)) := by
  rw [gather_fn_eq_16]; exact gather_kernel_run
theorem gather_kernel_run_17 : GatherRunStmt (F := F) (cc17__gather_mul_kernel (F := F)) := by
  rw [gather_fn_eq_17]; exact gather_kernel_run
theorem gather_kernel_run_18 : GatherRunStmt (F := F) (cc18__gather_mul_kernel (F := F)) := by
  rw [gather_fn_eq_18]; exact gather_kernel_run
theorem gather_kernel_run_19 : GatherRunStmt (F := F) (cc19__gather_mul_kernel (F := F)) := by
  rw [gather_fn_eq_19]; exact gather_kernel_run
theorem gather_kernel_run_20 : GatherRunStmt (F := F) (cc20__gather_mul_kernel (F := F)) := by
  rw [gather_fn_eq_20]; exact gather_kernel_run
theorem gather_kernel_run_21 : GatherRunStmt (F := F) (cc21__gather_mul_kernel (F := F)) := by
  rw [gather_fn_eq_21]; exact gather_kernel_run
theorem gather_kernel_run_22 : GatherRunStmt (F := F) (cc22__gather_mul_kernel (F := F)) := by
  rw [gather_fn_eq_22]; exact gather_kernel_run
theorem gather_kernel_run_23 : GatherRunStmt (F := F) (cc23__gather_mul_kernel (F := F)) := by
  rw [gather_fn_eq_23]; exact gather_kernel_run
theorem gather_kernel_run_24 : GatherRunStmt (F := F) (cc24__gather_mul_kernel (F := F)) := by
  rw [gather_fn_eq_24]; exact gather_kernel_run
theorem gather_kernel_run_25 : GatherRunStmt (F := F) (cc25__gather_mul_kernel (F := F)) := by
  rw [gather_fn_eq_25]; exact gather_kernel_run
theorem gather_kernel_run_26 : GatherRunStmt (F := F) (cc26__gather_mul_kernel (F := F)) := by
  rw [gather_fn_eq_26]; exact gather_kernel_run
theorem gather_kernel_run_27 : GatherRunStmt (F := F) (cc27__gather_mul_kernel (F := F)) := by
  rw [gather_fn_eq_27]; exact gather_kernel_run
theorem gather_kernel_run_28 : GatherRunStmt (F := F) (cc28__gather_mul_kernel (F := F)) := by
  rw [gather_fn_eq_28]; exact gather_kernel_run
theorem gather_kernel_run_29 : GatherRunStmt (F := F) (cc29__gather_mul_kernel (F := F)) := by
  rw [gather_fn_eq_29]; exact gather_kernel_run
theorem gather_kernel_run_30 : GatherRunStmt (F := F) (cc30__gather_mul_kernel (F := F)) := by
  rw [gather_fn_eq_30]; exact gather_kernel_run
theorem gather_kernel_run_31 : GatherRunStmt (F := F) (cc31__gather_mul_kernel (F := F)) := by
  rw [gather_fn_eq_31]; exact gather_kernel_run
theorem gather_kernel_run_32 : GatherRunStmt (F := F) (cc32__gather_mul_kernel (F := F)) := by
  rw [gather_fn_eq_32]; exact gather_kernel_run
theorem gather_kernel_run_33 : GatherRunStmt (F := F) (cc33__gather_mul_kernel (F := F)) := by
  rw [gather_fn_eq_33]; exact gather_kernel_run
theorem gather_kernel_run_34 : GatherRunStmt (F := F) (cc34__gather_mul_kernel (F := F)) := by
  rw [gather_fn_eq_34]; exact gather_kernel_run
theorem gather_kernel_run_35 : GatherRunStmt (F := F) (cc35__gather_mul_kernel (F := F)) := by
  rw [gather_fn_eq_35]; exact gather_kernel_run
theorem gather_kernel_run_36 : GatherRunStmt (F := F) (cc36__gather_mul_kernel (F := F)) := by
  rw [gather_fn_eq_36]; exact gather_kernel_run
theorem gather_kernel_run_37 : GatherRunStmt (F := F) (cc37__gather_mul_kernel (F := F)) := by
  rw [gather_fn_eq_37]; exact gather_kernel_run
theorem gather_kernel_run_38 : GatherRunStmt (F := F) (cc38__gather_mul_kernel (F := F)) := by
  rw [gather_fn_eq_38]; exact gather_kernel_run
theorem gather_kernel_run_39 : GatherRunStmt (F := F) (cc39__gather_mul_kernel (F := F)) := by
  rw [gather_fn_eq_39]; exact gather_kernel_run
theorem gather_kernel_run_40 : GatherRunStmt (F := F) (cc40__gather_mul_kernel (F := F)) := by
  rw [gather_fn_eq_40]; exact gather_kernel_run
theorem gather_kernel_run_41 : GatherRunStmt (F := F) (cc41__gather_mul_kernel (F := F)) := by
  rw [gather_fn_eq_41]; exact gather_kernel_run
theorem gather_kernel_run_42 : GatherRunStmt (F := F) (cc42__gather_mul_kernel (F := F)) := by
  rw [gather_fn_eq_42]; exact gather_kernel_run
theorem gather_kernel_run_43 : GatherRunStmt (F := F) (cc43__gather_mul_kernel (F := F)) := by
  rw [gather_fn_eq_43]; exact gather_kernel_run
theorem gather_kernel_run_44 : GatherRunStmt (F := F) (cc44__gather_mul_kernel (F := F)) := by
  rw [gather_fn_eq_44]; exact gather_kernel_run
theorem gather_kernel_run_45 : GatherRunStmt (F := F) (cc45__gather_mul_kernel (F := F)) := by
  rw [gather_fn_eq_45]; exact gather_kernel_run
theorem gather_kernel_run_46 : GatherRunStmt (F := F) (cc46__gather_mul_kernel (F := F)) := by
  rw [gather_fn_eq_46]; exact gather_kernel_run
theorem gather_kernel_run_47 : GatherRunStmt (F := F) (cc47__gather_mul_kernel (F := F)) := by
  rw [gather_fn_eq_47]; exact gather_kernel_run
theorem gather_kernel_run_48 : GatherRunStmt (F := F) (cc48__gather_mul_kernel (F := F)) := by
  rw [gather_fn_eq_48]; exact gather_kernel_run

end Cert.Kernel.Hand
end
-- ==== Proof.K.Region1.lean ====
/-
  The first gather region of the host program (pipeline 1).

  At a point i of its grid the body reads eight words of the prefetched table, takes the eight rows of the operand
  left in far memory that those words name, and stores their product with the block of the first window (a column
  of eight scalars, broadcast along the rows) into the block of the second window.

  This module gives, at a valuation V of the buffers as the region finds them and admissible table contents a1:
  the region's proof data (what each window's staging buffer holds after the body at every point; the invariant
  that passes from point to point: the scoped buffers no window stages, the generator register, the body's own
  transfer cells at zero, the far operand whole at its contents under V, the table whole at a1), the body
  obligation from the body's run at a point, and the region's record for a launch of several regions: how the
  region's arrays, the table and the far operand are taken out of the unscoped buffers at entry and put back at
  exit, the arrays then holding what the write-backs leave and every other buffer what it held. Last, the output
  block is named — the rows of the far operand that the table's eight words at the point name, each scaled by the
  matching scalar of the input block — and the body's run on any operands is joined to the proof data at it.
-/
import proofs.«421643_j28415503630349_2_alg».proof.Proof.K.Common
import proofs.«421643_j28415503630349_2_alg».proof.Proof.K.BodyEq
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

/-! ## The body's own transfer cells -/

/-- The eight cells of the body's semaphore array, in order. -/
abbrev osem1 : Fin 8 → SemLoc sig := fun j => SemLoc.dma (cc1_scratch1.ix (fun | ⟨0, _⟩ => j))

/-- They are scoped, pairwise distinct, and none is a staging cell of a window. -/
theorem ownSemFacts1 : Pipeline.OwnSemFacts spec1 osem1 := by decide

/-- The far operand is an unscoped buffer that is neither a window's array nor a table. -/
theorem hx_sub1 : ({main_v3} : Finset (Ref sig .tc)) ⊆ Pipeline.restRefsP sig pre1 spec1 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg1 (F := F)).Adm)
  (O : (c : Dev nD) → Fin (cfg1 a1).N → Vec F S8x64 .f32)

/-! ## The windows' blocks -/

/-- Window w's block at point t, read off its array under V. -/
def iblk1 (c : Dev nD) (w : Fin (cfg1 a1).W) (t : Fin (cfg1 a1).N) :
    (((cfg1 a1).win w).xblock ((cfg1 a1).grid.coords t)).Idx → Elt F ((cfg1 a1).win w).elt :=
  (((cfg1 a1).win w).blk t).view.read (Elt F) (V c (Pipeline.arrRef spec1 w))

/-- The input window's current staging buffer holds its block at every point, fetched there or not, for any proof
    data whose array is V's and whose body leaves the block in place: unfetched, the block index has not moved. -/
theorem beforeIn1_of {c : Dev nD} (dat : Dat τ (Elt F) Unit ℕ (UD sig nD τ) ℕ (cfg1 a1) c)
    (hA : dat.A 0 = V c (Pipeline.arrRef spec1 0))
    (hafter : ∀ t, dat.after 0 t = iblk1 V a1 c 0 t) (t : Fin (cfg1 a1).N) (d) : dat.before 0 t d = iblk1 V a1 c 0 t :=
  (dat.before_in_eq_fetched 0 rfl (fun _ => rfl) (fun _ _ _ => rfl)
    (fun t => by rw [hafter]; unfold Dat.blockOf iblk1; rw [hA]; try rfl) t d).trans
    (by unfold Dat.fetched Dat.blockOf iblk1; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat1 (c : Dev nD) : Dat τ (Elt F) Unit ℕ (UD sig nD τ) ℕ (cfg1 a1) c where
  A w := V c (Pipeline.arrRef spec1 w)
  after w t := match w with
    | ⟨0, _⟩ => iblk1 V a1 c 0 t
    | ⟨1, _⟩ => O c t
  Φ _ := iprop(Pipeline.ΦD osem1 spec1 {main_v3} V c ∗ Pipeline.prefHeld pre1 c (fun _ => fullShare) a1.1)
  q _ := fullShare
  owed _ := 0

theorem A_eq1 (c : Dev nD) (w : Fin (cfg1 a1).W) : (dat1 V a1 O c).A w = V c (Pipeline.arrRef spec1 w) := by
  dsimp only [dat1]

theorem afterIn1 (c : Dev nD) (t : Fin (cfg1 a1).N) : (dat1 V a1 O c).after 0 t = iblk1 V a1 c 0 t := by
  dsimp only [dat1]; rfl

theorem afterOut1 (c : Dev nD) (t : Fin (cfg1 a1).N) :
    (dat1 V a1 O c).after 1 t = O c t := by
  dsimp only [dat1]; rfl

theorem beforeIn1 (c : Dev nD) (t : Fin (cfg1 a1).N) (d) : (dat1 V a1 O c).before 0 t d = iblk1 V a1 c 0 t :=
  beforeIn1_of V a1 (dat1 V a1 O c) (A_eq1 V a1 O c 0) (afterIn1 V a1 O c) t d

theorem Phi_eq1 (c : Dev nD) (t : Fin ((cfg1 a1).N + 1)) :
    (dat1 V a1 O c).Φ t
      = iprop(Pipeline.ΦD osem1 spec1 {main_v3} V c ∗ Pipeline.prefHeld pre1 c (fun _ => fullShare) a1.1) := by
  dsimp only [dat1]

theorem owed_eq1 (c : Dev nD) (t : Fin ((cfg1 a1).N + 1)) : (dat1 V a1 O c).owed t = 0 := by
  dsimp only [dat1]

/-! ## The invariant, conjunct by conjunct -/

/-- The invariant's first part opened: the body's scratch buffer whole at some contents and the other scoped
    buffers no window stages, the generator register, the own cells at zero, the far operand at its contents. -/
theorem PhiD_eq1 (c : Dev nD) :
    (Pipeline.ΦD osem1 spec1 {main_v3} V c : sProp 𝕄)
      = iprop(iprop(iprop((∃ f : Buf (Elt F) ((c : Thread nD τ).loc cc1_scratch0), ((c : Thread nD τ).loc cc1_scratch0) ↦{fullShare} f))
            ∗ Pipeline.scopedRestBut (Ix := Unit) (Name := ℕ) (U := UD sig nD τ) (Lvl := ℕ) (Val := Elt F) spec1 c [cc1_scratch0])
          ∗ (∃ r, prngReg c r)
          ∗ Pipeline.ownSems0 (Ix := Unit) (Name := ℕ) (U := UD sig nD τ) (Lvl := ℕ) (Val := Elt F) (τ := τ) osem1 c
          ∗ (((c : Thread nD τ).loc main_v3) ↦{fullShare} V c main_v3)) := by
  rw [Pipeline.ΦD_eq, scopedRest1_split, BI.bigSep_eq_bigSepL_of_eq [main_v3] (by decide) (by decide)]; rfl

/-- The one table, held whole. -/
theorem prefHeld_eq1 (c : Dev nD) :
    (Pipeline.prefHeld pre1 c (fun _ => fullShare) a1.1 : sProp 𝕄)
      = (((c : Thread nD τ).loc main_v5) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg1 (w : Fin (cfg1 a1).W) (t : Fin (cfg1 a1).N) := ((cfg1 a1).win w).stage ((cfg1 a1).slots t w)

/-- The body as the pipeline calls it at point t. -/
abbrev bodyProg1 (t : Fin (cfg1 a1).N) : Prog (TpuEff nD τ sig (Elt F) Λ₀ .tc) PUnit :=
  (defs₀ (F := F)) .tc (cfg1 a1).body ((cfg1 a1).bodyArgs t ((cfg1 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun1 : Prop :=
  ∀ (c : Dev nD) (t : Fin (cfg1 a1).N) (W) (K : PUnit → sProp 𝕄),
    iprop(owns (c : Thread nD τ) (stg1 a1 0 t) fullShare (iblk1 V a1 c 0 t)
        ∗ (∃ d, owns (c : Thread nD τ) (stg1 a1 1 t) fullShare d)
        ∗ (∃ f : Buf (Elt F) ((c : Thread nD τ).loc cc1_scratch0), ((c : Thread nD τ).loc cc1_scratch0) ↦{fullShare} f)
        ∗ Pipeline.ownSems0 (Ix := Unit) (Name := ℕ) (U := UD sig nD τ) (Lvl := ℕ) (Val := Elt F) (τ := τ) osem1 c
        ∗ (((c : Thread nD τ).loc main_v5) ↦{fullShare} a1.1 0)
        ∗ (((c : Thread nD τ).loc main_v3) ↦{fullShare} V c main_v3)
        ∗ owes (c : Thread nD τ) (0 : CellTallies nD τ sig Unit) W
        ∗ (iprop(owns (c : Thread nD τ) (stg1 a1 0 t) fullShare (iblk1 V a1 c 0 t)
            ∗ owns (c : Thread nD τ) (stg1 a1 1 t) fullShare (O c t)
            ∗ (∃ f : Buf (Elt F) ((c : Thread nD τ).loc cc1_scratch0), ((c : Thread nD τ).loc cc1_scratch0) ↦{fullShare} f)
            ∗ Pipeline.ownSems0 (Ix := Unit) (Name := ℕ) (U := UD sig nD τ) (Lvl := ℕ) (Val := Elt F) (τ := τ) osem1 c
            ∗ (((c : Thread nD τ).loc main_v5) ↦{fullShare} a1.1 0)
            ∗ (((c : Thread nD τ).loc main_v3) ↦{fullShare} V c main_v3)
            ∗ (∃ W', owes (c : Thread nD τ) (0 : CellTallies nD τ sig Unit) W')) -∗ K ⟨⟩))
      ⊢ wp frame (wpE (defs₀ (F := F)) Variants.none c none) Set.univ (bodyProg1 a1 t) K

/-- What the body is called with at point t, the windows one by one, -/
def bodyPre1 (c : Dev nD) (t : Fin (cfg1 a1).N) : sProp 𝕄 :=
  iprop((dat1 V a1 O c).Φ t.castSucc ∗ (dat1 V a1 O c).owesAt () t.castSucc
    ∗ (∃ d, owns (c : Thread nD τ) (stg1 a1 0 t) fullShare ((dat1 V a1 O c).before 0 t d))
    ∗ (∃ d, owns (c : Thread nD τ) (stg1 a1 1 t) fullShare ((dat1 V a1 O c).before 1 t d)))

/-- and what it returns. -/
def bodyPost1 (c : Dev nD) (t : Fin (cfg1 a1).N) : sProp 𝕄 :=
  iprop((dat1 V a1 O c).Φ t.succ ∗ (dat1 V a1 O c).owesAt () t.succ
    ∗ owns (c : Thread nD τ) (stg1 a1 0 t) fullShare ((dat1 V a1 O c).after 0 t)
    ∗ owns (c : Thread nD τ) (stg1 a1 1 t) fullShare ((dat1 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body1 (hrun : BodyRun1 V a1 O) (c : Dev nD) (t : Fin (cfg1 a1).N) :
    bodyPre1 V a1 O c t
      ⊢ wp frame (wpE (defs₀ (F := F)) Variants.none c none) Set.univ (bodyProg1 a1 t) (fun _ => bodyPost1 V a1 O c t) := by
  unfold bodyPre1 bodyPost1
  simp only [beforeIn1]
  rw [afterIn1, afterOut1, Phi_eq1, Phi_eq1, PhiD_eq1, prefHeld_eq1]
  unfold Dat.owesAt Pipeline.owesWithin
  rw [owed_eq1, owed_eq1]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation1 (hrun : BodyRun1 V a1 O) (c : Dev nD) :
    BodyObligation (dat1 (F := F) V a1 O c) (defs₀ (F := F)) Variants.none () Set.univ := fun t => by
  rw [bigSep_W1, bigSep_W1]
  exact sound_body1 V a1 O hrun c t

end Data

/-! ## The region's record -/

section Record

variable (Win : Dev nD → Valuation τ sig (Elt F))

variable (a1 : (pcfg1 (F := F)).Adm)
  (O : (c : Dev nD) → Fin (cfg1 a1).N → Vec F S8x64 .f32)

/-- The buffers at the region's exit: its arrays at what the write-backs leave, every other buffer as entered. -/
def Wout1 (c : Dev nD) : Valuation τ sig (Elt F) :=
  Pipeline.withArrays spec1 c (Win c) fun w => (dat1 (Vof Win) a1 O c).arrAt w (cfg1 a1).N

theorem Wout1_arr (c : Dev nD) (w : Fin (cfg1 a1).W) :
    Wout1 Win a1 O c (Proc.devRef .tc (Pipeline.arrRef spec1 w)) = (dat1 (Vof Win) a1 O c).arrAt w (cfg1 a1).N := by
  unfold Wout1; exact Pipeline.withArrays_arr spec1 winFacts1.arr_inj c _ _ w

theorem Wout1_of_ne (c : Dev nD) (b : Ref sig .tc) (hb : ∀ w, Pipeline.arrRef spec1 w ≠ b) :
    Wout1 Win a1 O c (Proc.devRef .tc b) = Win c (Proc.devRef .tc b) := by
  unfold Wout1; exact Pipeline.withArrays_of_ne spec1 c _ _ b hb

/-- ENTRY, the buffers' part. Every unscoped buffer at Win is: the region's arrays at the proof data's entry contents,
    the table whole at the admissible contents (which are Win's there), the far operand whole, and the others. -/
theorem entry1 (c : Dev nD) (ha1 : ∀ k, Vof Win c (pre1.ref k) = a1.1 k) :
    (StableHlo.held (c : Thread nD τ) (Pipeline.ucRefs τ sig) (Win c) : sProp 𝕄)
      ⊢ iprop((dat1 (Vof Win) a1 O c).arrays ((dat1 (Vof Win) a1 O c).arrAt · 0)
          ∗ Pipeline.prefHeld pre1 c (fun _ => fullShare) a1.1
          ∗ (bigSep ({main_v3} : Finset (Ref sig .tc)) fun b => (((c : Thread nD τ)).loc b) ↦{fullShare} Vof Win c b)
          ∗ bigSep (Pipeline.restRefsP sig pre1 spec1 \ {main_v3}) fun b => (((c : Thread nD τ)).loc b) ↦{fullShare} Vof Win c b) := by
  have hsplit := Pipeline.arrays_of_unscopedBufs (p := ()) (fun (_ : Unit) => pcfg1 (F := F)) (fun _ => a1)
    (fun _ c => dat1 (Vof Win) a1 O c) winFacts1 (launch1 (F := F)).arr_whole c
    ((dat1 (Vof Win) a1 O c).share_full fun _ => rfl) (Vof Win c) (fun w => A_eq1 (Vof Win) a1 O c w)
  rw [Pipeline.unscopedBufs_held,
    Pipeline.unscopedRest_split (Ix := Unit) (Name := ℕ) (U := UD sig nD τ) (Lvl := ℕ) preFacts1 c (Vof Win c),
    Pipeline.unscopedRestP_sdiff pre1 spec1 {main_v3} hx_sub1 c (Vof Win c),
    show (fun k => Vof Win c (pre1.ref k)) = a1.1 from funext ha1] at hsplit
  exact hsplit

/-- EXIT, the buffers' part: the same four put back, the arrays at what the write-backs leave, are every unscoped
    buffer at the exit valuation. -/
theorem exit1 (c : Dev nD) (ha1 : ∀ k, Vof Win c (pre1.ref k) = a1.1 k) :
    iprop((dat1 (Vof Win) a1 O c).arrays ((dat1 (Vof Win) a1 O c).arrAt · (cfg1 a1).N)
        ∗ Pipeline.prefHeld pre1 c (fun _ => fullShare) a1.1
        ∗ (bigSep ({main_v3} : Finset (Ref sig .tc)) fun b => (((c : Thread nD τ)).loc b) ↦{fullShare} Vof Win c b)
        ∗ bigSep (Pipeline.restRefsP sig pre1 spec1 \ {main_v3}) fun b => (((c : Thread nD τ)).loc b) ↦{fullShare} Vof Win c b)
      ⊢ (StableHlo.held (c : Thread nD τ) (Pipeline.ucRefs τ sig) (Wout1 Win a1 O c) : sProp 𝕄) := by
  have hjoin := Pipeline.unscopedBufs_of_arrays (p := ()) (fun (_ : Unit) => pcfg1 (F := F)) (fun _ => a1)
    (Ix := Unit) (Name := ℕ) (U := UD sig nD τ) (Lvl := ℕ)
    winFacts1 (launch1 (F := F)).arr_whole c (fun _ c => dat1 (Vof Win) a1 O c)
    ((dat1 (Vof Win) a1 O c).share_full fun _ => rfl)
    (Vof Win c) (Vof (Wout1 Win a1 O) c) ((dat1 (Vof Win) a1 O c).arrAt · (cfg1 a1).N)
    (fun w => (Wout1_arr Win a1 O c w).symm)
    (fun b hb => Wout1_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts1 c (Vof Win c),
    Pipeline.unscopedRestP_sdiff pre1 spec1 {main_v3} hx_sub1 c (Vof Win c),
    show (fun k => Vof Win c (pre1.ref k)) = a1.1 from funext ha1] at hjoin
  exact hjoin

end Record

section Seg

variable (Win : Dev nD → Valuation τ sig (Elt F))
  (adm : (p : Fin 49) → (pcfgs (F := F) p).Adm)
  (O : (c : Dev nD) → Fin (cfg1 (adm (1 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout1. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg1 (hd : ∀ c, pdats (1 : Fin 49) c = dat1 (Vof Win) (adm (1 : Fin 49)) O c)
    (ha1 : ∀ c k, Vof Win c (pre1.ref k) = (adm (1 : Fin 49)).1 k)
    (hbody : ∀ c, BodyObligation (dat1 (F := F) (Vof Win) (adm (1 : Fin 49)) O c) (defs₀ (F := F)) 𝒱₀ () Set.univ) :
    Pipeline.RegionSeg (pcfgs (F := F)) adm pdats () defs₀ 𝒱₀ L lv (1 : Fin 49) where
  win := (launch1 (F := F)).win.to₀
  block_pos := (launch1 (F := F)).block_pos
  stage_whole := (launch1 (F := F)).stage_whole
  K := Fin 8
  osem := osem1
  ho := ownSemFacts1
  hbody c := by rw [hd c]; exact (hbody c).loose
  hwaits := Pipeline.hwaits_of_owed_zero _ _ _ _ L lv (1 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout1 Win (adm (1 : Fin 49)) O c) ∗ R c)
  X c := iprop((∃ r, prngReg c r)
    ∗ Pipeline.ownSems0 (Ix := Unit) (Name := ℕ) (U := UD sig nD τ) (Lvl := ℕ) (Val := Elt F) (τ := τ) osem1 c
    ∗ (bigSep ({main_v3} : Finset (Ref sig .tc)) fun b => (((c : Thread nD τ)).loc b) ↦{fullShare} Vof Win c b))
  Y c := iprop((∃ r, prngReg c r)
    ∗ (bigSep ({main_v3} : Finset (Ref sig .tc)) fun b => (((c : Thread nD τ)).loc b) ↦{fullShare} Vof Win c b)
    ∗ Pipeline.prefHeld pre1 c (fun _ => fullShare) (adm (1 : Fin 49)).1)
  Z c := bigSep (Pipeline.restRefsP sig pre1 spec1 \ {main_v3}) fun b => (((c : Thread nD τ)).loc b) ↦{fullShare} Vof Win c b
  hentry c := by
    rw [hd c]
    iintro ⟨⟨Hub, Hp, HO⟩, Hos, -⟩
    ihave H := (entry1 Win (adm (1 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq1, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq1, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit1 Win (adm (1 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg1 (F := F)).Adm)

/-- The output block at point t: the gathered rows (of the far operand's contents under V, chosen by the table's
    words at that point) times the input block. -/
def outBlk1 (c : Dev nD) (t : Fin (cfg1 a1).N) : Vec F S8x64 .f32 :=
  gatherOut (gatherG (a1.1 0) (V c main_v3) (grid1.coords t)) (iblk1 V a1 c 0 t)

theorem outBlk_eq1 (c : Dev nD) (t : Fin (cfg1 a1).N) :
    outBlk1 V a1 c t = gatherOut (gatherG (a1.1 0) (V c main_v3) (grid1.coords t)) (iblk1 V a1 c 0 t) := rfl

/-- The proof data with the output block named: after the body at point t the output window's buffer holds it. -/
theorem afterOutBlk1 (c : Dev nD) (t : Fin (cfg1 a1).N) :
    (dat1 V a1 (outBlk1 V a1) c).after 1 t
      = gatherOut (gatherG (a1.1 0) (V c main_v3) (grid1.coords t)) (iblk1 V a1 c 0 t) :=
  afterOut1 V a1 (outBlk1 V a1) c t

/-- The own cells at zero are the semaphore array's eight entries at zero, in order. -/
theorem ownSems_eq1 (c : Dev nD) :
    (Pipeline.ownSems0 (Ix := Unit) (Name := ℕ) (U := UD sig nD τ) (Lvl := ℕ) (Val := Elt F) (τ := τ) osem1 c : sProp 𝕄)
      = gsems0 c cc1_scratch1 := by
  rw [Pipeline.ownSems0_eq_of_list c osem1 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq1 (t : Fin (cfg1 a1).N) : ∃ h3 h4, bodyProg1 (F := F) a1 t
    = cc1__gather_mul_kernel (grid1.coords t) (Memref.whole main_v5) (Memref.isWhole_whole _) (Memref.whole main_v3) (Memref.isWhole_whole _)
        (stg1 a1 0 t) h3 (stg1 a1 1 t) h4 (Memref.whole cc1_scratch0) (Memref.isWhole_whole _) cc1_scratch1 := ⟨_, _, rfl⟩

end Out

/-! ## The body's run, joined to the proof data -/

section Body

variable (V : (c : Dev nD) → (b : Ref sig .tc) → Buf (Elt F) ((c : Thread nD τ).loc b))
  (a1 : (pcfg1 (F := F)).Adm)

/-- The scratch buffer whole at some contents, as a memref owned at some contents. -/
theorem scratchOwns_eq1 (c : Dev nD) :
    (iprop(∃ d, owns (c : Thread nD τ) (Memref.whole cc1_scratch0) fullShare d) : sProp 𝕄)
      = iprop(∃ f : Buf (Elt F) ((c : Thread nD τ).loc cc1_scratch0), ((c : Thread nD τ).loc cc1_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun1 (hlt : ∀ y, BitVec.toNat ((a1.1 0) y) < 100000) : BodyRun1 V a1 (outBlk1 V a1) := by
  intro c t W K
  obtain ⟨h3, h4, hprog⟩ := bodyProg_eq1 (F := F) a1 t
  rw [hprog, ownSems_eq1, ← scratchOwns_eq1 (F := F) c]
  have hrun := gather_kernel_run (F := F) c (grid1.coords t) (Memref.whole main_v5) (Memref.isWhole_whole _) (Memref.whole main_v3) (Memref.isWhole_whole _)
    (stg1 a1 0 t) h3 (stg1 a1 1 t) h4 (Memref.whole cc1_scratch0) (Memref.isWhole_whole _) cc1_scratch1 fullShare fullShare
    (a1.1 0) (V c main_v3) (iblk1 V a1 c 0 t) (fun y => hlt y) W K
  simp only [Memref.view_whole, View.read_whole] at hrun
  unfold outBlk1
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut1 (hlt : ∀ y, BitVec.toNat ((a1.1 0) y) < 100000) (c : Dev nD) :
    BodyObligation (dat1 (F := F) V a1 (outBlk1 V a1) c) (defs₀ (F := F)) Variants.none () Set.univ :=
  body_obligation1 V a1 (outBlk1 V a1) (bodyRun1 V a1 hlt) c

end Body

end Cert.Kernel.Hand

end
-- ==== Proof.K.Regions_2_9.lean ====
/-
  Gather regions 2 to 9 of the host program, one after the other: for each, the proof data, the body obligation and the record of the region in the launch,
  exactly as for region 1 (whose module says what each part is).
-/
import proofs.«421643_j28415503630349_2_alg».proof.Proof.K.Common
import proofs.«421643_j28415503630349_2_alg».proof.Proof.K.BodyEq
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

/-! # Region 2 -/

/-! ## The body's own transfer cells -/

/-- The eight cells of the body's semaphore array, in order. -/
abbrev osem2 : Fin 8 → SemLoc sig := fun j => SemLoc.dma (cc2_scratch1.ix (fun | ⟨0, _⟩ => j))

/-- They are scoped, pairwise distinct, and none is a staging cell of a window. -/
theorem ownSemFacts2 : Pipeline.OwnSemFacts spec2 osem2 := by decide

/-- The far operand is an unscoped buffer that is neither a window's array nor a table. -/
theorem hx_sub2 : ({main_v3} : Finset (Ref sig .tc)) ⊆ Pipeline.restRefsP sig pre2 spec2 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg2 (F := F)).Adm)
  (O : (c : Dev nD) → Fin (cfg2 a1).N → Vec F S8x64 .f32)

/-! ## The windows' blocks -/

/-- Window w's block at point t, read off its array under V. -/
def iblk2 (c : Dev nD) (w : Fin (cfg2 a1).W) (t : Fin (cfg2 a1).N) :
    (((cfg2 a1).win w).xblock ((cfg2 a1).grid.coords t)).Idx → Elt F ((cfg2 a1).win w).elt :=
  (((cfg2 a1).win w).blk t).view.read (Elt F) (V c (Pipeline.arrRef spec2 w))

/-- The input window's current staging buffer holds its block at every point, fetched there or not, for any proof
    data whose array is V's and whose body leaves the block in place: unfetched, the block index has not moved. -/
theorem beforeIn2_of {c : Dev nD} (dat : Dat τ (Elt F) Unit ℕ (UD sig nD τ) ℕ (cfg2 a1) c)
    (hA : dat.A 0 = V c (Pipeline.arrRef spec2 0))
    (hafter : ∀ t, dat.after 0 t = iblk2 V a1 c 0 t) (t : Fin (cfg2 a1).N) (d) : dat.before 0 t d = iblk2 V a1 c 0 t :=
  (dat.before_in_eq_fetched 0 rfl (fun _ => rfl) (fun _ _ _ => rfl)
    (fun t => by rw [hafter]; unfold Dat.blockOf iblk2; rw [hA]; try rfl) t d).trans
    (by unfold Dat.fetched Dat.blockOf iblk2; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat2 (c : Dev nD) : Dat τ (Elt F) Unit ℕ (UD sig nD τ) ℕ (cfg2 a1) c where
  A w := V c (Pipeline.arrRef spec2 w)
  after w t := match w with
    | ⟨0, _⟩ => iblk2 V a1 c 0 t
    | ⟨1, _⟩ => O c t
  Φ _ := iprop(Pipeline.ΦD osem2 spec2 {main_v3} V c ∗ Pipeline.prefHeld pre2 c (fun _ => fullShare) a1.1)
  q _ := fullShare
  owed _ := 0

theorem A_eq2 (c : Dev nD) (w : Fin (cfg2 a1).W) : (dat2 V a1 O c).A w = V c (Pipeline.arrRef spec2 w) := by
  dsimp only [dat2]

theorem afterIn2 (c : Dev nD) (t : Fin (cfg2 a1).N) : (dat2 V a1 O c).after 0 t = iblk2 V a1 c 0 t := by
  dsimp only [dat2]; rfl

theorem afterOut2 (c : Dev nD) (t : Fin (cfg2 a1).N) :
    (dat2 V a1 O c).after 1 t = O c t := by
  dsimp only [dat2]; rfl

theorem beforeIn2 (c : Dev nD) (t : Fin (cfg2 a1).N) (d) : (dat2 V a1 O c).before 0 t d = iblk2 V a1 c 0 t :=
  beforeIn2_of V a1 (dat2 V a1 O c) (A_eq2 V a1 O c 0) (afterIn2 V a1 O c) t d

theorem Phi_eq2 (c : Dev nD) (t : Fin ((cfg2 a1).N + 1)) :
    (dat2 V a1 O c).Φ t
      = iprop(Pipeline.ΦD osem2 spec2 {main_v3} V c ∗ Pipeline.prefHeld pre2 c (fun _ => fullShare) a1.1) := by
  dsimp only [dat2]

theorem owed_eq2 (c : Dev nD) (t : Fin ((cfg2 a1).N + 1)) : (dat2 V a1 O c).owed t = 0 := by
  dsimp only [dat2]

/-! ## The invariant, conjunct by conjunct -/

/-- The invariant's first part opened: the body's scratch buffer whole at some contents and the other scoped
    buffers no window stages, the generator register, the own cells at zero, the far operand at its contents. -/
theorem PhiD_eq2 (c : Dev nD) :
    (Pipeline.ΦD osem2 spec2 {main_v3} V c : sProp 𝕄)
      = iprop(iprop(iprop((∃ f : Buf (Elt F) ((c : Thread nD τ).loc cc2_scratch0), ((c : Thread nD τ).loc cc2_scratch0) ↦{fullShare} f))
            ∗ Pipeline.scopedRestBut (Ix := Unit) (Name := ℕ) (U := UD sig nD τ) (Lvl := ℕ) (Val := Elt F) spec2 c [cc2_scratch0])
          ∗ (∃ r, prngReg c r)
          ∗ Pipeline.ownSems0 (Ix := Unit) (Name := ℕ) (U := UD sig nD τ) (Lvl := ℕ) (Val := Elt F) (τ := τ) osem2 c
          ∗ (((c : Thread nD τ).loc main_v3) ↦{fullShare} V c main_v3)) := by
  rw [Pipeline.ΦD_eq, scopedRest2_split, BI.bigSep_eq_bigSepL_of_eq [main_v3] (by decide) (by decide)]; rfl

/-- The one table, held whole. -/
theorem prefHeld_eq2 (c : Dev nD) :
    (Pipeline.prefHeld pre2 c (fun _ => fullShare) a1.1 : sProp 𝕄)
      = (((c : Thread nD τ).loc main_v9) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg2 (w : Fin (cfg2 a1).W) (t : Fin (cfg2 a1).N) := ((cfg2 a1).win w).stage ((cfg2 a1).slots t w)

/-- The body as the pipeline calls it at point t. -/
abbrev bodyProg2 (t : Fin (cfg2 a1).N) : Prog (TpuEff nD τ sig (Elt F) Λ₀ .tc) PUnit :=
  (defs₀ (F := F)) .tc (cfg2 a1).body ((cfg2 a1).bodyArgs t ((cfg2 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun2 : Prop :=
  ∀ (c : Dev nD) (t : Fin (cfg2 a1).N) (W) (K : PUnit → sProp 𝕄),
    iprop(owns (c : Thread nD τ) (stg2 a1 0 t) fullShare (iblk2 V a1 c 0 t)
        ∗ (∃ d, owns (c : Thread nD τ) (stg2 a1 1 t) fullShare d)
        ∗ (∃ f : Buf (Elt F) ((c : Thread nD τ).loc cc2_scratch0), ((c : Thread nD τ).loc cc2_scratch0) ↦{fullShare} f)
        ∗ Pipeline.ownSems0 (Ix := Unit) (Name := ℕ) (U := UD sig nD τ) (Lvl := ℕ) (Val := Elt F) (τ := τ) osem2 c
        ∗ (((c : Thread nD τ).loc main_v9) ↦{fullShare} a1.1 0)
        ∗ (((c : Thread nD τ).loc main_v3) ↦{fullShare} V c main_v3)
        ∗ owes (c : Thread nD τ) (0 : CellTallies nD τ sig Unit) W
        ∗ (iprop(owns (c : Thread nD τ) (stg2 a1 0 t) fullShare (iblk2 V a1 c 0 t)
            ∗ owns (c : Thread nD τ) (stg2 a1 1 t) fullShare (O c t)
            ∗ (∃ f : Buf (Elt F) ((c : Thread nD τ).loc cc2_scratch0), ((c : Thread nD τ).loc cc2_scratch0) ↦{fullShare} f)
            ∗ Pipeline.ownSems0 (Ix := Unit) (Name := ℕ) (U := UD sig nD τ) (Lvl := ℕ) (Val := Elt F) (τ := τ) osem2 c
            ∗ (((c : Thread nD τ).loc main_v9) ↦{fullShare} a1.1 0)
            ∗ (((c : Thread nD τ).loc main_v3) ↦{fullShare} V c main_v3)
            ∗ (∃ W', owes (c : Thread nD τ) (0 : CellTallies nD τ sig Unit) W')) -∗ K ⟨⟩))
      ⊢ wp frame (wpE (defs₀ (F := F)) Variants.none c none) Set.univ (bodyProg2 a1 t) K

/-- What the body is called with at point t, the windows one by one, -/
def bodyPre2 (c : Dev nD) (t : Fin (cfg2 a1).N) : sProp 𝕄 :=
  iprop((dat2 V a1 O c).Φ t.castSucc ∗ (dat2 V a1 O c).owesAt () t.castSucc
    ∗ (∃ d, owns (c : Thread nD τ) (stg2 a1 0 t) fullShare ((dat2 V a1 O c).before 0 t d))
    ∗ (∃ d, owns (c : Thread nD τ) (stg2 a1 1 t) fullShare ((dat2 V a1 O c).before 1 t d)))

/-- and what it returns. -/
def bodyPost2 (c : Dev nD) (t : Fin (cfg2 a1).N) : sProp 𝕄 :=
  iprop((dat2 V a1 O c).Φ t.succ ∗ (dat2 V a1 O c).owesAt () t.succ
    ∗ owns (c : Thread nD τ) (stg2 a1 0 t) fullShare ((dat2 V a1 O c).after 0 t)
    ∗ owns (c : Thread nD τ) (stg2 a1 1 t) fullShare ((dat2 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body2 (hrun : BodyRun2 V a1 O) (c : Dev nD) (t : Fin (cfg2 a1).N) :
    bodyPre2 V a1 O c t
      ⊢ wp frame (wpE (defs₀ (F := F)) Variants.none c none) Set.univ (bodyProg2 a1 t) (fun _ => bodyPost2 V a1 O c t) := by
  unfold bodyPre2 bodyPost2
  simp only [beforeIn2]
  rw [afterIn2, afterOut2, Phi_eq2, Phi_eq2, PhiD_eq2, prefHeld_eq2]
  unfold Dat.owesAt Pipeline.owesWithin
  rw [owed_eq2, owed_eq2]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation2 (hrun : BodyRun2 V a1 O) (c : Dev nD) :
    BodyObligation (dat2 (F := F) V a1 O c) (defs₀ (F := F)) Variants.none () Set.univ := fun t => by
  rw [bigSep_W2, bigSep_W2]
  exact sound_body2 V a1 O hrun c t

end Data

/-! ## The region's record -/

section Record

variable (Win : Dev nD → Valuation τ sig (Elt F))

variable (a1 : (pcfg2 (F := F)).Adm)
  (O : (c : Dev nD) → Fin (cfg2 a1).N → Vec F S8x64 .f32)

/-- The buffers at the region's exit: its arrays at what the write-backs leave, every other buffer as entered. -/
def Wout2 (c : Dev nD) : Valuation τ sig (Elt F) :=
  Pipeline.withArrays spec2 c (Win c) fun w => (dat2 (Vof Win) a1 O c).arrAt w (cfg2 a1).N

theorem Wout2_arr (c : Dev nD) (w : Fin (cfg2 a1).W) :
    Wout2 Win a1 O c (Proc.devRef .tc (Pipeline.arrRef spec2 w)) = (dat2 (Vof Win) a1 O c).arrAt w (cfg2 a1).N := by
  unfold Wout2; exact Pipeline.withArrays_arr spec2 winFacts2.arr_inj c _ _ w

theorem Wout2_of_ne (c : Dev nD) (b : Ref sig .tc) (hb : ∀ w, Pipeline.arrRef spec2 w ≠ b) :
    Wout2 Win a1 O c (Proc.devRef .tc b) = Win c (Proc.devRef .tc b) := by
  unfold Wout2; exact Pipeline.withArrays_of_ne spec2 c _ _ b hb

/-- ENTRY, the buffers' part. Every unscoped buffer at Win is: the region's arrays at the proof data's entry contents,
    the table whole at the admissible contents (which are Win's there), the far operand whole, and the others. -/
theorem entry2 (c : Dev nD) (ha1 : ∀ k, Vof Win c (pre2.ref k) = a1.1 k) :
    (StableHlo.held (c : Thread nD τ) (Pipeline.ucRefs τ sig) (Win c) : sProp 𝕄)
      ⊢ iprop((dat2 (Vof Win) a1 O c).arrays ((dat2 (Vof Win) a1 O c).arrAt · 0)
          ∗ Pipeline.prefHeld pre2 c (fun _ => fullShare) a1.1
          ∗ (bigSep ({main_v3} : Finset (Ref sig .tc)) fun b => (((c : Thread nD τ)).loc b) ↦{fullShare} Vof Win c b)
          ∗ bigSep (Pipeline.restRefsP sig pre2 spec2 \ {main_v3}) fun b => (((c : Thread nD τ)).loc b) ↦{fullShare} Vof Win c b) := by
  have hsplit := Pipeline.arrays_of_unscopedBufs (p := ()) (fun (_ : Unit) => pcfg2 (F := F)) (fun _ => a1)
    (fun _ c => dat2 (Vof Win) a1 O c) winFacts2 (launch2 (F := F)).arr_whole c
    ((dat2 (Vof Win) a1 O c).share_full fun _ => rfl) (Vof Win c) (fun w => A_eq2 (Vof Win) a1 O c w)
  rw [Pipeline.unscopedBufs_held,
    Pipeline.unscopedRest_split (Ix := Unit) (Name := ℕ) (U := UD sig nD τ) (Lvl := ℕ) preFacts2 c (Vof Win c),
    Pipeline.unscopedRestP_sdiff pre2 spec2 {main_v3} hx_sub2 c (Vof Win c),
    show (fun k => Vof Win c (pre2.ref k)) = a1.1 from funext ha1] at hsplit
  exact hsplit

/-- EXIT, the buffers' part: the same four put back, the arrays at what the write-backs leave, are every unscoped
    buffer at the exit valuation. -/
theorem exit2 (c : Dev nD) (ha1 : ∀ k, Vof Win c (pre2.ref k) = a1.1 k) :
    iprop((dat2 (Vof Win) a1 O c).arrays ((dat2 (Vof Win) a1 O c).arrAt · (cfg2 a1).N)
        ∗ Pipeline.prefHeld pre2 c (fun _ => fullShare) a1.1
        ∗ (bigSep ({main_v3} : Finset (Ref sig .tc)) fun b => (((c : Thread nD τ)).loc b) ↦{fullShare} Vof Win c b)
        ∗ bigSep (Pipeline.restRefsP sig pre2 spec2 \ {main_v3}) fun b => (((c : Thread nD τ)).loc b) ↦{fullShare} Vof Win c b)
      ⊢ (StableHlo.held (c : Thread nD τ) (Pipeline.ucRefs τ sig) (Wout2 Win a1 O c) : sProp 𝕄) := by
  have hjoin := Pipeline.unscopedBufs_of_arrays (p := ()) (fun (_ : Unit) => pcfg2 (F := F)) (fun _ => a1)
    (Ix := Unit) (Name := ℕ) (U := UD sig nD τ) (Lvl := ℕ)
    winFacts2 (launch2 (F := F)).arr_whole c (fun _ c => dat2 (Vof Win) a1 O c)
    ((dat2 (Vof Win) a1 O c).share_full fun _ => rfl)
    (Vof Win c) (Vof (Wout2 Win a1 O) c) ((dat2 (Vof Win) a1 O c).arrAt · (cfg2 a1).N)
    (fun w => (Wout2_arr Win a1 O c w).symm)
    (fun b hb => Wout2_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts2 c (Vof Win c),
    Pipeline.unscopedRestP_sdiff pre2 spec2 {main_v3} hx_sub2 c (Vof Win c),
    show (fun k => Vof Win c (pre2.ref k)) = a1.1 from funext ha1] at hjoin
  exact hjoin

end Record

section Seg

variable (Win : Dev nD → Valuation τ sig (Elt F))
  (adm : (p : Fin 49) → (pcfgs (F := F) p).Adm)
  (O : (c : Dev nD) → Fin (cfg2 (adm (2 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout2. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg2 (hd : ∀ c, pdats (2 : Fin 49) c = dat2 (Vof Win) (adm (2 : Fin 49)) O c)
    (ha1 : ∀ c k, Vof Win c (pre2.ref k) = (adm (2 : Fin 49)).1 k)
    (hbody : ∀ c, BodyObligation (dat2 (F := F) (Vof Win) (adm (2 : Fin 49)) O c) (defs₀ (F := F)) 𝒱₀ () Set.univ) :
    Pipeline.RegionSeg (pcfgs (F := F)) adm pdats () defs₀ 𝒱₀ L lv (2 : Fin 49) where
  win := (launch2 (F := F)).win.to₀
  block_pos := (launch2 (F := F)).block_pos
  stage_whole := (launch2 (F := F)).stage_whole
  K := Fin 8
  osem := osem2
  ho := ownSemFacts2
  hbody c := by rw [hd c]; exact (hbody c).loose
  hwaits := Pipeline.hwaits_of_owed_zero _ _ _ _ L lv (2 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout2 Win (adm (2 : Fin 49)) O c) ∗ R c)
  X c := iprop((∃ r, prngReg c r)
    ∗ Pipeline.ownSems0 (Ix := Unit) (Name := ℕ) (U := UD sig nD τ) (Lvl := ℕ) (Val := Elt F) (τ := τ) osem2 c
    ∗ (bigSep ({main_v3} : Finset (Ref sig .tc)) fun b => (((c : Thread nD τ)).loc b) ↦{fullShare} Vof Win c b))
  Y c := iprop((∃ r, prngReg c r)
    ∗ (bigSep ({main_v3} : Finset (Ref sig .tc)) fun b => (((c : Thread nD τ)).loc b) ↦{fullShare} Vof Win c b)
    ∗ Pipeline.prefHeld pre2 c (fun _ => fullShare) (adm (2 : Fin 49)).1)
  Z c := bigSep (Pipeline.restRefsP sig pre2 spec2 \ {main_v3}) fun b => (((c : Thread nD τ)).loc b) ↦{fullShare} Vof Win c b
  hentry c := by
    rw [hd c]
    iintro ⟨⟨Hub, Hp, HO⟩, Hos, -⟩
    ihave H := (entry2 Win (adm (2 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq2, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq2, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit2 Win (adm (2 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg2 (F := F)).Adm)

/-- The output block at point t: the gathered rows (of the far operand's contents under V, chosen by the table's
    words at that point) times the input block. -/
def outBlk2 (c : Dev nD) (t : Fin (cfg2 a1).N) : Vec F S8x64 .f32 :=
  gatherOut (gatherG (a1.1 0) (V c main_v3) (grid2.coords t)) (iblk2 V a1 c 0 t)

theorem outBlk_eq2 (c : Dev nD) (t : Fin (cfg2 a1).N) :
    outBlk2 V a1 c t = gatherOut (gatherG (a1.1 0) (V c main_v3) (grid2.coords t)) (iblk2 V a1 c 0 t) := rfl

/-- The proof data with the output block named: after the body at point t the output window's buffer holds it. -/
theorem afterOutBlk2 (c : Dev nD) (t : Fin (cfg2 a1).N) :
    (dat2 V a1 (outBlk2 V a1) c).after 1 t
      = gatherOut (gatherG (a1.1 0) (V c main_v3) (grid2.coords t)) (iblk2 V a1 c 0 t) :=
  afterOut2 V a1 (outBlk2 V a1) c t

/-- The own cells at zero are the semaphore array's eight entries at zero, in order. -/
theorem ownSems_eq2 (c : Dev nD) :
    (Pipeline.ownSems0 (Ix := Unit) (Name := ℕ) (U := UD sig nD τ) (Lvl := ℕ) (Val := Elt F) (τ := τ) osem2 c : sProp 𝕄)
      = gsems0 c cc2_scratch1 := by
  rw [Pipeline.ownSems0_eq_of_list c osem2 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq2 (t : Fin (cfg2 a1).N) : ∃ h3 h4, bodyProg2 (F := F) a1 t
    = cc2__gather_mul_kernel (grid2.coords t) (Memref.whole main_v9) (Memref.isWhole_whole _) (Memref.whole main_v3) (Memref.isWhole_whole _)
        (stg2 a1 0 t) h3 (stg2 a1 1 t) h4 (Memref.whole cc2_scratch0) (Memref.isWhole_whole _) cc2_scratch1 := ⟨_, _, rfl⟩

end Out

/-! ## The body's run, joined to the proof data -/

section Body

variable (V : (c : Dev nD) → (b : Ref sig .tc) → Buf (Elt F) ((c : Thread nD τ).loc b))
  (a1 : (pcfg2 (F := F)).Adm)

/-- The scratch buffer whole at some contents, as a memref owned at some contents. -/
theorem scratchOwns_eq2 (c : Dev nD) :
    (iprop(∃ d, owns (c : Thread nD τ) (Memref.whole cc2_scratch0) fullShare d) : sProp 𝕄)
      = iprop(∃ f : Buf (Elt F) ((c : Thread nD τ).loc cc2_scratch0), ((c : Thread nD τ).loc cc2_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun2 (hlt : ∀ y, BitVec.toNat ((a1.1 0) y) < 100000) : BodyRun2 V a1 (outBlk2 V a1) := by
  intro c t W K
  obtain ⟨h3, h4, hprog⟩ := bodyProg_eq2 (F := F) a1 t
  rw [hprog, ownSems_eq2, ← scratchOwns_eq2 (F := F) c]
  have hrun := gather_kernel_run_2 (F := F) c (grid2.coords t) (Memref.whole main_v9) (Memref.isWhole_whole _) (Memref.whole main_v3) (Memref.isWhole_whole _)
    (stg2 a1 0 t) h3 (stg2 a1 1 t) h4 (Memref.whole cc2_scratch0) (Memref.isWhole_whole _) cc2_scratch1 fullShare fullShare
    (a1.1 0) (V c main_v3) (iblk2 V a1 c 0 t) (fun y => hlt y) W K
  simp only [Memref.view_whole, View.read_whole] at hrun
  unfold outBlk2
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut2 (hlt : ∀ y, BitVec.toNat ((a1.1 0) y) < 100000) (c : Dev nD) :
    BodyObligation (dat2 (F := F) V a1 (outBlk2 V a1) c) (defs₀ (F := F)) Variants.none () Set.univ :=
  body_obligation2 V a1 (outBlk2 V a1) (bodyRun2 V a1 hlt) c

end Body

/-! # Region 3 -/

/-! ## The body's own transfer cells -/

/-- The eight cells of the body's semaphore array, in order. -/
abbrev osem3 : Fin 8 → SemLoc sig := fun j => SemLoc.dma (cc3_scratch1.ix (fun | ⟨0, _⟩ => j))

/-- They are scoped, pairwise distinct, and none is a staging cell of a window. -/
theorem ownSemFacts3 : Pipeline.OwnSemFacts spec3 osem3 := by decide

/-- The far operand is an unscoped buffer that is neither a window's array nor a table. -/
theorem hx_sub3 : ({main_v3} : Finset (Ref sig .tc)) ⊆ Pipeline.restRefsP sig pre3 spec3 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg3 (F := F)).Adm)
  (O : (c : Dev nD) → Fin (cfg3 a1).N → Vec F S8x64 .f32)

/-! ## The windows' blocks -/

/-- Window w's block at point t, read off its array under V. -/
def iblk3 (c : Dev nD) (w : Fin (cfg3 a1).W) (t : Fin (cfg3 a1).N) :
    (((cfg3 a1).win w).xblock ((cfg3 a1).grid.coords t)).Idx → Elt F ((cfg3 a1).win w).elt :=
  (((cfg3 a1).win w).blk t).view.read (Elt F) (V c (Pipeline.arrRef spec3 w))

/-- The input window's current staging buffer holds its block at every point, fetched there or not, for any proof
    data whose array is V's and whose body leaves the block in place: unfetched, the block index has not moved. -/
theorem beforeIn3_of {c : Dev nD} (dat : Dat τ (Elt F) Unit ℕ (UD sig nD τ) ℕ (cfg3 a1) c)
    (hA : dat.A 0 = V c (Pipeline.arrRef spec3 0))
    (hafter : ∀ t, dat.after 0 t = iblk3 V a1 c 0 t) (t : Fin (cfg3 a1).N) (d) : dat.before 0 t d = iblk3 V a1 c 0 t :=
  (dat.before_in_eq_fetched 0 rfl (fun _ => rfl) (fun _ _ _ => rfl)
    (fun t => by rw [hafter]; unfold Dat.blockOf iblk3; rw [hA]; try rfl) t d).trans
    (by unfold Dat.fetched Dat.blockOf iblk3; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat3 (c : Dev nD) : Dat τ (Elt F) Unit ℕ (UD sig nD τ) ℕ (cfg3 a1) c where
  A w := V c (Pipeline.arrRef spec3 w)
  after w t := match w with
    | ⟨0, _⟩ => iblk3 V a1 c 0 t
    | ⟨1, _⟩ => O c t
  Φ _ := iprop(Pipeline.ΦD osem3 spec3 {main_v3} V c ∗ Pipeline.prefHeld pre3 c (fun _ => fullShare) a1.1)
  q _ := fullShare
  owed _ := 0

theorem A_eq3 (c : Dev nD) (w : Fin (cfg3 a1).W) : (dat3 V a1 O c).A w = V c (Pipeline.arrRef spec3 w) := by
  dsimp only [dat3]

theorem afterIn3 (c : Dev nD) (t : Fin (cfg3 a1).N) : (dat3 V a1 O c).after 0 t = iblk3 V a1 c 0 t := by
  dsimp only [dat3]; rfl

theorem afterOut3 (c : Dev nD) (t : Fin (cfg3 a1).N) :
    (dat3 V a1 O c).after 1 t = O c t := by
  dsimp only [dat3]; rfl

theorem beforeIn3 (c : Dev nD) (t : Fin (cfg3 a1).N) (d) : (dat3 V a1 O c).before 0 t d = iblk3 V a1 c 0 t :=
  beforeIn3_of V a1 (dat3 V a1 O c) (A_eq3 V a1 O c 0) (afterIn3 V a1 O c) t d

theorem Phi_eq3 (c : Dev nD) (t : Fin ((cfg3 a1).N + 1)) :
    (dat3 V a1 O c).Φ t
      = iprop(Pipeline.ΦD osem3 spec3 {main_v3} V c ∗ Pipeline.prefHeld pre3 c (fun _ => fullShare) a1.1) := by
  dsimp only [dat3]

theorem owed_eq3 (c : Dev nD) (t : Fin ((cfg3 a1).N + 1)) : (dat3 V a1 O c).owed t = 0 := by
  dsimp only [dat3]

/-! ## The invariant, conjunct by conjunct -/

/-- The invariant's first part opened: the body's scratch buffer whole at some contents and the other scoped
    buffers no window stages, the generator register, the own cells at zero, the far operand at its contents. -/
theorem PhiD_eq3 (c : Dev nD) :
    (Pipeline.ΦD osem3 spec3 {main_v3} V c : sProp 𝕄)
      = iprop(iprop(iprop((∃ f : Buf (Elt F) ((c : Thread nD τ).loc cc3_scratch0), ((c : Thread nD τ).loc cc3_scratch0) ↦{fullShare} f))
            ∗ Pipeline.scopedRestBut (Ix := Unit) (Name := ℕ) (U := UD sig nD τ) (Lvl := ℕ) (Val := Elt F) spec3 c [cc3_scratch0])
          ∗ (∃ r, prngReg c r)
          ∗ Pipeline.ownSems0 (Ix := Unit) (Name := ℕ) (U := UD sig nD τ) (Lvl := ℕ) (Val := Elt F) (τ := τ) osem3 c
          ∗ (((c : Thread nD τ).loc main_v3) ↦{fullShare} V c main_v3)) := by
  rw [Pipeline.ΦD_eq, scopedRest3_split, BI.bigSep_eq_bigSepL_of_eq [main_v3] (by decide) (by decide)]; rfl

/-- The one table, held whole. -/
theorem prefHeld_eq3 (c : Dev nD) :
    (Pipeline.prefHeld pre3 c (fun _ => fullShare) a1.1 : sProp 𝕄)
      = (((c : Thread nD τ).loc main_v13) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg3 (w : Fin (cfg3 a1).W) (t : Fin (cfg3 a1).N) := ((cfg3 a1).win w).stage ((cfg3 a1).slots t w)

/-- The body as the pipeline calls it at point t. -/
abbrev bodyProg3 (t : Fin (cfg3 a1).N) : Prog (TpuEff nD τ sig (Elt F) Λ₀ .tc) PUnit :=
  (defs₀ (F := F)) .tc (cfg3 a1).body ((cfg3 a1).bodyArgs t ((cfg3 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun3 : Prop :=
  ∀ (c : Dev nD) (t : Fin (cfg3 a1).N) (W) (K : PUnit → sProp 𝕄),
    iprop(owns (c : Thread nD τ) (stg3 a1 0 t) fullShare (iblk3 V a1 c 0 t)
        ∗ (∃ d, owns (c : Thread nD τ) (stg3 a1 1 t) fullShare d)
        ∗ (∃ f : Buf (Elt F) ((c : Thread nD τ).loc cc3_scratch0), ((c : Thread nD τ).loc cc3_scratch0) ↦{fullShare} f)
        ∗ Pipeline.ownSems0 (Ix := Unit) (Name := ℕ) (U := UD sig nD τ) (Lvl := ℕ) (Val := Elt F) (τ := τ) osem3 c
        ∗ (((c : Thread nD τ).loc main_v13) ↦{fullShare} a1.1 0)
        ∗ (((c : Thread nD τ).loc main_v3) ↦{fullShare} V c main_v3)
        ∗ owes (c : Thread nD τ) (0 : CellTallies nD τ sig Unit) W
        ∗ (iprop(owns (c : Thread nD τ) (stg3 a1 0 t) fullShare (iblk3 V a1 c 0 t)
            ∗ owns (c : Thread nD τ) (stg3 a1 1 t) fullShare (O c t)
            ∗ (∃ f : Buf (Elt F) ((c : Thread nD τ).loc cc3_scratch0), ((c : Thread nD τ).loc cc3_scratch0) ↦{fullShare} f)
            ∗ Pipeline.ownSems0 (Ix := Unit) (Name := ℕ) (U := UD sig nD τ) (Lvl := ℕ) (Val := Elt F) (τ := τ) osem3 c
            ∗ (((c : Thread nD τ).loc main_v13) ↦{fullShare} a1.1 0)
            ∗ (((c : Thread nD τ).loc main_v3) ↦{fullShare} V c main_v3)
            ∗ (∃ W', owes (c : Thread nD τ) (0 : CellTallies nD τ sig Unit) W')) -∗ K ⟨⟩))
      ⊢ wp frame (wpE (defs₀ (F := F)) Variants.none c none) Set.univ (bodyProg3 a1 t) K

/-- What the body is called with at point t, the windows one by one, -/
def bodyPre3 (c : Dev nD) (t : Fin (cfg3 a1).N) : sProp 𝕄 :=
  iprop((dat3 V a1 O c).Φ t.castSucc ∗ (dat3 V a1 O c).owesAt () t.castSucc
    ∗ (∃ d, owns (c : Thread nD τ) (stg3 a1 0 t) fullShare ((dat3 V a1 O c).before 0 t d))
    ∗ (∃ d, owns (c : Thread nD τ) (stg3 a1 1 t) fullShare ((dat3 V a1 O c).before 1 t d)))

/-- and what it returns. -/
def bodyPost3 (c : Dev nD) (t : Fin (cfg3 a1).N) : sProp 𝕄 :=
  iprop((dat3 V a1 O c).Φ t.succ ∗ (dat3 V a1 O c).owesAt () t.succ
    ∗ owns (c : Thread nD τ) (stg3 a1 0 t) fullShare ((dat3 V a1 O c).after 0 t)
    ∗ owns (c : Thread nD τ) (stg3 a1 1 t) fullShare ((dat3 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body3 (hrun : BodyRun3 V a1 O) (c : Dev nD) (t : Fin (cfg3 a1).N) :
    bodyPre3 V a1 O c t
      ⊢ wp frame (wpE (defs₀ (F := F)) Variants.none c none) Set.univ (bodyProg3 a1 t) (fun _ => bodyPost3 V a1 O c t) := by
  unfold bodyPre3 bodyPost3
  simp only [beforeIn3]
  rw [afterIn3, afterOut3, Phi_eq3, Phi_eq3, PhiD_eq3, prefHeld_eq3]
  unfold Dat.owesAt Pipeline.owesWithin
  rw [owed_eq3, owed_eq3]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation3 (hrun : BodyRun3 V a1 O) (c : Dev nD) :
    BodyObligation (dat3 (F := F) V a1 O c) (defs₀ (F := F)) Variants.none () Set.univ := fun t => by
  rw [bigSep_W3, bigSep_W3]
  exact sound_body3 V a1 O hrun c t

end Data

/-! ## The region's record -/

section Record

variable (Win : Dev nD → Valuation τ sig (Elt F))

variable (a1 : (pcfg3 (F := F)).Adm)
  (O : (c : Dev nD) → Fin (cfg3 a1).N → Vec F S8x64 .f32)

/-- The buffers at the region's exit: its arrays at what the write-backs leave, every other buffer as entered. -/
def Wout3 (c : Dev nD) : Valuation τ sig (Elt F) :=
  Pipeline.withArrays spec3 c (Win c) fun w => (dat3 (Vof Win) a1 O c).arrAt w (cfg3 a1).N

theorem Wout3_arr (c : Dev nD) (w : Fin (cfg3 a1).W) :
    Wout3 Win a1 O c (Proc.devRef .tc (Pipeline.arrRef spec3 w)) = (dat3 (Vof Win) a1 O c).arrAt w (cfg3 a1).N := by
  unfold Wout3; exact Pipeline.withArrays_arr spec3 winFacts3.arr_inj c _ _ w

theorem Wout3_of_ne (c : Dev nD) (b : Ref sig .tc) (hb : ∀ w, Pipeline.arrRef spec3 w ≠ b) :
    Wout3 Win a1 O c (Proc.devRef .tc b) = Win c (Proc.devRef .tc b) := by
  unfold Wout3; exact Pipeline.withArrays_of_ne spec3 c _ _ b hb

/-- ENTRY, the buffers' part. Every unscoped buffer at Win is: the region's arrays at the proof data's entry contents,
    the table whole at the admissible contents (which are Win's there), the far operand whole, and the others. -/
theorem entry3 (c : Dev nD) (ha1 : ∀ k, Vof Win c (pre3.ref k) = a1.1 k) :
    (StableHlo.held (c : Thread nD τ) (Pipeline.ucRefs τ sig) (Win c) : sProp 𝕄)
      ⊢ iprop((dat3 (Vof Win) a1 O c).arrays ((dat3 (Vof Win) a1 O c).arrAt · 0)
          ∗ Pipeline.prefHeld pre3 c (fun _ => fullShare) a1.1
          ∗ (bigSep ({main_v3} : Finset (Ref sig .tc)) fun b => (((c : Thread nD τ)).loc b) ↦{fullShare} Vof Win c b)
          ∗ bigSep (Pipeline.restRefsP sig pre3 spec3 \ {main_v3}) fun b => (((c : Thread nD τ)).loc b) ↦{fullShare} Vof Win c b) := by
  have hsplit := Pipeline.arrays_of_unscopedBufs (p := ()) (fun (_ : Unit) => pcfg3 (F := F)) (fun _ => a1)
    (fun _ c => dat3 (Vof Win) a1 O c) winFacts3 (launch3 (F := F)).arr_whole c
    ((dat3 (Vof Win) a1 O c).share_full fun _ => rfl) (Vof Win c) (fun w => A_eq3 (Vof Win) a1 O c w)
  rw [Pipeline.unscopedBufs_held,
    Pipeline.unscopedRest_split (Ix := Unit) (Name := ℕ) (U := UD sig nD τ) (Lvl := ℕ) preFacts3 c (Vof Win c),
    Pipeline.unscopedRestP_sdiff pre3 spec3 {main_v3} hx_sub3 c (Vof Win c),
    show (fun k => Vof Win c (pre3.ref k)) = a1.1 from funext ha1] at hsplit
  exact hsplit

/-- EXIT, the buffers' part: the same four put back, the arrays at what the write-backs leave, are every unscoped
    buffer at the exit valuation. -/
theorem exit3 (c : Dev nD) (ha1 : ∀ k, Vof Win c (pre3.ref k) = a1.1 k) :
    iprop((dat3 (Vof Win) a1 O c).arrays ((dat3 (Vof Win) a1 O c).arrAt · (cfg3 a1).N)
        ∗ Pipeline.prefHeld pre3 c (fun _ => fullShare) a1.1
        ∗ (bigSep ({main_v3} : Finset (Ref sig .tc)) fun b => (((c : Thread nD τ)).loc b) ↦{fullShare} Vof Win c b)
        ∗ bigSep (Pipeline.restRefsP sig pre3 spec3 \ {main_v3}) fun b => (((c : Thread nD τ)).loc b) ↦{fullShare} Vof Win c b)
      ⊢ (StableHlo.held (c : Thread nD τ) (Pipeline.ucRefs τ sig) (Wout3 Win a1 O c) : sProp 𝕄) := by
  have hjoin := Pipeline.unscopedBufs_of_arrays (p := ()) (fun (_ : Unit) => pcfg3 (F := F)) (fun _ => a1)
    (Ix := Unit) (Name := ℕ) (U := UD sig nD τ) (Lvl := ℕ)
    winFacts3 (launch3 (F := F)).arr_whole c (fun _ c => dat3 (Vof Win) a1 O c)
    ((dat3 (Vof Win) a1 O c).share_full fun _ => rfl)
    (Vof Win c) (Vof (Wout3 Win a1 O) c) ((dat3 (Vof Win) a1 O c).arrAt · (cfg3 a1).N)
    (fun w => (Wout3_arr Win a1 O c w).symm)
    (fun b hb => Wout3_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts3 c (Vof Win c),
    Pipeline.unscopedRestP_sdiff pre3 spec3 {main_v3} hx_sub3 c (Vof Win c),
    show (fun k => Vof Win c (pre3.ref k)) = a1.1 from funext ha1] at hjoin
  exact hjoin

end Record

section Seg

variable (Win : Dev nD → Valuation τ sig (Elt F))
  (adm : (p : Fin 49) → (pcfgs (F := F) p).Adm)
  (O : (c : Dev nD) → Fin (cfg3 (adm (3 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout3. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg3 (hd : ∀ c, pdats (3 : Fin 49) c = dat3 (Vof Win) (adm (3 : Fin 49)) O c)
    (ha1 : ∀ c k, Vof Win c (pre3.ref k) = (adm (3 : Fin 49)).1 k)
    (hbody : ∀ c, BodyObligation (dat3 (F := F) (Vof Win) (adm (3 : Fin 49)) O c) (defs₀ (F := F)) 𝒱₀ () Set.univ) :
    Pipeline.RegionSeg (pcfgs (F := F)) adm pdats () defs₀ 𝒱₀ L lv (3 : Fin 49) where
  win := (launch3 (F := F)).win.to₀
  block_pos := (launch3 (F := F)).block_pos
  stage_whole := (launch3 (F := F)).stage_whole
  K := Fin 8
  osem := osem3
  ho := ownSemFacts3
  hbody c := by rw [hd c]; exact (hbody c).loose
  hwaits := Pipeline.hwaits_of_owed_zero _ _ _ _ L lv (3 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout3 Win (adm (3 : Fin 49)) O c) ∗ R c)
  X c := iprop((∃ r, prngReg c r)
    ∗ Pipeline.ownSems0 (Ix := Unit) (Name := ℕ) (U := UD sig nD τ) (Lvl := ℕ) (Val := Elt F) (τ := τ) osem3 c
    ∗ (bigSep ({main_v3} : Finset (Ref sig .tc)) fun b => (((c : Thread nD τ)).loc b) ↦{fullShare} Vof Win c b))
  Y c := iprop((∃ r, prngReg c r)
    ∗ (bigSep ({main_v3} : Finset (Ref sig .tc)) fun b => (((c : Thread nD τ)).loc b) ↦{fullShare} Vof Win c b)
    ∗ Pipeline.prefHeld pre3 c (fun _ => fullShare) (adm (3 : Fin 49)).1)
  Z c := bigSep (Pipeline.restRefsP sig pre3 spec3 \ {main_v3}) fun b => (((c : Thread nD τ)).loc b) ↦{fullShare} Vof Win c b
  hentry c := by
    rw [hd c]
    iintro ⟨⟨Hub, Hp, HO⟩, Hos, -⟩
    ihave H := (entry3 Win (adm (3 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq3, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq3, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit3 Win (adm (3 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg3 (F := F)).Adm)

/-- The output block at point t: the gathered rows (of the far operand's contents under V, chosen by the table's
    words at that point) times the input block. -/
def outBlk3 (c : Dev nD) (t : Fin (cfg3 a1).N) : Vec F S8x64 .f32 :=
  gatherOut (gatherG (a1.1 0) (V c main_v3) (grid3.coords t)) (iblk3 V a1 c 0 t)

theorem outBlk_eq3 (c : Dev nD) (t : Fin (cfg3 a1).N) :
    outBlk3 V a1 c t = gatherOut (gatherG (a1.1 0) (V c main_v3) (grid3.coords t)) (iblk3 V a1 c 0 t) := rfl

/-- The proof data with the output block named: after the body at point t the output window's buffer holds it. -/
theorem afterOutBlk3 (c : Dev nD) (t : Fin (cfg3 a1).N) :
    (dat3 V a1 (outBlk3 V a1) c).after 1 t
      = gatherOut (gatherG (a1.1 0) (V c main_v3) (grid3.coords t)) (iblk3 V a1 c 0 t) :=
  afterOut3 V a1 (outBlk3 V a1) c t

/-- The own cells at zero are the semaphore array's eight entries at zero, in order. -/
theorem ownSems_eq3 (c : Dev nD) :
    (Pipeline.ownSems0 (Ix := Unit) (Name := ℕ) (U := UD sig nD τ) (Lvl := ℕ) (Val := Elt F) (τ := τ) osem3 c : sProp 𝕄)
      = gsems0 c cc3_scratch1 := by
  rw [Pipeline.ownSems0_eq_of_list c osem3 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq3 (t : Fin (cfg3 a1).N) : ∃ h3 h4, bodyProg3 (F := F) a1 t
    = cc3__gather_mul_kernel (grid3.coords t) (Memref.whole main_v13) (Memref.isWhole_whole _) (Memref.whole main_v3) (Memref.isWhole_whole _)
        (stg3 a1 0 t) h3 (stg3 a1 1 t) h4 (Memref.whole cc3_scratch0) (Memref.isWhole_whole _) cc3_scratch1 := ⟨_, _, rfl⟩

end Out

/-! ## The body's run, joined to the proof data -/

section Body

variable (V : (c : Dev nD) → (b : Ref sig .tc) → Buf (Elt F) ((c : Thread nD τ).loc b))
  (a1 : (pcfg3 (F := F)).Adm)

/-- The scratch buffer whole at some contents, as a memref owned at some contents. -/
theorem scratchOwns_eq3 (c : Dev nD) :
    (iprop(∃ d, owns (c : Thread nD τ) (Memref.whole cc3_scratch0) fullShare d) : sProp 𝕄)
      = iprop(∃ f : Buf (Elt F) ((c : Thread nD τ).loc cc3_scratch0), ((c : Thread nD τ).loc cc3_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun3 (hlt : ∀ y, BitVec.toNat ((a1.1 0) y) < 100000) : BodyRun3 V a1 (outBlk3 V a1) := by
  intro c t W K
  obtain ⟨h3, h4, hprog⟩ := bodyProg_eq3 (F := F) a1 t
  rw [hprog, ownSems_eq3, ← scratchOwns_eq3 (F := F) c]
  have hrun := gather_kernel_run_3 (F := F) c (grid3.coords t) (Memref.whole main_v13) (Memref.isWhole_whole _) (Memref.whole main_v3) (Memref.isWhole_whole _)
    (stg3 a1 0 t) h3 (stg3 a1 1 t) h4 (Memref.whole cc3_scratch0) (Memref.isWhole_whole _) cc3_scratch1 fullShare fullShare
    (a1.1 0) (V c main_v3) (iblk3 V a1 c 0 t) (fun y => hlt y) W K
  simp only [Memref.view_whole, View.read_whole] at hrun
  unfold outBlk3
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut3 (hlt : ∀ y, BitVec.toNat ((a1.1 0) y) < 100000) (c : Dev nD) :
    BodyObligation (dat3 (F := F) V a1 (outBlk3 V a1) c) (defs₀ (F := F)) Variants.none () Set.univ :=
  body_obligation3 V a1 (outBlk3 V a1) (bodyRun3 V a1 hlt) c

end Body

/-! # Region 4 -/

/-! ## The body's own transfer cells -/

/-- The eight cells of the body's semaphore array, in order. -/
abbrev osem4 : Fin 8 → SemLoc sig := fun j => SemLoc.dma (cc4_scratch1.ix (fun | ⟨0, _⟩ => j))

/-- They are scoped, pairwise distinct, and none is a staging cell of a window. -/
theorem ownSemFacts4 : Pipeline.OwnSemFacts spec4 osem4 := by decide

/-- The far operand is an unscoped buffer that is neither a window's array nor a table. -/
theorem hx_sub4 : ({main_v3} : Finset (Ref sig .tc)) ⊆ Pipeline.restRefsP sig pre4 spec4 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg4 (F := F)).Adm)
  (O : (c : Dev nD) → Fin (cfg4 a1).N → Vec F S8x64 .f32)

/-! ## The windows' blocks -/

/-- Window w's block at point t, read off its array under V. -/
def iblk4 (c : Dev nD) (w : Fin (cfg4 a1).W) (t : Fin (cfg4 a1).N) :
    (((cfg4 a1).win w).xblock ((cfg4 a1).grid.coords t)).Idx → Elt F ((cfg4 a1).win w).elt :=
  (((cfg4 a1).win w).blk t).view.read (Elt F) (V c (Pipeline.arrRef spec4 w))

/-- The input window's current staging buffer holds its block at every point, fetched there or not, for any proof
    data whose array is V's and whose body leaves the block in place: unfetched, the block index has not moved. -/
theorem beforeIn4_of {c : Dev nD} (dat : Dat τ (Elt F) Unit ℕ (UD sig nD τ) ℕ (cfg4 a1) c)
    (hA : dat.A 0 = V c (Pipeline.arrRef spec4 0))
    (hafter : ∀ t, dat.after 0 t = iblk4 V a1 c 0 t) (t : Fin (cfg4 a1).N) (d) : dat.before 0 t d = iblk4 V a1 c 0 t :=
  (dat.before_in_eq_fetched 0 rfl (fun _ => rfl) (fun _ _ _ => rfl)
    (fun t => by rw [hafter]; unfold Dat.blockOf iblk4; rw [hA]; try rfl) t d).trans
    (by unfold Dat.fetched Dat.blockOf iblk4; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat4 (c : Dev nD) : Dat τ (Elt F) Unit ℕ (UD sig nD τ) ℕ (cfg4 a1) c where
  A w := V c (Pipeline.arrRef spec4 w)
  after w t := match w with
    | ⟨0, _⟩ => iblk4 V a1 c 0 t
    | ⟨1, _⟩ => O c t
  Φ _ := iprop(Pipeline.ΦD osem4 spec4 {main_v3} V c ∗ Pipeline.prefHeld pre4 c (fun _ => fullShare) a1.1)
  q _ := fullShare
  owed _ := 0

theorem A_eq4 (c : Dev nD) (w : Fin (cfg4 a1).W) : (dat4 V a1 O c).A w = V c (Pipeline.arrRef spec4 w) := by
  dsimp only [dat4]

theorem afterIn4 (c : Dev nD) (t : Fin (cfg4 a1).N) : (dat4 V a1 O c).after 0 t = iblk4 V a1 c 0 t := by
  dsimp only [dat4]; rfl

theorem afterOut4 (c : Dev nD) (t : Fin (cfg4 a1).N) :
    (dat4 V a1 O c).after 1 t = O c t := by
  dsimp only [dat4]; rfl

theorem beforeIn4 (c : Dev nD) (t : Fin (cfg4 a1).N) (d) : (dat4 V a1 O c).before 0 t d = iblk4 V a1 c 0 t :=
  beforeIn4_of V a1 (dat4 V a1 O c) (A_eq4 V a1 O c 0) (afterIn4 V a1 O c) t d

theorem Phi_eq4 (c : Dev nD) (t : Fin ((cfg4 a1).N + 1)) :
    (dat4 V a1 O c).Φ t
      = iprop(Pipeline.ΦD osem4 spec4 {main_v3} V c ∗ Pipeline.prefHeld pre4 c (fun _ => fullShare) a1.1) := by
  dsimp only [dat4]

theorem owed_eq4 (c : Dev nD) (t : Fin ((cfg4 a1).N + 1)) : (dat4 V a1 O c).owed t = 0 := by
  dsimp only [dat4]

/-! ## The invariant, conjunct by conjunct -/

/-- The invariant's first part opened: the body's scratch buffer whole at some contents and the other scoped
    buffers no window stages, the generator register, the own cells at zero, the far operand at its contents. -/
theorem PhiD_eq4 (c : Dev nD) :
    (Pipeline.ΦD osem4 spec4 {main_v3} V c : sProp 𝕄)
      = iprop(iprop(iprop((∃ f : Buf (Elt F) ((c : Thread nD τ).loc cc4_scratch0), ((c : Thread nD τ).loc cc4_scratch0) ↦{fullShare} f))
            ∗ Pipeline.scopedRestBut (Ix := Unit) (Name := ℕ) (U := UD sig nD τ) (Lvl := ℕ) (Val := Elt F) spec4 c [cc4_scratch0])
          ∗ (∃ r, prngReg c r)
          ∗ Pipeline.ownSems0 (Ix := Unit) (Name := ℕ) (U := UD sig nD τ) (Lvl := ℕ) (Val := Elt F) (τ := τ) osem4 c
          ∗ (((c : Thread nD τ).loc main_v3) ↦{fullShare} V c main_v3)) := by
  rw [Pipeline.ΦD_eq, scopedRest4_split, BI.bigSep_eq_bigSepL_of_eq [main_v3] (by decide) (by decide)]; rfl

/-- The one table, held whole. -/
theorem prefHeld_eq4 (c : Dev nD) :
    (Pipeline.prefHeld pre4 c (fun _ => fullShare) a1.1 : sProp 𝕄)
      = (((c : Thread nD τ).loc main_v17) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg4 (w : Fin (cfg4 a1).W) (t : Fin (cfg4 a1).N) := ((cfg4 a1).win w).stage ((cfg4 a1).slots t w)

/-- The body as the pipeline calls it at point t. -/
abbrev bodyProg4 (t : Fin (cfg4 a1).N) : Prog (TpuEff nD τ sig (Elt F) Λ₀ .tc) PUnit :=
  (defs₀ (F := F)) .tc (cfg4 a1).body ((cfg4 a1).bodyArgs t ((cfg4 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun4 : Prop :=
  ∀ (c : Dev nD) (t : Fin (cfg4 a1).N) (W) (K : PUnit → sProp 𝕄),
    iprop(owns (c : Thread nD τ) (stg4 a1 0 t) fullShare (iblk4 V a1 c 0 t)
        ∗ (∃ d, owns (c : Thread nD τ) (stg4 a1 1 t) fullShare d)
        ∗ (∃ f : Buf (Elt F) ((c : Thread nD τ).loc cc4_scratch0), ((c : Thread nD τ).loc cc4_scratch0) ↦{fullShare} f)
        ∗ Pipeline.ownSems0 (Ix := Unit) (Name := ℕ) (U := UD sig nD τ) (Lvl := ℕ) (Val := Elt F) (τ := τ) osem4 c
        ∗ (((c : Thread nD τ).loc main_v17) ↦{fullShare} a1.1 0)
        ∗ (((c : Thread nD τ).loc main_v3) ↦{fullShare} V c main_v3)
        ∗ owes (c : Thread nD τ) (0 : CellTallies nD τ sig Unit) W
        ∗ (iprop(owns (c : Thread nD τ) (stg4 a1 0 t) fullShare (iblk4 V a1 c 0 t)
            ∗ owns (c : Thread nD τ) (stg4 a1 1 t) fullShare (O c t)
            ∗ (∃ f : Buf (Elt F) ((c : Thread nD τ).loc cc4_scratch0), ((c : Thread nD τ).loc cc4_scratch0) ↦{fullShare} f)
            ∗ Pipeline.ownSems0 (Ix := Unit) (Name := ℕ) (U := UD sig nD τ) (Lvl := ℕ) (Val := Elt F) (τ := τ) osem4 c
            ∗ (((c : Thread nD τ).loc main_v17) ↦{fullShare} a1.1 0)
            ∗ (((c : Thread nD τ).loc main_v3) ↦{fullShare} V c main_v3)
            ∗ (∃ W', owes (c : Thread nD τ) (0 : CellTallies nD τ sig Unit) W')) -∗ K ⟨⟩))
      ⊢ wp frame (wpE (defs₀ (F := F)) Variants.none c none) Set.univ (bodyProg4 a1 t) K

/-- What the body is called with at point t, the windows one by one, -/
def bodyPre4 (c : Dev nD) (t : Fin (cfg4 a1).N) : sProp 𝕄 :=
  iprop((dat4 V a1 O c).Φ t.castSucc ∗ (dat4 V a1 O c).owesAt () t.castSucc
    ∗ (∃ d, owns (c : Thread nD τ) (stg4 a1 0 t) fullShare ((dat4 V a1 O c).before 0 t d))
    ∗ (∃ d, owns (c : Thread nD τ) (stg4 a1 1 t) fullShare ((dat4 V a1 O c).before 1 t d)))

/-- and what it returns. -/
def bodyPost4 (c : Dev nD) (t : Fin (cfg4 a1).N) : sProp 𝕄 :=
  iprop((dat4 V a1 O c).Φ t.succ ∗ (dat4 V a1 O c).owesAt () t.succ
    ∗ owns (c : Thread nD τ) (stg4 a1 0 t) fullShare ((dat4 V a1 O c).after 0 t)
    ∗ owns (c : Thread nD τ) (stg4 a1 1 t) fullShare ((dat4 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body4 (hrun : BodyRun4 V a1 O) (c : Dev nD) (t : Fin (cfg4 a1).N) :
    bodyPre4 V a1 O c t
      ⊢ wp frame (wpE (defs₀ (F := F)) Variants.none c none) Set.univ (bodyProg4 a1 t) (fun _ => bodyPost4 V a1 O c t) := by
  unfold bodyPre4 bodyPost4
  simp only [beforeIn4]
  rw [afterIn4, afterOut4, Phi_eq4, Phi_eq4, PhiD_eq4, prefHeld_eq4]
  unfold Dat.owesAt Pipeline.owesWithin
  rw [owed_eq4, owed_eq4]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation4 (hrun : BodyRun4 V a1 O) (c : Dev nD) :
    BodyObligation (dat4 (F := F) V a1 O c) (defs₀ (F := F)) Variants.none () Set.univ := fun t => by
  rw [bigSep_W4, bigSep_W4]
  exact sound_body4 V a1 O hrun c t

end Data

/-! ## The region's record -/

section Record

variable (Win : Dev nD → Valuation τ sig (Elt F))

variable (a1 : (pcfg4 (F := F)).Adm)
  (O : (c : Dev nD) → Fin (cfg4 a1).N → Vec F S8x64 .f32)

/-- The buffers at the region's exit: its arrays at what the write-backs leave, every other buffer as entered. -/
def Wout4 (c : Dev nD) : Valuation τ sig (Elt F) :=
  Pipeline.withArrays spec4 c (Win c) fun w => (dat4 (Vof Win) a1 O c).arrAt w (cfg4 a1).N

theorem Wout4_arr (c : Dev nD) (w : Fin (cfg4 a1).W) :
    Wout4 Win a1 O c (Proc.devRef .tc (Pipeline.arrRef spec4 w)) = (dat4 (Vof Win) a1 O c).arrAt w (cfg4 a1).N := by
  unfold Wout4; exact Pipeline.withArrays_arr spec4 winFacts4.arr_inj c _ _ w

theorem Wout4_of_ne (c : Dev nD) (b : Ref sig .tc) (hb : ∀ w, Pipeline.arrRef spec4 w ≠ b) :
    Wout4 Win a1 O c (Proc.devRef .tc b) = Win c (Proc.devRef .tc b) := by
  unfold Wout4; exact Pipeline.withArrays_of_ne spec4 c _ _ b hb

/-- ENTRY, the buffers' part. Every unscoped buffer at Win is: the region's arrays at the proof data's entry contents,
    the table whole at the admissible contents (which are Win's there), the far operand whole, and the others. -/
theorem entry4 (c : Dev nD) (ha1 : ∀ k, Vof Win c (pre4.ref k) = a1.1 k) :
    (StableHlo.held (c : Thread nD τ) (Pipeline.ucRefs τ sig) (Win c) : sProp 𝕄)
      ⊢ iprop((dat4 (Vof Win) a1 O c).arrays ((dat4 (Vof Win) a1 O c).arrAt · 0)
          ∗ Pipeline.prefHeld pre4 c (fun _ => fullShare) a1.1
          ∗ (bigSep ({main_v3} : Finset (Ref sig .tc)) fun b => (((c : Thread nD τ)).loc b) ↦{fullShare} Vof Win c b)
          ∗ bigSep (Pipeline.restRefsP sig pre4 spec4 \ {main_v3}) fun b => (((c : Thread nD τ)).loc b) ↦{fullShare} Vof Win c b) := by
  have hsplit := Pipeline.arrays_of_unscopedBufs (p := ()) (fun (_ : Unit) => pcfg4 (F := F)) (fun _ => a1)
    (fun _ c => dat4 (Vof Win) a1 O c) winFacts4 (launch4 (F := F)).arr_whole c
    ((dat4 (Vof Win) a1 O c).share_full fun _ => rfl) (Vof Win c) (fun w => A_eq4 (Vof Win) a1 O c w)
  rw [Pipeline.unscopedBufs_held,
    Pipeline.unscopedRest_split (Ix := Unit) (Name := ℕ) (U := UD sig nD τ) (Lvl := ℕ) preFacts4 c (Vof Win c),
    Pipeline.unscopedRestP_sdiff pre4 spec4 {main_v3} hx_sub4 c (Vof Win c),
    show (fun k => Vof Win c (pre4.ref k)) = a1.1 from funext ha1] at hsplit
  exact hsplit

/-- EXIT, the buffers' part: the same four put back, the arrays at what the write-backs leave, are every unscoped
    buffer at the exit valuation. -/
theorem exit4 (c : Dev nD) (ha1 : ∀ k, Vof Win c (pre4.ref k) = a1.1 k) :
    iprop((dat4 (Vof Win) a1 O c).arrays ((dat4 (Vof Win) a1 O c).arrAt · (cfg4 a1).N)
        ∗ Pipeline.prefHeld pre4 c (fun _ => fullShare) a1.1
        ∗ (bigSep ({main_v3} : Finset (Ref sig .tc)) fun b => (((c : Thread nD τ)).loc b) ↦{fullShare} Vof Win c b)
        ∗ bigSep (Pipeline.restRefsP sig pre4 spec4 \ {main_v3}) fun b => (((c : Thread nD τ)).loc b) ↦{fullShare} Vof Win c b)
      ⊢ (StableHlo.held (c : Thread nD τ) (Pipeline.ucRefs τ sig) (Wout4 Win a1 O c) : sProp 𝕄) := by
  have hjoin := Pipeline.unscopedBufs_of_arrays (p := ()) (fun (_ : Unit) => pcfg4 (F := F)) (fun _ => a1)
    (Ix := Unit) (Name := ℕ) (U := UD sig nD τ) (Lvl := ℕ)
    winFacts4 (launch4 (F := F)).arr_whole c (fun _ c => dat4 (Vof Win) a1 O c)
    ((dat4 (Vof Win) a1 O c).share_full fun _ => rfl)
    (Vof Win c) (Vof (Wout4 Win a1 O) c) ((dat4 (Vof Win) a1 O c).arrAt · (cfg4 a1).N)
    (fun w => (Wout4_arr Win a1 O c w).symm)
    (fun b hb => Wout4_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts4 c (Vof Win c),
    Pipeline.unscopedRestP_sdiff pre4 spec4 {main_v3} hx_sub4 c (Vof Win c),
    show (fun k => Vof Win c (pre4.ref k)) = a1.1 from funext ha1] at hjoin
  exact hjoin

end Record

section Seg

variable (Win : Dev nD → Valuation τ sig (Elt F))
  (adm : (p : Fin 49) → (pcfgs (F := F) p).Adm)
  (O : (c : Dev nD) → Fin (cfg4 (adm (4 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout4. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg4 (hd : ∀ c, pdats (4 : Fin 49) c = dat4 (Vof Win) (adm (4 : Fin 49)) O c)
    (ha1 : ∀ c k, Vof Win c (pre4.ref k) = (adm (4 : Fin 49)).1 k)
    (hbody : ∀ c, BodyObligation (dat4 (F := F) (Vof Win) (adm (4 : Fin 49)) O c) (defs₀ (F := F)) 𝒱₀ () Set.univ) :
    Pipeline.RegionSeg (pcfgs (F := F)) adm pdats () defs₀ 𝒱₀ L lv (4 : Fin 49) where
  win := (launch4 (F := F)).win.to₀
  block_pos := (launch4 (F := F)).block_pos
  stage_whole := (launch4 (F := F)).stage_whole
  K := Fin 8
  osem := osem4
  ho := ownSemFacts4
  hbody c := by rw [hd c]; exact (hbody c).loose
  hwaits := Pipeline.hwaits_of_owed_zero _ _ _ _ L lv (4 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout4 Win (adm (4 : Fin 49)) O c) ∗ R c)
  X c := iprop((∃ r, prngReg c r)
    ∗ Pipeline.ownSems0 (Ix := Unit) (Name := ℕ) (U := UD sig nD τ) (Lvl := ℕ) (Val := Elt F) (τ := τ) osem4 c
    ∗ (bigSep ({main_v3} : Finset (Ref sig .tc)) fun b => (((c : Thread nD τ)).loc b) ↦{fullShare} Vof Win c b))
  Y c := iprop((∃ r, prngReg c r)
    ∗ (bigSep ({main_v3} : Finset (Ref sig .tc)) fun b => (((c : Thread nD τ)).loc b) ↦{fullShare} Vof Win c b)
    ∗ Pipeline.prefHeld pre4 c (fun _ => fullShare) (adm (4 : Fin 49)).1)
  Z c := bigSep (Pipeline.restRefsP sig pre4 spec4 \ {main_v3}) fun b => (((c : Thread nD τ)).loc b) ↦{fullShare} Vof Win c b
  hentry c := by
    rw [hd c]
    iintro ⟨⟨Hub, Hp, HO⟩, Hos, -⟩
    ihave H := (entry4 Win (adm (4 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq4, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq4, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit4 Win (adm (4 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg4 (F := F)).Adm)

/-- The output block at point t: the gathered rows (of the far operand's contents under V, chosen by the table's
    words at that point) times the input block. -/
def outBlk4 (c : Dev nD) (t : Fin (cfg4 a1).N) : Vec F S8x64 .f32 :=
  gatherOut (gatherG (a1.1 0) (V c main_v3) (grid4.coords t)) (iblk4 V a1 c 0 t)

theorem outBlk_eq4 (c : Dev nD) (t : Fin (cfg4 a1).N) :
    outBlk4 V a1 c t = gatherOut (gatherG (a1.1 0) (V c main_v3) (grid4.coords t)) (iblk4 V a1 c 0 t) := rfl

/-- The proof data with the output block named: after the body at point t the output window's buffer holds it. -/
theorem afterOutBlk4 (c : Dev nD) (t : Fin (cfg4 a1).N) :
    (dat4 V a1 (outBlk4 V a1) c).after 1 t
      = gatherOut (gatherG (a1.1 0) (V c main_v3) (grid4.coords t)) (iblk4 V a1 c 0 t) :=
  afterOut4 V a1 (outBlk4 V a1) c t

/-- The own cells at zero are the semaphore array's eight entries at zero, in order. -/
theorem ownSems_eq4 (c : Dev nD) :
    (Pipeline.ownSems0 (Ix := Unit) (Name := ℕ) (U := UD sig nD τ) (Lvl := ℕ) (Val := Elt F) (τ := τ) osem4 c : sProp 𝕄)
      = gsems0 c cc4_scratch1 := by
  rw [Pipeline.ownSems0_eq_of_list c osem4 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq4 (t : Fin (cfg4 a1).N) : ∃ h3 h4, bodyProg4 (F := F) a1 t
    = cc4__gather_mul_kernel (grid4.coords t) (Memref.whole main_v17) (Memref.isWhole_whole _) (Memref.whole main_v3) (Memref.isWhole_whole _)
        (stg4 a1 0 t) h3 (stg4 a1 1 t) h4 (Memref.whole cc4_scratch0) (Memref.isWhole_whole _) cc4_scratch1 := ⟨_, _, rfl⟩

end Out

/-! ## The body's run, joined to the proof data -/

section Body

variable (V : (c : Dev nD) → (b : Ref sig .tc) → Buf (Elt F) ((c : Thread nD τ).loc b))
  (a1 : (pcfg4 (F := F)).Adm)

/-- The scratch buffer whole at some contents, as a memref owned at some contents. -/
theorem scratchOwns_eq4 (c : Dev nD) :
    (iprop(∃ d, owns (c : Thread nD τ) (Memref.whole cc4_scratch0) fullShare d) : sProp 𝕄)
      = iprop(∃ f : Buf (Elt F) ((c : Thread nD τ).loc cc4_scratch0), ((c : Thread nD τ).loc cc4_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun4 (hlt : ∀ y, BitVec.toNat ((a1.1 0) y) < 100000) : BodyRun4 V a1 (outBlk4 V a1) := by
  intro c t W K
  obtain ⟨h3, h4, hprog⟩ := bodyProg_eq4 (F := F) a1 t
  rw [hprog, ownSems_eq4, ← scratchOwns_eq4 (F := F) c]
  have hrun := gather_kernel_run_4 (F := F) c (grid4.coords t) (Memref.whole main_v17) (Memref.isWhole_whole _) (Memref.whole main_v3) (Memref.isWhole_whole _)
    (stg4 a1 0 t) h3 (stg4 a1 1 t) h4 (Memref.whole cc4_scratch0) (Memref.isWhole_whole _) cc4_scratch1 fullShare fullShare
    (a1.1 0) (V c main_v3) (iblk4 V a1 c 0 t) (fun y => hlt y) W K
  simp only [Memref.view_whole, View.read_whole] at hrun
  unfold outBlk4
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut4 (hlt : ∀ y, BitVec.toNat ((a1.1 0) y) < 100000) (c : Dev nD) :
    BodyObligation (dat4 (F := F) V a1 (outBlk4 V a1) c) (defs₀ (F := F)) Variants.none () Set.univ :=
  body_obligation4 V a1 (outBlk4 V a1) (bodyRun4 V a1 hlt) c

end Body

/-! # Region 5 -/

/-! ## The body's own transfer cells -/

/-- The eight cells of the body's semaphore array, in order. -/
abbrev osem5 : Fin 8 → SemLoc sig := fun j => SemLoc.dma (cc5_scratch1.ix (fun | ⟨0, _⟩ => j))

/-- They are scoped, pairwise distinct, and none is a staging cell of a window. -/
theorem ownSemFacts5 : Pipeline.OwnSemFacts spec5 osem5 := by decide

/-- The far operand is an unscoped buffer that is neither a window's array nor a table. -/
theorem hx_sub5 : ({main_v3} : Finset (Ref sig .tc)) ⊆ Pipeline.restRefsP sig pre5 spec5 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg5 (F := F)).Adm)
  (O : (c : Dev nD) → Fin (cfg5 a1).N → Vec F S8x64 .f32)

/-! ## The windows' blocks -/

/-- Window w's block at point t, read off its array under V. -/
def iblk5 (c : Dev nD) (w : Fin (cfg5 a1).W) (t : Fin (cfg5 a1).N) :
    (((cfg5 a1).win w).xblock ((cfg5 a1).grid.coords t)).Idx → Elt F ((cfg5 a1).win w).elt :=
  (((cfg5 a1).win w).blk t).view.read (Elt F) (V c (Pipeline.arrRef spec5 w))

/-- The input window's current staging buffer holds its block at every point, fetched there or not, for any proof
    data whose array is V's and whose body leaves the block in place: unfetched, the block index has not moved. -/
theorem beforeIn5_of {c : Dev nD} (dat : Dat τ (Elt F) Unit ℕ (UD sig nD τ) ℕ (cfg5 a1) c)
    (hA : dat.A 0 = V c (Pipeline.arrRef spec5 0))
    (hafter : ∀ t, dat.after 0 t = iblk5 V a1 c 0 t) (t : Fin (cfg5 a1).N) (d) : dat.before 0 t d = iblk5 V a1 c 0 t :=
  (dat.before_in_eq_fetched 0 rfl (fun _ => rfl) (fun _ _ _ => rfl)
    (fun t => by rw [hafter]; unfold Dat.blockOf iblk5; rw [hA]; try rfl) t d).trans
    (by unfold Dat.fetched Dat.blockOf iblk5; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat5 (c : Dev nD) : Dat τ (Elt F) Unit ℕ (UD sig nD τ) ℕ (cfg5 a1) c where
  A w := V c (Pipeline.arrRef spec5 w)
  after w t := match w with
    | ⟨0, _⟩ => iblk5 V a1 c 0 t
    | ⟨1, _⟩ => O c t
  Φ _ := iprop(Pipeline.ΦD osem5 spec5 {main_v3} V c ∗ Pipeline.prefHeld pre5 c (fun _ => fullShare) a1.1)
  q _ := fullShare
  owed _ := 0

theorem A_eq5 (c : Dev nD) (w : Fin (cfg5 a1).W) : (dat5 V a1 O c).A w = V c (Pipeline.arrRef spec5 w) := by
  dsimp only [dat5]

theorem afterIn5 (c : Dev nD) (t : Fin (cfg5 a1).N) : (dat5 V a1 O c).after 0 t = iblk5 V a1 c 0 t := by
  dsimp only [dat5]; rfl

theorem afterOut5 (c : Dev nD) (t : Fin (cfg5 a1).N) :
    (dat5 V a1 O c).after 1 t = O c t := by
  dsimp only [dat5]; rfl

theorem beforeIn5 (c : Dev nD) (t : Fin (cfg5 a1).N) (d) : (dat5 V a1 O c).before 0 t d = iblk5 V a1 c 0 t :=
  beforeIn5_of V a1 (dat5 V a1 O c) (A_eq5 V a1 O c 0) (afterIn5 V a1 O c) t d

theorem Phi_eq5 (c : Dev nD) (t : Fin ((cfg5 a1).N + 1)) :
    (dat5 V a1 O c).Φ t
      = iprop(Pipeline.ΦD osem5 spec5 {main_v3} V c ∗ Pipeline.prefHeld pre5 c (fun _ => fullShare) a1.1) := by
  dsimp only [dat5]

theorem owed_eq5 (c : Dev nD) (t : Fin ((cfg5 a1).N + 1)) : (dat5 V a1 O c).owed t = 0 := by
  dsimp only [dat5]

/-! ## The invariant, conjunct by conjunct -/

/-- The invariant's first part opened: the body's scratch buffer whole at some contents and the other scoped
    buffers no window stages, the generator register, the own cells at zero, the far operand at its contents. -/
theorem PhiD_eq5 (c : Dev nD) :
    (Pipeline.ΦD osem5 spec5 {main_v3} V c : sProp 𝕄)
      = iprop(iprop(iprop((∃ f : Buf (Elt F) ((c : Thread nD τ).loc cc5_scratch0), ((c : Thread nD τ).loc cc5_scratch0) ↦{fullShare} f))
            ∗ Pipeline.scopedRestBut (Ix := Unit) (Name := ℕ) (U := UD sig nD τ) (Lvl := ℕ) (Val := Elt F) spec5 c [cc5_scratch0])
          ∗ (∃ r, prngReg c r)
          ∗ Pipeline.ownSems0 (Ix := Unit) (Name := ℕ) (U := UD sig nD τ) (Lvl := ℕ) (Val := Elt F) (τ := τ) osem5 c
          ∗ (((c : Thread nD τ).loc main_v3) ↦{fullShare} V c main_v3)) := by
  rw [Pipeline.ΦD_eq, scopedRest5_split, BI.bigSep_eq_bigSepL_of_eq [main_v3] (by decide) (by decide)]; rfl

/-- The one table, held whole. -/
theorem prefHeld_eq5 (c : Dev nD) :
    (Pipeline.prefHeld pre5 c (fun _ => fullShare) a1.1 : sProp 𝕄)
      = (((c : Thread nD τ).loc main_v21) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg5 (w : Fin (cfg5 a1).W) (t : Fin (cfg5 a1).N) := ((cfg5 a1).win w).stage ((cfg5 a1).slots t w)

/-- The body as the pipeline calls it at point t. -/
abbrev bodyProg5 (t : Fin (cfg5 a1).N) : Prog (TpuEff nD τ sig (Elt F) Λ₀ .tc) PUnit :=
  (defs₀ (F := F)) .tc (cfg5 a1).body ((cfg5 a1).bodyArgs t ((cfg5 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun5 : Prop :=
  ∀ (c : Dev nD) (t : Fin (cfg5 a1).N) (W) (K : PUnit → sProp 𝕄),
    iprop(owns (c : Thread nD τ) (stg5 a1 0 t) fullShare (iblk5 V a1 c 0 t)
        ∗ (∃ d, owns (c : Thread nD τ) (stg5 a1 1 t) fullShare d)
        ∗ (∃ f : Buf (Elt F) ((c : Thread nD τ).loc cc5_scratch0), ((c : Thread nD τ).loc cc5_scratch0) ↦{fullShare} f)
        ∗ Pipeline.ownSems0 (Ix := Unit) (Name := ℕ) (U := UD sig nD τ) (Lvl := ℕ) (Val := Elt F) (τ := τ) osem5 c
        ∗ (((c : Thread nD τ).loc main_v21) ↦{fullShare} a1.1 0)
        ∗ (((c : Thread nD τ).loc main_v3) ↦{fullShare} V c main_v3)
        ∗ owes (c : Thread nD τ) (0 : CellTallies nD τ sig Unit) W
        ∗ (iprop(owns (c : Thread nD τ) (stg5 a1 0 t) fullShare (iblk5 V a1 c 0 t)
            ∗ owns (c : Thread nD τ) (stg5 a1 1 t) fullShare (O c t)
            ∗ (∃ f : Buf (Elt F) ((c : Thread nD τ).loc cc5_scratch0), ((c : Thread nD τ).loc cc5_scratch0) ↦{fullShare} f)
            ∗ Pipeline.ownSems0 (Ix := Unit) (Name := ℕ) (U := UD sig nD τ) (Lvl := ℕ) (Val := Elt F) (τ := τ) osem5 c
            ∗ (((c : Thread nD τ).loc main_v21) ↦{fullShare} a1.1 0)
            ∗ (((c : Thread nD τ).loc main_v3) ↦{fullShare} V c main_v3)
            ∗ (∃ W', owes (c : Thread nD τ) (0 : CellTallies nD τ sig Unit) W')) -∗ K ⟨⟩))
      ⊢ wp frame (wpE (defs₀ (F := F)) Variants.none c none) Set.univ (bodyProg5 a1 t) K

/-- What the body is called with at point t, the windows one by one, -/
def bodyPre5 (c : Dev nD) (t : Fin (cfg5 a1).N) : sProp 𝕄 :=
  iprop((dat5 V a1 O c).Φ t.castSucc ∗ (dat5 V a1 O c).owesAt () t.castSucc
    ∗ (∃ d, owns (c : Thread nD τ) (stg5 a1 0 t) fullShare ((dat5 V a1 O c).before 0 t d))
    ∗ (∃ d, owns (c : Thread nD τ) (stg5 a1 1 t) fullShare ((dat5 V a1 O c).before 1 t d)))

/-- and what it returns. -/
def bodyPost5 (c : Dev nD) (t : Fin (cfg5 a1).N) : sProp 𝕄 :=
  iprop((dat5 V a1 O c).Φ t.succ ∗ (dat5 V a1 O c).owesAt () t.succ
    ∗ owns (c : Thread nD τ) (stg5 a1 0 t) fullShare ((dat5 V a1 O c).after 0 t)
    ∗ owns (c : Thread nD τ) (stg5 a1 1 t) fullShare ((dat5 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body5 (hrun : BodyRun5 V a1 O) (c : Dev nD) (t : Fin (cfg5 a1).N) :
    bodyPre5 V a1 O c t
      ⊢ wp frame (wpE (defs₀ (F := F)) Variants.none c none) Set.univ (bodyProg5 a1 t) (fun _ => bodyPost5 V a1 O c t) := by
  unfold bodyPre5 bodyPost5
  simp only [beforeIn5]
  rw [afterIn5, afterOut5, Phi_eq5, Phi_eq5, PhiD_eq5, prefHeld_eq5]
  unfold Dat.owesAt Pipeline.owesWithin
  rw [owed_eq5, owed_eq5]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation5 (hrun : BodyRun5 V a1 O) (c : Dev nD) :
    BodyObligation (dat5 (F := F) V a1 O c) (defs₀ (F := F)) Variants.none () Set.univ := fun t => by
  rw [bigSep_W5, bigSep_W5]
  exact sound_body5 V a1 O hrun c t

end Data

/-! ## The region's record -/

section Record

variable (Win : Dev nD → Valuation τ sig (Elt F))

variable (a1 : (pcfg5 (F := F)).Adm)
  (O : (c : Dev nD) → Fin (cfg5 a1).N → Vec F S8x64 .f32)

/-- The buffers at the region's exit: its arrays at what the write-backs leave, every other buffer as entered. -/
def Wout5 (c : Dev nD) : Valuation τ sig (Elt F) :=
  Pipeline.withArrays spec5 c (Win c) fun w => (dat5 (Vof Win) a1 O c).arrAt w (cfg5 a1).N

theorem Wout5_arr (c : Dev nD) (w : Fin (cfg5 a1).W) :
    Wout5 Win a1 O c (Proc.devRef .tc (Pipeline.arrRef spec5 w)) = (dat5 (Vof Win) a1 O c).arrAt w (cfg5 a1).N := by
  unfold Wout5; exact Pipeline.withArrays_arr spec5 winFacts5.arr_inj c _ _ w

theorem Wout5_of_ne (c : Dev nD) (b : Ref sig .tc) (hb : ∀ w, Pipeline.arrRef spec5 w ≠ b) :
    Wout5 Win a1 O c (Proc.devRef .tc b) = Win c (Proc.devRef .tc b) := by
  unfold Wout5; exact Pipeline.withArrays_of_ne spec5 c _ _ b hb

/-- ENTRY, the buffers' part. Every unscoped buffer at Win is: the region's arrays at the proof data's entry contents,
    the table whole at the admissible contents (which are Win's there), the far operand whole, and the others. -/
theorem entry5 (c : Dev nD) (ha1 : ∀ k, Vof Win c (pre5.ref k) = a1.1 k) :
    (StableHlo.held (c : Thread nD τ) (Pipeline.ucRefs τ sig) (Win c) : sProp 𝕄)
      ⊢ iprop((dat5 (Vof Win) a1 O c).arrays ((dat5 (Vof Win) a1 O c).arrAt · 0)
          ∗ Pipeline.prefHeld pre5 c (fun _ => fullShare) a1.1
          ∗ (bigSep ({main_v3} : Finset (Ref sig .tc)) fun b => (((c : Thread nD τ)).loc b) ↦{fullShare} Vof Win c b)
          ∗ bigSep (Pipeline.restRefsP sig pre5 spec5 \ {main_v3}) fun b => (((c : Thread nD τ)).loc b) ↦{fullShare} Vof Win c b) := by
  have hsplit := Pipeline.arrays_of_unscopedBufs (p := ()) (fun (_ : Unit) => pcfg5 (F := F)) (fun _ => a1)
    (fun _ c => dat5 (Vof Win) a1 O c) winFacts5 (launch5 (F := F)).arr_whole c
    ((dat5 (Vof Win) a1 O c).share_full fun _ => rfl) (Vof Win c) (fun w => A_eq5 (Vof Win) a1 O c w)
  rw [Pipeline.unscopedBufs_held,
    Pipeline.unscopedRest_split (Ix := Unit) (Name := ℕ) (U := UD sig nD τ) (Lvl := ℕ) preFacts5 c (Vof Win c),
    Pipeline.unscopedRestP_sdiff pre5 spec5 {main_v3} hx_sub5 c (Vof Win c),
    show (fun k => Vof Win c (pre5.ref k)) = a1.1 from funext ha1] at hsplit
  exact hsplit

/-- EXIT, the buffers' part: the same four put back, the arrays at what the write-backs leave, are every unscoped
    buffer at the exit valuation. -/
theorem exit5 (c : Dev nD) (ha1 : ∀ k, Vof Win c (pre5.ref k) = a1.1 k) :
    iprop((dat5 (Vof Win) a1 O c).arrays ((dat5 (Vof Win) a1 O c).arrAt · (cfg5 a1).N)
        ∗ Pipeline.prefHeld pre5 c (fun _ => fullShare) a1.1
        ∗ (bigSep ({main_v3} : Finset (Ref sig .tc)) fun b => (((c : Thread nD τ)).loc b) ↦{fullShare} Vof Win c b)
        ∗ bigSep (Pipeline.restRefsP sig pre5 spec5 \ {main_v3}) fun b => (((c : Thread nD τ)).loc b) ↦{fullShare} Vof Win c b)
      ⊢ (StableHlo.held (c : Thread nD τ) (Pipeline.ucRefs τ sig) (Wout5 Win a1 O c) : sProp 𝕄) := by
  have hjoin := Pipeline.unscopedBufs_of_arrays (p := ()) (fun (_ : Unit) => pcfg5 (F := F)) (fun _ => a1)
    (Ix := Unit) (Name := ℕ) (U := UD sig nD τ) (Lvl := ℕ)
    winFacts5 (launch5 (F := F)).arr_whole c (fun _ c => dat5 (Vof Win) a1 O c)
    ((dat5 (Vof Win) a1 O c).share_full fun _ => rfl)
    (Vof Win c) (Vof (Wout5 Win a1 O) c) ((dat5 (Vof Win) a1 O c).arrAt · (cfg5 a1).N)
    (fun w => (Wout5_arr Win a1 O c w).symm)
    (fun b hb => Wout5_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts5 c (Vof Win c),
    Pipeline.unscopedRestP_sdiff pre5 spec5 {main_v3} hx_sub5 c (Vof Win c),
    show (fun k => Vof Win c (pre5.ref k)) = a1.1 from funext ha1] at hjoin
  exact hjoin

end Record

section Seg

variable (Win : Dev nD → Valuation τ sig (Elt F))
  (adm : (p : Fin 49) → (pcfgs (F := F) p).Adm)
  (O : (c : Dev nD) → Fin (cfg5 (adm (5 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout5. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg5 (hd : ∀ c, pdats (5 : Fin 49) c = dat5 (Vof Win) (adm (5 : Fin 49)) O c)
    (ha1 : ∀ c k, Vof Win c (pre5.ref k) = (adm (5 : Fin 49)).1 k)
    (hbody : ∀ c, BodyObligation (dat5 (F := F) (Vof Win) (adm (5 : Fin 49)) O c) (defs₀ (F := F)) 𝒱₀ () Set.univ) :
    Pipeline.RegionSeg (pcfgs (F := F)) adm pdats () defs₀ 𝒱₀ L lv (5 : Fin 49) where
  win := (launch5 (F := F)).win.to₀
  block_pos := (launch5 (F := F)).block_pos
  stage_whole := (launch5 (F := F)).stage_whole
  K := Fin 8
  osem := osem5
  ho := ownSemFacts5
  hbody c := by rw [hd c]; exact (hbody c).loose
  hwaits := Pipeline.hwaits_of_owed_zero _ _ _ _ L lv (5 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout5 Win (adm (5 : Fin 49)) O c) ∗ R c)
  X c := iprop((∃ r, prngReg c r)
    ∗ Pipeline.ownSems0 (Ix := Unit) (Name := ℕ) (U := UD sig nD τ) (Lvl := ℕ) (Val := Elt F) (τ := τ) osem5 c
    ∗ (bigSep ({main_v3} : Finset (Ref sig .tc)) fun b => (((c : Thread nD τ)).loc b) ↦{fullShare} Vof Win c b))
  Y c := iprop((∃ r, prngReg c r)
    ∗ (bigSep ({main_v3} : Finset (Ref sig .tc)) fun b => (((c : Thread nD τ)).loc b) ↦{fullShare} Vof Win c b)
    ∗ Pipeline.prefHeld pre5 c (fun _ => fullShare) (adm (5 : Fin 49)).1)
  Z c := bigSep (Pipeline.restRefsP sig pre5 spec5 \ {main_v3}) fun b => (((c : Thread nD τ)).loc b) ↦{fullShare} Vof Win c b
  hentry c := by
    rw [hd c]
    iintro ⟨⟨Hub, Hp, HO⟩, Hos, -⟩
    ihave H := (entry5 Win (adm (5 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq5, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq5, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit5 Win (adm (5 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg5 (F := F)).Adm)

/-- The output block at point t: the gathered rows (of the far operand's contents under V, chosen by the table's
    words at that point) times the input block. -/
def outBlk5 (c : Dev nD) (t : Fin (cfg5 a1).N) : Vec F S8x64 .f32 :=
  gatherOut (gatherG (a1.1 0) (V c main_v3) (grid5.coords t)) (iblk5 V a1 c 0 t)

theorem outBlk_eq5 (c : Dev nD) (t : Fin (cfg5 a1).N) :
    outBlk5 V a1 c t = gatherOut (gatherG (a1.1 0) (V c main_v3) (grid5.coords t)) (iblk5 V a1 c 0 t) := rfl

/-- The proof data with the output block named: after the body at point t the output window's buffer holds it. -/
theorem afterOutBlk5 (c : Dev nD) (t : Fin (cfg5 a1).N) :
    (dat5 V a1 (outBlk5 V a1) c).after 1 t
      = gatherOut (gatherG (a1.1 0) (V c main_v3) (grid5.coords t)) (iblk5 V a1 c 0 t) :=
  afterOut5 V a1 (outBlk5 V a1) c t

/-- The own cells at zero are the semaphore array's eight entries at zero, in order. -/
theorem ownSems_eq5 (c : Dev nD) :
    (Pipeline.ownSems0 (Ix := Unit) (Name := ℕ) (U := UD sig nD τ) (Lvl := ℕ) (Val := Elt F) (τ := τ) osem5 c : sProp 𝕄)
      = gsems0 c cc5_scratch1 := by
  rw [Pipeline.ownSems0_eq_of_list c osem5 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq5 (t : Fin (cfg5 a1).N) : ∃ h3 h4, bodyProg5 (F := F) a1 t
    = cc5__gather_mul_kernel (grid5.coords t) (Memref.whole main_v21) (Memref.isWhole_whole _) (Memref.whole main_v3) (Memref.isWhole_whole _)
        (stg5 a1 0 t) h3 (stg5 a1 1 t) h4 (Memref.whole cc5_scratch0) (Memref.isWhole_whole _) cc5_scratch1 := ⟨_, _, rfl⟩

end Out

/-! ## The body's run, joined to the proof data -/

section Body

variable (V : (c : Dev nD) → (b : Ref sig .tc) → Buf (Elt F) ((c : Thread nD τ).loc b))
  (a1 : (pcfg5 (F := F)).Adm)

/-- The scratch buffer whole at some contents, as a memref owned at some contents. -/
theorem scratchOwns_eq5 (c : Dev nD) :
    (iprop(∃ d, owns (c : Thread nD τ) (Memref.whole cc5_scratch0) fullShare d) : sProp 𝕄)
      = iprop(∃ f : Buf (Elt F) ((c : Thread nD τ).loc cc5_scratch0), ((c : Thread nD τ).loc cc5_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun5 (hlt : ∀ y, BitVec.toNat ((a1.1 0) y) < 100000) : BodyRun5 V a1 (outBlk5 V a1) := by
  intro c t W K
  obtain ⟨h3, h4, hprog⟩ := bodyProg_eq5 (F := F) a1 t
  rw [hprog, ownSems_eq5, ← scratchOwns_eq5 (F := F) c]
  have hrun := gather_kernel_run_5 (F := F) c (grid5.coords t) (Memref.whole main_v21) (Memref.isWhole_whole _) (Memref.whole main_v3) (Memref.isWhole_whole _)
    (stg5 a1 0 t) h3 (stg5 a1 1 t) h4 (Memref.whole cc5_scratch0) (Memref.isWhole_whole _) cc5_scratch1 fullShare fullShare
    (a1.1 0) (V c main_v3) (iblk5 V a1 c 0 t) (fun y => hlt y) W K
  simp only [Memref.view_whole, View.read_whole] at hrun
  unfold outBlk5
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut5 (hlt : ∀ y, BitVec.toNat ((a1.1 0) y) < 100000) (c : Dev nD) :
    BodyObligation (dat5 (F := F) V a1 (outBlk5 V a1) c) (defs₀ (F := F)) Variants.none () Set.univ :=
  body_obligation5 V a1 (outBlk5 V a1) (bodyRun5 V a1 hlt) c

end Body

/-! # Region 6 -/

/-! ## The body's own transfer cells -/

/-- The eight cells of the body's semaphore array, in order. -/
abbrev osem6 : Fin 8 → SemLoc sig := fun j => SemLoc.dma (cc6_scratch1.ix (fun | ⟨0, _⟩ => j))

/-- They are scoped, pairwise distinct, and none is a staging cell of a window. -/
theorem ownSemFacts6 : Pipeline.OwnSemFacts spec6 osem6 := by decide

/-- The far operand is an unscoped buffer that is neither a window's array nor a table. -/
theorem hx_sub6 : ({main_v3} : Finset (Ref sig .tc)) ⊆ Pipeline.restRefsP sig pre6 spec6 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg6 (F := F)).Adm)
  (O : (c : Dev nD) → Fin (cfg6 a1).N → Vec F S8x64 .f32)

/-! ## The windows' blocks -/

/-- Window w's block at point t, read off its array under V. -/
def iblk6 (c : Dev nD) (w : Fin (cfg6 a1).W) (t : Fin (cfg6 a1).N) :
    (((cfg6 a1).win w).xblock ((cfg6 a1).grid.coords t)).Idx → Elt F ((cfg6 a1).win w).elt :=
  (((cfg6 a1).win w).blk t).view.read (Elt F) (V c (Pipeline.arrRef spec6 w))

/-- The input window's current staging buffer holds its block at every point, fetched there or not, for any proof
    data whose array is V's and whose body leaves the block in place: unfetched, the block index has not moved. -/
theorem beforeIn6_of {c : Dev nD} (dat : Dat τ (Elt F) Unit ℕ (UD sig nD τ) ℕ (cfg6 a1) c)
    (hA : dat.A 0 = V c (Pipeline.arrRef spec6 0))
    (hafter : ∀ t, dat.after 0 t = iblk6 V a1 c 0 t) (t : Fin (cfg6 a1).N) (d) : dat.before 0 t d = iblk6 V a1 c 0 t :=
  (dat.before_in_eq_fetched 0 rfl (fun _ => rfl) (fun _ _ _ => rfl)
    (fun t => by rw [hafter]; unfold Dat.blockOf iblk6; rw [hA]; try rfl) t d).trans
    (by unfold Dat.fetched Dat.blockOf iblk6; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat6 (c : Dev nD) : Dat τ (Elt F) Unit ℕ (UD sig nD τ) ℕ (cfg6 a1) c where
  A w := V c (Pipeline.arrRef spec6 w)
  after w t := match w with
    | ⟨0, _⟩ => iblk6 V a1 c 0 t
    | ⟨1, _⟩ => O c t
  Φ _ := iprop(Pipeline.ΦD osem6 spec6 {main_v3} V c ∗ Pipeline.prefHeld pre6 c (fun _ => fullShare) a1.1)
  q _ := fullShare
  owed _ := 0

theorem A_eq6 (c : Dev nD) (w : Fin (cfg6 a1).W) : (dat6 V a1 O c).A w = V c (Pipeline.arrRef spec6 w) := by
  dsimp only [dat6]

theorem afterIn6 (c : Dev nD) (t : Fin (cfg6 a1).N) : (dat6 V a1 O c).after 0 t = iblk6 V a1 c 0 t := by
  dsimp only [dat6]; rfl

theorem afterOut6 (c : Dev nD) (t : Fin (cfg6 a1).N) :
    (dat6 V a1 O c).after 1 t = O c t := by
  dsimp only [dat6]; rfl

theorem beforeIn6 (c : Dev nD) (t : Fin (cfg6 a1).N) (d) : (dat6 V a1 O c).before 0 t d = iblk6 V a1 c 0 t :=
  beforeIn6_of V a1 (dat6 V a1 O c) (A_eq6 V a1 O c 0) (afterIn6 V a1 O c) t d

theorem Phi_eq6 (c : Dev nD) (t : Fin ((cfg6 a1).N + 1)) :
    (dat6 V a1 O c).Φ t
      = iprop(Pipeline.ΦD osem6 spec6 {main_v3} V c ∗ Pipeline.prefHeld pre6 c (fun _ => fullShare) a1.1) := by
  dsimp only [dat6]

theorem owed_eq6 (c : Dev nD) (t : Fin ((cfg6 a1).N + 1)) : (dat6 V a1 O c).owed t = 0 := by
  dsimp only [dat6]

/-! ## The invariant, conjunct by conjunct -/

/-- The invariant's first part opened: the body's scratch buffer whole at some contents and the other scoped
    buffers no window stages, the generator register, the own cells at zero, the far operand at its contents. -/
theorem PhiD_eq6 (c : Dev nD) :
    (Pipeline.ΦD osem6 spec6 {main_v3} V c : sProp 𝕄)
      = iprop(iprop(iprop((∃ f : Buf (Elt F) ((c : Thread nD τ).loc cc6_scratch0), ((c : Thread nD τ).loc cc6_scratch0) ↦{fullShare} f))
            ∗ Pipeline.scopedRestBut (Ix := Unit) (Name := ℕ) (U := UD sig nD τ) (Lvl := ℕ) (Val := Elt F) spec6 c [cc6_scratch0])
          ∗ (∃ r, prngReg c r)
          ∗ Pipeline.ownSems0 (Ix := Unit) (Name := ℕ) (U := UD sig nD τ) (Lvl := ℕ) (Val := Elt F) (τ := τ) osem6 c
          ∗ (((c : Thread nD τ).loc main_v3) ↦{fullShare} V c main_v3)) := by
  rw [Pipeline.ΦD_eq, scopedRest6_split, BI.bigSep_eq_bigSepL_of_eq [main_v3] (by decide) (by decide)]; rfl

/-- The one table, held whole. -/
theorem prefHeld_eq6 (c : Dev nD) :
    (Pipeline.prefHeld pre6 c (fun _ => fullShare) a1.1 : sProp 𝕄)
      = (((c : Thread nD τ).loc main_v25) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg6 (w : Fin (cfg6 a1).W) (t : Fin (cfg6 a1).N) := ((cfg6 a1).win w).stage ((cfg6 a1).slots t w)

/-- The body as the pipeline calls it at point t. -/
abbrev bodyProg6 (t : Fin (cfg6 a1).N) : Prog (TpuEff nD τ sig (Elt F) Λ₀ .tc) PUnit :=
  (defs₀ (F := F)) .tc (cfg6 a1).body ((cfg6 a1).bodyArgs t ((cfg6 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun6 : Prop :=
  ∀ (c : Dev nD) (t : Fin (cfg6 a1).N) (W) (K : PUnit → sProp 𝕄),
    iprop(owns (c : Thread nD τ) (stg6 a1 0 t) fullShare (iblk6 V a1 c 0 t)
        ∗ (∃ d, owns (c : Thread nD τ) (stg6 a1 1 t) fullShare d)
        ∗ (∃ f : Buf (Elt F) ((c : Thread nD τ).loc cc6_scratch0), ((c : Thread nD τ).loc cc6_scratch0) ↦{fullShare} f)
        ∗ Pipeline.ownSems0 (Ix := Unit) (Name := ℕ) (U := UD sig nD τ) (Lvl := ℕ) (Val := Elt F) (τ := τ) osem6 c
        ∗ (((c : Thread nD τ).loc main_v25) ↦{fullShare} a1.1 0)
        ∗ (((c : Thread nD τ).loc main_v3) ↦{fullShare} V c main_v3)
        ∗ owes (c : Thread nD τ) (0 : CellTallies nD τ sig Unit) W
        ∗ (iprop(owns (c : Thread nD τ) (stg6 a1 0 t) fullShare (iblk6 V a1 c 0 t)
            ∗ owns (c : Thread nD τ) (stg6 a1 1 t) fullShare (O c t)
            ∗ (∃ f : Buf (Elt F) ((c : Thread nD τ).loc cc6_scratch0), ((c : Thread nD τ).loc cc6_scratch0) ↦{fullShare} f)
            ∗ Pipeline.ownSems0 (Ix := Unit) (Name := ℕ) (U := UD sig nD τ) (Lvl := ℕ) (Val := Elt F) (τ := τ) osem6 c
            ∗ (((c : Thread nD τ).loc main_v25) ↦{fullShare} a1.1 0)
            ∗ (((c : Thread nD τ).loc main_v3) ↦{fullShare} V c main_v3)
            ∗ (∃ W', owes (c : Thread nD τ) (0 : CellTallies nD τ sig Unit) W')) -∗ K ⟨⟩))
      ⊢ wp frame (wpE (defs₀ (F := F)) Variants.none c none) Set.univ (bodyProg6 a1 t) K

/-- What the body is called with at point t, the windows one by one, -/
def bodyPre6 (c : Dev nD) (t : Fin (cfg6 a1).N) : sProp 𝕄 :=
  iprop((dat6 V a1 O c).Φ t.castSucc ∗ (dat6 V a1 O c).owesAt () t.castSucc
    ∗ (∃ d, owns (c : Thread nD τ) (stg6 a1 0 t) fullShare ((dat6 V a1 O c).before 0 t d))
    ∗ (∃ d, owns (c : Thread nD τ) (stg6 a1 1 t) fullShare ((dat6 V a1 O c).before 1 t d)))

/-- and what it returns. -/
def bodyPost6 (c : Dev nD) (t : Fin (cfg6 a1).N) : sProp 𝕄 :=
  iprop((dat6 V a1 O c).Φ t.succ ∗ (dat6 V a1 O c).owesAt () t.succ
    ∗ owns (c : Thread nD τ) (stg6 a1 0 t) fullShare ((dat6 V a1 O c).after 0 t)
    ∗ owns (c : Thread nD τ) (stg6 a1 1 t) fullShare ((dat6 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body6 (hrun : BodyRun6 V a1 O) (c : Dev nD) (t : Fin (cfg6 a1).N) :
    bodyPre6 V a1 O c t
      ⊢ wp frame (wpE (defs₀ (F := F)) Variants.none c none) Set.univ (bodyProg6 a1 t) (fun _ => bodyPost6 V a1 O c t) := by
  unfold bodyPre6 bodyPost6
  simp only [beforeIn6]
  rw [afterIn6, afterOut6, Phi_eq6, Phi_eq6, PhiD_eq6, prefHeld_eq6]
  unfold Dat.owesAt Pipeline.owesWithin
  rw [owed_eq6, owed_eq6]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation6 (hrun : BodyRun6 V a1 O) (c : Dev nD) :
    BodyObligation (dat6 (F := F) V a1 O c) (defs₀ (F := F)) Variants.none () Set.univ := fun t => by
  rw [bigSep_W6, bigSep_W6]
  exact sound_body6 V a1 O hrun c t

end Data

/-! ## The region's record -/

section Record

variable (Win : Dev nD → Valuation τ sig (Elt F))

variable (a1 : (pcfg6 (F := F)).Adm)
  (O : (c : Dev nD) → Fin (cfg6 a1).N → Vec F S8x64 .f32)

/-- The buffers at the region's exit: its arrays at what the write-backs leave, every other buffer as entered. -/
def Wout6 (c : Dev nD) : Valuation τ sig (Elt F) :=
  Pipeline.withArrays spec6 c (Win c) fun w => (dat6 (Vof Win) a1 O c).arrAt w (cfg6 a1).N

theorem Wout6_arr (c : Dev nD) (w : Fin (cfg6 a1).W) :
    Wout6 Win a1 O c (Proc.devRef .tc (Pipeline.arrRef spec6 w)) = (dat6 (Vof Win) a1 O c).arrAt w (cfg6 a1).N := by
  unfold Wout6; exact Pipeline.withArrays_arr spec6 winFacts6.arr_inj c _ _ w

theorem Wout6_of_ne (c : Dev nD) (b : Ref sig .tc) (hb : ∀ w, Pipeline.arrRef spec6 w ≠ b) :
    Wout6 Win a1 O c (Proc.devRef .tc b) = Win c (Proc.devRef .tc b) := by
  unfold Wout6; exact Pipeline.withArrays_of_ne spec6 c _ _ b hb

/-- ENTRY, the buffers' part. Every unscoped buffer at Win is: the region's arrays at the proof data's entry contents,
    the table whole at the admissible contents (which are Win's there), the far operand whole, and the others. -/
theorem entry6 (c : Dev nD) (ha1 : ∀ k, Vof Win c (pre6.ref k) = a1.1 k) :
    (StableHlo.held (c : Thread nD τ) (Pipeline.ucRefs τ sig) (Win c) : sProp 𝕄)
      ⊢ iprop((dat6 (Vof Win) a1 O c).arrays ((dat6 (Vof Win) a1 O c).arrAt · 0)
          ∗ Pipeline.prefHeld pre6 c (fun _ => fullShare) a1.1
          ∗ (bigSep ({main_v3} : Finset (Ref sig .tc)) fun b => (((c : Thread nD τ)).loc b) ↦{fullShare} Vof Win c b)
          ∗ bigSep (Pipeline.restRefsP sig pre6 spec6 \ {main_v3}) fun b => (((c : Thread nD τ)).loc b) ↦{fullShare} Vof Win c b) := by
  have hsplit := Pipeline.arrays_of_unscopedBufs (p := ()) (fun (_ : Unit) => pcfg6 (F := F)) (fun _ => a1)
    (fun _ c => dat6 (Vof Win) a1 O c) winFacts6 (launch6 (F := F)).arr_whole c
    ((dat6 (Vof Win) a1 O c).share_full fun _ => rfl) (Vof Win c) (fun w => A_eq6 (Vof Win) a1 O c w)
  rw [Pipeline.unscopedBufs_held,
    Pipeline.unscopedRest_split (Ix := Unit) (Name := ℕ) (U := UD sig nD τ) (Lvl := ℕ) preFacts6 c (Vof Win c),
    Pipeline.unscopedRestP_sdiff pre6 spec6 {main_v3} hx_sub6 c (Vof Win c),
    show (fun k => Vof Win c (pre6.ref k)) = a1.1 from funext ha1] at hsplit
  exact hsplit

/-- EXIT, the buffers' part: the same four put back, the arrays at what the write-backs leave, are every unscoped
    buffer at the exit valuation. -/
theorem exit6 (c : Dev nD) (ha1 : ∀ k, Vof Win c (pre6.ref k) = a1.1 k) :
    iprop((dat6 (Vof Win) a1 O c).arrays ((dat6 (Vof Win) a1 O c).arrAt · (cfg6 a1).N)
        ∗ Pipeline.prefHeld pre6 c (fun _ => fullShare) a1.1
        ∗ (bigSep ({main_v3} : Finset (Ref sig .tc)) fun b => (((c : Thread nD τ)).loc b) ↦{fullShare} Vof Win c b)
        ∗ bigSep (Pipeline.restRefsP sig pre6 spec6 \ {main_v3}) fun b => (((c : Thread nD τ)).loc b) ↦{fullShare} Vof Win c b)
      ⊢ (StableHlo.held (c : Thread nD τ) (Pipeline.ucRefs τ sig) (Wout6 Win a1 O c) : sProp 𝕄) := by
  have hjoin := Pipeline.unscopedBufs_of_arrays (p := ()) (fun (_ : Unit) => pcfg6 (F := F)) (fun _ => a1)
    (Ix := Unit) (Name := ℕ) (U := UD sig nD τ) (Lvl := ℕ)
    winFacts6 (launch6 (F := F)).arr_whole c (fun _ c => dat6 (Vof Win) a1 O c)
    ((dat6 (Vof Win) a1 O c).share_full fun _ => rfl)
    (Vof Win c) (Vof (Wout6 Win a1 O) c) ((dat6 (Vof Win) a1 O c).arrAt · (cfg6 a1).N)
    (fun w => (Wout6_arr Win a1 O c w).symm)
    (fun b hb => Wout6_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts6 c (Vof Win c),
    Pipeline.unscopedRestP_sdiff pre6 spec6 {main_v3} hx_sub6 c (Vof Win c),
    show (fun k => Vof Win c (pre6.ref k)) = a1.1 from funext ha1] at hjoin
  exact hjoin

end Record

section Seg

variable (Win : Dev nD → Valuation τ sig (Elt F))
  (adm : (p : Fin 49) → (pcfgs (F := F) p).Adm)
  (O : (c : Dev nD) → Fin (cfg6 (adm (6 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout6. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg6 (hd : ∀ c, pdats (6 : Fin 49) c = dat6 (Vof Win) (adm (6 : Fin 49)) O c)
    (ha1 : ∀ c k, Vof Win c (pre6.ref k) = (adm (6 : Fin 49)).1 k)
    (hbody : ∀ c, BodyObligation (dat6 (F := F) (Vof Win) (adm (6 : Fin 49)) O c) (defs₀ (F := F)) 𝒱₀ () Set.univ) :
    Pipeline.RegionSeg (pcfgs (F := F)) adm pdats () defs₀ 𝒱₀ L lv (6 : Fin 49) where
  win := (launch6 (F := F)).win.to₀
  block_pos := (launch6 (F := F)).block_pos
  stage_whole := (launch6 (F := F)).stage_whole
  K := Fin 8
  osem := osem6
  ho := ownSemFacts6
  hbody c := by rw [hd c]; exact (hbody c).loose
  hwaits := Pipeline.hwaits_of_owed_zero _ _ _ _ L lv (6 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout6 Win (adm (6 : Fin 49)) O c) ∗ R c)
  X c := iprop((∃ r, prngReg c r)
    ∗ Pipeline.ownSems0 (Ix := Unit) (Name := ℕ) (U := UD sig nD τ) (Lvl := ℕ) (Val := Elt F) (τ := τ) osem6 c
    ∗ (bigSep ({main_v3} : Finset (Ref sig .tc)) fun b => (((c : Thread nD τ)).loc b) ↦{fullShare} Vof Win c b))
  Y c := iprop((∃ r, prngReg c r)
    ∗ (bigSep ({main_v3} : Finset (Ref sig .tc)) fun b => (((c : Thread nD τ)).loc b) ↦{fullShare} Vof Win c b)
    ∗ Pipeline.prefHeld pre6 c (fun _ => fullShare) (adm (6 : Fin 49)).1)
  Z c := bigSep (Pipeline.restRefsP sig pre6 spec6 \ {main_v3}) fun b => (((c : Thread nD τ)).loc b) ↦{fullShare} Vof Win c b
  hentry c := by
    rw [hd c]
    iintro ⟨⟨Hub, Hp, HO⟩, Hos, -⟩
    ihave H := (entry6 Win (adm (6 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq6, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq6, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit6 Win (adm (6 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg6 (F := F)).Adm)

/-- The output block at point t: the gathered rows (of the far operand's contents under V, chosen by the table's
    words at that point) times the input block. -/
def outBlk6 (c : Dev nD) (t : Fin (cfg6 a1).N) : Vec F S8x64 .f32 :=
  gatherOut (gatherG (a1.1 0) (V c main_v3) (grid6.coords t)) (iblk6 V a1 c 0 t)

theorem outBlk_eq6 (c : Dev nD) (t : Fin (cfg6 a1).N) :
    outBlk6 V a1 c t = gatherOut (gatherG (a1.1 0) (V c main_v3) (grid6.coords t)) (iblk6 V a1 c 0 t) := rfl

/-- The proof data with the output block named: after the body at point t the output window's buffer holds it. -/
theorem afterOutBlk6 (c : Dev nD) (t : Fin (cfg6 a1).N) :
    (dat6 V a1 (outBlk6 V a1) c).after 1 t
      = gatherOut (gatherG (a1.1 0) (V c main_v3) (grid6.coords t)) (iblk6 V a1 c 0 t) :=
  afterOut6 V a1 (outBlk6 V a1) c t

/-- The own cells at zero are the semaphore array's eight entries at zero, in order. -/
theorem ownSems_eq6 (c : Dev nD) :
    (Pipeline.ownSems0 (Ix := Unit) (Name := ℕ) (U := UD sig nD τ) (Lvl := ℕ) (Val := Elt F) (τ := τ) osem6 c : sProp 𝕄)
      = gsems0 c cc6_scratch1 := by
  rw [Pipeline.ownSems0_eq_of_list c osem6 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq6 (t : Fin (cfg6 a1).N) : ∃ h3 h4, bodyProg6 (F := F) a1 t
    = cc6__gather_mul_kernel (grid6.coords t) (Memref.whole main_v25) (Memref.isWhole_whole _) (Memref.whole main_v3) (Memref.isWhole_whole _)
        (stg6 a1 0 t) h3 (stg6 a1 1 t) h4 (Memref.whole cc6_scratch0) (Memref.isWhole_whole _) cc6_scratch1 := ⟨_, _, rfl⟩

end Out

/-! ## The body's run, joined to the proof data -/

section Body

variable (V : (c : Dev nD) → (b : Ref sig .tc) → Buf (Elt F) ((c : Thread nD τ).loc b))
  (a1 : (pcfg6 (F := F)).Adm)

/-- The scratch buffer whole at some contents, as a memref owned at some contents. -/
theorem scratchOwns_eq6 (c : Dev nD) :
    (iprop(∃ d, owns (c : Thread nD τ) (Memref.whole cc6_scratch0) fullShare d) : sProp 𝕄)
      = iprop(∃ f : Buf (Elt F) ((c : Thread nD τ).loc cc6_scratch0), ((c : Thread nD τ).loc cc6_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun6 (hlt : ∀ y, BitVec.toNat ((a1.1 0) y) < 100000) : BodyRun6 V a1 (outBlk6 V a1) := by
  intro c t W K
  obtain ⟨h3, h4, hprog⟩ := bodyProg_eq6 (F := F) a1 t
  rw [hprog, ownSems_eq6, ← scratchOwns_eq6 (F := F) c]
  have hrun := gather_kernel_run_6 (F := F) c (grid6.coords t) (Memref.whole main_v25) (Memref.isWhole_whole _) (Memref.whole main_v3) (Memref.isWhole_whole _)
    (stg6 a1 0 t) h3 (stg6 a1 1 t) h4 (Memref.whole cc6_scratch0) (Memref.isWhole_whole _) cc6_scratch1 fullShare fullShare
    (a1.1 0) (V c main_v3) (iblk6 V a1 c 0 t) (fun y => hlt y) W K
  simp only [Memref.view_whole, View.read_whole] at hrun
  unfold outBlk6
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut6 (hlt : ∀ y, BitVec.toNat ((a1.1 0) y) < 100000) (c : Dev nD) :
    BodyObligation (dat6 (F := F) V a1 (outBlk6 V a1) c) (defs₀ (F := F)) Variants.none () Set.univ :=
  body_obligation6 V a1 (outBlk6 V a1) (bodyRun6 V a1 hlt) c

end Body

/-! # Region 7 -/

/-! ## The body's own transfer cells -/

/-- The eight cells of the body's semaphore array, in order. -/
abbrev osem7 : Fin 8 → SemLoc sig := fun j => SemLoc.dma (cc7_scratch1.ix (fun | ⟨0, _⟩ => j))

/-- They are scoped, pairwise distinct, and none is a staging cell of a window. -/
theorem ownSemFacts7 : Pipeline.OwnSemFacts spec7 osem7 := by decide

/-- The far operand is an unscoped buffer that is neither a window's array nor a table. -/
theorem hx_sub7 : ({main_v3} : Finset (Ref sig .tc)) ⊆ Pipeline.restRefsP sig pre7 spec7 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg7 (F := F)).Adm)
  (O : (c : Dev nD) → Fin (cfg7 a1).N → Vec F S8x64 .f32)

/-! ## The windows' blocks -/

/-- Window w's block at point t, read off its array under V. -/
def iblk7 (c : Dev nD) (w : Fin (cfg7 a1).W) (t : Fin (cfg7 a1).N) :
    (((cfg7 a1).win w).xblock ((cfg7 a1).grid.coords t)).Idx → Elt F ((cfg7 a1).win w).elt :=
  (((cfg7 a1).win w).blk t).view.read (Elt F) (V c (Pipeline.arrRef spec7 w))

/-- The input window's current staging buffer holds its block at every point, fetched there or not, for any proof
    data whose array is V's and whose body leaves the block in place: unfetched, the block index has not moved. -/
theorem beforeIn7_of {c : Dev nD} (dat : Dat τ (Elt F) Unit ℕ (UD sig nD τ) ℕ (cfg7 a1) c)
    (hA : dat.A 0 = V c (Pipeline.arrRef spec7 0))
    (hafter : ∀ t, dat.after 0 t = iblk7 V a1 c 0 t) (t : Fin (cfg7 a1).N) (d) : dat.before 0 t d = iblk7 V a1 c 0 t :=
  (dat.before_in_eq_fetched 0 rfl (fun _ => rfl) (fun _ _ _ => rfl)
    (fun t => by rw [hafter]; unfold Dat.blockOf iblk7; rw [hA]; try rfl) t d).trans
    (by unfold Dat.fetched Dat.blockOf iblk7; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat7 (c : Dev nD) : Dat τ (Elt F) Unit ℕ (UD sig nD τ) ℕ (cfg7 a1) c where
  A w := V c (Pipeline.arrRef spec7 w)
  after w t := match w with
    | ⟨0, _⟩ => iblk7 V a1 c 0 t
    | ⟨1, _⟩ => O c t
  Φ _ := iprop(Pipeline.ΦD osem7 spec7 {main_v3} V c ∗ Pipeline.prefHeld pre7 c (fun _ => fullShare) a1.1)
  q _ := fullShare
  owed _ := 0

theorem A_eq7 (c : Dev nD) (w : Fin (cfg7 a1).W) : (dat7 V a1 O c).A w = V c (Pipeline.arrRef spec7 w) := by
  dsimp only [dat7]

theorem afterIn7 (c : Dev nD) (t : Fin (cfg7 a1).N) : (dat7 V a1 O c).after 0 t = iblk7 V a1 c 0 t := by
  dsimp only [dat7]; rfl

theorem afterOut7 (c : Dev nD) (t : Fin (cfg7 a1).N) :
    (dat7 V a1 O c).after 1 t = O c t := by
  dsimp only [dat7]; rfl

theorem beforeIn7 (c : Dev nD) (t : Fin (cfg7 a1).N) (d) : (dat7 V a1 O c).before 0 t d = iblk7 V a1 c 0 t :=
  beforeIn7_of V a1 (dat7 V a1 O c) (A_eq7 V a1 O c 0) (afterIn7 V a1 O c) t d

theorem Phi_eq7 (c : Dev nD) (t : Fin ((cfg7 a1).N + 1)) :
    (dat7 V a1 O c).Φ t
      = iprop(Pipeline.ΦD osem7 spec7 {main_v3} V c ∗ Pipeline.prefHeld pre7 c (fun _ => fullShare) a1.1) := by
  dsimp only [dat7]

theorem owed_eq7 (c : Dev nD) (t : Fin ((cfg7 a1).N + 1)) : (dat7 V a1 O c).owed t = 0 := by
  dsimp only [dat7]

/-! ## The invariant, conjunct by conjunct -/

/-- The invariant's first part opened: the body's scratch buffer whole at some contents and the other scoped
    buffers no window stages, the generator register, the own cells at zero, the far operand at its contents. -/
theorem PhiD_eq7 (c : Dev nD) :
    (Pipeline.ΦD osem7 spec7 {main_v3} V c : sProp 𝕄)
      = iprop(iprop(iprop((∃ f : Buf (Elt F) ((c : Thread nD τ).loc cc7_scratch0), ((c : Thread nD τ).loc cc7_scratch0) ↦{fullShare} f))
            ∗ Pipeline.scopedRestBut (Ix := Unit) (Name := ℕ) (U := UD sig nD τ) (Lvl := ℕ) (Val := Elt F) spec7 c [cc7_scratch0])
          ∗ (∃ r, prngReg c r)
          ∗ Pipeline.ownSems0 (Ix := Unit) (Name := ℕ) (U := UD sig nD τ) (Lvl := ℕ) (Val := Elt F) (τ := τ) osem7 c
          ∗ (((c : Thread nD τ).loc main_v3) ↦{fullShare} V c main_v3)) := by
  rw [Pipeline.ΦD_eq, scopedRest7_split, BI.bigSep_eq_bigSepL_of_eq [main_v3] (by decide) (by decide)]; rfl

/-- The one table, held whole. -/
theorem prefHeld_eq7 (c : Dev nD) :
    (Pipeline.prefHeld pre7 c (fun _ => fullShare) a1.1 : sProp 𝕄)
      = (((c : Thread nD τ).loc main_v29) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg7 (w : Fin (cfg7 a1).W) (t : Fin (cfg7 a1).N) := ((cfg7 a1).win w).stage ((cfg7 a1).slots t w)

/-- The body as the pipeline calls it at point t. -/
abbrev bodyProg7 (t : Fin (cfg7 a1).N) : Prog (TpuEff nD τ sig (Elt F) Λ₀ .tc) PUnit :=
  (defs₀ (F := F)) .tc (cfg7 a1).body ((cfg7 a1).bodyArgs t ((cfg7 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun7 : Prop :=
  ∀ (c : Dev nD) (t : Fin (cfg7 a1).N) (W) (K : PUnit → sProp 𝕄),
    iprop(owns (c : Thread nD τ) (stg7 a1 0 t) fullShare (iblk7 V a1 c 0 t)
        ∗ (∃ d, owns (c : Thread nD τ) (stg7 a1 1 t) fullShare d)
        ∗ (∃ f : Buf (Elt F) ((c : Thread nD τ).loc cc7_scratch0), ((c : Thread nD τ).loc cc7_scratch0) ↦{fullShare} f)
        ∗ Pipeline.ownSems0 (Ix := Unit) (Name := ℕ) (U := UD sig nD τ) (Lvl := ℕ) (Val := Elt F) (τ := τ) osem7 c
        ∗ (((c : Thread nD τ).loc main_v29) ↦{fullShare} a1.1 0)
        ∗ (((c : Thread nD τ).loc main_v3) ↦{fullShare} V c main_v3)
        ∗ owes (c : Thread nD τ) (0 : CellTallies nD τ sig Unit) W
        ∗ (iprop(owns (c : Thread nD τ) (stg7 a1 0 t) fullShare (iblk7 V a1 c 0 t)
            ∗ owns (c : Thread nD τ) (stg7 a1 1 t) fullShare (O c t)
            ∗ (∃ f : Buf (Elt F) ((c : Thread nD τ).loc cc7_scratch0), ((c : Thread nD τ).loc cc7_scratch0) ↦{fullShare} f)
            ∗ Pipeline.ownSems0 (Ix := Unit) (Name := ℕ) (U := UD sig nD τ) (Lvl := ℕ) (Val := Elt F) (τ := τ) osem7 c
            ∗ (((c : Thread nD τ).loc main_v29) ↦{fullShare} a1.1 0)
            ∗ (((c : Thread nD τ).loc main_v3) ↦{fullShare} V c main_v3)
            ∗ (∃ W', owes (c : Thread nD τ) (0 : CellTallies nD τ sig Unit) W')) -∗ K ⟨⟩))
      ⊢ wp frame (wpE (defs₀ (F := F)) Variants.none c none) Set.univ (bodyProg7 a1 t) K

/-- What the body is called with at point t, the windows one by one, -/
def bodyPre7 (c : Dev nD) (t : Fin (cfg7 a1).N) : sProp 𝕄 :=
  iprop((dat7 V a1 O c).Φ t.castSucc ∗ (dat7 V a1 O c).owesAt () t.castSucc
    ∗ (∃ d, owns (c : Thread nD τ) (stg7 a1 0 t) fullShare ((dat7 V a1 O c).before 0 t d))
    ∗ (∃ d, owns (c : Thread nD τ) (stg7 a1 1 t) fullShare ((dat7 V a1 O c).before 1 t d)))

/-- and what it returns. -/
def bodyPost7 (c : Dev nD) (t : Fin (cfg7 a1).N) : sProp 𝕄 :=
  iprop((dat7 V a1 O c).Φ t.succ ∗ (dat7 V a1 O c).owesAt () t.succ
    ∗ owns (c : Thread nD τ) (stg7 a1 0 t) fullShare ((dat7 V a1 O c).after 0 t)
    ∗ owns (c : Thread nD τ) (stg7 a1 1 t) fullShare ((dat7 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body7 (hrun : BodyRun7 V a1 O) (c : Dev nD) (t : Fin (cfg7 a1).N) :
    bodyPre7 V a1 O c t
      ⊢ wp frame (wpE (defs₀ (F := F)) Variants.none c none) Set.univ (bodyProg7 a1 t) (fun _ => bodyPost7 V a1 O c t) := by
  unfold bodyPre7 bodyPost7
  simp only [beforeIn7]
  rw [afterIn7, afterOut7, Phi_eq7, Phi_eq7, PhiD_eq7, prefHeld_eq7]
  unfold Dat.owesAt Pipeline.owesWithin
  rw [owed_eq7, owed_eq7]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation7 (hrun : BodyRun7 V a1 O) (c : Dev nD) :
    BodyObligation (dat7 (F := F) V a1 O c) (defs₀ (F := F)) Variants.none () Set.univ := fun t => by
  rw [bigSep_W7, bigSep_W7]
  exact sound_body7 V a1 O hrun c t

end Data

/-! ## The region's record -/

section Record

variable (Win : Dev nD → Valuation τ sig (Elt F))

variable (a1 : (pcfg7 (F := F)).Adm)
  (O : (c : Dev nD) → Fin (cfg7 a1).N → Vec F S8x64 .f32)

/-- The buffers at the region's exit: its arrays at what the write-backs leave, every other buffer as entered. -/
def Wout7 (c : Dev nD) : Valuation τ sig (Elt F) :=
  Pipeline.withArrays spec7 c (Win c) fun w => (dat7 (Vof Win) a1 O c).arrAt w (cfg7 a1).N

theorem Wout7_arr (c : Dev nD) (w : Fin (cfg7 a1).W) :
    Wout7 Win a1 O c (Proc.devRef .tc (Pipeline.arrRef spec7 w)) = (dat7 (Vof Win) a1 O c).arrAt w (cfg7 a1).N := by
  unfold Wout7; exact Pipeline.withArrays_arr spec7 winFacts7.arr_inj c _ _ w

theorem Wout7_of_ne (c : Dev nD) (b : Ref sig .tc) (hb : ∀ w, Pipeline.arrRef spec7 w ≠ b) :
    Wout7 Win a1 O c (Proc.devRef .tc b) = Win c (Proc.devRef .tc b) := by
  unfold Wout7; exact Pipeline.withArrays_of_ne spec7 c _ _ b hb

/-- ENTRY, the buffers' part. Every unscoped buffer at Win is: the region's arrays at the proof data's entry contents,
    the table whole at the admissible contents (which are Win's there), the far operand whole, and the others. -/
theorem entry7 (c : Dev nD) (ha1 : ∀ k, Vof Win c (pre7.ref k) = a1.1 k) :
    (StableHlo.held (c : Thread nD τ) (Pipeline.ucRefs τ sig) (Win c) : sProp 𝕄)
      ⊢ iprop((dat7 (Vof Win) a1 O c).arrays ((dat7 (Vof Win) a1 O c).arrAt · 0)
          ∗ Pipeline.prefHeld pre7 c (fun _ => fullShare) a1.1
          ∗ (bigSep ({main_v3} : Finset (Ref sig .tc)) fun b => (((c : Thread nD τ)).loc b) ↦{fullShare} Vof Win c b)
          ∗ bigSep (Pipeline.restRefsP sig pre7 spec7 \ {main_v3}) fun b => (((c : Thread nD τ)).loc b) ↦{fullShare} Vof Win c b) := by
  have hsplit := Pipeline.arrays_of_unscopedBufs (p := ()) (fun (_ : Unit) => pcfg7 (F := F)) (fun _ => a1)
    (fun _ c => dat7 (Vof Win) a1 O c) winFacts7 (launch7 (F := F)).arr_whole c
    ((dat7 (Vof Win) a1 O c).share_full fun _ => rfl) (Vof Win c) (fun w => A_eq7 (Vof Win) a1 O c w)
  rw [Pipeline.unscopedBufs_held,
    Pipeline.unscopedRest_split (Ix := Unit) (Name := ℕ) (U := UD sig nD τ) (Lvl := ℕ) preFacts7 c (Vof Win c),
    Pipeline.unscopedRestP_sdiff pre7 spec7 {main_v3} hx_sub7 c (Vof Win c),
    show (fun k => Vof Win c (pre7.ref k)) = a1.1 from funext ha1] at hsplit
  exact hsplit

/-- EXIT, the buffers' part: the same four put back, the arrays at what the write-backs leave, are every unscoped
    buffer at the exit valuation. -/
theorem exit7 (c : Dev nD) (ha1 : ∀ k, Vof Win c (pre7.ref k) = a1.1 k) :
    iprop((dat7 (Vof Win) a1 O c).arrays ((dat7 (Vof Win) a1 O c).arrAt · (cfg7 a1).N)
        ∗ Pipeline.prefHeld pre7 c (fun _ => fullShare) a1.1
        ∗ (bigSep ({main_v3} : Finset (Ref sig .tc)) fun b => (((c : Thread nD τ)).loc b) ↦{fullShare} Vof Win c b)
        ∗ bigSep (Pipeline.restRefsP sig pre7 spec7 \ {main_v3}) fun b => (((c : Thread nD τ)).loc b) ↦{fullShare} Vof Win c b)
      ⊢ (StableHlo.held (c : Thread nD τ) (Pipeline.ucRefs τ sig) (Wout7 Win a1 O c) : sProp 𝕄) := by
  have hjoin := Pipeline.unscopedBufs_of_arrays (p := ()) (fun (_ : Unit) => pcfg7 (F := F)) (fun _ => a1)
    (Ix := Unit) (Name := ℕ) (U := UD sig nD τ) (Lvl := ℕ)
    winFacts7 (launch7 (F := F)).arr_whole c (fun _ c => dat7 (Vof Win) a1 O c)
    ((dat7 (Vof Win) a1 O c).share_full fun _ => rfl)
    (Vof Win c) (Vof (Wout7 Win a1 O) c) ((dat7 (Vof Win) a1 O c).arrAt · (cfg7 a1).N)
    (fun w => (Wout7_arr Win a1 O c w).symm)
    (fun b hb => Wout7_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts7 c (Vof Win c),
    Pipeline.unscopedRestP_sdiff pre7 spec7 {main_v3} hx_sub7 c (Vof Win c),
    show (fun k => Vof Win c (pre7.ref k)) = a1.1 from funext ha1] at hjoin
  exact hjoin

end Record

section Seg

variable (Win : Dev nD → Valuation τ sig (Elt F))
  (adm : (p : Fin 49) → (pcfgs (F := F) p).Adm)
  (O : (c : Dev nD) → Fin (cfg7 (adm (7 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout7. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg7 (hd : ∀ c, pdats (7 : Fin 49) c = dat7 (Vof Win) (adm (7 : Fin 49)) O c)
    (ha1 : ∀ c k, Vof Win c (pre7.ref k) = (adm (7 : Fin 49)).1 k)
    (hbody : ∀ c, BodyObligation (dat7 (F := F) (Vof Win) (adm (7 : Fin 49)) O c) (defs₀ (F := F)) 𝒱₀ () Set.univ) :
    Pipeline.RegionSeg (pcfgs (F := F)) adm pdats () defs₀ 𝒱₀ L lv (7 : Fin 49) where
  win := (launch7 (F := F)).win.to₀
  block_pos := (launch7 (F := F)).block_pos
  stage_whole := (launch7 (F := F)).stage_whole
  K := Fin 8
  osem := osem7
  ho := ownSemFacts7
  hbody c := by rw [hd c]; exact (hbody c).loose
  hwaits := Pipeline.hwaits_of_owed_zero _ _ _ _ L lv (7 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout7 Win (adm (7 : Fin 49)) O c) ∗ R c)
  X c := iprop((∃ r, prngReg c r)
    ∗ Pipeline.ownSems0 (Ix := Unit) (Name := ℕ) (U := UD sig nD τ) (Lvl := ℕ) (Val := Elt F) (τ := τ) osem7 c
    ∗ (bigSep ({main_v3} : Finset (Ref sig .tc)) fun b => (((c : Thread nD τ)).loc b) ↦{fullShare} Vof Win c b))
  Y c := iprop((∃ r, prngReg c r)
    ∗ (bigSep ({main_v3} : Finset (Ref sig .tc)) fun b => (((c : Thread nD τ)).loc b) ↦{fullShare} Vof Win c b)
    ∗ Pipeline.prefHeld pre7 c (fun _ => fullShare) (adm (7 : Fin 49)).1)
  Z c := bigSep (Pipeline.restRefsP sig pre7 spec7 \ {main_v3}) fun b => (((c : Thread nD τ)).loc b) ↦{fullShare} Vof Win c b
  hentry c := by
    rw [hd c]
    iintro ⟨⟨Hub, Hp, HO⟩, Hos, -⟩
    ihave H := (entry7 Win (adm (7 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq7, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq7, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit7 Win (adm (7 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg7 (F := F)).Adm)

/-- The output block at point t: the gathered rows (of the far operand's contents under V, chosen by the table's
    words at that point) times the input block. -/
def outBlk7 (c : Dev nD) (t : Fin (cfg7 a1).N) : Vec F S8x64 .f32 :=
  gatherOut (gatherG (a1.1 0) (V c main_v3) (grid7.coords t)) (iblk7 V a1 c 0 t)

theorem outBlk_eq7 (c : Dev nD) (t : Fin (cfg7 a1).N) :
    outBlk7 V a1 c t = gatherOut (gatherG (a1.1 0) (V c main_v3) (grid7.coords t)) (iblk7 V a1 c 0 t) := rfl

/-- The proof data with the output block named: after the body at point t the output window's buffer holds it. -/
theorem afterOutBlk7 (c : Dev nD) (t : Fin (cfg7 a1).N) :
    (dat7 V a1 (outBlk7 V a1) c).after 1 t
      = gatherOut (gatherG (a1.1 0) (V c main_v3) (grid7.coords t)) (iblk7 V a1 c 0 t) :=
  afterOut7 V a1 (outBlk7 V a1) c t

/-- The own cells at zero are the semaphore array's eight entries at zero, in order. -/
theorem ownSems_eq7 (c : Dev nD) :
    (Pipeline.ownSems0 (Ix := Unit) (Name := ℕ) (U := UD sig nD τ) (Lvl := ℕ) (Val := Elt F) (τ := τ) osem7 c : sProp 𝕄)
      = gsems0 c cc7_scratch1 := by
  rw [Pipeline.ownSems0_eq_of_list c osem7 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq7 (t : Fin (cfg7 a1).N) : ∃ h3 h4, bodyProg7 (F := F) a1 t
    = cc7__gather_mul_kernel (grid7.coords t) (Memref.whole main_v29) (Memref.isWhole_whole _) (Memref.whole main_v3) (Memref.isWhole_whole _)
        (stg7 a1 0 t) h3 (stg7 a1 1 t) h4 (Memref.whole cc7_scratch0) (Memref.isWhole_whole _) cc7_scratch1 := ⟨_, _, rfl⟩

end Out

/-! ## The body's run, joined to the proof data -/

section Body

variable (V : (c : Dev nD) → (b : Ref sig .tc) → Buf (Elt F) ((c : Thread nD τ).loc b))
  (a1 : (pcfg7 (F := F)).Adm)

/-- The scratch buffer whole at some contents, as a memref owned at some contents. -/
theorem scratchOwns_eq7 (c : Dev nD) :
    (iprop(∃ d, owns (c : Thread nD τ) (Memref.whole cc7_scratch0) fullShare d) : sProp 𝕄)
      = iprop(∃ f : Buf (Elt F) ((c : Thread nD τ).loc cc7_scratch0), ((c : Thread nD τ).loc cc7_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun7 (hlt : ∀ y, BitVec.toNat ((a1.1 0) y) < 100000) : BodyRun7 V a1 (outBlk7 V a1) := by
  intro c t W K
  obtain ⟨h3, h4, hprog⟩ := bodyProg_eq7 (F := F) a1 t
  rw [hprog, ownSems_eq7, ← scratchOwns_eq7 (F := F) c]
  have hrun := gather_kernel_run_7 (F := F) c (grid7.coords t) (Memref.whole main_v29) (Memref.isWhole_whole _) (Memref.whole main_v3) (Memref.isWhole_whole _)
    (stg7 a1 0 t) h3 (stg7 a1 1 t) h4 (Memref.whole cc7_scratch0) (Memref.isWhole_whole _) cc7_scratch1 fullShare fullShare
    (a1.1 0) (V c main_v3) (iblk7 V a1 c 0 t) (fun y => hlt y) W K
  simp only [Memref.view_whole, View.read_whole] at hrun
  unfold outBlk7
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut7 (hlt : ∀ y, BitVec.toNat ((a1.1 0) y) < 100000) (c : Dev nD) :
    BodyObligation (dat7 (F := F) V a1 (outBlk7 V a1) c) (defs₀ (F := F)) Variants.none () Set.univ :=
  body_obligation7 V a1 (outBlk7 V a1) (bodyRun7 V a1 hlt) c

end Body

/-! # Region 8 -/

/-! ## The body's own transfer cells -/

/-- The eight cells of the body's semaphore array, in order. -/
abbrev osem8 : Fin 8 → SemLoc sig := fun j => SemLoc.dma (cc8_scratch1.ix (fun | ⟨0, _⟩ => j))

/-- They are scoped, pairwise distinct, and none is a staging cell of a window. -/
theorem ownSemFacts8 : Pipeline.OwnSemFacts spec8 osem8 := by decide

/-- The far operand is an unscoped buffer that is neither a window's array nor a table. -/
theorem hx_sub8 : ({main_v3} : Finset (Ref sig .tc)) ⊆ Pipeline.restRefsP sig pre8 spec8 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg8 (F := F)).Adm)
  (O : (c : Dev nD) → Fin (cfg8 a1).N → Vec F S8x64 .f32)

/-! ## The windows' blocks -/

/-- Window w's block at point t, read off its array under V. -/
def iblk8 (c : Dev nD) (w : Fin (cfg8 a1).W) (t : Fin (cfg8 a1).N) :
    (((cfg8 a1).win w).xblock ((cfg8 a1).grid.coords t)).Idx → Elt F ((cfg8 a1).win w).elt :=
  (((cfg8 a1).win w).blk t).view.read (Elt F) (V c (Pipeline.arrRef spec8 w))

/-- The input window's current staging buffer holds its block at every point, fetched there or not, for any proof
    data whose array is V's and whose body leaves the block in place: unfetched, the block index has not moved. -/
theorem beforeIn8_of {c : Dev nD} (dat : Dat τ (Elt F) Unit ℕ (UD sig nD τ) ℕ (cfg8 a1) c)
    (hA : dat.A 0 = V c (Pipeline.arrRef spec8 0))
    (hafter : ∀ t, dat.after 0 t = iblk8 V a1 c 0 t) (t : Fin (cfg8 a1).N) (d) : dat.before 0 t d = iblk8 V a1 c 0 t :=
  (dat.before_in_eq_fetched 0 rfl (fun _ => rfl) (fun _ _ _ => rfl)
    (fun t => by rw [hafter]; unfold Dat.blockOf iblk8; rw [hA]; try rfl) t d).trans
    (by unfold Dat.fetched Dat.blockOf iblk8; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat8 (c : Dev nD) : Dat τ (Elt F) Unit ℕ (UD sig nD τ) ℕ (cfg8 a1) c where
  A w := V c (Pipeline.arrRef spec8 w)
  after w t := match w with
    | ⟨0, _⟩ => iblk8 V a1 c 0 t
    | ⟨1, _⟩ => O c t
  Φ _ := iprop(Pipeline.ΦD osem8 spec8 {main_v3} V c ∗ Pipeline.prefHeld pre8 c (fun _ => fullShare) a1.1)
  q _ := fullShare
  owed _ := 0

theorem A_eq8 (c : Dev nD) (w : Fin (cfg8 a1).W) : (dat8 V a1 O c).A w = V c (Pipeline.arrRef spec8 w) := by
  dsimp only [dat8]

theorem afterIn8 (c : Dev nD) (t : Fin (cfg8 a1).N) : (dat8 V a1 O c).after 0 t = iblk8 V a1 c 0 t := by
  dsimp only [dat8]; rfl

theorem afterOut8 (c : Dev nD) (t : Fin (cfg8 a1).N) :
    (dat8 V a1 O c).after 1 t = O c t := by
  dsimp only [dat8]; rfl

theorem beforeIn8 (c : Dev nD) (t : Fin (cfg8 a1).N) (d) : (dat8 V a1 O c).before 0 t d = iblk8 V a1 c 0 t :=
  beforeIn8_of V a1 (dat8 V a1 O c) (A_eq8 V a1 O c 0) (afterIn8 V a1 O c) t d

theorem Phi_eq8 (c : Dev nD) (t : Fin ((cfg8 a1).N + 1)) :
    (dat8 V a1 O c).Φ t
      = iprop(Pipeline.ΦD osem8 spec8 {main_v3} V c ∗ Pipeline.prefHeld pre8 c (fun _ => fullShare) a1.1) := by
  dsimp only [dat8]

theorem owed_eq8 (c : Dev nD) (t : Fin ((cfg8 a1).N + 1)) : (dat8 V a1 O c).owed t = 0 := by
  dsimp only [dat8]

/-! ## The invariant, conjunct by conjunct -/

/-- The invariant's first part opened: the body's scratch buffer whole at some contents and the other scoped
    buffers no window stages, the generator register, the own cells at zero, the far operand at its contents. -/
theorem PhiD_eq8 (c : Dev nD) :
    (Pipeline.ΦD osem8 spec8 {main_v3} V c : sProp 𝕄)
      = iprop(iprop(iprop((∃ f : Buf (Elt F) ((c : Thread nD τ).loc cc8_scratch0), ((c : Thread nD τ).loc cc8_scratch0) ↦{fullShare} f))
            ∗ Pipeline.scopedRestBut (Ix := Unit) (Name := ℕ) (U := UD sig nD τ) (Lvl := ℕ) (Val := Elt F) spec8 c [cc8_scratch0])
          ∗ (∃ r, prngReg c r)
          ∗ Pipeline.ownSems0 (Ix := Unit) (Name := ℕ) (U := UD sig nD τ) (Lvl := ℕ) (Val := Elt F) (τ := τ) osem8 c
          ∗ (((c : Thread nD τ).loc main_v3) ↦{fullShare} V c main_v3)) := by
  rw [Pipeline.ΦD_eq, scopedRest8_split, BI.bigSep_eq_bigSepL_of_eq [main_v3] (by decide) (by decide)]; rfl

/-- The one table, held whole. -/
theorem prefHeld_eq8 (c : Dev nD) :
    (Pipeline.prefHeld pre8 c (fun _ => fullShare) a1.1 : sProp 𝕄)
      = (((c : Thread nD τ).loc main_v33) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg8 (w : Fin (cfg8 a1).W) (t : Fin (cfg8 a1).N) := ((cfg8 a1).win w).stage ((cfg8 a1).slots t w)

/-- The body as the pipeline calls it at point t. -/
abbrev bodyProg8 (t : Fin (cfg8 a1).N) : Prog (TpuEff nD τ sig (Elt F) Λ₀ .tc) PUnit :=
  (defs₀ (F := F)) .tc (cfg8 a1).body ((cfg8 a1).bodyArgs t ((cfg8 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun8 : Prop :=
  ∀ (c : Dev nD) (t : Fin (cfg8 a1).N) (W) (K : PUnit → sProp 𝕄),
    iprop(owns (c : Thread nD τ) (stg8 a1 0 t) fullShare (iblk8 V a1 c 0 t)
        ∗ (∃ d, owns (c : Thread nD τ) (stg8 a1 1 t) fullShare d)
        ∗ (∃ f : Buf (Elt F) ((c : Thread nD τ).loc cc8_scratch0), ((c : Thread nD τ).loc cc8_scratch0) ↦{fullShare} f)
        ∗ Pipeline.ownSems0 (Ix := Unit) (Name := ℕ) (U := UD sig nD τ) (Lvl := ℕ) (Val := Elt F) (τ := τ) osem8 c
        ∗ (((c : Thread nD τ).loc main_v33) ↦{fullShare} a1.1 0)
        ∗ (((c : Thread nD τ).loc main_v3) ↦{fullShare} V c main_v3)
        ∗ owes (c : Thread nD τ) (0 : CellTallies nD τ sig Unit) W
        ∗ (iprop(owns (c : Thread nD τ) (stg8 a1 0 t) fullShare (iblk8 V a1 c 0 t)
            ∗ owns (c : Thread nD τ) (stg8 a1 1 t) fullShare (O c t)
            ∗ (∃ f : Buf (Elt F) ((c : Thread nD τ).loc cc8_scratch0), ((c : Thread nD τ).loc cc8_scratch0) ↦{fullShare} f)
            ∗ Pipeline.ownSems0 (Ix := Unit) (Name := ℕ) (U := UD sig nD τ) (Lvl := ℕ) (Val := Elt F) (τ := τ) osem8 c
            ∗ (((c : Thread nD τ).loc main_v33) ↦{fullShare} a1.1 0)
            ∗ (((c : Thread nD τ).loc main_v3) ↦{fullShare} V c main_v3)
            ∗ (∃ W', owes (c : Thread nD τ) (0 : CellTallies nD τ sig Unit) W')) -∗ K ⟨⟩))
      ⊢ wp frame (wpE (defs₀ (F := F)) Variants.none c none) Set.univ (bodyProg8 a1 t) K

/-- What the body is called with at point t, the windows one by one, -/
def bodyPre8 (c : Dev nD) (t : Fin (cfg8 a1).N) : sProp 𝕄 :=
  iprop((dat8 V a1 O c).Φ t.castSucc ∗ (dat8 V a1 O c).owesAt () t.castSucc
    ∗ (∃ d, owns (c : Thread nD τ) (stg8 a1 0 t) fullShare ((dat8 V a1 O c).before 0 t d))
    ∗ (∃ d, owns (c : Thread nD τ) (stg8 a1 1 t) fullShare ((dat8 V a1 O c).before 1 t d)))

/-- and what it returns. -/
def bodyPost8 (c : Dev nD) (t : Fin (cfg8 a1).N) : sProp 𝕄 :=
  iprop((dat8 V a1 O c).Φ t.succ ∗ (dat8 V a1 O c).owesAt () t.succ
    ∗ owns (c : Thread nD τ) (stg8 a1 0 t) fullShare ((dat8 V a1 O c).after 0 t)
    ∗ owns (c : Thread nD τ) (stg8 a1 1 t) fullShare ((dat8 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body8 (hrun : BodyRun8 V a1 O) (c : Dev nD) (t : Fin (cfg8 a1).N) :
    bodyPre8 V a1 O c t
      ⊢ wp frame (wpE (defs₀ (F := F)) Variants.none c none) Set.univ (bodyProg8 a1 t) (fun _ => bodyPost8 V a1 O c t) := by
  unfold bodyPre8 bodyPost8
  simp only [beforeIn8]
  rw [afterIn8, afterOut8, Phi_eq8, Phi_eq8, PhiD_eq8, prefHeld_eq8]
  unfold Dat.owesAt Pipeline.owesWithin
  rw [owed_eq8, owed_eq8]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation8 (hrun : BodyRun8 V a1 O) (c : Dev nD) :
    BodyObligation (dat8 (F := F) V a1 O c) (defs₀ (F := F)) Variants.none () Set.univ := fun t => by
  rw [bigSep_W8, bigSep_W8]
  exact sound_body8 V a1 O hrun c t

end Data

/-! ## The region's record -/

section Record

variable (Win : Dev nD → Valuation τ sig (Elt F))

variable (a1 : (pcfg8 (F := F)).Adm)
  (O : (c : Dev nD) → Fin (cfg8 a1).N → Vec F S8x64 .f32)

/-- The buffers at the region's exit: its arrays at what the write-backs leave, every other buffer as entered. -/
def Wout8 (c : Dev nD) : Valuation τ sig (Elt F) :=
  Pipeline.withArrays spec8 c (Win c) fun w => (dat8 (Vof Win) a1 O c).arrAt w (cfg8 a1).N

theorem Wout8_arr (c : Dev nD) (w : Fin (cfg8 a1).W) :
    Wout8 Win a1 O c (Proc.devRef .tc (Pipeline.arrRef spec8 w)) = (dat8 (Vof Win) a1 O c).arrAt w (cfg8 a1).N := by
  unfold Wout8; exact Pipeline.withArrays_arr spec8 winFacts8.arr_inj c _ _ w

theorem Wout8_of_ne (c : Dev nD) (b : Ref sig .tc) (hb : ∀ w, Pipeline.arrRef spec8 w ≠ b) :
    Wout8 Win a1 O c (Proc.devRef .tc b) = Win c (Proc.devRef .tc b) := by
  unfold Wout8; exact Pipeline.withArrays_of_ne spec8 c _ _ b hb

/-- ENTRY, the buffers' part. Every unscoped buffer at Win is: the region's arrays at the proof data's entry contents,
    the table whole at the admissible contents (which are Win's there), the far operand whole, and the others. -/
theorem entry8 (c : Dev nD) (ha1 : ∀ k, Vof Win c (pre8.ref k) = a1.1 k) :
    (StableHlo.held (c : Thread nD τ) (Pipeline.ucRefs τ sig) (Win c) : sProp 𝕄)
      ⊢ iprop((dat8 (Vof Win) a1 O c).arrays ((dat8 (Vof Win) a1 O c).arrAt · 0)
          ∗ Pipeline.prefHeld pre8 c (fun _ => fullShare) a1.1
          ∗ (bigSep ({main_v3} : Finset (Ref sig .tc)) fun b => (((c : Thread nD τ)).loc b) ↦{fullShare} Vof Win c b)
          ∗ bigSep (Pipeline.restRefsP sig pre8 spec8 \ {main_v3}) fun b => (((c : Thread nD τ)).loc b) ↦{fullShare} Vof Win c b) := by
  have hsplit := Pipeline.arrays_of_unscopedBufs (p := ()) (fun (_ : Unit) => pcfg8 (F := F)) (fun _ => a1)
    (fun _ c => dat8 (Vof Win) a1 O c) winFacts8 (launch8 (F := F)).arr_whole c
    ((dat8 (Vof Win) a1 O c).share_full fun _ => rfl) (Vof Win c) (fun w => A_eq8 (Vof Win) a1 O c w)
  rw [Pipeline.unscopedBufs_held,
    Pipeline.unscopedRest_split (Ix := Unit) (Name := ℕ) (U := UD sig nD τ) (Lvl := ℕ) preFacts8 c (Vof Win c),
    Pipeline.unscopedRestP_sdiff pre8 spec8 {main_v3} hx_sub8 c (Vof Win c),
    show (fun k => Vof Win c (pre8.ref k)) = a1.1 from funext ha1] at hsplit
  exact hsplit

/-- EXIT, the buffers' part: the same four put back, the arrays at what the write-backs leave, are every unscoped
    buffer at the exit valuation. -/
theorem exit8 (c : Dev nD) (ha1 : ∀ k, Vof Win c (pre8.ref k) = a1.1 k) :
    iprop((dat8 (Vof Win) a1 O c).arrays ((dat8 (Vof Win) a1 O c).arrAt · (cfg8 a1).N)
        ∗ Pipeline.prefHeld pre8 c (fun _ => fullShare) a1.1
        ∗ (bigSep ({main_v3} : Finset (Ref sig .tc)) fun b => (((c : Thread nD τ)).loc b) ↦{fullShare} Vof Win c b)
        ∗ bigSep (Pipeline.restRefsP sig pre8 spec8 \ {main_v3}) fun b => (((c : Thread nD τ)).loc b) ↦{fullShare} Vof Win c b)
      ⊢ (StableHlo.held (c : Thread nD τ) (Pipeline.ucRefs τ sig) (Wout8 Win a1 O c) : sProp 𝕄) := by
  have hjoin := Pipeline.unscopedBufs_of_arrays (p := ()) (fun (_ : Unit) => pcfg8 (F := F)) (fun _ => a1)
    (Ix := Unit) (Name := ℕ) (U := UD sig nD τ) (Lvl := ℕ)
    winFacts8 (launch8 (F := F)).arr_whole c (fun _ c => dat8 (Vof Win) a1 O c)
    ((dat8 (Vof Win) a1 O c).share_full fun _ => rfl)
    (Vof Win c) (Vof (Wout8 Win a1 O) c) ((dat8 (Vof Win) a1 O c).arrAt · (cfg8 a1).N)
    (fun w => (Wout8_arr Win a1 O c w).symm)
    (fun b hb => Wout8_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts8 c (Vof Win c),
    Pipeline.unscopedRestP_sdiff pre8 spec8 {main_v3} hx_sub8 c (Vof Win c),
    show (fun k => Vof Win c (pre8.ref k)) = a1.1 from funext ha1] at hjoin
  exact hjoin

end Record

section Seg

variable (Win : Dev nD → Valuation τ sig (Elt F))
  (adm : (p : Fin 49) → (pcfgs (F := F) p).Adm)
  (O : (c : Dev nD) → Fin (cfg8 (adm (8 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout8. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg8 (hd : ∀ c, pdats (8 : Fin 49) c = dat8 (Vof Win) (adm (8 : Fin 49)) O c)
    (ha1 : ∀ c k, Vof Win c (pre8.ref k) = (adm (8 : Fin 49)).1 k)
    (hbody : ∀ c, BodyObligation (dat8 (F := F) (Vof Win) (adm (8 : Fin 49)) O c) (defs₀ (F := F)) 𝒱₀ () Set.univ) :
    Pipeline.RegionSeg (pcfgs (F := F)) adm pdats () defs₀ 𝒱₀ L lv (8 : Fin 49) where
  win := (launch8 (F := F)).win.to₀
  block_pos := (launch8 (F := F)).block_pos
  stage_whole := (launch8 (F := F)).stage_whole
  K := Fin 8
  osem := osem8
  ho := ownSemFacts8
  hbody c := by rw [hd c]; exact (hbody c).loose
  hwaits := Pipeline.hwaits_of_owed_zero _ _ _ _ L lv (8 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout8 Win (adm (8 : Fin 49)) O c) ∗ R c)
  X c := iprop((∃ r, prngReg c r)
    ∗ Pipeline.ownSems0 (Ix := Unit) (Name := ℕ) (U := UD sig nD τ) (Lvl := ℕ) (Val := Elt F) (τ := τ) osem8 c
    ∗ (bigSep ({main_v3} : Finset (Ref sig .tc)) fun b => (((c : Thread nD τ)).loc b) ↦{fullShare} Vof Win c b))
  Y c := iprop((∃ r, prngReg c r)
    ∗ (bigSep ({main_v3} : Finset (Ref sig .tc)) fun b => (((c : Thread nD τ)).loc b) ↦{fullShare} Vof Win c b)
    ∗ Pipeline.prefHeld pre8 c (fun _ => fullShare) (adm (8 : Fin 49)).1)
  Z c := bigSep (Pipeline.restRefsP sig pre8 spec8 \ {main_v3}) fun b => (((c : Thread nD τ)).loc b) ↦{fullShare} Vof Win c b
  hentry c := by
    rw [hd c]
    iintro ⟨⟨Hub, Hp, HO⟩, Hos, -⟩
    ihave H := (entry8 Win (adm (8 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq8, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq8, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit8 Win (adm (8 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg8 (F := F)).Adm)

/-- The output block at point t: the gathered rows (of the far operand's contents under V, chosen by the table's
    words at that point) times the input block. -/
def outBlk8 (c : Dev nD) (t : Fin (cfg8 a1).N) : Vec F S8x64 .f32 :=
  gatherOut (gatherG (a1.1 0) (V c main_v3) (grid8.coords t)) (iblk8 V a1 c 0 t)

theorem outBlk_eq8 (c : Dev nD) (t : Fin (cfg8 a1).N) :
    outBlk8 V a1 c t = gatherOut (gatherG (a1.1 0) (V c main_v3) (grid8.coords t)) (iblk8 V a1 c 0 t) := rfl

/-- The proof data with the output block named: after the body at point t the output window's buffer holds it. -/
theorem afterOutBlk8 (c : Dev nD) (t : Fin (cfg8 a1).N) :
    (dat8 V a1 (outBlk8 V a1) c).after 1 t
      = gatherOut (gatherG (a1.1 0) (V c main_v3) (grid8.coords t)) (iblk8 V a1 c 0 t) :=
  afterOut8 V a1 (outBlk8 V a1) c t

/-- The own cells at zero are the semaphore array's eight entries at zero, in order. -/
theorem ownSems_eq8 (c : Dev nD) :
    (Pipeline.ownSems0 (Ix := Unit) (Name := ℕ) (U := UD sig nD τ) (Lvl := ℕ) (Val := Elt F) (τ := τ) osem8 c : sProp 𝕄)
      = gsems0 c cc8_scratch1 := by
  rw [Pipeline.ownSems0_eq_of_list c osem8 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq8 (t : Fin (cfg8 a1).N) : ∃ h3 h4, bodyProg8 (F := F) a1 t
    = cc8__gather_mul_kernel (grid8.coords t) (Memref.whole main_v33) (Memref.isWhole_whole _) (Memref.whole main_v3) (Memref.isWhole_whole _)
        (stg8 a1 0 t) h3 (stg8 a1 1 t) h4 (Memref.whole cc8_scratch0) (Memref.isWhole_whole _) cc8_scratch1 := ⟨_, _, rfl⟩

end Out

/-! ## The body's run, joined to the proof data -/

section Body

variable (V : (c : Dev nD) → (b : Ref sig .tc) → Buf (Elt F) ((c : Thread nD τ).loc b))
  (a1 : (pcfg8 (F := F)).Adm)

/-- The scratch buffer whole at some contents, as a memref owned at some contents. -/
theorem scratchOwns_eq8 (c : Dev nD) :
    (iprop(∃ d, owns (c : Thread nD τ) (Memref.whole cc8_scratch0) fullShare d) : sProp 𝕄)
      = iprop(∃ f : Buf (Elt F) ((c : Thread nD τ).loc cc8_scratch0), ((c : Thread nD τ).loc cc8_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun8 (hlt : ∀ y, BitVec.toNat ((a1.1 0) y) < 100000) : BodyRun8 V a1 (outBlk8 V a1) := by
  intro c t W K
  obtain ⟨h3, h4, hprog⟩ := bodyProg_eq8 (F := F) a1 t
  rw [hprog, ownSems_eq8, ← scratchOwns_eq8 (F := F) c]
  have hrun := gather_kernel_run_8 (F := F) c (grid8.coords t) (Memref.whole main_v33) (Memref.isWhole_whole _) (Memref.whole main_v3) (Memref.isWhole_whole _)
    (stg8 a1 0 t) h3 (stg8 a1 1 t) h4 (Memref.whole cc8_scratch0) (Memref.isWhole_whole _) cc8_scratch1 fullShare fullShare
    (a1.1 0) (V c main_v3) (iblk8 V a1 c 0 t) (fun y => hlt y) W K
  simp only [Memref.view_whole, View.read_whole] at hrun
  unfold outBlk8
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut8 (hlt : ∀ y, BitVec.toNat ((a1.1 0) y) < 100000) (c : Dev nD) :
    BodyObligation (dat8 (F := F) V a1 (outBlk8 V a1) c) (defs₀ (F := F)) Variants.none () Set.univ :=
  body_obligation8 V a1 (outBlk8 V a1) (bodyRun8 V a1 hlt) c

end Body

/-! # Region 9 -/

/-! ## The body's own transfer cells -/

/-- The eight cells of the body's semaphore array, in order. -/
abbrev osem9 : Fin 8 → SemLoc sig := fun j => SemLoc.dma (cc9_scratch1.ix (fun | ⟨0, _⟩ => j))

/-- They are scoped, pairwise distinct, and none is a staging cell of a window. -/
theorem ownSemFacts9 : Pipeline.OwnSemFacts spec9 osem9 := by decide

/-- The far operand is an unscoped buffer that is neither a window's array nor a table. -/
theorem hx_sub9 : ({main_v3} : Finset (Ref sig .tc)) ⊆ Pipeline.restRefsP sig pre9 spec9 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg9 (F := F)).Adm)
  (O : (c : Dev nD) → Fin (cfg9 a1).N → Vec F S8x64 .f32)

/-! ## The windows' blocks -/

/-- Window w's block at point t, read off its array under V. -/
def iblk9 (c : Dev nD) (w : Fin (cfg9 a1).W) (t : Fin (cfg9 a1).N) :
    (((cfg9 a1).win w).xblock ((cfg9 a1).grid.coords t)).Idx → Elt F ((cfg9 a1).win w).elt :=
  (((cfg9 a1).win w).blk t).view.read (Elt F) (V c (Pipeline.arrRef spec9 w))

/-- The input window's current staging buffer holds its block at every point, fetched there or not, for any proof
    data whose array is V's and whose body leaves the block in place: unfetched, the block index has not moved. -/
theorem beforeIn9_of {c : Dev nD} (dat : Dat τ (Elt F) Unit ℕ (UD sig nD τ) ℕ (cfg9 a1) c)
    (hA : dat.A 0 = V c (Pipeline.arrRef spec9 0))
    (hafter : ∀ t, dat.after 0 t = iblk9 V a1 c 0 t) (t : Fin (cfg9 a1).N) (d) : dat.before 0 t d = iblk9 V a1 c 0 t :=
  (dat.before_in_eq_fetched 0 rfl (fun _ => rfl) (fun _ _ _ => rfl)
    (fun t => by rw [hafter]; unfold Dat.blockOf iblk9; rw [hA]; try rfl) t d).trans
    (by unfold Dat.fetched Dat.blockOf iblk9; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat9 (c : Dev nD) : Dat τ (Elt F) Unit ℕ (UD sig nD τ) ℕ (cfg9 a1) c where
  A w := V c (Pipeline.arrRef spec9 w)
  after w t := match w with
    | ⟨0, _⟩ => iblk9 V a1 c 0 t
    | ⟨1, _⟩ => O c t
  Φ _ := iprop(Pipeline.ΦD osem9 spec9 {main_v3} V c ∗ Pipeline.prefHeld pre9 c (fun _ => fullShare) a1.1)
  q _ := fullShare
  owed _ := 0

theorem A_eq9 (c : Dev nD) (w : Fin (cfg9 a1).W) : (dat9 V a1 O c).A w = V c (Pipeline.arrRef spec9 w) := by
  dsimp only [dat9]

theorem afterIn9 (c : Dev nD) (t : Fin (cfg9 a1).N) : (dat9 V a1 O c).after 0 t = iblk9 V a1 c 0 t := by
  dsimp only [dat9]; rfl

theorem afterOut9 (c : Dev nD) (t : Fin (cfg9 a1).N) :
    (dat9 V a1 O c).after 1 t = O c t := by
  dsimp only [dat9]; rfl

theorem beforeIn9 (c : Dev nD) (t : Fin (cfg9 a1).N) (d) : (dat9 V a1 O c).before 0 t d = iblk9 V a1 c 0 t :=
  beforeIn9_of V a1 (dat9 V a1 O c) (A_eq9 V a1 O c 0) (afterIn9 V a1 O c) t d

theorem Phi_eq9 (c : Dev nD) (t : Fin ((cfg9 a1).N + 1)) :
    (dat9 V a1 O c).Φ t
      = iprop(Pipeline.ΦD osem9 spec9 {main_v3} V c ∗ Pipeline.prefHeld pre9 c (fun _ => fullShare) a1.1) := by
  dsimp only [dat9]

theorem owed_eq9 (c : Dev nD) (t : Fin ((cfg9 a1).N + 1)) : (dat9 V a1 O c).owed t = 0 := by
  dsimp only [dat9]

/-! ## The invariant, conjunct by conjunct -/

/-- The invariant's first part opened: the body's scratch buffer whole at some contents and the other scoped
    buffers no window stages, the generator register, the own cells at zero, the far operand at its contents. -/
theorem PhiD_eq9 (c : Dev nD) :
    (Pipeline.ΦD osem9 spec9 {main_v3} V c : sProp 𝕄)
      = iprop(iprop(iprop((∃ f : Buf (Elt F) ((c : Thread nD τ).loc cc9_scratch0), ((c : Thread nD τ).loc cc9_scratch0) ↦{fullShare} f))
            ∗ Pipeline.scopedRestBut (Ix := Unit) (Name := ℕ) (U := UD sig nD τ) (Lvl := ℕ) (Val := Elt F) spec9 c [cc9_scratch0])
          ∗ (∃ r, prngReg c r)
          ∗ Pipeline.ownSems0 (Ix := Unit) (Name := ℕ) (U := UD sig nD τ) (Lvl := ℕ) (Val := Elt F) (τ := τ) osem9 c
          ∗ (((c : Thread nD τ).loc main_v3) ↦{fullShare} V c main_v3)) := by
  rw [Pipeline.ΦD_eq, scopedRest9_split, BI.bigSep_eq_bigSepL_of_eq [main_v3] (by decide) (by decide)]; rfl

/-- The one table, held whole. -/
theorem prefHeld_eq9 (c : Dev nD) :
    (Pipeline.prefHeld pre9 c (fun _ => fullShare) a1.1 : sProp 𝕄)
      = (((c : Thread nD τ).loc main_v37) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg9 (w : Fin (cfg9 a1).W) (t : Fin (cfg9 a1).N) := ((cfg9 a1).win w).stage ((cfg9 a1).slots t w)

/-- The body as the pipeline calls it at point t. -/
abbrev bodyProg9 (t : Fin (cfg9 a1).N) : Prog (TpuEff nD τ sig (Elt F) Λ₀ .tc) PUnit :=
  (defs₀ (F := F)) .tc (cfg9 a1).body ((cfg9 a1).bodyArgs t ((cfg9 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun9 : Prop :=
  ∀ (c : Dev nD) (t : Fin (cfg9 a1).N) (W) (K : PUnit → sProp 𝕄),
    iprop(owns (c : Thread nD τ) (stg9 a1 0 t) fullShare (iblk9 V a1 c 0 t)
        ∗ (∃ d, owns (c : Thread nD τ) (stg9 a1 1 t) fullShare d)
        ∗ (∃ f : Buf (Elt F) ((c : Thread nD τ).loc cc9_scratch0), ((c : Thread nD τ).loc cc9_scratch0) ↦{fullShare} f)
        ∗ Pipeline.ownSems0 (Ix := Unit) (Name := ℕ) (U := UD sig nD τ) (Lvl := ℕ) (Val := Elt F) (τ := τ) osem9 c
        ∗ (((c : Thread nD τ).loc main_v37) ↦{fullShare} a1.1 0)
        ∗ (((c : Thread nD τ).loc main_v3) ↦{fullShare} V c main_v3)
        ∗ owes (c : Thread nD τ) (0 : CellTallies nD τ sig Unit) W
        ∗ (iprop(owns (c : Thread nD τ) (stg9 a1 0 t) fullShare (iblk9 V a1 c 0 t)
            ∗ owns (c : Thread nD τ) (stg9 a1 1 t) fullShare (O c t)
            ∗ (∃ f : Buf (Elt F) ((c : Thread nD τ).loc cc9_scratch0), ((c : Thread nD τ).loc cc9_scratch0) ↦{fullShare} f)
            ∗ Pipeline.ownSems0 (Ix := Unit) (Name := ℕ) (U := UD sig nD τ) (Lvl := ℕ) (Val := Elt F) (τ := τ) osem9 c
            ∗ (((c : Thread nD τ).loc main_v37) ↦{fullShare} a1.1 0)
            ∗ (((c : Thread nD τ).loc main_v3) ↦{fullShare} V c main_v3)
            ∗ (∃ W', owes (c : Thread nD τ) (0 : CellTallies nD τ sig Unit) W')) -∗ K ⟨⟩))
      ⊢ wp frame (wpE (defs₀ (F := F)) Variants.none c none) Set.univ (bodyProg9 a1 t) K

/-- What the body is called with at point t, the windows one by one, -/
def bodyPre9 (c : Dev nD) (t : Fin (cfg9 a1).N) : sProp 𝕄 :=
  iprop((dat9 V a1 O c).Φ t.castSucc ∗ (dat9 V a1 O c).owesAt () t.castSucc
    ∗ (∃ d, owns (c : Thread nD τ) (stg9 a1 0 t) fullShare ((dat9 V a1 O c).before 0 t d))
    ∗ (∃ d, owns (c : Thread nD τ) (stg9 a1 1 t) fullShare ((dat9 V a1 O c).before 1 t d)))

/-- and what it returns. -/
def bodyPost9 (c : Dev nD) (t : Fin (cfg9 a1).N) : sProp 𝕄 :=
  iprop((dat9 V a1 O c).Φ t.succ ∗ (dat9 V a1 O c).owesAt () t.succ
    ∗ owns (c : Thread nD τ) (stg9 a1 0 t) fullShare ((dat9 V a1 O c).after 0 t)
    ∗ owns (c : Thread nD τ) (stg9 a1 1 t) fullShare ((dat9 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body9 (hrun : BodyRun9 V a1 O) (c : Dev nD) (t : Fin (cfg9 a1).N) :
    bodyPre9 V a1 O c t
      ⊢ wp frame (wpE (defs₀ (F := F)) Variants.none c none) Set.univ (bodyProg9 a1 t) (fun _ => bodyPost9 V a1 O c t) := by
  unfold bodyPre9 bodyPost9
  simp only [beforeIn9]
  rw [afterIn9, afterOut9, Phi_eq9, Phi_eq9, PhiD_eq9, prefHeld_eq9]
  unfold Dat.owesAt Pipeline.owesWithin
  rw [owed_eq9, owed_eq9]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation9 (hrun : BodyRun9 V a1 O) (c : Dev nD) :
    BodyObligation (dat9 (F := F) V a1 O c) (defs₀ (F := F)) Variants.none () Set.univ := fun t => by
  rw [bigSep_W9, bigSep_W9]
  exact sound_body9 V a1 O hrun c t

end Data

/-! ## The region's record -/

section Record

variable (Win : Dev nD → Valuation τ sig (Elt F))

variable (a1 : (pcfg9 (F := F)).Adm)
  (O : (c : Dev nD) → Fin (cfg9 a1).N → Vec F S8x64 .f32)

/-- The buffers at the region's exit: its arrays at what the write-backs leave, every other buffer as entered. -/
def Wout9 (c : Dev nD) : Valuation τ sig (Elt F) :=
  Pipeline.withArrays spec9 c (Win c) fun w => (dat9 (Vof Win) a1 O c).arrAt w (cfg9 a1).N

theorem Wout9_arr (c : Dev nD) (w : Fin (cfg9 a1).W) :
    Wout9 Win a1 O c (Proc.devRef .tc (Pipeline.arrRef spec9 w)) = (dat9 (Vof Win) a1 O c).arrAt w (cfg9 a1).N := by
  unfold Wout9; exact Pipeline.withArrays_arr spec9 winFacts9.arr_inj c _ _ w

theorem Wout9_of_ne (c : Dev nD) (b : Ref sig .tc) (hb : ∀ w, Pipeline.arrRef spec9 w ≠ b) :
    Wout9 Win a1 O c (Proc.devRef .tc b) = Win c (Proc.devRef .tc b) := by
  unfold Wout9; exact Pipeline.withArrays_of_ne spec9 c _ _ b hb

/-- ENTRY, the buffers' part. Every unscoped buffer at Win is: the region's arrays at the proof data's entry contents,
    the table whole at the admissible contents (which are Win's there), the far operand whole, and the others. -/
theorem entry9 (c : Dev nD) (ha1 : ∀ k, Vof Win c (pre9.ref k) = a1.1 k) :
    (StableHlo.held (c : Thread nD τ) (Pipeline.ucRefs τ sig) (Win c) : sProp 𝕄)
      ⊢ iprop((dat9 (Vof Win) a1 O c).arrays ((dat9 (Vof Win) a1 O c).arrAt · 0)
          ∗ Pipeline.prefHeld pre9 c (fun _ => fullShare) a1.1
          ∗ (bigSep ({main_v3} : Finset (Ref sig .tc)) fun b => (((c : Thread nD τ)).loc b) ↦{fullShare} Vof Win c b)
          ∗ bigSep (Pipeline.restRefsP sig pre9 spec9 \ {main_v3}) fun b => (((c : Thread nD τ)).loc b) ↦{fullShare} Vof Win c b) := by
  have hsplit := Pipeline.arrays_of_unscopedBufs (p := ()) (fun (_ : Unit) => pcfg9 (F := F)) (fun _ => a1)
    (fun _ c => dat9 (Vof Win) a1 O c) winFacts9 (launch9 (F := F)).arr_whole c
    ((dat9 (Vof Win) a1 O c).share_full fun _ => rfl) (Vof Win c) (fun w => A_eq9 (Vof Win) a1 O c w)
  rw [Pipeline.unscopedBufs_held,
    Pipeline.unscopedRest_split (Ix := Unit) (Name := ℕ) (U := UD sig nD τ) (Lvl := ℕ) preFacts9 c (Vof Win c),
    Pipeline.unscopedRestP_sdiff pre9 spec9 {main_v3} hx_sub9 c (Vof Win c),
    show (fun k => Vof Win c (pre9.ref k)) = a1.1 from funext ha1] at hsplit
  exact hsplit

/-- EXIT, the buffers' part: the same four put back, the arrays at what the write-backs leave, are every unscoped
    buffer at the exit valuation. -/
theorem exit9 (c : Dev nD) (ha1 : ∀ k, Vof Win c (pre9.ref k) = a1.1 k) :
    iprop((dat9 (Vof Win) a1 O c).arrays ((dat9 (Vof Win) a1 O c).arrAt · (cfg9 a1).N)
        ∗ Pipeline.prefHeld pre9 c (fun _ => fullShare) a1.1
        ∗ (bigSep ({main_v3} : Finset (Ref sig .tc)) fun b => (((c : Thread nD τ)).loc b) ↦{fullShare} Vof Win c b)
        ∗ bigSep (Pipeline.restRefsP sig pre9 spec9 \ {main_v3}) fun b => (((c : Thread nD τ)).loc b) ↦{fullShare} Vof Win c b)
      ⊢ (StableHlo.held (c : Thread nD τ) (Pipeline.ucRefs τ sig) (Wout9 Win a1 O c) : sProp 𝕄) := by
  have hjoin := Pipeline.unscopedBufs_of_arrays (p := ()) (fun (_ : Unit) => pcfg9 (F := F)) (fun _ => a1)
    (Ix := Unit) (Name := ℕ) (U := UD sig nD τ) (Lvl := ℕ)
    winFacts9 (launch9 (F := F)).arr_whole c (fun _ c => dat9 (Vof Win) a1 O c)
    ((dat9 (Vof Win) a1 O c).share_full fun _ => rfl)
    (Vof Win c) (Vof (Wout9 Win a1 O) c) ((dat9 (Vof Win) a1 O c).arrAt · (cfg9 a1).N)
    (fun w => (Wout9_arr Win a1 O c w).symm)
    (fun b hb => Wout9_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts9 c (Vof Win c),
    Pipeline.unscopedRestP_sdiff pre9 spec9 {main_v3} hx_sub9 c (Vof Win c),
    show (fun k => Vof Win c (pre9.ref k)) = a1.1 from funext ha1] at hjoin
  exact hjoin

end Record

section Seg

variable (Win : Dev nD → Valuation τ sig (Elt F))
  (adm : (p : Fin 49) → (pcfgs (F := F) p).Adm)
  (O : (c : Dev nD) → Fin (cfg9 (adm (9 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout9. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg9 (hd : ∀ c, pdats (9 : Fin 49) c = dat9 (Vof Win) (adm (9 : Fin 49)) O c)
    (ha1 : ∀ c k, Vof Win c (pre9.ref k) = (adm (9 : Fin 49)).1 k)
    (hbody : ∀ c, BodyObligation (dat9 (F := F) (Vof Win) (adm (9 : Fin 49)) O c) (defs₀ (F := F)) 𝒱₀ () Set.univ) :
    Pipeline.RegionSeg (pcfgs (F := F)) adm pdats () defs₀ 𝒱₀ L lv (9 : Fin 49) where
  win := (launch9 (F := F)).win.to₀
  block_pos := (launch9 (F := F)).block_pos
  stage_whole := (launch9 (F := F)).stage_whole
  K := Fin 8
  osem := osem9
  ho := ownSemFacts9
  hbody c := by rw [hd c]; exact (hbody c).loose
  hwaits := Pipeline.hwaits_of_owed_zero _ _ _ _ L lv (9 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout9 Win (adm (9 : Fin 49)) O c) ∗ R c)
  X c := iprop((∃ r, prngReg c r)
    ∗ Pipeline.ownSems0 (Ix := Unit) (Name := ℕ) (U := UD sig nD τ) (Lvl := ℕ) (Val := Elt F) (τ := τ) osem9 c
    ∗ (bigSep ({main_v3} : Finset (Ref sig .tc)) fun b => (((c : Thread nD τ)).loc b) ↦{fullShare} Vof Win c b))
  Y c := iprop((∃ r, prngReg c r)
    ∗ (bigSep ({main_v3} : Finset (Ref sig .tc)) fun b => (((c : Thread nD τ)).loc b) ↦{fullShare} Vof Win c b)
    ∗ Pipeline.prefHeld pre9 c (fun _ => fullShare) (adm (9 : Fin 49)).1)
  Z c := bigSep (Pipeline.restRefsP sig pre9 spec9 \ {main_v3}) fun b => (((c : Thread nD τ)).loc b) ↦{fullShare} Vof Win c b
  hentry c := by
    rw [hd c]
    iintro ⟨⟨Hub, Hp, HO⟩, Hos, -⟩
    ihave H := (entry9 Win (adm (9 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq9, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq9, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit9 Win (adm (9 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg9 (F := F)).Adm)

/-- The output block at point t: the gathered rows (of the far operand's contents under V, chosen by the table's
    words at that point) times the input block. -/
def outBlk9 (c : Dev nD) (t : Fin (cfg9 a1).N) : Vec F S8x64 .f32 :=
  gatherOut (gatherG (a1.1 0) (V c main_v3) (grid9.coords t)) (iblk9 V a1 c 0 t)

theorem outBlk_eq9 (c : Dev nD) (t : Fin (cfg9 a1).N) :
    outBlk9 V a1 c t = gatherOut (gatherG (a1.1 0) (V c main_v3) (grid9.coords t)) (iblk9 V a1 c 0 t) := rfl

/-- The proof data with the output block named: after the body at point t the output window's buffer holds it. -/
theorem afterOutBlk9 (c : Dev nD) (t : Fin (cfg9 a1).N) :
    (dat9 V a1 (outBlk9 V a1) c).after 1 t
      = gatherOut (gatherG (a1.1 0) (V c main_v3) (grid9.coords t)) (iblk9 V a1 c 0 t) :=
  afterOut9 V a1 (outBlk9 V a1) c t

/-- The own cells at zero are the semaphore array's eight entries at zero, in order. -/
theorem ownSems_eq9 (c : Dev nD) :
    (Pipeline.ownSems0 (Ix := Unit) (Name := ℕ) (U := UD sig nD τ) (Lvl := ℕ) (Val := Elt F) (τ := τ) osem9 c : sProp 𝕄)
      = gsems0 c cc9_scratch1 := by
  rw [Pipeline.ownSems0_eq_of_list c osem9 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq9 (t : Fin (cfg9 a1).N) : ∃ h3 h4, bodyProg9 (F := F) a1 t
    = cc9__gather_mul_kernel (grid9.coords t) (Memref.whole main_v37) (Memref.isWhole_whole _) (Memref.whole main_v3) (Memref.isWhole_whole _)
        (stg9 a1 0 t) h3 (stg9 a1 1 t) h4 (Memref.whole cc9_scratch0) (Memref.isWhole_whole _) cc9_scratch1 := ⟨_, _, rfl⟩

end Out

/-! ## The body's run, joined to the proof data -/

section Body

variable (V : (c : Dev nD) → (b : Ref sig .tc) → Buf (Elt F) ((c : Thread nD τ).loc b))
  (a1 : (pcfg9 (F := F)).Adm)

/-- The scratch buffer whole at some contents, as a memref owned at some contents. -/
theorem scratchOwns_eq9 (c : Dev nD) :
    (iprop(∃ d, owns (c : Thread nD τ) (Memref.whole cc9_scratch0) fullShare d) : sProp 𝕄)
      = iprop(∃ f : Buf (Elt F) ((c : Thread nD τ).loc cc9_scratch0), ((c : Thread nD τ).loc cc9_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun9 (hlt : ∀ y, BitVec.toNat ((a1.1 0) y) < 100000) : BodyRun9 V a1 (outBlk9 V a1) := by
  intro c t W K
  obtain ⟨h3, h4, hprog⟩ := bodyProg_eq9 (F := F) a1 t
  rw [hprog, ownSems_eq9, ← scratchOwns_eq9 (F := F) c]
  have hrun := gather_kernel_run_9 (F := F) c (grid9.coords t) (Memref.whole main_v37) (Memref.isWhole_whole _) (Memref.whole main_v3) (Memref.isWhole_whole _)
    (stg9 a1 0 t) h3 (stg9 a1 1 t) h4 (Memref.whole cc9_scratch0) (Memref.isWhole_whole _) cc9_scratch1 fullShare fullShare
    (a1.1 0) (V c main_v3) (iblk9 V a1 c 0 t) (fun y => hlt y) W K
  simp only [Memref.view_whole, View.read_whole] at hrun
  unfold outBlk9
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut9 (hlt : ∀ y, BitVec.toNat ((a1.1 0) y) < 100000) (c : Dev nD) :
    BodyObligation (dat9 (F := F) V a1 (outBlk9 V a1) c) (defs₀ (F := F)) Variants.none () Set.univ :=
  body_obligation9 V a1 (outBlk9 V a1) (bodyRun9 V a1 hlt) c

end Body

end Cert.Kernel.Hand

end
-- ==== Proof.K.Regions_10_17.lean ====
/-
  Gather regions 10 to 17 of the host program, one after the other: for each, the proof data, the body obligation and the record of the region in the launch,
  exactly as for region 1 (whose module says what each part is).
-/
import proofs.«421643_j28415503630349_2_alg».proof.Proof.K.Common
import proofs.«421643_j28415503630349_2_alg».proof.Proof.K.BodyEq
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

/-! # Region 10 -/

/-! ## The body's own transfer cells -/

/-- The eight cells of the body's semaphore array, in order. -/
abbrev osem10 : Fin 8 → SemLoc sig := fun j => SemLoc.dma (cc10_scratch1.ix (fun | ⟨0, _⟩ => j))

/-- They are scoped, pairwise distinct, and none is a staging cell of a window. -/
theorem ownSemFacts10 : Pipeline.OwnSemFacts spec10 osem10 := by decide

/-- The far operand is an unscoped buffer that is neither a window's array nor a table. -/
theorem hx_sub10 : ({main_v3} : Finset (Ref sig .tc)) ⊆ Pipeline.restRefsP sig pre10 spec10 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg10 (F := F)).Adm)
  (O : (c : Dev nD) → Fin (cfg10 a1).N → Vec F S8x64 .f32)

/-! ## The windows' blocks -/

/-- Window w's block at point t, read off its array under V. -/
def iblk10 (c : Dev nD) (w : Fin (cfg10 a1).W) (t : Fin (cfg10 a1).N) :
    (((cfg10 a1).win w).xblock ((cfg10 a1).grid.coords t)).Idx → Elt F ((cfg10 a1).win w).elt :=
  (((cfg10 a1).win w).blk t).view.read (Elt F) (V c (Pipeline.arrRef spec10 w))

/-- The input window's current staging buffer holds its block at every point, fetched there or not, for any proof
    data whose array is V's and whose body leaves the block in place: unfetched, the block index has not moved. -/
theorem beforeIn10_of {c : Dev nD} (dat : Dat τ (Elt F) Unit ℕ (UD sig nD τ) ℕ (cfg10 a1) c)
    (hA : dat.A 0 = V c (Pipeline.arrRef spec10 0))
    (hafter : ∀ t, dat.after 0 t = iblk10 V a1 c 0 t) (t : Fin (cfg10 a1).N) (d) : dat.before 0 t d = iblk10 V a1 c 0 t :=
  (dat.before_in_eq_fetched 0 rfl (fun _ => rfl) (fun _ _ _ => rfl)
    (fun t => by rw [hafter]; unfold Dat.blockOf iblk10; rw [hA]; try rfl) t d).trans
    (by unfold Dat.fetched Dat.blockOf iblk10; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat10 (c : Dev nD) : Dat τ (Elt F) Unit ℕ (UD sig nD τ) ℕ (cfg10 a1) c where
  A w := V c (Pipeline.arrRef spec10 w)
  after w t := match w with
    | ⟨0, _⟩ => iblk10 V a1 c 0 t
    | ⟨1, _⟩ => O c t
  Φ _ := iprop(Pipeline.ΦD osem10 spec10 {main_v3} V c ∗ Pipeline.prefHeld pre10 c (fun _ => fullShare) a1.1)
  q _ := fullShare
  owed _ := 0

theorem A_eq10 (c : Dev nD) (w : Fin (cfg10 a1).W) : (dat10 V a1 O c).A w = V c (Pipeline.arrRef spec10 w) := by
  dsimp only [dat10]

theorem afterIn10 (c : Dev nD) (t : Fin (cfg10 a1).N) : (dat10 V a1 O c).after 0 t = iblk10 V a1 c 0 t := by
  dsimp only [dat10]; rfl

theorem afterOut10 (c : Dev nD) (t : Fin (cfg10 a1).N) :
    (dat10 V a1 O c).after 1 t = O c t := by
  dsimp only [dat10]; rfl

theorem beforeIn10 (c : Dev nD) (t : Fin (cfg10 a1).N) (d) : (dat10 V a1 O c).before 0 t d = iblk10 V a1 c 0 t :=
  beforeIn10_of V a1 (dat10 V a1 O c) (A_eq10 V a1 O c 0) (afterIn10 V a1 O c) t d

theorem Phi_eq10 (c : Dev nD) (t : Fin ((cfg10 a1).N + 1)) :
    (dat10 V a1 O c).Φ t
      = iprop(Pipeline.ΦD osem10 spec10 {main_v3} V c ∗ Pipeline.prefHeld pre10 c (fun _ => fullShare) a1.1) := by
  dsimp only [dat10]

theorem owed_eq10 (c : Dev nD) (t : Fin ((cfg10 a1).N + 1)) : (dat10 V a1 O c).owed t = 0 := by
  dsimp only [dat10]

/-! ## The invariant, conjunct by conjunct -/

/-- The invariant's first part opened: the body's scratch buffer whole at some contents and the other scoped
    buffers no window stages, the generator register, the own cells at zero, the far operand at its contents. -/
theorem PhiD_eq10 (c : Dev nD) :
    (Pipeline.ΦD osem10 spec10 {main_v3} V c : sProp 𝕄)
      = iprop(iprop(iprop((∃ f : Buf (Elt F) ((c : Thread nD τ).loc cc10_scratch0), ((c : Thread nD τ).loc cc10_scratch0) ↦{fullShare} f))
            ∗ Pipeline.scopedRestBut (Ix := Unit) (Name := ℕ) (U := UD sig nD τ) (Lvl := ℕ) (Val := Elt F) spec10 c [cc10_scratch0])
          ∗ (∃ r, prngReg c r)
          ∗ Pipeline.ownSems0 (Ix := Unit) (Name := ℕ) (U := UD sig nD τ) (Lvl := ℕ) (Val := Elt F) (τ := τ) osem10 c
          ∗ (((c : Thread nD τ).loc main_v3) ↦{fullShare} V c main_v3)) := by
  rw [Pipeline.ΦD_eq, scopedRest10_split, BI.bigSep_eq_bigSepL_of_eq [main_v3] (by decide) (by decide)]; rfl

/-- The one table, held whole. -/
theorem prefHeld_eq10 (c : Dev nD) :
    (Pipeline.prefHeld pre10 c (fun _ => fullShare) a1.1 : sProp 𝕄)
      = (((c : Thread nD τ).loc main_v41) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg10 (w : Fin (cfg10 a1).W) (t : Fin (cfg10 a1).N) := ((cfg10 a1).win w).stage ((cfg10 a1).slots t w)

/-- The body as the pipeline calls it at point t. -/
abbrev bodyProg10 (t : Fin (cfg10 a1).N) : Prog (TpuEff nD τ sig (Elt F) Λ₀ .tc) PUnit :=
  (defs₀ (F := F)) .tc (cfg10 a1).body ((cfg10 a1).bodyArgs t ((cfg10 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun10 : Prop :=
  ∀ (c : Dev nD) (t : Fin (cfg10 a1).N) (W) (K : PUnit → sProp 𝕄),
    iprop(owns (c : Thread nD τ) (stg10 a1 0 t) fullShare (iblk10 V a1 c 0 t)
        ∗ (∃ d, owns (c : Thread nD τ) (stg10 a1 1 t) fullShare d)
        ∗ (∃ f : Buf (Elt F) ((c : Thread nD τ).loc cc10_scratch0), ((c : Thread nD τ).loc cc10_scratch0) ↦{fullShare} f)
        ∗ Pipeline.ownSems0 (Ix := Unit) (Name := ℕ) (U := UD sig nD τ) (Lvl := ℕ) (Val := Elt F) (τ := τ) osem10 c
        ∗ (((c : Thread nD τ).loc main_v41) ↦{fullShare} a1.1 0)
        ∗ (((c : Thread nD τ).loc main_v3) ↦{fullShare} V c main_v3)
        ∗ owes (c : Thread nD τ) (0 : CellTallies nD τ sig Unit) W
        ∗ (iprop(owns (c : Thread nD τ) (stg10 a1 0 t) fullShare (iblk10 V a1 c 0 t)
            ∗ owns (c : Thread nD τ) (stg10 a1 1 t) fullShare (O c t)
            ∗ (∃ f : Buf (Elt F) ((c : Thread nD τ).loc cc10_scratch0), ((c : Thread nD τ).loc cc10_scratch0) ↦{fullShare} f)
            ∗ Pipeline.ownSems0 (Ix := Unit) (Name := ℕ) (U := UD sig nD τ) (Lvl := ℕ) (Val := Elt F) (τ := τ) osem10 c
            ∗ (((c : Thread nD τ).loc main_v41) ↦{fullShare} a1.1 0)
            ∗ (((c : Thread nD τ).loc main_v3) ↦{fullShare} V c main_v3)
            ∗ (∃ W', owes (c : Thread nD τ) (0 : CellTallies nD τ sig Unit) W')) -∗ K ⟨⟩))
      ⊢ wp frame (wpE (defs₀ (F := F)) Variants.none c none) Set.univ (bodyProg10 a1 t) K

/-- What the body is called with at point t, the windows one by one, -/
def bodyPre10 (c : Dev nD) (t : Fin (cfg10 a1).N) : sProp 𝕄 :=
  iprop((dat10 V a1 O c).Φ t.castSucc ∗ (dat10 V a1 O c).owesAt () t.castSucc
    ∗ (∃ d, owns (c : Thread nD τ) (stg10 a1 0 t) fullShare ((dat10 V a1 O c).before 0 t d))
    ∗ (∃ d, owns (c : Thread nD τ) (stg10 a1 1 t) fullShare ((dat10 V a1 O c).before 1 t d)))

/-- and what it returns. -/
def bodyPost10 (c : Dev nD) (t : Fin (cfg10 a1).N) : sProp 𝕄 :=
  iprop((dat10 V a1 O c).Φ t.succ ∗ (dat10 V a1 O c).owesAt () t.succ
    ∗ owns (c : Thread nD τ) (stg10 a1 0 t) fullShare ((dat10 V a1 O c).after 0 t)
    ∗ owns (c : Thread nD τ) (stg10 a1 1 t) fullShare ((dat10 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body10 (hrun : BodyRun10 V a1 O) (c : Dev nD) (t : Fin (cfg10 a1).N) :
    bodyPre10 V a1 O c t
      ⊢ wp frame (wpE (defs₀ (F := F)) Variants.none c none) Set.univ (bodyProg10 a1 t) (fun _ => bodyPost10 V a1 O c t) := by
  unfold bodyPre10 bodyPost10
  simp only [beforeIn10]
  rw [afterIn10, afterOut10, Phi_eq10, Phi_eq10, PhiD_eq10, prefHeld_eq10]
  unfold Dat.owesAt Pipeline.owesWithin
  rw [owed_eq10, owed_eq10]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation10 (hrun : BodyRun10 V a1 O) (c : Dev nD) :
    BodyObligation (dat10 (F := F) V a1 O c) (defs₀ (F := F)) Variants.none () Set.univ := fun t => by
  rw [bigSep_W10, bigSep_W10]
  exact sound_body10 V a1 O hrun c t

end Data

/-! ## The region's record -/

section Record

variable (Win : Dev nD → Valuation τ sig (Elt F))

variable (a1 : (pcfg10 (F := F)).Adm)
  (O : (c : Dev nD) → Fin (cfg10 a1).N → Vec F S8x64 .f32)

/-- The buffers at the region's exit: its arrays at what the write-backs leave, every other buffer as entered. -/
def Wout10 (c : Dev nD) : Valuation τ sig (Elt F) :=
  Pipeline.withArrays spec10 c (Win c) fun w => (dat10 (Vof Win) a1 O c).arrAt w (cfg10 a1).N

theorem Wout10_arr (c : Dev nD) (w : Fin (cfg10 a1).W) :
    Wout10 Win a1 O c (Proc.devRef .tc (Pipeline.arrRef spec10 w)) = (dat10 (Vof Win) a1 O c).arrAt w (cfg10 a1).N := by
  unfold Wout10; exact Pipeline.withArrays_arr spec10 winFacts10.arr_inj c _ _ w

theorem Wout10_of_ne (c : Dev nD) (b : Ref sig .tc) (hb : ∀ w, Pipeline.arrRef spec10 w ≠ b) :
    Wout10 Win a1 O c (Proc.devRef .tc b) = Win c (Proc.devRef .tc b) := by
  unfold Wout10; exact Pipeline.withArrays_of_ne spec10 c _ _ b hb

/-- ENTRY, the buffers' part. Every unscoped buffer at Win is: the region's arrays at the proof data's entry contents,
    the table whole at the admissible contents (which are Win's there), the far operand whole, and the others. -/
theorem entry10 (c : Dev nD) (ha1 : ∀ k, Vof Win c (pre10.ref k) = a1.1 k) :
    (StableHlo.held (c : Thread nD τ) (Pipeline.ucRefs τ sig) (Win c) : sProp 𝕄)
      ⊢ iprop((dat10 (Vof Win) a1 O c).arrays ((dat10 (Vof Win) a1 O c).arrAt · 0)
          ∗ Pipeline.prefHeld pre10 c (fun _ => fullShare) a1.1
          ∗ (bigSep ({main_v3} : Finset (Ref sig .tc)) fun b => (((c : Thread nD τ)).loc b) ↦{fullShare} Vof Win c b)
          ∗ bigSep (Pipeline.restRefsP sig pre10 spec10 \ {main_v3}) fun b => (((c : Thread nD τ)).loc b) ↦{fullShare} Vof Win c b) := by
  have hsplit := Pipeline.arrays_of_unscopedBufs (p := ()) (fun (_ : Unit) => pcfg10 (F := F)) (fun _ => a1)
    (fun _ c => dat10 (Vof Win) a1 O c) winFacts10 (launch10 (F := F)).arr_whole c
    ((dat10 (Vof Win) a1 O c).share_full fun _ => rfl) (Vof Win c) (fun w => A_eq10 (Vof Win) a1 O c w)
  rw [Pipeline.unscopedBufs_held,
    Pipeline.unscopedRest_split (Ix := Unit) (Name := ℕ) (U := UD sig nD τ) (Lvl := ℕ) preFacts10 c (Vof Win c),
    Pipeline.unscopedRestP_sdiff pre10 spec10 {main_v3} hx_sub10 c (Vof Win c),
    show (fun k => Vof Win c (pre10.ref k)) = a1.1 from funext ha1] at hsplit
  exact hsplit

/-- EXIT, the buffers' part: the same four put back, the arrays at what the write-backs leave, are every unscoped
    buffer at the exit valuation. -/
theorem exit10 (c : Dev nD) (ha1 : ∀ k, Vof Win c (pre10.ref k) = a1.1 k) :
    iprop((dat10 (Vof Win) a1 O c).arrays ((dat10 (Vof Win) a1 O c).arrAt · (cfg10 a1).N)
        ∗ Pipeline.prefHeld pre10 c (fun _ => fullShare) a1.1
        ∗ (bigSep ({main_v3} : Finset (Ref sig .tc)) fun b => (((c : Thread nD τ)).loc b) ↦{fullShare} Vof Win c b)
        ∗ bigSep (Pipeline.restRefsP sig pre10 spec10 \ {main_v3}) fun b => (((c : Thread nD τ)).loc b) ↦{fullShare} Vof Win c b)
      ⊢ (StableHlo.held (c : Thread nD τ) (Pipeline.ucRefs τ sig) (Wout10 Win a1 O c) : sProp 𝕄) := by
  have hjoin := Pipeline.unscopedBufs_of_arrays (p := ()) (fun (_ : Unit) => pcfg10 (F := F)) (fun _ => a1)
    (Ix := Unit) (Name := ℕ) (U := UD sig nD τ) (Lvl := ℕ)
    winFacts10 (launch10 (F := F)).arr_whole c (fun _ c => dat10 (Vof Win) a1 O c)
    ((dat10 (Vof Win) a1 O c).share_full fun _ => rfl)
    (Vof Win c) (Vof (Wout10 Win a1 O) c) ((dat10 (Vof Win) a1 O c).arrAt · (cfg10 a1).N)
    (fun w => (Wout10_arr Win a1 O c w).symm)
    (fun b hb => Wout10_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts10 c (Vof Win c),
    Pipeline.unscopedRestP_sdiff pre10 spec10 {main_v3} hx_sub10 c (Vof Win c),
    show (fun k => Vof Win c (pre10.ref k)) = a1.1 from funext ha1] at hjoin
  exact hjoin

end Record

section Seg

variable (Win : Dev nD → Valuation τ sig (Elt F))
  (adm : (p : Fin 49) → (pcfgs (F := F) p).Adm)
  (O : (c : Dev nD) → Fin (cfg10 (adm (10 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout10. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg10 (hd : ∀ c, pdats (10 : Fin 49) c = dat10 (Vof Win) (adm (10 : Fin 49)) O c)
    (ha1 : ∀ c k, Vof Win c (pre10.ref k) = (adm (10 : Fin 49)).1 k)
    (hbody : ∀ c, BodyObligation (dat10 (F := F) (Vof Win) (adm (10 : Fin 49)) O c) (defs₀ (F := F)) 𝒱₀ () Set.univ) :
    Pipeline.RegionSeg (pcfgs (F := F)) adm pdats () defs₀ 𝒱₀ L lv (10 : Fin 49) where
  win := (launch10 (F := F)).win.to₀
  block_pos := (launch10 (F := F)).block_pos
  stage_whole := (launch10 (F := F)).stage_whole
  K := Fin 8
  osem := osem10
  ho := ownSemFacts10
  hbody c := by rw [hd c]; exact (hbody c).loose
  hwaits := Pipeline.hwaits_of_owed_zero _ _ _ _ L lv (10 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout10 Win (adm (10 : Fin 49)) O c) ∗ R c)
  X c := iprop((∃ r, prngReg c r)
    ∗ Pipeline.ownSems0 (Ix := Unit) (Name := ℕ) (U := UD sig nD τ) (Lvl := ℕ) (Val := Elt F) (τ := τ) osem10 c
    ∗ (bigSep ({main_v3} : Finset (Ref sig .tc)) fun b => (((c : Thread nD τ)).loc b) ↦{fullShare} Vof Win c b))
  Y c := iprop((∃ r, prngReg c r)
    ∗ (bigSep ({main_v3} : Finset (Ref sig .tc)) fun b => (((c : Thread nD τ)).loc b) ↦{fullShare} Vof Win c b)
    ∗ Pipeline.prefHeld pre10 c (fun _ => fullShare) (adm (10 : Fin 49)).1)
  Z c := bigSep (Pipeline.restRefsP sig pre10 spec10 \ {main_v3}) fun b => (((c : Thread nD τ)).loc b) ↦{fullShare} Vof Win c b
  hentry c := by
    rw [hd c]
    iintro ⟨⟨Hub, Hp, HO⟩, Hos, -⟩
    ihave H := (entry10 Win (adm (10 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq10, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq10, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit10 Win (adm (10 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg10 (F := F)).Adm)

/-- The output block at point t: the gathered rows (of the far operand's contents under V, chosen by the table's
    words at that point) times the input block. -/
def outBlk10 (c : Dev nD) (t : Fin (cfg10 a1).N) : Vec F S8x64 .f32 :=
  gatherOut (gatherG (a1.1 0) (V c main_v3) (grid10.coords t)) (iblk10 V a1 c 0 t)

theorem outBlk_eq10 (c : Dev nD) (t : Fin (cfg10 a1).N) :
    outBlk10 V a1 c t = gatherOut (gatherG (a1.1 0) (V c main_v3) (grid10.coords t)) (iblk10 V a1 c 0 t) := rfl

/-- The proof data with the output block named: after the body at point t the output window's buffer holds it. -/
theorem afterOutBlk10 (c : Dev nD) (t : Fin (cfg10 a1).N) :
    (dat10 V a1 (outBlk10 V a1) c).after 1 t
      = gatherOut (gatherG (a1.1 0) (V c main_v3) (grid10.coords t)) (iblk10 V a1 c 0 t) :=
  afterOut10 V a1 (outBlk10 V a1) c t

/-- The own cells at zero are the semaphore array's eight entries at zero, in order. -/
theorem ownSems_eq10 (c : Dev nD) :
    (Pipeline.ownSems0 (Ix := Unit) (Name := ℕ) (U := UD sig nD τ) (Lvl := ℕ) (Val := Elt F) (τ := τ) osem10 c : sProp 𝕄)
      = gsems0 c cc10_scratch1 := by
  rw [Pipeline.ownSems0_eq_of_list c osem10 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq10 (t : Fin (cfg10 a1).N) : ∃ h3 h4, bodyProg10 (F := F) a1 t
    = cc10__gather_mul_kernel (grid10.coords t) (Memref.whole main_v41) (Memref.isWhole_whole _) (Memref.whole main_v3) (Memref.isWhole_whole _)
        (stg10 a1 0 t) h3 (stg10 a1 1 t) h4 (Memref.whole cc10_scratch0) (Memref.isWhole_whole _) cc10_scratch1 := ⟨_, _, rfl⟩

end Out

/-! ## The body's run, joined to the proof data -/

section Body

variable (V : (c : Dev nD) → (b : Ref sig .tc) → Buf (Elt F) ((c : Thread nD τ).loc b))
  (a1 : (pcfg10 (F := F)).Adm)

/-- The scratch buffer whole at some contents, as a memref owned at some contents. -/
theorem scratchOwns_eq10 (c : Dev nD) :
    (iprop(∃ d, owns (c : Thread nD τ) (Memref.whole cc10_scratch0) fullShare d) : sProp 𝕄)
      = iprop(∃ f : Buf (Elt F) ((c : Thread nD τ).loc cc10_scratch0), ((c : Thread nD τ).loc cc10_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun10 (hlt : ∀ y, BitVec.toNat ((a1.1 0) y) < 100000) : BodyRun10 V a1 (outBlk10 V a1) := by
  intro c t W K
  obtain ⟨h3, h4, hprog⟩ := bodyProg_eq10 (F := F) a1 t
  rw [hprog, ownSems_eq10, ← scratchOwns_eq10 (F := F) c]
  have hrun := gather_kernel_run_10 (F := F) c (grid10.coords t) (Memref.whole main_v41) (Memref.isWhole_whole _) (Memref.whole main_v3) (Memref.isWhole_whole _)
    (stg10 a1 0 t) h3 (stg10 a1 1 t) h4 (Memref.whole cc10_scratch0) (Memref.isWhole_whole _) cc10_scratch1 fullShare fullShare
    (a1.1 0) (V c main_v3) (iblk10 V a1 c 0 t) (fun y => hlt y) W K
  simp only [Memref.view_whole, View.read_whole] at hrun
  unfold outBlk10
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut10 (hlt : ∀ y, BitVec.toNat ((a1.1 0) y) < 100000) (c : Dev nD) :
    BodyObligation (dat10 (F := F) V a1 (outBlk10 V a1) c) (defs₀ (F := F)) Variants.none () Set.univ :=
  body_obligation10 V a1 (outBlk10 V a1) (bodyRun10 V a1 hlt) c

end Body

/-! # Region 11 -/

/-! ## The body's own transfer cells -/

/-- The eight cells of the body's semaphore array, in order. -/
abbrev osem11 : Fin 8 → SemLoc sig := fun j => SemLoc.dma (cc11_scratch1.ix (fun | ⟨0, _⟩ => j))

/-- They are scoped, pairwise distinct, and none is a staging cell of a window. -/
theorem ownSemFacts11 : Pipeline.OwnSemFacts spec11 osem11 := by decide

/-- The far operand is an unscoped buffer that is neither a window's array nor a table. -/
theorem hx_sub11 : ({main_v3} : Finset (Ref sig .tc)) ⊆ Pipeline.restRefsP sig pre11 spec11 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg11 (F := F)).Adm)
  (O : (c : Dev nD) → Fin (cfg11 a1).N → Vec F S8x64 .f32)

/-! ## The windows' blocks -/

/-- Window w's block at point t, read off its array under V. -/
def iblk11 (c : Dev nD) (w : Fin (cfg11 a1).W) (t : Fin (cfg11 a1).N) :
    (((cfg11 a1).win w).xblock ((cfg11 a1).grid.coords t)).Idx → Elt F ((cfg11 a1).win w).elt :=
  (((cfg11 a1).win w).blk t).view.read (Elt F) (V c (Pipeline.arrRef spec11 w))

/-- The input window's current staging buffer holds its block at every point, fetched there or not, for any proof
    data whose array is V's and whose body leaves the block in place: unfetched, the block index has not moved. -/
theorem beforeIn11_of {c : Dev nD} (dat : Dat τ (Elt F) Unit ℕ (UD sig nD τ) ℕ (cfg11 a1) c)
    (hA : dat.A 0 = V c (Pipeline.arrRef spec11 0))
    (hafter : ∀ t, dat.after 0 t = iblk11 V a1 c 0 t) (t : Fin (cfg11 a1).N) (d) : dat.before 0 t d = iblk11 V a1 c 0 t :=
  (dat.before_in_eq_fetched 0 rfl (fun _ => rfl) (fun _ _ _ => rfl)
    (fun t => by rw [hafter]; unfold Dat.blockOf iblk11; rw [hA]; try rfl) t d).trans
    (by unfold Dat.fetched Dat.blockOf iblk11; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat11 (c : Dev nD) : Dat τ (Elt F) Unit ℕ (UD sig nD τ) ℕ (cfg11 a1) c where
  A w := V c (Pipeline.arrRef spec11 w)
  after w t := match w with
    | ⟨0, _⟩ => iblk11 V a1 c 0 t
    | ⟨1, _⟩ => O c t
  Φ _ := iprop(Pipeline.ΦD osem11 spec11 {main_v3} V c ∗ Pipeline.prefHeld pre11 c (fun _ => fullShare) a1.1)
  q _ := fullShare
  owed _ := 0

theorem A_eq11 (c : Dev nD) (w : Fin (cfg11 a1).W) : (dat11 V a1 O c).A w = V c (Pipeline.arrRef spec11 w) := by
  dsimp only [dat11]

theorem afterIn11 (c : Dev nD) (t : Fin (cfg11 a1).N) : (dat11 V a1 O c).after 0 t = iblk11 V a1 c 0 t := by
  dsimp only [dat11]; rfl

theorem afterOut11 (c : Dev nD) (t : Fin (cfg11 a1).N) :
    (dat11 V a1 O c).after 1 t = O c t := by
  dsimp only [dat11]; rfl

theorem beforeIn11 (c : Dev nD) (t : Fin (cfg11 a1).N) (d) : (dat11 V a1 O c).before 0 t d = iblk11 V a1 c 0 t :=
  beforeIn11_of V a1 (dat11 V a1 O c) (A_eq11 V a1 O c 0) (afterIn11 V a1 O c) t d

theorem Phi_eq11 (c : Dev nD) (t : Fin ((cfg11 a1).N + 1)) :
    (dat11 V a1 O c).Φ t
      = iprop(Pipeline.ΦD osem11 spec11 {main_v3} V c ∗ Pipeline.prefHeld pre11 c (fun _ => fullShare) a1.1) := by
  dsimp only [dat11]

theorem owed_eq11 (c : Dev nD) (t : Fin ((cfg11 a1).N + 1)) : (dat11 V a1 O c).owed t = 0 := by
  dsimp only [dat11]

/-! ## The invariant, conjunct by conjunct -/

/-- The invariant's first part opened: the body's scratch buffer whole at some contents and the other scoped
    buffers no window stages, the generator register, the own cells at zero, the far operand at its contents. -/
theorem PhiD_eq11 (c : Dev nD) :
    (Pipeline.ΦD osem11 spec11 {main_v3} V c : sProp 𝕄)
      = iprop(iprop(iprop((∃ f : Buf (Elt F) ((c : Thread nD τ).loc cc11_scratch0), ((c : Thread nD τ).loc cc11_scratch0) ↦{fullShare} f))
            ∗ Pipeline.scopedRestBut (Ix := Unit) (Name := ℕ) (U := UD sig nD τ) (Lvl := ℕ) (Val := Elt F) spec11 c [cc11_scratch0])
          ∗ (∃ r, prngReg c r)
          ∗ Pipeline.ownSems0 (Ix := Unit) (Name := ℕ) (U := UD sig nD τ) (Lvl := ℕ) (Val := Elt F) (τ := τ) osem11 c
          ∗ (((c : Thread nD τ).loc main_v3) ↦{fullShare} V c main_v3)) := by
  rw [Pipeline.ΦD_eq, scopedRest11_split, BI.bigSep_eq_bigSepL_of_eq [main_v3] (by decide) (by decide)]; rfl

/-- The one table, held whole. -/
theorem prefHeld_eq11 (c : Dev nD) :
    (Pipeline.prefHeld pre11 c (fun _ => fullShare) a1.1 : sProp 𝕄)
      = (((c : Thread nD τ).loc main_v45) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg11 (w : Fin (cfg11 a1).W) (t : Fin (cfg11 a1).N) := ((cfg11 a1).win w).stage ((cfg11 a1).slots t w)

/-- The body as the pipeline calls it at point t. -/
abbrev bodyProg11 (t : Fin (cfg11 a1).N) : Prog (TpuEff nD τ sig (Elt F) Λ₀ .tc) PUnit :=
  (defs₀ (F := F)) .tc (cfg11 a1).body ((cfg11 a1).bodyArgs t ((cfg11 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun11 : Prop :=
  ∀ (c : Dev nD) (t : Fin (cfg11 a1).N) (W) (K : PUnit → sProp 𝕄),
    iprop(owns (c : Thread nD τ) (stg11 a1 0 t) fullShare (iblk11 V a1 c 0 t)
        ∗ (∃ d, owns (c : Thread nD τ) (stg11 a1 1 t) fullShare d)
        ∗ (∃ f : Buf (Elt F) ((c : Thread nD τ).loc cc11_scratch0), ((c : Thread nD τ).loc cc11_scratch0) ↦{fullShare} f)
        ∗ Pipeline.ownSems0 (Ix := Unit) (Name := ℕ) (U := UD sig nD τ) (Lvl := ℕ) (Val := Elt F) (τ := τ) osem11 c
        ∗ (((c : Thread nD τ).loc main_v45) ↦{fullShare} a1.1 0)
        ∗ (((c : Thread nD τ).loc main_v3) ↦{fullShare} V c main_v3)
        ∗ owes (c : Thread nD τ) (0 : CellTallies nD τ sig Unit) W
        ∗ (iprop(owns (c : Thread nD τ) (stg11 a1 0 t) fullShare (iblk11 V a1 c 0 t)
            ∗ owns (c : Thread nD τ) (stg11 a1 1 t) fullShare (O c t)
            ∗ (∃ f : Buf (Elt F) ((c : Thread nD τ).loc cc11_scratch0), ((c : Thread nD τ).loc cc11_scratch0) ↦{fullShare} f)
            ∗ Pipeline.ownSems0 (Ix := Unit) (Name := ℕ) (U := UD sig nD τ) (Lvl := ℕ) (Val := Elt F) (τ := τ) osem11 c
            ∗ (((c : Thread nD τ).loc main_v45) ↦{fullShare} a1.1 0)
            ∗ (((c : Thread nD τ).loc main_v3) ↦{fullShare} V c main_v3)
            ∗ (∃ W', owes (c : Thread nD τ) (0 : CellTallies nD τ sig Unit) W')) -∗ K ⟨⟩))
      ⊢ wp frame (wpE (defs₀ (F := F)) Variants.none c none) Set.univ (bodyProg11 a1 t) K

/-- What the body is called with at point t, the windows one by one, -/
def bodyPre11 (c : Dev nD) (t : Fin (cfg11 a1).N) : sProp 𝕄 :=
  iprop((dat11 V a1 O c).Φ t.castSucc ∗ (dat11 V a1 O c).owesAt () t.castSucc
    ∗ (∃ d, owns (c : Thread nD τ) (stg11 a1 0 t) fullShare ((dat11 V a1 O c).before 0 t d))
    ∗ (∃ d, owns (c : Thread nD τ) (stg11 a1 1 t) fullShare ((dat11 V a1 O c).before 1 t d)))

/-- and what it returns. -/
def bodyPost11 (c : Dev nD) (t : Fin (cfg11 a1).N) : sProp 𝕄 :=
  iprop((dat11 V a1 O c).Φ t.succ ∗ (dat11 V a1 O c).owesAt () t.succ
    ∗ owns (c : Thread nD τ) (stg11 a1 0 t) fullShare ((dat11 V a1 O c).after 0 t)
    ∗ owns (c : Thread nD τ) (stg11 a1 1 t) fullShare ((dat11 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body11 (hrun : BodyRun11 V a1 O) (c : Dev nD) (t : Fin (cfg11 a1).N) :
    bodyPre11 V a1 O c t
      ⊢ wp frame (wpE (defs₀ (F := F)) Variants.none c none) Set.univ (bodyProg11 a1 t) (fun _ => bodyPost11 V a1 O c t) := by
  unfold bodyPre11 bodyPost11
  simp only [beforeIn11]
  rw [afterIn11, afterOut11, Phi_eq11, Phi_eq11, PhiD_eq11, prefHeld_eq11]
  unfold Dat.owesAt Pipeline.owesWithin
  rw [owed_eq11, owed_eq11]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation11 (hrun : BodyRun11 V a1 O) (c : Dev nD) :
    BodyObligation (dat11 (F := F) V a1 O c) (defs₀ (F := F)) Variants.none () Set.univ := fun t => by
  rw [bigSep_W11, bigSep_W11]
  exact sound_body11 V a1 O hrun c t

end Data

/-! ## The region's record -/

section Record

variable (Win : Dev nD → Valuation τ sig (Elt F))

variable (a1 : (pcfg11 (F := F)).Adm)
  (O : (c : Dev nD) → Fin (cfg11 a1).N → Vec F S8x64 .f32)

/-- The buffers at the region's exit: its arrays at what the write-backs leave, every other buffer as entered. -/
def Wout11 (c : Dev nD) : Valuation τ sig (Elt F) :=
  Pipeline.withArrays spec11 c (Win c) fun w => (dat11 (Vof Win) a1 O c).arrAt w (cfg11 a1).N

theorem Wout11_arr (c : Dev nD) (w : Fin (cfg11 a1).W) :
    Wout11 Win a1 O c (Proc.devRef .tc (Pipeline.arrRef spec11 w)) = (dat11 (Vof Win) a1 O c).arrAt w (cfg11 a1).N := by
  unfold Wout11; exact Pipeline.withArrays_arr spec11 winFacts11.arr_inj c _ _ w

theorem Wout11_of_ne (c : Dev nD) (b : Ref sig .tc) (hb : ∀ w, Pipeline.arrRef spec11 w ≠ b) :
    Wout11 Win a1 O c (Proc.devRef .tc b) = Win c (Proc.devRef .tc b) := by
  unfold Wout11; exact Pipeline.withArrays_of_ne spec11 c _ _ b hb

/-- ENTRY, the buffers' part. Every unscoped buffer at Win is: the region's arrays at the proof data's entry contents,
    the table whole at the admissible contents (which are Win's there), the far operand whole, and the others. -/
theorem entry11 (c : Dev nD) (ha1 : ∀ k, Vof Win c (pre11.ref k) = a1.1 k) :
    (StableHlo.held (c : Thread nD τ) (Pipeline.ucRefs τ sig) (Win c) : sProp 𝕄)
      ⊢ iprop((dat11 (Vof Win) a1 O c).arrays ((dat11 (Vof Win) a1 O c).arrAt · 0)
          ∗ Pipeline.prefHeld pre11 c (fun _ => fullShare) a1.1
          ∗ (bigSep ({main_v3} : Finset (Ref sig .tc)) fun b => (((c : Thread nD τ)).loc b) ↦{fullShare} Vof Win c b)
          ∗ bigSep (Pipeline.restRefsP sig pre11 spec11 \ {main_v3}) fun b => (((c : Thread nD τ)).loc b) ↦{fullShare} Vof Win c b) := by
  have hsplit := Pipeline.arrays_of_unscopedBufs (p := ()) (fun (_ : Unit) => pcfg11 (F := F)) (fun _ => a1)
    (fun _ c => dat11 (Vof Win) a1 O c) winFacts11 (launch11 (F := F)).arr_whole c
    ((dat11 (Vof Win) a1 O c).share_full fun _ => rfl) (Vof Win c) (fun w => A_eq11 (Vof Win) a1 O c w)
  rw [Pipeline.unscopedBufs_held,
    Pipeline.unscopedRest_split (Ix := Unit) (Name := ℕ) (U := UD sig nD τ) (Lvl := ℕ) preFacts11 c (Vof Win c),
    Pipeline.unscopedRestP_sdiff pre11 spec11 {main_v3} hx_sub11 c (Vof Win c),
    show (fun k => Vof Win c (pre11.ref k)) = a1.1 from funext ha1] at hsplit
  exact hsplit

/-- EXIT, the buffers' part: the same four put back, the arrays at what the write-backs leave, are every unscoped
    buffer at the exit valuation. -/
theorem exit11 (c : Dev nD) (ha1 : ∀ k, Vof Win c (pre11.ref k) = a1.1 k) :
    iprop((dat11 (Vof Win) a1 O c).arrays ((dat11 (Vof Win) a1 O c).arrAt · (cfg11 a1).N)
        ∗ Pipeline.prefHeld pre11 c (fun _ => fullShare) a1.1
        ∗ (bigSep ({main_v3} : Finset (Ref sig .tc)) fun b => (((c : Thread nD τ)).loc b) ↦{fullShare} Vof Win c b)
        ∗ bigSep (Pipeline.restRefsP sig pre11 spec11 \ {main_v3}) fun b => (((c : Thread nD τ)).loc b) ↦{fullShare} Vof Win c b)
      ⊢ (StableHlo.held (c : Thread nD τ) (Pipeline.ucRefs τ sig) (Wout11 Win a1 O c) : sProp 𝕄) := by
  have hjoin := Pipeline.unscopedBufs_of_arrays (p := ()) (fun (_ : Unit) => pcfg11 (F := F)) (fun _ => a1)
    (Ix := Unit) (Name := ℕ) (U := UD sig nD τ) (Lvl := ℕ)
    winFacts11 (launch11 (F := F)).arr_whole c (fun _ c => dat11 (Vof Win) a1 O c)
    ((dat11 (Vof Win) a1 O c).share_full fun _ => rfl)
    (Vof Win c) (Vof (Wout11 Win a1 O) c) ((dat11 (Vof Win) a1 O c).arrAt · (cfg11 a1).N)
    (fun w => (Wout11_arr Win a1 O c w).symm)
    (fun b hb => Wout11_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts11 c (Vof Win c),
    Pipeline.unscopedRestP_sdiff pre11 spec11 {main_v3} hx_sub11 c (Vof Win c),
    show (fun k => Vof Win c (pre11.ref k)) = a1.1 from funext ha1] at hjoin
  exact hjoin

end Record

section Seg

variable (Win : Dev nD → Valuation τ sig (Elt F))
  (adm : (p : Fin 49) → (pcfgs (F := F) p).Adm)
  (O : (c : Dev nD) → Fin (cfg11 (adm (11 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout11. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg11 (hd : ∀ c, pdats (11 : Fin 49) c = dat11 (Vof Win) (adm (11 : Fin 49)) O c)
    (ha1 : ∀ c k, Vof Win c (pre11.ref k) = (adm (11 : Fin 49)).1 k)
    (hbody : ∀ c, BodyObligation (dat11 (F := F) (Vof Win) (adm (11 : Fin 49)) O c) (defs₀ (F := F)) 𝒱₀ () Set.univ) :
    Pipeline.RegionSeg (pcfgs (F := F)) adm pdats () defs₀ 𝒱₀ L lv (11 : Fin 49) where
  win := (launch11 (F := F)).win.to₀
  block_pos := (launch11 (F := F)).block_pos
  stage_whole := (launch11 (F := F)).stage_whole
  K := Fin 8
  osem := osem11
  ho := ownSemFacts11
  hbody c := by rw [hd c]; exact (hbody c).loose
  hwaits := Pipeline.hwaits_of_owed_zero _ _ _ _ L lv (11 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout11 Win (adm (11 : Fin 49)) O c) ∗ R c)
  X c := iprop((∃ r, prngReg c r)
    ∗ Pipeline.ownSems0 (Ix := Unit) (Name := ℕ) (U := UD sig nD τ) (Lvl := ℕ) (Val := Elt F) (τ := τ) osem11 c
    ∗ (bigSep ({main_v3} : Finset (Ref sig .tc)) fun b => (((c : Thread nD τ)).loc b) ↦{fullShare} Vof Win c b))
  Y c := iprop((∃ r, prngReg c r)
    ∗ (bigSep ({main_v3} : Finset (Ref sig .tc)) fun b => (((c : Thread nD τ)).loc b) ↦{fullShare} Vof Win c b)
    ∗ Pipeline.prefHeld pre11 c (fun _ => fullShare) (adm (11 : Fin 49)).1)
  Z c := bigSep (Pipeline.restRefsP sig pre11 spec11 \ {main_v3}) fun b => (((c : Thread nD τ)).loc b) ↦{fullShare} Vof Win c b
  hentry c := by
    rw [hd c]
    iintro ⟨⟨Hub, Hp, HO⟩, Hos, -⟩
    ihave H := (entry11 Win (adm (11 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq11, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq11, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit11 Win (adm (11 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg11 (F := F)).Adm)

/-- The output block at point t: the gathered rows (of the far operand's contents under V, chosen by the table's
    words at that point) times the input block. -/
def outBlk11 (c : Dev nD) (t : Fin (cfg11 a1).N) : Vec F S8x64 .f32 :=
  gatherOut (gatherG (a1.1 0) (V c main_v3) (grid11.coords t)) (iblk11 V a1 c 0 t)

theorem outBlk_eq11 (c : Dev nD) (t : Fin (cfg11 a1).N) :
    outBlk11 V a1 c t = gatherOut (gatherG (a1.1 0) (V c main_v3) (grid11.coords t)) (iblk11 V a1 c 0 t) := rfl

/-- The proof data with the output block named: after the body at point t the output window's buffer holds it. -/
theorem afterOutBlk11 (c : Dev nD) (t : Fin (cfg11 a1).N) :
    (dat11 V a1 (outBlk11 V a1) c).after 1 t
      = gatherOut (gatherG (a1.1 0) (V c main_v3) (grid11.coords t)) (iblk11 V a1 c 0 t) :=
  afterOut11 V a1 (outBlk11 V a1) c t

/-- The own cells at zero are the semaphore array's eight entries at zero, in order. -/
theorem ownSems_eq11 (c : Dev nD) :
    (Pipeline.ownSems0 (Ix := Unit) (Name := ℕ) (U := UD sig nD τ) (Lvl := ℕ) (Val := Elt F) (τ := τ) osem11 c : sProp 𝕄)
      = gsems0 c cc11_scratch1 := by
  rw [Pipeline.ownSems0_eq_of_list c osem11 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq11 (t : Fin (cfg11 a1).N) : ∃ h3 h4, bodyProg11 (F := F) a1 t
    = cc11__gather_mul_kernel (grid11.coords t) (Memref.whole main_v45) (Memref.isWhole_whole _) (Memref.whole main_v3) (Memref.isWhole_whole _)
        (stg11 a1 0 t) h3 (stg11 a1 1 t) h4 (Memref.whole cc11_scratch0) (Memref.isWhole_whole _) cc11_scratch1 := ⟨_, _, rfl⟩

end Out

/-! ## The body's run, joined to the proof data -/

section Body

variable (V : (c : Dev nD) → (b : Ref sig .tc) → Buf (Elt F) ((c : Thread nD τ).loc b))
  (a1 : (pcfg11 (F := F)).Adm)

/-- The scratch buffer whole at some contents, as a memref owned at some contents. -/
theorem scratchOwns_eq11 (c : Dev nD) :
    (iprop(∃ d, owns (c : Thread nD τ) (Memref.whole cc11_scratch0) fullShare d) : sProp 𝕄)
      = iprop(∃ f : Buf (Elt F) ((c : Thread nD τ).loc cc11_scratch0), ((c : Thread nD τ).loc cc11_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun11 (hlt : ∀ y, BitVec.toNat ((a1.1 0) y) < 100000) : BodyRun11 V a1 (outBlk11 V a1) := by
  intro c t W K
  obtain ⟨h3, h4, hprog⟩ := bodyProg_eq11 (F := F) a1 t
  rw [hprog, ownSems_eq11, ← scratchOwns_eq11 (F := F) c]
  have hrun := gather_kernel_run_11 (F := F) c (grid11.coords t) (Memref.whole main_v45) (Memref.isWhole_whole _) (Memref.whole main_v3) (Memref.isWhole_whole _)
    (stg11 a1 0 t) h3 (stg11 a1 1 t) h4 (Memref.whole cc11_scratch0) (Memref.isWhole_whole _) cc11_scratch1 fullShare fullShare
    (a1.1 0) (V c main_v3) (iblk11 V a1 c 0 t) (fun y => hlt y) W K
  simp only [Memref.view_whole, View.read_whole] at hrun
  unfold outBlk11
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut11 (hlt : ∀ y, BitVec.toNat ((a1.1 0) y) < 100000) (c : Dev nD) :
    BodyObligation (dat11 (F := F) V a1 (outBlk11 V a1) c) (defs₀ (F := F)) Variants.none () Set.univ :=
  body_obligation11 V a1 (outBlk11 V a1) (bodyRun11 V a1 hlt) c

end Body

/-! # Region 12 -/

/-! ## The body's own transfer cells -/

/-- The eight cells of the body's semaphore array, in order. -/
abbrev osem12 : Fin 8 → SemLoc sig := fun j => SemLoc.dma (cc12_scratch1.ix (fun | ⟨0, _⟩ => j))

/-- They are scoped, pairwise distinct, and none is a staging cell of a window. -/
theorem ownSemFacts12 : Pipeline.OwnSemFacts spec12 osem12 := by decide

/-- The far operand is an unscoped buffer that is neither a window's array nor a table. -/
theorem hx_sub12 : ({main_v3} : Finset (Ref sig .tc)) ⊆ Pipeline.restRefsP sig pre12 spec12 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg12 (F := F)).Adm)
  (O : (c : Dev nD) → Fin (cfg12 a1).N → Vec F S8x64 .f32)

/-! ## The windows' blocks -/

/-- Window w's block at point t, read off its array under V. -/
def iblk12 (c : Dev nD) (w : Fin (cfg12 a1).W) (t : Fin (cfg12 a1).N) :
    (((cfg12 a1).win w).xblock ((cfg12 a1).grid.coords t)).Idx → Elt F ((cfg12 a1).win w).elt :=
  (((cfg12 a1).win w).blk t).view.read (Elt F) (V c (Pipeline.arrRef spec12 w))

/-- The input window's current staging buffer holds its block at every point, fetched there or not, for any proof
    data whose array is V's and whose body leaves the block in place: unfetched, the block index has not moved. -/
theorem beforeIn12_of {c : Dev nD} (dat : Dat τ (Elt F) Unit ℕ (UD sig nD τ) ℕ (cfg12 a1) c)
    (hA : dat.A 0 = V c (Pipeline.arrRef spec12 0))
    (hafter : ∀ t, dat.after 0 t = iblk12 V a1 c 0 t) (t : Fin (cfg12 a1).N) (d) : dat.before 0 t d = iblk12 V a1 c 0 t :=
  (dat.before_in_eq_fetched 0 rfl (fun _ => rfl) (fun _ _ _ => rfl)
    (fun t => by rw [hafter]; unfold Dat.blockOf iblk12; rw [hA]; try rfl) t d).trans
    (by unfold Dat.fetched Dat.blockOf iblk12; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat12 (c : Dev nD) : Dat τ (Elt F) Unit ℕ (UD sig nD τ) ℕ (cfg12 a1) c where
  A w := V c (Pipeline.arrRef spec12 w)
  after w t := match w with
    | ⟨0, _⟩ => iblk12 V a1 c 0 t
    | ⟨1, _⟩ => O c t
  Φ _ := iprop(Pipeline.ΦD osem12 spec12 {main_v3} V c ∗ Pipeline.prefHeld pre12 c (fun _ => fullShare) a1.1)
  q _ := fullShare
  owed _ := 0

theorem A_eq12 (c : Dev nD) (w : Fin (cfg12 a1).W) : (dat12 V a1 O c).A w = V c (Pipeline.arrRef spec12 w) := by
  dsimp only [dat12]

theorem afterIn12 (c : Dev nD) (t : Fin (cfg12 a1).N) : (dat12 V a1 O c).after 0 t = iblk12 V a1 c 0 t := by
  dsimp only [dat12]; rfl

theorem afterOut12 (c : Dev nD) (t : Fin (cfg12 a1).N) :
    (dat12 V a1 O c).after 1 t = O c t := by
  dsimp only [dat12]; rfl

theorem beforeIn12 (c : Dev nD) (t : Fin (cfg12 a1).N) (d) : (dat12 V a1 O c).before 0 t d = iblk12 V a1 c 0 t :=
  beforeIn12_of V a1 (dat12 V a1 O c) (A_eq12 V a1 O c 0) (afterIn12 V a1 O c) t d

theorem Phi_eq12 (c : Dev nD) (t : Fin ((cfg12 a1).N + 1)) :
    (dat12 V a1 O c).Φ t
      = iprop(Pipeline.ΦD osem12 spec12 {main_v3} V c ∗ Pipeline.prefHeld pre12 c (fun _ => fullShare) a1.1) := by
  dsimp only [dat12]

theorem owed_eq12 (c : Dev nD) (t : Fin ((cfg12 a1).N + 1)) : (dat12 V a1 O c).owed t = 0 := by
  dsimp only [dat12]

/-! ## The invariant, conjunct by conjunct -/

/-- The invariant's first part opened: the body's scratch buffer whole at some contents and the other scoped
    buffers no window stages, the generator register, the own cells at zero, the far operand at its contents. -/
theorem PhiD_eq12 (c : Dev nD) :
    (Pipeline.ΦD osem12 spec12 {main_v3} V c : sProp 𝕄)
      = iprop(iprop(iprop((∃ f : Buf (Elt F) ((c : Thread nD τ).loc cc12_scratch0), ((c : Thread nD τ).loc cc12_scratch0) ↦{fullShare} f))
            ∗ Pipeline.scopedRestBut (Ix := Unit) (Name := ℕ) (U := UD sig nD τ) (Lvl := ℕ) (Val := Elt F) spec12 c [cc12_scratch0])
          ∗ (∃ r, prngReg c r)
          ∗ Pipeline.ownSems0 (Ix := Unit) (Name := ℕ) (U := UD sig nD τ) (Lvl := ℕ) (Val := Elt F) (τ := τ) osem12 c
          ∗ (((c : Thread nD τ).loc main_v3) ↦{fullShare} V c main_v3)) := by
  rw [Pipeline.ΦD_eq, scopedRest12_split, BI.bigSep_eq_bigSepL_of_eq [main_v3] (by decide) (by decide)]; rfl

/-- The one table, held whole. -/
theorem prefHeld_eq12 (c : Dev nD) :
    (Pipeline.prefHeld pre12 c (fun _ => fullShare) a1.1 : sProp 𝕄)
      = (((c : Thread nD τ).loc main_v49) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg12 (w : Fin (cfg12 a1).W) (t : Fin (cfg12 a1).N) := ((cfg12 a1).win w).stage ((cfg12 a1).slots t w)

/-- The body as the pipeline calls it at point t. -/
abbrev bodyProg12 (t : Fin (cfg12 a1).N) : Prog (TpuEff nD τ sig (Elt F) Λ₀ .tc) PUnit :=
  (defs₀ (F := F)) .tc (cfg12 a1).body ((cfg12 a1).bodyArgs t ((cfg12 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun12 : Prop :=
  ∀ (c : Dev nD) (t : Fin (cfg12 a1).N) (W) (K : PUnit → sProp 𝕄),
    iprop(owns (c : Thread nD τ) (stg12 a1 0 t) fullShare (iblk12 V a1 c 0 t)
        ∗ (∃ d, owns (c : Thread nD τ) (stg12 a1 1 t) fullShare d)
        ∗ (∃ f : Buf (Elt F) ((c : Thread nD τ).loc cc12_scratch0), ((c : Thread nD τ).loc cc12_scratch0) ↦{fullShare} f)
        ∗ Pipeline.ownSems0 (Ix := Unit) (Name := ℕ) (U := UD sig nD τ) (Lvl := ℕ) (Val := Elt F) (τ := τ) osem12 c
        ∗ (((c : Thread nD τ).loc main_v49) ↦{fullShare} a1.1 0)
        ∗ (((c : Thread nD τ).loc main_v3) ↦{fullShare} V c main_v3)
        ∗ owes (c : Thread nD τ) (0 : CellTallies nD τ sig Unit) W
        ∗ (iprop(owns (c : Thread nD τ) (stg12 a1 0 t) fullShare (iblk12 V a1 c 0 t)
            ∗ owns (c : Thread nD τ) (stg12 a1 1 t) fullShare (O c t)
            ∗ (∃ f : Buf (Elt F) ((c : Thread nD τ).loc cc12_scratch0), ((c : Thread nD τ).loc cc12_scratch0) ↦{fullShare} f)
            ∗ Pipeline.ownSems0 (Ix := Unit) (Name := ℕ) (U := UD sig nD τ) (Lvl := ℕ) (Val := Elt F) (τ := τ) osem12 c
            ∗ (((c : Thread nD τ).loc main_v49) ↦{fullShare} a1.1 0)
            ∗ (((c : Thread nD τ).loc main_v3) ↦{fullShare} V c main_v3)
            ∗ (∃ W', owes (c : Thread nD τ) (0 : CellTallies nD τ sig Unit) W')) -∗ K ⟨⟩))
      ⊢ wp frame (wpE (defs₀ (F := F)) Variants.none c none) Set.univ (bodyProg12 a1 t) K

/-- What the body is called with at point t, the windows one by one, -/
def bodyPre12 (c : Dev nD) (t : Fin (cfg12 a1).N) : sProp 𝕄 :=
  iprop((dat12 V a1 O c).Φ t.castSucc ∗ (dat12 V a1 O c).owesAt () t.castSucc
    ∗ (∃ d, owns (c : Thread nD τ) (stg12 a1 0 t) fullShare ((dat12 V a1 O c).before 0 t d))
    ∗ (∃ d, owns (c : Thread nD τ) (stg12 a1 1 t) fullShare ((dat12 V a1 O c).before 1 t d)))

/-- and what it returns. -/
def bodyPost12 (c : Dev nD) (t : Fin (cfg12 a1).N) : sProp 𝕄 :=
  iprop((dat12 V a1 O c).Φ t.succ ∗ (dat12 V a1 O c).owesAt () t.succ
    ∗ owns (c : Thread nD τ) (stg12 a1 0 t) fullShare ((dat12 V a1 O c).after 0 t)
    ∗ owns (c : Thread nD τ) (stg12 a1 1 t) fullShare ((dat12 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body12 (hrun : BodyRun12 V a1 O) (c : Dev nD) (t : Fin (cfg12 a1).N) :
    bodyPre12 V a1 O c t
      ⊢ wp frame (wpE (defs₀ (F := F)) Variants.none c none) Set.univ (bodyProg12 a1 t) (fun _ => bodyPost12 V a1 O c t) := by
  unfold bodyPre12 bodyPost12
  simp only [beforeIn12]
  rw [afterIn12, afterOut12, Phi_eq12, Phi_eq12, PhiD_eq12, prefHeld_eq12]
  unfold Dat.owesAt Pipeline.owesWithin
  rw [owed_eq12, owed_eq12]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation12 (hrun : BodyRun12 V a1 O) (c : Dev nD) :
    BodyObligation (dat12 (F := F) V a1 O c) (defs₀ (F := F)) Variants.none () Set.univ := fun t => by
  rw [bigSep_W12, bigSep_W12]
  exact sound_body12 V a1 O hrun c t

end Data

/-! ## The region's record -/

section Record

variable (Win : Dev nD → Valuation τ sig (Elt F))

variable (a1 : (pcfg12 (F := F)).Adm)
  (O : (c : Dev nD) → Fin (cfg12 a1).N → Vec F S8x64 .f32)

/-- The buffers at the region's exit: its arrays at what the write-backs leave, every other buffer as entered. -/
def Wout12 (c : Dev nD) : Valuation τ sig (Elt F) :=
  Pipeline.withArrays spec12 c (Win c) fun w => (dat12 (Vof Win) a1 O c).arrAt w (cfg12 a1).N

theorem Wout12_arr (c : Dev nD) (w : Fin (cfg12 a1).W) :
    Wout12 Win a1 O c (Proc.devRef .tc (Pipeline.arrRef spec12 w)) = (dat12 (Vof Win) a1 O c).arrAt w (cfg12 a1).N := by
  unfold Wout12; exact Pipeline.withArrays_arr spec12 winFacts12.arr_inj c _ _ w

theorem Wout12_of_ne (c : Dev nD) (b : Ref sig .tc) (hb : ∀ w, Pipeline.arrRef spec12 w ≠ b) :
    Wout12 Win a1 O c (Proc.devRef .tc b) = Win c (Proc.devRef .tc b) := by
  unfold Wout12; exact Pipeline.withArrays_of_ne spec12 c _ _ b hb

/-- ENTRY, the buffers' part. Every unscoped buffer at Win is: the region's arrays at the proof data's entry contents,
    the table whole at the admissible contents (which are Win's there), the far operand whole, and the others. -/
theorem entry12 (c : Dev nD) (ha1 : ∀ k, Vof Win c (pre12.ref k) = a1.1 k) :
    (StableHlo.held (c : Thread nD τ) (Pipeline.ucRefs τ sig) (Win c) : sProp 𝕄)
      ⊢ iprop((dat12 (Vof Win) a1 O c).arrays ((dat12 (Vof Win) a1 O c).arrAt · 0)
          ∗ Pipeline.prefHeld pre12 c (fun _ => fullShare) a1.1
          ∗ (bigSep ({main_v3} : Finset (Ref sig .tc)) fun b => (((c : Thread nD τ)).loc b) ↦{fullShare} Vof Win c b)
          ∗ bigSep (Pipeline.restRefsP sig pre12 spec12 \ {main_v3}) fun b => (((c : Thread nD τ)).loc b) ↦{fullShare} Vof Win c b) := by
  have hsplit := Pipeline.arrays_of_unscopedBufs (p := ()) (fun (_ : Unit) => pcfg12 (F := F)) (fun _ => a1)
    (fun _ c => dat12 (Vof Win) a1 O c) winFacts12 (launch12 (F := F)).arr_whole c
    ((dat12 (Vof Win) a1 O c).share_full fun _ => rfl) (Vof Win c) (fun w => A_eq12 (Vof Win) a1 O c w)
  rw [Pipeline.unscopedBufs_held,
    Pipeline.unscopedRest_split (Ix := Unit) (Name := ℕ) (U := UD sig nD τ) (Lvl := ℕ) preFacts12 c (Vof Win c),
    Pipeline.unscopedRestP_sdiff pre12 spec12 {main_v3} hx_sub12 c (Vof Win c),
    show (fun k => Vof Win c (pre12.ref k)) = a1.1 from funext ha1] at hsplit
  exact hsplit

/-- EXIT, the buffers' part: the same four put back, the arrays at what the write-backs leave, are every unscoped
    buffer at the exit valuation. -/
theorem exit12 (c : Dev nD) (ha1 : ∀ k, Vof Win c (pre12.ref k) = a1.1 k) :
    iprop((dat12 (Vof Win) a1 O c).arrays ((dat12 (Vof Win) a1 O c).arrAt · (cfg12 a1).N)
        ∗ Pipeline.prefHeld pre12 c (fun _ => fullShare) a1.1
        ∗ (bigSep ({main_v3} : Finset (Ref sig .tc)) fun b => (((c : Thread nD τ)).loc b) ↦{fullShare} Vof Win c b)
        ∗ bigSep (Pipeline.restRefsP sig pre12 spec12 \ {main_v3}) fun b => (((c : Thread nD τ)).loc b) ↦{fullShare} Vof Win c b)
      ⊢ (StableHlo.held (c : Thread nD τ) (Pipeline.ucRefs τ sig) (Wout12 Win a1 O c) : sProp 𝕄) := by
  have hjoin := Pipeline.unscopedBufs_of_arrays (p := ()) (fun (_ : Unit) => pcfg12 (F := F)) (fun _ => a1)
    (Ix := Unit) (Name := ℕ) (U := UD sig nD τ) (Lvl := ℕ)
    winFacts12 (launch12 (F := F)).arr_whole c (fun _ c => dat12 (Vof Win) a1 O c)
    ((dat12 (Vof Win) a1 O c).share_full fun _ => rfl)
    (Vof Win c) (Vof (Wout12 Win a1 O) c) ((dat12 (Vof Win) a1 O c).arrAt · (cfg12 a1).N)
    (fun w => (Wout12_arr Win a1 O c w).symm)
    (fun b hb => Wout12_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts12 c (Vof Win c),
    Pipeline.unscopedRestP_sdiff pre12 spec12 {main_v3} hx_sub12 c (Vof Win c),
    show (fun k => Vof Win c (pre12.ref k)) = a1.1 from funext ha1] at hjoin
  exact hjoin

end Record

section Seg

variable (Win : Dev nD → Valuation τ sig (Elt F))
  (adm : (p : Fin 49) → (pcfgs (F := F) p).Adm)
  (O : (c : Dev nD) → Fin (cfg12 (adm (12 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout12. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg12 (hd : ∀ c, pdats (12 : Fin 49) c = dat12 (Vof Win) (adm (12 : Fin 49)) O c)
    (ha1 : ∀ c k, Vof Win c (pre12.ref k) = (adm (12 : Fin 49)).1 k)
    (hbody : ∀ c, BodyObligation (dat12 (F := F) (Vof Win) (adm (12 : Fin 49)) O c) (defs₀ (F := F)) 𝒱₀ () Set.univ) :
    Pipeline.RegionSeg (pcfgs (F := F)) adm pdats () defs₀ 𝒱₀ L lv (12 : Fin 49) where
  win := (launch12 (F := F)).win.to₀
  block_pos := (launch12 (F := F)).block_pos
  stage_whole := (launch12 (F := F)).stage_whole
  K := Fin 8
  osem := osem12
  ho := ownSemFacts12
  hbody c := by rw [hd c]; exact (hbody c).loose
  hwaits := Pipeline.hwaits_of_owed_zero _ _ _ _ L lv (12 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout12 Win (adm (12 : Fin 49)) O c) ∗ R c)
  X c := iprop((∃ r, prngReg c r)
    ∗ Pipeline.ownSems0 (Ix := Unit) (Name := ℕ) (U := UD sig nD τ) (Lvl := ℕ) (Val := Elt F) (τ := τ) osem12 c
    ∗ (bigSep ({main_v3} : Finset (Ref sig .tc)) fun b => (((c : Thread nD τ)).loc b) ↦{fullShare} Vof Win c b))
  Y c := iprop((∃ r, prngReg c r)
    ∗ (bigSep ({main_v3} : Finset (Ref sig .tc)) fun b => (((c : Thread nD τ)).loc b) ↦{fullShare} Vof Win c b)
    ∗ Pipeline.prefHeld pre12 c (fun _ => fullShare) (adm (12 : Fin 49)).1)
  Z c := bigSep (Pipeline.restRefsP sig pre12 spec12 \ {main_v3}) fun b => (((c : Thread nD τ)).loc b) ↦{fullShare} Vof Win c b
  hentry c := by
    rw [hd c]
    iintro ⟨⟨Hub, Hp, HO⟩, Hos, -⟩
    ihave H := (entry12 Win (adm (12 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq12, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq12, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit12 Win (adm (12 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg12 (F := F)).Adm)

/-- The output block at point t: the gathered rows (of the far operand's contents under V, chosen by the table's
    words at that point) times the input block. -/
def outBlk12 (c : Dev nD) (t : Fin (cfg12 a1).N) : Vec F S8x64 .f32 :=
  gatherOut (gatherG (a1.1 0) (V c main_v3) (grid12.coords t)) (iblk12 V a1 c 0 t)

theorem outBlk_eq12 (c : Dev nD) (t : Fin (cfg12 a1).N) :
    outBlk12 V a1 c t = gatherOut (gatherG (a1.1 0) (V c main_v3) (grid12.coords t)) (iblk12 V a1 c 0 t) := rfl

/-- The proof data with the output block named: after the body at point t the output window's buffer holds it. -/
theorem afterOutBlk12 (c : Dev nD) (t : Fin (cfg12 a1).N) :
    (dat12 V a1 (outBlk12 V a1) c).after 1 t
      = gatherOut (gatherG (a1.1 0) (V c main_v3) (grid12.coords t)) (iblk12 V a1 c 0 t) :=
  afterOut12 V a1 (outBlk12 V a1) c t

/-- The own cells at zero are the semaphore array's eight entries at zero, in order. -/
theorem ownSems_eq12 (c : Dev nD) :
    (Pipeline.ownSems0 (Ix := Unit) (Name := ℕ) (U := UD sig nD τ) (Lvl := ℕ) (Val := Elt F) (τ := τ) osem12 c : sProp 𝕄)
      = gsems0 c cc12_scratch1 := by
  rw [Pipeline.ownSems0_eq_of_list c osem12 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq12 (t : Fin (cfg12 a1).N) : ∃ h3 h4, bodyProg12 (F := F) a1 t
    = cc12__gather_mul_kernel (grid12.coords t) (Memref.whole main_v49) (Memref.isWhole_whole _) (Memref.whole main_v3) (Memref.isWhole_whole _)
        (stg12 a1 0 t) h3 (stg12 a1 1 t) h4 (Memref.whole cc12_scratch0) (Memref.isWhole_whole _) cc12_scratch1 := ⟨_, _, rfl⟩

end Out

/-! ## The body's run, joined to the proof data -/

section Body

variable (V : (c : Dev nD) → (b : Ref sig .tc) → Buf (Elt F) ((c : Thread nD τ).loc b))
  (a1 : (pcfg12 (F := F)).Adm)

/-- The scratch buffer whole at some contents, as a memref owned at some contents. -/
theorem scratchOwns_eq12 (c : Dev nD) :
    (iprop(∃ d, owns (c : Thread nD τ) (Memref.whole cc12_scratch0) fullShare d) : sProp 𝕄)
      = iprop(∃ f : Buf (Elt F) ((c : Thread nD τ).loc cc12_scratch0), ((c : Thread nD τ).loc cc12_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun12 (hlt : ∀ y, BitVec.toNat ((a1.1 0) y) < 100000) : BodyRun12 V a1 (outBlk12 V a1) := by
  intro c t W K
  obtain ⟨h3, h4, hprog⟩ := bodyProg_eq12 (F := F) a1 t
  rw [hprog, ownSems_eq12, ← scratchOwns_eq12 (F := F) c]
  have hrun := gather_kernel_run_12 (F := F) c (grid12.coords t) (Memref.whole main_v49) (Memref.isWhole_whole _) (Memref.whole main_v3) (Memref.isWhole_whole _)
    (stg12 a1 0 t) h3 (stg12 a1 1 t) h4 (Memref.whole cc12_scratch0) (Memref.isWhole_whole _) cc12_scratch1 fullShare fullShare
    (a1.1 0) (V c main_v3) (iblk12 V a1 c 0 t) (fun y => hlt y) W K
  simp only [Memref.view_whole, View.read_whole] at hrun
  unfold outBlk12
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut12 (hlt : ∀ y, BitVec.toNat ((a1.1 0) y) < 100000) (c : Dev nD) :
    BodyObligation (dat12 (F := F) V a1 (outBlk12 V a1) c) (defs₀ (F := F)) Variants.none () Set.univ :=
  body_obligation12 V a1 (outBlk12 V a1) (bodyRun12 V a1 hlt) c

end Body

/-! # Region 13 -/

/-! ## The body's own transfer cells -/

/-- The eight cells of the body's semaphore array, in order. -/
abbrev osem13 : Fin 8 → SemLoc sig := fun j => SemLoc.dma (cc13_scratch1.ix (fun | ⟨0, _⟩ => j))

/-- They are scoped, pairwise distinct, and none is a staging cell of a window. -/
theorem ownSemFacts13 : Pipeline.OwnSemFacts spec13 osem13 := by decide

/-- The far operand is an unscoped buffer that is neither a window's array nor a table. -/
theorem hx_sub13 : ({main_v3} : Finset (Ref sig .tc)) ⊆ Pipeline.restRefsP sig pre13 spec13 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg13 (F := F)).Adm)
  (O : (c : Dev nD) → Fin (cfg13 a1).N → Vec F S8x64 .f32)

/-! ## The windows' blocks -/

/-- Window w's block at point t, read off its array under V. -/
def iblk13 (c : Dev nD) (w : Fin (cfg13 a1).W) (t : Fin (cfg13 a1).N) :
    (((cfg13 a1).win w).xblock ((cfg13 a1).grid.coords t)).Idx → Elt F ((cfg13 a1).win w).elt :=
  (((cfg13 a1).win w).blk t).view.read (Elt F) (V c (Pipeline.arrRef spec13 w))

/-- The input window's current staging buffer holds its block at every point, fetched there or not, for any proof
    data whose array is V's and whose body leaves the block in place: unfetched, the block index has not moved. -/
theorem beforeIn13_of {c : Dev nD} (dat : Dat τ (Elt F) Unit ℕ (UD sig nD τ) ℕ (cfg13 a1) c)
    (hA : dat.A 0 = V c (Pipeline.arrRef spec13 0))
    (hafter : ∀ t, dat.after 0 t = iblk13 V a1 c 0 t) (t : Fin (cfg13 a1).N) (d) : dat.before 0 t d = iblk13 V a1 c 0 t :=
  (dat.before_in_eq_fetched 0 rfl (fun _ => rfl) (fun _ _ _ => rfl)
    (fun t => by rw [hafter]; unfold Dat.blockOf iblk13; rw [hA]; try rfl) t d).trans
    (by unfold Dat.fetched Dat.blockOf iblk13; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat13 (c : Dev nD) : Dat τ (Elt F) Unit ℕ (UD sig nD τ) ℕ (cfg13 a1) c where
  A w := V c (Pipeline.arrRef spec13 w)
  after w t := match w with
    | ⟨0, _⟩ => iblk13 V a1 c 0 t
    | ⟨1, _⟩ => O c t
  Φ _ := iprop(Pipeline.ΦD osem13 spec13 {main_v3} V c ∗ Pipeline.prefHeld pre13 c (fun _ => fullShare) a1.1)
  q _ := fullShare
  owed _ := 0

theorem A_eq13 (c : Dev nD) (w : Fin (cfg13 a1).W) : (dat13 V a1 O c).A w = V c (Pipeline.arrRef spec13 w) := by
  dsimp only [dat13]

theorem afterIn13 (c : Dev nD) (t : Fin (cfg13 a1).N) : (dat13 V a1 O c).after 0 t = iblk13 V a1 c 0 t := by
  dsimp only [dat13]; rfl

theorem afterOut13 (c : Dev nD) (t : Fin (cfg13 a1).N) :
    (dat13 V a1 O c).after 1 t = O c t := by
  dsimp only [dat13]; rfl

theorem beforeIn13 (c : Dev nD) (t : Fin (cfg13 a1).N) (d) : (dat13 V a1 O c).before 0 t d = iblk13 V a1 c 0 t :=
  beforeIn13_of V a1 (dat13 V a1 O c) (A_eq13 V a1 O c 0) (afterIn13 V a1 O c) t d

theorem Phi_eq13 (c : Dev nD) (t : Fin ((cfg13 a1).N + 1)) :
    (dat13 V a1 O c).Φ t
      = iprop(Pipeline.ΦD osem13 spec13 {main_v3} V c ∗ Pipeline.prefHeld pre13 c (fun _ => fullShare) a1.1) := by
  dsimp only [dat13]

theorem owed_eq13 (c : Dev nD) (t : Fin ((cfg13 a1).N + 1)) : (dat13 V a1 O c).owed t = 0 := by
  dsimp only [dat13]

/-! ## The invariant, conjunct by conjunct -/

/-- The invariant's first part opened: the body's scratch buffer whole at some contents and the other scoped
    buffers no window stages, the generator register, the own cells at zero, the far operand at its contents. -/
theorem PhiD_eq13 (c : Dev nD) :
    (Pipeline.ΦD osem13 spec13 {main_v3} V c : sProp 𝕄)
      = iprop(iprop(iprop((∃ f : Buf (Elt F) ((c : Thread nD τ).loc cc13_scratch0), ((c : Thread nD τ).loc cc13_scratch0) ↦{fullShare} f))
            ∗ Pipeline.scopedRestBut (Ix := Unit) (Name := ℕ) (U := UD sig nD τ) (Lvl := ℕ) (Val := Elt F) spec13 c [cc13_scratch0])
          ∗ (∃ r, prngReg c r)
          ∗ Pipeline.ownSems0 (Ix := Unit) (Name := ℕ) (U := UD sig nD τ) (Lvl := ℕ) (Val := Elt F) (τ := τ) osem13 c
          ∗ (((c : Thread nD τ).loc main_v3) ↦{fullShare} V c main_v3)) := by
  rw [Pipeline.ΦD_eq, scopedRest13_split, BI.bigSep_eq_bigSepL_of_eq [main_v3] (by decide) (by decide)]; rfl

/-- The one table, held whole. -/
theorem prefHeld_eq13 (c : Dev nD) :
    (Pipeline.prefHeld pre13 c (fun _ => fullShare) a1.1 : sProp 𝕄)
      = (((c : Thread nD τ).loc main_v53) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg13 (w : Fin (cfg13 a1).W) (t : Fin (cfg13 a1).N) := ((cfg13 a1).win w).stage ((cfg13 a1).slots t w)

/-- The body as the pipeline calls it at point t. -/
abbrev bodyProg13 (t : Fin (cfg13 a1).N) : Prog (TpuEff nD τ sig (Elt F) Λ₀ .tc) PUnit :=
  (defs₀ (F := F)) .tc (cfg13 a1).body ((cfg13 a1).bodyArgs t ((cfg13 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun13 : Prop :=
  ∀ (c : Dev nD) (t : Fin (cfg13 a1).N) (W) (K : PUnit → sProp 𝕄),
    iprop(owns (c : Thread nD τ) (stg13 a1 0 t) fullShare (iblk13 V a1 c 0 t)
        ∗ (∃ d, owns (c : Thread nD τ) (stg13 a1 1 t) fullShare d)
        ∗ (∃ f : Buf (Elt F) ((c : Thread nD τ).loc cc13_scratch0), ((c : Thread nD τ).loc cc13_scratch0) ↦{fullShare} f)
        ∗ Pipeline.ownSems0 (Ix := Unit) (Name := ℕ) (U := UD sig nD τ) (Lvl := ℕ) (Val := Elt F) (τ := τ) osem13 c
        ∗ (((c : Thread nD τ).loc main_v53) ↦{fullShare} a1.1 0)
        ∗ (((c : Thread nD τ).loc main_v3) ↦{fullShare} V c main_v3)
        ∗ owes (c : Thread nD τ) (0 : CellTallies nD τ sig Unit) W
        ∗ (iprop(owns (c : Thread nD τ) (stg13 a1 0 t) fullShare (iblk13 V a1 c 0 t)
            ∗ owns (c : Thread nD τ) (stg13 a1 1 t) fullShare (O c t)
            ∗ (∃ f : Buf (Elt F) ((c : Thread nD τ).loc cc13_scratch0), ((c : Thread nD τ).loc cc13_scratch0) ↦{fullShare} f)
            ∗ Pipeline.ownSems0 (Ix := Unit) (Name := ℕ) (U := UD sig nD τ) (Lvl := ℕ) (Val := Elt F) (τ := τ) osem13 c
            ∗ (((c : Thread nD τ).loc main_v53) ↦{fullShare} a1.1 0)
            ∗ (((c : Thread nD τ).loc main_v3) ↦{fullShare} V c main_v3)
            ∗ (∃ W', owes (c : Thread nD τ) (0 : CellTallies nD τ sig Unit) W')) -∗ K ⟨⟩))
      ⊢ wp frame (wpE (defs₀ (F := F)) Variants.none c none) Set.univ (bodyProg13 a1 t) K

/-- What the body is called with at point t, the windows one by one, -/
def bodyPre13 (c : Dev nD) (t : Fin (cfg13 a1).N) : sProp 𝕄 :=
  iprop((dat13 V a1 O c).Φ t.castSucc ∗ (dat13 V a1 O c).owesAt () t.castSucc
    ∗ (∃ d, owns (c : Thread nD τ) (stg13 a1 0 t) fullShare ((dat13 V a1 O c).before 0 t d))
    ∗ (∃ d, owns (c : Thread nD τ) (stg13 a1 1 t) fullShare ((dat13 V a1 O c).before 1 t d)))

/-- and what it returns. -/
def bodyPost13 (c : Dev nD) (t : Fin (cfg13 a1).N) : sProp 𝕄 :=
  iprop((dat13 V a1 O c).Φ t.succ ∗ (dat13 V a1 O c).owesAt () t.succ
    ∗ owns (c : Thread nD τ) (stg13 a1 0 t) fullShare ((dat13 V a1 O c).after 0 t)
    ∗ owns (c : Thread nD τ) (stg13 a1 1 t) fullShare ((dat13 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body13 (hrun : BodyRun13 V a1 O) (c : Dev nD) (t : Fin (cfg13 a1).N) :
    bodyPre13 V a1 O c t
      ⊢ wp frame (wpE (defs₀ (F := F)) Variants.none c none) Set.univ (bodyProg13 a1 t) (fun _ => bodyPost13 V a1 O c t) := by
  unfold bodyPre13 bodyPost13
  simp only [beforeIn13]
  rw [afterIn13, afterOut13, Phi_eq13, Phi_eq13, PhiD_eq13, prefHeld_eq13]
  unfold Dat.owesAt Pipeline.owesWithin
  rw [owed_eq13, owed_eq13]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation13 (hrun : BodyRun13 V a1 O) (c : Dev nD) :
    BodyObligation (dat13 (F := F) V a1 O c) (defs₀ (F := F)) Variants.none () Set.univ := fun t => by
  rw [bigSep_W13, bigSep_W13]
  exact sound_body13 V a1 O hrun c t

end Data

/-! ## The region's record -/

section Record

variable (Win : Dev nD → Valuation τ sig (Elt F))

variable (a1 : (pcfg13 (F := F)).Adm)
  (O : (c : Dev nD) → Fin (cfg13 a1).N → Vec F S8x64 .f32)

/-- The buffers at the region's exit: its arrays at what the write-backs leave, every other buffer as entered. -/
def Wout13 (c : Dev nD) : Valuation τ sig (Elt F) :=
  Pipeline.withArrays spec13 c (Win c) fun w => (dat13 (Vof Win) a1 O c).arrAt w (cfg13 a1).N

theorem Wout13_arr (c : Dev nD) (w : Fin (cfg13 a1).W) :
    Wout13 Win a1 O c (Proc.devRef .tc (Pipeline.arrRef spec13 w)) = (dat13 (Vof Win) a1 O c).arrAt w (cfg13 a1).N := by
  unfold Wout13; exact Pipeline.withArrays_arr spec13 winFacts13.arr_inj c _ _ w

theorem Wout13_of_ne (c : Dev nD) (b : Ref sig .tc) (hb : ∀ w, Pipeline.arrRef spec13 w ≠ b) :
    Wout13 Win a1 O c (Proc.devRef .tc b) = Win c (Proc.devRef .tc b) := by
  unfold Wout13; exact Pipeline.withArrays_of_ne spec13 c _ _ b hb

/-- ENTRY, the buffers' part. Every unscoped buffer at Win is: the region's arrays at the proof data's entry contents,
    the table whole at the admissible contents (which are Win's there), the far operand whole, and the others. -/
theorem entry13 (c : Dev nD) (ha1 : ∀ k, Vof Win c (pre13.ref k) = a1.1 k) :
    (StableHlo.held (c : Thread nD τ) (Pipeline.ucRefs τ sig) (Win c) : sProp 𝕄)
      ⊢ iprop((dat13 (Vof Win) a1 O c).arrays ((dat13 (Vof Win) a1 O c).arrAt · 0)
          ∗ Pipeline.prefHeld pre13 c (fun _ => fullShare) a1.1
          ∗ (bigSep ({main_v3} : Finset (Ref sig .tc)) fun b => (((c : Thread nD τ)).loc b) ↦{fullShare} Vof Win c b)
          ∗ bigSep (Pipeline.restRefsP sig pre13 spec13 \ {main_v3}) fun b => (((c : Thread nD τ)).loc b) ↦{fullShare} Vof Win c b) := by
  have hsplit := Pipeline.arrays_of_unscopedBufs (p := ()) (fun (_ : Unit) => pcfg13 (F := F)) (fun _ => a1)
    (fun _ c => dat13 (Vof Win) a1 O c) winFacts13 (launch13 (F := F)).arr_whole c
    ((dat13 (Vof Win) a1 O c).share_full fun _ => rfl) (Vof Win c) (fun w => A_eq13 (Vof Win) a1 O c w)
  rw [Pipeline.unscopedBufs_held,
    Pipeline.unscopedRest_split (Ix := Unit) (Name := ℕ) (U := UD sig nD τ) (Lvl := ℕ) preFacts13 c (Vof Win c),
    Pipeline.unscopedRestP_sdiff pre13 spec13 {main_v3} hx_sub13 c (Vof Win c),
    show (fun k => Vof Win c (pre13.ref k)) = a1.1 from funext ha1] at hsplit
  exact hsplit

/-- EXIT, the buffers' part: the same four put back, the arrays at what the write-backs leave, are every unscoped
    buffer at the exit valuation. -/
theorem exit13 (c : Dev nD) (ha1 : ∀ k, Vof Win c (pre13.ref k) = a1.1 k) :
    iprop((dat13 (Vof Win) a1 O c).arrays ((dat13 (Vof Win) a1 O c).arrAt · (cfg13 a1).N)
        ∗ Pipeline.prefHeld pre13 c (fun _ => fullShare) a1.1
        ∗ (bigSep ({main_v3} : Finset (Ref sig .tc)) fun b => (((c : Thread nD τ)).loc b) ↦{fullShare} Vof Win c b)
        ∗ bigSep (Pipeline.restRefsP sig pre13 spec13 \ {main_v3}) fun b => (((c : Thread nD τ)).loc b) ↦{fullShare} Vof Win c b)
      ⊢ (StableHlo.held (c : Thread nD τ) (Pipeline.ucRefs τ sig) (Wout13 Win a1 O c) : sProp 𝕄) := by
  have hjoin := Pipeline.unscopedBufs_of_arrays (p := ()) (fun (_ : Unit) => pcfg13 (F := F)) (fun _ => a1)
    (Ix := Unit) (Name := ℕ) (U := UD sig nD τ) (Lvl := ℕ)
    winFacts13 (launch13 (F := F)).arr_whole c (fun _ c => dat13 (Vof Win) a1 O c)
    ((dat13 (Vof Win) a1 O c).share_full fun _ => rfl)
    (Vof Win c) (Vof (Wout13 Win a1 O) c) ((dat13 (Vof Win) a1 O c).arrAt · (cfg13 a1).N)
    (fun w => (Wout13_arr Win a1 O c w).symm)
    (fun b hb => Wout13_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts13 c (Vof Win c),
    Pipeline.unscopedRestP_sdiff pre13 spec13 {main_v3} hx_sub13 c (Vof Win c),
    show (fun k => Vof Win c (pre13.ref k)) = a1.1 from funext ha1] at hjoin
  exact hjoin

end Record

section Seg

variable (Win : Dev nD → Valuation τ sig (Elt F))
  (adm : (p : Fin 49) → (pcfgs (F := F) p).Adm)
  (O : (c : Dev nD) → Fin (cfg13 (adm (13 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout13. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg13 (hd : ∀ c, pdats (13 : Fin 49) c = dat13 (Vof Win) (adm (13 : Fin 49)) O c)
    (ha1 : ∀ c k, Vof Win c (pre13.ref k) = (adm (13 : Fin 49)).1 k)
    (hbody : ∀ c, BodyObligation (dat13 (F := F) (Vof Win) (adm (13 : Fin 49)) O c) (defs₀ (F := F)) 𝒱₀ () Set.univ) :
    Pipeline.RegionSeg (pcfgs (F := F)) adm pdats () defs₀ 𝒱₀ L lv (13 : Fin 49) where
  win := (launch13 (F := F)).win.to₀
  block_pos := (launch13 (F := F)).block_pos
  stage_whole := (launch13 (F := F)).stage_whole
  K := Fin 8
  osem := osem13
  ho := ownSemFacts13
  hbody c := by rw [hd c]; exact (hbody c).loose
  hwaits := Pipeline.hwaits_of_owed_zero _ _ _ _ L lv (13 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout13 Win (adm (13 : Fin 49)) O c) ∗ R c)
  X c := iprop((∃ r, prngReg c r)
    ∗ Pipeline.ownSems0 (Ix := Unit) (Name := ℕ) (U := UD sig nD τ) (Lvl := ℕ) (Val := Elt F) (τ := τ) osem13 c
    ∗ (bigSep ({main_v3} : Finset (Ref sig .tc)) fun b => (((c : Thread nD τ)).loc b) ↦{fullShare} Vof Win c b))
  Y c := iprop((∃ r, prngReg c r)
    ∗ (bigSep ({main_v3} : Finset (Ref sig .tc)) fun b => (((c : Thread nD τ)).loc b) ↦{fullShare} Vof Win c b)
    ∗ Pipeline.prefHeld pre13 c (fun _ => fullShare) (adm (13 : Fin 49)).1)
  Z c := bigSep (Pipeline.restRefsP sig pre13 spec13 \ {main_v3}) fun b => (((c : Thread nD τ)).loc b) ↦{fullShare} Vof Win c b
  hentry c := by
    rw [hd c]
    iintro ⟨⟨Hub, Hp, HO⟩, Hos, -⟩
    ihave H := (entry13 Win (adm (13 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq13, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq13, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit13 Win (adm (13 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg13 (F := F)).Adm)

/-- The output block at point t: the gathered rows (of the far operand's contents under V, chosen by the table's
    words at that point) times the input block. -/
def outBlk13 (c : Dev nD) (t : Fin (cfg13 a1).N) : Vec F S8x64 .f32 :=
  gatherOut (gatherG (a1.1 0) (V c main_v3) (grid13.coords t)) (iblk13 V a1 c 0 t)

theorem outBlk_eq13 (c : Dev nD) (t : Fin (cfg13 a1).N) :
    outBlk13 V a1 c t = gatherOut (gatherG (a1.1 0) (V c main_v3) (grid13.coords t)) (iblk13 V a1 c 0 t) := rfl

/-- The proof data with the output block named: after the body at point t the output window's buffer holds it. -/
theorem afterOutBlk13 (c : Dev nD) (t : Fin (cfg13 a1).N) :
    (dat13 V a1 (outBlk13 V a1) c).after 1 t
      = gatherOut (gatherG (a1.1 0) (V c main_v3) (grid13.coords t)) (iblk13 V a1 c 0 t) :=
  afterOut13 V a1 (outBlk13 V a1) c t

/-- The own cells at zero are the semaphore array's eight entries at zero, in order. -/
theorem ownSems_eq13 (c : Dev nD) :
    (Pipeline.ownSems0 (Ix := Unit) (Name := ℕ) (U := UD sig nD τ) (Lvl := ℕ) (Val := Elt F) (τ := τ) osem13 c : sProp 𝕄)
      = gsems0 c cc13_scratch1 := by
  rw [Pipeline.ownSems0_eq_of_list c osem13 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq13 (t : Fin (cfg13 a1).N) : ∃ h3 h4, bodyProg13 (F := F) a1 t
    = cc13__gather_mul_kernel (grid13.coords t) (Memref.whole main_v53) (Memref.isWhole_whole _) (Memref.whole main_v3) (Memref.isWhole_whole _)
        (stg13 a1 0 t) h3 (stg13 a1 1 t) h4 (Memref.whole cc13_scratch0) (Memref.isWhole_whole _) cc13_scratch1 := ⟨_, _, rfl⟩

end Out

/-! ## The body's run, joined to the proof data -/

section Body

variable (V : (c : Dev nD) → (b : Ref sig .tc) → Buf (Elt F) ((c : Thread nD τ).loc b))
  (a1 : (pcfg13 (F := F)).Adm)

/-- The scratch buffer whole at some contents, as a memref owned at some contents. -/
theorem scratchOwns_eq13 (c : Dev nD) :
    (iprop(∃ d, owns (c : Thread nD τ) (Memref.whole cc13_scratch0) fullShare d) : sProp 𝕄)
      = iprop(∃ f : Buf (Elt F) ((c : Thread nD τ).loc cc13_scratch0), ((c : Thread nD τ).loc cc13_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun13 (hlt : ∀ y, BitVec.toNat ((a1.1 0) y) < 100000) : BodyRun13 V a1 (outBlk13 V a1) := by
  intro c t W K
  obtain ⟨h3, h4, hprog⟩ := bodyProg_eq13 (F := F) a1 t
  rw [hprog, ownSems_eq13, ← scratchOwns_eq13 (F := F) c]
  have hrun := gather_kernel_run_13 (F := F) c (grid13.coords t) (Memref.whole main_v53) (Memref.isWhole_whole _) (Memref.whole main_v3) (Memref.isWhole_whole _)
    (stg13 a1 0 t) h3 (stg13 a1 1 t) h4 (Memref.whole cc13_scratch0) (Memref.isWhole_whole _) cc13_scratch1 fullShare fullShare
    (a1.1 0) (V c main_v3) (iblk13 V a1 c 0 t) (fun y => hlt y) W K
  simp only [Memref.view_whole, View.read_whole] at hrun
  unfold outBlk13
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut13 (hlt : ∀ y, BitVec.toNat ((a1.1 0) y) < 100000) (c : Dev nD) :
    BodyObligation (dat13 (F := F) V a1 (outBlk13 V a1) c) (defs₀ (F := F)) Variants.none () Set.univ :=
  body_obligation13 V a1 (outBlk13 V a1) (bodyRun13 V a1 hlt) c

end Body

/-! # Region 14 -/

/-! ## The body's own transfer cells -/

/-- The eight cells of the body's semaphore array, in order. -/
abbrev osem14 : Fin 8 → SemLoc sig := fun j => SemLoc.dma (cc14_scratch1.ix (fun | ⟨0, _⟩ => j))

/-- They are scoped, pairwise distinct, and none is a staging cell of a window. -/
theorem ownSemFacts14 : Pipeline.OwnSemFacts spec14 osem14 := by decide

/-- The far operand is an unscoped buffer that is neither a window's array nor a table. -/
theorem hx_sub14 : ({main_v3} : Finset (Ref sig .tc)) ⊆ Pipeline.restRefsP sig pre14 spec14 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg14 (F := F)).Adm)
  (O : (c : Dev nD) → Fin (cfg14 a1).N → Vec F S8x64 .f32)

/-! ## The windows' blocks -/

/-- Window w's block at point t, read off its array under V. -/
def iblk14 (c : Dev nD) (w : Fin (cfg14 a1).W) (t : Fin (cfg14 a1).N) :
    (((cfg14 a1).win w).xblock ((cfg14 a1).grid.coords t)).Idx → Elt F ((cfg14 a1).win w).elt :=
  (((cfg14 a1).win w).blk t).view.read (Elt F) (V c (Pipeline.arrRef spec14 w))

/-- The input window's current staging buffer holds its block at every point, fetched there or not, for any proof
    data whose array is V's and whose body leaves the block in place: unfetched, the block index has not moved. -/
theorem beforeIn14_of {c : Dev nD} (dat : Dat τ (Elt F) Unit ℕ (UD sig nD τ) ℕ (cfg14 a1) c)
    (hA : dat.A 0 = V c (Pipeline.arrRef spec14 0))
    (hafter : ∀ t, dat.after 0 t = iblk14 V a1 c 0 t) (t : Fin (cfg14 a1).N) (d) : dat.before 0 t d = iblk14 V a1 c 0 t :=
  (dat.before_in_eq_fetched 0 rfl (fun _ => rfl) (fun _ _ _ => rfl)
    (fun t => by rw [hafter]; unfold Dat.blockOf iblk14; rw [hA]; try rfl) t d).trans
    (by unfold Dat.fetched Dat.blockOf iblk14; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat14 (c : Dev nD) : Dat τ (Elt F) Unit ℕ (UD sig nD τ) ℕ (cfg14 a1) c where
  A w := V c (Pipeline.arrRef spec14 w)
  after w t := match w with
    | ⟨0, _⟩ => iblk14 V a1 c 0 t
    | ⟨1, _⟩ => O c t
  Φ _ := iprop(Pipeline.ΦD osem14 spec14 {main_v3} V c ∗ Pipeline.prefHeld pre14 c (fun _ => fullShare) a1.1)
  q _ := fullShare
  owed _ := 0

theorem A_eq14 (c : Dev nD) (w : Fin (cfg14 a1).W) : (dat14 V a1 O c).A w = V c (Pipeline.arrRef spec14 w) := by
  dsimp only [dat14]

theorem afterIn14 (c : Dev nD) (t : Fin (cfg14 a1).N) : (dat14 V a1 O c).after 0 t = iblk14 V a1 c 0 t := by
  dsimp only [dat14]; rfl

theorem afterOut14 (c : Dev nD) (t : Fin (cfg14 a1).N) :
    (dat14 V a1 O c).after 1 t = O c t := by
  dsimp only [dat14]; rfl

theorem beforeIn14 (c : Dev nD) (t : Fin (cfg14 a1).N) (d) : (dat14 V a1 O c).before 0 t d = iblk14 V a1 c 0 t :=
  beforeIn14_of V a1 (dat14 V a1 O c) (A_eq14 V a1 O c 0) (afterIn14 V a1 O c) t d

theorem Phi_eq14 (c : Dev nD) (t : Fin ((cfg14 a1).N + 1)) :
    (dat14 V a1 O c).Φ t
      = iprop(Pipeline.ΦD osem14 spec14 {main_v3} V c ∗ Pipeline.prefHeld pre14 c (fun _ => fullShare) a1.1) := by
  dsimp only [dat14]

theorem owed_eq14 (c : Dev nD) (t : Fin ((cfg14 a1).N + 1)) : (dat14 V a1 O c).owed t = 0 := by
  dsimp only [dat14]

/-! ## The invariant, conjunct by conjunct -/

/-- The invariant's first part opened: the body's scratch buffer whole at some contents and the other scoped
    buffers no window stages, the generator register, the own cells at zero, the far operand at its contents. -/
theorem PhiD_eq14 (c : Dev nD) :
    (Pipeline.ΦD osem14 spec14 {main_v3} V c : sProp 𝕄)
      = iprop(iprop(iprop((∃ f : Buf (Elt F) ((c : Thread nD τ).loc cc14_scratch0), ((c : Thread nD τ).loc cc14_scratch0) ↦{fullShare} f))
            ∗ Pipeline.scopedRestBut (Ix := Unit) (Name := ℕ) (U := UD sig nD τ) (Lvl := ℕ) (Val := Elt F) spec14 c [cc14_scratch0])
          ∗ (∃ r, prngReg c r)
          ∗ Pipeline.ownSems0 (Ix := Unit) (Name := ℕ) (U := UD sig nD τ) (Lvl := ℕ) (Val := Elt F) (τ := τ) osem14 c
          ∗ (((c : Thread nD τ).loc main_v3) ↦{fullShare} V c main_v3)) := by
  rw [Pipeline.ΦD_eq, scopedRest14_split, BI.bigSep_eq_bigSepL_of_eq [main_v3] (by decide) (by decide)]; rfl

/-- The one table, held whole. -/
theorem prefHeld_eq14 (c : Dev nD) :
    (Pipeline.prefHeld pre14 c (fun _ => fullShare) a1.1 : sProp 𝕄)
      = (((c : Thread nD τ).loc main_v57) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg14 (w : Fin (cfg14 a1).W) (t : Fin (cfg14 a1).N) := ((cfg14 a1).win w).stage ((cfg14 a1).slots t w)

/-- The body as the pipeline calls it at point t. -/
abbrev bodyProg14 (t : Fin (cfg14 a1).N) : Prog (TpuEff nD τ sig (Elt F) Λ₀ .tc) PUnit :=
  (defs₀ (F := F)) .tc (cfg14 a1).body ((cfg14 a1).bodyArgs t ((cfg14 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun14 : Prop :=
  ∀ (c : Dev nD) (t : Fin (cfg14 a1).N) (W) (K : PUnit → sProp 𝕄),
    iprop(owns (c : Thread nD τ) (stg14 a1 0 t) fullShare (iblk14 V a1 c 0 t)
        ∗ (∃ d, owns (c : Thread nD τ) (stg14 a1 1 t) fullShare d)
        ∗ (∃ f : Buf (Elt F) ((c : Thread nD τ).loc cc14_scratch0), ((c : Thread nD τ).loc cc14_scratch0) ↦{fullShare} f)
        ∗ Pipeline.ownSems0 (Ix := Unit) (Name := ℕ) (U := UD sig nD τ) (Lvl := ℕ) (Val := Elt F) (τ := τ) osem14 c
        ∗ (((c : Thread nD τ).loc main_v57) ↦{fullShare} a1.1 0)
        ∗ (((c : Thread nD τ).loc main_v3) ↦{fullShare} V c main_v3)
        ∗ owes (c : Thread nD τ) (0 : CellTallies nD τ sig Unit) W
        ∗ (iprop(owns (c : Thread nD τ) (stg14 a1 0 t) fullShare (iblk14 V a1 c 0 t)
            ∗ owns (c : Thread nD τ) (stg14 a1 1 t) fullShare (O c t)
            ∗ (∃ f : Buf (Elt F) ((c : Thread nD τ).loc cc14_scratch0), ((c : Thread nD τ).loc cc14_scratch0) ↦{fullShare} f)
            ∗ Pipeline.ownSems0 (Ix := Unit) (Name := ℕ) (U := UD sig nD τ) (Lvl := ℕ) (Val := Elt F) (τ := τ) osem14 c
            ∗ (((c : Thread nD τ).loc main_v57) ↦{fullShare} a1.1 0)
            ∗ (((c : Thread nD τ).loc main_v3) ↦{fullShare} V c main_v3)
            ∗ (∃ W', owes (c : Thread nD τ) (0 : CellTallies nD τ sig Unit) W')) -∗ K ⟨⟩))
      ⊢ wp frame (wpE (defs₀ (F := F)) Variants.none c none) Set.univ (bodyProg14 a1 t) K

/-- What the body is called with at point t, the windows one by one, -/
def bodyPre14 (c : Dev nD) (t : Fin (cfg14 a1).N) : sProp 𝕄 :=
  iprop((dat14 V a1 O c).Φ t.castSucc ∗ (dat14 V a1 O c).owesAt () t.castSucc
    ∗ (∃ d, owns (c : Thread nD τ) (stg14 a1 0 t) fullShare ((dat14 V a1 O c).before 0 t d))
    ∗ (∃ d, owns (c : Thread nD τ) (stg14 a1 1 t) fullShare ((dat14 V a1 O c).before 1 t d)))

/-- and what it returns. -/
def bodyPost14 (c : Dev nD) (t : Fin (cfg14 a1).N) : sProp 𝕄 :=
  iprop((dat14 V a1 O c).Φ t.succ ∗ (dat14 V a1 O c).owesAt () t.succ
    ∗ owns (c : Thread nD τ) (stg14 a1 0 t) fullShare ((dat14 V a1 O c).after 0 t)
    ∗ owns (c : Thread nD τ) (stg14 a1 1 t) fullShare ((dat14 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body14 (hrun : BodyRun14 V a1 O) (c : Dev nD) (t : Fin (cfg14 a1).N) :
    bodyPre14 V a1 O c t
      ⊢ wp frame (wpE (defs₀ (F := F)) Variants.none c none) Set.univ (bodyProg14 a1 t) (fun _ => bodyPost14 V a1 O c t) := by
  unfold bodyPre14 bodyPost14
  simp only [beforeIn14]
  rw [afterIn14, afterOut14, Phi_eq14, Phi_eq14, PhiD_eq14, prefHeld_eq14]
  unfold Dat.owesAt Pipeline.owesWithin
  rw [owed_eq14, owed_eq14]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation14 (hrun : BodyRun14 V a1 O) (c : Dev nD) :
    BodyObligation (dat14 (F := F) V a1 O c) (defs₀ (F := F)) Variants.none () Set.univ := fun t => by
  rw [bigSep_W14, bigSep_W14]
  exact sound_body14 V a1 O hrun c t

end Data

/-! ## The region's record -/

section Record

variable (Win : Dev nD → Valuation τ sig (Elt F))

variable (a1 : (pcfg14 (F := F)).Adm)
  (O : (c : Dev nD) → Fin (cfg14 a1).N → Vec F S8x64 .f32)

/-- The buffers at the region's exit: its arrays at what the write-backs leave, every other buffer as entered. -/
def Wout14 (c : Dev nD) : Valuation τ sig (Elt F) :=
  Pipeline.withArrays spec14 c (Win c) fun w => (dat14 (Vof Win) a1 O c).arrAt w (cfg14 a1).N

theorem Wout14_arr (c : Dev nD) (w : Fin (cfg14 a1).W) :
    Wout14 Win a1 O c (Proc.devRef .tc (Pipeline.arrRef spec14 w)) = (dat14 (Vof Win) a1 O c).arrAt w (cfg14 a1).N := by
  unfold Wout14; exact Pipeline.withArrays_arr spec14 winFacts14.arr_inj c _ _ w

theorem Wout14_of_ne (c : Dev nD) (b : Ref sig .tc) (hb : ∀ w, Pipeline.arrRef spec14 w ≠ b) :
    Wout14 Win a1 O c (Proc.devRef .tc b) = Win c (Proc.devRef .tc b) := by
  unfold Wout14; exact Pipeline.withArrays_of_ne spec14 c _ _ b hb

/-- ENTRY, the buffers' part. Every unscoped buffer at Win is: the region's arrays at the proof data's entry contents,
    the table whole at the admissible contents (which are Win's there), the far operand whole, and the others. -/
theorem entry14 (c : Dev nD) (ha1 : ∀ k, Vof Win c (pre14.ref k) = a1.1 k) :
    (StableHlo.held (c : Thread nD τ) (Pipeline.ucRefs τ sig) (Win c) : sProp 𝕄)
      ⊢ iprop((dat14 (Vof Win) a1 O c).arrays ((dat14 (Vof Win) a1 O c).arrAt · 0)
          ∗ Pipeline.prefHeld pre14 c (fun _ => fullShare) a1.1
          ∗ (bigSep ({main_v3} : Finset (Ref sig .tc)) fun b => (((c : Thread nD τ)).loc b) ↦{fullShare} Vof Win c b)
          ∗ bigSep (Pipeline.restRefsP sig pre14 spec14 \ {main_v3}) fun b => (((c : Thread nD τ)).loc b) ↦{fullShare} Vof Win c b) := by
  have hsplit := Pipeline.arrays_of_unscopedBufs (p := ()) (fun (_ : Unit) => pcfg14 (F := F)) (fun _ => a1)
    (fun _ c => dat14 (Vof Win) a1 O c) winFacts14 (launch14 (F := F)).arr_whole c
    ((dat14 (Vof Win) a1 O c).share_full fun _ => rfl) (Vof Win c) (fun w => A_eq14 (Vof Win) a1 O c w)
  rw [Pipeline.unscopedBufs_held,
    Pipeline.unscopedRest_split (Ix := Unit) (Name := ℕ) (U := UD sig nD τ) (Lvl := ℕ) preFacts14 c (Vof Win c),
    Pipeline.unscopedRestP_sdiff pre14 spec14 {main_v3} hx_sub14 c (Vof Win c),
    show (fun k => Vof Win c (pre14.ref k)) = a1.1 from funext ha1] at hsplit
  exact hsplit

/-- EXIT, the buffers' part: the same four put back, the arrays at what the write-backs leave, are every unscoped
    buffer at the exit valuation. -/
theorem exit14 (c : Dev nD) (ha1 : ∀ k, Vof Win c (pre14.ref k) = a1.1 k) :
    iprop((dat14 (Vof Win) a1 O c).arrays ((dat14 (Vof Win) a1 O c).arrAt · (cfg14 a1).N)
        ∗ Pipeline.prefHeld pre14 c (fun _ => fullShare) a1.1
        ∗ (bigSep ({main_v3} : Finset (Ref sig .tc)) fun b => (((c : Thread nD τ)).loc b) ↦{fullShare} Vof Win c b)
        ∗ bigSep (Pipeline.restRefsP sig pre14 spec14 \ {main_v3}) fun b => (((c : Thread nD τ)).loc b) ↦{fullShare} Vof Win c b)
      ⊢ (StableHlo.held (c : Thread nD τ) (Pipeline.ucRefs τ sig) (Wout14 Win a1 O c) : sProp 𝕄) := by
  have hjoin := Pipeline.unscopedBufs_of_arrays (p := ()) (fun (_ : Unit) => pcfg14 (F := F)) (fun _ => a1)
    (Ix := Unit) (Name := ℕ) (U := UD sig nD τ) (Lvl := ℕ)
    winFacts14 (launch14 (F := F)).arr_whole c (fun _ c => dat14 (Vof Win) a1 O c)
    ((dat14 (Vof Win) a1 O c).share_full fun _ => rfl)
    (Vof Win c) (Vof (Wout14 Win a1 O) c) ((dat14 (Vof Win) a1 O c).arrAt · (cfg14 a1).N)
    (fun w => (Wout14_arr Win a1 O c w).symm)
    (fun b hb => Wout14_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts14 c (Vof Win c),
    Pipeline.unscopedRestP_sdiff pre14 spec14 {main_v3} hx_sub14 c (Vof Win c),
    show (fun k => Vof Win c (pre14.ref k)) = a1.1 from funext ha1] at hjoin
  exact hjoin

end Record

section Seg

variable (Win : Dev nD → Valuation τ sig (Elt F))
  (adm : (p : Fin 49) → (pcfgs (F := F) p).Adm)
  (O : (c : Dev nD) → Fin (cfg14 (adm (14 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout14. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg14 (hd : ∀ c, pdats (14 : Fin 49) c = dat14 (Vof Win) (adm (14 : Fin 49)) O c)
    (ha1 : ∀ c k, Vof Win c (pre14.ref k) = (adm (14 : Fin 49)).1 k)
    (hbody : ∀ c, BodyObligation (dat14 (F := F) (Vof Win) (adm (14 : Fin 49)) O c) (defs₀ (F := F)) 𝒱₀ () Set.univ) :
    Pipeline.RegionSeg (pcfgs (F := F)) adm pdats () defs₀ 𝒱₀ L lv (14 : Fin 49) where
  win := (launch14 (F := F)).win.to₀
  block_pos := (launch14 (F := F)).block_pos
  stage_whole := (launch14 (F := F)).stage_whole
  K := Fin 8
  osem := osem14
  ho := ownSemFacts14
  hbody c := by rw [hd c]; exact (hbody c).loose
  hwaits := Pipeline.hwaits_of_owed_zero _ _ _ _ L lv (14 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout14 Win (adm (14 : Fin 49)) O c) ∗ R c)
  X c := iprop((∃ r, prngReg c r)
    ∗ Pipeline.ownSems0 (Ix := Unit) (Name := ℕ) (U := UD sig nD τ) (Lvl := ℕ) (Val := Elt F) (τ := τ) osem14 c
    ∗ (bigSep ({main_v3} : Finset (Ref sig .tc)) fun b => (((c : Thread nD τ)).loc b) ↦{fullShare} Vof Win c b))
  Y c := iprop((∃ r, prngReg c r)
    ∗ (bigSep ({main_v3} : Finset (Ref sig .tc)) fun b => (((c : Thread nD τ)).loc b) ↦{fullShare} Vof Win c b)
    ∗ Pipeline.prefHeld pre14 c (fun _ => fullShare) (adm (14 : Fin 49)).1)
  Z c := bigSep (Pipeline.restRefsP sig pre14 spec14 \ {main_v3}) fun b => (((c : Thread nD τ)).loc b) ↦{fullShare} Vof Win c b
  hentry c := by
    rw [hd c]
    iintro ⟨⟨Hub, Hp, HO⟩, Hos, -⟩
    ihave H := (entry14 Win (adm (14 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq14, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq14, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit14 Win (adm (14 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg14 (F := F)).Adm)

/-- The output block at point t: the gathered rows (of the far operand's contents under V, chosen by the table's
    words at that point) times the input block. -/
def outBlk14 (c : Dev nD) (t : Fin (cfg14 a1).N) : Vec F S8x64 .f32 :=
  gatherOut (gatherG (a1.1 0) (V c main_v3) (grid14.coords t)) (iblk14 V a1 c 0 t)

theorem outBlk_eq14 (c : Dev nD) (t : Fin (cfg14 a1).N) :
    outBlk14 V a1 c t = gatherOut (gatherG (a1.1 0) (V c main_v3) (grid14.coords t)) (iblk14 V a1 c 0 t) := rfl

/-- The proof data with the output block named: after the body at point t the output window's buffer holds it. -/
theorem afterOutBlk14 (c : Dev nD) (t : Fin (cfg14 a1).N) :
    (dat14 V a1 (outBlk14 V a1) c).after 1 t
      = gatherOut (gatherG (a1.1 0) (V c main_v3) (grid14.coords t)) (iblk14 V a1 c 0 t) :=
  afterOut14 V a1 (outBlk14 V a1) c t

/-- The own cells at zero are the semaphore array's eight entries at zero, in order. -/
theorem ownSems_eq14 (c : Dev nD) :
    (Pipeline.ownSems0 (Ix := Unit) (Name := ℕ) (U := UD sig nD τ) (Lvl := ℕ) (Val := Elt F) (τ := τ) osem14 c : sProp 𝕄)
      = gsems0 c cc14_scratch1 := by
  rw [Pipeline.ownSems0_eq_of_list c osem14 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq14 (t : Fin (cfg14 a1).N) : ∃ h3 h4, bodyProg14 (F := F) a1 t
    = cc14__gather_mul_kernel (grid14.coords t) (Memref.whole main_v57) (Memref.isWhole_whole _) (Memref.whole main_v3) (Memref.isWhole_whole _)
        (stg14 a1 0 t) h3 (stg14 a1 1 t) h4 (Memref.whole cc14_scratch0) (Memref.isWhole_whole _) cc14_scratch1 := ⟨_, _, rfl⟩

end Out

/-! ## The body's run, joined to the proof data -/

section Body

variable (V : (c : Dev nD) → (b : Ref sig .tc) → Buf (Elt F) ((c : Thread nD τ).loc b))
  (a1 : (pcfg14 (F := F)).Adm)

/-- The scratch buffer whole at some contents, as a memref owned at some contents. -/
theorem scratchOwns_eq14 (c : Dev nD) :
    (iprop(∃ d, owns (c : Thread nD τ) (Memref.whole cc14_scratch0) fullShare d) : sProp 𝕄)
      = iprop(∃ f : Buf (Elt F) ((c : Thread nD τ).loc cc14_scratch0), ((c : Thread nD τ).loc cc14_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun14 (hlt : ∀ y, BitVec.toNat ((a1.1 0) y) < 100000) : BodyRun14 V a1 (outBlk14 V a1) := by
  intro c t W K
  obtain ⟨h3, h4, hprog⟩ := bodyProg_eq14 (F := F) a1 t
  rw [hprog, ownSems_eq14, ← scratchOwns_eq14 (F := F) c]
  have hrun := gather_kernel_run_14 (F := F) c (grid14.coords t) (Memref.whole main_v57) (Memref.isWhole_whole _) (Memref.whole main_v3) (Memref.isWhole_whole _)
    (stg14 a1 0 t) h3 (stg14 a1 1 t) h4 (Memref.whole cc14_scratch0) (Memref.isWhole_whole _) cc14_scratch1 fullShare fullShare
    (a1.1 0) (V c main_v3) (iblk14 V a1 c 0 t) (fun y => hlt y) W K
  simp only [Memref.view_whole, View.read_whole] at hrun
  unfold outBlk14
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut14 (hlt : ∀ y, BitVec.toNat ((a1.1 0) y) < 100000) (c : Dev nD) :
    BodyObligation (dat14 (F := F) V a1 (outBlk14 V a1) c) (defs₀ (F := F)) Variants.none () Set.univ :=
  body_obligation14 V a1 (outBlk14 V a1) (bodyRun14 V a1 hlt) c

end Body

/-! # Region 15 -/

/-! ## The body's own transfer cells -/

/-- The eight cells of the body's semaphore array, in order. -/
abbrev osem15 : Fin 8 → SemLoc sig := fun j => SemLoc.dma (cc15_scratch1.ix (fun | ⟨0, _⟩ => j))

/-- They are scoped, pairwise distinct, and none is a staging cell of a window. -/
theorem ownSemFacts15 : Pipeline.OwnSemFacts spec15 osem15 := by decide

/-- The far operand is an unscoped buffer that is neither a window's array nor a table. -/
theorem hx_sub15 : ({main_v3} : Finset (Ref sig .tc)) ⊆ Pipeline.restRefsP sig pre15 spec15 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg15 (F := F)).Adm)
  (O : (c : Dev nD) → Fin (cfg15 a1).N → Vec F S8x64 .f32)

/-! ## The windows' blocks -/

/-- Window w's block at point t, read off its array under V. -/
def iblk15 (c : Dev nD) (w : Fin (cfg15 a1).W) (t : Fin (cfg15 a1).N) :
    (((cfg15 a1).win w).xblock ((cfg15 a1).grid.coords t)).Idx → Elt F ((cfg15 a1).win w).elt :=
  (((cfg15 a1).win w).blk t).view.read (Elt F) (V c (Pipeline.arrRef spec15 w))

/-- The input window's current staging buffer holds its block at every point, fetched there or not, for any proof
    data whose array is V's and whose body leaves the block in place: unfetched, the block index has not moved. -/
theorem beforeIn15_of {c : Dev nD} (dat : Dat τ (Elt F) Unit ℕ (UD sig nD τ) ℕ (cfg15 a1) c)
    (hA : dat.A 0 = V c (Pipeline.arrRef spec15 0))
    (hafter : ∀ t, dat.after 0 t = iblk15 V a1 c 0 t) (t : Fin (cfg15 a1).N) (d) : dat.before 0 t d = iblk15 V a1 c 0 t :=
  (dat.before_in_eq_fetched 0 rfl (fun _ => rfl) (fun _ _ _ => rfl)
    (fun t => by rw [hafter]; unfold Dat.blockOf iblk15; rw [hA]; try rfl) t d).trans
    (by unfold Dat.fetched Dat.blockOf iblk15; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat15 (c : Dev nD) : Dat τ (Elt F) Unit ℕ (UD sig nD τ) ℕ (cfg15 a1) c where
  A w := V c (Pipeline.arrRef spec15 w)
  after w t := match w with
    | ⟨0, _⟩ => iblk15 V a1 c 0 t
    | ⟨1, _⟩ => O c t
  Φ _ := iprop(Pipeline.ΦD osem15 spec15 {main_v3} V c ∗ Pipeline.prefHeld pre15 c (fun _ => fullShare) a1.1)
  q _ := fullShare
  owed _ := 0

theorem A_eq15 (c : Dev nD) (w : Fin (cfg15 a1).W) : (dat15 V a1 O c).A w = V c (Pipeline.arrRef spec15 w) := by
  dsimp only [dat15]

theorem afterIn15 (c : Dev nD) (t : Fin (cfg15 a1).N) : (dat15 V a1 O c).after 0 t = iblk15 V a1 c 0 t := by
  dsimp only [dat15]; rfl

theorem afterOut15 (c : Dev nD) (t : Fin (cfg15 a1).N) :
    (dat15 V a1 O c).after 1 t = O c t := by
  dsimp only [dat15]; rfl

theorem beforeIn15 (c : Dev nD) (t : Fin (cfg15 a1).N) (d) : (dat15 V a1 O c).before 0 t d = iblk15 V a1 c 0 t :=
  beforeIn15_of V a1 (dat15 V a1 O c) (A_eq15 V a1 O c 0) (afterIn15 V a1 O c) t d

theorem Phi_eq15 (c : Dev nD) (t : Fin ((cfg15 a1).N + 1)) :
    (dat15 V a1 O c).Φ t
      = iprop(Pipeline.ΦD osem15 spec15 {main_v3} V c ∗ Pipeline.prefHeld pre15 c (fun _ => fullShare) a1.1) := by
  dsimp only [dat15]

theorem owed_eq15 (c : Dev nD) (t : Fin ((cfg15 a1).N + 1)) : (dat15 V a1 O c).owed t = 0 := by
  dsimp only [dat15]

/-! ## The invariant, conjunct by conjunct -/

/-- The invariant's first part opened: the body's scratch buffer whole at some contents and the other scoped
    buffers no window stages, the generator register, the own cells at zero, the far operand at its contents. -/
theorem PhiD_eq15 (c : Dev nD) :
    (Pipeline.ΦD osem15 spec15 {main_v3} V c : sProp 𝕄)
      = iprop(iprop(iprop((∃ f : Buf (Elt F) ((c : Thread nD τ).loc cc15_scratch0), ((c : Thread nD τ).loc cc15_scratch0) ↦{fullShare} f))
            ∗ Pipeline.scopedRestBut (Ix := Unit) (Name := ℕ) (U := UD sig nD τ) (Lvl := ℕ) (Val := Elt F) spec15 c [cc15_scratch0])
          ∗ (∃ r, prngReg c r)
          ∗ Pipeline.ownSems0 (Ix := Unit) (Name := ℕ) (U := UD sig nD τ) (Lvl := ℕ) (Val := Elt F) (τ := τ) osem15 c
          ∗ (((c : Thread nD τ).loc main_v3) ↦{fullShare} V c main_v3)) := by
  rw [Pipeline.ΦD_eq, scopedRest15_split, BI.bigSep_eq_bigSepL_of_eq [main_v3] (by decide) (by decide)]; rfl

/-- The one table, held whole. -/
theorem prefHeld_eq15 (c : Dev nD) :
    (Pipeline.prefHeld pre15 c (fun _ => fullShare) a1.1 : sProp 𝕄)
      = (((c : Thread nD τ).loc main_v61) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg15 (w : Fin (cfg15 a1).W) (t : Fin (cfg15 a1).N) := ((cfg15 a1).win w).stage ((cfg15 a1).slots t w)

/-- The body as the pipeline calls it at point t. -/
abbrev bodyProg15 (t : Fin (cfg15 a1).N) : Prog (TpuEff nD τ sig (Elt F) Λ₀ .tc) PUnit :=
  (defs₀ (F := F)) .tc (cfg15 a1).body ((cfg15 a1).bodyArgs t ((cfg15 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun15 : Prop :=
  ∀ (c : Dev nD) (t : Fin (cfg15 a1).N) (W) (K : PUnit → sProp 𝕄),
    iprop(owns (c : Thread nD τ) (stg15 a1 0 t) fullShare (iblk15 V a1 c 0 t)
        ∗ (∃ d, owns (c : Thread nD τ) (stg15 a1 1 t) fullShare d)
        ∗ (∃ f : Buf (Elt F) ((c : Thread nD τ).loc cc15_scratch0), ((c : Thread nD τ).loc cc15_scratch0) ↦{fullShare} f)
        ∗ Pipeline.ownSems0 (Ix := Unit) (Name := ℕ) (U := UD sig nD τ) (Lvl := ℕ) (Val := Elt F) (τ := τ) osem15 c
        ∗ (((c : Thread nD τ).loc main_v61) ↦{fullShare} a1.1 0)
        ∗ (((c : Thread nD τ).loc main_v3) ↦{fullShare} V c main_v3)
        ∗ owes (c : Thread nD τ) (0 : CellTallies nD τ sig Unit) W
        ∗ (iprop(owns (c : Thread nD τ) (stg15 a1 0 t) fullShare (iblk15 V a1 c 0 t)
            ∗ owns (c : Thread nD τ) (stg15 a1 1 t) fullShare (O c t)
            ∗ (∃ f : Buf (Elt F) ((c : Thread nD τ).loc cc15_scratch0), ((c : Thread nD τ).loc cc15_scratch0) ↦{fullShare} f)
            ∗ Pipeline.ownSems0 (Ix := Unit) (Name := ℕ) (U := UD sig nD τ) (Lvl := ℕ) (Val := Elt F) (τ := τ) osem15 c
            ∗ (((c : Thread nD τ).loc main_v61) ↦{fullShare} a1.1 0)
            ∗ (((c : Thread nD τ).loc main_v3) ↦{fullShare} V c main_v3)
            ∗ (∃ W', owes (c : Thread nD τ) (0 : CellTallies nD τ sig Unit) W')) -∗ K ⟨⟩))
      ⊢ wp frame (wpE (defs₀ (F := F)) Variants.none c none) Set.univ (bodyProg15 a1 t) K

/-- What the body is called with at point t, the windows one by one, -/
def bodyPre15 (c : Dev nD) (t : Fin (cfg15 a1).N) : sProp 𝕄 :=
  iprop((dat15 V a1 O c).Φ t.castSucc ∗ (dat15 V a1 O c).owesAt () t.castSucc
    ∗ (∃ d, owns (c : Thread nD τ) (stg15 a1 0 t) fullShare ((dat15 V a1 O c).before 0 t d))
    ∗ (∃ d, owns (c : Thread nD τ) (stg15 a1 1 t) fullShare ((dat15 V a1 O c).before 1 t d)))

/-- and what it returns. -/
def bodyPost15 (c : Dev nD) (t : Fin (cfg15 a1).N) : sProp 𝕄 :=
  iprop((dat15 V a1 O c).Φ t.succ ∗ (dat15 V a1 O c).owesAt () t.succ
    ∗ owns (c : Thread nD τ) (stg15 a1 0 t) fullShare ((dat15 V a1 O c).after 0 t)
    ∗ owns (c : Thread nD τ) (stg15 a1 1 t) fullShare ((dat15 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body15 (hrun : BodyRun15 V a1 O) (c : Dev nD) (t : Fin (cfg15 a1).N) :
    bodyPre15 V a1 O c t
      ⊢ wp frame (wpE (defs₀ (F := F)) Variants.none c none) Set.univ (bodyProg15 a1 t) (fun _ => bodyPost15 V a1 O c t) := by
  unfold bodyPre15 bodyPost15
  simp only [beforeIn15]
  rw [afterIn15, afterOut15, Phi_eq15, Phi_eq15, PhiD_eq15, prefHeld_eq15]
  unfold Dat.owesAt Pipeline.owesWithin
  rw [owed_eq15, owed_eq15]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation15 (hrun : BodyRun15 V a1 O) (c : Dev nD) :
    BodyObligation (dat15 (F := F) V a1 O c) (defs₀ (F := F)) Variants.none () Set.univ := fun t => by
  rw [bigSep_W15, bigSep_W15]
  exact sound_body15 V a1 O hrun c t

end Data

/-! ## The region's record -/

section Record

variable (Win : Dev nD → Valuation τ sig (Elt F))

variable (a1 : (pcfg15 (F := F)).Adm)
  (O : (c : Dev nD) → Fin (cfg15 a1).N → Vec F S8x64 .f32)

/-- The buffers at the region's exit: its arrays at what the write-backs leave, every other buffer as entered. -/
def Wout15 (c : Dev nD) : Valuation τ sig (Elt F) :=
  Pipeline.withArrays spec15 c (Win c) fun w => (dat15 (Vof Win) a1 O c).arrAt w (cfg15 a1).N

theorem Wout15_arr (c : Dev nD) (w : Fin (cfg15 a1).W) :
    Wout15 Win a1 O c (Proc.devRef .tc (Pipeline.arrRef spec15 w)) = (dat15 (Vof Win) a1 O c).arrAt w (cfg15 a1).N := by
  unfold Wout15; exact Pipeline.withArrays_arr spec15 winFacts15.arr_inj c _ _ w

theorem Wout15_of_ne (c : Dev nD) (b : Ref sig .tc) (hb : ∀ w, Pipeline.arrRef spec15 w ≠ b) :
    Wout15 Win a1 O c (Proc.devRef .tc b) = Win c (Proc.devRef .tc b) := by
  unfold Wout15; exact Pipeline.withArrays_of_ne spec15 c _ _ b hb

/-- ENTRY, the buffers' part. Every unscoped buffer at Win is: the region's arrays at the proof data's entry contents,
    the table whole at the admissible contents (which are Win's there), the far operand whole, and the others. -/
theorem entry15 (c : Dev nD) (ha1 : ∀ k, Vof Win c (pre15.ref k) = a1.1 k) :
    (StableHlo.held (c : Thread nD τ) (Pipeline.ucRefs τ sig) (Win c) : sProp 𝕄)
      ⊢ iprop((dat15 (Vof Win) a1 O c).arrays ((dat15 (Vof Win) a1 O c).arrAt · 0)
          ∗ Pipeline.prefHeld pre15 c (fun _ => fullShare) a1.1
          ∗ (bigSep ({main_v3} : Finset (Ref sig .tc)) fun b => (((c : Thread nD τ)).loc b) ↦{fullShare} Vof Win c b)
          ∗ bigSep (Pipeline.restRefsP sig pre15 spec15 \ {main_v3}) fun b => (((c : Thread nD τ)).loc b) ↦{fullShare} Vof Win c b) := by
  have hsplit := Pipeline.arrays_of_unscopedBufs (p := ()) (fun (_ : Unit) => pcfg15 (F := F)) (fun _ => a1)
    (fun _ c => dat15 (Vof Win) a1 O c) winFacts15 (launch15 (F := F)).arr_whole c
    ((dat15 (Vof Win) a1 O c).share_full fun _ => rfl) (Vof Win c) (fun w => A_eq15 (Vof Win) a1 O c w)
  rw [Pipeline.unscopedBufs_held,
    Pipeline.unscopedRest_split (Ix := Unit) (Name := ℕ) (U := UD sig nD τ) (Lvl := ℕ) preFacts15 c (Vof Win c),
    Pipeline.unscopedRestP_sdiff pre15 spec15 {main_v3} hx_sub15 c (Vof Win c),
    show (fun k => Vof Win c (pre15.ref k)) = a1.1 from funext ha1] at hsplit
  exact hsplit

/-- EXIT, the buffers' part: the same four put back, the arrays at what the write-backs leave, are every unscoped
    buffer at the exit valuation. -/
theorem exit15 (c : Dev nD) (ha1 : ∀ k, Vof Win c (pre15.ref k) = a1.1 k) :
    iprop((dat15 (Vof Win) a1 O c).arrays ((dat15 (Vof Win) a1 O c).arrAt · (cfg15 a1).N)
        ∗ Pipeline.prefHeld pre15 c (fun _ => fullShare) a1.1
        ∗ (bigSep ({main_v3} : Finset (Ref sig .tc)) fun b => (((c : Thread nD τ)).loc b) ↦{fullShare} Vof Win c b)
        ∗ bigSep (Pipeline.restRefsP sig pre15 spec15 \ {main_v3}) fun b => (((c : Thread nD τ)).loc b) ↦{fullShare} Vof Win c b)
      ⊢ (StableHlo.held (c : Thread nD τ) (Pipeline.ucRefs τ sig) (Wout15 Win a1 O c) : sProp 𝕄) := by
  have hjoin := Pipeline.unscopedBufs_of_arrays (p := ()) (fun (_ : Unit) => pcfg15 (F := F)) (fun _ => a1)
    (Ix := Unit) (Name := ℕ) (U := UD sig nD τ) (Lvl := ℕ)
    winFacts15 (launch15 (F := F)).arr_whole c (fun _ c => dat15 (Vof Win) a1 O c)
    ((dat15 (Vof Win) a1 O c).share_full fun _ => rfl)
    (Vof Win c) (Vof (Wout15 Win a1 O) c) ((dat15 (Vof Win) a1 O c).arrAt · (cfg15 a1).N)
    (fun w => (Wout15_arr Win a1 O c w).symm)
    (fun b hb => Wout15_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts15 c (Vof Win c),
    Pipeline.unscopedRestP_sdiff pre15 spec15 {main_v3} hx_sub15 c (Vof Win c),
    show (fun k => Vof Win c (pre15.ref k)) = a1.1 from funext ha1] at hjoin
  exact hjoin

end Record

section Seg

variable (Win : Dev nD → Valuation τ sig (Elt F))
  (adm : (p : Fin 49) → (pcfgs (F := F) p).Adm)
  (O : (c : Dev nD) → Fin (cfg15 (adm (15 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout15. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg15 (hd : ∀ c, pdats (15 : Fin 49) c = dat15 (Vof Win) (adm (15 : Fin 49)) O c)
    (ha1 : ∀ c k, Vof Win c (pre15.ref k) = (adm (15 : Fin 49)).1 k)
    (hbody : ∀ c, BodyObligation (dat15 (F := F) (Vof Win) (adm (15 : Fin 49)) O c) (defs₀ (F := F)) 𝒱₀ () Set.univ) :
    Pipeline.RegionSeg (pcfgs (F := F)) adm pdats () defs₀ 𝒱₀ L lv (15 : Fin 49) where
  win := (launch15 (F := F)).win.to₀
  block_pos := (launch15 (F := F)).block_pos
  stage_whole := (launch15 (F := F)).stage_whole
  K := Fin 8
  osem := osem15
  ho := ownSemFacts15
  hbody c := by rw [hd c]; exact (hbody c).loose
  hwaits := Pipeline.hwaits_of_owed_zero _ _ _ _ L lv (15 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout15 Win (adm (15 : Fin 49)) O c) ∗ R c)
  X c := iprop((∃ r, prngReg c r)
    ∗ Pipeline.ownSems0 (Ix := Unit) (Name := ℕ) (U := UD sig nD τ) (Lvl := ℕ) (Val := Elt F) (τ := τ) osem15 c
    ∗ (bigSep ({main_v3} : Finset (Ref sig .tc)) fun b => (((c : Thread nD τ)).loc b) ↦{fullShare} Vof Win c b))
  Y c := iprop((∃ r, prngReg c r)
    ∗ (bigSep ({main_v3} : Finset (Ref sig .tc)) fun b => (((c : Thread nD τ)).loc b) ↦{fullShare} Vof Win c b)
    ∗ Pipeline.prefHeld pre15 c (fun _ => fullShare) (adm (15 : Fin 49)).1)
  Z c := bigSep (Pipeline.restRefsP sig pre15 spec15 \ {main_v3}) fun b => (((c : Thread nD τ)).loc b) ↦{fullShare} Vof Win c b
  hentry c := by
    rw [hd c]
    iintro ⟨⟨Hub, Hp, HO⟩, Hos, -⟩
    ihave H := (entry15 Win (adm (15 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq15, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq15, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit15 Win (adm (15 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg15 (F := F)).Adm)

/-- The output block at point t: the gathered rows (of the far operand's contents under V, chosen by the table's
    words at that point) times the input block. -/
def outBlk15 (c : Dev nD) (t : Fin (cfg15 a1).N) : Vec F S8x64 .f32 :=
  gatherOut (gatherG (a1.1 0) (V c main_v3) (grid15.coords t)) (iblk15 V a1 c 0 t)

theorem outBlk_eq15 (c : Dev nD) (t : Fin (cfg15 a1).N) :
    outBlk15 V a1 c t = gatherOut (gatherG (a1.1 0) (V c main_v3) (grid15.coords t)) (iblk15 V a1 c 0 t) := rfl

/-- The proof data with the output block named: after the body at point t the output window's buffer holds it. -/
theorem afterOutBlk15 (c : Dev nD) (t : Fin (cfg15 a1).N) :
    (dat15 V a1 (outBlk15 V a1) c).after 1 t
      = gatherOut (gatherG (a1.1 0) (V c main_v3) (grid15.coords t)) (iblk15 V a1 c 0 t) :=
  afterOut15 V a1 (outBlk15 V a1) c t

/-- The own cells at zero are the semaphore array's eight entries at zero, in order. -/
theorem ownSems_eq15 (c : Dev nD) :
    (Pipeline.ownSems0 (Ix := Unit) (Name := ℕ) (U := UD sig nD τ) (Lvl := ℕ) (Val := Elt F) (τ := τ) osem15 c : sProp 𝕄)
      = gsems0 c cc15_scratch1 := by
  rw [Pipeline.ownSems0_eq_of_list c osem15 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq15 (t : Fin (cfg15 a1).N) : ∃ h3 h4, bodyProg15 (F := F) a1 t
    = cc15__gather_mul_kernel (grid15.coords t) (Memref.whole main_v61) (Memref.isWhole_whole _) (Memref.whole main_v3) (Memref.isWhole_whole _)
        (stg15 a1 0 t) h3 (stg15 a1 1 t) h4 (Memref.whole cc15_scratch0) (Memref.isWhole_whole _) cc15_scratch1 := ⟨_, _, rfl⟩

end Out

/-! ## The body's run, joined to the proof data -/

section Body

variable (V : (c : Dev nD) → (b : Ref sig .tc) → Buf (Elt F) ((c : Thread nD τ).loc b))
  (a1 : (pcfg15 (F := F)).Adm)

/-- The scratch buffer whole at some contents, as a memref owned at some contents. -/
theorem scratchOwns_eq15 (c : Dev nD) :
    (iprop(∃ d, owns (c : Thread nD τ) (Memref.whole cc15_scratch0) fullShare d) : sProp 𝕄)
      = iprop(∃ f : Buf (Elt F) ((c : Thread nD τ).loc cc15_scratch0), ((c : Thread nD τ).loc cc15_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun15 (hlt : ∀ y, BitVec.toNat ((a1.1 0) y) < 100000) : BodyRun15 V a1 (outBlk15 V a1) := by
  intro c t W K
  obtain ⟨h3, h4, hprog⟩ := bodyProg_eq15 (F := F) a1 t
  rw [hprog, ownSems_eq15, ← scratchOwns_eq15 (F := F) c]
  have hrun := gather_kernel_run_15 (F := F) c (grid15.coords t) (Memref.whole main_v61) (Memref.isWhole_whole _) (Memref.whole main_v3) (Memref.isWhole_whole _)
    (stg15 a1 0 t) h3 (stg15 a1 1 t) h4 (Memref.whole cc15_scratch0) (Memref.isWhole_whole _) cc15_scratch1 fullShare fullShare
    (a1.1 0) (V c main_v3) (iblk15 V a1 c 0 t) (fun y => hlt y) W K
  simp only [Memref.view_whole, View.read_whole] at hrun
  unfold outBlk15
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut15 (hlt : ∀ y, BitVec.toNat ((a1.1 0) y) < 100000) (c : Dev nD) :
    BodyObligation (dat15 (F := F) V a1 (outBlk15 V a1) c) (defs₀ (F := F)) Variants.none () Set.univ :=
  body_obligation15 V a1 (outBlk15 V a1) (bodyRun15 V a1 hlt) c

end Body

/-! # Region 16 -/

/-! ## The body's own transfer cells -/

/-- The eight cells of the body's semaphore array, in order. -/
abbrev osem16 : Fin 8 → SemLoc sig := fun j => SemLoc.dma (cc16_scratch1.ix (fun | ⟨0, _⟩ => j))

/-- They are scoped, pairwise distinct, and none is a staging cell of a window. -/
theorem ownSemFacts16 : Pipeline.OwnSemFacts spec16 osem16 := by decide

/-- The far operand is an unscoped buffer that is neither a window's array nor a table. -/
theorem hx_sub16 : ({main_v3} : Finset (Ref sig .tc)) ⊆ Pipeline.restRefsP sig pre16 spec16 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg16 (F := F)).Adm)
  (O : (c : Dev nD) → Fin (cfg16 a1).N → Vec F S8x64 .f32)

/-! ## The windows' blocks -/

/-- Window w's block at point t, read off its array under V. -/
def iblk16 (c : Dev nD) (w : Fin (cfg16 a1).W) (t : Fin (cfg16 a1).N) :
    (((cfg16 a1).win w).xblock ((cfg16 a1).grid.coords t)).Idx → Elt F ((cfg16 a1).win w).elt :=
  (((cfg16 a1).win w).blk t).view.read (Elt F) (V c (Pipeline.arrRef spec16 w))

/-- The input window's current staging buffer holds its block at every point, fetched there or not, for any proof
    data whose array is V's and whose body leaves the block in place: unfetched, the block index has not moved. -/
theorem beforeIn16_of {c : Dev nD} (dat : Dat τ (Elt F) Unit ℕ (UD sig nD τ) ℕ (cfg16 a1) c)
    (hA : dat.A 0 = V c (Pipeline.arrRef spec16 0))
    (hafter : ∀ t, dat.after 0 t = iblk16 V a1 c 0 t) (t : Fin (cfg16 a1).N) (d) : dat.before 0 t d = iblk16 V a1 c 0 t :=
  (dat.before_in_eq_fetched 0 rfl (fun _ => rfl) (fun _ _ _ => rfl)
    (fun t => by rw [hafter]; unfold Dat.blockOf iblk16; rw [hA]; try rfl) t d).trans
    (by unfold Dat.fetched Dat.blockOf iblk16; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat16 (c : Dev nD) : Dat τ (Elt F) Unit ℕ (UD sig nD τ) ℕ (cfg16 a1) c where
  A w := V c (Pipeline.arrRef spec16 w)
  after w t := match w with
    | ⟨0, _⟩ => iblk16 V a1 c 0 t
    | ⟨1, _⟩ => O c t
  Φ _ := iprop(Pipeline.ΦD osem16 spec16 {main_v3} V c ∗ Pipeline.prefHeld pre16 c (fun _ => fullShare) a1.1)
  q _ := fullShare
  owed _ := 0

theorem A_eq16 (c : Dev nD) (w : Fin (cfg16 a1).W) : (dat16 V a1 O c).A w = V c (Pipeline.arrRef spec16 w) := by
  dsimp only [dat16]

theorem afterIn16 (c : Dev nD) (t : Fin (cfg16 a1).N) : (dat16 V a1 O c).after 0 t = iblk16 V a1 c 0 t := by
  dsimp only [dat16]; rfl

theorem afterOut16 (c : Dev nD) (t : Fin (cfg16 a1).N) :
    (dat16 V a1 O c).after 1 t = O c t := by
  dsimp only [dat16]; rfl

theorem beforeIn16 (c : Dev nD) (t : Fin (cfg16 a1).N) (d) : (dat16 V a1 O c).before 0 t d = iblk16 V a1 c 0 t :=
  beforeIn16_of V a1 (dat16 V a1 O c) (A_eq16 V a1 O c 0) (afterIn16 V a1 O c) t d

theorem Phi_eq16 (c : Dev nD) (t : Fin ((cfg16 a1).N + 1)) :
    (dat16 V a1 O c).Φ t
      = iprop(Pipeline.ΦD osem16 spec16 {main_v3} V c ∗ Pipeline.prefHeld pre16 c (fun _ => fullShare) a1.1) := by
  dsimp only [dat16]

theorem owed_eq16 (c : Dev nD) (t : Fin ((cfg16 a1).N + 1)) : (dat16 V a1 O c).owed t = 0 := by
  dsimp only [dat16]

/-! ## The invariant, conjunct by conjunct -/

/-- The invariant's first part opened: the body's scratch buffer whole at some contents and the other scoped
    buffers no window stages, the generator register, the own cells at zero, the far operand at its contents. -/
theorem PhiD_eq16 (c : Dev nD) :
    (Pipeline.ΦD osem16 spec16 {main_v3} V c : sProp 𝕄)
      = iprop(iprop(iprop((∃ f : Buf (Elt F) ((c : Thread nD τ).loc cc16_scratch0), ((c : Thread nD τ).loc cc16_scratch0) ↦{fullShare} f))
            ∗ Pipeline.scopedRestBut (Ix := Unit) (Name := ℕ) (U := UD sig nD τ) (Lvl := ℕ) (Val := Elt F) spec16 c [cc16_scratch0])
          ∗ (∃ r, prngReg c r)
          ∗ Pipeline.ownSems0 (Ix := Unit) (Name := ℕ) (U := UD sig nD τ) (Lvl := ℕ) (Val := Elt F) (τ := τ) osem16 c
          ∗ (((c : Thread nD τ).loc main_v3) ↦{fullShare} V c main_v3)) := by
  rw [Pipeline.ΦD_eq, scopedRest16_split, BI.bigSep_eq_bigSepL_of_eq [main_v3] (by decide) (by decide)]; rfl

/-- The one table, held whole. -/
theorem prefHeld_eq16 (c : Dev nD) :
    (Pipeline.prefHeld pre16 c (fun _ => fullShare) a1.1 : sProp 𝕄)
      = (((c : Thread nD τ).loc main_v65) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg16 (w : Fin (cfg16 a1).W) (t : Fin (cfg16 a1).N) := ((cfg16 a1).win w).stage ((cfg16 a1).slots t w)

/-- The body as the pipeline calls it at point t. -/
abbrev bodyProg16 (t : Fin (cfg16 a1).N) : Prog (TpuEff nD τ sig (Elt F) Λ₀ .tc) PUnit :=
  (defs₀ (F := F)) .tc (cfg16 a1).body ((cfg16 a1).bodyArgs t ((cfg16 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun16 : Prop :=
  ∀ (c : Dev nD) (t : Fin (cfg16 a1).N) (W) (K : PUnit → sProp 𝕄),
    iprop(owns (c : Thread nD τ) (stg16 a1 0 t) fullShare (iblk16 V a1 c 0 t)
        ∗ (∃ d, owns (c : Thread nD τ) (stg16 a1 1 t) fullShare d)
        ∗ (∃ f : Buf (Elt F) ((c : Thread nD τ).loc cc16_scratch0), ((c : Thread nD τ).loc cc16_scratch0) ↦{fullShare} f)
        ∗ Pipeline.ownSems0 (Ix := Unit) (Name := ℕ) (U := UD sig nD τ) (Lvl := ℕ) (Val := Elt F) (τ := τ) osem16 c
        ∗ (((c : Thread nD τ).loc main_v65) ↦{fullShare} a1.1 0)
        ∗ (((c : Thread nD τ).loc main_v3) ↦{fullShare} V c main_v3)
        ∗ owes (c : Thread nD τ) (0 : CellTallies nD τ sig Unit) W
        ∗ (iprop(owns (c : Thread nD τ) (stg16 a1 0 t) fullShare (iblk16 V a1 c 0 t)
            ∗ owns (c : Thread nD τ) (stg16 a1 1 t) fullShare (O c t)
            ∗ (∃ f : Buf (Elt F) ((c : Thread nD τ).loc cc16_scratch0), ((c : Thread nD τ).loc cc16_scratch0) ↦{fullShare} f)
            ∗ Pipeline.ownSems0 (Ix := Unit) (Name := ℕ) (U := UD sig nD τ) (Lvl := ℕ) (Val := Elt F) (τ := τ) osem16 c
            ∗ (((c : Thread nD τ).loc main_v65) ↦{fullShare} a1.1 0)
            ∗ (((c : Thread nD τ).loc main_v3) ↦{fullShare} V c main_v3)
            ∗ (∃ W', owes (c : Thread nD τ) (0 : CellTallies nD τ sig Unit) W')) -∗ K ⟨⟩))
      ⊢ wp frame (wpE (defs₀ (F := F)) Variants.none c none) Set.univ (bodyProg16 a1 t) K

/-- What the body is called with at point t, the windows one by one, -/
def bodyPre16 (c : Dev nD) (t : Fin (cfg16 a1).N) : sProp 𝕄 :=
  iprop((dat16 V a1 O c).Φ t.castSucc ∗ (dat16 V a1 O c).owesAt () t.castSucc
    ∗ (∃ d, owns (c : Thread nD τ) (stg16 a1 0 t) fullShare ((dat16 V a1 O c).before 0 t d))
    ∗ (∃ d, owns (c : Thread nD τ) (stg16 a1 1 t) fullShare ((dat16 V a1 O c).before 1 t d)))

/-- and what it returns. -/
def bodyPost16 (c : Dev nD) (t : Fin (cfg16 a1).N) : sProp 𝕄 :=
  iprop((dat16 V a1 O c).Φ t.succ ∗ (dat16 V a1 O c).owesAt () t.succ
    ∗ owns (c : Thread nD τ) (stg16 a1 0 t) fullShare ((dat16 V a1 O c).after 0 t)
    ∗ owns (c : Thread nD τ) (stg16 a1 1 t) fullShare ((dat16 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body16 (hrun : BodyRun16 V a1 O) (c : Dev nD) (t : Fin (cfg16 a1).N) :
    bodyPre16 V a1 O c t
      ⊢ wp frame (wpE (defs₀ (F := F)) Variants.none c none) Set.univ (bodyProg16 a1 t) (fun _ => bodyPost16 V a1 O c t) := by
  unfold bodyPre16 bodyPost16
  simp only [beforeIn16]
  rw [afterIn16, afterOut16, Phi_eq16, Phi_eq16, PhiD_eq16, prefHeld_eq16]
  unfold Dat.owesAt Pipeline.owesWithin
  rw [owed_eq16, owed_eq16]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation16 (hrun : BodyRun16 V a1 O) (c : Dev nD) :
    BodyObligation (dat16 (F := F) V a1 O c) (defs₀ (F := F)) Variants.none () Set.univ := fun t => by
  rw [bigSep_W16, bigSep_W16]
  exact sound_body16 V a1 O hrun c t

end Data

/-! ## The region's record -/

section Record

variable (Win : Dev nD → Valuation τ sig (Elt F))

variable (a1 : (pcfg16 (F := F)).Adm)
  (O : (c : Dev nD) → Fin (cfg16 a1).N → Vec F S8x64 .f32)

/-- The buffers at the region's exit: its arrays at what the write-backs leave, every other buffer as entered. -/
def Wout16 (c : Dev nD) : Valuation τ sig (Elt F) :=
  Pipeline.withArrays spec16 c (Win c) fun w => (dat16 (Vof Win) a1 O c).arrAt w (cfg16 a1).N

theorem Wout16_arr (c : Dev nD) (w : Fin (cfg16 a1).W) :
    Wout16 Win a1 O c (Proc.devRef .tc (Pipeline.arrRef spec16 w)) = (dat16 (Vof Win) a1 O c).arrAt w (cfg16 a1).N := by
  unfold Wout16; exact Pipeline.withArrays_arr spec16 winFacts16.arr_inj c _ _ w

theorem Wout16_of_ne (c : Dev nD) (b : Ref sig .tc) (hb : ∀ w, Pipeline.arrRef spec16 w ≠ b) :
    Wout16 Win a1 O c (Proc.devRef .tc b) = Win c (Proc.devRef .tc b) := by
  unfold Wout16; exact Pipeline.withArrays_of_ne spec16 c _ _ b hb

/-- ENTRY, the buffers' part. Every unscoped buffer at Win is: the region's arrays at the proof data's entry contents,
    the table whole at the admissible contents (which are Win's there), the far operand whole, and the others. -/
theorem entry16 (c : Dev nD) (ha1 : ∀ k, Vof Win c (pre16.ref k) = a1.1 k) :
    (StableHlo.held (c : Thread nD τ) (Pipeline.ucRefs τ sig) (Win c) : sProp 𝕄)
      ⊢ iprop((dat16 (Vof Win) a1 O c).arrays ((dat16 (Vof Win) a1 O c).arrAt · 0)
          ∗ Pipeline.prefHeld pre16 c (fun _ => fullShare) a1.1
          ∗ (bigSep ({main_v3} : Finset (Ref sig .tc)) fun b => (((c : Thread nD τ)).loc b) ↦{fullShare} Vof Win c b)
          ∗ bigSep (Pipeline.restRefsP sig pre16 spec16 \ {main_v3}) fun b => (((c : Thread nD τ)).loc b) ↦{fullShare} Vof Win c b) := by
  have hsplit := Pipeline.arrays_of_unscopedBufs (p := ()) (fun (_ : Unit) => pcfg16 (F := F)) (fun _ => a1)
    (fun _ c => dat16 (Vof Win) a1 O c) winFacts16 (launch16 (F := F)).arr_whole c
    ((dat16 (Vof Win) a1 O c).share_full fun _ => rfl) (Vof Win c) (fun w => A_eq16 (Vof Win) a1 O c w)
  rw [Pipeline.unscopedBufs_held,
    Pipeline.unscopedRest_split (Ix := Unit) (Name := ℕ) (U := UD sig nD τ) (Lvl := ℕ) preFacts16 c (Vof Win c),
    Pipeline.unscopedRestP_sdiff pre16 spec16 {main_v3} hx_sub16 c (Vof Win c),
    show (fun k => Vof Win c (pre16.ref k)) = a1.1 from funext ha1] at hsplit
  exact hsplit

/-- EXIT, the buffers' part: the same four put back, the arrays at what the write-backs leave, are every unscoped
    buffer at the exit valuation. -/
theorem exit16 (c : Dev nD) (ha1 : ∀ k, Vof Win c (pre16.ref k) = a1.1 k) :
    iprop((dat16 (Vof Win) a1 O c).arrays ((dat16 (Vof Win) a1 O c).arrAt · (cfg16 a1).N)
        ∗ Pipeline.prefHeld pre16 c (fun _ => fullShare) a1.1
        ∗ (bigSep ({main_v3} : Finset (Ref sig .tc)) fun b => (((c : Thread nD τ)).loc b) ↦{fullShare} Vof Win c b)
        ∗ bigSep (Pipeline.restRefsP sig pre16 spec16 \ {main_v3}) fun b => (((c : Thread nD τ)).loc b) ↦{fullShare} Vof Win c b)
      ⊢ (StableHlo.held (c : Thread nD τ) (Pipeline.ucRefs τ sig) (Wout16 Win a1 O c) : sProp 𝕄) := by
  have hjoin := Pipeline.unscopedBufs_of_arrays (p := ()) (fun (_ : Unit) => pcfg16 (F := F)) (fun _ => a1)
    (Ix := Unit) (Name := ℕ) (U := UD sig nD τ) (Lvl := ℕ)
    winFacts16 (launch16 (F := F)).arr_whole c (fun _ c => dat16 (Vof Win) a1 O c)
    ((dat16 (Vof Win) a1 O c).share_full fun _ => rfl)
    (Vof Win c) (Vof (Wout16 Win a1 O) c) ((dat16 (Vof Win) a1 O c).arrAt · (cfg16 a1).N)
    (fun w => (Wout16_arr Win a1 O c w).symm)
    (fun b hb => Wout16_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts16 c (Vof Win c),
    Pipeline.unscopedRestP_sdiff pre16 spec16 {main_v3} hx_sub16 c (Vof Win c),
    show (fun k => Vof Win c (pre16.ref k)) = a1.1 from funext ha1] at hjoin
  exact hjoin

end Record

section Seg

variable (Win : Dev nD → Valuation τ sig (Elt F))
  (adm : (p : Fin 49) → (pcfgs (F := F) p).Adm)
  (O : (c : Dev nD) → Fin (cfg16 (adm (16 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout16. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg16 (hd : ∀ c, pdats (16 : Fin 49) c = dat16 (Vof Win) (adm (16 : Fin 49)) O c)
    (ha1 : ∀ c k, Vof Win c (pre16.ref k) = (adm (16 : Fin 49)).1 k)
    (hbody : ∀ c, BodyObligation (dat16 (F := F) (Vof Win) (adm (16 : Fin 49)) O c) (defs₀ (F := F)) 𝒱₀ () Set.univ) :
    Pipeline.RegionSeg (pcfgs (F := F)) adm pdats () defs₀ 𝒱₀ L lv (16 : Fin 49) where
  win := (launch16 (F := F)).win.to₀
  block_pos := (launch16 (F := F)).block_pos
  stage_whole := (launch16 (F := F)).stage_whole
  K := Fin 8
  osem := osem16
  ho := ownSemFacts16
  hbody c := by rw [hd c]; exact (hbody c).loose
  hwaits := Pipeline.hwaits_of_owed_zero _ _ _ _ L lv (16 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout16 Win (adm (16 : Fin 49)) O c) ∗ R c)
  X c := iprop((∃ r, prngReg c r)
    ∗ Pipeline.ownSems0 (Ix := Unit) (Name := ℕ) (U := UD sig nD τ) (Lvl := ℕ) (Val := Elt F) (τ := τ) osem16 c
    ∗ (bigSep ({main_v3} : Finset (Ref sig .tc)) fun b => (((c : Thread nD τ)).loc b) ↦{fullShare} Vof Win c b))
  Y c := iprop((∃ r, prngReg c r)
    ∗ (bigSep ({main_v3} : Finset (Ref sig .tc)) fun b => (((c : Thread nD τ)).loc b) ↦{fullShare} Vof Win c b)
    ∗ Pipeline.prefHeld pre16 c (fun _ => fullShare) (adm (16 : Fin 49)).1)
  Z c := bigSep (Pipeline.restRefsP sig pre16 spec16 \ {main_v3}) fun b => (((c : Thread nD τ)).loc b) ↦{fullShare} Vof Win c b
  hentry c := by
    rw [hd c]
    iintro ⟨⟨Hub, Hp, HO⟩, Hos, -⟩
    ihave H := (entry16 Win (adm (16 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq16, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq16, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit16 Win (adm (16 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg16 (F := F)).Adm)

/-- The output block at point t: the gathered rows (of the far operand's contents under V, chosen by the table's
    words at that point) times the input block. -/
def outBlk16 (c : Dev nD) (t : Fin (cfg16 a1).N) : Vec F S8x64 .f32 :=
  gatherOut (gatherG (a1.1 0) (V c main_v3) (grid16.coords t)) (iblk16 V a1 c 0 t)

theorem outBlk_eq16 (c : Dev nD) (t : Fin (cfg16 a1).N) :
    outBlk16 V a1 c t = gatherOut (gatherG (a1.1 0) (V c main_v3) (grid16.coords t)) (iblk16 V a1 c 0 t) := rfl

/-- The proof data with the output block named: after the body at point t the output window's buffer holds it. -/
theorem afterOutBlk16 (c : Dev nD) (t : Fin (cfg16 a1).N) :
    (dat16 V a1 (outBlk16 V a1) c).after 1 t
      = gatherOut (gatherG (a1.1 0) (V c main_v3) (grid16.coords t)) (iblk16 V a1 c 0 t) :=
  afterOut16 V a1 (outBlk16 V a1) c t

/-- The own cells at zero are the semaphore array's eight entries at zero, in order. -/
theorem ownSems_eq16 (c : Dev nD) :
    (Pipeline.ownSems0 (Ix := Unit) (Name := ℕ) (U := UD sig nD τ) (Lvl := ℕ) (Val := Elt F) (τ := τ) osem16 c : sProp 𝕄)
      = gsems0 c cc16_scratch1 := by
  rw [Pipeline.ownSems0_eq_of_list c osem16 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq16 (t : Fin (cfg16 a1).N) : ∃ h3 h4, bodyProg16 (F := F) a1 t
    = cc16__gather_mul_kernel (grid16.coords t) (Memref.whole main_v65) (Memref.isWhole_whole _) (Memref.whole main_v3) (Memref.isWhole_whole _)
        (stg16 a1 0 t) h3 (stg16 a1 1 t) h4 (Memref.whole cc16_scratch0) (Memref.isWhole_whole _) cc16_scratch1 := ⟨_, _, rfl⟩

end Out

/-! ## The body's run, joined to the proof data -/

section Body

variable (V : (c : Dev nD) → (b : Ref sig .tc) → Buf (Elt F) ((c : Thread nD τ).loc b))
  (a1 : (pcfg16 (F := F)).Adm)

/-- The scratch buffer whole at some contents, as a memref owned at some contents. -/
theorem scratchOwns_eq16 (c : Dev nD) :
    (iprop(∃ d, owns (c : Thread nD τ) (Memref.whole cc16_scratch0) fullShare d) : sProp 𝕄)
      = iprop(∃ f : Buf (Elt F) ((c : Thread nD τ).loc cc16_scratch0), ((c : Thread nD τ).loc cc16_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun16 (hlt : ∀ y, BitVec.toNat ((a1.1 0) y) < 100000) : BodyRun16 V a1 (outBlk16 V a1) := by
  intro c t W K
  obtain ⟨h3, h4, hprog⟩ := bodyProg_eq16 (F := F) a1 t
  rw [hprog, ownSems_eq16, ← scratchOwns_eq16 (F := F) c]
  have hrun := gather_kernel_run_16 (F := F) c (grid16.coords t) (Memref.whole main_v65) (Memref.isWhole_whole _) (Memref.whole main_v3) (Memref.isWhole_whole _)
    (stg16 a1 0 t) h3 (stg16 a1 1 t) h4 (Memref.whole cc16_scratch0) (Memref.isWhole_whole _) cc16_scratch1 fullShare fullShare
    (a1.1 0) (V c main_v3) (iblk16 V a1 c 0 t) (fun y => hlt y) W K
  simp only [Memref.view_whole, View.read_whole] at hrun
  unfold outBlk16
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut16 (hlt : ∀ y, BitVec.toNat ((a1.1 0) y) < 100000) (c : Dev nD) :
    BodyObligation (dat16 (F := F) V a1 (outBlk16 V a1) c) (defs₀ (F := F)) Variants.none () Set.univ :=
  body_obligation16 V a1 (outBlk16 V a1) (bodyRun16 V a1 hlt) c

end Body

/-! # Region 17 -/

/-! ## The body's own transfer cells -/

/-- The eight cells of the body's semaphore array, in order. -/
abbrev osem17 : Fin 8 → SemLoc sig := fun j => SemLoc.dma (cc17_scratch1.ix (fun | ⟨0, _⟩ => j))

/-- They are scoped, pairwise distinct, and none is a staging cell of a window. -/
theorem ownSemFacts17 : Pipeline.OwnSemFacts spec17 osem17 := by decide

/-- The far operand is an unscoped buffer that is neither a window's array nor a table. -/
theorem hx_sub17 : ({main_v72} : Finset (Ref sig .tc)) ⊆ Pipeline.restRefsP sig pre17 spec17 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg17 (F := F)).Adm)
  (O : (c : Dev nD) → Fin (cfg17 a1).N → Vec F S8x64 .f32)

/-! ## The windows' blocks -/

/-- Window w's block at point t, read off its array under V. -/
def iblk17 (c : Dev nD) (w : Fin (cfg17 a1).W) (t : Fin (cfg17 a1).N) :
    (((cfg17 a1).win w).xblock ((cfg17 a1).grid.coords t)).Idx → Elt F ((cfg17 a1).win w).elt :=
  (((cfg17 a1).win w).blk t).view.read (Elt F) (V c (Pipeline.arrRef spec17 w))

/-- The input window's current staging buffer holds its block at every point, fetched there or not, for any proof
    data whose array is V's and whose body leaves the block in place: unfetched, the block index has not moved. -/
theorem beforeIn17_of {c : Dev nD} (dat : Dat τ (Elt F) Unit ℕ (UD sig nD τ) ℕ (cfg17 a1) c)
    (hA : dat.A 0 = V c (Pipeline.arrRef spec17 0))
    (hafter : ∀ t, dat.after 0 t = iblk17 V a1 c 0 t) (t : Fin (cfg17 a1).N) (d) : dat.before 0 t d = iblk17 V a1 c 0 t :=
  (dat.before_in_eq_fetched 0 rfl (fun _ => rfl) (fun _ _ _ => rfl)
    (fun t => by rw [hafter]; unfold Dat.blockOf iblk17; rw [hA]; try rfl) t d).trans
    (by unfold Dat.fetched Dat.blockOf iblk17; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat17 (c : Dev nD) : Dat τ (Elt F) Unit ℕ (UD sig nD τ) ℕ (cfg17 a1) c where
  A w := V c (Pipeline.arrRef spec17 w)
  after w t := match w with
    | ⟨0, _⟩ => iblk17 V a1 c 0 t
    | ⟨1, _⟩ => O c t
  Φ _ := iprop(Pipeline.ΦD osem17 spec17 {main_v72} V c ∗ Pipeline.prefHeld pre17 c (fun _ => fullShare) a1.1)
  q _ := fullShare
  owed _ := 0

theorem A_eq17 (c : Dev nD) (w : Fin (cfg17 a1).W) : (dat17 V a1 O c).A w = V c (Pipeline.arrRef spec17 w) := by
  dsimp only [dat17]

theorem afterIn17 (c : Dev nD) (t : Fin (cfg17 a1).N) : (dat17 V a1 O c).after 0 t = iblk17 V a1 c 0 t := by
  dsimp only [dat17]; rfl

theorem afterOut17 (c : Dev nD) (t : Fin (cfg17 a1).N) :
    (dat17 V a1 O c).after 1 t = O c t := by
  dsimp only [dat17]; rfl

theorem beforeIn17 (c : Dev nD) (t : Fin (cfg17 a1).N) (d) : (dat17 V a1 O c).before 0 t d = iblk17 V a1 c 0 t :=
  beforeIn17_of V a1 (dat17 V a1 O c) (A_eq17 V a1 O c 0) (afterIn17 V a1 O c) t d

theorem Phi_eq17 (c : Dev nD) (t : Fin ((cfg17 a1).N + 1)) :
    (dat17 V a1 O c).Φ t
      = iprop(Pipeline.ΦD osem17 spec17 {main_v72} V c ∗ Pipeline.prefHeld pre17 c (fun _ => fullShare) a1.1) := by
  dsimp only [dat17]

theorem owed_eq17 (c : Dev nD) (t : Fin ((cfg17 a1).N + 1)) : (dat17 V a1 O c).owed t = 0 := by
  dsimp only [dat17]

/-! ## The invariant, conjunct by conjunct -/

/-- The invariant's first part opened: the body's scratch buffer whole at some contents and the other scoped
    buffers no window stages, the generator register, the own cells at zero, the far operand at its contents. -/
theorem PhiD_eq17 (c : Dev nD) :
    (Pipeline.ΦD osem17 spec17 {main_v72} V c : sProp 𝕄)
      = iprop(iprop(iprop((∃ f : Buf (Elt F) ((c : Thread nD τ).loc cc17_scratch0), ((c : Thread nD τ).loc cc17_scratch0) ↦{fullShare} f))
            ∗ Pipeline.scopedRestBut (Ix := Unit) (Name := ℕ) (U := UD sig nD τ) (Lvl := ℕ) (Val := Elt F) spec17 c [cc17_scratch0])
          ∗ (∃ r, prngReg c r)
          ∗ Pipeline.ownSems0 (Ix := Unit) (Name := ℕ) (U := UD sig nD τ) (Lvl := ℕ) (Val := Elt F) (τ := τ) osem17 c
          ∗ (((c : Thread nD τ).loc main_v72) ↦{fullShare} V c main_v72)) := by
  rw [Pipeline.ΦD_eq, scopedRest17_split, BI.bigSep_eq_bigSepL_of_eq [main_v72] (by decide) (by decide)]; rfl

/-- The one table, held whole. -/
theorem prefHeld_eq17 (c : Dev nD) :
    (Pipeline.prefHeld pre17 c (fun _ => fullShare) a1.1 : sProp 𝕄)
      = (((c : Thread nD τ).loc main_v74) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg17 (w : Fin (cfg17 a1).W) (t : Fin (cfg17 a1).N) := ((cfg17 a1).win w).stage ((cfg17 a1).slots t w)

/-- The body as the pipeline calls it at point t. -/
abbrev bodyProg17 (t : Fin (cfg17 a1).N) : Prog (TpuEff nD τ sig (Elt F) Λ₀ .tc) PUnit :=
  (defs₀ (F := F)) .tc (cfg17 a1).body ((cfg17 a1).bodyArgs t ((cfg17 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun17 : Prop :=
  ∀ (c : Dev nD) (t : Fin (cfg17 a1).N) (W) (K : PUnit → sProp 𝕄),
    iprop(owns (c : Thread nD τ) (stg17 a1 0 t) fullShare (iblk17 V a1 c 0 t)
        ∗ (∃ d, owns (c : Thread nD τ) (stg17 a1 1 t) fullShare d)
        ∗ (∃ f : Buf (Elt F) ((c : Thread nD τ).loc cc17_scratch0), ((c : Thread nD τ).loc cc17_scratch0) ↦{fullShare} f)
        ∗ Pipeline.ownSems0 (Ix := Unit) (Name := ℕ) (U := UD sig nD τ) (Lvl := ℕ) (Val := Elt F) (τ := τ) osem17 c
        ∗ (((c : Thread nD τ).loc main_v74) ↦{fullShare} a1.1 0)
        ∗ (((c : Thread nD τ).loc main_v72) ↦{fullShare} V c main_v72)
        ∗ owes (c : Thread nD τ) (0 : CellTallies nD τ sig Unit) W
        ∗ (iprop(owns (c : Thread nD τ) (stg17 a1 0 t) fullShare (iblk17 V a1 c 0 t)
            ∗ owns (c : Thread nD τ) (stg17 a1 1 t) fullShare (O c t)
            ∗ (∃ f : Buf (Elt F) ((c : Thread nD τ).loc cc17_scratch0), ((c : Thread nD τ).loc cc17_scratch0) ↦{fullShare} f)
            ∗ Pipeline.ownSems0 (Ix := Unit) (Name := ℕ) (U := UD sig nD τ) (Lvl := ℕ) (Val := Elt F) (τ := τ) osem17 c
            ∗ (((c : Thread nD τ).loc main_v74) ↦{fullShare} a1.1 0)
            ∗ (((c : Thread nD τ).loc main_v72) ↦{fullShare} V c main_v72)
            ∗ (∃ W', owes (c : Thread nD τ) (0 : CellTallies nD τ sig Unit) W')) -∗ K ⟨⟩))
      ⊢ wp frame (wpE (defs₀ (F := F)) Variants.none c none) Set.univ (bodyProg17 a1 t) K

/-- What the body is called with at point t, the windows one by one, -/
def bodyPre17 (c : Dev nD) (t : Fin (cfg17 a1).N) : sProp 𝕄 :=
  iprop((dat17 V a1 O c).Φ t.castSucc ∗ (dat17 V a1 O c).owesAt () t.castSucc
    ∗ (∃ d, owns (c : Thread nD τ) (stg17 a1 0 t) fullShare ((dat17 V a1 O c).before 0 t d))
    ∗ (∃ d, owns (c : Thread nD τ) (stg17 a1 1 t) fullShare ((dat17 V a1 O c).before 1 t d)))

/-- and what it returns. -/
def bodyPost17 (c : Dev nD) (t : Fin (cfg17 a1).N) : sProp 𝕄 :=
  iprop((dat17 V a1 O c).Φ t.succ ∗ (dat17 V a1 O c).owesAt () t.succ
    ∗ owns (c : Thread nD τ) (stg17 a1 0 t) fullShare ((dat17 V a1 O c).after 0 t)
    ∗ owns (c : Thread nD τ) (stg17 a1 1 t) fullShare ((dat17 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body17 (hrun : BodyRun17 V a1 O) (c : Dev nD) (t : Fin (cfg17 a1).N) :
    bodyPre17 V a1 O c t
      ⊢ wp frame (wpE (defs₀ (F := F)) Variants.none c none) Set.univ (bodyProg17 a1 t) (fun _ => bodyPost17 V a1 O c t) := by
  unfold bodyPre17 bodyPost17
  simp only [beforeIn17]
  rw [afterIn17, afterOut17, Phi_eq17, Phi_eq17, PhiD_eq17, prefHeld_eq17]
  unfold Dat.owesAt Pipeline.owesWithin
  rw [owed_eq17, owed_eq17]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation17 (hrun : BodyRun17 V a1 O) (c : Dev nD) :
    BodyObligation (dat17 (F := F) V a1 O c) (defs₀ (F := F)) Variants.none () Set.univ := fun t => by
  rw [bigSep_W17, bigSep_W17]
  exact sound_body17 V a1 O hrun c t

end Data

/-! ## The region's record -/

section Record

variable (Win : Dev nD → Valuation τ sig (Elt F))

variable (a1 : (pcfg17 (F := F)).Adm)
  (O : (c : Dev nD) → Fin (cfg17 a1).N → Vec F S8x64 .f32)

/-- The buffers at the region's exit: its arrays at what the write-backs leave, every other buffer as entered. -/
def Wout17 (c : Dev nD) : Valuation τ sig (Elt F) :=
  Pipeline.withArrays spec17 c (Win c) fun w => (dat17 (Vof Win) a1 O c).arrAt w (cfg17 a1).N

theorem Wout17_arr (c : Dev nD) (w : Fin (cfg17 a1).W) :
    Wout17 Win a1 O c (Proc.devRef .tc (Pipeline.arrRef spec17 w)) = (dat17 (Vof Win) a1 O c).arrAt w (cfg17 a1).N := by
  unfold Wout17; exact Pipeline.withArrays_arr spec17 winFacts17.arr_inj c _ _ w

theorem Wout17_of_ne (c : Dev nD) (b : Ref sig .tc) (hb : ∀ w, Pipeline.arrRef spec17 w ≠ b) :
    Wout17 Win a1 O c (Proc.devRef .tc b) = Win c (Proc.devRef .tc b) := by
  unfold Wout17; exact Pipeline.withArrays_of_ne spec17 c _ _ b hb

/-- ENTRY, the buffers' part. Every unscoped buffer at Win is: the region's arrays at the proof data's entry contents,
    the table whole at the admissible contents (which are Win's there), the far operand whole, and the others. -/
theorem entry17 (c : Dev nD) (ha1 : ∀ k, Vof Win c (pre17.ref k) = a1.1 k) :
    (StableHlo.held (c : Thread nD τ) (Pipeline.ucRefs τ sig) (Win c) : sProp 𝕄)
      ⊢ iprop((dat17 (Vof Win) a1 O c).arrays ((dat17 (Vof Win) a1 O c).arrAt · 0)
          ∗ Pipeline.prefHeld pre17 c (fun _ => fullShare) a1.1
          ∗ (bigSep ({main_v72} : Finset (Ref sig .tc)) fun b => (((c : Thread nD τ)).loc b) ↦{fullShare} Vof Win c b)
          ∗ bigSep (Pipeline.restRefsP sig pre17 spec17 \ {main_v72}) fun b => (((c : Thread nD τ)).loc b) ↦{fullShare} Vof Win c b) := by
  have hsplit := Pipeline.arrays_of_unscopedBufs (p := ()) (fun (_ : Unit) => pcfg17 (F := F)) (fun _ => a1)
    (fun _ c => dat17 (Vof Win) a1 O c) winFacts17 (launch17 (F := F)).arr_whole c
    ((dat17 (Vof Win) a1 O c).share_full fun _ => rfl) (Vof Win c) (fun w => A_eq17 (Vof Win) a1 O c w)
  rw [Pipeline.unscopedBufs_held,
    Pipeline.unscopedRest_split (Ix := Unit) (Name := ℕ) (U := UD sig nD τ) (Lvl := ℕ) preFacts17 c (Vof Win c),
    Pipeline.unscopedRestP_sdiff pre17 spec17 {main_v72} hx_sub17 c (Vof Win c),
    show (fun k => Vof Win c (pre17.ref k)) = a1.1 from funext ha1] at hsplit
  exact hsplit

/-- EXIT, the buffers' part: the same four put back, the arrays at what the write-backs leave, are every unscoped
    buffer at the exit valuation. -/
theorem exit17 (c : Dev nD) (ha1 : ∀ k, Vof Win c (pre17.ref k) = a1.1 k) :
    iprop((dat17 (Vof Win) a1 O c).arrays ((dat17 (Vof Win) a1 O c).arrAt · (cfg17 a1).N)
        ∗ Pipeline.prefHeld pre17 c (fun _ => fullShare) a1.1
        ∗ (bigSep ({main_v72} : Finset (Ref sig .tc)) fun b => (((c : Thread nD τ)).loc b) ↦{fullShare} Vof Win c b)
        ∗ bigSep (Pipeline.restRefsP sig pre17 spec17 \ {main_v72}) fun b => (((c : Thread nD τ)).loc b) ↦{fullShare} Vof Win c b)
      ⊢ (StableHlo.held (c : Thread nD τ) (Pipeline.ucRefs τ sig) (Wout17 Win a1 O c) : sProp 𝕄) := by
  have hjoin := Pipeline.unscopedBufs_of_arrays (p := ()) (fun (_ : Unit) => pcfg17 (F := F)) (fun _ => a1)
    (Ix := Unit) (Name := ℕ) (U := UD sig nD τ) (Lvl := ℕ)
    winFacts17 (launch17 (F := F)).arr_whole c (fun _ c => dat17 (Vof Win) a1 O c)
    ((dat17 (Vof Win) a1 O c).share_full fun _ => rfl)
    (Vof Win c) (Vof (Wout17 Win a1 O) c) ((dat17 (Vof Win) a1 O c).arrAt · (cfg17 a1).N)
    (fun w => (Wout17_arr Win a1 O c w).symm)
    (fun b hb => Wout17_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts17 c (Vof Win c),
    Pipeline.unscopedRestP_sdiff pre17 spec17 {main_v72} hx_sub17 c (Vof Win c),
    show (fun k => Vof Win c (pre17.ref k)) = a1.1 from funext ha1] at hjoin
  exact hjoin

end Record

section Seg

variable (Win : Dev nD → Valuation τ sig (Elt F))
  (adm : (p : Fin 49) → (pcfgs (F := F) p).Adm)
  (O : (c : Dev nD) → Fin (cfg17 (adm (17 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout17. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg17 (hd : ∀ c, pdats (17 : Fin 49) c = dat17 (Vof Win) (adm (17 : Fin 49)) O c)
    (ha1 : ∀ c k, Vof Win c (pre17.ref k) = (adm (17 : Fin 49)).1 k)
    (hbody : ∀ c, BodyObligation (dat17 (F := F) (Vof Win) (adm (17 : Fin 49)) O c) (defs₀ (F := F)) 𝒱₀ () Set.univ) :
    Pipeline.RegionSeg (pcfgs (F := F)) adm pdats () defs₀ 𝒱₀ L lv (17 : Fin 49) where
  win := (launch17 (F := F)).win.to₀
  block_pos := (launch17 (F := F)).block_pos
  stage_whole := (launch17 (F := F)).stage_whole
  K := Fin 8
  osem := osem17
  ho := ownSemFacts17
  hbody c := by rw [hd c]; exact (hbody c).loose
  hwaits := Pipeline.hwaits_of_owed_zero _ _ _ _ L lv (17 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout17 Win (adm (17 : Fin 49)) O c) ∗ R c)
  X c := iprop((∃ r, prngReg c r)
    ∗ Pipeline.ownSems0 (Ix := Unit) (Name := ℕ) (U := UD sig nD τ) (Lvl := ℕ) (Val := Elt F) (τ := τ) osem17 c
    ∗ (bigSep ({main_v72} : Finset (Ref sig .tc)) fun b => (((c : Thread nD τ)).loc b) ↦{fullShare} Vof Win c b))
  Y c := iprop((∃ r, prngReg c r)
    ∗ (bigSep ({main_v72} : Finset (Ref sig .tc)) fun b => (((c : Thread nD τ)).loc b) ↦{fullShare} Vof Win c b)
    ∗ Pipeline.prefHeld pre17 c (fun _ => fullShare) (adm (17 : Fin 49)).1)
  Z c := bigSep (Pipeline.restRefsP sig pre17 spec17 \ {main_v72}) fun b => (((c : Thread nD τ)).loc b) ↦{fullShare} Vof Win c b
  hentry c := by
    rw [hd c]
    iintro ⟨⟨Hub, Hp, HO⟩, Hos, -⟩
    ihave H := (entry17 Win (adm (17 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq17, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq17, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit17 Win (adm (17 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg17 (F := F)).Adm)

/-- The output block at point t: the gathered rows (of the far operand's contents under V, chosen by the table's
    words at that point) times the input block. -/
def outBlk17 (c : Dev nD) (t : Fin (cfg17 a1).N) : Vec F S8x64 .f32 :=
  gatherOut (gatherG (a1.1 0) (V c main_v72) (grid17.coords t)) (iblk17 V a1 c 0 t)

theorem outBlk_eq17 (c : Dev nD) (t : Fin (cfg17 a1).N) :
    outBlk17 V a1 c t = gatherOut (gatherG (a1.1 0) (V c main_v72) (grid17.coords t)) (iblk17 V a1 c 0 t) := rfl

/-- The proof data with the output block named: after the body at point t the output window's buffer holds it. -/
theorem afterOutBlk17 (c : Dev nD) (t : Fin (cfg17 a1).N) :
    (dat17 V a1 (outBlk17 V a1) c).after 1 t
      = gatherOut (gatherG (a1.1 0) (V c main_v72) (grid17.coords t)) (iblk17 V a1 c 0 t) :=
  afterOut17 V a1 (outBlk17 V a1) c t

/-- The own cells at zero are the semaphore array's eight entries at zero, in order. -/
theorem ownSems_eq17 (c : Dev nD) :
    (Pipeline.ownSems0 (Ix := Unit) (Name := ℕ) (U := UD sig nD τ) (Lvl := ℕ) (Val := Elt F) (τ := τ) osem17 c : sProp 𝕄)
      = gsems0 c cc17_scratch1 := by
  rw [Pipeline.ownSems0_eq_of_list c osem17 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq17 (t : Fin (cfg17 a1).N) : ∃ h3 h4, bodyProg17 (F := F) a1 t
    = cc17__gather_mul_kernel (grid17.coords t) (Memref.whole main_v74) (Memref.isWhole_whole _) (Memref.whole main_v72) (Memref.isWhole_whole _)
        (stg17 a1 0 t) h3 (stg17 a1 1 t) h4 (Memref.whole cc17_scratch0) (Memref.isWhole_whole _) cc17_scratch1 := ⟨_, _, rfl⟩

end Out

/-! ## The body's run, joined to the proof data -/

section Body

variable (V : (c : Dev nD) → (b : Ref sig .tc) → Buf (Elt F) ((c : Thread nD τ).loc b))
  (a1 : (pcfg17 (F := F)).Adm)

/-- The scratch buffer whole at some contents, as a memref owned at some contents. -/
theorem scratchOwns_eq17 (c : Dev nD) :
    (iprop(∃ d, owns (c : Thread nD τ) (Memref.whole cc17_scratch0) fullShare d) : sProp 𝕄)
      = iprop(∃ f : Buf (Elt F) ((c : Thread nD τ).loc cc17_scratch0), ((c : Thread nD τ).loc cc17_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun17 (hlt : ∀ y, BitVec.toNat ((a1.1 0) y) < 100000) : BodyRun17 V a1 (outBlk17 V a1) := by
  intro c t W K
  obtain ⟨h3, h4, hprog⟩ := bodyProg_eq17 (F := F) a1 t
  rw [hprog, ownSems_eq17, ← scratchOwns_eq17 (F := F) c]
  have hrun := gather_kernel_run_17 (F := F) c (grid17.coords t) (Memref.whole main_v74) (Memref.isWhole_whole _) (Memref.whole main_v72) (Memref.isWhole_whole _)
    (stg17 a1 0 t) h3 (stg17 a1 1 t) h4 (Memref.whole cc17_scratch0) (Memref.isWhole_whole _) cc17_scratch1 fullShare fullShare
    (a1.1 0) (V c main_v72) (iblk17 V a1 c 0 t) (fun y => hlt y) W K
  simp only [Memref.view_whole, View.read_whole] at hrun
  unfold outBlk17
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut17 (hlt : ∀ y, BitVec.toNat ((a1.1 0) y) < 100000) (c : Dev nD) :
    BodyObligation (dat17 (F := F) V a1 (outBlk17 V a1) c) (defs₀ (F := F)) Variants.none () Set.univ :=
  body_obligation17 V a1 (outBlk17 V a1) (bodyRun17 V a1 hlt) c

end Body

end Cert.Kernel.Hand

end
-- ==== Proof.K.Regions_18_25.lean ====
/-
  Gather regions 18 to 25 of the host program, one after the other: for each, the proof data, the body obligation and the record of the region in the launch,
  exactly as for region 1 (whose module says what each part is).
-/
import proofs.«421643_j28415503630349_2_alg».proof.Proof.K.Common
import proofs.«421643_j28415503630349_2_alg».proof.Proof.K.BodyEq
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

/-! # Region 18 -/

/-! ## The body's own transfer cells -/

/-- The eight cells of the body's semaphore array, in order. -/
abbrev osem18 : Fin 8 → SemLoc sig := fun j => SemLoc.dma (cc18_scratch1.ix (fun | ⟨0, _⟩ => j))

/-- They are scoped, pairwise distinct, and none is a staging cell of a window. -/
theorem ownSemFacts18 : Pipeline.OwnSemFacts spec18 osem18 := by decide

/-- The far operand is an unscoped buffer that is neither a window's array nor a table. -/
theorem hx_sub18 : ({main_v72} : Finset (Ref sig .tc)) ⊆ Pipeline.restRefsP sig pre18 spec18 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg18 (F := F)).Adm)
  (O : (c : Dev nD) → Fin (cfg18 a1).N → Vec F S8x64 .f32)

/-! ## The windows' blocks -/

/-- Window w's block at point t, read off its array under V. -/
def iblk18 (c : Dev nD) (w : Fin (cfg18 a1).W) (t : Fin (cfg18 a1).N) :
    (((cfg18 a1).win w).xblock ((cfg18 a1).grid.coords t)).Idx → Elt F ((cfg18 a1).win w).elt :=
  (((cfg18 a1).win w).blk t).view.read (Elt F) (V c (Pipeline.arrRef spec18 w))

/-- The input window's current staging buffer holds its block at every point, fetched there or not, for any proof
    data whose array is V's and whose body leaves the block in place: unfetched, the block index has not moved. -/
theorem beforeIn18_of {c : Dev nD} (dat : Dat τ (Elt F) Unit ℕ (UD sig nD τ) ℕ (cfg18 a1) c)
    (hA : dat.A 0 = V c (Pipeline.arrRef spec18 0))
    (hafter : ∀ t, dat.after 0 t = iblk18 V a1 c 0 t) (t : Fin (cfg18 a1).N) (d) : dat.before 0 t d = iblk18 V a1 c 0 t :=
  (dat.before_in_eq_fetched 0 rfl (fun _ => rfl) (fun _ _ _ => rfl)
    (fun t => by rw [hafter]; unfold Dat.blockOf iblk18; rw [hA]; try rfl) t d).trans
    (by unfold Dat.fetched Dat.blockOf iblk18; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat18 (c : Dev nD) : Dat τ (Elt F) Unit ℕ (UD sig nD τ) ℕ (cfg18 a1) c where
  A w := V c (Pipeline.arrRef spec18 w)
  after w t := match w with
    | ⟨0, _⟩ => iblk18 V a1 c 0 t
    | ⟨1, _⟩ => O c t
  Φ _ := iprop(Pipeline.ΦD osem18 spec18 {main_v72} V c ∗ Pipeline.prefHeld pre18 c (fun _ => fullShare) a1.1)
  q _ := fullShare
  owed _ := 0

theorem A_eq18 (c : Dev nD) (w : Fin (cfg18 a1).W) : (dat18 V a1 O c).A w = V c (Pipeline.arrRef spec18 w) := by
  dsimp only [dat18]

theorem afterIn18 (c : Dev nD) (t : Fin (cfg18 a1).N) : (dat18 V a1 O c).after 0 t = iblk18 V a1 c 0 t := by
  dsimp only [dat18]; rfl

theorem afterOut18 (c : Dev nD) (t : Fin (cfg18 a1).N) :
    (dat18 V a1 O c).after 1 t = O c t := by
  dsimp only [dat18]; rfl

theorem beforeIn18 (c : Dev nD) (t : Fin (cfg18 a1).N) (d) : (dat18 V a1 O c).before 0 t d = iblk18 V a1 c 0 t :=
  beforeIn18_of V a1 (dat18 V a1 O c) (A_eq18 V a1 O c 0) (afterIn18 V a1 O c) t d

theorem Phi_eq18 (c : Dev nD) (t : Fin ((cfg18 a1).N + 1)) :
    (dat18 V a1 O c).Φ t
      = iprop(Pipeline.ΦD osem18 spec18 {main_v72} V c ∗ Pipeline.prefHeld pre18 c (fun _ => fullShare) a1.1) := by
  dsimp only [dat18]

theorem owed_eq18 (c : Dev nD) (t : Fin ((cfg18 a1).N + 1)) : (dat18 V a1 O c).owed t = 0 := by
  dsimp only [dat18]

/-! ## The invariant, conjunct by conjunct -/

/-- The invariant's first part opened: the body's scratch buffer whole at some contents and the other scoped
    buffers no window stages, the generator register, the own cells at zero, the far operand at its contents. -/
theorem PhiD_eq18 (c : Dev nD) :
    (Pipeline.ΦD osem18 spec18 {main_v72} V c : sProp 𝕄)
      = iprop(iprop(iprop((∃ f : Buf (Elt F) ((c : Thread nD τ).loc cc18_scratch0), ((c : Thread nD τ).loc cc18_scratch0) ↦{fullShare} f))
            ∗ Pipeline.scopedRestBut (Ix := Unit) (Name := ℕ) (U := UD sig nD τ) (Lvl := ℕ) (Val := Elt F) spec18 c [cc18_scratch0])
          ∗ (∃ r, prngReg c r)
          ∗ Pipeline.ownSems0 (Ix := Unit) (Name := ℕ) (U := UD sig nD τ) (Lvl := ℕ) (Val := Elt F) (τ := τ) osem18 c
          ∗ (((c : Thread nD τ).loc main_v72) ↦{fullShare} V c main_v72)) := by
  rw [Pipeline.ΦD_eq, scopedRest18_split, BI.bigSep_eq_bigSepL_of_eq [main_v72] (by decide) (by decide)]; rfl

/-- The one table, held whole. -/
theorem prefHeld_eq18 (c : Dev nD) :
    (Pipeline.prefHeld pre18 c (fun _ => fullShare) a1.1 : sProp 𝕄)
      = (((c : Thread nD τ).loc main_v78) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg18 (w : Fin (cfg18 a1).W) (t : Fin (cfg18 a1).N) := ((cfg18 a1).win w).stage ((cfg18 a1).slots t w)

/-- The body as the pipeline calls it at point t. -/
abbrev bodyProg18 (t : Fin (cfg18 a1).N) : Prog (TpuEff nD τ sig (Elt F) Λ₀ .tc) PUnit :=
  (defs₀ (F := F)) .tc (cfg18 a1).body ((cfg18 a1).bodyArgs t ((cfg18 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun18 : Prop :=
  ∀ (c : Dev nD) (t : Fin (cfg18 a1).N) (W) (K : PUnit → sProp 𝕄),
    iprop(owns (c : Thread nD τ) (stg18 a1 0 t) fullShare (iblk18 V a1 c 0 t)
        ∗ (∃ d, owns (c : Thread nD τ) (stg18 a1 1 t) fullShare d)
        ∗ (∃ f : Buf (Elt F) ((c : Thread nD τ).loc cc18_scratch0), ((c : Thread nD τ).loc cc18_scratch0) ↦{fullShare} f)
        ∗ Pipeline.ownSems0 (Ix := Unit) (Name := ℕ) (U := UD sig nD τ) (Lvl := ℕ) (Val := Elt F) (τ := τ) osem18 c
        ∗ (((c : Thread nD τ).loc main_v78) ↦{fullShare} a1.1 0)
        ∗ (((c : Thread nD τ).loc main_v72) ↦{fullShare} V c main_v72)
        ∗ owes (c : Thread nD τ) (0 : CellTallies nD τ sig Unit) W
        ∗ (iprop(owns (c : Thread nD τ) (stg18 a1 0 t) fullShare (iblk18 V a1 c 0 t)
            ∗ owns (c : Thread nD τ) (stg18 a1 1 t) fullShare (O c t)
            ∗ (∃ f : Buf (Elt F) ((c : Thread nD τ).loc cc18_scratch0), ((c : Thread nD τ).loc cc18_scratch0) ↦{fullShare} f)
            ∗ Pipeline.ownSems0 (Ix := Unit) (Name := ℕ) (U := UD sig nD τ) (Lvl := ℕ) (Val := Elt F) (τ := τ) osem18 c
            ∗ (((c : Thread nD τ).loc main_v78) ↦{fullShare} a1.1 0)
            ∗ (((c : Thread nD τ).loc main_v72) ↦{fullShare} V c main_v72)
            ∗ (∃ W', owes (c : Thread nD τ) (0 : CellTallies nD τ sig Unit) W')) -∗ K ⟨⟩))
      ⊢ wp frame (wpE (defs₀ (F := F)) Variants.none c none) Set.univ (bodyProg18 a1 t) K

/-- What the body is called with at point t, the windows one by one, -/
def bodyPre18 (c : Dev nD) (t : Fin (cfg18 a1).N) : sProp 𝕄 :=
  iprop((dat18 V a1 O c).Φ t.castSucc ∗ (dat18 V a1 O c).owesAt () t.castSucc
    ∗ (∃ d, owns (c : Thread nD τ) (stg18 a1 0 t) fullShare ((dat18 V a1 O c).before 0 t d))
    ∗ (∃ d, owns (c : Thread nD τ) (stg18 a1 1 t) fullShare ((dat18 V a1 O c).before 1 t d)))

/-- and what it returns. -/
def bodyPost18 (c : Dev nD) (t : Fin (cfg18 a1).N) : sProp 𝕄 :=
  iprop((dat18 V a1 O c).Φ t.succ ∗ (dat18 V a1 O c).owesAt () t.succ
    ∗ owns (c : Thread nD τ) (stg18 a1 0 t) fullShare ((dat18 V a1 O c).after 0 t)
    ∗ owns (c : Thread nD τ) (stg18 a1 1 t) fullShare ((dat18 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body18 (hrun : BodyRun18 V a1 O) (c : Dev nD) (t : Fin (cfg18 a1).N) :
    bodyPre18 V a1 O c t
      ⊢ wp frame (wpE (defs₀ (F := F)) Variants.none c none) Set.univ (bodyProg18 a1 t) (fun _ => bodyPost18 V a1 O c t) := by
  unfold bodyPre18 bodyPost18
  simp only [beforeIn18]
  rw [afterIn18, afterOut18, Phi_eq18, Phi_eq18, PhiD_eq18, prefHeld_eq18]
  unfold Dat.owesAt Pipeline.owesWithin
  rw [owed_eq18, owed_eq18]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation18 (hrun : BodyRun18 V a1 O) (c : Dev nD) :
    BodyObligation (dat18 (F := F) V a1 O c) (defs₀ (F := F)) Variants.none () Set.univ := fun t => by
  rw [bigSep_W18, bigSep_W18]
  exact sound_body18 V a1 O hrun c t

end Data

/-! ## The region's record -/

section Record

variable (Win : Dev nD → Valuation τ sig (Elt F))

variable (a1 : (pcfg18 (F := F)).Adm)
  (O : (c : Dev nD) → Fin (cfg18 a1).N → Vec F S8x64 .f32)

/-- The buffers at the region's exit: its arrays at what the write-backs leave, every other buffer as entered. -/
def Wout18 (c : Dev nD) : Valuation τ sig (Elt F) :=
  Pipeline.withArrays spec18 c (Win c) fun w => (dat18 (Vof Win) a1 O c).arrAt w (cfg18 a1).N

theorem Wout18_arr (c : Dev nD) (w : Fin (cfg18 a1).W) :
    Wout18 Win a1 O c (Proc.devRef .tc (Pipeline.arrRef spec18 w)) = (dat18 (Vof Win) a1 O c).arrAt w (cfg18 a1).N := by
  unfold Wout18; exact Pipeline.withArrays_arr spec18 winFacts18.arr_inj c _ _ w

theorem Wout18_of_ne (c : Dev nD) (b : Ref sig .tc) (hb : ∀ w, Pipeline.arrRef spec18 w ≠ b) :
    Wout18 Win a1 O c (Proc.devRef .tc b) = Win c (Proc.devRef .tc b) := by
  unfold Wout18; exact Pipeline.withArrays_of_ne spec18 c _ _ b hb

/-- ENTRY, the buffers' part. Every unscoped buffer at Win is: the region's arrays at the proof data's entry contents,
    the table whole at the admissible contents (which are Win's there), the far operand whole, and the others. -/
theorem entry18 (c : Dev nD) (ha1 : ∀ k, Vof Win c (pre18.ref k) = a1.1 k) :
    (StableHlo.held (c : Thread nD τ) (Pipeline.ucRefs τ sig) (Win c) : sProp 𝕄)
      ⊢ iprop((dat18 (Vof Win) a1 O c).arrays ((dat18 (Vof Win) a1 O c).arrAt · 0)
          ∗ Pipeline.prefHeld pre18 c (fun _ => fullShare) a1.1
          ∗ (bigSep ({main_v72} : Finset (Ref sig .tc)) fun b => (((c : Thread nD τ)).loc b) ↦{fullShare} Vof Win c b)
          ∗ bigSep (Pipeline.restRefsP sig pre18 spec18 \ {main_v72}) fun b => (((c : Thread nD τ)).loc b) ↦{fullShare} Vof Win c b) := by
  have hsplit := Pipeline.arrays_of_unscopedBufs (p := ()) (fun (_ : Unit) => pcfg18 (F := F)) (fun _ => a1)
    (fun _ c => dat18 (Vof Win) a1 O c) winFacts18 (launch18 (F := F)).arr_whole c
    ((dat18 (Vof Win) a1 O c).share_full fun _ => rfl) (Vof Win c) (fun w => A_eq18 (Vof Win) a1 O c w)
  rw [Pipeline.unscopedBufs_held,
    Pipeline.unscopedRest_split (Ix := Unit) (Name := ℕ) (U := UD sig nD τ) (Lvl := ℕ) preFacts18 c (Vof Win c),
    Pipeline.unscopedRestP_sdiff pre18 spec18 {main_v72} hx_sub18 c (Vof Win c),
    show (fun k => Vof Win c (pre18.ref k)) = a1.1 from funext ha1] at hsplit
  exact hsplit

/-- EXIT, the buffers' part: the same four put back, the arrays at what the write-backs leave, are every unscoped
    buffer at the exit valuation. -/
theorem exit18 (c : Dev nD) (ha1 : ∀ k, Vof Win c (pre18.ref k) = a1.1 k) :
    iprop((dat18 (Vof Win) a1 O c).arrays ((dat18 (Vof Win) a1 O c).arrAt · (cfg18 a1).N)
        ∗ Pipeline.prefHeld pre18 c (fun _ => fullShare) a1.1
        ∗ (bigSep ({main_v72} : Finset (Ref sig .tc)) fun b => (((c : Thread nD τ)).loc b) ↦{fullShare} Vof Win c b)
        ∗ bigSep (Pipeline.restRefsP sig pre18 spec18 \ {main_v72}) fun b => (((c : Thread nD τ)).loc b) ↦{fullShare} Vof Win c b)
      ⊢ (StableHlo.held (c : Thread nD τ) (Pipeline.ucRefs τ sig) (Wout18 Win a1 O c) : sProp 𝕄) := by
  have hjoin := Pipeline.unscopedBufs_of_arrays (p := ()) (fun (_ : Unit) => pcfg18 (F := F)) (fun _ => a1)
    (Ix := Unit) (Name := ℕ) (U := UD sig nD τ) (Lvl := ℕ)
    winFacts18 (launch18 (F := F)).arr_whole c (fun _ c => dat18 (Vof Win) a1 O c)
    ((dat18 (Vof Win) a1 O c).share_full fun _ => rfl)
    (Vof Win c) (Vof (Wout18 Win a1 O) c) ((dat18 (Vof Win) a1 O c).arrAt · (cfg18 a1).N)
    (fun w => (Wout18_arr Win a1 O c w).symm)
    (fun b hb => Wout18_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts18 c (Vof Win c),
    Pipeline.unscopedRestP_sdiff pre18 spec18 {main_v72} hx_sub18 c (Vof Win c),
    show (fun k => Vof Win c (pre18.ref k)) = a1.1 from funext ha1] at hjoin
  exact hjoin

end Record

section Seg

variable (Win : Dev nD → Valuation τ sig (Elt F))
  (adm : (p : Fin 49) → (pcfgs (F := F) p).Adm)
  (O : (c : Dev nD) → Fin (cfg18 (adm (18 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout18. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg18 (hd : ∀ c, pdats (18 : Fin 49) c = dat18 (Vof Win) (adm (18 : Fin 49)) O c)
    (ha1 : ∀ c k, Vof Win c (pre18.ref k) = (adm (18 : Fin 49)).1 k)
    (hbody : ∀ c, BodyObligation (dat18 (F := F) (Vof Win) (adm (18 : Fin 49)) O c) (defs₀ (F := F)) 𝒱₀ () Set.univ) :
    Pipeline.RegionSeg (pcfgs (F := F)) adm pdats () defs₀ 𝒱₀ L lv (18 : Fin 49) where
  win := (launch18 (F := F)).win.to₀
  block_pos := (launch18 (F := F)).block_pos
  stage_whole := (launch18 (F := F)).stage_whole
  K := Fin 8
  osem := osem18
  ho := ownSemFacts18
  hbody c := by rw [hd c]; exact (hbody c).loose
  hwaits := Pipeline.hwaits_of_owed_zero _ _ _ _ L lv (18 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout18 Win (adm (18 : Fin 49)) O c) ∗ R c)
  X c := iprop((∃ r, prngReg c r)
    ∗ Pipeline.ownSems0 (Ix := Unit) (Name := ℕ) (U := UD sig nD τ) (Lvl := ℕ) (Val := Elt F) (τ := τ) osem18 c
    ∗ (bigSep ({main_v72} : Finset (Ref sig .tc)) fun b => (((c : Thread nD τ)).loc b) ↦{fullShare} Vof Win c b))
  Y c := iprop((∃ r, prngReg c r)
    ∗ (bigSep ({main_v72} : Finset (Ref sig .tc)) fun b => (((c : Thread nD τ)).loc b) ↦{fullShare} Vof Win c b)
    ∗ Pipeline.prefHeld pre18 c (fun _ => fullShare) (adm (18 : Fin 49)).1)
  Z c := bigSep (Pipeline.restRefsP sig pre18 spec18 \ {main_v72}) fun b => (((c : Thread nD τ)).loc b) ↦{fullShare} Vof Win c b
  hentry c := by
    rw [hd c]
    iintro ⟨⟨Hub, Hp, HO⟩, Hos, -⟩
    ihave H := (entry18 Win (adm (18 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq18, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq18, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit18 Win (adm (18 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg18 (F := F)).Adm)

/-- The output block at point t: the gathered rows (of the far operand's contents under V, chosen by the table's
    words at that point) times the input block. -/
def outBlk18 (c : Dev nD) (t : Fin (cfg18 a1).N) : Vec F S8x64 .f32 :=
  gatherOut (gatherG (a1.1 0) (V c main_v72) (grid18.coords t)) (iblk18 V a1 c 0 t)

theorem outBlk_eq18 (c : Dev nD) (t : Fin (cfg18 a1).N) :
    outBlk18 V a1 c t = gatherOut (gatherG (a1.1 0) (V c main_v72) (grid18.coords t)) (iblk18 V a1 c 0 t) := rfl

/-- The proof data with the output block named: after the body at point t the output window's buffer holds it. -/
theorem afterOutBlk18 (c : Dev nD) (t : Fin (cfg18 a1).N) :
    (dat18 V a1 (outBlk18 V a1) c).after 1 t
      = gatherOut (gatherG (a1.1 0) (V c main_v72) (grid18.coords t)) (iblk18 V a1 c 0 t) :=
  afterOut18 V a1 (outBlk18 V a1) c t

/-- The own cells at zero are the semaphore array's eight entries at zero, in order. -/
theorem ownSems_eq18 (c : Dev nD) :
    (Pipeline.ownSems0 (Ix := Unit) (Name := ℕ) (U := UD sig nD τ) (Lvl := ℕ) (Val := Elt F) (τ := τ) osem18 c : sProp 𝕄)
      = gsems0 c cc18_scratch1 := by
  rw [Pipeline.ownSems0_eq_of_list c osem18 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq18 (t : Fin (cfg18 a1).N) : ∃ h3 h4, bodyProg18 (F := F) a1 t
    = cc18__gather_mul_kernel (grid18.coords t) (Memref.whole main_v78) (Memref.isWhole_whole _) (Memref.whole main_v72) (Memref.isWhole_whole _)
        (stg18 a1 0 t) h3 (stg18 a1 1 t) h4 (Memref.whole cc18_scratch0) (Memref.isWhole_whole _) cc18_scratch1 := ⟨_, _, rfl⟩

end Out

/-! ## The body's run, joined to the proof data -/

section Body

variable (V : (c : Dev nD) → (b : Ref sig .tc) → Buf (Elt F) ((c : Thread nD τ).loc b))
  (a1 : (pcfg18 (F := F)).Adm)

/-- The scratch buffer whole at some contents, as a memref owned at some contents. -/
theorem scratchOwns_eq18 (c : Dev nD) :
    (iprop(∃ d, owns (c : Thread nD τ) (Memref.whole cc18_scratch0) fullShare d) : sProp 𝕄)
      = iprop(∃ f : Buf (Elt F) ((c : Thread nD τ).loc cc18_scratch0), ((c : Thread nD τ).loc cc18_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun18 (hlt : ∀ y, BitVec.toNat ((a1.1 0) y) < 100000) : BodyRun18 V a1 (outBlk18 V a1) := by
  intro c t W K
  obtain ⟨h3, h4, hprog⟩ := bodyProg_eq18 (F := F) a1 t
  rw [hprog, ownSems_eq18, ← scratchOwns_eq18 (F := F) c]
  have hrun := gather_kernel_run_18 (F := F) c (grid18.coords t) (Memref.whole main_v78) (Memref.isWhole_whole _) (Memref.whole main_v72) (Memref.isWhole_whole _)
    (stg18 a1 0 t) h3 (stg18 a1 1 t) h4 (Memref.whole cc18_scratch0) (Memref.isWhole_whole _) cc18_scratch1 fullShare fullShare
    (a1.1 0) (V c main_v72) (iblk18 V a1 c 0 t) (fun y => hlt y) W K
  simp only [Memref.view_whole, View.read_whole] at hrun
  unfold outBlk18
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut18 (hlt : ∀ y, BitVec.toNat ((a1.1 0) y) < 100000) (c : Dev nD) :
    BodyObligation (dat18 (F := F) V a1 (outBlk18 V a1) c) (defs₀ (F := F)) Variants.none () Set.univ :=
  body_obligation18 V a1 (outBlk18 V a1) (bodyRun18 V a1 hlt) c

end Body

/-! # Region 19 -/

/-! ## The body's own transfer cells -/

/-- The eight cells of the body's semaphore array, in order. -/
abbrev osem19 : Fin 8 → SemLoc sig := fun j => SemLoc.dma (cc19_scratch1.ix (fun | ⟨0, _⟩ => j))

/-- They are scoped, pairwise distinct, and none is a staging cell of a window. -/
theorem ownSemFacts19 : Pipeline.OwnSemFacts spec19 osem19 := by decide

/-- The far operand is an unscoped buffer that is neither a window's array nor a table. -/
theorem hx_sub19 : ({main_v72} : Finset (Ref sig .tc)) ⊆ Pipeline.restRefsP sig pre19 spec19 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg19 (F := F)).Adm)
  (O : (c : Dev nD) → Fin (cfg19 a1).N → Vec F S8x64 .f32)

/-! ## The windows' blocks -/

/-- Window w's block at point t, read off its array under V. -/
def iblk19 (c : Dev nD) (w : Fin (cfg19 a1).W) (t : Fin (cfg19 a1).N) :
    (((cfg19 a1).win w).xblock ((cfg19 a1).grid.coords t)).Idx → Elt F ((cfg19 a1).win w).elt :=
  (((cfg19 a1).win w).blk t).view.read (Elt F) (V c (Pipeline.arrRef spec19 w))

/-- The input window's current staging buffer holds its block at every point, fetched there or not, for any proof
    data whose array is V's and whose body leaves the block in place: unfetched, the block index has not moved. -/
theorem beforeIn19_of {c : Dev nD} (dat : Dat τ (Elt F) Unit ℕ (UD sig nD τ) ℕ (cfg19 a1) c)
    (hA : dat.A 0 = V c (Pipeline.arrRef spec19 0))
    (hafter : ∀ t, dat.after 0 t = iblk19 V a1 c 0 t) (t : Fin (cfg19 a1).N) (d) : dat.before 0 t d = iblk19 V a1 c 0 t :=
  (dat.before_in_eq_fetched 0 rfl (fun _ => rfl) (fun _ _ _ => rfl)
    (fun t => by rw [hafter]; unfold Dat.blockOf iblk19; rw [hA]; try rfl) t d).trans
    (by unfold Dat.fetched Dat.blockOf iblk19; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat19 (c : Dev nD) : Dat τ (Elt F) Unit ℕ (UD sig nD τ) ℕ (cfg19 a1) c where
  A w := V c (Pipeline.arrRef spec19 w)
  after w t := match w with
    | ⟨0, _⟩ => iblk19 V a1 c 0 t
    | ⟨1, _⟩ => O c t
  Φ _ := iprop(Pipeline.ΦD osem19 spec19 {main_v72} V c ∗ Pipeline.prefHeld pre19 c (fun _ => fullShare) a1.1)
  q _ := fullShare
  owed _ := 0

theorem A_eq19 (c : Dev nD) (w : Fin (cfg19 a1).W) : (dat19 V a1 O c).A w = V c (Pipeline.arrRef spec19 w) := by
  dsimp only [dat19]

theorem afterIn19 (c : Dev nD) (t : Fin (cfg19 a1).N) : (dat19 V a1 O c).after 0 t = iblk19 V a1 c 0 t := by
  dsimp only [dat19]; rfl

theorem afterOut19 (c : Dev nD) (t : Fin (cfg19 a1).N) :
    (dat19 V a1 O c).after 1 t = O c t := by
  dsimp only [dat19]; rfl

theorem beforeIn19 (c : Dev nD) (t : Fin (cfg19 a1).N) (d) : (dat19 V a1 O c).before 0 t d = iblk19 V a1 c 0 t :=
  beforeIn19_of V a1 (dat19 V a1 O c) (A_eq19 V a1 O c 0) (afterIn19 V a1 O c) t d

theorem Phi_eq19 (c : Dev nD) (t : Fin ((cfg19 a1).N + 1)) :
    (dat19 V a1 O c).Φ t
      = iprop(Pipeline.ΦD osem19 spec19 {main_v72} V c ∗ Pipeline.prefHeld pre19 c (fun _ => fullShare) a1.1) := by
  dsimp only [dat19]

theorem owed_eq19 (c : Dev nD) (t : Fin ((cfg19 a1).N + 1)) : (dat19 V a1 O c).owed t = 0 := by
  dsimp only [dat19]

/-! ## The invariant, conjunct by conjunct -/

/-- The invariant's first part opened: the body's scratch buffer whole at some contents and the other scoped
    buffers no window stages, the generator register, the own cells at zero, the far operand at its contents. -/
theorem PhiD_eq19 (c : Dev nD) :
    (Pipeline.ΦD osem19 spec19 {main_v72} V c : sProp 𝕄)
      = iprop(iprop(iprop((∃ f : Buf (Elt F) ((c : Thread nD τ).loc cc19_scratch0), ((c : Thread nD τ).loc cc19_scratch0) ↦{fullShare} f))
            ∗ Pipeline.scopedRestBut (Ix := Unit) (Name := ℕ) (U := UD sig nD τ) (Lvl := ℕ) (Val := Elt F) spec19 c [cc19_scratch0])
          ∗ (∃ r, prngReg c r)
          ∗ Pipeline.ownSems0 (Ix := Unit) (Name := ℕ) (U := UD sig nD τ) (Lvl := ℕ) (Val := Elt F) (τ := τ) osem19 c
          ∗ (((c : Thread nD τ).loc main_v72) ↦{fullShare} V c main_v72)) := by
  rw [Pipeline.ΦD_eq, scopedRest19_split, BI.bigSep_eq_bigSepL_of_eq [main_v72] (by decide) (by decide)]; rfl

/-- The one table, held whole. -/
theorem prefHeld_eq19 (c : Dev nD) :
    (Pipeline.prefHeld pre19 c (fun _ => fullShare) a1.1 : sProp 𝕄)
      = (((c : Thread nD τ).loc main_v82) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg19 (w : Fin (cfg19 a1).W) (t : Fin (cfg19 a1).N) := ((cfg19 a1).win w).stage ((cfg19 a1).slots t w)

/-- The body as the pipeline calls it at point t. -/
abbrev bodyProg19 (t : Fin (cfg19 a1).N) : Prog (TpuEff nD τ sig (Elt F) Λ₀ .tc) PUnit :=
  (defs₀ (F := F)) .tc (cfg19 a1).body ((cfg19 a1).bodyArgs t ((cfg19 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun19 : Prop :=
  ∀ (c : Dev nD) (t : Fin (cfg19 a1).N) (W) (K : PUnit → sProp 𝕄),
    iprop(owns (c : Thread nD τ) (stg19 a1 0 t) fullShare (iblk19 V a1 c 0 t)
        ∗ (∃ d, owns (c : Thread nD τ) (stg19 a1 1 t) fullShare d)
        ∗ (∃ f : Buf (Elt F) ((c : Thread nD τ).loc cc19_scratch0), ((c : Thread nD τ).loc cc19_scratch0) ↦{fullShare} f)
        ∗ Pipeline.ownSems0 (Ix := Unit) (Name := ℕ) (U := UD sig nD τ) (Lvl := ℕ) (Val := Elt F) (τ := τ) osem19 c
        ∗ (((c : Thread nD τ).loc main_v82) ↦{fullShare} a1.1 0)
        ∗ (((c : Thread nD τ).loc main_v72) ↦{fullShare} V c main_v72)
        ∗ owes (c : Thread nD τ) (0 : CellTallies nD τ sig Unit) W
        ∗ (iprop(owns (c : Thread nD τ) (stg19 a1 0 t) fullShare (iblk19 V a1 c 0 t)
            ∗ owns (c : Thread nD τ) (stg19 a1 1 t) fullShare (O c t)
            ∗ (∃ f : Buf (Elt F) ((c : Thread nD τ).loc cc19_scratch0), ((c : Thread nD τ).loc cc19_scratch0) ↦{fullShare} f)
            ∗ Pipeline.ownSems0 (Ix := Unit) (Name := ℕ) (U := UD sig nD τ) (Lvl := ℕ) (Val := Elt F) (τ := τ) osem19 c
            ∗ (((c : Thread nD τ).loc main_v82) ↦{fullShare} a1.1 0)
            ∗ (((c : Thread nD τ).loc main_v72) ↦{fullShare} V c main_v72)
            ∗ (∃ W', owes (c : Thread nD τ) (0 : CellTallies nD τ sig Unit) W')) -∗ K ⟨⟩))
      ⊢ wp frame (wpE (defs₀ (F := F)) Variants.none c none) Set.univ (bodyProg19 a1 t) K

/-- What the body is called with at point t, the windows one by one, -/
def bodyPre19 (c : Dev nD) (t : Fin (cfg19 a1).N) : sProp 𝕄 :=
  iprop((dat19 V a1 O c).Φ t.castSucc ∗ (dat19 V a1 O c).owesAt () t.castSucc
    ∗ (∃ d, owns (c : Thread nD τ) (stg19 a1 0 t) fullShare ((dat19 V a1 O c).before 0 t d))
    ∗ (∃ d, owns (c : Thread nD τ) (stg19 a1 1 t) fullShare ((dat19 V a1 O c).before 1 t d)))

/-- and what it returns. -/
def bodyPost19 (c : Dev nD) (t : Fin (cfg19 a1).N) : sProp 𝕄 :=
  iprop((dat19 V a1 O c).Φ t.succ ∗ (dat19 V a1 O c).owesAt () t.succ
    ∗ owns (c : Thread nD τ) (stg19 a1 0 t) fullShare ((dat19 V a1 O c).after 0 t)
    ∗ owns (c : Thread nD τ) (stg19 a1 1 t) fullShare ((dat19 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body19 (hrun : BodyRun19 V a1 O) (c : Dev nD) (t : Fin (cfg19 a1).N) :
    bodyPre19 V a1 O c t
      ⊢ wp frame (wpE (defs₀ (F := F)) Variants.none c none) Set.univ (bodyProg19 a1 t) (fun _ => bodyPost19 V a1 O c t) := by
  unfold bodyPre19 bodyPost19
  simp only [beforeIn19]
  rw [afterIn19, afterOut19, Phi_eq19, Phi_eq19, PhiD_eq19, prefHeld_eq19]
  unfold Dat.owesAt Pipeline.owesWithin
  rw [owed_eq19, owed_eq19]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation19 (hrun : BodyRun19 V a1 O) (c : Dev nD) :
    BodyObligation (dat19 (F := F) V a1 O c) (defs₀ (F := F)) Variants.none () Set.univ := fun t => by
  rw [bigSep_W19, bigSep_W19]
  exact sound_body19 V a1 O hrun c t

end Data

/-! ## The region's record -/

section Record

variable (Win : Dev nD → Valuation τ sig (Elt F))

variable (a1 : (pcfg19 (F := F)).Adm)
  (O : (c : Dev nD) → Fin (cfg19 a1).N → Vec F S8x64 .f32)

/-- The buffers at the region's exit: its arrays at what the write-backs leave, every other buffer as entered. -/
def Wout19 (c : Dev nD) : Valuation τ sig (Elt F) :=
  Pipeline.withArrays spec19 c (Win c) fun w => (dat19 (Vof Win) a1 O c).arrAt w (cfg19 a1).N

theorem Wout19_arr (c : Dev nD) (w : Fin (cfg19 a1).W) :
    Wout19 Win a1 O c (Proc.devRef .tc (Pipeline.arrRef spec19 w)) = (dat19 (Vof Win) a1 O c).arrAt w (cfg19 a1).N := by
  unfold Wout19; exact Pipeline.withArrays_arr spec19 winFacts19.arr_inj c _ _ w

theorem Wout19_of_ne (c : Dev nD) (b : Ref sig .tc) (hb : ∀ w, Pipeline.arrRef spec19 w ≠ b) :
    Wout19 Win a1 O c (Proc.devRef .tc b) = Win c (Proc.devRef .tc b) := by
  unfold Wout19; exact Pipeline.withArrays_of_ne spec19 c _ _ b hb

/-- ENTRY, the buffers' part. Every unscoped buffer at Win is: the region's arrays at the proof data's entry contents,
    the table whole at the admissible contents (which are Win's there), the far operand whole, and the others. -/
theorem entry19 (c : Dev nD) (ha1 : ∀ k, Vof Win c (pre19.ref k) = a1.1 k) :
    (StableHlo.held (c : Thread nD τ) (Pipeline.ucRefs τ sig) (Win c) : sProp 𝕄)
      ⊢ iprop((dat19 (Vof Win) a1 O c).arrays ((dat19 (Vof Win) a1 O c).arrAt · 0)
          ∗ Pipeline.prefHeld pre19 c (fun _ => fullShare) a1.1
          ∗ (bigSep ({main_v72} : Finset (Ref sig .tc)) fun b => (((c : Thread nD τ)).loc b) ↦{fullShare} Vof Win c b)
          ∗ bigSep (Pipeline.restRefsP sig pre19 spec19 \ {main_v72}) fun b => (((c : Thread nD τ)).loc b) ↦{fullShare} Vof Win c b) := by
  have hsplit := Pipeline.arrays_of_unscopedBufs (p := ()) (fun (_ : Unit) => pcfg19 (F := F)) (fun _ => a1)
    (fun _ c => dat19 (Vof Win) a1 O c) winFacts19 (launch19 (F := F)).arr_whole c
    ((dat19 (Vof Win) a1 O c).share_full fun _ => rfl) (Vof Win c) (fun w => A_eq19 (Vof Win) a1 O c w)
  rw [Pipeline.unscopedBufs_held,
    Pipeline.unscopedRest_split (Ix := Unit) (Name := ℕ) (U := UD sig nD τ) (Lvl := ℕ) preFacts19 c (Vof Win c),
    Pipeline.unscopedRestP_sdiff pre19 spec19 {main_v72} hx_sub19 c (Vof Win c),
    show (fun k => Vof Win c (pre19.ref k)) = a1.1 from funext ha1] at hsplit
  exact hsplit

/-- EXIT, the buffers' part: the same four put back, the arrays at what the write-backs leave, are every unscoped
    buffer at the exit valuation. -/
theorem exit19 (c : Dev nD) (ha1 : ∀ k, Vof Win c (pre19.ref k) = a1.1 k) :
    iprop((dat19 (Vof Win) a1 O c).arrays ((dat19 (Vof Win) a1 O c).arrAt · (cfg19 a1).N)
        ∗ Pipeline.prefHeld pre19 c (fun _ => fullShare) a1.1
        ∗ (bigSep ({main_v72} : Finset (Ref sig .tc)) fun b => (((c : Thread nD τ)).loc b) ↦{fullShare} Vof Win c b)
        ∗ bigSep (Pipeline.restRefsP sig pre19 spec19 \ {main_v72}) fun b => (((c : Thread nD τ)).loc b) ↦{fullShare} Vof Win c b)
      ⊢ (StableHlo.held (c : Thread nD τ) (Pipeline.ucRefs τ sig) (Wout19 Win a1 O c) : sProp 𝕄) := by
  have hjoin := Pipeline.unscopedBufs_of_arrays (p := ()) (fun (_ : Unit) => pcfg19 (F := F)) (fun _ => a1)
    (Ix := Unit) (Name := ℕ) (U := UD sig nD τ) (Lvl := ℕ)
    winFacts19 (launch19 (F := F)).arr_whole c (fun _ c => dat19 (Vof Win) a1 O c)
    ((dat19 (Vof Win) a1 O c).share_full fun _ => rfl)
    (Vof Win c) (Vof (Wout19 Win a1 O) c) ((dat19 (Vof Win) a1 O c).arrAt · (cfg19 a1).N)
    (fun w => (Wout19_arr Win a1 O c w).symm)
    (fun b hb => Wout19_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts19 c (Vof Win c),
    Pipeline.unscopedRestP_sdiff pre19 spec19 {main_v72} hx_sub19 c (Vof Win c),
    show (fun k => Vof Win c (pre19.ref k)) = a1.1 from funext ha1] at hjoin
  exact hjoin

end Record

section Seg

variable (Win : Dev nD → Valuation τ sig (Elt F))
  (adm : (p : Fin 49) → (pcfgs (F := F) p).Adm)
  (O : (c : Dev nD) → Fin (cfg19 (adm (19 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout19. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg19 (hd : ∀ c, pdats (19 : Fin 49) c = dat19 (Vof Win) (adm (19 : Fin 49)) O c)
    (ha1 : ∀ c k, Vof Win c (pre19.ref k) = (adm (19 : Fin 49)).1 k)
    (hbody : ∀ c, BodyObligation (dat19 (F := F) (Vof Win) (adm (19 : Fin 49)) O c) (defs₀ (F := F)) 𝒱₀ () Set.univ) :
    Pipeline.RegionSeg (pcfgs (F := F)) adm pdats () defs₀ 𝒱₀ L lv (19 : Fin 49) where
  win := (launch19 (F := F)).win.to₀
  block_pos := (launch19 (F := F)).block_pos
  stage_whole := (launch19 (F := F)).stage_whole
  K := Fin 8
  osem := osem19
  ho := ownSemFacts19
  hbody c := by rw [hd c]; exact (hbody c).loose
  hwaits := Pipeline.hwaits_of_owed_zero _ _ _ _ L lv (19 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout19 Win (adm (19 : Fin 49)) O c) ∗ R c)
  X c := iprop((∃ r, prngReg c r)
    ∗ Pipeline.ownSems0 (Ix := Unit) (Name := ℕ) (U := UD sig nD τ) (Lvl := ℕ) (Val := Elt F) (τ := τ) osem19 c
    ∗ (bigSep ({main_v72} : Finset (Ref sig .tc)) fun b => (((c : Thread nD τ)).loc b) ↦{fullShare} Vof Win c b))
  Y c := iprop((∃ r, prngReg c r)
    ∗ (bigSep ({main_v72} : Finset (Ref sig .tc)) fun b => (((c : Thread nD τ)).loc b) ↦{fullShare} Vof Win c b)
    ∗ Pipeline.prefHeld pre19 c (fun _ => fullShare) (adm (19 : Fin 49)).1)
  Z c := bigSep (Pipeline.restRefsP sig pre19 spec19 \ {main_v72}) fun b => (((c : Thread nD τ)).loc b) ↦{fullShare} Vof Win c b
  hentry c := by
    rw [hd c]
    iintro ⟨⟨Hub, Hp, HO⟩, Hos, -⟩
    ihave H := (entry19 Win (adm (19 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq19, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq19, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit19 Win (adm (19 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg19 (F := F)).Adm)

/-- The output block at point t: the gathered rows (of the far operand's contents under V, chosen by the table's
    words at that point) times the input block. -/
def outBlk19 (c : Dev nD) (t : Fin (cfg19 a1).N) : Vec F S8x64 .f32 :=
  gatherOut (gatherG (a1.1 0) (V c main_v72) (grid19.coords t)) (iblk19 V a1 c 0 t)

theorem outBlk_eq19 (c : Dev nD) (t : Fin (cfg19 a1).N) :
    outBlk19 V a1 c t = gatherOut (gatherG (a1.1 0) (V c main_v72) (grid19.coords t)) (iblk19 V a1 c 0 t) := rfl

/-- The proof data with the output block named: after the body at point t the output window's buffer holds it. -/
theorem afterOutBlk19 (c : Dev nD) (t : Fin (cfg19 a1).N) :
    (dat19 V a1 (outBlk19 V a1) c).after 1 t
      = gatherOut (gatherG (a1.1 0) (V c main_v72) (grid19.coords t)) (iblk19 V a1 c 0 t) :=
  afterOut19 V a1 (outBlk19 V a1) c t

/-- The own cells at zero are the semaphore array's eight entries at zero, in order. -/
theorem ownSems_eq19 (c : Dev nD) :
    (Pipeline.ownSems0 (Ix := Unit) (Name := ℕ) (U := UD sig nD τ) (Lvl := ℕ) (Val := Elt F) (τ := τ) osem19 c : sProp 𝕄)
      = gsems0 c cc19_scratch1 := by
  rw [Pipeline.ownSems0_eq_of_list c osem19 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq19 (t : Fin (cfg19 a1).N) : ∃ h3 h4, bodyProg19 (F := F) a1 t
    = cc19__gather_mul_kernel (grid19.coords t) (Memref.whole main_v82) (Memref.isWhole_whole _) (Memref.whole main_v72) (Memref.isWhole_whole _)
        (stg19 a1 0 t) h3 (stg19 a1 1 t) h4 (Memref.whole cc19_scratch0) (Memref.isWhole_whole _) cc19_scratch1 := ⟨_, _, rfl⟩

end Out

/-! ## The body's run, joined to the proof data -/

section Body

variable (V : (c : Dev nD) → (b : Ref sig .tc) → Buf (Elt F) ((c : Thread nD τ).loc b))
  (a1 : (pcfg19 (F := F)).Adm)

/-- The scratch buffer whole at some contents, as a memref owned at some contents. -/
theorem scratchOwns_eq19 (c : Dev nD) :
    (iprop(∃ d, owns (c : Thread nD τ) (Memref.whole cc19_scratch0) fullShare d) : sProp 𝕄)
      = iprop(∃ f : Buf (Elt F) ((c : Thread nD τ).loc cc19_scratch0), ((c : Thread nD τ).loc cc19_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun19 (hlt : ∀ y, BitVec.toNat ((a1.1 0) y) < 100000) : BodyRun19 V a1 (outBlk19 V a1) := by
  intro c t W K
  obtain ⟨h3, h4, hprog⟩ := bodyProg_eq19 (F := F) a1 t
  rw [hprog, ownSems_eq19, ← scratchOwns_eq19 (F := F) c]
  have hrun := gather_kernel_run_19 (F := F) c (grid19.coords t) (Memref.whole main_v82) (Memref.isWhole_whole _) (Memref.whole main_v72) (Memref.isWhole_whole _)
    (stg19 a1 0 t) h3 (stg19 a1 1 t) h4 (Memref.whole cc19_scratch0) (Memref.isWhole_whole _) cc19_scratch1 fullShare fullShare
    (a1.1 0) (V c main_v72) (iblk19 V a1 c 0 t) (fun y => hlt y) W K
  simp only [Memref.view_whole, View.read_whole] at hrun
  unfold outBlk19
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut19 (hlt : ∀ y, BitVec.toNat ((a1.1 0) y) < 100000) (c : Dev nD) :
    BodyObligation (dat19 (F := F) V a1 (outBlk19 V a1) c) (defs₀ (F := F)) Variants.none () Set.univ :=
  body_obligation19 V a1 (outBlk19 V a1) (bodyRun19 V a1 hlt) c

end Body

/-! # Region 20 -/

/-! ## The body's own transfer cells -/

/-- The eight cells of the body's semaphore array, in order. -/
abbrev osem20 : Fin 8 → SemLoc sig := fun j => SemLoc.dma (cc20_scratch1.ix (fun | ⟨0, _⟩ => j))

/-- They are scoped, pairwise distinct, and none is a staging cell of a window. -/
theorem ownSemFacts20 : Pipeline.OwnSemFacts spec20 osem20 := by decide

/-- The far operand is an unscoped buffer that is neither a window's array nor a table. -/
theorem hx_sub20 : ({main_v72} : Finset (Ref sig .tc)) ⊆ Pipeline.restRefsP sig pre20 spec20 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg20 (F := F)).Adm)
  (O : (c : Dev nD) → Fin (cfg20 a1).N → Vec F S8x64 .f32)

/-! ## The windows' blocks -/

/-- Window w's block at point t, read off its array under V. -/
def iblk20 (c : Dev nD) (w : Fin (cfg20 a1).W) (t : Fin (cfg20 a1).N) :
    (((cfg20 a1).win w).xblock ((cfg20 a1).grid.coords t)).Idx → Elt F ((cfg20 a1).win w).elt :=
  (((cfg20 a1).win w).blk t).view.read (Elt F) (V c (Pipeline.arrRef spec20 w))

/-- The input window's current staging buffer holds its block at every point, fetched there or not, for any proof
    data whose array is V's and whose body leaves the block in place: unfetched, the block index has not moved. -/
theorem beforeIn20_of {c : Dev nD} (dat : Dat τ (Elt F) Unit ℕ (UD sig nD τ) ℕ (cfg20 a1) c)
    (hA : dat.A 0 = V c (Pipeline.arrRef spec20 0))
    (hafter : ∀ t, dat.after 0 t = iblk20 V a1 c 0 t) (t : Fin (cfg20 a1).N) (d) : dat.before 0 t d = iblk20 V a1 c 0 t :=
  (dat.before_in_eq_fetched 0 rfl (fun _ => rfl) (fun _ _ _ => rfl)
    (fun t => by rw [hafter]; unfold Dat.blockOf iblk20; rw [hA]; try rfl) t d).trans
    (by unfold Dat.fetched Dat.blockOf iblk20; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat20 (c : Dev nD) : Dat τ (Elt F) Unit ℕ (UD sig nD τ) ℕ (cfg20 a1) c where
  A w := V c (Pipeline.arrRef spec20 w)
  after w t := match w with
    | ⟨0, _⟩ => iblk20 V a1 c 0 t
    | ⟨1, _⟩ => O c t
  Φ _ := iprop(Pipeline.ΦD osem20 spec20 {main_v72} V c ∗ Pipeline.prefHeld pre20 c (fun _ => fullShare) a1.1)
  q _ := fullShare
  owed _ := 0

theorem A_eq20 (c : Dev nD) (w : Fin (cfg20 a1).W) : (dat20 V a1 O c).A w = V c (Pipeline.arrRef spec20 w) := by
  dsimp only [dat20]

theorem afterIn20 (c : Dev nD) (t : Fin (cfg20 a1).N) : (dat20 V a1 O c).after 0 t = iblk20 V a1 c 0 t := by
  dsimp only [dat20]; rfl

theorem afterOut20 (c : Dev nD) (t : Fin (cfg20 a1).N) :
    (dat20 V a1 O c).after 1 t = O c t := by
  dsimp only [dat20]; rfl

theorem beforeIn20 (c : Dev nD) (t : Fin (cfg20 a1).N) (d) : (dat20 V a1 O c).before 0 t d = iblk20 V a1 c 0 t :=
  beforeIn20_of V a1 (dat20 V a1 O c) (A_eq20 V a1 O c 0) (afterIn20 V a1 O c) t d

theorem Phi_eq20 (c : Dev nD) (t : Fin ((cfg20 a1).N + 1)) :
    (dat20 V a1 O c).Φ t
      = iprop(Pipeline.ΦD osem20 spec20 {main_v72} V c ∗ Pipeline.prefHeld pre20 c (fun _ => fullShare) a1.1) := by
  dsimp only [dat20]

theorem owed_eq20 (c : Dev nD) (t : Fin ((cfg20 a1).N + 1)) : (dat20 V a1 O c).owed t = 0 := by
  dsimp only [dat20]

/-! ## The invariant, conjunct by conjunct -/

/-- The invariant's first part opened: the body's scratch buffer whole at some contents and the other scoped
    buffers no window stages, the generator register, the own cells at zero, the far operand at its contents. -/
theorem PhiD_eq20 (c : Dev nD) :
    (Pipeline.ΦD osem20 spec20 {main_v72} V c : sProp 𝕄)
      = iprop(iprop(iprop((∃ f : Buf (Elt F) ((c : Thread nD τ).loc cc20_scratch0), ((c : Thread nD τ).loc cc20_scratch0) ↦{fullShare} f))
            ∗ Pipeline.scopedRestBut (Ix := Unit) (Name := ℕ) (U := UD sig nD τ) (Lvl := ℕ) (Val := Elt F) spec20 c [cc20_scratch0])
          ∗ (∃ r, prngReg c r)
          ∗ Pipeline.ownSems0 (Ix := Unit) (Name := ℕ) (U := UD sig nD τ) (Lvl := ℕ) (Val := Elt F) (τ := τ) osem20 c
          ∗ (((c : Thread nD τ).loc main_v72) ↦{fullShare} V c main_v72)) := by
  rw [Pipeline.ΦD_eq, scopedRest20_split, BI.bigSep_eq_bigSepL_of_eq [main_v72] (by decide) (by decide)]; rfl

/-- The one table, held whole. -/
theorem prefHeld_eq20 (c : Dev nD) :
    (Pipeline.prefHeld pre20 c (fun _ => fullShare) a1.1 : sProp 𝕄)
      = (((c : Thread nD τ).loc main_v86) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg20 (w : Fin (cfg20 a1).W) (t : Fin (cfg20 a1).N) := ((cfg20 a1).win w).stage ((cfg20 a1).slots t w)

/-- The body as the pipeline calls it at point t. -/
abbrev bodyProg20 (t : Fin (cfg20 a1).N) : Prog (TpuEff nD τ sig (Elt F) Λ₀ .tc) PUnit :=
  (defs₀ (F := F)) .tc (cfg20 a1).body ((cfg20 a1).bodyArgs t ((cfg20 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun20 : Prop :=
  ∀ (c : Dev nD) (t : Fin (cfg20 a1).N) (W) (K : PUnit → sProp 𝕄),
    iprop(owns (c : Thread nD τ) (stg20 a1 0 t) fullShare (iblk20 V a1 c 0 t)
        ∗ (∃ d, owns (c : Thread nD τ) (stg20 a1 1 t) fullShare d)
        ∗ (∃ f : Buf (Elt F) ((c : Thread nD τ).loc cc20_scratch0), ((c : Thread nD τ).loc cc20_scratch0) ↦{fullShare} f)
        ∗ Pipeline.ownSems0 (Ix := Unit) (Name := ℕ) (U := UD sig nD τ) (Lvl := ℕ) (Val := Elt F) (τ := τ) osem20 c
        ∗ (((c : Thread nD τ).loc main_v86) ↦{fullShare} a1.1 0)
        ∗ (((c : Thread nD τ).loc main_v72) ↦{fullShare} V c main_v72)
        ∗ owes (c : Thread nD τ) (0 : CellTallies nD τ sig Unit) W
        ∗ (iprop(owns (c : Thread nD τ) (stg20 a1 0 t) fullShare (iblk20 V a1 c 0 t)
            ∗ owns (c : Thread nD τ) (stg20 a1 1 t) fullShare (O c t)
            ∗ (∃ f : Buf (Elt F) ((c : Thread nD τ).loc cc20_scratch0), ((c : Thread nD τ).loc cc20_scratch0) ↦{fullShare} f)
            ∗ Pipeline.ownSems0 (Ix := Unit) (Name := ℕ) (U := UD sig nD τ) (Lvl := ℕ) (Val := Elt F) (τ := τ) osem20 c
            ∗ (((c : Thread nD τ).loc main_v86) ↦{fullShare} a1.1 0)
            ∗ (((c : Thread nD τ).loc main_v72) ↦{fullShare} V c main_v72)
            ∗ (∃ W', owes (c : Thread nD τ) (0 : CellTallies nD τ sig Unit) W')) -∗ K ⟨⟩))
      ⊢ wp frame (wpE (defs₀ (F := F)) Variants.none c none) Set.univ (bodyProg20 a1 t) K

/-- What the body is called with at point t, the windows one by one, -/
def bodyPre20 (c : Dev nD) (t : Fin (cfg20 a1).N) : sProp 𝕄 :=
  iprop((dat20 V a1 O c).Φ t.castSucc ∗ (dat20 V a1 O c).owesAt () t.castSucc
    ∗ (∃ d, owns (c : Thread nD τ) (stg20 a1 0 t) fullShare ((dat20 V a1 O c).before 0 t d))
    ∗ (∃ d, owns (c : Thread nD τ) (stg20 a1 1 t) fullShare ((dat20 V a1 O c).before 1 t d)))

/-- and what it returns. -/
def bodyPost20 (c : Dev nD) (t : Fin (cfg20 a1).N) : sProp 𝕄 :=
  iprop((dat20 V a1 O c).Φ t.succ ∗ (dat20 V a1 O c).owesAt () t.succ
    ∗ owns (c : Thread nD τ) (stg20 a1 0 t) fullShare ((dat20 V a1 O c).after 0 t)
    ∗ owns (c : Thread nD τ) (stg20 a1 1 t) fullShare ((dat20 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body20 (hrun : BodyRun20 V a1 O) (c : Dev nD) (t : Fin (cfg20 a1).N) :
    bodyPre20 V a1 O c t
      ⊢ wp frame (wpE (defs₀ (F := F)) Variants.none c none) Set.univ (bodyProg20 a1 t) (fun _ => bodyPost20 V a1 O c t) := by
  unfold bodyPre20 bodyPost20
  simp only [beforeIn20]
  rw [afterIn20, afterOut20, Phi_eq20, Phi_eq20, PhiD_eq20, prefHeld_eq20]
  unfold Dat.owesAt Pipeline.owesWithin
  rw [owed_eq20, owed_eq20]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation20 (hrun : BodyRun20 V a1 O) (c : Dev nD) :
    BodyObligation (dat20 (F := F) V a1 O c) (defs₀ (F := F)) Variants.none () Set.univ := fun t => by
  rw [bigSep_W20, bigSep_W20]
  exact sound_body20 V a1 O hrun c t

end Data

/-! ## The region's record -/

section Record

variable (Win : Dev nD → Valuation τ sig (Elt F))

variable (a1 : (pcfg20 (F := F)).Adm)
  (O : (c : Dev nD) → Fin (cfg20 a1).N → Vec F S8x64 .f32)

/-- The buffers at the region's exit: its arrays at what the write-backs leave, every other buffer as entered. -/
def Wout20 (c : Dev nD) : Valuation τ sig (Elt F) :=
  Pipeline.withArrays spec20 c (Win c) fun w => (dat20 (Vof Win) a1 O c).arrAt w (cfg20 a1).N

theorem Wout20_arr (c : Dev nD) (w : Fin (cfg20 a1).W) :
    Wout20 Win a1 O c (Proc.devRef .tc (Pipeline.arrRef spec20 w)) = (dat20 (Vof Win) a1 O c).arrAt w (cfg20 a1).N := by
  unfold Wout20; exact Pipeline.withArrays_arr spec20 winFacts20.arr_inj c _ _ w

theorem Wout20_of_ne (c : Dev nD) (b : Ref sig .tc) (hb : ∀ w, Pipeline.arrRef spec20 w ≠ b) :
    Wout20 Win a1 O c (Proc.devRef .tc b) = Win c (Proc.devRef .tc b) := by
  unfold Wout20; exact Pipeline.withArrays_of_ne spec20 c _ _ b hb

/-- ENTRY, the buffers' part. Every unscoped buffer at Win is: the region's arrays at the proof data's entry contents,
    the table whole at the admissible contents (which are Win's there), the far operand whole, and the others. -/
theorem entry20 (c : Dev nD) (ha1 : ∀ k, Vof Win c (pre20.ref k) = a1.1 k) :
    (StableHlo.held (c : Thread nD τ) (Pipeline.ucRefs τ sig) (Win c) : sProp 𝕄)
      ⊢ iprop((dat20 (Vof Win) a1 O c).arrays ((dat20 (Vof Win) a1 O c).arrAt · 0)
          ∗ Pipeline.prefHeld pre20 c (fun _ => fullShare) a1.1
          ∗ (bigSep ({main_v72} : Finset (Ref sig .tc)) fun b => (((c : Thread nD τ)).loc b) ↦{fullShare} Vof Win c b)
          ∗ bigSep (Pipeline.restRefsP sig pre20 spec20 \ {main_v72}) fun b => (((c : Thread nD τ)).loc b) ↦{fullShare} Vof Win c b) := by
  have hsplit := Pipeline.arrays_of_unscopedBufs (p := ()) (fun (_ : Unit) => pcfg20 (F := F)) (fun _ => a1)
    (fun _ c => dat20 (Vof Win) a1 O c) winFacts20 (launch20 (F := F)).arr_whole c
    ((dat20 (Vof Win) a1 O c).share_full fun _ => rfl) (Vof Win c) (fun w => A_eq20 (Vof Win) a1 O c w)
  rw [Pipeline.unscopedBufs_held,
    Pipeline.unscopedRest_split (Ix := Unit) (Name := ℕ) (U := UD sig nD τ) (Lvl := ℕ) preFacts20 c (Vof Win c),
    Pipeline.unscopedRestP_sdiff pre20 spec20 {main_v72} hx_sub20 c (Vof Win c),
    show (fun k => Vof Win c (pre20.ref k)) = a1.1 from funext ha1] at hsplit
  exact hsplit

/-- EXIT, the buffers' part: the same four put back, the arrays at what the write-backs leave, are every unscoped
    buffer at the exit valuation. -/
theorem exit20 (c : Dev nD) (ha1 : ∀ k, Vof Win c (pre20.ref k) = a1.1 k) :
    iprop((dat20 (Vof Win) a1 O c).arrays ((dat20 (Vof Win) a1 O c).arrAt · (cfg20 a1).N)
        ∗ Pipeline.prefHeld pre20 c (fun _ => fullShare) a1.1
        ∗ (bigSep ({main_v72} : Finset (Ref sig .tc)) fun b => (((c : Thread nD τ)).loc b) ↦{fullShare} Vof Win c b)
        ∗ bigSep (Pipeline.restRefsP sig pre20 spec20 \ {main_v72}) fun b => (((c : Thread nD τ)).loc b) ↦{fullShare} Vof Win c b)
      ⊢ (StableHlo.held (c : Thread nD τ) (Pipeline.ucRefs τ sig) (Wout20 Win a1 O c) : sProp 𝕄) := by
  have hjoin := Pipeline.unscopedBufs_of_arrays (p := ()) (fun (_ : Unit) => pcfg20 (F := F)) (fun _ => a1)
    (Ix := Unit) (Name := ℕ) (U := UD sig nD τ) (Lvl := ℕ)
    winFacts20 (launch20 (F := F)).arr_whole c (fun _ c => dat20 (Vof Win) a1 O c)
    ((dat20 (Vof Win) a1 O c).share_full fun _ => rfl)
    (Vof Win c) (Vof (Wout20 Win a1 O) c) ((dat20 (Vof Win) a1 O c).arrAt · (cfg20 a1).N)
    (fun w => (Wout20_arr Win a1 O c w).symm)
    (fun b hb => Wout20_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts20 c (Vof Win c),
    Pipeline.unscopedRestP_sdiff pre20 spec20 {main_v72} hx_sub20 c (Vof Win c),
    show (fun k => Vof Win c (pre20.ref k)) = a1.1 from funext ha1] at hjoin
  exact hjoin

end Record

section Seg

variable (Win : Dev nD → Valuation τ sig (Elt F))
  (adm : (p : Fin 49) → (pcfgs (F := F) p).Adm)
  (O : (c : Dev nD) → Fin (cfg20 (adm (20 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout20. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg20 (hd : ∀ c, pdats (20 : Fin 49) c = dat20 (Vof Win) (adm (20 : Fin 49)) O c)
    (ha1 : ∀ c k, Vof Win c (pre20.ref k) = (adm (20 : Fin 49)).1 k)
    (hbody : ∀ c, BodyObligation (dat20 (F := F) (Vof Win) (adm (20 : Fin 49)) O c) (defs₀ (F := F)) 𝒱₀ () Set.univ) :
    Pipeline.RegionSeg (pcfgs (F := F)) adm pdats () defs₀ 𝒱₀ L lv (20 : Fin 49) where
  win := (launch20 (F := F)).win.to₀
  block_pos := (launch20 (F := F)).block_pos
  stage_whole := (launch20 (F := F)).stage_whole
  K := Fin 8
  osem := osem20
  ho := ownSemFacts20
  hbody c := by rw [hd c]; exact (hbody c).loose
  hwaits := Pipeline.hwaits_of_owed_zero _ _ _ _ L lv (20 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout20 Win (adm (20 : Fin 49)) O c) ∗ R c)
  X c := iprop((∃ r, prngReg c r)
    ∗ Pipeline.ownSems0 (Ix := Unit) (Name := ℕ) (U := UD sig nD τ) (Lvl := ℕ) (Val := Elt F) (τ := τ) osem20 c
    ∗ (bigSep ({main_v72} : Finset (Ref sig .tc)) fun b => (((c : Thread nD τ)).loc b) ↦{fullShare} Vof Win c b))
  Y c := iprop((∃ r, prngReg c r)
    ∗ (bigSep ({main_v72} : Finset (Ref sig .tc)) fun b => (((c : Thread nD τ)).loc b) ↦{fullShare} Vof Win c b)
    ∗ Pipeline.prefHeld pre20 c (fun _ => fullShare) (adm (20 : Fin 49)).1)
  Z c := bigSep (Pipeline.restRefsP sig pre20 spec20 \ {main_v72}) fun b => (((c : Thread nD τ)).loc b) ↦{fullShare} Vof Win c b
  hentry c := by
    rw [hd c]
    iintro ⟨⟨Hub, Hp, HO⟩, Hos, -⟩
    ihave H := (entry20 Win (adm (20 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq20, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq20, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit20 Win (adm (20 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg20 (F := F)).Adm)

/-- The output block at point t: the gathered rows (of the far operand's contents under V, chosen by the table's
    words at that point) times the input block. -/
def outBlk20 (c : Dev nD) (t : Fin (cfg20 a1).N) : Vec F S8x64 .f32 :=
  gatherOut (gatherG (a1.1 0) (V c main_v72) (grid20.coords t)) (iblk20 V a1 c 0 t)

theorem outBlk_eq20 (c : Dev nD) (t : Fin (cfg20 a1).N) :
    outBlk20 V a1 c t = gatherOut (gatherG (a1.1 0) (V c main_v72) (grid20.coords t)) (iblk20 V a1 c 0 t) := rfl

/-- The proof data with the output block named: after the body at point t the output window's buffer holds it. -/
theorem afterOutBlk20 (c : Dev nD) (t : Fin (cfg20 a1).N) :
    (dat20 V a1 (outBlk20 V a1) c).after 1 t
      = gatherOut (gatherG (a1.1 0) (V c main_v72) (grid20.coords t)) (iblk20 V a1 c 0 t) :=
  afterOut20 V a1 (outBlk20 V a1) c t

/-- The own cells at zero are the semaphore array's eight entries at zero, in order. -/
theorem ownSems_eq20 (c : Dev nD) :
    (Pipeline.ownSems0 (Ix := Unit) (Name := ℕ) (U := UD sig nD τ) (Lvl := ℕ) (Val := Elt F) (τ := τ) osem20 c : sProp 𝕄)
      = gsems0 c cc20_scratch1 := by
  rw [Pipeline.ownSems0_eq_of_list c osem20 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq20 (t : Fin (cfg20 a1).N) : ∃ h3 h4, bodyProg20 (F := F) a1 t
    = cc20__gather_mul_kernel (grid20.coords t) (Memref.whole main_v86) (Memref.isWhole_whole _) (Memref.whole main_v72) (Memref.isWhole_whole _)
        (stg20 a1 0 t) h3 (stg20 a1 1 t) h4 (Memref.whole cc20_scratch0) (Memref.isWhole_whole _) cc20_scratch1 := ⟨_, _, rfl⟩

end Out

/-! ## The body's run, joined to the proof data -/

section Body

variable (V : (c : Dev nD) → (b : Ref sig .tc) → Buf (Elt F) ((c : Thread nD τ).loc b))
  (a1 : (pcfg20 (F := F)).Adm)

/-- The scratch buffer whole at some contents, as a memref owned at some contents. -/
theorem scratchOwns_eq20 (c : Dev nD) :
    (iprop(∃ d, owns (c : Thread nD τ) (Memref.whole cc20_scratch0) fullShare d) : sProp 𝕄)
      = iprop(∃ f : Buf (Elt F) ((c : Thread nD τ).loc cc20_scratch0), ((c : Thread nD τ).loc cc20_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun20 (hlt : ∀ y, BitVec.toNat ((a1.1 0) y) < 100000) : BodyRun20 V a1 (outBlk20 V a1) := by
  intro c t W K
  obtain ⟨h3, h4, hprog⟩ := bodyProg_eq20 (F := F) a1 t
  rw [hprog, ownSems_eq20, ← scratchOwns_eq20 (F := F) c]
  have hrun := gather_kernel_run_20 (F := F) c (grid20.coords t) (Memref.whole main_v86) (Memref.isWhole_whole _) (Memref.whole main_v72) (Memref.isWhole_whole _)
    (stg20 a1 0 t) h3 (stg20 a1 1 t) h4 (Memref.whole cc20_scratch0) (Memref.isWhole_whole _) cc20_scratch1 fullShare fullShare
    (a1.1 0) (V c main_v72) (iblk20 V a1 c 0 t) (fun y => hlt y) W K
  simp only [Memref.view_whole, View.read_whole] at hrun
  unfold outBlk20
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut20 (hlt : ∀ y, BitVec.toNat ((a1.1 0) y) < 100000) (c : Dev nD) :
    BodyObligation (dat20 (F := F) V a1 (outBlk20 V a1) c) (defs₀ (F := F)) Variants.none () Set.univ :=
  body_obligation20 V a1 (outBlk20 V a1) (bodyRun20 V a1 hlt) c

end Body

/-! # Region 21 -/

/-! ## The body's own transfer cells -/

/-- The eight cells of the body's semaphore array, in order. -/
abbrev osem21 : Fin 8 → SemLoc sig := fun j => SemLoc.dma (cc21_scratch1.ix (fun | ⟨0, _⟩ => j))

/-- They are scoped, pairwise distinct, and none is a staging cell of a window. -/
theorem ownSemFacts21 : Pipeline.OwnSemFacts spec21 osem21 := by decide

/-- The far operand is an unscoped buffer that is neither a window's array nor a table. -/
theorem hx_sub21 : ({main_v72} : Finset (Ref sig .tc)) ⊆ Pipeline.restRefsP sig pre21 spec21 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg21 (F := F)).Adm)
  (O : (c : Dev nD) → Fin (cfg21 a1).N → Vec F S8x64 .f32)

/-! ## The windows' blocks -/

/-- Window w's block at point t, read off its array under V. -/
def iblk21 (c : Dev nD) (w : Fin (cfg21 a1).W) (t : Fin (cfg21 a1).N) :
    (((cfg21 a1).win w).xblock ((cfg21 a1).grid.coords t)).Idx → Elt F ((cfg21 a1).win w).elt :=
  (((cfg21 a1).win w).blk t).view.read (Elt F) (V c (Pipeline.arrRef spec21 w))

/-- The input window's current staging buffer holds its block at every point, fetched there or not, for any proof
    data whose array is V's and whose body leaves the block in place: unfetched, the block index has not moved. -/
theorem beforeIn21_of {c : Dev nD} (dat : Dat τ (Elt F) Unit ℕ (UD sig nD τ) ℕ (cfg21 a1) c)
    (hA : dat.A 0 = V c (Pipeline.arrRef spec21 0))
    (hafter : ∀ t, dat.after 0 t = iblk21 V a1 c 0 t) (t : Fin (cfg21 a1).N) (d) : dat.before 0 t d = iblk21 V a1 c 0 t :=
  (dat.before_in_eq_fetched 0 rfl (fun _ => rfl) (fun _ _ _ => rfl)
    (fun t => by rw [hafter]; unfold Dat.blockOf iblk21; rw [hA]; try rfl) t d).trans
    (by unfold Dat.fetched Dat.blockOf iblk21; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat21 (c : Dev nD) : Dat τ (Elt F) Unit ℕ (UD sig nD τ) ℕ (cfg21 a1) c where
  A w := V c (Pipeline.arrRef spec21 w)
  after w t := match w with
    | ⟨0, _⟩ => iblk21 V a1 c 0 t
    | ⟨1, _⟩ => O c t
  Φ _ := iprop(Pipeline.ΦD osem21 spec21 {main_v72} V c ∗ Pipeline.prefHeld pre21 c (fun _ => fullShare) a1.1)
  q _ := fullShare
  owed _ := 0

theorem A_eq21 (c : Dev nD) (w : Fin (cfg21 a1).W) : (dat21 V a1 O c).A w = V c (Pipeline.arrRef spec21 w) := by
  dsimp only [dat21]

theorem afterIn21 (c : Dev nD) (t : Fin (cfg21 a1).N) : (dat21 V a1 O c).after 0 t = iblk21 V a1 c 0 t := by
  dsimp only [dat21]; rfl

theorem afterOut21 (c : Dev nD) (t : Fin (cfg21 a1).N) :
    (dat21 V a1 O c).after 1 t = O c t := by
  dsimp only [dat21]; rfl

theorem beforeIn21 (c : Dev nD) (t : Fin (cfg21 a1).N) (d) : (dat21 V a1 O c).before 0 t d = iblk21 V a1 c 0 t :=
  beforeIn21_of V a1 (dat21 V a1 O c) (A_eq21 V a1 O c 0) (afterIn21 V a1 O c) t d

theorem Phi_eq21 (c : Dev nD) (t : Fin ((cfg21 a1).N + 1)) :
    (dat21 V a1 O c).Φ t
      = iprop(Pipeline.ΦD osem21 spec21 {main_v72} V c ∗ Pipeline.prefHeld pre21 c (fun _ => fullShare) a1.1) := by
  dsimp only [dat21]

theorem owed_eq21 (c : Dev nD) (t : Fin ((cfg21 a1).N + 1)) : (dat21 V a1 O c).owed t = 0 := by
  dsimp only [dat21]

/-! ## The invariant, conjunct by conjunct -/

/-- The invariant's first part opened: the body's scratch buffer whole at some contents and the other scoped
    buffers no window stages, the generator register, the own cells at zero, the far operand at its contents. -/
theorem PhiD_eq21 (c : Dev nD) :
    (Pipeline.ΦD osem21 spec21 {main_v72} V c : sProp 𝕄)
      = iprop(iprop(iprop((∃ f : Buf (Elt F) ((c : Thread nD τ).loc cc21_scratch0), ((c : Thread nD τ).loc cc21_scratch0) ↦{fullShare} f))
            ∗ Pipeline.scopedRestBut (Ix := Unit) (Name := ℕ) (U := UD sig nD τ) (Lvl := ℕ) (Val := Elt F) spec21 c [cc21_scratch0])
          ∗ (∃ r, prngReg c r)
          ∗ Pipeline.ownSems0 (Ix := Unit) (Name := ℕ) (U := UD sig nD τ) (Lvl := ℕ) (Val := Elt F) (τ := τ) osem21 c
          ∗ (((c : Thread nD τ).loc main_v72) ↦{fullShare} V c main_v72)) := by
  rw [Pipeline.ΦD_eq, scopedRest21_split, BI.bigSep_eq_bigSepL_of_eq [main_v72] (by decide) (by decide)]; rfl

/-- The one table, held whole. -/
theorem prefHeld_eq21 (c : Dev nD) :
    (Pipeline.prefHeld pre21 c (fun _ => fullShare) a1.1 : sProp 𝕄)
      = (((c : Thread nD τ).loc main_v90) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg21 (w : Fin (cfg21 a1).W) (t : Fin (cfg21 a1).N) := ((cfg21 a1).win w).stage ((cfg21 a1).slots t w)

/-- The body as the pipeline calls it at point t. -/
abbrev bodyProg21 (t : Fin (cfg21 a1).N) : Prog (TpuEff nD τ sig (Elt F) Λ₀ .tc) PUnit :=
  (defs₀ (F := F)) .tc (cfg21 a1).body ((cfg21 a1).bodyArgs t ((cfg21 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun21 : Prop :=
  ∀ (c : Dev nD) (t : Fin (cfg21 a1).N) (W) (K : PUnit → sProp 𝕄),
    iprop(owns (c : Thread nD τ) (stg21 a1 0 t) fullShare (iblk21 V a1 c 0 t)
        ∗ (∃ d, owns (c : Thread nD τ) (stg21 a1 1 t) fullShare d)
        ∗ (∃ f : Buf (Elt F) ((c : Thread nD τ).loc cc21_scratch0), ((c : Thread nD τ).loc cc21_scratch0) ↦{fullShare} f)
        ∗ Pipeline.ownSems0 (Ix := Unit) (Name := ℕ) (U := UD sig nD τ) (Lvl := ℕ) (Val := Elt F) (τ := τ) osem21 c
        ∗ (((c : Thread nD τ).loc main_v90) ↦{fullShare} a1.1 0)
        ∗ (((c : Thread nD τ).loc main_v72) ↦{fullShare} V c main_v72)
        ∗ owes (c : Thread nD τ) (0 : CellTallies nD τ sig Unit) W
        ∗ (iprop(owns (c : Thread nD τ) (stg21 a1 0 t) fullShare (iblk21 V a1 c 0 t)
            ∗ owns (c : Thread nD τ) (stg21 a1 1 t) fullShare (O c t)
            ∗ (∃ f : Buf (Elt F) ((c : Thread nD τ).loc cc21_scratch0), ((c : Thread nD τ).loc cc21_scratch0) ↦{fullShare} f)
            ∗ Pipeline.ownSems0 (Ix := Unit) (Name := ℕ) (U := UD sig nD τ) (Lvl := ℕ) (Val := Elt F) (τ := τ) osem21 c
            ∗ (((c : Thread nD τ).loc main_v90) ↦{fullShare} a1.1 0)
            ∗ (((c : Thread nD τ).loc main_v72) ↦{fullShare} V c main_v72)
            ∗ (∃ W', owes (c : Thread nD τ) (0 : CellTallies nD τ sig Unit) W')) -∗ K ⟨⟩))
      ⊢ wp frame (wpE (defs₀ (F := F)) Variants.none c none) Set.univ (bodyProg21 a1 t) K

/-- What the body is called with at point t, the windows one by one, -/
def bodyPre21 (c : Dev nD) (t : Fin (cfg21 a1).N) : sProp 𝕄 :=
  iprop((dat21 V a1 O c).Φ t.castSucc ∗ (dat21 V a1 O c).owesAt () t.castSucc
    ∗ (∃ d, owns (c : Thread nD τ) (stg21 a1 0 t) fullShare ((dat21 V a1 O c).before 0 t d))
    ∗ (∃ d, owns (c : Thread nD τ) (stg21 a1 1 t) fullShare ((dat21 V a1 O c).before 1 t d)))

/-- and what it returns. -/
def bodyPost21 (c : Dev nD) (t : Fin (cfg21 a1).N) : sProp 𝕄 :=
  iprop((dat21 V a1 O c).Φ t.succ ∗ (dat21 V a1 O c).owesAt () t.succ
    ∗ owns (c : Thread nD τ) (stg21 a1 0 t) fullShare ((dat21 V a1 O c).after 0 t)
    ∗ owns (c : Thread nD τ) (stg21 a1 1 t) fullShare ((dat21 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body21 (hrun : BodyRun21 V a1 O) (c : Dev nD) (t : Fin (cfg21 a1).N) :
    bodyPre21 V a1 O c t
      ⊢ wp frame (wpE (defs₀ (F := F)) Variants.none c none) Set.univ (bodyProg21 a1 t) (fun _ => bodyPost21 V a1 O c t) := by
  unfold bodyPre21 bodyPost21
  simp only [beforeIn21]
  rw [afterIn21, afterOut21, Phi_eq21, Phi_eq21, PhiD_eq21, prefHeld_eq21]
  unfold Dat.owesAt Pipeline.owesWithin
  rw [owed_eq21, owed_eq21]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation21 (hrun : BodyRun21 V a1 O) (c : Dev nD) :
    BodyObligation (dat21 (F := F) V a1 O c) (defs₀ (F := F)) Variants.none () Set.univ := fun t => by
  rw [bigSep_W21, bigSep_W21]
  exact sound_body21 V a1 O hrun c t

end Data

/-! ## The region's record -/

section Record

variable (Win : Dev nD → Valuation τ sig (Elt F))

variable (a1 : (pcfg21 (F := F)).Adm)
  (O : (c : Dev nD) → Fin (cfg21 a1).N → Vec F S8x64 .f32)

/-- The buffers at the region's exit: its arrays at what the write-backs leave, every other buffer as entered. -/
def Wout21 (c : Dev nD) : Valuation τ sig (Elt F) :=
  Pipeline.withArrays spec21 c (Win c) fun w => (dat21 (Vof Win) a1 O c).arrAt w (cfg21 a1).N

theorem Wout21_arr (c : Dev nD) (w : Fin (cfg21 a1).W) :
    Wout21 Win a1 O c (Proc.devRef .tc (Pipeline.arrRef spec21 w)) = (dat21 (Vof Win) a1 O c).arrAt w (cfg21 a1).N := by
  unfold Wout21; exact Pipeline.withArrays_arr spec21 winFacts21.arr_inj c _ _ w

theorem Wout21_of_ne (c : Dev nD) (b : Ref sig .tc) (hb : ∀ w, Pipeline.arrRef spec21 w ≠ b) :
    Wout21 Win a1 O c (Proc.devRef .tc b) = Win c (Proc.devRef .tc b) := by
  unfold Wout21; exact Pipeline.withArrays_of_ne spec21 c _ _ b hb

/-- ENTRY, the buffers' part. Every unscoped buffer at Win is: the region's arrays at the proof data's entry contents,
    the table whole at the admissible contents (which are Win's there), the far operand whole, and the others. -/
theorem entry21 (c : Dev nD) (ha1 : ∀ k, Vof Win c (pre21.ref k) = a1.1 k) :
    (StableHlo.held (c : Thread nD τ) (Pipeline.ucRefs τ sig) (Win c) : sProp 𝕄)
      ⊢ iprop((dat21 (Vof Win) a1 O c).arrays ((dat21 (Vof Win) a1 O c).arrAt · 0)
          ∗ Pipeline.prefHeld pre21 c (fun _ => fullShare) a1.1
          ∗ (bigSep ({main_v72} : Finset (Ref sig .tc)) fun b => (((c : Thread nD τ)).loc b) ↦{fullShare} Vof Win c b)
          ∗ bigSep (Pipeline.restRefsP sig pre21 spec21 \ {main_v72}) fun b => (((c : Thread nD τ)).loc b) ↦{fullShare} Vof Win c b) := by
  have hsplit := Pipeline.arrays_of_unscopedBufs (p := ()) (fun (_ : Unit) => pcfg21 (F := F)) (fun _ => a1)
    (fun _ c => dat21 (Vof Win) a1 O c) winFacts21 (launch21 (F := F)).arr_whole c
    ((dat21 (Vof Win) a1 O c).share_full fun _ => rfl) (Vof Win c) (fun w => A_eq21 (Vof Win) a1 O c w)
  rw [Pipeline.unscopedBufs_held,
    Pipeline.unscopedRest_split (Ix := Unit) (Name := ℕ) (U := UD sig nD τ) (Lvl := ℕ) preFacts21 c (Vof Win c),
    Pipeline.unscopedRestP_sdiff pre21 spec21 {main_v72} hx_sub21 c (Vof Win c),
    show (fun k => Vof Win c (pre21.ref k)) = a1.1 from funext ha1] at hsplit
  exact hsplit

/-- EXIT, the buffers' part: the same four put back, the arrays at what the write-backs leave, are every unscoped
    buffer at the exit valuation. -/
theorem exit21 (c : Dev nD) (ha1 : ∀ k, Vof Win c (pre21.ref k) = a1.1 k) :
    iprop((dat21 (Vof Win) a1 O c).arrays ((dat21 (Vof Win) a1 O c).arrAt · (cfg21 a1).N)
        ∗ Pipeline.prefHeld pre21 c (fun _ => fullShare) a1.1
        ∗ (bigSep ({main_v72} : Finset (Ref sig .tc)) fun b => (((c : Thread nD τ)).loc b) ↦{fullShare} Vof Win c b)
        ∗ bigSep (Pipeline.restRefsP sig pre21 spec21 \ {main_v72}) fun b => (((c : Thread nD τ)).loc b) ↦{fullShare} Vof Win c b)
      ⊢ (StableHlo.held (c : Thread nD τ) (Pipeline.ucRefs τ sig) (Wout21 Win a1 O c) : sProp 𝕄) := by
  have hjoin := Pipeline.unscopedBufs_of_arrays (p := ()) (fun (_ : Unit) => pcfg21 (F := F)) (fun _ => a1)
    (Ix := Unit) (Name := ℕ) (U := UD sig nD τ) (Lvl := ℕ)
    winFacts21 (launch21 (F := F)).arr_whole c (fun _ c => dat21 (Vof Win) a1 O c)
    ((dat21 (Vof Win) a1 O c).share_full fun _ => rfl)
    (Vof Win c) (Vof (Wout21 Win a1 O) c) ((dat21 (Vof Win) a1 O c).arrAt · (cfg21 a1).N)
    (fun w => (Wout21_arr Win a1 O c w).symm)
    (fun b hb => Wout21_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts21 c (Vof Win c),
    Pipeline.unscopedRestP_sdiff pre21 spec21 {main_v72} hx_sub21 c (Vof Win c),
    show (fun k => Vof Win c (pre21.ref k)) = a1.1 from funext ha1] at hjoin
  exact hjoin

end Record

section Seg

variable (Win : Dev nD → Valuation τ sig (Elt F))
  (adm : (p : Fin 49) → (pcfgs (F := F) p).Adm)
  (O : (c : Dev nD) → Fin (cfg21 (adm (21 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout21. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg21 (hd : ∀ c, pdats (21 : Fin 49) c = dat21 (Vof Win) (adm (21 : Fin 49)) O c)
    (ha1 : ∀ c k, Vof Win c (pre21.ref k) = (adm (21 : Fin 49)).1 k)
    (hbody : ∀ c, BodyObligation (dat21 (F := F) (Vof Win) (adm (21 : Fin 49)) O c) (defs₀ (F := F)) 𝒱₀ () Set.univ) :
    Pipeline.RegionSeg (pcfgs (F := F)) adm pdats () defs₀ 𝒱₀ L lv (21 : Fin 49) where
  win := (launch21 (F := F)).win.to₀
  block_pos := (launch21 (F := F)).block_pos
  stage_whole := (launch21 (F := F)).stage_whole
  K := Fin 8
  osem := osem21
  ho := ownSemFacts21
  hbody c := by rw [hd c]; exact (hbody c).loose
  hwaits := Pipeline.hwaits_of_owed_zero _ _ _ _ L lv (21 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout21 Win (adm (21 : Fin 49)) O c) ∗ R c)
  X c := iprop((∃ r, prngReg c r)
    ∗ Pipeline.ownSems0 (Ix := Unit) (Name := ℕ) (U := UD sig nD τ) (Lvl := ℕ) (Val := Elt F) (τ := τ) osem21 c
    ∗ (bigSep ({main_v72} : Finset (Ref sig .tc)) fun b => (((c : Thread nD τ)).loc b) ↦{fullShare} Vof Win c b))
  Y c := iprop((∃ r, prngReg c r)
    ∗ (bigSep ({main_v72} : Finset (Ref sig .tc)) fun b => (((c : Thread nD τ)).loc b) ↦{fullShare} Vof Win c b)
    ∗ Pipeline.prefHeld pre21 c (fun _ => fullShare) (adm (21 : Fin 49)).1)
  Z c := bigSep (Pipeline.restRefsP sig pre21 spec21 \ {main_v72}) fun b => (((c : Thread nD τ)).loc b) ↦{fullShare} Vof Win c b
  hentry c := by
    rw [hd c]
    iintro ⟨⟨Hub, Hp, HO⟩, Hos, -⟩
    ihave H := (entry21 Win (adm (21 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq21, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq21, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit21 Win (adm (21 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg21 (F := F)).Adm)

/-- The output block at point t: the gathered rows (of the far operand's contents under V, chosen by the table's
    words at that point) times the input block. -/
def outBlk21 (c : Dev nD) (t : Fin (cfg21 a1).N) : Vec F S8x64 .f32 :=
  gatherOut (gatherG (a1.1 0) (V c main_v72) (grid21.coords t)) (iblk21 V a1 c 0 t)

theorem outBlk_eq21 (c : Dev nD) (t : Fin (cfg21 a1).N) :
    outBlk21 V a1 c t = gatherOut (gatherG (a1.1 0) (V c main_v72) (grid21.coords t)) (iblk21 V a1 c 0 t) := rfl

/-- The proof data with the output block named: after the body at point t the output window's buffer holds it. -/
theorem afterOutBlk21 (c : Dev nD) (t : Fin (cfg21 a1).N) :
    (dat21 V a1 (outBlk21 V a1) c).after 1 t
      = gatherOut (gatherG (a1.1 0) (V c main_v72) (grid21.coords t)) (iblk21 V a1 c 0 t) :=
  afterOut21 V a1 (outBlk21 V a1) c t

/-- The own cells at zero are the semaphore array's eight entries at zero, in order. -/
theorem ownSems_eq21 (c : Dev nD) :
    (Pipeline.ownSems0 (Ix := Unit) (Name := ℕ) (U := UD sig nD τ) (Lvl := ℕ) (Val := Elt F) (τ := τ) osem21 c : sProp 𝕄)
      = gsems0 c cc21_scratch1 := by
  rw [Pipeline.ownSems0_eq_of_list c osem21 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq21 (t : Fin (cfg21 a1).N) : ∃ h3 h4, bodyProg21 (F := F) a1 t
    = cc21__gather_mul_kernel (grid21.coords t) (Memref.whole main_v90) (Memref.isWhole_whole _) (Memref.whole main_v72) (Memref.isWhole_whole _)
        (stg21 a1 0 t) h3 (stg21 a1 1 t) h4 (Memref.whole cc21_scratch0) (Memref.isWhole_whole _) cc21_scratch1 := ⟨_, _, rfl⟩

end Out

/-! ## The body's run, joined to the proof data -/

section Body

variable (V : (c : Dev nD) → (b : Ref sig .tc) → Buf (Elt F) ((c : Thread nD τ).loc b))
  (a1 : (pcfg21 (F := F)).Adm)

/-- The scratch buffer whole at some contents, as a memref owned at some contents. -/
theorem scratchOwns_eq21 (c : Dev nD) :
    (iprop(∃ d, owns (c : Thread nD τ) (Memref.whole cc21_scratch0) fullShare d) : sProp 𝕄)
      = iprop(∃ f : Buf (Elt F) ((c : Thread nD τ).loc cc21_scratch0), ((c : Thread nD τ).loc cc21_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun21 (hlt : ∀ y, BitVec.toNat ((a1.1 0) y) < 100000) : BodyRun21 V a1 (outBlk21 V a1) := by
  intro c t W K
  obtain ⟨h3, h4, hprog⟩ := bodyProg_eq21 (F := F) a1 t
  rw [hprog, ownSems_eq21, ← scratchOwns_eq21 (F := F) c]
  have hrun := gather_kernel_run_21 (F := F) c (grid21.coords t) (Memref.whole main_v90) (Memref.isWhole_whole _) (Memref.whole main_v72) (Memref.isWhole_whole _)
    (stg21 a1 0 t) h3 (stg21 a1 1 t) h4 (Memref.whole cc21_scratch0) (Memref.isWhole_whole _) cc21_scratch1 fullShare fullShare
    (a1.1 0) (V c main_v72) (iblk21 V a1 c 0 t) (fun y => hlt y) W K
  simp only [Memref.view_whole, View.read_whole] at hrun
  unfold outBlk21
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut21 (hlt : ∀ y, BitVec.toNat ((a1.1 0) y) < 100000) (c : Dev nD) :
    BodyObligation (dat21 (F := F) V a1 (outBlk21 V a1) c) (defs₀ (F := F)) Variants.none () Set.univ :=
  body_obligation21 V a1 (outBlk21 V a1) (bodyRun21 V a1 hlt) c

end Body

/-! # Region 22 -/

/-! ## The body's own transfer cells -/

/-- The eight cells of the body's semaphore array, in order. -/
abbrev osem22 : Fin 8 → SemLoc sig := fun j => SemLoc.dma (cc22_scratch1.ix (fun | ⟨0, _⟩ => j))

/-- They are scoped, pairwise distinct, and none is a staging cell of a window. -/
theorem ownSemFacts22 : Pipeline.OwnSemFacts spec22 osem22 := by decide

/-- The far operand is an unscoped buffer that is neither a window's array nor a table. -/
theorem hx_sub22 : ({main_v72} : Finset (Ref sig .tc)) ⊆ Pipeline.restRefsP sig pre22 spec22 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg22 (F := F)).Adm)
  (O : (c : Dev nD) → Fin (cfg22 a1).N → Vec F S8x64 .f32)

/-! ## The windows' blocks -/

/-- Window w's block at point t, read off its array under V. -/
def iblk22 (c : Dev nD) (w : Fin (cfg22 a1).W) (t : Fin (cfg22 a1).N) :
    (((cfg22 a1).win w).xblock ((cfg22 a1).grid.coords t)).Idx → Elt F ((cfg22 a1).win w).elt :=
  (((cfg22 a1).win w).blk t).view.read (Elt F) (V c (Pipeline.arrRef spec22 w))

/-- The input window's current staging buffer holds its block at every point, fetched there or not, for any proof
    data whose array is V's and whose body leaves the block in place: unfetched, the block index has not moved. -/
theorem beforeIn22_of {c : Dev nD} (dat : Dat τ (Elt F) Unit ℕ (UD sig nD τ) ℕ (cfg22 a1) c)
    (hA : dat.A 0 = V c (Pipeline.arrRef spec22 0))
    (hafter : ∀ t, dat.after 0 t = iblk22 V a1 c 0 t) (t : Fin (cfg22 a1).N) (d) : dat.before 0 t d = iblk22 V a1 c 0 t :=
  (dat.before_in_eq_fetched 0 rfl (fun _ => rfl) (fun _ _ _ => rfl)
    (fun t => by rw [hafter]; unfold Dat.blockOf iblk22; rw [hA]; try rfl) t d).trans
    (by unfold Dat.fetched Dat.blockOf iblk22; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat22 (c : Dev nD) : Dat τ (Elt F) Unit ℕ (UD sig nD τ) ℕ (cfg22 a1) c where
  A w := V c (Pipeline.arrRef spec22 w)
  after w t := match w with
    | ⟨0, _⟩ => iblk22 V a1 c 0 t
    | ⟨1, _⟩ => O c t
  Φ _ := iprop(Pipeline.ΦD osem22 spec22 {main_v72} V c ∗ Pipeline.prefHeld pre22 c (fun _ => fullShare) a1.1)
  q _ := fullShare
  owed _ := 0

theorem A_eq22 (c : Dev nD) (w : Fin (cfg22 a1).W) : (dat22 V a1 O c).A w = V c (Pipeline.arrRef spec22 w) := by
  dsimp only [dat22]

theorem afterIn22 (c : Dev nD) (t : Fin (cfg22 a1).N) : (dat22 V a1 O c).after 0 t = iblk22 V a1 c 0 t := by
  dsimp only [dat22]; rfl

theorem afterOut22 (c : Dev nD) (t : Fin (cfg22 a1).N) :
    (dat22 V a1 O c).after 1 t = O c t := by
  dsimp only [dat22]; rfl

theorem beforeIn22 (c : Dev nD) (t : Fin (cfg22 a1).N) (d) : (dat22 V a1 O c).before 0 t d = iblk22 V a1 c 0 t :=
  beforeIn22_of V a1 (dat22 V a1 O c) (A_eq22 V a1 O c 0) (afterIn22 V a1 O c) t d

theorem Phi_eq22 (c : Dev nD) (t : Fin ((cfg22 a1).N + 1)) :
    (dat22 V a1 O c).Φ t
      = iprop(Pipeline.ΦD osem22 spec22 {main_v72} V c ∗ Pipeline.prefHeld pre22 c (fun _ => fullShare) a1.1) := by
  dsimp only [dat22]

theorem owed_eq22 (c : Dev nD) (t : Fin ((cfg22 a1).N + 1)) : (dat22 V a1 O c).owed t = 0 := by
  dsimp only [dat22]

/-! ## The invariant, conjunct by conjunct -/

/-- The invariant's first part opened: the body's scratch buffer whole at some contents and the other scoped
    buffers no window stages, the generator register, the own cells at zero, the far operand at its contents. -/
theorem PhiD_eq22 (c : Dev nD) :
    (Pipeline.ΦD osem22 spec22 {main_v72} V c : sProp 𝕄)
      = iprop(iprop(iprop((∃ f : Buf (Elt F) ((c : Thread nD τ).loc cc22_scratch0), ((c : Thread nD τ).loc cc22_scratch0) ↦{fullShare} f))
            ∗ Pipeline.scopedRestBut (Ix := Unit) (Name := ℕ) (U := UD sig nD τ) (Lvl := ℕ) (Val := Elt F) spec22 c [cc22_scratch0])
          ∗ (∃ r, prngReg c r)
          ∗ Pipeline.ownSems0 (Ix := Unit) (Name := ℕ) (U := UD sig nD τ) (Lvl := ℕ) (Val := Elt F) (τ := τ) osem22 c
          ∗ (((c : Thread nD τ).loc main_v72) ↦{fullShare} V c main_v72)) := by
  rw [Pipeline.ΦD_eq, scopedRest22_split, BI.bigSep_eq_bigSepL_of_eq [main_v72] (by decide) (by decide)]; rfl

/-- The one table, held whole. -/
theorem prefHeld_eq22 (c : Dev nD) :
    (Pipeline.prefHeld pre22 c (fun _ => fullShare) a1.1 : sProp 𝕄)
      = (((c : Thread nD τ).loc main_v94) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg22 (w : Fin (cfg22 a1).W) (t : Fin (cfg22 a1).N) := ((cfg22 a1).win w).stage ((cfg22 a1).slots t w)

/-- The body as the pipeline calls it at point t. -/
abbrev bodyProg22 (t : Fin (cfg22 a1).N) : Prog (TpuEff nD τ sig (Elt F) Λ₀ .tc) PUnit :=
  (defs₀ (F := F)) .tc (cfg22 a1).body ((cfg22 a1).bodyArgs t ((cfg22 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun22 : Prop :=
  ∀ (c : Dev nD) (t : Fin (cfg22 a1).N) (W) (K : PUnit → sProp 𝕄),
    iprop(owns (c : Thread nD τ) (stg22 a1 0 t) fullShare (iblk22 V a1 c 0 t)
        ∗ (∃ d, owns (c : Thread nD τ) (stg22 a1 1 t) fullShare d)
        ∗ (∃ f : Buf (Elt F) ((c : Thread nD τ).loc cc22_scratch0), ((c : Thread nD τ).loc cc22_scratch0) ↦{fullShare} f)
        ∗ Pipeline.ownSems0 (Ix := Unit) (Name := ℕ) (U := UD sig nD τ) (Lvl := ℕ) (Val := Elt F) (τ := τ) osem22 c
        ∗ (((c : Thread nD τ).loc main_v94) ↦{fullShare} a1.1 0)
        ∗ (((c : Thread nD τ).loc main_v72) ↦{fullShare} V c main_v72)
        ∗ owes (c : Thread nD τ) (0 : CellTallies nD τ sig Unit) W
        ∗ (iprop(owns (c : Thread nD τ) (stg22 a1 0 t) fullShare (iblk22 V a1 c 0 t)
            ∗ owns (c : Thread nD τ) (stg22 a1 1 t) fullShare (O c t)
            ∗ (∃ f : Buf (Elt F) ((c : Thread nD τ).loc cc22_scratch0), ((c : Thread nD τ).loc cc22_scratch0) ↦{fullShare} f)
            ∗ Pipeline.ownSems0 (Ix := Unit) (Name := ℕ) (U := UD sig nD τ) (Lvl := ℕ) (Val := Elt F) (τ := τ) osem22 c
            ∗ (((c : Thread nD τ).loc main_v94) ↦{fullShare} a1.1 0)
            ∗ (((c : Thread nD τ).loc main_v72) ↦{fullShare} V c main_v72)
            ∗ (∃ W', owes (c : Thread nD τ) (0 : CellTallies nD τ sig Unit) W')) -∗ K ⟨⟩))
      ⊢ wp frame (wpE (defs₀ (F := F)) Variants.none c none) Set.univ (bodyProg22 a1 t) K

/-- What the body is called with at point t, the windows one by one, -/
def bodyPre22 (c : Dev nD) (t : Fin (cfg22 a1).N) : sProp 𝕄 :=
  iprop((dat22 V a1 O c).Φ t.castSucc ∗ (dat22 V a1 O c).owesAt () t.castSucc
    ∗ (∃ d, owns (c : Thread nD τ) (stg22 a1 0 t) fullShare ((dat22 V a1 O c).before 0 t d))
    ∗ (∃ d, owns (c : Thread nD τ) (stg22 a1 1 t) fullShare ((dat22 V a1 O c).before 1 t d)))

/-- and what it returns. -/
def bodyPost22 (c : Dev nD) (t : Fin (cfg22 a1).N) : sProp 𝕄 :=
  iprop((dat22 V a1 O c).Φ t.succ ∗ (dat22 V a1 O c).owesAt () t.succ
    ∗ owns (c : Thread nD τ) (stg22 a1 0 t) fullShare ((dat22 V a1 O c).after 0 t)
    ∗ owns (c : Thread nD τ) (stg22 a1 1 t) fullShare ((dat22 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body22 (hrun : BodyRun22 V a1 O) (c : Dev nD) (t : Fin (cfg22 a1).N) :
    bodyPre22 V a1 O c t
      ⊢ wp frame (wpE (defs₀ (F := F)) Variants.none c none) Set.univ (bodyProg22 a1 t) (fun _ => bodyPost22 V a1 O c t) := by
  unfold bodyPre22 bodyPost22
  simp only [beforeIn22]
  rw [afterIn22, afterOut22, Phi_eq22, Phi_eq22, PhiD_eq22, prefHeld_eq22]
  unfold Dat.owesAt Pipeline.owesWithin
  rw [owed_eq22, owed_eq22]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation22 (hrun : BodyRun22 V a1 O) (c : Dev nD) :
    BodyObligation (dat22 (F := F) V a1 O c) (defs₀ (F := F)) Variants.none () Set.univ := fun t => by
  rw [bigSep_W22, bigSep_W22]
  exact sound_body22 V a1 O hrun c t

end Data

/-! ## The region's record -/

section Record

variable (Win : Dev nD → Valuation τ sig (Elt F))

variable (a1 : (pcfg22 (F := F)).Adm)
  (O : (c : Dev nD) → Fin (cfg22 a1).N → Vec F S8x64 .f32)

/-- The buffers at the region's exit: its arrays at what the write-backs leave, every other buffer as entered. -/
def Wout22 (c : Dev nD) : Valuation τ sig (Elt F) :=
  Pipeline.withArrays spec22 c (Win c) fun w => (dat22 (Vof Win) a1 O c).arrAt w (cfg22 a1).N

theorem Wout22_arr (c : Dev nD) (w : Fin (cfg22 a1).W) :
    Wout22 Win a1 O c (Proc.devRef .tc (Pipeline.arrRef spec22 w)) = (dat22 (Vof Win) a1 O c).arrAt w (cfg22 a1).N := by
  unfold Wout22; exact Pipeline.withArrays_arr spec22 winFacts22.arr_inj c _ _ w

theorem Wout22_of_ne (c : Dev nD) (b : Ref sig .tc) (hb : ∀ w, Pipeline.arrRef spec22 w ≠ b) :
    Wout22 Win a1 O c (Proc.devRef .tc b) = Win c (Proc.devRef .tc b) := by
  unfold Wout22; exact Pipeline.withArrays_of_ne spec22 c _ _ b hb

/-- ENTRY, the buffers' part. Every unscoped buffer at Win is: the region's arrays at the proof data's entry contents,
    the table whole at the admissible contents (which are Win's there), the far operand whole, and the others. -/
theorem entry22 (c : Dev nD) (ha1 : ∀ k, Vof Win c (pre22.ref k) = a1.1 k) :
    (StableHlo.held (c : Thread nD τ) (Pipeline.ucRefs τ sig) (Win c) : sProp 𝕄)
      ⊢ iprop((dat22 (Vof Win) a1 O c).arrays ((dat22 (Vof Win) a1 O c).arrAt · 0)
          ∗ Pipeline.prefHeld pre22 c (fun _ => fullShare) a1.1
          ∗ (bigSep ({main_v72} : Finset (Ref sig .tc)) fun b => (((c : Thread nD τ)).loc b) ↦{fullShare} Vof Win c b)
          ∗ bigSep (Pipeline.restRefsP sig pre22 spec22 \ {main_v72}) fun b => (((c : Thread nD τ)).loc b) ↦{fullShare} Vof Win c b) := by
  have hsplit := Pipeline.arrays_of_unscopedBufs (p := ()) (fun (_ : Unit) => pcfg22 (F := F)) (fun _ => a1)
    (fun _ c => dat22 (Vof Win) a1 O c) winFacts22 (launch22 (F := F)).arr_whole c
    ((dat22 (Vof Win) a1 O c).share_full fun _ => rfl) (Vof Win c) (fun w => A_eq22 (Vof Win) a1 O c w)
  rw [Pipeline.unscopedBufs_held,
    Pipeline.unscopedRest_split (Ix := Unit) (Name := ℕ) (U := UD sig nD τ) (Lvl := ℕ) preFacts22 c (Vof Win c),
    Pipeline.unscopedRestP_sdiff pre22 spec22 {main_v72} hx_sub22 c (Vof Win c),
    show (fun k => Vof Win c (pre22.ref k)) = a1.1 from funext ha1] at hsplit
  exact hsplit

/-- EXIT, the buffers' part: the same four put back, the arrays at what the write-backs leave, are every unscoped
    buffer at the exit valuation. -/
theorem exit22 (c : Dev nD) (ha1 : ∀ k, Vof Win c (pre22.ref k) = a1.1 k) :
    iprop((dat22 (Vof Win) a1 O c).arrays ((dat22 (Vof Win) a1 O c).arrAt · (cfg22 a1).N)
        ∗ Pipeline.prefHeld pre22 c (fun _ => fullShare) a1.1
        ∗ (bigSep ({main_v72} : Finset (Ref sig .tc)) fun b => (((c : Thread nD τ)).loc b) ↦{fullShare} Vof Win c b)
        ∗ bigSep (Pipeline.restRefsP sig pre22 spec22 \ {main_v72}) fun b => (((c : Thread nD τ)).loc b) ↦{fullShare} Vof Win c b)
      ⊢ (StableHlo.held (c : Thread nD τ) (Pipeline.ucRefs τ sig) (Wout22 Win a1 O c) : sProp 𝕄) := by
  have hjoin := Pipeline.unscopedBufs_of_arrays (p := ()) (fun (_ : Unit) => pcfg22 (F := F)) (fun _ => a1)
    (Ix := Unit) (Name := ℕ) (U := UD sig nD τ) (Lvl := ℕ)
    winFacts22 (launch22 (F := F)).arr_whole c (fun _ c => dat22 (Vof Win) a1 O c)
    ((dat22 (Vof Win) a1 O c).share_full fun _ => rfl)
    (Vof Win c) (Vof (Wout22 Win a1 O) c) ((dat22 (Vof Win) a1 O c).arrAt · (cfg22 a1).N)
    (fun w => (Wout22_arr Win a1 O c w).symm)
    (fun b hb => Wout22_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts22 c (Vof Win c),
    Pipeline.unscopedRestP_sdiff pre22 spec22 {main_v72} hx_sub22 c (Vof Win c),
    show (fun k => Vof Win c (pre22.ref k)) = a1.1 from funext ha1] at hjoin
  exact hjoin

end Record

section Seg

variable (Win : Dev nD → Valuation τ sig (Elt F))
  (adm : (p : Fin 49) → (pcfgs (F := F) p).Adm)
  (O : (c : Dev nD) → Fin (cfg22 (adm (22 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout22. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg22 (hd : ∀ c, pdats (22 : Fin 49) c = dat22 (Vof Win) (adm (22 : Fin 49)) O c)
    (ha1 : ∀ c k, Vof Win c (pre22.ref k) = (adm (22 : Fin 49)).1 k)
    (hbody : ∀ c, BodyObligation (dat22 (F := F) (Vof Win) (adm (22 : Fin 49)) O c) (defs₀ (F := F)) 𝒱₀ () Set.univ) :
    Pipeline.RegionSeg (pcfgs (F := F)) adm pdats () defs₀ 𝒱₀ L lv (22 : Fin 49) where
  win := (launch22 (F := F)).win.to₀
  block_pos := (launch22 (F := F)).block_pos
  stage_whole := (launch22 (F := F)).stage_whole
  K := Fin 8
  osem := osem22
  ho := ownSemFacts22
  hbody c := by rw [hd c]; exact (hbody c).loose
  hwaits := Pipeline.hwaits_of_owed_zero _ _ _ _ L lv (22 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout22 Win (adm (22 : Fin 49)) O c) ∗ R c)
  X c := iprop((∃ r, prngReg c r)
    ∗ Pipeline.ownSems0 (Ix := Unit) (Name := ℕ) (U := UD sig nD τ) (Lvl := ℕ) (Val := Elt F) (τ := τ) osem22 c
    ∗ (bigSep ({main_v72} : Finset (Ref sig .tc)) fun b => (((c : Thread nD τ)).loc b) ↦{fullShare} Vof Win c b))
  Y c := iprop((∃ r, prngReg c r)
    ∗ (bigSep ({main_v72} : Finset (Ref sig .tc)) fun b => (((c : Thread nD τ)).loc b) ↦{fullShare} Vof Win c b)
    ∗ Pipeline.prefHeld pre22 c (fun _ => fullShare) (adm (22 : Fin 49)).1)
  Z c := bigSep (Pipeline.restRefsP sig pre22 spec22 \ {main_v72}) fun b => (((c : Thread nD τ)).loc b) ↦{fullShare} Vof Win c b
  hentry c := by
    rw [hd c]
    iintro ⟨⟨Hub, Hp, HO⟩, Hos, -⟩
    ihave H := (entry22 Win (adm (22 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq22, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq22, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit22 Win (adm (22 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg22 (F := F)).Adm)

/-- The output block at point t: the gathered rows (of the far operand's contents under V, chosen by the table's
    words at that point) times the input block. -/
def outBlk22 (c : Dev nD) (t : Fin (cfg22 a1).N) : Vec F S8x64 .f32 :=
  gatherOut (gatherG (a1.1 0) (V c main_v72) (grid22.coords t)) (iblk22 V a1 c 0 t)

theorem outBlk_eq22 (c : Dev nD) (t : Fin (cfg22 a1).N) :
    outBlk22 V a1 c t = gatherOut (gatherG (a1.1 0) (V c main_v72) (grid22.coords t)) (iblk22 V a1 c 0 t) := rfl

/-- The proof data with the output block named: after the body at point t the output window's buffer holds it. -/
theorem afterOutBlk22 (c : Dev nD) (t : Fin (cfg22 a1).N) :
    (dat22 V a1 (outBlk22 V a1) c).after 1 t
      = gatherOut (gatherG (a1.1 0) (V c main_v72) (grid22.coords t)) (iblk22 V a1 c 0 t) :=
  afterOut22 V a1 (outBlk22 V a1) c t

/-- The own cells at zero are the semaphore array's eight entries at zero, in order. -/
theorem ownSems_eq22 (c : Dev nD) :
    (Pipeline.ownSems0 (Ix := Unit) (Name := ℕ) (U := UD sig nD τ) (Lvl := ℕ) (Val := Elt F) (τ := τ) osem22 c : sProp 𝕄)
      = gsems0 c cc22_scratch1 := by
  rw [Pipeline.ownSems0_eq_of_list c osem22 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq22 (t : Fin (cfg22 a1).N) : ∃ h3 h4, bodyProg22 (F := F) a1 t
    = cc22__gather_mul_kernel (grid22.coords t) (Memref.whole main_v94) (Memref.isWhole_whole _) (Memref.whole main_v72) (Memref.isWhole_whole _)
        (stg22 a1 0 t) h3 (stg22 a1 1 t) h4 (Memref.whole cc22_scratch0) (Memref.isWhole_whole _) cc22_scratch1 := ⟨_, _, rfl⟩

end Out

/-! ## The body's run, joined to the proof data -/

section Body

variable (V : (c : Dev nD) → (b : Ref sig .tc) → Buf (Elt F) ((c : Thread nD τ).loc b))
  (a1 : (pcfg22 (F := F)).Adm)

/-- The scratch buffer whole at some contents, as a memref owned at some contents. -/
theorem scratchOwns_eq22 (c : Dev nD) :
    (iprop(∃ d, owns (c : Thread nD τ) (Memref.whole cc22_scratch0) fullShare d) : sProp 𝕄)
      = iprop(∃ f : Buf (Elt F) ((c : Thread nD τ).loc cc22_scratch0), ((c : Thread nD τ).loc cc22_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun22 (hlt : ∀ y, BitVec.toNat ((a1.1 0) y) < 100000) : BodyRun22 V a1 (outBlk22 V a1) := by
  intro c t W K
  obtain ⟨h3, h4, hprog⟩ := bodyProg_eq22 (F := F) a1 t
  rw [hprog, ownSems_eq22, ← scratchOwns_eq22 (F := F) c]
  have hrun := gather_kernel_run_22 (F := F) c (grid22.coords t) (Memref.whole main_v94) (Memref.isWhole_whole _) (Memref.whole main_v72) (Memref.isWhole_whole _)
    (stg22 a1 0 t) h3 (stg22 a1 1 t) h4 (Memref.whole cc22_scratch0) (Memref.isWhole_whole _) cc22_scratch1 fullShare fullShare
    (a1.1 0) (V c main_v72) (iblk22 V a1 c 0 t) (fun y => hlt y) W K
  simp only [Memref.view_whole, View.read_whole] at hrun
  unfold outBlk22
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut22 (hlt : ∀ y, BitVec.toNat ((a1.1 0) y) < 100000) (c : Dev nD) :
    BodyObligation (dat22 (F := F) V a1 (outBlk22 V a1) c) (defs₀ (F := F)) Variants.none () Set.univ :=
  body_obligation22 V a1 (outBlk22 V a1) (bodyRun22 V a1 hlt) c

end Body

/-! # Region 23 -/

/-! ## The body's own transfer cells -/

/-- The eight cells of the body's semaphore array, in order. -/
abbrev osem23 : Fin 8 → SemLoc sig := fun j => SemLoc.dma (cc23_scratch1.ix (fun | ⟨0, _⟩ => j))

/-- They are scoped, pairwise distinct, and none is a staging cell of a window. -/
theorem ownSemFacts23 : Pipeline.OwnSemFacts spec23 osem23 := by decide

/-- The far operand is an unscoped buffer that is neither a window's array nor a table. -/
theorem hx_sub23 : ({main_v72} : Finset (Ref sig .tc)) ⊆ Pipeline.restRefsP sig pre23 spec23 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg23 (F := F)).Adm)
  (O : (c : Dev nD) → Fin (cfg23 a1).N → Vec F S8x64 .f32)

/-! ## The windows' blocks -/

/-- Window w's block at point t, read off its array under V. -/
def iblk23 (c : Dev nD) (w : Fin (cfg23 a1).W) (t : Fin (cfg23 a1).N) :
    (((cfg23 a1).win w).xblock ((cfg23 a1).grid.coords t)).Idx → Elt F ((cfg23 a1).win w).elt :=
  (((cfg23 a1).win w).blk t).view.read (Elt F) (V c (Pipeline.arrRef spec23 w))

/-- The input window's current staging buffer holds its block at every point, fetched there or not, for any proof
    data whose array is V's and whose body leaves the block in place: unfetched, the block index has not moved. -/
theorem beforeIn23_of {c : Dev nD} (dat : Dat τ (Elt F) Unit ℕ (UD sig nD τ) ℕ (cfg23 a1) c)
    (hA : dat.A 0 = V c (Pipeline.arrRef spec23 0))
    (hafter : ∀ t, dat.after 0 t = iblk23 V a1 c 0 t) (t : Fin (cfg23 a1).N) (d) : dat.before 0 t d = iblk23 V a1 c 0 t :=
  (dat.before_in_eq_fetched 0 rfl (fun _ => rfl) (fun _ _ _ => rfl)
    (fun t => by rw [hafter]; unfold Dat.blockOf iblk23; rw [hA]; try rfl) t d).trans
    (by unfold Dat.fetched Dat.blockOf iblk23; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat23 (c : Dev nD) : Dat τ (Elt F) Unit ℕ (UD sig nD τ) ℕ (cfg23 a1) c where
  A w := V c (Pipeline.arrRef spec23 w)
  after w t := match w with
    | ⟨0, _⟩ => iblk23 V a1 c 0 t
    | ⟨1, _⟩ => O c t
  Φ _ := iprop(Pipeline.ΦD osem23 spec23 {main_v72} V c ∗ Pipeline.prefHeld pre23 c (fun _ => fullShare) a1.1)
  q _ := fullShare
  owed _ := 0

theorem A_eq23 (c : Dev nD) (w : Fin (cfg23 a1).W) : (dat23 V a1 O c).A w = V c (Pipeline.arrRef spec23 w) := by
  dsimp only [dat23]

theorem afterIn23 (c : Dev nD) (t : Fin (cfg23 a1).N) : (dat23 V a1 O c).after 0 t = iblk23 V a1 c 0 t := by
  dsimp only [dat23]; rfl

theorem afterOut23 (c : Dev nD) (t : Fin (cfg23 a1).N) :
    (dat23 V a1 O c).after 1 t = O c t := by
  dsimp only [dat23]; rfl

theorem beforeIn23 (c : Dev nD) (t : Fin (cfg23 a1).N) (d) : (dat23 V a1 O c).before 0 t d = iblk23 V a1 c 0 t :=
  beforeIn23_of V a1 (dat23 V a1 O c) (A_eq23 V a1 O c 0) (afterIn23 V a1 O c) t d

theorem Phi_eq23 (c : Dev nD) (t : Fin ((cfg23 a1).N + 1)) :
    (dat23 V a1 O c).Φ t
      = iprop(Pipeline.ΦD osem23 spec23 {main_v72} V c ∗ Pipeline.prefHeld pre23 c (fun _ => fullShare) a1.1) := by
  dsimp only [dat23]

theorem owed_eq23 (c : Dev nD) (t : Fin ((cfg23 a1).N + 1)) : (dat23 V a1 O c).owed t = 0 := by
  dsimp only [dat23]

/-! ## The invariant, conjunct by conjunct -/

/-- The invariant's first part opened: the body's scratch buffer whole at some contents and the other scoped
    buffers no window stages, the generator register, the own cells at zero, the far operand at its contents. -/
theorem PhiD_eq23 (c : Dev nD) :
    (Pipeline.ΦD osem23 spec23 {main_v72} V c : sProp 𝕄)
      = iprop(iprop(iprop((∃ f : Buf (Elt F) ((c : Thread nD τ).loc cc23_scratch0), ((c : Thread nD τ).loc cc23_scratch0) ↦{fullShare} f))
            ∗ Pipeline.scopedRestBut (Ix := Unit) (Name := ℕ) (U := UD sig nD τ) (Lvl := ℕ) (Val := Elt F) spec23 c [cc23_scratch0])
          ∗ (∃ r, prngReg c r)
          ∗ Pipeline.ownSems0 (Ix := Unit) (Name := ℕ) (U := UD sig nD τ) (Lvl := ℕ) (Val := Elt F) (τ := τ) osem23 c
          ∗ (((c : Thread nD τ).loc main_v72) ↦{fullShare} V c main_v72)) := by
  rw [Pipeline.ΦD_eq, scopedRest23_split, BI.bigSep_eq_bigSepL_of_eq [main_v72] (by decide) (by decide)]; rfl

/-- The one table, held whole. -/
theorem prefHeld_eq23 (c : Dev nD) :
    (Pipeline.prefHeld pre23 c (fun _ => fullShare) a1.1 : sProp 𝕄)
      = (((c : Thread nD τ).loc main_v98) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg23 (w : Fin (cfg23 a1).W) (t : Fin (cfg23 a1).N) := ((cfg23 a1).win w).stage ((cfg23 a1).slots t w)

/-- The body as the pipeline calls it at point t. -/
abbrev bodyProg23 (t : Fin (cfg23 a1).N) : Prog (TpuEff nD τ sig (Elt F) Λ₀ .tc) PUnit :=
  (defs₀ (F := F)) .tc (cfg23 a1).body ((cfg23 a1).bodyArgs t ((cfg23 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun23 : Prop :=
  ∀ (c : Dev nD) (t : Fin (cfg23 a1).N) (W) (K : PUnit → sProp 𝕄),
    iprop(owns (c : Thread nD τ) (stg23 a1 0 t) fullShare (iblk23 V a1 c 0 t)
        ∗ (∃ d, owns (c : Thread nD τ) (stg23 a1 1 t) fullShare d)
        ∗ (∃ f : Buf (Elt F) ((c : Thread nD τ).loc cc23_scratch0), ((c : Thread nD τ).loc cc23_scratch0) ↦{fullShare} f)
        ∗ Pipeline.ownSems0 (Ix := Unit) (Name := ℕ) (U := UD sig nD τ) (Lvl := ℕ) (Val := Elt F) (τ := τ) osem23 c
        ∗ (((c : Thread nD τ).loc main_v98) ↦{fullShare} a1.1 0)
        ∗ (((c : Thread nD τ).loc main_v72) ↦{fullShare} V c main_v72)
        ∗ owes (c : Thread nD τ) (0 : CellTallies nD τ sig Unit) W
        ∗ (iprop(owns (c : Thread nD τ) (stg23 a1 0 t) fullShare (iblk23 V a1 c 0 t)
            ∗ owns (c : Thread nD τ) (stg23 a1 1 t) fullShare (O c t)
            ∗ (∃ f : Buf (Elt F) ((c : Thread nD τ).loc cc23_scratch0), ((c : Thread nD τ).loc cc23_scratch0) ↦{fullShare} f)
            ∗ Pipeline.ownSems0 (Ix := Unit) (Name := ℕ) (U := UD sig nD τ) (Lvl := ℕ) (Val := Elt F) (τ := τ) osem23 c
            ∗ (((c : Thread nD τ).loc main_v98) ↦{fullShare} a1.1 0)
            ∗ (((c : Thread nD τ).loc main_v72) ↦{fullShare} V c main_v72)
            ∗ (∃ W', owes (c : Thread nD τ) (0 : CellTallies nD τ sig Unit) W')) -∗ K ⟨⟩))
      ⊢ wp frame (wpE (defs₀ (F := F)) Variants.none c none) Set.univ (bodyProg23 a1 t) K

/-- What the body is called with at point t, the windows one by one, -/
def bodyPre23 (c : Dev nD) (t : Fin (cfg23 a1).N) : sProp 𝕄 :=
  iprop((dat23 V a1 O c).Φ t.castSucc ∗ (dat23 V a1 O c).owesAt () t.castSucc
    ∗ (∃ d, owns (c : Thread nD τ) (stg23 a1 0 t) fullShare ((dat23 V a1 O c).before 0 t d))
    ∗ (∃ d, owns (c : Thread nD τ) (stg23 a1 1 t) fullShare ((dat23 V a1 O c).before 1 t d)))

/-- and what it returns. -/
def bodyPost23 (c : Dev nD) (t : Fin (cfg23 a1).N) : sProp 𝕄 :=
  iprop((dat23 V a1 O c).Φ t.succ ∗ (dat23 V a1 O c).owesAt () t.succ
    ∗ owns (c : Thread nD τ) (stg23 a1 0 t) fullShare ((dat23 V a1 O c).after 0 t)
    ∗ owns (c : Thread nD τ) (stg23 a1 1 t) fullShare ((dat23 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body23 (hrun : BodyRun23 V a1 O) (c : Dev nD) (t : Fin (cfg23 a1).N) :
    bodyPre23 V a1 O c t
      ⊢ wp frame (wpE (defs₀ (F := F)) Variants.none c none) Set.univ (bodyProg23 a1 t) (fun _ => bodyPost23 V a1 O c t) := by
  unfold bodyPre23 bodyPost23
  simp only [beforeIn23]
  rw [afterIn23, afterOut23, Phi_eq23, Phi_eq23, PhiD_eq23, prefHeld_eq23]
  unfold Dat.owesAt Pipeline.owesWithin
  rw [owed_eq23, owed_eq23]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation23 (hrun : BodyRun23 V a1 O) (c : Dev nD) :
    BodyObligation (dat23 (F := F) V a1 O c) (defs₀ (F := F)) Variants.none () Set.univ := fun t => by
  rw [bigSep_W23, bigSep_W23]
  exact sound_body23 V a1 O hrun c t

end Data

/-! ## The region's record -/

section Record

variable (Win : Dev nD → Valuation τ sig (Elt F))

variable (a1 : (pcfg23 (F := F)).Adm)
  (O : (c : Dev nD) → Fin (cfg23 a1).N → Vec F S8x64 .f32)

/-- The buffers at the region's exit: its arrays at what the write-backs leave, every other buffer as entered. -/
def Wout23 (c : Dev nD) : Valuation τ sig (Elt F) :=
  Pipeline.withArrays spec23 c (Win c) fun w => (dat23 (Vof Win) a1 O c).arrAt w (cfg23 a1).N

theorem Wout23_arr (c : Dev nD) (w : Fin (cfg23 a1).W) :
    Wout23 Win a1 O c (Proc.devRef .tc (Pipeline.arrRef spec23 w)) = (dat23 (Vof Win) a1 O c).arrAt w (cfg23 a1).N := by
  unfold Wout23; exact Pipeline.withArrays_arr spec23 winFacts23.arr_inj c _ _ w

theorem Wout23_of_ne (c : Dev nD) (b : Ref sig .tc) (hb : ∀ w, Pipeline.arrRef spec23 w ≠ b) :
    Wout23 Win a1 O c (Proc.devRef .tc b) = Win c (Proc.devRef .tc b) := by
  unfold Wout23; exact Pipeline.withArrays_of_ne spec23 c _ _ b hb

/-- ENTRY, the buffers' part. Every unscoped buffer at Win is: the region's arrays at the proof data's entry contents,
    the table whole at the admissible contents (which are Win's there), the far operand whole, and the others. -/
theorem entry23 (c : Dev nD) (ha1 : ∀ k, Vof Win c (pre23.ref k) = a1.1 k) :
    (StableHlo.held (c : Thread nD τ) (Pipeline.ucRefs τ sig) (Win c) : sProp 𝕄)
      ⊢ iprop((dat23 (Vof Win) a1 O c).arrays ((dat23 (Vof Win) a1 O c).arrAt · 0)
          ∗ Pipeline.prefHeld pre23 c (fun _ => fullShare) a1.1
          ∗ (bigSep ({main_v72} : Finset (Ref sig .tc)) fun b => (((c : Thread nD τ)).loc b) ↦{fullShare} Vof Win c b)
          ∗ bigSep (Pipeline.restRefsP sig pre23 spec23 \ {main_v72}) fun b => (((c : Thread nD τ)).loc b) ↦{fullShare} Vof Win c b) := by
  have hsplit := Pipeline.arrays_of_unscopedBufs (p := ()) (fun (_ : Unit) => pcfg23 (F := F)) (fun _ => a1)
    (fun _ c => dat23 (Vof Win) a1 O c) winFacts23 (launch23 (F := F)).arr_whole c
    ((dat23 (Vof Win) a1 O c).share_full fun _ => rfl) (Vof Win c) (fun w => A_eq23 (Vof Win) a1 O c w)
  rw [Pipeline.unscopedBufs_held,
    Pipeline.unscopedRest_split (Ix := Unit) (Name := ℕ) (U := UD sig nD τ) (Lvl := ℕ) preFacts23 c (Vof Win c),
    Pipeline.unscopedRestP_sdiff pre23 spec23 {main_v72} hx_sub23 c (Vof Win c),
    show (fun k => Vof Win c (pre23.ref k)) = a1.1 from funext ha1] at hsplit
  exact hsplit

/-- EXIT, the buffers' part: the same four put back, the arrays at what the write-backs leave, are every unscoped
    buffer at the exit valuation. -/
theorem exit23 (c : Dev nD) (ha1 : ∀ k, Vof Win c (pre23.ref k) = a1.1 k) :
    iprop((dat23 (Vof Win) a1 O c).arrays ((dat23 (Vof Win) a1 O c).arrAt · (cfg23 a1).N)
        ∗ Pipeline.prefHeld pre23 c (fun _ => fullShare) a1.1
        ∗ (bigSep ({main_v72} : Finset (Ref sig .tc)) fun b => (((c : Thread nD τ)).loc b) ↦{fullShare} Vof Win c b)
        ∗ bigSep (Pipeline.restRefsP sig pre23 spec23 \ {main_v72}) fun b => (((c : Thread nD τ)).loc b) ↦{fullShare} Vof Win c b)
      ⊢ (StableHlo.held (c : Thread nD τ) (Pipeline.ucRefs τ sig) (Wout23 Win a1 O c) : sProp 𝕄) := by
  have hjoin := Pipeline.unscopedBufs_of_arrays (p := ()) (fun (_ : Unit) => pcfg23 (F := F)) (fun _ => a1)
    (Ix := Unit) (Name := ℕ) (U := UD sig nD τ) (Lvl := ℕ)
    winFacts23 (launch23 (F := F)).arr_whole c (fun _ c => dat23 (Vof Win) a1 O c)
    ((dat23 (Vof Win) a1 O c).share_full fun _ => rfl)
    (Vof Win c) (Vof (Wout23 Win a1 O) c) ((dat23 (Vof Win) a1 O c).arrAt · (cfg23 a1).N)
    (fun w => (Wout23_arr Win a1 O c w).symm)
    (fun b hb => Wout23_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts23 c (Vof Win c),
    Pipeline.unscopedRestP_sdiff pre23 spec23 {main_v72} hx_sub23 c (Vof Win c),
    show (fun k => Vof Win c (pre23.ref k)) = a1.1 from funext ha1] at hjoin
  exact hjoin

end Record

section Seg

variable (Win : Dev nD → Valuation τ sig (Elt F))
  (adm : (p : Fin 49) → (pcfgs (F := F) p).Adm)
  (O : (c : Dev nD) → Fin (cfg23 (adm (23 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout23. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg23 (hd : ∀ c, pdats (23 : Fin 49) c = dat23 (Vof Win) (adm (23 : Fin 49)) O c)
    (ha1 : ∀ c k, Vof Win c (pre23.ref k) = (adm (23 : Fin 49)).1 k)
    (hbody : ∀ c, BodyObligation (dat23 (F := F) (Vof Win) (adm (23 : Fin 49)) O c) (defs₀ (F := F)) 𝒱₀ () Set.univ) :
    Pipeline.RegionSeg (pcfgs (F := F)) adm pdats () defs₀ 𝒱₀ L lv (23 : Fin 49) where
  win := (launch23 (F := F)).win.to₀
  block_pos := (launch23 (F := F)).block_pos
  stage_whole := (launch23 (F := F)).stage_whole
  K := Fin 8
  osem := osem23
  ho := ownSemFacts23
  hbody c := by rw [hd c]; exact (hbody c).loose
  hwaits := Pipeline.hwaits_of_owed_zero _ _ _ _ L lv (23 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout23 Win (adm (23 : Fin 49)) O c) ∗ R c)
  X c := iprop((∃ r, prngReg c r)
    ∗ Pipeline.ownSems0 (Ix := Unit) (Name := ℕ) (U := UD sig nD τ) (Lvl := ℕ) (Val := Elt F) (τ := τ) osem23 c
    ∗ (bigSep ({main_v72} : Finset (Ref sig .tc)) fun b => (((c : Thread nD τ)).loc b) ↦{fullShare} Vof Win c b))
  Y c := iprop((∃ r, prngReg c r)
    ∗ (bigSep ({main_v72} : Finset (Ref sig .tc)) fun b => (((c : Thread nD τ)).loc b) ↦{fullShare} Vof Win c b)
    ∗ Pipeline.prefHeld pre23 c (fun _ => fullShare) (adm (23 : Fin 49)).1)
  Z c := bigSep (Pipeline.restRefsP sig pre23 spec23 \ {main_v72}) fun b => (((c : Thread nD τ)).loc b) ↦{fullShare} Vof Win c b
  hentry c := by
    rw [hd c]
    iintro ⟨⟨Hub, Hp, HO⟩, Hos, -⟩
    ihave H := (entry23 Win (adm (23 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq23, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq23, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit23 Win (adm (23 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg23 (F := F)).Adm)

/-- The output block at point t: the gathered rows (of the far operand's contents under V, chosen by the table's
    words at that point) times the input block. -/
def outBlk23 (c : Dev nD) (t : Fin (cfg23 a1).N) : Vec F S8x64 .f32 :=
  gatherOut (gatherG (a1.1 0) (V c main_v72) (grid23.coords t)) (iblk23 V a1 c 0 t)

theorem outBlk_eq23 (c : Dev nD) (t : Fin (cfg23 a1).N) :
    outBlk23 V a1 c t = gatherOut (gatherG (a1.1 0) (V c main_v72) (grid23.coords t)) (iblk23 V a1 c 0 t) := rfl

/-- The proof data with the output block named: after the body at point t the output window's buffer holds it. -/
theorem afterOutBlk23 (c : Dev nD) (t : Fin (cfg23 a1).N) :
    (dat23 V a1 (outBlk23 V a1) c).after 1 t
      = gatherOut (gatherG (a1.1 0) (V c main_v72) (grid23.coords t)) (iblk23 V a1 c 0 t) :=
  afterOut23 V a1 (outBlk23 V a1) c t

/-- The own cells at zero are the semaphore array's eight entries at zero, in order. -/
theorem ownSems_eq23 (c : Dev nD) :
    (Pipeline.ownSems0 (Ix := Unit) (Name := ℕ) (U := UD sig nD τ) (Lvl := ℕ) (Val := Elt F) (τ := τ) osem23 c : sProp 𝕄)
      = gsems0 c cc23_scratch1 := by
  rw [Pipeline.ownSems0_eq_of_list c osem23 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq23 (t : Fin (cfg23 a1).N) : ∃ h3 h4, bodyProg23 (F := F) a1 t
    = cc23__gather_mul_kernel (grid23.coords t) (Memref.whole main_v98) (Memref.isWhole_whole _) (Memref.whole main_v72) (Memref.isWhole_whole _)
        (stg23 a1 0 t) h3 (stg23 a1 1 t) h4 (Memref.whole cc23_scratch0) (Memref.isWhole_whole _) cc23_scratch1 := ⟨_, _, rfl⟩

end Out

/-! ## The body's run, joined to the proof data -/

section Body

variable (V : (c : Dev nD) → (b : Ref sig .tc) → Buf (Elt F) ((c : Thread nD τ).loc b))
  (a1 : (pcfg23 (F := F)).Adm)

/-- The scratch buffer whole at some contents, as a memref owned at some contents. -/
theorem scratchOwns_eq23 (c : Dev nD) :
    (iprop(∃ d, owns (c : Thread nD τ) (Memref.whole cc23_scratch0) fullShare d) : sProp 𝕄)
      = iprop(∃ f : Buf (Elt F) ((c : Thread nD τ).loc cc23_scratch0), ((c : Thread nD τ).loc cc23_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun23 (hlt : ∀ y, BitVec.toNat ((a1.1 0) y) < 100000) : BodyRun23 V a1 (outBlk23 V a1) := by
  intro c t W K
  obtain ⟨h3, h4, hprog⟩ := bodyProg_eq23 (F := F) a1 t
  rw [hprog, ownSems_eq23, ← scratchOwns_eq23 (F := F) c]
  have hrun := gather_kernel_run_23 (F := F) c (grid23.coords t) (Memref.whole main_v98) (Memref.isWhole_whole _) (Memref.whole main_v72) (Memref.isWhole_whole _)
    (stg23 a1 0 t) h3 (stg23 a1 1 t) h4 (Memref.whole cc23_scratch0) (Memref.isWhole_whole _) cc23_scratch1 fullShare fullShare
    (a1.1 0) (V c main_v72) (iblk23 V a1 c 0 t) (fun y => hlt y) W K
  simp only [Memref.view_whole, View.read_whole] at hrun
  unfold outBlk23
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut23 (hlt : ∀ y, BitVec.toNat ((a1.1 0) y) < 100000) (c : Dev nD) :
    BodyObligation (dat23 (F := F) V a1 (outBlk23 V a1) c) (defs₀ (F := F)) Variants.none () Set.univ :=
  body_obligation23 V a1 (outBlk23 V a1) (bodyRun23 V a1 hlt) c

end Body

/-! # Region 24 -/

/-! ## The body's own transfer cells -/

/-- The eight cells of the body's semaphore array, in order. -/
abbrev osem24 : Fin 8 → SemLoc sig := fun j => SemLoc.dma (cc24_scratch1.ix (fun | ⟨0, _⟩ => j))

/-- They are scoped, pairwise distinct, and none is a staging cell of a window. -/
theorem ownSemFacts24 : Pipeline.OwnSemFacts spec24 osem24 := by decide

/-- The far operand is an unscoped buffer that is neither a window's array nor a table. -/
theorem hx_sub24 : ({main_v72} : Finset (Ref sig .tc)) ⊆ Pipeline.restRefsP sig pre24 spec24 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg24 (F := F)).Adm)
  (O : (c : Dev nD) → Fin (cfg24 a1).N → Vec F S8x64 .f32)

/-! ## The windows' blocks -/

/-- Window w's block at point t, read off its array under V. -/
def iblk24 (c : Dev nD) (w : Fin (cfg24 a1).W) (t : Fin (cfg24 a1).N) :
    (((cfg24 a1).win w).xblock ((cfg24 a1).grid.coords t)).Idx → Elt F ((cfg24 a1).win w).elt :=
  (((cfg24 a1).win w).blk t).view.read (Elt F) (V c (Pipeline.arrRef spec24 w))

/-- The input window's current staging buffer holds its block at every point, fetched there or not, for any proof
    data whose array is V's and whose body leaves the block in place: unfetched, the block index has not moved. -/
theorem beforeIn24_of {c : Dev nD} (dat : Dat τ (Elt F) Unit ℕ (UD sig nD τ) ℕ (cfg24 a1) c)
    (hA : dat.A 0 = V c (Pipeline.arrRef spec24 0))
    (hafter : ∀ t, dat.after 0 t = iblk24 V a1 c 0 t) (t : Fin (cfg24 a1).N) (d) : dat.before 0 t d = iblk24 V a1 c 0 t :=
  (dat.before_in_eq_fetched 0 rfl (fun _ => rfl) (fun _ _ _ => rfl)
    (fun t => by rw [hafter]; unfold Dat.blockOf iblk24; rw [hA]; try rfl) t d).trans
    (by unfold Dat.fetched Dat.blockOf iblk24; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat24 (c : Dev nD) : Dat τ (Elt F) Unit ℕ (UD sig nD τ) ℕ (cfg24 a1) c where
  A w := V c (Pipeline.arrRef spec24 w)
  after w t := match w with
    | ⟨0, _⟩ => iblk24 V a1 c 0 t
    | ⟨1, _⟩ => O c t
  Φ _ := iprop(Pipeline.ΦD osem24 spec24 {main_v72} V c ∗ Pipeline.prefHeld pre24 c (fun _ => fullShare) a1.1)
  q _ := fullShare
  owed _ := 0

theorem A_eq24 (c : Dev nD) (w : Fin (cfg24 a1).W) : (dat24 V a1 O c).A w = V c (Pipeline.arrRef spec24 w) := by
  dsimp only [dat24]

theorem afterIn24 (c : Dev nD) (t : Fin (cfg24 a1).N) : (dat24 V a1 O c).after 0 t = iblk24 V a1 c 0 t := by
  dsimp only [dat24]; rfl

theorem afterOut24 (c : Dev nD) (t : Fin (cfg24 a1).N) :
    (dat24 V a1 O c).after 1 t = O c t := by
  dsimp only [dat24]; rfl

theorem beforeIn24 (c : Dev nD) (t : Fin (cfg24 a1).N) (d) : (dat24 V a1 O c).before 0 t d = iblk24 V a1 c 0 t :=
  beforeIn24_of V a1 (dat24 V a1 O c) (A_eq24 V a1 O c 0) (afterIn24 V a1 O c) t d

theorem Phi_eq24 (c : Dev nD) (t : Fin ((cfg24 a1).N + 1)) :
    (dat24 V a1 O c).Φ t
      = iprop(Pipeline.ΦD osem24 spec24 {main_v72} V c ∗ Pipeline.prefHeld pre24 c (fun _ => fullShare) a1.1) := by
  dsimp only [dat24]

theorem owed_eq24 (c : Dev nD) (t : Fin ((cfg24 a1).N + 1)) : (dat24 V a1 O c).owed t = 0 := by
  dsimp only [dat24]

/-! ## The invariant, conjunct by conjunct -/

/-- The invariant's first part opened: the body's scratch buffer whole at some contents and the other scoped
    buffers no window stages, the generator register, the own cells at zero, the far operand at its contents. -/
theorem PhiD_eq24 (c : Dev nD) :
    (Pipeline.ΦD osem24 spec24 {main_v72} V c : sProp 𝕄)
      = iprop(iprop(iprop((∃ f : Buf (Elt F) ((c : Thread nD τ).loc cc24_scratch0), ((c : Thread nD τ).loc cc24_scratch0) ↦{fullShare} f))
            ∗ Pipeline.scopedRestBut (Ix := Unit) (Name := ℕ) (U := UD sig nD τ) (Lvl := ℕ) (Val := Elt F) spec24 c [cc24_scratch0])
          ∗ (∃ r, prngReg c r)
          ∗ Pipeline.ownSems0 (Ix := Unit) (Name := ℕ) (U := UD sig nD τ) (Lvl := ℕ) (Val := Elt F) (τ := τ) osem24 c
          ∗ (((c : Thread nD τ).loc main_v72) ↦{fullShare} V c main_v72)) := by
  rw [Pipeline.ΦD_eq, scopedRest24_split, BI.bigSep_eq_bigSepL_of_eq [main_v72] (by decide) (by decide)]; rfl

/-- The one table, held whole. -/
theorem prefHeld_eq24 (c : Dev nD) :
    (Pipeline.prefHeld pre24 c (fun _ => fullShare) a1.1 : sProp 𝕄)
      = (((c : Thread nD τ).loc main_v102) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg24 (w : Fin (cfg24 a1).W) (t : Fin (cfg24 a1).N) := ((cfg24 a1).win w).stage ((cfg24 a1).slots t w)

/-- The body as the pipeline calls it at point t. -/
abbrev bodyProg24 (t : Fin (cfg24 a1).N) : Prog (TpuEff nD τ sig (Elt F) Λ₀ .tc) PUnit :=
  (defs₀ (F := F)) .tc (cfg24 a1).body ((cfg24 a1).bodyArgs t ((cfg24 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun24 : Prop :=
  ∀ (c : Dev nD) (t : Fin (cfg24 a1).N) (W) (K : PUnit → sProp 𝕄),
    iprop(owns (c : Thread nD τ) (stg24 a1 0 t) fullShare (iblk24 V a1 c 0 t)
        ∗ (∃ d, owns (c : Thread nD τ) (stg24 a1 1 t) fullShare d)
        ∗ (∃ f : Buf (Elt F) ((c : Thread nD τ).loc cc24_scratch0), ((c : Thread nD τ).loc cc24_scratch0) ↦{fullShare} f)
        ∗ Pipeline.ownSems0 (Ix := Unit) (Name := ℕ) (U := UD sig nD τ) (Lvl := ℕ) (Val := Elt F) (τ := τ) osem24 c
        ∗ (((c : Thread nD τ).loc main_v102) ↦{fullShare} a1.1 0)
        ∗ (((c : Thread nD τ).loc main_v72) ↦{fullShare} V c main_v72)
        ∗ owes (c : Thread nD τ) (0 : CellTallies nD τ sig Unit) W
        ∗ (iprop(owns (c : Thread nD τ) (stg24 a1 0 t) fullShare (iblk24 V a1 c 0 t)
            ∗ owns (c : Thread nD τ) (stg24 a1 1 t) fullShare (O c t)
            ∗ (∃ f : Buf (Elt F) ((c : Thread nD τ).loc cc24_scratch0), ((c : Thread nD τ).loc cc24_scratch0) ↦{fullShare} f)
            ∗ Pipeline.ownSems0 (Ix := Unit) (Name := ℕ) (U := UD sig nD τ) (Lvl := ℕ) (Val := Elt F) (τ := τ) osem24 c
            ∗ (((c : Thread nD τ).loc main_v102) ↦{fullShare} a1.1 0)
            ∗ (((c : Thread nD τ).loc main_v72) ↦{fullShare} V c main_v72)
            ∗ (∃ W', owes (c : Thread nD τ) (0 : CellTallies nD τ sig Unit) W')) -∗ K ⟨⟩))
      ⊢ wp frame (wpE (defs₀ (F := F)) Variants.none c none) Set.univ (bodyProg24 a1 t) K

/-- What the body is called with at point t, the windows one by one, -/
def bodyPre24 (c : Dev nD) (t : Fin (cfg24 a1).N) : sProp 𝕄 :=
  iprop((dat24 V a1 O c).Φ t.castSucc ∗ (dat24 V a1 O c).owesAt () t.castSucc
    ∗ (∃ d, owns (c : Thread nD τ) (stg24 a1 0 t) fullShare ((dat24 V a1 O c).before 0 t d))
    ∗ (∃ d, owns (c : Thread nD τ) (stg24 a1 1 t) fullShare ((dat24 V a1 O c).before 1 t d)))

/-- and what it returns. -/
def bodyPost24 (c : Dev nD) (t : Fin (cfg24 a1).N) : sProp 𝕄 :=
  iprop((dat24 V a1 O c).Φ t.succ ∗ (dat24 V a1 O c).owesAt () t.succ
    ∗ owns (c : Thread nD τ) (stg24 a1 0 t) fullShare ((dat24 V a1 O c).after 0 t)
    ∗ owns (c : Thread nD τ) (stg24 a1 1 t) fullShare ((dat24 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body24 (hrun : BodyRun24 V a1 O) (c : Dev nD) (t : Fin (cfg24 a1).N) :
    bodyPre24 V a1 O c t
      ⊢ wp frame (wpE (defs₀ (F := F)) Variants.none c none) Set.univ (bodyProg24 a1 t) (fun _ => bodyPost24 V a1 O c t) := by
  unfold bodyPre24 bodyPost24
  simp only [beforeIn24]
  rw [afterIn24, afterOut24, Phi_eq24, Phi_eq24, PhiD_eq24, prefHeld_eq24]
  unfold Dat.owesAt Pipeline.owesWithin
  rw [owed_eq24, owed_eq24]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation24 (hrun : BodyRun24 V a1 O) (c : Dev nD) :
    BodyObligation (dat24 (F := F) V a1 O c) (defs₀ (F := F)) Variants.none () Set.univ := fun t => by
  rw [bigSep_W24, bigSep_W24]
  exact sound_body24 V a1 O hrun c t

end Data

/-! ## The region's record -/

section Record

variable (Win : Dev nD → Valuation τ sig (Elt F))

variable (a1 : (pcfg24 (F := F)).Adm)
  (O : (c : Dev nD) → Fin (cfg24 a1).N → Vec F S8x64 .f32)

/-- The buffers at the region's exit: its arrays at what the write-backs leave, every other buffer as entered. -/
def Wout24 (c : Dev nD) : Valuation τ sig (Elt F) :=
  Pipeline.withArrays spec24 c (Win c) fun w => (dat24 (Vof Win) a1 O c).arrAt w (cfg24 a1).N

theorem Wout24_arr (c : Dev nD) (w : Fin (cfg24 a1).W) :
    Wout24 Win a1 O c (Proc.devRef .tc (Pipeline.arrRef spec24 w)) = (dat24 (Vof Win) a1 O c).arrAt w (cfg24 a1).N := by
  unfold Wout24; exact Pipeline.withArrays_arr spec24 winFacts24.arr_inj c _ _ w

theorem Wout24_of_ne (c : Dev nD) (b : Ref sig .tc) (hb : ∀ w, Pipeline.arrRef spec24 w ≠ b) :
    Wout24 Win a1 O c (Proc.devRef .tc b) = Win c (Proc.devRef .tc b) := by
  unfold Wout24; exact Pipeline.withArrays_of_ne spec24 c _ _ b hb

/-- ENTRY, the buffers' part. Every unscoped buffer at Win is: the region's arrays at the proof data's entry contents,
    the table whole at the admissible contents (which are Win's there), the far operand whole, and the others. -/
theorem entry24 (c : Dev nD) (ha1 : ∀ k, Vof Win c (pre24.ref k) = a1.1 k) :
    (StableHlo.held (c : Thread nD τ) (Pipeline.ucRefs τ sig) (Win c) : sProp 𝕄)
      ⊢ iprop((dat24 (Vof Win) a1 O c).arrays ((dat24 (Vof Win) a1 O c).arrAt · 0)
          ∗ Pipeline.prefHeld pre24 c (fun _ => fullShare) a1.1
          ∗ (bigSep ({main_v72} : Finset (Ref sig .tc)) fun b => (((c : Thread nD τ)).loc b) ↦{fullShare} Vof Win c b)
          ∗ bigSep (Pipeline.restRefsP sig pre24 spec24 \ {main_v72}) fun b => (((c : Thread nD τ)).loc b) ↦{fullShare} Vof Win c b) := by
  have hsplit := Pipeline.arrays_of_unscopedBufs (p := ()) (fun (_ : Unit) => pcfg24 (F := F)) (fun _ => a1)
    (fun _ c => dat24 (Vof Win) a1 O c) winFacts24 (launch24 (F := F)).arr_whole c
    ((dat24 (Vof Win) a1 O c).share_full fun _ => rfl) (Vof Win c) (fun w => A_eq24 (Vof Win) a1 O c w)
  rw [Pipeline.unscopedBufs_held,
    Pipeline.unscopedRest_split (Ix := Unit) (Name := ℕ) (U := UD sig nD τ) (Lvl := ℕ) preFacts24 c (Vof Win c),
    Pipeline.unscopedRestP_sdiff pre24 spec24 {main_v72} hx_sub24 c (Vof Win c),
    show (fun k => Vof Win c (pre24.ref k)) = a1.1 from funext ha1] at hsplit
  exact hsplit

/-- EXIT, the buffers' part: the same four put back, the arrays at what the write-backs leave, are every unscoped
    buffer at the exit valuation. -/
theorem exit24 (c : Dev nD) (ha1 : ∀ k, Vof Win c (pre24.ref k) = a1.1 k) :
    iprop((dat24 (Vof Win) a1 O c).arrays ((dat24 (Vof Win) a1 O c).arrAt · (cfg24 a1).N)
        ∗ Pipeline.prefHeld pre24 c (fun _ => fullShare) a1.1
        ∗ (bigSep ({main_v72} : Finset (Ref sig .tc)) fun b => (((c : Thread nD τ)).loc b) ↦{fullShare} Vof Win c b)
        ∗ bigSep (Pipeline.restRefsP sig pre24 spec24 \ {main_v72}) fun b => (((c : Thread nD τ)).loc b) ↦{fullShare} Vof Win c b)
      ⊢ (StableHlo.held (c : Thread nD τ) (Pipeline.ucRefs τ sig) (Wout24 Win a1 O c) : sProp 𝕄) := by
  have hjoin := Pipeline.unscopedBufs_of_arrays (p := ()) (fun (_ : Unit) => pcfg24 (F := F)) (fun _ => a1)
    (Ix := Unit) (Name := ℕ) (U := UD sig nD τ) (Lvl := ℕ)
    winFacts24 (launch24 (F := F)).arr_whole c (fun _ c => dat24 (Vof Win) a1 O c)
    ((dat24 (Vof Win) a1 O c).share_full fun _ => rfl)
    (Vof Win c) (Vof (Wout24 Win a1 O) c) ((dat24 (Vof Win) a1 O c).arrAt · (cfg24 a1).N)
    (fun w => (Wout24_arr Win a1 O c w).symm)
    (fun b hb => Wout24_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts24 c (Vof Win c),
    Pipeline.unscopedRestP_sdiff pre24 spec24 {main_v72} hx_sub24 c (Vof Win c),
    show (fun k => Vof Win c (pre24.ref k)) = a1.1 from funext ha1] at hjoin
  exact hjoin

end Record

section Seg

variable (Win : Dev nD → Valuation τ sig (Elt F))
  (adm : (p : Fin 49) → (pcfgs (F := F) p).Adm)
  (O : (c : Dev nD) → Fin (cfg24 (adm (24 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout24. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg24 (hd : ∀ c, pdats (24 : Fin 49) c = dat24 (Vof Win) (adm (24 : Fin 49)) O c)
    (ha1 : ∀ c k, Vof Win c (pre24.ref k) = (adm (24 : Fin 49)).1 k)
    (hbody : ∀ c, BodyObligation (dat24 (F := F) (Vof Win) (adm (24 : Fin 49)) O c) (defs₀ (F := F)) 𝒱₀ () Set.univ) :
    Pipeline.RegionSeg (pcfgs (F := F)) adm pdats () defs₀ 𝒱₀ L lv (24 : Fin 49) where
  win := (launch24 (F := F)).win.to₀
  block_pos := (launch24 (F := F)).block_pos
  stage_whole := (launch24 (F := F)).stage_whole
  K := Fin 8
  osem := osem24
  ho := ownSemFacts24
  hbody c := by rw [hd c]; exact (hbody c).loose
  hwaits := Pipeline.hwaits_of_owed_zero _ _ _ _ L lv (24 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout24 Win (adm (24 : Fin 49)) O c) ∗ R c)
  X c := iprop((∃ r, prngReg c r)
    ∗ Pipeline.ownSems0 (Ix := Unit) (Name := ℕ) (U := UD sig nD τ) (Lvl := ℕ) (Val := Elt F) (τ := τ) osem24 c
    ∗ (bigSep ({main_v72} : Finset (Ref sig .tc)) fun b => (((c : Thread nD τ)).loc b) ↦{fullShare} Vof Win c b))
  Y c := iprop((∃ r, prngReg c r)
    ∗ (bigSep ({main_v72} : Finset (Ref sig .tc)) fun b => (((c : Thread nD τ)).loc b) ↦{fullShare} Vof Win c b)
    ∗ Pipeline.prefHeld pre24 c (fun _ => fullShare) (adm (24 : Fin 49)).1)
  Z c := bigSep (Pipeline.restRefsP sig pre24 spec24 \ {main_v72}) fun b => (((c : Thread nD τ)).loc b) ↦{fullShare} Vof Win c b
  hentry c := by
    rw [hd c]
    iintro ⟨⟨Hub, Hp, HO⟩, Hos, -⟩
    ihave H := (entry24 Win (adm (24 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq24, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq24, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit24 Win (adm (24 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg24 (F := F)).Adm)

/-- The output block at point t: the gathered rows (of the far operand's contents under V, chosen by the table's
    words at that point) times the input block. -/
def outBlk24 (c : Dev nD) (t : Fin (cfg24 a1).N) : Vec F S8x64 .f32 :=
  gatherOut (gatherG (a1.1 0) (V c main_v72) (grid24.coords t)) (iblk24 V a1 c 0 t)

theorem outBlk_eq24 (c : Dev nD) (t : Fin (cfg24 a1).N) :
    outBlk24 V a1 c t = gatherOut (gatherG (a1.1 0) (V c main_v72) (grid24.coords t)) (iblk24 V a1 c 0 t) := rfl

/-- The proof data with the output block named: after the body at point t the output window's buffer holds it. -/
theorem afterOutBlk24 (c : Dev nD) (t : Fin (cfg24 a1).N) :
    (dat24 V a1 (outBlk24 V a1) c).after 1 t
      = gatherOut (gatherG (a1.1 0) (V c main_v72) (grid24.coords t)) (iblk24 V a1 c 0 t) :=
  afterOut24 V a1 (outBlk24 V a1) c t

/-- The own cells at zero are the semaphore array's eight entries at zero, in order. -/
theorem ownSems_eq24 (c : Dev nD) :
    (Pipeline.ownSems0 (Ix := Unit) (Name := ℕ) (U := UD sig nD τ) (Lvl := ℕ) (Val := Elt F) (τ := τ) osem24 c : sProp 𝕄)
      = gsems0 c cc24_scratch1 := by
  rw [Pipeline.ownSems0_eq_of_list c osem24 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq24 (t : Fin (cfg24 a1).N) : ∃ h3 h4, bodyProg24 (F := F) a1 t
    = cc24__gather_mul_kernel (grid24.coords t) (Memref.whole main_v102) (Memref.isWhole_whole _) (Memref.whole main_v72) (Memref.isWhole_whole _)
        (stg24 a1 0 t) h3 (stg24 a1 1 t) h4 (Memref.whole cc24_scratch0) (Memref.isWhole_whole _) cc24_scratch1 := ⟨_, _, rfl⟩

end Out

/-! ## The body's run, joined to the proof data -/

section Body

variable (V : (c : Dev nD) → (b : Ref sig .tc) → Buf (Elt F) ((c : Thread nD τ).loc b))
  (a1 : (pcfg24 (F := F)).Adm)

/-- The scratch buffer whole at some contents, as a memref owned at some contents. -/
theorem scratchOwns_eq24 (c : Dev nD) :
    (iprop(∃ d, owns (c : Thread nD τ) (Memref.whole cc24_scratch0) fullShare d) : sProp 𝕄)
      = iprop(∃ f : Buf (Elt F) ((c : Thread nD τ).loc cc24_scratch0), ((c : Thread nD τ).loc cc24_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun24 (hlt : ∀ y, BitVec.toNat ((a1.1 0) y) < 100000) : BodyRun24 V a1 (outBlk24 V a1) := by
  intro c t W K
  obtain ⟨h3, h4, hprog⟩ := bodyProg_eq24 (F := F) a1 t
  rw [hprog, ownSems_eq24, ← scratchOwns_eq24 (F := F) c]
  have hrun := gather_kernel_run_24 (F := F) c (grid24.coords t) (Memref.whole main_v102) (Memref.isWhole_whole _) (Memref.whole main_v72) (Memref.isWhole_whole _)
    (stg24 a1 0 t) h3 (stg24 a1 1 t) h4 (Memref.whole cc24_scratch0) (Memref.isWhole_whole _) cc24_scratch1 fullShare fullShare
    (a1.1 0) (V c main_v72) (iblk24 V a1 c 0 t) (fun y => hlt y) W K
  simp only [Memref.view_whole, View.read_whole] at hrun
  unfold outBlk24
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut24 (hlt : ∀ y, BitVec.toNat ((a1.1 0) y) < 100000) (c : Dev nD) :
    BodyObligation (dat24 (F := F) V a1 (outBlk24 V a1) c) (defs₀ (F := F)) Variants.none () Set.univ :=
  body_obligation24 V a1 (outBlk24 V a1) (bodyRun24 V a1 hlt) c

end Body

/-! # Region 25 -/

/-! ## The body's own transfer cells -/

/-- The eight cells of the body's semaphore array, in order. -/
abbrev osem25 : Fin 8 → SemLoc sig := fun j => SemLoc.dma (cc25_scratch1.ix (fun | ⟨0, _⟩ => j))

/-- They are scoped, pairwise distinct, and none is a staging cell of a window. -/
theorem ownSemFacts25 : Pipeline.OwnSemFacts spec25 osem25 := by decide

/-- The far operand is an unscoped buffer that is neither a window's array nor a table. -/
theorem hx_sub25 : ({main_v72} : Finset (Ref sig .tc)) ⊆ Pipeline.restRefsP sig pre25 spec25 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg25 (F := F)).Adm)
  (O : (c : Dev nD) → Fin (cfg25 a1).N → Vec F S8x64 .f32)

/-! ## The windows' blocks -/

/-- Window w's block at point t, read off its array under V. -/
def iblk25 (c : Dev nD) (w : Fin (cfg25 a1).W) (t : Fin (cfg25 a1).N) :
    (((cfg25 a1).win w).xblock ((cfg25 a1).grid.coords t)).Idx → Elt F ((cfg25 a1).win w).elt :=
  (((cfg25 a1).win w).blk t).view.read (Elt F) (V c (Pipeline.arrRef spec25 w))

/-- The input window's current staging buffer holds its block at every point, fetched there or not, for any proof
    data whose array is V's and whose body leaves the block in place: unfetched, the block index has not moved. -/
theorem beforeIn25_of {c : Dev nD} (dat : Dat τ (Elt F) Unit ℕ (UD sig nD τ) ℕ (cfg25 a1) c)
    (hA : dat.A 0 = V c (Pipeline.arrRef spec25 0))
    (hafter : ∀ t, dat.after 0 t = iblk25 V a1 c 0 t) (t : Fin (cfg25 a1).N) (d) : dat.before 0 t d = iblk25 V a1 c 0 t :=
  (dat.before_in_eq_fetched 0 rfl (fun _ => rfl) (fun _ _ _ => rfl)
    (fun t => by rw [hafter]; unfold Dat.blockOf iblk25; rw [hA]; try rfl) t d).trans
    (by unfold Dat.fetched Dat.blockOf iblk25; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat25 (c : Dev nD) : Dat τ (Elt F) Unit ℕ (UD sig nD τ) ℕ (cfg25 a1) c where
  A w := V c (Pipeline.arrRef spec25 w)
  after w t := match w with
    | ⟨0, _⟩ => iblk25 V a1 c 0 t
    | ⟨1, _⟩ => O c t
  Φ _ := iprop(Pipeline.ΦD osem25 spec25 {main_v72} V c ∗ Pipeline.prefHeld pre25 c (fun _ => fullShare) a1.1)
  q _ := fullShare
  owed _ := 0

theorem A_eq25 (c : Dev nD) (w : Fin (cfg25 a1).W) : (dat25 V a1 O c).A w = V c (Pipeline.arrRef spec25 w) := by
  dsimp only [dat25]

theorem afterIn25 (c : Dev nD) (t : Fin (cfg25 a1).N) : (dat25 V a1 O c).after 0 t = iblk25 V a1 c 0 t := by
  dsimp only [dat25]; rfl

theorem afterOut25 (c : Dev nD) (t : Fin (cfg25 a1).N) :
    (dat25 V a1 O c).after 1 t = O c t := by
  dsimp only [dat25]; rfl

theorem beforeIn25 (c : Dev nD) (t : Fin (cfg25 a1).N) (d) : (dat25 V a1 O c).before 0 t d = iblk25 V a1 c 0 t :=
  beforeIn25_of V a1 (dat25 V a1 O c) (A_eq25 V a1 O c 0) (afterIn25 V a1 O c) t d

theorem Phi_eq25 (c : Dev nD) (t : Fin ((cfg25 a1).N + 1)) :
    (dat25 V a1 O c).Φ t
      = iprop(Pipeline.ΦD osem25 spec25 {main_v72} V c ∗ Pipeline.prefHeld pre25 c (fun _ => fullShare) a1.1) := by
  dsimp only [dat25]

theorem owed_eq25 (c : Dev nD) (t : Fin ((cfg25 a1).N + 1)) : (dat25 V a1 O c).owed t = 0 := by
  dsimp only [dat25]

/-! ## The invariant, conjunct by conjunct -/

/-- The invariant's first part opened: the body's scratch buffer whole at some contents and the other scoped
    buffers no window stages, the generator register, the own cells at zero, the far operand at its contents. -/
theorem PhiD_eq25 (c : Dev nD) :
    (Pipeline.ΦD osem25 spec25 {main_v72} V c : sProp 𝕄)
      = iprop(iprop(iprop((∃ f : Buf (Elt F) ((c : Thread nD τ).loc cc25_scratch0), ((c : Thread nD τ).loc cc25_scratch0) ↦{fullShare} f))
            ∗ Pipeline.scopedRestBut (Ix := Unit) (Name := ℕ) (U := UD sig nD τ) (Lvl := ℕ) (Val := Elt F) spec25 c [cc25_scratch0])
          ∗ (∃ r, prngReg c r)
          ∗ Pipeline.ownSems0 (Ix := Unit) (Name := ℕ) (U := UD sig nD τ) (Lvl := ℕ) (Val := Elt F) (τ := τ) osem25 c
          ∗ (((c : Thread nD τ).loc main_v72) ↦{fullShare} V c main_v72)) := by
  rw [Pipeline.ΦD_eq, scopedRest25_split, BI.bigSep_eq_bigSepL_of_eq [main_v72] (by decide) (by decide)]; rfl

/-- The one table, held whole. -/
theorem prefHeld_eq25 (c : Dev nD) :
    (Pipeline.prefHeld pre25 c (fun _ => fullShare) a1.1 : sProp 𝕄)
      = (((c : Thread nD τ).loc main_v106) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg25 (w : Fin (cfg25 a1).W) (t : Fin (cfg25 a1).N) := ((cfg25 a1).win w).stage ((cfg25 a1).slots t w)

/-- The body as the pipeline calls it at point t. -/
abbrev bodyProg25 (t : Fin (cfg25 a1).N) : Prog (TpuEff nD τ sig (Elt F) Λ₀ .tc) PUnit :=
  (defs₀ (F := F)) .tc (cfg25 a1).body ((cfg25 a1).bodyArgs t ((cfg25 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun25 : Prop :=
  ∀ (c : Dev nD) (t : Fin (cfg25 a1).N) (W) (K : PUnit → sProp 𝕄),
    iprop(owns (c : Thread nD τ) (stg25 a1 0 t) fullShare (iblk25 V a1 c 0 t)
        ∗ (∃ d, owns (c : Thread nD τ) (stg25 a1 1 t) fullShare d)
        ∗ (∃ f : Buf (Elt F) ((c : Thread nD τ).loc cc25_scratch0), ((c : Thread nD τ).loc cc25_scratch0) ↦{fullShare} f)
        ∗ Pipeline.ownSems0 (Ix := Unit) (Name := ℕ) (U := UD sig nD τ) (Lvl := ℕ) (Val := Elt F) (τ := τ) osem25 c
        ∗ (((c : Thread nD τ).loc main_v106) ↦{fullShare} a1.1 0)
        ∗ (((c : Thread nD τ).loc main_v72) ↦{fullShare} V c main_v72)
        ∗ owes (c : Thread nD τ) (0 : CellTallies nD τ sig Unit) W
        ∗ (iprop(owns (c : Thread nD τ) (stg25 a1 0 t) fullShare (iblk25 V a1 c 0 t)
            ∗ owns (c : Thread nD τ) (stg25 a1 1 t) fullShare (O c t)
            ∗ (∃ f : Buf (Elt F) ((c : Thread nD τ).loc cc25_scratch0), ((c : Thread nD τ).loc cc25_scratch0) ↦{fullShare} f)
            ∗ Pipeline.ownSems0 (Ix := Unit) (Name := ℕ) (U := UD sig nD τ) (Lvl := ℕ) (Val := Elt F) (τ := τ) osem25 c
            ∗ (((c : Thread nD τ).loc main_v106) ↦{fullShare} a1.1 0)
            ∗ (((c : Thread nD τ).loc main_v72) ↦{fullShare} V c main_v72)
            ∗ (∃ W', owes (c : Thread nD τ) (0 : CellTallies nD τ sig Unit) W')) -∗ K ⟨⟩))
      ⊢ wp frame (wpE (defs₀ (F := F)) Variants.none c none) Set.univ (bodyProg25 a1 t) K

/-- What the body is called with at point t, the windows one by one, -/
def bodyPre25 (c : Dev nD) (t : Fin (cfg25 a1).N) : sProp 𝕄 :=
  iprop((dat25 V a1 O c).Φ t.castSucc ∗ (dat25 V a1 O c).owesAt () t.castSucc
    ∗ (∃ d, owns (c : Thread nD τ) (stg25 a1 0 t) fullShare ((dat25 V a1 O c).before 0 t d))
    ∗ (∃ d, owns (c : Thread nD τ) (stg25 a1 1 t) fullShare ((dat25 V a1 O c).before 1 t d)))

/-- and what it returns. -/
def bodyPost25 (c : Dev nD) (t : Fin (cfg25 a1).N) : sProp 𝕄 :=
  iprop((dat25 V a1 O c).Φ t.succ ∗ (dat25 V a1 O c).owesAt () t.succ
    ∗ owns (c : Thread nD τ) (stg25 a1 0 t) fullShare ((dat25 V a1 O c).after 0 t)
    ∗ owns (c : Thread nD τ) (stg25 a1 1 t) fullShare ((dat25 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body25 (hrun : BodyRun25 V a1 O) (c : Dev nD) (t : Fin (cfg25 a1).N) :
    bodyPre25 V a1 O c t
      ⊢ wp frame (wpE (defs₀ (F := F)) Variants.none c none) Set.univ (bodyProg25 a1 t) (fun _ => bodyPost25 V a1 O c t) := by
  unfold bodyPre25 bodyPost25
  simp only [beforeIn25]
  rw [afterIn25, afterOut25, Phi_eq25, Phi_eq25, PhiD_eq25, prefHeld_eq25]
  unfold Dat.owesAt Pipeline.owesWithin
  rw [owed_eq25, owed_eq25]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation25 (hrun : BodyRun25 V a1 O) (c : Dev nD) :
    BodyObligation (dat25 (F := F) V a1 O c) (defs₀ (F := F)) Variants.none () Set.univ := fun t => by
  rw [bigSep_W25, bigSep_W25]
  exact sound_body25 V a1 O hrun c t

end Data

/-! ## The region's record -/

section Record

variable (Win : Dev nD → Valuation τ sig (Elt F))

variable (a1 : (pcfg25 (F := F)).Adm)
  (O : (c : Dev nD) → Fin (cfg25 a1).N → Vec F S8x64 .f32)

/-- The buffers at the region's exit: its arrays at what the write-backs leave, every other buffer as entered. -/
def Wout25 (c : Dev nD) : Valuation τ sig (Elt F) :=
  Pipeline.withArrays spec25 c (Win c) fun w => (dat25 (Vof Win) a1 O c).arrAt w (cfg25 a1).N

theorem Wout25_arr (c : Dev nD) (w : Fin (cfg25 a1).W) :
    Wout25 Win a1 O c (Proc.devRef .tc (Pipeline.arrRef spec25 w)) = (dat25 (Vof Win) a1 O c).arrAt w (cfg25 a1).N := by
  unfold Wout25; exact Pipeline.withArrays_arr spec25 winFacts25.arr_inj c _ _ w

theorem Wout25_of_ne (c : Dev nD) (b : Ref sig .tc) (hb : ∀ w, Pipeline.arrRef spec25 w ≠ b) :
    Wout25 Win a1 O c (Proc.devRef .tc b) = Win c (Proc.devRef .tc b) := by
  unfold Wout25; exact Pipeline.withArrays_of_ne spec25 c _ _ b hb

/-- ENTRY, the buffers' part. Every unscoped buffer at Win is: the region's arrays at the proof data's entry contents,
    the table whole at the admissible contents (which are Win's there), the far operand whole, and the others. -/
theorem entry25 (c : Dev nD) (ha1 : ∀ k, Vof Win c (pre25.ref k) = a1.1 k) :
    (StableHlo.held (c : Thread nD τ) (Pipeline.ucRefs τ sig) (Win c) : sProp 𝕄)
      ⊢ iprop((dat25 (Vof Win) a1 O c).arrays ((dat25 (Vof Win) a1 O c).arrAt · 0)
          ∗ Pipeline.prefHeld pre25 c (fun _ => fullShare) a1.1
          ∗ (bigSep ({main_v72} : Finset (Ref sig .tc)) fun b => (((c : Thread nD τ)).loc b) ↦{fullShare} Vof Win c b)
          ∗ bigSep (Pipeline.restRefsP sig pre25 spec25 \ {main_v72}) fun b => (((c : Thread nD τ)).loc b) ↦{fullShare} Vof Win c b) := by
  have hsplit := Pipeline.arrays_of_unscopedBufs (p := ()) (fun (_ : Unit) => pcfg25 (F := F)) (fun _ => a1)
    (fun _ c => dat25 (Vof Win) a1 O c) winFacts25 (launch25 (F := F)).arr_whole c
    ((dat25 (Vof Win) a1 O c).share_full fun _ => rfl) (Vof Win c) (fun w => A_eq25 (Vof Win) a1 O c w)
  rw [Pipeline.unscopedBufs_held,
    Pipeline.unscopedRest_split (Ix := Unit) (Name := ℕ) (U := UD sig nD τ) (Lvl := ℕ) preFacts25 c (Vof Win c),
    Pipeline.unscopedRestP_sdiff pre25 spec25 {main_v72} hx_sub25 c (Vof Win c),
    show (fun k => Vof Win c (pre25.ref k)) = a1.1 from funext ha1] at hsplit
  exact hsplit

/-- EXIT, the buffers' part: the same four put back, the arrays at what the write-backs leave, are every unscoped
    buffer at the exit valuation. -/
theorem exit25 (c : Dev nD) (ha1 : ∀ k, Vof Win c (pre25.ref k) = a1.1 k) :
    iprop((dat25 (Vof Win) a1 O c).arrays ((dat25 (Vof Win) a1 O c).arrAt · (cfg25 a1).N)
        ∗ Pipeline.prefHeld pre25 c (fun _ => fullShare) a1.1
        ∗ (bigSep ({main_v72} : Finset (Ref sig .tc)) fun b => (((c : Thread nD τ)).loc b) ↦{fullShare} Vof Win c b)
        ∗ bigSep (Pipeline.restRefsP sig pre25 spec25 \ {main_v72}) fun b => (((c : Thread nD τ)).loc b) ↦{fullShare} Vof Win c b)
      ⊢ (StableHlo.held (c : Thread nD τ) (Pipeline.ucRefs τ sig) (Wout25 Win a1 O c) : sProp 𝕄) := by
  have hjoin := Pipeline.unscopedBufs_of_arrays (p := ()) (fun (_ : Unit) => pcfg25 (F := F)) (fun _ => a1)
    (Ix := Unit) (Name := ℕ) (U := UD sig nD τ) (Lvl := ℕ)
    winFacts25 (launch25 (F := F)).arr_whole c (fun _ c => dat25 (Vof Win) a1 O c)
    ((dat25 (Vof Win) a1 O c).share_full fun _ => rfl)
    (Vof Win c) (Vof (Wout25 Win a1 O) c) ((dat25 (Vof Win) a1 O c).arrAt · (cfg25 a1).N)
    (fun w => (Wout25_arr Win a1 O c w).symm)
    (fun b hb => Wout25_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts25 c (Vof Win c),
    Pipeline.unscopedRestP_sdiff pre25 spec25 {main_v72} hx_sub25 c (Vof Win c),
    show (fun k => Vof Win c (pre25.ref k)) = a1.1 from funext ha1] at hjoin
  exact hjoin

end Record

section Seg

variable (Win : Dev nD → Valuation τ sig (Elt F))
  (adm : (p : Fin 49) → (pcfgs (F := F) p).Adm)
  (O : (c : Dev nD) → Fin (cfg25 (adm (25 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout25. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg25 (hd : ∀ c, pdats (25 : Fin 49) c = dat25 (Vof Win) (adm (25 : Fin 49)) O c)
    (ha1 : ∀ c k, Vof Win c (pre25.ref k) = (adm (25 : Fin 49)).1 k)
    (hbody : ∀ c, BodyObligation (dat25 (F := F) (Vof Win) (adm (25 : Fin 49)) O c) (defs₀ (F := F)) 𝒱₀ () Set.univ) :
    Pipeline.RegionSeg (pcfgs (F := F)) adm pdats () defs₀ 𝒱₀ L lv (25 : Fin 49) where
  win := (launch25 (F := F)).win.to₀
  block_pos := (launch25 (F := F)).block_pos
  stage_whole := (launch25 (F := F)).stage_whole
  K := Fin 8
  osem := osem25
  ho := ownSemFacts25
  hbody c := by rw [hd c]; exact (hbody c).loose
  hwaits := Pipeline.hwaits_of_owed_zero _ _ _ _ L lv (25 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout25 Win (adm (25 : Fin 49)) O c) ∗ R c)
  X c := iprop((∃ r, prngReg c r)
    ∗ Pipeline.ownSems0 (Ix := Unit) (Name := ℕ) (U := UD sig nD τ) (Lvl := ℕ) (Val := Elt F) (τ := τ) osem25 c
    ∗ (bigSep ({main_v72} : Finset (Ref sig .tc)) fun b => (((c : Thread nD τ)).loc b) ↦{fullShare} Vof Win c b))
  Y c := iprop((∃ r, prngReg c r)
    ∗ (bigSep ({main_v72} : Finset (Ref sig .tc)) fun b => (((c : Thread nD τ)).loc b) ↦{fullShare} Vof Win c b)
    ∗ Pipeline.prefHeld pre25 c (fun _ => fullShare) (adm (25 : Fin 49)).1)
  Z c := bigSep (Pipeline.restRefsP sig pre25 spec25 \ {main_v72}) fun b => (((c : Thread nD τ)).loc b) ↦{fullShare} Vof Win c b
  hentry c := by
    rw [hd c]
    iintro ⟨⟨Hub, Hp, HO⟩, Hos, -⟩
    ihave H := (entry25 Win (adm (25 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq25, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq25, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit25 Win (adm (25 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg25 (F := F)).Adm)

/-- The output block at point t: the gathered rows (of the far operand's contents under V, chosen by the table's
    words at that point) times the input block. -/
def outBlk25 (c : Dev nD) (t : Fin (cfg25 a1).N) : Vec F S8x64 .f32 :=
  gatherOut (gatherG (a1.1 0) (V c main_v72) (grid25.coords t)) (iblk25 V a1 c 0 t)

theorem outBlk_eq25 (c : Dev nD) (t : Fin (cfg25 a1).N) :
    outBlk25 V a1 c t = gatherOut (gatherG (a1.1 0) (V c main_v72) (grid25.coords t)) (iblk25 V a1 c 0 t) := rfl

/-- The proof data with the output block named: after the body at point t the output window's buffer holds it. -/
theorem afterOutBlk25 (c : Dev nD) (t : Fin (cfg25 a1).N) :
    (dat25 V a1 (outBlk25 V a1) c).after 1 t
      = gatherOut (gatherG (a1.1 0) (V c main_v72) (grid25.coords t)) (iblk25 V a1 c 0 t) :=
  afterOut25 V a1 (outBlk25 V a1) c t

/-- The own cells at zero are the semaphore array's eight entries at zero, in order. -/
theorem ownSems_eq25 (c : Dev nD) :
    (Pipeline.ownSems0 (Ix := Unit) (Name := ℕ) (U := UD sig nD τ) (Lvl := ℕ) (Val := Elt F) (τ := τ) osem25 c : sProp 𝕄)
      = gsems0 c cc25_scratch1 := by
  rw [Pipeline.ownSems0_eq_of_list c osem25 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq25 (t : Fin (cfg25 a1).N) : ∃ h3 h4, bodyProg25 (F := F) a1 t
    = cc25__gather_mul_kernel (grid25.coords t) (Memref.whole main_v106) (Memref.isWhole_whole _) (Memref.whole main_v72) (Memref.isWhole_whole _)
        (stg25 a1 0 t) h3 (stg25 a1 1 t) h4 (Memref.whole cc25_scratch0) (Memref.isWhole_whole _) cc25_scratch1 := ⟨_, _, rfl⟩

end Out

/-! ## The body's run, joined to the proof data -/

section Body

variable (V : (c : Dev nD) → (b : Ref sig .tc) → Buf (Elt F) ((c : Thread nD τ).loc b))
  (a1 : (pcfg25 (F := F)).Adm)

/-- The scratch buffer whole at some contents, as a memref owned at some contents. -/
theorem scratchOwns_eq25 (c : Dev nD) :
    (iprop(∃ d, owns (c : Thread nD τ) (Memref.whole cc25_scratch0) fullShare d) : sProp 𝕄)
      = iprop(∃ f : Buf (Elt F) ((c : Thread nD τ).loc cc25_scratch0), ((c : Thread nD τ).loc cc25_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun25 (hlt : ∀ y, BitVec.toNat ((a1.1 0) y) < 100000) : BodyRun25 V a1 (outBlk25 V a1) := by
  intro c t W K
  obtain ⟨h3, h4, hprog⟩ := bodyProg_eq25 (F := F) a1 t
  rw [hprog, ownSems_eq25, ← scratchOwns_eq25 (F := F) c]
  have hrun := gather_kernel_run_25 (F := F) c (grid25.coords t) (Memref.whole main_v106) (Memref.isWhole_whole _) (Memref.whole main_v72) (Memref.isWhole_whole _)
    (stg25 a1 0 t) h3 (stg25 a1 1 t) h4 (Memref.whole cc25_scratch0) (Memref.isWhole_whole _) cc25_scratch1 fullShare fullShare
    (a1.1 0) (V c main_v72) (iblk25 V a1 c 0 t) (fun y => hlt y) W K
  simp only [Memref.view_whole, View.read_whole] at hrun
  unfold outBlk25
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut25 (hlt : ∀ y, BitVec.toNat ((a1.1 0) y) < 100000) (c : Dev nD) :
    BodyObligation (dat25 (F := F) V a1 (outBlk25 V a1) c) (defs₀ (F := F)) Variants.none () Set.univ :=
  body_obligation25 V a1 (outBlk25 V a1) (bodyRun25 V a1 hlt) c

end Body

end Cert.Kernel.Hand

end
-- ==== Proof.K.Regions_26_33.lean ====
/-
  Gather regions 26 to 33 of the host program, one after the other: for each, the proof data, the body obligation and the record of the region in the launch,
  exactly as for region 1 (whose module says what each part is).
-/
import proofs.«421643_j28415503630349_2_alg».proof.Proof.K.Common
import proofs.«421643_j28415503630349_2_alg».proof.Proof.K.BodyEq
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

/-! # Region 26 -/

/-! ## The body's own transfer cells -/

/-- The eight cells of the body's semaphore array, in order. -/
abbrev osem26 : Fin 8 → SemLoc sig := fun j => SemLoc.dma (cc26_scratch1.ix (fun | ⟨0, _⟩ => j))

/-- They are scoped, pairwise distinct, and none is a staging cell of a window. -/
theorem ownSemFacts26 : Pipeline.OwnSemFacts spec26 osem26 := by decide

/-- The far operand is an unscoped buffer that is neither a window's array nor a table. -/
theorem hx_sub26 : ({main_v72} : Finset (Ref sig .tc)) ⊆ Pipeline.restRefsP sig pre26 spec26 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg26 (F := F)).Adm)
  (O : (c : Dev nD) → Fin (cfg26 a1).N → Vec F S8x64 .f32)

/-! ## The windows' blocks -/

/-- Window w's block at point t, read off its array under V. -/
def iblk26 (c : Dev nD) (w : Fin (cfg26 a1).W) (t : Fin (cfg26 a1).N) :
    (((cfg26 a1).win w).xblock ((cfg26 a1).grid.coords t)).Idx → Elt F ((cfg26 a1).win w).elt :=
  (((cfg26 a1).win w).blk t).view.read (Elt F) (V c (Pipeline.arrRef spec26 w))

/-- The input window's current staging buffer holds its block at every point, fetched there or not, for any proof
    data whose array is V's and whose body leaves the block in place: unfetched, the block index has not moved. -/
theorem beforeIn26_of {c : Dev nD} (dat : Dat τ (Elt F) Unit ℕ (UD sig nD τ) ℕ (cfg26 a1) c)
    (hA : dat.A 0 = V c (Pipeline.arrRef spec26 0))
    (hafter : ∀ t, dat.after 0 t = iblk26 V a1 c 0 t) (t : Fin (cfg26 a1).N) (d) : dat.before 0 t d = iblk26 V a1 c 0 t :=
  (dat.before_in_eq_fetched 0 rfl (fun _ => rfl) (fun _ _ _ => rfl)
    (fun t => by rw [hafter]; unfold Dat.blockOf iblk26; rw [hA]; try rfl) t d).trans
    (by unfold Dat.fetched Dat.blockOf iblk26; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat26 (c : Dev nD) : Dat τ (Elt F) Unit ℕ (UD sig nD τ) ℕ (cfg26 a1) c where
  A w := V c (Pipeline.arrRef spec26 w)
  after w t := match w with
    | ⟨0, _⟩ => iblk26 V a1 c 0 t
    | ⟨1, _⟩ => O c t
  Φ _ := iprop(Pipeline.ΦD osem26 spec26 {main_v72} V c ∗ Pipeline.prefHeld pre26 c (fun _ => fullShare) a1.1)
  q _ := fullShare
  owed _ := 0

theorem A_eq26 (c : Dev nD) (w : Fin (cfg26 a1).W) : (dat26 V a1 O c).A w = V c (Pipeline.arrRef spec26 w) := by
  dsimp only [dat26]

theorem afterIn26 (c : Dev nD) (t : Fin (cfg26 a1).N) : (dat26 V a1 O c).after 0 t = iblk26 V a1 c 0 t := by
  dsimp only [dat26]; rfl

theorem afterOut26 (c : Dev nD) (t : Fin (cfg26 a1).N) :
    (dat26 V a1 O c).after 1 t = O c t := by
  dsimp only [dat26]; rfl

theorem beforeIn26 (c : Dev nD) (t : Fin (cfg26 a1).N) (d) : (dat26 V a1 O c).before 0 t d = iblk26 V a1 c 0 t :=
  beforeIn26_of V a1 (dat26 V a1 O c) (A_eq26 V a1 O c 0) (afterIn26 V a1 O c) t d

theorem Phi_eq26 (c : Dev nD) (t : Fin ((cfg26 a1).N + 1)) :
    (dat26 V a1 O c).Φ t
      = iprop(Pipeline.ΦD osem26 spec26 {main_v72} V c ∗ Pipeline.prefHeld pre26 c (fun _ => fullShare) a1.1) := by
  dsimp only [dat26]

theorem owed_eq26 (c : Dev nD) (t : Fin ((cfg26 a1).N + 1)) : (dat26 V a1 O c).owed t = 0 := by
  dsimp only [dat26]

/-! ## The invariant, conjunct by conjunct -/

/-- The invariant's first part opened: the body's scratch buffer whole at some contents and the other scoped
    buffers no window stages, the generator register, the own cells at zero, the far operand at its contents. -/
theorem PhiD_eq26 (c : Dev nD) :
    (Pipeline.ΦD osem26 spec26 {main_v72} V c : sProp 𝕄)
      = iprop(iprop(iprop((∃ f : Buf (Elt F) ((c : Thread nD τ).loc cc26_scratch0), ((c : Thread nD τ).loc cc26_scratch0) ↦{fullShare} f))
            ∗ Pipeline.scopedRestBut (Ix := Unit) (Name := ℕ) (U := UD sig nD τ) (Lvl := ℕ) (Val := Elt F) spec26 c [cc26_scratch0])
          ∗ (∃ r, prngReg c r)
          ∗ Pipeline.ownSems0 (Ix := Unit) (Name := ℕ) (U := UD sig nD τ) (Lvl := ℕ) (Val := Elt F) (τ := τ) osem26 c
          ∗ (((c : Thread nD τ).loc main_v72) ↦{fullShare} V c main_v72)) := by
  rw [Pipeline.ΦD_eq, scopedRest26_split, BI.bigSep_eq_bigSepL_of_eq [main_v72] (by decide) (by decide)]; rfl

/-- The one table, held whole. -/
theorem prefHeld_eq26 (c : Dev nD) :
    (Pipeline.prefHeld pre26 c (fun _ => fullShare) a1.1 : sProp 𝕄)
      = (((c : Thread nD τ).loc main_v110) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg26 (w : Fin (cfg26 a1).W) (t : Fin (cfg26 a1).N) := ((cfg26 a1).win w).stage ((cfg26 a1).slots t w)

/-- The body as the pipeline calls it at point t. -/
abbrev bodyProg26 (t : Fin (cfg26 a1).N) : Prog (TpuEff nD τ sig (Elt F) Λ₀ .tc) PUnit :=
  (defs₀ (F := F)) .tc (cfg26 a1).body ((cfg26 a1).bodyArgs t ((cfg26 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun26 : Prop :=
  ∀ (c : Dev nD) (t : Fin (cfg26 a1).N) (W) (K : PUnit → sProp 𝕄),
    iprop(owns (c : Thread nD τ) (stg26 a1 0 t) fullShare (iblk26 V a1 c 0 t)
        ∗ (∃ d, owns (c : Thread nD τ) (stg26 a1 1 t) fullShare d)
        ∗ (∃ f : Buf (Elt F) ((c : Thread nD τ).loc cc26_scratch0), ((c : Thread nD τ).loc cc26_scratch0) ↦{fullShare} f)
        ∗ Pipeline.ownSems0 (Ix := Unit) (Name := ℕ) (U := UD sig nD τ) (Lvl := ℕ) (Val := Elt F) (τ := τ) osem26 c
        ∗ (((c : Thread nD τ).loc main_v110) ↦{fullShare} a1.1 0)
        ∗ (((c : Thread nD τ).loc main_v72) ↦{fullShare} V c main_v72)
        ∗ owes (c : Thread nD τ) (0 : CellTallies nD τ sig Unit) W
        ∗ (iprop(owns (c : Thread nD τ) (stg26 a1 0 t) fullShare (iblk26 V a1 c 0 t)
            ∗ owns (c : Thread nD τ) (stg26 a1 1 t) fullShare (O c t)
            ∗ (∃ f : Buf (Elt F) ((c : Thread nD τ).loc cc26_scratch0), ((c : Thread nD τ).loc cc26_scratch0) ↦{fullShare} f)
            ∗ Pipeline.ownSems0 (Ix := Unit) (Name := ℕ) (U := UD sig nD τ) (Lvl := ℕ) (Val := Elt F) (τ := τ) osem26 c
            ∗ (((c : Thread nD τ).loc main_v110) ↦{fullShare} a1.1 0)
            ∗ (((c : Thread nD τ).loc main_v72) ↦{fullShare} V c main_v72)
            ∗ (∃ W', owes (c : Thread nD τ) (0 : CellTallies nD τ sig Unit) W')) -∗ K ⟨⟩))
      ⊢ wp frame (wpE (defs₀ (F := F)) Variants.none c none) Set.univ (bodyProg26 a1 t) K

/-- What the body is called with at point t, the windows one by one, -/
def bodyPre26 (c : Dev nD) (t : Fin (cfg26 a1).N) : sProp 𝕄 :=
  iprop((dat26 V a1 O c).Φ t.castSucc ∗ (dat26 V a1 O c).owesAt () t.castSucc
    ∗ (∃ d, owns (c : Thread nD τ) (stg26 a1 0 t) fullShare ((dat26 V a1 O c).before 0 t d))
    ∗ (∃ d, owns (c : Thread nD τ) (stg26 a1 1 t) fullShare ((dat26 V a1 O c).before 1 t d)))

/-- and what it returns. -/
def bodyPost26 (c : Dev nD) (t : Fin (cfg26 a1).N) : sProp 𝕄 :=
  iprop((dat26 V a1 O c).Φ t.succ ∗ (dat26 V a1 O c).owesAt () t.succ
    ∗ owns (c : Thread nD τ) (stg26 a1 0 t) fullShare ((dat26 V a1 O c).after 0 t)
    ∗ owns (c : Thread nD τ) (stg26 a1 1 t) fullShare ((dat26 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body26 (hrun : BodyRun26 V a1 O) (c : Dev nD) (t : Fin (cfg26 a1).N) :
    bodyPre26 V a1 O c t
      ⊢ wp frame (wpE (defs₀ (F := F)) Variants.none c none) Set.univ (bodyProg26 a1 t) (fun _ => bodyPost26 V a1 O c t) := by
  unfold bodyPre26 bodyPost26
  simp only [beforeIn26]
  rw [afterIn26, afterOut26, Phi_eq26, Phi_eq26, PhiD_eq26, prefHeld_eq26]
  unfold Dat.owesAt Pipeline.owesWithin
  rw [owed_eq26, owed_eq26]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation26 (hrun : BodyRun26 V a1 O) (c : Dev nD) :
    BodyObligation (dat26 (F := F) V a1 O c) (defs₀ (F := F)) Variants.none () Set.univ := fun t => by
  rw [bigSep_W26, bigSep_W26]
  exact sound_body26 V a1 O hrun c t

end Data

/-! ## The region's record -/

section Record

variable (Win : Dev nD → Valuation τ sig (Elt F))

variable (a1 : (pcfg26 (F := F)).Adm)
  (O : (c : Dev nD) → Fin (cfg26 a1).N → Vec F S8x64 .f32)

/-- The buffers at the region's exit: its arrays at what the write-backs leave, every other buffer as entered. -/
def Wout26 (c : Dev nD) : Valuation τ sig (Elt F) :=
  Pipeline.withArrays spec26 c (Win c) fun w => (dat26 (Vof Win) a1 O c).arrAt w (cfg26 a1).N

theorem Wout26_arr (c : Dev nD) (w : Fin (cfg26 a1).W) :
    Wout26 Win a1 O c (Proc.devRef .tc (Pipeline.arrRef spec26 w)) = (dat26 (Vof Win) a1 O c).arrAt w (cfg26 a1).N := by
  unfold Wout26; exact Pipeline.withArrays_arr spec26 winFacts26.arr_inj c _ _ w

theorem Wout26_of_ne (c : Dev nD) (b : Ref sig .tc) (hb : ∀ w, Pipeline.arrRef spec26 w ≠ b) :
    Wout26 Win a1 O c (Proc.devRef .tc b) = Win c (Proc.devRef .tc b) := by
  unfold Wout26; exact Pipeline.withArrays_of_ne spec26 c _ _ b hb

/-- ENTRY, the buffers' part. Every unscoped buffer at Win is: the region's arrays at the proof data's entry contents,
    the table whole at the admissible contents (which are Win's there), the far operand whole, and the others. -/
theorem entry26 (c : Dev nD) (ha1 : ∀ k, Vof Win c (pre26.ref k) = a1.1 k) :
    (StableHlo.held (c : Thread nD τ) (Pipeline.ucRefs τ sig) (Win c) : sProp 𝕄)
      ⊢ iprop((dat26 (Vof Win) a1 O c).arrays ((dat26 (Vof Win) a1 O c).arrAt · 0)
          ∗ Pipeline.prefHeld pre26 c (fun _ => fullShare) a1.1
          ∗ (bigSep ({main_v72} : Finset (Ref sig .tc)) fun b => (((c : Thread nD τ)).loc b) ↦{fullShare} Vof Win c b)
          ∗ bigSep (Pipeline.restRefsP sig pre26 spec26 \ {main_v72}) fun b => (((c : Thread nD τ)).loc b) ↦{fullShare} Vof Win c b) := by
  have hsplit := Pipeline.arrays_of_unscopedBufs (p := ()) (fun (_ : Unit) => pcfg26 (F := F)) (fun _ => a1)
    (fun _ c => dat26 (Vof Win) a1 O c) winFacts26 (launch26 (F := F)).arr_whole c
    ((dat26 (Vof Win) a1 O c).share_full fun _ => rfl) (Vof Win c) (fun w => A_eq26 (Vof Win) a1 O c w)
  rw [Pipeline.unscopedBufs_held,
    Pipeline.unscopedRest_split (Ix := Unit) (Name := ℕ) (U := UD sig nD τ) (Lvl := ℕ) preFacts26 c (Vof Win c),
    Pipeline.unscopedRestP_sdiff pre26 spec26 {main_v72} hx_sub26 c (Vof Win c),
    show (fun k => Vof Win c (pre26.ref k)) = a1.1 from funext ha1] at hsplit
  exact hsplit

/-- EXIT, the buffers' part: the same four put back, the arrays at what the write-backs leave, are every unscoped
    buffer at the exit valuation. -/
theorem exit26 (c : Dev nD) (ha1 : ∀ k, Vof Win c (pre26.ref k) = a1.1 k) :
    iprop((dat26 (Vof Win) a1 O c).arrays ((dat26 (Vof Win) a1 O c).arrAt · (cfg26 a1).N)
        ∗ Pipeline.prefHeld pre26 c (fun _ => fullShare) a1.1
        ∗ (bigSep ({main_v72} : Finset (Ref sig .tc)) fun b => (((c : Thread nD τ)).loc b) ↦{fullShare} Vof Win c b)
        ∗ bigSep (Pipeline.restRefsP sig pre26 spec26 \ {main_v72}) fun b => (((c : Thread nD τ)).loc b) ↦{fullShare} Vof Win c b)
      ⊢ (StableHlo.held (c : Thread nD τ) (Pipeline.ucRefs τ sig) (Wout26 Win a1 O c) : sProp 𝕄) := by
  have hjoin := Pipeline.unscopedBufs_of_arrays (p := ()) (fun (_ : Unit) => pcfg26 (F := F)) (fun _ => a1)
    (Ix := Unit) (Name := ℕ) (U := UD sig nD τ) (Lvl := ℕ)
    winFacts26 (launch26 (F := F)).arr_whole c (fun _ c => dat26 (Vof Win) a1 O c)
    ((dat26 (Vof Win) a1 O c).share_full fun _ => rfl)
    (Vof Win c) (Vof (Wout26 Win a1 O) c) ((dat26 (Vof Win) a1 O c).arrAt · (cfg26 a1).N)
    (fun w => (Wout26_arr Win a1 O c w).symm)
    (fun b hb => Wout26_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts26 c (Vof Win c),
    Pipeline.unscopedRestP_sdiff pre26 spec26 {main_v72} hx_sub26 c (Vof Win c),
    show (fun k => Vof Win c (pre26.ref k)) = a1.1 from funext ha1] at hjoin
  exact hjoin

end Record

section Seg

variable (Win : Dev nD → Valuation τ sig (Elt F))
  (adm : (p : Fin 49) → (pcfgs (F := F) p).Adm)
  (O : (c : Dev nD) → Fin (cfg26 (adm (26 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout26. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg26 (hd : ∀ c, pdats (26 : Fin 49) c = dat26 (Vof Win) (adm (26 : Fin 49)) O c)
    (ha1 : ∀ c k, Vof Win c (pre26.ref k) = (adm (26 : Fin 49)).1 k)
    (hbody : ∀ c, BodyObligation (dat26 (F := F) (Vof Win) (adm (26 : Fin 49)) O c) (defs₀ (F := F)) 𝒱₀ () Set.univ) :
    Pipeline.RegionSeg (pcfgs (F := F)) adm pdats () defs₀ 𝒱₀ L lv (26 : Fin 49) where
  win := (launch26 (F := F)).win.to₀
  block_pos := (launch26 (F := F)).block_pos
  stage_whole := (launch26 (F := F)).stage_whole
  K := Fin 8
  osem := osem26
  ho := ownSemFacts26
  hbody c := by rw [hd c]; exact (hbody c).loose
  hwaits := Pipeline.hwaits_of_owed_zero _ _ _ _ L lv (26 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout26 Win (adm (26 : Fin 49)) O c) ∗ R c)
  X c := iprop((∃ r, prngReg c r)
    ∗ Pipeline.ownSems0 (Ix := Unit) (Name := ℕ) (U := UD sig nD τ) (Lvl := ℕ) (Val := Elt F) (τ := τ) osem26 c
    ∗ (bigSep ({main_v72} : Finset (Ref sig .tc)) fun b => (((c : Thread nD τ)).loc b) ↦{fullShare} Vof Win c b))
  Y c := iprop((∃ r, prngReg c r)
    ∗ (bigSep ({main_v72} : Finset (Ref sig .tc)) fun b => (((c : Thread nD τ)).loc b) ↦{fullShare} Vof Win c b)
    ∗ Pipeline.prefHeld pre26 c (fun _ => fullShare) (adm (26 : Fin 49)).1)
  Z c := bigSep (Pipeline.restRefsP sig pre26 spec26 \ {main_v72}) fun b => (((c : Thread nD τ)).loc b) ↦{fullShare} Vof Win c b
  hentry c := by
    rw [hd c]
    iintro ⟨⟨Hub, Hp, HO⟩, Hos, -⟩
    ihave H := (entry26 Win (adm (26 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq26, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq26, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit26 Win (adm (26 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg26 (F := F)).Adm)

/-- The output block at point t: the gathered rows (of the far operand's contents under V, chosen by the table's
    words at that point) times the input block. -/
def outBlk26 (c : Dev nD) (t : Fin (cfg26 a1).N) : Vec F S8x64 .f32 :=
  gatherOut (gatherG (a1.1 0) (V c main_v72) (grid26.coords t)) (iblk26 V a1 c 0 t)

theorem outBlk_eq26 (c : Dev nD) (t : Fin (cfg26 a1).N) :
    outBlk26 V a1 c t = gatherOut (gatherG (a1.1 0) (V c main_v72) (grid26.coords t)) (iblk26 V a1 c 0 t) := rfl

/-- The proof data with the output block named: after the body at point t the output window's buffer holds it. -/
theorem afterOutBlk26 (c : Dev nD) (t : Fin (cfg26 a1).N) :
    (dat26 V a1 (outBlk26 V a1) c).after 1 t
      = gatherOut (gatherG (a1.1 0) (V c main_v72) (grid26.coords t)) (iblk26 V a1 c 0 t) :=
  afterOut26 V a1 (outBlk26 V a1) c t

/-- The own cells at zero are the semaphore array's eight entries at zero, in order. -/
theorem ownSems_eq26 (c : Dev nD) :
    (Pipeline.ownSems0 (Ix := Unit) (Name := ℕ) (U := UD sig nD τ) (Lvl := ℕ) (Val := Elt F) (τ := τ) osem26 c : sProp 𝕄)
      = gsems0 c cc26_scratch1 := by
  rw [Pipeline.ownSems0_eq_of_list c osem26 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq26 (t : Fin (cfg26 a1).N) : ∃ h3 h4, bodyProg26 (F := F) a1 t
    = cc26__gather_mul_kernel (grid26.coords t) (Memref.whole main_v110) (Memref.isWhole_whole _) (Memref.whole main_v72) (Memref.isWhole_whole _)
        (stg26 a1 0 t) h3 (stg26 a1 1 t) h4 (Memref.whole cc26_scratch0) (Memref.isWhole_whole _) cc26_scratch1 := ⟨_, _, rfl⟩

end Out

/-! ## The body's run, joined to the proof data -/

section Body

variable (V : (c : Dev nD) → (b : Ref sig .tc) → Buf (Elt F) ((c : Thread nD τ).loc b))
  (a1 : (pcfg26 (F := F)).Adm)

/-- The scratch buffer whole at some contents, as a memref owned at some contents. -/
theorem scratchOwns_eq26 (c : Dev nD) :
    (iprop(∃ d, owns (c : Thread nD τ) (Memref.whole cc26_scratch0) fullShare d) : sProp 𝕄)
      = iprop(∃ f : Buf (Elt F) ((c : Thread nD τ).loc cc26_scratch0), ((c : Thread nD τ).loc cc26_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun26 (hlt : ∀ y, BitVec.toNat ((a1.1 0) y) < 100000) : BodyRun26 V a1 (outBlk26 V a1) := by
  intro c t W K
  obtain ⟨h3, h4, hprog⟩ := bodyProg_eq26 (F := F) a1 t
  rw [hprog, ownSems_eq26, ← scratchOwns_eq26 (F := F) c]
  have hrun := gather_kernel_run_26 (F := F) c (grid26.coords t) (Memref.whole main_v110) (Memref.isWhole_whole _) (Memref.whole main_v72) (Memref.isWhole_whole _)
    (stg26 a1 0 t) h3 (stg26 a1 1 t) h4 (Memref.whole cc26_scratch0) (Memref.isWhole_whole _) cc26_scratch1 fullShare fullShare
    (a1.1 0) (V c main_v72) (iblk26 V a1 c 0 t) (fun y => hlt y) W K
  simp only [Memref.view_whole, View.read_whole] at hrun
  unfold outBlk26
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut26 (hlt : ∀ y, BitVec.toNat ((a1.1 0) y) < 100000) (c : Dev nD) :
    BodyObligation (dat26 (F := F) V a1 (outBlk26 V a1) c) (defs₀ (F := F)) Variants.none () Set.univ :=
  body_obligation26 V a1 (outBlk26 V a1) (bodyRun26 V a1 hlt) c

end Body

/-! # Region 27 -/

/-! ## The body's own transfer cells -/

/-- The eight cells of the body's semaphore array, in order. -/
abbrev osem27 : Fin 8 → SemLoc sig := fun j => SemLoc.dma (cc27_scratch1.ix (fun | ⟨0, _⟩ => j))

/-- They are scoped, pairwise distinct, and none is a staging cell of a window. -/
theorem ownSemFacts27 : Pipeline.OwnSemFacts spec27 osem27 := by decide

/-- The far operand is an unscoped buffer that is neither a window's array nor a table. -/
theorem hx_sub27 : ({main_v72} : Finset (Ref sig .tc)) ⊆ Pipeline.restRefsP sig pre27 spec27 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg27 (F := F)).Adm)
  (O : (c : Dev nD) → Fin (cfg27 a1).N → Vec F S8x64 .f32)

/-! ## The windows' blocks -/

/-- Window w's block at point t, read off its array under V. -/
def iblk27 (c : Dev nD) (w : Fin (cfg27 a1).W) (t : Fin (cfg27 a1).N) :
    (((cfg27 a1).win w).xblock ((cfg27 a1).grid.coords t)).Idx → Elt F ((cfg27 a1).win w).elt :=
  (((cfg27 a1).win w).blk t).view.read (Elt F) (V c (Pipeline.arrRef spec27 w))

/-- The input window's current staging buffer holds its block at every point, fetched there or not, for any proof
    data whose array is V's and whose body leaves the block in place: unfetched, the block index has not moved. -/
theorem beforeIn27_of {c : Dev nD} (dat : Dat τ (Elt F) Unit ℕ (UD sig nD τ) ℕ (cfg27 a1) c)
    (hA : dat.A 0 = V c (Pipeline.arrRef spec27 0))
    (hafter : ∀ t, dat.after 0 t = iblk27 V a1 c 0 t) (t : Fin (cfg27 a1).N) (d) : dat.before 0 t d = iblk27 V a1 c 0 t :=
  (dat.before_in_eq_fetched 0 rfl (fun _ => rfl) (fun _ _ _ => rfl)
    (fun t => by rw [hafter]; unfold Dat.blockOf iblk27; rw [hA]; try rfl) t d).trans
    (by unfold Dat.fetched Dat.blockOf iblk27; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat27 (c : Dev nD) : Dat τ (Elt F) Unit ℕ (UD sig nD τ) ℕ (cfg27 a1) c where
  A w := V c (Pipeline.arrRef spec27 w)
  after w t := match w with
    | ⟨0, _⟩ => iblk27 V a1 c 0 t
    | ⟨1, _⟩ => O c t
  Φ _ := iprop(Pipeline.ΦD osem27 spec27 {main_v72} V c ∗ Pipeline.prefHeld pre27 c (fun _ => fullShare) a1.1)
  q _ := fullShare
  owed _ := 0

theorem A_eq27 (c : Dev nD) (w : Fin (cfg27 a1).W) : (dat27 V a1 O c).A w = V c (Pipeline.arrRef spec27 w) := by
  dsimp only [dat27]

theorem afterIn27 (c : Dev nD) (t : Fin (cfg27 a1).N) : (dat27 V a1 O c).after 0 t = iblk27 V a1 c 0 t := by
  dsimp only [dat27]; rfl

theorem afterOut27 (c : Dev nD) (t : Fin (cfg27 a1).N) :
    (dat27 V a1 O c).after 1 t = O c t := by
  dsimp only [dat27]; rfl

theorem beforeIn27 (c : Dev nD) (t : Fin (cfg27 a1).N) (d) : (dat27 V a1 O c).before 0 t d = iblk27 V a1 c 0 t :=
  beforeIn27_of V a1 (dat27 V a1 O c) (A_eq27 V a1 O c 0) (afterIn27 V a1 O c) t d

theorem Phi_eq27 (c : Dev nD) (t : Fin ((cfg27 a1).N + 1)) :
    (dat27 V a1 O c).Φ t
      = iprop(Pipeline.ΦD osem27 spec27 {main_v72} V c ∗ Pipeline.prefHeld pre27 c (fun _ => fullShare) a1.1) := by
  dsimp only [dat27]

theorem owed_eq27 (c : Dev nD) (t : Fin ((cfg27 a1).N + 1)) : (dat27 V a1 O c).owed t = 0 := by
  dsimp only [dat27]

/-! ## The invariant, conjunct by conjunct -/

/-- The invariant's first part opened: the body's scratch buffer whole at some contents and the other scoped
    buffers no window stages, the generator register, the own cells at zero, the far operand at its contents. -/
theorem PhiD_eq27 (c : Dev nD) :
    (Pipeline.ΦD osem27 spec27 {main_v72} V c : sProp 𝕄)
      = iprop(iprop(iprop((∃ f : Buf (Elt F) ((c : Thread nD τ).loc cc27_scratch0), ((c : Thread nD τ).loc cc27_scratch0) ↦{fullShare} f))
            ∗ Pipeline.scopedRestBut (Ix := Unit) (Name := ℕ) (U := UD sig nD τ) (Lvl := ℕ) (Val := Elt F) spec27 c [cc27_scratch0])
          ∗ (∃ r, prngReg c r)
          ∗ Pipeline.ownSems0 (Ix := Unit) (Name := ℕ) (U := UD sig nD τ) (Lvl := ℕ) (Val := Elt F) (τ := τ) osem27 c
          ∗ (((c : Thread nD τ).loc main_v72) ↦{fullShare} V c main_v72)) := by
  rw [Pipeline.ΦD_eq, scopedRest27_split, BI.bigSep_eq_bigSepL_of_eq [main_v72] (by decide) (by decide)]; rfl

/-- The one table, held whole. -/
theorem prefHeld_eq27 (c : Dev nD) :
    (Pipeline.prefHeld pre27 c (fun _ => fullShare) a1.1 : sProp 𝕄)
      = (((c : Thread nD τ).loc main_v114) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg27 (w : Fin (cfg27 a1).W) (t : Fin (cfg27 a1).N) := ((cfg27 a1).win w).stage ((cfg27 a1).slots t w)

/-- The body as the pipeline calls it at point t. -/
abbrev bodyProg27 (t : Fin (cfg27 a1).N) : Prog (TpuEff nD τ sig (Elt F) Λ₀ .tc) PUnit :=
  (defs₀ (F := F)) .tc (cfg27 a1).body ((cfg27 a1).bodyArgs t ((cfg27 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun27 : Prop :=
  ∀ (c : Dev nD) (t : Fin (cfg27 a1).N) (W) (K : PUnit → sProp 𝕄),
    iprop(owns (c : Thread nD τ) (stg27 a1 0 t) fullShare (iblk27 V a1 c 0 t)
        ∗ (∃ d, owns (c : Thread nD τ) (stg27 a1 1 t) fullShare d)
        ∗ (∃ f : Buf (Elt F) ((c : Thread nD τ).loc cc27_scratch0), ((c : Thread nD τ).loc cc27_scratch0) ↦{fullShare} f)
        ∗ Pipeline.ownSems0 (Ix := Unit) (Name := ℕ) (U := UD sig nD τ) (Lvl := ℕ) (Val := Elt F) (τ := τ) osem27 c
        ∗ (((c : Thread nD τ).loc main_v114) ↦{fullShare} a1.1 0)
        ∗ (((c : Thread nD τ).loc main_v72) ↦{fullShare} V c main_v72)
        ∗ owes (c : Thread nD τ) (0 : CellTallies nD τ sig Unit) W
        ∗ (iprop(owns (c : Thread nD τ) (stg27 a1 0 t) fullShare (iblk27 V a1 c 0 t)
            ∗ owns (c : Thread nD τ) (stg27 a1 1 t) fullShare (O c t)
            ∗ (∃ f : Buf (Elt F) ((c : Thread nD τ).loc cc27_scratch0), ((c : Thread nD τ).loc cc27_scratch0) ↦{fullShare} f)
            ∗ Pipeline.ownSems0 (Ix := Unit) (Name := ℕ) (U := UD sig nD τ) (Lvl := ℕ) (Val := Elt F) (τ := τ) osem27 c
            ∗ (((c : Thread nD τ).loc main_v114) ↦{fullShare} a1.1 0)
            ∗ (((c : Thread nD τ).loc main_v72) ↦{fullShare} V c main_v72)
            ∗ (∃ W', owes (c : Thread nD τ) (0 : CellTallies nD τ sig Unit) W')) -∗ K ⟨⟩))
      ⊢ wp frame (wpE (defs₀ (F := F)) Variants.none c none) Set.univ (bodyProg27 a1 t) K

/-- What the body is called with at point t, the windows one by one, -/
def bodyPre27 (c : Dev nD) (t : Fin (cfg27 a1).N) : sProp 𝕄 :=
  iprop((dat27 V a1 O c).Φ t.castSucc ∗ (dat27 V a1 O c).owesAt () t.castSucc
    ∗ (∃ d, owns (c : Thread nD τ) (stg27 a1 0 t) fullShare ((dat27 V a1 O c).before 0 t d))
    ∗ (∃ d, owns (c : Thread nD τ) (stg27 a1 1 t) fullShare ((dat27 V a1 O c).before 1 t d)))

/-- and what it returns. -/
def bodyPost27 (c : Dev nD) (t : Fin (cfg27 a1).N) : sProp 𝕄 :=
  iprop((dat27 V a1 O c).Φ t.succ ∗ (dat27 V a1 O c).owesAt () t.succ
    ∗ owns (c : Thread nD τ) (stg27 a1 0 t) fullShare ((dat27 V a1 O c).after 0 t)
    ∗ owns (c : Thread nD τ) (stg27 a1 1 t) fullShare ((dat27 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body27 (hrun : BodyRun27 V a1 O) (c : Dev nD) (t : Fin (cfg27 a1).N) :
    bodyPre27 V a1 O c t
      ⊢ wp frame (wpE (defs₀ (F := F)) Variants.none c none) Set.univ (bodyProg27 a1 t) (fun _ => bodyPost27 V a1 O c t) := by
  unfold bodyPre27 bodyPost27
  simp only [beforeIn27]
  rw [afterIn27, afterOut27, Phi_eq27, Phi_eq27, PhiD_eq27, prefHeld_eq27]
  unfold Dat.owesAt Pipeline.owesWithin
  rw [owed_eq27, owed_eq27]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation27 (hrun : BodyRun27 V a1 O) (c : Dev nD) :
    BodyObligation (dat27 (F := F) V a1 O c) (defs₀ (F := F)) Variants.none () Set.univ := fun t => by
  rw [bigSep_W27, bigSep_W27]
  exact sound_body27 V a1 O hrun c t

end Data

/-! ## The region's record -/

section Record

variable (Win : Dev nD → Valuation τ sig (Elt F))

variable (a1 : (pcfg27 (F := F)).Adm)
  (O : (c : Dev nD) → Fin (cfg27 a1).N → Vec F S8x64 .f32)

/-- The buffers at the region's exit: its arrays at what the write-backs leave, every other buffer as entered. -/
def Wout27 (c : Dev nD) : Valuation τ sig (Elt F) :=
  Pipeline.withArrays spec27 c (Win c) fun w => (dat27 (Vof Win) a1 O c).arrAt w (cfg27 a1).N

theorem Wout27_arr (c : Dev nD) (w : Fin (cfg27 a1).W) :
    Wout27 Win a1 O c (Proc.devRef .tc (Pipeline.arrRef spec27 w)) = (dat27 (Vof Win) a1 O c).arrAt w (cfg27 a1).N := by
  unfold Wout27; exact Pipeline.withArrays_arr spec27 winFacts27.arr_inj c _ _ w

theorem Wout27_of_ne (c : Dev nD) (b : Ref sig .tc) (hb : ∀ w, Pipeline.arrRef spec27 w ≠ b) :
    Wout27 Win a1 O c (Proc.devRef .tc b) = Win c (Proc.devRef .tc b) := by
  unfold Wout27; exact Pipeline.withArrays_of_ne spec27 c _ _ b hb

/-- ENTRY, the buffers' part. Every unscoped buffer at Win is: the region's arrays at the proof data's entry contents,
    the table whole at the admissible contents (which are Win's there), the far operand whole, and the others. -/
theorem entry27 (c : Dev nD) (ha1 : ∀ k, Vof Win c (pre27.ref k) = a1.1 k) :
    (StableHlo.held (c : Thread nD τ) (Pipeline.ucRefs τ sig) (Win c) : sProp 𝕄)
      ⊢ iprop((dat27 (Vof Win) a1 O c).arrays ((dat27 (Vof Win) a1 O c).arrAt · 0)
          ∗ Pipeline.prefHeld pre27 c (fun _ => fullShare) a1.1
          ∗ (bigSep ({main_v72} : Finset (Ref sig .tc)) fun b => (((c : Thread nD τ)).loc b) ↦{fullShare} Vof Win c b)
          ∗ bigSep (Pipeline.restRefsP sig pre27 spec27 \ {main_v72}) fun b => (((c : Thread nD τ)).loc b) ↦{fullShare} Vof Win c b) := by
  have hsplit := Pipeline.arrays_of_unscopedBufs (p := ()) (fun (_ : Unit) => pcfg27 (F := F)) (fun _ => a1)
    (fun _ c => dat27 (Vof Win) a1 O c) winFacts27 (launch27 (F := F)).arr_whole c
    ((dat27 (Vof Win) a1 O c).share_full fun _ => rfl) (Vof Win c) (fun w => A_eq27 (Vof Win) a1 O c w)
  rw [Pipeline.unscopedBufs_held,
    Pipeline.unscopedRest_split (Ix := Unit) (Name := ℕ) (U := UD sig nD τ) (Lvl := ℕ) preFacts27 c (Vof Win c),
    Pipeline.unscopedRestP_sdiff pre27 spec27 {main_v72} hx_sub27 c (Vof Win c),
    show (fun k => Vof Win c (pre27.ref k)) = a1.1 from funext ha1] at hsplit
  exact hsplit

/-- EXIT, the buffers' part: the same four put back, the arrays at what the write-backs leave, are every unscoped
    buffer at the exit valuation. -/
theorem exit27 (c : Dev nD) (ha1 : ∀ k, Vof Win c (pre27.ref k) = a1.1 k) :
    iprop((dat27 (Vof Win) a1 O c).arrays ((dat27 (Vof Win) a1 O c).arrAt · (cfg27 a1).N)
        ∗ Pipeline.prefHeld pre27 c (fun _ => fullShare) a1.1
        ∗ (bigSep ({main_v72} : Finset (Ref sig .tc)) fun b => (((c : Thread nD τ)).loc b) ↦{fullShare} Vof Win c b)
        ∗ bigSep (Pipeline.restRefsP sig pre27 spec27 \ {main_v72}) fun b => (((c : Thread nD τ)).loc b) ↦{fullShare} Vof Win c b)
      ⊢ (StableHlo.held (c : Thread nD τ) (Pipeline.ucRefs τ sig) (Wout27 Win a1 O c) : sProp 𝕄) := by
  have hjoin := Pipeline.unscopedBufs_of_arrays (p := ()) (fun (_ : Unit) => pcfg27 (F := F)) (fun _ => a1)
    (Ix := Unit) (Name := ℕ) (U := UD sig nD τ) (Lvl := ℕ)
    winFacts27 (launch27 (F := F)).arr_whole c (fun _ c => dat27 (Vof Win) a1 O c)
    ((dat27 (Vof Win) a1 O c).share_full fun _ => rfl)
    (Vof Win c) (Vof (Wout27 Win a1 O) c) ((dat27 (Vof Win) a1 O c).arrAt · (cfg27 a1).N)
    (fun w => (Wout27_arr Win a1 O c w).symm)
    (fun b hb => Wout27_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts27 c (Vof Win c),
    Pipeline.unscopedRestP_sdiff pre27 spec27 {main_v72} hx_sub27 c (Vof Win c),
    show (fun k => Vof Win c (pre27.ref k)) = a1.1 from funext ha1] at hjoin
  exact hjoin

end Record

section Seg

variable (Win : Dev nD → Valuation τ sig (Elt F))
  (adm : (p : Fin 49) → (pcfgs (F := F) p).Adm)
  (O : (c : Dev nD) → Fin (cfg27 (adm (27 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout27. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg27 (hd : ∀ c, pdats (27 : Fin 49) c = dat27 (Vof Win) (adm (27 : Fin 49)) O c)
    (ha1 : ∀ c k, Vof Win c (pre27.ref k) = (adm (27 : Fin 49)).1 k)
    (hbody : ∀ c, BodyObligation (dat27 (F := F) (Vof Win) (adm (27 : Fin 49)) O c) (defs₀ (F := F)) 𝒱₀ () Set.univ) :
    Pipeline.RegionSeg (pcfgs (F := F)) adm pdats () defs₀ 𝒱₀ L lv (27 : Fin 49) where
  win := (launch27 (F := F)).win.to₀
  block_pos := (launch27 (F := F)).block_pos
  stage_whole := (launch27 (F := F)).stage_whole
  K := Fin 8
  osem := osem27
  ho := ownSemFacts27
  hbody c := by rw [hd c]; exact (hbody c).loose
  hwaits := Pipeline.hwaits_of_owed_zero _ _ _ _ L lv (27 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout27 Win (adm (27 : Fin 49)) O c) ∗ R c)
  X c := iprop((∃ r, prngReg c r)
    ∗ Pipeline.ownSems0 (Ix := Unit) (Name := ℕ) (U := UD sig nD τ) (Lvl := ℕ) (Val := Elt F) (τ := τ) osem27 c
    ∗ (bigSep ({main_v72} : Finset (Ref sig .tc)) fun b => (((c : Thread nD τ)).loc b) ↦{fullShare} Vof Win c b))
  Y c := iprop((∃ r, prngReg c r)
    ∗ (bigSep ({main_v72} : Finset (Ref sig .tc)) fun b => (((c : Thread nD τ)).loc b) ↦{fullShare} Vof Win c b)
    ∗ Pipeline.prefHeld pre27 c (fun _ => fullShare) (adm (27 : Fin 49)).1)
  Z c := bigSep (Pipeline.restRefsP sig pre27 spec27 \ {main_v72}) fun b => (((c : Thread nD τ)).loc b) ↦{fullShare} Vof Win c b
  hentry c := by
    rw [hd c]
    iintro ⟨⟨Hub, Hp, HO⟩, Hos, -⟩
    ihave H := (entry27 Win (adm (27 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq27, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq27, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit27 Win (adm (27 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg27 (F := F)).Adm)

/-- The output block at point t: the gathered rows (of the far operand's contents under V, chosen by the table's
    words at that point) times the input block. -/
def outBlk27 (c : Dev nD) (t : Fin (cfg27 a1).N) : Vec F S8x64 .f32 :=
  gatherOut (gatherG (a1.1 0) (V c main_v72) (grid27.coords t)) (iblk27 V a1 c 0 t)

theorem outBlk_eq27 (c : Dev nD) (t : Fin (cfg27 a1).N) :
    outBlk27 V a1 c t = gatherOut (gatherG (a1.1 0) (V c main_v72) (grid27.coords t)) (iblk27 V a1 c 0 t) := rfl

/-- The proof data with the output block named: after the body at point t the output window's buffer holds it. -/
theorem afterOutBlk27 (c : Dev nD) (t : Fin (cfg27 a1).N) :
    (dat27 V a1 (outBlk27 V a1) c).after 1 t
      = gatherOut (gatherG (a1.1 0) (V c main_v72) (grid27.coords t)) (iblk27 V a1 c 0 t) :=
  afterOut27 V a1 (outBlk27 V a1) c t

/-- The own cells at zero are the semaphore array's eight entries at zero, in order. -/
theorem ownSems_eq27 (c : Dev nD) :
    (Pipeline.ownSems0 (Ix := Unit) (Name := ℕ) (U := UD sig nD τ) (Lvl := ℕ) (Val := Elt F) (τ := τ) osem27 c : sProp 𝕄)
      = gsems0 c cc27_scratch1 := by
  rw [Pipeline.ownSems0_eq_of_list c osem27 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq27 (t : Fin (cfg27 a1).N) : ∃ h3 h4, bodyProg27 (F := F) a1 t
    = cc27__gather_mul_kernel (grid27.coords t) (Memref.whole main_v114) (Memref.isWhole_whole _) (Memref.whole main_v72) (Memref.isWhole_whole _)
        (stg27 a1 0 t) h3 (stg27 a1 1 t) h4 (Memref.whole cc27_scratch0) (Memref.isWhole_whole _) cc27_scratch1 := ⟨_, _, rfl⟩

end Out

/-! ## The body's run, joined to the proof data -/

section Body

variable (V : (c : Dev nD) → (b : Ref sig .tc) → Buf (Elt F) ((c : Thread nD τ).loc b))
  (a1 : (pcfg27 (F := F)).Adm)

/-- The scratch buffer whole at some contents, as a memref owned at some contents. -/
theorem scratchOwns_eq27 (c : Dev nD) :
    (iprop(∃ d, owns (c : Thread nD τ) (Memref.whole cc27_scratch0) fullShare d) : sProp 𝕄)
      = iprop(∃ f : Buf (Elt F) ((c : Thread nD τ).loc cc27_scratch0), ((c : Thread nD τ).loc cc27_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun27 (hlt : ∀ y, BitVec.toNat ((a1.1 0) y) < 100000) : BodyRun27 V a1 (outBlk27 V a1) := by
  intro c t W K
  obtain ⟨h3, h4, hprog⟩ := bodyProg_eq27 (F := F) a1 t
  rw [hprog, ownSems_eq27, ← scratchOwns_eq27 (F := F) c]
  have hrun := gather_kernel_run_27 (F := F) c (grid27.coords t) (Memref.whole main_v114) (Memref.isWhole_whole _) (Memref.whole main_v72) (Memref.isWhole_whole _)
    (stg27 a1 0 t) h3 (stg27 a1 1 t) h4 (Memref.whole cc27_scratch0) (Memref.isWhole_whole _) cc27_scratch1 fullShare fullShare
    (a1.1 0) (V c main_v72) (iblk27 V a1 c 0 t) (fun y => hlt y) W K
  simp only [Memref.view_whole, View.read_whole] at hrun
  unfold outBlk27
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut27 (hlt : ∀ y, BitVec.toNat ((a1.1 0) y) < 100000) (c : Dev nD) :
    BodyObligation (dat27 (F := F) V a1 (outBlk27 V a1) c) (defs₀ (F := F)) Variants.none () Set.univ :=
  body_obligation27 V a1 (outBlk27 V a1) (bodyRun27 V a1 hlt) c

end Body

/-! # Region 28 -/

/-! ## The body's own transfer cells -/

/-- The eight cells of the body's semaphore array, in order. -/
abbrev osem28 : Fin 8 → SemLoc sig := fun j => SemLoc.dma (cc28_scratch1.ix (fun | ⟨0, _⟩ => j))

/-- They are scoped, pairwise distinct, and none is a staging cell of a window. -/
theorem ownSemFacts28 : Pipeline.OwnSemFacts spec28 osem28 := by decide

/-- The far operand is an unscoped buffer that is neither a window's array nor a table. -/
theorem hx_sub28 : ({main_v72} : Finset (Ref sig .tc)) ⊆ Pipeline.restRefsP sig pre28 spec28 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg28 (F := F)).Adm)
  (O : (c : Dev nD) → Fin (cfg28 a1).N → Vec F S8x64 .f32)

/-! ## The windows' blocks -/

/-- Window w's block at point t, read off its array under V. -/
def iblk28 (c : Dev nD) (w : Fin (cfg28 a1).W) (t : Fin (cfg28 a1).N) :
    (((cfg28 a1).win w).xblock ((cfg28 a1).grid.coords t)).Idx → Elt F ((cfg28 a1).win w).elt :=
  (((cfg28 a1).win w).blk t).view.read (Elt F) (V c (Pipeline.arrRef spec28 w))

/-- The input window's current staging buffer holds its block at every point, fetched there or not, for any proof
    data whose array is V's and whose body leaves the block in place: unfetched, the block index has not moved. -/
theorem beforeIn28_of {c : Dev nD} (dat : Dat τ (Elt F) Unit ℕ (UD sig nD τ) ℕ (cfg28 a1) c)
    (hA : dat.A 0 = V c (Pipeline.arrRef spec28 0))
    (hafter : ∀ t, dat.after 0 t = iblk28 V a1 c 0 t) (t : Fin (cfg28 a1).N) (d) : dat.before 0 t d = iblk28 V a1 c 0 t :=
  (dat.before_in_eq_fetched 0 rfl (fun _ => rfl) (fun _ _ _ => rfl)
    (fun t => by rw [hafter]; unfold Dat.blockOf iblk28; rw [hA]; try rfl) t d).trans
    (by unfold Dat.fetched Dat.blockOf iblk28; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat28 (c : Dev nD) : Dat τ (Elt F) Unit ℕ (UD sig nD τ) ℕ (cfg28 a1) c where
  A w := V c (Pipeline.arrRef spec28 w)
  after w t := match w with
    | ⟨0, _⟩ => iblk28 V a1 c 0 t
    | ⟨1, _⟩ => O c t
  Φ _ := iprop(Pipeline.ΦD osem28 spec28 {main_v72} V c ∗ Pipeline.prefHeld pre28 c (fun _ => fullShare) a1.1)
  q _ := fullShare
  owed _ := 0

theorem A_eq28 (c : Dev nD) (w : Fin (cfg28 a1).W) : (dat28 V a1 O c).A w = V c (Pipeline.arrRef spec28 w) := by
  dsimp only [dat28]

theorem afterIn28 (c : Dev nD) (t : Fin (cfg28 a1).N) : (dat28 V a1 O c).after 0 t = iblk28 V a1 c 0 t := by
  dsimp only [dat28]; rfl

theorem afterOut28 (c : Dev nD) (t : Fin (cfg28 a1).N) :
    (dat28 V a1 O c).after 1 t = O c t := by
  dsimp only [dat28]; rfl

theorem beforeIn28 (c : Dev nD) (t : Fin (cfg28 a1).N) (d) : (dat28 V a1 O c).before 0 t d = iblk28 V a1 c 0 t :=
  beforeIn28_of V a1 (dat28 V a1 O c) (A_eq28 V a1 O c 0) (afterIn28 V a1 O c) t d

theorem Phi_eq28 (c : Dev nD) (t : Fin ((cfg28 a1).N + 1)) :
    (dat28 V a1 O c).Φ t
      = iprop(Pipeline.ΦD osem28 spec28 {main_v72} V c ∗ Pipeline.prefHeld pre28 c (fun _ => fullShare) a1.1) := by
  dsimp only [dat28]

theorem owed_eq28 (c : Dev nD) (t : Fin ((cfg28 a1).N + 1)) : (dat28 V a1 O c).owed t = 0 := by
  dsimp only [dat28]

/-! ## The invariant, conjunct by conjunct -/

/-- The invariant's first part opened: the body's scratch buffer whole at some contents and the other scoped
    buffers no window stages, the generator register, the own cells at zero, the far operand at its contents. -/
theorem PhiD_eq28 (c : Dev nD) :
    (Pipeline.ΦD osem28 spec28 {main_v72} V c : sProp 𝕄)
      = iprop(iprop(iprop((∃ f : Buf (Elt F) ((c : Thread nD τ).loc cc28_scratch0), ((c : Thread nD τ).loc cc28_scratch0) ↦{fullShare} f))
            ∗ Pipeline.scopedRestBut (Ix := Unit) (Name := ℕ) (U := UD sig nD τ) (Lvl := ℕ) (Val := Elt F) spec28 c [cc28_scratch0])
          ∗ (∃ r, prngReg c r)
          ∗ Pipeline.ownSems0 (Ix := Unit) (Name := ℕ) (U := UD sig nD τ) (Lvl := ℕ) (Val := Elt F) (τ := τ) osem28 c
          ∗ (((c : Thread nD τ).loc main_v72) ↦{fullShare} V c main_v72)) := by
  rw [Pipeline.ΦD_eq, scopedRest28_split, BI.bigSep_eq_bigSepL_of_eq [main_v72] (by decide) (by decide)]; rfl

/-- The one table, held whole. -/
theorem prefHeld_eq28 (c : Dev nD) :
    (Pipeline.prefHeld pre28 c (fun _ => fullShare) a1.1 : sProp 𝕄)
      = (((c : Thread nD τ).loc main_v118) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg28 (w : Fin (cfg28 a1).W) (t : Fin (cfg28 a1).N) := ((cfg28 a1).win w).stage ((cfg28 a1).slots t w)

/-- The body as the pipeline calls it at point t. -/
abbrev bodyProg28 (t : Fin (cfg28 a1).N) : Prog (TpuEff nD τ sig (Elt F) Λ₀ .tc) PUnit :=
  (defs₀ (F := F)) .tc (cfg28 a1).body ((cfg28 a1).bodyArgs t ((cfg28 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun28 : Prop :=
  ∀ (c : Dev nD) (t : Fin (cfg28 a1).N) (W) (K : PUnit → sProp 𝕄),
    iprop(owns (c : Thread nD τ) (stg28 a1 0 t) fullShare (iblk28 V a1 c 0 t)
        ∗ (∃ d, owns (c : Thread nD τ) (stg28 a1 1 t) fullShare d)
        ∗ (∃ f : Buf (Elt F) ((c : Thread nD τ).loc cc28_scratch0), ((c : Thread nD τ).loc cc28_scratch0) ↦{fullShare} f)
        ∗ Pipeline.ownSems0 (Ix := Unit) (Name := ℕ) (U := UD sig nD τ) (Lvl := ℕ) (Val := Elt F) (τ := τ) osem28 c
        ∗ (((c : Thread nD τ).loc main_v118) ↦{fullShare} a1.1 0)
        ∗ (((c : Thread nD τ).loc main_v72) ↦{fullShare} V c main_v72)
        ∗ owes (c : Thread nD τ) (0 : CellTallies nD τ sig Unit) W
        ∗ (iprop(owns (c : Thread nD τ) (stg28 a1 0 t) fullShare (iblk28 V a1 c 0 t)
            ∗ owns (c : Thread nD τ) (stg28 a1 1 t) fullShare (O c t)
            ∗ (∃ f : Buf (Elt F) ((c : Thread nD τ).loc cc28_scratch0), ((c : Thread nD τ).loc cc28_scratch0) ↦{fullShare} f)
            ∗ Pipeline.ownSems0 (Ix := Unit) (Name := ℕ) (U := UD sig nD τ) (Lvl := ℕ) (Val := Elt F) (τ := τ) osem28 c
            ∗ (((c : Thread nD τ).loc main_v118) ↦{fullShare} a1.1 0)
            ∗ (((c : Thread nD τ).loc main_v72) ↦{fullShare} V c main_v72)
            ∗ (∃ W', owes (c : Thread nD τ) (0 : CellTallies nD τ sig Unit) W')) -∗ K ⟨⟩))
      ⊢ wp frame (wpE (defs₀ (F := F)) Variants.none c none) Set.univ (bodyProg28 a1 t) K

/-- What the body is called with at point t, the windows one by one, -/
def bodyPre28 (c : Dev nD) (t : Fin (cfg28 a1).N) : sProp 𝕄 :=
  iprop((dat28 V a1 O c).Φ t.castSucc ∗ (dat28 V a1 O c).owesAt () t.castSucc
    ∗ (∃ d, owns (c : Thread nD τ) (stg28 a1 0 t) fullShare ((dat28 V a1 O c).before 0 t d))
    ∗ (∃ d, owns (c : Thread nD τ) (stg28 a1 1 t) fullShare ((dat28 V a1 O c).before 1 t d)))

/-- and what it returns. -/
def bodyPost28 (c : Dev nD) (t : Fin (cfg28 a1).N) : sProp 𝕄 :=
  iprop((dat28 V a1 O c).Φ t.succ ∗ (dat28 V a1 O c).owesAt () t.succ
    ∗ owns (c : Thread nD τ) (stg28 a1 0 t) fullShare ((dat28 V a1 O c).after 0 t)
    ∗ owns (c : Thread nD τ) (stg28 a1 1 t) fullShare ((dat28 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body28 (hrun : BodyRun28 V a1 O) (c : Dev nD) (t : Fin (cfg28 a1).N) :
    bodyPre28 V a1 O c t
      ⊢ wp frame (wpE (defs₀ (F := F)) Variants.none c none) Set.univ (bodyProg28 a1 t) (fun _ => bodyPost28 V a1 O c t) := by
  unfold bodyPre28 bodyPost28
  simp only [beforeIn28]
  rw [afterIn28, afterOut28, Phi_eq28, Phi_eq28, PhiD_eq28, prefHeld_eq28]
  unfold Dat.owesAt Pipeline.owesWithin
  rw [owed_eq28, owed_eq28]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation28 (hrun : BodyRun28 V a1 O) (c : Dev nD) :
    BodyObligation (dat28 (F := F) V a1 O c) (defs₀ (F := F)) Variants.none () Set.univ := fun t => by
  rw [bigSep_W28, bigSep_W28]
  exact sound_body28 V a1 O hrun c t

end Data

/-! ## The region's record -/

section Record

variable (Win : Dev nD → Valuation τ sig (Elt F))

variable (a1 : (pcfg28 (F := F)).Adm)
  (O : (c : Dev nD) → Fin (cfg28 a1).N → Vec F S8x64 .f32)

/-- The buffers at the region's exit: its arrays at what the write-backs leave, every other buffer as entered. -/
def Wout28 (c : Dev nD) : Valuation τ sig (Elt F) :=
  Pipeline.withArrays spec28 c (Win c) fun w => (dat28 (Vof Win) a1 O c).arrAt w (cfg28 a1).N

theorem Wout28_arr (c : Dev nD) (w : Fin (cfg28 a1).W) :
    Wout28 Win a1 O c (Proc.devRef .tc (Pipeline.arrRef spec28 w)) = (dat28 (Vof Win) a1 O c).arrAt w (cfg28 a1).N := by
  unfold Wout28; exact Pipeline.withArrays_arr spec28 winFacts28.arr_inj c _ _ w

theorem Wout28_of_ne (c : Dev nD) (b : Ref sig .tc) (hb : ∀ w, Pipeline.arrRef spec28 w ≠ b) :
    Wout28 Win a1 O c (Proc.devRef .tc b) = Win c (Proc.devRef .tc b) := by
  unfold Wout28; exact Pipeline.withArrays_of_ne spec28 c _ _ b hb

/-- ENTRY, the buffers' part. Every unscoped buffer at Win is: the region's arrays at the proof data's entry contents,
    the table whole at the admissible contents (which are Win's there), the far operand whole, and the others. -/
theorem entry28 (c : Dev nD) (ha1 : ∀ k, Vof Win c (pre28.ref k) = a1.1 k) :
    (StableHlo.held (c : Thread nD τ) (Pipeline.ucRefs τ sig) (Win c) : sProp 𝕄)
      ⊢ iprop((dat28 (Vof Win) a1 O c).arrays ((dat28 (Vof Win) a1 O c).arrAt · 0)
          ∗ Pipeline.prefHeld pre28 c (fun _ => fullShare) a1.1
          ∗ (bigSep ({main_v72} : Finset (Ref sig .tc)) fun b => (((c : Thread nD τ)).loc b) ↦{fullShare} Vof Win c b)
          ∗ bigSep (Pipeline.restRefsP sig pre28 spec28 \ {main_v72}) fun b => (((c : Thread nD τ)).loc b) ↦{fullShare} Vof Win c b) := by
  have hsplit := Pipeline.arrays_of_unscopedBufs (p := ()) (fun (_ : Unit) => pcfg28 (F := F)) (fun _ => a1)
    (fun _ c => dat28 (Vof Win) a1 O c) winFacts28 (launch28 (F := F)).arr_whole c
    ((dat28 (Vof Win) a1 O c).share_full fun _ => rfl) (Vof Win c) (fun w => A_eq28 (Vof Win) a1 O c w)
  rw [Pipeline.unscopedBufs_held,
    Pipeline.unscopedRest_split (Ix := Unit) (Name := ℕ) (U := UD sig nD τ) (Lvl := ℕ) preFacts28 c (Vof Win c),
    Pipeline.unscopedRestP_sdiff pre28 spec28 {main_v72} hx_sub28 c (Vof Win c),
    show (fun k => Vof Win c (pre28.ref k)) = a1.1 from funext ha1] at hsplit
  exact hsplit

/-- EXIT, the buffers' part: the same four put back, the arrays at what the write-backs leave, are every unscoped
    buffer at the exit valuation. -/
theorem exit28 (c : Dev nD) (ha1 : ∀ k, Vof Win c (pre28.ref k) = a1.1 k) :
    iprop((dat28 (Vof Win) a1 O c).arrays ((dat28 (Vof Win) a1 O c).arrAt · (cfg28 a1).N)
        ∗ Pipeline.prefHeld pre28 c (fun _ => fullShare) a1.1
        ∗ (bigSep ({main_v72} : Finset (Ref sig .tc)) fun b => (((c : Thread nD τ)).loc b) ↦{fullShare} Vof Win c b)
        ∗ bigSep (Pipeline.restRefsP sig pre28 spec28 \ {main_v72}) fun b => (((c : Thread nD τ)).loc b) ↦{fullShare} Vof Win c b)
      ⊢ (StableHlo.held (c : Thread nD τ) (Pipeline.ucRefs τ sig) (Wout28 Win a1 O c) : sProp 𝕄) := by
  have hjoin := Pipeline.unscopedBufs_of_arrays (p := ()) (fun (_ : Unit) => pcfg28 (F := F)) (fun _ => a1)
    (Ix := Unit) (Name := ℕ) (U := UD sig nD τ) (Lvl := ℕ)
    winFacts28 (launch28 (F := F)).arr_whole c (fun _ c => dat28 (Vof Win) a1 O c)
    ((dat28 (Vof Win) a1 O c).share_full fun _ => rfl)
    (Vof Win c) (Vof (Wout28 Win a1 O) c) ((dat28 (Vof Win) a1 O c).arrAt · (cfg28 a1).N)
    (fun w => (Wout28_arr Win a1 O c w).symm)
    (fun b hb => Wout28_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts28 c (Vof Win c),
    Pipeline.unscopedRestP_sdiff pre28 spec28 {main_v72} hx_sub28 c (Vof Win c),
    show (fun k => Vof Win c (pre28.ref k)) = a1.1 from funext ha1] at hjoin
  exact hjoin

end Record

section Seg

variable (Win : Dev nD → Valuation τ sig (Elt F))
  (adm : (p : Fin 49) → (pcfgs (F := F) p).Adm)
  (O : (c : Dev nD) → Fin (cfg28 (adm (28 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout28. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg28 (hd : ∀ c, pdats (28 : Fin 49) c = dat28 (Vof Win) (adm (28 : Fin 49)) O c)
    (ha1 : ∀ c k, Vof Win c (pre28.ref k) = (adm (28 : Fin 49)).1 k)
    (hbody : ∀ c, BodyObligation (dat28 (F := F) (Vof Win) (adm (28 : Fin 49)) O c) (defs₀ (F := F)) 𝒱₀ () Set.univ) :
    Pipeline.RegionSeg (pcfgs (F := F)) adm pdats () defs₀ 𝒱₀ L lv (28 : Fin 49) where
  win := (launch28 (F := F)).win.to₀
  block_pos := (launch28 (F := F)).block_pos
  stage_whole := (launch28 (F := F)).stage_whole
  K := Fin 8
  osem := osem28
  ho := ownSemFacts28
  hbody c := by rw [hd c]; exact (hbody c).loose
  hwaits := Pipeline.hwaits_of_owed_zero _ _ _ _ L lv (28 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout28 Win (adm (28 : Fin 49)) O c) ∗ R c)
  X c := iprop((∃ r, prngReg c r)
    ∗ Pipeline.ownSems0 (Ix := Unit) (Name := ℕ) (U := UD sig nD τ) (Lvl := ℕ) (Val := Elt F) (τ := τ) osem28 c
    ∗ (bigSep ({main_v72} : Finset (Ref sig .tc)) fun b => (((c : Thread nD τ)).loc b) ↦{fullShare} Vof Win c b))
  Y c := iprop((∃ r, prngReg c r)
    ∗ (bigSep ({main_v72} : Finset (Ref sig .tc)) fun b => (((c : Thread nD τ)).loc b) ↦{fullShare} Vof Win c b)
    ∗ Pipeline.prefHeld pre28 c (fun _ => fullShare) (adm (28 : Fin 49)).1)
  Z c := bigSep (Pipeline.restRefsP sig pre28 spec28 \ {main_v72}) fun b => (((c : Thread nD τ)).loc b) ↦{fullShare} Vof Win c b
  hentry c := by
    rw [hd c]
    iintro ⟨⟨Hub, Hp, HO⟩, Hos, -⟩
    ihave H := (entry28 Win (adm (28 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq28, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq28, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit28 Win (adm (28 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg28 (F := F)).Adm)

/-- The output block at point t: the gathered rows (of the far operand's contents under V, chosen by the table's
    words at that point) times the input block. -/
def outBlk28 (c : Dev nD) (t : Fin (cfg28 a1).N) : Vec F S8x64 .f32 :=
  gatherOut (gatherG (a1.1 0) (V c main_v72) (grid28.coords t)) (iblk28 V a1 c 0 t)

theorem outBlk_eq28 (c : Dev nD) (t : Fin (cfg28 a1).N) :
    outBlk28 V a1 c t = gatherOut (gatherG (a1.1 0) (V c main_v72) (grid28.coords t)) (iblk28 V a1 c 0 t) := rfl

/-- The proof data with the output block named: after the body at point t the output window's buffer holds it. -/
theorem afterOutBlk28 (c : Dev nD) (t : Fin (cfg28 a1).N) :
    (dat28 V a1 (outBlk28 V a1) c).after 1 t
      = gatherOut (gatherG (a1.1 0) (V c main_v72) (grid28.coords t)) (iblk28 V a1 c 0 t) :=
  afterOut28 V a1 (outBlk28 V a1) c t

/-- The own cells at zero are the semaphore array's eight entries at zero, in order. -/
theorem ownSems_eq28 (c : Dev nD) :
    (Pipeline.ownSems0 (Ix := Unit) (Name := ℕ) (U := UD sig nD τ) (Lvl := ℕ) (Val := Elt F) (τ := τ) osem28 c : sProp 𝕄)
      = gsems0 c cc28_scratch1 := by
  rw [Pipeline.ownSems0_eq_of_list c osem28 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq28 (t : Fin (cfg28 a1).N) : ∃ h3 h4, bodyProg28 (F := F) a1 t
    = cc28__gather_mul_kernel (grid28.coords t) (Memref.whole main_v118) (Memref.isWhole_whole _) (Memref.whole main_v72) (Memref.isWhole_whole _)
        (stg28 a1 0 t) h3 (stg28 a1 1 t) h4 (Memref.whole cc28_scratch0) (Memref.isWhole_whole _) cc28_scratch1 := ⟨_, _, rfl⟩

end Out

/-! ## The body's run, joined to the proof data -/

section Body

variable (V : (c : Dev nD) → (b : Ref sig .tc) → Buf (Elt F) ((c : Thread nD τ).loc b))
  (a1 : (pcfg28 (F := F)).Adm)

/-- The scratch buffer whole at some contents, as a memref owned at some contents. -/
theorem scratchOwns_eq28 (c : Dev nD) :
    (iprop(∃ d, owns (c : Thread nD τ) (Memref.whole cc28_scratch0) fullShare d) : sProp 𝕄)
      = iprop(∃ f : Buf (Elt F) ((c : Thread nD τ).loc cc28_scratch0), ((c : Thread nD τ).loc cc28_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun28 (hlt : ∀ y, BitVec.toNat ((a1.1 0) y) < 100000) : BodyRun28 V a1 (outBlk28 V a1) := by
  intro c t W K
  obtain ⟨h3, h4, hprog⟩ := bodyProg_eq28 (F := F) a1 t
  rw [hprog, ownSems_eq28, ← scratchOwns_eq28 (F := F) c]
  have hrun := gather_kernel_run_28 (F := F) c (grid28.coords t) (Memref.whole main_v118) (Memref.isWhole_whole _) (Memref.whole main_v72) (Memref.isWhole_whole _)
    (stg28 a1 0 t) h3 (stg28 a1 1 t) h4 (Memref.whole cc28_scratch0) (Memref.isWhole_whole _) cc28_scratch1 fullShare fullShare
    (a1.1 0) (V c main_v72) (iblk28 V a1 c 0 t) (fun y => hlt y) W K
  simp only [Memref.view_whole, View.read_whole] at hrun
  unfold outBlk28
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut28 (hlt : ∀ y, BitVec.toNat ((a1.1 0) y) < 100000) (c : Dev nD) :
    BodyObligation (dat28 (F := F) V a1 (outBlk28 V a1) c) (defs₀ (F := F)) Variants.none () Set.univ :=
  body_obligation28 V a1 (outBlk28 V a1) (bodyRun28 V a1 hlt) c

end Body

/-! # Region 29 -/

/-! ## The body's own transfer cells -/

/-- The eight cells of the body's semaphore array, in order. -/
abbrev osem29 : Fin 8 → SemLoc sig := fun j => SemLoc.dma (cc29_scratch1.ix (fun | ⟨0, _⟩ => j))

/-- They are scoped, pairwise distinct, and none is a staging cell of a window. -/
theorem ownSemFacts29 : Pipeline.OwnSemFacts spec29 osem29 := by decide

/-- The far operand is an unscoped buffer that is neither a window's array nor a table. -/
theorem hx_sub29 : ({main_v72} : Finset (Ref sig .tc)) ⊆ Pipeline.restRefsP sig pre29 spec29 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg29 (F := F)).Adm)
  (O : (c : Dev nD) → Fin (cfg29 a1).N → Vec F S8x64 .f32)

/-! ## The windows' blocks -/

/-- Window w's block at point t, read off its array under V. -/
def iblk29 (c : Dev nD) (w : Fin (cfg29 a1).W) (t : Fin (cfg29 a1).N) :
    (((cfg29 a1).win w).xblock ((cfg29 a1).grid.coords t)).Idx → Elt F ((cfg29 a1).win w).elt :=
  (((cfg29 a1).win w).blk t).view.read (Elt F) (V c (Pipeline.arrRef spec29 w))

/-- The input window's current staging buffer holds its block at every point, fetched there or not, for any proof
    data whose array is V's and whose body leaves the block in place: unfetched, the block index has not moved. -/
theorem beforeIn29_of {c : Dev nD} (dat : Dat τ (Elt F) Unit ℕ (UD sig nD τ) ℕ (cfg29 a1) c)
    (hA : dat.A 0 = V c (Pipeline.arrRef spec29 0))
    (hafter : ∀ t, dat.after 0 t = iblk29 V a1 c 0 t) (t : Fin (cfg29 a1).N) (d) : dat.before 0 t d = iblk29 V a1 c 0 t :=
  (dat.before_in_eq_fetched 0 rfl (fun _ => rfl) (fun _ _ _ => rfl)
    (fun t => by rw [hafter]; unfold Dat.blockOf iblk29; rw [hA]; try rfl) t d).trans
    (by unfold Dat.fetched Dat.blockOf iblk29; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat29 (c : Dev nD) : Dat τ (Elt F) Unit ℕ (UD sig nD τ) ℕ (cfg29 a1) c where
  A w := V c (Pipeline.arrRef spec29 w)
  after w t := match w with
    | ⟨0, _⟩ => iblk29 V a1 c 0 t
    | ⟨1, _⟩ => O c t
  Φ _ := iprop(Pipeline.ΦD osem29 spec29 {main_v72} V c ∗ Pipeline.prefHeld pre29 c (fun _ => fullShare) a1.1)
  q _ := fullShare
  owed _ := 0

theorem A_eq29 (c : Dev nD) (w : Fin (cfg29 a1).W) : (dat29 V a1 O c).A w = V c (Pipeline.arrRef spec29 w) := by
  dsimp only [dat29]

theorem afterIn29 (c : Dev nD) (t : Fin (cfg29 a1).N) : (dat29 V a1 O c).after 0 t = iblk29 V a1 c 0 t := by
  dsimp only [dat29]; rfl

theorem afterOut29 (c : Dev nD) (t : Fin (cfg29 a1).N) :
    (dat29 V a1 O c).after 1 t = O c t := by
  dsimp only [dat29]; rfl

theorem beforeIn29 (c : Dev nD) (t : Fin (cfg29 a1).N) (d) : (dat29 V a1 O c).before 0 t d = iblk29 V a1 c 0 t :=
  beforeIn29_of V a1 (dat29 V a1 O c) (A_eq29 V a1 O c 0) (afterIn29 V a1 O c) t d

theorem Phi_eq29 (c : Dev nD) (t : Fin ((cfg29 a1).N + 1)) :
    (dat29 V a1 O c).Φ t
      = iprop(Pipeline.ΦD osem29 spec29 {main_v72} V c ∗ Pipeline.prefHeld pre29 c (fun _ => fullShare) a1.1) := by
  dsimp only [dat29]

theorem owed_eq29 (c : Dev nD) (t : Fin ((cfg29 a1).N + 1)) : (dat29 V a1 O c).owed t = 0 := by
  dsimp only [dat29]

/-! ## The invariant, conjunct by conjunct -/

/-- The invariant's first part opened: the body's scratch buffer whole at some contents and the other scoped
    buffers no window stages, the generator register, the own cells at zero, the far operand at its contents. -/
theorem PhiD_eq29 (c : Dev nD) :
    (Pipeline.ΦD osem29 spec29 {main_v72} V c : sProp 𝕄)
      = iprop(iprop(iprop((∃ f : Buf (Elt F) ((c : Thread nD τ).loc cc29_scratch0), ((c : Thread nD τ).loc cc29_scratch0) ↦{fullShare} f))
            ∗ Pipeline.scopedRestBut (Ix := Unit) (Name := ℕ) (U := UD sig nD τ) (Lvl := ℕ) (Val := Elt F) spec29 c [cc29_scratch0])
          ∗ (∃ r, prngReg c r)
          ∗ Pipeline.ownSems0 (Ix := Unit) (Name := ℕ) (U := UD sig nD τ) (Lvl := ℕ) (Val := Elt F) (τ := τ) osem29 c
          ∗ (((c : Thread nD τ).loc main_v72) ↦{fullShare} V c main_v72)) := by
  rw [Pipeline.ΦD_eq, scopedRest29_split, BI.bigSep_eq_bigSepL_of_eq [main_v72] (by decide) (by decide)]; rfl

/-- The one table, held whole. -/
theorem prefHeld_eq29 (c : Dev nD) :
    (Pipeline.prefHeld pre29 c (fun _ => fullShare) a1.1 : sProp 𝕄)
      = (((c : Thread nD τ).loc main_v122) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg29 (w : Fin (cfg29 a1).W) (t : Fin (cfg29 a1).N) := ((cfg29 a1).win w).stage ((cfg29 a1).slots t w)

/-- The body as the pipeline calls it at point t. -/
abbrev bodyProg29 (t : Fin (cfg29 a1).N) : Prog (TpuEff nD τ sig (Elt F) Λ₀ .tc) PUnit :=
  (defs₀ (F := F)) .tc (cfg29 a1).body ((cfg29 a1).bodyArgs t ((cfg29 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun29 : Prop :=
  ∀ (c : Dev nD) (t : Fin (cfg29 a1).N) (W) (K : PUnit → sProp 𝕄),
    iprop(owns (c : Thread nD τ) (stg29 a1 0 t) fullShare (iblk29 V a1 c 0 t)
        ∗ (∃ d, owns (c : Thread nD τ) (stg29 a1 1 t) fullShare d)
        ∗ (∃ f : Buf (Elt F) ((c : Thread nD τ).loc cc29_scratch0), ((c : Thread nD τ).loc cc29_scratch0) ↦{fullShare} f)
        ∗ Pipeline.ownSems0 (Ix := Unit) (Name := ℕ) (U := UD sig nD τ) (Lvl := ℕ) (Val := Elt F) (τ := τ) osem29 c
        ∗ (((c : Thread nD τ).loc main_v122) ↦{fullShare} a1.1 0)
        ∗ (((c : Thread nD τ).loc main_v72) ↦{fullShare} V c main_v72)
        ∗ owes (c : Thread nD τ) (0 : CellTallies nD τ sig Unit) W
        ∗ (iprop(owns (c : Thread nD τ) (stg29 a1 0 t) fullShare (iblk29 V a1 c 0 t)
            ∗ owns (c : Thread nD τ) (stg29 a1 1 t) fullShare (O c t)
            ∗ (∃ f : Buf (Elt F) ((c : Thread nD τ).loc cc29_scratch0), ((c : Thread nD τ).loc cc29_scratch0) ↦{fullShare} f)
            ∗ Pipeline.ownSems0 (Ix := Unit) (Name := ℕ) (U := UD sig nD τ) (Lvl := ℕ) (Val := Elt F) (τ := τ) osem29 c
            ∗ (((c : Thread nD τ).loc main_v122) ↦{fullShare} a1.1 0)
            ∗ (((c : Thread nD τ).loc main_v72) ↦{fullShare} V c main_v72)
            ∗ (∃ W', owes (c : Thread nD τ) (0 : CellTallies nD τ sig Unit) W')) -∗ K ⟨⟩))
      ⊢ wp frame (wpE (defs₀ (F := F)) Variants.none c none) Set.univ (bodyProg29 a1 t) K

/-- What the body is called with at point t, the windows one by one, -/
def bodyPre29 (c : Dev nD) (t : Fin (cfg29 a1).N) : sProp 𝕄 :=
  iprop((dat29 V a1 O c).Φ t.castSucc ∗ (dat29 V a1 O c).owesAt () t.castSucc
    ∗ (∃ d, owns (c : Thread nD τ) (stg29 a1 0 t) fullShare ((dat29 V a1 O c).before 0 t d))
    ∗ (∃ d, owns (c : Thread nD τ) (stg29 a1 1 t) fullShare ((dat29 V a1 O c).before 1 t d)))

/-- and what it returns. -/
def bodyPost29 (c : Dev nD) (t : Fin (cfg29 a1).N) : sProp 𝕄 :=
  iprop((dat29 V a1 O c).Φ t.succ ∗ (dat29 V a1 O c).owesAt () t.succ
    ∗ owns (c : Thread nD τ) (stg29 a1 0 t) fullShare ((dat29 V a1 O c).after 0 t)
    ∗ owns (c : Thread nD τ) (stg29 a1 1 t) fullShare ((dat29 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body29 (hrun : BodyRun29 V a1 O) (c : Dev nD) (t : Fin (cfg29 a1).N) :
    bodyPre29 V a1 O c t
      ⊢ wp frame (wpE (defs₀ (F := F)) Variants.none c none) Set.univ (bodyProg29 a1 t) (fun _ => bodyPost29 V a1 O c t) := by
  unfold bodyPre29 bodyPost29
  simp only [beforeIn29]
  rw [afterIn29, afterOut29, Phi_eq29, Phi_eq29, PhiD_eq29, prefHeld_eq29]
  unfold Dat.owesAt Pipeline.owesWithin
  rw [owed_eq29, owed_eq29]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation29 (hrun : BodyRun29 V a1 O) (c : Dev nD) :
    BodyObligation (dat29 (F := F) V a1 O c) (defs₀ (F := F)) Variants.none () Set.univ := fun t => by
  rw [bigSep_W29, bigSep_W29]
  exact sound_body29 V a1 O hrun c t

end Data

/-! ## The region's record -/

section Record

variable (Win : Dev nD → Valuation τ sig (Elt F))

variable (a1 : (pcfg29 (F := F)).Adm)
  (O : (c : Dev nD) → Fin (cfg29 a1).N → Vec F S8x64 .f32)

/-- The buffers at the region's exit: its arrays at what the write-backs leave, every other buffer as entered. -/
def Wout29 (c : Dev nD) : Valuation τ sig (Elt F) :=
  Pipeline.withArrays spec29 c (Win c) fun w => (dat29 (Vof Win) a1 O c).arrAt w (cfg29 a1).N

theorem Wout29_arr (c : Dev nD) (w : Fin (cfg29 a1).W) :
    Wout29 Win a1 O c (Proc.devRef .tc (Pipeline.arrRef spec29 w)) = (dat29 (Vof Win) a1 O c).arrAt w (cfg29 a1).N := by
  unfold Wout29; exact Pipeline.withArrays_arr spec29 winFacts29.arr_inj c _ _ w

theorem Wout29_of_ne (c : Dev nD) (b : Ref sig .tc) (hb : ∀ w, Pipeline.arrRef spec29 w ≠ b) :
    Wout29 Win a1 O c (Proc.devRef .tc b) = Win c (Proc.devRef .tc b) := by
  unfold Wout29; exact Pipeline.withArrays_of_ne spec29 c _ _ b hb

/-- ENTRY, the buffers' part. Every unscoped buffer at Win is: the region's arrays at the proof data's entry contents,
    the table whole at the admissible contents (which are Win's there), the far operand whole, and the others. -/
theorem entry29 (c : Dev nD) (ha1 : ∀ k, Vof Win c (pre29.ref k) = a1.1 k) :
    (StableHlo.held (c : Thread nD τ) (Pipeline.ucRefs τ sig) (Win c) : sProp 𝕄)
      ⊢ iprop((dat29 (Vof Win) a1 O c).arrays ((dat29 (Vof Win) a1 O c).arrAt · 0)
          ∗ Pipeline.prefHeld pre29 c (fun _ => fullShare) a1.1
          ∗ (bigSep ({main_v72} : Finset (Ref sig .tc)) fun b => (((c : Thread nD τ)).loc b) ↦{fullShare} Vof Win c b)
          ∗ bigSep (Pipeline.restRefsP sig pre29 spec29 \ {main_v72}) fun b => (((c : Thread nD τ)).loc b) ↦{fullShare} Vof Win c b) := by
  have hsplit := Pipeline.arrays_of_unscopedBufs (p := ()) (fun (_ : Unit) => pcfg29 (F := F)) (fun _ => a1)
    (fun _ c => dat29 (Vof Win) a1 O c) winFacts29 (launch29 (F := F)).arr_whole c
    ((dat29 (Vof Win) a1 O c).share_full fun _ => rfl) (Vof Win c) (fun w => A_eq29 (Vof Win) a1 O c w)
  rw [Pipeline.unscopedBufs_held,
    Pipeline.unscopedRest_split (Ix := Unit) (Name := ℕ) (U := UD sig nD τ) (Lvl := ℕ) preFacts29 c (Vof Win c),
    Pipeline.unscopedRestP_sdiff pre29 spec29 {main_v72} hx_sub29 c (Vof Win c),
    show (fun k => Vof Win c (pre29.ref k)) = a1.1 from funext ha1] at hsplit
  exact hsplit

/-- EXIT, the buffers' part: the same four put back, the arrays at what the write-backs leave, are every unscoped
    buffer at the exit valuation. -/
theorem exit29 (c : Dev nD) (ha1 : ∀ k, Vof Win c (pre29.ref k) = a1.1 k) :
    iprop((dat29 (Vof Win) a1 O c).arrays ((dat29 (Vof Win) a1 O c).arrAt · (cfg29 a1).N)
        ∗ Pipeline.prefHeld pre29 c (fun _ => fullShare) a1.1
        ∗ (bigSep ({main_v72} : Finset (Ref sig .tc)) fun b => (((c : Thread nD τ)).loc b) ↦{fullShare} Vof Win c b)
        ∗ bigSep (Pipeline.restRefsP sig pre29 spec29 \ {main_v72}) fun b => (((c : Thread nD τ)).loc b) ↦{fullShare} Vof Win c b)
      ⊢ (StableHlo.held (c : Thread nD τ) (Pipeline.ucRefs τ sig) (Wout29 Win a1 O c) : sProp 𝕄) := by
  have hjoin := Pipeline.unscopedBufs_of_arrays (p := ()) (fun (_ : Unit) => pcfg29 (F := F)) (fun _ => a1)
    (Ix := Unit) (Name := ℕ) (U := UD sig nD τ) (Lvl := ℕ)
    winFacts29 (launch29 (F := F)).arr_whole c (fun _ c => dat29 (Vof Win) a1 O c)
    ((dat29 (Vof Win) a1 O c).share_full fun _ => rfl)
    (Vof Win c) (Vof (Wout29 Win a1 O) c) ((dat29 (Vof Win) a1 O c).arrAt · (cfg29 a1).N)
    (fun w => (Wout29_arr Win a1 O c w).symm)
    (fun b hb => Wout29_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts29 c (Vof Win c),
    Pipeline.unscopedRestP_sdiff pre29 spec29 {main_v72} hx_sub29 c (Vof Win c),
    show (fun k => Vof Win c (pre29.ref k)) = a1.1 from funext ha1] at hjoin
  exact hjoin

end Record

section Seg

variable (Win : Dev nD → Valuation τ sig (Elt F))
  (adm : (p : Fin 49) → (pcfgs (F := F) p).Adm)
  (O : (c : Dev nD) → Fin (cfg29 (adm (29 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout29. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg29 (hd : ∀ c, pdats (29 : Fin 49) c = dat29 (Vof Win) (adm (29 : Fin 49)) O c)
    (ha1 : ∀ c k, Vof Win c (pre29.ref k) = (adm (29 : Fin 49)).1 k)
    (hbody : ∀ c, BodyObligation (dat29 (F := F) (Vof Win) (adm (29 : Fin 49)) O c) (defs₀ (F := F)) 𝒱₀ () Set.univ) :
    Pipeline.RegionSeg (pcfgs (F := F)) adm pdats () defs₀ 𝒱₀ L lv (29 : Fin 49) where
  win := (launch29 (F := F)).win.to₀
  block_pos := (launch29 (F := F)).block_pos
  stage_whole := (launch29 (F := F)).stage_whole
  K := Fin 8
  osem := osem29
  ho := ownSemFacts29
  hbody c := by rw [hd c]; exact (hbody c).loose
  hwaits := Pipeline.hwaits_of_owed_zero _ _ _ _ L lv (29 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout29 Win (adm (29 : Fin 49)) O c) ∗ R c)
  X c := iprop((∃ r, prngReg c r)
    ∗ Pipeline.ownSems0 (Ix := Unit) (Name := ℕ) (U := UD sig nD τ) (Lvl := ℕ) (Val := Elt F) (τ := τ) osem29 c
    ∗ (bigSep ({main_v72} : Finset (Ref sig .tc)) fun b => (((c : Thread nD τ)).loc b) ↦{fullShare} Vof Win c b))
  Y c := iprop((∃ r, prngReg c r)
    ∗ (bigSep ({main_v72} : Finset (Ref sig .tc)) fun b => (((c : Thread nD τ)).loc b) ↦{fullShare} Vof Win c b)
    ∗ Pipeline.prefHeld pre29 c (fun _ => fullShare) (adm (29 : Fin 49)).1)
  Z c := bigSep (Pipeline.restRefsP sig pre29 spec29 \ {main_v72}) fun b => (((c : Thread nD τ)).loc b) ↦{fullShare} Vof Win c b
  hentry c := by
    rw [hd c]
    iintro ⟨⟨Hub, Hp, HO⟩, Hos, -⟩
    ihave H := (entry29 Win (adm (29 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq29, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq29, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit29 Win (adm (29 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg29 (F := F)).Adm)

/-- The output block at point t: the gathered rows (of the far operand's contents under V, chosen by the table's
    words at that point) times the input block. -/
def outBlk29 (c : Dev nD) (t : Fin (cfg29 a1).N) : Vec F S8x64 .f32 :=
  gatherOut (gatherG (a1.1 0) (V c main_v72) (grid29.coords t)) (iblk29 V a1 c 0 t)

theorem outBlk_eq29 (c : Dev nD) (t : Fin (cfg29 a1).N) :
    outBlk29 V a1 c t = gatherOut (gatherG (a1.1 0) (V c main_v72) (grid29.coords t)) (iblk29 V a1 c 0 t) := rfl

/-- The proof data with the output block named: after the body at point t the output window's buffer holds it. -/
theorem afterOutBlk29 (c : Dev nD) (t : Fin (cfg29 a1).N) :
    (dat29 V a1 (outBlk29 V a1) c).after 1 t
      = gatherOut (gatherG (a1.1 0) (V c main_v72) (grid29.coords t)) (iblk29 V a1 c 0 t) :=
  afterOut29 V a1 (outBlk29 V a1) c t

/-- The own cells at zero are the semaphore array's eight entries at zero, in order. -/
theorem ownSems_eq29 (c : Dev nD) :
    (Pipeline.ownSems0 (Ix := Unit) (Name := ℕ) (U := UD sig nD τ) (Lvl := ℕ) (Val := Elt F) (τ := τ) osem29 c : sProp 𝕄)
      = gsems0 c cc29_scratch1 := by
  rw [Pipeline.ownSems0_eq_of_list c osem29 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq29 (t : Fin (cfg29 a1).N) : ∃ h3 h4, bodyProg29 (F := F) a1 t
    = cc29__gather_mul_kernel (grid29.coords t) (Memref.whole main_v122) (Memref.isWhole_whole _) (Memref.whole main_v72) (Memref.isWhole_whole _)
        (stg29 a1 0 t) h3 (stg29 a1 1 t) h4 (Memref.whole cc29_scratch0) (Memref.isWhole_whole _) cc29_scratch1 := ⟨_, _, rfl⟩

end Out

/-! ## The body's run, joined to the proof data -/

section Body

variable (V : (c : Dev nD) → (b : Ref sig .tc) → Buf (Elt F) ((c : Thread nD τ).loc b))
  (a1 : (pcfg29 (F := F)).Adm)

/-- The scratch buffer whole at some contents, as a memref owned at some contents. -/
theorem scratchOwns_eq29 (c : Dev nD) :
    (iprop(∃ d, owns (c : Thread nD τ) (Memref.whole cc29_scratch0) fullShare d) : sProp 𝕄)
      = iprop(∃ f : Buf (Elt F) ((c : Thread nD τ).loc cc29_scratch0), ((c : Thread nD τ).loc cc29_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun29 (hlt : ∀ y, BitVec.toNat ((a1.1 0) y) < 100000) : BodyRun29 V a1 (outBlk29 V a1) := by
  intro c t W K
  obtain ⟨h3, h4, hprog⟩ := bodyProg_eq29 (F := F) a1 t
  rw [hprog, ownSems_eq29, ← scratchOwns_eq29 (F := F) c]
  have hrun := gather_kernel_run_29 (F := F) c (grid29.coords t) (Memref.whole main_v122) (Memref.isWhole_whole _) (Memref.whole main_v72) (Memref.isWhole_whole _)
    (stg29 a1 0 t) h3 (stg29 a1 1 t) h4 (Memref.whole cc29_scratch0) (Memref.isWhole_whole _) cc29_scratch1 fullShare fullShare
    (a1.1 0) (V c main_v72) (iblk29 V a1 c 0 t) (fun y => hlt y) W K
  simp only [Memref.view_whole, View.read_whole] at hrun
  unfold outBlk29
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut29 (hlt : ∀ y, BitVec.toNat ((a1.1 0) y) < 100000) (c : Dev nD) :
    BodyObligation (dat29 (F := F) V a1 (outBlk29 V a1) c) (defs₀ (F := F)) Variants.none () Set.univ :=
  body_obligation29 V a1 (outBlk29 V a1) (bodyRun29 V a1 hlt) c

end Body

/-! # Region 30 -/

/-! ## The body's own transfer cells -/

/-- The eight cells of the body's semaphore array, in order. -/
abbrev osem30 : Fin 8 → SemLoc sig := fun j => SemLoc.dma (cc30_scratch1.ix (fun | ⟨0, _⟩ => j))

/-- They are scoped, pairwise distinct, and none is a staging cell of a window. -/
theorem ownSemFacts30 : Pipeline.OwnSemFacts spec30 osem30 := by decide

/-- The far operand is an unscoped buffer that is neither a window's array nor a table. -/
theorem hx_sub30 : ({main_v72} : Finset (Ref sig .tc)) ⊆ Pipeline.restRefsP sig pre30 spec30 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg30 (F := F)).Adm)
  (O : (c : Dev nD) → Fin (cfg30 a1).N → Vec F S8x64 .f32)

/-! ## The windows' blocks -/

/-- Window w's block at point t, read off its array under V. -/
def iblk30 (c : Dev nD) (w : Fin (cfg30 a1).W) (t : Fin (cfg30 a1).N) :
    (((cfg30 a1).win w).xblock ((cfg30 a1).grid.coords t)).Idx → Elt F ((cfg30 a1).win w).elt :=
  (((cfg30 a1).win w).blk t).view.read (Elt F) (V c (Pipeline.arrRef spec30 w))

/-- The input window's current staging buffer holds its block at every point, fetched there or not, for any proof
    data whose array is V's and whose body leaves the block in place: unfetched, the block index has not moved. -/
theorem beforeIn30_of {c : Dev nD} (dat : Dat τ (Elt F) Unit ℕ (UD sig nD τ) ℕ (cfg30 a1) c)
    (hA : dat.A 0 = V c (Pipeline.arrRef spec30 0))
    (hafter : ∀ t, dat.after 0 t = iblk30 V a1 c 0 t) (t : Fin (cfg30 a1).N) (d) : dat.before 0 t d = iblk30 V a1 c 0 t :=
  (dat.before_in_eq_fetched 0 rfl (fun _ => rfl) (fun _ _ _ => rfl)
    (fun t => by rw [hafter]; unfold Dat.blockOf iblk30; rw [hA]; try rfl) t d).trans
    (by unfold Dat.fetched Dat.blockOf iblk30; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat30 (c : Dev nD) : Dat τ (Elt F) Unit ℕ (UD sig nD τ) ℕ (cfg30 a1) c where
  A w := V c (Pipeline.arrRef spec30 w)
  after w t := match w with
    | ⟨0, _⟩ => iblk30 V a1 c 0 t
    | ⟨1, _⟩ => O c t
  Φ _ := iprop(Pipeline.ΦD osem30 spec30 {main_v72} V c ∗ Pipeline.prefHeld pre30 c (fun _ => fullShare) a1.1)
  q _ := fullShare
  owed _ := 0

theorem A_eq30 (c : Dev nD) (w : Fin (cfg30 a1).W) : (dat30 V a1 O c).A w = V c (Pipeline.arrRef spec30 w) := by
  dsimp only [dat30]

theorem afterIn30 (c : Dev nD) (t : Fin (cfg30 a1).N) : (dat30 V a1 O c).after 0 t = iblk30 V a1 c 0 t := by
  dsimp only [dat30]; rfl

theorem afterOut30 (c : Dev nD) (t : Fin (cfg30 a1).N) :
    (dat30 V a1 O c).after 1 t = O c t := by
  dsimp only [dat30]; rfl

theorem beforeIn30 (c : Dev nD) (t : Fin (cfg30 a1).N) (d) : (dat30 V a1 O c).before 0 t d = iblk30 V a1 c 0 t :=
  beforeIn30_of V a1 (dat30 V a1 O c) (A_eq30 V a1 O c 0) (afterIn30 V a1 O c) t d

theorem Phi_eq30 (c : Dev nD) (t : Fin ((cfg30 a1).N + 1)) :
    (dat30 V a1 O c).Φ t
      = iprop(Pipeline.ΦD osem30 spec30 {main_v72} V c ∗ Pipeline.prefHeld pre30 c (fun _ => fullShare) a1.1) := by
  dsimp only [dat30]

theorem owed_eq30 (c : Dev nD) (t : Fin ((cfg30 a1).N + 1)) : (dat30 V a1 O c).owed t = 0 := by
  dsimp only [dat30]

/-! ## The invariant, conjunct by conjunct -/

/-- The invariant's first part opened: the body's scratch buffer whole at some contents and the other scoped
    buffers no window stages, the generator register, the own cells at zero, the far operand at its contents. -/
theorem PhiD_eq30 (c : Dev nD) :
    (Pipeline.ΦD osem30 spec30 {main_v72} V c : sProp 𝕄)
      = iprop(iprop(iprop((∃ f : Buf (Elt F) ((c : Thread nD τ).loc cc30_scratch0), ((c : Thread nD τ).loc cc30_scratch0) ↦{fullShare} f))
            ∗ Pipeline.scopedRestBut (Ix := Unit) (Name := ℕ) (U := UD sig nD τ) (Lvl := ℕ) (Val := Elt F) spec30 c [cc30_scratch0])
          ∗ (∃ r, prngReg c r)
          ∗ Pipeline.ownSems0 (Ix := Unit) (Name := ℕ) (U := UD sig nD τ) (Lvl := ℕ) (Val := Elt F) (τ := τ) osem30 c
          ∗ (((c : Thread nD τ).loc main_v72) ↦{fullShare} V c main_v72)) := by
  rw [Pipeline.ΦD_eq, scopedRest30_split, BI.bigSep_eq_bigSepL_of_eq [main_v72] (by decide) (by decide)]; rfl

/-- The one table, held whole. -/
theorem prefHeld_eq30 (c : Dev nD) :
    (Pipeline.prefHeld pre30 c (fun _ => fullShare) a1.1 : sProp 𝕄)
      = (((c : Thread nD τ).loc main_v126) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg30 (w : Fin (cfg30 a1).W) (t : Fin (cfg30 a1).N) := ((cfg30 a1).win w).stage ((cfg30 a1).slots t w)

/-- The body as the pipeline calls it at point t. -/
abbrev bodyProg30 (t : Fin (cfg30 a1).N) : Prog (TpuEff nD τ sig (Elt F) Λ₀ .tc) PUnit :=
  (defs₀ (F := F)) .tc (cfg30 a1).body ((cfg30 a1).bodyArgs t ((cfg30 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun30 : Prop :=
  ∀ (c : Dev nD) (t : Fin (cfg30 a1).N) (W) (K : PUnit → sProp 𝕄),
    iprop(owns (c : Thread nD τ) (stg30 a1 0 t) fullShare (iblk30 V a1 c 0 t)
        ∗ (∃ d, owns (c : Thread nD τ) (stg30 a1 1 t) fullShare d)
        ∗ (∃ f : Buf (Elt F) ((c : Thread nD τ).loc cc30_scratch0), ((c : Thread nD τ).loc cc30_scratch0) ↦{fullShare} f)
        ∗ Pipeline.ownSems0 (Ix := Unit) (Name := ℕ) (U := UD sig nD τ) (Lvl := ℕ) (Val := Elt F) (τ := τ) osem30 c
        ∗ (((c : Thread nD τ).loc main_v126) ↦{fullShare} a1.1 0)
        ∗ (((c : Thread nD τ).loc main_v72) ↦{fullShare} V c main_v72)
        ∗ owes (c : Thread nD τ) (0 : CellTallies nD τ sig Unit) W
        ∗ (iprop(owns (c : Thread nD τ) (stg30 a1 0 t) fullShare (iblk30 V a1 c 0 t)
            ∗ owns (c : Thread nD τ) (stg30 a1 1 t) fullShare (O c t)
            ∗ (∃ f : Buf (Elt F) ((c : Thread nD τ).loc cc30_scratch0), ((c : Thread nD τ).loc cc30_scratch0) ↦{fullShare} f)
            ∗ Pipeline.ownSems0 (Ix := Unit) (Name := ℕ) (U := UD sig nD τ) (Lvl := ℕ) (Val := Elt F) (τ := τ) osem30 c
            ∗ (((c : Thread nD τ).loc main_v126) ↦{fullShare} a1.1 0)
            ∗ (((c : Thread nD τ).loc main_v72) ↦{fullShare} V c main_v72)
            ∗ (∃ W', owes (c : Thread nD τ) (0 : CellTallies nD τ sig Unit) W')) -∗ K ⟨⟩))
      ⊢ wp frame (wpE (defs₀ (F := F)) Variants.none c none) Set.univ (bodyProg30 a1 t) K

/-- What the body is called with at point t, the windows one by one, -/
def bodyPre30 (c : Dev nD) (t : Fin (cfg30 a1).N) : sProp 𝕄 :=
  iprop((dat30 V a1 O c).Φ t.castSucc ∗ (dat30 V a1 O c).owesAt () t.castSucc
    ∗ (∃ d, owns (c : Thread nD τ) (stg30 a1 0 t) fullShare ((dat30 V a1 O c).before 0 t d))
    ∗ (∃ d, owns (c : Thread nD τ) (stg30 a1 1 t) fullShare ((dat30 V a1 O c).before 1 t d)))

/-- and what it returns. -/
def bodyPost30 (c : Dev nD) (t : Fin (cfg30 a1).N) : sProp 𝕄 :=
  iprop((dat30 V a1 O c).Φ t.succ ∗ (dat30 V a1 O c).owesAt () t.succ
    ∗ owns (c : Thread nD τ) (stg30 a1 0 t) fullShare ((dat30 V a1 O c).after 0 t)
    ∗ owns (c : Thread nD τ) (stg30 a1 1 t) fullShare ((dat30 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body30 (hrun : BodyRun30 V a1 O) (c : Dev nD) (t : Fin (cfg30 a1).N) :
    bodyPre30 V a1 O c t
      ⊢ wp frame (wpE (defs₀ (F := F)) Variants.none c none) Set.univ (bodyProg30 a1 t) (fun _ => bodyPost30 V a1 O c t) := by
  unfold bodyPre30 bodyPost30
  simp only [beforeIn30]
  rw [afterIn30, afterOut30, Phi_eq30, Phi_eq30, PhiD_eq30, prefHeld_eq30]
  unfold Dat.owesAt Pipeline.owesWithin
  rw [owed_eq30, owed_eq30]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation30 (hrun : BodyRun30 V a1 O) (c : Dev nD) :
    BodyObligation (dat30 (F := F) V a1 O c) (defs₀ (F := F)) Variants.none () Set.univ := fun t => by
  rw [bigSep_W30, bigSep_W30]
  exact sound_body30 V a1 O hrun c t

end Data

/-! ## The region's record -/

section Record

variable (Win : Dev nD → Valuation τ sig (Elt F))

variable (a1 : (pcfg30 (F := F)).Adm)
  (O : (c : Dev nD) → Fin (cfg30 a1).N → Vec F S8x64 .f32)

/-- The buffers at the region's exit: its arrays at what the write-backs leave, every other buffer as entered. -/
def Wout30 (c : Dev nD) : Valuation τ sig (Elt F) :=
  Pipeline.withArrays spec30 c (Win c) fun w => (dat30 (Vof Win) a1 O c).arrAt w (cfg30 a1).N

theorem Wout30_arr (c : Dev nD) (w : Fin (cfg30 a1).W) :
    Wout30 Win a1 O c (Proc.devRef .tc (Pipeline.arrRef spec30 w)) = (dat30 (Vof Win) a1 O c).arrAt w (cfg30 a1).N := by
  unfold Wout30; exact Pipeline.withArrays_arr spec30 winFacts30.arr_inj c _ _ w

theorem Wout30_of_ne (c : Dev nD) (b : Ref sig .tc) (hb : ∀ w, Pipeline.arrRef spec30 w ≠ b) :
    Wout30 Win a1 O c (Proc.devRef .tc b) = Win c (Proc.devRef .tc b) := by
  unfold Wout30; exact Pipeline.withArrays_of_ne spec30 c _ _ b hb

/-- ENTRY, the buffers' part. Every unscoped buffer at Win is: the region's arrays at the proof data's entry contents,
    the table whole at the admissible contents (which are Win's there), the far operand whole, and the others. -/
theorem entry30 (c : Dev nD) (ha1 : ∀ k, Vof Win c (pre30.ref k) = a1.1 k) :
    (StableHlo.held (c : Thread nD τ) (Pipeline.ucRefs τ sig) (Win c) : sProp 𝕄)
      ⊢ iprop((dat30 (Vof Win) a1 O c).arrays ((dat30 (Vof Win) a1 O c).arrAt · 0)
          ∗ Pipeline.prefHeld pre30 c (fun _ => fullShare) a1.1
          ∗ (bigSep ({main_v72} : Finset (Ref sig .tc)) fun b => (((c : Thread nD τ)).loc b) ↦{fullShare} Vof Win c b)
          ∗ bigSep (Pipeline.restRefsP sig pre30 spec30 \ {main_v72}) fun b => (((c : Thread nD τ)).loc b) ↦{fullShare} Vof Win c b) := by
  have hsplit := Pipeline.arrays_of_unscopedBufs (p := ()) (fun (_ : Unit) => pcfg30 (F := F)) (fun _ => a1)
    (fun _ c => dat30 (Vof Win) a1 O c) winFacts30 (launch30 (F := F)).arr_whole c
    ((dat30 (Vof Win) a1 O c).share_full fun _ => rfl) (Vof Win c) (fun w => A_eq30 (Vof Win) a1 O c w)
  rw [Pipeline.unscopedBufs_held,
    Pipeline.unscopedRest_split (Ix := Unit) (Name := ℕ) (U := UD sig nD τ) (Lvl := ℕ) preFacts30 c (Vof Win c),
    Pipeline.unscopedRestP_sdiff pre30 spec30 {main_v72} hx_sub30 c (Vof Win c),
    show (fun k => Vof Win c (pre30.ref k)) = a1.1 from funext ha1] at hsplit
  exact hsplit

/-- EXIT, the buffers' part: the same four put back, the arrays at what the write-backs leave, are every unscoped
    buffer at the exit valuation. -/
theorem exit30 (c : Dev nD) (ha1 : ∀ k, Vof Win c (pre30.ref k) = a1.1 k) :
    iprop((dat30 (Vof Win) a1 O c).arrays ((dat30 (Vof Win) a1 O c).arrAt · (cfg30 a1).N)
        ∗ Pipeline.prefHeld pre30 c (fun _ => fullShare) a1.1
        ∗ (bigSep ({main_v72} : Finset (Ref sig .tc)) fun b => (((c : Thread nD τ)).loc b) ↦{fullShare} Vof Win c b)
        ∗ bigSep (Pipeline.restRefsP sig pre30 spec30 \ {main_v72}) fun b => (((c : Thread nD τ)).loc b) ↦{fullShare} Vof Win c b)
      ⊢ (StableHlo.held (c : Thread nD τ) (Pipeline.ucRefs τ sig) (Wout30 Win a1 O c) : sProp 𝕄) := by
  have hjoin := Pipeline.unscopedBufs_of_arrays (p := ()) (fun (_ : Unit) => pcfg30 (F := F)) (fun _ => a1)
    (Ix := Unit) (Name := ℕ) (U := UD sig nD τ) (Lvl := ℕ)
    winFacts30 (launch30 (F := F)).arr_whole c (fun _ c => dat30 (Vof Win) a1 O c)
    ((dat30 (Vof Win) a1 O c).share_full fun _ => rfl)
    (Vof Win c) (Vof (Wout30 Win a1 O) c) ((dat30 (Vof Win) a1 O c).arrAt · (cfg30 a1).N)
    (fun w => (Wout30_arr Win a1 O c w).symm)
    (fun b hb => Wout30_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts30 c (Vof Win c),
    Pipeline.unscopedRestP_sdiff pre30 spec30 {main_v72} hx_sub30 c (Vof Win c),
    show (fun k => Vof Win c (pre30.ref k)) = a1.1 from funext ha1] at hjoin
  exact hjoin

end Record

section Seg

variable (Win : Dev nD → Valuation τ sig (Elt F))
  (adm : (p : Fin 49) → (pcfgs (F := F) p).Adm)
  (O : (c : Dev nD) → Fin (cfg30 (adm (30 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout30. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg30 (hd : ∀ c, pdats (30 : Fin 49) c = dat30 (Vof Win) (adm (30 : Fin 49)) O c)
    (ha1 : ∀ c k, Vof Win c (pre30.ref k) = (adm (30 : Fin 49)).1 k)
    (hbody : ∀ c, BodyObligation (dat30 (F := F) (Vof Win) (adm (30 : Fin 49)) O c) (defs₀ (F := F)) 𝒱₀ () Set.univ) :
    Pipeline.RegionSeg (pcfgs (F := F)) adm pdats () defs₀ 𝒱₀ L lv (30 : Fin 49) where
  win := (launch30 (F := F)).win.to₀
  block_pos := (launch30 (F := F)).block_pos
  stage_whole := (launch30 (F := F)).stage_whole
  K := Fin 8
  osem := osem30
  ho := ownSemFacts30
  hbody c := by rw [hd c]; exact (hbody c).loose
  hwaits := Pipeline.hwaits_of_owed_zero _ _ _ _ L lv (30 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout30 Win (adm (30 : Fin 49)) O c) ∗ R c)
  X c := iprop((∃ r, prngReg c r)
    ∗ Pipeline.ownSems0 (Ix := Unit) (Name := ℕ) (U := UD sig nD τ) (Lvl := ℕ) (Val := Elt F) (τ := τ) osem30 c
    ∗ (bigSep ({main_v72} : Finset (Ref sig .tc)) fun b => (((c : Thread nD τ)).loc b) ↦{fullShare} Vof Win c b))
  Y c := iprop((∃ r, prngReg c r)
    ∗ (bigSep ({main_v72} : Finset (Ref sig .tc)) fun b => (((c : Thread nD τ)).loc b) ↦{fullShare} Vof Win c b)
    ∗ Pipeline.prefHeld pre30 c (fun _ => fullShare) (adm (30 : Fin 49)).1)
  Z c := bigSep (Pipeline.restRefsP sig pre30 spec30 \ {main_v72}) fun b => (((c : Thread nD τ)).loc b) ↦{fullShare} Vof Win c b
  hentry c := by
    rw [hd c]
    iintro ⟨⟨Hub, Hp, HO⟩, Hos, -⟩
    ihave H := (entry30 Win (adm (30 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq30, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq30, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit30 Win (adm (30 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg30 (F := F)).Adm)

/-- The output block at point t: the gathered rows (of the far operand's contents under V, chosen by the table's
    words at that point) times the input block. -/
def outBlk30 (c : Dev nD) (t : Fin (cfg30 a1).N) : Vec F S8x64 .f32 :=
  gatherOut (gatherG (a1.1 0) (V c main_v72) (grid30.coords t)) (iblk30 V a1 c 0 t)

theorem outBlk_eq30 (c : Dev nD) (t : Fin (cfg30 a1).N) :
    outBlk30 V a1 c t = gatherOut (gatherG (a1.1 0) (V c main_v72) (grid30.coords t)) (iblk30 V a1 c 0 t) := rfl

/-- The proof data with the output block named: after the body at point t the output window's buffer holds it. -/
theorem afterOutBlk30 (c : Dev nD) (t : Fin (cfg30 a1).N) :
    (dat30 V a1 (outBlk30 V a1) c).after 1 t
      = gatherOut (gatherG (a1.1 0) (V c main_v72) (grid30.coords t)) (iblk30 V a1 c 0 t) :=
  afterOut30 V a1 (outBlk30 V a1) c t

/-- The own cells at zero are the semaphore array's eight entries at zero, in order. -/
theorem ownSems_eq30 (c : Dev nD) :
    (Pipeline.ownSems0 (Ix := Unit) (Name := ℕ) (U := UD sig nD τ) (Lvl := ℕ) (Val := Elt F) (τ := τ) osem30 c : sProp 𝕄)
      = gsems0 c cc30_scratch1 := by
  rw [Pipeline.ownSems0_eq_of_list c osem30 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq30 (t : Fin (cfg30 a1).N) : ∃ h3 h4, bodyProg30 (F := F) a1 t
    = cc30__gather_mul_kernel (grid30.coords t) (Memref.whole main_v126) (Memref.isWhole_whole _) (Memref.whole main_v72) (Memref.isWhole_whole _)
        (stg30 a1 0 t) h3 (stg30 a1 1 t) h4 (Memref.whole cc30_scratch0) (Memref.isWhole_whole _) cc30_scratch1 := ⟨_, _, rfl⟩

end Out

/-! ## The body's run, joined to the proof data -/

section Body

variable (V : (c : Dev nD) → (b : Ref sig .tc) → Buf (Elt F) ((c : Thread nD τ).loc b))
  (a1 : (pcfg30 (F := F)).Adm)

/-- The scratch buffer whole at some contents, as a memref owned at some contents. -/
theorem scratchOwns_eq30 (c : Dev nD) :
    (iprop(∃ d, owns (c : Thread nD τ) (Memref.whole cc30_scratch0) fullShare d) : sProp 𝕄)
      = iprop(∃ f : Buf (Elt F) ((c : Thread nD τ).loc cc30_scratch0), ((c : Thread nD τ).loc cc30_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun30 (hlt : ∀ y, BitVec.toNat ((a1.1 0) y) < 100000) : BodyRun30 V a1 (outBlk30 V a1) := by
  intro c t W K
  obtain ⟨h3, h4, hprog⟩ := bodyProg_eq30 (F := F) a1 t
  rw [hprog, ownSems_eq30, ← scratchOwns_eq30 (F := F) c]
  have hrun := gather_kernel_run_30 (F := F) c (grid30.coords t) (Memref.whole main_v126) (Memref.isWhole_whole _) (Memref.whole main_v72) (Memref.isWhole_whole _)
    (stg30 a1 0 t) h3 (stg30 a1 1 t) h4 (Memref.whole cc30_scratch0) (Memref.isWhole_whole _) cc30_scratch1 fullShare fullShare
    (a1.1 0) (V c main_v72) (iblk30 V a1 c 0 t) (fun y => hlt y) W K
  simp only [Memref.view_whole, View.read_whole] at hrun
  unfold outBlk30
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut30 (hlt : ∀ y, BitVec.toNat ((a1.1 0) y) < 100000) (c : Dev nD) :
    BodyObligation (dat30 (F := F) V a1 (outBlk30 V a1) c) (defs₀ (F := F)) Variants.none () Set.univ :=
  body_obligation30 V a1 (outBlk30 V a1) (bodyRun30 V a1 hlt) c

end Body

/-! # Region 31 -/

/-! ## The body's own transfer cells -/

/-- The eight cells of the body's semaphore array, in order. -/
abbrev osem31 : Fin 8 → SemLoc sig := fun j => SemLoc.dma (cc31_scratch1.ix (fun | ⟨0, _⟩ => j))

/-- They are scoped, pairwise distinct, and none is a staging cell of a window. -/
theorem ownSemFacts31 : Pipeline.OwnSemFacts spec31 osem31 := by decide

/-- The far operand is an unscoped buffer that is neither a window's array nor a table. -/
theorem hx_sub31 : ({main_v72} : Finset (Ref sig .tc)) ⊆ Pipeline.restRefsP sig pre31 spec31 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg31 (F := F)).Adm)
  (O : (c : Dev nD) → Fin (cfg31 a1).N → Vec F S8x64 .f32)

/-! ## The windows' blocks -/

/-- Window w's block at point t, read off its array under V. -/
def iblk31 (c : Dev nD) (w : Fin (cfg31 a1).W) (t : Fin (cfg31 a1).N) :
    (((cfg31 a1).win w).xblock ((cfg31 a1).grid.coords t)).Idx → Elt F ((cfg31 a1).win w).elt :=
  (((cfg31 a1).win w).blk t).view.read (Elt F) (V c (Pipeline.arrRef spec31 w))

/-- The input window's current staging buffer holds its block at every point, fetched there or not, for any proof
    data whose array is V's and whose body leaves the block in place: unfetched, the block index has not moved. -/
theorem beforeIn31_of {c : Dev nD} (dat : Dat τ (Elt F) Unit ℕ (UD sig nD τ) ℕ (cfg31 a1) c)
    (hA : dat.A 0 = V c (Pipeline.arrRef spec31 0))
    (hafter : ∀ t, dat.after 0 t = iblk31 V a1 c 0 t) (t : Fin (cfg31 a1).N) (d) : dat.before 0 t d = iblk31 V a1 c 0 t :=
  (dat.before_in_eq_fetched 0 rfl (fun _ => rfl) (fun _ _ _ => rfl)
    (fun t => by rw [hafter]; unfold Dat.blockOf iblk31; rw [hA]; try rfl) t d).trans
    (by unfold Dat.fetched Dat.blockOf iblk31; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat31 (c : Dev nD) : Dat τ (Elt F) Unit ℕ (UD sig nD τ) ℕ (cfg31 a1) c where
  A w := V c (Pipeline.arrRef spec31 w)
  after w t := match w with
    | ⟨0, _⟩ => iblk31 V a1 c 0 t
    | ⟨1, _⟩ => O c t
  Φ _ := iprop(Pipeline.ΦD osem31 spec31 {main_v72} V c ∗ Pipeline.prefHeld pre31 c (fun _ => fullShare) a1.1)
  q _ := fullShare
  owed _ := 0

theorem A_eq31 (c : Dev nD) (w : Fin (cfg31 a1).W) : (dat31 V a1 O c).A w = V c (Pipeline.arrRef spec31 w) := by
  dsimp only [dat31]

theorem afterIn31 (c : Dev nD) (t : Fin (cfg31 a1).N) : (dat31 V a1 O c).after 0 t = iblk31 V a1 c 0 t := by
  dsimp only [dat31]; rfl

theorem afterOut31 (c : Dev nD) (t : Fin (cfg31 a1).N) :
    (dat31 V a1 O c).after 1 t = O c t := by
  dsimp only [dat31]; rfl

theorem beforeIn31 (c : Dev nD) (t : Fin (cfg31 a1).N) (d) : (dat31 V a1 O c).before 0 t d = iblk31 V a1 c 0 t :=
  beforeIn31_of V a1 (dat31 V a1 O c) (A_eq31 V a1 O c 0) (afterIn31 V a1 O c) t d

theorem Phi_eq31 (c : Dev nD) (t : Fin ((cfg31 a1).N + 1)) :
    (dat31 V a1 O c).Φ t
      = iprop(Pipeline.ΦD osem31 spec31 {main_v72} V c ∗ Pipeline.prefHeld pre31 c (fun _ => fullShare) a1.1) := by
  dsimp only [dat31]

theorem owed_eq31 (c : Dev nD) (t : Fin ((cfg31 a1).N + 1)) : (dat31 V a1 O c).owed t = 0 := by
  dsimp only [dat31]

/-! ## The invariant, conjunct by conjunct -/

/-- The invariant's first part opened: the body's scratch buffer whole at some contents and the other scoped
    buffers no window stages, the generator register, the own cells at zero, the far operand at its contents. -/
theorem PhiD_eq31 (c : Dev nD) :
    (Pipeline.ΦD osem31 spec31 {main_v72} V c : sProp 𝕄)
      = iprop(iprop(iprop((∃ f : Buf (Elt F) ((c : Thread nD τ).loc cc31_scratch0), ((c : Thread nD τ).loc cc31_scratch0) ↦{fullShare} f))
            ∗ Pipeline.scopedRestBut (Ix := Unit) (Name := ℕ) (U := UD sig nD τ) (Lvl := ℕ) (Val := Elt F) spec31 c [cc31_scratch0])
          ∗ (∃ r, prngReg c r)
          ∗ Pipeline.ownSems0 (Ix := Unit) (Name := ℕ) (U := UD sig nD τ) (Lvl := ℕ) (Val := Elt F) (τ := τ) osem31 c
          ∗ (((c : Thread nD τ).loc main_v72) ↦{fullShare} V c main_v72)) := by
  rw [Pipeline.ΦD_eq, scopedRest31_split, BI.bigSep_eq_bigSepL_of_eq [main_v72] (by decide) (by decide)]; rfl

/-- The one table, held whole. -/
theorem prefHeld_eq31 (c : Dev nD) :
    (Pipeline.prefHeld pre31 c (fun _ => fullShare) a1.1 : sProp 𝕄)
      = (((c : Thread nD τ).loc main_v130) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg31 (w : Fin (cfg31 a1).W) (t : Fin (cfg31 a1).N) := ((cfg31 a1).win w).stage ((cfg31 a1).slots t w)

/-- The body as the pipeline calls it at point t. -/
abbrev bodyProg31 (t : Fin (cfg31 a1).N) : Prog (TpuEff nD τ sig (Elt F) Λ₀ .tc) PUnit :=
  (defs₀ (F := F)) .tc (cfg31 a1).body ((cfg31 a1).bodyArgs t ((cfg31 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun31 : Prop :=
  ∀ (c : Dev nD) (t : Fin (cfg31 a1).N) (W) (K : PUnit → sProp 𝕄),
    iprop(owns (c : Thread nD τ) (stg31 a1 0 t) fullShare (iblk31 V a1 c 0 t)
        ∗ (∃ d, owns (c : Thread nD τ) (stg31 a1 1 t) fullShare d)
        ∗ (∃ f : Buf (Elt F) ((c : Thread nD τ).loc cc31_scratch0), ((c : Thread nD τ).loc cc31_scratch0) ↦{fullShare} f)
        ∗ Pipeline.ownSems0 (Ix := Unit) (Name := ℕ) (U := UD sig nD τ) (Lvl := ℕ) (Val := Elt F) (τ := τ) osem31 c
        ∗ (((c : Thread nD τ).loc main_v130) ↦{fullShare} a1.1 0)
        ∗ (((c : Thread nD τ).loc main_v72) ↦{fullShare} V c main_v72)
        ∗ owes (c : Thread nD τ) (0 : CellTallies nD τ sig Unit) W
        ∗ (iprop(owns (c : Thread nD τ) (stg31 a1 0 t) fullShare (iblk31 V a1 c 0 t)
            ∗ owns (c : Thread nD τ) (stg31 a1 1 t) fullShare (O c t)
            ∗ (∃ f : Buf (Elt F) ((c : Thread nD τ).loc cc31_scratch0), ((c : Thread nD τ).loc cc31_scratch0) ↦{fullShare} f)
            ∗ Pipeline.ownSems0 (Ix := Unit) (Name := ℕ) (U := UD sig nD τ) (Lvl := ℕ) (Val := Elt F) (τ := τ) osem31 c
            ∗ (((c : Thread nD τ).loc main_v130) ↦{fullShare} a1.1 0)
            ∗ (((c : Thread nD τ).loc main_v72) ↦{fullShare} V c main_v72)
            ∗ (∃ W', owes (c : Thread nD τ) (0 : CellTallies nD τ sig Unit) W')) -∗ K ⟨⟩))
      ⊢ wp frame (wpE (defs₀ (F := F)) Variants.none c none) Set.univ (bodyProg31 a1 t) K

/-- What the body is called with at point t, the windows one by one, -/
def bodyPre31 (c : Dev nD) (t : Fin (cfg31 a1).N) : sProp 𝕄 :=
  iprop((dat31 V a1 O c).Φ t.castSucc ∗ (dat31 V a1 O c).owesAt () t.castSucc
    ∗ (∃ d, owns (c : Thread nD τ) (stg31 a1 0 t) fullShare ((dat31 V a1 O c).before 0 t d))
    ∗ (∃ d, owns (c : Thread nD τ) (stg31 a1 1 t) fullShare ((dat31 V a1 O c).before 1 t d)))

/-- and what it returns. -/
def bodyPost31 (c : Dev nD) (t : Fin (cfg31 a1).N) : sProp 𝕄 :=
  iprop((dat31 V a1 O c).Φ t.succ ∗ (dat31 V a1 O c).owesAt () t.succ
    ∗ owns (c : Thread nD τ) (stg31 a1 0 t) fullShare ((dat31 V a1 O c).after 0 t)
    ∗ owns (c : Thread nD τ) (stg31 a1 1 t) fullShare ((dat31 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body31 (hrun : BodyRun31 V a1 O) (c : Dev nD) (t : Fin (cfg31 a1).N) :
    bodyPre31 V a1 O c t
      ⊢ wp frame (wpE (defs₀ (F := F)) Variants.none c none) Set.univ (bodyProg31 a1 t) (fun _ => bodyPost31 V a1 O c t) := by
  unfold bodyPre31 bodyPost31
  simp only [beforeIn31]
  rw [afterIn31, afterOut31, Phi_eq31, Phi_eq31, PhiD_eq31, prefHeld_eq31]
  unfold Dat.owesAt Pipeline.owesWithin
  rw [owed_eq31, owed_eq31]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation31 (hrun : BodyRun31 V a1 O) (c : Dev nD) :
    BodyObligation (dat31 (F := F) V a1 O c) (defs₀ (F := F)) Variants.none () Set.univ := fun t => by
  rw [bigSep_W31, bigSep_W31]
  exact sound_body31 V a1 O hrun c t

end Data

/-! ## The region's record -/

section Record

variable (Win : Dev nD → Valuation τ sig (Elt F))

variable (a1 : (pcfg31 (F := F)).Adm)
  (O : (c : Dev nD) → Fin (cfg31 a1).N → Vec F S8x64 .f32)

/-- The buffers at the region's exit: its arrays at what the write-backs leave, every other buffer as entered. -/
def Wout31 (c : Dev nD) : Valuation τ sig (Elt F) :=
  Pipeline.withArrays spec31 c (Win c) fun w => (dat31 (Vof Win) a1 O c).arrAt w (cfg31 a1).N

theorem Wout31_arr (c : Dev nD) (w : Fin (cfg31 a1).W) :
    Wout31 Win a1 O c (Proc.devRef .tc (Pipeline.arrRef spec31 w)) = (dat31 (Vof Win) a1 O c).arrAt w (cfg31 a1).N := by
  unfold Wout31; exact Pipeline.withArrays_arr spec31 winFacts31.arr_inj c _ _ w

theorem Wout31_of_ne (c : Dev nD) (b : Ref sig .tc) (hb : ∀ w, Pipeline.arrRef spec31 w ≠ b) :
    Wout31 Win a1 O c (Proc.devRef .tc b) = Win c (Proc.devRef .tc b) := by
  unfold Wout31; exact Pipeline.withArrays_of_ne spec31 c _ _ b hb

/-- ENTRY, the buffers' part. Every unscoped buffer at Win is: the region's arrays at the proof data's entry contents,
    the table whole at the admissible contents (which are Win's there), the far operand whole, and the others. -/
theorem entry31 (c : Dev nD) (ha1 : ∀ k, Vof Win c (pre31.ref k) = a1.1 k) :
    (StableHlo.held (c : Thread nD τ) (Pipeline.ucRefs τ sig) (Win c) : sProp 𝕄)
      ⊢ iprop((dat31 (Vof Win) a1 O c).arrays ((dat31 (Vof Win) a1 O c).arrAt · 0)
          ∗ Pipeline.prefHeld pre31 c (fun _ => fullShare) a1.1
          ∗ (bigSep ({main_v72} : Finset (Ref sig .tc)) fun b => (((c : Thread nD τ)).loc b) ↦{fullShare} Vof Win c b)
          ∗ bigSep (Pipeline.restRefsP sig pre31 spec31 \ {main_v72}) fun b => (((c : Thread nD τ)).loc b) ↦{fullShare} Vof Win c b) := by
  have hsplit := Pipeline.arrays_of_unscopedBufs (p := ()) (fun (_ : Unit) => pcfg31 (F := F)) (fun _ => a1)
    (fun _ c => dat31 (Vof Win) a1 O c) winFacts31 (launch31 (F := F)).arr_whole c
    ((dat31 (Vof Win) a1 O c).share_full fun _ => rfl) (Vof Win c) (fun w => A_eq31 (Vof Win) a1 O c w)
  rw [Pipeline.unscopedBufs_held,
    Pipeline.unscopedRest_split (Ix := Unit) (Name := ℕ) (U := UD sig nD τ) (Lvl := ℕ) preFacts31 c (Vof Win c),
    Pipeline.unscopedRestP_sdiff pre31 spec31 {main_v72} hx_sub31 c (Vof Win c),
    show (fun k => Vof Win c (pre31.ref k)) = a1.1 from funext ha1] at hsplit
  exact hsplit

/-- EXIT, the buffers' part: the same four put back, the arrays at what the write-backs leave, are every unscoped
    buffer at the exit valuation. -/
theorem exit31 (c : Dev nD) (ha1 : ∀ k, Vof Win c (pre31.ref k) = a1.1 k) :
    iprop((dat31 (Vof Win) a1 O c).arrays ((dat31 (Vof Win) a1 O c).arrAt · (cfg31 a1).N)
        ∗ Pipeline.prefHeld pre31 c (fun _ => fullShare) a1.1
        ∗ (bigSep ({main_v72} : Finset (Ref sig .tc)) fun b => (((c : Thread nD τ)).loc b) ↦{fullShare} Vof Win c b)
        ∗ bigSep (Pipeline.restRefsP sig pre31 spec31 \ {main_v72}) fun b => (((c : Thread nD τ)).loc b) ↦{fullShare} Vof Win c b)
      ⊢ (StableHlo.held (c : Thread nD τ) (Pipeline.ucRefs τ sig) (Wout31 Win a1 O c) : sProp 𝕄) := by
  have hjoin := Pipeline.unscopedBufs_of_arrays (p := ()) (fun (_ : Unit) => pcfg31 (F := F)) (fun _ => a1)
    (Ix := Unit) (Name := ℕ) (U := UD sig nD τ) (Lvl := ℕ)
    winFacts31 (launch31 (F := F)).arr_whole c (fun _ c => dat31 (Vof Win) a1 O c)
    ((dat31 (Vof Win) a1 O c).share_full fun _ => rfl)
    (Vof Win c) (Vof (Wout31 Win a1 O) c) ((dat31 (Vof Win) a1 O c).arrAt · (cfg31 a1).N)
    (fun w => (Wout31_arr Win a1 O c w).symm)
    (fun b hb => Wout31_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts31 c (Vof Win c),
    Pipeline.unscopedRestP_sdiff pre31 spec31 {main_v72} hx_sub31 c (Vof Win c),
    show (fun k => Vof Win c (pre31.ref k)) = a1.1 from funext ha1] at hjoin
  exact hjoin

end Record

section Seg

variable (Win : Dev nD → Valuation τ sig (Elt F))
  (adm : (p : Fin 49) → (pcfgs (F := F) p).Adm)
  (O : (c : Dev nD) → Fin (cfg31 (adm (31 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout31. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg31 (hd : ∀ c, pdats (31 : Fin 49) c = dat31 (Vof Win) (adm (31 : Fin 49)) O c)
    (ha1 : ∀ c k, Vof Win c (pre31.ref k) = (adm (31 : Fin 49)).1 k)
    (hbody : ∀ c, BodyObligation (dat31 (F := F) (Vof Win) (adm (31 : Fin 49)) O c) (defs₀ (F := F)) 𝒱₀ () Set.univ) :
    Pipeline.RegionSeg (pcfgs (F := F)) adm pdats () defs₀ 𝒱₀ L lv (31 : Fin 49) where
  win := (launch31 (F := F)).win.to₀
  block_pos := (launch31 (F := F)).block_pos
  stage_whole := (launch31 (F := F)).stage_whole
  K := Fin 8
  osem := osem31
  ho := ownSemFacts31
  hbody c := by rw [hd c]; exact (hbody c).loose
  hwaits := Pipeline.hwaits_of_owed_zero _ _ _ _ L lv (31 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout31 Win (adm (31 : Fin 49)) O c) ∗ R c)
  X c := iprop((∃ r, prngReg c r)
    ∗ Pipeline.ownSems0 (Ix := Unit) (Name := ℕ) (U := UD sig nD τ) (Lvl := ℕ) (Val := Elt F) (τ := τ) osem31 c
    ∗ (bigSep ({main_v72} : Finset (Ref sig .tc)) fun b => (((c : Thread nD τ)).loc b) ↦{fullShare} Vof Win c b))
  Y c := iprop((∃ r, prngReg c r)
    ∗ (bigSep ({main_v72} : Finset (Ref sig .tc)) fun b => (((c : Thread nD τ)).loc b) ↦{fullShare} Vof Win c b)
    ∗ Pipeline.prefHeld pre31 c (fun _ => fullShare) (adm (31 : Fin 49)).1)
  Z c := bigSep (Pipeline.restRefsP sig pre31 spec31 \ {main_v72}) fun b => (((c : Thread nD τ)).loc b) ↦{fullShare} Vof Win c b
  hentry c := by
    rw [hd c]
    iintro ⟨⟨Hub, Hp, HO⟩, Hos, -⟩
    ihave H := (entry31 Win (adm (31 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq31, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq31, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit31 Win (adm (31 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg31 (F := F)).Adm)

/-- The output block at point t: the gathered rows (of the far operand's contents under V, chosen by the table's
    words at that point) times the input block. -/
def outBlk31 (c : Dev nD) (t : Fin (cfg31 a1).N) : Vec F S8x64 .f32 :=
  gatherOut (gatherG (a1.1 0) (V c main_v72) (grid31.coords t)) (iblk31 V a1 c 0 t)

theorem outBlk_eq31 (c : Dev nD) (t : Fin (cfg31 a1).N) :
    outBlk31 V a1 c t = gatherOut (gatherG (a1.1 0) (V c main_v72) (grid31.coords t)) (iblk31 V a1 c 0 t) := rfl

/-- The proof data with the output block named: after the body at point t the output window's buffer holds it. -/
theorem afterOutBlk31 (c : Dev nD) (t : Fin (cfg31 a1).N) :
    (dat31 V a1 (outBlk31 V a1) c).after 1 t
      = gatherOut (gatherG (a1.1 0) (V c main_v72) (grid31.coords t)) (iblk31 V a1 c 0 t) :=
  afterOut31 V a1 (outBlk31 V a1) c t

/-- The own cells at zero are the semaphore array's eight entries at zero, in order. -/
theorem ownSems_eq31 (c : Dev nD) :
    (Pipeline.ownSems0 (Ix := Unit) (Name := ℕ) (U := UD sig nD τ) (Lvl := ℕ) (Val := Elt F) (τ := τ) osem31 c : sProp 𝕄)
      = gsems0 c cc31_scratch1 := by
  rw [Pipeline.ownSems0_eq_of_list c osem31 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq31 (t : Fin (cfg31 a1).N) : ∃ h3 h4, bodyProg31 (F := F) a1 t
    = cc31__gather_mul_kernel (grid31.coords t) (Memref.whole main_v130) (Memref.isWhole_whole _) (Memref.whole main_v72) (Memref.isWhole_whole _)
        (stg31 a1 0 t) h3 (stg31 a1 1 t) h4 (Memref.whole cc31_scratch0) (Memref.isWhole_whole _) cc31_scratch1 := ⟨_, _, rfl⟩

end Out

/-! ## The body's run, joined to the proof data -/

section Body

variable (V : (c : Dev nD) → (b : Ref sig .tc) → Buf (Elt F) ((c : Thread nD τ).loc b))
  (a1 : (pcfg31 (F := F)).Adm)

/-- The scratch buffer whole at some contents, as a memref owned at some contents. -/
theorem scratchOwns_eq31 (c : Dev nD) :
    (iprop(∃ d, owns (c : Thread nD τ) (Memref.whole cc31_scratch0) fullShare d) : sProp 𝕄)
      = iprop(∃ f : Buf (Elt F) ((c : Thread nD τ).loc cc31_scratch0), ((c : Thread nD τ).loc cc31_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun31 (hlt : ∀ y, BitVec.toNat ((a1.1 0) y) < 100000) : BodyRun31 V a1 (outBlk31 V a1) := by
  intro c t W K
  obtain ⟨h3, h4, hprog⟩ := bodyProg_eq31 (F := F) a1 t
  rw [hprog, ownSems_eq31, ← scratchOwns_eq31 (F := F) c]
  have hrun := gather_kernel_run_31 (F := F) c (grid31.coords t) (Memref.whole main_v130) (Memref.isWhole_whole _) (Memref.whole main_v72) (Memref.isWhole_whole _)
    (stg31 a1 0 t) h3 (stg31 a1 1 t) h4 (Memref.whole cc31_scratch0) (Memref.isWhole_whole _) cc31_scratch1 fullShare fullShare
    (a1.1 0) (V c main_v72) (iblk31 V a1 c 0 t) (fun y => hlt y) W K
  simp only [Memref.view_whole, View.read_whole] at hrun
  unfold outBlk31
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut31 (hlt : ∀ y, BitVec.toNat ((a1.1 0) y) < 100000) (c : Dev nD) :
    BodyObligation (dat31 (F := F) V a1 (outBlk31 V a1) c) (defs₀ (F := F)) Variants.none () Set.univ :=
  body_obligation31 V a1 (outBlk31 V a1) (bodyRun31 V a1 hlt) c

end Body

/-! # Region 32 -/

/-! ## The body's own transfer cells -/

/-- The eight cells of the body's semaphore array, in order. -/
abbrev osem32 : Fin 8 → SemLoc sig := fun j => SemLoc.dma (cc32_scratch1.ix (fun | ⟨0, _⟩ => j))

/-- They are scoped, pairwise distinct, and none is a staging cell of a window. -/
theorem ownSemFacts32 : Pipeline.OwnSemFacts spec32 osem32 := by decide

/-- The far operand is an unscoped buffer that is neither a window's array nor a table. -/
theorem hx_sub32 : ({main_v72} : Finset (Ref sig .tc)) ⊆ Pipeline.restRefsP sig pre32 spec32 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg32 (F := F)).Adm)
  (O : (c : Dev nD) → Fin (cfg32 a1).N → Vec F S8x64 .f32)

/-! ## The windows' blocks -/

/-- Window w's block at point t, read off its array under V. -/
def iblk32 (c : Dev nD) (w : Fin (cfg32 a1).W) (t : Fin (cfg32 a1).N) :
    (((cfg32 a1).win w).xblock ((cfg32 a1).grid.coords t)).Idx → Elt F ((cfg32 a1).win w).elt :=
  (((cfg32 a1).win w).blk t).view.read (Elt F) (V c (Pipeline.arrRef spec32 w))

/-- The input window's current staging buffer holds its block at every point, fetched there or not, for any proof
    data whose array is V's and whose body leaves the block in place: unfetched, the block index has not moved. -/
theorem beforeIn32_of {c : Dev nD} (dat : Dat τ (Elt F) Unit ℕ (UD sig nD τ) ℕ (cfg32 a1) c)
    (hA : dat.A 0 = V c (Pipeline.arrRef spec32 0))
    (hafter : ∀ t, dat.after 0 t = iblk32 V a1 c 0 t) (t : Fin (cfg32 a1).N) (d) : dat.before 0 t d = iblk32 V a1 c 0 t :=
  (dat.before_in_eq_fetched 0 rfl (fun _ => rfl) (fun _ _ _ => rfl)
    (fun t => by rw [hafter]; unfold Dat.blockOf iblk32; rw [hA]; try rfl) t d).trans
    (by unfold Dat.fetched Dat.blockOf iblk32; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat32 (c : Dev nD) : Dat τ (Elt F) Unit ℕ (UD sig nD τ) ℕ (cfg32 a1) c where
  A w := V c (Pipeline.arrRef spec32 w)
  after w t := match w with
    | ⟨0, _⟩ => iblk32 V a1 c 0 t
    | ⟨1, _⟩ => O c t
  Φ _ := iprop(Pipeline.ΦD osem32 spec32 {main_v72} V c ∗ Pipeline.prefHeld pre32 c (fun _ => fullShare) a1.1)
  q _ := fullShare
  owed _ := 0

theorem A_eq32 (c : Dev nD) (w : Fin (cfg32 a1).W) : (dat32 V a1 O c).A w = V c (Pipeline.arrRef spec32 w) := by
  dsimp only [dat32]

theorem afterIn32 (c : Dev nD) (t : Fin (cfg32 a1).N) : (dat32 V a1 O c).after 0 t = iblk32 V a1 c 0 t := by
  dsimp only [dat32]; rfl

theorem afterOut32 (c : Dev nD) (t : Fin (cfg32 a1).N) :
    (dat32 V a1 O c).after 1 t = O c t := by
  dsimp only [dat32]; rfl

theorem beforeIn32 (c : Dev nD) (t : Fin (cfg32 a1).N) (d) : (dat32 V a1 O c).before 0 t d = iblk32 V a1 c 0 t :=
  beforeIn32_of V a1 (dat32 V a1 O c) (A_eq32 V a1 O c 0) (afterIn32 V a1 O c) t d

theorem Phi_eq32 (c : Dev nD) (t : Fin ((cfg32 a1).N + 1)) :
    (dat32 V a1 O c).Φ t
      = iprop(Pipeline.ΦD osem32 spec32 {main_v72} V c ∗ Pipeline.prefHeld pre32 c (fun _ => fullShare) a1.1) := by
  dsimp only [dat32]

theorem owed_eq32 (c : Dev nD) (t : Fin ((cfg32 a1).N + 1)) : (dat32 V a1 O c).owed t = 0 := by
  dsimp only [dat32]

/-! ## The invariant, conjunct by conjunct -/

/-- The invariant's first part opened: the body's scratch buffer whole at some contents and the other scoped
    buffers no window stages, the generator register, the own cells at zero, the far operand at its contents. -/
theorem PhiD_eq32 (c : Dev nD) :
    (Pipeline.ΦD osem32 spec32 {main_v72} V c : sProp 𝕄)
      = iprop(iprop(iprop((∃ f : Buf (Elt F) ((c : Thread nD τ).loc cc32_scratch0), ((c : Thread nD τ).loc cc32_scratch0) ↦{fullShare} f))
            ∗ Pipeline.scopedRestBut (Ix := Unit) (Name := ℕ) (U := UD sig nD τ) (Lvl := ℕ) (Val := Elt F) spec32 c [cc32_scratch0])
          ∗ (∃ r, prngReg c r)
          ∗ Pipeline.ownSems0 (Ix := Unit) (Name := ℕ) (U := UD sig nD τ) (Lvl := ℕ) (Val := Elt F) (τ := τ) osem32 c
          ∗ (((c : Thread nD τ).loc main_v72) ↦{fullShare} V c main_v72)) := by
  rw [Pipeline.ΦD_eq, scopedRest32_split, BI.bigSep_eq_bigSepL_of_eq [main_v72] (by decide) (by decide)]; rfl

/-- The one table, held whole. -/
theorem prefHeld_eq32 (c : Dev nD) :
    (Pipeline.prefHeld pre32 c (fun _ => fullShare) a1.1 : sProp 𝕄)
      = (((c : Thread nD τ).loc main_v134) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg32 (w : Fin (cfg32 a1).W) (t : Fin (cfg32 a1).N) := ((cfg32 a1).win w).stage ((cfg32 a1).slots t w)

/-- The body as the pipeline calls it at point t. -/
abbrev bodyProg32 (t : Fin (cfg32 a1).N) : Prog (TpuEff nD τ sig (Elt F) Λ₀ .tc) PUnit :=
  (defs₀ (F := F)) .tc (cfg32 a1).body ((cfg32 a1).bodyArgs t ((cfg32 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun32 : Prop :=
  ∀ (c : Dev nD) (t : Fin (cfg32 a1).N) (W) (K : PUnit → sProp 𝕄),
    iprop(owns (c : Thread nD τ) (stg32 a1 0 t) fullShare (iblk32 V a1 c 0 t)
        ∗ (∃ d, owns (c : Thread nD τ) (stg32 a1 1 t) fullShare d)
        ∗ (∃ f : Buf (Elt F) ((c : Thread nD τ).loc cc32_scratch0), ((c : Thread nD τ).loc cc32_scratch0) ↦{fullShare} f)
        ∗ Pipeline.ownSems0 (Ix := Unit) (Name := ℕ) (U := UD sig nD τ) (Lvl := ℕ) (Val := Elt F) (τ := τ) osem32 c
        ∗ (((c : Thread nD τ).loc main_v134) ↦{fullShare} a1.1 0)
        ∗ (((c : Thread nD τ).loc main_v72) ↦{fullShare} V c main_v72)
        ∗ owes (c : Thread nD τ) (0 : CellTallies nD τ sig Unit) W
        ∗ (iprop(owns (c : Thread nD τ) (stg32 a1 0 t) fullShare (iblk32 V a1 c 0 t)
            ∗ owns (c : Thread nD τ) (stg32 a1 1 t) fullShare (O c t)
            ∗ (∃ f : Buf (Elt F) ((c : Thread nD τ).loc cc32_scratch0), ((c : Thread nD τ).loc cc32_scratch0) ↦{fullShare} f)
            ∗ Pipeline.ownSems0 (Ix := Unit) (Name := ℕ) (U := UD sig nD τ) (Lvl := ℕ) (Val := Elt F) (τ := τ) osem32 c
            ∗ (((c : Thread nD τ).loc main_v134) ↦{fullShare} a1.1 0)
            ∗ (((c : Thread nD τ).loc main_v72) ↦{fullShare} V c main_v72)
            ∗ (∃ W', owes (c : Thread nD τ) (0 : CellTallies nD τ sig Unit) W')) -∗ K ⟨⟩))
      ⊢ wp frame (wpE (defs₀ (F := F)) Variants.none c none) Set.univ (bodyProg32 a1 t) K

/-- What the body is called with at point t, the windows one by one, -/
def bodyPre32 (c : Dev nD) (t : Fin (cfg32 a1).N) : sProp 𝕄 :=
  iprop((dat32 V a1 O c).Φ t.castSucc ∗ (dat32 V a1 O c).owesAt () t.castSucc
    ∗ (∃ d, owns (c : Thread nD τ) (stg32 a1 0 t) fullShare ((dat32 V a1 O c).before 0 t d))
    ∗ (∃ d, owns (c : Thread nD τ) (stg32 a1 1 t) fullShare ((dat32 V a1 O c).before 1 t d)))

/-- and what it returns. -/
def bodyPost32 (c : Dev nD) (t : Fin (cfg32 a1).N) : sProp 𝕄 :=
  iprop((dat32 V a1 O c).Φ t.succ ∗ (dat32 V a1 O c).owesAt () t.succ
    ∗ owns (c : Thread nD τ) (stg32 a1 0 t) fullShare ((dat32 V a1 O c).after 0 t)
    ∗ owns (c : Thread nD τ) (stg32 a1 1 t) fullShare ((dat32 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body32 (hrun : BodyRun32 V a1 O) (c : Dev nD) (t : Fin (cfg32 a1).N) :
    bodyPre32 V a1 O c t
      ⊢ wp frame (wpE (defs₀ (F := F)) Variants.none c none) Set.univ (bodyProg32 a1 t) (fun _ => bodyPost32 V a1 O c t) := by
  unfold bodyPre32 bodyPost32
  simp only [beforeIn32]
  rw [afterIn32, afterOut32, Phi_eq32, Phi_eq32, PhiD_eq32, prefHeld_eq32]
  unfold Dat.owesAt Pipeline.owesWithin
  rw [owed_eq32, owed_eq32]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation32 (hrun : BodyRun32 V a1 O) (c : Dev nD) :
    BodyObligation (dat32 (F := F) V a1 O c) (defs₀ (F := F)) Variants.none () Set.univ := fun t => by
  rw [bigSep_W32, bigSep_W32]
  exact sound_body32 V a1 O hrun c t

end Data

/-! ## The region's record -/

section Record

variable (Win : Dev nD → Valuation τ sig (Elt F))

variable (a1 : (pcfg32 (F := F)).Adm)
  (O : (c : Dev nD) → Fin (cfg32 a1).N → Vec F S8x64 .f32)

/-- The buffers at the region's exit: its arrays at what the write-backs leave, every other buffer as entered. -/
def Wout32 (c : Dev nD) : Valuation τ sig (Elt F) :=
  Pipeline.withArrays spec32 c (Win c) fun w => (dat32 (Vof Win) a1 O c).arrAt w (cfg32 a1).N

theorem Wout32_arr (c : Dev nD) (w : Fin (cfg32 a1).W) :
    Wout32 Win a1 O c (Proc.devRef .tc (Pipeline.arrRef spec32 w)) = (dat32 (Vof Win) a1 O c).arrAt w (cfg32 a1).N := by
  unfold Wout32; exact Pipeline.withArrays_arr spec32 winFacts32.arr_inj c _ _ w

theorem Wout32_of_ne (c : Dev nD) (b : Ref sig .tc) (hb : ∀ w, Pipeline.arrRef spec32 w ≠ b) :
    Wout32 Win a1 O c (Proc.devRef .tc b) = Win c (Proc.devRef .tc b) := by
  unfold Wout32; exact Pipeline.withArrays_of_ne spec32 c _ _ b hb

/-- ENTRY, the buffers' part. Every unscoped buffer at Win is: the region's arrays at the proof data's entry contents,
    the table whole at the admissible contents (which are Win's there), the far operand whole, and the others. -/
theorem entry32 (c : Dev nD) (ha1 : ∀ k, Vof Win c (pre32.ref k) = a1.1 k) :
    (StableHlo.held (c : Thread nD τ) (Pipeline.ucRefs τ sig) (Win c) : sProp 𝕄)
      ⊢ iprop((dat32 (Vof Win) a1 O c).arrays ((dat32 (Vof Win) a1 O c).arrAt · 0)
          ∗ Pipeline.prefHeld pre32 c (fun _ => fullShare) a1.1
          ∗ (bigSep ({main_v72} : Finset (Ref sig .tc)) fun b => (((c : Thread nD τ)).loc b) ↦{fullShare} Vof Win c b)
          ∗ bigSep (Pipeline.restRefsP sig pre32 spec32 \ {main_v72}) fun b => (((c : Thread nD τ)).loc b) ↦{fullShare} Vof Win c b) := by
  have hsplit := Pipeline.arrays_of_unscopedBufs (p := ()) (fun (_ : Unit) => pcfg32 (F := F)) (fun _ => a1)
    (fun _ c => dat32 (Vof Win) a1 O c) winFacts32 (launch32 (F := F)).arr_whole c
    ((dat32 (Vof Win) a1 O c).share_full fun _ => rfl) (Vof Win c) (fun w => A_eq32 (Vof Win) a1 O c w)
  rw [Pipeline.unscopedBufs_held,
    Pipeline.unscopedRest_split (Ix := Unit) (Name := ℕ) (U := UD sig nD τ) (Lvl := ℕ) preFacts32 c (Vof Win c),
    Pipeline.unscopedRestP_sdiff pre32 spec32 {main_v72} hx_sub32 c (Vof Win c),
    show (fun k => Vof Win c (pre32.ref k)) = a1.1 from funext ha1] at hsplit
  exact hsplit

/-- EXIT, the buffers' part: the same four put back, the arrays at what the write-backs leave, are every unscoped
    buffer at the exit valuation. -/
theorem exit32 (c : Dev nD) (ha1 : ∀ k, Vof Win c (pre32.ref k) = a1.1 k) :
    iprop((dat32 (Vof Win) a1 O c).arrays ((dat32 (Vof Win) a1 O c).arrAt · (cfg32 a1).N)
        ∗ Pipeline.prefHeld pre32 c (fun _ => fullShare) a1.1
        ∗ (bigSep ({main_v72} : Finset (Ref sig .tc)) fun b => (((c : Thread nD τ)).loc b) ↦{fullShare} Vof Win c b)
        ∗ bigSep (Pipeline.restRefsP sig pre32 spec32 \ {main_v72}) fun b => (((c : Thread nD τ)).loc b) ↦{fullShare} Vof Win c b)
      ⊢ (StableHlo.held (c : Thread nD τ) (Pipeline.ucRefs τ sig) (Wout32 Win a1 O c) : sProp 𝕄) := by
  have hjoin := Pipeline.unscopedBufs_of_arrays (p := ()) (fun (_ : Unit) => pcfg32 (F := F)) (fun _ => a1)
    (Ix := Unit) (Name := ℕ) (U := UD sig nD τ) (Lvl := ℕ)
    winFacts32 (launch32 (F := F)).arr_whole c (fun _ c => dat32 (Vof Win) a1 O c)
    ((dat32 (Vof Win) a1 O c).share_full fun _ => rfl)
    (Vof Win c) (Vof (Wout32 Win a1 O) c) ((dat32 (Vof Win) a1 O c).arrAt · (cfg32 a1).N)
    (fun w => (Wout32_arr Win a1 O c w).symm)
    (fun b hb => Wout32_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts32 c (Vof Win c),
    Pipeline.unscopedRestP_sdiff pre32 spec32 {main_v72} hx_sub32 c (Vof Win c),
    show (fun k => Vof Win c (pre32.ref k)) = a1.1 from funext ha1] at hjoin
  exact hjoin

end Record

section Seg

variable (Win : Dev nD → Valuation τ sig (Elt F))
  (adm : (p : Fin 49) → (pcfgs (F := F) p).Adm)
  (O : (c : Dev nD) → Fin (cfg32 (adm (32 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout32. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg32 (hd : ∀ c, pdats (32 : Fin 49) c = dat32 (Vof Win) (adm (32 : Fin 49)) O c)
    (ha1 : ∀ c k, Vof Win c (pre32.ref k) = (adm (32 : Fin 49)).1 k)
    (hbody : ∀ c, BodyObligation (dat32 (F := F) (Vof Win) (adm (32 : Fin 49)) O c) (defs₀ (F := F)) 𝒱₀ () Set.univ) :
    Pipeline.RegionSeg (pcfgs (F := F)) adm pdats () defs₀ 𝒱₀ L lv (32 : Fin 49) where
  win := (launch32 (F := F)).win.to₀
  block_pos := (launch32 (F := F)).block_pos
  stage_whole := (launch32 (F := F)).stage_whole
  K := Fin 8
  osem := osem32
  ho := ownSemFacts32
  hbody c := by rw [hd c]; exact (hbody c).loose
  hwaits := Pipeline.hwaits_of_owed_zero _ _ _ _ L lv (32 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout32 Win (adm (32 : Fin 49)) O c) ∗ R c)
  X c := iprop((∃ r, prngReg c r)
    ∗ Pipeline.ownSems0 (Ix := Unit) (Name := ℕ) (U := UD sig nD τ) (Lvl := ℕ) (Val := Elt F) (τ := τ) osem32 c
    ∗ (bigSep ({main_v72} : Finset (Ref sig .tc)) fun b => (((c : Thread nD τ)).loc b) ↦{fullShare} Vof Win c b))
  Y c := iprop((∃ r, prngReg c r)
    ∗ (bigSep ({main_v72} : Finset (Ref sig .tc)) fun b => (((c : Thread nD τ)).loc b) ↦{fullShare} Vof Win c b)
    ∗ Pipeline.prefHeld pre32 c (fun _ => fullShare) (adm (32 : Fin 49)).1)
  Z c := bigSep (Pipeline.restRefsP sig pre32 spec32 \ {main_v72}) fun b => (((c : Thread nD τ)).loc b) ↦{fullShare} Vof Win c b
  hentry c := by
    rw [hd c]
    iintro ⟨⟨Hub, Hp, HO⟩, Hos, -⟩
    ihave H := (entry32 Win (adm (32 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq32, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq32, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit32 Win (adm (32 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg32 (F := F)).Adm)

/-- The output block at point t: the gathered rows (of the far operand's contents under V, chosen by the table's
    words at that point) times the input block. -/
def outBlk32 (c : Dev nD) (t : Fin (cfg32 a1).N) : Vec F S8x64 .f32 :=
  gatherOut (gatherG (a1.1 0) (V c main_v72) (grid32.coords t)) (iblk32 V a1 c 0 t)

theorem outBlk_eq32 (c : Dev nD) (t : Fin (cfg32 a1).N) :
    outBlk32 V a1 c t = gatherOut (gatherG (a1.1 0) (V c main_v72) (grid32.coords t)) (iblk32 V a1 c 0 t) := rfl

/-- The proof data with the output block named: after the body at point t the output window's buffer holds it. -/
theorem afterOutBlk32 (c : Dev nD) (t : Fin (cfg32 a1).N) :
    (dat32 V a1 (outBlk32 V a1) c).after 1 t
      = gatherOut (gatherG (a1.1 0) (V c main_v72) (grid32.coords t)) (iblk32 V a1 c 0 t) :=
  afterOut32 V a1 (outBlk32 V a1) c t

/-- The own cells at zero are the semaphore array's eight entries at zero, in order. -/
theorem ownSems_eq32 (c : Dev nD) :
    (Pipeline.ownSems0 (Ix := Unit) (Name := ℕ) (U := UD sig nD τ) (Lvl := ℕ) (Val := Elt F) (τ := τ) osem32 c : sProp 𝕄)
      = gsems0 c cc32_scratch1 := by
  rw [Pipeline.ownSems0_eq_of_list c osem32 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq32 (t : Fin (cfg32 a1).N) : ∃ h3 h4, bodyProg32 (F := F) a1 t
    = cc32__gather_mul_kernel (grid32.coords t) (Memref.whole main_v134) (Memref.isWhole_whole _) (Memref.whole main_v72) (Memref.isWhole_whole _)
        (stg32 a1 0 t) h3 (stg32 a1 1 t) h4 (Memref.whole cc32_scratch0) (Memref.isWhole_whole _) cc32_scratch1 := ⟨_, _, rfl⟩

end Out

/-! ## The body's run, joined to the proof data -/

section Body

variable (V : (c : Dev nD) → (b : Ref sig .tc) → Buf (Elt F) ((c : Thread nD τ).loc b))
  (a1 : (pcfg32 (F := F)).Adm)

/-- The scratch buffer whole at some contents, as a memref owned at some contents. -/
theorem scratchOwns_eq32 (c : Dev nD) :
    (iprop(∃ d, owns (c : Thread nD τ) (Memref.whole cc32_scratch0) fullShare d) : sProp 𝕄)
      = iprop(∃ f : Buf (Elt F) ((c : Thread nD τ).loc cc32_scratch0), ((c : Thread nD τ).loc cc32_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun32 (hlt : ∀ y, BitVec.toNat ((a1.1 0) y) < 100000) : BodyRun32 V a1 (outBlk32 V a1) := by
  intro c t W K
  obtain ⟨h3, h4, hprog⟩ := bodyProg_eq32 (F := F) a1 t
  rw [hprog, ownSems_eq32, ← scratchOwns_eq32 (F := F) c]
  have hrun := gather_kernel_run_32 (F := F) c (grid32.coords t) (Memref.whole main_v134) (Memref.isWhole_whole _) (Memref.whole main_v72) (Memref.isWhole_whole _)
    (stg32 a1 0 t) h3 (stg32 a1 1 t) h4 (Memref.whole cc32_scratch0) (Memref.isWhole_whole _) cc32_scratch1 fullShare fullShare
    (a1.1 0) (V c main_v72) (iblk32 V a1 c 0 t) (fun y => hlt y) W K
  simp only [Memref.view_whole, View.read_whole] at hrun
  unfold outBlk32
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut32 (hlt : ∀ y, BitVec.toNat ((a1.1 0) y) < 100000) (c : Dev nD) :
    BodyObligation (dat32 (F := F) V a1 (outBlk32 V a1) c) (defs₀ (F := F)) Variants.none () Set.univ :=
  body_obligation32 V a1 (outBlk32 V a1) (bodyRun32 V a1 hlt) c

end Body

/-! # Region 33 -/

/-! ## The body's own transfer cells -/

/-- The eight cells of the body's semaphore array, in order. -/
abbrev osem33 : Fin 8 → SemLoc sig := fun j => SemLoc.dma (cc33_scratch1.ix (fun | ⟨0, _⟩ => j))

/-- They are scoped, pairwise distinct, and none is a staging cell of a window. -/
theorem ownSemFacts33 : Pipeline.OwnSemFacts spec33 osem33 := by decide

/-- The far operand is an unscoped buffer that is neither a window's array nor a table. -/
theorem hx_sub33 : ({main_v141} : Finset (Ref sig .tc)) ⊆ Pipeline.restRefsP sig pre33 spec33 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg33 (F := F)).Adm)
  (O : (c : Dev nD) → Fin (cfg33 a1).N → Vec F S8x64 .f32)

/-! ## The windows' blocks -/

/-- Window w's block at point t, read off its array under V. -/
def iblk33 (c : Dev nD) (w : Fin (cfg33 a1).W) (t : Fin (cfg33 a1).N) :
    (((cfg33 a1).win w).xblock ((cfg33 a1).grid.coords t)).Idx → Elt F ((cfg33 a1).win w).elt :=
  (((cfg33 a1).win w).blk t).view.read (Elt F) (V c (Pipeline.arrRef spec33 w))

/-- The input window's current staging buffer holds its block at every point, fetched there or not, for any proof
    data whose array is V's and whose body leaves the block in place: unfetched, the block index has not moved. -/
theorem beforeIn33_of {c : Dev nD} (dat : Dat τ (Elt F) Unit ℕ (UD sig nD τ) ℕ (cfg33 a1) c)
    (hA : dat.A 0 = V c (Pipeline.arrRef spec33 0))
    (hafter : ∀ t, dat.after 0 t = iblk33 V a1 c 0 t) (t : Fin (cfg33 a1).N) (d) : dat.before 0 t d = iblk33 V a1 c 0 t :=
  (dat.before_in_eq_fetched 0 rfl (fun _ => rfl) (fun _ _ _ => rfl)
    (fun t => by rw [hafter]; unfold Dat.blockOf iblk33; rw [hA]; try rfl) t d).trans
    (by unfold Dat.fetched Dat.blockOf iblk33; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat33 (c : Dev nD) : Dat τ (Elt F) Unit ℕ (UD sig nD τ) ℕ (cfg33 a1) c where
  A w := V c (Pipeline.arrRef spec33 w)
  after w t := match w with
    | ⟨0, _⟩ => iblk33 V a1 c 0 t
    | ⟨1, _⟩ => O c t
  Φ _ := iprop(Pipeline.ΦD osem33 spec33 {main_v141} V c ∗ Pipeline.prefHeld pre33 c (fun _ => fullShare) a1.1)
  q _ := fullShare
  owed _ := 0

theorem A_eq33 (c : Dev nD) (w : Fin (cfg33 a1).W) : (dat33 V a1 O c).A w = V c (Pipeline.arrRef spec33 w) := by
  dsimp only [dat33]

theorem afterIn33 (c : Dev nD) (t : Fin (cfg33 a1).N) : (dat33 V a1 O c).after 0 t = iblk33 V a1 c 0 t := by
  dsimp only [dat33]; rfl

theorem afterOut33 (c : Dev nD) (t : Fin (cfg33 a1).N) :
    (dat33 V a1 O c).after 1 t = O c t := by
  dsimp only [dat33]; rfl

theorem beforeIn33 (c : Dev nD) (t : Fin (cfg33 a1).N) (d) : (dat33 V a1 O c).before 0 t d = iblk33 V a1 c 0 t :=
  beforeIn33_of V a1 (dat33 V a1 O c) (A_eq33 V a1 O c 0) (afterIn33 V a1 O c) t d

theorem Phi_eq33 (c : Dev nD) (t : Fin ((cfg33 a1).N + 1)) :
    (dat33 V a1 O c).Φ t
      = iprop(Pipeline.ΦD osem33 spec33 {main_v141} V c ∗ Pipeline.prefHeld pre33 c (fun _ => fullShare) a1.1) := by
  dsimp only [dat33]

theorem owed_eq33 (c : Dev nD) (t : Fin ((cfg33 a1).N + 1)) : (dat33 V a1 O c).owed t = 0 := by
  dsimp only [dat33]

/-! ## The invariant, conjunct by conjunct -/

/-- The invariant's first part opened: the body's scratch buffer whole at some contents and the other scoped
    buffers no window stages, the generator register, the own cells at zero, the far operand at its contents. -/
theorem PhiD_eq33 (c : Dev nD) :
    (Pipeline.ΦD osem33 spec33 {main_v141} V c : sProp 𝕄)
      = iprop(iprop(iprop((∃ f : Buf (Elt F) ((c : Thread nD τ).loc cc33_scratch0), ((c : Thread nD τ).loc cc33_scratch0) ↦{fullShare} f))
            ∗ Pipeline.scopedRestBut (Ix := Unit) (Name := ℕ) (U := UD sig nD τ) (Lvl := ℕ) (Val := Elt F) spec33 c [cc33_scratch0])
          ∗ (∃ r, prngReg c r)
          ∗ Pipeline.ownSems0 (Ix := Unit) (Name := ℕ) (U := UD sig nD τ) (Lvl := ℕ) (Val := Elt F) (τ := τ) osem33 c
          ∗ (((c : Thread nD τ).loc main_v141) ↦{fullShare} V c main_v141)) := by
  rw [Pipeline.ΦD_eq, scopedRest33_split, BI.bigSep_eq_bigSepL_of_eq [main_v141] (by decide) (by decide)]; rfl

/-- The one table, held whole. -/
theorem prefHeld_eq33 (c : Dev nD) :
    (Pipeline.prefHeld pre33 c (fun _ => fullShare) a1.1 : sProp 𝕄)
      = (((c : Thread nD τ).loc main_v143) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg33 (w : Fin (cfg33 a1).W) (t : Fin (cfg33 a1).N) := ((cfg33 a1).win w).stage ((cfg33 a1).slots t w)

/-- The body as the pipeline calls it at point t. -/
abbrev bodyProg33 (t : Fin (cfg33 a1).N) : Prog (TpuEff nD τ sig (Elt F) Λ₀ .tc) PUnit :=
  (defs₀ (F := F)) .tc (cfg33 a1).body ((cfg33 a1).bodyArgs t ((cfg33 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun33 : Prop :=
  ∀ (c : Dev nD) (t : Fin (cfg33 a1).N) (W) (K : PUnit → sProp 𝕄),
    iprop(owns (c : Thread nD τ) (stg33 a1 0 t) fullShare (iblk33 V a1 c 0 t)
        ∗ (∃ d, owns (c : Thread nD τ) (stg33 a1 1 t) fullShare d)
        ∗ (∃ f : Buf (Elt F) ((c : Thread nD τ).loc cc33_scratch0), ((c : Thread nD τ).loc cc33_scratch0) ↦{fullShare} f)
        ∗ Pipeline.ownSems0 (Ix := Unit) (Name := ℕ) (U := UD sig nD τ) (Lvl := ℕ) (Val := Elt F) (τ := τ) osem33 c
        ∗ (((c : Thread nD τ).loc main_v143) ↦{fullShare} a1.1 0)
        ∗ (((c : Thread nD τ).loc main_v141) ↦{fullShare} V c main_v141)
        ∗ owes (c : Thread nD τ) (0 : CellTallies nD τ sig Unit) W
        ∗ (iprop(owns (c : Thread nD τ) (stg33 a1 0 t) fullShare (iblk33 V a1 c 0 t)
            ∗ owns (c : Thread nD τ) (stg33 a1 1 t) fullShare (O c t)
            ∗ (∃ f : Buf (Elt F) ((c : Thread nD τ).loc cc33_scratch0), ((c : Thread nD τ).loc cc33_scratch0) ↦{fullShare} f)
            ∗ Pipeline.ownSems0 (Ix := Unit) (Name := ℕ) (U := UD sig nD τ) (Lvl := ℕ) (Val := Elt F) (τ := τ) osem33 c
            ∗ (((c : Thread nD τ).loc main_v143) ↦{fullShare} a1.1 0)
            ∗ (((c : Thread nD τ).loc main_v141) ↦{fullShare} V c main_v141)
            ∗ (∃ W', owes (c : Thread nD τ) (0 : CellTallies nD τ sig Unit) W')) -∗ K ⟨⟩))
      ⊢ wp frame (wpE (defs₀ (F := F)) Variants.none c none) Set.univ (bodyProg33 a1 t) K

/-- What the body is called with at point t, the windows one by one, -/
def bodyPre33 (c : Dev nD) (t : Fin (cfg33 a1).N) : sProp 𝕄 :=
  iprop((dat33 V a1 O c).Φ t.castSucc ∗ (dat33 V a1 O c).owesAt () t.castSucc
    ∗ (∃ d, owns (c : Thread nD τ) (stg33 a1 0 t) fullShare ((dat33 V a1 O c).before 0 t d))
    ∗ (∃ d, owns (c : Thread nD τ) (stg33 a1 1 t) fullShare ((dat33 V a1 O c).before 1 t d)))

/-- and what it returns. -/
def bodyPost33 (c : Dev nD) (t : Fin (cfg33 a1).N) : sProp 𝕄 :=
  iprop((dat33 V a1 O c).Φ t.succ ∗ (dat33 V a1 O c).owesAt () t.succ
    ∗ owns (c : Thread nD τ) (stg33 a1 0 t) fullShare ((dat33 V a1 O c).after 0 t)
    ∗ owns (c : Thread nD τ) (stg33 a1 1 t) fullShare ((dat33 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body33 (hrun : BodyRun33 V a1 O) (c : Dev nD) (t : Fin (cfg33 a1).N) :
    bodyPre33 V a1 O c t
      ⊢ wp frame (wpE (defs₀ (F := F)) Variants.none c none) Set.univ (bodyProg33 a1 t) (fun _ => bodyPost33 V a1 O c t) := by
  unfold bodyPre33 bodyPost33
  simp only [beforeIn33]
  rw [afterIn33, afterOut33, Phi_eq33, Phi_eq33, PhiD_eq33, prefHeld_eq33]
  unfold Dat.owesAt Pipeline.owesWithin
  rw [owed_eq33, owed_eq33]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation33 (hrun : BodyRun33 V a1 O) (c : Dev nD) :
    BodyObligation (dat33 (F := F) V a1 O c) (defs₀ (F := F)) Variants.none () Set.univ := fun t => by
  rw [bigSep_W33, bigSep_W33]
  exact sound_body33 V a1 O hrun c t

end Data

/-! ## The region's record -/

section Record

variable (Win : Dev nD → Valuation τ sig (Elt F))

variable (a1 : (pcfg33 (F := F)).Adm)
  (O : (c : Dev nD) → Fin (cfg33 a1).N → Vec F S8x64 .f32)

/-- The buffers at the region's exit: its arrays at what the write-backs leave, every other buffer as entered. -/
def Wout33 (c : Dev nD) : Valuation τ sig (Elt F) :=
  Pipeline.withArrays spec33 c (Win c) fun w => (dat33 (Vof Win) a1 O c).arrAt w (cfg33 a1).N

theorem Wout33_arr (c : Dev nD) (w : Fin (cfg33 a1).W) :
    Wout33 Win a1 O c (Proc.devRef .tc (Pipeline.arrRef spec33 w)) = (dat33 (Vof Win) a1 O c).arrAt w (cfg33 a1).N := by
  unfold Wout33; exact Pipeline.withArrays_arr spec33 winFacts33.arr_inj c _ _ w

theorem Wout33_of_ne (c : Dev nD) (b : Ref sig .tc) (hb : ∀ w, Pipeline.arrRef spec33 w ≠ b) :
    Wout33 Win a1 O c (Proc.devRef .tc b) = Win c (Proc.devRef .tc b) := by
  unfold Wout33; exact Pipeline.withArrays_of_ne spec33 c _ _ b hb

/-- ENTRY, the buffers' part. Every unscoped buffer at Win is: the region's arrays at the proof data's entry contents,
    the table whole at the admissible contents (which are Win's there), the far operand whole, and the others. -/
theorem entry33 (c : Dev nD) (ha1 : ∀ k, Vof Win c (pre33.ref k) = a1.1 k) :
    (StableHlo.held (c : Thread nD τ) (Pipeline.ucRefs τ sig) (Win c) : sProp 𝕄)
      ⊢ iprop((dat33 (Vof Win) a1 O c).arrays ((dat33 (Vof Win) a1 O c).arrAt · 0)
          ∗ Pipeline.prefHeld pre33 c (fun _ => fullShare) a1.1
          ∗ (bigSep ({main_v141} : Finset (Ref sig .tc)) fun b => (((c : Thread nD τ)).loc b) ↦{fullShare} Vof Win c b)
          ∗ bigSep (Pipeline.restRefsP sig pre33 spec33 \ {main_v141}) fun b => (((c : Thread nD τ)).loc b) ↦{fullShare} Vof Win c b) := by
  have hsplit := Pipeline.arrays_of_unscopedBufs (p := ()) (fun (_ : Unit) => pcfg33 (F := F)) (fun _ => a1)
    (fun _ c => dat33 (Vof Win) a1 O c) winFacts33 (launch33 (F := F)).arr_whole c
    ((dat33 (Vof Win) a1 O c).share_full fun _ => rfl) (Vof Win c) (fun w => A_eq33 (Vof Win) a1 O c w)
  rw [Pipeline.unscopedBufs_held,
    Pipeline.unscopedRest_split (Ix := Unit) (Name := ℕ) (U := UD sig nD τ) (Lvl := ℕ) preFacts33 c (Vof Win c),
    Pipeline.unscopedRestP_sdiff pre33 spec33 {main_v141} hx_sub33 c (Vof Win c),
    show (fun k => Vof Win c (pre33.ref k)) = a1.1 from funext ha1] at hsplit
  exact hsplit

/-- EXIT, the buffers' part: the same four put back, the arrays at what the write-backs leave, are every unscoped
    buffer at the exit valuation. -/
theorem exit33 (c : Dev nD) (ha1 : ∀ k, Vof Win c (pre33.ref k) = a1.1 k) :
    iprop((dat33 (Vof Win) a1 O c).arrays ((dat33 (Vof Win) a1 O c).arrAt · (cfg33 a1).N)
        ∗ Pipeline.prefHeld pre33 c (fun _ => fullShare) a1.1
        ∗ (bigSep ({main_v141} : Finset (Ref sig .tc)) fun b => (((c : Thread nD τ)).loc b) ↦{fullShare} Vof Win c b)
        ∗ bigSep (Pipeline.restRefsP sig pre33 spec33 \ {main_v141}) fun b => (((c : Thread nD τ)).loc b) ↦{fullShare} Vof Win c b)
      ⊢ (StableHlo.held (c : Thread nD τ) (Pipeline.ucRefs τ sig) (Wout33 Win a1 O c) : sProp 𝕄) := by
  have hjoin := Pipeline.unscopedBufs_of_arrays (p := ()) (fun (_ : Unit) => pcfg33 (F := F)) (fun _ => a1)
    (Ix := Unit) (Name := ℕ) (U := UD sig nD τ) (Lvl := ℕ)
    winFacts33 (launch33 (F := F)).arr_whole c (fun _ c => dat33 (Vof Win) a1 O c)
    ((dat33 (Vof Win) a1 O c).share_full fun _ => rfl)
    (Vof Win c) (Vof (Wout33 Win a1 O) c) ((dat33 (Vof Win) a1 O c).arrAt · (cfg33 a1).N)
    (fun w => (Wout33_arr Win a1 O c w).symm)
    (fun b hb => Wout33_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts33 c (Vof Win c),
    Pipeline.unscopedRestP_sdiff pre33 spec33 {main_v141} hx_sub33 c (Vof Win c),
    show (fun k => Vof Win c (pre33.ref k)) = a1.1 from funext ha1] at hjoin
  exact hjoin

end Record

section Seg

variable (Win : Dev nD → Valuation τ sig (Elt F))
  (adm : (p : Fin 49) → (pcfgs (F := F) p).Adm)
  (O : (c : Dev nD) → Fin (cfg33 (adm (33 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout33. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg33 (hd : ∀ c, pdats (33 : Fin 49) c = dat33 (Vof Win) (adm (33 : Fin 49)) O c)
    (ha1 : ∀ c k, Vof Win c (pre33.ref k) = (adm (33 : Fin 49)).1 k)
    (hbody : ∀ c, BodyObligation (dat33 (F := F) (Vof Win) (adm (33 : Fin 49)) O c) (defs₀ (F := F)) 𝒱₀ () Set.univ) :
    Pipeline.RegionSeg (pcfgs (F := F)) adm pdats () defs₀ 𝒱₀ L lv (33 : Fin 49) where
  win := (launch33 (F := F)).win.to₀
  block_pos := (launch33 (F := F)).block_pos
  stage_whole := (launch33 (F := F)).stage_whole
  K := Fin 8
  osem := osem33
  ho := ownSemFacts33
  hbody c := by rw [hd c]; exact (hbody c).loose
  hwaits := Pipeline.hwaits_of_owed_zero _ _ _ _ L lv (33 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout33 Win (adm (33 : Fin 49)) O c) ∗ R c)
  X c := iprop((∃ r, prngReg c r)
    ∗ Pipeline.ownSems0 (Ix := Unit) (Name := ℕ) (U := UD sig nD τ) (Lvl := ℕ) (Val := Elt F) (τ := τ) osem33 c
    ∗ (bigSep ({main_v141} : Finset (Ref sig .tc)) fun b => (((c : Thread nD τ)).loc b) ↦{fullShare} Vof Win c b))
  Y c := iprop((∃ r, prngReg c r)
    ∗ (bigSep ({main_v141} : Finset (Ref sig .tc)) fun b => (((c : Thread nD τ)).loc b) ↦{fullShare} Vof Win c b)
    ∗ Pipeline.prefHeld pre33 c (fun _ => fullShare) (adm (33 : Fin 49)).1)
  Z c := bigSep (Pipeline.restRefsP sig pre33 spec33 \ {main_v141}) fun b => (((c : Thread nD τ)).loc b) ↦{fullShare} Vof Win c b
  hentry c := by
    rw [hd c]
    iintro ⟨⟨Hub, Hp, HO⟩, Hos, -⟩
    ihave H := (entry33 Win (adm (33 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq33, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq33, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit33 Win (adm (33 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg33 (F := F)).Adm)

/-- The output block at point t: the gathered rows (of the far operand's contents under V, chosen by the table's
    words at that point) times the input block. -/
def outBlk33 (c : Dev nD) (t : Fin (cfg33 a1).N) : Vec F S8x64 .f32 :=
  gatherOut (gatherG (a1.1 0) (V c main_v141) (grid33.coords t)) (iblk33 V a1 c 0 t)

theorem outBlk_eq33 (c : Dev nD) (t : Fin (cfg33 a1).N) :
    outBlk33 V a1 c t = gatherOut (gatherG (a1.1 0) (V c main_v141) (grid33.coords t)) (iblk33 V a1 c 0 t) := rfl

/-- The proof data with the output block named: after the body at point t the output window's buffer holds it. -/
theorem afterOutBlk33 (c : Dev nD) (t : Fin (cfg33 a1).N) :
    (dat33 V a1 (outBlk33 V a1) c).after 1 t
      = gatherOut (gatherG (a1.1 0) (V c main_v141) (grid33.coords t)) (iblk33 V a1 c 0 t) :=
  afterOut33 V a1 (outBlk33 V a1) c t

/-- The own cells at zero are the semaphore array's eight entries at zero, in order. -/
theorem ownSems_eq33 (c : Dev nD) :
    (Pipeline.ownSems0 (Ix := Unit) (Name := ℕ) (U := UD sig nD τ) (Lvl := ℕ) (Val := Elt F) (τ := τ) osem33 c : sProp 𝕄)
      = gsems0 c cc33_scratch1 := by
  rw [Pipeline.ownSems0_eq_of_list c osem33 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq33 (t : Fin (cfg33 a1).N) : ∃ h3 h4, bodyProg33 (F := F) a1 t
    = cc33__gather_mul_kernel (grid33.coords t) (Memref.whole main_v143) (Memref.isWhole_whole _) (Memref.whole main_v141) (Memref.isWhole_whole _)
        (stg33 a1 0 t) h3 (stg33 a1 1 t) h4 (Memref.whole cc33_scratch0) (Memref.isWhole_whole _) cc33_scratch1 := ⟨_, _, rfl⟩

end Out

/-! ## The body's run, joined to the proof data -/

section Body

variable (V : (c : Dev nD) → (b : Ref sig .tc) → Buf (Elt F) ((c : Thread nD τ).loc b))
  (a1 : (pcfg33 (F := F)).Adm)

/-- The scratch buffer whole at some contents, as a memref owned at some contents. -/
theorem scratchOwns_eq33 (c : Dev nD) :
    (iprop(∃ d, owns (c : Thread nD τ) (Memref.whole cc33_scratch0) fullShare d) : sProp 𝕄)
      = iprop(∃ f : Buf (Elt F) ((c : Thread nD τ).loc cc33_scratch0), ((c : Thread nD τ).loc cc33_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun33 (hlt : ∀ y, BitVec.toNat ((a1.1 0) y) < 100000) : BodyRun33 V a1 (outBlk33 V a1) := by
  intro c t W K
  obtain ⟨h3, h4, hprog⟩ := bodyProg_eq33 (F := F) a1 t
  rw [hprog, ownSems_eq33, ← scratchOwns_eq33 (F := F) c]
  have hrun := gather_kernel_run_33 (F := F) c (grid33.coords t) (Memref.whole main_v143) (Memref.isWhole_whole _) (Memref.whole main_v141) (Memref.isWhole_whole _)
    (stg33 a1 0 t) h3 (stg33 a1 1 t) h4 (Memref.whole cc33_scratch0) (Memref.isWhole_whole _) cc33_scratch1 fullShare fullShare
    (a1.1 0) (V c main_v141) (iblk33 V a1 c 0 t) (fun y => hlt y) W K
  simp only [Memref.view_whole, View.read_whole] at hrun
  unfold outBlk33
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut33 (hlt : ∀ y, BitVec.toNat ((a1.1 0) y) < 100000) (c : Dev nD) :
    BodyObligation (dat33 (F := F) V a1 (outBlk33 V a1) c) (defs₀ (F := F)) Variants.none () Set.univ :=
  body_obligation33 V a1 (outBlk33 V a1) (bodyRun33 V a1 hlt) c

end Body

end Cert.Kernel.Hand

end
-- ==== Proof.K.Regions_34_41.lean ====
/-
  Gather regions 34 to 41 of the host program, one after the other: for each, the proof data, the body obligation and the record of the region in the launch,
  exactly as for region 1 (whose module says what each part is).
-/
import proofs.«421643_j28415503630349_2_alg».proof.Proof.K.Common
import proofs.«421643_j28415503630349_2_alg».proof.Proof.K.BodyEq
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

/-! # Region 34 -/

/-! ## The body's own transfer cells -/

/-- The eight cells of the body's semaphore array, in order. -/
abbrev osem34 : Fin 8 → SemLoc sig := fun j => SemLoc.dma (cc34_scratch1.ix (fun | ⟨0, _⟩ => j))

/-- They are scoped, pairwise distinct, and none is a staging cell of a window. -/
theorem ownSemFacts34 : Pipeline.OwnSemFacts spec34 osem34 := by decide

/-- The far operand is an unscoped buffer that is neither a window's array nor a table. -/
theorem hx_sub34 : ({main_v141} : Finset (Ref sig .tc)) ⊆ Pipeline.restRefsP sig pre34 spec34 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg34 (F := F)).Adm)
  (O : (c : Dev nD) → Fin (cfg34 a1).N → Vec F S8x64 .f32)

/-! ## The windows' blocks -/

/-- Window w's block at point t, read off its array under V. -/
def iblk34 (c : Dev nD) (w : Fin (cfg34 a1).W) (t : Fin (cfg34 a1).N) :
    (((cfg34 a1).win w).xblock ((cfg34 a1).grid.coords t)).Idx → Elt F ((cfg34 a1).win w).elt :=
  (((cfg34 a1).win w).blk t).view.read (Elt F) (V c (Pipeline.arrRef spec34 w))

/-- The input window's current staging buffer holds its block at every point, fetched there or not, for any proof
    data whose array is V's and whose body leaves the block in place: unfetched, the block index has not moved. -/
theorem beforeIn34_of {c : Dev nD} (dat : Dat τ (Elt F) Unit ℕ (UD sig nD τ) ℕ (cfg34 a1) c)
    (hA : dat.A 0 = V c (Pipeline.arrRef spec34 0))
    (hafter : ∀ t, dat.after 0 t = iblk34 V a1 c 0 t) (t : Fin (cfg34 a1).N) (d) : dat.before 0 t d = iblk34 V a1 c 0 t :=
  (dat.before_in_eq_fetched 0 rfl (fun _ => rfl) (fun _ _ _ => rfl)
    (fun t => by rw [hafter]; unfold Dat.blockOf iblk34; rw [hA]; try rfl) t d).trans
    (by unfold Dat.fetched Dat.blockOf iblk34; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat34 (c : Dev nD) : Dat τ (Elt F) Unit ℕ (UD sig nD τ) ℕ (cfg34 a1) c where
  A w := V c (Pipeline.arrRef spec34 w)
  after w t := match w with
    | ⟨0, _⟩ => iblk34 V a1 c 0 t
    | ⟨1, _⟩ => O c t
  Φ _ := iprop(Pipeline.ΦD osem34 spec34 {main_v141} V c ∗ Pipeline.prefHeld pre34 c (fun _ => fullShare) a1.1)
  q _ := fullShare
  owed _ := 0

theorem A_eq34 (c : Dev nD) (w : Fin (cfg34 a1).W) : (dat34 V a1 O c).A w = V c (Pipeline.arrRef spec34 w) := by
  dsimp only [dat34]

theorem afterIn34 (c : Dev nD) (t : Fin (cfg34 a1).N) : (dat34 V a1 O c).after 0 t = iblk34 V a1 c 0 t := by
  dsimp only [dat34]; rfl

theorem afterOut34 (c : Dev nD) (t : Fin (cfg34 a1).N) :
    (dat34 V a1 O c).after 1 t = O c t := by
  dsimp only [dat34]; rfl

theorem beforeIn34 (c : Dev nD) (t : Fin (cfg34 a1).N) (d) : (dat34 V a1 O c).before 0 t d = iblk34 V a1 c 0 t :=
  beforeIn34_of V a1 (dat34 V a1 O c) (A_eq34 V a1 O c 0) (afterIn34 V a1 O c) t d

theorem Phi_eq34 (c : Dev nD) (t : Fin ((cfg34 a1).N + 1)) :
    (dat34 V a1 O c).Φ t
      = iprop(Pipeline.ΦD osem34 spec34 {main_v141} V c ∗ Pipeline.prefHeld pre34 c (fun _ => fullShare) a1.1) := by
  dsimp only [dat34]

theorem owed_eq34 (c : Dev nD) (t : Fin ((cfg34 a1).N + 1)) : (dat34 V a1 O c).owed t = 0 := by
  dsimp only [dat34]

/-! ## The invariant, conjunct by conjunct -/

/-- The invariant's first part opened: the body's scratch buffer whole at some contents and the other scoped
    buffers no window stages, the generator register, the own cells at zero, the far operand at its contents. -/
theorem PhiD_eq34 (c : Dev nD) :
    (Pipeline.ΦD osem34 spec34 {main_v141} V c : sProp 𝕄)
      = iprop(iprop(iprop((∃ f : Buf (Elt F) ((c : Thread nD τ).loc cc34_scratch0), ((c : Thread nD τ).loc cc34_scratch0) ↦{fullShare} f))
            ∗ Pipeline.scopedRestBut (Ix := Unit) (Name := ℕ) (U := UD sig nD τ) (Lvl := ℕ) (Val := Elt F) spec34 c [cc34_scratch0])
          ∗ (∃ r, prngReg c r)
          ∗ Pipeline.ownSems0 (Ix := Unit) (Name := ℕ) (U := UD sig nD τ) (Lvl := ℕ) (Val := Elt F) (τ := τ) osem34 c
          ∗ (((c : Thread nD τ).loc main_v141) ↦{fullShare} V c main_v141)) := by
  rw [Pipeline.ΦD_eq, scopedRest34_split, BI.bigSep_eq_bigSepL_of_eq [main_v141] (by decide) (by decide)]; rfl

/-- The one table, held whole. -/
theorem prefHeld_eq34 (c : Dev nD) :
    (Pipeline.prefHeld pre34 c (fun _ => fullShare) a1.1 : sProp 𝕄)
      = (((c : Thread nD τ).loc main_v147) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg34 (w : Fin (cfg34 a1).W) (t : Fin (cfg34 a1).N) := ((cfg34 a1).win w).stage ((cfg34 a1).slots t w)

/-- The body as the pipeline calls it at point t. -/
abbrev bodyProg34 (t : Fin (cfg34 a1).N) : Prog (TpuEff nD τ sig (Elt F) Λ₀ .tc) PUnit :=
  (defs₀ (F := F)) .tc (cfg34 a1).body ((cfg34 a1).bodyArgs t ((cfg34 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun34 : Prop :=
  ∀ (c : Dev nD) (t : Fin (cfg34 a1).N) (W) (K : PUnit → sProp 𝕄),
    iprop(owns (c : Thread nD τ) (stg34 a1 0 t) fullShare (iblk34 V a1 c 0 t)
        ∗ (∃ d, owns (c : Thread nD τ) (stg34 a1 1 t) fullShare d)
        ∗ (∃ f : Buf (Elt F) ((c : Thread nD τ).loc cc34_scratch0), ((c : Thread nD τ).loc cc34_scratch0) ↦{fullShare} f)
        ∗ Pipeline.ownSems0 (Ix := Unit) (Name := ℕ) (U := UD sig nD τ) (Lvl := ℕ) (Val := Elt F) (τ := τ) osem34 c
        ∗ (((c : Thread nD τ).loc main_v147) ↦{fullShare} a1.1 0)
        ∗ (((c : Thread nD τ).loc main_v141) ↦{fullShare} V c main_v141)
        ∗ owes (c : Thread nD τ) (0 : CellTallies nD τ sig Unit) W
        ∗ (iprop(owns (c : Thread nD τ) (stg34 a1 0 t) fullShare (iblk34 V a1 c 0 t)
            ∗ owns (c : Thread nD τ) (stg34 a1 1 t) fullShare (O c t)
            ∗ (∃ f : Buf (Elt F) ((c : Thread nD τ).loc cc34_scratch0), ((c : Thread nD τ).loc cc34_scratch0) ↦{fullShare} f)
            ∗ Pipeline.ownSems0 (Ix := Unit) (Name := ℕ) (U := UD sig nD τ) (Lvl := ℕ) (Val := Elt F) (τ := τ) osem34 c
            ∗ (((c : Thread nD τ).loc main_v147) ↦{fullShare} a1.1 0)
            ∗ (((c : Thread nD τ).loc main_v141) ↦{fullShare} V c main_v141)
            ∗ (∃ W', owes (c : Thread nD τ) (0 : CellTallies nD τ sig Unit) W')) -∗ K ⟨⟩))
      ⊢ wp frame (wpE (defs₀ (F := F)) Variants.none c none) Set.univ (bodyProg34 a1 t) K

/-- What the body is called with at point t, the windows one by one, -/
def bodyPre34 (c : Dev nD) (t : Fin (cfg34 a1).N) : sProp 𝕄 :=
  iprop((dat34 V a1 O c).Φ t.castSucc ∗ (dat34 V a1 O c).owesAt () t.castSucc
    ∗ (∃ d, owns (c : Thread nD τ) (stg34 a1 0 t) fullShare ((dat34 V a1 O c).before 0 t d))
    ∗ (∃ d, owns (c : Thread nD τ) (stg34 a1 1 t) fullShare ((dat34 V a1 O c).before 1 t d)))

/-- and what it returns. -/
def bodyPost34 (c : Dev nD) (t : Fin (cfg34 a1).N) : sProp 𝕄 :=
  iprop((dat34 V a1 O c).Φ t.succ ∗ (dat34 V a1 O c).owesAt () t.succ
    ∗ owns (c : Thread nD τ) (stg34 a1 0 t) fullShare ((dat34 V a1 O c).after 0 t)
    ∗ owns (c : Thread nD τ) (stg34 a1 1 t) fullShare ((dat34 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body34 (hrun : BodyRun34 V a1 O) (c : Dev nD) (t : Fin (cfg34 a1).N) :
    bodyPre34 V a1 O c t
      ⊢ wp frame (wpE (defs₀ (F := F)) Variants.none c none) Set.univ (bodyProg34 a1 t) (fun _ => bodyPost34 V a1 O c t) := by
  unfold bodyPre34 bodyPost34
  simp only [beforeIn34]
  rw [afterIn34, afterOut34, Phi_eq34, Phi_eq34, PhiD_eq34, prefHeld_eq34]
  unfold Dat.owesAt Pipeline.owesWithin
  rw [owed_eq34, owed_eq34]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation34 (hrun : BodyRun34 V a1 O) (c : Dev nD) :
    BodyObligation (dat34 (F := F) V a1 O c) (defs₀ (F := F)) Variants.none () Set.univ := fun t => by
  rw [bigSep_W34, bigSep_W34]
  exact sound_body34 V a1 O hrun c t

end Data

/-! ## The region's record -/

section Record

variable (Win : Dev nD → Valuation τ sig (Elt F))

variable (a1 : (pcfg34 (F := F)).Adm)
  (O : (c : Dev nD) → Fin (cfg34 a1).N → Vec F S8x64 .f32)

/-- The buffers at the region's exit: its arrays at what the write-backs leave, every other buffer as entered. -/
def Wout34 (c : Dev nD) : Valuation τ sig (Elt F) :=
  Pipeline.withArrays spec34 c (Win c) fun w => (dat34 (Vof Win) a1 O c).arrAt w (cfg34 a1).N

theorem Wout34_arr (c : Dev nD) (w : Fin (cfg34 a1).W) :
    Wout34 Win a1 O c (Proc.devRef .tc (Pipeline.arrRef spec34 w)) = (dat34 (Vof Win) a1 O c).arrAt w (cfg34 a1).N := by
  unfold Wout34; exact Pipeline.withArrays_arr spec34 winFacts34.arr_inj c _ _ w

theorem Wout34_of_ne (c : Dev nD) (b : Ref sig .tc) (hb : ∀ w, Pipeline.arrRef spec34 w ≠ b) :
    Wout34 Win a1 O c (Proc.devRef .tc b) = Win c (Proc.devRef .tc b) := by
  unfold Wout34; exact Pipeline.withArrays_of_ne spec34 c _ _ b hb

/-- ENTRY, the buffers' part. Every unscoped buffer at Win is: the region's arrays at the proof data's entry contents,
    the table whole at the admissible contents (which are Win's there), the far operand whole, and the others. -/
theorem entry34 (c : Dev nD) (ha1 : ∀ k, Vof Win c (pre34.ref k) = a1.1 k) :
    (StableHlo.held (c : Thread nD τ) (Pipeline.ucRefs τ sig) (Win c) : sProp 𝕄)
      ⊢ iprop((dat34 (Vof Win) a1 O c).arrays ((dat34 (Vof Win) a1 O c).arrAt · 0)
          ∗ Pipeline.prefHeld pre34 c (fun _ => fullShare) a1.1
          ∗ (bigSep ({main_v141} : Finset (Ref sig .tc)) fun b => (((c : Thread nD τ)).loc b) ↦{fullShare} Vof Win c b)
          ∗ bigSep (Pipeline.restRefsP sig pre34 spec34 \ {main_v141}) fun b => (((c : Thread nD τ)).loc b) ↦{fullShare} Vof Win c b) := by
  have hsplit := Pipeline.arrays_of_unscopedBufs (p := ()) (fun (_ : Unit) => pcfg34 (F := F)) (fun _ => a1)
    (fun _ c => dat34 (Vof Win) a1 O c) winFacts34 (launch34 (F := F)).arr_whole c
    ((dat34 (Vof Win) a1 O c).share_full fun _ => rfl) (Vof Win c) (fun w => A_eq34 (Vof Win) a1 O c w)
  rw [Pipeline.unscopedBufs_held,
    Pipeline.unscopedRest_split (Ix := Unit) (Name := ℕ) (U := UD sig nD τ) (Lvl := ℕ) preFacts34 c (Vof Win c),
    Pipeline.unscopedRestP_sdiff pre34 spec34 {main_v141} hx_sub34 c (Vof Win c),
    show (fun k => Vof Win c (pre34.ref k)) = a1.1 from funext ha1] at hsplit
  exact hsplit

/-- EXIT, the buffers' part: the same four put back, the arrays at what the write-backs leave, are every unscoped
    buffer at the exit valuation. -/
theorem exit34 (c : Dev nD) (ha1 : ∀ k, Vof Win c (pre34.ref k) = a1.1 k) :
    iprop((dat34 (Vof Win) a1 O c).arrays ((dat34 (Vof Win) a1 O c).arrAt · (cfg34 a1).N)
        ∗ Pipeline.prefHeld pre34 c (fun _ => fullShare) a1.1
        ∗ (bigSep ({main_v141} : Finset (Ref sig .tc)) fun b => (((c : Thread nD τ)).loc b) ↦{fullShare} Vof Win c b)
        ∗ bigSep (Pipeline.restRefsP sig pre34 spec34 \ {main_v141}) fun b => (((c : Thread nD τ)).loc b) ↦{fullShare} Vof Win c b)
      ⊢ (StableHlo.held (c : Thread nD τ) (Pipeline.ucRefs τ sig) (Wout34 Win a1 O c) : sProp 𝕄) := by
  have hjoin := Pipeline.unscopedBufs_of_arrays (p := ()) (fun (_ : Unit) => pcfg34 (F := F)) (fun _ => a1)
    (Ix := Unit) (Name := ℕ) (U := UD sig nD τ) (Lvl := ℕ)
    winFacts34 (launch34 (F := F)).arr_whole c (fun _ c => dat34 (Vof Win) a1 O c)
    ((dat34 (Vof Win) a1 O c).share_full fun _ => rfl)
    (Vof Win c) (Vof (Wout34 Win a1 O) c) ((dat34 (Vof Win) a1 O c).arrAt · (cfg34 a1).N)
    (fun w => (Wout34_arr Win a1 O c w).symm)
    (fun b hb => Wout34_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts34 c (Vof Win c),
    Pipeline.unscopedRestP_sdiff pre34 spec34 {main_v141} hx_sub34 c (Vof Win c),
    show (fun k => Vof Win c (pre34.ref k)) = a1.1 from funext ha1] at hjoin
  exact hjoin

end Record

section Seg

variable (Win : Dev nD → Valuation τ sig (Elt F))
  (adm : (p : Fin 49) → (pcfgs (F := F) p).Adm)
  (O : (c : Dev nD) → Fin (cfg34 (adm (34 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout34. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg34 (hd : ∀ c, pdats (34 : Fin 49) c = dat34 (Vof Win) (adm (34 : Fin 49)) O c)
    (ha1 : ∀ c k, Vof Win c (pre34.ref k) = (adm (34 : Fin 49)).1 k)
    (hbody : ∀ c, BodyObligation (dat34 (F := F) (Vof Win) (adm (34 : Fin 49)) O c) (defs₀ (F := F)) 𝒱₀ () Set.univ) :
    Pipeline.RegionSeg (pcfgs (F := F)) adm pdats () defs₀ 𝒱₀ L lv (34 : Fin 49) where
  win := (launch34 (F := F)).win.to₀
  block_pos := (launch34 (F := F)).block_pos
  stage_whole := (launch34 (F := F)).stage_whole
  K := Fin 8
  osem := osem34
  ho := ownSemFacts34
  hbody c := by rw [hd c]; exact (hbody c).loose
  hwaits := Pipeline.hwaits_of_owed_zero _ _ _ _ L lv (34 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout34 Win (adm (34 : Fin 49)) O c) ∗ R c)
  X c := iprop((∃ r, prngReg c r)
    ∗ Pipeline.ownSems0 (Ix := Unit) (Name := ℕ) (U := UD sig nD τ) (Lvl := ℕ) (Val := Elt F) (τ := τ) osem34 c
    ∗ (bigSep ({main_v141} : Finset (Ref sig .tc)) fun b => (((c : Thread nD τ)).loc b) ↦{fullShare} Vof Win c b))
  Y c := iprop((∃ r, prngReg c r)
    ∗ (bigSep ({main_v141} : Finset (Ref sig .tc)) fun b => (((c : Thread nD τ)).loc b) ↦{fullShare} Vof Win c b)
    ∗ Pipeline.prefHeld pre34 c (fun _ => fullShare) (adm (34 : Fin 49)).1)
  Z c := bigSep (Pipeline.restRefsP sig pre34 spec34 \ {main_v141}) fun b => (((c : Thread nD τ)).loc b) ↦{fullShare} Vof Win c b
  hentry c := by
    rw [hd c]
    iintro ⟨⟨Hub, Hp, HO⟩, Hos, -⟩
    ihave H := (entry34 Win (adm (34 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq34, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq34, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit34 Win (adm (34 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg34 (F := F)).Adm)

/-- The output block at point t: the gathered rows (of the far operand's contents under V, chosen by the table's
    words at that point) times the input block. -/
def outBlk34 (c : Dev nD) (t : Fin (cfg34 a1).N) : Vec F S8x64 .f32 :=
  gatherOut (gatherG (a1.1 0) (V c main_v141) (grid34.coords t)) (iblk34 V a1 c 0 t)

theorem outBlk_eq34 (c : Dev nD) (t : Fin (cfg34 a1).N) :
    outBlk34 V a1 c t = gatherOut (gatherG (a1.1 0) (V c main_v141) (grid34.coords t)) (iblk34 V a1 c 0 t) := rfl

/-- The proof data with the output block named: after the body at point t the output window's buffer holds it. -/
theorem afterOutBlk34 (c : Dev nD) (t : Fin (cfg34 a1).N) :
    (dat34 V a1 (outBlk34 V a1) c).after 1 t
      = gatherOut (gatherG (a1.1 0) (V c main_v141) (grid34.coords t)) (iblk34 V a1 c 0 t) :=
  afterOut34 V a1 (outBlk34 V a1) c t

/-- The own cells at zero are the semaphore array's eight entries at zero, in order. -/
theorem ownSems_eq34 (c : Dev nD) :
    (Pipeline.ownSems0 (Ix := Unit) (Name := ℕ) (U := UD sig nD τ) (Lvl := ℕ) (Val := Elt F) (τ := τ) osem34 c : sProp 𝕄)
      = gsems0 c cc34_scratch1 := by
  rw [Pipeline.ownSems0_eq_of_list c osem34 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq34 (t : Fin (cfg34 a1).N) : ∃ h3 h4, bodyProg34 (F := F) a1 t
    = cc34__gather_mul_kernel (grid34.coords t) (Memref.whole main_v147) (Memref.isWhole_whole _) (Memref.whole main_v141) (Memref.isWhole_whole _)
        (stg34 a1 0 t) h3 (stg34 a1 1 t) h4 (Memref.whole cc34_scratch0) (Memref.isWhole_whole _) cc34_scratch1 := ⟨_, _, rfl⟩

end Out

/-! ## The body's run, joined to the proof data -/

section Body

variable (V : (c : Dev nD) → (b : Ref sig .tc) → Buf (Elt F) ((c : Thread nD τ).loc b))
  (a1 : (pcfg34 (F := F)).Adm)

/-- The scratch buffer whole at some contents, as a memref owned at some contents. -/
theorem scratchOwns_eq34 (c : Dev nD) :
    (iprop(∃ d, owns (c : Thread nD τ) (Memref.whole cc34_scratch0) fullShare d) : sProp 𝕄)
      = iprop(∃ f : Buf (Elt F) ((c : Thread nD τ).loc cc34_scratch0), ((c : Thread nD τ).loc cc34_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun34 (hlt : ∀ y, BitVec.toNat ((a1.1 0) y) < 100000) : BodyRun34 V a1 (outBlk34 V a1) := by
  intro c t W K
  obtain ⟨h3, h4, hprog⟩ := bodyProg_eq34 (F := F) a1 t
  rw [hprog, ownSems_eq34, ← scratchOwns_eq34 (F := F) c]
  have hrun := gather_kernel_run_34 (F := F) c (grid34.coords t) (Memref.whole main_v147) (Memref.isWhole_whole _) (Memref.whole main_v141) (Memref.isWhole_whole _)
    (stg34 a1 0 t) h3 (stg34 a1 1 t) h4 (Memref.whole cc34_scratch0) (Memref.isWhole_whole _) cc34_scratch1 fullShare fullShare
    (a1.1 0) (V c main_v141) (iblk34 V a1 c 0 t) (fun y => hlt y) W K
  simp only [Memref.view_whole, View.read_whole] at hrun
  unfold outBlk34
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut34 (hlt : ∀ y, BitVec.toNat ((a1.1 0) y) < 100000) (c : Dev nD) :
    BodyObligation (dat34 (F := F) V a1 (outBlk34 V a1) c) (defs₀ (F := F)) Variants.none () Set.univ :=
  body_obligation34 V a1 (outBlk34 V a1) (bodyRun34 V a1 hlt) c

end Body

/-! # Region 35 -/

/-! ## The body's own transfer cells -/

/-- The eight cells of the body's semaphore array, in order. -/
abbrev osem35 : Fin 8 → SemLoc sig := fun j => SemLoc.dma (cc35_scratch1.ix (fun | ⟨0, _⟩ => j))

/-- They are scoped, pairwise distinct, and none is a staging cell of a window. -/
theorem ownSemFacts35 : Pipeline.OwnSemFacts spec35 osem35 := by decide

/-- The far operand is an unscoped buffer that is neither a window's array nor a table. -/
theorem hx_sub35 : ({main_v141} : Finset (Ref sig .tc)) ⊆ Pipeline.restRefsP sig pre35 spec35 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg35 (F := F)).Adm)
  (O : (c : Dev nD) → Fin (cfg35 a1).N → Vec F S8x64 .f32)

/-! ## The windows' blocks -/

/-- Window w's block at point t, read off its array under V. -/
def iblk35 (c : Dev nD) (w : Fin (cfg35 a1).W) (t : Fin (cfg35 a1).N) :
    (((cfg35 a1).win w).xblock ((cfg35 a1).grid.coords t)).Idx → Elt F ((cfg35 a1).win w).elt :=
  (((cfg35 a1).win w).blk t).view.read (Elt F) (V c (Pipeline.arrRef spec35 w))

/-- The input window's current staging buffer holds its block at every point, fetched there or not, for any proof
    data whose array is V's and whose body leaves the block in place: unfetched, the block index has not moved. -/
theorem beforeIn35_of {c : Dev nD} (dat : Dat τ (Elt F) Unit ℕ (UD sig nD τ) ℕ (cfg35 a1) c)
    (hA : dat.A 0 = V c (Pipeline.arrRef spec35 0))
    (hafter : ∀ t, dat.after 0 t = iblk35 V a1 c 0 t) (t : Fin (cfg35 a1).N) (d) : dat.before 0 t d = iblk35 V a1 c 0 t :=
  (dat.before_in_eq_fetched 0 rfl (fun _ => rfl) (fun _ _ _ => rfl)
    (fun t => by rw [hafter]; unfold Dat.blockOf iblk35; rw [hA]; try rfl) t d).trans
    (by unfold Dat.fetched Dat.blockOf iblk35; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat35 (c : Dev nD) : Dat τ (Elt F) Unit ℕ (UD sig nD τ) ℕ (cfg35 a1) c where
  A w := V c (Pipeline.arrRef spec35 w)
  after w t := match w with
    | ⟨0, _⟩ => iblk35 V a1 c 0 t
    | ⟨1, _⟩ => O c t
  Φ _ := iprop(Pipeline.ΦD osem35 spec35 {main_v141} V c ∗ Pipeline.prefHeld pre35 c (fun _ => fullShare) a1.1)
  q _ := fullShare
  owed _ := 0

theorem A_eq35 (c : Dev nD) (w : Fin (cfg35 a1).W) : (dat35 V a1 O c).A w = V c (Pipeline.arrRef spec35 w) := by
  dsimp only [dat35]

theorem afterIn35 (c : Dev nD) (t : Fin (cfg35 a1).N) : (dat35 V a1 O c).after 0 t = iblk35 V a1 c 0 t := by
  dsimp only [dat35]; rfl

theorem afterOut35 (c : Dev nD) (t : Fin (cfg35 a1).N) :
    (dat35 V a1 O c).after 1 t = O c t := by
  dsimp only [dat35]; rfl

theorem beforeIn35 (c : Dev nD) (t : Fin (cfg35 a1).N) (d) : (dat35 V a1 O c).before 0 t d = iblk35 V a1 c 0 t :=
  beforeIn35_of V a1 (dat35 V a1 O c) (A_eq35 V a1 O c 0) (afterIn35 V a1 O c) t d

theorem Phi_eq35 (c : Dev nD) (t : Fin ((cfg35 a1).N + 1)) :
    (dat35 V a1 O c).Φ t
      = iprop(Pipeline.ΦD osem35 spec35 {main_v141} V c ∗ Pipeline.prefHeld pre35 c (fun _ => fullShare) a1.1) := by
  dsimp only [dat35]

theorem owed_eq35 (c : Dev nD) (t : Fin ((cfg35 a1).N + 1)) : (dat35 V a1 O c).owed t = 0 := by
  dsimp only [dat35]

/-! ## The invariant, conjunct by conjunct -/

/-- The invariant's first part opened: the body's scratch buffer whole at some contents and the other scoped
    buffers no window stages, the generator register, the own cells at zero, the far operand at its contents. -/
theorem PhiD_eq35 (c : Dev nD) :
    (Pipeline.ΦD osem35 spec35 {main_v141} V c : sProp 𝕄)
      = iprop(iprop(iprop((∃ f : Buf (Elt F) ((c : Thread nD τ).loc cc35_scratch0), ((c : Thread nD τ).loc cc35_scratch0) ↦{fullShare} f))
            ∗ Pipeline.scopedRestBut (Ix := Unit) (Name := ℕ) (U := UD sig nD τ) (Lvl := ℕ) (Val := Elt F) spec35 c [cc35_scratch0])
          ∗ (∃ r, prngReg c r)
          ∗ Pipeline.ownSems0 (Ix := Unit) (Name := ℕ) (U := UD sig nD τ) (Lvl := ℕ) (Val := Elt F) (τ := τ) osem35 c
          ∗ (((c : Thread nD τ).loc main_v141) ↦{fullShare} V c main_v141)) := by
  rw [Pipeline.ΦD_eq, scopedRest35_split, BI.bigSep_eq_bigSepL_of_eq [main_v141] (by decide) (by decide)]; rfl

/-- The one table, held whole. -/
theorem prefHeld_eq35 (c : Dev nD) :
    (Pipeline.prefHeld pre35 c (fun _ => fullShare) a1.1 : sProp 𝕄)
      = (((c : Thread nD τ).loc main_v151) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg35 (w : Fin (cfg35 a1).W) (t : Fin (cfg35 a1).N) := ((cfg35 a1).win w).stage ((cfg35 a1).slots t w)

/-- The body as the pipeline calls it at point t. -/
abbrev bodyProg35 (t : Fin (cfg35 a1).N) : Prog (TpuEff nD τ sig (Elt F) Λ₀ .tc) PUnit :=
  (defs₀ (F := F)) .tc (cfg35 a1).body ((cfg35 a1).bodyArgs t ((cfg35 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun35 : Prop :=
  ∀ (c : Dev nD) (t : Fin (cfg35 a1).N) (W) (K : PUnit → sProp 𝕄),
    iprop(owns (c : Thread nD τ) (stg35 a1 0 t) fullShare (iblk35 V a1 c 0 t)
        ∗ (∃ d, owns (c : Thread nD τ) (stg35 a1 1 t) fullShare d)
        ∗ (∃ f : Buf (Elt F) ((c : Thread nD τ).loc cc35_scratch0), ((c : Thread nD τ).loc cc35_scratch0) ↦{fullShare} f)
        ∗ Pipeline.ownSems0 (Ix := Unit) (Name := ℕ) (U := UD sig nD τ) (Lvl := ℕ) (Val := Elt F) (τ := τ) osem35 c
        ∗ (((c : Thread nD τ).loc main_v151) ↦{fullShare} a1.1 0)
        ∗ (((c : Thread nD τ).loc main_v141) ↦{fullShare} V c main_v141)
        ∗ owes (c : Thread nD τ) (0 : CellTallies nD τ sig Unit) W
        ∗ (iprop(owns (c : Thread nD τ) (stg35 a1 0 t) fullShare (iblk35 V a1 c 0 t)
            ∗ owns (c : Thread nD τ) (stg35 a1 1 t) fullShare (O c t)
            ∗ (∃ f : Buf (Elt F) ((c : Thread nD τ).loc cc35_scratch0), ((c : Thread nD τ).loc cc35_scratch0) ↦{fullShare} f)
            ∗ Pipeline.ownSems0 (Ix := Unit) (Name := ℕ) (U := UD sig nD τ) (Lvl := ℕ) (Val := Elt F) (τ := τ) osem35 c
            ∗ (((c : Thread nD τ).loc main_v151) ↦{fullShare} a1.1 0)
            ∗ (((c : Thread nD τ).loc main_v141) ↦{fullShare} V c main_v141)
            ∗ (∃ W', owes (c : Thread nD τ) (0 : CellTallies nD τ sig Unit) W')) -∗ K ⟨⟩))
      ⊢ wp frame (wpE (defs₀ (F := F)) Variants.none c none) Set.univ (bodyProg35 a1 t) K

/-- What the body is called with at point t, the windows one by one, -/
def bodyPre35 (c : Dev nD) (t : Fin (cfg35 a1).N) : sProp 𝕄 :=
  iprop((dat35 V a1 O c).Φ t.castSucc ∗ (dat35 V a1 O c).owesAt () t.castSucc
    ∗ (∃ d, owns (c : Thread nD τ) (stg35 a1 0 t) fullShare ((dat35 V a1 O c).before 0 t d))
    ∗ (∃ d, owns (c : Thread nD τ) (stg35 a1 1 t) fullShare ((dat35 V a1 O c).before 1 t d)))

/-- and what it returns. -/
def bodyPost35 (c : Dev nD) (t : Fin (cfg35 a1).N) : sProp 𝕄 :=
  iprop((dat35 V a1 O c).Φ t.succ ∗ (dat35 V a1 O c).owesAt () t.succ
    ∗ owns (c : Thread nD τ) (stg35 a1 0 t) fullShare ((dat35 V a1 O c).after 0 t)
    ∗ owns (c : Thread nD τ) (stg35 a1 1 t) fullShare ((dat35 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body35 (hrun : BodyRun35 V a1 O) (c : Dev nD) (t : Fin (cfg35 a1).N) :
    bodyPre35 V a1 O c t
      ⊢ wp frame (wpE (defs₀ (F := F)) Variants.none c none) Set.univ (bodyProg35 a1 t) (fun _ => bodyPost35 V a1 O c t) := by
  unfold bodyPre35 bodyPost35
  simp only [beforeIn35]
  rw [afterIn35, afterOut35, Phi_eq35, Phi_eq35, PhiD_eq35, prefHeld_eq35]
  unfold Dat.owesAt Pipeline.owesWithin
  rw [owed_eq35, owed_eq35]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation35 (hrun : BodyRun35 V a1 O) (c : Dev nD) :
    BodyObligation (dat35 (F := F) V a1 O c) (defs₀ (F := F)) Variants.none () Set.univ := fun t => by
  rw [bigSep_W35, bigSep_W35]
  exact sound_body35 V a1 O hrun c t

end Data

/-! ## The region's record -/

section Record

variable (Win : Dev nD → Valuation τ sig (Elt F))

variable (a1 : (pcfg35 (F := F)).Adm)
  (O : (c : Dev nD) → Fin (cfg35 a1).N → Vec F S8x64 .f32)

/-- The buffers at the region's exit: its arrays at what the write-backs leave, every other buffer as entered. -/
def Wout35 (c : Dev nD) : Valuation τ sig (Elt F) :=
  Pipeline.withArrays spec35 c (Win c) fun w => (dat35 (Vof Win) a1 O c).arrAt w (cfg35 a1).N

theorem Wout35_arr (c : Dev nD) (w : Fin (cfg35 a1).W) :
    Wout35 Win a1 O c (Proc.devRef .tc (Pipeline.arrRef spec35 w)) = (dat35 (Vof Win) a1 O c).arrAt w (cfg35 a1).N := by
  unfold Wout35; exact Pipeline.withArrays_arr spec35 winFacts35.arr_inj c _ _ w

theorem Wout35_of_ne (c : Dev nD) (b : Ref sig .tc) (hb : ∀ w, Pipeline.arrRef spec35 w ≠ b) :
    Wout35 Win a1 O c (Proc.devRef .tc b) = Win c (Proc.devRef .tc b) := by
  unfold Wout35; exact Pipeline.withArrays_of_ne spec35 c _ _ b hb

/-- ENTRY, the buffers' part. Every unscoped buffer at Win is: the region's arrays at the proof data's entry contents,
    the table whole at the admissible contents (which are Win's there), the far operand whole, and the others. -/
theorem entry35 (c : Dev nD) (ha1 : ∀ k, Vof Win c (pre35.ref k) = a1.1 k) :
    (StableHlo.held (c : Thread nD τ) (Pipeline.ucRefs τ sig) (Win c) : sProp 𝕄)
      ⊢ iprop((dat35 (Vof Win) a1 O c).arrays ((dat35 (Vof Win) a1 O c).arrAt · 0)
          ∗ Pipeline.prefHeld pre35 c (fun _ => fullShare) a1.1
          ∗ (bigSep ({main_v141} : Finset (Ref sig .tc)) fun b => (((c : Thread nD τ)).loc b) ↦{fullShare} Vof Win c b)
          ∗ bigSep (Pipeline.restRefsP sig pre35 spec35 \ {main_v141}) fun b => (((c : Thread nD τ)).loc b) ↦{fullShare} Vof Win c b) := by
  have hsplit := Pipeline.arrays_of_unscopedBufs (p := ()) (fun (_ : Unit) => pcfg35 (F := F)) (fun _ => a1)
    (fun _ c => dat35 (Vof Win) a1 O c) winFacts35 (launch35 (F := F)).arr_whole c
    ((dat35 (Vof Win) a1 O c).share_full fun _ => rfl) (Vof Win c) (fun w => A_eq35 (Vof Win) a1 O c w)
  rw [Pipeline.unscopedBufs_held,
    Pipeline.unscopedRest_split (Ix := Unit) (Name := ℕ) (U := UD sig nD τ) (Lvl := ℕ) preFacts35 c (Vof Win c),
    Pipeline.unscopedRestP_sdiff pre35 spec35 {main_v141} hx_sub35 c (Vof Win c),
    show (fun k => Vof Win c (pre35.ref k)) = a1.1 from funext ha1] at hsplit
  exact hsplit

/-- EXIT, the buffers' part: the same four put back, the arrays at what the write-backs leave, are every unscoped
    buffer at the exit valuation. -/
theorem exit35 (c : Dev nD) (ha1 : ∀ k, Vof Win c (pre35.ref k) = a1.1 k) :
    iprop((dat35 (Vof Win) a1 O c).arrays ((dat35 (Vof Win) a1 O c).arrAt · (cfg35 a1).N)
        ∗ Pipeline.prefHeld pre35 c (fun _ => fullShare) a1.1
        ∗ (bigSep ({main_v141} : Finset (Ref sig .tc)) fun b => (((c : Thread nD τ)).loc b) ↦{fullShare} Vof Win c b)
        ∗ bigSep (Pipeline.restRefsP sig pre35 spec35 \ {main_v141}) fun b => (((c : Thread nD τ)).loc b) ↦{fullShare} Vof Win c b)
      ⊢ (StableHlo.held (c : Thread nD τ) (Pipeline.ucRefs τ sig) (Wout35 Win a1 O c) : sProp 𝕄) := by
  have hjoin := Pipeline.unscopedBufs_of_arrays (p := ()) (fun (_ : Unit) => pcfg35 (F := F)) (fun _ => a1)
    (Ix := Unit) (Name := ℕ) (U := UD sig nD τ) (Lvl := ℕ)
    winFacts35 (launch35 (F := F)).arr_whole c (fun _ c => dat35 (Vof Win) a1 O c)
    ((dat35 (Vof Win) a1 O c).share_full fun _ => rfl)
    (Vof Win c) (Vof (Wout35 Win a1 O) c) ((dat35 (Vof Win) a1 O c).arrAt · (cfg35 a1).N)
    (fun w => (Wout35_arr Win a1 O c w).symm)
    (fun b hb => Wout35_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts35 c (Vof Win c),
    Pipeline.unscopedRestP_sdiff pre35 spec35 {main_v141} hx_sub35 c (Vof Win c),
    show (fun k => Vof Win c (pre35.ref k)) = a1.1 from funext ha1] at hjoin
  exact hjoin

end Record

section Seg

variable (Win : Dev nD → Valuation τ sig (Elt F))
  (adm : (p : Fin 49) → (pcfgs (F := F) p).Adm)
  (O : (c : Dev nD) → Fin (cfg35 (adm (35 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout35. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg35 (hd : ∀ c, pdats (35 : Fin 49) c = dat35 (Vof Win) (adm (35 : Fin 49)) O c)
    (ha1 : ∀ c k, Vof Win c (pre35.ref k) = (adm (35 : Fin 49)).1 k)
    (hbody : ∀ c, BodyObligation (dat35 (F := F) (Vof Win) (adm (35 : Fin 49)) O c) (defs₀ (F := F)) 𝒱₀ () Set.univ) :
    Pipeline.RegionSeg (pcfgs (F := F)) adm pdats () defs₀ 𝒱₀ L lv (35 : Fin 49) where
  win := (launch35 (F := F)).win.to₀
  block_pos := (launch35 (F := F)).block_pos
  stage_whole := (launch35 (F := F)).stage_whole
  K := Fin 8
  osem := osem35
  ho := ownSemFacts35
  hbody c := by rw [hd c]; exact (hbody c).loose
  hwaits := Pipeline.hwaits_of_owed_zero _ _ _ _ L lv (35 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout35 Win (adm (35 : Fin 49)) O c) ∗ R c)
  X c := iprop((∃ r, prngReg c r)
    ∗ Pipeline.ownSems0 (Ix := Unit) (Name := ℕ) (U := UD sig nD τ) (Lvl := ℕ) (Val := Elt F) (τ := τ) osem35 c
    ∗ (bigSep ({main_v141} : Finset (Ref sig .tc)) fun b => (((c : Thread nD τ)).loc b) ↦{fullShare} Vof Win c b))
  Y c := iprop((∃ r, prngReg c r)
    ∗ (bigSep ({main_v141} : Finset (Ref sig .tc)) fun b => (((c : Thread nD τ)).loc b) ↦{fullShare} Vof Win c b)
    ∗ Pipeline.prefHeld pre35 c (fun _ => fullShare) (adm (35 : Fin 49)).1)
  Z c := bigSep (Pipeline.restRefsP sig pre35 spec35 \ {main_v141}) fun b => (((c : Thread nD τ)).loc b) ↦{fullShare} Vof Win c b
  hentry c := by
    rw [hd c]
    iintro ⟨⟨Hub, Hp, HO⟩, Hos, -⟩
    ihave H := (entry35 Win (adm (35 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq35, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq35, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit35 Win (adm (35 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg35 (F := F)).Adm)

/-- The output block at point t: the gathered rows (of the far operand's contents under V, chosen by the table's
    words at that point) times the input block. -/
def outBlk35 (c : Dev nD) (t : Fin (cfg35 a1).N) : Vec F S8x64 .f32 :=
  gatherOut (gatherG (a1.1 0) (V c main_v141) (grid35.coords t)) (iblk35 V a1 c 0 t)

theorem outBlk_eq35 (c : Dev nD) (t : Fin (cfg35 a1).N) :
    outBlk35 V a1 c t = gatherOut (gatherG (a1.1 0) (V c main_v141) (grid35.coords t)) (iblk35 V a1 c 0 t) := rfl

/-- The proof data with the output block named: after the body at point t the output window's buffer holds it. -/
theorem afterOutBlk35 (c : Dev nD) (t : Fin (cfg35 a1).N) :
    (dat35 V a1 (outBlk35 V a1) c).after 1 t
      = gatherOut (gatherG (a1.1 0) (V c main_v141) (grid35.coords t)) (iblk35 V a1 c 0 t) :=
  afterOut35 V a1 (outBlk35 V a1) c t

/-- The own cells at zero are the semaphore array's eight entries at zero, in order. -/
theorem ownSems_eq35 (c : Dev nD) :
    (Pipeline.ownSems0 (Ix := Unit) (Name := ℕ) (U := UD sig nD τ) (Lvl := ℕ) (Val := Elt F) (τ := τ) osem35 c : sProp 𝕄)
      = gsems0 c cc35_scratch1 := by
  rw [Pipeline.ownSems0_eq_of_list c osem35 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq35 (t : Fin (cfg35 a1).N) : ∃ h3 h4, bodyProg35 (F := F) a1 t
    = cc35__gather_mul_kernel (grid35.coords t) (Memref.whole main_v151) (Memref.isWhole_whole _) (Memref.whole main_v141) (Memref.isWhole_whole _)
        (stg35 a1 0 t) h3 (stg35 a1 1 t) h4 (Memref.whole cc35_scratch0) (Memref.isWhole_whole _) cc35_scratch1 := ⟨_, _, rfl⟩

end Out

/-! ## The body's run, joined to the proof data -/

section Body

variable (V : (c : Dev nD) → (b : Ref sig .tc) → Buf (Elt F) ((c : Thread nD τ).loc b))
  (a1 : (pcfg35 (F := F)).Adm)

/-- The scratch buffer whole at some contents, as a memref owned at some contents. -/
theorem scratchOwns_eq35 (c : Dev nD) :
    (iprop(∃ d, owns (c : Thread nD τ) (Memref.whole cc35_scratch0) fullShare d) : sProp 𝕄)
      = iprop(∃ f : Buf (Elt F) ((c : Thread nD τ).loc cc35_scratch0), ((c : Thread nD τ).loc cc35_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun35 (hlt : ∀ y, BitVec.toNat ((a1.1 0) y) < 100000) : BodyRun35 V a1 (outBlk35 V a1) := by
  intro c t W K
  obtain ⟨h3, h4, hprog⟩ := bodyProg_eq35 (F := F) a1 t
  rw [hprog, ownSems_eq35, ← scratchOwns_eq35 (F := F) c]
  have hrun := gather_kernel_run_35 (F := F) c (grid35.coords t) (Memref.whole main_v151) (Memref.isWhole_whole _) (Memref.whole main_v141) (Memref.isWhole_whole _)
    (stg35 a1 0 t) h3 (stg35 a1 1 t) h4 (Memref.whole cc35_scratch0) (Memref.isWhole_whole _) cc35_scratch1 fullShare fullShare
    (a1.1 0) (V c main_v141) (iblk35 V a1 c 0 t) (fun y => hlt y) W K
  simp only [Memref.view_whole, View.read_whole] at hrun
  unfold outBlk35
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut35 (hlt : ∀ y, BitVec.toNat ((a1.1 0) y) < 100000) (c : Dev nD) :
    BodyObligation (dat35 (F := F) V a1 (outBlk35 V a1) c) (defs₀ (F := F)) Variants.none () Set.univ :=
  body_obligation35 V a1 (outBlk35 V a1) (bodyRun35 V a1 hlt) c

end Body

/-! # Region 36 -/

/-! ## The body's own transfer cells -/

/-- The eight cells of the body's semaphore array, in order. -/
abbrev osem36 : Fin 8 → SemLoc sig := fun j => SemLoc.dma (cc36_scratch1.ix (fun | ⟨0, _⟩ => j))

/-- They are scoped, pairwise distinct, and none is a staging cell of a window. -/
theorem ownSemFacts36 : Pipeline.OwnSemFacts spec36 osem36 := by decide

/-- The far operand is an unscoped buffer that is neither a window's array nor a table. -/
theorem hx_sub36 : ({main_v141} : Finset (Ref sig .tc)) ⊆ Pipeline.restRefsP sig pre36 spec36 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg36 (F := F)).Adm)
  (O : (c : Dev nD) → Fin (cfg36 a1).N → Vec F S8x64 .f32)

/-! ## The windows' blocks -/

/-- Window w's block at point t, read off its array under V. -/
def iblk36 (c : Dev nD) (w : Fin (cfg36 a1).W) (t : Fin (cfg36 a1).N) :
    (((cfg36 a1).win w).xblock ((cfg36 a1).grid.coords t)).Idx → Elt F ((cfg36 a1).win w).elt :=
  (((cfg36 a1).win w).blk t).view.read (Elt F) (V c (Pipeline.arrRef spec36 w))

/-- The input window's current staging buffer holds its block at every point, fetched there or not, for any proof
    data whose array is V's and whose body leaves the block in place: unfetched, the block index has not moved. -/
theorem beforeIn36_of {c : Dev nD} (dat : Dat τ (Elt F) Unit ℕ (UD sig nD τ) ℕ (cfg36 a1) c)
    (hA : dat.A 0 = V c (Pipeline.arrRef spec36 0))
    (hafter : ∀ t, dat.after 0 t = iblk36 V a1 c 0 t) (t : Fin (cfg36 a1).N) (d) : dat.before 0 t d = iblk36 V a1 c 0 t :=
  (dat.before_in_eq_fetched 0 rfl (fun _ => rfl) (fun _ _ _ => rfl)
    (fun t => by rw [hafter]; unfold Dat.blockOf iblk36; rw [hA]; try rfl) t d).trans
    (by unfold Dat.fetched Dat.blockOf iblk36; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat36 (c : Dev nD) : Dat τ (Elt F) Unit ℕ (UD sig nD τ) ℕ (cfg36 a1) c where
  A w := V c (Pipeline.arrRef spec36 w)
  after w t := match w with
    | ⟨0, _⟩ => iblk36 V a1 c 0 t
    | ⟨1, _⟩ => O c t
  Φ _ := iprop(Pipeline.ΦD osem36 spec36 {main_v141} V c ∗ Pipeline.prefHeld pre36 c (fun _ => fullShare) a1.1)
  q _ := fullShare
  owed _ := 0

theorem A_eq36 (c : Dev nD) (w : Fin (cfg36 a1).W) : (dat36 V a1 O c).A w = V c (Pipeline.arrRef spec36 w) := by
  dsimp only [dat36]

theorem afterIn36 (c : Dev nD) (t : Fin (cfg36 a1).N) : (dat36 V a1 O c).after 0 t = iblk36 V a1 c 0 t := by
  dsimp only [dat36]; rfl

theorem afterOut36 (c : Dev nD) (t : Fin (cfg36 a1).N) :
    (dat36 V a1 O c).after 1 t = O c t := by
  dsimp only [dat36]; rfl

theorem beforeIn36 (c : Dev nD) (t : Fin (cfg36 a1).N) (d) : (dat36 V a1 O c).before 0 t d = iblk36 V a1 c 0 t :=
  beforeIn36_of V a1 (dat36 V a1 O c) (A_eq36 V a1 O c 0) (afterIn36 V a1 O c) t d

theorem Phi_eq36 (c : Dev nD) (t : Fin ((cfg36 a1).N + 1)) :
    (dat36 V a1 O c).Φ t
      = iprop(Pipeline.ΦD osem36 spec36 {main_v141} V c ∗ Pipeline.prefHeld pre36 c (fun _ => fullShare) a1.1) := by
  dsimp only [dat36]

theorem owed_eq36 (c : Dev nD) (t : Fin ((cfg36 a1).N + 1)) : (dat36 V a1 O c).owed t = 0 := by
  dsimp only [dat36]

/-! ## The invariant, conjunct by conjunct -/

/-- The invariant's first part opened: the body's scratch buffer whole at some contents and the other scoped
    buffers no window stages, the generator register, the own cells at zero, the far operand at its contents. -/
theorem PhiD_eq36 (c : Dev nD) :
    (Pipeline.ΦD osem36 spec36 {main_v141} V c : sProp 𝕄)
      = iprop(iprop(iprop((∃ f : Buf (Elt F) ((c : Thread nD τ).loc cc36_scratch0), ((c : Thread nD τ).loc cc36_scratch0) ↦{fullShare} f))
            ∗ Pipeline.scopedRestBut (Ix := Unit) (Name := ℕ) (U := UD sig nD τ) (Lvl := ℕ) (Val := Elt F) spec36 c [cc36_scratch0])
          ∗ (∃ r, prngReg c r)
          ∗ Pipeline.ownSems0 (Ix := Unit) (Name := ℕ) (U := UD sig nD τ) (Lvl := ℕ) (Val := Elt F) (τ := τ) osem36 c
          ∗ (((c : Thread nD τ).loc main_v141) ↦{fullShare} V c main_v141)) := by
  rw [Pipeline.ΦD_eq, scopedRest36_split, BI.bigSep_eq_bigSepL_of_eq [main_v141] (by decide) (by decide)]; rfl

/-- The one table, held whole. -/
theorem prefHeld_eq36 (c : Dev nD) :
    (Pipeline.prefHeld pre36 c (fun _ => fullShare) a1.1 : sProp 𝕄)
      = (((c : Thread nD τ).loc main_v155) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg36 (w : Fin (cfg36 a1).W) (t : Fin (cfg36 a1).N) := ((cfg36 a1).win w).stage ((cfg36 a1).slots t w)

/-- The body as the pipeline calls it at point t. -/
abbrev bodyProg36 (t : Fin (cfg36 a1).N) : Prog (TpuEff nD τ sig (Elt F) Λ₀ .tc) PUnit :=
  (defs₀ (F := F)) .tc (cfg36 a1).body ((cfg36 a1).bodyArgs t ((cfg36 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun36 : Prop :=
  ∀ (c : Dev nD) (t : Fin (cfg36 a1).N) (W) (K : PUnit → sProp 𝕄),
    iprop(owns (c : Thread nD τ) (stg36 a1 0 t) fullShare (iblk36 V a1 c 0 t)
        ∗ (∃ d, owns (c : Thread nD τ) (stg36 a1 1 t) fullShare d)
        ∗ (∃ f : Buf (Elt F) ((c : Thread nD τ).loc cc36_scratch0), ((c : Thread nD τ).loc cc36_scratch0) ↦{fullShare} f)
        ∗ Pipeline.ownSems0 (Ix := Unit) (Name := ℕ) (U := UD sig nD τ) (Lvl := ℕ) (Val := Elt F) (τ := τ) osem36 c
        ∗ (((c : Thread nD τ).loc main_v155) ↦{fullShare} a1.1 0)
        ∗ (((c : Thread nD τ).loc main_v141) ↦{fullShare} V c main_v141)
        ∗ owes (c : Thread nD τ) (0 : CellTallies nD τ sig Unit) W
        ∗ (iprop(owns (c : Thread nD τ) (stg36 a1 0 t) fullShare (iblk36 V a1 c 0 t)
            ∗ owns (c : Thread nD τ) (stg36 a1 1 t) fullShare (O c t)
            ∗ (∃ f : Buf (Elt F) ((c : Thread nD τ).loc cc36_scratch0), ((c : Thread nD τ).loc cc36_scratch0) ↦{fullShare} f)
            ∗ Pipeline.ownSems0 (Ix := Unit) (Name := ℕ) (U := UD sig nD τ) (Lvl := ℕ) (Val := Elt F) (τ := τ) osem36 c
            ∗ (((c : Thread nD τ).loc main_v155) ↦{fullShare} a1.1 0)
            ∗ (((c : Thread nD τ).loc main_v141) ↦{fullShare} V c main_v141)
            ∗ (∃ W', owes (c : Thread nD τ) (0 : CellTallies nD τ sig Unit) W')) -∗ K ⟨⟩))
      ⊢ wp frame (wpE (defs₀ (F := F)) Variants.none c none) Set.univ (bodyProg36 a1 t) K

/-- What the body is called with at point t, the windows one by one, -/
def bodyPre36 (c : Dev nD) (t : Fin (cfg36 a1).N) : sProp 𝕄 :=
  iprop((dat36 V a1 O c).Φ t.castSucc ∗ (dat36 V a1 O c).owesAt () t.castSucc
    ∗ (∃ d, owns (c : Thread nD τ) (stg36 a1 0 t) fullShare ((dat36 V a1 O c).before 0 t d))
    ∗ (∃ d, owns (c : Thread nD τ) (stg36 a1 1 t) fullShare ((dat36 V a1 O c).before 1 t d)))

/-- and what it returns. -/
def bodyPost36 (c : Dev nD) (t : Fin (cfg36 a1).N) : sProp 𝕄 :=
  iprop((dat36 V a1 O c).Φ t.succ ∗ (dat36 V a1 O c).owesAt () t.succ
    ∗ owns (c : Thread nD τ) (stg36 a1 0 t) fullShare ((dat36 V a1 O c).after 0 t)
    ∗ owns (c : Thread nD τ) (stg36 a1 1 t) fullShare ((dat36 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body36 (hrun : BodyRun36 V a1 O) (c : Dev nD) (t : Fin (cfg36 a1).N) :
    bodyPre36 V a1 O c t
      ⊢ wp frame (wpE (defs₀ (F := F)) Variants.none c none) Set.univ (bodyProg36 a1 t) (fun _ => bodyPost36 V a1 O c t) := by
  unfold bodyPre36 bodyPost36
  simp only [beforeIn36]
  rw [afterIn36, afterOut36, Phi_eq36, Phi_eq36, PhiD_eq36, prefHeld_eq36]
  unfold Dat.owesAt Pipeline.owesWithin
  rw [owed_eq36, owed_eq36]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation36 (hrun : BodyRun36 V a1 O) (c : Dev nD) :
    BodyObligation (dat36 (F := F) V a1 O c) (defs₀ (F := F)) Variants.none () Set.univ := fun t => by
  rw [bigSep_W36, bigSep_W36]
  exact sound_body36 V a1 O hrun c t

end Data

/-! ## The region's record -/

section Record

variable (Win : Dev nD → Valuation τ sig (Elt F))

variable (a1 : (pcfg36 (F := F)).Adm)
  (O : (c : Dev nD) → Fin (cfg36 a1).N → Vec F S8x64 .f32)

/-- The buffers at the region's exit: its arrays at what the write-backs leave, every other buffer as entered. -/
def Wout36 (c : Dev nD) : Valuation τ sig (Elt F) :=
  Pipeline.withArrays spec36 c (Win c) fun w => (dat36 (Vof Win) a1 O c).arrAt w (cfg36 a1).N

theorem Wout36_arr (c : Dev nD) (w : Fin (cfg36 a1).W) :
    Wout36 Win a1 O c (Proc.devRef .tc (Pipeline.arrRef spec36 w)) = (dat36 (Vof Win) a1 O c).arrAt w (cfg36 a1).N := by
  unfold Wout36; exact Pipeline.withArrays_arr spec36 winFacts36.arr_inj c _ _ w

theorem Wout36_of_ne (c : Dev nD) (b : Ref sig .tc) (hb : ∀ w, Pipeline.arrRef spec36 w ≠ b) :
    Wout36 Win a1 O c (Proc.devRef .tc b) = Win c (Proc.devRef .tc b) := by
  unfold Wout36; exact Pipeline.withArrays_of_ne spec36 c _ _ b hb

/-- ENTRY, the buffers' part. Every unscoped buffer at Win is: the region's arrays at the proof data's entry contents,
    the table whole at the admissible contents (which are Win's there), the far operand whole, and the others. -/
theorem entry36 (c : Dev nD) (ha1 : ∀ k, Vof Win c (pre36.ref k) = a1.1 k) :
    (StableHlo.held (c : Thread nD τ) (Pipeline.ucRefs τ sig) (Win c) : sProp 𝕄)
      ⊢ iprop((dat36 (Vof Win) a1 O c).arrays ((dat36 (Vof Win) a1 O c).arrAt · 0)
          ∗ Pipeline.prefHeld pre36 c (fun _ => fullShare) a1.1
          ∗ (bigSep ({main_v141} : Finset (Ref sig .tc)) fun b => (((c : Thread nD τ)).loc b) ↦{fullShare} Vof Win c b)
          ∗ bigSep (Pipeline.restRefsP sig pre36 spec36 \ {main_v141}) fun b => (((c : Thread nD τ)).loc b) ↦{fullShare} Vof Win c b) := by
  have hsplit := Pipeline.arrays_of_unscopedBufs (p := ()) (fun (_ : Unit) => pcfg36 (F := F)) (fun _ => a1)
    (fun _ c => dat36 (Vof Win) a1 O c) winFacts36 (launch36 (F := F)).arr_whole c
    ((dat36 (Vof Win) a1 O c).share_full fun _ => rfl) (Vof Win c) (fun w => A_eq36 (Vof Win) a1 O c w)
  rw [Pipeline.unscopedBufs_held,
    Pipeline.unscopedRest_split (Ix := Unit) (Name := ℕ) (U := UD sig nD τ) (Lvl := ℕ) preFacts36 c (Vof Win c),
    Pipeline.unscopedRestP_sdiff pre36 spec36 {main_v141} hx_sub36 c (Vof Win c),
    show (fun k => Vof Win c (pre36.ref k)) = a1.1 from funext ha1] at hsplit
  exact hsplit

/-- EXIT, the buffers' part: the same four put back, the arrays at what the write-backs leave, are every unscoped
    buffer at the exit valuation. -/
theorem exit36 (c : Dev nD) (ha1 : ∀ k, Vof Win c (pre36.ref k) = a1.1 k) :
    iprop((dat36 (Vof Win) a1 O c).arrays ((dat36 (Vof Win) a1 O c).arrAt · (cfg36 a1).N)
        ∗ Pipeline.prefHeld pre36 c (fun _ => fullShare) a1.1
        ∗ (bigSep ({main_v141} : Finset (Ref sig .tc)) fun b => (((c : Thread nD τ)).loc b) ↦{fullShare} Vof Win c b)
        ∗ bigSep (Pipeline.restRefsP sig pre36 spec36 \ {main_v141}) fun b => (((c : Thread nD τ)).loc b) ↦{fullShare} Vof Win c b)
      ⊢ (StableHlo.held (c : Thread nD τ) (Pipeline.ucRefs τ sig) (Wout36 Win a1 O c) : sProp 𝕄) := by
  have hjoin := Pipeline.unscopedBufs_of_arrays (p := ()) (fun (_ : Unit) => pcfg36 (F := F)) (fun _ => a1)
    (Ix := Unit) (Name := ℕ) (U := UD sig nD τ) (Lvl := ℕ)
    winFacts36 (launch36 (F := F)).arr_whole c (fun _ c => dat36 (Vof Win) a1 O c)
    ((dat36 (Vof Win) a1 O c).share_full fun _ => rfl)
    (Vof Win c) (Vof (Wout36 Win a1 O) c) ((dat36 (Vof Win) a1 O c).arrAt · (cfg36 a1).N)
    (fun w => (Wout36_arr Win a1 O c w).symm)
    (fun b hb => Wout36_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts36 c (Vof Win c),
    Pipeline.unscopedRestP_sdiff pre36 spec36 {main_v141} hx_sub36 c (Vof Win c),
    show (fun k => Vof Win c (pre36.ref k)) = a1.1 from funext ha1] at hjoin
  exact hjoin

end Record

section Seg

variable (Win : Dev nD → Valuation τ sig (Elt F))
  (adm : (p : Fin 49) → (pcfgs (F := F) p).Adm)
  (O : (c : Dev nD) → Fin (cfg36 (adm (36 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout36. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg36 (hd : ∀ c, pdats (36 : Fin 49) c = dat36 (Vof Win) (adm (36 : Fin 49)) O c)
    (ha1 : ∀ c k, Vof Win c (pre36.ref k) = (adm (36 : Fin 49)).1 k)
    (hbody : ∀ c, BodyObligation (dat36 (F := F) (Vof Win) (adm (36 : Fin 49)) O c) (defs₀ (F := F)) 𝒱₀ () Set.univ) :
    Pipeline.RegionSeg (pcfgs (F := F)) adm pdats () defs₀ 𝒱₀ L lv (36 : Fin 49) where
  win := (launch36 (F := F)).win.to₀
  block_pos := (launch36 (F := F)).block_pos
  stage_whole := (launch36 (F := F)).stage_whole
  K := Fin 8
  osem := osem36
  ho := ownSemFacts36
  hbody c := by rw [hd c]; exact (hbody c).loose
  hwaits := Pipeline.hwaits_of_owed_zero _ _ _ _ L lv (36 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout36 Win (adm (36 : Fin 49)) O c) ∗ R c)
  X c := iprop((∃ r, prngReg c r)
    ∗ Pipeline.ownSems0 (Ix := Unit) (Name := ℕ) (U := UD sig nD τ) (Lvl := ℕ) (Val := Elt F) (τ := τ) osem36 c
    ∗ (bigSep ({main_v141} : Finset (Ref sig .tc)) fun b => (((c : Thread nD τ)).loc b) ↦{fullShare} Vof Win c b))
  Y c := iprop((∃ r, prngReg c r)
    ∗ (bigSep ({main_v141} : Finset (Ref sig .tc)) fun b => (((c : Thread nD τ)).loc b) ↦{fullShare} Vof Win c b)
    ∗ Pipeline.prefHeld pre36 c (fun _ => fullShare) (adm (36 : Fin 49)).1)
  Z c := bigSep (Pipeline.restRefsP sig pre36 spec36 \ {main_v141}) fun b => (((c : Thread nD τ)).loc b) ↦{fullShare} Vof Win c b
  hentry c := by
    rw [hd c]
    iintro ⟨⟨Hub, Hp, HO⟩, Hos, -⟩
    ihave H := (entry36 Win (adm (36 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq36, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq36, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit36 Win (adm (36 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg36 (F := F)).Adm)

/-- The output block at point t: the gathered rows (of the far operand's contents under V, chosen by the table's
    words at that point) times the input block. -/
def outBlk36 (c : Dev nD) (t : Fin (cfg36 a1).N) : Vec F S8x64 .f32 :=
  gatherOut (gatherG (a1.1 0) (V c main_v141) (grid36.coords t)) (iblk36 V a1 c 0 t)

theorem outBlk_eq36 (c : Dev nD) (t : Fin (cfg36 a1).N) :
    outBlk36 V a1 c t = gatherOut (gatherG (a1.1 0) (V c main_v141) (grid36.coords t)) (iblk36 V a1 c 0 t) := rfl

/-- The proof data with the output block named: after the body at point t the output window's buffer holds it. -/
theorem afterOutBlk36 (c : Dev nD) (t : Fin (cfg36 a1).N) :
    (dat36 V a1 (outBlk36 V a1) c).after 1 t
      = gatherOut (gatherG (a1.1 0) (V c main_v141) (grid36.coords t)) (iblk36 V a1 c 0 t) :=
  afterOut36 V a1 (outBlk36 V a1) c t

/-- The own cells at zero are the semaphore array's eight entries at zero, in order. -/
theorem ownSems_eq36 (c : Dev nD) :
    (Pipeline.ownSems0 (Ix := Unit) (Name := ℕ) (U := UD sig nD τ) (Lvl := ℕ) (Val := Elt F) (τ := τ) osem36 c : sProp 𝕄)
      = gsems0 c cc36_scratch1 := by
  rw [Pipeline.ownSems0_eq_of_list c osem36 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq36 (t : Fin (cfg36 a1).N) : ∃ h3 h4, bodyProg36 (F := F) a1 t
    = cc36__gather_mul_kernel (grid36.coords t) (Memref.whole main_v155) (Memref.isWhole_whole _) (Memref.whole main_v141) (Memref.isWhole_whole _)
        (stg36 a1 0 t) h3 (stg36 a1 1 t) h4 (Memref.whole cc36_scratch0) (Memref.isWhole_whole _) cc36_scratch1 := ⟨_, _, rfl⟩

end Out

/-! ## The body's run, joined to the proof data -/

section Body

variable (V : (c : Dev nD) → (b : Ref sig .tc) → Buf (Elt F) ((c : Thread nD τ).loc b))
  (a1 : (pcfg36 (F := F)).Adm)

/-- The scratch buffer whole at some contents, as a memref owned at some contents. -/
theorem scratchOwns_eq36 (c : Dev nD) :
    (iprop(∃ d, owns (c : Thread nD τ) (Memref.whole cc36_scratch0) fullShare d) : sProp 𝕄)
      = iprop(∃ f : Buf (Elt F) ((c : Thread nD τ).loc cc36_scratch0), ((c : Thread nD τ).loc cc36_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun36 (hlt : ∀ y, BitVec.toNat ((a1.1 0) y) < 100000) : BodyRun36 V a1 (outBlk36 V a1) := by
  intro c t W K
  obtain ⟨h3, h4, hprog⟩ := bodyProg_eq36 (F := F) a1 t
  rw [hprog, ownSems_eq36, ← scratchOwns_eq36 (F := F) c]
  have hrun := gather_kernel_run_36 (F := F) c (grid36.coords t) (Memref.whole main_v155) (Memref.isWhole_whole _) (Memref.whole main_v141) (Memref.isWhole_whole _)
    (stg36 a1 0 t) h3 (stg36 a1 1 t) h4 (Memref.whole cc36_scratch0) (Memref.isWhole_whole _) cc36_scratch1 fullShare fullShare
    (a1.1 0) (V c main_v141) (iblk36 V a1 c 0 t) (fun y => hlt y) W K
  simp only [Memref.view_whole, View.read_whole] at hrun
  unfold outBlk36
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut36 (hlt : ∀ y, BitVec.toNat ((a1.1 0) y) < 100000) (c : Dev nD) :
    BodyObligation (dat36 (F := F) V a1 (outBlk36 V a1) c) (defs₀ (F := F)) Variants.none () Set.univ :=
  body_obligation36 V a1 (outBlk36 V a1) (bodyRun36 V a1 hlt) c

end Body

/-! # Region 37 -/

/-! ## The body's own transfer cells -/

/-- The eight cells of the body's semaphore array, in order. -/
abbrev osem37 : Fin 8 → SemLoc sig := fun j => SemLoc.dma (cc37_scratch1.ix (fun | ⟨0, _⟩ => j))

/-- They are scoped, pairwise distinct, and none is a staging cell of a window. -/
theorem ownSemFacts37 : Pipeline.OwnSemFacts spec37 osem37 := by decide

/-- The far operand is an unscoped buffer that is neither a window's array nor a table. -/
theorem hx_sub37 : ({main_v141} : Finset (Ref sig .tc)) ⊆ Pipeline.restRefsP sig pre37 spec37 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg37 (F := F)).Adm)
  (O : (c : Dev nD) → Fin (cfg37 a1).N → Vec F S8x64 .f32)

/-! ## The windows' blocks -/

/-- Window w's block at point t, read off its array under V. -/
def iblk37 (c : Dev nD) (w : Fin (cfg37 a1).W) (t : Fin (cfg37 a1).N) :
    (((cfg37 a1).win w).xblock ((cfg37 a1).grid.coords t)).Idx → Elt F ((cfg37 a1).win w).elt :=
  (((cfg37 a1).win w).blk t).view.read (Elt F) (V c (Pipeline.arrRef spec37 w))

/-- The input window's current staging buffer holds its block at every point, fetched there or not, for any proof
    data whose array is V's and whose body leaves the block in place: unfetched, the block index has not moved. -/
theorem beforeIn37_of {c : Dev nD} (dat : Dat τ (Elt F) Unit ℕ (UD sig nD τ) ℕ (cfg37 a1) c)
    (hA : dat.A 0 = V c (Pipeline.arrRef spec37 0))
    (hafter : ∀ t, dat.after 0 t = iblk37 V a1 c 0 t) (t : Fin (cfg37 a1).N) (d) : dat.before 0 t d = iblk37 V a1 c 0 t :=
  (dat.before_in_eq_fetched 0 rfl (fun _ => rfl) (fun _ _ _ => rfl)
    (fun t => by rw [hafter]; unfold Dat.blockOf iblk37; rw [hA]; try rfl) t d).trans
    (by unfold Dat.fetched Dat.blockOf iblk37; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat37 (c : Dev nD) : Dat τ (Elt F) Unit ℕ (UD sig nD τ) ℕ (cfg37 a1) c where
  A w := V c (Pipeline.arrRef spec37 w)
  after w t := match w with
    | ⟨0, _⟩ => iblk37 V a1 c 0 t
    | ⟨1, _⟩ => O c t
  Φ _ := iprop(Pipeline.ΦD osem37 spec37 {main_v141} V c ∗ Pipeline.prefHeld pre37 c (fun _ => fullShare) a1.1)
  q _ := fullShare
  owed _ := 0

theorem A_eq37 (c : Dev nD) (w : Fin (cfg37 a1).W) : (dat37 V a1 O c).A w = V c (Pipeline.arrRef spec37 w) := by
  dsimp only [dat37]

theorem afterIn37 (c : Dev nD) (t : Fin (cfg37 a1).N) : (dat37 V a1 O c).after 0 t = iblk37 V a1 c 0 t := by
  dsimp only [dat37]; rfl

theorem afterOut37 (c : Dev nD) (t : Fin (cfg37 a1).N) :
    (dat37 V a1 O c).after 1 t = O c t := by
  dsimp only [dat37]; rfl

theorem beforeIn37 (c : Dev nD) (t : Fin (cfg37 a1).N) (d) : (dat37 V a1 O c).before 0 t d = iblk37 V a1 c 0 t :=
  beforeIn37_of V a1 (dat37 V a1 O c) (A_eq37 V a1 O c 0) (afterIn37 V a1 O c) t d

theorem Phi_eq37 (c : Dev nD) (t : Fin ((cfg37 a1).N + 1)) :
    (dat37 V a1 O c).Φ t
      = iprop(Pipeline.ΦD osem37 spec37 {main_v141} V c ∗ Pipeline.prefHeld pre37 c (fun _ => fullShare) a1.1) := by
  dsimp only [dat37]

theorem owed_eq37 (c : Dev nD) (t : Fin ((cfg37 a1).N + 1)) : (dat37 V a1 O c).owed t = 0 := by
  dsimp only [dat37]

/-! ## The invariant, conjunct by conjunct -/

/-- The invariant's first part opened: the body's scratch buffer whole at some contents and the other scoped
    buffers no window stages, the generator register, the own cells at zero, the far operand at its contents. -/
theorem PhiD_eq37 (c : Dev nD) :
    (Pipeline.ΦD osem37 spec37 {main_v141} V c : sProp 𝕄)
      = iprop(iprop(iprop((∃ f : Buf (Elt F) ((c : Thread nD τ).loc cc37_scratch0), ((c : Thread nD τ).loc cc37_scratch0) ↦{fullShare} f))
            ∗ Pipeline.scopedRestBut (Ix := Unit) (Name := ℕ) (U := UD sig nD τ) (Lvl := ℕ) (Val := Elt F) spec37 c [cc37_scratch0])
          ∗ (∃ r, prngReg c r)
          ∗ Pipeline.ownSems0 (Ix := Unit) (Name := ℕ) (U := UD sig nD τ) (Lvl := ℕ) (Val := Elt F) (τ := τ) osem37 c
          ∗ (((c : Thread nD τ).loc main_v141) ↦{fullShare} V c main_v141)) := by
  rw [Pipeline.ΦD_eq, scopedRest37_split, BI.bigSep_eq_bigSepL_of_eq [main_v141] (by decide) (by decide)]; rfl

/-- The one table, held whole. -/
theorem prefHeld_eq37 (c : Dev nD) :
    (Pipeline.prefHeld pre37 c (fun _ => fullShare) a1.1 : sProp 𝕄)
      = (((c : Thread nD τ).loc main_v159) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg37 (w : Fin (cfg37 a1).W) (t : Fin (cfg37 a1).N) := ((cfg37 a1).win w).stage ((cfg37 a1).slots t w)

/-- The body as the pipeline calls it at point t. -/
abbrev bodyProg37 (t : Fin (cfg37 a1).N) : Prog (TpuEff nD τ sig (Elt F) Λ₀ .tc) PUnit :=
  (defs₀ (F := F)) .tc (cfg37 a1).body ((cfg37 a1).bodyArgs t ((cfg37 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun37 : Prop :=
  ∀ (c : Dev nD) (t : Fin (cfg37 a1).N) (W) (K : PUnit → sProp 𝕄),
    iprop(owns (c : Thread nD τ) (stg37 a1 0 t) fullShare (iblk37 V a1 c 0 t)
        ∗ (∃ d, owns (c : Thread nD τ) (stg37 a1 1 t) fullShare d)
        ∗ (∃ f : Buf (Elt F) ((c : Thread nD τ).loc cc37_scratch0), ((c : Thread nD τ).loc cc37_scratch0) ↦{fullShare} f)
        ∗ Pipeline.ownSems0 (Ix := Unit) (Name := ℕ) (U := UD sig nD τ) (Lvl := ℕ) (Val := Elt F) (τ := τ) osem37 c
        ∗ (((c : Thread nD τ).loc main_v159) ↦{fullShare} a1.1 0)
        ∗ (((c : Thread nD τ).loc main_v141) ↦{fullShare} V c main_v141)
        ∗ owes (c : Thread nD τ) (0 : CellTallies nD τ sig Unit) W
        ∗ (iprop(owns (c : Thread nD τ) (stg37 a1 0 t) fullShare (iblk37 V a1 c 0 t)
            ∗ owns (c : Thread nD τ) (stg37 a1 1 t) fullShare (O c t)
            ∗ (∃ f : Buf (Elt F) ((c : Thread nD τ).loc cc37_scratch0), ((c : Thread nD τ).loc cc37_scratch0) ↦{fullShare} f)
            ∗ Pipeline.ownSems0 (Ix := Unit) (Name := ℕ) (U := UD sig nD τ) (Lvl := ℕ) (Val := Elt F) (τ := τ) osem37 c
            ∗ (((c : Thread nD τ).loc main_v159) ↦{fullShare} a1.1 0)
            ∗ (((c : Thread nD τ).loc main_v141) ↦{fullShare} V c main_v141)
            ∗ (∃ W', owes (c : Thread nD τ) (0 : CellTallies nD τ sig Unit) W')) -∗ K ⟨⟩))
      ⊢ wp frame (wpE (defs₀ (F := F)) Variants.none c none) Set.univ (bodyProg37 a1 t) K

/-- What the body is called with at point t, the windows one by one, -/
def bodyPre37 (c : Dev nD) (t : Fin (cfg37 a1).N) : sProp 𝕄 :=
  iprop((dat37 V a1 O c).Φ t.castSucc ∗ (dat37 V a1 O c).owesAt () t.castSucc
    ∗ (∃ d, owns (c : Thread nD τ) (stg37 a1 0 t) fullShare ((dat37 V a1 O c).before 0 t d))
    ∗ (∃ d, owns (c : Thread nD τ) (stg37 a1 1 t) fullShare ((dat37 V a1 O c).before 1 t d)))

/-- and what it returns. -/
def bodyPost37 (c : Dev nD) (t : Fin (cfg37 a1).N) : sProp 𝕄 :=
  iprop((dat37 V a1 O c).Φ t.succ ∗ (dat37 V a1 O c).owesAt () t.succ
    ∗ owns (c : Thread nD τ) (stg37 a1 0 t) fullShare ((dat37 V a1 O c).after 0 t)
    ∗ owns (c : Thread nD τ) (stg37 a1 1 t) fullShare ((dat37 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body37 (hrun : BodyRun37 V a1 O) (c : Dev nD) (t : Fin (cfg37 a1).N) :
    bodyPre37 V a1 O c t
      ⊢ wp frame (wpE (defs₀ (F := F)) Variants.none c none) Set.univ (bodyProg37 a1 t) (fun _ => bodyPost37 V a1 O c t) := by
  unfold bodyPre37 bodyPost37
  simp only [beforeIn37]
  rw [afterIn37, afterOut37, Phi_eq37, Phi_eq37, PhiD_eq37, prefHeld_eq37]
  unfold Dat.owesAt Pipeline.owesWithin
  rw [owed_eq37, owed_eq37]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation37 (hrun : BodyRun37 V a1 O) (c : Dev nD) :
    BodyObligation (dat37 (F := F) V a1 O c) (defs₀ (F := F)) Variants.none () Set.univ := fun t => by
  rw [bigSep_W37, bigSep_W37]
  exact sound_body37 V a1 O hrun c t

end Data

/-! ## The region's record -/

section Record

variable (Win : Dev nD → Valuation τ sig (Elt F))

variable (a1 : (pcfg37 (F := F)).Adm)
  (O : (c : Dev nD) → Fin (cfg37 a1).N → Vec F S8x64 .f32)

/-- The buffers at the region's exit: its arrays at what the write-backs leave, every other buffer as entered. -/
def Wout37 (c : Dev nD) : Valuation τ sig (Elt F) :=
  Pipeline.withArrays spec37 c (Win c) fun w => (dat37 (Vof Win) a1 O c).arrAt w (cfg37 a1).N

theorem Wout37_arr (c : Dev nD) (w : Fin (cfg37 a1).W) :
    Wout37 Win a1 O c (Proc.devRef .tc (Pipeline.arrRef spec37 w)) = (dat37 (Vof Win) a1 O c).arrAt w (cfg37 a1).N := by
  unfold Wout37; exact Pipeline.withArrays_arr spec37 winFacts37.arr_inj c _ _ w

theorem Wout37_of_ne (c : Dev nD) (b : Ref sig .tc) (hb : ∀ w, Pipeline.arrRef spec37 w ≠ b) :
    Wout37 Win a1 O c (Proc.devRef .tc b) = Win c (Proc.devRef .tc b) := by
  unfold Wout37; exact Pipeline.withArrays_of_ne spec37 c _ _ b hb

/-- ENTRY, the buffers' part. Every unscoped buffer at Win is: the region's arrays at the proof data's entry contents,
    the table whole at the admissible contents (which are Win's there), the far operand whole, and the others. -/
theorem entry37 (c : Dev nD) (ha1 : ∀ k, Vof Win c (pre37.ref k) = a1.1 k) :
    (StableHlo.held (c : Thread nD τ) (Pipeline.ucRefs τ sig) (Win c) : sProp 𝕄)
      ⊢ iprop((dat37 (Vof Win) a1 O c).arrays ((dat37 (Vof Win) a1 O c).arrAt · 0)
          ∗ Pipeline.prefHeld pre37 c (fun _ => fullShare) a1.1
          ∗ (bigSep ({main_v141} : Finset (Ref sig .tc)) fun b => (((c : Thread nD τ)).loc b) ↦{fullShare} Vof Win c b)
          ∗ bigSep (Pipeline.restRefsP sig pre37 spec37 \ {main_v141}) fun b => (((c : Thread nD τ)).loc b) ↦{fullShare} Vof Win c b) := by
  have hsplit := Pipeline.arrays_of_unscopedBufs (p := ()) (fun (_ : Unit) => pcfg37 (F := F)) (fun _ => a1)
    (fun _ c => dat37 (Vof Win) a1 O c) winFacts37 (launch37 (F := F)).arr_whole c
    ((dat37 (Vof Win) a1 O c).share_full fun _ => rfl) (Vof Win c) (fun w => A_eq37 (Vof Win) a1 O c w)
  rw [Pipeline.unscopedBufs_held,
    Pipeline.unscopedRest_split (Ix := Unit) (Name := ℕ) (U := UD sig nD τ) (Lvl := ℕ) preFacts37 c (Vof Win c),
    Pipeline.unscopedRestP_sdiff pre37 spec37 {main_v141} hx_sub37 c (Vof Win c),
    show (fun k => Vof Win c (pre37.ref k)) = a1.1 from funext ha1] at hsplit
  exact hsplit

/-- EXIT, the buffers' part: the same four put back, the arrays at what the write-backs leave, are every unscoped
    buffer at the exit valuation. -/
theorem exit37 (c : Dev nD) (ha1 : ∀ k, Vof Win c (pre37.ref k) = a1.1 k) :
    iprop((dat37 (Vof Win) a1 O c).arrays ((dat37 (Vof Win) a1 O c).arrAt · (cfg37 a1).N)
        ∗ Pipeline.prefHeld pre37 c (fun _ => fullShare) a1.1
        ∗ (bigSep ({main_v141} : Finset (Ref sig .tc)) fun b => (((c : Thread nD τ)).loc b) ↦{fullShare} Vof Win c b)
        ∗ bigSep (Pipeline.restRefsP sig pre37 spec37 \ {main_v141}) fun b => (((c : Thread nD τ)).loc b) ↦{fullShare} Vof Win c b)
      ⊢ (StableHlo.held (c : Thread nD τ) (Pipeline.ucRefs τ sig) (Wout37 Win a1 O c) : sProp 𝕄) := by
  have hjoin := Pipeline.unscopedBufs_of_arrays (p := ()) (fun (_ : Unit) => pcfg37 (F := F)) (fun _ => a1)
    (Ix := Unit) (Name := ℕ) (U := UD sig nD τ) (Lvl := ℕ)
    winFacts37 (launch37 (F := F)).arr_whole c (fun _ c => dat37 (Vof Win) a1 O c)
    ((dat37 (Vof Win) a1 O c).share_full fun _ => rfl)
    (Vof Win c) (Vof (Wout37 Win a1 O) c) ((dat37 (Vof Win) a1 O c).arrAt · (cfg37 a1).N)
    (fun w => (Wout37_arr Win a1 O c w).symm)
    (fun b hb => Wout37_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts37 c (Vof Win c),
    Pipeline.unscopedRestP_sdiff pre37 spec37 {main_v141} hx_sub37 c (Vof Win c),
    show (fun k => Vof Win c (pre37.ref k)) = a1.1 from funext ha1] at hjoin
  exact hjoin

end Record

section Seg

variable (Win : Dev nD → Valuation τ sig (Elt F))
  (adm : (p : Fin 49) → (pcfgs (F := F) p).Adm)
  (O : (c : Dev nD) → Fin (cfg37 (adm (37 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout37. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg37 (hd : ∀ c, pdats (37 : Fin 49) c = dat37 (Vof Win) (adm (37 : Fin 49)) O c)
    (ha1 : ∀ c k, Vof Win c (pre37.ref k) = (adm (37 : Fin 49)).1 k)
    (hbody : ∀ c, BodyObligation (dat37 (F := F) (Vof Win) (adm (37 : Fin 49)) O c) (defs₀ (F := F)) 𝒱₀ () Set.univ) :
    Pipeline.RegionSeg (pcfgs (F := F)) adm pdats () defs₀ 𝒱₀ L lv (37 : Fin 49) where
  win := (launch37 (F := F)).win.to₀
  block_pos := (launch37 (F := F)).block_pos
  stage_whole := (launch37 (F := F)).stage_whole
  K := Fin 8
  osem := osem37
  ho := ownSemFacts37
  hbody c := by rw [hd c]; exact (hbody c).loose
  hwaits := Pipeline.hwaits_of_owed_zero _ _ _ _ L lv (37 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout37 Win (adm (37 : Fin 49)) O c) ∗ R c)
  X c := iprop((∃ r, prngReg c r)
    ∗ Pipeline.ownSems0 (Ix := Unit) (Name := ℕ) (U := UD sig nD τ) (Lvl := ℕ) (Val := Elt F) (τ := τ) osem37 c
    ∗ (bigSep ({main_v141} : Finset (Ref sig .tc)) fun b => (((c : Thread nD τ)).loc b) ↦{fullShare} Vof Win c b))
  Y c := iprop((∃ r, prngReg c r)
    ∗ (bigSep ({main_v141} : Finset (Ref sig .tc)) fun b => (((c : Thread nD τ)).loc b) ↦{fullShare} Vof Win c b)
    ∗ Pipeline.prefHeld pre37 c (fun _ => fullShare) (adm (37 : Fin 49)).1)
  Z c := bigSep (Pipeline.restRefsP sig pre37 spec37 \ {main_v141}) fun b => (((c : Thread nD τ)).loc b) ↦{fullShare} Vof Win c b
  hentry c := by
    rw [hd c]
    iintro ⟨⟨Hub, Hp, HO⟩, Hos, -⟩
    ihave H := (entry37 Win (adm (37 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq37, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq37, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit37 Win (adm (37 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg37 (F := F)).Adm)

/-- The output block at point t: the gathered rows (of the far operand's contents under V, chosen by the table's
    words at that point) times the input block. -/
def outBlk37 (c : Dev nD) (t : Fin (cfg37 a1).N) : Vec F S8x64 .f32 :=
  gatherOut (gatherG (a1.1 0) (V c main_v141) (grid37.coords t)) (iblk37 V a1 c 0 t)

theorem outBlk_eq37 (c : Dev nD) (t : Fin (cfg37 a1).N) :
    outBlk37 V a1 c t = gatherOut (gatherG (a1.1 0) (V c main_v141) (grid37.coords t)) (iblk37 V a1 c 0 t) := rfl

/-- The proof data with the output block named: after the body at point t the output window's buffer holds it. -/
theorem afterOutBlk37 (c : Dev nD) (t : Fin (cfg37 a1).N) :
    (dat37 V a1 (outBlk37 V a1) c).after 1 t
      = gatherOut (gatherG (a1.1 0) (V c main_v141) (grid37.coords t)) (iblk37 V a1 c 0 t) :=
  afterOut37 V a1 (outBlk37 V a1) c t

/-- The own cells at zero are the semaphore array's eight entries at zero, in order. -/
theorem ownSems_eq37 (c : Dev nD) :
    (Pipeline.ownSems0 (Ix := Unit) (Name := ℕ) (U := UD sig nD τ) (Lvl := ℕ) (Val := Elt F) (τ := τ) osem37 c : sProp 𝕄)
      = gsems0 c cc37_scratch1 := by
  rw [Pipeline.ownSems0_eq_of_list c osem37 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq37 (t : Fin (cfg37 a1).N) : ∃ h3 h4, bodyProg37 (F := F) a1 t
    = cc37__gather_mul_kernel (grid37.coords t) (Memref.whole main_v159) (Memref.isWhole_whole _) (Memref.whole main_v141) (Memref.isWhole_whole _)
        (stg37 a1 0 t) h3 (stg37 a1 1 t) h4 (Memref.whole cc37_scratch0) (Memref.isWhole_whole _) cc37_scratch1 := ⟨_, _, rfl⟩

end Out

/-! ## The body's run, joined to the proof data -/

section Body

variable (V : (c : Dev nD) → (b : Ref sig .tc) → Buf (Elt F) ((c : Thread nD τ).loc b))
  (a1 : (pcfg37 (F := F)).Adm)

/-- The scratch buffer whole at some contents, as a memref owned at some contents. -/
theorem scratchOwns_eq37 (c : Dev nD) :
    (iprop(∃ d, owns (c : Thread nD τ) (Memref.whole cc37_scratch0) fullShare d) : sProp 𝕄)
      = iprop(∃ f : Buf (Elt F) ((c : Thread nD τ).loc cc37_scratch0), ((c : Thread nD τ).loc cc37_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun37 (hlt : ∀ y, BitVec.toNat ((a1.1 0) y) < 100000) : BodyRun37 V a1 (outBlk37 V a1) := by
  intro c t W K
  obtain ⟨h3, h4, hprog⟩ := bodyProg_eq37 (F := F) a1 t
  rw [hprog, ownSems_eq37, ← scratchOwns_eq37 (F := F) c]
  have hrun := gather_kernel_run_37 (F := F) c (grid37.coords t) (Memref.whole main_v159) (Memref.isWhole_whole _) (Memref.whole main_v141) (Memref.isWhole_whole _)
    (stg37 a1 0 t) h3 (stg37 a1 1 t) h4 (Memref.whole cc37_scratch0) (Memref.isWhole_whole _) cc37_scratch1 fullShare fullShare
    (a1.1 0) (V c main_v141) (iblk37 V a1 c 0 t) (fun y => hlt y) W K
  simp only [Memref.view_whole, View.read_whole] at hrun
  unfold outBlk37
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut37 (hlt : ∀ y, BitVec.toNat ((a1.1 0) y) < 100000) (c : Dev nD) :
    BodyObligation (dat37 (F := F) V a1 (outBlk37 V a1) c) (defs₀ (F := F)) Variants.none () Set.univ :=
  body_obligation37 V a1 (outBlk37 V a1) (bodyRun37 V a1 hlt) c

end Body

/-! # Region 38 -/

/-! ## The body's own transfer cells -/

/-- The eight cells of the body's semaphore array, in order. -/
abbrev osem38 : Fin 8 → SemLoc sig := fun j => SemLoc.dma (cc38_scratch1.ix (fun | ⟨0, _⟩ => j))

/-- They are scoped, pairwise distinct, and none is a staging cell of a window. -/
theorem ownSemFacts38 : Pipeline.OwnSemFacts spec38 osem38 := by decide

/-- The far operand is an unscoped buffer that is neither a window's array nor a table. -/
theorem hx_sub38 : ({main_v141} : Finset (Ref sig .tc)) ⊆ Pipeline.restRefsP sig pre38 spec38 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg38 (F := F)).Adm)
  (O : (c : Dev nD) → Fin (cfg38 a1).N → Vec F S8x64 .f32)

/-! ## The windows' blocks -/

/-- Window w's block at point t, read off its array under V. -/
def iblk38 (c : Dev nD) (w : Fin (cfg38 a1).W) (t : Fin (cfg38 a1).N) :
    (((cfg38 a1).win w).xblock ((cfg38 a1).grid.coords t)).Idx → Elt F ((cfg38 a1).win w).elt :=
  (((cfg38 a1).win w).blk t).view.read (Elt F) (V c (Pipeline.arrRef spec38 w))

/-- The input window's current staging buffer holds its block at every point, fetched there or not, for any proof
    data whose array is V's and whose body leaves the block in place: unfetched, the block index has not moved. -/
theorem beforeIn38_of {c : Dev nD} (dat : Dat τ (Elt F) Unit ℕ (UD sig nD τ) ℕ (cfg38 a1) c)
    (hA : dat.A 0 = V c (Pipeline.arrRef spec38 0))
    (hafter : ∀ t, dat.after 0 t = iblk38 V a1 c 0 t) (t : Fin (cfg38 a1).N) (d) : dat.before 0 t d = iblk38 V a1 c 0 t :=
  (dat.before_in_eq_fetched 0 rfl (fun _ => rfl) (fun _ _ _ => rfl)
    (fun t => by rw [hafter]; unfold Dat.blockOf iblk38; rw [hA]; try rfl) t d).trans
    (by unfold Dat.fetched Dat.blockOf iblk38; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat38 (c : Dev nD) : Dat τ (Elt F) Unit ℕ (UD sig nD τ) ℕ (cfg38 a1) c where
  A w := V c (Pipeline.arrRef spec38 w)
  after w t := match w with
    | ⟨0, _⟩ => iblk38 V a1 c 0 t
    | ⟨1, _⟩ => O c t
  Φ _ := iprop(Pipeline.ΦD osem38 spec38 {main_v141} V c ∗ Pipeline.prefHeld pre38 c (fun _ => fullShare) a1.1)
  q _ := fullShare
  owed _ := 0

theorem A_eq38 (c : Dev nD) (w : Fin (cfg38 a1).W) : (dat38 V a1 O c).A w = V c (Pipeline.arrRef spec38 w) := by
  dsimp only [dat38]

theorem afterIn38 (c : Dev nD) (t : Fin (cfg38 a1).N) : (dat38 V a1 O c).after 0 t = iblk38 V a1 c 0 t := by
  dsimp only [dat38]; rfl

theorem afterOut38 (c : Dev nD) (t : Fin (cfg38 a1).N) :
    (dat38 V a1 O c).after 1 t = O c t := by
  dsimp only [dat38]; rfl

theorem beforeIn38 (c : Dev nD) (t : Fin (cfg38 a1).N) (d) : (dat38 V a1 O c).before 0 t d = iblk38 V a1 c 0 t :=
  beforeIn38_of V a1 (dat38 V a1 O c) (A_eq38 V a1 O c 0) (afterIn38 V a1 O c) t d

theorem Phi_eq38 (c : Dev nD) (t : Fin ((cfg38 a1).N + 1)) :
    (dat38 V a1 O c).Φ t
      = iprop(Pipeline.ΦD osem38 spec38 {main_v141} V c ∗ Pipeline.prefHeld pre38 c (fun _ => fullShare) a1.1) := by
  dsimp only [dat38]

theorem owed_eq38 (c : Dev nD) (t : Fin ((cfg38 a1).N + 1)) : (dat38 V a1 O c).owed t = 0 := by
  dsimp only [dat38]

/-! ## The invariant, conjunct by conjunct -/

/-- The invariant's first part opened: the body's scratch buffer whole at some contents and the other scoped
    buffers no window stages, the generator register, the own cells at zero, the far operand at its contents. -/
theorem PhiD_eq38 (c : Dev nD) :
    (Pipeline.ΦD osem38 spec38 {main_v141} V c : sProp 𝕄)
      = iprop(iprop(iprop((∃ f : Buf (Elt F) ((c : Thread nD τ).loc cc38_scratch0), ((c : Thread nD τ).loc cc38_scratch0) ↦{fullShare} f))
            ∗ Pipeline.scopedRestBut (Ix := Unit) (Name := ℕ) (U := UD sig nD τ) (Lvl := ℕ) (Val := Elt F) spec38 c [cc38_scratch0])
          ∗ (∃ r, prngReg c r)
          ∗ Pipeline.ownSems0 (Ix := Unit) (Name := ℕ) (U := UD sig nD τ) (Lvl := ℕ) (Val := Elt F) (τ := τ) osem38 c
          ∗ (((c : Thread nD τ).loc main_v141) ↦{fullShare} V c main_v141)) := by
  rw [Pipeline.ΦD_eq, scopedRest38_split, BI.bigSep_eq_bigSepL_of_eq [main_v141] (by decide) (by decide)]; rfl

/-- The one table, held whole. -/
theorem prefHeld_eq38 (c : Dev nD) :
    (Pipeline.prefHeld pre38 c (fun _ => fullShare) a1.1 : sProp 𝕄)
      = (((c : Thread nD τ).loc main_v163) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg38 (w : Fin (cfg38 a1).W) (t : Fin (cfg38 a1).N) := ((cfg38 a1).win w).stage ((cfg38 a1).slots t w)

/-- The body as the pipeline calls it at point t. -/
abbrev bodyProg38 (t : Fin (cfg38 a1).N) : Prog (TpuEff nD τ sig (Elt F) Λ₀ .tc) PUnit :=
  (defs₀ (F := F)) .tc (cfg38 a1).body ((cfg38 a1).bodyArgs t ((cfg38 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun38 : Prop :=
  ∀ (c : Dev nD) (t : Fin (cfg38 a1).N) (W) (K : PUnit → sProp 𝕄),
    iprop(owns (c : Thread nD τ) (stg38 a1 0 t) fullShare (iblk38 V a1 c 0 t)
        ∗ (∃ d, owns (c : Thread nD τ) (stg38 a1 1 t) fullShare d)
        ∗ (∃ f : Buf (Elt F) ((c : Thread nD τ).loc cc38_scratch0), ((c : Thread nD τ).loc cc38_scratch0) ↦{fullShare} f)
        ∗ Pipeline.ownSems0 (Ix := Unit) (Name := ℕ) (U := UD sig nD τ) (Lvl := ℕ) (Val := Elt F) (τ := τ) osem38 c
        ∗ (((c : Thread nD τ).loc main_v163) ↦{fullShare} a1.1 0)
        ∗ (((c : Thread nD τ).loc main_v141) ↦{fullShare} V c main_v141)
        ∗ owes (c : Thread nD τ) (0 : CellTallies nD τ sig Unit) W
        ∗ (iprop(owns (c : Thread nD τ) (stg38 a1 0 t) fullShare (iblk38 V a1 c 0 t)
            ∗ owns (c : Thread nD τ) (stg38 a1 1 t) fullShare (O c t)
            ∗ (∃ f : Buf (Elt F) ((c : Thread nD τ).loc cc38_scratch0), ((c : Thread nD τ).loc cc38_scratch0) ↦{fullShare} f)
            ∗ Pipeline.ownSems0 (Ix := Unit) (Name := ℕ) (U := UD sig nD τ) (Lvl := ℕ) (Val := Elt F) (τ := τ) osem38 c
            ∗ (((c : Thread nD τ).loc main_v163) ↦{fullShare} a1.1 0)
            ∗ (((c : Thread nD τ).loc main_v141) ↦{fullShare} V c main_v141)
            ∗ (∃ W', owes (c : Thread nD τ) (0 : CellTallies nD τ sig Unit) W')) -∗ K ⟨⟩))
      ⊢ wp frame (wpE (defs₀ (F := F)) Variants.none c none) Set.univ (bodyProg38 a1 t) K

/-- What the body is called with at point t, the windows one by one, -/
def bodyPre38 (c : Dev nD) (t : Fin (cfg38 a1).N) : sProp 𝕄 :=
  iprop((dat38 V a1 O c).Φ t.castSucc ∗ (dat38 V a1 O c).owesAt () t.castSucc
    ∗ (∃ d, owns (c : Thread nD τ) (stg38 a1 0 t) fullShare ((dat38 V a1 O c).before 0 t d))
    ∗ (∃ d, owns (c : Thread nD τ) (stg38 a1 1 t) fullShare ((dat38 V a1 O c).before 1 t d)))

/-- and what it returns. -/
def bodyPost38 (c : Dev nD) (t : Fin (cfg38 a1).N) : sProp 𝕄 :=
  iprop((dat38 V a1 O c).Φ t.succ ∗ (dat38 V a1 O c).owesAt () t.succ
    ∗ owns (c : Thread nD τ) (stg38 a1 0 t) fullShare ((dat38 V a1 O c).after 0 t)
    ∗ owns (c : Thread nD τ) (stg38 a1 1 t) fullShare ((dat38 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body38 (hrun : BodyRun38 V a1 O) (c : Dev nD) (t : Fin (cfg38 a1).N) :
    bodyPre38 V a1 O c t
      ⊢ wp frame (wpE (defs₀ (F := F)) Variants.none c none) Set.univ (bodyProg38 a1 t) (fun _ => bodyPost38 V a1 O c t) := by
  unfold bodyPre38 bodyPost38
  simp only [beforeIn38]
  rw [afterIn38, afterOut38, Phi_eq38, Phi_eq38, PhiD_eq38, prefHeld_eq38]
  unfold Dat.owesAt Pipeline.owesWithin
  rw [owed_eq38, owed_eq38]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation38 (hrun : BodyRun38 V a1 O) (c : Dev nD) :
    BodyObligation (dat38 (F := F) V a1 O c) (defs₀ (F := F)) Variants.none () Set.univ := fun t => by
  rw [bigSep_W38, bigSep_W38]
  exact sound_body38 V a1 O hrun c t

end Data

/-! ## The region's record -/

section Record

variable (Win : Dev nD → Valuation τ sig (Elt F))

variable (a1 : (pcfg38 (F := F)).Adm)
  (O : (c : Dev nD) → Fin (cfg38 a1).N → Vec F S8x64 .f32)

/-- The buffers at the region's exit: its arrays at what the write-backs leave, every other buffer as entered. -/
def Wout38 (c : Dev nD) : Valuation τ sig (Elt F) :=
  Pipeline.withArrays spec38 c (Win c) fun w => (dat38 (Vof Win) a1 O c).arrAt w (cfg38 a1).N

theorem Wout38_arr (c : Dev nD) (w : Fin (cfg38 a1).W) :
    Wout38 Win a1 O c (Proc.devRef .tc (Pipeline.arrRef spec38 w)) = (dat38 (Vof Win) a1 O c).arrAt w (cfg38 a1).N := by
  unfold Wout38; exact Pipeline.withArrays_arr spec38 winFacts38.arr_inj c _ _ w

theorem Wout38_of_ne (c : Dev nD) (b : Ref sig .tc) (hb : ∀ w, Pipeline.arrRef spec38 w ≠ b) :
    Wout38 Win a1 O c (Proc.devRef .tc b) = Win c (Proc.devRef .tc b) := by
  unfold Wout38; exact Pipeline.withArrays_of_ne spec38 c _ _ b hb

/-- ENTRY, the buffers' part. Every unscoped buffer at Win is: the region's arrays at the proof data's entry contents,
    the table whole at the admissible contents (which are Win's there), the far operand whole, and the others. -/
theorem entry38 (c : Dev nD) (ha1 : ∀ k, Vof Win c (pre38.ref k) = a1.1 k) :
    (StableHlo.held (c : Thread nD τ) (Pipeline.ucRefs τ sig) (Win c) : sProp 𝕄)
      ⊢ iprop((dat38 (Vof Win) a1 O c).arrays ((dat38 (Vof Win) a1 O c).arrAt · 0)
          ∗ Pipeline.prefHeld pre38 c (fun _ => fullShare) a1.1
          ∗ (bigSep ({main_v141} : Finset (Ref sig .tc)) fun b => (((c : Thread nD τ)).loc b) ↦{fullShare} Vof Win c b)
          ∗ bigSep (Pipeline.restRefsP sig pre38 spec38 \ {main_v141}) fun b => (((c : Thread nD τ)).loc b) ↦{fullShare} Vof Win c b) := by
  have hsplit := Pipeline.arrays_of_unscopedBufs (p := ()) (fun (_ : Unit) => pcfg38 (F := F)) (fun _ => a1)
    (fun _ c => dat38 (Vof Win) a1 O c) winFacts38 (launch38 (F := F)).arr_whole c
    ((dat38 (Vof Win) a1 O c).share_full fun _ => rfl) (Vof Win c) (fun w => A_eq38 (Vof Win) a1 O c w)
  rw [Pipeline.unscopedBufs_held,
    Pipeline.unscopedRest_split (Ix := Unit) (Name := ℕ) (U := UD sig nD τ) (Lvl := ℕ) preFacts38 c (Vof Win c),
    Pipeline.unscopedRestP_sdiff pre38 spec38 {main_v141} hx_sub38 c (Vof Win c),
    show (fun k => Vof Win c (pre38.ref k)) = a1.1 from funext ha1] at hsplit
  exact hsplit

/-- EXIT, the buffers' part: the same four put back, the arrays at what the write-backs leave, are every unscoped
    buffer at the exit valuation. -/
theorem exit38 (c : Dev nD) (ha1 : ∀ k, Vof Win c (pre38.ref k) = a1.1 k) :
    iprop((dat38 (Vof Win) a1 O c).arrays ((dat38 (Vof Win) a1 O c).arrAt · (cfg38 a1).N)
        ∗ Pipeline.prefHeld pre38 c (fun _ => fullShare) a1.1
        ∗ (bigSep ({main_v141} : Finset (Ref sig .tc)) fun b => (((c : Thread nD τ)).loc b) ↦{fullShare} Vof Win c b)
        ∗ bigSep (Pipeline.restRefsP sig pre38 spec38 \ {main_v141}) fun b => (((c : Thread nD τ)).loc b) ↦{fullShare} Vof Win c b)
      ⊢ (StableHlo.held (c : Thread nD τ) (Pipeline.ucRefs τ sig) (Wout38 Win a1 O c) : sProp 𝕄) := by
  have hjoin := Pipeline.unscopedBufs_of_arrays (p := ()) (fun (_ : Unit) => pcfg38 (F := F)) (fun _ => a1)
    (Ix := Unit) (Name := ℕ) (U := UD sig nD τ) (Lvl := ℕ)
    winFacts38 (launch38 (F := F)).arr_whole c (fun _ c => dat38 (Vof Win) a1 O c)
    ((dat38 (Vof Win) a1 O c).share_full fun _ => rfl)
    (Vof Win c) (Vof (Wout38 Win a1 O) c) ((dat38 (Vof Win) a1 O c).arrAt · (cfg38 a1).N)
    (fun w => (Wout38_arr Win a1 O c w).symm)
    (fun b hb => Wout38_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts38 c (Vof Win c),
    Pipeline.unscopedRestP_sdiff pre38 spec38 {main_v141} hx_sub38 c (Vof Win c),
    show (fun k => Vof Win c (pre38.ref k)) = a1.1 from funext ha1] at hjoin
  exact hjoin

end Record

section Seg

variable (Win : Dev nD → Valuation τ sig (Elt F))
  (adm : (p : Fin 49) → (pcfgs (F := F) p).Adm)
  (O : (c : Dev nD) → Fin (cfg38 (adm (38 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout38. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg38 (hd : ∀ c, pdats (38 : Fin 49) c = dat38 (Vof Win) (adm (38 : Fin 49)) O c)
    (ha1 : ∀ c k, Vof Win c (pre38.ref k) = (adm (38 : Fin 49)).1 k)
    (hbody : ∀ c, BodyObligation (dat38 (F := F) (Vof Win) (adm (38 : Fin 49)) O c) (defs₀ (F := F)) 𝒱₀ () Set.univ) :
    Pipeline.RegionSeg (pcfgs (F := F)) adm pdats () defs₀ 𝒱₀ L lv (38 : Fin 49) where
  win := (launch38 (F := F)).win.to₀
  block_pos := (launch38 (F := F)).block_pos
  stage_whole := (launch38 (F := F)).stage_whole
  K := Fin 8
  osem := osem38
  ho := ownSemFacts38
  hbody c := by rw [hd c]; exact (hbody c).loose
  hwaits := Pipeline.hwaits_of_owed_zero _ _ _ _ L lv (38 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout38 Win (adm (38 : Fin 49)) O c) ∗ R c)
  X c := iprop((∃ r, prngReg c r)
    ∗ Pipeline.ownSems0 (Ix := Unit) (Name := ℕ) (U := UD sig nD τ) (Lvl := ℕ) (Val := Elt F) (τ := τ) osem38 c
    ∗ (bigSep ({main_v141} : Finset (Ref sig .tc)) fun b => (((c : Thread nD τ)).loc b) ↦{fullShare} Vof Win c b))
  Y c := iprop((∃ r, prngReg c r)
    ∗ (bigSep ({main_v141} : Finset (Ref sig .tc)) fun b => (((c : Thread nD τ)).loc b) ↦{fullShare} Vof Win c b)
    ∗ Pipeline.prefHeld pre38 c (fun _ => fullShare) (adm (38 : Fin 49)).1)
  Z c := bigSep (Pipeline.restRefsP sig pre38 spec38 \ {main_v141}) fun b => (((c : Thread nD τ)).loc b) ↦{fullShare} Vof Win c b
  hentry c := by
    rw [hd c]
    iintro ⟨⟨Hub, Hp, HO⟩, Hos, -⟩
    ihave H := (entry38 Win (adm (38 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq38, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq38, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit38 Win (adm (38 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg38 (F := F)).Adm)

/-- The output block at point t: the gathered rows (of the far operand's contents under V, chosen by the table's
    words at that point) times the input block. -/
def outBlk38 (c : Dev nD) (t : Fin (cfg38 a1).N) : Vec F S8x64 .f32 :=
  gatherOut (gatherG (a1.1 0) (V c main_v141) (grid38.coords t)) (iblk38 V a1 c 0 t)

theorem outBlk_eq38 (c : Dev nD) (t : Fin (cfg38 a1).N) :
    outBlk38 V a1 c t = gatherOut (gatherG (a1.1 0) (V c main_v141) (grid38.coords t)) (iblk38 V a1 c 0 t) := rfl

/-- The proof data with the output block named: after the body at point t the output window's buffer holds it. -/
theorem afterOutBlk38 (c : Dev nD) (t : Fin (cfg38 a1).N) :
    (dat38 V a1 (outBlk38 V a1) c).after 1 t
      = gatherOut (gatherG (a1.1 0) (V c main_v141) (grid38.coords t)) (iblk38 V a1 c 0 t) :=
  afterOut38 V a1 (outBlk38 V a1) c t

/-- The own cells at zero are the semaphore array's eight entries at zero, in order. -/
theorem ownSems_eq38 (c : Dev nD) :
    (Pipeline.ownSems0 (Ix := Unit) (Name := ℕ) (U := UD sig nD τ) (Lvl := ℕ) (Val := Elt F) (τ := τ) osem38 c : sProp 𝕄)
      = gsems0 c cc38_scratch1 := by
  rw [Pipeline.ownSems0_eq_of_list c osem38 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq38 (t : Fin (cfg38 a1).N) : ∃ h3 h4, bodyProg38 (F := F) a1 t
    = cc38__gather_mul_kernel (grid38.coords t) (Memref.whole main_v163) (Memref.isWhole_whole _) (Memref.whole main_v141) (Memref.isWhole_whole _)
        (stg38 a1 0 t) h3 (stg38 a1 1 t) h4 (Memref.whole cc38_scratch0) (Memref.isWhole_whole _) cc38_scratch1 := ⟨_, _, rfl⟩

end Out

/-! ## The body's run, joined to the proof data -/

section Body

variable (V : (c : Dev nD) → (b : Ref sig .tc) → Buf (Elt F) ((c : Thread nD τ).loc b))
  (a1 : (pcfg38 (F := F)).Adm)

/-- The scratch buffer whole at some contents, as a memref owned at some contents. -/
theorem scratchOwns_eq38 (c : Dev nD) :
    (iprop(∃ d, owns (c : Thread nD τ) (Memref.whole cc38_scratch0) fullShare d) : sProp 𝕄)
      = iprop(∃ f : Buf (Elt F) ((c : Thread nD τ).loc cc38_scratch0), ((c : Thread nD τ).loc cc38_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun38 (hlt : ∀ y, BitVec.toNat ((a1.1 0) y) < 100000) : BodyRun38 V a1 (outBlk38 V a1) := by
  intro c t W K
  obtain ⟨h3, h4, hprog⟩ := bodyProg_eq38 (F := F) a1 t
  rw [hprog, ownSems_eq38, ← scratchOwns_eq38 (F := F) c]
  have hrun := gather_kernel_run_38 (F := F) c (grid38.coords t) (Memref.whole main_v163) (Memref.isWhole_whole _) (Memref.whole main_v141) (Memref.isWhole_whole _)
    (stg38 a1 0 t) h3 (stg38 a1 1 t) h4 (Memref.whole cc38_scratch0) (Memref.isWhole_whole _) cc38_scratch1 fullShare fullShare
    (a1.1 0) (V c main_v141) (iblk38 V a1 c 0 t) (fun y => hlt y) W K
  simp only [Memref.view_whole, View.read_whole] at hrun
  unfold outBlk38
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut38 (hlt : ∀ y, BitVec.toNat ((a1.1 0) y) < 100000) (c : Dev nD) :
    BodyObligation (dat38 (F := F) V a1 (outBlk38 V a1) c) (defs₀ (F := F)) Variants.none () Set.univ :=
  body_obligation38 V a1 (outBlk38 V a1) (bodyRun38 V a1 hlt) c

end Body

/-! # Region 39 -/

/-! ## The body's own transfer cells -/

/-- The eight cells of the body's semaphore array, in order. -/
abbrev osem39 : Fin 8 → SemLoc sig := fun j => SemLoc.dma (cc39_scratch1.ix (fun | ⟨0, _⟩ => j))

/-- They are scoped, pairwise distinct, and none is a staging cell of a window. -/
theorem ownSemFacts39 : Pipeline.OwnSemFacts spec39 osem39 := by decide

/-- The far operand is an unscoped buffer that is neither a window's array nor a table. -/
theorem hx_sub39 : ({main_v141} : Finset (Ref sig .tc)) ⊆ Pipeline.restRefsP sig pre39 spec39 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg39 (F := F)).Adm)
  (O : (c : Dev nD) → Fin (cfg39 a1).N → Vec F S8x64 .f32)

/-! ## The windows' blocks -/

/-- Window w's block at point t, read off its array under V. -/
def iblk39 (c : Dev nD) (w : Fin (cfg39 a1).W) (t : Fin (cfg39 a1).N) :
    (((cfg39 a1).win w).xblock ((cfg39 a1).grid.coords t)).Idx → Elt F ((cfg39 a1).win w).elt :=
  (((cfg39 a1).win w).blk t).view.read (Elt F) (V c (Pipeline.arrRef spec39 w))

/-- The input window's current staging buffer holds its block at every point, fetched there or not, for any proof
    data whose array is V's and whose body leaves the block in place: unfetched, the block index has not moved. -/
theorem beforeIn39_of {c : Dev nD} (dat : Dat τ (Elt F) Unit ℕ (UD sig nD τ) ℕ (cfg39 a1) c)
    (hA : dat.A 0 = V c (Pipeline.arrRef spec39 0))
    (hafter : ∀ t, dat.after 0 t = iblk39 V a1 c 0 t) (t : Fin (cfg39 a1).N) (d) : dat.before 0 t d = iblk39 V a1 c 0 t :=
  (dat.before_in_eq_fetched 0 rfl (fun _ => rfl) (fun _ _ _ => rfl)
    (fun t => by rw [hafter]; unfold Dat.blockOf iblk39; rw [hA]; try rfl) t d).trans
    (by unfold Dat.fetched Dat.blockOf iblk39; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat39 (c : Dev nD) : Dat τ (Elt F) Unit ℕ (UD sig nD τ) ℕ (cfg39 a1) c where
  A w := V c (Pipeline.arrRef spec39 w)
  after w t := match w with
    | ⟨0, _⟩ => iblk39 V a1 c 0 t
    | ⟨1, _⟩ => O c t
  Φ _ := iprop(Pipeline.ΦD osem39 spec39 {main_v141} V c ∗ Pipeline.prefHeld pre39 c (fun _ => fullShare) a1.1)
  q _ := fullShare
  owed _ := 0

theorem A_eq39 (c : Dev nD) (w : Fin (cfg39 a1).W) : (dat39 V a1 O c).A w = V c (Pipeline.arrRef spec39 w) := by
  dsimp only [dat39]

theorem afterIn39 (c : Dev nD) (t : Fin (cfg39 a1).N) : (dat39 V a1 O c).after 0 t = iblk39 V a1 c 0 t := by
  dsimp only [dat39]; rfl

theorem afterOut39 (c : Dev nD) (t : Fin (cfg39 a1).N) :
    (dat39 V a1 O c).after 1 t = O c t := by
  dsimp only [dat39]; rfl

theorem beforeIn39 (c : Dev nD) (t : Fin (cfg39 a1).N) (d) : (dat39 V a1 O c).before 0 t d = iblk39 V a1 c 0 t :=
  beforeIn39_of V a1 (dat39 V a1 O c) (A_eq39 V a1 O c 0) (afterIn39 V a1 O c) t d

theorem Phi_eq39 (c : Dev nD) (t : Fin ((cfg39 a1).N + 1)) :
    (dat39 V a1 O c).Φ t
      = iprop(Pipeline.ΦD osem39 spec39 {main_v141} V c ∗ Pipeline.prefHeld pre39 c (fun _ => fullShare) a1.1) := by
  dsimp only [dat39]

theorem owed_eq39 (c : Dev nD) (t : Fin ((cfg39 a1).N + 1)) : (dat39 V a1 O c).owed t = 0 := by
  dsimp only [dat39]

/-! ## The invariant, conjunct by conjunct -/

/-- The invariant's first part opened: the body's scratch buffer whole at some contents and the other scoped
    buffers no window stages, the generator register, the own cells at zero, the far operand at its contents. -/
theorem PhiD_eq39 (c : Dev nD) :
    (Pipeline.ΦD osem39 spec39 {main_v141} V c : sProp 𝕄)
      = iprop(iprop(iprop((∃ f : Buf (Elt F) ((c : Thread nD τ).loc cc39_scratch0), ((c : Thread nD τ).loc cc39_scratch0) ↦{fullShare} f))
            ∗ Pipeline.scopedRestBut (Ix := Unit) (Name := ℕ) (U := UD sig nD τ) (Lvl := ℕ) (Val := Elt F) spec39 c [cc39_scratch0])
          ∗ (∃ r, prngReg c r)
          ∗ Pipeline.ownSems0 (Ix := Unit) (Name := ℕ) (U := UD sig nD τ) (Lvl := ℕ) (Val := Elt F) (τ := τ) osem39 c
          ∗ (((c : Thread nD τ).loc main_v141) ↦{fullShare} V c main_v141)) := by
  rw [Pipeline.ΦD_eq, scopedRest39_split, BI.bigSep_eq_bigSepL_of_eq [main_v141] (by decide) (by decide)]; rfl

/-- The one table, held whole. -/
theorem prefHeld_eq39 (c : Dev nD) :
    (Pipeline.prefHeld pre39 c (fun _ => fullShare) a1.1 : sProp 𝕄)
      = (((c : Thread nD τ).loc main_v167) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg39 (w : Fin (cfg39 a1).W) (t : Fin (cfg39 a1).N) := ((cfg39 a1).win w).stage ((cfg39 a1).slots t w)

/-- The body as the pipeline calls it at point t. -/
abbrev bodyProg39 (t : Fin (cfg39 a1).N) : Prog (TpuEff nD τ sig (Elt F) Λ₀ .tc) PUnit :=
  (defs₀ (F := F)) .tc (cfg39 a1).body ((cfg39 a1).bodyArgs t ((cfg39 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun39 : Prop :=
  ∀ (c : Dev nD) (t : Fin (cfg39 a1).N) (W) (K : PUnit → sProp 𝕄),
    iprop(owns (c : Thread nD τ) (stg39 a1 0 t) fullShare (iblk39 V a1 c 0 t)
        ∗ (∃ d, owns (c : Thread nD τ) (stg39 a1 1 t) fullShare d)
        ∗ (∃ f : Buf (Elt F) ((c : Thread nD τ).loc cc39_scratch0), ((c : Thread nD τ).loc cc39_scratch0) ↦{fullShare} f)
        ∗ Pipeline.ownSems0 (Ix := Unit) (Name := ℕ) (U := UD sig nD τ) (Lvl := ℕ) (Val := Elt F) (τ := τ) osem39 c
        ∗ (((c : Thread nD τ).loc main_v167) ↦{fullShare} a1.1 0)
        ∗ (((c : Thread nD τ).loc main_v141) ↦{fullShare} V c main_v141)
        ∗ owes (c : Thread nD τ) (0 : CellTallies nD τ sig Unit) W
        ∗ (iprop(owns (c : Thread nD τ) (stg39 a1 0 t) fullShare (iblk39 V a1 c 0 t)
            ∗ owns (c : Thread nD τ) (stg39 a1 1 t) fullShare (O c t)
            ∗ (∃ f : Buf (Elt F) ((c : Thread nD τ).loc cc39_scratch0), ((c : Thread nD τ).loc cc39_scratch0) ↦{fullShare} f)
            ∗ Pipeline.ownSems0 (Ix := Unit) (Name := ℕ) (U := UD sig nD τ) (Lvl := ℕ) (Val := Elt F) (τ := τ) osem39 c
            ∗ (((c : Thread nD τ).loc main_v167) ↦{fullShare} a1.1 0)
            ∗ (((c : Thread nD τ).loc main_v141) ↦{fullShare} V c main_v141)
            ∗ (∃ W', owes (c : Thread nD τ) (0 : CellTallies nD τ sig Unit) W')) -∗ K ⟨⟩))
      ⊢ wp frame (wpE (defs₀ (F := F)) Variants.none c none) Set.univ (bodyProg39 a1 t) K

/-- What the body is called with at point t, the windows one by one, -/
def bodyPre39 (c : Dev nD) (t : Fin (cfg39 a1).N) : sProp 𝕄 :=
  iprop((dat39 V a1 O c).Φ t.castSucc ∗ (dat39 V a1 O c).owesAt () t.castSucc
    ∗ (∃ d, owns (c : Thread nD τ) (stg39 a1 0 t) fullShare ((dat39 V a1 O c).before 0 t d))
    ∗ (∃ d, owns (c : Thread nD τ) (stg39 a1 1 t) fullShare ((dat39 V a1 O c).before 1 t d)))

/-- and what it returns. -/
def bodyPost39 (c : Dev nD) (t : Fin (cfg39 a1).N) : sProp 𝕄 :=
  iprop((dat39 V a1 O c).Φ t.succ ∗ (dat39 V a1 O c).owesAt () t.succ
    ∗ owns (c : Thread nD τ) (stg39 a1 0 t) fullShare ((dat39 V a1 O c).after 0 t)
    ∗ owns (c : Thread nD τ) (stg39 a1 1 t) fullShare ((dat39 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body39 (hrun : BodyRun39 V a1 O) (c : Dev nD) (t : Fin (cfg39 a1).N) :
    bodyPre39 V a1 O c t
      ⊢ wp frame (wpE (defs₀ (F := F)) Variants.none c none) Set.univ (bodyProg39 a1 t) (fun _ => bodyPost39 V a1 O c t) := by
  unfold bodyPre39 bodyPost39
  simp only [beforeIn39]
  rw [afterIn39, afterOut39, Phi_eq39, Phi_eq39, PhiD_eq39, prefHeld_eq39]
  unfold Dat.owesAt Pipeline.owesWithin
  rw [owed_eq39, owed_eq39]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation39 (hrun : BodyRun39 V a1 O) (c : Dev nD) :
    BodyObligation (dat39 (F := F) V a1 O c) (defs₀ (F := F)) Variants.none () Set.univ := fun t => by
  rw [bigSep_W39, bigSep_W39]
  exact sound_body39 V a1 O hrun c t

end Data

/-! ## The region's record -/

section Record

variable (Win : Dev nD → Valuation τ sig (Elt F))

variable (a1 : (pcfg39 (F := F)).Adm)
  (O : (c : Dev nD) → Fin (cfg39 a1).N → Vec F S8x64 .f32)

/-- The buffers at the region's exit: its arrays at what the write-backs leave, every other buffer as entered. -/
def Wout39 (c : Dev nD) : Valuation τ sig (Elt F) :=
  Pipeline.withArrays spec39 c (Win c) fun w => (dat39 (Vof Win) a1 O c).arrAt w (cfg39 a1).N

theorem Wout39_arr (c : Dev nD) (w : Fin (cfg39 a1).W) :
    Wout39 Win a1 O c (Proc.devRef .tc (Pipeline.arrRef spec39 w)) = (dat39 (Vof Win) a1 O c).arrAt w (cfg39 a1).N := by
  unfold Wout39; exact Pipeline.withArrays_arr spec39 winFacts39.arr_inj c _ _ w

theorem Wout39_of_ne (c : Dev nD) (b : Ref sig .tc) (hb : ∀ w, Pipeline.arrRef spec39 w ≠ b) :
    Wout39 Win a1 O c (Proc.devRef .tc b) = Win c (Proc.devRef .tc b) := by
  unfold Wout39; exact Pipeline.withArrays_of_ne spec39 c _ _ b hb

/-- ENTRY, the buffers' part. Every unscoped buffer at Win is: the region's arrays at the proof data's entry contents,
    the table whole at the admissible contents (which are Win's there), the far operand whole, and the others. -/
theorem entry39 (c : Dev nD) (ha1 : ∀ k, Vof Win c (pre39.ref k) = a1.1 k) :
    (StableHlo.held (c : Thread nD τ) (Pipeline.ucRefs τ sig) (Win c) : sProp 𝕄)
      ⊢ iprop((dat39 (Vof Win) a1 O c).arrays ((dat39 (Vof Win) a1 O c).arrAt · 0)
          ∗ Pipeline.prefHeld pre39 c (fun _ => fullShare) a1.1
          ∗ (bigSep ({main_v141} : Finset (Ref sig .tc)) fun b => (((c : Thread nD τ)).loc b) ↦{fullShare} Vof Win c b)
          ∗ bigSep (Pipeline.restRefsP sig pre39 spec39 \ {main_v141}) fun b => (((c : Thread nD τ)).loc b) ↦{fullShare} Vof Win c b) := by
  have hsplit := Pipeline.arrays_of_unscopedBufs (p := ()) (fun (_ : Unit) => pcfg39 (F := F)) (fun _ => a1)
    (fun _ c => dat39 (Vof Win) a1 O c) winFacts39 (launch39 (F := F)).arr_whole c
    ((dat39 (Vof Win) a1 O c).share_full fun _ => rfl) (Vof Win c) (fun w => A_eq39 (Vof Win) a1 O c w)
  rw [Pipeline.unscopedBufs_held,
    Pipeline.unscopedRest_split (Ix := Unit) (Name := ℕ) (U := UD sig nD τ) (Lvl := ℕ) preFacts39 c (Vof Win c),
    Pipeline.unscopedRestP_sdiff pre39 spec39 {main_v141} hx_sub39 c (Vof Win c),
    show (fun k => Vof Win c (pre39.ref k)) = a1.1 from funext ha1] at hsplit
  exact hsplit

/-- EXIT, the buffers' part: the same four put back, the arrays at what the write-backs leave, are every unscoped
    buffer at the exit valuation. -/
theorem exit39 (c : Dev nD) (ha1 : ∀ k, Vof Win c (pre39.ref k) = a1.1 k) :
    iprop((dat39 (Vof Win) a1 O c).arrays ((dat39 (Vof Win) a1 O c).arrAt · (cfg39 a1).N)
        ∗ Pipeline.prefHeld pre39 c (fun _ => fullShare) a1.1
        ∗ (bigSep ({main_v141} : Finset (Ref sig .tc)) fun b => (((c : Thread nD τ)).loc b) ↦{fullShare} Vof Win c b)
        ∗ bigSep (Pipeline.restRefsP sig pre39 spec39 \ {main_v141}) fun b => (((c : Thread nD τ)).loc b) ↦{fullShare} Vof Win c b)
      ⊢ (StableHlo.held (c : Thread nD τ) (Pipeline.ucRefs τ sig) (Wout39 Win a1 O c) : sProp 𝕄) := by
  have hjoin := Pipeline.unscopedBufs_of_arrays (p := ()) (fun (_ : Unit) => pcfg39 (F := F)) (fun _ => a1)
    (Ix := Unit) (Name := ℕ) (U := UD sig nD τ) (Lvl := ℕ)
    winFacts39 (launch39 (F := F)).arr_whole c (fun _ c => dat39 (Vof Win) a1 O c)
    ((dat39 (Vof Win) a1 O c).share_full fun _ => rfl)
    (Vof Win c) (Vof (Wout39 Win a1 O) c) ((dat39 (Vof Win) a1 O c).arrAt · (cfg39 a1).N)
    (fun w => (Wout39_arr Win a1 O c w).symm)
    (fun b hb => Wout39_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts39 c (Vof Win c),
    Pipeline.unscopedRestP_sdiff pre39 spec39 {main_v141} hx_sub39 c (Vof Win c),
    show (fun k => Vof Win c (pre39.ref k)) = a1.1 from funext ha1] at hjoin
  exact hjoin

end Record

section Seg

variable (Win : Dev nD → Valuation τ sig (Elt F))
  (adm : (p : Fin 49) → (pcfgs (F := F) p).Adm)
  (O : (c : Dev nD) → Fin (cfg39 (adm (39 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout39. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg39 (hd : ∀ c, pdats (39 : Fin 49) c = dat39 (Vof Win) (adm (39 : Fin 49)) O c)
    (ha1 : ∀ c k, Vof Win c (pre39.ref k) = (adm (39 : Fin 49)).1 k)
    (hbody : ∀ c, BodyObligation (dat39 (F := F) (Vof Win) (adm (39 : Fin 49)) O c) (defs₀ (F := F)) 𝒱₀ () Set.univ) :
    Pipeline.RegionSeg (pcfgs (F := F)) adm pdats () defs₀ 𝒱₀ L lv (39 : Fin 49) where
  win := (launch39 (F := F)).win.to₀
  block_pos := (launch39 (F := F)).block_pos
  stage_whole := (launch39 (F := F)).stage_whole
  K := Fin 8
  osem := osem39
  ho := ownSemFacts39
  hbody c := by rw [hd c]; exact (hbody c).loose
  hwaits := Pipeline.hwaits_of_owed_zero _ _ _ _ L lv (39 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout39 Win (adm (39 : Fin 49)) O c) ∗ R c)
  X c := iprop((∃ r, prngReg c r)
    ∗ Pipeline.ownSems0 (Ix := Unit) (Name := ℕ) (U := UD sig nD τ) (Lvl := ℕ) (Val := Elt F) (τ := τ) osem39 c
    ∗ (bigSep ({main_v141} : Finset (Ref sig .tc)) fun b => (((c : Thread nD τ)).loc b) ↦{fullShare} Vof Win c b))
  Y c := iprop((∃ r, prngReg c r)
    ∗ (bigSep ({main_v141} : Finset (Ref sig .tc)) fun b => (((c : Thread nD τ)).loc b) ↦{fullShare} Vof Win c b)
    ∗ Pipeline.prefHeld pre39 c (fun _ => fullShare) (adm (39 : Fin 49)).1)
  Z c := bigSep (Pipeline.restRefsP sig pre39 spec39 \ {main_v141}) fun b => (((c : Thread nD τ)).loc b) ↦{fullShare} Vof Win c b
  hentry c := by
    rw [hd c]
    iintro ⟨⟨Hub, Hp, HO⟩, Hos, -⟩
    ihave H := (entry39 Win (adm (39 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq39, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq39, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit39 Win (adm (39 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg39 (F := F)).Adm)

/-- The output block at point t: the gathered rows (of the far operand's contents under V, chosen by the table's
    words at that point) times the input block. -/
def outBlk39 (c : Dev nD) (t : Fin (cfg39 a1).N) : Vec F S8x64 .f32 :=
  gatherOut (gatherG (a1.1 0) (V c main_v141) (grid39.coords t)) (iblk39 V a1 c 0 t)

theorem outBlk_eq39 (c : Dev nD) (t : Fin (cfg39 a1).N) :
    outBlk39 V a1 c t = gatherOut (gatherG (a1.1 0) (V c main_v141) (grid39.coords t)) (iblk39 V a1 c 0 t) := rfl

/-- The proof data with the output block named: after the body at point t the output window's buffer holds it. -/
theorem afterOutBlk39 (c : Dev nD) (t : Fin (cfg39 a1).N) :
    (dat39 V a1 (outBlk39 V a1) c).after 1 t
      = gatherOut (gatherG (a1.1 0) (V c main_v141) (grid39.coords t)) (iblk39 V a1 c 0 t) :=
  afterOut39 V a1 (outBlk39 V a1) c t

/-- The own cells at zero are the semaphore array's eight entries at zero, in order. -/
theorem ownSems_eq39 (c : Dev nD) :
    (Pipeline.ownSems0 (Ix := Unit) (Name := ℕ) (U := UD sig nD τ) (Lvl := ℕ) (Val := Elt F) (τ := τ) osem39 c : sProp 𝕄)
      = gsems0 c cc39_scratch1 := by
  rw [Pipeline.ownSems0_eq_of_list c osem39 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq39 (t : Fin (cfg39 a1).N) : ∃ h3 h4, bodyProg39 (F := F) a1 t
    = cc39__gather_mul_kernel (grid39.coords t) (Memref.whole main_v167) (Memref.isWhole_whole _) (Memref.whole main_v141) (Memref.isWhole_whole _)
        (stg39 a1 0 t) h3 (stg39 a1 1 t) h4 (Memref.whole cc39_scratch0) (Memref.isWhole_whole _) cc39_scratch1 := ⟨_, _, rfl⟩

end Out

/-! ## The body's run, joined to the proof data -/

section Body

variable (V : (c : Dev nD) → (b : Ref sig .tc) → Buf (Elt F) ((c : Thread nD τ).loc b))
  (a1 : (pcfg39 (F := F)).Adm)

/-- The scratch buffer whole at some contents, as a memref owned at some contents. -/
theorem scratchOwns_eq39 (c : Dev nD) :
    (iprop(∃ d, owns (c : Thread nD τ) (Memref.whole cc39_scratch0) fullShare d) : sProp 𝕄)
      = iprop(∃ f : Buf (Elt F) ((c : Thread nD τ).loc cc39_scratch0), ((c : Thread nD τ).loc cc39_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun39 (hlt : ∀ y, BitVec.toNat ((a1.1 0) y) < 100000) : BodyRun39 V a1 (outBlk39 V a1) := by
  intro c t W K
  obtain ⟨h3, h4, hprog⟩ := bodyProg_eq39 (F := F) a1 t
  rw [hprog, ownSems_eq39, ← scratchOwns_eq39 (F := F) c]
  have hrun := gather_kernel_run_39 (F := F) c (grid39.coords t) (Memref.whole main_v167) (Memref.isWhole_whole _) (Memref.whole main_v141) (Memref.isWhole_whole _)
    (stg39 a1 0 t) h3 (stg39 a1 1 t) h4 (Memref.whole cc39_scratch0) (Memref.isWhole_whole _) cc39_scratch1 fullShare fullShare
    (a1.1 0) (V c main_v141) (iblk39 V a1 c 0 t) (fun y => hlt y) W K
  simp only [Memref.view_whole, View.read_whole] at hrun
  unfold outBlk39
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut39 (hlt : ∀ y, BitVec.toNat ((a1.1 0) y) < 100000) (c : Dev nD) :
    BodyObligation (dat39 (F := F) V a1 (outBlk39 V a1) c) (defs₀ (F := F)) Variants.none () Set.univ :=
  body_obligation39 V a1 (outBlk39 V a1) (bodyRun39 V a1 hlt) c

end Body

/-! # Region 40 -/

/-! ## The body's own transfer cells -/

/-- The eight cells of the body's semaphore array, in order. -/
abbrev osem40 : Fin 8 → SemLoc sig := fun j => SemLoc.dma (cc40_scratch1.ix (fun | ⟨0, _⟩ => j))

/-- They are scoped, pairwise distinct, and none is a staging cell of a window. -/
theorem ownSemFacts40 : Pipeline.OwnSemFacts spec40 osem40 := by decide

/-- The far operand is an unscoped buffer that is neither a window's array nor a table. -/
theorem hx_sub40 : ({main_v141} : Finset (Ref sig .tc)) ⊆ Pipeline.restRefsP sig pre40 spec40 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg40 (F := F)).Adm)
  (O : (c : Dev nD) → Fin (cfg40 a1).N → Vec F S8x64 .f32)

/-! ## The windows' blocks -/

/-- Window w's block at point t, read off its array under V. -/
def iblk40 (c : Dev nD) (w : Fin (cfg40 a1).W) (t : Fin (cfg40 a1).N) :
    (((cfg40 a1).win w).xblock ((cfg40 a1).grid.coords t)).Idx → Elt F ((cfg40 a1).win w).elt :=
  (((cfg40 a1).win w).blk t).view.read (Elt F) (V c (Pipeline.arrRef spec40 w))

/-- The input window's current staging buffer holds its block at every point, fetched there or not, for any proof
    data whose array is V's and whose body leaves the block in place: unfetched, the block index has not moved. -/
theorem beforeIn40_of {c : Dev nD} (dat : Dat τ (Elt F) Unit ℕ (UD sig nD τ) ℕ (cfg40 a1) c)
    (hA : dat.A 0 = V c (Pipeline.arrRef spec40 0))
    (hafter : ∀ t, dat.after 0 t = iblk40 V a1 c 0 t) (t : Fin (cfg40 a1).N) (d) : dat.before 0 t d = iblk40 V a1 c 0 t :=
  (dat.before_in_eq_fetched 0 rfl (fun _ => rfl) (fun _ _ _ => rfl)
    (fun t => by rw [hafter]; unfold Dat.blockOf iblk40; rw [hA]; try rfl) t d).trans
    (by unfold Dat.fetched Dat.blockOf iblk40; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat40 (c : Dev nD) : Dat τ (Elt F) Unit ℕ (UD sig nD τ) ℕ (cfg40 a1) c where
  A w := V c (Pipeline.arrRef spec40 w)
  after w t := match w with
    | ⟨0, _⟩ => iblk40 V a1 c 0 t
    | ⟨1, _⟩ => O c t
  Φ _ := iprop(Pipeline.ΦD osem40 spec40 {main_v141} V c ∗ Pipeline.prefHeld pre40 c (fun _ => fullShare) a1.1)
  q _ := fullShare
  owed _ := 0

theorem A_eq40 (c : Dev nD) (w : Fin (cfg40 a1).W) : (dat40 V a1 O c).A w = V c (Pipeline.arrRef spec40 w) := by
  dsimp only [dat40]

theorem afterIn40 (c : Dev nD) (t : Fin (cfg40 a1).N) : (dat40 V a1 O c).after 0 t = iblk40 V a1 c 0 t := by
  dsimp only [dat40]; rfl

theorem afterOut40 (c : Dev nD) (t : Fin (cfg40 a1).N) :
    (dat40 V a1 O c).after 1 t = O c t := by
  dsimp only [dat40]; rfl

theorem beforeIn40 (c : Dev nD) (t : Fin (cfg40 a1).N) (d) : (dat40 V a1 O c).before 0 t d = iblk40 V a1 c 0 t :=
  beforeIn40_of V a1 (dat40 V a1 O c) (A_eq40 V a1 O c 0) (afterIn40 V a1 O c) t d

theorem Phi_eq40 (c : Dev nD) (t : Fin ((cfg40 a1).N + 1)) :
    (dat40 V a1 O c).Φ t
      = iprop(Pipeline.ΦD osem40 spec40 {main_v141} V c ∗ Pipeline.prefHeld pre40 c (fun _ => fullShare) a1.1) := by
  dsimp only [dat40]

theorem owed_eq40 (c : Dev nD) (t : Fin ((cfg40 a1).N + 1)) : (dat40 V a1 O c).owed t = 0 := by
  dsimp only [dat40]

/-! ## The invariant, conjunct by conjunct -/

/-- The invariant's first part opened: the body's scratch buffer whole at some contents and the other scoped
    buffers no window stages, the generator register, the own cells at zero, the far operand at its contents. -/
theorem PhiD_eq40 (c : Dev nD) :
    (Pipeline.ΦD osem40 spec40 {main_v141} V c : sProp 𝕄)
      = iprop(iprop(iprop((∃ f : Buf (Elt F) ((c : Thread nD τ).loc cc40_scratch0), ((c : Thread nD τ).loc cc40_scratch0) ↦{fullShare} f))
            ∗ Pipeline.scopedRestBut (Ix := Unit) (Name := ℕ) (U := UD sig nD τ) (Lvl := ℕ) (Val := Elt F) spec40 c [cc40_scratch0])
          ∗ (∃ r, prngReg c r)
          ∗ Pipeline.ownSems0 (Ix := Unit) (Name := ℕ) (U := UD sig nD τ) (Lvl := ℕ) (Val := Elt F) (τ := τ) osem40 c
          ∗ (((c : Thread nD τ).loc main_v141) ↦{fullShare} V c main_v141)) := by
  rw [Pipeline.ΦD_eq, scopedRest40_split, BI.bigSep_eq_bigSepL_of_eq [main_v141] (by decide) (by decide)]; rfl

/-- The one table, held whole. -/
theorem prefHeld_eq40 (c : Dev nD) :
    (Pipeline.prefHeld pre40 c (fun _ => fullShare) a1.1 : sProp 𝕄)
      = (((c : Thread nD τ).loc main_v171) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg40 (w : Fin (cfg40 a1).W) (t : Fin (cfg40 a1).N) := ((cfg40 a1).win w).stage ((cfg40 a1).slots t w)

/-- The body as the pipeline calls it at point t. -/
abbrev bodyProg40 (t : Fin (cfg40 a1).N) : Prog (TpuEff nD τ sig (Elt F) Λ₀ .tc) PUnit :=
  (defs₀ (F := F)) .tc (cfg40 a1).body ((cfg40 a1).bodyArgs t ((cfg40 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun40 : Prop :=
  ∀ (c : Dev nD) (t : Fin (cfg40 a1).N) (W) (K : PUnit → sProp 𝕄),
    iprop(owns (c : Thread nD τ) (stg40 a1 0 t) fullShare (iblk40 V a1 c 0 t)
        ∗ (∃ d, owns (c : Thread nD τ) (stg40 a1 1 t) fullShare d)
        ∗ (∃ f : Buf (Elt F) ((c : Thread nD τ).loc cc40_scratch0), ((c : Thread nD τ).loc cc40_scratch0) ↦{fullShare} f)
        ∗ Pipeline.ownSems0 (Ix := Unit) (Name := ℕ) (U := UD sig nD τ) (Lvl := ℕ) (Val := Elt F) (τ := τ) osem40 c
        ∗ (((c : Thread nD τ).loc main_v171) ↦{fullShare} a1.1 0)
        ∗ (((c : Thread nD τ).loc main_v141) ↦{fullShare} V c main_v141)
        ∗ owes (c : Thread nD τ) (0 : CellTallies nD τ sig Unit) W
        ∗ (iprop(owns (c : Thread nD τ) (stg40 a1 0 t) fullShare (iblk40 V a1 c 0 t)
            ∗ owns (c : Thread nD τ) (stg40 a1 1 t) fullShare (O c t)
            ∗ (∃ f : Buf (Elt F) ((c : Thread nD τ).loc cc40_scratch0), ((c : Thread nD τ).loc cc40_scratch0) ↦{fullShare} f)
            ∗ Pipeline.ownSems0 (Ix := Unit) (Name := ℕ) (U := UD sig nD τ) (Lvl := ℕ) (Val := Elt F) (τ := τ) osem40 c
            ∗ (((c : Thread nD τ).loc main_v171) ↦{fullShare} a1.1 0)
            ∗ (((c : Thread nD τ).loc main_v141) ↦{fullShare} V c main_v141)
            ∗ (∃ W', owes (c : Thread nD τ) (0 : CellTallies nD τ sig Unit) W')) -∗ K ⟨⟩))
      ⊢ wp frame (wpE (defs₀ (F := F)) Variants.none c none) Set.univ (bodyProg40 a1 t) K

/-- What the body is called with at point t, the windows one by one, -/
def bodyPre40 (c : Dev nD) (t : Fin (cfg40 a1).N) : sProp 𝕄 :=
  iprop((dat40 V a1 O c).Φ t.castSucc ∗ (dat40 V a1 O c).owesAt () t.castSucc
    ∗ (∃ d, owns (c : Thread nD τ) (stg40 a1 0 t) fullShare ((dat40 V a1 O c).before 0 t d))
    ∗ (∃ d, owns (c : Thread nD τ) (stg40 a1 1 t) fullShare ((dat40 V a1 O c).before 1 t d)))

/-- and what it returns. -/
def bodyPost40 (c : Dev nD) (t : Fin (cfg40 a1).N) : sProp 𝕄 :=
  iprop((dat40 V a1 O c).Φ t.succ ∗ (dat40 V a1 O c).owesAt () t.succ
    ∗ owns (c : Thread nD τ) (stg40 a1 0 t) fullShare ((dat40 V a1 O c).after 0 t)
    ∗ owns (c : Thread nD τ) (stg40 a1 1 t) fullShare ((dat40 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body40 (hrun : BodyRun40 V a1 O) (c : Dev nD) (t : Fin (cfg40 a1).N) :
    bodyPre40 V a1 O c t
      ⊢ wp frame (wpE (defs₀ (F := F)) Variants.none c none) Set.univ (bodyProg40 a1 t) (fun _ => bodyPost40 V a1 O c t) := by
  unfold bodyPre40 bodyPost40
  simp only [beforeIn40]
  rw [afterIn40, afterOut40, Phi_eq40, Phi_eq40, PhiD_eq40, prefHeld_eq40]
  unfold Dat.owesAt Pipeline.owesWithin
  rw [owed_eq40, owed_eq40]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation40 (hrun : BodyRun40 V a1 O) (c : Dev nD) :
    BodyObligation (dat40 (F := F) V a1 O c) (defs₀ (F := F)) Variants.none () Set.univ := fun t => by
  rw [bigSep_W40, bigSep_W40]
  exact sound_body40 V a1 O hrun c t

end Data

/-! ## The region's record -/

section Record

variable (Win : Dev nD → Valuation τ sig (Elt F))

variable (a1 : (pcfg40 (F := F)).Adm)
  (O : (c : Dev nD) → Fin (cfg40 a1).N → Vec F S8x64 .f32)

/-- The buffers at the region's exit: its arrays at what the write-backs leave, every other buffer as entered. -/
def Wout40 (c : Dev nD) : Valuation τ sig (Elt F) :=
  Pipeline.withArrays spec40 c (Win c) fun w => (dat40 (Vof Win) a1 O c).arrAt w (cfg40 a1).N

theorem Wout40_arr (c : Dev nD) (w : Fin (cfg40 a1).W) :
    Wout40 Win a1 O c (Proc.devRef .tc (Pipeline.arrRef spec40 w)) = (dat40 (Vof Win) a1 O c).arrAt w (cfg40 a1).N := by
  unfold Wout40; exact Pipeline.withArrays_arr spec40 winFacts40.arr_inj c _ _ w

theorem Wout40_of_ne (c : Dev nD) (b : Ref sig .tc) (hb : ∀ w, Pipeline.arrRef spec40 w ≠ b) :
    Wout40 Win a1 O c (Proc.devRef .tc b) = Win c (Proc.devRef .tc b) := by
  unfold Wout40; exact Pipeline.withArrays_of_ne spec40 c _ _ b hb

/-- ENTRY, the buffers' part. Every unscoped buffer at Win is: the region's arrays at the proof data's entry contents,
    the table whole at the admissible contents (which are Win's there), the far operand whole, and the others. -/
theorem entry40 (c : Dev nD) (ha1 : ∀ k, Vof Win c (pre40.ref k) = a1.1 k) :
    (StableHlo.held (c : Thread nD τ) (Pipeline.ucRefs τ sig) (Win c) : sProp 𝕄)
      ⊢ iprop((dat40 (Vof Win) a1 O c).arrays ((dat40 (Vof Win) a1 O c).arrAt · 0)
          ∗ Pipeline.prefHeld pre40 c (fun _ => fullShare) a1.1
          ∗ (bigSep ({main_v141} : Finset (Ref sig .tc)) fun b => (((c : Thread nD τ)).loc b) ↦{fullShare} Vof Win c b)
          ∗ bigSep (Pipeline.restRefsP sig pre40 spec40 \ {main_v141}) fun b => (((c : Thread nD τ)).loc b) ↦{fullShare} Vof Win c b) := by
  have hsplit := Pipeline.arrays_of_unscopedBufs (p := ()) (fun (_ : Unit) => pcfg40 (F := F)) (fun _ => a1)
    (fun _ c => dat40 (Vof Win) a1 O c) winFacts40 (launch40 (F := F)).arr_whole c
    ((dat40 (Vof Win) a1 O c).share_full fun _ => rfl) (Vof Win c) (fun w => A_eq40 (Vof Win) a1 O c w)
  rw [Pipeline.unscopedBufs_held,
    Pipeline.unscopedRest_split (Ix := Unit) (Name := ℕ) (U := UD sig nD τ) (Lvl := ℕ) preFacts40 c (Vof Win c),
    Pipeline.unscopedRestP_sdiff pre40 spec40 {main_v141} hx_sub40 c (Vof Win c),
    show (fun k => Vof Win c (pre40.ref k)) = a1.1 from funext ha1] at hsplit
  exact hsplit

/-- EXIT, the buffers' part: the same four put back, the arrays at what the write-backs leave, are every unscoped
    buffer at the exit valuation. -/
theorem exit40 (c : Dev nD) (ha1 : ∀ k, Vof Win c (pre40.ref k) = a1.1 k) :
    iprop((dat40 (Vof Win) a1 O c).arrays ((dat40 (Vof Win) a1 O c).arrAt · (cfg40 a1).N)
        ∗ Pipeline.prefHeld pre40 c (fun _ => fullShare) a1.1
        ∗ (bigSep ({main_v141} : Finset (Ref sig .tc)) fun b => (((c : Thread nD τ)).loc b) ↦{fullShare} Vof Win c b)
        ∗ bigSep (Pipeline.restRefsP sig pre40 spec40 \ {main_v141}) fun b => (((c : Thread nD τ)).loc b) ↦{fullShare} Vof Win c b)
      ⊢ (StableHlo.held (c : Thread nD τ) (Pipeline.ucRefs τ sig) (Wout40 Win a1 O c) : sProp 𝕄) := by
  have hjoin := Pipeline.unscopedBufs_of_arrays (p := ()) (fun (_ : Unit) => pcfg40 (F := F)) (fun _ => a1)
    (Ix := Unit) (Name := ℕ) (U := UD sig nD τ) (Lvl := ℕ)
    winFacts40 (launch40 (F := F)).arr_whole c (fun _ c => dat40 (Vof Win) a1 O c)
    ((dat40 (Vof Win) a1 O c).share_full fun _ => rfl)
    (Vof Win c) (Vof (Wout40 Win a1 O) c) ((dat40 (Vof Win) a1 O c).arrAt · (cfg40 a1).N)
    (fun w => (Wout40_arr Win a1 O c w).symm)
    (fun b hb => Wout40_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts40 c (Vof Win c),
    Pipeline.unscopedRestP_sdiff pre40 spec40 {main_v141} hx_sub40 c (Vof Win c),
    show (fun k => Vof Win c (pre40.ref k)) = a1.1 from funext ha1] at hjoin
  exact hjoin

end Record

section Seg

variable (Win : Dev nD → Valuation τ sig (Elt F))
  (adm : (p : Fin 49) → (pcfgs (F := F) p).Adm)
  (O : (c : Dev nD) → Fin (cfg40 (adm (40 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout40. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg40 (hd : ∀ c, pdats (40 : Fin 49) c = dat40 (Vof Win) (adm (40 : Fin 49)) O c)
    (ha1 : ∀ c k, Vof Win c (pre40.ref k) = (adm (40 : Fin 49)).1 k)
    (hbody : ∀ c, BodyObligation (dat40 (F := F) (Vof Win) (adm (40 : Fin 49)) O c) (defs₀ (F := F)) 𝒱₀ () Set.univ) :
    Pipeline.RegionSeg (pcfgs (F := F)) adm pdats () defs₀ 𝒱₀ L lv (40 : Fin 49) where
  win := (launch40 (F := F)).win.to₀
  block_pos := (launch40 (F := F)).block_pos
  stage_whole := (launch40 (F := F)).stage_whole
  K := Fin 8
  osem := osem40
  ho := ownSemFacts40
  hbody c := by rw [hd c]; exact (hbody c).loose
  hwaits := Pipeline.hwaits_of_owed_zero _ _ _ _ L lv (40 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout40 Win (adm (40 : Fin 49)) O c) ∗ R c)
  X c := iprop((∃ r, prngReg c r)
    ∗ Pipeline.ownSems0 (Ix := Unit) (Name := ℕ) (U := UD sig nD τ) (Lvl := ℕ) (Val := Elt F) (τ := τ) osem40 c
    ∗ (bigSep ({main_v141} : Finset (Ref sig .tc)) fun b => (((c : Thread nD τ)).loc b) ↦{fullShare} Vof Win c b))
  Y c := iprop((∃ r, prngReg c r)
    ∗ (bigSep ({main_v141} : Finset (Ref sig .tc)) fun b => (((c : Thread nD τ)).loc b) ↦{fullShare} Vof Win c b)
    ∗ Pipeline.prefHeld pre40 c (fun _ => fullShare) (adm (40 : Fin 49)).1)
  Z c := bigSep (Pipeline.restRefsP sig pre40 spec40 \ {main_v141}) fun b => (((c : Thread nD τ)).loc b) ↦{fullShare} Vof Win c b
  hentry c := by
    rw [hd c]
    iintro ⟨⟨Hub, Hp, HO⟩, Hos, -⟩
    ihave H := (entry40 Win (adm (40 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq40, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq40, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit40 Win (adm (40 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg40 (F := F)).Adm)

/-- The output block at point t: the gathered rows (of the far operand's contents under V, chosen by the table's
    words at that point) times the input block. -/
def outBlk40 (c : Dev nD) (t : Fin (cfg40 a1).N) : Vec F S8x64 .f32 :=
  gatherOut (gatherG (a1.1 0) (V c main_v141) (grid40.coords t)) (iblk40 V a1 c 0 t)

theorem outBlk_eq40 (c : Dev nD) (t : Fin (cfg40 a1).N) :
    outBlk40 V a1 c t = gatherOut (gatherG (a1.1 0) (V c main_v141) (grid40.coords t)) (iblk40 V a1 c 0 t) := rfl

/-- The proof data with the output block named: after the body at point t the output window's buffer holds it. -/
theorem afterOutBlk40 (c : Dev nD) (t : Fin (cfg40 a1).N) :
    (dat40 V a1 (outBlk40 V a1) c).after 1 t
      = gatherOut (gatherG (a1.1 0) (V c main_v141) (grid40.coords t)) (iblk40 V a1 c 0 t) :=
  afterOut40 V a1 (outBlk40 V a1) c t

/-- The own cells at zero are the semaphore array's eight entries at zero, in order. -/
theorem ownSems_eq40 (c : Dev nD) :
    (Pipeline.ownSems0 (Ix := Unit) (Name := ℕ) (U := UD sig nD τ) (Lvl := ℕ) (Val := Elt F) (τ := τ) osem40 c : sProp 𝕄)
      = gsems0 c cc40_scratch1 := by
  rw [Pipeline.ownSems0_eq_of_list c osem40 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq40 (t : Fin (cfg40 a1).N) : ∃ h3 h4, bodyProg40 (F := F) a1 t
    = cc40__gather_mul_kernel (grid40.coords t) (Memref.whole main_v171) (Memref.isWhole_whole _) (Memref.whole main_v141) (Memref.isWhole_whole _)
        (stg40 a1 0 t) h3 (stg40 a1 1 t) h4 (Memref.whole cc40_scratch0) (Memref.isWhole_whole _) cc40_scratch1 := ⟨_, _, rfl⟩

end Out

/-! ## The body's run, joined to the proof data -/

section Body

variable (V : (c : Dev nD) → (b : Ref sig .tc) → Buf (Elt F) ((c : Thread nD τ).loc b))
  (a1 : (pcfg40 (F := F)).Adm)

/-- The scratch buffer whole at some contents, as a memref owned at some contents. -/
theorem scratchOwns_eq40 (c : Dev nD) :
    (iprop(∃ d, owns (c : Thread nD τ) (Memref.whole cc40_scratch0) fullShare d) : sProp 𝕄)
      = iprop(∃ f : Buf (Elt F) ((c : Thread nD τ).loc cc40_scratch0), ((c : Thread nD τ).loc cc40_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun40 (hlt : ∀ y, BitVec.toNat ((a1.1 0) y) < 100000) : BodyRun40 V a1 (outBlk40 V a1) := by
  intro c t W K
  obtain ⟨h3, h4, hprog⟩ := bodyProg_eq40 (F := F) a1 t
  rw [hprog, ownSems_eq40, ← scratchOwns_eq40 (F := F) c]
  have hrun := gather_kernel_run_40 (F := F) c (grid40.coords t) (Memref.whole main_v171) (Memref.isWhole_whole _) (Memref.whole main_v141) (Memref.isWhole_whole _)
    (stg40 a1 0 t) h3 (stg40 a1 1 t) h4 (Memref.whole cc40_scratch0) (Memref.isWhole_whole _) cc40_scratch1 fullShare fullShare
    (a1.1 0) (V c main_v141) (iblk40 V a1 c 0 t) (fun y => hlt y) W K
  simp only [Memref.view_whole, View.read_whole] at hrun
  unfold outBlk40
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut40 (hlt : ∀ y, BitVec.toNat ((a1.1 0) y) < 100000) (c : Dev nD) :
    BodyObligation (dat40 (F := F) V a1 (outBlk40 V a1) c) (defs₀ (F := F)) Variants.none () Set.univ :=
  body_obligation40 V a1 (outBlk40 V a1) (bodyRun40 V a1 hlt) c

end Body

/-! # Region 41 -/

/-! ## The body's own transfer cells -/

/-- The eight cells of the body's semaphore array, in order. -/
abbrev osem41 : Fin 8 → SemLoc sig := fun j => SemLoc.dma (cc41_scratch1.ix (fun | ⟨0, _⟩ => j))

/-- They are scoped, pairwise distinct, and none is a staging cell of a window. -/
theorem ownSemFacts41 : Pipeline.OwnSemFacts spec41 osem41 := by decide

/-- The far operand is an unscoped buffer that is neither a window's array nor a table. -/
theorem hx_sub41 : ({main_v141} : Finset (Ref sig .tc)) ⊆ Pipeline.restRefsP sig pre41 spec41 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg41 (F := F)).Adm)
  (O : (c : Dev nD) → Fin (cfg41 a1).N → Vec F S8x64 .f32)

/-! ## The windows' blocks -/

/-- Window w's block at point t, read off its array under V. -/
def iblk41 (c : Dev nD) (w : Fin (cfg41 a1).W) (t : Fin (cfg41 a1).N) :
    (((cfg41 a1).win w).xblock ((cfg41 a1).grid.coords t)).Idx → Elt F ((cfg41 a1).win w).elt :=
  (((cfg41 a1).win w).blk t).view.read (Elt F) (V c (Pipeline.arrRef spec41 w))

/-- The input window's current staging buffer holds its block at every point, fetched there or not, for any proof
    data whose array is V's and whose body leaves the block in place: unfetched, the block index has not moved. -/
theorem beforeIn41_of {c : Dev nD} (dat : Dat τ (Elt F) Unit ℕ (UD sig nD τ) ℕ (cfg41 a1) c)
    (hA : dat.A 0 = V c (Pipeline.arrRef spec41 0))
    (hafter : ∀ t, dat.after 0 t = iblk41 V a1 c 0 t) (t : Fin (cfg41 a1).N) (d) : dat.before 0 t d = iblk41 V a1 c 0 t :=
  (dat.before_in_eq_fetched 0 rfl (fun _ => rfl) (fun _ _ _ => rfl)
    (fun t => by rw [hafter]; unfold Dat.blockOf iblk41; rw [hA]; try rfl) t d).trans
    (by unfold Dat.fetched Dat.blockOf iblk41; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat41 (c : Dev nD) : Dat τ (Elt F) Unit ℕ (UD sig nD τ) ℕ (cfg41 a1) c where
  A w := V c (Pipeline.arrRef spec41 w)
  after w t := match w with
    | ⟨0, _⟩ => iblk41 V a1 c 0 t
    | ⟨1, _⟩ => O c t
  Φ _ := iprop(Pipeline.ΦD osem41 spec41 {main_v141} V c ∗ Pipeline.prefHeld pre41 c (fun _ => fullShare) a1.1)
  q _ := fullShare
  owed _ := 0

theorem A_eq41 (c : Dev nD) (w : Fin (cfg41 a1).W) : (dat41 V a1 O c).A w = V c (Pipeline.arrRef spec41 w) := by
  dsimp only [dat41]

theorem afterIn41 (c : Dev nD) (t : Fin (cfg41 a1).N) : (dat41 V a1 O c).after 0 t = iblk41 V a1 c 0 t := by
  dsimp only [dat41]; rfl

theorem afterOut41 (c : Dev nD) (t : Fin (cfg41 a1).N) :
    (dat41 V a1 O c).after 1 t = O c t := by
  dsimp only [dat41]; rfl

theorem beforeIn41 (c : Dev nD) (t : Fin (cfg41 a1).N) (d) : (dat41 V a1 O c).before 0 t d = iblk41 V a1 c 0 t :=
  beforeIn41_of V a1 (dat41 V a1 O c) (A_eq41 V a1 O c 0) (afterIn41 V a1 O c) t d

theorem Phi_eq41 (c : Dev nD) (t : Fin ((cfg41 a1).N + 1)) :
    (dat41 V a1 O c).Φ t
      = iprop(Pipeline.ΦD osem41 spec41 {main_v141} V c ∗ Pipeline.prefHeld pre41 c (fun _ => fullShare) a1.1) := by
  dsimp only [dat41]

theorem owed_eq41 (c : Dev nD) (t : Fin ((cfg41 a1).N + 1)) : (dat41 V a1 O c).owed t = 0 := by
  dsimp only [dat41]

/-! ## The invariant, conjunct by conjunct -/

/-- The invariant's first part opened: the body's scratch buffer whole at some contents and the other scoped
    buffers no window stages, the generator register, the own cells at zero, the far operand at its contents. -/
theorem PhiD_eq41 (c : Dev nD) :
    (Pipeline.ΦD osem41 spec41 {main_v141} V c : sProp 𝕄)
      = iprop(iprop(iprop((∃ f : Buf (Elt F) ((c : Thread nD τ).loc cc41_scratch0), ((c : Thread nD τ).loc cc41_scratch0) ↦{fullShare} f))
            ∗ Pipeline.scopedRestBut (Ix := Unit) (Name := ℕ) (U := UD sig nD τ) (Lvl := ℕ) (Val := Elt F) spec41 c [cc41_scratch0])
          ∗ (∃ r, prngReg c r)
          ∗ Pipeline.ownSems0 (Ix := Unit) (Name := ℕ) (U := UD sig nD τ) (Lvl := ℕ) (Val := Elt F) (τ := τ) osem41 c
          ∗ (((c : Thread nD τ).loc main_v141) ↦{fullShare} V c main_v141)) := by
  rw [Pipeline.ΦD_eq, scopedRest41_split, BI.bigSep_eq_bigSepL_of_eq [main_v141] (by decide) (by decide)]; rfl

/-- The one table, held whole. -/
theorem prefHeld_eq41 (c : Dev nD) :
    (Pipeline.prefHeld pre41 c (fun _ => fullShare) a1.1 : sProp 𝕄)
      = (((c : Thread nD τ).loc main_v175) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg41 (w : Fin (cfg41 a1).W) (t : Fin (cfg41 a1).N) := ((cfg41 a1).win w).stage ((cfg41 a1).slots t w)

/-- The body as the pipeline calls it at point t. -/
abbrev bodyProg41 (t : Fin (cfg41 a1).N) : Prog (TpuEff nD τ sig (Elt F) Λ₀ .tc) PUnit :=
  (defs₀ (F := F)) .tc (cfg41 a1).body ((cfg41 a1).bodyArgs t ((cfg41 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun41 : Prop :=
  ∀ (c : Dev nD) (t : Fin (cfg41 a1).N) (W) (K : PUnit → sProp 𝕄),
    iprop(owns (c : Thread nD τ) (stg41 a1 0 t) fullShare (iblk41 V a1 c 0 t)
        ∗ (∃ d, owns (c : Thread nD τ) (stg41 a1 1 t) fullShare d)
        ∗ (∃ f : Buf (Elt F) ((c : Thread nD τ).loc cc41_scratch0), ((c : Thread nD τ).loc cc41_scratch0) ↦{fullShare} f)
        ∗ Pipeline.ownSems0 (Ix := Unit) (Name := ℕ) (U := UD sig nD τ) (Lvl := ℕ) (Val := Elt F) (τ := τ) osem41 c
        ∗ (((c : Thread nD τ).loc main_v175) ↦{fullShare} a1.1 0)
        ∗ (((c : Thread nD τ).loc main_v141) ↦{fullShare} V c main_v141)
        ∗ owes (c : Thread nD τ) (0 : CellTallies nD τ sig Unit) W
        ∗ (iprop(owns (c : Thread nD τ) (stg41 a1 0 t) fullShare (iblk41 V a1 c 0 t)
            ∗ owns (c : Thread nD τ) (stg41 a1 1 t) fullShare (O c t)
            ∗ (∃ f : Buf (Elt F) ((c : Thread nD τ).loc cc41_scratch0), ((c : Thread nD τ).loc cc41_scratch0) ↦{fullShare} f)
            ∗ Pipeline.ownSems0 (Ix := Unit) (Name := ℕ) (U := UD sig nD τ) (Lvl := ℕ) (Val := Elt F) (τ := τ) osem41 c
            ∗ (((c : Thread nD τ).loc main_v175) ↦{fullShare} a1.1 0)
            ∗ (((c : Thread nD τ).loc main_v141) ↦{fullShare} V c main_v141)
            ∗ (∃ W', owes (c : Thread nD τ) (0 : CellTallies nD τ sig Unit) W')) -∗ K ⟨⟩))
      ⊢ wp frame (wpE (defs₀ (F := F)) Variants.none c none) Set.univ (bodyProg41 a1 t) K

/-- What the body is called with at point t, the windows one by one, -/
def bodyPre41 (c : Dev nD) (t : Fin (cfg41 a1).N) : sProp 𝕄 :=
  iprop((dat41 V a1 O c).Φ t.castSucc ∗ (dat41 V a1 O c).owesAt () t.castSucc
    ∗ (∃ d, owns (c : Thread nD τ) (stg41 a1 0 t) fullShare ((dat41 V a1 O c).before 0 t d))
    ∗ (∃ d, owns (c : Thread nD τ) (stg41 a1 1 t) fullShare ((dat41 V a1 O c).before 1 t d)))

/-- and what it returns. -/
def bodyPost41 (c : Dev nD) (t : Fin (cfg41 a1).N) : sProp 𝕄 :=
  iprop((dat41 V a1 O c).Φ t.succ ∗ (dat41 V a1 O c).owesAt () t.succ
    ∗ owns (c : Thread nD τ) (stg41 a1 0 t) fullShare ((dat41 V a1 O c).after 0 t)
    ∗ owns (c : Thread nD τ) (stg41 a1 1 t) fullShare ((dat41 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body41 (hrun : BodyRun41 V a1 O) (c : Dev nD) (t : Fin (cfg41 a1).N) :
    bodyPre41 V a1 O c t
      ⊢ wp frame (wpE (defs₀ (F := F)) Variants.none c none) Set.univ (bodyProg41 a1 t) (fun _ => bodyPost41 V a1 O c t) := by
  unfold bodyPre41 bodyPost41
  simp only [beforeIn41]
  rw [afterIn41, afterOut41, Phi_eq41, Phi_eq41, PhiD_eq41, prefHeld_eq41]
  unfold Dat.owesAt Pipeline.owesWithin
  rw [owed_eq41, owed_eq41]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation41 (hrun : BodyRun41 V a1 O) (c : Dev nD) :
    BodyObligation (dat41 (F := F) V a1 O c) (defs₀ (F := F)) Variants.none () Set.univ := fun t => by
  rw [bigSep_W41, bigSep_W41]
  exact sound_body41 V a1 O hrun c t

end Data

/-! ## The region's record -/

section Record

variable (Win : Dev nD → Valuation τ sig (Elt F))

variable (a1 : (pcfg41 (F := F)).Adm)
  (O : (c : Dev nD) → Fin (cfg41 a1).N → Vec F S8x64 .f32)

/-- The buffers at the region's exit: its arrays at what the write-backs leave, every other buffer as entered. -/
def Wout41 (c : Dev nD) : Valuation τ sig (Elt F) :=
  Pipeline.withArrays spec41 c (Win c) fun w => (dat41 (Vof Win) a1 O c).arrAt w (cfg41 a1).N

theorem Wout41_arr (c : Dev nD) (w : Fin (cfg41 a1).W) :
    Wout41 Win a1 O c (Proc.devRef .tc (Pipeline.arrRef spec41 w)) = (dat41 (Vof Win) a1 O c).arrAt w (cfg41 a1).N := by
  unfold Wout41; exact Pipeline.withArrays_arr spec41 winFacts41.arr_inj c _ _ w

theorem Wout41_of_ne (c : Dev nD) (b : Ref sig .tc) (hb : ∀ w, Pipeline.arrRef spec41 w ≠ b) :
    Wout41 Win a1 O c (Proc.devRef .tc b) = Win c (Proc.devRef .tc b) := by
  unfold Wout41; exact Pipeline.withArrays_of_ne spec41 c _ _ b hb

/-- ENTRY, the buffers' part. Every unscoped buffer at Win is: the region's arrays at the proof data's entry contents,
    the table whole at the admissible contents (which are Win's there), the far operand whole, and the others. -/
theorem entry41 (c : Dev nD) (ha1 : ∀ k, Vof Win c (pre41.ref k) = a1.1 k) :
    (StableHlo.held (c : Thread nD τ) (Pipeline.ucRefs τ sig) (Win c) : sProp 𝕄)
      ⊢ iprop((dat41 (Vof Win) a1 O c).arrays ((dat41 (Vof Win) a1 O c).arrAt · 0)
          ∗ Pipeline.prefHeld pre41 c (fun _ => fullShare) a1.1
          ∗ (bigSep ({main_v141} : Finset (Ref sig .tc)) fun b => (((c : Thread nD τ)).loc b) ↦{fullShare} Vof Win c b)
          ∗ bigSep (Pipeline.restRefsP sig pre41 spec41 \ {main_v141}) fun b => (((c : Thread nD τ)).loc b) ↦{fullShare} Vof Win c b) := by
  have hsplit := Pipeline.arrays_of_unscopedBufs (p := ()) (fun (_ : Unit) => pcfg41 (F := F)) (fun _ => a1)
    (fun _ c => dat41 (Vof Win) a1 O c) winFacts41 (launch41 (F := F)).arr_whole c
    ((dat41 (Vof Win) a1 O c).share_full fun _ => rfl) (Vof Win c) (fun w => A_eq41 (Vof Win) a1 O c w)
  rw [Pipeline.unscopedBufs_held,
    Pipeline.unscopedRest_split (Ix := Unit) (Name := ℕ) (U := UD sig nD τ) (Lvl := ℕ) preFacts41 c (Vof Win c),
    Pipeline.unscopedRestP_sdiff pre41 spec41 {main_v141} hx_sub41 c (Vof Win c),
    show (fun k => Vof Win c (pre41.ref k)) = a1.1 from funext ha1] at hsplit
  exact hsplit

/-- EXIT, the buffers' part: the same four put back, the arrays at what the write-backs leave, are every unscoped
    buffer at the exit valuation. -/
theorem exit41 (c : Dev nD) (ha1 : ∀ k, Vof Win c (pre41.ref k) = a1.1 k) :
    iprop((dat41 (Vof Win) a1 O c).arrays ((dat41 (Vof Win) a1 O c).arrAt · (cfg41 a1).N)
        ∗ Pipeline.prefHeld pre41 c (fun _ => fullShare) a1.1
        ∗ (bigSep ({main_v141} : Finset (Ref sig .tc)) fun b => (((c : Thread nD τ)).loc b) ↦{fullShare} Vof Win c b)
        ∗ bigSep (Pipeline.restRefsP sig pre41 spec41 \ {main_v141}) fun b => (((c : Thread nD τ)).loc b) ↦{fullShare} Vof Win c b)
      ⊢ (StableHlo.held (c : Thread nD τ) (Pipeline.ucRefs τ sig) (Wout41 Win a1 O c) : sProp 𝕄) := by
  have hjoin := Pipeline.unscopedBufs_of_arrays (p := ()) (fun (_ : Unit) => pcfg41 (F := F)) (fun _ => a1)
    (Ix := Unit) (Name := ℕ) (U := UD sig nD τ) (Lvl := ℕ)
    winFacts41 (launch41 (F := F)).arr_whole c (fun _ c => dat41 (Vof Win) a1 O c)
    ((dat41 (Vof Win) a1 O c).share_full fun _ => rfl)
    (Vof Win c) (Vof (Wout41 Win a1 O) c) ((dat41 (Vof Win) a1 O c).arrAt · (cfg41 a1).N)
    (fun w => (Wout41_arr Win a1 O c w).symm)
    (fun b hb => Wout41_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts41 c (Vof Win c),
    Pipeline.unscopedRestP_sdiff pre41 spec41 {main_v141} hx_sub41 c (Vof Win c),
    show (fun k => Vof Win c (pre41.ref k)) = a1.1 from funext ha1] at hjoin
  exact hjoin

end Record

section Seg

variable (Win : Dev nD → Valuation τ sig (Elt F))
  (adm : (p : Fin 49) → (pcfgs (F := F) p).Adm)
  (O : (c : Dev nD) → Fin (cfg41 (adm (41 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout41. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg41 (hd : ∀ c, pdats (41 : Fin 49) c = dat41 (Vof Win) (adm (41 : Fin 49)) O c)
    (ha1 : ∀ c k, Vof Win c (pre41.ref k) = (adm (41 : Fin 49)).1 k)
    (hbody : ∀ c, BodyObligation (dat41 (F := F) (Vof Win) (adm (41 : Fin 49)) O c) (defs₀ (F := F)) 𝒱₀ () Set.univ) :
    Pipeline.RegionSeg (pcfgs (F := F)) adm pdats () defs₀ 𝒱₀ L lv (41 : Fin 49) where
  win := (launch41 (F := F)).win.to₀
  block_pos := (launch41 (F := F)).block_pos
  stage_whole := (launch41 (F := F)).stage_whole
  K := Fin 8
  osem := osem41
  ho := ownSemFacts41
  hbody c := by rw [hd c]; exact (hbody c).loose
  hwaits := Pipeline.hwaits_of_owed_zero _ _ _ _ L lv (41 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout41 Win (adm (41 : Fin 49)) O c) ∗ R c)
  X c := iprop((∃ r, prngReg c r)
    ∗ Pipeline.ownSems0 (Ix := Unit) (Name := ℕ) (U := UD sig nD τ) (Lvl := ℕ) (Val := Elt F) (τ := τ) osem41 c
    ∗ (bigSep ({main_v141} : Finset (Ref sig .tc)) fun b => (((c : Thread nD τ)).loc b) ↦{fullShare} Vof Win c b))
  Y c := iprop((∃ r, prngReg c r)
    ∗ (bigSep ({main_v141} : Finset (Ref sig .tc)) fun b => (((c : Thread nD τ)).loc b) ↦{fullShare} Vof Win c b)
    ∗ Pipeline.prefHeld pre41 c (fun _ => fullShare) (adm (41 : Fin 49)).1)
  Z c := bigSep (Pipeline.restRefsP sig pre41 spec41 \ {main_v141}) fun b => (((c : Thread nD τ)).loc b) ↦{fullShare} Vof Win c b
  hentry c := by
    rw [hd c]
    iintro ⟨⟨Hub, Hp, HO⟩, Hos, -⟩
    ihave H := (entry41 Win (adm (41 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq41, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq41, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit41 Win (adm (41 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg41 (F := F)).Adm)

/-- The output block at point t: the gathered rows (of the far operand's contents under V, chosen by the table's
    words at that point) times the input block. -/
def outBlk41 (c : Dev nD) (t : Fin (cfg41 a1).N) : Vec F S8x64 .f32 :=
  gatherOut (gatherG (a1.1 0) (V c main_v141) (grid41.coords t)) (iblk41 V a1 c 0 t)

theorem outBlk_eq41 (c : Dev nD) (t : Fin (cfg41 a1).N) :
    outBlk41 V a1 c t = gatherOut (gatherG (a1.1 0) (V c main_v141) (grid41.coords t)) (iblk41 V a1 c 0 t) := rfl

/-- The proof data with the output block named: after the body at point t the output window's buffer holds it. -/
theorem afterOutBlk41 (c : Dev nD) (t : Fin (cfg41 a1).N) :
    (dat41 V a1 (outBlk41 V a1) c).after 1 t
      = gatherOut (gatherG (a1.1 0) (V c main_v141) (grid41.coords t)) (iblk41 V a1 c 0 t) :=
  afterOut41 V a1 (outBlk41 V a1) c t

/-- The own cells at zero are the semaphore array's eight entries at zero, in order. -/
theorem ownSems_eq41 (c : Dev nD) :
    (Pipeline.ownSems0 (Ix := Unit) (Name := ℕ) (U := UD sig nD τ) (Lvl := ℕ) (Val := Elt F) (τ := τ) osem41 c : sProp 𝕄)
      = gsems0 c cc41_scratch1 := by
  rw [Pipeline.ownSems0_eq_of_list c osem41 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq41 (t : Fin (cfg41 a1).N) : ∃ h3 h4, bodyProg41 (F := F) a1 t
    = cc41__gather_mul_kernel (grid41.coords t) (Memref.whole main_v175) (Memref.isWhole_whole _) (Memref.whole main_v141) (Memref.isWhole_whole _)
        (stg41 a1 0 t) h3 (stg41 a1 1 t) h4 (Memref.whole cc41_scratch0) (Memref.isWhole_whole _) cc41_scratch1 := ⟨_, _, rfl⟩

end Out

/-! ## The body's run, joined to the proof data -/

section Body

variable (V : (c : Dev nD) → (b : Ref sig .tc) → Buf (Elt F) ((c : Thread nD τ).loc b))
  (a1 : (pcfg41 (F := F)).Adm)

/-- The scratch buffer whole at some contents, as a memref owned at some contents. -/
theorem scratchOwns_eq41 (c : Dev nD) :
    (iprop(∃ d, owns (c : Thread nD τ) (Memref.whole cc41_scratch0) fullShare d) : sProp 𝕄)
      = iprop(∃ f : Buf (Elt F) ((c : Thread nD τ).loc cc41_scratch0), ((c : Thread nD τ).loc cc41_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun41 (hlt : ∀ y, BitVec.toNat ((a1.1 0) y) < 100000) : BodyRun41 V a1 (outBlk41 V a1) := by
  intro c t W K
  obtain ⟨h3, h4, hprog⟩ := bodyProg_eq41 (F := F) a1 t
  rw [hprog, ownSems_eq41, ← scratchOwns_eq41 (F := F) c]
  have hrun := gather_kernel_run_41 (F := F) c (grid41.coords t) (Memref.whole main_v175) (Memref.isWhole_whole _) (Memref.whole main_v141) (Memref.isWhole_whole _)
    (stg41 a1 0 t) h3 (stg41 a1 1 t) h4 (Memref.whole cc41_scratch0) (Memref.isWhole_whole _) cc41_scratch1 fullShare fullShare
    (a1.1 0) (V c main_v141) (iblk41 V a1 c 0 t) (fun y => hlt y) W K
  simp only [Memref.view_whole, View.read_whole] at hrun
  unfold outBlk41
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut41 (hlt : ∀ y, BitVec.toNat ((a1.1 0) y) < 100000) (c : Dev nD) :
    BodyObligation (dat41 (F := F) V a1 (outBlk41 V a1) c) (defs₀ (F := F)) Variants.none () Set.univ :=
  body_obligation41 V a1 (outBlk41 V a1) (bodyRun41 V a1 hlt) c

end Body

end Cert.Kernel.Hand

end
-- ==== Proof.K.Regions_42_48.lean ====
/-
  Gather regions 42 to 48 of the host program, one after the other: for each, the proof data, the body obligation and the record of the region in the launch,
  exactly as for region 1 (whose module says what each part is).
-/
import proofs.«421643_j28415503630349_2_alg».proof.Proof.K.Common
import proofs.«421643_j28415503630349_2_alg».proof.Proof.K.BodyEq
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

/-! # Region 42 -/

/-! ## The body's own transfer cells -/

/-- The eight cells of the body's semaphore array, in order. -/
abbrev osem42 : Fin 8 → SemLoc sig := fun j => SemLoc.dma (cc42_scratch1.ix (fun | ⟨0, _⟩ => j))

/-- They are scoped, pairwise distinct, and none is a staging cell of a window. -/
theorem ownSemFacts42 : Pipeline.OwnSemFacts spec42 osem42 := by decide

/-- The far operand is an unscoped buffer that is neither a window's array nor a table. -/
theorem hx_sub42 : ({main_v141} : Finset (Ref sig .tc)) ⊆ Pipeline.restRefsP sig pre42 spec42 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg42 (F := F)).Adm)
  (O : (c : Dev nD) → Fin (cfg42 a1).N → Vec F S8x64 .f32)

/-! ## The windows' blocks -/

/-- Window w's block at point t, read off its array under V. -/
def iblk42 (c : Dev nD) (w : Fin (cfg42 a1).W) (t : Fin (cfg42 a1).N) :
    (((cfg42 a1).win w).xblock ((cfg42 a1).grid.coords t)).Idx → Elt F ((cfg42 a1).win w).elt :=
  (((cfg42 a1).win w).blk t).view.read (Elt F) (V c (Pipeline.arrRef spec42 w))

/-- The input window's current staging buffer holds its block at every point, fetched there or not, for any proof
    data whose array is V's and whose body leaves the block in place: unfetched, the block index has not moved. -/
theorem beforeIn42_of {c : Dev nD} (dat : Dat τ (Elt F) Unit ℕ (UD sig nD τ) ℕ (cfg42 a1) c)
    (hA : dat.A 0 = V c (Pipeline.arrRef spec42 0))
    (hafter : ∀ t, dat.after 0 t = iblk42 V a1 c 0 t) (t : Fin (cfg42 a1).N) (d) : dat.before 0 t d = iblk42 V a1 c 0 t :=
  (dat.before_in_eq_fetched 0 rfl (fun _ => rfl) (fun _ _ _ => rfl)
    (fun t => by rw [hafter]; unfold Dat.blockOf iblk42; rw [hA]; try rfl) t d).trans
    (by unfold Dat.fetched Dat.blockOf iblk42; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat42 (c : Dev nD) : Dat τ (Elt F) Unit ℕ (UD sig nD τ) ℕ (cfg42 a1) c where
  A w := V c (Pipeline.arrRef spec42 w)
  after w t := match w with
    | ⟨0, _⟩ => iblk42 V a1 c 0 t
    | ⟨1, _⟩ => O c t
  Φ _ := iprop(Pipeline.ΦD osem42 spec42 {main_v141} V c ∗ Pipeline.prefHeld pre42 c (fun _ => fullShare) a1.1)
  q _ := fullShare
  owed _ := 0

theorem A_eq42 (c : Dev nD) (w : Fin (cfg42 a1).W) : (dat42 V a1 O c).A w = V c (Pipeline.arrRef spec42 w) := by
  dsimp only [dat42]

theorem afterIn42 (c : Dev nD) (t : Fin (cfg42 a1).N) : (dat42 V a1 O c).after 0 t = iblk42 V a1 c 0 t := by
  dsimp only [dat42]; rfl

theorem afterOut42 (c : Dev nD) (t : Fin (cfg42 a1).N) :
    (dat42 V a1 O c).after 1 t = O c t := by
  dsimp only [dat42]; rfl

theorem beforeIn42 (c : Dev nD) (t : Fin (cfg42 a1).N) (d) : (dat42 V a1 O c).before 0 t d = iblk42 V a1 c 0 t :=
  beforeIn42_of V a1 (dat42 V a1 O c) (A_eq42 V a1 O c 0) (afterIn42 V a1 O c) t d

theorem Phi_eq42 (c : Dev nD) (t : Fin ((cfg42 a1).N + 1)) :
    (dat42 V a1 O c).Φ t
      = iprop(Pipeline.ΦD osem42 spec42 {main_v141} V c ∗ Pipeline.prefHeld pre42 c (fun _ => fullShare) a1.1) := by
  dsimp only [dat42]

theorem owed_eq42 (c : Dev nD) (t : Fin ((cfg42 a1).N + 1)) : (dat42 V a1 O c).owed t = 0 := by
  dsimp only [dat42]

/-! ## The invariant, conjunct by conjunct -/

/-- The invariant's first part opened: the body's scratch buffer whole at some contents and the other scoped
    buffers no window stages, the generator register, the own cells at zero, the far operand at its contents. -/
theorem PhiD_eq42 (c : Dev nD) :
    (Pipeline.ΦD osem42 spec42 {main_v141} V c : sProp 𝕄)
      = iprop(iprop(iprop((∃ f : Buf (Elt F) ((c : Thread nD τ).loc cc42_scratch0), ((c : Thread nD τ).loc cc42_scratch0) ↦{fullShare} f))
            ∗ Pipeline.scopedRestBut (Ix := Unit) (Name := ℕ) (U := UD sig nD τ) (Lvl := ℕ) (Val := Elt F) spec42 c [cc42_scratch0])
          ∗ (∃ r, prngReg c r)
          ∗ Pipeline.ownSems0 (Ix := Unit) (Name := ℕ) (U := UD sig nD τ) (Lvl := ℕ) (Val := Elt F) (τ := τ) osem42 c
          ∗ (((c : Thread nD τ).loc main_v141) ↦{fullShare} V c main_v141)) := by
  rw [Pipeline.ΦD_eq, scopedRest42_split, BI.bigSep_eq_bigSepL_of_eq [main_v141] (by decide) (by decide)]; rfl

/-- The one table, held whole. -/
theorem prefHeld_eq42 (c : Dev nD) :
    (Pipeline.prefHeld pre42 c (fun _ => fullShare) a1.1 : sProp 𝕄)
      = (((c : Thread nD τ).loc main_v179) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg42 (w : Fin (cfg42 a1).W) (t : Fin (cfg42 a1).N) := ((cfg42 a1).win w).stage ((cfg42 a1).slots t w)

/-- The body as the pipeline calls it at point t. -/
abbrev bodyProg42 (t : Fin (cfg42 a1).N) : Prog (TpuEff nD τ sig (Elt F) Λ₀ .tc) PUnit :=
  (defs₀ (F := F)) .tc (cfg42 a1).body ((cfg42 a1).bodyArgs t ((cfg42 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun42 : Prop :=
  ∀ (c : Dev nD) (t : Fin (cfg42 a1).N) (W) (K : PUnit → sProp 𝕄),
    iprop(owns (c : Thread nD τ) (stg42 a1 0 t) fullShare (iblk42 V a1 c 0 t)
        ∗ (∃ d, owns (c : Thread nD τ) (stg42 a1 1 t) fullShare d)
        ∗ (∃ f : Buf (Elt F) ((c : Thread nD τ).loc cc42_scratch0), ((c : Thread nD τ).loc cc42_scratch0) ↦{fullShare} f)
        ∗ Pipeline.ownSems0 (Ix := Unit) (Name := ℕ) (U := UD sig nD τ) (Lvl := ℕ) (Val := Elt F) (τ := τ) osem42 c
        ∗ (((c : Thread nD τ).loc main_v179) ↦{fullShare} a1.1 0)
        ∗ (((c : Thread nD τ).loc main_v141) ↦{fullShare} V c main_v141)
        ∗ owes (c : Thread nD τ) (0 : CellTallies nD τ sig Unit) W
        ∗ (iprop(owns (c : Thread nD τ) (stg42 a1 0 t) fullShare (iblk42 V a1 c 0 t)
            ∗ owns (c : Thread nD τ) (stg42 a1 1 t) fullShare (O c t)
            ∗ (∃ f : Buf (Elt F) ((c : Thread nD τ).loc cc42_scratch0), ((c : Thread nD τ).loc cc42_scratch0) ↦{fullShare} f)
            ∗ Pipeline.ownSems0 (Ix := Unit) (Name := ℕ) (U := UD sig nD τ) (Lvl := ℕ) (Val := Elt F) (τ := τ) osem42 c
            ∗ (((c : Thread nD τ).loc main_v179) ↦{fullShare} a1.1 0)
            ∗ (((c : Thread nD τ).loc main_v141) ↦{fullShare} V c main_v141)
            ∗ (∃ W', owes (c : Thread nD τ) (0 : CellTallies nD τ sig Unit) W')) -∗ K ⟨⟩))
      ⊢ wp frame (wpE (defs₀ (F := F)) Variants.none c none) Set.univ (bodyProg42 a1 t) K

/-- What the body is called with at point t, the windows one by one, -/
def bodyPre42 (c : Dev nD) (t : Fin (cfg42 a1).N) : sProp 𝕄 :=
  iprop((dat42 V a1 O c).Φ t.castSucc ∗ (dat42 V a1 O c).owesAt () t.castSucc
    ∗ (∃ d, owns (c : Thread nD τ) (stg42 a1 0 t) fullShare ((dat42 V a1 O c).before 0 t d))
    ∗ (∃ d, owns (c : Thread nD τ) (stg42 a1 1 t) fullShare ((dat42 V a1 O c).before 1 t d)))

/-- and what it returns. -/
def bodyPost42 (c : Dev nD) (t : Fin (cfg42 a1).N) : sProp 𝕄 :=
  iprop((dat42 V a1 O c).Φ t.succ ∗ (dat42 V a1 O c).owesAt () t.succ
    ∗ owns (c : Thread nD τ) (stg42 a1 0 t) fullShare ((dat42 V a1 O c).after 0 t)
    ∗ owns (c : Thread nD τ) (stg42 a1 1 t) fullShare ((dat42 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body42 (hrun : BodyRun42 V a1 O) (c : Dev nD) (t : Fin (cfg42 a1).N) :
    bodyPre42 V a1 O c t
      ⊢ wp frame (wpE (defs₀ (F := F)) Variants.none c none) Set.univ (bodyProg42 a1 t) (fun _ => bodyPost42 V a1 O c t) := by
  unfold bodyPre42 bodyPost42
  simp only [beforeIn42]
  rw [afterIn42, afterOut42, Phi_eq42, Phi_eq42, PhiD_eq42, prefHeld_eq42]
  unfold Dat.owesAt Pipeline.owesWithin
  rw [owed_eq42, owed_eq42]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation42 (hrun : BodyRun42 V a1 O) (c : Dev nD) :
    BodyObligation (dat42 (F := F) V a1 O c) (defs₀ (F := F)) Variants.none () Set.univ := fun t => by
  rw [bigSep_W42, bigSep_W42]
  exact sound_body42 V a1 O hrun c t

end Data

/-! ## The region's record -/

section Record

variable (Win : Dev nD → Valuation τ sig (Elt F))

variable (a1 : (pcfg42 (F := F)).Adm)
  (O : (c : Dev nD) → Fin (cfg42 a1).N → Vec F S8x64 .f32)

/-- The buffers at the region's exit: its arrays at what the write-backs leave, every other buffer as entered. -/
def Wout42 (c : Dev nD) : Valuation τ sig (Elt F) :=
  Pipeline.withArrays spec42 c (Win c) fun w => (dat42 (Vof Win) a1 O c).arrAt w (cfg42 a1).N

theorem Wout42_arr (c : Dev nD) (w : Fin (cfg42 a1).W) :
    Wout42 Win a1 O c (Proc.devRef .tc (Pipeline.arrRef spec42 w)) = (dat42 (Vof Win) a1 O c).arrAt w (cfg42 a1).N := by
  unfold Wout42; exact Pipeline.withArrays_arr spec42 winFacts42.arr_inj c _ _ w

theorem Wout42_of_ne (c : Dev nD) (b : Ref sig .tc) (hb : ∀ w, Pipeline.arrRef spec42 w ≠ b) :
    Wout42 Win a1 O c (Proc.devRef .tc b) = Win c (Proc.devRef .tc b) := by
  unfold Wout42; exact Pipeline.withArrays_of_ne spec42 c _ _ b hb

/-- ENTRY, the buffers' part. Every unscoped buffer at Win is: the region's arrays at the proof data's entry contents,
    the table whole at the admissible contents (which are Win's there), the far operand whole, and the others. -/
theorem entry42 (c : Dev nD) (ha1 : ∀ k, Vof Win c (pre42.ref k) = a1.1 k) :
    (StableHlo.held (c : Thread nD τ) (Pipeline.ucRefs τ sig) (Win c) : sProp 𝕄)
      ⊢ iprop((dat42 (Vof Win) a1 O c).arrays ((dat42 (Vof Win) a1 O c).arrAt · 0)
          ∗ Pipeline.prefHeld pre42 c (fun _ => fullShare) a1.1
          ∗ (bigSep ({main_v141} : Finset (Ref sig .tc)) fun b => (((c : Thread nD τ)).loc b) ↦{fullShare} Vof Win c b)
          ∗ bigSep (Pipeline.restRefsP sig pre42 spec42 \ {main_v141}) fun b => (((c : Thread nD τ)).loc b) ↦{fullShare} Vof Win c b) := by
  have hsplit := Pipeline.arrays_of_unscopedBufs (p := ()) (fun (_ : Unit) => pcfg42 (F := F)) (fun _ => a1)
    (fun _ c => dat42 (Vof Win) a1 O c) winFacts42 (launch42 (F := F)).arr_whole c
    ((dat42 (Vof Win) a1 O c).share_full fun _ => rfl) (Vof Win c) (fun w => A_eq42 (Vof Win) a1 O c w)
  rw [Pipeline.unscopedBufs_held,
    Pipeline.unscopedRest_split (Ix := Unit) (Name := ℕ) (U := UD sig nD τ) (Lvl := ℕ) preFacts42 c (Vof Win c),
    Pipeline.unscopedRestP_sdiff pre42 spec42 {main_v141} hx_sub42 c (Vof Win c),
    show (fun k => Vof Win c (pre42.ref k)) = a1.1 from funext ha1] at hsplit
  exact hsplit

/-- EXIT, the buffers' part: the same four put back, the arrays at what the write-backs leave, are every unscoped
    buffer at the exit valuation. -/
theorem exit42 (c : Dev nD) (ha1 : ∀ k, Vof Win c (pre42.ref k) = a1.1 k) :
    iprop((dat42 (Vof Win) a1 O c).arrays ((dat42 (Vof Win) a1 O c).arrAt · (cfg42 a1).N)
        ∗ Pipeline.prefHeld pre42 c (fun _ => fullShare) a1.1
        ∗ (bigSep ({main_v141} : Finset (Ref sig .tc)) fun b => (((c : Thread nD τ)).loc b) ↦{fullShare} Vof Win c b)
        ∗ bigSep (Pipeline.restRefsP sig pre42 spec42 \ {main_v141}) fun b => (((c : Thread nD τ)).loc b) ↦{fullShare} Vof Win c b)
      ⊢ (StableHlo.held (c : Thread nD τ) (Pipeline.ucRefs τ sig) (Wout42 Win a1 O c) : sProp 𝕄) := by
  have hjoin := Pipeline.unscopedBufs_of_arrays (p := ()) (fun (_ : Unit) => pcfg42 (F := F)) (fun _ => a1)
    (Ix := Unit) (Name := ℕ) (U := UD sig nD τ) (Lvl := ℕ)
    winFacts42 (launch42 (F := F)).arr_whole c (fun _ c => dat42 (Vof Win) a1 O c)
    ((dat42 (Vof Win) a1 O c).share_full fun _ => rfl)
    (Vof Win c) (Vof (Wout42 Win a1 O) c) ((dat42 (Vof Win) a1 O c).arrAt · (cfg42 a1).N)
    (fun w => (Wout42_arr Win a1 O c w).symm)
    (fun b hb => Wout42_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts42 c (Vof Win c),
    Pipeline.unscopedRestP_sdiff pre42 spec42 {main_v141} hx_sub42 c (Vof Win c),
    show (fun k => Vof Win c (pre42.ref k)) = a1.1 from funext ha1] at hjoin
  exact hjoin

end Record

section Seg

variable (Win : Dev nD → Valuation τ sig (Elt F))
  (adm : (p : Fin 49) → (pcfgs (F := F) p).Adm)
  (O : (c : Dev nD) → Fin (cfg42 (adm (42 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout42. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg42 (hd : ∀ c, pdats (42 : Fin 49) c = dat42 (Vof Win) (adm (42 : Fin 49)) O c)
    (ha1 : ∀ c k, Vof Win c (pre42.ref k) = (adm (42 : Fin 49)).1 k)
    (hbody : ∀ c, BodyObligation (dat42 (F := F) (Vof Win) (adm (42 : Fin 49)) O c) (defs₀ (F := F)) 𝒱₀ () Set.univ) :
    Pipeline.RegionSeg (pcfgs (F := F)) adm pdats () defs₀ 𝒱₀ L lv (42 : Fin 49) where
  win := (launch42 (F := F)).win.to₀
  block_pos := (launch42 (F := F)).block_pos
  stage_whole := (launch42 (F := F)).stage_whole
  K := Fin 8
  osem := osem42
  ho := ownSemFacts42
  hbody c := by rw [hd c]; exact (hbody c).loose
  hwaits := Pipeline.hwaits_of_owed_zero _ _ _ _ L lv (42 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout42 Win (adm (42 : Fin 49)) O c) ∗ R c)
  X c := iprop((∃ r, prngReg c r)
    ∗ Pipeline.ownSems0 (Ix := Unit) (Name := ℕ) (U := UD sig nD τ) (Lvl := ℕ) (Val := Elt F) (τ := τ) osem42 c
    ∗ (bigSep ({main_v141} : Finset (Ref sig .tc)) fun b => (((c : Thread nD τ)).loc b) ↦{fullShare} Vof Win c b))
  Y c := iprop((∃ r, prngReg c r)
    ∗ (bigSep ({main_v141} : Finset (Ref sig .tc)) fun b => (((c : Thread nD τ)).loc b) ↦{fullShare} Vof Win c b)
    ∗ Pipeline.prefHeld pre42 c (fun _ => fullShare) (adm (42 : Fin 49)).1)
  Z c := bigSep (Pipeline.restRefsP sig pre42 spec42 \ {main_v141}) fun b => (((c : Thread nD τ)).loc b) ↦{fullShare} Vof Win c b
  hentry c := by
    rw [hd c]
    iintro ⟨⟨Hub, Hp, HO⟩, Hos, -⟩
    ihave H := (entry42 Win (adm (42 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq42, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq42, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit42 Win (adm (42 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg42 (F := F)).Adm)

/-- The output block at point t: the gathered rows (of the far operand's contents under V, chosen by the table's
    words at that point) times the input block. -/
def outBlk42 (c : Dev nD) (t : Fin (cfg42 a1).N) : Vec F S8x64 .f32 :=
  gatherOut (gatherG (a1.1 0) (V c main_v141) (grid42.coords t)) (iblk42 V a1 c 0 t)

theorem outBlk_eq42 (c : Dev nD) (t : Fin (cfg42 a1).N) :
    outBlk42 V a1 c t = gatherOut (gatherG (a1.1 0) (V c main_v141) (grid42.coords t)) (iblk42 V a1 c 0 t) := rfl

/-- The proof data with the output block named: after the body at point t the output window's buffer holds it. -/
theorem afterOutBlk42 (c : Dev nD) (t : Fin (cfg42 a1).N) :
    (dat42 V a1 (outBlk42 V a1) c).after 1 t
      = gatherOut (gatherG (a1.1 0) (V c main_v141) (grid42.coords t)) (iblk42 V a1 c 0 t) :=
  afterOut42 V a1 (outBlk42 V a1) c t

/-- The own cells at zero are the semaphore array's eight entries at zero, in order. -/
theorem ownSems_eq42 (c : Dev nD) :
    (Pipeline.ownSems0 (Ix := Unit) (Name := ℕ) (U := UD sig nD τ) (Lvl := ℕ) (Val := Elt F) (τ := τ) osem42 c : sProp 𝕄)
      = gsems0 c cc42_scratch1 := by
  rw [Pipeline.ownSems0_eq_of_list c osem42 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq42 (t : Fin (cfg42 a1).N) : ∃ h3 h4, bodyProg42 (F := F) a1 t
    = cc42__gather_mul_kernel (grid42.coords t) (Memref.whole main_v179) (Memref.isWhole_whole _) (Memref.whole main_v141) (Memref.isWhole_whole _)
        (stg42 a1 0 t) h3 (stg42 a1 1 t) h4 (Memref.whole cc42_scratch0) (Memref.isWhole_whole _) cc42_scratch1 := ⟨_, _, rfl⟩

end Out

/-! ## The body's run, joined to the proof data -/

section Body

variable (V : (c : Dev nD) → (b : Ref sig .tc) → Buf (Elt F) ((c : Thread nD τ).loc b))
  (a1 : (pcfg42 (F := F)).Adm)

/-- The scratch buffer whole at some contents, as a memref owned at some contents. -/
theorem scratchOwns_eq42 (c : Dev nD) :
    (iprop(∃ d, owns (c : Thread nD τ) (Memref.whole cc42_scratch0) fullShare d) : sProp 𝕄)
      = iprop(∃ f : Buf (Elt F) ((c : Thread nD τ).loc cc42_scratch0), ((c : Thread nD τ).loc cc42_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun42 (hlt : ∀ y, BitVec.toNat ((a1.1 0) y) < 100000) : BodyRun42 V a1 (outBlk42 V a1) := by
  intro c t W K
  obtain ⟨h3, h4, hprog⟩ := bodyProg_eq42 (F := F) a1 t
  rw [hprog, ownSems_eq42, ← scratchOwns_eq42 (F := F) c]
  have hrun := gather_kernel_run_42 (F := F) c (grid42.coords t) (Memref.whole main_v179) (Memref.isWhole_whole _) (Memref.whole main_v141) (Memref.isWhole_whole _)
    (stg42 a1 0 t) h3 (stg42 a1 1 t) h4 (Memref.whole cc42_scratch0) (Memref.isWhole_whole _) cc42_scratch1 fullShare fullShare
    (a1.1 0) (V c main_v141) (iblk42 V a1 c 0 t) (fun y => hlt y) W K
  simp only [Memref.view_whole, View.read_whole] at hrun
  unfold outBlk42
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut42 (hlt : ∀ y, BitVec.toNat ((a1.1 0) y) < 100000) (c : Dev nD) :
    BodyObligation (dat42 (F := F) V a1 (outBlk42 V a1) c) (defs₀ (F := F)) Variants.none () Set.univ :=
  body_obligation42 V a1 (outBlk42 V a1) (bodyRun42 V a1 hlt) c

end Body

/-! # Region 43 -/

/-! ## The body's own transfer cells -/

/-- The eight cells of the body's semaphore array, in order. -/
abbrev osem43 : Fin 8 → SemLoc sig := fun j => SemLoc.dma (cc43_scratch1.ix (fun | ⟨0, _⟩ => j))

/-- They are scoped, pairwise distinct, and none is a staging cell of a window. -/
theorem ownSemFacts43 : Pipeline.OwnSemFacts spec43 osem43 := by decide

/-- The far operand is an unscoped buffer that is neither a window's array nor a table. -/
theorem hx_sub43 : ({main_v141} : Finset (Ref sig .tc)) ⊆ Pipeline.restRefsP sig pre43 spec43 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg43 (F := F)).Adm)
  (O : (c : Dev nD) → Fin (cfg43 a1).N → Vec F S8x64 .f32)

/-! ## The windows' blocks -/

/-- Window w's block at point t, read off its array under V. -/
def iblk43 (c : Dev nD) (w : Fin (cfg43 a1).W) (t : Fin (cfg43 a1).N) :
    (((cfg43 a1).win w).xblock ((cfg43 a1).grid.coords t)).Idx → Elt F ((cfg43 a1).win w).elt :=
  (((cfg43 a1).win w).blk t).view.read (Elt F) (V c (Pipeline.arrRef spec43 w))

/-- The input window's current staging buffer holds its block at every point, fetched there or not, for any proof
    data whose array is V's and whose body leaves the block in place: unfetched, the block index has not moved. -/
theorem beforeIn43_of {c : Dev nD} (dat : Dat τ (Elt F) Unit ℕ (UD sig nD τ) ℕ (cfg43 a1) c)
    (hA : dat.A 0 = V c (Pipeline.arrRef spec43 0))
    (hafter : ∀ t, dat.after 0 t = iblk43 V a1 c 0 t) (t : Fin (cfg43 a1).N) (d) : dat.before 0 t d = iblk43 V a1 c 0 t :=
  (dat.before_in_eq_fetched 0 rfl (fun _ => rfl) (fun _ _ _ => rfl)
    (fun t => by rw [hafter]; unfold Dat.blockOf iblk43; rw [hA]; try rfl) t d).trans
    (by unfold Dat.fetched Dat.blockOf iblk43; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat43 (c : Dev nD) : Dat τ (Elt F) Unit ℕ (UD sig nD τ) ℕ (cfg43 a1) c where
  A w := V c (Pipeline.arrRef spec43 w)
  after w t := match w with
    | ⟨0, _⟩ => iblk43 V a1 c 0 t
    | ⟨1, _⟩ => O c t
  Φ _ := iprop(Pipeline.ΦD osem43 spec43 {main_v141} V c ∗ Pipeline.prefHeld pre43 c (fun _ => fullShare) a1.1)
  q _ := fullShare
  owed _ := 0

theorem A_eq43 (c : Dev nD) (w : Fin (cfg43 a1).W) : (dat43 V a1 O c).A w = V c (Pipeline.arrRef spec43 w) := by
  dsimp only [dat43]

theorem afterIn43 (c : Dev nD) (t : Fin (cfg43 a1).N) : (dat43 V a1 O c).after 0 t = iblk43 V a1 c 0 t := by
  dsimp only [dat43]; rfl

theorem afterOut43 (c : Dev nD) (t : Fin (cfg43 a1).N) :
    (dat43 V a1 O c).after 1 t = O c t := by
  dsimp only [dat43]; rfl

theorem beforeIn43 (c : Dev nD) (t : Fin (cfg43 a1).N) (d) : (dat43 V a1 O c).before 0 t d = iblk43 V a1 c 0 t :=
  beforeIn43_of V a1 (dat43 V a1 O c) (A_eq43 V a1 O c 0) (afterIn43 V a1 O c) t d

theorem Phi_eq43 (c : Dev nD) (t : Fin ((cfg43 a1).N + 1)) :
    (dat43 V a1 O c).Φ t
      = iprop(Pipeline.ΦD osem43 spec43 {main_v141} V c ∗ Pipeline.prefHeld pre43 c (fun _ => fullShare) a1.1) := by
  dsimp only [dat43]

theorem owed_eq43 (c : Dev nD) (t : Fin ((cfg43 a1).N + 1)) : (dat43 V a1 O c).owed t = 0 := by
  dsimp only [dat43]

/-! ## The invariant, conjunct by conjunct -/

/-- The invariant's first part opened: the body's scratch buffer whole at some contents and the other scoped
    buffers no window stages, the generator register, the own cells at zero, the far operand at its contents. -/
theorem PhiD_eq43 (c : Dev nD) :
    (Pipeline.ΦD osem43 spec43 {main_v141} V c : sProp 𝕄)
      = iprop(iprop(iprop((∃ f : Buf (Elt F) ((c : Thread nD τ).loc cc43_scratch0), ((c : Thread nD τ).loc cc43_scratch0) ↦{fullShare} f))
            ∗ Pipeline.scopedRestBut (Ix := Unit) (Name := ℕ) (U := UD sig nD τ) (Lvl := ℕ) (Val := Elt F) spec43 c [cc43_scratch0])
          ∗ (∃ r, prngReg c r)
          ∗ Pipeline.ownSems0 (Ix := Unit) (Name := ℕ) (U := UD sig nD τ) (Lvl := ℕ) (Val := Elt F) (τ := τ) osem43 c
          ∗ (((c : Thread nD τ).loc main_v141) ↦{fullShare} V c main_v141)) := by
  rw [Pipeline.ΦD_eq, scopedRest43_split, BI.bigSep_eq_bigSepL_of_eq [main_v141] (by decide) (by decide)]; rfl

/-- The one table, held whole. -/
theorem prefHeld_eq43 (c : Dev nD) :
    (Pipeline.prefHeld pre43 c (fun _ => fullShare) a1.1 : sProp 𝕄)
      = (((c : Thread nD τ).loc main_v183) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg43 (w : Fin (cfg43 a1).W) (t : Fin (cfg43 a1).N) := ((cfg43 a1).win w).stage ((cfg43 a1).slots t w)

/-- The body as the pipeline calls it at point t. -/
abbrev bodyProg43 (t : Fin (cfg43 a1).N) : Prog (TpuEff nD τ sig (Elt F) Λ₀ .tc) PUnit :=
  (defs₀ (F := F)) .tc (cfg43 a1).body ((cfg43 a1).bodyArgs t ((cfg43 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun43 : Prop :=
  ∀ (c : Dev nD) (t : Fin (cfg43 a1).N) (W) (K : PUnit → sProp 𝕄),
    iprop(owns (c : Thread nD τ) (stg43 a1 0 t) fullShare (iblk43 V a1 c 0 t)
        ∗ (∃ d, owns (c : Thread nD τ) (stg43 a1 1 t) fullShare d)
        ∗ (∃ f : Buf (Elt F) ((c : Thread nD τ).loc cc43_scratch0), ((c : Thread nD τ).loc cc43_scratch0) ↦{fullShare} f)
        ∗ Pipeline.ownSems0 (Ix := Unit) (Name := ℕ) (U := UD sig nD τ) (Lvl := ℕ) (Val := Elt F) (τ := τ) osem43 c
        ∗ (((c : Thread nD τ).loc main_v183) ↦{fullShare} a1.1 0)
        ∗ (((c : Thread nD τ).loc main_v141) ↦{fullShare} V c main_v141)
        ∗ owes (c : Thread nD τ) (0 : CellTallies nD τ sig Unit) W
        ∗ (iprop(owns (c : Thread nD τ) (stg43 a1 0 t) fullShare (iblk43 V a1 c 0 t)
            ∗ owns (c : Thread nD τ) (stg43 a1 1 t) fullShare (O c t)
            ∗ (∃ f : Buf (Elt F) ((c : Thread nD τ).loc cc43_scratch0), ((c : Thread nD τ).loc cc43_scratch0) ↦{fullShare} f)
            ∗ Pipeline.ownSems0 (Ix := Unit) (Name := ℕ) (U := UD sig nD τ) (Lvl := ℕ) (Val := Elt F) (τ := τ) osem43 c
            ∗ (((c : Thread nD τ).loc main_v183) ↦{fullShare} a1.1 0)
            ∗ (((c : Thread nD τ).loc main_v141) ↦{fullShare} V c main_v141)
            ∗ (∃ W', owes (c : Thread nD τ) (0 : CellTallies nD τ sig Unit) W')) -∗ K ⟨⟩))
      ⊢ wp frame (wpE (defs₀ (F := F)) Variants.none c none) Set.univ (bodyProg43 a1 t) K

/-- What the body is called with at point t, the windows one by one, -/
def bodyPre43 (c : Dev nD) (t : Fin (cfg43 a1).N) : sProp 𝕄 :=
  iprop((dat43 V a1 O c).Φ t.castSucc ∗ (dat43 V a1 O c).owesAt () t.castSucc
    ∗ (∃ d, owns (c : Thread nD τ) (stg43 a1 0 t) fullShare ((dat43 V a1 O c).before 0 t d))
    ∗ (∃ d, owns (c : Thread nD τ) (stg43 a1 1 t) fullShare ((dat43 V a1 O c).before 1 t d)))

/-- and what it returns. -/
def bodyPost43 (c : Dev nD) (t : Fin (cfg43 a1).N) : sProp 𝕄 :=
  iprop((dat43 V a1 O c).Φ t.succ ∗ (dat43 V a1 O c).owesAt () t.succ
    ∗ owns (c : Thread nD τ) (stg43 a1 0 t) fullShare ((dat43 V a1 O c).after 0 t)
    ∗ owns (c : Thread nD τ) (stg43 a1 1 t) fullShare ((dat43 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body43 (hrun : BodyRun43 V a1 O) (c : Dev nD) (t : Fin (cfg43 a1).N) :
    bodyPre43 V a1 O c t
      ⊢ wp frame (wpE (defs₀ (F := F)) Variants.none c none) Set.univ (bodyProg43 a1 t) (fun _ => bodyPost43 V a1 O c t) := by
  unfold bodyPre43 bodyPost43
  simp only [beforeIn43]
  rw [afterIn43, afterOut43, Phi_eq43, Phi_eq43, PhiD_eq43, prefHeld_eq43]
  unfold Dat.owesAt Pipeline.owesWithin
  rw [owed_eq43, owed_eq43]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation43 (hrun : BodyRun43 V a1 O) (c : Dev nD) :
    BodyObligation (dat43 (F := F) V a1 O c) (defs₀ (F := F)) Variants.none () Set.univ := fun t => by
  rw [bigSep_W43, bigSep_W43]
  exact sound_body43 V a1 O hrun c t

end Data

/-! ## The region's record -/

section Record

variable (Win : Dev nD → Valuation τ sig (Elt F))

variable (a1 : (pcfg43 (F := F)).Adm)
  (O : (c : Dev nD) → Fin (cfg43 a1).N → Vec F S8x64 .f32)

/-- The buffers at the region's exit: its arrays at what the write-backs leave, every other buffer as entered. -/
def Wout43 (c : Dev nD) : Valuation τ sig (Elt F) :=
  Pipeline.withArrays spec43 c (Win c) fun w => (dat43 (Vof Win) a1 O c).arrAt w (cfg43 a1).N

theorem Wout43_arr (c : Dev nD) (w : Fin (cfg43 a1).W) :
    Wout43 Win a1 O c (Proc.devRef .tc (Pipeline.arrRef spec43 w)) = (dat43 (Vof Win) a1 O c).arrAt w (cfg43 a1).N := by
  unfold Wout43; exact Pipeline.withArrays_arr spec43 winFacts43.arr_inj c _ _ w

theorem Wout43_of_ne (c : Dev nD) (b : Ref sig .tc) (hb : ∀ w, Pipeline.arrRef spec43 w ≠ b) :
    Wout43 Win a1 O c (Proc.devRef .tc b) = Win c (Proc.devRef .tc b) := by
  unfold Wout43; exact Pipeline.withArrays_of_ne spec43 c _ _ b hb

/-- ENTRY, the buffers' part. Every unscoped buffer at Win is: the region's arrays at the proof data's entry contents,
    the table whole at the admissible contents (which are Win's there), the far operand whole, and the others. -/
theorem entry43 (c : Dev nD) (ha1 : ∀ k, Vof Win c (pre43.ref k) = a1.1 k) :
    (StableHlo.held (c : Thread nD τ) (Pipeline.ucRefs τ sig) (Win c) : sProp 𝕄)
      ⊢ iprop((dat43 (Vof Win) a1 O c).arrays ((dat43 (Vof Win) a1 O c).arrAt · 0)
          ∗ Pipeline.prefHeld pre43 c (fun _ => fullShare) a1.1
          ∗ (bigSep ({main_v141} : Finset (Ref sig .tc)) fun b => (((c : Thread nD τ)).loc b) ↦{fullShare} Vof Win c b)
          ∗ bigSep (Pipeline.restRefsP sig pre43 spec43 \ {main_v141}) fun b => (((c : Thread nD τ)).loc b) ↦{fullShare} Vof Win c b) := by
  have hsplit := Pipeline.arrays_of_unscopedBufs (p := ()) (fun (_ : Unit) => pcfg43 (F := F)) (fun _ => a1)
    (fun _ c => dat43 (Vof Win) a1 O c) winFacts43 (launch43 (F := F)).arr_whole c
    ((dat43 (Vof Win) a1 O c).share_full fun _ => rfl) (Vof Win c) (fun w => A_eq43 (Vof Win) a1 O c w)
  rw [Pipeline.unscopedBufs_held,
    Pipeline.unscopedRest_split (Ix := Unit) (Name := ℕ) (U := UD sig nD τ) (Lvl := ℕ) preFacts43 c (Vof Win c),
    Pipeline.unscopedRestP_sdiff pre43 spec43 {main_v141} hx_sub43 c (Vof Win c),
    show (fun k => Vof Win c (pre43.ref k)) = a1.1 from funext ha1] at hsplit
  exact hsplit

/-- EXIT, the buffers' part: the same four put back, the arrays at what the write-backs leave, are every unscoped
    buffer at the exit valuation. -/
theorem exit43 (c : Dev nD) (ha1 : ∀ k, Vof Win c (pre43.ref k) = a1.1 k) :
    iprop((dat43 (Vof Win) a1 O c).arrays ((dat43 (Vof Win) a1 O c).arrAt · (cfg43 a1).N)
        ∗ Pipeline.prefHeld pre43 c (fun _ => fullShare) a1.1
        ∗ (bigSep ({main_v141} : Finset (Ref sig .tc)) fun b => (((c : Thread nD τ)).loc b) ↦{fullShare} Vof Win c b)
        ∗ bigSep (Pipeline.restRefsP sig pre43 spec43 \ {main_v141}) fun b => (((c : Thread nD τ)).loc b) ↦{fullShare} Vof Win c b)
      ⊢ (StableHlo.held (c : Thread nD τ) (Pipeline.ucRefs τ sig) (Wout43 Win a1 O c) : sProp 𝕄) := by
  have hjoin := Pipeline.unscopedBufs_of_arrays (p := ()) (fun (_ : Unit) => pcfg43 (F := F)) (fun _ => a1)
    (Ix := Unit) (Name := ℕ) (U := UD sig nD τ) (Lvl := ℕ)
    winFacts43 (launch43 (F := F)).arr_whole c (fun _ c => dat43 (Vof Win) a1 O c)
    ((dat43 (Vof Win) a1 O c).share_full fun _ => rfl)
    (Vof Win c) (Vof (Wout43 Win a1 O) c) ((dat43 (Vof Win) a1 O c).arrAt · (cfg43 a1).N)
    (fun w => (Wout43_arr Win a1 O c w).symm)
    (fun b hb => Wout43_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts43 c (Vof Win c),
    Pipeline.unscopedRestP_sdiff pre43 spec43 {main_v141} hx_sub43 c (Vof Win c),
    show (fun k => Vof Win c (pre43.ref k)) = a1.1 from funext ha1] at hjoin
  exact hjoin

end Record

section Seg

variable (Win : Dev nD → Valuation τ sig (Elt F))
  (adm : (p : Fin 49) → (pcfgs (F := F) p).Adm)
  (O : (c : Dev nD) → Fin (cfg43 (adm (43 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout43. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg43 (hd : ∀ c, pdats (43 : Fin 49) c = dat43 (Vof Win) (adm (43 : Fin 49)) O c)
    (ha1 : ∀ c k, Vof Win c (pre43.ref k) = (adm (43 : Fin 49)).1 k)
    (hbody : ∀ c, BodyObligation (dat43 (F := F) (Vof Win) (adm (43 : Fin 49)) O c) (defs₀ (F := F)) 𝒱₀ () Set.univ) :
    Pipeline.RegionSeg (pcfgs (F := F)) adm pdats () defs₀ 𝒱₀ L lv (43 : Fin 49) where
  win := (launch43 (F := F)).win.to₀
  block_pos := (launch43 (F := F)).block_pos
  stage_whole := (launch43 (F := F)).stage_whole
  K := Fin 8
  osem := osem43
  ho := ownSemFacts43
  hbody c := by rw [hd c]; exact (hbody c).loose
  hwaits := Pipeline.hwaits_of_owed_zero _ _ _ _ L lv (43 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout43 Win (adm (43 : Fin 49)) O c) ∗ R c)
  X c := iprop((∃ r, prngReg c r)
    ∗ Pipeline.ownSems0 (Ix := Unit) (Name := ℕ) (U := UD sig nD τ) (Lvl := ℕ) (Val := Elt F) (τ := τ) osem43 c
    ∗ (bigSep ({main_v141} : Finset (Ref sig .tc)) fun b => (((c : Thread nD τ)).loc b) ↦{fullShare} Vof Win c b))
  Y c := iprop((∃ r, prngReg c r)
    ∗ (bigSep ({main_v141} : Finset (Ref sig .tc)) fun b => (((c : Thread nD τ)).loc b) ↦{fullShare} Vof Win c b)
    ∗ Pipeline.prefHeld pre43 c (fun _ => fullShare) (adm (43 : Fin 49)).1)
  Z c := bigSep (Pipeline.restRefsP sig pre43 spec43 \ {main_v141}) fun b => (((c : Thread nD τ)).loc b) ↦{fullShare} Vof Win c b
  hentry c := by
    rw [hd c]
    iintro ⟨⟨Hub, Hp, HO⟩, Hos, -⟩
    ihave H := (entry43 Win (adm (43 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq43, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq43, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit43 Win (adm (43 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg43 (F := F)).Adm)

/-- The output block at point t: the gathered rows (of the far operand's contents under V, chosen by the table's
    words at that point) times the input block. -/
def outBlk43 (c : Dev nD) (t : Fin (cfg43 a1).N) : Vec F S8x64 .f32 :=
  gatherOut (gatherG (a1.1 0) (V c main_v141) (grid43.coords t)) (iblk43 V a1 c 0 t)

theorem outBlk_eq43 (c : Dev nD) (t : Fin (cfg43 a1).N) :
    outBlk43 V a1 c t = gatherOut (gatherG (a1.1 0) (V c main_v141) (grid43.coords t)) (iblk43 V a1 c 0 t) := rfl

/-- The proof data with the output block named: after the body at point t the output window's buffer holds it. -/
theorem afterOutBlk43 (c : Dev nD) (t : Fin (cfg43 a1).N) :
    (dat43 V a1 (outBlk43 V a1) c).after 1 t
      = gatherOut (gatherG (a1.1 0) (V c main_v141) (grid43.coords t)) (iblk43 V a1 c 0 t) :=
  afterOut43 V a1 (outBlk43 V a1) c t

/-- The own cells at zero are the semaphore array's eight entries at zero, in order. -/
theorem ownSems_eq43 (c : Dev nD) :
    (Pipeline.ownSems0 (Ix := Unit) (Name := ℕ) (U := UD sig nD τ) (Lvl := ℕ) (Val := Elt F) (τ := τ) osem43 c : sProp 𝕄)
      = gsems0 c cc43_scratch1 := by
  rw [Pipeline.ownSems0_eq_of_list c osem43 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq43 (t : Fin (cfg43 a1).N) : ∃ h3 h4, bodyProg43 (F := F) a1 t
    = cc43__gather_mul_kernel (grid43.coords t) (Memref.whole main_v183) (Memref.isWhole_whole _) (Memref.whole main_v141) (Memref.isWhole_whole _)
        (stg43 a1 0 t) h3 (stg43 a1 1 t) h4 (Memref.whole cc43_scratch0) (Memref.isWhole_whole _) cc43_scratch1 := ⟨_, _, rfl⟩

end Out

/-! ## The body's run, joined to the proof data -/

section Body

variable (V : (c : Dev nD) → (b : Ref sig .tc) → Buf (Elt F) ((c : Thread nD τ).loc b))
  (a1 : (pcfg43 (F := F)).Adm)

/-- The scratch buffer whole at some contents, as a memref owned at some contents. -/
theorem scratchOwns_eq43 (c : Dev nD) :
    (iprop(∃ d, owns (c : Thread nD τ) (Memref.whole cc43_scratch0) fullShare d) : sProp 𝕄)
      = iprop(∃ f : Buf (Elt F) ((c : Thread nD τ).loc cc43_scratch0), ((c : Thread nD τ).loc cc43_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun43 (hlt : ∀ y, BitVec.toNat ((a1.1 0) y) < 100000) : BodyRun43 V a1 (outBlk43 V a1) := by
  intro c t W K
  obtain ⟨h3, h4, hprog⟩ := bodyProg_eq43 (F := F) a1 t
  rw [hprog, ownSems_eq43, ← scratchOwns_eq43 (F := F) c]
  have hrun := gather_kernel_run_43 (F := F) c (grid43.coords t) (Memref.whole main_v183) (Memref.isWhole_whole _) (Memref.whole main_v141) (Memref.isWhole_whole _)
    (stg43 a1 0 t) h3 (stg43 a1 1 t) h4 (Memref.whole cc43_scratch0) (Memref.isWhole_whole _) cc43_scratch1 fullShare fullShare
    (a1.1 0) (V c main_v141) (iblk43 V a1 c 0 t) (fun y => hlt y) W K
  simp only [Memref.view_whole, View.read_whole] at hrun
  unfold outBlk43
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut43 (hlt : ∀ y, BitVec.toNat ((a1.1 0) y) < 100000) (c : Dev nD) :
    BodyObligation (dat43 (F := F) V a1 (outBlk43 V a1) c) (defs₀ (F := F)) Variants.none () Set.univ :=
  body_obligation43 V a1 (outBlk43 V a1) (bodyRun43 V a1 hlt) c

end Body

/-! # Region 44 -/

/-! ## The body's own transfer cells -/

/-- The eight cells of the body's semaphore array, in order. -/
abbrev osem44 : Fin 8 → SemLoc sig := fun j => SemLoc.dma (cc44_scratch1.ix (fun | ⟨0, _⟩ => j))

/-- They are scoped, pairwise distinct, and none is a staging cell of a window. -/
theorem ownSemFacts44 : Pipeline.OwnSemFacts spec44 osem44 := by decide

/-- The far operand is an unscoped buffer that is neither a window's array nor a table. -/
theorem hx_sub44 : ({main_v141} : Finset (Ref sig .tc)) ⊆ Pipeline.restRefsP sig pre44 spec44 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg44 (F := F)).Adm)
  (O : (c : Dev nD) → Fin (cfg44 a1).N → Vec F S8x64 .f32)

/-! ## The windows' blocks -/

/-- Window w's block at point t, read off its array under V. -/
def iblk44 (c : Dev nD) (w : Fin (cfg44 a1).W) (t : Fin (cfg44 a1).N) :
    (((cfg44 a1).win w).xblock ((cfg44 a1).grid.coords t)).Idx → Elt F ((cfg44 a1).win w).elt :=
  (((cfg44 a1).win w).blk t).view.read (Elt F) (V c (Pipeline.arrRef spec44 w))

/-- The input window's current staging buffer holds its block at every point, fetched there or not, for any proof
    data whose array is V's and whose body leaves the block in place: unfetched, the block index has not moved. -/
theorem beforeIn44_of {c : Dev nD} (dat : Dat τ (Elt F) Unit ℕ (UD sig nD τ) ℕ (cfg44 a1) c)
    (hA : dat.A 0 = V c (Pipeline.arrRef spec44 0))
    (hafter : ∀ t, dat.after 0 t = iblk44 V a1 c 0 t) (t : Fin (cfg44 a1).N) (d) : dat.before 0 t d = iblk44 V a1 c 0 t :=
  (dat.before_in_eq_fetched 0 rfl (fun _ => rfl) (fun _ _ _ => rfl)
    (fun t => by rw [hafter]; unfold Dat.blockOf iblk44; rw [hA]; try rfl) t d).trans
    (by unfold Dat.fetched Dat.blockOf iblk44; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat44 (c : Dev nD) : Dat τ (Elt F) Unit ℕ (UD sig nD τ) ℕ (cfg44 a1) c where
  A w := V c (Pipeline.arrRef spec44 w)
  after w t := match w with
    | ⟨0, _⟩ => iblk44 V a1 c 0 t
    | ⟨1, _⟩ => O c t
  Φ _ := iprop(Pipeline.ΦD osem44 spec44 {main_v141} V c ∗ Pipeline.prefHeld pre44 c (fun _ => fullShare) a1.1)
  q _ := fullShare
  owed _ := 0

theorem A_eq44 (c : Dev nD) (w : Fin (cfg44 a1).W) : (dat44 V a1 O c).A w = V c (Pipeline.arrRef spec44 w) := by
  dsimp only [dat44]

theorem afterIn44 (c : Dev nD) (t : Fin (cfg44 a1).N) : (dat44 V a1 O c).after 0 t = iblk44 V a1 c 0 t := by
  dsimp only [dat44]; rfl

theorem afterOut44 (c : Dev nD) (t : Fin (cfg44 a1).N) :
    (dat44 V a1 O c).after 1 t = O c t := by
  dsimp only [dat44]; rfl

theorem beforeIn44 (c : Dev nD) (t : Fin (cfg44 a1).N) (d) : (dat44 V a1 O c).before 0 t d = iblk44 V a1 c 0 t :=
  beforeIn44_of V a1 (dat44 V a1 O c) (A_eq44 V a1 O c 0) (afterIn44 V a1 O c) t d

theorem Phi_eq44 (c : Dev nD) (t : Fin ((cfg44 a1).N + 1)) :
    (dat44 V a1 O c).Φ t
      = iprop(Pipeline.ΦD osem44 spec44 {main_v141} V c ∗ Pipeline.prefHeld pre44 c (fun _ => fullShare) a1.1) := by
  dsimp only [dat44]

theorem owed_eq44 (c : Dev nD) (t : Fin ((cfg44 a1).N + 1)) : (dat44 V a1 O c).owed t = 0 := by
  dsimp only [dat44]

/-! ## The invariant, conjunct by conjunct -/

/-- The invariant's first part opened: the body's scratch buffer whole at some contents and the other scoped
    buffers no window stages, the generator register, the own cells at zero, the far operand at its contents. -/
theorem PhiD_eq44 (c : Dev nD) :
    (Pipeline.ΦD osem44 spec44 {main_v141} V c : sProp 𝕄)
      = iprop(iprop(iprop((∃ f : Buf (Elt F) ((c : Thread nD τ).loc cc44_scratch0), ((c : Thread nD τ).loc cc44_scratch0) ↦{fullShare} f))
            ∗ Pipeline.scopedRestBut (Ix := Unit) (Name := ℕ) (U := UD sig nD τ) (Lvl := ℕ) (Val := Elt F) spec44 c [cc44_scratch0])
          ∗ (∃ r, prngReg c r)
          ∗ Pipeline.ownSems0 (Ix := Unit) (Name := ℕ) (U := UD sig nD τ) (Lvl := ℕ) (Val := Elt F) (τ := τ) osem44 c
          ∗ (((c : Thread nD τ).loc main_v141) ↦{fullShare} V c main_v141)) := by
  rw [Pipeline.ΦD_eq, scopedRest44_split, BI.bigSep_eq_bigSepL_of_eq [main_v141] (by decide) (by decide)]; rfl

/-- The one table, held whole. -/
theorem prefHeld_eq44 (c : Dev nD) :
    (Pipeline.prefHeld pre44 c (fun _ => fullShare) a1.1 : sProp 𝕄)
      = (((c : Thread nD τ).loc main_v187) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg44 (w : Fin (cfg44 a1).W) (t : Fin (cfg44 a1).N) := ((cfg44 a1).win w).stage ((cfg44 a1).slots t w)

/-- The body as the pipeline calls it at point t. -/
abbrev bodyProg44 (t : Fin (cfg44 a1).N) : Prog (TpuEff nD τ sig (Elt F) Λ₀ .tc) PUnit :=
  (defs₀ (F := F)) .tc (cfg44 a1).body ((cfg44 a1).bodyArgs t ((cfg44 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun44 : Prop :=
  ∀ (c : Dev nD) (t : Fin (cfg44 a1).N) (W) (K : PUnit → sProp 𝕄),
    iprop(owns (c : Thread nD τ) (stg44 a1 0 t) fullShare (iblk44 V a1 c 0 t)
        ∗ (∃ d, owns (c : Thread nD τ) (stg44 a1 1 t) fullShare d)
        ∗ (∃ f : Buf (Elt F) ((c : Thread nD τ).loc cc44_scratch0), ((c : Thread nD τ).loc cc44_scratch0) ↦{fullShare} f)
        ∗ Pipeline.ownSems0 (Ix := Unit) (Name := ℕ) (U := UD sig nD τ) (Lvl := ℕ) (Val := Elt F) (τ := τ) osem44 c
        ∗ (((c : Thread nD τ).loc main_v187) ↦{fullShare} a1.1 0)
        ∗ (((c : Thread nD τ).loc main_v141) ↦{fullShare} V c main_v141)
        ∗ owes (c : Thread nD τ) (0 : CellTallies nD τ sig Unit) W
        ∗ (iprop(owns (c : Thread nD τ) (stg44 a1 0 t) fullShare (iblk44 V a1 c 0 t)
            ∗ owns (c : Thread nD τ) (stg44 a1 1 t) fullShare (O c t)
            ∗ (∃ f : Buf (Elt F) ((c : Thread nD τ).loc cc44_scratch0), ((c : Thread nD τ).loc cc44_scratch0) ↦{fullShare} f)
            ∗ Pipeline.ownSems0 (Ix := Unit) (Name := ℕ) (U := UD sig nD τ) (Lvl := ℕ) (Val := Elt F) (τ := τ) osem44 c
            ∗ (((c : Thread nD τ).loc main_v187) ↦{fullShare} a1.1 0)
            ∗ (((c : Thread nD τ).loc main_v141) ↦{fullShare} V c main_v141)
            ∗ (∃ W', owes (c : Thread nD τ) (0 : CellTallies nD τ sig Unit) W')) -∗ K ⟨⟩))
      ⊢ wp frame (wpE (defs₀ (F := F)) Variants.none c none) Set.univ (bodyProg44 a1 t) K

/-- What the body is called with at point t, the windows one by one, -/
def bodyPre44 (c : Dev nD) (t : Fin (cfg44 a1).N) : sProp 𝕄 :=
  iprop((dat44 V a1 O c).Φ t.castSucc ∗ (dat44 V a1 O c).owesAt () t.castSucc
    ∗ (∃ d, owns (c : Thread nD τ) (stg44 a1 0 t) fullShare ((dat44 V a1 O c).before 0 t d))
    ∗ (∃ d, owns (c : Thread nD τ) (stg44 a1 1 t) fullShare ((dat44 V a1 O c).before 1 t d)))

/-- and what it returns. -/
def bodyPost44 (c : Dev nD) (t : Fin (cfg44 a1).N) : sProp 𝕄 :=
  iprop((dat44 V a1 O c).Φ t.succ ∗ (dat44 V a1 O c).owesAt () t.succ
    ∗ owns (c : Thread nD τ) (stg44 a1 0 t) fullShare ((dat44 V a1 O c).after 0 t)
    ∗ owns (c : Thread nD τ) (stg44 a1 1 t) fullShare ((dat44 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body44 (hrun : BodyRun44 V a1 O) (c : Dev nD) (t : Fin (cfg44 a1).N) :
    bodyPre44 V a1 O c t
      ⊢ wp frame (wpE (defs₀ (F := F)) Variants.none c none) Set.univ (bodyProg44 a1 t) (fun _ => bodyPost44 V a1 O c t) := by
  unfold bodyPre44 bodyPost44
  simp only [beforeIn44]
  rw [afterIn44, afterOut44, Phi_eq44, Phi_eq44, PhiD_eq44, prefHeld_eq44]
  unfold Dat.owesAt Pipeline.owesWithin
  rw [owed_eq44, owed_eq44]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation44 (hrun : BodyRun44 V a1 O) (c : Dev nD) :
    BodyObligation (dat44 (F := F) V a1 O c) (defs₀ (F := F)) Variants.none () Set.univ := fun t => by
  rw [bigSep_W44, bigSep_W44]
  exact sound_body44 V a1 O hrun c t

end Data

/-! ## The region's record -/

section Record

variable (Win : Dev nD → Valuation τ sig (Elt F))

variable (a1 : (pcfg44 (F := F)).Adm)
  (O : (c : Dev nD) → Fin (cfg44 a1).N → Vec F S8x64 .f32)

/-- The buffers at the region's exit: its arrays at what the write-backs leave, every other buffer as entered. -/
def Wout44 (c : Dev nD) : Valuation τ sig (Elt F) :=
  Pipeline.withArrays spec44 c (Win c) fun w => (dat44 (Vof Win) a1 O c).arrAt w (cfg44 a1).N

theorem Wout44_arr (c : Dev nD) (w : Fin (cfg44 a1).W) :
    Wout44 Win a1 O c (Proc.devRef .tc (Pipeline.arrRef spec44 w)) = (dat44 (Vof Win) a1 O c).arrAt w (cfg44 a1).N := by
  unfold Wout44; exact Pipeline.withArrays_arr spec44 winFacts44.arr_inj c _ _ w

theorem Wout44_of_ne (c : Dev nD) (b : Ref sig .tc) (hb : ∀ w, Pipeline.arrRef spec44 w ≠ b) :
    Wout44 Win a1 O c (Proc.devRef .tc b) = Win c (Proc.devRef .tc b) := by
  unfold Wout44; exact Pipeline.withArrays_of_ne spec44 c _ _ b hb

/-- ENTRY, the buffers' part. Every unscoped buffer at Win is: the region's arrays at the proof data's entry contents,
    the table whole at the admissible contents (which are Win's there), the far operand whole, and the others. -/
theorem entry44 (c : Dev nD) (ha1 : ∀ k, Vof Win c (pre44.ref k) = a1.1 k) :
    (StableHlo.held (c : Thread nD τ) (Pipeline.ucRefs τ sig) (Win c) : sProp 𝕄)
      ⊢ iprop((dat44 (Vof Win) a1 O c).arrays ((dat44 (Vof Win) a1 O c).arrAt · 0)
          ∗ Pipeline.prefHeld pre44 c (fun _ => fullShare) a1.1
          ∗ (bigSep ({main_v141} : Finset (Ref sig .tc)) fun b => (((c : Thread nD τ)).loc b) ↦{fullShare} Vof Win c b)
          ∗ bigSep (Pipeline.restRefsP sig pre44 spec44 \ {main_v141}) fun b => (((c : Thread nD τ)).loc b) ↦{fullShare} Vof Win c b) := by
  have hsplit := Pipeline.arrays_of_unscopedBufs (p := ()) (fun (_ : Unit) => pcfg44 (F := F)) (fun _ => a1)
    (fun _ c => dat44 (Vof Win) a1 O c) winFacts44 (launch44 (F := F)).arr_whole c
    ((dat44 (Vof Win) a1 O c).share_full fun _ => rfl) (Vof Win c) (fun w => A_eq44 (Vof Win) a1 O c w)
  rw [Pipeline.unscopedBufs_held,
    Pipeline.unscopedRest_split (Ix := Unit) (Name := ℕ) (U := UD sig nD τ) (Lvl := ℕ) preFacts44 c (Vof Win c),
    Pipeline.unscopedRestP_sdiff pre44 spec44 {main_v141} hx_sub44 c (Vof Win c),
    show (fun k => Vof Win c (pre44.ref k)) = a1.1 from funext ha1] at hsplit
  exact hsplit

/-- EXIT, the buffers' part: the same four put back, the arrays at what the write-backs leave, are every unscoped
    buffer at the exit valuation. -/
theorem exit44 (c : Dev nD) (ha1 : ∀ k, Vof Win c (pre44.ref k) = a1.1 k) :
    iprop((dat44 (Vof Win) a1 O c).arrays ((dat44 (Vof Win) a1 O c).arrAt · (cfg44 a1).N)
        ∗ Pipeline.prefHeld pre44 c (fun _ => fullShare) a1.1
        ∗ (bigSep ({main_v141} : Finset (Ref sig .tc)) fun b => (((c : Thread nD τ)).loc b) ↦{fullShare} Vof Win c b)
        ∗ bigSep (Pipeline.restRefsP sig pre44 spec44 \ {main_v141}) fun b => (((c : Thread nD τ)).loc b) ↦{fullShare} Vof Win c b)
      ⊢ (StableHlo.held (c : Thread nD τ) (Pipeline.ucRefs τ sig) (Wout44 Win a1 O c) : sProp 𝕄) := by
  have hjoin := Pipeline.unscopedBufs_of_arrays (p := ()) (fun (_ : Unit) => pcfg44 (F := F)) (fun _ => a1)
    (Ix := Unit) (Name := ℕ) (U := UD sig nD τ) (Lvl := ℕ)
    winFacts44 (launch44 (F := F)).arr_whole c (fun _ c => dat44 (Vof Win) a1 O c)
    ((dat44 (Vof Win) a1 O c).share_full fun _ => rfl)
    (Vof Win c) (Vof (Wout44 Win a1 O) c) ((dat44 (Vof Win) a1 O c).arrAt · (cfg44 a1).N)
    (fun w => (Wout44_arr Win a1 O c w).symm)
    (fun b hb => Wout44_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts44 c (Vof Win c),
    Pipeline.unscopedRestP_sdiff pre44 spec44 {main_v141} hx_sub44 c (Vof Win c),
    show (fun k => Vof Win c (pre44.ref k)) = a1.1 from funext ha1] at hjoin
  exact hjoin

end Record

section Seg

variable (Win : Dev nD → Valuation τ sig (Elt F))
  (adm : (p : Fin 49) → (pcfgs (F := F) p).Adm)
  (O : (c : Dev nD) → Fin (cfg44 (adm (44 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout44. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg44 (hd : ∀ c, pdats (44 : Fin 49) c = dat44 (Vof Win) (adm (44 : Fin 49)) O c)
    (ha1 : ∀ c k, Vof Win c (pre44.ref k) = (adm (44 : Fin 49)).1 k)
    (hbody : ∀ c, BodyObligation (dat44 (F := F) (Vof Win) (adm (44 : Fin 49)) O c) (defs₀ (F := F)) 𝒱₀ () Set.univ) :
    Pipeline.RegionSeg (pcfgs (F := F)) adm pdats () defs₀ 𝒱₀ L lv (44 : Fin 49) where
  win := (launch44 (F := F)).win.to₀
  block_pos := (launch44 (F := F)).block_pos
  stage_whole := (launch44 (F := F)).stage_whole
  K := Fin 8
  osem := osem44
  ho := ownSemFacts44
  hbody c := by rw [hd c]; exact (hbody c).loose
  hwaits := Pipeline.hwaits_of_owed_zero _ _ _ _ L lv (44 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout44 Win (adm (44 : Fin 49)) O c) ∗ R c)
  X c := iprop((∃ r, prngReg c r)
    ∗ Pipeline.ownSems0 (Ix := Unit) (Name := ℕ) (U := UD sig nD τ) (Lvl := ℕ) (Val := Elt F) (τ := τ) osem44 c
    ∗ (bigSep ({main_v141} : Finset (Ref sig .tc)) fun b => (((c : Thread nD τ)).loc b) ↦{fullShare} Vof Win c b))
  Y c := iprop((∃ r, prngReg c r)
    ∗ (bigSep ({main_v141} : Finset (Ref sig .tc)) fun b => (((c : Thread nD τ)).loc b) ↦{fullShare} Vof Win c b)
    ∗ Pipeline.prefHeld pre44 c (fun _ => fullShare) (adm (44 : Fin 49)).1)
  Z c := bigSep (Pipeline.restRefsP sig pre44 spec44 \ {main_v141}) fun b => (((c : Thread nD τ)).loc b) ↦{fullShare} Vof Win c b
  hentry c := by
    rw [hd c]
    iintro ⟨⟨Hub, Hp, HO⟩, Hos, -⟩
    ihave H := (entry44 Win (adm (44 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq44, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq44, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit44 Win (adm (44 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg44 (F := F)).Adm)

/-- The output block at point t: the gathered rows (of the far operand's contents under V, chosen by the table's
    words at that point) times the input block. -/
def outBlk44 (c : Dev nD) (t : Fin (cfg44 a1).N) : Vec F S8x64 .f32 :=
  gatherOut (gatherG (a1.1 0) (V c main_v141) (grid44.coords t)) (iblk44 V a1 c 0 t)

theorem outBlk_eq44 (c : Dev nD) (t : Fin (cfg44 a1).N) :
    outBlk44 V a1 c t = gatherOut (gatherG (a1.1 0) (V c main_v141) (grid44.coords t)) (iblk44 V a1 c 0 t) := rfl

/-- The proof data with the output block named: after the body at point t the output window's buffer holds it. -/
theorem afterOutBlk44 (c : Dev nD) (t : Fin (cfg44 a1).N) :
    (dat44 V a1 (outBlk44 V a1) c).after 1 t
      = gatherOut (gatherG (a1.1 0) (V c main_v141) (grid44.coords t)) (iblk44 V a1 c 0 t) :=
  afterOut44 V a1 (outBlk44 V a1) c t

/-- The own cells at zero are the semaphore array's eight entries at zero, in order. -/
theorem ownSems_eq44 (c : Dev nD) :
    (Pipeline.ownSems0 (Ix := Unit) (Name := ℕ) (U := UD sig nD τ) (Lvl := ℕ) (Val := Elt F) (τ := τ) osem44 c : sProp 𝕄)
      = gsems0 c cc44_scratch1 := by
  rw [Pipeline.ownSems0_eq_of_list c osem44 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq44 (t : Fin (cfg44 a1).N) : ∃ h3 h4, bodyProg44 (F := F) a1 t
    = cc44__gather_mul_kernel (grid44.coords t) (Memref.whole main_v187) (Memref.isWhole_whole _) (Memref.whole main_v141) (Memref.isWhole_whole _)
        (stg44 a1 0 t) h3 (stg44 a1 1 t) h4 (Memref.whole cc44_scratch0) (Memref.isWhole_whole _) cc44_scratch1 := ⟨_, _, rfl⟩

end Out

/-! ## The body's run, joined to the proof data -/

section Body

variable (V : (c : Dev nD) → (b : Ref sig .tc) → Buf (Elt F) ((c : Thread nD τ).loc b))
  (a1 : (pcfg44 (F := F)).Adm)

/-- The scratch buffer whole at some contents, as a memref owned at some contents. -/
theorem scratchOwns_eq44 (c : Dev nD) :
    (iprop(∃ d, owns (c : Thread nD τ) (Memref.whole cc44_scratch0) fullShare d) : sProp 𝕄)
      = iprop(∃ f : Buf (Elt F) ((c : Thread nD τ).loc cc44_scratch0), ((c : Thread nD τ).loc cc44_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun44 (hlt : ∀ y, BitVec.toNat ((a1.1 0) y) < 100000) : BodyRun44 V a1 (outBlk44 V a1) := by
  intro c t W K
  obtain ⟨h3, h4, hprog⟩ := bodyProg_eq44 (F := F) a1 t
  rw [hprog, ownSems_eq44, ← scratchOwns_eq44 (F := F) c]
  have hrun := gather_kernel_run_44 (F := F) c (grid44.coords t) (Memref.whole main_v187) (Memref.isWhole_whole _) (Memref.whole main_v141) (Memref.isWhole_whole _)
    (stg44 a1 0 t) h3 (stg44 a1 1 t) h4 (Memref.whole cc44_scratch0) (Memref.isWhole_whole _) cc44_scratch1 fullShare fullShare
    (a1.1 0) (V c main_v141) (iblk44 V a1 c 0 t) (fun y => hlt y) W K
  simp only [Memref.view_whole, View.read_whole] at hrun
  unfold outBlk44
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut44 (hlt : ∀ y, BitVec.toNat ((a1.1 0) y) < 100000) (c : Dev nD) :
    BodyObligation (dat44 (F := F) V a1 (outBlk44 V a1) c) (defs₀ (F := F)) Variants.none () Set.univ :=
  body_obligation44 V a1 (outBlk44 V a1) (bodyRun44 V a1 hlt) c

end Body

/-! # Region 45 -/

/-! ## The body's own transfer cells -/

/-- The eight cells of the body's semaphore array, in order. -/
abbrev osem45 : Fin 8 → SemLoc sig := fun j => SemLoc.dma (cc45_scratch1.ix (fun | ⟨0, _⟩ => j))

/-- They are scoped, pairwise distinct, and none is a staging cell of a window. -/
theorem ownSemFacts45 : Pipeline.OwnSemFacts spec45 osem45 := by decide

/-- The far operand is an unscoped buffer that is neither a window's array nor a table. -/
theorem hx_sub45 : ({main_v141} : Finset (Ref sig .tc)) ⊆ Pipeline.restRefsP sig pre45 spec45 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg45 (F := F)).Adm)
  (O : (c : Dev nD) → Fin (cfg45 a1).N → Vec F S8x64 .f32)

/-! ## The windows' blocks -/

/-- Window w's block at point t, read off its array under V. -/
def iblk45 (c : Dev nD) (w : Fin (cfg45 a1).W) (t : Fin (cfg45 a1).N) :
    (((cfg45 a1).win w).xblock ((cfg45 a1).grid.coords t)).Idx → Elt F ((cfg45 a1).win w).elt :=
  (((cfg45 a1).win w).blk t).view.read (Elt F) (V c (Pipeline.arrRef spec45 w))

/-- The input window's current staging buffer holds its block at every point, fetched there or not, for any proof
    data whose array is V's and whose body leaves the block in place: unfetched, the block index has not moved. -/
theorem beforeIn45_of {c : Dev nD} (dat : Dat τ (Elt F) Unit ℕ (UD sig nD τ) ℕ (cfg45 a1) c)
    (hA : dat.A 0 = V c (Pipeline.arrRef spec45 0))
    (hafter : ∀ t, dat.after 0 t = iblk45 V a1 c 0 t) (t : Fin (cfg45 a1).N) (d) : dat.before 0 t d = iblk45 V a1 c 0 t :=
  (dat.before_in_eq_fetched 0 rfl (fun _ => rfl) (fun _ _ _ => rfl)
    (fun t => by rw [hafter]; unfold Dat.blockOf iblk45; rw [hA]; try rfl) t d).trans
    (by unfold Dat.fetched Dat.blockOf iblk45; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat45 (c : Dev nD) : Dat τ (Elt F) Unit ℕ (UD sig nD τ) ℕ (cfg45 a1) c where
  A w := V c (Pipeline.arrRef spec45 w)
  after w t := match w with
    | ⟨0, _⟩ => iblk45 V a1 c 0 t
    | ⟨1, _⟩ => O c t
  Φ _ := iprop(Pipeline.ΦD osem45 spec45 {main_v141} V c ∗ Pipeline.prefHeld pre45 c (fun _ => fullShare) a1.1)
  q _ := fullShare
  owed _ := 0

theorem A_eq45 (c : Dev nD) (w : Fin (cfg45 a1).W) : (dat45 V a1 O c).A w = V c (Pipeline.arrRef spec45 w) := by
  dsimp only [dat45]

theorem afterIn45 (c : Dev nD) (t : Fin (cfg45 a1).N) : (dat45 V a1 O c).after 0 t = iblk45 V a1 c 0 t := by
  dsimp only [dat45]; rfl

theorem afterOut45 (c : Dev nD) (t : Fin (cfg45 a1).N) :
    (dat45 V a1 O c).after 1 t = O c t := by
  dsimp only [dat45]; rfl

theorem beforeIn45 (c : Dev nD) (t : Fin (cfg45 a1).N) (d) : (dat45 V a1 O c).before 0 t d = iblk45 V a1 c 0 t :=
  beforeIn45_of V a1 (dat45 V a1 O c) (A_eq45 V a1 O c 0) (afterIn45 V a1 O c) t d

theorem Phi_eq45 (c : Dev nD) (t : Fin ((cfg45 a1).N + 1)) :
    (dat45 V a1 O c).Φ t
      = iprop(Pipeline.ΦD osem45 spec45 {main_v141} V c ∗ Pipeline.prefHeld pre45 c (fun _ => fullShare) a1.1) := by
  dsimp only [dat45]

theorem owed_eq45 (c : Dev nD) (t : Fin ((cfg45 a1).N + 1)) : (dat45 V a1 O c).owed t = 0 := by
  dsimp only [dat45]

/-! ## The invariant, conjunct by conjunct -/

/-- The invariant's first part opened: the body's scratch buffer whole at some contents and the other scoped
    buffers no window stages, the generator register, the own cells at zero, the far operand at its contents. -/
theorem PhiD_eq45 (c : Dev nD) :
    (Pipeline.ΦD osem45 spec45 {main_v141} V c : sProp 𝕄)
      = iprop(iprop(iprop((∃ f : Buf (Elt F) ((c : Thread nD τ).loc cc45_scratch0), ((c : Thread nD τ).loc cc45_scratch0) ↦{fullShare} f))
            ∗ Pipeline.scopedRestBut (Ix := Unit) (Name := ℕ) (U := UD sig nD τ) (Lvl := ℕ) (Val := Elt F) spec45 c [cc45_scratch0])
          ∗ (∃ r, prngReg c r)
          ∗ Pipeline.ownSems0 (Ix := Unit) (Name := ℕ) (U := UD sig nD τ) (Lvl := ℕ) (Val := Elt F) (τ := τ) osem45 c
          ∗ (((c : Thread nD τ).loc main_v141) ↦{fullShare} V c main_v141)) := by
  rw [Pipeline.ΦD_eq, scopedRest45_split, BI.bigSep_eq_bigSepL_of_eq [main_v141] (by decide) (by decide)]; rfl

/-- The one table, held whole. -/
theorem prefHeld_eq45 (c : Dev nD) :
    (Pipeline.prefHeld pre45 c (fun _ => fullShare) a1.1 : sProp 𝕄)
      = (((c : Thread nD τ).loc main_v191) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg45 (w : Fin (cfg45 a1).W) (t : Fin (cfg45 a1).N) := ((cfg45 a1).win w).stage ((cfg45 a1).slots t w)

/-- The body as the pipeline calls it at point t. -/
abbrev bodyProg45 (t : Fin (cfg45 a1).N) : Prog (TpuEff nD τ sig (Elt F) Λ₀ .tc) PUnit :=
  (defs₀ (F := F)) .tc (cfg45 a1).body ((cfg45 a1).bodyArgs t ((cfg45 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun45 : Prop :=
  ∀ (c : Dev nD) (t : Fin (cfg45 a1).N) (W) (K : PUnit → sProp 𝕄),
    iprop(owns (c : Thread nD τ) (stg45 a1 0 t) fullShare (iblk45 V a1 c 0 t)
        ∗ (∃ d, owns (c : Thread nD τ) (stg45 a1 1 t) fullShare d)
        ∗ (∃ f : Buf (Elt F) ((c : Thread nD τ).loc cc45_scratch0), ((c : Thread nD τ).loc cc45_scratch0) ↦{fullShare} f)
        ∗ Pipeline.ownSems0 (Ix := Unit) (Name := ℕ) (U := UD sig nD τ) (Lvl := ℕ) (Val := Elt F) (τ := τ) osem45 c
        ∗ (((c : Thread nD τ).loc main_v191) ↦{fullShare} a1.1 0)
        ∗ (((c : Thread nD τ).loc main_v141) ↦{fullShare} V c main_v141)
        ∗ owes (c : Thread nD τ) (0 : CellTallies nD τ sig Unit) W
        ∗ (iprop(owns (c : Thread nD τ) (stg45 a1 0 t) fullShare (iblk45 V a1 c 0 t)
            ∗ owns (c : Thread nD τ) (stg45 a1 1 t) fullShare (O c t)
            ∗ (∃ f : Buf (Elt F) ((c : Thread nD τ).loc cc45_scratch0), ((c : Thread nD τ).loc cc45_scratch0) ↦{fullShare} f)
            ∗ Pipeline.ownSems0 (Ix := Unit) (Name := ℕ) (U := UD sig nD τ) (Lvl := ℕ) (Val := Elt F) (τ := τ) osem45 c
            ∗ (((c : Thread nD τ).loc main_v191) ↦{fullShare} a1.1 0)
            ∗ (((c : Thread nD τ).loc main_v141) ↦{fullShare} V c main_v141)
            ∗ (∃ W', owes (c : Thread nD τ) (0 : CellTallies nD τ sig Unit) W')) -∗ K ⟨⟩))
      ⊢ wp frame (wpE (defs₀ (F := F)) Variants.none c none) Set.univ (bodyProg45 a1 t) K

/-- What the body is called with at point t, the windows one by one, -/
def bodyPre45 (c : Dev nD) (t : Fin (cfg45 a1).N) : sProp 𝕄 :=
  iprop((dat45 V a1 O c).Φ t.castSucc ∗ (dat45 V a1 O c).owesAt () t.castSucc
    ∗ (∃ d, owns (c : Thread nD τ) (stg45 a1 0 t) fullShare ((dat45 V a1 O c).before 0 t d))
    ∗ (∃ d, owns (c : Thread nD τ) (stg45 a1 1 t) fullShare ((dat45 V a1 O c).before 1 t d)))

/-- and what it returns. -/
def bodyPost45 (c : Dev nD) (t : Fin (cfg45 a1).N) : sProp 𝕄 :=
  iprop((dat45 V a1 O c).Φ t.succ ∗ (dat45 V a1 O c).owesAt () t.succ
    ∗ owns (c : Thread nD τ) (stg45 a1 0 t) fullShare ((dat45 V a1 O c).after 0 t)
    ∗ owns (c : Thread nD τ) (stg45 a1 1 t) fullShare ((dat45 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body45 (hrun : BodyRun45 V a1 O) (c : Dev nD) (t : Fin (cfg45 a1).N) :
    bodyPre45 V a1 O c t
      ⊢ wp frame (wpE (defs₀ (F := F)) Variants.none c none) Set.univ (bodyProg45 a1 t) (fun _ => bodyPost45 V a1 O c t) := by
  unfold bodyPre45 bodyPost45
  simp only [beforeIn45]
  rw [afterIn45, afterOut45, Phi_eq45, Phi_eq45, PhiD_eq45, prefHeld_eq45]
  unfold Dat.owesAt Pipeline.owesWithin
  rw [owed_eq45, owed_eq45]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation45 (hrun : BodyRun45 V a1 O) (c : Dev nD) :
    BodyObligation (dat45 (F := F) V a1 O c) (defs₀ (F := F)) Variants.none () Set.univ := fun t => by
  rw [bigSep_W45, bigSep_W45]
  exact sound_body45 V a1 O hrun c t

end Data

/-! ## The region's record -/

section Record

variable (Win : Dev nD → Valuation τ sig (Elt F))

variable (a1 : (pcfg45 (F := F)).Adm)
  (O : (c : Dev nD) → Fin (cfg45 a1).N → Vec F S8x64 .f32)

/-- The buffers at the region's exit: its arrays at what the write-backs leave, every other buffer as entered. -/
def Wout45 (c : Dev nD) : Valuation τ sig (Elt F) :=
  Pipeline.withArrays spec45 c (Win c) fun w => (dat45 (Vof Win) a1 O c).arrAt w (cfg45 a1).N

theorem Wout45_arr (c : Dev nD) (w : Fin (cfg45 a1).W) :
    Wout45 Win a1 O c (Proc.devRef .tc (Pipeline.arrRef spec45 w)) = (dat45 (Vof Win) a1 O c).arrAt w (cfg45 a1).N := by
  unfold Wout45; exact Pipeline.withArrays_arr spec45 winFacts45.arr_inj c _ _ w

theorem Wout45_of_ne (c : Dev nD) (b : Ref sig .tc) (hb : ∀ w, Pipeline.arrRef spec45 w ≠ b) :
    Wout45 Win a1 O c (Proc.devRef .tc b) = Win c (Proc.devRef .tc b) := by
  unfold Wout45; exact Pipeline.withArrays_of_ne spec45 c _ _ b hb

/-- ENTRY, the buffers' part. Every unscoped buffer at Win is: the region's arrays at the proof data's entry contents,
    the table whole at the admissible contents (which are Win's there), the far operand whole, and the others. -/
theorem entry45 (c : Dev nD) (ha1 : ∀ k, Vof Win c (pre45.ref k) = a1.1 k) :
    (StableHlo.held (c : Thread nD τ) (Pipeline.ucRefs τ sig) (Win c) : sProp 𝕄)
      ⊢ iprop((dat45 (Vof Win) a1 O c).arrays ((dat45 (Vof Win) a1 O c).arrAt · 0)
          ∗ Pipeline.prefHeld pre45 c (fun _ => fullShare) a1.1
          ∗ (bigSep ({main_v141} : Finset (Ref sig .tc)) fun b => (((c : Thread nD τ)).loc b) ↦{fullShare} Vof Win c b)
          ∗ bigSep (Pipeline.restRefsP sig pre45 spec45 \ {main_v141}) fun b => (((c : Thread nD τ)).loc b) ↦{fullShare} Vof Win c b) := by
  have hsplit := Pipeline.arrays_of_unscopedBufs (p := ()) (fun (_ : Unit) => pcfg45 (F := F)) (fun _ => a1)
    (fun _ c => dat45 (Vof Win) a1 O c) winFacts45 (launch45 (F := F)).arr_whole c
    ((dat45 (Vof Win) a1 O c).share_full fun _ => rfl) (Vof Win c) (fun w => A_eq45 (Vof Win) a1 O c w)
  rw [Pipeline.unscopedBufs_held,
    Pipeline.unscopedRest_split (Ix := Unit) (Name := ℕ) (U := UD sig nD τ) (Lvl := ℕ) preFacts45 c (Vof Win c),
    Pipeline.unscopedRestP_sdiff pre45 spec45 {main_v141} hx_sub45 c (Vof Win c),
    show (fun k => Vof Win c (pre45.ref k)) = a1.1 from funext ha1] at hsplit
  exact hsplit

/-- EXIT, the buffers' part: the same four put back, the arrays at what the write-backs leave, are every unscoped
    buffer at the exit valuation. -/
theorem exit45 (c : Dev nD) (ha1 : ∀ k, Vof Win c (pre45.ref k) = a1.1 k) :
    iprop((dat45 (Vof Win) a1 O c).arrays ((dat45 (Vof Win) a1 O c).arrAt · (cfg45 a1).N)
        ∗ Pipeline.prefHeld pre45 c (fun _ => fullShare) a1.1
        ∗ (bigSep ({main_v141} : Finset (Ref sig .tc)) fun b => (((c : Thread nD τ)).loc b) ↦{fullShare} Vof Win c b)
        ∗ bigSep (Pipeline.restRefsP sig pre45 spec45 \ {main_v141}) fun b => (((c : Thread nD τ)).loc b) ↦{fullShare} Vof Win c b)
      ⊢ (StableHlo.held (c : Thread nD τ) (Pipeline.ucRefs τ sig) (Wout45 Win a1 O c) : sProp 𝕄) := by
  have hjoin := Pipeline.unscopedBufs_of_arrays (p := ()) (fun (_ : Unit) => pcfg45 (F := F)) (fun _ => a1)
    (Ix := Unit) (Name := ℕ) (U := UD sig nD τ) (Lvl := ℕ)
    winFacts45 (launch45 (F := F)).arr_whole c (fun _ c => dat45 (Vof Win) a1 O c)
    ((dat45 (Vof Win) a1 O c).share_full fun _ => rfl)
    (Vof Win c) (Vof (Wout45 Win a1 O) c) ((dat45 (Vof Win) a1 O c).arrAt · (cfg45 a1).N)
    (fun w => (Wout45_arr Win a1 O c w).symm)
    (fun b hb => Wout45_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts45 c (Vof Win c),
    Pipeline.unscopedRestP_sdiff pre45 spec45 {main_v141} hx_sub45 c (Vof Win c),
    show (fun k => Vof Win c (pre45.ref k)) = a1.1 from funext ha1] at hjoin
  exact hjoin

end Record

section Seg

variable (Win : Dev nD → Valuation τ sig (Elt F))
  (adm : (p : Fin 49) → (pcfgs (F := F) p).Adm)
  (O : (c : Dev nD) → Fin (cfg45 (adm (45 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout45. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg45 (hd : ∀ c, pdats (45 : Fin 49) c = dat45 (Vof Win) (adm (45 : Fin 49)) O c)
    (ha1 : ∀ c k, Vof Win c (pre45.ref k) = (adm (45 : Fin 49)).1 k)
    (hbody : ∀ c, BodyObligation (dat45 (F := F) (Vof Win) (adm (45 : Fin 49)) O c) (defs₀ (F := F)) 𝒱₀ () Set.univ) :
    Pipeline.RegionSeg (pcfgs (F := F)) adm pdats () defs₀ 𝒱₀ L lv (45 : Fin 49) where
  win := (launch45 (F := F)).win.to₀
  block_pos := (launch45 (F := F)).block_pos
  stage_whole := (launch45 (F := F)).stage_whole
  K := Fin 8
  osem := osem45
  ho := ownSemFacts45
  hbody c := by rw [hd c]; exact (hbody c).loose
  hwaits := Pipeline.hwaits_of_owed_zero _ _ _ _ L lv (45 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout45 Win (adm (45 : Fin 49)) O c) ∗ R c)
  X c := iprop((∃ r, prngReg c r)
    ∗ Pipeline.ownSems0 (Ix := Unit) (Name := ℕ) (U := UD sig nD τ) (Lvl := ℕ) (Val := Elt F) (τ := τ) osem45 c
    ∗ (bigSep ({main_v141} : Finset (Ref sig .tc)) fun b => (((c : Thread nD τ)).loc b) ↦{fullShare} Vof Win c b))
  Y c := iprop((∃ r, prngReg c r)
    ∗ (bigSep ({main_v141} : Finset (Ref sig .tc)) fun b => (((c : Thread nD τ)).loc b) ↦{fullShare} Vof Win c b)
    ∗ Pipeline.prefHeld pre45 c (fun _ => fullShare) (adm (45 : Fin 49)).1)
  Z c := bigSep (Pipeline.restRefsP sig pre45 spec45 \ {main_v141}) fun b => (((c : Thread nD τ)).loc b) ↦{fullShare} Vof Win c b
  hentry c := by
    rw [hd c]
    iintro ⟨⟨Hub, Hp, HO⟩, Hos, -⟩
    ihave H := (entry45 Win (adm (45 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq45, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq45, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit45 Win (adm (45 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg45 (F := F)).Adm)

/-- The output block at point t: the gathered rows (of the far operand's contents under V, chosen by the table's
    words at that point) times the input block. -/
def outBlk45 (c : Dev nD) (t : Fin (cfg45 a1).N) : Vec F S8x64 .f32 :=
  gatherOut (gatherG (a1.1 0) (V c main_v141) (grid45.coords t)) (iblk45 V a1 c 0 t)

theorem outBlk_eq45 (c : Dev nD) (t : Fin (cfg45 a1).N) :
    outBlk45 V a1 c t = gatherOut (gatherG (a1.1 0) (V c main_v141) (grid45.coords t)) (iblk45 V a1 c 0 t) := rfl

/-- The proof data with the output block named: after the body at point t the output window's buffer holds it. -/
theorem afterOutBlk45 (c : Dev nD) (t : Fin (cfg45 a1).N) :
    (dat45 V a1 (outBlk45 V a1) c).after 1 t
      = gatherOut (gatherG (a1.1 0) (V c main_v141) (grid45.coords t)) (iblk45 V a1 c 0 t) :=
  afterOut45 V a1 (outBlk45 V a1) c t

/-- The own cells at zero are the semaphore array's eight entries at zero, in order. -/
theorem ownSems_eq45 (c : Dev nD) :
    (Pipeline.ownSems0 (Ix := Unit) (Name := ℕ) (U := UD sig nD τ) (Lvl := ℕ) (Val := Elt F) (τ := τ) osem45 c : sProp 𝕄)
      = gsems0 c cc45_scratch1 := by
  rw [Pipeline.ownSems0_eq_of_list c osem45 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq45 (t : Fin (cfg45 a1).N) : ∃ h3 h4, bodyProg45 (F := F) a1 t
    = cc45__gather_mul_kernel (grid45.coords t) (Memref.whole main_v191) (Memref.isWhole_whole _) (Memref.whole main_v141) (Memref.isWhole_whole _)
        (stg45 a1 0 t) h3 (stg45 a1 1 t) h4 (Memref.whole cc45_scratch0) (Memref.isWhole_whole _) cc45_scratch1 := ⟨_, _, rfl⟩

end Out

/-! ## The body's run, joined to the proof data -/

section Body

variable (V : (c : Dev nD) → (b : Ref sig .tc) → Buf (Elt F) ((c : Thread nD τ).loc b))
  (a1 : (pcfg45 (F := F)).Adm)

/-- The scratch buffer whole at some contents, as a memref owned at some contents. -/
theorem scratchOwns_eq45 (c : Dev nD) :
    (iprop(∃ d, owns (c : Thread nD τ) (Memref.whole cc45_scratch0) fullShare d) : sProp 𝕄)
      = iprop(∃ f : Buf (Elt F) ((c : Thread nD τ).loc cc45_scratch0), ((c : Thread nD τ).loc cc45_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun45 (hlt : ∀ y, BitVec.toNat ((a1.1 0) y) < 100000) : BodyRun45 V a1 (outBlk45 V a1) := by
  intro c t W K
  obtain ⟨h3, h4, hprog⟩ := bodyProg_eq45 (F := F) a1 t
  rw [hprog, ownSems_eq45, ← scratchOwns_eq45 (F := F) c]
  have hrun := gather_kernel_run_45 (F := F) c (grid45.coords t) (Memref.whole main_v191) (Memref.isWhole_whole _) (Memref.whole main_v141) (Memref.isWhole_whole _)
    (stg45 a1 0 t) h3 (stg45 a1 1 t) h4 (Memref.whole cc45_scratch0) (Memref.isWhole_whole _) cc45_scratch1 fullShare fullShare
    (a1.1 0) (V c main_v141) (iblk45 V a1 c 0 t) (fun y => hlt y) W K
  simp only [Memref.view_whole, View.read_whole] at hrun
  unfold outBlk45
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut45 (hlt : ∀ y, BitVec.toNat ((a1.1 0) y) < 100000) (c : Dev nD) :
    BodyObligation (dat45 (F := F) V a1 (outBlk45 V a1) c) (defs₀ (F := F)) Variants.none () Set.univ :=
  body_obligation45 V a1 (outBlk45 V a1) (bodyRun45 V a1 hlt) c

end Body

/-! # Region 46 -/

/-! ## The body's own transfer cells -/

/-- The eight cells of the body's semaphore array, in order. -/
abbrev osem46 : Fin 8 → SemLoc sig := fun j => SemLoc.dma (cc46_scratch1.ix (fun | ⟨0, _⟩ => j))

/-- They are scoped, pairwise distinct, and none is a staging cell of a window. -/
theorem ownSemFacts46 : Pipeline.OwnSemFacts spec46 osem46 := by decide

/-- The far operand is an unscoped buffer that is neither a window's array nor a table. -/
theorem hx_sub46 : ({main_v141} : Finset (Ref sig .tc)) ⊆ Pipeline.restRefsP sig pre46 spec46 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg46 (F := F)).Adm)
  (O : (c : Dev nD) → Fin (cfg46 a1).N → Vec F S8x64 .f32)

/-! ## The windows' blocks -/

/-- Window w's block at point t, read off its array under V. -/
def iblk46 (c : Dev nD) (w : Fin (cfg46 a1).W) (t : Fin (cfg46 a1).N) :
    (((cfg46 a1).win w).xblock ((cfg46 a1).grid.coords t)).Idx → Elt F ((cfg46 a1).win w).elt :=
  (((cfg46 a1).win w).blk t).view.read (Elt F) (V c (Pipeline.arrRef spec46 w))

/-- The input window's current staging buffer holds its block at every point, fetched there or not, for any proof
    data whose array is V's and whose body leaves the block in place: unfetched, the block index has not moved. -/
theorem beforeIn46_of {c : Dev nD} (dat : Dat τ (Elt F) Unit ℕ (UD sig nD τ) ℕ (cfg46 a1) c)
    (hA : dat.A 0 = V c (Pipeline.arrRef spec46 0))
    (hafter : ∀ t, dat.after 0 t = iblk46 V a1 c 0 t) (t : Fin (cfg46 a1).N) (d) : dat.before 0 t d = iblk46 V a1 c 0 t :=
  (dat.before_in_eq_fetched 0 rfl (fun _ => rfl) (fun _ _ _ => rfl)
    (fun t => by rw [hafter]; unfold Dat.blockOf iblk46; rw [hA]; try rfl) t d).trans
    (by unfold Dat.fetched Dat.blockOf iblk46; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat46 (c : Dev nD) : Dat τ (Elt F) Unit ℕ (UD sig nD τ) ℕ (cfg46 a1) c where
  A w := V c (Pipeline.arrRef spec46 w)
  after w t := match w with
    | ⟨0, _⟩ => iblk46 V a1 c 0 t
    | ⟨1, _⟩ => O c t
  Φ _ := iprop(Pipeline.ΦD osem46 spec46 {main_v141} V c ∗ Pipeline.prefHeld pre46 c (fun _ => fullShare) a1.1)
  q _ := fullShare
  owed _ := 0

theorem A_eq46 (c : Dev nD) (w : Fin (cfg46 a1).W) : (dat46 V a1 O c).A w = V c (Pipeline.arrRef spec46 w) := by
  dsimp only [dat46]

theorem afterIn46 (c : Dev nD) (t : Fin (cfg46 a1).N) : (dat46 V a1 O c).after 0 t = iblk46 V a1 c 0 t := by
  dsimp only [dat46]; rfl

theorem afterOut46 (c : Dev nD) (t : Fin (cfg46 a1).N) :
    (dat46 V a1 O c).after 1 t = O c t := by
  dsimp only [dat46]; rfl

theorem beforeIn46 (c : Dev nD) (t : Fin (cfg46 a1).N) (d) : (dat46 V a1 O c).before 0 t d = iblk46 V a1 c 0 t :=
  beforeIn46_of V a1 (dat46 V a1 O c) (A_eq46 V a1 O c 0) (afterIn46 V a1 O c) t d

theorem Phi_eq46 (c : Dev nD) (t : Fin ((cfg46 a1).N + 1)) :
    (dat46 V a1 O c).Φ t
      = iprop(Pipeline.ΦD osem46 spec46 {main_v141} V c ∗ Pipeline.prefHeld pre46 c (fun _ => fullShare) a1.1) := by
  dsimp only [dat46]

theorem owed_eq46 (c : Dev nD) (t : Fin ((cfg46 a1).N + 1)) : (dat46 V a1 O c).owed t = 0 := by
  dsimp only [dat46]

/-! ## The invariant, conjunct by conjunct -/

/-- The invariant's first part opened: the body's scratch buffer whole at some contents and the other scoped
    buffers no window stages, the generator register, the own cells at zero, the far operand at its contents. -/
theorem PhiD_eq46 (c : Dev nD) :
    (Pipeline.ΦD osem46 spec46 {main_v141} V c : sProp 𝕄)
      = iprop(iprop(iprop((∃ f : Buf (Elt F) ((c : Thread nD τ).loc cc46_scratch0), ((c : Thread nD τ).loc cc46_scratch0) ↦{fullShare} f))
            ∗ Pipeline.scopedRestBut (Ix := Unit) (Name := ℕ) (U := UD sig nD τ) (Lvl := ℕ) (Val := Elt F) spec46 c [cc46_scratch0])
          ∗ (∃ r, prngReg c r)
          ∗ Pipeline.ownSems0 (Ix := Unit) (Name := ℕ) (U := UD sig nD τ) (Lvl := ℕ) (Val := Elt F) (τ := τ) osem46 c
          ∗ (((c : Thread nD τ).loc main_v141) ↦{fullShare} V c main_v141)) := by
  rw [Pipeline.ΦD_eq, scopedRest46_split, BI.bigSep_eq_bigSepL_of_eq [main_v141] (by decide) (by decide)]; rfl

/-- The one table, held whole. -/
theorem prefHeld_eq46 (c : Dev nD) :
    (Pipeline.prefHeld pre46 c (fun _ => fullShare) a1.1 : sProp 𝕄)
      = (((c : Thread nD τ).loc main_v195) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg46 (w : Fin (cfg46 a1).W) (t : Fin (cfg46 a1).N) := ((cfg46 a1).win w).stage ((cfg46 a1).slots t w)

/-- The body as the pipeline calls it at point t. -/
abbrev bodyProg46 (t : Fin (cfg46 a1).N) : Prog (TpuEff nD τ sig (Elt F) Λ₀ .tc) PUnit :=
  (defs₀ (F := F)) .tc (cfg46 a1).body ((cfg46 a1).bodyArgs t ((cfg46 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun46 : Prop :=
  ∀ (c : Dev nD) (t : Fin (cfg46 a1).N) (W) (K : PUnit → sProp 𝕄),
    iprop(owns (c : Thread nD τ) (stg46 a1 0 t) fullShare (iblk46 V a1 c 0 t)
        ∗ (∃ d, owns (c : Thread nD τ) (stg46 a1 1 t) fullShare d)
        ∗ (∃ f : Buf (Elt F) ((c : Thread nD τ).loc cc46_scratch0), ((c : Thread nD τ).loc cc46_scratch0) ↦{fullShare} f)
        ∗ Pipeline.ownSems0 (Ix := Unit) (Name := ℕ) (U := UD sig nD τ) (Lvl := ℕ) (Val := Elt F) (τ := τ) osem46 c
        ∗ (((c : Thread nD τ).loc main_v195) ↦{fullShare} a1.1 0)
        ∗ (((c : Thread nD τ).loc main_v141) ↦{fullShare} V c main_v141)
        ∗ owes (c : Thread nD τ) (0 : CellTallies nD τ sig Unit) W
        ∗ (iprop(owns (c : Thread nD τ) (stg46 a1 0 t) fullShare (iblk46 V a1 c 0 t)
            ∗ owns (c : Thread nD τ) (stg46 a1 1 t) fullShare (O c t)
            ∗ (∃ f : Buf (Elt F) ((c : Thread nD τ).loc cc46_scratch0), ((c : Thread nD τ).loc cc46_scratch0) ↦{fullShare} f)
            ∗ Pipeline.ownSems0 (Ix := Unit) (Name := ℕ) (U := UD sig nD τ) (Lvl := ℕ) (Val := Elt F) (τ := τ) osem46 c
            ∗ (((c : Thread nD τ).loc main_v195) ↦{fullShare} a1.1 0)
            ∗ (((c : Thread nD τ).loc main_v141) ↦{fullShare} V c main_v141)
            ∗ (∃ W', owes (c : Thread nD τ) (0 : CellTallies nD τ sig Unit) W')) -∗ K ⟨⟩))
      ⊢ wp frame (wpE (defs₀ (F := F)) Variants.none c none) Set.univ (bodyProg46 a1 t) K

/-- What the body is called with at point t, the windows one by one, -/
def bodyPre46 (c : Dev nD) (t : Fin (cfg46 a1).N) : sProp 𝕄 :=
  iprop((dat46 V a1 O c).Φ t.castSucc ∗ (dat46 V a1 O c).owesAt () t.castSucc
    ∗ (∃ d, owns (c : Thread nD τ) (stg46 a1 0 t) fullShare ((dat46 V a1 O c).before 0 t d))
    ∗ (∃ d, owns (c : Thread nD τ) (stg46 a1 1 t) fullShare ((dat46 V a1 O c).before 1 t d)))

/-- and what it returns. -/
def bodyPost46 (c : Dev nD) (t : Fin (cfg46 a1).N) : sProp 𝕄 :=
  iprop((dat46 V a1 O c).Φ t.succ ∗ (dat46 V a1 O c).owesAt () t.succ
    ∗ owns (c : Thread nD τ) (stg46 a1 0 t) fullShare ((dat46 V a1 O c).after 0 t)
    ∗ owns (c : Thread nD τ) (stg46 a1 1 t) fullShare ((dat46 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body46 (hrun : BodyRun46 V a1 O) (c : Dev nD) (t : Fin (cfg46 a1).N) :
    bodyPre46 V a1 O c t
      ⊢ wp frame (wpE (defs₀ (F := F)) Variants.none c none) Set.univ (bodyProg46 a1 t) (fun _ => bodyPost46 V a1 O c t) := by
  unfold bodyPre46 bodyPost46
  simp only [beforeIn46]
  rw [afterIn46, afterOut46, Phi_eq46, Phi_eq46, PhiD_eq46, prefHeld_eq46]
  unfold Dat.owesAt Pipeline.owesWithin
  rw [owed_eq46, owed_eq46]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation46 (hrun : BodyRun46 V a1 O) (c : Dev nD) :
    BodyObligation (dat46 (F := F) V a1 O c) (defs₀ (F := F)) Variants.none () Set.univ := fun t => by
  rw [bigSep_W46, bigSep_W46]
  exact sound_body46 V a1 O hrun c t

end Data

/-! ## The region's record -/

section Record

variable (Win : Dev nD → Valuation τ sig (Elt F))

variable (a1 : (pcfg46 (F := F)).Adm)
  (O : (c : Dev nD) → Fin (cfg46 a1).N → Vec F S8x64 .f32)

/-- The buffers at the region's exit: its arrays at what the write-backs leave, every other buffer as entered. -/
def Wout46 (c : Dev nD) : Valuation τ sig (Elt F) :=
  Pipeline.withArrays spec46 c (Win c) fun w => (dat46 (Vof Win) a1 O c).arrAt w (cfg46 a1).N

theorem Wout46_arr (c : Dev nD) (w : Fin (cfg46 a1).W) :
    Wout46 Win a1 O c (Proc.devRef .tc (Pipeline.arrRef spec46 w)) = (dat46 (Vof Win) a1 O c).arrAt w (cfg46 a1).N := by
  unfold Wout46; exact Pipeline.withArrays_arr spec46 winFacts46.arr_inj c _ _ w

theorem Wout46_of_ne (c : Dev nD) (b : Ref sig .tc) (hb : ∀ w, Pipeline.arrRef spec46 w ≠ b) :
    Wout46 Win a1 O c (Proc.devRef .tc b) = Win c (Proc.devRef .tc b) := by
  unfold Wout46; exact Pipeline.withArrays_of_ne spec46 c _ _ b hb

/-- ENTRY, the buffers' part. Every unscoped buffer at Win is: the region's arrays at the proof data's entry contents,
    the table whole at the admissible contents (which are Win's there), the far operand whole, and the others. -/
theorem entry46 (c : Dev nD) (ha1 : ∀ k, Vof Win c (pre46.ref k) = a1.1 k) :
    (StableHlo.held (c : Thread nD τ) (Pipeline.ucRefs τ sig) (Win c) : sProp 𝕄)
      ⊢ iprop((dat46 (Vof Win) a1 O c).arrays ((dat46 (Vof Win) a1 O c).arrAt · 0)
          ∗ Pipeline.prefHeld pre46 c (fun _ => fullShare) a1.1
          ∗ (bigSep ({main_v141} : Finset (Ref sig .tc)) fun b => (((c : Thread nD τ)).loc b) ↦{fullShare} Vof Win c b)
          ∗ bigSep (Pipeline.restRefsP sig pre46 spec46 \ {main_v141}) fun b => (((c : Thread nD τ)).loc b) ↦{fullShare} Vof Win c b) := by
  have hsplit := Pipeline.arrays_of_unscopedBufs (p := ()) (fun (_ : Unit) => pcfg46 (F := F)) (fun _ => a1)
    (fun _ c => dat46 (Vof Win) a1 O c) winFacts46 (launch46 (F := F)).arr_whole c
    ((dat46 (Vof Win) a1 O c).share_full fun _ => rfl) (Vof Win c) (fun w => A_eq46 (Vof Win) a1 O c w)
  rw [Pipeline.unscopedBufs_held,
    Pipeline.unscopedRest_split (Ix := Unit) (Name := ℕ) (U := UD sig nD τ) (Lvl := ℕ) preFacts46 c (Vof Win c),
    Pipeline.unscopedRestP_sdiff pre46 spec46 {main_v141} hx_sub46 c (Vof Win c),
    show (fun k => Vof Win c (pre46.ref k)) = a1.1 from funext ha1] at hsplit
  exact hsplit

/-- EXIT, the buffers' part: the same four put back, the arrays at what the write-backs leave, are every unscoped
    buffer at the exit valuation. -/
theorem exit46 (c : Dev nD) (ha1 : ∀ k, Vof Win c (pre46.ref k) = a1.1 k) :
    iprop((dat46 (Vof Win) a1 O c).arrays ((dat46 (Vof Win) a1 O c).arrAt · (cfg46 a1).N)
        ∗ Pipeline.prefHeld pre46 c (fun _ => fullShare) a1.1
        ∗ (bigSep ({main_v141} : Finset (Ref sig .tc)) fun b => (((c : Thread nD τ)).loc b) ↦{fullShare} Vof Win c b)
        ∗ bigSep (Pipeline.restRefsP sig pre46 spec46 \ {main_v141}) fun b => (((c : Thread nD τ)).loc b) ↦{fullShare} Vof Win c b)
      ⊢ (StableHlo.held (c : Thread nD τ) (Pipeline.ucRefs τ sig) (Wout46 Win a1 O c) : sProp 𝕄) := by
  have hjoin := Pipeline.unscopedBufs_of_arrays (p := ()) (fun (_ : Unit) => pcfg46 (F := F)) (fun _ => a1)
    (Ix := Unit) (Name := ℕ) (U := UD sig nD τ) (Lvl := ℕ)
    winFacts46 (launch46 (F := F)).arr_whole c (fun _ c => dat46 (Vof Win) a1 O c)
    ((dat46 (Vof Win) a1 O c).share_full fun _ => rfl)
    (Vof Win c) (Vof (Wout46 Win a1 O) c) ((dat46 (Vof Win) a1 O c).arrAt · (cfg46 a1).N)
    (fun w => (Wout46_arr Win a1 O c w).symm)
    (fun b hb => Wout46_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts46 c (Vof Win c),
    Pipeline.unscopedRestP_sdiff pre46 spec46 {main_v141} hx_sub46 c (Vof Win c),
    show (fun k => Vof Win c (pre46.ref k)) = a1.1 from funext ha1] at hjoin
  exact hjoin

end Record

section Seg

variable (Win : Dev nD → Valuation τ sig (Elt F))
  (adm : (p : Fin 49) → (pcfgs (F := F) p).Adm)
  (O : (c : Dev nD) → Fin (cfg46 (adm (46 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout46. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg46 (hd : ∀ c, pdats (46 : Fin 49) c = dat46 (Vof Win) (adm (46 : Fin 49)) O c)
    (ha1 : ∀ c k, Vof Win c (pre46.ref k) = (adm (46 : Fin 49)).1 k)
    (hbody : ∀ c, BodyObligation (dat46 (F := F) (Vof Win) (adm (46 : Fin 49)) O c) (defs₀ (F := F)) 𝒱₀ () Set.univ) :
    Pipeline.RegionSeg (pcfgs (F := F)) adm pdats () defs₀ 𝒱₀ L lv (46 : Fin 49) where
  win := (launch46 (F := F)).win.to₀
  block_pos := (launch46 (F := F)).block_pos
  stage_whole := (launch46 (F := F)).stage_whole
  K := Fin 8
  osem := osem46
  ho := ownSemFacts46
  hbody c := by rw [hd c]; exact (hbody c).loose
  hwaits := Pipeline.hwaits_of_owed_zero _ _ _ _ L lv (46 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout46 Win (adm (46 : Fin 49)) O c) ∗ R c)
  X c := iprop((∃ r, prngReg c r)
    ∗ Pipeline.ownSems0 (Ix := Unit) (Name := ℕ) (U := UD sig nD τ) (Lvl := ℕ) (Val := Elt F) (τ := τ) osem46 c
    ∗ (bigSep ({main_v141} : Finset (Ref sig .tc)) fun b => (((c : Thread nD τ)).loc b) ↦{fullShare} Vof Win c b))
  Y c := iprop((∃ r, prngReg c r)
    ∗ (bigSep ({main_v141} : Finset (Ref sig .tc)) fun b => (((c : Thread nD τ)).loc b) ↦{fullShare} Vof Win c b)
    ∗ Pipeline.prefHeld pre46 c (fun _ => fullShare) (adm (46 : Fin 49)).1)
  Z c := bigSep (Pipeline.restRefsP sig pre46 spec46 \ {main_v141}) fun b => (((c : Thread nD τ)).loc b) ↦{fullShare} Vof Win c b
  hentry c := by
    rw [hd c]
    iintro ⟨⟨Hub, Hp, HO⟩, Hos, -⟩
    ihave H := (entry46 Win (adm (46 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq46, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq46, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit46 Win (adm (46 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg46 (F := F)).Adm)

/-- The output block at point t: the gathered rows (of the far operand's contents under V, chosen by the table's
    words at that point) times the input block. -/
def outBlk46 (c : Dev nD) (t : Fin (cfg46 a1).N) : Vec F S8x64 .f32 :=
  gatherOut (gatherG (a1.1 0) (V c main_v141) (grid46.coords t)) (iblk46 V a1 c 0 t)

theorem outBlk_eq46 (c : Dev nD) (t : Fin (cfg46 a1).N) :
    outBlk46 V a1 c t = gatherOut (gatherG (a1.1 0) (V c main_v141) (grid46.coords t)) (iblk46 V a1 c 0 t) := rfl

/-- The proof data with the output block named: after the body at point t the output window's buffer holds it. -/
theorem afterOutBlk46 (c : Dev nD) (t : Fin (cfg46 a1).N) :
    (dat46 V a1 (outBlk46 V a1) c).after 1 t
      = gatherOut (gatherG (a1.1 0) (V c main_v141) (grid46.coords t)) (iblk46 V a1 c 0 t) :=
  afterOut46 V a1 (outBlk46 V a1) c t

/-- The own cells at zero are the semaphore array's eight entries at zero, in order. -/
theorem ownSems_eq46 (c : Dev nD) :
    (Pipeline.ownSems0 (Ix := Unit) (Name := ℕ) (U := UD sig nD τ) (Lvl := ℕ) (Val := Elt F) (τ := τ) osem46 c : sProp 𝕄)
      = gsems0 c cc46_scratch1 := by
  rw [Pipeline.ownSems0_eq_of_list c osem46 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq46 (t : Fin (cfg46 a1).N) : ∃ h3 h4, bodyProg46 (F := F) a1 t
    = cc46__gather_mul_kernel (grid46.coords t) (Memref.whole main_v195) (Memref.isWhole_whole _) (Memref.whole main_v141) (Memref.isWhole_whole _)
        (stg46 a1 0 t) h3 (stg46 a1 1 t) h4 (Memref.whole cc46_scratch0) (Memref.isWhole_whole _) cc46_scratch1 := ⟨_, _, rfl⟩

end Out

/-! ## The body's run, joined to the proof data -/

section Body

variable (V : (c : Dev nD) → (b : Ref sig .tc) → Buf (Elt F) ((c : Thread nD τ).loc b))
  (a1 : (pcfg46 (F := F)).Adm)

/-- The scratch buffer whole at some contents, as a memref owned at some contents. -/
theorem scratchOwns_eq46 (c : Dev nD) :
    (iprop(∃ d, owns (c : Thread nD τ) (Memref.whole cc46_scratch0) fullShare d) : sProp 𝕄)
      = iprop(∃ f : Buf (Elt F) ((c : Thread nD τ).loc cc46_scratch0), ((c : Thread nD τ).loc cc46_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun46 (hlt : ∀ y, BitVec.toNat ((a1.1 0) y) < 100000) : BodyRun46 V a1 (outBlk46 V a1) := by
  intro c t W K
  obtain ⟨h3, h4, hprog⟩ := bodyProg_eq46 (F := F) a1 t
  rw [hprog, ownSems_eq46, ← scratchOwns_eq46 (F := F) c]
  have hrun := gather_kernel_run_46 (F := F) c (grid46.coords t) (Memref.whole main_v195) (Memref.isWhole_whole _) (Memref.whole main_v141) (Memref.isWhole_whole _)
    (stg46 a1 0 t) h3 (stg46 a1 1 t) h4 (Memref.whole cc46_scratch0) (Memref.isWhole_whole _) cc46_scratch1 fullShare fullShare
    (a1.1 0) (V c main_v141) (iblk46 V a1 c 0 t) (fun y => hlt y) W K
  simp only [Memref.view_whole, View.read_whole] at hrun
  unfold outBlk46
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut46 (hlt : ∀ y, BitVec.toNat ((a1.1 0) y) < 100000) (c : Dev nD) :
    BodyObligation (dat46 (F := F) V a1 (outBlk46 V a1) c) (defs₀ (F := F)) Variants.none () Set.univ :=
  body_obligation46 V a1 (outBlk46 V a1) (bodyRun46 V a1 hlt) c

end Body

/-! # Region 47 -/

/-! ## The body's own transfer cells -/

/-- The eight cells of the body's semaphore array, in order. -/
abbrev osem47 : Fin 8 → SemLoc sig := fun j => SemLoc.dma (cc47_scratch1.ix (fun | ⟨0, _⟩ => j))

/-- They are scoped, pairwise distinct, and none is a staging cell of a window. -/
theorem ownSemFacts47 : Pipeline.OwnSemFacts spec47 osem47 := by decide

/-- The far operand is an unscoped buffer that is neither a window's array nor a table. -/
theorem hx_sub47 : ({main_v141} : Finset (Ref sig .tc)) ⊆ Pipeline.restRefsP sig pre47 spec47 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg47 (F := F)).Adm)
  (O : (c : Dev nD) → Fin (cfg47 a1).N → Vec F S8x64 .f32)

/-! ## The windows' blocks -/

/-- Window w's block at point t, read off its array under V. -/
def iblk47 (c : Dev nD) (w : Fin (cfg47 a1).W) (t : Fin (cfg47 a1).N) :
    (((cfg47 a1).win w).xblock ((cfg47 a1).grid.coords t)).Idx → Elt F ((cfg47 a1).win w).elt :=
  (((cfg47 a1).win w).blk t).view.read (Elt F) (V c (Pipeline.arrRef spec47 w))

/-- The input window's current staging buffer holds its block at every point, fetched there or not, for any proof
    data whose array is V's and whose body leaves the block in place: unfetched, the block index has not moved. -/
theorem beforeIn47_of {c : Dev nD} (dat : Dat τ (Elt F) Unit ℕ (UD sig nD τ) ℕ (cfg47 a1) c)
    (hA : dat.A 0 = V c (Pipeline.arrRef spec47 0))
    (hafter : ∀ t, dat.after 0 t = iblk47 V a1 c 0 t) (t : Fin (cfg47 a1).N) (d) : dat.before 0 t d = iblk47 V a1 c 0 t :=
  (dat.before_in_eq_fetched 0 rfl (fun _ => rfl) (fun _ _ _ => rfl)
    (fun t => by rw [hafter]; unfold Dat.blockOf iblk47; rw [hA]; try rfl) t d).trans
    (by unfold Dat.fetched Dat.blockOf iblk47; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat47 (c : Dev nD) : Dat τ (Elt F) Unit ℕ (UD sig nD τ) ℕ (cfg47 a1) c where
  A w := V c (Pipeline.arrRef spec47 w)
  after w t := match w with
    | ⟨0, _⟩ => iblk47 V a1 c 0 t
    | ⟨1, _⟩ => O c t
  Φ _ := iprop(Pipeline.ΦD osem47 spec47 {main_v141} V c ∗ Pipeline.prefHeld pre47 c (fun _ => fullShare) a1.1)
  q _ := fullShare
  owed _ := 0

theorem A_eq47 (c : Dev nD) (w : Fin (cfg47 a1).W) : (dat47 V a1 O c).A w = V c (Pipeline.arrRef spec47 w) := by
  dsimp only [dat47]

theorem afterIn47 (c : Dev nD) (t : Fin (cfg47 a1).N) : (dat47 V a1 O c).after 0 t = iblk47 V a1 c 0 t := by
  dsimp only [dat47]; rfl

theorem afterOut47 (c : Dev nD) (t : Fin (cfg47 a1).N) :
    (dat47 V a1 O c).after 1 t = O c t := by
  dsimp only [dat47]; rfl

theorem beforeIn47 (c : Dev nD) (t : Fin (cfg47 a1).N) (d) : (dat47 V a1 O c).before 0 t d = iblk47 V a1 c 0 t :=
  beforeIn47_of V a1 (dat47 V a1 O c) (A_eq47 V a1 O c 0) (afterIn47 V a1 O c) t d

theorem Phi_eq47 (c : Dev nD) (t : Fin ((cfg47 a1).N + 1)) :
    (dat47 V a1 O c).Φ t
      = iprop(Pipeline.ΦD osem47 spec47 {main_v141} V c ∗ Pipeline.prefHeld pre47 c (fun _ => fullShare) a1.1) := by
  dsimp only [dat47]

theorem owed_eq47 (c : Dev nD) (t : Fin ((cfg47 a1).N + 1)) : (dat47 V a1 O c).owed t = 0 := by
  dsimp only [dat47]

/-! ## The invariant, conjunct by conjunct -/

/-- The invariant's first part opened: the body's scratch buffer whole at some contents and the other scoped
    buffers no window stages, the generator register, the own cells at zero, the far operand at its contents. -/
theorem PhiD_eq47 (c : Dev nD) :
    (Pipeline.ΦD osem47 spec47 {main_v141} V c : sProp 𝕄)
      = iprop(iprop(iprop((∃ f : Buf (Elt F) ((c : Thread nD τ).loc cc47_scratch0), ((c : Thread nD τ).loc cc47_scratch0) ↦{fullShare} f))
            ∗ Pipeline.scopedRestBut (Ix := Unit) (Name := ℕ) (U := UD sig nD τ) (Lvl := ℕ) (Val := Elt F) spec47 c [cc47_scratch0])
          ∗ (∃ r, prngReg c r)
          ∗ Pipeline.ownSems0 (Ix := Unit) (Name := ℕ) (U := UD sig nD τ) (Lvl := ℕ) (Val := Elt F) (τ := τ) osem47 c
          ∗ (((c : Thread nD τ).loc main_v141) ↦{fullShare} V c main_v141)) := by
  rw [Pipeline.ΦD_eq, scopedRest47_split, BI.bigSep_eq_bigSepL_of_eq [main_v141] (by decide) (by decide)]; rfl

/-- The one table, held whole. -/
theorem prefHeld_eq47 (c : Dev nD) :
    (Pipeline.prefHeld pre47 c (fun _ => fullShare) a1.1 : sProp 𝕄)
      = (((c : Thread nD τ).loc main_v199) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg47 (w : Fin (cfg47 a1).W) (t : Fin (cfg47 a1).N) := ((cfg47 a1).win w).stage ((cfg47 a1).slots t w)

/-- The body as the pipeline calls it at point t. -/
abbrev bodyProg47 (t : Fin (cfg47 a1).N) : Prog (TpuEff nD τ sig (Elt F) Λ₀ .tc) PUnit :=
  (defs₀ (F := F)) .tc (cfg47 a1).body ((cfg47 a1).bodyArgs t ((cfg47 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun47 : Prop :=
  ∀ (c : Dev nD) (t : Fin (cfg47 a1).N) (W) (K : PUnit → sProp 𝕄),
    iprop(owns (c : Thread nD τ) (stg47 a1 0 t) fullShare (iblk47 V a1 c 0 t)
        ∗ (∃ d, owns (c : Thread nD τ) (stg47 a1 1 t) fullShare d)
        ∗ (∃ f : Buf (Elt F) ((c : Thread nD τ).loc cc47_scratch0), ((c : Thread nD τ).loc cc47_scratch0) ↦{fullShare} f)
        ∗ Pipeline.ownSems0 (Ix := Unit) (Name := ℕ) (U := UD sig nD τ) (Lvl := ℕ) (Val := Elt F) (τ := τ) osem47 c
        ∗ (((c : Thread nD τ).loc main_v199) ↦{fullShare} a1.1 0)
        ∗ (((c : Thread nD τ).loc main_v141) ↦{fullShare} V c main_v141)
        ∗ owes (c : Thread nD τ) (0 : CellTallies nD τ sig Unit) W
        ∗ (iprop(owns (c : Thread nD τ) (stg47 a1 0 t) fullShare (iblk47 V a1 c 0 t)
            ∗ owns (c : Thread nD τ) (stg47 a1 1 t) fullShare (O c t)
            ∗ (∃ f : Buf (Elt F) ((c : Thread nD τ).loc cc47_scratch0), ((c : Thread nD τ).loc cc47_scratch0) ↦{fullShare} f)
            ∗ Pipeline.ownSems0 (Ix := Unit) (Name := ℕ) (U := UD sig nD τ) (Lvl := ℕ) (Val := Elt F) (τ := τ) osem47 c
            ∗ (((c : Thread nD τ).loc main_v199) ↦{fullShare} a1.1 0)
            ∗ (((c : Thread nD τ).loc main_v141) ↦{fullShare} V c main_v141)
            ∗ (∃ W', owes (c : Thread nD τ) (0 : CellTallies nD τ sig Unit) W')) -∗ K ⟨⟩))
      ⊢ wp frame (wpE (defs₀ (F := F)) Variants.none c none) Set.univ (bodyProg47 a1 t) K

/-- What the body is called with at point t, the windows one by one, -/
def bodyPre47 (c : Dev nD) (t : Fin (cfg47 a1).N) : sProp 𝕄 :=
  iprop((dat47 V a1 O c).Φ t.castSucc ∗ (dat47 V a1 O c).owesAt () t.castSucc
    ∗ (∃ d, owns (c : Thread nD τ) (stg47 a1 0 t) fullShare ((dat47 V a1 O c).before 0 t d))
    ∗ (∃ d, owns (c : Thread nD τ) (stg47 a1 1 t) fullShare ((dat47 V a1 O c).before 1 t d)))

/-- and what it returns. -/
def bodyPost47 (c : Dev nD) (t : Fin (cfg47 a1).N) : sProp 𝕄 :=
  iprop((dat47 V a1 O c).Φ t.succ ∗ (dat47 V a1 O c).owesAt () t.succ
    ∗ owns (c : Thread nD τ) (stg47 a1 0 t) fullShare ((dat47 V a1 O c).after 0 t)
    ∗ owns (c : Thread nD τ) (stg47 a1 1 t) fullShare ((dat47 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body47 (hrun : BodyRun47 V a1 O) (c : Dev nD) (t : Fin (cfg47 a1).N) :
    bodyPre47 V a1 O c t
      ⊢ wp frame (wpE (defs₀ (F := F)) Variants.none c none) Set.univ (bodyProg47 a1 t) (fun _ => bodyPost47 V a1 O c t) := by
  unfold bodyPre47 bodyPost47
  simp only [beforeIn47]
  rw [afterIn47, afterOut47, Phi_eq47, Phi_eq47, PhiD_eq47, prefHeld_eq47]
  unfold Dat.owesAt Pipeline.owesWithin
  rw [owed_eq47, owed_eq47]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation47 (hrun : BodyRun47 V a1 O) (c : Dev nD) :
    BodyObligation (dat47 (F := F) V a1 O c) (defs₀ (F := F)) Variants.none () Set.univ := fun t => by
  rw [bigSep_W47, bigSep_W47]
  exact sound_body47 V a1 O hrun c t

end Data

/-! ## The region's record -/

section Record

variable (Win : Dev nD → Valuation τ sig (Elt F))

variable (a1 : (pcfg47 (F := F)).Adm)
  (O : (c : Dev nD) → Fin (cfg47 a1).N → Vec F S8x64 .f32)

/-- The buffers at the region's exit: its arrays at what the write-backs leave, every other buffer as entered. -/
def Wout47 (c : Dev nD) : Valuation τ sig (Elt F) :=
  Pipeline.withArrays spec47 c (Win c) fun w => (dat47 (Vof Win) a1 O c).arrAt w (cfg47 a1).N

theorem Wout47_arr (c : Dev nD) (w : Fin (cfg47 a1).W) :
    Wout47 Win a1 O c (Proc.devRef .tc (Pipeline.arrRef spec47 w)) = (dat47 (Vof Win) a1 O c).arrAt w (cfg47 a1).N := by
  unfold Wout47; exact Pipeline.withArrays_arr spec47 winFacts47.arr_inj c _ _ w

theorem Wout47_of_ne (c : Dev nD) (b : Ref sig .tc) (hb : ∀ w, Pipeline.arrRef spec47 w ≠ b) :
    Wout47 Win a1 O c (Proc.devRef .tc b) = Win c (Proc.devRef .tc b) := by
  unfold Wout47; exact Pipeline.withArrays_of_ne spec47 c _ _ b hb

/-- ENTRY, the buffers' part. Every unscoped buffer at Win is: the region's arrays at the proof data's entry contents,
    the table whole at the admissible contents (which are Win's there), the far operand whole, and the others. -/
theorem entry47 (c : Dev nD) (ha1 : ∀ k, Vof Win c (pre47.ref k) = a1.1 k) :
    (StableHlo.held (c : Thread nD τ) (Pipeline.ucRefs τ sig) (Win c) : sProp 𝕄)
      ⊢ iprop((dat47 (Vof Win) a1 O c).arrays ((dat47 (Vof Win) a1 O c).arrAt · 0)
          ∗ Pipeline.prefHeld pre47 c (fun _ => fullShare) a1.1
          ∗ (bigSep ({main_v141} : Finset (Ref sig .tc)) fun b => (((c : Thread nD τ)).loc b) ↦{fullShare} Vof Win c b)
          ∗ bigSep (Pipeline.restRefsP sig pre47 spec47 \ {main_v141}) fun b => (((c : Thread nD τ)).loc b) ↦{fullShare} Vof Win c b) := by
  have hsplit := Pipeline.arrays_of_unscopedBufs (p := ()) (fun (_ : Unit) => pcfg47 (F := F)) (fun _ => a1)
    (fun _ c => dat47 (Vof Win) a1 O c) winFacts47 (launch47 (F := F)).arr_whole c
    ((dat47 (Vof Win) a1 O c).share_full fun _ => rfl) (Vof Win c) (fun w => A_eq47 (Vof Win) a1 O c w)
  rw [Pipeline.unscopedBufs_held,
    Pipeline.unscopedRest_split (Ix := Unit) (Name := ℕ) (U := UD sig nD τ) (Lvl := ℕ) preFacts47 c (Vof Win c),
    Pipeline.unscopedRestP_sdiff pre47 spec47 {main_v141} hx_sub47 c (Vof Win c),
    show (fun k => Vof Win c (pre47.ref k)) = a1.1 from funext ha1] at hsplit
  exact hsplit

/-- EXIT, the buffers' part: the same four put back, the arrays at what the write-backs leave, are every unscoped
    buffer at the exit valuation. -/
theorem exit47 (c : Dev nD) (ha1 : ∀ k, Vof Win c (pre47.ref k) = a1.1 k) :
    iprop((dat47 (Vof Win) a1 O c).arrays ((dat47 (Vof Win) a1 O c).arrAt · (cfg47 a1).N)
        ∗ Pipeline.prefHeld pre47 c (fun _ => fullShare) a1.1
        ∗ (bigSep ({main_v141} : Finset (Ref sig .tc)) fun b => (((c : Thread nD τ)).loc b) ↦{fullShare} Vof Win c b)
        ∗ bigSep (Pipeline.restRefsP sig pre47 spec47 \ {main_v141}) fun b => (((c : Thread nD τ)).loc b) ↦{fullShare} Vof Win c b)
      ⊢ (StableHlo.held (c : Thread nD τ) (Pipeline.ucRefs τ sig) (Wout47 Win a1 O c) : sProp 𝕄) := by
  have hjoin := Pipeline.unscopedBufs_of_arrays (p := ()) (fun (_ : Unit) => pcfg47 (F := F)) (fun _ => a1)
    (Ix := Unit) (Name := ℕ) (U := UD sig nD τ) (Lvl := ℕ)
    winFacts47 (launch47 (F := F)).arr_whole c (fun _ c => dat47 (Vof Win) a1 O c)
    ((dat47 (Vof Win) a1 O c).share_full fun _ => rfl)
    (Vof Win c) (Vof (Wout47 Win a1 O) c) ((dat47 (Vof Win) a1 O c).arrAt · (cfg47 a1).N)
    (fun w => (Wout47_arr Win a1 O c w).symm)
    (fun b hb => Wout47_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts47 c (Vof Win c),
    Pipeline.unscopedRestP_sdiff pre47 spec47 {main_v141} hx_sub47 c (Vof Win c),
    show (fun k => Vof Win c (pre47.ref k)) = a1.1 from funext ha1] at hjoin
  exact hjoin

end Record

section Seg

variable (Win : Dev nD → Valuation τ sig (Elt F))
  (adm : (p : Fin 49) → (pcfgs (F := F) p).Adm)
  (O : (c : Dev nD) → Fin (cfg47 (adm (47 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout47. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg47 (hd : ∀ c, pdats (47 : Fin 49) c = dat47 (Vof Win) (adm (47 : Fin 49)) O c)
    (ha1 : ∀ c k, Vof Win c (pre47.ref k) = (adm (47 : Fin 49)).1 k)
    (hbody : ∀ c, BodyObligation (dat47 (F := F) (Vof Win) (adm (47 : Fin 49)) O c) (defs₀ (F := F)) 𝒱₀ () Set.univ) :
    Pipeline.RegionSeg (pcfgs (F := F)) adm pdats () defs₀ 𝒱₀ L lv (47 : Fin 49) where
  win := (launch47 (F := F)).win.to₀
  block_pos := (launch47 (F := F)).block_pos
  stage_whole := (launch47 (F := F)).stage_whole
  K := Fin 8
  osem := osem47
  ho := ownSemFacts47
  hbody c := by rw [hd c]; exact (hbody c).loose
  hwaits := Pipeline.hwaits_of_owed_zero _ _ _ _ L lv (47 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout47 Win (adm (47 : Fin 49)) O c) ∗ R c)
  X c := iprop((∃ r, prngReg c r)
    ∗ Pipeline.ownSems0 (Ix := Unit) (Name := ℕ) (U := UD sig nD τ) (Lvl := ℕ) (Val := Elt F) (τ := τ) osem47 c
    ∗ (bigSep ({main_v141} : Finset (Ref sig .tc)) fun b => (((c : Thread nD τ)).loc b) ↦{fullShare} Vof Win c b))
  Y c := iprop((∃ r, prngReg c r)
    ∗ (bigSep ({main_v141} : Finset (Ref sig .tc)) fun b => (((c : Thread nD τ)).loc b) ↦{fullShare} Vof Win c b)
    ∗ Pipeline.prefHeld pre47 c (fun _ => fullShare) (adm (47 : Fin 49)).1)
  Z c := bigSep (Pipeline.restRefsP sig pre47 spec47 \ {main_v141}) fun b => (((c : Thread nD τ)).loc b) ↦{fullShare} Vof Win c b
  hentry c := by
    rw [hd c]
    iintro ⟨⟨Hub, Hp, HO⟩, Hos, -⟩
    ihave H := (entry47 Win (adm (47 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq47, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq47, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit47 Win (adm (47 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg47 (F := F)).Adm)

/-- The output block at point t: the gathered rows (of the far operand's contents under V, chosen by the table's
    words at that point) times the input block. -/
def outBlk47 (c : Dev nD) (t : Fin (cfg47 a1).N) : Vec F S8x64 .f32 :=
  gatherOut (gatherG (a1.1 0) (V c main_v141) (grid47.coords t)) (iblk47 V a1 c 0 t)

theorem outBlk_eq47 (c : Dev nD) (t : Fin (cfg47 a1).N) :
    outBlk47 V a1 c t = gatherOut (gatherG (a1.1 0) (V c main_v141) (grid47.coords t)) (iblk47 V a1 c 0 t) := rfl

/-- The proof data with the output block named: after the body at point t the output window's buffer holds it. -/
theorem afterOutBlk47 (c : Dev nD) (t : Fin (cfg47 a1).N) :
    (dat47 V a1 (outBlk47 V a1) c).after 1 t
      = gatherOut (gatherG (a1.1 0) (V c main_v141) (grid47.coords t)) (iblk47 V a1 c 0 t) :=
  afterOut47 V a1 (outBlk47 V a1) c t

/-- The own cells at zero are the semaphore array's eight entries at zero, in order. -/
theorem ownSems_eq47 (c : Dev nD) :
    (Pipeline.ownSems0 (Ix := Unit) (Name := ℕ) (U := UD sig nD τ) (Lvl := ℕ) (Val := Elt F) (τ := τ) osem47 c : sProp 𝕄)
      = gsems0 c cc47_scratch1 := by
  rw [Pipeline.ownSems0_eq_of_list c osem47 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq47 (t : Fin (cfg47 a1).N) : ∃ h3 h4, bodyProg47 (F := F) a1 t
    = cc47__gather_mul_kernel (grid47.coords t) (Memref.whole main_v199) (Memref.isWhole_whole _) (Memref.whole main_v141) (Memref.isWhole_whole _)
        (stg47 a1 0 t) h3 (stg47 a1 1 t) h4 (Memref.whole cc47_scratch0) (Memref.isWhole_whole _) cc47_scratch1 := ⟨_, _, rfl⟩

end Out

/-! ## The body's run, joined to the proof data -/

section Body

variable (V : (c : Dev nD) → (b : Ref sig .tc) → Buf (Elt F) ((c : Thread nD τ).loc b))
  (a1 : (pcfg47 (F := F)).Adm)

/-- The scratch buffer whole at some contents, as a memref owned at some contents. -/
theorem scratchOwns_eq47 (c : Dev nD) :
    (iprop(∃ d, owns (c : Thread nD τ) (Memref.whole cc47_scratch0) fullShare d) : sProp 𝕄)
      = iprop(∃ f : Buf (Elt F) ((c : Thread nD τ).loc cc47_scratch0), ((c : Thread nD τ).loc cc47_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun47 (hlt : ∀ y, BitVec.toNat ((a1.1 0) y) < 100000) : BodyRun47 V a1 (outBlk47 V a1) := by
  intro c t W K
  obtain ⟨h3, h4, hprog⟩ := bodyProg_eq47 (F := F) a1 t
  rw [hprog, ownSems_eq47, ← scratchOwns_eq47 (F := F) c]
  have hrun := gather_kernel_run_47 (F := F) c (grid47.coords t) (Memref.whole main_v199) (Memref.isWhole_whole _) (Memref.whole main_v141) (Memref.isWhole_whole _)
    (stg47 a1 0 t) h3 (stg47 a1 1 t) h4 (Memref.whole cc47_scratch0) (Memref.isWhole_whole _) cc47_scratch1 fullShare fullShare
    (a1.1 0) (V c main_v141) (iblk47 V a1 c 0 t) (fun y => hlt y) W K
  simp only [Memref.view_whole, View.read_whole] at hrun
  unfold outBlk47
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut47 (hlt : ∀ y, BitVec.toNat ((a1.1 0) y) < 100000) (c : Dev nD) :
    BodyObligation (dat47 (F := F) V a1 (outBlk47 V a1) c) (defs₀ (F := F)) Variants.none () Set.univ :=
  body_obligation47 V a1 (outBlk47 V a1) (bodyRun47 V a1 hlt) c

end Body

/-! # Region 48 -/

/-! ## The body's own transfer cells -/

/-- The eight cells of the body's semaphore array, in order. -/
abbrev osem48 : Fin 8 → SemLoc sig := fun j => SemLoc.dma (cc48_scratch1.ix (fun | ⟨0, _⟩ => j))

/-- They are scoped, pairwise distinct, and none is a staging cell of a window. -/
theorem ownSemFacts48 : Pipeline.OwnSemFacts spec48 osem48 := by decide

/-- The far operand is an unscoped buffer that is neither a window's array nor a table. -/
theorem hx_sub48 : ({main_v141} : Finset (Ref sig .tc)) ⊆ Pipeline.restRefsP sig pre48 spec48 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg48 (F := F)).Adm)
  (O : (c : Dev nD) → Fin (cfg48 a1).N → Vec F S8x64 .f32)

/-! ## The windows' blocks -/

/-- Window w's block at point t, read off its array under V. -/
def iblk48 (c : Dev nD) (w : Fin (cfg48 a1).W) (t : Fin (cfg48 a1).N) :
    (((cfg48 a1).win w).xblock ((cfg48 a1).grid.coords t)).Idx → Elt F ((cfg48 a1).win w).elt :=
  (((cfg48 a1).win w).blk t).view.read (Elt F) (V c (Pipeline.arrRef spec48 w))

/-- The input window's current staging buffer holds its block at every point, fetched there or not, for any proof
    data whose array is V's and whose body leaves the block in place: unfetched, the block index has not moved. -/
theorem beforeIn48_of {c : Dev nD} (dat : Dat τ (Elt F) Unit ℕ (UD sig nD τ) ℕ (cfg48 a1) c)
    (hA : dat.A 0 = V c (Pipeline.arrRef spec48 0))
    (hafter : ∀ t, dat.after 0 t = iblk48 V a1 c 0 t) (t : Fin (cfg48 a1).N) (d) : dat.before 0 t d = iblk48 V a1 c 0 t :=
  (dat.before_in_eq_fetched 0 rfl (fun _ => rfl) (fun _ _ _ => rfl)
    (fun t => by rw [hafter]; unfold Dat.blockOf iblk48; rw [hA]; try rfl) t d).trans
    (by unfold Dat.fetched Dat.blockOf iblk48; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat48 (c : Dev nD) : Dat τ (Elt F) Unit ℕ (UD sig nD τ) ℕ (cfg48 a1) c where
  A w := V c (Pipeline.arrRef spec48 w)
  after w t := match w with
    | ⟨0, _⟩ => iblk48 V a1 c 0 t
    | ⟨1, _⟩ => O c t
  Φ _ := iprop(Pipeline.ΦD osem48 spec48 {main_v141} V c ∗ Pipeline.prefHeld pre48 c (fun _ => fullShare) a1.1)
  q _ := fullShare
  owed _ := 0

theorem A_eq48 (c : Dev nD) (w : Fin (cfg48 a1).W) : (dat48 V a1 O c).A w = V c (Pipeline.arrRef spec48 w) := by
  dsimp only [dat48]

theorem afterIn48 (c : Dev nD) (t : Fin (cfg48 a1).N) : (dat48 V a1 O c).after 0 t = iblk48 V a1 c 0 t := by
  dsimp only [dat48]; rfl

theorem afterOut48 (c : Dev nD) (t : Fin (cfg48 a1).N) :
    (dat48 V a1 O c).after 1 t = O c t := by
  dsimp only [dat48]; rfl

theorem beforeIn48 (c : Dev nD) (t : Fin (cfg48 a1).N) (d) : (dat48 V a1 O c).before 0 t d = iblk48 V a1 c 0 t :=
  beforeIn48_of V a1 (dat48 V a1 O c) (A_eq48 V a1 O c 0) (afterIn48 V a1 O c) t d

theorem Phi_eq48 (c : Dev nD) (t : Fin ((cfg48 a1).N + 1)) :
    (dat48 V a1 O c).Φ t
      = iprop(Pipeline.ΦD osem48 spec48 {main_v141} V c ∗ Pipeline.prefHeld pre48 c (fun _ => fullShare) a1.1) := by
  dsimp only [dat48]

theorem owed_eq48 (c : Dev nD) (t : Fin ((cfg48 a1).N + 1)) : (dat48 V a1 O c).owed t = 0 := by
  dsimp only [dat48]

/-! ## The invariant, conjunct by conjunct -/

/-- The invariant's first part opened: the body's scratch buffer whole at some contents and the other scoped
    buffers no window stages, the generator register, the own cells at zero, the far operand at its contents. -/
theorem PhiD_eq48 (c : Dev nD) :
    (Pipeline.ΦD osem48 spec48 {main_v141} V c : sProp 𝕄)
      = iprop(iprop(iprop((∃ f : Buf (Elt F) ((c : Thread nD τ).loc cc48_scratch0), ((c : Thread nD τ).loc cc48_scratch0) ↦{fullShare} f))
            ∗ Pipeline.scopedRestBut (Ix := Unit) (Name := ℕ) (U := UD sig nD τ) (Lvl := ℕ) (Val := Elt F) spec48 c [cc48_scratch0])
          ∗ (∃ r, prngReg c r)
          ∗ Pipeline.ownSems0 (Ix := Unit) (Name := ℕ) (U := UD sig nD τ) (Lvl := ℕ) (Val := Elt F) (τ := τ) osem48 c
          ∗ (((c : Thread nD τ).loc main_v141) ↦{fullShare} V c main_v141)) := by
  rw [Pipeline.ΦD_eq, scopedRest48_split, BI.bigSep_eq_bigSepL_of_eq [main_v141] (by decide) (by decide)]; rfl

/-- The one table, held whole. -/
theorem prefHeld_eq48 (c : Dev nD) :
    (Pipeline.prefHeld pre48 c (fun _ => fullShare) a1.1 : sProp 𝕄)
      = (((c : Thread nD τ).loc main_v203) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg48 (w : Fin (cfg48 a1).W) (t : Fin (cfg48 a1).N) := ((cfg48 a1).win w).stage ((cfg48 a1).slots t w)

/-- The body as the pipeline calls it at point t. -/
abbrev bodyProg48 (t : Fin (cfg48 a1).N) : Prog (TpuEff nD τ sig (Elt F) Λ₀ .tc) PUnit :=
  (defs₀ (F := F)) .tc (cfg48 a1).body ((cfg48 a1).bodyArgs t ((cfg48 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun48 : Prop :=
  ∀ (c : Dev nD) (t : Fin (cfg48 a1).N) (W) (K : PUnit → sProp 𝕄),
    iprop(owns (c : Thread nD τ) (stg48 a1 0 t) fullShare (iblk48 V a1 c 0 t)
        ∗ (∃ d, owns (c : Thread nD τ) (stg48 a1 1 t) fullShare d)
        ∗ (∃ f : Buf (Elt F) ((c : Thread nD τ).loc cc48_scratch0), ((c : Thread nD τ).loc cc48_scratch0) ↦{fullShare} f)
        ∗ Pipeline.ownSems0 (Ix := Unit) (Name := ℕ) (U := UD sig nD τ) (Lvl := ℕ) (Val := Elt F) (τ := τ) osem48 c
        ∗ (((c : Thread nD τ).loc main_v203) ↦{fullShare} a1.1 0)
        ∗ (((c : Thread nD τ).loc main_v141) ↦{fullShare} V c main_v141)
        ∗ owes (c : Thread nD τ) (0 : CellTallies nD τ sig Unit) W
        ∗ (iprop(owns (c : Thread nD τ) (stg48 a1 0 t) fullShare (iblk48 V a1 c 0 t)
            ∗ owns (c : Thread nD τ) (stg48 a1 1 t) fullShare (O c t)
            ∗ (∃ f : Buf (Elt F) ((c : Thread nD τ).loc cc48_scratch0), ((c : Thread nD τ).loc cc48_scratch0) ↦{fullShare} f)
            ∗ Pipeline.ownSems0 (Ix := Unit) (Name := ℕ) (U := UD sig nD τ) (Lvl := ℕ) (Val := Elt F) (τ := τ) osem48 c
            ∗ (((c : Thread nD τ).loc main_v203) ↦{fullShare} a1.1 0)
            ∗ (((c : Thread nD τ).loc main_v141) ↦{fullShare} V c main_v141)
            ∗ (∃ W', owes (c : Thread nD τ) (0 : CellTallies nD τ sig Unit) W')) -∗ K ⟨⟩))
      ⊢ wp frame (wpE (defs₀ (F := F)) Variants.none c none) Set.univ (bodyProg48 a1 t) K

/-- What the body is called with at point t, the windows one by one, -/
def bodyPre48 (c : Dev nD) (t : Fin (cfg48 a1).N) : sProp 𝕄 :=
  iprop((dat48 V a1 O c).Φ t.castSucc ∗ (dat48 V a1 O c).owesAt () t.castSucc
    ∗ (∃ d, owns (c : Thread nD τ) (stg48 a1 0 t) fullShare ((dat48 V a1 O c).before 0 t d))
    ∗ (∃ d, owns (c : Thread nD τ) (stg48 a1 1 t) fullShare ((dat48 V a1 O c).before 1 t d)))

/-- and what it returns. -/
def bodyPost48 (c : Dev nD) (t : Fin (cfg48 a1).N) : sProp 𝕄 :=
  iprop((dat48 V a1 O c).Φ t.succ ∗ (dat48 V a1 O c).owesAt () t.succ
    ∗ owns (c : Thread nD τ) (stg48 a1 0 t) fullShare ((dat48 V a1 O c).after 0 t)
    ∗ owns (c : Thread nD τ) (stg48 a1 1 t) fullShare ((dat48 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body48 (hrun : BodyRun48 V a1 O) (c : Dev nD) (t : Fin (cfg48 a1).N) :
    bodyPre48 V a1 O c t
      ⊢ wp frame (wpE (defs₀ (F := F)) Variants.none c none) Set.univ (bodyProg48 a1 t) (fun _ => bodyPost48 V a1 O c t) := by
  unfold bodyPre48 bodyPost48
  simp only [beforeIn48]
  rw [afterIn48, afterOut48, Phi_eq48, Phi_eq48, PhiD_eq48, prefHeld_eq48]
  unfold Dat.owesAt Pipeline.owesWithin
  rw [owed_eq48, owed_eq48]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation48 (hrun : BodyRun48 V a1 O) (c : Dev nD) :
    BodyObligation (dat48 (F := F) V a1 O c) (defs₀ (F := F)) Variants.none () Set.univ := fun t => by
  rw [bigSep_W48, bigSep_W48]
  exact sound_body48 V a1 O hrun c t

end Data

/-! ## The region's record -/

section Record

variable (Win : Dev nD → Valuation τ sig (Elt F))

variable (a1 : (pcfg48 (F := F)).Adm)
  (O : (c : Dev nD) → Fin (cfg48 a1).N → Vec F S8x64 .f32)

/-- The buffers at the region's exit: its arrays at what the write-backs leave, every other buffer as entered. -/
def Wout48 (c : Dev nD) : Valuation τ sig (Elt F) :=
  Pipeline.withArrays spec48 c (Win c) fun w => (dat48 (Vof Win) a1 O c).arrAt w (cfg48 a1).N

theorem Wout48_arr (c : Dev nD) (w : Fin (cfg48 a1).W) :
    Wout48 Win a1 O c (Proc.devRef .tc (Pipeline.arrRef spec48 w)) = (dat48 (Vof Win) a1 O c).arrAt w (cfg48 a1).N := by
  unfold Wout48; exact Pipeline.withArrays_arr spec48 winFacts48.arr_inj c _ _ w

theorem Wout48_of_ne (c : Dev nD) (b : Ref sig .tc) (hb : ∀ w, Pipeline.arrRef spec48 w ≠ b) :
    Wout48 Win a1 O c (Proc.devRef .tc b) = Win c (Proc.devRef .tc b) := by
  unfold Wout48; exact Pipeline.withArrays_of_ne spec48 c _ _ b hb

/-- ENTRY, the buffers' part. Every unscoped buffer at Win is: the region's arrays at the proof data's entry contents,
    the table whole at the admissible contents (which are Win's there), the far operand whole, and the others. -/
theorem entry48 (c : Dev nD) (ha1 : ∀ k, Vof Win c (pre48.ref k) = a1.1 k) :
    (StableHlo.held (c : Thread nD τ) (Pipeline.ucRefs τ sig) (Win c) : sProp 𝕄)
      ⊢ iprop((dat48 (Vof Win) a1 O c).arrays ((dat48 (Vof Win) a1 O c).arrAt · 0)
          ∗ Pipeline.prefHeld pre48 c (fun _ => fullShare) a1.1
          ∗ (bigSep ({main_v141} : Finset (Ref sig .tc)) fun b => (((c : Thread nD τ)).loc b) ↦{fullShare} Vof Win c b)
          ∗ bigSep (Pipeline.restRefsP sig pre48 spec48 \ {main_v141}) fun b => (((c : Thread nD τ)).loc b) ↦{fullShare} Vof Win c b) := by
  have hsplit := Pipeline.arrays_of_unscopedBufs (p := ()) (fun (_ : Unit) => pcfg48 (F := F)) (fun _ => a1)
    (fun _ c => dat48 (Vof Win) a1 O c) winFacts48 (launch48 (F := F)).arr_whole c
    ((dat48 (Vof Win) a1 O c).share_full fun _ => rfl) (Vof Win c) (fun w => A_eq48 (Vof Win) a1 O c w)
  rw [Pipeline.unscopedBufs_held,
    Pipeline.unscopedRest_split (Ix := Unit) (Name := ℕ) (U := UD sig nD τ) (Lvl := ℕ) preFacts48 c (Vof Win c),
    Pipeline.unscopedRestP_sdiff pre48 spec48 {main_v141} hx_sub48 c (Vof Win c),
    show (fun k => Vof Win c (pre48.ref k)) = a1.1 from funext ha1] at hsplit
  exact hsplit

/-- EXIT, the buffers' part: the same four put back, the arrays at what the write-backs leave, are every unscoped
    buffer at the exit valuation. -/
theorem exit48 (c : Dev nD) (ha1 : ∀ k, Vof Win c (pre48.ref k) = a1.1 k) :
    iprop((dat48 (Vof Win) a1 O c).arrays ((dat48 (Vof Win) a1 O c).arrAt · (cfg48 a1).N)
        ∗ Pipeline.prefHeld pre48 c (fun _ => fullShare) a1.1
        ∗ (bigSep ({main_v141} : Finset (Ref sig .tc)) fun b => (((c : Thread nD τ)).loc b) ↦{fullShare} Vof Win c b)
        ∗ bigSep (Pipeline.restRefsP sig pre48 spec48 \ {main_v141}) fun b => (((c : Thread nD τ)).loc b) ↦{fullShare} Vof Win c b)
      ⊢ (StableHlo.held (c : Thread nD τ) (Pipeline.ucRefs τ sig) (Wout48 Win a1 O c) : sProp 𝕄) := by
  have hjoin := Pipeline.unscopedBufs_of_arrays (p := ()) (fun (_ : Unit) => pcfg48 (F := F)) (fun _ => a1)
    (Ix := Unit) (Name := ℕ) (U := UD sig nD τ) (Lvl := ℕ)
    winFacts48 (launch48 (F := F)).arr_whole c (fun _ c => dat48 (Vof Win) a1 O c)
    ((dat48 (Vof Win) a1 O c).share_full fun _ => rfl)
    (Vof Win c) (Vof (Wout48 Win a1 O) c) ((dat48 (Vof Win) a1 O c).arrAt · (cfg48 a1).N)
    (fun w => (Wout48_arr Win a1 O c w).symm)
    (fun b hb => Wout48_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts48 c (Vof Win c),
    Pipeline.unscopedRestP_sdiff pre48 spec48 {main_v141} hx_sub48 c (Vof Win c),
    show (fun k => Vof Win c (pre48.ref k)) = a1.1 from funext ha1] at hjoin
  exact hjoin

end Record

section Seg

variable (Win : Dev nD → Valuation τ sig (Elt F))
  (adm : (p : Fin 49) → (pcfgs (F := F) p).Adm)
  (O : (c : Dev nD) → Fin (cfg48 (adm (48 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout48. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg48 (hd : ∀ c, pdats (48 : Fin 49) c = dat48 (Vof Win) (adm (48 : Fin 49)) O c)
    (ha1 : ∀ c k, Vof Win c (pre48.ref k) = (adm (48 : Fin 49)).1 k)
    (hbody : ∀ c, BodyObligation (dat48 (F := F) (Vof Win) (adm (48 : Fin 49)) O c) (defs₀ (F := F)) 𝒱₀ () Set.univ) :
    Pipeline.RegionSeg (pcfgs (F := F)) adm pdats () defs₀ 𝒱₀ L lv (48 : Fin 49) where
  win := (launch48 (F := F)).win.to₀
  block_pos := (launch48 (F := F)).block_pos
  stage_whole := (launch48 (F := F)).stage_whole
  K := Fin 8
  osem := osem48
  ho := ownSemFacts48
  hbody c := by rw [hd c]; exact (hbody c).loose
  hwaits := Pipeline.hwaits_of_owed_zero _ _ _ _ L lv (48 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout48 Win (adm (48 : Fin 49)) O c) ∗ R c)
  X c := iprop((∃ r, prngReg c r)
    ∗ Pipeline.ownSems0 (Ix := Unit) (Name := ℕ) (U := UD sig nD τ) (Lvl := ℕ) (Val := Elt F) (τ := τ) osem48 c
    ∗ (bigSep ({main_v141} : Finset (Ref sig .tc)) fun b => (((c : Thread nD τ)).loc b) ↦{fullShare} Vof Win c b))
  Y c := iprop((∃ r, prngReg c r)
    ∗ (bigSep ({main_v141} : Finset (Ref sig .tc)) fun b => (((c : Thread nD τ)).loc b) ↦{fullShare} Vof Win c b)
    ∗ Pipeline.prefHeld pre48 c (fun _ => fullShare) (adm (48 : Fin 49)).1)
  Z c := bigSep (Pipeline.restRefsP sig pre48 spec48 \ {main_v141}) fun b => (((c : Thread nD τ)).loc b) ↦{fullShare} Vof Win c b
  hentry c := by
    rw [hd c]
    iintro ⟨⟨Hub, Hp, HO⟩, Hos, -⟩
    ihave H := (entry48 Win (adm (48 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq48, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq48, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit48 Win (adm (48 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg48 (F := F)).Adm)

/-- The output block at point t: the gathered rows (of the far operand's contents under V, chosen by the table's
    words at that point) times the input block. -/
def outBlk48 (c : Dev nD) (t : Fin (cfg48 a1).N) : Vec F S8x64 .f32 :=
  gatherOut (gatherG (a1.1 0) (V c main_v141) (grid48.coords t)) (iblk48 V a1 c 0 t)

theorem outBlk_eq48 (c : Dev nD) (t : Fin (cfg48 a1).N) :
    outBlk48 V a1 c t = gatherOut (gatherG (a1.1 0) (V c main_v141) (grid48.coords t)) (iblk48 V a1 c 0 t) := rfl

/-- The proof data with the output block named: after the body at point t the output window's buffer holds it. -/
theorem afterOutBlk48 (c : Dev nD) (t : Fin (cfg48 a1).N) :
    (dat48 V a1 (outBlk48 V a1) c).after 1 t
      = gatherOut (gatherG (a1.1 0) (V c main_v141) (grid48.coords t)) (iblk48 V a1 c 0 t) :=
  afterOut48 V a1 (outBlk48 V a1) c t

/-- The own cells at zero are the semaphore array's eight entries at zero, in order. -/
theorem ownSems_eq48 (c : Dev nD) :
    (Pipeline.ownSems0 (Ix := Unit) (Name := ℕ) (U := UD sig nD τ) (Lvl := ℕ) (Val := Elt F) (τ := τ) osem48 c : sProp 𝕄)
      = gsems0 c cc48_scratch1 := by
  rw [Pipeline.ownSems0_eq_of_list c osem48 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq48 (t : Fin (cfg48 a1).N) : ∃ h3 h4, bodyProg48 (F := F) a1 t
    = cc48__gather_mul_kernel (grid48.coords t) (Memref.whole main_v203) (Memref.isWhole_whole _) (Memref.whole main_v141) (Memref.isWhole_whole _)
        (stg48 a1 0 t) h3 (stg48 a1 1 t) h4 (Memref.whole cc48_scratch0) (Memref.isWhole_whole _) cc48_scratch1 := ⟨_, _, rfl⟩

end Out

/-! ## The body's run, joined to the proof data -/

section Body

variable (V : (c : Dev nD) → (b : Ref sig .tc) → Buf (Elt F) ((c : Thread nD τ).loc b))
  (a1 : (pcfg48 (F := F)).Adm)

/-- The scratch buffer whole at some contents, as a memref owned at some contents. -/
theorem scratchOwns_eq48 (c : Dev nD) :
    (iprop(∃ d, owns (c : Thread nD τ) (Memref.whole cc48_scratch0) fullShare d) : sProp 𝕄)
      = iprop(∃ f : Buf (Elt F) ((c : Thread nD τ).loc cc48_scratch0), ((c : Thread nD τ).loc cc48_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun48 (hlt : ∀ y, BitVec.toNat ((a1.1 0) y) < 100000) : BodyRun48 V a1 (outBlk48 V a1) := by
  intro c t W K
  obtain ⟨h3, h4, hprog⟩ := bodyProg_eq48 (F := F) a1 t
  rw [hprog, ownSems_eq48, ← scratchOwns_eq48 (F := F) c]
  have hrun := gather_kernel_run_48 (F := F) c (grid48.coords t) (Memref.whole main_v203) (Memref.isWhole_whole _) (Memref.whole main_v141) (Memref.isWhole_whole _)
    (stg48 a1 0 t) h3 (stg48 a1 1 t) h4 (Memref.whole cc48_scratch0) (Memref.isWhole_whole _) cc48_scratch1 fullShare fullShare
    (a1.1 0) (V c main_v141) (iblk48 V a1 c 0 t) (fun y => hlt y) W K
  simp only [Memref.view_whole, View.read_whole] at hrun
  unfold outBlk48
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut48 (hlt : ∀ y, BitVec.toNat ((a1.1 0) y) < 100000) (c : Dev nD) :
    BodyObligation (dat48 (F := F) V a1 (outBlk48 V a1) c) (defs₀ (F := F)) Variants.none () Set.univ :=
  body_obligation48 V a1 (outBlk48 V a1) (bodyRun48 V a1 hlt) c

end Body

end Cert.Kernel.Hand

end
-- ==== Proof.K.HostFacts.lean ====
/-
  Per stretch of host operations: the references its operations write (one per operation), the fact that they write
  nothing else, and that no operation allocates a buffer. A reference outside the list holds after the stretch what it
  held before it.
-/
import proofs.«421643_j28415503630349_2_alg».proof.Proof.Gen.Kernel.Launch

set_option maxRecDepth 16384

noncomputable section

namespace Cert.Kernel.Hand

open Cert.Kernel Cert.Kernel.Gen
open Idealize.ShloMosaic Idealize.ShloMosaic.TcCoe

variable {F : FTy → Type} [FloatOps F]

theorem hostOps0_fresh : (hostOps0 : List (HloOp τ sig (Elt F))).Forall fun op => op.fresh = ∅ := by
  simp only [List.Forall]; repeat' constructor
abbrev hostOps0_W : List (Ref sig .tc) := [main_v0, main_c]
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_1_fresh : (hostOps0_1 : List (HloOp τ sig (Elt F))).Forall fun op => op.fresh = ∅ := by
  simp only [List.Forall]; repeat' constructor
abbrev hostOps0_1_W : List (Ref sig .tc) := [main_call0_v0, main_v1]
theorem hostOps0_1_writes : (hostOps0_1 : List (HloOp τ sig (Elt F))).Forall fun op => op.writes ⊆ (hostOps0_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_fresh : (hostOps1 : List (HloOp τ sig (Elt F))).Forall fun op => op.fresh = ∅ := by
  simp only [List.Forall]; repeat' constructor
abbrev hostOps1_W : List (Ref sig .tc) := [main_v3, main_cst, main_v4, main_v5, main_v6, main_v7]
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_fresh : (hostOps2 : List (HloOp τ sig (Elt F))).Forall fun op => op.fresh = ∅ := by
  simp only [List.Forall]; repeat' constructor
abbrev hostOps2_W : List (Ref sig .tc) := [main_v9, main_v10, main_v11]
theorem hostOps2_writes : (hostOps2 : List (HloOp τ sig (Elt F))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_fresh : (hostOps3 : List (HloOp τ sig (Elt F))).Forall fun op => op.fresh = ∅ := by
  simp only [List.Forall]; repeat' constructor
abbrev hostOps3_W : List (Ref sig .tc) := [main_v13, main_v14, main_v15]
theorem hostOps3_writes : (hostOps3 : List (HloOp τ sig (Elt F))).Forall fun op => op.writes ⊆ (hostOps3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps4_fresh : (hostOps4 : List (HloOp τ sig (Elt F))).Forall fun op => op.fresh = ∅ := by
  simp only [List.Forall]; repeat' constructor
abbrev hostOps4_W : List (Ref sig .tc) := [main_v17, main_v18, main_v19]
theorem hostOps4_writes : (hostOps4 : List (HloOp τ sig (Elt F))).Forall fun op => op.writes ⊆ (hostOps4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps5_fresh : (hostOps5 : List (HloOp τ sig (Elt F))).Forall fun op => op.fresh = ∅ := by
  simp only [List.Forall]; repeat' constructor
abbrev hostOps5_W : List (Ref sig .tc) := [main_v21, main_v22, main_v23]
theorem hostOps5_writes : (hostOps5 : List (HloOp τ sig (Elt F))).Forall fun op => op.writes ⊆ (hostOps5_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps6_fresh : (hostOps6 : List (HloOp τ sig (Elt F))).Forall fun op => op.fresh = ∅ := by
  simp only [List.Forall]; repeat' constructor
abbrev hostOps6_W : List (Ref sig .tc) := [main_v25, main_v26, main_v27]
theorem hostOps6_writes : (hostOps6 : List (HloOp τ sig (Elt F))).Forall fun op => op.writes ⊆ (hostOps6_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_fresh : (hostOps7 : List (HloOp τ sig (Elt F))).Forall fun op => op.fresh = ∅ := by
  simp only [List.Forall]; repeat' constructor
abbrev hostOps7_W : List (Ref sig .tc) := [main_v29, main_v30, main_v31]
theorem hostOps7_writes : (hostOps7 : List (HloOp τ sig (Elt F))).Forall fun op => op.writes ⊆ (hostOps7_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps8_fresh : (hostOps8 : List (HloOp τ sig (Elt F))).Forall fun op => op.fresh = ∅ := by
  simp only [List.Forall]; repeat' constructor
abbrev hostOps8_W : List (Ref sig .tc) := [main_v33, main_v34, main_v35]
theorem hostOps8_writes : (hostOps8 : List (HloOp τ sig (Elt F))).Forall fun op => op.writes ⊆ (hostOps8_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps9_fresh : (hostOps9 : List (HloOp τ sig (Elt F))).Forall fun op => op.fresh = ∅ := by
  simp only [List.Forall]; repeat' constructor
abbrev hostOps9_W : List (Ref sig .tc) := [main_v37, main_v38, main_v39]
theorem hostOps9_writes : (hostOps9 : List (HloOp τ sig (Elt F))).Forall fun op => op.writes ⊆ (hostOps9_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps10_fresh : (hostOps10 : List (HloOp τ sig (Elt F))).Forall fun op => op.fresh = ∅ := by
  simp only [List.Forall]; repeat' constructor
abbrev hostOps10_W : List (Ref sig .tc) := [main_v41, main_v42, main_v43]
theorem hostOps10_writes : (hostOps10 : List (HloOp τ sig (Elt F))).Forall fun op => op.writes ⊆ (hostOps10_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps11_fresh : (hostOps11 : List (HloOp τ sig (Elt F))).Forall fun op => op.fresh = ∅ := by
  simp only [List.Forall]; repeat' constructor
abbrev hostOps11_W : List (Ref sig .tc) := [main_v45, main_v46, main_v47]
theorem hostOps11_writes : (hostOps11 : List (HloOp τ sig (Elt F))).Forall fun op => op.writes ⊆ (hostOps11_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps12_fresh : (hostOps12 : List (HloOp τ sig (Elt F))).Forall fun op => op.fresh = ∅ := by
  simp only [List.Forall]; repeat' constructor
abbrev hostOps12_W : List (Ref sig .tc) := [main_v49, main_v50, main_v51]
theorem hostOps12_writes : (hostOps12 : List (HloOp τ sig (Elt F))).Forall fun op => op.writes ⊆ (hostOps12_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps13_fresh : (hostOps13 : List (HloOp τ sig (Elt F))).Forall fun op => op.fresh = ∅ := by
  simp only [List.Forall]; repeat' constructor
abbrev hostOps13_W : List (Ref sig .tc) := [main_v53, main_v54, main_v55]
theorem hostOps13_writes : (hostOps13 : List (HloOp τ sig (Elt F))).Forall fun op => op.writes ⊆ (hostOps13_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps14_fresh : (hostOps14 : List (HloOp τ sig (Elt F))).Forall fun op => op.fresh = ∅ := by
  simp only [List.Forall]; repeat' constructor
abbrev hostOps14_W : List (Ref sig .tc) := [main_v57, main_v58, main_v59]
theorem hostOps14_writes : (hostOps14 : List (HloOp τ sig (Elt F))).Forall fun op => op.writes ⊆ (hostOps14_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps15_fresh : (hostOps15 : List (HloOp τ sig (Elt F))).Forall fun op => op.fresh = ∅ := by
  simp only [List.Forall]; repeat' constructor
abbrev hostOps15_W : List (Ref sig .tc) := [main_v61, main_v62, main_v63]
theorem hostOps15_writes : (hostOps15 : List (HloOp τ sig (Elt F))).Forall fun op => op.writes ⊆ (hostOps15_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps16_fresh : (hostOps16 : List (HloOp τ sig (Elt F))).Forall fun op => op.fresh = ∅ := by
  simp only [List.Forall]; repeat' constructor
abbrev hostOps16_W : List (Ref sig .tc) := [main_v65, main_v66, main_v67]
theorem hostOps16_writes : (hostOps16 : List (HloOp τ sig (Elt F))).Forall fun op => op.writes ⊆ (hostOps16_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps17_fresh : (hostOps17 : List (HloOp τ sig (Elt F))).Forall fun op => op.fresh = ∅ := by
  simp only [List.Forall]; repeat' constructor
abbrev hostOps17_W : List (Ref sig .tc) := [main_v69, main_cst_0, main_v70, main_v71, main_v72, main_v73, main_v74, main_v75, main_v76]
theorem hostOps17_writes : (hostOps17 : List (HloOp τ sig (Elt F))).Forall fun op => op.writes ⊆ (hostOps17_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps18_fresh : (hostOps18 : List (HloOp τ sig (Elt F))).Forall fun op => op.fresh = ∅ := by
  simp only [List.Forall]; repeat' constructor
abbrev hostOps18_W : List (Ref sig .tc) := [main_v78, main_v79, main_v80]
theorem hostOps18_writes : (hostOps18 : List (HloOp τ sig (Elt F))).Forall fun op => op.writes ⊆ (hostOps18_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps19_fresh : (hostOps19 : List (HloOp τ sig (Elt F))).Forall fun op => op.fresh = ∅ := by
  simp only [List.Forall]; repeat' constructor
abbrev hostOps19_W : List (Ref sig .tc) := [main_v82, main_v83, main_v84]
theorem hostOps19_writes : (hostOps19 : List (HloOp τ sig (Elt F))).Forall fun op => op.writes ⊆ (hostOps19_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps20_fresh : (hostOps20 : List (HloOp τ sig (Elt F))).Forall fun op => op.fresh = ∅ := by
  simp only [List.Forall]; repeat' constructor
abbrev hostOps20_W : List (Ref sig .tc) := [main_v86, main_v87, main_v88]
theorem hostOps20_writes : (hostOps20 : List (HloOp τ sig (Elt F))).Forall fun op => op.writes ⊆ (hostOps20_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps21_fresh : (hostOps21 : List (HloOp τ sig (Elt F))).Forall fun op => op.fresh = ∅ := by
  simp only [List.Forall]; repeat' constructor
abbrev hostOps21_W : List (Ref sig .tc) := [main_v90, main_v91, main_v92]
theorem hostOps21_writes : (hostOps21 : List (HloOp τ sig (Elt F))).Forall fun op => op.writes ⊆ (hostOps21_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps22_fresh : (hostOps22 : List (HloOp τ sig (Elt F))).Forall fun op => op.fresh = ∅ := by
  simp only [List.Forall]; repeat' constructor
abbrev hostOps22_W : List (Ref sig .tc) := [main_v94, main_v95, main_v96]
theorem hostOps22_writes : (hostOps22 : List (HloOp τ sig (Elt F))).Forall fun op => op.writes ⊆ (hostOps22_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps23_fresh : (hostOps23 : List (HloOp τ sig (Elt F))).Forall fun op => op.fresh = ∅ := by
  simp only [List.Forall]; repeat' constructor
abbrev hostOps23_W : List (Ref sig .tc) := [main_v98, main_v99, main_v100]
theorem hostOps23_writes : (hostOps23 : List (HloOp τ sig (Elt F))).Forall fun op => op.writes ⊆ (hostOps23_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps24_fresh : (hostOps24 : List (HloOp τ sig (Elt F))).Forall fun op => op.fresh = ∅ := by
  simp only [List.Forall]; repeat' constructor
abbrev hostOps24_W : List (Ref sig .tc) := [main_v102, main_v103, main_v104]
theorem hostOps24_writes : (hostOps24 : List (HloOp τ sig (Elt F))).Forall fun op => op.writes ⊆ (hostOps24_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps25_fresh : (hostOps25 : List (HloOp τ sig (Elt F))).Forall fun op => op.fresh = ∅ := by
  simp only [List.Forall]; repeat' constructor
abbrev hostOps25_W : List (Ref sig .tc) := [main_v106, main_v107, main_v108]
theorem hostOps25_writes : (hostOps25 : List (HloOp τ sig (Elt F))).Forall fun op => op.writes ⊆ (hostOps25_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps26_fresh : (hostOps26 : List (HloOp τ sig (Elt F))).Forall fun op => op.fresh = ∅ := by
  simp only [List.Forall]; repeat' constructor
abbrev hostOps26_W : List (Ref sig .tc) := [main_v110, main_v111, main_v112]
theorem hostOps26_writes : (hostOps26 : List (HloOp τ sig (Elt F))).Forall fun op => op.writes ⊆ (hostOps26_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps27_fresh : (hostOps27 : List (HloOp τ sig (Elt F))).Forall fun op => op.fresh = ∅ := by
  simp only [List.Forall]; repeat' constructor
abbrev hostOps27_W : List (Ref sig .tc) := [main_v114, main_v115, main_v116]
theorem hostOps27_writes : (hostOps27 : List (HloOp τ sig (Elt F))).Forall fun op => op.writes ⊆ (hostOps27_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps28_fresh : (hostOps28 : List (HloOp τ sig (Elt F))).Forall fun op => op.fresh = ∅ := by
  simp only [List.Forall]; repeat' constructor
abbrev hostOps28_W : List (Ref sig .tc) := [main_v118, main_v119, main_v120]
theorem hostOps28_writes : (hostOps28 : List (HloOp τ sig (Elt F))).Forall fun op => op.writes ⊆ (hostOps28_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps29_fresh : (hostOps29 : List (HloOp τ sig (Elt F))).Forall fun op => op.fresh = ∅ := by
  simp only [List.Forall]; repeat' constructor
abbrev hostOps29_W : List (Ref sig .tc) := [main_v122, main_v123, main_v124]
theorem hostOps29_writes : (hostOps29 : List (HloOp τ sig (Elt F))).Forall fun op => op.writes ⊆ (hostOps29_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps30_fresh : (hostOps30 : List (HloOp τ sig (Elt F))).Forall fun op => op.fresh = ∅ := by
  simp only [List.Forall]; repeat' constructor
abbrev hostOps30_W : List (Ref sig .tc) := [main_v126, main_v127, main_v128]
theorem hostOps30_writes : (hostOps30 : List (HloOp τ sig (Elt F))).Forall fun op => op.writes ⊆ (hostOps30_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps31_fresh : (hostOps31 : List (HloOp τ sig (Elt F))).Forall fun op => op.fresh = ∅ := by
  simp only [List.Forall]; repeat' constructor
abbrev hostOps31_W : List (Ref sig .tc) := [main_v130, main_v131, main_v132]
theorem hostOps31_writes : (hostOps31 : List (HloOp τ sig (Elt F))).Forall fun op => op.writes ⊆ (hostOps31_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps32_fresh : (hostOps32 : List (HloOp τ sig (Elt F))).Forall fun op => op.fresh = ∅ := by
  simp only [List.Forall]; repeat' constructor
abbrev hostOps32_W : List (Ref sig .tc) := [main_v134, main_v135, main_v136]
theorem hostOps32_writes : (hostOps32 : List (HloOp τ sig (Elt F))).Forall fun op => op.writes ⊆ (hostOps32_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps33_fresh : (hostOps33 : List (HloOp τ sig (Elt F))).Forall fun op => op.fresh = ∅ := by
  simp only [List.Forall]; repeat' constructor
abbrev hostOps33_W : List (Ref sig .tc) := [main_v138, main_cst_1, main_v139, main_v140, main_v141, main_v142, main_v143, main_v144, main_v145]
theorem hostOps33_writes : (hostOps33 : List (HloOp τ sig (Elt F))).Forall fun op => op.writes ⊆ (hostOps33_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps34_fresh : (hostOps34 : List (HloOp τ sig (Elt F))).Forall fun op => op.fresh = ∅ := by
  simp only [List.Forall]; repeat' constructor
abbrev hostOps34_W : List (Ref sig .tc) := [main_v147, main_v148, main_v149]
theorem hostOps34_writes : (hostOps34 : List (HloOp τ sig (Elt F))).Forall fun op => op.writes ⊆ (hostOps34_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps35_fresh : (hostOps35 : List (HloOp τ sig (Elt F))).Forall fun op => op.fresh = ∅ := by
  simp only [List.Forall]; repeat' constructor
abbrev hostOps35_W : List (Ref sig .tc) := [main_v151, main_v152, main_v153]
theorem hostOps35_writes : (hostOps35 : List (HloOp τ sig (Elt F))).Forall fun op => op.writes ⊆ (hostOps35_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps36_fresh : (hostOps36 : List (HloOp τ sig (Elt F))).Forall fun op => op.fresh = ∅ := by
  simp only [List.Forall]; repeat' constructor
abbrev hostOps36_W : List (Ref sig .tc) := [main_v155, main_v156, main_v157]
theorem hostOps36_writes : (hostOps36 : List (HloOp τ sig (Elt F))).Forall fun op => op.writes ⊆ (hostOps36_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps37_fresh : (hostOps37 : List (HloOp τ sig (Elt F))).Forall fun op => op.fresh = ∅ := by
  simp only [List.Forall]; repeat' constructor
abbrev hostOps37_W : List (Ref sig .tc) := [main_v159, main_v160, main_v161]
theorem hostOps37_writes : (hostOps37 : List (HloOp τ sig (Elt F))).Forall fun op => op.writes ⊆ (hostOps37_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps38_fresh : (hostOps38 : List (HloOp τ sig (Elt F))).Forall fun op => op.fresh = ∅ := by
  simp only [List.Forall]; repeat' constructor
abbrev hostOps38_W : List (Ref sig .tc) := [main_v163, main_v164, main_v165]
theorem hostOps38_writes : (hostOps38 : List (HloOp τ sig (Elt F))).Forall fun op => op.writes ⊆ (hostOps38_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps39_fresh : (hostOps39 : List (HloOp τ sig (Elt F))).Forall fun op => op.fresh = ∅ := by
  simp only [List.Forall]; repeat' constructor
abbrev hostOps39_W : List (Ref sig .tc) := [main_v167, main_v168, main_v169]
theorem hostOps39_writes : (hostOps39 : List (HloOp τ sig (Elt F))).Forall fun op => op.writes ⊆ (hostOps39_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps40_fresh : (hostOps40 : List (HloOp τ sig (Elt F))).Forall fun op => op.fresh = ∅ := by
  simp only [List.Forall]; repeat' constructor
abbrev hostOps40_W : List (Ref sig .tc) := [main_v171, main_v172, main_v173]
theorem hostOps40_writes : (hostOps40 : List (HloOp τ sig (Elt F))).Forall fun op => op.writes ⊆ (hostOps40_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps41_fresh : (hostOps41 : List (HloOp τ sig (Elt F))).Forall fun op => op.fresh = ∅ := by
  simp only [List.Forall]; repeat' constructor
abbrev hostOps41_W : List (Ref sig .tc) := [main_v175, main_v176, main_v177]
theorem hostOps41_writes : (hostOps41 : List (HloOp τ sig (Elt F))).Forall fun op => op.writes ⊆ (hostOps41_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps42_fresh : (hostOps42 : List (HloOp τ sig (Elt F))).Forall fun op => op.fresh = ∅ := by
  simp only [List.Forall]; repeat' constructor
abbrev hostOps42_W : List (Ref sig .tc) := [main_v179, main_v180, main_v181]
theorem hostOps42_writes : (hostOps42 : List (HloOp τ sig (Elt F))).Forall fun op => op.writes ⊆ (hostOps42_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps43_fresh : (hostOps43 : List (HloOp τ sig (Elt F))).Forall fun op => op.fresh = ∅ := by
  simp only [List.Forall]; repeat' constructor
abbrev hostOps43_W : List (Ref sig .tc) := [main_v183, main_v184, main_v185]
theorem hostOps43_writes : (hostOps43 : List (HloOp τ sig (Elt F))).Forall fun op => op.writes ⊆ (hostOps43_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps44_fresh : (hostOps44 : List (HloOp τ sig (Elt F))).Forall fun op => op.fresh = ∅ := by
  simp only [List.Forall]; repeat' constructor
abbrev hostOps44_W : List (Ref sig .tc) := [main_v187, main_v188, main_v189]
theorem hostOps44_writes : (hostOps44 : List (HloOp τ sig (Elt F))).Forall fun op => op.writes ⊆ (hostOps44_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps45_fresh : (hostOps45 : List (HloOp τ sig (Elt F))).Forall fun op => op.fresh = ∅ := by
  simp only [List.Forall]; repeat' constructor
abbrev hostOps45_W : List (Ref sig .tc) := [main_v191, main_v192, main_v193]
theorem hostOps45_writes : (hostOps45 : List (HloOp τ sig (Elt F))).Forall fun op => op.writes ⊆ (hostOps45_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps46_fresh : (hostOps46 : List (HloOp τ sig (Elt F))).Forall fun op => op.fresh = ∅ := by
  simp only [List.Forall]; repeat' constructor
abbrev hostOps46_W : List (Ref sig .tc) := [main_v195, main_v196, main_v197]
theorem hostOps46_writes : (hostOps46 : List (HloOp τ sig (Elt F))).Forall fun op => op.writes ⊆ (hostOps46_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps47_fresh : (hostOps47 : List (HloOp τ sig (Elt F))).Forall fun op => op.fresh = ∅ := by
  simp only [List.Forall]; repeat' constructor
abbrev hostOps47_W : List (Ref sig .tc) := [main_v199, main_v200, main_v201]
theorem hostOps47_writes : (hostOps47 : List (HloOp τ sig (Elt F))).Forall fun op => op.writes ⊆ (hostOps47_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps48_fresh : (hostOps48 : List (HloOp τ sig (Elt F))).Forall fun op => op.fresh = ∅ := by
  simp only [List.Forall]; repeat' constructor
abbrev hostOps48_W : List (Ref sig .tc) := [main_v203, main_v204, main_v205]
theorem hostOps48_writes : (hostOps48 : List (HloOp τ sig (Elt F))).Forall fun op => op.writes ⊆ (hostOps48_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps49_fresh : (hostOps49 : List (HloOp τ sig (Elt F))).Forall fun op => op.fresh = ∅ := by
  simp only [List.Forall]; repeat' constructor
abbrev hostOps49_W : List (Ref sig .tc) := [main_v207, main_cst_2, main_v208, main_v209, main_v210, main_v211, main_v212, main_v213, main_c_3, main_v214, main_v215, main_c_4, main_v216, main_v217, main_v218, main_v219, main_v220, main_c_5, main_v221, main_v222, main_c_6, main_v223, main_v224, main_v225, main_v226, main_v227]
theorem hostOps49_writes : (hostOps49 : List (HloOp τ sig (Elt F))).Forall fun op => op.writes ⊆ (hostOps49_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

end Cert.Kernel.Hand

end
-- ==== Proof.K.Chain.lean ====
/-
  The buffers' contents at every boundary between two segments of the host program, from the launch memory on:
  a host stretch leaves what its operations compute, a kernel region its arrays at what its write-backs leave;
  and each gather region's table at its entry.
-/
import proofs.«421643_j28415503630349_2_alg».proof.Proof.K.Region0
import proofs.«421643_j28415503630349_2_alg».proof.Proof.K.Region1
import proofs.«421643_j28415503630349_2_alg».proof.Proof.K.Regions_2_9
import proofs.«421643_j28415503630349_2_alg».proof.Proof.K.Regions_10_17
import proofs.«421643_j28415503630349_2_alg».proof.Proof.K.Regions_18_25
import proofs.«421643_j28415503630349_2_alg».proof.Proof.K.Regions_26_33
import proofs.«421643_j28415503630349_2_alg».proof.Proof.K.Regions_34_41
import proofs.«421643_j28415503630349_2_alg».proof.Proof.K.Regions_42_48
import proofs.«421643_j28415503630349_2_alg».proof.Proof.K.HostFacts

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

variable (m : (ℓ : Loc nD τ sig) → Buf (Elt F) ℓ)

/-- The core's buffers at launch. -/
abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
/-- After region 0: its arrays at what the pipeline leaves, every other buffer as entered. -/
def W3 : Dev nD → Valuation τ sig (Elt F) := fun c => Wout0 (W2 m) c
abbrev W4 : Dev nD → Valuation τ sig (Elt F) := fun c => StableHlo.after hostOps1 (W3 m c)
/-- Region 1's table at its entry: admissible whatever it holds (no index map reads it). -/
abbrev adm1 : (pcfg1 (F := F)).Adm := ⟨fun k => Vof (W4 m) 0 (pre1.ref k), trivial⟩
def W5 : Dev nD → Valuation τ sig (Elt F) := fun c => Wout1 (W4 m) (adm1 m) (outBlk1 (Vof (W4 m)) (adm1 m)) c
abbrev W6 : Dev nD → Valuation τ sig (Elt F) := fun c => StableHlo.after hostOps2 (W5 m c)
/-- Region 2's table at its entry: admissible whatever it holds (no index map reads it). -/
abbrev adm2 : (pcfg2 (F := F)).Adm := ⟨fun k => Vof (W6 m) 0 (pre2.ref k), trivial⟩
def W7 : Dev nD → Valuation τ sig (Elt F) := fun c => Wout2 (W6 m) (adm2 m) (outBlk2 (Vof (W6 m)) (adm2 m)) c
abbrev W8 : Dev nD → Valuation τ sig (Elt F) := fun c => StableHlo.after hostOps3 (W7 m c)
/-- Region 3's table at its entry: admissible whatever it holds (no index map reads it). -/
abbrev adm3 : (pcfg3 (F := F)).Adm := ⟨fun k => Vof (W8 m) 0 (pre3.ref k), trivial⟩
def W9 : Dev nD → Valuation τ sig (Elt F) := fun c => Wout3 (W8 m) (adm3 m) (outBlk3 (Vof (W8 m)) (adm3 m)) c
abbrev W10 : Dev nD → Valuation τ sig (Elt F) := fun c => StableHlo.after hostOps4 (W9 m c)
/-- Region 4's table at its entry: admissible whatever it holds (no index map reads it). -/
abbrev adm4 : (pcfg4 (F := F)).Adm := ⟨fun k => Vof (W10 m) 0 (pre4.ref k), trivial⟩
def W11 : Dev nD → Valuation τ sig (Elt F) := fun c => Wout4 (W10 m) (adm4 m) (outBlk4 (Vof (W10 m)) (adm4 m)) c
abbrev W12 : Dev nD → Valuation τ sig (Elt F) := fun c => StableHlo.after hostOps5 (W11 m c)
/-- Region 5's table at its entry: admissible whatever it holds (no index map reads it). -/
abbrev adm5 : (pcfg5 (F := F)).Adm := ⟨fun k => Vof (W12 m) 0 (pre5.ref k), trivial⟩
def W13 : Dev nD → Valuation τ sig (Elt F) := fun c => Wout5 (W12 m) (adm5 m) (outBlk5 (Vof (W12 m)) (adm5 m)) c
abbrev W14 : Dev nD → Valuation τ sig (Elt F) := fun c => StableHlo.after hostOps6 (W13 m c)
/-- Region 6's table at its entry: admissible whatever it holds (no index map reads it). -/
abbrev adm6 : (pcfg6 (F := F)).Adm := ⟨fun k => Vof (W14 m) 0 (pre6.ref k), trivial⟩
def W15 : Dev nD → Valuation τ sig (Elt F) := fun c => Wout6 (W14 m) (adm6 m) (outBlk6 (Vof (W14 m)) (adm6 m)) c
abbrev W16 : Dev nD → Valuation τ sig (Elt F) := fun c => StableHlo.after hostOps7 (W15 m c)
/-- Region 7's table at its entry: admissible whatever it holds (no index map reads it). -/
abbrev adm7 : (pcfg7 (F := F)).Adm := ⟨fun k => Vof (W16 m) 0 (pre7.ref k), trivial⟩
def W17 : Dev nD → Valuation τ sig (Elt F) := fun c => Wout7 (W16 m) (adm7 m) (outBlk7 (Vof (W16 m)) (adm7 m)) c
abbrev W18 : Dev nD → Valuation τ sig (Elt F) := fun c => StableHlo.after hostOps8 (W17 m c)
/-- Region 8's table at its entry: admissible whatever it holds (no index map reads it). -/
abbrev adm8 : (pcfg8 (F := F)).Adm := ⟨fun k => Vof (W18 m) 0 (pre8.ref k), trivial⟩
def W19 : Dev nD → Valuation τ sig (Elt F) := fun c => Wout8 (W18 m) (adm8 m) (outBlk8 (Vof (W18 m)) (adm8 m)) c
abbrev W20 : Dev nD → Valuation τ sig (Elt F) := fun c => StableHlo.after hostOps9 (W19 m c)
/-- Region 9's table at its entry: admissible whatever it holds (no index map reads it). -/
abbrev adm9 : (pcfg9 (F := F)).Adm := ⟨fun k => Vof (W20 m) 0 (pre9.ref k), trivial⟩
def W21 : Dev nD → Valuation τ sig (Elt F) := fun c => Wout9 (W20 m) (adm9 m) (outBlk9 (Vof (W20 m)) (adm9 m)) c
abbrev W22 : Dev nD → Valuation τ sig (Elt F) := fun c => StableHlo.after hostOps10 (W21 m c)
/-- Region 10's table at its entry: admissible whatever it holds (no index map reads it). -/
abbrev adm10 : (pcfg10 (F := F)).Adm := ⟨fun k => Vof (W22 m) 0 (pre10.ref k), trivial⟩
def W23 : Dev nD → Valuation τ sig (Elt F) := fun c => Wout10 (W22 m) (adm10 m) (outBlk10 (Vof (W22 m)) (adm10 m)) c
abbrev W24 : Dev nD → Valuation τ sig (Elt F) := fun c => StableHlo.after hostOps11 (W23 m c)
/-- Region 11's table at its entry: admissible whatever it holds (no index map reads it). -/
abbrev adm11 : (pcfg11 (F := F)).Adm := ⟨fun k => Vof (W24 m) 0 (pre11.ref k), trivial⟩
def W25 : Dev nD → Valuation τ sig (Elt F) := fun c => Wout11 (W24 m) (adm11 m) (outBlk11 (Vof (W24 m)) (adm11 m)) c
abbrev W26 : Dev nD → Valuation τ sig (Elt F) := fun c => StableHlo.after hostOps12 (W25 m c)
/-- Region 12's table at its entry: admissible whatever it holds (no index map reads it). -/
abbrev adm12 : (pcfg12 (F := F)).Adm := ⟨fun k => Vof (W26 m) 0 (pre12.ref k), trivial⟩
def W27 : Dev nD → Valuation τ sig (Elt F) := fun c => Wout12 (W26 m) (adm12 m) (outBlk12 (Vof (W26 m)) (adm12 m)) c
abbrev W28 : Dev nD → Valuation τ sig (Elt F) := fun c => StableHlo.after hostOps13 (W27 m c)
/-- Region 13's table at its entry: admissible whatever it holds (no index map reads it). -/
abbrev adm13 : (pcfg13 (F := F)).Adm := ⟨fun k => Vof (W28 m) 0 (pre13.ref k), trivial⟩
def W29 : Dev nD → Valuation τ sig (Elt F) := fun c => Wout13 (W28 m) (adm13 m) (outBlk13 (Vof (W28 m)) (adm13 m)) c
abbrev W30 : Dev nD → Valuation τ sig (Elt F) := fun c => StableHlo.after hostOps14 (W29 m c)
/-- Region 14's table at its entry: admissible whatever it holds (no index map reads it). -/
abbrev adm14 : (pcfg14 (F := F)).Adm := ⟨fun k => Vof (W30 m) 0 (pre14.ref k), trivial⟩
def W31 : Dev nD → Valuation τ sig (Elt F) := fun c => Wout14 (W30 m) (adm14 m) (outBlk14 (Vof (W30 m)) (adm14 m)) c
abbrev W32 : Dev nD → Valuation τ sig (Elt F) := fun c => StableHlo.after hostOps15 (W31 m c)
/-- Region 15's table at its entry: admissible whatever it holds (no index map reads it). -/
abbrev adm15 : (pcfg15 (F := F)).Adm := ⟨fun k => Vof (W32 m) 0 (pre15.ref k), trivial⟩
def W33 : Dev nD → Valuation τ sig (Elt F) := fun c => Wout15 (W32 m) (adm15 m) (outBlk15 (Vof (W32 m)) (adm15 m)) c
abbrev W34 : Dev nD → Valuation τ sig (Elt F) := fun c => StableHlo.after hostOps16 (W33 m c)
/-- Region 16's table at its entry: admissible whatever it holds (no index map reads it). -/
abbrev adm16 : (pcfg16 (F := F)).Adm := ⟨fun k => Vof (W34 m) 0 (pre16.ref k), trivial⟩
def W35 : Dev nD → Valuation τ sig (Elt F) := fun c => Wout16 (W34 m) (adm16 m) (outBlk16 (Vof (W34 m)) (adm16 m)) c
abbrev W36 : Dev nD → Valuation τ sig (Elt F) := fun c => StableHlo.after hostOps17 (W35 m c)
/-- Region 17's table at its entry: admissible whatever it holds (no index map reads it). -/
abbrev adm17 : (pcfg17 (F := F)).Adm := ⟨fun k => Vof (W36 m) 0 (pre17.ref k), trivial⟩
def W37 : Dev nD → Valuation τ sig (Elt F) := fun c => Wout17 (W36 m) (adm17 m) (outBlk17 (Vof (W36 m)) (adm17 m)) c
abbrev W38 : Dev nD → Valuation τ sig (Elt F) := fun c => StableHlo.after hostOps18 (W37 m c)
/-- Region 18's table at its entry: admissible whatever it holds (no index map reads it). -/
abbrev adm18 : (pcfg18 (F := F)).Adm := ⟨fun k => Vof (W38 m) 0 (pre18.ref k), trivial⟩
def W39 : Dev nD → Valuation τ sig (Elt F) := fun c => Wout18 (W38 m) (adm18 m) (outBlk18 (Vof (W38 m)) (adm18 m)) c
abbrev W40 : Dev nD → Valuation τ sig (Elt F) := fun c => StableHlo.after hostOps19 (W39 m c)
/-- Region 19's table at its entry: admissible whatever it holds (no index map reads it). -/
abbrev adm19 : (pcfg19 (F := F)).Adm := ⟨fun k => Vof (W40 m) 0 (pre19.ref k), trivial⟩
def W41 : Dev nD → Valuation τ sig (Elt F) := fun c => Wout19 (W40 m) (adm19 m) (outBlk19 (Vof (W40 m)) (adm19 m)) c
abbrev W42 : Dev nD → Valuation τ sig (Elt F) := fun c => StableHlo.after hostOps20 (W41 m c)
/-- Region 20's table at its entry: admissible whatever it holds (no index map reads it). -/
abbrev adm20 : (pcfg20 (F := F)).Adm := ⟨fun k => Vof (W42 m) 0 (pre20.ref k), trivial⟩
def W43 : Dev nD → Valuation τ sig (Elt F) := fun c => Wout20 (W42 m) (adm20 m) (outBlk20 (Vof (W42 m)) (adm20 m)) c
abbrev W44 : Dev nD → Valuation τ sig (Elt F) := fun c => StableHlo.after hostOps21 (W43 m c)
/-- Region 21's table at its entry: admissible whatever it holds (no index map reads it). -/
abbrev adm21 : (pcfg21 (F := F)).Adm := ⟨fun k => Vof (W44 m) 0 (pre21.ref k), trivial⟩
def W45 : Dev nD → Valuation τ sig (Elt F) := fun c => Wout21 (W44 m) (adm21 m) (outBlk21 (Vof (W44 m)) (adm21 m)) c
abbrev W46 : Dev nD → Valuation τ sig (Elt F) := fun c => StableHlo.after hostOps22 (W45 m c)
/-- Region 22's table at its entry: admissible whatever it holds (no index map reads it). -/
abbrev adm22 : (pcfg22 (F := F)).Adm := ⟨fun k => Vof (W46 m) 0 (pre22.ref k), trivial⟩
def W47 : Dev nD → Valuation τ sig (Elt F) := fun c => Wout22 (W46 m) (adm22 m) (outBlk22 (Vof (W46 m)) (adm22 m)) c
abbrev W48 : Dev nD → Valuation τ sig (Elt F) := fun c => StableHlo.after hostOps23 (W47 m c)
/-- Region 23's table at its entry: admissible whatever it holds (no index map reads it). -/
abbrev adm23 : (pcfg23 (F := F)).Adm := ⟨fun k => Vof (W48 m) 0 (pre23.ref k), trivial⟩
def W49 : Dev nD → Valuation τ sig (Elt F) := fun c => Wout23 (W48 m) (adm23 m) (outBlk23 (Vof (W48 m)) (adm23 m)) c
abbrev W50 : Dev nD → Valuation τ sig (Elt F) := fun c => StableHlo.after hostOps24 (W49 m c)
/-- Region 24's table at its entry: admissible whatever it holds (no index map reads it). -/
abbrev adm24 : (pcfg24 (F := F)).Adm := ⟨fun k => Vof (W50 m) 0 (pre24.ref k), trivial⟩
def W51 : Dev nD → Valuation τ sig (Elt F) := fun c => Wout24 (W50 m) (adm24 m) (outBlk24 (Vof (W50 m)) (adm24 m)) c
abbrev W52 : Dev nD → Valuation τ sig (Elt F) := fun c => StableHlo.after hostOps25 (W51 m c)
/-- Region 25's table at its entry: admissible whatever it holds (no index map reads it). -/
abbrev adm25 : (pcfg25 (F := F)).Adm := ⟨fun k => Vof (W52 m) 0 (pre25.ref k), trivial⟩
def W53 : Dev nD → Valuation τ sig (Elt F) := fun c => Wout25 (W52 m) (adm25 m) (outBlk25 (Vof (W52 m)) (adm25 m)) c
abbrev W54 : Dev nD → Valuation τ sig (Elt F) := fun c => StableHlo.after hostOps26 (W53 m c)
/-- Region 26's table at its entry: admissible whatever it holds (no index map reads it). -/
abbrev adm26 : (pcfg26 (F := F)).Adm := ⟨fun k => Vof (W54 m) 0 (pre26.ref k), trivial⟩
def W55 : Dev nD → Valuation τ sig (Elt F) := fun c => Wout26 (W54 m) (adm26 m) (outBlk26 (Vof (W54 m)) (adm26 m)) c
abbrev W56 : Dev nD → Valuation τ sig (Elt F) := fun c => StableHlo.after hostOps27 (W55 m c)
/-- Region 27's table at its entry: admissible whatever it holds (no index map reads it). -/
abbrev adm27 : (pcfg27 (F := F)).Adm := ⟨fun k => Vof (W56 m) 0 (pre27.ref k), trivial⟩
def W57 : Dev nD → Valuation τ sig (Elt F) := fun c => Wout27 (W56 m) (adm27 m) (outBlk27 (Vof (W56 m)) (adm27 m)) c
abbrev W58 : Dev nD → Valuation τ sig (Elt F) := fun c => StableHlo.after hostOps28 (W57 m c)
/-- Region 28's table at its entry: admissible whatever it holds (no index map reads it). -/
abbrev adm28 : (pcfg28 (F := F)).Adm := ⟨fun k => Vof (W58 m) 0 (pre28.ref k), trivial⟩
def W59 : Dev nD → Valuation τ sig (Elt F) := fun c => Wout28 (W58 m) (adm28 m) (outBlk28 (Vof (W58 m)) (adm28 m)) c
abbrev W60 : Dev nD → Valuation τ sig (Elt F) := fun c => StableHlo.after hostOps29 (W59 m c)
/-- Region 29's table at its entry: admissible whatever it holds (no index map reads it). -/
abbrev adm29 : (pcfg29 (F := F)).Adm := ⟨fun k => Vof (W60 m) 0 (pre29.ref k), trivial⟩
def W61 : Dev nD → Valuation τ sig (Elt F) := fun c => Wout29 (W60 m) (adm29 m) (outBlk29 (Vof (W60 m)) (adm29 m)) c
abbrev W62 : Dev nD → Valuation τ sig (Elt F) := fun c => StableHlo.after hostOps30 (W61 m c)
/-- Region 30's table at its entry: admissible whatever it holds (no index map reads it). -/
abbrev adm30 : (pcfg30 (F := F)).Adm := ⟨fun k => Vof (W62 m) 0 (pre30.ref k), trivial⟩
def W63 : Dev nD → Valuation τ sig (Elt F) := fun c => Wout30 (W62 m) (adm30 m) (outBlk30 (Vof (W62 m)) (adm30 m)) c
abbrev W64 : Dev nD → Valuation τ sig (Elt F) := fun c => StableHlo.after hostOps31 (W63 m c)
/-- Region 31's table at its entry: admissible whatever it holds (no index map reads it). -/
abbrev adm31 : (pcfg31 (F := F)).Adm := ⟨fun k => Vof (W64 m) 0 (pre31.ref k), trivial⟩
def W65 : Dev nD → Valuation τ sig (Elt F) := fun c => Wout31 (W64 m) (adm31 m) (outBlk31 (Vof (W64 m)) (adm31 m)) c
abbrev W66 : Dev nD → Valuation τ sig (Elt F) := fun c => StableHlo.after hostOps32 (W65 m c)
/-- Region 32's table at its entry: admissible whatever it holds (no index map reads it). -/
abbrev adm32 : (pcfg32 (F := F)).Adm := ⟨fun k => Vof (W66 m) 0 (pre32.ref k), trivial⟩
def W67 : Dev nD → Valuation τ sig (Elt F) := fun c => Wout32 (W66 m) (adm32 m) (outBlk32 (Vof (W66 m)) (adm32 m)) c
abbrev W68 : Dev nD → Valuation τ sig (Elt F) := fun c => StableHlo.after hostOps33 (W67 m c)
/-- Region 33's table at its entry: admissible whatever it holds (no index map reads it). -/
abbrev adm33 : (pcfg33 (F := F)).Adm := ⟨fun k => Vof (W68 m) 0 (pre33.ref k), trivial⟩
def W69 : Dev nD → Valuation τ sig (Elt F) := fun c => Wout33 (W68 m) (adm33 m) (outBlk33 (Vof (W68 m)) (adm33 m)) c
abbrev W70 : Dev nD → Valuation τ sig (Elt F) := fun c => StableHlo.after hostOps34 (W69 m c)
/-- Region 34's table at its entry: admissible whatever it holds (no index map reads it). -/
abbrev adm34 : (pcfg34 (F := F)).Adm := ⟨fun k => Vof (W70 m) 0 (pre34.ref k), trivial⟩
def W71 : Dev nD → Valuation τ sig (Elt F) := fun c => Wout34 (W70 m) (adm34 m) (outBlk34 (Vof (W70 m)) (adm34 m)) c
abbrev W72 : Dev nD → Valuation τ sig (Elt F) := fun c => StableHlo.after hostOps35 (W71 m c)
/-- Region 35's table at its entry: admissible whatever it holds (no index map reads it). -/
abbrev adm35 : (pcfg35 (F := F)).Adm := ⟨fun k => Vof (W72 m) 0 (pre35.ref k), trivial⟩
def W73 : Dev nD → Valuation τ sig (Elt F) := fun c => Wout35 (W72 m) (adm35 m) (outBlk35 (Vof (W72 m)) (adm35 m)) c
abbrev W74 : Dev nD → Valuation τ sig (Elt F) := fun c => StableHlo.after hostOps36 (W73 m c)
/-- Region 36's table at its entry: admissible whatever it holds (no index map reads it). -/
abbrev adm36 : (pcfg36 (F := F)).Adm := ⟨fun k => Vof (W74 m) 0 (pre36.ref k), trivial⟩
def W75 : Dev nD → Valuation τ sig (Elt F) := fun c => Wout36 (W74 m) (adm36 m) (outBlk36 (Vof (W74 m)) (adm36 m)) c
abbrev W76 : Dev nD → Valuation τ sig (Elt F) := fun c => StableHlo.after hostOps37 (W75 m c)
/-- Region 37's table at its entry: admissible whatever it holds (no index map reads it). -/
abbrev adm37 : (pcfg37 (F := F)).Adm := ⟨fun k => Vof (W76 m) 0 (pre37.ref k), trivial⟩
def W77 : Dev nD → Valuation τ sig (Elt F) := fun c => Wout37 (W76 m) (adm37 m) (outBlk37 (Vof (W76 m)) (adm37 m)) c
abbrev W78 : Dev nD → Valuation τ sig (Elt F) := fun c => StableHlo.after hostOps38 (W77 m c)
/-- Region 38's table at its entry: admissible whatever it holds (no index map reads it). -/
abbrev adm38 : (pcfg38 (F := F)).Adm := ⟨fun k => Vof (W78 m) 0 (pre38.ref k), trivial⟩
def W79 : Dev nD → Valuation τ sig (Elt F) := fun c => Wout38 (W78 m) (adm38 m) (outBlk38 (Vof (W78 m)) (adm38 m)) c
abbrev W80 : Dev nD → Valuation τ sig (Elt F) := fun c => StableHlo.after hostOps39 (W79 m c)
/-- Region 39's table at its entry: admissible whatever it holds (no index map reads it). -/
abbrev adm39 : (pcfg39 (F := F)).Adm := ⟨fun k => Vof (W80 m) 0 (pre39.ref k), trivial⟩
def W81 : Dev nD → Valuation τ sig (Elt F) := fun c => Wout39 (W80 m) (adm39 m) (outBlk39 (Vof (W80 m)) (adm39 m)) c
abbrev W82 : Dev nD → Valuation τ sig (Elt F) := fun c => StableHlo.after hostOps40 (W81 m c)
/-- Region 40's table at its entry: admissible whatever it holds (no index map reads it). -/
abbrev adm40 : (pcfg40 (F := F)).Adm := ⟨fun k => Vof (W82 m) 0 (pre40.ref k), trivial⟩
def W83 : Dev nD → Valuation τ sig (Elt F) := fun c => Wout40 (W82 m) (adm40 m) (outBlk40 (Vof (W82 m)) (adm40 m)) c
abbrev W84 : Dev nD → Valuation τ sig (Elt F) := fun c => StableHlo.after hostOps41 (W83 m c)
/-- Region 41's table at its entry: admissible whatever it holds (no index map reads it). -/
abbrev adm41 : (pcfg41 (F := F)).Adm := ⟨fun k => Vof (W84 m) 0 (pre41.ref k), trivial⟩
def W85 : Dev nD → Valuation τ sig (Elt F) := fun c => Wout41 (W84 m) (adm41 m) (outBlk41 (Vof (W84 m)) (adm41 m)) c
abbrev W86 : Dev nD → Valuation τ sig (Elt F) := fun c => StableHlo.after hostOps42 (W85 m c)
/-- Region 42's table at its entry: admissible whatever it holds (no index map reads it). -/
abbrev adm42 : (pcfg42 (F := F)).Adm := ⟨fun k => Vof (W86 m) 0 (pre42.ref k), trivial⟩
def W87 : Dev nD → Valuation τ sig (Elt F) := fun c => Wout42 (W86 m) (adm42 m) (outBlk42 (Vof (W86 m)) (adm42 m)) c
abbrev W88 : Dev nD → Valuation τ sig (Elt F) := fun c => StableHlo.after hostOps43 (W87 m c)
/-- Region 43's table at its entry: admissible whatever it holds (no index map reads it). -/
abbrev adm43 : (pcfg43 (F := F)).Adm := ⟨fun k => Vof (W88 m) 0 (pre43.ref k), trivial⟩
def W89 : Dev nD → Valuation τ sig (Elt F) := fun c => Wout43 (W88 m) (adm43 m) (outBlk43 (Vof (W88 m)) (adm43 m)) c
abbrev W90 : Dev nD → Valuation τ sig (Elt F) := fun c => StableHlo.after hostOps44 (W89 m c)
/-- Region 44's table at its entry: admissible whatever it holds (no index map reads it). -/
abbrev adm44 : (pcfg44 (F := F)).Adm := ⟨fun k => Vof (W90 m) 0 (pre44.ref k), trivial⟩
def W91 : Dev nD → Valuation τ sig (Elt F) := fun c => Wout44 (W90 m) (adm44 m) (outBlk44 (Vof (W90 m)) (adm44 m)) c
abbrev W92 : Dev nD → Valuation τ sig (Elt F) := fun c => StableHlo.after hostOps45 (W91 m c)
/-- Region 45's table at its entry: admissible whatever it holds (no index map reads it). -/
abbrev adm45 : (pcfg45 (F := F)).Adm := ⟨fun k => Vof (W92 m) 0 (pre45.ref k), trivial⟩
def W93 : Dev nD → Valuation τ sig (Elt F) := fun c => Wout45 (W92 m) (adm45 m) (outBlk45 (Vof (W92 m)) (adm45 m)) c
abbrev W94 : Dev nD → Valuation τ sig (Elt F) := fun c => StableHlo.after hostOps46 (W93 m c)
/-- Region 46's table at its entry: admissible whatever it holds (no index map reads it). -/
abbrev adm46 : (pcfg46 (F := F)).Adm := ⟨fun k => Vof (W94 m) 0 (pre46.ref k), trivial⟩
def W95 : Dev nD → Valuation τ sig (Elt F) := fun c => Wout46 (W94 m) (adm46 m) (outBlk46 (Vof (W94 m)) (adm46 m)) c
abbrev W96 : Dev nD → Valuation τ sig (Elt F) := fun c => StableHlo.after hostOps47 (W95 m c)
/-- Region 47's table at its entry: admissible whatever it holds (no index map reads it). -/
abbrev adm47 : (pcfg47 (F := F)).Adm := ⟨fun k => Vof (W96 m) 0 (pre47.ref k), trivial⟩
def W97 : Dev nD → Valuation τ sig (Elt F) := fun c => Wout47 (W96 m) (adm47 m) (outBlk47 (Vof (W96 m)) (adm47 m)) c
abbrev W98 : Dev nD → Valuation τ sig (Elt F) := fun c => StableHlo.after hostOps48 (W97 m c)
/-- Region 48's table at its entry: admissible whatever it holds (no index map reads it). -/
abbrev adm48 : (pcfg48 (F := F)).Adm := ⟨fun k => Vof (W98 m) 0 (pre48.ref k), trivial⟩
def W99 : Dev nD → Valuation τ sig (Elt F) := fun c => Wout48 (W98 m) (adm48 m) (outBlk48 (Vof (W98 m)) (adm48 m)) c
abbrev W100 : Dev nD → Valuation τ sig (Elt F) := fun c => StableHlo.after hostOps49 (W99 m c)

/-! ## What each segment leaves unchanged -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ hostOps0_1_W) : W2 m c r = W1 m c r :=
  StableHlo.after_of_writes_sub hostOps0_1 _ hostOps0_1_writes h
theorem W4_of (c : Dev nD) (r : Ref sig .tc) (h : r ∉ hostOps1_W) : W4 m c r = W3 m c r :=
  StableHlo.after_of_writes_sub hostOps1 _ hostOps1_writes h
theorem W6_of (c : Dev nD) (r : Ref sig .tc) (h : r ∉ hostOps2_W) : W6 m c r = W5 m c r :=
  StableHlo.after_of_writes_sub hostOps2 _ hostOps2_writes h
theorem W8_of (c : Dev nD) (r : Ref sig .tc) (h : r ∉ hostOps3_W) : W8 m c r = W7 m c r :=
  StableHlo.after_of_writes_sub hostOps3 _ hostOps3_writes h
theorem W10_of (c : Dev nD) (r : Ref sig .tc) (h : r ∉ hostOps4_W) : W10 m c r = W9 m c r :=
  StableHlo.after_of_writes_sub hostOps4 _ hostOps4_writes h
theorem W12_of (c : Dev nD) (r : Ref sig .tc) (h : r ∉ hostOps5_W) : W12 m c r = W11 m c r :=
  StableHlo.after_of_writes_sub hostOps5 _ hostOps5_writes h
theorem W14_of (c : Dev nD) (r : Ref sig .tc) (h : r ∉ hostOps6_W) : W14 m c r = W13 m c r :=
  StableHlo.after_of_writes_sub hostOps6 _ hostOps6_writes h
theorem W16_of (c : Dev nD) (r : Ref sig .tc) (h : r ∉ hostOps7_W) : W16 m c r = W15 m c r :=
  StableHlo.after_of_writes_sub hostOps7 _ hostOps7_writes h
theorem W18_of (c : Dev nD) (r : Ref sig .tc) (h : r ∉ hostOps8_W) : W18 m c r = W17 m c r :=
  StableHlo.after_of_writes_sub hostOps8 _ hostOps8_writes h
theorem W20_of (c : Dev nD) (r : Ref sig .tc) (h : r ∉ hostOps9_W) : W20 m c r = W19 m c r :=
  StableHlo.after_of_writes_sub hostOps9 _ hostOps9_writes h
theorem W22_of (c : Dev nD) (r : Ref sig .tc) (h : r ∉ hostOps10_W) : W22 m c r = W21 m c r :=
  StableHlo.after_of_writes_sub hostOps10 _ hostOps10_writes h
theorem W24_of (c : Dev nD) (r : Ref sig .tc) (h : r ∉ hostOps11_W) : W24 m c r = W23 m c r :=
  StableHlo.after_of_writes_sub hostOps11 _ hostOps11_writes h
theorem W26_of (c : Dev nD) (r : Ref sig .tc) (h : r ∉ hostOps12_W) : W26 m c r = W25 m c r :=
  StableHlo.after_of_writes_sub hostOps12 _ hostOps12_writes h
theorem W28_of (c : Dev nD) (r : Ref sig .tc) (h : r ∉ hostOps13_W) : W28 m c r = W27 m c r :=
  StableHlo.after_of_writes_sub hostOps13 _ hostOps13_writes h
theorem W30_of (c : Dev nD) (r : Ref sig .tc) (h : r ∉ hostOps14_W) : W30 m c r = W29 m c r :=
  StableHlo.after_of_writes_sub hostOps14 _ hostOps14_writes h
theorem W32_of (c : Dev nD) (r : Ref sig .tc) (h : r ∉ hostOps15_W) : W32 m c r = W31 m c r :=
  StableHlo.after_of_writes_sub hostOps15 _ hostOps15_writes h
theorem W34_of (c : Dev nD) (r : Ref sig .tc) (h : r ∉ hostOps16_W) : W34 m c r = W33 m c r :=
  StableHlo.after_of_writes_sub hostOps16 _ hostOps16_writes h
theorem W36_of (c : Dev nD) (r : Ref sig .tc) (h : r ∉ hostOps17_W) : W36 m c r = W35 m c r :=
  StableHlo.after_of_writes_sub hostOps17 _ hostOps17_writes h
theorem W38_of (c : Dev nD) (r : Ref sig .tc) (h : r ∉ hostOps18_W) : W38 m c r = W37 m c r :=
  StableHlo.after_of_writes_sub hostOps18 _ hostOps18_writes h
theorem W40_of (c : Dev nD) (r : Ref sig .tc) (h : r ∉ hostOps19_W) : W40 m c r = W39 m c r :=
  StableHlo.after_of_writes_sub hostOps19 _ hostOps19_writes h
theorem W42_of (c : Dev nD) (r : Ref sig .tc) (h : r ∉ hostOps20_W) : W42 m c r = W41 m c r :=
  StableHlo.after_of_writes_sub hostOps20 _ hostOps20_writes h
theorem W44_of (c : Dev nD) (r : Ref sig .tc) (h : r ∉ hostOps21_W) : W44 m c r = W43 m c r :=
  StableHlo.after_of_writes_sub hostOps21 _ hostOps21_writes h
theorem W46_of (c : Dev nD) (r : Ref sig .tc) (h : r ∉ hostOps22_W) : W46 m c r = W45 m c r :=
  StableHlo.after_of_writes_sub hostOps22 _ hostOps22_writes h
theorem W48_of (c : Dev nD) (r : Ref sig .tc) (h : r ∉ hostOps23_W) : W48 m c r = W47 m c r :=
  StableHlo.after_of_writes_sub hostOps23 _ hostOps23_writes h
theorem W50_of (c : Dev nD) (r : Ref sig .tc) (h : r ∉ hostOps24_W) : W50 m c r = W49 m c r :=
  StableHlo.after_of_writes_sub hostOps24 _ hostOps24_writes h
theorem W52_of (c : Dev nD) (r : Ref sig .tc) (h : r ∉ hostOps25_W) : W52 m c r = W51 m c r :=
  StableHlo.after_of_writes_sub hostOps25 _ hostOps25_writes h
theorem W54_of (c : Dev nD) (r : Ref sig .tc) (h : r ∉ hostOps26_W) : W54 m c r = W53 m c r :=
  StableHlo.after_of_writes_sub hostOps26 _ hostOps26_writes h
theorem W56_of (c : Dev nD) (r : Ref sig .tc) (h : r ∉ hostOps27_W) : W56 m c r = W55 m c r :=
  StableHlo.after_of_writes_sub hostOps27 _ hostOps27_writes h
theorem W58_of (c : Dev nD) (r : Ref sig .tc) (h : r ∉ hostOps28_W) : W58 m c r = W57 m c r :=
  StableHlo.after_of_writes_sub hostOps28 _ hostOps28_writes h
theorem W60_of (c : Dev nD) (r : Ref sig .tc) (h : r ∉ hostOps29_W) : W60 m c r = W59 m c r :=
  StableHlo.after_of_writes_sub hostOps29 _ hostOps29_writes h
theorem W62_of (c : Dev nD) (r : Ref sig .tc) (h : r ∉ hostOps30_W) : W62 m c r = W61 m c r :=
  StableHlo.after_of_writes_sub hostOps30 _ hostOps30_writes h
theorem W64_of (c : Dev nD) (r : Ref sig .tc) (h : r ∉ hostOps31_W) : W64 m c r = W63 m c r :=
  StableHlo.after_of_writes_sub hostOps31 _ hostOps31_writes h
theorem W66_of (c : Dev nD) (r : Ref sig .tc) (h : r ∉ hostOps32_W) : W66 m c r = W65 m c r :=
  StableHlo.after_of_writes_sub hostOps32 _ hostOps32_writes h
theorem W68_of (c : Dev nD) (r : Ref sig .tc) (h : r ∉ hostOps33_W) : W68 m c r = W67 m c r :=
  StableHlo.after_of_writes_sub hostOps33 _ hostOps33_writes h
theorem W70_of (c : Dev nD) (r : Ref sig .tc) (h : r ∉ hostOps34_W) : W70 m c r = W69 m c r :=
  StableHlo.after_of_writes_sub hostOps34 _ hostOps34_writes h
theorem W72_of (c : Dev nD) (r : Ref sig .tc) (h : r ∉ hostOps35_W) : W72 m c r = W71 m c r :=
  StableHlo.after_of_writes_sub hostOps35 _ hostOps35_writes h
theorem W74_of (c : Dev nD) (r : Ref sig .tc) (h : r ∉ hostOps36_W) : W74 m c r = W73 m c r :=
  StableHlo.after_of_writes_sub hostOps36 _ hostOps36_writes h
theorem W76_of (c : Dev nD) (r : Ref sig .tc) (h : r ∉ hostOps37_W) : W76 m c r = W75 m c r :=
  StableHlo.after_of_writes_sub hostOps37 _ hostOps37_writes h
theorem W78_of (c : Dev nD) (r : Ref sig .tc) (h : r ∉ hostOps38_W) : W78 m c r = W77 m c r :=
  StableHlo.after_of_writes_sub hostOps38 _ hostOps38_writes h
theorem W80_of (c : Dev nD) (r : Ref sig .tc) (h : r ∉ hostOps39_W) : W80 m c r = W79 m c r :=
  StableHlo.after_of_writes_sub hostOps39 _ hostOps39_writes h
theorem W82_of (c : Dev nD) (r : Ref sig .tc) (h : r ∉ hostOps40_W) : W82 m c r = W81 m c r :=
  StableHlo.after_of_writes_sub hostOps40 _ hostOps40_writes h
theorem W84_of (c : Dev nD) (r : Ref sig .tc) (h : r ∉ hostOps41_W) : W84 m c r = W83 m c r :=
  StableHlo.after_of_writes_sub hostOps41 _ hostOps41_writes h
theorem W86_of (c : Dev nD) (r : Ref sig .tc) (h : r ∉ hostOps42_W) : W86 m c r = W85 m c r :=
  StableHlo.after_of_writes_sub hostOps42 _ hostOps42_writes h
theorem W88_of (c : Dev nD) (r : Ref sig .tc) (h : r ∉ hostOps43_W) : W88 m c r = W87 m c r :=
  StableHlo.after_of_writes_sub hostOps43 _ hostOps43_writes h
theorem W90_of (c : Dev nD) (r : Ref sig .tc) (h : r ∉ hostOps44_W) : W90 m c r = W89 m c r :=
  StableHlo.after_of_writes_sub hostOps44 _ hostOps44_writes h
theorem W92_of (c : Dev nD) (r : Ref sig .tc) (h : r ∉ hostOps45_W) : W92 m c r = W91 m c r :=
  StableHlo.after_of_writes_sub hostOps45 _ hostOps45_writes h
theorem W94_of (c : Dev nD) (r : Ref sig .tc) (h : r ∉ hostOps46_W) : W94 m c r = W93 m c r :=
  StableHlo.after_of_writes_sub hostOps46 _ hostOps46_writes h
theorem W96_of (c : Dev nD) (r : Ref sig .tc) (h : r ∉ hostOps47_W) : W96 m c r = W95 m c r :=
  StableHlo.after_of_writes_sub hostOps47 _ hostOps47_writes h
theorem W98_of (c : Dev nD) (r : Ref sig .tc) (h : r ∉ hostOps48_W) : W98 m c r = W97 m c r :=
  StableHlo.after_of_writes_sub hostOps48 _ hostOps48_writes h
theorem W100_of (c : Dev nD) (r : Ref sig .tc) (h : r ∉ hostOps49_W) : W100 m c r = W99 m c r :=
  StableHlo.after_of_writes_sub hostOps49 _ hostOps49_writes h
theorem W3_of (c : Dev nD) (r : Ref sig .tc) (h : ∀ w, Pipeline.arrRef spec0 w ≠ r) : W3 m c r = W2 m c r := Wout0_of_ne (W2 m) c r h
theorem W5_of (c : Dev nD) (r : Ref sig .tc) (h : ∀ w, Pipeline.arrRef spec1 w ≠ r) : W5 m c r = W4 m c r := Wout1_of_ne (W4 m) (adm1 m) _ c r h
theorem W7_of (c : Dev nD) (r : Ref sig .tc) (h : ∀ w, Pipeline.arrRef spec2 w ≠ r) : W7 m c r = W6 m c r := Wout2_of_ne (W6 m) (adm2 m) _ c r h
theorem W9_of (c : Dev nD) (r : Ref sig .tc) (h : ∀ w, Pipeline.arrRef spec3 w ≠ r) : W9 m c r = W8 m c r := Wout3_of_ne (W8 m) (adm3 m) _ c r h
theorem W11_of (c : Dev nD) (r : Ref sig .tc) (h : ∀ w, Pipeline.arrRef spec4 w ≠ r) : W11 m c r = W10 m c r := Wout4_of_ne (W10 m) (adm4 m) _ c r h
theorem W13_of (c : Dev nD) (r : Ref sig .tc) (h : ∀ w, Pipeline.arrRef spec5 w ≠ r) : W13 m c r = W12 m c r := Wout5_of_ne (W12 m) (adm5 m) _ c r h
theorem W15_of (c : Dev nD) (r : Ref sig .tc) (h : ∀ w, Pipeline.arrRef spec6 w ≠ r) : W15 m c r = W14 m c r := Wout6_of_ne (W14 m) (adm6 m) _ c r h
theorem W17_of (c : Dev nD) (r : Ref sig .tc) (h : ∀ w, Pipeline.arrRef spec7 w ≠ r) : W17 m c r = W16 m c r := Wout7_of_ne (W16 m) (adm7 m) _ c r h
theorem W19_of (c : Dev nD) (r : Ref sig .tc) (h : ∀ w, Pipeline.arrRef spec8 w ≠ r) : W19 m c r = W18 m c r := Wout8_of_ne (W18 m) (adm8 m) _ c r h
theorem W21_of (c : Dev nD) (r : Ref sig .tc) (h : ∀ w, Pipeline.arrRef spec9 w ≠ r) : W21 m c r = W20 m c r := Wout9_of_ne (W20 m) (adm9 m) _ c r h
theorem W23_of (c : Dev nD) (r : Ref sig .tc) (h : ∀ w, Pipeline.arrRef spec10 w ≠ r) : W23 m c r = W22 m c r := Wout10_of_ne (W22 m) (adm10 m) _ c r h
theorem W25_of (c : Dev nD) (r : Ref sig .tc) (h : ∀ w, Pipeline.arrRef spec11 w ≠ r) : W25 m c r = W24 m c r := Wout11_of_ne (W24 m) (adm11 m) _ c r h
theorem W27_of (c : Dev nD) (r : Ref sig .tc) (h : ∀ w, Pipeline.arrRef spec12 w ≠ r) : W27 m c r = W26 m c r := Wout12_of_ne (W26 m) (adm12 m) _ c r h
theorem W29_of (c : Dev nD) (r : Ref sig .tc) (h : ∀ w, Pipeline.arrRef spec13 w ≠ r) : W29 m c r = W28 m c r := Wout13_of_ne (W28 m) (adm13 m) _ c r h
theorem W31_of (c : Dev nD) (r : Ref sig .tc) (h : ∀ w, Pipeline.arrRef spec14 w ≠ r) : W31 m c r = W30 m c r := Wout14_of_ne (W30 m) (adm14 m) _ c r h
theorem W33_of (c : Dev nD) (r : Ref sig .tc) (h : ∀ w, Pipeline.arrRef spec15 w ≠ r) : W33 m c r = W32 m c r := Wout15_of_ne (W32 m) (adm15 m) _ c r h
theorem W35_of (c : Dev nD) (r : Ref sig .tc) (h : ∀ w, Pipeline.arrRef spec16 w ≠ r) : W35 m c r = W34 m c r := Wout16_of_ne (W34 m) (adm16 m) _ c r h
theorem W37_of (c : Dev nD) (r : Ref sig .tc) (h : ∀ w, Pipeline.arrRef spec17 w ≠ r) : W37 m c r = W36 m c r := Wout17_of_ne (W36 m) (adm17 m) _ c r h
theorem W39_of (c : Dev nD) (r : Ref sig .tc) (h : ∀ w, Pipeline.arrRef spec18 w ≠ r) : W39 m c r = W38 m c r := Wout18_of_ne (W38 m) (adm18 m) _ c r h
theorem W41_of (c : Dev nD) (r : Ref sig .tc) (h : ∀ w, Pipeline.arrRef spec19 w ≠ r) : W41 m c r = W40 m c r := Wout19_of_ne (W40 m) (adm19 m) _ c r h
theorem W43_of (c : Dev nD) (r : Ref sig .tc) (h : ∀ w, Pipeline.arrRef spec20 w ≠ r) : W43 m c r = W42 m c r := Wout20_of_ne (W42 m) (adm20 m) _ c r h
theorem W45_of (c : Dev nD) (r : Ref sig .tc) (h : ∀ w, Pipeline.arrRef spec21 w ≠ r) : W45 m c r = W44 m c r := Wout21_of_ne (W44 m) (adm21 m) _ c r h
theorem W47_of (c : Dev nD) (r : Ref sig .tc) (h : ∀ w, Pipeline.arrRef spec22 w ≠ r) : W47 m c r = W46 m c r := Wout22_of_ne (W46 m) (adm22 m) _ c r h
theorem W49_of (c : Dev nD) (r : Ref sig .tc) (h : ∀ w, Pipeline.arrRef spec23 w ≠ r) : W49 m c r = W48 m c r := Wout23_of_ne (W48 m) (adm23 m) _ c r h
theorem W51_of (c : Dev nD) (r : Ref sig .tc) (h : ∀ w, Pipeline.arrRef spec24 w ≠ r) : W51 m c r = W50 m c r := Wout24_of_ne (W50 m) (adm24 m) _ c r h
theorem W53_of (c : Dev nD) (r : Ref sig .tc) (h : ∀ w, Pipeline.arrRef spec25 w ≠ r) : W53 m c r = W52 m c r := Wout25_of_ne (W52 m) (adm25 m) _ c r h
theorem W55_of (c : Dev nD) (r : Ref sig .tc) (h : ∀ w, Pipeline.arrRef spec26 w ≠ r) : W55 m c r = W54 m c r := Wout26_of_ne (W54 m) (adm26 m) _ c r h
theorem W57_of (c : Dev nD) (r : Ref sig .tc) (h : ∀ w, Pipeline.arrRef spec27 w ≠ r) : W57 m c r = W56 m c r := Wout27_of_ne (W56 m) (adm27 m) _ c r h
theorem W59_of (c : Dev nD) (r : Ref sig .tc) (h : ∀ w, Pipeline.arrRef spec28 w ≠ r) : W59 m c r = W58 m c r := Wout28_of_ne (W58 m) (adm28 m) _ c r h
theorem W61_of (c : Dev nD) (r : Ref sig .tc) (h : ∀ w, Pipeline.arrRef spec29 w ≠ r) : W61 m c r = W60 m c r := Wout29_of_ne (W60 m) (adm29 m) _ c r h
theorem W63_of (c : Dev nD) (r : Ref sig .tc) (h : ∀ w, Pipeline.arrRef spec30 w ≠ r) : W63 m c r = W62 m c r := Wout30_of_ne (W62 m) (adm30 m) _ c r h
theorem W65_of (c : Dev nD) (r : Ref sig .tc) (h : ∀ w, Pipeline.arrRef spec31 w ≠ r) : W65 m c r = W64 m c r := Wout31_of_ne (W64 m) (adm31 m) _ c r h
theorem W67_of (c : Dev nD) (r : Ref sig .tc) (h : ∀ w, Pipeline.arrRef spec32 w ≠ r) : W67 m c r = W66 m c r := Wout32_of_ne (W66 m) (adm32 m) _ c r h
theorem W69_of (c : Dev nD) (r : Ref sig .tc) (h : ∀ w, Pipeline.arrRef spec33 w ≠ r) : W69 m c r = W68 m c r := Wout33_of_ne (W68 m) (adm33 m) _ c r h
theorem W71_of (c : Dev nD) (r : Ref sig .tc) (h : ∀ w, Pipeline.arrRef spec34 w ≠ r) : W71 m c r = W70 m c r := Wout34_of_ne (W70 m) (adm34 m) _ c r h
theorem W73_of (c : Dev nD) (r : Ref sig .tc) (h : ∀ w, Pipeline.arrRef spec35 w ≠ r) : W73 m c r = W72 m c r := Wout35_of_ne (W72 m) (adm35 m) _ c r h
theorem W75_of (c : Dev nD) (r : Ref sig .tc) (h : ∀ w, Pipeline.arrRef spec36 w ≠ r) : W75 m c r = W74 m c r := Wout36_of_ne (W74 m) (adm36 m) _ c r h
theorem W77_of (c : Dev nD) (r : Ref sig .tc) (h : ∀ w, Pipeline.arrRef spec37 w ≠ r) : W77 m c r = W76 m c r := Wout37_of_ne (W76 m) (adm37 m) _ c r h
theorem W79_of (c : Dev nD) (r : Ref sig .tc) (h : ∀ w, Pipeline.arrRef spec38 w ≠ r) : W79 m c r = W78 m c r := Wout38_of_ne (W78 m) (adm38 m) _ c r h
theorem W81_of (c : Dev nD) (r : Ref sig .tc) (h : ∀ w, Pipeline.arrRef spec39 w ≠ r) : W81 m c r = W80 m c r := Wout39_of_ne (W80 m) (adm39 m) _ c r h
theorem W83_of (c : Dev nD) (r : Ref sig .tc) (h : ∀ w, Pipeline.arrRef spec40 w ≠ r) : W83 m c r = W82 m c r := Wout40_of_ne (W82 m) (adm40 m) _ c r h
theorem W85_of (c : Dev nD) (r : Ref sig .tc) (h : ∀ w, Pipeline.arrRef spec41 w ≠ r) : W85 m c r = W84 m c r := Wout41_of_ne (W84 m) (adm41 m) _ c r h
theorem W87_of (c : Dev nD) (r : Ref sig .tc) (h : ∀ w, Pipeline.arrRef spec42 w ≠ r) : W87 m c r = W86 m c r := Wout42_of_ne (W86 m) (adm42 m) _ c r h
theorem W89_of (c : Dev nD) (r : Ref sig .tc) (h : ∀ w, Pipeline.arrRef spec43 w ≠ r) : W89 m c r = W88 m c r := Wout43_of_ne (W88 m) (adm43 m) _ c r h
theorem W91_of (c : Dev nD) (r : Ref sig .tc) (h : ∀ w, Pipeline.arrRef spec44 w ≠ r) : W91 m c r = W90 m c r := Wout44_of_ne (W90 m) (adm44 m) _ c r h
theorem W93_of (c : Dev nD) (r : Ref sig .tc) (h : ∀ w, Pipeline.arrRef spec45 w ≠ r) : W93 m c r = W92 m c r := Wout45_of_ne (W92 m) (adm45 m) _ c r h
theorem W95_of (c : Dev nD) (r : Ref sig .tc) (h : ∀ w, Pipeline.arrRef spec46 w ≠ r) : W95 m c r = W94 m c r := Wout46_of_ne (W94 m) (adm46 m) _ c r h
theorem W97_of (c : Dev nD) (r : Ref sig .tc) (h : ∀ w, Pipeline.arrRef spec47 w ≠ r) : W97 m c r = W96 m c r := Wout47_of_ne (W96 m) (adm47 m) _ c r h
theorem W99_of (c : Dev nD) (r : Ref sig .tc) (h : ∀ w, Pipeline.arrRef spec48 w ≠ r) : W99 m c r = W98 m c r := Wout48_of_ne (W98 m) (adm48 m) _ c r h

end Cert.Kernel.Hand

end
-- ==== Proof.K.Pdats.lean ====
/-
  The admissible tables and the proof data of all 49 pipelines, each at its region's entry contents: literal
  matches on the pipeline index, so that the launch's pinned configuration at a numeral reduces to the printed one.
-/
import proofs.«421643_j28415503630349_2_alg».proof.Proof.K.Chain

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

variable (m : (ℓ : Loc nD τ sig) → Buf (Elt F) ℓ)

abbrev adm : (p : Fin 49) → (pcfgs (F := F) p).Adm
  | ⟨0, _⟩ => cfg0.toPCfg_adm
  | ⟨1, _⟩ => adm1 m
  | ⟨2, _⟩ => adm2 m
  | ⟨3, _⟩ => adm3 m
  | ⟨4, _⟩ => adm4 m
  | ⟨5, _⟩ => adm5 m
  | ⟨6, _⟩ => adm6 m
  | ⟨7, _⟩ => adm7 m
  | ⟨8, _⟩ => adm8 m
  | ⟨9, _⟩ => adm9 m
  | ⟨10, _⟩ => adm10 m
  | ⟨11, _⟩ => adm11 m
  | ⟨12, _⟩ => adm12 m
  | ⟨13, _⟩ => adm13 m
  | ⟨14, _⟩ => adm14 m
  | ⟨15, _⟩ => adm15 m
  | ⟨16, _⟩ => adm16 m
  | ⟨17, _⟩ => adm17 m
  | ⟨18, _⟩ => adm18 m
  | ⟨19, _⟩ => adm19 m
  | ⟨20, _⟩ => adm20 m
  | ⟨21, _⟩ => adm21 m
  | ⟨22, _⟩ => adm22 m
  | ⟨23, _⟩ => adm23 m
  | ⟨24, _⟩ => adm24 m
  | ⟨25, _⟩ => adm25 m
  | ⟨26, _⟩ => adm26 m
  | ⟨27, _⟩ => adm27 m
  | ⟨28, _⟩ => adm28 m
  | ⟨29, _⟩ => adm29 m
  | ⟨30, _⟩ => adm30 m
  | ⟨31, _⟩ => adm31 m
  | ⟨32, _⟩ => adm32 m
  | ⟨33, _⟩ => adm33 m
  | ⟨34, _⟩ => adm34 m
  | ⟨35, _⟩ => adm35 m
  | ⟨36, _⟩ => adm36 m
  | ⟨37, _⟩ => adm37 m
  | ⟨38, _⟩ => adm38 m
  | ⟨39, _⟩ => adm39 m
  | ⟨40, _⟩ => adm40 m
  | ⟨41, _⟩ => adm41 m
  | ⟨42, _⟩ => adm42 m
  | ⟨43, _⟩ => adm43 m
  | ⟨44, _⟩ => adm44 m
  | ⟨45, _⟩ => adm45 m
  | ⟨46, _⟩ => adm46 m
  | ⟨47, _⟩ => adm47 m
  | ⟨48, _⟩ => adm48 m
  | ⟨_ + 49, h⟩ => absurd h (Nat.not_lt.2 (Nat.le_add_left _ _))

def pdats : (p : Fin 49) → (c : Dev nD) → Dat τ (Elt F) Unit ℕ (UD sig nD τ) ℕ (Pipeline.pin (pcfgs (F := F)) (adm m) p) c
  | ⟨0, _⟩ => fun c => dat0 (Vof (W2 m)) c
  | ⟨1, _⟩ => fun c => dat1 (Vof (W4 m)) (adm1 m) (outBlk1 (Vof (W4 m)) (adm1 m)) c
  | ⟨2, _⟩ => fun c => dat2 (Vof (W6 m)) (adm2 m) (outBlk2 (Vof (W6 m)) (adm2 m)) c
  | ⟨3, _⟩ => fun c => dat3 (Vof (W8 m)) (adm3 m) (outBlk3 (Vof (W8 m)) (adm3 m)) c
  | ⟨4, _⟩ => fun c => dat4 (Vof (W10 m)) (adm4 m) (outBlk4 (Vof (W10 m)) (adm4 m)) c
  | ⟨5, _⟩ => fun c => dat5 (Vof (W12 m)) (adm5 m) (outBlk5 (Vof (W12 m)) (adm5 m)) c
  | ⟨6, _⟩ => fun c => dat6 (Vof (W14 m)) (adm6 m) (outBlk6 (Vof (W14 m)) (adm6 m)) c
  | ⟨7, _⟩ => fun c => dat7 (Vof (W16 m)) (adm7 m) (outBlk7 (Vof (W16 m)) (adm7 m)) c
  | ⟨8, _⟩ => fun c => dat8 (Vof (W18 m)) (adm8 m) (outBlk8 (Vof (W18 m)) (adm8 m)) c
  | ⟨9, _⟩ => fun c => dat9 (Vof (W20 m)) (adm9 m) (outBlk9 (Vof (W20 m)) (adm9 m)) c
  | ⟨10, _⟩ => fun c => dat10 (Vof (W22 m)) (adm10 m) (outBlk10 (Vof (W22 m)) (adm10 m)) c
  | ⟨11, _⟩ => fun c => dat11 (Vof (W24 m)) (adm11 m) (outBlk11 (Vof (W24 m)) (adm11 m)) c
  | ⟨12, _⟩ => fun c => dat12 (Vof (W26 m)) (adm12 m) (outBlk12 (Vof (W26 m)) (adm12 m)) c
  | ⟨13, _⟩ => fun c => dat13 (Vof (W28 m)) (adm13 m) (outBlk13 (Vof (W28 m)) (adm13 m)) c
  | ⟨14, _⟩ => fun c => dat14 (Vof (W30 m)) (adm14 m) (outBlk14 (Vof (W30 m)) (adm14 m)) c
  | ⟨15, _⟩ => fun c => dat15 (Vof (W32 m)) (adm15 m) (outBlk15 (Vof (W32 m)) (adm15 m)) c
  | ⟨16, _⟩ => fun c => dat16 (Vof (W34 m)) (adm16 m) (outBlk16 (Vof (W34 m)) (adm16 m)) c
  | ⟨17, _⟩ => fun c => dat17 (Vof (W36 m)) (adm17 m) (outBlk17 (Vof (W36 m)) (adm17 m)) c
  | ⟨18, _⟩ => fun c => dat18 (Vof (W38 m)) (adm18 m) (outBlk18 (Vof (W38 m)) (adm18 m)) c
  | ⟨19, _⟩ => fun c => dat19 (Vof (W40 m)) (adm19 m) (outBlk19 (Vof (W40 m)) (adm19 m)) c
  | ⟨20, _⟩ => fun c => dat20 (Vof (W42 m)) (adm20 m) (outBlk20 (Vof (W42 m)) (adm20 m)) c
  | ⟨21, _⟩ => fun c => dat21 (Vof (W44 m)) (adm21 m) (outBlk21 (Vof (W44 m)) (adm21 m)) c
  | ⟨22, _⟩ => fun c => dat22 (Vof (W46 m)) (adm22 m) (outBlk22 (Vof (W46 m)) (adm22 m)) c
  | ⟨23, _⟩ => fun c => dat23 (Vof (W48 m)) (adm23 m) (outBlk23 (Vof (W48 m)) (adm23 m)) c
  | ⟨24, _⟩ => fun c => dat24 (Vof (W50 m)) (adm24 m) (outBlk24 (Vof (W50 m)) (adm24 m)) c
  | ⟨25, _⟩ => fun c => dat25 (Vof (W52 m)) (adm25 m) (outBlk25 (Vof (W52 m)) (adm25 m)) c
  | ⟨26, _⟩ => fun c => dat26 (Vof (W54 m)) (adm26 m) (outBlk26 (Vof (W54 m)) (adm26 m)) c
  | ⟨27, _⟩ => fun c => dat27 (Vof (W56 m)) (adm27 m) (outBlk27 (Vof (W56 m)) (adm27 m)) c
  | ⟨28, _⟩ => fun c => dat28 (Vof (W58 m)) (adm28 m) (outBlk28 (Vof (W58 m)) (adm28 m)) c
  | ⟨29, _⟩ => fun c => dat29 (Vof (W60 m)) (adm29 m) (outBlk29 (Vof (W60 m)) (adm29 m)) c
  | ⟨30, _⟩ => fun c => dat30 (Vof (W62 m)) (adm30 m) (outBlk30 (Vof (W62 m)) (adm30 m)) c
  | ⟨31, _⟩ => fun c => dat31 (Vof (W64 m)) (adm31 m) (outBlk31 (Vof (W64 m)) (adm31 m)) c
  | ⟨32, _⟩ => fun c => dat32 (Vof (W66 m)) (adm32 m) (outBlk32 (Vof (W66 m)) (adm32 m)) c
  | ⟨33, _⟩ => fun c => dat33 (Vof (W68 m)) (adm33 m) (outBlk33 (Vof (W68 m)) (adm33 m)) c
  | ⟨34, _⟩ => fun c => dat34 (Vof (W70 m)) (adm34 m) (outBlk34 (Vof (W70 m)) (adm34 m)) c
  | ⟨35, _⟩ => fun c => dat35 (Vof (W72 m)) (adm35 m) (outBlk35 (Vof (W72 m)) (adm35 m)) c
  | ⟨36, _⟩ => fun c => dat36 (Vof (W74 m)) (adm36 m) (outBlk36 (Vof (W74 m)) (adm36 m)) c
  | ⟨37, _⟩ => fun c => dat37 (Vof (W76 m)) (adm37 m) (outBlk37 (Vof (W76 m)) (adm37 m)) c
  | ⟨38, _⟩ => fun c => dat38 (Vof (W78 m)) (adm38 m) (outBlk38 (Vof (W78 m)) (adm38 m)) c
  | ⟨39, _⟩ => fun c => dat39 (Vof (W80 m)) (adm39 m) (outBlk39 (Vof (W80 m)) (adm39 m)) c
  | ⟨40, _⟩ => fun c => dat40 (Vof (W82 m)) (adm40 m) (outBlk40 (Vof (W82 m)) (adm40 m)) c
  | ⟨41, _⟩ => fun c => dat41 (Vof (W84 m)) (adm41 m) (outBlk41 (Vof (W84 m)) (adm41 m)) c
  | ⟨42, _⟩ => fun c => dat42 (Vof (W86 m)) (adm42 m) (outBlk42 (Vof (W86 m)) (adm42 m)) c
  | ⟨43, _⟩ => fun c => dat43 (Vof (W88 m)) (adm43 m) (outBlk43 (Vof (W88 m)) (adm43 m)) c
  | ⟨44, _⟩ => fun c => dat44 (Vof (W90 m)) (adm44 m) (outBlk44 (Vof (W90 m)) (adm44 m)) c
  | ⟨45, _⟩ => fun c => dat45 (Vof (W92 m)) (adm45 m) (outBlk45 (Vof (W92 m)) (adm45 m)) c
  | ⟨46, _⟩ => fun c => dat46 (Vof (W94 m)) (adm46 m) (outBlk46 (Vof (W94 m)) (adm46 m)) c
  | ⟨47, _⟩ => fun c => dat47 (Vof (W96 m)) (adm47 m) (outBlk47 (Vof (W96 m)) (adm47 m)) c
  | ⟨48, _⟩ => fun c => dat48 (Vof (W98 m)) (adm48 m) (outBlk48 (Vof (W98 m)) (adm48 m)) c
  | ⟨_ + 49, h⟩ => absurd h (Nat.not_lt.2 (Nat.le_add_left _ _))

end Cert.Kernel.Hand

end
-- ==== Proof.K.Args.lean ====
/-
  No segment writes an argument array: at every boundary each argument holds its launch contents.
-/
import proofs.«421643_j28415503630349_2_alg».proof.Proof.K.Chain

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

variable (m : (ℓ : Loc nD τ sig) → Buf (Elt F) ℓ)

theorem W0_arg0 (c : Dev nD) : W0 m c main_arg0 = m ((c : Thread nD τ).loc main_arg0) := rfl
theorem W1_arg0 (c : Dev nD) : W1 m c main_arg0 = m ((c : Thread nD τ).loc main_arg0) :=
  (W1_of m c main_arg0 (by decide)).trans (W0_arg0 m c)
theorem W2_arg0 (c : Dev nD) : W2 m c main_arg0 = m ((c : Thread nD τ).loc main_arg0) :=
  (W2_of m c main_arg0 (by decide)).trans (W1_arg0 m c)
theorem W3_arg0 (c : Dev nD) : W3 m c main_arg0 = m ((c : Thread nD τ).loc main_arg0) :=
  (W3_of m c main_arg0 (by decide)).trans (W2_arg0 m c)
theorem W4_arg0 (c : Dev nD) : W4 m c main_arg0 = m ((c : Thread nD τ).loc main_arg0) :=
  (W4_of m c main_arg0 (by decide)).trans (W3_arg0 m c)
theorem W5_arg0 (c : Dev nD) : W5 m c main_arg0 = m ((c : Thread nD τ).loc main_arg0) :=
  (W5_of m c main_arg0 (by decide)).trans (W4_arg0 m c)
theorem W6_arg0 (c : Dev nD) : W6 m c main_arg0 = m ((c : Thread nD τ).loc main_arg0) :=
  (W6_of m c main_arg0 (by decide)).trans (W5_arg0 m c)
theorem W7_arg0 (c : Dev nD) : W7 m c main_arg0 = m ((c : Thread nD τ).loc main_arg0) :=
  (W7_of m c main_arg0 (by decide)).trans (W6_arg0 m c)
theorem W8_arg0 (c : Dev nD) : W8 m c main_arg0 = m ((c : Thread nD τ).loc main_arg0) :=
  (W8_of m c main_arg0 (by decide)).trans (W7_arg0 m c)
theorem W9_arg0 (c : Dev nD) : W9 m c main_arg0 = m ((c : Thread nD τ).loc main_arg0) :=
  (W9_of m c main_arg0 (by decide)).trans (W8_arg0 m c)
theorem W10_arg0 (c : Dev nD) : W10 m c main_arg0 = m ((c : Thread nD τ).loc main_arg0) :=
  (W10_of m c main_arg0 (by decide)).trans (W9_arg0 m c)
theorem W11_arg0 (c : Dev nD) : W11 m c main_arg0 = m ((c : Thread nD τ).loc main_arg0) :=
  (W11_of m c main_arg0 (by decide)).trans (W10_arg0 m c)
theorem W12_arg0 (c : Dev nD) : W12 m c main_arg0 = m ((c : Thread nD τ).loc main_arg0) :=
  (W12_of m c main_arg0 (by decide)).trans (W11_arg0 m c)
theorem W13_arg0 (c : Dev nD) : W13 m c main_arg0 = m ((c : Thread nD τ).loc main_arg0) :=
  (W13_of m c main_arg0 (by decide)).trans (W12_arg0 m c)
theorem W14_arg0 (c : Dev nD) : W14 m c main_arg0 = m ((c : Thread nD τ).loc main_arg0) :=
  (W14_of m c main_arg0 (by decide)).trans (W13_arg0 m c)
theorem W15_arg0 (c : Dev nD) : W15 m c main_arg0 = m ((c : Thread nD τ).loc main_arg0) :=
  (W15_of m c main_arg0 (by decide)).trans (W14_arg0 m c)
theorem W16_arg0 (c : Dev nD) : W16 m c main_arg0 = m ((c : Thread nD τ).loc main_arg0) :=
  (W16_of m c main_arg0 (by decide)).trans (W15_arg0 m c)
theorem W17_arg0 (c : Dev nD) : W17 m c main_arg0 = m ((c : Thread nD τ).loc main_arg0) :=
  (W17_of m c main_arg0 (by decide)).trans (W16_arg0 m c)
theorem W18_arg0 (c : Dev nD) : W18 m c main_arg0 = m ((c : Thread nD τ).loc main_arg0) :=
  (W18_of m c main_arg0 (by decide)).trans (W17_arg0 m c)
theorem W19_arg0 (c : Dev nD) : W19 m c main_arg0 = m ((c : Thread nD τ).loc main_arg0) :=
  (W19_of m c main_arg0 (by decide)).trans (W18_arg0 m c)
theorem W20_arg0 (c : Dev nD) : W20 m c main_arg0 = m ((c : Thread nD τ).loc main_arg0) :=
  (W20_of m c main_arg0 (by decide)).trans (W19_arg0 m c)
theorem W21_arg0 (c : Dev nD) : W21 m c main_arg0 = m ((c : Thread nD τ).loc main_arg0) :=
  (W21_of m c main_arg0 (by decide)).trans (W20_arg0 m c)
theorem W22_arg0 (c : Dev nD) : W22 m c main_arg0 = m ((c : Thread nD τ).loc main_arg0) :=
  (W22_of m c main_arg0 (by decide)).trans (W21_arg0 m c)
theorem W23_arg0 (c : Dev nD) : W23 m c main_arg0 = m ((c : Thread nD τ).loc main_arg0) :=
  (W23_of m c main_arg0 (by decide)).trans (W22_arg0 m c)
theorem W24_arg0 (c : Dev nD) : W24 m c main_arg0 = m ((c : Thread nD τ).loc main_arg0) :=
  (W24_of m c main_arg0 (by decide)).trans (W23_arg0 m c)
theorem W25_arg0 (c : Dev nD) : W25 m c main_arg0 = m ((c : Thread nD τ).loc main_arg0) :=
  (W25_of m c main_arg0 (by decide)).trans (W24_arg0 m c)
theorem W26_arg0 (c : Dev nD) : W26 m c main_arg0 = m ((c : Thread nD τ).loc main_arg0) :=
  (W26_of m c main_arg0 (by decide)).trans (W25_arg0 m c)
theorem W27_arg0 (c : Dev nD) : W27 m c main_arg0 = m ((c : Thread nD τ).loc main_arg0) :=
  (W27_of m c main_arg0 (by decide)).trans (W26_arg0 m c)
theorem W28_arg0 (c : Dev nD) : W28 m c main_arg0 = m ((c : Thread nD τ).loc main_arg0) :=
  (W28_of m c main_arg0 (by decide)).trans (W27_arg0 m c)
theorem W29_arg0 (c : Dev nD) : W29 m c main_arg0 = m ((c : Thread nD τ).loc main_arg0) :=
  (W29_of m c main_arg0 (by decide)).trans (W28_arg0 m c)
theorem W30_arg0 (c : Dev nD) : W30 m c main_arg0 = m ((c : Thread nD τ).loc main_arg0) :=
  (W30_of m c main_arg0 (by decide)).trans (W29_arg0 m c)
theorem W31_arg0 (c : Dev nD) : W31 m c main_arg0 = m ((c : Thread nD τ).loc main_arg0) :=
  (W31_of m c main_arg0 (by decide)).trans (W30_arg0 m c)
theorem W32_arg0 (c : Dev nD) : W32 m c main_arg0 = m ((c : Thread nD τ).loc main_arg0) :=
  (W32_of m c main_arg0 (by decide)).trans (W31_arg0 m c)
theorem W33_arg0 (c : Dev nD) : W33 m c main_arg0 = m ((c : Thread nD τ).loc main_arg0) :=
  (W33_of m c main_arg0 (by decide)).trans (W32_arg0 m c)
theorem W34_arg0 (c : Dev nD) : W34 m c main_arg0 = m ((c : Thread nD τ).loc main_arg0) :=
  (W34_of m c main_arg0 (by decide)).trans (W33_arg0 m c)
theorem W35_arg0 (c : Dev nD) : W35 m c main_arg0 = m ((c : Thread nD τ).loc main_arg0) :=
  (W35_of m c main_arg0 (by decide)).trans (W34_arg0 m c)
theorem W36_arg0 (c : Dev nD) : W36 m c main_arg0 = m ((c : Thread nD τ).loc main_arg0) :=
  (W36_of m c main_arg0 (by decide)).trans (W35_arg0 m c)
theorem W37_arg0 (c : Dev nD) : W37 m c main_arg0 = m ((c : Thread nD τ).loc main_arg0) :=
  (W37_of m c main_arg0 (by decide)).trans (W36_arg0 m c)
theorem W38_arg0 (c : Dev nD) : W38 m c main_arg0 = m ((c : Thread nD τ).loc main_arg0) :=
  (W38_of m c main_arg0 (by decide)).trans (W37_arg0 m c)
theorem W39_arg0 (c : Dev nD) : W39 m c main_arg0 = m ((c : Thread nD τ).loc main_arg0) :=
  (W39_of m c main_arg0 (by decide)).trans (W38_arg0 m c)
theorem W40_arg0 (c : Dev nD) : W40 m c main_arg0 = m ((c : Thread nD τ).loc main_arg0) :=
  (W40_of m c main_arg0 (by decide)).trans (W39_arg0 m c)
theorem W41_arg0 (c : Dev nD) : W41 m c main_arg0 = m ((c : Thread nD τ).loc main_arg0) :=
  (W41_of m c main_arg0 (by decide)).trans (W40_arg0 m c)
theorem W42_arg0 (c : Dev nD) : W42 m c main_arg0 = m ((c : Thread nD τ).loc main_arg0) :=
  (W42_of m c main_arg0 (by decide)).trans (W41_arg0 m c)
theorem W43_arg0 (c : Dev nD) : W43 m c main_arg0 = m ((c : Thread nD τ).loc main_arg0) :=
  (W43_of m c main_arg0 (by decide)).trans (W42_arg0 m c)
theorem W44_arg0 (c : Dev nD) : W44 m c main_arg0 = m ((c : Thread nD τ).loc main_arg0) :=
  (W44_of m c main_arg0 (by decide)).trans (W43_arg0 m c)
theorem W45_arg0 (c : Dev nD) : W45 m c main_arg0 = m ((c : Thread nD τ).loc main_arg0) :=
  (W45_of m c main_arg0 (by decide)).trans (W44_arg0 m c)
theorem W46_arg0 (c : Dev nD) : W46 m c main_arg0 = m ((c : Thread nD τ).loc main_arg0) :=
  (W46_of m c main_arg0 (by decide)).trans (W45_arg0 m c)
theorem W47_arg0 (c : Dev nD) : W47 m c main_arg0 = m ((c : Thread nD τ).loc main_arg0) :=
  (W47_of m c main_arg0 (by decide)).trans (W46_arg0 m c)
theorem W48_arg0 (c : Dev nD) : W48 m c main_arg0 = m ((c : Thread nD τ).loc main_arg0) :=
  (W48_of m c main_arg0 (by decide)).trans (W47_arg0 m c)
theorem W49_arg0 (c : Dev nD) : W49 m c main_arg0 = m ((c : Thread nD τ).loc main_arg0) :=
  (W49_of m c main_arg0 (by decide)).trans (W48_arg0 m c)
theorem W50_arg0 (c : Dev nD) : W50 m c main_arg0 = m ((c : Thread nD τ).loc main_arg0) :=
  (W50_of m c main_arg0 (by decide)).trans (W49_arg0 m c)
theorem W51_arg0 (c : Dev nD) : W51 m c main_arg0 = m ((c : Thread nD τ).loc main_arg0) :=
  (W51_of m c main_arg0 (by decide)).trans (W50_arg0 m c)
theorem W52_arg0 (c : Dev nD) : W52 m c main_arg0 = m ((c : Thread nD τ).loc main_arg0) :=
  (W52_of m c main_arg0 (by decide)).trans (W51_arg0 m c)
theorem W53_arg0 (c : Dev nD) : W53 m c main_arg0 = m ((c : Thread nD τ).loc main_arg0) :=
  (W53_of m c main_arg0 (by decide)).trans (W52_arg0 m c)
theorem W54_arg0 (c : Dev nD) : W54 m c main_arg0 = m ((c : Thread nD τ).loc main_arg0) :=
  (W54_of m c main_arg0 (by decide)).trans (W53_arg0 m c)
theorem W55_arg0 (c : Dev nD) : W55 m c main_arg0 = m ((c : Thread nD τ).loc main_arg0) :=
  (W55_of m c main_arg0 (by decide)).trans (W54_arg0 m c)
theorem W56_arg0 (c : Dev nD) : W56 m c main_arg0 = m ((c : Thread nD τ).loc main_arg0) :=
  (W56_of m c main_arg0 (by decide)).trans (W55_arg0 m c)
theorem W57_arg0 (c : Dev nD) : W57 m c main_arg0 = m ((c : Thread nD τ).loc main_arg0) :=
  (W57_of m c main_arg0 (by decide)).trans (W56_arg0 m c)
theorem W58_arg0 (c : Dev nD) : W58 m c main_arg0 = m ((c : Thread nD τ).loc main_arg0) :=
  (W58_of m c main_arg0 (by decide)).trans (W57_arg0 m c)
theorem W59_arg0 (c : Dev nD) : W59 m c main_arg0 = m ((c : Thread nD τ).loc main_arg0) :=
  (W59_of m c main_arg0 (by decide)).trans (W58_arg0 m c)
theorem W60_arg0 (c : Dev nD) : W60 m c main_arg0 = m ((c : Thread nD τ).loc main_arg0) :=
  (W60_of m c main_arg0 (by decide)).trans (W59_arg0 m c)
theorem W61_arg0 (c : Dev nD) : W61 m c main_arg0 = m ((c : Thread nD τ).loc main_arg0) :=
  (W61_of m c main_arg0 (by decide)).trans (W60_arg0 m c)
theorem W62_arg0 (c : Dev nD) : W62 m c main_arg0 = m ((c : Thread nD τ).loc main_arg0) :=
  (W62_of m c main_arg0 (by decide)).trans (W61_arg0 m c)
theorem W63_arg0 (c : Dev nD) : W63 m c main_arg0 = m ((c : Thread nD τ).loc main_arg0) :=
  (W63_of m c main_arg0 (by decide)).trans (W62_arg0 m c)
theorem W64_arg0 (c : Dev nD) : W64 m c main_arg0 = m ((c : Thread nD τ).loc main_arg0) :=
  (W64_of m c main_arg0 (by decide)).trans (W63_arg0 m c)
theorem W65_arg0 (c : Dev nD) : W65 m c main_arg0 = m ((c : Thread nD τ).loc main_arg0) :=
  (W65_of m c main_arg0 (by decide)).trans (W64_arg0 m c)
theorem W66_arg0 (c : Dev nD) : W66 m c main_arg0 = m ((c : Thread nD τ).loc main_arg0) :=
  (W66_of m c main_arg0 (by decide)).trans (W65_arg0 m c)
theorem W67_arg0 (c : Dev nD) : W67 m c main_arg0 = m ((c : Thread nD τ).loc main_arg0) :=
  (W67_of m c main_arg0 (by decide)).trans (W66_arg0 m c)
theorem W68_arg0 (c : Dev nD) : W68 m c main_arg0 = m ((c : Thread nD τ).loc main_arg0) :=
  (W68_of m c main_arg0 (by decide)).trans (W67_arg0 m c)
theorem W69_arg0 (c : Dev nD) : W69 m c main_arg0 = m ((c : Thread nD τ).loc main_arg0) :=
  (W69_of m c main_arg0 (by decide)).trans (W68_arg0 m c)
theorem W70_arg0 (c : Dev nD) : W70 m c main_arg0 = m ((c : Thread nD τ).loc main_arg0) :=
  (W70_of m c main_arg0 (by decide)).trans (W69_arg0 m c)
theorem W71_arg0 (c : Dev nD) : W71 m c main_arg0 = m ((c : Thread nD τ).loc main_arg0) :=
  (W71_of m c main_arg0 (by decide)).trans (W70_arg0 m c)
theorem W72_arg0 (c : Dev nD) : W72 m c main_arg0 = m ((c : Thread nD τ).loc main_arg0) :=
  (W72_of m c main_arg0 (by decide)).trans (W71_arg0 m c)
theorem W73_arg0 (c : Dev nD) : W73 m c main_arg0 = m ((c : Thread nD τ).loc main_arg0) :=
  (W73_of m c main_arg0 (by decide)).trans (W72_arg0 m c)
theorem W74_arg0 (c : Dev nD) : W74 m c main_arg0 = m ((c : Thread nD τ).loc main_arg0) :=
  (W74_of m c main_arg0 (by decide)).trans (W73_arg0 m c)
theorem W75_arg0 (c : Dev nD) : W75 m c main_arg0 = m ((c : Thread nD τ).loc main_arg0) :=
  (W75_of m c main_arg0 (by decide)).trans (W74_arg0 m c)
theorem W76_arg0 (c : Dev nD) : W76 m c main_arg0 = m ((c : Thread nD τ).loc main_arg0) :=
  (W76_of m c main_arg0 (by decide)).trans (W75_arg0 m c)
theorem W77_arg0 (c : Dev nD) : W77 m c main_arg0 = m ((c : Thread nD τ).loc main_arg0) :=
  (W77_of m c main_arg0 (by decide)).trans (W76_arg0 m c)
theorem W78_arg0 (c : Dev nD) : W78 m c main_arg0 = m ((c : Thread nD τ).loc main_arg0) :=
  (W78_of m c main_arg0 (by decide)).trans (W77_arg0 m c)
theorem W79_arg0 (c : Dev nD) : W79 m c main_arg0 = m ((c : Thread nD τ).loc main_arg0) :=
  (W79_of m c main_arg0 (by decide)).trans (W78_arg0 m c)
theorem W80_arg0 (c : Dev nD) : W80 m c main_arg0 = m ((c : Thread nD τ).loc main_arg0) :=
  (W80_of m c main_arg0 (by decide)).trans (W79_arg0 m c)
theorem W81_arg0 (c : Dev nD) : W81 m c main_arg0 = m ((c : Thread nD τ).loc main_arg0) :=
  (W81_of m c main_arg0 (by decide)).trans (W80_arg0 m c)
theorem W82_arg0 (c : Dev nD) : W82 m c main_arg0 = m ((c : Thread nD τ).loc main_arg0) :=
  (W82_of m c main_arg0 (by decide)).trans (W81_arg0 m c)
theorem W83_arg0 (c : Dev nD) : W83 m c main_arg0 = m ((c : Thread nD τ).loc main_arg0) :=
  (W83_of m c main_arg0 (by decide)).trans (W82_arg0 m c)
theorem W84_arg0 (c : Dev nD) : W84 m c main_arg0 = m ((c : Thread nD τ).loc main_arg0) :=
  (W84_of m c main_arg0 (by decide)).trans (W83_arg0 m c)
theorem W85_arg0 (c : Dev nD) : W85 m c main_arg0 = m ((c : Thread nD τ).loc main_arg0) :=
  (W85_of m c main_arg0 (by decide)).trans (W84_arg0 m c)
theorem W86_arg0 (c : Dev nD) : W86 m c main_arg0 = m ((c : Thread nD τ).loc main_arg0) :=
  (W86_of m c main_arg0 (by decide)).trans (W85_arg0 m c)
theorem W87_arg0 (c : Dev nD) : W87 m c main_arg0 = m ((c : Thread nD τ).loc main_arg0) :=
  (W87_of m c main_arg0 (by decide)).trans (W86_arg0 m c)
theorem W88_arg0 (c : Dev nD) : W88 m c main_arg0 = m ((c : Thread nD τ).loc main_arg0) :=
  (W88_of m c main_arg0 (by decide)).trans (W87_arg0 m c)
theorem W89_arg0 (c : Dev nD) : W89 m c main_arg0 = m ((c : Thread nD τ).loc main_arg0) :=
  (W89_of m c main_arg0 (by decide)).trans (W88_arg0 m c)
theorem W90_arg0 (c : Dev nD) : W90 m c main_arg0 = m ((c : Thread nD τ).loc main_arg0) :=
  (W90_of m c main_arg0 (by decide)).trans (W89_arg0 m c)
theorem W91_arg0 (c : Dev nD) : W91 m c main_arg0 = m ((c : Thread nD τ).loc main_arg0) :=
  (W91_of m c main_arg0 (by decide)).trans (W90_arg0 m c)
theorem W92_arg0 (c : Dev nD) : W92 m c main_arg0 = m ((c : Thread nD τ).loc main_arg0) :=
  (W92_of m c main_arg0 (by decide)).trans (W91_arg0 m c)
theorem W93_arg0 (c : Dev nD) : W93 m c main_arg0 = m ((c : Thread nD τ).loc main_arg0) :=
  (W93_of m c main_arg0 (by decide)).trans (W92_arg0 m c)
theorem W94_arg0 (c : Dev nD) : W94 m c main_arg0 = m ((c : Thread nD τ).loc main_arg0) :=
  (W94_of m c main_arg0 (by decide)).trans (W93_arg0 m c)
theorem W95_arg0 (c : Dev nD) : W95 m c main_arg0 = m ((c : Thread nD τ).loc main_arg0) :=
  (W95_of m c main_arg0 (by decide)).trans (W94_arg0 m c)
theorem W96_arg0 (c : Dev nD) : W96 m c main_arg0 = m ((c : Thread nD τ).loc main_arg0) :=
  (W96_of m c main_arg0 (by decide)).trans (W95_arg0 m c)
theorem W97_arg0 (c : Dev nD) : W97 m c main_arg0 = m ((c : Thread nD τ).loc main_arg0) :=
  (W97_of m c main_arg0 (by decide)).trans (W96_arg0 m c)
theorem W98_arg0 (c : Dev nD) : W98 m c main_arg0 = m ((c : Thread nD τ).loc main_arg0) :=
  (W98_of m c main_arg0 (by decide)).trans (W97_arg0 m c)
theorem W99_arg0 (c : Dev nD) : W99 m c main_arg0 = m ((c : Thread nD τ).loc main_arg0) :=
  (W99_of m c main_arg0 (by decide)).trans (W98_arg0 m c)
theorem W100_arg0 (c : Dev nD) : W100 m c main_arg0 = m ((c : Thread nD τ).loc main_arg0) :=
  (W100_of m c main_arg0 (by decide)).trans (W99_arg0 m c)
theorem W0_arg1 (c : Dev nD) : W0 m c main_arg1 = m ((c : Thread nD τ).loc main_arg1) := rfl
theorem W1_arg1 (c : Dev nD) : W1 m c main_arg1 = m ((c : Thread nD τ).loc main_arg1) :=
  (W1_of m c main_arg1 (by decide)).trans (W0_arg1 m c)
theorem W2_arg1 (c : Dev nD) : W2 m c main_arg1 = m ((c : Thread nD τ).loc main_arg1) :=
  (W2_of m c main_arg1 (by decide)).trans (W1_arg1 m c)
theorem W3_arg1 (c : Dev nD) : W3 m c main_arg1 = m ((c : Thread nD τ).loc main_arg1) :=
  (W3_of m c main_arg1 (by decide)).trans (W2_arg1 m c)
theorem W4_arg1 (c : Dev nD) : W4 m c main_arg1 = m ((c : Thread nD τ).loc main_arg1) :=
  (W4_of m c main_arg1 (by decide)).trans (W3_arg1 m c)
theorem W5_arg1 (c : Dev nD) : W5 m c main_arg1 = m ((c : Thread nD τ).loc main_arg1) :=
  (W5_of m c main_arg1 (by decide)).trans (W4_arg1 m c)
theorem W6_arg1 (c : Dev nD) : W6 m c main_arg1 = m ((c : Thread nD τ).loc main_arg1) :=
  (W6_of m c main_arg1 (by decide)).trans (W5_arg1 m c)
theorem W7_arg1 (c : Dev nD) : W7 m c main_arg1 = m ((c : Thread nD τ).loc main_arg1) :=
  (W7_of m c main_arg1 (by decide)).trans (W6_arg1 m c)
theorem W8_arg1 (c : Dev nD) : W8 m c main_arg1 = m ((c : Thread nD τ).loc main_arg1) :=
  (W8_of m c main_arg1 (by decide)).trans (W7_arg1 m c)
theorem W9_arg1 (c : Dev nD) : W9 m c main_arg1 = m ((c : Thread nD τ).loc main_arg1) :=
  (W9_of m c main_arg1 (by decide)).trans (W8_arg1 m c)
theorem W10_arg1 (c : Dev nD) : W10 m c main_arg1 = m ((c : Thread nD τ).loc main_arg1) :=
  (W10_of m c main_arg1 (by decide)).trans (W9_arg1 m c)
theorem W11_arg1 (c : Dev nD) : W11 m c main_arg1 = m ((c : Thread nD τ).loc main_arg1) :=
  (W11_of m c main_arg1 (by decide)).trans (W10_arg1 m c)
theorem W12_arg1 (c : Dev nD) : W12 m c main_arg1 = m ((c : Thread nD τ).loc main_arg1) :=
  (W12_of m c main_arg1 (by decide)).trans (W11_arg1 m c)
theorem W13_arg1 (c : Dev nD) : W13 m c main_arg1 = m ((c : Thread nD τ).loc main_arg1) :=
  (W13_of m c main_arg1 (by decide)).trans (W12_arg1 m c)
theorem W14_arg1 (c : Dev nD) : W14 m c main_arg1 = m ((c : Thread nD τ).loc main_arg1) :=
  (W14_of m c main_arg1 (by decide)).trans (W13_arg1 m c)
theorem W15_arg1 (c : Dev nD) : W15 m c main_arg1 = m ((c : Thread nD τ).loc main_arg1) :=
  (W15_of m c main_arg1 (by decide)).trans (W14_arg1 m c)
theorem W16_arg1 (c : Dev nD) : W16 m c main_arg1 = m ((c : Thread nD τ).loc main_arg1) :=
  (W16_of m c main_arg1 (by decide)).trans (W15_arg1 m c)
theorem W17_arg1 (c : Dev nD) : W17 m c main_arg1 = m ((c : Thread nD τ).loc main_arg1) :=
  (W17_of m c main_arg1 (by decide)).trans (W16_arg1 m c)
theorem W18_arg1 (c : Dev nD) : W18 m c main_arg1 = m ((c : Thread nD τ).loc main_arg1) :=
  (W18_of m c main_arg1 (by decide)).trans (W17_arg1 m c)
theorem W19_arg1 (c : Dev nD) : W19 m c main_arg1 = m ((c : Thread nD τ).loc main_arg1) :=
  (W19_of m c main_arg1 (by decide)).trans (W18_arg1 m c)
theorem W20_arg1 (c : Dev nD) : W20 m c main_arg1 = m ((c : Thread nD τ).loc main_arg1) :=
  (W20_of m c main_arg1 (by decide)).trans (W19_arg1 m c)
theorem W21_arg1 (c : Dev nD) : W21 m c main_arg1 = m ((c : Thread nD τ).loc main_arg1) :=
  (W21_of m c main_arg1 (by decide)).trans (W20_arg1 m c)
theorem W22_arg1 (c : Dev nD) : W22 m c main_arg1 = m ((c : Thread nD τ).loc main_arg1) :=
  (W22_of m c main_arg1 (by decide)).trans (W21_arg1 m c)
theorem W23_arg1 (c : Dev nD) : W23 m c main_arg1 = m ((c : Thread nD τ).loc main_arg1) :=
  (W23_of m c main_arg1 (by decide)).trans (W22_arg1 m c)
theorem W24_arg1 (c : Dev nD) : W24 m c main_arg1 = m ((c : Thread nD τ).loc main_arg1) :=
  (W24_of m c main_arg1 (by decide)).trans (W23_arg1 m c)
theorem W25_arg1 (c : Dev nD) : W25 m c main_arg1 = m ((c : Thread nD τ).loc main_arg1) :=
  (W25_of m c main_arg1 (by decide)).trans (W24_arg1 m c)
theorem W26_arg1 (c : Dev nD) : W26 m c main_arg1 = m ((c : Thread nD τ).loc main_arg1) :=
  (W26_of m c main_arg1 (by decide)).trans (W25_arg1 m c)
theorem W27_arg1 (c : Dev nD) : W27 m c main_arg1 = m ((c : Thread nD τ).loc main_arg1) :=
  (W27_of m c main_arg1 (by decide)).trans (W26_arg1 m c)
theorem W28_arg1 (c : Dev nD) : W28 m c main_arg1 = m ((c : Thread nD τ).loc main_arg1) :=
  (W28_of m c main_arg1 (by decide)).trans (W27_arg1 m c)
theorem W29_arg1 (c : Dev nD) : W29 m c main_arg1 = m ((c : Thread nD τ).loc main_arg1) :=
  (W29_of m c main_arg1 (by decide)).trans (W28_arg1 m c)
theorem W30_arg1 (c : Dev nD) : W30 m c main_arg1 = m ((c : Thread nD τ).loc main_arg1) :=
  (W30_of m c main_arg1 (by decide)).trans (W29_arg1 m c)
theorem W31_arg1 (c : Dev nD) : W31 m c main_arg1 = m ((c : Thread nD τ).loc main_arg1) :=
  (W31_of m c main_arg1 (by decide)).trans (W30_arg1 m c)
theorem W32_arg1 (c : Dev nD) : W32 m c main_arg1 = m ((c : Thread nD τ).loc main_arg1) :=
  (W32_of m c main_arg1 (by decide)).trans (W31_arg1 m c)
theorem W33_arg1 (c : Dev nD) : W33 m c main_arg1 = m ((c : Thread nD τ).loc main_arg1) :=
  (W33_of m c main_arg1 (by decide)).trans (W32_arg1 m c)
theorem W34_arg1 (c : Dev nD) : W34 m c main_arg1 = m ((c : Thread nD τ).loc main_arg1) :=
  (W34_of m c main_arg1 (by decide)).trans (W33_arg1 m c)
theorem W35_arg1 (c : Dev nD) : W35 m c main_arg1 = m ((c : Thread nD τ).loc main_arg1) :=
  (W35_of m c main_arg1 (by decide)).trans (W34_arg1 m c)
theorem W36_arg1 (c : Dev nD) : W36 m c main_arg1 = m ((c : Thread nD τ).loc main_arg1) :=
  (W36_of m c main_arg1 (by decide)).trans (W35_arg1 m c)
theorem W37_arg1 (c : Dev nD) : W37 m c main_arg1 = m ((c : Thread nD τ).loc main_arg1) :=
  (W37_of m c main_arg1 (by decide)).trans (W36_arg1 m c)
theorem W38_arg1 (c : Dev nD) : W38 m c main_arg1 = m ((c : Thread nD τ).loc main_arg1) :=
  (W38_of m c main_arg1 (by decide)).trans (W37_arg1 m c)
theorem W39_arg1 (c : Dev nD) : W39 m c main_arg1 = m ((c : Thread nD τ).loc main_arg1) :=
  (W39_of m c main_arg1 (by decide)).trans (W38_arg1 m c)
theorem W40_arg1 (c : Dev nD) : W40 m c main_arg1 = m ((c : Thread nD τ).loc main_arg1) :=
  (W40_of m c main_arg1 (by decide)).trans (W39_arg1 m c)
theorem W41_arg1 (c : Dev nD) : W41 m c main_arg1 = m ((c : Thread nD τ).loc main_arg1) :=
  (W41_of m c main_arg1 (by decide)).trans (W40_arg1 m c)
theorem W42_arg1 (c : Dev nD) : W42 m c main_arg1 = m ((c : Thread nD τ).loc main_arg1) :=
  (W42_of m c main_arg1 (by decide)).trans (W41_arg1 m c)
theorem W43_arg1 (c : Dev nD) : W43 m c main_arg1 = m ((c : Thread nD τ).loc main_arg1) :=
  (W43_of m c main_arg1 (by decide)).trans (W42_arg1 m c)
theorem W44_arg1 (c : Dev nD) : W44 m c main_arg1 = m ((c : Thread nD τ).loc main_arg1) :=
  (W44_of m c main_arg1 (by decide)).trans (W43_arg1 m c)
theorem W45_arg1 (c : Dev nD) : W45 m c main_arg1 = m ((c : Thread nD τ).loc main_arg1) :=
  (W45_of m c main_arg1 (by decide)).trans (W44_arg1 m c)
theorem W46_arg1 (c : Dev nD) : W46 m c main_arg1 = m ((c : Thread nD τ).loc main_arg1) :=
  (W46_of m c main_arg1 (by decide)).trans (W45_arg1 m c)
theorem W47_arg1 (c : Dev nD) : W47 m c main_arg1 = m ((c : Thread nD τ).loc main_arg1) :=
  (W47_of m c main_arg1 (by decide)).trans (W46_arg1 m c)
theorem W48_arg1 (c : Dev nD) : W48 m c main_arg1 = m ((c : Thread nD τ).loc main_arg1) :=
  (W48_of m c main_arg1 (by decide)).trans (W47_arg1 m c)
theorem W49_arg1 (c : Dev nD) : W49 m c main_arg1 = m ((c : Thread nD τ).loc main_arg1) :=
  (W49_of m c main_arg1 (by decide)).trans (W48_arg1 m c)
theorem W50_arg1 (c : Dev nD) : W50 m c main_arg1 = m ((c : Thread nD τ).loc main_arg1) :=
  (W50_of m c main_arg1 (by decide)).trans (W49_arg1 m c)
theorem W51_arg1 (c : Dev nD) : W51 m c main_arg1 = m ((c : Thread nD τ).loc main_arg1) :=
  (W51_of m c main_arg1 (by decide)).trans (W50_arg1 m c)
theorem W52_arg1 (c : Dev nD) : W52 m c main_arg1 = m ((c : Thread nD τ).loc main_arg1) :=
  (W52_of m c main_arg1 (by decide)).trans (W51_arg1 m c)
theorem W53_arg1 (c : Dev nD) : W53 m c main_arg1 = m ((c : Thread nD τ).loc main_arg1) :=
  (W53_of m c main_arg1 (by decide)).trans (W52_arg1 m c)
theorem W54_arg1 (c : Dev nD) : W54 m c main_arg1 = m ((c : Thread nD τ).loc main_arg1) :=
  (W54_of m c main_arg1 (by decide)).trans (W53_arg1 m c)
theorem W55_arg1 (c : Dev nD) : W55 m c main_arg1 = m ((c : Thread nD τ).loc main_arg1) :=
  (W55_of m c main_arg1 (by decide)).trans (W54_arg1 m c)
theorem W56_arg1 (c : Dev nD) : W56 m c main_arg1 = m ((c : Thread nD τ).loc main_arg1) :=
  (W56_of m c main_arg1 (by decide)).trans (W55_arg1 m c)
theorem W57_arg1 (c : Dev nD) : W57 m c main_arg1 = m ((c : Thread nD τ).loc main_arg1) :=
  (W57_of m c main_arg1 (by decide)).trans (W56_arg1 m c)
theorem W58_arg1 (c : Dev nD) : W58 m c main_arg1 = m ((c : Thread nD τ).loc main_arg1) :=
  (W58_of m c main_arg1 (by decide)).trans (W57_arg1 m c)
theorem W59_arg1 (c : Dev nD) : W59 m c main_arg1 = m ((c : Thread nD τ).loc main_arg1) :=
  (W59_of m c main_arg1 (by decide)).trans (W58_arg1 m c)
theorem W60_arg1 (c : Dev nD) : W60 m c main_arg1 = m ((c : Thread nD τ).loc main_arg1) :=
  (W60_of m c main_arg1 (by decide)).trans (W59_arg1 m c)
theorem W61_arg1 (c : Dev nD) : W61 m c main_arg1 = m ((c : Thread nD τ).loc main_arg1) :=
  (W61_of m c main_arg1 (by decide)).trans (W60_arg1 m c)
theorem W62_arg1 (c : Dev nD) : W62 m c main_arg1 = m ((c : Thread nD τ).loc main_arg1) :=
  (W62_of m c main_arg1 (by decide)).trans (W61_arg1 m c)
theorem W63_arg1 (c : Dev nD) : W63 m c main_arg1 = m ((c : Thread nD τ).loc main_arg1) :=
  (W63_of m c main_arg1 (by decide)).trans (W62_arg1 m c)
theorem W64_arg1 (c : Dev nD) : W64 m c main_arg1 = m ((c : Thread nD τ).loc main_arg1) :=
  (W64_of m c main_arg1 (by decide)).trans (W63_arg1 m c)
theorem W65_arg1 (c : Dev nD) : W65 m c main_arg1 = m ((c : Thread nD τ).loc main_arg1) :=
  (W65_of m c main_arg1 (by decide)).trans (W64_arg1 m c)
theorem W66_arg1 (c : Dev nD) : W66 m c main_arg1 = m ((c : Thread nD τ).loc main_arg1) :=
  (W66_of m c main_arg1 (by decide)).trans (W65_arg1 m c)
theorem W67_arg1 (c : Dev nD) : W67 m c main_arg1 = m ((c : Thread nD τ).loc main_arg1) :=
  (W67_of m c main_arg1 (by decide)).trans (W66_arg1 m c)
theorem W68_arg1 (c : Dev nD) : W68 m c main_arg1 = m ((c : Thread nD τ).loc main_arg1) :=
  (W68_of m c main_arg1 (by decide)).trans (W67_arg1 m c)
theorem W69_arg1 (c : Dev nD) : W69 m c main_arg1 = m ((c : Thread nD τ).loc main_arg1) :=
  (W69_of m c main_arg1 (by decide)).trans (W68_arg1 m c)
theorem W70_arg1 (c : Dev nD) : W70 m c main_arg1 = m ((c : Thread nD τ).loc main_arg1) :=
  (W70_of m c main_arg1 (by decide)).trans (W69_arg1 m c)
theorem W71_arg1 (c : Dev nD) : W71 m c main_arg1 = m ((c : Thread nD τ).loc main_arg1) :=
  (W71_of m c main_arg1 (by decide)).trans (W70_arg1 m c)
theorem W72_arg1 (c : Dev nD) : W72 m c main_arg1 = m ((c : Thread nD τ).loc main_arg1) :=
  (W72_of m c main_arg1 (by decide)).trans (W71_arg1 m c)
theorem W73_arg1 (c : Dev nD) : W73 m c main_arg1 = m ((c : Thread nD τ).loc main_arg1) :=
  (W73_of m c main_arg1 (by decide)).trans (W72_arg1 m c)
theorem W74_arg1 (c : Dev nD) : W74 m c main_arg1 = m ((c : Thread nD τ).loc main_arg1) :=
  (W74_of m c main_arg1 (by decide)).trans (W73_arg1 m c)
theorem W75_arg1 (c : Dev nD) : W75 m c main_arg1 = m ((c : Thread nD τ).loc main_arg1) :=
  (W75_of m c main_arg1 (by decide)).trans (W74_arg1 m c)
theorem W76_arg1 (c : Dev nD) : W76 m c main_arg1 = m ((c : Thread nD τ).loc main_arg1) :=
  (W76_of m c main_arg1 (by decide)).trans (W75_arg1 m c)
theorem W77_arg1 (c : Dev nD) : W77 m c main_arg1 = m ((c : Thread nD τ).loc main_arg1) :=
  (W77_of m c main_arg1 (by decide)).trans (W76_arg1 m c)
theorem W78_arg1 (c : Dev nD) : W78 m c main_arg1 = m ((c : Thread nD τ).loc main_arg1) :=
  (W78_of m c main_arg1 (by decide)).trans (W77_arg1 m c)
theorem W79_arg1 (c : Dev nD) : W79 m c main_arg1 = m ((c : Thread nD τ).loc main_arg1) :=
  (W79_of m c main_arg1 (by decide)).trans (W78_arg1 m c)
theorem W80_arg1 (c : Dev nD) : W80 m c main_arg1 = m ((c : Thread nD τ).loc main_arg1) :=
  (W80_of m c main_arg1 (by decide)).trans (W79_arg1 m c)
theorem W81_arg1 (c : Dev nD) : W81 m c main_arg1 = m ((c : Thread nD τ).loc main_arg1) :=
  (W81_of m c main_arg1 (by decide)).trans (W80_arg1 m c)
theorem W82_arg1 (c : Dev nD) : W82 m c main_arg1 = m ((c : Thread nD τ).loc main_arg1) :=
  (W82_of m c main_arg1 (by decide)).trans (W81_arg1 m c)
theorem W83_arg1 (c : Dev nD) : W83 m c main_arg1 = m ((c : Thread nD τ).loc main_arg1) :=
  (W83_of m c main_arg1 (by decide)).trans (W82_arg1 m c)
theorem W84_arg1 (c : Dev nD) : W84 m c main_arg1 = m ((c : Thread nD τ).loc main_arg1) :=
  (W84_of m c main_arg1 (by decide)).trans (W83_arg1 m c)
theorem W85_arg1 (c : Dev nD) : W85 m c main_arg1 = m ((c : Thread nD τ).loc main_arg1) :=
  (W85_of m c main_arg1 (by decide)).trans (W84_arg1 m c)
theorem W86_arg1 (c : Dev nD) : W86 m c main_arg1 = m ((c : Thread nD τ).loc main_arg1) :=
  (W86_of m c main_arg1 (by decide)).trans (W85_arg1 m c)
theorem W87_arg1 (c : Dev nD) : W87 m c main_arg1 = m ((c : Thread nD τ).loc main_arg1) :=
  (W87_of m c main_arg1 (by decide)).trans (W86_arg1 m c)
theorem W88_arg1 (c : Dev nD) : W88 m c main_arg1 = m ((c : Thread nD τ).loc main_arg1) :=
  (W88_of m c main_arg1 (by decide)).trans (W87_arg1 m c)
theorem W89_arg1 (c : Dev nD) : W89 m c main_arg1 = m ((c : Thread nD τ).loc main_arg1) :=
  (W89_of m c main_arg1 (by decide)).trans (W88_arg1 m c)
theorem W90_arg1 (c : Dev nD) : W90 m c main_arg1 = m ((c : Thread nD τ).loc main_arg1) :=
  (W90_of m c main_arg1 (by decide)).trans (W89_arg1 m c)
theorem W91_arg1 (c : Dev nD) : W91 m c main_arg1 = m ((c : Thread nD τ).loc main_arg1) :=
  (W91_of m c main_arg1 (by decide)).trans (W90_arg1 m c)
theorem W92_arg1 (c : Dev nD) : W92 m c main_arg1 = m ((c : Thread nD τ).loc main_arg1) :=
  (W92_of m c main_arg1 (by decide)).trans (W91_arg1 m c)
theorem W93_arg1 (c : Dev nD) : W93 m c main_arg1 = m ((c : Thread nD τ).loc main_arg1) :=
  (W93_of m c main_arg1 (by decide)).trans (W92_arg1 m c)
theorem W94_arg1 (c : Dev nD) : W94 m c main_arg1 = m ((c : Thread nD τ).loc main_arg1) :=
  (W94_of m c main_arg1 (by decide)).trans (W93_arg1 m c)
theorem W95_arg1 (c : Dev nD) : W95 m c main_arg1 = m ((c : Thread nD τ).loc main_arg1) :=
  (W95_of m c main_arg1 (by decide)).trans (W94_arg1 m c)
theorem W96_arg1 (c : Dev nD) : W96 m c main_arg1 = m ((c : Thread nD τ).loc main_arg1) :=
  (W96_of m c main_arg1 (by decide)).trans (W95_arg1 m c)
theorem W97_arg1 (c : Dev nD) : W97 m c main_arg1 = m ((c : Thread nD τ).loc main_arg1) :=
  (W97_of m c main_arg1 (by decide)).trans (W96_arg1 m c)
theorem W98_arg1 (c : Dev nD) : W98 m c main_arg1 = m ((c : Thread nD τ).loc main_arg1) :=
  (W98_of m c main_arg1 (by decide)).trans (W97_arg1 m c)
theorem W99_arg1 (c : Dev nD) : W99 m c main_arg1 = m ((c : Thread nD τ).loc main_arg1) :=
  (W99_of m c main_arg1 (by decide)).trans (W98_arg1 m c)
theorem W100_arg1 (c : Dev nD) : W100 m c main_arg1 = m ((c : Thread nD τ).loc main_arg1) :=
  (W100_of m c main_arg1 (by decide)).trans (W99_arg1 m c)
theorem W0_arg2 (c : Dev nD) : W0 m c main_arg2 = m ((c : Thread nD τ).loc main_arg2) := rfl
theorem W1_arg2 (c : Dev nD) : W1 m c main_arg2 = m ((c : Thread nD τ).loc main_arg2) :=
  (W1_of m c main_arg2 (by decide)).trans (W0_arg2 m c)
theorem W2_arg2 (c : Dev nD) : W2 m c main_arg2 = m ((c : Thread nD τ).loc main_arg2) :=
  (W2_of m c main_arg2 (by decide)).trans (W1_arg2 m c)
theorem W3_arg2 (c : Dev nD) : W3 m c main_arg2 = m ((c : Thread nD τ).loc main_arg2) :=
  (W3_of m c main_arg2 (by decide)).trans (W2_arg2 m c)
theorem W4_arg2 (c : Dev nD) : W4 m c main_arg2 = m ((c : Thread nD τ).loc main_arg2) :=
  (W4_of m c main_arg2 (by decide)).trans (W3_arg2 m c)
theorem W5_arg2 (c : Dev nD) : W5 m c main_arg2 = m ((c : Thread nD τ).loc main_arg2) :=
  (W5_of m c main_arg2 (by decide)).trans (W4_arg2 m c)
theorem W6_arg2 (c : Dev nD) : W6 m c main_arg2 = m ((c : Thread nD τ).loc main_arg2) :=
  (W6_of m c main_arg2 (by decide)).trans (W5_arg2 m c)
theorem W7_arg2 (c : Dev nD) : W7 m c main_arg2 = m ((c : Thread nD τ).loc main_arg2) :=
  (W7_of m c main_arg2 (by decide)).trans (W6_arg2 m c)
theorem W8_arg2 (c : Dev nD) : W8 m c main_arg2 = m ((c : Thread nD τ).loc main_arg2) :=
  (W8_of m c main_arg2 (by decide)).trans (W7_arg2 m c)
theorem W9_arg2 (c : Dev nD) : W9 m c main_arg2 = m ((c : Thread nD τ).loc main_arg2) :=
  (W9_of m c main_arg2 (by decide)).trans (W8_arg2 m c)
theorem W10_arg2 (c : Dev nD) : W10 m c main_arg2 = m ((c : Thread nD τ).loc main_arg2) :=
  (W10_of m c main_arg2 (by decide)).trans (W9_arg2 m c)
theorem W11_arg2 (c : Dev nD) : W11 m c main_arg2 = m ((c : Thread nD τ).loc main_arg2) :=
  (W11_of m c main_arg2 (by decide)).trans (W10_arg2 m c)
theorem W12_arg2 (c : Dev nD) : W12 m c main_arg2 = m ((c : Thread nD τ).loc main_arg2) :=
  (W12_of m c main_arg2 (by decide)).trans (W11_arg2 m c)
theorem W13_arg2 (c : Dev nD) : W13 m c main_arg2 = m ((c : Thread nD τ).loc main_arg2) :=
  (W13_of m c main_arg2 (by decide)).trans (W12_arg2 m c)
theorem W14_arg2 (c : Dev nD) : W14 m c main_arg2 = m ((c : Thread nD τ).loc main_arg2) :=
  (W14_of m c main_arg2 (by decide)).trans (W13_arg2 m c)
theorem W15_arg2 (c : Dev nD) : W15 m c main_arg2 = m ((c : Thread nD τ).loc main_arg2) :=
  (W15_of m c main_arg2 (by decide)).trans (W14_arg2 m c)
theorem W16_arg2 (c : Dev nD) : W16 m c main_arg2 = m ((c : Thread nD τ).loc main_arg2) :=
  (W16_of m c main_arg2 (by decide)).trans (W15_arg2 m c)
theorem W17_arg2 (c : Dev nD) : W17 m c main_arg2 = m ((c : Thread nD τ).loc main_arg2) :=
  (W17_of m c main_arg2 (by decide)).trans (W16_arg2 m c)
theorem W18_arg2 (c : Dev nD) : W18 m c main_arg2 = m ((c : Thread nD τ).loc main_arg2) :=
  (W18_of m c main_arg2 (by decide)).trans (W17_arg2 m c)
theorem W19_arg2 (c : Dev nD) : W19 m c main_arg2 = m ((c : Thread nD τ).loc main_arg2) :=
  (W19_of m c main_arg2 (by decide)).trans (W18_arg2 m c)
theorem W20_arg2 (c : Dev nD) : W20 m c main_arg2 = m ((c : Thread nD τ).loc main_arg2) :=
  (W20_of m c main_arg2 (by decide)).trans (W19_arg2 m c)
theorem W21_arg2 (c : Dev nD) : W21 m c main_arg2 = m ((c : Thread nD τ).loc main_arg2) :=
  (W21_of m c main_arg2 (by decide)).trans (W20_arg2 m c)
theorem W22_arg2 (c : Dev nD) : W22 m c main_arg2 = m ((c : Thread nD τ).loc main_arg2) :=
  (W22_of m c main_arg2 (by decide)).trans (W21_arg2 m c)
theorem W23_arg2 (c : Dev nD) : W23 m c main_arg2 = m ((c : Thread nD τ).loc main_arg2) :=
  (W23_of m c main_arg2 (by decide)).trans (W22_arg2 m c)
theorem W24_arg2 (c : Dev nD) : W24 m c main_arg2 = m ((c : Thread nD τ).loc main_arg2) :=
  (W24_of m c main_arg2 (by decide)).trans (W23_arg2 m c)
theorem W25_arg2 (c : Dev nD) : W25 m c main_arg2 = m ((c : Thread nD τ).loc main_arg2) :=
  (W25_of m c main_arg2 (by decide)).trans (W24_arg2 m c)
theorem W26_arg2 (c : Dev nD) : W26 m c main_arg2 = m ((c : Thread nD τ).loc main_arg2) :=
  (W26_of m c main_arg2 (by decide)).trans (W25_arg2 m c)
theorem W27_arg2 (c : Dev nD) : W27 m c main_arg2 = m ((c : Thread nD τ).loc main_arg2) :=
  (W27_of m c main_arg2 (by decide)).trans (W26_arg2 m c)
theorem W28_arg2 (c : Dev nD) : W28 m c main_arg2 = m ((c : Thread nD τ).loc main_arg2) :=
  (W28_of m c main_arg2 (by decide)).trans (W27_arg2 m c)
theorem W29_arg2 (c : Dev nD) : W29 m c main_arg2 = m ((c : Thread nD τ).loc main_arg2) :=
  (W29_of m c main_arg2 (by decide)).trans (W28_arg2 m c)
theorem W30_arg2 (c : Dev nD) : W30 m c main_arg2 = m ((c : Thread nD τ).loc main_arg2) :=
  (W30_of m c main_arg2 (by decide)).trans (W29_arg2 m c)
theorem W31_arg2 (c : Dev nD) : W31 m c main_arg2 = m ((c : Thread nD τ).loc main_arg2) :=
  (W31_of m c main_arg2 (by decide)).trans (W30_arg2 m c)
theorem W32_arg2 (c : Dev nD) : W32 m c main_arg2 = m ((c : Thread nD τ).loc main_arg2) :=
  (W32_of m c main_arg2 (by decide)).trans (W31_arg2 m c)
theorem W33_arg2 (c : Dev nD) : W33 m c main_arg2 = m ((c : Thread nD τ).loc main_arg2) :=
  (W33_of m c main_arg2 (by decide)).trans (W32_arg2 m c)
theorem W34_arg2 (c : Dev nD) : W34 m c main_arg2 = m ((c : Thread nD τ).loc main_arg2) :=
  (W34_of m c main_arg2 (by decide)).trans (W33_arg2 m c)
theorem W35_arg2 (c : Dev nD) : W35 m c main_arg2 = m ((c : Thread nD τ).loc main_arg2) :=
  (W35_of m c main_arg2 (by decide)).trans (W34_arg2 m c)
theorem W36_arg2 (c : Dev nD) : W36 m c main_arg2 = m ((c : Thread nD τ).loc main_arg2) :=
  (W36_of m c main_arg2 (by decide)).trans (W35_arg2 m c)
theorem W37_arg2 (c : Dev nD) : W37 m c main_arg2 = m ((c : Thread nD τ).loc main_arg2) :=
  (W37_of m c main_arg2 (by decide)).trans (W36_arg2 m c)
theorem W38_arg2 (c : Dev nD) : W38 m c main_arg2 = m ((c : Thread nD τ).loc main_arg2) :=
  (W38_of m c main_arg2 (by decide)).trans (W37_arg2 m c)
theorem W39_arg2 (c : Dev nD) : W39 m c main_arg2 = m ((c : Thread nD τ).loc main_arg2) :=
  (W39_of m c main_arg2 (by decide)).trans (W38_arg2 m c)
theorem W40_arg2 (c : Dev nD) : W40 m c main_arg2 = m ((c : Thread nD τ).loc main_arg2) :=
  (W40_of m c main_arg2 (by decide)).trans (W39_arg2 m c)
theorem W41_arg2 (c : Dev nD) : W41 m c main_arg2 = m ((c : Thread nD τ).loc main_arg2) :=
  (W41_of m c main_arg2 (by decide)).trans (W40_arg2 m c)
theorem W42_arg2 (c : Dev nD) : W42 m c main_arg2 = m ((c : Thread nD τ).loc main_arg2) :=
  (W42_of m c main_arg2 (by decide)).trans (W41_arg2 m c)
theorem W43_arg2 (c : Dev nD) : W43 m c main_arg2 = m ((c : Thread nD τ).loc main_arg2) :=
  (W43_of m c main_arg2 (by decide)).trans (W42_arg2 m c)
theorem W44_arg2 (c : Dev nD) : W44 m c main_arg2 = m ((c : Thread nD τ).loc main_arg2) :=
  (W44_of m c main_arg2 (by decide)).trans (W43_arg2 m c)
theorem W45_arg2 (c : Dev nD) : W45 m c main_arg2 = m ((c : Thread nD τ).loc main_arg2) :=
  (W45_of m c main_arg2 (by decide)).trans (W44_arg2 m c)
theorem W46_arg2 (c : Dev nD) : W46 m c main_arg2 = m ((c : Thread nD τ).loc main_arg2) :=
  (W46_of m c main_arg2 (by decide)).trans (W45_arg2 m c)
theorem W47_arg2 (c : Dev nD) : W47 m c main_arg2 = m ((c : Thread nD τ).loc main_arg2) :=
  (W47_of m c main_arg2 (by decide)).trans (W46_arg2 m c)
theorem W48_arg2 (c : Dev nD) : W48 m c main_arg2 = m ((c : Thread nD τ).loc main_arg2) :=
  (W48_of m c main_arg2 (by decide)).trans (W47_arg2 m c)
theorem W49_arg2 (c : Dev nD) : W49 m c main_arg2 = m ((c : Thread nD τ).loc main_arg2) :=
  (W49_of m c main_arg2 (by decide)).trans (W48_arg2 m c)
theorem W50_arg2 (c : Dev nD) : W50 m c main_arg2 = m ((c : Thread nD τ).loc main_arg2) :=
  (W50_of m c main_arg2 (by decide)).trans (W49_arg2 m c)
theorem W51_arg2 (c : Dev nD) : W51 m c main_arg2 = m ((c : Thread nD τ).loc main_arg2) :=
  (W51_of m c main_arg2 (by decide)).trans (W50_arg2 m c)
theorem W52_arg2 (c : Dev nD) : W52 m c main_arg2 = m ((c : Thread nD τ).loc main_arg2) :=
  (W52_of m c main_arg2 (by decide)).trans (W51_arg2 m c)
theorem W53_arg2 (c : Dev nD) : W53 m c main_arg2 = m ((c : Thread nD τ).loc main_arg2) :=
  (W53_of m c main_arg2 (by decide)).trans (W52_arg2 m c)
theorem W54_arg2 (c : Dev nD) : W54 m c main_arg2 = m ((c : Thread nD τ).loc main_arg2) :=
  (W54_of m c main_arg2 (by decide)).trans (W53_arg2 m c)
theorem W55_arg2 (c : Dev nD) : W55 m c main_arg2 = m ((c : Thread nD τ).loc main_arg2) :=
  (W55_of m c main_arg2 (by decide)).trans (W54_arg2 m c)
theorem W56_arg2 (c : Dev nD) : W56 m c main_arg2 = m ((c : Thread nD τ).loc main_arg2) :=
  (W56_of m c main_arg2 (by decide)).trans (W55_arg2 m c)
theorem W57_arg2 (c : Dev nD) : W57 m c main_arg2 = m ((c : Thread nD τ).loc main_arg2) :=
  (W57_of m c main_arg2 (by decide)).trans (W56_arg2 m c)
theorem W58_arg2 (c : Dev nD) : W58 m c main_arg2 = m ((c : Thread nD τ).loc main_arg2) :=
  (W58_of m c main_arg2 (by decide)).trans (W57_arg2 m c)
theorem W59_arg2 (c : Dev nD) : W59 m c main_arg2 = m ((c : Thread nD τ).loc main_arg2) :=
  (W59_of m c main_arg2 (by decide)).trans (W58_arg2 m c)
theorem W60_arg2 (c : Dev nD) : W60 m c main_arg2 = m ((c : Thread nD τ).loc main_arg2) :=
  (W60_of m c main_arg2 (by decide)).trans (W59_arg2 m c)
theorem W61_arg2 (c : Dev nD) : W61 m c main_arg2 = m ((c : Thread nD τ).loc main_arg2) :=
  (W61_of m c main_arg2 (by decide)).trans (W60_arg2 m c)
theorem W62_arg2 (c : Dev nD) : W62 m c main_arg2 = m ((c : Thread nD τ).loc main_arg2) :=
  (W62_of m c main_arg2 (by decide)).trans (W61_arg2 m c)
theorem W63_arg2 (c : Dev nD) : W63 m c main_arg2 = m ((c : Thread nD τ).loc main_arg2) :=
  (W63_of m c main_arg2 (by decide)).trans (W62_arg2 m c)
theorem W64_arg2 (c : Dev nD) : W64 m c main_arg2 = m ((c : Thread nD τ).loc main_arg2) :=
  (W64_of m c main_arg2 (by decide)).trans (W63_arg2 m c)
theorem W65_arg2 (c : Dev nD) : W65 m c main_arg2 = m ((c : Thread nD τ).loc main_arg2) :=
  (W65_of m c main_arg2 (by decide)).trans (W64_arg2 m c)
theorem W66_arg2 (c : Dev nD) : W66 m c main_arg2 = m ((c : Thread nD τ).loc main_arg2) :=
  (W66_of m c main_arg2 (by decide)).trans (W65_arg2 m c)
theorem W67_arg2 (c : Dev nD) : W67 m c main_arg2 = m ((c : Thread nD τ).loc main_arg2) :=
  (W67_of m c main_arg2 (by decide)).trans (W66_arg2 m c)
theorem W68_arg2 (c : Dev nD) : W68 m c main_arg2 = m ((c : Thread nD τ).loc main_arg2) :=
  (W68_of m c main_arg2 (by decide)).trans (W67_arg2 m c)
theorem W69_arg2 (c : Dev nD) : W69 m c main_arg2 = m ((c : Thread nD τ).loc main_arg2) :=
  (W69_of m c main_arg2 (by decide)).trans (W68_arg2 m c)
theorem W70_arg2 (c : Dev nD) : W70 m c main_arg2 = m ((c : Thread nD τ).loc main_arg2) :=
  (W70_of m c main_arg2 (by decide)).trans (W69_arg2 m c)
theorem W71_arg2 (c : Dev nD) : W71 m c main_arg2 = m ((c : Thread nD τ).loc main_arg2) :=
  (W71_of m c main_arg2 (by decide)).trans (W70_arg2 m c)
theorem W72_arg2 (c : Dev nD) : W72 m c main_arg2 = m ((c : Thread nD τ).loc main_arg2) :=
  (W72_of m c main_arg2 (by decide)).trans (W71_arg2 m c)
theorem W73_arg2 (c : Dev nD) : W73 m c main_arg2 = m ((c : Thread nD τ).loc main_arg2) :=
  (W73_of m c main_arg2 (by decide)).trans (W72_arg2 m c)
theorem W74_arg2 (c : Dev nD) : W74 m c main_arg2 = m ((c : Thread nD τ).loc main_arg2) :=
  (W74_of m c main_arg2 (by decide)).trans (W73_arg2 m c)
theorem W75_arg2 (c : Dev nD) : W75 m c main_arg2 = m ((c : Thread nD τ).loc main_arg2) :=
  (W75_of m c main_arg2 (by decide)).trans (W74_arg2 m c)
theorem W76_arg2 (c : Dev nD) : W76 m c main_arg2 = m ((c : Thread nD τ).loc main_arg2) :=
  (W76_of m c main_arg2 (by decide)).trans (W75_arg2 m c)
theorem W77_arg2 (c : Dev nD) : W77 m c main_arg2 = m ((c : Thread nD τ).loc main_arg2) :=
  (W77_of m c main_arg2 (by decide)).trans (W76_arg2 m c)
theorem W78_arg2 (c : Dev nD) : W78 m c main_arg2 = m ((c : Thread nD τ).loc main_arg2) :=
  (W78_of m c main_arg2 (by decide)).trans (W77_arg2 m c)
theorem W79_arg2 (c : Dev nD) : W79 m c main_arg2 = m ((c : Thread nD τ).loc main_arg2) :=
  (W79_of m c main_arg2 (by decide)).trans (W78_arg2 m c)
theorem W80_arg2 (c : Dev nD) : W80 m c main_arg2 = m ((c : Thread nD τ).loc main_arg2) :=
  (W80_of m c main_arg2 (by decide)).trans (W79_arg2 m c)
theorem W81_arg2 (c : Dev nD) : W81 m c main_arg2 = m ((c : Thread nD τ).loc main_arg2) :=
  (W81_of m c main_arg2 (by decide)).trans (W80_arg2 m c)
theorem W82_arg2 (c : Dev nD) : W82 m c main_arg2 = m ((c : Thread nD τ).loc main_arg2) :=
  (W82_of m c main_arg2 (by decide)).trans (W81_arg2 m c)
theorem W83_arg2 (c : Dev nD) : W83 m c main_arg2 = m ((c : Thread nD τ).loc main_arg2) :=
  (W83_of m c main_arg2 (by decide)).trans (W82_arg2 m c)
theorem W84_arg2 (c : Dev nD) : W84 m c main_arg2 = m ((c : Thread nD τ).loc main_arg2) :=
  (W84_of m c main_arg2 (by decide)).trans (W83_arg2 m c)
theorem W85_arg2 (c : Dev nD) : W85 m c main_arg2 = m ((c : Thread nD τ).loc main_arg2) :=
  (W85_of m c main_arg2 (by decide)).trans (W84_arg2 m c)
theorem W86_arg2 (c : Dev nD) : W86 m c main_arg2 = m ((c : Thread nD τ).loc main_arg2) :=
  (W86_of m c main_arg2 (by decide)).trans (W85_arg2 m c)
theorem W87_arg2 (c : Dev nD) : W87 m c main_arg2 = m ((c : Thread nD τ).loc main_arg2) :=
  (W87_of m c main_arg2 (by decide)).trans (W86_arg2 m c)
theorem W88_arg2 (c : Dev nD) : W88 m c main_arg2 = m ((c : Thread nD τ).loc main_arg2) :=
  (W88_of m c main_arg2 (by decide)).trans (W87_arg2 m c)
theorem W89_arg2 (c : Dev nD) : W89 m c main_arg2 = m ((c : Thread nD τ).loc main_arg2) :=
  (W89_of m c main_arg2 (by decide)).trans (W88_arg2 m c)
theorem W90_arg2 (c : Dev nD) : W90 m c main_arg2 = m ((c : Thread nD τ).loc main_arg2) :=
  (W90_of m c main_arg2 (by decide)).trans (W89_arg2 m c)
theorem W91_arg2 (c : Dev nD) : W91 m c main_arg2 = m ((c : Thread nD τ).loc main_arg2) :=
  (W91_of m c main_arg2 (by decide)).trans (W90_arg2 m c)
theorem W92_arg2 (c : Dev nD) : W92 m c main_arg2 = m ((c : Thread nD τ).loc main_arg2) :=
  (W92_of m c main_arg2 (by decide)).trans (W91_arg2 m c)
theorem W93_arg2 (c : Dev nD) : W93 m c main_arg2 = m ((c : Thread nD τ).loc main_arg2) :=
  (W93_of m c main_arg2 (by decide)).trans (W92_arg2 m c)
theorem W94_arg2 (c : Dev nD) : W94 m c main_arg2 = m ((c : Thread nD τ).loc main_arg2) :=
  (W94_of m c main_arg2 (by decide)).trans (W93_arg2 m c)
theorem W95_arg2 (c : Dev nD) : W95 m c main_arg2 = m ((c : Thread nD τ).loc main_arg2) :=
  (W95_of m c main_arg2 (by decide)).trans (W94_arg2 m c)
theorem W96_arg2 (c : Dev nD) : W96 m c main_arg2 = m ((c : Thread nD τ).loc main_arg2) :=
  (W96_of m c main_arg2 (by decide)).trans (W95_arg2 m c)
theorem W97_arg2 (c : Dev nD) : W97 m c main_arg2 = m ((c : Thread nD τ).loc main_arg2) :=
  (W97_of m c main_arg2 (by decide)).trans (W96_arg2 m c)
theorem W98_arg2 (c : Dev nD) : W98 m c main_arg2 = m ((c : Thread nD τ).loc main_arg2) :=
  (W98_of m c main_arg2 (by decide)).trans (W97_arg2 m c)
theorem W99_arg2 (c : Dev nD) : W99 m c main_arg2 = m ((c : Thread nD τ).loc main_arg2) :=
  (W99_of m c main_arg2 (by decide)).trans (W98_arg2 m c)
theorem W100_arg2 (c : Dev nD) : W100 m c main_arg2 = m ((c : Thread nD τ).loc main_arg2) :=
  (W100_of m c main_arg2 (by decide)).trans (W99_arg2 m c)
theorem W0_arg3 (c : Dev nD) : W0 m c main_arg3 = m ((c : Thread nD τ).loc main_arg3) := rfl
theorem W1_arg3 (c : Dev nD) : W1 m c main_arg3 = m ((c : Thread nD τ).loc main_arg3) :=
  (W1_of m c main_arg3 (by decide)).trans (W0_arg3 m c)
theorem W2_arg3 (c : Dev nD) : W2 m c main_arg3 = m ((c : Thread nD τ).loc main_arg3) :=
  (W2_of m c main_arg3 (by decide)).trans (W1_arg3 m c)
theorem W3_arg3 (c : Dev nD) : W3 m c main_arg3 = m ((c : Thread nD τ).loc main_arg3) :=
  (W3_of m c main_arg3 (by decide)).trans (W2_arg3 m c)
theorem W4_arg3 (c : Dev nD) : W4 m c main_arg3 = m ((c : Thread nD τ).loc main_arg3) :=
  (W4_of m c main_arg3 (by decide)).trans (W3_arg3 m c)
theorem W5_arg3 (c : Dev nD) : W5 m c main_arg3 = m ((c : Thread nD τ).loc main_arg3) :=
  (W5_of m c main_arg3 (by decide)).trans (W4_arg3 m c)
theorem W6_arg3 (c : Dev nD) : W6 m c main_arg3 = m ((c : Thread nD τ).loc main_arg3) :=
  (W6_of m c main_arg3 (by decide)).trans (W5_arg3 m c)
theorem W7_arg3 (c : Dev nD) : W7 m c main_arg3 = m ((c : Thread nD τ).loc main_arg3) :=
  (W7_of m c main_arg3 (by decide)).trans (W6_arg3 m c)
theorem W8_arg3 (c : Dev nD) : W8 m c main_arg3 = m ((c : Thread nD τ).loc main_arg3) :=
  (W8_of m c main_arg3 (by decide)).trans (W7_arg3 m c)
theorem W9_arg3 (c : Dev nD) : W9 m c main_arg3 = m ((c : Thread nD τ).loc main_arg3) :=
  (W9_of m c main_arg3 (by decide)).trans (W8_arg3 m c)
theorem W10_arg3 (c : Dev nD) : W10 m c main_arg3 = m ((c : Thread nD τ).loc main_arg3) :=
  (W10_of m c main_arg3 (by decide)).trans (W9_arg3 m c)
theorem W11_arg3 (c : Dev nD) : W11 m c main_arg3 = m ((c : Thread nD τ).loc main_arg3) :=
  (W11_of m c main_arg3 (by decide)).trans (W10_arg3 m c)
theorem W12_arg3 (c : Dev nD) : W12 m c main_arg3 = m ((c : Thread nD τ).loc main_arg3) :=
  (W12_of m c main_arg3 (by decide)).trans (W11_arg3 m c)
theorem W13_arg3 (c : Dev nD) : W13 m c main_arg3 = m ((c : Thread nD τ).loc main_arg3) :=
  (W13_of m c main_arg3 (by decide)).trans (W12_arg3 m c)
theorem W14_arg3 (c : Dev nD) : W14 m c main_arg3 = m ((c : Thread nD τ).loc main_arg3) :=
  (W14_of m c main_arg3 (by decide)).trans (W13_arg3 m c)
theorem W15_arg3 (c : Dev nD) : W15 m c main_arg3 = m ((c : Thread nD τ).loc main_arg3) :=
  (W15_of m c main_arg3 (by decide)).trans (W14_arg3 m c)
theorem W16_arg3 (c : Dev nD) : W16 m c main_arg3 = m ((c : Thread nD τ).loc main_arg3) :=
  (W16_of m c main_arg3 (by decide)).trans (W15_arg3 m c)
theorem W17_arg3 (c : Dev nD) : W17 m c main_arg3 = m ((c : Thread nD τ).loc main_arg3) :=
  (W17_of m c main_arg3 (by decide)).trans (W16_arg3 m c)
theorem W18_arg3 (c : Dev nD) : W18 m c main_arg3 = m ((c : Thread nD τ).loc main_arg3) :=
  (W18_of m c main_arg3 (by decide)).trans (W17_arg3 m c)
theorem W19_arg3 (c : Dev nD) : W19 m c main_arg3 = m ((c : Thread nD τ).loc main_arg3) :=
  (W19_of m c main_arg3 (by decide)).trans (W18_arg3 m c)
theorem W20_arg3 (c : Dev nD) : W20 m c main_arg3 = m ((c : Thread nD τ).loc main_arg3) :=
  (W20_of m c main_arg3 (by decide)).trans (W19_arg3 m c)
theorem W21_arg3 (c : Dev nD) : W21 m c main_arg3 = m ((c : Thread nD τ).loc main_arg3) :=
  (W21_of m c main_arg3 (by decide)).trans (W20_arg3 m c)
theorem W22_arg3 (c : Dev nD) : W22 m c main_arg3 = m ((c : Thread nD τ).loc main_arg3) :=
  (W22_of m c main_arg3 (by decide)).trans (W21_arg3 m c)
theorem W23_arg3 (c : Dev nD) : W23 m c main_arg3 = m ((c : Thread nD τ).loc main_arg3) :=
  (W23_of m c main_arg3 (by decide)).trans (W22_arg3 m c)
theorem W24_arg3 (c : Dev nD) : W24 m c main_arg3 = m ((c : Thread nD τ).loc main_arg3) :=
  (W24_of m c main_arg3 (by decide)).trans (W23_arg3 m c)
theorem W25_arg3 (c : Dev nD) : W25 m c main_arg3 = m ((c : Thread nD τ).loc main_arg3) :=
  (W25_of m c main_arg3 (by decide)).trans (W24_arg3 m c)
theorem W26_arg3 (c : Dev nD) : W26 m c main_arg3 = m ((c : Thread nD τ).loc main_arg3) :=
  (W26_of m c main_arg3 (by decide)).trans (W25_arg3 m c)
theorem W27_arg3 (c : Dev nD) : W27 m c main_arg3 = m ((c : Thread nD τ).loc main_arg3) :=
  (W27_of m c main_arg3 (by decide)).trans (W26_arg3 m c)
theorem W28_arg3 (c : Dev nD) : W28 m c main_arg3 = m ((c : Thread nD τ).loc main_arg3) :=
  (W28_of m c main_arg3 (by decide)).trans (W27_arg3 m c)
theorem W29_arg3 (c : Dev nD) : W29 m c main_arg3 = m ((c : Thread nD τ).loc main_arg3) :=
  (W29_of m c main_arg3 (by decide)).trans (W28_arg3 m c)
theorem W30_arg3 (c : Dev nD) : W30 m c main_arg3 = m ((c : Thread nD τ).loc main_arg3) :=
  (W30_of m c main_arg3 (by decide)).trans (W29_arg3 m c)
theorem W31_arg3 (c : Dev nD) : W31 m c main_arg3 = m ((c : Thread nD τ).loc main_arg3) :=
  (W31_of m c main_arg3 (by decide)).trans (W30_arg3 m c)
theorem W32_arg3 (c : Dev nD) : W32 m c main_arg3 = m ((c : Thread nD τ).loc main_arg3) :=
  (W32_of m c main_arg3 (by decide)).trans (W31_arg3 m c)
theorem W33_arg3 (c : Dev nD) : W33 m c main_arg3 = m ((c : Thread nD τ).loc main_arg3) :=
  (W33_of m c main_arg3 (by decide)).trans (W32_arg3 m c)
theorem W34_arg3 (c : Dev nD) : W34 m c main_arg3 = m ((c : Thread nD τ).loc main_arg3) :=
  (W34_of m c main_arg3 (by decide)).trans (W33_arg3 m c)
theorem W35_arg3 (c : Dev nD) : W35 m c main_arg3 = m ((c : Thread nD τ).loc main_arg3) :=
  (W35_of m c main_arg3 (by decide)).trans (W34_arg3 m c)
theorem W36_arg3 (c : Dev nD) : W36 m c main_arg3 = m ((c : Thread nD τ).loc main_arg3) :=
  (W36_of m c main_arg3 (by decide)).trans (W35_arg3 m c)
theorem W37_arg3 (c : Dev nD) : W37 m c main_arg3 = m ((c : Thread nD τ).loc main_arg3) :=
  (W37_of m c main_arg3 (by decide)).trans (W36_arg3 m c)
theorem W38_arg3 (c : Dev nD) : W38 m c main_arg3 = m ((c : Thread nD τ).loc main_arg3) :=
  (W38_of m c main_arg3 (by decide)).trans (W37_arg3 m c)
theorem W39_arg3 (c : Dev nD) : W39 m c main_arg3 = m ((c : Thread nD τ).loc main_arg3) :=
  (W39_of m c main_arg3 (by decide)).trans (W38_arg3 m c)
theorem W40_arg3 (c : Dev nD) : W40 m c main_arg3 = m ((c : Thread nD τ).loc main_arg3) :=
  (W40_of m c main_arg3 (by decide)).trans (W39_arg3 m c)
theorem W41_arg3 (c : Dev nD) : W41 m c main_arg3 = m ((c : Thread nD τ).loc main_arg3) :=
  (W41_of m c main_arg3 (by decide)).trans (W40_arg3 m c)
theorem W42_arg3 (c : Dev nD) : W42 m c main_arg3 = m ((c : Thread nD τ).loc main_arg3) :=
  (W42_of m c main_arg3 (by decide)).trans (W41_arg3 m c)
theorem W43_arg3 (c : Dev nD) : W43 m c main_arg3 = m ((c : Thread nD τ).loc main_arg3) :=
  (W43_of m c main_arg3 (by decide)).trans (W42_arg3 m c)
theorem W44_arg3 (c : Dev nD) : W44 m c main_arg3 = m ((c : Thread nD τ).loc main_arg3) :=
  (W44_of m c main_arg3 (by decide)).trans (W43_arg3 m c)
theorem W45_arg3 (c : Dev nD) : W45 m c main_arg3 = m ((c : Thread nD τ).loc main_arg3) :=
  (W45_of m c main_arg3 (by decide)).trans (W44_arg3 m c)
theorem W46_arg3 (c : Dev nD) : W46 m c main_arg3 = m ((c : Thread nD τ).loc main_arg3) :=
  (W46_of m c main_arg3 (by decide)).trans (W45_arg3 m c)
theorem W47_arg3 (c : Dev nD) : W47 m c main_arg3 = m ((c : Thread nD τ).loc main_arg3) :=
  (W47_of m c main_arg3 (by decide)).trans (W46_arg3 m c)
theorem W48_arg3 (c : Dev nD) : W48 m c main_arg3 = m ((c : Thread nD τ).loc main_arg3) :=
  (W48_of m c main_arg3 (by decide)).trans (W47_arg3 m c)
theorem W49_arg3 (c : Dev nD) : W49 m c main_arg3 = m ((c : Thread nD τ).loc main_arg3) :=
  (W49_of m c main_arg3 (by decide)).trans (W48_arg3 m c)
theorem W50_arg3 (c : Dev nD) : W50 m c main_arg3 = m ((c : Thread nD τ).loc main_arg3) :=
  (W50_of m c main_arg3 (by decide)).trans (W49_arg3 m c)
theorem W51_arg3 (c : Dev nD) : W51 m c main_arg3 = m ((c : Thread nD τ).loc main_arg3) :=
  (W51_of m c main_arg3 (by decide)).trans (W50_arg3 m c)
theorem W52_arg3 (c : Dev nD) : W52 m c main_arg3 = m ((c : Thread nD τ).loc main_arg3) :=
  (W52_of m c main_arg3 (by decide)).trans (W51_arg3 m c)
theorem W53_arg3 (c : Dev nD) : W53 m c main_arg3 = m ((c : Thread nD τ).loc main_arg3) :=
  (W53_of m c main_arg3 (by decide)).trans (W52_arg3 m c)
theorem W54_arg3 (c : Dev nD) : W54 m c main_arg3 = m ((c : Thread nD τ).loc main_arg3) :=
  (W54_of m c main_arg3 (by decide)).trans (W53_arg3 m c)
theorem W55_arg3 (c : Dev nD) : W55 m c main_arg3 = m ((c : Thread nD τ).loc main_arg3) :=
  (W55_of m c main_arg3 (by decide)).trans (W54_arg3 m c)
theorem W56_arg3 (c : Dev nD) : W56 m c main_arg3 = m ((c : Thread nD τ).loc main_arg3) :=
  (W56_of m c main_arg3 (by decide)).trans (W55_arg3 m c)
theorem W57_arg3 (c : Dev nD) : W57 m c main_arg3 = m ((c : Thread nD τ).loc main_arg3) :=
  (W57_of m c main_arg3 (by decide)).trans (W56_arg3 m c)
theorem W58_arg3 (c : Dev nD) : W58 m c main_arg3 = m ((c : Thread nD τ).loc main_arg3) :=
  (W58_of m c main_arg3 (by decide)).trans (W57_arg3 m c)
theorem W59_arg3 (c : Dev nD) : W59 m c main_arg3 = m ((c : Thread nD τ).loc main_arg3) :=
  (W59_of m c main_arg3 (by decide)).trans (W58_arg3 m c)
theorem W60_arg3 (c : Dev nD) : W60 m c main_arg3 = m ((c : Thread nD τ).loc main_arg3) :=
  (W60_of m c main_arg3 (by decide)).trans (W59_arg3 m c)
theorem W61_arg3 (c : Dev nD) : W61 m c main_arg3 = m ((c : Thread nD τ).loc main_arg3) :=
  (W61_of m c main_arg3 (by decide)).trans (W60_arg3 m c)
theorem W62_arg3 (c : Dev nD) : W62 m c main_arg3 = m ((c : Thread nD τ).loc main_arg3) :=
  (W62_of m c main_arg3 (by decide)).trans (W61_arg3 m c)
theorem W63_arg3 (c : Dev nD) : W63 m c main_arg3 = m ((c : Thread nD τ).loc main_arg3) :=
  (W63_of m c main_arg3 (by decide)).trans (W62_arg3 m c)
theorem W64_arg3 (c : Dev nD) : W64 m c main_arg3 = m ((c : Thread nD τ).loc main_arg3) :=
  (W64_of m c main_arg3 (by decide)).trans (W63_arg3 m c)
theorem W65_arg3 (c : Dev nD) : W65 m c main_arg3 = m ((c : Thread nD τ).loc main_arg3) :=
  (W65_of m c main_arg3 (by decide)).trans (W64_arg3 m c)
theorem W66_arg3 (c : Dev nD) : W66 m c main_arg3 = m ((c : Thread nD τ).loc main_arg3) :=
  (W66_of m c main_arg3 (by decide)).trans (W65_arg3 m c)
theorem W67_arg3 (c : Dev nD) : W67 m c main_arg3 = m ((c : Thread nD τ).loc main_arg3) :=
  (W67_of m c main_arg3 (by decide)).trans (W66_arg3 m c)
theorem W68_arg3 (c : Dev nD) : W68 m c main_arg3 = m ((c : Thread nD τ).loc main_arg3) :=
  (W68_of m c main_arg3 (by decide)).trans (W67_arg3 m c)
theorem W69_arg3 (c : Dev nD) : W69 m c main_arg3 = m ((c : Thread nD τ).loc main_arg3) :=
  (W69_of m c main_arg3 (by decide)).trans (W68_arg3 m c)
theorem W70_arg3 (c : Dev nD) : W70 m c main_arg3 = m ((c : Thread nD τ).loc main_arg3) :=
  (W70_of m c main_arg3 (by decide)).trans (W69_arg3 m c)
theorem W71_arg3 (c : Dev nD) : W71 m c main_arg3 = m ((c : Thread nD τ).loc main_arg3) :=
  (W71_of m c main_arg3 (by decide)).trans (W70_arg3 m c)
theorem W72_arg3 (c : Dev nD) : W72 m c main_arg3 = m ((c : Thread nD τ).loc main_arg3) :=
  (W72_of m c main_arg3 (by decide)).trans (W71_arg3 m c)
theorem W73_arg3 (c : Dev nD) : W73 m c main_arg3 = m ((c : Thread nD τ).loc main_arg3) :=
  (W73_of m c main_arg3 (by decide)).trans (W72_arg3 m c)
theorem W74_arg3 (c : Dev nD) : W74 m c main_arg3 = m ((c : Thread nD τ).loc main_arg3) :=
  (W74_of m c main_arg3 (by decide)).trans (W73_arg3 m c)
theorem W75_arg3 (c : Dev nD) : W75 m c main_arg3 = m ((c : Thread nD τ).loc main_arg3) :=
  (W75_of m c main_arg3 (by decide)).trans (W74_arg3 m c)
theorem W76_arg3 (c : Dev nD) : W76 m c main_arg3 = m ((c : Thread nD τ).loc main_arg3) :=
  (W76_of m c main_arg3 (by decide)).trans (W75_arg3 m c)
theorem W77_arg3 (c : Dev nD) : W77 m c main_arg3 = m ((c : Thread nD τ).loc main_arg3) :=
  (W77_of m c main_arg3 (by decide)).trans (W76_arg3 m c)
theorem W78_arg3 (c : Dev nD) : W78 m c main_arg3 = m ((c : Thread nD τ).loc main_arg3) :=
  (W78_of m c main_arg3 (by decide)).trans (W77_arg3 m c)
theorem W79_arg3 (c : Dev nD) : W79 m c main_arg3 = m ((c : Thread nD τ).loc main_arg3) :=
  (W79_of m c main_arg3 (by decide)).trans (W78_arg3 m c)
theorem W80_arg3 (c : Dev nD) : W80 m c main_arg3 = m ((c : Thread nD τ).loc main_arg3) :=
  (W80_of m c main_arg3 (by decide)).trans (W79_arg3 m c)
theorem W81_arg3 (c : Dev nD) : W81 m c main_arg3 = m ((c : Thread nD τ).loc main_arg3) :=
  (W81_of m c main_arg3 (by decide)).trans (W80_arg3 m c)
theorem W82_arg3 (c : Dev nD) : W82 m c main_arg3 = m ((c : Thread nD τ).loc main_arg3) :=
  (W82_of m c main_arg3 (by decide)).trans (W81_arg3 m c)
theorem W83_arg3 (c : Dev nD) : W83 m c main_arg3 = m ((c : Thread nD τ).loc main_arg3) :=
  (W83_of m c main_arg3 (by decide)).trans (W82_arg3 m c)
theorem W84_arg3 (c : Dev nD) : W84 m c main_arg3 = m ((c : Thread nD τ).loc main_arg3) :=
  (W84_of m c main_arg3 (by decide)).trans (W83_arg3 m c)
theorem W85_arg3 (c : Dev nD) : W85 m c main_arg3 = m ((c : Thread nD τ).loc main_arg3) :=
  (W85_of m c main_arg3 (by decide)).trans (W84_arg3 m c)
theorem W86_arg3 (c : Dev nD) : W86 m c main_arg3 = m ((c : Thread nD τ).loc main_arg3) :=
  (W86_of m c main_arg3 (by decide)).trans (W85_arg3 m c)
theorem W87_arg3 (c : Dev nD) : W87 m c main_arg3 = m ((c : Thread nD τ).loc main_arg3) :=
  (W87_of m c main_arg3 (by decide)).trans (W86_arg3 m c)
theorem W88_arg3 (c : Dev nD) : W88 m c main_arg3 = m ((c : Thread nD τ).loc main_arg3) :=
  (W88_of m c main_arg3 (by decide)).trans (W87_arg3 m c)
theorem W89_arg3 (c : Dev nD) : W89 m c main_arg3 = m ((c : Thread nD τ).loc main_arg3) :=
  (W89_of m c main_arg3 (by decide)).trans (W88_arg3 m c)
theorem W90_arg3 (c : Dev nD) : W90 m c main_arg3 = m ((c : Thread nD τ).loc main_arg3) :=
  (W90_of m c main_arg3 (by decide)).trans (W89_arg3 m c)
theorem W91_arg3 (c : Dev nD) : W91 m c main_arg3 = m ((c : Thread nD τ).loc main_arg3) :=
  (W91_of m c main_arg3 (by decide)).trans (W90_arg3 m c)
theorem W92_arg3 (c : Dev nD) : W92 m c main_arg3 = m ((c : Thread nD τ).loc main_arg3) :=
  (W92_of m c main_arg3 (by decide)).trans (W91_arg3 m c)
theorem W93_arg3 (c : Dev nD) : W93 m c main_arg3 = m ((c : Thread nD τ).loc main_arg3) :=
  (W93_of m c main_arg3 (by decide)).trans (W92_arg3 m c)
theorem W94_arg3 (c : Dev nD) : W94 m c main_arg3 = m ((c : Thread nD τ).loc main_arg3) :=
  (W94_of m c main_arg3 (by decide)).trans (W93_arg3 m c)
theorem W95_arg3 (c : Dev nD) : W95 m c main_arg3 = m ((c : Thread nD τ).loc main_arg3) :=
  (W95_of m c main_arg3 (by decide)).trans (W94_arg3 m c)
theorem W96_arg3 (c : Dev nD) : W96 m c main_arg3 = m ((c : Thread nD τ).loc main_arg3) :=
  (W96_of m c main_arg3 (by decide)).trans (W95_arg3 m c)
theorem W97_arg3 (c : Dev nD) : W97 m c main_arg3 = m ((c : Thread nD τ).loc main_arg3) :=
  (W97_of m c main_arg3 (by decide)).trans (W96_arg3 m c)
theorem W98_arg3 (c : Dev nD) : W98 m c main_arg3 = m ((c : Thread nD τ).loc main_arg3) :=
  (W98_of m c main_arg3 (by decide)).trans (W97_arg3 m c)
theorem W99_arg3 (c : Dev nD) : W99 m c main_arg3 = m ((c : Thread nD τ).loc main_arg3) :=
  (W99_of m c main_arg3 (by decide)).trans (W98_arg3 m c)
theorem W100_arg3 (c : Dev nD) : W100 m c main_arg3 = m ((c : Thread nD τ).loc main_arg3) :=
  (W100_of m c main_arg3 (by decide)).trans (W99_arg3 m c)
theorem W0_arg4 (c : Dev nD) : W0 m c main_arg4 = m ((c : Thread nD τ).loc main_arg4) := rfl
theorem W1_arg4 (c : Dev nD) : W1 m c main_arg4 = m ((c : Thread nD τ).loc main_arg4) :=
  (W1_of m c main_arg4 (by decide)).trans (W0_arg4 m c)
theorem W2_arg4 (c : Dev nD) : W2 m c main_arg4 = m ((c : Thread nD τ).loc main_arg4) :=
  (W2_of m c main_arg4 (by decide)).trans (W1_arg4 m c)
theorem W3_arg4 (c : Dev nD) : W3 m c main_arg4 = m ((c : Thread nD τ).loc main_arg4) :=
  (W3_of m c main_arg4 (by decide)).trans (W2_arg4 m c)
theorem W4_arg4 (c : Dev nD) : W4 m c main_arg4 = m ((c : Thread nD τ).loc main_arg4) :=
  (W4_of m c main_arg4 (by decide)).trans (W3_arg4 m c)
theorem W5_arg4 (c : Dev nD) : W5 m c main_arg4 = m ((c : Thread nD τ).loc main_arg4) :=
  (W5_of m c main_arg4 (by decide)).trans (W4_arg4 m c)
theorem W6_arg4 (c : Dev nD) : W6 m c main_arg4 = m ((c : Thread nD τ).loc main_arg4) :=
  (W6_of m c main_arg4 (by decide)).trans (W5_arg4 m c)
theorem W7_arg4 (c : Dev nD) : W7 m c main_arg4 = m ((c : Thread nD τ).loc main_arg4) :=
  (W7_of m c main_arg4 (by decide)).trans (W6_arg4 m c)
theorem W8_arg4 (c : Dev nD) : W8 m c main_arg4 = m ((c : Thread nD τ).loc main_arg4) :=
  (W8_of m c main_arg4 (by decide)).trans (W7_arg4 m c)
theorem W9_arg4 (c : Dev nD) : W9 m c main_arg4 = m ((c : Thread nD τ).loc main_arg4) :=
  (W9_of m c main_arg4 (by decide)).trans (W8_arg4 m c)
theorem W10_arg4 (c : Dev nD) : W10 m c main_arg4 = m ((c : Thread nD τ).loc main_arg4) :=
  (W10_of m c main_arg4 (by decide)).trans (W9_arg4 m c)
theorem W11_arg4 (c : Dev nD) : W11 m c main_arg4 = m ((c : Thread nD τ).loc main_arg4) :=
  (W11_of m c main_arg4 (by decide)).trans (W10_arg4 m c)
theorem W12_arg4 (c : Dev nD) : W12 m c main_arg4 = m ((c : Thread nD τ).loc main_arg4) :=
  (W12_of m c main_arg4 (by decide)).trans (W11_arg4 m c)
theorem W13_arg4 (c : Dev nD) : W13 m c main_arg4 = m ((c : Thread nD τ).loc main_arg4) :=
  (W13_of m c main_arg4 (by decide)).trans (W12_arg4 m c)
theorem W14_arg4 (c : Dev nD) : W14 m c main_arg4 = m ((c : Thread nD τ).loc main_arg4) :=
  (W14_of m c main_arg4 (by decide)).trans (W13_arg4 m c)
theorem W15_arg4 (c : Dev nD) : W15 m c main_arg4 = m ((c : Thread nD τ).loc main_arg4) :=
  (W15_of m c main_arg4 (by decide)).trans (W14_arg4 m c)
theorem W16_arg4 (c : Dev nD) : W16 m c main_arg4 = m ((c : Thread nD τ).loc main_arg4) :=
  (W16_of m c main_arg4 (by decide)).trans (W15_arg4 m c)
theorem W17_arg4 (c : Dev nD) : W17 m c main_arg4 = m ((c : Thread nD τ).loc main_arg4) :=
  (W17_of m c main_arg4 (by decide)).trans (W16_arg4 m c)
theorem W18_arg4 (c : Dev nD) : W18 m c main_arg4 = m ((c : Thread nD τ).loc main_arg4) :=
  (W18_of m c main_arg4 (by decide)).trans (W17_arg4 m c)
theorem W19_arg4 (c : Dev nD) : W19 m c main_arg4 = m ((c : Thread nD τ).loc main_arg4) :=
  (W19_of m c main_arg4 (by decide)).trans (W18_arg4 m c)
theorem W20_arg4 (c : Dev nD) : W20 m c main_arg4 = m ((c : Thread nD τ).loc main_arg4) :=
  (W20_of m c main_arg4 (by decide)).trans (W19_arg4 m c)
theorem W21_arg4 (c : Dev nD) : W21 m c main_arg4 = m ((c : Thread nD τ).loc main_arg4) :=
  (W21_of m c main_arg4 (by decide)).trans (W20_arg4 m c)
theorem W22_arg4 (c : Dev nD) : W22 m c main_arg4 = m ((c : Thread nD τ).loc main_arg4) :=
  (W22_of m c main_arg4 (by decide)).trans (W21_arg4 m c)
theorem W23_arg4 (c : Dev nD) : W23 m c main_arg4 = m ((c : Thread nD τ).loc main_arg4) :=
  (W23_of m c main_arg4 (by decide)).trans (W22_arg4 m c)
theorem W24_arg4 (c : Dev nD) : W24 m c main_arg4 = m ((c : Thread nD τ).loc main_arg4) :=
  (W24_of m c main_arg4 (by decide)).trans (W23_arg4 m c)
theorem W25_arg4 (c : Dev nD) : W25 m c main_arg4 = m ((c : Thread nD τ).loc main_arg4) :=
  (W25_of m c main_arg4 (by decide)).trans (W24_arg4 m c)
theorem W26_arg4 (c : Dev nD) : W26 m c main_arg4 = m ((c : Thread nD τ).loc main_arg4) :=
  (W26_of m c main_arg4 (by decide)).trans (W25_arg4 m c)
theorem W27_arg4 (c : Dev nD) : W27 m c main_arg4 = m ((c : Thread nD τ).loc main_arg4) :=
  (W27_of m c main_arg4 (by decide)).trans (W26_arg4 m c)
theorem W28_arg4 (c : Dev nD) : W28 m c main_arg4 = m ((c : Thread nD τ).loc main_arg4) :=
  (W28_of m c main_arg4 (by decide)).trans (W27_arg4 m c)
theorem W29_arg4 (c : Dev nD) : W29 m c main_arg4 = m ((c : Thread nD τ).loc main_arg4) :=
  (W29_of m c main_arg4 (by decide)).trans (W28_arg4 m c)
theorem W30_arg4 (c : Dev nD) : W30 m c main_arg4 = m ((c : Thread nD τ).loc main_arg4) :=
  (W30_of m c main_arg4 (by decide)).trans (W29_arg4 m c)
theorem W31_arg4 (c : Dev nD) : W31 m c main_arg4 = m ((c : Thread nD τ).loc main_arg4) :=
  (W31_of m c main_arg4 (by decide)).trans (W30_arg4 m c)
theorem W32_arg4 (c : Dev nD) : W32 m c main_arg4 = m ((c : Thread nD τ).loc main_arg4) :=
  (W32_of m c main_arg4 (by decide)).trans (W31_arg4 m c)
theorem W33_arg4 (c : Dev nD) : W33 m c main_arg4 = m ((c : Thread nD τ).loc main_arg4) :=
  (W33_of m c main_arg4 (by decide)).trans (W32_arg4 m c)
theorem W34_arg4 (c : Dev nD) : W34 m c main_arg4 = m ((c : Thread nD τ).loc main_arg4) :=
  (W34_of m c main_arg4 (by decide)).trans (W33_arg4 m c)
theorem W35_arg4 (c : Dev nD) : W35 m c main_arg4 = m ((c : Thread nD τ).loc main_arg4) :=
  (W35_of m c main_arg4 (by decide)).trans (W34_arg4 m c)
theorem W36_arg4 (c : Dev nD) : W36 m c main_arg4 = m ((c : Thread nD τ).loc main_arg4) :=
  (W36_of m c main_arg4 (by decide)).trans (W35_arg4 m c)
theorem W37_arg4 (c : Dev nD) : W37 m c main_arg4 = m ((c : Thread nD τ).loc main_arg4) :=
  (W37_of m c main_arg4 (by decide)).trans (W36_arg4 m c)
theorem W38_arg4 (c : Dev nD) : W38 m c main_arg4 = m ((c : Thread nD τ).loc main_arg4) :=
  (W38_of m c main_arg4 (by decide)).trans (W37_arg4 m c)
theorem W39_arg4 (c : Dev nD) : W39 m c main_arg4 = m ((c : Thread nD τ).loc main_arg4) :=
  (W39_of m c main_arg4 (by decide)).trans (W38_arg4 m c)
theorem W40_arg4 (c : Dev nD) : W40 m c main_arg4 = m ((c : Thread nD τ).loc main_arg4) :=
  (W40_of m c main_arg4 (by decide)).trans (W39_arg4 m c)
theorem W41_arg4 (c : Dev nD) : W41 m c main_arg4 = m ((c : Thread nD τ).loc main_arg4) :=
  (W41_of m c main_arg4 (by decide)).trans (W40_arg4 m c)
theorem W42_arg4 (c : Dev nD) : W42 m c main_arg4 = m ((c : Thread nD τ).loc main_arg4) :=
  (W42_of m c main_arg4 (by decide)).trans (W41_arg4 m c)
theorem W43_arg4 (c : Dev nD) : W43 m c main_arg4 = m ((c : Thread nD τ).loc main_arg4) :=
  (W43_of m c main_arg4 (by decide)).trans (W42_arg4 m c)
theorem W44_arg4 (c : Dev nD) : W44 m c main_arg4 = m ((c : Thread nD τ).loc main_arg4) :=
  (W44_of m c main_arg4 (by decide)).trans (W43_arg4 m c)
theorem W45_arg4 (c : Dev nD) : W45 m c main_arg4 = m ((c : Thread nD τ).loc main_arg4) :=
  (W45_of m c main_arg4 (by decide)).trans (W44_arg4 m c)
theorem W46_arg4 (c : Dev nD) : W46 m c main_arg4 = m ((c : Thread nD τ).loc main_arg4) :=
  (W46_of m c main_arg4 (by decide)).trans (W45_arg4 m c)
theorem W47_arg4 (c : Dev nD) : W47 m c main_arg4 = m ((c : Thread nD τ).loc main_arg4) :=
  (W47_of m c main_arg4 (by decide)).trans (W46_arg4 m c)
theorem W48_arg4 (c : Dev nD) : W48 m c main_arg4 = m ((c : Thread nD τ).loc main_arg4) :=
  (W48_of m c main_arg4 (by decide)).trans (W47_arg4 m c)
theorem W49_arg4 (c : Dev nD) : W49 m c main_arg4 = m ((c : Thread nD τ).loc main_arg4) :=
  (W49_of m c main_arg4 (by decide)).trans (W48_arg4 m c)
theorem W50_arg4 (c : Dev nD) : W50 m c main_arg4 = m ((c : Thread nD τ).loc main_arg4) :=
  (W50_of m c main_arg4 (by decide)).trans (W49_arg4 m c)
theorem W51_arg4 (c : Dev nD) : W51 m c main_arg4 = m ((c : Thread nD τ).loc main_arg4) :=
  (W51_of m c main_arg4 (by decide)).trans (W50_arg4 m c)
theorem W52_arg4 (c : Dev nD) : W52 m c main_arg4 = m ((c : Thread nD τ).loc main_arg4) :=
  (W52_of m c main_arg4 (by decide)).trans (W51_arg4 m c)
theorem W53_arg4 (c : Dev nD) : W53 m c main_arg4 = m ((c : Thread nD τ).loc main_arg4) :=
  (W53_of m c main_arg4 (by decide)).trans (W52_arg4 m c)
theorem W54_arg4 (c : Dev nD) : W54 m c main_arg4 = m ((c : Thread nD τ).loc main_arg4) :=
  (W54_of m c main_arg4 (by decide)).trans (W53_arg4 m c)
theorem W55_arg4 (c : Dev nD) : W55 m c main_arg4 = m ((c : Thread nD τ).loc main_arg4) :=
  (W55_of m c main_arg4 (by decide)).trans (W54_arg4 m c)
theorem W56_arg4 (c : Dev nD) : W56 m c main_arg4 = m ((c : Thread nD τ).loc main_arg4) :=
  (W56_of m c main_arg4 (by decide)).trans (W55_arg4 m c)
theorem W57_arg4 (c : Dev nD) : W57 m c main_arg4 = m ((c : Thread nD τ).loc main_arg4) :=
  (W57_of m c main_arg4 (by decide)).trans (W56_arg4 m c)
theorem W58_arg4 (c : Dev nD) : W58 m c main_arg4 = m ((c : Thread nD τ).loc main_arg4) :=
  (W58_of m c main_arg4 (by decide)).trans (W57_arg4 m c)
theorem W59_arg4 (c : Dev nD) : W59 m c main_arg4 = m ((c : Thread nD τ).loc main_arg4) :=
  (W59_of m c main_arg4 (by decide)).trans (W58_arg4 m c)
theorem W60_arg4 (c : Dev nD) : W60 m c main_arg4 = m ((c : Thread nD τ).loc main_arg4) :=
  (W60_of m c main_arg4 (by decide)).trans (W59_arg4 m c)
theorem W61_arg4 (c : Dev nD) : W61 m c main_arg4 = m ((c : Thread nD τ).loc main_arg4) :=
  (W61_of m c main_arg4 (by decide)).trans (W60_arg4 m c)
theorem W62_arg4 (c : Dev nD) : W62 m c main_arg4 = m ((c : Thread nD τ).loc main_arg4) :=
  (W62_of m c main_arg4 (by decide)).trans (W61_arg4 m c)
theorem W63_arg4 (c : Dev nD) : W63 m c main_arg4 = m ((c : Thread nD τ).loc main_arg4) :=
  (W63_of m c main_arg4 (by decide)).trans (W62_arg4 m c)
theorem W64_arg4 (c : Dev nD) : W64 m c main_arg4 = m ((c : Thread nD τ).loc main_arg4) :=
  (W64_of m c main_arg4 (by decide)).trans (W63_arg4 m c)
theorem W65_arg4 (c : Dev nD) : W65 m c main_arg4 = m ((c : Thread nD τ).loc main_arg4) :=
  (W65_of m c main_arg4 (by decide)).trans (W64_arg4 m c)
theorem W66_arg4 (c : Dev nD) : W66 m c main_arg4 = m ((c : Thread nD τ).loc main_arg4) :=
  (W66_of m c main_arg4 (by decide)).trans (W65_arg4 m c)
theorem W67_arg4 (c : Dev nD) : W67 m c main_arg4 = m ((c : Thread nD τ).loc main_arg4) :=
  (W67_of m c main_arg4 (by decide)).trans (W66_arg4 m c)
theorem W68_arg4 (c : Dev nD) : W68 m c main_arg4 = m ((c : Thread nD τ).loc main_arg4) :=
  (W68_of m c main_arg4 (by decide)).trans (W67_arg4 m c)
theorem W69_arg4 (c : Dev nD) : W69 m c main_arg4 = m ((c : Thread nD τ).loc main_arg4) :=
  (W69_of m c main_arg4 (by decide)).trans (W68_arg4 m c)
theorem W70_arg4 (c : Dev nD) : W70 m c main_arg4 = m ((c : Thread nD τ).loc main_arg4) :=
  (W70_of m c main_arg4 (by decide)).trans (W69_arg4 m c)
theorem W71_arg4 (c : Dev nD) : W71 m c main_arg4 = m ((c : Thread nD τ).loc main_arg4) :=
  (W71_of m c main_arg4 (by decide)).trans (W70_arg4 m c)
theorem W72_arg4 (c : Dev nD) : W72 m c main_arg4 = m ((c : Thread nD τ).loc main_arg4) :=
  (W72_of m c main_arg4 (by decide)).trans (W71_arg4 m c)
theorem W73_arg4 (c : Dev nD) : W73 m c main_arg4 = m ((c : Thread nD τ).loc main_arg4) :=
  (W73_of m c main_arg4 (by decide)).trans (W72_arg4 m c)
theorem W74_arg4 (c : Dev nD) : W74 m c main_arg4 = m ((c : Thread nD τ).loc main_arg4) :=
  (W74_of m c main_arg4 (by decide)).trans (W73_arg4 m c)
theorem W75_arg4 (c : Dev nD) : W75 m c main_arg4 = m ((c : Thread nD τ).loc main_arg4) :=
  (W75_of m c main_arg4 (by decide)).trans (W74_arg4 m c)
theorem W76_arg4 (c : Dev nD) : W76 m c main_arg4 = m ((c : Thread nD τ).loc main_arg4) :=
  (W76_of m c main_arg4 (by decide)).trans (W75_arg4 m c)
theorem W77_arg4 (c : Dev nD) : W77 m c main_arg4 = m ((c : Thread nD τ).loc main_arg4) :=
  (W77_of m c main_arg4 (by decide)).trans (W76_arg4 m c)
theorem W78_arg4 (c : Dev nD) : W78 m c main_arg4 = m ((c : Thread nD τ).loc main_arg4) :=
  (W78_of m c main_arg4 (by decide)).trans (W77_arg4 m c)
theorem W79_arg4 (c : Dev nD) : W79 m c main_arg4 = m ((c : Thread nD τ).loc main_arg4) :=
  (W79_of m c main_arg4 (by decide)).trans (W78_arg4 m c)
theorem W80_arg4 (c : Dev nD) : W80 m c main_arg4 = m ((c : Thread nD τ).loc main_arg4) :=
  (W80_of m c main_arg4 (by decide)).trans (W79_arg4 m c)
theorem W81_arg4 (c : Dev nD) : W81 m c main_arg4 = m ((c : Thread nD τ).loc main_arg4) :=
  (W81_of m c main_arg4 (by decide)).trans (W80_arg4 m c)
theorem W82_arg4 (c : Dev nD) : W82 m c main_arg4 = m ((c : Thread nD τ).loc main_arg4) :=
  (W82_of m c main_arg4 (by decide)).trans (W81_arg4 m c)
theorem W83_arg4 (c : Dev nD) : W83 m c main_arg4 = m ((c : Thread nD τ).loc main_arg4) :=
  (W83_of m c main_arg4 (by decide)).trans (W82_arg4 m c)
theorem W84_arg4 (c : Dev nD) : W84 m c main_arg4 = m ((c : Thread nD τ).loc main_arg4) :=
  (W84_of m c main_arg4 (by decide)).trans (W83_arg4 m c)
theorem W85_arg4 (c : Dev nD) : W85 m c main_arg4 = m ((c : Thread nD τ).loc main_arg4) :=
  (W85_of m c main_arg4 (by decide)).trans (W84_arg4 m c)
theorem W86_arg4 (c : Dev nD) : W86 m c main_arg4 = m ((c : Thread nD τ).loc main_arg4) :=
  (W86_of m c main_arg4 (by decide)).trans (W85_arg4 m c)
theorem W87_arg4 (c : Dev nD) : W87 m c main_arg4 = m ((c : Thread nD τ).loc main_arg4) :=
  (W87_of m c main_arg4 (by decide)).trans (W86_arg4 m c)
theorem W88_arg4 (c : Dev nD) : W88 m c main_arg4 = m ((c : Thread nD τ).loc main_arg4) :=
  (W88_of m c main_arg4 (by decide)).trans (W87_arg4 m c)
theorem W89_arg4 (c : Dev nD) : W89 m c main_arg4 = m ((c : Thread nD τ).loc main_arg4) :=
  (W89_of m c main_arg4 (by decide)).trans (W88_arg4 m c)
theorem W90_arg4 (c : Dev nD) : W90 m c main_arg4 = m ((c : Thread nD τ).loc main_arg4) :=
  (W90_of m c main_arg4 (by decide)).trans (W89_arg4 m c)
theorem W91_arg4 (c : Dev nD) : W91 m c main_arg4 = m ((c : Thread nD τ).loc main_arg4) :=
  (W91_of m c main_arg4 (by decide)).trans (W90_arg4 m c)
theorem W92_arg4 (c : Dev nD) : W92 m c main_arg4 = m ((c : Thread nD τ).loc main_arg4) :=
  (W92_of m c main_arg4 (by decide)).trans (W91_arg4 m c)
theorem W93_arg4 (c : Dev nD) : W93 m c main_arg4 = m ((c : Thread nD τ).loc main_arg4) :=
  (W93_of m c main_arg4 (by decide)).trans (W92_arg4 m c)
theorem W94_arg4 (c : Dev nD) : W94 m c main_arg4 = m ((c : Thread nD τ).loc main_arg4) :=
  (W94_of m c main_arg4 (by decide)).trans (W93_arg4 m c)
theorem W95_arg4 (c : Dev nD) : W95 m c main_arg4 = m ((c : Thread nD τ).loc main_arg4) :=
  (W95_of m c main_arg4 (by decide)).trans (W94_arg4 m c)
theorem W96_arg4 (c : Dev nD) : W96 m c main_arg4 = m ((c : Thread nD τ).loc main_arg4) :=
  (W96_of m c main_arg4 (by decide)).trans (W95_arg4 m c)
theorem W97_arg4 (c : Dev nD) : W97 m c main_arg4 = m ((c : Thread nD τ).loc main_arg4) :=
  (W97_of m c main_arg4 (by decide)).trans (W96_arg4 m c)
theorem W98_arg4 (c : Dev nD) : W98 m c main_arg4 = m ((c : Thread nD τ).loc main_arg4) :=
  (W98_of m c main_arg4 (by decide)).trans (W97_arg4 m c)
theorem W99_arg4 (c : Dev nD) : W99 m c main_arg4 = m ((c : Thread nD τ).loc main_arg4) :=
  (W99_of m c main_arg4 (by decide)).trans (W98_arg4 m c)
theorem W100_arg4 (c : Dev nD) : W100 m c main_arg4 = m ((c : Thread nD τ).loc main_arg4) :=
  (W100_of m c main_arg4 (by decide)).trans (W99_arg4 m c)
theorem W0_arg5 (c : Dev nD) : W0 m c main_arg5 = m ((c : Thread nD τ).loc main_arg5) := rfl
theorem W1_arg5 (c : Dev nD) : W1 m c main_arg5 = m ((c : Thread nD τ).loc main_arg5) :=
  (W1_of m c main_arg5 (by decide)).trans (W0_arg5 m c)
theorem W2_arg5 (c : Dev nD) : W2 m c main_arg5 = m ((c : Thread nD τ).loc main_arg5) :=
  (W2_of m c main_arg5 (by decide)).trans (W1_arg5 m c)
theorem W3_arg5 (c : Dev nD) : W3 m c main_arg5 = m ((c : Thread nD τ).loc main_arg5) :=
  (W3_of m c main_arg5 (by decide)).trans (W2_arg5 m c)
theorem W4_arg5 (c : Dev nD) : W4 m c main_arg5 = m ((c : Thread nD τ).loc main_arg5) :=
  (W4_of m c main_arg5 (by decide)).trans (W3_arg5 m c)
theorem W5_arg5 (c : Dev nD) : W5 m c main_arg5 = m ((c : Thread nD τ).loc main_arg5) :=
  (W5_of m c main_arg5 (by decide)).trans (W4_arg5 m c)
theorem W6_arg5 (c : Dev nD) : W6 m c main_arg5 = m ((c : Thread nD τ).loc main_arg5) :=
  (W6_of m c main_arg5 (by decide)).trans (W5_arg5 m c)
theorem W7_arg5 (c : Dev nD) : W7 m c main_arg5 = m ((c : Thread nD τ).loc main_arg5) :=
  (W7_of m c main_arg5 (by decide)).trans (W6_arg5 m c)
theorem W8_arg5 (c : Dev nD) : W8 m c main_arg5 = m ((c : Thread nD τ).loc main_arg5) :=
  (W8_of m c main_arg5 (by decide)).trans (W7_arg5 m c)
theorem W9_arg5 (c : Dev nD) : W9 m c main_arg5 = m ((c : Thread nD τ).loc main_arg5) :=
  (W9_of m c main_arg5 (by decide)).trans (W8_arg5 m c)
theorem W10_arg5 (c : Dev nD) : W10 m c main_arg5 = m ((c : Thread nD τ).loc main_arg5) :=
  (W10_of m c main_arg5 (by decide)).trans (W9_arg5 m c)
theorem W11_arg5 (c : Dev nD) : W11 m c main_arg5 = m ((c : Thread nD τ).loc main_arg5) :=
  (W11_of m c main_arg5 (by decide)).trans (W10_arg5 m c)
theorem W12_arg5 (c : Dev nD) : W12 m c main_arg5 = m ((c : Thread nD τ).loc main_arg5) :=
  (W12_of m c main_arg5 (by decide)).trans (W11_arg5 m c)
theorem W13_arg5 (c : Dev nD) : W13 m c main_arg5 = m ((c : Thread nD τ).loc main_arg5) :=
  (W13_of m c main_arg5 (by decide)).trans (W12_arg5 m c)
theorem W14_arg5 (c : Dev nD) : W14 m c main_arg5 = m ((c : Thread nD τ).loc main_arg5) :=
  (W14_of m c main_arg5 (by decide)).trans (W13_arg5 m c)
theorem W15_arg5 (c : Dev nD) : W15 m c main_arg5 = m ((c : Thread nD τ).loc main_arg5) :=
  (W15_of m c main_arg5 (by decide)).trans (W14_arg5 m c)
theorem W16_arg5 (c : Dev nD) : W16 m c main_arg5 = m ((c : Thread nD τ).loc main_arg5) :=
  (W16_of m c main_arg5 (by decide)).trans (W15_arg5 m c)
theorem W17_arg5 (c : Dev nD) : W17 m c main_arg5 = m ((c : Thread nD τ).loc main_arg5) :=
  (W17_of m c main_arg5 (by decide)).trans (W16_arg5 m c)
theorem W18_arg5 (c : Dev nD) : W18 m c main_arg5 = m ((c : Thread nD τ).loc main_arg5) :=
  (W18_of m c main_arg5 (by decide)).trans (W17_arg5 m c)
theorem W19_arg5 (c : Dev nD) : W19 m c main_arg5 = m ((c : Thread nD τ).loc main_arg5) :=
  (W19_of m c main_arg5 (by decide)).trans (W18_arg5 m c)
theorem W20_arg5 (c : Dev nD) : W20 m c main_arg5 = m ((c : Thread nD τ).loc main_arg5) :=
  (W20_of m c main_arg5 (by decide)).trans (W19_arg5 m c)
theorem W21_arg5 (c : Dev nD) : W21 m c main_arg5 = m ((c : Thread nD τ).loc main_arg5) :=
  (W21_of m c main_arg5 (by decide)).trans (W20_arg5 m c)
theorem W22_arg5 (c : Dev nD) : W22 m c main_arg5 = m ((c : Thread nD τ).loc main_arg5) :=
  (W22_of m c main_arg5 (by decide)).trans (W21_arg5 m c)
theorem W23_arg5 (c : Dev nD) : W23 m c main_arg5 = m ((c : Thread nD τ).loc main_arg5) :=
  (W23_of m c main_arg5 (by decide)).trans (W22_arg5 m c)
theorem W24_arg5 (c : Dev nD) : W24 m c main_arg5 = m ((c : Thread nD τ).loc main_arg5) :=
  (W24_of m c main_arg5 (by decide)).trans (W23_arg5 m c)
theorem W25_arg5 (c : Dev nD) : W25 m c main_arg5 = m ((c : Thread nD τ).loc main_arg5) :=
  (W25_of m c main_arg5 (by decide)).trans (W24_arg5 m c)
theorem W26_arg5 (c : Dev nD) : W26 m c main_arg5 = m ((c : Thread nD τ).loc main_arg5) :=
  (W26_of m c main_arg5 (by decide)).trans (W25_arg5 m c)
theorem W27_arg5 (c : Dev nD) : W27 m c main_arg5 = m ((c : Thread nD τ).loc main_arg5) :=
  (W27_of m c main_arg5 (by decide)).trans (W26_arg5 m c)
theorem W28_arg5 (c : Dev nD) : W28 m c main_arg5 = m ((c : Thread nD τ).loc main_arg5) :=
  (W28_of m c main_arg5 (by decide)).trans (W27_arg5 m c)
theorem W29_arg5 (c : Dev nD) : W29 m c main_arg5 = m ((c : Thread nD τ).loc main_arg5) :=
  (W29_of m c main_arg5 (by decide)).trans (W28_arg5 m c)
theorem W30_arg5 (c : Dev nD) : W30 m c main_arg5 = m ((c : Thread nD τ).loc main_arg5) :=
  (W30_of m c main_arg5 (by decide)).trans (W29_arg5 m c)
theorem W31_arg5 (c : Dev nD) : W31 m c main_arg5 = m ((c : Thread nD τ).loc main_arg5) :=
  (W31_of m c main_arg5 (by decide)).trans (W30_arg5 m c)
theorem W32_arg5 (c : Dev nD) : W32 m c main_arg5 = m ((c : Thread nD τ).loc main_arg5) :=
  (W32_of m c main_arg5 (by decide)).trans (W31_arg5 m c)
theorem W33_arg5 (c : Dev nD) : W33 m c main_arg5 = m ((c : Thread nD τ).loc main_arg5) :=
  (W33_of m c main_arg5 (by decide)).trans (W32_arg5 m c)
theorem W34_arg5 (c : Dev nD) : W34 m c main_arg5 = m ((c : Thread nD τ).loc main_arg5) :=
  (W34_of m c main_arg5 (by decide)).trans (W33_arg5 m c)
theorem W35_arg5 (c : Dev nD) : W35 m c main_arg5 = m ((c : Thread nD τ).loc main_arg5) :=
  (W35_of m c main_arg5 (by decide)).trans (W34_arg5 m c)
theorem W36_arg5 (c : Dev nD) : W36 m c main_arg5 = m ((c : Thread nD τ).loc main_arg5) :=
  (W36_of m c main_arg5 (by decide)).trans (W35_arg5 m c)
theorem W37_arg5 (c : Dev nD) : W37 m c main_arg5 = m ((c : Thread nD τ).loc main_arg5) :=
  (W37_of m c main_arg5 (by decide)).trans (W36_arg5 m c)
theorem W38_arg5 (c : Dev nD) : W38 m c main_arg5 = m ((c : Thread nD τ).loc main_arg5) :=
  (W38_of m c main_arg5 (by decide)).trans (W37_arg5 m c)
theorem W39_arg5 (c : Dev nD) : W39 m c main_arg5 = m ((c : Thread nD τ).loc main_arg5) :=
  (W39_of m c main_arg5 (by decide)).trans (W38_arg5 m c)
theorem W40_arg5 (c : Dev nD) : W40 m c main_arg5 = m ((c : Thread nD τ).loc main_arg5) :=
  (W40_of m c main_arg5 (by decide)).trans (W39_arg5 m c)
theorem W41_arg5 (c : Dev nD) : W41 m c main_arg5 = m ((c : Thread nD τ).loc main_arg5) :=
  (W41_of m c main_arg5 (by decide)).trans (W40_arg5 m c)
theorem W42_arg5 (c : Dev nD) : W42 m c main_arg5 = m ((c : Thread nD τ).loc main_arg5) :=
  (W42_of m c main_arg5 (by decide)).trans (W41_arg5 m c)
theorem W43_arg5 (c : Dev nD) : W43 m c main_arg5 = m ((c : Thread nD τ).loc main_arg5) :=
  (W43_of m c main_arg5 (by decide)).trans (W42_arg5 m c)
theorem W44_arg5 (c : Dev nD) : W44 m c main_arg5 = m ((c : Thread nD τ).loc main_arg5) :=
  (W44_of m c main_arg5 (by decide)).trans (W43_arg5 m c)
theorem W45_arg5 (c : Dev nD) : W45 m c main_arg5 = m ((c : Thread nD τ).loc main_arg5) :=
  (W45_of m c main_arg5 (by decide)).trans (W44_arg5 m c)
theorem W46_arg5 (c : Dev nD) : W46 m c main_arg5 = m ((c : Thread nD τ).loc main_arg5) :=
  (W46_of m c main_arg5 (by decide)).trans (W45_arg5 m c)
theorem W47_arg5 (c : Dev nD) : W47 m c main_arg5 = m ((c : Thread nD τ).loc main_arg5) :=
  (W47_of m c main_arg5 (by decide)).trans (W46_arg5 m c)
theorem W48_arg5 (c : Dev nD) : W48 m c main_arg5 = m ((c : Thread nD τ).loc main_arg5) :=
  (W48_of m c main_arg5 (by decide)).trans (W47_arg5 m c)
theorem W49_arg5 (c : Dev nD) : W49 m c main_arg5 = m ((c : Thread nD τ).loc main_arg5) :=
  (W49_of m c main_arg5 (by decide)).trans (W48_arg5 m c)
theorem W50_arg5 (c : Dev nD) : W50 m c main_arg5 = m ((c : Thread nD τ).loc main_arg5) :=
  (W50_of m c main_arg5 (by decide)).trans (W49_arg5 m c)
theorem W51_arg5 (c : Dev nD) : W51 m c main_arg5 = m ((c : Thread nD τ).loc main_arg5) :=
  (W51_of m c main_arg5 (by decide)).trans (W50_arg5 m c)
theorem W52_arg5 (c : Dev nD) : W52 m c main_arg5 = m ((c : Thread nD τ).loc main_arg5) :=
  (W52_of m c main_arg5 (by decide)).trans (W51_arg5 m c)
theorem W53_arg5 (c : Dev nD) : W53 m c main_arg5 = m ((c : Thread nD τ).loc main_arg5) :=
  (W53_of m c main_arg5 (by decide)).trans (W52_arg5 m c)
theorem W54_arg5 (c : Dev nD) : W54 m c main_arg5 = m ((c : Thread nD τ).loc main_arg5) :=
  (W54_of m c main_arg5 (by decide)).trans (W53_arg5 m c)
theorem W55_arg5 (c : Dev nD) : W55 m c main_arg5 = m ((c : Thread nD τ).loc main_arg5) :=
  (W55_of m c main_arg5 (by decide)).trans (W54_arg5 m c)
theorem W56_arg5 (c : Dev nD) : W56 m c main_arg5 = m ((c : Thread nD τ).loc main_arg5) :=
  (W56_of m c main_arg5 (by decide)).trans (W55_arg5 m c)
theorem W57_arg5 (c : Dev nD) : W57 m c main_arg5 = m ((c : Thread nD τ).loc main_arg5) :=
  (W57_of m c main_arg5 (by decide)).trans (W56_arg5 m c)
theorem W58_arg5 (c : Dev nD) : W58 m c main_arg5 = m ((c : Thread nD τ).loc main_arg5) :=
  (W58_of m c main_arg5 (by decide)).trans (W57_arg5 m c)
theorem W59_arg5 (c : Dev nD) : W59 m c main_arg5 = m ((c : Thread nD τ).loc main_arg5) :=
  (W59_of m c main_arg5 (by decide)).trans (W58_arg5 m c)
theorem W60_arg5 (c : Dev nD) : W60 m c main_arg5 = m ((c : Thread nD τ).loc main_arg5) :=
  (W60_of m c main_arg5 (by decide)).trans (W59_arg5 m c)
theorem W61_arg5 (c : Dev nD) : W61 m c main_arg5 = m ((c : Thread nD τ).loc main_arg5) :=
  (W61_of m c main_arg5 (by decide)).trans (W60_arg5 m c)
theorem W62_arg5 (c : Dev nD) : W62 m c main_arg5 = m ((c : Thread nD τ).loc main_arg5) :=
  (W62_of m c main_arg5 (by decide)).trans (W61_arg5 m c)
theorem W63_arg5 (c : Dev nD) : W63 m c main_arg5 = m ((c : Thread nD τ).loc main_arg5) :=
  (W63_of m c main_arg5 (by decide)).trans (W62_arg5 m c)
theorem W64_arg5 (c : Dev nD) : W64 m c main_arg5 = m ((c : Thread nD τ).loc main_arg5) :=
  (W64_of m c main_arg5 (by decide)).trans (W63_arg5 m c)
theorem W65_arg5 (c : Dev nD) : W65 m c main_arg5 = m ((c : Thread nD τ).loc main_arg5) :=
  (W65_of m c main_arg5 (by decide)).trans (W64_arg5 m c)
theorem W66_arg5 (c : Dev nD) : W66 m c main_arg5 = m ((c : Thread nD τ).loc main_arg5) :=
  (W66_of m c main_arg5 (by decide)).trans (W65_arg5 m c)
theorem W67_arg5 (c : Dev nD) : W67 m c main_arg5 = m ((c : Thread nD τ).loc main_arg5) :=
  (W67_of m c main_arg5 (by decide)).trans (W66_arg5 m c)
theorem W68_arg5 (c : Dev nD) : W68 m c main_arg5 = m ((c : Thread nD τ).loc main_arg5) :=
  (W68_of m c main_arg5 (by decide)).trans (W67_arg5 m c)
theorem W69_arg5 (c : Dev nD) : W69 m c main_arg5 = m ((c : Thread nD τ).loc main_arg5) :=
  (W69_of m c main_arg5 (by decide)).trans (W68_arg5 m c)
theorem W70_arg5 (c : Dev nD) : W70 m c main_arg5 = m ((c : Thread nD τ).loc main_arg5) :=
  (W70_of m c main_arg5 (by decide)).trans (W69_arg5 m c)
theorem W71_arg5 (c : Dev nD) : W71 m c main_arg5 = m ((c : Thread nD τ).loc main_arg5) :=
  (W71_of m c main_arg5 (by decide)).trans (W70_arg5 m c)
theorem W72_arg5 (c : Dev nD) : W72 m c main_arg5 = m ((c : Thread nD τ).loc main_arg5) :=
  (W72_of m c main_arg5 (by decide)).trans (W71_arg5 m c)
theorem W73_arg5 (c : Dev nD) : W73 m c main_arg5 = m ((c : Thread nD τ).loc main_arg5) :=
  (W73_of m c main_arg5 (by decide)).trans (W72_arg5 m c)
theorem W74_arg5 (c : Dev nD) : W74 m c main_arg5 = m ((c : Thread nD τ).loc main_arg5) :=
  (W74_of m c main_arg5 (by decide)).trans (W73_arg5 m c)
theorem W75_arg5 (c : Dev nD) : W75 m c main_arg5 = m ((c : Thread nD τ).loc main_arg5) :=
  (W75_of m c main_arg5 (by decide)).trans (W74_arg5 m c)
theorem W76_arg5 (c : Dev nD) : W76 m c main_arg5 = m ((c : Thread nD τ).loc main_arg5) :=
  (W76_of m c main_arg5 (by decide)).trans (W75_arg5 m c)
theorem W77_arg5 (c : Dev nD) : W77 m c main_arg5 = m ((c : Thread nD τ).loc main_arg5) :=
  (W77_of m c main_arg5 (by decide)).trans (W76_arg5 m c)
theorem W78_arg5 (c : Dev nD) : W78 m c main_arg5 = m ((c : Thread nD τ).loc main_arg5) :=
  (W78_of m c main_arg5 (by decide)).trans (W77_arg5 m c)
theorem W79_arg5 (c : Dev nD) : W79 m c main_arg5 = m ((c : Thread nD τ).loc main_arg5) :=
  (W79_of m c main_arg5 (by decide)).trans (W78_arg5 m c)
theorem W80_arg5 (c : Dev nD) : W80 m c main_arg5 = m ((c : Thread nD τ).loc main_arg5) :=
  (W80_of m c main_arg5 (by decide)).trans (W79_arg5 m c)
theorem W81_arg5 (c : Dev nD) : W81 m c main_arg5 = m ((c : Thread nD τ).loc main_arg5) :=
  (W81_of m c main_arg5 (by decide)).trans (W80_arg5 m c)
theorem W82_arg5 (c : Dev nD) : W82 m c main_arg5 = m ((c : Thread nD τ).loc main_arg5) :=
  (W82_of m c main_arg5 (by decide)).trans (W81_arg5 m c)
theorem W83_arg5 (c : Dev nD) : W83 m c main_arg5 = m ((c : Thread nD τ).loc main_arg5) :=
  (W83_of m c main_arg5 (by decide)).trans (W82_arg5 m c)
theorem W84_arg5 (c : Dev nD) : W84 m c main_arg5 = m ((c : Thread nD τ).loc main_arg5) :=
  (W84_of m c main_arg5 (by decide)).trans (W83_arg5 m c)
theorem W85_arg5 (c : Dev nD) : W85 m c main_arg5 = m ((c : Thread nD τ).loc main_arg5) :=
  (W85_of m c main_arg5 (by decide)).trans (W84_arg5 m c)
theorem W86_arg5 (c : Dev nD) : W86 m c main_arg5 = m ((c : Thread nD τ).loc main_arg5) :=
  (W86_of m c main_arg5 (by decide)).trans (W85_arg5 m c)
theorem W87_arg5 (c : Dev nD) : W87 m c main_arg5 = m ((c : Thread nD τ).loc main_arg5) :=
  (W87_of m c main_arg5 (by decide)).trans (W86_arg5 m c)
theorem W88_arg5 (c : Dev nD) : W88 m c main_arg5 = m ((c : Thread nD τ).loc main_arg5) :=
  (W88_of m c main_arg5 (by decide)).trans (W87_arg5 m c)
theorem W89_arg5 (c : Dev nD) : W89 m c main_arg5 = m ((c : Thread nD τ).loc main_arg5) :=
  (W89_of m c main_arg5 (by decide)).trans (W88_arg5 m c)
theorem W90_arg5 (c : Dev nD) : W90 m c main_arg5 = m ((c : Thread nD τ).loc main_arg5) :=
  (W90_of m c main_arg5 (by decide)).trans (W89_arg5 m c)
theorem W91_arg5 (c : Dev nD) : W91 m c main_arg5 = m ((c : Thread nD τ).loc main_arg5) :=
  (W91_of m c main_arg5 (by decide)).trans (W90_arg5 m c)
theorem W92_arg5 (c : Dev nD) : W92 m c main_arg5 = m ((c : Thread nD τ).loc main_arg5) :=
  (W92_of m c main_arg5 (by decide)).trans (W91_arg5 m c)
theorem W93_arg5 (c : Dev nD) : W93 m c main_arg5 = m ((c : Thread nD τ).loc main_arg5) :=
  (W93_of m c main_arg5 (by decide)).trans (W92_arg5 m c)
theorem W94_arg5 (c : Dev nD) : W94 m c main_arg5 = m ((c : Thread nD τ).loc main_arg5) :=
  (W94_of m c main_arg5 (by decide)).trans (W93_arg5 m c)
theorem W95_arg5 (c : Dev nD) : W95 m c main_arg5 = m ((c : Thread nD τ).loc main_arg5) :=
  (W95_of m c main_arg5 (by decide)).trans (W94_arg5 m c)
theorem W96_arg5 (c : Dev nD) : W96 m c main_arg5 = m ((c : Thread nD τ).loc main_arg5) :=
  (W96_of m c main_arg5 (by decide)).trans (W95_arg5 m c)
theorem W97_arg5 (c : Dev nD) : W97 m c main_arg5 = m ((c : Thread nD τ).loc main_arg5) :=
  (W97_of m c main_arg5 (by decide)).trans (W96_arg5 m c)
theorem W98_arg5 (c : Dev nD) : W98 m c main_arg5 = m ((c : Thread nD τ).loc main_arg5) :=
  (W98_of m c main_arg5 (by decide)).trans (W97_arg5 m c)
theorem W99_arg5 (c : Dev nD) : W99 m c main_arg5 = m ((c : Thread nD τ).loc main_arg5) :=
  (W99_of m c main_arg5 (by decide)).trans (W98_arg5 m c)
theorem W100_arg5 (c : Dev nD) : W100 m c main_arg5 = m ((c : Thread nD τ).loc main_arg5) :=
  (W100_of m c main_arg5 (by decide)).trans (W99_arg5 m c)
theorem W0_arg6 (c : Dev nD) : W0 m c main_arg6 = m ((c : Thread nD τ).loc main_arg6) := rfl
theorem W1_arg6 (c : Dev nD) : W1 m c main_arg6 = m ((c : Thread nD τ).loc main_arg6) :=
  (W1_of m c main_arg6 (by decide)).trans (W0_arg6 m c)
theorem W2_arg6 (c : Dev nD) : W2 m c main_arg6 = m ((c : Thread nD τ).loc main_arg6) :=
  (W2_of m c main_arg6 (by decide)).trans (W1_arg6 m c)
theorem W3_arg6 (c : Dev nD) : W3 m c main_arg6 = m ((c : Thread nD τ).loc main_arg6) :=
  (W3_of m c main_arg6 (by decide)).trans (W2_arg6 m c)
theorem W4_arg6 (c : Dev nD) : W4 m c main_arg6 = m ((c : Thread nD τ).loc main_arg6) :=
  (W4_of m c main_arg6 (by decide)).trans (W3_arg6 m c)
theorem W5_arg6 (c : Dev nD) : W5 m c main_arg6 = m ((c : Thread nD τ).loc main_arg6) :=
  (W5_of m c main_arg6 (by decide)).trans (W4_arg6 m c)
theorem W6_arg6 (c : Dev nD) : W6 m c main_arg6 = m ((c : Thread nD τ).loc main_arg6) :=
  (W6_of m c main_arg6 (by decide)).trans (W5_arg6 m c)
theorem W7_arg6 (c : Dev nD) : W7 m c main_arg6 = m ((c : Thread nD τ).loc main_arg6) :=
  (W7_of m c main_arg6 (by decide)).trans (W6_arg6 m c)
theorem W8_arg6 (c : Dev nD) : W8 m c main_arg6 = m ((c : Thread nD τ).loc main_arg6) :=
  (W8_of m c main_arg6 (by decide)).trans (W7_arg6 m c)
theorem W9_arg6 (c : Dev nD) : W9 m c main_arg6 = m ((c : Thread nD τ).loc main_arg6) :=
  (W9_of m c main_arg6 (by decide)).trans (W8_arg6 m c)
theorem W10_arg6 (c : Dev nD) : W10 m c main_arg6 = m ((c : Thread nD τ).loc main_arg6) :=
  (W10_of m c main_arg6 (by decide)).trans (W9_arg6 m c)
theorem W11_arg6 (c : Dev nD) : W11 m c main_arg6 = m ((c : Thread nD τ).loc main_arg6) :=
  (W11_of m c main_arg6 (by decide)).trans (W10_arg6 m c)
theorem W12_arg6 (c : Dev nD) : W12 m c main_arg6 = m ((c : Thread nD τ).loc main_arg6) :=
  (W12_of m c main_arg6 (by decide)).trans (W11_arg6 m c)
theorem W13_arg6 (c : Dev nD) : W13 m c main_arg6 = m ((c : Thread nD τ).loc main_arg6) :=
  (W13_of m c main_arg6 (by decide)).trans (W12_arg6 m c)
theorem W14_arg6 (c : Dev nD) : W14 m c main_arg6 = m ((c : Thread nD τ).loc main_arg6) :=
  (W14_of m c main_arg6 (by decide)).trans (W13_arg6 m c)
theorem W15_arg6 (c : Dev nD) : W15 m c main_arg6 = m ((c : Thread nD τ).loc main_arg6) :=
  (W15_of m c main_arg6 (by decide)).trans (W14_arg6 m c)
theorem W16_arg6 (c : Dev nD) : W16 m c main_arg6 = m ((c : Thread nD τ).loc main_arg6) :=
  (W16_of m c main_arg6 (by decide)).trans (W15_arg6 m c)
theorem W17_arg6 (c : Dev nD) : W17 m c main_arg6 = m ((c : Thread nD τ).loc main_arg6) :=
  (W17_of m c main_arg6 (by decide)).trans (W16_arg6 m c)
theorem W18_arg6 (c : Dev nD) : W18 m c main_arg6 = m ((c : Thread nD τ).loc main_arg6) :=
  (W18_of m c main_arg6 (by decide)).trans (W17_arg6 m c)
theorem W19_arg6 (c : Dev nD) : W19 m c main_arg6 = m ((c : Thread nD τ).loc main_arg6) :=
  (W19_of m c main_arg6 (by decide)).trans (W18_arg6 m c)
theorem W20_arg6 (c : Dev nD) : W20 m c main_arg6 = m ((c : Thread nD τ).loc main_arg6) :=
  (W20_of m c main_arg6 (by decide)).trans (W19_arg6 m c)
theorem W21_arg6 (c : Dev nD) : W21 m c main_arg6 = m ((c : Thread nD τ).loc main_arg6) :=
  (W21_of m c main_arg6 (by decide)).trans (W20_arg6 m c)
theorem W22_arg6 (c : Dev nD) : W22 m c main_arg6 = m ((c : Thread nD τ).loc main_arg6) :=
  (W22_of m c main_arg6 (by decide)).trans (W21_arg6 m c)
theorem W23_arg6 (c : Dev nD) : W23 m c main_arg6 = m ((c : Thread nD τ).loc main_arg6) :=
  (W23_of m c main_arg6 (by decide)).trans (W22_arg6 m c)
theorem W24_arg6 (c : Dev nD) : W24 m c main_arg6 = m ((c : Thread nD τ).loc main_arg6) :=
  (W24_of m c main_arg6 (by decide)).trans (W23_arg6 m c)
theorem W25_arg6 (c : Dev nD) : W25 m c main_arg6 = m ((c : Thread nD τ).loc main_arg6) :=
  (W25_of m c main_arg6 (by decide)).trans (W24_arg6 m c)
theorem W26_arg6 (c : Dev nD) : W26 m c main_arg6 = m ((c : Thread nD τ).loc main_arg6) :=
  (W26_of m c main_arg6 (by decide)).trans (W25_arg6 m c)
theorem W27_arg6 (c : Dev nD) : W27 m c main_arg6 = m ((c : Thread nD τ).loc main_arg6) :=
  (W27_of m c main_arg6 (by decide)).trans (W26_arg6 m c)
theorem W28_arg6 (c : Dev nD) : W28 m c main_arg6 = m ((c : Thread nD τ).loc main_arg6) :=
  (W28_of m c main_arg6 (by decide)).trans (W27_arg6 m c)
theorem W29_arg6 (c : Dev nD) : W29 m c main_arg6 = m ((c : Thread nD τ).loc main_arg6) :=
  (W29_of m c main_arg6 (by decide)).trans (W28_arg6 m c)
theorem W30_arg6 (c : Dev nD) : W30 m c main_arg6 = m ((c : Thread nD τ).loc main_arg6) :=
  (W30_of m c main_arg6 (by decide)).trans (W29_arg6 m c)
theorem W31_arg6 (c : Dev nD) : W31 m c main_arg6 = m ((c : Thread nD τ).loc main_arg6) :=
  (W31_of m c main_arg6 (by decide)).trans (W30_arg6 m c)
theorem W32_arg6 (c : Dev nD) : W32 m c main_arg6 = m ((c : Thread nD τ).loc main_arg6) :=
  (W32_of m c main_arg6 (by decide)).trans (W31_arg6 m c)
theorem W33_arg6 (c : Dev nD) : W33 m c main_arg6 = m ((c : Thread nD τ).loc main_arg6) :=
  (W33_of m c main_arg6 (by decide)).trans (W32_arg6 m c)
theorem W34_arg6 (c : Dev nD) : W34 m c main_arg6 = m ((c : Thread nD τ).loc main_arg6) :=
  (W34_of m c main_arg6 (by decide)).trans (W33_arg6 m c)
theorem W35_arg6 (c : Dev nD) : W35 m c main_arg6 = m ((c : Thread nD τ).loc main_arg6) :=
  (W35_of m c main_arg6 (by decide)).trans (W34_arg6 m c)
theorem W36_arg6 (c : Dev nD) : W36 m c main_arg6 = m ((c : Thread nD τ).loc main_arg6) :=
  (W36_of m c main_arg6 (by decide)).trans (W35_arg6 m c)
theorem W37_arg6 (c : Dev nD) : W37 m c main_arg6 = m ((c : Thread nD τ).loc main_arg6) :=
  (W37_of m c main_arg6 (by decide)).trans (W36_arg6 m c)
theorem W38_arg6 (c : Dev nD) : W38 m c main_arg6 = m ((c : Thread nD τ).loc main_arg6) :=
  (W38_of m c main_arg6 (by decide)).trans (W37_arg6 m c)
theorem W39_arg6 (c : Dev nD) : W39 m c main_arg6 = m ((c : Thread nD τ).loc main_arg6) :=
  (W39_of m c main_arg6 (by decide)).trans (W38_arg6 m c)
theorem W40_arg6 (c : Dev nD) : W40 m c main_arg6 = m ((c : Thread nD τ).loc main_arg6) :=
  (W40_of m c main_arg6 (by decide)).trans (W39_arg6 m c)
theorem W41_arg6 (c : Dev nD) : W41 m c main_arg6 = m ((c : Thread nD τ).loc main_arg6) :=
  (W41_of m c main_arg6 (by decide)).trans (W40_arg6 m c)
theorem W42_arg6 (c : Dev nD) : W42 m c main_arg6 = m ((c : Thread nD τ).loc main_arg6) :=
  (W42_of m c main_arg6 (by decide)).trans (W41_arg6 m c)
theorem W43_arg6 (c : Dev nD) : W43 m c main_arg6 = m ((c : Thread nD τ).loc main_arg6) :=
  (W43_of m c main_arg6 (by decide)).trans (W42_arg6 m c)
theorem W44_arg6 (c : Dev nD) : W44 m c main_arg6 = m ((c : Thread nD τ).loc main_arg6) :=
  (W44_of m c main_arg6 (by decide)).trans (W43_arg6 m c)
theorem W45_arg6 (c : Dev nD) : W45 m c main_arg6 = m ((c : Thread nD τ).loc main_arg6) :=
  (W45_of m c main_arg6 (by decide)).trans (W44_arg6 m c)
theorem W46_arg6 (c : Dev nD) : W46 m c main_arg6 = m ((c : Thread nD τ).loc main_arg6) :=
  (W46_of m c main_arg6 (by decide)).trans (W45_arg6 m c)
theorem W47_arg6 (c : Dev nD) : W47 m c main_arg6 = m ((c : Thread nD τ).loc main_arg6) :=
  (W47_of m c main_arg6 (by decide)).trans (W46_arg6 m c)
theorem W48_arg6 (c : Dev nD) : W48 m c main_arg6 = m ((c : Thread nD τ).loc main_arg6) :=
  (W48_of m c main_arg6 (by decide)).trans (W47_arg6 m c)
theorem W49_arg6 (c : Dev nD) : W49 m c main_arg6 = m ((c : Thread nD τ).loc main_arg6) :=
  (W49_of m c main_arg6 (by decide)).trans (W48_arg6 m c)
theorem W50_arg6 (c : Dev nD) : W50 m c main_arg6 = m ((c : Thread nD τ).loc main_arg6) :=
  (W50_of m c main_arg6 (by decide)).trans (W49_arg6 m c)
theorem W51_arg6 (c : Dev nD) : W51 m c main_arg6 = m ((c : Thread nD τ).loc main_arg6) :=
  (W51_of m c main_arg6 (by decide)).trans (W50_arg6 m c)
theorem W52_arg6 (c : Dev nD) : W52 m c main_arg6 = m ((c : Thread nD τ).loc main_arg6) :=
  (W52_of m c main_arg6 (by decide)).trans (W51_arg6 m c)
theorem W53_arg6 (c : Dev nD) : W53 m c main_arg6 = m ((c : Thread nD τ).loc main_arg6) :=
  (W53_of m c main_arg6 (by decide)).trans (W52_arg6 m c)
theorem W54_arg6 (c : Dev nD) : W54 m c main_arg6 = m ((c : Thread nD τ).loc main_arg6) :=
  (W54_of m c main_arg6 (by decide)).trans (W53_arg6 m c)
theorem W55_arg6 (c : Dev nD) : W55 m c main_arg6 = m ((c : Thread nD τ).loc main_arg6) :=
  (W55_of m c main_arg6 (by decide)).trans (W54_arg6 m c)
theorem W56_arg6 (c : Dev nD) : W56 m c main_arg6 = m ((c : Thread nD τ).loc main_arg6) :=
  (W56_of m c main_arg6 (by decide)).trans (W55_arg6 m c)
theorem W57_arg6 (c : Dev nD) : W57 m c main_arg6 = m ((c : Thread nD τ).loc main_arg6) :=
  (W57_of m c main_arg6 (by decide)).trans (W56_arg6 m c)
theorem W58_arg6 (c : Dev nD) : W58 m c main_arg6 = m ((c : Thread nD τ).loc main_arg6) :=
  (W58_of m c main_arg6 (by decide)).trans (W57_arg6 m c)
theorem W59_arg6 (c : Dev nD) : W59 m c main_arg6 = m ((c : Thread nD τ).loc main_arg6) :=
  (W59_of m c main_arg6 (by decide)).trans (W58_arg6 m c)
theorem W60_arg6 (c : Dev nD) : W60 m c main_arg6 = m ((c : Thread nD τ).loc main_arg6) :=
  (W60_of m c main_arg6 (by decide)).trans (W59_arg6 m c)
theorem W61_arg6 (c : Dev nD) : W61 m c main_arg6 = m ((c : Thread nD τ).loc main_arg6) :=
  (W61_of m c main_arg6 (by decide)).trans (W60_arg6 m c)
theorem W62_arg6 (c : Dev nD) : W62 m c main_arg6 = m ((c : Thread nD τ).loc main_arg6) :=
  (W62_of m c main_arg6 (by decide)).trans (W61_arg6 m c)
theorem W63_arg6 (c : Dev nD) : W63 m c main_arg6 = m ((c : Thread nD τ).loc main_arg6) :=
  (W63_of m c main_arg6 (by decide)).trans (W62_arg6 m c)
theorem W64_arg6 (c : Dev nD) : W64 m c main_arg6 = m ((c : Thread nD τ).loc main_arg6) :=
  (W64_of m c main_arg6 (by decide)).trans (W63_arg6 m c)
theorem W65_arg6 (c : Dev nD) : W65 m c main_arg6 = m ((c : Thread nD τ).loc main_arg6) :=
  (W65_of m c main_arg6 (by decide)).trans (W64_arg6 m c)
theorem W66_arg6 (c : Dev nD) : W66 m c main_arg6 = m ((c : Thread nD τ).loc main_arg6) :=
  (W66_of m c main_arg6 (by decide)).trans (W65_arg6 m c)
theorem W67_arg6 (c : Dev nD) : W67 m c main_arg6 = m ((c : Thread nD τ).loc main_arg6) :=
  (W67_of m c main_arg6 (by decide)).trans (W66_arg6 m c)
theorem W68_arg6 (c : Dev nD) : W68 m c main_arg6 = m ((c : Thread nD τ).loc main_arg6) :=
  (W68_of m c main_arg6 (by decide)).trans (W67_arg6 m c)
theorem W69_arg6 (c : Dev nD) : W69 m c main_arg6 = m ((c : Thread nD τ).loc main_arg6) :=
  (W69_of m c main_arg6 (by decide)).trans (W68_arg6 m c)
theorem W70_arg6 (c : Dev nD) : W70 m c main_arg6 = m ((c : Thread nD τ).loc main_arg6) :=
  (W70_of m c main_arg6 (by decide)).trans (W69_arg6 m c)
theorem W71_arg6 (c : Dev nD) : W71 m c main_arg6 = m ((c : Thread nD τ).loc main_arg6) :=
  (W71_of m c main_arg6 (by decide)).trans (W70_arg6 m c)
theorem W72_arg6 (c : Dev nD) : W72 m c main_arg6 = m ((c : Thread nD τ).loc main_arg6) :=
  (W72_of m c main_arg6 (by decide)).trans (W71_arg6 m c)
theorem W73_arg6 (c : Dev nD) : W73 m c main_arg6 = m ((c : Thread nD τ).loc main_arg6) :=
  (W73_of m c main_arg6 (by decide)).trans (W72_arg6 m c)
theorem W74_arg6 (c : Dev nD) : W74 m c main_arg6 = m ((c : Thread nD τ).loc main_arg6) :=
  (W74_of m c main_arg6 (by decide)).trans (W73_arg6 m c)
theorem W75_arg6 (c : Dev nD) : W75 m c main_arg6 = m ((c : Thread nD τ).loc main_arg6) :=
  (W75_of m c main_arg6 (by decide)).trans (W74_arg6 m c)
theorem W76_arg6 (c : Dev nD) : W76 m c main_arg6 = m ((c : Thread nD τ).loc main_arg6) :=
  (W76_of m c main_arg6 (by decide)).trans (W75_arg6 m c)
theorem W77_arg6 (c : Dev nD) : W77 m c main_arg6 = m ((c : Thread nD τ).loc main_arg6) :=
  (W77_of m c main_arg6 (by decide)).trans (W76_arg6 m c)
theorem W78_arg6 (c : Dev nD) : W78 m c main_arg6 = m ((c : Thread nD τ).loc main_arg6) :=
  (W78_of m c main_arg6 (by decide)).trans (W77_arg6 m c)
theorem W79_arg6 (c : Dev nD) : W79 m c main_arg6 = m ((c : Thread nD τ).loc main_arg6) :=
  (W79_of m c main_arg6 (by decide)).trans (W78_arg6 m c)
theorem W80_arg6 (c : Dev nD) : W80 m c main_arg6 = m ((c : Thread nD τ).loc main_arg6) :=
  (W80_of m c main_arg6 (by decide)).trans (W79_arg6 m c)
theorem W81_arg6 (c : Dev nD) : W81 m c main_arg6 = m ((c : Thread nD τ).loc main_arg6) :=
  (W81_of m c main_arg6 (by decide)).trans (W80_arg6 m c)
theorem W82_arg6 (c : Dev nD) : W82 m c main_arg6 = m ((c : Thread nD τ).loc main_arg6) :=
  (W82_of m c main_arg6 (by decide)).trans (W81_arg6 m c)
theorem W83_arg6 (c : Dev nD) : W83 m c main_arg6 = m ((c : Thread nD τ).loc main_arg6) :=
  (W83_of m c main_arg6 (by decide)).trans (W82_arg6 m c)
theorem W84_arg6 (c : Dev nD) : W84 m c main_arg6 = m ((c : Thread nD τ).loc main_arg6) :=
  (W84_of m c main_arg6 (by decide)).trans (W83_arg6 m c)
theorem W85_arg6 (c : Dev nD) : W85 m c main_arg6 = m ((c : Thread nD τ).loc main_arg6) :=
  (W85_of m c main_arg6 (by decide)).trans (W84_arg6 m c)
theorem W86_arg6 (c : Dev nD) : W86 m c main_arg6 = m ((c : Thread nD τ).loc main_arg6) :=
  (W86_of m c main_arg6 (by decide)).trans (W85_arg6 m c)
theorem W87_arg6 (c : Dev nD) : W87 m c main_arg6 = m ((c : Thread nD τ).loc main_arg6) :=
  (W87_of m c main_arg6 (by decide)).trans (W86_arg6 m c)
theorem W88_arg6 (c : Dev nD) : W88 m c main_arg6 = m ((c : Thread nD τ).loc main_arg6) :=
  (W88_of m c main_arg6 (by decide)).trans (W87_arg6 m c)
theorem W89_arg6 (c : Dev nD) : W89 m c main_arg6 = m ((c : Thread nD τ).loc main_arg6) :=
  (W89_of m c main_arg6 (by decide)).trans (W88_arg6 m c)
theorem W90_arg6 (c : Dev nD) : W90 m c main_arg6 = m ((c : Thread nD τ).loc main_arg6) :=
  (W90_of m c main_arg6 (by decide)).trans (W89_arg6 m c)
theorem W91_arg6 (c : Dev nD) : W91 m c main_arg6 = m ((c : Thread nD τ).loc main_arg6) :=
  (W91_of m c main_arg6 (by decide)).trans (W90_arg6 m c)
theorem W92_arg6 (c : Dev nD) : W92 m c main_arg6 = m ((c : Thread nD τ).loc main_arg6) :=
  (W92_of m c main_arg6 (by decide)).trans (W91_arg6 m c)
theorem W93_arg6 (c : Dev nD) : W93 m c main_arg6 = m ((c : Thread nD τ).loc main_arg6) :=
  (W93_of m c main_arg6 (by decide)).trans (W92_arg6 m c)
theorem W94_arg6 (c : Dev nD) : W94 m c main_arg6 = m ((c : Thread nD τ).loc main_arg6) :=
  (W94_of m c main_arg6 (by decide)).trans (W93_arg6 m c)
theorem W95_arg6 (c : Dev nD) : W95 m c main_arg6 = m ((c : Thread nD τ).loc main_arg6) :=
  (W95_of m c main_arg6 (by decide)).trans (W94_arg6 m c)
theorem W96_arg6 (c : Dev nD) : W96 m c main_arg6 = m ((c : Thread nD τ).loc main_arg6) :=
  (W96_of m c main_arg6 (by decide)).trans (W95_arg6 m c)
theorem W97_arg6 (c : Dev nD) : W97 m c main_arg6 = m ((c : Thread nD τ).loc main_arg6) :=
  (W97_of m c main_arg6 (by decide)).trans (W96_arg6 m c)
theorem W98_arg6 (c : Dev nD) : W98 m c main_arg6 = m ((c : Thread nD τ).loc main_arg6) :=
  (W98_of m c main_arg6 (by decide)).trans (W97_arg6 m c)
theorem W99_arg6 (c : Dev nD) : W99 m c main_arg6 = m ((c : Thread nD τ).loc main_arg6) :=
  (W99_of m c main_arg6 (by decide)).trans (W98_arg6 m c)
theorem W100_arg6 (c : Dev nD) : W100 m c main_arg6 = m ((c : Thread nD τ).loc main_arg6) :=
  (W100_of m c main_arg6 (by decide)).trans (W99_arg6 m c)

end Cert.Kernel.Hand

end
-- ==== Proof.K.TblReads.lean ====
/-
  The row numbers of each gather region.

  Before gather region K the host cuts the region's hundred thousand row numbers out of the long list of row
  numbers: the entries from 100000 ((K - 1) mod 16) on. Read here from any contents of the buffers the stretch
  starts from: the region's table holds that slice of whatever the long list's buffer held.
-/
import proofs.«421643_j28415503630349_2_alg».proof.Proof.Gen.Kernel.Launch
import Idealize.ShloMosaic.Lib.StableHlo.Run

noncomputable section

namespace Cert.Kernel.Hand

open Cert.Kernel Cert.Kernel.Gen
open Idealize.ShloMosaic Idealize.ShloMosaic.TcCoe Idealize.ShloMosaic.StableHlo
open Idealize.SL.Sem

variable {F : FTy → Type} [FloatOps F]

/-- Region 1's table: the row numbers from 0 on. -/
theorem ktbl1 (Wb : Valuation τ sig (Elt F)) :
    StableHlo.after hostOps1 Wb (Proc.devRef .tc main_v5)
      = extractStridedSlice S100000 ![0] (Wb (Proc.devRef .tc main_arg4)) Shapes1.Facts₀.slices_S1600000_S100000_0 := by
  unfold hostOps1
  after_results

/-- Region 2's table: the row numbers from 100000 on. -/
theorem ktbl2 (Wb : Valuation τ sig (Elt F)) :
    StableHlo.after hostOps2 Wb (Proc.devRef .tc main_v9)
      = extractStridedSlice S100000 ![100000] (Wb (Proc.devRef .tc main_arg4)) Shapes1.Facts₀.slices_S1600000_S100000_100000 := by
  unfold hostOps2
  after_results

/-- Region 3's table: the row numbers from 200000 on. -/
theorem ktbl3 (Wb : Valuation τ sig (Elt F)) :
    StableHlo.after hostOps3 Wb (Proc.devRef .tc main_v13)
      = extractStridedSlice S100000 ![200000] (Wb (Proc.devRef .tc main_arg4)) Shapes1.Facts₀.slices_S1600000_S100000_200000 := by
  unfold hostOps3
  after_results

/-- Region 4's table: the row numbers from 300000 on. -/
theorem ktbl4 (Wb : Valuation τ sig (Elt F)) :
    StableHlo.after hostOps4 Wb (Proc.devRef .tc main_v17)
      = extractStridedSlice S100000 ![300000] (Wb (Proc.devRef .tc main_arg4)) Shapes1.Facts₀.slices_S1600000_S100000_300000 := by
  unfold hostOps4
  after_results

/-- Region 5's table: the row numbers from 400000 on. -/
theorem ktbl5 (Wb : Valuation τ sig (Elt F)) :
    StableHlo.after hostOps5 Wb (Proc.devRef .tc main_v21)
      = extractStridedSlice S100000 ![400000] (Wb (Proc.devRef .tc main_arg4)) Shapes1.Facts₀.slices_S1600000_S100000_400000 := by
  unfold hostOps5
  after_results

/-- Region 6's table: the row numbers from 500000 on. -/
theorem ktbl6 (Wb : Valuation τ sig (Elt F)) :
    StableHlo.after hostOps6 Wb (Proc.devRef .tc main_v25)
      = extractStridedSlice S100000 ![500000] (Wb (Proc.devRef .tc main_arg4)) Shapes1.Facts₀.slices_S1600000_S100000_500000 := by
  unfold hostOps6
  after_results

/-- Region 7's table: the row numbers from 600000 on. -/
theorem ktbl7 (Wb : Valuation τ sig (Elt F)) :
    StableHlo.after hostOps7 Wb (Proc.devRef .tc main_v29)
      = extractStridedSlice S100000 ![600000] (Wb (Proc.devRef .tc main_arg4)) Shapes1.Facts₀.slices_S1600000_S100000_600000 := by
  unfold hostOps7
  after_results

/-- Region 8's table: the row numbers from 700000 on. -/
theorem ktbl8 (Wb : Valuation τ sig (Elt F)) :
    StableHlo.after hostOps8 Wb (Proc.devRef .tc main_v33)
      = extractStridedSlice S100000 ![700000] (Wb (Proc.devRef .tc main_arg4)) Shapes1.Facts₀.slices_S1600000_S100000_700000 := by
  unfold hostOps8
  after_results

/-- Region 9's table: the row numbers from 800000 on. -/
theorem ktbl9 (Wb : Valuation τ sig (Elt F)) :
    StableHlo.after hostOps9 Wb (Proc.devRef .tc main_v37)
      = extractStridedSlice S100000 ![800000] (Wb (Proc.devRef .tc main_arg4)) Shapes1.Facts₀.slices_S1600000_S100000_800000 := by
  unfold hostOps9
  after_results

/-- Region 10's table: the row numbers from 900000 on. -/
theorem ktbl10 (Wb : Valuation τ sig (Elt F)) :
    StableHlo.after hostOps10 Wb (Proc.devRef .tc main_v41)
      = extractStridedSlice S100000 ![900000] (Wb (Proc.devRef .tc main_arg4)) Shapes1.Facts₀.slices_S1600000_S100000_900000 := by
  unfold hostOps10
  after_results

/-- Region 11's table: the row numbers from 1000000 on. -/
theorem ktbl11 (Wb : Valuation τ sig (Elt F)) :
    StableHlo.after hostOps11 Wb (Proc.devRef .tc main_v45)
      = extractStridedSlice S100000 ![1000000] (Wb (Proc.devRef .tc main_arg4)) Shapes1.Facts₀.slices_S1600000_S100000_1000000 := by
  unfold hostOps11
  after_results

/-- Region 12's table: the row numbers from 1100000 on. -/
theorem ktbl12 (Wb : Valuation τ sig (Elt F)) :
    StableHlo.after hostOps12 Wb (Proc.devRef .tc main_v49)
      = extractStridedSlice S100000 ![1100000] (Wb (Proc.devRef .tc main_arg4)) Shapes1.Facts₀.slices_S1600000_S100000_1100000 := by
  unfold hostOps12
  after_results

/-- Region 13's table: the row numbers from 1200000 on. -/
theorem ktbl13 (Wb : Valuation τ sig (Elt F)) :
    StableHlo.after hostOps13 Wb (Proc.devRef .tc main_v53)
      = extractStridedSlice S100000 ![1200000] (Wb (Proc.devRef .tc main_arg4)) Shapes1.Facts₀.slices_S1600000_S100000_1200000 := by
  unfold hostOps13
  after_results

/-- Region 14's table: the row numbers from 1300000 on. -/
theorem ktbl14 (Wb : Valuation τ sig (Elt F)) :
    StableHlo.after hostOps14 Wb (Proc.devRef .tc main_v57)
      = extractStridedSlice S100000 ![1300000] (Wb (Proc.devRef .tc main_arg4)) Shapes1.Facts₀.slices_S1600000_S100000_1300000 := by
  unfold hostOps14
  after_results

/-- Region 15's table: the row numbers from 1400000 on. -/
theorem ktbl15 (Wb : Valuation τ sig (Elt F)) :
    StableHlo.after hostOps15 Wb (Proc.devRef .tc main_v61)
      = extractStridedSlice S100000 ![1400000] (Wb (Proc.devRef .tc main_arg4)) Shapes1.Facts₀.slices_S1600000_S100000_1400000 := by
  unfold hostOps15
  after_results

/-- Region 16's table: the row numbers from 1500000 on. -/
theorem ktbl16 (Wb : Valuation τ sig (Elt F)) :
    StableHlo.after hostOps16 Wb (Proc.devRef .tc main_v65)
      = extractStridedSlice S100000 ![1500000] (Wb (Proc.devRef .tc main_arg4)) Shapes1.Facts₀.slices_S1600000_S100000_1500000 := by
  unfold hostOps16
  after_results

/-- Region 17's table: the row numbers from 0 on. -/
theorem ktbl17 (Wb : Valuation τ sig (Elt F)) :
    StableHlo.after hostOps17 Wb (Proc.devRef .tc main_v74)
      = extractStridedSlice S100000 ![0] (Wb (Proc.devRef .tc main_arg4)) Shapes1.Facts₀.slices_S1600000_S100000_0 := by
  unfold hostOps17
  after_results

/-- Region 18's table: the row numbers from 100000 on. -/
theorem ktbl18 (Wb : Valuation τ sig (Elt F)) :
    StableHlo.after hostOps18 Wb (Proc.devRef .tc main_v78)
      = extractStridedSlice S100000 ![100000] (Wb (Proc.devRef .tc main_arg4)) Shapes1.Facts₀.slices_S1600000_S100000_100000 := by
  unfold hostOps18
  after_results

/-- Region 19's table: the row numbers from 200000 on. -/
theorem ktbl19 (Wb : Valuation τ sig (Elt F)) :
    StableHlo.after hostOps19 Wb (Proc.devRef .tc main_v82)
      = extractStridedSlice S100000 ![200000] (Wb (Proc.devRef .tc main_arg4)) Shapes1.Facts₀.slices_S1600000_S100000_200000 := by
  unfold hostOps19
  after_results

/-- Region 20's table: the row numbers from 300000 on. -/
theorem ktbl20 (Wb : Valuation τ sig (Elt F)) :
    StableHlo.after hostOps20 Wb (Proc.devRef .tc main_v86)
      = extractStridedSlice S100000 ![300000] (Wb (Proc.devRef .tc main_arg4)) Shapes1.Facts₀.slices_S1600000_S100000_300000 := by
  unfold hostOps20
  after_results

/-- Region 21's table: the row numbers from 400000 on. -/
theorem ktbl21 (Wb : Valuation τ sig (Elt F)) :
    StableHlo.after hostOps21 Wb (Proc.devRef .tc main_v90)
      = extractStridedSlice S100000 ![400000] (Wb (Proc.devRef .tc main_arg4)) Shapes1.Facts₀.slices_S1600000_S100000_400000 := by
  unfold hostOps21
  after_results

/-- Region 22's table: the row numbers from 500000 on. -/
theorem ktbl22 (Wb : Valuation τ sig (Elt F)) :
    StableHlo.after hostOps22 Wb (Proc.devRef .tc main_v94)
      = extractStridedSlice S100000 ![500000] (Wb (Proc.devRef .tc main_arg4)) Shapes1.Facts₀.slices_S1600000_S100000_500000 := by
  unfold hostOps22
  after_results

/-- Region 23's table: the row numbers from 600000 on. -/
theorem ktbl23 (Wb : Valuation τ sig (Elt F)) :
    StableHlo.after hostOps23 Wb (Proc.devRef .tc main_v98)
      = extractStridedSlice S100000 ![600000] (Wb (Proc.devRef .tc main_arg4)) Shapes1.Facts₀.slices_S1600000_S100000_600000 := by
  unfold hostOps23
  after_results

/-- Region 24's table: the row numbers from 700000 on. -/
theorem ktbl24 (Wb : Valuation τ sig (Elt F)) :
    StableHlo.after hostOps24 Wb (Proc.devRef .tc main_v102)
      = extractStridedSlice S100000 ![700000] (Wb (Proc.devRef .tc main_arg4)) Shapes1.Facts₀.slices_S1600000_S100000_700000 := by
  unfold hostOps24
  after_results

/-- Region 25's table: the row numbers from 800000 on. -/
theorem ktbl25 (Wb : Valuation τ sig (Elt F)) :
    StableHlo.after hostOps25 Wb (Proc.devRef .tc main_v106)
      = extractStridedSlice S100000 ![800000] (Wb (Proc.devRef .tc main_arg4)) Shapes1.Facts₀.slices_S1600000_S100000_800000 := by
  unfold hostOps25
  after_results

/-- Region 26's table: the row numbers from 900000 on. -/
theorem ktbl26 (Wb : Valuation τ sig (Elt F)) :
    StableHlo.after hostOps26 Wb (Proc.devRef .tc main_v110)
      = extractStridedSlice S100000 ![900000] (Wb (Proc.devRef .tc main_arg4)) Shapes1.Facts₀.slices_S1600000_S100000_900000 := by
  unfold hostOps26
  after_results

/-- Region 27's table: the row numbers from 1000000 on. -/
theorem ktbl27 (Wb : Valuation τ sig (Elt F)) :
    StableHlo.after hostOps27 Wb (Proc.devRef .tc main_v114)
      = extractStridedSlice S100000 ![1000000] (Wb (Proc.devRef .tc main_arg4)) Shapes1.Facts₀.slices_S1600000_S100000_1000000 := by
  unfold hostOps27
  after_results

/-- Region 28's table: the row numbers from 1100000 on. -/
theorem ktbl28 (Wb : Valuation τ sig (Elt F)) :
    StableHlo.after hostOps28 Wb (Proc.devRef .tc main_v118)
      = extractStridedSlice S100000 ![1100000] (Wb (Proc.devRef .tc main_arg4)) Shapes1.Facts₀.slices_S1600000_S100000_1100000 := by
  unfold hostOps28
  after_results

/-- Region 29's table: the row numbers from 1200000 on. -/
theorem ktbl29 (Wb : Valuation τ sig (Elt F)) :
    StableHlo.after hostOps29 Wb (Proc.devRef .tc main_v122)
      = extractStridedSlice S100000 ![1200000] (Wb (Proc.devRef .tc main_arg4)) Shapes1.Facts₀.slices_S1600000_S100000_1200000 := by
  unfold hostOps29
  after_results

/-- Region 30's table: the row numbers from 1300000 on. -/
theorem ktbl30 (Wb : Valuation τ sig (Elt F)) :
    StableHlo.after hostOps30 Wb (Proc.devRef .tc main_v126)
      = extractStridedSlice S100000 ![1300000] (Wb (Proc.devRef .tc main_arg4)) Shapes1.Facts₀.slices_S1600000_S100000_1300000 := by
  unfold hostOps30
  after_results

/-- Region 31's table: the row numbers from 1400000 on. -/
theorem ktbl31 (Wb : Valuation τ sig (Elt F)) :
    StableHlo.after hostOps31 Wb (Proc.devRef .tc main_v130)
      = extractStridedSlice S100000 ![1400000] (Wb (Proc.devRef .tc main_arg4)) Shapes1.Facts₀.slices_S1600000_S100000_1400000 := by
  unfold hostOps31
  after_results

/-- Region 32's table: the row numbers from 1500000 on. -/
theorem ktbl32 (Wb : Valuation τ sig (Elt F)) :
    StableHlo.after hostOps32 Wb (Proc.devRef .tc main_v134)
      = extractStridedSlice S100000 ![1500000] (Wb (Proc.devRef .tc main_arg4)) Shapes1.Facts₀.slices_S1600000_S100000_1500000 := by
  unfold hostOps32
  after_results

/-- Region 33's table: the row numbers from 0 on. -/
theorem ktbl33 (Wb : Valuation τ sig (Elt F)) :
    StableHlo.after hostOps33 Wb (Proc.devRef .tc main_v143)
      = extractStridedSlice S100000 ![0] (Wb (Proc.devRef .tc main_arg4)) Shapes1.Facts₀.slices_S1600000_S100000_0 := by
  unfold hostOps33
  after_results

/-- Region 34's table: the row numbers from 100000 on. -/
theorem ktbl34 (Wb : Valuation τ sig (Elt F)) :
    StableHlo.after hostOps34 Wb (Proc.devRef .tc main_v147)
      = extractStridedSlice S100000 ![100000] (Wb (Proc.devRef .tc main_arg4)) Shapes1.Facts₀.slices_S1600000_S100000_100000 := by
  unfold hostOps34
  after_results

/-- Region 35's table: the row numbers from 200000 on. -/
theorem ktbl35 (Wb : Valuation τ sig (Elt F)) :
    StableHlo.after hostOps35 Wb (Proc.devRef .tc main_v151)
      = extractStridedSlice S100000 ![200000] (Wb (Proc.devRef .tc main_arg4)) Shapes1.Facts₀.slices_S1600000_S100000_200000 := by
  unfold hostOps35
  after_results

/-- Region 36's table: the row numbers from 300000 on. -/
theorem ktbl36 (Wb : Valuation τ sig (Elt F)) :
    StableHlo.after hostOps36 Wb (Proc.devRef .tc main_v155)
      = extractStridedSlice S100000 ![300000] (Wb (Proc.devRef .tc main_arg4)) Shapes1.Facts₀.slices_S1600000_S100000_300000 := by
  unfold hostOps36
  after_results

/-- Region 37's table: the row numbers from 400000 on. -/
theorem ktbl37 (Wb : Valuation τ sig (Elt F)) :
    StableHlo.after hostOps37 Wb (Proc.devRef .tc main_v159)
      = extractStridedSlice S100000 ![400000] (Wb (Proc.devRef .tc main_arg4)) Shapes1.Facts₀.slices_S1600000_S100000_400000 := by
  unfold hostOps37
  after_results

/-- Region 38's table: the row numbers from 500000 on. -/
theorem ktbl38 (Wb : Valuation τ sig (Elt F)) :
    StableHlo.after hostOps38 Wb (Proc.devRef .tc main_v163)
      = extractStridedSlice S100000 ![500000] (Wb (Proc.devRef .tc main_arg4)) Shapes1.Facts₀.slices_S1600000_S100000_500000 := by
  unfold hostOps38
  after_results

/-- Region 39's table: the row numbers from 600000 on. -/
theorem ktbl39 (Wb : Valuation τ sig (Elt F)) :
    StableHlo.after hostOps39 Wb (Proc.devRef .tc main_v167)
      = extractStridedSlice S100000 ![600000] (Wb (Proc.devRef .tc main_arg4)) Shapes1.Facts₀.slices_S1600000_S100000_600000 := by
  unfold hostOps39
  after_results

/-- Region 40's table: the row numbers from 700000 on. -/
theorem ktbl40 (Wb : Valuation τ sig (Elt F)) :
    StableHlo.after hostOps40 Wb (Proc.devRef .tc main_v171)
      = extractStridedSlice S100000 ![700000] (Wb (Proc.devRef .tc main_arg4)) Shapes1.Facts₀.slices_S1600000_S100000_700000 := by
  unfold hostOps40
  after_results

/-- Region 41's table: the row numbers from 800000 on. -/
theorem ktbl41 (Wb : Valuation τ sig (Elt F)) :
    StableHlo.after hostOps41 Wb (Proc.devRef .tc main_v175)
      = extractStridedSlice S100000 ![800000] (Wb (Proc.devRef .tc main_arg4)) Shapes1.Facts₀.slices_S1600000_S100000_800000 := by
  unfold hostOps41
  after_results

/-- Region 42's table: the row numbers from 900000 on. -/
theorem ktbl42 (Wb : Valuation τ sig (Elt F)) :
    StableHlo.after hostOps42 Wb (Proc.devRef .tc main_v179)
      = extractStridedSlice S100000 ![900000] (Wb (Proc.devRef .tc main_arg4)) Shapes1.Facts₀.slices_S1600000_S100000_900000 := by
  unfold hostOps42
  after_results

/-- Region 43's table: the row numbers from 1000000 on. -/
theorem ktbl43 (Wb : Valuation τ sig (Elt F)) :
    StableHlo.after hostOps43 Wb (Proc.devRef .tc main_v183)
      = extractStridedSlice S100000 ![1000000] (Wb (Proc.devRef .tc main_arg4)) Shapes1.Facts₀.slices_S1600000_S100000_1000000 := by
  unfold hostOps43
  after_results

/-- Region 44's table: the row numbers from 1100000 on. -/
theorem ktbl44 (Wb : Valuation τ sig (Elt F)) :
    StableHlo.after hostOps44 Wb (Proc.devRef .tc main_v187)
      = extractStridedSlice S100000 ![1100000] (Wb (Proc.devRef .tc main_arg4)) Shapes1.Facts₀.slices_S1600000_S100000_1100000 := by
  unfold hostOps44
  after_results

/-- Region 45's table: the row numbers from 1200000 on. -/
theorem ktbl45 (Wb : Valuation τ sig (Elt F)) :
    StableHlo.after hostOps45 Wb (Proc.devRef .tc main_v191)
      = extractStridedSlice S100000 ![1200000] (Wb (Proc.devRef .tc main_arg4)) Shapes1.Facts₀.slices_S1600000_S100000_1200000 := by
  unfold hostOps45
  after_results

/-- Region 46's table: the row numbers from 1300000 on. -/
theorem ktbl46 (Wb : Valuation τ sig (Elt F)) :
    StableHlo.after hostOps46 Wb (Proc.devRef .tc main_v195)
      = extractStridedSlice S100000 ![1300000] (Wb (Proc.devRef .tc main_arg4)) Shapes1.Facts₀.slices_S1600000_S100000_1300000 := by
  unfold hostOps46
  after_results

/-- Region 47's table: the row numbers from 1400000 on. -/
theorem ktbl47 (Wb : Valuation τ sig (Elt F)) :
    StableHlo.after hostOps47 Wb (Proc.devRef .tc main_v199)
      = extractStridedSlice S100000 ![1400000] (Wb (Proc.devRef .tc main_arg4)) Shapes1.Facts₀.slices_S1600000_S100000_1400000 := by
  unfold hostOps47
  after_results

/-- Region 48's table: the row numbers from 1500000 on. -/
theorem ktbl48 (Wb : Valuation τ sig (Elt F)) :
    StableHlo.after hostOps48 Wb (Proc.devRef .tc main_v203)
      = extractStridedSlice S100000 ![1500000] (Wb (Proc.devRef .tc main_arg4)) Shapes1.Facts₀.slices_S1600000_S100000_1500000 := by
  unfold hostOps48
  after_results

end Cert.Kernel.Hand

end
-- ==== Proof.K.Tables.lean ====
/-
  Each gather region's table at its entry is a slice of the column indices (written by the host stretch before the
  region from the argument array, which nothing changes), so under the precondition every word of it is a row of the
  node table.
-/
import proofs.«421643_j28415503630349_2_alg».proof.Proof.K.Args
import proofs.«421643_j28415503630349_2_alg».proof.Proof.K.PreCols
import proofs.«421643_j28415503630349_2_alg».proof.Proof.K.TblReads

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

variable (m : (ℓ : Loc nD τ sig) → Buf (Elt F) ℓ)

variable (hcols : ∀ (c : Dev nD) (e : S1600000.Idx), (m ((c.tc : Thread nD τ).loc main_arg4) e).toNat < 100000)

theorem tbl_eq1 (c : Dev nD) : W4 m c main_v5 = extractStridedSlice S100000 ![0] (W3 m c main_arg4) Shapes1.Facts₀.slices_S1600000_S100000_0 :=
  ktbl1 (W3 m c)
attribute [local irreducible] W3 in
include hcols in
theorem tbl_lt1 : ∀ y, (((adm1 m).1 0) y).toNat < 100000 := fun y => by
  show (W4 m 0 main_v5 y).toNat < 100000
  rw [tbl_eq1 m 0, W3_arg4 m 0]
  exact slice_lt (hcols 0) _ _ y
theorem tbl_at1 (c : Dev nD) (k : Fin pre1.K) : Vof (W4 m) c (pre1.ref k) = (adm1 m).1 k := by
  obtain rfl : c = 0 := Subsingleton.elim _ _
  rfl
theorem tbl_eq2 (c : Dev nD) : W6 m c main_v9 = extractStridedSlice S100000 ![100000] (W5 m c main_arg4) Shapes1.Facts₀.slices_S1600000_S100000_100000 :=
  ktbl2 (W5 m c)
attribute [local irreducible] W5 in
include hcols in
theorem tbl_lt2 : ∀ y, (((adm2 m).1 0) y).toNat < 100000 := fun y => by
  show (W6 m 0 main_v9 y).toNat < 100000
  rw [tbl_eq2 m 0, W5_arg4 m 0]
  exact slice_lt (hcols 0) _ _ y
theorem tbl_at2 (c : Dev nD) (k : Fin pre2.K) : Vof (W6 m) c (pre2.ref k) = (adm2 m).1 k := by
  obtain rfl : c = 0 := Subsingleton.elim _ _
  rfl
theorem tbl_eq3 (c : Dev nD) : W8 m c main_v13 = extractStridedSlice S100000 ![200000] (W7 m c main_arg4) Shapes1.Facts₀.slices_S1600000_S100000_200000 :=
  ktbl3 (W7 m c)
attribute [local irreducible] W7 in
include hcols in
theorem tbl_lt3 : ∀ y, (((adm3 m).1 0) y).toNat < 100000 := fun y => by
  show (W8 m 0 main_v13 y).toNat < 100000
  rw [tbl_eq3 m 0, W7_arg4 m 0]
  exact slice_lt (hcols 0) _ _ y
theorem tbl_at3 (c : Dev nD) (k : Fin pre3.K) : Vof (W8 m) c (pre3.ref k) = (adm3 m).1 k := by
  obtain rfl : c = 0 := Subsingleton.elim _ _
  rfl
theorem tbl_eq4 (c : Dev nD) : W10 m c main_v17 = extractStridedSlice S100000 ![300000] (W9 m c main_arg4) Shapes1.Facts₀.slices_S1600000_S100000_300000 :=
  ktbl4 (W9 m c)
attribute [local irreducible] W9 in
include hcols in
theorem tbl_lt4 : ∀ y, (((adm4 m).1 0) y).toNat < 100000 := fun y => by
  show (W10 m 0 main_v17 y).toNat < 100000
  rw [tbl_eq4 m 0, W9_arg4 m 0]
  exact slice_lt (hcols 0) _ _ y
theorem tbl_at4 (c : Dev nD) (k : Fin pre4.K) : Vof (W10 m) c (pre4.ref k) = (adm4 m).1 k := by
  obtain rfl : c = 0 := Subsingleton.elim _ _
  rfl
theorem tbl_eq5 (c : Dev nD) : W12 m c main_v21 = extractStridedSlice S100000 ![400000] (W11 m c main_arg4) Shapes1.Facts₀.slices_S1600000_S100000_400000 :=
  ktbl5 (W11 m c)
attribute [local irreducible] W11 in
include hcols in
theorem tbl_lt5 : ∀ y, (((adm5 m).1 0) y).toNat < 100000 := fun y => by
  show (W12 m 0 main_v21 y).toNat < 100000
  rw [tbl_eq5 m 0, W11_arg4 m 0]
  exact slice_lt (hcols 0) _ _ y
theorem tbl_at5 (c : Dev nD) (k : Fin pre5.K) : Vof (W12 m) c (pre5.ref k) = (adm5 m).1 k := by
  obtain rfl : c = 0 := Subsingleton.elim _ _
  rfl
theorem tbl_eq6 (c : Dev nD) : W14 m c main_v25 = extractStridedSlice S100000 ![500000] (W13 m c main_arg4) Shapes1.Facts₀.slices_S1600000_S100000_500000 :=
  ktbl6 (W13 m c)
attribute [local irreducible] W13 in
include hcols in
theorem tbl_lt6 : ∀ y, (((adm6 m).1 0) y).toNat < 100000 := fun y => by
  show (W14 m 0 main_v25 y).toNat < 100000
  rw [tbl_eq6 m 0, W13_arg4 m 0]
  exact slice_lt (hcols 0) _ _ y
theorem tbl_at6 (c : Dev nD) (k : Fin pre6.K) : Vof (W14 m) c (pre6.ref k) = (adm6 m).1 k := by
  obtain rfl : c = 0 := Subsingleton.elim _ _
  rfl
theorem tbl_eq7 (c : Dev nD) : W16 m c main_v29 = extractStridedSlice S100000 ![600000] (W15 m c main_arg4) Shapes1.Facts₀.slices_S1600000_S100000_600000 :=
  ktbl7 (W15 m c)
attribute [local irreducible] W15 in
include hcols in
theorem tbl_lt7 : ∀ y, (((adm7 m).1 0) y).toNat < 100000 := fun y => by
  show (W16 m 0 main_v29 y).toNat < 100000
  rw [tbl_eq7 m 0, W15_arg4 m 0]
  exact slice_lt (hcols 0) _ _ y
theorem tbl_at7 (c : Dev nD) (k : Fin pre7.K) : Vof (W16 m) c (pre7.ref k) = (adm7 m).1 k := by
  obtain rfl : c = 0 := Subsingleton.elim _ _
  rfl
theorem tbl_eq8 (c : Dev nD) : W18 m c main_v33 = extractStridedSlice S100000 ![700000] (W17 m c main_arg4) Shapes1.Facts₀.slices_S1600000_S100000_700000 :=
  ktbl8 (W17 m c)
attribute [local irreducible] W17 in
include hcols in
theorem tbl_lt8 : ∀ y, (((adm8 m).1 0) y).toNat < 100000 := fun y => by
  show (W18 m 0 main_v33 y).toNat < 100000
  rw [tbl_eq8 m 0, W17_arg4 m 0]
  exact slice_lt (hcols 0) _ _ y
theorem tbl_at8 (c : Dev nD) (k : Fin pre8.K) : Vof (W18 m) c (pre8.ref k) = (adm8 m).1 k := by
  obtain rfl : c = 0 := Subsingleton.elim _ _
  rfl
theorem tbl_eq9 (c : Dev nD) : W20 m c main_v37 = extractStridedSlice S100000 ![800000] (W19 m c main_arg4) Shapes1.Facts₀.slices_S1600000_S100000_800000 :=
  ktbl9 (W19 m c)
attribute [local irreducible] W19 in
include hcols in
theorem tbl_lt9 : ∀ y, (((adm9 m).1 0) y).toNat < 100000 := fun y => by
  show (W20 m 0 main_v37 y).toNat < 100000
  rw [tbl_eq9 m 0, W19_arg4 m 0]
  exact slice_lt (hcols 0) _ _ y
theorem tbl_at9 (c : Dev nD) (k : Fin pre9.K) : Vof (W20 m) c (pre9.ref k) = (adm9 m).1 k := by
  obtain rfl : c = 0 := Subsingleton.elim _ _
  rfl
theorem tbl_eq10 (c : Dev nD) : W22 m c main_v41 = extractStridedSlice S100000 ![900000] (W21 m c main_arg4) Shapes1.Facts₀.slices_S1600000_S100000_900000 :=
  ktbl10 (W21 m c)
attribute [local irreducible] W21 in
include hcols in
theorem tbl_lt10 : ∀ y, (((adm10 m).1 0) y).toNat < 100000 := fun y => by
  show (W22 m 0 main_v41 y).toNat < 100000
  rw [tbl_eq10 m 0, W21_arg4 m 0]
  exact slice_lt (hcols 0) _ _ y
theorem tbl_at10 (c : Dev nD) (k : Fin pre10.K) : Vof (W22 m) c (pre10.ref k) = (adm10 m).1 k := by
  obtain rfl : c = 0 := Subsingleton.elim _ _
  rfl
theorem tbl_eq11 (c : Dev nD) : W24 m c main_v45 = extractStridedSlice S100000 ![1000000] (W23 m c main_arg4) Shapes1.Facts₀.slices_S1600000_S100000_1000000 :=
  ktbl11 (W23 m c)
attribute [local irreducible] W23 in
include hcols in
theorem tbl_lt11 : ∀ y, (((adm11 m).1 0) y).toNat < 100000 := fun y => by
  show (W24 m 0 main_v45 y).toNat < 100000
  rw [tbl_eq11 m 0, W23_arg4 m 0]
  exact slice_lt (hcols 0) _ _ y
theorem tbl_at11 (c : Dev nD) (k : Fin pre11.K) : Vof (W24 m) c (pre11.ref k) = (adm11 m).1 k := by
  obtain rfl : c = 0 := Subsingleton.elim _ _
  rfl
theorem tbl_eq12 (c : Dev nD) : W26 m c main_v49 = extractStridedSlice S100000 ![1100000] (W25 m c main_arg4) Shapes1.Facts₀.slices_S1600000_S100000_1100000 :=
  ktbl12 (W25 m c)
attribute [local irreducible] W25 in
include hcols in
theorem tbl_lt12 : ∀ y, (((adm12 m).1 0) y).toNat < 100000 := fun y => by
  show (W26 m 0 main_v49 y).toNat < 100000
  rw [tbl_eq12 m 0, W25_arg4 m 0]
  exact slice_lt (hcols 0) _ _ y
theorem tbl_at12 (c : Dev nD) (k : Fin pre12.K) : Vof (W26 m) c (pre12.ref k) = (adm12 m).1 k := by
  obtain rfl : c = 0 := Subsingleton.elim _ _
  rfl
theorem tbl_eq13 (c : Dev nD) : W28 m c main_v53 = extractStridedSlice S100000 ![1200000] (W27 m c main_arg4) Shapes1.Facts₀.slices_S1600000_S100000_1200000 :=
  ktbl13 (W27 m c)
attribute [local irreducible] W27 in
include hcols in
theorem tbl_lt13 : ∀ y, (((adm13 m).1 0) y).toNat < 100000 := fun y => by
  show (W28 m 0 main_v53 y).toNat < 100000
  rw [tbl_eq13 m 0, W27_arg4 m 0]
  exact slice_lt (hcols 0) _ _ y
theorem tbl_at13 (c : Dev nD) (k : Fin pre13.K) : Vof (W28 m) c (pre13.ref k) = (adm13 m).1 k := by
  obtain rfl : c = 0 := Subsingleton.elim _ _
  rfl
theorem tbl_eq14 (c : Dev nD) : W30 m c main_v57 = extractStridedSlice S100000 ![1300000] (W29 m c main_arg4) Shapes1.Facts₀.slices_S1600000_S100000_1300000 :=
  ktbl14 (W29 m c)
attribute [local irreducible] W29 in
include hcols in
theorem tbl_lt14 : ∀ y, (((adm14 m).1 0) y).toNat < 100000 := fun y => by
  show (W30 m 0 main_v57 y).toNat < 100000
  rw [tbl_eq14 m 0, W29_arg4 m 0]
  exact slice_lt (hcols 0) _ _ y
theorem tbl_at14 (c : Dev nD) (k : Fin pre14.K) : Vof (W30 m) c (pre14.ref k) = (adm14 m).1 k := by
  obtain rfl : c = 0 := Subsingleton.elim _ _
  rfl
theorem tbl_eq15 (c : Dev nD) : W32 m c main_v61 = extractStridedSlice S100000 ![1400000] (W31 m c main_arg4) Shapes1.Facts₀.slices_S1600000_S100000_1400000 :=
  ktbl15 (W31 m c)
attribute [local irreducible] W31 in
include hcols in
theorem tbl_lt15 : ∀ y, (((adm15 m).1 0) y).toNat < 100000 := fun y => by
  show (W32 m 0 main_v61 y).toNat < 100000
  rw [tbl_eq15 m 0, W31_arg4 m 0]
  exact slice_lt (hcols 0) _ _ y
theorem tbl_at15 (c : Dev nD) (k : Fin pre15.K) : Vof (W32 m) c (pre15.ref k) = (adm15 m).1 k := by
  obtain rfl : c = 0 := Subsingleton.elim _ _
  rfl
theorem tbl_eq16 (c : Dev nD) : W34 m c main_v65 = extractStridedSlice S100000 ![1500000] (W33 m c main_arg4) Shapes1.Facts₀.slices_S1600000_S100000_1500000 :=
  ktbl16 (W33 m c)
attribute [local irreducible] W33 in
include hcols in
theorem tbl_lt16 : ∀ y, (((adm16 m).1 0) y).toNat < 100000 := fun y => by
  show (W34 m 0 main_v65 y).toNat < 100000
  rw [tbl_eq16 m 0, W33_arg4 m 0]
  exact slice_lt (hcols 0) _ _ y
theorem tbl_at16 (c : Dev nD) (k : Fin pre16.K) : Vof (W34 m) c (pre16.ref k) = (adm16 m).1 k := by
  obtain rfl : c = 0 := Subsingleton.elim _ _
  rfl
theorem tbl_eq17 (c : Dev nD) : W36 m c main_v74 = extractStridedSlice S100000 ![0] (W35 m c main_arg4) Shapes1.Facts₀.slices_S1600000_S100000_0 :=
  ktbl17 (W35 m c)
attribute [local irreducible] W35 in
include hcols in
theorem tbl_lt17 : ∀ y, (((adm17 m).1 0) y).toNat < 100000 := fun y => by
  show (W36 m 0 main_v74 y).toNat < 100000
  rw [tbl_eq17 m 0, W35_arg4 m 0]
  exact slice_lt (hcols 0) _ _ y
theorem tbl_at17 (c : Dev nD) (k : Fin pre17.K) : Vof (W36 m) c (pre17.ref k) = (adm17 m).1 k := by
  obtain rfl : c = 0 := Subsingleton.elim _ _
  rfl
theorem tbl_eq18 (c : Dev nD) : W38 m c main_v78 = extractStridedSlice S100000 ![100000] (W37 m c main_arg4) Shapes1.Facts₀.slices_S1600000_S100000_100000 :=
  ktbl18 (W37 m c)
attribute [local irreducible] W37 in
include hcols in
theorem tbl_lt18 : ∀ y, (((adm18 m).1 0) y).toNat < 100000 := fun y => by
  show (W38 m 0 main_v78 y).toNat < 100000
  rw [tbl_eq18 m 0, W37_arg4 m 0]
  exact slice_lt (hcols 0) _ _ y
theorem tbl_at18 (c : Dev nD) (k : Fin pre18.K) : Vof (W38 m) c (pre18.ref k) = (adm18 m).1 k := by
  obtain rfl : c = 0 := Subsingleton.elim _ _
  rfl
theorem tbl_eq19 (c : Dev nD) : W40 m c main_v82 = extractStridedSlice S100000 ![200000] (W39 m c main_arg4) Shapes1.Facts₀.slices_S1600000_S100000_200000 :=
  ktbl19 (W39 m c)
attribute [local irreducible] W39 in
include hcols in
theorem tbl_lt19 : ∀ y, (((adm19 m).1 0) y).toNat < 100000 := fun y => by
  show (W40 m 0 main_v82 y).toNat < 100000
  rw [tbl_eq19 m 0, W39_arg4 m 0]
  exact slice_lt (hcols 0) _ _ y
theorem tbl_at19 (c : Dev nD) (k : Fin pre19.K) : Vof (W40 m) c (pre19.ref k) = (adm19 m).1 k := by
  obtain rfl : c = 0 := Subsingleton.elim _ _
  rfl
theorem tbl_eq20 (c : Dev nD) : W42 m c main_v86 = extractStridedSlice S100000 ![300000] (W41 m c main_arg4) Shapes1.Facts₀.slices_S1600000_S100000_300000 :=
  ktbl20 (W41 m c)
attribute [local irreducible] W41 in
include hcols in
theorem tbl_lt20 : ∀ y, (((adm20 m).1 0) y).toNat < 100000 := fun y => by
  show (W42 m 0 main_v86 y).toNat < 100000
  rw [tbl_eq20 m 0, W41_arg4 m 0]
  exact slice_lt (hcols 0) _ _ y
theorem tbl_at20 (c : Dev nD) (k : Fin pre20.K) : Vof (W42 m) c (pre20.ref k) = (adm20 m).1 k := by
  obtain rfl : c = 0 := Subsingleton.elim _ _
  rfl
theorem tbl_eq21 (c : Dev nD) : W44 m c main_v90 = extractStridedSlice S100000 ![400000] (W43 m c main_arg4) Shapes1.Facts₀.slices_S1600000_S100000_400000 :=
  ktbl21 (W43 m c)
attribute [local irreducible] W43 in
include hcols in
theorem tbl_lt21 : ∀ y, (((adm21 m).1 0) y).toNat < 100000 := fun y => by
  show (W44 m 0 main_v90 y).toNat < 100000
  rw [tbl_eq21 m 0, W43_arg4 m 0]
  exact slice_lt (hcols 0) _ _ y
theorem tbl_at21 (c : Dev nD) (k : Fin pre21.K) : Vof (W44 m) c (pre21.ref k) = (adm21 m).1 k := by
  obtain rfl : c = 0 := Subsingleton.elim _ _
  rfl
theorem tbl_eq22 (c : Dev nD) : W46 m c main_v94 = extractStridedSlice S100000 ![500000] (W45 m c main_arg4) Shapes1.Facts₀.slices_S1600000_S100000_500000 :=
  ktbl22 (W45 m c)
attribute [local irreducible] W45 in
include hcols in
theorem tbl_lt22 : ∀ y, (((adm22 m).1 0) y).toNat < 100000 := fun y => by
  show (W46 m 0 main_v94 y).toNat < 100000
  rw [tbl_eq22 m 0, W45_arg4 m 0]
  exact slice_lt (hcols 0) _ _ y
theorem tbl_at22 (c : Dev nD) (k : Fin pre22.K) : Vof (W46 m) c (pre22.ref k) = (adm22 m).1 k := by
  obtain rfl : c = 0 := Subsingleton.elim _ _
  rfl
theorem tbl_eq23 (c : Dev nD) : W48 m c main_v98 = extractStridedSlice S100000 ![600000] (W47 m c main_arg4) Shapes1.Facts₀.slices_S1600000_S100000_600000 :=
  ktbl23 (W47 m c)
attribute [local irreducible] W47 in
include hcols in
theorem tbl_lt23 : ∀ y, (((adm23 m).1 0) y).toNat < 100000 := fun y => by
  show (W48 m 0 main_v98 y).toNat < 100000
  rw [tbl_eq23 m 0, W47_arg4 m 0]
  exact slice_lt (hcols 0) _ _ y
theorem tbl_at23 (c : Dev nD) (k : Fin pre23.K) : Vof (W48 m) c (pre23.ref k) = (adm23 m).1 k := by
  obtain rfl : c = 0 := Subsingleton.elim _ _
  rfl
theorem tbl_eq24 (c : Dev nD) : W50 m c main_v102 = extractStridedSlice S100000 ![700000] (W49 m c main_arg4) Shapes1.Facts₀.slices_S1600000_S100000_700000 :=
  ktbl24 (W49 m c)
attribute [local irreducible] W49 in
include hcols in
theorem tbl_lt24 : ∀ y, (((adm24 m).1 0) y).toNat < 100000 := fun y => by
  show (W50 m 0 main_v102 y).toNat < 100000
  rw [tbl_eq24 m 0, W49_arg4 m 0]
  exact slice_lt (hcols 0) _ _ y
theorem tbl_at24 (c : Dev nD) (k : Fin pre24.K) : Vof (W50 m) c (pre24.ref k) = (adm24 m).1 k := by
  obtain rfl : c = 0 := Subsingleton.elim _ _
  rfl
theorem tbl_eq25 (c : Dev nD) : W52 m c main_v106 = extractStridedSlice S100000 ![800000] (W51 m c main_arg4) Shapes1.Facts₀.slices_S1600000_S100000_800000 :=
  ktbl25 (W51 m c)
attribute [local irreducible] W51 in
include hcols in
theorem tbl_lt25 : ∀ y, (((adm25 m).1 0) y).toNat < 100000 := fun y => by
  show (W52 m 0 main_v106 y).toNat < 100000
  rw [tbl_eq25 m 0, W51_arg4 m 0]
  exact slice_lt (hcols 0) _ _ y
theorem tbl_at25 (c : Dev nD) (k : Fin pre25.K) : Vof (W52 m) c (pre25.ref k) = (adm25 m).1 k := by
  obtain rfl : c = 0 := Subsingleton.elim _ _
  rfl
theorem tbl_eq26 (c : Dev nD) : W54 m c main_v110 = extractStridedSlice S100000 ![900000] (W53 m c main_arg4) Shapes1.Facts₀.slices_S1600000_S100000_900000 :=
  ktbl26 (W53 m c)
attribute [local irreducible] W53 in
include hcols in
theorem tbl_lt26 : ∀ y, (((adm26 m).1 0) y).toNat < 100000 := fun y => by
  show (W54 m 0 main_v110 y).toNat < 100000
  rw [tbl_eq26 m 0, W53_arg4 m 0]
  exact slice_lt (hcols 0) _ _ y
theorem tbl_at26 (c : Dev nD) (k : Fin pre26.K) : Vof (W54 m) c (pre26.ref k) = (adm26 m).1 k := by
  obtain rfl : c = 0 := Subsingleton.elim _ _
  rfl
theorem tbl_eq27 (c : Dev nD) : W56 m c main_v114 = extractStridedSlice S100000 ![1000000] (W55 m c main_arg4) Shapes1.Facts₀.slices_S1600000_S100000_1000000 :=
  ktbl27 (W55 m c)
attribute [local irreducible] W55 in
include hcols in
theorem tbl_lt27 : ∀ y, (((adm27 m).1 0) y).toNat < 100000 := fun y => by
  show (W56 m 0 main_v114 y).toNat < 100000
  rw [tbl_eq27 m 0, W55_arg4 m 0]
  exact slice_lt (hcols 0) _ _ y
theorem tbl_at27 (c : Dev nD) (k : Fin pre27.K) : Vof (W56 m) c (pre27.ref k) = (adm27 m).1 k := by
  obtain rfl : c = 0 := Subsingleton.elim _ _
  rfl
theorem tbl_eq28 (c : Dev nD) : W58 m c main_v118 = extractStridedSlice S100000 ![1100000] (W57 m c main_arg4) Shapes1.Facts₀.slices_S1600000_S100000_1100000 :=
  ktbl28 (W57 m c)
attribute [local irreducible] W57 in
include hcols in
theorem tbl_lt28 : ∀ y, (((adm28 m).1 0) y).toNat < 100000 := fun y => by
  show (W58 m 0 main_v118 y).toNat < 100000
  rw [tbl_eq28 m 0, W57_arg4 m 0]
  exact slice_lt (hcols 0) _ _ y
theorem tbl_at28 (c : Dev nD) (k : Fin pre28.K) : Vof (W58 m) c (pre28.ref k) = (adm28 m).1 k := by
  obtain rfl : c = 0 := Subsingleton.elim _ _
  rfl
theorem tbl_eq29 (c : Dev nD) : W60 m c main_v122 = extractStridedSlice S100000 ![1200000] (W59 m c main_arg4) Shapes1.Facts₀.slices_S1600000_S100000_1200000 :=
  ktbl29 (W59 m c)
attribute [local irreducible] W59 in
include hcols in
theorem tbl_lt29 : ∀ y, (((adm29 m).1 0) y).toNat < 100000 := fun y => by
  show (W60 m 0 main_v122 y).toNat < 100000
  rw [tbl_eq29 m 0, W59_arg4 m 0]
  exact slice_lt (hcols 0) _ _ y
theorem tbl_at29 (c : Dev nD) (k : Fin pre29.K) : Vof (W60 m) c (pre29.ref k) = (adm29 m).1 k := by
  obtain rfl : c = 0 := Subsingleton.elim _ _
  rfl
theorem tbl_eq30 (c : Dev nD) : W62 m c main_v126 = extractStridedSlice S100000 ![1300000] (W61 m c main_arg4) Shapes1.Facts₀.slices_S1600000_S100000_1300000 :=
  ktbl30 (W61 m c)
attribute [local irreducible] W61 in
include hcols in
theorem tbl_lt30 : ∀ y, (((adm30 m).1 0) y).toNat < 100000 := fun y => by
  show (W62 m 0 main_v126 y).toNat < 100000
  rw [tbl_eq30 m 0, W61_arg4 m 0]
  exact slice_lt (hcols 0) _ _ y
theorem tbl_at30 (c : Dev nD) (k : Fin pre30.K) : Vof (W62 m) c (pre30.ref k) = (adm30 m).1 k := by
  obtain rfl : c = 0 := Subsingleton.elim _ _
  rfl
theorem tbl_eq31 (c : Dev nD) : W64 m c main_v130 = extractStridedSlice S100000 ![1400000] (W63 m c main_arg4) Shapes1.Facts₀.slices_S1600000_S100000_1400000 :=
  ktbl31 (W63 m c)
attribute [local irreducible] W63 in
include hcols in
theorem tbl_lt31 : ∀ y, (((adm31 m).1 0) y).toNat < 100000 := fun y => by
  show (W64 m 0 main_v130 y).toNat < 100000
  rw [tbl_eq31 m 0, W63_arg4 m 0]
  exact slice_lt (hcols 0) _ _ y
theorem tbl_at31 (c : Dev nD) (k : Fin pre31.K) : Vof (W64 m) c (pre31.ref k) = (adm31 m).1 k := by
  obtain rfl : c = 0 := Subsingleton.elim _ _
  rfl
theorem tbl_eq32 (c : Dev nD) : W66 m c main_v134 = extractStridedSlice S100000 ![1500000] (W65 m c main_arg4) Shapes1.Facts₀.slices_S1600000_S100000_1500000 :=
  ktbl32 (W65 m c)
attribute [local irreducible] W65 in
include hcols in
theorem tbl_lt32 : ∀ y, (((adm32 m).1 0) y).toNat < 100000 := fun y => by
  show (W66 m 0 main_v134 y).toNat < 100000
  rw [tbl_eq32 m 0, W65_arg4 m 0]
  exact slice_lt (hcols 0) _ _ y
theorem tbl_at32 (c : Dev nD) (k : Fin pre32.K) : Vof (W66 m) c (pre32.ref k) = (adm32 m).1 k := by
  obtain rfl : c = 0 := Subsingleton.elim _ _
  rfl
theorem tbl_eq33 (c : Dev nD) : W68 m c main_v143 = extractStridedSlice S100000 ![0] (W67 m c main_arg4) Shapes1.Facts₀.slices_S1600000_S100000_0 :=
  ktbl33 (W67 m c)
attribute [local irreducible] W67 in
include hcols in
theorem tbl_lt33 : ∀ y, (((adm33 m).1 0) y).toNat < 100000 := fun y => by
  show (W68 m 0 main_v143 y).toNat < 100000
  rw [tbl_eq33 m 0, W67_arg4 m 0]
  exact slice_lt (hcols 0) _ _ y
theorem tbl_at33 (c : Dev nD) (k : Fin pre33.K) : Vof (W68 m) c (pre33.ref k) = (adm33 m).1 k := by
  obtain rfl : c = 0 := Subsingleton.elim _ _
  rfl
theorem tbl_eq34 (c : Dev nD) : W70 m c main_v147 = extractStridedSlice S100000 ![100000] (W69 m c main_arg4) Shapes1.Facts₀.slices_S1600000_S100000_100000 :=
  ktbl34 (W69 m c)
attribute [local irreducible] W69 in
include hcols in
theorem tbl_lt34 : ∀ y, (((adm34 m).1 0) y).toNat < 100000 := fun y => by
  show (W70 m 0 main_v147 y).toNat < 100000
  rw [tbl_eq34 m 0, W69_arg4 m 0]
  exact slice_lt (hcols 0) _ _ y
theorem tbl_at34 (c : Dev nD) (k : Fin pre34.K) : Vof (W70 m) c (pre34.ref k) = (adm34 m).1 k := by
  obtain rfl : c = 0 := Subsingleton.elim _ _
  rfl
theorem tbl_eq35 (c : Dev nD) : W72 m c main_v151 = extractStridedSlice S100000 ![200000] (W71 m c main_arg4) Shapes1.Facts₀.slices_S1600000_S100000_200000 :=
  ktbl35 (W71 m c)
attribute [local irreducible] W71 in
include hcols in
theorem tbl_lt35 : ∀ y, (((adm35 m).1 0) y).toNat < 100000 := fun y => by
  show (W72 m 0 main_v151 y).toNat < 100000
  rw [tbl_eq35 m 0, W71_arg4 m 0]
  exact slice_lt (hcols 0) _ _ y
theorem tbl_at35 (c : Dev nD) (k : Fin pre35.K) : Vof (W72 m) c (pre35.ref k) = (adm35 m).1 k := by
  obtain rfl : c = 0 := Subsingleton.elim _ _
  rfl
theorem tbl_eq36 (c : Dev nD) : W74 m c main_v155 = extractStridedSlice S100000 ![300000] (W73 m c main_arg4) Shapes1.Facts₀.slices_S1600000_S100000_300000 :=
  ktbl36 (W73 m c)
attribute [local irreducible] W73 in
include hcols in
theorem tbl_lt36 : ∀ y, (((adm36 m).1 0) y).toNat < 100000 := fun y => by
  show (W74 m 0 main_v155 y).toNat < 100000
  rw [tbl_eq36 m 0, W73_arg4 m 0]
  exact slice_lt (hcols 0) _ _ y
theorem tbl_at36 (c : Dev nD) (k : Fin pre36.K) : Vof (W74 m) c (pre36.ref k) = (adm36 m).1 k := by
  obtain rfl : c = 0 := Subsingleton.elim _ _
  rfl
theorem tbl_eq37 (c : Dev nD) : W76 m c main_v159 = extractStridedSlice S100000 ![400000] (W75 m c main_arg4) Shapes1.Facts₀.slices_S1600000_S100000_400000 :=
  ktbl37 (W75 m c)
attribute [local irreducible] W75 in
include hcols in
theorem tbl_lt37 : ∀ y, (((adm37 m).1 0) y).toNat < 100000 := fun y => by
  show (W76 m 0 main_v159 y).toNat < 100000
  rw [tbl_eq37 m 0, W75_arg4 m 0]
  exact slice_lt (hcols 0) _ _ y
theorem tbl_at37 (c : Dev nD) (k : Fin pre37.K) : Vof (W76 m) c (pre37.ref k) = (adm37 m).1 k := by
  obtain rfl : c = 0 := Subsingleton.elim _ _
  rfl
theorem tbl_eq38 (c : Dev nD) : W78 m c main_v163 = extractStridedSlice S100000 ![500000] (W77 m c main_arg4) Shapes1.Facts₀.slices_S1600000_S100000_500000 :=
  ktbl38 (W77 m c)
attribute [local irreducible] W77 in
include hcols in
theorem tbl_lt38 : ∀ y, (((adm38 m).1 0) y).toNat < 100000 := fun y => by
  show (W78 m 0 main_v163 y).toNat < 100000
  rw [tbl_eq38 m 0, W77_arg4 m 0]
  exact slice_lt (hcols 0) _ _ y
theorem tbl_at38 (c : Dev nD) (k : Fin pre38.K) : Vof (W78 m) c (pre38.ref k) = (adm38 m).1 k := by
  obtain rfl : c = 0 := Subsingleton.elim _ _
  rfl
theorem tbl_eq39 (c : Dev nD) : W80 m c main_v167 = extractStridedSlice S100000 ![600000] (W79 m c main_arg4) Shapes1.Facts₀.slices_S1600000_S100000_600000 :=
  ktbl39 (W79 m c)
attribute [local irreducible] W79 in
include hcols in
theorem tbl_lt39 : ∀ y, (((adm39 m).1 0) y).toNat < 100000 := fun y => by
  show (W80 m 0 main_v167 y).toNat < 100000
  rw [tbl_eq39 m 0, W79_arg4 m 0]
  exact slice_lt (hcols 0) _ _ y
theorem tbl_at39 (c : Dev nD) (k : Fin pre39.K) : Vof (W80 m) c (pre39.ref k) = (adm39 m).1 k := by
  obtain rfl : c = 0 := Subsingleton.elim _ _
  rfl
theorem tbl_eq40 (c : Dev nD) : W82 m c main_v171 = extractStridedSlice S100000 ![700000] (W81 m c main_arg4) Shapes1.Facts₀.slices_S1600000_S100000_700000 :=
  ktbl40 (W81 m c)
attribute [local irreducible] W81 in
include hcols in
theorem tbl_lt40 : ∀ y, (((adm40 m).1 0) y).toNat < 100000 := fun y => by
  show (W82 m 0 main_v171 y).toNat < 100000
  rw [tbl_eq40 m 0, W81_arg4 m 0]
  exact slice_lt (hcols 0) _ _ y
theorem tbl_at40 (c : Dev nD) (k : Fin pre40.K) : Vof (W82 m) c (pre40.ref k) = (adm40 m).1 k := by
  obtain rfl : c = 0 := Subsingleton.elim _ _
  rfl
theorem tbl_eq41 (c : Dev nD) : W84 m c main_v175 = extractStridedSlice S100000 ![800000] (W83 m c main_arg4) Shapes1.Facts₀.slices_S1600000_S100000_800000 :=
  ktbl41 (W83 m c)
attribute [local irreducible] W83 in
include hcols in
theorem tbl_lt41 : ∀ y, (((adm41 m).1 0) y).toNat < 100000 := fun y => by
  show (W84 m 0 main_v175 y).toNat < 100000
  rw [tbl_eq41 m 0, W83_arg4 m 0]
  exact slice_lt (hcols 0) _ _ y
theorem tbl_at41 (c : Dev nD) (k : Fin pre41.K) : Vof (W84 m) c (pre41.ref k) = (adm41 m).1 k := by
  obtain rfl : c = 0 := Subsingleton.elim _ _
  rfl
theorem tbl_eq42 (c : Dev nD) : W86 m c main_v179 = extractStridedSlice S100000 ![900000] (W85 m c main_arg4) Shapes1.Facts₀.slices_S1600000_S100000_900000 :=
  ktbl42 (W85 m c)
attribute [local irreducible] W85 in
include hcols in
theorem tbl_lt42 : ∀ y, (((adm42 m).1 0) y).toNat < 100000 := fun y => by
  show (W86 m 0 main_v179 y).toNat < 100000
  rw [tbl_eq42 m 0, W85_arg4 m 0]
  exact slice_lt (hcols 0) _ _ y
theorem tbl_at42 (c : Dev nD) (k : Fin pre42.K) : Vof (W86 m) c (pre42.ref k) = (adm42 m).1 k := by
  obtain rfl : c = 0 := Subsingleton.elim _ _
  rfl
theorem tbl_eq43 (c : Dev nD) : W88 m c main_v183 = extractStridedSlice S100000 ![1000000] (W87 m c main_arg4) Shapes1.Facts₀.slices_S1600000_S100000_1000000 :=
  ktbl43 (W87 m c)
attribute [local irreducible] W87 in
include hcols in
theorem tbl_lt43 : ∀ y, (((adm43 m).1 0) y).toNat < 100000 := fun y => by
  show (W88 m 0 main_v183 y).toNat < 100000
  rw [tbl_eq43 m 0, W87_arg4 m 0]
  exact slice_lt (hcols 0) _ _ y
theorem tbl_at43 (c : Dev nD) (k : Fin pre43.K) : Vof (W88 m) c (pre43.ref k) = (adm43 m).1 k := by
  obtain rfl : c = 0 := Subsingleton.elim _ _
  rfl
theorem tbl_eq44 (c : Dev nD) : W90 m c main_v187 = extractStridedSlice S100000 ![1100000] (W89 m c main_arg4) Shapes1.Facts₀.slices_S1600000_S100000_1100000 :=
  ktbl44 (W89 m c)
attribute [local irreducible] W89 in
include hcols in
theorem tbl_lt44 : ∀ y, (((adm44 m).1 0) y).toNat < 100000 := fun y => by
  show (W90 m 0 main_v187 y).toNat < 100000
  rw [tbl_eq44 m 0, W89_arg4 m 0]
  exact slice_lt (hcols 0) _ _ y
theorem tbl_at44 (c : Dev nD) (k : Fin pre44.K) : Vof (W90 m) c (pre44.ref k) = (adm44 m).1 k := by
  obtain rfl : c = 0 := Subsingleton.elim _ _
  rfl
theorem tbl_eq45 (c : Dev nD) : W92 m c main_v191 = extractStridedSlice S100000 ![1200000] (W91 m c main_arg4) Shapes1.Facts₀.slices_S1600000_S100000_1200000 :=
  ktbl45 (W91 m c)
attribute [local irreducible] W91 in
include hcols in
theorem tbl_lt45 : ∀ y, (((adm45 m).1 0) y).toNat < 100000 := fun y => by
  show (W92 m 0 main_v191 y).toNat < 100000
  rw [tbl_eq45 m 0, W91_arg4 m 0]
  exact slice_lt (hcols 0) _ _ y
theorem tbl_at45 (c : Dev nD) (k : Fin pre45.K) : Vof (W92 m) c (pre45.ref k) = (adm45 m).1 k := by
  obtain rfl : c = 0 := Subsingleton.elim _ _
  rfl
theorem tbl_eq46 (c : Dev nD) : W94 m c main_v195 = extractStridedSlice S100000 ![1300000] (W93 m c main_arg4) Shapes1.Facts₀.slices_S1600000_S100000_1300000 :=
  ktbl46 (W93 m c)
attribute [local irreducible] W93 in
include hcols in
theorem tbl_lt46 : ∀ y, (((adm46 m).1 0) y).toNat < 100000 := fun y => by
  show (W94 m 0 main_v195 y).toNat < 100000
  rw [tbl_eq46 m 0, W93_arg4 m 0]
  exact slice_lt (hcols 0) _ _ y
theorem tbl_at46 (c : Dev nD) (k : Fin pre46.K) : Vof (W94 m) c (pre46.ref k) = (adm46 m).1 k := by
  obtain rfl : c = 0 := Subsingleton.elim _ _
  rfl
theorem tbl_eq47 (c : Dev nD) : W96 m c main_v199 = extractStridedSlice S100000 ![1400000] (W95 m c main_arg4) Shapes1.Facts₀.slices_S1600000_S100000_1400000 :=
  ktbl47 (W95 m c)
attribute [local irreducible] W95 in
include hcols in
theorem tbl_lt47 : ∀ y, (((adm47 m).1 0) y).toNat < 100000 := fun y => by
  show (W96 m 0 main_v199 y).toNat < 100000
  rw [tbl_eq47 m 0, W95_arg4 m 0]
  exact slice_lt (hcols 0) _ _ y
theorem tbl_at47 (c : Dev nD) (k : Fin pre47.K) : Vof (W96 m) c (pre47.ref k) = (adm47 m).1 k := by
  obtain rfl : c = 0 := Subsingleton.elim _ _
  rfl
theorem tbl_eq48 (c : Dev nD) : W98 m c main_v203 = extractStridedSlice S100000 ![1500000] (W97 m c main_arg4) Shapes1.Facts₀.slices_S1600000_S100000_1500000 :=
  ktbl48 (W97 m c)
attribute [local irreducible] W97 in
include hcols in
theorem tbl_lt48 : ∀ y, (((adm48 m).1 0) y).toNat < 100000 := fun y => by
  show (W98 m 0 main_v203 y).toNat < 100000
  rw [tbl_eq48 m 0, W97_arg4 m 0]
  exact slice_lt (hcols 0) _ _ y
theorem tbl_at48 (c : Dev nD) (k : Fin pre48.K) : Vof (W98 m) c (pre48.ref k) = (adm48 m).1 k := by
  obtain rfl : c = 0 := Subsingleton.elim _ _
  rfl

end Cert.Kernel.Hand

end
-- ==== Proof.K.Regs.lean ====
/-
  The 49 kernel regions as segments of the launch: each entered from its boundary's contents and left at the next
  boundary's, its body obligation from the one body run (the table's words rows of the node table, by the precondition).
-/
import proofs.«421643_j28415503630349_2_alg».proof.Proof.K.Pdats
import proofs.«421643_j28415503630349_2_alg».proof.Proof.K.Tables

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

variable (m : (ℓ : Loc nD τ sig) → Buf (Elt F) ℓ)

variable (hcols : ∀ (c : Dev nD) (e : S1600000.Idx), (m ((c.tc : Thread nD τ).loc main_arg4) e).toNat < 100000)

def R0 : Pipeline.RegionSeg (pcfgs (F := F)) (adm m) (pdats m) () defs₀ 𝒱₀ L lv (0 : Fin 49) :=
  reg0 (adm m) (pdats m) (W2 m) (fun _ => rfl)
def R1 : Pipeline.RegionSeg (pcfgs (F := F)) (adm m) (pdats m) () defs₀ 𝒱₀ L lv (1 : Fin 49) :=
  reg1 (W4 m) (adm m) (outBlk1 (Vof (W4 m)) (adm1 m)) (pdats m) (fun _ => rfl) (tbl_at1 m)
    (fun c => bodyObligationOut1 (Vof (W4 m)) (adm1 m) (tbl_lt1 m hcols) c)
def R2 : Pipeline.RegionSeg (pcfgs (F := F)) (adm m) (pdats m) () defs₀ 𝒱₀ L lv (2 : Fin 49) :=
  reg2 (W6 m) (adm m) (outBlk2 (Vof (W6 m)) (adm2 m)) (pdats m) (fun _ => rfl) (tbl_at2 m)
    (fun c => bodyObligationOut2 (Vof (W6 m)) (adm2 m) (tbl_lt2 m hcols) c)
def R3 : Pipeline.RegionSeg (pcfgs (F := F)) (adm m) (pdats m) () defs₀ 𝒱₀ L lv (3 : Fin 49) :=
  reg3 (W8 m) (adm m) (outBlk3 (Vof (W8 m)) (adm3 m)) (pdats m) (fun _ => rfl) (tbl_at3 m)
    (fun c => bodyObligationOut3 (Vof (W8 m)) (adm3 m) (tbl_lt3 m hcols) c)
def R4 : Pipeline.RegionSeg (pcfgs (F := F)) (adm m) (pdats m) () defs₀ 𝒱₀ L lv (4 : Fin 49) :=
  reg4 (W10 m) (adm m) (outBlk4 (Vof (W10 m)) (adm4 m)) (pdats m) (fun _ => rfl) (tbl_at4 m)
    (fun c => bodyObligationOut4 (Vof (W10 m)) (adm4 m) (tbl_lt4 m hcols) c)
def R5 : Pipeline.RegionSeg (pcfgs (F := F)) (adm m) (pdats m) () defs₀ 𝒱₀ L lv (5 : Fin 49) :=
  reg5 (W12 m) (adm m) (outBlk5 (Vof (W12 m)) (adm5 m)) (pdats m) (fun _ => rfl) (tbl_at5 m)
    (fun c => bodyObligationOut5 (Vof (W12 m)) (adm5 m) (tbl_lt5 m hcols) c)
def R6 : Pipeline.RegionSeg (pcfgs (F := F)) (adm m) (pdats m) () defs₀ 𝒱₀ L lv (6 : Fin 49) :=
  reg6 (W14 m) (adm m) (outBlk6 (Vof (W14 m)) (adm6 m)) (pdats m) (fun _ => rfl) (tbl_at6 m)
    (fun c => bodyObligationOut6 (Vof (W14 m)) (adm6 m) (tbl_lt6 m hcols) c)
def R7 : Pipeline.RegionSeg (pcfgs (F := F)) (adm m) (pdats m) () defs₀ 𝒱₀ L lv (7 : Fin 49) :=
  reg7 (W16 m) (adm m) (outBlk7 (Vof (W16 m)) (adm7 m)) (pdats m) (fun _ => rfl) (tbl_at7 m)
    (fun c => bodyObligationOut7 (Vof (W16 m)) (adm7 m) (tbl_lt7 m hcols) c)
def R8 : Pipeline.RegionSeg (pcfgs (F := F)) (adm m) (pdats m) () defs₀ 𝒱₀ L lv (8 : Fin 49) :=
  reg8 (W18 m) (adm m) (outBlk8 (Vof (W18 m)) (adm8 m)) (pdats m) (fun _ => rfl) (tbl_at8 m)
    (fun c => bodyObligationOut8 (Vof (W18 m)) (adm8 m) (tbl_lt8 m hcols) c)
def R9 : Pipeline.RegionSeg (pcfgs (F := F)) (adm m) (pdats m) () defs₀ 𝒱₀ L lv (9 : Fin 49) :=
  reg9 (W20 m) (adm m) (outBlk9 (Vof (W20 m)) (adm9 m)) (pdats m) (fun _ => rfl) (tbl_at9 m)
    (fun c => bodyObligationOut9 (Vof (W20 m)) (adm9 m) (tbl_lt9 m hcols) c)
def R10 : Pipeline.RegionSeg (pcfgs (F := F)) (adm m) (pdats m) () defs₀ 𝒱₀ L lv (10 : Fin 49) :=
  reg10 (W22 m) (adm m) (outBlk10 (Vof (W22 m)) (adm10 m)) (pdats m) (fun _ => rfl) (tbl_at10 m)
    (fun c => bodyObligationOut10 (Vof (W22 m)) (adm10 m) (tbl_lt10 m hcols) c)
def R11 : Pipeline.RegionSeg (pcfgs (F := F)) (adm m) (pdats m) () defs₀ 𝒱₀ L lv (11 : Fin 49) :=
  reg11 (W24 m) (adm m) (outBlk11 (Vof (W24 m)) (adm11 m)) (pdats m) (fun _ => rfl) (tbl_at11 m)
    (fun c => bodyObligationOut11 (Vof (W24 m)) (adm11 m) (tbl_lt11 m hcols) c)
def R12 : Pipeline.RegionSeg (pcfgs (F := F)) (adm m) (pdats m) () defs₀ 𝒱₀ L lv (12 : Fin 49) :=
  reg12 (W26 m) (adm m) (outBlk12 (Vof (W26 m)) (adm12 m)) (pdats m) (fun _ => rfl) (tbl_at12 m)
    (fun c => bodyObligationOut12 (Vof (W26 m)) (adm12 m) (tbl_lt12 m hcols) c)
def R13 : Pipeline.RegionSeg (pcfgs (F := F)) (adm m) (pdats m) () defs₀ 𝒱₀ L lv (13 : Fin 49) :=
  reg13 (W28 m) (adm m) (outBlk13 (Vof (W28 m)) (adm13 m)) (pdats m) (fun _ => rfl) (tbl_at13 m)
    (fun c => bodyObligationOut13 (Vof (W28 m)) (adm13 m) (tbl_lt13 m hcols) c)
def R14 : Pipeline.RegionSeg (pcfgs (F := F)) (adm m) (pdats m) () defs₀ 𝒱₀ L lv (14 : Fin 49) :=
  reg14 (W30 m) (adm m) (outBlk14 (Vof (W30 m)) (adm14 m)) (pdats m) (fun _ => rfl) (tbl_at14 m)
    (fun c => bodyObligationOut14 (Vof (W30 m)) (adm14 m) (tbl_lt14 m hcols) c)
def R15 : Pipeline.RegionSeg (pcfgs (F := F)) (adm m) (pdats m) () defs₀ 𝒱₀ L lv (15 : Fin 49) :=
  reg15 (W32 m) (adm m) (outBlk15 (Vof (W32 m)) (adm15 m)) (pdats m) (fun _ => rfl) (tbl_at15 m)
    (fun c => bodyObligationOut15 (Vof (W32 m)) (adm15 m) (tbl_lt15 m hcols) c)
def R16 : Pipeline.RegionSeg (pcfgs (F := F)) (adm m) (pdats m) () defs₀ 𝒱₀ L lv (16 : Fin 49) :=
  reg16 (W34 m) (adm m) (outBlk16 (Vof (W34 m)) (adm16 m)) (pdats m) (fun _ => rfl) (tbl_at16 m)
    (fun c => bodyObligationOut16 (Vof (W34 m)) (adm16 m) (tbl_lt16 m hcols) c)
def R17 : Pipeline.RegionSeg (pcfgs (F := F)) (adm m) (pdats m) () defs₀ 𝒱₀ L lv (17 : Fin 49) :=
  reg17 (W36 m) (adm m) (outBlk17 (Vof (W36 m)) (adm17 m)) (pdats m) (fun _ => rfl) (tbl_at17 m)
    (fun c => bodyObligationOut17 (Vof (W36 m)) (adm17 m) (tbl_lt17 m hcols) c)
def R18 : Pipeline.RegionSeg (pcfgs (F := F)) (adm m) (pdats m) () defs₀ 𝒱₀ L lv (18 : Fin 49) :=
  reg18 (W38 m) (adm m) (outBlk18 (Vof (W38 m)) (adm18 m)) (pdats m) (fun _ => rfl) (tbl_at18 m)
    (fun c => bodyObligationOut18 (Vof (W38 m)) (adm18 m) (tbl_lt18 m hcols) c)
def R19 : Pipeline.RegionSeg (pcfgs (F := F)) (adm m) (pdats m) () defs₀ 𝒱₀ L lv (19 : Fin 49) :=
  reg19 (W40 m) (adm m) (outBlk19 (Vof (W40 m)) (adm19 m)) (pdats m) (fun _ => rfl) (tbl_at19 m)
    (fun c => bodyObligationOut19 (Vof (W40 m)) (adm19 m) (tbl_lt19 m hcols) c)
def R20 : Pipeline.RegionSeg (pcfgs (F := F)) (adm m) (pdats m) () defs₀ 𝒱₀ L lv (20 : Fin 49) :=
  reg20 (W42 m) (adm m) (outBlk20 (Vof (W42 m)) (adm20 m)) (pdats m) (fun _ => rfl) (tbl_at20 m)
    (fun c => bodyObligationOut20 (Vof (W42 m)) (adm20 m) (tbl_lt20 m hcols) c)
def R21 : Pipeline.RegionSeg (pcfgs (F := F)) (adm m) (pdats m) () defs₀ 𝒱₀ L lv (21 : Fin 49) :=
  reg21 (W44 m) (adm m) (outBlk21 (Vof (W44 m)) (adm21 m)) (pdats m) (fun _ => rfl) (tbl_at21 m)
    (fun c => bodyObligationOut21 (Vof (W44 m)) (adm21 m) (tbl_lt21 m hcols) c)
def R22 : Pipeline.RegionSeg (pcfgs (F := F)) (adm m) (pdats m) () defs₀ 𝒱₀ L lv (22 : Fin 49) :=
  reg22 (W46 m) (adm m) (outBlk22 (Vof (W46 m)) (adm22 m)) (pdats m) (fun _ => rfl) (tbl_at22 m)
    (fun c => bodyObligationOut22 (Vof (W46 m)) (adm22 m) (tbl_lt22 m hcols) c)
def R23 : Pipeline.RegionSeg (pcfgs (F := F)) (adm m) (pdats m) () defs₀ 𝒱₀ L lv (23 : Fin 49) :=
  reg23 (W48 m) (adm m) (outBlk23 (Vof (W48 m)) (adm23 m)) (pdats m) (fun _ => rfl) (tbl_at23 m)
    (fun c => bodyObligationOut23 (Vof (W48 m)) (adm23 m) (tbl_lt23 m hcols) c)
def R24 : Pipeline.RegionSeg (pcfgs (F := F)) (adm m) (pdats m) () defs₀ 𝒱₀ L lv (24 : Fin 49) :=
  reg24 (W50 m) (adm m) (outBlk24 (Vof (W50 m)) (adm24 m)) (pdats m) (fun _ => rfl) (tbl_at24 m)
    (fun c => bodyObligationOut24 (Vof (W50 m)) (adm24 m) (tbl_lt24 m hcols) c)
def R25 : Pipeline.RegionSeg (pcfgs (F := F)) (adm m) (pdats m) () defs₀ 𝒱₀ L lv (25 : Fin 49) :=
  reg25 (W52 m) (adm m) (outBlk25 (Vof (W52 m)) (adm25 m)) (pdats m) (fun _ => rfl) (tbl_at25 m)
    (fun c => bodyObligationOut25 (Vof (W52 m)) (adm25 m) (tbl_lt25 m hcols) c)
def R26 : Pipeline.RegionSeg (pcfgs (F := F)) (adm m) (pdats m) () defs₀ 𝒱₀ L lv (26 : Fin 49) :=
  reg26 (W54 m) (adm m) (outBlk26 (Vof (W54 m)) (adm26 m)) (pdats m) (fun _ => rfl) (tbl_at26 m)
    (fun c => bodyObligationOut26 (Vof (W54 m)) (adm26 m) (tbl_lt26 m hcols) c)
def R27 : Pipeline.RegionSeg (pcfgs (F := F)) (adm m) (pdats m) () defs₀ 𝒱₀ L lv (27 : Fin 49) :=
  reg27 (W56 m) (adm m) (outBlk27 (Vof (W56 m)) (adm27 m)) (pdats m) (fun _ => rfl) (tbl_at27 m)
    (fun c => bodyObligationOut27 (Vof (W56 m)) (adm27 m) (tbl_lt27 m hcols) c)
def R28 : Pipeline.RegionSeg (pcfgs (F := F)) (adm m) (pdats m) () defs₀ 𝒱₀ L lv (28 : Fin 49) :=
  reg28 (W58 m) (adm m) (outBlk28 (Vof (W58 m)) (adm28 m)) (pdats m) (fun _ => rfl) (tbl_at28 m)
    (fun c => bodyObligationOut28 (Vof (W58 m)) (adm28 m) (tbl_lt28 m hcols) c)
def R29 : Pipeline.RegionSeg (pcfgs (F := F)) (adm m) (pdats m) () defs₀ 𝒱₀ L lv (29 : Fin 49) :=
  reg29 (W60 m) (adm m) (outBlk29 (Vof (W60 m)) (adm29 m)) (pdats m) (fun _ => rfl) (tbl_at29 m)
    (fun c => bodyObligationOut29 (Vof (W60 m)) (adm29 m) (tbl_lt29 m hcols) c)
def R30 : Pipeline.RegionSeg (pcfgs (F := F)) (adm m) (pdats m) () defs₀ 𝒱₀ L lv (30 : Fin 49) :=
  reg30 (W62 m) (adm m) (outBlk30 (Vof (W62 m)) (adm30 m)) (pdats m) (fun _ => rfl) (tbl_at30 m)
    (fun c => bodyObligationOut30 (Vof (W62 m)) (adm30 m) (tbl_lt30 m hcols) c)
def R31 : Pipeline.RegionSeg (pcfgs (F := F)) (adm m) (pdats m) () defs₀ 𝒱₀ L lv (31 : Fin 49) :=
  reg31 (W64 m) (adm m) (outBlk31 (Vof (W64 m)) (adm31 m)) (pdats m) (fun _ => rfl) (tbl_at31 m)
    (fun c => bodyObligationOut31 (Vof (W64 m)) (adm31 m) (tbl_lt31 m hcols) c)
def R32 : Pipeline.RegionSeg (pcfgs (F := F)) (adm m) (pdats m) () defs₀ 𝒱₀ L lv (32 : Fin 49) :=
  reg32 (W66 m) (adm m) (outBlk32 (Vof (W66 m)) (adm32 m)) (pdats m) (fun _ => rfl) (tbl_at32 m)
    (fun c => bodyObligationOut32 (Vof (W66 m)) (adm32 m) (tbl_lt32 m hcols) c)
def R33 : Pipeline.RegionSeg (pcfgs (F := F)) (adm m) (pdats m) () defs₀ 𝒱₀ L lv (33 : Fin 49) :=
  reg33 (W68 m) (adm m) (outBlk33 (Vof (W68 m)) (adm33 m)) (pdats m) (fun _ => rfl) (tbl_at33 m)
    (fun c => bodyObligationOut33 (Vof (W68 m)) (adm33 m) (tbl_lt33 m hcols) c)
def R34 : Pipeline.RegionSeg (pcfgs (F := F)) (adm m) (pdats m) () defs₀ 𝒱₀ L lv (34 : Fin 49) :=
  reg34 (W70 m) (adm m) (outBlk34 (Vof (W70 m)) (adm34 m)) (pdats m) (fun _ => rfl) (tbl_at34 m)
    (fun c => bodyObligationOut34 (Vof (W70 m)) (adm34 m) (tbl_lt34 m hcols) c)
def R35 : Pipeline.RegionSeg (pcfgs (F := F)) (adm m) (pdats m) () defs₀ 𝒱₀ L lv (35 : Fin 49) :=
  reg35 (W72 m) (adm m) (outBlk35 (Vof (W72 m)) (adm35 m)) (pdats m) (fun _ => rfl) (tbl_at35 m)
    (fun c => bodyObligationOut35 (Vof (W72 m)) (adm35 m) (tbl_lt35 m hcols) c)
def R36 : Pipeline.RegionSeg (pcfgs (F := F)) (adm m) (pdats m) () defs₀ 𝒱₀ L lv (36 : Fin 49) :=
  reg36 (W74 m) (adm m) (outBlk36 (Vof (W74 m)) (adm36 m)) (pdats m) (fun _ => rfl) (tbl_at36 m)
    (fun c => bodyObligationOut36 (Vof (W74 m)) (adm36 m) (tbl_lt36 m hcols) c)
def R37 : Pipeline.RegionSeg (pcfgs (F := F)) (adm m) (pdats m) () defs₀ 𝒱₀ L lv (37 : Fin 49) :=
  reg37 (W76 m) (adm m) (outBlk37 (Vof (W76 m)) (adm37 m)) (pdats m) (fun _ => rfl) (tbl_at37 m)
    (fun c => bodyObligationOut37 (Vof (W76 m)) (adm37 m) (tbl_lt37 m hcols) c)
def R38 : Pipeline.RegionSeg (pcfgs (F := F)) (adm m) (pdats m) () defs₀ 𝒱₀ L lv (38 : Fin 49) :=
  reg38 (W78 m) (adm m) (outBlk38 (Vof (W78 m)) (adm38 m)) (pdats m) (fun _ => rfl) (tbl_at38 m)
    (fun c => bodyObligationOut38 (Vof (W78 m)) (adm38 m) (tbl_lt38 m hcols) c)
def R39 : Pipeline.RegionSeg (pcfgs (F := F)) (adm m) (pdats m) () defs₀ 𝒱₀ L lv (39 : Fin 49) :=
  reg39 (W80 m) (adm m) (outBlk39 (Vof (W80 m)) (adm39 m)) (pdats m) (fun _ => rfl) (tbl_at39 m)
    (fun c => bodyObligationOut39 (Vof (W80 m)) (adm39 m) (tbl_lt39 m hcols) c)
def R40 : Pipeline.RegionSeg (pcfgs (F := F)) (adm m) (pdats m) () defs₀ 𝒱₀ L lv (40 : Fin 49) :=
  reg40 (W82 m) (adm m) (outBlk40 (Vof (W82 m)) (adm40 m)) (pdats m) (fun _ => rfl) (tbl_at40 m)
    (fun c => bodyObligationOut40 (Vof (W82 m)) (adm40 m) (tbl_lt40 m hcols) c)
def R41 : Pipeline.RegionSeg (pcfgs (F := F)) (adm m) (pdats m) () defs₀ 𝒱₀ L lv (41 : Fin 49) :=
  reg41 (W84 m) (adm m) (outBlk41 (Vof (W84 m)) (adm41 m)) (pdats m) (fun _ => rfl) (tbl_at41 m)
    (fun c => bodyObligationOut41 (Vof (W84 m)) (adm41 m) (tbl_lt41 m hcols) c)
def R42 : Pipeline.RegionSeg (pcfgs (F := F)) (adm m) (pdats m) () defs₀ 𝒱₀ L lv (42 : Fin 49) :=
  reg42 (W86 m) (adm m) (outBlk42 (Vof (W86 m)) (adm42 m)) (pdats m) (fun _ => rfl) (tbl_at42 m)
    (fun c => bodyObligationOut42 (Vof (W86 m)) (adm42 m) (tbl_lt42 m hcols) c)
def R43 : Pipeline.RegionSeg (pcfgs (F := F)) (adm m) (pdats m) () defs₀ 𝒱₀ L lv (43 : Fin 49) :=
  reg43 (W88 m) (adm m) (outBlk43 (Vof (W88 m)) (adm43 m)) (pdats m) (fun _ => rfl) (tbl_at43 m)
    (fun c => bodyObligationOut43 (Vof (W88 m)) (adm43 m) (tbl_lt43 m hcols) c)
def R44 : Pipeline.RegionSeg (pcfgs (F := F)) (adm m) (pdats m) () defs₀ 𝒱₀ L lv (44 : Fin 49) :=
  reg44 (W90 m) (adm m) (outBlk44 (Vof (W90 m)) (adm44 m)) (pdats m) (fun _ => rfl) (tbl_at44 m)
    (fun c => bodyObligationOut44 (Vof (W90 m)) (adm44 m) (tbl_lt44 m hcols) c)
def R45 : Pipeline.RegionSeg (pcfgs (F := F)) (adm m) (pdats m) () defs₀ 𝒱₀ L lv (45 : Fin 49) :=
  reg45 (W92 m) (adm m) (outBlk45 (Vof (W92 m)) (adm45 m)) (pdats m) (fun _ => rfl) (tbl_at45 m)
    (fun c => bodyObligationOut45 (Vof (W92 m)) (adm45 m) (tbl_lt45 m hcols) c)
def R46 : Pipeline.RegionSeg (pcfgs (F := F)) (adm m) (pdats m) () defs₀ 𝒱₀ L lv (46 : Fin 49) :=
  reg46 (W94 m) (adm m) (outBlk46 (Vof (W94 m)) (adm46 m)) (pdats m) (fun _ => rfl) (tbl_at46 m)
    (fun c => bodyObligationOut46 (Vof (W94 m)) (adm46 m) (tbl_lt46 m hcols) c)
def R47 : Pipeline.RegionSeg (pcfgs (F := F)) (adm m) (pdats m) () defs₀ 𝒱₀ L lv (47 : Fin 49) :=
  reg47 (W96 m) (adm m) (outBlk47 (Vof (W96 m)) (adm47 m)) (pdats m) (fun _ => rfl) (tbl_at47 m)
    (fun c => bodyObligationOut47 (Vof (W96 m)) (adm47 m) (tbl_lt47 m hcols) c)
def R48 : Pipeline.RegionSeg (pcfgs (F := F)) (adm m) (pdats m) () defs₀ 𝒱₀ L lv (48 : Fin 49) :=
  reg48 (W98 m) (adm m) (outBlk48 (Vof (W98 m)) (adm48 m)) (pdats m) (fun _ => rfl) (tbl_at48 m)
    (fun c => bodyObligationOut48 (Vof (W98 m)) (adm48 m) (tbl_lt48 m hcols) c)

end Cert.Kernel.Hand

end
-- ==== Proof.K.Run.lean ====
/-
  The launch: @main as its 100 segments in order (51 stretches of host operations, 49 kernel regions), run from the
  launch memory under the precondition on the column indices; at the end every unscoped buffer holds the last
  boundary's contents.
-/
import proofs.«421643_j28415503630349_2_alg».proof.Proof.K.Regs

set_option maxRecDepth 65536

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

variable (m : (ℓ : Loc nD τ sig) → Buf (Elt F) ℓ)

variable (ρ : Dev nD → PrngReg)
variable (hcols : ∀ (c : Dev nD) (e : S1600000.Idx), (m ((c.tc : Thread nD τ).loc main_arg4) e).toNat < 100000)

abbrev segs : List (Pipeline.Seg (pcfgs (F := F)) (adm m) (pdats m) () defs₀ 𝒱₀ L lv) :=
  [
    .host (hseg hostOps0 hostOps0_sub hostOps0_fresh (W0 m)),
    .host (hseg hostOps0_1 hostOps0_1_sub hostOps0_1_fresh (W1 m)),
    .region (R0 m),
    .host (hseg hostOps1 hostOps1_sub hostOps1_fresh (W3 m)),
    .region (R1 m hcols),
    .host (hseg hostOps2 hostOps2_sub hostOps2_fresh (W5 m)),
    .region (R2 m hcols),
    .host (hseg hostOps3 hostOps3_sub hostOps3_fresh (W7 m)),
    .region (R3 m hcols),
    .host (hseg hostOps4 hostOps4_sub hostOps4_fresh (W9 m)),
    .region (R4 m hcols),
    .host (hseg hostOps5 hostOps5_sub hostOps5_fresh (W11 m)),
    .region (R5 m hcols),
    .host (hseg hostOps6 hostOps6_sub hostOps6_fresh (W13 m)),
    .region (R6 m hcols),
    .host (hseg hostOps7 hostOps7_sub hostOps7_fresh (W15 m)),
    .region (R7 m hcols),
    .host (hseg hostOps8 hostOps8_sub hostOps8_fresh (W17 m)),
    .region (R8 m hcols),
    .host (hseg hostOps9 hostOps9_sub hostOps9_fresh (W19 m)),
    .region (R9 m hcols),
    .host (hseg hostOps10 hostOps10_sub hostOps10_fresh (W21 m)),
    .region (R10 m hcols),
    .host (hseg hostOps11 hostOps11_sub hostOps11_fresh (W23 m)),
    .region (R11 m hcols),
    .host (hseg hostOps12 hostOps12_sub hostOps12_fresh (W25 m)),
    .region (R12 m hcols),
    .host (hseg hostOps13 hostOps13_sub hostOps13_fresh (W27 m)),
    .region (R13 m hcols),
    .host (hseg hostOps14 hostOps14_sub hostOps14_fresh (W29 m)),
    .region (R14 m hcols),
    .host (hseg hostOps15 hostOps15_sub hostOps15_fresh (W31 m)),
    .region (R15 m hcols),
    .host (hseg hostOps16 hostOps16_sub hostOps16_fresh (W33 m)),
    .region (R16 m hcols),
    .host (hseg hostOps17 hostOps17_sub hostOps17_fresh (W35 m)),
    .region (R17 m hcols),
    .host (hseg hostOps18 hostOps18_sub hostOps18_fresh (W37 m)),
    .region (R18 m hcols),
    .host (hseg hostOps19 hostOps19_sub hostOps19_fresh (W39 m)),
    .region (R19 m hcols),
    .host (hseg hostOps20 hostOps20_sub hostOps20_fresh (W41 m)),
    .region (R20 m hcols),
    .host (hseg hostOps21 hostOps21_sub hostOps21_fresh (W43 m)),
    .region (R21 m hcols),
    .host (hseg hostOps22 hostOps22_sub hostOps22_fresh (W45 m)),
    .region (R22 m hcols),
    .host (hseg hostOps23 hostOps23_sub hostOps23_fresh (W47 m)),
    .region (R23 m hcols),
    .host (hseg hostOps24 hostOps24_sub hostOps24_fresh (W49 m)),
    .region (R24 m hcols),
    .host (hseg hostOps25 hostOps25_sub hostOps25_fresh (W51 m)),
    .region (R25 m hcols),
    .host (hseg hostOps26 hostOps26_sub hostOps26_fresh (W53 m)),
    .region (R26 m hcols),
    .host (hseg hostOps27 hostOps27_sub hostOps27_fresh (W55 m)),
    .region (R27 m hcols),
    .host (hseg hostOps28 hostOps28_sub hostOps28_fresh (W57 m)),
    .region (R28 m hcols),
    .host (hseg hostOps29 hostOps29_sub hostOps29_fresh (W59 m)),
    .region (R29 m hcols),
    .host (hseg hostOps30 hostOps30_sub hostOps30_fresh (W61 m)),
    .region (R30 m hcols),
    .host (hseg hostOps31 hostOps31_sub hostOps31_fresh (W63 m)),
    .region (R31 m hcols),
    .host (hseg hostOps32 hostOps32_sub hostOps32_fresh (W65 m)),
    .region (R32 m hcols),
    .host (hseg hostOps33 hostOps33_sub hostOps33_fresh (W67 m)),
    .region (R33 m hcols),
    .host (hseg hostOps34 hostOps34_sub hostOps34_fresh (W69 m)),
    .region (R34 m hcols),
    .host (hseg hostOps35 hostOps35_sub hostOps35_fresh (W71 m)),
    .region (R35 m hcols),
    .host (hseg hostOps36 hostOps36_sub hostOps36_fresh (W73 m)),
    .region (R36 m hcols),
    .host (hseg hostOps37 hostOps37_sub hostOps37_fresh (W75 m)),
    .region (R37 m hcols),
    .host (hseg hostOps38 hostOps38_sub hostOps38_fresh (W77 m)),
    .region (R38 m hcols),
    .host (hseg hostOps39 hostOps39_sub hostOps39_fresh (W79 m)),
    .region (R39 m hcols),
    .host (hseg hostOps40 hostOps40_sub hostOps40_fresh (W81 m)),
    .region (R40 m hcols),
    .host (hseg hostOps41 hostOps41_sub hostOps41_fresh (W83 m)),
    .region (R41 m hcols),
    .host (hseg hostOps42 hostOps42_sub hostOps42_fresh (W85 m)),
    .region (R42 m hcols),
    .host (hseg hostOps43 hostOps43_sub hostOps43_fresh (W87 m)),
    .region (R43 m hcols),
    .host (hseg hostOps44 hostOps44_sub hostOps44_fresh (W89 m)),
    .region (R44 m hcols),
    .host (hseg hostOps45 hostOps45_sub hostOps45_fresh (W91 m)),
    .region (R45 m hcols),
    .host (hseg hostOps46 hostOps46_sub hostOps46_fresh (W93 m)),
    .region (R46 m hcols),
    .host (hseg hostOps47 hostOps47_sub hostOps47_fresh (W95 m)),
    .region (R47 m hcols),
    .host (hseg hostOps48 hostOps48_sub hostOps48_fresh (W97 m)),
    .region (R48 m hcols),
    .host (hseg hostOps49 hostOps49_sub hostOps49_fresh (W99 m)) ]

set_option maxHeartbeats 4000000 in
/-- @main is the run of the segments. -/
theorem main_run (c : Dev nD) : main (F := F) c = Pipeline.Seg.run (segs m hcols) := (main_chain c).trans (by chain_rfl)

/-- The last thread state without the core's dues: every unscoped buffer at the last boundary's contents, the generator register at some state. -/
abbrev Tₙ (c : Dev nD) : sProp 𝕄 := iprop(StableHlo.held (c : Thread nD τ) (Pipeline.ucRefs τ sig) (W100 m c) ∗ ∃ r, prngReg c r)

/-- The last boundary's thread state is the final one beside the core owing nothing (the three parts regrouped). -/
theorem hlast (c : Dev nD) : iprop(StableHlo.held (c : Thread nD τ) (Pipeline.ucRefs τ sig) (W100 m c) ∗ R c)
    ⊢ (iprop(Tₙ m c ∗ ∃ W, owes (c.tc : Thread nD τ) (0 : CellTallies nD τ sig Unit) W) : sProp 𝕄) := by
  iintro ⟨Hh, Hp, HO⟩
  isplitl [Hh Hp]
  · isplitl [Hh]; · iexact Hh
    iexact Hp
  iexact HO

include hcols in
set_option backward.isDefEq.respectTransparency.types false in
set_option maxHeartbeats 4000000 in
/-- Every weakly fair execution of @main from memory m with zero counters terminates, nothing faulting, and every
    final memory holds each unscoped buffer at the last boundary's contents. -/
theorem run_all : θ_run defs (onTc (τ := τ) (main (F := F))) ⟨m, fun _ => 0, ρ⟩ (fun r => ∀ c : Dev nD, ∀ b ∈ Pipeline.ucRefs τ sig,
      r.2.mem ((c : Thread nD τ).1, b) = W100 m c b) :=
  Pipeline.θ_run_regions_kit (pcfgs (F := F)) (adm m) (pdats m) () (cellOf_inj (adm m)) embL defs₀ 𝒱₀ L lv m ρ main (segs m hcols)
    (fun c Q => by rw [main_run m hcols c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) (adm m)) (cellOf_inj (adm m))) (Pipeline.launchToks (Pipeline.pin (pcfgs (F := F)) (adm m)) (cellOf_inj (adm m))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => hlast m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W100 m c b)
    (hfin := fun c s' => by
      iintro ⟨⟨Hh, -⟩, HSI⟩
      unfold StableHlo.held
      imodintro
      iapply (pointsTo_read_all (Pipeline.ucRefs τ sig) (fun b => (((c : Thread nD τ)).1, b)) (W100 m c) s')
      isplitl [Hh] <;> iassumption)
    (hQ := fun s h => h)

include hcols in
/-- The frame: every weakly fair execution terminates, nothing faulting, and the seven argument arrays end as launched
    (no segment writes one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W100_arg0 m c),
     (h c _ (mem_uc main_arg1 (by decide))).trans (W100_arg1 m c),
     (h c _ (mem_uc main_arg2 (by decide))).trans (W100_arg2 m c),
     (h c _ (mem_uc main_arg3 (by decide))).trans (W100_arg3 m c),
     (h c _ (mem_uc main_arg4 (by decide))).trans (W100_arg4 m c),
     (h c _ (mem_uc main_arg5 (by decide))).trans (W100_arg5 m c),
     (h c _ (mem_uc main_arg6 (by decide))).trans (W100_arg6 m c)⟩)
    (run_all m ρ hcols)

end Cert.Kernel.Hand

end
-- ==== Proof.KI.Common.lean ====
/-
  What every region's record and the launch share: the resource algebra (the pipeline library's copy beside the
  counters the kernel's own transfers draw their tokens from), the trivial level assignment (no core owes another
  anything), what rides beside the buffers between two segments of the host program (the generator register at some
  state, nothing owed), and a host stretch as a segment from a boundary valuation.
-/
import proofs.«421643_j28415503630349_2_alg».proof.Proof.Gen.KernelIdeal.Launch
import Idealize.ShloMosaic.Lib.Pipeline.Frame
import Idealize.ShloMosaic.Lib.Pipeline.FrameSuffix
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

abbrev 𝒱₀ : Variants := Variants.none
/-- No core owes another anything: no level is assigned. -/
abbrev L : GSem nD τ sig → Finset Unit := fun _ => ∅
abbrev lv : GSem nD τ sig → Unit → ℕ := fun _ _ => 0

/-- Beside the buffers, through every segment: the generator register at some state and the core owing nothing. -/
abbrev R (c : Dev nD) : sProp 𝕄 := iprop((∃ r, prngReg c r) ∗ ∃ W, owes (c : Thread nD τ) (0 : CellTallies nD τ sig Unit) W)

/-- A stretch of host operations as a segment: over the unscoped buffers from the contents `W`, `R` riding along;
    it leaves them at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A boundary valuation read at the TensorCore's references: what a region's proof data are stated at. -/
abbrev Vof (W : Dev nD → Valuation τ sig (Elt F)) : (c : Dev nD) → (b : Ref sig .tc) → Buf (Elt F) ((c : Thread nD τ).loc b) :=
  fun c b => W c b

/-- An unscoped TensorCore reference is among those a boundary's thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.Region0.lean ====
import proofs.«421643_j28415503630349_2_alg».proof.Proof.Gen.KernelIdeal.Launch
import proofs.«421643_j28415503630349_2_alg».proof.Proof.Gen.KernelIdeal.Skeleton
import proofs.«421643_j28415503630349_2_alg».proof.Proof.Gen.KernelIdeal.Points
import proofs.«421643_j28415503630349_2_alg».proof.Proof.KI.Common
import Idealize.ShloMosaic.Lib.Pipeline.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0: the row-wise map over the padded table, one 4096x64 block per grid point

The first pallas_call walks a grid of 25 points.  At point t it is handed block t of the padded input
array (rows 4096 t .. 4096 t + 4095, all 64 columns) in one staging buffer and an output staging buffer of the same
shape; it reads the whole input block, computes from it a 4096x64 value (a function of the block alone), reads the
output buffer (the value is dropped) and overwrites the whole output buffer with the computed value.

Everything is stated at a parameter V, the contents of the core's buffers when the region is entered, so that the
same text serves wherever in the run the region is placed. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

section Region0

variable (V : (c : Dev nD) → (b : Ref sig .tc) → Buf (Elt F) ((c : Thread nD τ).loc b))

/-! ## The blocks -/

/-- Block t of window w: the window's array, at the contents V gives it, read through the block's view. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The input window is never cut and never idle, and the body does not write its buffer: so whatever proof data
    has V's array for it and leaves the block in place finds, at every point, exactly block t in the current
    buffer (a point where no fetch happened has the same block index as the point before). -/
theorem before0_0_of {c : Dev nD} (dat : Dat τ (Elt F) Unit ℕ (UD sig nD τ) ℕ cfg0 c)
    (hA : dat.A 0 = V c (Pipeline.arrRef spec0 0)) (hafter : ∀ t, dat.after 0 t = iblk0 V c 0 t)
    (t : Fin cfg0.N) (d) : dat.before 0 t d = iblk0 V c 0 t := by
  have hkeep : ∀ t, (cfg0.win 0).cut (cfg0.grid.coords t) (dat.after 0 t) = dat.blockOf 0 t := fun t => by
    rw [hafter]; unfold Dat.blockOf iblk0; rw [hA]; try rfl
  refine (dat.before_in_eq_fetched 0 rfl (fun _ => rfl) (fun _ _ _ => rfl) hkeep t d).trans ?_
  unfold Dat.fetched Dat.blockOf iblk0; rw [hA]; try rfl

/-! ## The one store -/

/-- The rectangle of the body's accesses: the whole 4096x64 buffer. -/
abbrev r0_0 : Rect S4096x64 := Rect.unit (s := S4096x64) ![0, 0] S4096x64.size inb_S4096x64_S4096x64_0_0

/-- What the output buffer holds after the body when the input buffer reads x0: the single whole-buffer store of the
    payload computed from the loaded block. -/
def out0_1 (x0 : Vec F S4096x64 .f32) : Vec F S4096x64 .f32 :=
  View.canon [⟨r0_0, k0_pay1 (View.ld x0 r0_0)⟩]

/-- One piece of the full size tiles the buffer (a 1x1 arrangement of blocks), hence covers every index. -/
theorem cover0_1 (p0 : Vec F S4096x64 .f32) (y : S4096x64.Idx) :
    ∃ pc ∈ ([⟨r0_0, p0⟩] : List (View.Piece (Elt F) S4096x64 .f32)), y ∈ pc.1.set :=
  View.cover_of_tiled [⟨r0_0, p0⟩] S4096x64.size (by rfl) y

/-! ## The body's triple -/

set_option maxHeartbeats 1000000 in
/-- On whole staging memrefs, the input's reading x0 and the output's at any contents, the body runs to the state with
    the input's unchanged and the output's at out0_1 x0: load, load, store, executed symbolically; the store's
    piece covers the buffer, so what is read afterwards is the canonical contents of that one piece. The grid
    coordinate plays no part. -/
theorem sound_kernel0 (c : Dev nD) (E : Set ℕ) (i : grid0.Coords)
    (arg1 : Memref sig .tc .vmem S4096x64 .f32) (harg1 : arg1.IsWhole)
    (arg2 : Memref sig .tc .vmem S4096x64 .f32) (harg2 : arg2.IsWhole)
    (x0 : Vec F S4096x64 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__hyp_kernel i arg1 harg1 arg2 harg2) K := by
  simp only [cc0__hyp_kernel_eq_skeleton]; unfold cc0__hyp_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The proof data -/

/-- Pipeline 0 on core c: the arrays as V has them; after the body at point t the input buffer still at block t and the
    output buffer at out0_1 of block t; the invariant is the scoped rest with the generator register, untouched;
    full shares; nothing owed. -/
def dat0 (c : Dev nD) : Dat τ (Elt F) Unit ℕ (UD sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input buffer holds block t at every point. -/
theorem before0_0 (c : Dev nD) (t : Fin cfg0.N) (d) : (dat0 V c).before 0 t d = iblk0 V c 0 t :=
  before0_0_of V (dat0 V c) (A_eq0 V c 0) (after0_0 V c) t d

/-! ## The obligation at a point -/

/-- What the body is given at point t, the two windows written out: -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it gives back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- At any point the input memref reads block t, so the body's triple applies at x0 := block t; the invariant and the
    debt statement are the same at t and t + 1 and are carried across unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of pipeline 0, at every point of the grid. -/
theorem body_obligation0 (c : Dev nD) :
    BodyObligation (dat0 (F := F) V c) (defs₀ (F := F)) Variants.none () Set.univ := fun t => by
  rw [bigSep_W0, bigSep_W0]
  exact sound_body0 V c t

end Region0

/-! ## The buffers when the region is left -/

section Record0

variable (Win : Dev nD → Valuation τ sig (Elt F))

/-- Every buffer at the region's exit: the two arrays at what the write-backs have left after the last point, every
    other buffer as it was on entry. -/
def Wout0 (c : Dev nD) : Valuation τ sig (Elt F) :=
  Pipeline.withArrays spec0 c (Win c) fun w => (dat0 (Vof Win) c).arrAt w cfg0.N

theorem Wout0_arr (c : Dev nD) (w : Fin cfg0.W) :
    Wout0 Win c (Proc.devRef .tc (Pipeline.arrRef spec0 w)) = (dat0 (Vof Win) c).arrAt w cfg0.N := by
  unfold Wout0; exact Pipeline.withArrays_arr spec0 winFacts0.arr_inj c _ _ w

theorem Wout0_of_ne (c : Dev nD) (b : Ref sig .tc) (hb : ∀ w, Pipeline.arrRef spec0 w ≠ b) :
    Wout0 Win c (Proc.devRef .tc b) = Win c (Proc.devRef .tc b) := by
  unfold Wout0; exact Pipeline.withArrays_of_ne spec0 c _ _ b hb

end Record0

/-! ## Region 0 as a segment

The four entailments are stated for ANY family of proof data over the 49 pipelines (at any admissible table contents)
whose member 0, on the core at hand, has full shares, reads its arrays off the entry valuation and has the class
invariant. Between two items the core holds every unscoped buffer at a valuation, the generator register at some state,
and owes nothing. -/

section Seg0

variable (adm : (p : Fin 49) → (pcfgs (F := F) p).Adm)
  (pdats : (p : Fin 49) → (c : Dev nD) → Dat τ (Elt F) Unit ℕ (UD sig nD τ) ℕ (Pipeline.pin (pcfgs (F := F)) adm p) c)

set_option backward.isDefEq.respectTransparency.types false in
/-- ENTRY: the two arrays are split out of the unscoped buffers (distinct whole unscoped buffers, read off the entry
    valuation); there is no table; the debt statement at the first point holds of a core owing nothing; the generator
    register goes to the invariant; the other unscoped buffers go round the region. -/
theorem hentry0 (Win : Dev nD → Valuation τ sig (Elt F)) (c : Dev nD)
    (hq : ∀ w, (pdats 0 c).q w = fullShare)
    (hA : ∀ w, (pdats 0 c).A w = Vof Win c (Pipeline.arrRef spec0 w))
    (howed : ∀ t, (pdats 0 c).owed t = 0) (hrec : (pdats 0 c).recorded 0 = Set.univ) :
    iprop((StableHlo.held (c : Thread nD τ) (Pipeline.ucRefs τ sig) (Win c) ∗ R c)
          ∗ Pipeline.ownSems0 (fun k : PEmpty => k.elim) c ∗ levAts L lv)
      ⊢ |={Set.univ}=> iprop((pdats 0 c).arrays ((pdats 0 c).arrAt · 0)
          ∗ Pipeline.prefHeld (pcfgs (F := F) 0).pre c (fun _ => fullShare) (adm 0).1
          ∗ (pdats 0 c).owesAt () 0 ∗ (∃ r, prngReg c r)
          ∗ Pipeline.unscopedRest (Ix := Unit) (Name := ℕ) (U := UD sig nD τ) (Lvl := ℕ) spec0 c (Vof Win c)) := by
  rw [Pipeline.ownSems0_none]
  have hsplit := Pipeline.arrays_of_unscopedBufs (p := 0) (pcfgs (F := F)) adm pdats (launch0 (F := F)).win
    (launch0 (F := F)).arr_whole c ((pdats 0 c).share_full hq) (Vof Win c) hA
  rw [Pipeline.unscopedBufs_held] at hsplit
  iintro ⟨⟨Hub, Hp, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold Pipeline.Dat.owesAt Pipeline.owesWithin
    rw [howed]
    icases HO with ⟨%W, HO⟩; iexists W; isplitr
    · ipureintro; exact fun _ _ => Or.inl (by rw [hrec]; exact Set.mem_univ _)
    iexact HO
  isplitl [Hp]; · iexact Hp
  iexact Hrest

/-- IN: the invariant at the first point is the scoped rest beside the generator register. -/
theorem hin0 (c : Dev nD) (hΦ : (pdats 0 c).Φ 0 = Pipeline.ΦA spec0 c) :
    iprop((∃ r, prngReg c r) ∗ Pipeline.prefHeld (pcfgs (F := F) 0).pre c (fun _ => fullShare) (adm 0).1
        ∗ Pipeline.scopedRest (Ix := Unit) (Name := ℕ) (U := UD sig nD τ) (Lvl := ℕ) (Val := Elt F)
            (Pipeline.pin (pcfgs (F := F)) adm 0).spec c)
      ⊢ (pdats 0 c).Φ 0 := by
  rw [hΦ]; unfold Pipeline.ΦA
  iintro ⟨Hp, -, Hr⟩
  isplitl [Hr]; · iexact Hr
  iexact Hp

/-- OUT: the invariant at the last point gives both back; the kernel has no semaphore of its own. -/
theorem hout0 (c : Dev nD) (hΦ : (pdats 0 c).Φ (Fin.last (Pipeline.pin (pcfgs (F := F)) adm 0).N) = Pipeline.ΦA spec0 c) :
    (pdats 0 c).Φ (Fin.last (Pipeline.pin (pcfgs (F := F)) adm 0).N)
      ⊢ iprop((∃ r, prngReg c r) ∗ Pipeline.ownSems0 (fun k : PEmpty => k.elim) c
          ∗ Pipeline.scopedRest (Ix := Unit) (Name := ℕ) (U := UD sig nD τ) (Lvl := ℕ) (Val := Elt F)
              (Pipeline.pin (pcfgs (F := F)) adm 0).spec c) := by
  rw [Pipeline.ownSems0_none, hΦ]; unfold Pipeline.ΦA
  iintro ⟨Hr, Hp⟩
  isplitl [Hp]; · iexact Hp
  isplitr; · iempintro
  iexact Hr

set_option backward.isDefEq.respectTransparency.types false in
/-- EXIT: the arrays at what the write-backs leave, beside the buffers that went round at the entry valuation, are
    every unscoped buffer at any valuation that has the arrays so and agrees with the entry one elsewhere. -/
theorem hexit0 (Win Wout : Dev nD → Valuation τ sig (Elt F)) (c : Dev nD)
    (hq : ∀ w, (pdats 0 c).q w = fullShare) (howed : ∀ t, (pdats 0 c).owed t = 0)
    (hF : ∀ w, (pdats 0 c).arrAt w cfg0.N = Vof Wout c (Pipeline.arrRef spec0 w))
    (hrest : ∀ b, b ∉ Finset.univ.image (Pipeline.arrRef spec0) → Vof Wout c b = Vof Win c b) :
    iprop((pdats 0 c).arrays ((pdats 0 c).arrAt · (Pipeline.pin (pcfgs (F := F)) adm 0).N)
        ∗ (pdats 0 c).owesAt () (Fin.last (Pipeline.pin (pcfgs (F := F)) adm 0).N) ∗ (∃ r, prngReg c r)
        ∗ Pipeline.unscopedRest (Ix := Unit) (Name := ℕ) (U := UD sig nD τ) (Lvl := ℕ) spec0 c (Vof Win c))
      ⊢ |={Set.univ}=> iprop(StableHlo.held (c : Thread nD τ) (Pipeline.ucRefs τ sig) (Wout c) ∗ R c) := by
  have hjoin := Pipeline.unscopedBufs_of_arrays (p := 0) (pcfgs (F := F)) adm (Ix := Unit) (Name := ℕ) (U := UD sig nD τ) (Lvl := ℕ)
    (launch0 (F := F)).win (launch0 (F := F)).arr_whole c pdats ((pdats 0 c).share_full hq)
    (Vof Win c) (Vof Wout c) ((pdats 0 c).arrAt · cfg0.N) hF hrest
  rw [Pipeline.unscopedBufs_held] at hjoin
  iintro ⟨Ha, HO, HY, Hrest⟩
  imodintro
  isplitl [Ha Hrest]
  · iapply hjoin; isplitl [Ha] <;> iassumption
  isplitl [HY]; · iexact HY
  unfold Pipeline.Dat.owesAt Pipeline.owesWithin
  rw [howed]
  icases HO with ⟨%W, -, HO⟩; iexists W; iexact HO

set_option backward.isDefEq.respectTransparency.types false in
/-- THE REGION over the thread state "every unscoped buffer at a valuation, the generator register at some state, nothing
    owed": entered at Win, left at Wout0 Win; no semaphore of the kernel's own, no table. -/
def reg0 (Win : Dev nD → Valuation τ sig (Elt F)) (hd : ∀ c, pdats (0 : Fin 49) c = dat0 (Vof Win) c) :
    Pipeline.RegionSeg (pcfgs (F := F)) adm pdats () defs₀ 𝒱₀ L lv (0 : Fin 49) where
  win := (launch0 (F := F)).win.to₀
  block_pos := (launch0 (F := F)).block_pos
  stage_whole := (launch0 (F := F)).stage_whole
  K := PEmpty
  osem k := k.elim
  ho := Pipeline.OwnSemFacts.none _
  hbody c := by rw [hd c]; exact (body_obligation0 (Vof Win) c).loose
  hwaits := Pipeline.hwaits_of_owed_zero _ _ _ _ L lv (0 : Fin 49) fun c t => by rw [hd c] <;> rfl
  pre c := iprop(StableHlo.held (c : Thread nD τ) (Pipeline.ucRefs τ sig) (Win c) ∗ R c)
  post c := iprop(StableHlo.held (c : Thread nD τ) (Pipeline.ucRefs τ sig) (Wout0 Win c) ∗ R c)
  X c := iprop(∃ r, prngReg c r)
  Y c := iprop(∃ r, prngReg c r)
  Z c := Pipeline.unscopedRest (Ix := Unit) (Name := ℕ) (U := UD sig nD τ) (Lvl := ℕ) spec0 c (Vof Win c)
  hentry c := hentry0 adm pdats Win c (fun w => by rw [hd c] <;> rfl) (fun w => by rw [hd c] <;> rfl)
    (fun t => by rw [hd c] <;> rfl) (by rw [hd c] <;> rfl)
  hin c := hin0 adm pdats c (by rw [hd c] <;> rfl)
  hout c := hout0 adm pdats c (by rw [hd c] <;> rfl)
  hexit c := hexit0 adm pdats Win (Wout0 Win) c (fun w => by rw [hd c] <;> rfl) (fun t => by rw [hd c] <;> rfl)
    (fun w => by rw [hd c]; exact (Wout0_arr Win c w).symm)
    (fun b hb => Wout0_of_ne Win c b fun w e => hb (Finset.mem_image.mpr ⟨w, Finset.mem_univ _, e⟩))

end Seg0

end Cert.KernelIdeal.Hand

end
-- ==== Proof.KI.FnEq.lean ====
/-
  The 48 gather regions run one kernel function: the functions printed for regions 2 to 48 are region 1's, by unfolding
  (they differ only in the names of their side conditions and of their offset computations).
-/
import proofs.«421643_j28415503630349_2_alg».proof.KernelIdeal

set_option maxRecDepth 65536

noncomputable section
namespace Cert.KernelIdeal.Hand
open Cert.KernelIdeal Idealize.ShloMosaic Idealize.SL.Sem
variable {F : FTy → Type} [FloatOps F] [Facts]

set_option maxHeartbeats 4000000 in
theorem gather_fn_eq_2 : cc2__gather_mul_kernel (F := F) = cc1__gather_mul_kernel (F := F) := rfl
set_option maxHeartbeats 4000000 in
theorem gather_fn_eq_3 : cc3__gather_mul_kernel (F := F) = cc1__gather_mul_kernel (F := F) := rfl
set_option maxHeartbeats 4000000 in
theorem gather_fn_eq_4 : cc4__gather_mul_kernel (F := F) = cc1__gather_mul_kernel (F := F) := rfl
set_option maxHeartbeats 4000000 in
theorem gather_fn_eq_5 : cc5__gather_mul_kernel (F := F) = cc1__gather_mul_kernel (F := F) := rfl
set_option maxHeartbeats 4000000 in
theorem gather_fn_eq_6 : cc6__gather_mul_kernel (F := F) = cc1__gather_mul_kernel (F := F) := rfl
set_option maxHeartbeats 4000000 in
theorem gather_fn_eq_7 : cc7__gather_mul_kernel (F := F) = cc1__gather_mul_kernel (F := F) := rfl
set_option maxHeartbeats 4000000 in
theorem gather_fn_eq_8 : cc8__gather_mul_kernel (F := F) = cc1__gather_mul_kernel (F := F) := rfl
set_option maxHeartbeats 4000000 in
theorem gather_fn_eq_9 : cc9__gather_mul_kernel (F := F) = cc1__gather_mul_kernel (F := F) := rfl
set_option maxHeartbeats 4000000 in
theorem gather_fn_eq_10 : cc10__gather_mul_kernel (F := F) = cc1__gather_mul_kernel (F := F) := rfl
set_option maxHeartbeats 4000000 in
theorem gather_fn_eq_11 : cc11__gather_mul_kernel (F := F) = cc1__gather_mul_kernel (F := F) := rfl
set_option maxHeartbeats 4000000 in
theorem gather_fn_eq_12 : cc12__gather_mul_kernel (F := F) = cc1__gather_mul_kernel (F := F) := rfl
set_option maxHeartbeats 4000000 in
theorem gather_fn_eq_13 : cc13__gather_mul_kernel (F := F) = cc1__gather_mul_kernel (F := F) := rfl
set_option maxHeartbeats 4000000 in
theorem gather_fn_eq_14 : cc14__gather_mul_kernel (F := F) = cc1__gather_mul_kernel (F := F) := rfl
set_option maxHeartbeats 4000000 in
theorem gather_fn_eq_15 : cc15__gather_mul_kernel (F := F) = cc1__gather_mul_kernel (F := F) := rfl
set_option maxHeartbeats 4000000 in
theorem gather_fn_eq_16 : cc16__gather_mul_kernel (F := F) = cc1__gather_mul_kernel (F := F) := rfl
set_option maxHeartbeats 4000000 in
theorem gather_fn_eq_17 : cc17__gather_mul_kernel (F := F) = cc1__gather_mul_kernel (F := F) := rfl
set_option maxHeartbeats 4000000 in
theorem gather_fn_eq_18 : cc18__gather_mul_kernel (F := F) = cc1__gather_mul_kernel (F := F) := rfl
set_option maxHeartbeats 4000000 in
theorem gather_fn_eq_19 : cc19__gather_mul_kernel (F := F) = cc1__gather_mul_kernel (F := F) := rfl
set_option maxHeartbeats 4000000 in
theorem gather_fn_eq_20 : cc20__gather_mul_kernel (F := F) = cc1__gather_mul_kernel (F := F) := rfl
set_option maxHeartbeats 4000000 in
theorem gather_fn_eq_21 : cc21__gather_mul_kernel (F := F) = cc1__gather_mul_kernel (F := F) := rfl
set_option maxHeartbeats 4000000 in
theorem gather_fn_eq_22 : cc22__gather_mul_kernel (F := F) = cc1__gather_mul_kernel (F := F) := rfl
set_option maxHeartbeats 4000000 in
theorem gather_fn_eq_23 : cc23__gather_mul_kernel (F := F) = cc1__gather_mul_kernel (F := F) := rfl
set_option maxHeartbeats 4000000 in
theorem gather_fn_eq_24 : cc24__gather_mul_kernel (F := F) = cc1__gather_mul_kernel (F := F) := rfl
set_option maxHeartbeats 4000000 in
theorem gather_fn_eq_25 : cc25__gather_mul_kernel (F := F) = cc1__gather_mul_kernel (F := F) := rfl
set_option maxHeartbeats 4000000 in
theorem gather_fn_eq_26 : cc26__gather_mul_kernel (F := F) = cc1__gather_mul_kernel (F := F) := rfl
set_option maxHeartbeats 4000000 in
theorem gather_fn_eq_27 : cc27__gather_mul_kernel (F := F) = cc1__gather_mul_kernel (F := F) := rfl
set_option maxHeartbeats 4000000 in
theorem gather_fn_eq_28 : cc28__gather_mul_kernel (F := F) = cc1__gather_mul_kernel (F := F) := rfl
set_option maxHeartbeats 4000000 in
theorem gather_fn_eq_29 : cc29__gather_mul_kernel (F := F) = cc1__gather_mul_kernel (F := F) := rfl
set_option maxHeartbeats 4000000 in
theorem gather_fn_eq_30 : cc30__gather_mul_kernel (F := F) = cc1__gather_mul_kernel (F := F) := rfl
set_option maxHeartbeats 4000000 in
theorem gather_fn_eq_31 : cc31__gather_mul_kernel (F := F) = cc1__gather_mul_kernel (F := F) := rfl
set_option maxHeartbeats 4000000 in
theorem gather_fn_eq_32 : cc32__gather_mul_kernel (F := F) = cc1__gather_mul_kernel (F := F) := rfl
set_option maxHeartbeats 4000000 in
theorem gather_fn_eq_33 : cc33__gather_mul_kernel (F := F) = cc1__gather_mul_kernel (F := F) := rfl
set_option maxHeartbeats 4000000 in
theorem gather_fn_eq_34 : cc34__gather_mul_kernel (F := F) = cc1__gather_mul_kernel (F := F) := rfl
set_option maxHeartbeats 4000000 in
theorem gather_fn_eq_35 : cc35__gather_mul_kernel (F := F) = cc1__gather_mul_kernel (F := F) := rfl
set_option maxHeartbeats 4000000 in
theorem gather_fn_eq_36 : cc36__gather_mul_kernel (F := F) = cc1__gather_mul_kernel (F := F) := rfl
set_option maxHeartbeats 4000000 in
theorem gather_fn_eq_37 : cc37__gather_mul_kernel (F := F) = cc1__gather_mul_kernel (F := F) := rfl
set_option maxHeartbeats 4000000 in
theorem gather_fn_eq_38 : cc38__gather_mul_kernel (F := F) = cc1__gather_mul_kernel (F := F) := rfl
set_option maxHeartbeats 4000000 in
theorem gather_fn_eq_39 : cc39__gather_mul_kernel (F := F) = cc1__gather_mul_kernel (F := F) := rfl
set_option maxHeartbeats 4000000 in
theorem gather_fn_eq_40 : cc40__gather_mul_kernel (F := F) = cc1__gather_mul_kernel (F := F) := rfl
set_option maxHeartbeats 4000000 in
theorem gather_fn_eq_41 : cc41__gather_mul_kernel (F := F) = cc1__gather_mul_kernel (F := F) := rfl
set_option maxHeartbeats 4000000 in
theorem gather_fn_eq_42 : cc42__gather_mul_kernel (F := F) = cc1__gather_mul_kernel (F := F) := rfl
set_option maxHeartbeats 4000000 in
theorem gather_fn_eq_43 : cc43__gather_mul_kernel (F := F) = cc1__gather_mul_kernel (F := F) := rfl
set_option maxHeartbeats 4000000 in
theorem gather_fn_eq_44 : cc44__gather_mul_kernel (F := F) = cc1__gather_mul_kernel (F := F) := rfl
set_option maxHeartbeats 4000000 in
theorem gather_fn_eq_45 : cc45__gather_mul_kernel (F := F) = cc1__gather_mul_kernel (F := F) := rfl
set_option maxHeartbeats 4000000 in
theorem gather_fn_eq_46 : cc46__gather_mul_kernel (F := F) = cc1__gather_mul_kernel (F := F) := rfl
set_option maxHeartbeats 4000000 in
theorem gather_fn_eq_47 : cc47__gather_mul_kernel (F := F) = cc1__gather_mul_kernel (F := F) := rfl
set_option maxHeartbeats 4000000 in
theorem gather_fn_eq_48 : cc48__gather_mul_kernel (F := F) = cc1__gather_mul_kernel (F := F) := rfl

end Cert.KernelIdeal.Hand
end
-- ==== Proof.KI.GatherDefs.lean ====
/-
  The gather body's vocabulary, independent of which of the forty-eight gather launches runs it: the block a grid
  point gathers (row j of the block is the row of the array that table word 8·i + j names), what the body stores
  (that block scaled row by row by the values block), and the eight cells of the body's semaphore array as the
  body's own slice-and-squeeze of the array spells them, with their counters at zero.
-/
import proofs.«421643_j28415503630349_2_alg».proof.Proof.Gen.KernelIdeal.Skeleton
import Idealize.ShloMosaic.Lib.ValueIdx
import Idealize.ShloMosaic.Lib.Pipeline.Frame

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Word 8·i + j of the table lies inside it: the grid has 12500 points of eight words each. -/
theorem gather_word_lt (i : grid1.Coords) (j : Fin 8) : 8 * (i 0).val + j.val < 100000 := by
  have h : (i 0).val < 12500 := (i 0).isLt
  have := j.isLt
  omega

/-- The block gathered at grid point i: its row j is the array's row named by table word 8·i + j, the word read
    modulo the row count so that the definition is total (a word below the row count is read as itself). -/
def gatherG (T : Vec F S100000 .i32) (X : Vec F S100000x64 .f32) (i : grid1.Coords) : Vec F S8x64 .f32 :=
  fun y => X (ValueIdx.ix2 (⟨BitVec.toNat (T (ValueIdx.ix1 ⟨8 * (i 0).val + (y 0).val, gather_word_lt i (y 0)⟩)) % 100000,
    Nat.mod_lt _ (by decide)⟩ : Fin 100000) (y 1))

/-- What the body stores into its output block: the gathered block scaled row by row by the values block. -/
abbrev gatherOut (G : Vec F S8x64 .f32) (v : Vec F S8x1 .f32) : Vec F S8x64 .f32 := k1_pay1 G v

/-- At a word below the row count the gathered block's entry (j, k) is the array's entry (word, k). -/
theorem gatherG_apply (T : Vec F S100000 .i32) (X : Vec F S100000x64 .f32) (i : grid1.Coords) (j : Fin 8) (k : Fin 64)
    (h : BitVec.toNat (T (ValueIdx.ix1 ⟨8 * (i 0).val + j.val, gather_word_lt i j⟩)) < 100000) :
    gatherG T X i (ValueIdx.ix2 j k)
      = X (ValueIdx.ix2 (⟨BitVec.toNat (T (ValueIdx.ix1 ⟨8 * (i 0).val + j.val, gather_word_lt i j⟩)), h⟩ : Fin 100000) k) := by
  unfold gatherG
  congr 1
  funext a
  match a with
  | ⟨0, _⟩ => exact Fin.ext (Nat.mod_eq_of_lt h)
  | ⟨1, _⟩ => rfl

/-- Cell j of an array of eight semaphores, as the body's slice and squeeze of the array name it. -/
abbrev gsem0 (a : DmaSems sig S8) : DmaSem sig := ((a.slice (Rect.unit (s := S8) ![0] S1.size inb_S8_S1_0)).squeeze S_ squeezes_S1_S_).sem
abbrev gsem1 (a : DmaSems sig S8) : DmaSem sig := ((a.slice (Rect.unit (s := S8) ![1] S1.size inb_S8_S1_1)).squeeze S_ squeezes_S1_S_).sem
abbrev gsem2 (a : DmaSems sig S8) : DmaSem sig := ((a.slice (Rect.unit (s := S8) ![2] S1.size inb_S8_S1_2)).squeeze S_ squeezes_S1_S_).sem
abbrev gsem3 (a : DmaSems sig S8) : DmaSem sig := ((a.slice (Rect.unit (s := S8) ![3] S1.size inb_S8_S1_3)).squeeze S_ squeezes_S1_S_).sem
abbrev gsem4 (a : DmaSems sig S8) : DmaSem sig := ((a.slice (Rect.unit (s := S8) ![4] S1.size inb_S8_S1_4)).squeeze S_ squeezes_S1_S_).sem
abbrev gsem5 (a : DmaSems sig S8) : DmaSem sig := ((a.slice (Rect.unit (s := S8) ![5] S1.size inb_S8_S1_5)).squeeze S_ squeezes_S1_S_).sem
abbrev gsem6 (a : DmaSems sig S8) : DmaSem sig := ((a.slice (Rect.unit (s := S8) ![6] S1.size inb_S8_S1_6)).squeeze S_ squeezes_S1_S_).sem
abbrev gsem7 (a : DmaSems sig S8) : DmaSem sig := ((a.slice (Rect.unit (s := S8) ![7] S1.size inb_S8_S1_7)).squeeze S_ squeezes_S1_S_).sem

/-- The eight cells' counters at zero. -/
abbrev gsems0 (c : Dev nD) (a : DmaSems sig S8) : sProp 𝕄 :=
  iprop(semVal ((c : Thread nD τ), SemLoc.dma (gsem0 a)) 0 ∗ semVal ((c : Thread nD τ), SemLoc.dma (gsem1 a)) 0
    ∗ semVal ((c : Thread nD τ), SemLoc.dma (gsem2 a)) 0 ∗ semVal ((c : Thread nD τ), SemLoc.dma (gsem3 a)) 0
    ∗ semVal ((c : Thread nD τ), SemLoc.dma (gsem4 a)) 0 ∗ semVal ((c : Thread nD τ), SemLoc.dma (gsem5 a)) 0
    ∗ semVal ((c : Thread nD τ), SemLoc.dma (gsem6 a)) 0 ∗ semVal ((c : Thread nD τ), SemLoc.dma (gsem7 a)) 0)

end Cert.KernelIdeal.Hand

end
-- ==== Proof.KI.PreCols.lean ====
/-
  The precondition read back at the column table. The printed predicate ends in
  `all(cols ≥ 0) ∧ all(cols < 100000)` (signed compares of argument 4 against broadcast literals, each reduced by
  `and` from 1 into a rank-0 result, the results joined by `and`). Its value being 1 therefore says of EVERY word
  of `cols` that it lies in [0, 100000) signed, hence is below 100000 read unsigned. The same bound passes to any
  block of consecutive words cut out of `cols` (a slice only re-indexes), and a word below 100000 names a row of a
  [100000, 64] array: row offset v, column offset 0, block [1, 64] fits — which is every side condition the gather
  body assumes of a table word. Stated at any float instance F: no float operation is read.
-/
import proofs.«421643_j28415503630349_2_alg».proof.KernelIdeal
import proofs.«421643_j28415503630349_2_alg».proof.Pre_finite_inputs
import Idealize.ShloMosaic.Lib.ReduceAll

noncomputable section

namespace Cert.KernelIdeal.Hand

open Idealize.ShloMosaic Idealize.SL.Sem

/-- A shape of rank 0 has exactly one index. -/
instance subsingleton_idx_rank0 : Subsingleton Cert.Pre_finite_inputs.S_.Idx :=
  ⟨fun a b => funext fun d => d.elim0⟩

/-- A 32-bit word that is ≥ 0 and < 100000 read signed is < 100000 read unsigned: nonnegative signed means the top
    bit is clear, so the signed and unsigned readings agree. -/
theorem toNat_lt_of_signed (w : BitVec 32) (h0 : (0#32 : BitVec 32).toInt ≤ w.toInt)
    (h1 : w.toInt < (100000#32 : BitVec 32).toInt) : w.toNat < 100000 := by
  have hz : (0#32 : BitVec 32).toInt = 0 := by decide
  have hk : (100000#32 : BitVec 32).toInt = 100000 := by decide
  rw [hz] at h0
  rw [hk] at h1
  have hc : 2 * w.toNat < 2 ^ 32 := BitVec.toInt_pos_iff.1 h0
  rw [BitVec.toInt_eq_toNat_of_lt hc] at h1
  omega

/-- THE PRINTED PREDICATE DECODED AT ONE WORD OF ARGUMENT 4. If the predicate's value is 1 then its last two
    conjuncts are 1; each is a reduction by `and` into the single rank-0 index, so every element of the compared
    mask is 1; the masks are `cols ≥ 0` and `cols < 100000` elementwise (the broadcast of a scalar literal reads
    the literal everywhere). -/
theorem fn_cols_lt {F : FTy → Type} [FloatOps F] [Cert.Pre_finite_inputs.Facts]
    (a0 : FVec F Cert.Pre_finite_inputs.S40000x64 .f32) (a1 : FVec F Cert.Pre_finite_inputs.S60000x64 .f32)
    (a2 : FVec F Cert.Pre_finite_inputs.S1600000 .f32) (a3 a4 : IVec Cert.Pre_finite_inputs.S1600000 32)
    (a5 a6 : IVec Cert.Pre_finite_inputs.S4096 32)
    (h : Cert.Pre_finite_inputs.fn (F := F) a0 a1 a2 a3 a4 a5 a6 = fun _ => 1#1)
    (e : Cert.Pre_finite_inputs.S1600000.Idx) : (a4 e).toNat < 100000 := by
  have h0 := congrFun h (fun d => d.elim0)
  dsimp only [Cert.Pre_finite_inputs.fn, Cert.Pre_finite_inputs.fn_part1, andi] at h0
  obtain ⟨h12, hlt⟩ := IntOp.andi_eq_one.1 h0
  obtain ⟨-, hge⟩ := IntOp.andi_eq_one.1 h12
  have hge' := Host.reduce_andi_all _ _ _ _ _ hge e
  have hlt' := Host.reduce_andi_all _ _ _ _ _ hlt e
  dsimp only [cmpi, broadcastInDim, constantI] at hge' hlt'
  exact toNat_lt_of_signed _ (IntOp.cmpi_sge.1 hge') (IntOp.cmpi_slt.1 hlt')

/-- (1) Under the certificate's precondition on the launch memory `m` (the printed predicate of the seven argument
    arrays is 1 on every device), every word of the column table is below 100000. -/
theorem cols_lt {F : FTy → Type} [FloatOps F] [Cert.Pre_finite_inputs.Facts]
    (m : (ℓ : Loc nD τ sig) → Buf (Elt F) ℓ)
    (h : ∀ c : Dev nD,
      (Cert.Pre_finite_inputs.fn (F := F) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6))) = (fun _ => 1#1))
    (c : Dev nD) (e : S1600000.Idx) : (m ((c.tc : Thread nD τ).loc main_arg4) e).toNat < 100000 :=
  fn_cols_lt _ _ _ _ _ _ _ (h c) e

/-- (2) A block cut out of an array of words all below `n` has all its words below `n`: a slice at unit strides
    reads the array at the shifted index. One statement for every offset and every pair of shapes. -/
theorem slice_lt {s t : Shape} {w : Nat} {n : Nat} {x : s.Idx → BitVec w} (hx : ∀ e, (x e).toNat < n)
    (off : Fin s.rank → Nat) (hs : s.Slices off t) (i : t.Idx) :
    (extractStridedSlice t off x hs i).toNat < n :=
  hx _

/-- (1) and (2) together: every word of every [100000] block of the column table is below 100000. -/
theorem cols_slice_lt {F : FTy → Type} [FloatOps F] [Cert.Pre_finite_inputs.Facts]
    (m : (ℓ : Loc nD τ sig) → Buf (Elt F) ℓ)
    (h : ∀ c : Dev nD,
      (Cert.Pre_finite_inputs.fn (F := F) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6))) = (fun _ => 1#1))
    (c : Dev nD) (off : Fin S1600000.rank → Nat) (hs : S1600000.Slices off S100000) (i : S100000.Idx) :
    (extractStridedSlice S100000 off (m ((c.tc : Thread nD τ).loc main_arg4) : S1600000.Idx → BitVec 32) hs i).toNat
      < 100000 :=
  slice_lt (cols_lt m h c) off hs i

/-- A word below 100000 names a row of a [100000, 64] array: the [1, 64] block at row v, column 0 lies inside. -/
theorem row_inb (v : BitVec 32) (h : v.toNat < 100000) :
    ∀ a, (![v.toNat, 0] : Fin 2 → Nat) a + S1x64.size a ≤ S100000x64.size a := by
  intro a
  fin_cases a <;> simp [S1x64, S100000x64] <;> omega

/-! (3) Each side condition the gather body assumes of a table word is one or two instances of `row_inb`: the
    offsets it names are `![v.toNat, 0]` by unfolding. -/

theorem chk1_of_lt (v : BitVec 32) (h : v.toNat < 100000) : k1_chk1 v := by
  unfold k1_chk1; exact ⟨row_inb v h, row_inb v h⟩
theorem chk2_of_lt (v : BitVec 32) (h : v.toNat < 100000) : k1_chk2 v := by
  unfold k1_chk2; exact ⟨row_inb v h, row_inb v h⟩
theorem chk3_of_lt (v : BitVec 32) (h : v.toNat < 100000) : k1_chk3 v := by
  unfold k1_chk3; exact ⟨row_inb v h, row_inb v h⟩
theorem chk4_of_lt (v : BitVec 32) (h : v.toNat < 100000) : k1_chk4 v := by
  unfold k1_chk4; exact ⟨row_inb v h, row_inb v h⟩
theorem chk5_of_lt (v : BitVec 32) (h : v.toNat < 100000) : k1_chk5 v := by
  unfold k1_chk5; exact ⟨row_inb v h, row_inb v h⟩
theorem chk6_of_lt (v : BitVec 32) (h : v.toNat < 100000) : k1_chk6 v := by
  unfold k1_chk6; exact ⟨row_inb v h, row_inb v h⟩
theorem chk7_of_lt (v : BitVec 32) (h : v.toNat < 100000) : k1_chk7 v := by
  unfold k1_chk7; exact ⟨row_inb v h, row_inb v h⟩
theorem chk8_of_lt (v : BitVec 32) (h : v.toNat < 100000) : k1_chk8 v := by
  unfold k1_chk8; exact row_inb v h

theorem chk_of_lt (v : BitVec 32) (h : v.toNat < 100000) :
    k1_chk1 v ∧ k1_chk2 v ∧ k1_chk3 v ∧ k1_chk4 v ∧ k1_chk5 v ∧ k1_chk6 v ∧ k1_chk7 v ∧ k1_chk8 v :=
  ⟨chk1_of_lt v h, chk2_of_lt v h, chk3_of_lt v h, chk4_of_lt v h, chk5_of_lt v h, chk6_of_lt v h, chk7_of_lt v h,
    chk8_of_lt v h⟩

/-- The same eight facts for region 1 in one step: unfold the eight side conditions and give each offset bound by
    `row_inb`. (The sibling regions' statements are this one with the region number replaced.) -/
theorem chk_of_lt_1 (v : BitVec 32) (h : v.toNat < 100000) :
    k1_chk1 v ∧ k1_chk2 v ∧ k1_chk3 v ∧ k1_chk4 v ∧ k1_chk5 v ∧ k1_chk6 v ∧ k1_chk7 v ∧ k1_chk8 v := by
  unfold k1_chk1 k1_chk2 k1_chk3 k1_chk4 k1_chk5 k1_chk6 k1_chk7 k1_chk8
  exact ⟨⟨row_inb v h, row_inb v h⟩, ⟨row_inb v h, row_inb v h⟩, ⟨row_inb v h, row_inb v h⟩, ⟨row_inb v h, row_inb v h⟩, ⟨row_inb v h, row_inb v h⟩, ⟨row_inb v h, row_inb v h⟩, ⟨row_inb v h, row_inb v h⟩, row_inb v h⟩

end Cert.KernelIdeal.Hand

end
-- ==== Proof.KI.GatherBody.lean ====
/-
  The gather body, run once. At grid point i the body reads the eight table words 8·i + j, assumes of each that it
  names a row of the array (true of a word below the row count), copies that row of the array into row j of its
  scratch block by a transfer of its own on semaphore j, waits for the eight transfers, and stores the scratch block
  scaled row by row by the values block. The array is read by eight transfers in flight at once, so it is held as
  eight read shares while they fly; each transfer lends only its own row of the scratch block, and the eight rows
  written, the block reads back as ONE function of the table and the array: the gathered block.
-/
import proofs.«421643_j28415503630349_2_alg».proof.Proof.KI.GatherDefs
import proofs.«421643_j28415503630349_2_alg».proof.Proof.KI.PreCols
import Idealize.ShloMosaic.Lib.Tactic
import Idealize.ShloMosaic.Lib.Writes
import Idealize.ShloMosaic.Lib.Pipeline.Frame
import Idealize.ShloMosaic.Lib.Pipeline.Value

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## Reading back a scratch block written row by row -/

section Rows

variable {Val : EltTy → Type} {sg : RefSig} {κ κ' : Kind} {sp sp' : Space} {e : EltTy}

/-- A write through a reshaped view of what a reshaped source reads, both reshaped alike, is the write through the
    view of what the source reads: the two re-indexings cancel. -/
theorem reshape_write_read {s s' : Shape} (vd : View sg κ sp s e) (vs : View sg κ' sp' s e) (h : s'.numel = s.numel)
    (f : vd.ty.Contents Val) (g : vs.ty.Contents Val) :
    (vd.reshape s' h).write Val f ((vs.reshape s' h).read Val g) Finset.univ = vd.write Val f (vs.read Val g) Finset.univ := by
  rw [View.write_reshape_univ]
  congr 1
  funext x
  show vs.read Val g (Shape.reshapeEquiv h ((Shape.reshapeEquiv h).symm x)) = vs.read Val g x
  rw [Equiv.apply_symm_apply]

/-- Entry (j, k) of an eight-row block after row l was written: the written row's entry k when j = l, else what
    was there. -/
theorem read_row_write (v : View sg κ sp S8x64 e) (l : ℕ) (inb : ∀ a, (![l, 0] : Fin 2 → ℕ) a + S1x64.size a ≤ S8x64.size a)
    (f : v.ty.Contents Val) (w : S1x64.Idx → Val e) (j : Fin 8) (k : Fin 64) :
    v.read Val ((v.slice (Rect.unit (s := S8x64) ![l, 0] S1x64.size inb)).write Val f w Finset.univ) (ValueIdx.ix2 j k)
      = if j.val = l then w (ValueIdx.ix2 (0 : Fin 1) k) else v.read Val f (ValueIdx.ix2 j k) := by
  by_cases h : j.val = l
  · rw [if_pos h]
    have e1 : (ValueIdx.ix2 j k : S8x64.Idx) = (Rect.unit (s := S8x64) ![l, 0] S1x64.size inb).emb (ValueIdx.ix2 (0 : Fin 1) k) := by
      funext a
      match a with
      | ⟨0, _⟩ => exact Fin.ext (by show j.val = l + 1 * 0; omega)
      | ⟨1, _⟩ => exact Fin.ext (by show k.val = 0 + 1 * k.val; omega)
    rw [e1, View.read_slice_write_emb _ _ _ (Finset.mem_univ _)]
  · rw [if_neg h]
    refine View.read_slice_write_of_not_mem _ _ _ _ ?_
    rw [Rect.map_emb_univ]
    intro hm
    obtain ⟨t, ht, e⟩ := (LoadRect.mem_set _).mp hm ⟨0, by decide⟩
    have ht' : t < 1 := ht
    have e' : j.val = l + 1 * t := e
    exact h (by omega)

/-- Entry (j, k) of an eight-row block after its eight rows were written, row 0 first: row j's payload at k. -/
theorem read_rows8 (v : View sg κ sp S8x64 e) (f : v.ty.Contents Val) (w0 w1 w2 w3 w4 w5 w6 w7 : S1x64.Idx → Val e)
    (b0 : ∀ a, (![0, 0] : Fin 2 → ℕ) a + S1x64.size a ≤ S8x64.size a) (b1 : ∀ a, (![1, 0] : Fin 2 → ℕ) a + S1x64.size a ≤ S8x64.size a)
    (b2 : ∀ a, (![2, 0] : Fin 2 → ℕ) a + S1x64.size a ≤ S8x64.size a) (b3 : ∀ a, (![3, 0] : Fin 2 → ℕ) a + S1x64.size a ≤ S8x64.size a)
    (b4 : ∀ a, (![4, 0] : Fin 2 → ℕ) a + S1x64.size a ≤ S8x64.size a) (b5 : ∀ a, (![5, 0] : Fin 2 → ℕ) a + S1x64.size a ≤ S8x64.size a)
    (b6 : ∀ a, (![6, 0] : Fin 2 → ℕ) a + S1x64.size a ≤ S8x64.size a) (b7 : ∀ a, (![7, 0] : Fin 2 → ℕ) a + S1x64.size a ≤ S8x64.size a)
    (j : Fin 8) (k : Fin 64) :
    v.read Val
      ((v.slice (Rect.unit (s := S8x64) ![7, 0] S1x64.size b7)).write Val
        ((v.slice (Rect.unit (s := S8x64) ![6, 0] S1x64.size b6)).write Val
          ((v.slice (Rect.unit (s := S8x64) ![5, 0] S1x64.size b5)).write Val
            ((v.slice (Rect.unit (s := S8x64) ![4, 0] S1x64.size b4)).write Val
              ((v.slice (Rect.unit (s := S8x64) ![3, 0] S1x64.size b3)).write Val
                ((v.slice (Rect.unit (s := S8x64) ![2, 0] S1x64.size b2)).write Val
                  ((v.slice (Rect.unit (s := S8x64) ![1, 0] S1x64.size b1)).write Val
                    ((v.slice (Rect.unit (s := S8x64) ![0, 0] S1x64.size b0)).write Val f w0 Finset.univ)
                    w1 Finset.univ) w2 Finset.univ) w3 Finset.univ) w4 Finset.univ) w5 Finset.univ) w6 Finset.univ) w7 Finset.univ)
      (ValueIdx.ix2 j k)
      = (![w0, w1, w2, w3, w4, w5, w6, w7] : Fin 8 → S1x64.Idx → Val e) j (ValueIdx.ix2 (0 : Fin 1) k) := by
  rw [read_row_write, read_row_write, read_row_write, read_row_write, read_row_write, read_row_write, read_row_write, read_row_write]
  fin_cases j <;> first | rfl | simp

end Rows

/-- The table word the body reads at offset 8·i + j is word 8·i + j of the table. -/
theorem tbl_word (T : Vec F S100000 .i32) (i : grid1.Coords) (j : Fin 8) (off : Fin 1 → ℕ)
    (hoff : off = ![8 * (i 0).val + j.val]) (inb : ∀ a, off a + S1.size a ≤ S100000.size a) (h1 : 0 < S1.numel) :
    T ((Rect.unit (s := S100000) off S1.size inb).toLoadRect.idx (Shape.Idx.first h1))
      = T (ValueIdx.ix1 ⟨8 * (i 0).val + j.val, gather_word_lt i j⟩) := by
  subst hoff
  congr 1
  funext a
  match a with
  | ⟨0, _⟩ => exact Fin.ext (by show 8 * (i 0).val + j.val + 1 * 0 = 8 * (i 0).val + j.val; omega)

/-- Entry k of the row the body copies for block row j — the array read through the one-row rectangle at the word's
    row — is the gathered block's entry (j, k). -/
theorem src_row (T : Vec F S100000 .i32) (X : Vec F S100000x64 .f32) (i : grid1.Coords) (j : Fin 8) (k : Fin 64)
    (w : BitVec 32) (hw : w = T (ValueIdx.ix1 ⟨8 * (i 0).val + j.val, gather_word_lt i j⟩)) (hl : w.toNat < 100000)
    (off : Fin 2 → ℕ) (ho : off = ![w.toNat, 0]) (ib : ∀ a, off a + S1x64.size a ≤ S100000x64.size a) :
    X ((Rect.unit (s := S100000x64) off S1x64.size ib).emb (ValueIdx.ix2 (0 : Fin 1) k)) = gatherG T X i (ValueIdx.ix2 j k) := by
  subst ho
  subst hw
  rw [gatherG_apply T X i j k hl]
  congr 1
  funext a
  match a with
  | ⟨0, _⟩ => exact Fin.ext (by show BitVec.toNat _ + 1 * 0 = BitVec.toNat _; omega)
  | ⟨1, _⟩ => exact Fin.ext (by show 0 + 1 * k.val = k.val; omega)

/-- THE SCRATCH READ BACK. After the eight rows of the scratch block were written, row j with the array's one-row
    rectangle at the row that table word 8·i + j names (each through the squeezed views, re-indexed alike on both
    sides), the block reads as the gathered block — whatever it held before. -/
theorem gathered_scratch {κ κ' : Kind} {sp sp' : Space} (v5 : View sig κ sp S8x64 .f32) (v2 : View sig κ' sp' S100000x64 .f32)
    (f5 : v5.ty.Contents (Elt F)) (fx : v2.ty.Contents (Elt F)) (T : Vec F S100000 .i32) (i : grid1.Coords)
    (h : S64.numel = S1x64.numel)
    (w0 : BitVec 32) (w1 : BitVec 32) (w2 : BitVec 32) (w3 : BitVec 32) (w4 : BitVec 32) (w5 : BitVec 32) (w6 : BitVec 32) (w7 : BitVec 32)
    (hw0 : w0 = T (ValueIdx.ix1 ⟨8 * (i 0).val + (0 : Fin 8).val, gather_word_lt i 0⟩))
    (hw1 : w1 = T (ValueIdx.ix1 ⟨8 * (i 0).val + (1 : Fin 8).val, gather_word_lt i 1⟩))
    (hw2 : w2 = T (ValueIdx.ix1 ⟨8 * (i 0).val + (2 : Fin 8).val, gather_word_lt i 2⟩))
    (hw3 : w3 = T (ValueIdx.ix1 ⟨8 * (i 0).val + (3 : Fin 8).val, gather_word_lt i 3⟩))
    (hw4 : w4 = T (ValueIdx.ix1 ⟨8 * (i 0).val + (4 : Fin 8).val, gather_word_lt i 4⟩))
    (hw5 : w5 = T (ValueIdx.ix1 ⟨8 * (i 0).val + (5 : Fin 8).val, gather_word_lt i 5⟩))
    (hw6 : w6 = T (ValueIdx.ix1 ⟨8 * (i 0).val + (6 : Fin 8).val, gather_word_lt i 6⟩))
    (hw7 : w7 = T (ValueIdx.ix1 ⟨8 * (i 0).val + (7 : Fin 8).val, gather_word_lt i 7⟩))
    (hl0 : w0.toNat < 100000) (hl1 : w1.toNat < 100000) (hl2 : w2.toNat < 100000) (hl3 : w3.toNat < 100000) (hl4 : w4.toNat < 100000) (hl5 : w5.toNat < 100000) (hl6 : w6.toNat < 100000) (hl7 : w7.toNat < 100000)
    (off0 : Fin 2 → ℕ) (off1 : Fin 2 → ℕ) (off2 : Fin 2 → ℕ) (off3 : Fin 2 → ℕ) (off4 : Fin 2 → ℕ) (off5 : Fin 2 → ℕ) (off6 : Fin 2 → ℕ) (off7 : Fin 2 → ℕ)
    (ho0 : off0 = ![w0.toNat, 0]) (ho1 : off1 = ![w1.toNat, 0]) (ho2 : off2 = ![w2.toNat, 0]) (ho3 : off3 = ![w3.toNat, 0]) (ho4 : off4 = ![w4.toNat, 0]) (ho5 : off5 = ![w5.toNat, 0]) (ho6 : off6 = ![w6.toNat, 0]) (ho7 : off7 = ![w7.toNat, 0])
    (ib0 : ∀ a, off0 a + S1x64.size a ≤ S100000x64.size a)
    (ib1 : ∀ a, off1 a + S1x64.size a ≤ S100000x64.size a)
    (ib2 : ∀ a, off2 a + S1x64.size a ≤ S100000x64.size a)
    (ib3 : ∀ a, off3 a + S1x64.size a ≤ S100000x64.size a)
    (ib4 : ∀ a, off4 a + S1x64.size a ≤ S100000x64.size a)
    (ib5 : ∀ a, off5 a + S1x64.size a ≤ S100000x64.size a)
    (ib6 : ∀ a, off6 a + S1x64.size a ≤ S100000x64.size a)
    (ib7 : ∀ a, off7 a + S1x64.size a ≤ S100000x64.size a)
    (jb0 : ∀ a, (![0, 0] : Fin 2 → ℕ) a + S1x64.size a ≤ S8x64.size a)
    (jb1 : ∀ a, (![1, 0] : Fin 2 → ℕ) a + S1x64.size a ≤ S8x64.size a)
    (jb2 : ∀ a, (![2, 0] : Fin 2 → ℕ) a + S1x64.size a ≤ S8x64.size a)
    (jb3 : ∀ a, (![3, 0] : Fin 2 → ℕ) a + S1x64.size a ≤ S8x64.size a)
    (jb4 : ∀ a, (![4, 0] : Fin 2 → ℕ) a + S1x64.size a ≤ S8x64.size a)
    (jb5 : ∀ a, (![5, 0] : Fin 2 → ℕ) a + S1x64.size a ≤ S8x64.size a)
    (jb6 : ∀ a, (![6, 0] : Fin 2 → ℕ) a + S1x64.size a ≤ S8x64.size a)
    (jb7 : ∀ a, (![7, 0] : Fin 2 → ℕ) a + S1x64.size a ≤ S8x64.size a) :
    v5.read (Elt F)
        (((v5.slice (Rect.unit (s := S8x64) ![7, 0] S1x64.size jb7)).reshape S64 h).write (Elt F) (((v5.slice (Rect.unit (s := S8x64) ![6, 0] S1x64.size jb6)).reshape S64 h).write (Elt F) (((v5.slice (Rect.unit (s := S8x64) ![5, 0] S1x64.size jb5)).reshape S64 h).write (Elt F) (((v5.slice (Rect.unit (s := S8x64) ![4, 0] S1x64.size jb4)).reshape S64 h).write (Elt F) (((v5.slice (Rect.unit (s := S8x64) ![3, 0] S1x64.size jb3)).reshape S64 h).write (Elt F) (((v5.slice (Rect.unit (s := S8x64) ![2, 0] S1x64.size jb2)).reshape S64 h).write (Elt F) (((v5.slice (Rect.unit (s := S8x64) ![1, 0] S1x64.size jb1)).reshape S64 h).write (Elt F) (((v5.slice (Rect.unit (s := S8x64) ![0, 0] S1x64.size jb0)).reshape S64 h).write (Elt F) f5
          (((v2.slice (Rect.unit (s := S100000x64) off0 S1x64.size ib0)).reshape S64 h).read (Elt F) fx) Finset.univ)
          (((v2.slice (Rect.unit (s := S100000x64) off1 S1x64.size ib1)).reshape S64 h).read (Elt F) fx) Finset.univ)
          (((v2.slice (Rect.unit (s := S100000x64) off2 S1x64.size ib2)).reshape S64 h).read (Elt F) fx) Finset.univ)
          (((v2.slice (Rect.unit (s := S100000x64) off3 S1x64.size ib3)).reshape S64 h).read (Elt F) fx) Finset.univ)
          (((v2.slice (Rect.unit (s := S100000x64) off4 S1x64.size ib4)).reshape S64 h).read (Elt F) fx) Finset.univ)
          (((v2.slice (Rect.unit (s := S100000x64) off5 S1x64.size ib5)).reshape S64 h).read (Elt F) fx) Finset.univ)
          (((v2.slice (Rect.unit (s := S100000x64) off6 S1x64.size ib6)).reshape S64 h).read (Elt F) fx) Finset.univ)
          (((v2.slice (Rect.unit (s := S100000x64) off7 S1x64.size ib7)).reshape S64 h).read (Elt F) fx) Finset.univ)
      = gatherG T (v2.read (Elt F) fx) i := by
  funext y
  obtain ⟨j, k, rfl⟩ : ∃ (j : Fin 8) (k : Fin 64), y = ValueIdx.ix2 j k := ⟨y 0, y 1, ValueIdx.eq_ix2 y⟩
  simp only [reshape_write_read]
  rw [read_rows8]
  fin_cases j
  · exact src_row T (v2.read (Elt F) fx) i 0 k w0 hw0 hl0 off0 ho0 ib0
  · exact src_row T (v2.read (Elt F) fx) i 1 k w1 hw1 hl1 off1 ho1 ib1
  · exact src_row T (v2.read (Elt F) fx) i 2 k w2 hw2 hl2 off2 ho2 ib2
  · exact src_row T (v2.read (Elt F) fx) i 3 k w3 hw3 hl3 off3 ho3 ib3
  · exact src_row T (v2.read (Elt F) fx) i 4 k w4 hw4 hl4 off4 ho4 ib4
  · exact src_row T (v2.read (Elt F) fx) i 5 k w5 hw5 hl5 off5 ho5 ib5
  · exact src_row T (v2.read (Elt F) fx) i 6 k w6 hw6 hl6 off6 ho6 ib6
  · exact src_row T (v2.read (Elt F) fx) i 7 k w7 hw7 hl7 off7 ho7 ib7

/-- Both offsets of the whole-block rectangle are zero. -/
theorem hz2 : (![0, 0] : Fin 2 → Nat) = fun _ => 0 := by funext a; fin_cases a <;> rfl

/-- The gather body's run, as a predicate of the kernel function (the forty-eight gather launches print the same
    function): from the table and the array held at any shares, the values block, the output block and the scratch
    block held whole, the eight cells at zero and nothing owed, with every table word below the row count, the
    function runs to its return handing everything back — the output block at the gathered block scaled by the values
    block, the cells at zero again. -/
abbrev GatherRunStmt (kern : (i : grid1.Coords) → (arg1 : Memref sig .tc .smem S100000 .i32) → arg1.IsWhole →
    (arg2 : Memref sig .tc .hbm S100000x64 .f32) → arg2.IsWhole → (arg3 : Memref sig .tc .vmem S8x1 .f32) → arg3.IsWhole →
    (arg4 : Memref sig .tc .vmem S8x64 .f32) → arg4.IsWhole → (arg5 : Memref sig .tc .vmem S8x64 .f32) → arg5.IsWhole →
    DmaSems sig S8 → Prog (TpuEff nD τ sig (Elt F) Λ₀ .tc) PUnit) : Prop :=
  ∀ (c : Dev nD) (i : grid1.Coords)
    (arg1 : Memref sig .tc .smem S100000 .i32) (harg1 : arg1.IsWhole) (arg2 : Memref sig .tc .hbm S100000x64 .f32) (harg2 : arg2.IsWhole)
    (arg3 : Memref sig .tc .vmem S8x1 .f32) (harg3 : arg3.IsWhole) (arg4 : Memref sig .tc .vmem S8x64 .f32) (harg4 : arg4.IsWhole)
    (arg5 : Memref sig .tc .vmem S8x64 .f32) (harg5 : arg5.IsWhole) (arg6 : DmaSems sig S8)
    (qt qx : PosShare TreeShare)
    (ft : Buf (Elt F) (arg1.view.loc (c : Thread nD τ))) (fx : Buf (Elt F) (arg2.view.loc (c : Thread nD τ))) (v : Vec F S8x1 .f32)
    (hT : ∀ y : S100000.Idx, BitVec.toNat (arg1.view.read (Elt F) ft y) < 100000)
    (W : Waits sig Unit) (K : PUnit → sProp 𝕄),
    iprop((arg1.view.loc (c : Thread nD τ) ↦{qt} ft) ∗ (arg2.view.loc (c : Thread nD τ) ↦{qx} fx)
        ∗ owns (c : Thread nD τ) arg3 fullShare v
        ∗ (∃ d, owns (c : Thread nD τ) arg4 fullShare d) ∗ (∃ d, owns (c : Thread nD τ) arg5 fullShare d)
        ∗ gsems0 c arg6 ∗ owes (c : Thread nD τ) 0 W
        ∗ (iprop((arg1.view.loc (c : Thread nD τ) ↦{qt} ft) ∗ (arg2.view.loc (c : Thread nD τ) ↦{qx} fx)
            ∗ owns (c : Thread nD τ) arg3 fullShare v
            ∗ owns (c : Thread nD τ) arg4 fullShare (gatherOut (gatherG (arg1.view.read (Elt F) ft) (arg2.view.read (Elt F) fx) i) v)
            ∗ (∃ d, owns (c : Thread nD τ) arg5 fullShare d)
            ∗ gsems0 c arg6 ∗ (∃ W', owes (c : Thread nD τ) 0 W')) -∗ K ⟨⟩))
      ⊢ wp frame (wpE (defs₀ (F := F)) Variants.none c none) Set.univ
          (kern i arg1 harg1 arg2 harg2 arg3 harg3 arg4 harg4 arg5 harg5 arg6) K

set_option sl_exec.dmaWindow true in
set_option sl_exec.rejoinHeartbeats 80000 in
set_option maxHeartbeats 4000000 in
/-- THE RUN. The array's share is cut into eight read shares (seven successive halvings), one per transfer in flight;
    the scratch block is held whole, so that each transfer lends its own row and the wait puts the row back; the
    assumes are discharged from the bound on the table's words; at the return the shares are joined again and the
    output block's contents are read off: one covering store of the scaled scratch block, the scratch block the
    gathered block (`gathered_scratch`). -/
theorem gather_kernel_run : GatherRunStmt (F := F) (cc1__gather_mul_kernel (F := F)) := by
    intro c i arg1 harg1 arg2 harg2 arg3 harg3 arg4 harg4 arg5 harg5 arg6 qt qx ft fx v hT W K
    simp only [cc1__gather_mul_kernel_eq_skeleton]; unfold cc1__gather_mul_kernel_skel
    unfold owns
    rw [harg5.set_eq_univ]
    iintro ⟨H1, H2, ⟨%f3, %hf3, H3⟩, ⟨%d4, %f4, -, H4⟩, ⟨%d5, %f5, -, H5⟩, ⟨Hs0, Hs1, Hs2, Hs3, Hs4, Hs5, Hs6, Hs7⟩, HW, Hk⟩
    obtain rfl := harg3.eq_unread hf3
    ihave H2 := (pointsTo_share (PosShare.mem_left_op_right qx)).1 $$ H2
    icases H2 with ⟨H2, Hx0⟩
    ihave H2 := (pointsTo_share (PosShare.mem_left_op_right qx.left)).1 $$ H2
    icases H2 with ⟨H2, Hx1⟩
    ihave H2 := (pointsTo_share (PosShare.mem_left_op_right qx.left.left)).1 $$ H2
    icases H2 with ⟨H2, Hx2⟩
    ihave H2 := (pointsTo_share (PosShare.mem_left_op_right qx.left.left.left)).1 $$ H2
    icases H2 with ⟨H2, Hx3⟩
    ihave H2 := (pointsTo_share (PosShare.mem_left_op_right qx.left.left.left.left)).1 $$ H2
    icases H2 with ⟨H2, Hx4⟩
    ihave H2 := (pointsTo_share (PosShare.mem_left_op_right qx.left.left.left.left.left)).1 $$ H2
    icases H2 with ⟨H2, Hx5⟩
    ihave H2 := (pointsTo_share (PosShare.mem_left_op_right qx.left.left.left.left.left.left)).1 $$ H2
    icases H2 with ⟨Hx7, Hx6⟩
    sl_exec (disch := first
      | exact chk1_of_lt _ (hT _) | exact chk2_of_lt _ (hT _) | exact chk3_of_lt _ (hT _) | exact chk4_of_lt _ (hT _)
      | exact chk5_of_lt _ (hT _) | exact chk6_of_lt _ (hT _) | exact chk7_of_lt _ (hT _) | exact chk8_of_lt _ (hT _))
    sl_step
    iapply Hk
    isplitl [H1]; · iexact H1
    isplitl [Hx0 Hx1 Hx2 Hx3 Hx4 Hx5 Hx6 Hx7]
    ·
      iapply (pointsTo_share (PosShare.mem_left_op_right qx)).2
      isplitr [Hx0]
      ·
        iapply (pointsTo_share (PosShare.mem_left_op_right qx.left)).2
        isplitr [Hx1]
        ·
          iapply (pointsTo_share (PosShare.mem_left_op_right qx.left.left)).2
          isplitr [Hx2]
          ·
            iapply (pointsTo_share (PosShare.mem_left_op_right qx.left.left.left)).2
            isplitr [Hx3]
            ·
              iapply (pointsTo_share (PosShare.mem_left_op_right qx.left.left.left.left)).2
              isplitr [Hx4]
              ·
                iapply (pointsTo_share (PosShare.mem_left_op_right qx.left.left.left.left.left)).2
                isplitr [Hx5]
                ·
                  iapply (pointsTo_share (PosShare.mem_left_op_right qx.left.left.left.left.left.left)).2
                  isplitr [Hx6]
                  ·
                    iexact Hx7
                  · iexact Hx6
                · iexact Hx5
              · iexact Hx4
            · iexact Hx3
          · iexact Hx2
        · iexact Hx1
      · iexact Hx0
    isplitl [H3]
    · iexists _; isplitr; · ipureintro; exact harg3.read_unread _
      iexact H3
    isplitl [H4]
    · iexists _; isplitr; swap; · iexact H4
      ipureintro
      rw [View.read_writes_eq_canon _ _ _ (fun y => ⟨_, List.mem_singleton_self _, View.mem_set_unit_zero hz2 inb_S8x64_S8x64_0_0 y⟩),
        View.canon_unit_zero hz2]
      show k1_pay1 _ _ = k1_pay1 _ _
      congr 1
      · sl_unfold_run_names
        rw [View.readAt_eq_ld, View.ld_unit_zero hz2]
        simp only [Memref.view_squeeze, Memref.view_slice, ReadAs.apply_same]
        refine gathered_scratch (F := F) arg5.view arg2.view f5 fx (arg1.view.read (Elt F) ft) i _ _ _ _ _ _ _ _ _
          (tbl_word (arg1.view.read (Elt F) ft) i 0 (k1_off1 i) (k1_off1_eq i) (k1_off1_inb i) (by rw [numel1_S1]; exact Nat.one_pos))
          (tbl_word (arg1.view.read (Elt F) ft) i 1 (k1_off3 i) (k1_off3_eq i) (k1_off3_inb i) (by rw [numel1_S1]; exact Nat.one_pos))
          (tbl_word (arg1.view.read (Elt F) ft) i 2 (k1_off5 i) (k1_off5_eq i) (k1_off5_inb i) (by rw [numel1_S1]; exact Nat.one_pos))
          (tbl_word (arg1.view.read (Elt F) ft) i 3 (k1_off7 i) (k1_off7_eq i) (k1_off7_inb i) (by rw [numel1_S1]; exact Nat.one_pos))
          (tbl_word (arg1.view.read (Elt F) ft) i 4 (k1_off9 i) (k1_off9_eq i) (k1_off9_inb i) (by rw [numel1_S1]; exact Nat.one_pos))
          (tbl_word (arg1.view.read (Elt F) ft) i 5 (k1_off11 i) (k1_off11_eq i) (k1_off11_inb i) (by rw [numel1_S1]; exact Nat.one_pos))
          (tbl_word (arg1.view.read (Elt F) ft) i 6 (k1_off13 i) (k1_off13_eq i) (k1_off13_inb i) (by rw [numel1_S1]; exact Nat.one_pos))
          (tbl_word (arg1.view.read (Elt F) ft) i 7 (k1_off15 i) (k1_off15_eq i) (k1_off15_inb i) (by rw [numel1_S1]; exact Nat.one_pos))
          ?_ ?_ ?_ ?_ ?_ ?_ ?_ ?_ _ _ _ _ _ _ _ _ ?_ ?_ ?_ ?_ ?_ ?_ ?_ ?_ _ _ _ _ _ _ _ _ _ _ _ _ _ _ _ _
        · exact hT _
        · exact hT _
        · exact hT _
        · exact hT _
        · exact hT _
        · exact hT _
        · exact hT _
        · exact hT _
        · rfl
        · rfl
        · rfl
        · rfl
        · rfl
        · rfl
        · rfl
        · rfl
      · rw [View.readAt_eq_ld, harg3.read_unread, View.ld_unit_zero hz2]
    isplitl [H5]
    · iexists _, _; isplitr; swap; · iexact H5
      ipureintro; rfl
    isplitl [Hs0 Hs1 Hs2 Hs3 Hs4 Hs5 Hs6 Hs7]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      iexact Hs7
    iexists _; iexact HW

end Cert.KernelIdeal.Hand

end
-- ==== Proof.KI.BodyEq.lean ====
/-
  The body run of every gather region: region 1's, transported along the equality of the kernel functions.
-/
import proofs.«421643_j28415503630349_2_alg».proof.Proof.KI.FnEq
import proofs.«421643_j28415503630349_2_alg».proof.Proof.KI.GatherBody

noncomputable section
namespace Cert.KernelIdeal.Hand
open Cert.KernelIdeal Cert.KernelIdeal.Gen Idealize.ShloMosaic Idealize.SL.Sem
variable {F : FTy → Type} [FloatOps F]

theorem gather_kernel_run_2 : GatherRunStmt (F := F) (cc2__gather_mul_kernel (F := F)) := by
  rw [gather_fn_eq_2]; exact gather_kernel_run
theorem gather_kernel_run_3 : GatherRunStmt (F := F) (cc3__gather_mul_kernel (F := F)) := by
  rw [gather_fn_eq_3]; exact gather_kernel_run
theorem gather_kernel_run_4 : GatherRunStmt (F := F) (cc4__gather_mul_kernel (F := F)) := by
  rw [gather_fn_eq_4]; exact gather_kernel_run
theorem gather_kernel_run_5 : GatherRunStmt (F := F) (cc5__gather_mul_kernel (F := F)) := by
  rw [gather_fn_eq_5]; exact gather_kernel_run
theorem gather_kernel_run_6 : GatherRunStmt (F := F) (cc6__gather_mul_kernel (F := F)) := by
  rw [gather_fn_eq_6]; exact gather_kernel_run
theorem gather_kernel_run_7 : GatherRunStmt (F := F) (cc7__gather_mul_kernel (F := F)) := by
  rw [gather_fn_eq_7]; exact gather_kernel_run
theorem gather_kernel_run_8 : GatherRunStmt (F := F) (cc8__gather_mul_kernel (F := F)) := by
  rw [gather_fn_eq_8]; exact gather_kernel_run
theorem gather_kernel_run_9 : GatherRunStmt (F := F) (cc9__gather_mul_kernel (F := F)) := by
  rw [gather_fn_eq_9]; exact gather_kernel_run
theorem gather_kernel_run_10 : GatherRunStmt (F := F) (cc10__gather_mul_kernel (F := F)) := by
  rw [gather_fn_eq_10]; exact gather_kernel_run
theorem gather_kernel_run_11 : GatherRunStmt (F := F) (cc11__gather_mul_kernel (F := F)) := by
  rw [gather_fn_eq_11]; exact gather_kernel_run
theorem gather_kernel_run_12 : GatherRunStmt (F := F) (cc12__gather_mul_kernel (F := F)) := by
  rw [gather_fn_eq_12]; exact gather_kernel_run
theorem gather_kernel_run_13 : GatherRunStmt (F := F) (cc13__gather_mul_kernel (F := F)) := by
  rw [gather_fn_eq_13]; exact gather_kernel_run
theorem gather_kernel_run_14 : GatherRunStmt (F := F) (cc14__gather_mul_kernel (F := F)) := by
  rw [gather_fn_eq_14]; exact gather_kernel_run
theorem gather_kernel_run_15 : GatherRunStmt (F := F) (cc15__gather_mul_kernel (F := F)) := by
  rw [gather_fn_eq_15]; exact gather_kernel_run
theorem gather_kernel_run_16 : GatherRunStmt (F := F) (cc16__gather_mul_kernel (F := F)) := by
  rw [gather_fn_eq_16]; exact gather_kernel_run
theorem gather_kernel_run_17 : GatherRunStmt (F := F) (cc17__gather_mul_kernel (F := F)) := by
  rw [gather_fn_eq_17]; exact gather_kernel_run
theorem gather_kernel_run_18 : GatherRunStmt (F := F) (cc18__gather_mul_kernel (F := F)) := by
  rw [gather_fn_eq_18]; exact gather_kernel_run
theorem gather_kernel_run_19 : GatherRunStmt (F := F) (cc19__gather_mul_kernel (F := F)) := by
  rw [gather_fn_eq_19]; exact gather_kernel_run
theorem gather_kernel_run_20 : GatherRunStmt (F := F) (cc20__gather_mul_kernel (F := F)) := by
  rw [gather_fn_eq_20]; exact gather_kernel_run
theorem gather_kernel_run_21 : GatherRunStmt (F := F) (cc21__gather_mul_kernel (F := F)) := by
  rw [gather_fn_eq_21]; exact gather_kernel_run
theorem gather_kernel_run_22 : GatherRunStmt (F := F) (cc22__gather_mul_kernel (F := F)) := by
  rw [gather_fn_eq_22]; exact gather_kernel_run
theorem gather_kernel_run_23 : GatherRunStmt (F := F) (cc23__gather_mul_kernel (F := F)) := by
  rw [gather_fn_eq_23]; exact gather_kernel_run
theorem gather_kernel_run_24 : GatherRunStmt (F := F) (cc24__gather_mul_kernel (F := F)) := by
  rw [gather_fn_eq_24]; exact gather_kernel_run
theorem gather_kernel_run_25 : GatherRunStmt (F := F) (cc25__gather_mul_kernel (F := F)) := by
  rw [gather_fn_eq_25]; exact gather_kernel_run
theorem gather_kernel_run_26 : GatherRunStmt (F := F) (cc26__gather_mul_kernel (F := F)) := by
  rw [gather_fn_eq_26]; exact gather_kernel_run
theorem gather_kernel_run_27 : GatherRunStmt (F := F) (cc27__gather_mul_kernel (F := F)) := by
  rw [gather_fn_eq_27]; exact gather_kernel_run
theorem gather_kernel_run_28 : GatherRunStmt (F := F) (cc28__gather_mul_kernel (F := F)) := by
  rw [gather_fn_eq_28]; exact gather_kernel_run
theorem gather_kernel_run_29 : GatherRunStmt (F := F) (cc29__gather_mul_kernel (F := F)) := by
  rw [gather_fn_eq_29]; exact gather_kernel_run
theorem gather_kernel_run_30 : GatherRunStmt (F := F) (cc30__gather_mul_kernel (F := F)) := by
  rw [gather_fn_eq_30]; exact gather_kernel_run
theorem gather_kernel_run_31 : GatherRunStmt (F := F) (cc31__gather_mul_kernel (F := F)) := by
  rw [gather_fn_eq_31]; exact gather_kernel_run
theorem gather_kernel_run_32 : GatherRunStmt (F := F) (cc32__gather_mul_kernel (F := F)) := by
  rw [gather_fn_eq_32]; exact gather_kernel_run
theorem gather_kernel_run_33 : GatherRunStmt (F := F) (cc33__gather_mul_kernel (F := F)) := by
  rw [gather_fn_eq_33]; exact gather_kernel_run
theorem gather_kernel_run_34 : GatherRunStmt (F := F) (cc34__gather_mul_kernel (F := F)) := by
  rw [gather_fn_eq_34]; exact gather_kernel_run
theorem gather_kernel_run_35 : GatherRunStmt (F := F) (cc35__gather_mul_kernel (F := F)) := by
  rw [gather_fn_eq_35]; exact gather_kernel_run
theorem gather_kernel_run_36 : GatherRunStmt (F := F) (cc36__gather_mul_kernel (F := F)) := by
  rw [gather_fn_eq_36]; exact gather_kernel_run
theorem gather_kernel_run_37 : GatherRunStmt (F := F) (cc37__gather_mul_kernel (F := F)) := by
  rw [gather_fn_eq_37]; exact gather_kernel_run
theorem gather_kernel_run_38 : GatherRunStmt (F := F) (cc38__gather_mul_kernel (F := F)) := by
  rw [gather_fn_eq_38]; exact gather_kernel_run
theorem gather_kernel_run_39 : GatherRunStmt (F := F) (cc39__gather_mul_kernel (F := F)) := by
  rw [gather_fn_eq_39]; exact gather_kernel_run
theorem gather_kernel_run_40 : GatherRunStmt (F := F) (cc40__gather_mul_kernel (F := F)) := by
  rw [gather_fn_eq_40]; exact gather_kernel_run
theorem gather_kernel_run_41 : GatherRunStmt (F := F) (cc41__gather_mul_kernel (F := F)) := by
  rw [gather_fn_eq_41]; exact gather_kernel_run
theorem gather_kernel_run_42 : GatherRunStmt (F := F) (cc42__gather_mul_kernel (F := F)) := by
  rw [gather_fn_eq_42]; exact gather_kernel_run
theorem gather_kernel_run_43 : GatherRunStmt (F := F) (cc43__gather_mul_kernel (F := F)) := by
  rw [gather_fn_eq_43]; exact gather_kernel_run
theorem gather_kernel_run_44 : GatherRunStmt (F := F) (cc44__gather_mul_kernel (F := F)) := by
  rw [gather_fn_eq_44]; exact gather_kernel_run
theorem gather_kernel_run_45 : GatherRunStmt (F := F) (cc45__gather_mul_kernel (F := F)) := by
  rw [gather_fn_eq_45]; exact gather_kernel_run
theorem gather_kernel_run_46 : GatherRunStmt (F := F) (cc46__gather_mul_kernel (F := F)) := by
  rw [gather_fn_eq_46]; exact gather_kernel_run
theorem gather_kernel_run_47 : GatherRunStmt (F := F) (cc47__gather_mul_kernel (F := F)) := by
  rw [gather_fn_eq_47]; exact gather_kernel_run
theorem gather_kernel_run_48 : GatherRunStmt (F := F) (cc48__gather_mul_kernel (F := F)) := by
  rw [gather_fn_eq_48]; exact gather_kernel_run

end Cert.KernelIdeal.Hand
end
-- ==== Proof.KI.Region1.lean ====
/-
  The first gather region of the host program (pipeline 1).

  At a point i of its grid the body reads eight words of the prefetched table, takes the eight rows of the operand
  left in far memory that those words name, and stores their product with the block of the first window (a column
  of eight scalars, broadcast along the rows) into the block of the second window.

  This module gives, at a valuation V of the buffers as the region finds them and admissible table contents a1:
  the region's proof data (what each window's staging buffer holds after the body at every point; the invariant
  that passes from point to point: the scoped buffers no window stages, the generator register, the body's own
  transfer cells at zero, the far operand whole at its contents under V, the table whole at a1), the body
  obligation from the body's run at a point, and the region's record for a launch of several regions: how the
  region's arrays, the table and the far operand are taken out of the unscoped buffers at entry and put back at
  exit, the arrays then holding what the write-backs leave and every other buffer what it held. Last, the output
  block is named — the rows of the far operand that the table's eight words at the point name, each scaled by the
  matching scalar of the input block — and the body's run on any operands is joined to the proof data at it.
-/
import proofs.«421643_j28415503630349_2_alg».proof.Proof.KI.Common
import proofs.«421643_j28415503630349_2_alg».proof.Proof.KI.BodyEq
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

/-! ## The body's own transfer cells -/

/-- The eight cells of the body's semaphore array, in order. -/
abbrev osem1 : Fin 8 → SemLoc sig := fun j => SemLoc.dma (cc1_scratch1.ix (fun | ⟨0, _⟩ => j))

/-- They are scoped, pairwise distinct, and none is a staging cell of a window. -/
theorem ownSemFacts1 : Pipeline.OwnSemFacts spec1 osem1 := by decide

/-- The far operand is an unscoped buffer that is neither a window's array nor a table. -/
theorem hx_sub1 : ({main_v3} : Finset (Ref sig .tc)) ⊆ Pipeline.restRefsP sig pre1 spec1 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg1 (F := F)).Adm)
  (O : (c : Dev nD) → Fin (cfg1 a1).N → Vec F S8x64 .f32)

/-! ## The windows' blocks -/

/-- Window w's block at point t, read off its array under V. -/
def iblk1 (c : Dev nD) (w : Fin (cfg1 a1).W) (t : Fin (cfg1 a1).N) :
    (((cfg1 a1).win w).xblock ((cfg1 a1).grid.coords t)).Idx → Elt F ((cfg1 a1).win w).elt :=
  (((cfg1 a1).win w).blk t).view.read (Elt F) (V c (Pipeline.arrRef spec1 w))

/-- The input window's current staging buffer holds its block at every point, fetched there or not, for any proof
    data whose array is V's and whose body leaves the block in place: unfetched, the block index has not moved. -/
theorem beforeIn1_of {c : Dev nD} (dat : Dat τ (Elt F) Unit ℕ (UD sig nD τ) ℕ (cfg1 a1) c)
    (hA : dat.A 0 = V c (Pipeline.arrRef spec1 0))
    (hafter : ∀ t, dat.after 0 t = iblk1 V a1 c 0 t) (t : Fin (cfg1 a1).N) (d) : dat.before 0 t d = iblk1 V a1 c 0 t :=
  (dat.before_in_eq_fetched 0 rfl (fun _ => rfl) (fun _ _ _ => rfl)
    (fun t => by rw [hafter]; unfold Dat.blockOf iblk1; rw [hA]; try rfl) t d).trans
    (by unfold Dat.fetched Dat.blockOf iblk1; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat1 (c : Dev nD) : Dat τ (Elt F) Unit ℕ (UD sig nD τ) ℕ (cfg1 a1) c where
  A w := V c (Pipeline.arrRef spec1 w)
  after w t := match w with
    | ⟨0, _⟩ => iblk1 V a1 c 0 t
    | ⟨1, _⟩ => O c t
  Φ _ := iprop(Pipeline.ΦD osem1 spec1 {main_v3} V c ∗ Pipeline.prefHeld pre1 c (fun _ => fullShare) a1.1)
  q _ := fullShare
  owed _ := 0

theorem A_eq1 (c : Dev nD) (w : Fin (cfg1 a1).W) : (dat1 V a1 O c).A w = V c (Pipeline.arrRef spec1 w) := by
  dsimp only [dat1]

theorem afterIn1 (c : Dev nD) (t : Fin (cfg1 a1).N) : (dat1 V a1 O c).after 0 t = iblk1 V a1 c 0 t := by
  dsimp only [dat1]; rfl

theorem afterOut1 (c : Dev nD) (t : Fin (cfg1 a1).N) :
    (dat1 V a1 O c).after 1 t = O c t := by
  dsimp only [dat1]; rfl

theorem beforeIn1 (c : Dev nD) (t : Fin (cfg1 a1).N) (d) : (dat1 V a1 O c).before 0 t d = iblk1 V a1 c 0 t :=
  beforeIn1_of V a1 (dat1 V a1 O c) (A_eq1 V a1 O c 0) (afterIn1 V a1 O c) t d

theorem Phi_eq1 (c : Dev nD) (t : Fin ((cfg1 a1).N + 1)) :
    (dat1 V a1 O c).Φ t
      = iprop(Pipeline.ΦD osem1 spec1 {main_v3} V c ∗ Pipeline.prefHeld pre1 c (fun _ => fullShare) a1.1) := by
  dsimp only [dat1]

theorem owed_eq1 (c : Dev nD) (t : Fin ((cfg1 a1).N + 1)) : (dat1 V a1 O c).owed t = 0 := by
  dsimp only [dat1]

/-! ## The invariant, conjunct by conjunct -/

/-- The invariant's first part opened: the body's scratch buffer whole at some contents and the other scoped
    buffers no window stages, the generator register, the own cells at zero, the far operand at its contents. -/
theorem PhiD_eq1 (c : Dev nD) :
    (Pipeline.ΦD osem1 spec1 {main_v3} V c : sProp 𝕄)
      = iprop(iprop(iprop((∃ f : Buf (Elt F) ((c : Thread nD τ).loc cc1_scratch0), ((c : Thread nD τ).loc cc1_scratch0) ↦{fullShare} f))
            ∗ Pipeline.scopedRestBut (Ix := Unit) (Name := ℕ) (U := UD sig nD τ) (Lvl := ℕ) (Val := Elt F) spec1 c [cc1_scratch0])
          ∗ (∃ r, prngReg c r)
          ∗ Pipeline.ownSems0 (Ix := Unit) (Name := ℕ) (U := UD sig nD τ) (Lvl := ℕ) (Val := Elt F) (τ := τ) osem1 c
          ∗ (((c : Thread nD τ).loc main_v3) ↦{fullShare} V c main_v3)) := by
  rw [Pipeline.ΦD_eq, scopedRest1_split, BI.bigSep_eq_bigSepL_of_eq [main_v3] (by decide) (by decide)]; rfl

/-- The one table, held whole. -/
theorem prefHeld_eq1 (c : Dev nD) :
    (Pipeline.prefHeld pre1 c (fun _ => fullShare) a1.1 : sProp 𝕄)
      = (((c : Thread nD τ).loc main_v5) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg1 (w : Fin (cfg1 a1).W) (t : Fin (cfg1 a1).N) := ((cfg1 a1).win w).stage ((cfg1 a1).slots t w)

/-- The body as the pipeline calls it at point t. -/
abbrev bodyProg1 (t : Fin (cfg1 a1).N) : Prog (TpuEff nD τ sig (Elt F) Λ₀ .tc) PUnit :=
  (defs₀ (F := F)) .tc (cfg1 a1).body ((cfg1 a1).bodyArgs t ((cfg1 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun1 : Prop :=
  ∀ (c : Dev nD) (t : Fin (cfg1 a1).N) (W) (K : PUnit → sProp 𝕄),
    iprop(owns (c : Thread nD τ) (stg1 a1 0 t) fullShare (iblk1 V a1 c 0 t)
        ∗ (∃ d, owns (c : Thread nD τ) (stg1 a1 1 t) fullShare d)
        ∗ (∃ f : Buf (Elt F) ((c : Thread nD τ).loc cc1_scratch0), ((c : Thread nD τ).loc cc1_scratch0) ↦{fullShare} f)
        ∗ Pipeline.ownSems0 (Ix := Unit) (Name := ℕ) (U := UD sig nD τ) (Lvl := ℕ) (Val := Elt F) (τ := τ) osem1 c
        ∗ (((c : Thread nD τ).loc main_v5) ↦{fullShare} a1.1 0)
        ∗ (((c : Thread nD τ).loc main_v3) ↦{fullShare} V c main_v3)
        ∗ owes (c : Thread nD τ) (0 : CellTallies nD τ sig Unit) W
        ∗ (iprop(owns (c : Thread nD τ) (stg1 a1 0 t) fullShare (iblk1 V a1 c 0 t)
            ∗ owns (c : Thread nD τ) (stg1 a1 1 t) fullShare (O c t)
            ∗ (∃ f : Buf (Elt F) ((c : Thread nD τ).loc cc1_scratch0), ((c : Thread nD τ).loc cc1_scratch0) ↦{fullShare} f)
            ∗ Pipeline.ownSems0 (Ix := Unit) (Name := ℕ) (U := UD sig nD τ) (Lvl := ℕ) (Val := Elt F) (τ := τ) osem1 c
            ∗ (((c : Thread nD τ).loc main_v5) ↦{fullShare} a1.1 0)
            ∗ (((c : Thread nD τ).loc main_v3) ↦{fullShare} V c main_v3)
            ∗ (∃ W', owes (c : Thread nD τ) (0 : CellTallies nD τ sig Unit) W')) -∗ K ⟨⟩))
      ⊢ wp frame (wpE (defs₀ (F := F)) Variants.none c none) Set.univ (bodyProg1 a1 t) K

/-- What the body is called with at point t, the windows one by one, -/
def bodyPre1 (c : Dev nD) (t : Fin (cfg1 a1).N) : sProp 𝕄 :=
  iprop((dat1 V a1 O c).Φ t.castSucc ∗ (dat1 V a1 O c).owesAt () t.castSucc
    ∗ (∃ d, owns (c : Thread nD τ) (stg1 a1 0 t) fullShare ((dat1 V a1 O c).before 0 t d))
    ∗ (∃ d, owns (c : Thread nD τ) (stg1 a1 1 t) fullShare ((dat1 V a1 O c).before 1 t d)))

/-- and what it returns. -/
def bodyPost1 (c : Dev nD) (t : Fin (cfg1 a1).N) : sProp 𝕄 :=
  iprop((dat1 V a1 O c).Φ t.succ ∗ (dat1 V a1 O c).owesAt () t.succ
    ∗ owns (c : Thread nD τ) (stg1 a1 0 t) fullShare ((dat1 V a1 O c).after 0 t)
    ∗ owns (c : Thread nD τ) (stg1 a1 1 t) fullShare ((dat1 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body1 (hrun : BodyRun1 V a1 O) (c : Dev nD) (t : Fin (cfg1 a1).N) :
    bodyPre1 V a1 O c t
      ⊢ wp frame (wpE (defs₀ (F := F)) Variants.none c none) Set.univ (bodyProg1 a1 t) (fun _ => bodyPost1 V a1 O c t) := by
  unfold bodyPre1 bodyPost1
  simp only [beforeIn1]
  rw [afterIn1, afterOut1, Phi_eq1, Phi_eq1, PhiD_eq1, prefHeld_eq1]
  unfold Dat.owesAt Pipeline.owesWithin
  rw [owed_eq1, owed_eq1]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation1 (hrun : BodyRun1 V a1 O) (c : Dev nD) :
    BodyObligation (dat1 (F := F) V a1 O c) (defs₀ (F := F)) Variants.none () Set.univ := fun t => by
  rw [bigSep_W1, bigSep_W1]
  exact sound_body1 V a1 O hrun c t

end Data

/-! ## The region's record -/

section Record

variable (Win : Dev nD → Valuation τ sig (Elt F))

variable (a1 : (pcfg1 (F := F)).Adm)
  (O : (c : Dev nD) → Fin (cfg1 a1).N → Vec F S8x64 .f32)

/-- The buffers at the region's exit: its arrays at what the write-backs leave, every other buffer as entered. -/
def Wout1 (c : Dev nD) : Valuation τ sig (Elt F) :=
  Pipeline.withArrays spec1 c (Win c) fun w => (dat1 (Vof Win) a1 O c).arrAt w (cfg1 a1).N

theorem Wout1_arr (c : Dev nD) (w : Fin (cfg1 a1).W) :
    Wout1 Win a1 O c (Proc.devRef .tc (Pipeline.arrRef spec1 w)) = (dat1 (Vof Win) a1 O c).arrAt w (cfg1 a1).N := by
  unfold Wout1; exact Pipeline.withArrays_arr spec1 winFacts1.arr_inj c _ _ w

theorem Wout1_of_ne (c : Dev nD) (b : Ref sig .tc) (hb : ∀ w, Pipeline.arrRef spec1 w ≠ b) :
    Wout1 Win a1 O c (Proc.devRef .tc b) = Win c (Proc.devRef .tc b) := by
  unfold Wout1; exact Pipeline.withArrays_of_ne spec1 c _ _ b hb

/-- ENTRY, the buffers' part. Every unscoped buffer at Win is: the region's arrays at the proof data's entry contents,
    the table whole at the admissible contents (which are Win's there), the far operand whole, and the others. -/
theorem entry1 (c : Dev nD) (ha1 : ∀ k, Vof Win c (pre1.ref k) = a1.1 k) :
    (StableHlo.held (c : Thread nD τ) (Pipeline.ucRefs τ sig) (Win c) : sProp 𝕄)
      ⊢ iprop((dat1 (Vof Win) a1 O c).arrays ((dat1 (Vof Win) a1 O c).arrAt · 0)
          ∗ Pipeline.prefHeld pre1 c (fun _ => fullShare) a1.1
          ∗ (bigSep ({main_v3} : Finset (Ref sig .tc)) fun b => (((c : Thread nD τ)).loc b) ↦{fullShare} Vof Win c b)
          ∗ bigSep (Pipeline.restRefsP sig pre1 spec1 \ {main_v3}) fun b => (((c : Thread nD τ)).loc b) ↦{fullShare} Vof Win c b) := by
  have hsplit := Pipeline.arrays_of_unscopedBufs (p := ()) (fun (_ : Unit) => pcfg1 (F := F)) (fun _ => a1)
    (fun _ c => dat1 (Vof Win) a1 O c) winFacts1 (launch1 (F := F)).arr_whole c
    ((dat1 (Vof Win) a1 O c).share_full fun _ => rfl) (Vof Win c) (fun w => A_eq1 (Vof Win) a1 O c w)
  rw [Pipeline.unscopedBufs_held,
    Pipeline.unscopedRest_split (Ix := Unit) (Name := ℕ) (U := UD sig nD τ) (Lvl := ℕ) preFacts1 c (Vof Win c),
    Pipeline.unscopedRestP_sdiff pre1 spec1 {main_v3} hx_sub1 c (Vof Win c),
    show (fun k => Vof Win c (pre1.ref k)) = a1.1 from funext ha1] at hsplit
  exact hsplit

/-- EXIT, the buffers' part: the same four put back, the arrays at what the write-backs leave, are every unscoped
    buffer at the exit valuation. -/
theorem exit1 (c : Dev nD) (ha1 : ∀ k, Vof Win c (pre1.ref k) = a1.1 k) :
    iprop((dat1 (Vof Win) a1 O c).arrays ((dat1 (Vof Win) a1 O c).arrAt · (cfg1 a1).N)
        ∗ Pipeline.prefHeld pre1 c (fun _ => fullShare) a1.1
        ∗ (bigSep ({main_v3} : Finset (Ref sig .tc)) fun b => (((c : Thread nD τ)).loc b) ↦{fullShare} Vof Win c b)
        ∗ bigSep (Pipeline.restRefsP sig pre1 spec1 \ {main_v3}) fun b => (((c : Thread nD τ)).loc b) ↦{fullShare} Vof Win c b)
      ⊢ (StableHlo.held (c : Thread nD τ) (Pipeline.ucRefs τ sig) (Wout1 Win a1 O c) : sProp 𝕄) := by
  have hjoin := Pipeline.unscopedBufs_of_arrays (p := ()) (fun (_ : Unit) => pcfg1 (F := F)) (fun _ => a1)
    (Ix := Unit) (Name := ℕ) (U := UD sig nD τ) (Lvl := ℕ)
    winFacts1 (launch1 (F := F)).arr_whole c (fun _ c => dat1 (Vof Win) a1 O c)
    ((dat1 (Vof Win) a1 O c).share_full fun _ => rfl)
    (Vof Win c) (Vof (Wout1 Win a1 O) c) ((dat1 (Vof Win) a1 O c).arrAt · (cfg1 a1).N)
    (fun w => (Wout1_arr Win a1 O c w).symm)
    (fun b hb => Wout1_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts1 c (Vof Win c),
    Pipeline.unscopedRestP_sdiff pre1 spec1 {main_v3} hx_sub1 c (Vof Win c),
    show (fun k => Vof Win c (pre1.ref k)) = a1.1 from funext ha1] at hjoin
  exact hjoin

end Record

section Seg

variable (Win : Dev nD → Valuation τ sig (Elt F))
  (adm : (p : Fin 49) → (pcfgs (F := F) p).Adm)
  (O : (c : Dev nD) → Fin (cfg1 (adm (1 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout1. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg1 (hd : ∀ c, pdats (1 : Fin 49) c = dat1 (Vof Win) (adm (1 : Fin 49)) O c)
    (ha1 : ∀ c k, Vof Win c (pre1.ref k) = (adm (1 : Fin 49)).1 k)
    (hbody : ∀ c, BodyObligation (dat1 (F := F) (Vof Win) (adm (1 : Fin 49)) O c) (defs₀ (F := F)) 𝒱₀ () Set.univ) :
    Pipeline.RegionSeg (pcfgs (F := F)) adm pdats () defs₀ 𝒱₀ L lv (1 : Fin 49) where
  win := (launch1 (F := F)).win.to₀
  block_pos := (launch1 (F := F)).block_pos
  stage_whole := (launch1 (F := F)).stage_whole
  K := Fin 8
  osem := osem1
  ho := ownSemFacts1
  hbody c := by rw [hd c]; exact (hbody c).loose
  hwaits := Pipeline.hwaits_of_owed_zero _ _ _ _ L lv (1 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout1 Win (adm (1 : Fin 49)) O c) ∗ R c)
  X c := iprop((∃ r, prngReg c r)
    ∗ Pipeline.ownSems0 (Ix := Unit) (Name := ℕ) (U := UD sig nD τ) (Lvl := ℕ) (Val := Elt F) (τ := τ) osem1 c
    ∗ (bigSep ({main_v3} : Finset (Ref sig .tc)) fun b => (((c : Thread nD τ)).loc b) ↦{fullShare} Vof Win c b))
  Y c := iprop((∃ r, prngReg c r)
    ∗ (bigSep ({main_v3} : Finset (Ref sig .tc)) fun b => (((c : Thread nD τ)).loc b) ↦{fullShare} Vof Win c b)
    ∗ Pipeline.prefHeld pre1 c (fun _ => fullShare) (adm (1 : Fin 49)).1)
  Z c := bigSep (Pipeline.restRefsP sig pre1 spec1 \ {main_v3}) fun b => (((c : Thread nD τ)).loc b) ↦{fullShare} Vof Win c b
  hentry c := by
    rw [hd c]
    iintro ⟨⟨Hub, Hp, HO⟩, Hos, -⟩
    ihave H := (entry1 Win (adm (1 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq1, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq1, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit1 Win (adm (1 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg1 (F := F)).Adm)

/-- The output block at point t: the gathered rows (of the far operand's contents under V, chosen by the table's
    words at that point) times the input block. -/
def outBlk1 (c : Dev nD) (t : Fin (cfg1 a1).N) : Vec F S8x64 .f32 :=
  gatherOut (gatherG (a1.1 0) (V c main_v3) (grid1.coords t)) (iblk1 V a1 c 0 t)

theorem outBlk_eq1 (c : Dev nD) (t : Fin (cfg1 a1).N) :
    outBlk1 V a1 c t = gatherOut (gatherG (a1.1 0) (V c main_v3) (grid1.coords t)) (iblk1 V a1 c 0 t) := rfl

/-- The proof data with the output block named: after the body at point t the output window's buffer holds it. -/
theorem afterOutBlk1 (c : Dev nD) (t : Fin (cfg1 a1).N) :
    (dat1 V a1 (outBlk1 V a1) c).after 1 t
      = gatherOut (gatherG (a1.1 0) (V c main_v3) (grid1.coords t)) (iblk1 V a1 c 0 t) :=
  afterOut1 V a1 (outBlk1 V a1) c t

/-- The own cells at zero are the semaphore array's eight entries at zero, in order. -/
theorem ownSems_eq1 (c : Dev nD) :
    (Pipeline.ownSems0 (Ix := Unit) (Name := ℕ) (U := UD sig nD τ) (Lvl := ℕ) (Val := Elt F) (τ := τ) osem1 c : sProp 𝕄)
      = gsems0 c cc1_scratch1 := by
  rw [Pipeline.ownSems0_eq_of_list c osem1 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq1 (t : Fin (cfg1 a1).N) : ∃ h3 h4, bodyProg1 (F := F) a1 t
    = cc1__gather_mul_kernel (grid1.coords t) (Memref.whole main_v5) (Memref.isWhole_whole _) (Memref.whole main_v3) (Memref.isWhole_whole _)
        (stg1 a1 0 t) h3 (stg1 a1 1 t) h4 (Memref.whole cc1_scratch0) (Memref.isWhole_whole _) cc1_scratch1 := ⟨_, _, rfl⟩

end Out

/-! ## The body's run, joined to the proof data -/

section Body

variable (V : (c : Dev nD) → (b : Ref sig .tc) → Buf (Elt F) ((c : Thread nD τ).loc b))
  (a1 : (pcfg1 (F := F)).Adm)

/-- The scratch buffer whole at some contents, as a memref owned at some contents. -/
theorem scratchOwns_eq1 (c : Dev nD) :
    (iprop(∃ d, owns (c : Thread nD τ) (Memref.whole cc1_scratch0) fullShare d) : sProp 𝕄)
      = iprop(∃ f : Buf (Elt F) ((c : Thread nD τ).loc cc1_scratch0), ((c : Thread nD τ).loc cc1_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun1 (hlt : ∀ y, BitVec.toNat ((a1.1 0) y) < 100000) : BodyRun1 V a1 (outBlk1 V a1) := by
  intro c t W K
  obtain ⟨h3, h4, hprog⟩ := bodyProg_eq1 (F := F) a1 t
  rw [hprog, ownSems_eq1, ← scratchOwns_eq1 (F := F) c]
  have hrun := gather_kernel_run (F := F) c (grid1.coords t) (Memref.whole main_v5) (Memref.isWhole_whole _) (Memref.whole main_v3) (Memref.isWhole_whole _)
    (stg1 a1 0 t) h3 (stg1 a1 1 t) h4 (Memref.whole cc1_scratch0) (Memref.isWhole_whole _) cc1_scratch1 fullShare fullShare
    (a1.1 0) (V c main_v3) (iblk1 V a1 c 0 t) (fun y => hlt y) W K
  simp only [Memref.view_whole, View.read_whole] at hrun
  unfold outBlk1
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut1 (hlt : ∀ y, BitVec.toNat ((a1.1 0) y) < 100000) (c : Dev nD) :
    BodyObligation (dat1 (F := F) V a1 (outBlk1 V a1) c) (defs₀ (F := F)) Variants.none () Set.univ :=
  body_obligation1 V a1 (outBlk1 V a1) (bodyRun1 V a1 hlt) c

end Body

end Cert.KernelIdeal.Hand

end
-- ==== Proof.KI.Regions_2_9.lean ====
/-
  Gather regions 2 to 9 of the host program, one after the other: for each, the proof data, the body obligation and the record of the region in the launch,
  exactly as for region 1 (whose module says what each part is).
-/
import proofs.«421643_j28415503630349_2_alg».proof.Proof.KI.Common
import proofs.«421643_j28415503630349_2_alg».proof.Proof.KI.BodyEq
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

/-! # Region 2 -/

/-! ## The body's own transfer cells -/

/-- The eight cells of the body's semaphore array, in order. -/
abbrev osem2 : Fin 8 → SemLoc sig := fun j => SemLoc.dma (cc2_scratch1.ix (fun | ⟨0, _⟩ => j))

/-- They are scoped, pairwise distinct, and none is a staging cell of a window. -/
theorem ownSemFacts2 : Pipeline.OwnSemFacts spec2 osem2 := by decide

/-- The far operand is an unscoped buffer that is neither a window's array nor a table. -/
theorem hx_sub2 : ({main_v3} : Finset (Ref sig .tc)) ⊆ Pipeline.restRefsP sig pre2 spec2 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg2 (F := F)).Adm)
  (O : (c : Dev nD) → Fin (cfg2 a1).N → Vec F S8x64 .f32)

/-! ## The windows' blocks -/

/-- Window w's block at point t, read off its array under V. -/
def iblk2 (c : Dev nD) (w : Fin (cfg2 a1).W) (t : Fin (cfg2 a1).N) :
    (((cfg2 a1).win w).xblock ((cfg2 a1).grid.coords t)).Idx → Elt F ((cfg2 a1).win w).elt :=
  (((cfg2 a1).win w).blk t).view.read (Elt F) (V c (Pipeline.arrRef spec2 w))

/-- The input window's current staging buffer holds its block at every point, fetched there or not, for any proof
    data whose array is V's and whose body leaves the block in place: unfetched, the block index has not moved. -/
theorem beforeIn2_of {c : Dev nD} (dat : Dat τ (Elt F) Unit ℕ (UD sig nD τ) ℕ (cfg2 a1) c)
    (hA : dat.A 0 = V c (Pipeline.arrRef spec2 0))
    (hafter : ∀ t, dat.after 0 t = iblk2 V a1 c 0 t) (t : Fin (cfg2 a1).N) (d) : dat.before 0 t d = iblk2 V a1 c 0 t :=
  (dat.before_in_eq_fetched 0 rfl (fun _ => rfl) (fun _ _ _ => rfl)
    (fun t => by rw [hafter]; unfold Dat.blockOf iblk2; rw [hA]; try rfl) t d).trans
    (by unfold Dat.fetched Dat.blockOf iblk2; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat2 (c : Dev nD) : Dat τ (Elt F) Unit ℕ (UD sig nD τ) ℕ (cfg2 a1) c where
  A w := V c (Pipeline.arrRef spec2 w)
  after w t := match w with
    | ⟨0, _⟩ => iblk2 V a1 c 0 t
    | ⟨1, _⟩ => O c t
  Φ _ := iprop(Pipeline.ΦD osem2 spec2 {main_v3} V c ∗ Pipeline.prefHeld pre2 c (fun _ => fullShare) a1.1)
  q _ := fullShare
  owed _ := 0

theorem A_eq2 (c : Dev nD) (w : Fin (cfg2 a1).W) : (dat2 V a1 O c).A w = V c (Pipeline.arrRef spec2 w) := by
  dsimp only [dat2]

theorem afterIn2 (c : Dev nD) (t : Fin (cfg2 a1).N) : (dat2 V a1 O c).after 0 t = iblk2 V a1 c 0 t := by
  dsimp only [dat2]; rfl

theorem afterOut2 (c : Dev nD) (t : Fin (cfg2 a1).N) :
    (dat2 V a1 O c).after 1 t = O c t := by
  dsimp only [dat2]; rfl

theorem beforeIn2 (c : Dev nD) (t : Fin (cfg2 a1).N) (d) : (dat2 V a1 O c).before 0 t d = iblk2 V a1 c 0 t :=
  beforeIn2_of V a1 (dat2 V a1 O c) (A_eq2 V a1 O c 0) (afterIn2 V a1 O c) t d

theorem Phi_eq2 (c : Dev nD) (t : Fin ((cfg2 a1).N + 1)) :
    (dat2 V a1 O c).Φ t
      = iprop(Pipeline.ΦD osem2 spec2 {main_v3} V c ∗ Pipeline.prefHeld pre2 c (fun _ => fullShare) a1.1) := by
  dsimp only [dat2]

theorem owed_eq2 (c : Dev nD) (t : Fin ((cfg2 a1).N + 1)) : (dat2 V a1 O c).owed t = 0 := by
  dsimp only [dat2]

/-! ## The invariant, conjunct by conjunct -/

/-- The invariant's first part opened: the body's scratch buffer whole at some contents and the other scoped
    buffers no window stages, the generator register, the own cells at zero, the far operand at its contents. -/
theorem PhiD_eq2 (c : Dev nD) :
    (Pipeline.ΦD osem2 spec2 {main_v3} V c : sProp 𝕄)
      = iprop(iprop(iprop((∃ f : Buf (Elt F) ((c : Thread nD τ).loc cc2_scratch0), ((c : Thread nD τ).loc cc2_scratch0) ↦{fullShare} f))
            ∗ Pipeline.scopedRestBut (Ix := Unit) (Name := ℕ) (U := UD sig nD τ) (Lvl := ℕ) (Val := Elt F) spec2 c [cc2_scratch0])
          ∗ (∃ r, prngReg c r)
          ∗ Pipeline.ownSems0 (Ix := Unit) (Name := ℕ) (U := UD sig nD τ) (Lvl := ℕ) (Val := Elt F) (τ := τ) osem2 c
          ∗ (((c : Thread nD τ).loc main_v3) ↦{fullShare} V c main_v3)) := by
  rw [Pipeline.ΦD_eq, scopedRest2_split, BI.bigSep_eq_bigSepL_of_eq [main_v3] (by decide) (by decide)]; rfl

/-- The one table, held whole. -/
theorem prefHeld_eq2 (c : Dev nD) :
    (Pipeline.prefHeld pre2 c (fun _ => fullShare) a1.1 : sProp 𝕄)
      = (((c : Thread nD τ).loc main_v9) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg2 (w : Fin (cfg2 a1).W) (t : Fin (cfg2 a1).N) := ((cfg2 a1).win w).stage ((cfg2 a1).slots t w)

/-- The body as the pipeline calls it at point t. -/
abbrev bodyProg2 (t : Fin (cfg2 a1).N) : Prog (TpuEff nD τ sig (Elt F) Λ₀ .tc) PUnit :=
  (defs₀ (F := F)) .tc (cfg2 a1).body ((cfg2 a1).bodyArgs t ((cfg2 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun2 : Prop :=
  ∀ (c : Dev nD) (t : Fin (cfg2 a1).N) (W) (K : PUnit → sProp 𝕄),
    iprop(owns (c : Thread nD τ) (stg2 a1 0 t) fullShare (iblk2 V a1 c 0 t)
        ∗ (∃ d, owns (c : Thread nD τ) (stg2 a1 1 t) fullShare d)
        ∗ (∃ f : Buf (Elt F) ((c : Thread nD τ).loc cc2_scratch0), ((c : Thread nD τ).loc cc2_scratch0) ↦{fullShare} f)
        ∗ Pipeline.ownSems0 (Ix := Unit) (Name := ℕ) (U := UD sig nD τ) (Lvl := ℕ) (Val := Elt F) (τ := τ) osem2 c
        ∗ (((c : Thread nD τ).loc main_v9) ↦{fullShare} a1.1 0)
        ∗ (((c : Thread nD τ).loc main_v3) ↦{fullShare} V c main_v3)
        ∗ owes (c : Thread nD τ) (0 : CellTallies nD τ sig Unit) W
        ∗ (iprop(owns (c : Thread nD τ) (stg2 a1 0 t) fullShare (iblk2 V a1 c 0 t)
            ∗ owns (c : Thread nD τ) (stg2 a1 1 t) fullShare (O c t)
            ∗ (∃ f : Buf (Elt F) ((c : Thread nD τ).loc cc2_scratch0), ((c : Thread nD τ).loc cc2_scratch0) ↦{fullShare} f)
            ∗ Pipeline.ownSems0 (Ix := Unit) (Name := ℕ) (U := UD sig nD τ) (Lvl := ℕ) (Val := Elt F) (τ := τ) osem2 c
            ∗ (((c : Thread nD τ).loc main_v9) ↦{fullShare} a1.1 0)
            ∗ (((c : Thread nD τ).loc main_v3) ↦{fullShare} V c main_v3)
            ∗ (∃ W', owes (c : Thread nD τ) (0 : CellTallies nD τ sig Unit) W')) -∗ K ⟨⟩))
      ⊢ wp frame (wpE (defs₀ (F := F)) Variants.none c none) Set.univ (bodyProg2 a1 t) K

/-- What the body is called with at point t, the windows one by one, -/
def bodyPre2 (c : Dev nD) (t : Fin (cfg2 a1).N) : sProp 𝕄 :=
  iprop((dat2 V a1 O c).Φ t.castSucc ∗ (dat2 V a1 O c).owesAt () t.castSucc
    ∗ (∃ d, owns (c : Thread nD τ) (stg2 a1 0 t) fullShare ((dat2 V a1 O c).before 0 t d))
    ∗ (∃ d, owns (c : Thread nD τ) (stg2 a1 1 t) fullShare ((dat2 V a1 O c).before 1 t d)))

/-- and what it returns. -/
def bodyPost2 (c : Dev nD) (t : Fin (cfg2 a1).N) : sProp 𝕄 :=
  iprop((dat2 V a1 O c).Φ t.succ ∗ (dat2 V a1 O c).owesAt () t.succ
    ∗ owns (c : Thread nD τ) (stg2 a1 0 t) fullShare ((dat2 V a1 O c).after 0 t)
    ∗ owns (c : Thread nD τ) (stg2 a1 1 t) fullShare ((dat2 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body2 (hrun : BodyRun2 V a1 O) (c : Dev nD) (t : Fin (cfg2 a1).N) :
    bodyPre2 V a1 O c t
      ⊢ wp frame (wpE (defs₀ (F := F)) Variants.none c none) Set.univ (bodyProg2 a1 t) (fun _ => bodyPost2 V a1 O c t) := by
  unfold bodyPre2 bodyPost2
  simp only [beforeIn2]
  rw [afterIn2, afterOut2, Phi_eq2, Phi_eq2, PhiD_eq2, prefHeld_eq2]
  unfold Dat.owesAt Pipeline.owesWithin
  rw [owed_eq2, owed_eq2]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation2 (hrun : BodyRun2 V a1 O) (c : Dev nD) :
    BodyObligation (dat2 (F := F) V a1 O c) (defs₀ (F := F)) Variants.none () Set.univ := fun t => by
  rw [bigSep_W2, bigSep_W2]
  exact sound_body2 V a1 O hrun c t

end Data

/-! ## The region's record -/

section Record

variable (Win : Dev nD → Valuation τ sig (Elt F))

variable (a1 : (pcfg2 (F := F)).Adm)
  (O : (c : Dev nD) → Fin (cfg2 a1).N → Vec F S8x64 .f32)

/-- The buffers at the region's exit: its arrays at what the write-backs leave, every other buffer as entered. -/
def Wout2 (c : Dev nD) : Valuation τ sig (Elt F) :=
  Pipeline.withArrays spec2 c (Win c) fun w => (dat2 (Vof Win) a1 O c).arrAt w (cfg2 a1).N

theorem Wout2_arr (c : Dev nD) (w : Fin (cfg2 a1).W) :
    Wout2 Win a1 O c (Proc.devRef .tc (Pipeline.arrRef spec2 w)) = (dat2 (Vof Win) a1 O c).arrAt w (cfg2 a1).N := by
  unfold Wout2; exact Pipeline.withArrays_arr spec2 winFacts2.arr_inj c _ _ w

theorem Wout2_of_ne (c : Dev nD) (b : Ref sig .tc) (hb : ∀ w, Pipeline.arrRef spec2 w ≠ b) :
    Wout2 Win a1 O c (Proc.devRef .tc b) = Win c (Proc.devRef .tc b) := by
  unfold Wout2; exact Pipeline.withArrays_of_ne spec2 c _ _ b hb

/-- ENTRY, the buffers' part. Every unscoped buffer at Win is: the region's arrays at the proof data's entry contents,
    the table whole at the admissible contents (which are Win's there), the far operand whole, and the others. -/
theorem entry2 (c : Dev nD) (ha1 : ∀ k, Vof Win c (pre2.ref k) = a1.1 k) :
    (StableHlo.held (c : Thread nD τ) (Pipeline.ucRefs τ sig) (Win c) : sProp 𝕄)
      ⊢ iprop((dat2 (Vof Win) a1 O c).arrays ((dat2 (Vof Win) a1 O c).arrAt · 0)
          ∗ Pipeline.prefHeld pre2 c (fun _ => fullShare) a1.1
          ∗ (bigSep ({main_v3} : Finset (Ref sig .tc)) fun b => (((c : Thread nD τ)).loc b) ↦{fullShare} Vof Win c b)
          ∗ bigSep (Pipeline.restRefsP sig pre2 spec2 \ {main_v3}) fun b => (((c : Thread nD τ)).loc b) ↦{fullShare} Vof Win c b) := by
  have hsplit := Pipeline.arrays_of_unscopedBufs (p := ()) (fun (_ : Unit) => pcfg2 (F := F)) (fun _ => a1)
    (fun _ c => dat2 (Vof Win) a1 O c) winFacts2 (launch2 (F := F)).arr_whole c
    ((dat2 (Vof Win) a1 O c).share_full fun _ => rfl) (Vof Win c) (fun w => A_eq2 (Vof Win) a1 O c w)
  rw [Pipeline.unscopedBufs_held,
    Pipeline.unscopedRest_split (Ix := Unit) (Name := ℕ) (U := UD sig nD τ) (Lvl := ℕ) preFacts2 c (Vof Win c),
    Pipeline.unscopedRestP_sdiff pre2 spec2 {main_v3} hx_sub2 c (Vof Win c),
    show (fun k => Vof Win c (pre2.ref k)) = a1.1 from funext ha1] at hsplit
  exact hsplit

/-- EXIT, the buffers' part: the same four put back, the arrays at what the write-backs leave, are every unscoped
    buffer at the exit valuation. -/
theorem exit2 (c : Dev nD) (ha1 : ∀ k, Vof Win c (pre2.ref k) = a1.1 k) :
    iprop((dat2 (Vof Win) a1 O c).arrays ((dat2 (Vof Win) a1 O c).arrAt · (cfg2 a1).N)
        ∗ Pipeline.prefHeld pre2 c (fun _ => fullShare) a1.1
        ∗ (bigSep ({main_v3} : Finset (Ref sig .tc)) fun b => (((c : Thread nD τ)).loc b) ↦{fullShare} Vof Win c b)
        ∗ bigSep (Pipeline.restRefsP sig pre2 spec2 \ {main_v3}) fun b => (((c : Thread nD τ)).loc b) ↦{fullShare} Vof Win c b)
      ⊢ (StableHlo.held (c : Thread nD τ) (Pipeline.ucRefs τ sig) (Wout2 Win a1 O c) : sProp 𝕄) := by
  have hjoin := Pipeline.unscopedBufs_of_arrays (p := ()) (fun (_ : Unit) => pcfg2 (F := F)) (fun _ => a1)
    (Ix := Unit) (Name := ℕ) (U := UD sig nD τ) (Lvl := ℕ)
    winFacts2 (launch2 (F := F)).arr_whole c (fun _ c => dat2 (Vof Win) a1 O c)
    ((dat2 (Vof Win) a1 O c).share_full fun _ => rfl)
    (Vof Win c) (Vof (Wout2 Win a1 O) c) ((dat2 (Vof Win) a1 O c).arrAt · (cfg2 a1).N)
    (fun w => (Wout2_arr Win a1 O c w).symm)
    (fun b hb => Wout2_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts2 c (Vof Win c),
    Pipeline.unscopedRestP_sdiff pre2 spec2 {main_v3} hx_sub2 c (Vof Win c),
    show (fun k => Vof Win c (pre2.ref k)) = a1.1 from funext ha1] at hjoin
  exact hjoin

end Record

section Seg

variable (Win : Dev nD → Valuation τ sig (Elt F))
  (adm : (p : Fin 49) → (pcfgs (F := F) p).Adm)
  (O : (c : Dev nD) → Fin (cfg2 (adm (2 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout2. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg2 (hd : ∀ c, pdats (2 : Fin 49) c = dat2 (Vof Win) (adm (2 : Fin 49)) O c)
    (ha1 : ∀ c k, Vof Win c (pre2.ref k) = (adm (2 : Fin 49)).1 k)
    (hbody : ∀ c, BodyObligation (dat2 (F := F) (Vof Win) (adm (2 : Fin 49)) O c) (defs₀ (F := F)) 𝒱₀ () Set.univ) :
    Pipeline.RegionSeg (pcfgs (F := F)) adm pdats () defs₀ 𝒱₀ L lv (2 : Fin 49) where
  win := (launch2 (F := F)).win.to₀
  block_pos := (launch2 (F := F)).block_pos
  stage_whole := (launch2 (F := F)).stage_whole
  K := Fin 8
  osem := osem2
  ho := ownSemFacts2
  hbody c := by rw [hd c]; exact (hbody c).loose
  hwaits := Pipeline.hwaits_of_owed_zero _ _ _ _ L lv (2 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout2 Win (adm (2 : Fin 49)) O c) ∗ R c)
  X c := iprop((∃ r, prngReg c r)
    ∗ Pipeline.ownSems0 (Ix := Unit) (Name := ℕ) (U := UD sig nD τ) (Lvl := ℕ) (Val := Elt F) (τ := τ) osem2 c
    ∗ (bigSep ({main_v3} : Finset (Ref sig .tc)) fun b => (((c : Thread nD τ)).loc b) ↦{fullShare} Vof Win c b))
  Y c := iprop((∃ r, prngReg c r)
    ∗ (bigSep ({main_v3} : Finset (Ref sig .tc)) fun b => (((c : Thread nD τ)).loc b) ↦{fullShare} Vof Win c b)
    ∗ Pipeline.prefHeld pre2 c (fun _ => fullShare) (adm (2 : Fin 49)).1)
  Z c := bigSep (Pipeline.restRefsP sig pre2 spec2 \ {main_v3}) fun b => (((c : Thread nD τ)).loc b) ↦{fullShare} Vof Win c b
  hentry c := by
    rw [hd c]
    iintro ⟨⟨Hub, Hp, HO⟩, Hos, -⟩
    ihave H := (entry2 Win (adm (2 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq2, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq2, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit2 Win (adm (2 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg2 (F := F)).Adm)

/-- The output block at point t: the gathered rows (of the far operand's contents under V, chosen by the table's
    words at that point) times the input block. -/
def outBlk2 (c : Dev nD) (t : Fin (cfg2 a1).N) : Vec F S8x64 .f32 :=
  gatherOut (gatherG (a1.1 0) (V c main_v3) (grid2.coords t)) (iblk2 V a1 c 0 t)

theorem outBlk_eq2 (c : Dev nD) (t : Fin (cfg2 a1).N) :
    outBlk2 V a1 c t = gatherOut (gatherG (a1.1 0) (V c main_v3) (grid2.coords t)) (iblk2 V a1 c 0 t) := rfl

/-- The proof data with the output block named: after the body at point t the output window's buffer holds it. -/
theorem afterOutBlk2 (c : Dev nD) (t : Fin (cfg2 a1).N) :
    (dat2 V a1 (outBlk2 V a1) c).after 1 t
      = gatherOut (gatherG (a1.1 0) (V c main_v3) (grid2.coords t)) (iblk2 V a1 c 0 t) :=
  afterOut2 V a1 (outBlk2 V a1) c t

/-- The own cells at zero are the semaphore array's eight entries at zero, in order. -/
theorem ownSems_eq2 (c : Dev nD) :
    (Pipeline.ownSems0 (Ix := Unit) (Name := ℕ) (U := UD sig nD τ) (Lvl := ℕ) (Val := Elt F) (τ := τ) osem2 c : sProp 𝕄)
      = gsems0 c cc2_scratch1 := by
  rw [Pipeline.ownSems0_eq_of_list c osem2 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq2 (t : Fin (cfg2 a1).N) : ∃ h3 h4, bodyProg2 (F := F) a1 t
    = cc2__gather_mul_kernel (grid2.coords t) (Memref.whole main_v9) (Memref.isWhole_whole _) (Memref.whole main_v3) (Memref.isWhole_whole _)
        (stg2 a1 0 t) h3 (stg2 a1 1 t) h4 (Memref.whole cc2_scratch0) (Memref.isWhole_whole _) cc2_scratch1 := ⟨_, _, rfl⟩

end Out

/-! ## The body's run, joined to the proof data -/

section Body

variable (V : (c : Dev nD) → (b : Ref sig .tc) → Buf (Elt F) ((c : Thread nD τ).loc b))
  (a1 : (pcfg2 (F := F)).Adm)

/-- The scratch buffer whole at some contents, as a memref owned at some contents. -/
theorem scratchOwns_eq2 (c : Dev nD) :
    (iprop(∃ d, owns (c : Thread nD τ) (Memref.whole cc2_scratch0) fullShare d) : sProp 𝕄)
      = iprop(∃ f : Buf (Elt F) ((c : Thread nD τ).loc cc2_scratch0), ((c : Thread nD τ).loc cc2_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun2 (hlt : ∀ y, BitVec.toNat ((a1.1 0) y) < 100000) : BodyRun2 V a1 (outBlk2 V a1) := by
  intro c t W K
  obtain ⟨h3, h4, hprog⟩ := bodyProg_eq2 (F := F) a1 t
  rw [hprog, ownSems_eq2, ← scratchOwns_eq2 (F := F) c]
  have hrun := gather_kernel_run_2 (F := F) c (grid2.coords t) (Memref.whole main_v9) (Memref.isWhole_whole _) (Memref.whole main_v3) (Memref.isWhole_whole _)
    (stg2 a1 0 t) h3 (stg2 a1 1 t) h4 (Memref.whole cc2_scratch0) (Memref.isWhole_whole _) cc2_scratch1 fullShare fullShare
    (a1.1 0) (V c main_v3) (iblk2 V a1 c 0 t) (fun y => hlt y) W K
  simp only [Memref.view_whole, View.read_whole] at hrun
  unfold outBlk2
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut2 (hlt : ∀ y, BitVec.toNat ((a1.1 0) y) < 100000) (c : Dev nD) :
    BodyObligation (dat2 (F := F) V a1 (outBlk2 V a1) c) (defs₀ (F := F)) Variants.none () Set.univ :=
  body_obligation2 V a1 (outBlk2 V a1) (bodyRun2 V a1 hlt) c

end Body

/-! # Region 3 -/

/-! ## The body's own transfer cells -/

/-- The eight cells of the body's semaphore array, in order. -/
abbrev osem3 : Fin 8 → SemLoc sig := fun j => SemLoc.dma (cc3_scratch1.ix (fun | ⟨0, _⟩ => j))

/-- They are scoped, pairwise distinct, and none is a staging cell of a window. -/
theorem ownSemFacts3 : Pipeline.OwnSemFacts spec3 osem3 := by decide

/-- The far operand is an unscoped buffer that is neither a window's array nor a table. -/
theorem hx_sub3 : ({main_v3} : Finset (Ref sig .tc)) ⊆ Pipeline.restRefsP sig pre3 spec3 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg3 (F := F)).Adm)
  (O : (c : Dev nD) → Fin (cfg3 a1).N → Vec F S8x64 .f32)

/-! ## The windows' blocks -/

/-- Window w's block at point t, read off its array under V. -/
def iblk3 (c : Dev nD) (w : Fin (cfg3 a1).W) (t : Fin (cfg3 a1).N) :
    (((cfg3 a1).win w).xblock ((cfg3 a1).grid.coords t)).Idx → Elt F ((cfg3 a1).win w).elt :=
  (((cfg3 a1).win w).blk t).view.read (Elt F) (V c (Pipeline.arrRef spec3 w))

/-- The input window's current staging buffer holds its block at every point, fetched there or not, for any proof
    data whose array is V's and whose body leaves the block in place: unfetched, the block index has not moved. -/
theorem beforeIn3_of {c : Dev nD} (dat : Dat τ (Elt F) Unit ℕ (UD sig nD τ) ℕ (cfg3 a1) c)
    (hA : dat.A 0 = V c (Pipeline.arrRef spec3 0))
    (hafter : ∀ t, dat.after 0 t = iblk3 V a1 c 0 t) (t : Fin (cfg3 a1).N) (d) : dat.before 0 t d = iblk3 V a1 c 0 t :=
  (dat.before_in_eq_fetched 0 rfl (fun _ => rfl) (fun _ _ _ => rfl)
    (fun t => by rw [hafter]; unfold Dat.blockOf iblk3; rw [hA]; try rfl) t d).trans
    (by unfold Dat.fetched Dat.blockOf iblk3; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat3 (c : Dev nD) : Dat τ (Elt F) Unit ℕ (UD sig nD τ) ℕ (cfg3 a1) c where
  A w := V c (Pipeline.arrRef spec3 w)
  after w t := match w with
    | ⟨0, _⟩ => iblk3 V a1 c 0 t
    | ⟨1, _⟩ => O c t
  Φ _ := iprop(Pipeline.ΦD osem3 spec3 {main_v3} V c ∗ Pipeline.prefHeld pre3 c (fun _ => fullShare) a1.1)
  q _ := fullShare
  owed _ := 0

theorem A_eq3 (c : Dev nD) (w : Fin (cfg3 a1).W) : (dat3 V a1 O c).A w = V c (Pipeline.arrRef spec3 w) := by
  dsimp only [dat3]

theorem afterIn3 (c : Dev nD) (t : Fin (cfg3 a1).N) : (dat3 V a1 O c).after 0 t = iblk3 V a1 c 0 t := by
  dsimp only [dat3]; rfl

theorem afterOut3 (c : Dev nD) (t : Fin (cfg3 a1).N) :
    (dat3 V a1 O c).after 1 t = O c t := by
  dsimp only [dat3]; rfl

theorem beforeIn3 (c : Dev nD) (t : Fin (cfg3 a1).N) (d) : (dat3 V a1 O c).before 0 t d = iblk3 V a1 c 0 t :=
  beforeIn3_of V a1 (dat3 V a1 O c) (A_eq3 V a1 O c 0) (afterIn3 V a1 O c) t d

theorem Phi_eq3 (c : Dev nD) (t : Fin ((cfg3 a1).N + 1)) :
    (dat3 V a1 O c).Φ t
      = iprop(Pipeline.ΦD osem3 spec3 {main_v3} V c ∗ Pipeline.prefHeld pre3 c (fun _ => fullShare) a1.1) := by
  dsimp only [dat3]

theorem owed_eq3 (c : Dev nD) (t : Fin ((cfg3 a1).N + 1)) : (dat3 V a1 O c).owed t = 0 := by
  dsimp only [dat3]

/-! ## The invariant, conjunct by conjunct -/

/-- The invariant's first part opened: the body's scratch buffer whole at some contents and the other scoped
    buffers no window stages, the generator register, the own cells at zero, the far operand at its contents. -/
theorem PhiD_eq3 (c : Dev nD) :
    (Pipeline.ΦD osem3 spec3 {main_v3} V c : sProp 𝕄)
      = iprop(iprop(iprop((∃ f : Buf (Elt F) ((c : Thread nD τ).loc cc3_scratch0), ((c : Thread nD τ).loc cc3_scratch0) ↦{fullShare} f))
            ∗ Pipeline.scopedRestBut (Ix := Unit) (Name := ℕ) (U := UD sig nD τ) (Lvl := ℕ) (Val := Elt F) spec3 c [cc3_scratch0])
          ∗ (∃ r, prngReg c r)
          ∗ Pipeline.ownSems0 (Ix := Unit) (Name := ℕ) (U := UD sig nD τ) (Lvl := ℕ) (Val := Elt F) (τ := τ) osem3 c
          ∗ (((c : Thread nD τ).loc main_v3) ↦{fullShare} V c main_v3)) := by
  rw [Pipeline.ΦD_eq, scopedRest3_split, BI.bigSep_eq_bigSepL_of_eq [main_v3] (by decide) (by decide)]; rfl

/-- The one table, held whole. -/
theorem prefHeld_eq3 (c : Dev nD) :
    (Pipeline.prefHeld pre3 c (fun _ => fullShare) a1.1 : sProp 𝕄)
      = (((c : Thread nD τ).loc main_v13) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg3 (w : Fin (cfg3 a1).W) (t : Fin (cfg3 a1).N) := ((cfg3 a1).win w).stage ((cfg3 a1).slots t w)

/-- The body as the pipeline calls it at point t. -/
abbrev bodyProg3 (t : Fin (cfg3 a1).N) : Prog (TpuEff nD τ sig (Elt F) Λ₀ .tc) PUnit :=
  (defs₀ (F := F)) .tc (cfg3 a1).body ((cfg3 a1).bodyArgs t ((cfg3 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun3 : Prop :=
  ∀ (c : Dev nD) (t : Fin (cfg3 a1).N) (W) (K : PUnit → sProp 𝕄),
    iprop(owns (c : Thread nD τ) (stg3 a1 0 t) fullShare (iblk3 V a1 c 0 t)
        ∗ (∃ d, owns (c : Thread nD τ) (stg3 a1 1 t) fullShare d)
        ∗ (∃ f : Buf (Elt F) ((c : Thread nD τ).loc cc3_scratch0), ((c : Thread nD τ).loc cc3_scratch0) ↦{fullShare} f)
        ∗ Pipeline.ownSems0 (Ix := Unit) (Name := ℕ) (U := UD sig nD τ) (Lvl := ℕ) (Val := Elt F) (τ := τ) osem3 c
        ∗ (((c : Thread nD τ).loc main_v13) ↦{fullShare} a1.1 0)
        ∗ (((c : Thread nD τ).loc main_v3) ↦{fullShare} V c main_v3)
        ∗ owes (c : Thread nD τ) (0 : CellTallies nD τ sig Unit) W
        ∗ (iprop(owns (c : Thread nD τ) (stg3 a1 0 t) fullShare (iblk3 V a1 c 0 t)
            ∗ owns (c : Thread nD τ) (stg3 a1 1 t) fullShare (O c t)
            ∗ (∃ f : Buf (Elt F) ((c : Thread nD τ).loc cc3_scratch0), ((c : Thread nD τ).loc cc3_scratch0) ↦{fullShare} f)
            ∗ Pipeline.ownSems0 (Ix := Unit) (Name := ℕ) (U := UD sig nD τ) (Lvl := ℕ) (Val := Elt F) (τ := τ) osem3 c
            ∗ (((c : Thread nD τ).loc main_v13) ↦{fullShare} a1.1 0)
            ∗ (((c : Thread nD τ).loc main_v3) ↦{fullShare} V c main_v3)
            ∗ (∃ W', owes (c : Thread nD τ) (0 : CellTallies nD τ sig Unit) W')) -∗ K ⟨⟩))
      ⊢ wp frame (wpE (defs₀ (F := F)) Variants.none c none) Set.univ (bodyProg3 a1 t) K

/-- What the body is called with at point t, the windows one by one, -/
def bodyPre3 (c : Dev nD) (t : Fin (cfg3 a1).N) : sProp 𝕄 :=
  iprop((dat3 V a1 O c).Φ t.castSucc ∗ (dat3 V a1 O c).owesAt () t.castSucc
    ∗ (∃ d, owns (c : Thread nD τ) (stg3 a1 0 t) fullShare ((dat3 V a1 O c).before 0 t d))
    ∗ (∃ d, owns (c : Thread nD τ) (stg3 a1 1 t) fullShare ((dat3 V a1 O c).before 1 t d)))

/-- and what it returns. -/
def bodyPost3 (c : Dev nD) (t : Fin (cfg3 a1).N) : sProp 𝕄 :=
  iprop((dat3 V a1 O c).Φ t.succ ∗ (dat3 V a1 O c).owesAt () t.succ
    ∗ owns (c : Thread nD τ) (stg3 a1 0 t) fullShare ((dat3 V a1 O c).after 0 t)
    ∗ owns (c : Thread nD τ) (stg3 a1 1 t) fullShare ((dat3 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body3 (hrun : BodyRun3 V a1 O) (c : Dev nD) (t : Fin (cfg3 a1).N) :
    bodyPre3 V a1 O c t
      ⊢ wp frame (wpE (defs₀ (F := F)) Variants.none c none) Set.univ (bodyProg3 a1 t) (fun _ => bodyPost3 V a1 O c t) := by
  unfold bodyPre3 bodyPost3
  simp only [beforeIn3]
  rw [afterIn3, afterOut3, Phi_eq3, Phi_eq3, PhiD_eq3, prefHeld_eq3]
  unfold Dat.owesAt Pipeline.owesWithin
  rw [owed_eq3, owed_eq3]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation3 (hrun : BodyRun3 V a1 O) (c : Dev nD) :
    BodyObligation (dat3 (F := F) V a1 O c) (defs₀ (F := F)) Variants.none () Set.univ := fun t => by
  rw [bigSep_W3, bigSep_W3]
  exact sound_body3 V a1 O hrun c t

end Data

/-! ## The region's record -/

section Record

variable (Win : Dev nD → Valuation τ sig (Elt F))

variable (a1 : (pcfg3 (F := F)).Adm)
  (O : (c : Dev nD) → Fin (cfg3 a1).N → Vec F S8x64 .f32)

/-- The buffers at the region's exit: its arrays at what the write-backs leave, every other buffer as entered. -/
def Wout3 (c : Dev nD) : Valuation τ sig (Elt F) :=
  Pipeline.withArrays spec3 c (Win c) fun w => (dat3 (Vof Win) a1 O c).arrAt w (cfg3 a1).N

theorem Wout3_arr (c : Dev nD) (w : Fin (cfg3 a1).W) :
    Wout3 Win a1 O c (Proc.devRef .tc (Pipeline.arrRef spec3 w)) = (dat3 (Vof Win) a1 O c).arrAt w (cfg3 a1).N := by
  unfold Wout3; exact Pipeline.withArrays_arr spec3 winFacts3.arr_inj c _ _ w

theorem Wout3_of_ne (c : Dev nD) (b : Ref sig .tc) (hb : ∀ w, Pipeline.arrRef spec3 w ≠ b) :
    Wout3 Win a1 O c (Proc.devRef .tc b) = Win c (Proc.devRef .tc b) := by
  unfold Wout3; exact Pipeline.withArrays_of_ne spec3 c _ _ b hb

/-- ENTRY, the buffers' part. Every unscoped buffer at Win is: the region's arrays at the proof data's entry contents,
    the table whole at the admissible contents (which are Win's there), the far operand whole, and the others. -/
theorem entry3 (c : Dev nD) (ha1 : ∀ k, Vof Win c (pre3.ref k) = a1.1 k) :
    (StableHlo.held (c : Thread nD τ) (Pipeline.ucRefs τ sig) (Win c) : sProp 𝕄)
      ⊢ iprop((dat3 (Vof Win) a1 O c).arrays ((dat3 (Vof Win) a1 O c).arrAt · 0)
          ∗ Pipeline.prefHeld pre3 c (fun _ => fullShare) a1.1
          ∗ (bigSep ({main_v3} : Finset (Ref sig .tc)) fun b => (((c : Thread nD τ)).loc b) ↦{fullShare} Vof Win c b)
          ∗ bigSep (Pipeline.restRefsP sig pre3 spec3 \ {main_v3}) fun b => (((c : Thread nD τ)).loc b) ↦{fullShare} Vof Win c b) := by
  have hsplit := Pipeline.arrays_of_unscopedBufs (p := ()) (fun (_ : Unit) => pcfg3 (F := F)) (fun _ => a1)
    (fun _ c => dat3 (Vof Win) a1 O c) winFacts3 (launch3 (F := F)).arr_whole c
    ((dat3 (Vof Win) a1 O c).share_full fun _ => rfl) (Vof Win c) (fun w => A_eq3 (Vof Win) a1 O c w)
  rw [Pipeline.unscopedBufs_held,
    Pipeline.unscopedRest_split (Ix := Unit) (Name := ℕ) (U := UD sig nD τ) (Lvl := ℕ) preFacts3 c (Vof Win c),
    Pipeline.unscopedRestP_sdiff pre3 spec3 {main_v3} hx_sub3 c (Vof Win c),
    show (fun k => Vof Win c (pre3.ref k)) = a1.1 from funext ha1] at hsplit
  exact hsplit

/-- EXIT, the buffers' part: the same four put back, the arrays at what the write-backs leave, are every unscoped
    buffer at the exit valuation. -/
theorem exit3 (c : Dev nD) (ha1 : ∀ k, Vof Win c (pre3.ref k) = a1.1 k) :
    iprop((dat3 (Vof Win) a1 O c).arrays ((dat3 (Vof Win) a1 O c).arrAt · (cfg3 a1).N)
        ∗ Pipeline.prefHeld pre3 c (fun _ => fullShare) a1.1
        ∗ (bigSep ({main_v3} : Finset (Ref sig .tc)) fun b => (((c : Thread nD τ)).loc b) ↦{fullShare} Vof Win c b)
        ∗ bigSep (Pipeline.restRefsP sig pre3 spec3 \ {main_v3}) fun b => (((c : Thread nD τ)).loc b) ↦{fullShare} Vof Win c b)
      ⊢ (StableHlo.held (c : Thread nD τ) (Pipeline.ucRefs τ sig) (Wout3 Win a1 O c) : sProp 𝕄) := by
  have hjoin := Pipeline.unscopedBufs_of_arrays (p := ()) (fun (_ : Unit) => pcfg3 (F := F)) (fun _ => a1)
    (Ix := Unit) (Name := ℕ) (U := UD sig nD τ) (Lvl := ℕ)
    winFacts3 (launch3 (F := F)).arr_whole c (fun _ c => dat3 (Vof Win) a1 O c)
    ((dat3 (Vof Win) a1 O c).share_full fun _ => rfl)
    (Vof Win c) (Vof (Wout3 Win a1 O) c) ((dat3 (Vof Win) a1 O c).arrAt · (cfg3 a1).N)
    (fun w => (Wout3_arr Win a1 O c w).symm)
    (fun b hb => Wout3_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts3 c (Vof Win c),
    Pipeline.unscopedRestP_sdiff pre3 spec3 {main_v3} hx_sub3 c (Vof Win c),
    show (fun k => Vof Win c (pre3.ref k)) = a1.1 from funext ha1] at hjoin
  exact hjoin

end Record

section Seg

variable (Win : Dev nD → Valuation τ sig (Elt F))
  (adm : (p : Fin 49) → (pcfgs (F := F) p).Adm)
  (O : (c : Dev nD) → Fin (cfg3 (adm (3 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout3. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg3 (hd : ∀ c, pdats (3 : Fin 49) c = dat3 (Vof Win) (adm (3 : Fin 49)) O c)
    (ha1 : ∀ c k, Vof Win c (pre3.ref k) = (adm (3 : Fin 49)).1 k)
    (hbody : ∀ c, BodyObligation (dat3 (F := F) (Vof Win) (adm (3 : Fin 49)) O c) (defs₀ (F := F)) 𝒱₀ () Set.univ) :
    Pipeline.RegionSeg (pcfgs (F := F)) adm pdats () defs₀ 𝒱₀ L lv (3 : Fin 49) where
  win := (launch3 (F := F)).win.to₀
  block_pos := (launch3 (F := F)).block_pos
  stage_whole := (launch3 (F := F)).stage_whole
  K := Fin 8
  osem := osem3
  ho := ownSemFacts3
  hbody c := by rw [hd c]; exact (hbody c).loose
  hwaits := Pipeline.hwaits_of_owed_zero _ _ _ _ L lv (3 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout3 Win (adm (3 : Fin 49)) O c) ∗ R c)
  X c := iprop((∃ r, prngReg c r)
    ∗ Pipeline.ownSems0 (Ix := Unit) (Name := ℕ) (U := UD sig nD τ) (Lvl := ℕ) (Val := Elt F) (τ := τ) osem3 c
    ∗ (bigSep ({main_v3} : Finset (Ref sig .tc)) fun b => (((c : Thread nD τ)).loc b) ↦{fullShare} Vof Win c b))
  Y c := iprop((∃ r, prngReg c r)
    ∗ (bigSep ({main_v3} : Finset (Ref sig .tc)) fun b => (((c : Thread nD τ)).loc b) ↦{fullShare} Vof Win c b)
    ∗ Pipeline.prefHeld pre3 c (fun _ => fullShare) (adm (3 : Fin 49)).1)
  Z c := bigSep (Pipeline.restRefsP sig pre3 spec3 \ {main_v3}) fun b => (((c : Thread nD τ)).loc b) ↦{fullShare} Vof Win c b
  hentry c := by
    rw [hd c]
    iintro ⟨⟨Hub, Hp, HO⟩, Hos, -⟩
    ihave H := (entry3 Win (adm (3 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq3, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq3, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit3 Win (adm (3 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg3 (F := F)).Adm)

/-- The output block at point t: the gathered rows (of the far operand's contents under V, chosen by the table's
    words at that point) times the input block. -/
def outBlk3 (c : Dev nD) (t : Fin (cfg3 a1).N) : Vec F S8x64 .f32 :=
  gatherOut (gatherG (a1.1 0) (V c main_v3) (grid3.coords t)) (iblk3 V a1 c 0 t)

theorem outBlk_eq3 (c : Dev nD) (t : Fin (cfg3 a1).N) :
    outBlk3 V a1 c t = gatherOut (gatherG (a1.1 0) (V c main_v3) (grid3.coords t)) (iblk3 V a1 c 0 t) := rfl

/-- The proof data with the output block named: after the body at point t the output window's buffer holds it. -/
theorem afterOutBlk3 (c : Dev nD) (t : Fin (cfg3 a1).N) :
    (dat3 V a1 (outBlk3 V a1) c).after 1 t
      = gatherOut (gatherG (a1.1 0) (V c main_v3) (grid3.coords t)) (iblk3 V a1 c 0 t) :=
  afterOut3 V a1 (outBlk3 V a1) c t

/-- The own cells at zero are the semaphore array's eight entries at zero, in order. -/
theorem ownSems_eq3 (c : Dev nD) :
    (Pipeline.ownSems0 (Ix := Unit) (Name := ℕ) (U := UD sig nD τ) (Lvl := ℕ) (Val := Elt F) (τ := τ) osem3 c : sProp 𝕄)
      = gsems0 c cc3_scratch1 := by
  rw [Pipeline.ownSems0_eq_of_list c osem3 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq3 (t : Fin (cfg3 a1).N) : ∃ h3 h4, bodyProg3 (F := F) a1 t
    = cc3__gather_mul_kernel (grid3.coords t) (Memref.whole main_v13) (Memref.isWhole_whole _) (Memref.whole main_v3) (Memref.isWhole_whole _)
        (stg3 a1 0 t) h3 (stg3 a1 1 t) h4 (Memref.whole cc3_scratch0) (Memref.isWhole_whole _) cc3_scratch1 := ⟨_, _, rfl⟩

end Out

/-! ## The body's run, joined to the proof data -/

section Body

variable (V : (c : Dev nD) → (b : Ref sig .tc) → Buf (Elt F) ((c : Thread nD τ).loc b))
  (a1 : (pcfg3 (F := F)).Adm)

/-- The scratch buffer whole at some contents, as a memref owned at some contents. -/
theorem scratchOwns_eq3 (c : Dev nD) :
    (iprop(∃ d, owns (c : Thread nD τ) (Memref.whole cc3_scratch0) fullShare d) : sProp 𝕄)
      = iprop(∃ f : Buf (Elt F) ((c : Thread nD τ).loc cc3_scratch0), ((c : Thread nD τ).loc cc3_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun3 (hlt : ∀ y, BitVec.toNat ((a1.1 0) y) < 100000) : BodyRun3 V a1 (outBlk3 V a1) := by
  intro c t W K
  obtain ⟨h3, h4, hprog⟩ := bodyProg_eq3 (F := F) a1 t
  rw [hprog, ownSems_eq3, ← scratchOwns_eq3 (F := F) c]
  have hrun := gather_kernel_run_3 (F := F) c (grid3.coords t) (Memref.whole main_v13) (Memref.isWhole_whole _) (Memref.whole main_v3) (Memref.isWhole_whole _)
    (stg3 a1 0 t) h3 (stg3 a1 1 t) h4 (Memref.whole cc3_scratch0) (Memref.isWhole_whole _) cc3_scratch1 fullShare fullShare
    (a1.1 0) (V c main_v3) (iblk3 V a1 c 0 t) (fun y => hlt y) W K
  simp only [Memref.view_whole, View.read_whole] at hrun
  unfold outBlk3
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut3 (hlt : ∀ y, BitVec.toNat ((a1.1 0) y) < 100000) (c : Dev nD) :
    BodyObligation (dat3 (F := F) V a1 (outBlk3 V a1) c) (defs₀ (F := F)) Variants.none () Set.univ :=
  body_obligation3 V a1 (outBlk3 V a1) (bodyRun3 V a1 hlt) c

end Body

/-! # Region 4 -/

/-! ## The body's own transfer cells -/

/-- The eight cells of the body's semaphore array, in order. -/
abbrev osem4 : Fin 8 → SemLoc sig := fun j => SemLoc.dma (cc4_scratch1.ix (fun | ⟨0, _⟩ => j))

/-- They are scoped, pairwise distinct, and none is a staging cell of a window. -/
theorem ownSemFacts4 : Pipeline.OwnSemFacts spec4 osem4 := by decide

/-- The far operand is an unscoped buffer that is neither a window's array nor a table. -/
theorem hx_sub4 : ({main_v3} : Finset (Ref sig .tc)) ⊆ Pipeline.restRefsP sig pre4 spec4 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg4 (F := F)).Adm)
  (O : (c : Dev nD) → Fin (cfg4 a1).N → Vec F S8x64 .f32)

/-! ## The windows' blocks -/

/-- Window w's block at point t, read off its array under V. -/
def iblk4 (c : Dev nD) (w : Fin (cfg4 a1).W) (t : Fin (cfg4 a1).N) :
    (((cfg4 a1).win w).xblock ((cfg4 a1).grid.coords t)).Idx → Elt F ((cfg4 a1).win w).elt :=
  (((cfg4 a1).win w).blk t).view.read (Elt F) (V c (Pipeline.arrRef spec4 w))

/-- The input window's current staging buffer holds its block at every point, fetched there or not, for any proof
    data whose array is V's and whose body leaves the block in place: unfetched, the block index has not moved. -/
theorem beforeIn4_of {c : Dev nD} (dat : Dat τ (Elt F) Unit ℕ (UD sig nD τ) ℕ (cfg4 a1) c)
    (hA : dat.A 0 = V c (Pipeline.arrRef spec4 0))
    (hafter : ∀ t, dat.after 0 t = iblk4 V a1 c 0 t) (t : Fin (cfg4 a1).N) (d) : dat.before 0 t d = iblk4 V a1 c 0 t :=
  (dat.before_in_eq_fetched 0 rfl (fun _ => rfl) (fun _ _ _ => rfl)
    (fun t => by rw [hafter]; unfold Dat.blockOf iblk4; rw [hA]; try rfl) t d).trans
    (by unfold Dat.fetched Dat.blockOf iblk4; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat4 (c : Dev nD) : Dat τ (Elt F) Unit ℕ (UD sig nD τ) ℕ (cfg4 a1) c where
  A w := V c (Pipeline.arrRef spec4 w)
  after w t := match w with
    | ⟨0, _⟩ => iblk4 V a1 c 0 t
    | ⟨1, _⟩ => O c t
  Φ _ := iprop(Pipeline.ΦD osem4 spec4 {main_v3} V c ∗ Pipeline.prefHeld pre4 c (fun _ => fullShare) a1.1)
  q _ := fullShare
  owed _ := 0

theorem A_eq4 (c : Dev nD) (w : Fin (cfg4 a1).W) : (dat4 V a1 O c).A w = V c (Pipeline.arrRef spec4 w) := by
  dsimp only [dat4]

theorem afterIn4 (c : Dev nD) (t : Fin (cfg4 a1).N) : (dat4 V a1 O c).after 0 t = iblk4 V a1 c 0 t := by
  dsimp only [dat4]; rfl

theorem afterOut4 (c : Dev nD) (t : Fin (cfg4 a1).N) :
    (dat4 V a1 O c).after 1 t = O c t := by
  dsimp only [dat4]; rfl

theorem beforeIn4 (c : Dev nD) (t : Fin (cfg4 a1).N) (d) : (dat4 V a1 O c).before 0 t d = iblk4 V a1 c 0 t :=
  beforeIn4_of V a1 (dat4 V a1 O c) (A_eq4 V a1 O c 0) (afterIn4 V a1 O c) t d

theorem Phi_eq4 (c : Dev nD) (t : Fin ((cfg4 a1).N + 1)) :
    (dat4 V a1 O c).Φ t
      = iprop(Pipeline.ΦD osem4 spec4 {main_v3} V c ∗ Pipeline.prefHeld pre4 c (fun _ => fullShare) a1.1) := by
  dsimp only [dat4]

theorem owed_eq4 (c : Dev nD) (t : Fin ((cfg4 a1).N + 1)) : (dat4 V a1 O c).owed t = 0 := by
  dsimp only [dat4]

/-! ## The invariant, conjunct by conjunct -/

/-- The invariant's first part opened: the body's scratch buffer whole at some contents and the other scoped
    buffers no window stages, the generator register, the own cells at zero, the far operand at its contents. -/
theorem PhiD_eq4 (c : Dev nD) :
    (Pipeline.ΦD osem4 spec4 {main_v3} V c : sProp 𝕄)
      = iprop(iprop(iprop((∃ f : Buf (Elt F) ((c : Thread nD τ).loc cc4_scratch0), ((c : Thread nD τ).loc cc4_scratch0) ↦{fullShare} f))
            ∗ Pipeline.scopedRestBut (Ix := Unit) (Name := ℕ) (U := UD sig nD τ) (Lvl := ℕ) (Val := Elt F) spec4 c [cc4_scratch0])
          ∗ (∃ r, prngReg c r)
          ∗ Pipeline.ownSems0 (Ix := Unit) (Name := ℕ) (U := UD sig nD τ) (Lvl := ℕ) (Val := Elt F) (τ := τ) osem4 c
          ∗ (((c : Thread nD τ).loc main_v3) ↦{fullShare} V c main_v3)) := by
  rw [Pipeline.ΦD_eq, scopedRest4_split, BI.bigSep_eq_bigSepL_of_eq [main_v3] (by decide) (by decide)]; rfl

/-- The one table, held whole. -/
theorem prefHeld_eq4 (c : Dev nD) :
    (Pipeline.prefHeld pre4 c (fun _ => fullShare) a1.1 : sProp 𝕄)
      = (((c : Thread nD τ).loc main_v17) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg4 (w : Fin (cfg4 a1).W) (t : Fin (cfg4 a1).N) := ((cfg4 a1).win w).stage ((cfg4 a1).slots t w)

/-- The body as the pipeline calls it at point t. -/
abbrev bodyProg4 (t : Fin (cfg4 a1).N) : Prog (TpuEff nD τ sig (Elt F) Λ₀ .tc) PUnit :=
  (defs₀ (F := F)) .tc (cfg4 a1).body ((cfg4 a1).bodyArgs t ((cfg4 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun4 : Prop :=
  ∀ (c : Dev nD) (t : Fin (cfg4 a1).N) (W) (K : PUnit → sProp 𝕄),
    iprop(owns (c : Thread nD τ) (stg4 a1 0 t) fullShare (iblk4 V a1 c 0 t)
        ∗ (∃ d, owns (c : Thread nD τ) (stg4 a1 1 t) fullShare d)
        ∗ (∃ f : Buf (Elt F) ((c : Thread nD τ).loc cc4_scratch0), ((c : Thread nD τ).loc cc4_scratch0) ↦{fullShare} f)
        ∗ Pipeline.ownSems0 (Ix := Unit) (Name := ℕ) (U := UD sig nD τ) (Lvl := ℕ) (Val := Elt F) (τ := τ) osem4 c
        ∗ (((c : Thread nD τ).loc main_v17) ↦{fullShare} a1.1 0)
        ∗ (((c : Thread nD τ).loc main_v3) ↦{fullShare} V c main_v3)
        ∗ owes (c : Thread nD τ) (0 : CellTallies nD τ sig Unit) W
        ∗ (iprop(owns (c : Thread nD τ) (stg4 a1 0 t) fullShare (iblk4 V a1 c 0 t)
            ∗ owns (c : Thread nD τ) (stg4 a1 1 t) fullShare (O c t)
            ∗ (∃ f : Buf (Elt F) ((c : Thread nD τ).loc cc4_scratch0), ((c : Thread nD τ).loc cc4_scratch0) ↦{fullShare} f)
            ∗ Pipeline.ownSems0 (Ix := Unit) (Name := ℕ) (U := UD sig nD τ) (Lvl := ℕ) (Val := Elt F) (τ := τ) osem4 c
            ∗ (((c : Thread nD τ).loc main_v17) ↦{fullShare} a1.1 0)
            ∗ (((c : Thread nD τ).loc main_v3) ↦{fullShare} V c main_v3)
            ∗ (∃ W', owes (c : Thread nD τ) (0 : CellTallies nD τ sig Unit) W')) -∗ K ⟨⟩))
      ⊢ wp frame (wpE (defs₀ (F := F)) Variants.none c none) Set.univ (bodyProg4 a1 t) K

/-- What the body is called with at point t, the windows one by one, -/
def bodyPre4 (c : Dev nD) (t : Fin (cfg4 a1).N) : sProp 𝕄 :=
  iprop((dat4 V a1 O c).Φ t.castSucc ∗ (dat4 V a1 O c).owesAt () t.castSucc
    ∗ (∃ d, owns (c : Thread nD τ) (stg4 a1 0 t) fullShare ((dat4 V a1 O c).before 0 t d))
    ∗ (∃ d, owns (c : Thread nD τ) (stg4 a1 1 t) fullShare ((dat4 V a1 O c).before 1 t d)))

/-- and what it returns. -/
def bodyPost4 (c : Dev nD) (t : Fin (cfg4 a1).N) : sProp 𝕄 :=
  iprop((dat4 V a1 O c).Φ t.succ ∗ (dat4 V a1 O c).owesAt () t.succ
    ∗ owns (c : Thread nD τ) (stg4 a1 0 t) fullShare ((dat4 V a1 O c).after 0 t)
    ∗ owns (c : Thread nD τ) (stg4 a1 1 t) fullShare ((dat4 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body4 (hrun : BodyRun4 V a1 O) (c : Dev nD) (t : Fin (cfg4 a1).N) :
    bodyPre4 V a1 O c t
      ⊢ wp frame (wpE (defs₀ (F := F)) Variants.none c none) Set.univ (bodyProg4 a1 t) (fun _ => bodyPost4 V a1 O c t) := by
  unfold bodyPre4 bodyPost4
  simp only [beforeIn4]
  rw [afterIn4, afterOut4, Phi_eq4, Phi_eq4, PhiD_eq4, prefHeld_eq4]
  unfold Dat.owesAt Pipeline.owesWithin
  rw [owed_eq4, owed_eq4]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation4 (hrun : BodyRun4 V a1 O) (c : Dev nD) :
    BodyObligation (dat4 (F := F) V a1 O c) (defs₀ (F := F)) Variants.none () Set.univ := fun t => by
  rw [bigSep_W4, bigSep_W4]
  exact sound_body4 V a1 O hrun c t

end Data

/-! ## The region's record -/

section Record

variable (Win : Dev nD → Valuation τ sig (Elt F))

variable (a1 : (pcfg4 (F := F)).Adm)
  (O : (c : Dev nD) → Fin (cfg4 a1).N → Vec F S8x64 .f32)

/-- The buffers at the region's exit: its arrays at what the write-backs leave, every other buffer as entered. -/
def Wout4 (c : Dev nD) : Valuation τ sig (Elt F) :=
  Pipeline.withArrays spec4 c (Win c) fun w => (dat4 (Vof Win) a1 O c).arrAt w (cfg4 a1).N

theorem Wout4_arr (c : Dev nD) (w : Fin (cfg4 a1).W) :
    Wout4 Win a1 O c (Proc.devRef .tc (Pipeline.arrRef spec4 w)) = (dat4 (Vof Win) a1 O c).arrAt w (cfg4 a1).N := by
  unfold Wout4; exact Pipeline.withArrays_arr spec4 winFacts4.arr_inj c _ _ w

theorem Wout4_of_ne (c : Dev nD) (b : Ref sig .tc) (hb : ∀ w, Pipeline.arrRef spec4 w ≠ b) :
    Wout4 Win a1 O c (Proc.devRef .tc b) = Win c (Proc.devRef .tc b) := by
  unfold Wout4; exact Pipeline.withArrays_of_ne spec4 c _ _ b hb

/-- ENTRY, the buffers' part. Every unscoped buffer at Win is: the region's arrays at the proof data's entry contents,
    the table whole at the admissible contents (which are Win's there), the far operand whole, and the others. -/
theorem entry4 (c : Dev nD) (ha1 : ∀ k, Vof Win c (pre4.ref k) = a1.1 k) :
    (StableHlo.held (c : Thread nD τ) (Pipeline.ucRefs τ sig) (Win c) : sProp 𝕄)
      ⊢ iprop((dat4 (Vof Win) a1 O c).arrays ((dat4 (Vof Win) a1 O c).arrAt · 0)
          ∗ Pipeline.prefHeld pre4 c (fun _ => fullShare) a1.1
          ∗ (bigSep ({main_v3} : Finset (Ref sig .tc)) fun b => (((c : Thread nD τ)).loc b) ↦{fullShare} Vof Win c b)
          ∗ bigSep (Pipeline.restRefsP sig pre4 spec4 \ {main_v3}) fun b => (((c : Thread nD τ)).loc b) ↦{fullShare} Vof Win c b) := by
  have hsplit := Pipeline.arrays_of_unscopedBufs (p := ()) (fun (_ : Unit) => pcfg4 (F := F)) (fun _ => a1)
    (fun _ c => dat4 (Vof Win) a1 O c) winFacts4 (launch4 (F := F)).arr_whole c
    ((dat4 (Vof Win) a1 O c).share_full fun _ => rfl) (Vof Win c) (fun w => A_eq4 (Vof Win) a1 O c w)
  rw [Pipeline.unscopedBufs_held,
    Pipeline.unscopedRest_split (Ix := Unit) (Name := ℕ) (U := UD sig nD τ) (Lvl := ℕ) preFacts4 c (Vof Win c),
    Pipeline.unscopedRestP_sdiff pre4 spec4 {main_v3} hx_sub4 c (Vof Win c),
    show (fun k => Vof Win c (pre4.ref k)) = a1.1 from funext ha1] at hsplit
  exact hsplit

/-- EXIT, the buffers' part: the same four put back, the arrays at what the write-backs leave, are every unscoped
    buffer at the exit valuation. -/
theorem exit4 (c : Dev nD) (ha1 : ∀ k, Vof Win c (pre4.ref k) = a1.1 k) :
    iprop((dat4 (Vof Win) a1 O c).arrays ((dat4 (Vof Win) a1 O c).arrAt · (cfg4 a1).N)
        ∗ Pipeline.prefHeld pre4 c (fun _ => fullShare) a1.1
        ∗ (bigSep ({main_v3} : Finset (Ref sig .tc)) fun b => (((c : Thread nD τ)).loc b) ↦{fullShare} Vof Win c b)
        ∗ bigSep (Pipeline.restRefsP sig pre4 spec4 \ {main_v3}) fun b => (((c : Thread nD τ)).loc b) ↦{fullShare} Vof Win c b)
      ⊢ (StableHlo.held (c : Thread nD τ) (Pipeline.ucRefs τ sig) (Wout4 Win a1 O c) : sProp 𝕄) := by
  have hjoin := Pipeline.unscopedBufs_of_arrays (p := ()) (fun (_ : Unit) => pcfg4 (F := F)) (fun _ => a1)
    (Ix := Unit) (Name := ℕ) (U := UD sig nD τ) (Lvl := ℕ)
    winFacts4 (launch4 (F := F)).arr_whole c (fun _ c => dat4 (Vof Win) a1 O c)
    ((dat4 (Vof Win) a1 O c).share_full fun _ => rfl)
    (Vof Win c) (Vof (Wout4 Win a1 O) c) ((dat4 (Vof Win) a1 O c).arrAt · (cfg4 a1).N)
    (fun w => (Wout4_arr Win a1 O c w).symm)
    (fun b hb => Wout4_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts4 c (Vof Win c),
    Pipeline.unscopedRestP_sdiff pre4 spec4 {main_v3} hx_sub4 c (Vof Win c),
    show (fun k => Vof Win c (pre4.ref k)) = a1.1 from funext ha1] at hjoin
  exact hjoin

end Record

section Seg

variable (Win : Dev nD → Valuation τ sig (Elt F))
  (adm : (p : Fin 49) → (pcfgs (F := F) p).Adm)
  (O : (c : Dev nD) → Fin (cfg4 (adm (4 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout4. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg4 (hd : ∀ c, pdats (4 : Fin 49) c = dat4 (Vof Win) (adm (4 : Fin 49)) O c)
    (ha1 : ∀ c k, Vof Win c (pre4.ref k) = (adm (4 : Fin 49)).1 k)
    (hbody : ∀ c, BodyObligation (dat4 (F := F) (Vof Win) (adm (4 : Fin 49)) O c) (defs₀ (F := F)) 𝒱₀ () Set.univ) :
    Pipeline.RegionSeg (pcfgs (F := F)) adm pdats () defs₀ 𝒱₀ L lv (4 : Fin 49) where
  win := (launch4 (F := F)).win.to₀
  block_pos := (launch4 (F := F)).block_pos
  stage_whole := (launch4 (F := F)).stage_whole
  K := Fin 8
  osem := osem4
  ho := ownSemFacts4
  hbody c := by rw [hd c]; exact (hbody c).loose
  hwaits := Pipeline.hwaits_of_owed_zero _ _ _ _ L lv (4 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout4 Win (adm (4 : Fin 49)) O c) ∗ R c)
  X c := iprop((∃ r, prngReg c r)
    ∗ Pipeline.ownSems0 (Ix := Unit) (Name := ℕ) (U := UD sig nD τ) (Lvl := ℕ) (Val := Elt F) (τ := τ) osem4 c
    ∗ (bigSep ({main_v3} : Finset (Ref sig .tc)) fun b => (((c : Thread nD τ)).loc b) ↦{fullShare} Vof Win c b))
  Y c := iprop((∃ r, prngReg c r)
    ∗ (bigSep ({main_v3} : Finset (Ref sig .tc)) fun b => (((c : Thread nD τ)).loc b) ↦{fullShare} Vof Win c b)
    ∗ Pipeline.prefHeld pre4 c (fun _ => fullShare) (adm (4 : Fin 49)).1)
  Z c := bigSep (Pipeline.restRefsP sig pre4 spec4 \ {main_v3}) fun b => (((c : Thread nD τ)).loc b) ↦{fullShare} Vof Win c b
  hentry c := by
    rw [hd c]
    iintro ⟨⟨Hub, Hp, HO⟩, Hos, -⟩
    ihave H := (entry4 Win (adm (4 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq4, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq4, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit4 Win (adm (4 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg4 (F := F)).Adm)

/-- The output block at point t: the gathered rows (of the far operand's contents under V, chosen by the table's
    words at that point) times the input block. -/
def outBlk4 (c : Dev nD) (t : Fin (cfg4 a1).N) : Vec F S8x64 .f32 :=
  gatherOut (gatherG (a1.1 0) (V c main_v3) (grid4.coords t)) (iblk4 V a1 c 0 t)

theorem outBlk_eq4 (c : Dev nD) (t : Fin (cfg4 a1).N) :
    outBlk4 V a1 c t = gatherOut (gatherG (a1.1 0) (V c main_v3) (grid4.coords t)) (iblk4 V a1 c 0 t) := rfl

/-- The proof data with the output block named: after the body at point t the output window's buffer holds it. -/
theorem afterOutBlk4 (c : Dev nD) (t : Fin (cfg4 a1).N) :
    (dat4 V a1 (outBlk4 V a1) c).after 1 t
      = gatherOut (gatherG (a1.1 0) (V c main_v3) (grid4.coords t)) (iblk4 V a1 c 0 t) :=
  afterOut4 V a1 (outBlk4 V a1) c t

/-- The own cells at zero are the semaphore array's eight entries at zero, in order. -/
theorem ownSems_eq4 (c : Dev nD) :
    (Pipeline.ownSems0 (Ix := Unit) (Name := ℕ) (U := UD sig nD τ) (Lvl := ℕ) (Val := Elt F) (τ := τ) osem4 c : sProp 𝕄)
      = gsems0 c cc4_scratch1 := by
  rw [Pipeline.ownSems0_eq_of_list c osem4 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq4 (t : Fin (cfg4 a1).N) : ∃ h3 h4, bodyProg4 (F := F) a1 t
    = cc4__gather_mul_kernel (grid4.coords t) (Memref.whole main_v17) (Memref.isWhole_whole _) (Memref.whole main_v3) (Memref.isWhole_whole _)
        (stg4 a1 0 t) h3 (stg4 a1 1 t) h4 (Memref.whole cc4_scratch0) (Memref.isWhole_whole _) cc4_scratch1 := ⟨_, _, rfl⟩

end Out

/-! ## The body's run, joined to the proof data -/

section Body

variable (V : (c : Dev nD) → (b : Ref sig .tc) → Buf (Elt F) ((c : Thread nD τ).loc b))
  (a1 : (pcfg4 (F := F)).Adm)

/-- The scratch buffer whole at some contents, as a memref owned at some contents. -/
theorem scratchOwns_eq4 (c : Dev nD) :
    (iprop(∃ d, owns (c : Thread nD τ) (Memref.whole cc4_scratch0) fullShare d) : sProp 𝕄)
      = iprop(∃ f : Buf (Elt F) ((c : Thread nD τ).loc cc4_scratch0), ((c : Thread nD τ).loc cc4_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun4 (hlt : ∀ y, BitVec.toNat ((a1.1 0) y) < 100000) : BodyRun4 V a1 (outBlk4 V a1) := by
  intro c t W K
  obtain ⟨h3, h4, hprog⟩ := bodyProg_eq4 (F := F) a1 t
  rw [hprog, ownSems_eq4, ← scratchOwns_eq4 (F := F) c]
  have hrun := gather_kernel_run_4 (F := F) c (grid4.coords t) (Memref.whole main_v17) (Memref.isWhole_whole _) (Memref.whole main_v3) (Memref.isWhole_whole _)
    (stg4 a1 0 t) h3 (stg4 a1 1 t) h4 (Memref.whole cc4_scratch0) (Memref.isWhole_whole _) cc4_scratch1 fullShare fullShare
    (a1.1 0) (V c main_v3) (iblk4 V a1 c 0 t) (fun y => hlt y) W K
  simp only [Memref.view_whole, View.read_whole] at hrun
  unfold outBlk4
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut4 (hlt : ∀ y, BitVec.toNat ((a1.1 0) y) < 100000) (c : Dev nD) :
    BodyObligation (dat4 (F := F) V a1 (outBlk4 V a1) c) (defs₀ (F := F)) Variants.none () Set.univ :=
  body_obligation4 V a1 (outBlk4 V a1) (bodyRun4 V a1 hlt) c

end Body

/-! # Region 5 -/

/-! ## The body's own transfer cells -/

/-- The eight cells of the body's semaphore array, in order. -/
abbrev osem5 : Fin 8 → SemLoc sig := fun j => SemLoc.dma (cc5_scratch1.ix (fun | ⟨0, _⟩ => j))

/-- They are scoped, pairwise distinct, and none is a staging cell of a window. -/
theorem ownSemFacts5 : Pipeline.OwnSemFacts spec5 osem5 := by decide

/-- The far operand is an unscoped buffer that is neither a window's array nor a table. -/
theorem hx_sub5 : ({main_v3} : Finset (Ref sig .tc)) ⊆ Pipeline.restRefsP sig pre5 spec5 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg5 (F := F)).Adm)
  (O : (c : Dev nD) → Fin (cfg5 a1).N → Vec F S8x64 .f32)

/-! ## The windows' blocks -/

/-- Window w's block at point t, read off its array under V. -/
def iblk5 (c : Dev nD) (w : Fin (cfg5 a1).W) (t : Fin (cfg5 a1).N) :
    (((cfg5 a1).win w).xblock ((cfg5 a1).grid.coords t)).Idx → Elt F ((cfg5 a1).win w).elt :=
  (((cfg5 a1).win w).blk t).view.read (Elt F) (V c (Pipeline.arrRef spec5 w))

/-- The input window's current staging buffer holds its block at every point, fetched there or not, for any proof
    data whose array is V's and whose body leaves the block in place: unfetched, the block index has not moved. -/
theorem beforeIn5_of {c : Dev nD} (dat : Dat τ (Elt F) Unit ℕ (UD sig nD τ) ℕ (cfg5 a1) c)
    (hA : dat.A 0 = V c (Pipeline.arrRef spec5 0))
    (hafter : ∀ t, dat.after 0 t = iblk5 V a1 c 0 t) (t : Fin (cfg5 a1).N) (d) : dat.before 0 t d = iblk5 V a1 c 0 t :=
  (dat.before_in_eq_fetched 0 rfl (fun _ => rfl) (fun _ _ _ => rfl)
    (fun t => by rw [hafter]; unfold Dat.blockOf iblk5; rw [hA]; try rfl) t d).trans
    (by unfold Dat.fetched Dat.blockOf iblk5; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat5 (c : Dev nD) : Dat τ (Elt F) Unit ℕ (UD sig nD τ) ℕ (cfg5 a1) c where
  A w := V c (Pipeline.arrRef spec5 w)
  after w t := match w with
    | ⟨0, _⟩ => iblk5 V a1 c 0 t
    | ⟨1, _⟩ => O c t
  Φ _ := iprop(Pipeline.ΦD osem5 spec5 {main_v3} V c ∗ Pipeline.prefHeld pre5 c (fun _ => fullShare) a1.1)
  q _ := fullShare
  owed _ := 0

theorem A_eq5 (c : Dev nD) (w : Fin (cfg5 a1).W) : (dat5 V a1 O c).A w = V c (Pipeline.arrRef spec5 w) := by
  dsimp only [dat5]

theorem afterIn5 (c : Dev nD) (t : Fin (cfg5 a1).N) : (dat5 V a1 O c).after 0 t = iblk5 V a1 c 0 t := by
  dsimp only [dat5]; rfl

theorem afterOut5 (c : Dev nD) (t : Fin (cfg5 a1).N) :
    (dat5 V a1 O c).after 1 t = O c t := by
  dsimp only [dat5]; rfl

theorem beforeIn5 (c : Dev nD) (t : Fin (cfg5 a1).N) (d) : (dat5 V a1 O c).before 0 t d = iblk5 V a1 c 0 t :=
  beforeIn5_of V a1 (dat5 V a1 O c) (A_eq5 V a1 O c 0) (afterIn5 V a1 O c) t d

theorem Phi_eq5 (c : Dev nD) (t : Fin ((cfg5 a1).N + 1)) :
    (dat5 V a1 O c).Φ t
      = iprop(Pipeline.ΦD osem5 spec5 {main_v3} V c ∗ Pipeline.prefHeld pre5 c (fun _ => fullShare) a1.1) := by
  dsimp only [dat5]

theorem owed_eq5 (c : Dev nD) (t : Fin ((cfg5 a1).N + 1)) : (dat5 V a1 O c).owed t = 0 := by
  dsimp only [dat5]

/-! ## The invariant, conjunct by conjunct -/

/-- The invariant's first part opened: the body's scratch buffer whole at some contents and the other scoped
    buffers no window stages, the generator register, the own cells at zero, the far operand at its contents. -/
theorem PhiD_eq5 (c : Dev nD) :
    (Pipeline.ΦD osem5 spec5 {main_v3} V c : sProp 𝕄)
      = iprop(iprop(iprop((∃ f : Buf (Elt F) ((c : Thread nD τ).loc cc5_scratch0), ((c : Thread nD τ).loc cc5_scratch0) ↦{fullShare} f))
            ∗ Pipeline.scopedRestBut (Ix := Unit) (Name := ℕ) (U := UD sig nD τ) (Lvl := ℕ) (Val := Elt F) spec5 c [cc5_scratch0])
          ∗ (∃ r, prngReg c r)
          ∗ Pipeline.ownSems0 (Ix := Unit) (Name := ℕ) (U := UD sig nD τ) (Lvl := ℕ) (Val := Elt F) (τ := τ) osem5 c
          ∗ (((c : Thread nD τ).loc main_v3) ↦{fullShare} V c main_v3)) := by
  rw [Pipeline.ΦD_eq, scopedRest5_split, BI.bigSep_eq_bigSepL_of_eq [main_v3] (by decide) (by decide)]; rfl

/-- The one table, held whole. -/
theorem prefHeld_eq5 (c : Dev nD) :
    (Pipeline.prefHeld pre5 c (fun _ => fullShare) a1.1 : sProp 𝕄)
      = (((c : Thread nD τ).loc main_v21) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg5 (w : Fin (cfg5 a1).W) (t : Fin (cfg5 a1).N) := ((cfg5 a1).win w).stage ((cfg5 a1).slots t w)

/-- The body as the pipeline calls it at point t. -/
abbrev bodyProg5 (t : Fin (cfg5 a1).N) : Prog (TpuEff nD τ sig (Elt F) Λ₀ .tc) PUnit :=
  (defs₀ (F := F)) .tc (cfg5 a1).body ((cfg5 a1).bodyArgs t ((cfg5 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun5 : Prop :=
  ∀ (c : Dev nD) (t : Fin (cfg5 a1).N) (W) (K : PUnit → sProp 𝕄),
    iprop(owns (c : Thread nD τ) (stg5 a1 0 t) fullShare (iblk5 V a1 c 0 t)
        ∗ (∃ d, owns (c : Thread nD τ) (stg5 a1 1 t) fullShare d)
        ∗ (∃ f : Buf (Elt F) ((c : Thread nD τ).loc cc5_scratch0), ((c : Thread nD τ).loc cc5_scratch0) ↦{fullShare} f)
        ∗ Pipeline.ownSems0 (Ix := Unit) (Name := ℕ) (U := UD sig nD τ) (Lvl := ℕ) (Val := Elt F) (τ := τ) osem5 c
        ∗ (((c : Thread nD τ).loc main_v21) ↦{fullShare} a1.1 0)
        ∗ (((c : Thread nD τ).loc main_v3) ↦{fullShare} V c main_v3)
        ∗ owes (c : Thread nD τ) (0 : CellTallies nD τ sig Unit) W
        ∗ (iprop(owns (c : Thread nD τ) (stg5 a1 0 t) fullShare (iblk5 V a1 c 0 t)
            ∗ owns (c : Thread nD τ) (stg5 a1 1 t) fullShare (O c t)
            ∗ (∃ f : Buf (Elt F) ((c : Thread nD τ).loc cc5_scratch0), ((c : Thread nD τ).loc cc5_scratch0) ↦{fullShare} f)
            ∗ Pipeline.ownSems0 (Ix := Unit) (Name := ℕ) (U := UD sig nD τ) (Lvl := ℕ) (Val := Elt F) (τ := τ) osem5 c
            ∗ (((c : Thread nD τ).loc main_v21) ↦{fullShare} a1.1 0)
            ∗ (((c : Thread nD τ).loc main_v3) ↦{fullShare} V c main_v3)
            ∗ (∃ W', owes (c : Thread nD τ) (0 : CellTallies nD τ sig Unit) W')) -∗ K ⟨⟩))
      ⊢ wp frame (wpE (defs₀ (F := F)) Variants.none c none) Set.univ (bodyProg5 a1 t) K

/-- What the body is called with at point t, the windows one by one, -/
def bodyPre5 (c : Dev nD) (t : Fin (cfg5 a1).N) : sProp 𝕄 :=
  iprop((dat5 V a1 O c).Φ t.castSucc ∗ (dat5 V a1 O c).owesAt () t.castSucc
    ∗ (∃ d, owns (c : Thread nD τ) (stg5 a1 0 t) fullShare ((dat5 V a1 O c).before 0 t d))
    ∗ (∃ d, owns (c : Thread nD τ) (stg5 a1 1 t) fullShare ((dat5 V a1 O c).before 1 t d)))

/-- and what it returns. -/
def bodyPost5 (c : Dev nD) (t : Fin (cfg5 a1).N) : sProp 𝕄 :=
  iprop((dat5 V a1 O c).Φ t.succ ∗ (dat5 V a1 O c).owesAt () t.succ
    ∗ owns (c : Thread nD τ) (stg5 a1 0 t) fullShare ((dat5 V a1 O c).after 0 t)
    ∗ owns (c : Thread nD τ) (stg5 a1 1 t) fullShare ((dat5 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body5 (hrun : BodyRun5 V a1 O) (c : Dev nD) (t : Fin (cfg5 a1).N) :
    bodyPre5 V a1 O c t
      ⊢ wp frame (wpE (defs₀ (F := F)) Variants.none c none) Set.univ (bodyProg5 a1 t) (fun _ => bodyPost5 V a1 O c t) := by
  unfold bodyPre5 bodyPost5
  simp only [beforeIn5]
  rw [afterIn5, afterOut5, Phi_eq5, Phi_eq5, PhiD_eq5, prefHeld_eq5]
  unfold Dat.owesAt Pipeline.owesWithin
  rw [owed_eq5, owed_eq5]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation5 (hrun : BodyRun5 V a1 O) (c : Dev nD) :
    BodyObligation (dat5 (F := F) V a1 O c) (defs₀ (F := F)) Variants.none () Set.univ := fun t => by
  rw [bigSep_W5, bigSep_W5]
  exact sound_body5 V a1 O hrun c t

end Data

/-! ## The region's record -/

section Record

variable (Win : Dev nD → Valuation τ sig (Elt F))

variable (a1 : (pcfg5 (F := F)).Adm)
  (O : (c : Dev nD) → Fin (cfg5 a1).N → Vec F S8x64 .f32)

/-- The buffers at the region's exit: its arrays at what the write-backs leave, every other buffer as entered. -/
def Wout5 (c : Dev nD) : Valuation τ sig (Elt F) :=
  Pipeline.withArrays spec5 c (Win c) fun w => (dat5 (Vof Win) a1 O c).arrAt w (cfg5 a1).N

theorem Wout5_arr (c : Dev nD) (w : Fin (cfg5 a1).W) :
    Wout5 Win a1 O c (Proc.devRef .tc (Pipeline.arrRef spec5 w)) = (dat5 (Vof Win) a1 O c).arrAt w (cfg5 a1).N := by
  unfold Wout5; exact Pipeline.withArrays_arr spec5 winFacts5.arr_inj c _ _ w

theorem Wout5_of_ne (c : Dev nD) (b : Ref sig .tc) (hb : ∀ w, Pipeline.arrRef spec5 w ≠ b) :
    Wout5 Win a1 O c (Proc.devRef .tc b) = Win c (Proc.devRef .tc b) := by
  unfold Wout5; exact Pipeline.withArrays_of_ne spec5 c _ _ b hb

/-- ENTRY, the buffers' part. Every unscoped buffer at Win is: the region's arrays at the proof data's entry contents,
    the table whole at the admissible contents (which are Win's there), the far operand whole, and the others. -/
theorem entry5 (c : Dev nD) (ha1 : ∀ k, Vof Win c (pre5.ref k) = a1.1 k) :
    (StableHlo.held (c : Thread nD τ) (Pipeline.ucRefs τ sig) (Win c) : sProp 𝕄)
      ⊢ iprop((dat5 (Vof Win) a1 O c).arrays ((dat5 (Vof Win) a1 O c).arrAt · 0)
          ∗ Pipeline.prefHeld pre5 c (fun _ => fullShare) a1.1
          ∗ (bigSep ({main_v3} : Finset (Ref sig .tc)) fun b => (((c : Thread nD τ)).loc b) ↦{fullShare} Vof Win c b)
          ∗ bigSep (Pipeline.restRefsP sig pre5 spec5 \ {main_v3}) fun b => (((c : Thread nD τ)).loc b) ↦{fullShare} Vof Win c b) := by
  have hsplit := Pipeline.arrays_of_unscopedBufs (p := ()) (fun (_ : Unit) => pcfg5 (F := F)) (fun _ => a1)
    (fun _ c => dat5 (Vof Win) a1 O c) winFacts5 (launch5 (F := F)).arr_whole c
    ((dat5 (Vof Win) a1 O c).share_full fun _ => rfl) (Vof Win c) (fun w => A_eq5 (Vof Win) a1 O c w)
  rw [Pipeline.unscopedBufs_held,
    Pipeline.unscopedRest_split (Ix := Unit) (Name := ℕ) (U := UD sig nD τ) (Lvl := ℕ) preFacts5 c (Vof Win c),
    Pipeline.unscopedRestP_sdiff pre5 spec5 {main_v3} hx_sub5 c (Vof Win c),
    show (fun k => Vof Win c (pre5.ref k)) = a1.1 from funext ha1] at hsplit
  exact hsplit

/-- EXIT, the buffers' part: the same four put back, the arrays at what the write-backs leave, are every unscoped
    buffer at the exit valuation. -/
theorem exit5 (c : Dev nD) (ha1 : ∀ k, Vof Win c (pre5.ref k) = a1.1 k) :
    iprop((dat5 (Vof Win) a1 O c).arrays ((dat5 (Vof Win) a1 O c).arrAt · (cfg5 a1).N)
        ∗ Pipeline.prefHeld pre5 c (fun _ => fullShare) a1.1
        ∗ (bigSep ({main_v3} : Finset (Ref sig .tc)) fun b => (((c : Thread nD τ)).loc b) ↦{fullShare} Vof Win c b)
        ∗ bigSep (Pipeline.restRefsP sig pre5 spec5 \ {main_v3}) fun b => (((c : Thread nD τ)).loc b) ↦{fullShare} Vof Win c b)
      ⊢ (StableHlo.held (c : Thread nD τ) (Pipeline.ucRefs τ sig) (Wout5 Win a1 O c) : sProp 𝕄) := by
  have hjoin := Pipeline.unscopedBufs_of_arrays (p := ()) (fun (_ : Unit) => pcfg5 (F := F)) (fun _ => a1)
    (Ix := Unit) (Name := ℕ) (U := UD sig nD τ) (Lvl := ℕ)
    winFacts5 (launch5 (F := F)).arr_whole c (fun _ c => dat5 (Vof Win) a1 O c)
    ((dat5 (Vof Win) a1 O c).share_full fun _ => rfl)
    (Vof Win c) (Vof (Wout5 Win a1 O) c) ((dat5 (Vof Win) a1 O c).arrAt · (cfg5 a1).N)
    (fun w => (Wout5_arr Win a1 O c w).symm)
    (fun b hb => Wout5_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts5 c (Vof Win c),
    Pipeline.unscopedRestP_sdiff pre5 spec5 {main_v3} hx_sub5 c (Vof Win c),
    show (fun k => Vof Win c (pre5.ref k)) = a1.1 from funext ha1] at hjoin
  exact hjoin

end Record

section Seg

variable (Win : Dev nD → Valuation τ sig (Elt F))
  (adm : (p : Fin 49) → (pcfgs (F := F) p).Adm)
  (O : (c : Dev nD) → Fin (cfg5 (adm (5 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout5. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg5 (hd : ∀ c, pdats (5 : Fin 49) c = dat5 (Vof Win) (adm (5 : Fin 49)) O c)
    (ha1 : ∀ c k, Vof Win c (pre5.ref k) = (adm (5 : Fin 49)).1 k)
    (hbody : ∀ c, BodyObligation (dat5 (F := F) (Vof Win) (adm (5 : Fin 49)) O c) (defs₀ (F := F)) 𝒱₀ () Set.univ) :
    Pipeline.RegionSeg (pcfgs (F := F)) adm pdats () defs₀ 𝒱₀ L lv (5 : Fin 49) where
  win := (launch5 (F := F)).win.to₀
  block_pos := (launch5 (F := F)).block_pos
  stage_whole := (launch5 (F := F)).stage_whole
  K := Fin 8
  osem := osem5
  ho := ownSemFacts5
  hbody c := by rw [hd c]; exact (hbody c).loose
  hwaits := Pipeline.hwaits_of_owed_zero _ _ _ _ L lv (5 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout5 Win (adm (5 : Fin 49)) O c) ∗ R c)
  X c := iprop((∃ r, prngReg c r)
    ∗ Pipeline.ownSems0 (Ix := Unit) (Name := ℕ) (U := UD sig nD τ) (Lvl := ℕ) (Val := Elt F) (τ := τ) osem5 c
    ∗ (bigSep ({main_v3} : Finset (Ref sig .tc)) fun b => (((c : Thread nD τ)).loc b) ↦{fullShare} Vof Win c b))
  Y c := iprop((∃ r, prngReg c r)
    ∗ (bigSep ({main_v3} : Finset (Ref sig .tc)) fun b => (((c : Thread nD τ)).loc b) ↦{fullShare} Vof Win c b)
    ∗ Pipeline.prefHeld pre5 c (fun _ => fullShare) (adm (5 : Fin 49)).1)
  Z c := bigSep (Pipeline.restRefsP sig pre5 spec5 \ {main_v3}) fun b => (((c : Thread nD τ)).loc b) ↦{fullShare} Vof Win c b
  hentry c := by
    rw [hd c]
    iintro ⟨⟨Hub, Hp, HO⟩, Hos, -⟩
    ihave H := (entry5 Win (adm (5 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq5, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq5, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit5 Win (adm (5 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg5 (F := F)).Adm)

/-- The output block at point t: the gathered rows (of the far operand's contents under V, chosen by the table's
    words at that point) times the input block. -/
def outBlk5 (c : Dev nD) (t : Fin (cfg5 a1).N) : Vec F S8x64 .f32 :=
  gatherOut (gatherG (a1.1 0) (V c main_v3) (grid5.coords t)) (iblk5 V a1 c 0 t)

theorem outBlk_eq5 (c : Dev nD) (t : Fin (cfg5 a1).N) :
    outBlk5 V a1 c t = gatherOut (gatherG (a1.1 0) (V c main_v3) (grid5.coords t)) (iblk5 V a1 c 0 t) := rfl

/-- The proof data with the output block named: after the body at point t the output window's buffer holds it. -/
theorem afterOutBlk5 (c : Dev nD) (t : Fin (cfg5 a1).N) :
    (dat5 V a1 (outBlk5 V a1) c).after 1 t
      = gatherOut (gatherG (a1.1 0) (V c main_v3) (grid5.coords t)) (iblk5 V a1 c 0 t) :=
  afterOut5 V a1 (outBlk5 V a1) c t

/-- The own cells at zero are the semaphore array's eight entries at zero, in order. -/
theorem ownSems_eq5 (c : Dev nD) :
    (Pipeline.ownSems0 (Ix := Unit) (Name := ℕ) (U := UD sig nD τ) (Lvl := ℕ) (Val := Elt F) (τ := τ) osem5 c : sProp 𝕄)
      = gsems0 c cc5_scratch1 := by
  rw [Pipeline.ownSems0_eq_of_list c osem5 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq5 (t : Fin (cfg5 a1).N) : ∃ h3 h4, bodyProg5 (F := F) a1 t
    = cc5__gather_mul_kernel (grid5.coords t) (Memref.whole main_v21) (Memref.isWhole_whole _) (Memref.whole main_v3) (Memref.isWhole_whole _)
        (stg5 a1 0 t) h3 (stg5 a1 1 t) h4 (Memref.whole cc5_scratch0) (Memref.isWhole_whole _) cc5_scratch1 := ⟨_, _, rfl⟩

end Out

/-! ## The body's run, joined to the proof data -/

section Body

variable (V : (c : Dev nD) → (b : Ref sig .tc) → Buf (Elt F) ((c : Thread nD τ).loc b))
  (a1 : (pcfg5 (F := F)).Adm)

/-- The scratch buffer whole at some contents, as a memref owned at some contents. -/
theorem scratchOwns_eq5 (c : Dev nD) :
    (iprop(∃ d, owns (c : Thread nD τ) (Memref.whole cc5_scratch0) fullShare d) : sProp 𝕄)
      = iprop(∃ f : Buf (Elt F) ((c : Thread nD τ).loc cc5_scratch0), ((c : Thread nD τ).loc cc5_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun5 (hlt : ∀ y, BitVec.toNat ((a1.1 0) y) < 100000) : BodyRun5 V a1 (outBlk5 V a1) := by
  intro c t W K
  obtain ⟨h3, h4, hprog⟩ := bodyProg_eq5 (F := F) a1 t
  rw [hprog, ownSems_eq5, ← scratchOwns_eq5 (F := F) c]
  have hrun := gather_kernel_run_5 (F := F) c (grid5.coords t) (Memref.whole main_v21) (Memref.isWhole_whole _) (Memref.whole main_v3) (Memref.isWhole_whole _)
    (stg5 a1 0 t) h3 (stg5 a1 1 t) h4 (Memref.whole cc5_scratch0) (Memref.isWhole_whole _) cc5_scratch1 fullShare fullShare
    (a1.1 0) (V c main_v3) (iblk5 V a1 c 0 t) (fun y => hlt y) W K
  simp only [Memref.view_whole, View.read_whole] at hrun
  unfold outBlk5
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut5 (hlt : ∀ y, BitVec.toNat ((a1.1 0) y) < 100000) (c : Dev nD) :
    BodyObligation (dat5 (F := F) V a1 (outBlk5 V a1) c) (defs₀ (F := F)) Variants.none () Set.univ :=
  body_obligation5 V a1 (outBlk5 V a1) (bodyRun5 V a1 hlt) c

end Body

/-! # Region 6 -/

/-! ## The body's own transfer cells -/

/-- The eight cells of the body's semaphore array, in order. -/
abbrev osem6 : Fin 8 → SemLoc sig := fun j => SemLoc.dma (cc6_scratch1.ix (fun | ⟨0, _⟩ => j))

/-- They are scoped, pairwise distinct, and none is a staging cell of a window. -/
theorem ownSemFacts6 : Pipeline.OwnSemFacts spec6 osem6 := by decide

/-- The far operand is an unscoped buffer that is neither a window's array nor a table. -/
theorem hx_sub6 : ({main_v3} : Finset (Ref sig .tc)) ⊆ Pipeline.restRefsP sig pre6 spec6 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg6 (F := F)).Adm)
  (O : (c : Dev nD) → Fin (cfg6 a1).N → Vec F S8x64 .f32)

/-! ## The windows' blocks -/

/-- Window w's block at point t, read off its array under V. -/
def iblk6 (c : Dev nD) (w : Fin (cfg6 a1).W) (t : Fin (cfg6 a1).N) :
    (((cfg6 a1).win w).xblock ((cfg6 a1).grid.coords t)).Idx → Elt F ((cfg6 a1).win w).elt :=
  (((cfg6 a1).win w).blk t).view.read (Elt F) (V c (Pipeline.arrRef spec6 w))

/-- The input window's current staging buffer holds its block at every point, fetched there or not, for any proof
    data whose array is V's and whose body leaves the block in place: unfetched, the block index has not moved. -/
theorem beforeIn6_of {c : Dev nD} (dat : Dat τ (Elt F) Unit ℕ (UD sig nD τ) ℕ (cfg6 a1) c)
    (hA : dat.A 0 = V c (Pipeline.arrRef spec6 0))
    (hafter : ∀ t, dat.after 0 t = iblk6 V a1 c 0 t) (t : Fin (cfg6 a1).N) (d) : dat.before 0 t d = iblk6 V a1 c 0 t :=
  (dat.before_in_eq_fetched 0 rfl (fun _ => rfl) (fun _ _ _ => rfl)
    (fun t => by rw [hafter]; unfold Dat.blockOf iblk6; rw [hA]; try rfl) t d).trans
    (by unfold Dat.fetched Dat.blockOf iblk6; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat6 (c : Dev nD) : Dat τ (Elt F) Unit ℕ (UD sig nD τ) ℕ (cfg6 a1) c where
  A w := V c (Pipeline.arrRef spec6 w)
  after w t := match w with
    | ⟨0, _⟩ => iblk6 V a1 c 0 t
    | ⟨1, _⟩ => O c t
  Φ _ := iprop(Pipeline.ΦD osem6 spec6 {main_v3} V c ∗ Pipeline.prefHeld pre6 c (fun _ => fullShare) a1.1)
  q _ := fullShare
  owed _ := 0

theorem A_eq6 (c : Dev nD) (w : Fin (cfg6 a1).W) : (dat6 V a1 O c).A w = V c (Pipeline.arrRef spec6 w) := by
  dsimp only [dat6]

theorem afterIn6 (c : Dev nD) (t : Fin (cfg6 a1).N) : (dat6 V a1 O c).after 0 t = iblk6 V a1 c 0 t := by
  dsimp only [dat6]; rfl

theorem afterOut6 (c : Dev nD) (t : Fin (cfg6 a1).N) :
    (dat6 V a1 O c).after 1 t = O c t := by
  dsimp only [dat6]; rfl

theorem beforeIn6 (c : Dev nD) (t : Fin (cfg6 a1).N) (d) : (dat6 V a1 O c).before 0 t d = iblk6 V a1 c 0 t :=
  beforeIn6_of V a1 (dat6 V a1 O c) (A_eq6 V a1 O c 0) (afterIn6 V a1 O c) t d

theorem Phi_eq6 (c : Dev nD) (t : Fin ((cfg6 a1).N + 1)) :
    (dat6 V a1 O c).Φ t
      = iprop(Pipeline.ΦD osem6 spec6 {main_v3} V c ∗ Pipeline.prefHeld pre6 c (fun _ => fullShare) a1.1) := by
  dsimp only [dat6]

theorem owed_eq6 (c : Dev nD) (t : Fin ((cfg6 a1).N + 1)) : (dat6 V a1 O c).owed t = 0 := by
  dsimp only [dat6]

/-! ## The invariant, conjunct by conjunct -/

/-- The invariant's first part opened: the body's scratch buffer whole at some contents and the other scoped
    buffers no window stages, the generator register, the own cells at zero, the far operand at its contents. -/
theorem PhiD_eq6 (c : Dev nD) :
    (Pipeline.ΦD osem6 spec6 {main_v3} V c : sProp 𝕄)
      = iprop(iprop(iprop((∃ f : Buf (Elt F) ((c : Thread nD τ).loc cc6_scratch0), ((c : Thread nD τ).loc cc6_scratch0) ↦{fullShare} f))
            ∗ Pipeline.scopedRestBut (Ix := Unit) (Name := ℕ) (U := UD sig nD τ) (Lvl := ℕ) (Val := Elt F) spec6 c [cc6_scratch0])
          ∗ (∃ r, prngReg c r)
          ∗ Pipeline.ownSems0 (Ix := Unit) (Name := ℕ) (U := UD sig nD τ) (Lvl := ℕ) (Val := Elt F) (τ := τ) osem6 c
          ∗ (((c : Thread nD τ).loc main_v3) ↦{fullShare} V c main_v3)) := by
  rw [Pipeline.ΦD_eq, scopedRest6_split, BI.bigSep_eq_bigSepL_of_eq [main_v3] (by decide) (by decide)]; rfl

/-- The one table, held whole. -/
theorem prefHeld_eq6 (c : Dev nD) :
    (Pipeline.prefHeld pre6 c (fun _ => fullShare) a1.1 : sProp 𝕄)
      = (((c : Thread nD τ).loc main_v25) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg6 (w : Fin (cfg6 a1).W) (t : Fin (cfg6 a1).N) := ((cfg6 a1).win w).stage ((cfg6 a1).slots t w)

/-- The body as the pipeline calls it at point t. -/
abbrev bodyProg6 (t : Fin (cfg6 a1).N) : Prog (TpuEff nD τ sig (Elt F) Λ₀ .tc) PUnit :=
  (defs₀ (F := F)) .tc (cfg6 a1).body ((cfg6 a1).bodyArgs t ((cfg6 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun6 : Prop :=
  ∀ (c : Dev nD) (t : Fin (cfg6 a1).N) (W) (K : PUnit → sProp 𝕄),
    iprop(owns (c : Thread nD τ) (stg6 a1 0 t) fullShare (iblk6 V a1 c 0 t)
        ∗ (∃ d, owns (c : Thread nD τ) (stg6 a1 1 t) fullShare d)
        ∗ (∃ f : Buf (Elt F) ((c : Thread nD τ).loc cc6_scratch0), ((c : Thread nD τ).loc cc6_scratch0) ↦{fullShare} f)
        ∗ Pipeline.ownSems0 (Ix := Unit) (Name := ℕ) (U := UD sig nD τ) (Lvl := ℕ) (Val := Elt F) (τ := τ) osem6 c
        ∗ (((c : Thread nD τ).loc main_v25) ↦{fullShare} a1.1 0)
        ∗ (((c : Thread nD τ).loc main_v3) ↦{fullShare} V c main_v3)
        ∗ owes (c : Thread nD τ) (0 : CellTallies nD τ sig Unit) W
        ∗ (iprop(owns (c : Thread nD τ) (stg6 a1 0 t) fullShare (iblk6 V a1 c 0 t)
            ∗ owns (c : Thread nD τ) (stg6 a1 1 t) fullShare (O c t)
            ∗ (∃ f : Buf (Elt F) ((c : Thread nD τ).loc cc6_scratch0), ((c : Thread nD τ).loc cc6_scratch0) ↦{fullShare} f)
            ∗ Pipeline.ownSems0 (Ix := Unit) (Name := ℕ) (U := UD sig nD τ) (Lvl := ℕ) (Val := Elt F) (τ := τ) osem6 c
            ∗ (((c : Thread nD τ).loc main_v25) ↦{fullShare} a1.1 0)
            ∗ (((c : Thread nD τ).loc main_v3) ↦{fullShare} V c main_v3)
            ∗ (∃ W', owes (c : Thread nD τ) (0 : CellTallies nD τ sig Unit) W')) -∗ K ⟨⟩))
      ⊢ wp frame (wpE (defs₀ (F := F)) Variants.none c none) Set.univ (bodyProg6 a1 t) K

/-- What the body is called with at point t, the windows one by one, -/
def bodyPre6 (c : Dev nD) (t : Fin (cfg6 a1).N) : sProp 𝕄 :=
  iprop((dat6 V a1 O c).Φ t.castSucc ∗ (dat6 V a1 O c).owesAt () t.castSucc
    ∗ (∃ d, owns (c : Thread nD τ) (stg6 a1 0 t) fullShare ((dat6 V a1 O c).before 0 t d))
    ∗ (∃ d, owns (c : Thread nD τ) (stg6 a1 1 t) fullShare ((dat6 V a1 O c).before 1 t d)))

/-- and what it returns. -/
def bodyPost6 (c : Dev nD) (t : Fin (cfg6 a1).N) : sProp 𝕄 :=
  iprop((dat6 V a1 O c).Φ t.succ ∗ (dat6 V a1 O c).owesAt () t.succ
    ∗ owns (c : Thread nD τ) (stg6 a1 0 t) fullShare ((dat6 V a1 O c).after 0 t)
    ∗ owns (c : Thread nD τ) (stg6 a1 1 t) fullShare ((dat6 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body6 (hrun : BodyRun6 V a1 O) (c : Dev nD) (t : Fin (cfg6 a1).N) :
    bodyPre6 V a1 O c t
      ⊢ wp frame (wpE (defs₀ (F := F)) Variants.none c none) Set.univ (bodyProg6 a1 t) (fun _ => bodyPost6 V a1 O c t) := by
  unfold bodyPre6 bodyPost6
  simp only [beforeIn6]
  rw [afterIn6, afterOut6, Phi_eq6, Phi_eq6, PhiD_eq6, prefHeld_eq6]
  unfold Dat.owesAt Pipeline.owesWithin
  rw [owed_eq6, owed_eq6]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation6 (hrun : BodyRun6 V a1 O) (c : Dev nD) :
    BodyObligation (dat6 (F := F) V a1 O c) (defs₀ (F := F)) Variants.none () Set.univ := fun t => by
  rw [bigSep_W6, bigSep_W6]
  exact sound_body6 V a1 O hrun c t

end Data

/-! ## The region's record -/

section Record

variable (Win : Dev nD → Valuation τ sig (Elt F))

variable (a1 : (pcfg6 (F := F)).Adm)
  (O : (c : Dev nD) → Fin (cfg6 a1).N → Vec F S8x64 .f32)

/-- The buffers at the region's exit: its arrays at what the write-backs leave, every other buffer as entered. -/
def Wout6 (c : Dev nD) : Valuation τ sig (Elt F) :=
  Pipeline.withArrays spec6 c (Win c) fun w => (dat6 (Vof Win) a1 O c).arrAt w (cfg6 a1).N

theorem Wout6_arr (c : Dev nD) (w : Fin (cfg6 a1).W) :
    Wout6 Win a1 O c (Proc.devRef .tc (Pipeline.arrRef spec6 w)) = (dat6 (Vof Win) a1 O c).arrAt w (cfg6 a1).N := by
  unfold Wout6; exact Pipeline.withArrays_arr spec6 winFacts6.arr_inj c _ _ w

theorem Wout6_of_ne (c : Dev nD) (b : Ref sig .tc) (hb : ∀ w, Pipeline.arrRef spec6 w ≠ b) :
    Wout6 Win a1 O c (Proc.devRef .tc b) = Win c (Proc.devRef .tc b) := by
  unfold Wout6; exact Pipeline.withArrays_of_ne spec6 c _ _ b hb

/-- ENTRY, the buffers' part. Every unscoped buffer at Win is: the region's arrays at the proof data's entry contents,
    the table whole at the admissible contents (which are Win's there), the far operand whole, and the others. -/
theorem entry6 (c : Dev nD) (ha1 : ∀ k, Vof Win c (pre6.ref k) = a1.1 k) :
    (StableHlo.held (c : Thread nD τ) (Pipeline.ucRefs τ sig) (Win c) : sProp 𝕄)
      ⊢ iprop((dat6 (Vof Win) a1 O c).arrays ((dat6 (Vof Win) a1 O c).arrAt · 0)
          ∗ Pipeline.prefHeld pre6 c (fun _ => fullShare) a1.1
          ∗ (bigSep ({main_v3} : Finset (Ref sig .tc)) fun b => (((c : Thread nD τ)).loc b) ↦{fullShare} Vof Win c b)
          ∗ bigSep (Pipeline.restRefsP sig pre6 spec6 \ {main_v3}) fun b => (((c : Thread nD τ)).loc b) ↦{fullShare} Vof Win c b) := by
  have hsplit := Pipeline.arrays_of_unscopedBufs (p := ()) (fun (_ : Unit) => pcfg6 (F := F)) (fun _ => a1)
    (fun _ c => dat6 (Vof Win) a1 O c) winFacts6 (launch6 (F := F)).arr_whole c
    ((dat6 (Vof Win) a1 O c).share_full fun _ => rfl) (Vof Win c) (fun w => A_eq6 (Vof Win) a1 O c w)
  rw [Pipeline.unscopedBufs_held,
    Pipeline.unscopedRest_split (Ix := Unit) (Name := ℕ) (U := UD sig nD τ) (Lvl := ℕ) preFacts6 c (Vof Win c),
    Pipeline.unscopedRestP_sdiff pre6 spec6 {main_v3} hx_sub6 c (Vof Win c),
    show (fun k => Vof Win c (pre6.ref k)) = a1.1 from funext ha1] at hsplit
  exact hsplit

/-- EXIT, the buffers' part: the same four put back, the arrays at what the write-backs leave, are every unscoped
    buffer at the exit valuation. -/
theorem exit6 (c : Dev nD) (ha1 : ∀ k, Vof Win c (pre6.ref k) = a1.1 k) :
    iprop((dat6 (Vof Win) a1 O c).arrays ((dat6 (Vof Win) a1 O c).arrAt · (cfg6 a1).N)
        ∗ Pipeline.prefHeld pre6 c (fun _ => fullShare) a1.1
        ∗ (bigSep ({main_v3} : Finset (Ref sig .tc)) fun b => (((c : Thread nD τ)).loc b) ↦{fullShare} Vof Win c b)
        ∗ bigSep (Pipeline.restRefsP sig pre6 spec6 \ {main_v3}) fun b => (((c : Thread nD τ)).loc b) ↦{fullShare} Vof Win c b)
      ⊢ (StableHlo.held (c : Thread nD τ) (Pipeline.ucRefs τ sig) (Wout6 Win a1 O c) : sProp 𝕄) := by
  have hjoin := Pipeline.unscopedBufs_of_arrays (p := ()) (fun (_ : Unit) => pcfg6 (F := F)) (fun _ => a1)
    (Ix := Unit) (Name := ℕ) (U := UD sig nD τ) (Lvl := ℕ)
    winFacts6 (launch6 (F := F)).arr_whole c (fun _ c => dat6 (Vof Win) a1 O c)
    ((dat6 (Vof Win) a1 O c).share_full fun _ => rfl)
    (Vof Win c) (Vof (Wout6 Win a1 O) c) ((dat6 (Vof Win) a1 O c).arrAt · (cfg6 a1).N)
    (fun w => (Wout6_arr Win a1 O c w).symm)
    (fun b hb => Wout6_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts6 c (Vof Win c),
    Pipeline.unscopedRestP_sdiff pre6 spec6 {main_v3} hx_sub6 c (Vof Win c),
    show (fun k => Vof Win c (pre6.ref k)) = a1.1 from funext ha1] at hjoin
  exact hjoin

end Record

section Seg

variable (Win : Dev nD → Valuation τ sig (Elt F))
  (adm : (p : Fin 49) → (pcfgs (F := F) p).Adm)
  (O : (c : Dev nD) → Fin (cfg6 (adm (6 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout6. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg6 (hd : ∀ c, pdats (6 : Fin 49) c = dat6 (Vof Win) (adm (6 : Fin 49)) O c)
    (ha1 : ∀ c k, Vof Win c (pre6.ref k) = (adm (6 : Fin 49)).1 k)
    (hbody : ∀ c, BodyObligation (dat6 (F := F) (Vof Win) (adm (6 : Fin 49)) O c) (defs₀ (F := F)) 𝒱₀ () Set.univ) :
    Pipeline.RegionSeg (pcfgs (F := F)) adm pdats () defs₀ 𝒱₀ L lv (6 : Fin 49) where
  win := (launch6 (F := F)).win.to₀
  block_pos := (launch6 (F := F)).block_pos
  stage_whole := (launch6 (F := F)).stage_whole
  K := Fin 8
  osem := osem6
  ho := ownSemFacts6
  hbody c := by rw [hd c]; exact (hbody c).loose
  hwaits := Pipeline.hwaits_of_owed_zero _ _ _ _ L lv (6 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout6 Win (adm (6 : Fin 49)) O c) ∗ R c)
  X c := iprop((∃ r, prngReg c r)
    ∗ Pipeline.ownSems0 (Ix := Unit) (Name := ℕ) (U := UD sig nD τ) (Lvl := ℕ) (Val := Elt F) (τ := τ) osem6 c
    ∗ (bigSep ({main_v3} : Finset (Ref sig .tc)) fun b => (((c : Thread nD τ)).loc b) ↦{fullShare} Vof Win c b))
  Y c := iprop((∃ r, prngReg c r)
    ∗ (bigSep ({main_v3} : Finset (Ref sig .tc)) fun b => (((c : Thread nD τ)).loc b) ↦{fullShare} Vof Win c b)
    ∗ Pipeline.prefHeld pre6 c (fun _ => fullShare) (adm (6 : Fin 49)).1)
  Z c := bigSep (Pipeline.restRefsP sig pre6 spec6 \ {main_v3}) fun b => (((c : Thread nD τ)).loc b) ↦{fullShare} Vof Win c b
  hentry c := by
    rw [hd c]
    iintro ⟨⟨Hub, Hp, HO⟩, Hos, -⟩
    ihave H := (entry6 Win (adm (6 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq6, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq6, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit6 Win (adm (6 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg6 (F := F)).Adm)

/-- The output block at point t: the gathered rows (of the far operand's contents under V, chosen by the table's
    words at that point) times the input block. -/
def outBlk6 (c : Dev nD) (t : Fin (cfg6 a1).N) : Vec F S8x64 .f32 :=
  gatherOut (gatherG (a1.1 0) (V c main_v3) (grid6.coords t)) (iblk6 V a1 c 0 t)

theorem outBlk_eq6 (c : Dev nD) (t : Fin (cfg6 a1).N) :
    outBlk6 V a1 c t = gatherOut (gatherG (a1.1 0) (V c main_v3) (grid6.coords t)) (iblk6 V a1 c 0 t) := rfl

/-- The proof data with the output block named: after the body at point t the output window's buffer holds it. -/
theorem afterOutBlk6 (c : Dev nD) (t : Fin (cfg6 a1).N) :
    (dat6 V a1 (outBlk6 V a1) c).after 1 t
      = gatherOut (gatherG (a1.1 0) (V c main_v3) (grid6.coords t)) (iblk6 V a1 c 0 t) :=
  afterOut6 V a1 (outBlk6 V a1) c t

/-- The own cells at zero are the semaphore array's eight entries at zero, in order. -/
theorem ownSems_eq6 (c : Dev nD) :
    (Pipeline.ownSems0 (Ix := Unit) (Name := ℕ) (U := UD sig nD τ) (Lvl := ℕ) (Val := Elt F) (τ := τ) osem6 c : sProp 𝕄)
      = gsems0 c cc6_scratch1 := by
  rw [Pipeline.ownSems0_eq_of_list c osem6 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq6 (t : Fin (cfg6 a1).N) : ∃ h3 h4, bodyProg6 (F := F) a1 t
    = cc6__gather_mul_kernel (grid6.coords t) (Memref.whole main_v25) (Memref.isWhole_whole _) (Memref.whole main_v3) (Memref.isWhole_whole _)
        (stg6 a1 0 t) h3 (stg6 a1 1 t) h4 (Memref.whole cc6_scratch0) (Memref.isWhole_whole _) cc6_scratch1 := ⟨_, _, rfl⟩

end Out

/-! ## The body's run, joined to the proof data -/

section Body

variable (V : (c : Dev nD) → (b : Ref sig .tc) → Buf (Elt F) ((c : Thread nD τ).loc b))
  (a1 : (pcfg6 (F := F)).Adm)

/-- The scratch buffer whole at some contents, as a memref owned at some contents. -/
theorem scratchOwns_eq6 (c : Dev nD) :
    (iprop(∃ d, owns (c : Thread nD τ) (Memref.whole cc6_scratch0) fullShare d) : sProp 𝕄)
      = iprop(∃ f : Buf (Elt F) ((c : Thread nD τ).loc cc6_scratch0), ((c : Thread nD τ).loc cc6_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun6 (hlt : ∀ y, BitVec.toNat ((a1.1 0) y) < 100000) : BodyRun6 V a1 (outBlk6 V a1) := by
  intro c t W K
  obtain ⟨h3, h4, hprog⟩ := bodyProg_eq6 (F := F) a1 t
  rw [hprog, ownSems_eq6, ← scratchOwns_eq6 (F := F) c]
  have hrun := gather_kernel_run_6 (F := F) c (grid6.coords t) (Memref.whole main_v25) (Memref.isWhole_whole _) (Memref.whole main_v3) (Memref.isWhole_whole _)
    (stg6 a1 0 t) h3 (stg6 a1 1 t) h4 (Memref.whole cc6_scratch0) (Memref.isWhole_whole _) cc6_scratch1 fullShare fullShare
    (a1.1 0) (V c main_v3) (iblk6 V a1 c 0 t) (fun y => hlt y) W K
  simp only [Memref.view_whole, View.read_whole] at hrun
  unfold outBlk6
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut6 (hlt : ∀ y, BitVec.toNat ((a1.1 0) y) < 100000) (c : Dev nD) :
    BodyObligation (dat6 (F := F) V a1 (outBlk6 V a1) c) (defs₀ (F := F)) Variants.none () Set.univ :=
  body_obligation6 V a1 (outBlk6 V a1) (bodyRun6 V a1 hlt) c

end Body

/-! # Region 7 -/

/-! ## The body's own transfer cells -/

/-- The eight cells of the body's semaphore array, in order. -/
abbrev osem7 : Fin 8 → SemLoc sig := fun j => SemLoc.dma (cc7_scratch1.ix (fun | ⟨0, _⟩ => j))

/-- They are scoped, pairwise distinct, and none is a staging cell of a window. -/
theorem ownSemFacts7 : Pipeline.OwnSemFacts spec7 osem7 := by decide

/-- The far operand is an unscoped buffer that is neither a window's array nor a table. -/
theorem hx_sub7 : ({main_v3} : Finset (Ref sig .tc)) ⊆ Pipeline.restRefsP sig pre7 spec7 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg7 (F := F)).Adm)
  (O : (c : Dev nD) → Fin (cfg7 a1).N → Vec F S8x64 .f32)

/-! ## The windows' blocks -/

/-- Window w's block at point t, read off its array under V. -/
def iblk7 (c : Dev nD) (w : Fin (cfg7 a1).W) (t : Fin (cfg7 a1).N) :
    (((cfg7 a1).win w).xblock ((cfg7 a1).grid.coords t)).Idx → Elt F ((cfg7 a1).win w).elt :=
  (((cfg7 a1).win w).blk t).view.read (Elt F) (V c (Pipeline.arrRef spec7 w))

/-- The input window's current staging buffer holds its block at every point, fetched there or not, for any proof
    data whose array is V's and whose body leaves the block in place: unfetched, the block index has not moved. -/
theorem beforeIn7_of {c : Dev nD} (dat : Dat τ (Elt F) Unit ℕ (UD sig nD τ) ℕ (cfg7 a1) c)
    (hA : dat.A 0 = V c (Pipeline.arrRef spec7 0))
    (hafter : ∀ t, dat.after 0 t = iblk7 V a1 c 0 t) (t : Fin (cfg7 a1).N) (d) : dat.before 0 t d = iblk7 V a1 c 0 t :=
  (dat.before_in_eq_fetched 0 rfl (fun _ => rfl) (fun _ _ _ => rfl)
    (fun t => by rw [hafter]; unfold Dat.blockOf iblk7; rw [hA]; try rfl) t d).trans
    (by unfold Dat.fetched Dat.blockOf iblk7; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat7 (c : Dev nD) : Dat τ (Elt F) Unit ℕ (UD sig nD τ) ℕ (cfg7 a1) c where
  A w := V c (Pipeline.arrRef spec7 w)
  after w t := match w with
    | ⟨0, _⟩ => iblk7 V a1 c 0 t
    | ⟨1, _⟩ => O c t
  Φ _ := iprop(Pipeline.ΦD osem7 spec7 {main_v3} V c ∗ Pipeline.prefHeld pre7 c (fun _ => fullShare) a1.1)
  q _ := fullShare
  owed _ := 0

theorem A_eq7 (c : Dev nD) (w : Fin (cfg7 a1).W) : (dat7 V a1 O c).A w = V c (Pipeline.arrRef spec7 w) := by
  dsimp only [dat7]

theorem afterIn7 (c : Dev nD) (t : Fin (cfg7 a1).N) : (dat7 V a1 O c).after 0 t = iblk7 V a1 c 0 t := by
  dsimp only [dat7]; rfl

theorem afterOut7 (c : Dev nD) (t : Fin (cfg7 a1).N) :
    (dat7 V a1 O c).after 1 t = O c t := by
  dsimp only [dat7]; rfl

theorem beforeIn7 (c : Dev nD) (t : Fin (cfg7 a1).N) (d) : (dat7 V a1 O c).before 0 t d = iblk7 V a1 c 0 t :=
  beforeIn7_of V a1 (dat7 V a1 O c) (A_eq7 V a1 O c 0) (afterIn7 V a1 O c) t d

theorem Phi_eq7 (c : Dev nD) (t : Fin ((cfg7 a1).N + 1)) :
    (dat7 V a1 O c).Φ t
      = iprop(Pipeline.ΦD osem7 spec7 {main_v3} V c ∗ Pipeline.prefHeld pre7 c (fun _ => fullShare) a1.1) := by
  dsimp only [dat7]

theorem owed_eq7 (c : Dev nD) (t : Fin ((cfg7 a1).N + 1)) : (dat7 V a1 O c).owed t = 0 := by
  dsimp only [dat7]

/-! ## The invariant, conjunct by conjunct -/

/-- The invariant's first part opened: the body's scratch buffer whole at some contents and the other scoped
    buffers no window stages, the generator register, the own cells at zero, the far operand at its contents. -/
theorem PhiD_eq7 (c : Dev nD) :
    (Pipeline.ΦD osem7 spec7 {main_v3} V c : sProp 𝕄)
      = iprop(iprop(iprop((∃ f : Buf (Elt F) ((c : Thread nD τ).loc cc7_scratch0), ((c : Thread nD τ).loc cc7_scratch0) ↦{fullShare} f))
            ∗ Pipeline.scopedRestBut (Ix := Unit) (Name := ℕ) (U := UD sig nD τ) (Lvl := ℕ) (Val := Elt F) spec7 c [cc7_scratch0])
          ∗ (∃ r, prngReg c r)
          ∗ Pipeline.ownSems0 (Ix := Unit) (Name := ℕ) (U := UD sig nD τ) (Lvl := ℕ) (Val := Elt F) (τ := τ) osem7 c
          ∗ (((c : Thread nD τ).loc main_v3) ↦{fullShare} V c main_v3)) := by
  rw [Pipeline.ΦD_eq, scopedRest7_split, BI.bigSep_eq_bigSepL_of_eq [main_v3] (by decide) (by decide)]; rfl

/-- The one table, held whole. -/
theorem prefHeld_eq7 (c : Dev nD) :
    (Pipeline.prefHeld pre7 c (fun _ => fullShare) a1.1 : sProp 𝕄)
      = (((c : Thread nD τ).loc main_v29) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg7 (w : Fin (cfg7 a1).W) (t : Fin (cfg7 a1).N) := ((cfg7 a1).win w).stage ((cfg7 a1).slots t w)

/-- The body as the pipeline calls it at point t. -/
abbrev bodyProg7 (t : Fin (cfg7 a1).N) : Prog (TpuEff nD τ sig (Elt F) Λ₀ .tc) PUnit :=
  (defs₀ (F := F)) .tc (cfg7 a1).body ((cfg7 a1).bodyArgs t ((cfg7 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun7 : Prop :=
  ∀ (c : Dev nD) (t : Fin (cfg7 a1).N) (W) (K : PUnit → sProp 𝕄),
    iprop(owns (c : Thread nD τ) (stg7 a1 0 t) fullShare (iblk7 V a1 c 0 t)
        ∗ (∃ d, owns (c : Thread nD τ) (stg7 a1 1 t) fullShare d)
        ∗ (∃ f : Buf (Elt F) ((c : Thread nD τ).loc cc7_scratch0), ((c : Thread nD τ).loc cc7_scratch0) ↦{fullShare} f)
        ∗ Pipeline.ownSems0 (Ix := Unit) (Name := ℕ) (U := UD sig nD τ) (Lvl := ℕ) (Val := Elt F) (τ := τ) osem7 c
        ∗ (((c : Thread nD τ).loc main_v29) ↦{fullShare} a1.1 0)
        ∗ (((c : Thread nD τ).loc main_v3) ↦{fullShare} V c main_v3)
        ∗ owes (c : Thread nD τ) (0 : CellTallies nD τ sig Unit) W
        ∗ (iprop(owns (c : Thread nD τ) (stg7 a1 0 t) fullShare (iblk7 V a1 c 0 t)
            ∗ owns (c : Thread nD τ) (stg7 a1 1 t) fullShare (O c t)
            ∗ (∃ f : Buf (Elt F) ((c : Thread nD τ).loc cc7_scratch0), ((c : Thread nD τ).loc cc7_scratch0) ↦{fullShare} f)
            ∗ Pipeline.ownSems0 (Ix := Unit) (Name := ℕ) (U := UD sig nD τ) (Lvl := ℕ) (Val := Elt F) (τ := τ) osem7 c
            ∗ (((c : Thread nD τ).loc main_v29) ↦{fullShare} a1.1 0)
            ∗ (((c : Thread nD τ).loc main_v3) ↦{fullShare} V c main_v3)
            ∗ (∃ W', owes (c : Thread nD τ) (0 : CellTallies nD τ sig Unit) W')) -∗ K ⟨⟩))
      ⊢ wp frame (wpE (defs₀ (F := F)) Variants.none c none) Set.univ (bodyProg7 a1 t) K

/-- What the body is called with at point t, the windows one by one, -/
def bodyPre7 (c : Dev nD) (t : Fin (cfg7 a1).N) : sProp 𝕄 :=
  iprop((dat7 V a1 O c).Φ t.castSucc ∗ (dat7 V a1 O c).owesAt () t.castSucc
    ∗ (∃ d, owns (c : Thread nD τ) (stg7 a1 0 t) fullShare ((dat7 V a1 O c).before 0 t d))
    ∗ (∃ d, owns (c : Thread nD τ) (stg7 a1 1 t) fullShare ((dat7 V a1 O c).before 1 t d)))

/-- and what it returns. -/
def bodyPost7 (c : Dev nD) (t : Fin (cfg7 a1).N) : sProp 𝕄 :=
  iprop((dat7 V a1 O c).Φ t.succ ∗ (dat7 V a1 O c).owesAt () t.succ
    ∗ owns (c : Thread nD τ) (stg7 a1 0 t) fullShare ((dat7 V a1 O c).after 0 t)
    ∗ owns (c : Thread nD τ) (stg7 a1 1 t) fullShare ((dat7 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body7 (hrun : BodyRun7 V a1 O) (c : Dev nD) (t : Fin (cfg7 a1).N) :
    bodyPre7 V a1 O c t
      ⊢ wp frame (wpE (defs₀ (F := F)) Variants.none c none) Set.univ (bodyProg7 a1 t) (fun _ => bodyPost7 V a1 O c t) := by
  unfold bodyPre7 bodyPost7
  simp only [beforeIn7]
  rw [afterIn7, afterOut7, Phi_eq7, Phi_eq7, PhiD_eq7, prefHeld_eq7]
  unfold Dat.owesAt Pipeline.owesWithin
  rw [owed_eq7, owed_eq7]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation7 (hrun : BodyRun7 V a1 O) (c : Dev nD) :
    BodyObligation (dat7 (F := F) V a1 O c) (defs₀ (F := F)) Variants.none () Set.univ := fun t => by
  rw [bigSep_W7, bigSep_W7]
  exact sound_body7 V a1 O hrun c t

end Data

/-! ## The region's record -/

section Record

variable (Win : Dev nD → Valuation τ sig (Elt F))

variable (a1 : (pcfg7 (F := F)).Adm)
  (O : (c : Dev nD) → Fin (cfg7 a1).N → Vec F S8x64 .f32)

/-- The buffers at the region's exit: its arrays at what the write-backs leave, every other buffer as entered. -/
def Wout7 (c : Dev nD) : Valuation τ sig (Elt F) :=
  Pipeline.withArrays spec7 c (Win c) fun w => (dat7 (Vof Win) a1 O c).arrAt w (cfg7 a1).N

theorem Wout7_arr (c : Dev nD) (w : Fin (cfg7 a1).W) :
    Wout7 Win a1 O c (Proc.devRef .tc (Pipeline.arrRef spec7 w)) = (dat7 (Vof Win) a1 O c).arrAt w (cfg7 a1).N := by
  unfold Wout7; exact Pipeline.withArrays_arr spec7 winFacts7.arr_inj c _ _ w

theorem Wout7_of_ne (c : Dev nD) (b : Ref sig .tc) (hb : ∀ w, Pipeline.arrRef spec7 w ≠ b) :
    Wout7 Win a1 O c (Proc.devRef .tc b) = Win c (Proc.devRef .tc b) := by
  unfold Wout7; exact Pipeline.withArrays_of_ne spec7 c _ _ b hb

/-- ENTRY, the buffers' part. Every unscoped buffer at Win is: the region's arrays at the proof data's entry contents,
    the table whole at the admissible contents (which are Win's there), the far operand whole, and the others. -/
theorem entry7 (c : Dev nD) (ha1 : ∀ k, Vof Win c (pre7.ref k) = a1.1 k) :
    (StableHlo.held (c : Thread nD τ) (Pipeline.ucRefs τ sig) (Win c) : sProp 𝕄)
      ⊢ iprop((dat7 (Vof Win) a1 O c).arrays ((dat7 (Vof Win) a1 O c).arrAt · 0)
          ∗ Pipeline.prefHeld pre7 c (fun _ => fullShare) a1.1
          ∗ (bigSep ({main_v3} : Finset (Ref sig .tc)) fun b => (((c : Thread nD τ)).loc b) ↦{fullShare} Vof Win c b)
          ∗ bigSep (Pipeline.restRefsP sig pre7 spec7 \ {main_v3}) fun b => (((c : Thread nD τ)).loc b) ↦{fullShare} Vof Win c b) := by
  have hsplit := Pipeline.arrays_of_unscopedBufs (p := ()) (fun (_ : Unit) => pcfg7 (F := F)) (fun _ => a1)
    (fun _ c => dat7 (Vof Win) a1 O c) winFacts7 (launch7 (F := F)).arr_whole c
    ((dat7 (Vof Win) a1 O c).share_full fun _ => rfl) (Vof Win c) (fun w => A_eq7 (Vof Win) a1 O c w)
  rw [Pipeline.unscopedBufs_held,
    Pipeline.unscopedRest_split (Ix := Unit) (Name := ℕ) (U := UD sig nD τ) (Lvl := ℕ) preFacts7 c (Vof Win c),
    Pipeline.unscopedRestP_sdiff pre7 spec7 {main_v3} hx_sub7 c (Vof Win c),
    show (fun k => Vof Win c (pre7.ref k)) = a1.1 from funext ha1] at hsplit
  exact hsplit

/-- EXIT, the buffers' part: the same four put back, the arrays at what the write-backs leave, are every unscoped
    buffer at the exit valuation. -/
theorem exit7 (c : Dev nD) (ha1 : ∀ k, Vof Win c (pre7.ref k) = a1.1 k) :
    iprop((dat7 (Vof Win) a1 O c).arrays ((dat7 (Vof Win) a1 O c).arrAt · (cfg7 a1).N)
        ∗ Pipeline.prefHeld pre7 c (fun _ => fullShare) a1.1
        ∗ (bigSep ({main_v3} : Finset (Ref sig .tc)) fun b => (((c : Thread nD τ)).loc b) ↦{fullShare} Vof Win c b)
        ∗ bigSep (Pipeline.restRefsP sig pre7 spec7 \ {main_v3}) fun b => (((c : Thread nD τ)).loc b) ↦{fullShare} Vof Win c b)
      ⊢ (StableHlo.held (c : Thread nD τ) (Pipeline.ucRefs τ sig) (Wout7 Win a1 O c) : sProp 𝕄) := by
  have hjoin := Pipeline.unscopedBufs_of_arrays (p := ()) (fun (_ : Unit) => pcfg7 (F := F)) (fun _ => a1)
    (Ix := Unit) (Name := ℕ) (U := UD sig nD τ) (Lvl := ℕ)
    winFacts7 (launch7 (F := F)).arr_whole c (fun _ c => dat7 (Vof Win) a1 O c)
    ((dat7 (Vof Win) a1 O c).share_full fun _ => rfl)
    (Vof Win c) (Vof (Wout7 Win a1 O) c) ((dat7 (Vof Win) a1 O c).arrAt · (cfg7 a1).N)
    (fun w => (Wout7_arr Win a1 O c w).symm)
    (fun b hb => Wout7_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts7 c (Vof Win c),
    Pipeline.unscopedRestP_sdiff pre7 spec7 {main_v3} hx_sub7 c (Vof Win c),
    show (fun k => Vof Win c (pre7.ref k)) = a1.1 from funext ha1] at hjoin
  exact hjoin

end Record

section Seg

variable (Win : Dev nD → Valuation τ sig (Elt F))
  (adm : (p : Fin 49) → (pcfgs (F := F) p).Adm)
  (O : (c : Dev nD) → Fin (cfg7 (adm (7 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout7. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg7 (hd : ∀ c, pdats (7 : Fin 49) c = dat7 (Vof Win) (adm (7 : Fin 49)) O c)
    (ha1 : ∀ c k, Vof Win c (pre7.ref k) = (adm (7 : Fin 49)).1 k)
    (hbody : ∀ c, BodyObligation (dat7 (F := F) (Vof Win) (adm (7 : Fin 49)) O c) (defs₀ (F := F)) 𝒱₀ () Set.univ) :
    Pipeline.RegionSeg (pcfgs (F := F)) adm pdats () defs₀ 𝒱₀ L lv (7 : Fin 49) where
  win := (launch7 (F := F)).win.to₀
  block_pos := (launch7 (F := F)).block_pos
  stage_whole := (launch7 (F := F)).stage_whole
  K := Fin 8
  osem := osem7
  ho := ownSemFacts7
  hbody c := by rw [hd c]; exact (hbody c).loose
  hwaits := Pipeline.hwaits_of_owed_zero _ _ _ _ L lv (7 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout7 Win (adm (7 : Fin 49)) O c) ∗ R c)
  X c := iprop((∃ r, prngReg c r)
    ∗ Pipeline.ownSems0 (Ix := Unit) (Name := ℕ) (U := UD sig nD τ) (Lvl := ℕ) (Val := Elt F) (τ := τ) osem7 c
    ∗ (bigSep ({main_v3} : Finset (Ref sig .tc)) fun b => (((c : Thread nD τ)).loc b) ↦{fullShare} Vof Win c b))
  Y c := iprop((∃ r, prngReg c r)
    ∗ (bigSep ({main_v3} : Finset (Ref sig .tc)) fun b => (((c : Thread nD τ)).loc b) ↦{fullShare} Vof Win c b)
    ∗ Pipeline.prefHeld pre7 c (fun _ => fullShare) (adm (7 : Fin 49)).1)
  Z c := bigSep (Pipeline.restRefsP sig pre7 spec7 \ {main_v3}) fun b => (((c : Thread nD τ)).loc b) ↦{fullShare} Vof Win c b
  hentry c := by
    rw [hd c]
    iintro ⟨⟨Hub, Hp, HO⟩, Hos, -⟩
    ihave H := (entry7 Win (adm (7 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq7, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq7, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit7 Win (adm (7 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg7 (F := F)).Adm)

/-- The output block at point t: the gathered rows (of the far operand's contents under V, chosen by the table's
    words at that point) times the input block. -/
def outBlk7 (c : Dev nD) (t : Fin (cfg7 a1).N) : Vec F S8x64 .f32 :=
  gatherOut (gatherG (a1.1 0) (V c main_v3) (grid7.coords t)) (iblk7 V a1 c 0 t)

theorem outBlk_eq7 (c : Dev nD) (t : Fin (cfg7 a1).N) :
    outBlk7 V a1 c t = gatherOut (gatherG (a1.1 0) (V c main_v3) (grid7.coords t)) (iblk7 V a1 c 0 t) := rfl

/-- The proof data with the output block named: after the body at point t the output window's buffer holds it. -/
theorem afterOutBlk7 (c : Dev nD) (t : Fin (cfg7 a1).N) :
    (dat7 V a1 (outBlk7 V a1) c).after 1 t
      = gatherOut (gatherG (a1.1 0) (V c main_v3) (grid7.coords t)) (iblk7 V a1 c 0 t) :=
  afterOut7 V a1 (outBlk7 V a1) c t

/-- The own cells at zero are the semaphore array's eight entries at zero, in order. -/
theorem ownSems_eq7 (c : Dev nD) :
    (Pipeline.ownSems0 (Ix := Unit) (Name := ℕ) (U := UD sig nD τ) (Lvl := ℕ) (Val := Elt F) (τ := τ) osem7 c : sProp 𝕄)
      = gsems0 c cc7_scratch1 := by
  rw [Pipeline.ownSems0_eq_of_list c osem7 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq7 (t : Fin (cfg7 a1).N) : ∃ h3 h4, bodyProg7 (F := F) a1 t
    = cc7__gather_mul_kernel (grid7.coords t) (Memref.whole main_v29) (Memref.isWhole_whole _) (Memref.whole main_v3) (Memref.isWhole_whole _)
        (stg7 a1 0 t) h3 (stg7 a1 1 t) h4 (Memref.whole cc7_scratch0) (Memref.isWhole_whole _) cc7_scratch1 := ⟨_, _, rfl⟩

end Out

/-! ## The body's run, joined to the proof data -/

section Body

variable (V : (c : Dev nD) → (b : Ref sig .tc) → Buf (Elt F) ((c : Thread nD τ).loc b))
  (a1 : (pcfg7 (F := F)).Adm)

/-- The scratch buffer whole at some contents, as a memref owned at some contents. -/
theorem scratchOwns_eq7 (c : Dev nD) :
    (iprop(∃ d, owns (c : Thread nD τ) (Memref.whole cc7_scratch0) fullShare d) : sProp 𝕄)
      = iprop(∃ f : Buf (Elt F) ((c : Thread nD τ).loc cc7_scratch0), ((c : Thread nD τ).loc cc7_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun7 (hlt : ∀ y, BitVec.toNat ((a1.1 0) y) < 100000) : BodyRun7 V a1 (outBlk7 V a1) := by
  intro c t W K
  obtain ⟨h3, h4, hprog⟩ := bodyProg_eq7 (F := F) a1 t
  rw [hprog, ownSems_eq7, ← scratchOwns_eq7 (F := F) c]
  have hrun := gather_kernel_run_7 (F := F) c (grid7.coords t) (Memref.whole main_v29) (Memref.isWhole_whole _) (Memref.whole main_v3) (Memref.isWhole_whole _)
    (stg7 a1 0 t) h3 (stg7 a1 1 t) h4 (Memref.whole cc7_scratch0) (Memref.isWhole_whole _) cc7_scratch1 fullShare fullShare
    (a1.1 0) (V c main_v3) (iblk7 V a1 c 0 t) (fun y => hlt y) W K
  simp only [Memref.view_whole, View.read_whole] at hrun
  unfold outBlk7
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut7 (hlt : ∀ y, BitVec.toNat ((a1.1 0) y) < 100000) (c : Dev nD) :
    BodyObligation (dat7 (F := F) V a1 (outBlk7 V a1) c) (defs₀ (F := F)) Variants.none () Set.univ :=
  body_obligation7 V a1 (outBlk7 V a1) (bodyRun7 V a1 hlt) c

end Body

/-! # Region 8 -/

/-! ## The body's own transfer cells -/

/-- The eight cells of the body's semaphore array, in order. -/
abbrev osem8 : Fin 8 → SemLoc sig := fun j => SemLoc.dma (cc8_scratch1.ix (fun | ⟨0, _⟩ => j))

/-- They are scoped, pairwise distinct, and none is a staging cell of a window. -/
theorem ownSemFacts8 : Pipeline.OwnSemFacts spec8 osem8 := by decide

/-- The far operand is an unscoped buffer that is neither a window's array nor a table. -/
theorem hx_sub8 : ({main_v3} : Finset (Ref sig .tc)) ⊆ Pipeline.restRefsP sig pre8 spec8 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg8 (F := F)).Adm)
  (O : (c : Dev nD) → Fin (cfg8 a1).N → Vec F S8x64 .f32)

/-! ## The windows' blocks -/

/-- Window w's block at point t, read off its array under V. -/
def iblk8 (c : Dev nD) (w : Fin (cfg8 a1).W) (t : Fin (cfg8 a1).N) :
    (((cfg8 a1).win w).xblock ((cfg8 a1).grid.coords t)).Idx → Elt F ((cfg8 a1).win w).elt :=
  (((cfg8 a1).win w).blk t).view.read (Elt F) (V c (Pipeline.arrRef spec8 w))

/-- The input window's current staging buffer holds its block at every point, fetched there or not, for any proof
    data whose array is V's and whose body leaves the block in place: unfetched, the block index has not moved. -/
theorem beforeIn8_of {c : Dev nD} (dat : Dat τ (Elt F) Unit ℕ (UD sig nD τ) ℕ (cfg8 a1) c)
    (hA : dat.A 0 = V c (Pipeline.arrRef spec8 0))
    (hafter : ∀ t, dat.after 0 t = iblk8 V a1 c 0 t) (t : Fin (cfg8 a1).N) (d) : dat.before 0 t d = iblk8 V a1 c 0 t :=
  (dat.before_in_eq_fetched 0 rfl (fun _ => rfl) (fun _ _ _ => rfl)
    (fun t => by rw [hafter]; unfold Dat.blockOf iblk8; rw [hA]; try rfl) t d).trans
    (by unfold Dat.fetched Dat.blockOf iblk8; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat8 (c : Dev nD) : Dat τ (Elt F) Unit ℕ (UD sig nD τ) ℕ (cfg8 a1) c where
  A w := V c (Pipeline.arrRef spec8 w)
  after w t := match w with
    | ⟨0, _⟩ => iblk8 V a1 c 0 t
    | ⟨1, _⟩ => O c t
  Φ _ := iprop(Pipeline.ΦD osem8 spec8 {main_v3} V c ∗ Pipeline.prefHeld pre8 c (fun _ => fullShare) a1.1)
  q _ := fullShare
  owed _ := 0

theorem A_eq8 (c : Dev nD) (w : Fin (cfg8 a1).W) : (dat8 V a1 O c).A w = V c (Pipeline.arrRef spec8 w) := by
  dsimp only [dat8]

theorem afterIn8 (c : Dev nD) (t : Fin (cfg8 a1).N) : (dat8 V a1 O c).after 0 t = iblk8 V a1 c 0 t := by
  dsimp only [dat8]; rfl

theorem afterOut8 (c : Dev nD) (t : Fin (cfg8 a1).N) :
    (dat8 V a1 O c).after 1 t = O c t := by
  dsimp only [dat8]; rfl

theorem beforeIn8 (c : Dev nD) (t : Fin (cfg8 a1).N) (d) : (dat8 V a1 O c).before 0 t d = iblk8 V a1 c 0 t :=
  beforeIn8_of V a1 (dat8 V a1 O c) (A_eq8 V a1 O c 0) (afterIn8 V a1 O c) t d

theorem Phi_eq8 (c : Dev nD) (t : Fin ((cfg8 a1).N + 1)) :
    (dat8 V a1 O c).Φ t
      = iprop(Pipeline.ΦD osem8 spec8 {main_v3} V c ∗ Pipeline.prefHeld pre8 c (fun _ => fullShare) a1.1) := by
  dsimp only [dat8]

theorem owed_eq8 (c : Dev nD) (t : Fin ((cfg8 a1).N + 1)) : (dat8 V a1 O c).owed t = 0 := by
  dsimp only [dat8]

/-! ## The invariant, conjunct by conjunct -/

/-- The invariant's first part opened: the body's scratch buffer whole at some contents and the other scoped
    buffers no window stages, the generator register, the own cells at zero, the far operand at its contents. -/
theorem PhiD_eq8 (c : Dev nD) :
    (Pipeline.ΦD osem8 spec8 {main_v3} V c : sProp 𝕄)
      = iprop(iprop(iprop((∃ f : Buf (Elt F) ((c : Thread nD τ).loc cc8_scratch0), ((c : Thread nD τ).loc cc8_scratch0) ↦{fullShare} f))
            ∗ Pipeline.scopedRestBut (Ix := Unit) (Name := ℕ) (U := UD sig nD τ) (Lvl := ℕ) (Val := Elt F) spec8 c [cc8_scratch0])
          ∗ (∃ r, prngReg c r)
          ∗ Pipeline.ownSems0 (Ix := Unit) (Name := ℕ) (U := UD sig nD τ) (Lvl := ℕ) (Val := Elt F) (τ := τ) osem8 c
          ∗ (((c : Thread nD τ).loc main_v3) ↦{fullShare} V c main_v3)) := by
  rw [Pipeline.ΦD_eq, scopedRest8_split, BI.bigSep_eq_bigSepL_of_eq [main_v3] (by decide) (by decide)]; rfl

/-- The one table, held whole. -/
theorem prefHeld_eq8 (c : Dev nD) :
    (Pipeline.prefHeld pre8 c (fun _ => fullShare) a1.1 : sProp 𝕄)
      = (((c : Thread nD τ).loc main_v33) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg8 (w : Fin (cfg8 a1).W) (t : Fin (cfg8 a1).N) := ((cfg8 a1).win w).stage ((cfg8 a1).slots t w)

/-- The body as the pipeline calls it at point t. -/
abbrev bodyProg8 (t : Fin (cfg8 a1).N) : Prog (TpuEff nD τ sig (Elt F) Λ₀ .tc) PUnit :=
  (defs₀ (F := F)) .tc (cfg8 a1).body ((cfg8 a1).bodyArgs t ((cfg8 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun8 : Prop :=
  ∀ (c : Dev nD) (t : Fin (cfg8 a1).N) (W) (K : PUnit → sProp 𝕄),
    iprop(owns (c : Thread nD τ) (stg8 a1 0 t) fullShare (iblk8 V a1 c 0 t)
        ∗ (∃ d, owns (c : Thread nD τ) (stg8 a1 1 t) fullShare d)
        ∗ (∃ f : Buf (Elt F) ((c : Thread nD τ).loc cc8_scratch0), ((c : Thread nD τ).loc cc8_scratch0) ↦{fullShare} f)
        ∗ Pipeline.ownSems0 (Ix := Unit) (Name := ℕ) (U := UD sig nD τ) (Lvl := ℕ) (Val := Elt F) (τ := τ) osem8 c
        ∗ (((c : Thread nD τ).loc main_v33) ↦{fullShare} a1.1 0)
        ∗ (((c : Thread nD τ).loc main_v3) ↦{fullShare} V c main_v3)
        ∗ owes (c : Thread nD τ) (0 : CellTallies nD τ sig Unit) W
        ∗ (iprop(owns (c : Thread nD τ) (stg8 a1 0 t) fullShare (iblk8 V a1 c 0 t)
            ∗ owns (c : Thread nD τ) (stg8 a1 1 t) fullShare (O c t)
            ∗ (∃ f : Buf (Elt F) ((c : Thread nD τ).loc cc8_scratch0), ((c : Thread nD τ).loc cc8_scratch0) ↦{fullShare} f)
            ∗ Pipeline.ownSems0 (Ix := Unit) (Name := ℕ) (U := UD sig nD τ) (Lvl := ℕ) (Val := Elt F) (τ := τ) osem8 c
            ∗ (((c : Thread nD τ).loc main_v33) ↦{fullShare} a1.1 0)
            ∗ (((c : Thread nD τ).loc main_v3) ↦{fullShare} V c main_v3)
            ∗ (∃ W', owes (c : Thread nD τ) (0 : CellTallies nD τ sig Unit) W')) -∗ K ⟨⟩))
      ⊢ wp frame (wpE (defs₀ (F := F)) Variants.none c none) Set.univ (bodyProg8 a1 t) K

/-- What the body is called with at point t, the windows one by one, -/
def bodyPre8 (c : Dev nD) (t : Fin (cfg8 a1).N) : sProp 𝕄 :=
  iprop((dat8 V a1 O c).Φ t.castSucc ∗ (dat8 V a1 O c).owesAt () t.castSucc
    ∗ (∃ d, owns (c : Thread nD τ) (stg8 a1 0 t) fullShare ((dat8 V a1 O c).before 0 t d))
    ∗ (∃ d, owns (c : Thread nD τ) (stg8 a1 1 t) fullShare ((dat8 V a1 O c).before 1 t d)))

/-- and what it returns. -/
def bodyPost8 (c : Dev nD) (t : Fin (cfg8 a1).N) : sProp 𝕄 :=
  iprop((dat8 V a1 O c).Φ t.succ ∗ (dat8 V a1 O c).owesAt () t.succ
    ∗ owns (c : Thread nD τ) (stg8 a1 0 t) fullShare ((dat8 V a1 O c).after 0 t)
    ∗ owns (c : Thread nD τ) (stg8 a1 1 t) fullShare ((dat8 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body8 (hrun : BodyRun8 V a1 O) (c : Dev nD) (t : Fin (cfg8 a1).N) :
    bodyPre8 V a1 O c t
      ⊢ wp frame (wpE (defs₀ (F := F)) Variants.none c none) Set.univ (bodyProg8 a1 t) (fun _ => bodyPost8 V a1 O c t) := by
  unfold bodyPre8 bodyPost8
  simp only [beforeIn8]
  rw [afterIn8, afterOut8, Phi_eq8, Phi_eq8, PhiD_eq8, prefHeld_eq8]
  unfold Dat.owesAt Pipeline.owesWithin
  rw [owed_eq8, owed_eq8]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation8 (hrun : BodyRun8 V a1 O) (c : Dev nD) :
    BodyObligation (dat8 (F := F) V a1 O c) (defs₀ (F := F)) Variants.none () Set.univ := fun t => by
  rw [bigSep_W8, bigSep_W8]
  exact sound_body8 V a1 O hrun c t

end Data

/-! ## The region's record -/

section Record

variable (Win : Dev nD → Valuation τ sig (Elt F))

variable (a1 : (pcfg8 (F := F)).Adm)
  (O : (c : Dev nD) → Fin (cfg8 a1).N → Vec F S8x64 .f32)

/-- The buffers at the region's exit: its arrays at what the write-backs leave, every other buffer as entered. -/
def Wout8 (c : Dev nD) : Valuation τ sig (Elt F) :=
  Pipeline.withArrays spec8 c (Win c) fun w => (dat8 (Vof Win) a1 O c).arrAt w (cfg8 a1).N

theorem Wout8_arr (c : Dev nD) (w : Fin (cfg8 a1).W) :
    Wout8 Win a1 O c (Proc.devRef .tc (Pipeline.arrRef spec8 w)) = (dat8 (Vof Win) a1 O c).arrAt w (cfg8 a1).N := by
  unfold Wout8; exact Pipeline.withArrays_arr spec8 winFacts8.arr_inj c _ _ w

theorem Wout8_of_ne (c : Dev nD) (b : Ref sig .tc) (hb : ∀ w, Pipeline.arrRef spec8 w ≠ b) :
    Wout8 Win a1 O c (Proc.devRef .tc b) = Win c (Proc.devRef .tc b) := by
  unfold Wout8; exact Pipeline.withArrays_of_ne spec8 c _ _ b hb

/-- ENTRY, the buffers' part. Every unscoped buffer at Win is: the region's arrays at the proof data's entry contents,
    the table whole at the admissible contents (which are Win's there), the far operand whole, and the others. -/
theorem entry8 (c : Dev nD) (ha1 : ∀ k, Vof Win c (pre8.ref k) = a1.1 k) :
    (StableHlo.held (c : Thread nD τ) (Pipeline.ucRefs τ sig) (Win c) : sProp 𝕄)
      ⊢ iprop((dat8 (Vof Win) a1 O c).arrays ((dat8 (Vof Win) a1 O c).arrAt · 0)
          ∗ Pipeline.prefHeld pre8 c (fun _ => fullShare) a1.1
          ∗ (bigSep ({main_v3} : Finset (Ref sig .tc)) fun b => (((c : Thread nD τ)).loc b) ↦{fullShare} Vof Win c b)
          ∗ bigSep (Pipeline.restRefsP sig pre8 spec8 \ {main_v3}) fun b => (((c : Thread nD τ)).loc b) ↦{fullShare} Vof Win c b) := by
  have hsplit := Pipeline.arrays_of_unscopedBufs (p := ()) (fun (_ : Unit) => pcfg8 (F := F)) (fun _ => a1)
    (fun _ c => dat8 (Vof Win) a1 O c) winFacts8 (launch8 (F := F)).arr_whole c
    ((dat8 (Vof Win) a1 O c).share_full fun _ => rfl) (Vof Win c) (fun w => A_eq8 (Vof Win) a1 O c w)
  rw [Pipeline.unscopedBufs_held,
    Pipeline.unscopedRest_split (Ix := Unit) (Name := ℕ) (U := UD sig nD τ) (Lvl := ℕ) preFacts8 c (Vof Win c),
    Pipeline.unscopedRestP_sdiff pre8 spec8 {main_v3} hx_sub8 c (Vof Win c),
    show (fun k => Vof Win c (pre8.ref k)) = a1.1 from funext ha1] at hsplit
  exact hsplit

/-- EXIT, the buffers' part: the same four put back, the arrays at what the write-backs leave, are every unscoped
    buffer at the exit valuation. -/
theorem exit8 (c : Dev nD) (ha1 : ∀ k, Vof Win c (pre8.ref k) = a1.1 k) :
    iprop((dat8 (Vof Win) a1 O c).arrays ((dat8 (Vof Win) a1 O c).arrAt · (cfg8 a1).N)
        ∗ Pipeline.prefHeld pre8 c (fun _ => fullShare) a1.1
        ∗ (bigSep ({main_v3} : Finset (Ref sig .tc)) fun b => (((c : Thread nD τ)).loc b) ↦{fullShare} Vof Win c b)
        ∗ bigSep (Pipeline.restRefsP sig pre8 spec8 \ {main_v3}) fun b => (((c : Thread nD τ)).loc b) ↦{fullShare} Vof Win c b)
      ⊢ (StableHlo.held (c : Thread nD τ) (Pipeline.ucRefs τ sig) (Wout8 Win a1 O c) : sProp 𝕄) := by
  have hjoin := Pipeline.unscopedBufs_of_arrays (p := ()) (fun (_ : Unit) => pcfg8 (F := F)) (fun _ => a1)
    (Ix := Unit) (Name := ℕ) (U := UD sig nD τ) (Lvl := ℕ)
    winFacts8 (launch8 (F := F)).arr_whole c (fun _ c => dat8 (Vof Win) a1 O c)
    ((dat8 (Vof Win) a1 O c).share_full fun _ => rfl)
    (Vof Win c) (Vof (Wout8 Win a1 O) c) ((dat8 (Vof Win) a1 O c).arrAt · (cfg8 a1).N)
    (fun w => (Wout8_arr Win a1 O c w).symm)
    (fun b hb => Wout8_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts8 c (Vof Win c),
    Pipeline.unscopedRestP_sdiff pre8 spec8 {main_v3} hx_sub8 c (Vof Win c),
    show (fun k => Vof Win c (pre8.ref k)) = a1.1 from funext ha1] at hjoin
  exact hjoin

end Record

section Seg

variable (Win : Dev nD → Valuation τ sig (Elt F))
  (adm : (p : Fin 49) → (pcfgs (F := F) p).Adm)
  (O : (c : Dev nD) → Fin (cfg8 (adm (8 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout8. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg8 (hd : ∀ c, pdats (8 : Fin 49) c = dat8 (Vof Win) (adm (8 : Fin 49)) O c)
    (ha1 : ∀ c k, Vof Win c (pre8.ref k) = (adm (8 : Fin 49)).1 k)
    (hbody : ∀ c, BodyObligation (dat8 (F := F) (Vof Win) (adm (8 : Fin 49)) O c) (defs₀ (F := F)) 𝒱₀ () Set.univ) :
    Pipeline.RegionSeg (pcfgs (F := F)) adm pdats () defs₀ 𝒱₀ L lv (8 : Fin 49) where
  win := (launch8 (F := F)).win.to₀
  block_pos := (launch8 (F := F)).block_pos
  stage_whole := (launch8 (F := F)).stage_whole
  K := Fin 8
  osem := osem8
  ho := ownSemFacts8
  hbody c := by rw [hd c]; exact (hbody c).loose
  hwaits := Pipeline.hwaits_of_owed_zero _ _ _ _ L lv (8 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout8 Win (adm (8 : Fin 49)) O c) ∗ R c)
  X c := iprop((∃ r, prngReg c r)
    ∗ Pipeline.ownSems0 (Ix := Unit) (Name := ℕ) (U := UD sig nD τ) (Lvl := ℕ) (Val := Elt F) (τ := τ) osem8 c
    ∗ (bigSep ({main_v3} : Finset (Ref sig .tc)) fun b => (((c : Thread nD τ)).loc b) ↦{fullShare} Vof Win c b))
  Y c := iprop((∃ r, prngReg c r)
    ∗ (bigSep ({main_v3} : Finset (Ref sig .tc)) fun b => (((c : Thread nD τ)).loc b) ↦{fullShare} Vof Win c b)
    ∗ Pipeline.prefHeld pre8 c (fun _ => fullShare) (adm (8 : Fin 49)).1)
  Z c := bigSep (Pipeline.restRefsP sig pre8 spec8 \ {main_v3}) fun b => (((c : Thread nD τ)).loc b) ↦{fullShare} Vof Win c b
  hentry c := by
    rw [hd c]
    iintro ⟨⟨Hub, Hp, HO⟩, Hos, -⟩
    ihave H := (entry8 Win (adm (8 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq8, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq8, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit8 Win (adm (8 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg8 (F := F)).Adm)

/-- The output block at point t: the gathered rows (of the far operand's contents under V, chosen by the table's
    words at that point) times the input block. -/
def outBlk8 (c : Dev nD) (t : Fin (cfg8 a1).N) : Vec F S8x64 .f32 :=
  gatherOut (gatherG (a1.1 0) (V c main_v3) (grid8.coords t)) (iblk8 V a1 c 0 t)

theorem outBlk_eq8 (c : Dev nD) (t : Fin (cfg8 a1).N) :
    outBlk8 V a1 c t = gatherOut (gatherG (a1.1 0) (V c main_v3) (grid8.coords t)) (iblk8 V a1 c 0 t) := rfl

/-- The proof data with the output block named: after the body at point t the output window's buffer holds it. -/
theorem afterOutBlk8 (c : Dev nD) (t : Fin (cfg8 a1).N) :
    (dat8 V a1 (outBlk8 V a1) c).after 1 t
      = gatherOut (gatherG (a1.1 0) (V c main_v3) (grid8.coords t)) (iblk8 V a1 c 0 t) :=
  afterOut8 V a1 (outBlk8 V a1) c t

/-- The own cells at zero are the semaphore array's eight entries at zero, in order. -/
theorem ownSems_eq8 (c : Dev nD) :
    (Pipeline.ownSems0 (Ix := Unit) (Name := ℕ) (U := UD sig nD τ) (Lvl := ℕ) (Val := Elt F) (τ := τ) osem8 c : sProp 𝕄)
      = gsems0 c cc8_scratch1 := by
  rw [Pipeline.ownSems0_eq_of_list c osem8 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq8 (t : Fin (cfg8 a1).N) : ∃ h3 h4, bodyProg8 (F := F) a1 t
    = cc8__gather_mul_kernel (grid8.coords t) (Memref.whole main_v33) (Memref.isWhole_whole _) (Memref.whole main_v3) (Memref.isWhole_whole _)
        (stg8 a1 0 t) h3 (stg8 a1 1 t) h4 (Memref.whole cc8_scratch0) (Memref.isWhole_whole _) cc8_scratch1 := ⟨_, _, rfl⟩

end Out

/-! ## The body's run, joined to the proof data -/

section Body

variable (V : (c : Dev nD) → (b : Ref sig .tc) → Buf (Elt F) ((c : Thread nD τ).loc b))
  (a1 : (pcfg8 (F := F)).Adm)

/-- The scratch buffer whole at some contents, as a memref owned at some contents. -/
theorem scratchOwns_eq8 (c : Dev nD) :
    (iprop(∃ d, owns (c : Thread nD τ) (Memref.whole cc8_scratch0) fullShare d) : sProp 𝕄)
      = iprop(∃ f : Buf (Elt F) ((c : Thread nD τ).loc cc8_scratch0), ((c : Thread nD τ).loc cc8_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun8 (hlt : ∀ y, BitVec.toNat ((a1.1 0) y) < 100000) : BodyRun8 V a1 (outBlk8 V a1) := by
  intro c t W K
  obtain ⟨h3, h4, hprog⟩ := bodyProg_eq8 (F := F) a1 t
  rw [hprog, ownSems_eq8, ← scratchOwns_eq8 (F := F) c]
  have hrun := gather_kernel_run_8 (F := F) c (grid8.coords t) (Memref.whole main_v33) (Memref.isWhole_whole _) (Memref.whole main_v3) (Memref.isWhole_whole _)
    (stg8 a1 0 t) h3 (stg8 a1 1 t) h4 (Memref.whole cc8_scratch0) (Memref.isWhole_whole _) cc8_scratch1 fullShare fullShare
    (a1.1 0) (V c main_v3) (iblk8 V a1 c 0 t) (fun y => hlt y) W K
  simp only [Memref.view_whole, View.read_whole] at hrun
  unfold outBlk8
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut8 (hlt : ∀ y, BitVec.toNat ((a1.1 0) y) < 100000) (c : Dev nD) :
    BodyObligation (dat8 (F := F) V a1 (outBlk8 V a1) c) (defs₀ (F := F)) Variants.none () Set.univ :=
  body_obligation8 V a1 (outBlk8 V a1) (bodyRun8 V a1 hlt) c

end Body

/-! # Region 9 -/

/-! ## The body's own transfer cells -/

/-- The eight cells of the body's semaphore array, in order. -/
abbrev osem9 : Fin 8 → SemLoc sig := fun j => SemLoc.dma (cc9_scratch1.ix (fun | ⟨0, _⟩ => j))

/-- They are scoped, pairwise distinct, and none is a staging cell of a window. -/
theorem ownSemFacts9 : Pipeline.OwnSemFacts spec9 osem9 := by decide

/-- The far operand is an unscoped buffer that is neither a window's array nor a table. -/
theorem hx_sub9 : ({main_v3} : Finset (Ref sig .tc)) ⊆ Pipeline.restRefsP sig pre9 spec9 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg9 (F := F)).Adm)
  (O : (c : Dev nD) → Fin (cfg9 a1).N → Vec F S8x64 .f32)

/-! ## The windows' blocks -/

/-- Window w's block at point t, read off its array under V. -/
def iblk9 (c : Dev nD) (w : Fin (cfg9 a1).W) (t : Fin (cfg9 a1).N) :
    (((cfg9 a1).win w).xblock ((cfg9 a1).grid.coords t)).Idx → Elt F ((cfg9 a1).win w).elt :=
  (((cfg9 a1).win w).blk t).view.read (Elt F) (V c (Pipeline.arrRef spec9 w))

/-- The input window's current staging buffer holds its block at every point, fetched there or not, for any proof
    data whose array is V's and whose body leaves the block in place: unfetched, the block index has not moved. -/
theorem beforeIn9_of {c : Dev nD} (dat : Dat τ (Elt F) Unit ℕ (UD sig nD τ) ℕ (cfg9 a1) c)
    (hA : dat.A 0 = V c (Pipeline.arrRef spec9 0))
    (hafter : ∀ t, dat.after 0 t = iblk9 V a1 c 0 t) (t : Fin (cfg9 a1).N) (d) : dat.before 0 t d = iblk9 V a1 c 0 t :=
  (dat.before_in_eq_fetched 0 rfl (fun _ => rfl) (fun _ _ _ => rfl)
    (fun t => by rw [hafter]; unfold Dat.blockOf iblk9; rw [hA]; try rfl) t d).trans
    (by unfold Dat.fetched Dat.blockOf iblk9; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat9 (c : Dev nD) : Dat τ (Elt F) Unit ℕ (UD sig nD τ) ℕ (cfg9 a1) c where
  A w := V c (Pipeline.arrRef spec9 w)
  after w t := match w with
    | ⟨0, _⟩ => iblk9 V a1 c 0 t
    | ⟨1, _⟩ => O c t
  Φ _ := iprop(Pipeline.ΦD osem9 spec9 {main_v3} V c ∗ Pipeline.prefHeld pre9 c (fun _ => fullShare) a1.1)
  q _ := fullShare
  owed _ := 0

theorem A_eq9 (c : Dev nD) (w : Fin (cfg9 a1).W) : (dat9 V a1 O c).A w = V c (Pipeline.arrRef spec9 w) := by
  dsimp only [dat9]

theorem afterIn9 (c : Dev nD) (t : Fin (cfg9 a1).N) : (dat9 V a1 O c).after 0 t = iblk9 V a1 c 0 t := by
  dsimp only [dat9]; rfl

theorem afterOut9 (c : Dev nD) (t : Fin (cfg9 a1).N) :
    (dat9 V a1 O c).after 1 t = O c t := by
  dsimp only [dat9]; rfl

theorem beforeIn9 (c : Dev nD) (t : Fin (cfg9 a1).N) (d) : (dat9 V a1 O c).before 0 t d = iblk9 V a1 c 0 t :=
  beforeIn9_of V a1 (dat9 V a1 O c) (A_eq9 V a1 O c 0) (afterIn9 V a1 O c) t d

theorem Phi_eq9 (c : Dev nD) (t : Fin ((cfg9 a1).N + 1)) :
    (dat9 V a1 O c).Φ t
      = iprop(Pipeline.ΦD osem9 spec9 {main_v3} V c ∗ Pipeline.prefHeld pre9 c (fun _ => fullShare) a1.1) := by
  dsimp only [dat9]

theorem owed_eq9 (c : Dev nD) (t : Fin ((cfg9 a1).N + 1)) : (dat9 V a1 O c).owed t = 0 := by
  dsimp only [dat9]

/-! ## The invariant, conjunct by conjunct -/

/-- The invariant's first part opened: the body's scratch buffer whole at some contents and the other scoped
    buffers no window stages, the generator register, the own cells at zero, the far operand at its contents. -/
theorem PhiD_eq9 (c : Dev nD) :
    (Pipeline.ΦD osem9 spec9 {main_v3} V c : sProp 𝕄)
      = iprop(iprop(iprop((∃ f : Buf (Elt F) ((c : Thread nD τ).loc cc9_scratch0), ((c : Thread nD τ).loc cc9_scratch0) ↦{fullShare} f))
            ∗ Pipeline.scopedRestBut (Ix := Unit) (Name := ℕ) (U := UD sig nD τ) (Lvl := ℕ) (Val := Elt F) spec9 c [cc9_scratch0])
          ∗ (∃ r, prngReg c r)
          ∗ Pipeline.ownSems0 (Ix := Unit) (Name := ℕ) (U := UD sig nD τ) (Lvl := ℕ) (Val := Elt F) (τ := τ) osem9 c
          ∗ (((c : Thread nD τ).loc main_v3) ↦{fullShare} V c main_v3)) := by
  rw [Pipeline.ΦD_eq, scopedRest9_split, BI.bigSep_eq_bigSepL_of_eq [main_v3] (by decide) (by decide)]; rfl

/-- The one table, held whole. -/
theorem prefHeld_eq9 (c : Dev nD) :
    (Pipeline.prefHeld pre9 c (fun _ => fullShare) a1.1 : sProp 𝕄)
      = (((c : Thread nD τ).loc main_v37) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg9 (w : Fin (cfg9 a1).W) (t : Fin (cfg9 a1).N) := ((cfg9 a1).win w).stage ((cfg9 a1).slots t w)

/-- The body as the pipeline calls it at point t. -/
abbrev bodyProg9 (t : Fin (cfg9 a1).N) : Prog (TpuEff nD τ sig (Elt F) Λ₀ .tc) PUnit :=
  (defs₀ (F := F)) .tc (cfg9 a1).body ((cfg9 a1).bodyArgs t ((cfg9 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun9 : Prop :=
  ∀ (c : Dev nD) (t : Fin (cfg9 a1).N) (W) (K : PUnit → sProp 𝕄),
    iprop(owns (c : Thread nD τ) (stg9 a1 0 t) fullShare (iblk9 V a1 c 0 t)
        ∗ (∃ d, owns (c : Thread nD τ) (stg9 a1 1 t) fullShare d)
        ∗ (∃ f : Buf (Elt F) ((c : Thread nD τ).loc cc9_scratch0), ((c : Thread nD τ).loc cc9_scratch0) ↦{fullShare} f)
        ∗ Pipeline.ownSems0 (Ix := Unit) (Name := ℕ) (U := UD sig nD τ) (Lvl := ℕ) (Val := Elt F) (τ := τ) osem9 c
        ∗ (((c : Thread nD τ).loc main_v37) ↦{fullShare} a1.1 0)
        ∗ (((c : Thread nD τ).loc main_v3) ↦{fullShare} V c main_v3)
        ∗ owes (c : Thread nD τ) (0 : CellTallies nD τ sig Unit) W
        ∗ (iprop(owns (c : Thread nD τ) (stg9 a1 0 t) fullShare (iblk9 V a1 c 0 t)
            ∗ owns (c : Thread nD τ) (stg9 a1 1 t) fullShare (O c t)
            ∗ (∃ f : Buf (Elt F) ((c : Thread nD τ).loc cc9_scratch0), ((c : Thread nD τ).loc cc9_scratch0) ↦{fullShare} f)
            ∗ Pipeline.ownSems0 (Ix := Unit) (Name := ℕ) (U := UD sig nD τ) (Lvl := ℕ) (Val := Elt F) (τ := τ) osem9 c
            ∗ (((c : Thread nD τ).loc main_v37) ↦{fullShare} a1.1 0)
            ∗ (((c : Thread nD τ).loc main_v3) ↦{fullShare} V c main_v3)
            ∗ (∃ W', owes (c : Thread nD τ) (0 : CellTallies nD τ sig Unit) W')) -∗ K ⟨⟩))
      ⊢ wp frame (wpE (defs₀ (F := F)) Variants.none c none) Set.univ (bodyProg9 a1 t) K

/-- What the body is called with at point t, the windows one by one, -/
def bodyPre9 (c : Dev nD) (t : Fin (cfg9 a1).N) : sProp 𝕄 :=
  iprop((dat9 V a1 O c).Φ t.castSucc ∗ (dat9 V a1 O c).owesAt () t.castSucc
    ∗ (∃ d, owns (c : Thread nD τ) (stg9 a1 0 t) fullShare ((dat9 V a1 O c).before 0 t d))
    ∗ (∃ d, owns (c : Thread nD τ) (stg9 a1 1 t) fullShare ((dat9 V a1 O c).before 1 t d)))

/-- and what it returns. -/
def bodyPost9 (c : Dev nD) (t : Fin (cfg9 a1).N) : sProp 𝕄 :=
  iprop((dat9 V a1 O c).Φ t.succ ∗ (dat9 V a1 O c).owesAt () t.succ
    ∗ owns (c : Thread nD τ) (stg9 a1 0 t) fullShare ((dat9 V a1 O c).after 0 t)
    ∗ owns (c : Thread nD τ) (stg9 a1 1 t) fullShare ((dat9 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body9 (hrun : BodyRun9 V a1 O) (c : Dev nD) (t : Fin (cfg9 a1).N) :
    bodyPre9 V a1 O c t
      ⊢ wp frame (wpE (defs₀ (F := F)) Variants.none c none) Set.univ (bodyProg9 a1 t) (fun _ => bodyPost9 V a1 O c t) := by
  unfold bodyPre9 bodyPost9
  simp only [beforeIn9]
  rw [afterIn9, afterOut9, Phi_eq9, Phi_eq9, PhiD_eq9, prefHeld_eq9]
  unfold Dat.owesAt Pipeline.owesWithin
  rw [owed_eq9, owed_eq9]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation9 (hrun : BodyRun9 V a1 O) (c : Dev nD) :
    BodyObligation (dat9 (F := F) V a1 O c) (defs₀ (F := F)) Variants.none () Set.univ := fun t => by
  rw [bigSep_W9, bigSep_W9]
  exact sound_body9 V a1 O hrun c t

end Data

/-! ## The region's record -/

section Record

variable (Win : Dev nD → Valuation τ sig (Elt F))

variable (a1 : (pcfg9 (F := F)).Adm)
  (O : (c : Dev nD) → Fin (cfg9 a1).N → Vec F S8x64 .f32)

/-- The buffers at the region's exit: its arrays at what the write-backs leave, every other buffer as entered. -/
def Wout9 (c : Dev nD) : Valuation τ sig (Elt F) :=
  Pipeline.withArrays spec9 c (Win c) fun w => (dat9 (Vof Win) a1 O c).arrAt w (cfg9 a1).N

theorem Wout9_arr (c : Dev nD) (w : Fin (cfg9 a1).W) :
    Wout9 Win a1 O c (Proc.devRef .tc (Pipeline.arrRef spec9 w)) = (dat9 (Vof Win) a1 O c).arrAt w (cfg9 a1).N := by
  unfold Wout9; exact Pipeline.withArrays_arr spec9 winFacts9.arr_inj c _ _ w

theorem Wout9_of_ne (c : Dev nD) (b : Ref sig .tc) (hb : ∀ w, Pipeline.arrRef spec9 w ≠ b) :
    Wout9 Win a1 O c (Proc.devRef .tc b) = Win c (Proc.devRef .tc b) := by
  unfold Wout9; exact Pipeline.withArrays_of_ne spec9 c _ _ b hb

/-- ENTRY, the buffers' part. Every unscoped buffer at Win is: the region's arrays at the proof data's entry contents,
    the table whole at the admissible contents (which are Win's there), the far operand whole, and the others. -/
theorem entry9 (c : Dev nD) (ha1 : ∀ k, Vof Win c (pre9.ref k) = a1.1 k) :
    (StableHlo.held (c : Thread nD τ) (Pipeline.ucRefs τ sig) (Win c) : sProp 𝕄)
      ⊢ iprop((dat9 (Vof Win) a1 O c).arrays ((dat9 (Vof Win) a1 O c).arrAt · 0)
          ∗ Pipeline.prefHeld pre9 c (fun _ => fullShare) a1.1
          ∗ (bigSep ({main_v3} : Finset (Ref sig .tc)) fun b => (((c : Thread nD τ)).loc b) ↦{fullShare} Vof Win c b)
          ∗ bigSep (Pipeline.restRefsP sig pre9 spec9 \ {main_v3}) fun b => (((c : Thread nD τ)).loc b) ↦{fullShare} Vof Win c b) := by
  have hsplit := Pipeline.arrays_of_unscopedBufs (p := ()) (fun (_ : Unit) => pcfg9 (F := F)) (fun _ => a1)
    (fun _ c => dat9 (Vof Win) a1 O c) winFacts9 (launch9 (F := F)).arr_whole c
    ((dat9 (Vof Win) a1 O c).share_full fun _ => rfl) (Vof Win c) (fun w => A_eq9 (Vof Win) a1 O c w)
  rw [Pipeline.unscopedBufs_held,
    Pipeline.unscopedRest_split (Ix := Unit) (Name := ℕ) (U := UD sig nD τ) (Lvl := ℕ) preFacts9 c (Vof Win c),
    Pipeline.unscopedRestP_sdiff pre9 spec9 {main_v3} hx_sub9 c (Vof Win c),
    show (fun k => Vof Win c (pre9.ref k)) = a1.1 from funext ha1] at hsplit
  exact hsplit

/-- EXIT, the buffers' part: the same four put back, the arrays at what the write-backs leave, are every unscoped
    buffer at the exit valuation. -/
theorem exit9 (c : Dev nD) (ha1 : ∀ k, Vof Win c (pre9.ref k) = a1.1 k) :
    iprop((dat9 (Vof Win) a1 O c).arrays ((dat9 (Vof Win) a1 O c).arrAt · (cfg9 a1).N)
        ∗ Pipeline.prefHeld pre9 c (fun _ => fullShare) a1.1
        ∗ (bigSep ({main_v3} : Finset (Ref sig .tc)) fun b => (((c : Thread nD τ)).loc b) ↦{fullShare} Vof Win c b)
        ∗ bigSep (Pipeline.restRefsP sig pre9 spec9 \ {main_v3}) fun b => (((c : Thread nD τ)).loc b) ↦{fullShare} Vof Win c b)
      ⊢ (StableHlo.held (c : Thread nD τ) (Pipeline.ucRefs τ sig) (Wout9 Win a1 O c) : sProp 𝕄) := by
  have hjoin := Pipeline.unscopedBufs_of_arrays (p := ()) (fun (_ : Unit) => pcfg9 (F := F)) (fun _ => a1)
    (Ix := Unit) (Name := ℕ) (U := UD sig nD τ) (Lvl := ℕ)
    winFacts9 (launch9 (F := F)).arr_whole c (fun _ c => dat9 (Vof Win) a1 O c)
    ((dat9 (Vof Win) a1 O c).share_full fun _ => rfl)
    (Vof Win c) (Vof (Wout9 Win a1 O) c) ((dat9 (Vof Win) a1 O c).arrAt · (cfg9 a1).N)
    (fun w => (Wout9_arr Win a1 O c w).symm)
    (fun b hb => Wout9_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts9 c (Vof Win c),
    Pipeline.unscopedRestP_sdiff pre9 spec9 {main_v3} hx_sub9 c (Vof Win c),
    show (fun k => Vof Win c (pre9.ref k)) = a1.1 from funext ha1] at hjoin
  exact hjoin

end Record

section Seg

variable (Win : Dev nD → Valuation τ sig (Elt F))
  (adm : (p : Fin 49) → (pcfgs (F := F) p).Adm)
  (O : (c : Dev nD) → Fin (cfg9 (adm (9 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout9. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg9 (hd : ∀ c, pdats (9 : Fin 49) c = dat9 (Vof Win) (adm (9 : Fin 49)) O c)
    (ha1 : ∀ c k, Vof Win c (pre9.ref k) = (adm (9 : Fin 49)).1 k)
    (hbody : ∀ c, BodyObligation (dat9 (F := F) (Vof Win) (adm (9 : Fin 49)) O c) (defs₀ (F := F)) 𝒱₀ () Set.univ) :
    Pipeline.RegionSeg (pcfgs (F := F)) adm pdats () defs₀ 𝒱₀ L lv (9 : Fin 49) where
  win := (launch9 (F := F)).win.to₀
  block_pos := (launch9 (F := F)).block_pos
  stage_whole := (launch9 (F := F)).stage_whole
  K := Fin 8
  osem := osem9
  ho := ownSemFacts9
  hbody c := by rw [hd c]; exact (hbody c).loose
  hwaits := Pipeline.hwaits_of_owed_zero _ _ _ _ L lv (9 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout9 Win (adm (9 : Fin 49)) O c) ∗ R c)
  X c := iprop((∃ r, prngReg c r)
    ∗ Pipeline.ownSems0 (Ix := Unit) (Name := ℕ) (U := UD sig nD τ) (Lvl := ℕ) (Val := Elt F) (τ := τ) osem9 c
    ∗ (bigSep ({main_v3} : Finset (Ref sig .tc)) fun b => (((c : Thread nD τ)).loc b) ↦{fullShare} Vof Win c b))
  Y c := iprop((∃ r, prngReg c r)
    ∗ (bigSep ({main_v3} : Finset (Ref sig .tc)) fun b => (((c : Thread nD τ)).loc b) ↦{fullShare} Vof Win c b)
    ∗ Pipeline.prefHeld pre9 c (fun _ => fullShare) (adm (9 : Fin 49)).1)
  Z c := bigSep (Pipeline.restRefsP sig pre9 spec9 \ {main_v3}) fun b => (((c : Thread nD τ)).loc b) ↦{fullShare} Vof Win c b
  hentry c := by
    rw [hd c]
    iintro ⟨⟨Hub, Hp, HO⟩, Hos, -⟩
    ihave H := (entry9 Win (adm (9 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq9, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq9, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit9 Win (adm (9 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg9 (F := F)).Adm)

/-- The output block at point t: the gathered rows (of the far operand's contents under V, chosen by the table's
    words at that point) times the input block. -/
def outBlk9 (c : Dev nD) (t : Fin (cfg9 a1).N) : Vec F S8x64 .f32 :=
  gatherOut (gatherG (a1.1 0) (V c main_v3) (grid9.coords t)) (iblk9 V a1 c 0 t)

theorem outBlk_eq9 (c : Dev nD) (t : Fin (cfg9 a1).N) :
    outBlk9 V a1 c t = gatherOut (gatherG (a1.1 0) (V c main_v3) (grid9.coords t)) (iblk9 V a1 c 0 t) := rfl

/-- The proof data with the output block named: after the body at point t the output window's buffer holds it. -/
theorem afterOutBlk9 (c : Dev nD) (t : Fin (cfg9 a1).N) :
    (dat9 V a1 (outBlk9 V a1) c).after 1 t
      = gatherOut (gatherG (a1.1 0) (V c main_v3) (grid9.coords t)) (iblk9 V a1 c 0 t) :=
  afterOut9 V a1 (outBlk9 V a1) c t

/-- The own cells at zero are the semaphore array's eight entries at zero, in order. -/
theorem ownSems_eq9 (c : Dev nD) :
    (Pipeline.ownSems0 (Ix := Unit) (Name := ℕ) (U := UD sig nD τ) (Lvl := ℕ) (Val := Elt F) (τ := τ) osem9 c : sProp 𝕄)
      = gsems0 c cc9_scratch1 := by
  rw [Pipeline.ownSems0_eq_of_list c osem9 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq9 (t : Fin (cfg9 a1).N) : ∃ h3 h4, bodyProg9 (F := F) a1 t
    = cc9__gather_mul_kernel (grid9.coords t) (Memref.whole main_v37) (Memref.isWhole_whole _) (Memref.whole main_v3) (Memref.isWhole_whole _)
        (stg9 a1 0 t) h3 (stg9 a1 1 t) h4 (Memref.whole cc9_scratch0) (Memref.isWhole_whole _) cc9_scratch1 := ⟨_, _, rfl⟩

end Out

/-! ## The body's run, joined to the proof data -/

section Body

variable (V : (c : Dev nD) → (b : Ref sig .tc) → Buf (Elt F) ((c : Thread nD τ).loc b))
  (a1 : (pcfg9 (F := F)).Adm)

/-- The scratch buffer whole at some contents, as a memref owned at some contents. -/
theorem scratchOwns_eq9 (c : Dev nD) :
    (iprop(∃ d, owns (c : Thread nD τ) (Memref.whole cc9_scratch0) fullShare d) : sProp 𝕄)
      = iprop(∃ f : Buf (Elt F) ((c : Thread nD τ).loc cc9_scratch0), ((c : Thread nD τ).loc cc9_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun9 (hlt : ∀ y, BitVec.toNat ((a1.1 0) y) < 100000) : BodyRun9 V a1 (outBlk9 V a1) := by
  intro c t W K
  obtain ⟨h3, h4, hprog⟩ := bodyProg_eq9 (F := F) a1 t
  rw [hprog, ownSems_eq9, ← scratchOwns_eq9 (F := F) c]
  have hrun := gather_kernel_run_9 (F := F) c (grid9.coords t) (Memref.whole main_v37) (Memref.isWhole_whole _) (Memref.whole main_v3) (Memref.isWhole_whole _)
    (stg9 a1 0 t) h3 (stg9 a1 1 t) h4 (Memref.whole cc9_scratch0) (Memref.isWhole_whole _) cc9_scratch1 fullShare fullShare
    (a1.1 0) (V c main_v3) (iblk9 V a1 c 0 t) (fun y => hlt y) W K
  simp only [Memref.view_whole, View.read_whole] at hrun
  unfold outBlk9
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut9 (hlt : ∀ y, BitVec.toNat ((a1.1 0) y) < 100000) (c : Dev nD) :
    BodyObligation (dat9 (F := F) V a1 (outBlk9 V a1) c) (defs₀ (F := F)) Variants.none () Set.univ :=
  body_obligation9 V a1 (outBlk9 V a1) (bodyRun9 V a1 hlt) c

end Body

end Cert.KernelIdeal.Hand

end
-- ==== Proof.KI.Regions_10_17.lean ====
/-
  Gather regions 10 to 17 of the host program, one after the other: for each, the proof data, the body obligation and the record of the region in the launch,
  exactly as for region 1 (whose module says what each part is).
-/
import proofs.«421643_j28415503630349_2_alg».proof.Proof.KI.Common
import proofs.«421643_j28415503630349_2_alg».proof.Proof.KI.BodyEq
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

/-! # Region 10 -/

/-! ## The body's own transfer cells -/

/-- The eight cells of the body's semaphore array, in order. -/
abbrev osem10 : Fin 8 → SemLoc sig := fun j => SemLoc.dma (cc10_scratch1.ix (fun | ⟨0, _⟩ => j))

/-- They are scoped, pairwise distinct, and none is a staging cell of a window. -/
theorem ownSemFacts10 : Pipeline.OwnSemFacts spec10 osem10 := by decide

/-- The far operand is an unscoped buffer that is neither a window's array nor a table. -/
theorem hx_sub10 : ({main_v3} : Finset (Ref sig .tc)) ⊆ Pipeline.restRefsP sig pre10 spec10 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg10 (F := F)).Adm)
  (O : (c : Dev nD) → Fin (cfg10 a1).N → Vec F S8x64 .f32)

/-! ## The windows' blocks -/

/-- Window w's block at point t, read off its array under V. -/
def iblk10 (c : Dev nD) (w : Fin (cfg10 a1).W) (t : Fin (cfg10 a1).N) :
    (((cfg10 a1).win w).xblock ((cfg10 a1).grid.coords t)).Idx → Elt F ((cfg10 a1).win w).elt :=
  (((cfg10 a1).win w).blk t).view.read (Elt F) (V c (Pipeline.arrRef spec10 w))

/-- The input window's current staging buffer holds its block at every point, fetched there or not, for any proof
    data whose array is V's and whose body leaves the block in place: unfetched, the block index has not moved. -/
theorem beforeIn10_of {c : Dev nD} (dat : Dat τ (Elt F) Unit ℕ (UD sig nD τ) ℕ (cfg10 a1) c)
    (hA : dat.A 0 = V c (Pipeline.arrRef spec10 0))
    (hafter : ∀ t, dat.after 0 t = iblk10 V a1 c 0 t) (t : Fin (cfg10 a1).N) (d) : dat.before 0 t d = iblk10 V a1 c 0 t :=
  (dat.before_in_eq_fetched 0 rfl (fun _ => rfl) (fun _ _ _ => rfl)
    (fun t => by rw [hafter]; unfold Dat.blockOf iblk10; rw [hA]; try rfl) t d).trans
    (by unfold Dat.fetched Dat.blockOf iblk10; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat10 (c : Dev nD) : Dat τ (Elt F) Unit ℕ (UD sig nD τ) ℕ (cfg10 a1) c where
  A w := V c (Pipeline.arrRef spec10 w)
  after w t := match w with
    | ⟨0, _⟩ => iblk10 V a1 c 0 t
    | ⟨1, _⟩ => O c t
  Φ _ := iprop(Pipeline.ΦD osem10 spec10 {main_v3} V c ∗ Pipeline.prefHeld pre10 c (fun _ => fullShare) a1.1)
  q _ := fullShare
  owed _ := 0

theorem A_eq10 (c : Dev nD) (w : Fin (cfg10 a1).W) : (dat10 V a1 O c).A w = V c (Pipeline.arrRef spec10 w) := by
  dsimp only [dat10]

theorem afterIn10 (c : Dev nD) (t : Fin (cfg10 a1).N) : (dat10 V a1 O c).after 0 t = iblk10 V a1 c 0 t := by
  dsimp only [dat10]; rfl

theorem afterOut10 (c : Dev nD) (t : Fin (cfg10 a1).N) :
    (dat10 V a1 O c).after 1 t = O c t := by
  dsimp only [dat10]; rfl

theorem beforeIn10 (c : Dev nD) (t : Fin (cfg10 a1).N) (d) : (dat10 V a1 O c).before 0 t d = iblk10 V a1 c 0 t :=
  beforeIn10_of V a1 (dat10 V a1 O c) (A_eq10 V a1 O c 0) (afterIn10 V a1 O c) t d

theorem Phi_eq10 (c : Dev nD) (t : Fin ((cfg10 a1).N + 1)) :
    (dat10 V a1 O c).Φ t
      = iprop(Pipeline.ΦD osem10 spec10 {main_v3} V c ∗ Pipeline.prefHeld pre10 c (fun _ => fullShare) a1.1) := by
  dsimp only [dat10]

theorem owed_eq10 (c : Dev nD) (t : Fin ((cfg10 a1).N + 1)) : (dat10 V a1 O c).owed t = 0 := by
  dsimp only [dat10]

/-! ## The invariant, conjunct by conjunct -/

/-- The invariant's first part opened: the body's scratch buffer whole at some contents and the other scoped
    buffers no window stages, the generator register, the own cells at zero, the far operand at its contents. -/
theorem PhiD_eq10 (c : Dev nD) :
    (Pipeline.ΦD osem10 spec10 {main_v3} V c : sProp 𝕄)
      = iprop(iprop(iprop((∃ f : Buf (Elt F) ((c : Thread nD τ).loc cc10_scratch0), ((c : Thread nD τ).loc cc10_scratch0) ↦{fullShare} f))
            ∗ Pipeline.scopedRestBut (Ix := Unit) (Name := ℕ) (U := UD sig nD τ) (Lvl := ℕ) (Val := Elt F) spec10 c [cc10_scratch0])
          ∗ (∃ r, prngReg c r)
          ∗ Pipeline.ownSems0 (Ix := Unit) (Name := ℕ) (U := UD sig nD τ) (Lvl := ℕ) (Val := Elt F) (τ := τ) osem10 c
          ∗ (((c : Thread nD τ).loc main_v3) ↦{fullShare} V c main_v3)) := by
  rw [Pipeline.ΦD_eq, scopedRest10_split, BI.bigSep_eq_bigSepL_of_eq [main_v3] (by decide) (by decide)]; rfl

/-- The one table, held whole. -/
theorem prefHeld_eq10 (c : Dev nD) :
    (Pipeline.prefHeld pre10 c (fun _ => fullShare) a1.1 : sProp 𝕄)
      = (((c : Thread nD τ).loc main_v41) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg10 (w : Fin (cfg10 a1).W) (t : Fin (cfg10 a1).N) := ((cfg10 a1).win w).stage ((cfg10 a1).slots t w)

/-- The body as the pipeline calls it at point t. -/
abbrev bodyProg10 (t : Fin (cfg10 a1).N) : Prog (TpuEff nD τ sig (Elt F) Λ₀ .tc) PUnit :=
  (defs₀ (F := F)) .tc (cfg10 a1).body ((cfg10 a1).bodyArgs t ((cfg10 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun10 : Prop :=
  ∀ (c : Dev nD) (t : Fin (cfg10 a1).N) (W) (K : PUnit → sProp 𝕄),
    iprop(owns (c : Thread nD τ) (stg10 a1 0 t) fullShare (iblk10 V a1 c 0 t)
        ∗ (∃ d, owns (c : Thread nD τ) (stg10 a1 1 t) fullShare d)
        ∗ (∃ f : Buf (Elt F) ((c : Thread nD τ).loc cc10_scratch0), ((c : Thread nD τ).loc cc10_scratch0) ↦{fullShare} f)
        ∗ Pipeline.ownSems0 (Ix := Unit) (Name := ℕ) (U := UD sig nD τ) (Lvl := ℕ) (Val := Elt F) (τ := τ) osem10 c
        ∗ (((c : Thread nD τ).loc main_v41) ↦{fullShare} a1.1 0)
        ∗ (((c : Thread nD τ).loc main_v3) ↦{fullShare} V c main_v3)
        ∗ owes (c : Thread nD τ) (0 : CellTallies nD τ sig Unit) W
        ∗ (iprop(owns (c : Thread nD τ) (stg10 a1 0 t) fullShare (iblk10 V a1 c 0 t)
            ∗ owns (c : Thread nD τ) (stg10 a1 1 t) fullShare (O c t)
            ∗ (∃ f : Buf (Elt F) ((c : Thread nD τ).loc cc10_scratch0), ((c : Thread nD τ).loc cc10_scratch0) ↦{fullShare} f)
            ∗ Pipeline.ownSems0 (Ix := Unit) (Name := ℕ) (U := UD sig nD τ) (Lvl := ℕ) (Val := Elt F) (τ := τ) osem10 c
            ∗ (((c : Thread nD τ).loc main_v41) ↦{fullShare} a1.1 0)
            ∗ (((c : Thread nD τ).loc main_v3) ↦{fullShare} V c main_v3)
            ∗ (∃ W', owes (c : Thread nD τ) (0 : CellTallies nD τ sig Unit) W')) -∗ K ⟨⟩))
      ⊢ wp frame (wpE (defs₀ (F := F)) Variants.none c none) Set.univ (bodyProg10 a1 t) K

/-- What the body is called with at point t, the windows one by one, -/
def bodyPre10 (c : Dev nD) (t : Fin (cfg10 a1).N) : sProp 𝕄 :=
  iprop((dat10 V a1 O c).Φ t.castSucc ∗ (dat10 V a1 O c).owesAt () t.castSucc
    ∗ (∃ d, owns (c : Thread nD τ) (stg10 a1 0 t) fullShare ((dat10 V a1 O c).before 0 t d))
    ∗ (∃ d, owns (c : Thread nD τ) (stg10 a1 1 t) fullShare ((dat10 V a1 O c).before 1 t d)))

/-- and what it returns. -/
def bodyPost10 (c : Dev nD) (t : Fin (cfg10 a1).N) : sProp 𝕄 :=
  iprop((dat10 V a1 O c).Φ t.succ ∗ (dat10 V a1 O c).owesAt () t.succ
    ∗ owns (c : Thread nD τ) (stg10 a1 0 t) fullShare ((dat10 V a1 O c).after 0 t)
    ∗ owns (c : Thread nD τ) (stg10 a1 1 t) fullShare ((dat10 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body10 (hrun : BodyRun10 V a1 O) (c : Dev nD) (t : Fin (cfg10 a1).N) :
    bodyPre10 V a1 O c t
      ⊢ wp frame (wpE (defs₀ (F := F)) Variants.none c none) Set.univ (bodyProg10 a1 t) (fun _ => bodyPost10 V a1 O c t) := by
  unfold bodyPre10 bodyPost10
  simp only [beforeIn10]
  rw [afterIn10, afterOut10, Phi_eq10, Phi_eq10, PhiD_eq10, prefHeld_eq10]
  unfold Dat.owesAt Pipeline.owesWithin
  rw [owed_eq10, owed_eq10]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation10 (hrun : BodyRun10 V a1 O) (c : Dev nD) :
    BodyObligation (dat10 (F := F) V a1 O c) (defs₀ (F := F)) Variants.none () Set.univ := fun t => by
  rw [bigSep_W10, bigSep_W10]
  exact sound_body10 V a1 O hrun c t

end Data

/-! ## The region's record -/

section Record

variable (Win : Dev nD → Valuation τ sig (Elt F))

variable (a1 : (pcfg10 (F := F)).Adm)
  (O : (c : Dev nD) → Fin (cfg10 a1).N → Vec F S8x64 .f32)

/-- The buffers at the region's exit: its arrays at what the write-backs leave, every other buffer as entered. -/
def Wout10 (c : Dev nD) : Valuation τ sig (Elt F) :=
  Pipeline.withArrays spec10 c (Win c) fun w => (dat10 (Vof Win) a1 O c).arrAt w (cfg10 a1).N

theorem Wout10_arr (c : Dev nD) (w : Fin (cfg10 a1).W) :
    Wout10 Win a1 O c (Proc.devRef .tc (Pipeline.arrRef spec10 w)) = (dat10 (Vof Win) a1 O c).arrAt w (cfg10 a1).N := by
  unfold Wout10; exact Pipeline.withArrays_arr spec10 winFacts10.arr_inj c _ _ w

theorem Wout10_of_ne (c : Dev nD) (b : Ref sig .tc) (hb : ∀ w, Pipeline.arrRef spec10 w ≠ b) :
    Wout10 Win a1 O c (Proc.devRef .tc b) = Win c (Proc.devRef .tc b) := by
  unfold Wout10; exact Pipeline.withArrays_of_ne spec10 c _ _ b hb

/-- ENTRY, the buffers' part. Every unscoped buffer at Win is: the region's arrays at the proof data's entry contents,
    the table whole at the admissible contents (which are Win's there), the far operand whole, and the others. -/
theorem entry10 (c : Dev nD) (ha1 : ∀ k, Vof Win c (pre10.ref k) = a1.1 k) :
    (StableHlo.held (c : Thread nD τ) (Pipeline.ucRefs τ sig) (Win c) : sProp 𝕄)
      ⊢ iprop((dat10 (Vof Win) a1 O c).arrays ((dat10 (Vof Win) a1 O c).arrAt · 0)
          ∗ Pipeline.prefHeld pre10 c (fun _ => fullShare) a1.1
          ∗ (bigSep ({main_v3} : Finset (Ref sig .tc)) fun b => (((c : Thread nD τ)).loc b) ↦{fullShare} Vof Win c b)
          ∗ bigSep (Pipeline.restRefsP sig pre10 spec10 \ {main_v3}) fun b => (((c : Thread nD τ)).loc b) ↦{fullShare} Vof Win c b) := by
  have hsplit := Pipeline.arrays_of_unscopedBufs (p := ()) (fun (_ : Unit) => pcfg10 (F := F)) (fun _ => a1)
    (fun _ c => dat10 (Vof Win) a1 O c) winFacts10 (launch10 (F := F)).arr_whole c
    ((dat10 (Vof Win) a1 O c).share_full fun _ => rfl) (Vof Win c) (fun w => A_eq10 (Vof Win) a1 O c w)
  rw [Pipeline.unscopedBufs_held,
    Pipeline.unscopedRest_split (Ix := Unit) (Name := ℕ) (U := UD sig nD τ) (Lvl := ℕ) preFacts10 c (Vof Win c),
    Pipeline.unscopedRestP_sdiff pre10 spec10 {main_v3} hx_sub10 c (Vof Win c),
    show (fun k => Vof Win c (pre10.ref k)) = a1.1 from funext ha1] at hsplit
  exact hsplit

/-- EXIT, the buffers' part: the same four put back, the arrays at what the write-backs leave, are every unscoped
    buffer at the exit valuation. -/
theorem exit10 (c : Dev nD) (ha1 : ∀ k, Vof Win c (pre10.ref k) = a1.1 k) :
    iprop((dat10 (Vof Win) a1 O c).arrays ((dat10 (Vof Win) a1 O c).arrAt · (cfg10 a1).N)
        ∗ Pipeline.prefHeld pre10 c (fun _ => fullShare) a1.1
        ∗ (bigSep ({main_v3} : Finset (Ref sig .tc)) fun b => (((c : Thread nD τ)).loc b) ↦{fullShare} Vof Win c b)
        ∗ bigSep (Pipeline.restRefsP sig pre10 spec10 \ {main_v3}) fun b => (((c : Thread nD τ)).loc b) ↦{fullShare} Vof Win c b)
      ⊢ (StableHlo.held (c : Thread nD τ) (Pipeline.ucRefs τ sig) (Wout10 Win a1 O c) : sProp 𝕄) := by
  have hjoin := Pipeline.unscopedBufs_of_arrays (p := ()) (fun (_ : Unit) => pcfg10 (F := F)) (fun _ => a1)
    (Ix := Unit) (Name := ℕ) (U := UD sig nD τ) (Lvl := ℕ)
    winFacts10 (launch10 (F := F)).arr_whole c (fun _ c => dat10 (Vof Win) a1 O c)
    ((dat10 (Vof Win) a1 O c).share_full fun _ => rfl)
    (Vof Win c) (Vof (Wout10 Win a1 O) c) ((dat10 (Vof Win) a1 O c).arrAt · (cfg10 a1).N)
    (fun w => (Wout10_arr Win a1 O c w).symm)
    (fun b hb => Wout10_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts10 c (Vof Win c),
    Pipeline.unscopedRestP_sdiff pre10 spec10 {main_v3} hx_sub10 c (Vof Win c),
    show (fun k => Vof Win c (pre10.ref k)) = a1.1 from funext ha1] at hjoin
  exact hjoin

end Record

section Seg

variable (Win : Dev nD → Valuation τ sig (Elt F))
  (adm : (p : Fin 49) → (pcfgs (F := F) p).Adm)
  (O : (c : Dev nD) → Fin (cfg10 (adm (10 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout10. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg10 (hd : ∀ c, pdats (10 : Fin 49) c = dat10 (Vof Win) (adm (10 : Fin 49)) O c)
    (ha1 : ∀ c k, Vof Win c (pre10.ref k) = (adm (10 : Fin 49)).1 k)
    (hbody : ∀ c, BodyObligation (dat10 (F := F) (Vof Win) (adm (10 : Fin 49)) O c) (defs₀ (F := F)) 𝒱₀ () Set.univ) :
    Pipeline.RegionSeg (pcfgs (F := F)) adm pdats () defs₀ 𝒱₀ L lv (10 : Fin 49) where
  win := (launch10 (F := F)).win.to₀
  block_pos := (launch10 (F := F)).block_pos
  stage_whole := (launch10 (F := F)).stage_whole
  K := Fin 8
  osem := osem10
  ho := ownSemFacts10
  hbody c := by rw [hd c]; exact (hbody c).loose
  hwaits := Pipeline.hwaits_of_owed_zero _ _ _ _ L lv (10 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout10 Win (adm (10 : Fin 49)) O c) ∗ R c)
  X c := iprop((∃ r, prngReg c r)
    ∗ Pipeline.ownSems0 (Ix := Unit) (Name := ℕ) (U := UD sig nD τ) (Lvl := ℕ) (Val := Elt F) (τ := τ) osem10 c
    ∗ (bigSep ({main_v3} : Finset (Ref sig .tc)) fun b => (((c : Thread nD τ)).loc b) ↦{fullShare} Vof Win c b))
  Y c := iprop((∃ r, prngReg c r)
    ∗ (bigSep ({main_v3} : Finset (Ref sig .tc)) fun b => (((c : Thread nD τ)).loc b) ↦{fullShare} Vof Win c b)
    ∗ Pipeline.prefHeld pre10 c (fun _ => fullShare) (adm (10 : Fin 49)).1)
  Z c := bigSep (Pipeline.restRefsP sig pre10 spec10 \ {main_v3}) fun b => (((c : Thread nD τ)).loc b) ↦{fullShare} Vof Win c b
  hentry c := by
    rw [hd c]
    iintro ⟨⟨Hub, Hp, HO⟩, Hos, -⟩
    ihave H := (entry10 Win (adm (10 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq10, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq10, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit10 Win (adm (10 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg10 (F := F)).Adm)

/-- The output block at point t: the gathered rows (of the far operand's contents under V, chosen by the table's
    words at that point) times the input block. -/
def outBlk10 (c : Dev nD) (t : Fin (cfg10 a1).N) : Vec F S8x64 .f32 :=
  gatherOut (gatherG (a1.1 0) (V c main_v3) (grid10.coords t)) (iblk10 V a1 c 0 t)

theorem outBlk_eq10 (c : Dev nD) (t : Fin (cfg10 a1).N) :
    outBlk10 V a1 c t = gatherOut (gatherG (a1.1 0) (V c main_v3) (grid10.coords t)) (iblk10 V a1 c 0 t) := rfl

/-- The proof data with the output block named: after the body at point t the output window's buffer holds it. -/
theorem afterOutBlk10 (c : Dev nD) (t : Fin (cfg10 a1).N) :
    (dat10 V a1 (outBlk10 V a1) c).after 1 t
      = gatherOut (gatherG (a1.1 0) (V c main_v3) (grid10.coords t)) (iblk10 V a1 c 0 t) :=
  afterOut10 V a1 (outBlk10 V a1) c t

/-- The own cells at zero are the semaphore array's eight entries at zero, in order. -/
theorem ownSems_eq10 (c : Dev nD) :
    (Pipeline.ownSems0 (Ix := Unit) (Name := ℕ) (U := UD sig nD τ) (Lvl := ℕ) (Val := Elt F) (τ := τ) osem10 c : sProp 𝕄)
      = gsems0 c cc10_scratch1 := by
  rw [Pipeline.ownSems0_eq_of_list c osem10 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq10 (t : Fin (cfg10 a1).N) : ∃ h3 h4, bodyProg10 (F := F) a1 t
    = cc10__gather_mul_kernel (grid10.coords t) (Memref.whole main_v41) (Memref.isWhole_whole _) (Memref.whole main_v3) (Memref.isWhole_whole _)
        (stg10 a1 0 t) h3 (stg10 a1 1 t) h4 (Memref.whole cc10_scratch0) (Memref.isWhole_whole _) cc10_scratch1 := ⟨_, _, rfl⟩

end Out

/-! ## The body's run, joined to the proof data -/

section Body

variable (V : (c : Dev nD) → (b : Ref sig .tc) → Buf (Elt F) ((c : Thread nD τ).loc b))
  (a1 : (pcfg10 (F := F)).Adm)

/-- The scratch buffer whole at some contents, as a memref owned at some contents. -/
theorem scratchOwns_eq10 (c : Dev nD) :
    (iprop(∃ d, owns (c : Thread nD τ) (Memref.whole cc10_scratch0) fullShare d) : sProp 𝕄)
      = iprop(∃ f : Buf (Elt F) ((c : Thread nD τ).loc cc10_scratch0), ((c : Thread nD τ).loc cc10_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun10 (hlt : ∀ y, BitVec.toNat ((a1.1 0) y) < 100000) : BodyRun10 V a1 (outBlk10 V a1) := by
  intro c t W K
  obtain ⟨h3, h4, hprog⟩ := bodyProg_eq10 (F := F) a1 t
  rw [hprog, ownSems_eq10, ← scratchOwns_eq10 (F := F) c]
  have hrun := gather_kernel_run_10 (F := F) c (grid10.coords t) (Memref.whole main_v41) (Memref.isWhole_whole _) (Memref.whole main_v3) (Memref.isWhole_whole _)
    (stg10 a1 0 t) h3 (stg10 a1 1 t) h4 (Memref.whole cc10_scratch0) (Memref.isWhole_whole _) cc10_scratch1 fullShare fullShare
    (a1.1 0) (V c main_v3) (iblk10 V a1 c 0 t) (fun y => hlt y) W K
  simp only [Memref.view_whole, View.read_whole] at hrun
  unfold outBlk10
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut10 (hlt : ∀ y, BitVec.toNat ((a1.1 0) y) < 100000) (c : Dev nD) :
    BodyObligation (dat10 (F := F) V a1 (outBlk10 V a1) c) (defs₀ (F := F)) Variants.none () Set.univ :=
  body_obligation10 V a1 (outBlk10 V a1) (bodyRun10 V a1 hlt) c

end Body

/-! # Region 11 -/

/-! ## The body's own transfer cells -/

/-- The eight cells of the body's semaphore array, in order. -/
abbrev osem11 : Fin 8 → SemLoc sig := fun j => SemLoc.dma (cc11_scratch1.ix (fun | ⟨0, _⟩ => j))

/-- They are scoped, pairwise distinct, and none is a staging cell of a window. -/
theorem ownSemFacts11 : Pipeline.OwnSemFacts spec11 osem11 := by decide

/-- The far operand is an unscoped buffer that is neither a window's array nor a table. -/
theorem hx_sub11 : ({main_v3} : Finset (Ref sig .tc)) ⊆ Pipeline.restRefsP sig pre11 spec11 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg11 (F := F)).Adm)
  (O : (c : Dev nD) → Fin (cfg11 a1).N → Vec F S8x64 .f32)

/-! ## The windows' blocks -/

/-- Window w's block at point t, read off its array under V. -/
def iblk11 (c : Dev nD) (w : Fin (cfg11 a1).W) (t : Fin (cfg11 a1).N) :
    (((cfg11 a1).win w).xblock ((cfg11 a1).grid.coords t)).Idx → Elt F ((cfg11 a1).win w).elt :=
  (((cfg11 a1).win w).blk t).view.read (Elt F) (V c (Pipeline.arrRef spec11 w))

/-- The input window's current staging buffer holds its block at every point, fetched there or not, for any proof
    data whose array is V's and whose body leaves the block in place: unfetched, the block index has not moved. -/
theorem beforeIn11_of {c : Dev nD} (dat : Dat τ (Elt F) Unit ℕ (UD sig nD τ) ℕ (cfg11 a1) c)
    (hA : dat.A 0 = V c (Pipeline.arrRef spec11 0))
    (hafter : ∀ t, dat.after 0 t = iblk11 V a1 c 0 t) (t : Fin (cfg11 a1).N) (d) : dat.before 0 t d = iblk11 V a1 c 0 t :=
  (dat.before_in_eq_fetched 0 rfl (fun _ => rfl) (fun _ _ _ => rfl)
    (fun t => by rw [hafter]; unfold Dat.blockOf iblk11; rw [hA]; try rfl) t d).trans
    (by unfold Dat.fetched Dat.blockOf iblk11; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat11 (c : Dev nD) : Dat τ (Elt F) Unit ℕ (UD sig nD τ) ℕ (cfg11 a1) c where
  A w := V c (Pipeline.arrRef spec11 w)
  after w t := match w with
    | ⟨0, _⟩ => iblk11 V a1 c 0 t
    | ⟨1, _⟩ => O c t
  Φ _ := iprop(Pipeline.ΦD osem11 spec11 {main_v3} V c ∗ Pipeline.prefHeld pre11 c (fun _ => fullShare) a1.1)
  q _ := fullShare
  owed _ := 0

theorem A_eq11 (c : Dev nD) (w : Fin (cfg11 a1).W) : (dat11 V a1 O c).A w = V c (Pipeline.arrRef spec11 w) := by
  dsimp only [dat11]

theorem afterIn11 (c : Dev nD) (t : Fin (cfg11 a1).N) : (dat11 V a1 O c).after 0 t = iblk11 V a1 c 0 t := by
  dsimp only [dat11]; rfl

theorem afterOut11 (c : Dev nD) (t : Fin (cfg11 a1).N) :
    (dat11 V a1 O c).after 1 t = O c t := by
  dsimp only [dat11]; rfl

theorem beforeIn11 (c : Dev nD) (t : Fin (cfg11 a1).N) (d) : (dat11 V a1 O c).before 0 t d = iblk11 V a1 c 0 t :=
  beforeIn11_of V a1 (dat11 V a1 O c) (A_eq11 V a1 O c 0) (afterIn11 V a1 O c) t d

theorem Phi_eq11 (c : Dev nD) (t : Fin ((cfg11 a1).N + 1)) :
    (dat11 V a1 O c).Φ t
      = iprop(Pipeline.ΦD osem11 spec11 {main_v3} V c ∗ Pipeline.prefHeld pre11 c (fun _ => fullShare) a1.1) := by
  dsimp only [dat11]

theorem owed_eq11 (c : Dev nD) (t : Fin ((cfg11 a1).N + 1)) : (dat11 V a1 O c).owed t = 0 := by
  dsimp only [dat11]

/-! ## The invariant, conjunct by conjunct -/

/-- The invariant's first part opened: the body's scratch buffer whole at some contents and the other scoped
    buffers no window stages, the generator register, the own cells at zero, the far operand at its contents. -/
theorem PhiD_eq11 (c : Dev nD) :
    (Pipeline.ΦD osem11 spec11 {main_v3} V c : sProp 𝕄)
      = iprop(iprop(iprop((∃ f : Buf (Elt F) ((c : Thread nD τ).loc cc11_scratch0), ((c : Thread nD τ).loc cc11_scratch0) ↦{fullShare} f))
            ∗ Pipeline.scopedRestBut (Ix := Unit) (Name := ℕ) (U := UD sig nD τ) (Lvl := ℕ) (Val := Elt F) spec11 c [cc11_scratch0])
          ∗ (∃ r, prngReg c r)
          ∗ Pipeline.ownSems0 (Ix := Unit) (Name := ℕ) (U := UD sig nD τ) (Lvl := ℕ) (Val := Elt F) (τ := τ) osem11 c
          ∗ (((c : Thread nD τ).loc main_v3) ↦{fullShare} V c main_v3)) := by
  rw [Pipeline.ΦD_eq, scopedRest11_split, BI.bigSep_eq_bigSepL_of_eq [main_v3] (by decide) (by decide)]; rfl

/-- The one table, held whole. -/
theorem prefHeld_eq11 (c : Dev nD) :
    (Pipeline.prefHeld pre11 c (fun _ => fullShare) a1.1 : sProp 𝕄)
      = (((c : Thread nD τ).loc main_v45) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg11 (w : Fin (cfg11 a1).W) (t : Fin (cfg11 a1).N) := ((cfg11 a1).win w).stage ((cfg11 a1).slots t w)

/-- The body as the pipeline calls it at point t. -/
abbrev bodyProg11 (t : Fin (cfg11 a1).N) : Prog (TpuEff nD τ sig (Elt F) Λ₀ .tc) PUnit :=
  (defs₀ (F := F)) .tc (cfg11 a1).body ((cfg11 a1).bodyArgs t ((cfg11 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun11 : Prop :=
  ∀ (c : Dev nD) (t : Fin (cfg11 a1).N) (W) (K : PUnit → sProp 𝕄),
    iprop(owns (c : Thread nD τ) (stg11 a1 0 t) fullShare (iblk11 V a1 c 0 t)
        ∗ (∃ d, owns (c : Thread nD τ) (stg11 a1 1 t) fullShare d)
        ∗ (∃ f : Buf (Elt F) ((c : Thread nD τ).loc cc11_scratch0), ((c : Thread nD τ).loc cc11_scratch0) ↦{fullShare} f)
        ∗ Pipeline.ownSems0 (Ix := Unit) (Name := ℕ) (U := UD sig nD τ) (Lvl := ℕ) (Val := Elt F) (τ := τ) osem11 c
        ∗ (((c : Thread nD τ).loc main_v45) ↦{fullShare} a1.1 0)
        ∗ (((c : Thread nD τ).loc main_v3) ↦{fullShare} V c main_v3)
        ∗ owes (c : Thread nD τ) (0 : CellTallies nD τ sig Unit) W
        ∗ (iprop(owns (c : Thread nD τ) (stg11 a1 0 t) fullShare (iblk11 V a1 c 0 t)
            ∗ owns (c : Thread nD τ) (stg11 a1 1 t) fullShare (O c t)
            ∗ (∃ f : Buf (Elt F) ((c : Thread nD τ).loc cc11_scratch0), ((c : Thread nD τ).loc cc11_scratch0) ↦{fullShare} f)
            ∗ Pipeline.ownSems0 (Ix := Unit) (Name := ℕ) (U := UD sig nD τ) (Lvl := ℕ) (Val := Elt F) (τ := τ) osem11 c
            ∗ (((c : Thread nD τ).loc main_v45) ↦{fullShare} a1.1 0)
            ∗ (((c : Thread nD τ).loc main_v3) ↦{fullShare} V c main_v3)
            ∗ (∃ W', owes (c : Thread nD τ) (0 : CellTallies nD τ sig Unit) W')) -∗ K ⟨⟩))
      ⊢ wp frame (wpE (defs₀ (F := F)) Variants.none c none) Set.univ (bodyProg11 a1 t) K

/-- What the body is called with at point t, the windows one by one, -/
def bodyPre11 (c : Dev nD) (t : Fin (cfg11 a1).N) : sProp 𝕄 :=
  iprop((dat11 V a1 O c).Φ t.castSucc ∗ (dat11 V a1 O c).owesAt () t.castSucc
    ∗ (∃ d, owns (c : Thread nD τ) (stg11 a1 0 t) fullShare ((dat11 V a1 O c).before 0 t d))
    ∗ (∃ d, owns (c : Thread nD τ) (stg11 a1 1 t) fullShare ((dat11 V a1 O c).before 1 t d)))

/-- and what it returns. -/
def bodyPost11 (c : Dev nD) (t : Fin (cfg11 a1).N) : sProp 𝕄 :=
  iprop((dat11 V a1 O c).Φ t.succ ∗ (dat11 V a1 O c).owesAt () t.succ
    ∗ owns (c : Thread nD τ) (stg11 a1 0 t) fullShare ((dat11 V a1 O c).after 0 t)
    ∗ owns (c : Thread nD τ) (stg11 a1 1 t) fullShare ((dat11 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body11 (hrun : BodyRun11 V a1 O) (c : Dev nD) (t : Fin (cfg11 a1).N) :
    bodyPre11 V a1 O c t
      ⊢ wp frame (wpE (defs₀ (F := F)) Variants.none c none) Set.univ (bodyProg11 a1 t) (fun _ => bodyPost11 V a1 O c t) := by
  unfold bodyPre11 bodyPost11
  simp only [beforeIn11]
  rw [afterIn11, afterOut11, Phi_eq11, Phi_eq11, PhiD_eq11, prefHeld_eq11]
  unfold Dat.owesAt Pipeline.owesWithin
  rw [owed_eq11, owed_eq11]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation11 (hrun : BodyRun11 V a1 O) (c : Dev nD) :
    BodyObligation (dat11 (F := F) V a1 O c) (defs₀ (F := F)) Variants.none () Set.univ := fun t => by
  rw [bigSep_W11, bigSep_W11]
  exact sound_body11 V a1 O hrun c t

end Data

/-! ## The region's record -/

section Record

variable (Win : Dev nD → Valuation τ sig (Elt F))

variable (a1 : (pcfg11 (F := F)).Adm)
  (O : (c : Dev nD) → Fin (cfg11 a1).N → Vec F S8x64 .f32)

/-- The buffers at the region's exit: its arrays at what the write-backs leave, every other buffer as entered. -/
def Wout11 (c : Dev nD) : Valuation τ sig (Elt F) :=
  Pipeline.withArrays spec11 c (Win c) fun w => (dat11 (Vof Win) a1 O c).arrAt w (cfg11 a1).N

theorem Wout11_arr (c : Dev nD) (w : Fin (cfg11 a1).W) :
    Wout11 Win a1 O c (Proc.devRef .tc (Pipeline.arrRef spec11 w)) = (dat11 (Vof Win) a1 O c).arrAt w (cfg11 a1).N := by
  unfold Wout11; exact Pipeline.withArrays_arr spec11 winFacts11.arr_inj c _ _ w

theorem Wout11_of_ne (c : Dev nD) (b : Ref sig .tc) (hb : ∀ w, Pipeline.arrRef spec11 w ≠ b) :
    Wout11 Win a1 O c (Proc.devRef .tc b) = Win c (Proc.devRef .tc b) := by
  unfold Wout11; exact Pipeline.withArrays_of_ne spec11 c _ _ b hb

/-- ENTRY, the buffers' part. Every unscoped buffer at Win is: the region's arrays at the proof data's entry contents,
    the table whole at the admissible contents (which are Win's there), the far operand whole, and the others. -/
theorem entry11 (c : Dev nD) (ha1 : ∀ k, Vof Win c (pre11.ref k) = a1.1 k) :
    (StableHlo.held (c : Thread nD τ) (Pipeline.ucRefs τ sig) (Win c) : sProp 𝕄)
      ⊢ iprop((dat11 (Vof Win) a1 O c).arrays ((dat11 (Vof Win) a1 O c).arrAt · 0)
          ∗ Pipeline.prefHeld pre11 c (fun _ => fullShare) a1.1
          ∗ (bigSep ({main_v3} : Finset (Ref sig .tc)) fun b => (((c : Thread nD τ)).loc b) ↦{fullShare} Vof Win c b)
          ∗ bigSep (Pipeline.restRefsP sig pre11 spec11 \ {main_v3}) fun b => (((c : Thread nD τ)).loc b) ↦{fullShare} Vof Win c b) := by
  have hsplit := Pipeline.arrays_of_unscopedBufs (p := ()) (fun (_ : Unit) => pcfg11 (F := F)) (fun _ => a1)
    (fun _ c => dat11 (Vof Win) a1 O c) winFacts11 (launch11 (F := F)).arr_whole c
    ((dat11 (Vof Win) a1 O c).share_full fun _ => rfl) (Vof Win c) (fun w => A_eq11 (Vof Win) a1 O c w)
  rw [Pipeline.unscopedBufs_held,
    Pipeline.unscopedRest_split (Ix := Unit) (Name := ℕ) (U := UD sig nD τ) (Lvl := ℕ) preFacts11 c (Vof Win c),
    Pipeline.unscopedRestP_sdiff pre11 spec11 {main_v3} hx_sub11 c (Vof Win c),
    show (fun k => Vof Win c (pre11.ref k)) = a1.1 from funext ha1] at hsplit
  exact hsplit

/-- EXIT, the buffers' part: the same four put back, the arrays at what the write-backs leave, are every unscoped
    buffer at the exit valuation. -/
theorem exit11 (c : Dev nD) (ha1 : ∀ k, Vof Win c (pre11.ref k) = a1.1 k) :
    iprop((dat11 (Vof Win) a1 O c).arrays ((dat11 (Vof Win) a1 O c).arrAt · (cfg11 a1).N)
        ∗ Pipeline.prefHeld pre11 c (fun _ => fullShare) a1.1
        ∗ (bigSep ({main_v3} : Finset (Ref sig .tc)) fun b => (((c : Thread nD τ)).loc b) ↦{fullShare} Vof Win c b)
        ∗ bigSep (Pipeline.restRefsP sig pre11 spec11 \ {main_v3}) fun b => (((c : Thread nD τ)).loc b) ↦{fullShare} Vof Win c b)
      ⊢ (StableHlo.held (c : Thread nD τ) (Pipeline.ucRefs τ sig) (Wout11 Win a1 O c) : sProp 𝕄) := by
  have hjoin := Pipeline.unscopedBufs_of_arrays (p := ()) (fun (_ : Unit) => pcfg11 (F := F)) (fun _ => a1)
    (Ix := Unit) (Name := ℕ) (U := UD sig nD τ) (Lvl := ℕ)
    winFacts11 (launch11 (F := F)).arr_whole c (fun _ c => dat11 (Vof Win) a1 O c)
    ((dat11 (Vof Win) a1 O c).share_full fun _ => rfl)
    (Vof Win c) (Vof (Wout11 Win a1 O) c) ((dat11 (Vof Win) a1 O c).arrAt · (cfg11 a1).N)
    (fun w => (Wout11_arr Win a1 O c w).symm)
    (fun b hb => Wout11_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts11 c (Vof Win c),
    Pipeline.unscopedRestP_sdiff pre11 spec11 {main_v3} hx_sub11 c (Vof Win c),
    show (fun k => Vof Win c (pre11.ref k)) = a1.1 from funext ha1] at hjoin
  exact hjoin

end Record

section Seg

variable (Win : Dev nD → Valuation τ sig (Elt F))
  (adm : (p : Fin 49) → (pcfgs (F := F) p).Adm)
  (O : (c : Dev nD) → Fin (cfg11 (adm (11 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout11. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg11 (hd : ∀ c, pdats (11 : Fin 49) c = dat11 (Vof Win) (adm (11 : Fin 49)) O c)
    (ha1 : ∀ c k, Vof Win c (pre11.ref k) = (adm (11 : Fin 49)).1 k)
    (hbody : ∀ c, BodyObligation (dat11 (F := F) (Vof Win) (adm (11 : Fin 49)) O c) (defs₀ (F := F)) 𝒱₀ () Set.univ) :
    Pipeline.RegionSeg (pcfgs (F := F)) adm pdats () defs₀ 𝒱₀ L lv (11 : Fin 49) where
  win := (launch11 (F := F)).win.to₀
  block_pos := (launch11 (F := F)).block_pos
  stage_whole := (launch11 (F := F)).stage_whole
  K := Fin 8
  osem := osem11
  ho := ownSemFacts11
  hbody c := by rw [hd c]; exact (hbody c).loose
  hwaits := Pipeline.hwaits_of_owed_zero _ _ _ _ L lv (11 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout11 Win (adm (11 : Fin 49)) O c) ∗ R c)
  X c := iprop((∃ r, prngReg c r)
    ∗ Pipeline.ownSems0 (Ix := Unit) (Name := ℕ) (U := UD sig nD τ) (Lvl := ℕ) (Val := Elt F) (τ := τ) osem11 c
    ∗ (bigSep ({main_v3} : Finset (Ref sig .tc)) fun b => (((c : Thread nD τ)).loc b) ↦{fullShare} Vof Win c b))
  Y c := iprop((∃ r, prngReg c r)
    ∗ (bigSep ({main_v3} : Finset (Ref sig .tc)) fun b => (((c : Thread nD τ)).loc b) ↦{fullShare} Vof Win c b)
    ∗ Pipeline.prefHeld pre11 c (fun _ => fullShare) (adm (11 : Fin 49)).1)
  Z c := bigSep (Pipeline.restRefsP sig pre11 spec11 \ {main_v3}) fun b => (((c : Thread nD τ)).loc b) ↦{fullShare} Vof Win c b
  hentry c := by
    rw [hd c]
    iintro ⟨⟨Hub, Hp, HO⟩, Hos, -⟩
    ihave H := (entry11 Win (adm (11 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq11, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq11, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit11 Win (adm (11 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg11 (F := F)).Adm)

/-- The output block at point t: the gathered rows (of the far operand's contents under V, chosen by the table's
    words at that point) times the input block. -/
def outBlk11 (c : Dev nD) (t : Fin (cfg11 a1).N) : Vec F S8x64 .f32 :=
  gatherOut (gatherG (a1.1 0) (V c main_v3) (grid11.coords t)) (iblk11 V a1 c 0 t)

theorem outBlk_eq11 (c : Dev nD) (t : Fin (cfg11 a1).N) :
    outBlk11 V a1 c t = gatherOut (gatherG (a1.1 0) (V c main_v3) (grid11.coords t)) (iblk11 V a1 c 0 t) := rfl

/-- The proof data with the output block named: after the body at point t the output window's buffer holds it. -/
theorem afterOutBlk11 (c : Dev nD) (t : Fin (cfg11 a1).N) :
    (dat11 V a1 (outBlk11 V a1) c).after 1 t
      = gatherOut (gatherG (a1.1 0) (V c main_v3) (grid11.coords t)) (iblk11 V a1 c 0 t) :=
  afterOut11 V a1 (outBlk11 V a1) c t

/-- The own cells at zero are the semaphore array's eight entries at zero, in order. -/
theorem ownSems_eq11 (c : Dev nD) :
    (Pipeline.ownSems0 (Ix := Unit) (Name := ℕ) (U := UD sig nD τ) (Lvl := ℕ) (Val := Elt F) (τ := τ) osem11 c : sProp 𝕄)
      = gsems0 c cc11_scratch1 := by
  rw [Pipeline.ownSems0_eq_of_list c osem11 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq11 (t : Fin (cfg11 a1).N) : ∃ h3 h4, bodyProg11 (F := F) a1 t
    = cc11__gather_mul_kernel (grid11.coords t) (Memref.whole main_v45) (Memref.isWhole_whole _) (Memref.whole main_v3) (Memref.isWhole_whole _)
        (stg11 a1 0 t) h3 (stg11 a1 1 t) h4 (Memref.whole cc11_scratch0) (Memref.isWhole_whole _) cc11_scratch1 := ⟨_, _, rfl⟩

end Out

/-! ## The body's run, joined to the proof data -/

section Body

variable (V : (c : Dev nD) → (b : Ref sig .tc) → Buf (Elt F) ((c : Thread nD τ).loc b))
  (a1 : (pcfg11 (F := F)).Adm)

/-- The scratch buffer whole at some contents, as a memref owned at some contents. -/
theorem scratchOwns_eq11 (c : Dev nD) :
    (iprop(∃ d, owns (c : Thread nD τ) (Memref.whole cc11_scratch0) fullShare d) : sProp 𝕄)
      = iprop(∃ f : Buf (Elt F) ((c : Thread nD τ).loc cc11_scratch0), ((c : Thread nD τ).loc cc11_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun11 (hlt : ∀ y, BitVec.toNat ((a1.1 0) y) < 100000) : BodyRun11 V a1 (outBlk11 V a1) := by
  intro c t W K
  obtain ⟨h3, h4, hprog⟩ := bodyProg_eq11 (F := F) a1 t
  rw [hprog, ownSems_eq11, ← scratchOwns_eq11 (F := F) c]
  have hrun := gather_kernel_run_11 (F := F) c (grid11.coords t) (Memref.whole main_v45) (Memref.isWhole_whole _) (Memref.whole main_v3) (Memref.isWhole_whole _)
    (stg11 a1 0 t) h3 (stg11 a1 1 t) h4 (Memref.whole cc11_scratch0) (Memref.isWhole_whole _) cc11_scratch1 fullShare fullShare
    (a1.1 0) (V c main_v3) (iblk11 V a1 c 0 t) (fun y => hlt y) W K
  simp only [Memref.view_whole, View.read_whole] at hrun
  unfold outBlk11
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut11 (hlt : ∀ y, BitVec.toNat ((a1.1 0) y) < 100000) (c : Dev nD) :
    BodyObligation (dat11 (F := F) V a1 (outBlk11 V a1) c) (defs₀ (F := F)) Variants.none () Set.univ :=
  body_obligation11 V a1 (outBlk11 V a1) (bodyRun11 V a1 hlt) c

end Body

/-! # Region 12 -/

/-! ## The body's own transfer cells -/

/-- The eight cells of the body's semaphore array, in order. -/
abbrev osem12 : Fin 8 → SemLoc sig := fun j => SemLoc.dma (cc12_scratch1.ix (fun | ⟨0, _⟩ => j))

/-- They are scoped, pairwise distinct, and none is a staging cell of a window. -/
theorem ownSemFacts12 : Pipeline.OwnSemFacts spec12 osem12 := by decide

/-- The far operand is an unscoped buffer that is neither a window's array nor a table. -/
theorem hx_sub12 : ({main_v3} : Finset (Ref sig .tc)) ⊆ Pipeline.restRefsP sig pre12 spec12 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg12 (F := F)).Adm)
  (O : (c : Dev nD) → Fin (cfg12 a1).N → Vec F S8x64 .f32)

/-! ## The windows' blocks -/

/-- Window w's block at point t, read off its array under V. -/
def iblk12 (c : Dev nD) (w : Fin (cfg12 a1).W) (t : Fin (cfg12 a1).N) :
    (((cfg12 a1).win w).xblock ((cfg12 a1).grid.coords t)).Idx → Elt F ((cfg12 a1).win w).elt :=
  (((cfg12 a1).win w).blk t).view.read (Elt F) (V c (Pipeline.arrRef spec12 w))

/-- The input window's current staging buffer holds its block at every point, fetched there or not, for any proof
    data whose array is V's and whose body leaves the block in place: unfetched, the block index has not moved. -/
theorem beforeIn12_of {c : Dev nD} (dat : Dat τ (Elt F) Unit ℕ (UD sig nD τ) ℕ (cfg12 a1) c)
    (hA : dat.A 0 = V c (Pipeline.arrRef spec12 0))
    (hafter : ∀ t, dat.after 0 t = iblk12 V a1 c 0 t) (t : Fin (cfg12 a1).N) (d) : dat.before 0 t d = iblk12 V a1 c 0 t :=
  (dat.before_in_eq_fetched 0 rfl (fun _ => rfl) (fun _ _ _ => rfl)
    (fun t => by rw [hafter]; unfold Dat.blockOf iblk12; rw [hA]; try rfl) t d).trans
    (by unfold Dat.fetched Dat.blockOf iblk12; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat12 (c : Dev nD) : Dat τ (Elt F) Unit ℕ (UD sig nD τ) ℕ (cfg12 a1) c where
  A w := V c (Pipeline.arrRef spec12 w)
  after w t := match w with
    | ⟨0, _⟩ => iblk12 V a1 c 0 t
    | ⟨1, _⟩ => O c t
  Φ _ := iprop(Pipeline.ΦD osem12 spec12 {main_v3} V c ∗ Pipeline.prefHeld pre12 c (fun _ => fullShare) a1.1)
  q _ := fullShare
  owed _ := 0

theorem A_eq12 (c : Dev nD) (w : Fin (cfg12 a1).W) : (dat12 V a1 O c).A w = V c (Pipeline.arrRef spec12 w) := by
  dsimp only [dat12]

theorem afterIn12 (c : Dev nD) (t : Fin (cfg12 a1).N) : (dat12 V a1 O c).after 0 t = iblk12 V a1 c 0 t := by
  dsimp only [dat12]; rfl

theorem afterOut12 (c : Dev nD) (t : Fin (cfg12 a1).N) :
    (dat12 V a1 O c).after 1 t = O c t := by
  dsimp only [dat12]; rfl

theorem beforeIn12 (c : Dev nD) (t : Fin (cfg12 a1).N) (d) : (dat12 V a1 O c).before 0 t d = iblk12 V a1 c 0 t :=
  beforeIn12_of V a1 (dat12 V a1 O c) (A_eq12 V a1 O c 0) (afterIn12 V a1 O c) t d

theorem Phi_eq12 (c : Dev nD) (t : Fin ((cfg12 a1).N + 1)) :
    (dat12 V a1 O c).Φ t
      = iprop(Pipeline.ΦD osem12 spec12 {main_v3} V c ∗ Pipeline.prefHeld pre12 c (fun _ => fullShare) a1.1) := by
  dsimp only [dat12]

theorem owed_eq12 (c : Dev nD) (t : Fin ((cfg12 a1).N + 1)) : (dat12 V a1 O c).owed t = 0 := by
  dsimp only [dat12]

/-! ## The invariant, conjunct by conjunct -/

/-- The invariant's first part opened: the body's scratch buffer whole at some contents and the other scoped
    buffers no window stages, the generator register, the own cells at zero, the far operand at its contents. -/
theorem PhiD_eq12 (c : Dev nD) :
    (Pipeline.ΦD osem12 spec12 {main_v3} V c : sProp 𝕄)
      = iprop(iprop(iprop((∃ f : Buf (Elt F) ((c : Thread nD τ).loc cc12_scratch0), ((c : Thread nD τ).loc cc12_scratch0) ↦{fullShare} f))
            ∗ Pipeline.scopedRestBut (Ix := Unit) (Name := ℕ) (U := UD sig nD τ) (Lvl := ℕ) (Val := Elt F) spec12 c [cc12_scratch0])
          ∗ (∃ r, prngReg c r)
          ∗ Pipeline.ownSems0 (Ix := Unit) (Name := ℕ) (U := UD sig nD τ) (Lvl := ℕ) (Val := Elt F) (τ := τ) osem12 c
          ∗ (((c : Thread nD τ).loc main_v3) ↦{fullShare} V c main_v3)) := by
  rw [Pipeline.ΦD_eq, scopedRest12_split, BI.bigSep_eq_bigSepL_of_eq [main_v3] (by decide) (by decide)]; rfl

/-- The one table, held whole. -/
theorem prefHeld_eq12 (c : Dev nD) :
    (Pipeline.prefHeld pre12 c (fun _ => fullShare) a1.1 : sProp 𝕄)
      = (((c : Thread nD τ).loc main_v49) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg12 (w : Fin (cfg12 a1).W) (t : Fin (cfg12 a1).N) := ((cfg12 a1).win w).stage ((cfg12 a1).slots t w)

/-- The body as the pipeline calls it at point t. -/
abbrev bodyProg12 (t : Fin (cfg12 a1).N) : Prog (TpuEff nD τ sig (Elt F) Λ₀ .tc) PUnit :=
  (defs₀ (F := F)) .tc (cfg12 a1).body ((cfg12 a1).bodyArgs t ((cfg12 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun12 : Prop :=
  ∀ (c : Dev nD) (t : Fin (cfg12 a1).N) (W) (K : PUnit → sProp 𝕄),
    iprop(owns (c : Thread nD τ) (stg12 a1 0 t) fullShare (iblk12 V a1 c 0 t)
        ∗ (∃ d, owns (c : Thread nD τ) (stg12 a1 1 t) fullShare d)
        ∗ (∃ f : Buf (Elt F) ((c : Thread nD τ).loc cc12_scratch0), ((c : Thread nD τ).loc cc12_scratch0) ↦{fullShare} f)
        ∗ Pipeline.ownSems0 (Ix := Unit) (Name := ℕ) (U := UD sig nD τ) (Lvl := ℕ) (Val := Elt F) (τ := τ) osem12 c
        ∗ (((c : Thread nD τ).loc main_v49) ↦{fullShare} a1.1 0)
        ∗ (((c : Thread nD τ).loc main_v3) ↦{fullShare} V c main_v3)
        ∗ owes (c : Thread nD τ) (0 : CellTallies nD τ sig Unit) W
        ∗ (iprop(owns (c : Thread nD τ) (stg12 a1 0 t) fullShare (iblk12 V a1 c 0 t)
            ∗ owns (c : Thread nD τ) (stg12 a1 1 t) fullShare (O c t)
            ∗ (∃ f : Buf (Elt F) ((c : Thread nD τ).loc cc12_scratch0), ((c : Thread nD τ).loc cc12_scratch0) ↦{fullShare} f)
            ∗ Pipeline.ownSems0 (Ix := Unit) (Name := ℕ) (U := UD sig nD τ) (Lvl := ℕ) (Val := Elt F) (τ := τ) osem12 c
            ∗ (((c : Thread nD τ).loc main_v49) ↦{fullShare} a1.1 0)
            ∗ (((c : Thread nD τ).loc main_v3) ↦{fullShare} V c main_v3)
            ∗ (∃ W', owes (c : Thread nD τ) (0 : CellTallies nD τ sig Unit) W')) -∗ K ⟨⟩))
      ⊢ wp frame (wpE (defs₀ (F := F)) Variants.none c none) Set.univ (bodyProg12 a1 t) K

/-- What the body is called with at point t, the windows one by one, -/
def bodyPre12 (c : Dev nD) (t : Fin (cfg12 a1).N) : sProp 𝕄 :=
  iprop((dat12 V a1 O c).Φ t.castSucc ∗ (dat12 V a1 O c).owesAt () t.castSucc
    ∗ (∃ d, owns (c : Thread nD τ) (stg12 a1 0 t) fullShare ((dat12 V a1 O c).before 0 t d))
    ∗ (∃ d, owns (c : Thread nD τ) (stg12 a1 1 t) fullShare ((dat12 V a1 O c).before 1 t d)))

/-- and what it returns. -/
def bodyPost12 (c : Dev nD) (t : Fin (cfg12 a1).N) : sProp 𝕄 :=
  iprop((dat12 V a1 O c).Φ t.succ ∗ (dat12 V a1 O c).owesAt () t.succ
    ∗ owns (c : Thread nD τ) (stg12 a1 0 t) fullShare ((dat12 V a1 O c).after 0 t)
    ∗ owns (c : Thread nD τ) (stg12 a1 1 t) fullShare ((dat12 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body12 (hrun : BodyRun12 V a1 O) (c : Dev nD) (t : Fin (cfg12 a1).N) :
    bodyPre12 V a1 O c t
      ⊢ wp frame (wpE (defs₀ (F := F)) Variants.none c none) Set.univ (bodyProg12 a1 t) (fun _ => bodyPost12 V a1 O c t) := by
  unfold bodyPre12 bodyPost12
  simp only [beforeIn12]
  rw [afterIn12, afterOut12, Phi_eq12, Phi_eq12, PhiD_eq12, prefHeld_eq12]
  unfold Dat.owesAt Pipeline.owesWithin
  rw [owed_eq12, owed_eq12]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation12 (hrun : BodyRun12 V a1 O) (c : Dev nD) :
    BodyObligation (dat12 (F := F) V a1 O c) (defs₀ (F := F)) Variants.none () Set.univ := fun t => by
  rw [bigSep_W12, bigSep_W12]
  exact sound_body12 V a1 O hrun c t

end Data

/-! ## The region's record -/

section Record

variable (Win : Dev nD → Valuation τ sig (Elt F))

variable (a1 : (pcfg12 (F := F)).Adm)
  (O : (c : Dev nD) → Fin (cfg12 a1).N → Vec F S8x64 .f32)

/-- The buffers at the region's exit: its arrays at what the write-backs leave, every other buffer as entered. -/
def Wout12 (c : Dev nD) : Valuation τ sig (Elt F) :=
  Pipeline.withArrays spec12 c (Win c) fun w => (dat12 (Vof Win) a1 O c).arrAt w (cfg12 a1).N

theorem Wout12_arr (c : Dev nD) (w : Fin (cfg12 a1).W) :
    Wout12 Win a1 O c (Proc.devRef .tc (Pipeline.arrRef spec12 w)) = (dat12 (Vof Win) a1 O c).arrAt w (cfg12 a1).N := by
  unfold Wout12; exact Pipeline.withArrays_arr spec12 winFacts12.arr_inj c _ _ w

theorem Wout12_of_ne (c : Dev nD) (b : Ref sig .tc) (hb : ∀ w, Pipeline.arrRef spec12 w ≠ b) :
    Wout12 Win a1 O c (Proc.devRef .tc b) = Win c (Proc.devRef .tc b) := by
  unfold Wout12; exact Pipeline.withArrays_of_ne spec12 c _ _ b hb

/-- ENTRY, the buffers' part. Every unscoped buffer at Win is: the region's arrays at the proof data's entry contents,
    the table whole at the admissible contents (which are Win's there), the far operand whole, and the others. -/
theorem entry12 (c : Dev nD) (ha1 : ∀ k, Vof Win c (pre12.ref k) = a1.1 k) :
    (StableHlo.held (c : Thread nD τ) (Pipeline.ucRefs τ sig) (Win c) : sProp 𝕄)
      ⊢ iprop((dat12 (Vof Win) a1 O c).arrays ((dat12 (Vof Win) a1 O c).arrAt · 0)
          ∗ Pipeline.prefHeld pre12 c (fun _ => fullShare) a1.1
          ∗ (bigSep ({main_v3} : Finset (Ref sig .tc)) fun b => (((c : Thread nD τ)).loc b) ↦{fullShare} Vof Win c b)
          ∗ bigSep (Pipeline.restRefsP sig pre12 spec12 \ {main_v3}) fun b => (((c : Thread nD τ)).loc b) ↦{fullShare} Vof Win c b) := by
  have hsplit := Pipeline.arrays_of_unscopedBufs (p := ()) (fun (_ : Unit) => pcfg12 (F := F)) (fun _ => a1)
    (fun _ c => dat12 (Vof Win) a1 O c) winFacts12 (launch12 (F := F)).arr_whole c
    ((dat12 (Vof Win) a1 O c).share_full fun _ => rfl) (Vof Win c) (fun w => A_eq12 (Vof Win) a1 O c w)
  rw [Pipeline.unscopedBufs_held,
    Pipeline.unscopedRest_split (Ix := Unit) (Name := ℕ) (U := UD sig nD τ) (Lvl := ℕ) preFacts12 c (Vof Win c),
    Pipeline.unscopedRestP_sdiff pre12 spec12 {main_v3} hx_sub12 c (Vof Win c),
    show (fun k => Vof Win c (pre12.ref k)) = a1.1 from funext ha1] at hsplit
  exact hsplit

/-- EXIT, the buffers' part: the same four put back, the arrays at what the write-backs leave, are every unscoped
    buffer at the exit valuation. -/
theorem exit12 (c : Dev nD) (ha1 : ∀ k, Vof Win c (pre12.ref k) = a1.1 k) :
    iprop((dat12 (Vof Win) a1 O c).arrays ((dat12 (Vof Win) a1 O c).arrAt · (cfg12 a1).N)
        ∗ Pipeline.prefHeld pre12 c (fun _ => fullShare) a1.1
        ∗ (bigSep ({main_v3} : Finset (Ref sig .tc)) fun b => (((c : Thread nD τ)).loc b) ↦{fullShare} Vof Win c b)
        ∗ bigSep (Pipeline.restRefsP sig pre12 spec12 \ {main_v3}) fun b => (((c : Thread nD τ)).loc b) ↦{fullShare} Vof Win c b)
      ⊢ (StableHlo.held (c : Thread nD τ) (Pipeline.ucRefs τ sig) (Wout12 Win a1 O c) : sProp 𝕄) := by
  have hjoin := Pipeline.unscopedBufs_of_arrays (p := ()) (fun (_ : Unit) => pcfg12 (F := F)) (fun _ => a1)
    (Ix := Unit) (Name := ℕ) (U := UD sig nD τ) (Lvl := ℕ)
    winFacts12 (launch12 (F := F)).arr_whole c (fun _ c => dat12 (Vof Win) a1 O c)
    ((dat12 (Vof Win) a1 O c).share_full fun _ => rfl)
    (Vof Win c) (Vof (Wout12 Win a1 O) c) ((dat12 (Vof Win) a1 O c).arrAt · (cfg12 a1).N)
    (fun w => (Wout12_arr Win a1 O c w).symm)
    (fun b hb => Wout12_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts12 c (Vof Win c),
    Pipeline.unscopedRestP_sdiff pre12 spec12 {main_v3} hx_sub12 c (Vof Win c),
    show (fun k => Vof Win c (pre12.ref k)) = a1.1 from funext ha1] at hjoin
  exact hjoin

end Record

section Seg

variable (Win : Dev nD → Valuation τ sig (Elt F))
  (adm : (p : Fin 49) → (pcfgs (F := F) p).Adm)
  (O : (c : Dev nD) → Fin (cfg12 (adm (12 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout12. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg12 (hd : ∀ c, pdats (12 : Fin 49) c = dat12 (Vof Win) (adm (12 : Fin 49)) O c)
    (ha1 : ∀ c k, Vof Win c (pre12.ref k) = (adm (12 : Fin 49)).1 k)
    (hbody : ∀ c, BodyObligation (dat12 (F := F) (Vof Win) (adm (12 : Fin 49)) O c) (defs₀ (F := F)) 𝒱₀ () Set.univ) :
    Pipeline.RegionSeg (pcfgs (F := F)) adm pdats () defs₀ 𝒱₀ L lv (12 : Fin 49) where
  win := (launch12 (F := F)).win.to₀
  block_pos := (launch12 (F := F)).block_pos
  stage_whole := (launch12 (F := F)).stage_whole
  K := Fin 8
  osem := osem12
  ho := ownSemFacts12
  hbody c := by rw [hd c]; exact (hbody c).loose
  hwaits := Pipeline.hwaits_of_owed_zero _ _ _ _ L lv (12 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout12 Win (adm (12 : Fin 49)) O c) ∗ R c)
  X c := iprop((∃ r, prngReg c r)
    ∗ Pipeline.ownSems0 (Ix := Unit) (Name := ℕ) (U := UD sig nD τ) (Lvl := ℕ) (Val := Elt F) (τ := τ) osem12 c
    ∗ (bigSep ({main_v3} : Finset (Ref sig .tc)) fun b => (((c : Thread nD τ)).loc b) ↦{fullShare} Vof Win c b))
  Y c := iprop((∃ r, prngReg c r)
    ∗ (bigSep ({main_v3} : Finset (Ref sig .tc)) fun b => (((c : Thread nD τ)).loc b) ↦{fullShare} Vof Win c b)
    ∗ Pipeline.prefHeld pre12 c (fun _ => fullShare) (adm (12 : Fin 49)).1)
  Z c := bigSep (Pipeline.restRefsP sig pre12 spec12 \ {main_v3}) fun b => (((c : Thread nD τ)).loc b) ↦{fullShare} Vof Win c b
  hentry c := by
    rw [hd c]
    iintro ⟨⟨Hub, Hp, HO⟩, Hos, -⟩
    ihave H := (entry12 Win (adm (12 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq12, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq12, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit12 Win (adm (12 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg12 (F := F)).Adm)

/-- The output block at point t: the gathered rows (of the far operand's contents under V, chosen by the table's
    words at that point) times the input block. -/
def outBlk12 (c : Dev nD) (t : Fin (cfg12 a1).N) : Vec F S8x64 .f32 :=
  gatherOut (gatherG (a1.1 0) (V c main_v3) (grid12.coords t)) (iblk12 V a1 c 0 t)

theorem outBlk_eq12 (c : Dev nD) (t : Fin (cfg12 a1).N) :
    outBlk12 V a1 c t = gatherOut (gatherG (a1.1 0) (V c main_v3) (grid12.coords t)) (iblk12 V a1 c 0 t) := rfl

/-- The proof data with the output block named: after the body at point t the output window's buffer holds it. -/
theorem afterOutBlk12 (c : Dev nD) (t : Fin (cfg12 a1).N) :
    (dat12 V a1 (outBlk12 V a1) c).after 1 t
      = gatherOut (gatherG (a1.1 0) (V c main_v3) (grid12.coords t)) (iblk12 V a1 c 0 t) :=
  afterOut12 V a1 (outBlk12 V a1) c t

/-- The own cells at zero are the semaphore array's eight entries at zero, in order. -/
theorem ownSems_eq12 (c : Dev nD) :
    (Pipeline.ownSems0 (Ix := Unit) (Name := ℕ) (U := UD sig nD τ) (Lvl := ℕ) (Val := Elt F) (τ := τ) osem12 c : sProp 𝕄)
      = gsems0 c cc12_scratch1 := by
  rw [Pipeline.ownSems0_eq_of_list c osem12 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq12 (t : Fin (cfg12 a1).N) : ∃ h3 h4, bodyProg12 (F := F) a1 t
    = cc12__gather_mul_kernel (grid12.coords t) (Memref.whole main_v49) (Memref.isWhole_whole _) (Memref.whole main_v3) (Memref.isWhole_whole _)
        (stg12 a1 0 t) h3 (stg12 a1 1 t) h4 (Memref.whole cc12_scratch0) (Memref.isWhole_whole _) cc12_scratch1 := ⟨_, _, rfl⟩

end Out

/-! ## The body's run, joined to the proof data -/

section Body

variable (V : (c : Dev nD) → (b : Ref sig .tc) → Buf (Elt F) ((c : Thread nD τ).loc b))
  (a1 : (pcfg12 (F := F)).Adm)

/-- The scratch buffer whole at some contents, as a memref owned at some contents. -/
theorem scratchOwns_eq12 (c : Dev nD) :
    (iprop(∃ d, owns (c : Thread nD τ) (Memref.whole cc12_scratch0) fullShare d) : sProp 𝕄)
      = iprop(∃ f : Buf (Elt F) ((c : Thread nD τ).loc cc12_scratch0), ((c : Thread nD τ).loc cc12_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun12 (hlt : ∀ y, BitVec.toNat ((a1.1 0) y) < 100000) : BodyRun12 V a1 (outBlk12 V a1) := by
  intro c t W K
  obtain ⟨h3, h4, hprog⟩ := bodyProg_eq12 (F := F) a1 t
  rw [hprog, ownSems_eq12, ← scratchOwns_eq12 (F := F) c]
  have hrun := gather_kernel_run_12 (F := F) c (grid12.coords t) (Memref.whole main_v49) (Memref.isWhole_whole _) (Memref.whole main_v3) (Memref.isWhole_whole _)
    (stg12 a1 0 t) h3 (stg12 a1 1 t) h4 (Memref.whole cc12_scratch0) (Memref.isWhole_whole _) cc12_scratch1 fullShare fullShare
    (a1.1 0) (V c main_v3) (iblk12 V a1 c 0 t) (fun y => hlt y) W K
  simp only [Memref.view_whole, View.read_whole] at hrun
  unfold outBlk12
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut12 (hlt : ∀ y, BitVec.toNat ((a1.1 0) y) < 100000) (c : Dev nD) :
    BodyObligation (dat12 (F := F) V a1 (outBlk12 V a1) c) (defs₀ (F := F)) Variants.none () Set.univ :=
  body_obligation12 V a1 (outBlk12 V a1) (bodyRun12 V a1 hlt) c

end Body

/-! # Region 13 -/

/-! ## The body's own transfer cells -/

/-- The eight cells of the body's semaphore array, in order. -/
abbrev osem13 : Fin 8 → SemLoc sig := fun j => SemLoc.dma (cc13_scratch1.ix (fun | ⟨0, _⟩ => j))

/-- They are scoped, pairwise distinct, and none is a staging cell of a window. -/
theorem ownSemFacts13 : Pipeline.OwnSemFacts spec13 osem13 := by decide

/-- The far operand is an unscoped buffer that is neither a window's array nor a table. -/
theorem hx_sub13 : ({main_v3} : Finset (Ref sig .tc)) ⊆ Pipeline.restRefsP sig pre13 spec13 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg13 (F := F)).Adm)
  (O : (c : Dev nD) → Fin (cfg13 a1).N → Vec F S8x64 .f32)

/-! ## The windows' blocks -/

/-- Window w's block at point t, read off its array under V. -/
def iblk13 (c : Dev nD) (w : Fin (cfg13 a1).W) (t : Fin (cfg13 a1).N) :
    (((cfg13 a1).win w).xblock ((cfg13 a1).grid.coords t)).Idx → Elt F ((cfg13 a1).win w).elt :=
  (((cfg13 a1).win w).blk t).view.read (Elt F) (V c (Pipeline.arrRef spec13 w))

/-- The input window's current staging buffer holds its block at every point, fetched there or not, for any proof
    data whose array is V's and whose body leaves the block in place: unfetched, the block index has not moved. -/
theorem beforeIn13_of {c : Dev nD} (dat : Dat τ (Elt F) Unit ℕ (UD sig nD τ) ℕ (cfg13 a1) c)
    (hA : dat.A 0 = V c (Pipeline.arrRef spec13 0))
    (hafter : ∀ t, dat.after 0 t = iblk13 V a1 c 0 t) (t : Fin (cfg13 a1).N) (d) : dat.before 0 t d = iblk13 V a1 c 0 t :=
  (dat.before_in_eq_fetched 0 rfl (fun _ => rfl) (fun _ _ _ => rfl)
    (fun t => by rw [hafter]; unfold Dat.blockOf iblk13; rw [hA]; try rfl) t d).trans
    (by unfold Dat.fetched Dat.blockOf iblk13; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat13 (c : Dev nD) : Dat τ (Elt F) Unit ℕ (UD sig nD τ) ℕ (cfg13 a1) c where
  A w := V c (Pipeline.arrRef spec13 w)
  after w t := match w with
    | ⟨0, _⟩ => iblk13 V a1 c 0 t
    | ⟨1, _⟩ => O c t
  Φ _ := iprop(Pipeline.ΦD osem13 spec13 {main_v3} V c ∗ Pipeline.prefHeld pre13 c (fun _ => fullShare) a1.1)
  q _ := fullShare
  owed _ := 0

theorem A_eq13 (c : Dev nD) (w : Fin (cfg13 a1).W) : (dat13 V a1 O c).A w = V c (Pipeline.arrRef spec13 w) := by
  dsimp only [dat13]

theorem afterIn13 (c : Dev nD) (t : Fin (cfg13 a1).N) : (dat13 V a1 O c).after 0 t = iblk13 V a1 c 0 t := by
  dsimp only [dat13]; rfl

theorem afterOut13 (c : Dev nD) (t : Fin (cfg13 a1).N) :
    (dat13 V a1 O c).after 1 t = O c t := by
  dsimp only [dat13]; rfl

theorem beforeIn13 (c : Dev nD) (t : Fin (cfg13 a1).N) (d) : (dat13 V a1 O c).before 0 t d = iblk13 V a1 c 0 t :=
  beforeIn13_of V a1 (dat13 V a1 O c) (A_eq13 V a1 O c 0) (afterIn13 V a1 O c) t d

theorem Phi_eq13 (c : Dev nD) (t : Fin ((cfg13 a1).N + 1)) :
    (dat13 V a1 O c).Φ t
      = iprop(Pipeline.ΦD osem13 spec13 {main_v3} V c ∗ Pipeline.prefHeld pre13 c (fun _ => fullShare) a1.1) := by
  dsimp only [dat13]

theorem owed_eq13 (c : Dev nD) (t : Fin ((cfg13 a1).N + 1)) : (dat13 V a1 O c).owed t = 0 := by
  dsimp only [dat13]

/-! ## The invariant, conjunct by conjunct -/

/-- The invariant's first part opened: the body's scratch buffer whole at some contents and the other scoped
    buffers no window stages, the generator register, the own cells at zero, the far operand at its contents. -/
theorem PhiD_eq13 (c : Dev nD) :
    (Pipeline.ΦD osem13 spec13 {main_v3} V c : sProp 𝕄)
      = iprop(iprop(iprop((∃ f : Buf (Elt F) ((c : Thread nD τ).loc cc13_scratch0), ((c : Thread nD τ).loc cc13_scratch0) ↦{fullShare} f))
            ∗ Pipeline.scopedRestBut (Ix := Unit) (Name := ℕ) (U := UD sig nD τ) (Lvl := ℕ) (Val := Elt F) spec13 c [cc13_scratch0])
          ∗ (∃ r, prngReg c r)
          ∗ Pipeline.ownSems0 (Ix := Unit) (Name := ℕ) (U := UD sig nD τ) (Lvl := ℕ) (Val := Elt F) (τ := τ) osem13 c
          ∗ (((c : Thread nD τ).loc main_v3) ↦{fullShare} V c main_v3)) := by
  rw [Pipeline.ΦD_eq, scopedRest13_split, BI.bigSep_eq_bigSepL_of_eq [main_v3] (by decide) (by decide)]; rfl

/-- The one table, held whole. -/
theorem prefHeld_eq13 (c : Dev nD) :
    (Pipeline.prefHeld pre13 c (fun _ => fullShare) a1.1 : sProp 𝕄)
      = (((c : Thread nD τ).loc main_v53) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg13 (w : Fin (cfg13 a1).W) (t : Fin (cfg13 a1).N) := ((cfg13 a1).win w).stage ((cfg13 a1).slots t w)

/-- The body as the pipeline calls it at point t. -/
abbrev bodyProg13 (t : Fin (cfg13 a1).N) : Prog (TpuEff nD τ sig (Elt F) Λ₀ .tc) PUnit :=
  (defs₀ (F := F)) .tc (cfg13 a1).body ((cfg13 a1).bodyArgs t ((cfg13 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun13 : Prop :=
  ∀ (c : Dev nD) (t : Fin (cfg13 a1).N) (W) (K : PUnit → sProp 𝕄),
    iprop(owns (c : Thread nD τ) (stg13 a1 0 t) fullShare (iblk13 V a1 c 0 t)
        ∗ (∃ d, owns (c : Thread nD τ) (stg13 a1 1 t) fullShare d)
        ∗ (∃ f : Buf (Elt F) ((c : Thread nD τ).loc cc13_scratch0), ((c : Thread nD τ).loc cc13_scratch0) ↦{fullShare} f)
        ∗ Pipeline.ownSems0 (Ix := Unit) (Name := ℕ) (U := UD sig nD τ) (Lvl := ℕ) (Val := Elt F) (τ := τ) osem13 c
        ∗ (((c : Thread nD τ).loc main_v53) ↦{fullShare} a1.1 0)
        ∗ (((c : Thread nD τ).loc main_v3) ↦{fullShare} V c main_v3)
        ∗ owes (c : Thread nD τ) (0 : CellTallies nD τ sig Unit) W
        ∗ (iprop(owns (c : Thread nD τ) (stg13 a1 0 t) fullShare (iblk13 V a1 c 0 t)
            ∗ owns (c : Thread nD τ) (stg13 a1 1 t) fullShare (O c t)
            ∗ (∃ f : Buf (Elt F) ((c : Thread nD τ).loc cc13_scratch0), ((c : Thread nD τ).loc cc13_scratch0) ↦{fullShare} f)
            ∗ Pipeline.ownSems0 (Ix := Unit) (Name := ℕ) (U := UD sig nD τ) (Lvl := ℕ) (Val := Elt F) (τ := τ) osem13 c
            ∗ (((c : Thread nD τ).loc main_v53) ↦{fullShare} a1.1 0)
            ∗ (((c : Thread nD τ).loc main_v3) ↦{fullShare} V c main_v3)
            ∗ (∃ W', owes (c : Thread nD τ) (0 : CellTallies nD τ sig Unit) W')) -∗ K ⟨⟩))
      ⊢ wp frame (wpE (defs₀ (F := F)) Variants.none c none) Set.univ (bodyProg13 a1 t) K

/-- What the body is called with at point t, the windows one by one, -/
def bodyPre13 (c : Dev nD) (t : Fin (cfg13 a1).N) : sProp 𝕄 :=
  iprop((dat13 V a1 O c).Φ t.castSucc ∗ (dat13 V a1 O c).owesAt () t.castSucc
    ∗ (∃ d, owns (c : Thread nD τ) (stg13 a1 0 t) fullShare ((dat13 V a1 O c).before 0 t d))
    ∗ (∃ d, owns (c : Thread nD τ) (stg13 a1 1 t) fullShare ((dat13 V a1 O c).before 1 t d)))

/-- and what it returns. -/
def bodyPost13 (c : Dev nD) (t : Fin (cfg13 a1).N) : sProp 𝕄 :=
  iprop((dat13 V a1 O c).Φ t.succ ∗ (dat13 V a1 O c).owesAt () t.succ
    ∗ owns (c : Thread nD τ) (stg13 a1 0 t) fullShare ((dat13 V a1 O c).after 0 t)
    ∗ owns (c : Thread nD τ) (stg13 a1 1 t) fullShare ((dat13 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body13 (hrun : BodyRun13 V a1 O) (c : Dev nD) (t : Fin (cfg13 a1).N) :
    bodyPre13 V a1 O c t
      ⊢ wp frame (wpE (defs₀ (F := F)) Variants.none c none) Set.univ (bodyProg13 a1 t) (fun _ => bodyPost13 V a1 O c t) := by
  unfold bodyPre13 bodyPost13
  simp only [beforeIn13]
  rw [afterIn13, afterOut13, Phi_eq13, Phi_eq13, PhiD_eq13, prefHeld_eq13]
  unfold Dat.owesAt Pipeline.owesWithin
  rw [owed_eq13, owed_eq13]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation13 (hrun : BodyRun13 V a1 O) (c : Dev nD) :
    BodyObligation (dat13 (F := F) V a1 O c) (defs₀ (F := F)) Variants.none () Set.univ := fun t => by
  rw [bigSep_W13, bigSep_W13]
  exact sound_body13 V a1 O hrun c t

end Data

/-! ## The region's record -/

section Record

variable (Win : Dev nD → Valuation τ sig (Elt F))

variable (a1 : (pcfg13 (F := F)).Adm)
  (O : (c : Dev nD) → Fin (cfg13 a1).N → Vec F S8x64 .f32)

/-- The buffers at the region's exit: its arrays at what the write-backs leave, every other buffer as entered. -/
def Wout13 (c : Dev nD) : Valuation τ sig (Elt F) :=
  Pipeline.withArrays spec13 c (Win c) fun w => (dat13 (Vof Win) a1 O c).arrAt w (cfg13 a1).N

theorem Wout13_arr (c : Dev nD) (w : Fin (cfg13 a1).W) :
    Wout13 Win a1 O c (Proc.devRef .tc (Pipeline.arrRef spec13 w)) = (dat13 (Vof Win) a1 O c).arrAt w (cfg13 a1).N := by
  unfold Wout13; exact Pipeline.withArrays_arr spec13 winFacts13.arr_inj c _ _ w

theorem Wout13_of_ne (c : Dev nD) (b : Ref sig .tc) (hb : ∀ w, Pipeline.arrRef spec13 w ≠ b) :
    Wout13 Win a1 O c (Proc.devRef .tc b) = Win c (Proc.devRef .tc b) := by
  unfold Wout13; exact Pipeline.withArrays_of_ne spec13 c _ _ b hb

/-- ENTRY, the buffers' part. Every unscoped buffer at Win is: the region's arrays at the proof data's entry contents,
    the table whole at the admissible contents (which are Win's there), the far operand whole, and the others. -/
theorem entry13 (c : Dev nD) (ha1 : ∀ k, Vof Win c (pre13.ref k) = a1.1 k) :
    (StableHlo.held (c : Thread nD τ) (Pipeline.ucRefs τ sig) (Win c) : sProp 𝕄)
      ⊢ iprop((dat13 (Vof Win) a1 O c).arrays ((dat13 (Vof Win) a1 O c).arrAt · 0)
          ∗ Pipeline.prefHeld pre13 c (fun _ => fullShare) a1.1
          ∗ (bigSep ({main_v3} : Finset (Ref sig .tc)) fun b => (((c : Thread nD τ)).loc b) ↦{fullShare} Vof Win c b)
          ∗ bigSep (Pipeline.restRefsP sig pre13 spec13 \ {main_v3}) fun b => (((c : Thread nD τ)).loc b) ↦{fullShare} Vof Win c b) := by
  have hsplit := Pipeline.arrays_of_unscopedBufs (p := ()) (fun (_ : Unit) => pcfg13 (F := F)) (fun _ => a1)
    (fun _ c => dat13 (Vof Win) a1 O c) winFacts13 (launch13 (F := F)).arr_whole c
    ((dat13 (Vof Win) a1 O c).share_full fun _ => rfl) (Vof Win c) (fun w => A_eq13 (Vof Win) a1 O c w)
  rw [Pipeline.unscopedBufs_held,
    Pipeline.unscopedRest_split (Ix := Unit) (Name := ℕ) (U := UD sig nD τ) (Lvl := ℕ) preFacts13 c (Vof Win c),
    Pipeline.unscopedRestP_sdiff pre13 spec13 {main_v3} hx_sub13 c (Vof Win c),
    show (fun k => Vof Win c (pre13.ref k)) = a1.1 from funext ha1] at hsplit
  exact hsplit

/-- EXIT, the buffers' part: the same four put back, the arrays at what the write-backs leave, are every unscoped
    buffer at the exit valuation. -/
theorem exit13 (c : Dev nD) (ha1 : ∀ k, Vof Win c (pre13.ref k) = a1.1 k) :
    iprop((dat13 (Vof Win) a1 O c).arrays ((dat13 (Vof Win) a1 O c).arrAt · (cfg13 a1).N)
        ∗ Pipeline.prefHeld pre13 c (fun _ => fullShare) a1.1
        ∗ (bigSep ({main_v3} : Finset (Ref sig .tc)) fun b => (((c : Thread nD τ)).loc b) ↦{fullShare} Vof Win c b)
        ∗ bigSep (Pipeline.restRefsP sig pre13 spec13 \ {main_v3}) fun b => (((c : Thread nD τ)).loc b) ↦{fullShare} Vof Win c b)
      ⊢ (StableHlo.held (c : Thread nD τ) (Pipeline.ucRefs τ sig) (Wout13 Win a1 O c) : sProp 𝕄) := by
  have hjoin := Pipeline.unscopedBufs_of_arrays (p := ()) (fun (_ : Unit) => pcfg13 (F := F)) (fun _ => a1)
    (Ix := Unit) (Name := ℕ) (U := UD sig nD τ) (Lvl := ℕ)
    winFacts13 (launch13 (F := F)).arr_whole c (fun _ c => dat13 (Vof Win) a1 O c)
    ((dat13 (Vof Win) a1 O c).share_full fun _ => rfl)
    (Vof Win c) (Vof (Wout13 Win a1 O) c) ((dat13 (Vof Win) a1 O c).arrAt · (cfg13 a1).N)
    (fun w => (Wout13_arr Win a1 O c w).symm)
    (fun b hb => Wout13_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts13 c (Vof Win c),
    Pipeline.unscopedRestP_sdiff pre13 spec13 {main_v3} hx_sub13 c (Vof Win c),
    show (fun k => Vof Win c (pre13.ref k)) = a1.1 from funext ha1] at hjoin
  exact hjoin

end Record

section Seg

variable (Win : Dev nD → Valuation τ sig (Elt F))
  (adm : (p : Fin 49) → (pcfgs (F := F) p).Adm)
  (O : (c : Dev nD) → Fin (cfg13 (adm (13 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout13. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg13 (hd : ∀ c, pdats (13 : Fin 49) c = dat13 (Vof Win) (adm (13 : Fin 49)) O c)
    (ha1 : ∀ c k, Vof Win c (pre13.ref k) = (adm (13 : Fin 49)).1 k)
    (hbody : ∀ c, BodyObligation (dat13 (F := F) (Vof Win) (adm (13 : Fin 49)) O c) (defs₀ (F := F)) 𝒱₀ () Set.univ) :
    Pipeline.RegionSeg (pcfgs (F := F)) adm pdats () defs₀ 𝒱₀ L lv (13 : Fin 49) where
  win := (launch13 (F := F)).win.to₀
  block_pos := (launch13 (F := F)).block_pos
  stage_whole := (launch13 (F := F)).stage_whole
  K := Fin 8
  osem := osem13
  ho := ownSemFacts13
  hbody c := by rw [hd c]; exact (hbody c).loose
  hwaits := Pipeline.hwaits_of_owed_zero _ _ _ _ L lv (13 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout13 Win (adm (13 : Fin 49)) O c) ∗ R c)
  X c := iprop((∃ r, prngReg c r)
    ∗ Pipeline.ownSems0 (Ix := Unit) (Name := ℕ) (U := UD sig nD τ) (Lvl := ℕ) (Val := Elt F) (τ := τ) osem13 c
    ∗ (bigSep ({main_v3} : Finset (Ref sig .tc)) fun b => (((c : Thread nD τ)).loc b) ↦{fullShare} Vof Win c b))
  Y c := iprop((∃ r, prngReg c r)
    ∗ (bigSep ({main_v3} : Finset (Ref sig .tc)) fun b => (((c : Thread nD τ)).loc b) ↦{fullShare} Vof Win c b)
    ∗ Pipeline.prefHeld pre13 c (fun _ => fullShare) (adm (13 : Fin 49)).1)
  Z c := bigSep (Pipeline.restRefsP sig pre13 spec13 \ {main_v3}) fun b => (((c : Thread nD τ)).loc b) ↦{fullShare} Vof Win c b
  hentry c := by
    rw [hd c]
    iintro ⟨⟨Hub, Hp, HO⟩, Hos, -⟩
    ihave H := (entry13 Win (adm (13 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq13, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq13, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit13 Win (adm (13 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg13 (F := F)).Adm)

/-- The output block at point t: the gathered rows (of the far operand's contents under V, chosen by the table's
    words at that point) times the input block. -/
def outBlk13 (c : Dev nD) (t : Fin (cfg13 a1).N) : Vec F S8x64 .f32 :=
  gatherOut (gatherG (a1.1 0) (V c main_v3) (grid13.coords t)) (iblk13 V a1 c 0 t)

theorem outBlk_eq13 (c : Dev nD) (t : Fin (cfg13 a1).N) :
    outBlk13 V a1 c t = gatherOut (gatherG (a1.1 0) (V c main_v3) (grid13.coords t)) (iblk13 V a1 c 0 t) := rfl

/-- The proof data with the output block named: after the body at point t the output window's buffer holds it. -/
theorem afterOutBlk13 (c : Dev nD) (t : Fin (cfg13 a1).N) :
    (dat13 V a1 (outBlk13 V a1) c).after 1 t
      = gatherOut (gatherG (a1.1 0) (V c main_v3) (grid13.coords t)) (iblk13 V a1 c 0 t) :=
  afterOut13 V a1 (outBlk13 V a1) c t

/-- The own cells at zero are the semaphore array's eight entries at zero, in order. -/
theorem ownSems_eq13 (c : Dev nD) :
    (Pipeline.ownSems0 (Ix := Unit) (Name := ℕ) (U := UD sig nD τ) (Lvl := ℕ) (Val := Elt F) (τ := τ) osem13 c : sProp 𝕄)
      = gsems0 c cc13_scratch1 := by
  rw [Pipeline.ownSems0_eq_of_list c osem13 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq13 (t : Fin (cfg13 a1).N) : ∃ h3 h4, bodyProg13 (F := F) a1 t
    = cc13__gather_mul_kernel (grid13.coords t) (Memref.whole main_v53) (Memref.isWhole_whole _) (Memref.whole main_v3) (Memref.isWhole_whole _)
        (stg13 a1 0 t) h3 (stg13 a1 1 t) h4 (Memref.whole cc13_scratch0) (Memref.isWhole_whole _) cc13_scratch1 := ⟨_, _, rfl⟩

end Out

/-! ## The body's run, joined to the proof data -/

section Body

variable (V : (c : Dev nD) → (b : Ref sig .tc) → Buf (Elt F) ((c : Thread nD τ).loc b))
  (a1 : (pcfg13 (F := F)).Adm)

/-- The scratch buffer whole at some contents, as a memref owned at some contents. -/
theorem scratchOwns_eq13 (c : Dev nD) :
    (iprop(∃ d, owns (c : Thread nD τ) (Memref.whole cc13_scratch0) fullShare d) : sProp 𝕄)
      = iprop(∃ f : Buf (Elt F) ((c : Thread nD τ).loc cc13_scratch0), ((c : Thread nD τ).loc cc13_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun13 (hlt : ∀ y, BitVec.toNat ((a1.1 0) y) < 100000) : BodyRun13 V a1 (outBlk13 V a1) := by
  intro c t W K
  obtain ⟨h3, h4, hprog⟩ := bodyProg_eq13 (F := F) a1 t
  rw [hprog, ownSems_eq13, ← scratchOwns_eq13 (F := F) c]
  have hrun := gather_kernel_run_13 (F := F) c (grid13.coords t) (Memref.whole main_v53) (Memref.isWhole_whole _) (Memref.whole main_v3) (Memref.isWhole_whole _)
    (stg13 a1 0 t) h3 (stg13 a1 1 t) h4 (Memref.whole cc13_scratch0) (Memref.isWhole_whole _) cc13_scratch1 fullShare fullShare
    (a1.1 0) (V c main_v3) (iblk13 V a1 c 0 t) (fun y => hlt y) W K
  simp only [Memref.view_whole, View.read_whole] at hrun
  unfold outBlk13
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut13 (hlt : ∀ y, BitVec.toNat ((a1.1 0) y) < 100000) (c : Dev nD) :
    BodyObligation (dat13 (F := F) V a1 (outBlk13 V a1) c) (defs₀ (F := F)) Variants.none () Set.univ :=
  body_obligation13 V a1 (outBlk13 V a1) (bodyRun13 V a1 hlt) c

end Body

/-! # Region 14 -/

/-! ## The body's own transfer cells -/

/-- The eight cells of the body's semaphore array, in order. -/
abbrev osem14 : Fin 8 → SemLoc sig := fun j => SemLoc.dma (cc14_scratch1.ix (fun | ⟨0, _⟩ => j))

/-- They are scoped, pairwise distinct, and none is a staging cell of a window. -/
theorem ownSemFacts14 : Pipeline.OwnSemFacts spec14 osem14 := by decide

/-- The far operand is an unscoped buffer that is neither a window's array nor a table. -/
theorem hx_sub14 : ({main_v3} : Finset (Ref sig .tc)) ⊆ Pipeline.restRefsP sig pre14 spec14 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg14 (F := F)).Adm)
  (O : (c : Dev nD) → Fin (cfg14 a1).N → Vec F S8x64 .f32)

/-! ## The windows' blocks -/

/-- Window w's block at point t, read off its array under V. -/
def iblk14 (c : Dev nD) (w : Fin (cfg14 a1).W) (t : Fin (cfg14 a1).N) :
    (((cfg14 a1).win w).xblock ((cfg14 a1).grid.coords t)).Idx → Elt F ((cfg14 a1).win w).elt :=
  (((cfg14 a1).win w).blk t).view.read (Elt F) (V c (Pipeline.arrRef spec14 w))

/-- The input window's current staging buffer holds its block at every point, fetched there or not, for any proof
    data whose array is V's and whose body leaves the block in place: unfetched, the block index has not moved. -/
theorem beforeIn14_of {c : Dev nD} (dat : Dat τ (Elt F) Unit ℕ (UD sig nD τ) ℕ (cfg14 a1) c)
    (hA : dat.A 0 = V c (Pipeline.arrRef spec14 0))
    (hafter : ∀ t, dat.after 0 t = iblk14 V a1 c 0 t) (t : Fin (cfg14 a1).N) (d) : dat.before 0 t d = iblk14 V a1 c 0 t :=
  (dat.before_in_eq_fetched 0 rfl (fun _ => rfl) (fun _ _ _ => rfl)
    (fun t => by rw [hafter]; unfold Dat.blockOf iblk14; rw [hA]; try rfl) t d).trans
    (by unfold Dat.fetched Dat.blockOf iblk14; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat14 (c : Dev nD) : Dat τ (Elt F) Unit ℕ (UD sig nD τ) ℕ (cfg14 a1) c where
  A w := V c (Pipeline.arrRef spec14 w)
  after w t := match w with
    | ⟨0, _⟩ => iblk14 V a1 c 0 t
    | ⟨1, _⟩ => O c t
  Φ _ := iprop(Pipeline.ΦD osem14 spec14 {main_v3} V c ∗ Pipeline.prefHeld pre14 c (fun _ => fullShare) a1.1)
  q _ := fullShare
  owed _ := 0

theorem A_eq14 (c : Dev nD) (w : Fin (cfg14 a1).W) : (dat14 V a1 O c).A w = V c (Pipeline.arrRef spec14 w) := by
  dsimp only [dat14]

theorem afterIn14 (c : Dev nD) (t : Fin (cfg14 a1).N) : (dat14 V a1 O c).after 0 t = iblk14 V a1 c 0 t := by
  dsimp only [dat14]; rfl

theorem afterOut14 (c : Dev nD) (t : Fin (cfg14 a1).N) :
    (dat14 V a1 O c).after 1 t = O c t := by
  dsimp only [dat14]; rfl

theorem beforeIn14 (c : Dev nD) (t : Fin (cfg14 a1).N) (d) : (dat14 V a1 O c).before 0 t d = iblk14 V a1 c 0 t :=
  beforeIn14_of V a1 (dat14 V a1 O c) (A_eq14 V a1 O c 0) (afterIn14 V a1 O c) t d

theorem Phi_eq14 (c : Dev nD) (t : Fin ((cfg14 a1).N + 1)) :
    (dat14 V a1 O c).Φ t
      = iprop(Pipeline.ΦD osem14 spec14 {main_v3} V c ∗ Pipeline.prefHeld pre14 c (fun _ => fullShare) a1.1) := by
  dsimp only [dat14]

theorem owed_eq14 (c : Dev nD) (t : Fin ((cfg14 a1).N + 1)) : (dat14 V a1 O c).owed t = 0 := by
  dsimp only [dat14]

/-! ## The invariant, conjunct by conjunct -/

/-- The invariant's first part opened: the body's scratch buffer whole at some contents and the other scoped
    buffers no window stages, the generator register, the own cells at zero, the far operand at its contents. -/
theorem PhiD_eq14 (c : Dev nD) :
    (Pipeline.ΦD osem14 spec14 {main_v3} V c : sProp 𝕄)
      = iprop(iprop(iprop((∃ f : Buf (Elt F) ((c : Thread nD τ).loc cc14_scratch0), ((c : Thread nD τ).loc cc14_scratch0) ↦{fullShare} f))
            ∗ Pipeline.scopedRestBut (Ix := Unit) (Name := ℕ) (U := UD sig nD τ) (Lvl := ℕ) (Val := Elt F) spec14 c [cc14_scratch0])
          ∗ (∃ r, prngReg c r)
          ∗ Pipeline.ownSems0 (Ix := Unit) (Name := ℕ) (U := UD sig nD τ) (Lvl := ℕ) (Val := Elt F) (τ := τ) osem14 c
          ∗ (((c : Thread nD τ).loc main_v3) ↦{fullShare} V c main_v3)) := by
  rw [Pipeline.ΦD_eq, scopedRest14_split, BI.bigSep_eq_bigSepL_of_eq [main_v3] (by decide) (by decide)]; rfl

/-- The one table, held whole. -/
theorem prefHeld_eq14 (c : Dev nD) :
    (Pipeline.prefHeld pre14 c (fun _ => fullShare) a1.1 : sProp 𝕄)
      = (((c : Thread nD τ).loc main_v57) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg14 (w : Fin (cfg14 a1).W) (t : Fin (cfg14 a1).N) := ((cfg14 a1).win w).stage ((cfg14 a1).slots t w)

/-- The body as the pipeline calls it at point t. -/
abbrev bodyProg14 (t : Fin (cfg14 a1).N) : Prog (TpuEff nD τ sig (Elt F) Λ₀ .tc) PUnit :=
  (defs₀ (F := F)) .tc (cfg14 a1).body ((cfg14 a1).bodyArgs t ((cfg14 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun14 : Prop :=
  ∀ (c : Dev nD) (t : Fin (cfg14 a1).N) (W) (K : PUnit → sProp 𝕄),
    iprop(owns (c : Thread nD τ) (stg14 a1 0 t) fullShare (iblk14 V a1 c 0 t)
        ∗ (∃ d, owns (c : Thread nD τ) (stg14 a1 1 t) fullShare d)
        ∗ (∃ f : Buf (Elt F) ((c : Thread nD τ).loc cc14_scratch0), ((c : Thread nD τ).loc cc14_scratch0) ↦{fullShare} f)
        ∗ Pipeline.ownSems0 (Ix := Unit) (Name := ℕ) (U := UD sig nD τ) (Lvl := ℕ) (Val := Elt F) (τ := τ) osem14 c
        ∗ (((c : Thread nD τ).loc main_v57) ↦{fullShare} a1.1 0)
        ∗ (((c : Thread nD τ).loc main_v3) ↦{fullShare} V c main_v3)
        ∗ owes (c : Thread nD τ) (0 : CellTallies nD τ sig Unit) W
        ∗ (iprop(owns (c : Thread nD τ) (stg14 a1 0 t) fullShare (iblk14 V a1 c 0 t)
            ∗ owns (c : Thread nD τ) (stg14 a1 1 t) fullShare (O c t)
            ∗ (∃ f : Buf (Elt F) ((c : Thread nD τ).loc cc14_scratch0), ((c : Thread nD τ).loc cc14_scratch0) ↦{fullShare} f)
            ∗ Pipeline.ownSems0 (Ix := Unit) (Name := ℕ) (U := UD sig nD τ) (Lvl := ℕ) (Val := Elt F) (τ := τ) osem14 c
            ∗ (((c : Thread nD τ).loc main_v57) ↦{fullShare} a1.1 0)
            ∗ (((c : Thread nD τ).loc main_v3) ↦{fullShare} V c main_v3)
            ∗ (∃ W', owes (c : Thread nD τ) (0 : CellTallies nD τ sig Unit) W')) -∗ K ⟨⟩))
      ⊢ wp frame (wpE (defs₀ (F := F)) Variants.none c none) Set.univ (bodyProg14 a1 t) K

/-- What the body is called with at point t, the windows one by one, -/
def bodyPre14 (c : Dev nD) (t : Fin (cfg14 a1).N) : sProp 𝕄 :=
  iprop((dat14 V a1 O c).Φ t.castSucc ∗ (dat14 V a1 O c).owesAt () t.castSucc
    ∗ (∃ d, owns (c : Thread nD τ) (stg14 a1 0 t) fullShare ((dat14 V a1 O c).before 0 t d))
    ∗ (∃ d, owns (c : Thread nD τ) (stg14 a1 1 t) fullShare ((dat14 V a1 O c).before 1 t d)))

/-- and what it returns. -/
def bodyPost14 (c : Dev nD) (t : Fin (cfg14 a1).N) : sProp 𝕄 :=
  iprop((dat14 V a1 O c).Φ t.succ ∗ (dat14 V a1 O c).owesAt () t.succ
    ∗ owns (c : Thread nD τ) (stg14 a1 0 t) fullShare ((dat14 V a1 O c).after 0 t)
    ∗ owns (c : Thread nD τ) (stg14 a1 1 t) fullShare ((dat14 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body14 (hrun : BodyRun14 V a1 O) (c : Dev nD) (t : Fin (cfg14 a1).N) :
    bodyPre14 V a1 O c t
      ⊢ wp frame (wpE (defs₀ (F := F)) Variants.none c none) Set.univ (bodyProg14 a1 t) (fun _ => bodyPost14 V a1 O c t) := by
  unfold bodyPre14 bodyPost14
  simp only [beforeIn14]
  rw [afterIn14, afterOut14, Phi_eq14, Phi_eq14, PhiD_eq14, prefHeld_eq14]
  unfold Dat.owesAt Pipeline.owesWithin
  rw [owed_eq14, owed_eq14]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation14 (hrun : BodyRun14 V a1 O) (c : Dev nD) :
    BodyObligation (dat14 (F := F) V a1 O c) (defs₀ (F := F)) Variants.none () Set.univ := fun t => by
  rw [bigSep_W14, bigSep_W14]
  exact sound_body14 V a1 O hrun c t

end Data

/-! ## The region's record -/

section Record

variable (Win : Dev nD → Valuation τ sig (Elt F))

variable (a1 : (pcfg14 (F := F)).Adm)
  (O : (c : Dev nD) → Fin (cfg14 a1).N → Vec F S8x64 .f32)

/-- The buffers at the region's exit: its arrays at what the write-backs leave, every other buffer as entered. -/
def Wout14 (c : Dev nD) : Valuation τ sig (Elt F) :=
  Pipeline.withArrays spec14 c (Win c) fun w => (dat14 (Vof Win) a1 O c).arrAt w (cfg14 a1).N

theorem Wout14_arr (c : Dev nD) (w : Fin (cfg14 a1).W) :
    Wout14 Win a1 O c (Proc.devRef .tc (Pipeline.arrRef spec14 w)) = (dat14 (Vof Win) a1 O c).arrAt w (cfg14 a1).N := by
  unfold Wout14; exact Pipeline.withArrays_arr spec14 winFacts14.arr_inj c _ _ w

theorem Wout14_of_ne (c : Dev nD) (b : Ref sig .tc) (hb : ∀ w, Pipeline.arrRef spec14 w ≠ b) :
    Wout14 Win a1 O c (Proc.devRef .tc b) = Win c (Proc.devRef .tc b) := by
  unfold Wout14; exact Pipeline.withArrays_of_ne spec14 c _ _ b hb

/-- ENTRY, the buffers' part. Every unscoped buffer at Win is: the region's arrays at the proof data's entry contents,
    the table whole at the admissible contents (which are Win's there), the far operand whole, and the others. -/
theorem entry14 (c : Dev nD) (ha1 : ∀ k, Vof Win c (pre14.ref k) = a1.1 k) :
    (StableHlo.held (c : Thread nD τ) (Pipeline.ucRefs τ sig) (Win c) : sProp 𝕄)
      ⊢ iprop((dat14 (Vof Win) a1 O c).arrays ((dat14 (Vof Win) a1 O c).arrAt · 0)
          ∗ Pipeline.prefHeld pre14 c (fun _ => fullShare) a1.1
          ∗ (bigSep ({main_v3} : Finset (Ref sig .tc)) fun b => (((c : Thread nD τ)).loc b) ↦{fullShare} Vof Win c b)
          ∗ bigSep (Pipeline.restRefsP sig pre14 spec14 \ {main_v3}) fun b => (((c : Thread nD τ)).loc b) ↦{fullShare} Vof Win c b) := by
  have hsplit := Pipeline.arrays_of_unscopedBufs (p := ()) (fun (_ : Unit) => pcfg14 (F := F)) (fun _ => a1)
    (fun _ c => dat14 (Vof Win) a1 O c) winFacts14 (launch14 (F := F)).arr_whole c
    ((dat14 (Vof Win) a1 O c).share_full fun _ => rfl) (Vof Win c) (fun w => A_eq14 (Vof Win) a1 O c w)
  rw [Pipeline.unscopedBufs_held,
    Pipeline.unscopedRest_split (Ix := Unit) (Name := ℕ) (U := UD sig nD τ) (Lvl := ℕ) preFacts14 c (Vof Win c),
    Pipeline.unscopedRestP_sdiff pre14 spec14 {main_v3} hx_sub14 c (Vof Win c),
    show (fun k => Vof Win c (pre14.ref k)) = a1.1 from funext ha1] at hsplit
  exact hsplit

/-- EXIT, the buffers' part: the same four put back, the arrays at what the write-backs leave, are every unscoped
    buffer at the exit valuation. -/
theorem exit14 (c : Dev nD) (ha1 : ∀ k, Vof Win c (pre14.ref k) = a1.1 k) :
    iprop((dat14 (Vof Win) a1 O c).arrays ((dat14 (Vof Win) a1 O c).arrAt · (cfg14 a1).N)
        ∗ Pipeline.prefHeld pre14 c (fun _ => fullShare) a1.1
        ∗ (bigSep ({main_v3} : Finset (Ref sig .tc)) fun b => (((c : Thread nD τ)).loc b) ↦{fullShare} Vof Win c b)
        ∗ bigSep (Pipeline.restRefsP sig pre14 spec14 \ {main_v3}) fun b => (((c : Thread nD τ)).loc b) ↦{fullShare} Vof Win c b)
      ⊢ (StableHlo.held (c : Thread nD τ) (Pipeline.ucRefs τ sig) (Wout14 Win a1 O c) : sProp 𝕄) := by
  have hjoin := Pipeline.unscopedBufs_of_arrays (p := ()) (fun (_ : Unit) => pcfg14 (F := F)) (fun _ => a1)
    (Ix := Unit) (Name := ℕ) (U := UD sig nD τ) (Lvl := ℕ)
    winFacts14 (launch14 (F := F)).arr_whole c (fun _ c => dat14 (Vof Win) a1 O c)
    ((dat14 (Vof Win) a1 O c).share_full fun _ => rfl)
    (Vof Win c) (Vof (Wout14 Win a1 O) c) ((dat14 (Vof Win) a1 O c).arrAt · (cfg14 a1).N)
    (fun w => (Wout14_arr Win a1 O c w).symm)
    (fun b hb => Wout14_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts14 c (Vof Win c),
    Pipeline.unscopedRestP_sdiff pre14 spec14 {main_v3} hx_sub14 c (Vof Win c),
    show (fun k => Vof Win c (pre14.ref k)) = a1.1 from funext ha1] at hjoin
  exact hjoin

end Record

section Seg

variable (Win : Dev nD → Valuation τ sig (Elt F))
  (adm : (p : Fin 49) → (pcfgs (F := F) p).Adm)
  (O : (c : Dev nD) → Fin (cfg14 (adm (14 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout14. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg14 (hd : ∀ c, pdats (14 : Fin 49) c = dat14 (Vof Win) (adm (14 : Fin 49)) O c)
    (ha1 : ∀ c k, Vof Win c (pre14.ref k) = (adm (14 : Fin 49)).1 k)
    (hbody : ∀ c, BodyObligation (dat14 (F := F) (Vof Win) (adm (14 : Fin 49)) O c) (defs₀ (F := F)) 𝒱₀ () Set.univ) :
    Pipeline.RegionSeg (pcfgs (F := F)) adm pdats () defs₀ 𝒱₀ L lv (14 : Fin 49) where
  win := (launch14 (F := F)).win.to₀
  block_pos := (launch14 (F := F)).block_pos
  stage_whole := (launch14 (F := F)).stage_whole
  K := Fin 8
  osem := osem14
  ho := ownSemFacts14
  hbody c := by rw [hd c]; exact (hbody c).loose
  hwaits := Pipeline.hwaits_of_owed_zero _ _ _ _ L lv (14 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout14 Win (adm (14 : Fin 49)) O c) ∗ R c)
  X c := iprop((∃ r, prngReg c r)
    ∗ Pipeline.ownSems0 (Ix := Unit) (Name := ℕ) (U := UD sig nD τ) (Lvl := ℕ) (Val := Elt F) (τ := τ) osem14 c
    ∗ (bigSep ({main_v3} : Finset (Ref sig .tc)) fun b => (((c : Thread nD τ)).loc b) ↦{fullShare} Vof Win c b))
  Y c := iprop((∃ r, prngReg c r)
    ∗ (bigSep ({main_v3} : Finset (Ref sig .tc)) fun b => (((c : Thread nD τ)).loc b) ↦{fullShare} Vof Win c b)
    ∗ Pipeline.prefHeld pre14 c (fun _ => fullShare) (adm (14 : Fin 49)).1)
  Z c := bigSep (Pipeline.restRefsP sig pre14 spec14 \ {main_v3}) fun b => (((c : Thread nD τ)).loc b) ↦{fullShare} Vof Win c b
  hentry c := by
    rw [hd c]
    iintro ⟨⟨Hub, Hp, HO⟩, Hos, -⟩
    ihave H := (entry14 Win (adm (14 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq14, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq14, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit14 Win (adm (14 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg14 (F := F)).Adm)

/-- The output block at point t: the gathered rows (of the far operand's contents under V, chosen by the table's
    words at that point) times the input block. -/
def outBlk14 (c : Dev nD) (t : Fin (cfg14 a1).N) : Vec F S8x64 .f32 :=
  gatherOut (gatherG (a1.1 0) (V c main_v3) (grid14.coords t)) (iblk14 V a1 c 0 t)

theorem outBlk_eq14 (c : Dev nD) (t : Fin (cfg14 a1).N) :
    outBlk14 V a1 c t = gatherOut (gatherG (a1.1 0) (V c main_v3) (grid14.coords t)) (iblk14 V a1 c 0 t) := rfl

/-- The proof data with the output block named: after the body at point t the output window's buffer holds it. -/
theorem afterOutBlk14 (c : Dev nD) (t : Fin (cfg14 a1).N) :
    (dat14 V a1 (outBlk14 V a1) c).after 1 t
      = gatherOut (gatherG (a1.1 0) (V c main_v3) (grid14.coords t)) (iblk14 V a1 c 0 t) :=
  afterOut14 V a1 (outBlk14 V a1) c t

/-- The own cells at zero are the semaphore array's eight entries at zero, in order. -/
theorem ownSems_eq14 (c : Dev nD) :
    (Pipeline.ownSems0 (Ix := Unit) (Name := ℕ) (U := UD sig nD τ) (Lvl := ℕ) (Val := Elt F) (τ := τ) osem14 c : sProp 𝕄)
      = gsems0 c cc14_scratch1 := by
  rw [Pipeline.ownSems0_eq_of_list c osem14 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq14 (t : Fin (cfg14 a1).N) : ∃ h3 h4, bodyProg14 (F := F) a1 t
    = cc14__gather_mul_kernel (grid14.coords t) (Memref.whole main_v57) (Memref.isWhole_whole _) (Memref.whole main_v3) (Memref.isWhole_whole _)
        (stg14 a1 0 t) h3 (stg14 a1 1 t) h4 (Memref.whole cc14_scratch0) (Memref.isWhole_whole _) cc14_scratch1 := ⟨_, _, rfl⟩

end Out

/-! ## The body's run, joined to the proof data -/

section Body

variable (V : (c : Dev nD) → (b : Ref sig .tc) → Buf (Elt F) ((c : Thread nD τ).loc b))
  (a1 : (pcfg14 (F := F)).Adm)

/-- The scratch buffer whole at some contents, as a memref owned at some contents. -/
theorem scratchOwns_eq14 (c : Dev nD) :
    (iprop(∃ d, owns (c : Thread nD τ) (Memref.whole cc14_scratch0) fullShare d) : sProp 𝕄)
      = iprop(∃ f : Buf (Elt F) ((c : Thread nD τ).loc cc14_scratch0), ((c : Thread nD τ).loc cc14_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun14 (hlt : ∀ y, BitVec.toNat ((a1.1 0) y) < 100000) : BodyRun14 V a1 (outBlk14 V a1) := by
  intro c t W K
  obtain ⟨h3, h4, hprog⟩ := bodyProg_eq14 (F := F) a1 t
  rw [hprog, ownSems_eq14, ← scratchOwns_eq14 (F := F) c]
  have hrun := gather_kernel_run_14 (F := F) c (grid14.coords t) (Memref.whole main_v57) (Memref.isWhole_whole _) (Memref.whole main_v3) (Memref.isWhole_whole _)
    (stg14 a1 0 t) h3 (stg14 a1 1 t) h4 (Memref.whole cc14_scratch0) (Memref.isWhole_whole _) cc14_scratch1 fullShare fullShare
    (a1.1 0) (V c main_v3) (iblk14 V a1 c 0 t) (fun y => hlt y) W K
  simp only [Memref.view_whole, View.read_whole] at hrun
  unfold outBlk14
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut14 (hlt : ∀ y, BitVec.toNat ((a1.1 0) y) < 100000) (c : Dev nD) :
    BodyObligation (dat14 (F := F) V a1 (outBlk14 V a1) c) (defs₀ (F := F)) Variants.none () Set.univ :=
  body_obligation14 V a1 (outBlk14 V a1) (bodyRun14 V a1 hlt) c

end Body

/-! # Region 15 -/

/-! ## The body's own transfer cells -/

/-- The eight cells of the body's semaphore array, in order. -/
abbrev osem15 : Fin 8 → SemLoc sig := fun j => SemLoc.dma (cc15_scratch1.ix (fun | ⟨0, _⟩ => j))

/-- They are scoped, pairwise distinct, and none is a staging cell of a window. -/
theorem ownSemFacts15 : Pipeline.OwnSemFacts spec15 osem15 := by decide

/-- The far operand is an unscoped buffer that is neither a window's array nor a table. -/
theorem hx_sub15 : ({main_v3} : Finset (Ref sig .tc)) ⊆ Pipeline.restRefsP sig pre15 spec15 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg15 (F := F)).Adm)
  (O : (c : Dev nD) → Fin (cfg15 a1).N → Vec F S8x64 .f32)

/-! ## The windows' blocks -/

/-- Window w's block at point t, read off its array under V. -/
def iblk15 (c : Dev nD) (w : Fin (cfg15 a1).W) (t : Fin (cfg15 a1).N) :
    (((cfg15 a1).win w).xblock ((cfg15 a1).grid.coords t)).Idx → Elt F ((cfg15 a1).win w).elt :=
  (((cfg15 a1).win w).blk t).view.read (Elt F) (V c (Pipeline.arrRef spec15 w))

/-- The input window's current staging buffer holds its block at every point, fetched there or not, for any proof
    data whose array is V's and whose body leaves the block in place: unfetched, the block index has not moved. -/
theorem beforeIn15_of {c : Dev nD} (dat : Dat τ (Elt F) Unit ℕ (UD sig nD τ) ℕ (cfg15 a1) c)
    (hA : dat.A 0 = V c (Pipeline.arrRef spec15 0))
    (hafter : ∀ t, dat.after 0 t = iblk15 V a1 c 0 t) (t : Fin (cfg15 a1).N) (d) : dat.before 0 t d = iblk15 V a1 c 0 t :=
  (dat.before_in_eq_fetched 0 rfl (fun _ => rfl) (fun _ _ _ => rfl)
    (fun t => by rw [hafter]; unfold Dat.blockOf iblk15; rw [hA]; try rfl) t d).trans
    (by unfold Dat.fetched Dat.blockOf iblk15; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat15 (c : Dev nD) : Dat τ (Elt F) Unit ℕ (UD sig nD τ) ℕ (cfg15 a1) c where
  A w := V c (Pipeline.arrRef spec15 w)
  after w t := match w with
    | ⟨0, _⟩ => iblk15 V a1 c 0 t
    | ⟨1, _⟩ => O c t
  Φ _ := iprop(Pipeline.ΦD osem15 spec15 {main_v3} V c ∗ Pipeline.prefHeld pre15 c (fun _ => fullShare) a1.1)
  q _ := fullShare
  owed _ := 0

theorem A_eq15 (c : Dev nD) (w : Fin (cfg15 a1).W) : (dat15 V a1 O c).A w = V c (Pipeline.arrRef spec15 w) := by
  dsimp only [dat15]

theorem afterIn15 (c : Dev nD) (t : Fin (cfg15 a1).N) : (dat15 V a1 O c).after 0 t = iblk15 V a1 c 0 t := by
  dsimp only [dat15]; rfl

theorem afterOut15 (c : Dev nD) (t : Fin (cfg15 a1).N) :
    (dat15 V a1 O c).after 1 t = O c t := by
  dsimp only [dat15]; rfl

theorem beforeIn15 (c : Dev nD) (t : Fin (cfg15 a1).N) (d) : (dat15 V a1 O c).before 0 t d = iblk15 V a1 c 0 t :=
  beforeIn15_of V a1 (dat15 V a1 O c) (A_eq15 V a1 O c 0) (afterIn15 V a1 O c) t d

theorem Phi_eq15 (c : Dev nD) (t : Fin ((cfg15 a1).N + 1)) :
    (dat15 V a1 O c).Φ t
      = iprop(Pipeline.ΦD osem15 spec15 {main_v3} V c ∗ Pipeline.prefHeld pre15 c (fun _ => fullShare) a1.1) := by
  dsimp only [dat15]

theorem owed_eq15 (c : Dev nD) (t : Fin ((cfg15 a1).N + 1)) : (dat15 V a1 O c).owed t = 0 := by
  dsimp only [dat15]

/-! ## The invariant, conjunct by conjunct -/

/-- The invariant's first part opened: the body's scratch buffer whole at some contents and the other scoped
    buffers no window stages, the generator register, the own cells at zero, the far operand at its contents. -/
theorem PhiD_eq15 (c : Dev nD) :
    (Pipeline.ΦD osem15 spec15 {main_v3} V c : sProp 𝕄)
      = iprop(iprop(iprop((∃ f : Buf (Elt F) ((c : Thread nD τ).loc cc15_scratch0), ((c : Thread nD τ).loc cc15_scratch0) ↦{fullShare} f))
            ∗ Pipeline.scopedRestBut (Ix := Unit) (Name := ℕ) (U := UD sig nD τ) (Lvl := ℕ) (Val := Elt F) spec15 c [cc15_scratch0])
          ∗ (∃ r, prngReg c r)
          ∗ Pipeline.ownSems0 (Ix := Unit) (Name := ℕ) (U := UD sig nD τ) (Lvl := ℕ) (Val := Elt F) (τ := τ) osem15 c
          ∗ (((c : Thread nD τ).loc main_v3) ↦{fullShare} V c main_v3)) := by
  rw [Pipeline.ΦD_eq, scopedRest15_split, BI.bigSep_eq_bigSepL_of_eq [main_v3] (by decide) (by decide)]; rfl

/-- The one table, held whole. -/
theorem prefHeld_eq15 (c : Dev nD) :
    (Pipeline.prefHeld pre15 c (fun _ => fullShare) a1.1 : sProp 𝕄)
      = (((c : Thread nD τ).loc main_v61) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg15 (w : Fin (cfg15 a1).W) (t : Fin (cfg15 a1).N) := ((cfg15 a1).win w).stage ((cfg15 a1).slots t w)

/-- The body as the pipeline calls it at point t. -/
abbrev bodyProg15 (t : Fin (cfg15 a1).N) : Prog (TpuEff nD τ sig (Elt F) Λ₀ .tc) PUnit :=
  (defs₀ (F := F)) .tc (cfg15 a1).body ((cfg15 a1).bodyArgs t ((cfg15 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun15 : Prop :=
  ∀ (c : Dev nD) (t : Fin (cfg15 a1).N) (W) (K : PUnit → sProp 𝕄),
    iprop(owns (c : Thread nD τ) (stg15 a1 0 t) fullShare (iblk15 V a1 c 0 t)
        ∗ (∃ d, owns (c : Thread nD τ) (stg15 a1 1 t) fullShare d)
        ∗ (∃ f : Buf (Elt F) ((c : Thread nD τ).loc cc15_scratch0), ((c : Thread nD τ).loc cc15_scratch0) ↦{fullShare} f)
        ∗ Pipeline.ownSems0 (Ix := Unit) (Name := ℕ) (U := UD sig nD τ) (Lvl := ℕ) (Val := Elt F) (τ := τ) osem15 c
        ∗ (((c : Thread nD τ).loc main_v61) ↦{fullShare} a1.1 0)
        ∗ (((c : Thread nD τ).loc main_v3) ↦{fullShare} V c main_v3)
        ∗ owes (c : Thread nD τ) (0 : CellTallies nD τ sig Unit) W
        ∗ (iprop(owns (c : Thread nD τ) (stg15 a1 0 t) fullShare (iblk15 V a1 c 0 t)
            ∗ owns (c : Thread nD τ) (stg15 a1 1 t) fullShare (O c t)
            ∗ (∃ f : Buf (Elt F) ((c : Thread nD τ).loc cc15_scratch0), ((c : Thread nD τ).loc cc15_scratch0) ↦{fullShare} f)
            ∗ Pipeline.ownSems0 (Ix := Unit) (Name := ℕ) (U := UD sig nD τ) (Lvl := ℕ) (Val := Elt F) (τ := τ) osem15 c
            ∗ (((c : Thread nD τ).loc main_v61) ↦{fullShare} a1.1 0)
            ∗ (((c : Thread nD τ).loc main_v3) ↦{fullShare} V c main_v3)
            ∗ (∃ W', owes (c : Thread nD τ) (0 : CellTallies nD τ sig Unit) W')) -∗ K ⟨⟩))
      ⊢ wp frame (wpE (defs₀ (F := F)) Variants.none c none) Set.univ (bodyProg15 a1 t) K

/-- What the body is called with at point t, the windows one by one, -/
def bodyPre15 (c : Dev nD) (t : Fin (cfg15 a1).N) : sProp 𝕄 :=
  iprop((dat15 V a1 O c).Φ t.castSucc ∗ (dat15 V a1 O c).owesAt () t.castSucc
    ∗ (∃ d, owns (c : Thread nD τ) (stg15 a1 0 t) fullShare ((dat15 V a1 O c).before 0 t d))
    ∗ (∃ d, owns (c : Thread nD τ) (stg15 a1 1 t) fullShare ((dat15 V a1 O c).before 1 t d)))

/-- and what it returns. -/
def bodyPost15 (c : Dev nD) (t : Fin (cfg15 a1).N) : sProp 𝕄 :=
  iprop((dat15 V a1 O c).Φ t.succ ∗ (dat15 V a1 O c).owesAt () t.succ
    ∗ owns (c : Thread nD τ) (stg15 a1 0 t) fullShare ((dat15 V a1 O c).after 0 t)
    ∗ owns (c : Thread nD τ) (stg15 a1 1 t) fullShare ((dat15 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body15 (hrun : BodyRun15 V a1 O) (c : Dev nD) (t : Fin (cfg15 a1).N) :
    bodyPre15 V a1 O c t
      ⊢ wp frame (wpE (defs₀ (F := F)) Variants.none c none) Set.univ (bodyProg15 a1 t) (fun _ => bodyPost15 V a1 O c t) := by
  unfold bodyPre15 bodyPost15
  simp only [beforeIn15]
  rw [afterIn15, afterOut15, Phi_eq15, Phi_eq15, PhiD_eq15, prefHeld_eq15]
  unfold Dat.owesAt Pipeline.owesWithin
  rw [owed_eq15, owed_eq15]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation15 (hrun : BodyRun15 V a1 O) (c : Dev nD) :
    BodyObligation (dat15 (F := F) V a1 O c) (defs₀ (F := F)) Variants.none () Set.univ := fun t => by
  rw [bigSep_W15, bigSep_W15]
  exact sound_body15 V a1 O hrun c t

end Data

/-! ## The region's record -/

section Record

variable (Win : Dev nD → Valuation τ sig (Elt F))

variable (a1 : (pcfg15 (F := F)).Adm)
  (O : (c : Dev nD) → Fin (cfg15 a1).N → Vec F S8x64 .f32)

/-- The buffers at the region's exit: its arrays at what the write-backs leave, every other buffer as entered. -/
def Wout15 (c : Dev nD) : Valuation τ sig (Elt F) :=
  Pipeline.withArrays spec15 c (Win c) fun w => (dat15 (Vof Win) a1 O c).arrAt w (cfg15 a1).N

theorem Wout15_arr (c : Dev nD) (w : Fin (cfg15 a1).W) :
    Wout15 Win a1 O c (Proc.devRef .tc (Pipeline.arrRef spec15 w)) = (dat15 (Vof Win) a1 O c).arrAt w (cfg15 a1).N := by
  unfold Wout15; exact Pipeline.withArrays_arr spec15 winFacts15.arr_inj c _ _ w

theorem Wout15_of_ne (c : Dev nD) (b : Ref sig .tc) (hb : ∀ w, Pipeline.arrRef spec15 w ≠ b) :
    Wout15 Win a1 O c (Proc.devRef .tc b) = Win c (Proc.devRef .tc b) := by
  unfold Wout15; exact Pipeline.withArrays_of_ne spec15 c _ _ b hb

/-- ENTRY, the buffers' part. Every unscoped buffer at Win is: the region's arrays at the proof data's entry contents,
    the table whole at the admissible contents (which are Win's there), the far operand whole, and the others. -/
theorem entry15 (c : Dev nD) (ha1 : ∀ k, Vof Win c (pre15.ref k) = a1.1 k) :
    (StableHlo.held (c : Thread nD τ) (Pipeline.ucRefs τ sig) (Win c) : sProp 𝕄)
      ⊢ iprop((dat15 (Vof Win) a1 O c).arrays ((dat15 (Vof Win) a1 O c).arrAt · 0)
          ∗ Pipeline.prefHeld pre15 c (fun _ => fullShare) a1.1
          ∗ (bigSep ({main_v3} : Finset (Ref sig .tc)) fun b => (((c : Thread nD τ)).loc b) ↦{fullShare} Vof Win c b)
          ∗ bigSep (Pipeline.restRefsP sig pre15 spec15 \ {main_v3}) fun b => (((c : Thread nD τ)).loc b) ↦{fullShare} Vof Win c b) := by
  have hsplit := Pipeline.arrays_of_unscopedBufs (p := ()) (fun (_ : Unit) => pcfg15 (F := F)) (fun _ => a1)
    (fun _ c => dat15 (Vof Win) a1 O c) winFacts15 (launch15 (F := F)).arr_whole c
    ((dat15 (Vof Win) a1 O c).share_full fun _ => rfl) (Vof Win c) (fun w => A_eq15 (Vof Win) a1 O c w)
  rw [Pipeline.unscopedBufs_held,
    Pipeline.unscopedRest_split (Ix := Unit) (Name := ℕ) (U := UD sig nD τ) (Lvl := ℕ) preFacts15 c (Vof Win c),
    Pipeline.unscopedRestP_sdiff pre15 spec15 {main_v3} hx_sub15 c (Vof Win c),
    show (fun k => Vof Win c (pre15.ref k)) = a1.1 from funext ha1] at hsplit
  exact hsplit

/-- EXIT, the buffers' part: the same four put back, the arrays at what the write-backs leave, are every unscoped
    buffer at the exit valuation. -/
theorem exit15 (c : Dev nD) (ha1 : ∀ k, Vof Win c (pre15.ref k) = a1.1 k) :
    iprop((dat15 (Vof Win) a1 O c).arrays ((dat15 (Vof Win) a1 O c).arrAt · (cfg15 a1).N)
        ∗ Pipeline.prefHeld pre15 c (fun _ => fullShare) a1.1
        ∗ (bigSep ({main_v3} : Finset (Ref sig .tc)) fun b => (((c : Thread nD τ)).loc b) ↦{fullShare} Vof Win c b)
        ∗ bigSep (Pipeline.restRefsP sig pre15 spec15 \ {main_v3}) fun b => (((c : Thread nD τ)).loc b) ↦{fullShare} Vof Win c b)
      ⊢ (StableHlo.held (c : Thread nD τ) (Pipeline.ucRefs τ sig) (Wout15 Win a1 O c) : sProp 𝕄) := by
  have hjoin := Pipeline.unscopedBufs_of_arrays (p := ()) (fun (_ : Unit) => pcfg15 (F := F)) (fun _ => a1)
    (Ix := Unit) (Name := ℕ) (U := UD sig nD τ) (Lvl := ℕ)
    winFacts15 (launch15 (F := F)).arr_whole c (fun _ c => dat15 (Vof Win) a1 O c)
    ((dat15 (Vof Win) a1 O c).share_full fun _ => rfl)
    (Vof Win c) (Vof (Wout15 Win a1 O) c) ((dat15 (Vof Win) a1 O c).arrAt · (cfg15 a1).N)
    (fun w => (Wout15_arr Win a1 O c w).symm)
    (fun b hb => Wout15_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts15 c (Vof Win c),
    Pipeline.unscopedRestP_sdiff pre15 spec15 {main_v3} hx_sub15 c (Vof Win c),
    show (fun k => Vof Win c (pre15.ref k)) = a1.1 from funext ha1] at hjoin
  exact hjoin

end Record

section Seg

variable (Win : Dev nD → Valuation τ sig (Elt F))
  (adm : (p : Fin 49) → (pcfgs (F := F) p).Adm)
  (O : (c : Dev nD) → Fin (cfg15 (adm (15 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout15. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg15 (hd : ∀ c, pdats (15 : Fin 49) c = dat15 (Vof Win) (adm (15 : Fin 49)) O c)
    (ha1 : ∀ c k, Vof Win c (pre15.ref k) = (adm (15 : Fin 49)).1 k)
    (hbody : ∀ c, BodyObligation (dat15 (F := F) (Vof Win) (adm (15 : Fin 49)) O c) (defs₀ (F := F)) 𝒱₀ () Set.univ) :
    Pipeline.RegionSeg (pcfgs (F := F)) adm pdats () defs₀ 𝒱₀ L lv (15 : Fin 49) where
  win := (launch15 (F := F)).win.to₀
  block_pos := (launch15 (F := F)).block_pos
  stage_whole := (launch15 (F := F)).stage_whole
  K := Fin 8
  osem := osem15
  ho := ownSemFacts15
  hbody c := by rw [hd c]; exact (hbody c).loose
  hwaits := Pipeline.hwaits_of_owed_zero _ _ _ _ L lv (15 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout15 Win (adm (15 : Fin 49)) O c) ∗ R c)
  X c := iprop((∃ r, prngReg c r)
    ∗ Pipeline.ownSems0 (Ix := Unit) (Name := ℕ) (U := UD sig nD τ) (Lvl := ℕ) (Val := Elt F) (τ := τ) osem15 c
    ∗ (bigSep ({main_v3} : Finset (Ref sig .tc)) fun b => (((c : Thread nD τ)).loc b) ↦{fullShare} Vof Win c b))
  Y c := iprop((∃ r, prngReg c r)
    ∗ (bigSep ({main_v3} : Finset (Ref sig .tc)) fun b => (((c : Thread nD τ)).loc b) ↦{fullShare} Vof Win c b)
    ∗ Pipeline.prefHeld pre15 c (fun _ => fullShare) (adm (15 : Fin 49)).1)
  Z c := bigSep (Pipeline.restRefsP sig pre15 spec15 \ {main_v3}) fun b => (((c : Thread nD τ)).loc b) ↦{fullShare} Vof Win c b
  hentry c := by
    rw [hd c]
    iintro ⟨⟨Hub, Hp, HO⟩, Hos, -⟩
    ihave H := (entry15 Win (adm (15 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq15, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq15, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit15 Win (adm (15 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg15 (F := F)).Adm)

/-- The output block at point t: the gathered rows (of the far operand's contents under V, chosen by the table's
    words at that point) times the input block. -/
def outBlk15 (c : Dev nD) (t : Fin (cfg15 a1).N) : Vec F S8x64 .f32 :=
  gatherOut (gatherG (a1.1 0) (V c main_v3) (grid15.coords t)) (iblk15 V a1 c 0 t)

theorem outBlk_eq15 (c : Dev nD) (t : Fin (cfg15 a1).N) :
    outBlk15 V a1 c t = gatherOut (gatherG (a1.1 0) (V c main_v3) (grid15.coords t)) (iblk15 V a1 c 0 t) := rfl

/-- The proof data with the output block named: after the body at point t the output window's buffer holds it. -/
theorem afterOutBlk15 (c : Dev nD) (t : Fin (cfg15 a1).N) :
    (dat15 V a1 (outBlk15 V a1) c).after 1 t
      = gatherOut (gatherG (a1.1 0) (V c main_v3) (grid15.coords t)) (iblk15 V a1 c 0 t) :=
  afterOut15 V a1 (outBlk15 V a1) c t

/-- The own cells at zero are the semaphore array's eight entries at zero, in order. -/
theorem ownSems_eq15 (c : Dev nD) :
    (Pipeline.ownSems0 (Ix := Unit) (Name := ℕ) (U := UD sig nD τ) (Lvl := ℕ) (Val := Elt F) (τ := τ) osem15 c : sProp 𝕄)
      = gsems0 c cc15_scratch1 := by
  rw [Pipeline.ownSems0_eq_of_list c osem15 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq15 (t : Fin (cfg15 a1).N) : ∃ h3 h4, bodyProg15 (F := F) a1 t
    = cc15__gather_mul_kernel (grid15.coords t) (Memref.whole main_v61) (Memref.isWhole_whole _) (Memref.whole main_v3) (Memref.isWhole_whole _)
        (stg15 a1 0 t) h3 (stg15 a1 1 t) h4 (Memref.whole cc15_scratch0) (Memref.isWhole_whole _) cc15_scratch1 := ⟨_, _, rfl⟩

end Out

/-! ## The body's run, joined to the proof data -/

section Body

variable (V : (c : Dev nD) → (b : Ref sig .tc) → Buf (Elt F) ((c : Thread nD τ).loc b))
  (a1 : (pcfg15 (F := F)).Adm)

/-- The scratch buffer whole at some contents, as a memref owned at some contents. -/
theorem scratchOwns_eq15 (c : Dev nD) :
    (iprop(∃ d, owns (c : Thread nD τ) (Memref.whole cc15_scratch0) fullShare d) : sProp 𝕄)
      = iprop(∃ f : Buf (Elt F) ((c : Thread nD τ).loc cc15_scratch0), ((c : Thread nD τ).loc cc15_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun15 (hlt : ∀ y, BitVec.toNat ((a1.1 0) y) < 100000) : BodyRun15 V a1 (outBlk15 V a1) := by
  intro c t W K
  obtain ⟨h3, h4, hprog⟩ := bodyProg_eq15 (F := F) a1 t
  rw [hprog, ownSems_eq15, ← scratchOwns_eq15 (F := F) c]
  have hrun := gather_kernel_run_15 (F := F) c (grid15.coords t) (Memref.whole main_v61) (Memref.isWhole_whole _) (Memref.whole main_v3) (Memref.isWhole_whole _)
    (stg15 a1 0 t) h3 (stg15 a1 1 t) h4 (Memref.whole cc15_scratch0) (Memref.isWhole_whole _) cc15_scratch1 fullShare fullShare
    (a1.1 0) (V c main_v3) (iblk15 V a1 c 0 t) (fun y => hlt y) W K
  simp only [Memref.view_whole, View.read_whole] at hrun
  unfold outBlk15
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut15 (hlt : ∀ y, BitVec.toNat ((a1.1 0) y) < 100000) (c : Dev nD) :
    BodyObligation (dat15 (F := F) V a1 (outBlk15 V a1) c) (defs₀ (F := F)) Variants.none () Set.univ :=
  body_obligation15 V a1 (outBlk15 V a1) (bodyRun15 V a1 hlt) c

end Body

/-! # Region 16 -/

/-! ## The body's own transfer cells -/

/-- The eight cells of the body's semaphore array, in order. -/
abbrev osem16 : Fin 8 → SemLoc sig := fun j => SemLoc.dma (cc16_scratch1.ix (fun | ⟨0, _⟩ => j))

/-- They are scoped, pairwise distinct, and none is a staging cell of a window. -/
theorem ownSemFacts16 : Pipeline.OwnSemFacts spec16 osem16 := by decide

/-- The far operand is an unscoped buffer that is neither a window's array nor a table. -/
theorem hx_sub16 : ({main_v3} : Finset (Ref sig .tc)) ⊆ Pipeline.restRefsP sig pre16 spec16 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg16 (F := F)).Adm)
  (O : (c : Dev nD) → Fin (cfg16 a1).N → Vec F S8x64 .f32)

/-! ## The windows' blocks -/

/-- Window w's block at point t, read off its array under V. -/
def iblk16 (c : Dev nD) (w : Fin (cfg16 a1).W) (t : Fin (cfg16 a1).N) :
    (((cfg16 a1).win w).xblock ((cfg16 a1).grid.coords t)).Idx → Elt F ((cfg16 a1).win w).elt :=
  (((cfg16 a1).win w).blk t).view.read (Elt F) (V c (Pipeline.arrRef spec16 w))

/-- The input window's current staging buffer holds its block at every point, fetched there or not, for any proof
    data whose array is V's and whose body leaves the block in place: unfetched, the block index has not moved. -/
theorem beforeIn16_of {c : Dev nD} (dat : Dat τ (Elt F) Unit ℕ (UD sig nD τ) ℕ (cfg16 a1) c)
    (hA : dat.A 0 = V c (Pipeline.arrRef spec16 0))
    (hafter : ∀ t, dat.after 0 t = iblk16 V a1 c 0 t) (t : Fin (cfg16 a1).N) (d) : dat.before 0 t d = iblk16 V a1 c 0 t :=
  (dat.before_in_eq_fetched 0 rfl (fun _ => rfl) (fun _ _ _ => rfl)
    (fun t => by rw [hafter]; unfold Dat.blockOf iblk16; rw [hA]; try rfl) t d).trans
    (by unfold Dat.fetched Dat.blockOf iblk16; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat16 (c : Dev nD) : Dat τ (Elt F) Unit ℕ (UD sig nD τ) ℕ (cfg16 a1) c where
  A w := V c (Pipeline.arrRef spec16 w)
  after w t := match w with
    | ⟨0, _⟩ => iblk16 V a1 c 0 t
    | ⟨1, _⟩ => O c t
  Φ _ := iprop(Pipeline.ΦD osem16 spec16 {main_v3} V c ∗ Pipeline.prefHeld pre16 c (fun _ => fullShare) a1.1)
  q _ := fullShare
  owed _ := 0

theorem A_eq16 (c : Dev nD) (w : Fin (cfg16 a1).W) : (dat16 V a1 O c).A w = V c (Pipeline.arrRef spec16 w) := by
  dsimp only [dat16]

theorem afterIn16 (c : Dev nD) (t : Fin (cfg16 a1).N) : (dat16 V a1 O c).after 0 t = iblk16 V a1 c 0 t := by
  dsimp only [dat16]; rfl

theorem afterOut16 (c : Dev nD) (t : Fin (cfg16 a1).N) :
    (dat16 V a1 O c).after 1 t = O c t := by
  dsimp only [dat16]; rfl

theorem beforeIn16 (c : Dev nD) (t : Fin (cfg16 a1).N) (d) : (dat16 V a1 O c).before 0 t d = iblk16 V a1 c 0 t :=
  beforeIn16_of V a1 (dat16 V a1 O c) (A_eq16 V a1 O c 0) (afterIn16 V a1 O c) t d

theorem Phi_eq16 (c : Dev nD) (t : Fin ((cfg16 a1).N + 1)) :
    (dat16 V a1 O c).Φ t
      = iprop(Pipeline.ΦD osem16 spec16 {main_v3} V c ∗ Pipeline.prefHeld pre16 c (fun _ => fullShare) a1.1) := by
  dsimp only [dat16]

theorem owed_eq16 (c : Dev nD) (t : Fin ((cfg16 a1).N + 1)) : (dat16 V a1 O c).owed t = 0 := by
  dsimp only [dat16]

/-! ## The invariant, conjunct by conjunct -/

/-- The invariant's first part opened: the body's scratch buffer whole at some contents and the other scoped
    buffers no window stages, the generator register, the own cells at zero, the far operand at its contents. -/
theorem PhiD_eq16 (c : Dev nD) :
    (Pipeline.ΦD osem16 spec16 {main_v3} V c : sProp 𝕄)
      = iprop(iprop(iprop((∃ f : Buf (Elt F) ((c : Thread nD τ).loc cc16_scratch0), ((c : Thread nD τ).loc cc16_scratch0) ↦{fullShare} f))
            ∗ Pipeline.scopedRestBut (Ix := Unit) (Name := ℕ) (U := UD sig nD τ) (Lvl := ℕ) (Val := Elt F) spec16 c [cc16_scratch0])
          ∗ (∃ r, prngReg c r)
          ∗ Pipeline.ownSems0 (Ix := Unit) (Name := ℕ) (U := UD sig nD τ) (Lvl := ℕ) (Val := Elt F) (τ := τ) osem16 c
          ∗ (((c : Thread nD τ).loc main_v3) ↦{fullShare} V c main_v3)) := by
  rw [Pipeline.ΦD_eq, scopedRest16_split, BI.bigSep_eq_bigSepL_of_eq [main_v3] (by decide) (by decide)]; rfl

/-- The one table, held whole. -/
theorem prefHeld_eq16 (c : Dev nD) :
    (Pipeline.prefHeld pre16 c (fun _ => fullShare) a1.1 : sProp 𝕄)
      = (((c : Thread nD τ).loc main_v65) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg16 (w : Fin (cfg16 a1).W) (t : Fin (cfg16 a1).N) := ((cfg16 a1).win w).stage ((cfg16 a1).slots t w)

/-- The body as the pipeline calls it at point t. -/
abbrev bodyProg16 (t : Fin (cfg16 a1).N) : Prog (TpuEff nD τ sig (Elt F) Λ₀ .tc) PUnit :=
  (defs₀ (F := F)) .tc (cfg16 a1).body ((cfg16 a1).bodyArgs t ((cfg16 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun16 : Prop :=
  ∀ (c : Dev nD) (t : Fin (cfg16 a1).N) (W) (K : PUnit → sProp 𝕄),
    iprop(owns (c : Thread nD τ) (stg16 a1 0 t) fullShare (iblk16 V a1 c 0 t)
        ∗ (∃ d, owns (c : Thread nD τ) (stg16 a1 1 t) fullShare d)
        ∗ (∃ f : Buf (Elt F) ((c : Thread nD τ).loc cc16_scratch0), ((c : Thread nD τ).loc cc16_scratch0) ↦{fullShare} f)
        ∗ Pipeline.ownSems0 (Ix := Unit) (Name := ℕ) (U := UD sig nD τ) (Lvl := ℕ) (Val := Elt F) (τ := τ) osem16 c
        ∗ (((c : Thread nD τ).loc main_v65) ↦{fullShare} a1.1 0)
        ∗ (((c : Thread nD τ).loc main_v3) ↦{fullShare} V c main_v3)
        ∗ owes (c : Thread nD τ) (0 : CellTallies nD τ sig Unit) W
        ∗ (iprop(owns (c : Thread nD τ) (stg16 a1 0 t) fullShare (iblk16 V a1 c 0 t)
            ∗ owns (c : Thread nD τ) (stg16 a1 1 t) fullShare (O c t)
            ∗ (∃ f : Buf (Elt F) ((c : Thread nD τ).loc cc16_scratch0), ((c : Thread nD τ).loc cc16_scratch0) ↦{fullShare} f)
            ∗ Pipeline.ownSems0 (Ix := Unit) (Name := ℕ) (U := UD sig nD τ) (Lvl := ℕ) (Val := Elt F) (τ := τ) osem16 c
            ∗ (((c : Thread nD τ).loc main_v65) ↦{fullShare} a1.1 0)
            ∗ (((c : Thread nD τ).loc main_v3) ↦{fullShare} V c main_v3)
            ∗ (∃ W', owes (c : Thread nD τ) (0 : CellTallies nD τ sig Unit) W')) -∗ K ⟨⟩))
      ⊢ wp frame (wpE (defs₀ (F := F)) Variants.none c none) Set.univ (bodyProg16 a1 t) K

/-- What the body is called with at point t, the windows one by one, -/
def bodyPre16 (c : Dev nD) (t : Fin (cfg16 a1).N) : sProp 𝕄 :=
  iprop((dat16 V a1 O c).Φ t.castSucc ∗ (dat16 V a1 O c).owesAt () t.castSucc
    ∗ (∃ d, owns (c : Thread nD τ) (stg16 a1 0 t) fullShare ((dat16 V a1 O c).before 0 t d))
    ∗ (∃ d, owns (c : Thread nD τ) (stg16 a1 1 t) fullShare ((dat16 V a1 O c).before 1 t d)))

/-- and what it returns. -/
def bodyPost16 (c : Dev nD) (t : Fin (cfg16 a1).N) : sProp 𝕄 :=
  iprop((dat16 V a1 O c).Φ t.succ ∗ (dat16 V a1 O c).owesAt () t.succ
    ∗ owns (c : Thread nD τ) (stg16 a1 0 t) fullShare ((dat16 V a1 O c).after 0 t)
    ∗ owns (c : Thread nD τ) (stg16 a1 1 t) fullShare ((dat16 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body16 (hrun : BodyRun16 V a1 O) (c : Dev nD) (t : Fin (cfg16 a1).N) :
    bodyPre16 V a1 O c t
      ⊢ wp frame (wpE (defs₀ (F := F)) Variants.none c none) Set.univ (bodyProg16 a1 t) (fun _ => bodyPost16 V a1 O c t) := by
  unfold bodyPre16 bodyPost16
  simp only [beforeIn16]
  rw [afterIn16, afterOut16, Phi_eq16, Phi_eq16, PhiD_eq16, prefHeld_eq16]
  unfold Dat.owesAt Pipeline.owesWithin
  rw [owed_eq16, owed_eq16]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation16 (hrun : BodyRun16 V a1 O) (c : Dev nD) :
    BodyObligation (dat16 (F := F) V a1 O c) (defs₀ (F := F)) Variants.none () Set.univ := fun t => by
  rw [bigSep_W16, bigSep_W16]
  exact sound_body16 V a1 O hrun c t

end Data

/-! ## The region's record -/

section Record

variable (Win : Dev nD → Valuation τ sig (Elt F))

variable (a1 : (pcfg16 (F := F)).Adm)
  (O : (c : Dev nD) → Fin (cfg16 a1).N → Vec F S8x64 .f32)

/-- The buffers at the region's exit: its arrays at what the write-backs leave, every other buffer as entered. -/
def Wout16 (c : Dev nD) : Valuation τ sig (Elt F) :=
  Pipeline.withArrays spec16 c (Win c) fun w => (dat16 (Vof Win) a1 O c).arrAt w (cfg16 a1).N

theorem Wout16_arr (c : Dev nD) (w : Fin (cfg16 a1).W) :
    Wout16 Win a1 O c (Proc.devRef .tc (Pipeline.arrRef spec16 w)) = (dat16 (Vof Win) a1 O c).arrAt w (cfg16 a1).N := by
  unfold Wout16; exact Pipeline.withArrays_arr spec16 winFacts16.arr_inj c _ _ w

theorem Wout16_of_ne (c : Dev nD) (b : Ref sig .tc) (hb : ∀ w, Pipeline.arrRef spec16 w ≠ b) :
    Wout16 Win a1 O c (Proc.devRef .tc b) = Win c (Proc.devRef .tc b) := by
  unfold Wout16; exact Pipeline.withArrays_of_ne spec16 c _ _ b hb

/-- ENTRY, the buffers' part. Every unscoped buffer at Win is: the region's arrays at the proof data's entry contents,
    the table whole at the admissible contents (which are Win's there), the far operand whole, and the others. -/
theorem entry16 (c : Dev nD) (ha1 : ∀ k, Vof Win c (pre16.ref k) = a1.1 k) :
    (StableHlo.held (c : Thread nD τ) (Pipeline.ucRefs τ sig) (Win c) : sProp 𝕄)
      ⊢ iprop((dat16 (Vof Win) a1 O c).arrays ((dat16 (Vof Win) a1 O c).arrAt · 0)
          ∗ Pipeline.prefHeld pre16 c (fun _ => fullShare) a1.1
          ∗ (bigSep ({main_v3} : Finset (Ref sig .tc)) fun b => (((c : Thread nD τ)).loc b) ↦{fullShare} Vof Win c b)
          ∗ bigSep (Pipeline.restRefsP sig pre16 spec16 \ {main_v3}) fun b => (((c : Thread nD τ)).loc b) ↦{fullShare} Vof Win c b) := by
  have hsplit := Pipeline.arrays_of_unscopedBufs (p := ()) (fun (_ : Unit) => pcfg16 (F := F)) (fun _ => a1)
    (fun _ c => dat16 (Vof Win) a1 O c) winFacts16 (launch16 (F := F)).arr_whole c
    ((dat16 (Vof Win) a1 O c).share_full fun _ => rfl) (Vof Win c) (fun w => A_eq16 (Vof Win) a1 O c w)
  rw [Pipeline.unscopedBufs_held,
    Pipeline.unscopedRest_split (Ix := Unit) (Name := ℕ) (U := UD sig nD τ) (Lvl := ℕ) preFacts16 c (Vof Win c),
    Pipeline.unscopedRestP_sdiff pre16 spec16 {main_v3} hx_sub16 c (Vof Win c),
    show (fun k => Vof Win c (pre16.ref k)) = a1.1 from funext ha1] at hsplit
  exact hsplit

/-- EXIT, the buffers' part: the same four put back, the arrays at what the write-backs leave, are every unscoped
    buffer at the exit valuation. -/
theorem exit16 (c : Dev nD) (ha1 : ∀ k, Vof Win c (pre16.ref k) = a1.1 k) :
    iprop((dat16 (Vof Win) a1 O c).arrays ((dat16 (Vof Win) a1 O c).arrAt · (cfg16 a1).N)
        ∗ Pipeline.prefHeld pre16 c (fun _ => fullShare) a1.1
        ∗ (bigSep ({main_v3} : Finset (Ref sig .tc)) fun b => (((c : Thread nD τ)).loc b) ↦{fullShare} Vof Win c b)
        ∗ bigSep (Pipeline.restRefsP sig pre16 spec16 \ {main_v3}) fun b => (((c : Thread nD τ)).loc b) ↦{fullShare} Vof Win c b)
      ⊢ (StableHlo.held (c : Thread nD τ) (Pipeline.ucRefs τ sig) (Wout16 Win a1 O c) : sProp 𝕄) := by
  have hjoin := Pipeline.unscopedBufs_of_arrays (p := ()) (fun (_ : Unit) => pcfg16 (F := F)) (fun _ => a1)
    (Ix := Unit) (Name := ℕ) (U := UD sig nD τ) (Lvl := ℕ)
    winFacts16 (launch16 (F := F)).arr_whole c (fun _ c => dat16 (Vof Win) a1 O c)
    ((dat16 (Vof Win) a1 O c).share_full fun _ => rfl)
    (Vof Win c) (Vof (Wout16 Win a1 O) c) ((dat16 (Vof Win) a1 O c).arrAt · (cfg16 a1).N)
    (fun w => (Wout16_arr Win a1 O c w).symm)
    (fun b hb => Wout16_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts16 c (Vof Win c),
    Pipeline.unscopedRestP_sdiff pre16 spec16 {main_v3} hx_sub16 c (Vof Win c),
    show (fun k => Vof Win c (pre16.ref k)) = a1.1 from funext ha1] at hjoin
  exact hjoin

end Record

section Seg

variable (Win : Dev nD → Valuation τ sig (Elt F))
  (adm : (p : Fin 49) → (pcfgs (F := F) p).Adm)
  (O : (c : Dev nD) → Fin (cfg16 (adm (16 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout16. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg16 (hd : ∀ c, pdats (16 : Fin 49) c = dat16 (Vof Win) (adm (16 : Fin 49)) O c)
    (ha1 : ∀ c k, Vof Win c (pre16.ref k) = (adm (16 : Fin 49)).1 k)
    (hbody : ∀ c, BodyObligation (dat16 (F := F) (Vof Win) (adm (16 : Fin 49)) O c) (defs₀ (F := F)) 𝒱₀ () Set.univ) :
    Pipeline.RegionSeg (pcfgs (F := F)) adm pdats () defs₀ 𝒱₀ L lv (16 : Fin 49) where
  win := (launch16 (F := F)).win.to₀
  block_pos := (launch16 (F := F)).block_pos
  stage_whole := (launch16 (F := F)).stage_whole
  K := Fin 8
  osem := osem16
  ho := ownSemFacts16
  hbody c := by rw [hd c]; exact (hbody c).loose
  hwaits := Pipeline.hwaits_of_owed_zero _ _ _ _ L lv (16 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout16 Win (adm (16 : Fin 49)) O c) ∗ R c)
  X c := iprop((∃ r, prngReg c r)
    ∗ Pipeline.ownSems0 (Ix := Unit) (Name := ℕ) (U := UD sig nD τ) (Lvl := ℕ) (Val := Elt F) (τ := τ) osem16 c
    ∗ (bigSep ({main_v3} : Finset (Ref sig .tc)) fun b => (((c : Thread nD τ)).loc b) ↦{fullShare} Vof Win c b))
  Y c := iprop((∃ r, prngReg c r)
    ∗ (bigSep ({main_v3} : Finset (Ref sig .tc)) fun b => (((c : Thread nD τ)).loc b) ↦{fullShare} Vof Win c b)
    ∗ Pipeline.prefHeld pre16 c (fun _ => fullShare) (adm (16 : Fin 49)).1)
  Z c := bigSep (Pipeline.restRefsP sig pre16 spec16 \ {main_v3}) fun b => (((c : Thread nD τ)).loc b) ↦{fullShare} Vof Win c b
  hentry c := by
    rw [hd c]
    iintro ⟨⟨Hub, Hp, HO⟩, Hos, -⟩
    ihave H := (entry16 Win (adm (16 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq16, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq16, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit16 Win (adm (16 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg16 (F := F)).Adm)

/-- The output block at point t: the gathered rows (of the far operand's contents under V, chosen by the table's
    words at that point) times the input block. -/
def outBlk16 (c : Dev nD) (t : Fin (cfg16 a1).N) : Vec F S8x64 .f32 :=
  gatherOut (gatherG (a1.1 0) (V c main_v3) (grid16.coords t)) (iblk16 V a1 c 0 t)

theorem outBlk_eq16 (c : Dev nD) (t : Fin (cfg16 a1).N) :
    outBlk16 V a1 c t = gatherOut (gatherG (a1.1 0) (V c main_v3) (grid16.coords t)) (iblk16 V a1 c 0 t) := rfl

/-- The proof data with the output block named: after the body at point t the output window's buffer holds it. -/
theorem afterOutBlk16 (c : Dev nD) (t : Fin (cfg16 a1).N) :
    (dat16 V a1 (outBlk16 V a1) c).after 1 t
      = gatherOut (gatherG (a1.1 0) (V c main_v3) (grid16.coords t)) (iblk16 V a1 c 0 t) :=
  afterOut16 V a1 (outBlk16 V a1) c t

/-- The own cells at zero are the semaphore array's eight entries at zero, in order. -/
theorem ownSems_eq16 (c : Dev nD) :
    (Pipeline.ownSems0 (Ix := Unit) (Name := ℕ) (U := UD sig nD τ) (Lvl := ℕ) (Val := Elt F) (τ := τ) osem16 c : sProp 𝕄)
      = gsems0 c cc16_scratch1 := by
  rw [Pipeline.ownSems0_eq_of_list c osem16 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq16 (t : Fin (cfg16 a1).N) : ∃ h3 h4, bodyProg16 (F := F) a1 t
    = cc16__gather_mul_kernel (grid16.coords t) (Memref.whole main_v65) (Memref.isWhole_whole _) (Memref.whole main_v3) (Memref.isWhole_whole _)
        (stg16 a1 0 t) h3 (stg16 a1 1 t) h4 (Memref.whole cc16_scratch0) (Memref.isWhole_whole _) cc16_scratch1 := ⟨_, _, rfl⟩

end Out

/-! ## The body's run, joined to the proof data -/

section Body

variable (V : (c : Dev nD) → (b : Ref sig .tc) → Buf (Elt F) ((c : Thread nD τ).loc b))
  (a1 : (pcfg16 (F := F)).Adm)

/-- The scratch buffer whole at some contents, as a memref owned at some contents. -/
theorem scratchOwns_eq16 (c : Dev nD) :
    (iprop(∃ d, owns (c : Thread nD τ) (Memref.whole cc16_scratch0) fullShare d) : sProp 𝕄)
      = iprop(∃ f : Buf (Elt F) ((c : Thread nD τ).loc cc16_scratch0), ((c : Thread nD τ).loc cc16_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun16 (hlt : ∀ y, BitVec.toNat ((a1.1 0) y) < 100000) : BodyRun16 V a1 (outBlk16 V a1) := by
  intro c t W K
  obtain ⟨h3, h4, hprog⟩ := bodyProg_eq16 (F := F) a1 t
  rw [hprog, ownSems_eq16, ← scratchOwns_eq16 (F := F) c]
  have hrun := gather_kernel_run_16 (F := F) c (grid16.coords t) (Memref.whole main_v65) (Memref.isWhole_whole _) (Memref.whole main_v3) (Memref.isWhole_whole _)
    (stg16 a1 0 t) h3 (stg16 a1 1 t) h4 (Memref.whole cc16_scratch0) (Memref.isWhole_whole _) cc16_scratch1 fullShare fullShare
    (a1.1 0) (V c main_v3) (iblk16 V a1 c 0 t) (fun y => hlt y) W K
  simp only [Memref.view_whole, View.read_whole] at hrun
  unfold outBlk16
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut16 (hlt : ∀ y, BitVec.toNat ((a1.1 0) y) < 100000) (c : Dev nD) :
    BodyObligation (dat16 (F := F) V a1 (outBlk16 V a1) c) (defs₀ (F := F)) Variants.none () Set.univ :=
  body_obligation16 V a1 (outBlk16 V a1) (bodyRun16 V a1 hlt) c

end Body

/-! # Region 17 -/

/-! ## The body's own transfer cells -/

/-- The eight cells of the body's semaphore array, in order. -/
abbrev osem17 : Fin 8 → SemLoc sig := fun j => SemLoc.dma (cc17_scratch1.ix (fun | ⟨0, _⟩ => j))

/-- They are scoped, pairwise distinct, and none is a staging cell of a window. -/
theorem ownSemFacts17 : Pipeline.OwnSemFacts spec17 osem17 := by decide

/-- The far operand is an unscoped buffer that is neither a window's array nor a table. -/
theorem hx_sub17 : ({main_v72} : Finset (Ref sig .tc)) ⊆ Pipeline.restRefsP sig pre17 spec17 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg17 (F := F)).Adm)
  (O : (c : Dev nD) → Fin (cfg17 a1).N → Vec F S8x64 .f32)

/-! ## The windows' blocks -/

/-- Window w's block at point t, read off its array under V. -/
def iblk17 (c : Dev nD) (w : Fin (cfg17 a1).W) (t : Fin (cfg17 a1).N) :
    (((cfg17 a1).win w).xblock ((cfg17 a1).grid.coords t)).Idx → Elt F ((cfg17 a1).win w).elt :=
  (((cfg17 a1).win w).blk t).view.read (Elt F) (V c (Pipeline.arrRef spec17 w))

/-- The input window's current staging buffer holds its block at every point, fetched there or not, for any proof
    data whose array is V's and whose body leaves the block in place: unfetched, the block index has not moved. -/
theorem beforeIn17_of {c : Dev nD} (dat : Dat τ (Elt F) Unit ℕ (UD sig nD τ) ℕ (cfg17 a1) c)
    (hA : dat.A 0 = V c (Pipeline.arrRef spec17 0))
    (hafter : ∀ t, dat.after 0 t = iblk17 V a1 c 0 t) (t : Fin (cfg17 a1).N) (d) : dat.before 0 t d = iblk17 V a1 c 0 t :=
  (dat.before_in_eq_fetched 0 rfl (fun _ => rfl) (fun _ _ _ => rfl)
    (fun t => by rw [hafter]; unfold Dat.blockOf iblk17; rw [hA]; try rfl) t d).trans
    (by unfold Dat.fetched Dat.blockOf iblk17; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat17 (c : Dev nD) : Dat τ (Elt F) Unit ℕ (UD sig nD τ) ℕ (cfg17 a1) c where
  A w := V c (Pipeline.arrRef spec17 w)
  after w t := match w with
    | ⟨0, _⟩ => iblk17 V a1 c 0 t
    | ⟨1, _⟩ => O c t
  Φ _ := iprop(Pipeline.ΦD osem17 spec17 {main_v72} V c ∗ Pipeline.prefHeld pre17 c (fun _ => fullShare) a1.1)
  q _ := fullShare
  owed _ := 0

theorem A_eq17 (c : Dev nD) (w : Fin (cfg17 a1).W) : (dat17 V a1 O c).A w = V c (Pipeline.arrRef spec17 w) := by
  dsimp only [dat17]

theorem afterIn17 (c : Dev nD) (t : Fin (cfg17 a1).N) : (dat17 V a1 O c).after 0 t = iblk17 V a1 c 0 t := by
  dsimp only [dat17]; rfl

theorem afterOut17 (c : Dev nD) (t : Fin (cfg17 a1).N) :
    (dat17 V a1 O c).after 1 t = O c t := by
  dsimp only [dat17]; rfl

theorem beforeIn17 (c : Dev nD) (t : Fin (cfg17 a1).N) (d) : (dat17 V a1 O c).before 0 t d = iblk17 V a1 c 0 t :=
  beforeIn17_of V a1 (dat17 V a1 O c) (A_eq17 V a1 O c 0) (afterIn17 V a1 O c) t d

theorem Phi_eq17 (c : Dev nD) (t : Fin ((cfg17 a1).N + 1)) :
    (dat17 V a1 O c).Φ t
      = iprop(Pipeline.ΦD osem17 spec17 {main_v72} V c ∗ Pipeline.prefHeld pre17 c (fun _ => fullShare) a1.1) := by
  dsimp only [dat17]

theorem owed_eq17 (c : Dev nD) (t : Fin ((cfg17 a1).N + 1)) : (dat17 V a1 O c).owed t = 0 := by
  dsimp only [dat17]

/-! ## The invariant, conjunct by conjunct -/

/-- The invariant's first part opened: the body's scratch buffer whole at some contents and the other scoped
    buffers no window stages, the generator register, the own cells at zero, the far operand at its contents. -/
theorem PhiD_eq17 (c : Dev nD) :
    (Pipeline.ΦD osem17 spec17 {main_v72} V c : sProp 𝕄)
      = iprop(iprop(iprop((∃ f : Buf (Elt F) ((c : Thread nD τ).loc cc17_scratch0), ((c : Thread nD τ).loc cc17_scratch0) ↦{fullShare} f))
            ∗ Pipeline.scopedRestBut (Ix := Unit) (Name := ℕ) (U := UD sig nD τ) (Lvl := ℕ) (Val := Elt F) spec17 c [cc17_scratch0])
          ∗ (∃ r, prngReg c r)
          ∗ Pipeline.ownSems0 (Ix := Unit) (Name := ℕ) (U := UD sig nD τ) (Lvl := ℕ) (Val := Elt F) (τ := τ) osem17 c
          ∗ (((c : Thread nD τ).loc main_v72) ↦{fullShare} V c main_v72)) := by
  rw [Pipeline.ΦD_eq, scopedRest17_split, BI.bigSep_eq_bigSepL_of_eq [main_v72] (by decide) (by decide)]; rfl

/-- The one table, held whole. -/
theorem prefHeld_eq17 (c : Dev nD) :
    (Pipeline.prefHeld pre17 c (fun _ => fullShare) a1.1 : sProp 𝕄)
      = (((c : Thread nD τ).loc main_v74) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg17 (w : Fin (cfg17 a1).W) (t : Fin (cfg17 a1).N) := ((cfg17 a1).win w).stage ((cfg17 a1).slots t w)

/-- The body as the pipeline calls it at point t. -/
abbrev bodyProg17 (t : Fin (cfg17 a1).N) : Prog (TpuEff nD τ sig (Elt F) Λ₀ .tc) PUnit :=
  (defs₀ (F := F)) .tc (cfg17 a1).body ((cfg17 a1).bodyArgs t ((cfg17 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun17 : Prop :=
  ∀ (c : Dev nD) (t : Fin (cfg17 a1).N) (W) (K : PUnit → sProp 𝕄),
    iprop(owns (c : Thread nD τ) (stg17 a1 0 t) fullShare (iblk17 V a1 c 0 t)
        ∗ (∃ d, owns (c : Thread nD τ) (stg17 a1 1 t) fullShare d)
        ∗ (∃ f : Buf (Elt F) ((c : Thread nD τ).loc cc17_scratch0), ((c : Thread nD τ).loc cc17_scratch0) ↦{fullShare} f)
        ∗ Pipeline.ownSems0 (Ix := Unit) (Name := ℕ) (U := UD sig nD τ) (Lvl := ℕ) (Val := Elt F) (τ := τ) osem17 c
        ∗ (((c : Thread nD τ).loc main_v74) ↦{fullShare} a1.1 0)
        ∗ (((c : Thread nD τ).loc main_v72) ↦{fullShare} V c main_v72)
        ∗ owes (c : Thread nD τ) (0 : CellTallies nD τ sig Unit) W
        ∗ (iprop(owns (c : Thread nD τ) (stg17 a1 0 t) fullShare (iblk17 V a1 c 0 t)
            ∗ owns (c : Thread nD τ) (stg17 a1 1 t) fullShare (O c t)
            ∗ (∃ f : Buf (Elt F) ((c : Thread nD τ).loc cc17_scratch0), ((c : Thread nD τ).loc cc17_scratch0) ↦{fullShare} f)
            ∗ Pipeline.ownSems0 (Ix := Unit) (Name := ℕ) (U := UD sig nD τ) (Lvl := ℕ) (Val := Elt F) (τ := τ) osem17 c
            ∗ (((c : Thread nD τ).loc main_v74) ↦{fullShare} a1.1 0)
            ∗ (((c : Thread nD τ).loc main_v72) ↦{fullShare} V c main_v72)
            ∗ (∃ W', owes (c : Thread nD τ) (0 : CellTallies nD τ sig Unit) W')) -∗ K ⟨⟩))
      ⊢ wp frame (wpE (defs₀ (F := F)) Variants.none c none) Set.univ (bodyProg17 a1 t) K

/-- What the body is called with at point t, the windows one by one, -/
def bodyPre17 (c : Dev nD) (t : Fin (cfg17 a1).N) : sProp 𝕄 :=
  iprop((dat17 V a1 O c).Φ t.castSucc ∗ (dat17 V a1 O c).owesAt () t.castSucc
    ∗ (∃ d, owns (c : Thread nD τ) (stg17 a1 0 t) fullShare ((dat17 V a1 O c).before 0 t d))
    ∗ (∃ d, owns (c : Thread nD τ) (stg17 a1 1 t) fullShare ((dat17 V a1 O c).before 1 t d)))

/-- and what it returns. -/
def bodyPost17 (c : Dev nD) (t : Fin (cfg17 a1).N) : sProp 𝕄 :=
  iprop((dat17 V a1 O c).Φ t.succ ∗ (dat17 V a1 O c).owesAt () t.succ
    ∗ owns (c : Thread nD τ) (stg17 a1 0 t) fullShare ((dat17 V a1 O c).after 0 t)
    ∗ owns (c : Thread nD τ) (stg17 a1 1 t) fullShare ((dat17 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body17 (hrun : BodyRun17 V a1 O) (c : Dev nD) (t : Fin (cfg17 a1).N) :
    bodyPre17 V a1 O c t
      ⊢ wp frame (wpE (defs₀ (F := F)) Variants.none c none) Set.univ (bodyProg17 a1 t) (fun _ => bodyPost17 V a1 O c t) := by
  unfold bodyPre17 bodyPost17
  simp only [beforeIn17]
  rw [afterIn17, afterOut17, Phi_eq17, Phi_eq17, PhiD_eq17, prefHeld_eq17]
  unfold Dat.owesAt Pipeline.owesWithin
  rw [owed_eq17, owed_eq17]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation17 (hrun : BodyRun17 V a1 O) (c : Dev nD) :
    BodyObligation (dat17 (F := F) V a1 O c) (defs₀ (F := F)) Variants.none () Set.univ := fun t => by
  rw [bigSep_W17, bigSep_W17]
  exact sound_body17 V a1 O hrun c t

end Data

/-! ## The region's record -/

section Record

variable (Win : Dev nD → Valuation τ sig (Elt F))

variable (a1 : (pcfg17 (F := F)).Adm)
  (O : (c : Dev nD) → Fin (cfg17 a1).N → Vec F S8x64 .f32)

/-- The buffers at the region's exit: its arrays at what the write-backs leave, every other buffer as entered. -/
def Wout17 (c : Dev nD) : Valuation τ sig (Elt F) :=
  Pipeline.withArrays spec17 c (Win c) fun w => (dat17 (Vof Win) a1 O c).arrAt w (cfg17 a1).N

theorem Wout17_arr (c : Dev nD) (w : Fin (cfg17 a1).W) :
    Wout17 Win a1 O c (Proc.devRef .tc (Pipeline.arrRef spec17 w)) = (dat17 (Vof Win) a1 O c).arrAt w (cfg17 a1).N := by
  unfold Wout17; exact Pipeline.withArrays_arr spec17 winFacts17.arr_inj c _ _ w

theorem Wout17_of_ne (c : Dev nD) (b : Ref sig .tc) (hb : ∀ w, Pipeline.arrRef spec17 w ≠ b) :
    Wout17 Win a1 O c (Proc.devRef .tc b) = Win c (Proc.devRef .tc b) := by
  unfold Wout17; exact Pipeline.withArrays_of_ne spec17 c _ _ b hb

/-- ENTRY, the buffers' part. Every unscoped buffer at Win is: the region's arrays at the proof data's entry contents,
    the table whole at the admissible contents (which are Win's there), the far operand whole, and the others. -/
theorem entry17 (c : Dev nD) (ha1 : ∀ k, Vof Win c (pre17.ref k) = a1.1 k) :
    (StableHlo.held (c : Thread nD τ) (Pipeline.ucRefs τ sig) (Win c) : sProp 𝕄)
      ⊢ iprop((dat17 (Vof Win) a1 O c).arrays ((dat17 (Vof Win) a1 O c).arrAt · 0)
          ∗ Pipeline.prefHeld pre17 c (fun _ => fullShare) a1.1
          ∗ (bigSep ({main_v72} : Finset (Ref sig .tc)) fun b => (((c : Thread nD τ)).loc b) ↦{fullShare} Vof Win c b)
          ∗ bigSep (Pipeline.restRefsP sig pre17 spec17 \ {main_v72}) fun b => (((c : Thread nD τ)).loc b) ↦{fullShare} Vof Win c b) := by
  have hsplit := Pipeline.arrays_of_unscopedBufs (p := ()) (fun (_ : Unit) => pcfg17 (F := F)) (fun _ => a1)
    (fun _ c => dat17 (Vof Win) a1 O c) winFacts17 (launch17 (F := F)).arr_whole c
    ((dat17 (Vof Win) a1 O c).share_full fun _ => rfl) (Vof Win c) (fun w => A_eq17 (Vof Win) a1 O c w)
  rw [Pipeline.unscopedBufs_held,
    Pipeline.unscopedRest_split (Ix := Unit) (Name := ℕ) (U := UD sig nD τ) (Lvl := ℕ) preFacts17 c (Vof Win c),
    Pipeline.unscopedRestP_sdiff pre17 spec17 {main_v72} hx_sub17 c (Vof Win c),
    show (fun k => Vof Win c (pre17.ref k)) = a1.1 from funext ha1] at hsplit
  exact hsplit

/-- EXIT, the buffers' part: the same four put back, the arrays at what the write-backs leave, are every unscoped
    buffer at the exit valuation. -/
theorem exit17 (c : Dev nD) (ha1 : ∀ k, Vof Win c (pre17.ref k) = a1.1 k) :
    iprop((dat17 (Vof Win) a1 O c).arrays ((dat17 (Vof Win) a1 O c).arrAt · (cfg17 a1).N)
        ∗ Pipeline.prefHeld pre17 c (fun _ => fullShare) a1.1
        ∗ (bigSep ({main_v72} : Finset (Ref sig .tc)) fun b => (((c : Thread nD τ)).loc b) ↦{fullShare} Vof Win c b)
        ∗ bigSep (Pipeline.restRefsP sig pre17 spec17 \ {main_v72}) fun b => (((c : Thread nD τ)).loc b) ↦{fullShare} Vof Win c b)
      ⊢ (StableHlo.held (c : Thread nD τ) (Pipeline.ucRefs τ sig) (Wout17 Win a1 O c) : sProp 𝕄) := by
  have hjoin := Pipeline.unscopedBufs_of_arrays (p := ()) (fun (_ : Unit) => pcfg17 (F := F)) (fun _ => a1)
    (Ix := Unit) (Name := ℕ) (U := UD sig nD τ) (Lvl := ℕ)
    winFacts17 (launch17 (F := F)).arr_whole c (fun _ c => dat17 (Vof Win) a1 O c)
    ((dat17 (Vof Win) a1 O c).share_full fun _ => rfl)
    (Vof Win c) (Vof (Wout17 Win a1 O) c) ((dat17 (Vof Win) a1 O c).arrAt · (cfg17 a1).N)
    (fun w => (Wout17_arr Win a1 O c w).symm)
    (fun b hb => Wout17_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts17 c (Vof Win c),
    Pipeline.unscopedRestP_sdiff pre17 spec17 {main_v72} hx_sub17 c (Vof Win c),
    show (fun k => Vof Win c (pre17.ref k)) = a1.1 from funext ha1] at hjoin
  exact hjoin

end Record

section Seg

variable (Win : Dev nD → Valuation τ sig (Elt F))
  (adm : (p : Fin 49) → (pcfgs (F := F) p).Adm)
  (O : (c : Dev nD) → Fin (cfg17 (adm (17 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout17. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg17 (hd : ∀ c, pdats (17 : Fin 49) c = dat17 (Vof Win) (adm (17 : Fin 49)) O c)
    (ha1 : ∀ c k, Vof Win c (pre17.ref k) = (adm (17 : Fin 49)).1 k)
    (hbody : ∀ c, BodyObligation (dat17 (F := F) (Vof Win) (adm (17 : Fin 49)) O c) (defs₀ (F := F)) 𝒱₀ () Set.univ) :
    Pipeline.RegionSeg (pcfgs (F := F)) adm pdats () defs₀ 𝒱₀ L lv (17 : Fin 49) where
  win := (launch17 (F := F)).win.to₀
  block_pos := (launch17 (F := F)).block_pos
  stage_whole := (launch17 (F := F)).stage_whole
  K := Fin 8
  osem := osem17
  ho := ownSemFacts17
  hbody c := by rw [hd c]; exact (hbody c).loose
  hwaits := Pipeline.hwaits_of_owed_zero _ _ _ _ L lv (17 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout17 Win (adm (17 : Fin 49)) O c) ∗ R c)
  X c := iprop((∃ r, prngReg c r)
    ∗ Pipeline.ownSems0 (Ix := Unit) (Name := ℕ) (U := UD sig nD τ) (Lvl := ℕ) (Val := Elt F) (τ := τ) osem17 c
    ∗ (bigSep ({main_v72} : Finset (Ref sig .tc)) fun b => (((c : Thread nD τ)).loc b) ↦{fullShare} Vof Win c b))
  Y c := iprop((∃ r, prngReg c r)
    ∗ (bigSep ({main_v72} : Finset (Ref sig .tc)) fun b => (((c : Thread nD τ)).loc b) ↦{fullShare} Vof Win c b)
    ∗ Pipeline.prefHeld pre17 c (fun _ => fullShare) (adm (17 : Fin 49)).1)
  Z c := bigSep (Pipeline.restRefsP sig pre17 spec17 \ {main_v72}) fun b => (((c : Thread nD τ)).loc b) ↦{fullShare} Vof Win c b
  hentry c := by
    rw [hd c]
    iintro ⟨⟨Hub, Hp, HO⟩, Hos, -⟩
    ihave H := (entry17 Win (adm (17 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq17, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq17, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit17 Win (adm (17 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg17 (F := F)).Adm)

/-- The output block at point t: the gathered rows (of the far operand's contents under V, chosen by the table's
    words at that point) times the input block. -/
def outBlk17 (c : Dev nD) (t : Fin (cfg17 a1).N) : Vec F S8x64 .f32 :=
  gatherOut (gatherG (a1.1 0) (V c main_v72) (grid17.coords t)) (iblk17 V a1 c 0 t)

theorem outBlk_eq17 (c : Dev nD) (t : Fin (cfg17 a1).N) :
    outBlk17 V a1 c t = gatherOut (gatherG (a1.1 0) (V c main_v72) (grid17.coords t)) (iblk17 V a1 c 0 t) := rfl

/-- The proof data with the output block named: after the body at point t the output window's buffer holds it. -/
theorem afterOutBlk17 (c : Dev nD) (t : Fin (cfg17 a1).N) :
    (dat17 V a1 (outBlk17 V a1) c).after 1 t
      = gatherOut (gatherG (a1.1 0) (V c main_v72) (grid17.coords t)) (iblk17 V a1 c 0 t) :=
  afterOut17 V a1 (outBlk17 V a1) c t

/-- The own cells at zero are the semaphore array's eight entries at zero, in order. -/
theorem ownSems_eq17 (c : Dev nD) :
    (Pipeline.ownSems0 (Ix := Unit) (Name := ℕ) (U := UD sig nD τ) (Lvl := ℕ) (Val := Elt F) (τ := τ) osem17 c : sProp 𝕄)
      = gsems0 c cc17_scratch1 := by
  rw [Pipeline.ownSems0_eq_of_list c osem17 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq17 (t : Fin (cfg17 a1).N) : ∃ h3 h4, bodyProg17 (F := F) a1 t
    = cc17__gather_mul_kernel (grid17.coords t) (Memref.whole main_v74) (Memref.isWhole_whole _) (Memref.whole main_v72) (Memref.isWhole_whole _)
        (stg17 a1 0 t) h3 (stg17 a1 1 t) h4 (Memref.whole cc17_scratch0) (Memref.isWhole_whole _) cc17_scratch1 := ⟨_, _, rfl⟩

end Out

/-! ## The body's run, joined to the proof data -/

section Body

variable (V : (c : Dev nD) → (b : Ref sig .tc) → Buf (Elt F) ((c : Thread nD τ).loc b))
  (a1 : (pcfg17 (F := F)).Adm)

/-- The scratch buffer whole at some contents, as a memref owned at some contents. -/
theorem scratchOwns_eq17 (c : Dev nD) :
    (iprop(∃ d, owns (c : Thread nD τ) (Memref.whole cc17_scratch0) fullShare d) : sProp 𝕄)
      = iprop(∃ f : Buf (Elt F) ((c : Thread nD τ).loc cc17_scratch0), ((c : Thread nD τ).loc cc17_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun17 (hlt : ∀ y, BitVec.toNat ((a1.1 0) y) < 100000) : BodyRun17 V a1 (outBlk17 V a1) := by
  intro c t W K
  obtain ⟨h3, h4, hprog⟩ := bodyProg_eq17 (F := F) a1 t
  rw [hprog, ownSems_eq17, ← scratchOwns_eq17 (F := F) c]
  have hrun := gather_kernel_run_17 (F := F) c (grid17.coords t) (Memref.whole main_v74) (Memref.isWhole_whole _) (Memref.whole main_v72) (Memref.isWhole_whole _)
    (stg17 a1 0 t) h3 (stg17 a1 1 t) h4 (Memref.whole cc17_scratch0) (Memref.isWhole_whole _) cc17_scratch1 fullShare fullShare
    (a1.1 0) (V c main_v72) (iblk17 V a1 c 0 t) (fun y => hlt y) W K
  simp only [Memref.view_whole, View.read_whole] at hrun
  unfold outBlk17
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut17 (hlt : ∀ y, BitVec.toNat ((a1.1 0) y) < 100000) (c : Dev nD) :
    BodyObligation (dat17 (F := F) V a1 (outBlk17 V a1) c) (defs₀ (F := F)) Variants.none () Set.univ :=
  body_obligation17 V a1 (outBlk17 V a1) (bodyRun17 V a1 hlt) c

end Body

end Cert.KernelIdeal.Hand

end
-- ==== Proof.KI.Regions_18_25.lean ====
/-
  Gather regions 18 to 25 of the host program, one after the other: for each, the proof data, the body obligation and the record of the region in the launch,
  exactly as for region 1 (whose module says what each part is).
-/
import proofs.«421643_j28415503630349_2_alg».proof.Proof.KI.Common
import proofs.«421643_j28415503630349_2_alg».proof.Proof.KI.BodyEq
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

/-! # Region 18 -/

/-! ## The body's own transfer cells -/

/-- The eight cells of the body's semaphore array, in order. -/
abbrev osem18 : Fin 8 → SemLoc sig := fun j => SemLoc.dma (cc18_scratch1.ix (fun | ⟨0, _⟩ => j))

/-- They are scoped, pairwise distinct, and none is a staging cell of a window. -/
theorem ownSemFacts18 : Pipeline.OwnSemFacts spec18 osem18 := by decide

/-- The far operand is an unscoped buffer that is neither a window's array nor a table. -/
theorem hx_sub18 : ({main_v72} : Finset (Ref sig .tc)) ⊆ Pipeline.restRefsP sig pre18 spec18 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg18 (F := F)).Adm)
  (O : (c : Dev nD) → Fin (cfg18 a1).N → Vec F S8x64 .f32)

/-! ## The windows' blocks -/

/-- Window w's block at point t, read off its array under V. -/
def iblk18 (c : Dev nD) (w : Fin (cfg18 a1).W) (t : Fin (cfg18 a1).N) :
    (((cfg18 a1).win w).xblock ((cfg18 a1).grid.coords t)).Idx → Elt F ((cfg18 a1).win w).elt :=
  (((cfg18 a1).win w).blk t).view.read (Elt F) (V c (Pipeline.arrRef spec18 w))

/-- The input window's current staging buffer holds its block at every point, fetched there or not, for any proof
    data whose array is V's and whose body leaves the block in place: unfetched, the block index has not moved. -/
theorem beforeIn18_of {c : Dev nD} (dat : Dat τ (Elt F) Unit ℕ (UD sig nD τ) ℕ (cfg18 a1) c)
    (hA : dat.A 0 = V c (Pipeline.arrRef spec18 0))
    (hafter : ∀ t, dat.after 0 t = iblk18 V a1 c 0 t) (t : Fin (cfg18 a1).N) (d) : dat.before 0 t d = iblk18 V a1 c 0 t :=
  (dat.before_in_eq_fetched 0 rfl (fun _ => rfl) (fun _ _ _ => rfl)
    (fun t => by rw [hafter]; unfold Dat.blockOf iblk18; rw [hA]; try rfl) t d).trans
    (by unfold Dat.fetched Dat.blockOf iblk18; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat18 (c : Dev nD) : Dat τ (Elt F) Unit ℕ (UD sig nD τ) ℕ (cfg18 a1) c where
  A w := V c (Pipeline.arrRef spec18 w)
  after w t := match w with
    | ⟨0, _⟩ => iblk18 V a1 c 0 t
    | ⟨1, _⟩ => O c t
  Φ _ := iprop(Pipeline.ΦD osem18 spec18 {main_v72} V c ∗ Pipeline.prefHeld pre18 c (fun _ => fullShare) a1.1)
  q _ := fullShare
  owed _ := 0

theorem A_eq18 (c : Dev nD) (w : Fin (cfg18 a1).W) : (dat18 V a1 O c).A w = V c (Pipeline.arrRef spec18 w) := by
  dsimp only [dat18]

theorem afterIn18 (c : Dev nD) (t : Fin (cfg18 a1).N) : (dat18 V a1 O c).after 0 t = iblk18 V a1 c 0 t := by
  dsimp only [dat18]; rfl

theorem afterOut18 (c : Dev nD) (t : Fin (cfg18 a1).N) :
    (dat18 V a1 O c).after 1 t = O c t := by
  dsimp only [dat18]; rfl

theorem beforeIn18 (c : Dev nD) (t : Fin (cfg18 a1).N) (d) : (dat18 V a1 O c).before 0 t d = iblk18 V a1 c 0 t :=
  beforeIn18_of V a1 (dat18 V a1 O c) (A_eq18 V a1 O c 0) (afterIn18 V a1 O c) t d

theorem Phi_eq18 (c : Dev nD) (t : Fin ((cfg18 a1).N + 1)) :
    (dat18 V a1 O c).Φ t
      = iprop(Pipeline.ΦD osem18 spec18 {main_v72} V c ∗ Pipeline.prefHeld pre18 c (fun _ => fullShare) a1.1) := by
  dsimp only [dat18]

theorem owed_eq18 (c : Dev nD) (t : Fin ((cfg18 a1).N + 1)) : (dat18 V a1 O c).owed t = 0 := by
  dsimp only [dat18]

/-! ## The invariant, conjunct by conjunct -/

/-- The invariant's first part opened: the body's scratch buffer whole at some contents and the other scoped
    buffers no window stages, the generator register, the own cells at zero, the far operand at its contents. -/
theorem PhiD_eq18 (c : Dev nD) :
    (Pipeline.ΦD osem18 spec18 {main_v72} V c : sProp 𝕄)
      = iprop(iprop(iprop((∃ f : Buf (Elt F) ((c : Thread nD τ).loc cc18_scratch0), ((c : Thread nD τ).loc cc18_scratch0) ↦{fullShare} f))
            ∗ Pipeline.scopedRestBut (Ix := Unit) (Name := ℕ) (U := UD sig nD τ) (Lvl := ℕ) (Val := Elt F) spec18 c [cc18_scratch0])
          ∗ (∃ r, prngReg c r)
          ∗ Pipeline.ownSems0 (Ix := Unit) (Name := ℕ) (U := UD sig nD τ) (Lvl := ℕ) (Val := Elt F) (τ := τ) osem18 c
          ∗ (((c : Thread nD τ).loc main_v72) ↦{fullShare} V c main_v72)) := by
  rw [Pipeline.ΦD_eq, scopedRest18_split, BI.bigSep_eq_bigSepL_of_eq [main_v72] (by decide) (by decide)]; rfl

/-- The one table, held whole. -/
theorem prefHeld_eq18 (c : Dev nD) :
    (Pipeline.prefHeld pre18 c (fun _ => fullShare) a1.1 : sProp 𝕄)
      = (((c : Thread nD τ).loc main_v78) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg18 (w : Fin (cfg18 a1).W) (t : Fin (cfg18 a1).N) := ((cfg18 a1).win w).stage ((cfg18 a1).slots t w)

/-- The body as the pipeline calls it at point t. -/
abbrev bodyProg18 (t : Fin (cfg18 a1).N) : Prog (TpuEff nD τ sig (Elt F) Λ₀ .tc) PUnit :=
  (defs₀ (F := F)) .tc (cfg18 a1).body ((cfg18 a1).bodyArgs t ((cfg18 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun18 : Prop :=
  ∀ (c : Dev nD) (t : Fin (cfg18 a1).N) (W) (K : PUnit → sProp 𝕄),
    iprop(owns (c : Thread nD τ) (stg18 a1 0 t) fullShare (iblk18 V a1 c 0 t)
        ∗ (∃ d, owns (c : Thread nD τ) (stg18 a1 1 t) fullShare d)
        ∗ (∃ f : Buf (Elt F) ((c : Thread nD τ).loc cc18_scratch0), ((c : Thread nD τ).loc cc18_scratch0) ↦{fullShare} f)
        ∗ Pipeline.ownSems0 (Ix := Unit) (Name := ℕ) (U := UD sig nD τ) (Lvl := ℕ) (Val := Elt F) (τ := τ) osem18 c
        ∗ (((c : Thread nD τ).loc main_v78) ↦{fullShare} a1.1 0)
        ∗ (((c : Thread nD τ).loc main_v72) ↦{fullShare} V c main_v72)
        ∗ owes (c : Thread nD τ) (0 : CellTallies nD τ sig Unit) W
        ∗ (iprop(owns (c : Thread nD τ) (stg18 a1 0 t) fullShare (iblk18 V a1 c 0 t)
            ∗ owns (c : Thread nD τ) (stg18 a1 1 t) fullShare (O c t)
            ∗ (∃ f : Buf (Elt F) ((c : Thread nD τ).loc cc18_scratch0), ((c : Thread nD τ).loc cc18_scratch0) ↦{fullShare} f)
            ∗ Pipeline.ownSems0 (Ix := Unit) (Name := ℕ) (U := UD sig nD τ) (Lvl := ℕ) (Val := Elt F) (τ := τ) osem18 c
            ∗ (((c : Thread nD τ).loc main_v78) ↦{fullShare} a1.1 0)
            ∗ (((c : Thread nD τ).loc main_v72) ↦{fullShare} V c main_v72)
            ∗ (∃ W', owes (c : Thread nD τ) (0 : CellTallies nD τ sig Unit) W')) -∗ K ⟨⟩))
      ⊢ wp frame (wpE (defs₀ (F := F)) Variants.none c none) Set.univ (bodyProg18 a1 t) K

/-- What the body is called with at point t, the windows one by one, -/
def bodyPre18 (c : Dev nD) (t : Fin (cfg18 a1).N) : sProp 𝕄 :=
  iprop((dat18 V a1 O c).Φ t.castSucc ∗ (dat18 V a1 O c).owesAt () t.castSucc
    ∗ (∃ d, owns (c : Thread nD τ) (stg18 a1 0 t) fullShare ((dat18 V a1 O c).before 0 t d))
    ∗ (∃ d, owns (c : Thread nD τ) (stg18 a1 1 t) fullShare ((dat18 V a1 O c).before 1 t d)))

/-- and what it returns. -/
def bodyPost18 (c : Dev nD) (t : Fin (cfg18 a1).N) : sProp 𝕄 :=
  iprop((dat18 V a1 O c).Φ t.succ ∗ (dat18 V a1 O c).owesAt () t.succ
    ∗ owns (c : Thread nD τ) (stg18 a1 0 t) fullShare ((dat18 V a1 O c).after 0 t)
    ∗ owns (c : Thread nD τ) (stg18 a1 1 t) fullShare ((dat18 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body18 (hrun : BodyRun18 V a1 O) (c : Dev nD) (t : Fin (cfg18 a1).N) :
    bodyPre18 V a1 O c t
      ⊢ wp frame (wpE (defs₀ (F := F)) Variants.none c none) Set.univ (bodyProg18 a1 t) (fun _ => bodyPost18 V a1 O c t) := by
  unfold bodyPre18 bodyPost18
  simp only [beforeIn18]
  rw [afterIn18, afterOut18, Phi_eq18, Phi_eq18, PhiD_eq18, prefHeld_eq18]
  unfold Dat.owesAt Pipeline.owesWithin
  rw [owed_eq18, owed_eq18]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation18 (hrun : BodyRun18 V a1 O) (c : Dev nD) :
    BodyObligation (dat18 (F := F) V a1 O c) (defs₀ (F := F)) Variants.none () Set.univ := fun t => by
  rw [bigSep_W18, bigSep_W18]
  exact sound_body18 V a1 O hrun c t

end Data

/-! ## The region's record -/

section Record

variable (Win : Dev nD → Valuation τ sig (Elt F))

variable (a1 : (pcfg18 (F := F)).Adm)
  (O : (c : Dev nD) → Fin (cfg18 a1).N → Vec F S8x64 .f32)

/-- The buffers at the region's exit: its arrays at what the write-backs leave, every other buffer as entered. -/
def Wout18 (c : Dev nD) : Valuation τ sig (Elt F) :=
  Pipeline.withArrays spec18 c (Win c) fun w => (dat18 (Vof Win) a1 O c).arrAt w (cfg18 a1).N

theorem Wout18_arr (c : Dev nD) (w : Fin (cfg18 a1).W) :
    Wout18 Win a1 O c (Proc.devRef .tc (Pipeline.arrRef spec18 w)) = (dat18 (Vof Win) a1 O c).arrAt w (cfg18 a1).N := by
  unfold Wout18; exact Pipeline.withArrays_arr spec18 winFacts18.arr_inj c _ _ w

theorem Wout18_of_ne (c : Dev nD) (b : Ref sig .tc) (hb : ∀ w, Pipeline.arrRef spec18 w ≠ b) :
    Wout18 Win a1 O c (Proc.devRef .tc b) = Win c (Proc.devRef .tc b) := by
  unfold Wout18; exact Pipeline.withArrays_of_ne spec18 c _ _ b hb

/-- ENTRY, the buffers' part. Every unscoped buffer at Win is: the region's arrays at the proof data's entry contents,
    the table whole at the admissible contents (which are Win's there), the far operand whole, and the others. -/
theorem entry18 (c : Dev nD) (ha1 : ∀ k, Vof Win c (pre18.ref k) = a1.1 k) :
    (StableHlo.held (c : Thread nD τ) (Pipeline.ucRefs τ sig) (Win c) : sProp 𝕄)
      ⊢ iprop((dat18 (Vof Win) a1 O c).arrays ((dat18 (Vof Win) a1 O c).arrAt · 0)
          ∗ Pipeline.prefHeld pre18 c (fun _ => fullShare) a1.1
          ∗ (bigSep ({main_v72} : Finset (Ref sig .tc)) fun b => (((c : Thread nD τ)).loc b) ↦{fullShare} Vof Win c b)
          ∗ bigSep (Pipeline.restRefsP sig pre18 spec18 \ {main_v72}) fun b => (((c : Thread nD τ)).loc b) ↦{fullShare} Vof Win c b) := by
  have hsplit := Pipeline.arrays_of_unscopedBufs (p := ()) (fun (_ : Unit) => pcfg18 (F := F)) (fun _ => a1)
    (fun _ c => dat18 (Vof Win) a1 O c) winFacts18 (launch18 (F := F)).arr_whole c
    ((dat18 (Vof Win) a1 O c).share_full fun _ => rfl) (Vof Win c) (fun w => A_eq18 (Vof Win) a1 O c w)
  rw [Pipeline.unscopedBufs_held,
    Pipeline.unscopedRest_split (Ix := Unit) (Name := ℕ) (U := UD sig nD τ) (Lvl := ℕ) preFacts18 c (Vof Win c),
    Pipeline.unscopedRestP_sdiff pre18 spec18 {main_v72} hx_sub18 c (Vof Win c),
    show (fun k => Vof Win c (pre18.ref k)) = a1.1 from funext ha1] at hsplit
  exact hsplit

/-- EXIT, the buffers' part: the same four put back, the arrays at what the write-backs leave, are every unscoped
    buffer at the exit valuation. -/
theorem exit18 (c : Dev nD) (ha1 : ∀ k, Vof Win c (pre18.ref k) = a1.1 k) :
    iprop((dat18 (Vof Win) a1 O c).arrays ((dat18 (Vof Win) a1 O c).arrAt · (cfg18 a1).N)
        ∗ Pipeline.prefHeld pre18 c (fun _ => fullShare) a1.1
        ∗ (bigSep ({main_v72} : Finset (Ref sig .tc)) fun b => (((c : Thread nD τ)).loc b) ↦{fullShare} Vof Win c b)
        ∗ bigSep (Pipeline.restRefsP sig pre18 spec18 \ {main_v72}) fun b => (((c : Thread nD τ)).loc b) ↦{fullShare} Vof Win c b)
      ⊢ (StableHlo.held (c : Thread nD τ) (Pipeline.ucRefs τ sig) (Wout18 Win a1 O c) : sProp 𝕄) := by
  have hjoin := Pipeline.unscopedBufs_of_arrays (p := ()) (fun (_ : Unit) => pcfg18 (F := F)) (fun _ => a1)
    (Ix := Unit) (Name := ℕ) (U := UD sig nD τ) (Lvl := ℕ)
    winFacts18 (launch18 (F := F)).arr_whole c (fun _ c => dat18 (Vof Win) a1 O c)
    ((dat18 (Vof Win) a1 O c).share_full fun _ => rfl)
    (Vof Win c) (Vof (Wout18 Win a1 O) c) ((dat18 (Vof Win) a1 O c).arrAt · (cfg18 a1).N)
    (fun w => (Wout18_arr Win a1 O c w).symm)
    (fun b hb => Wout18_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts18 c (Vof Win c),
    Pipeline.unscopedRestP_sdiff pre18 spec18 {main_v72} hx_sub18 c (Vof Win c),
    show (fun k => Vof Win c (pre18.ref k)) = a1.1 from funext ha1] at hjoin
  exact hjoin

end Record

section Seg

variable (Win : Dev nD → Valuation τ sig (Elt F))
  (adm : (p : Fin 49) → (pcfgs (F := F) p).Adm)
  (O : (c : Dev nD) → Fin (cfg18 (adm (18 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout18. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg18 (hd : ∀ c, pdats (18 : Fin 49) c = dat18 (Vof Win) (adm (18 : Fin 49)) O c)
    (ha1 : ∀ c k, Vof Win c (pre18.ref k) = (adm (18 : Fin 49)).1 k)
    (hbody : ∀ c, BodyObligation (dat18 (F := F) (Vof Win) (adm (18 : Fin 49)) O c) (defs₀ (F := F)) 𝒱₀ () Set.univ) :
    Pipeline.RegionSeg (pcfgs (F := F)) adm pdats () defs₀ 𝒱₀ L lv (18 : Fin 49) where
  win := (launch18 (F := F)).win.to₀
  block_pos := (launch18 (F := F)).block_pos
  stage_whole := (launch18 (F := F)).stage_whole
  K := Fin 8
  osem := osem18
  ho := ownSemFacts18
  hbody c := by rw [hd c]; exact (hbody c).loose
  hwaits := Pipeline.hwaits_of_owed_zero _ _ _ _ L lv (18 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout18 Win (adm (18 : Fin 49)) O c) ∗ R c)
  X c := iprop((∃ r, prngReg c r)
    ∗ Pipeline.ownSems0 (Ix := Unit) (Name := ℕ) (U := UD sig nD τ) (Lvl := ℕ) (Val := Elt F) (τ := τ) osem18 c
    ∗ (bigSep ({main_v72} : Finset (Ref sig .tc)) fun b => (((c : Thread nD τ)).loc b) ↦{fullShare} Vof Win c b))
  Y c := iprop((∃ r, prngReg c r)
    ∗ (bigSep ({main_v72} : Finset (Ref sig .tc)) fun b => (((c : Thread nD τ)).loc b) ↦{fullShare} Vof Win c b)
    ∗ Pipeline.prefHeld pre18 c (fun _ => fullShare) (adm (18 : Fin 49)).1)
  Z c := bigSep (Pipeline.restRefsP sig pre18 spec18 \ {main_v72}) fun b => (((c : Thread nD τ)).loc b) ↦{fullShare} Vof Win c b
  hentry c := by
    rw [hd c]
    iintro ⟨⟨Hub, Hp, HO⟩, Hos, -⟩
    ihave H := (entry18 Win (adm (18 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq18, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq18, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit18 Win (adm (18 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg18 (F := F)).Adm)

/-- The output block at point t: the gathered rows (of the far operand's contents under V, chosen by the table's
    words at that point) times the input block. -/
def outBlk18 (c : Dev nD) (t : Fin (cfg18 a1).N) : Vec F S8x64 .f32 :=
  gatherOut (gatherG (a1.1 0) (V c main_v72) (grid18.coords t)) (iblk18 V a1 c 0 t)

theorem outBlk_eq18 (c : Dev nD) (t : Fin (cfg18 a1).N) :
    outBlk18 V a1 c t = gatherOut (gatherG (a1.1 0) (V c main_v72) (grid18.coords t)) (iblk18 V a1 c 0 t) := rfl

/-- The proof data with the output block named: after the body at point t the output window's buffer holds it. -/
theorem afterOutBlk18 (c : Dev nD) (t : Fin (cfg18 a1).N) :
    (dat18 V a1 (outBlk18 V a1) c).after 1 t
      = gatherOut (gatherG (a1.1 0) (V c main_v72) (grid18.coords t)) (iblk18 V a1 c 0 t) :=
  afterOut18 V a1 (outBlk18 V a1) c t

/-- The own cells at zero are the semaphore array's eight entries at zero, in order. -/
theorem ownSems_eq18 (c : Dev nD) :
    (Pipeline.ownSems0 (Ix := Unit) (Name := ℕ) (U := UD sig nD τ) (Lvl := ℕ) (Val := Elt F) (τ := τ) osem18 c : sProp 𝕄)
      = gsems0 c cc18_scratch1 := by
  rw [Pipeline.ownSems0_eq_of_list c osem18 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq18 (t : Fin (cfg18 a1).N) : ∃ h3 h4, bodyProg18 (F := F) a1 t
    = cc18__gather_mul_kernel (grid18.coords t) (Memref.whole main_v78) (Memref.isWhole_whole _) (Memref.whole main_v72) (Memref.isWhole_whole _)
        (stg18 a1 0 t) h3 (stg18 a1 1 t) h4 (Memref.whole cc18_scratch0) (Memref.isWhole_whole _) cc18_scratch1 := ⟨_, _, rfl⟩

end Out

/-! ## The body's run, joined to the proof data -/

section Body

variable (V : (c : Dev nD) → (b : Ref sig .tc) → Buf (Elt F) ((c : Thread nD τ).loc b))
  (a1 : (pcfg18 (F := F)).Adm)

/-- The scratch buffer whole at some contents, as a memref owned at some contents. -/
theorem scratchOwns_eq18 (c : Dev nD) :
    (iprop(∃ d, owns (c : Thread nD τ) (Memref.whole cc18_scratch0) fullShare d) : sProp 𝕄)
      = iprop(∃ f : Buf (Elt F) ((c : Thread nD τ).loc cc18_scratch0), ((c : Thread nD τ).loc cc18_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun18 (hlt : ∀ y, BitVec.toNat ((a1.1 0) y) < 100000) : BodyRun18 V a1 (outBlk18 V a1) := by
  intro c t W K
  obtain ⟨h3, h4, hprog⟩ := bodyProg_eq18 (F := F) a1 t
  rw [hprog, ownSems_eq18, ← scratchOwns_eq18 (F := F) c]
  have hrun := gather_kernel_run_18 (F := F) c (grid18.coords t) (Memref.whole main_v78) (Memref.isWhole_whole _) (Memref.whole main_v72) (Memref.isWhole_whole _)
    (stg18 a1 0 t) h3 (stg18 a1 1 t) h4 (Memref.whole cc18_scratch0) (Memref.isWhole_whole _) cc18_scratch1 fullShare fullShare
    (a1.1 0) (V c main_v72) (iblk18 V a1 c 0 t) (fun y => hlt y) W K
  simp only [Memref.view_whole, View.read_whole] at hrun
  unfold outBlk18
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut18 (hlt : ∀ y, BitVec.toNat ((a1.1 0) y) < 100000) (c : Dev nD) :
    BodyObligation (dat18 (F := F) V a1 (outBlk18 V a1) c) (defs₀ (F := F)) Variants.none () Set.univ :=
  body_obligation18 V a1 (outBlk18 V a1) (bodyRun18 V a1 hlt) c

end Body

/-! # Region 19 -/

/-! ## The body's own transfer cells -/

/-- The eight cells of the body's semaphore array, in order. -/
abbrev osem19 : Fin 8 → SemLoc sig := fun j => SemLoc.dma (cc19_scratch1.ix (fun | ⟨0, _⟩ => j))

/-- They are scoped, pairwise distinct, and none is a staging cell of a window. -/
theorem ownSemFacts19 : Pipeline.OwnSemFacts spec19 osem19 := by decide

/-- The far operand is an unscoped buffer that is neither a window's array nor a table. -/
theorem hx_sub19 : ({main_v72} : Finset (Ref sig .tc)) ⊆ Pipeline.restRefsP sig pre19 spec19 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg19 (F := F)).Adm)
  (O : (c : Dev nD) → Fin (cfg19 a1).N → Vec F S8x64 .f32)

/-! ## The windows' blocks -/

/-- Window w's block at point t, read off its array under V. -/
def iblk19 (c : Dev nD) (w : Fin (cfg19 a1).W) (t : Fin (cfg19 a1).N) :
    (((cfg19 a1).win w).xblock ((cfg19 a1).grid.coords t)).Idx → Elt F ((cfg19 a1).win w).elt :=
  (((cfg19 a1).win w).blk t).view.read (Elt F) (V c (Pipeline.arrRef spec19 w))

/-- The input window's current staging buffer holds its block at every point, fetched there or not, for any proof
    data whose array is V's and whose body leaves the block in place: unfetched, the block index has not moved. -/
theorem beforeIn19_of {c : Dev nD} (dat : Dat τ (Elt F) Unit ℕ (UD sig nD τ) ℕ (cfg19 a1) c)
    (hA : dat.A 0 = V c (Pipeline.arrRef spec19 0))
    (hafter : ∀ t, dat.after 0 t = iblk19 V a1 c 0 t) (t : Fin (cfg19 a1).N) (d) : dat.before 0 t d = iblk19 V a1 c 0 t :=
  (dat.before_in_eq_fetched 0 rfl (fun _ => rfl) (fun _ _ _ => rfl)
    (fun t => by rw [hafter]; unfold Dat.blockOf iblk19; rw [hA]; try rfl) t d).trans
    (by unfold Dat.fetched Dat.blockOf iblk19; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat19 (c : Dev nD) : Dat τ (Elt F) Unit ℕ (UD sig nD τ) ℕ (cfg19 a1) c where
  A w := V c (Pipeline.arrRef spec19 w)
  after w t := match w with
    | ⟨0, _⟩ => iblk19 V a1 c 0 t
    | ⟨1, _⟩ => O c t
  Φ _ := iprop(Pipeline.ΦD osem19 spec19 {main_v72} V c ∗ Pipeline.prefHeld pre19 c (fun _ => fullShare) a1.1)
  q _ := fullShare
  owed _ := 0

theorem A_eq19 (c : Dev nD) (w : Fin (cfg19 a1).W) : (dat19 V a1 O c).A w = V c (Pipeline.arrRef spec19 w) := by
  dsimp only [dat19]

theorem afterIn19 (c : Dev nD) (t : Fin (cfg19 a1).N) : (dat19 V a1 O c).after 0 t = iblk19 V a1 c 0 t := by
  dsimp only [dat19]; rfl

theorem afterOut19 (c : Dev nD) (t : Fin (cfg19 a1).N) :
    (dat19 V a1 O c).after 1 t = O c t := by
  dsimp only [dat19]; rfl

theorem beforeIn19 (c : Dev nD) (t : Fin (cfg19 a1).N) (d) : (dat19 V a1 O c).before 0 t d = iblk19 V a1 c 0 t :=
  beforeIn19_of V a1 (dat19 V a1 O c) (A_eq19 V a1 O c 0) (afterIn19 V a1 O c) t d

theorem Phi_eq19 (c : Dev nD) (t : Fin ((cfg19 a1).N + 1)) :
    (dat19 V a1 O c).Φ t
      = iprop(Pipeline.ΦD osem19 spec19 {main_v72} V c ∗ Pipeline.prefHeld pre19 c (fun _ => fullShare) a1.1) := by
  dsimp only [dat19]

theorem owed_eq19 (c : Dev nD) (t : Fin ((cfg19 a1).N + 1)) : (dat19 V a1 O c).owed t = 0 := by
  dsimp only [dat19]

/-! ## The invariant, conjunct by conjunct -/

/-- The invariant's first part opened: the body's scratch buffer whole at some contents and the other scoped
    buffers no window stages, the generator register, the own cells at zero, the far operand at its contents. -/
theorem PhiD_eq19 (c : Dev nD) :
    (Pipeline.ΦD osem19 spec19 {main_v72} V c : sProp 𝕄)
      = iprop(iprop(iprop((∃ f : Buf (Elt F) ((c : Thread nD τ).loc cc19_scratch0), ((c : Thread nD τ).loc cc19_scratch0) ↦{fullShare} f))
            ∗ Pipeline.scopedRestBut (Ix := Unit) (Name := ℕ) (U := UD sig nD τ) (Lvl := ℕ) (Val := Elt F) spec19 c [cc19_scratch0])
          ∗ (∃ r, prngReg c r)
          ∗ Pipeline.ownSems0 (Ix := Unit) (Name := ℕ) (U := UD sig nD τ) (Lvl := ℕ) (Val := Elt F) (τ := τ) osem19 c
          ∗ (((c : Thread nD τ).loc main_v72) ↦{fullShare} V c main_v72)) := by
  rw [Pipeline.ΦD_eq, scopedRest19_split, BI.bigSep_eq_bigSepL_of_eq [main_v72] (by decide) (by decide)]; rfl

/-- The one table, held whole. -/
theorem prefHeld_eq19 (c : Dev nD) :
    (Pipeline.prefHeld pre19 c (fun _ => fullShare) a1.1 : sProp 𝕄)
      = (((c : Thread nD τ).loc main_v82) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg19 (w : Fin (cfg19 a1).W) (t : Fin (cfg19 a1).N) := ((cfg19 a1).win w).stage ((cfg19 a1).slots t w)

/-- The body as the pipeline calls it at point t. -/
abbrev bodyProg19 (t : Fin (cfg19 a1).N) : Prog (TpuEff nD τ sig (Elt F) Λ₀ .tc) PUnit :=
  (defs₀ (F := F)) .tc (cfg19 a1).body ((cfg19 a1).bodyArgs t ((cfg19 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun19 : Prop :=
  ∀ (c : Dev nD) (t : Fin (cfg19 a1).N) (W) (K : PUnit → sProp 𝕄),
    iprop(owns (c : Thread nD τ) (stg19 a1 0 t) fullShare (iblk19 V a1 c 0 t)
        ∗ (∃ d, owns (c : Thread nD τ) (stg19 a1 1 t) fullShare d)
        ∗ (∃ f : Buf (Elt F) ((c : Thread nD τ).loc cc19_scratch0), ((c : Thread nD τ).loc cc19_scratch0) ↦{fullShare} f)
        ∗ Pipeline.ownSems0 (Ix := Unit) (Name := ℕ) (U := UD sig nD τ) (Lvl := ℕ) (Val := Elt F) (τ := τ) osem19 c
        ∗ (((c : Thread nD τ).loc main_v82) ↦{fullShare} a1.1 0)
        ∗ (((c : Thread nD τ).loc main_v72) ↦{fullShare} V c main_v72)
        ∗ owes (c : Thread nD τ) (0 : CellTallies nD τ sig Unit) W
        ∗ (iprop(owns (c : Thread nD τ) (stg19 a1 0 t) fullShare (iblk19 V a1 c 0 t)
            ∗ owns (c : Thread nD τ) (stg19 a1 1 t) fullShare (O c t)
            ∗ (∃ f : Buf (Elt F) ((c : Thread nD τ).loc cc19_scratch0), ((c : Thread nD τ).loc cc19_scratch0) ↦{fullShare} f)
            ∗ Pipeline.ownSems0 (Ix := Unit) (Name := ℕ) (U := UD sig nD τ) (Lvl := ℕ) (Val := Elt F) (τ := τ) osem19 c
            ∗ (((c : Thread nD τ).loc main_v82) ↦{fullShare} a1.1 0)
            ∗ (((c : Thread nD τ).loc main_v72) ↦{fullShare} V c main_v72)
            ∗ (∃ W', owes (c : Thread nD τ) (0 : CellTallies nD τ sig Unit) W')) -∗ K ⟨⟩))
      ⊢ wp frame (wpE (defs₀ (F := F)) Variants.none c none) Set.univ (bodyProg19 a1 t) K

/-- What the body is called with at point t, the windows one by one, -/
def bodyPre19 (c : Dev nD) (t : Fin (cfg19 a1).N) : sProp 𝕄 :=
  iprop((dat19 V a1 O c).Φ t.castSucc ∗ (dat19 V a1 O c).owesAt () t.castSucc
    ∗ (∃ d, owns (c : Thread nD τ) (stg19 a1 0 t) fullShare ((dat19 V a1 O c).before 0 t d))
    ∗ (∃ d, owns (c : Thread nD τ) (stg19 a1 1 t) fullShare ((dat19 V a1 O c).before 1 t d)))

/-- and what it returns. -/
def bodyPost19 (c : Dev nD) (t : Fin (cfg19 a1).N) : sProp 𝕄 :=
  iprop((dat19 V a1 O c).Φ t.succ ∗ (dat19 V a1 O c).owesAt () t.succ
    ∗ owns (c : Thread nD τ) (stg19 a1 0 t) fullShare ((dat19 V a1 O c).after 0 t)
    ∗ owns (c : Thread nD τ) (stg19 a1 1 t) fullShare ((dat19 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body19 (hrun : BodyRun19 V a1 O) (c : Dev nD) (t : Fin (cfg19 a1).N) :
    bodyPre19 V a1 O c t
      ⊢ wp frame (wpE (defs₀ (F := F)) Variants.none c none) Set.univ (bodyProg19 a1 t) (fun _ => bodyPost19 V a1 O c t) := by
  unfold bodyPre19 bodyPost19
  simp only [beforeIn19]
  rw [afterIn19, afterOut19, Phi_eq19, Phi_eq19, PhiD_eq19, prefHeld_eq19]
  unfold Dat.owesAt Pipeline.owesWithin
  rw [owed_eq19, owed_eq19]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation19 (hrun : BodyRun19 V a1 O) (c : Dev nD) :
    BodyObligation (dat19 (F := F) V a1 O c) (defs₀ (F := F)) Variants.none () Set.univ := fun t => by
  rw [bigSep_W19, bigSep_W19]
  exact sound_body19 V a1 O hrun c t

end Data

/-! ## The region's record -/

section Record

variable (Win : Dev nD → Valuation τ sig (Elt F))

variable (a1 : (pcfg19 (F := F)).Adm)
  (O : (c : Dev nD) → Fin (cfg19 a1).N → Vec F S8x64 .f32)

/-- The buffers at the region's exit: its arrays at what the write-backs leave, every other buffer as entered. -/
def Wout19 (c : Dev nD) : Valuation τ sig (Elt F) :=
  Pipeline.withArrays spec19 c (Win c) fun w => (dat19 (Vof Win) a1 O c).arrAt w (cfg19 a1).N

theorem Wout19_arr (c : Dev nD) (w : Fin (cfg19 a1).W) :
    Wout19 Win a1 O c (Proc.devRef .tc (Pipeline.arrRef spec19 w)) = (dat19 (Vof Win) a1 O c).arrAt w (cfg19 a1).N := by
  unfold Wout19; exact Pipeline.withArrays_arr spec19 winFacts19.arr_inj c _ _ w

theorem Wout19_of_ne (c : Dev nD) (b : Ref sig .tc) (hb : ∀ w, Pipeline.arrRef spec19 w ≠ b) :
    Wout19 Win a1 O c (Proc.devRef .tc b) = Win c (Proc.devRef .tc b) := by
  unfold Wout19; exact Pipeline.withArrays_of_ne spec19 c _ _ b hb

/-- ENTRY, the buffers' part. Every unscoped buffer at Win is: the region's arrays at the proof data's entry contents,
    the table whole at the admissible contents (which are Win's there), the far operand whole, and the others. -/
theorem entry19 (c : Dev nD) (ha1 : ∀ k, Vof Win c (pre19.ref k) = a1.1 k) :
    (StableHlo.held (c : Thread nD τ) (Pipeline.ucRefs τ sig) (Win c) : sProp 𝕄)
      ⊢ iprop((dat19 (Vof Win) a1 O c).arrays ((dat19 (Vof Win) a1 O c).arrAt · 0)
          ∗ Pipeline.prefHeld pre19 c (fun _ => fullShare) a1.1
          ∗ (bigSep ({main_v72} : Finset (Ref sig .tc)) fun b => (((c : Thread nD τ)).loc b) ↦{fullShare} Vof Win c b)
          ∗ bigSep (Pipeline.restRefsP sig pre19 spec19 \ {main_v72}) fun b => (((c : Thread nD τ)).loc b) ↦{fullShare} Vof Win c b) := by
  have hsplit := Pipeline.arrays_of_unscopedBufs (p := ()) (fun (_ : Unit) => pcfg19 (F := F)) (fun _ => a1)
    (fun _ c => dat19 (Vof Win) a1 O c) winFacts19 (launch19 (F := F)).arr_whole c
    ((dat19 (Vof Win) a1 O c).share_full fun _ => rfl) (Vof Win c) (fun w => A_eq19 (Vof Win) a1 O c w)
  rw [Pipeline.unscopedBufs_held,
    Pipeline.unscopedRest_split (Ix := Unit) (Name := ℕ) (U := UD sig nD τ) (Lvl := ℕ) preFacts19 c (Vof Win c),
    Pipeline.unscopedRestP_sdiff pre19 spec19 {main_v72} hx_sub19 c (Vof Win c),
    show (fun k => Vof Win c (pre19.ref k)) = a1.1 from funext ha1] at hsplit
  exact hsplit

/-- EXIT, the buffers' part: the same four put back, the arrays at what the write-backs leave, are every unscoped
    buffer at the exit valuation. -/
theorem exit19 (c : Dev nD) (ha1 : ∀ k, Vof Win c (pre19.ref k) = a1.1 k) :
    iprop((dat19 (Vof Win) a1 O c).arrays ((dat19 (Vof Win) a1 O c).arrAt · (cfg19 a1).N)
        ∗ Pipeline.prefHeld pre19 c (fun _ => fullShare) a1.1
        ∗ (bigSep ({main_v72} : Finset (Ref sig .tc)) fun b => (((c : Thread nD τ)).loc b) ↦{fullShare} Vof Win c b)
        ∗ bigSep (Pipeline.restRefsP sig pre19 spec19 \ {main_v72}) fun b => (((c : Thread nD τ)).loc b) ↦{fullShare} Vof Win c b)
      ⊢ (StableHlo.held (c : Thread nD τ) (Pipeline.ucRefs τ sig) (Wout19 Win a1 O c) : sProp 𝕄) := by
  have hjoin := Pipeline.unscopedBufs_of_arrays (p := ()) (fun (_ : Unit) => pcfg19 (F := F)) (fun _ => a1)
    (Ix := Unit) (Name := ℕ) (U := UD sig nD τ) (Lvl := ℕ)
    winFacts19 (launch19 (F := F)).arr_whole c (fun _ c => dat19 (Vof Win) a1 O c)
    ((dat19 (Vof Win) a1 O c).share_full fun _ => rfl)
    (Vof Win c) (Vof (Wout19 Win a1 O) c) ((dat19 (Vof Win) a1 O c).arrAt · (cfg19 a1).N)
    (fun w => (Wout19_arr Win a1 O c w).symm)
    (fun b hb => Wout19_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts19 c (Vof Win c),
    Pipeline.unscopedRestP_sdiff pre19 spec19 {main_v72} hx_sub19 c (Vof Win c),
    show (fun k => Vof Win c (pre19.ref k)) = a1.1 from funext ha1] at hjoin
  exact hjoin

end Record

section Seg

variable (Win : Dev nD → Valuation τ sig (Elt F))
  (adm : (p : Fin 49) → (pcfgs (F := F) p).Adm)
  (O : (c : Dev nD) → Fin (cfg19 (adm (19 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout19. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg19 (hd : ∀ c, pdats (19 : Fin 49) c = dat19 (Vof Win) (adm (19 : Fin 49)) O c)
    (ha1 : ∀ c k, Vof Win c (pre19.ref k) = (adm (19 : Fin 49)).1 k)
    (hbody : ∀ c, BodyObligation (dat19 (F := F) (Vof Win) (adm (19 : Fin 49)) O c) (defs₀ (F := F)) 𝒱₀ () Set.univ) :
    Pipeline.RegionSeg (pcfgs (F := F)) adm pdats () defs₀ 𝒱₀ L lv (19 : Fin 49) where
  win := (launch19 (F := F)).win.to₀
  block_pos := (launch19 (F := F)).block_pos
  stage_whole := (launch19 (F := F)).stage_whole
  K := Fin 8
  osem := osem19
  ho := ownSemFacts19
  hbody c := by rw [hd c]; exact (hbody c).loose
  hwaits := Pipeline.hwaits_of_owed_zero _ _ _ _ L lv (19 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout19 Win (adm (19 : Fin 49)) O c) ∗ R c)
  X c := iprop((∃ r, prngReg c r)
    ∗ Pipeline.ownSems0 (Ix := Unit) (Name := ℕ) (U := UD sig nD τ) (Lvl := ℕ) (Val := Elt F) (τ := τ) osem19 c
    ∗ (bigSep ({main_v72} : Finset (Ref sig .tc)) fun b => (((c : Thread nD τ)).loc b) ↦{fullShare} Vof Win c b))
  Y c := iprop((∃ r, prngReg c r)
    ∗ (bigSep ({main_v72} : Finset (Ref sig .tc)) fun b => (((c : Thread nD τ)).loc b) ↦{fullShare} Vof Win c b)
    ∗ Pipeline.prefHeld pre19 c (fun _ => fullShare) (adm (19 : Fin 49)).1)
  Z c := bigSep (Pipeline.restRefsP sig pre19 spec19 \ {main_v72}) fun b => (((c : Thread nD τ)).loc b) ↦{fullShare} Vof Win c b
  hentry c := by
    rw [hd c]
    iintro ⟨⟨Hub, Hp, HO⟩, Hos, -⟩
    ihave H := (entry19 Win (adm (19 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq19, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq19, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit19 Win (adm (19 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg19 (F := F)).Adm)

/-- The output block at point t: the gathered rows (of the far operand's contents under V, chosen by the table's
    words at that point) times the input block. -/
def outBlk19 (c : Dev nD) (t : Fin (cfg19 a1).N) : Vec F S8x64 .f32 :=
  gatherOut (gatherG (a1.1 0) (V c main_v72) (grid19.coords t)) (iblk19 V a1 c 0 t)

theorem outBlk_eq19 (c : Dev nD) (t : Fin (cfg19 a1).N) :
    outBlk19 V a1 c t = gatherOut (gatherG (a1.1 0) (V c main_v72) (grid19.coords t)) (iblk19 V a1 c 0 t) := rfl

/-- The proof data with the output block named: after the body at point t the output window's buffer holds it. -/
theorem afterOutBlk19 (c : Dev nD) (t : Fin (cfg19 a1).N) :
    (dat19 V a1 (outBlk19 V a1) c).after 1 t
      = gatherOut (gatherG (a1.1 0) (V c main_v72) (grid19.coords t)) (iblk19 V a1 c 0 t) :=
  afterOut19 V a1 (outBlk19 V a1) c t

/-- The own cells at zero are the semaphore array's eight entries at zero, in order. -/
theorem ownSems_eq19 (c : Dev nD) :
    (Pipeline.ownSems0 (Ix := Unit) (Name := ℕ) (U := UD sig nD τ) (Lvl := ℕ) (Val := Elt F) (τ := τ) osem19 c : sProp 𝕄)
      = gsems0 c cc19_scratch1 := by
  rw [Pipeline.ownSems0_eq_of_list c osem19 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq19 (t : Fin (cfg19 a1).N) : ∃ h3 h4, bodyProg19 (F := F) a1 t
    = cc19__gather_mul_kernel (grid19.coords t) (Memref.whole main_v82) (Memref.isWhole_whole _) (Memref.whole main_v72) (Memref.isWhole_whole _)
        (stg19 a1 0 t) h3 (stg19 a1 1 t) h4 (Memref.whole cc19_scratch0) (Memref.isWhole_whole _) cc19_scratch1 := ⟨_, _, rfl⟩

end Out

/-! ## The body's run, joined to the proof data -/

section Body

variable (V : (c : Dev nD) → (b : Ref sig .tc) → Buf (Elt F) ((c : Thread nD τ).loc b))
  (a1 : (pcfg19 (F := F)).Adm)

/-- The scratch buffer whole at some contents, as a memref owned at some contents. -/
theorem scratchOwns_eq19 (c : Dev nD) :
    (iprop(∃ d, owns (c : Thread nD τ) (Memref.whole cc19_scratch0) fullShare d) : sProp 𝕄)
      = iprop(∃ f : Buf (Elt F) ((c : Thread nD τ).loc cc19_scratch0), ((c : Thread nD τ).loc cc19_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun19 (hlt : ∀ y, BitVec.toNat ((a1.1 0) y) < 100000) : BodyRun19 V a1 (outBlk19 V a1) := by
  intro c t W K
  obtain ⟨h3, h4, hprog⟩ := bodyProg_eq19 (F := F) a1 t
  rw [hprog, ownSems_eq19, ← scratchOwns_eq19 (F := F) c]
  have hrun := gather_kernel_run_19 (F := F) c (grid19.coords t) (Memref.whole main_v82) (Memref.isWhole_whole _) (Memref.whole main_v72) (Memref.isWhole_whole _)
    (stg19 a1 0 t) h3 (stg19 a1 1 t) h4 (Memref.whole cc19_scratch0) (Memref.isWhole_whole _) cc19_scratch1 fullShare fullShare
    (a1.1 0) (V c main_v72) (iblk19 V a1 c 0 t) (fun y => hlt y) W K
  simp only [Memref.view_whole, View.read_whole] at hrun
  unfold outBlk19
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut19 (hlt : ∀ y, BitVec.toNat ((a1.1 0) y) < 100000) (c : Dev nD) :
    BodyObligation (dat19 (F := F) V a1 (outBlk19 V a1) c) (defs₀ (F := F)) Variants.none () Set.univ :=
  body_obligation19 V a1 (outBlk19 V a1) (bodyRun19 V a1 hlt) c

end Body

/-! # Region 20 -/

/-! ## The body's own transfer cells -/

/-- The eight cells of the body's semaphore array, in order. -/
abbrev osem20 : Fin 8 → SemLoc sig := fun j => SemLoc.dma (cc20_scratch1.ix (fun | ⟨0, _⟩ => j))

/-- They are scoped, pairwise distinct, and none is a staging cell of a window. -/
theorem ownSemFacts20 : Pipeline.OwnSemFacts spec20 osem20 := by decide

/-- The far operand is an unscoped buffer that is neither a window's array nor a table. -/
theorem hx_sub20 : ({main_v72} : Finset (Ref sig .tc)) ⊆ Pipeline.restRefsP sig pre20 spec20 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg20 (F := F)).Adm)
  (O : (c : Dev nD) → Fin (cfg20 a1).N → Vec F S8x64 .f32)

/-! ## The windows' blocks -/

/-- Window w's block at point t, read off its array under V. -/
def iblk20 (c : Dev nD) (w : Fin (cfg20 a1).W) (t : Fin (cfg20 a1).N) :
    (((cfg20 a1).win w).xblock ((cfg20 a1).grid.coords t)).Idx → Elt F ((cfg20 a1).win w).elt :=
  (((cfg20 a1).win w).blk t).view.read (Elt F) (V c (Pipeline.arrRef spec20 w))

/-- The input window's current staging buffer holds its block at every point, fetched there or not, for any proof
    data whose array is V's and whose body leaves the block in place: unfetched, the block index has not moved. -/
theorem beforeIn20_of {c : Dev nD} (dat : Dat τ (Elt F) Unit ℕ (UD sig nD τ) ℕ (cfg20 a1) c)
    (hA : dat.A 0 = V c (Pipeline.arrRef spec20 0))
    (hafter : ∀ t, dat.after 0 t = iblk20 V a1 c 0 t) (t : Fin (cfg20 a1).N) (d) : dat.before 0 t d = iblk20 V a1 c 0 t :=
  (dat.before_in_eq_fetched 0 rfl (fun _ => rfl) (fun _ _ _ => rfl)
    (fun t => by rw [hafter]; unfold Dat.blockOf iblk20; rw [hA]; try rfl) t d).trans
    (by unfold Dat.fetched Dat.blockOf iblk20; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat20 (c : Dev nD) : Dat τ (Elt F) Unit ℕ (UD sig nD τ) ℕ (cfg20 a1) c where
  A w := V c (Pipeline.arrRef spec20 w)
  after w t := match w with
    | ⟨0, _⟩ => iblk20 V a1 c 0 t
    | ⟨1, _⟩ => O c t
  Φ _ := iprop(Pipeline.ΦD osem20 spec20 {main_v72} V c ∗ Pipeline.prefHeld pre20 c (fun _ => fullShare) a1.1)
  q _ := fullShare
  owed _ := 0

theorem A_eq20 (c : Dev nD) (w : Fin (cfg20 a1).W) : (dat20 V a1 O c).A w = V c (Pipeline.arrRef spec20 w) := by
  dsimp only [dat20]

theorem afterIn20 (c : Dev nD) (t : Fin (cfg20 a1).N) : (dat20 V a1 O c).after 0 t = iblk20 V a1 c 0 t := by
  dsimp only [dat20]; rfl

theorem afterOut20 (c : Dev nD) (t : Fin (cfg20 a1).N) :
    (dat20 V a1 O c).after 1 t = O c t := by
  dsimp only [dat20]; rfl

theorem beforeIn20 (c : Dev nD) (t : Fin (cfg20 a1).N) (d) : (dat20 V a1 O c).before 0 t d = iblk20 V a1 c 0 t :=
  beforeIn20_of V a1 (dat20 V a1 O c) (A_eq20 V a1 O c 0) (afterIn20 V a1 O c) t d

theorem Phi_eq20 (c : Dev nD) (t : Fin ((cfg20 a1).N + 1)) :
    (dat20 V a1 O c).Φ t
      = iprop(Pipeline.ΦD osem20 spec20 {main_v72} V c ∗ Pipeline.prefHeld pre20 c (fun _ => fullShare) a1.1) := by
  dsimp only [dat20]

theorem owed_eq20 (c : Dev nD) (t : Fin ((cfg20 a1).N + 1)) : (dat20 V a1 O c).owed t = 0 := by
  dsimp only [dat20]

/-! ## The invariant, conjunct by conjunct -/

/-- The invariant's first part opened: the body's scratch buffer whole at some contents and the other scoped
    buffers no window stages, the generator register, the own cells at zero, the far operand at its contents. -/
theorem PhiD_eq20 (c : Dev nD) :
    (Pipeline.ΦD osem20 spec20 {main_v72} V c : sProp 𝕄)
      = iprop(iprop(iprop((∃ f : Buf (Elt F) ((c : Thread nD τ).loc cc20_scratch0), ((c : Thread nD τ).loc cc20_scratch0) ↦{fullShare} f))
            ∗ Pipeline.scopedRestBut (Ix := Unit) (Name := ℕ) (U := UD sig nD τ) (Lvl := ℕ) (Val := Elt F) spec20 c [cc20_scratch0])
          ∗ (∃ r, prngReg c r)
          ∗ Pipeline.ownSems0 (Ix := Unit) (Name := ℕ) (U := UD sig nD τ) (Lvl := ℕ) (Val := Elt F) (τ := τ) osem20 c
          ∗ (((c : Thread nD τ).loc main_v72) ↦{fullShare} V c main_v72)) := by
  rw [Pipeline.ΦD_eq, scopedRest20_split, BI.bigSep_eq_bigSepL_of_eq [main_v72] (by decide) (by decide)]; rfl

/-- The one table, held whole. -/
theorem prefHeld_eq20 (c : Dev nD) :
    (Pipeline.prefHeld pre20 c (fun _ => fullShare) a1.1 : sProp 𝕄)
      = (((c : Thread nD τ).loc main_v86) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg20 (w : Fin (cfg20 a1).W) (t : Fin (cfg20 a1).N) := ((cfg20 a1).win w).stage ((cfg20 a1).slots t w)

/-- The body as the pipeline calls it at point t. -/
abbrev bodyProg20 (t : Fin (cfg20 a1).N) : Prog (TpuEff nD τ sig (Elt F) Λ₀ .tc) PUnit :=
  (defs₀ (F := F)) .tc (cfg20 a1).body ((cfg20 a1).bodyArgs t ((cfg20 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun20 : Prop :=
  ∀ (c : Dev nD) (t : Fin (cfg20 a1).N) (W) (K : PUnit → sProp 𝕄),
    iprop(owns (c : Thread nD τ) (stg20 a1 0 t) fullShare (iblk20 V a1 c 0 t)
        ∗ (∃ d, owns (c : Thread nD τ) (stg20 a1 1 t) fullShare d)
        ∗ (∃ f : Buf (Elt F) ((c : Thread nD τ).loc cc20_scratch0), ((c : Thread nD τ).loc cc20_scratch0) ↦{fullShare} f)
        ∗ Pipeline.ownSems0 (Ix := Unit) (Name := ℕ) (U := UD sig nD τ) (Lvl := ℕ) (Val := Elt F) (τ := τ) osem20 c
        ∗ (((c : Thread nD τ).loc main_v86) ↦{fullShare} a1.1 0)
        ∗ (((c : Thread nD τ).loc main_v72) ↦{fullShare} V c main_v72)
        ∗ owes (c : Thread nD τ) (0 : CellTallies nD τ sig Unit) W
        ∗ (iprop(owns (c : Thread nD τ) (stg20 a1 0 t) fullShare (iblk20 V a1 c 0 t)
            ∗ owns (c : Thread nD τ) (stg20 a1 1 t) fullShare (O c t)
            ∗ (∃ f : Buf (Elt F) ((c : Thread nD τ).loc cc20_scratch0), ((c : Thread nD τ).loc cc20_scratch0) ↦{fullShare} f)
            ∗ Pipeline.ownSems0 (Ix := Unit) (Name := ℕ) (U := UD sig nD τ) (Lvl := ℕ) (Val := Elt F) (τ := τ) osem20 c
            ∗ (((c : Thread nD τ).loc main_v86) ↦{fullShare} a1.1 0)
            ∗ (((c : Thread nD τ).loc main_v72) ↦{fullShare} V c main_v72)
            ∗ (∃ W', owes (c : Thread nD τ) (0 : CellTallies nD τ sig Unit) W')) -∗ K ⟨⟩))
      ⊢ wp frame (wpE (defs₀ (F := F)) Variants.none c none) Set.univ (bodyProg20 a1 t) K

/-- What the body is called with at point t, the windows one by one, -/
def bodyPre20 (c : Dev nD) (t : Fin (cfg20 a1).N) : sProp 𝕄 :=
  iprop((dat20 V a1 O c).Φ t.castSucc ∗ (dat20 V a1 O c).owesAt () t.castSucc
    ∗ (∃ d, owns (c : Thread nD τ) (stg20 a1 0 t) fullShare ((dat20 V a1 O c).before 0 t d))
    ∗ (∃ d, owns (c : Thread nD τ) (stg20 a1 1 t) fullShare ((dat20 V a1 O c).before 1 t d)))

/-- and what it returns. -/
def bodyPost20 (c : Dev nD) (t : Fin (cfg20 a1).N) : sProp 𝕄 :=
  iprop((dat20 V a1 O c).Φ t.succ ∗ (dat20 V a1 O c).owesAt () t.succ
    ∗ owns (c : Thread nD τ) (stg20 a1 0 t) fullShare ((dat20 V a1 O c).after 0 t)
    ∗ owns (c : Thread nD τ) (stg20 a1 1 t) fullShare ((dat20 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body20 (hrun : BodyRun20 V a1 O) (c : Dev nD) (t : Fin (cfg20 a1).N) :
    bodyPre20 V a1 O c t
      ⊢ wp frame (wpE (defs₀ (F := F)) Variants.none c none) Set.univ (bodyProg20 a1 t) (fun _ => bodyPost20 V a1 O c t) := by
  unfold bodyPre20 bodyPost20
  simp only [beforeIn20]
  rw [afterIn20, afterOut20, Phi_eq20, Phi_eq20, PhiD_eq20, prefHeld_eq20]
  unfold Dat.owesAt Pipeline.owesWithin
  rw [owed_eq20, owed_eq20]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation20 (hrun : BodyRun20 V a1 O) (c : Dev nD) :
    BodyObligation (dat20 (F := F) V a1 O c) (defs₀ (F := F)) Variants.none () Set.univ := fun t => by
  rw [bigSep_W20, bigSep_W20]
  exact sound_body20 V a1 O hrun c t

end Data

/-! ## The region's record -/

section Record

variable (Win : Dev nD → Valuation τ sig (Elt F))

variable (a1 : (pcfg20 (F := F)).Adm)
  (O : (c : Dev nD) → Fin (cfg20 a1).N → Vec F S8x64 .f32)

/-- The buffers at the region's exit: its arrays at what the write-backs leave, every other buffer as entered. -/
def Wout20 (c : Dev nD) : Valuation τ sig (Elt F) :=
  Pipeline.withArrays spec20 c (Win c) fun w => (dat20 (Vof Win) a1 O c).arrAt w (cfg20 a1).N

theorem Wout20_arr (c : Dev nD) (w : Fin (cfg20 a1).W) :
    Wout20 Win a1 O c (Proc.devRef .tc (Pipeline.arrRef spec20 w)) = (dat20 (Vof Win) a1 O c).arrAt w (cfg20 a1).N := by
  unfold Wout20; exact Pipeline.withArrays_arr spec20 winFacts20.arr_inj c _ _ w

theorem Wout20_of_ne (c : Dev nD) (b : Ref sig .tc) (hb : ∀ w, Pipeline.arrRef spec20 w ≠ b) :
    Wout20 Win a1 O c (Proc.devRef .tc b) = Win c (Proc.devRef .tc b) := by
  unfold Wout20; exact Pipeline.withArrays_of_ne spec20 c _ _ b hb

/-- ENTRY, the buffers' part. Every unscoped buffer at Win is: the region's arrays at the proof data's entry contents,
    the table whole at the admissible contents (which are Win's there), the far operand whole, and the others. -/
theorem entry20 (c : Dev nD) (ha1 : ∀ k, Vof Win c (pre20.ref k) = a1.1 k) :
    (StableHlo.held (c : Thread nD τ) (Pipeline.ucRefs τ sig) (Win c) : sProp 𝕄)
      ⊢ iprop((dat20 (Vof Win) a1 O c).arrays ((dat20 (Vof Win) a1 O c).arrAt · 0)
          ∗ Pipeline.prefHeld pre20 c (fun _ => fullShare) a1.1
          ∗ (bigSep ({main_v72} : Finset (Ref sig .tc)) fun b => (((c : Thread nD τ)).loc b) ↦{fullShare} Vof Win c b)
          ∗ bigSep (Pipeline.restRefsP sig pre20 spec20 \ {main_v72}) fun b => (((c : Thread nD τ)).loc b) ↦{fullShare} Vof Win c b) := by
  have hsplit := Pipeline.arrays_of_unscopedBufs (p := ()) (fun (_ : Unit) => pcfg20 (F := F)) (fun _ => a1)
    (fun _ c => dat20 (Vof Win) a1 O c) winFacts20 (launch20 (F := F)).arr_whole c
    ((dat20 (Vof Win) a1 O c).share_full fun _ => rfl) (Vof Win c) (fun w => A_eq20 (Vof Win) a1 O c w)
  rw [Pipeline.unscopedBufs_held,
    Pipeline.unscopedRest_split (Ix := Unit) (Name := ℕ) (U := UD sig nD τ) (Lvl := ℕ) preFacts20 c (Vof Win c),
    Pipeline.unscopedRestP_sdiff pre20 spec20 {main_v72} hx_sub20 c (Vof Win c),
    show (fun k => Vof Win c (pre20.ref k)) = a1.1 from funext ha1] at hsplit
  exact hsplit

/-- EXIT, the buffers' part: the same four put back, the arrays at what the write-backs leave, are every unscoped
    buffer at the exit valuation. -/
theorem exit20 (c : Dev nD) (ha1 : ∀ k, Vof Win c (pre20.ref k) = a1.1 k) :
    iprop((dat20 (Vof Win) a1 O c).arrays ((dat20 (Vof Win) a1 O c).arrAt · (cfg20 a1).N)
        ∗ Pipeline.prefHeld pre20 c (fun _ => fullShare) a1.1
        ∗ (bigSep ({main_v72} : Finset (Ref sig .tc)) fun b => (((c : Thread nD τ)).loc b) ↦{fullShare} Vof Win c b)
        ∗ bigSep (Pipeline.restRefsP sig pre20 spec20 \ {main_v72}) fun b => (((c : Thread nD τ)).loc b) ↦{fullShare} Vof Win c b)
      ⊢ (StableHlo.held (c : Thread nD τ) (Pipeline.ucRefs τ sig) (Wout20 Win a1 O c) : sProp 𝕄) := by
  have hjoin := Pipeline.unscopedBufs_of_arrays (p := ()) (fun (_ : Unit) => pcfg20 (F := F)) (fun _ => a1)
    (Ix := Unit) (Name := ℕ) (U := UD sig nD τ) (Lvl := ℕ)
    winFacts20 (launch20 (F := F)).arr_whole c (fun _ c => dat20 (Vof Win) a1 O c)
    ((dat20 (Vof Win) a1 O c).share_full fun _ => rfl)
    (Vof Win c) (Vof (Wout20 Win a1 O) c) ((dat20 (Vof Win) a1 O c).arrAt · (cfg20 a1).N)
    (fun w => (Wout20_arr Win a1 O c w).symm)
    (fun b hb => Wout20_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts20 c (Vof Win c),
    Pipeline.unscopedRestP_sdiff pre20 spec20 {main_v72} hx_sub20 c (Vof Win c),
    show (fun k => Vof Win c (pre20.ref k)) = a1.1 from funext ha1] at hjoin
  exact hjoin

end Record

section Seg

variable (Win : Dev nD → Valuation τ sig (Elt F))
  (adm : (p : Fin 49) → (pcfgs (F := F) p).Adm)
  (O : (c : Dev nD) → Fin (cfg20 (adm (20 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout20. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg20 (hd : ∀ c, pdats (20 : Fin 49) c = dat20 (Vof Win) (adm (20 : Fin 49)) O c)
    (ha1 : ∀ c k, Vof Win c (pre20.ref k) = (adm (20 : Fin 49)).1 k)
    (hbody : ∀ c, BodyObligation (dat20 (F := F) (Vof Win) (adm (20 : Fin 49)) O c) (defs₀ (F := F)) 𝒱₀ () Set.univ) :
    Pipeline.RegionSeg (pcfgs (F := F)) adm pdats () defs₀ 𝒱₀ L lv (20 : Fin 49) where
  win := (launch20 (F := F)).win.to₀
  block_pos := (launch20 (F := F)).block_pos
  stage_whole := (launch20 (F := F)).stage_whole
  K := Fin 8
  osem := osem20
  ho := ownSemFacts20
  hbody c := by rw [hd c]; exact (hbody c).loose
  hwaits := Pipeline.hwaits_of_owed_zero _ _ _ _ L lv (20 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout20 Win (adm (20 : Fin 49)) O c) ∗ R c)
  X c := iprop((∃ r, prngReg c r)
    ∗ Pipeline.ownSems0 (Ix := Unit) (Name := ℕ) (U := UD sig nD τ) (Lvl := ℕ) (Val := Elt F) (τ := τ) osem20 c
    ∗ (bigSep ({main_v72} : Finset (Ref sig .tc)) fun b => (((c : Thread nD τ)).loc b) ↦{fullShare} Vof Win c b))
  Y c := iprop((∃ r, prngReg c r)
    ∗ (bigSep ({main_v72} : Finset (Ref sig .tc)) fun b => (((c : Thread nD τ)).loc b) ↦{fullShare} Vof Win c b)
    ∗ Pipeline.prefHeld pre20 c (fun _ => fullShare) (adm (20 : Fin 49)).1)
  Z c := bigSep (Pipeline.restRefsP sig pre20 spec20 \ {main_v72}) fun b => (((c : Thread nD τ)).loc b) ↦{fullShare} Vof Win c b
  hentry c := by
    rw [hd c]
    iintro ⟨⟨Hub, Hp, HO⟩, Hos, -⟩
    ihave H := (entry20 Win (adm (20 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq20, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq20, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit20 Win (adm (20 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg20 (F := F)).Adm)

/-- The output block at point t: the gathered rows (of the far operand's contents under V, chosen by the table's
    words at that point) times the input block. -/
def outBlk20 (c : Dev nD) (t : Fin (cfg20 a1).N) : Vec F S8x64 .f32 :=
  gatherOut (gatherG (a1.1 0) (V c main_v72) (grid20.coords t)) (iblk20 V a1 c 0 t)

theorem outBlk_eq20 (c : Dev nD) (t : Fin (cfg20 a1).N) :
    outBlk20 V a1 c t = gatherOut (gatherG (a1.1 0) (V c main_v72) (grid20.coords t)) (iblk20 V a1 c 0 t) := rfl

/-- The proof data with the output block named: after the body at point t the output window's buffer holds it. -/
theorem afterOutBlk20 (c : Dev nD) (t : Fin (cfg20 a1).N) :
    (dat20 V a1 (outBlk20 V a1) c).after 1 t
      = gatherOut (gatherG (a1.1 0) (V c main_v72) (grid20.coords t)) (iblk20 V a1 c 0 t) :=
  afterOut20 V a1 (outBlk20 V a1) c t

/-- The own cells at zero are the semaphore array's eight entries at zero, in order. -/
theorem ownSems_eq20 (c : Dev nD) :
    (Pipeline.ownSems0 (Ix := Unit) (Name := ℕ) (U := UD sig nD τ) (Lvl := ℕ) (Val := Elt F) (τ := τ) osem20 c : sProp 𝕄)
      = gsems0 c cc20_scratch1 := by
  rw [Pipeline.ownSems0_eq_of_list c osem20 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq20 (t : Fin (cfg20 a1).N) : ∃ h3 h4, bodyProg20 (F := F) a1 t
    = cc20__gather_mul_kernel (grid20.coords t) (Memref.whole main_v86) (Memref.isWhole_whole _) (Memref.whole main_v72) (Memref.isWhole_whole _)
        (stg20 a1 0 t) h3 (stg20 a1 1 t) h4 (Memref.whole cc20_scratch0) (Memref.isWhole_whole _) cc20_scratch1 := ⟨_, _, rfl⟩

end Out

/-! ## The body's run, joined to the proof data -/

section Body

variable (V : (c : Dev nD) → (b : Ref sig .tc) → Buf (Elt F) ((c : Thread nD τ).loc b))
  (a1 : (pcfg20 (F := F)).Adm)

/-- The scratch buffer whole at some contents, as a memref owned at some contents. -/
theorem scratchOwns_eq20 (c : Dev nD) :
    (iprop(∃ d, owns (c : Thread nD τ) (Memref.whole cc20_scratch0) fullShare d) : sProp 𝕄)
      = iprop(∃ f : Buf (Elt F) ((c : Thread nD τ).loc cc20_scratch0), ((c : Thread nD τ).loc cc20_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun20 (hlt : ∀ y, BitVec.toNat ((a1.1 0) y) < 100000) : BodyRun20 V a1 (outBlk20 V a1) := by
  intro c t W K
  obtain ⟨h3, h4, hprog⟩ := bodyProg_eq20 (F := F) a1 t
  rw [hprog, ownSems_eq20, ← scratchOwns_eq20 (F := F) c]
  have hrun := gather_kernel_run_20 (F := F) c (grid20.coords t) (Memref.whole main_v86) (Memref.isWhole_whole _) (Memref.whole main_v72) (Memref.isWhole_whole _)
    (stg20 a1 0 t) h3 (stg20 a1 1 t) h4 (Memref.whole cc20_scratch0) (Memref.isWhole_whole _) cc20_scratch1 fullShare fullShare
    (a1.1 0) (V c main_v72) (iblk20 V a1 c 0 t) (fun y => hlt y) W K
  simp only [Memref.view_whole, View.read_whole] at hrun
  unfold outBlk20
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut20 (hlt : ∀ y, BitVec.toNat ((a1.1 0) y) < 100000) (c : Dev nD) :
    BodyObligation (dat20 (F := F) V a1 (outBlk20 V a1) c) (defs₀ (F := F)) Variants.none () Set.univ :=
  body_obligation20 V a1 (outBlk20 V a1) (bodyRun20 V a1 hlt) c

end Body

/-! # Region 21 -/

/-! ## The body's own transfer cells -/

/-- The eight cells of the body's semaphore array, in order. -/
abbrev osem21 : Fin 8 → SemLoc sig := fun j => SemLoc.dma (cc21_scratch1.ix (fun | ⟨0, _⟩ => j))

/-- They are scoped, pairwise distinct, and none is a staging cell of a window. -/
theorem ownSemFacts21 : Pipeline.OwnSemFacts spec21 osem21 := by decide

/-- The far operand is an unscoped buffer that is neither a window's array nor a table. -/
theorem hx_sub21 : ({main_v72} : Finset (Ref sig .tc)) ⊆ Pipeline.restRefsP sig pre21 spec21 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg21 (F := F)).Adm)
  (O : (c : Dev nD) → Fin (cfg21 a1).N → Vec F S8x64 .f32)

/-! ## The windows' blocks -/

/-- Window w's block at point t, read off its array under V. -/
def iblk21 (c : Dev nD) (w : Fin (cfg21 a1).W) (t : Fin (cfg21 a1).N) :
    (((cfg21 a1).win w).xblock ((cfg21 a1).grid.coords t)).Idx → Elt F ((cfg21 a1).win w).elt :=
  (((cfg21 a1).win w).blk t).view.read (Elt F) (V c (Pipeline.arrRef spec21 w))

/-- The input window's current staging buffer holds its block at every point, fetched there or not, for any proof
    data whose array is V's and whose body leaves the block in place: unfetched, the block index has not moved. -/
theorem beforeIn21_of {c : Dev nD} (dat : Dat τ (Elt F) Unit ℕ (UD sig nD τ) ℕ (cfg21 a1) c)
    (hA : dat.A 0 = V c (Pipeline.arrRef spec21 0))
    (hafter : ∀ t, dat.after 0 t = iblk21 V a1 c 0 t) (t : Fin (cfg21 a1).N) (d) : dat.before 0 t d = iblk21 V a1 c 0 t :=
  (dat.before_in_eq_fetched 0 rfl (fun _ => rfl) (fun _ _ _ => rfl)
    (fun t => by rw [hafter]; unfold Dat.blockOf iblk21; rw [hA]; try rfl) t d).trans
    (by unfold Dat.fetched Dat.blockOf iblk21; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat21 (c : Dev nD) : Dat τ (Elt F) Unit ℕ (UD sig nD τ) ℕ (cfg21 a1) c where
  A w := V c (Pipeline.arrRef spec21 w)
  after w t := match w with
    | ⟨0, _⟩ => iblk21 V a1 c 0 t
    | ⟨1, _⟩ => O c t
  Φ _ := iprop(Pipeline.ΦD osem21 spec21 {main_v72} V c ∗ Pipeline.prefHeld pre21 c (fun _ => fullShare) a1.1)
  q _ := fullShare
  owed _ := 0

theorem A_eq21 (c : Dev nD) (w : Fin (cfg21 a1).W) : (dat21 V a1 O c).A w = V c (Pipeline.arrRef spec21 w) := by
  dsimp only [dat21]

theorem afterIn21 (c : Dev nD) (t : Fin (cfg21 a1).N) : (dat21 V a1 O c).after 0 t = iblk21 V a1 c 0 t := by
  dsimp only [dat21]; rfl

theorem afterOut21 (c : Dev nD) (t : Fin (cfg21 a1).N) :
    (dat21 V a1 O c).after 1 t = O c t := by
  dsimp only [dat21]; rfl

theorem beforeIn21 (c : Dev nD) (t : Fin (cfg21 a1).N) (d) : (dat21 V a1 O c).before 0 t d = iblk21 V a1 c 0 t :=
  beforeIn21_of V a1 (dat21 V a1 O c) (A_eq21 V a1 O c 0) (afterIn21 V a1 O c) t d

theorem Phi_eq21 (c : Dev nD) (t : Fin ((cfg21 a1).N + 1)) :
    (dat21 V a1 O c).Φ t
      = iprop(Pipeline.ΦD osem21 spec21 {main_v72} V c ∗ Pipeline.prefHeld pre21 c (fun _ => fullShare) a1.1) := by
  dsimp only [dat21]

theorem owed_eq21 (c : Dev nD) (t : Fin ((cfg21 a1).N + 1)) : (dat21 V a1 O c).owed t = 0 := by
  dsimp only [dat21]

/-! ## The invariant, conjunct by conjunct -/

/-- The invariant's first part opened: the body's scratch buffer whole at some contents and the other scoped
    buffers no window stages, the generator register, the own cells at zero, the far operand at its contents. -/
theorem PhiD_eq21 (c : Dev nD) :
    (Pipeline.ΦD osem21 spec21 {main_v72} V c : sProp 𝕄)
      = iprop(iprop(iprop((∃ f : Buf (Elt F) ((c : Thread nD τ).loc cc21_scratch0), ((c : Thread nD τ).loc cc21_scratch0) ↦{fullShare} f))
            ∗ Pipeline.scopedRestBut (Ix := Unit) (Name := ℕ) (U := UD sig nD τ) (Lvl := ℕ) (Val := Elt F) spec21 c [cc21_scratch0])
          ∗ (∃ r, prngReg c r)
          ∗ Pipeline.ownSems0 (Ix := Unit) (Name := ℕ) (U := UD sig nD τ) (Lvl := ℕ) (Val := Elt F) (τ := τ) osem21 c
          ∗ (((c : Thread nD τ).loc main_v72) ↦{fullShare} V c main_v72)) := by
  rw [Pipeline.ΦD_eq, scopedRest21_split, BI.bigSep_eq_bigSepL_of_eq [main_v72] (by decide) (by decide)]; rfl

/-- The one table, held whole. -/
theorem prefHeld_eq21 (c : Dev nD) :
    (Pipeline.prefHeld pre21 c (fun _ => fullShare) a1.1 : sProp 𝕄)
      = (((c : Thread nD τ).loc main_v90) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg21 (w : Fin (cfg21 a1).W) (t : Fin (cfg21 a1).N) := ((cfg21 a1).win w).stage ((cfg21 a1).slots t w)

/-- The body as the pipeline calls it at point t. -/
abbrev bodyProg21 (t : Fin (cfg21 a1).N) : Prog (TpuEff nD τ sig (Elt F) Λ₀ .tc) PUnit :=
  (defs₀ (F := F)) .tc (cfg21 a1).body ((cfg21 a1).bodyArgs t ((cfg21 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun21 : Prop :=
  ∀ (c : Dev nD) (t : Fin (cfg21 a1).N) (W) (K : PUnit → sProp 𝕄),
    iprop(owns (c : Thread nD τ) (stg21 a1 0 t) fullShare (iblk21 V a1 c 0 t)
        ∗ (∃ d, owns (c : Thread nD τ) (stg21 a1 1 t) fullShare d)
        ∗ (∃ f : Buf (Elt F) ((c : Thread nD τ).loc cc21_scratch0), ((c : Thread nD τ).loc cc21_scratch0) ↦{fullShare} f)
        ∗ Pipeline.ownSems0 (Ix := Unit) (Name := ℕ) (U := UD sig nD τ) (Lvl := ℕ) (Val := Elt F) (τ := τ) osem21 c
        ∗ (((c : Thread nD τ).loc main_v90) ↦{fullShare} a1.1 0)
        ∗ (((c : Thread nD τ).loc main_v72) ↦{fullShare} V c main_v72)
        ∗ owes (c : Thread nD τ) (0 : CellTallies nD τ sig Unit) W
        ∗ (iprop(owns (c : Thread nD τ) (stg21 a1 0 t) fullShare (iblk21 V a1 c 0 t)
            ∗ owns (c : Thread nD τ) (stg21 a1 1 t) fullShare (O c t)
            ∗ (∃ f : Buf (Elt F) ((c : Thread nD τ).loc cc21_scratch0), ((c : Thread nD τ).loc cc21_scratch0) ↦{fullShare} f)
            ∗ Pipeline.ownSems0 (Ix := Unit) (Name := ℕ) (U := UD sig nD τ) (Lvl := ℕ) (Val := Elt F) (τ := τ) osem21 c
            ∗ (((c : Thread nD τ).loc main_v90) ↦{fullShare} a1.1 0)
            ∗ (((c : Thread nD τ).loc main_v72) ↦{fullShare} V c main_v72)
            ∗ (∃ W', owes (c : Thread nD τ) (0 : CellTallies nD τ sig Unit) W')) -∗ K ⟨⟩))
      ⊢ wp frame (wpE (defs₀ (F := F)) Variants.none c none) Set.univ (bodyProg21 a1 t) K

/-- What the body is called with at point t, the windows one by one, -/
def bodyPre21 (c : Dev nD) (t : Fin (cfg21 a1).N) : sProp 𝕄 :=
  iprop((dat21 V a1 O c).Φ t.castSucc ∗ (dat21 V a1 O c).owesAt () t.castSucc
    ∗ (∃ d, owns (c : Thread nD τ) (stg21 a1 0 t) fullShare ((dat21 V a1 O c).before 0 t d))
    ∗ (∃ d, owns (c : Thread nD τ) (stg21 a1 1 t) fullShare ((dat21 V a1 O c).before 1 t d)))

/-- and what it returns. -/
def bodyPost21 (c : Dev nD) (t : Fin (cfg21 a1).N) : sProp 𝕄 :=
  iprop((dat21 V a1 O c).Φ t.succ ∗ (dat21 V a1 O c).owesAt () t.succ
    ∗ owns (c : Thread nD τ) (stg21 a1 0 t) fullShare ((dat21 V a1 O c).after 0 t)
    ∗ owns (c : Thread nD τ) (stg21 a1 1 t) fullShare ((dat21 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body21 (hrun : BodyRun21 V a1 O) (c : Dev nD) (t : Fin (cfg21 a1).N) :
    bodyPre21 V a1 O c t
      ⊢ wp frame (wpE (defs₀ (F := F)) Variants.none c none) Set.univ (bodyProg21 a1 t) (fun _ => bodyPost21 V a1 O c t) := by
  unfold bodyPre21 bodyPost21
  simp only [beforeIn21]
  rw [afterIn21, afterOut21, Phi_eq21, Phi_eq21, PhiD_eq21, prefHeld_eq21]
  unfold Dat.owesAt Pipeline.owesWithin
  rw [owed_eq21, owed_eq21]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation21 (hrun : BodyRun21 V a1 O) (c : Dev nD) :
    BodyObligation (dat21 (F := F) V a1 O c) (defs₀ (F := F)) Variants.none () Set.univ := fun t => by
  rw [bigSep_W21, bigSep_W21]
  exact sound_body21 V a1 O hrun c t

end Data

/-! ## The region's record -/

section Record

variable (Win : Dev nD → Valuation τ sig (Elt F))

variable (a1 : (pcfg21 (F := F)).Adm)
  (O : (c : Dev nD) → Fin (cfg21 a1).N → Vec F S8x64 .f32)

/-- The buffers at the region's exit: its arrays at what the write-backs leave, every other buffer as entered. -/
def Wout21 (c : Dev nD) : Valuation τ sig (Elt F) :=
  Pipeline.withArrays spec21 c (Win c) fun w => (dat21 (Vof Win) a1 O c).arrAt w (cfg21 a1).N

theorem Wout21_arr (c : Dev nD) (w : Fin (cfg21 a1).W) :
    Wout21 Win a1 O c (Proc.devRef .tc (Pipeline.arrRef spec21 w)) = (dat21 (Vof Win) a1 O c).arrAt w (cfg21 a1).N := by
  unfold Wout21; exact Pipeline.withArrays_arr spec21 winFacts21.arr_inj c _ _ w

theorem Wout21_of_ne (c : Dev nD) (b : Ref sig .tc) (hb : ∀ w, Pipeline.arrRef spec21 w ≠ b) :
    Wout21 Win a1 O c (Proc.devRef .tc b) = Win c (Proc.devRef .tc b) := by
  unfold Wout21; exact Pipeline.withArrays_of_ne spec21 c _ _ b hb

/-- ENTRY, the buffers' part. Every unscoped buffer at Win is: the region's arrays at the proof data's entry contents,
    the table whole at the admissible contents (which are Win's there), the far operand whole, and the others. -/
theorem entry21 (c : Dev nD) (ha1 : ∀ k, Vof Win c (pre21.ref k) = a1.1 k) :
    (StableHlo.held (c : Thread nD τ) (Pipeline.ucRefs τ sig) (Win c) : sProp 𝕄)
      ⊢ iprop((dat21 (Vof Win) a1 O c).arrays ((dat21 (Vof Win) a1 O c).arrAt · 0)
          ∗ Pipeline.prefHeld pre21 c (fun _ => fullShare) a1.1
          ∗ (bigSep ({main_v72} : Finset (Ref sig .tc)) fun b => (((c : Thread nD τ)).loc b) ↦{fullShare} Vof Win c b)
          ∗ bigSep (Pipeline.restRefsP sig pre21 spec21 \ {main_v72}) fun b => (((c : Thread nD τ)).loc b) ↦{fullShare} Vof Win c b) := by
  have hsplit := Pipeline.arrays_of_unscopedBufs (p := ()) (fun (_ : Unit) => pcfg21 (F := F)) (fun _ => a1)
    (fun _ c => dat21 (Vof Win) a1 O c) winFacts21 (launch21 (F := F)).arr_whole c
    ((dat21 (Vof Win) a1 O c).share_full fun _ => rfl) (Vof Win c) (fun w => A_eq21 (Vof Win) a1 O c w)
  rw [Pipeline.unscopedBufs_held,
    Pipeline.unscopedRest_split (Ix := Unit) (Name := ℕ) (U := UD sig nD τ) (Lvl := ℕ) preFacts21 c (Vof Win c),
    Pipeline.unscopedRestP_sdiff pre21 spec21 {main_v72} hx_sub21 c (Vof Win c),
    show (fun k => Vof Win c (pre21.ref k)) = a1.1 from funext ha1] at hsplit
  exact hsplit

/-- EXIT, the buffers' part: the same four put back, the arrays at what the write-backs leave, are every unscoped
    buffer at the exit valuation. -/
theorem exit21 (c : Dev nD) (ha1 : ∀ k, Vof Win c (pre21.ref k) = a1.1 k) :
    iprop((dat21 (Vof Win) a1 O c).arrays ((dat21 (Vof Win) a1 O c).arrAt · (cfg21 a1).N)
        ∗ Pipeline.prefHeld pre21 c (fun _ => fullShare) a1.1
        ∗ (bigSep ({main_v72} : Finset (Ref sig .tc)) fun b => (((c : Thread nD τ)).loc b) ↦{fullShare} Vof Win c b)
        ∗ bigSep (Pipeline.restRefsP sig pre21 spec21 \ {main_v72}) fun b => (((c : Thread nD τ)).loc b) ↦{fullShare} Vof Win c b)
      ⊢ (StableHlo.held (c : Thread nD τ) (Pipeline.ucRefs τ sig) (Wout21 Win a1 O c) : sProp 𝕄) := by
  have hjoin := Pipeline.unscopedBufs_of_arrays (p := ()) (fun (_ : Unit) => pcfg21 (F := F)) (fun _ => a1)
    (Ix := Unit) (Name := ℕ) (U := UD sig nD τ) (Lvl := ℕ)
    winFacts21 (launch21 (F := F)).arr_whole c (fun _ c => dat21 (Vof Win) a1 O c)
    ((dat21 (Vof Win) a1 O c).share_full fun _ => rfl)
    (Vof Win c) (Vof (Wout21 Win a1 O) c) ((dat21 (Vof Win) a1 O c).arrAt · (cfg21 a1).N)
    (fun w => (Wout21_arr Win a1 O c w).symm)
    (fun b hb => Wout21_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts21 c (Vof Win c),
    Pipeline.unscopedRestP_sdiff pre21 spec21 {main_v72} hx_sub21 c (Vof Win c),
    show (fun k => Vof Win c (pre21.ref k)) = a1.1 from funext ha1] at hjoin
  exact hjoin

end Record

section Seg

variable (Win : Dev nD → Valuation τ sig (Elt F))
  (adm : (p : Fin 49) → (pcfgs (F := F) p).Adm)
  (O : (c : Dev nD) → Fin (cfg21 (adm (21 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout21. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg21 (hd : ∀ c, pdats (21 : Fin 49) c = dat21 (Vof Win) (adm (21 : Fin 49)) O c)
    (ha1 : ∀ c k, Vof Win c (pre21.ref k) = (adm (21 : Fin 49)).1 k)
    (hbody : ∀ c, BodyObligation (dat21 (F := F) (Vof Win) (adm (21 : Fin 49)) O c) (defs₀ (F := F)) 𝒱₀ () Set.univ) :
    Pipeline.RegionSeg (pcfgs (F := F)) adm pdats () defs₀ 𝒱₀ L lv (21 : Fin 49) where
  win := (launch21 (F := F)).win.to₀
  block_pos := (launch21 (F := F)).block_pos
  stage_whole := (launch21 (F := F)).stage_whole
  K := Fin 8
  osem := osem21
  ho := ownSemFacts21
  hbody c := by rw [hd c]; exact (hbody c).loose
  hwaits := Pipeline.hwaits_of_owed_zero _ _ _ _ L lv (21 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout21 Win (adm (21 : Fin 49)) O c) ∗ R c)
  X c := iprop((∃ r, prngReg c r)
    ∗ Pipeline.ownSems0 (Ix := Unit) (Name := ℕ) (U := UD sig nD τ) (Lvl := ℕ) (Val := Elt F) (τ := τ) osem21 c
    ∗ (bigSep ({main_v72} : Finset (Ref sig .tc)) fun b => (((c : Thread nD τ)).loc b) ↦{fullShare} Vof Win c b))
  Y c := iprop((∃ r, prngReg c r)
    ∗ (bigSep ({main_v72} : Finset (Ref sig .tc)) fun b => (((c : Thread nD τ)).loc b) ↦{fullShare} Vof Win c b)
    ∗ Pipeline.prefHeld pre21 c (fun _ => fullShare) (adm (21 : Fin 49)).1)
  Z c := bigSep (Pipeline.restRefsP sig pre21 spec21 \ {main_v72}) fun b => (((c : Thread nD τ)).loc b) ↦{fullShare} Vof Win c b
  hentry c := by
    rw [hd c]
    iintro ⟨⟨Hub, Hp, HO⟩, Hos, -⟩
    ihave H := (entry21 Win (adm (21 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq21, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq21, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit21 Win (adm (21 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg21 (F := F)).Adm)

/-- The output block at point t: the gathered rows (of the far operand's contents under V, chosen by the table's
    words at that point) times the input block. -/
def outBlk21 (c : Dev nD) (t : Fin (cfg21 a1).N) : Vec F S8x64 .f32 :=
  gatherOut (gatherG (a1.1 0) (V c main_v72) (grid21.coords t)) (iblk21 V a1 c 0 t)

theorem outBlk_eq21 (c : Dev nD) (t : Fin (cfg21 a1).N) :
    outBlk21 V a1 c t = gatherOut (gatherG (a1.1 0) (V c main_v72) (grid21.coords t)) (iblk21 V a1 c 0 t) := rfl

/-- The proof data with the output block named: after the body at point t the output window's buffer holds it. -/
theorem afterOutBlk21 (c : Dev nD) (t : Fin (cfg21 a1).N) :
    (dat21 V a1 (outBlk21 V a1) c).after 1 t
      = gatherOut (gatherG (a1.1 0) (V c main_v72) (grid21.coords t)) (iblk21 V a1 c 0 t) :=
  afterOut21 V a1 (outBlk21 V a1) c t

/-- The own cells at zero are the semaphore array's eight entries at zero, in order. -/
theorem ownSems_eq21 (c : Dev nD) :
    (Pipeline.ownSems0 (Ix := Unit) (Name := ℕ) (U := UD sig nD τ) (Lvl := ℕ) (Val := Elt F) (τ := τ) osem21 c : sProp 𝕄)
      = gsems0 c cc21_scratch1 := by
  rw [Pipeline.ownSems0_eq_of_list c osem21 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq21 (t : Fin (cfg21 a1).N) : ∃ h3 h4, bodyProg21 (F := F) a1 t
    = cc21__gather_mul_kernel (grid21.coords t) (Memref.whole main_v90) (Memref.isWhole_whole _) (Memref.whole main_v72) (Memref.isWhole_whole _)
        (stg21 a1 0 t) h3 (stg21 a1 1 t) h4 (Memref.whole cc21_scratch0) (Memref.isWhole_whole _) cc21_scratch1 := ⟨_, _, rfl⟩

end Out

/-! ## The body's run, joined to the proof data -/

section Body

variable (V : (c : Dev nD) → (b : Ref sig .tc) → Buf (Elt F) ((c : Thread nD τ).loc b))
  (a1 : (pcfg21 (F := F)).Adm)

/-- The scratch buffer whole at some contents, as a memref owned at some contents. -/
theorem scratchOwns_eq21 (c : Dev nD) :
    (iprop(∃ d, owns (c : Thread nD τ) (Memref.whole cc21_scratch0) fullShare d) : sProp 𝕄)
      = iprop(∃ f : Buf (Elt F) ((c : Thread nD τ).loc cc21_scratch0), ((c : Thread nD τ).loc cc21_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun21 (hlt : ∀ y, BitVec.toNat ((a1.1 0) y) < 100000) : BodyRun21 V a1 (outBlk21 V a1) := by
  intro c t W K
  obtain ⟨h3, h4, hprog⟩ := bodyProg_eq21 (F := F) a1 t
  rw [hprog, ownSems_eq21, ← scratchOwns_eq21 (F := F) c]
  have hrun := gather_kernel_run_21 (F := F) c (grid21.coords t) (Memref.whole main_v90) (Memref.isWhole_whole _) (Memref.whole main_v72) (Memref.isWhole_whole _)
    (stg21 a1 0 t) h3 (stg21 a1 1 t) h4 (Memref.whole cc21_scratch0) (Memref.isWhole_whole _) cc21_scratch1 fullShare fullShare
    (a1.1 0) (V c main_v72) (iblk21 V a1 c 0 t) (fun y => hlt y) W K
  simp only [Memref.view_whole, View.read_whole] at hrun
  unfold outBlk21
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut21 (hlt : ∀ y, BitVec.toNat ((a1.1 0) y) < 100000) (c : Dev nD) :
    BodyObligation (dat21 (F := F) V a1 (outBlk21 V a1) c) (defs₀ (F := F)) Variants.none () Set.univ :=
  body_obligation21 V a1 (outBlk21 V a1) (bodyRun21 V a1 hlt) c

end Body

/-! # Region 22 -/

/-! ## The body's own transfer cells -/

/-- The eight cells of the body's semaphore array, in order. -/
abbrev osem22 : Fin 8 → SemLoc sig := fun j => SemLoc.dma (cc22_scratch1.ix (fun | ⟨0, _⟩ => j))

/-- They are scoped, pairwise distinct, and none is a staging cell of a window. -/
theorem ownSemFacts22 : Pipeline.OwnSemFacts spec22 osem22 := by decide

/-- The far operand is an unscoped buffer that is neither a window's array nor a table. -/
theorem hx_sub22 : ({main_v72} : Finset (Ref sig .tc)) ⊆ Pipeline.restRefsP sig pre22 spec22 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg22 (F := F)).Adm)
  (O : (c : Dev nD) → Fin (cfg22 a1).N → Vec F S8x64 .f32)

/-! ## The windows' blocks -/

/-- Window w's block at point t, read off its array under V. -/
def iblk22 (c : Dev nD) (w : Fin (cfg22 a1).W) (t : Fin (cfg22 a1).N) :
    (((cfg22 a1).win w).xblock ((cfg22 a1).grid.coords t)).Idx → Elt F ((cfg22 a1).win w).elt :=
  (((cfg22 a1).win w).blk t).view.read (Elt F) (V c (Pipeline.arrRef spec22 w))

/-- The input window's current staging buffer holds its block at every point, fetched there or not, for any proof
    data whose array is V's and whose body leaves the block in place: unfetched, the block index has not moved. -/
theorem beforeIn22_of {c : Dev nD} (dat : Dat τ (Elt F) Unit ℕ (UD sig nD τ) ℕ (cfg22 a1) c)
    (hA : dat.A 0 = V c (Pipeline.arrRef spec22 0))
    (hafter : ∀ t, dat.after 0 t = iblk22 V a1 c 0 t) (t : Fin (cfg22 a1).N) (d) : dat.before 0 t d = iblk22 V a1 c 0 t :=
  (dat.before_in_eq_fetched 0 rfl (fun _ => rfl) (fun _ _ _ => rfl)
    (fun t => by rw [hafter]; unfold Dat.blockOf iblk22; rw [hA]; try rfl) t d).trans
    (by unfold Dat.fetched Dat.blockOf iblk22; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat22 (c : Dev nD) : Dat τ (Elt F) Unit ℕ (UD sig nD τ) ℕ (cfg22 a1) c where
  A w := V c (Pipeline.arrRef spec22 w)
  after w t := match w with
    | ⟨0, _⟩ => iblk22 V a1 c 0 t
    | ⟨1, _⟩ => O c t
  Φ _ := iprop(Pipeline.ΦD osem22 spec22 {main_v72} V c ∗ Pipeline.prefHeld pre22 c (fun _ => fullShare) a1.1)
  q _ := fullShare
  owed _ := 0

theorem A_eq22 (c : Dev nD) (w : Fin (cfg22 a1).W) : (dat22 V a1 O c).A w = V c (Pipeline.arrRef spec22 w) := by
  dsimp only [dat22]

theorem afterIn22 (c : Dev nD) (t : Fin (cfg22 a1).N) : (dat22 V a1 O c).after 0 t = iblk22 V a1 c 0 t := by
  dsimp only [dat22]; rfl

theorem afterOut22 (c : Dev nD) (t : Fin (cfg22 a1).N) :
    (dat22 V a1 O c).after 1 t = O c t := by
  dsimp only [dat22]; rfl

theorem beforeIn22 (c : Dev nD) (t : Fin (cfg22 a1).N) (d) : (dat22 V a1 O c).before 0 t d = iblk22 V a1 c 0 t :=
  beforeIn22_of V a1 (dat22 V a1 O c) (A_eq22 V a1 O c 0) (afterIn22 V a1 O c) t d

theorem Phi_eq22 (c : Dev nD) (t : Fin ((cfg22 a1).N + 1)) :
    (dat22 V a1 O c).Φ t
      = iprop(Pipeline.ΦD osem22 spec22 {main_v72} V c ∗ Pipeline.prefHeld pre22 c (fun _ => fullShare) a1.1) := by
  dsimp only [dat22]

theorem owed_eq22 (c : Dev nD) (t : Fin ((cfg22 a1).N + 1)) : (dat22 V a1 O c).owed t = 0 := by
  dsimp only [dat22]

/-! ## The invariant, conjunct by conjunct -/

/-- The invariant's first part opened: the body's scratch buffer whole at some contents and the other scoped
    buffers no window stages, the generator register, the own cells at zero, the far operand at its contents. -/
theorem PhiD_eq22 (c : Dev nD) :
    (Pipeline.ΦD osem22 spec22 {main_v72} V c : sProp 𝕄)
      = iprop(iprop(iprop((∃ f : Buf (Elt F) ((c : Thread nD τ).loc cc22_scratch0), ((c : Thread nD τ).loc cc22_scratch0) ↦{fullShare} f))
            ∗ Pipeline.scopedRestBut (Ix := Unit) (Name := ℕ) (U := UD sig nD τ) (Lvl := ℕ) (Val := Elt F) spec22 c [cc22_scratch0])
          ∗ (∃ r, prngReg c r)
          ∗ Pipeline.ownSems0 (Ix := Unit) (Name := ℕ) (U := UD sig nD τ) (Lvl := ℕ) (Val := Elt F) (τ := τ) osem22 c
          ∗ (((c : Thread nD τ).loc main_v72) ↦{fullShare} V c main_v72)) := by
  rw [Pipeline.ΦD_eq, scopedRest22_split, BI.bigSep_eq_bigSepL_of_eq [main_v72] (by decide) (by decide)]; rfl

/-- The one table, held whole. -/
theorem prefHeld_eq22 (c : Dev nD) :
    (Pipeline.prefHeld pre22 c (fun _ => fullShare) a1.1 : sProp 𝕄)
      = (((c : Thread nD τ).loc main_v94) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg22 (w : Fin (cfg22 a1).W) (t : Fin (cfg22 a1).N) := ((cfg22 a1).win w).stage ((cfg22 a1).slots t w)

/-- The body as the pipeline calls it at point t. -/
abbrev bodyProg22 (t : Fin (cfg22 a1).N) : Prog (TpuEff nD τ sig (Elt F) Λ₀ .tc) PUnit :=
  (defs₀ (F := F)) .tc (cfg22 a1).body ((cfg22 a1).bodyArgs t ((cfg22 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun22 : Prop :=
  ∀ (c : Dev nD) (t : Fin (cfg22 a1).N) (W) (K : PUnit → sProp 𝕄),
    iprop(owns (c : Thread nD τ) (stg22 a1 0 t) fullShare (iblk22 V a1 c 0 t)
        ∗ (∃ d, owns (c : Thread nD τ) (stg22 a1 1 t) fullShare d)
        ∗ (∃ f : Buf (Elt F) ((c : Thread nD τ).loc cc22_scratch0), ((c : Thread nD τ).loc cc22_scratch0) ↦{fullShare} f)
        ∗ Pipeline.ownSems0 (Ix := Unit) (Name := ℕ) (U := UD sig nD τ) (Lvl := ℕ) (Val := Elt F) (τ := τ) osem22 c
        ∗ (((c : Thread nD τ).loc main_v94) ↦{fullShare} a1.1 0)
        ∗ (((c : Thread nD τ).loc main_v72) ↦{fullShare} V c main_v72)
        ∗ owes (c : Thread nD τ) (0 : CellTallies nD τ sig Unit) W
        ∗ (iprop(owns (c : Thread nD τ) (stg22 a1 0 t) fullShare (iblk22 V a1 c 0 t)
            ∗ owns (c : Thread nD τ) (stg22 a1 1 t) fullShare (O c t)
            ∗ (∃ f : Buf (Elt F) ((c : Thread nD τ).loc cc22_scratch0), ((c : Thread nD τ).loc cc22_scratch0) ↦{fullShare} f)
            ∗ Pipeline.ownSems0 (Ix := Unit) (Name := ℕ) (U := UD sig nD τ) (Lvl := ℕ) (Val := Elt F) (τ := τ) osem22 c
            ∗ (((c : Thread nD τ).loc main_v94) ↦{fullShare} a1.1 0)
            ∗ (((c : Thread nD τ).loc main_v72) ↦{fullShare} V c main_v72)
            ∗ (∃ W', owes (c : Thread nD τ) (0 : CellTallies nD τ sig Unit) W')) -∗ K ⟨⟩))
      ⊢ wp frame (wpE (defs₀ (F := F)) Variants.none c none) Set.univ (bodyProg22 a1 t) K

/-- What the body is called with at point t, the windows one by one, -/
def bodyPre22 (c : Dev nD) (t : Fin (cfg22 a1).N) : sProp 𝕄 :=
  iprop((dat22 V a1 O c).Φ t.castSucc ∗ (dat22 V a1 O c).owesAt () t.castSucc
    ∗ (∃ d, owns (c : Thread nD τ) (stg22 a1 0 t) fullShare ((dat22 V a1 O c).before 0 t d))
    ∗ (∃ d, owns (c : Thread nD τ) (stg22 a1 1 t) fullShare ((dat22 V a1 O c).before 1 t d)))

/-- and what it returns. -/
def bodyPost22 (c : Dev nD) (t : Fin (cfg22 a1).N) : sProp 𝕄 :=
  iprop((dat22 V a1 O c).Φ t.succ ∗ (dat22 V a1 O c).owesAt () t.succ
    ∗ owns (c : Thread nD τ) (stg22 a1 0 t) fullShare ((dat22 V a1 O c).after 0 t)
    ∗ owns (c : Thread nD τ) (stg22 a1 1 t) fullShare ((dat22 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body22 (hrun : BodyRun22 V a1 O) (c : Dev nD) (t : Fin (cfg22 a1).N) :
    bodyPre22 V a1 O c t
      ⊢ wp frame (wpE (defs₀ (F := F)) Variants.none c none) Set.univ (bodyProg22 a1 t) (fun _ => bodyPost22 V a1 O c t) := by
  unfold bodyPre22 bodyPost22
  simp only [beforeIn22]
  rw [afterIn22, afterOut22, Phi_eq22, Phi_eq22, PhiD_eq22, prefHeld_eq22]
  unfold Dat.owesAt Pipeline.owesWithin
  rw [owed_eq22, owed_eq22]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation22 (hrun : BodyRun22 V a1 O) (c : Dev nD) :
    BodyObligation (dat22 (F := F) V a1 O c) (defs₀ (F := F)) Variants.none () Set.univ := fun t => by
  rw [bigSep_W22, bigSep_W22]
  exact sound_body22 V a1 O hrun c t

end Data

/-! ## The region's record -/

section Record

variable (Win : Dev nD → Valuation τ sig (Elt F))

variable (a1 : (pcfg22 (F := F)).Adm)
  (O : (c : Dev nD) → Fin (cfg22 a1).N → Vec F S8x64 .f32)

/-- The buffers at the region's exit: its arrays at what the write-backs leave, every other buffer as entered. -/
def Wout22 (c : Dev nD) : Valuation τ sig (Elt F) :=
  Pipeline.withArrays spec22 c (Win c) fun w => (dat22 (Vof Win) a1 O c).arrAt w (cfg22 a1).N

theorem Wout22_arr (c : Dev nD) (w : Fin (cfg22 a1).W) :
    Wout22 Win a1 O c (Proc.devRef .tc (Pipeline.arrRef spec22 w)) = (dat22 (Vof Win) a1 O c).arrAt w (cfg22 a1).N := by
  unfold Wout22; exact Pipeline.withArrays_arr spec22 winFacts22.arr_inj c _ _ w

theorem Wout22_of_ne (c : Dev nD) (b : Ref sig .tc) (hb : ∀ w, Pipeline.arrRef spec22 w ≠ b) :
    Wout22 Win a1 O c (Proc.devRef .tc b) = Win c (Proc.devRef .tc b) := by
  unfold Wout22; exact Pipeline.withArrays_of_ne spec22 c _ _ b hb

/-- ENTRY, the buffers' part. Every unscoped buffer at Win is: the region's arrays at the proof data's entry contents,
    the table whole at the admissible contents (which are Win's there), the far operand whole, and the others. -/
theorem entry22 (c : Dev nD) (ha1 : ∀ k, Vof Win c (pre22.ref k) = a1.1 k) :
    (StableHlo.held (c : Thread nD τ) (Pipeline.ucRefs τ sig) (Win c) : sProp 𝕄)
      ⊢ iprop((dat22 (Vof Win) a1 O c).arrays ((dat22 (Vof Win) a1 O c).arrAt · 0)
          ∗ Pipeline.prefHeld pre22 c (fun _ => fullShare) a1.1
          ∗ (bigSep ({main_v72} : Finset (Ref sig .tc)) fun b => (((c : Thread nD τ)).loc b) ↦{fullShare} Vof Win c b)
          ∗ bigSep (Pipeline.restRefsP sig pre22 spec22 \ {main_v72}) fun b => (((c : Thread nD τ)).loc b) ↦{fullShare} Vof Win c b) := by
  have hsplit := Pipeline.arrays_of_unscopedBufs (p := ()) (fun (_ : Unit) => pcfg22 (F := F)) (fun _ => a1)
    (fun _ c => dat22 (Vof Win) a1 O c) winFacts22 (launch22 (F := F)).arr_whole c
    ((dat22 (Vof Win) a1 O c).share_full fun _ => rfl) (Vof Win c) (fun w => A_eq22 (Vof Win) a1 O c w)
  rw [Pipeline.unscopedBufs_held,
    Pipeline.unscopedRest_split (Ix := Unit) (Name := ℕ) (U := UD sig nD τ) (Lvl := ℕ) preFacts22 c (Vof Win c),
    Pipeline.unscopedRestP_sdiff pre22 spec22 {main_v72} hx_sub22 c (Vof Win c),
    show (fun k => Vof Win c (pre22.ref k)) = a1.1 from funext ha1] at hsplit
  exact hsplit

/-- EXIT, the buffers' part: the same four put back, the arrays at what the write-backs leave, are every unscoped
    buffer at the exit valuation. -/
theorem exit22 (c : Dev nD) (ha1 : ∀ k, Vof Win c (pre22.ref k) = a1.1 k) :
    iprop((dat22 (Vof Win) a1 O c).arrays ((dat22 (Vof Win) a1 O c).arrAt · (cfg22 a1).N)
        ∗ Pipeline.prefHeld pre22 c (fun _ => fullShare) a1.1
        ∗ (bigSep ({main_v72} : Finset (Ref sig .tc)) fun b => (((c : Thread nD τ)).loc b) ↦{fullShare} Vof Win c b)
        ∗ bigSep (Pipeline.restRefsP sig pre22 spec22 \ {main_v72}) fun b => (((c : Thread nD τ)).loc b) ↦{fullShare} Vof Win c b)
      ⊢ (StableHlo.held (c : Thread nD τ) (Pipeline.ucRefs τ sig) (Wout22 Win a1 O c) : sProp 𝕄) := by
  have hjoin := Pipeline.unscopedBufs_of_arrays (p := ()) (fun (_ : Unit) => pcfg22 (F := F)) (fun _ => a1)
    (Ix := Unit) (Name := ℕ) (U := UD sig nD τ) (Lvl := ℕ)
    winFacts22 (launch22 (F := F)).arr_whole c (fun _ c => dat22 (Vof Win) a1 O c)
    ((dat22 (Vof Win) a1 O c).share_full fun _ => rfl)
    (Vof Win c) (Vof (Wout22 Win a1 O) c) ((dat22 (Vof Win) a1 O c).arrAt · (cfg22 a1).N)
    (fun w => (Wout22_arr Win a1 O c w).symm)
    (fun b hb => Wout22_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts22 c (Vof Win c),
    Pipeline.unscopedRestP_sdiff pre22 spec22 {main_v72} hx_sub22 c (Vof Win c),
    show (fun k => Vof Win c (pre22.ref k)) = a1.1 from funext ha1] at hjoin
  exact hjoin

end Record

section Seg

variable (Win : Dev nD → Valuation τ sig (Elt F))
  (adm : (p : Fin 49) → (pcfgs (F := F) p).Adm)
  (O : (c : Dev nD) → Fin (cfg22 (adm (22 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout22. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg22 (hd : ∀ c, pdats (22 : Fin 49) c = dat22 (Vof Win) (adm (22 : Fin 49)) O c)
    (ha1 : ∀ c k, Vof Win c (pre22.ref k) = (adm (22 : Fin 49)).1 k)
    (hbody : ∀ c, BodyObligation (dat22 (F := F) (Vof Win) (adm (22 : Fin 49)) O c) (defs₀ (F := F)) 𝒱₀ () Set.univ) :
    Pipeline.RegionSeg (pcfgs (F := F)) adm pdats () defs₀ 𝒱₀ L lv (22 : Fin 49) where
  win := (launch22 (F := F)).win.to₀
  block_pos := (launch22 (F := F)).block_pos
  stage_whole := (launch22 (F := F)).stage_whole
  K := Fin 8
  osem := osem22
  ho := ownSemFacts22
  hbody c := by rw [hd c]; exact (hbody c).loose
  hwaits := Pipeline.hwaits_of_owed_zero _ _ _ _ L lv (22 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout22 Win (adm (22 : Fin 49)) O c) ∗ R c)
  X c := iprop((∃ r, prngReg c r)
    ∗ Pipeline.ownSems0 (Ix := Unit) (Name := ℕ) (U := UD sig nD τ) (Lvl := ℕ) (Val := Elt F) (τ := τ) osem22 c
    ∗ (bigSep ({main_v72} : Finset (Ref sig .tc)) fun b => (((c : Thread nD τ)).loc b) ↦{fullShare} Vof Win c b))
  Y c := iprop((∃ r, prngReg c r)
    ∗ (bigSep ({main_v72} : Finset (Ref sig .tc)) fun b => (((c : Thread nD τ)).loc b) ↦{fullShare} Vof Win c b)
    ∗ Pipeline.prefHeld pre22 c (fun _ => fullShare) (adm (22 : Fin 49)).1)
  Z c := bigSep (Pipeline.restRefsP sig pre22 spec22 \ {main_v72}) fun b => (((c : Thread nD τ)).loc b) ↦{fullShare} Vof Win c b
  hentry c := by
    rw [hd c]
    iintro ⟨⟨Hub, Hp, HO⟩, Hos, -⟩
    ihave H := (entry22 Win (adm (22 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq22, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq22, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit22 Win (adm (22 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg22 (F := F)).Adm)

/-- The output block at point t: the gathered rows (of the far operand's contents under V, chosen by the table's
    words at that point) times the input block. -/
def outBlk22 (c : Dev nD) (t : Fin (cfg22 a1).N) : Vec F S8x64 .f32 :=
  gatherOut (gatherG (a1.1 0) (V c main_v72) (grid22.coords t)) (iblk22 V a1 c 0 t)

theorem outBlk_eq22 (c : Dev nD) (t : Fin (cfg22 a1).N) :
    outBlk22 V a1 c t = gatherOut (gatherG (a1.1 0) (V c main_v72) (grid22.coords t)) (iblk22 V a1 c 0 t) := rfl

/-- The proof data with the output block named: after the body at point t the output window's buffer holds it. -/
theorem afterOutBlk22 (c : Dev nD) (t : Fin (cfg22 a1).N) :
    (dat22 V a1 (outBlk22 V a1) c).after 1 t
      = gatherOut (gatherG (a1.1 0) (V c main_v72) (grid22.coords t)) (iblk22 V a1 c 0 t) :=
  afterOut22 V a1 (outBlk22 V a1) c t

/-- The own cells at zero are the semaphore array's eight entries at zero, in order. -/
theorem ownSems_eq22 (c : Dev nD) :
    (Pipeline.ownSems0 (Ix := Unit) (Name := ℕ) (U := UD sig nD τ) (Lvl := ℕ) (Val := Elt F) (τ := τ) osem22 c : sProp 𝕄)
      = gsems0 c cc22_scratch1 := by
  rw [Pipeline.ownSems0_eq_of_list c osem22 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq22 (t : Fin (cfg22 a1).N) : ∃ h3 h4, bodyProg22 (F := F) a1 t
    = cc22__gather_mul_kernel (grid22.coords t) (Memref.whole main_v94) (Memref.isWhole_whole _) (Memref.whole main_v72) (Memref.isWhole_whole _)
        (stg22 a1 0 t) h3 (stg22 a1 1 t) h4 (Memref.whole cc22_scratch0) (Memref.isWhole_whole _) cc22_scratch1 := ⟨_, _, rfl⟩

end Out

/-! ## The body's run, joined to the proof data -/

section Body

variable (V : (c : Dev nD) → (b : Ref sig .tc) → Buf (Elt F) ((c : Thread nD τ).loc b))
  (a1 : (pcfg22 (F := F)).Adm)

/-- The scratch buffer whole at some contents, as a memref owned at some contents. -/
theorem scratchOwns_eq22 (c : Dev nD) :
    (iprop(∃ d, owns (c : Thread nD τ) (Memref.whole cc22_scratch0) fullShare d) : sProp 𝕄)
      = iprop(∃ f : Buf (Elt F) ((c : Thread nD τ).loc cc22_scratch0), ((c : Thread nD τ).loc cc22_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun22 (hlt : ∀ y, BitVec.toNat ((a1.1 0) y) < 100000) : BodyRun22 V a1 (outBlk22 V a1) := by
  intro c t W K
  obtain ⟨h3, h4, hprog⟩ := bodyProg_eq22 (F := F) a1 t
  rw [hprog, ownSems_eq22, ← scratchOwns_eq22 (F := F) c]
  have hrun := gather_kernel_run_22 (F := F) c (grid22.coords t) (Memref.whole main_v94) (Memref.isWhole_whole _) (Memref.whole main_v72) (Memref.isWhole_whole _)
    (stg22 a1 0 t) h3 (stg22 a1 1 t) h4 (Memref.whole cc22_scratch0) (Memref.isWhole_whole _) cc22_scratch1 fullShare fullShare
    (a1.1 0) (V c main_v72) (iblk22 V a1 c 0 t) (fun y => hlt y) W K
  simp only [Memref.view_whole, View.read_whole] at hrun
  unfold outBlk22
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut22 (hlt : ∀ y, BitVec.toNat ((a1.1 0) y) < 100000) (c : Dev nD) :
    BodyObligation (dat22 (F := F) V a1 (outBlk22 V a1) c) (defs₀ (F := F)) Variants.none () Set.univ :=
  body_obligation22 V a1 (outBlk22 V a1) (bodyRun22 V a1 hlt) c

end Body

/-! # Region 23 -/

/-! ## The body's own transfer cells -/

/-- The eight cells of the body's semaphore array, in order. -/
abbrev osem23 : Fin 8 → SemLoc sig := fun j => SemLoc.dma (cc23_scratch1.ix (fun | ⟨0, _⟩ => j))

/-- They are scoped, pairwise distinct, and none is a staging cell of a window. -/
theorem ownSemFacts23 : Pipeline.OwnSemFacts spec23 osem23 := by decide

/-- The far operand is an unscoped buffer that is neither a window's array nor a table. -/
theorem hx_sub23 : ({main_v72} : Finset (Ref sig .tc)) ⊆ Pipeline.restRefsP sig pre23 spec23 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg23 (F := F)).Adm)
  (O : (c : Dev nD) → Fin (cfg23 a1).N → Vec F S8x64 .f32)

/-! ## The windows' blocks -/

/-- Window w's block at point t, read off its array under V. -/
def iblk23 (c : Dev nD) (w : Fin (cfg23 a1).W) (t : Fin (cfg23 a1).N) :
    (((cfg23 a1).win w).xblock ((cfg23 a1).grid.coords t)).Idx → Elt F ((cfg23 a1).win w).elt :=
  (((cfg23 a1).win w).blk t).view.read (Elt F) (V c (Pipeline.arrRef spec23 w))

/-- The input window's current staging buffer holds its block at every point, fetched there or not, for any proof
    data whose array is V's and whose body leaves the block in place: unfetched, the block index has not moved. -/
theorem beforeIn23_of {c : Dev nD} (dat : Dat τ (Elt F) Unit ℕ (UD sig nD τ) ℕ (cfg23 a1) c)
    (hA : dat.A 0 = V c (Pipeline.arrRef spec23 0))
    (hafter : ∀ t, dat.after 0 t = iblk23 V a1 c 0 t) (t : Fin (cfg23 a1).N) (d) : dat.before 0 t d = iblk23 V a1 c 0 t :=
  (dat.before_in_eq_fetched 0 rfl (fun _ => rfl) (fun _ _ _ => rfl)
    (fun t => by rw [hafter]; unfold Dat.blockOf iblk23; rw [hA]; try rfl) t d).trans
    (by unfold Dat.fetched Dat.blockOf iblk23; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat23 (c : Dev nD) : Dat τ (Elt F) Unit ℕ (UD sig nD τ) ℕ (cfg23 a1) c where
  A w := V c (Pipeline.arrRef spec23 w)
  after w t := match w with
    | ⟨0, _⟩ => iblk23 V a1 c 0 t
    | ⟨1, _⟩ => O c t
  Φ _ := iprop(Pipeline.ΦD osem23 spec23 {main_v72} V c ∗ Pipeline.prefHeld pre23 c (fun _ => fullShare) a1.1)
  q _ := fullShare
  owed _ := 0

theorem A_eq23 (c : Dev nD) (w : Fin (cfg23 a1).W) : (dat23 V a1 O c).A w = V c (Pipeline.arrRef spec23 w) := by
  dsimp only [dat23]

theorem afterIn23 (c : Dev nD) (t : Fin (cfg23 a1).N) : (dat23 V a1 O c).after 0 t = iblk23 V a1 c 0 t := by
  dsimp only [dat23]; rfl

theorem afterOut23 (c : Dev nD) (t : Fin (cfg23 a1).N) :
    (dat23 V a1 O c).after 1 t = O c t := by
  dsimp only [dat23]; rfl

theorem beforeIn23 (c : Dev nD) (t : Fin (cfg23 a1).N) (d) : (dat23 V a1 O c).before 0 t d = iblk23 V a1 c 0 t :=
  beforeIn23_of V a1 (dat23 V a1 O c) (A_eq23 V a1 O c 0) (afterIn23 V a1 O c) t d

theorem Phi_eq23 (c : Dev nD) (t : Fin ((cfg23 a1).N + 1)) :
    (dat23 V a1 O c).Φ t
      = iprop(Pipeline.ΦD osem23 spec23 {main_v72} V c ∗ Pipeline.prefHeld pre23 c (fun _ => fullShare) a1.1) := by
  dsimp only [dat23]

theorem owed_eq23 (c : Dev nD) (t : Fin ((cfg23 a1).N + 1)) : (dat23 V a1 O c).owed t = 0 := by
  dsimp only [dat23]

/-! ## The invariant, conjunct by conjunct -/

/-- The invariant's first part opened: the body's scratch buffer whole at some contents and the other scoped
    buffers no window stages, the generator register, the own cells at zero, the far operand at its contents. -/
theorem PhiD_eq23 (c : Dev nD) :
    (Pipeline.ΦD osem23 spec23 {main_v72} V c : sProp 𝕄)
      = iprop(iprop(iprop((∃ f : Buf (Elt F) ((c : Thread nD τ).loc cc23_scratch0), ((c : Thread nD τ).loc cc23_scratch0) ↦{fullShare} f))
            ∗ Pipeline.scopedRestBut (Ix := Unit) (Name := ℕ) (U := UD sig nD τ) (Lvl := ℕ) (Val := Elt F) spec23 c [cc23_scratch0])
          ∗ (∃ r, prngReg c r)
          ∗ Pipeline.ownSems0 (Ix := Unit) (Name := ℕ) (U := UD sig nD τ) (Lvl := ℕ) (Val := Elt F) (τ := τ) osem23 c
          ∗ (((c : Thread nD τ).loc main_v72) ↦{fullShare} V c main_v72)) := by
  rw [Pipeline.ΦD_eq, scopedRest23_split, BI.bigSep_eq_bigSepL_of_eq [main_v72] (by decide) (by decide)]; rfl

/-- The one table, held whole. -/
theorem prefHeld_eq23 (c : Dev nD) :
    (Pipeline.prefHeld pre23 c (fun _ => fullShare) a1.1 : sProp 𝕄)
      = (((c : Thread nD τ).loc main_v98) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg23 (w : Fin (cfg23 a1).W) (t : Fin (cfg23 a1).N) := ((cfg23 a1).win w).stage ((cfg23 a1).slots t w)

/-- The body as the pipeline calls it at point t. -/
abbrev bodyProg23 (t : Fin (cfg23 a1).N) : Prog (TpuEff nD τ sig (Elt F) Λ₀ .tc) PUnit :=
  (defs₀ (F := F)) .tc (cfg23 a1).body ((cfg23 a1).bodyArgs t ((cfg23 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun23 : Prop :=
  ∀ (c : Dev nD) (t : Fin (cfg23 a1).N) (W) (K : PUnit → sProp 𝕄),
    iprop(owns (c : Thread nD τ) (stg23 a1 0 t) fullShare (iblk23 V a1 c 0 t)
        ∗ (∃ d, owns (c : Thread nD τ) (stg23 a1 1 t) fullShare d)
        ∗ (∃ f : Buf (Elt F) ((c : Thread nD τ).loc cc23_scratch0), ((c : Thread nD τ).loc cc23_scratch0) ↦{fullShare} f)
        ∗ Pipeline.ownSems0 (Ix := Unit) (Name := ℕ) (U := UD sig nD τ) (Lvl := ℕ) (Val := Elt F) (τ := τ) osem23 c
        ∗ (((c : Thread nD τ).loc main_v98) ↦{fullShare} a1.1 0)
        ∗ (((c : Thread nD τ).loc main_v72) ↦{fullShare} V c main_v72)
        ∗ owes (c : Thread nD τ) (0 : CellTallies nD τ sig Unit) W
        ∗ (iprop(owns (c : Thread nD τ) (stg23 a1 0 t) fullShare (iblk23 V a1 c 0 t)
            ∗ owns (c : Thread nD τ) (stg23 a1 1 t) fullShare (O c t)
            ∗ (∃ f : Buf (Elt F) ((c : Thread nD τ).loc cc23_scratch0), ((c : Thread nD τ).loc cc23_scratch0) ↦{fullShare} f)
            ∗ Pipeline.ownSems0 (Ix := Unit) (Name := ℕ) (U := UD sig nD τ) (Lvl := ℕ) (Val := Elt F) (τ := τ) osem23 c
            ∗ (((c : Thread nD τ).loc main_v98) ↦{fullShare} a1.1 0)
            ∗ (((c : Thread nD τ).loc main_v72) ↦{fullShare} V c main_v72)
            ∗ (∃ W', owes (c : Thread nD τ) (0 : CellTallies nD τ sig Unit) W')) -∗ K ⟨⟩))
      ⊢ wp frame (wpE (defs₀ (F := F)) Variants.none c none) Set.univ (bodyProg23 a1 t) K

/-- What the body is called with at point t, the windows one by one, -/
def bodyPre23 (c : Dev nD) (t : Fin (cfg23 a1).N) : sProp 𝕄 :=
  iprop((dat23 V a1 O c).Φ t.castSucc ∗ (dat23 V a1 O c).owesAt () t.castSucc
    ∗ (∃ d, owns (c : Thread nD τ) (stg23 a1 0 t) fullShare ((dat23 V a1 O c).before 0 t d))
    ∗ (∃ d, owns (c : Thread nD τ) (stg23 a1 1 t) fullShare ((dat23 V a1 O c).before 1 t d)))

/-- and what it returns. -/
def bodyPost23 (c : Dev nD) (t : Fin (cfg23 a1).N) : sProp 𝕄 :=
  iprop((dat23 V a1 O c).Φ t.succ ∗ (dat23 V a1 O c).owesAt () t.succ
    ∗ owns (c : Thread nD τ) (stg23 a1 0 t) fullShare ((dat23 V a1 O c).after 0 t)
    ∗ owns (c : Thread nD τ) (stg23 a1 1 t) fullShare ((dat23 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body23 (hrun : BodyRun23 V a1 O) (c : Dev nD) (t : Fin (cfg23 a1).N) :
    bodyPre23 V a1 O c t
      ⊢ wp frame (wpE (defs₀ (F := F)) Variants.none c none) Set.univ (bodyProg23 a1 t) (fun _ => bodyPost23 V a1 O c t) := by
  unfold bodyPre23 bodyPost23
  simp only [beforeIn23]
  rw [afterIn23, afterOut23, Phi_eq23, Phi_eq23, PhiD_eq23, prefHeld_eq23]
  unfold Dat.owesAt Pipeline.owesWithin
  rw [owed_eq23, owed_eq23]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation23 (hrun : BodyRun23 V a1 O) (c : Dev nD) :
    BodyObligation (dat23 (F := F) V a1 O c) (defs₀ (F := F)) Variants.none () Set.univ := fun t => by
  rw [bigSep_W23, bigSep_W23]
  exact sound_body23 V a1 O hrun c t

end Data

/-! ## The region's record -/

section Record

variable (Win : Dev nD → Valuation τ sig (Elt F))

variable (a1 : (pcfg23 (F := F)).Adm)
  (O : (c : Dev nD) → Fin (cfg23 a1).N → Vec F S8x64 .f32)

/-- The buffers at the region's exit: its arrays at what the write-backs leave, every other buffer as entered. -/
def Wout23 (c : Dev nD) : Valuation τ sig (Elt F) :=
  Pipeline.withArrays spec23 c (Win c) fun w => (dat23 (Vof Win) a1 O c).arrAt w (cfg23 a1).N

theorem Wout23_arr (c : Dev nD) (w : Fin (cfg23 a1).W) :
    Wout23 Win a1 O c (Proc.devRef .tc (Pipeline.arrRef spec23 w)) = (dat23 (Vof Win) a1 O c).arrAt w (cfg23 a1).N := by
  unfold Wout23; exact Pipeline.withArrays_arr spec23 winFacts23.arr_inj c _ _ w

theorem Wout23_of_ne (c : Dev nD) (b : Ref sig .tc) (hb : ∀ w, Pipeline.arrRef spec23 w ≠ b) :
    Wout23 Win a1 O c (Proc.devRef .tc b) = Win c (Proc.devRef .tc b) := by
  unfold Wout23; exact Pipeline.withArrays_of_ne spec23 c _ _ b hb

/-- ENTRY, the buffers' part. Every unscoped buffer at Win is: the region's arrays at the proof data's entry contents,
    the table whole at the admissible contents (which are Win's there), the far operand whole, and the others. -/
theorem entry23 (c : Dev nD) (ha1 : ∀ k, Vof Win c (pre23.ref k) = a1.1 k) :
    (StableHlo.held (c : Thread nD τ) (Pipeline.ucRefs τ sig) (Win c) : sProp 𝕄)
      ⊢ iprop((dat23 (Vof Win) a1 O c).arrays ((dat23 (Vof Win) a1 O c).arrAt · 0)
          ∗ Pipeline.prefHeld pre23 c (fun _ => fullShare) a1.1
          ∗ (bigSep ({main_v72} : Finset (Ref sig .tc)) fun b => (((c : Thread nD τ)).loc b) ↦{fullShare} Vof Win c b)
          ∗ bigSep (Pipeline.restRefsP sig pre23 spec23 \ {main_v72}) fun b => (((c : Thread nD τ)).loc b) ↦{fullShare} Vof Win c b) := by
  have hsplit := Pipeline.arrays_of_unscopedBufs (p := ()) (fun (_ : Unit) => pcfg23 (F := F)) (fun _ => a1)
    (fun _ c => dat23 (Vof Win) a1 O c) winFacts23 (launch23 (F := F)).arr_whole c
    ((dat23 (Vof Win) a1 O c).share_full fun _ => rfl) (Vof Win c) (fun w => A_eq23 (Vof Win) a1 O c w)
  rw [Pipeline.unscopedBufs_held,
    Pipeline.unscopedRest_split (Ix := Unit) (Name := ℕ) (U := UD sig nD τ) (Lvl := ℕ) preFacts23 c (Vof Win c),
    Pipeline.unscopedRestP_sdiff pre23 spec23 {main_v72} hx_sub23 c (Vof Win c),
    show (fun k => Vof Win c (pre23.ref k)) = a1.1 from funext ha1] at hsplit
  exact hsplit

/-- EXIT, the buffers' part: the same four put back, the arrays at what the write-backs leave, are every unscoped
    buffer at the exit valuation. -/
theorem exit23 (c : Dev nD) (ha1 : ∀ k, Vof Win c (pre23.ref k) = a1.1 k) :
    iprop((dat23 (Vof Win) a1 O c).arrays ((dat23 (Vof Win) a1 O c).arrAt · (cfg23 a1).N)
        ∗ Pipeline.prefHeld pre23 c (fun _ => fullShare) a1.1
        ∗ (bigSep ({main_v72} : Finset (Ref sig .tc)) fun b => (((c : Thread nD τ)).loc b) ↦{fullShare} Vof Win c b)
        ∗ bigSep (Pipeline.restRefsP sig pre23 spec23 \ {main_v72}) fun b => (((c : Thread nD τ)).loc b) ↦{fullShare} Vof Win c b)
      ⊢ (StableHlo.held (c : Thread nD τ) (Pipeline.ucRefs τ sig) (Wout23 Win a1 O c) : sProp 𝕄) := by
  have hjoin := Pipeline.unscopedBufs_of_arrays (p := ()) (fun (_ : Unit) => pcfg23 (F := F)) (fun _ => a1)
    (Ix := Unit) (Name := ℕ) (U := UD sig nD τ) (Lvl := ℕ)
    winFacts23 (launch23 (F := F)).arr_whole c (fun _ c => dat23 (Vof Win) a1 O c)
    ((dat23 (Vof Win) a1 O c).share_full fun _ => rfl)
    (Vof Win c) (Vof (Wout23 Win a1 O) c) ((dat23 (Vof Win) a1 O c).arrAt · (cfg23 a1).N)
    (fun w => (Wout23_arr Win a1 O c w).symm)
    (fun b hb => Wout23_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts23 c (Vof Win c),
    Pipeline.unscopedRestP_sdiff pre23 spec23 {main_v72} hx_sub23 c (Vof Win c),
    show (fun k => Vof Win c (pre23.ref k)) = a1.1 from funext ha1] at hjoin
  exact hjoin

end Record

section Seg

variable (Win : Dev nD → Valuation τ sig (Elt F))
  (adm : (p : Fin 49) → (pcfgs (F := F) p).Adm)
  (O : (c : Dev nD) → Fin (cfg23 (adm (23 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout23. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg23 (hd : ∀ c, pdats (23 : Fin 49) c = dat23 (Vof Win) (adm (23 : Fin 49)) O c)
    (ha1 : ∀ c k, Vof Win c (pre23.ref k) = (adm (23 : Fin 49)).1 k)
    (hbody : ∀ c, BodyObligation (dat23 (F := F) (Vof Win) (adm (23 : Fin 49)) O c) (defs₀ (F := F)) 𝒱₀ () Set.univ) :
    Pipeline.RegionSeg (pcfgs (F := F)) adm pdats () defs₀ 𝒱₀ L lv (23 : Fin 49) where
  win := (launch23 (F := F)).win.to₀
  block_pos := (launch23 (F := F)).block_pos
  stage_whole := (launch23 (F := F)).stage_whole
  K := Fin 8
  osem := osem23
  ho := ownSemFacts23
  hbody c := by rw [hd c]; exact (hbody c).loose
  hwaits := Pipeline.hwaits_of_owed_zero _ _ _ _ L lv (23 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout23 Win (adm (23 : Fin 49)) O c) ∗ R c)
  X c := iprop((∃ r, prngReg c r)
    ∗ Pipeline.ownSems0 (Ix := Unit) (Name := ℕ) (U := UD sig nD τ) (Lvl := ℕ) (Val := Elt F) (τ := τ) osem23 c
    ∗ (bigSep ({main_v72} : Finset (Ref sig .tc)) fun b => (((c : Thread nD τ)).loc b) ↦{fullShare} Vof Win c b))
  Y c := iprop((∃ r, prngReg c r)
    ∗ (bigSep ({main_v72} : Finset (Ref sig .tc)) fun b => (((c : Thread nD τ)).loc b) ↦{fullShare} Vof Win c b)
    ∗ Pipeline.prefHeld pre23 c (fun _ => fullShare) (adm (23 : Fin 49)).1)
  Z c := bigSep (Pipeline.restRefsP sig pre23 spec23 \ {main_v72}) fun b => (((c : Thread nD τ)).loc b) ↦{fullShare} Vof Win c b
  hentry c := by
    rw [hd c]
    iintro ⟨⟨Hub, Hp, HO⟩, Hos, -⟩
    ihave H := (entry23 Win (adm (23 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq23, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq23, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit23 Win (adm (23 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg23 (F := F)).Adm)

/-- The output block at point t: the gathered rows (of the far operand's contents under V, chosen by the table's
    words at that point) times the input block. -/
def outBlk23 (c : Dev nD) (t : Fin (cfg23 a1).N) : Vec F S8x64 .f32 :=
  gatherOut (gatherG (a1.1 0) (V c main_v72) (grid23.coords t)) (iblk23 V a1 c 0 t)

theorem outBlk_eq23 (c : Dev nD) (t : Fin (cfg23 a1).N) :
    outBlk23 V a1 c t = gatherOut (gatherG (a1.1 0) (V c main_v72) (grid23.coords t)) (iblk23 V a1 c 0 t) := rfl

/-- The proof data with the output block named: after the body at point t the output window's buffer holds it. -/
theorem afterOutBlk23 (c : Dev nD) (t : Fin (cfg23 a1).N) :
    (dat23 V a1 (outBlk23 V a1) c).after 1 t
      = gatherOut (gatherG (a1.1 0) (V c main_v72) (grid23.coords t)) (iblk23 V a1 c 0 t) :=
  afterOut23 V a1 (outBlk23 V a1) c t

/-- The own cells at zero are the semaphore array's eight entries at zero, in order. -/
theorem ownSems_eq23 (c : Dev nD) :
    (Pipeline.ownSems0 (Ix := Unit) (Name := ℕ) (U := UD sig nD τ) (Lvl := ℕ) (Val := Elt F) (τ := τ) osem23 c : sProp 𝕄)
      = gsems0 c cc23_scratch1 := by
  rw [Pipeline.ownSems0_eq_of_list c osem23 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq23 (t : Fin (cfg23 a1).N) : ∃ h3 h4, bodyProg23 (F := F) a1 t
    = cc23__gather_mul_kernel (grid23.coords t) (Memref.whole main_v98) (Memref.isWhole_whole _) (Memref.whole main_v72) (Memref.isWhole_whole _)
        (stg23 a1 0 t) h3 (stg23 a1 1 t) h4 (Memref.whole cc23_scratch0) (Memref.isWhole_whole _) cc23_scratch1 := ⟨_, _, rfl⟩

end Out

/-! ## The body's run, joined to the proof data -/

section Body

variable (V : (c : Dev nD) → (b : Ref sig .tc) → Buf (Elt F) ((c : Thread nD τ).loc b))
  (a1 : (pcfg23 (F := F)).Adm)

/-- The scratch buffer whole at some contents, as a memref owned at some contents. -/
theorem scratchOwns_eq23 (c : Dev nD) :
    (iprop(∃ d, owns (c : Thread nD τ) (Memref.whole cc23_scratch0) fullShare d) : sProp 𝕄)
      = iprop(∃ f : Buf (Elt F) ((c : Thread nD τ).loc cc23_scratch0), ((c : Thread nD τ).loc cc23_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun23 (hlt : ∀ y, BitVec.toNat ((a1.1 0) y) < 100000) : BodyRun23 V a1 (outBlk23 V a1) := by
  intro c t W K
  obtain ⟨h3, h4, hprog⟩ := bodyProg_eq23 (F := F) a1 t
  rw [hprog, ownSems_eq23, ← scratchOwns_eq23 (F := F) c]
  have hrun := gather_kernel_run_23 (F := F) c (grid23.coords t) (Memref.whole main_v98) (Memref.isWhole_whole _) (Memref.whole main_v72) (Memref.isWhole_whole _)
    (stg23 a1 0 t) h3 (stg23 a1 1 t) h4 (Memref.whole cc23_scratch0) (Memref.isWhole_whole _) cc23_scratch1 fullShare fullShare
    (a1.1 0) (V c main_v72) (iblk23 V a1 c 0 t) (fun y => hlt y) W K
  simp only [Memref.view_whole, View.read_whole] at hrun
  unfold outBlk23
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut23 (hlt : ∀ y, BitVec.toNat ((a1.1 0) y) < 100000) (c : Dev nD) :
    BodyObligation (dat23 (F := F) V a1 (outBlk23 V a1) c) (defs₀ (F := F)) Variants.none () Set.univ :=
  body_obligation23 V a1 (outBlk23 V a1) (bodyRun23 V a1 hlt) c

end Body

/-! # Region 24 -/

/-! ## The body's own transfer cells -/

/-- The eight cells of the body's semaphore array, in order. -/
abbrev osem24 : Fin 8 → SemLoc sig := fun j => SemLoc.dma (cc24_scratch1.ix (fun | ⟨0, _⟩ => j))

/-- They are scoped, pairwise distinct, and none is a staging cell of a window. -/
theorem ownSemFacts24 : Pipeline.OwnSemFacts spec24 osem24 := by decide

/-- The far operand is an unscoped buffer that is neither a window's array nor a table. -/
theorem hx_sub24 : ({main_v72} : Finset (Ref sig .tc)) ⊆ Pipeline.restRefsP sig pre24 spec24 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg24 (F := F)).Adm)
  (O : (c : Dev nD) → Fin (cfg24 a1).N → Vec F S8x64 .f32)

/-! ## The windows' blocks -/

/-- Window w's block at point t, read off its array under V. -/
def iblk24 (c : Dev nD) (w : Fin (cfg24 a1).W) (t : Fin (cfg24 a1).N) :
    (((cfg24 a1).win w).xblock ((cfg24 a1).grid.coords t)).Idx → Elt F ((cfg24 a1).win w).elt :=
  (((cfg24 a1).win w).blk t).view.read (Elt F) (V c (Pipeline.arrRef spec24 w))

/-- The input window's current staging buffer holds its block at every point, fetched there or not, for any proof
    data whose array is V's and whose body leaves the block in place: unfetched, the block index has not moved. -/
theorem beforeIn24_of {c : Dev nD} (dat : Dat τ (Elt F) Unit ℕ (UD sig nD τ) ℕ (cfg24 a1) c)
    (hA : dat.A 0 = V c (Pipeline.arrRef spec24 0))
    (hafter : ∀ t, dat.after 0 t = iblk24 V a1 c 0 t) (t : Fin (cfg24 a1).N) (d) : dat.before 0 t d = iblk24 V a1 c 0 t :=
  (dat.before_in_eq_fetched 0 rfl (fun _ => rfl) (fun _ _ _ => rfl)
    (fun t => by rw [hafter]; unfold Dat.blockOf iblk24; rw [hA]; try rfl) t d).trans
    (by unfold Dat.fetched Dat.blockOf iblk24; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat24 (c : Dev nD) : Dat τ (Elt F) Unit ℕ (UD sig nD τ) ℕ (cfg24 a1) c where
  A w := V c (Pipeline.arrRef spec24 w)
  after w t := match w with
    | ⟨0, _⟩ => iblk24 V a1 c 0 t
    | ⟨1, _⟩ => O c t
  Φ _ := iprop(Pipeline.ΦD osem24 spec24 {main_v72} V c ∗ Pipeline.prefHeld pre24 c (fun _ => fullShare) a1.1)
  q _ := fullShare
  owed _ := 0

theorem A_eq24 (c : Dev nD) (w : Fin (cfg24 a1).W) : (dat24 V a1 O c).A w = V c (Pipeline.arrRef spec24 w) := by
  dsimp only [dat24]

theorem afterIn24 (c : Dev nD) (t : Fin (cfg24 a1).N) : (dat24 V a1 O c).after 0 t = iblk24 V a1 c 0 t := by
  dsimp only [dat24]; rfl

theorem afterOut24 (c : Dev nD) (t : Fin (cfg24 a1).N) :
    (dat24 V a1 O c).after 1 t = O c t := by
  dsimp only [dat24]; rfl

theorem beforeIn24 (c : Dev nD) (t : Fin (cfg24 a1).N) (d) : (dat24 V a1 O c).before 0 t d = iblk24 V a1 c 0 t :=
  beforeIn24_of V a1 (dat24 V a1 O c) (A_eq24 V a1 O c 0) (afterIn24 V a1 O c) t d

theorem Phi_eq24 (c : Dev nD) (t : Fin ((cfg24 a1).N + 1)) :
    (dat24 V a1 O c).Φ t
      = iprop(Pipeline.ΦD osem24 spec24 {main_v72} V c ∗ Pipeline.prefHeld pre24 c (fun _ => fullShare) a1.1) := by
  dsimp only [dat24]

theorem owed_eq24 (c : Dev nD) (t : Fin ((cfg24 a1).N + 1)) : (dat24 V a1 O c).owed t = 0 := by
  dsimp only [dat24]

/-! ## The invariant, conjunct by conjunct -/

/-- The invariant's first part opened: the body's scratch buffer whole at some contents and the other scoped
    buffers no window stages, the generator register, the own cells at zero, the far operand at its contents. -/
theorem PhiD_eq24 (c : Dev nD) :
    (Pipeline.ΦD osem24 spec24 {main_v72} V c : sProp 𝕄)
      = iprop(iprop(iprop((∃ f : Buf (Elt F) ((c : Thread nD τ).loc cc24_scratch0), ((c : Thread nD τ).loc cc24_scratch0) ↦{fullShare} f))
            ∗ Pipeline.scopedRestBut (Ix := Unit) (Name := ℕ) (U := UD sig nD τ) (Lvl := ℕ) (Val := Elt F) spec24 c [cc24_scratch0])
          ∗ (∃ r, prngReg c r)
          ∗ Pipeline.ownSems0 (Ix := Unit) (Name := ℕ) (U := UD sig nD τ) (Lvl := ℕ) (Val := Elt F) (τ := τ) osem24 c
          ∗ (((c : Thread nD τ).loc main_v72) ↦{fullShare} V c main_v72)) := by
  rw [Pipeline.ΦD_eq, scopedRest24_split, BI.bigSep_eq_bigSepL_of_eq [main_v72] (by decide) (by decide)]; rfl

/-- The one table, held whole. -/
theorem prefHeld_eq24 (c : Dev nD) :
    (Pipeline.prefHeld pre24 c (fun _ => fullShare) a1.1 : sProp 𝕄)
      = (((c : Thread nD τ).loc main_v102) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg24 (w : Fin (cfg24 a1).W) (t : Fin (cfg24 a1).N) := ((cfg24 a1).win w).stage ((cfg24 a1).slots t w)

/-- The body as the pipeline calls it at point t. -/
abbrev bodyProg24 (t : Fin (cfg24 a1).N) : Prog (TpuEff nD τ sig (Elt F) Λ₀ .tc) PUnit :=
  (defs₀ (F := F)) .tc (cfg24 a1).body ((cfg24 a1).bodyArgs t ((cfg24 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun24 : Prop :=
  ∀ (c : Dev nD) (t : Fin (cfg24 a1).N) (W) (K : PUnit → sProp 𝕄),
    iprop(owns (c : Thread nD τ) (stg24 a1 0 t) fullShare (iblk24 V a1 c 0 t)
        ∗ (∃ d, owns (c : Thread nD τ) (stg24 a1 1 t) fullShare d)
        ∗ (∃ f : Buf (Elt F) ((c : Thread nD τ).loc cc24_scratch0), ((c : Thread nD τ).loc cc24_scratch0) ↦{fullShare} f)
        ∗ Pipeline.ownSems0 (Ix := Unit) (Name := ℕ) (U := UD sig nD τ) (Lvl := ℕ) (Val := Elt F) (τ := τ) osem24 c
        ∗ (((c : Thread nD τ).loc main_v102) ↦{fullShare} a1.1 0)
        ∗ (((c : Thread nD τ).loc main_v72) ↦{fullShare} V c main_v72)
        ∗ owes (c : Thread nD τ) (0 : CellTallies nD τ sig Unit) W
        ∗ (iprop(owns (c : Thread nD τ) (stg24 a1 0 t) fullShare (iblk24 V a1 c 0 t)
            ∗ owns (c : Thread nD τ) (stg24 a1 1 t) fullShare (O c t)
            ∗ (∃ f : Buf (Elt F) ((c : Thread nD τ).loc cc24_scratch0), ((c : Thread nD τ).loc cc24_scratch0) ↦{fullShare} f)
            ∗ Pipeline.ownSems0 (Ix := Unit) (Name := ℕ) (U := UD sig nD τ) (Lvl := ℕ) (Val := Elt F) (τ := τ) osem24 c
            ∗ (((c : Thread nD τ).loc main_v102) ↦{fullShare} a1.1 0)
            ∗ (((c : Thread nD τ).loc main_v72) ↦{fullShare} V c main_v72)
            ∗ (∃ W', owes (c : Thread nD τ) (0 : CellTallies nD τ sig Unit) W')) -∗ K ⟨⟩))
      ⊢ wp frame (wpE (defs₀ (F := F)) Variants.none c none) Set.univ (bodyProg24 a1 t) K

/-- What the body is called with at point t, the windows one by one, -/
def bodyPre24 (c : Dev nD) (t : Fin (cfg24 a1).N) : sProp 𝕄 :=
  iprop((dat24 V a1 O c).Φ t.castSucc ∗ (dat24 V a1 O c).owesAt () t.castSucc
    ∗ (∃ d, owns (c : Thread nD τ) (stg24 a1 0 t) fullShare ((dat24 V a1 O c).before 0 t d))
    ∗ (∃ d, owns (c : Thread nD τ) (stg24 a1 1 t) fullShare ((dat24 V a1 O c).before 1 t d)))

/-- and what it returns. -/
def bodyPost24 (c : Dev nD) (t : Fin (cfg24 a1).N) : sProp 𝕄 :=
  iprop((dat24 V a1 O c).Φ t.succ ∗ (dat24 V a1 O c).owesAt () t.succ
    ∗ owns (c : Thread nD τ) (stg24 a1 0 t) fullShare ((dat24 V a1 O c).after 0 t)
    ∗ owns (c : Thread nD τ) (stg24 a1 1 t) fullShare ((dat24 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body24 (hrun : BodyRun24 V a1 O) (c : Dev nD) (t : Fin (cfg24 a1).N) :
    bodyPre24 V a1 O c t
      ⊢ wp frame (wpE (defs₀ (F := F)) Variants.none c none) Set.univ (bodyProg24 a1 t) (fun _ => bodyPost24 V a1 O c t) := by
  unfold bodyPre24 bodyPost24
  simp only [beforeIn24]
  rw [afterIn24, afterOut24, Phi_eq24, Phi_eq24, PhiD_eq24, prefHeld_eq24]
  unfold Dat.owesAt Pipeline.owesWithin
  rw [owed_eq24, owed_eq24]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation24 (hrun : BodyRun24 V a1 O) (c : Dev nD) :
    BodyObligation (dat24 (F := F) V a1 O c) (defs₀ (F := F)) Variants.none () Set.univ := fun t => by
  rw [bigSep_W24, bigSep_W24]
  exact sound_body24 V a1 O hrun c t

end Data

/-! ## The region's record -/

section Record

variable (Win : Dev nD → Valuation τ sig (Elt F))

variable (a1 : (pcfg24 (F := F)).Adm)
  (O : (c : Dev nD) → Fin (cfg24 a1).N → Vec F S8x64 .f32)

/-- The buffers at the region's exit: its arrays at what the write-backs leave, every other buffer as entered. -/
def Wout24 (c : Dev nD) : Valuation τ sig (Elt F) :=
  Pipeline.withArrays spec24 c (Win c) fun w => (dat24 (Vof Win) a1 O c).arrAt w (cfg24 a1).N

theorem Wout24_arr (c : Dev nD) (w : Fin (cfg24 a1).W) :
    Wout24 Win a1 O c (Proc.devRef .tc (Pipeline.arrRef spec24 w)) = (dat24 (Vof Win) a1 O c).arrAt w (cfg24 a1).N := by
  unfold Wout24; exact Pipeline.withArrays_arr spec24 winFacts24.arr_inj c _ _ w

theorem Wout24_of_ne (c : Dev nD) (b : Ref sig .tc) (hb : ∀ w, Pipeline.arrRef spec24 w ≠ b) :
    Wout24 Win a1 O c (Proc.devRef .tc b) = Win c (Proc.devRef .tc b) := by
  unfold Wout24; exact Pipeline.withArrays_of_ne spec24 c _ _ b hb

/-- ENTRY, the buffers' part. Every unscoped buffer at Win is: the region's arrays at the proof data's entry contents,
    the table whole at the admissible contents (which are Win's there), the far operand whole, and the others. -/
theorem entry24 (c : Dev nD) (ha1 : ∀ k, Vof Win c (pre24.ref k) = a1.1 k) :
    (StableHlo.held (c : Thread nD τ) (Pipeline.ucRefs τ sig) (Win c) : sProp 𝕄)
      ⊢ iprop((dat24 (Vof Win) a1 O c).arrays ((dat24 (Vof Win) a1 O c).arrAt · 0)
          ∗ Pipeline.prefHeld pre24 c (fun _ => fullShare) a1.1
          ∗ (bigSep ({main_v72} : Finset (Ref sig .tc)) fun b => (((c : Thread nD τ)).loc b) ↦{fullShare} Vof Win c b)
          ∗ bigSep (Pipeline.restRefsP sig pre24 spec24 \ {main_v72}) fun b => (((c : Thread nD τ)).loc b) ↦{fullShare} Vof Win c b) := by
  have hsplit := Pipeline.arrays_of_unscopedBufs (p := ()) (fun (_ : Unit) => pcfg24 (F := F)) (fun _ => a1)
    (fun _ c => dat24 (Vof Win) a1 O c) winFacts24 (launch24 (F := F)).arr_whole c
    ((dat24 (Vof Win) a1 O c).share_full fun _ => rfl) (Vof Win c) (fun w => A_eq24 (Vof Win) a1 O c w)
  rw [Pipeline.unscopedBufs_held,
    Pipeline.unscopedRest_split (Ix := Unit) (Name := ℕ) (U := UD sig nD τ) (Lvl := ℕ) preFacts24 c (Vof Win c),
    Pipeline.unscopedRestP_sdiff pre24 spec24 {main_v72} hx_sub24 c (Vof Win c),
    show (fun k => Vof Win c (pre24.ref k)) = a1.1 from funext ha1] at hsplit
  exact hsplit

/-- EXIT, the buffers' part: the same four put back, the arrays at what the write-backs leave, are every unscoped
    buffer at the exit valuation. -/
theorem exit24 (c : Dev nD) (ha1 : ∀ k, Vof Win c (pre24.ref k) = a1.1 k) :
    iprop((dat24 (Vof Win) a1 O c).arrays ((dat24 (Vof Win) a1 O c).arrAt · (cfg24 a1).N)
        ∗ Pipeline.prefHeld pre24 c (fun _ => fullShare) a1.1
        ∗ (bigSep ({main_v72} : Finset (Ref sig .tc)) fun b => (((c : Thread nD τ)).loc b) ↦{fullShare} Vof Win c b)
        ∗ bigSep (Pipeline.restRefsP sig pre24 spec24 \ {main_v72}) fun b => (((c : Thread nD τ)).loc b) ↦{fullShare} Vof Win c b)
      ⊢ (StableHlo.held (c : Thread nD τ) (Pipeline.ucRefs τ sig) (Wout24 Win a1 O c) : sProp 𝕄) := by
  have hjoin := Pipeline.unscopedBufs_of_arrays (p := ()) (fun (_ : Unit) => pcfg24 (F := F)) (fun _ => a1)
    (Ix := Unit) (Name := ℕ) (U := UD sig nD τ) (Lvl := ℕ)
    winFacts24 (launch24 (F := F)).arr_whole c (fun _ c => dat24 (Vof Win) a1 O c)
    ((dat24 (Vof Win) a1 O c).share_full fun _ => rfl)
    (Vof Win c) (Vof (Wout24 Win a1 O) c) ((dat24 (Vof Win) a1 O c).arrAt · (cfg24 a1).N)
    (fun w => (Wout24_arr Win a1 O c w).symm)
    (fun b hb => Wout24_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts24 c (Vof Win c),
    Pipeline.unscopedRestP_sdiff pre24 spec24 {main_v72} hx_sub24 c (Vof Win c),
    show (fun k => Vof Win c (pre24.ref k)) = a1.1 from funext ha1] at hjoin
  exact hjoin

end Record

section Seg

variable (Win : Dev nD → Valuation τ sig (Elt F))
  (adm : (p : Fin 49) → (pcfgs (F := F) p).Adm)
  (O : (c : Dev nD) → Fin (cfg24 (adm (24 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout24. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg24 (hd : ∀ c, pdats (24 : Fin 49) c = dat24 (Vof Win) (adm (24 : Fin 49)) O c)
    (ha1 : ∀ c k, Vof Win c (pre24.ref k) = (adm (24 : Fin 49)).1 k)
    (hbody : ∀ c, BodyObligation (dat24 (F := F) (Vof Win) (adm (24 : Fin 49)) O c) (defs₀ (F := F)) 𝒱₀ () Set.univ) :
    Pipeline.RegionSeg (pcfgs (F := F)) adm pdats () defs₀ 𝒱₀ L lv (24 : Fin 49) where
  win := (launch24 (F := F)).win.to₀
  block_pos := (launch24 (F := F)).block_pos
  stage_whole := (launch24 (F := F)).stage_whole
  K := Fin 8
  osem := osem24
  ho := ownSemFacts24
  hbody c := by rw [hd c]; exact (hbody c).loose
  hwaits := Pipeline.hwaits_of_owed_zero _ _ _ _ L lv (24 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout24 Win (adm (24 : Fin 49)) O c) ∗ R c)
  X c := iprop((∃ r, prngReg c r)
    ∗ Pipeline.ownSems0 (Ix := Unit) (Name := ℕ) (U := UD sig nD τ) (Lvl := ℕ) (Val := Elt F) (τ := τ) osem24 c
    ∗ (bigSep ({main_v72} : Finset (Ref sig .tc)) fun b => (((c : Thread nD τ)).loc b) ↦{fullShare} Vof Win c b))
  Y c := iprop((∃ r, prngReg c r)
    ∗ (bigSep ({main_v72} : Finset (Ref sig .tc)) fun b => (((c : Thread nD τ)).loc b) ↦{fullShare} Vof Win c b)
    ∗ Pipeline.prefHeld pre24 c (fun _ => fullShare) (adm (24 : Fin 49)).1)
  Z c := bigSep (Pipeline.restRefsP sig pre24 spec24 \ {main_v72}) fun b => (((c : Thread nD τ)).loc b) ↦{fullShare} Vof Win c b
  hentry c := by
    rw [hd c]
    iintro ⟨⟨Hub, Hp, HO⟩, Hos, -⟩
    ihave H := (entry24 Win (adm (24 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq24, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq24, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit24 Win (adm (24 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg24 (F := F)).Adm)

/-- The output block at point t: the gathered rows (of the far operand's contents under V, chosen by the table's
    words at that point) times the input block. -/
def outBlk24 (c : Dev nD) (t : Fin (cfg24 a1).N) : Vec F S8x64 .f32 :=
  gatherOut (gatherG (a1.1 0) (V c main_v72) (grid24.coords t)) (iblk24 V a1 c 0 t)

theorem outBlk_eq24 (c : Dev nD) (t : Fin (cfg24 a1).N) :
    outBlk24 V a1 c t = gatherOut (gatherG (a1.1 0) (V c main_v72) (grid24.coords t)) (iblk24 V a1 c 0 t) := rfl

/-- The proof data with the output block named: after the body at point t the output window's buffer holds it. -/
theorem afterOutBlk24 (c : Dev nD) (t : Fin (cfg24 a1).N) :
    (dat24 V a1 (outBlk24 V a1) c).after 1 t
      = gatherOut (gatherG (a1.1 0) (V c main_v72) (grid24.coords t)) (iblk24 V a1 c 0 t) :=
  afterOut24 V a1 (outBlk24 V a1) c t

/-- The own cells at zero are the semaphore array's eight entries at zero, in order. -/
theorem ownSems_eq24 (c : Dev nD) :
    (Pipeline.ownSems0 (Ix := Unit) (Name := ℕ) (U := UD sig nD τ) (Lvl := ℕ) (Val := Elt F) (τ := τ) osem24 c : sProp 𝕄)
      = gsems0 c cc24_scratch1 := by
  rw [Pipeline.ownSems0_eq_of_list c osem24 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq24 (t : Fin (cfg24 a1).N) : ∃ h3 h4, bodyProg24 (F := F) a1 t
    = cc24__gather_mul_kernel (grid24.coords t) (Memref.whole main_v102) (Memref.isWhole_whole _) (Memref.whole main_v72) (Memref.isWhole_whole _)
        (stg24 a1 0 t) h3 (stg24 a1 1 t) h4 (Memref.whole cc24_scratch0) (Memref.isWhole_whole _) cc24_scratch1 := ⟨_, _, rfl⟩

end Out

/-! ## The body's run, joined to the proof data -/

section Body

variable (V : (c : Dev nD) → (b : Ref sig .tc) → Buf (Elt F) ((c : Thread nD τ).loc b))
  (a1 : (pcfg24 (F := F)).Adm)

/-- The scratch buffer whole at some contents, as a memref owned at some contents. -/
theorem scratchOwns_eq24 (c : Dev nD) :
    (iprop(∃ d, owns (c : Thread nD τ) (Memref.whole cc24_scratch0) fullShare d) : sProp 𝕄)
      = iprop(∃ f : Buf (Elt F) ((c : Thread nD τ).loc cc24_scratch0), ((c : Thread nD τ).loc cc24_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun24 (hlt : ∀ y, BitVec.toNat ((a1.1 0) y) < 100000) : BodyRun24 V a1 (outBlk24 V a1) := by
  intro c t W K
  obtain ⟨h3, h4, hprog⟩ := bodyProg_eq24 (F := F) a1 t
  rw [hprog, ownSems_eq24, ← scratchOwns_eq24 (F := F) c]
  have hrun := gather_kernel_run_24 (F := F) c (grid24.coords t) (Memref.whole main_v102) (Memref.isWhole_whole _) (Memref.whole main_v72) (Memref.isWhole_whole _)
    (stg24 a1 0 t) h3 (stg24 a1 1 t) h4 (Memref.whole cc24_scratch0) (Memref.isWhole_whole _) cc24_scratch1 fullShare fullShare
    (a1.1 0) (V c main_v72) (iblk24 V a1 c 0 t) (fun y => hlt y) W K
  simp only [Memref.view_whole, View.read_whole] at hrun
  unfold outBlk24
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut24 (hlt : ∀ y, BitVec.toNat ((a1.1 0) y) < 100000) (c : Dev nD) :
    BodyObligation (dat24 (F := F) V a1 (outBlk24 V a1) c) (defs₀ (F := F)) Variants.none () Set.univ :=
  body_obligation24 V a1 (outBlk24 V a1) (bodyRun24 V a1 hlt) c

end Body

/-! # Region 25 -/

/-! ## The body's own transfer cells -/

/-- The eight cells of the body's semaphore array, in order. -/
abbrev osem25 : Fin 8 → SemLoc sig := fun j => SemLoc.dma (cc25_scratch1.ix (fun | ⟨0, _⟩ => j))

/-- They are scoped, pairwise distinct, and none is a staging cell of a window. -/
theorem ownSemFacts25 : Pipeline.OwnSemFacts spec25 osem25 := by decide

/-- The far operand is an unscoped buffer that is neither a window's array nor a table. -/
theorem hx_sub25 : ({main_v72} : Finset (Ref sig .tc)) ⊆ Pipeline.restRefsP sig pre25 spec25 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg25 (F := F)).Adm)
  (O : (c : Dev nD) → Fin (cfg25 a1).N → Vec F S8x64 .f32)

/-! ## The windows' blocks -/

/-- Window w's block at point t, read off its array under V. -/
def iblk25 (c : Dev nD) (w : Fin (cfg25 a1).W) (t : Fin (cfg25 a1).N) :
    (((cfg25 a1).win w).xblock ((cfg25 a1).grid.coords t)).Idx → Elt F ((cfg25 a1).win w).elt :=
  (((cfg25 a1).win w).blk t).view.read (Elt F) (V c (Pipeline.arrRef spec25 w))

/-- The input window's current staging buffer holds its block at every point, fetched there or not, for any proof
    data whose array is V's and whose body leaves the block in place: unfetched, the block index has not moved. -/
theorem beforeIn25_of {c : Dev nD} (dat : Dat τ (Elt F) Unit ℕ (UD sig nD τ) ℕ (cfg25 a1) c)
    (hA : dat.A 0 = V c (Pipeline.arrRef spec25 0))
    (hafter : ∀ t, dat.after 0 t = iblk25 V a1 c 0 t) (t : Fin (cfg25 a1).N) (d) : dat.before 0 t d = iblk25 V a1 c 0 t :=
  (dat.before_in_eq_fetched 0 rfl (fun _ => rfl) (fun _ _ _ => rfl)
    (fun t => by rw [hafter]; unfold Dat.blockOf iblk25; rw [hA]; try rfl) t d).trans
    (by unfold Dat.fetched Dat.blockOf iblk25; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat25 (c : Dev nD) : Dat τ (Elt F) Unit ℕ (UD sig nD τ) ℕ (cfg25 a1) c where
  A w := V c (Pipeline.arrRef spec25 w)
  after w t := match w with
    | ⟨0, _⟩ => iblk25 V a1 c 0 t
    | ⟨1, _⟩ => O c t
  Φ _ := iprop(Pipeline.ΦD osem25 spec25 {main_v72} V c ∗ Pipeline.prefHeld pre25 c (fun _ => fullShare) a1.1)
  q _ := fullShare
  owed _ := 0

theorem A_eq25 (c : Dev nD) (w : Fin (cfg25 a1).W) : (dat25 V a1 O c).A w = V c (Pipeline.arrRef spec25 w) := by
  dsimp only [dat25]

theorem afterIn25 (c : Dev nD) (t : Fin (cfg25 a1).N) : (dat25 V a1 O c).after 0 t = iblk25 V a1 c 0 t := by
  dsimp only [dat25]; rfl

theorem afterOut25 (c : Dev nD) (t : Fin (cfg25 a1).N) :
    (dat25 V a1 O c).after 1 t = O c t := by
  dsimp only [dat25]; rfl

theorem beforeIn25 (c : Dev nD) (t : Fin (cfg25 a1).N) (d) : (dat25 V a1 O c).before 0 t d = iblk25 V a1 c 0 t :=
  beforeIn25_of V a1 (dat25 V a1 O c) (A_eq25 V a1 O c 0) (afterIn25 V a1 O c) t d

theorem Phi_eq25 (c : Dev nD) (t : Fin ((cfg25 a1).N + 1)) :
    (dat25 V a1 O c).Φ t
      = iprop(Pipeline.ΦD osem25 spec25 {main_v72} V c ∗ Pipeline.prefHeld pre25 c (fun _ => fullShare) a1.1) := by
  dsimp only [dat25]

theorem owed_eq25 (c : Dev nD) (t : Fin ((cfg25 a1).N + 1)) : (dat25 V a1 O c).owed t = 0 := by
  dsimp only [dat25]

/-! ## The invariant, conjunct by conjunct -/

/-- The invariant's first part opened: the body's scratch buffer whole at some contents and the other scoped
    buffers no window stages, the generator register, the own cells at zero, the far operand at its contents. -/
theorem PhiD_eq25 (c : Dev nD) :
    (Pipeline.ΦD osem25 spec25 {main_v72} V c : sProp 𝕄)
      = iprop(iprop(iprop((∃ f : Buf (Elt F) ((c : Thread nD τ).loc cc25_scratch0), ((c : Thread nD τ).loc cc25_scratch0) ↦{fullShare} f))
            ∗ Pipeline.scopedRestBut (Ix := Unit) (Name := ℕ) (U := UD sig nD τ) (Lvl := ℕ) (Val := Elt F) spec25 c [cc25_scratch0])
          ∗ (∃ r, prngReg c r)
          ∗ Pipeline.ownSems0 (Ix := Unit) (Name := ℕ) (U := UD sig nD τ) (Lvl := ℕ) (Val := Elt F) (τ := τ) osem25 c
          ∗ (((c : Thread nD τ).loc main_v72) ↦{fullShare} V c main_v72)) := by
  rw [Pipeline.ΦD_eq, scopedRest25_split, BI.bigSep_eq_bigSepL_of_eq [main_v72] (by decide) (by decide)]; rfl

/-- The one table, held whole. -/
theorem prefHeld_eq25 (c : Dev nD) :
    (Pipeline.prefHeld pre25 c (fun _ => fullShare) a1.1 : sProp 𝕄)
      = (((c : Thread nD τ).loc main_v106) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg25 (w : Fin (cfg25 a1).W) (t : Fin (cfg25 a1).N) := ((cfg25 a1).win w).stage ((cfg25 a1).slots t w)

/-- The body as the pipeline calls it at point t. -/
abbrev bodyProg25 (t : Fin (cfg25 a1).N) : Prog (TpuEff nD τ sig (Elt F) Λ₀ .tc) PUnit :=
  (defs₀ (F := F)) .tc (cfg25 a1).body ((cfg25 a1).bodyArgs t ((cfg25 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun25 : Prop :=
  ∀ (c : Dev nD) (t : Fin (cfg25 a1).N) (W) (K : PUnit → sProp 𝕄),
    iprop(owns (c : Thread nD τ) (stg25 a1 0 t) fullShare (iblk25 V a1 c 0 t)
        ∗ (∃ d, owns (c : Thread nD τ) (stg25 a1 1 t) fullShare d)
        ∗ (∃ f : Buf (Elt F) ((c : Thread nD τ).loc cc25_scratch0), ((c : Thread nD τ).loc cc25_scratch0) ↦{fullShare} f)
        ∗ Pipeline.ownSems0 (Ix := Unit) (Name := ℕ) (U := UD sig nD τ) (Lvl := ℕ) (Val := Elt F) (τ := τ) osem25 c
        ∗ (((c : Thread nD τ).loc main_v106) ↦{fullShare} a1.1 0)
        ∗ (((c : Thread nD τ).loc main_v72) ↦{fullShare} V c main_v72)
        ∗ owes (c : Thread nD τ) (0 : CellTallies nD τ sig Unit) W
        ∗ (iprop(owns (c : Thread nD τ) (stg25 a1 0 t) fullShare (iblk25 V a1 c 0 t)
            ∗ owns (c : Thread nD τ) (stg25 a1 1 t) fullShare (O c t)
            ∗ (∃ f : Buf (Elt F) ((c : Thread nD τ).loc cc25_scratch0), ((c : Thread nD τ).loc cc25_scratch0) ↦{fullShare} f)
            ∗ Pipeline.ownSems0 (Ix := Unit) (Name := ℕ) (U := UD sig nD τ) (Lvl := ℕ) (Val := Elt F) (τ := τ) osem25 c
            ∗ (((c : Thread nD τ).loc main_v106) ↦{fullShare} a1.1 0)
            ∗ (((c : Thread nD τ).loc main_v72) ↦{fullShare} V c main_v72)
            ∗ (∃ W', owes (c : Thread nD τ) (0 : CellTallies nD τ sig Unit) W')) -∗ K ⟨⟩))
      ⊢ wp frame (wpE (defs₀ (F := F)) Variants.none c none) Set.univ (bodyProg25 a1 t) K

/-- What the body is called with at point t, the windows one by one, -/
def bodyPre25 (c : Dev nD) (t : Fin (cfg25 a1).N) : sProp 𝕄 :=
  iprop((dat25 V a1 O c).Φ t.castSucc ∗ (dat25 V a1 O c).owesAt () t.castSucc
    ∗ (∃ d, owns (c : Thread nD τ) (stg25 a1 0 t) fullShare ((dat25 V a1 O c).before 0 t d))
    ∗ (∃ d, owns (c : Thread nD τ) (stg25 a1 1 t) fullShare ((dat25 V a1 O c).before 1 t d)))

/-- and what it returns. -/
def bodyPost25 (c : Dev nD) (t : Fin (cfg25 a1).N) : sProp 𝕄 :=
  iprop((dat25 V a1 O c).Φ t.succ ∗ (dat25 V a1 O c).owesAt () t.succ
    ∗ owns (c : Thread nD τ) (stg25 a1 0 t) fullShare ((dat25 V a1 O c).after 0 t)
    ∗ owns (c : Thread nD τ) (stg25 a1 1 t) fullShare ((dat25 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body25 (hrun : BodyRun25 V a1 O) (c : Dev nD) (t : Fin (cfg25 a1).N) :
    bodyPre25 V a1 O c t
      ⊢ wp frame (wpE (defs₀ (F := F)) Variants.none c none) Set.univ (bodyProg25 a1 t) (fun _ => bodyPost25 V a1 O c t) := by
  unfold bodyPre25 bodyPost25
  simp only [beforeIn25]
  rw [afterIn25, afterOut25, Phi_eq25, Phi_eq25, PhiD_eq25, prefHeld_eq25]
  unfold Dat.owesAt Pipeline.owesWithin
  rw [owed_eq25, owed_eq25]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation25 (hrun : BodyRun25 V a1 O) (c : Dev nD) :
    BodyObligation (dat25 (F := F) V a1 O c) (defs₀ (F := F)) Variants.none () Set.univ := fun t => by
  rw [bigSep_W25, bigSep_W25]
  exact sound_body25 V a1 O hrun c t

end Data

/-! ## The region's record -/

section Record

variable (Win : Dev nD → Valuation τ sig (Elt F))

variable (a1 : (pcfg25 (F := F)).Adm)
  (O : (c : Dev nD) → Fin (cfg25 a1).N → Vec F S8x64 .f32)

/-- The buffers at the region's exit: its arrays at what the write-backs leave, every other buffer as entered. -/
def Wout25 (c : Dev nD) : Valuation τ sig (Elt F) :=
  Pipeline.withArrays spec25 c (Win c) fun w => (dat25 (Vof Win) a1 O c).arrAt w (cfg25 a1).N

theorem Wout25_arr (c : Dev nD) (w : Fin (cfg25 a1).W) :
    Wout25 Win a1 O c (Proc.devRef .tc (Pipeline.arrRef spec25 w)) = (dat25 (Vof Win) a1 O c).arrAt w (cfg25 a1).N := by
  unfold Wout25; exact Pipeline.withArrays_arr spec25 winFacts25.arr_inj c _ _ w

theorem Wout25_of_ne (c : Dev nD) (b : Ref sig .tc) (hb : ∀ w, Pipeline.arrRef spec25 w ≠ b) :
    Wout25 Win a1 O c (Proc.devRef .tc b) = Win c (Proc.devRef .tc b) := by
  unfold Wout25; exact Pipeline.withArrays_of_ne spec25 c _ _ b hb

/-- ENTRY, the buffers' part. Every unscoped buffer at Win is: the region's arrays at the proof data's entry contents,
    the table whole at the admissible contents (which are Win's there), the far operand whole, and the others. -/
theorem entry25 (c : Dev nD) (ha1 : ∀ k, Vof Win c (pre25.ref k) = a1.1 k) :
    (StableHlo.held (c : Thread nD τ) (Pipeline.ucRefs τ sig) (Win c) : sProp 𝕄)
      ⊢ iprop((dat25 (Vof Win) a1 O c).arrays ((dat25 (Vof Win) a1 O c).arrAt · 0)
          ∗ Pipeline.prefHeld pre25 c (fun _ => fullShare) a1.1
          ∗ (bigSep ({main_v72} : Finset (Ref sig .tc)) fun b => (((c : Thread nD τ)).loc b) ↦{fullShare} Vof Win c b)
          ∗ bigSep (Pipeline.restRefsP sig pre25 spec25 \ {main_v72}) fun b => (((c : Thread nD τ)).loc b) ↦{fullShare} Vof Win c b) := by
  have hsplit := Pipeline.arrays_of_unscopedBufs (p := ()) (fun (_ : Unit) => pcfg25 (F := F)) (fun _ => a1)
    (fun _ c => dat25 (Vof Win) a1 O c) winFacts25 (launch25 (F := F)).arr_whole c
    ((dat25 (Vof Win) a1 O c).share_full fun _ => rfl) (Vof Win c) (fun w => A_eq25 (Vof Win) a1 O c w)
  rw [Pipeline.unscopedBufs_held,
    Pipeline.unscopedRest_split (Ix := Unit) (Name := ℕ) (U := UD sig nD τ) (Lvl := ℕ) preFacts25 c (Vof Win c),
    Pipeline.unscopedRestP_sdiff pre25 spec25 {main_v72} hx_sub25 c (Vof Win c),
    show (fun k => Vof Win c (pre25.ref k)) = a1.1 from funext ha1] at hsplit
  exact hsplit

/-- EXIT, the buffers' part: the same four put back, the arrays at what the write-backs leave, are every unscoped
    buffer at the exit valuation. -/
theorem exit25 (c : Dev nD) (ha1 : ∀ k, Vof Win c (pre25.ref k) = a1.1 k) :
    iprop((dat25 (Vof Win) a1 O c).arrays ((dat25 (Vof Win) a1 O c).arrAt · (cfg25 a1).N)
        ∗ Pipeline.prefHeld pre25 c (fun _ => fullShare) a1.1
        ∗ (bigSep ({main_v72} : Finset (Ref sig .tc)) fun b => (((c : Thread nD τ)).loc b) ↦{fullShare} Vof Win c b)
        ∗ bigSep (Pipeline.restRefsP sig pre25 spec25 \ {main_v72}) fun b => (((c : Thread nD τ)).loc b) ↦{fullShare} Vof Win c b)
      ⊢ (StableHlo.held (c : Thread nD τ) (Pipeline.ucRefs τ sig) (Wout25 Win a1 O c) : sProp 𝕄) := by
  have hjoin := Pipeline.unscopedBufs_of_arrays (p := ()) (fun (_ : Unit) => pcfg25 (F := F)) (fun _ => a1)
    (Ix := Unit) (Name := ℕ) (U := UD sig nD τ) (Lvl := ℕ)
    winFacts25 (launch25 (F := F)).arr_whole c (fun _ c => dat25 (Vof Win) a1 O c)
    ((dat25 (Vof Win) a1 O c).share_full fun _ => rfl)
    (Vof Win c) (Vof (Wout25 Win a1 O) c) ((dat25 (Vof Win) a1 O c).arrAt · (cfg25 a1).N)
    (fun w => (Wout25_arr Win a1 O c w).symm)
    (fun b hb => Wout25_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts25 c (Vof Win c),
    Pipeline.unscopedRestP_sdiff pre25 spec25 {main_v72} hx_sub25 c (Vof Win c),
    show (fun k => Vof Win c (pre25.ref k)) = a1.1 from funext ha1] at hjoin
  exact hjoin

end Record

section Seg

variable (Win : Dev nD → Valuation τ sig (Elt F))
  (adm : (p : Fin 49) → (pcfgs (F := F) p).Adm)
  (O : (c : Dev nD) → Fin (cfg25 (adm (25 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout25. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg25 (hd : ∀ c, pdats (25 : Fin 49) c = dat25 (Vof Win) (adm (25 : Fin 49)) O c)
    (ha1 : ∀ c k, Vof Win c (pre25.ref k) = (adm (25 : Fin 49)).1 k)
    (hbody : ∀ c, BodyObligation (dat25 (F := F) (Vof Win) (adm (25 : Fin 49)) O c) (defs₀ (F := F)) 𝒱₀ () Set.univ) :
    Pipeline.RegionSeg (pcfgs (F := F)) adm pdats () defs₀ 𝒱₀ L lv (25 : Fin 49) where
  win := (launch25 (F := F)).win.to₀
  block_pos := (launch25 (F := F)).block_pos
  stage_whole := (launch25 (F := F)).stage_whole
  K := Fin 8
  osem := osem25
  ho := ownSemFacts25
  hbody c := by rw [hd c]; exact (hbody c).loose
  hwaits := Pipeline.hwaits_of_owed_zero _ _ _ _ L lv (25 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout25 Win (adm (25 : Fin 49)) O c) ∗ R c)
  X c := iprop((∃ r, prngReg c r)
    ∗ Pipeline.ownSems0 (Ix := Unit) (Name := ℕ) (U := UD sig nD τ) (Lvl := ℕ) (Val := Elt F) (τ := τ) osem25 c
    ∗ (bigSep ({main_v72} : Finset (Ref sig .tc)) fun b => (((c : Thread nD τ)).loc b) ↦{fullShare} Vof Win c b))
  Y c := iprop((∃ r, prngReg c r)
    ∗ (bigSep ({main_v72} : Finset (Ref sig .tc)) fun b => (((c : Thread nD τ)).loc b) ↦{fullShare} Vof Win c b)
    ∗ Pipeline.prefHeld pre25 c (fun _ => fullShare) (adm (25 : Fin 49)).1)
  Z c := bigSep (Pipeline.restRefsP sig pre25 spec25 \ {main_v72}) fun b => (((c : Thread nD τ)).loc b) ↦{fullShare} Vof Win c b
  hentry c := by
    rw [hd c]
    iintro ⟨⟨Hub, Hp, HO⟩, Hos, -⟩
    ihave H := (entry25 Win (adm (25 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq25, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq25, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit25 Win (adm (25 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg25 (F := F)).Adm)

/-- The output block at point t: the gathered rows (of the far operand's contents under V, chosen by the table's
    words at that point) times the input block. -/
def outBlk25 (c : Dev nD) (t : Fin (cfg25 a1).N) : Vec F S8x64 .f32 :=
  gatherOut (gatherG (a1.1 0) (V c main_v72) (grid25.coords t)) (iblk25 V a1 c 0 t)

theorem outBlk_eq25 (c : Dev nD) (t : Fin (cfg25 a1).N) :
    outBlk25 V a1 c t = gatherOut (gatherG (a1.1 0) (V c main_v72) (grid25.coords t)) (iblk25 V a1 c 0 t) := rfl

/-- The proof data with the output block named: after the body at point t the output window's buffer holds it. -/
theorem afterOutBlk25 (c : Dev nD) (t : Fin (cfg25 a1).N) :
    (dat25 V a1 (outBlk25 V a1) c).after 1 t
      = gatherOut (gatherG (a1.1 0) (V c main_v72) (grid25.coords t)) (iblk25 V a1 c 0 t) :=
  afterOut25 V a1 (outBlk25 V a1) c t

/-- The own cells at zero are the semaphore array's eight entries at zero, in order. -/
theorem ownSems_eq25 (c : Dev nD) :
    (Pipeline.ownSems0 (Ix := Unit) (Name := ℕ) (U := UD sig nD τ) (Lvl := ℕ) (Val := Elt F) (τ := τ) osem25 c : sProp 𝕄)
      = gsems0 c cc25_scratch1 := by
  rw [Pipeline.ownSems0_eq_of_list c osem25 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq25 (t : Fin (cfg25 a1).N) : ∃ h3 h4, bodyProg25 (F := F) a1 t
    = cc25__gather_mul_kernel (grid25.coords t) (Memref.whole main_v106) (Memref.isWhole_whole _) (Memref.whole main_v72) (Memref.isWhole_whole _)
        (stg25 a1 0 t) h3 (stg25 a1 1 t) h4 (Memref.whole cc25_scratch0) (Memref.isWhole_whole _) cc25_scratch1 := ⟨_, _, rfl⟩

end Out

/-! ## The body's run, joined to the proof data -/

section Body

variable (V : (c : Dev nD) → (b : Ref sig .tc) → Buf (Elt F) ((c : Thread nD τ).loc b))
  (a1 : (pcfg25 (F := F)).Adm)

/-- The scratch buffer whole at some contents, as a memref owned at some contents. -/
theorem scratchOwns_eq25 (c : Dev nD) :
    (iprop(∃ d, owns (c : Thread nD τ) (Memref.whole cc25_scratch0) fullShare d) : sProp 𝕄)
      = iprop(∃ f : Buf (Elt F) ((c : Thread nD τ).loc cc25_scratch0), ((c : Thread nD τ).loc cc25_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun25 (hlt : ∀ y, BitVec.toNat ((a1.1 0) y) < 100000) : BodyRun25 V a1 (outBlk25 V a1) := by
  intro c t W K
  obtain ⟨h3, h4, hprog⟩ := bodyProg_eq25 (F := F) a1 t
  rw [hprog, ownSems_eq25, ← scratchOwns_eq25 (F := F) c]
  have hrun := gather_kernel_run_25 (F := F) c (grid25.coords t) (Memref.whole main_v106) (Memref.isWhole_whole _) (Memref.whole main_v72) (Memref.isWhole_whole _)
    (stg25 a1 0 t) h3 (stg25 a1 1 t) h4 (Memref.whole cc25_scratch0) (Memref.isWhole_whole _) cc25_scratch1 fullShare fullShare
    (a1.1 0) (V c main_v72) (iblk25 V a1 c 0 t) (fun y => hlt y) W K
  simp only [Memref.view_whole, View.read_whole] at hrun
  unfold outBlk25
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut25 (hlt : ∀ y, BitVec.toNat ((a1.1 0) y) < 100000) (c : Dev nD) :
    BodyObligation (dat25 (F := F) V a1 (outBlk25 V a1) c) (defs₀ (F := F)) Variants.none () Set.univ :=
  body_obligation25 V a1 (outBlk25 V a1) (bodyRun25 V a1 hlt) c

end Body

end Cert.KernelIdeal.Hand

end
-- ==== Proof.KI.Regions_26_33.lean ====
/-
  Gather regions 26 to 33 of the host program, one after the other: for each, the proof data, the body obligation and the record of the region in the launch,
  exactly as for region 1 (whose module says what each part is).
-/
import proofs.«421643_j28415503630349_2_alg».proof.Proof.KI.Common
import proofs.«421643_j28415503630349_2_alg».proof.Proof.KI.BodyEq
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

/-! # Region 26 -/

/-! ## The body's own transfer cells -/

/-- The eight cells of the body's semaphore array, in order. -/
abbrev osem26 : Fin 8 → SemLoc sig := fun j => SemLoc.dma (cc26_scratch1.ix (fun | ⟨0, _⟩ => j))

/-- They are scoped, pairwise distinct, and none is a staging cell of a window. -/
theorem ownSemFacts26 : Pipeline.OwnSemFacts spec26 osem26 := by decide

/-- The far operand is an unscoped buffer that is neither a window's array nor a table. -/
theorem hx_sub26 : ({main_v72} : Finset (Ref sig .tc)) ⊆ Pipeline.restRefsP sig pre26 spec26 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg26 (F := F)).Adm)
  (O : (c : Dev nD) → Fin (cfg26 a1).N → Vec F S8x64 .f32)

/-! ## The windows' blocks -/

/-- Window w's block at point t, read off its array under V. -/
def iblk26 (c : Dev nD) (w : Fin (cfg26 a1).W) (t : Fin (cfg26 a1).N) :
    (((cfg26 a1).win w).xblock ((cfg26 a1).grid.coords t)).Idx → Elt F ((cfg26 a1).win w).elt :=
  (((cfg26 a1).win w).blk t).view.read (Elt F) (V c (Pipeline.arrRef spec26 w))

/-- The input window's current staging buffer holds its block at every point, fetched there or not, for any proof
    data whose array is V's and whose body leaves the block in place: unfetched, the block index has not moved. -/
theorem beforeIn26_of {c : Dev nD} (dat : Dat τ (Elt F) Unit ℕ (UD sig nD τ) ℕ (cfg26 a1) c)
    (hA : dat.A 0 = V c (Pipeline.arrRef spec26 0))
    (hafter : ∀ t, dat.after 0 t = iblk26 V a1 c 0 t) (t : Fin (cfg26 a1).N) (d) : dat.before 0 t d = iblk26 V a1 c 0 t :=
  (dat.before_in_eq_fetched 0 rfl (fun _ => rfl) (fun _ _ _ => rfl)
    (fun t => by rw [hafter]; unfold Dat.blockOf iblk26; rw [hA]; try rfl) t d).trans
    (by unfold Dat.fetched Dat.blockOf iblk26; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat26 (c : Dev nD) : Dat τ (Elt F) Unit ℕ (UD sig nD τ) ℕ (cfg26 a1) c where
  A w := V c (Pipeline.arrRef spec26 w)
  after w t := match w with
    | ⟨0, _⟩ => iblk26 V a1 c 0 t
    | ⟨1, _⟩ => O c t
  Φ _ := iprop(Pipeline.ΦD osem26 spec26 {main_v72} V c ∗ Pipeline.prefHeld pre26 c (fun _ => fullShare) a1.1)
  q _ := fullShare
  owed _ := 0

theorem A_eq26 (c : Dev nD) (w : Fin (cfg26 a1).W) : (dat26 V a1 O c).A w = V c (Pipeline.arrRef spec26 w) := by
  dsimp only [dat26]

theorem afterIn26 (c : Dev nD) (t : Fin (cfg26 a1).N) : (dat26 V a1 O c).after 0 t = iblk26 V a1 c 0 t := by
  dsimp only [dat26]; rfl

theorem afterOut26 (c : Dev nD) (t : Fin (cfg26 a1).N) :
    (dat26 V a1 O c).after 1 t = O c t := by
  dsimp only [dat26]; rfl

theorem beforeIn26 (c : Dev nD) (t : Fin (cfg26 a1).N) (d) : (dat26 V a1 O c).before 0 t d = iblk26 V a1 c 0 t :=
  beforeIn26_of V a1 (dat26 V a1 O c) (A_eq26 V a1 O c 0) (afterIn26 V a1 O c) t d

theorem Phi_eq26 (c : Dev nD) (t : Fin ((cfg26 a1).N + 1)) :
    (dat26 V a1 O c).Φ t
      = iprop(Pipeline.ΦD osem26 spec26 {main_v72} V c ∗ Pipeline.prefHeld pre26 c (fun _ => fullShare) a1.1) := by
  dsimp only [dat26]

theorem owed_eq26 (c : Dev nD) (t : Fin ((cfg26 a1).N + 1)) : (dat26 V a1 O c).owed t = 0 := by
  dsimp only [dat26]

/-! ## The invariant, conjunct by conjunct -/

/-- The invariant's first part opened: the body's scratch buffer whole at some contents and the other scoped
    buffers no window stages, the generator register, the own cells at zero, the far operand at its contents. -/
theorem PhiD_eq26 (c : Dev nD) :
    (Pipeline.ΦD osem26 spec26 {main_v72} V c : sProp 𝕄)
      = iprop(iprop(iprop((∃ f : Buf (Elt F) ((c : Thread nD τ).loc cc26_scratch0), ((c : Thread nD τ).loc cc26_scratch0) ↦{fullShare} f))
            ∗ Pipeline.scopedRestBut (Ix := Unit) (Name := ℕ) (U := UD sig nD τ) (Lvl := ℕ) (Val := Elt F) spec26 c [cc26_scratch0])
          ∗ (∃ r, prngReg c r)
          ∗ Pipeline.ownSems0 (Ix := Unit) (Name := ℕ) (U := UD sig nD τ) (Lvl := ℕ) (Val := Elt F) (τ := τ) osem26 c
          ∗ (((c : Thread nD τ).loc main_v72) ↦{fullShare} V c main_v72)) := by
  rw [Pipeline.ΦD_eq, scopedRest26_split, BI.bigSep_eq_bigSepL_of_eq [main_v72] (by decide) (by decide)]; rfl

/-- The one table, held whole. -/
theorem prefHeld_eq26 (c : Dev nD) :
    (Pipeline.prefHeld pre26 c (fun _ => fullShare) a1.1 : sProp 𝕄)
      = (((c : Thread nD τ).loc main_v110) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg26 (w : Fin (cfg26 a1).W) (t : Fin (cfg26 a1).N) := ((cfg26 a1).win w).stage ((cfg26 a1).slots t w)

/-- The body as the pipeline calls it at point t. -/
abbrev bodyProg26 (t : Fin (cfg26 a1).N) : Prog (TpuEff nD τ sig (Elt F) Λ₀ .tc) PUnit :=
  (defs₀ (F := F)) .tc (cfg26 a1).body ((cfg26 a1).bodyArgs t ((cfg26 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun26 : Prop :=
  ∀ (c : Dev nD) (t : Fin (cfg26 a1).N) (W) (K : PUnit → sProp 𝕄),
    iprop(owns (c : Thread nD τ) (stg26 a1 0 t) fullShare (iblk26 V a1 c 0 t)
        ∗ (∃ d, owns (c : Thread nD τ) (stg26 a1 1 t) fullShare d)
        ∗ (∃ f : Buf (Elt F) ((c : Thread nD τ).loc cc26_scratch0), ((c : Thread nD τ).loc cc26_scratch0) ↦{fullShare} f)
        ∗ Pipeline.ownSems0 (Ix := Unit) (Name := ℕ) (U := UD sig nD τ) (Lvl := ℕ) (Val := Elt F) (τ := τ) osem26 c
        ∗ (((c : Thread nD τ).loc main_v110) ↦{fullShare} a1.1 0)
        ∗ (((c : Thread nD τ).loc main_v72) ↦{fullShare} V c main_v72)
        ∗ owes (c : Thread nD τ) (0 : CellTallies nD τ sig Unit) W
        ∗ (iprop(owns (c : Thread nD τ) (stg26 a1 0 t) fullShare (iblk26 V a1 c 0 t)
            ∗ owns (c : Thread nD τ) (stg26 a1 1 t) fullShare (O c t)
            ∗ (∃ f : Buf (Elt F) ((c : Thread nD τ).loc cc26_scratch0), ((c : Thread nD τ).loc cc26_scratch0) ↦{fullShare} f)
            ∗ Pipeline.ownSems0 (Ix := Unit) (Name := ℕ) (U := UD sig nD τ) (Lvl := ℕ) (Val := Elt F) (τ := τ) osem26 c
            ∗ (((c : Thread nD τ).loc main_v110) ↦{fullShare} a1.1 0)
            ∗ (((c : Thread nD τ).loc main_v72) ↦{fullShare} V c main_v72)
            ∗ (∃ W', owes (c : Thread nD τ) (0 : CellTallies nD τ sig Unit) W')) -∗ K ⟨⟩))
      ⊢ wp frame (wpE (defs₀ (F := F)) Variants.none c none) Set.univ (bodyProg26 a1 t) K

/-- What the body is called with at point t, the windows one by one, -/
def bodyPre26 (c : Dev nD) (t : Fin (cfg26 a1).N) : sProp 𝕄 :=
  iprop((dat26 V a1 O c).Φ t.castSucc ∗ (dat26 V a1 O c).owesAt () t.castSucc
    ∗ (∃ d, owns (c : Thread nD τ) (stg26 a1 0 t) fullShare ((dat26 V a1 O c).before 0 t d))
    ∗ (∃ d, owns (c : Thread nD τ) (stg26 a1 1 t) fullShare ((dat26 V a1 O c).before 1 t d)))

/-- and what it returns. -/
def bodyPost26 (c : Dev nD) (t : Fin (cfg26 a1).N) : sProp 𝕄 :=
  iprop((dat26 V a1 O c).Φ t.succ ∗ (dat26 V a1 O c).owesAt () t.succ
    ∗ owns (c : Thread nD τ) (stg26 a1 0 t) fullShare ((dat26 V a1 O c).after 0 t)
    ∗ owns (c : Thread nD τ) (stg26 a1 1 t) fullShare ((dat26 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body26 (hrun : BodyRun26 V a1 O) (c : Dev nD) (t : Fin (cfg26 a1).N) :
    bodyPre26 V a1 O c t
      ⊢ wp frame (wpE (defs₀ (F := F)) Variants.none c none) Set.univ (bodyProg26 a1 t) (fun _ => bodyPost26 V a1 O c t) := by
  unfold bodyPre26 bodyPost26
  simp only [beforeIn26]
  rw [afterIn26, afterOut26, Phi_eq26, Phi_eq26, PhiD_eq26, prefHeld_eq26]
  unfold Dat.owesAt Pipeline.owesWithin
  rw [owed_eq26, owed_eq26]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation26 (hrun : BodyRun26 V a1 O) (c : Dev nD) :
    BodyObligation (dat26 (F := F) V a1 O c) (defs₀ (F := F)) Variants.none () Set.univ := fun t => by
  rw [bigSep_W26, bigSep_W26]
  exact sound_body26 V a1 O hrun c t

end Data

/-! ## The region's record -/

section Record

variable (Win : Dev nD → Valuation τ sig (Elt F))

variable (a1 : (pcfg26 (F := F)).Adm)
  (O : (c : Dev nD) → Fin (cfg26 a1).N → Vec F S8x64 .f32)

/-- The buffers at the region's exit: its arrays at what the write-backs leave, every other buffer as entered. -/
def Wout26 (c : Dev nD) : Valuation τ sig (Elt F) :=
  Pipeline.withArrays spec26 c (Win c) fun w => (dat26 (Vof Win) a1 O c).arrAt w (cfg26 a1).N

theorem Wout26_arr (c : Dev nD) (w : Fin (cfg26 a1).W) :
    Wout26 Win a1 O c (Proc.devRef .tc (Pipeline.arrRef spec26 w)) = (dat26 (Vof Win) a1 O c).arrAt w (cfg26 a1).N := by
  unfold Wout26; exact Pipeline.withArrays_arr spec26 winFacts26.arr_inj c _ _ w

theorem Wout26_of_ne (c : Dev nD) (b : Ref sig .tc) (hb : ∀ w, Pipeline.arrRef spec26 w ≠ b) :
    Wout26 Win a1 O c (Proc.devRef .tc b) = Win c (Proc.devRef .tc b) := by
  unfold Wout26; exact Pipeline.withArrays_of_ne spec26 c _ _ b hb

/-- ENTRY, the buffers' part. Every unscoped buffer at Win is: the region's arrays at the proof data's entry contents,
    the table whole at the admissible contents (which are Win's there), the far operand whole, and the others. -/
theorem entry26 (c : Dev nD) (ha1 : ∀ k, Vof Win c (pre26.ref k) = a1.1 k) :
    (StableHlo.held (c : Thread nD τ) (Pipeline.ucRefs τ sig) (Win c) : sProp 𝕄)
      ⊢ iprop((dat26 (Vof Win) a1 O c).arrays ((dat26 (Vof Win) a1 O c).arrAt · 0)
          ∗ Pipeline.prefHeld pre26 c (fun _ => fullShare) a1.1
          ∗ (bigSep ({main_v72} : Finset (Ref sig .tc)) fun b => (((c : Thread nD τ)).loc b) ↦{fullShare} Vof Win c b)
          ∗ bigSep (Pipeline.restRefsP sig pre26 spec26 \ {main_v72}) fun b => (((c : Thread nD τ)).loc b) ↦{fullShare} Vof Win c b) := by
  have hsplit := Pipeline.arrays_of_unscopedBufs (p := ()) (fun (_ : Unit) => pcfg26 (F := F)) (fun _ => a1)
    (fun _ c => dat26 (Vof Win) a1 O c) winFacts26 (launch26 (F := F)).arr_whole c
    ((dat26 (Vof Win) a1 O c).share_full fun _ => rfl) (Vof Win c) (fun w => A_eq26 (Vof Win) a1 O c w)
  rw [Pipeline.unscopedBufs_held,
    Pipeline.unscopedRest_split (Ix := Unit) (Name := ℕ) (U := UD sig nD τ) (Lvl := ℕ) preFacts26 c (Vof Win c),
    Pipeline.unscopedRestP_sdiff pre26 spec26 {main_v72} hx_sub26 c (Vof Win c),
    show (fun k => Vof Win c (pre26.ref k)) = a1.1 from funext ha1] at hsplit
  exact hsplit

/-- EXIT, the buffers' part: the same four put back, the arrays at what the write-backs leave, are every unscoped
    buffer at the exit valuation. -/
theorem exit26 (c : Dev nD) (ha1 : ∀ k, Vof Win c (pre26.ref k) = a1.1 k) :
    iprop((dat26 (Vof Win) a1 O c).arrays ((dat26 (Vof Win) a1 O c).arrAt · (cfg26 a1).N)
        ∗ Pipeline.prefHeld pre26 c (fun _ => fullShare) a1.1
        ∗ (bigSep ({main_v72} : Finset (Ref sig .tc)) fun b => (((c : Thread nD τ)).loc b) ↦{fullShare} Vof Win c b)
        ∗ bigSep (Pipeline.restRefsP sig pre26 spec26 \ {main_v72}) fun b => (((c : Thread nD τ)).loc b) ↦{fullShare} Vof Win c b)
      ⊢ (StableHlo.held (c : Thread nD τ) (Pipeline.ucRefs τ sig) (Wout26 Win a1 O c) : sProp 𝕄) := by
  have hjoin := Pipeline.unscopedBufs_of_arrays (p := ()) (fun (_ : Unit) => pcfg26 (F := F)) (fun _ => a1)
    (Ix := Unit) (Name := ℕ) (U := UD sig nD τ) (Lvl := ℕ)
    winFacts26 (launch26 (F := F)).arr_whole c (fun _ c => dat26 (Vof Win) a1 O c)
    ((dat26 (Vof Win) a1 O c).share_full fun _ => rfl)
    (Vof Win c) (Vof (Wout26 Win a1 O) c) ((dat26 (Vof Win) a1 O c).arrAt · (cfg26 a1).N)
    (fun w => (Wout26_arr Win a1 O c w).symm)
    (fun b hb => Wout26_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts26 c (Vof Win c),
    Pipeline.unscopedRestP_sdiff pre26 spec26 {main_v72} hx_sub26 c (Vof Win c),
    show (fun k => Vof Win c (pre26.ref k)) = a1.1 from funext ha1] at hjoin
  exact hjoin

end Record

section Seg

variable (Win : Dev nD → Valuation τ sig (Elt F))
  (adm : (p : Fin 49) → (pcfgs (F := F) p).Adm)
  (O : (c : Dev nD) → Fin (cfg26 (adm (26 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout26. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg26 (hd : ∀ c, pdats (26 : Fin 49) c = dat26 (Vof Win) (adm (26 : Fin 49)) O c)
    (ha1 : ∀ c k, Vof Win c (pre26.ref k) = (adm (26 : Fin 49)).1 k)
    (hbody : ∀ c, BodyObligation (dat26 (F := F) (Vof Win) (adm (26 : Fin 49)) O c) (defs₀ (F := F)) 𝒱₀ () Set.univ) :
    Pipeline.RegionSeg (pcfgs (F := F)) adm pdats () defs₀ 𝒱₀ L lv (26 : Fin 49) where
  win := (launch26 (F := F)).win.to₀
  block_pos := (launch26 (F := F)).block_pos
  stage_whole := (launch26 (F := F)).stage_whole
  K := Fin 8
  osem := osem26
  ho := ownSemFacts26
  hbody c := by rw [hd c]; exact (hbody c).loose
  hwaits := Pipeline.hwaits_of_owed_zero _ _ _ _ L lv (26 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout26 Win (adm (26 : Fin 49)) O c) ∗ R c)
  X c := iprop((∃ r, prngReg c r)
    ∗ Pipeline.ownSems0 (Ix := Unit) (Name := ℕ) (U := UD sig nD τ) (Lvl := ℕ) (Val := Elt F) (τ := τ) osem26 c
    ∗ (bigSep ({main_v72} : Finset (Ref sig .tc)) fun b => (((c : Thread nD τ)).loc b) ↦{fullShare} Vof Win c b))
  Y c := iprop((∃ r, prngReg c r)
    ∗ (bigSep ({main_v72} : Finset (Ref sig .tc)) fun b => (((c : Thread nD τ)).loc b) ↦{fullShare} Vof Win c b)
    ∗ Pipeline.prefHeld pre26 c (fun _ => fullShare) (adm (26 : Fin 49)).1)
  Z c := bigSep (Pipeline.restRefsP sig pre26 spec26 \ {main_v72}) fun b => (((c : Thread nD τ)).loc b) ↦{fullShare} Vof Win c b
  hentry c := by
    rw [hd c]
    iintro ⟨⟨Hub, Hp, HO⟩, Hos, -⟩
    ihave H := (entry26 Win (adm (26 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq26, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq26, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit26 Win (adm (26 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg26 (F := F)).Adm)

/-- The output block at point t: the gathered rows (of the far operand's contents under V, chosen by the table's
    words at that point) times the input block. -/
def outBlk26 (c : Dev nD) (t : Fin (cfg26 a1).N) : Vec F S8x64 .f32 :=
  gatherOut (gatherG (a1.1 0) (V c main_v72) (grid26.coords t)) (iblk26 V a1 c 0 t)

theorem outBlk_eq26 (c : Dev nD) (t : Fin (cfg26 a1).N) :
    outBlk26 V a1 c t = gatherOut (gatherG (a1.1 0) (V c main_v72) (grid26.coords t)) (iblk26 V a1 c 0 t) := rfl

/-- The proof data with the output block named: after the body at point t the output window's buffer holds it. -/
theorem afterOutBlk26 (c : Dev nD) (t : Fin (cfg26 a1).N) :
    (dat26 V a1 (outBlk26 V a1) c).after 1 t
      = gatherOut (gatherG (a1.1 0) (V c main_v72) (grid26.coords t)) (iblk26 V a1 c 0 t) :=
  afterOut26 V a1 (outBlk26 V a1) c t

/-- The own cells at zero are the semaphore array's eight entries at zero, in order. -/
theorem ownSems_eq26 (c : Dev nD) :
    (Pipeline.ownSems0 (Ix := Unit) (Name := ℕ) (U := UD sig nD τ) (Lvl := ℕ) (Val := Elt F) (τ := τ) osem26 c : sProp 𝕄)
      = gsems0 c cc26_scratch1 := by
  rw [Pipeline.ownSems0_eq_of_list c osem26 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq26 (t : Fin (cfg26 a1).N) : ∃ h3 h4, bodyProg26 (F := F) a1 t
    = cc26__gather_mul_kernel (grid26.coords t) (Memref.whole main_v110) (Memref.isWhole_whole _) (Memref.whole main_v72) (Memref.isWhole_whole _)
        (stg26 a1 0 t) h3 (stg26 a1 1 t) h4 (Memref.whole cc26_scratch0) (Memref.isWhole_whole _) cc26_scratch1 := ⟨_, _, rfl⟩

end Out

/-! ## The body's run, joined to the proof data -/

section Body

variable (V : (c : Dev nD) → (b : Ref sig .tc) → Buf (Elt F) ((c : Thread nD τ).loc b))
  (a1 : (pcfg26 (F := F)).Adm)

/-- The scratch buffer whole at some contents, as a memref owned at some contents. -/
theorem scratchOwns_eq26 (c : Dev nD) :
    (iprop(∃ d, owns (c : Thread nD τ) (Memref.whole cc26_scratch0) fullShare d) : sProp 𝕄)
      = iprop(∃ f : Buf (Elt F) ((c : Thread nD τ).loc cc26_scratch0), ((c : Thread nD τ).loc cc26_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun26 (hlt : ∀ y, BitVec.toNat ((a1.1 0) y) < 100000) : BodyRun26 V a1 (outBlk26 V a1) := by
  intro c t W K
  obtain ⟨h3, h4, hprog⟩ := bodyProg_eq26 (F := F) a1 t
  rw [hprog, ownSems_eq26, ← scratchOwns_eq26 (F := F) c]
  have hrun := gather_kernel_run_26 (F := F) c (grid26.coords t) (Memref.whole main_v110) (Memref.isWhole_whole _) (Memref.whole main_v72) (Memref.isWhole_whole _)
    (stg26 a1 0 t) h3 (stg26 a1 1 t) h4 (Memref.whole cc26_scratch0) (Memref.isWhole_whole _) cc26_scratch1 fullShare fullShare
    (a1.1 0) (V c main_v72) (iblk26 V a1 c 0 t) (fun y => hlt y) W K
  simp only [Memref.view_whole, View.read_whole] at hrun
  unfold outBlk26
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut26 (hlt : ∀ y, BitVec.toNat ((a1.1 0) y) < 100000) (c : Dev nD) :
    BodyObligation (dat26 (F := F) V a1 (outBlk26 V a1) c) (defs₀ (F := F)) Variants.none () Set.univ :=
  body_obligation26 V a1 (outBlk26 V a1) (bodyRun26 V a1 hlt) c

end Body

/-! # Region 27 -/

/-! ## The body's own transfer cells -/

/-- The eight cells of the body's semaphore array, in order. -/
abbrev osem27 : Fin 8 → SemLoc sig := fun j => SemLoc.dma (cc27_scratch1.ix (fun | ⟨0, _⟩ => j))

/-- They are scoped, pairwise distinct, and none is a staging cell of a window. -/
theorem ownSemFacts27 : Pipeline.OwnSemFacts spec27 osem27 := by decide

/-- The far operand is an unscoped buffer that is neither a window's array nor a table. -/
theorem hx_sub27 : ({main_v72} : Finset (Ref sig .tc)) ⊆ Pipeline.restRefsP sig pre27 spec27 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg27 (F := F)).Adm)
  (O : (c : Dev nD) → Fin (cfg27 a1).N → Vec F S8x64 .f32)

/-! ## The windows' blocks -/

/-- Window w's block at point t, read off its array under V. -/
def iblk27 (c : Dev nD) (w : Fin (cfg27 a1).W) (t : Fin (cfg27 a1).N) :
    (((cfg27 a1).win w).xblock ((cfg27 a1).grid.coords t)).Idx → Elt F ((cfg27 a1).win w).elt :=
  (((cfg27 a1).win w).blk t).view.read (Elt F) (V c (Pipeline.arrRef spec27 w))

/-- The input window's current staging buffer holds its block at every point, fetched there or not, for any proof
    data whose array is V's and whose body leaves the block in place: unfetched, the block index has not moved. -/
theorem beforeIn27_of {c : Dev nD} (dat : Dat τ (Elt F) Unit ℕ (UD sig nD τ) ℕ (cfg27 a1) c)
    (hA : dat.A 0 = V c (Pipeline.arrRef spec27 0))
    (hafter : ∀ t, dat.after 0 t = iblk27 V a1 c 0 t) (t : Fin (cfg27 a1).N) (d) : dat.before 0 t d = iblk27 V a1 c 0 t :=
  (dat.before_in_eq_fetched 0 rfl (fun _ => rfl) (fun _ _ _ => rfl)
    (fun t => by rw [hafter]; unfold Dat.blockOf iblk27; rw [hA]; try rfl) t d).trans
    (by unfold Dat.fetched Dat.blockOf iblk27; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat27 (c : Dev nD) : Dat τ (Elt F) Unit ℕ (UD sig nD τ) ℕ (cfg27 a1) c where
  A w := V c (Pipeline.arrRef spec27 w)
  after w t := match w with
    | ⟨0, _⟩ => iblk27 V a1 c 0 t
    | ⟨1, _⟩ => O c t
  Φ _ := iprop(Pipeline.ΦD osem27 spec27 {main_v72} V c ∗ Pipeline.prefHeld pre27 c (fun _ => fullShare) a1.1)
  q _ := fullShare
  owed _ := 0

theorem A_eq27 (c : Dev nD) (w : Fin (cfg27 a1).W) : (dat27 V a1 O c).A w = V c (Pipeline.arrRef spec27 w) := by
  dsimp only [dat27]

theorem afterIn27 (c : Dev nD) (t : Fin (cfg27 a1).N) : (dat27 V a1 O c).after 0 t = iblk27 V a1 c 0 t := by
  dsimp only [dat27]; rfl

theorem afterOut27 (c : Dev nD) (t : Fin (cfg27 a1).N) :
    (dat27 V a1 O c).after 1 t = O c t := by
  dsimp only [dat27]; rfl

theorem beforeIn27 (c : Dev nD) (t : Fin (cfg27 a1).N) (d) : (dat27 V a1 O c).before 0 t d = iblk27 V a1 c 0 t :=
  beforeIn27_of V a1 (dat27 V a1 O c) (A_eq27 V a1 O c 0) (afterIn27 V a1 O c) t d

theorem Phi_eq27 (c : Dev nD) (t : Fin ((cfg27 a1).N + 1)) :
    (dat27 V a1 O c).Φ t
      = iprop(Pipeline.ΦD osem27 spec27 {main_v72} V c ∗ Pipeline.prefHeld pre27 c (fun _ => fullShare) a1.1) := by
  dsimp only [dat27]

theorem owed_eq27 (c : Dev nD) (t : Fin ((cfg27 a1).N + 1)) : (dat27 V a1 O c).owed t = 0 := by
  dsimp only [dat27]

/-! ## The invariant, conjunct by conjunct -/

/-- The invariant's first part opened: the body's scratch buffer whole at some contents and the other scoped
    buffers no window stages, the generator register, the own cells at zero, the far operand at its contents. -/
theorem PhiD_eq27 (c : Dev nD) :
    (Pipeline.ΦD osem27 spec27 {main_v72} V c : sProp 𝕄)
      = iprop(iprop(iprop((∃ f : Buf (Elt F) ((c : Thread nD τ).loc cc27_scratch0), ((c : Thread nD τ).loc cc27_scratch0) ↦{fullShare} f))
            ∗ Pipeline.scopedRestBut (Ix := Unit) (Name := ℕ) (U := UD sig nD τ) (Lvl := ℕ) (Val := Elt F) spec27 c [cc27_scratch0])
          ∗ (∃ r, prngReg c r)
          ∗ Pipeline.ownSems0 (Ix := Unit) (Name := ℕ) (U := UD sig nD τ) (Lvl := ℕ) (Val := Elt F) (τ := τ) osem27 c
          ∗ (((c : Thread nD τ).loc main_v72) ↦{fullShare} V c main_v72)) := by
  rw [Pipeline.ΦD_eq, scopedRest27_split, BI.bigSep_eq_bigSepL_of_eq [main_v72] (by decide) (by decide)]; rfl

/-- The one table, held whole. -/
theorem prefHeld_eq27 (c : Dev nD) :
    (Pipeline.prefHeld pre27 c (fun _ => fullShare) a1.1 : sProp 𝕄)
      = (((c : Thread nD τ).loc main_v114) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg27 (w : Fin (cfg27 a1).W) (t : Fin (cfg27 a1).N) := ((cfg27 a1).win w).stage ((cfg27 a1).slots t w)

/-- The body as the pipeline calls it at point t. -/
abbrev bodyProg27 (t : Fin (cfg27 a1).N) : Prog (TpuEff nD τ sig (Elt F) Λ₀ .tc) PUnit :=
  (defs₀ (F := F)) .tc (cfg27 a1).body ((cfg27 a1).bodyArgs t ((cfg27 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun27 : Prop :=
  ∀ (c : Dev nD) (t : Fin (cfg27 a1).N) (W) (K : PUnit → sProp 𝕄),
    iprop(owns (c : Thread nD τ) (stg27 a1 0 t) fullShare (iblk27 V a1 c 0 t)
        ∗ (∃ d, owns (c : Thread nD τ) (stg27 a1 1 t) fullShare d)
        ∗ (∃ f : Buf (Elt F) ((c : Thread nD τ).loc cc27_scratch0), ((c : Thread nD τ).loc cc27_scratch0) ↦{fullShare} f)
        ∗ Pipeline.ownSems0 (Ix := Unit) (Name := ℕ) (U := UD sig nD τ) (Lvl := ℕ) (Val := Elt F) (τ := τ) osem27 c
        ∗ (((c : Thread nD τ).loc main_v114) ↦{fullShare} a1.1 0)
        ∗ (((c : Thread nD τ).loc main_v72) ↦{fullShare} V c main_v72)
        ∗ owes (c : Thread nD τ) (0 : CellTallies nD τ sig Unit) W
        ∗ (iprop(owns (c : Thread nD τ) (stg27 a1 0 t) fullShare (iblk27 V a1 c 0 t)
            ∗ owns (c : Thread nD τ) (stg27 a1 1 t) fullShare (O c t)
            ∗ (∃ f : Buf (Elt F) ((c : Thread nD τ).loc cc27_scratch0), ((c : Thread nD τ).loc cc27_scratch0) ↦{fullShare} f)
            ∗ Pipeline.ownSems0 (Ix := Unit) (Name := ℕ) (U := UD sig nD τ) (Lvl := ℕ) (Val := Elt F) (τ := τ) osem27 c
            ∗ (((c : Thread nD τ).loc main_v114) ↦{fullShare} a1.1 0)
            ∗ (((c : Thread nD τ).loc main_v72) ↦{fullShare} V c main_v72)
            ∗ (∃ W', owes (c : Thread nD τ) (0 : CellTallies nD τ sig Unit) W')) -∗ K ⟨⟩))
      ⊢ wp frame (wpE (defs₀ (F := F)) Variants.none c none) Set.univ (bodyProg27 a1 t) K

/-- What the body is called with at point t, the windows one by one, -/
def bodyPre27 (c : Dev nD) (t : Fin (cfg27 a1).N) : sProp 𝕄 :=
  iprop((dat27 V a1 O c).Φ t.castSucc ∗ (dat27 V a1 O c).owesAt () t.castSucc
    ∗ (∃ d, owns (c : Thread nD τ) (stg27 a1 0 t) fullShare ((dat27 V a1 O c).before 0 t d))
    ∗ (∃ d, owns (c : Thread nD τ) (stg27 a1 1 t) fullShare ((dat27 V a1 O c).before 1 t d)))

/-- and what it returns. -/
def bodyPost27 (c : Dev nD) (t : Fin (cfg27 a1).N) : sProp 𝕄 :=
  iprop((dat27 V a1 O c).Φ t.succ ∗ (dat27 V a1 O c).owesAt () t.succ
    ∗ owns (c : Thread nD τ) (stg27 a1 0 t) fullShare ((dat27 V a1 O c).after 0 t)
    ∗ owns (c : Thread nD τ) (stg27 a1 1 t) fullShare ((dat27 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body27 (hrun : BodyRun27 V a1 O) (c : Dev nD) (t : Fin (cfg27 a1).N) :
    bodyPre27 V a1 O c t
      ⊢ wp frame (wpE (defs₀ (F := F)) Variants.none c none) Set.univ (bodyProg27 a1 t) (fun _ => bodyPost27 V a1 O c t) := by
  unfold bodyPre27 bodyPost27
  simp only [beforeIn27]
  rw [afterIn27, afterOut27, Phi_eq27, Phi_eq27, PhiD_eq27, prefHeld_eq27]
  unfold Dat.owesAt Pipeline.owesWithin
  rw [owed_eq27, owed_eq27]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation27 (hrun : BodyRun27 V a1 O) (c : Dev nD) :
    BodyObligation (dat27 (F := F) V a1 O c) (defs₀ (F := F)) Variants.none () Set.univ := fun t => by
  rw [bigSep_W27, bigSep_W27]
  exact sound_body27 V a1 O hrun c t

end Data

/-! ## The region's record -/

section Record

variable (Win : Dev nD → Valuation τ sig (Elt F))

variable (a1 : (pcfg27 (F := F)).Adm)
  (O : (c : Dev nD) → Fin (cfg27 a1).N → Vec F S8x64 .f32)

/-- The buffers at the region's exit: its arrays at what the write-backs leave, every other buffer as entered. -/
def Wout27 (c : Dev nD) : Valuation τ sig (Elt F) :=
  Pipeline.withArrays spec27 c (Win c) fun w => (dat27 (Vof Win) a1 O c).arrAt w (cfg27 a1).N

theorem Wout27_arr (c : Dev nD) (w : Fin (cfg27 a1).W) :
    Wout27 Win a1 O c (Proc.devRef .tc (Pipeline.arrRef spec27 w)) = (dat27 (Vof Win) a1 O c).arrAt w (cfg27 a1).N := by
  unfold Wout27; exact Pipeline.withArrays_arr spec27 winFacts27.arr_inj c _ _ w

theorem Wout27_of_ne (c : Dev nD) (b : Ref sig .tc) (hb : ∀ w, Pipeline.arrRef spec27 w ≠ b) :
    Wout27 Win a1 O c (Proc.devRef .tc b) = Win c (Proc.devRef .tc b) := by
  unfold Wout27; exact Pipeline.withArrays_of_ne spec27 c _ _ b hb

/-- ENTRY, the buffers' part. Every unscoped buffer at Win is: the region's arrays at the proof data's entry contents,
    the table whole at the admissible contents (which are Win's there), the far operand whole, and the others. -/
theorem entry27 (c : Dev nD) (ha1 : ∀ k, Vof Win c (pre27.ref k) = a1.1 k) :
    (StableHlo.held (c : Thread nD τ) (Pipeline.ucRefs τ sig) (Win c) : sProp 𝕄)
      ⊢ iprop((dat27 (Vof Win) a1 O c).arrays ((dat27 (Vof Win) a1 O c).arrAt · 0)
          ∗ Pipeline.prefHeld pre27 c (fun _ => fullShare) a1.1
          ∗ (bigSep ({main_v72} : Finset (Ref sig .tc)) fun b => (((c : Thread nD τ)).loc b) ↦{fullShare} Vof Win c b)
          ∗ bigSep (Pipeline.restRefsP sig pre27 spec27 \ {main_v72}) fun b => (((c : Thread nD τ)).loc b) ↦{fullShare} Vof Win c b) := by
  have hsplit := Pipeline.arrays_of_unscopedBufs (p := ()) (fun (_ : Unit) => pcfg27 (F := F)) (fun _ => a1)
    (fun _ c => dat27 (Vof Win) a1 O c) winFacts27 (launch27 (F := F)).arr_whole c
    ((dat27 (Vof Win) a1 O c).share_full fun _ => rfl) (Vof Win c) (fun w => A_eq27 (Vof Win) a1 O c w)
  rw [Pipeline.unscopedBufs_held,
    Pipeline.unscopedRest_split (Ix := Unit) (Name := ℕ) (U := UD sig nD τ) (Lvl := ℕ) preFacts27 c (Vof Win c),
    Pipeline.unscopedRestP_sdiff pre27 spec27 {main_v72} hx_sub27 c (Vof Win c),
    show (fun k => Vof Win c (pre27.ref k)) = a1.1 from funext ha1] at hsplit
  exact hsplit

/-- EXIT, the buffers' part: the same four put back, the arrays at what the write-backs leave, are every unscoped
    buffer at the exit valuation. -/
theorem exit27 (c : Dev nD) (ha1 : ∀ k, Vof Win c (pre27.ref k) = a1.1 k) :
    iprop((dat27 (Vof Win) a1 O c).arrays ((dat27 (Vof Win) a1 O c).arrAt · (cfg27 a1).N)
        ∗ Pipeline.prefHeld pre27 c (fun _ => fullShare) a1.1
        ∗ (bigSep ({main_v72} : Finset (Ref sig .tc)) fun b => (((c : Thread nD τ)).loc b) ↦{fullShare} Vof Win c b)
        ∗ bigSep (Pipeline.restRefsP sig pre27 spec27 \ {main_v72}) fun b => (((c : Thread nD τ)).loc b) ↦{fullShare} Vof Win c b)
      ⊢ (StableHlo.held (c : Thread nD τ) (Pipeline.ucRefs τ sig) (Wout27 Win a1 O c) : sProp 𝕄) := by
  have hjoin := Pipeline.unscopedBufs_of_arrays (p := ()) (fun (_ : Unit) => pcfg27 (F := F)) (fun _ => a1)
    (Ix := Unit) (Name := ℕ) (U := UD sig nD τ) (Lvl := ℕ)
    winFacts27 (launch27 (F := F)).arr_whole c (fun _ c => dat27 (Vof Win) a1 O c)
    ((dat27 (Vof Win) a1 O c).share_full fun _ => rfl)
    (Vof Win c) (Vof (Wout27 Win a1 O) c) ((dat27 (Vof Win) a1 O c).arrAt · (cfg27 a1).N)
    (fun w => (Wout27_arr Win a1 O c w).symm)
    (fun b hb => Wout27_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts27 c (Vof Win c),
    Pipeline.unscopedRestP_sdiff pre27 spec27 {main_v72} hx_sub27 c (Vof Win c),
    show (fun k => Vof Win c (pre27.ref k)) = a1.1 from funext ha1] at hjoin
  exact hjoin

end Record

section Seg

variable (Win : Dev nD → Valuation τ sig (Elt F))
  (adm : (p : Fin 49) → (pcfgs (F := F) p).Adm)
  (O : (c : Dev nD) → Fin (cfg27 (adm (27 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout27. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg27 (hd : ∀ c, pdats (27 : Fin 49) c = dat27 (Vof Win) (adm (27 : Fin 49)) O c)
    (ha1 : ∀ c k, Vof Win c (pre27.ref k) = (adm (27 : Fin 49)).1 k)
    (hbody : ∀ c, BodyObligation (dat27 (F := F) (Vof Win) (adm (27 : Fin 49)) O c) (defs₀ (F := F)) 𝒱₀ () Set.univ) :
    Pipeline.RegionSeg (pcfgs (F := F)) adm pdats () defs₀ 𝒱₀ L lv (27 : Fin 49) where
  win := (launch27 (F := F)).win.to₀
  block_pos := (launch27 (F := F)).block_pos
  stage_whole := (launch27 (F := F)).stage_whole
  K := Fin 8
  osem := osem27
  ho := ownSemFacts27
  hbody c := by rw [hd c]; exact (hbody c).loose
  hwaits := Pipeline.hwaits_of_owed_zero _ _ _ _ L lv (27 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout27 Win (adm (27 : Fin 49)) O c) ∗ R c)
  X c := iprop((∃ r, prngReg c r)
    ∗ Pipeline.ownSems0 (Ix := Unit) (Name := ℕ) (U := UD sig nD τ) (Lvl := ℕ) (Val := Elt F) (τ := τ) osem27 c
    ∗ (bigSep ({main_v72} : Finset (Ref sig .tc)) fun b => (((c : Thread nD τ)).loc b) ↦{fullShare} Vof Win c b))
  Y c := iprop((∃ r, prngReg c r)
    ∗ (bigSep ({main_v72} : Finset (Ref sig .tc)) fun b => (((c : Thread nD τ)).loc b) ↦{fullShare} Vof Win c b)
    ∗ Pipeline.prefHeld pre27 c (fun _ => fullShare) (adm (27 : Fin 49)).1)
  Z c := bigSep (Pipeline.restRefsP sig pre27 spec27 \ {main_v72}) fun b => (((c : Thread nD τ)).loc b) ↦{fullShare} Vof Win c b
  hentry c := by
    rw [hd c]
    iintro ⟨⟨Hub, Hp, HO⟩, Hos, -⟩
    ihave H := (entry27 Win (adm (27 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq27, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq27, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit27 Win (adm (27 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg27 (F := F)).Adm)

/-- The output block at point t: the gathered rows (of the far operand's contents under V, chosen by the table's
    words at that point) times the input block. -/
def outBlk27 (c : Dev nD) (t : Fin (cfg27 a1).N) : Vec F S8x64 .f32 :=
  gatherOut (gatherG (a1.1 0) (V c main_v72) (grid27.coords t)) (iblk27 V a1 c 0 t)

theorem outBlk_eq27 (c : Dev nD) (t : Fin (cfg27 a1).N) :
    outBlk27 V a1 c t = gatherOut (gatherG (a1.1 0) (V c main_v72) (grid27.coords t)) (iblk27 V a1 c 0 t) := rfl

/-- The proof data with the output block named: after the body at point t the output window's buffer holds it. -/
theorem afterOutBlk27 (c : Dev nD) (t : Fin (cfg27 a1).N) :
    (dat27 V a1 (outBlk27 V a1) c).after 1 t
      = gatherOut (gatherG (a1.1 0) (V c main_v72) (grid27.coords t)) (iblk27 V a1 c 0 t) :=
  afterOut27 V a1 (outBlk27 V a1) c t

/-- The own cells at zero are the semaphore array's eight entries at zero, in order. -/
theorem ownSems_eq27 (c : Dev nD) :
    (Pipeline.ownSems0 (Ix := Unit) (Name := ℕ) (U := UD sig nD τ) (Lvl := ℕ) (Val := Elt F) (τ := τ) osem27 c : sProp 𝕄)
      = gsems0 c cc27_scratch1 := by
  rw [Pipeline.ownSems0_eq_of_list c osem27 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq27 (t : Fin (cfg27 a1).N) : ∃ h3 h4, bodyProg27 (F := F) a1 t
    = cc27__gather_mul_kernel (grid27.coords t) (Memref.whole main_v114) (Memref.isWhole_whole _) (Memref.whole main_v72) (Memref.isWhole_whole _)
        (stg27 a1 0 t) h3 (stg27 a1 1 t) h4 (Memref.whole cc27_scratch0) (Memref.isWhole_whole _) cc27_scratch1 := ⟨_, _, rfl⟩

end Out

/-! ## The body's run, joined to the proof data -/

section Body

variable (V : (c : Dev nD) → (b : Ref sig .tc) → Buf (Elt F) ((c : Thread nD τ).loc b))
  (a1 : (pcfg27 (F := F)).Adm)

/-- The scratch buffer whole at some contents, as a memref owned at some contents. -/
theorem scratchOwns_eq27 (c : Dev nD) :
    (iprop(∃ d, owns (c : Thread nD τ) (Memref.whole cc27_scratch0) fullShare d) : sProp 𝕄)
      = iprop(∃ f : Buf (Elt F) ((c : Thread nD τ).loc cc27_scratch0), ((c : Thread nD τ).loc cc27_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun27 (hlt : ∀ y, BitVec.toNat ((a1.1 0) y) < 100000) : BodyRun27 V a1 (outBlk27 V a1) := by
  intro c t W K
  obtain ⟨h3, h4, hprog⟩ := bodyProg_eq27 (F := F) a1 t
  rw [hprog, ownSems_eq27, ← scratchOwns_eq27 (F := F) c]
  have hrun := gather_kernel_run_27 (F := F) c (grid27.coords t) (Memref.whole main_v114) (Memref.isWhole_whole _) (Memref.whole main_v72) (Memref.isWhole_whole _)
    (stg27 a1 0 t) h3 (stg27 a1 1 t) h4 (Memref.whole cc27_scratch0) (Memref.isWhole_whole _) cc27_scratch1 fullShare fullShare
    (a1.1 0) (V c main_v72) (iblk27 V a1 c 0 t) (fun y => hlt y) W K
  simp only [Memref.view_whole, View.read_whole] at hrun
  unfold outBlk27
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut27 (hlt : ∀ y, BitVec.toNat ((a1.1 0) y) < 100000) (c : Dev nD) :
    BodyObligation (dat27 (F := F) V a1 (outBlk27 V a1) c) (defs₀ (F := F)) Variants.none () Set.univ :=
  body_obligation27 V a1 (outBlk27 V a1) (bodyRun27 V a1 hlt) c

end Body

/-! # Region 28 -/

/-! ## The body's own transfer cells -/

/-- The eight cells of the body's semaphore array, in order. -/
abbrev osem28 : Fin 8 → SemLoc sig := fun j => SemLoc.dma (cc28_scratch1.ix (fun | ⟨0, _⟩ => j))

/-- They are scoped, pairwise distinct, and none is a staging cell of a window. -/
theorem ownSemFacts28 : Pipeline.OwnSemFacts spec28 osem28 := by decide

/-- The far operand is an unscoped buffer that is neither a window's array nor a table. -/
theorem hx_sub28 : ({main_v72} : Finset (Ref sig .tc)) ⊆ Pipeline.restRefsP sig pre28 spec28 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg28 (F := F)).Adm)
  (O : (c : Dev nD) → Fin (cfg28 a1).N → Vec F S8x64 .f32)

/-! ## The windows' blocks -/

/-- Window w's block at point t, read off its array under V. -/
def iblk28 (c : Dev nD) (w : Fin (cfg28 a1).W) (t : Fin (cfg28 a1).N) :
    (((cfg28 a1).win w).xblock ((cfg28 a1).grid.coords t)).Idx → Elt F ((cfg28 a1).win w).elt :=
  (((cfg28 a1).win w).blk t).view.read (Elt F) (V c (Pipeline.arrRef spec28 w))

/-- The input window's current staging buffer holds its block at every point, fetched there or not, for any proof
    data whose array is V's and whose body leaves the block in place: unfetched, the block index has not moved. -/
theorem beforeIn28_of {c : Dev nD} (dat : Dat τ (Elt F) Unit ℕ (UD sig nD τ) ℕ (cfg28 a1) c)
    (hA : dat.A 0 = V c (Pipeline.arrRef spec28 0))
    (hafter : ∀ t, dat.after 0 t = iblk28 V a1 c 0 t) (t : Fin (cfg28 a1).N) (d) : dat.before 0 t d = iblk28 V a1 c 0 t :=
  (dat.before_in_eq_fetched 0 rfl (fun _ => rfl) (fun _ _ _ => rfl)
    (fun t => by rw [hafter]; unfold Dat.blockOf iblk28; rw [hA]; try rfl) t d).trans
    (by unfold Dat.fetched Dat.blockOf iblk28; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat28 (c : Dev nD) : Dat τ (Elt F) Unit ℕ (UD sig nD τ) ℕ (cfg28 a1) c where
  A w := V c (Pipeline.arrRef spec28 w)
  after w t := match w with
    | ⟨0, _⟩ => iblk28 V a1 c 0 t
    | ⟨1, _⟩ => O c t
  Φ _ := iprop(Pipeline.ΦD osem28 spec28 {main_v72} V c ∗ Pipeline.prefHeld pre28 c (fun _ => fullShare) a1.1)
  q _ := fullShare
  owed _ := 0

theorem A_eq28 (c : Dev nD) (w : Fin (cfg28 a1).W) : (dat28 V a1 O c).A w = V c (Pipeline.arrRef spec28 w) := by
  dsimp only [dat28]

theorem afterIn28 (c : Dev nD) (t : Fin (cfg28 a1).N) : (dat28 V a1 O c).after 0 t = iblk28 V a1 c 0 t := by
  dsimp only [dat28]; rfl

theorem afterOut28 (c : Dev nD) (t : Fin (cfg28 a1).N) :
    (dat28 V a1 O c).after 1 t = O c t := by
  dsimp only [dat28]; rfl

theorem beforeIn28 (c : Dev nD) (t : Fin (cfg28 a1).N) (d) : (dat28 V a1 O c).before 0 t d = iblk28 V a1 c 0 t :=
  beforeIn28_of V a1 (dat28 V a1 O c) (A_eq28 V a1 O c 0) (afterIn28 V a1 O c) t d

theorem Phi_eq28 (c : Dev nD) (t : Fin ((cfg28 a1).N + 1)) :
    (dat28 V a1 O c).Φ t
      = iprop(Pipeline.ΦD osem28 spec28 {main_v72} V c ∗ Pipeline.prefHeld pre28 c (fun _ => fullShare) a1.1) := by
  dsimp only [dat28]

theorem owed_eq28 (c : Dev nD) (t : Fin ((cfg28 a1).N + 1)) : (dat28 V a1 O c).owed t = 0 := by
  dsimp only [dat28]

/-! ## The invariant, conjunct by conjunct -/

/-- The invariant's first part opened: the body's scratch buffer whole at some contents and the other scoped
    buffers no window stages, the generator register, the own cells at zero, the far operand at its contents. -/
theorem PhiD_eq28 (c : Dev nD) :
    (Pipeline.ΦD osem28 spec28 {main_v72} V c : sProp 𝕄)
      = iprop(iprop(iprop((∃ f : Buf (Elt F) ((c : Thread nD τ).loc cc28_scratch0), ((c : Thread nD τ).loc cc28_scratch0) ↦{fullShare} f))
            ∗ Pipeline.scopedRestBut (Ix := Unit) (Name := ℕ) (U := UD sig nD τ) (Lvl := ℕ) (Val := Elt F) spec28 c [cc28_scratch0])
          ∗ (∃ r, prngReg c r)
          ∗ Pipeline.ownSems0 (Ix := Unit) (Name := ℕ) (U := UD sig nD τ) (Lvl := ℕ) (Val := Elt F) (τ := τ) osem28 c
          ∗ (((c : Thread nD τ).loc main_v72) ↦{fullShare} V c main_v72)) := by
  rw [Pipeline.ΦD_eq, scopedRest28_split, BI.bigSep_eq_bigSepL_of_eq [main_v72] (by decide) (by decide)]; rfl

/-- The one table, held whole. -/
theorem prefHeld_eq28 (c : Dev nD) :
    (Pipeline.prefHeld pre28 c (fun _ => fullShare) a1.1 : sProp 𝕄)
      = (((c : Thread nD τ).loc main_v118) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg28 (w : Fin (cfg28 a1).W) (t : Fin (cfg28 a1).N) := ((cfg28 a1).win w).stage ((cfg28 a1).slots t w)

/-- The body as the pipeline calls it at point t. -/
abbrev bodyProg28 (t : Fin (cfg28 a1).N) : Prog (TpuEff nD τ sig (Elt F) Λ₀ .tc) PUnit :=
  (defs₀ (F := F)) .tc (cfg28 a1).body ((cfg28 a1).bodyArgs t ((cfg28 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun28 : Prop :=
  ∀ (c : Dev nD) (t : Fin (cfg28 a1).N) (W) (K : PUnit → sProp 𝕄),
    iprop(owns (c : Thread nD τ) (stg28 a1 0 t) fullShare (iblk28 V a1 c 0 t)
        ∗ (∃ d, owns (c : Thread nD τ) (stg28 a1 1 t) fullShare d)
        ∗ (∃ f : Buf (Elt F) ((c : Thread nD τ).loc cc28_scratch0), ((c : Thread nD τ).loc cc28_scratch0) ↦{fullShare} f)
        ∗ Pipeline.ownSems0 (Ix := Unit) (Name := ℕ) (U := UD sig nD τ) (Lvl := ℕ) (Val := Elt F) (τ := τ) osem28 c
        ∗ (((c : Thread nD τ).loc main_v118) ↦{fullShare} a1.1 0)
        ∗ (((c : Thread nD τ).loc main_v72) ↦{fullShare} V c main_v72)
        ∗ owes (c : Thread nD τ) (0 : CellTallies nD τ sig Unit) W
        ∗ (iprop(owns (c : Thread nD τ) (stg28 a1 0 t) fullShare (iblk28 V a1 c 0 t)
            ∗ owns (c : Thread nD τ) (stg28 a1 1 t) fullShare (O c t)
            ∗ (∃ f : Buf (Elt F) ((c : Thread nD τ).loc cc28_scratch0), ((c : Thread nD τ).loc cc28_scratch0) ↦{fullShare} f)
            ∗ Pipeline.ownSems0 (Ix := Unit) (Name := ℕ) (U := UD sig nD τ) (Lvl := ℕ) (Val := Elt F) (τ := τ) osem28 c
            ∗ (((c : Thread nD τ).loc main_v118) ↦{fullShare} a1.1 0)
            ∗ (((c : Thread nD τ).loc main_v72) ↦{fullShare} V c main_v72)
            ∗ (∃ W', owes (c : Thread nD τ) (0 : CellTallies nD τ sig Unit) W')) -∗ K ⟨⟩))
      ⊢ wp frame (wpE (defs₀ (F := F)) Variants.none c none) Set.univ (bodyProg28 a1 t) K

/-- What the body is called with at point t, the windows one by one, -/
def bodyPre28 (c : Dev nD) (t : Fin (cfg28 a1).N) : sProp 𝕄 :=
  iprop((dat28 V a1 O c).Φ t.castSucc ∗ (dat28 V a1 O c).owesAt () t.castSucc
    ∗ (∃ d, owns (c : Thread nD τ) (stg28 a1 0 t) fullShare ((dat28 V a1 O c).before 0 t d))
    ∗ (∃ d, owns (c : Thread nD τ) (stg28 a1 1 t) fullShare ((dat28 V a1 O c).before 1 t d)))

/-- and what it returns. -/
def bodyPost28 (c : Dev nD) (t : Fin (cfg28 a1).N) : sProp 𝕄 :=
  iprop((dat28 V a1 O c).Φ t.succ ∗ (dat28 V a1 O c).owesAt () t.succ
    ∗ owns (c : Thread nD τ) (stg28 a1 0 t) fullShare ((dat28 V a1 O c).after 0 t)
    ∗ owns (c : Thread nD τ) (stg28 a1 1 t) fullShare ((dat28 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body28 (hrun : BodyRun28 V a1 O) (c : Dev nD) (t : Fin (cfg28 a1).N) :
    bodyPre28 V a1 O c t
      ⊢ wp frame (wpE (defs₀ (F := F)) Variants.none c none) Set.univ (bodyProg28 a1 t) (fun _ => bodyPost28 V a1 O c t) := by
  unfold bodyPre28 bodyPost28
  simp only [beforeIn28]
  rw [afterIn28, afterOut28, Phi_eq28, Phi_eq28, PhiD_eq28, prefHeld_eq28]
  unfold Dat.owesAt Pipeline.owesWithin
  rw [owed_eq28, owed_eq28]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation28 (hrun : BodyRun28 V a1 O) (c : Dev nD) :
    BodyObligation (dat28 (F := F) V a1 O c) (defs₀ (F := F)) Variants.none () Set.univ := fun t => by
  rw [bigSep_W28, bigSep_W28]
  exact sound_body28 V a1 O hrun c t

end Data

/-! ## The region's record -/

section Record

variable (Win : Dev nD → Valuation τ sig (Elt F))

variable (a1 : (pcfg28 (F := F)).Adm)
  (O : (c : Dev nD) → Fin (cfg28 a1).N → Vec F S8x64 .f32)

/-- The buffers at the region's exit: its arrays at what the write-backs leave, every other buffer as entered. -/
def Wout28 (c : Dev nD) : Valuation τ sig (Elt F) :=
  Pipeline.withArrays spec28 c (Win c) fun w => (dat28 (Vof Win) a1 O c).arrAt w (cfg28 a1).N

theorem Wout28_arr (c : Dev nD) (w : Fin (cfg28 a1).W) :
    Wout28 Win a1 O c (Proc.devRef .tc (Pipeline.arrRef spec28 w)) = (dat28 (Vof Win) a1 O c).arrAt w (cfg28 a1).N := by
  unfold Wout28; exact Pipeline.withArrays_arr spec28 winFacts28.arr_inj c _ _ w

theorem Wout28_of_ne (c : Dev nD) (b : Ref sig .tc) (hb : ∀ w, Pipeline.arrRef spec28 w ≠ b) :
    Wout28 Win a1 O c (Proc.devRef .tc b) = Win c (Proc.devRef .tc b) := by
  unfold Wout28; exact Pipeline.withArrays_of_ne spec28 c _ _ b hb

/-- ENTRY, the buffers' part. Every unscoped buffer at Win is: the region's arrays at the proof data's entry contents,
    the table whole at the admissible contents (which are Win's there), the far operand whole, and the others. -/
theorem entry28 (c : Dev nD) (ha1 : ∀ k, Vof Win c (pre28.ref k) = a1.1 k) :
    (StableHlo.held (c : Thread nD τ) (Pipeline.ucRefs τ sig) (Win c) : sProp 𝕄)
      ⊢ iprop((dat28 (Vof Win) a1 O c).arrays ((dat28 (Vof Win) a1 O c).arrAt · 0)
          ∗ Pipeline.prefHeld pre28 c (fun _ => fullShare) a1.1
          ∗ (bigSep ({main_v72} : Finset (Ref sig .tc)) fun b => (((c : Thread nD τ)).loc b) ↦{fullShare} Vof Win c b)
          ∗ bigSep (Pipeline.restRefsP sig pre28 spec28 \ {main_v72}) fun b => (((c : Thread nD τ)).loc b) ↦{fullShare} Vof Win c b) := by
  have hsplit := Pipeline.arrays_of_unscopedBufs (p := ()) (fun (_ : Unit) => pcfg28 (F := F)) (fun _ => a1)
    (fun _ c => dat28 (Vof Win) a1 O c) winFacts28 (launch28 (F := F)).arr_whole c
    ((dat28 (Vof Win) a1 O c).share_full fun _ => rfl) (Vof Win c) (fun w => A_eq28 (Vof Win) a1 O c w)
  rw [Pipeline.unscopedBufs_held,
    Pipeline.unscopedRest_split (Ix := Unit) (Name := ℕ) (U := UD sig nD τ) (Lvl := ℕ) preFacts28 c (Vof Win c),
    Pipeline.unscopedRestP_sdiff pre28 spec28 {main_v72} hx_sub28 c (Vof Win c),
    show (fun k => Vof Win c (pre28.ref k)) = a1.1 from funext ha1] at hsplit
  exact hsplit

/-- EXIT, the buffers' part: the same four put back, the arrays at what the write-backs leave, are every unscoped
    buffer at the exit valuation. -/
theorem exit28 (c : Dev nD) (ha1 : ∀ k, Vof Win c (pre28.ref k) = a1.1 k) :
    iprop((dat28 (Vof Win) a1 O c).arrays ((dat28 (Vof Win) a1 O c).arrAt · (cfg28 a1).N)
        ∗ Pipeline.prefHeld pre28 c (fun _ => fullShare) a1.1
        ∗ (bigSep ({main_v72} : Finset (Ref sig .tc)) fun b => (((c : Thread nD τ)).loc b) ↦{fullShare} Vof Win c b)
        ∗ bigSep (Pipeline.restRefsP sig pre28 spec28 \ {main_v72}) fun b => (((c : Thread nD τ)).loc b) ↦{fullShare} Vof Win c b)
      ⊢ (StableHlo.held (c : Thread nD τ) (Pipeline.ucRefs τ sig) (Wout28 Win a1 O c) : sProp 𝕄) := by
  have hjoin := Pipeline.unscopedBufs_of_arrays (p := ()) (fun (_ : Unit) => pcfg28 (F := F)) (fun _ => a1)
    (Ix := Unit) (Name := ℕ) (U := UD sig nD τ) (Lvl := ℕ)
    winFacts28 (launch28 (F := F)).arr_whole c (fun _ c => dat28 (Vof Win) a1 O c)
    ((dat28 (Vof Win) a1 O c).share_full fun _ => rfl)
    (Vof Win c) (Vof (Wout28 Win a1 O) c) ((dat28 (Vof Win) a1 O c).arrAt · (cfg28 a1).N)
    (fun w => (Wout28_arr Win a1 O c w).symm)
    (fun b hb => Wout28_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts28 c (Vof Win c),
    Pipeline.unscopedRestP_sdiff pre28 spec28 {main_v72} hx_sub28 c (Vof Win c),
    show (fun k => Vof Win c (pre28.ref k)) = a1.1 from funext ha1] at hjoin
  exact hjoin

end Record

section Seg

variable (Win : Dev nD → Valuation τ sig (Elt F))
  (adm : (p : Fin 49) → (pcfgs (F := F) p).Adm)
  (O : (c : Dev nD) → Fin (cfg28 (adm (28 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout28. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg28 (hd : ∀ c, pdats (28 : Fin 49) c = dat28 (Vof Win) (adm (28 : Fin 49)) O c)
    (ha1 : ∀ c k, Vof Win c (pre28.ref k) = (adm (28 : Fin 49)).1 k)
    (hbody : ∀ c, BodyObligation (dat28 (F := F) (Vof Win) (adm (28 : Fin 49)) O c) (defs₀ (F := F)) 𝒱₀ () Set.univ) :
    Pipeline.RegionSeg (pcfgs (F := F)) adm pdats () defs₀ 𝒱₀ L lv (28 : Fin 49) where
  win := (launch28 (F := F)).win.to₀
  block_pos := (launch28 (F := F)).block_pos
  stage_whole := (launch28 (F := F)).stage_whole
  K := Fin 8
  osem := osem28
  ho := ownSemFacts28
  hbody c := by rw [hd c]; exact (hbody c).loose
  hwaits := Pipeline.hwaits_of_owed_zero _ _ _ _ L lv (28 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout28 Win (adm (28 : Fin 49)) O c) ∗ R c)
  X c := iprop((∃ r, prngReg c r)
    ∗ Pipeline.ownSems0 (Ix := Unit) (Name := ℕ) (U := UD sig nD τ) (Lvl := ℕ) (Val := Elt F) (τ := τ) osem28 c
    ∗ (bigSep ({main_v72} : Finset (Ref sig .tc)) fun b => (((c : Thread nD τ)).loc b) ↦{fullShare} Vof Win c b))
  Y c := iprop((∃ r, prngReg c r)
    ∗ (bigSep ({main_v72} : Finset (Ref sig .tc)) fun b => (((c : Thread nD τ)).loc b) ↦{fullShare} Vof Win c b)
    ∗ Pipeline.prefHeld pre28 c (fun _ => fullShare) (adm (28 : Fin 49)).1)
  Z c := bigSep (Pipeline.restRefsP sig pre28 spec28 \ {main_v72}) fun b => (((c : Thread nD τ)).loc b) ↦{fullShare} Vof Win c b
  hentry c := by
    rw [hd c]
    iintro ⟨⟨Hub, Hp, HO⟩, Hos, -⟩
    ihave H := (entry28 Win (adm (28 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq28, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq28, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit28 Win (adm (28 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg28 (F := F)).Adm)

/-- The output block at point t: the gathered rows (of the far operand's contents under V, chosen by the table's
    words at that point) times the input block. -/
def outBlk28 (c : Dev nD) (t : Fin (cfg28 a1).N) : Vec F S8x64 .f32 :=
  gatherOut (gatherG (a1.1 0) (V c main_v72) (grid28.coords t)) (iblk28 V a1 c 0 t)

theorem outBlk_eq28 (c : Dev nD) (t : Fin (cfg28 a1).N) :
    outBlk28 V a1 c t = gatherOut (gatherG (a1.1 0) (V c main_v72) (grid28.coords t)) (iblk28 V a1 c 0 t) := rfl

/-- The proof data with the output block named: after the body at point t the output window's buffer holds it. -/
theorem afterOutBlk28 (c : Dev nD) (t : Fin (cfg28 a1).N) :
    (dat28 V a1 (outBlk28 V a1) c).after 1 t
      = gatherOut (gatherG (a1.1 0) (V c main_v72) (grid28.coords t)) (iblk28 V a1 c 0 t) :=
  afterOut28 V a1 (outBlk28 V a1) c t

/-- The own cells at zero are the semaphore array's eight entries at zero, in order. -/
theorem ownSems_eq28 (c : Dev nD) :
    (Pipeline.ownSems0 (Ix := Unit) (Name := ℕ) (U := UD sig nD τ) (Lvl := ℕ) (Val := Elt F) (τ := τ) osem28 c : sProp 𝕄)
      = gsems0 c cc28_scratch1 := by
  rw [Pipeline.ownSems0_eq_of_list c osem28 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq28 (t : Fin (cfg28 a1).N) : ∃ h3 h4, bodyProg28 (F := F) a1 t
    = cc28__gather_mul_kernel (grid28.coords t) (Memref.whole main_v118) (Memref.isWhole_whole _) (Memref.whole main_v72) (Memref.isWhole_whole _)
        (stg28 a1 0 t) h3 (stg28 a1 1 t) h4 (Memref.whole cc28_scratch0) (Memref.isWhole_whole _) cc28_scratch1 := ⟨_, _, rfl⟩

end Out

/-! ## The body's run, joined to the proof data -/

section Body

variable (V : (c : Dev nD) → (b : Ref sig .tc) → Buf (Elt F) ((c : Thread nD τ).loc b))
  (a1 : (pcfg28 (F := F)).Adm)

/-- The scratch buffer whole at some contents, as a memref owned at some contents. -/
theorem scratchOwns_eq28 (c : Dev nD) :
    (iprop(∃ d, owns (c : Thread nD τ) (Memref.whole cc28_scratch0) fullShare d) : sProp 𝕄)
      = iprop(∃ f : Buf (Elt F) ((c : Thread nD τ).loc cc28_scratch0), ((c : Thread nD τ).loc cc28_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun28 (hlt : ∀ y, BitVec.toNat ((a1.1 0) y) < 100000) : BodyRun28 V a1 (outBlk28 V a1) := by
  intro c t W K
  obtain ⟨h3, h4, hprog⟩ := bodyProg_eq28 (F := F) a1 t
  rw [hprog, ownSems_eq28, ← scratchOwns_eq28 (F := F) c]
  have hrun := gather_kernel_run_28 (F := F) c (grid28.coords t) (Memref.whole main_v118) (Memref.isWhole_whole _) (Memref.whole main_v72) (Memref.isWhole_whole _)
    (stg28 a1 0 t) h3 (stg28 a1 1 t) h4 (Memref.whole cc28_scratch0) (Memref.isWhole_whole _) cc28_scratch1 fullShare fullShare
    (a1.1 0) (V c main_v72) (iblk28 V a1 c 0 t) (fun y => hlt y) W K
  simp only [Memref.view_whole, View.read_whole] at hrun
  unfold outBlk28
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut28 (hlt : ∀ y, BitVec.toNat ((a1.1 0) y) < 100000) (c : Dev nD) :
    BodyObligation (dat28 (F := F) V a1 (outBlk28 V a1) c) (defs₀ (F := F)) Variants.none () Set.univ :=
  body_obligation28 V a1 (outBlk28 V a1) (bodyRun28 V a1 hlt) c

end Body

/-! # Region 29 -/

/-! ## The body's own transfer cells -/

/-- The eight cells of the body's semaphore array, in order. -/
abbrev osem29 : Fin 8 → SemLoc sig := fun j => SemLoc.dma (cc29_scratch1.ix (fun | ⟨0, _⟩ => j))

/-- They are scoped, pairwise distinct, and none is a staging cell of a window. -/
theorem ownSemFacts29 : Pipeline.OwnSemFacts spec29 osem29 := by decide

/-- The far operand is an unscoped buffer that is neither a window's array nor a table. -/
theorem hx_sub29 : ({main_v72} : Finset (Ref sig .tc)) ⊆ Pipeline.restRefsP sig pre29 spec29 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg29 (F := F)).Adm)
  (O : (c : Dev nD) → Fin (cfg29 a1).N → Vec F S8x64 .f32)

/-! ## The windows' blocks -/

/-- Window w's block at point t, read off its array under V. -/
def iblk29 (c : Dev nD) (w : Fin (cfg29 a1).W) (t : Fin (cfg29 a1).N) :
    (((cfg29 a1).win w).xblock ((cfg29 a1).grid.coords t)).Idx → Elt F ((cfg29 a1).win w).elt :=
  (((cfg29 a1).win w).blk t).view.read (Elt F) (V c (Pipeline.arrRef spec29 w))

/-- The input window's current staging buffer holds its block at every point, fetched there or not, for any proof
    data whose array is V's and whose body leaves the block in place: unfetched, the block index has not moved. -/
theorem beforeIn29_of {c : Dev nD} (dat : Dat τ (Elt F) Unit ℕ (UD sig nD τ) ℕ (cfg29 a1) c)
    (hA : dat.A 0 = V c (Pipeline.arrRef spec29 0))
    (hafter : ∀ t, dat.after 0 t = iblk29 V a1 c 0 t) (t : Fin (cfg29 a1).N) (d) : dat.before 0 t d = iblk29 V a1 c 0 t :=
  (dat.before_in_eq_fetched 0 rfl (fun _ => rfl) (fun _ _ _ => rfl)
    (fun t => by rw [hafter]; unfold Dat.blockOf iblk29; rw [hA]; try rfl) t d).trans
    (by unfold Dat.fetched Dat.blockOf iblk29; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat29 (c : Dev nD) : Dat τ (Elt F) Unit ℕ (UD sig nD τ) ℕ (cfg29 a1) c where
  A w := V c (Pipeline.arrRef spec29 w)
  after w t := match w with
    | ⟨0, _⟩ => iblk29 V a1 c 0 t
    | ⟨1, _⟩ => O c t
  Φ _ := iprop(Pipeline.ΦD osem29 spec29 {main_v72} V c ∗ Pipeline.prefHeld pre29 c (fun _ => fullShare) a1.1)
  q _ := fullShare
  owed _ := 0

theorem A_eq29 (c : Dev nD) (w : Fin (cfg29 a1).W) : (dat29 V a1 O c).A w = V c (Pipeline.arrRef spec29 w) := by
  dsimp only [dat29]

theorem afterIn29 (c : Dev nD) (t : Fin (cfg29 a1).N) : (dat29 V a1 O c).after 0 t = iblk29 V a1 c 0 t := by
  dsimp only [dat29]; rfl

theorem afterOut29 (c : Dev nD) (t : Fin (cfg29 a1).N) :
    (dat29 V a1 O c).after 1 t = O c t := by
  dsimp only [dat29]; rfl

theorem beforeIn29 (c : Dev nD) (t : Fin (cfg29 a1).N) (d) : (dat29 V a1 O c).before 0 t d = iblk29 V a1 c 0 t :=
  beforeIn29_of V a1 (dat29 V a1 O c) (A_eq29 V a1 O c 0) (afterIn29 V a1 O c) t d

theorem Phi_eq29 (c : Dev nD) (t : Fin ((cfg29 a1).N + 1)) :
    (dat29 V a1 O c).Φ t
      = iprop(Pipeline.ΦD osem29 spec29 {main_v72} V c ∗ Pipeline.prefHeld pre29 c (fun _ => fullShare) a1.1) := by
  dsimp only [dat29]

theorem owed_eq29 (c : Dev nD) (t : Fin ((cfg29 a1).N + 1)) : (dat29 V a1 O c).owed t = 0 := by
  dsimp only [dat29]

/-! ## The invariant, conjunct by conjunct -/

/-- The invariant's first part opened: the body's scratch buffer whole at some contents and the other scoped
    buffers no window stages, the generator register, the own cells at zero, the far operand at its contents. -/
theorem PhiD_eq29 (c : Dev nD) :
    (Pipeline.ΦD osem29 spec29 {main_v72} V c : sProp 𝕄)
      = iprop(iprop(iprop((∃ f : Buf (Elt F) ((c : Thread nD τ).loc cc29_scratch0), ((c : Thread nD τ).loc cc29_scratch0) ↦{fullShare} f))
            ∗ Pipeline.scopedRestBut (Ix := Unit) (Name := ℕ) (U := UD sig nD τ) (Lvl := ℕ) (Val := Elt F) spec29 c [cc29_scratch0])
          ∗ (∃ r, prngReg c r)
          ∗ Pipeline.ownSems0 (Ix := Unit) (Name := ℕ) (U := UD sig nD τ) (Lvl := ℕ) (Val := Elt F) (τ := τ) osem29 c
          ∗ (((c : Thread nD τ).loc main_v72) ↦{fullShare} V c main_v72)) := by
  rw [Pipeline.ΦD_eq, scopedRest29_split, BI.bigSep_eq_bigSepL_of_eq [main_v72] (by decide) (by decide)]; rfl

/-- The one table, held whole. -/
theorem prefHeld_eq29 (c : Dev nD) :
    (Pipeline.prefHeld pre29 c (fun _ => fullShare) a1.1 : sProp 𝕄)
      = (((c : Thread nD τ).loc main_v122) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg29 (w : Fin (cfg29 a1).W) (t : Fin (cfg29 a1).N) := ((cfg29 a1).win w).stage ((cfg29 a1).slots t w)

/-- The body as the pipeline calls it at point t. -/
abbrev bodyProg29 (t : Fin (cfg29 a1).N) : Prog (TpuEff nD τ sig (Elt F) Λ₀ .tc) PUnit :=
  (defs₀ (F := F)) .tc (cfg29 a1).body ((cfg29 a1).bodyArgs t ((cfg29 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun29 : Prop :=
  ∀ (c : Dev nD) (t : Fin (cfg29 a1).N) (W) (K : PUnit → sProp 𝕄),
    iprop(owns (c : Thread nD τ) (stg29 a1 0 t) fullShare (iblk29 V a1 c 0 t)
        ∗ (∃ d, owns (c : Thread nD τ) (stg29 a1 1 t) fullShare d)
        ∗ (∃ f : Buf (Elt F) ((c : Thread nD τ).loc cc29_scratch0), ((c : Thread nD τ).loc cc29_scratch0) ↦{fullShare} f)
        ∗ Pipeline.ownSems0 (Ix := Unit) (Name := ℕ) (U := UD sig nD τ) (Lvl := ℕ) (Val := Elt F) (τ := τ) osem29 c
        ∗ (((c : Thread nD τ).loc main_v122) ↦{fullShare} a1.1 0)
        ∗ (((c : Thread nD τ).loc main_v72) ↦{fullShare} V c main_v72)
        ∗ owes (c : Thread nD τ) (0 : CellTallies nD τ sig Unit) W
        ∗ (iprop(owns (c : Thread nD τ) (stg29 a1 0 t) fullShare (iblk29 V a1 c 0 t)
            ∗ owns (c : Thread nD τ) (stg29 a1 1 t) fullShare (O c t)
            ∗ (∃ f : Buf (Elt F) ((c : Thread nD τ).loc cc29_scratch0), ((c : Thread nD τ).loc cc29_scratch0) ↦{fullShare} f)
            ∗ Pipeline.ownSems0 (Ix := Unit) (Name := ℕ) (U := UD sig nD τ) (Lvl := ℕ) (Val := Elt F) (τ := τ) osem29 c
            ∗ (((c : Thread nD τ).loc main_v122) ↦{fullShare} a1.1 0)
            ∗ (((c : Thread nD τ).loc main_v72) ↦{fullShare} V c main_v72)
            ∗ (∃ W', owes (c : Thread nD τ) (0 : CellTallies nD τ sig Unit) W')) -∗ K ⟨⟩))
      ⊢ wp frame (wpE (defs₀ (F := F)) Variants.none c none) Set.univ (bodyProg29 a1 t) K

/-- What the body is called with at point t, the windows one by one, -/
def bodyPre29 (c : Dev nD) (t : Fin (cfg29 a1).N) : sProp 𝕄 :=
  iprop((dat29 V a1 O c).Φ t.castSucc ∗ (dat29 V a1 O c).owesAt () t.castSucc
    ∗ (∃ d, owns (c : Thread nD τ) (stg29 a1 0 t) fullShare ((dat29 V a1 O c).before 0 t d))
    ∗ (∃ d, owns (c : Thread nD τ) (stg29 a1 1 t) fullShare ((dat29 V a1 O c).before 1 t d)))

/-- and what it returns. -/
def bodyPost29 (c : Dev nD) (t : Fin (cfg29 a1).N) : sProp 𝕄 :=
  iprop((dat29 V a1 O c).Φ t.succ ∗ (dat29 V a1 O c).owesAt () t.succ
    ∗ owns (c : Thread nD τ) (stg29 a1 0 t) fullShare ((dat29 V a1 O c).after 0 t)
    ∗ owns (c : Thread nD τ) (stg29 a1 1 t) fullShare ((dat29 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body29 (hrun : BodyRun29 V a1 O) (c : Dev nD) (t : Fin (cfg29 a1).N) :
    bodyPre29 V a1 O c t
      ⊢ wp frame (wpE (defs₀ (F := F)) Variants.none c none) Set.univ (bodyProg29 a1 t) (fun _ => bodyPost29 V a1 O c t) := by
  unfold bodyPre29 bodyPost29
  simp only [beforeIn29]
  rw [afterIn29, afterOut29, Phi_eq29, Phi_eq29, PhiD_eq29, prefHeld_eq29]
  unfold Dat.owesAt Pipeline.owesWithin
  rw [owed_eq29, owed_eq29]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation29 (hrun : BodyRun29 V a1 O) (c : Dev nD) :
    BodyObligation (dat29 (F := F) V a1 O c) (defs₀ (F := F)) Variants.none () Set.univ := fun t => by
  rw [bigSep_W29, bigSep_W29]
  exact sound_body29 V a1 O hrun c t

end Data

/-! ## The region's record -/

section Record

variable (Win : Dev nD → Valuation τ sig (Elt F))

variable (a1 : (pcfg29 (F := F)).Adm)
  (O : (c : Dev nD) → Fin (cfg29 a1).N → Vec F S8x64 .f32)

/-- The buffers at the region's exit: its arrays at what the write-backs leave, every other buffer as entered. -/
def Wout29 (c : Dev nD) : Valuation τ sig (Elt F) :=
  Pipeline.withArrays spec29 c (Win c) fun w => (dat29 (Vof Win) a1 O c).arrAt w (cfg29 a1).N

theorem Wout29_arr (c : Dev nD) (w : Fin (cfg29 a1).W) :
    Wout29 Win a1 O c (Proc.devRef .tc (Pipeline.arrRef spec29 w)) = (dat29 (Vof Win) a1 O c).arrAt w (cfg29 a1).N := by
  unfold Wout29; exact Pipeline.withArrays_arr spec29 winFacts29.arr_inj c _ _ w

theorem Wout29_of_ne (c : Dev nD) (b : Ref sig .tc) (hb : ∀ w, Pipeline.arrRef spec29 w ≠ b) :
    Wout29 Win a1 O c (Proc.devRef .tc b) = Win c (Proc.devRef .tc b) := by
  unfold Wout29; exact Pipeline.withArrays_of_ne spec29 c _ _ b hb

/-- ENTRY, the buffers' part. Every unscoped buffer at Win is: the region's arrays at the proof data's entry contents,
    the table whole at the admissible contents (which are Win's there), the far operand whole, and the others. -/
theorem entry29 (c : Dev nD) (ha1 : ∀ k, Vof Win c (pre29.ref k) = a1.1 k) :
    (StableHlo.held (c : Thread nD τ) (Pipeline.ucRefs τ sig) (Win c) : sProp 𝕄)
      ⊢ iprop((dat29 (Vof Win) a1 O c).arrays ((dat29 (Vof Win) a1 O c).arrAt · 0)
          ∗ Pipeline.prefHeld pre29 c (fun _ => fullShare) a1.1
          ∗ (bigSep ({main_v72} : Finset (Ref sig .tc)) fun b => (((c : Thread nD τ)).loc b) ↦{fullShare} Vof Win c b)
          ∗ bigSep (Pipeline.restRefsP sig pre29 spec29 \ {main_v72}) fun b => (((c : Thread nD τ)).loc b) ↦{fullShare} Vof Win c b) := by
  have hsplit := Pipeline.arrays_of_unscopedBufs (p := ()) (fun (_ : Unit) => pcfg29 (F := F)) (fun _ => a1)
    (fun _ c => dat29 (Vof Win) a1 O c) winFacts29 (launch29 (F := F)).arr_whole c
    ((dat29 (Vof Win) a1 O c).share_full fun _ => rfl) (Vof Win c) (fun w => A_eq29 (Vof Win) a1 O c w)
  rw [Pipeline.unscopedBufs_held,
    Pipeline.unscopedRest_split (Ix := Unit) (Name := ℕ) (U := UD sig nD τ) (Lvl := ℕ) preFacts29 c (Vof Win c),
    Pipeline.unscopedRestP_sdiff pre29 spec29 {main_v72} hx_sub29 c (Vof Win c),
    show (fun k => Vof Win c (pre29.ref k)) = a1.1 from funext ha1] at hsplit
  exact hsplit

/-- EXIT, the buffers' part: the same four put back, the arrays at what the write-backs leave, are every unscoped
    buffer at the exit valuation. -/
theorem exit29 (c : Dev nD) (ha1 : ∀ k, Vof Win c (pre29.ref k) = a1.1 k) :
    iprop((dat29 (Vof Win) a1 O c).arrays ((dat29 (Vof Win) a1 O c).arrAt · (cfg29 a1).N)
        ∗ Pipeline.prefHeld pre29 c (fun _ => fullShare) a1.1
        ∗ (bigSep ({main_v72} : Finset (Ref sig .tc)) fun b => (((c : Thread nD τ)).loc b) ↦{fullShare} Vof Win c b)
        ∗ bigSep (Pipeline.restRefsP sig pre29 spec29 \ {main_v72}) fun b => (((c : Thread nD τ)).loc b) ↦{fullShare} Vof Win c b)
      ⊢ (StableHlo.held (c : Thread nD τ) (Pipeline.ucRefs τ sig) (Wout29 Win a1 O c) : sProp 𝕄) := by
  have hjoin := Pipeline.unscopedBufs_of_arrays (p := ()) (fun (_ : Unit) => pcfg29 (F := F)) (fun _ => a1)
    (Ix := Unit) (Name := ℕ) (U := UD sig nD τ) (Lvl := ℕ)
    winFacts29 (launch29 (F := F)).arr_whole c (fun _ c => dat29 (Vof Win) a1 O c)
    ((dat29 (Vof Win) a1 O c).share_full fun _ => rfl)
    (Vof Win c) (Vof (Wout29 Win a1 O) c) ((dat29 (Vof Win) a1 O c).arrAt · (cfg29 a1).N)
    (fun w => (Wout29_arr Win a1 O c w).symm)
    (fun b hb => Wout29_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts29 c (Vof Win c),
    Pipeline.unscopedRestP_sdiff pre29 spec29 {main_v72} hx_sub29 c (Vof Win c),
    show (fun k => Vof Win c (pre29.ref k)) = a1.1 from funext ha1] at hjoin
  exact hjoin

end Record

section Seg

variable (Win : Dev nD → Valuation τ sig (Elt F))
  (adm : (p : Fin 49) → (pcfgs (F := F) p).Adm)
  (O : (c : Dev nD) → Fin (cfg29 (adm (29 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout29. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg29 (hd : ∀ c, pdats (29 : Fin 49) c = dat29 (Vof Win) (adm (29 : Fin 49)) O c)
    (ha1 : ∀ c k, Vof Win c (pre29.ref k) = (adm (29 : Fin 49)).1 k)
    (hbody : ∀ c, BodyObligation (dat29 (F := F) (Vof Win) (adm (29 : Fin 49)) O c) (defs₀ (F := F)) 𝒱₀ () Set.univ) :
    Pipeline.RegionSeg (pcfgs (F := F)) adm pdats () defs₀ 𝒱₀ L lv (29 : Fin 49) where
  win := (launch29 (F := F)).win.to₀
  block_pos := (launch29 (F := F)).block_pos
  stage_whole := (launch29 (F := F)).stage_whole
  K := Fin 8
  osem := osem29
  ho := ownSemFacts29
  hbody c := by rw [hd c]; exact (hbody c).loose
  hwaits := Pipeline.hwaits_of_owed_zero _ _ _ _ L lv (29 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout29 Win (adm (29 : Fin 49)) O c) ∗ R c)
  X c := iprop((∃ r, prngReg c r)
    ∗ Pipeline.ownSems0 (Ix := Unit) (Name := ℕ) (U := UD sig nD τ) (Lvl := ℕ) (Val := Elt F) (τ := τ) osem29 c
    ∗ (bigSep ({main_v72} : Finset (Ref sig .tc)) fun b => (((c : Thread nD τ)).loc b) ↦{fullShare} Vof Win c b))
  Y c := iprop((∃ r, prngReg c r)
    ∗ (bigSep ({main_v72} : Finset (Ref sig .tc)) fun b => (((c : Thread nD τ)).loc b) ↦{fullShare} Vof Win c b)
    ∗ Pipeline.prefHeld pre29 c (fun _ => fullShare) (adm (29 : Fin 49)).1)
  Z c := bigSep (Pipeline.restRefsP sig pre29 spec29 \ {main_v72}) fun b => (((c : Thread nD τ)).loc b) ↦{fullShare} Vof Win c b
  hentry c := by
    rw [hd c]
    iintro ⟨⟨Hub, Hp, HO⟩, Hos, -⟩
    ihave H := (entry29 Win (adm (29 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq29, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq29, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit29 Win (adm (29 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg29 (F := F)).Adm)

/-- The output block at point t: the gathered rows (of the far operand's contents under V, chosen by the table's
    words at that point) times the input block. -/
def outBlk29 (c : Dev nD) (t : Fin (cfg29 a1).N) : Vec F S8x64 .f32 :=
  gatherOut (gatherG (a1.1 0) (V c main_v72) (grid29.coords t)) (iblk29 V a1 c 0 t)

theorem outBlk_eq29 (c : Dev nD) (t : Fin (cfg29 a1).N) :
    outBlk29 V a1 c t = gatherOut (gatherG (a1.1 0) (V c main_v72) (grid29.coords t)) (iblk29 V a1 c 0 t) := rfl

/-- The proof data with the output block named: after the body at point t the output window's buffer holds it. -/
theorem afterOutBlk29 (c : Dev nD) (t : Fin (cfg29 a1).N) :
    (dat29 V a1 (outBlk29 V a1) c).after 1 t
      = gatherOut (gatherG (a1.1 0) (V c main_v72) (grid29.coords t)) (iblk29 V a1 c 0 t) :=
  afterOut29 V a1 (outBlk29 V a1) c t

/-- The own cells at zero are the semaphore array's eight entries at zero, in order. -/
theorem ownSems_eq29 (c : Dev nD) :
    (Pipeline.ownSems0 (Ix := Unit) (Name := ℕ) (U := UD sig nD τ) (Lvl := ℕ) (Val := Elt F) (τ := τ) osem29 c : sProp 𝕄)
      = gsems0 c cc29_scratch1 := by
  rw [Pipeline.ownSems0_eq_of_list c osem29 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq29 (t : Fin (cfg29 a1).N) : ∃ h3 h4, bodyProg29 (F := F) a1 t
    = cc29__gather_mul_kernel (grid29.coords t) (Memref.whole main_v122) (Memref.isWhole_whole _) (Memref.whole main_v72) (Memref.isWhole_whole _)
        (stg29 a1 0 t) h3 (stg29 a1 1 t) h4 (Memref.whole cc29_scratch0) (Memref.isWhole_whole _) cc29_scratch1 := ⟨_, _, rfl⟩

end Out

/-! ## The body's run, joined to the proof data -/

section Body

variable (V : (c : Dev nD) → (b : Ref sig .tc) → Buf (Elt F) ((c : Thread nD τ).loc b))
  (a1 : (pcfg29 (F := F)).Adm)

/-- The scratch buffer whole at some contents, as a memref owned at some contents. -/
theorem scratchOwns_eq29 (c : Dev nD) :
    (iprop(∃ d, owns (c : Thread nD τ) (Memref.whole cc29_scratch0) fullShare d) : sProp 𝕄)
      = iprop(∃ f : Buf (Elt F) ((c : Thread nD τ).loc cc29_scratch0), ((c : Thread nD τ).loc cc29_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun29 (hlt : ∀ y, BitVec.toNat ((a1.1 0) y) < 100000) : BodyRun29 V a1 (outBlk29 V a1) := by
  intro c t W K
  obtain ⟨h3, h4, hprog⟩ := bodyProg_eq29 (F := F) a1 t
  rw [hprog, ownSems_eq29, ← scratchOwns_eq29 (F := F) c]
  have hrun := gather_kernel_run_29 (F := F) c (grid29.coords t) (Memref.whole main_v122) (Memref.isWhole_whole _) (Memref.whole main_v72) (Memref.isWhole_whole _)
    (stg29 a1 0 t) h3 (stg29 a1 1 t) h4 (Memref.whole cc29_scratch0) (Memref.isWhole_whole _) cc29_scratch1 fullShare fullShare
    (a1.1 0) (V c main_v72) (iblk29 V a1 c 0 t) (fun y => hlt y) W K
  simp only [Memref.view_whole, View.read_whole] at hrun
  unfold outBlk29
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut29 (hlt : ∀ y, BitVec.toNat ((a1.1 0) y) < 100000) (c : Dev nD) :
    BodyObligation (dat29 (F := F) V a1 (outBlk29 V a1) c) (defs₀ (F := F)) Variants.none () Set.univ :=
  body_obligation29 V a1 (outBlk29 V a1) (bodyRun29 V a1 hlt) c

end Body

/-! # Region 30 -/

/-! ## The body's own transfer cells -/

/-- The eight cells of the body's semaphore array, in order. -/
abbrev osem30 : Fin 8 → SemLoc sig := fun j => SemLoc.dma (cc30_scratch1.ix (fun | ⟨0, _⟩ => j))

/-- They are scoped, pairwise distinct, and none is a staging cell of a window. -/
theorem ownSemFacts30 : Pipeline.OwnSemFacts spec30 osem30 := by decide

/-- The far operand is an unscoped buffer that is neither a window's array nor a table. -/
theorem hx_sub30 : ({main_v72} : Finset (Ref sig .tc)) ⊆ Pipeline.restRefsP sig pre30 spec30 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg30 (F := F)).Adm)
  (O : (c : Dev nD) → Fin (cfg30 a1).N → Vec F S8x64 .f32)

/-! ## The windows' blocks -/

/-- Window w's block at point t, read off its array under V. -/
def iblk30 (c : Dev nD) (w : Fin (cfg30 a1).W) (t : Fin (cfg30 a1).N) :
    (((cfg30 a1).win w).xblock ((cfg30 a1).grid.coords t)).Idx → Elt F ((cfg30 a1).win w).elt :=
  (((cfg30 a1).win w).blk t).view.read (Elt F) (V c (Pipeline.arrRef spec30 w))

/-- The input window's current staging buffer holds its block at every point, fetched there or not, for any proof
    data whose array is V's and whose body leaves the block in place: unfetched, the block index has not moved. -/
theorem beforeIn30_of {c : Dev nD} (dat : Dat τ (Elt F) Unit ℕ (UD sig nD τ) ℕ (cfg30 a1) c)
    (hA : dat.A 0 = V c (Pipeline.arrRef spec30 0))
    (hafter : ∀ t, dat.after 0 t = iblk30 V a1 c 0 t) (t : Fin (cfg30 a1).N) (d) : dat.before 0 t d = iblk30 V a1 c 0 t :=
  (dat.before_in_eq_fetched 0 rfl (fun _ => rfl) (fun _ _ _ => rfl)
    (fun t => by rw [hafter]; unfold Dat.blockOf iblk30; rw [hA]; try rfl) t d).trans
    (by unfold Dat.fetched Dat.blockOf iblk30; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat30 (c : Dev nD) : Dat τ (Elt F) Unit ℕ (UD sig nD τ) ℕ (cfg30 a1) c where
  A w := V c (Pipeline.arrRef spec30 w)
  after w t := match w with
    | ⟨0, _⟩ => iblk30 V a1 c 0 t
    | ⟨1, _⟩ => O c t
  Φ _ := iprop(Pipeline.ΦD osem30 spec30 {main_v72} V c ∗ Pipeline.prefHeld pre30 c (fun _ => fullShare) a1.1)
  q _ := fullShare
  owed _ := 0

theorem A_eq30 (c : Dev nD) (w : Fin (cfg30 a1).W) : (dat30 V a1 O c).A w = V c (Pipeline.arrRef spec30 w) := by
  dsimp only [dat30]

theorem afterIn30 (c : Dev nD) (t : Fin (cfg30 a1).N) : (dat30 V a1 O c).after 0 t = iblk30 V a1 c 0 t := by
  dsimp only [dat30]; rfl

theorem afterOut30 (c : Dev nD) (t : Fin (cfg30 a1).N) :
    (dat30 V a1 O c).after 1 t = O c t := by
  dsimp only [dat30]; rfl

theorem beforeIn30 (c : Dev nD) (t : Fin (cfg30 a1).N) (d) : (dat30 V a1 O c).before 0 t d = iblk30 V a1 c 0 t :=
  beforeIn30_of V a1 (dat30 V a1 O c) (A_eq30 V a1 O c 0) (afterIn30 V a1 O c) t d

theorem Phi_eq30 (c : Dev nD) (t : Fin ((cfg30 a1).N + 1)) :
    (dat30 V a1 O c).Φ t
      = iprop(Pipeline.ΦD osem30 spec30 {main_v72} V c ∗ Pipeline.prefHeld pre30 c (fun _ => fullShare) a1.1) := by
  dsimp only [dat30]

theorem owed_eq30 (c : Dev nD) (t : Fin ((cfg30 a1).N + 1)) : (dat30 V a1 O c).owed t = 0 := by
  dsimp only [dat30]

/-! ## The invariant, conjunct by conjunct -/

/-- The invariant's first part opened: the body's scratch buffer whole at some contents and the other scoped
    buffers no window stages, the generator register, the own cells at zero, the far operand at its contents. -/
theorem PhiD_eq30 (c : Dev nD) :
    (Pipeline.ΦD osem30 spec30 {main_v72} V c : sProp 𝕄)
      = iprop(iprop(iprop((∃ f : Buf (Elt F) ((c : Thread nD τ).loc cc30_scratch0), ((c : Thread nD τ).loc cc30_scratch0) ↦{fullShare} f))
            ∗ Pipeline.scopedRestBut (Ix := Unit) (Name := ℕ) (U := UD sig nD τ) (Lvl := ℕ) (Val := Elt F) spec30 c [cc30_scratch0])
          ∗ (∃ r, prngReg c r)
          ∗ Pipeline.ownSems0 (Ix := Unit) (Name := ℕ) (U := UD sig nD τ) (Lvl := ℕ) (Val := Elt F) (τ := τ) osem30 c
          ∗ (((c : Thread nD τ).loc main_v72) ↦{fullShare} V c main_v72)) := by
  rw [Pipeline.ΦD_eq, scopedRest30_split, BI.bigSep_eq_bigSepL_of_eq [main_v72] (by decide) (by decide)]; rfl

/-- The one table, held whole. -/
theorem prefHeld_eq30 (c : Dev nD) :
    (Pipeline.prefHeld pre30 c (fun _ => fullShare) a1.1 : sProp 𝕄)
      = (((c : Thread nD τ).loc main_v126) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg30 (w : Fin (cfg30 a1).W) (t : Fin (cfg30 a1).N) := ((cfg30 a1).win w).stage ((cfg30 a1).slots t w)

/-- The body as the pipeline calls it at point t. -/
abbrev bodyProg30 (t : Fin (cfg30 a1).N) : Prog (TpuEff nD τ sig (Elt F) Λ₀ .tc) PUnit :=
  (defs₀ (F := F)) .tc (cfg30 a1).body ((cfg30 a1).bodyArgs t ((cfg30 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun30 : Prop :=
  ∀ (c : Dev nD) (t : Fin (cfg30 a1).N) (W) (K : PUnit → sProp 𝕄),
    iprop(owns (c : Thread nD τ) (stg30 a1 0 t) fullShare (iblk30 V a1 c 0 t)
        ∗ (∃ d, owns (c : Thread nD τ) (stg30 a1 1 t) fullShare d)
        ∗ (∃ f : Buf (Elt F) ((c : Thread nD τ).loc cc30_scratch0), ((c : Thread nD τ).loc cc30_scratch0) ↦{fullShare} f)
        ∗ Pipeline.ownSems0 (Ix := Unit) (Name := ℕ) (U := UD sig nD τ) (Lvl := ℕ) (Val := Elt F) (τ := τ) osem30 c
        ∗ (((c : Thread nD τ).loc main_v126) ↦{fullShare} a1.1 0)
        ∗ (((c : Thread nD τ).loc main_v72) ↦{fullShare} V c main_v72)
        ∗ owes (c : Thread nD τ) (0 : CellTallies nD τ sig Unit) W
        ∗ (iprop(owns (c : Thread nD τ) (stg30 a1 0 t) fullShare (iblk30 V a1 c 0 t)
            ∗ owns (c : Thread nD τ) (stg30 a1 1 t) fullShare (O c t)
            ∗ (∃ f : Buf (Elt F) ((c : Thread nD τ).loc cc30_scratch0), ((c : Thread nD τ).loc cc30_scratch0) ↦{fullShare} f)
            ∗ Pipeline.ownSems0 (Ix := Unit) (Name := ℕ) (U := UD sig nD τ) (Lvl := ℕ) (Val := Elt F) (τ := τ) osem30 c
            ∗ (((c : Thread nD τ).loc main_v126) ↦{fullShare} a1.1 0)
            ∗ (((c : Thread nD τ).loc main_v72) ↦{fullShare} V c main_v72)
            ∗ (∃ W', owes (c : Thread nD τ) (0 : CellTallies nD τ sig Unit) W')) -∗ K ⟨⟩))
      ⊢ wp frame (wpE (defs₀ (F := F)) Variants.none c none) Set.univ (bodyProg30 a1 t) K

/-- What the body is called with at point t, the windows one by one, -/
def bodyPre30 (c : Dev nD) (t : Fin (cfg30 a1).N) : sProp 𝕄 :=
  iprop((dat30 V a1 O c).Φ t.castSucc ∗ (dat30 V a1 O c).owesAt () t.castSucc
    ∗ (∃ d, owns (c : Thread nD τ) (stg30 a1 0 t) fullShare ((dat30 V a1 O c).before 0 t d))
    ∗ (∃ d, owns (c : Thread nD τ) (stg30 a1 1 t) fullShare ((dat30 V a1 O c).before 1 t d)))

/-- and what it returns. -/
def bodyPost30 (c : Dev nD) (t : Fin (cfg30 a1).N) : sProp 𝕄 :=
  iprop((dat30 V a1 O c).Φ t.succ ∗ (dat30 V a1 O c).owesAt () t.succ
    ∗ owns (c : Thread nD τ) (stg30 a1 0 t) fullShare ((dat30 V a1 O c).after 0 t)
    ∗ owns (c : Thread nD τ) (stg30 a1 1 t) fullShare ((dat30 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body30 (hrun : BodyRun30 V a1 O) (c : Dev nD) (t : Fin (cfg30 a1).N) :
    bodyPre30 V a1 O c t
      ⊢ wp frame (wpE (defs₀ (F := F)) Variants.none c none) Set.univ (bodyProg30 a1 t) (fun _ => bodyPost30 V a1 O c t) := by
  unfold bodyPre30 bodyPost30
  simp only [beforeIn30]
  rw [afterIn30, afterOut30, Phi_eq30, Phi_eq30, PhiD_eq30, prefHeld_eq30]
  unfold Dat.owesAt Pipeline.owesWithin
  rw [owed_eq30, owed_eq30]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation30 (hrun : BodyRun30 V a1 O) (c : Dev nD) :
    BodyObligation (dat30 (F := F) V a1 O c) (defs₀ (F := F)) Variants.none () Set.univ := fun t => by
  rw [bigSep_W30, bigSep_W30]
  exact sound_body30 V a1 O hrun c t

end Data

/-! ## The region's record -/

section Record

variable (Win : Dev nD → Valuation τ sig (Elt F))

variable (a1 : (pcfg30 (F := F)).Adm)
  (O : (c : Dev nD) → Fin (cfg30 a1).N → Vec F S8x64 .f32)

/-- The buffers at the region's exit: its arrays at what the write-backs leave, every other buffer as entered. -/
def Wout30 (c : Dev nD) : Valuation τ sig (Elt F) :=
  Pipeline.withArrays spec30 c (Win c) fun w => (dat30 (Vof Win) a1 O c).arrAt w (cfg30 a1).N

theorem Wout30_arr (c : Dev nD) (w : Fin (cfg30 a1).W) :
    Wout30 Win a1 O c (Proc.devRef .tc (Pipeline.arrRef spec30 w)) = (dat30 (Vof Win) a1 O c).arrAt w (cfg30 a1).N := by
  unfold Wout30; exact Pipeline.withArrays_arr spec30 winFacts30.arr_inj c _ _ w

theorem Wout30_of_ne (c : Dev nD) (b : Ref sig .tc) (hb : ∀ w, Pipeline.arrRef spec30 w ≠ b) :
    Wout30 Win a1 O c (Proc.devRef .tc b) = Win c (Proc.devRef .tc b) := by
  unfold Wout30; exact Pipeline.withArrays_of_ne spec30 c _ _ b hb

/-- ENTRY, the buffers' part. Every unscoped buffer at Win is: the region's arrays at the proof data's entry contents,
    the table whole at the admissible contents (which are Win's there), the far operand whole, and the others. -/
theorem entry30 (c : Dev nD) (ha1 : ∀ k, Vof Win c (pre30.ref k) = a1.1 k) :
    (StableHlo.held (c : Thread nD τ) (Pipeline.ucRefs τ sig) (Win c) : sProp 𝕄)
      ⊢ iprop((dat30 (Vof Win) a1 O c).arrays ((dat30 (Vof Win) a1 O c).arrAt · 0)
          ∗ Pipeline.prefHeld pre30 c (fun _ => fullShare) a1.1
          ∗ (bigSep ({main_v72} : Finset (Ref sig .tc)) fun b => (((c : Thread nD τ)).loc b) ↦{fullShare} Vof Win c b)
          ∗ bigSep (Pipeline.restRefsP sig pre30 spec30 \ {main_v72}) fun b => (((c : Thread nD τ)).loc b) ↦{fullShare} Vof Win c b) := by
  have hsplit := Pipeline.arrays_of_unscopedBufs (p := ()) (fun (_ : Unit) => pcfg30 (F := F)) (fun _ => a1)
    (fun _ c => dat30 (Vof Win) a1 O c) winFacts30 (launch30 (F := F)).arr_whole c
    ((dat30 (Vof Win) a1 O c).share_full fun _ => rfl) (Vof Win c) (fun w => A_eq30 (Vof Win) a1 O c w)
  rw [Pipeline.unscopedBufs_held,
    Pipeline.unscopedRest_split (Ix := Unit) (Name := ℕ) (U := UD sig nD τ) (Lvl := ℕ) preFacts30 c (Vof Win c),
    Pipeline.unscopedRestP_sdiff pre30 spec30 {main_v72} hx_sub30 c (Vof Win c),
    show (fun k => Vof Win c (pre30.ref k)) = a1.1 from funext ha1] at hsplit
  exact hsplit

/-- EXIT, the buffers' part: the same four put back, the arrays at what the write-backs leave, are every unscoped
    buffer at the exit valuation. -/
theorem exit30 (c : Dev nD) (ha1 : ∀ k, Vof Win c (pre30.ref k) = a1.1 k) :
    iprop((dat30 (Vof Win) a1 O c).arrays ((dat30 (Vof Win) a1 O c).arrAt · (cfg30 a1).N)
        ∗ Pipeline.prefHeld pre30 c (fun _ => fullShare) a1.1
        ∗ (bigSep ({main_v72} : Finset (Ref sig .tc)) fun b => (((c : Thread nD τ)).loc b) ↦{fullShare} Vof Win c b)
        ∗ bigSep (Pipeline.restRefsP sig pre30 spec30 \ {main_v72}) fun b => (((c : Thread nD τ)).loc b) ↦{fullShare} Vof Win c b)
      ⊢ (StableHlo.held (c : Thread nD τ) (Pipeline.ucRefs τ sig) (Wout30 Win a1 O c) : sProp 𝕄) := by
  have hjoin := Pipeline.unscopedBufs_of_arrays (p := ()) (fun (_ : Unit) => pcfg30 (F := F)) (fun _ => a1)
    (Ix := Unit) (Name := ℕ) (U := UD sig nD τ) (Lvl := ℕ)
    winFacts30 (launch30 (F := F)).arr_whole c (fun _ c => dat30 (Vof Win) a1 O c)
    ((dat30 (Vof Win) a1 O c).share_full fun _ => rfl)
    (Vof Win c) (Vof (Wout30 Win a1 O) c) ((dat30 (Vof Win) a1 O c).arrAt · (cfg30 a1).N)
    (fun w => (Wout30_arr Win a1 O c w).symm)
    (fun b hb => Wout30_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts30 c (Vof Win c),
    Pipeline.unscopedRestP_sdiff pre30 spec30 {main_v72} hx_sub30 c (Vof Win c),
    show (fun k => Vof Win c (pre30.ref k)) = a1.1 from funext ha1] at hjoin
  exact hjoin

end Record

section Seg

variable (Win : Dev nD → Valuation τ sig (Elt F))
  (adm : (p : Fin 49) → (pcfgs (F := F) p).Adm)
  (O : (c : Dev nD) → Fin (cfg30 (adm (30 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout30. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg30 (hd : ∀ c, pdats (30 : Fin 49) c = dat30 (Vof Win) (adm (30 : Fin 49)) O c)
    (ha1 : ∀ c k, Vof Win c (pre30.ref k) = (adm (30 : Fin 49)).1 k)
    (hbody : ∀ c, BodyObligation (dat30 (F := F) (Vof Win) (adm (30 : Fin 49)) O c) (defs₀ (F := F)) 𝒱₀ () Set.univ) :
    Pipeline.RegionSeg (pcfgs (F := F)) adm pdats () defs₀ 𝒱₀ L lv (30 : Fin 49) where
  win := (launch30 (F := F)).win.to₀
  block_pos := (launch30 (F := F)).block_pos
  stage_whole := (launch30 (F := F)).stage_whole
  K := Fin 8
  osem := osem30
  ho := ownSemFacts30
  hbody c := by rw [hd c]; exact (hbody c).loose
  hwaits := Pipeline.hwaits_of_owed_zero _ _ _ _ L lv (30 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout30 Win (adm (30 : Fin 49)) O c) ∗ R c)
  X c := iprop((∃ r, prngReg c r)
    ∗ Pipeline.ownSems0 (Ix := Unit) (Name := ℕ) (U := UD sig nD τ) (Lvl := ℕ) (Val := Elt F) (τ := τ) osem30 c
    ∗ (bigSep ({main_v72} : Finset (Ref sig .tc)) fun b => (((c : Thread nD τ)).loc b) ↦{fullShare} Vof Win c b))
  Y c := iprop((∃ r, prngReg c r)
    ∗ (bigSep ({main_v72} : Finset (Ref sig .tc)) fun b => (((c : Thread nD τ)).loc b) ↦{fullShare} Vof Win c b)
    ∗ Pipeline.prefHeld pre30 c (fun _ => fullShare) (adm (30 : Fin 49)).1)
  Z c := bigSep (Pipeline.restRefsP sig pre30 spec30 \ {main_v72}) fun b => (((c : Thread nD τ)).loc b) ↦{fullShare} Vof Win c b
  hentry c := by
    rw [hd c]
    iintro ⟨⟨Hub, Hp, HO⟩, Hos, -⟩
    ihave H := (entry30 Win (adm (30 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq30, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq30, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit30 Win (adm (30 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg30 (F := F)).Adm)

/-- The output block at point t: the gathered rows (of the far operand's contents under V, chosen by the table's
    words at that point) times the input block. -/
def outBlk30 (c : Dev nD) (t : Fin (cfg30 a1).N) : Vec F S8x64 .f32 :=
  gatherOut (gatherG (a1.1 0) (V c main_v72) (grid30.coords t)) (iblk30 V a1 c 0 t)

theorem outBlk_eq30 (c : Dev nD) (t : Fin (cfg30 a1).N) :
    outBlk30 V a1 c t = gatherOut (gatherG (a1.1 0) (V c main_v72) (grid30.coords t)) (iblk30 V a1 c 0 t) := rfl

/-- The proof data with the output block named: after the body at point t the output window's buffer holds it. -/
theorem afterOutBlk30 (c : Dev nD) (t : Fin (cfg30 a1).N) :
    (dat30 V a1 (outBlk30 V a1) c).after 1 t
      = gatherOut (gatherG (a1.1 0) (V c main_v72) (grid30.coords t)) (iblk30 V a1 c 0 t) :=
  afterOut30 V a1 (outBlk30 V a1) c t

/-- The own cells at zero are the semaphore array's eight entries at zero, in order. -/
theorem ownSems_eq30 (c : Dev nD) :
    (Pipeline.ownSems0 (Ix := Unit) (Name := ℕ) (U := UD sig nD τ) (Lvl := ℕ) (Val := Elt F) (τ := τ) osem30 c : sProp 𝕄)
      = gsems0 c cc30_scratch1 := by
  rw [Pipeline.ownSems0_eq_of_list c osem30 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq30 (t : Fin (cfg30 a1).N) : ∃ h3 h4, bodyProg30 (F := F) a1 t
    = cc30__gather_mul_kernel (grid30.coords t) (Memref.whole main_v126) (Memref.isWhole_whole _) (Memref.whole main_v72) (Memref.isWhole_whole _)
        (stg30 a1 0 t) h3 (stg30 a1 1 t) h4 (Memref.whole cc30_scratch0) (Memref.isWhole_whole _) cc30_scratch1 := ⟨_, _, rfl⟩

end Out

/-! ## The body's run, joined to the proof data -/

section Body

variable (V : (c : Dev nD) → (b : Ref sig .tc) → Buf (Elt F) ((c : Thread nD τ).loc b))
  (a1 : (pcfg30 (F := F)).Adm)

/-- The scratch buffer whole at some contents, as a memref owned at some contents. -/
theorem scratchOwns_eq30 (c : Dev nD) :
    (iprop(∃ d, owns (c : Thread nD τ) (Memref.whole cc30_scratch0) fullShare d) : sProp 𝕄)
      = iprop(∃ f : Buf (Elt F) ((c : Thread nD τ).loc cc30_scratch0), ((c : Thread nD τ).loc cc30_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun30 (hlt : ∀ y, BitVec.toNat ((a1.1 0) y) < 100000) : BodyRun30 V a1 (outBlk30 V a1) := by
  intro c t W K
  obtain ⟨h3, h4, hprog⟩ := bodyProg_eq30 (F := F) a1 t
  rw [hprog, ownSems_eq30, ← scratchOwns_eq30 (F := F) c]
  have hrun := gather_kernel_run_30 (F := F) c (grid30.coords t) (Memref.whole main_v126) (Memref.isWhole_whole _) (Memref.whole main_v72) (Memref.isWhole_whole _)
    (stg30 a1 0 t) h3 (stg30 a1 1 t) h4 (Memref.whole cc30_scratch0) (Memref.isWhole_whole _) cc30_scratch1 fullShare fullShare
    (a1.1 0) (V c main_v72) (iblk30 V a1 c 0 t) (fun y => hlt y) W K
  simp only [Memref.view_whole, View.read_whole] at hrun
  unfold outBlk30
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut30 (hlt : ∀ y, BitVec.toNat ((a1.1 0) y) < 100000) (c : Dev nD) :
    BodyObligation (dat30 (F := F) V a1 (outBlk30 V a1) c) (defs₀ (F := F)) Variants.none () Set.univ :=
  body_obligation30 V a1 (outBlk30 V a1) (bodyRun30 V a1 hlt) c

end Body

/-! # Region 31 -/

/-! ## The body's own transfer cells -/

/-- The eight cells of the body's semaphore array, in order. -/
abbrev osem31 : Fin 8 → SemLoc sig := fun j => SemLoc.dma (cc31_scratch1.ix (fun | ⟨0, _⟩ => j))

/-- They are scoped, pairwise distinct, and none is a staging cell of a window. -/
theorem ownSemFacts31 : Pipeline.OwnSemFacts spec31 osem31 := by decide

/-- The far operand is an unscoped buffer that is neither a window's array nor a table. -/
theorem hx_sub31 : ({main_v72} : Finset (Ref sig .tc)) ⊆ Pipeline.restRefsP sig pre31 spec31 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg31 (F := F)).Adm)
  (O : (c : Dev nD) → Fin (cfg31 a1).N → Vec F S8x64 .f32)

/-! ## The windows' blocks -/

/-- Window w's block at point t, read off its array under V. -/
def iblk31 (c : Dev nD) (w : Fin (cfg31 a1).W) (t : Fin (cfg31 a1).N) :
    (((cfg31 a1).win w).xblock ((cfg31 a1).grid.coords t)).Idx → Elt F ((cfg31 a1).win w).elt :=
  (((cfg31 a1).win w).blk t).view.read (Elt F) (V c (Pipeline.arrRef spec31 w))

/-- The input window's current staging buffer holds its block at every point, fetched there or not, for any proof
    data whose array is V's and whose body leaves the block in place: unfetched, the block index has not moved. -/
theorem beforeIn31_of {c : Dev nD} (dat : Dat τ (Elt F) Unit ℕ (UD sig nD τ) ℕ (cfg31 a1) c)
    (hA : dat.A 0 = V c (Pipeline.arrRef spec31 0))
    (hafter : ∀ t, dat.after 0 t = iblk31 V a1 c 0 t) (t : Fin (cfg31 a1).N) (d) : dat.before 0 t d = iblk31 V a1 c 0 t :=
  (dat.before_in_eq_fetched 0 rfl (fun _ => rfl) (fun _ _ _ => rfl)
    (fun t => by rw [hafter]; unfold Dat.blockOf iblk31; rw [hA]; try rfl) t d).trans
    (by unfold Dat.fetched Dat.blockOf iblk31; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat31 (c : Dev nD) : Dat τ (Elt F) Unit ℕ (UD sig nD τ) ℕ (cfg31 a1) c where
  A w := V c (Pipeline.arrRef spec31 w)
  after w t := match w with
    | ⟨0, _⟩ => iblk31 V a1 c 0 t
    | ⟨1, _⟩ => O c t
  Φ _ := iprop(Pipeline.ΦD osem31 spec31 {main_v72} V c ∗ Pipeline.prefHeld pre31 c (fun _ => fullShare) a1.1)
  q _ := fullShare
  owed _ := 0

theorem A_eq31 (c : Dev nD) (w : Fin (cfg31 a1).W) : (dat31 V a1 O c).A w = V c (Pipeline.arrRef spec31 w) := by
  dsimp only [dat31]

theorem afterIn31 (c : Dev nD) (t : Fin (cfg31 a1).N) : (dat31 V a1 O c).after 0 t = iblk31 V a1 c 0 t := by
  dsimp only [dat31]; rfl

theorem afterOut31 (c : Dev nD) (t : Fin (cfg31 a1).N) :
    (dat31 V a1 O c).after 1 t = O c t := by
  dsimp only [dat31]; rfl

theorem beforeIn31 (c : Dev nD) (t : Fin (cfg31 a1).N) (d) : (dat31 V a1 O c).before 0 t d = iblk31 V a1 c 0 t :=
  beforeIn31_of V a1 (dat31 V a1 O c) (A_eq31 V a1 O c 0) (afterIn31 V a1 O c) t d

theorem Phi_eq31 (c : Dev nD) (t : Fin ((cfg31 a1).N + 1)) :
    (dat31 V a1 O c).Φ t
      = iprop(Pipeline.ΦD osem31 spec31 {main_v72} V c ∗ Pipeline.prefHeld pre31 c (fun _ => fullShare) a1.1) := by
  dsimp only [dat31]

theorem owed_eq31 (c : Dev nD) (t : Fin ((cfg31 a1).N + 1)) : (dat31 V a1 O c).owed t = 0 := by
  dsimp only [dat31]

/-! ## The invariant, conjunct by conjunct -/

/-- The invariant's first part opened: the body's scratch buffer whole at some contents and the other scoped
    buffers no window stages, the generator register, the own cells at zero, the far operand at its contents. -/
theorem PhiD_eq31 (c : Dev nD) :
    (Pipeline.ΦD osem31 spec31 {main_v72} V c : sProp 𝕄)
      = iprop(iprop(iprop((∃ f : Buf (Elt F) ((c : Thread nD τ).loc cc31_scratch0), ((c : Thread nD τ).loc cc31_scratch0) ↦{fullShare} f))
            ∗ Pipeline.scopedRestBut (Ix := Unit) (Name := ℕ) (U := UD sig nD τ) (Lvl := ℕ) (Val := Elt F) spec31 c [cc31_scratch0])
          ∗ (∃ r, prngReg c r)
          ∗ Pipeline.ownSems0 (Ix := Unit) (Name := ℕ) (U := UD sig nD τ) (Lvl := ℕ) (Val := Elt F) (τ := τ) osem31 c
          ∗ (((c : Thread nD τ).loc main_v72) ↦{fullShare} V c main_v72)) := by
  rw [Pipeline.ΦD_eq, scopedRest31_split, BI.bigSep_eq_bigSepL_of_eq [main_v72] (by decide) (by decide)]; rfl

/-- The one table, held whole. -/
theorem prefHeld_eq31 (c : Dev nD) :
    (Pipeline.prefHeld pre31 c (fun _ => fullShare) a1.1 : sProp 𝕄)
      = (((c : Thread nD τ).loc main_v130) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg31 (w : Fin (cfg31 a1).W) (t : Fin (cfg31 a1).N) := ((cfg31 a1).win w).stage ((cfg31 a1).slots t w)

/-- The body as the pipeline calls it at point t. -/
abbrev bodyProg31 (t : Fin (cfg31 a1).N) : Prog (TpuEff nD τ sig (Elt F) Λ₀ .tc) PUnit :=
  (defs₀ (F := F)) .tc (cfg31 a1).body ((cfg31 a1).bodyArgs t ((cfg31 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun31 : Prop :=
  ∀ (c : Dev nD) (t : Fin (cfg31 a1).N) (W) (K : PUnit → sProp 𝕄),
    iprop(owns (c : Thread nD τ) (stg31 a1 0 t) fullShare (iblk31 V a1 c 0 t)
        ∗ (∃ d, owns (c : Thread nD τ) (stg31 a1 1 t) fullShare d)
        ∗ (∃ f : Buf (Elt F) ((c : Thread nD τ).loc cc31_scratch0), ((c : Thread nD τ).loc cc31_scratch0) ↦{fullShare} f)
        ∗ Pipeline.ownSems0 (Ix := Unit) (Name := ℕ) (U := UD sig nD τ) (Lvl := ℕ) (Val := Elt F) (τ := τ) osem31 c
        ∗ (((c : Thread nD τ).loc main_v130) ↦{fullShare} a1.1 0)
        ∗ (((c : Thread nD τ).loc main_v72) ↦{fullShare} V c main_v72)
        ∗ owes (c : Thread nD τ) (0 : CellTallies nD τ sig Unit) W
        ∗ (iprop(owns (c : Thread nD τ) (stg31 a1 0 t) fullShare (iblk31 V a1 c 0 t)
            ∗ owns (c : Thread nD τ) (stg31 a1 1 t) fullShare (O c t)
            ∗ (∃ f : Buf (Elt F) ((c : Thread nD τ).loc cc31_scratch0), ((c : Thread nD τ).loc cc31_scratch0) ↦{fullShare} f)
            ∗ Pipeline.ownSems0 (Ix := Unit) (Name := ℕ) (U := UD sig nD τ) (Lvl := ℕ) (Val := Elt F) (τ := τ) osem31 c
            ∗ (((c : Thread nD τ).loc main_v130) ↦{fullShare} a1.1 0)
            ∗ (((c : Thread nD τ).loc main_v72) ↦{fullShare} V c main_v72)
            ∗ (∃ W', owes (c : Thread nD τ) (0 : CellTallies nD τ sig Unit) W')) -∗ K ⟨⟩))
      ⊢ wp frame (wpE (defs₀ (F := F)) Variants.none c none) Set.univ (bodyProg31 a1 t) K

/-- What the body is called with at point t, the windows one by one, -/
def bodyPre31 (c : Dev nD) (t : Fin (cfg31 a1).N) : sProp 𝕄 :=
  iprop((dat31 V a1 O c).Φ t.castSucc ∗ (dat31 V a1 O c).owesAt () t.castSucc
    ∗ (∃ d, owns (c : Thread nD τ) (stg31 a1 0 t) fullShare ((dat31 V a1 O c).before 0 t d))
    ∗ (∃ d, owns (c : Thread nD τ) (stg31 a1 1 t) fullShare ((dat31 V a1 O c).before 1 t d)))

/-- and what it returns. -/
def bodyPost31 (c : Dev nD) (t : Fin (cfg31 a1).N) : sProp 𝕄 :=
  iprop((dat31 V a1 O c).Φ t.succ ∗ (dat31 V a1 O c).owesAt () t.succ
    ∗ owns (c : Thread nD τ) (stg31 a1 0 t) fullShare ((dat31 V a1 O c).after 0 t)
    ∗ owns (c : Thread nD τ) (stg31 a1 1 t) fullShare ((dat31 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body31 (hrun : BodyRun31 V a1 O) (c : Dev nD) (t : Fin (cfg31 a1).N) :
    bodyPre31 V a1 O c t
      ⊢ wp frame (wpE (defs₀ (F := F)) Variants.none c none) Set.univ (bodyProg31 a1 t) (fun _ => bodyPost31 V a1 O c t) := by
  unfold bodyPre31 bodyPost31
  simp only [beforeIn31]
  rw [afterIn31, afterOut31, Phi_eq31, Phi_eq31, PhiD_eq31, prefHeld_eq31]
  unfold Dat.owesAt Pipeline.owesWithin
  rw [owed_eq31, owed_eq31]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation31 (hrun : BodyRun31 V a1 O) (c : Dev nD) :
    BodyObligation (dat31 (F := F) V a1 O c) (defs₀ (F := F)) Variants.none () Set.univ := fun t => by
  rw [bigSep_W31, bigSep_W31]
  exact sound_body31 V a1 O hrun c t

end Data

/-! ## The region's record -/

section Record

variable (Win : Dev nD → Valuation τ sig (Elt F))

variable (a1 : (pcfg31 (F := F)).Adm)
  (O : (c : Dev nD) → Fin (cfg31 a1).N → Vec F S8x64 .f32)

/-- The buffers at the region's exit: its arrays at what the write-backs leave, every other buffer as entered. -/
def Wout31 (c : Dev nD) : Valuation τ sig (Elt F) :=
  Pipeline.withArrays spec31 c (Win c) fun w => (dat31 (Vof Win) a1 O c).arrAt w (cfg31 a1).N

theorem Wout31_arr (c : Dev nD) (w : Fin (cfg31 a1).W) :
    Wout31 Win a1 O c (Proc.devRef .tc (Pipeline.arrRef spec31 w)) = (dat31 (Vof Win) a1 O c).arrAt w (cfg31 a1).N := by
  unfold Wout31; exact Pipeline.withArrays_arr spec31 winFacts31.arr_inj c _ _ w

theorem Wout31_of_ne (c : Dev nD) (b : Ref sig .tc) (hb : ∀ w, Pipeline.arrRef spec31 w ≠ b) :
    Wout31 Win a1 O c (Proc.devRef .tc b) = Win c (Proc.devRef .tc b) := by
  unfold Wout31; exact Pipeline.withArrays_of_ne spec31 c _ _ b hb

/-- ENTRY, the buffers' part. Every unscoped buffer at Win is: the region's arrays at the proof data's entry contents,
    the table whole at the admissible contents (which are Win's there), the far operand whole, and the others. -/
theorem entry31 (c : Dev nD) (ha1 : ∀ k, Vof Win c (pre31.ref k) = a1.1 k) :
    (StableHlo.held (c : Thread nD τ) (Pipeline.ucRefs τ sig) (Win c) : sProp 𝕄)
      ⊢ iprop((dat31 (Vof Win) a1 O c).arrays ((dat31 (Vof Win) a1 O c).arrAt · 0)
          ∗ Pipeline.prefHeld pre31 c (fun _ => fullShare) a1.1
          ∗ (bigSep ({main_v72} : Finset (Ref sig .tc)) fun b => (((c : Thread nD τ)).loc b) ↦{fullShare} Vof Win c b)
          ∗ bigSep (Pipeline.restRefsP sig pre31 spec31 \ {main_v72}) fun b => (((c : Thread nD τ)).loc b) ↦{fullShare} Vof Win c b) := by
  have hsplit := Pipeline.arrays_of_unscopedBufs (p := ()) (fun (_ : Unit) => pcfg31 (F := F)) (fun _ => a1)
    (fun _ c => dat31 (Vof Win) a1 O c) winFacts31 (launch31 (F := F)).arr_whole c
    ((dat31 (Vof Win) a1 O c).share_full fun _ => rfl) (Vof Win c) (fun w => A_eq31 (Vof Win) a1 O c w)
  rw [Pipeline.unscopedBufs_held,
    Pipeline.unscopedRest_split (Ix := Unit) (Name := ℕ) (U := UD sig nD τ) (Lvl := ℕ) preFacts31 c (Vof Win c),
    Pipeline.unscopedRestP_sdiff pre31 spec31 {main_v72} hx_sub31 c (Vof Win c),
    show (fun k => Vof Win c (pre31.ref k)) = a1.1 from funext ha1] at hsplit
  exact hsplit

/-- EXIT, the buffers' part: the same four put back, the arrays at what the write-backs leave, are every unscoped
    buffer at the exit valuation. -/
theorem exit31 (c : Dev nD) (ha1 : ∀ k, Vof Win c (pre31.ref k) = a1.1 k) :
    iprop((dat31 (Vof Win) a1 O c).arrays ((dat31 (Vof Win) a1 O c).arrAt · (cfg31 a1).N)
        ∗ Pipeline.prefHeld pre31 c (fun _ => fullShare) a1.1
        ∗ (bigSep ({main_v72} : Finset (Ref sig .tc)) fun b => (((c : Thread nD τ)).loc b) ↦{fullShare} Vof Win c b)
        ∗ bigSep (Pipeline.restRefsP sig pre31 spec31 \ {main_v72}) fun b => (((c : Thread nD τ)).loc b) ↦{fullShare} Vof Win c b)
      ⊢ (StableHlo.held (c : Thread nD τ) (Pipeline.ucRefs τ sig) (Wout31 Win a1 O c) : sProp 𝕄) := by
  have hjoin := Pipeline.unscopedBufs_of_arrays (p := ()) (fun (_ : Unit) => pcfg31 (F := F)) (fun _ => a1)
    (Ix := Unit) (Name := ℕ) (U := UD sig nD τ) (Lvl := ℕ)
    winFacts31 (launch31 (F := F)).arr_whole c (fun _ c => dat31 (Vof Win) a1 O c)
    ((dat31 (Vof Win) a1 O c).share_full fun _ => rfl)
    (Vof Win c) (Vof (Wout31 Win a1 O) c) ((dat31 (Vof Win) a1 O c).arrAt · (cfg31 a1).N)
    (fun w => (Wout31_arr Win a1 O c w).symm)
    (fun b hb => Wout31_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts31 c (Vof Win c),
    Pipeline.unscopedRestP_sdiff pre31 spec31 {main_v72} hx_sub31 c (Vof Win c),
    show (fun k => Vof Win c (pre31.ref k)) = a1.1 from funext ha1] at hjoin
  exact hjoin

end Record

section Seg

variable (Win : Dev nD → Valuation τ sig (Elt F))
  (adm : (p : Fin 49) → (pcfgs (F := F) p).Adm)
  (O : (c : Dev nD) → Fin (cfg31 (adm (31 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout31. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg31 (hd : ∀ c, pdats (31 : Fin 49) c = dat31 (Vof Win) (adm (31 : Fin 49)) O c)
    (ha1 : ∀ c k, Vof Win c (pre31.ref k) = (adm (31 : Fin 49)).1 k)
    (hbody : ∀ c, BodyObligation (dat31 (F := F) (Vof Win) (adm (31 : Fin 49)) O c) (defs₀ (F := F)) 𝒱₀ () Set.univ) :
    Pipeline.RegionSeg (pcfgs (F := F)) adm pdats () defs₀ 𝒱₀ L lv (31 : Fin 49) where
  win := (launch31 (F := F)).win.to₀
  block_pos := (launch31 (F := F)).block_pos
  stage_whole := (launch31 (F := F)).stage_whole
  K := Fin 8
  osem := osem31
  ho := ownSemFacts31
  hbody c := by rw [hd c]; exact (hbody c).loose
  hwaits := Pipeline.hwaits_of_owed_zero _ _ _ _ L lv (31 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout31 Win (adm (31 : Fin 49)) O c) ∗ R c)
  X c := iprop((∃ r, prngReg c r)
    ∗ Pipeline.ownSems0 (Ix := Unit) (Name := ℕ) (U := UD sig nD τ) (Lvl := ℕ) (Val := Elt F) (τ := τ) osem31 c
    ∗ (bigSep ({main_v72} : Finset (Ref sig .tc)) fun b => (((c : Thread nD τ)).loc b) ↦{fullShare} Vof Win c b))
  Y c := iprop((∃ r, prngReg c r)
    ∗ (bigSep ({main_v72} : Finset (Ref sig .tc)) fun b => (((c : Thread nD τ)).loc b) ↦{fullShare} Vof Win c b)
    ∗ Pipeline.prefHeld pre31 c (fun _ => fullShare) (adm (31 : Fin 49)).1)
  Z c := bigSep (Pipeline.restRefsP sig pre31 spec31 \ {main_v72}) fun b => (((c : Thread nD τ)).loc b) ↦{fullShare} Vof Win c b
  hentry c := by
    rw [hd c]
    iintro ⟨⟨Hub, Hp, HO⟩, Hos, -⟩
    ihave H := (entry31 Win (adm (31 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq31, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq31, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit31 Win (adm (31 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg31 (F := F)).Adm)

/-- The output block at point t: the gathered rows (of the far operand's contents under V, chosen by the table's
    words at that point) times the input block. -/
def outBlk31 (c : Dev nD) (t : Fin (cfg31 a1).N) : Vec F S8x64 .f32 :=
  gatherOut (gatherG (a1.1 0) (V c main_v72) (grid31.coords t)) (iblk31 V a1 c 0 t)

theorem outBlk_eq31 (c : Dev nD) (t : Fin (cfg31 a1).N) :
    outBlk31 V a1 c t = gatherOut (gatherG (a1.1 0) (V c main_v72) (grid31.coords t)) (iblk31 V a1 c 0 t) := rfl

/-- The proof data with the output block named: after the body at point t the output window's buffer holds it. -/
theorem afterOutBlk31 (c : Dev nD) (t : Fin (cfg31 a1).N) :
    (dat31 V a1 (outBlk31 V a1) c).after 1 t
      = gatherOut (gatherG (a1.1 0) (V c main_v72) (grid31.coords t)) (iblk31 V a1 c 0 t) :=
  afterOut31 V a1 (outBlk31 V a1) c t

/-- The own cells at zero are the semaphore array's eight entries at zero, in order. -/
theorem ownSems_eq31 (c : Dev nD) :
    (Pipeline.ownSems0 (Ix := Unit) (Name := ℕ) (U := UD sig nD τ) (Lvl := ℕ) (Val := Elt F) (τ := τ) osem31 c : sProp 𝕄)
      = gsems0 c cc31_scratch1 := by
  rw [Pipeline.ownSems0_eq_of_list c osem31 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq31 (t : Fin (cfg31 a1).N) : ∃ h3 h4, bodyProg31 (F := F) a1 t
    = cc31__gather_mul_kernel (grid31.coords t) (Memref.whole main_v130) (Memref.isWhole_whole _) (Memref.whole main_v72) (Memref.isWhole_whole _)
        (stg31 a1 0 t) h3 (stg31 a1 1 t) h4 (Memref.whole cc31_scratch0) (Memref.isWhole_whole _) cc31_scratch1 := ⟨_, _, rfl⟩

end Out

/-! ## The body's run, joined to the proof data -/

section Body

variable (V : (c : Dev nD) → (b : Ref sig .tc) → Buf (Elt F) ((c : Thread nD τ).loc b))
  (a1 : (pcfg31 (F := F)).Adm)

/-- The scratch buffer whole at some contents, as a memref owned at some contents. -/
theorem scratchOwns_eq31 (c : Dev nD) :
    (iprop(∃ d, owns (c : Thread nD τ) (Memref.whole cc31_scratch0) fullShare d) : sProp 𝕄)
      = iprop(∃ f : Buf (Elt F) ((c : Thread nD τ).loc cc31_scratch0), ((c : Thread nD τ).loc cc31_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun31 (hlt : ∀ y, BitVec.toNat ((a1.1 0) y) < 100000) : BodyRun31 V a1 (outBlk31 V a1) := by
  intro c t W K
  obtain ⟨h3, h4, hprog⟩ := bodyProg_eq31 (F := F) a1 t
  rw [hprog, ownSems_eq31, ← scratchOwns_eq31 (F := F) c]
  have hrun := gather_kernel_run_31 (F := F) c (grid31.coords t) (Memref.whole main_v130) (Memref.isWhole_whole _) (Memref.whole main_v72) (Memref.isWhole_whole _)
    (stg31 a1 0 t) h3 (stg31 a1 1 t) h4 (Memref.whole cc31_scratch0) (Memref.isWhole_whole _) cc31_scratch1 fullShare fullShare
    (a1.1 0) (V c main_v72) (iblk31 V a1 c 0 t) (fun y => hlt y) W K
  simp only [Memref.view_whole, View.read_whole] at hrun
  unfold outBlk31
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut31 (hlt : ∀ y, BitVec.toNat ((a1.1 0) y) < 100000) (c : Dev nD) :
    BodyObligation (dat31 (F := F) V a1 (outBlk31 V a1) c) (defs₀ (F := F)) Variants.none () Set.univ :=
  body_obligation31 V a1 (outBlk31 V a1) (bodyRun31 V a1 hlt) c

end Body

/-! # Region 32 -/

/-! ## The body's own transfer cells -/

/-- The eight cells of the body's semaphore array, in order. -/
abbrev osem32 : Fin 8 → SemLoc sig := fun j => SemLoc.dma (cc32_scratch1.ix (fun | ⟨0, _⟩ => j))

/-- They are scoped, pairwise distinct, and none is a staging cell of a window. -/
theorem ownSemFacts32 : Pipeline.OwnSemFacts spec32 osem32 := by decide

/-- The far operand is an unscoped buffer that is neither a window's array nor a table. -/
theorem hx_sub32 : ({main_v72} : Finset (Ref sig .tc)) ⊆ Pipeline.restRefsP sig pre32 spec32 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg32 (F := F)).Adm)
  (O : (c : Dev nD) → Fin (cfg32 a1).N → Vec F S8x64 .f32)

/-! ## The windows' blocks -/

/-- Window w's block at point t, read off its array under V. -/
def iblk32 (c : Dev nD) (w : Fin (cfg32 a1).W) (t : Fin (cfg32 a1).N) :
    (((cfg32 a1).win w).xblock ((cfg32 a1).grid.coords t)).Idx → Elt F ((cfg32 a1).win w).elt :=
  (((cfg32 a1).win w).blk t).view.read (Elt F) (V c (Pipeline.arrRef spec32 w))

/-- The input window's current staging buffer holds its block at every point, fetched there or not, for any proof
    data whose array is V's and whose body leaves the block in place: unfetched, the block index has not moved. -/
theorem beforeIn32_of {c : Dev nD} (dat : Dat τ (Elt F) Unit ℕ (UD sig nD τ) ℕ (cfg32 a1) c)
    (hA : dat.A 0 = V c (Pipeline.arrRef spec32 0))
    (hafter : ∀ t, dat.after 0 t = iblk32 V a1 c 0 t) (t : Fin (cfg32 a1).N) (d) : dat.before 0 t d = iblk32 V a1 c 0 t :=
  (dat.before_in_eq_fetched 0 rfl (fun _ => rfl) (fun _ _ _ => rfl)
    (fun t => by rw [hafter]; unfold Dat.blockOf iblk32; rw [hA]; try rfl) t d).trans
    (by unfold Dat.fetched Dat.blockOf iblk32; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat32 (c : Dev nD) : Dat τ (Elt F) Unit ℕ (UD sig nD τ) ℕ (cfg32 a1) c where
  A w := V c (Pipeline.arrRef spec32 w)
  after w t := match w with
    | ⟨0, _⟩ => iblk32 V a1 c 0 t
    | ⟨1, _⟩ => O c t
  Φ _ := iprop(Pipeline.ΦD osem32 spec32 {main_v72} V c ∗ Pipeline.prefHeld pre32 c (fun _ => fullShare) a1.1)
  q _ := fullShare
  owed _ := 0

theorem A_eq32 (c : Dev nD) (w : Fin (cfg32 a1).W) : (dat32 V a1 O c).A w = V c (Pipeline.arrRef spec32 w) := by
  dsimp only [dat32]

theorem afterIn32 (c : Dev nD) (t : Fin (cfg32 a1).N) : (dat32 V a1 O c).after 0 t = iblk32 V a1 c 0 t := by
  dsimp only [dat32]; rfl

theorem afterOut32 (c : Dev nD) (t : Fin (cfg32 a1).N) :
    (dat32 V a1 O c).after 1 t = O c t := by
  dsimp only [dat32]; rfl

theorem beforeIn32 (c : Dev nD) (t : Fin (cfg32 a1).N) (d) : (dat32 V a1 O c).before 0 t d = iblk32 V a1 c 0 t :=
  beforeIn32_of V a1 (dat32 V a1 O c) (A_eq32 V a1 O c 0) (afterIn32 V a1 O c) t d

theorem Phi_eq32 (c : Dev nD) (t : Fin ((cfg32 a1).N + 1)) :
    (dat32 V a1 O c).Φ t
      = iprop(Pipeline.ΦD osem32 spec32 {main_v72} V c ∗ Pipeline.prefHeld pre32 c (fun _ => fullShare) a1.1) := by
  dsimp only [dat32]

theorem owed_eq32 (c : Dev nD) (t : Fin ((cfg32 a1).N + 1)) : (dat32 V a1 O c).owed t = 0 := by
  dsimp only [dat32]

/-! ## The invariant, conjunct by conjunct -/

/-- The invariant's first part opened: the body's scratch buffer whole at some contents and the other scoped
    buffers no window stages, the generator register, the own cells at zero, the far operand at its contents. -/
theorem PhiD_eq32 (c : Dev nD) :
    (Pipeline.ΦD osem32 spec32 {main_v72} V c : sProp 𝕄)
      = iprop(iprop(iprop((∃ f : Buf (Elt F) ((c : Thread nD τ).loc cc32_scratch0), ((c : Thread nD τ).loc cc32_scratch0) ↦{fullShare} f))
            ∗ Pipeline.scopedRestBut (Ix := Unit) (Name := ℕ) (U := UD sig nD τ) (Lvl := ℕ) (Val := Elt F) spec32 c [cc32_scratch0])
          ∗ (∃ r, prngReg c r)
          ∗ Pipeline.ownSems0 (Ix := Unit) (Name := ℕ) (U := UD sig nD τ) (Lvl := ℕ) (Val := Elt F) (τ := τ) osem32 c
          ∗ (((c : Thread nD τ).loc main_v72) ↦{fullShare} V c main_v72)) := by
  rw [Pipeline.ΦD_eq, scopedRest32_split, BI.bigSep_eq_bigSepL_of_eq [main_v72] (by decide) (by decide)]; rfl

/-- The one table, held whole. -/
theorem prefHeld_eq32 (c : Dev nD) :
    (Pipeline.prefHeld pre32 c (fun _ => fullShare) a1.1 : sProp 𝕄)
      = (((c : Thread nD τ).loc main_v134) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg32 (w : Fin (cfg32 a1).W) (t : Fin (cfg32 a1).N) := ((cfg32 a1).win w).stage ((cfg32 a1).slots t w)

/-- The body as the pipeline calls it at point t. -/
abbrev bodyProg32 (t : Fin (cfg32 a1).N) : Prog (TpuEff nD τ sig (Elt F) Λ₀ .tc) PUnit :=
  (defs₀ (F := F)) .tc (cfg32 a1).body ((cfg32 a1).bodyArgs t ((cfg32 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun32 : Prop :=
  ∀ (c : Dev nD) (t : Fin (cfg32 a1).N) (W) (K : PUnit → sProp 𝕄),
    iprop(owns (c : Thread nD τ) (stg32 a1 0 t) fullShare (iblk32 V a1 c 0 t)
        ∗ (∃ d, owns (c : Thread nD τ) (stg32 a1 1 t) fullShare d)
        ∗ (∃ f : Buf (Elt F) ((c : Thread nD τ).loc cc32_scratch0), ((c : Thread nD τ).loc cc32_scratch0) ↦{fullShare} f)
        ∗ Pipeline.ownSems0 (Ix := Unit) (Name := ℕ) (U := UD sig nD τ) (Lvl := ℕ) (Val := Elt F) (τ := τ) osem32 c
        ∗ (((c : Thread nD τ).loc main_v134) ↦{fullShare} a1.1 0)
        ∗ (((c : Thread nD τ).loc main_v72) ↦{fullShare} V c main_v72)
        ∗ owes (c : Thread nD τ) (0 : CellTallies nD τ sig Unit) W
        ∗ (iprop(owns (c : Thread nD τ) (stg32 a1 0 t) fullShare (iblk32 V a1 c 0 t)
            ∗ owns (c : Thread nD τ) (stg32 a1 1 t) fullShare (O c t)
            ∗ (∃ f : Buf (Elt F) ((c : Thread nD τ).loc cc32_scratch0), ((c : Thread nD τ).loc cc32_scratch0) ↦{fullShare} f)
            ∗ Pipeline.ownSems0 (Ix := Unit) (Name := ℕ) (U := UD sig nD τ) (Lvl := ℕ) (Val := Elt F) (τ := τ) osem32 c
            ∗ (((c : Thread nD τ).loc main_v134) ↦{fullShare} a1.1 0)
            ∗ (((c : Thread nD τ).loc main_v72) ↦{fullShare} V c main_v72)
            ∗ (∃ W', owes (c : Thread nD τ) (0 : CellTallies nD τ sig Unit) W')) -∗ K ⟨⟩))
      ⊢ wp frame (wpE (defs₀ (F := F)) Variants.none c none) Set.univ (bodyProg32 a1 t) K

/-- What the body is called with at point t, the windows one by one, -/
def bodyPre32 (c : Dev nD) (t : Fin (cfg32 a1).N) : sProp 𝕄 :=
  iprop((dat32 V a1 O c).Φ t.castSucc ∗ (dat32 V a1 O c).owesAt () t.castSucc
    ∗ (∃ d, owns (c : Thread nD τ) (stg32 a1 0 t) fullShare ((dat32 V a1 O c).before 0 t d))
    ∗ (∃ d, owns (c : Thread nD τ) (stg32 a1 1 t) fullShare ((dat32 V a1 O c).before 1 t d)))

/-- and what it returns. -/
def bodyPost32 (c : Dev nD) (t : Fin (cfg32 a1).N) : sProp 𝕄 :=
  iprop((dat32 V a1 O c).Φ t.succ ∗ (dat32 V a1 O c).owesAt () t.succ
    ∗ owns (c : Thread nD τ) (stg32 a1 0 t) fullShare ((dat32 V a1 O c).after 0 t)
    ∗ owns (c : Thread nD τ) (stg32 a1 1 t) fullShare ((dat32 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body32 (hrun : BodyRun32 V a1 O) (c : Dev nD) (t : Fin (cfg32 a1).N) :
    bodyPre32 V a1 O c t
      ⊢ wp frame (wpE (defs₀ (F := F)) Variants.none c none) Set.univ (bodyProg32 a1 t) (fun _ => bodyPost32 V a1 O c t) := by
  unfold bodyPre32 bodyPost32
  simp only [beforeIn32]
  rw [afterIn32, afterOut32, Phi_eq32, Phi_eq32, PhiD_eq32, prefHeld_eq32]
  unfold Dat.owesAt Pipeline.owesWithin
  rw [owed_eq32, owed_eq32]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation32 (hrun : BodyRun32 V a1 O) (c : Dev nD) :
    BodyObligation (dat32 (F := F) V a1 O c) (defs₀ (F := F)) Variants.none () Set.univ := fun t => by
  rw [bigSep_W32, bigSep_W32]
  exact sound_body32 V a1 O hrun c t

end Data

/-! ## The region's record -/

section Record

variable (Win : Dev nD → Valuation τ sig (Elt F))

variable (a1 : (pcfg32 (F := F)).Adm)
  (O : (c : Dev nD) → Fin (cfg32 a1).N → Vec F S8x64 .f32)

/-- The buffers at the region's exit: its arrays at what the write-backs leave, every other buffer as entered. -/
def Wout32 (c : Dev nD) : Valuation τ sig (Elt F) :=
  Pipeline.withArrays spec32 c (Win c) fun w => (dat32 (Vof Win) a1 O c).arrAt w (cfg32 a1).N

theorem Wout32_arr (c : Dev nD) (w : Fin (cfg32 a1).W) :
    Wout32 Win a1 O c (Proc.devRef .tc (Pipeline.arrRef spec32 w)) = (dat32 (Vof Win) a1 O c).arrAt w (cfg32 a1).N := by
  unfold Wout32; exact Pipeline.withArrays_arr spec32 winFacts32.arr_inj c _ _ w

theorem Wout32_of_ne (c : Dev nD) (b : Ref sig .tc) (hb : ∀ w, Pipeline.arrRef spec32 w ≠ b) :
    Wout32 Win a1 O c (Proc.devRef .tc b) = Win c (Proc.devRef .tc b) := by
  unfold Wout32; exact Pipeline.withArrays_of_ne spec32 c _ _ b hb

/-- ENTRY, the buffers' part. Every unscoped buffer at Win is: the region's arrays at the proof data's entry contents,
    the table whole at the admissible contents (which are Win's there), the far operand whole, and the others. -/
theorem entry32 (c : Dev nD) (ha1 : ∀ k, Vof Win c (pre32.ref k) = a1.1 k) :
    (StableHlo.held (c : Thread nD τ) (Pipeline.ucRefs τ sig) (Win c) : sProp 𝕄)
      ⊢ iprop((dat32 (Vof Win) a1 O c).arrays ((dat32 (Vof Win) a1 O c).arrAt · 0)
          ∗ Pipeline.prefHeld pre32 c (fun _ => fullShare) a1.1
          ∗ (bigSep ({main_v72} : Finset (Ref sig .tc)) fun b => (((c : Thread nD τ)).loc b) ↦{fullShare} Vof Win c b)
          ∗ bigSep (Pipeline.restRefsP sig pre32 spec32 \ {main_v72}) fun b => (((c : Thread nD τ)).loc b) ↦{fullShare} Vof Win c b) := by
  have hsplit := Pipeline.arrays_of_unscopedBufs (p := ()) (fun (_ : Unit) => pcfg32 (F := F)) (fun _ => a1)
    (fun _ c => dat32 (Vof Win) a1 O c) winFacts32 (launch32 (F := F)).arr_whole c
    ((dat32 (Vof Win) a1 O c).share_full fun _ => rfl) (Vof Win c) (fun w => A_eq32 (Vof Win) a1 O c w)
  rw [Pipeline.unscopedBufs_held,
    Pipeline.unscopedRest_split (Ix := Unit) (Name := ℕ) (U := UD sig nD τ) (Lvl := ℕ) preFacts32 c (Vof Win c),
    Pipeline.unscopedRestP_sdiff pre32 spec32 {main_v72} hx_sub32 c (Vof Win c),
    show (fun k => Vof Win c (pre32.ref k)) = a1.1 from funext ha1] at hsplit
  exact hsplit

/-- EXIT, the buffers' part: the same four put back, the arrays at what the write-backs leave, are every unscoped
    buffer at the exit valuation. -/
theorem exit32 (c : Dev nD) (ha1 : ∀ k, Vof Win c (pre32.ref k) = a1.1 k) :
    iprop((dat32 (Vof Win) a1 O c).arrays ((dat32 (Vof Win) a1 O c).arrAt · (cfg32 a1).N)
        ∗ Pipeline.prefHeld pre32 c (fun _ => fullShare) a1.1
        ∗ (bigSep ({main_v72} : Finset (Ref sig .tc)) fun b => (((c : Thread nD τ)).loc b) ↦{fullShare} Vof Win c b)
        ∗ bigSep (Pipeline.restRefsP sig pre32 spec32 \ {main_v72}) fun b => (((c : Thread nD τ)).loc b) ↦{fullShare} Vof Win c b)
      ⊢ (StableHlo.held (c : Thread nD τ) (Pipeline.ucRefs τ sig) (Wout32 Win a1 O c) : sProp 𝕄) := by
  have hjoin := Pipeline.unscopedBufs_of_arrays (p := ()) (fun (_ : Unit) => pcfg32 (F := F)) (fun _ => a1)
    (Ix := Unit) (Name := ℕ) (U := UD sig nD τ) (Lvl := ℕ)
    winFacts32 (launch32 (F := F)).arr_whole c (fun _ c => dat32 (Vof Win) a1 O c)
    ((dat32 (Vof Win) a1 O c).share_full fun _ => rfl)
    (Vof Win c) (Vof (Wout32 Win a1 O) c) ((dat32 (Vof Win) a1 O c).arrAt · (cfg32 a1).N)
    (fun w => (Wout32_arr Win a1 O c w).symm)
    (fun b hb => Wout32_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts32 c (Vof Win c),
    Pipeline.unscopedRestP_sdiff pre32 spec32 {main_v72} hx_sub32 c (Vof Win c),
    show (fun k => Vof Win c (pre32.ref k)) = a1.1 from funext ha1] at hjoin
  exact hjoin

end Record

section Seg

variable (Win : Dev nD → Valuation τ sig (Elt F))
  (adm : (p : Fin 49) → (pcfgs (F := F) p).Adm)
  (O : (c : Dev nD) → Fin (cfg32 (adm (32 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout32. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg32 (hd : ∀ c, pdats (32 : Fin 49) c = dat32 (Vof Win) (adm (32 : Fin 49)) O c)
    (ha1 : ∀ c k, Vof Win c (pre32.ref k) = (adm (32 : Fin 49)).1 k)
    (hbody : ∀ c, BodyObligation (dat32 (F := F) (Vof Win) (adm (32 : Fin 49)) O c) (defs₀ (F := F)) 𝒱₀ () Set.univ) :
    Pipeline.RegionSeg (pcfgs (F := F)) adm pdats () defs₀ 𝒱₀ L lv (32 : Fin 49) where
  win := (launch32 (F := F)).win.to₀
  block_pos := (launch32 (F := F)).block_pos
  stage_whole := (launch32 (F := F)).stage_whole
  K := Fin 8
  osem := osem32
  ho := ownSemFacts32
  hbody c := by rw [hd c]; exact (hbody c).loose
  hwaits := Pipeline.hwaits_of_owed_zero _ _ _ _ L lv (32 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout32 Win (adm (32 : Fin 49)) O c) ∗ R c)
  X c := iprop((∃ r, prngReg c r)
    ∗ Pipeline.ownSems0 (Ix := Unit) (Name := ℕ) (U := UD sig nD τ) (Lvl := ℕ) (Val := Elt F) (τ := τ) osem32 c
    ∗ (bigSep ({main_v72} : Finset (Ref sig .tc)) fun b => (((c : Thread nD τ)).loc b) ↦{fullShare} Vof Win c b))
  Y c := iprop((∃ r, prngReg c r)
    ∗ (bigSep ({main_v72} : Finset (Ref sig .tc)) fun b => (((c : Thread nD τ)).loc b) ↦{fullShare} Vof Win c b)
    ∗ Pipeline.prefHeld pre32 c (fun _ => fullShare) (adm (32 : Fin 49)).1)
  Z c := bigSep (Pipeline.restRefsP sig pre32 spec32 \ {main_v72}) fun b => (((c : Thread nD τ)).loc b) ↦{fullShare} Vof Win c b
  hentry c := by
    rw [hd c]
    iintro ⟨⟨Hub, Hp, HO⟩, Hos, -⟩
    ihave H := (entry32 Win (adm (32 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq32, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq32, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit32 Win (adm (32 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg32 (F := F)).Adm)

/-- The output block at point t: the gathered rows (of the far operand's contents under V, chosen by the table's
    words at that point) times the input block. -/
def outBlk32 (c : Dev nD) (t : Fin (cfg32 a1).N) : Vec F S8x64 .f32 :=
  gatherOut (gatherG (a1.1 0) (V c main_v72) (grid32.coords t)) (iblk32 V a1 c 0 t)

theorem outBlk_eq32 (c : Dev nD) (t : Fin (cfg32 a1).N) :
    outBlk32 V a1 c t = gatherOut (gatherG (a1.1 0) (V c main_v72) (grid32.coords t)) (iblk32 V a1 c 0 t) := rfl

/-- The proof data with the output block named: after the body at point t the output window's buffer holds it. -/
theorem afterOutBlk32 (c : Dev nD) (t : Fin (cfg32 a1).N) :
    (dat32 V a1 (outBlk32 V a1) c).after 1 t
      = gatherOut (gatherG (a1.1 0) (V c main_v72) (grid32.coords t)) (iblk32 V a1 c 0 t) :=
  afterOut32 V a1 (outBlk32 V a1) c t

/-- The own cells at zero are the semaphore array's eight entries at zero, in order. -/
theorem ownSems_eq32 (c : Dev nD) :
    (Pipeline.ownSems0 (Ix := Unit) (Name := ℕ) (U := UD sig nD τ) (Lvl := ℕ) (Val := Elt F) (τ := τ) osem32 c : sProp 𝕄)
      = gsems0 c cc32_scratch1 := by
  rw [Pipeline.ownSems0_eq_of_list c osem32 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq32 (t : Fin (cfg32 a1).N) : ∃ h3 h4, bodyProg32 (F := F) a1 t
    = cc32__gather_mul_kernel (grid32.coords t) (Memref.whole main_v134) (Memref.isWhole_whole _) (Memref.whole main_v72) (Memref.isWhole_whole _)
        (stg32 a1 0 t) h3 (stg32 a1 1 t) h4 (Memref.whole cc32_scratch0) (Memref.isWhole_whole _) cc32_scratch1 := ⟨_, _, rfl⟩

end Out

/-! ## The body's run, joined to the proof data -/

section Body

variable (V : (c : Dev nD) → (b : Ref sig .tc) → Buf (Elt F) ((c : Thread nD τ).loc b))
  (a1 : (pcfg32 (F := F)).Adm)

/-- The scratch buffer whole at some contents, as a memref owned at some contents. -/
theorem scratchOwns_eq32 (c : Dev nD) :
    (iprop(∃ d, owns (c : Thread nD τ) (Memref.whole cc32_scratch0) fullShare d) : sProp 𝕄)
      = iprop(∃ f : Buf (Elt F) ((c : Thread nD τ).loc cc32_scratch0), ((c : Thread nD τ).loc cc32_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun32 (hlt : ∀ y, BitVec.toNat ((a1.1 0) y) < 100000) : BodyRun32 V a1 (outBlk32 V a1) := by
  intro c t W K
  obtain ⟨h3, h4, hprog⟩ := bodyProg_eq32 (F := F) a1 t
  rw [hprog, ownSems_eq32, ← scratchOwns_eq32 (F := F) c]
  have hrun := gather_kernel_run_32 (F := F) c (grid32.coords t) (Memref.whole main_v134) (Memref.isWhole_whole _) (Memref.whole main_v72) (Memref.isWhole_whole _)
    (stg32 a1 0 t) h3 (stg32 a1 1 t) h4 (Memref.whole cc32_scratch0) (Memref.isWhole_whole _) cc32_scratch1 fullShare fullShare
    (a1.1 0) (V c main_v72) (iblk32 V a1 c 0 t) (fun y => hlt y) W K
  simp only [Memref.view_whole, View.read_whole] at hrun
  unfold outBlk32
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut32 (hlt : ∀ y, BitVec.toNat ((a1.1 0) y) < 100000) (c : Dev nD) :
    BodyObligation (dat32 (F := F) V a1 (outBlk32 V a1) c) (defs₀ (F := F)) Variants.none () Set.univ :=
  body_obligation32 V a1 (outBlk32 V a1) (bodyRun32 V a1 hlt) c

end Body

/-! # Region 33 -/

/-! ## The body's own transfer cells -/

/-- The eight cells of the body's semaphore array, in order. -/
abbrev osem33 : Fin 8 → SemLoc sig := fun j => SemLoc.dma (cc33_scratch1.ix (fun | ⟨0, _⟩ => j))

/-- They are scoped, pairwise distinct, and none is a staging cell of a window. -/
theorem ownSemFacts33 : Pipeline.OwnSemFacts spec33 osem33 := by decide

/-- The far operand is an unscoped buffer that is neither a window's array nor a table. -/
theorem hx_sub33 : ({main_v141} : Finset (Ref sig .tc)) ⊆ Pipeline.restRefsP sig pre33 spec33 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg33 (F := F)).Adm)
  (O : (c : Dev nD) → Fin (cfg33 a1).N → Vec F S8x64 .f32)

/-! ## The windows' blocks -/

/-- Window w's block at point t, read off its array under V. -/
def iblk33 (c : Dev nD) (w : Fin (cfg33 a1).W) (t : Fin (cfg33 a1).N) :
    (((cfg33 a1).win w).xblock ((cfg33 a1).grid.coords t)).Idx → Elt F ((cfg33 a1).win w).elt :=
  (((cfg33 a1).win w).blk t).view.read (Elt F) (V c (Pipeline.arrRef spec33 w))

/-- The input window's current staging buffer holds its block at every point, fetched there or not, for any proof
    data whose array is V's and whose body leaves the block in place: unfetched, the block index has not moved. -/
theorem beforeIn33_of {c : Dev nD} (dat : Dat τ (Elt F) Unit ℕ (UD sig nD τ) ℕ (cfg33 a1) c)
    (hA : dat.A 0 = V c (Pipeline.arrRef spec33 0))
    (hafter : ∀ t, dat.after 0 t = iblk33 V a1 c 0 t) (t : Fin (cfg33 a1).N) (d) : dat.before 0 t d = iblk33 V a1 c 0 t :=
  (dat.before_in_eq_fetched 0 rfl (fun _ => rfl) (fun _ _ _ => rfl)
    (fun t => by rw [hafter]; unfold Dat.blockOf iblk33; rw [hA]; try rfl) t d).trans
    (by unfold Dat.fetched Dat.blockOf iblk33; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat33 (c : Dev nD) : Dat τ (Elt F) Unit ℕ (UD sig nD τ) ℕ (cfg33 a1) c where
  A w := V c (Pipeline.arrRef spec33 w)
  after w t := match w with
    | ⟨0, _⟩ => iblk33 V a1 c 0 t
    | ⟨1, _⟩ => O c t
  Φ _ := iprop(Pipeline.ΦD osem33 spec33 {main_v141} V c ∗ Pipeline.prefHeld pre33 c (fun _ => fullShare) a1.1)
  q _ := fullShare
  owed _ := 0

theorem A_eq33 (c : Dev nD) (w : Fin (cfg33 a1).W) : (dat33 V a1 O c).A w = V c (Pipeline.arrRef spec33 w) := by
  dsimp only [dat33]

theorem afterIn33 (c : Dev nD) (t : Fin (cfg33 a1).N) : (dat33 V a1 O c).after 0 t = iblk33 V a1 c 0 t := by
  dsimp only [dat33]; rfl

theorem afterOut33 (c : Dev nD) (t : Fin (cfg33 a1).N) :
    (dat33 V a1 O c).after 1 t = O c t := by
  dsimp only [dat33]; rfl

theorem beforeIn33 (c : Dev nD) (t : Fin (cfg33 a1).N) (d) : (dat33 V a1 O c).before 0 t d = iblk33 V a1 c 0 t :=
  beforeIn33_of V a1 (dat33 V a1 O c) (A_eq33 V a1 O c 0) (afterIn33 V a1 O c) t d

theorem Phi_eq33 (c : Dev nD) (t : Fin ((cfg33 a1).N + 1)) :
    (dat33 V a1 O c).Φ t
      = iprop(Pipeline.ΦD osem33 spec33 {main_v141} V c ∗ Pipeline.prefHeld pre33 c (fun _ => fullShare) a1.1) := by
  dsimp only [dat33]

theorem owed_eq33 (c : Dev nD) (t : Fin ((cfg33 a1).N + 1)) : (dat33 V a1 O c).owed t = 0 := by
  dsimp only [dat33]

/-! ## The invariant, conjunct by conjunct -/

/-- The invariant's first part opened: the body's scratch buffer whole at some contents and the other scoped
    buffers no window stages, the generator register, the own cells at zero, the far operand at its contents. -/
theorem PhiD_eq33 (c : Dev nD) :
    (Pipeline.ΦD osem33 spec33 {main_v141} V c : sProp 𝕄)
      = iprop(iprop(iprop((∃ f : Buf (Elt F) ((c : Thread nD τ).loc cc33_scratch0), ((c : Thread nD τ).loc cc33_scratch0) ↦{fullShare} f))
            ∗ Pipeline.scopedRestBut (Ix := Unit) (Name := ℕ) (U := UD sig nD τ) (Lvl := ℕ) (Val := Elt F) spec33 c [cc33_scratch0])
          ∗ (∃ r, prngReg c r)
          ∗ Pipeline.ownSems0 (Ix := Unit) (Name := ℕ) (U := UD sig nD τ) (Lvl := ℕ) (Val := Elt F) (τ := τ) osem33 c
          ∗ (((c : Thread nD τ).loc main_v141) ↦{fullShare} V c main_v141)) := by
  rw [Pipeline.ΦD_eq, scopedRest33_split, BI.bigSep_eq_bigSepL_of_eq [main_v141] (by decide) (by decide)]; rfl

/-- The one table, held whole. -/
theorem prefHeld_eq33 (c : Dev nD) :
    (Pipeline.prefHeld pre33 c (fun _ => fullShare) a1.1 : sProp 𝕄)
      = (((c : Thread nD τ).loc main_v143) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg33 (w : Fin (cfg33 a1).W) (t : Fin (cfg33 a1).N) := ((cfg33 a1).win w).stage ((cfg33 a1).slots t w)

/-- The body as the pipeline calls it at point t. -/
abbrev bodyProg33 (t : Fin (cfg33 a1).N) : Prog (TpuEff nD τ sig (Elt F) Λ₀ .tc) PUnit :=
  (defs₀ (F := F)) .tc (cfg33 a1).body ((cfg33 a1).bodyArgs t ((cfg33 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun33 : Prop :=
  ∀ (c : Dev nD) (t : Fin (cfg33 a1).N) (W) (K : PUnit → sProp 𝕄),
    iprop(owns (c : Thread nD τ) (stg33 a1 0 t) fullShare (iblk33 V a1 c 0 t)
        ∗ (∃ d, owns (c : Thread nD τ) (stg33 a1 1 t) fullShare d)
        ∗ (∃ f : Buf (Elt F) ((c : Thread nD τ).loc cc33_scratch0), ((c : Thread nD τ).loc cc33_scratch0) ↦{fullShare} f)
        ∗ Pipeline.ownSems0 (Ix := Unit) (Name := ℕ) (U := UD sig nD τ) (Lvl := ℕ) (Val := Elt F) (τ := τ) osem33 c
        ∗ (((c : Thread nD τ).loc main_v143) ↦{fullShare} a1.1 0)
        ∗ (((c : Thread nD τ).loc main_v141) ↦{fullShare} V c main_v141)
        ∗ owes (c : Thread nD τ) (0 : CellTallies nD τ sig Unit) W
        ∗ (iprop(owns (c : Thread nD τ) (stg33 a1 0 t) fullShare (iblk33 V a1 c 0 t)
            ∗ owns (c : Thread nD τ) (stg33 a1 1 t) fullShare (O c t)
            ∗ (∃ f : Buf (Elt F) ((c : Thread nD τ).loc cc33_scratch0), ((c : Thread nD τ).loc cc33_scratch0) ↦{fullShare} f)
            ∗ Pipeline.ownSems0 (Ix := Unit) (Name := ℕ) (U := UD sig nD τ) (Lvl := ℕ) (Val := Elt F) (τ := τ) osem33 c
            ∗ (((c : Thread nD τ).loc main_v143) ↦{fullShare} a1.1 0)
            ∗ (((c : Thread nD τ).loc main_v141) ↦{fullShare} V c main_v141)
            ∗ (∃ W', owes (c : Thread nD τ) (0 : CellTallies nD τ sig Unit) W')) -∗ K ⟨⟩))
      ⊢ wp frame (wpE (defs₀ (F := F)) Variants.none c none) Set.univ (bodyProg33 a1 t) K

/-- What the body is called with at point t, the windows one by one, -/
def bodyPre33 (c : Dev nD) (t : Fin (cfg33 a1).N) : sProp 𝕄 :=
  iprop((dat33 V a1 O c).Φ t.castSucc ∗ (dat33 V a1 O c).owesAt () t.castSucc
    ∗ (∃ d, owns (c : Thread nD τ) (stg33 a1 0 t) fullShare ((dat33 V a1 O c).before 0 t d))
    ∗ (∃ d, owns (c : Thread nD τ) (stg33 a1 1 t) fullShare ((dat33 V a1 O c).before 1 t d)))

/-- and what it returns. -/
def bodyPost33 (c : Dev nD) (t : Fin (cfg33 a1).N) : sProp 𝕄 :=
  iprop((dat33 V a1 O c).Φ t.succ ∗ (dat33 V a1 O c).owesAt () t.succ
    ∗ owns (c : Thread nD τ) (stg33 a1 0 t) fullShare ((dat33 V a1 O c).after 0 t)
    ∗ owns (c : Thread nD τ) (stg33 a1 1 t) fullShare ((dat33 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body33 (hrun : BodyRun33 V a1 O) (c : Dev nD) (t : Fin (cfg33 a1).N) :
    bodyPre33 V a1 O c t
      ⊢ wp frame (wpE (defs₀ (F := F)) Variants.none c none) Set.univ (bodyProg33 a1 t) (fun _ => bodyPost33 V a1 O c t) := by
  unfold bodyPre33 bodyPost33
  simp only [beforeIn33]
  rw [afterIn33, afterOut33, Phi_eq33, Phi_eq33, PhiD_eq33, prefHeld_eq33]
  unfold Dat.owesAt Pipeline.owesWithin
  rw [owed_eq33, owed_eq33]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation33 (hrun : BodyRun33 V a1 O) (c : Dev nD) :
    BodyObligation (dat33 (F := F) V a1 O c) (defs₀ (F := F)) Variants.none () Set.univ := fun t => by
  rw [bigSep_W33, bigSep_W33]
  exact sound_body33 V a1 O hrun c t

end Data

/-! ## The region's record -/

section Record

variable (Win : Dev nD → Valuation τ sig (Elt F))

variable (a1 : (pcfg33 (F := F)).Adm)
  (O : (c : Dev nD) → Fin (cfg33 a1).N → Vec F S8x64 .f32)

/-- The buffers at the region's exit: its arrays at what the write-backs leave, every other buffer as entered. -/
def Wout33 (c : Dev nD) : Valuation τ sig (Elt F) :=
  Pipeline.withArrays spec33 c (Win c) fun w => (dat33 (Vof Win) a1 O c).arrAt w (cfg33 a1).N

theorem Wout33_arr (c : Dev nD) (w : Fin (cfg33 a1).W) :
    Wout33 Win a1 O c (Proc.devRef .tc (Pipeline.arrRef spec33 w)) = (dat33 (Vof Win) a1 O c).arrAt w (cfg33 a1).N := by
  unfold Wout33; exact Pipeline.withArrays_arr spec33 winFacts33.arr_inj c _ _ w

theorem Wout33_of_ne (c : Dev nD) (b : Ref sig .tc) (hb : ∀ w, Pipeline.arrRef spec33 w ≠ b) :
    Wout33 Win a1 O c (Proc.devRef .tc b) = Win c (Proc.devRef .tc b) := by
  unfold Wout33; exact Pipeline.withArrays_of_ne spec33 c _ _ b hb

/-- ENTRY, the buffers' part. Every unscoped buffer at Win is: the region's arrays at the proof data's entry contents,
    the table whole at the admissible contents (which are Win's there), the far operand whole, and the others. -/
theorem entry33 (c : Dev nD) (ha1 : ∀ k, Vof Win c (pre33.ref k) = a1.1 k) :
    (StableHlo.held (c : Thread nD τ) (Pipeline.ucRefs τ sig) (Win c) : sProp 𝕄)
      ⊢ iprop((dat33 (Vof Win) a1 O c).arrays ((dat33 (Vof Win) a1 O c).arrAt · 0)
          ∗ Pipeline.prefHeld pre33 c (fun _ => fullShare) a1.1
          ∗ (bigSep ({main_v141} : Finset (Ref sig .tc)) fun b => (((c : Thread nD τ)).loc b) ↦{fullShare} Vof Win c b)
          ∗ bigSep (Pipeline.restRefsP sig pre33 spec33 \ {main_v141}) fun b => (((c : Thread nD τ)).loc b) ↦{fullShare} Vof Win c b) := by
  have hsplit := Pipeline.arrays_of_unscopedBufs (p := ()) (fun (_ : Unit) => pcfg33 (F := F)) (fun _ => a1)
    (fun _ c => dat33 (Vof Win) a1 O c) winFacts33 (launch33 (F := F)).arr_whole c
    ((dat33 (Vof Win) a1 O c).share_full fun _ => rfl) (Vof Win c) (fun w => A_eq33 (Vof Win) a1 O c w)
  rw [Pipeline.unscopedBufs_held,
    Pipeline.unscopedRest_split (Ix := Unit) (Name := ℕ) (U := UD sig nD τ) (Lvl := ℕ) preFacts33 c (Vof Win c),
    Pipeline.unscopedRestP_sdiff pre33 spec33 {main_v141} hx_sub33 c (Vof Win c),
    show (fun k => Vof Win c (pre33.ref k)) = a1.1 from funext ha1] at hsplit
  exact hsplit

/-- EXIT, the buffers' part: the same four put back, the arrays at what the write-backs leave, are every unscoped
    buffer at the exit valuation. -/
theorem exit33 (c : Dev nD) (ha1 : ∀ k, Vof Win c (pre33.ref k) = a1.1 k) :
    iprop((dat33 (Vof Win) a1 O c).arrays ((dat33 (Vof Win) a1 O c).arrAt · (cfg33 a1).N)
        ∗ Pipeline.prefHeld pre33 c (fun _ => fullShare) a1.1
        ∗ (bigSep ({main_v141} : Finset (Ref sig .tc)) fun b => (((c : Thread nD τ)).loc b) ↦{fullShare} Vof Win c b)
        ∗ bigSep (Pipeline.restRefsP sig pre33 spec33 \ {main_v141}) fun b => (((c : Thread nD τ)).loc b) ↦{fullShare} Vof Win c b)
      ⊢ (StableHlo.held (c : Thread nD τ) (Pipeline.ucRefs τ sig) (Wout33 Win a1 O c) : sProp 𝕄) := by
  have hjoin := Pipeline.unscopedBufs_of_arrays (p := ()) (fun (_ : Unit) => pcfg33 (F := F)) (fun _ => a1)
    (Ix := Unit) (Name := ℕ) (U := UD sig nD τ) (Lvl := ℕ)
    winFacts33 (launch33 (F := F)).arr_whole c (fun _ c => dat33 (Vof Win) a1 O c)
    ((dat33 (Vof Win) a1 O c).share_full fun _ => rfl)
    (Vof Win c) (Vof (Wout33 Win a1 O) c) ((dat33 (Vof Win) a1 O c).arrAt · (cfg33 a1).N)
    (fun w => (Wout33_arr Win a1 O c w).symm)
    (fun b hb => Wout33_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts33 c (Vof Win c),
    Pipeline.unscopedRestP_sdiff pre33 spec33 {main_v141} hx_sub33 c (Vof Win c),
    show (fun k => Vof Win c (pre33.ref k)) = a1.1 from funext ha1] at hjoin
  exact hjoin

end Record

section Seg

variable (Win : Dev nD → Valuation τ sig (Elt F))
  (adm : (p : Fin 49) → (pcfgs (F := F) p).Adm)
  (O : (c : Dev nD) → Fin (cfg33 (adm (33 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout33. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg33 (hd : ∀ c, pdats (33 : Fin 49) c = dat33 (Vof Win) (adm (33 : Fin 49)) O c)
    (ha1 : ∀ c k, Vof Win c (pre33.ref k) = (adm (33 : Fin 49)).1 k)
    (hbody : ∀ c, BodyObligation (dat33 (F := F) (Vof Win) (adm (33 : Fin 49)) O c) (defs₀ (F := F)) 𝒱₀ () Set.univ) :
    Pipeline.RegionSeg (pcfgs (F := F)) adm pdats () defs₀ 𝒱₀ L lv (33 : Fin 49) where
  win := (launch33 (F := F)).win.to₀
  block_pos := (launch33 (F := F)).block_pos
  stage_whole := (launch33 (F := F)).stage_whole
  K := Fin 8
  osem := osem33
  ho := ownSemFacts33
  hbody c := by rw [hd c]; exact (hbody c).loose
  hwaits := Pipeline.hwaits_of_owed_zero _ _ _ _ L lv (33 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout33 Win (adm (33 : Fin 49)) O c) ∗ R c)
  X c := iprop((∃ r, prngReg c r)
    ∗ Pipeline.ownSems0 (Ix := Unit) (Name := ℕ) (U := UD sig nD τ) (Lvl := ℕ) (Val := Elt F) (τ := τ) osem33 c
    ∗ (bigSep ({main_v141} : Finset (Ref sig .tc)) fun b => (((c : Thread nD τ)).loc b) ↦{fullShare} Vof Win c b))
  Y c := iprop((∃ r, prngReg c r)
    ∗ (bigSep ({main_v141} : Finset (Ref sig .tc)) fun b => (((c : Thread nD τ)).loc b) ↦{fullShare} Vof Win c b)
    ∗ Pipeline.prefHeld pre33 c (fun _ => fullShare) (adm (33 : Fin 49)).1)
  Z c := bigSep (Pipeline.restRefsP sig pre33 spec33 \ {main_v141}) fun b => (((c : Thread nD τ)).loc b) ↦{fullShare} Vof Win c b
  hentry c := by
    rw [hd c]
    iintro ⟨⟨Hub, Hp, HO⟩, Hos, -⟩
    ihave H := (entry33 Win (adm (33 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq33, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq33, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit33 Win (adm (33 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg33 (F := F)).Adm)

/-- The output block at point t: the gathered rows (of the far operand's contents under V, chosen by the table's
    words at that point) times the input block. -/
def outBlk33 (c : Dev nD) (t : Fin (cfg33 a1).N) : Vec F S8x64 .f32 :=
  gatherOut (gatherG (a1.1 0) (V c main_v141) (grid33.coords t)) (iblk33 V a1 c 0 t)

theorem outBlk_eq33 (c : Dev nD) (t : Fin (cfg33 a1).N) :
    outBlk33 V a1 c t = gatherOut (gatherG (a1.1 0) (V c main_v141) (grid33.coords t)) (iblk33 V a1 c 0 t) := rfl

/-- The proof data with the output block named: after the body at point t the output window's buffer holds it. -/
theorem afterOutBlk33 (c : Dev nD) (t : Fin (cfg33 a1).N) :
    (dat33 V a1 (outBlk33 V a1) c).after 1 t
      = gatherOut (gatherG (a1.1 0) (V c main_v141) (grid33.coords t)) (iblk33 V a1 c 0 t) :=
  afterOut33 V a1 (outBlk33 V a1) c t

/-- The own cells at zero are the semaphore array's eight entries at zero, in order. -/
theorem ownSems_eq33 (c : Dev nD) :
    (Pipeline.ownSems0 (Ix := Unit) (Name := ℕ) (U := UD sig nD τ) (Lvl := ℕ) (Val := Elt F) (τ := τ) osem33 c : sProp 𝕄)
      = gsems0 c cc33_scratch1 := by
  rw [Pipeline.ownSems0_eq_of_list c osem33 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq33 (t : Fin (cfg33 a1).N) : ∃ h3 h4, bodyProg33 (F := F) a1 t
    = cc33__gather_mul_kernel (grid33.coords t) (Memref.whole main_v143) (Memref.isWhole_whole _) (Memref.whole main_v141) (Memref.isWhole_whole _)
        (stg33 a1 0 t) h3 (stg33 a1 1 t) h4 (Memref.whole cc33_scratch0) (Memref.isWhole_whole _) cc33_scratch1 := ⟨_, _, rfl⟩

end Out

/-! ## The body's run, joined to the proof data -/

section Body

variable (V : (c : Dev nD) → (b : Ref sig .tc) → Buf (Elt F) ((c : Thread nD τ).loc b))
  (a1 : (pcfg33 (F := F)).Adm)

/-- The scratch buffer whole at some contents, as a memref owned at some contents. -/
theorem scratchOwns_eq33 (c : Dev nD) :
    (iprop(∃ d, owns (c : Thread nD τ) (Memref.whole cc33_scratch0) fullShare d) : sProp 𝕄)
      = iprop(∃ f : Buf (Elt F) ((c : Thread nD τ).loc cc33_scratch0), ((c : Thread nD τ).loc cc33_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun33 (hlt : ∀ y, BitVec.toNat ((a1.1 0) y) < 100000) : BodyRun33 V a1 (outBlk33 V a1) := by
  intro c t W K
  obtain ⟨h3, h4, hprog⟩ := bodyProg_eq33 (F := F) a1 t
  rw [hprog, ownSems_eq33, ← scratchOwns_eq33 (F := F) c]
  have hrun := gather_kernel_run_33 (F := F) c (grid33.coords t) (Memref.whole main_v143) (Memref.isWhole_whole _) (Memref.whole main_v141) (Memref.isWhole_whole _)
    (stg33 a1 0 t) h3 (stg33 a1 1 t) h4 (Memref.whole cc33_scratch0) (Memref.isWhole_whole _) cc33_scratch1 fullShare fullShare
    (a1.1 0) (V c main_v141) (iblk33 V a1 c 0 t) (fun y => hlt y) W K
  simp only [Memref.view_whole, View.read_whole] at hrun
  unfold outBlk33
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut33 (hlt : ∀ y, BitVec.toNat ((a1.1 0) y) < 100000) (c : Dev nD) :
    BodyObligation (dat33 (F := F) V a1 (outBlk33 V a1) c) (defs₀ (F := F)) Variants.none () Set.univ :=
  body_obligation33 V a1 (outBlk33 V a1) (bodyRun33 V a1 hlt) c

end Body

end Cert.KernelIdeal.Hand

end
-- ==== Proof.KI.Regions_34_41.lean ====
/-
  Gather regions 34 to 41 of the host program, one after the other: for each, the proof data, the body obligation and the record of the region in the launch,
  exactly as for region 1 (whose module says what each part is).
-/
import proofs.«421643_j28415503630349_2_alg».proof.Proof.KI.Common
import proofs.«421643_j28415503630349_2_alg».proof.Proof.KI.BodyEq
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

/-! # Region 34 -/

/-! ## The body's own transfer cells -/

/-- The eight cells of the body's semaphore array, in order. -/
abbrev osem34 : Fin 8 → SemLoc sig := fun j => SemLoc.dma (cc34_scratch1.ix (fun | ⟨0, _⟩ => j))

/-- They are scoped, pairwise distinct, and none is a staging cell of a window. -/
theorem ownSemFacts34 : Pipeline.OwnSemFacts spec34 osem34 := by decide

/-- The far operand is an unscoped buffer that is neither a window's array nor a table. -/
theorem hx_sub34 : ({main_v141} : Finset (Ref sig .tc)) ⊆ Pipeline.restRefsP sig pre34 spec34 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg34 (F := F)).Adm)
  (O : (c : Dev nD) → Fin (cfg34 a1).N → Vec F S8x64 .f32)

/-! ## The windows' blocks -/

/-- Window w's block at point t, read off its array under V. -/
def iblk34 (c : Dev nD) (w : Fin (cfg34 a1).W) (t : Fin (cfg34 a1).N) :
    (((cfg34 a1).win w).xblock ((cfg34 a1).grid.coords t)).Idx → Elt F ((cfg34 a1).win w).elt :=
  (((cfg34 a1).win w).blk t).view.read (Elt F) (V c (Pipeline.arrRef spec34 w))

/-- The input window's current staging buffer holds its block at every point, fetched there or not, for any proof
    data whose array is V's and whose body leaves the block in place: unfetched, the block index has not moved. -/
theorem beforeIn34_of {c : Dev nD} (dat : Dat τ (Elt F) Unit ℕ (UD sig nD τ) ℕ (cfg34 a1) c)
    (hA : dat.A 0 = V c (Pipeline.arrRef spec34 0))
    (hafter : ∀ t, dat.after 0 t = iblk34 V a1 c 0 t) (t : Fin (cfg34 a1).N) (d) : dat.before 0 t d = iblk34 V a1 c 0 t :=
  (dat.before_in_eq_fetched 0 rfl (fun _ => rfl) (fun _ _ _ => rfl)
    (fun t => by rw [hafter]; unfold Dat.blockOf iblk34; rw [hA]; try rfl) t d).trans
    (by unfold Dat.fetched Dat.blockOf iblk34; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat34 (c : Dev nD) : Dat τ (Elt F) Unit ℕ (UD sig nD τ) ℕ (cfg34 a1) c where
  A w := V c (Pipeline.arrRef spec34 w)
  after w t := match w with
    | ⟨0, _⟩ => iblk34 V a1 c 0 t
    | ⟨1, _⟩ => O c t
  Φ _ := iprop(Pipeline.ΦD osem34 spec34 {main_v141} V c ∗ Pipeline.prefHeld pre34 c (fun _ => fullShare) a1.1)
  q _ := fullShare
  owed _ := 0

theorem A_eq34 (c : Dev nD) (w : Fin (cfg34 a1).W) : (dat34 V a1 O c).A w = V c (Pipeline.arrRef spec34 w) := by
  dsimp only [dat34]

theorem afterIn34 (c : Dev nD) (t : Fin (cfg34 a1).N) : (dat34 V a1 O c).after 0 t = iblk34 V a1 c 0 t := by
  dsimp only [dat34]; rfl

theorem afterOut34 (c : Dev nD) (t : Fin (cfg34 a1).N) :
    (dat34 V a1 O c).after 1 t = O c t := by
  dsimp only [dat34]; rfl

theorem beforeIn34 (c : Dev nD) (t : Fin (cfg34 a1).N) (d) : (dat34 V a1 O c).before 0 t d = iblk34 V a1 c 0 t :=
  beforeIn34_of V a1 (dat34 V a1 O c) (A_eq34 V a1 O c 0) (afterIn34 V a1 O c) t d

theorem Phi_eq34 (c : Dev nD) (t : Fin ((cfg34 a1).N + 1)) :
    (dat34 V a1 O c).Φ t
      = iprop(Pipeline.ΦD osem34 spec34 {main_v141} V c ∗ Pipeline.prefHeld pre34 c (fun _ => fullShare) a1.1) := by
  dsimp only [dat34]

theorem owed_eq34 (c : Dev nD) (t : Fin ((cfg34 a1).N + 1)) : (dat34 V a1 O c).owed t = 0 := by
  dsimp only [dat34]

/-! ## The invariant, conjunct by conjunct -/

/-- The invariant's first part opened: the body's scratch buffer whole at some contents and the other scoped
    buffers no window stages, the generator register, the own cells at zero, the far operand at its contents. -/
theorem PhiD_eq34 (c : Dev nD) :
    (Pipeline.ΦD osem34 spec34 {main_v141} V c : sProp 𝕄)
      = iprop(iprop(iprop((∃ f : Buf (Elt F) ((c : Thread nD τ).loc cc34_scratch0), ((c : Thread nD τ).loc cc34_scratch0) ↦{fullShare} f))
            ∗ Pipeline.scopedRestBut (Ix := Unit) (Name := ℕ) (U := UD sig nD τ) (Lvl := ℕ) (Val := Elt F) spec34 c [cc34_scratch0])
          ∗ (∃ r, prngReg c r)
          ∗ Pipeline.ownSems0 (Ix := Unit) (Name := ℕ) (U := UD sig nD τ) (Lvl := ℕ) (Val := Elt F) (τ := τ) osem34 c
          ∗ (((c : Thread nD τ).loc main_v141) ↦{fullShare} V c main_v141)) := by
  rw [Pipeline.ΦD_eq, scopedRest34_split, BI.bigSep_eq_bigSepL_of_eq [main_v141] (by decide) (by decide)]; rfl

/-- The one table, held whole. -/
theorem prefHeld_eq34 (c : Dev nD) :
    (Pipeline.prefHeld pre34 c (fun _ => fullShare) a1.1 : sProp 𝕄)
      = (((c : Thread nD τ).loc main_v147) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg34 (w : Fin (cfg34 a1).W) (t : Fin (cfg34 a1).N) := ((cfg34 a1).win w).stage ((cfg34 a1).slots t w)

/-- The body as the pipeline calls it at point t. -/
abbrev bodyProg34 (t : Fin (cfg34 a1).N) : Prog (TpuEff nD τ sig (Elt F) Λ₀ .tc) PUnit :=
  (defs₀ (F := F)) .tc (cfg34 a1).body ((cfg34 a1).bodyArgs t ((cfg34 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun34 : Prop :=
  ∀ (c : Dev nD) (t : Fin (cfg34 a1).N) (W) (K : PUnit → sProp 𝕄),
    iprop(owns (c : Thread nD τ) (stg34 a1 0 t) fullShare (iblk34 V a1 c 0 t)
        ∗ (∃ d, owns (c : Thread nD τ) (stg34 a1 1 t) fullShare d)
        ∗ (∃ f : Buf (Elt F) ((c : Thread nD τ).loc cc34_scratch0), ((c : Thread nD τ).loc cc34_scratch0) ↦{fullShare} f)
        ∗ Pipeline.ownSems0 (Ix := Unit) (Name := ℕ) (U := UD sig nD τ) (Lvl := ℕ) (Val := Elt F) (τ := τ) osem34 c
        ∗ (((c : Thread nD τ).loc main_v147) ↦{fullShare} a1.1 0)
        ∗ (((c : Thread nD τ).loc main_v141) ↦{fullShare} V c main_v141)
        ∗ owes (c : Thread nD τ) (0 : CellTallies nD τ sig Unit) W
        ∗ (iprop(owns (c : Thread nD τ) (stg34 a1 0 t) fullShare (iblk34 V a1 c 0 t)
            ∗ owns (c : Thread nD τ) (stg34 a1 1 t) fullShare (O c t)
            ∗ (∃ f : Buf (Elt F) ((c : Thread nD τ).loc cc34_scratch0), ((c : Thread nD τ).loc cc34_scratch0) ↦{fullShare} f)
            ∗ Pipeline.ownSems0 (Ix := Unit) (Name := ℕ) (U := UD sig nD τ) (Lvl := ℕ) (Val := Elt F) (τ := τ) osem34 c
            ∗ (((c : Thread nD τ).loc main_v147) ↦{fullShare} a1.1 0)
            ∗ (((c : Thread nD τ).loc main_v141) ↦{fullShare} V c main_v141)
            ∗ (∃ W', owes (c : Thread nD τ) (0 : CellTallies nD τ sig Unit) W')) -∗ K ⟨⟩))
      ⊢ wp frame (wpE (defs₀ (F := F)) Variants.none c none) Set.univ (bodyProg34 a1 t) K

/-- What the body is called with at point t, the windows one by one, -/
def bodyPre34 (c : Dev nD) (t : Fin (cfg34 a1).N) : sProp 𝕄 :=
  iprop((dat34 V a1 O c).Φ t.castSucc ∗ (dat34 V a1 O c).owesAt () t.castSucc
    ∗ (∃ d, owns (c : Thread nD τ) (stg34 a1 0 t) fullShare ((dat34 V a1 O c).before 0 t d))
    ∗ (∃ d, owns (c : Thread nD τ) (stg34 a1 1 t) fullShare ((dat34 V a1 O c).before 1 t d)))

/-- and what it returns. -/
def bodyPost34 (c : Dev nD) (t : Fin (cfg34 a1).N) : sProp 𝕄 :=
  iprop((dat34 V a1 O c).Φ t.succ ∗ (dat34 V a1 O c).owesAt () t.succ
    ∗ owns (c : Thread nD τ) (stg34 a1 0 t) fullShare ((dat34 V a1 O c).after 0 t)
    ∗ owns (c : Thread nD τ) (stg34 a1 1 t) fullShare ((dat34 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body34 (hrun : BodyRun34 V a1 O) (c : Dev nD) (t : Fin (cfg34 a1).N) :
    bodyPre34 V a1 O c t
      ⊢ wp frame (wpE (defs₀ (F := F)) Variants.none c none) Set.univ (bodyProg34 a1 t) (fun _ => bodyPost34 V a1 O c t) := by
  unfold bodyPre34 bodyPost34
  simp only [beforeIn34]
  rw [afterIn34, afterOut34, Phi_eq34, Phi_eq34, PhiD_eq34, prefHeld_eq34]
  unfold Dat.owesAt Pipeline.owesWithin
  rw [owed_eq34, owed_eq34]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation34 (hrun : BodyRun34 V a1 O) (c : Dev nD) :
    BodyObligation (dat34 (F := F) V a1 O c) (defs₀ (F := F)) Variants.none () Set.univ := fun t => by
  rw [bigSep_W34, bigSep_W34]
  exact sound_body34 V a1 O hrun c t

end Data

/-! ## The region's record -/

section Record

variable (Win : Dev nD → Valuation τ sig (Elt F))

variable (a1 : (pcfg34 (F := F)).Adm)
  (O : (c : Dev nD) → Fin (cfg34 a1).N → Vec F S8x64 .f32)

/-- The buffers at the region's exit: its arrays at what the write-backs leave, every other buffer as entered. -/
def Wout34 (c : Dev nD) : Valuation τ sig (Elt F) :=
  Pipeline.withArrays spec34 c (Win c) fun w => (dat34 (Vof Win) a1 O c).arrAt w (cfg34 a1).N

theorem Wout34_arr (c : Dev nD) (w : Fin (cfg34 a1).W) :
    Wout34 Win a1 O c (Proc.devRef .tc (Pipeline.arrRef spec34 w)) = (dat34 (Vof Win) a1 O c).arrAt w (cfg34 a1).N := by
  unfold Wout34; exact Pipeline.withArrays_arr spec34 winFacts34.arr_inj c _ _ w

theorem Wout34_of_ne (c : Dev nD) (b : Ref sig .tc) (hb : ∀ w, Pipeline.arrRef spec34 w ≠ b) :
    Wout34 Win a1 O c (Proc.devRef .tc b) = Win c (Proc.devRef .tc b) := by
  unfold Wout34; exact Pipeline.withArrays_of_ne spec34 c _ _ b hb

/-- ENTRY, the buffers' part. Every unscoped buffer at Win is: the region's arrays at the proof data's entry contents,
    the table whole at the admissible contents (which are Win's there), the far operand whole, and the others. -/
theorem entry34 (c : Dev nD) (ha1 : ∀ k, Vof Win c (pre34.ref k) = a1.1 k) :
    (StableHlo.held (c : Thread nD τ) (Pipeline.ucRefs τ sig) (Win c) : sProp 𝕄)
      ⊢ iprop((dat34 (Vof Win) a1 O c).arrays ((dat34 (Vof Win) a1 O c).arrAt · 0)
          ∗ Pipeline.prefHeld pre34 c (fun _ => fullShare) a1.1
          ∗ (bigSep ({main_v141} : Finset (Ref sig .tc)) fun b => (((c : Thread nD τ)).loc b) ↦{fullShare} Vof Win c b)
          ∗ bigSep (Pipeline.restRefsP sig pre34 spec34 \ {main_v141}) fun b => (((c : Thread nD τ)).loc b) ↦{fullShare} Vof Win c b) := by
  have hsplit := Pipeline.arrays_of_unscopedBufs (p := ()) (fun (_ : Unit) => pcfg34 (F := F)) (fun _ => a1)
    (fun _ c => dat34 (Vof Win) a1 O c) winFacts34 (launch34 (F := F)).arr_whole c
    ((dat34 (Vof Win) a1 O c).share_full fun _ => rfl) (Vof Win c) (fun w => A_eq34 (Vof Win) a1 O c w)
  rw [Pipeline.unscopedBufs_held,
    Pipeline.unscopedRest_split (Ix := Unit) (Name := ℕ) (U := UD sig nD τ) (Lvl := ℕ) preFacts34 c (Vof Win c),
    Pipeline.unscopedRestP_sdiff pre34 spec34 {main_v141} hx_sub34 c (Vof Win c),
    show (fun k => Vof Win c (pre34.ref k)) = a1.1 from funext ha1] at hsplit
  exact hsplit

/-- EXIT, the buffers' part: the same four put back, the arrays at what the write-backs leave, are every unscoped
    buffer at the exit valuation. -/
theorem exit34 (c : Dev nD) (ha1 : ∀ k, Vof Win c (pre34.ref k) = a1.1 k) :
    iprop((dat34 (Vof Win) a1 O c).arrays ((dat34 (Vof Win) a1 O c).arrAt · (cfg34 a1).N)
        ∗ Pipeline.prefHeld pre34 c (fun _ => fullShare) a1.1
        ∗ (bigSep ({main_v141} : Finset (Ref sig .tc)) fun b => (((c : Thread nD τ)).loc b) ↦{fullShare} Vof Win c b)
        ∗ bigSep (Pipeline.restRefsP sig pre34 spec34 \ {main_v141}) fun b => (((c : Thread nD τ)).loc b) ↦{fullShare} Vof Win c b)
      ⊢ (StableHlo.held (c : Thread nD τ) (Pipeline.ucRefs τ sig) (Wout34 Win a1 O c) : sProp 𝕄) := by
  have hjoin := Pipeline.unscopedBufs_of_arrays (p := ()) (fun (_ : Unit) => pcfg34 (F := F)) (fun _ => a1)
    (Ix := Unit) (Name := ℕ) (U := UD sig nD τ) (Lvl := ℕ)
    winFacts34 (launch34 (F := F)).arr_whole c (fun _ c => dat34 (Vof Win) a1 O c)
    ((dat34 (Vof Win) a1 O c).share_full fun _ => rfl)
    (Vof Win c) (Vof (Wout34 Win a1 O) c) ((dat34 (Vof Win) a1 O c).arrAt · (cfg34 a1).N)
    (fun w => (Wout34_arr Win a1 O c w).symm)
    (fun b hb => Wout34_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts34 c (Vof Win c),
    Pipeline.unscopedRestP_sdiff pre34 spec34 {main_v141} hx_sub34 c (Vof Win c),
    show (fun k => Vof Win c (pre34.ref k)) = a1.1 from funext ha1] at hjoin
  exact hjoin

end Record

section Seg

variable (Win : Dev nD → Valuation τ sig (Elt F))
  (adm : (p : Fin 49) → (pcfgs (F := F) p).Adm)
  (O : (c : Dev nD) → Fin (cfg34 (adm (34 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout34. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg34 (hd : ∀ c, pdats (34 : Fin 49) c = dat34 (Vof Win) (adm (34 : Fin 49)) O c)
    (ha1 : ∀ c k, Vof Win c (pre34.ref k) = (adm (34 : Fin 49)).1 k)
    (hbody : ∀ c, BodyObligation (dat34 (F := F) (Vof Win) (adm (34 : Fin 49)) O c) (defs₀ (F := F)) 𝒱₀ () Set.univ) :
    Pipeline.RegionSeg (pcfgs (F := F)) adm pdats () defs₀ 𝒱₀ L lv (34 : Fin 49) where
  win := (launch34 (F := F)).win.to₀
  block_pos := (launch34 (F := F)).block_pos
  stage_whole := (launch34 (F := F)).stage_whole
  K := Fin 8
  osem := osem34
  ho := ownSemFacts34
  hbody c := by rw [hd c]; exact (hbody c).loose
  hwaits := Pipeline.hwaits_of_owed_zero _ _ _ _ L lv (34 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout34 Win (adm (34 : Fin 49)) O c) ∗ R c)
  X c := iprop((∃ r, prngReg c r)
    ∗ Pipeline.ownSems0 (Ix := Unit) (Name := ℕ) (U := UD sig nD τ) (Lvl := ℕ) (Val := Elt F) (τ := τ) osem34 c
    ∗ (bigSep ({main_v141} : Finset (Ref sig .tc)) fun b => (((c : Thread nD τ)).loc b) ↦{fullShare} Vof Win c b))
  Y c := iprop((∃ r, prngReg c r)
    ∗ (bigSep ({main_v141} : Finset (Ref sig .tc)) fun b => (((c : Thread nD τ)).loc b) ↦{fullShare} Vof Win c b)
    ∗ Pipeline.prefHeld pre34 c (fun _ => fullShare) (adm (34 : Fin 49)).1)
  Z c := bigSep (Pipeline.restRefsP sig pre34 spec34 \ {main_v141}) fun b => (((c : Thread nD τ)).loc b) ↦{fullShare} Vof Win c b
  hentry c := by
    rw [hd c]
    iintro ⟨⟨Hub, Hp, HO⟩, Hos, -⟩
    ihave H := (entry34 Win (adm (34 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq34, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq34, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit34 Win (adm (34 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg34 (F := F)).Adm)

/-- The output block at point t: the gathered rows (of the far operand's contents under V, chosen by the table's
    words at that point) times the input block. -/
def outBlk34 (c : Dev nD) (t : Fin (cfg34 a1).N) : Vec F S8x64 .f32 :=
  gatherOut (gatherG (a1.1 0) (V c main_v141) (grid34.coords t)) (iblk34 V a1 c 0 t)

theorem outBlk_eq34 (c : Dev nD) (t : Fin (cfg34 a1).N) :
    outBlk34 V a1 c t = gatherOut (gatherG (a1.1 0) (V c main_v141) (grid34.coords t)) (iblk34 V a1 c 0 t) := rfl

/-- The proof data with the output block named: after the body at point t the output window's buffer holds it. -/
theorem afterOutBlk34 (c : Dev nD) (t : Fin (cfg34 a1).N) :
    (dat34 V a1 (outBlk34 V a1) c).after 1 t
      = gatherOut (gatherG (a1.1 0) (V c main_v141) (grid34.coords t)) (iblk34 V a1 c 0 t) :=
  afterOut34 V a1 (outBlk34 V a1) c t

/-- The own cells at zero are the semaphore array's eight entries at zero, in order. -/
theorem ownSems_eq34 (c : Dev nD) :
    (Pipeline.ownSems0 (Ix := Unit) (Name := ℕ) (U := UD sig nD τ) (Lvl := ℕ) (Val := Elt F) (τ := τ) osem34 c : sProp 𝕄)
      = gsems0 c cc34_scratch1 := by
  rw [Pipeline.ownSems0_eq_of_list c osem34 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq34 (t : Fin (cfg34 a1).N) : ∃ h3 h4, bodyProg34 (F := F) a1 t
    = cc34__gather_mul_kernel (grid34.coords t) (Memref.whole main_v147) (Memref.isWhole_whole _) (Memref.whole main_v141) (Memref.isWhole_whole _)
        (stg34 a1 0 t) h3 (stg34 a1 1 t) h4 (Memref.whole cc34_scratch0) (Memref.isWhole_whole _) cc34_scratch1 := ⟨_, _, rfl⟩

end Out

/-! ## The body's run, joined to the proof data -/

section Body

variable (V : (c : Dev nD) → (b : Ref sig .tc) → Buf (Elt F) ((c : Thread nD τ).loc b))
  (a1 : (pcfg34 (F := F)).Adm)

/-- The scratch buffer whole at some contents, as a memref owned at some contents. -/
theorem scratchOwns_eq34 (c : Dev nD) :
    (iprop(∃ d, owns (c : Thread nD τ) (Memref.whole cc34_scratch0) fullShare d) : sProp 𝕄)
      = iprop(∃ f : Buf (Elt F) ((c : Thread nD τ).loc cc34_scratch0), ((c : Thread nD τ).loc cc34_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun34 (hlt : ∀ y, BitVec.toNat ((a1.1 0) y) < 100000) : BodyRun34 V a1 (outBlk34 V a1) := by
  intro c t W K
  obtain ⟨h3, h4, hprog⟩ := bodyProg_eq34 (F := F) a1 t
  rw [hprog, ownSems_eq34, ← scratchOwns_eq34 (F := F) c]
  have hrun := gather_kernel_run_34 (F := F) c (grid34.coords t) (Memref.whole main_v147) (Memref.isWhole_whole _) (Memref.whole main_v141) (Memref.isWhole_whole _)
    (stg34 a1 0 t) h3 (stg34 a1 1 t) h4 (Memref.whole cc34_scratch0) (Memref.isWhole_whole _) cc34_scratch1 fullShare fullShare
    (a1.1 0) (V c main_v141) (iblk34 V a1 c 0 t) (fun y => hlt y) W K
  simp only [Memref.view_whole, View.read_whole] at hrun
  unfold outBlk34
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut34 (hlt : ∀ y, BitVec.toNat ((a1.1 0) y) < 100000) (c : Dev nD) :
    BodyObligation (dat34 (F := F) V a1 (outBlk34 V a1) c) (defs₀ (F := F)) Variants.none () Set.univ :=
  body_obligation34 V a1 (outBlk34 V a1) (bodyRun34 V a1 hlt) c

end Body

/-! # Region 35 -/

/-! ## The body's own transfer cells -/

/-- The eight cells of the body's semaphore array, in order. -/
abbrev osem35 : Fin 8 → SemLoc sig := fun j => SemLoc.dma (cc35_scratch1.ix (fun | ⟨0, _⟩ => j))

/-- They are scoped, pairwise distinct, and none is a staging cell of a window. -/
theorem ownSemFacts35 : Pipeline.OwnSemFacts spec35 osem35 := by decide

/-- The far operand is an unscoped buffer that is neither a window's array nor a table. -/
theorem hx_sub35 : ({main_v141} : Finset (Ref sig .tc)) ⊆ Pipeline.restRefsP sig pre35 spec35 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg35 (F := F)).Adm)
  (O : (c : Dev nD) → Fin (cfg35 a1).N → Vec F S8x64 .f32)

/-! ## The windows' blocks -/

/-- Window w's block at point t, read off its array under V. -/
def iblk35 (c : Dev nD) (w : Fin (cfg35 a1).W) (t : Fin (cfg35 a1).N) :
    (((cfg35 a1).win w).xblock ((cfg35 a1).grid.coords t)).Idx → Elt F ((cfg35 a1).win w).elt :=
  (((cfg35 a1).win w).blk t).view.read (Elt F) (V c (Pipeline.arrRef spec35 w))

/-- The input window's current staging buffer holds its block at every point, fetched there or not, for any proof
    data whose array is V's and whose body leaves the block in place: unfetched, the block index has not moved. -/
theorem beforeIn35_of {c : Dev nD} (dat : Dat τ (Elt F) Unit ℕ (UD sig nD τ) ℕ (cfg35 a1) c)
    (hA : dat.A 0 = V c (Pipeline.arrRef spec35 0))
    (hafter : ∀ t, dat.after 0 t = iblk35 V a1 c 0 t) (t : Fin (cfg35 a1).N) (d) : dat.before 0 t d = iblk35 V a1 c 0 t :=
  (dat.before_in_eq_fetched 0 rfl (fun _ => rfl) (fun _ _ _ => rfl)
    (fun t => by rw [hafter]; unfold Dat.blockOf iblk35; rw [hA]; try rfl) t d).trans
    (by unfold Dat.fetched Dat.blockOf iblk35; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat35 (c : Dev nD) : Dat τ (Elt F) Unit ℕ (UD sig nD τ) ℕ (cfg35 a1) c where
  A w := V c (Pipeline.arrRef spec35 w)
  after w t := match w with
    | ⟨0, _⟩ => iblk35 V a1 c 0 t
    | ⟨1, _⟩ => O c t
  Φ _ := iprop(Pipeline.ΦD osem35 spec35 {main_v141} V c ∗ Pipeline.prefHeld pre35 c (fun _ => fullShare) a1.1)
  q _ := fullShare
  owed _ := 0

theorem A_eq35 (c : Dev nD) (w : Fin (cfg35 a1).W) : (dat35 V a1 O c).A w = V c (Pipeline.arrRef spec35 w) := by
  dsimp only [dat35]

theorem afterIn35 (c : Dev nD) (t : Fin (cfg35 a1).N) : (dat35 V a1 O c).after 0 t = iblk35 V a1 c 0 t := by
  dsimp only [dat35]; rfl

theorem afterOut35 (c : Dev nD) (t : Fin (cfg35 a1).N) :
    (dat35 V a1 O c).after 1 t = O c t := by
  dsimp only [dat35]; rfl

theorem beforeIn35 (c : Dev nD) (t : Fin (cfg35 a1).N) (d) : (dat35 V a1 O c).before 0 t d = iblk35 V a1 c 0 t :=
  beforeIn35_of V a1 (dat35 V a1 O c) (A_eq35 V a1 O c 0) (afterIn35 V a1 O c) t d

theorem Phi_eq35 (c : Dev nD) (t : Fin ((cfg35 a1).N + 1)) :
    (dat35 V a1 O c).Φ t
      = iprop(Pipeline.ΦD osem35 spec35 {main_v141} V c ∗ Pipeline.prefHeld pre35 c (fun _ => fullShare) a1.1) := by
  dsimp only [dat35]

theorem owed_eq35 (c : Dev nD) (t : Fin ((cfg35 a1).N + 1)) : (dat35 V a1 O c).owed t = 0 := by
  dsimp only [dat35]

/-! ## The invariant, conjunct by conjunct -/

/-- The invariant's first part opened: the body's scratch buffer whole at some contents and the other scoped
    buffers no window stages, the generator register, the own cells at zero, the far operand at its contents. -/
theorem PhiD_eq35 (c : Dev nD) :
    (Pipeline.ΦD osem35 spec35 {main_v141} V c : sProp 𝕄)
      = iprop(iprop(iprop((∃ f : Buf (Elt F) ((c : Thread nD τ).loc cc35_scratch0), ((c : Thread nD τ).loc cc35_scratch0) ↦{fullShare} f))
            ∗ Pipeline.scopedRestBut (Ix := Unit) (Name := ℕ) (U := UD sig nD τ) (Lvl := ℕ) (Val := Elt F) spec35 c [cc35_scratch0])
          ∗ (∃ r, prngReg c r)
          ∗ Pipeline.ownSems0 (Ix := Unit) (Name := ℕ) (U := UD sig nD τ) (Lvl := ℕ) (Val := Elt F) (τ := τ) osem35 c
          ∗ (((c : Thread nD τ).loc main_v141) ↦{fullShare} V c main_v141)) := by
  rw [Pipeline.ΦD_eq, scopedRest35_split, BI.bigSep_eq_bigSepL_of_eq [main_v141] (by decide) (by decide)]; rfl

/-- The one table, held whole. -/
theorem prefHeld_eq35 (c : Dev nD) :
    (Pipeline.prefHeld pre35 c (fun _ => fullShare) a1.1 : sProp 𝕄)
      = (((c : Thread nD τ).loc main_v151) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg35 (w : Fin (cfg35 a1).W) (t : Fin (cfg35 a1).N) := ((cfg35 a1).win w).stage ((cfg35 a1).slots t w)

/-- The body as the pipeline calls it at point t. -/
abbrev bodyProg35 (t : Fin (cfg35 a1).N) : Prog (TpuEff nD τ sig (Elt F) Λ₀ .tc) PUnit :=
  (defs₀ (F := F)) .tc (cfg35 a1).body ((cfg35 a1).bodyArgs t ((cfg35 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun35 : Prop :=
  ∀ (c : Dev nD) (t : Fin (cfg35 a1).N) (W) (K : PUnit → sProp 𝕄),
    iprop(owns (c : Thread nD τ) (stg35 a1 0 t) fullShare (iblk35 V a1 c 0 t)
        ∗ (∃ d, owns (c : Thread nD τ) (stg35 a1 1 t) fullShare d)
        ∗ (∃ f : Buf (Elt F) ((c : Thread nD τ).loc cc35_scratch0), ((c : Thread nD τ).loc cc35_scratch0) ↦{fullShare} f)
        ∗ Pipeline.ownSems0 (Ix := Unit) (Name := ℕ) (U := UD sig nD τ) (Lvl := ℕ) (Val := Elt F) (τ := τ) osem35 c
        ∗ (((c : Thread nD τ).loc main_v151) ↦{fullShare} a1.1 0)
        ∗ (((c : Thread nD τ).loc main_v141) ↦{fullShare} V c main_v141)
        ∗ owes (c : Thread nD τ) (0 : CellTallies nD τ sig Unit) W
        ∗ (iprop(owns (c : Thread nD τ) (stg35 a1 0 t) fullShare (iblk35 V a1 c 0 t)
            ∗ owns (c : Thread nD τ) (stg35 a1 1 t) fullShare (O c t)
            ∗ (∃ f : Buf (Elt F) ((c : Thread nD τ).loc cc35_scratch0), ((c : Thread nD τ).loc cc35_scratch0) ↦{fullShare} f)
            ∗ Pipeline.ownSems0 (Ix := Unit) (Name := ℕ) (U := UD sig nD τ) (Lvl := ℕ) (Val := Elt F) (τ := τ) osem35 c
            ∗ (((c : Thread nD τ).loc main_v151) ↦{fullShare} a1.1 0)
            ∗ (((c : Thread nD τ).loc main_v141) ↦{fullShare} V c main_v141)
            ∗ (∃ W', owes (c : Thread nD τ) (0 : CellTallies nD τ sig Unit) W')) -∗ K ⟨⟩))
      ⊢ wp frame (wpE (defs₀ (F := F)) Variants.none c none) Set.univ (bodyProg35 a1 t) K

/-- What the body is called with at point t, the windows one by one, -/
def bodyPre35 (c : Dev nD) (t : Fin (cfg35 a1).N) : sProp 𝕄 :=
  iprop((dat35 V a1 O c).Φ t.castSucc ∗ (dat35 V a1 O c).owesAt () t.castSucc
    ∗ (∃ d, owns (c : Thread nD τ) (stg35 a1 0 t) fullShare ((dat35 V a1 O c).before 0 t d))
    ∗ (∃ d, owns (c : Thread nD τ) (stg35 a1 1 t) fullShare ((dat35 V a1 O c).before 1 t d)))

/-- and what it returns. -/
def bodyPost35 (c : Dev nD) (t : Fin (cfg35 a1).N) : sProp 𝕄 :=
  iprop((dat35 V a1 O c).Φ t.succ ∗ (dat35 V a1 O c).owesAt () t.succ
    ∗ owns (c : Thread nD τ) (stg35 a1 0 t) fullShare ((dat35 V a1 O c).after 0 t)
    ∗ owns (c : Thread nD τ) (stg35 a1 1 t) fullShare ((dat35 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body35 (hrun : BodyRun35 V a1 O) (c : Dev nD) (t : Fin (cfg35 a1).N) :
    bodyPre35 V a1 O c t
      ⊢ wp frame (wpE (defs₀ (F := F)) Variants.none c none) Set.univ (bodyProg35 a1 t) (fun _ => bodyPost35 V a1 O c t) := by
  unfold bodyPre35 bodyPost35
  simp only [beforeIn35]
  rw [afterIn35, afterOut35, Phi_eq35, Phi_eq35, PhiD_eq35, prefHeld_eq35]
  unfold Dat.owesAt Pipeline.owesWithin
  rw [owed_eq35, owed_eq35]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation35 (hrun : BodyRun35 V a1 O) (c : Dev nD) :
    BodyObligation (dat35 (F := F) V a1 O c) (defs₀ (F := F)) Variants.none () Set.univ := fun t => by
  rw [bigSep_W35, bigSep_W35]
  exact sound_body35 V a1 O hrun c t

end Data

/-! ## The region's record -/

section Record

variable (Win : Dev nD → Valuation τ sig (Elt F))

variable (a1 : (pcfg35 (F := F)).Adm)
  (O : (c : Dev nD) → Fin (cfg35 a1).N → Vec F S8x64 .f32)

/-- The buffers at the region's exit: its arrays at what the write-backs leave, every other buffer as entered. -/
def Wout35 (c : Dev nD) : Valuation τ sig (Elt F) :=
  Pipeline.withArrays spec35 c (Win c) fun w => (dat35 (Vof Win) a1 O c).arrAt w (cfg35 a1).N

theorem Wout35_arr (c : Dev nD) (w : Fin (cfg35 a1).W) :
    Wout35 Win a1 O c (Proc.devRef .tc (Pipeline.arrRef spec35 w)) = (dat35 (Vof Win) a1 O c).arrAt w (cfg35 a1).N := by
  unfold Wout35; exact Pipeline.withArrays_arr spec35 winFacts35.arr_inj c _ _ w

theorem Wout35_of_ne (c : Dev nD) (b : Ref sig .tc) (hb : ∀ w, Pipeline.arrRef spec35 w ≠ b) :
    Wout35 Win a1 O c (Proc.devRef .tc b) = Win c (Proc.devRef .tc b) := by
  unfold Wout35; exact Pipeline.withArrays_of_ne spec35 c _ _ b hb

/-- ENTRY, the buffers' part. Every unscoped buffer at Win is: the region's arrays at the proof data's entry contents,
    the table whole at the admissible contents (which are Win's there), the far operand whole, and the others. -/
theorem entry35 (c : Dev nD) (ha1 : ∀ k, Vof Win c (pre35.ref k) = a1.1 k) :
    (StableHlo.held (c : Thread nD τ) (Pipeline.ucRefs τ sig) (Win c) : sProp 𝕄)
      ⊢ iprop((dat35 (Vof Win) a1 O c).arrays ((dat35 (Vof Win) a1 O c).arrAt · 0)
          ∗ Pipeline.prefHeld pre35 c (fun _ => fullShare) a1.1
          ∗ (bigSep ({main_v141} : Finset (Ref sig .tc)) fun b => (((c : Thread nD τ)).loc b) ↦{fullShare} Vof Win c b)
          ∗ bigSep (Pipeline.restRefsP sig pre35 spec35 \ {main_v141}) fun b => (((c : Thread nD τ)).loc b) ↦{fullShare} Vof Win c b) := by
  have hsplit := Pipeline.arrays_of_unscopedBufs (p := ()) (fun (_ : Unit) => pcfg35 (F := F)) (fun _ => a1)
    (fun _ c => dat35 (Vof Win) a1 O c) winFacts35 (launch35 (F := F)).arr_whole c
    ((dat35 (Vof Win) a1 O c).share_full fun _ => rfl) (Vof Win c) (fun w => A_eq35 (Vof Win) a1 O c w)
  rw [Pipeline.unscopedBufs_held,
    Pipeline.unscopedRest_split (Ix := Unit) (Name := ℕ) (U := UD sig nD τ) (Lvl := ℕ) preFacts35 c (Vof Win c),
    Pipeline.unscopedRestP_sdiff pre35 spec35 {main_v141} hx_sub35 c (Vof Win c),
    show (fun k => Vof Win c (pre35.ref k)) = a1.1 from funext ha1] at hsplit
  exact hsplit

/-- EXIT, the buffers' part: the same four put back, the arrays at what the write-backs leave, are every unscoped
    buffer at the exit valuation. -/
theorem exit35 (c : Dev nD) (ha1 : ∀ k, Vof Win c (pre35.ref k) = a1.1 k) :
    iprop((dat35 (Vof Win) a1 O c).arrays ((dat35 (Vof Win) a1 O c).arrAt · (cfg35 a1).N)
        ∗ Pipeline.prefHeld pre35 c (fun _ => fullShare) a1.1
        ∗ (bigSep ({main_v141} : Finset (Ref sig .tc)) fun b => (((c : Thread nD τ)).loc b) ↦{fullShare} Vof Win c b)
        ∗ bigSep (Pipeline.restRefsP sig pre35 spec35 \ {main_v141}) fun b => (((c : Thread nD τ)).loc b) ↦{fullShare} Vof Win c b)
      ⊢ (StableHlo.held (c : Thread nD τ) (Pipeline.ucRefs τ sig) (Wout35 Win a1 O c) : sProp 𝕄) := by
  have hjoin := Pipeline.unscopedBufs_of_arrays (p := ()) (fun (_ : Unit) => pcfg35 (F := F)) (fun _ => a1)
    (Ix := Unit) (Name := ℕ) (U := UD sig nD τ) (Lvl := ℕ)
    winFacts35 (launch35 (F := F)).arr_whole c (fun _ c => dat35 (Vof Win) a1 O c)
    ((dat35 (Vof Win) a1 O c).share_full fun _ => rfl)
    (Vof Win c) (Vof (Wout35 Win a1 O) c) ((dat35 (Vof Win) a1 O c).arrAt · (cfg35 a1).N)
    (fun w => (Wout35_arr Win a1 O c w).symm)
    (fun b hb => Wout35_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts35 c (Vof Win c),
    Pipeline.unscopedRestP_sdiff pre35 spec35 {main_v141} hx_sub35 c (Vof Win c),
    show (fun k => Vof Win c (pre35.ref k)) = a1.1 from funext ha1] at hjoin
  exact hjoin

end Record

section Seg

variable (Win : Dev nD → Valuation τ sig (Elt F))
  (adm : (p : Fin 49) → (pcfgs (F := F) p).Adm)
  (O : (c : Dev nD) → Fin (cfg35 (adm (35 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout35. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg35 (hd : ∀ c, pdats (35 : Fin 49) c = dat35 (Vof Win) (adm (35 : Fin 49)) O c)
    (ha1 : ∀ c k, Vof Win c (pre35.ref k) = (adm (35 : Fin 49)).1 k)
    (hbody : ∀ c, BodyObligation (dat35 (F := F) (Vof Win) (adm (35 : Fin 49)) O c) (defs₀ (F := F)) 𝒱₀ () Set.univ) :
    Pipeline.RegionSeg (pcfgs (F := F)) adm pdats () defs₀ 𝒱₀ L lv (35 : Fin 49) where
  win := (launch35 (F := F)).win.to₀
  block_pos := (launch35 (F := F)).block_pos
  stage_whole := (launch35 (F := F)).stage_whole
  K := Fin 8
  osem := osem35
  ho := ownSemFacts35
  hbody c := by rw [hd c]; exact (hbody c).loose
  hwaits := Pipeline.hwaits_of_owed_zero _ _ _ _ L lv (35 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout35 Win (adm (35 : Fin 49)) O c) ∗ R c)
  X c := iprop((∃ r, prngReg c r)
    ∗ Pipeline.ownSems0 (Ix := Unit) (Name := ℕ) (U := UD sig nD τ) (Lvl := ℕ) (Val := Elt F) (τ := τ) osem35 c
    ∗ (bigSep ({main_v141} : Finset (Ref sig .tc)) fun b => (((c : Thread nD τ)).loc b) ↦{fullShare} Vof Win c b))
  Y c := iprop((∃ r, prngReg c r)
    ∗ (bigSep ({main_v141} : Finset (Ref sig .tc)) fun b => (((c : Thread nD τ)).loc b) ↦{fullShare} Vof Win c b)
    ∗ Pipeline.prefHeld pre35 c (fun _ => fullShare) (adm (35 : Fin 49)).1)
  Z c := bigSep (Pipeline.restRefsP sig pre35 spec35 \ {main_v141}) fun b => (((c : Thread nD τ)).loc b) ↦{fullShare} Vof Win c b
  hentry c := by
    rw [hd c]
    iintro ⟨⟨Hub, Hp, HO⟩, Hos, -⟩
    ihave H := (entry35 Win (adm (35 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq35, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq35, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit35 Win (adm (35 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg35 (F := F)).Adm)

/-- The output block at point t: the gathered rows (of the far operand's contents under V, chosen by the table's
    words at that point) times the input block. -/
def outBlk35 (c : Dev nD) (t : Fin (cfg35 a1).N) : Vec F S8x64 .f32 :=
  gatherOut (gatherG (a1.1 0) (V c main_v141) (grid35.coords t)) (iblk35 V a1 c 0 t)

theorem outBlk_eq35 (c : Dev nD) (t : Fin (cfg35 a1).N) :
    outBlk35 V a1 c t = gatherOut (gatherG (a1.1 0) (V c main_v141) (grid35.coords t)) (iblk35 V a1 c 0 t) := rfl

/-- The proof data with the output block named: after the body at point t the output window's buffer holds it. -/
theorem afterOutBlk35 (c : Dev nD) (t : Fin (cfg35 a1).N) :
    (dat35 V a1 (outBlk35 V a1) c).after 1 t
      = gatherOut (gatherG (a1.1 0) (V c main_v141) (grid35.coords t)) (iblk35 V a1 c 0 t) :=
  afterOut35 V a1 (outBlk35 V a1) c t

/-- The own cells at zero are the semaphore array's eight entries at zero, in order. -/
theorem ownSems_eq35 (c : Dev nD) :
    (Pipeline.ownSems0 (Ix := Unit) (Name := ℕ) (U := UD sig nD τ) (Lvl := ℕ) (Val := Elt F) (τ := τ) osem35 c : sProp 𝕄)
      = gsems0 c cc35_scratch1 := by
  rw [Pipeline.ownSems0_eq_of_list c osem35 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq35 (t : Fin (cfg35 a1).N) : ∃ h3 h4, bodyProg35 (F := F) a1 t
    = cc35__gather_mul_kernel (grid35.coords t) (Memref.whole main_v151) (Memref.isWhole_whole _) (Memref.whole main_v141) (Memref.isWhole_whole _)
        (stg35 a1 0 t) h3 (stg35 a1 1 t) h4 (Memref.whole cc35_scratch0) (Memref.isWhole_whole _) cc35_scratch1 := ⟨_, _, rfl⟩

end Out

/-! ## The body's run, joined to the proof data -/

section Body

variable (V : (c : Dev nD) → (b : Ref sig .tc) → Buf (Elt F) ((c : Thread nD τ).loc b))
  (a1 : (pcfg35 (F := F)).Adm)

/-- The scratch buffer whole at some contents, as a memref owned at some contents. -/
theorem scratchOwns_eq35 (c : Dev nD) :
    (iprop(∃ d, owns (c : Thread nD τ) (Memref.whole cc35_scratch0) fullShare d) : sProp 𝕄)
      = iprop(∃ f : Buf (Elt F) ((c : Thread nD τ).loc cc35_scratch0), ((c : Thread nD τ).loc cc35_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun35 (hlt : ∀ y, BitVec.toNat ((a1.1 0) y) < 100000) : BodyRun35 V a1 (outBlk35 V a1) := by
  intro c t W K
  obtain ⟨h3, h4, hprog⟩ := bodyProg_eq35 (F := F) a1 t
  rw [hprog, ownSems_eq35, ← scratchOwns_eq35 (F := F) c]
  have hrun := gather_kernel_run_35 (F := F) c (grid35.coords t) (Memref.whole main_v151) (Memref.isWhole_whole _) (Memref.whole main_v141) (Memref.isWhole_whole _)
    (stg35 a1 0 t) h3 (stg35 a1 1 t) h4 (Memref.whole cc35_scratch0) (Memref.isWhole_whole _) cc35_scratch1 fullShare fullShare
    (a1.1 0) (V c main_v141) (iblk35 V a1 c 0 t) (fun y => hlt y) W K
  simp only [Memref.view_whole, View.read_whole] at hrun
  unfold outBlk35
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut35 (hlt : ∀ y, BitVec.toNat ((a1.1 0) y) < 100000) (c : Dev nD) :
    BodyObligation (dat35 (F := F) V a1 (outBlk35 V a1) c) (defs₀ (F := F)) Variants.none () Set.univ :=
  body_obligation35 V a1 (outBlk35 V a1) (bodyRun35 V a1 hlt) c

end Body

/-! # Region 36 -/

/-! ## The body's own transfer cells -/

/-- The eight cells of the body's semaphore array, in order. -/
abbrev osem36 : Fin 8 → SemLoc sig := fun j => SemLoc.dma (cc36_scratch1.ix (fun | ⟨0, _⟩ => j))

/-- They are scoped, pairwise distinct, and none is a staging cell of a window. -/
theorem ownSemFacts36 : Pipeline.OwnSemFacts spec36 osem36 := by decide

/-- The far operand is an unscoped buffer that is neither a window's array nor a table. -/
theorem hx_sub36 : ({main_v141} : Finset (Ref sig .tc)) ⊆ Pipeline.restRefsP sig pre36 spec36 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg36 (F := F)).Adm)
  (O : (c : Dev nD) → Fin (cfg36 a1).N → Vec F S8x64 .f32)

/-! ## The windows' blocks -/

/-- Window w's block at point t, read off its array under V. -/
def iblk36 (c : Dev nD) (w : Fin (cfg36 a1).W) (t : Fin (cfg36 a1).N) :
    (((cfg36 a1).win w).xblock ((cfg36 a1).grid.coords t)).Idx → Elt F ((cfg36 a1).win w).elt :=
  (((cfg36 a1).win w).blk t).view.read (Elt F) (V c (Pipeline.arrRef spec36 w))

/-- The input window's current staging buffer holds its block at every point, fetched there or not, for any proof
    data whose array is V's and whose body leaves the block in place: unfetched, the block index has not moved. -/
theorem beforeIn36_of {c : Dev nD} (dat : Dat τ (Elt F) Unit ℕ (UD sig nD τ) ℕ (cfg36 a1) c)
    (hA : dat.A 0 = V c (Pipeline.arrRef spec36 0))
    (hafter : ∀ t, dat.after 0 t = iblk36 V a1 c 0 t) (t : Fin (cfg36 a1).N) (d) : dat.before 0 t d = iblk36 V a1 c 0 t :=
  (dat.before_in_eq_fetched 0 rfl (fun _ => rfl) (fun _ _ _ => rfl)
    (fun t => by rw [hafter]; unfold Dat.blockOf iblk36; rw [hA]; try rfl) t d).trans
    (by unfold Dat.fetched Dat.blockOf iblk36; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat36 (c : Dev nD) : Dat τ (Elt F) Unit ℕ (UD sig nD τ) ℕ (cfg36 a1) c where
  A w := V c (Pipeline.arrRef spec36 w)
  after w t := match w with
    | ⟨0, _⟩ => iblk36 V a1 c 0 t
    | ⟨1, _⟩ => O c t
  Φ _ := iprop(Pipeline.ΦD osem36 spec36 {main_v141} V c ∗ Pipeline.prefHeld pre36 c (fun _ => fullShare) a1.1)
  q _ := fullShare
  owed _ := 0

theorem A_eq36 (c : Dev nD) (w : Fin (cfg36 a1).W) : (dat36 V a1 O c).A w = V c (Pipeline.arrRef spec36 w) := by
  dsimp only [dat36]

theorem afterIn36 (c : Dev nD) (t : Fin (cfg36 a1).N) : (dat36 V a1 O c).after 0 t = iblk36 V a1 c 0 t := by
  dsimp only [dat36]; rfl

theorem afterOut36 (c : Dev nD) (t : Fin (cfg36 a1).N) :
    (dat36 V a1 O c).after 1 t = O c t := by
  dsimp only [dat36]; rfl

theorem beforeIn36 (c : Dev nD) (t : Fin (cfg36 a1).N) (d) : (dat36 V a1 O c).before 0 t d = iblk36 V a1 c 0 t :=
  beforeIn36_of V a1 (dat36 V a1 O c) (A_eq36 V a1 O c 0) (afterIn36 V a1 O c) t d

theorem Phi_eq36 (c : Dev nD) (t : Fin ((cfg36 a1).N + 1)) :
    (dat36 V a1 O c).Φ t
      = iprop(Pipeline.ΦD osem36 spec36 {main_v141} V c ∗ Pipeline.prefHeld pre36 c (fun _ => fullShare) a1.1) := by
  dsimp only [dat36]

theorem owed_eq36 (c : Dev nD) (t : Fin ((cfg36 a1).N + 1)) : (dat36 V a1 O c).owed t = 0 := by
  dsimp only [dat36]

/-! ## The invariant, conjunct by conjunct -/

/-- The invariant's first part opened: the body's scratch buffer whole at some contents and the other scoped
    buffers no window stages, the generator register, the own cells at zero, the far operand at its contents. -/
theorem PhiD_eq36 (c : Dev nD) :
    (Pipeline.ΦD osem36 spec36 {main_v141} V c : sProp 𝕄)
      = iprop(iprop(iprop((∃ f : Buf (Elt F) ((c : Thread nD τ).loc cc36_scratch0), ((c : Thread nD τ).loc cc36_scratch0) ↦{fullShare} f))
            ∗ Pipeline.scopedRestBut (Ix := Unit) (Name := ℕ) (U := UD sig nD τ) (Lvl := ℕ) (Val := Elt F) spec36 c [cc36_scratch0])
          ∗ (∃ r, prngReg c r)
          ∗ Pipeline.ownSems0 (Ix := Unit) (Name := ℕ) (U := UD sig nD τ) (Lvl := ℕ) (Val := Elt F) (τ := τ) osem36 c
          ∗ (((c : Thread nD τ).loc main_v141) ↦{fullShare} V c main_v141)) := by
  rw [Pipeline.ΦD_eq, scopedRest36_split, BI.bigSep_eq_bigSepL_of_eq [main_v141] (by decide) (by decide)]; rfl

/-- The one table, held whole. -/
theorem prefHeld_eq36 (c : Dev nD) :
    (Pipeline.prefHeld pre36 c (fun _ => fullShare) a1.1 : sProp 𝕄)
      = (((c : Thread nD τ).loc main_v155) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg36 (w : Fin (cfg36 a1).W) (t : Fin (cfg36 a1).N) := ((cfg36 a1).win w).stage ((cfg36 a1).slots t w)

/-- The body as the pipeline calls it at point t. -/
abbrev bodyProg36 (t : Fin (cfg36 a1).N) : Prog (TpuEff nD τ sig (Elt F) Λ₀ .tc) PUnit :=
  (defs₀ (F := F)) .tc (cfg36 a1).body ((cfg36 a1).bodyArgs t ((cfg36 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun36 : Prop :=
  ∀ (c : Dev nD) (t : Fin (cfg36 a1).N) (W) (K : PUnit → sProp 𝕄),
    iprop(owns (c : Thread nD τ) (stg36 a1 0 t) fullShare (iblk36 V a1 c 0 t)
        ∗ (∃ d, owns (c : Thread nD τ) (stg36 a1 1 t) fullShare d)
        ∗ (∃ f : Buf (Elt F) ((c : Thread nD τ).loc cc36_scratch0), ((c : Thread nD τ).loc cc36_scratch0) ↦{fullShare} f)
        ∗ Pipeline.ownSems0 (Ix := Unit) (Name := ℕ) (U := UD sig nD τ) (Lvl := ℕ) (Val := Elt F) (τ := τ) osem36 c
        ∗ (((c : Thread nD τ).loc main_v155) ↦{fullShare} a1.1 0)
        ∗ (((c : Thread nD τ).loc main_v141) ↦{fullShare} V c main_v141)
        ∗ owes (c : Thread nD τ) (0 : CellTallies nD τ sig Unit) W
        ∗ (iprop(owns (c : Thread nD τ) (stg36 a1 0 t) fullShare (iblk36 V a1 c 0 t)
            ∗ owns (c : Thread nD τ) (stg36 a1 1 t) fullShare (O c t)
            ∗ (∃ f : Buf (Elt F) ((c : Thread nD τ).loc cc36_scratch0), ((c : Thread nD τ).loc cc36_scratch0) ↦{fullShare} f)
            ∗ Pipeline.ownSems0 (Ix := Unit) (Name := ℕ) (U := UD sig nD τ) (Lvl := ℕ) (Val := Elt F) (τ := τ) osem36 c
            ∗ (((c : Thread nD τ).loc main_v155) ↦{fullShare} a1.1 0)
            ∗ (((c : Thread nD τ).loc main_v141) ↦{fullShare} V c main_v141)
            ∗ (∃ W', owes (c : Thread nD τ) (0 : CellTallies nD τ sig Unit) W')) -∗ K ⟨⟩))
      ⊢ wp frame (wpE (defs₀ (F := F)) Variants.none c none) Set.univ (bodyProg36 a1 t) K

/-- What the body is called with at point t, the windows one by one, -/
def bodyPre36 (c : Dev nD) (t : Fin (cfg36 a1).N) : sProp 𝕄 :=
  iprop((dat36 V a1 O c).Φ t.castSucc ∗ (dat36 V a1 O c).owesAt () t.castSucc
    ∗ (∃ d, owns (c : Thread nD τ) (stg36 a1 0 t) fullShare ((dat36 V a1 O c).before 0 t d))
    ∗ (∃ d, owns (c : Thread nD τ) (stg36 a1 1 t) fullShare ((dat36 V a1 O c).before 1 t d)))

/-- and what it returns. -/
def bodyPost36 (c : Dev nD) (t : Fin (cfg36 a1).N) : sProp 𝕄 :=
  iprop((dat36 V a1 O c).Φ t.succ ∗ (dat36 V a1 O c).owesAt () t.succ
    ∗ owns (c : Thread nD τ) (stg36 a1 0 t) fullShare ((dat36 V a1 O c).after 0 t)
    ∗ owns (c : Thread nD τ) (stg36 a1 1 t) fullShare ((dat36 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body36 (hrun : BodyRun36 V a1 O) (c : Dev nD) (t : Fin (cfg36 a1).N) :
    bodyPre36 V a1 O c t
      ⊢ wp frame (wpE (defs₀ (F := F)) Variants.none c none) Set.univ (bodyProg36 a1 t) (fun _ => bodyPost36 V a1 O c t) := by
  unfold bodyPre36 bodyPost36
  simp only [beforeIn36]
  rw [afterIn36, afterOut36, Phi_eq36, Phi_eq36, PhiD_eq36, prefHeld_eq36]
  unfold Dat.owesAt Pipeline.owesWithin
  rw [owed_eq36, owed_eq36]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation36 (hrun : BodyRun36 V a1 O) (c : Dev nD) :
    BodyObligation (dat36 (F := F) V a1 O c) (defs₀ (F := F)) Variants.none () Set.univ := fun t => by
  rw [bigSep_W36, bigSep_W36]
  exact sound_body36 V a1 O hrun c t

end Data

/-! ## The region's record -/

section Record

variable (Win : Dev nD → Valuation τ sig (Elt F))

variable (a1 : (pcfg36 (F := F)).Adm)
  (O : (c : Dev nD) → Fin (cfg36 a1).N → Vec F S8x64 .f32)

/-- The buffers at the region's exit: its arrays at what the write-backs leave, every other buffer as entered. -/
def Wout36 (c : Dev nD) : Valuation τ sig (Elt F) :=
  Pipeline.withArrays spec36 c (Win c) fun w => (dat36 (Vof Win) a1 O c).arrAt w (cfg36 a1).N

theorem Wout36_arr (c : Dev nD) (w : Fin (cfg36 a1).W) :
    Wout36 Win a1 O c (Proc.devRef .tc (Pipeline.arrRef spec36 w)) = (dat36 (Vof Win) a1 O c).arrAt w (cfg36 a1).N := by
  unfold Wout36; exact Pipeline.withArrays_arr spec36 winFacts36.arr_inj c _ _ w

theorem Wout36_of_ne (c : Dev nD) (b : Ref sig .tc) (hb : ∀ w, Pipeline.arrRef spec36 w ≠ b) :
    Wout36 Win a1 O c (Proc.devRef .tc b) = Win c (Proc.devRef .tc b) := by
  unfold Wout36; exact Pipeline.withArrays_of_ne spec36 c _ _ b hb

/-- ENTRY, the buffers' part. Every unscoped buffer at Win is: the region's arrays at the proof data's entry contents,
    the table whole at the admissible contents (which are Win's there), the far operand whole, and the others. -/
theorem entry36 (c : Dev nD) (ha1 : ∀ k, Vof Win c (pre36.ref k) = a1.1 k) :
    (StableHlo.held (c : Thread nD τ) (Pipeline.ucRefs τ sig) (Win c) : sProp 𝕄)
      ⊢ iprop((dat36 (Vof Win) a1 O c).arrays ((dat36 (Vof Win) a1 O c).arrAt · 0)
          ∗ Pipeline.prefHeld pre36 c (fun _ => fullShare) a1.1
          ∗ (bigSep ({main_v141} : Finset (Ref sig .tc)) fun b => (((c : Thread nD τ)).loc b) ↦{fullShare} Vof Win c b)
          ∗ bigSep (Pipeline.restRefsP sig pre36 spec36 \ {main_v141}) fun b => (((c : Thread nD τ)).loc b) ↦{fullShare} Vof Win c b) := by
  have hsplit := Pipeline.arrays_of_unscopedBufs (p := ()) (fun (_ : Unit) => pcfg36 (F := F)) (fun _ => a1)
    (fun _ c => dat36 (Vof Win) a1 O c) winFacts36 (launch36 (F := F)).arr_whole c
    ((dat36 (Vof Win) a1 O c).share_full fun _ => rfl) (Vof Win c) (fun w => A_eq36 (Vof Win) a1 O c w)
  rw [Pipeline.unscopedBufs_held,
    Pipeline.unscopedRest_split (Ix := Unit) (Name := ℕ) (U := UD sig nD τ) (Lvl := ℕ) preFacts36 c (Vof Win c),
    Pipeline.unscopedRestP_sdiff pre36 spec36 {main_v141} hx_sub36 c (Vof Win c),
    show (fun k => Vof Win c (pre36.ref k)) = a1.1 from funext ha1] at hsplit
  exact hsplit

/-- EXIT, the buffers' part: the same four put back, the arrays at what the write-backs leave, are every unscoped
    buffer at the exit valuation. -/
theorem exit36 (c : Dev nD) (ha1 : ∀ k, Vof Win c (pre36.ref k) = a1.1 k) :
    iprop((dat36 (Vof Win) a1 O c).arrays ((dat36 (Vof Win) a1 O c).arrAt · (cfg36 a1).N)
        ∗ Pipeline.prefHeld pre36 c (fun _ => fullShare) a1.1
        ∗ (bigSep ({main_v141} : Finset (Ref sig .tc)) fun b => (((c : Thread nD τ)).loc b) ↦{fullShare} Vof Win c b)
        ∗ bigSep (Pipeline.restRefsP sig pre36 spec36 \ {main_v141}) fun b => (((c : Thread nD τ)).loc b) ↦{fullShare} Vof Win c b)
      ⊢ (StableHlo.held (c : Thread nD τ) (Pipeline.ucRefs τ sig) (Wout36 Win a1 O c) : sProp 𝕄) := by
  have hjoin := Pipeline.unscopedBufs_of_arrays (p := ()) (fun (_ : Unit) => pcfg36 (F := F)) (fun _ => a1)
    (Ix := Unit) (Name := ℕ) (U := UD sig nD τ) (Lvl := ℕ)
    winFacts36 (launch36 (F := F)).arr_whole c (fun _ c => dat36 (Vof Win) a1 O c)
    ((dat36 (Vof Win) a1 O c).share_full fun _ => rfl)
    (Vof Win c) (Vof (Wout36 Win a1 O) c) ((dat36 (Vof Win) a1 O c).arrAt · (cfg36 a1).N)
    (fun w => (Wout36_arr Win a1 O c w).symm)
    (fun b hb => Wout36_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts36 c (Vof Win c),
    Pipeline.unscopedRestP_sdiff pre36 spec36 {main_v141} hx_sub36 c (Vof Win c),
    show (fun k => Vof Win c (pre36.ref k)) = a1.1 from funext ha1] at hjoin
  exact hjoin

end Record

section Seg

variable (Win : Dev nD → Valuation τ sig (Elt F))
  (adm : (p : Fin 49) → (pcfgs (F := F) p).Adm)
  (O : (c : Dev nD) → Fin (cfg36 (adm (36 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout36. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg36 (hd : ∀ c, pdats (36 : Fin 49) c = dat36 (Vof Win) (adm (36 : Fin 49)) O c)
    (ha1 : ∀ c k, Vof Win c (pre36.ref k) = (adm (36 : Fin 49)).1 k)
    (hbody : ∀ c, BodyObligation (dat36 (F := F) (Vof Win) (adm (36 : Fin 49)) O c) (defs₀ (F := F)) 𝒱₀ () Set.univ) :
    Pipeline.RegionSeg (pcfgs (F := F)) adm pdats () defs₀ 𝒱₀ L lv (36 : Fin 49) where
  win := (launch36 (F := F)).win.to₀
  block_pos := (launch36 (F := F)).block_pos
  stage_whole := (launch36 (F := F)).stage_whole
  K := Fin 8
  osem := osem36
  ho := ownSemFacts36
  hbody c := by rw [hd c]; exact (hbody c).loose
  hwaits := Pipeline.hwaits_of_owed_zero _ _ _ _ L lv (36 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout36 Win (adm (36 : Fin 49)) O c) ∗ R c)
  X c := iprop((∃ r, prngReg c r)
    ∗ Pipeline.ownSems0 (Ix := Unit) (Name := ℕ) (U := UD sig nD τ) (Lvl := ℕ) (Val := Elt F) (τ := τ) osem36 c
    ∗ (bigSep ({main_v141} : Finset (Ref sig .tc)) fun b => (((c : Thread nD τ)).loc b) ↦{fullShare} Vof Win c b))
  Y c := iprop((∃ r, prngReg c r)
    ∗ (bigSep ({main_v141} : Finset (Ref sig .tc)) fun b => (((c : Thread nD τ)).loc b) ↦{fullShare} Vof Win c b)
    ∗ Pipeline.prefHeld pre36 c (fun _ => fullShare) (adm (36 : Fin 49)).1)
  Z c := bigSep (Pipeline.restRefsP sig pre36 spec36 \ {main_v141}) fun b => (((c : Thread nD τ)).loc b) ↦{fullShare} Vof Win c b
  hentry c := by
    rw [hd c]
    iintro ⟨⟨Hub, Hp, HO⟩, Hos, -⟩
    ihave H := (entry36 Win (adm (36 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq36, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq36, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit36 Win (adm (36 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg36 (F := F)).Adm)

/-- The output block at point t: the gathered rows (of the far operand's contents under V, chosen by the table's
    words at that point) times the input block. -/
def outBlk36 (c : Dev nD) (t : Fin (cfg36 a1).N) : Vec F S8x64 .f32 :=
  gatherOut (gatherG (a1.1 0) (V c main_v141) (grid36.coords t)) (iblk36 V a1 c 0 t)

theorem outBlk_eq36 (c : Dev nD) (t : Fin (cfg36 a1).N) :
    outBlk36 V a1 c t = gatherOut (gatherG (a1.1 0) (V c main_v141) (grid36.coords t)) (iblk36 V a1 c 0 t) := rfl

/-- The proof data with the output block named: after the body at point t the output window's buffer holds it. -/
theorem afterOutBlk36 (c : Dev nD) (t : Fin (cfg36 a1).N) :
    (dat36 V a1 (outBlk36 V a1) c).after 1 t
      = gatherOut (gatherG (a1.1 0) (V c main_v141) (grid36.coords t)) (iblk36 V a1 c 0 t) :=
  afterOut36 V a1 (outBlk36 V a1) c t

/-- The own cells at zero are the semaphore array's eight entries at zero, in order. -/
theorem ownSems_eq36 (c : Dev nD) :
    (Pipeline.ownSems0 (Ix := Unit) (Name := ℕ) (U := UD sig nD τ) (Lvl := ℕ) (Val := Elt F) (τ := τ) osem36 c : sProp 𝕄)
      = gsems0 c cc36_scratch1 := by
  rw [Pipeline.ownSems0_eq_of_list c osem36 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq36 (t : Fin (cfg36 a1).N) : ∃ h3 h4, bodyProg36 (F := F) a1 t
    = cc36__gather_mul_kernel (grid36.coords t) (Memref.whole main_v155) (Memref.isWhole_whole _) (Memref.whole main_v141) (Memref.isWhole_whole _)
        (stg36 a1 0 t) h3 (stg36 a1 1 t) h4 (Memref.whole cc36_scratch0) (Memref.isWhole_whole _) cc36_scratch1 := ⟨_, _, rfl⟩

end Out

/-! ## The body's run, joined to the proof data -/

section Body

variable (V : (c : Dev nD) → (b : Ref sig .tc) → Buf (Elt F) ((c : Thread nD τ).loc b))
  (a1 : (pcfg36 (F := F)).Adm)

/-- The scratch buffer whole at some contents, as a memref owned at some contents. -/
theorem scratchOwns_eq36 (c : Dev nD) :
    (iprop(∃ d, owns (c : Thread nD τ) (Memref.whole cc36_scratch0) fullShare d) : sProp 𝕄)
      = iprop(∃ f : Buf (Elt F) ((c : Thread nD τ).loc cc36_scratch0), ((c : Thread nD τ).loc cc36_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun36 (hlt : ∀ y, BitVec.toNat ((a1.1 0) y) < 100000) : BodyRun36 V a1 (outBlk36 V a1) := by
  intro c t W K
  obtain ⟨h3, h4, hprog⟩ := bodyProg_eq36 (F := F) a1 t
  rw [hprog, ownSems_eq36, ← scratchOwns_eq36 (F := F) c]
  have hrun := gather_kernel_run_36 (F := F) c (grid36.coords t) (Memref.whole main_v155) (Memref.isWhole_whole _) (Memref.whole main_v141) (Memref.isWhole_whole _)
    (stg36 a1 0 t) h3 (stg36 a1 1 t) h4 (Memref.whole cc36_scratch0) (Memref.isWhole_whole _) cc36_scratch1 fullShare fullShare
    (a1.1 0) (V c main_v141) (iblk36 V a1 c 0 t) (fun y => hlt y) W K
  simp only [Memref.view_whole, View.read_whole] at hrun
  unfold outBlk36
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut36 (hlt : ∀ y, BitVec.toNat ((a1.1 0) y) < 100000) (c : Dev nD) :
    BodyObligation (dat36 (F := F) V a1 (outBlk36 V a1) c) (defs₀ (F := F)) Variants.none () Set.univ :=
  body_obligation36 V a1 (outBlk36 V a1) (bodyRun36 V a1 hlt) c

end Body

/-! # Region 37 -/

/-! ## The body's own transfer cells -/

/-- The eight cells of the body's semaphore array, in order. -/
abbrev osem37 : Fin 8 → SemLoc sig := fun j => SemLoc.dma (cc37_scratch1.ix (fun | ⟨0, _⟩ => j))

/-- They are scoped, pairwise distinct, and none is a staging cell of a window. -/
theorem ownSemFacts37 : Pipeline.OwnSemFacts spec37 osem37 := by decide

/-- The far operand is an unscoped buffer that is neither a window's array nor a table. -/
theorem hx_sub37 : ({main_v141} : Finset (Ref sig .tc)) ⊆ Pipeline.restRefsP sig pre37 spec37 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg37 (F := F)).Adm)
  (O : (c : Dev nD) → Fin (cfg37 a1).N → Vec F S8x64 .f32)

/-! ## The windows' blocks -/

/-- Window w's block at point t, read off its array under V. -/
def iblk37 (c : Dev nD) (w : Fin (cfg37 a1).W) (t : Fin (cfg37 a1).N) :
    (((cfg37 a1).win w).xblock ((cfg37 a1).grid.coords t)).Idx → Elt F ((cfg37 a1).win w).elt :=
  (((cfg37 a1).win w).blk t).view.read (Elt F) (V c (Pipeline.arrRef spec37 w))

/-- The input window's current staging buffer holds its block at every point, fetched there or not, for any proof
    data whose array is V's and whose body leaves the block in place: unfetched, the block index has not moved. -/
theorem beforeIn37_of {c : Dev nD} (dat : Dat τ (Elt F) Unit ℕ (UD sig nD τ) ℕ (cfg37 a1) c)
    (hA : dat.A 0 = V c (Pipeline.arrRef spec37 0))
    (hafter : ∀ t, dat.after 0 t = iblk37 V a1 c 0 t) (t : Fin (cfg37 a1).N) (d) : dat.before 0 t d = iblk37 V a1 c 0 t :=
  (dat.before_in_eq_fetched 0 rfl (fun _ => rfl) (fun _ _ _ => rfl)
    (fun t => by rw [hafter]; unfold Dat.blockOf iblk37; rw [hA]; try rfl) t d).trans
    (by unfold Dat.fetched Dat.blockOf iblk37; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat37 (c : Dev nD) : Dat τ (Elt F) Unit ℕ (UD sig nD τ) ℕ (cfg37 a1) c where
  A w := V c (Pipeline.arrRef spec37 w)
  after w t := match w with
    | ⟨0, _⟩ => iblk37 V a1 c 0 t
    | ⟨1, _⟩ => O c t
  Φ _ := iprop(Pipeline.ΦD osem37 spec37 {main_v141} V c ∗ Pipeline.prefHeld pre37 c (fun _ => fullShare) a1.1)
  q _ := fullShare
  owed _ := 0

theorem A_eq37 (c : Dev nD) (w : Fin (cfg37 a1).W) : (dat37 V a1 O c).A w = V c (Pipeline.arrRef spec37 w) := by
  dsimp only [dat37]

theorem afterIn37 (c : Dev nD) (t : Fin (cfg37 a1).N) : (dat37 V a1 O c).after 0 t = iblk37 V a1 c 0 t := by
  dsimp only [dat37]; rfl

theorem afterOut37 (c : Dev nD) (t : Fin (cfg37 a1).N) :
    (dat37 V a1 O c).after 1 t = O c t := by
  dsimp only [dat37]; rfl

theorem beforeIn37 (c : Dev nD) (t : Fin (cfg37 a1).N) (d) : (dat37 V a1 O c).before 0 t d = iblk37 V a1 c 0 t :=
  beforeIn37_of V a1 (dat37 V a1 O c) (A_eq37 V a1 O c 0) (afterIn37 V a1 O c) t d

theorem Phi_eq37 (c : Dev nD) (t : Fin ((cfg37 a1).N + 1)) :
    (dat37 V a1 O c).Φ t
      = iprop(Pipeline.ΦD osem37 spec37 {main_v141} V c ∗ Pipeline.prefHeld pre37 c (fun _ => fullShare) a1.1) := by
  dsimp only [dat37]

theorem owed_eq37 (c : Dev nD) (t : Fin ((cfg37 a1).N + 1)) : (dat37 V a1 O c).owed t = 0 := by
  dsimp only [dat37]

/-! ## The invariant, conjunct by conjunct -/

/-- The invariant's first part opened: the body's scratch buffer whole at some contents and the other scoped
    buffers no window stages, the generator register, the own cells at zero, the far operand at its contents. -/
theorem PhiD_eq37 (c : Dev nD) :
    (Pipeline.ΦD osem37 spec37 {main_v141} V c : sProp 𝕄)
      = iprop(iprop(iprop((∃ f : Buf (Elt F) ((c : Thread nD τ).loc cc37_scratch0), ((c : Thread nD τ).loc cc37_scratch0) ↦{fullShare} f))
            ∗ Pipeline.scopedRestBut (Ix := Unit) (Name := ℕ) (U := UD sig nD τ) (Lvl := ℕ) (Val := Elt F) spec37 c [cc37_scratch0])
          ∗ (∃ r, prngReg c r)
          ∗ Pipeline.ownSems0 (Ix := Unit) (Name := ℕ) (U := UD sig nD τ) (Lvl := ℕ) (Val := Elt F) (τ := τ) osem37 c
          ∗ (((c : Thread nD τ).loc main_v141) ↦{fullShare} V c main_v141)) := by
  rw [Pipeline.ΦD_eq, scopedRest37_split, BI.bigSep_eq_bigSepL_of_eq [main_v141] (by decide) (by decide)]; rfl

/-- The one table, held whole. -/
theorem prefHeld_eq37 (c : Dev nD) :
    (Pipeline.prefHeld pre37 c (fun _ => fullShare) a1.1 : sProp 𝕄)
      = (((c : Thread nD τ).loc main_v159) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg37 (w : Fin (cfg37 a1).W) (t : Fin (cfg37 a1).N) := ((cfg37 a1).win w).stage ((cfg37 a1).slots t w)

/-- The body as the pipeline calls it at point t. -/
abbrev bodyProg37 (t : Fin (cfg37 a1).N) : Prog (TpuEff nD τ sig (Elt F) Λ₀ .tc) PUnit :=
  (defs₀ (F := F)) .tc (cfg37 a1).body ((cfg37 a1).bodyArgs t ((cfg37 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun37 : Prop :=
  ∀ (c : Dev nD) (t : Fin (cfg37 a1).N) (W) (K : PUnit → sProp 𝕄),
    iprop(owns (c : Thread nD τ) (stg37 a1 0 t) fullShare (iblk37 V a1 c 0 t)
        ∗ (∃ d, owns (c : Thread nD τ) (stg37 a1 1 t) fullShare d)
        ∗ (∃ f : Buf (Elt F) ((c : Thread nD τ).loc cc37_scratch0), ((c : Thread nD τ).loc cc37_scratch0) ↦{fullShare} f)
        ∗ Pipeline.ownSems0 (Ix := Unit) (Name := ℕ) (U := UD sig nD τ) (Lvl := ℕ) (Val := Elt F) (τ := τ) osem37 c
        ∗ (((c : Thread nD τ).loc main_v159) ↦{fullShare} a1.1 0)
        ∗ (((c : Thread nD τ).loc main_v141) ↦{fullShare} V c main_v141)
        ∗ owes (c : Thread nD τ) (0 : CellTallies nD τ sig Unit) W
        ∗ (iprop(owns (c : Thread nD τ) (stg37 a1 0 t) fullShare (iblk37 V a1 c 0 t)
            ∗ owns (c : Thread nD τ) (stg37 a1 1 t) fullShare (O c t)
            ∗ (∃ f : Buf (Elt F) ((c : Thread nD τ).loc cc37_scratch0), ((c : Thread nD τ).loc cc37_scratch0) ↦{fullShare} f)
            ∗ Pipeline.ownSems0 (Ix := Unit) (Name := ℕ) (U := UD sig nD τ) (Lvl := ℕ) (Val := Elt F) (τ := τ) osem37 c
            ∗ (((c : Thread nD τ).loc main_v159) ↦{fullShare} a1.1 0)
            ∗ (((c : Thread nD τ).loc main_v141) ↦{fullShare} V c main_v141)
            ∗ (∃ W', owes (c : Thread nD τ) (0 : CellTallies nD τ sig Unit) W')) -∗ K ⟨⟩))
      ⊢ wp frame (wpE (defs₀ (F := F)) Variants.none c none) Set.univ (bodyProg37 a1 t) K

/-- What the body is called with at point t, the windows one by one, -/
def bodyPre37 (c : Dev nD) (t : Fin (cfg37 a1).N) : sProp 𝕄 :=
  iprop((dat37 V a1 O c).Φ t.castSucc ∗ (dat37 V a1 O c).owesAt () t.castSucc
    ∗ (∃ d, owns (c : Thread nD τ) (stg37 a1 0 t) fullShare ((dat37 V a1 O c).before 0 t d))
    ∗ (∃ d, owns (c : Thread nD τ) (stg37 a1 1 t) fullShare ((dat37 V a1 O c).before 1 t d)))

/-- and what it returns. -/
def bodyPost37 (c : Dev nD) (t : Fin (cfg37 a1).N) : sProp 𝕄 :=
  iprop((dat37 V a1 O c).Φ t.succ ∗ (dat37 V a1 O c).owesAt () t.succ
    ∗ owns (c : Thread nD τ) (stg37 a1 0 t) fullShare ((dat37 V a1 O c).after 0 t)
    ∗ owns (c : Thread nD τ) (stg37 a1 1 t) fullShare ((dat37 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body37 (hrun : BodyRun37 V a1 O) (c : Dev nD) (t : Fin (cfg37 a1).N) :
    bodyPre37 V a1 O c t
      ⊢ wp frame (wpE (defs₀ (F := F)) Variants.none c none) Set.univ (bodyProg37 a1 t) (fun _ => bodyPost37 V a1 O c t) := by
  unfold bodyPre37 bodyPost37
  simp only [beforeIn37]
  rw [afterIn37, afterOut37, Phi_eq37, Phi_eq37, PhiD_eq37, prefHeld_eq37]
  unfold Dat.owesAt Pipeline.owesWithin
  rw [owed_eq37, owed_eq37]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation37 (hrun : BodyRun37 V a1 O) (c : Dev nD) :
    BodyObligation (dat37 (F := F) V a1 O c) (defs₀ (F := F)) Variants.none () Set.univ := fun t => by
  rw [bigSep_W37, bigSep_W37]
  exact sound_body37 V a1 O hrun c t

end Data

/-! ## The region's record -/

section Record

variable (Win : Dev nD → Valuation τ sig (Elt F))

variable (a1 : (pcfg37 (F := F)).Adm)
  (O : (c : Dev nD) → Fin (cfg37 a1).N → Vec F S8x64 .f32)

/-- The buffers at the region's exit: its arrays at what the write-backs leave, every other buffer as entered. -/
def Wout37 (c : Dev nD) : Valuation τ sig (Elt F) :=
  Pipeline.withArrays spec37 c (Win c) fun w => (dat37 (Vof Win) a1 O c).arrAt w (cfg37 a1).N

theorem Wout37_arr (c : Dev nD) (w : Fin (cfg37 a1).W) :
    Wout37 Win a1 O c (Proc.devRef .tc (Pipeline.arrRef spec37 w)) = (dat37 (Vof Win) a1 O c).arrAt w (cfg37 a1).N := by
  unfold Wout37; exact Pipeline.withArrays_arr spec37 winFacts37.arr_inj c _ _ w

theorem Wout37_of_ne (c : Dev nD) (b : Ref sig .tc) (hb : ∀ w, Pipeline.arrRef spec37 w ≠ b) :
    Wout37 Win a1 O c (Proc.devRef .tc b) = Win c (Proc.devRef .tc b) := by
  unfold Wout37; exact Pipeline.withArrays_of_ne spec37 c _ _ b hb

/-- ENTRY, the buffers' part. Every unscoped buffer at Win is: the region's arrays at the proof data's entry contents,
    the table whole at the admissible contents (which are Win's there), the far operand whole, and the others. -/
theorem entry37 (c : Dev nD) (ha1 : ∀ k, Vof Win c (pre37.ref k) = a1.1 k) :
    (StableHlo.held (c : Thread nD τ) (Pipeline.ucRefs τ sig) (Win c) : sProp 𝕄)
      ⊢ iprop((dat37 (Vof Win) a1 O c).arrays ((dat37 (Vof Win) a1 O c).arrAt · 0)
          ∗ Pipeline.prefHeld pre37 c (fun _ => fullShare) a1.1
          ∗ (bigSep ({main_v141} : Finset (Ref sig .tc)) fun b => (((c : Thread nD τ)).loc b) ↦{fullShare} Vof Win c b)
          ∗ bigSep (Pipeline.restRefsP sig pre37 spec37 \ {main_v141}) fun b => (((c : Thread nD τ)).loc b) ↦{fullShare} Vof Win c b) := by
  have hsplit := Pipeline.arrays_of_unscopedBufs (p := ()) (fun (_ : Unit) => pcfg37 (F := F)) (fun _ => a1)
    (fun _ c => dat37 (Vof Win) a1 O c) winFacts37 (launch37 (F := F)).arr_whole c
    ((dat37 (Vof Win) a1 O c).share_full fun _ => rfl) (Vof Win c) (fun w => A_eq37 (Vof Win) a1 O c w)
  rw [Pipeline.unscopedBufs_held,
    Pipeline.unscopedRest_split (Ix := Unit) (Name := ℕ) (U := UD sig nD τ) (Lvl := ℕ) preFacts37 c (Vof Win c),
    Pipeline.unscopedRestP_sdiff pre37 spec37 {main_v141} hx_sub37 c (Vof Win c),
    show (fun k => Vof Win c (pre37.ref k)) = a1.1 from funext ha1] at hsplit
  exact hsplit

/-- EXIT, the buffers' part: the same four put back, the arrays at what the write-backs leave, are every unscoped
    buffer at the exit valuation. -/
theorem exit37 (c : Dev nD) (ha1 : ∀ k, Vof Win c (pre37.ref k) = a1.1 k) :
    iprop((dat37 (Vof Win) a1 O c).arrays ((dat37 (Vof Win) a1 O c).arrAt · (cfg37 a1).N)
        ∗ Pipeline.prefHeld pre37 c (fun _ => fullShare) a1.1
        ∗ (bigSep ({main_v141} : Finset (Ref sig .tc)) fun b => (((c : Thread nD τ)).loc b) ↦{fullShare} Vof Win c b)
        ∗ bigSep (Pipeline.restRefsP sig pre37 spec37 \ {main_v141}) fun b => (((c : Thread nD τ)).loc b) ↦{fullShare} Vof Win c b)
      ⊢ (StableHlo.held (c : Thread nD τ) (Pipeline.ucRefs τ sig) (Wout37 Win a1 O c) : sProp 𝕄) := by
  have hjoin := Pipeline.unscopedBufs_of_arrays (p := ()) (fun (_ : Unit) => pcfg37 (F := F)) (fun _ => a1)
    (Ix := Unit) (Name := ℕ) (U := UD sig nD τ) (Lvl := ℕ)
    winFacts37 (launch37 (F := F)).arr_whole c (fun _ c => dat37 (Vof Win) a1 O c)
    ((dat37 (Vof Win) a1 O c).share_full fun _ => rfl)
    (Vof Win c) (Vof (Wout37 Win a1 O) c) ((dat37 (Vof Win) a1 O c).arrAt · (cfg37 a1).N)
    (fun w => (Wout37_arr Win a1 O c w).symm)
    (fun b hb => Wout37_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts37 c (Vof Win c),
    Pipeline.unscopedRestP_sdiff pre37 spec37 {main_v141} hx_sub37 c (Vof Win c),
    show (fun k => Vof Win c (pre37.ref k)) = a1.1 from funext ha1] at hjoin
  exact hjoin

end Record

section Seg

variable (Win : Dev nD → Valuation τ sig (Elt F))
  (adm : (p : Fin 49) → (pcfgs (F := F) p).Adm)
  (O : (c : Dev nD) → Fin (cfg37 (adm (37 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout37. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg37 (hd : ∀ c, pdats (37 : Fin 49) c = dat37 (Vof Win) (adm (37 : Fin 49)) O c)
    (ha1 : ∀ c k, Vof Win c (pre37.ref k) = (adm (37 : Fin 49)).1 k)
    (hbody : ∀ c, BodyObligation (dat37 (F := F) (Vof Win) (adm (37 : Fin 49)) O c) (defs₀ (F := F)) 𝒱₀ () Set.univ) :
    Pipeline.RegionSeg (pcfgs (F := F)) adm pdats () defs₀ 𝒱₀ L lv (37 : Fin 49) where
  win := (launch37 (F := F)).win.to₀
  block_pos := (launch37 (F := F)).block_pos
  stage_whole := (launch37 (F := F)).stage_whole
  K := Fin 8
  osem := osem37
  ho := ownSemFacts37
  hbody c := by rw [hd c]; exact (hbody c).loose
  hwaits := Pipeline.hwaits_of_owed_zero _ _ _ _ L lv (37 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout37 Win (adm (37 : Fin 49)) O c) ∗ R c)
  X c := iprop((∃ r, prngReg c r)
    ∗ Pipeline.ownSems0 (Ix := Unit) (Name := ℕ) (U := UD sig nD τ) (Lvl := ℕ) (Val := Elt F) (τ := τ) osem37 c
    ∗ (bigSep ({main_v141} : Finset (Ref sig .tc)) fun b => (((c : Thread nD τ)).loc b) ↦{fullShare} Vof Win c b))
  Y c := iprop((∃ r, prngReg c r)
    ∗ (bigSep ({main_v141} : Finset (Ref sig .tc)) fun b => (((c : Thread nD τ)).loc b) ↦{fullShare} Vof Win c b)
    ∗ Pipeline.prefHeld pre37 c (fun _ => fullShare) (adm (37 : Fin 49)).1)
  Z c := bigSep (Pipeline.restRefsP sig pre37 spec37 \ {main_v141}) fun b => (((c : Thread nD τ)).loc b) ↦{fullShare} Vof Win c b
  hentry c := by
    rw [hd c]
    iintro ⟨⟨Hub, Hp, HO⟩, Hos, -⟩
    ihave H := (entry37 Win (adm (37 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq37, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq37, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit37 Win (adm (37 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg37 (F := F)).Adm)

/-- The output block at point t: the gathered rows (of the far operand's contents under V, chosen by the table's
    words at that point) times the input block. -/
def outBlk37 (c : Dev nD) (t : Fin (cfg37 a1).N) : Vec F S8x64 .f32 :=
  gatherOut (gatherG (a1.1 0) (V c main_v141) (grid37.coords t)) (iblk37 V a1 c 0 t)

theorem outBlk_eq37 (c : Dev nD) (t : Fin (cfg37 a1).N) :
    outBlk37 V a1 c t = gatherOut (gatherG (a1.1 0) (V c main_v141) (grid37.coords t)) (iblk37 V a1 c 0 t) := rfl

/-- The proof data with the output block named: after the body at point t the output window's buffer holds it. -/
theorem afterOutBlk37 (c : Dev nD) (t : Fin (cfg37 a1).N) :
    (dat37 V a1 (outBlk37 V a1) c).after 1 t
      = gatherOut (gatherG (a1.1 0) (V c main_v141) (grid37.coords t)) (iblk37 V a1 c 0 t) :=
  afterOut37 V a1 (outBlk37 V a1) c t

/-- The own cells at zero are the semaphore array's eight entries at zero, in order. -/
theorem ownSems_eq37 (c : Dev nD) :
    (Pipeline.ownSems0 (Ix := Unit) (Name := ℕ) (U := UD sig nD τ) (Lvl := ℕ) (Val := Elt F) (τ := τ) osem37 c : sProp 𝕄)
      = gsems0 c cc37_scratch1 := by
  rw [Pipeline.ownSems0_eq_of_list c osem37 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq37 (t : Fin (cfg37 a1).N) : ∃ h3 h4, bodyProg37 (F := F) a1 t
    = cc37__gather_mul_kernel (grid37.coords t) (Memref.whole main_v159) (Memref.isWhole_whole _) (Memref.whole main_v141) (Memref.isWhole_whole _)
        (stg37 a1 0 t) h3 (stg37 a1 1 t) h4 (Memref.whole cc37_scratch0) (Memref.isWhole_whole _) cc37_scratch1 := ⟨_, _, rfl⟩

end Out

/-! ## The body's run, joined to the proof data -/

section Body

variable (V : (c : Dev nD) → (b : Ref sig .tc) → Buf (Elt F) ((c : Thread nD τ).loc b))
  (a1 : (pcfg37 (F := F)).Adm)

/-- The scratch buffer whole at some contents, as a memref owned at some contents. -/
theorem scratchOwns_eq37 (c : Dev nD) :
    (iprop(∃ d, owns (c : Thread nD τ) (Memref.whole cc37_scratch0) fullShare d) : sProp 𝕄)
      = iprop(∃ f : Buf (Elt F) ((c : Thread nD τ).loc cc37_scratch0), ((c : Thread nD τ).loc cc37_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun37 (hlt : ∀ y, BitVec.toNat ((a1.1 0) y) < 100000) : BodyRun37 V a1 (outBlk37 V a1) := by
  intro c t W K
  obtain ⟨h3, h4, hprog⟩ := bodyProg_eq37 (F := F) a1 t
  rw [hprog, ownSems_eq37, ← scratchOwns_eq37 (F := F) c]
  have hrun := gather_kernel_run_37 (F := F) c (grid37.coords t) (Memref.whole main_v159) (Memref.isWhole_whole _) (Memref.whole main_v141) (Memref.isWhole_whole _)
    (stg37 a1 0 t) h3 (stg37 a1 1 t) h4 (Memref.whole cc37_scratch0) (Memref.isWhole_whole _) cc37_scratch1 fullShare fullShare
    (a1.1 0) (V c main_v141) (iblk37 V a1 c 0 t) (fun y => hlt y) W K
  simp only [Memref.view_whole, View.read_whole] at hrun
  unfold outBlk37
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut37 (hlt : ∀ y, BitVec.toNat ((a1.1 0) y) < 100000) (c : Dev nD) :
    BodyObligation (dat37 (F := F) V a1 (outBlk37 V a1) c) (defs₀ (F := F)) Variants.none () Set.univ :=
  body_obligation37 V a1 (outBlk37 V a1) (bodyRun37 V a1 hlt) c

end Body

/-! # Region 38 -/

/-! ## The body's own transfer cells -/

/-- The eight cells of the body's semaphore array, in order. -/
abbrev osem38 : Fin 8 → SemLoc sig := fun j => SemLoc.dma (cc38_scratch1.ix (fun | ⟨0, _⟩ => j))

/-- They are scoped, pairwise distinct, and none is a staging cell of a window. -/
theorem ownSemFacts38 : Pipeline.OwnSemFacts spec38 osem38 := by decide

/-- The far operand is an unscoped buffer that is neither a window's array nor a table. -/
theorem hx_sub38 : ({main_v141} : Finset (Ref sig .tc)) ⊆ Pipeline.restRefsP sig pre38 spec38 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg38 (F := F)).Adm)
  (O : (c : Dev nD) → Fin (cfg38 a1).N → Vec F S8x64 .f32)

/-! ## The windows' blocks -/

/-- Window w's block at point t, read off its array under V. -/
def iblk38 (c : Dev nD) (w : Fin (cfg38 a1).W) (t : Fin (cfg38 a1).N) :
    (((cfg38 a1).win w).xblock ((cfg38 a1).grid.coords t)).Idx → Elt F ((cfg38 a1).win w).elt :=
  (((cfg38 a1).win w).blk t).view.read (Elt F) (V c (Pipeline.arrRef spec38 w))

/-- The input window's current staging buffer holds its block at every point, fetched there or not, for any proof
    data whose array is V's and whose body leaves the block in place: unfetched, the block index has not moved. -/
theorem beforeIn38_of {c : Dev nD} (dat : Dat τ (Elt F) Unit ℕ (UD sig nD τ) ℕ (cfg38 a1) c)
    (hA : dat.A 0 = V c (Pipeline.arrRef spec38 0))
    (hafter : ∀ t, dat.after 0 t = iblk38 V a1 c 0 t) (t : Fin (cfg38 a1).N) (d) : dat.before 0 t d = iblk38 V a1 c 0 t :=
  (dat.before_in_eq_fetched 0 rfl (fun _ => rfl) (fun _ _ _ => rfl)
    (fun t => by rw [hafter]; unfold Dat.blockOf iblk38; rw [hA]; try rfl) t d).trans
    (by unfold Dat.fetched Dat.blockOf iblk38; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat38 (c : Dev nD) : Dat τ (Elt F) Unit ℕ (UD sig nD τ) ℕ (cfg38 a1) c where
  A w := V c (Pipeline.arrRef spec38 w)
  after w t := match w with
    | ⟨0, _⟩ => iblk38 V a1 c 0 t
    | ⟨1, _⟩ => O c t
  Φ _ := iprop(Pipeline.ΦD osem38 spec38 {main_v141} V c ∗ Pipeline.prefHeld pre38 c (fun _ => fullShare) a1.1)
  q _ := fullShare
  owed _ := 0

theorem A_eq38 (c : Dev nD) (w : Fin (cfg38 a1).W) : (dat38 V a1 O c).A w = V c (Pipeline.arrRef spec38 w) := by
  dsimp only [dat38]

theorem afterIn38 (c : Dev nD) (t : Fin (cfg38 a1).N) : (dat38 V a1 O c).after 0 t = iblk38 V a1 c 0 t := by
  dsimp only [dat38]; rfl

theorem afterOut38 (c : Dev nD) (t : Fin (cfg38 a1).N) :
    (dat38 V a1 O c).after 1 t = O c t := by
  dsimp only [dat38]; rfl

theorem beforeIn38 (c : Dev nD) (t : Fin (cfg38 a1).N) (d) : (dat38 V a1 O c).before 0 t d = iblk38 V a1 c 0 t :=
  beforeIn38_of V a1 (dat38 V a1 O c) (A_eq38 V a1 O c 0) (afterIn38 V a1 O c) t d

theorem Phi_eq38 (c : Dev nD) (t : Fin ((cfg38 a1).N + 1)) :
    (dat38 V a1 O c).Φ t
      = iprop(Pipeline.ΦD osem38 spec38 {main_v141} V c ∗ Pipeline.prefHeld pre38 c (fun _ => fullShare) a1.1) := by
  dsimp only [dat38]

theorem owed_eq38 (c : Dev nD) (t : Fin ((cfg38 a1).N + 1)) : (dat38 V a1 O c).owed t = 0 := by
  dsimp only [dat38]

/-! ## The invariant, conjunct by conjunct -/

/-- The invariant's first part opened: the body's scratch buffer whole at some contents and the other scoped
    buffers no window stages, the generator register, the own cells at zero, the far operand at its contents. -/
theorem PhiD_eq38 (c : Dev nD) :
    (Pipeline.ΦD osem38 spec38 {main_v141} V c : sProp 𝕄)
      = iprop(iprop(iprop((∃ f : Buf (Elt F) ((c : Thread nD τ).loc cc38_scratch0), ((c : Thread nD τ).loc cc38_scratch0) ↦{fullShare} f))
            ∗ Pipeline.scopedRestBut (Ix := Unit) (Name := ℕ) (U := UD sig nD τ) (Lvl := ℕ) (Val := Elt F) spec38 c [cc38_scratch0])
          ∗ (∃ r, prngReg c r)
          ∗ Pipeline.ownSems0 (Ix := Unit) (Name := ℕ) (U := UD sig nD τ) (Lvl := ℕ) (Val := Elt F) (τ := τ) osem38 c
          ∗ (((c : Thread nD τ).loc main_v141) ↦{fullShare} V c main_v141)) := by
  rw [Pipeline.ΦD_eq, scopedRest38_split, BI.bigSep_eq_bigSepL_of_eq [main_v141] (by decide) (by decide)]; rfl

/-- The one table, held whole. -/
theorem prefHeld_eq38 (c : Dev nD) :
    (Pipeline.prefHeld pre38 c (fun _ => fullShare) a1.1 : sProp 𝕄)
      = (((c : Thread nD τ).loc main_v163) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg38 (w : Fin (cfg38 a1).W) (t : Fin (cfg38 a1).N) := ((cfg38 a1).win w).stage ((cfg38 a1).slots t w)

/-- The body as the pipeline calls it at point t. -/
abbrev bodyProg38 (t : Fin (cfg38 a1).N) : Prog (TpuEff nD τ sig (Elt F) Λ₀ .tc) PUnit :=
  (defs₀ (F := F)) .tc (cfg38 a1).body ((cfg38 a1).bodyArgs t ((cfg38 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun38 : Prop :=
  ∀ (c : Dev nD) (t : Fin (cfg38 a1).N) (W) (K : PUnit → sProp 𝕄),
    iprop(owns (c : Thread nD τ) (stg38 a1 0 t) fullShare (iblk38 V a1 c 0 t)
        ∗ (∃ d, owns (c : Thread nD τ) (stg38 a1 1 t) fullShare d)
        ∗ (∃ f : Buf (Elt F) ((c : Thread nD τ).loc cc38_scratch0), ((c : Thread nD τ).loc cc38_scratch0) ↦{fullShare} f)
        ∗ Pipeline.ownSems0 (Ix := Unit) (Name := ℕ) (U := UD sig nD τ) (Lvl := ℕ) (Val := Elt F) (τ := τ) osem38 c
        ∗ (((c : Thread nD τ).loc main_v163) ↦{fullShare} a1.1 0)
        ∗ (((c : Thread nD τ).loc main_v141) ↦{fullShare} V c main_v141)
        ∗ owes (c : Thread nD τ) (0 : CellTallies nD τ sig Unit) W
        ∗ (iprop(owns (c : Thread nD τ) (stg38 a1 0 t) fullShare (iblk38 V a1 c 0 t)
            ∗ owns (c : Thread nD τ) (stg38 a1 1 t) fullShare (O c t)
            ∗ (∃ f : Buf (Elt F) ((c : Thread nD τ).loc cc38_scratch0), ((c : Thread nD τ).loc cc38_scratch0) ↦{fullShare} f)
            ∗ Pipeline.ownSems0 (Ix := Unit) (Name := ℕ) (U := UD sig nD τ) (Lvl := ℕ) (Val := Elt F) (τ := τ) osem38 c
            ∗ (((c : Thread nD τ).loc main_v163) ↦{fullShare} a1.1 0)
            ∗ (((c : Thread nD τ).loc main_v141) ↦{fullShare} V c main_v141)
            ∗ (∃ W', owes (c : Thread nD τ) (0 : CellTallies nD τ sig Unit) W')) -∗ K ⟨⟩))
      ⊢ wp frame (wpE (defs₀ (F := F)) Variants.none c none) Set.univ (bodyProg38 a1 t) K

/-- What the body is called with at point t, the windows one by one, -/
def bodyPre38 (c : Dev nD) (t : Fin (cfg38 a1).N) : sProp 𝕄 :=
  iprop((dat38 V a1 O c).Φ t.castSucc ∗ (dat38 V a1 O c).owesAt () t.castSucc
    ∗ (∃ d, owns (c : Thread nD τ) (stg38 a1 0 t) fullShare ((dat38 V a1 O c).before 0 t d))
    ∗ (∃ d, owns (c : Thread nD τ) (stg38 a1 1 t) fullShare ((dat38 V a1 O c).before 1 t d)))

/-- and what it returns. -/
def bodyPost38 (c : Dev nD) (t : Fin (cfg38 a1).N) : sProp 𝕄 :=
  iprop((dat38 V a1 O c).Φ t.succ ∗ (dat38 V a1 O c).owesAt () t.succ
    ∗ owns (c : Thread nD τ) (stg38 a1 0 t) fullShare ((dat38 V a1 O c).after 0 t)
    ∗ owns (c : Thread nD τ) (stg38 a1 1 t) fullShare ((dat38 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body38 (hrun : BodyRun38 V a1 O) (c : Dev nD) (t : Fin (cfg38 a1).N) :
    bodyPre38 V a1 O c t
      ⊢ wp frame (wpE (defs₀ (F := F)) Variants.none c none) Set.univ (bodyProg38 a1 t) (fun _ => bodyPost38 V a1 O c t) := by
  unfold bodyPre38 bodyPost38
  simp only [beforeIn38]
  rw [afterIn38, afterOut38, Phi_eq38, Phi_eq38, PhiD_eq38, prefHeld_eq38]
  unfold Dat.owesAt Pipeline.owesWithin
  rw [owed_eq38, owed_eq38]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation38 (hrun : BodyRun38 V a1 O) (c : Dev nD) :
    BodyObligation (dat38 (F := F) V a1 O c) (defs₀ (F := F)) Variants.none () Set.univ := fun t => by
  rw [bigSep_W38, bigSep_W38]
  exact sound_body38 V a1 O hrun c t

end Data

/-! ## The region's record -/

section Record

variable (Win : Dev nD → Valuation τ sig (Elt F))

variable (a1 : (pcfg38 (F := F)).Adm)
  (O : (c : Dev nD) → Fin (cfg38 a1).N → Vec F S8x64 .f32)

/-- The buffers at the region's exit: its arrays at what the write-backs leave, every other buffer as entered. -/
def Wout38 (c : Dev nD) : Valuation τ sig (Elt F) :=
  Pipeline.withArrays spec38 c (Win c) fun w => (dat38 (Vof Win) a1 O c).arrAt w (cfg38 a1).N

theorem Wout38_arr (c : Dev nD) (w : Fin (cfg38 a1).W) :
    Wout38 Win a1 O c (Proc.devRef .tc (Pipeline.arrRef spec38 w)) = (dat38 (Vof Win) a1 O c).arrAt w (cfg38 a1).N := by
  unfold Wout38; exact Pipeline.withArrays_arr spec38 winFacts38.arr_inj c _ _ w

theorem Wout38_of_ne (c : Dev nD) (b : Ref sig .tc) (hb : ∀ w, Pipeline.arrRef spec38 w ≠ b) :
    Wout38 Win a1 O c (Proc.devRef .tc b) = Win c (Proc.devRef .tc b) := by
  unfold Wout38; exact Pipeline.withArrays_of_ne spec38 c _ _ b hb

/-- ENTRY, the buffers' part. Every unscoped buffer at Win is: the region's arrays at the proof data's entry contents,
    the table whole at the admissible contents (which are Win's there), the far operand whole, and the others. -/
theorem entry38 (c : Dev nD) (ha1 : ∀ k, Vof Win c (pre38.ref k) = a1.1 k) :
    (StableHlo.held (c : Thread nD τ) (Pipeline.ucRefs τ sig) (Win c) : sProp 𝕄)
      ⊢ iprop((dat38 (Vof Win) a1 O c).arrays ((dat38 (Vof Win) a1 O c).arrAt · 0)
          ∗ Pipeline.prefHeld pre38 c (fun _ => fullShare) a1.1
          ∗ (bigSep ({main_v141} : Finset (Ref sig .tc)) fun b => (((c : Thread nD τ)).loc b) ↦{fullShare} Vof Win c b)
          ∗ bigSep (Pipeline.restRefsP sig pre38 spec38 \ {main_v141}) fun b => (((c : Thread nD τ)).loc b) ↦{fullShare} Vof Win c b) := by
  have hsplit := Pipeline.arrays_of_unscopedBufs (p := ()) (fun (_ : Unit) => pcfg38 (F := F)) (fun _ => a1)
    (fun _ c => dat38 (Vof Win) a1 O c) winFacts38 (launch38 (F := F)).arr_whole c
    ((dat38 (Vof Win) a1 O c).share_full fun _ => rfl) (Vof Win c) (fun w => A_eq38 (Vof Win) a1 O c w)
  rw [Pipeline.unscopedBufs_held,
    Pipeline.unscopedRest_split (Ix := Unit) (Name := ℕ) (U := UD sig nD τ) (Lvl := ℕ) preFacts38 c (Vof Win c),
    Pipeline.unscopedRestP_sdiff pre38 spec38 {main_v141} hx_sub38 c (Vof Win c),
    show (fun k => Vof Win c (pre38.ref k)) = a1.1 from funext ha1] at hsplit
  exact hsplit

/-- EXIT, the buffers' part: the same four put back, the arrays at what the write-backs leave, are every unscoped
    buffer at the exit valuation. -/
theorem exit38 (c : Dev nD) (ha1 : ∀ k, Vof Win c (pre38.ref k) = a1.1 k) :
    iprop((dat38 (Vof Win) a1 O c).arrays ((dat38 (Vof Win) a1 O c).arrAt · (cfg38 a1).N)
        ∗ Pipeline.prefHeld pre38 c (fun _ => fullShare) a1.1
        ∗ (bigSep ({main_v141} : Finset (Ref sig .tc)) fun b => (((c : Thread nD τ)).loc b) ↦{fullShare} Vof Win c b)
        ∗ bigSep (Pipeline.restRefsP sig pre38 spec38 \ {main_v141}) fun b => (((c : Thread nD τ)).loc b) ↦{fullShare} Vof Win c b)
      ⊢ (StableHlo.held (c : Thread nD τ) (Pipeline.ucRefs τ sig) (Wout38 Win a1 O c) : sProp 𝕄) := by
  have hjoin := Pipeline.unscopedBufs_of_arrays (p := ()) (fun (_ : Unit) => pcfg38 (F := F)) (fun _ => a1)
    (Ix := Unit) (Name := ℕ) (U := UD sig nD τ) (Lvl := ℕ)
    winFacts38 (launch38 (F := F)).arr_whole c (fun _ c => dat38 (Vof Win) a1 O c)
    ((dat38 (Vof Win) a1 O c).share_full fun _ => rfl)
    (Vof Win c) (Vof (Wout38 Win a1 O) c) ((dat38 (Vof Win) a1 O c).arrAt · (cfg38 a1).N)
    (fun w => (Wout38_arr Win a1 O c w).symm)
    (fun b hb => Wout38_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts38 c (Vof Win c),
    Pipeline.unscopedRestP_sdiff pre38 spec38 {main_v141} hx_sub38 c (Vof Win c),
    show (fun k => Vof Win c (pre38.ref k)) = a1.1 from funext ha1] at hjoin
  exact hjoin

end Record

section Seg

variable (Win : Dev nD → Valuation τ sig (Elt F))
  (adm : (p : Fin 49) → (pcfgs (F := F) p).Adm)
  (O : (c : Dev nD) → Fin (cfg38 (adm (38 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout38. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg38 (hd : ∀ c, pdats (38 : Fin 49) c = dat38 (Vof Win) (adm (38 : Fin 49)) O c)
    (ha1 : ∀ c k, Vof Win c (pre38.ref k) = (adm (38 : Fin 49)).1 k)
    (hbody : ∀ c, BodyObligation (dat38 (F := F) (Vof Win) (adm (38 : Fin 49)) O c) (defs₀ (F := F)) 𝒱₀ () Set.univ) :
    Pipeline.RegionSeg (pcfgs (F := F)) adm pdats () defs₀ 𝒱₀ L lv (38 : Fin 49) where
  win := (launch38 (F := F)).win.to₀
  block_pos := (launch38 (F := F)).block_pos
  stage_whole := (launch38 (F := F)).stage_whole
  K := Fin 8
  osem := osem38
  ho := ownSemFacts38
  hbody c := by rw [hd c]; exact (hbody c).loose
  hwaits := Pipeline.hwaits_of_owed_zero _ _ _ _ L lv (38 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout38 Win (adm (38 : Fin 49)) O c) ∗ R c)
  X c := iprop((∃ r, prngReg c r)
    ∗ Pipeline.ownSems0 (Ix := Unit) (Name := ℕ) (U := UD sig nD τ) (Lvl := ℕ) (Val := Elt F) (τ := τ) osem38 c
    ∗ (bigSep ({main_v141} : Finset (Ref sig .tc)) fun b => (((c : Thread nD τ)).loc b) ↦{fullShare} Vof Win c b))
  Y c := iprop((∃ r, prngReg c r)
    ∗ (bigSep ({main_v141} : Finset (Ref sig .tc)) fun b => (((c : Thread nD τ)).loc b) ↦{fullShare} Vof Win c b)
    ∗ Pipeline.prefHeld pre38 c (fun _ => fullShare) (adm (38 : Fin 49)).1)
  Z c := bigSep (Pipeline.restRefsP sig pre38 spec38 \ {main_v141}) fun b => (((c : Thread nD τ)).loc b) ↦{fullShare} Vof Win c b
  hentry c := by
    rw [hd c]
    iintro ⟨⟨Hub, Hp, HO⟩, Hos, -⟩
    ihave H := (entry38 Win (adm (38 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq38, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq38, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit38 Win (adm (38 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg38 (F := F)).Adm)

/-- The output block at point t: the gathered rows (of the far operand's contents under V, chosen by the table's
    words at that point) times the input block. -/
def outBlk38 (c : Dev nD) (t : Fin (cfg38 a1).N) : Vec F S8x64 .f32 :=
  gatherOut (gatherG (a1.1 0) (V c main_v141) (grid38.coords t)) (iblk38 V a1 c 0 t)

theorem outBlk_eq38 (c : Dev nD) (t : Fin (cfg38 a1).N) :
    outBlk38 V a1 c t = gatherOut (gatherG (a1.1 0) (V c main_v141) (grid38.coords t)) (iblk38 V a1 c 0 t) := rfl

/-- The proof data with the output block named: after the body at point t the output window's buffer holds it. -/
theorem afterOutBlk38 (c : Dev nD) (t : Fin (cfg38 a1).N) :
    (dat38 V a1 (outBlk38 V a1) c).after 1 t
      = gatherOut (gatherG (a1.1 0) (V c main_v141) (grid38.coords t)) (iblk38 V a1 c 0 t) :=
  afterOut38 V a1 (outBlk38 V a1) c t

/-- The own cells at zero are the semaphore array's eight entries at zero, in order. -/
theorem ownSems_eq38 (c : Dev nD) :
    (Pipeline.ownSems0 (Ix := Unit) (Name := ℕ) (U := UD sig nD τ) (Lvl := ℕ) (Val := Elt F) (τ := τ) osem38 c : sProp 𝕄)
      = gsems0 c cc38_scratch1 := by
  rw [Pipeline.ownSems0_eq_of_list c osem38 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq38 (t : Fin (cfg38 a1).N) : ∃ h3 h4, bodyProg38 (F := F) a1 t
    = cc38__gather_mul_kernel (grid38.coords t) (Memref.whole main_v163) (Memref.isWhole_whole _) (Memref.whole main_v141) (Memref.isWhole_whole _)
        (stg38 a1 0 t) h3 (stg38 a1 1 t) h4 (Memref.whole cc38_scratch0) (Memref.isWhole_whole _) cc38_scratch1 := ⟨_, _, rfl⟩

end Out

/-! ## The body's run, joined to the proof data -/

section Body

variable (V : (c : Dev nD) → (b : Ref sig .tc) → Buf (Elt F) ((c : Thread nD τ).loc b))
  (a1 : (pcfg38 (F := F)).Adm)

/-- The scratch buffer whole at some contents, as a memref owned at some contents. -/
theorem scratchOwns_eq38 (c : Dev nD) :
    (iprop(∃ d, owns (c : Thread nD τ) (Memref.whole cc38_scratch0) fullShare d) : sProp 𝕄)
      = iprop(∃ f : Buf (Elt F) ((c : Thread nD τ).loc cc38_scratch0), ((c : Thread nD τ).loc cc38_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun38 (hlt : ∀ y, BitVec.toNat ((a1.1 0) y) < 100000) : BodyRun38 V a1 (outBlk38 V a1) := by
  intro c t W K
  obtain ⟨h3, h4, hprog⟩ := bodyProg_eq38 (F := F) a1 t
  rw [hprog, ownSems_eq38, ← scratchOwns_eq38 (F := F) c]
  have hrun := gather_kernel_run_38 (F := F) c (grid38.coords t) (Memref.whole main_v163) (Memref.isWhole_whole _) (Memref.whole main_v141) (Memref.isWhole_whole _)
    (stg38 a1 0 t) h3 (stg38 a1 1 t) h4 (Memref.whole cc38_scratch0) (Memref.isWhole_whole _) cc38_scratch1 fullShare fullShare
    (a1.1 0) (V c main_v141) (iblk38 V a1 c 0 t) (fun y => hlt y) W K
  simp only [Memref.view_whole, View.read_whole] at hrun
  unfold outBlk38
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut38 (hlt : ∀ y, BitVec.toNat ((a1.1 0) y) < 100000) (c : Dev nD) :
    BodyObligation (dat38 (F := F) V a1 (outBlk38 V a1) c) (defs₀ (F := F)) Variants.none () Set.univ :=
  body_obligation38 V a1 (outBlk38 V a1) (bodyRun38 V a1 hlt) c

end Body

/-! # Region 39 -/

/-! ## The body's own transfer cells -/

/-- The eight cells of the body's semaphore array, in order. -/
abbrev osem39 : Fin 8 → SemLoc sig := fun j => SemLoc.dma (cc39_scratch1.ix (fun | ⟨0, _⟩ => j))

/-- They are scoped, pairwise distinct, and none is a staging cell of a window. -/
theorem ownSemFacts39 : Pipeline.OwnSemFacts spec39 osem39 := by decide

/-- The far operand is an unscoped buffer that is neither a window's array nor a table. -/
theorem hx_sub39 : ({main_v141} : Finset (Ref sig .tc)) ⊆ Pipeline.restRefsP sig pre39 spec39 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg39 (F := F)).Adm)
  (O : (c : Dev nD) → Fin (cfg39 a1).N → Vec F S8x64 .f32)

/-! ## The windows' blocks -/

/-- Window w's block at point t, read off its array under V. -/
def iblk39 (c : Dev nD) (w : Fin (cfg39 a1).W) (t : Fin (cfg39 a1).N) :
    (((cfg39 a1).win w).xblock ((cfg39 a1).grid.coords t)).Idx → Elt F ((cfg39 a1).win w).elt :=
  (((cfg39 a1).win w).blk t).view.read (Elt F) (V c (Pipeline.arrRef spec39 w))

/-- The input window's current staging buffer holds its block at every point, fetched there or not, for any proof
    data whose array is V's and whose body leaves the block in place: unfetched, the block index has not moved. -/
theorem beforeIn39_of {c : Dev nD} (dat : Dat τ (Elt F) Unit ℕ (UD sig nD τ) ℕ (cfg39 a1) c)
    (hA : dat.A 0 = V c (Pipeline.arrRef spec39 0))
    (hafter : ∀ t, dat.after 0 t = iblk39 V a1 c 0 t) (t : Fin (cfg39 a1).N) (d) : dat.before 0 t d = iblk39 V a1 c 0 t :=
  (dat.before_in_eq_fetched 0 rfl (fun _ => rfl) (fun _ _ _ => rfl)
    (fun t => by rw [hafter]; unfold Dat.blockOf iblk39; rw [hA]; try rfl) t d).trans
    (by unfold Dat.fetched Dat.blockOf iblk39; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat39 (c : Dev nD) : Dat τ (Elt F) Unit ℕ (UD sig nD τ) ℕ (cfg39 a1) c where
  A w := V c (Pipeline.arrRef spec39 w)
  after w t := match w with
    | ⟨0, _⟩ => iblk39 V a1 c 0 t
    | ⟨1, _⟩ => O c t
  Φ _ := iprop(Pipeline.ΦD osem39 spec39 {main_v141} V c ∗ Pipeline.prefHeld pre39 c (fun _ => fullShare) a1.1)
  q _ := fullShare
  owed _ := 0

theorem A_eq39 (c : Dev nD) (w : Fin (cfg39 a1).W) : (dat39 V a1 O c).A w = V c (Pipeline.arrRef spec39 w) := by
  dsimp only [dat39]

theorem afterIn39 (c : Dev nD) (t : Fin (cfg39 a1).N) : (dat39 V a1 O c).after 0 t = iblk39 V a1 c 0 t := by
  dsimp only [dat39]; rfl

theorem afterOut39 (c : Dev nD) (t : Fin (cfg39 a1).N) :
    (dat39 V a1 O c).after 1 t = O c t := by
  dsimp only [dat39]; rfl

theorem beforeIn39 (c : Dev nD) (t : Fin (cfg39 a1).N) (d) : (dat39 V a1 O c).before 0 t d = iblk39 V a1 c 0 t :=
  beforeIn39_of V a1 (dat39 V a1 O c) (A_eq39 V a1 O c 0) (afterIn39 V a1 O c) t d

theorem Phi_eq39 (c : Dev nD) (t : Fin ((cfg39 a1).N + 1)) :
    (dat39 V a1 O c).Φ t
      = iprop(Pipeline.ΦD osem39 spec39 {main_v141} V c ∗ Pipeline.prefHeld pre39 c (fun _ => fullShare) a1.1) := by
  dsimp only [dat39]

theorem owed_eq39 (c : Dev nD) (t : Fin ((cfg39 a1).N + 1)) : (dat39 V a1 O c).owed t = 0 := by
  dsimp only [dat39]

/-! ## The invariant, conjunct by conjunct -/

/-- The invariant's first part opened: the body's scratch buffer whole at some contents and the other scoped
    buffers no window stages, the generator register, the own cells at zero, the far operand at its contents. -/
theorem PhiD_eq39 (c : Dev nD) :
    (Pipeline.ΦD osem39 spec39 {main_v141} V c : sProp 𝕄)
      = iprop(iprop(iprop((∃ f : Buf (Elt F) ((c : Thread nD τ).loc cc39_scratch0), ((c : Thread nD τ).loc cc39_scratch0) ↦{fullShare} f))
            ∗ Pipeline.scopedRestBut (Ix := Unit) (Name := ℕ) (U := UD sig nD τ) (Lvl := ℕ) (Val := Elt F) spec39 c [cc39_scratch0])
          ∗ (∃ r, prngReg c r)
          ∗ Pipeline.ownSems0 (Ix := Unit) (Name := ℕ) (U := UD sig nD τ) (Lvl := ℕ) (Val := Elt F) (τ := τ) osem39 c
          ∗ (((c : Thread nD τ).loc main_v141) ↦{fullShare} V c main_v141)) := by
  rw [Pipeline.ΦD_eq, scopedRest39_split, BI.bigSep_eq_bigSepL_of_eq [main_v141] (by decide) (by decide)]; rfl

/-- The one table, held whole. -/
theorem prefHeld_eq39 (c : Dev nD) :
    (Pipeline.prefHeld pre39 c (fun _ => fullShare) a1.1 : sProp 𝕄)
      = (((c : Thread nD τ).loc main_v167) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg39 (w : Fin (cfg39 a1).W) (t : Fin (cfg39 a1).N) := ((cfg39 a1).win w).stage ((cfg39 a1).slots t w)

/-- The body as the pipeline calls it at point t. -/
abbrev bodyProg39 (t : Fin (cfg39 a1).N) : Prog (TpuEff nD τ sig (Elt F) Λ₀ .tc) PUnit :=
  (defs₀ (F := F)) .tc (cfg39 a1).body ((cfg39 a1).bodyArgs t ((cfg39 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun39 : Prop :=
  ∀ (c : Dev nD) (t : Fin (cfg39 a1).N) (W) (K : PUnit → sProp 𝕄),
    iprop(owns (c : Thread nD τ) (stg39 a1 0 t) fullShare (iblk39 V a1 c 0 t)
        ∗ (∃ d, owns (c : Thread nD τ) (stg39 a1 1 t) fullShare d)
        ∗ (∃ f : Buf (Elt F) ((c : Thread nD τ).loc cc39_scratch0), ((c : Thread nD τ).loc cc39_scratch0) ↦{fullShare} f)
        ∗ Pipeline.ownSems0 (Ix := Unit) (Name := ℕ) (U := UD sig nD τ) (Lvl := ℕ) (Val := Elt F) (τ := τ) osem39 c
        ∗ (((c : Thread nD τ).loc main_v167) ↦{fullShare} a1.1 0)
        ∗ (((c : Thread nD τ).loc main_v141) ↦{fullShare} V c main_v141)
        ∗ owes (c : Thread nD τ) (0 : CellTallies nD τ sig Unit) W
        ∗ (iprop(owns (c : Thread nD τ) (stg39 a1 0 t) fullShare (iblk39 V a1 c 0 t)
            ∗ owns (c : Thread nD τ) (stg39 a1 1 t) fullShare (O c t)
            ∗ (∃ f : Buf (Elt F) ((c : Thread nD τ).loc cc39_scratch0), ((c : Thread nD τ).loc cc39_scratch0) ↦{fullShare} f)
            ∗ Pipeline.ownSems0 (Ix := Unit) (Name := ℕ) (U := UD sig nD τ) (Lvl := ℕ) (Val := Elt F) (τ := τ) osem39 c
            ∗ (((c : Thread nD τ).loc main_v167) ↦{fullShare} a1.1 0)
            ∗ (((c : Thread nD τ).loc main_v141) ↦{fullShare} V c main_v141)
            ∗ (∃ W', owes (c : Thread nD τ) (0 : CellTallies nD τ sig Unit) W')) -∗ K ⟨⟩))
      ⊢ wp frame (wpE (defs₀ (F := F)) Variants.none c none) Set.univ (bodyProg39 a1 t) K

/-- What the body is called with at point t, the windows one by one, -/
def bodyPre39 (c : Dev nD) (t : Fin (cfg39 a1).N) : sProp 𝕄 :=
  iprop((dat39 V a1 O c).Φ t.castSucc ∗ (dat39 V a1 O c).owesAt () t.castSucc
    ∗ (∃ d, owns (c : Thread nD τ) (stg39 a1 0 t) fullShare ((dat39 V a1 O c).before 0 t d))
    ∗ (∃ d, owns (c : Thread nD τ) (stg39 a1 1 t) fullShare ((dat39 V a1 O c).before 1 t d)))

/-- and what it returns. -/
def bodyPost39 (c : Dev nD) (t : Fin (cfg39 a1).N) : sProp 𝕄 :=
  iprop((dat39 V a1 O c).Φ t.succ ∗ (dat39 V a1 O c).owesAt () t.succ
    ∗ owns (c : Thread nD τ) (stg39 a1 0 t) fullShare ((dat39 V a1 O c).after 0 t)
    ∗ owns (c : Thread nD τ) (stg39 a1 1 t) fullShare ((dat39 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body39 (hrun : BodyRun39 V a1 O) (c : Dev nD) (t : Fin (cfg39 a1).N) :
    bodyPre39 V a1 O c t
      ⊢ wp frame (wpE (defs₀ (F := F)) Variants.none c none) Set.univ (bodyProg39 a1 t) (fun _ => bodyPost39 V a1 O c t) := by
  unfold bodyPre39 bodyPost39
  simp only [beforeIn39]
  rw [afterIn39, afterOut39, Phi_eq39, Phi_eq39, PhiD_eq39, prefHeld_eq39]
  unfold Dat.owesAt Pipeline.owesWithin
  rw [owed_eq39, owed_eq39]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation39 (hrun : BodyRun39 V a1 O) (c : Dev nD) :
    BodyObligation (dat39 (F := F) V a1 O c) (defs₀ (F := F)) Variants.none () Set.univ := fun t => by
  rw [bigSep_W39, bigSep_W39]
  exact sound_body39 V a1 O hrun c t

end Data

/-! ## The region's record -/

section Record

variable (Win : Dev nD → Valuation τ sig (Elt F))

variable (a1 : (pcfg39 (F := F)).Adm)
  (O : (c : Dev nD) → Fin (cfg39 a1).N → Vec F S8x64 .f32)

/-- The buffers at the region's exit: its arrays at what the write-backs leave, every other buffer as entered. -/
def Wout39 (c : Dev nD) : Valuation τ sig (Elt F) :=
  Pipeline.withArrays spec39 c (Win c) fun w => (dat39 (Vof Win) a1 O c).arrAt w (cfg39 a1).N

theorem Wout39_arr (c : Dev nD) (w : Fin (cfg39 a1).W) :
    Wout39 Win a1 O c (Proc.devRef .tc (Pipeline.arrRef spec39 w)) = (dat39 (Vof Win) a1 O c).arrAt w (cfg39 a1).N := by
  unfold Wout39; exact Pipeline.withArrays_arr spec39 winFacts39.arr_inj c _ _ w

theorem Wout39_of_ne (c : Dev nD) (b : Ref sig .tc) (hb : ∀ w, Pipeline.arrRef spec39 w ≠ b) :
    Wout39 Win a1 O c (Proc.devRef .tc b) = Win c (Proc.devRef .tc b) := by
  unfold Wout39; exact Pipeline.withArrays_of_ne spec39 c _ _ b hb

/-- ENTRY, the buffers' part. Every unscoped buffer at Win is: the region's arrays at the proof data's entry contents,
    the table whole at the admissible contents (which are Win's there), the far operand whole, and the others. -/
theorem entry39 (c : Dev nD) (ha1 : ∀ k, Vof Win c (pre39.ref k) = a1.1 k) :
    (StableHlo.held (c : Thread nD τ) (Pipeline.ucRefs τ sig) (Win c) : sProp 𝕄)
      ⊢ iprop((dat39 (Vof Win) a1 O c).arrays ((dat39 (Vof Win) a1 O c).arrAt · 0)
          ∗ Pipeline.prefHeld pre39 c (fun _ => fullShare) a1.1
          ∗ (bigSep ({main_v141} : Finset (Ref sig .tc)) fun b => (((c : Thread nD τ)).loc b) ↦{fullShare} Vof Win c b)
          ∗ bigSep (Pipeline.restRefsP sig pre39 spec39 \ {main_v141}) fun b => (((c : Thread nD τ)).loc b) ↦{fullShare} Vof Win c b) := by
  have hsplit := Pipeline.arrays_of_unscopedBufs (p := ()) (fun (_ : Unit) => pcfg39 (F := F)) (fun _ => a1)
    (fun _ c => dat39 (Vof Win) a1 O c) winFacts39 (launch39 (F := F)).arr_whole c
    ((dat39 (Vof Win) a1 O c).share_full fun _ => rfl) (Vof Win c) (fun w => A_eq39 (Vof Win) a1 O c w)
  rw [Pipeline.unscopedBufs_held,
    Pipeline.unscopedRest_split (Ix := Unit) (Name := ℕ) (U := UD sig nD τ) (Lvl := ℕ) preFacts39 c (Vof Win c),
    Pipeline.unscopedRestP_sdiff pre39 spec39 {main_v141} hx_sub39 c (Vof Win c),
    show (fun k => Vof Win c (pre39.ref k)) = a1.1 from funext ha1] at hsplit
  exact hsplit

/-- EXIT, the buffers' part: the same four put back, the arrays at what the write-backs leave, are every unscoped
    buffer at the exit valuation. -/
theorem exit39 (c : Dev nD) (ha1 : ∀ k, Vof Win c (pre39.ref k) = a1.1 k) :
    iprop((dat39 (Vof Win) a1 O c).arrays ((dat39 (Vof Win) a1 O c).arrAt · (cfg39 a1).N)
        ∗ Pipeline.prefHeld pre39 c (fun _ => fullShare) a1.1
        ∗ (bigSep ({main_v141} : Finset (Ref sig .tc)) fun b => (((c : Thread nD τ)).loc b) ↦{fullShare} Vof Win c b)
        ∗ bigSep (Pipeline.restRefsP sig pre39 spec39 \ {main_v141}) fun b => (((c : Thread nD τ)).loc b) ↦{fullShare} Vof Win c b)
      ⊢ (StableHlo.held (c : Thread nD τ) (Pipeline.ucRefs τ sig) (Wout39 Win a1 O c) : sProp 𝕄) := by
  have hjoin := Pipeline.unscopedBufs_of_arrays (p := ()) (fun (_ : Unit) => pcfg39 (F := F)) (fun _ => a1)
    (Ix := Unit) (Name := ℕ) (U := UD sig nD τ) (Lvl := ℕ)
    winFacts39 (launch39 (F := F)).arr_whole c (fun _ c => dat39 (Vof Win) a1 O c)
    ((dat39 (Vof Win) a1 O c).share_full fun _ => rfl)
    (Vof Win c) (Vof (Wout39 Win a1 O) c) ((dat39 (Vof Win) a1 O c).arrAt · (cfg39 a1).N)
    (fun w => (Wout39_arr Win a1 O c w).symm)
    (fun b hb => Wout39_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts39 c (Vof Win c),
    Pipeline.unscopedRestP_sdiff pre39 spec39 {main_v141} hx_sub39 c (Vof Win c),
    show (fun k => Vof Win c (pre39.ref k)) = a1.1 from funext ha1] at hjoin
  exact hjoin

end Record

section Seg

variable (Win : Dev nD → Valuation τ sig (Elt F))
  (adm : (p : Fin 49) → (pcfgs (F := F) p).Adm)
  (O : (c : Dev nD) → Fin (cfg39 (adm (39 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout39. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg39 (hd : ∀ c, pdats (39 : Fin 49) c = dat39 (Vof Win) (adm (39 : Fin 49)) O c)
    (ha1 : ∀ c k, Vof Win c (pre39.ref k) = (adm (39 : Fin 49)).1 k)
    (hbody : ∀ c, BodyObligation (dat39 (F := F) (Vof Win) (adm (39 : Fin 49)) O c) (defs₀ (F := F)) 𝒱₀ () Set.univ) :
    Pipeline.RegionSeg (pcfgs (F := F)) adm pdats () defs₀ 𝒱₀ L lv (39 : Fin 49) where
  win := (launch39 (F := F)).win.to₀
  block_pos := (launch39 (F := F)).block_pos
  stage_whole := (launch39 (F := F)).stage_whole
  K := Fin 8
  osem := osem39
  ho := ownSemFacts39
  hbody c := by rw [hd c]; exact (hbody c).loose
  hwaits := Pipeline.hwaits_of_owed_zero _ _ _ _ L lv (39 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout39 Win (adm (39 : Fin 49)) O c) ∗ R c)
  X c := iprop((∃ r, prngReg c r)
    ∗ Pipeline.ownSems0 (Ix := Unit) (Name := ℕ) (U := UD sig nD τ) (Lvl := ℕ) (Val := Elt F) (τ := τ) osem39 c
    ∗ (bigSep ({main_v141} : Finset (Ref sig .tc)) fun b => (((c : Thread nD τ)).loc b) ↦{fullShare} Vof Win c b))
  Y c := iprop((∃ r, prngReg c r)
    ∗ (bigSep ({main_v141} : Finset (Ref sig .tc)) fun b => (((c : Thread nD τ)).loc b) ↦{fullShare} Vof Win c b)
    ∗ Pipeline.prefHeld pre39 c (fun _ => fullShare) (adm (39 : Fin 49)).1)
  Z c := bigSep (Pipeline.restRefsP sig pre39 spec39 \ {main_v141}) fun b => (((c : Thread nD τ)).loc b) ↦{fullShare} Vof Win c b
  hentry c := by
    rw [hd c]
    iintro ⟨⟨Hub, Hp, HO⟩, Hos, -⟩
    ihave H := (entry39 Win (adm (39 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq39, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq39, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit39 Win (adm (39 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg39 (F := F)).Adm)

/-- The output block at point t: the gathered rows (of the far operand's contents under V, chosen by the table's
    words at that point) times the input block. -/
def outBlk39 (c : Dev nD) (t : Fin (cfg39 a1).N) : Vec F S8x64 .f32 :=
  gatherOut (gatherG (a1.1 0) (V c main_v141) (grid39.coords t)) (iblk39 V a1 c 0 t)

theorem outBlk_eq39 (c : Dev nD) (t : Fin (cfg39 a1).N) :
    outBlk39 V a1 c t = gatherOut (gatherG (a1.1 0) (V c main_v141) (grid39.coords t)) (iblk39 V a1 c 0 t) := rfl

/-- The proof data with the output block named: after the body at point t the output window's buffer holds it. -/
theorem afterOutBlk39 (c : Dev nD) (t : Fin (cfg39 a1).N) :
    (dat39 V a1 (outBlk39 V a1) c).after 1 t
      = gatherOut (gatherG (a1.1 0) (V c main_v141) (grid39.coords t)) (iblk39 V a1 c 0 t) :=
  afterOut39 V a1 (outBlk39 V a1) c t

/-- The own cells at zero are the semaphore array's eight entries at zero, in order. -/
theorem ownSems_eq39 (c : Dev nD) :
    (Pipeline.ownSems0 (Ix := Unit) (Name := ℕ) (U := UD sig nD τ) (Lvl := ℕ) (Val := Elt F) (τ := τ) osem39 c : sProp 𝕄)
      = gsems0 c cc39_scratch1 := by
  rw [Pipeline.ownSems0_eq_of_list c osem39 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq39 (t : Fin (cfg39 a1).N) : ∃ h3 h4, bodyProg39 (F := F) a1 t
    = cc39__gather_mul_kernel (grid39.coords t) (Memref.whole main_v167) (Memref.isWhole_whole _) (Memref.whole main_v141) (Memref.isWhole_whole _)
        (stg39 a1 0 t) h3 (stg39 a1 1 t) h4 (Memref.whole cc39_scratch0) (Memref.isWhole_whole _) cc39_scratch1 := ⟨_, _, rfl⟩

end Out

/-! ## The body's run, joined to the proof data -/

section Body

variable (V : (c : Dev nD) → (b : Ref sig .tc) → Buf (Elt F) ((c : Thread nD τ).loc b))
  (a1 : (pcfg39 (F := F)).Adm)

/-- The scratch buffer whole at some contents, as a memref owned at some contents. -/
theorem scratchOwns_eq39 (c : Dev nD) :
    (iprop(∃ d, owns (c : Thread nD τ) (Memref.whole cc39_scratch0) fullShare d) : sProp 𝕄)
      = iprop(∃ f : Buf (Elt F) ((c : Thread nD τ).loc cc39_scratch0), ((c : Thread nD τ).loc cc39_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun39 (hlt : ∀ y, BitVec.toNat ((a1.1 0) y) < 100000) : BodyRun39 V a1 (outBlk39 V a1) := by
  intro c t W K
  obtain ⟨h3, h4, hprog⟩ := bodyProg_eq39 (F := F) a1 t
  rw [hprog, ownSems_eq39, ← scratchOwns_eq39 (F := F) c]
  have hrun := gather_kernel_run_39 (F := F) c (grid39.coords t) (Memref.whole main_v167) (Memref.isWhole_whole _) (Memref.whole main_v141) (Memref.isWhole_whole _)
    (stg39 a1 0 t) h3 (stg39 a1 1 t) h4 (Memref.whole cc39_scratch0) (Memref.isWhole_whole _) cc39_scratch1 fullShare fullShare
    (a1.1 0) (V c main_v141) (iblk39 V a1 c 0 t) (fun y => hlt y) W K
  simp only [Memref.view_whole, View.read_whole] at hrun
  unfold outBlk39
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut39 (hlt : ∀ y, BitVec.toNat ((a1.1 0) y) < 100000) (c : Dev nD) :
    BodyObligation (dat39 (F := F) V a1 (outBlk39 V a1) c) (defs₀ (F := F)) Variants.none () Set.univ :=
  body_obligation39 V a1 (outBlk39 V a1) (bodyRun39 V a1 hlt) c

end Body

/-! # Region 40 -/

/-! ## The body's own transfer cells -/

/-- The eight cells of the body's semaphore array, in order. -/
abbrev osem40 : Fin 8 → SemLoc sig := fun j => SemLoc.dma (cc40_scratch1.ix (fun | ⟨0, _⟩ => j))

/-- They are scoped, pairwise distinct, and none is a staging cell of a window. -/
theorem ownSemFacts40 : Pipeline.OwnSemFacts spec40 osem40 := by decide

/-- The far operand is an unscoped buffer that is neither a window's array nor a table. -/
theorem hx_sub40 : ({main_v141} : Finset (Ref sig .tc)) ⊆ Pipeline.restRefsP sig pre40 spec40 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg40 (F := F)).Adm)
  (O : (c : Dev nD) → Fin (cfg40 a1).N → Vec F S8x64 .f32)

/-! ## The windows' blocks -/

/-- Window w's block at point t, read off its array under V. -/
def iblk40 (c : Dev nD) (w : Fin (cfg40 a1).W) (t : Fin (cfg40 a1).N) :
    (((cfg40 a1).win w).xblock ((cfg40 a1).grid.coords t)).Idx → Elt F ((cfg40 a1).win w).elt :=
  (((cfg40 a1).win w).blk t).view.read (Elt F) (V c (Pipeline.arrRef spec40 w))

/-- The input window's current staging buffer holds its block at every point, fetched there or not, for any proof
    data whose array is V's and whose body leaves the block in place: unfetched, the block index has not moved. -/
theorem beforeIn40_of {c : Dev nD} (dat : Dat τ (Elt F) Unit ℕ (UD sig nD τ) ℕ (cfg40 a1) c)
    (hA : dat.A 0 = V c (Pipeline.arrRef spec40 0))
    (hafter : ∀ t, dat.after 0 t = iblk40 V a1 c 0 t) (t : Fin (cfg40 a1).N) (d) : dat.before 0 t d = iblk40 V a1 c 0 t :=
  (dat.before_in_eq_fetched 0 rfl (fun _ => rfl) (fun _ _ _ => rfl)
    (fun t => by rw [hafter]; unfold Dat.blockOf iblk40; rw [hA]; try rfl) t d).trans
    (by unfold Dat.fetched Dat.blockOf iblk40; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat40 (c : Dev nD) : Dat τ (Elt F) Unit ℕ (UD sig nD τ) ℕ (cfg40 a1) c where
  A w := V c (Pipeline.arrRef spec40 w)
  after w t := match w with
    | ⟨0, _⟩ => iblk40 V a1 c 0 t
    | ⟨1, _⟩ => O c t
  Φ _ := iprop(Pipeline.ΦD osem40 spec40 {main_v141} V c ∗ Pipeline.prefHeld pre40 c (fun _ => fullShare) a1.1)
  q _ := fullShare
  owed _ := 0

theorem A_eq40 (c : Dev nD) (w : Fin (cfg40 a1).W) : (dat40 V a1 O c).A w = V c (Pipeline.arrRef spec40 w) := by
  dsimp only [dat40]

theorem afterIn40 (c : Dev nD) (t : Fin (cfg40 a1).N) : (dat40 V a1 O c).after 0 t = iblk40 V a1 c 0 t := by
  dsimp only [dat40]; rfl

theorem afterOut40 (c : Dev nD) (t : Fin (cfg40 a1).N) :
    (dat40 V a1 O c).after 1 t = O c t := by
  dsimp only [dat40]; rfl

theorem beforeIn40 (c : Dev nD) (t : Fin (cfg40 a1).N) (d) : (dat40 V a1 O c).before 0 t d = iblk40 V a1 c 0 t :=
  beforeIn40_of V a1 (dat40 V a1 O c) (A_eq40 V a1 O c 0) (afterIn40 V a1 O c) t d

theorem Phi_eq40 (c : Dev nD) (t : Fin ((cfg40 a1).N + 1)) :
    (dat40 V a1 O c).Φ t
      = iprop(Pipeline.ΦD osem40 spec40 {main_v141} V c ∗ Pipeline.prefHeld pre40 c (fun _ => fullShare) a1.1) := by
  dsimp only [dat40]

theorem owed_eq40 (c : Dev nD) (t : Fin ((cfg40 a1).N + 1)) : (dat40 V a1 O c).owed t = 0 := by
  dsimp only [dat40]

/-! ## The invariant, conjunct by conjunct -/

/-- The invariant's first part opened: the body's scratch buffer whole at some contents and the other scoped
    buffers no window stages, the generator register, the own cells at zero, the far operand at its contents. -/
theorem PhiD_eq40 (c : Dev nD) :
    (Pipeline.ΦD osem40 spec40 {main_v141} V c : sProp 𝕄)
      = iprop(iprop(iprop((∃ f : Buf (Elt F) ((c : Thread nD τ).loc cc40_scratch0), ((c : Thread nD τ).loc cc40_scratch0) ↦{fullShare} f))
            ∗ Pipeline.scopedRestBut (Ix := Unit) (Name := ℕ) (U := UD sig nD τ) (Lvl := ℕ) (Val := Elt F) spec40 c [cc40_scratch0])
          ∗ (∃ r, prngReg c r)
          ∗ Pipeline.ownSems0 (Ix := Unit) (Name := ℕ) (U := UD sig nD τ) (Lvl := ℕ) (Val := Elt F) (τ := τ) osem40 c
          ∗ (((c : Thread nD τ).loc main_v141) ↦{fullShare} V c main_v141)) := by
  rw [Pipeline.ΦD_eq, scopedRest40_split, BI.bigSep_eq_bigSepL_of_eq [main_v141] (by decide) (by decide)]; rfl

/-- The one table, held whole. -/
theorem prefHeld_eq40 (c : Dev nD) :
    (Pipeline.prefHeld pre40 c (fun _ => fullShare) a1.1 : sProp 𝕄)
      = (((c : Thread nD τ).loc main_v171) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg40 (w : Fin (cfg40 a1).W) (t : Fin (cfg40 a1).N) := ((cfg40 a1).win w).stage ((cfg40 a1).slots t w)

/-- The body as the pipeline calls it at point t. -/
abbrev bodyProg40 (t : Fin (cfg40 a1).N) : Prog (TpuEff nD τ sig (Elt F) Λ₀ .tc) PUnit :=
  (defs₀ (F := F)) .tc (cfg40 a1).body ((cfg40 a1).bodyArgs t ((cfg40 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun40 : Prop :=
  ∀ (c : Dev nD) (t : Fin (cfg40 a1).N) (W) (K : PUnit → sProp 𝕄),
    iprop(owns (c : Thread nD τ) (stg40 a1 0 t) fullShare (iblk40 V a1 c 0 t)
        ∗ (∃ d, owns (c : Thread nD τ) (stg40 a1 1 t) fullShare d)
        ∗ (∃ f : Buf (Elt F) ((c : Thread nD τ).loc cc40_scratch0), ((c : Thread nD τ).loc cc40_scratch0) ↦{fullShare} f)
        ∗ Pipeline.ownSems0 (Ix := Unit) (Name := ℕ) (U := UD sig nD τ) (Lvl := ℕ) (Val := Elt F) (τ := τ) osem40 c
        ∗ (((c : Thread nD τ).loc main_v171) ↦{fullShare} a1.1 0)
        ∗ (((c : Thread nD τ).loc main_v141) ↦{fullShare} V c main_v141)
        ∗ owes (c : Thread nD τ) (0 : CellTallies nD τ sig Unit) W
        ∗ (iprop(owns (c : Thread nD τ) (stg40 a1 0 t) fullShare (iblk40 V a1 c 0 t)
            ∗ owns (c : Thread nD τ) (stg40 a1 1 t) fullShare (O c t)
            ∗ (∃ f : Buf (Elt F) ((c : Thread nD τ).loc cc40_scratch0), ((c : Thread nD τ).loc cc40_scratch0) ↦{fullShare} f)
            ∗ Pipeline.ownSems0 (Ix := Unit) (Name := ℕ) (U := UD sig nD τ) (Lvl := ℕ) (Val := Elt F) (τ := τ) osem40 c
            ∗ (((c : Thread nD τ).loc main_v171) ↦{fullShare} a1.1 0)
            ∗ (((c : Thread nD τ).loc main_v141) ↦{fullShare} V c main_v141)
            ∗ (∃ W', owes (c : Thread nD τ) (0 : CellTallies nD τ sig Unit) W')) -∗ K ⟨⟩))
      ⊢ wp frame (wpE (defs₀ (F := F)) Variants.none c none) Set.univ (bodyProg40 a1 t) K

/-- What the body is called with at point t, the windows one by one, -/
def bodyPre40 (c : Dev nD) (t : Fin (cfg40 a1).N) : sProp 𝕄 :=
  iprop((dat40 V a1 O c).Φ t.castSucc ∗ (dat40 V a1 O c).owesAt () t.castSucc
    ∗ (∃ d, owns (c : Thread nD τ) (stg40 a1 0 t) fullShare ((dat40 V a1 O c).before 0 t d))
    ∗ (∃ d, owns (c : Thread nD τ) (stg40 a1 1 t) fullShare ((dat40 V a1 O c).before 1 t d)))

/-- and what it returns. -/
def bodyPost40 (c : Dev nD) (t : Fin (cfg40 a1).N) : sProp 𝕄 :=
  iprop((dat40 V a1 O c).Φ t.succ ∗ (dat40 V a1 O c).owesAt () t.succ
    ∗ owns (c : Thread nD τ) (stg40 a1 0 t) fullShare ((dat40 V a1 O c).after 0 t)
    ∗ owns (c : Thread nD τ) (stg40 a1 1 t) fullShare ((dat40 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body40 (hrun : BodyRun40 V a1 O) (c : Dev nD) (t : Fin (cfg40 a1).N) :
    bodyPre40 V a1 O c t
      ⊢ wp frame (wpE (defs₀ (F := F)) Variants.none c none) Set.univ (bodyProg40 a1 t) (fun _ => bodyPost40 V a1 O c t) := by
  unfold bodyPre40 bodyPost40
  simp only [beforeIn40]
  rw [afterIn40, afterOut40, Phi_eq40, Phi_eq40, PhiD_eq40, prefHeld_eq40]
  unfold Dat.owesAt Pipeline.owesWithin
  rw [owed_eq40, owed_eq40]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation40 (hrun : BodyRun40 V a1 O) (c : Dev nD) :
    BodyObligation (dat40 (F := F) V a1 O c) (defs₀ (F := F)) Variants.none () Set.univ := fun t => by
  rw [bigSep_W40, bigSep_W40]
  exact sound_body40 V a1 O hrun c t

end Data

/-! ## The region's record -/

section Record

variable (Win : Dev nD → Valuation τ sig (Elt F))

variable (a1 : (pcfg40 (F := F)).Adm)
  (O : (c : Dev nD) → Fin (cfg40 a1).N → Vec F S8x64 .f32)

/-- The buffers at the region's exit: its arrays at what the write-backs leave, every other buffer as entered. -/
def Wout40 (c : Dev nD) : Valuation τ sig (Elt F) :=
  Pipeline.withArrays spec40 c (Win c) fun w => (dat40 (Vof Win) a1 O c).arrAt w (cfg40 a1).N

theorem Wout40_arr (c : Dev nD) (w : Fin (cfg40 a1).W) :
    Wout40 Win a1 O c (Proc.devRef .tc (Pipeline.arrRef spec40 w)) = (dat40 (Vof Win) a1 O c).arrAt w (cfg40 a1).N := by
  unfold Wout40; exact Pipeline.withArrays_arr spec40 winFacts40.arr_inj c _ _ w

theorem Wout40_of_ne (c : Dev nD) (b : Ref sig .tc) (hb : ∀ w, Pipeline.arrRef spec40 w ≠ b) :
    Wout40 Win a1 O c (Proc.devRef .tc b) = Win c (Proc.devRef .tc b) := by
  unfold Wout40; exact Pipeline.withArrays_of_ne spec40 c _ _ b hb

/-- ENTRY, the buffers' part. Every unscoped buffer at Win is: the region's arrays at the proof data's entry contents,
    the table whole at the admissible contents (which are Win's there), the far operand whole, and the others. -/
theorem entry40 (c : Dev nD) (ha1 : ∀ k, Vof Win c (pre40.ref k) = a1.1 k) :
    (StableHlo.held (c : Thread nD τ) (Pipeline.ucRefs τ sig) (Win c) : sProp 𝕄)
      ⊢ iprop((dat40 (Vof Win) a1 O c).arrays ((dat40 (Vof Win) a1 O c).arrAt · 0)
          ∗ Pipeline.prefHeld pre40 c (fun _ => fullShare) a1.1
          ∗ (bigSep ({main_v141} : Finset (Ref sig .tc)) fun b => (((c : Thread nD τ)).loc b) ↦{fullShare} Vof Win c b)
          ∗ bigSep (Pipeline.restRefsP sig pre40 spec40 \ {main_v141}) fun b => (((c : Thread nD τ)).loc b) ↦{fullShare} Vof Win c b) := by
  have hsplit := Pipeline.arrays_of_unscopedBufs (p := ()) (fun (_ : Unit) => pcfg40 (F := F)) (fun _ => a1)
    (fun _ c => dat40 (Vof Win) a1 O c) winFacts40 (launch40 (F := F)).arr_whole c
    ((dat40 (Vof Win) a1 O c).share_full fun _ => rfl) (Vof Win c) (fun w => A_eq40 (Vof Win) a1 O c w)
  rw [Pipeline.unscopedBufs_held,
    Pipeline.unscopedRest_split (Ix := Unit) (Name := ℕ) (U := UD sig nD τ) (Lvl := ℕ) preFacts40 c (Vof Win c),
    Pipeline.unscopedRestP_sdiff pre40 spec40 {main_v141} hx_sub40 c (Vof Win c),
    show (fun k => Vof Win c (pre40.ref k)) = a1.1 from funext ha1] at hsplit
  exact hsplit

/-- EXIT, the buffers' part: the same four put back, the arrays at what the write-backs leave, are every unscoped
    buffer at the exit valuation. -/
theorem exit40 (c : Dev nD) (ha1 : ∀ k, Vof Win c (pre40.ref k) = a1.1 k) :
    iprop((dat40 (Vof Win) a1 O c).arrays ((dat40 (Vof Win) a1 O c).arrAt · (cfg40 a1).N)
        ∗ Pipeline.prefHeld pre40 c (fun _ => fullShare) a1.1
        ∗ (bigSep ({main_v141} : Finset (Ref sig .tc)) fun b => (((c : Thread nD τ)).loc b) ↦{fullShare} Vof Win c b)
        ∗ bigSep (Pipeline.restRefsP sig pre40 spec40 \ {main_v141}) fun b => (((c : Thread nD τ)).loc b) ↦{fullShare} Vof Win c b)
      ⊢ (StableHlo.held (c : Thread nD τ) (Pipeline.ucRefs τ sig) (Wout40 Win a1 O c) : sProp 𝕄) := by
  have hjoin := Pipeline.unscopedBufs_of_arrays (p := ()) (fun (_ : Unit) => pcfg40 (F := F)) (fun _ => a1)
    (Ix := Unit) (Name := ℕ) (U := UD sig nD τ) (Lvl := ℕ)
    winFacts40 (launch40 (F := F)).arr_whole c (fun _ c => dat40 (Vof Win) a1 O c)
    ((dat40 (Vof Win) a1 O c).share_full fun _ => rfl)
    (Vof Win c) (Vof (Wout40 Win a1 O) c) ((dat40 (Vof Win) a1 O c).arrAt · (cfg40 a1).N)
    (fun w => (Wout40_arr Win a1 O c w).symm)
    (fun b hb => Wout40_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts40 c (Vof Win c),
    Pipeline.unscopedRestP_sdiff pre40 spec40 {main_v141} hx_sub40 c (Vof Win c),
    show (fun k => Vof Win c (pre40.ref k)) = a1.1 from funext ha1] at hjoin
  exact hjoin

end Record

section Seg

variable (Win : Dev nD → Valuation τ sig (Elt F))
  (adm : (p : Fin 49) → (pcfgs (F := F) p).Adm)
  (O : (c : Dev nD) → Fin (cfg40 (adm (40 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout40. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg40 (hd : ∀ c, pdats (40 : Fin 49) c = dat40 (Vof Win) (adm (40 : Fin 49)) O c)
    (ha1 : ∀ c k, Vof Win c (pre40.ref k) = (adm (40 : Fin 49)).1 k)
    (hbody : ∀ c, BodyObligation (dat40 (F := F) (Vof Win) (adm (40 : Fin 49)) O c) (defs₀ (F := F)) 𝒱₀ () Set.univ) :
    Pipeline.RegionSeg (pcfgs (F := F)) adm pdats () defs₀ 𝒱₀ L lv (40 : Fin 49) where
  win := (launch40 (F := F)).win.to₀
  block_pos := (launch40 (F := F)).block_pos
  stage_whole := (launch40 (F := F)).stage_whole
  K := Fin 8
  osem := osem40
  ho := ownSemFacts40
  hbody c := by rw [hd c]; exact (hbody c).loose
  hwaits := Pipeline.hwaits_of_owed_zero _ _ _ _ L lv (40 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout40 Win (adm (40 : Fin 49)) O c) ∗ R c)
  X c := iprop((∃ r, prngReg c r)
    ∗ Pipeline.ownSems0 (Ix := Unit) (Name := ℕ) (U := UD sig nD τ) (Lvl := ℕ) (Val := Elt F) (τ := τ) osem40 c
    ∗ (bigSep ({main_v141} : Finset (Ref sig .tc)) fun b => (((c : Thread nD τ)).loc b) ↦{fullShare} Vof Win c b))
  Y c := iprop((∃ r, prngReg c r)
    ∗ (bigSep ({main_v141} : Finset (Ref sig .tc)) fun b => (((c : Thread nD τ)).loc b) ↦{fullShare} Vof Win c b)
    ∗ Pipeline.prefHeld pre40 c (fun _ => fullShare) (adm (40 : Fin 49)).1)
  Z c := bigSep (Pipeline.restRefsP sig pre40 spec40 \ {main_v141}) fun b => (((c : Thread nD τ)).loc b) ↦{fullShare} Vof Win c b
  hentry c := by
    rw [hd c]
    iintro ⟨⟨Hub, Hp, HO⟩, Hos, -⟩
    ihave H := (entry40 Win (adm (40 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq40, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq40, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit40 Win (adm (40 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg40 (F := F)).Adm)

/-- The output block at point t: the gathered rows (of the far operand's contents under V, chosen by the table's
    words at that point) times the input block. -/
def outBlk40 (c : Dev nD) (t : Fin (cfg40 a1).N) : Vec F S8x64 .f32 :=
  gatherOut (gatherG (a1.1 0) (V c main_v141) (grid40.coords t)) (iblk40 V a1 c 0 t)

theorem outBlk_eq40 (c : Dev nD) (t : Fin (cfg40 a1).N) :
    outBlk40 V a1 c t = gatherOut (gatherG (a1.1 0) (V c main_v141) (grid40.coords t)) (iblk40 V a1 c 0 t) := rfl

/-- The proof data with the output block named: after the body at point t the output window's buffer holds it. -/
theorem afterOutBlk40 (c : Dev nD) (t : Fin (cfg40 a1).N) :
    (dat40 V a1 (outBlk40 V a1) c).after 1 t
      = gatherOut (gatherG (a1.1 0) (V c main_v141) (grid40.coords t)) (iblk40 V a1 c 0 t) :=
  afterOut40 V a1 (outBlk40 V a1) c t

/-- The own cells at zero are the semaphore array's eight entries at zero, in order. -/
theorem ownSems_eq40 (c : Dev nD) :
    (Pipeline.ownSems0 (Ix := Unit) (Name := ℕ) (U := UD sig nD τ) (Lvl := ℕ) (Val := Elt F) (τ := τ) osem40 c : sProp 𝕄)
      = gsems0 c cc40_scratch1 := by
  rw [Pipeline.ownSems0_eq_of_list c osem40 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq40 (t : Fin (cfg40 a1).N) : ∃ h3 h4, bodyProg40 (F := F) a1 t
    = cc40__gather_mul_kernel (grid40.coords t) (Memref.whole main_v171) (Memref.isWhole_whole _) (Memref.whole main_v141) (Memref.isWhole_whole _)
        (stg40 a1 0 t) h3 (stg40 a1 1 t) h4 (Memref.whole cc40_scratch0) (Memref.isWhole_whole _) cc40_scratch1 := ⟨_, _, rfl⟩

end Out

/-! ## The body's run, joined to the proof data -/

section Body

variable (V : (c : Dev nD) → (b : Ref sig .tc) → Buf (Elt F) ((c : Thread nD τ).loc b))
  (a1 : (pcfg40 (F := F)).Adm)

/-- The scratch buffer whole at some contents, as a memref owned at some contents. -/
theorem scratchOwns_eq40 (c : Dev nD) :
    (iprop(∃ d, owns (c : Thread nD τ) (Memref.whole cc40_scratch0) fullShare d) : sProp 𝕄)
      = iprop(∃ f : Buf (Elt F) ((c : Thread nD τ).loc cc40_scratch0), ((c : Thread nD τ).loc cc40_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun40 (hlt : ∀ y, BitVec.toNat ((a1.1 0) y) < 100000) : BodyRun40 V a1 (outBlk40 V a1) := by
  intro c t W K
  obtain ⟨h3, h4, hprog⟩ := bodyProg_eq40 (F := F) a1 t
  rw [hprog, ownSems_eq40, ← scratchOwns_eq40 (F := F) c]
  have hrun := gather_kernel_run_40 (F := F) c (grid40.coords t) (Memref.whole main_v171) (Memref.isWhole_whole _) (Memref.whole main_v141) (Memref.isWhole_whole _)
    (stg40 a1 0 t) h3 (stg40 a1 1 t) h4 (Memref.whole cc40_scratch0) (Memref.isWhole_whole _) cc40_scratch1 fullShare fullShare
    (a1.1 0) (V c main_v141) (iblk40 V a1 c 0 t) (fun y => hlt y) W K
  simp only [Memref.view_whole, View.read_whole] at hrun
  unfold outBlk40
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut40 (hlt : ∀ y, BitVec.toNat ((a1.1 0) y) < 100000) (c : Dev nD) :
    BodyObligation (dat40 (F := F) V a1 (outBlk40 V a1) c) (defs₀ (F := F)) Variants.none () Set.univ :=
  body_obligation40 V a1 (outBlk40 V a1) (bodyRun40 V a1 hlt) c

end Body

/-! # Region 41 -/

/-! ## The body's own transfer cells -/

/-- The eight cells of the body's semaphore array, in order. -/
abbrev osem41 : Fin 8 → SemLoc sig := fun j => SemLoc.dma (cc41_scratch1.ix (fun | ⟨0, _⟩ => j))

/-- They are scoped, pairwise distinct, and none is a staging cell of a window. -/
theorem ownSemFacts41 : Pipeline.OwnSemFacts spec41 osem41 := by decide

/-- The far operand is an unscoped buffer that is neither a window's array nor a table. -/
theorem hx_sub41 : ({main_v141} : Finset (Ref sig .tc)) ⊆ Pipeline.restRefsP sig pre41 spec41 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg41 (F := F)).Adm)
  (O : (c : Dev nD) → Fin (cfg41 a1).N → Vec F S8x64 .f32)

/-! ## The windows' blocks -/

/-- Window w's block at point t, read off its array under V. -/
def iblk41 (c : Dev nD) (w : Fin (cfg41 a1).W) (t : Fin (cfg41 a1).N) :
    (((cfg41 a1).win w).xblock ((cfg41 a1).grid.coords t)).Idx → Elt F ((cfg41 a1).win w).elt :=
  (((cfg41 a1).win w).blk t).view.read (Elt F) (V c (Pipeline.arrRef spec41 w))

/-- The input window's current staging buffer holds its block at every point, fetched there or not, for any proof
    data whose array is V's and whose body leaves the block in place: unfetched, the block index has not moved. -/
theorem beforeIn41_of {c : Dev nD} (dat : Dat τ (Elt F) Unit ℕ (UD sig nD τ) ℕ (cfg41 a1) c)
    (hA : dat.A 0 = V c (Pipeline.arrRef spec41 0))
    (hafter : ∀ t, dat.after 0 t = iblk41 V a1 c 0 t) (t : Fin (cfg41 a1).N) (d) : dat.before 0 t d = iblk41 V a1 c 0 t :=
  (dat.before_in_eq_fetched 0 rfl (fun _ => rfl) (fun _ _ _ => rfl)
    (fun t => by rw [hafter]; unfold Dat.blockOf iblk41; rw [hA]; try rfl) t d).trans
    (by unfold Dat.fetched Dat.blockOf iblk41; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat41 (c : Dev nD) : Dat τ (Elt F) Unit ℕ (UD sig nD τ) ℕ (cfg41 a1) c where
  A w := V c (Pipeline.arrRef spec41 w)
  after w t := match w with
    | ⟨0, _⟩ => iblk41 V a1 c 0 t
    | ⟨1, _⟩ => O c t
  Φ _ := iprop(Pipeline.ΦD osem41 spec41 {main_v141} V c ∗ Pipeline.prefHeld pre41 c (fun _ => fullShare) a1.1)
  q _ := fullShare
  owed _ := 0

theorem A_eq41 (c : Dev nD) (w : Fin (cfg41 a1).W) : (dat41 V a1 O c).A w = V c (Pipeline.arrRef spec41 w) := by
  dsimp only [dat41]

theorem afterIn41 (c : Dev nD) (t : Fin (cfg41 a1).N) : (dat41 V a1 O c).after 0 t = iblk41 V a1 c 0 t := by
  dsimp only [dat41]; rfl

theorem afterOut41 (c : Dev nD) (t : Fin (cfg41 a1).N) :
    (dat41 V a1 O c).after 1 t = O c t := by
  dsimp only [dat41]; rfl

theorem beforeIn41 (c : Dev nD) (t : Fin (cfg41 a1).N) (d) : (dat41 V a1 O c).before 0 t d = iblk41 V a1 c 0 t :=
  beforeIn41_of V a1 (dat41 V a1 O c) (A_eq41 V a1 O c 0) (afterIn41 V a1 O c) t d

theorem Phi_eq41 (c : Dev nD) (t : Fin ((cfg41 a1).N + 1)) :
    (dat41 V a1 O c).Φ t
      = iprop(Pipeline.ΦD osem41 spec41 {main_v141} V c ∗ Pipeline.prefHeld pre41 c (fun _ => fullShare) a1.1) := by
  dsimp only [dat41]

theorem owed_eq41 (c : Dev nD) (t : Fin ((cfg41 a1).N + 1)) : (dat41 V a1 O c).owed t = 0 := by
  dsimp only [dat41]

/-! ## The invariant, conjunct by conjunct -/

/-- The invariant's first part opened: the body's scratch buffer whole at some contents and the other scoped
    buffers no window stages, the generator register, the own cells at zero, the far operand at its contents. -/
theorem PhiD_eq41 (c : Dev nD) :
    (Pipeline.ΦD osem41 spec41 {main_v141} V c : sProp 𝕄)
      = iprop(iprop(iprop((∃ f : Buf (Elt F) ((c : Thread nD τ).loc cc41_scratch0), ((c : Thread nD τ).loc cc41_scratch0) ↦{fullShare} f))
            ∗ Pipeline.scopedRestBut (Ix := Unit) (Name := ℕ) (U := UD sig nD τ) (Lvl := ℕ) (Val := Elt F) spec41 c [cc41_scratch0])
          ∗ (∃ r, prngReg c r)
          ∗ Pipeline.ownSems0 (Ix := Unit) (Name := ℕ) (U := UD sig nD τ) (Lvl := ℕ) (Val := Elt F) (τ := τ) osem41 c
          ∗ (((c : Thread nD τ).loc main_v141) ↦{fullShare} V c main_v141)) := by
  rw [Pipeline.ΦD_eq, scopedRest41_split, BI.bigSep_eq_bigSepL_of_eq [main_v141] (by decide) (by decide)]; rfl

/-- The one table, held whole. -/
theorem prefHeld_eq41 (c : Dev nD) :
    (Pipeline.prefHeld pre41 c (fun _ => fullShare) a1.1 : sProp 𝕄)
      = (((c : Thread nD τ).loc main_v175) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg41 (w : Fin (cfg41 a1).W) (t : Fin (cfg41 a1).N) := ((cfg41 a1).win w).stage ((cfg41 a1).slots t w)

/-- The body as the pipeline calls it at point t. -/
abbrev bodyProg41 (t : Fin (cfg41 a1).N) : Prog (TpuEff nD τ sig (Elt F) Λ₀ .tc) PUnit :=
  (defs₀ (F := F)) .tc (cfg41 a1).body ((cfg41 a1).bodyArgs t ((cfg41 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun41 : Prop :=
  ∀ (c : Dev nD) (t : Fin (cfg41 a1).N) (W) (K : PUnit → sProp 𝕄),
    iprop(owns (c : Thread nD τ) (stg41 a1 0 t) fullShare (iblk41 V a1 c 0 t)
        ∗ (∃ d, owns (c : Thread nD τ) (stg41 a1 1 t) fullShare d)
        ∗ (∃ f : Buf (Elt F) ((c : Thread nD τ).loc cc41_scratch0), ((c : Thread nD τ).loc cc41_scratch0) ↦{fullShare} f)
        ∗ Pipeline.ownSems0 (Ix := Unit) (Name := ℕ) (U := UD sig nD τ) (Lvl := ℕ) (Val := Elt F) (τ := τ) osem41 c
        ∗ (((c : Thread nD τ).loc main_v175) ↦{fullShare} a1.1 0)
        ∗ (((c : Thread nD τ).loc main_v141) ↦{fullShare} V c main_v141)
        ∗ owes (c : Thread nD τ) (0 : CellTallies nD τ sig Unit) W
        ∗ (iprop(owns (c : Thread nD τ) (stg41 a1 0 t) fullShare (iblk41 V a1 c 0 t)
            ∗ owns (c : Thread nD τ) (stg41 a1 1 t) fullShare (O c t)
            ∗ (∃ f : Buf (Elt F) ((c : Thread nD τ).loc cc41_scratch0), ((c : Thread nD τ).loc cc41_scratch0) ↦{fullShare} f)
            ∗ Pipeline.ownSems0 (Ix := Unit) (Name := ℕ) (U := UD sig nD τ) (Lvl := ℕ) (Val := Elt F) (τ := τ) osem41 c
            ∗ (((c : Thread nD τ).loc main_v175) ↦{fullShare} a1.1 0)
            ∗ (((c : Thread nD τ).loc main_v141) ↦{fullShare} V c main_v141)
            ∗ (∃ W', owes (c : Thread nD τ) (0 : CellTallies nD τ sig Unit) W')) -∗ K ⟨⟩))
      ⊢ wp frame (wpE (defs₀ (F := F)) Variants.none c none) Set.univ (bodyProg41 a1 t) K

/-- What the body is called with at point t, the windows one by one, -/
def bodyPre41 (c : Dev nD) (t : Fin (cfg41 a1).N) : sProp 𝕄 :=
  iprop((dat41 V a1 O c).Φ t.castSucc ∗ (dat41 V a1 O c).owesAt () t.castSucc
    ∗ (∃ d, owns (c : Thread nD τ) (stg41 a1 0 t) fullShare ((dat41 V a1 O c).before 0 t d))
    ∗ (∃ d, owns (c : Thread nD τ) (stg41 a1 1 t) fullShare ((dat41 V a1 O c).before 1 t d)))

/-- and what it returns. -/
def bodyPost41 (c : Dev nD) (t : Fin (cfg41 a1).N) : sProp 𝕄 :=
  iprop((dat41 V a1 O c).Φ t.succ ∗ (dat41 V a1 O c).owesAt () t.succ
    ∗ owns (c : Thread nD τ) (stg41 a1 0 t) fullShare ((dat41 V a1 O c).after 0 t)
    ∗ owns (c : Thread nD τ) (stg41 a1 1 t) fullShare ((dat41 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body41 (hrun : BodyRun41 V a1 O) (c : Dev nD) (t : Fin (cfg41 a1).N) :
    bodyPre41 V a1 O c t
      ⊢ wp frame (wpE (defs₀ (F := F)) Variants.none c none) Set.univ (bodyProg41 a1 t) (fun _ => bodyPost41 V a1 O c t) := by
  unfold bodyPre41 bodyPost41
  simp only [beforeIn41]
  rw [afterIn41, afterOut41, Phi_eq41, Phi_eq41, PhiD_eq41, prefHeld_eq41]
  unfold Dat.owesAt Pipeline.owesWithin
  rw [owed_eq41, owed_eq41]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation41 (hrun : BodyRun41 V a1 O) (c : Dev nD) :
    BodyObligation (dat41 (F := F) V a1 O c) (defs₀ (F := F)) Variants.none () Set.univ := fun t => by
  rw [bigSep_W41, bigSep_W41]
  exact sound_body41 V a1 O hrun c t

end Data

/-! ## The region's record -/

section Record

variable (Win : Dev nD → Valuation τ sig (Elt F))

variable (a1 : (pcfg41 (F := F)).Adm)
  (O : (c : Dev nD) → Fin (cfg41 a1).N → Vec F S8x64 .f32)

/-- The buffers at the region's exit: its arrays at what the write-backs leave, every other buffer as entered. -/
def Wout41 (c : Dev nD) : Valuation τ sig (Elt F) :=
  Pipeline.withArrays spec41 c (Win c) fun w => (dat41 (Vof Win) a1 O c).arrAt w (cfg41 a1).N

theorem Wout41_arr (c : Dev nD) (w : Fin (cfg41 a1).W) :
    Wout41 Win a1 O c (Proc.devRef .tc (Pipeline.arrRef spec41 w)) = (dat41 (Vof Win) a1 O c).arrAt w (cfg41 a1).N := by
  unfold Wout41; exact Pipeline.withArrays_arr spec41 winFacts41.arr_inj c _ _ w

theorem Wout41_of_ne (c : Dev nD) (b : Ref sig .tc) (hb : ∀ w, Pipeline.arrRef spec41 w ≠ b) :
    Wout41 Win a1 O c (Proc.devRef .tc b) = Win c (Proc.devRef .tc b) := by
  unfold Wout41; exact Pipeline.withArrays_of_ne spec41 c _ _ b hb

/-- ENTRY, the buffers' part. Every unscoped buffer at Win is: the region's arrays at the proof data's entry contents,
    the table whole at the admissible contents (which are Win's there), the far operand whole, and the others. -/
theorem entry41 (c : Dev nD) (ha1 : ∀ k, Vof Win c (pre41.ref k) = a1.1 k) :
    (StableHlo.held (c : Thread nD τ) (Pipeline.ucRefs τ sig) (Win c) : sProp 𝕄)
      ⊢ iprop((dat41 (Vof Win) a1 O c).arrays ((dat41 (Vof Win) a1 O c).arrAt · 0)
          ∗ Pipeline.prefHeld pre41 c (fun _ => fullShare) a1.1
          ∗ (bigSep ({main_v141} : Finset (Ref sig .tc)) fun b => (((c : Thread nD τ)).loc b) ↦{fullShare} Vof Win c b)
          ∗ bigSep (Pipeline.restRefsP sig pre41 spec41 \ {main_v141}) fun b => (((c : Thread nD τ)).loc b) ↦{fullShare} Vof Win c b) := by
  have hsplit := Pipeline.arrays_of_unscopedBufs (p := ()) (fun (_ : Unit) => pcfg41 (F := F)) (fun _ => a1)
    (fun _ c => dat41 (Vof Win) a1 O c) winFacts41 (launch41 (F := F)).arr_whole c
    ((dat41 (Vof Win) a1 O c).share_full fun _ => rfl) (Vof Win c) (fun w => A_eq41 (Vof Win) a1 O c w)
  rw [Pipeline.unscopedBufs_held,
    Pipeline.unscopedRest_split (Ix := Unit) (Name := ℕ) (U := UD sig nD τ) (Lvl := ℕ) preFacts41 c (Vof Win c),
    Pipeline.unscopedRestP_sdiff pre41 spec41 {main_v141} hx_sub41 c (Vof Win c),
    show (fun k => Vof Win c (pre41.ref k)) = a1.1 from funext ha1] at hsplit
  exact hsplit

/-- EXIT, the buffers' part: the same four put back, the arrays at what the write-backs leave, are every unscoped
    buffer at the exit valuation. -/
theorem exit41 (c : Dev nD) (ha1 : ∀ k, Vof Win c (pre41.ref k) = a1.1 k) :
    iprop((dat41 (Vof Win) a1 O c).arrays ((dat41 (Vof Win) a1 O c).arrAt · (cfg41 a1).N)
        ∗ Pipeline.prefHeld pre41 c (fun _ => fullShare) a1.1
        ∗ (bigSep ({main_v141} : Finset (Ref sig .tc)) fun b => (((c : Thread nD τ)).loc b) ↦{fullShare} Vof Win c b)
        ∗ bigSep (Pipeline.restRefsP sig pre41 spec41 \ {main_v141}) fun b => (((c : Thread nD τ)).loc b) ↦{fullShare} Vof Win c b)
      ⊢ (StableHlo.held (c : Thread nD τ) (Pipeline.ucRefs τ sig) (Wout41 Win a1 O c) : sProp 𝕄) := by
  have hjoin := Pipeline.unscopedBufs_of_arrays (p := ()) (fun (_ : Unit) => pcfg41 (F := F)) (fun _ => a1)
    (Ix := Unit) (Name := ℕ) (U := UD sig nD τ) (Lvl := ℕ)
    winFacts41 (launch41 (F := F)).arr_whole c (fun _ c => dat41 (Vof Win) a1 O c)
    ((dat41 (Vof Win) a1 O c).share_full fun _ => rfl)
    (Vof Win c) (Vof (Wout41 Win a1 O) c) ((dat41 (Vof Win) a1 O c).arrAt · (cfg41 a1).N)
    (fun w => (Wout41_arr Win a1 O c w).symm)
    (fun b hb => Wout41_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts41 c (Vof Win c),
    Pipeline.unscopedRestP_sdiff pre41 spec41 {main_v141} hx_sub41 c (Vof Win c),
    show (fun k => Vof Win c (pre41.ref k)) = a1.1 from funext ha1] at hjoin
  exact hjoin

end Record

section Seg

variable (Win : Dev nD → Valuation τ sig (Elt F))
  (adm : (p : Fin 49) → (pcfgs (F := F) p).Adm)
  (O : (c : Dev nD) → Fin (cfg41 (adm (41 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout41. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg41 (hd : ∀ c, pdats (41 : Fin 49) c = dat41 (Vof Win) (adm (41 : Fin 49)) O c)
    (ha1 : ∀ c k, Vof Win c (pre41.ref k) = (adm (41 : Fin 49)).1 k)
    (hbody : ∀ c, BodyObligation (dat41 (F := F) (Vof Win) (adm (41 : Fin 49)) O c) (defs₀ (F := F)) 𝒱₀ () Set.univ) :
    Pipeline.RegionSeg (pcfgs (F := F)) adm pdats () defs₀ 𝒱₀ L lv (41 : Fin 49) where
  win := (launch41 (F := F)).win.to₀
  block_pos := (launch41 (F := F)).block_pos
  stage_whole := (launch41 (F := F)).stage_whole
  K := Fin 8
  osem := osem41
  ho := ownSemFacts41
  hbody c := by rw [hd c]; exact (hbody c).loose
  hwaits := Pipeline.hwaits_of_owed_zero _ _ _ _ L lv (41 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout41 Win (adm (41 : Fin 49)) O c) ∗ R c)
  X c := iprop((∃ r, prngReg c r)
    ∗ Pipeline.ownSems0 (Ix := Unit) (Name := ℕ) (U := UD sig nD τ) (Lvl := ℕ) (Val := Elt F) (τ := τ) osem41 c
    ∗ (bigSep ({main_v141} : Finset (Ref sig .tc)) fun b => (((c : Thread nD τ)).loc b) ↦{fullShare} Vof Win c b))
  Y c := iprop((∃ r, prngReg c r)
    ∗ (bigSep ({main_v141} : Finset (Ref sig .tc)) fun b => (((c : Thread nD τ)).loc b) ↦{fullShare} Vof Win c b)
    ∗ Pipeline.prefHeld pre41 c (fun _ => fullShare) (adm (41 : Fin 49)).1)
  Z c := bigSep (Pipeline.restRefsP sig pre41 spec41 \ {main_v141}) fun b => (((c : Thread nD τ)).loc b) ↦{fullShare} Vof Win c b
  hentry c := by
    rw [hd c]
    iintro ⟨⟨Hub, Hp, HO⟩, Hos, -⟩
    ihave H := (entry41 Win (adm (41 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq41, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq41, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit41 Win (adm (41 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg41 (F := F)).Adm)

/-- The output block at point t: the gathered rows (of the far operand's contents under V, chosen by the table's
    words at that point) times the input block. -/
def outBlk41 (c : Dev nD) (t : Fin (cfg41 a1).N) : Vec F S8x64 .f32 :=
  gatherOut (gatherG (a1.1 0) (V c main_v141) (grid41.coords t)) (iblk41 V a1 c 0 t)

theorem outBlk_eq41 (c : Dev nD) (t : Fin (cfg41 a1).N) :
    outBlk41 V a1 c t = gatherOut (gatherG (a1.1 0) (V c main_v141) (grid41.coords t)) (iblk41 V a1 c 0 t) := rfl

/-- The proof data with the output block named: after the body at point t the output window's buffer holds it. -/
theorem afterOutBlk41 (c : Dev nD) (t : Fin (cfg41 a1).N) :
    (dat41 V a1 (outBlk41 V a1) c).after 1 t
      = gatherOut (gatherG (a1.1 0) (V c main_v141) (grid41.coords t)) (iblk41 V a1 c 0 t) :=
  afterOut41 V a1 (outBlk41 V a1) c t

/-- The own cells at zero are the semaphore array's eight entries at zero, in order. -/
theorem ownSems_eq41 (c : Dev nD) :
    (Pipeline.ownSems0 (Ix := Unit) (Name := ℕ) (U := UD sig nD τ) (Lvl := ℕ) (Val := Elt F) (τ := τ) osem41 c : sProp 𝕄)
      = gsems0 c cc41_scratch1 := by
  rw [Pipeline.ownSems0_eq_of_list c osem41 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq41 (t : Fin (cfg41 a1).N) : ∃ h3 h4, bodyProg41 (F := F) a1 t
    = cc41__gather_mul_kernel (grid41.coords t) (Memref.whole main_v175) (Memref.isWhole_whole _) (Memref.whole main_v141) (Memref.isWhole_whole _)
        (stg41 a1 0 t) h3 (stg41 a1 1 t) h4 (Memref.whole cc41_scratch0) (Memref.isWhole_whole _) cc41_scratch1 := ⟨_, _, rfl⟩

end Out

/-! ## The body's run, joined to the proof data -/

section Body

variable (V : (c : Dev nD) → (b : Ref sig .tc) → Buf (Elt F) ((c : Thread nD τ).loc b))
  (a1 : (pcfg41 (F := F)).Adm)

/-- The scratch buffer whole at some contents, as a memref owned at some contents. -/
theorem scratchOwns_eq41 (c : Dev nD) :
    (iprop(∃ d, owns (c : Thread nD τ) (Memref.whole cc41_scratch0) fullShare d) : sProp 𝕄)
      = iprop(∃ f : Buf (Elt F) ((c : Thread nD τ).loc cc41_scratch0), ((c : Thread nD τ).loc cc41_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun41 (hlt : ∀ y, BitVec.toNat ((a1.1 0) y) < 100000) : BodyRun41 V a1 (outBlk41 V a1) := by
  intro c t W K
  obtain ⟨h3, h4, hprog⟩ := bodyProg_eq41 (F := F) a1 t
  rw [hprog, ownSems_eq41, ← scratchOwns_eq41 (F := F) c]
  have hrun := gather_kernel_run_41 (F := F) c (grid41.coords t) (Memref.whole main_v175) (Memref.isWhole_whole _) (Memref.whole main_v141) (Memref.isWhole_whole _)
    (stg41 a1 0 t) h3 (stg41 a1 1 t) h4 (Memref.whole cc41_scratch0) (Memref.isWhole_whole _) cc41_scratch1 fullShare fullShare
    (a1.1 0) (V c main_v141) (iblk41 V a1 c 0 t) (fun y => hlt y) W K
  simp only [Memref.view_whole, View.read_whole] at hrun
  unfold outBlk41
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut41 (hlt : ∀ y, BitVec.toNat ((a1.1 0) y) < 100000) (c : Dev nD) :
    BodyObligation (dat41 (F := F) V a1 (outBlk41 V a1) c) (defs₀ (F := F)) Variants.none () Set.univ :=
  body_obligation41 V a1 (outBlk41 V a1) (bodyRun41 V a1 hlt) c

end Body

end Cert.KernelIdeal.Hand

end
-- ==== Proof.KI.Regions_42_48.lean ====
/-
  Gather regions 42 to 48 of the host program, one after the other: for each, the proof data, the body obligation and the record of the region in the launch,
  exactly as for region 1 (whose module says what each part is).
-/
import proofs.«421643_j28415503630349_2_alg».proof.Proof.KI.Common
import proofs.«421643_j28415503630349_2_alg».proof.Proof.KI.BodyEq
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

/-! # Region 42 -/

/-! ## The body's own transfer cells -/

/-- The eight cells of the body's semaphore array, in order. -/
abbrev osem42 : Fin 8 → SemLoc sig := fun j => SemLoc.dma (cc42_scratch1.ix (fun | ⟨0, _⟩ => j))

/-- They are scoped, pairwise distinct, and none is a staging cell of a window. -/
theorem ownSemFacts42 : Pipeline.OwnSemFacts spec42 osem42 := by decide

/-- The far operand is an unscoped buffer that is neither a window's array nor a table. -/
theorem hx_sub42 : ({main_v141} : Finset (Ref sig .tc)) ⊆ Pipeline.restRefsP sig pre42 spec42 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg42 (F := F)).Adm)
  (O : (c : Dev nD) → Fin (cfg42 a1).N → Vec F S8x64 .f32)

/-! ## The windows' blocks -/

/-- Window w's block at point t, read off its array under V. -/
def iblk42 (c : Dev nD) (w : Fin (cfg42 a1).W) (t : Fin (cfg42 a1).N) :
    (((cfg42 a1).win w).xblock ((cfg42 a1).grid.coords t)).Idx → Elt F ((cfg42 a1).win w).elt :=
  (((cfg42 a1).win w).blk t).view.read (Elt F) (V c (Pipeline.arrRef spec42 w))

/-- The input window's current staging buffer holds its block at every point, fetched there or not, for any proof
    data whose array is V's and whose body leaves the block in place: unfetched, the block index has not moved. -/
theorem beforeIn42_of {c : Dev nD} (dat : Dat τ (Elt F) Unit ℕ (UD sig nD τ) ℕ (cfg42 a1) c)
    (hA : dat.A 0 = V c (Pipeline.arrRef spec42 0))
    (hafter : ∀ t, dat.after 0 t = iblk42 V a1 c 0 t) (t : Fin (cfg42 a1).N) (d) : dat.before 0 t d = iblk42 V a1 c 0 t :=
  (dat.before_in_eq_fetched 0 rfl (fun _ => rfl) (fun _ _ _ => rfl)
    (fun t => by rw [hafter]; unfold Dat.blockOf iblk42; rw [hA]; try rfl) t d).trans
    (by unfold Dat.fetched Dat.blockOf iblk42; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat42 (c : Dev nD) : Dat τ (Elt F) Unit ℕ (UD sig nD τ) ℕ (cfg42 a1) c where
  A w := V c (Pipeline.arrRef spec42 w)
  after w t := match w with
    | ⟨0, _⟩ => iblk42 V a1 c 0 t
    | ⟨1, _⟩ => O c t
  Φ _ := iprop(Pipeline.ΦD osem42 spec42 {main_v141} V c ∗ Pipeline.prefHeld pre42 c (fun _ => fullShare) a1.1)
  q _ := fullShare
  owed _ := 0

theorem A_eq42 (c : Dev nD) (w : Fin (cfg42 a1).W) : (dat42 V a1 O c).A w = V c (Pipeline.arrRef spec42 w) := by
  dsimp only [dat42]

theorem afterIn42 (c : Dev nD) (t : Fin (cfg42 a1).N) : (dat42 V a1 O c).after 0 t = iblk42 V a1 c 0 t := by
  dsimp only [dat42]; rfl

theorem afterOut42 (c : Dev nD) (t : Fin (cfg42 a1).N) :
    (dat42 V a1 O c).after 1 t = O c t := by
  dsimp only [dat42]; rfl

theorem beforeIn42 (c : Dev nD) (t : Fin (cfg42 a1).N) (d) : (dat42 V a1 O c).before 0 t d = iblk42 V a1 c 0 t :=
  beforeIn42_of V a1 (dat42 V a1 O c) (A_eq42 V a1 O c 0) (afterIn42 V a1 O c) t d

theorem Phi_eq42 (c : Dev nD) (t : Fin ((cfg42 a1).N + 1)) :
    (dat42 V a1 O c).Φ t
      = iprop(Pipeline.ΦD osem42 spec42 {main_v141} V c ∗ Pipeline.prefHeld pre42 c (fun _ => fullShare) a1.1) := by
  dsimp only [dat42]

theorem owed_eq42 (c : Dev nD) (t : Fin ((cfg42 a1).N + 1)) : (dat42 V a1 O c).owed t = 0 := by
  dsimp only [dat42]

/-! ## The invariant, conjunct by conjunct -/

/-- The invariant's first part opened: the body's scratch buffer whole at some contents and the other scoped
    buffers no window stages, the generator register, the own cells at zero, the far operand at its contents. -/
theorem PhiD_eq42 (c : Dev nD) :
    (Pipeline.ΦD osem42 spec42 {main_v141} V c : sProp 𝕄)
      = iprop(iprop(iprop((∃ f : Buf (Elt F) ((c : Thread nD τ).loc cc42_scratch0), ((c : Thread nD τ).loc cc42_scratch0) ↦{fullShare} f))
            ∗ Pipeline.scopedRestBut (Ix := Unit) (Name := ℕ) (U := UD sig nD τ) (Lvl := ℕ) (Val := Elt F) spec42 c [cc42_scratch0])
          ∗ (∃ r, prngReg c r)
          ∗ Pipeline.ownSems0 (Ix := Unit) (Name := ℕ) (U := UD sig nD τ) (Lvl := ℕ) (Val := Elt F) (τ := τ) osem42 c
          ∗ (((c : Thread nD τ).loc main_v141) ↦{fullShare} V c main_v141)) := by
  rw [Pipeline.ΦD_eq, scopedRest42_split, BI.bigSep_eq_bigSepL_of_eq [main_v141] (by decide) (by decide)]; rfl

/-- The one table, held whole. -/
theorem prefHeld_eq42 (c : Dev nD) :
    (Pipeline.prefHeld pre42 c (fun _ => fullShare) a1.1 : sProp 𝕄)
      = (((c : Thread nD τ).loc main_v179) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg42 (w : Fin (cfg42 a1).W) (t : Fin (cfg42 a1).N) := ((cfg42 a1).win w).stage ((cfg42 a1).slots t w)

/-- The body as the pipeline calls it at point t. -/
abbrev bodyProg42 (t : Fin (cfg42 a1).N) : Prog (TpuEff nD τ sig (Elt F) Λ₀ .tc) PUnit :=
  (defs₀ (F := F)) .tc (cfg42 a1).body ((cfg42 a1).bodyArgs t ((cfg42 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun42 : Prop :=
  ∀ (c : Dev nD) (t : Fin (cfg42 a1).N) (W) (K : PUnit → sProp 𝕄),
    iprop(owns (c : Thread nD τ) (stg42 a1 0 t) fullShare (iblk42 V a1 c 0 t)
        ∗ (∃ d, owns (c : Thread nD τ) (stg42 a1 1 t) fullShare d)
        ∗ (∃ f : Buf (Elt F) ((c : Thread nD τ).loc cc42_scratch0), ((c : Thread nD τ).loc cc42_scratch0) ↦{fullShare} f)
        ∗ Pipeline.ownSems0 (Ix := Unit) (Name := ℕ) (U := UD sig nD τ) (Lvl := ℕ) (Val := Elt F) (τ := τ) osem42 c
        ∗ (((c : Thread nD τ).loc main_v179) ↦{fullShare} a1.1 0)
        ∗ (((c : Thread nD τ).loc main_v141) ↦{fullShare} V c main_v141)
        ∗ owes (c : Thread nD τ) (0 : CellTallies nD τ sig Unit) W
        ∗ (iprop(owns (c : Thread nD τ) (stg42 a1 0 t) fullShare (iblk42 V a1 c 0 t)
            ∗ owns (c : Thread nD τ) (stg42 a1 1 t) fullShare (O c t)
            ∗ (∃ f : Buf (Elt F) ((c : Thread nD τ).loc cc42_scratch0), ((c : Thread nD τ).loc cc42_scratch0) ↦{fullShare} f)
            ∗ Pipeline.ownSems0 (Ix := Unit) (Name := ℕ) (U := UD sig nD τ) (Lvl := ℕ) (Val := Elt F) (τ := τ) osem42 c
            ∗ (((c : Thread nD τ).loc main_v179) ↦{fullShare} a1.1 0)
            ∗ (((c : Thread nD τ).loc main_v141) ↦{fullShare} V c main_v141)
            ∗ (∃ W', owes (c : Thread nD τ) (0 : CellTallies nD τ sig Unit) W')) -∗ K ⟨⟩))
      ⊢ wp frame (wpE (defs₀ (F := F)) Variants.none c none) Set.univ (bodyProg42 a1 t) K

/-- What the body is called with at point t, the windows one by one, -/
def bodyPre42 (c : Dev nD) (t : Fin (cfg42 a1).N) : sProp 𝕄 :=
  iprop((dat42 V a1 O c).Φ t.castSucc ∗ (dat42 V a1 O c).owesAt () t.castSucc
    ∗ (∃ d, owns (c : Thread nD τ) (stg42 a1 0 t) fullShare ((dat42 V a1 O c).before 0 t d))
    ∗ (∃ d, owns (c : Thread nD τ) (stg42 a1 1 t) fullShare ((dat42 V a1 O c).before 1 t d)))

/-- and what it returns. -/
def bodyPost42 (c : Dev nD) (t : Fin (cfg42 a1).N) : sProp 𝕄 :=
  iprop((dat42 V a1 O c).Φ t.succ ∗ (dat42 V a1 O c).owesAt () t.succ
    ∗ owns (c : Thread nD τ) (stg42 a1 0 t) fullShare ((dat42 V a1 O c).after 0 t)
    ∗ owns (c : Thread nD τ) (stg42 a1 1 t) fullShare ((dat42 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body42 (hrun : BodyRun42 V a1 O) (c : Dev nD) (t : Fin (cfg42 a1).N) :
    bodyPre42 V a1 O c t
      ⊢ wp frame (wpE (defs₀ (F := F)) Variants.none c none) Set.univ (bodyProg42 a1 t) (fun _ => bodyPost42 V a1 O c t) := by
  unfold bodyPre42 bodyPost42
  simp only [beforeIn42]
  rw [afterIn42, afterOut42, Phi_eq42, Phi_eq42, PhiD_eq42, prefHeld_eq42]
  unfold Dat.owesAt Pipeline.owesWithin
  rw [owed_eq42, owed_eq42]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation42 (hrun : BodyRun42 V a1 O) (c : Dev nD) :
    BodyObligation (dat42 (F := F) V a1 O c) (defs₀ (F := F)) Variants.none () Set.univ := fun t => by
  rw [bigSep_W42, bigSep_W42]
  exact sound_body42 V a1 O hrun c t

end Data

/-! ## The region's record -/

section Record

variable (Win : Dev nD → Valuation τ sig (Elt F))

variable (a1 : (pcfg42 (F := F)).Adm)
  (O : (c : Dev nD) → Fin (cfg42 a1).N → Vec F S8x64 .f32)

/-- The buffers at the region's exit: its arrays at what the write-backs leave, every other buffer as entered. -/
def Wout42 (c : Dev nD) : Valuation τ sig (Elt F) :=
  Pipeline.withArrays spec42 c (Win c) fun w => (dat42 (Vof Win) a1 O c).arrAt w (cfg42 a1).N

theorem Wout42_arr (c : Dev nD) (w : Fin (cfg42 a1).W) :
    Wout42 Win a1 O c (Proc.devRef .tc (Pipeline.arrRef spec42 w)) = (dat42 (Vof Win) a1 O c).arrAt w (cfg42 a1).N := by
  unfold Wout42; exact Pipeline.withArrays_arr spec42 winFacts42.arr_inj c _ _ w

theorem Wout42_of_ne (c : Dev nD) (b : Ref sig .tc) (hb : ∀ w, Pipeline.arrRef spec42 w ≠ b) :
    Wout42 Win a1 O c (Proc.devRef .tc b) = Win c (Proc.devRef .tc b) := by
  unfold Wout42; exact Pipeline.withArrays_of_ne spec42 c _ _ b hb

/-- ENTRY, the buffers' part. Every unscoped buffer at Win is: the region's arrays at the proof data's entry contents,
    the table whole at the admissible contents (which are Win's there), the far operand whole, and the others. -/
theorem entry42 (c : Dev nD) (ha1 : ∀ k, Vof Win c (pre42.ref k) = a1.1 k) :
    (StableHlo.held (c : Thread nD τ) (Pipeline.ucRefs τ sig) (Win c) : sProp 𝕄)
      ⊢ iprop((dat42 (Vof Win) a1 O c).arrays ((dat42 (Vof Win) a1 O c).arrAt · 0)
          ∗ Pipeline.prefHeld pre42 c (fun _ => fullShare) a1.1
          ∗ (bigSep ({main_v141} : Finset (Ref sig .tc)) fun b => (((c : Thread nD τ)).loc b) ↦{fullShare} Vof Win c b)
          ∗ bigSep (Pipeline.restRefsP sig pre42 spec42 \ {main_v141}) fun b => (((c : Thread nD τ)).loc b) ↦{fullShare} Vof Win c b) := by
  have hsplit := Pipeline.arrays_of_unscopedBufs (p := ()) (fun (_ : Unit) => pcfg42 (F := F)) (fun _ => a1)
    (fun _ c => dat42 (Vof Win) a1 O c) winFacts42 (launch42 (F := F)).arr_whole c
    ((dat42 (Vof Win) a1 O c).share_full fun _ => rfl) (Vof Win c) (fun w => A_eq42 (Vof Win) a1 O c w)
  rw [Pipeline.unscopedBufs_held,
    Pipeline.unscopedRest_split (Ix := Unit) (Name := ℕ) (U := UD sig nD τ) (Lvl := ℕ) preFacts42 c (Vof Win c),
    Pipeline.unscopedRestP_sdiff pre42 spec42 {main_v141} hx_sub42 c (Vof Win c),
    show (fun k => Vof Win c (pre42.ref k)) = a1.1 from funext ha1] at hsplit
  exact hsplit

/-- EXIT, the buffers' part: the same four put back, the arrays at what the write-backs leave, are every unscoped
    buffer at the exit valuation. -/
theorem exit42 (c : Dev nD) (ha1 : ∀ k, Vof Win c (pre42.ref k) = a1.1 k) :
    iprop((dat42 (Vof Win) a1 O c).arrays ((dat42 (Vof Win) a1 O c).arrAt · (cfg42 a1).N)
        ∗ Pipeline.prefHeld pre42 c (fun _ => fullShare) a1.1
        ∗ (bigSep ({main_v141} : Finset (Ref sig .tc)) fun b => (((c : Thread nD τ)).loc b) ↦{fullShare} Vof Win c b)
        ∗ bigSep (Pipeline.restRefsP sig pre42 spec42 \ {main_v141}) fun b => (((c : Thread nD τ)).loc b) ↦{fullShare} Vof Win c b)
      ⊢ (StableHlo.held (c : Thread nD τ) (Pipeline.ucRefs τ sig) (Wout42 Win a1 O c) : sProp 𝕄) := by
  have hjoin := Pipeline.unscopedBufs_of_arrays (p := ()) (fun (_ : Unit) => pcfg42 (F := F)) (fun _ => a1)
    (Ix := Unit) (Name := ℕ) (U := UD sig nD τ) (Lvl := ℕ)
    winFacts42 (launch42 (F := F)).arr_whole c (fun _ c => dat42 (Vof Win) a1 O c)
    ((dat42 (Vof Win) a1 O c).share_full fun _ => rfl)
    (Vof Win c) (Vof (Wout42 Win a1 O) c) ((dat42 (Vof Win) a1 O c).arrAt · (cfg42 a1).N)
    (fun w => (Wout42_arr Win a1 O c w).symm)
    (fun b hb => Wout42_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts42 c (Vof Win c),
    Pipeline.unscopedRestP_sdiff pre42 spec42 {main_v141} hx_sub42 c (Vof Win c),
    show (fun k => Vof Win c (pre42.ref k)) = a1.1 from funext ha1] at hjoin
  exact hjoin

end Record

section Seg

variable (Win : Dev nD → Valuation τ sig (Elt F))
  (adm : (p : Fin 49) → (pcfgs (F := F) p).Adm)
  (O : (c : Dev nD) → Fin (cfg42 (adm (42 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout42. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg42 (hd : ∀ c, pdats (42 : Fin 49) c = dat42 (Vof Win) (adm (42 : Fin 49)) O c)
    (ha1 : ∀ c k, Vof Win c (pre42.ref k) = (adm (42 : Fin 49)).1 k)
    (hbody : ∀ c, BodyObligation (dat42 (F := F) (Vof Win) (adm (42 : Fin 49)) O c) (defs₀ (F := F)) 𝒱₀ () Set.univ) :
    Pipeline.RegionSeg (pcfgs (F := F)) adm pdats () defs₀ 𝒱₀ L lv (42 : Fin 49) where
  win := (launch42 (F := F)).win.to₀
  block_pos := (launch42 (F := F)).block_pos
  stage_whole := (launch42 (F := F)).stage_whole
  K := Fin 8
  osem := osem42
  ho := ownSemFacts42
  hbody c := by rw [hd c]; exact (hbody c).loose
  hwaits := Pipeline.hwaits_of_owed_zero _ _ _ _ L lv (42 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout42 Win (adm (42 : Fin 49)) O c) ∗ R c)
  X c := iprop((∃ r, prngReg c r)
    ∗ Pipeline.ownSems0 (Ix := Unit) (Name := ℕ) (U := UD sig nD τ) (Lvl := ℕ) (Val := Elt F) (τ := τ) osem42 c
    ∗ (bigSep ({main_v141} : Finset (Ref sig .tc)) fun b => (((c : Thread nD τ)).loc b) ↦{fullShare} Vof Win c b))
  Y c := iprop((∃ r, prngReg c r)
    ∗ (bigSep ({main_v141} : Finset (Ref sig .tc)) fun b => (((c : Thread nD τ)).loc b) ↦{fullShare} Vof Win c b)
    ∗ Pipeline.prefHeld pre42 c (fun _ => fullShare) (adm (42 : Fin 49)).1)
  Z c := bigSep (Pipeline.restRefsP sig pre42 spec42 \ {main_v141}) fun b => (((c : Thread nD τ)).loc b) ↦{fullShare} Vof Win c b
  hentry c := by
    rw [hd c]
    iintro ⟨⟨Hub, Hp, HO⟩, Hos, -⟩
    ihave H := (entry42 Win (adm (42 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq42, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq42, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit42 Win (adm (42 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg42 (F := F)).Adm)

/-- The output block at point t: the gathered rows (of the far operand's contents under V, chosen by the table's
    words at that point) times the input block. -/
def outBlk42 (c : Dev nD) (t : Fin (cfg42 a1).N) : Vec F S8x64 .f32 :=
  gatherOut (gatherG (a1.1 0) (V c main_v141) (grid42.coords t)) (iblk42 V a1 c 0 t)

theorem outBlk_eq42 (c : Dev nD) (t : Fin (cfg42 a1).N) :
    outBlk42 V a1 c t = gatherOut (gatherG (a1.1 0) (V c main_v141) (grid42.coords t)) (iblk42 V a1 c 0 t) := rfl

/-- The proof data with the output block named: after the body at point t the output window's buffer holds it. -/
theorem afterOutBlk42 (c : Dev nD) (t : Fin (cfg42 a1).N) :
    (dat42 V a1 (outBlk42 V a1) c).after 1 t
      = gatherOut (gatherG (a1.1 0) (V c main_v141) (grid42.coords t)) (iblk42 V a1 c 0 t) :=
  afterOut42 V a1 (outBlk42 V a1) c t

/-- The own cells at zero are the semaphore array's eight entries at zero, in order. -/
theorem ownSems_eq42 (c : Dev nD) :
    (Pipeline.ownSems0 (Ix := Unit) (Name := ℕ) (U := UD sig nD τ) (Lvl := ℕ) (Val := Elt F) (τ := τ) osem42 c : sProp 𝕄)
      = gsems0 c cc42_scratch1 := by
  rw [Pipeline.ownSems0_eq_of_list c osem42 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq42 (t : Fin (cfg42 a1).N) : ∃ h3 h4, bodyProg42 (F := F) a1 t
    = cc42__gather_mul_kernel (grid42.coords t) (Memref.whole main_v179) (Memref.isWhole_whole _) (Memref.whole main_v141) (Memref.isWhole_whole _)
        (stg42 a1 0 t) h3 (stg42 a1 1 t) h4 (Memref.whole cc42_scratch0) (Memref.isWhole_whole _) cc42_scratch1 := ⟨_, _, rfl⟩

end Out

/-! ## The body's run, joined to the proof data -/

section Body

variable (V : (c : Dev nD) → (b : Ref sig .tc) → Buf (Elt F) ((c : Thread nD τ).loc b))
  (a1 : (pcfg42 (F := F)).Adm)

/-- The scratch buffer whole at some contents, as a memref owned at some contents. -/
theorem scratchOwns_eq42 (c : Dev nD) :
    (iprop(∃ d, owns (c : Thread nD τ) (Memref.whole cc42_scratch0) fullShare d) : sProp 𝕄)
      = iprop(∃ f : Buf (Elt F) ((c : Thread nD τ).loc cc42_scratch0), ((c : Thread nD τ).loc cc42_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun42 (hlt : ∀ y, BitVec.toNat ((a1.1 0) y) < 100000) : BodyRun42 V a1 (outBlk42 V a1) := by
  intro c t W K
  obtain ⟨h3, h4, hprog⟩ := bodyProg_eq42 (F := F) a1 t
  rw [hprog, ownSems_eq42, ← scratchOwns_eq42 (F := F) c]
  have hrun := gather_kernel_run_42 (F := F) c (grid42.coords t) (Memref.whole main_v179) (Memref.isWhole_whole _) (Memref.whole main_v141) (Memref.isWhole_whole _)
    (stg42 a1 0 t) h3 (stg42 a1 1 t) h4 (Memref.whole cc42_scratch0) (Memref.isWhole_whole _) cc42_scratch1 fullShare fullShare
    (a1.1 0) (V c main_v141) (iblk42 V a1 c 0 t) (fun y => hlt y) W K
  simp only [Memref.view_whole, View.read_whole] at hrun
  unfold outBlk42
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut42 (hlt : ∀ y, BitVec.toNat ((a1.1 0) y) < 100000) (c : Dev nD) :
    BodyObligation (dat42 (F := F) V a1 (outBlk42 V a1) c) (defs₀ (F := F)) Variants.none () Set.univ :=
  body_obligation42 V a1 (outBlk42 V a1) (bodyRun42 V a1 hlt) c

end Body

/-! # Region 43 -/

/-! ## The body's own transfer cells -/

/-- The eight cells of the body's semaphore array, in order. -/
abbrev osem43 : Fin 8 → SemLoc sig := fun j => SemLoc.dma (cc43_scratch1.ix (fun | ⟨0, _⟩ => j))

/-- They are scoped, pairwise distinct, and none is a staging cell of a window. -/
theorem ownSemFacts43 : Pipeline.OwnSemFacts spec43 osem43 := by decide

/-- The far operand is an unscoped buffer that is neither a window's array nor a table. -/
theorem hx_sub43 : ({main_v141} : Finset (Ref sig .tc)) ⊆ Pipeline.restRefsP sig pre43 spec43 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg43 (F := F)).Adm)
  (O : (c : Dev nD) → Fin (cfg43 a1).N → Vec F S8x64 .f32)

/-! ## The windows' blocks -/

/-- Window w's block at point t, read off its array under V. -/
def iblk43 (c : Dev nD) (w : Fin (cfg43 a1).W) (t : Fin (cfg43 a1).N) :
    (((cfg43 a1).win w).xblock ((cfg43 a1).grid.coords t)).Idx → Elt F ((cfg43 a1).win w).elt :=
  (((cfg43 a1).win w).blk t).view.read (Elt F) (V c (Pipeline.arrRef spec43 w))

/-- The input window's current staging buffer holds its block at every point, fetched there or not, for any proof
    data whose array is V's and whose body leaves the block in place: unfetched, the block index has not moved. -/
theorem beforeIn43_of {c : Dev nD} (dat : Dat τ (Elt F) Unit ℕ (UD sig nD τ) ℕ (cfg43 a1) c)
    (hA : dat.A 0 = V c (Pipeline.arrRef spec43 0))
    (hafter : ∀ t, dat.after 0 t = iblk43 V a1 c 0 t) (t : Fin (cfg43 a1).N) (d) : dat.before 0 t d = iblk43 V a1 c 0 t :=
  (dat.before_in_eq_fetched 0 rfl (fun _ => rfl) (fun _ _ _ => rfl)
    (fun t => by rw [hafter]; unfold Dat.blockOf iblk43; rw [hA]; try rfl) t d).trans
    (by unfold Dat.fetched Dat.blockOf iblk43; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat43 (c : Dev nD) : Dat τ (Elt F) Unit ℕ (UD sig nD τ) ℕ (cfg43 a1) c where
  A w := V c (Pipeline.arrRef spec43 w)
  after w t := match w with
    | ⟨0, _⟩ => iblk43 V a1 c 0 t
    | ⟨1, _⟩ => O c t
  Φ _ := iprop(Pipeline.ΦD osem43 spec43 {main_v141} V c ∗ Pipeline.prefHeld pre43 c (fun _ => fullShare) a1.1)
  q _ := fullShare
  owed _ := 0

theorem A_eq43 (c : Dev nD) (w : Fin (cfg43 a1).W) : (dat43 V a1 O c).A w = V c (Pipeline.arrRef spec43 w) := by
  dsimp only [dat43]

theorem afterIn43 (c : Dev nD) (t : Fin (cfg43 a1).N) : (dat43 V a1 O c).after 0 t = iblk43 V a1 c 0 t := by
  dsimp only [dat43]; rfl

theorem afterOut43 (c : Dev nD) (t : Fin (cfg43 a1).N) :
    (dat43 V a1 O c).after 1 t = O c t := by
  dsimp only [dat43]; rfl

theorem beforeIn43 (c : Dev nD) (t : Fin (cfg43 a1).N) (d) : (dat43 V a1 O c).before 0 t d = iblk43 V a1 c 0 t :=
  beforeIn43_of V a1 (dat43 V a1 O c) (A_eq43 V a1 O c 0) (afterIn43 V a1 O c) t d

theorem Phi_eq43 (c : Dev nD) (t : Fin ((cfg43 a1).N + 1)) :
    (dat43 V a1 O c).Φ t
      = iprop(Pipeline.ΦD osem43 spec43 {main_v141} V c ∗ Pipeline.prefHeld pre43 c (fun _ => fullShare) a1.1) := by
  dsimp only [dat43]

theorem owed_eq43 (c : Dev nD) (t : Fin ((cfg43 a1).N + 1)) : (dat43 V a1 O c).owed t = 0 := by
  dsimp only [dat43]

/-! ## The invariant, conjunct by conjunct -/

/-- The invariant's first part opened: the body's scratch buffer whole at some contents and the other scoped
    buffers no window stages, the generator register, the own cells at zero, the far operand at its contents. -/
theorem PhiD_eq43 (c : Dev nD) :
    (Pipeline.ΦD osem43 spec43 {main_v141} V c : sProp 𝕄)
      = iprop(iprop(iprop((∃ f : Buf (Elt F) ((c : Thread nD τ).loc cc43_scratch0), ((c : Thread nD τ).loc cc43_scratch0) ↦{fullShare} f))
            ∗ Pipeline.scopedRestBut (Ix := Unit) (Name := ℕ) (U := UD sig nD τ) (Lvl := ℕ) (Val := Elt F) spec43 c [cc43_scratch0])
          ∗ (∃ r, prngReg c r)
          ∗ Pipeline.ownSems0 (Ix := Unit) (Name := ℕ) (U := UD sig nD τ) (Lvl := ℕ) (Val := Elt F) (τ := τ) osem43 c
          ∗ (((c : Thread nD τ).loc main_v141) ↦{fullShare} V c main_v141)) := by
  rw [Pipeline.ΦD_eq, scopedRest43_split, BI.bigSep_eq_bigSepL_of_eq [main_v141] (by decide) (by decide)]; rfl

/-- The one table, held whole. -/
theorem prefHeld_eq43 (c : Dev nD) :
    (Pipeline.prefHeld pre43 c (fun _ => fullShare) a1.1 : sProp 𝕄)
      = (((c : Thread nD τ).loc main_v183) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg43 (w : Fin (cfg43 a1).W) (t : Fin (cfg43 a1).N) := ((cfg43 a1).win w).stage ((cfg43 a1).slots t w)

/-- The body as the pipeline calls it at point t. -/
abbrev bodyProg43 (t : Fin (cfg43 a1).N) : Prog (TpuEff nD τ sig (Elt F) Λ₀ .tc) PUnit :=
  (defs₀ (F := F)) .tc (cfg43 a1).body ((cfg43 a1).bodyArgs t ((cfg43 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun43 : Prop :=
  ∀ (c : Dev nD) (t : Fin (cfg43 a1).N) (W) (K : PUnit → sProp 𝕄),
    iprop(owns (c : Thread nD τ) (stg43 a1 0 t) fullShare (iblk43 V a1 c 0 t)
        ∗ (∃ d, owns (c : Thread nD τ) (stg43 a1 1 t) fullShare d)
        ∗ (∃ f : Buf (Elt F) ((c : Thread nD τ).loc cc43_scratch0), ((c : Thread nD τ).loc cc43_scratch0) ↦{fullShare} f)
        ∗ Pipeline.ownSems0 (Ix := Unit) (Name := ℕ) (U := UD sig nD τ) (Lvl := ℕ) (Val := Elt F) (τ := τ) osem43 c
        ∗ (((c : Thread nD τ).loc main_v183) ↦{fullShare} a1.1 0)
        ∗ (((c : Thread nD τ).loc main_v141) ↦{fullShare} V c main_v141)
        ∗ owes (c : Thread nD τ) (0 : CellTallies nD τ sig Unit) W
        ∗ (iprop(owns (c : Thread nD τ) (stg43 a1 0 t) fullShare (iblk43 V a1 c 0 t)
            ∗ owns (c : Thread nD τ) (stg43 a1 1 t) fullShare (O c t)
            ∗ (∃ f : Buf (Elt F) ((c : Thread nD τ).loc cc43_scratch0), ((c : Thread nD τ).loc cc43_scratch0) ↦{fullShare} f)
            ∗ Pipeline.ownSems0 (Ix := Unit) (Name := ℕ) (U := UD sig nD τ) (Lvl := ℕ) (Val := Elt F) (τ := τ) osem43 c
            ∗ (((c : Thread nD τ).loc main_v183) ↦{fullShare} a1.1 0)
            ∗ (((c : Thread nD τ).loc main_v141) ↦{fullShare} V c main_v141)
            ∗ (∃ W', owes (c : Thread nD τ) (0 : CellTallies nD τ sig Unit) W')) -∗ K ⟨⟩))
      ⊢ wp frame (wpE (defs₀ (F := F)) Variants.none c none) Set.univ (bodyProg43 a1 t) K

/-- What the body is called with at point t, the windows one by one, -/
def bodyPre43 (c : Dev nD) (t : Fin (cfg43 a1).N) : sProp 𝕄 :=
  iprop((dat43 V a1 O c).Φ t.castSucc ∗ (dat43 V a1 O c).owesAt () t.castSucc
    ∗ (∃ d, owns (c : Thread nD τ) (stg43 a1 0 t) fullShare ((dat43 V a1 O c).before 0 t d))
    ∗ (∃ d, owns (c : Thread nD τ) (stg43 a1 1 t) fullShare ((dat43 V a1 O c).before 1 t d)))

/-- and what it returns. -/
def bodyPost43 (c : Dev nD) (t : Fin (cfg43 a1).N) : sProp 𝕄 :=
  iprop((dat43 V a1 O c).Φ t.succ ∗ (dat43 V a1 O c).owesAt () t.succ
    ∗ owns (c : Thread nD τ) (stg43 a1 0 t) fullShare ((dat43 V a1 O c).after 0 t)
    ∗ owns (c : Thread nD τ) (stg43 a1 1 t) fullShare ((dat43 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body43 (hrun : BodyRun43 V a1 O) (c : Dev nD) (t : Fin (cfg43 a1).N) :
    bodyPre43 V a1 O c t
      ⊢ wp frame (wpE (defs₀ (F := F)) Variants.none c none) Set.univ (bodyProg43 a1 t) (fun _ => bodyPost43 V a1 O c t) := by
  unfold bodyPre43 bodyPost43
  simp only [beforeIn43]
  rw [afterIn43, afterOut43, Phi_eq43, Phi_eq43, PhiD_eq43, prefHeld_eq43]
  unfold Dat.owesAt Pipeline.owesWithin
  rw [owed_eq43, owed_eq43]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation43 (hrun : BodyRun43 V a1 O) (c : Dev nD) :
    BodyObligation (dat43 (F := F) V a1 O c) (defs₀ (F := F)) Variants.none () Set.univ := fun t => by
  rw [bigSep_W43, bigSep_W43]
  exact sound_body43 V a1 O hrun c t

end Data

/-! ## The region's record -/

section Record

variable (Win : Dev nD → Valuation τ sig (Elt F))

variable (a1 : (pcfg43 (F := F)).Adm)
  (O : (c : Dev nD) → Fin (cfg43 a1).N → Vec F S8x64 .f32)

/-- The buffers at the region's exit: its arrays at what the write-backs leave, every other buffer as entered. -/
def Wout43 (c : Dev nD) : Valuation τ sig (Elt F) :=
  Pipeline.withArrays spec43 c (Win c) fun w => (dat43 (Vof Win) a1 O c).arrAt w (cfg43 a1).N

theorem Wout43_arr (c : Dev nD) (w : Fin (cfg43 a1).W) :
    Wout43 Win a1 O c (Proc.devRef .tc (Pipeline.arrRef spec43 w)) = (dat43 (Vof Win) a1 O c).arrAt w (cfg43 a1).N := by
  unfold Wout43; exact Pipeline.withArrays_arr spec43 winFacts43.arr_inj c _ _ w

theorem Wout43_of_ne (c : Dev nD) (b : Ref sig .tc) (hb : ∀ w, Pipeline.arrRef spec43 w ≠ b) :
    Wout43 Win a1 O c (Proc.devRef .tc b) = Win c (Proc.devRef .tc b) := by
  unfold Wout43; exact Pipeline.withArrays_of_ne spec43 c _ _ b hb

/-- ENTRY, the buffers' part. Every unscoped buffer at Win is: the region's arrays at the proof data's entry contents,
    the table whole at the admissible contents (which are Win's there), the far operand whole, and the others. -/
theorem entry43 (c : Dev nD) (ha1 : ∀ k, Vof Win c (pre43.ref k) = a1.1 k) :
    (StableHlo.held (c : Thread nD τ) (Pipeline.ucRefs τ sig) (Win c) : sProp 𝕄)
      ⊢ iprop((dat43 (Vof Win) a1 O c).arrays ((dat43 (Vof Win) a1 O c).arrAt · 0)
          ∗ Pipeline.prefHeld pre43 c (fun _ => fullShare) a1.1
          ∗ (bigSep ({main_v141} : Finset (Ref sig .tc)) fun b => (((c : Thread nD τ)).loc b) ↦{fullShare} Vof Win c b)
          ∗ bigSep (Pipeline.restRefsP sig pre43 spec43 \ {main_v141}) fun b => (((c : Thread nD τ)).loc b) ↦{fullShare} Vof Win c b) := by
  have hsplit := Pipeline.arrays_of_unscopedBufs (p := ()) (fun (_ : Unit) => pcfg43 (F := F)) (fun _ => a1)
    (fun _ c => dat43 (Vof Win) a1 O c) winFacts43 (launch43 (F := F)).arr_whole c
    ((dat43 (Vof Win) a1 O c).share_full fun _ => rfl) (Vof Win c) (fun w => A_eq43 (Vof Win) a1 O c w)
  rw [Pipeline.unscopedBufs_held,
    Pipeline.unscopedRest_split (Ix := Unit) (Name := ℕ) (U := UD sig nD τ) (Lvl := ℕ) preFacts43 c (Vof Win c),
    Pipeline.unscopedRestP_sdiff pre43 spec43 {main_v141} hx_sub43 c (Vof Win c),
    show (fun k => Vof Win c (pre43.ref k)) = a1.1 from funext ha1] at hsplit
  exact hsplit

/-- EXIT, the buffers' part: the same four put back, the arrays at what the write-backs leave, are every unscoped
    buffer at the exit valuation. -/
theorem exit43 (c : Dev nD) (ha1 : ∀ k, Vof Win c (pre43.ref k) = a1.1 k) :
    iprop((dat43 (Vof Win) a1 O c).arrays ((dat43 (Vof Win) a1 O c).arrAt · (cfg43 a1).N)
        ∗ Pipeline.prefHeld pre43 c (fun _ => fullShare) a1.1
        ∗ (bigSep ({main_v141} : Finset (Ref sig .tc)) fun b => (((c : Thread nD τ)).loc b) ↦{fullShare} Vof Win c b)
        ∗ bigSep (Pipeline.restRefsP sig pre43 spec43 \ {main_v141}) fun b => (((c : Thread nD τ)).loc b) ↦{fullShare} Vof Win c b)
      ⊢ (StableHlo.held (c : Thread nD τ) (Pipeline.ucRefs τ sig) (Wout43 Win a1 O c) : sProp 𝕄) := by
  have hjoin := Pipeline.unscopedBufs_of_arrays (p := ()) (fun (_ : Unit) => pcfg43 (F := F)) (fun _ => a1)
    (Ix := Unit) (Name := ℕ) (U := UD sig nD τ) (Lvl := ℕ)
    winFacts43 (launch43 (F := F)).arr_whole c (fun _ c => dat43 (Vof Win) a1 O c)
    ((dat43 (Vof Win) a1 O c).share_full fun _ => rfl)
    (Vof Win c) (Vof (Wout43 Win a1 O) c) ((dat43 (Vof Win) a1 O c).arrAt · (cfg43 a1).N)
    (fun w => (Wout43_arr Win a1 O c w).symm)
    (fun b hb => Wout43_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts43 c (Vof Win c),
    Pipeline.unscopedRestP_sdiff pre43 spec43 {main_v141} hx_sub43 c (Vof Win c),
    show (fun k => Vof Win c (pre43.ref k)) = a1.1 from funext ha1] at hjoin
  exact hjoin

end Record

section Seg

variable (Win : Dev nD → Valuation τ sig (Elt F))
  (adm : (p : Fin 49) → (pcfgs (F := F) p).Adm)
  (O : (c : Dev nD) → Fin (cfg43 (adm (43 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout43. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg43 (hd : ∀ c, pdats (43 : Fin 49) c = dat43 (Vof Win) (adm (43 : Fin 49)) O c)
    (ha1 : ∀ c k, Vof Win c (pre43.ref k) = (adm (43 : Fin 49)).1 k)
    (hbody : ∀ c, BodyObligation (dat43 (F := F) (Vof Win) (adm (43 : Fin 49)) O c) (defs₀ (F := F)) 𝒱₀ () Set.univ) :
    Pipeline.RegionSeg (pcfgs (F := F)) adm pdats () defs₀ 𝒱₀ L lv (43 : Fin 49) where
  win := (launch43 (F := F)).win.to₀
  block_pos := (launch43 (F := F)).block_pos
  stage_whole := (launch43 (F := F)).stage_whole
  K := Fin 8
  osem := osem43
  ho := ownSemFacts43
  hbody c := by rw [hd c]; exact (hbody c).loose
  hwaits := Pipeline.hwaits_of_owed_zero _ _ _ _ L lv (43 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout43 Win (adm (43 : Fin 49)) O c) ∗ R c)
  X c := iprop((∃ r, prngReg c r)
    ∗ Pipeline.ownSems0 (Ix := Unit) (Name := ℕ) (U := UD sig nD τ) (Lvl := ℕ) (Val := Elt F) (τ := τ) osem43 c
    ∗ (bigSep ({main_v141} : Finset (Ref sig .tc)) fun b => (((c : Thread nD τ)).loc b) ↦{fullShare} Vof Win c b))
  Y c := iprop((∃ r, prngReg c r)
    ∗ (bigSep ({main_v141} : Finset (Ref sig .tc)) fun b => (((c : Thread nD τ)).loc b) ↦{fullShare} Vof Win c b)
    ∗ Pipeline.prefHeld pre43 c (fun _ => fullShare) (adm (43 : Fin 49)).1)
  Z c := bigSep (Pipeline.restRefsP sig pre43 spec43 \ {main_v141}) fun b => (((c : Thread nD τ)).loc b) ↦{fullShare} Vof Win c b
  hentry c := by
    rw [hd c]
    iintro ⟨⟨Hub, Hp, HO⟩, Hos, -⟩
    ihave H := (entry43 Win (adm (43 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq43, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq43, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit43 Win (adm (43 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg43 (F := F)).Adm)

/-- The output block at point t: the gathered rows (of the far operand's contents under V, chosen by the table's
    words at that point) times the input block. -/
def outBlk43 (c : Dev nD) (t : Fin (cfg43 a1).N) : Vec F S8x64 .f32 :=
  gatherOut (gatherG (a1.1 0) (V c main_v141) (grid43.coords t)) (iblk43 V a1 c 0 t)

theorem outBlk_eq43 (c : Dev nD) (t : Fin (cfg43 a1).N) :
    outBlk43 V a1 c t = gatherOut (gatherG (a1.1 0) (V c main_v141) (grid43.coords t)) (iblk43 V a1 c 0 t) := rfl

/-- The proof data with the output block named: after the body at point t the output window's buffer holds it. -/
theorem afterOutBlk43 (c : Dev nD) (t : Fin (cfg43 a1).N) :
    (dat43 V a1 (outBlk43 V a1) c).after 1 t
      = gatherOut (gatherG (a1.1 0) (V c main_v141) (grid43.coords t)) (iblk43 V a1 c 0 t) :=
  afterOut43 V a1 (outBlk43 V a1) c t

/-- The own cells at zero are the semaphore array's eight entries at zero, in order. -/
theorem ownSems_eq43 (c : Dev nD) :
    (Pipeline.ownSems0 (Ix := Unit) (Name := ℕ) (U := UD sig nD τ) (Lvl := ℕ) (Val := Elt F) (τ := τ) osem43 c : sProp 𝕄)
      = gsems0 c cc43_scratch1 := by
  rw [Pipeline.ownSems0_eq_of_list c osem43 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq43 (t : Fin (cfg43 a1).N) : ∃ h3 h4, bodyProg43 (F := F) a1 t
    = cc43__gather_mul_kernel (grid43.coords t) (Memref.whole main_v183) (Memref.isWhole_whole _) (Memref.whole main_v141) (Memref.isWhole_whole _)
        (stg43 a1 0 t) h3 (stg43 a1 1 t) h4 (Memref.whole cc43_scratch0) (Memref.isWhole_whole _) cc43_scratch1 := ⟨_, _, rfl⟩

end Out

/-! ## The body's run, joined to the proof data -/

section Body

variable (V : (c : Dev nD) → (b : Ref sig .tc) → Buf (Elt F) ((c : Thread nD τ).loc b))
  (a1 : (pcfg43 (F := F)).Adm)

/-- The scratch buffer whole at some contents, as a memref owned at some contents. -/
theorem scratchOwns_eq43 (c : Dev nD) :
    (iprop(∃ d, owns (c : Thread nD τ) (Memref.whole cc43_scratch0) fullShare d) : sProp 𝕄)
      = iprop(∃ f : Buf (Elt F) ((c : Thread nD τ).loc cc43_scratch0), ((c : Thread nD τ).loc cc43_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun43 (hlt : ∀ y, BitVec.toNat ((a1.1 0) y) < 100000) : BodyRun43 V a1 (outBlk43 V a1) := by
  intro c t W K
  obtain ⟨h3, h4, hprog⟩ := bodyProg_eq43 (F := F) a1 t
  rw [hprog, ownSems_eq43, ← scratchOwns_eq43 (F := F) c]
  have hrun := gather_kernel_run_43 (F := F) c (grid43.coords t) (Memref.whole main_v183) (Memref.isWhole_whole _) (Memref.whole main_v141) (Memref.isWhole_whole _)
    (stg43 a1 0 t) h3 (stg43 a1 1 t) h4 (Memref.whole cc43_scratch0) (Memref.isWhole_whole _) cc43_scratch1 fullShare fullShare
    (a1.1 0) (V c main_v141) (iblk43 V a1 c 0 t) (fun y => hlt y) W K
  simp only [Memref.view_whole, View.read_whole] at hrun
  unfold outBlk43
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut43 (hlt : ∀ y, BitVec.toNat ((a1.1 0) y) < 100000) (c : Dev nD) :
    BodyObligation (dat43 (F := F) V a1 (outBlk43 V a1) c) (defs₀ (F := F)) Variants.none () Set.univ :=
  body_obligation43 V a1 (outBlk43 V a1) (bodyRun43 V a1 hlt) c

end Body

/-! # Region 44 -/

/-! ## The body's own transfer cells -/

/-- The eight cells of the body's semaphore array, in order. -/
abbrev osem44 : Fin 8 → SemLoc sig := fun j => SemLoc.dma (cc44_scratch1.ix (fun | ⟨0, _⟩ => j))

/-- They are scoped, pairwise distinct, and none is a staging cell of a window. -/
theorem ownSemFacts44 : Pipeline.OwnSemFacts spec44 osem44 := by decide

/-- The far operand is an unscoped buffer that is neither a window's array nor a table. -/
theorem hx_sub44 : ({main_v141} : Finset (Ref sig .tc)) ⊆ Pipeline.restRefsP sig pre44 spec44 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg44 (F := F)).Adm)
  (O : (c : Dev nD) → Fin (cfg44 a1).N → Vec F S8x64 .f32)

/-! ## The windows' blocks -/

/-- Window w's block at point t, read off its array under V. -/
def iblk44 (c : Dev nD) (w : Fin (cfg44 a1).W) (t : Fin (cfg44 a1).N) :
    (((cfg44 a1).win w).xblock ((cfg44 a1).grid.coords t)).Idx → Elt F ((cfg44 a1).win w).elt :=
  (((cfg44 a1).win w).blk t).view.read (Elt F) (V c (Pipeline.arrRef spec44 w))

/-- The input window's current staging buffer holds its block at every point, fetched there or not, for any proof
    data whose array is V's and whose body leaves the block in place: unfetched, the block index has not moved. -/
theorem beforeIn44_of {c : Dev nD} (dat : Dat τ (Elt F) Unit ℕ (UD sig nD τ) ℕ (cfg44 a1) c)
    (hA : dat.A 0 = V c (Pipeline.arrRef spec44 0))
    (hafter : ∀ t, dat.after 0 t = iblk44 V a1 c 0 t) (t : Fin (cfg44 a1).N) (d) : dat.before 0 t d = iblk44 V a1 c 0 t :=
  (dat.before_in_eq_fetched 0 rfl (fun _ => rfl) (fun _ _ _ => rfl)
    (fun t => by rw [hafter]; unfold Dat.blockOf iblk44; rw [hA]; try rfl) t d).trans
    (by unfold Dat.fetched Dat.blockOf iblk44; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat44 (c : Dev nD) : Dat τ (Elt F) Unit ℕ (UD sig nD τ) ℕ (cfg44 a1) c where
  A w := V c (Pipeline.arrRef spec44 w)
  after w t := match w with
    | ⟨0, _⟩ => iblk44 V a1 c 0 t
    | ⟨1, _⟩ => O c t
  Φ _ := iprop(Pipeline.ΦD osem44 spec44 {main_v141} V c ∗ Pipeline.prefHeld pre44 c (fun _ => fullShare) a1.1)
  q _ := fullShare
  owed _ := 0

theorem A_eq44 (c : Dev nD) (w : Fin (cfg44 a1).W) : (dat44 V a1 O c).A w = V c (Pipeline.arrRef spec44 w) := by
  dsimp only [dat44]

theorem afterIn44 (c : Dev nD) (t : Fin (cfg44 a1).N) : (dat44 V a1 O c).after 0 t = iblk44 V a1 c 0 t := by
  dsimp only [dat44]; rfl

theorem afterOut44 (c : Dev nD) (t : Fin (cfg44 a1).N) :
    (dat44 V a1 O c).after 1 t = O c t := by
  dsimp only [dat44]; rfl

theorem beforeIn44 (c : Dev nD) (t : Fin (cfg44 a1).N) (d) : (dat44 V a1 O c).before 0 t d = iblk44 V a1 c 0 t :=
  beforeIn44_of V a1 (dat44 V a1 O c) (A_eq44 V a1 O c 0) (afterIn44 V a1 O c) t d

theorem Phi_eq44 (c : Dev nD) (t : Fin ((cfg44 a1).N + 1)) :
    (dat44 V a1 O c).Φ t
      = iprop(Pipeline.ΦD osem44 spec44 {main_v141} V c ∗ Pipeline.prefHeld pre44 c (fun _ => fullShare) a1.1) := by
  dsimp only [dat44]

theorem owed_eq44 (c : Dev nD) (t : Fin ((cfg44 a1).N + 1)) : (dat44 V a1 O c).owed t = 0 := by
  dsimp only [dat44]

/-! ## The invariant, conjunct by conjunct -/

/-- The invariant's first part opened: the body's scratch buffer whole at some contents and the other scoped
    buffers no window stages, the generator register, the own cells at zero, the far operand at its contents. -/
theorem PhiD_eq44 (c : Dev nD) :
    (Pipeline.ΦD osem44 spec44 {main_v141} V c : sProp 𝕄)
      = iprop(iprop(iprop((∃ f : Buf (Elt F) ((c : Thread nD τ).loc cc44_scratch0), ((c : Thread nD τ).loc cc44_scratch0) ↦{fullShare} f))
            ∗ Pipeline.scopedRestBut (Ix := Unit) (Name := ℕ) (U := UD sig nD τ) (Lvl := ℕ) (Val := Elt F) spec44 c [cc44_scratch0])
          ∗ (∃ r, prngReg c r)
          ∗ Pipeline.ownSems0 (Ix := Unit) (Name := ℕ) (U := UD sig nD τ) (Lvl := ℕ) (Val := Elt F) (τ := τ) osem44 c
          ∗ (((c : Thread nD τ).loc main_v141) ↦{fullShare} V c main_v141)) := by
  rw [Pipeline.ΦD_eq, scopedRest44_split, BI.bigSep_eq_bigSepL_of_eq [main_v141] (by decide) (by decide)]; rfl

/-- The one table, held whole. -/
theorem prefHeld_eq44 (c : Dev nD) :
    (Pipeline.prefHeld pre44 c (fun _ => fullShare) a1.1 : sProp 𝕄)
      = (((c : Thread nD τ).loc main_v187) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg44 (w : Fin (cfg44 a1).W) (t : Fin (cfg44 a1).N) := ((cfg44 a1).win w).stage ((cfg44 a1).slots t w)

/-- The body as the pipeline calls it at point t. -/
abbrev bodyProg44 (t : Fin (cfg44 a1).N) : Prog (TpuEff nD τ sig (Elt F) Λ₀ .tc) PUnit :=
  (defs₀ (F := F)) .tc (cfg44 a1).body ((cfg44 a1).bodyArgs t ((cfg44 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun44 : Prop :=
  ∀ (c : Dev nD) (t : Fin (cfg44 a1).N) (W) (K : PUnit → sProp 𝕄),
    iprop(owns (c : Thread nD τ) (stg44 a1 0 t) fullShare (iblk44 V a1 c 0 t)
        ∗ (∃ d, owns (c : Thread nD τ) (stg44 a1 1 t) fullShare d)
        ∗ (∃ f : Buf (Elt F) ((c : Thread nD τ).loc cc44_scratch0), ((c : Thread nD τ).loc cc44_scratch0) ↦{fullShare} f)
        ∗ Pipeline.ownSems0 (Ix := Unit) (Name := ℕ) (U := UD sig nD τ) (Lvl := ℕ) (Val := Elt F) (τ := τ) osem44 c
        ∗ (((c : Thread nD τ).loc main_v187) ↦{fullShare} a1.1 0)
        ∗ (((c : Thread nD τ).loc main_v141) ↦{fullShare} V c main_v141)
        ∗ owes (c : Thread nD τ) (0 : CellTallies nD τ sig Unit) W
        ∗ (iprop(owns (c : Thread nD τ) (stg44 a1 0 t) fullShare (iblk44 V a1 c 0 t)
            ∗ owns (c : Thread nD τ) (stg44 a1 1 t) fullShare (O c t)
            ∗ (∃ f : Buf (Elt F) ((c : Thread nD τ).loc cc44_scratch0), ((c : Thread nD τ).loc cc44_scratch0) ↦{fullShare} f)
            ∗ Pipeline.ownSems0 (Ix := Unit) (Name := ℕ) (U := UD sig nD τ) (Lvl := ℕ) (Val := Elt F) (τ := τ) osem44 c
            ∗ (((c : Thread nD τ).loc main_v187) ↦{fullShare} a1.1 0)
            ∗ (((c : Thread nD τ).loc main_v141) ↦{fullShare} V c main_v141)
            ∗ (∃ W', owes (c : Thread nD τ) (0 : CellTallies nD τ sig Unit) W')) -∗ K ⟨⟩))
      ⊢ wp frame (wpE (defs₀ (F := F)) Variants.none c none) Set.univ (bodyProg44 a1 t) K

/-- What the body is called with at point t, the windows one by one, -/
def bodyPre44 (c : Dev nD) (t : Fin (cfg44 a1).N) : sProp 𝕄 :=
  iprop((dat44 V a1 O c).Φ t.castSucc ∗ (dat44 V a1 O c).owesAt () t.castSucc
    ∗ (∃ d, owns (c : Thread nD τ) (stg44 a1 0 t) fullShare ((dat44 V a1 O c).before 0 t d))
    ∗ (∃ d, owns (c : Thread nD τ) (stg44 a1 1 t) fullShare ((dat44 V a1 O c).before 1 t d)))

/-- and what it returns. -/
def bodyPost44 (c : Dev nD) (t : Fin (cfg44 a1).N) : sProp 𝕄 :=
  iprop((dat44 V a1 O c).Φ t.succ ∗ (dat44 V a1 O c).owesAt () t.succ
    ∗ owns (c : Thread nD τ) (stg44 a1 0 t) fullShare ((dat44 V a1 O c).after 0 t)
    ∗ owns (c : Thread nD τ) (stg44 a1 1 t) fullShare ((dat44 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body44 (hrun : BodyRun44 V a1 O) (c : Dev nD) (t : Fin (cfg44 a1).N) :
    bodyPre44 V a1 O c t
      ⊢ wp frame (wpE (defs₀ (F := F)) Variants.none c none) Set.univ (bodyProg44 a1 t) (fun _ => bodyPost44 V a1 O c t) := by
  unfold bodyPre44 bodyPost44
  simp only [beforeIn44]
  rw [afterIn44, afterOut44, Phi_eq44, Phi_eq44, PhiD_eq44, prefHeld_eq44]
  unfold Dat.owesAt Pipeline.owesWithin
  rw [owed_eq44, owed_eq44]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation44 (hrun : BodyRun44 V a1 O) (c : Dev nD) :
    BodyObligation (dat44 (F := F) V a1 O c) (defs₀ (F := F)) Variants.none () Set.univ := fun t => by
  rw [bigSep_W44, bigSep_W44]
  exact sound_body44 V a1 O hrun c t

end Data

/-! ## The region's record -/

section Record

variable (Win : Dev nD → Valuation τ sig (Elt F))

variable (a1 : (pcfg44 (F := F)).Adm)
  (O : (c : Dev nD) → Fin (cfg44 a1).N → Vec F S8x64 .f32)

/-- The buffers at the region's exit: its arrays at what the write-backs leave, every other buffer as entered. -/
def Wout44 (c : Dev nD) : Valuation τ sig (Elt F) :=
  Pipeline.withArrays spec44 c (Win c) fun w => (dat44 (Vof Win) a1 O c).arrAt w (cfg44 a1).N

theorem Wout44_arr (c : Dev nD) (w : Fin (cfg44 a1).W) :
    Wout44 Win a1 O c (Proc.devRef .tc (Pipeline.arrRef spec44 w)) = (dat44 (Vof Win) a1 O c).arrAt w (cfg44 a1).N := by
  unfold Wout44; exact Pipeline.withArrays_arr spec44 winFacts44.arr_inj c _ _ w

theorem Wout44_of_ne (c : Dev nD) (b : Ref sig .tc) (hb : ∀ w, Pipeline.arrRef spec44 w ≠ b) :
    Wout44 Win a1 O c (Proc.devRef .tc b) = Win c (Proc.devRef .tc b) := by
  unfold Wout44; exact Pipeline.withArrays_of_ne spec44 c _ _ b hb

/-- ENTRY, the buffers' part. Every unscoped buffer at Win is: the region's arrays at the proof data's entry contents,
    the table whole at the admissible contents (which are Win's there), the far operand whole, and the others. -/
theorem entry44 (c : Dev nD) (ha1 : ∀ k, Vof Win c (pre44.ref k) = a1.1 k) :
    (StableHlo.held (c : Thread nD τ) (Pipeline.ucRefs τ sig) (Win c) : sProp 𝕄)
      ⊢ iprop((dat44 (Vof Win) a1 O c).arrays ((dat44 (Vof Win) a1 O c).arrAt · 0)
          ∗ Pipeline.prefHeld pre44 c (fun _ => fullShare) a1.1
          ∗ (bigSep ({main_v141} : Finset (Ref sig .tc)) fun b => (((c : Thread nD τ)).loc b) ↦{fullShare} Vof Win c b)
          ∗ bigSep (Pipeline.restRefsP sig pre44 spec44 \ {main_v141}) fun b => (((c : Thread nD τ)).loc b) ↦{fullShare} Vof Win c b) := by
  have hsplit := Pipeline.arrays_of_unscopedBufs (p := ()) (fun (_ : Unit) => pcfg44 (F := F)) (fun _ => a1)
    (fun _ c => dat44 (Vof Win) a1 O c) winFacts44 (launch44 (F := F)).arr_whole c
    ((dat44 (Vof Win) a1 O c).share_full fun _ => rfl) (Vof Win c) (fun w => A_eq44 (Vof Win) a1 O c w)
  rw [Pipeline.unscopedBufs_held,
    Pipeline.unscopedRest_split (Ix := Unit) (Name := ℕ) (U := UD sig nD τ) (Lvl := ℕ) preFacts44 c (Vof Win c),
    Pipeline.unscopedRestP_sdiff pre44 spec44 {main_v141} hx_sub44 c (Vof Win c),
    show (fun k => Vof Win c (pre44.ref k)) = a1.1 from funext ha1] at hsplit
  exact hsplit

/-- EXIT, the buffers' part: the same four put back, the arrays at what the write-backs leave, are every unscoped
    buffer at the exit valuation. -/
theorem exit44 (c : Dev nD) (ha1 : ∀ k, Vof Win c (pre44.ref k) = a1.1 k) :
    iprop((dat44 (Vof Win) a1 O c).arrays ((dat44 (Vof Win) a1 O c).arrAt · (cfg44 a1).N)
        ∗ Pipeline.prefHeld pre44 c (fun _ => fullShare) a1.1
        ∗ (bigSep ({main_v141} : Finset (Ref sig .tc)) fun b => (((c : Thread nD τ)).loc b) ↦{fullShare} Vof Win c b)
        ∗ bigSep (Pipeline.restRefsP sig pre44 spec44 \ {main_v141}) fun b => (((c : Thread nD τ)).loc b) ↦{fullShare} Vof Win c b)
      ⊢ (StableHlo.held (c : Thread nD τ) (Pipeline.ucRefs τ sig) (Wout44 Win a1 O c) : sProp 𝕄) := by
  have hjoin := Pipeline.unscopedBufs_of_arrays (p := ()) (fun (_ : Unit) => pcfg44 (F := F)) (fun _ => a1)
    (Ix := Unit) (Name := ℕ) (U := UD sig nD τ) (Lvl := ℕ)
    winFacts44 (launch44 (F := F)).arr_whole c (fun _ c => dat44 (Vof Win) a1 O c)
    ((dat44 (Vof Win) a1 O c).share_full fun _ => rfl)
    (Vof Win c) (Vof (Wout44 Win a1 O) c) ((dat44 (Vof Win) a1 O c).arrAt · (cfg44 a1).N)
    (fun w => (Wout44_arr Win a1 O c w).symm)
    (fun b hb => Wout44_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts44 c (Vof Win c),
    Pipeline.unscopedRestP_sdiff pre44 spec44 {main_v141} hx_sub44 c (Vof Win c),
    show (fun k => Vof Win c (pre44.ref k)) = a1.1 from funext ha1] at hjoin
  exact hjoin

end Record

section Seg

variable (Win : Dev nD → Valuation τ sig (Elt F))
  (adm : (p : Fin 49) → (pcfgs (F := F) p).Adm)
  (O : (c : Dev nD) → Fin (cfg44 (adm (44 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout44. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg44 (hd : ∀ c, pdats (44 : Fin 49) c = dat44 (Vof Win) (adm (44 : Fin 49)) O c)
    (ha1 : ∀ c k, Vof Win c (pre44.ref k) = (adm (44 : Fin 49)).1 k)
    (hbody : ∀ c, BodyObligation (dat44 (F := F) (Vof Win) (adm (44 : Fin 49)) O c) (defs₀ (F := F)) 𝒱₀ () Set.univ) :
    Pipeline.RegionSeg (pcfgs (F := F)) adm pdats () defs₀ 𝒱₀ L lv (44 : Fin 49) where
  win := (launch44 (F := F)).win.to₀
  block_pos := (launch44 (F := F)).block_pos
  stage_whole := (launch44 (F := F)).stage_whole
  K := Fin 8
  osem := osem44
  ho := ownSemFacts44
  hbody c := by rw [hd c]; exact (hbody c).loose
  hwaits := Pipeline.hwaits_of_owed_zero _ _ _ _ L lv (44 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout44 Win (adm (44 : Fin 49)) O c) ∗ R c)
  X c := iprop((∃ r, prngReg c r)
    ∗ Pipeline.ownSems0 (Ix := Unit) (Name := ℕ) (U := UD sig nD τ) (Lvl := ℕ) (Val := Elt F) (τ := τ) osem44 c
    ∗ (bigSep ({main_v141} : Finset (Ref sig .tc)) fun b => (((c : Thread nD τ)).loc b) ↦{fullShare} Vof Win c b))
  Y c := iprop((∃ r, prngReg c r)
    ∗ (bigSep ({main_v141} : Finset (Ref sig .tc)) fun b => (((c : Thread nD τ)).loc b) ↦{fullShare} Vof Win c b)
    ∗ Pipeline.prefHeld pre44 c (fun _ => fullShare) (adm (44 : Fin 49)).1)
  Z c := bigSep (Pipeline.restRefsP sig pre44 spec44 \ {main_v141}) fun b => (((c : Thread nD τ)).loc b) ↦{fullShare} Vof Win c b
  hentry c := by
    rw [hd c]
    iintro ⟨⟨Hub, Hp, HO⟩, Hos, -⟩
    ihave H := (entry44 Win (adm (44 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq44, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq44, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit44 Win (adm (44 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg44 (F := F)).Adm)

/-- The output block at point t: the gathered rows (of the far operand's contents under V, chosen by the table's
    words at that point) times the input block. -/
def outBlk44 (c : Dev nD) (t : Fin (cfg44 a1).N) : Vec F S8x64 .f32 :=
  gatherOut (gatherG (a1.1 0) (V c main_v141) (grid44.coords t)) (iblk44 V a1 c 0 t)

theorem outBlk_eq44 (c : Dev nD) (t : Fin (cfg44 a1).N) :
    outBlk44 V a1 c t = gatherOut (gatherG (a1.1 0) (V c main_v141) (grid44.coords t)) (iblk44 V a1 c 0 t) := rfl

/-- The proof data with the output block named: after the body at point t the output window's buffer holds it. -/
theorem afterOutBlk44 (c : Dev nD) (t : Fin (cfg44 a1).N) :
    (dat44 V a1 (outBlk44 V a1) c).after 1 t
      = gatherOut (gatherG (a1.1 0) (V c main_v141) (grid44.coords t)) (iblk44 V a1 c 0 t) :=
  afterOut44 V a1 (outBlk44 V a1) c t

/-- The own cells at zero are the semaphore array's eight entries at zero, in order. -/
theorem ownSems_eq44 (c : Dev nD) :
    (Pipeline.ownSems0 (Ix := Unit) (Name := ℕ) (U := UD sig nD τ) (Lvl := ℕ) (Val := Elt F) (τ := τ) osem44 c : sProp 𝕄)
      = gsems0 c cc44_scratch1 := by
  rw [Pipeline.ownSems0_eq_of_list c osem44 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq44 (t : Fin (cfg44 a1).N) : ∃ h3 h4, bodyProg44 (F := F) a1 t
    = cc44__gather_mul_kernel (grid44.coords t) (Memref.whole main_v187) (Memref.isWhole_whole _) (Memref.whole main_v141) (Memref.isWhole_whole _)
        (stg44 a1 0 t) h3 (stg44 a1 1 t) h4 (Memref.whole cc44_scratch0) (Memref.isWhole_whole _) cc44_scratch1 := ⟨_, _, rfl⟩

end Out

/-! ## The body's run, joined to the proof data -/

section Body

variable (V : (c : Dev nD) → (b : Ref sig .tc) → Buf (Elt F) ((c : Thread nD τ).loc b))
  (a1 : (pcfg44 (F := F)).Adm)

/-- The scratch buffer whole at some contents, as a memref owned at some contents. -/
theorem scratchOwns_eq44 (c : Dev nD) :
    (iprop(∃ d, owns (c : Thread nD τ) (Memref.whole cc44_scratch0) fullShare d) : sProp 𝕄)
      = iprop(∃ f : Buf (Elt F) ((c : Thread nD τ).loc cc44_scratch0), ((c : Thread nD τ).loc cc44_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun44 (hlt : ∀ y, BitVec.toNat ((a1.1 0) y) < 100000) : BodyRun44 V a1 (outBlk44 V a1) := by
  intro c t W K
  obtain ⟨h3, h4, hprog⟩ := bodyProg_eq44 (F := F) a1 t
  rw [hprog, ownSems_eq44, ← scratchOwns_eq44 (F := F) c]
  have hrun := gather_kernel_run_44 (F := F) c (grid44.coords t) (Memref.whole main_v187) (Memref.isWhole_whole _) (Memref.whole main_v141) (Memref.isWhole_whole _)
    (stg44 a1 0 t) h3 (stg44 a1 1 t) h4 (Memref.whole cc44_scratch0) (Memref.isWhole_whole _) cc44_scratch1 fullShare fullShare
    (a1.1 0) (V c main_v141) (iblk44 V a1 c 0 t) (fun y => hlt y) W K
  simp only [Memref.view_whole, View.read_whole] at hrun
  unfold outBlk44
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut44 (hlt : ∀ y, BitVec.toNat ((a1.1 0) y) < 100000) (c : Dev nD) :
    BodyObligation (dat44 (F := F) V a1 (outBlk44 V a1) c) (defs₀ (F := F)) Variants.none () Set.univ :=
  body_obligation44 V a1 (outBlk44 V a1) (bodyRun44 V a1 hlt) c

end Body

/-! # Region 45 -/

/-! ## The body's own transfer cells -/

/-- The eight cells of the body's semaphore array, in order. -/
abbrev osem45 : Fin 8 → SemLoc sig := fun j => SemLoc.dma (cc45_scratch1.ix (fun | ⟨0, _⟩ => j))

/-- They are scoped, pairwise distinct, and none is a staging cell of a window. -/
theorem ownSemFacts45 : Pipeline.OwnSemFacts spec45 osem45 := by decide

/-- The far operand is an unscoped buffer that is neither a window's array nor a table. -/
theorem hx_sub45 : ({main_v141} : Finset (Ref sig .tc)) ⊆ Pipeline.restRefsP sig pre45 spec45 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg45 (F := F)).Adm)
  (O : (c : Dev nD) → Fin (cfg45 a1).N → Vec F S8x64 .f32)

/-! ## The windows' blocks -/

/-- Window w's block at point t, read off its array under V. -/
def iblk45 (c : Dev nD) (w : Fin (cfg45 a1).W) (t : Fin (cfg45 a1).N) :
    (((cfg45 a1).win w).xblock ((cfg45 a1).grid.coords t)).Idx → Elt F ((cfg45 a1).win w).elt :=
  (((cfg45 a1).win w).blk t).view.read (Elt F) (V c (Pipeline.arrRef spec45 w))

/-- The input window's current staging buffer holds its block at every point, fetched there or not, for any proof
    data whose array is V's and whose body leaves the block in place: unfetched, the block index has not moved. -/
theorem beforeIn45_of {c : Dev nD} (dat : Dat τ (Elt F) Unit ℕ (UD sig nD τ) ℕ (cfg45 a1) c)
    (hA : dat.A 0 = V c (Pipeline.arrRef spec45 0))
    (hafter : ∀ t, dat.after 0 t = iblk45 V a1 c 0 t) (t : Fin (cfg45 a1).N) (d) : dat.before 0 t d = iblk45 V a1 c 0 t :=
  (dat.before_in_eq_fetched 0 rfl (fun _ => rfl) (fun _ _ _ => rfl)
    (fun t => by rw [hafter]; unfold Dat.blockOf iblk45; rw [hA]; try rfl) t d).trans
    (by unfold Dat.fetched Dat.blockOf iblk45; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat45 (c : Dev nD) : Dat τ (Elt F) Unit ℕ (UD sig nD τ) ℕ (cfg45 a1) c where
  A w := V c (Pipeline.arrRef spec45 w)
  after w t := match w with
    | ⟨0, _⟩ => iblk45 V a1 c 0 t
    | ⟨1, _⟩ => O c t
  Φ _ := iprop(Pipeline.ΦD osem45 spec45 {main_v141} V c ∗ Pipeline.prefHeld pre45 c (fun _ => fullShare) a1.1)
  q _ := fullShare
  owed _ := 0

theorem A_eq45 (c : Dev nD) (w : Fin (cfg45 a1).W) : (dat45 V a1 O c).A w = V c (Pipeline.arrRef spec45 w) := by
  dsimp only [dat45]

theorem afterIn45 (c : Dev nD) (t : Fin (cfg45 a1).N) : (dat45 V a1 O c).after 0 t = iblk45 V a1 c 0 t := by
  dsimp only [dat45]; rfl

theorem afterOut45 (c : Dev nD) (t : Fin (cfg45 a1).N) :
    (dat45 V a1 O c).after 1 t = O c t := by
  dsimp only [dat45]; rfl

theorem beforeIn45 (c : Dev nD) (t : Fin (cfg45 a1).N) (d) : (dat45 V a1 O c).before 0 t d = iblk45 V a1 c 0 t :=
  beforeIn45_of V a1 (dat45 V a1 O c) (A_eq45 V a1 O c 0) (afterIn45 V a1 O c) t d

theorem Phi_eq45 (c : Dev nD) (t : Fin ((cfg45 a1).N + 1)) :
    (dat45 V a1 O c).Φ t
      = iprop(Pipeline.ΦD osem45 spec45 {main_v141} V c ∗ Pipeline.prefHeld pre45 c (fun _ => fullShare) a1.1) := by
  dsimp only [dat45]

theorem owed_eq45 (c : Dev nD) (t : Fin ((cfg45 a1).N + 1)) : (dat45 V a1 O c).owed t = 0 := by
  dsimp only [dat45]

/-! ## The invariant, conjunct by conjunct -/

/-- The invariant's first part opened: the body's scratch buffer whole at some contents and the other scoped
    buffers no window stages, the generator register, the own cells at zero, the far operand at its contents. -/
theorem PhiD_eq45 (c : Dev nD) :
    (Pipeline.ΦD osem45 spec45 {main_v141} V c : sProp 𝕄)
      = iprop(iprop(iprop((∃ f : Buf (Elt F) ((c : Thread nD τ).loc cc45_scratch0), ((c : Thread nD τ).loc cc45_scratch0) ↦{fullShare} f))
            ∗ Pipeline.scopedRestBut (Ix := Unit) (Name := ℕ) (U := UD sig nD τ) (Lvl := ℕ) (Val := Elt F) spec45 c [cc45_scratch0])
          ∗ (∃ r, prngReg c r)
          ∗ Pipeline.ownSems0 (Ix := Unit) (Name := ℕ) (U := UD sig nD τ) (Lvl := ℕ) (Val := Elt F) (τ := τ) osem45 c
          ∗ (((c : Thread nD τ).loc main_v141) ↦{fullShare} V c main_v141)) := by
  rw [Pipeline.ΦD_eq, scopedRest45_split, BI.bigSep_eq_bigSepL_of_eq [main_v141] (by decide) (by decide)]; rfl

/-- The one table, held whole. -/
theorem prefHeld_eq45 (c : Dev nD) :
    (Pipeline.prefHeld pre45 c (fun _ => fullShare) a1.1 : sProp 𝕄)
      = (((c : Thread nD τ).loc main_v191) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg45 (w : Fin (cfg45 a1).W) (t : Fin (cfg45 a1).N) := ((cfg45 a1).win w).stage ((cfg45 a1).slots t w)

/-- The body as the pipeline calls it at point t. -/
abbrev bodyProg45 (t : Fin (cfg45 a1).N) : Prog (TpuEff nD τ sig (Elt F) Λ₀ .tc) PUnit :=
  (defs₀ (F := F)) .tc (cfg45 a1).body ((cfg45 a1).bodyArgs t ((cfg45 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun45 : Prop :=
  ∀ (c : Dev nD) (t : Fin (cfg45 a1).N) (W) (K : PUnit → sProp 𝕄),
    iprop(owns (c : Thread nD τ) (stg45 a1 0 t) fullShare (iblk45 V a1 c 0 t)
        ∗ (∃ d, owns (c : Thread nD τ) (stg45 a1 1 t) fullShare d)
        ∗ (∃ f : Buf (Elt F) ((c : Thread nD τ).loc cc45_scratch0), ((c : Thread nD τ).loc cc45_scratch0) ↦{fullShare} f)
        ∗ Pipeline.ownSems0 (Ix := Unit) (Name := ℕ) (U := UD sig nD τ) (Lvl := ℕ) (Val := Elt F) (τ := τ) osem45 c
        ∗ (((c : Thread nD τ).loc main_v191) ↦{fullShare} a1.1 0)
        ∗ (((c : Thread nD τ).loc main_v141) ↦{fullShare} V c main_v141)
        ∗ owes (c : Thread nD τ) (0 : CellTallies nD τ sig Unit) W
        ∗ (iprop(owns (c : Thread nD τ) (stg45 a1 0 t) fullShare (iblk45 V a1 c 0 t)
            ∗ owns (c : Thread nD τ) (stg45 a1 1 t) fullShare (O c t)
            ∗ (∃ f : Buf (Elt F) ((c : Thread nD τ).loc cc45_scratch0), ((c : Thread nD τ).loc cc45_scratch0) ↦{fullShare} f)
            ∗ Pipeline.ownSems0 (Ix := Unit) (Name := ℕ) (U := UD sig nD τ) (Lvl := ℕ) (Val := Elt F) (τ := τ) osem45 c
            ∗ (((c : Thread nD τ).loc main_v191) ↦{fullShare} a1.1 0)
            ∗ (((c : Thread nD τ).loc main_v141) ↦{fullShare} V c main_v141)
            ∗ (∃ W', owes (c : Thread nD τ) (0 : CellTallies nD τ sig Unit) W')) -∗ K ⟨⟩))
      ⊢ wp frame (wpE (defs₀ (F := F)) Variants.none c none) Set.univ (bodyProg45 a1 t) K

/-- What the body is called with at point t, the windows one by one, -/
def bodyPre45 (c : Dev nD) (t : Fin (cfg45 a1).N) : sProp 𝕄 :=
  iprop((dat45 V a1 O c).Φ t.castSucc ∗ (dat45 V a1 O c).owesAt () t.castSucc
    ∗ (∃ d, owns (c : Thread nD τ) (stg45 a1 0 t) fullShare ((dat45 V a1 O c).before 0 t d))
    ∗ (∃ d, owns (c : Thread nD τ) (stg45 a1 1 t) fullShare ((dat45 V a1 O c).before 1 t d)))

/-- and what it returns. -/
def bodyPost45 (c : Dev nD) (t : Fin (cfg45 a1).N) : sProp 𝕄 :=
  iprop((dat45 V a1 O c).Φ t.succ ∗ (dat45 V a1 O c).owesAt () t.succ
    ∗ owns (c : Thread nD τ) (stg45 a1 0 t) fullShare ((dat45 V a1 O c).after 0 t)
    ∗ owns (c : Thread nD τ) (stg45 a1 1 t) fullShare ((dat45 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body45 (hrun : BodyRun45 V a1 O) (c : Dev nD) (t : Fin (cfg45 a1).N) :
    bodyPre45 V a1 O c t
      ⊢ wp frame (wpE (defs₀ (F := F)) Variants.none c none) Set.univ (bodyProg45 a1 t) (fun _ => bodyPost45 V a1 O c t) := by
  unfold bodyPre45 bodyPost45
  simp only [beforeIn45]
  rw [afterIn45, afterOut45, Phi_eq45, Phi_eq45, PhiD_eq45, prefHeld_eq45]
  unfold Dat.owesAt Pipeline.owesWithin
  rw [owed_eq45, owed_eq45]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation45 (hrun : BodyRun45 V a1 O) (c : Dev nD) :
    BodyObligation (dat45 (F := F) V a1 O c) (defs₀ (F := F)) Variants.none () Set.univ := fun t => by
  rw [bigSep_W45, bigSep_W45]
  exact sound_body45 V a1 O hrun c t

end Data

/-! ## The region's record -/

section Record

variable (Win : Dev nD → Valuation τ sig (Elt F))

variable (a1 : (pcfg45 (F := F)).Adm)
  (O : (c : Dev nD) → Fin (cfg45 a1).N → Vec F S8x64 .f32)

/-- The buffers at the region's exit: its arrays at what the write-backs leave, every other buffer as entered. -/
def Wout45 (c : Dev nD) : Valuation τ sig (Elt F) :=
  Pipeline.withArrays spec45 c (Win c) fun w => (dat45 (Vof Win) a1 O c).arrAt w (cfg45 a1).N

theorem Wout45_arr (c : Dev nD) (w : Fin (cfg45 a1).W) :
    Wout45 Win a1 O c (Proc.devRef .tc (Pipeline.arrRef spec45 w)) = (dat45 (Vof Win) a1 O c).arrAt w (cfg45 a1).N := by
  unfold Wout45; exact Pipeline.withArrays_arr spec45 winFacts45.arr_inj c _ _ w

theorem Wout45_of_ne (c : Dev nD) (b : Ref sig .tc) (hb : ∀ w, Pipeline.arrRef spec45 w ≠ b) :
    Wout45 Win a1 O c (Proc.devRef .tc b) = Win c (Proc.devRef .tc b) := by
  unfold Wout45; exact Pipeline.withArrays_of_ne spec45 c _ _ b hb

/-- ENTRY, the buffers' part. Every unscoped buffer at Win is: the region's arrays at the proof data's entry contents,
    the table whole at the admissible contents (which are Win's there), the far operand whole, and the others. -/
theorem entry45 (c : Dev nD) (ha1 : ∀ k, Vof Win c (pre45.ref k) = a1.1 k) :
    (StableHlo.held (c : Thread nD τ) (Pipeline.ucRefs τ sig) (Win c) : sProp 𝕄)
      ⊢ iprop((dat45 (Vof Win) a1 O c).arrays ((dat45 (Vof Win) a1 O c).arrAt · 0)
          ∗ Pipeline.prefHeld pre45 c (fun _ => fullShare) a1.1
          ∗ (bigSep ({main_v141} : Finset (Ref sig .tc)) fun b => (((c : Thread nD τ)).loc b) ↦{fullShare} Vof Win c b)
          ∗ bigSep (Pipeline.restRefsP sig pre45 spec45 \ {main_v141}) fun b => (((c : Thread nD τ)).loc b) ↦{fullShare} Vof Win c b) := by
  have hsplit := Pipeline.arrays_of_unscopedBufs (p := ()) (fun (_ : Unit) => pcfg45 (F := F)) (fun _ => a1)
    (fun _ c => dat45 (Vof Win) a1 O c) winFacts45 (launch45 (F := F)).arr_whole c
    ((dat45 (Vof Win) a1 O c).share_full fun _ => rfl) (Vof Win c) (fun w => A_eq45 (Vof Win) a1 O c w)
  rw [Pipeline.unscopedBufs_held,
    Pipeline.unscopedRest_split (Ix := Unit) (Name := ℕ) (U := UD sig nD τ) (Lvl := ℕ) preFacts45 c (Vof Win c),
    Pipeline.unscopedRestP_sdiff pre45 spec45 {main_v141} hx_sub45 c (Vof Win c),
    show (fun k => Vof Win c (pre45.ref k)) = a1.1 from funext ha1] at hsplit
  exact hsplit

/-- EXIT, the buffers' part: the same four put back, the arrays at what the write-backs leave, are every unscoped
    buffer at the exit valuation. -/
theorem exit45 (c : Dev nD) (ha1 : ∀ k, Vof Win c (pre45.ref k) = a1.1 k) :
    iprop((dat45 (Vof Win) a1 O c).arrays ((dat45 (Vof Win) a1 O c).arrAt · (cfg45 a1).N)
        ∗ Pipeline.prefHeld pre45 c (fun _ => fullShare) a1.1
        ∗ (bigSep ({main_v141} : Finset (Ref sig .tc)) fun b => (((c : Thread nD τ)).loc b) ↦{fullShare} Vof Win c b)
        ∗ bigSep (Pipeline.restRefsP sig pre45 spec45 \ {main_v141}) fun b => (((c : Thread nD τ)).loc b) ↦{fullShare} Vof Win c b)
      ⊢ (StableHlo.held (c : Thread nD τ) (Pipeline.ucRefs τ sig) (Wout45 Win a1 O c) : sProp 𝕄) := by
  have hjoin := Pipeline.unscopedBufs_of_arrays (p := ()) (fun (_ : Unit) => pcfg45 (F := F)) (fun _ => a1)
    (Ix := Unit) (Name := ℕ) (U := UD sig nD τ) (Lvl := ℕ)
    winFacts45 (launch45 (F := F)).arr_whole c (fun _ c => dat45 (Vof Win) a1 O c)
    ((dat45 (Vof Win) a1 O c).share_full fun _ => rfl)
    (Vof Win c) (Vof (Wout45 Win a1 O) c) ((dat45 (Vof Win) a1 O c).arrAt · (cfg45 a1).N)
    (fun w => (Wout45_arr Win a1 O c w).symm)
    (fun b hb => Wout45_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts45 c (Vof Win c),
    Pipeline.unscopedRestP_sdiff pre45 spec45 {main_v141} hx_sub45 c (Vof Win c),
    show (fun k => Vof Win c (pre45.ref k)) = a1.1 from funext ha1] at hjoin
  exact hjoin

end Record

section Seg

variable (Win : Dev nD → Valuation τ sig (Elt F))
  (adm : (p : Fin 49) → (pcfgs (F := F) p).Adm)
  (O : (c : Dev nD) → Fin (cfg45 (adm (45 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout45. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg45 (hd : ∀ c, pdats (45 : Fin 49) c = dat45 (Vof Win) (adm (45 : Fin 49)) O c)
    (ha1 : ∀ c k, Vof Win c (pre45.ref k) = (adm (45 : Fin 49)).1 k)
    (hbody : ∀ c, BodyObligation (dat45 (F := F) (Vof Win) (adm (45 : Fin 49)) O c) (defs₀ (F := F)) 𝒱₀ () Set.univ) :
    Pipeline.RegionSeg (pcfgs (F := F)) adm pdats () defs₀ 𝒱₀ L lv (45 : Fin 49) where
  win := (launch45 (F := F)).win.to₀
  block_pos := (launch45 (F := F)).block_pos
  stage_whole := (launch45 (F := F)).stage_whole
  K := Fin 8
  osem := osem45
  ho := ownSemFacts45
  hbody c := by rw [hd c]; exact (hbody c).loose
  hwaits := Pipeline.hwaits_of_owed_zero _ _ _ _ L lv (45 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout45 Win (adm (45 : Fin 49)) O c) ∗ R c)
  X c := iprop((∃ r, prngReg c r)
    ∗ Pipeline.ownSems0 (Ix := Unit) (Name := ℕ) (U := UD sig nD τ) (Lvl := ℕ) (Val := Elt F) (τ := τ) osem45 c
    ∗ (bigSep ({main_v141} : Finset (Ref sig .tc)) fun b => (((c : Thread nD τ)).loc b) ↦{fullShare} Vof Win c b))
  Y c := iprop((∃ r, prngReg c r)
    ∗ (bigSep ({main_v141} : Finset (Ref sig .tc)) fun b => (((c : Thread nD τ)).loc b) ↦{fullShare} Vof Win c b)
    ∗ Pipeline.prefHeld pre45 c (fun _ => fullShare) (adm (45 : Fin 49)).1)
  Z c := bigSep (Pipeline.restRefsP sig pre45 spec45 \ {main_v141}) fun b => (((c : Thread nD τ)).loc b) ↦{fullShare} Vof Win c b
  hentry c := by
    rw [hd c]
    iintro ⟨⟨Hub, Hp, HO⟩, Hos, -⟩
    ihave H := (entry45 Win (adm (45 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq45, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq45, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit45 Win (adm (45 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg45 (F := F)).Adm)

/-- The output block at point t: the gathered rows (of the far operand's contents under V, chosen by the table's
    words at that point) times the input block. -/
def outBlk45 (c : Dev nD) (t : Fin (cfg45 a1).N) : Vec F S8x64 .f32 :=
  gatherOut (gatherG (a1.1 0) (V c main_v141) (grid45.coords t)) (iblk45 V a1 c 0 t)

theorem outBlk_eq45 (c : Dev nD) (t : Fin (cfg45 a1).N) :
    outBlk45 V a1 c t = gatherOut (gatherG (a1.1 0) (V c main_v141) (grid45.coords t)) (iblk45 V a1 c 0 t) := rfl

/-- The proof data with the output block named: after the body at point t the output window's buffer holds it. -/
theorem afterOutBlk45 (c : Dev nD) (t : Fin (cfg45 a1).N) :
    (dat45 V a1 (outBlk45 V a1) c).after 1 t
      = gatherOut (gatherG (a1.1 0) (V c main_v141) (grid45.coords t)) (iblk45 V a1 c 0 t) :=
  afterOut45 V a1 (outBlk45 V a1) c t

/-- The own cells at zero are the semaphore array's eight entries at zero, in order. -/
theorem ownSems_eq45 (c : Dev nD) :
    (Pipeline.ownSems0 (Ix := Unit) (Name := ℕ) (U := UD sig nD τ) (Lvl := ℕ) (Val := Elt F) (τ := τ) osem45 c : sProp 𝕄)
      = gsems0 c cc45_scratch1 := by
  rw [Pipeline.ownSems0_eq_of_list c osem45 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq45 (t : Fin (cfg45 a1).N) : ∃ h3 h4, bodyProg45 (F := F) a1 t
    = cc45__gather_mul_kernel (grid45.coords t) (Memref.whole main_v191) (Memref.isWhole_whole _) (Memref.whole main_v141) (Memref.isWhole_whole _)
        (stg45 a1 0 t) h3 (stg45 a1 1 t) h4 (Memref.whole cc45_scratch0) (Memref.isWhole_whole _) cc45_scratch1 := ⟨_, _, rfl⟩

end Out

/-! ## The body's run, joined to the proof data -/

section Body

variable (V : (c : Dev nD) → (b : Ref sig .tc) → Buf (Elt F) ((c : Thread nD τ).loc b))
  (a1 : (pcfg45 (F := F)).Adm)

/-- The scratch buffer whole at some contents, as a memref owned at some contents. -/
theorem scratchOwns_eq45 (c : Dev nD) :
    (iprop(∃ d, owns (c : Thread nD τ) (Memref.whole cc45_scratch0) fullShare d) : sProp 𝕄)
      = iprop(∃ f : Buf (Elt F) ((c : Thread nD τ).loc cc45_scratch0), ((c : Thread nD τ).loc cc45_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun45 (hlt : ∀ y, BitVec.toNat ((a1.1 0) y) < 100000) : BodyRun45 V a1 (outBlk45 V a1) := by
  intro c t W K
  obtain ⟨h3, h4, hprog⟩ := bodyProg_eq45 (F := F) a1 t
  rw [hprog, ownSems_eq45, ← scratchOwns_eq45 (F := F) c]
  have hrun := gather_kernel_run_45 (F := F) c (grid45.coords t) (Memref.whole main_v191) (Memref.isWhole_whole _) (Memref.whole main_v141) (Memref.isWhole_whole _)
    (stg45 a1 0 t) h3 (stg45 a1 1 t) h4 (Memref.whole cc45_scratch0) (Memref.isWhole_whole _) cc45_scratch1 fullShare fullShare
    (a1.1 0) (V c main_v141) (iblk45 V a1 c 0 t) (fun y => hlt y) W K
  simp only [Memref.view_whole, View.read_whole] at hrun
  unfold outBlk45
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut45 (hlt : ∀ y, BitVec.toNat ((a1.1 0) y) < 100000) (c : Dev nD) :
    BodyObligation (dat45 (F := F) V a1 (outBlk45 V a1) c) (defs₀ (F := F)) Variants.none () Set.univ :=
  body_obligation45 V a1 (outBlk45 V a1) (bodyRun45 V a1 hlt) c

end Body

/-! # Region 46 -/

/-! ## The body's own transfer cells -/

/-- The eight cells of the body's semaphore array, in order. -/
abbrev osem46 : Fin 8 → SemLoc sig := fun j => SemLoc.dma (cc46_scratch1.ix (fun | ⟨0, _⟩ => j))

/-- They are scoped, pairwise distinct, and none is a staging cell of a window. -/
theorem ownSemFacts46 : Pipeline.OwnSemFacts spec46 osem46 := by decide

/-- The far operand is an unscoped buffer that is neither a window's array nor a table. -/
theorem hx_sub46 : ({main_v141} : Finset (Ref sig .tc)) ⊆ Pipeline.restRefsP sig pre46 spec46 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg46 (F := F)).Adm)
  (O : (c : Dev nD) → Fin (cfg46 a1).N → Vec F S8x64 .f32)

/-! ## The windows' blocks -/

/-- Window w's block at point t, read off its array under V. -/
def iblk46 (c : Dev nD) (w : Fin (cfg46 a1).W) (t : Fin (cfg46 a1).N) :
    (((cfg46 a1).win w).xblock ((cfg46 a1).grid.coords t)).Idx → Elt F ((cfg46 a1).win w).elt :=
  (((cfg46 a1).win w).blk t).view.read (Elt F) (V c (Pipeline.arrRef spec46 w))

/-- The input window's current staging buffer holds its block at every point, fetched there or not, for any proof
    data whose array is V's and whose body leaves the block in place: unfetched, the block index has not moved. -/
theorem beforeIn46_of {c : Dev nD} (dat : Dat τ (Elt F) Unit ℕ (UD sig nD τ) ℕ (cfg46 a1) c)
    (hA : dat.A 0 = V c (Pipeline.arrRef spec46 0))
    (hafter : ∀ t, dat.after 0 t = iblk46 V a1 c 0 t) (t : Fin (cfg46 a1).N) (d) : dat.before 0 t d = iblk46 V a1 c 0 t :=
  (dat.before_in_eq_fetched 0 rfl (fun _ => rfl) (fun _ _ _ => rfl)
    (fun t => by rw [hafter]; unfold Dat.blockOf iblk46; rw [hA]; try rfl) t d).trans
    (by unfold Dat.fetched Dat.blockOf iblk46; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat46 (c : Dev nD) : Dat τ (Elt F) Unit ℕ (UD sig nD τ) ℕ (cfg46 a1) c where
  A w := V c (Pipeline.arrRef spec46 w)
  after w t := match w with
    | ⟨0, _⟩ => iblk46 V a1 c 0 t
    | ⟨1, _⟩ => O c t
  Φ _ := iprop(Pipeline.ΦD osem46 spec46 {main_v141} V c ∗ Pipeline.prefHeld pre46 c (fun _ => fullShare) a1.1)
  q _ := fullShare
  owed _ := 0

theorem A_eq46 (c : Dev nD) (w : Fin (cfg46 a1).W) : (dat46 V a1 O c).A w = V c (Pipeline.arrRef spec46 w) := by
  dsimp only [dat46]

theorem afterIn46 (c : Dev nD) (t : Fin (cfg46 a1).N) : (dat46 V a1 O c).after 0 t = iblk46 V a1 c 0 t := by
  dsimp only [dat46]; rfl

theorem afterOut46 (c : Dev nD) (t : Fin (cfg46 a1).N) :
    (dat46 V a1 O c).after 1 t = O c t := by
  dsimp only [dat46]; rfl

theorem beforeIn46 (c : Dev nD) (t : Fin (cfg46 a1).N) (d) : (dat46 V a1 O c).before 0 t d = iblk46 V a1 c 0 t :=
  beforeIn46_of V a1 (dat46 V a1 O c) (A_eq46 V a1 O c 0) (afterIn46 V a1 O c) t d

theorem Phi_eq46 (c : Dev nD) (t : Fin ((cfg46 a1).N + 1)) :
    (dat46 V a1 O c).Φ t
      = iprop(Pipeline.ΦD osem46 spec46 {main_v141} V c ∗ Pipeline.prefHeld pre46 c (fun _ => fullShare) a1.1) := by
  dsimp only [dat46]

theorem owed_eq46 (c : Dev nD) (t : Fin ((cfg46 a1).N + 1)) : (dat46 V a1 O c).owed t = 0 := by
  dsimp only [dat46]

/-! ## The invariant, conjunct by conjunct -/

/-- The invariant's first part opened: the body's scratch buffer whole at some contents and the other scoped
    buffers no window stages, the generator register, the own cells at zero, the far operand at its contents. -/
theorem PhiD_eq46 (c : Dev nD) :
    (Pipeline.ΦD osem46 spec46 {main_v141} V c : sProp 𝕄)
      = iprop(iprop(iprop((∃ f : Buf (Elt F) ((c : Thread nD τ).loc cc46_scratch0), ((c : Thread nD τ).loc cc46_scratch0) ↦{fullShare} f))
            ∗ Pipeline.scopedRestBut (Ix := Unit) (Name := ℕ) (U := UD sig nD τ) (Lvl := ℕ) (Val := Elt F) spec46 c [cc46_scratch0])
          ∗ (∃ r, prngReg c r)
          ∗ Pipeline.ownSems0 (Ix := Unit) (Name := ℕ) (U := UD sig nD τ) (Lvl := ℕ) (Val := Elt F) (τ := τ) osem46 c
          ∗ (((c : Thread nD τ).loc main_v141) ↦{fullShare} V c main_v141)) := by
  rw [Pipeline.ΦD_eq, scopedRest46_split, BI.bigSep_eq_bigSepL_of_eq [main_v141] (by decide) (by decide)]; rfl

/-- The one table, held whole. -/
theorem prefHeld_eq46 (c : Dev nD) :
    (Pipeline.prefHeld pre46 c (fun _ => fullShare) a1.1 : sProp 𝕄)
      = (((c : Thread nD τ).loc main_v195) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg46 (w : Fin (cfg46 a1).W) (t : Fin (cfg46 a1).N) := ((cfg46 a1).win w).stage ((cfg46 a1).slots t w)

/-- The body as the pipeline calls it at point t. -/
abbrev bodyProg46 (t : Fin (cfg46 a1).N) : Prog (TpuEff nD τ sig (Elt F) Λ₀ .tc) PUnit :=
  (defs₀ (F := F)) .tc (cfg46 a1).body ((cfg46 a1).bodyArgs t ((cfg46 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun46 : Prop :=
  ∀ (c : Dev nD) (t : Fin (cfg46 a1).N) (W) (K : PUnit → sProp 𝕄),
    iprop(owns (c : Thread nD τ) (stg46 a1 0 t) fullShare (iblk46 V a1 c 0 t)
        ∗ (∃ d, owns (c : Thread nD τ) (stg46 a1 1 t) fullShare d)
        ∗ (∃ f : Buf (Elt F) ((c : Thread nD τ).loc cc46_scratch0), ((c : Thread nD τ).loc cc46_scratch0) ↦{fullShare} f)
        ∗ Pipeline.ownSems0 (Ix := Unit) (Name := ℕ) (U := UD sig nD τ) (Lvl := ℕ) (Val := Elt F) (τ := τ) osem46 c
        ∗ (((c : Thread nD τ).loc main_v195) ↦{fullShare} a1.1 0)
        ∗ (((c : Thread nD τ).loc main_v141) ↦{fullShare} V c main_v141)
        ∗ owes (c : Thread nD τ) (0 : CellTallies nD τ sig Unit) W
        ∗ (iprop(owns (c : Thread nD τ) (stg46 a1 0 t) fullShare (iblk46 V a1 c 0 t)
            ∗ owns (c : Thread nD τ) (stg46 a1 1 t) fullShare (O c t)
            ∗ (∃ f : Buf (Elt F) ((c : Thread nD τ).loc cc46_scratch0), ((c : Thread nD τ).loc cc46_scratch0) ↦{fullShare} f)
            ∗ Pipeline.ownSems0 (Ix := Unit) (Name := ℕ) (U := UD sig nD τ) (Lvl := ℕ) (Val := Elt F) (τ := τ) osem46 c
            ∗ (((c : Thread nD τ).loc main_v195) ↦{fullShare} a1.1 0)
            ∗ (((c : Thread nD τ).loc main_v141) ↦{fullShare} V c main_v141)
            ∗ (∃ W', owes (c : Thread nD τ) (0 : CellTallies nD τ sig Unit) W')) -∗ K ⟨⟩))
      ⊢ wp frame (wpE (defs₀ (F := F)) Variants.none c none) Set.univ (bodyProg46 a1 t) K

/-- What the body is called with at point t, the windows one by one, -/
def bodyPre46 (c : Dev nD) (t : Fin (cfg46 a1).N) : sProp 𝕄 :=
  iprop((dat46 V a1 O c).Φ t.castSucc ∗ (dat46 V a1 O c).owesAt () t.castSucc
    ∗ (∃ d, owns (c : Thread nD τ) (stg46 a1 0 t) fullShare ((dat46 V a1 O c).before 0 t d))
    ∗ (∃ d, owns (c : Thread nD τ) (stg46 a1 1 t) fullShare ((dat46 V a1 O c).before 1 t d)))

/-- and what it returns. -/
def bodyPost46 (c : Dev nD) (t : Fin (cfg46 a1).N) : sProp 𝕄 :=
  iprop((dat46 V a1 O c).Φ t.succ ∗ (dat46 V a1 O c).owesAt () t.succ
    ∗ owns (c : Thread nD τ) (stg46 a1 0 t) fullShare ((dat46 V a1 O c).after 0 t)
    ∗ owns (c : Thread nD τ) (stg46 a1 1 t) fullShare ((dat46 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body46 (hrun : BodyRun46 V a1 O) (c : Dev nD) (t : Fin (cfg46 a1).N) :
    bodyPre46 V a1 O c t
      ⊢ wp frame (wpE (defs₀ (F := F)) Variants.none c none) Set.univ (bodyProg46 a1 t) (fun _ => bodyPost46 V a1 O c t) := by
  unfold bodyPre46 bodyPost46
  simp only [beforeIn46]
  rw [afterIn46, afterOut46, Phi_eq46, Phi_eq46, PhiD_eq46, prefHeld_eq46]
  unfold Dat.owesAt Pipeline.owesWithin
  rw [owed_eq46, owed_eq46]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation46 (hrun : BodyRun46 V a1 O) (c : Dev nD) :
    BodyObligation (dat46 (F := F) V a1 O c) (defs₀ (F := F)) Variants.none () Set.univ := fun t => by
  rw [bigSep_W46, bigSep_W46]
  exact sound_body46 V a1 O hrun c t

end Data

/-! ## The region's record -/

section Record

variable (Win : Dev nD → Valuation τ sig (Elt F))

variable (a1 : (pcfg46 (F := F)).Adm)
  (O : (c : Dev nD) → Fin (cfg46 a1).N → Vec F S8x64 .f32)

/-- The buffers at the region's exit: its arrays at what the write-backs leave, every other buffer as entered. -/
def Wout46 (c : Dev nD) : Valuation τ sig (Elt F) :=
  Pipeline.withArrays spec46 c (Win c) fun w => (dat46 (Vof Win) a1 O c).arrAt w (cfg46 a1).N

theorem Wout46_arr (c : Dev nD) (w : Fin (cfg46 a1).W) :
    Wout46 Win a1 O c (Proc.devRef .tc (Pipeline.arrRef spec46 w)) = (dat46 (Vof Win) a1 O c).arrAt w (cfg46 a1).N := by
  unfold Wout46; exact Pipeline.withArrays_arr spec46 winFacts46.arr_inj c _ _ w

theorem Wout46_of_ne (c : Dev nD) (b : Ref sig .tc) (hb : ∀ w, Pipeline.arrRef spec46 w ≠ b) :
    Wout46 Win a1 O c (Proc.devRef .tc b) = Win c (Proc.devRef .tc b) := by
  unfold Wout46; exact Pipeline.withArrays_of_ne spec46 c _ _ b hb

/-- ENTRY, the buffers' part. Every unscoped buffer at Win is: the region's arrays at the proof data's entry contents,
    the table whole at the admissible contents (which are Win's there), the far operand whole, and the others. -/
theorem entry46 (c : Dev nD) (ha1 : ∀ k, Vof Win c (pre46.ref k) = a1.1 k) :
    (StableHlo.held (c : Thread nD τ) (Pipeline.ucRefs τ sig) (Win c) : sProp 𝕄)
      ⊢ iprop((dat46 (Vof Win) a1 O c).arrays ((dat46 (Vof Win) a1 O c).arrAt · 0)
          ∗ Pipeline.prefHeld pre46 c (fun _ => fullShare) a1.1
          ∗ (bigSep ({main_v141} : Finset (Ref sig .tc)) fun b => (((c : Thread nD τ)).loc b) ↦{fullShare} Vof Win c b)
          ∗ bigSep (Pipeline.restRefsP sig pre46 spec46 \ {main_v141}) fun b => (((c : Thread nD τ)).loc b) ↦{fullShare} Vof Win c b) := by
  have hsplit := Pipeline.arrays_of_unscopedBufs (p := ()) (fun (_ : Unit) => pcfg46 (F := F)) (fun _ => a1)
    (fun _ c => dat46 (Vof Win) a1 O c) winFacts46 (launch46 (F := F)).arr_whole c
    ((dat46 (Vof Win) a1 O c).share_full fun _ => rfl) (Vof Win c) (fun w => A_eq46 (Vof Win) a1 O c w)
  rw [Pipeline.unscopedBufs_held,
    Pipeline.unscopedRest_split (Ix := Unit) (Name := ℕ) (U := UD sig nD τ) (Lvl := ℕ) preFacts46 c (Vof Win c),
    Pipeline.unscopedRestP_sdiff pre46 spec46 {main_v141} hx_sub46 c (Vof Win c),
    show (fun k => Vof Win c (pre46.ref k)) = a1.1 from funext ha1] at hsplit
  exact hsplit

/-- EXIT, the buffers' part: the same four put back, the arrays at what the write-backs leave, are every unscoped
    buffer at the exit valuation. -/
theorem exit46 (c : Dev nD) (ha1 : ∀ k, Vof Win c (pre46.ref k) = a1.1 k) :
    iprop((dat46 (Vof Win) a1 O c).arrays ((dat46 (Vof Win) a1 O c).arrAt · (cfg46 a1).N)
        ∗ Pipeline.prefHeld pre46 c (fun _ => fullShare) a1.1
        ∗ (bigSep ({main_v141} : Finset (Ref sig .tc)) fun b => (((c : Thread nD τ)).loc b) ↦{fullShare} Vof Win c b)
        ∗ bigSep (Pipeline.restRefsP sig pre46 spec46 \ {main_v141}) fun b => (((c : Thread nD τ)).loc b) ↦{fullShare} Vof Win c b)
      ⊢ (StableHlo.held (c : Thread nD τ) (Pipeline.ucRefs τ sig) (Wout46 Win a1 O c) : sProp 𝕄) := by
  have hjoin := Pipeline.unscopedBufs_of_arrays (p := ()) (fun (_ : Unit) => pcfg46 (F := F)) (fun _ => a1)
    (Ix := Unit) (Name := ℕ) (U := UD sig nD τ) (Lvl := ℕ)
    winFacts46 (launch46 (F := F)).arr_whole c (fun _ c => dat46 (Vof Win) a1 O c)
    ((dat46 (Vof Win) a1 O c).share_full fun _ => rfl)
    (Vof Win c) (Vof (Wout46 Win a1 O) c) ((dat46 (Vof Win) a1 O c).arrAt · (cfg46 a1).N)
    (fun w => (Wout46_arr Win a1 O c w).symm)
    (fun b hb => Wout46_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts46 c (Vof Win c),
    Pipeline.unscopedRestP_sdiff pre46 spec46 {main_v141} hx_sub46 c (Vof Win c),
    show (fun k => Vof Win c (pre46.ref k)) = a1.1 from funext ha1] at hjoin
  exact hjoin

end Record

section Seg

variable (Win : Dev nD → Valuation τ sig (Elt F))
  (adm : (p : Fin 49) → (pcfgs (F := F) p).Adm)
  (O : (c : Dev nD) → Fin (cfg46 (adm (46 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout46. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg46 (hd : ∀ c, pdats (46 : Fin 49) c = dat46 (Vof Win) (adm (46 : Fin 49)) O c)
    (ha1 : ∀ c k, Vof Win c (pre46.ref k) = (adm (46 : Fin 49)).1 k)
    (hbody : ∀ c, BodyObligation (dat46 (F := F) (Vof Win) (adm (46 : Fin 49)) O c) (defs₀ (F := F)) 𝒱₀ () Set.univ) :
    Pipeline.RegionSeg (pcfgs (F := F)) adm pdats () defs₀ 𝒱₀ L lv (46 : Fin 49) where
  win := (launch46 (F := F)).win.to₀
  block_pos := (launch46 (F := F)).block_pos
  stage_whole := (launch46 (F := F)).stage_whole
  K := Fin 8
  osem := osem46
  ho := ownSemFacts46
  hbody c := by rw [hd c]; exact (hbody c).loose
  hwaits := Pipeline.hwaits_of_owed_zero _ _ _ _ L lv (46 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout46 Win (adm (46 : Fin 49)) O c) ∗ R c)
  X c := iprop((∃ r, prngReg c r)
    ∗ Pipeline.ownSems0 (Ix := Unit) (Name := ℕ) (U := UD sig nD τ) (Lvl := ℕ) (Val := Elt F) (τ := τ) osem46 c
    ∗ (bigSep ({main_v141} : Finset (Ref sig .tc)) fun b => (((c : Thread nD τ)).loc b) ↦{fullShare} Vof Win c b))
  Y c := iprop((∃ r, prngReg c r)
    ∗ (bigSep ({main_v141} : Finset (Ref sig .tc)) fun b => (((c : Thread nD τ)).loc b) ↦{fullShare} Vof Win c b)
    ∗ Pipeline.prefHeld pre46 c (fun _ => fullShare) (adm (46 : Fin 49)).1)
  Z c := bigSep (Pipeline.restRefsP sig pre46 spec46 \ {main_v141}) fun b => (((c : Thread nD τ)).loc b) ↦{fullShare} Vof Win c b
  hentry c := by
    rw [hd c]
    iintro ⟨⟨Hub, Hp, HO⟩, Hos, -⟩
    ihave H := (entry46 Win (adm (46 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq46, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq46, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit46 Win (adm (46 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg46 (F := F)).Adm)

/-- The output block at point t: the gathered rows (of the far operand's contents under V, chosen by the table's
    words at that point) times the input block. -/
def outBlk46 (c : Dev nD) (t : Fin (cfg46 a1).N) : Vec F S8x64 .f32 :=
  gatherOut (gatherG (a1.1 0) (V c main_v141) (grid46.coords t)) (iblk46 V a1 c 0 t)

theorem outBlk_eq46 (c : Dev nD) (t : Fin (cfg46 a1).N) :
    outBlk46 V a1 c t = gatherOut (gatherG (a1.1 0) (V c main_v141) (grid46.coords t)) (iblk46 V a1 c 0 t) := rfl

/-- The proof data with the output block named: after the body at point t the output window's buffer holds it. -/
theorem afterOutBlk46 (c : Dev nD) (t : Fin (cfg46 a1).N) :
    (dat46 V a1 (outBlk46 V a1) c).after 1 t
      = gatherOut (gatherG (a1.1 0) (V c main_v141) (grid46.coords t)) (iblk46 V a1 c 0 t) :=
  afterOut46 V a1 (outBlk46 V a1) c t

/-- The own cells at zero are the semaphore array's eight entries at zero, in order. -/
theorem ownSems_eq46 (c : Dev nD) :
    (Pipeline.ownSems0 (Ix := Unit) (Name := ℕ) (U := UD sig nD τ) (Lvl := ℕ) (Val := Elt F) (τ := τ) osem46 c : sProp 𝕄)
      = gsems0 c cc46_scratch1 := by
  rw [Pipeline.ownSems0_eq_of_list c osem46 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq46 (t : Fin (cfg46 a1).N) : ∃ h3 h4, bodyProg46 (F := F) a1 t
    = cc46__gather_mul_kernel (grid46.coords t) (Memref.whole main_v195) (Memref.isWhole_whole _) (Memref.whole main_v141) (Memref.isWhole_whole _)
        (stg46 a1 0 t) h3 (stg46 a1 1 t) h4 (Memref.whole cc46_scratch0) (Memref.isWhole_whole _) cc46_scratch1 := ⟨_, _, rfl⟩

end Out

/-! ## The body's run, joined to the proof data -/

section Body

variable (V : (c : Dev nD) → (b : Ref sig .tc) → Buf (Elt F) ((c : Thread nD τ).loc b))
  (a1 : (pcfg46 (F := F)).Adm)

/-- The scratch buffer whole at some contents, as a memref owned at some contents. -/
theorem scratchOwns_eq46 (c : Dev nD) :
    (iprop(∃ d, owns (c : Thread nD τ) (Memref.whole cc46_scratch0) fullShare d) : sProp 𝕄)
      = iprop(∃ f : Buf (Elt F) ((c : Thread nD τ).loc cc46_scratch0), ((c : Thread nD τ).loc cc46_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun46 (hlt : ∀ y, BitVec.toNat ((a1.1 0) y) < 100000) : BodyRun46 V a1 (outBlk46 V a1) := by
  intro c t W K
  obtain ⟨h3, h4, hprog⟩ := bodyProg_eq46 (F := F) a1 t
  rw [hprog, ownSems_eq46, ← scratchOwns_eq46 (F := F) c]
  have hrun := gather_kernel_run_46 (F := F) c (grid46.coords t) (Memref.whole main_v195) (Memref.isWhole_whole _) (Memref.whole main_v141) (Memref.isWhole_whole _)
    (stg46 a1 0 t) h3 (stg46 a1 1 t) h4 (Memref.whole cc46_scratch0) (Memref.isWhole_whole _) cc46_scratch1 fullShare fullShare
    (a1.1 0) (V c main_v141) (iblk46 V a1 c 0 t) (fun y => hlt y) W K
  simp only [Memref.view_whole, View.read_whole] at hrun
  unfold outBlk46
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut46 (hlt : ∀ y, BitVec.toNat ((a1.1 0) y) < 100000) (c : Dev nD) :
    BodyObligation (dat46 (F := F) V a1 (outBlk46 V a1) c) (defs₀ (F := F)) Variants.none () Set.univ :=
  body_obligation46 V a1 (outBlk46 V a1) (bodyRun46 V a1 hlt) c

end Body

/-! # Region 47 -/

/-! ## The body's own transfer cells -/

/-- The eight cells of the body's semaphore array, in order. -/
abbrev osem47 : Fin 8 → SemLoc sig := fun j => SemLoc.dma (cc47_scratch1.ix (fun | ⟨0, _⟩ => j))

/-- They are scoped, pairwise distinct, and none is a staging cell of a window. -/
theorem ownSemFacts47 : Pipeline.OwnSemFacts spec47 osem47 := by decide

/-- The far operand is an unscoped buffer that is neither a window's array nor a table. -/
theorem hx_sub47 : ({main_v141} : Finset (Ref sig .tc)) ⊆ Pipeline.restRefsP sig pre47 spec47 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg47 (F := F)).Adm)
  (O : (c : Dev nD) → Fin (cfg47 a1).N → Vec F S8x64 .f32)

/-! ## The windows' blocks -/

/-- Window w's block at point t, read off its array under V. -/
def iblk47 (c : Dev nD) (w : Fin (cfg47 a1).W) (t : Fin (cfg47 a1).N) :
    (((cfg47 a1).win w).xblock ((cfg47 a1).grid.coords t)).Idx → Elt F ((cfg47 a1).win w).elt :=
  (((cfg47 a1).win w).blk t).view.read (Elt F) (V c (Pipeline.arrRef spec47 w))

/-- The input window's current staging buffer holds its block at every point, fetched there or not, for any proof
    data whose array is V's and whose body leaves the block in place: unfetched, the block index has not moved. -/
theorem beforeIn47_of {c : Dev nD} (dat : Dat τ (Elt F) Unit ℕ (UD sig nD τ) ℕ (cfg47 a1) c)
    (hA : dat.A 0 = V c (Pipeline.arrRef spec47 0))
    (hafter : ∀ t, dat.after 0 t = iblk47 V a1 c 0 t) (t : Fin (cfg47 a1).N) (d) : dat.before 0 t d = iblk47 V a1 c 0 t :=
  (dat.before_in_eq_fetched 0 rfl (fun _ => rfl) (fun _ _ _ => rfl)
    (fun t => by rw [hafter]; unfold Dat.blockOf iblk47; rw [hA]; try rfl) t d).trans
    (by unfold Dat.fetched Dat.blockOf iblk47; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat47 (c : Dev nD) : Dat τ (Elt F) Unit ℕ (UD sig nD τ) ℕ (cfg47 a1) c where
  A w := V c (Pipeline.arrRef spec47 w)
  after w t := match w with
    | ⟨0, _⟩ => iblk47 V a1 c 0 t
    | ⟨1, _⟩ => O c t
  Φ _ := iprop(Pipeline.ΦD osem47 spec47 {main_v141} V c ∗ Pipeline.prefHeld pre47 c (fun _ => fullShare) a1.1)
  q _ := fullShare
  owed _ := 0

theorem A_eq47 (c : Dev nD) (w : Fin (cfg47 a1).W) : (dat47 V a1 O c).A w = V c (Pipeline.arrRef spec47 w) := by
  dsimp only [dat47]

theorem afterIn47 (c : Dev nD) (t : Fin (cfg47 a1).N) : (dat47 V a1 O c).after 0 t = iblk47 V a1 c 0 t := by
  dsimp only [dat47]; rfl

theorem afterOut47 (c : Dev nD) (t : Fin (cfg47 a1).N) :
    (dat47 V a1 O c).after 1 t = O c t := by
  dsimp only [dat47]; rfl

theorem beforeIn47 (c : Dev nD) (t : Fin (cfg47 a1).N) (d) : (dat47 V a1 O c).before 0 t d = iblk47 V a1 c 0 t :=
  beforeIn47_of V a1 (dat47 V a1 O c) (A_eq47 V a1 O c 0) (afterIn47 V a1 O c) t d

theorem Phi_eq47 (c : Dev nD) (t : Fin ((cfg47 a1).N + 1)) :
    (dat47 V a1 O c).Φ t
      = iprop(Pipeline.ΦD osem47 spec47 {main_v141} V c ∗ Pipeline.prefHeld pre47 c (fun _ => fullShare) a1.1) := by
  dsimp only [dat47]

theorem owed_eq47 (c : Dev nD) (t : Fin ((cfg47 a1).N + 1)) : (dat47 V a1 O c).owed t = 0 := by
  dsimp only [dat47]

/-! ## The invariant, conjunct by conjunct -/

/-- The invariant's first part opened: the body's scratch buffer whole at some contents and the other scoped
    buffers no window stages, the generator register, the own cells at zero, the far operand at its contents. -/
theorem PhiD_eq47 (c : Dev nD) :
    (Pipeline.ΦD osem47 spec47 {main_v141} V c : sProp 𝕄)
      = iprop(iprop(iprop((∃ f : Buf (Elt F) ((c : Thread nD τ).loc cc47_scratch0), ((c : Thread nD τ).loc cc47_scratch0) ↦{fullShare} f))
            ∗ Pipeline.scopedRestBut (Ix := Unit) (Name := ℕ) (U := UD sig nD τ) (Lvl := ℕ) (Val := Elt F) spec47 c [cc47_scratch0])
          ∗ (∃ r, prngReg c r)
          ∗ Pipeline.ownSems0 (Ix := Unit) (Name := ℕ) (U := UD sig nD τ) (Lvl := ℕ) (Val := Elt F) (τ := τ) osem47 c
          ∗ (((c : Thread nD τ).loc main_v141) ↦{fullShare} V c main_v141)) := by
  rw [Pipeline.ΦD_eq, scopedRest47_split, BI.bigSep_eq_bigSepL_of_eq [main_v141] (by decide) (by decide)]; rfl

/-- The one table, held whole. -/
theorem prefHeld_eq47 (c : Dev nD) :
    (Pipeline.prefHeld pre47 c (fun _ => fullShare) a1.1 : sProp 𝕄)
      = (((c : Thread nD τ).loc main_v199) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg47 (w : Fin (cfg47 a1).W) (t : Fin (cfg47 a1).N) := ((cfg47 a1).win w).stage ((cfg47 a1).slots t w)

/-- The body as the pipeline calls it at point t. -/
abbrev bodyProg47 (t : Fin (cfg47 a1).N) : Prog (TpuEff nD τ sig (Elt F) Λ₀ .tc) PUnit :=
  (defs₀ (F := F)) .tc (cfg47 a1).body ((cfg47 a1).bodyArgs t ((cfg47 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun47 : Prop :=
  ∀ (c : Dev nD) (t : Fin (cfg47 a1).N) (W) (K : PUnit → sProp 𝕄),
    iprop(owns (c : Thread nD τ) (stg47 a1 0 t) fullShare (iblk47 V a1 c 0 t)
        ∗ (∃ d, owns (c : Thread nD τ) (stg47 a1 1 t) fullShare d)
        ∗ (∃ f : Buf (Elt F) ((c : Thread nD τ).loc cc47_scratch0), ((c : Thread nD τ).loc cc47_scratch0) ↦{fullShare} f)
        ∗ Pipeline.ownSems0 (Ix := Unit) (Name := ℕ) (U := UD sig nD τ) (Lvl := ℕ) (Val := Elt F) (τ := τ) osem47 c
        ∗ (((c : Thread nD τ).loc main_v199) ↦{fullShare} a1.1 0)
        ∗ (((c : Thread nD τ).loc main_v141) ↦{fullShare} V c main_v141)
        ∗ owes (c : Thread nD τ) (0 : CellTallies nD τ sig Unit) W
        ∗ (iprop(owns (c : Thread nD τ) (stg47 a1 0 t) fullShare (iblk47 V a1 c 0 t)
            ∗ owns (c : Thread nD τ) (stg47 a1 1 t) fullShare (O c t)
            ∗ (∃ f : Buf (Elt F) ((c : Thread nD τ).loc cc47_scratch0), ((c : Thread nD τ).loc cc47_scratch0) ↦{fullShare} f)
            ∗ Pipeline.ownSems0 (Ix := Unit) (Name := ℕ) (U := UD sig nD τ) (Lvl := ℕ) (Val := Elt F) (τ := τ) osem47 c
            ∗ (((c : Thread nD τ).loc main_v199) ↦{fullShare} a1.1 0)
            ∗ (((c : Thread nD τ).loc main_v141) ↦{fullShare} V c main_v141)
            ∗ (∃ W', owes (c : Thread nD τ) (0 : CellTallies nD τ sig Unit) W')) -∗ K ⟨⟩))
      ⊢ wp frame (wpE (defs₀ (F := F)) Variants.none c none) Set.univ (bodyProg47 a1 t) K

/-- What the body is called with at point t, the windows one by one, -/
def bodyPre47 (c : Dev nD) (t : Fin (cfg47 a1).N) : sProp 𝕄 :=
  iprop((dat47 V a1 O c).Φ t.castSucc ∗ (dat47 V a1 O c).owesAt () t.castSucc
    ∗ (∃ d, owns (c : Thread nD τ) (stg47 a1 0 t) fullShare ((dat47 V a1 O c).before 0 t d))
    ∗ (∃ d, owns (c : Thread nD τ) (stg47 a1 1 t) fullShare ((dat47 V a1 O c).before 1 t d)))

/-- and what it returns. -/
def bodyPost47 (c : Dev nD) (t : Fin (cfg47 a1).N) : sProp 𝕄 :=
  iprop((dat47 V a1 O c).Φ t.succ ∗ (dat47 V a1 O c).owesAt () t.succ
    ∗ owns (c : Thread nD τ) (stg47 a1 0 t) fullShare ((dat47 V a1 O c).after 0 t)
    ∗ owns (c : Thread nD τ) (stg47 a1 1 t) fullShare ((dat47 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body47 (hrun : BodyRun47 V a1 O) (c : Dev nD) (t : Fin (cfg47 a1).N) :
    bodyPre47 V a1 O c t
      ⊢ wp frame (wpE (defs₀ (F := F)) Variants.none c none) Set.univ (bodyProg47 a1 t) (fun _ => bodyPost47 V a1 O c t) := by
  unfold bodyPre47 bodyPost47
  simp only [beforeIn47]
  rw [afterIn47, afterOut47, Phi_eq47, Phi_eq47, PhiD_eq47, prefHeld_eq47]
  unfold Dat.owesAt Pipeline.owesWithin
  rw [owed_eq47, owed_eq47]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation47 (hrun : BodyRun47 V a1 O) (c : Dev nD) :
    BodyObligation (dat47 (F := F) V a1 O c) (defs₀ (F := F)) Variants.none () Set.univ := fun t => by
  rw [bigSep_W47, bigSep_W47]
  exact sound_body47 V a1 O hrun c t

end Data

/-! ## The region's record -/

section Record

variable (Win : Dev nD → Valuation τ sig (Elt F))

variable (a1 : (pcfg47 (F := F)).Adm)
  (O : (c : Dev nD) → Fin (cfg47 a1).N → Vec F S8x64 .f32)

/-- The buffers at the region's exit: its arrays at what the write-backs leave, every other buffer as entered. -/
def Wout47 (c : Dev nD) : Valuation τ sig (Elt F) :=
  Pipeline.withArrays spec47 c (Win c) fun w => (dat47 (Vof Win) a1 O c).arrAt w (cfg47 a1).N

theorem Wout47_arr (c : Dev nD) (w : Fin (cfg47 a1).W) :
    Wout47 Win a1 O c (Proc.devRef .tc (Pipeline.arrRef spec47 w)) = (dat47 (Vof Win) a1 O c).arrAt w (cfg47 a1).N := by
  unfold Wout47; exact Pipeline.withArrays_arr spec47 winFacts47.arr_inj c _ _ w

theorem Wout47_of_ne (c : Dev nD) (b : Ref sig .tc) (hb : ∀ w, Pipeline.arrRef spec47 w ≠ b) :
    Wout47 Win a1 O c (Proc.devRef .tc b) = Win c (Proc.devRef .tc b) := by
  unfold Wout47; exact Pipeline.withArrays_of_ne spec47 c _ _ b hb

/-- ENTRY, the buffers' part. Every unscoped buffer at Win is: the region's arrays at the proof data's entry contents,
    the table whole at the admissible contents (which are Win's there), the far operand whole, and the others. -/
theorem entry47 (c : Dev nD) (ha1 : ∀ k, Vof Win c (pre47.ref k) = a1.1 k) :
    (StableHlo.held (c : Thread nD τ) (Pipeline.ucRefs τ sig) (Win c) : sProp 𝕄)
      ⊢ iprop((dat47 (Vof Win) a1 O c).arrays ((dat47 (Vof Win) a1 O c).arrAt · 0)
          ∗ Pipeline.prefHeld pre47 c (fun _ => fullShare) a1.1
          ∗ (bigSep ({main_v141} : Finset (Ref sig .tc)) fun b => (((c : Thread nD τ)).loc b) ↦{fullShare} Vof Win c b)
          ∗ bigSep (Pipeline.restRefsP sig pre47 spec47 \ {main_v141}) fun b => (((c : Thread nD τ)).loc b) ↦{fullShare} Vof Win c b) := by
  have hsplit := Pipeline.arrays_of_unscopedBufs (p := ()) (fun (_ : Unit) => pcfg47 (F := F)) (fun _ => a1)
    (fun _ c => dat47 (Vof Win) a1 O c) winFacts47 (launch47 (F := F)).arr_whole c
    ((dat47 (Vof Win) a1 O c).share_full fun _ => rfl) (Vof Win c) (fun w => A_eq47 (Vof Win) a1 O c w)
  rw [Pipeline.unscopedBufs_held,
    Pipeline.unscopedRest_split (Ix := Unit) (Name := ℕ) (U := UD sig nD τ) (Lvl := ℕ) preFacts47 c (Vof Win c),
    Pipeline.unscopedRestP_sdiff pre47 spec47 {main_v141} hx_sub47 c (Vof Win c),
    show (fun k => Vof Win c (pre47.ref k)) = a1.1 from funext ha1] at hsplit
  exact hsplit

/-- EXIT, the buffers' part: the same four put back, the arrays at what the write-backs leave, are every unscoped
    buffer at the exit valuation. -/
theorem exit47 (c : Dev nD) (ha1 : ∀ k, Vof Win c (pre47.ref k) = a1.1 k) :
    iprop((dat47 (Vof Win) a1 O c).arrays ((dat47 (Vof Win) a1 O c).arrAt · (cfg47 a1).N)
        ∗ Pipeline.prefHeld pre47 c (fun _ => fullShare) a1.1
        ∗ (bigSep ({main_v141} : Finset (Ref sig .tc)) fun b => (((c : Thread nD τ)).loc b) ↦{fullShare} Vof Win c b)
        ∗ bigSep (Pipeline.restRefsP sig pre47 spec47 \ {main_v141}) fun b => (((c : Thread nD τ)).loc b) ↦{fullShare} Vof Win c b)
      ⊢ (StableHlo.held (c : Thread nD τ) (Pipeline.ucRefs τ sig) (Wout47 Win a1 O c) : sProp 𝕄) := by
  have hjoin := Pipeline.unscopedBufs_of_arrays (p := ()) (fun (_ : Unit) => pcfg47 (F := F)) (fun _ => a1)
    (Ix := Unit) (Name := ℕ) (U := UD sig nD τ) (Lvl := ℕ)
    winFacts47 (launch47 (F := F)).arr_whole c (fun _ c => dat47 (Vof Win) a1 O c)
    ((dat47 (Vof Win) a1 O c).share_full fun _ => rfl)
    (Vof Win c) (Vof (Wout47 Win a1 O) c) ((dat47 (Vof Win) a1 O c).arrAt · (cfg47 a1).N)
    (fun w => (Wout47_arr Win a1 O c w).symm)
    (fun b hb => Wout47_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts47 c (Vof Win c),
    Pipeline.unscopedRestP_sdiff pre47 spec47 {main_v141} hx_sub47 c (Vof Win c),
    show (fun k => Vof Win c (pre47.ref k)) = a1.1 from funext ha1] at hjoin
  exact hjoin

end Record

section Seg

variable (Win : Dev nD → Valuation τ sig (Elt F))
  (adm : (p : Fin 49) → (pcfgs (F := F) p).Adm)
  (O : (c : Dev nD) → Fin (cfg47 (adm (47 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout47. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg47 (hd : ∀ c, pdats (47 : Fin 49) c = dat47 (Vof Win) (adm (47 : Fin 49)) O c)
    (ha1 : ∀ c k, Vof Win c (pre47.ref k) = (adm (47 : Fin 49)).1 k)
    (hbody : ∀ c, BodyObligation (dat47 (F := F) (Vof Win) (adm (47 : Fin 49)) O c) (defs₀ (F := F)) 𝒱₀ () Set.univ) :
    Pipeline.RegionSeg (pcfgs (F := F)) adm pdats () defs₀ 𝒱₀ L lv (47 : Fin 49) where
  win := (launch47 (F := F)).win.to₀
  block_pos := (launch47 (F := F)).block_pos
  stage_whole := (launch47 (F := F)).stage_whole
  K := Fin 8
  osem := osem47
  ho := ownSemFacts47
  hbody c := by rw [hd c]; exact (hbody c).loose
  hwaits := Pipeline.hwaits_of_owed_zero _ _ _ _ L lv (47 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout47 Win (adm (47 : Fin 49)) O c) ∗ R c)
  X c := iprop((∃ r, prngReg c r)
    ∗ Pipeline.ownSems0 (Ix := Unit) (Name := ℕ) (U := UD sig nD τ) (Lvl := ℕ) (Val := Elt F) (τ := τ) osem47 c
    ∗ (bigSep ({main_v141} : Finset (Ref sig .tc)) fun b => (((c : Thread nD τ)).loc b) ↦{fullShare} Vof Win c b))
  Y c := iprop((∃ r, prngReg c r)
    ∗ (bigSep ({main_v141} : Finset (Ref sig .tc)) fun b => (((c : Thread nD τ)).loc b) ↦{fullShare} Vof Win c b)
    ∗ Pipeline.prefHeld pre47 c (fun _ => fullShare) (adm (47 : Fin 49)).1)
  Z c := bigSep (Pipeline.restRefsP sig pre47 spec47 \ {main_v141}) fun b => (((c : Thread nD τ)).loc b) ↦{fullShare} Vof Win c b
  hentry c := by
    rw [hd c]
    iintro ⟨⟨Hub, Hp, HO⟩, Hos, -⟩
    ihave H := (entry47 Win (adm (47 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq47, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq47, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit47 Win (adm (47 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg47 (F := F)).Adm)

/-- The output block at point t: the gathered rows (of the far operand's contents under V, chosen by the table's
    words at that point) times the input block. -/
def outBlk47 (c : Dev nD) (t : Fin (cfg47 a1).N) : Vec F S8x64 .f32 :=
  gatherOut (gatherG (a1.1 0) (V c main_v141) (grid47.coords t)) (iblk47 V a1 c 0 t)

theorem outBlk_eq47 (c : Dev nD) (t : Fin (cfg47 a1).N) :
    outBlk47 V a1 c t = gatherOut (gatherG (a1.1 0) (V c main_v141) (grid47.coords t)) (iblk47 V a1 c 0 t) := rfl

/-- The proof data with the output block named: after the body at point t the output window's buffer holds it. -/
theorem afterOutBlk47 (c : Dev nD) (t : Fin (cfg47 a1).N) :
    (dat47 V a1 (outBlk47 V a1) c).after 1 t
      = gatherOut (gatherG (a1.1 0) (V c main_v141) (grid47.coords t)) (iblk47 V a1 c 0 t) :=
  afterOut47 V a1 (outBlk47 V a1) c t

/-- The own cells at zero are the semaphore array's eight entries at zero, in order. -/
theorem ownSems_eq47 (c : Dev nD) :
    (Pipeline.ownSems0 (Ix := Unit) (Name := ℕ) (U := UD sig nD τ) (Lvl := ℕ) (Val := Elt F) (τ := τ) osem47 c : sProp 𝕄)
      = gsems0 c cc47_scratch1 := by
  rw [Pipeline.ownSems0_eq_of_list c osem47 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq47 (t : Fin (cfg47 a1).N) : ∃ h3 h4, bodyProg47 (F := F) a1 t
    = cc47__gather_mul_kernel (grid47.coords t) (Memref.whole main_v199) (Memref.isWhole_whole _) (Memref.whole main_v141) (Memref.isWhole_whole _)
        (stg47 a1 0 t) h3 (stg47 a1 1 t) h4 (Memref.whole cc47_scratch0) (Memref.isWhole_whole _) cc47_scratch1 := ⟨_, _, rfl⟩

end Out

/-! ## The body's run, joined to the proof data -/

section Body

variable (V : (c : Dev nD) → (b : Ref sig .tc) → Buf (Elt F) ((c : Thread nD τ).loc b))
  (a1 : (pcfg47 (F := F)).Adm)

/-- The scratch buffer whole at some contents, as a memref owned at some contents. -/
theorem scratchOwns_eq47 (c : Dev nD) :
    (iprop(∃ d, owns (c : Thread nD τ) (Memref.whole cc47_scratch0) fullShare d) : sProp 𝕄)
      = iprop(∃ f : Buf (Elt F) ((c : Thread nD τ).loc cc47_scratch0), ((c : Thread nD τ).loc cc47_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun47 (hlt : ∀ y, BitVec.toNat ((a1.1 0) y) < 100000) : BodyRun47 V a1 (outBlk47 V a1) := by
  intro c t W K
  obtain ⟨h3, h4, hprog⟩ := bodyProg_eq47 (F := F) a1 t
  rw [hprog, ownSems_eq47, ← scratchOwns_eq47 (F := F) c]
  have hrun := gather_kernel_run_47 (F := F) c (grid47.coords t) (Memref.whole main_v199) (Memref.isWhole_whole _) (Memref.whole main_v141) (Memref.isWhole_whole _)
    (stg47 a1 0 t) h3 (stg47 a1 1 t) h4 (Memref.whole cc47_scratch0) (Memref.isWhole_whole _) cc47_scratch1 fullShare fullShare
    (a1.1 0) (V c main_v141) (iblk47 V a1 c 0 t) (fun y => hlt y) W K
  simp only [Memref.view_whole, View.read_whole] at hrun
  unfold outBlk47
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut47 (hlt : ∀ y, BitVec.toNat ((a1.1 0) y) < 100000) (c : Dev nD) :
    BodyObligation (dat47 (F := F) V a1 (outBlk47 V a1) c) (defs₀ (F := F)) Variants.none () Set.univ :=
  body_obligation47 V a1 (outBlk47 V a1) (bodyRun47 V a1 hlt) c

end Body

/-! # Region 48 -/

/-! ## The body's own transfer cells -/

/-- The eight cells of the body's semaphore array, in order. -/
abbrev osem48 : Fin 8 → SemLoc sig := fun j => SemLoc.dma (cc48_scratch1.ix (fun | ⟨0, _⟩ => j))

/-- They are scoped, pairwise distinct, and none is a staging cell of a window. -/
theorem ownSemFacts48 : Pipeline.OwnSemFacts spec48 osem48 := by decide

/-- The far operand is an unscoped buffer that is neither a window's array nor a table. -/
theorem hx_sub48 : ({main_v141} : Finset (Ref sig .tc)) ⊆ Pipeline.restRefsP sig pre48 spec48 := by
  unfold Pipeline.restRefsP
  exact Finset.singleton_subset_iff.mpr (Finset.mem_sdiff.mpr ⟨Finset.mem_sdiff.mpr
    ⟨Finset.mem_filter.mpr ⟨Finset.mem_univ _, by decide⟩, by decide⟩, by decide⟩)

section Data

variable (V : (c : Dev nD) → (b : Ref sig .tc) → Buf (Elt F) ((c : Thread nD τ).loc b))
  (a1 : (pcfg48 (F := F)).Adm)
  (O : (c : Dev nD) → Fin (cfg48 a1).N → Vec F S8x64 .f32)

/-! ## The windows' blocks -/

/-- Window w's block at point t, read off its array under V. -/
def iblk48 (c : Dev nD) (w : Fin (cfg48 a1).W) (t : Fin (cfg48 a1).N) :
    (((cfg48 a1).win w).xblock ((cfg48 a1).grid.coords t)).Idx → Elt F ((cfg48 a1).win w).elt :=
  (((cfg48 a1).win w).blk t).view.read (Elt F) (V c (Pipeline.arrRef spec48 w))

/-- The input window's current staging buffer holds its block at every point, fetched there or not, for any proof
    data whose array is V's and whose body leaves the block in place: unfetched, the block index has not moved. -/
theorem beforeIn48_of {c : Dev nD} (dat : Dat τ (Elt F) Unit ℕ (UD sig nD τ) ℕ (cfg48 a1) c)
    (hA : dat.A 0 = V c (Pipeline.arrRef spec48 0))
    (hafter : ∀ t, dat.after 0 t = iblk48 V a1 c 0 t) (t : Fin (cfg48 a1).N) (d) : dat.before 0 t d = iblk48 V a1 c 0 t :=
  (dat.before_in_eq_fetched 0 rfl (fun _ => rfl) (fun _ _ _ => rfl)
    (fun t => by rw [hafter]; unfold Dat.blockOf iblk48; rw [hA]; try rfl) t d).trans
    (by unfold Dat.fetched Dat.blockOf iblk48; rw [hA]; try rfl)

/-! ## The proof data -/

/-- The proof data of the region on core c. The arrays are V's. After the body at point t the input window's
    buffer holds its block and the output window's holds the block O c t (a parameter: the product of the gathered
    rows with the input block, once the body's run names it).
    The invariant is the same at every point: nothing is in flight between two points and the far operand and the
    table are only read. Full shares; nothing owed. -/
def dat48 (c : Dev nD) : Dat τ (Elt F) Unit ℕ (UD sig nD τ) ℕ (cfg48 a1) c where
  A w := V c (Pipeline.arrRef spec48 w)
  after w t := match w with
    | ⟨0, _⟩ => iblk48 V a1 c 0 t
    | ⟨1, _⟩ => O c t
  Φ _ := iprop(Pipeline.ΦD osem48 spec48 {main_v141} V c ∗ Pipeline.prefHeld pre48 c (fun _ => fullShare) a1.1)
  q _ := fullShare
  owed _ := 0

theorem A_eq48 (c : Dev nD) (w : Fin (cfg48 a1).W) : (dat48 V a1 O c).A w = V c (Pipeline.arrRef spec48 w) := by
  dsimp only [dat48]

theorem afterIn48 (c : Dev nD) (t : Fin (cfg48 a1).N) : (dat48 V a1 O c).after 0 t = iblk48 V a1 c 0 t := by
  dsimp only [dat48]; rfl

theorem afterOut48 (c : Dev nD) (t : Fin (cfg48 a1).N) :
    (dat48 V a1 O c).after 1 t = O c t := by
  dsimp only [dat48]; rfl

theorem beforeIn48 (c : Dev nD) (t : Fin (cfg48 a1).N) (d) : (dat48 V a1 O c).before 0 t d = iblk48 V a1 c 0 t :=
  beforeIn48_of V a1 (dat48 V a1 O c) (A_eq48 V a1 O c 0) (afterIn48 V a1 O c) t d

theorem Phi_eq48 (c : Dev nD) (t : Fin ((cfg48 a1).N + 1)) :
    (dat48 V a1 O c).Φ t
      = iprop(Pipeline.ΦD osem48 spec48 {main_v141} V c ∗ Pipeline.prefHeld pre48 c (fun _ => fullShare) a1.1) := by
  dsimp only [dat48]

theorem owed_eq48 (c : Dev nD) (t : Fin ((cfg48 a1).N + 1)) : (dat48 V a1 O c).owed t = 0 := by
  dsimp only [dat48]

/-! ## The invariant, conjunct by conjunct -/

/-- The invariant's first part opened: the body's scratch buffer whole at some contents and the other scoped
    buffers no window stages, the generator register, the own cells at zero, the far operand at its contents. -/
theorem PhiD_eq48 (c : Dev nD) :
    (Pipeline.ΦD osem48 spec48 {main_v141} V c : sProp 𝕄)
      = iprop(iprop(iprop((∃ f : Buf (Elt F) ((c : Thread nD τ).loc cc48_scratch0), ((c : Thread nD τ).loc cc48_scratch0) ↦{fullShare} f))
            ∗ Pipeline.scopedRestBut (Ix := Unit) (Name := ℕ) (U := UD sig nD τ) (Lvl := ℕ) (Val := Elt F) spec48 c [cc48_scratch0])
          ∗ (∃ r, prngReg c r)
          ∗ Pipeline.ownSems0 (Ix := Unit) (Name := ℕ) (U := UD sig nD τ) (Lvl := ℕ) (Val := Elt F) (τ := τ) osem48 c
          ∗ (((c : Thread nD τ).loc main_v141) ↦{fullShare} V c main_v141)) := by
  rw [Pipeline.ΦD_eq, scopedRest48_split, BI.bigSep_eq_bigSepL_of_eq [main_v141] (by decide) (by decide)]; rfl

/-- The one table, held whole. -/
theorem prefHeld_eq48 (c : Dev nD) :
    (Pipeline.prefHeld pre48 c (fun _ => fullShare) a1.1 : sProp 𝕄)
      = (((c : Thread nD τ).loc main_v203) ↦{fullShare} a1.1 0) := by
  unfold Pipeline.prefHeld
  rw [bigSep_univ_eq_bigSepL [(0 : Fin 1)] (by decide) (by decide)]; rfl

/-! ## The body obligation from the body's run -/

/-- Window w's current staging memref at point t. -/
abbrev stg48 (w : Fin (cfg48 a1).W) (t : Fin (cfg48 a1).N) := ((cfg48 a1).win w).stage ((cfg48 a1).slots t w)

/-- The body as the pipeline calls it at point t. -/
abbrev bodyProg48 (t : Fin (cfg48 a1).N) : Prog (TpuEff nD τ sig (Elt F) Λ₀ .tc) PUnit :=
  (defs₀ (F := F)) .tc (cfg48 a1).body ((cfg48 a1).bodyArgs t ((cfg48 a1).slots t))

/-- THE BODY'S RUN at a point, as the obligation uses it. From the input window's buffer at its block, the output
    window's and the scratch buffer at anything, the own cells at zero, the table and the far operand whole, and the
    core owing nothing, the body runs to any continuation that holds from: the same, with the output window's buffer
    at O c t, the scratch at some contents, the core owing nothing at some record of its waits. -/
def BodyRun48 : Prop :=
  ∀ (c : Dev nD) (t : Fin (cfg48 a1).N) (W) (K : PUnit → sProp 𝕄),
    iprop(owns (c : Thread nD τ) (stg48 a1 0 t) fullShare (iblk48 V a1 c 0 t)
        ∗ (∃ d, owns (c : Thread nD τ) (stg48 a1 1 t) fullShare d)
        ∗ (∃ f : Buf (Elt F) ((c : Thread nD τ).loc cc48_scratch0), ((c : Thread nD τ).loc cc48_scratch0) ↦{fullShare} f)
        ∗ Pipeline.ownSems0 (Ix := Unit) (Name := ℕ) (U := UD sig nD τ) (Lvl := ℕ) (Val := Elt F) (τ := τ) osem48 c
        ∗ (((c : Thread nD τ).loc main_v203) ↦{fullShare} a1.1 0)
        ∗ (((c : Thread nD τ).loc main_v141) ↦{fullShare} V c main_v141)
        ∗ owes (c : Thread nD τ) (0 : CellTallies nD τ sig Unit) W
        ∗ (iprop(owns (c : Thread nD τ) (stg48 a1 0 t) fullShare (iblk48 V a1 c 0 t)
            ∗ owns (c : Thread nD τ) (stg48 a1 1 t) fullShare (O c t)
            ∗ (∃ f : Buf (Elt F) ((c : Thread nD τ).loc cc48_scratch0), ((c : Thread nD τ).loc cc48_scratch0) ↦{fullShare} f)
            ∗ Pipeline.ownSems0 (Ix := Unit) (Name := ℕ) (U := UD sig nD τ) (Lvl := ℕ) (Val := Elt F) (τ := τ) osem48 c
            ∗ (((c : Thread nD τ).loc main_v203) ↦{fullShare} a1.1 0)
            ∗ (((c : Thread nD τ).loc main_v141) ↦{fullShare} V c main_v141)
            ∗ (∃ W', owes (c : Thread nD τ) (0 : CellTallies nD τ sig Unit) W')) -∗ K ⟨⟩))
      ⊢ wp frame (wpE (defs₀ (F := F)) Variants.none c none) Set.univ (bodyProg48 a1 t) K

/-- What the body is called with at point t, the windows one by one, -/
def bodyPre48 (c : Dev nD) (t : Fin (cfg48 a1).N) : sProp 𝕄 :=
  iprop((dat48 V a1 O c).Φ t.castSucc ∗ (dat48 V a1 O c).owesAt () t.castSucc
    ∗ (∃ d, owns (c : Thread nD τ) (stg48 a1 0 t) fullShare ((dat48 V a1 O c).before 0 t d))
    ∗ (∃ d, owns (c : Thread nD τ) (stg48 a1 1 t) fullShare ((dat48 V a1 O c).before 1 t d)))

/-- and what it returns. -/
def bodyPost48 (c : Dev nD) (t : Fin (cfg48 a1).N) : sProp 𝕄 :=
  iprop((dat48 V a1 O c).Φ t.succ ∗ (dat48 V a1 O c).owesAt () t.succ
    ∗ owns (c : Thread nD τ) (stg48 a1 0 t) fullShare ((dat48 V a1 O c).after 0 t)
    ∗ owns (c : Thread nD τ) (stg48 a1 1 t) fullShare ((dat48 V a1 O c).after 1 t))

/-- The body at any point. The input window's buffer holds its block; the invariant hands the body its scratch
    buffer, the own cells at zero, the far operand and the table, and takes them back as they were; the generator
    register and the other scoped buffers pass by; the core's record of waits comes back within the next point's
    bound, which is everything. -/
theorem sound_body48 (hrun : BodyRun48 V a1 O) (c : Dev nD) (t : Fin (cfg48 a1).N) :
    bodyPre48 V a1 O c t
      ⊢ wp frame (wpE (defs₀ (F := F)) Variants.none c none) Set.univ (bodyProg48 a1 t) (fun _ => bodyPost48 V a1 O c t) := by
  unfold bodyPre48 bodyPost48
  simp only [beforeIn48]
  rw [afterIn48, afterOut48, Phi_eq48, Phi_eq48, PhiD_eq48, prefHeld_eq48]
  unfold Dat.owesAt Pipeline.owesWithin
  rw [owed_eq48, owed_eq48]
  iintro ⟨⟨⟨⟨HS, HSr⟩, Hg, Hq, Hh⟩, Ht⟩, ⟨%W, -, HW⟩, ⟨%d0, H0⟩, ⟨%d1, H1⟩⟩
  iapply (hrun c t W _)
  isplitl [H0]; · iexact H0
  isplitl [H1]; · iexists _; iexact H1
  isplitl [HS]; · iexact HS
  isplitl [Hq]; · iexact Hq
  isplitl [Ht]; · iexact Ht
  isplitl [Hh]; · iexact Hh
  isplitl [HW]; · iexact HW
  iintro ⟨H0, H1, HS, Hq, Ht, Hh, ⟨%W', HW'⟩⟩
  isplitl [HS HSr Hg Hq Hh Ht]
  · isplitr [Ht]
    · isplitl [HS HSr]
      · isplitl [HS]; · iexact HS
        iexact HSr
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation48 (hrun : BodyRun48 V a1 O) (c : Dev nD) :
    BodyObligation (dat48 (F := F) V a1 O c) (defs₀ (F := F)) Variants.none () Set.univ := fun t => by
  rw [bigSep_W48, bigSep_W48]
  exact sound_body48 V a1 O hrun c t

end Data

/-! ## The region's record -/

section Record

variable (Win : Dev nD → Valuation τ sig (Elt F))

variable (a1 : (pcfg48 (F := F)).Adm)
  (O : (c : Dev nD) → Fin (cfg48 a1).N → Vec F S8x64 .f32)

/-- The buffers at the region's exit: its arrays at what the write-backs leave, every other buffer as entered. -/
def Wout48 (c : Dev nD) : Valuation τ sig (Elt F) :=
  Pipeline.withArrays spec48 c (Win c) fun w => (dat48 (Vof Win) a1 O c).arrAt w (cfg48 a1).N

theorem Wout48_arr (c : Dev nD) (w : Fin (cfg48 a1).W) :
    Wout48 Win a1 O c (Proc.devRef .tc (Pipeline.arrRef spec48 w)) = (dat48 (Vof Win) a1 O c).arrAt w (cfg48 a1).N := by
  unfold Wout48; exact Pipeline.withArrays_arr spec48 winFacts48.arr_inj c _ _ w

theorem Wout48_of_ne (c : Dev nD) (b : Ref sig .tc) (hb : ∀ w, Pipeline.arrRef spec48 w ≠ b) :
    Wout48 Win a1 O c (Proc.devRef .tc b) = Win c (Proc.devRef .tc b) := by
  unfold Wout48; exact Pipeline.withArrays_of_ne spec48 c _ _ b hb

/-- ENTRY, the buffers' part. Every unscoped buffer at Win is: the region's arrays at the proof data's entry contents,
    the table whole at the admissible contents (which are Win's there), the far operand whole, and the others. -/
theorem entry48 (c : Dev nD) (ha1 : ∀ k, Vof Win c (pre48.ref k) = a1.1 k) :
    (StableHlo.held (c : Thread nD τ) (Pipeline.ucRefs τ sig) (Win c) : sProp 𝕄)
      ⊢ iprop((dat48 (Vof Win) a1 O c).arrays ((dat48 (Vof Win) a1 O c).arrAt · 0)
          ∗ Pipeline.prefHeld pre48 c (fun _ => fullShare) a1.1
          ∗ (bigSep ({main_v141} : Finset (Ref sig .tc)) fun b => (((c : Thread nD τ)).loc b) ↦{fullShare} Vof Win c b)
          ∗ bigSep (Pipeline.restRefsP sig pre48 spec48 \ {main_v141}) fun b => (((c : Thread nD τ)).loc b) ↦{fullShare} Vof Win c b) := by
  have hsplit := Pipeline.arrays_of_unscopedBufs (p := ()) (fun (_ : Unit) => pcfg48 (F := F)) (fun _ => a1)
    (fun _ c => dat48 (Vof Win) a1 O c) winFacts48 (launch48 (F := F)).arr_whole c
    ((dat48 (Vof Win) a1 O c).share_full fun _ => rfl) (Vof Win c) (fun w => A_eq48 (Vof Win) a1 O c w)
  rw [Pipeline.unscopedBufs_held,
    Pipeline.unscopedRest_split (Ix := Unit) (Name := ℕ) (U := UD sig nD τ) (Lvl := ℕ) preFacts48 c (Vof Win c),
    Pipeline.unscopedRestP_sdiff pre48 spec48 {main_v141} hx_sub48 c (Vof Win c),
    show (fun k => Vof Win c (pre48.ref k)) = a1.1 from funext ha1] at hsplit
  exact hsplit

/-- EXIT, the buffers' part: the same four put back, the arrays at what the write-backs leave, are every unscoped
    buffer at the exit valuation. -/
theorem exit48 (c : Dev nD) (ha1 : ∀ k, Vof Win c (pre48.ref k) = a1.1 k) :
    iprop((dat48 (Vof Win) a1 O c).arrays ((dat48 (Vof Win) a1 O c).arrAt · (cfg48 a1).N)
        ∗ Pipeline.prefHeld pre48 c (fun _ => fullShare) a1.1
        ∗ (bigSep ({main_v141} : Finset (Ref sig .tc)) fun b => (((c : Thread nD τ)).loc b) ↦{fullShare} Vof Win c b)
        ∗ bigSep (Pipeline.restRefsP sig pre48 spec48 \ {main_v141}) fun b => (((c : Thread nD τ)).loc b) ↦{fullShare} Vof Win c b)
      ⊢ (StableHlo.held (c : Thread nD τ) (Pipeline.ucRefs τ sig) (Wout48 Win a1 O c) : sProp 𝕄) := by
  have hjoin := Pipeline.unscopedBufs_of_arrays (p := ()) (fun (_ : Unit) => pcfg48 (F := F)) (fun _ => a1)
    (Ix := Unit) (Name := ℕ) (U := UD sig nD τ) (Lvl := ℕ)
    winFacts48 (launch48 (F := F)).arr_whole c (fun _ c => dat48 (Vof Win) a1 O c)
    ((dat48 (Vof Win) a1 O c).share_full fun _ => rfl)
    (Vof Win c) (Vof (Wout48 Win a1 O) c) ((dat48 (Vof Win) a1 O c).arrAt · (cfg48 a1).N)
    (fun w => (Wout48_arr Win a1 O c w).symm)
    (fun b hb => Wout48_of_ne Win a1 O c b fun w e => hb (Finset.mem_image.mpr ⟨w, Finset.mem_univ _, e⟩))
  rw [Pipeline.unscopedBufs_held,
    Pipeline.unscopedRest_split (Ix := Unit) (Name := ℕ) (U := UD sig nD τ) (Lvl := ℕ) preFacts48 c (Vof Win c),
    Pipeline.unscopedRestP_sdiff pre48 spec48 {main_v141} hx_sub48 c (Vof Win c),
    show (fun k => Vof Win c (pre48.ref k)) = a1.1 from funext ha1] at hjoin
  exact hjoin

end Record

section Seg

variable (Win : Dev nD → Valuation τ sig (Elt F))
  (adm : (p : Fin 49) → (pcfgs (F := F) p).Adm)
  (O : (c : Dev nD) → Fin (cfg48 (adm (48 : Fin 49))).N → Vec F S8x64 .f32)
  (pdats : (p : Fin 49) → (c : Dev nD) → Dat τ (Elt F) Unit ℕ (UD sig nD τ) ℕ (Pipeline.pin (pcfgs (F := F)) adm p) c)

-- a library lemma stated over the pinned configuration unifies with the printed one only when unification may
-- unfold plain definitions in a metavariable's type
set_option backward.isDefEq.respectTransparency.types false in
/-- THE REGION over the thread state "every unscoped buffer at a valuation, the generator register at some state,
    nothing owed": entered at Win, left at Wout48. At entry the region's arrays, then the table, then the far
    operand are split out of the unscoped buffers; the table's contents under Win are the admissible ones (ha1).
    The far operand and the own cells (at zero from the boundary) enter the invariant with the generator register;
    the table enters beside them. At exit everything is put back: the arrays at what the write-backs leave. -/
def reg48 (hd : ∀ c, pdats (48 : Fin 49) c = dat48 (Vof Win) (adm (48 : Fin 49)) O c)
    (ha1 : ∀ c k, Vof Win c (pre48.ref k) = (adm (48 : Fin 49)).1 k)
    (hbody : ∀ c, BodyObligation (dat48 (F := F) (Vof Win) (adm (48 : Fin 49)) O c) (defs₀ (F := F)) 𝒱₀ () Set.univ) :
    Pipeline.RegionSeg (pcfgs (F := F)) adm pdats () defs₀ 𝒱₀ L lv (48 : Fin 49) where
  win := (launch48 (F := F)).win.to₀
  block_pos := (launch48 (F := F)).block_pos
  stage_whole := (launch48 (F := F)).stage_whole
  K := Fin 8
  osem := osem48
  ho := ownSemFacts48
  hbody c := by rw [hd c]; exact (hbody c).loose
  hwaits := Pipeline.hwaits_of_owed_zero _ _ _ _ L lv (48 : Fin 49) fun c t => by rw [hd c]; rfl
  pre c := iprop(StableHlo.held (c : Thread nD τ) (Pipeline.ucRefs τ sig) (Win c) ∗ R c)
  post c := iprop(StableHlo.held (c : Thread nD τ) (Pipeline.ucRefs τ sig) (Wout48 Win (adm (48 : Fin 49)) O c) ∗ R c)
  X c := iprop((∃ r, prngReg c r)
    ∗ Pipeline.ownSems0 (Ix := Unit) (Name := ℕ) (U := UD sig nD τ) (Lvl := ℕ) (Val := Elt F) (τ := τ) osem48 c
    ∗ (bigSep ({main_v141} : Finset (Ref sig .tc)) fun b => (((c : Thread nD τ)).loc b) ↦{fullShare} Vof Win c b))
  Y c := iprop((∃ r, prngReg c r)
    ∗ (bigSep ({main_v141} : Finset (Ref sig .tc)) fun b => (((c : Thread nD τ)).loc b) ↦{fullShare} Vof Win c b)
    ∗ Pipeline.prefHeld pre48 c (fun _ => fullShare) (adm (48 : Fin 49)).1)
  Z c := bigSep (Pipeline.restRefsP sig pre48 spec48 \ {main_v141}) fun b => (((c : Thread nD τ)).loc b) ↦{fullShare} Vof Win c b
  hentry c := by
    rw [hd c]
    iintro ⟨⟨Hub, Hp, HO⟩, Hos, -⟩
    ihave H := (entry48 Win (adm (48 : Fin 49)) O c (ha1 c)) $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [hd c, Phi_eq48, Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [hd c, Phi_eq48, Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    rw [hd c]
    iintro ⟨Ha, HO, ⟨HY, HH, Ht⟩, HR⟩
    imodintro
    isplitl [Ha Ht HH HR]
    · iapply (exit48 Win (adm (48 : Fin 49)) O c (ha1 c))
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

end Seg

/-! ## The output block, named -/

section Out

variable (V : (c : Dev nD) → (b : Ref sig .tc) → Buf (Elt F) ((c : Thread nD τ).loc b))
  (a1 : (pcfg48 (F := F)).Adm)

/-- The output block at point t: the gathered rows (of the far operand's contents under V, chosen by the table's
    words at that point) times the input block. -/
def outBlk48 (c : Dev nD) (t : Fin (cfg48 a1).N) : Vec F S8x64 .f32 :=
  gatherOut (gatherG (a1.1 0) (V c main_v141) (grid48.coords t)) (iblk48 V a1 c 0 t)

theorem outBlk_eq48 (c : Dev nD) (t : Fin (cfg48 a1).N) :
    outBlk48 V a1 c t = gatherOut (gatherG (a1.1 0) (V c main_v141) (grid48.coords t)) (iblk48 V a1 c 0 t) := rfl

/-- The proof data with the output block named: after the body at point t the output window's buffer holds it. -/
theorem afterOutBlk48 (c : Dev nD) (t : Fin (cfg48 a1).N) :
    (dat48 V a1 (outBlk48 V a1) c).after 1 t
      = gatherOut (gatherG (a1.1 0) (V c main_v141) (grid48.coords t)) (iblk48 V a1 c 0 t) :=
  afterOut48 V a1 (outBlk48 V a1) c t

/-- The own cells at zero are the semaphore array's eight entries at zero, in order. -/
theorem ownSems_eq48 (c : Dev nD) :
    (Pipeline.ownSems0 (Ix := Unit) (Name := ℕ) (U := UD sig nD τ) (Lvl := ℕ) (Val := Elt F) (τ := τ) osem48 c : sProp 𝕄)
      = gsems0 c cc48_scratch1 := by
  rw [Pipeline.ownSems0_eq_of_list c osem48 [0, 1, 2, 3, 4, 5, 6, 7] (by decide) (by decide)]; rfl

/-- The body as the pipeline calls it at point t is the kernel function at the point's coordinates on the whole
    table, the whole far operand, the windows' current staging memrefs, the whole scratch buffer and the semaphore
    array. -/
theorem bodyProg_eq48 (t : Fin (cfg48 a1).N) : ∃ h3 h4, bodyProg48 (F := F) a1 t
    = cc48__gather_mul_kernel (grid48.coords t) (Memref.whole main_v203) (Memref.isWhole_whole _) (Memref.whole main_v141) (Memref.isWhole_whole _)
        (stg48 a1 0 t) h3 (stg48 a1 1 t) h4 (Memref.whole cc48_scratch0) (Memref.isWhole_whole _) cc48_scratch1 := ⟨_, _, rfl⟩

end Out

/-! ## The body's run, joined to the proof data -/

section Body

variable (V : (c : Dev nD) → (b : Ref sig .tc) → Buf (Elt F) ((c : Thread nD τ).loc b))
  (a1 : (pcfg48 (F := F)).Adm)

/-- The scratch buffer whole at some contents, as a memref owned at some contents. -/
theorem scratchOwns_eq48 (c : Dev nD) :
    (iprop(∃ d, owns (c : Thread nD τ) (Memref.whole cc48_scratch0) fullShare d) : sProp 𝕄)
      = iprop(∃ f : Buf (Elt F) ((c : Thread nD τ).loc cc48_scratch0), ((c : Thread nD τ).loc cc48_scratch0) ↦{fullShare} f) := by
  simp only [owns_whole]

/-- The run the obligation uses, at the named output block, from the body's run on any operands. The table and the
    far operand are passed whole, so what the body reads of them is their contents; every word of the table is below
    the far operand's row count, so each of the eight words read at a point names a row; the own cells are the
    semaphore array's eight entries. -/
theorem bodyRun48 (hlt : ∀ y, BitVec.toNat ((a1.1 0) y) < 100000) : BodyRun48 V a1 (outBlk48 V a1) := by
  intro c t W K
  obtain ⟨h3, h4, hprog⟩ := bodyProg_eq48 (F := F) a1 t
  rw [hprog, ownSems_eq48, ← scratchOwns_eq48 (F := F) c]
  have hrun := gather_kernel_run_48 (F := F) c (grid48.coords t) (Memref.whole main_v203) (Memref.isWhole_whole _) (Memref.whole main_v141) (Memref.isWhole_whole _)
    (stg48 a1 0 t) h3 (stg48 a1 1 t) h4 (Memref.whole cc48_scratch0) (Memref.isWhole_whole _) cc48_scratch1 fullShare fullShare
    (a1.1 0) (V c main_v141) (iblk48 V a1 c 0 t) (fun y => hlt y) W K
  simp only [Memref.view_whole, View.read_whole] at hrun
  unfold outBlk48
  iintro ⟨H0, H1, HS, Hq, Ht, Hh, HW, HK⟩
  iapply hrun
  isplitl [Ht]; · iexact Ht
  isplitl [Hh]; · iexact Hh
  isplitl [H0]; · iexact H0
  isplitl [H1]; · iexact H1
  isplitl [HS]; · iexact HS
  isplitl [Hq]; · iexact Hq
  isplitl [HW]; · iexact HW
  iintro ⟨Ht, Hh, H0, H1, HS, Hq, HW'⟩
  iapply HK
  isplitl [H0]; · iexact H0
  isplitl [H1]; · iexact H1
  isplitl [HS]; · iexact HS
  isplitl [Hq]; · iexact Hq
  isplitl [Ht]; · iexact Ht
  isplitl [Hh]; · iexact Hh
  iexact HW'

/-- The body obligation at the named output block. -/
theorem bodyObligationOut48 (hlt : ∀ y, BitVec.toNat ((a1.1 0) y) < 100000) (c : Dev nD) :
    BodyObligation (dat48 (F := F) V a1 (outBlk48 V a1) c) (defs₀ (F := F)) Variants.none () Set.univ :=
  body_obligation48 V a1 (outBlk48 V a1) (bodyRun48 V a1 hlt) c

end Body

end Cert.KernelIdeal.Hand

end
-- ==== Proof.KI.HostFacts.lean ====
/-
  Per stretch of host operations: the references its operations write (one per operation), the fact that they write
  nothing else, and that no operation allocates a buffer. A reference outside the list holds after the stretch what it
  held before it.
-/
import proofs.«421643_j28415503630349_2_alg».proof.Proof.Gen.KernelIdeal.Launch

set_option maxRecDepth 16384

noncomputable section

namespace Cert.KernelIdeal.Hand

open Cert.KernelIdeal Cert.KernelIdeal.Gen
open Idealize.ShloMosaic Idealize.ShloMosaic.TcCoe

variable {F : FTy → Type} [FloatOps F]

theorem hostOps0_fresh : (hostOps0 : List (HloOp τ sig (Elt F))).Forall fun op => op.fresh = ∅ := by
  simp only [List.Forall]; repeat' constructor
abbrev hostOps0_W : List (Ref sig .tc) := [main_v0, main_c]
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_1_fresh : (hostOps0_1 : List (HloOp τ sig (Elt F))).Forall fun op => op.fresh = ∅ := by
  simp only [List.Forall]; repeat' constructor
abbrev hostOps0_1_W : List (Ref sig .tc) := [main_call0_v0, main_v1]
theorem hostOps0_1_writes : (hostOps0_1 : List (HloOp τ sig (Elt F))).Forall fun op => op.writes ⊆ (hostOps0_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_fresh : (hostOps1 : List (HloOp τ sig (Elt F))).Forall fun op => op.fresh = ∅ := by
  simp only [List.Forall]; repeat' constructor
abbrev hostOps1_W : List (Ref sig .tc) := [main_v3, main_cst, main_v4, main_v5, main_v6, main_v7]
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_fresh : (hostOps2 : List (HloOp τ sig (Elt F))).Forall fun op => op.fresh = ∅ := by
  simp only [List.Forall]; repeat' constructor
abbrev hostOps2_W : List (Ref sig .tc) := [main_v9, main_v10, main_v11]
theorem hostOps2_writes : (hostOps2 : List (HloOp τ sig (Elt F))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_fresh : (hostOps3 : List (HloOp τ sig (Elt F))).Forall fun op => op.fresh = ∅ := by
  simp only [List.Forall]; repeat' constructor
abbrev hostOps3_W : List (Ref sig .tc) := [main_v13, main_v14, main_v15]
theorem hostOps3_writes : (hostOps3 : List (HloOp τ sig (Elt F))).Forall fun op => op.writes ⊆ (hostOps3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps4_fresh : (hostOps4 : List (HloOp τ sig (Elt F))).Forall fun op => op.fresh = ∅ := by
  simp only [List.Forall]; repeat' constructor
abbrev hostOps4_W : List (Ref sig .tc) := [main_v17, main_v18, main_v19]
theorem hostOps4_writes : (hostOps4 : List (HloOp τ sig (Elt F))).Forall fun op => op.writes ⊆ (hostOps4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps5_fresh : (hostOps5 : List (HloOp τ sig (Elt F))).Forall fun op => op.fresh = ∅ := by
  simp only [List.Forall]; repeat' constructor
abbrev hostOps5_W : List (Ref sig .tc) := [main_v21, main_v22, main_v23]
theorem hostOps5_writes : (hostOps5 : List (HloOp τ sig (Elt F))).Forall fun op => op.writes ⊆ (hostOps5_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps6_fresh : (hostOps6 : List (HloOp τ sig (Elt F))).Forall fun op => op.fresh = ∅ := by
  simp only [List.Forall]; repeat' constructor
abbrev hostOps6_W : List (Ref sig .tc) := [main_v25, main_v26, main_v27]
theorem hostOps6_writes : (hostOps6 : List (HloOp τ sig (Elt F))).Forall fun op => op.writes ⊆ (hostOps6_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_fresh : (hostOps7 : List (HloOp τ sig (Elt F))).Forall fun op => op.fresh = ∅ := by
  simp only [List.Forall]; repeat' constructor
abbrev hostOps7_W : List (Ref sig .tc) := [main_v29, main_v30, main_v31]
theorem hostOps7_writes : (hostOps7 : List (HloOp τ sig (Elt F))).Forall fun op => op.writes ⊆ (hostOps7_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps8_fresh : (hostOps8 : List (HloOp τ sig (Elt F))).Forall fun op => op.fresh = ∅ := by
  simp only [List.Forall]; repeat' constructor
abbrev hostOps8_W : List (Ref sig .tc) := [main_v33, main_v34, main_v35]
theorem hostOps8_writes : (hostOps8 : List (HloOp τ sig (Elt F))).Forall fun op => op.writes ⊆ (hostOps8_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps9_fresh : (hostOps9 : List (HloOp τ sig (Elt F))).Forall fun op => op.fresh = ∅ := by
  simp only [List.Forall]; repeat' constructor
abbrev hostOps9_W : List (Ref sig .tc) := [main_v37, main_v38, main_v39]
theorem hostOps9_writes : (hostOps9 : List (HloOp τ sig (Elt F))).Forall fun op => op.writes ⊆ (hostOps9_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps10_fresh : (hostOps10 : List (HloOp τ sig (Elt F))).Forall fun op => op.fresh = ∅ := by
  simp only [List.Forall]; repeat' constructor
abbrev hostOps10_W : List (Ref sig .tc) := [main_v41, main_v42, main_v43]
theorem hostOps10_writes : (hostOps10 : List (HloOp τ sig (Elt F))).Forall fun op => op.writes ⊆ (hostOps10_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps11_fresh : (hostOps11 : List (HloOp τ sig (Elt F))).Forall fun op => op.fresh = ∅ := by
  simp only [List.Forall]; repeat' constructor
abbrev hostOps11_W : List (Ref sig .tc) := [main_v45, main_v46, main_v47]
theorem hostOps11_writes : (hostOps11 : List (HloOp τ sig (Elt F))).Forall fun op => op.writes ⊆ (hostOps11_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps12_fresh : (hostOps12 : List (HloOp τ sig (Elt F))).Forall fun op => op.fresh = ∅ := by
  simp only [List.Forall]; repeat' constructor
abbrev hostOps12_W : List (Ref sig .tc) := [main_v49, main_v50, main_v51]
theorem hostOps12_writes : (hostOps12 : List (HloOp τ sig (Elt F))).Forall fun op => op.writes ⊆ (hostOps12_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps13_fresh : (hostOps13 : List (HloOp τ sig (Elt F))).Forall fun op => op.fresh = ∅ := by
  simp only [List.Forall]; repeat' constructor
abbrev hostOps13_W : List (Ref sig .tc) := [main_v53, main_v54, main_v55]
theorem hostOps13_writes : (hostOps13 : List (HloOp τ sig (Elt F))).Forall fun op => op.writes ⊆ (hostOps13_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps14_fresh : (hostOps14 : List (HloOp τ sig (Elt F))).Forall fun op => op.fresh = ∅ := by
  simp only [List.Forall]; repeat' constructor
abbrev hostOps14_W : List (Ref sig .tc) := [main_v57, main_v58, main_v59]
theorem hostOps14_writes : (hostOps14 : List (HloOp τ sig (Elt F))).Forall fun op => op.writes ⊆ (hostOps14_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps15_fresh : (hostOps15 : List (HloOp τ sig (Elt F))).Forall fun op => op.fresh = ∅ := by
  simp only [List.Forall]; repeat' constructor
abbrev hostOps15_W : List (Ref sig .tc) := [main_v61, main_v62, main_v63]
theorem hostOps15_writes : (hostOps15 : List (HloOp τ sig (Elt F))).Forall fun op => op.writes ⊆ (hostOps15_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps16_fresh : (hostOps16 : List (HloOp τ sig (Elt F))).Forall fun op => op.fresh = ∅ := by
  simp only [List.Forall]; repeat' constructor
abbrev hostOps16_W : List (Ref sig .tc) := [main_v65, main_v66, main_v67]
theorem hostOps16_writes : (hostOps16 : List (HloOp τ sig (Elt F))).Forall fun op => op.writes ⊆ (hostOps16_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps17_fresh : (hostOps17 : List (HloOp τ sig (Elt F))).Forall fun op => op.fresh = ∅ := by
  simp only [List.Forall]; repeat' constructor
abbrev hostOps17_W : List (Ref sig .tc) := [main_v69, main_cst_0, main_v70, main_v71, main_v72, main_v73, main_v74, main_v75, main_v76]
theorem hostOps17_writes : (hostOps17 : List (HloOp τ sig (Elt F))).Forall fun op => op.writes ⊆ (hostOps17_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps18_fresh : (hostOps18 : List (HloOp τ sig (Elt F))).Forall fun op => op.fresh = ∅ := by
  simp only [List.Forall]; repeat' constructor
abbrev hostOps18_W : List (Ref sig .tc) := [main_v78, main_v79, main_v80]
theorem hostOps18_writes : (hostOps18 : List (HloOp τ sig (Elt F))).Forall fun op => op.writes ⊆ (hostOps18_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps19_fresh : (hostOps19 : List (HloOp τ sig (Elt F))).Forall fun op => op.fresh = ∅ := by
  simp only [List.Forall]; repeat' constructor
abbrev hostOps19_W : List (Ref sig .tc) := [main_v82, main_v83, main_v84]
theorem hostOps19_writes : (hostOps19 : List (HloOp τ sig (Elt F))).Forall fun op => op.writes ⊆ (hostOps19_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps20_fresh : (hostOps20 : List (HloOp τ sig (Elt F))).Forall fun op => op.fresh = ∅ := by
  simp only [List.Forall]; repeat' constructor
abbrev hostOps20_W : List (Ref sig .tc) := [main_v86, main_v87, main_v88]
theorem hostOps20_writes : (hostOps20 : List (HloOp τ sig (Elt F))).Forall fun op => op.writes ⊆ (hostOps20_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps21_fresh : (hostOps21 : List (HloOp τ sig (Elt F))).Forall fun op => op.fresh = ∅ := by
  simp only [List.Forall]; repeat' constructor
abbrev hostOps21_W : List (Ref sig .tc) := [main_v90, main_v91, main_v92]
theorem hostOps21_writes : (hostOps21 : List (HloOp τ sig (Elt F))).Forall fun op => op.writes ⊆ (hostOps21_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps22_fresh : (hostOps22 : List (HloOp τ sig (Elt F))).Forall fun op => op.fresh = ∅ := by
  simp only [List.Forall]; repeat' constructor
abbrev hostOps22_W : List (Ref sig .tc) := [main_v94, main_v95, main_v96]
theorem hostOps22_writes : (hostOps22 : List (HloOp τ sig (Elt F))).Forall fun op => op.writes ⊆ (hostOps22_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps23_fresh : (hostOps23 : List (HloOp τ sig (Elt F))).Forall fun op => op.fresh = ∅ := by
  simp only [List.Forall]; repeat' constructor
abbrev hostOps23_W : List (Ref sig .tc) := [main_v98, main_v99, main_v100]
theorem hostOps23_writes : (hostOps23 : List (HloOp τ sig (Elt F))).Forall fun op => op.writes ⊆ (hostOps23_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps24_fresh : (hostOps24 : List (HloOp τ sig (Elt F))).Forall fun op => op.fresh = ∅ := by
  simp only [List.Forall]; repeat' constructor
abbrev hostOps24_W : List (Ref sig .tc) := [main_v102, main_v103, main_v104]
theorem hostOps24_writes : (hostOps24 : List (HloOp τ sig (Elt F))).Forall fun op => op.writes ⊆ (hostOps24_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps25_fresh : (hostOps25 : List (HloOp τ sig (Elt F))).Forall fun op => op.fresh = ∅ := by
  simp only [List.Forall]; repeat' constructor
abbrev hostOps25_W : List (Ref sig .tc) := [main_v106, main_v107, main_v108]
theorem hostOps25_writes : (hostOps25 : List (HloOp τ sig (Elt F))).Forall fun op => op.writes ⊆ (hostOps25_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps26_fresh : (hostOps26 : List (HloOp τ sig (Elt F))).Forall fun op => op.fresh = ∅ := by
  simp only [List.Forall]; repeat' constructor
abbrev hostOps26_W : List (Ref sig .tc) := [main_v110, main_v111, main_v112]
theorem hostOps26_writes : (hostOps26 : List (HloOp τ sig (Elt F))).Forall fun op => op.writes ⊆ (hostOps26_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps27_fresh : (hostOps27 : List (HloOp τ sig (Elt F))).Forall fun op => op.fresh = ∅ := by
  simp only [List.Forall]; repeat' constructor
abbrev hostOps27_W : List (Ref sig .tc) := [main_v114, main_v115, main_v116]
theorem hostOps27_writes : (hostOps27 : List (HloOp τ sig (Elt F))).Forall fun op => op.writes ⊆ (hostOps27_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps28_fresh : (hostOps28 : List (HloOp τ sig (Elt F))).Forall fun op => op.fresh = ∅ := by
  simp only [List.Forall]; repeat' constructor
abbrev hostOps28_W : List (Ref sig .tc) := [main_v118, main_v119, main_v120]
theorem hostOps28_writes : (hostOps28 : List (HloOp τ sig (Elt F))).Forall fun op => op.writes ⊆ (hostOps28_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps29_fresh : (hostOps29 : List (HloOp τ sig (Elt F))).Forall fun op => op.fresh = ∅ := by
  simp only [List.Forall]; repeat' constructor
abbrev hostOps29_W : List (Ref sig .tc) := [main_v122, main_v123, main_v124]
theorem hostOps29_writes : (hostOps29 : List (HloOp τ sig (Elt F))).Forall fun op => op.writes ⊆ (hostOps29_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps30_fresh : (hostOps30 : List (HloOp τ sig (Elt F))).Forall fun op => op.fresh = ∅ := by
  simp only [List.Forall]; repeat' constructor
abbrev hostOps30_W : List (Ref sig .tc) := [main_v126, main_v127, main_v128]
theorem hostOps30_writes : (hostOps30 : List (HloOp τ sig (Elt F))).Forall fun op => op.writes ⊆ (hostOps30_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps31_fresh : (hostOps31 : List (HloOp τ sig (Elt F))).Forall fun op => op.fresh = ∅ := by
  simp only [List.Forall]; repeat' constructor
abbrev hostOps31_W : List (Ref sig .tc) := [main_v130, main_v131, main_v132]
theorem hostOps31_writes : (hostOps31 : List (HloOp τ sig (Elt F))).Forall fun op => op.writes ⊆ (hostOps31_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps32_fresh : (hostOps32 : List (HloOp τ sig (Elt F))).Forall fun op => op.fresh = ∅ := by
  simp only [List.Forall]; repeat' constructor
abbrev hostOps32_W : List (Ref sig .tc) := [main_v134, main_v135, main_v136]
theorem hostOps32_writes : (hostOps32 : List (HloOp τ sig (Elt F))).Forall fun op => op.writes ⊆ (hostOps32_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps33_fresh : (hostOps33 : List (HloOp τ sig (Elt F))).Forall fun op => op.fresh = ∅ := by
  simp only [List.Forall]; repeat' constructor
abbrev hostOps33_W : List (Ref sig .tc) := [main_v138, main_cst_1, main_v139, main_v140, main_v141, main_v142, main_v143, main_v144, main_v145]
theorem hostOps33_writes : (hostOps33 : List (HloOp τ sig (Elt F))).Forall fun op => op.writes ⊆ (hostOps33_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps34_fresh : (hostOps34 : List (HloOp τ sig (Elt F))).Forall fun op => op.fresh = ∅ := by
  simp only [List.Forall]; repeat' constructor
abbrev hostOps34_W : List (Ref sig .tc) := [main_v147, main_v148, main_v149]
theorem hostOps34_writes : (hostOps34 : List (HloOp τ sig (Elt F))).Forall fun op => op.writes ⊆ (hostOps34_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps35_fresh : (hostOps35 : List (HloOp τ sig (Elt F))).Forall fun op => op.fresh = ∅ := by
  simp only [List.Forall]; repeat' constructor
abbrev hostOps35_W : List (Ref sig .tc) := [main_v151, main_v152, main_v153]
theorem hostOps35_writes : (hostOps35 : List (HloOp τ sig (Elt F))).Forall fun op => op.writes ⊆ (hostOps35_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps36_fresh : (hostOps36 : List (HloOp τ sig (Elt F))).Forall fun op => op.fresh = ∅ := by
  simp only [List.Forall]; repeat' constructor
abbrev hostOps36_W : List (Ref sig .tc) := [main_v155, main_v156, main_v157]
theorem hostOps36_writes : (hostOps36 : List (HloOp τ sig (Elt F))).Forall fun op => op.writes ⊆ (hostOps36_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps37_fresh : (hostOps37 : List (HloOp τ sig (Elt F))).Forall fun op => op.fresh = ∅ := by
  simp only [List.Forall]; repeat' constructor
abbrev hostOps37_W : List (Ref sig .tc) := [main_v159, main_v160, main_v161]
theorem hostOps37_writes : (hostOps37 : List (HloOp τ sig (Elt F))).Forall fun op => op.writes ⊆ (hostOps37_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps38_fresh : (hostOps38 : List (HloOp τ sig (Elt F))).Forall fun op => op.fresh = ∅ := by
  simp only [List.Forall]; repeat' constructor
abbrev hostOps38_W : List (Ref sig .tc) := [main_v163, main_v164, main_v165]
theorem hostOps38_writes : (hostOps38 : List (HloOp τ sig (Elt F))).Forall fun op => op.writes ⊆ (hostOps38_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps39_fresh : (hostOps39 : List (HloOp τ sig (Elt F))).Forall fun op => op.fresh = ∅ := by
  simp only [List.Forall]; repeat' constructor
abbrev hostOps39_W : List (Ref sig .tc) := [main_v167, main_v168, main_v169]
theorem hostOps39_writes : (hostOps39 : List (HloOp τ sig (Elt F))).Forall fun op => op.writes ⊆ (hostOps39_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps40_fresh : (hostOps40 : List (HloOp τ sig (Elt F))).Forall fun op => op.fresh = ∅ := by
  simp only [List.Forall]; repeat' constructor
abbrev hostOps40_W : List (Ref sig .tc) := [main_v171, main_v172, main_v173]
theorem hostOps40_writes : (hostOps40 : List (HloOp τ sig (Elt F))).Forall fun op => op.writes ⊆ (hostOps40_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps41_fresh : (hostOps41 : List (HloOp τ sig (Elt F))).Forall fun op => op.fresh = ∅ := by
  simp only [List.Forall]; repeat' constructor
abbrev hostOps41_W : List (Ref sig .tc) := [main_v175, main_v176, main_v177]
theorem hostOps41_writes : (hostOps41 : List (HloOp τ sig (Elt F))).Forall fun op => op.writes ⊆ (hostOps41_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps42_fresh : (hostOps42 : List (HloOp τ sig (Elt F))).Forall fun op => op.fresh = ∅ := by
  simp only [List.Forall]; repeat' constructor
abbrev hostOps42_W : List (Ref sig .tc) := [main_v179, main_v180, main_v181]
theorem hostOps42_writes : (hostOps42 : List (HloOp τ sig (Elt F))).Forall fun op => op.writes ⊆ (hostOps42_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps43_fresh : (hostOps43 : List (HloOp τ sig (Elt F))).Forall fun op => op.fresh = ∅ := by
  simp only [List.Forall]; repeat' constructor
abbrev hostOps43_W : List (Ref sig .tc) := [main_v183, main_v184, main_v185]
theorem hostOps43_writes : (hostOps43 : List (HloOp τ sig (Elt F))).Forall fun op => op.writes ⊆ (hostOps43_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps44_fresh : (hostOps44 : List (HloOp τ sig (Elt F))).Forall fun op => op.fresh = ∅ := by
  simp only [List.Forall]; repeat' constructor
abbrev hostOps44_W : List (Ref sig .tc) := [main_v187, main_v188, main_v189]
theorem hostOps44_writes : (hostOps44 : List (HloOp τ sig (Elt F))).Forall fun op => op.writes ⊆ (hostOps44_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps45_fresh : (hostOps45 : List (HloOp τ sig (Elt F))).Forall fun op => op.fresh = ∅ := by
  simp only [List.Forall]; repeat' constructor
abbrev hostOps45_W : List (Ref sig .tc) := [main_v191, main_v192, main_v193]
theorem hostOps45_writes : (hostOps45 : List (HloOp τ sig (Elt F))).Forall fun op => op.writes ⊆ (hostOps45_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps46_fresh : (hostOps46 : List (HloOp τ sig (Elt F))).Forall fun op => op.fresh = ∅ := by
  simp only [List.Forall]; repeat' constructor
abbrev hostOps46_W : List (Ref sig .tc) := [main_v195, main_v196, main_v197]
theorem hostOps46_writes : (hostOps46 : List (HloOp τ sig (Elt F))).Forall fun op => op.writes ⊆ (hostOps46_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps47_fresh : (hostOps47 : List (HloOp τ sig (Elt F))).Forall fun op => op.fresh = ∅ := by
  simp only [List.Forall]; repeat' constructor
abbrev hostOps47_W : List (Ref sig .tc) := [main_v199, main_v200, main_v201]
theorem hostOps47_writes : (hostOps47 : List (HloOp τ sig (Elt F))).Forall fun op => op.writes ⊆ (hostOps47_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps48_fresh : (hostOps48 : List (HloOp τ sig (Elt F))).Forall fun op => op.fresh = ∅ := by
  simp only [List.Forall]; repeat' constructor
abbrev hostOps48_W : List (Ref sig .tc) := [main_v203, main_v204, main_v205]
theorem hostOps48_writes : (hostOps48 : List (HloOp τ sig (Elt F))).Forall fun op => op.writes ⊆ (hostOps48_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps49_fresh : (hostOps49 : List (HloOp τ sig (Elt F))).Forall fun op => op.fresh = ∅ := by
  simp only [List.Forall]; repeat' constructor
abbrev hostOps49_W : List (Ref sig .tc) := [main_v207, main_cst_2, main_v208, main_v209, main_v210, main_v211, main_v212, main_v213, main_c_3, main_v214, main_v215, main_c_4, main_v216, main_v217, main_v218, main_v219, main_v220, main_c_5, main_v221, main_v222, main_c_6, main_v223, main_v224, main_v225, main_v226, main_v227]
theorem hostOps49_writes : (hostOps49 : List (HloOp τ sig (Elt F))).Forall fun op => op.writes ⊆ (hostOps49_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

end Cert.KernelIdeal.Hand

end
-- ==== Proof.KI.Chain.lean ====
/-
  The buffers' contents at every boundary between two segments of the host program, from the launch memory on:
  a host stretch leaves what its operations compute, a kernel region its arrays at what its write-backs leave;
  and each gather region's table at its entry.
-/
import proofs.«421643_j28415503630349_2_alg».proof.Proof.KI.Region0
import proofs.«421643_j28415503630349_2_alg».proof.Proof.KI.Region1
import proofs.«421643_j28415503630349_2_alg».proof.Proof.KI.Regions_2_9
import proofs.«421643_j28415503630349_2_alg».proof.Proof.KI.Regions_10_17
import proofs.«421643_j28415503630349_2_alg».proof.Proof.KI.Regions_18_25
import proofs.«421643_j28415503630349_2_alg».proof.Proof.KI.Regions_26_33
import proofs.«421643_j28415503630349_2_alg».proof.Proof.KI.Regions_34_41
import proofs.«421643_j28415503630349_2_alg».proof.Proof.KI.Regions_42_48
import proofs.«421643_j28415503630349_2_alg».proof.Proof.KI.HostFacts

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

variable (m : (ℓ : Loc nD τ sig) → Buf (Elt F) ℓ)

/-- The core's buffers at launch. -/
abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
/-- After region 0: its arrays at what the pipeline leaves, every other buffer as entered. -/
def W3 : Dev nD → Valuation τ sig (Elt F) := fun c => Wout0 (W2 m) c
abbrev W4 : Dev nD → Valuation τ sig (Elt F) := fun c => StableHlo.after hostOps1 (W3 m c)
/-- Region 1's table at its entry: admissible whatever it holds (no index map reads it). -/
abbrev adm1 : (pcfg1 (F := F)).Adm := ⟨fun k => Vof (W4 m) 0 (pre1.ref k), trivial⟩
def W5 : Dev nD → Valuation τ sig (Elt F) := fun c => Wout1 (W4 m) (adm1 m) (outBlk1 (Vof (W4 m)) (adm1 m)) c
abbrev W6 : Dev nD → Valuation τ sig (Elt F) := fun c => StableHlo.after hostOps2 (W5 m c)
/-- Region 2's table at its entry: admissible whatever it holds (no index map reads it). -/
abbrev adm2 : (pcfg2 (F := F)).Adm := ⟨fun k => Vof (W6 m) 0 (pre2.ref k), trivial⟩
def W7 : Dev nD → Valuation τ sig (Elt F) := fun c => Wout2 (W6 m) (adm2 m) (outBlk2 (Vof (W6 m)) (adm2 m)) c
abbrev W8 : Dev nD → Valuation τ sig (Elt F) := fun c => StableHlo.after hostOps3 (W7 m c)
/-- Region 3's table at its entry: admissible whatever it holds (no index map reads it). -/
abbrev adm3 : (pcfg3 (F := F)).Adm := ⟨fun k => Vof (W8 m) 0 (pre3.ref k), trivial⟩
def W9 : Dev nD → Valuation τ sig (Elt F) := fun c => Wout3 (W8 m) (adm3 m) (outBlk3 (Vof (W8 m)) (adm3 m)) c
abbrev W10 : Dev nD → Valuation τ sig (Elt F) := fun c => StableHlo.after hostOps4 (W9 m c)
/-- Region 4's table at its entry: admissible whatever it holds (no index map reads it). -/
abbrev adm4 : (pcfg4 (F := F)).Adm := ⟨fun k => Vof (W10 m) 0 (pre4.ref k), trivial⟩
def W11 : Dev nD → Valuation τ sig (Elt F) := fun c => Wout4 (W10 m) (adm4 m) (outBlk4 (Vof (W10 m)) (adm4 m)) c
abbrev W12 : Dev nD → Valuation τ sig (Elt F) := fun c => StableHlo.after hostOps5 (W11 m c)
/-- Region 5's table at its entry: admissible whatever it holds (no index map reads it). -/
abbrev adm5 : (pcfg5 (F := F)).Adm := ⟨fun k => Vof (W12 m) 0 (pre5.ref k), trivial⟩
def W13 : Dev nD → Valuation τ sig (Elt F) := fun c => Wout5 (W12 m) (adm5 m) (outBlk5 (Vof (W12 m)) (adm5 m)) c
abbrev W14 : Dev nD → Valuation τ sig (Elt F) := fun c => StableHlo.after hostOps6 (W13 m c)
/-- Region 6's table at its entry: admissible whatever it holds (no index map reads it). -/
abbrev adm6 : (pcfg6 (F := F)).Adm := ⟨fun k => Vof (W14 m) 0 (pre6.ref k), trivial⟩
def W15 : Dev nD → Valuation τ sig (Elt F) := fun c => Wout6 (W14 m) (adm6 m) (outBlk6 (Vof (W14 m)) (adm6 m)) c
abbrev W16 : Dev nD → Valuation τ sig (Elt F) := fun c => StableHlo.after hostOps7 (W15 m c)
/-- Region 7's table at its entry: admissible whatever it holds (no index map reads it). -/
abbrev adm7 : (pcfg7 (F := F)).Adm := ⟨fun k => Vof (W16 m) 0 (pre7.ref k), trivial⟩
def W17 : Dev nD → Valuation τ sig (Elt F) := fun c => Wout7 (W16 m) (adm7 m) (outBlk7 (Vof (W16 m)) (adm7 m)) c
abbrev W18 : Dev nD → Valuation τ sig (Elt F) := fun c => StableHlo.after hostOps8 (W17 m c)
/-- Region 8's table at its entry: admissible whatever it holds (no index map reads it). -/
abbrev adm8 : (pcfg8 (F := F)).Adm := ⟨fun k => Vof (W18 m) 0 (pre8.ref k), trivial⟩
def W19 : Dev nD → Valuation τ sig (Elt F) := fun c => Wout8 (W18 m) (adm8 m) (outBlk8 (Vof (W18 m)) (adm8 m)) c
abbrev W20 : Dev nD → Valuation τ sig (Elt F) := fun c => StableHlo.after hostOps9 (W19 m c)
/-- Region 9's table at its entry: admissible whatever it holds (no index map reads it). -/
abbrev adm9 : (pcfg9 (F := F)).Adm := ⟨fun k => Vof (W20 m) 0 (pre9.ref k), trivial⟩
def W21 : Dev nD → Valuation τ sig (Elt F) := fun c => Wout9 (W20 m) (adm9 m) (outBlk9 (Vof (W20 m)) (adm9 m)) c
abbrev W22 : Dev nD → Valuation τ sig (Elt F) := fun c => StableHlo.after hostOps10 (W21 m c)
/-- Region 10's table at its entry: admissible whatever it holds (no index map reads it). -/
abbrev adm10 : (pcfg10 (F := F)).Adm := ⟨fun k => Vof (W22 m) 0 (pre10.ref k), trivial⟩
def W23 : Dev nD → Valuation τ sig (Elt F) := fun c => Wout10 (W22 m) (adm10 m) (outBlk10 (Vof (W22 m)) (adm10 m)) c
abbrev W24 : Dev nD → Valuation τ sig (Elt F) := fun c => StableHlo.after hostOps11 (W23 m c)
/-- Region 11's table at its entry: admissible whatever it holds (no index map reads it). -/
abbrev adm11 : (pcfg11 (F := F)).Adm := ⟨fun k => Vof (W24 m) 0 (pre11.ref k), trivial⟩
def W25 : Dev nD → Valuation τ sig (Elt F) := fun c => Wout11 (W24 m) (adm11 m) (outBlk11 (Vof (W24 m)) (adm11 m)) c
abbrev W26 : Dev nD → Valuation τ sig (Elt F) := fun c => StableHlo.after hostOps12 (W25 m c)
/-- Region 12's table at its entry: admissible whatever it holds (no index map reads it). -/
abbrev adm12 : (pcfg12 (F := F)).Adm := ⟨fun k => Vof (W26 m) 0 (pre12.ref k), trivial⟩
def W27 : Dev nD → Valuation τ sig (Elt F) := fun c => Wout12 (W26 m) (adm12 m) (outBlk12 (Vof (W26 m)) (adm12 m)) c
abbrev W28 : Dev nD → Valuation τ sig (Elt F) := fun c => StableHlo.after hostOps13 (W27 m c)
/-- Region 13's table at its entry: admissible whatever it holds (no index map reads it). -/
abbrev adm13 : (pcfg13 (F := F)).Adm := ⟨fun k => Vof (W28 m) 0 (pre13.ref k), trivial⟩
def W29 : Dev nD → Valuation τ sig (Elt F) := fun c => Wout13 (W28 m) (adm13 m) (outBlk13 (Vof (W28 m)) (adm13 m)) c
abbrev W30 : Dev nD → Valuation τ sig (Elt F) := fun c => StableHlo.after hostOps14 (W29 m c)
/-- Region 14's table at its entry: admissible whatever it holds (no index map reads it). -/
abbrev adm14 : (pcfg14 (F := F)).Adm := ⟨fun k => Vof (W30 m) 0 (pre14.ref k), trivial⟩
def W31 : Dev nD → Valuation τ sig (Elt F) := fun c => Wout14 (W30 m) (adm14 m) (outBlk14 (Vof (W30 m)) (adm14 m)) c
abbrev W32 : Dev nD → Valuation τ sig (Elt F) := fun c => StableHlo.after hostOps15 (W31 m c)
/-- Region 15's table at its entry: admissible whatever it holds (no index map reads it). -/
abbrev adm15 : (pcfg15 (F := F)).Adm := ⟨fun k => Vof (W32 m) 0 (pre15.ref k), trivial⟩
def W33 : Dev nD → Valuation τ sig (Elt F) := fun c => Wout15 (W32 m) (adm15 m) (outBlk15 (Vof (W32 m)) (adm15 m)) c
abbrev W34 : Dev nD → Valuation τ sig (Elt F) := fun c => StableHlo.after hostOps16 (W33 m c)
/-- Region 16's table at its entry: admissible whatever it holds (no index map reads it). -/
abbrev adm16 : (pcfg16 (F := F)).Adm := ⟨fun k => Vof (W34 m) 0 (pre16.ref k), trivial⟩
def W35 : Dev nD → Valuation τ sig (Elt F) := fun c => Wout16 (W34 m) (adm16 m) (outBlk16 (Vof (W34 m)) (adm16 m)) c
abbrev W36 : Dev nD → Valuation τ sig (Elt F) := fun c => StableHlo.after hostOps17 (W35 m c)
/-- Region 17's table at its entry: admissible whatever it holds (no index map reads it). -/
abbrev adm17 : (pcfg17 (F := F)).Adm := ⟨fun k => Vof (W36 m) 0 (pre17.ref k), trivial⟩
def W37 : Dev nD → Valuation τ sig (Elt F) := fun c => Wout17 (W36 m) (adm17 m) (outBlk17 (Vof (W36 m)) (adm17 m)) c
abbrev W38 : Dev nD → Valuation τ sig (Elt F) := fun c => StableHlo.after hostOps18 (W37 m c)
/-- Region 18's table at its entry: admissible whatever it holds (no index map reads it). -/
abbrev adm18 : (pcfg18 (F := F)).Adm := ⟨fun k => Vof (W38 m) 0 (pre18.ref k), trivial⟩
def W39 : Dev nD → Valuation τ sig (Elt F) := fun c => Wout18 (W38 m) (adm18 m) (outBlk18 (Vof (W38 m)) (adm18 m)) c
abbrev W40 : Dev nD → Valuation τ sig (Elt F) := fun c => StableHlo.after hostOps19 (W39 m c)
/-- Region 19's table at its entry: admissible whatever it holds (no index map reads it). -/
abbrev adm19 : (pcfg19 (F := F)).Adm := ⟨fun k => Vof (W40 m) 0 (pre19.ref k), trivial⟩
def W41 : Dev nD → Valuation τ sig (Elt F) := fun c => Wout19 (W40 m) (adm19 m) (outBlk19 (Vof (W40 m)) (adm19 m)) c
abbrev W42 : Dev nD → Valuation τ sig (Elt F) := fun c => StableHlo.after hostOps20 (W41 m c)
/-- Region 20's table at its entry: admissible whatever it holds (no index map reads it). -/
abbrev adm20 : (pcfg20 (F := F)).Adm := ⟨fun k => Vof (W42 m) 0 (pre20.ref k), trivial⟩
def W43 : Dev nD → Valuation τ sig (Elt F) := fun c => Wout20 (W42 m) (adm20 m) (outBlk20 (Vof (W42 m)) (adm20 m)) c
abbrev W44 : Dev nD → Valuation τ sig (Elt F) := fun c => StableHlo.after hostOps21 (W43 m c)
/-- Region 21's table at its entry: admissible whatever it holds (no index map reads it). -/
abbrev adm21 : (pcfg21 (F := F)).Adm := ⟨fun k => Vof (W44 m) 0 (pre21.ref k), trivial⟩
def W45 : Dev nD → Valuation τ sig (Elt F) := fun c => Wout21 (W44 m) (adm21 m) (outBlk21 (Vof (W44 m)) (adm21 m)) c
abbrev W46 : Dev nD → Valuation τ sig (Elt F) := fun c => StableHlo.after hostOps22 (W45 m c)
/-- Region 22's table at its entry: admissible whatever it holds (no index map reads it). -/
abbrev adm22 : (pcfg22 (F := F)).Adm := ⟨fun k => Vof (W46 m) 0 (pre22.ref k), trivial⟩
def W47 : Dev nD → Valuation τ sig (Elt F) := fun c => Wout22 (W46 m) (adm22 m) (outBlk22 (Vof (W46 m)) (adm22 m)) c
abbrev W48 : Dev nD → Valuation τ sig (Elt F) := fun c => StableHlo.after hostOps23 (W47 m c)
/-- Region 23's table at its entry: admissible whatever it holds (no index map reads it). -/
abbrev adm23 : (pcfg23 (F := F)).Adm := ⟨fun k => Vof (W48 m) 0 (pre23.ref k), trivial⟩
def W49 : Dev nD → Valuation τ sig (Elt F) := fun c => Wout23 (W48 m) (adm23 m) (outBlk23 (Vof (W48 m)) (adm23 m)) c
abbrev W50 : Dev nD → Valuation τ sig (Elt F) := fun c => StableHlo.after hostOps24 (W49 m c)
/-- Region 24's table at its entry: admissible whatever it holds (no index map reads it). -/
abbrev adm24 : (pcfg24 (F := F)).Adm := ⟨fun k => Vof (W50 m) 0 (pre24.ref k), trivial⟩
def W51 : Dev nD → Valuation τ sig (Elt F) := fun c => Wout24 (W50 m) (adm24 m) (outBlk24 (Vof (W50 m)) (adm24 m)) c
abbrev W52 : Dev nD → Valuation τ sig (Elt F) := fun c => StableHlo.after hostOps25 (W51 m c)
/-- Region 25's table at its entry: admissible whatever it holds (no index map reads it). -/
abbrev adm25 : (pcfg25 (F := F)).Adm := ⟨fun k => Vof (W52 m) 0 (pre25.ref k), trivial⟩
def W53 : Dev nD → Valuation τ sig (Elt F) := fun c => Wout25 (W52 m) (adm25 m) (outBlk25 (Vof (W52 m)) (adm25 m)) c
abbrev W54 : Dev nD → Valuation τ sig (Elt F) := fun c => StableHlo.after hostOps26 (W53 m c)
/-- Region 26's table at its entry: admissible whatever it holds (no index map reads it). -/
abbrev adm26 : (pcfg26 (F := F)).Adm := ⟨fun k => Vof (W54 m) 0 (pre26.ref k), trivial⟩
def W55 : Dev nD → Valuation τ sig (Elt F) := fun c => Wout26 (W54 m) (adm26 m) (outBlk26 (Vof (W54 m)) (adm26 m)) c
abbrev W56 : Dev nD → Valuation τ sig (Elt F) := fun c => StableHlo.after hostOps27 (W55 m c)
/-- Region 27's table at its entry: admissible whatever it holds (no index map reads it). -/
abbrev adm27 : (pcfg27 (F := F)).Adm := ⟨fun k => Vof (W56 m) 0 (pre27.ref k), trivial⟩
def W57 : Dev nD → Valuation τ sig (Elt F) := fun c => Wout27 (W56 m) (adm27 m) (outBlk27 (Vof (W56 m)) (adm27 m)) c
abbrev W58 : Dev nD → Valuation τ sig (Elt F) := fun c => StableHlo.after hostOps28 (W57 m c)
/-- Region 28's table at its entry: admissible whatever it holds (no index map reads it). -/
abbrev adm28 : (pcfg28 (F := F)).Adm := ⟨fun k => Vof (W58 m) 0 (pre28.ref k), trivial⟩
def W59 : Dev nD → Valuation τ sig (Elt F) := fun c => Wout28 (W58 m) (adm28 m) (outBlk28 (Vof (W58 m)) (adm28 m)) c
abbrev W60 : Dev nD → Valuation τ sig (Elt F) := fun c => StableHlo.after hostOps29 (W59 m c)
/-- Region 29's table at its entry: admissible whatever it holds (no index map reads it). -/
abbrev adm29 : (pcfg29 (F := F)).Adm := ⟨fun k => Vof (W60 m) 0 (pre29.ref k), trivial⟩
def W61 : Dev nD → Valuation τ sig (Elt F) := fun c => Wout29 (W60 m) (adm29 m) (outBlk29 (Vof (W60 m)) (adm29 m)) c
abbrev W62 : Dev nD → Valuation τ sig (Elt F) := fun c => StableHlo.after hostOps30 (W61 m c)
/-- Region 30's table at its entry: admissible whatever it holds (no index map reads it). -/
abbrev adm30 : (pcfg30 (F := F)).Adm := ⟨fun k => Vof (W62 m) 0 (pre30.ref k), trivial⟩
def W63 : Dev nD → Valuation τ sig (Elt F) := fun c => Wout30 (W62 m) (adm30 m) (outBlk30 (Vof (W62 m)) (adm30 m)) c
abbrev W64 : Dev nD → Valuation τ sig (Elt F) := fun c => StableHlo.after hostOps31 (W63 m c)
/-- Region 31's table at its entry: admissible whatever it holds (no index map reads it). -/
abbrev adm31 : (pcfg31 (F := F)).Adm := ⟨fun k => Vof (W64 m) 0 (pre31.ref k), trivial⟩
def W65 : Dev nD → Valuation τ sig (Elt F) := fun c => Wout31 (W64 m) (adm31 m) (outBlk31 (Vof (W64 m)) (adm31 m)) c
abbrev W66 : Dev nD → Valuation τ sig (Elt F) := fun c => StableHlo.after hostOps32 (W65 m c)
/-- Region 32's table at its entry: admissible whatever it holds (no index map reads it). -/
abbrev adm32 : (pcfg32 (F := F)).Adm := ⟨fun k => Vof (W66 m) 0 (pre32.ref k), trivial⟩
def W67 : Dev nD → Valuation τ sig (Elt F) := fun c => Wout32 (W66 m) (adm32 m) (outBlk32 (Vof (W66 m)) (adm32 m)) c
abbrev W68 : Dev nD → Valuation τ sig (Elt F) := fun c => StableHlo.after hostOps33 (W67 m c)
/-- Region 33's table at its entry: admissible whatever it holds (no index map reads it). -/
abbrev adm33 : (pcfg33 (F := F)).Adm := ⟨fun k => Vof (W68 m) 0 (pre33.ref k), trivial⟩
def W69 : Dev nD → Valuation τ sig (Elt F) := fun c => Wout33 (W68 m) (adm33 m) (outBlk33 (Vof (W68 m)) (adm33 m)) c
abbrev W70 : Dev nD → Valuation τ sig (Elt F) := fun c => StableHlo.after hostOps34 (W69 m c)
/-- Region 34's table at its entry: admissible whatever it holds (no index map reads it). -/
abbrev adm34 : (pcfg34 (F := F)).Adm := ⟨fun k => Vof (W70 m) 0 (pre34.ref k), trivial⟩
def W71 : Dev nD → Valuation τ sig (Elt F) := fun c => Wout34 (W70 m) (adm34 m) (outBlk34 (Vof (W70 m)) (adm34 m)) c
abbrev W72 : Dev nD → Valuation τ sig (Elt F) := fun c => StableHlo.after hostOps35 (W71 m c)
/-- Region 35's table at its entry: admissible whatever it holds (no index map reads it). -/
abbrev adm35 : (pcfg35 (F := F)).Adm := ⟨fun k => Vof (W72 m) 0 (pre35.ref k), trivial⟩
def W73 : Dev nD → Valuation τ sig (Elt F) := fun c => Wout35 (W72 m) (adm35 m) (outBlk35 (Vof (W72 m)) (adm35 m)) c
abbrev W74 : Dev nD → Valuation τ sig (Elt F) := fun c => StableHlo.after hostOps36 (W73 m c)
/-- Region 36's table at its entry: admissible whatever it holds (no index map reads it). -/
abbrev adm36 : (pcfg36 (F := F)).Adm := ⟨fun k => Vof (W74 m) 0 (pre36.ref k), trivial⟩
def W75 : Dev nD → Valuation τ sig (Elt F) := fun c => Wout36 (W74 m) (adm36 m) (outBlk36 (Vof (W74 m)) (adm36 m)) c
abbrev W76 : Dev nD → Valuation τ sig (Elt F) := fun c => StableHlo.after hostOps37 (W75 m c)
/-- Region 37's table at its entry: admissible whatever it holds (no index map reads it). -/
abbrev adm37 : (pcfg37 (F := F)).Adm := ⟨fun k => Vof (W76 m) 0 (pre37.ref k), trivial⟩
def W77 : Dev nD → Valuation τ sig (Elt F) := fun c => Wout37 (W76 m) (adm37 m) (outBlk37 (Vof (W76 m)) (adm37 m)) c
abbrev W78 : Dev nD → Valuation τ sig (Elt F) := fun c => StableHlo.after hostOps38 (W77 m c)
/-- Region 38's table at its entry: admissible whatever it holds (no index map reads it). -/
abbrev adm38 : (pcfg38 (F := F)).Adm := ⟨fun k => Vof (W78 m) 0 (pre38.ref k), trivial⟩
def W79 : Dev nD → Valuation τ sig (Elt F) := fun c => Wout38 (W78 m) (adm38 m) (outBlk38 (Vof (W78 m)) (adm38 m)) c
abbrev W80 : Dev nD → Valuation τ sig (Elt F) := fun c => StableHlo.after hostOps39 (W79 m c)
/-- Region 39's table at its entry: admissible whatever it holds (no index map reads it). -/
abbrev adm39 : (pcfg39 (F := F)).Adm := ⟨fun k => Vof (W80 m) 0 (pre39.ref k), trivial⟩
def W81 : Dev nD → Valuation τ sig (Elt F) := fun c => Wout39 (W80 m) (adm39 m) (outBlk39 (Vof (W80 m)) (adm39 m)) c
abbrev W82 : Dev nD → Valuation τ sig (Elt F) := fun c => StableHlo.after hostOps40 (W81 m c)
/-- Region 40's table at its entry: admissible whatever it holds (no index map reads it). -/
abbrev adm40 : (pcfg40 (F := F)).Adm := ⟨fun k => Vof (W82 m) 0 (pre40.ref k), trivial⟩
def W83 : Dev nD → Valuation τ sig (Elt F) := fun c => Wout40 (W82 m) (adm40 m) (outBlk40 (Vof (W82 m)) (adm40 m)) c
abbrev W84 : Dev nD → Valuation τ sig (Elt F) := fun c => StableHlo.after hostOps41 (W83 m c)
/-- Region 41's table at its entry: admissible whatever it holds (no index map reads it). -/
abbrev adm41 : (pcfg41 (F := F)).Adm := ⟨fun k => Vof (W84 m) 0 (pre41.ref k), trivial⟩
def W85 : Dev nD → Valuation τ sig (Elt F) := fun c => Wout41 (W84 m) (adm41 m) (outBlk41 (Vof (W84 m)) (adm41 m)) c
abbrev W86 : Dev nD → Valuation τ sig (Elt F) := fun c => StableHlo.after hostOps42 (W85 m c)
/-- Region 42's table at its entry: admissible whatever it holds (no index map reads it). -/
abbrev adm42 : (pcfg42 (F := F)).Adm := ⟨fun k => Vof (W86 m) 0 (pre42.ref k), trivial⟩
def W87 : Dev nD → Valuation τ sig (Elt F) := fun c => Wout42 (W86 m) (adm42 m) (outBlk42 (Vof (W86 m)) (adm42 m)) c
abbrev W88 : Dev nD → Valuation τ sig (Elt F) := fun c => StableHlo.after hostOps43 (W87 m c)
/-- Region 43's table at its entry: admissible whatever it holds (no index map reads it). -/
abbrev adm43 : (pcfg43 (F := F)).Adm := ⟨fun k => Vof (W88 m) 0 (pre43.ref k), trivial⟩
def W89 : Dev nD → Valuation τ sig (Elt F) := fun c => Wout43 (W88 m) (adm43 m) (outBlk43 (Vof (W88 m)) (adm43 m)) c
abbrev W90 : Dev nD → Valuation τ sig (Elt F) := fun c => StableHlo.after hostOps44 (W89 m c)
/-- Region 44's table at its entry: admissible whatever it holds (no index map reads it). -/
abbrev adm44 : (pcfg44 (F := F)).Adm := ⟨fun k => Vof (W90 m) 0 (pre44.ref k), trivial⟩
def W91 : Dev nD → Valuation τ sig (Elt F) := fun c => Wout44 (W90 m) (adm44 m) (outBlk44 (Vof (W90 m)) (adm44 m)) c
abbrev W92 : Dev nD → Valuation τ sig (Elt F) := fun c => StableHlo.after hostOps45 (W91 m c)
/-- Region 45's table at its entry: admissible whatever it holds (no index map reads it). -/
abbrev adm45 : (pcfg45 (F := F)).Adm := ⟨fun k => Vof (W92 m) 0 (pre45.ref k), trivial⟩
def W93 : Dev nD → Valuation τ sig (Elt F) := fun c => Wout45 (W92 m) (adm45 m) (outBlk45 (Vof (W92 m)) (adm45 m)) c
abbrev W94 : Dev nD → Valuation τ sig (Elt F) := fun c => StableHlo.after hostOps46 (W93 m c)
/-- Region 46's table at its entry: admissible whatever it holds (no index map reads it). -/
abbrev adm46 : (pcfg46 (F := F)).Adm := ⟨fun k => Vof (W94 m) 0 (pre46.ref k), trivial⟩
def W95 : Dev nD → Valuation τ sig (Elt F) := fun c => Wout46 (W94 m) (adm46 m) (outBlk46 (Vof (W94 m)) (adm46 m)) c
abbrev W96 : Dev nD → Valuation τ sig (Elt F) := fun c => StableHlo.after hostOps47 (W95 m c)
/-- Region 47's table at its entry: admissible whatever it holds (no index map reads it). -/
abbrev adm47 : (pcfg47 (F := F)).Adm := ⟨fun k => Vof (W96 m) 0 (pre47.ref k), trivial⟩
def W97 : Dev nD → Valuation τ sig (Elt F) := fun c => Wout47 (W96 m) (adm47 m) (outBlk47 (Vof (W96 m)) (adm47 m)) c
abbrev W98 : Dev nD → Valuation τ sig (Elt F) := fun c => StableHlo.after hostOps48 (W97 m c)
/-- Region 48's table at its entry: admissible whatever it holds (no index map reads it). -/
abbrev adm48 : (pcfg48 (F := F)).Adm := ⟨fun k => Vof (W98 m) 0 (pre48.ref k), trivial⟩
def W99 : Dev nD → Valuation τ sig (Elt F) := fun c => Wout48 (W98 m) (adm48 m) (outBlk48 (Vof (W98 m)) (adm48 m)) c
abbrev W100 : Dev nD → Valuation τ sig (Elt F) := fun c => StableHlo.after hostOps49 (W99 m c)

/-! ## What each segment leaves unchanged -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ hostOps0_1_W) : W2 m c r = W1 m c r :=
  StableHlo.after_of_writes_sub hostOps0_1 _ hostOps0_1_writes h
theorem W4_of (c : Dev nD) (r : Ref sig .tc) (h : r ∉ hostOps1_W) : W4 m c r = W3 m c r :=
  StableHlo.after_of_writes_sub hostOps1 _ hostOps1_writes h
theorem W6_of (c : Dev nD) (r : Ref sig .tc) (h : r ∉ hostOps2_W) : W6 m c r = W5 m c r :=
  StableHlo.after_of_writes_sub hostOps2 _ hostOps2_writes h
theorem W8_of (c : Dev nD) (r : Ref sig .tc) (h : r ∉ hostOps3_W) : W8 m c r = W7 m c r :=
  StableHlo.after_of_writes_sub hostOps3 _ hostOps3_writes h
theorem W10_of (c : Dev nD) (r : Ref sig .tc) (h : r ∉ hostOps4_W) : W10 m c r = W9 m c r :=
  StableHlo.after_of_writes_sub hostOps4 _ hostOps4_writes h
theorem W12_of (c : Dev nD) (r : Ref sig .tc) (h : r ∉ hostOps5_W) : W12 m c r = W11 m c r :=
  StableHlo.after_of_writes_sub hostOps5 _ hostOps5_writes h
theorem W14_of (c : Dev nD) (r : Ref sig .tc) (h : r ∉ hostOps6_W) : W14 m c r = W13 m c r :=
  StableHlo.after_of_writes_sub hostOps6 _ hostOps6_writes h
theorem W16_of (c : Dev nD) (r : Ref sig .tc) (h : r ∉ hostOps7_W) : W16 m c r = W15 m c r :=
  StableHlo.after_of_writes_sub hostOps7 _ hostOps7_writes h
theorem W18_of (c : Dev nD) (r : Ref sig .tc) (h : r ∉ hostOps8_W) : W18 m c r = W17 m c r :=
  StableHlo.after_of_writes_sub hostOps8 _ hostOps8_writes h
theorem W20_of (c : Dev nD) (r : Ref sig .tc) (h : r ∉ hostOps9_W) : W20 m c r = W19 m c r :=
  StableHlo.after_of_writes_sub hostOps9 _ hostOps9_writes h
theorem W22_of (c : Dev nD) (r : Ref sig .tc) (h : r ∉ hostOps10_W) : W22 m c r = W21 m c r :=
  StableHlo.after_of_writes_sub hostOps10 _ hostOps10_writes h
theorem W24_of (c : Dev nD) (r : Ref sig .tc) (h : r ∉ hostOps11_W) : W24 m c r = W23 m c r :=
  StableHlo.after_of_writes_sub hostOps11 _ hostOps11_writes h
theorem W26_of (c : Dev nD) (r : Ref sig .tc) (h : r ∉ hostOps12_W) : W26 m c r = W25 m c r :=
  StableHlo.after_of_writes_sub hostOps12 _ hostOps12_writes h
theorem W28_of (c : Dev nD) (r : Ref sig .tc) (h : r ∉ hostOps13_W) : W28 m c r = W27 m c r :=
  StableHlo.after_of_writes_sub hostOps13 _ hostOps13_writes h
theorem W30_of (c : Dev nD) (r : Ref sig .tc) (h : r ∉ hostOps14_W) : W30 m c r = W29 m c r :=
  StableHlo.after_of_writes_sub hostOps14 _ hostOps14_writes h
theorem W32_of (c : Dev nD) (r : Ref sig .tc) (h : r ∉ hostOps15_W) : W32 m c r = W31 m c r :=
  StableHlo.after_of_writes_sub hostOps15 _ hostOps15_writes h
theorem W34_of (c : Dev nD) (r : Ref sig .tc) (h : r ∉ hostOps16_W) : W34 m c r = W33 m c r :=
  StableHlo.after_of_writes_sub hostOps16 _ hostOps16_writes h
theorem W36_of (c : Dev nD) (r : Ref sig .tc) (h : r ∉ hostOps17_W) : W36 m c r = W35 m c r :=
  StableHlo.after_of_writes_sub hostOps17 _ hostOps17_writes h
theorem W38_of (c : Dev nD) (r : Ref sig .tc) (h : r ∉ hostOps18_W) : W38 m c r = W37 m c r :=
  StableHlo.after_of_writes_sub hostOps18 _ hostOps18_writes h
theorem W40_of (c : Dev nD) (r : Ref sig .tc) (h : r ∉ hostOps19_W) : W40 m c r = W39 m c r :=
  StableHlo.after_of_writes_sub hostOps19 _ hostOps19_writes h
theorem W42_of (c : Dev nD) (r : Ref sig .tc) (h : r ∉ hostOps20_W) : W42 m c r = W41 m c r :=
  StableHlo.after_of_writes_sub hostOps20 _ hostOps20_writes h
theorem W44_of (c : Dev nD) (r : Ref sig .tc) (h : r ∉ hostOps21_W) : W44 m c r = W43 m c r :=
  StableHlo.after_of_writes_sub hostOps21 _ hostOps21_writes h
theorem W46_of (c : Dev nD) (r : Ref sig .tc) (h : r ∉ hostOps22_W) : W46 m c r = W45 m c r :=
  StableHlo.after_of_writes_sub hostOps22 _ hostOps22_writes h
theorem W48_of (c : Dev nD) (r : Ref sig .tc) (h : r ∉ hostOps23_W) : W48 m c r = W47 m c r :=
  StableHlo.after_of_writes_sub hostOps23 _ hostOps23_writes h
theorem W50_of (c : Dev nD) (r : Ref sig .tc) (h : r ∉ hostOps24_W) : W50 m c r = W49 m c r :=
  StableHlo.after_of_writes_sub hostOps24 _ hostOps24_writes h
theorem W52_of (c : Dev nD) (r : Ref sig .tc) (h : r ∉ hostOps25_W) : W52 m c r = W51 m c r :=
  StableHlo.after_of_writes_sub hostOps25 _ hostOps25_writes h
theorem W54_of (c : Dev nD) (r : Ref sig .tc) (h : r ∉ hostOps26_W) : W54 m c r = W53 m c r :=
  StableHlo.after_of_writes_sub hostOps26 _ hostOps26_writes h
theorem W56_of (c : Dev nD) (r : Ref sig .tc) (h : r ∉ hostOps27_W) : W56 m c r = W55 m c r :=
  StableHlo.after_of_writes_sub hostOps27 _ hostOps27_writes h
theorem W58_of (c : Dev nD) (r : Ref sig .tc) (h : r ∉ hostOps28_W) : W58 m c r = W57 m c r :=
  StableHlo.after_of_writes_sub hostOps28 _ hostOps28_writes h
theorem W60_of (c : Dev nD) (r : Ref sig .tc) (h : r ∉ hostOps29_W) : W60 m c r = W59 m c r :=
  StableHlo.after_of_writes_sub hostOps29 _ hostOps29_writes h
theorem W62_of (c : Dev nD) (r : Ref sig .tc) (h : r ∉ hostOps30_W) : W62 m c r = W61 m c r :=
  StableHlo.after_of_writes_sub hostOps30 _ hostOps30_writes h
theorem W64_of (c : Dev nD) (r : Ref sig .tc) (h : r ∉ hostOps31_W) : W64 m c r = W63 m c r :=
  StableHlo.after_of_writes_sub hostOps31 _ hostOps31_writes h
theorem W66_of (c : Dev nD) (r : Ref sig .tc) (h : r ∉ hostOps32_W) : W66 m c r = W65 m c r :=
  StableHlo.after_of_writes_sub hostOps32 _ hostOps32_writes h
theorem W68_of (c : Dev nD) (r : Ref sig .tc) (h : r ∉ hostOps33_W) : W68 m c r = W67 m c r :=
  StableHlo.after_of_writes_sub hostOps33 _ hostOps33_writes h
theorem W70_of (c : Dev nD) (r : Ref sig .tc) (h : r ∉ hostOps34_W) : W70 m c r = W69 m c r :=
  StableHlo.after_of_writes_sub hostOps34 _ hostOps34_writes h
theorem W72_of (c : Dev nD) (r : Ref sig .tc) (h : r ∉ hostOps35_W) : W72 m c r = W71 m c r :=
  StableHlo.after_of_writes_sub hostOps35 _ hostOps35_writes h
theorem W74_of (c : Dev nD) (r : Ref sig .tc) (h : r ∉ hostOps36_W) : W74 m c r = W73 m c r :=
  StableHlo.after_of_writes_sub hostOps36 _ hostOps36_writes h
theorem W76_of (c : Dev nD) (r : Ref sig .tc) (h : r ∉ hostOps37_W) : W76 m c r = W75 m c r :=
  StableHlo.after_of_writes_sub hostOps37 _ hostOps37_writes h
theorem W78_of (c : Dev nD) (r : Ref sig .tc) (h : r ∉ hostOps38_W) : W78 m c r = W77 m c r :=
  StableHlo.after_of_writes_sub hostOps38 _ hostOps38_writes h
theorem W80_of (c : Dev nD) (r : Ref sig .tc) (h : r ∉ hostOps39_W) : W80 m c r = W79 m c r :=
  StableHlo.after_of_writes_sub hostOps39 _ hostOps39_writes h
theorem W82_of (c : Dev nD) (r : Ref sig .tc) (h : r ∉ hostOps40_W) : W82 m c r = W81 m c r :=
  StableHlo.after_of_writes_sub hostOps40 _ hostOps40_writes h
theorem W84_of (c : Dev nD) (r : Ref sig .tc) (h : r ∉ hostOps41_W) : W84 m c r = W83 m c r :=
  StableHlo.after_of_writes_sub hostOps41 _ hostOps41_writes h
theorem W86_of (c : Dev nD) (r : Ref sig .tc) (h : r ∉ hostOps42_W) : W86 m c r = W85 m c r :=
  StableHlo.after_of_writes_sub hostOps42 _ hostOps42_writes h
theorem W88_of (c : Dev nD) (r : Ref sig .tc) (h : r ∉ hostOps43_W) : W88 m c r = W87 m c r :=
  StableHlo.after_of_writes_sub hostOps43 _ hostOps43_writes h
theorem W90_of (c : Dev nD) (r : Ref sig .tc) (h : r ∉ hostOps44_W) : W90 m c r = W89 m c r :=
  StableHlo.after_of_writes_sub hostOps44 _ hostOps44_writes h
theorem W92_of (c : Dev nD) (r : Ref sig .tc) (h : r ∉ hostOps45_W) : W92 m c r = W91 m c r :=
  StableHlo.after_of_writes_sub hostOps45 _ hostOps45_writes h
theorem W94_of (c : Dev nD) (r : Ref sig .tc) (h : r ∉ hostOps46_W) : W94 m c r = W93 m c r :=
  StableHlo.after_of_writes_sub hostOps46 _ hostOps46_writes h
theorem W96_of (c : Dev nD) (r : Ref sig .tc) (h : r ∉ hostOps47_W) : W96 m c r = W95 m c r :=
  StableHlo.after_of_writes_sub hostOps47 _ hostOps47_writes h
theorem W98_of (c : Dev nD) (r : Ref sig .tc) (h : r ∉ hostOps48_W) : W98 m c r = W97 m c r :=
  StableHlo.after_of_writes_sub hostOps48 _ hostOps48_writes h
theorem W100_of (c : Dev nD) (r : Ref sig .tc) (h : r ∉ hostOps49_W) : W100 m c r = W99 m c r :=
  StableHlo.after_of_writes_sub hostOps49 _ hostOps49_writes h
theorem W3_of (c : Dev nD) (r : Ref sig .tc) (h : ∀ w, Pipeline.arrRef spec0 w ≠ r) : W3 m c r = W2 m c r := Wout0_of_ne (W2 m) c r h
theorem W5_of (c : Dev nD) (r : Ref sig .tc) (h : ∀ w, Pipeline.arrRef spec1 w ≠ r) : W5 m c r = W4 m c r := Wout1_of_ne (W4 m) (adm1 m) _ c r h
theorem W7_of (c : Dev nD) (r : Ref sig .tc) (h : ∀ w, Pipeline.arrRef spec2 w ≠ r) : W7 m c r = W6 m c r := Wout2_of_ne (W6 m) (adm2 m) _ c r h
theorem W9_of (c : Dev nD) (r : Ref sig .tc) (h : ∀ w, Pipeline.arrRef spec3 w ≠ r) : W9 m c r = W8 m c r := Wout3_of_ne (W8 m) (adm3 m) _ c r h
theorem W11_of (c : Dev nD) (r : Ref sig .tc) (h : ∀ w, Pipeline.arrRef spec4 w ≠ r) : W11 m c r = W10 m c r := Wout4_of_ne (W10 m) (adm4 m) _ c r h
theorem W13_of (c : Dev nD) (r : Ref sig .tc) (h : ∀ w, Pipeline.arrRef spec5 w ≠ r) : W13 m c r = W12 m c r := Wout5_of_ne (W12 m) (adm5 m) _ c r h
theorem W15_of (c : Dev nD) (r : Ref sig .tc) (h : ∀ w, Pipeline.arrRef spec6 w ≠ r) : W15 m c r = W14 m c r := Wout6_of_ne (W14 m) (adm6 m) _ c r h
theorem W17_of (c : Dev nD) (r : Ref sig .tc) (h : ∀ w, Pipeline.arrRef spec7 w ≠ r) : W17 m c r = W16 m c r := Wout7_of_ne (W16 m) (adm7 m) _ c r h
theorem W19_of (c : Dev nD) (r : Ref sig .tc) (h : ∀ w, Pipeline.arrRef spec8 w ≠ r) : W19 m c r = W18 m c r := Wout8_of_ne (W18 m) (adm8 m) _ c r h
theorem W21_of (c : Dev nD) (r : Ref sig .tc) (h : ∀ w, Pipeline.arrRef spec9 w ≠ r) : W21 m c r = W20 m c r := Wout9_of_ne (W20 m) (adm9 m) _ c r h
theorem W23_of (c : Dev nD) (r : Ref sig .tc) (h : ∀ w, Pipeline.arrRef spec10 w ≠ r) : W23 m c r = W22 m c r := Wout10_of_ne (W22 m) (adm10 m) _ c r h
theorem W25_of (c : Dev nD) (r : Ref sig .tc) (h : ∀ w, Pipeline.arrRef spec11 w ≠ r) : W25 m c r = W24 m c r := Wout11_of_ne (W24 m) (adm11 m) _ c r h
theorem W27_of (c : Dev nD) (r : Ref sig .tc) (h : ∀ w, Pipeline.arrRef spec12 w ≠ r) : W27 m c r = W26 m c r := Wout12_of_ne (W26 m) (adm12 m) _ c r h
theorem W29_of (c : Dev nD) (r : Ref sig .tc) (h : ∀ w, Pipeline.arrRef spec13 w ≠ r) : W29 m c r = W28 m c r := Wout13_of_ne (W28 m) (adm13 m) _ c r h
theorem W31_of (c : Dev nD) (r : Ref sig .tc) (h : ∀ w, Pipeline.arrRef spec14 w ≠ r) : W31 m c r = W30 m c r := Wout14_of_ne (W30 m) (adm14 m) _ c r h
theorem W33_of (c : Dev nD) (r : Ref sig .tc) (h : ∀ w, Pipeline.arrRef spec15 w ≠ r) : W33 m c r = W32 m c r := Wout15_of_ne (W32 m) (adm15 m) _ c r h
theorem W35_of (c : Dev nD) (r : Ref sig .tc) (h : ∀ w, Pipeline.arrRef spec16 w ≠ r) : W35 m c r = W34 m c r := Wout16_of_ne (W34 m) (adm16 m) _ c r h
theorem W37_of (c : Dev nD) (r : Ref sig .tc) (h : ∀ w, Pipeline.arrRef spec17 w ≠ r) : W37 m c r = W36 m c r := Wout17_of_ne (W36 m) (adm17 m) _ c r h
theorem W39_of (c : Dev nD) (r : Ref sig .tc) (h : ∀ w, Pipeline.arrRef spec18 w ≠ r) : W39 m c r = W38 m c r := Wout18_of_ne (W38 m) (adm18 m) _ c r h
theorem W41_of (c : Dev nD) (r : Ref sig .tc) (h : ∀ w, Pipeline.arrRef spec19 w ≠ r) : W41 m c r = W40 m c r := Wout19_of_ne (W40 m) (adm19 m) _ c r h
theorem W43_of (c : Dev nD) (r : Ref sig .tc) (h : ∀ w, Pipeline.arrRef spec20 w ≠ r) : W43 m c r = W42 m c r := Wout20_of_ne (W42 m) (adm20 m) _ c r h
theorem W45_of (c : Dev nD) (r : Ref sig .tc) (h : ∀ w, Pipeline.arrRef spec21 w ≠ r) : W45 m c r = W44 m c r := Wout21_of_ne (W44 m) (adm21 m) _ c r h
theorem W47_of (c : Dev nD) (r : Ref sig .tc) (h : ∀ w, Pipeline.arrRef spec22 w ≠ r) : W47 m c r = W46 m c r := Wout22_of_ne (W46 m) (adm22 m) _ c r h
theorem W49_of (c : Dev nD) (r : Ref sig .tc) (h : ∀ w, Pipeline.arrRef spec23 w ≠ r) : W49 m c r = W48 m c r := Wout23_of_ne (W48 m) (adm23 m) _ c r h
theorem W51_of (c : Dev nD) (r : Ref sig .tc) (h : ∀ w, Pipeline.arrRef spec24 w ≠ r) : W51 m c r = W50 m c r := Wout24_of_ne (W50 m) (adm24 m) _ c r h
theorem W53_of (c : Dev nD) (r : Ref sig .tc) (h : ∀ w, Pipeline.arrRef spec25 w ≠ r) : W53 m c r = W52 m c r := Wout25_of_ne (W52 m) (adm25 m) _ c r h
theorem W55_of (c : Dev nD) (r : Ref sig .tc) (h : ∀ w, Pipeline.arrRef spec26 w ≠ r) : W55 m c r = W54 m c r := Wout26_of_ne (W54 m) (adm26 m) _ c r h
theorem W57_of (c : Dev nD) (r : Ref sig .tc) (h : ∀ w, Pipeline.arrRef spec27 w ≠ r) : W57 m c r = W56 m c r := Wout27_of_ne (W56 m) (adm27 m) _ c r h
theorem W59_of (c : Dev nD) (r : Ref sig .tc) (h : ∀ w, Pipeline.arrRef spec28 w ≠ r) : W59 m c r = W58 m c r := Wout28_of_ne (W58 m) (adm28 m) _ c r h
theorem W61_of (c : Dev nD) (r : Ref sig .tc) (h : ∀ w, Pipeline.arrRef spec29 w ≠ r) : W61 m c r = W60 m c r := Wout29_of_ne (W60 m) (adm29 m) _ c r h
theorem W63_of (c : Dev nD) (r : Ref sig .tc) (h : ∀ w, Pipeline.arrRef spec30 w ≠ r) : W63 m c r = W62 m c r := Wout30_of_ne (W62 m) (adm30 m) _ c r h
theorem W65_of (c : Dev nD) (r : Ref sig .tc) (h : ∀ w, Pipeline.arrRef spec31 w ≠ r) : W65 m c r = W64 m c r := Wout31_of_ne (W64 m) (adm31 m) _ c r h
theorem W67_of (c : Dev nD) (r : Ref sig .tc) (h : ∀ w, Pipeline.arrRef spec32 w ≠ r) : W67 m c r = W66 m c r := Wout32_of_ne (W66 m) (adm32 m) _ c r h
theorem W69_of (c : Dev nD) (r : Ref sig .tc) (h : ∀ w, Pipeline.arrRef spec33 w ≠ r) : W69 m c r = W68 m c r := Wout33_of_ne (W68 m) (adm33 m) _ c r h
theorem W71_of (c : Dev nD) (r : Ref sig .tc) (h : ∀ w, Pipeline.arrRef spec34 w ≠ r) : W71 m c r = W70 m c r := Wout34_of_ne (W70 m) (adm34 m) _ c r h
theorem W73_of (c : Dev nD) (r : Ref sig .tc) (h : ∀ w, Pipeline.arrRef spec35 w ≠ r) : W73 m c r = W72 m c r := Wout35_of_ne (W72 m) (adm35 m) _ c r h
theorem W75_of (c : Dev nD) (r : Ref sig .tc) (h : ∀ w, Pipeline.arrRef spec36 w ≠ r) : W75 m c r = W74 m c r := Wout36_of_ne (W74 m) (adm36 m) _ c r h
theorem W77_of (c : Dev nD) (r : Ref sig .tc) (h : ∀ w, Pipeline.arrRef spec37 w ≠ r) : W77 m c r = W76 m c r := Wout37_of_ne (W76 m) (adm37 m) _ c r h
theorem W79_of (c : Dev nD) (r : Ref sig .tc) (h : ∀ w, Pipeline.arrRef spec38 w ≠ r) : W79 m c r = W78 m c r := Wout38_of_ne (W78 m) (adm38 m) _ c r h
theorem W81_of (c : Dev nD) (r : Ref sig .tc) (h : ∀ w, Pipeline.arrRef spec39 w ≠ r) : W81 m c r = W80 m c r := Wout39_of_ne (W80 m) (adm39 m) _ c r h
theorem W83_of (c : Dev nD) (r : Ref sig .tc) (h : ∀ w, Pipeline.arrRef spec40 w ≠ r) : W83 m c r = W82 m c r := Wout40_of_ne (W82 m) (adm40 m) _ c r h
theorem W85_of (c : Dev nD) (r : Ref sig .tc) (h : ∀ w, Pipeline.arrRef spec41 w ≠ r) : W85 m c r = W84 m c r := Wout41_of_ne (W84 m) (adm41 m) _ c r h
theorem W87_of (c : Dev nD) (r : Ref sig .tc) (h : ∀ w, Pipeline.arrRef spec42 w ≠ r) : W87 m c r = W86 m c r := Wout42_of_ne (W86 m) (adm42 m) _ c r h
theorem W89_of (c : Dev nD) (r : Ref sig .tc) (h : ∀ w, Pipeline.arrRef spec43 w ≠ r) : W89 m c r = W88 m c r := Wout43_of_ne (W88 m) (adm43 m) _ c r h
theorem W91_of (c : Dev nD) (r : Ref sig .tc) (h : ∀ w, Pipeline.arrRef spec44 w ≠ r) : W91 m c r = W90 m c r := Wout44_of_ne (W90 m) (adm44 m) _ c r h
theorem W93_of (c : Dev nD) (r : Ref sig .tc) (h : ∀ w, Pipeline.arrRef spec45 w ≠ r) : W93 m c r = W92 m c r := Wout45_of_ne (W92 m) (adm45 m) _ c r h
theorem W95_of (c : Dev nD) (r : Ref sig .tc) (h : ∀ w, Pipeline.arrRef spec46 w ≠ r) : W95 m c r = W94 m c r := Wout46_of_ne (W94 m) (adm46 m) _ c r h
theorem W97_of (c : Dev nD) (r : Ref sig .tc) (h : ∀ w, Pipeline.arrRef spec47 w ≠ r) : W97 m c r = W96 m c r := Wout47_of_ne (W96 m) (adm47 m) _ c r h
theorem W99_of (c : Dev nD) (r : Ref sig .tc) (h : ∀ w, Pipeline.arrRef spec48 w ≠ r) : W99 m c r = W98 m c r := Wout48_of_ne (W98 m) (adm48 m) _ c r h

end Cert.KernelIdeal.Hand

end
-- ==== Proof.KI.Pdats.lean ====
/-
  The admissible tables and the proof data of all 49 pipelines, each at its region's entry contents: literal
  matches on the pipeline index, so that the launch's pinned configuration at a numeral reduces to the printed one.
-/
import proofs.«421643_j28415503630349_2_alg».proof.Proof.KI.Chain

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

variable (m : (ℓ : Loc nD τ sig) → Buf (Elt F) ℓ)

abbrev adm : (p : Fin 49) → (pcfgs (F := F) p).Adm
  | ⟨0, _⟩ => cfg0.toPCfg_adm
  | ⟨1, _⟩ => adm1 m
  | ⟨2, _⟩ => adm2 m
  | ⟨3, _⟩ => adm3 m
  | ⟨4, _⟩ => adm4 m
  | ⟨5, _⟩ => adm5 m
  | ⟨6, _⟩ => adm6 m
  | ⟨7, _⟩ => adm7 m
  | ⟨8, _⟩ => adm8 m
  | ⟨9, _⟩ => adm9 m
  | ⟨10, _⟩ => adm10 m
  | ⟨11, _⟩ => adm11 m
  | ⟨12, _⟩ => adm12 m
  | ⟨13, _⟩ => adm13 m
  | ⟨14, _⟩ => adm14 m
  | ⟨15, _⟩ => adm15 m
  | ⟨16, _⟩ => adm16 m
  | ⟨17, _⟩ => adm17 m
  | ⟨18, _⟩ => adm18 m
  | ⟨19, _⟩ => adm19 m
  | ⟨20, _⟩ => adm20 m
  | ⟨21, _⟩ => adm21 m
  | ⟨22, _⟩ => adm22 m
  | ⟨23, _⟩ => adm23 m
  | ⟨24, _⟩ => adm24 m
  | ⟨25, _⟩ => adm25 m
  | ⟨26, _⟩ => adm26 m
  | ⟨27, _⟩ => adm27 m
  | ⟨28, _⟩ => adm28 m
  | ⟨29, _⟩ => adm29 m
  | ⟨30, _⟩ => adm30 m
  | ⟨31, _⟩ => adm31 m
  | ⟨32, _⟩ => adm32 m
  | ⟨33, _⟩ => adm33 m
  | ⟨34, _⟩ => adm34 m
  | ⟨35, _⟩ => adm35 m
  | ⟨36, _⟩ => adm36 m
  | ⟨37, _⟩ => adm37 m
  | ⟨38, _⟩ => adm38 m
  | ⟨39, _⟩ => adm39 m
  | ⟨40, _⟩ => adm40 m
  | ⟨41, _⟩ => adm41 m
  | ⟨42, _⟩ => adm42 m
  | ⟨43, _⟩ => adm43 m
  | ⟨44, _⟩ => adm44 m
  | ⟨45, _⟩ => adm45 m
  | ⟨46, _⟩ => adm46 m
  | ⟨47, _⟩ => adm47 m
  | ⟨48, _⟩ => adm48 m
  | ⟨_ + 49, h⟩ => absurd h (Nat.not_lt.2 (Nat.le_add_left _ _))

def pdats : (p : Fin 49) → (c : Dev nD) → Dat τ (Elt F) Unit ℕ (UD sig nD τ) ℕ (Pipeline.pin (pcfgs (F := F)) (adm m) p) c
  | ⟨0, _⟩ => fun c => dat0 (Vof (W2 m)) c
  | ⟨1, _⟩ => fun c => dat1 (Vof (W4 m)) (adm1 m) (outBlk1 (Vof (W4 m)) (adm1 m)) c
  | ⟨2, _⟩ => fun c => dat2 (Vof (W6 m)) (adm2 m) (outBlk2 (Vof (W6 m)) (adm2 m)) c
  | ⟨3, _⟩ => fun c => dat3 (Vof (W8 m)) (adm3 m) (outBlk3 (Vof (W8 m)) (adm3 m)) c
  | ⟨4, _⟩ => fun c => dat4 (Vof (W10 m)) (adm4 m) (outBlk4 (Vof (W10 m)) (adm4 m)) c
  | ⟨5, _⟩ => fun c => dat5 (Vof (W12 m)) (adm5 m) (outBlk5 (Vof (W12 m)) (adm5 m)) c
  | ⟨6, _⟩ => fun c => dat6 (Vof (W14 m)) (adm6 m) (outBlk6 (Vof (W14 m)) (adm6 m)) c
  | ⟨7, _⟩ => fun c => dat7 (Vof (W16 m)) (adm7 m) (outBlk7 (Vof (W16 m)) (adm7 m)) c
  | ⟨8, _⟩ => fun c => dat8 (Vof (W18 m)) (adm8 m) (outBlk8 (Vof (W18 m)) (adm8 m)) c
  | ⟨9, _⟩ => fun c => dat9 (Vof (W20 m)) (adm9 m) (outBlk9 (Vof (W20 m)) (adm9 m)) c
  | ⟨10, _⟩ => fun c => dat10 (Vof (W22 m)) (adm10 m) (outBlk10 (Vof (W22 m)) (adm10 m)) c
  | ⟨11, _⟩ => fun c => dat11 (Vof (W24 m)) (adm11 m) (outBlk11 (Vof (W24 m)) (adm11 m)) c
  | ⟨12, _⟩ => fun c => dat12 (Vof (W26 m)) (adm12 m) (outBlk12 (Vof (W26 m)) (adm12 m)) c
  | ⟨13, _⟩ => fun c => dat13 (Vof (W28 m)) (adm13 m) (outBlk13 (Vof (W28 m)) (adm13 m)) c
  | ⟨14, _⟩ => fun c => dat14 (Vof (W30 m)) (adm14 m) (outBlk14 (Vof (W30 m)) (adm14 m)) c
  | ⟨15, _⟩ => fun c => dat15 (Vof (W32 m)) (adm15 m) (outBlk15 (Vof (W32 m)) (adm15 m)) c
  | ⟨16, _⟩ => fun c => dat16 (Vof (W34 m)) (adm16 m) (outBlk16 (Vof (W34 m)) (adm16 m)) c
  | ⟨17, _⟩ => fun c => dat17 (Vof (W36 m)) (adm17 m) (outBlk17 (Vof (W36 m)) (adm17 m)) c
  | ⟨18, _⟩ => fun c => dat18 (Vof (W38 m)) (adm18 m) (outBlk18 (Vof (W38 m)) (adm18 m)) c
  | ⟨19, _⟩ => fun c => dat19 (Vof (W40 m)) (adm19 m) (outBlk19 (Vof (W40 m)) (adm19 m)) c
  | ⟨20, _⟩ => fun c => dat20 (Vof (W42 m)) (adm20 m) (outBlk20 (Vof (W42 m)) (adm20 m)) c
  | ⟨21, _⟩ => fun c => dat21 (Vof (W44 m)) (adm21 m) (outBlk21 (Vof (W44 m)) (adm21 m)) c
  | ⟨22, _⟩ => fun c => dat22 (Vof (W46 m)) (adm22 m) (outBlk22 (Vof (W46 m)) (adm22 m)) c
  | ⟨23, _⟩ => fun c => dat23 (Vof (W48 m)) (adm23 m) (outBlk23 (Vof (W48 m)) (adm23 m)) c
  | ⟨24, _⟩ => fun c => dat24 (Vof (W50 m)) (adm24 m) (outBlk24 (Vof (W50 m)) (adm24 m)) c
  | ⟨25, _⟩ => fun c => dat25 (Vof (W52 m)) (adm25 m) (outBlk25 (Vof (W52 m)) (adm25 m)) c
  | ⟨26, _⟩ => fun c => dat26 (Vof (W54 m)) (adm26 m) (outBlk26 (Vof (W54 m)) (adm26 m)) c
  | ⟨27, _⟩ => fun c => dat27 (Vof (W56 m)) (adm27 m) (outBlk27 (Vof (W56 m)) (adm27 m)) c
  | ⟨28, _⟩ => fun c => dat28 (Vof (W58 m)) (adm28 m) (outBlk28 (Vof (W58 m)) (adm28 m)) c
  | ⟨29, _⟩ => fun c => dat29 (Vof (W60 m)) (adm29 m) (outBlk29 (Vof (W60 m)) (adm29 m)) c
  | ⟨30, _⟩ => fun c => dat30 (Vof (W62 m)) (adm30 m) (outBlk30 (Vof (W62 m)) (adm30 m)) c
  | ⟨31, _⟩ => fun c => dat31 (Vof (W64 m)) (adm31 m) (outBlk31 (Vof (W64 m)) (adm31 m)) c
  | ⟨32, _⟩ => fun c => dat32 (Vof (W66 m)) (adm32 m) (outBlk32 (Vof (W66 m)) (adm32 m)) c
  | ⟨33, _⟩ => fun c => dat33 (Vof (W68 m)) (adm33 m) (outBlk33 (Vof (W68 m)) (adm33 m)) c
  | ⟨34, _⟩ => fun c => dat34 (Vof (W70 m)) (adm34 m) (outBlk34 (Vof (W70 m)) (adm34 m)) c
  | ⟨35, _⟩ => fun c => dat35 (Vof (W72 m)) (adm35 m) (outBlk35 (Vof (W72 m)) (adm35 m)) c
  | ⟨36, _⟩ => fun c => dat36 (Vof (W74 m)) (adm36 m) (outBlk36 (Vof (W74 m)) (adm36 m)) c
  | ⟨37, _⟩ => fun c => dat37 (Vof (W76 m)) (adm37 m) (outBlk37 (Vof (W76 m)) (adm37 m)) c
  | ⟨38, _⟩ => fun c => dat38 (Vof (W78 m)) (adm38 m) (outBlk38 (Vof (W78 m)) (adm38 m)) c
  | ⟨39, _⟩ => fun c => dat39 (Vof (W80 m)) (adm39 m) (outBlk39 (Vof (W80 m)) (adm39 m)) c
  | ⟨40, _⟩ => fun c => dat40 (Vof (W82 m)) (adm40 m) (outBlk40 (Vof (W82 m)) (adm40 m)) c
  | ⟨41, _⟩ => fun c => dat41 (Vof (W84 m)) (adm41 m) (outBlk41 (Vof (W84 m)) (adm41 m)) c
  | ⟨42, _⟩ => fun c => dat42 (Vof (W86 m)) (adm42 m) (outBlk42 (Vof (W86 m)) (adm42 m)) c
  | ⟨43, _⟩ => fun c => dat43 (Vof (W88 m)) (adm43 m) (outBlk43 (Vof (W88 m)) (adm43 m)) c
  | ⟨44, _⟩ => fun c => dat44 (Vof (W90 m)) (adm44 m) (outBlk44 (Vof (W90 m)) (adm44 m)) c
  | ⟨45, _⟩ => fun c => dat45 (Vof (W92 m)) (adm45 m) (outBlk45 (Vof (W92 m)) (adm45 m)) c
  | ⟨46, _⟩ => fun c => dat46 (Vof (W94 m)) (adm46 m) (outBlk46 (Vof (W94 m)) (adm46 m)) c
  | ⟨47, _⟩ => fun c => dat47 (Vof (W96 m)) (adm47 m) (outBlk47 (Vof (W96 m)) (adm47 m)) c
  | ⟨48, _⟩ => fun c => dat48 (Vof (W98 m)) (adm48 m) (outBlk48 (Vof (W98 m)) (adm48 m)) c
  | ⟨_ + 49, h⟩ => absurd h (Nat.not_lt.2 (Nat.le_add_left _ _))

end Cert.KernelIdeal.Hand

end
-- ==== Proof.KI.Args.lean ====
/-
  No segment writes an argument array: at every boundary each argument holds its launch contents.
-/
import proofs.«421643_j28415503630349_2_alg».proof.Proof.KI.Chain

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

variable (m : (ℓ : Loc nD τ sig) → Buf (Elt F) ℓ)

theorem W0_arg0 (c : Dev nD) : W0 m c main_arg0 = m ((c : Thread nD τ).loc main_arg0) := rfl
theorem W1_arg0 (c : Dev nD) : W1 m c main_arg0 = m ((c : Thread nD τ).loc main_arg0) :=
  (W1_of m c main_arg0 (by decide)).trans (W0_arg0 m c)
theorem W2_arg0 (c : Dev nD) : W2 m c main_arg0 = m ((c : Thread nD τ).loc main_arg0) :=
  (W2_of m c main_arg0 (by decide)).trans (W1_arg0 m c)
theorem W3_arg0 (c : Dev nD) : W3 m c main_arg0 = m ((c : Thread nD τ).loc main_arg0) :=
  (W3_of m c main_arg0 (by decide)).trans (W2_arg0 m c)
theorem W4_arg0 (c : Dev nD) : W4 m c main_arg0 = m ((c : Thread nD τ).loc main_arg0) :=
  (W4_of m c main_arg0 (by decide)).trans (W3_arg0 m c)
theorem W5_arg0 (c : Dev nD) : W5 m c main_arg0 = m ((c : Thread nD τ).loc main_arg0) :=
  (W5_of m c main_arg0 (by decide)).trans (W4_arg0 m c)
theorem W6_arg0 (c : Dev nD) : W6 m c main_arg0 = m ((c : Thread nD τ).loc main_arg0) :=
  (W6_of m c main_arg0 (by decide)).trans (W5_arg0 m c)
theorem W7_arg0 (c : Dev nD) : W7 m c main_arg0 = m ((c : Thread nD τ).loc main_arg0) :=
  (W7_of m c main_arg0 (by decide)).trans (W6_arg0 m c)
theorem W8_arg0 (c : Dev nD) : W8 m c main_arg0 = m ((c : Thread nD τ).loc main_arg0) :=
  (W8_of m c main_arg0 (by decide)).trans (W7_arg0 m c)
theorem W9_arg0 (c : Dev nD) : W9 m c main_arg0 = m ((c : Thread nD τ).loc main_arg0) :=
  (W9_of m c main_arg0 (by decide)).trans (W8_arg0 m c)
theorem W10_arg0 (c : Dev nD) : W10 m c main_arg0 = m ((c : Thread nD τ).loc main_arg0) :=
  (W10_of m c main_arg0 (by decide)).trans (W9_arg0 m c)
theorem W11_arg0 (c : Dev nD) : W11 m c main_arg0 = m ((c : Thread nD τ).loc main_arg0) :=
  (W11_of m c main_arg0 (by decide)).trans (W10_arg0 m c)
theorem W12_arg0 (c : Dev nD) : W12 m c main_arg0 = m ((c : Thread nD τ).loc main_arg0) :=
  (W12_of m c main_arg0 (by decide)).trans (W11_arg0 m c)
theorem W13_arg0 (c : Dev nD) : W13 m c main_arg0 = m ((c : Thread nD τ).loc main_arg0) :=
  (W13_of m c main_arg0 (by decide)).trans (W12_arg0 m c)
theorem W14_arg0 (c : Dev nD) : W14 m c main_arg0 = m ((c : Thread nD τ).loc main_arg0) :=
  (W14_of m c main_arg0 (by decide)).trans (W13_arg0 m c)
theorem W15_arg0 (c : Dev nD) : W15 m c main_arg0 = m ((c : Thread nD τ).loc main_arg0) :=
  (W15_of m c main_arg0 (by decide)).trans (W14_arg0 m c)
theorem W16_arg0 (c : Dev nD) : W16 m c main_arg0 = m ((c : Thread nD τ).loc main_arg0) :=
  (W16_of m c main_arg0 (by decide)).trans (W15_arg0 m c)
theorem W17_arg0 (c : Dev nD) : W17 m c main_arg0 = m ((c : Thread nD τ).loc main_arg0) :=
  (W17_of m c main_arg0 (by decide)).trans (W16_arg0 m c)
theorem W18_arg0 (c : Dev nD) : W18 m c main_arg0 = m ((c : Thread nD τ).loc main_arg0) :=
  (W18_of m c main_arg0 (by decide)).trans (W17_arg0 m c)
theorem W19_arg0 (c : Dev nD) : W19 m c main_arg0 = m ((c : Thread nD τ).loc main_arg0) :=
  (W19_of m c main_arg0 (by decide)).trans (W18_arg0 m c)
theorem W20_arg0 (c : Dev nD) : W20 m c main_arg0 = m ((c : Thread nD τ).loc main_arg0) :=
  (W20_of m c main_arg0 (by decide)).trans (W19_arg0 m c)
theorem W21_arg0 (c : Dev nD) : W21 m c main_arg0 = m ((c : Thread nD τ).loc main_arg0) :=
  (W21_of m c main_arg0 (by decide)).trans (W20_arg0 m c)
theorem W22_arg0 (c : Dev nD) : W22 m c main_arg0 = m ((c : Thread nD τ).loc main_arg0) :=
  (W22_of m c main_arg0 (by decide)).trans (W21_arg0 m c)
theorem W23_arg0 (c : Dev nD) : W23 m c main_arg0 = m ((c : Thread nD τ).loc main_arg0) :=
  (W23_of m c main_arg0 (by decide)).trans (W22_arg0 m c)
theorem W24_arg0 (c : Dev nD) : W24 m c main_arg0 = m ((c : Thread nD τ).loc main_arg0) :=
  (W24_of m c main_arg0 (by decide)).trans (W23_arg0 m c)
theorem W25_arg0 (c : Dev nD) : W25 m c main_arg0 = m ((c : Thread nD τ).loc main_arg0) :=
  (W25_of m c main_arg0 (by decide)).trans (W24_arg0 m c)
theorem W26_arg0 (c : Dev nD) : W26 m c main_arg0 = m ((c : Thread nD τ).loc main_arg0) :=
  (W26_of m c main_arg0 (by decide)).trans (W25_arg0 m c)
theorem W27_arg0 (c : Dev nD) : W27 m c main_arg0 = m ((c : Thread nD τ).loc main_arg0) :=
  (W27_of m c main_arg0 (by decide)).trans (W26_arg0 m c)
theorem W28_arg0 (c : Dev nD) : W28 m c main_arg0 = m ((c : Thread nD τ).loc main_arg0) :=
  (W28_of m c main_arg0 (by decide)).trans (W27_arg0 m c)
theorem W29_arg0 (c : Dev nD) : W29 m c main_arg0 = m ((c : Thread nD τ).loc main_arg0) :=
  (W29_of m c main_arg0 (by decide)).trans (W28_arg0 m c)
theorem W30_arg0 (c : Dev nD) : W30 m c main_arg0 = m ((c : Thread nD τ).loc main_arg0) :=
  (W30_of m c main_arg0 (by decide)).trans (W29_arg0 m c)
theorem W31_arg0 (c : Dev nD) : W31 m c main_arg0 = m ((c : Thread nD τ).loc main_arg0) :=
  (W31_of m c main_arg0 (by decide)).trans (W30_arg0 m c)
theorem W32_arg0 (c : Dev nD) : W32 m c main_arg0 = m ((c : Thread nD τ).loc main_arg0) :=
  (W32_of m c main_arg0 (by decide)).trans (W31_arg0 m c)
theorem W33_arg0 (c : Dev nD) : W33 m c main_arg0 = m ((c : Thread nD τ).loc main_arg0) :=
  (W33_of m c main_arg0 (by decide)).trans (W32_arg0 m c)
theorem W34_arg0 (c : Dev nD) : W34 m c main_arg0 = m ((c : Thread nD τ).loc main_arg0) :=
  (W34_of m c main_arg0 (by decide)).trans (W33_arg0 m c)
theorem W35_arg0 (c : Dev nD) : W35 m c main_arg0 = m ((c : Thread nD τ).loc main_arg0) :=
  (W35_of m c main_arg0 (by decide)).trans (W34_arg0 m c)
theorem W36_arg0 (c : Dev nD) : W36 m c main_arg0 = m ((c : Thread nD τ).loc main_arg0) :=
  (W36_of m c main_arg0 (by decide)).trans (W35_arg0 m c)
theorem W37_arg0 (c : Dev nD) : W37 m c main_arg0 = m ((c : Thread nD τ).loc main_arg0) :=
  (W37_of m c main_arg0 (by decide)).trans (W36_arg0 m c)
theorem W38_arg0 (c : Dev nD) : W38 m c main_arg0 = m ((c : Thread nD τ).loc main_arg0) :=
  (W38_of m c main_arg0 (by decide)).trans (W37_arg0 m c)
theorem W39_arg0 (c : Dev nD) : W39 m c main_arg0 = m ((c : Thread nD τ).loc main_arg0) :=
  (W39_of m c main_arg0 (by decide)).trans (W38_arg0 m c)
theorem W40_arg0 (c : Dev nD) : W40 m c main_arg0 = m ((c : Thread nD τ).loc main_arg0) :=
  (W40_of m c main_arg0 (by decide)).trans (W39_arg0 m c)
theorem W41_arg0 (c : Dev nD) : W41 m c main_arg0 = m ((c : Thread nD τ).loc main_arg0) :=
  (W41_of m c main_arg0 (by decide)).trans (W40_arg0 m c)
theorem W42_arg0 (c : Dev nD) : W42 m c main_arg0 = m ((c : Thread nD τ).loc main_arg0) :=
  (W42_of m c main_arg0 (by decide)).trans (W41_arg0 m c)
theorem W43_arg0 (c : Dev nD) : W43 m c main_arg0 = m ((c : Thread nD τ).loc main_arg0) :=
  (W43_of m c main_arg0 (by decide)).trans (W42_arg0 m c)
theorem W44_arg0 (c : Dev nD) : W44 m c main_arg0 = m ((c : Thread nD τ).loc main_arg0) :=
  (W44_of m c main_arg0 (by decide)).trans (W43_arg0 m c)
theorem W45_arg0 (c : Dev nD) : W45 m c main_arg0 = m ((c : Thread nD τ).loc main_arg0) :=
  (W45_of m c main_arg0 (by decide)).trans (W44_arg0 m c)
theorem W46_arg0 (c : Dev nD) : W46 m c main_arg0 = m ((c : Thread nD τ).loc main_arg0) :=
  (W46_of m c main_arg0 (by decide)).trans (W45_arg0 m c)
theorem W47_arg0 (c : Dev nD) : W47 m c main_arg0 = m ((c : Thread nD τ).loc main_arg0) :=
  (W47_of m c main_arg0 (by decide)).trans (W46_arg0 m c)
theorem W48_arg0 (c : Dev nD) : W48 m c main_arg0 = m ((c : Thread nD τ).loc main_arg0) :=
  (W48_of m c main_arg0 (by decide)).trans (W47_arg0 m c)
theorem W49_arg0 (c : Dev nD) : W49 m c main_arg0 = m ((c : Thread nD τ).loc main_arg0) :=
  (W49_of m c main_arg0 (by decide)).trans (W48_arg0 m c)
theorem W50_arg0 (c : Dev nD) : W50 m c main_arg0 = m ((c : Thread nD τ).loc main_arg0) :=
  (W50_of m c main_arg0 (by decide)).trans (W49_arg0 m c)
theorem W51_arg0 (c : Dev nD) : W51 m c main_arg0 = m ((c : Thread nD τ).loc main_arg0) :=
  (W51_of m c main_arg0 (by decide)).trans (W50_arg0 m c)
theorem W52_arg0 (c : Dev nD) : W52 m c main_arg0 = m ((c : Thread nD τ).loc main_arg0) :=
  (W52_of m c main_arg0 (by decide)).trans (W51_arg0 m c)
theorem W53_arg0 (c : Dev nD) : W53 m c main_arg0 = m ((c : Thread nD τ).loc main_arg0) :=
  (W53_of m c main_arg0 (by decide)).trans (W52_arg0 m c)
theorem W54_arg0 (c : Dev nD) : W54 m c main_arg0 = m ((c : Thread nD τ).loc main_arg0) :=
  (W54_of m c main_arg0 (by decide)).trans (W53_arg0 m c)
theorem W55_arg0 (c : Dev nD) : W55 m c main_arg0 = m ((c : Thread nD τ).loc main_arg0) :=
  (W55_of m c main_arg0 (by decide)).trans (W54_arg0 m c)
theorem W56_arg0 (c : Dev nD) : W56 m c main_arg0 = m ((c : Thread nD τ).loc main_arg0) :=
  (W56_of m c main_arg0 (by decide)).trans (W55_arg0 m c)
theorem W57_arg0 (c : Dev nD) : W57 m c main_arg0 = m ((c : Thread nD τ).loc main_arg0) :=
  (W57_of m c main_arg0 (by decide)).trans (W56_arg0 m c)
theorem W58_arg0 (c : Dev nD) : W58 m c main_arg0 = m ((c : Thread nD τ).loc main_arg0) :=
  (W58_of m c main_arg0 (by decide)).trans (W57_arg0 m c)
theorem W59_arg0 (c : Dev nD) : W59 m c main_arg0 = m ((c : Thread nD τ).loc main_arg0) :=
  (W59_of m c main_arg0 (by decide)).trans (W58_arg0 m c)
theorem W60_arg0 (c : Dev nD) : W60 m c main_arg0 = m ((c : Thread nD τ).loc main_arg0) :=
  (W60_of m c main_arg0 (by decide)).trans (W59_arg0 m c)
theorem W61_arg0 (c : Dev nD) : W61 m c main_arg0 = m ((c : Thread nD τ).loc main_arg0) :=
  (W61_of m c main_arg0 (by decide)).trans (W60_arg0 m c)
theorem W62_arg0 (c : Dev nD) : W62 m c main_arg0 = m ((c : Thread nD τ).loc main_arg0) :=
  (W62_of m c main_arg0 (by decide)).trans (W61_arg0 m c)
theorem W63_arg0 (c : Dev nD) : W63 m c main_arg0 = m ((c : Thread nD τ).loc main_arg0) :=
  (W63_of m c main_arg0 (by decide)).trans (W62_arg0 m c)
theorem W64_arg0 (c : Dev nD) : W64 m c main_arg0 = m ((c : Thread nD τ).loc main_arg0) :=
  (W64_of m c main_arg0 (by decide)).trans (W63_arg0 m c)
theorem W65_arg0 (c : Dev nD) : W65 m c main_arg0 = m ((c : Thread nD τ).loc main_arg0) :=
  (W65_of m c main_arg0 (by decide)).trans (W64_arg0 m c)
theorem W66_arg0 (c : Dev nD) : W66 m c main_arg0 = m ((c : Thread nD τ).loc main_arg0) :=
  (W66_of m c main_arg0 (by decide)).trans (W65_arg0 m c)
theorem W67_arg0 (c : Dev nD) : W67 m c main_arg0 = m ((c : Thread nD τ).loc main_arg0) :=
  (W67_of m c main_arg0 (by decide)).trans (W66_arg0 m c)
theorem W68_arg0 (c : Dev nD) : W68 m c main_arg0 = m ((c : Thread nD τ).loc main_arg0) :=
  (W68_of m c main_arg0 (by decide)).trans (W67_arg0 m c)
theorem W69_arg0 (c : Dev nD) : W69 m c main_arg0 = m ((c : Thread nD τ).loc main_arg0) :=
  (W69_of m c main_arg0 (by decide)).trans (W68_arg0 m c)
theorem W70_arg0 (c : Dev nD) : W70 m c main_arg0 = m ((c : Thread nD τ).loc main_arg0) :=
  (W70_of m c main_arg0 (by decide)).trans (W69_arg0 m c)
theorem W71_arg0 (c : Dev nD) : W71 m c main_arg0 = m ((c : Thread nD τ).loc main_arg0) :=
  (W71_of m c main_arg0 (by decide)).trans (W70_arg0 m c)
theorem W72_arg0 (c : Dev nD) : W72 m c main_arg0 = m ((c : Thread nD τ).loc main_arg0) :=
  (W72_of m c main_arg0 (by decide)).trans (W71_arg0 m c)
theorem W73_arg0 (c : Dev nD) : W73 m c main_arg0 = m ((c : Thread nD τ).loc main_arg0) :=
  (W73_of m c main_arg0 (by decide)).trans (W72_arg0 m c)
theorem W74_arg0 (c : Dev nD) : W74 m c main_arg0 = m ((c : Thread nD τ).loc main_arg0) :=
  (W74_of m c main_arg0 (by decide)).trans (W73_arg0 m c)
theorem W75_arg0 (c : Dev nD) : W75 m c main_arg0 = m ((c : Thread nD τ).loc main_arg0) :=
  (W75_of m c main_arg0 (by decide)).trans (W74_arg0 m c)
theorem W76_arg0 (c : Dev nD) : W76 m c main_arg0 = m ((c : Thread nD τ).loc main_arg0) :=
  (W76_of m c main_arg0 (by decide)).trans (W75_arg0 m c)
theorem W77_arg0 (c : Dev nD) : W77 m c main_arg0 = m ((c : Thread nD τ).loc main_arg0) :=
  (W77_of m c main_arg0 (by decide)).trans (W76_arg0 m c)
theorem W78_arg0 (c : Dev nD) : W78 m c main_arg0 = m ((c : Thread nD τ).loc main_arg0) :=
  (W78_of m c main_arg0 (by decide)).trans (W77_arg0 m c)
theorem W79_arg0 (c : Dev nD) : W79 m c main_arg0 = m ((c : Thread nD τ).loc main_arg0) :=
  (W79_of m c main_arg0 (by decide)).trans (W78_arg0 m c)
theorem W80_arg0 (c : Dev nD) : W80 m c main_arg0 = m ((c : Thread nD τ).loc main_arg0) :=
  (W80_of m c main_arg0 (by decide)).trans (W79_arg0 m c)
theorem W81_arg0 (c : Dev nD) : W81 m c main_arg0 = m ((c : Thread nD τ).loc main_arg0) :=
  (W81_of m c main_arg0 (by decide)).trans (W80_arg0 m c)
theorem W82_arg0 (c : Dev nD) : W82 m c main_arg0 = m ((c : Thread nD τ).loc main_arg0) :=
  (W82_of m c main_arg0 (by decide)).trans (W81_arg0 m c)
theorem W83_arg0 (c : Dev nD) : W83 m c main_arg0 = m ((c : Thread nD τ).loc main_arg0) :=
  (W83_of m c main_arg0 (by decide)).trans (W82_arg0 m c)
theorem W84_arg0 (c : Dev nD) : W84 m c main_arg0 = m ((c : Thread nD τ).loc main_arg0) :=
  (W84_of m c main_arg0 (by decide)).trans (W83_arg0 m c)
theorem W85_arg0 (c : Dev nD) : W85 m c main_arg0 = m ((c : Thread nD τ).loc main_arg0) :=
  (W85_of m c main_arg0 (by decide)).trans (W84_arg0 m c)
theorem W86_arg0 (c : Dev nD) : W86 m c main_arg0 = m ((c : Thread nD τ).loc main_arg0) :=
  (W86_of m c main_arg0 (by decide)).trans (W85_arg0 m c)
theorem W87_arg0 (c : Dev nD) : W87 m c main_arg0 = m ((c : Thread nD τ).loc main_arg0) :=
  (W87_of m c main_arg0 (by decide)).trans (W86_arg0 m c)
theorem W88_arg0 (c : Dev nD) : W88 m c main_arg0 = m ((c : Thread nD τ).loc main_arg0) :=
  (W88_of m c main_arg0 (by decide)).trans (W87_arg0 m c)
theorem W89_arg0 (c : Dev nD) : W89 m c main_arg0 = m ((c : Thread nD τ).loc main_arg0) :=
  (W89_of m c main_arg0 (by decide)).trans (W88_arg0 m c)
theorem W90_arg0 (c : Dev nD) : W90 m c main_arg0 = m ((c : Thread nD τ).loc main_arg0) :=
  (W90_of m c main_arg0 (by decide)).trans (W89_arg0 m c)
theorem W91_arg0 (c : Dev nD) : W91 m c main_arg0 = m ((c : Thread nD τ).loc main_arg0) :=
  (W91_of m c main_arg0 (by decide)).trans (W90_arg0 m c)
theorem W92_arg0 (c : Dev nD) : W92 m c main_arg0 = m ((c : Thread nD τ).loc main_arg0) :=
  (W92_of m c main_arg0 (by decide)).trans (W91_arg0 m c)
theorem W93_arg0 (c : Dev nD) : W93 m c main_arg0 = m ((c : Thread nD τ).loc main_arg0) :=
  (W93_of m c main_arg0 (by decide)).trans (W92_arg0 m c)
theorem W94_arg0 (c : Dev nD) : W94 m c main_arg0 = m ((c : Thread nD τ).loc main_arg0) :=
  (W94_of m c main_arg0 (by decide)).trans (W93_arg0 m c)
theorem W95_arg0 (c : Dev nD) : W95 m c main_arg0 = m ((c : Thread nD τ).loc main_arg0) :=
  (W95_of m c main_arg0 (by decide)).trans (W94_arg0 m c)
theorem W96_arg0 (c : Dev nD) : W96 m c main_arg0 = m ((c : Thread nD τ).loc main_arg0) :=
  (W96_of m c main_arg0 (by decide)).trans (W95_arg0 m c)
theorem W97_arg0 (c : Dev nD) : W97 m c main_arg0 = m ((c : Thread nD τ).loc main_arg0) :=
  (W97_of m c main_arg0 (by decide)).trans (W96_arg0 m c)
theorem W98_arg0 (c : Dev nD) : W98 m c main_arg0 = m ((c : Thread nD τ).loc main_arg0) :=
  (W98_of m c main_arg0 (by decide)).trans (W97_arg0 m c)
theorem W99_arg0 (c : Dev nD) : W99 m c main_arg0 = m ((c : Thread nD τ).loc main_arg0) :=
  (W99_of m c main_arg0 (by decide)).trans (W98_arg0 m c)
theorem W100_arg0 (c : Dev nD) : W100 m c main_arg0 = m ((c : Thread nD τ).loc main_arg0) :=
  (W100_of m c main_arg0 (by decide)).trans (W99_arg0 m c)
theorem W0_arg1 (c : Dev nD) : W0 m c main_arg1 = m ((c : Thread nD τ).loc main_arg1) := rfl
theorem W1_arg1 (c : Dev nD) : W1 m c main_arg1 = m ((c : Thread nD τ).loc main_arg1) :=
  (W1_of m c main_arg1 (by decide)).trans (W0_arg1 m c)
theorem W2_arg1 (c : Dev nD) : W2 m c main_arg1 = m ((c : Thread nD τ).loc main_arg1) :=
  (W2_of m c main_arg1 (by decide)).trans (W1_arg1 m c)
theorem W3_arg1 (c : Dev nD) : W3 m c main_arg1 = m ((c : Thread nD τ).loc main_arg1) :=
  (W3_of m c main_arg1 (by decide)).trans (W2_arg1 m c)
theorem W4_arg1 (c : Dev nD) : W4 m c main_arg1 = m ((c : Thread nD τ).loc main_arg1) :=
  (W4_of m c main_arg1 (by decide)).trans (W3_arg1 m c)
theorem W5_arg1 (c : Dev nD) : W5 m c main_arg1 = m ((c : Thread nD τ).loc main_arg1) :=
  (W5_of m c main_arg1 (by decide)).trans (W4_arg1 m c)
theorem W6_arg1 (c : Dev nD) : W6 m c main_arg1 = m ((c : Thread nD τ).loc main_arg1) :=
  (W6_of m c main_arg1 (by decide)).trans (W5_arg1 m c)
theorem W7_arg1 (c : Dev nD) : W7 m c main_arg1 = m ((c : Thread nD τ).loc main_arg1) :=
  (W7_of m c main_arg1 (by decide)).trans (W6_arg1 m c)
theorem W8_arg1 (c : Dev nD) : W8 m c main_arg1 = m ((c : Thread nD τ).loc main_arg1) :=
  (W8_of m c main_arg1 (by decide)).trans (W7_arg1 m c)
theorem W9_arg1 (c : Dev nD) : W9 m c main_arg1 = m ((c : Thread nD τ).loc main_arg1) :=
  (W9_of m c main_arg1 (by decide)).trans (W8_arg1 m c)
theorem W10_arg1 (c : Dev nD) : W10 m c main_arg1 = m ((c : Thread nD τ).loc main_arg1) :=
  (W10_of m c main_arg1 (by decide)).trans (W9_arg1 m c)
theorem W11_arg1 (c : Dev nD) : W11 m c main_arg1 = m ((c : Thread nD τ).loc main_arg1) :=
  (W11_of m c main_arg1 (by decide)).trans (W10_arg1 m c)
theorem W12_arg1 (c : Dev nD) : W12 m c main_arg1 = m ((c : Thread nD τ).loc main_arg1) :=
  (W12_of m c main_arg1 (by decide)).trans (W11_arg1 m c)
theorem W13_arg1 (c : Dev nD) : W13 m c main_arg1 = m ((c : Thread nD τ).loc main_arg1) :=
  (W13_of m c main_arg1 (by decide)).trans (W12_arg1 m c)
theorem W14_arg1 (c : Dev nD) : W14 m c main_arg1 = m ((c : Thread nD τ).loc main_arg1) :=
  (W14_of m c main_arg1 (by decide)).trans (W13_arg1 m c)
theorem W15_arg1 (c : Dev nD) : W15 m c main_arg1 = m ((c : Thread nD τ).loc main_arg1) :=
  (W15_of m c main_arg1 (by decide)).trans (W14_arg1 m c)
theorem W16_arg1 (c : Dev nD) : W16 m c main_arg1 = m ((c : Thread nD τ).loc main_arg1) :=
  (W16_of m c main_arg1 (by decide)).trans (W15_arg1 m c)
theorem W17_arg1 (c : Dev nD) : W17 m c main_arg1 = m ((c : Thread nD τ).loc main_arg1) :=
  (W17_of m c main_arg1 (by decide)).trans (W16_arg1 m c)
theorem W18_arg1 (c : Dev nD) : W18 m c main_arg1 = m ((c : Thread nD τ).loc main_arg1) :=
  (W18_of m c main_arg1 (by decide)).trans (W17_arg1 m c)
theorem W19_arg1 (c : Dev nD) : W19 m c main_arg1 = m ((c : Thread nD τ).loc main_arg1) :=
  (W19_of m c main_arg1 (by decide)).trans (W18_arg1 m c)
theorem W20_arg1 (c : Dev nD) : W20 m c main_arg1 = m ((c : Thread nD τ).loc main_arg1) :=
  (W20_of m c main_arg1 (by decide)).trans (W19_arg1 m c)
theorem W21_arg1 (c : Dev nD) : W21 m c main_arg1 = m ((c : Thread nD τ).loc main_arg1) :=
  (W21_of m c main_arg1 (by decide)).trans (W20_arg1 m c)
theorem W22_arg1 (c : Dev nD) : W22 m c main_arg1 = m ((c : Thread nD τ).loc main_arg1) :=
  (W22_of m c main_arg1 (by decide)).trans (W21_arg1 m c)
theorem W23_arg1 (c : Dev nD) : W23 m c main_arg1 = m ((c : Thread nD τ).loc main_arg1) :=
  (W23_of m c main_arg1 (by decide)).trans (W22_arg1 m c)
theorem W24_arg1 (c : Dev nD) : W24 m c main_arg1 = m ((c : Thread nD τ).loc main_arg1) :=
  (W24_of m c main_arg1 (by decide)).trans (W23_arg1 m c)
theorem W25_arg1 (c : Dev nD) : W25 m c main_arg1 = m ((c : Thread nD τ).loc main_arg1) :=
  (W25_of m c main_arg1 (by decide)).trans (W24_arg1 m c)
theorem W26_arg1 (c : Dev nD) : W26 m c main_arg1 = m ((c : Thread nD τ).loc main_arg1) :=
  (W26_of m c main_arg1 (by decide)).trans (W25_arg1 m c)
theorem W27_arg1 (c : Dev nD) : W27 m c main_arg1 = m ((c : Thread nD τ).loc main_arg1) :=
  (W27_of m c main_arg1 (by decide)).trans (W26_arg1 m c)
theorem W28_arg1 (c : Dev nD) : W28 m c main_arg1 = m ((c : Thread nD τ).loc main_arg1) :=
  (W28_of m c main_arg1 (by decide)).trans (W27_arg1 m c)
theorem W29_arg1 (c : Dev nD) : W29 m c main_arg1 = m ((c : Thread nD τ).loc main_arg1) :=
  (W29_of m c main_arg1 (by decide)).trans (W28_arg1 m c)
theorem W30_arg1 (c : Dev nD) : W30 m c main_arg1 = m ((c : Thread nD τ).loc main_arg1) :=
  (W30_of m c main_arg1 (by decide)).trans (W29_arg1 m c)
theorem W31_arg1 (c : Dev nD) : W31 m c main_arg1 = m ((c : Thread nD τ).loc main_arg1) :=
  (W31_of m c main_arg1 (by decide)).trans (W30_arg1 m c)
theorem W32_arg1 (c : Dev nD) : W32 m c main_arg1 = m ((c : Thread nD τ).loc main_arg1) :=
  (W32_of m c main_arg1 (by decide)).trans (W31_arg1 m c)
theorem W33_arg1 (c : Dev nD) : W33 m c main_arg1 = m ((c : Thread nD τ).loc main_arg1) :=
  (W33_of m c main_arg1 (by decide)).trans (W32_arg1 m c)
theorem W34_arg1 (c : Dev nD) : W34 m c main_arg1 = m ((c : Thread nD τ).loc main_arg1) :=
  (W34_of m c main_arg1 (by decide)).trans (W33_arg1 m c)
theorem W35_arg1 (c : Dev nD) : W35 m c main_arg1 = m ((c : Thread nD τ).loc main_arg1) :=
  (W35_of m c main_arg1 (by decide)).trans (W34_arg1 m c)
theorem W36_arg1 (c : Dev nD) : W36 m c main_arg1 = m ((c : Thread nD τ).loc main_arg1) :=
  (W36_of m c main_arg1 (by decide)).trans (W35_arg1 m c)
theorem W37_arg1 (c : Dev nD) : W37 m c main_arg1 = m ((c : Thread nD τ).loc main_arg1) :=
  (W37_of m c main_arg1 (by decide)).trans (W36_arg1 m c)
theorem W38_arg1 (c : Dev nD) : W38 m c main_arg1 = m ((c : Thread nD τ).loc main_arg1) :=
  (W38_of m c main_arg1 (by decide)).trans (W37_arg1 m c)
theorem W39_arg1 (c : Dev nD) : W39 m c main_arg1 = m ((c : Thread nD τ).loc main_arg1) :=
  (W39_of m c main_arg1 (by decide)).trans (W38_arg1 m c)
theorem W40_arg1 (c : Dev nD) : W40 m c main_arg1 = m ((c : Thread nD τ).loc main_arg1) :=
  (W40_of m c main_arg1 (by decide)).trans (W39_arg1 m c)
theorem W41_arg1 (c : Dev nD) : W41 m c main_arg1 = m ((c : Thread nD τ).loc main_arg1) :=
  (W41_of m c main_arg1 (by decide)).trans (W40_arg1 m c)
theorem W42_arg1 (c : Dev nD) : W42 m c main_arg1 = m ((c : Thread nD τ).loc main_arg1) :=
  (W42_of m c main_arg1 (by decide)).trans (W41_arg1 m c)
theorem W43_arg1 (c : Dev nD) : W43 m c main_arg1 = m ((c : Thread nD τ).loc main_arg1) :=
  (W43_of m c main_arg1 (by decide)).trans (W42_arg1 m c)
theorem W44_arg1 (c : Dev nD) : W44 m c main_arg1 = m ((c : Thread nD τ).loc main_arg1) :=
  (W44_of m c main_arg1 (by decide)).trans (W43_arg1 m c)
theorem W45_arg1 (c : Dev nD) : W45 m c main_arg1 = m ((c : Thread nD τ).loc main_arg1) :=
  (W45_of m c main_arg1 (by decide)).trans (W44_arg1 m c)
theorem W46_arg1 (c : Dev nD) : W46 m c main_arg1 = m ((c : Thread nD τ).loc main_arg1) :=
  (W46_of m c main_arg1 (by decide)).trans (W45_arg1 m c)
theorem W47_arg1 (c : Dev nD) : W47 m c main_arg1 = m ((c : Thread nD τ).loc main_arg1) :=
  (W47_of m c main_arg1 (by decide)).trans (W46_arg1 m c)
theorem W48_arg1 (c : Dev nD) : W48 m c main_arg1 = m ((c : Thread nD τ).loc main_arg1) :=
  (W48_of m c main_arg1 (by decide)).trans (W47_arg1 m c)
theorem W49_arg1 (c : Dev nD) : W49 m c main_arg1 = m ((c : Thread nD τ).loc main_arg1) :=
  (W49_of m c main_arg1 (by decide)).trans (W48_arg1 m c)
theorem W50_arg1 (c : Dev nD) : W50 m c main_arg1 = m ((c : Thread nD τ).loc main_arg1) :=
  (W50_of m c main_arg1 (by decide)).trans (W49_arg1 m c)
theorem W51_arg1 (c : Dev nD) : W51 m c main_arg1 = m ((c : Thread nD τ).loc main_arg1) :=
  (W51_of m c main_arg1 (by decide)).trans (W50_arg1 m c)
theorem W52_arg1 (c : Dev nD) : W52 m c main_arg1 = m ((c : Thread nD τ).loc main_arg1) :=
  (W52_of m c main_arg1 (by decide)).trans (W51_arg1 m c)
theorem W53_arg1 (c : Dev nD) : W53 m c main_arg1 = m ((c : Thread nD τ).loc main_arg1) :=
  (W53_of m c main_arg1 (by decide)).trans (W52_arg1 m c)
theorem W54_arg1 (c : Dev nD) : W54 m c main_arg1 = m ((c : Thread nD τ).loc main_arg1) :=
  (W54_of m c main_arg1 (by decide)).trans (W53_arg1 m c)
theorem W55_arg1 (c : Dev nD) : W55 m c main_arg1 = m ((c : Thread nD τ).loc main_arg1) :=
  (W55_of m c main_arg1 (by decide)).trans (W54_arg1 m c)
theorem W56_arg1 (c : Dev nD) : W56 m c main_arg1 = m ((c : Thread nD τ).loc main_arg1) :=
  (W56_of m c main_arg1 (by decide)).trans (W55_arg1 m c)
theorem W57_arg1 (c : Dev nD) : W57 m c main_arg1 = m ((c : Thread nD τ).loc main_arg1) :=
  (W57_of m c main_arg1 (by decide)).trans (W56_arg1 m c)
theorem W58_arg1 (c : Dev nD) : W58 m c main_arg1 = m ((c : Thread nD τ).loc main_arg1) :=
  (W58_of m c main_arg1 (by decide)).trans (W57_arg1 m c)
theorem W59_arg1 (c : Dev nD) : W59 m c main_arg1 = m ((c : Thread nD τ).loc main_arg1) :=
  (W59_of m c main_arg1 (by decide)).trans (W58_arg1 m c)
theorem W60_arg1 (c : Dev nD) : W60 m c main_arg1 = m ((c : Thread nD τ).loc main_arg1) :=
  (W60_of m c main_arg1 (by decide)).trans (W59_arg1 m c)
theorem W61_arg1 (c : Dev nD) : W61 m c main_arg1 = m ((c : Thread nD τ).loc main_arg1) :=
  (W61_of m c main_arg1 (by decide)).trans (W60_arg1 m c)
theorem W62_arg1 (c : Dev nD) : W62 m c main_arg1 = m ((c : Thread nD τ).loc main_arg1) :=
  (W62_of m c main_arg1 (by decide)).trans (W61_arg1 m c)
theorem W63_arg1 (c : Dev nD) : W63 m c main_arg1 = m ((c : Thread nD τ).loc main_arg1) :=
  (W63_of m c main_arg1 (by decide)).trans (W62_arg1 m c)
theorem W64_arg1 (c : Dev nD) : W64 m c main_arg1 = m ((c : Thread nD τ).loc main_arg1) :=
  (W64_of m c main_arg1 (by decide)).trans (W63_arg1 m c)
theorem W65_arg1 (c : Dev nD) : W65 m c main_arg1 = m ((c : Thread nD τ).loc main_arg1) :=
  (W65_of m c main_arg1 (by decide)).trans (W64_arg1 m c)
theorem W66_arg1 (c : Dev nD) : W66 m c main_arg1 = m ((c : Thread nD τ).loc main_arg1) :=
  (W66_of m c main_arg1 (by decide)).trans (W65_arg1 m c)
theorem W67_arg1 (c : Dev nD) : W67 m c main_arg1 = m ((c : Thread nD τ).loc main_arg1) :=
  (W67_of m c main_arg1 (by decide)).trans (W66_arg1 m c)
theorem W68_arg1 (c : Dev nD) : W68 m c main_arg1 = m ((c : Thread nD τ).loc main_arg1) :=
  (W68_of m c main_arg1 (by decide)).trans (W67_arg1 m c)
theorem W69_arg1 (c : Dev nD) : W69 m c main_arg1 = m ((c : Thread nD τ).loc main_arg1) :=
  (W69_of m c main_arg1 (by decide)).trans (W68_arg1 m c)
theorem W70_arg1 (c : Dev nD) : W70 m c main_arg1 = m ((c : Thread nD τ).loc main_arg1) :=
  (W70_of m c main_arg1 (by decide)).trans (W69_arg1 m c)
theorem W71_arg1 (c : Dev nD) : W71 m c main_arg1 = m ((c : Thread nD τ).loc main_arg1) :=
  (W71_of m c main_arg1 (by decide)).trans (W70_arg1 m c)
theorem W72_arg1 (c : Dev nD) : W72 m c main_arg1 = m ((c : Thread nD τ).loc main_arg1) :=
  (W72_of m c main_arg1 (by decide)).trans (W71_arg1 m c)
theorem W73_arg1 (c : Dev nD) : W73 m c main_arg1 = m ((c : Thread nD τ).loc main_arg1) :=
  (W73_of m c main_arg1 (by decide)).trans (W72_arg1 m c)
theorem W74_arg1 (c : Dev nD) : W74 m c main_arg1 = m ((c : Thread nD τ).loc main_arg1) :=
  (W74_of m c main_arg1 (by decide)).trans (W73_arg1 m c)
theorem W75_arg1 (c : Dev nD) : W75 m c main_arg1 = m ((c : Thread nD τ).loc main_arg1) :=
  (W75_of m c main_arg1 (by decide)).trans (W74_arg1 m c)
theorem W76_arg1 (c : Dev nD) : W76 m c main_arg1 = m ((c : Thread nD τ).loc main_arg1) :=
  (W76_of m c main_arg1 (by decide)).trans (W75_arg1 m c)
theorem W77_arg1 (c : Dev nD) : W77 m c main_arg1 = m ((c : Thread nD τ).loc main_arg1) :=
  (W77_of m c main_arg1 (by decide)).trans (W76_arg1 m c)
theorem W78_arg1 (c : Dev nD) : W78 m c main_arg1 = m ((c : Thread nD τ).loc main_arg1) :=
  (W78_of m c main_arg1 (by decide)).trans (W77_arg1 m c)
theorem W79_arg1 (c : Dev nD) : W79 m c main_arg1 = m ((c : Thread nD τ).loc main_arg1) :=
  (W79_of m c main_arg1 (by decide)).trans (W78_arg1 m c)
theorem W80_arg1 (c : Dev nD) : W80 m c main_arg1 = m ((c : Thread nD τ).loc main_arg1) :=
  (W80_of m c main_arg1 (by decide)).trans (W79_arg1 m c)
theorem W81_arg1 (c : Dev nD) : W81 m c main_arg1 = m ((c : Thread nD τ).loc main_arg1) :=
  (W81_of m c main_arg1 (by decide)).trans (W80_arg1 m c)
theorem W82_arg1 (c : Dev nD) : W82 m c main_arg1 = m ((c : Thread nD τ).loc main_arg1) :=
  (W82_of m c main_arg1 (by decide)).trans (W81_arg1 m c)
theorem W83_arg1 (c : Dev nD) : W83 m c main_arg1 = m ((c : Thread nD τ).loc main_arg1) :=
  (W83_of m c main_arg1 (by decide)).trans (W82_arg1 m c)
theorem W84_arg1 (c : Dev nD) : W84 m c main_arg1 = m ((c : Thread nD τ).loc main_arg1) :=
  (W84_of m c main_arg1 (by decide)).trans (W83_arg1 m c)
theorem W85_arg1 (c : Dev nD) : W85 m c main_arg1 = m ((c : Thread nD τ).loc main_arg1) :=
  (W85_of m c main_arg1 (by decide)).trans (W84_arg1 m c)
theorem W86_arg1 (c : Dev nD) : W86 m c main_arg1 = m ((c : Thread nD τ).loc main_arg1) :=
  (W86_of m c main_arg1 (by decide)).trans (W85_arg1 m c)
theorem W87_arg1 (c : Dev nD) : W87 m c main_arg1 = m ((c : Thread nD τ).loc main_arg1) :=
  (W87_of m c main_arg1 (by decide)).trans (W86_arg1 m c)
theorem W88_arg1 (c : Dev nD) : W88 m c main_arg1 = m ((c : Thread nD τ).loc main_arg1) :=
  (W88_of m c main_arg1 (by decide)).trans (W87_arg1 m c)
theorem W89_arg1 (c : Dev nD) : W89 m c main_arg1 = m ((c : Thread nD τ).loc main_arg1) :=
  (W89_of m c main_arg1 (by decide)).trans (W88_arg1 m c)
theorem W90_arg1 (c : Dev nD) : W90 m c main_arg1 = m ((c : Thread nD τ).loc main_arg1) :=
  (W90_of m c main_arg1 (by decide)).trans (W89_arg1 m c)
theorem W91_arg1 (c : Dev nD) : W91 m c main_arg1 = m ((c : Thread nD τ).loc main_arg1) :=
  (W91_of m c main_arg1 (by decide)).trans (W90_arg1 m c)
theorem W92_arg1 (c : Dev nD) : W92 m c main_arg1 = m ((c : Thread nD τ).loc main_arg1) :=
  (W92_of m c main_arg1 (by decide)).trans (W91_arg1 m c)
theorem W93_arg1 (c : Dev nD) : W93 m c main_arg1 = m ((c : Thread nD τ).loc main_arg1) :=
  (W93_of m c main_arg1 (by decide)).trans (W92_arg1 m c)
theorem W94_arg1 (c : Dev nD) : W94 m c main_arg1 = m ((c : Thread nD τ).loc main_arg1) :=
  (W94_of m c main_arg1 (by decide)).trans (W93_arg1 m c)
theorem W95_arg1 (c : Dev nD) : W95 m c main_arg1 = m ((c : Thread nD τ).loc main_arg1) :=
  (W95_of m c main_arg1 (by decide)).trans (W94_arg1 m c)
theorem W96_arg1 (c : Dev nD) : W96 m c main_arg1 = m ((c : Thread nD τ).loc main_arg1) :=
  (W96_of m c main_arg1 (by decide)).trans (W95_arg1 m c)
theorem W97_arg1 (c : Dev nD) : W97 m c main_arg1 = m ((c : Thread nD τ).loc main_arg1) :=
  (W97_of m c main_arg1 (by decide)).trans (W96_arg1 m c)
theorem W98_arg1 (c : Dev nD) : W98 m c main_arg1 = m ((c : Thread nD τ).loc main_arg1) :=
  (W98_of m c main_arg1 (by decide)).trans (W97_arg1 m c)
theorem W99_arg1 (c : Dev nD) : W99 m c main_arg1 = m ((c : Thread nD τ).loc main_arg1) :=
  (W99_of m c main_arg1 (by decide)).trans (W98_arg1 m c)
theorem W100_arg1 (c : Dev nD) : W100 m c main_arg1 = m ((c : Thread nD τ).loc main_arg1) :=
  (W100_of m c main_arg1 (by decide)).trans (W99_arg1 m c)
theorem W0_arg2 (c : Dev nD) : W0 m c main_arg2 = m ((c : Thread nD τ).loc main_arg2) := rfl
theorem W1_arg2 (c : Dev nD) : W1 m c main_arg2 = m ((c : Thread nD τ).loc main_arg2) :=
  (W1_of m c main_arg2 (by decide)).trans (W0_arg2 m c)
theorem W2_arg2 (c : Dev nD) : W2 m c main_arg2 = m ((c : Thread nD τ).loc main_arg2) :=
  (W2_of m c main_arg2 (by decide)).trans (W1_arg2 m c)
theorem W3_arg2 (c : Dev nD) : W3 m c main_arg2 = m ((c : Thread nD τ).loc main_arg2) :=
  (W3_of m c main_arg2 (by decide)).trans (W2_arg2 m c)
theorem W4_arg2 (c : Dev nD) : W4 m c main_arg2 = m ((c : Thread nD τ).loc main_arg2) :=
  (W4_of m c main_arg2 (by decide)).trans (W3_arg2 m c)
theorem W5_arg2 (c : Dev nD) : W5 m c main_arg2 = m ((c : Thread nD τ).loc main_arg2) :=
  (W5_of m c main_arg2 (by decide)).trans (W4_arg2 m c)
theorem W6_arg2 (c : Dev nD) : W6 m c main_arg2 = m ((c : Thread nD τ).loc main_arg2) :=
  (W6_of m c main_arg2 (by decide)).trans (W5_arg2 m c)
theorem W7_arg2 (c : Dev nD) : W7 m c main_arg2 = m ((c : Thread nD τ).loc main_arg2) :=
  (W7_of m c main_arg2 (by decide)).trans (W6_arg2 m c)
theorem W8_arg2 (c : Dev nD) : W8 m c main_arg2 = m ((c : Thread nD τ).loc main_arg2) :=
  (W8_of m c main_arg2 (by decide)).trans (W7_arg2 m c)
theorem W9_arg2 (c : Dev nD) : W9 m c main_arg2 = m ((c : Thread nD τ).loc main_arg2) :=
  (W9_of m c main_arg2 (by decide)).trans (W8_arg2 m c)
theorem W10_arg2 (c : Dev nD) : W10 m c main_arg2 = m ((c : Thread nD τ).loc main_arg2) :=
  (W10_of m c main_arg2 (by decide)).trans (W9_arg2 m c)
theorem W11_arg2 (c : Dev nD) : W11 m c main_arg2 = m ((c : Thread nD τ).loc main_arg2) :=
  (W11_of m c main_arg2 (by decide)).trans (W10_arg2 m c)
theorem W12_arg2 (c : Dev nD) : W12 m c main_arg2 = m ((c : Thread nD τ).loc main_arg2) :=
  (W12_of m c main_arg2 (by decide)).trans (W11_arg2 m c)
theorem W13_arg2 (c : Dev nD) : W13 m c main_arg2 = m ((c : Thread nD τ).loc main_arg2) :=
  (W13_of m c main_arg2 (by decide)).trans (W12_arg2 m c)
theorem W14_arg2 (c : Dev nD) : W14 m c main_arg2 = m ((c : Thread nD τ).loc main_arg2) :=
  (W14_of m c main_arg2 (by decide)).trans (W13_arg2 m c)
theorem W15_arg2 (c : Dev nD) : W15 m c main_arg2 = m ((c : Thread nD τ).loc main_arg2) :=
  (W15_of m c main_arg2 (by decide)).trans (W14_arg2 m c)
theorem W16_arg2 (c : Dev nD) : W16 m c main_arg2 = m ((c : Thread nD τ).loc main_arg2) :=
  (W16_of m c main_arg2 (by decide)).trans (W15_arg2 m c)
theorem W17_arg2 (c : Dev nD) : W17 m c main_arg2 = m ((c : Thread nD τ).loc main_arg2) :=
  (W17_of m c main_arg2 (by decide)).trans (W16_arg2 m c)
theorem W18_arg2 (c : Dev nD) : W18 m c main_arg2 = m ((c : Thread nD τ).loc main_arg2) :=
  (W18_of m c main_arg2 (by decide)).trans (W17_arg2 m c)
theorem W19_arg2 (c : Dev nD) : W19 m c main_arg2 = m ((c : Thread nD τ).loc main_arg2) :=
  (W19_of m c main_arg2 (by decide)).trans (W18_arg2 m c)
theorem W20_arg2 (c : Dev nD) : W20 m c main_arg2 = m ((c : Thread nD τ).loc main_arg2) :=
  (W20_of m c main_arg2 (by decide)).trans (W19_arg2 m c)
theorem W21_arg2 (c : Dev nD) : W21 m c main_arg2 = m ((c : Thread nD τ).loc main_arg2) :=
  (W21_of m c main_arg2 (by decide)).trans (W20_arg2 m c)
theorem W22_arg2 (c : Dev nD) : W22 m c main_arg2 = m ((c : Thread nD τ).loc main_arg2) :=
  (W22_of m c main_arg2 (by decide)).trans (W21_arg2 m c)
theorem W23_arg2 (c : Dev nD) : W23 m c main_arg2 = m ((c : Thread nD τ).loc main_arg2) :=
  (W23_of m c main_arg2 (by decide)).trans (W22_arg2 m c)
theorem W24_arg2 (c : Dev nD) : W24 m c main_arg2 = m ((c : Thread nD τ).loc main_arg2) :=
  (W24_of m c main_arg2 (by decide)).trans (W23_arg2 m c)
theorem W25_arg2 (c : Dev nD) : W25 m c main_arg2 = m ((c : Thread nD τ).loc main_arg2) :=
  (W25_of m c main_arg2 (by decide)).trans (W24_arg2 m c)
theorem W26_arg2 (c : Dev nD) : W26 m c main_arg2 = m ((c : Thread nD τ).loc main_arg2) :=
  (W26_of m c main_arg2 (by decide)).trans (W25_arg2 m c)
theorem W27_arg2 (c : Dev nD) : W27 m c main_arg2 = m ((c : Thread nD τ).loc main_arg2) :=
  (W27_of m c main_arg2 (by decide)).trans (W26_arg2 m c)
theorem W28_arg2 (c : Dev nD) : W28 m c main_arg2 = m ((c : Thread nD τ).loc main_arg2) :=
  (W28_of m c main_arg2 (by decide)).trans (W27_arg2 m c)
theorem W29_arg2 (c : Dev nD) : W29 m c main_arg2 = m ((c : Thread nD τ).loc main_arg2) :=
  (W29_of m c main_arg2 (by decide)).trans (W28_arg2 m c)
theorem W30_arg2 (c : Dev nD) : W30 m c main_arg2 = m ((c : Thread nD τ).loc main_arg2) :=
  (W30_of m c main_arg2 (by decide)).trans (W29_arg2 m c)
theorem W31_arg2 (c : Dev nD) : W31 m c main_arg2 = m ((c : Thread nD τ).loc main_arg2) :=
  (W31_of m c main_arg2 (by decide)).trans (W30_arg2 m c)
theorem W32_arg2 (c : Dev nD) : W32 m c main_arg2 = m ((c : Thread nD τ).loc main_arg2) :=
  (W32_of m c main_arg2 (by decide)).trans (W31_arg2 m c)
theorem W33_arg2 (c : Dev nD) : W33 m c main_arg2 = m ((c : Thread nD τ).loc main_arg2) :=
  (W33_of m c main_arg2 (by decide)).trans (W32_arg2 m c)
theorem W34_arg2 (c : Dev nD) : W34 m c main_arg2 = m ((c : Thread nD τ).loc main_arg2) :=
  (W34_of m c main_arg2 (by decide)).trans (W33_arg2 m c)
theorem W35_arg2 (c : Dev nD) : W35 m c main_arg2 = m ((c : Thread nD τ).loc main_arg2) :=
  (W35_of m c main_arg2 (by decide)).trans (W34_arg2 m c)
theorem W36_arg2 (c : Dev nD) : W36 m c main_arg2 = m ((c : Thread nD τ).loc main_arg2) :=
  (W36_of m c main_arg2 (by decide)).trans (W35_arg2 m c)
theorem W37_arg2 (c : Dev nD) : W37 m c main_arg2 = m ((c : Thread nD τ).loc main_arg2) :=
  (W37_of m c main_arg2 (by decide)).trans (W36_arg2 m c)
theorem W38_arg2 (c : Dev nD) : W38 m c main_arg2 = m ((c : Thread nD τ).loc main_arg2) :=
  (W38_of m c main_arg2 (by decide)).trans (W37_arg2 m c)
theorem W39_arg2 (c : Dev nD) : W39 m c main_arg2 = m ((c : Thread nD τ).loc main_arg2) :=
  (W39_of m c main_arg2 (by decide)).trans (W38_arg2 m c)
theorem W40_arg2 (c : Dev nD) : W40 m c main_arg2 = m ((c : Thread nD τ).loc main_arg2) :=
  (W40_of m c main_arg2 (by decide)).trans (W39_arg2 m c)
theorem W41_arg2 (c : Dev nD) : W41 m c main_arg2 = m ((c : Thread nD τ).loc main_arg2) :=
  (W41_of m c main_arg2 (by decide)).trans (W40_arg2 m c)
theorem W42_arg2 (c : Dev nD) : W42 m c main_arg2 = m ((c : Thread nD τ).loc main_arg2) :=
  (W42_of m c main_arg2 (by decide)).trans (W41_arg2 m c)
theorem W43_arg2 (c : Dev nD) : W43 m c main_arg2 = m ((c : Thread nD τ).loc main_arg2) :=
  (W43_of m c main_arg2 (by decide)).trans (W42_arg2 m c)
theorem W44_arg2 (c : Dev nD) : W44 m c main_arg2 = m ((c : Thread nD τ).loc main_arg2) :=
  (W44_of m c main_arg2 (by decide)).trans (W43_arg2 m c)
theorem W45_arg2 (c : Dev nD) : W45 m c main_arg2 = m ((c : Thread nD τ).loc main_arg2) :=
  (W45_of m c main_arg2 (by decide)).trans (W44_arg2 m c)
theorem W46_arg2 (c : Dev nD) : W46 m c main_arg2 = m ((c : Thread nD τ).loc main_arg2) :=
  (W46_of m c main_arg2 (by decide)).trans (W45_arg2 m c)
theorem W47_arg2 (c : Dev nD) : W47 m c main_arg2 = m ((c : Thread nD τ).loc main_arg2) :=
  (W47_of m c main_arg2 (by decide)).trans (W46_arg2 m c)
theorem W48_arg2 (c : Dev nD) : W48 m c main_arg2 = m ((c : Thread nD τ).loc main_arg2) :=
  (W48_of m c main_arg2 (by decide)).trans (W47_arg2 m c)
theorem W49_arg2 (c : Dev nD) : W49 m c main_arg2 = m ((c : Thread nD τ).loc main_arg2) :=
  (W49_of m c main_arg2 (by decide)).trans (W48_arg2 m c)
theorem W50_arg2 (c : Dev nD) : W50 m c main_arg2 = m ((c : Thread nD τ).loc main_arg2) :=
  (W50_of m c main_arg2 (by decide)).trans (W49_arg2 m c)
theorem W51_arg2 (c : Dev nD) : W51 m c main_arg2 = m ((c : Thread nD τ).loc main_arg2) :=
  (W51_of m c main_arg2 (by decide)).trans (W50_arg2 m c)
theorem W52_arg2 (c : Dev nD) : W52 m c main_arg2 = m ((c : Thread nD τ).loc main_arg2) :=
  (W52_of m c main_arg2 (by decide)).trans (W51_arg2 m c)
theorem W53_arg2 (c : Dev nD) : W53 m c main_arg2 = m ((c : Thread nD τ).loc main_arg2) :=
  (W53_of m c main_arg2 (by decide)).trans (W52_arg2 m c)
theorem W54_arg2 (c : Dev nD) : W54 m c main_arg2 = m ((c : Thread nD τ).loc main_arg2) :=
  (W54_of m c main_arg2 (by decide)).trans (W53_arg2 m c)
theorem W55_arg2 (c : Dev nD) : W55 m c main_arg2 = m ((c : Thread nD τ).loc main_arg2) :=
  (W55_of m c main_arg2 (by decide)).trans (W54_arg2 m c)
theorem W56_arg2 (c : Dev nD) : W56 m c main_arg2 = m ((c : Thread nD τ).loc main_arg2) :=
  (W56_of m c main_arg2 (by decide)).trans (W55_arg2 m c)
theorem W57_arg2 (c : Dev nD) : W57 m c main_arg2 = m ((c : Thread nD τ).loc main_arg2) :=
  (W57_of m c main_arg2 (by decide)).trans (W56_arg2 m c)
theorem W58_arg2 (c : Dev nD) : W58 m c main_arg2 = m ((c : Thread nD τ).loc main_arg2) :=
  (W58_of m c main_arg2 (by decide)).trans (W57_arg2 m c)
theorem W59_arg2 (c : Dev nD) : W59 m c main_arg2 = m ((c : Thread nD τ).loc main_arg2) :=
  (W59_of m c main_arg2 (by decide)).trans (W58_arg2 m c)
theorem W60_arg2 (c : Dev nD) : W60 m c main_arg2 = m ((c : Thread nD τ).loc main_arg2) :=
  (W60_of m c main_arg2 (by decide)).trans (W59_arg2 m c)
theorem W61_arg2 (c : Dev nD) : W61 m c main_arg2 = m ((c : Thread nD τ).loc main_arg2) :=
  (W61_of m c main_arg2 (by decide)).trans (W60_arg2 m c)
theorem W62_arg2 (c : Dev nD) : W62 m c main_arg2 = m ((c : Thread nD τ).loc main_arg2) :=
  (W62_of m c main_arg2 (by decide)).trans (W61_arg2 m c)
theorem W63_arg2 (c : Dev nD) : W63 m c main_arg2 = m ((c : Thread nD τ).loc main_arg2) :=
  (W63_of m c main_arg2 (by decide)).trans (W62_arg2 m c)
theorem W64_arg2 (c : Dev nD) : W64 m c main_arg2 = m ((c : Thread nD τ).loc main_arg2) :=
  (W64_of m c main_arg2 (by decide)).trans (W63_arg2 m c)
theorem W65_arg2 (c : Dev nD) : W65 m c main_arg2 = m ((c : Thread nD τ).loc main_arg2) :=
  (W65_of m c main_arg2 (by decide)).trans (W64_arg2 m c)
theorem W66_arg2 (c : Dev nD) : W66 m c main_arg2 = m ((c : Thread nD τ).loc main_arg2) :=
  (W66_of m c main_arg2 (by decide)).trans (W65_arg2 m c)
theorem W67_arg2 (c : Dev nD) : W67 m c main_arg2 = m ((c : Thread nD τ).loc main_arg2) :=
  (W67_of m c main_arg2 (by decide)).trans (W66_arg2 m c)
theorem W68_arg2 (c : Dev nD) : W68 m c main_arg2 = m ((c : Thread nD τ).loc main_arg2) :=
  (W68_of m c main_arg2 (by decide)).trans (W67_arg2 m c)
theorem W69_arg2 (c : Dev nD) : W69 m c main_arg2 = m ((c : Thread nD τ).loc main_arg2) :=
  (W69_of m c main_arg2 (by decide)).trans (W68_arg2 m c)
theorem W70_arg2 (c : Dev nD) : W70 m c main_arg2 = m ((c : Thread nD τ).loc main_arg2) :=
  (W70_of m c main_arg2 (by decide)).trans (W69_arg2 m c)
theorem W71_arg2 (c : Dev nD) : W71 m c main_arg2 = m ((c : Thread nD τ).loc main_arg2) :=
  (W71_of m c main_arg2 (by decide)).trans (W70_arg2 m c)
theorem W72_arg2 (c : Dev nD) : W72 m c main_arg2 = m ((c : Thread nD τ).loc main_arg2) :=
  (W72_of m c main_arg2 (by decide)).trans (W71_arg2 m c)
theorem W73_arg2 (c : Dev nD) : W73 m c main_arg2 = m ((c : Thread nD τ).loc main_arg2) :=
  (W73_of m c main_arg2 (by decide)).trans (W72_arg2 m c)
theorem W74_arg2 (c : Dev nD) : W74 m c main_arg2 = m ((c : Thread nD τ).loc main_arg2) :=
  (W74_of m c main_arg2 (by decide)).trans (W73_arg2 m c)
theorem W75_arg2 (c : Dev nD) : W75 m c main_arg2 = m ((c : Thread nD τ).loc main_arg2) :=
  (W75_of m c main_arg2 (by decide)).trans (W74_arg2 m c)
theorem W76_arg2 (c : Dev nD) : W76 m c main_arg2 = m ((c : Thread nD τ).loc main_arg2) :=
  (W76_of m c main_arg2 (by decide)).trans (W75_arg2 m c)
theorem W77_arg2 (c : Dev nD) : W77 m c main_arg2 = m ((c : Thread nD τ).loc main_arg2) :=
  (W77_of m c main_arg2 (by decide)).trans (W76_arg2 m c)
theorem W78_arg2 (c : Dev nD) : W78 m c main_arg2 = m ((c : Thread nD τ).loc main_arg2) :=
  (W78_of m c main_arg2 (by decide)).trans (W77_arg2 m c)
theorem W79_arg2 (c : Dev nD) : W79 m c main_arg2 = m ((c : Thread nD τ).loc main_arg2) :=
  (W79_of m c main_arg2 (by decide)).trans (W78_arg2 m c)
theorem W80_arg2 (c : Dev nD) : W80 m c main_arg2 = m ((c : Thread nD τ).loc main_arg2) :=
  (W80_of m c main_arg2 (by decide)).trans (W79_arg2 m c)
theorem W81_arg2 (c : Dev nD) : W81 m c main_arg2 = m ((c : Thread nD τ).loc main_arg2) :=
  (W81_of m c main_arg2 (by decide)).trans (W80_arg2 m c)
theorem W82_arg2 (c : Dev nD) : W82 m c main_arg2 = m ((c : Thread nD τ).loc main_arg2) :=
  (W82_of m c main_arg2 (by decide)).trans (W81_arg2 m c)
theorem W83_arg2 (c : Dev nD) : W83 m c main_arg2 = m ((c : Thread nD τ).loc main_arg2) :=
  (W83_of m c main_arg2 (by decide)).trans (W82_arg2 m c)
theorem W84_arg2 (c : Dev nD) : W84 m c main_arg2 = m ((c : Thread nD τ).loc main_arg2) :=
  (W84_of m c main_arg2 (by decide)).trans (W83_arg2 m c)
theorem W85_arg2 (c : Dev nD) : W85 m c main_arg2 = m ((c : Thread nD τ).loc main_arg2) :=
  (W85_of m c main_arg2 (by decide)).trans (W84_arg2 m c)
theorem W86_arg2 (c : Dev nD) : W86 m c main_arg2 = m ((c : Thread nD τ).loc main_arg2) :=
  (W86_of m c main_arg2 (by decide)).trans (W85_arg2 m c)
theorem W87_arg2 (c : Dev nD) : W87 m c main_arg2 = m ((c : Thread nD τ).loc main_arg2) :=
  (W87_of m c main_arg2 (by decide)).trans (W86_arg2 m c)
theorem W88_arg2 (c : Dev nD) : W88 m c main_arg2 = m ((c : Thread nD τ).loc main_arg2) :=
  (W88_of m c main_arg2 (by decide)).trans (W87_arg2 m c)
theorem W89_arg2 (c : Dev nD) : W89 m c main_arg2 = m ((c : Thread nD τ).loc main_arg2) :=
  (W89_of m c main_arg2 (by decide)).trans (W88_arg2 m c)
theorem W90_arg2 (c : Dev nD) : W90 m c main_arg2 = m ((c : Thread nD τ).loc main_arg2) :=
  (W90_of m c main_arg2 (by decide)).trans (W89_arg2 m c)
theorem W91_arg2 (c : Dev nD) : W91 m c main_arg2 = m ((c : Thread nD τ).loc main_arg2) :=
  (W91_of m c main_arg2 (by decide)).trans (W90_arg2 m c)
theorem W92_arg2 (c : Dev nD) : W92 m c main_arg2 = m ((c : Thread nD τ).loc main_arg2) :=
  (W92_of m c main_arg2 (by decide)).trans (W91_arg2 m c)
theorem W93_arg2 (c : Dev nD) : W93 m c main_arg2 = m ((c : Thread nD τ).loc main_arg2) :=
  (W93_of m c main_arg2 (by decide)).trans (W92_arg2 m c)
theorem W94_arg2 (c : Dev nD) : W94 m c main_arg2 = m ((c : Thread nD τ).loc main_arg2) :=
  (W94_of m c main_arg2 (by decide)).trans (W93_arg2 m c)
theorem W95_arg2 (c : Dev nD) : W95 m c main_arg2 = m ((c : Thread nD τ).loc main_arg2) :=
  (W95_of m c main_arg2 (by decide)).trans (W94_arg2 m c)
theorem W96_arg2 (c : Dev nD) : W96 m c main_arg2 = m ((c : Thread nD τ).loc main_arg2) :=
  (W96_of m c main_arg2 (by decide)).trans (W95_arg2 m c)
theorem W97_arg2 (c : Dev nD) : W97 m c main_arg2 = m ((c : Thread nD τ).loc main_arg2) :=
  (W97_of m c main_arg2 (by decide)).trans (W96_arg2 m c)
theorem W98_arg2 (c : Dev nD) : W98 m c main_arg2 = m ((c : Thread nD τ).loc main_arg2) :=
  (W98_of m c main_arg2 (by decide)).trans (W97_arg2 m c)
theorem W99_arg2 (c : Dev nD) : W99 m c main_arg2 = m ((c : Thread nD τ).loc main_arg2) :=
  (W99_of m c main_arg2 (by decide)).trans (W98_arg2 m c)
theorem W100_arg2 (c : Dev nD) : W100 m c main_arg2 = m ((c : Thread nD τ).loc main_arg2) :=
  (W100_of m c main_arg2 (by decide)).trans (W99_arg2 m c)
theorem W0_arg3 (c : Dev nD) : W0 m c main_arg3 = m ((c : Thread nD τ).loc main_arg3) := rfl
theorem W1_arg3 (c : Dev nD) : W1 m c main_arg3 = m ((c : Thread nD τ).loc main_arg3) :=
  (W1_of m c main_arg3 (by decide)).trans (W0_arg3 m c)
theorem W2_arg3 (c : Dev nD) : W2 m c main_arg3 = m ((c : Thread nD τ).loc main_arg3) :=
  (W2_of m c main_arg3 (by decide)).trans (W1_arg3 m c)
theorem W3_arg3 (c : Dev nD) : W3 m c main_arg3 = m ((c : Thread nD τ).loc main_arg3) :=
  (W3_of m c main_arg3 (by decide)).trans (W2_arg3 m c)
theorem W4_arg3 (c : Dev nD) : W4 m c main_arg3 = m ((c : Thread nD τ).loc main_arg3) :=
  (W4_of m c main_arg3 (by decide)).trans (W3_arg3 m c)
theorem W5_arg3 (c : Dev nD) : W5 m c main_arg3 = m ((c : Thread nD τ).loc main_arg3) :=
  (W5_of m c main_arg3 (by decide)).trans (W4_arg3 m c)
theorem W6_arg3 (c : Dev nD) : W6 m c main_arg3 = m ((c : Thread nD τ).loc main_arg3) :=
  (W6_of m c main_arg3 (by decide)).trans (W5_arg3 m c)
theorem W7_arg3 (c : Dev nD) : W7 m c main_arg3 = m ((c : Thread nD τ).loc main_arg3) :=
  (W7_of m c main_arg3 (by decide)).trans (W6_arg3 m c)
theorem W8_arg3 (c : Dev nD) : W8 m c main_arg3 = m ((c : Thread nD τ).loc main_arg3) :=
  (W8_of m c main_arg3 (by decide)).trans (W7_arg3 m c)
theorem W9_arg3 (c : Dev nD) : W9 m c main_arg3 = m ((c : Thread nD τ).loc main_arg3) :=
  (W9_of m c main_arg3 (by decide)).trans (W8_arg3 m c)
theorem W10_arg3 (c : Dev nD) : W10 m c main_arg3 = m ((c : Thread nD τ).loc main_arg3) :=
  (W10_of m c main_arg3 (by decide)).trans (W9_arg3 m c)
theorem W11_arg3 (c : Dev nD) : W11 m c main_arg3 = m ((c : Thread nD τ).loc main_arg3) :=
  (W11_of m c main_arg3 (by decide)).trans (W10_arg3 m c)
theorem W12_arg3 (c : Dev nD) : W12 m c main_arg3 = m ((c : Thread nD τ).loc main_arg3) :=
  (W12_of m c main_arg3 (by decide)).trans (W11_arg3 m c)
theorem W13_arg3 (c : Dev nD) : W13 m c main_arg3 = m ((c : Thread nD τ).loc main_arg3) :=
  (W13_of m c main_arg3 (by decide)).trans (W12_arg3 m c)
theorem W14_arg3 (c : Dev nD) : W14 m c main_arg3 = m ((c : Thread nD τ).loc main_arg3) :=
  (W14_of m c main_arg3 (by decide)).trans (W13_arg3 m c)
theorem W15_arg3 (c : Dev nD) : W15 m c main_arg3 = m ((c : Thread nD τ).loc main_arg3) :=
  (W15_of m c main_arg3 (by decide)).trans (W14_arg3 m c)
theorem W16_arg3 (c : Dev nD) : W16 m c main_arg3 = m ((c : Thread nD τ).loc main_arg3) :=
  (W16_of m c main_arg3 (by decide)).trans (W15_arg3 m c)
theorem W17_arg3 (c : Dev nD) : W17 m c main_arg3 = m ((c : Thread nD τ).loc main_arg3) :=
  (W17_of m c main_arg3 (by decide)).trans (W16_arg3 m c)
theorem W18_arg3 (c : Dev nD) : W18 m c main_arg3 = m ((c : Thread nD τ).loc main_arg3) :=
  (W18_of m c main_arg3 (by decide)).trans (W17_arg3 m c)
theorem W19_arg3 (c : Dev nD) : W19 m c main_arg3 = m ((c : Thread nD τ).loc main_arg3) :=
  (W19_of m c main_arg3 (by decide)).trans (W18_arg3 m c)
theorem W20_arg3 (c : Dev nD) : W20 m c main_arg3 = m ((c : Thread nD τ).loc main_arg3) :=
  (W20_of m c main_arg3 (by decide)).trans (W19_arg3 m c)
theorem W21_arg3 (c : Dev nD) : W21 m c main_arg3 = m ((c : Thread nD τ).loc main_arg3) :=
  (W21_of m c main_arg3 (by decide)).trans (W20_arg3 m c)
theorem W22_arg3 (c : Dev nD) : W22 m c main_arg3 = m ((c : Thread nD τ).loc main_arg3) :=
  (W22_of m c main_arg3 (by decide)).trans (W21_arg3 m c)
theorem W23_arg3 (c : Dev nD) : W23 m c main_arg3 = m ((c : Thread nD τ).loc main_arg3) :=
  (W23_of m c main_arg3 (by decide)).trans (W22_arg3 m c)
theorem W24_arg3 (c : Dev nD) : W24 m c main_arg3 = m ((c : Thread nD τ).loc main_arg3) :=
  (W24_of m c main_arg3 (by decide)).trans (W23_arg3 m c)
theorem W25_arg3 (c : Dev nD) : W25 m c main_arg3 = m ((c : Thread nD τ).loc main_arg3) :=
  (W25_of m c main_arg3 (by decide)).trans (W24_arg3 m c)
theorem W26_arg3 (c : Dev nD) : W26 m c main_arg3 = m ((c : Thread nD τ).loc main_arg3) :=
  (W26_of m c main_arg3 (by decide)).trans (W25_arg3 m c)
theorem W27_arg3 (c : Dev nD) : W27 m c main_arg3 = m ((c : Thread nD τ).loc main_arg3) :=
  (W27_of m c main_arg3 (by decide)).trans (W26_arg3 m c)
theorem W28_arg3 (c : Dev nD) : W28 m c main_arg3 = m ((c : Thread nD τ).loc main_arg3) :=
  (W28_of m c main_arg3 (by decide)).trans (W27_arg3 m c)
theorem W29_arg3 (c : Dev nD) : W29 m c main_arg3 = m ((c : Thread nD τ).loc main_arg3) :=
  (W29_of m c main_arg3 (by decide)).trans (W28_arg3 m c)
theorem W30_arg3 (c : Dev nD) : W30 m c main_arg3 = m ((c : Thread nD τ).loc main_arg3) :=
  (W30_of m c main_arg3 (by decide)).trans (W29_arg3 m c)
theorem W31_arg3 (c : Dev nD) : W31 m c main_arg3 = m ((c : Thread nD τ).loc main_arg3) :=
  (W31_of m c main_arg3 (by decide)).trans (W30_arg3 m c)
theorem W32_arg3 (c : Dev nD) : W32 m c main_arg3 = m ((c : Thread nD τ).loc main_arg3) :=
  (W32_of m c main_arg3 (by decide)).trans (W31_arg3 m c)
theorem W33_arg3 (c : Dev nD) : W33 m c main_arg3 = m ((c : Thread nD τ).loc main_arg3) :=
  (W33_of m c main_arg3 (by decide)).trans (W32_arg3 m c)
theorem W34_arg3 (c : Dev nD) : W34 m c main_arg3 = m ((c : Thread nD τ).loc main_arg3) :=
  (W34_of m c main_arg3 (by decide)).trans (W33_arg3 m c)
theorem W35_arg3 (c : Dev nD) : W35 m c main_arg3 = m ((c : Thread nD τ).loc main_arg3) :=
  (W35_of m c main_arg3 (by decide)).trans (W34_arg3 m c)
theorem W36_arg3 (c : Dev nD) : W36 m c main_arg3 = m ((c : Thread nD τ).loc main_arg3) :=
  (W36_of m c main_arg3 (by decide)).trans (W35_arg3 m c)
theorem W37_arg3 (c : Dev nD) : W37 m c main_arg3 = m ((c : Thread nD τ).loc main_arg3) :=
  (W37_of m c main_arg3 (by decide)).trans (W36_arg3 m c)
theorem W38_arg3 (c : Dev nD) : W38 m c main_arg3 = m ((c : Thread nD τ).loc main_arg3) :=
  (W38_of m c main_arg3 (by decide)).trans (W37_arg3 m c)
theorem W39_arg3 (c : Dev nD) : W39 m c main_arg3 = m ((c : Thread nD τ).loc main_arg3) :=
  (W39_of m c main_arg3 (by decide)).trans (W38_arg3 m c)
theorem W40_arg3 (c : Dev nD) : W40 m c main_arg3 = m ((c : Thread nD τ).loc main_arg3) :=
  (W40_of m c main_arg3 (by decide)).trans (W39_arg3 m c)
theorem W41_arg3 (c : Dev nD) : W41 m c main_arg3 = m ((c : Thread nD τ).loc main_arg3) :=
  (W41_of m c main_arg3 (by decide)).trans (W40_arg3 m c)
theorem W42_arg3 (c : Dev nD) : W42 m c main_arg3 = m ((c : Thread nD τ).loc main_arg3) :=
  (W42_of m c main_arg3 (by decide)).trans (W41_arg3 m c)
theorem W43_arg3 (c : Dev nD) : W43 m c main_arg3 = m ((c : Thread nD τ).loc main_arg3) :=
  (W43_of m c main_arg3 (by decide)).trans (W42_arg3 m c)
theorem W44_arg3 (c : Dev nD) : W44 m c main_arg3 = m ((c : Thread nD τ).loc main_arg3) :=
  (W44_of m c main_arg3 (by decide)).trans (W43_arg3 m c)
theorem W45_arg3 (c : Dev nD) : W45 m c main_arg3 = m ((c : Thread nD τ).loc main_arg3) :=
  (W45_of m c main_arg3 (by decide)).trans (W44_arg3 m c)
theorem W46_arg3 (c : Dev nD) : W46 m c main_arg3 = m ((c : Thread nD τ).loc main_arg3) :=
  (W46_of m c main_arg3 (by decide)).trans (W45_arg3 m c)
theorem W47_arg3 (c : Dev nD) : W47 m c main_arg3 = m ((c : Thread nD τ).loc main_arg3) :=
  (W47_of m c main_arg3 (by decide)).trans (W46_arg3 m c)
theorem W48_arg3 (c : Dev nD) : W48 m c main_arg3 = m ((c : Thread nD τ).loc main_arg3) :=
  (W48_of m c main_arg3 (by decide)).trans (W47_arg3 m c)
theorem W49_arg3 (c : Dev nD) : W49 m c main_arg3 = m ((c : Thread nD τ).loc main_arg3) :=
  (W49_of m c main_arg3 (by decide)).trans (W48_arg3 m c)
theorem W50_arg3 (c : Dev nD) : W50 m c main_arg3 = m ((c : Thread nD τ).loc main_arg3) :=
  (W50_of m c main_arg3 (by decide)).trans (W49_arg3 m c)
theorem W51_arg3 (c : Dev nD) : W51 m c main_arg3 = m ((c : Thread nD τ).loc main_arg3) :=
  (W51_of m c main_arg3 (by decide)).trans (W50_arg3 m c)
theorem W52_arg3 (c : Dev nD) : W52 m c main_arg3 = m ((c : Thread nD τ).loc main_arg3) :=
  (W52_of m c main_arg3 (by decide)).trans (W51_arg3 m c)
theorem W53_arg3 (c : Dev nD) : W53 m c main_arg3 = m ((c : Thread nD τ).loc main_arg3) :=
  (W53_of m c main_arg3 (by decide)).trans (W52_arg3 m c)
theorem W54_arg3 (c : Dev nD) : W54 m c main_arg3 = m ((c : Thread nD τ).loc main_arg3) :=
  (W54_of m c main_arg3 (by decide)).trans (W53_arg3 m c)
theorem W55_arg3 (c : Dev nD) : W55 m c main_arg3 = m ((c : Thread nD τ).loc main_arg3) :=
  (W55_of m c main_arg3 (by decide)).trans (W54_arg3 m c)
theorem W56_arg3 (c : Dev nD) : W56 m c main_arg3 = m ((c : Thread nD τ).loc main_arg3) :=
  (W56_of m c main_arg3 (by decide)).trans (W55_arg3 m c)
theorem W57_arg3 (c : Dev nD) : W57 m c main_arg3 = m ((c : Thread nD τ).loc main_arg3) :=
  (W57_of m c main_arg3 (by decide)).trans (W56_arg3 m c)
theorem W58_arg3 (c : Dev nD) : W58 m c main_arg3 = m ((c : Thread nD τ).loc main_arg3) :=
  (W58_of m c main_arg3 (by decide)).trans (W57_arg3 m c)
theorem W59_arg3 (c : Dev nD) : W59 m c main_arg3 = m ((c : Thread nD τ).loc main_arg3) :=
  (W59_of m c main_arg3 (by decide)).trans (W58_arg3 m c)
theorem W60_arg3 (c : Dev nD) : W60 m c main_arg3 = m ((c : Thread nD τ).loc main_arg3) :=
  (W60_of m c main_arg3 (by decide)).trans (W59_arg3 m c)
theorem W61_arg3 (c : Dev nD) : W61 m c main_arg3 = m ((c : Thread nD τ).loc main_arg3) :=
  (W61_of m c main_arg3 (by decide)).trans (W60_arg3 m c)
theorem W62_arg3 (c : Dev nD) : W62 m c main_arg3 = m ((c : Thread nD τ).loc main_arg3) :=
  (W62_of m c main_arg3 (by decide)).trans (W61_arg3 m c)
theorem W63_arg3 (c : Dev nD) : W63 m c main_arg3 = m ((c : Thread nD τ).loc main_arg3) :=
  (W63_of m c main_arg3 (by decide)).trans (W62_arg3 m c)
theorem W64_arg3 (c : Dev nD) : W64 m c main_arg3 = m ((c : Thread nD τ).loc main_arg3) :=
  (W64_of m c main_arg3 (by decide)).trans (W63_arg3 m c)
theorem W65_arg3 (c : Dev nD) : W65 m c main_arg3 = m ((c : Thread nD τ).loc main_arg3) :=
  (W65_of m c main_arg3 (by decide)).trans (W64_arg3 m c)
theorem W66_arg3 (c : Dev nD) : W66 m c main_arg3 = m ((c : Thread nD τ).loc main_arg3) :=
  (W66_of m c main_arg3 (by decide)).trans (W65_arg3 m c)
theorem W67_arg3 (c : Dev nD) : W67 m c main_arg3 = m ((c : Thread nD τ).loc main_arg3) :=
  (W67_of m c main_arg3 (by decide)).trans (W66_arg3 m c)
theorem W68_arg3 (c : Dev nD) : W68 m c main_arg3 = m ((c : Thread nD τ).loc main_arg3) :=
  (W68_of m c main_arg3 (by decide)).trans (W67_arg3 m c)
theorem W69_arg3 (c : Dev nD) : W69 m c main_arg3 = m ((c : Thread nD τ).loc main_arg3) :=
  (W69_of m c main_arg3 (by decide)).trans (W68_arg3 m c)
theorem W70_arg3 (c : Dev nD) : W70 m c main_arg3 = m ((c : Thread nD τ).loc main_arg3) :=
  (W70_of m c main_arg3 (by decide)).trans (W69_arg3 m c)
theorem W71_arg3 (c : Dev nD) : W71 m c main_arg3 = m ((c : Thread nD τ).loc main_arg3) :=
  (W71_of m c main_arg3 (by decide)).trans (W70_arg3 m c)
theorem W72_arg3 (c : Dev nD) : W72 m c main_arg3 = m ((c : Thread nD τ).loc main_arg3) :=
  (W72_of m c main_arg3 (by decide)).trans (W71_arg3 m c)
theorem W73_arg3 (c : Dev nD) : W73 m c main_arg3 = m ((c : Thread nD τ).loc main_arg3) :=
  (W73_of m c main_arg3 (by decide)).trans (W72_arg3 m c)
theorem W74_arg3 (c : Dev nD) : W74 m c main_arg3 = m ((c : Thread nD τ).loc main_arg3) :=
  (W74_of m c main_arg3 (by decide)).trans (W73_arg3 m c)
theorem W75_arg3 (c : Dev nD) : W75 m c main_arg3 = m ((c : Thread nD τ).loc main_arg3) :=
  (W75_of m c main_arg3 (by decide)).trans (W74_arg3 m c)
theorem W76_arg3 (c : Dev nD) : W76 m c main_arg3 = m ((c : Thread nD τ).loc main_arg3) :=
  (W76_of m c main_arg3 (by decide)).trans (W75_arg3 m c)
theorem W77_arg3 (c : Dev nD) : W77 m c main_arg3 = m ((c : Thread nD τ).loc main_arg3) :=
  (W77_of m c main_arg3 (by decide)).trans (W76_arg3 m c)
theorem W78_arg3 (c : Dev nD) : W78 m c main_arg3 = m ((c : Thread nD τ).loc main_arg3) :=
  (W78_of m c main_arg3 (by decide)).trans (W77_arg3 m c)
theorem W79_arg3 (c : Dev nD) : W79 m c main_arg3 = m ((c : Thread nD τ).loc main_arg3) :=
  (W79_of m c main_arg3 (by decide)).trans (W78_arg3 m c)
theorem W80_arg3 (c : Dev nD) : W80 m c main_arg3 = m ((c : Thread nD τ).loc main_arg3) :=
  (W80_of m c main_arg3 (by decide)).trans (W79_arg3 m c)
theorem W81_arg3 (c : Dev nD) : W81 m c main_arg3 = m ((c : Thread nD τ).loc main_arg3) :=
  (W81_of m c main_arg3 (by decide)).trans (W80_arg3 m c)
theorem W82_arg3 (c : Dev nD) : W82 m c main_arg3 = m ((c : Thread nD τ).loc main_arg3) :=
  (W82_of m c main_arg3 (by decide)).trans (W81_arg3 m c)
theorem W83_arg3 (c : Dev nD) : W83 m c main_arg3 = m ((c : Thread nD τ).loc main_arg3) :=
  (W83_of m c main_arg3 (by decide)).trans (W82_arg3 m c)
theorem W84_arg3 (c : Dev nD) : W84 m c main_arg3 = m ((c : Thread nD τ).loc main_arg3) :=
  (W84_of m c main_arg3 (by decide)).trans (W83_arg3 m c)
theorem W85_arg3 (c : Dev nD) : W85 m c main_arg3 = m ((c : Thread nD τ).loc main_arg3) :=
  (W85_of m c main_arg3 (by decide)).trans (W84_arg3 m c)
theorem W86_arg3 (c : Dev nD) : W86 m c main_arg3 = m ((c : Thread nD τ).loc main_arg3) :=
  (W86_of m c main_arg3 (by decide)).trans (W85_arg3 m c)
theorem W87_arg3 (c : Dev nD) : W87 m c main_arg3 = m ((c : Thread nD τ).loc main_arg3) :=
  (W87_of m c main_arg3 (by decide)).trans (W86_arg3 m c)
theorem W88_arg3 (c : Dev nD) : W88 m c main_arg3 = m ((c : Thread nD τ).loc main_arg3) :=
  (W88_of m c main_arg3 (by decide)).trans (W87_arg3 m c)
theorem W89_arg3 (c : Dev nD) : W89 m c main_arg3 = m ((c : Thread nD τ).loc main_arg3) :=
  (W89_of m c main_arg3 (by decide)).trans (W88_arg3 m c)
theorem W90_arg3 (c : Dev nD) : W90 m c main_arg3 = m ((c : Thread nD τ).loc main_arg3) :=
  (W90_of m c main_arg3 (by decide)).trans (W89_arg3 m c)
theorem W91_arg3 (c : Dev nD) : W91 m c main_arg3 = m ((c : Thread nD τ).loc main_arg3) :=
  (W91_of m c main_arg3 (by decide)).trans (W90_arg3 m c)
theorem W92_arg3 (c : Dev nD) : W92 m c main_arg3 = m ((c : Thread nD τ).loc main_arg3) :=
  (W92_of m c main_arg3 (by decide)).trans (W91_arg3 m c)
theorem W93_arg3 (c : Dev nD) : W93 m c main_arg3 = m ((c : Thread nD τ).loc main_arg3) :=
  (W93_of m c main_arg3 (by decide)).trans (W92_arg3 m c)
theorem W94_arg3 (c : Dev nD) : W94 m c main_arg3 = m ((c : Thread nD τ).loc main_arg3) :=
  (W94_of m c main_arg3 (by decide)).trans (W93_arg3 m c)
theorem W95_arg3 (c : Dev nD) : W95 m c main_arg3 = m ((c : Thread nD τ).loc main_arg3) :=
  (W95_of m c main_arg3 (by decide)).trans (W94_arg3 m c)
theorem W96_arg3 (c : Dev nD) : W96 m c main_arg3 = m ((c : Thread nD τ).loc main_arg3) :=
  (W96_of m c main_arg3 (by decide)).trans (W95_arg3 m c)
theorem W97_arg3 (c : Dev nD) : W97 m c main_arg3 = m ((c : Thread nD τ).loc main_arg3) :=
  (W97_of m c main_arg3 (by decide)).trans (W96_arg3 m c)
theorem W98_arg3 (c : Dev nD) : W98 m c main_arg3 = m ((c : Thread nD τ).loc main_arg3) :=
  (W98_of m c main_arg3 (by decide)).trans (W97_arg3 m c)
theorem W99_arg3 (c : Dev nD) : W99 m c main_arg3 = m ((c : Thread nD τ).loc main_arg3) :=
  (W99_of m c main_arg3 (by decide)).trans (W98_arg3 m c)
theorem W100_arg3 (c : Dev nD) : W100 m c main_arg3 = m ((c : Thread nD τ).loc main_arg3) :=
  (W100_of m c main_arg3 (by decide)).trans (W99_arg3 m c)
theorem W0_arg4 (c : Dev nD) : W0 m c main_arg4 = m ((c : Thread nD τ).loc main_arg4) := rfl
theorem W1_arg4 (c : Dev nD) : W1 m c main_arg4 = m ((c : Thread nD τ).loc main_arg4) :=
  (W1_of m c main_arg4 (by decide)).trans (W0_arg4 m c)
theorem W2_arg4 (c : Dev nD) : W2 m c main_arg4 = m ((c : Thread nD τ).loc main_arg4) :=
  (W2_of m c main_arg4 (by decide)).trans (W1_arg4 m c)
theorem W3_arg4 (c : Dev nD) : W3 m c main_arg4 = m ((c : Thread nD τ).loc main_arg4) :=
  (W3_of m c main_arg4 (by decide)).trans (W2_arg4 m c)
theorem W4_arg4 (c : Dev nD) : W4 m c main_arg4 = m ((c : Thread nD τ).loc main_arg4) :=
  (W4_of m c main_arg4 (by decide)).trans (W3_arg4 m c)
theorem W5_arg4 (c : Dev nD) : W5 m c main_arg4 = m ((c : Thread nD τ).loc main_arg4) :=
  (W5_of m c main_arg4 (by decide)).trans (W4_arg4 m c)
theorem W6_arg4 (c : Dev nD) : W6 m c main_arg4 = m ((c : Thread nD τ).loc main_arg4) :=
  (W6_of m c main_arg4 (by decide)).trans (W5_arg4 m c)
theorem W7_arg4 (c : Dev nD) : W7 m c main_arg4 = m ((c : Thread nD τ).loc main_arg4) :=
  (W7_of m c main_arg4 (by decide)).trans (W6_arg4 m c)
theorem W8_arg4 (c : Dev nD) : W8 m c main_arg4 = m ((c : Thread nD τ).loc main_arg4) :=
  (W8_of m c main_arg4 (by decide)).trans (W7_arg4 m c)
theorem W9_arg4 (c : Dev nD) : W9 m c main_arg4 = m ((c : Thread nD τ).loc main_arg4) :=
  (W9_of m c main_arg4 (by decide)).trans (W8_arg4 m c)
theorem W10_arg4 (c : Dev nD) : W10 m c main_arg4 = m ((c : Thread nD τ).loc main_arg4) :=
  (W10_of m c main_arg4 (by decide)).trans (W9_arg4 m c)
theorem W11_arg4 (c : Dev nD) : W11 m c main_arg4 = m ((c : Thread nD τ).loc main_arg4) :=
  (W11_of m c main_arg4 (by decide)).trans (W10_arg4 m c)
theorem W12_arg4 (c : Dev nD) : W12 m c main_arg4 = m ((c : Thread nD τ).loc main_arg4) :=
  (W12_of m c main_arg4 (by decide)).trans (W11_arg4 m c)
theorem W13_arg4 (c : Dev nD) : W13 m c main_arg4 = m ((c : Thread nD τ).loc main_arg4) :=
  (W13_of m c main_arg4 (by decide)).trans (W12_arg4 m c)
theorem W14_arg4 (c : Dev nD) : W14 m c main_arg4 = m ((c : Thread nD τ).loc main_arg4) :=
  (W14_of m c main_arg4 (by decide)).trans (W13_arg4 m c)
theorem W15_arg4 (c : Dev nD) : W15 m c main_arg4 = m ((c : Thread nD τ).loc main_arg4) :=
  (W15_of m c main_arg4 (by decide)).trans (W14_arg4 m c)
theorem W16_arg4 (c : Dev nD) : W16 m c main_arg4 = m ((c : Thread nD τ).loc main_arg4) :=
  (W16_of m c main_arg4 (by decide)).trans (W15_arg4 m c)
theorem W17_arg4 (c : Dev nD) : W17 m c main_arg4 = m ((c : Thread nD τ).loc main_arg4) :=
  (W17_of m c main_arg4 (by decide)).trans (W16_arg4 m c)
theorem W18_arg4 (c : Dev nD) : W18 m c main_arg4 = m ((c : Thread nD τ).loc main_arg4) :=
  (W18_of m c main_arg4 (by decide)).trans (W17_arg4 m c)
theorem W19_arg4 (c : Dev nD) : W19 m c main_arg4 = m ((c : Thread nD τ).loc main_arg4) :=
  (W19_of m c main_arg4 (by decide)).trans (W18_arg4 m c)
theorem W20_arg4 (c : Dev nD) : W20 m c main_arg4 = m ((c : Thread nD τ).loc main_arg4) :=
  (W20_of m c main_arg4 (by decide)).trans (W19_arg4 m c)
theorem W21_arg4 (c : Dev nD) : W21 m c main_arg4 = m ((c : Thread nD τ).loc main_arg4) :=
  (W21_of m c main_arg4 (by decide)).trans (W20_arg4 m c)
theorem W22_arg4 (c : Dev nD) : W22 m c main_arg4 = m ((c : Thread nD τ).loc main_arg4) :=
  (W22_of m c main_arg4 (by decide)).trans (W21_arg4 m c)
theorem W23_arg4 (c : Dev nD) : W23 m c main_arg4 = m ((c : Thread nD τ).loc main_arg4) :=
  (W23_of m c main_arg4 (by decide)).trans (W22_arg4 m c)
theorem W24_arg4 (c : Dev nD) : W24 m c main_arg4 = m ((c : Thread nD τ).loc main_arg4) :=
  (W24_of m c main_arg4 (by decide)).trans (W23_arg4 m c)
theorem W25_arg4 (c : Dev nD) : W25 m c main_arg4 = m ((c : Thread nD τ).loc main_arg4) :=
  (W25_of m c main_arg4 (by decide)).trans (W24_arg4 m c)
theorem W26_arg4 (c : Dev nD) : W26 m c main_arg4 = m ((c : Thread nD τ).loc main_arg4) :=
  (W26_of m c main_arg4 (by decide)).trans (W25_arg4 m c)
theorem W27_arg4 (c : Dev nD) : W27 m c main_arg4 = m ((c : Thread nD τ).loc main_arg4) :=
  (W27_of m c main_arg4 (by decide)).trans (W26_arg4 m c)
theorem W28_arg4 (c : Dev nD) : W28 m c main_arg4 = m ((c : Thread nD τ).loc main_arg4) :=
  (W28_of m c main_arg4 (by decide)).trans (W27_arg4 m c)
theorem W29_arg4 (c : Dev nD) : W29 m c main_arg4 = m ((c : Thread nD τ).loc main_arg4) :=
  (W29_of m c main_arg4 (by decide)).trans (W28_arg4 m c)
theorem W30_arg4 (c : Dev nD) : W30 m c main_arg4 = m ((c : Thread nD τ).loc main_arg4) :=
  (W30_of m c main_arg4 (by decide)).trans (W29_arg4 m c)
theorem W31_arg4 (c : Dev nD) : W31 m c main_arg4 = m ((c : Thread nD τ).loc main_arg4) :=
  (W31_of m c main_arg4 (by decide)).trans (W30_arg4 m c)
theorem W32_arg4 (c : Dev nD) : W32 m c main_arg4 = m ((c : Thread nD τ).loc main_arg4) :=
  (W32_of m c main_arg4 (by decide)).trans (W31_arg4 m c)
theorem W33_arg4 (c : Dev nD) : W33 m c main_arg4 = m ((c : Thread nD τ).loc main_arg4) :=
  (W33_of m c main_arg4 (by decide)).trans (W32_arg4 m c)
theorem W34_arg4 (c : Dev nD) : W34 m c main_arg4 = m ((c : Thread nD τ).loc main_arg4) :=
  (W34_of m c main_arg4 (by decide)).trans (W33_arg4 m c)
theorem W35_arg4 (c : Dev nD) : W35 m c main_arg4 = m ((c : Thread nD τ).loc main_arg4) :=
  (W35_of m c main_arg4 (by decide)).trans (W34_arg4 m c)
theorem W36_arg4 (c : Dev nD) : W36 m c main_arg4 = m ((c : Thread nD τ).loc main_arg4) :=
  (W36_of m c main_arg4 (by decide)).trans (W35_arg4 m c)
theorem W37_arg4 (c : Dev nD) : W37 m c main_arg4 = m ((c : Thread nD τ).loc main_arg4) :=
  (W37_of m c main_arg4 (by decide)).trans (W36_arg4 m c)
theorem W38_arg4 (c : Dev nD) : W38 m c main_arg4 = m ((c : Thread nD τ).loc main_arg4) :=
  (W38_of m c main_arg4 (by decide)).trans (W37_arg4 m c)
theorem W39_arg4 (c : Dev nD) : W39 m c main_arg4 = m ((c : Thread nD τ).loc main_arg4) :=
  (W39_of m c main_arg4 (by decide)).trans (W38_arg4 m c)
theorem W40_arg4 (c : Dev nD) : W40 m c main_arg4 = m ((c : Thread nD τ).loc main_arg4) :=
  (W40_of m c main_arg4 (by decide)).trans (W39_arg4 m c)
theorem W41_arg4 (c : Dev nD) : W41 m c main_arg4 = m ((c : Thread nD τ).loc main_arg4) :=
  (W41_of m c main_arg4 (by decide)).trans (W40_arg4 m c)
theorem W42_arg4 (c : Dev nD) : W42 m c main_arg4 = m ((c : Thread nD τ).loc main_arg4) :=
  (W42_of m c main_arg4 (by decide)).trans (W41_arg4 m c)
theorem W43_arg4 (c : Dev nD) : W43 m c main_arg4 = m ((c : Thread nD τ).loc main_arg4) :=
  (W43_of m c main_arg4 (by decide)).trans (W42_arg4 m c)
theorem W44_arg4 (c : Dev nD) : W44 m c main_arg4 = m ((c : Thread nD τ).loc main_arg4) :=
  (W44_of m c main_arg4 (by decide)).trans (W43_arg4 m c)
theorem W45_arg4 (c : Dev nD) : W45 m c main_arg4 = m ((c : Thread nD τ).loc main_arg4) :=
  (W45_of m c main_arg4 (by decide)).trans (W44_arg4 m c)
theorem W46_arg4 (c : Dev nD) : W46 m c main_arg4 = m ((c : Thread nD τ).loc main_arg4) :=
  (W46_of m c main_arg4 (by decide)).trans (W45_arg4 m c)
theorem W47_arg4 (c : Dev nD) : W47 m c main_arg4 = m ((c : Thread nD τ).loc main_arg4) :=
  (W47_of m c main_arg4 (by decide)).trans (W46_arg4 m c)
theorem W48_arg4 (c : Dev nD) : W48 m c main_arg4 = m ((c : Thread nD τ).loc main_arg4) :=
  (W48_of m c main_arg4 (by decide)).trans (W47_arg4 m c)
theorem W49_arg4 (c : Dev nD) : W49 m c main_arg4 = m ((c : Thread nD τ).loc main_arg4) :=
  (W49_of m c main_arg4 (by decide)).trans (W48_arg4 m c)
theorem W50_arg4 (c : Dev nD) : W50 m c main_arg4 = m ((c : Thread nD τ).loc main_arg4) :=
  (W50_of m c main_arg4 (by decide)).trans (W49_arg4 m c)
theorem W51_arg4 (c : Dev nD) : W51 m c main_arg4 = m ((c : Thread nD τ).loc main_arg4) :=
  (W51_of m c main_arg4 (by decide)).trans (W50_arg4 m c)
theorem W52_arg4 (c : Dev nD) : W52 m c main_arg4 = m ((c : Thread nD τ).loc main_arg4) :=
  (W52_of m c main_arg4 (by decide)).trans (W51_arg4 m c)
theorem W53_arg4 (c : Dev nD) : W53 m c main_arg4 = m ((c : Thread nD τ).loc main_arg4) :=
  (W53_of m c main_arg4 (by decide)).trans (W52_arg4 m c)
theorem W54_arg4 (c : Dev nD) : W54 m c main_arg4 = m ((c : Thread nD τ).loc main_arg4) :=
  (W54_of m c main_arg4 (by decide)).trans (W53_arg4 m c)
theorem W55_arg4 (c : Dev nD) : W55 m c main_arg4 = m ((c : Thread nD τ).loc main_arg4) :=
  (W55_of m c main_arg4 (by decide)).trans (W54_arg4 m c)
theorem W56_arg4 (c : Dev nD) : W56 m c main_arg4 = m ((c : Thread nD τ).loc main_arg4) :=
  (W56_of m c main_arg4 (by decide)).trans (W55_arg4 m c)
theorem W57_arg4 (c : Dev nD) : W57 m c main_arg4 = m ((c : Thread nD τ).loc main_arg4) :=
  (W57_of m c main_arg4 (by decide)).trans (W56_arg4 m c)
theorem W58_arg4 (c : Dev nD) : W58 m c main_arg4 = m ((c : Thread nD τ).loc main_arg4) :=
  (W58_of m c main_arg4 (by decide)).trans (W57_arg4 m c)
theorem W59_arg4 (c : Dev nD) : W59 m c main_arg4 = m ((c : Thread nD τ).loc main_arg4) :=
  (W59_of m c main_arg4 (by decide)).trans (W58_arg4 m c)
theorem W60_arg4 (c : Dev nD) : W60 m c main_arg4 = m ((c : Thread nD τ).loc main_arg4) :=
  (W60_of m c main_arg4 (by decide)).trans (W59_arg4 m c)
theorem W61_arg4 (c : Dev nD) : W61 m c main_arg4 = m ((c : Thread nD τ).loc main_arg4) :=
  (W61_of m c main_arg4 (by decide)).trans (W60_arg4 m c)
theorem W62_arg4 (c : Dev nD) : W62 m c main_arg4 = m ((c : Thread nD τ).loc main_arg4) :=
  (W62_of m c main_arg4 (by decide)).trans (W61_arg4 m c)
theorem W63_arg4 (c : Dev nD) : W63 m c main_arg4 = m ((c : Thread nD τ).loc main_arg4) :=
  (W63_of m c main_arg4 (by decide)).trans (W62_arg4 m c)
theorem W64_arg4 (c : Dev nD) : W64 m c main_arg4 = m ((c : Thread nD τ).loc main_arg4) :=
  (W64_of m c main_arg4 (by decide)).trans (W63_arg4 m c)
theorem W65_arg4 (c : Dev nD) : W65 m c main_arg4 = m ((c : Thread nD τ).loc main_arg4) :=
  (W65_of m c main_arg4 (by decide)).trans (W64_arg4 m c)
theorem W66_arg4 (c : Dev nD) : W66 m c main_arg4 = m ((c : Thread nD τ).loc main_arg4) :=
  (W66_of m c main_arg4 (by decide)).trans (W65_arg4 m c)
theorem W67_arg4 (c : Dev nD) : W67 m c main_arg4 = m ((c : Thread nD τ).loc main_arg4) :=
  (W67_of m c main_arg4 (by decide)).trans (W66_arg4 m c)
theorem W68_arg4 (c : Dev nD) : W68 m c main_arg4 = m ((c : Thread nD τ).loc main_arg4) :=
  (W68_of m c main_arg4 (by decide)).trans (W67_arg4 m c)
theorem W69_arg4 (c : Dev nD) : W69 m c main_arg4 = m ((c : Thread nD τ).loc main_arg4) :=
  (W69_of m c main_arg4 (by decide)).trans (W68_arg4 m c)
theorem W70_arg4 (c : Dev nD) : W70 m c main_arg4 = m ((c : Thread nD τ).loc main_arg4) :=
  (W70_of m c main_arg4 (by decide)).trans (W69_arg4 m c)
theorem W71_arg4 (c : Dev nD) : W71 m c main_arg4 = m ((c : Thread nD τ).loc main_arg4) :=
  (W71_of m c main_arg4 (by decide)).trans (W70_arg4 m c)
theorem W72_arg4 (c : Dev nD) : W72 m c main_arg4 = m ((c : Thread nD τ).loc main_arg4) :=
  (W72_of m c main_arg4 (by decide)).trans (W71_arg4 m c)
theorem W73_arg4 (c : Dev nD) : W73 m c main_arg4 = m ((c : Thread nD τ).loc main_arg4) :=
  (W73_of m c main_arg4 (by decide)).trans (W72_arg4 m c)
theorem W74_arg4 (c : Dev nD) : W74 m c main_arg4 = m ((c : Thread nD τ).loc main_arg4) :=
  (W74_of m c main_arg4 (by decide)).trans (W73_arg4 m c)
theorem W75_arg4 (c : Dev nD) : W75 m c main_arg4 = m ((c : Thread nD τ).loc main_arg4) :=
  (W75_of m c main_arg4 (by decide)).trans (W74_arg4 m c)
theorem W76_arg4 (c : Dev nD) : W76 m c main_arg4 = m ((c : Thread nD τ).loc main_arg4) :=
  (W76_of m c main_arg4 (by decide)).trans (W75_arg4 m c)
theorem W77_arg4 (c : Dev nD) : W77 m c main_arg4 = m ((c : Thread nD τ).loc main_arg4) :=
  (W77_of m c main_arg4 (by decide)).trans (W76_arg4 m c)
theorem W78_arg4 (c : Dev nD) : W78 m c main_arg4 = m ((c : Thread nD τ).loc main_arg4) :=
  (W78_of m c main_arg4 (by decide)).trans (W77_arg4 m c)
theorem W79_arg4 (c : Dev nD) : W79 m c main_arg4 = m ((c : Thread nD τ).loc main_arg4) :=
  (W79_of m c main_arg4 (by decide)).trans (W78_arg4 m c)
theorem W80_arg4 (c : Dev nD) : W80 m c main_arg4 = m ((c : Thread nD τ).loc main_arg4) :=
  (W80_of m c main_arg4 (by decide)).trans (W79_arg4 m c)
theorem W81_arg4 (c : Dev nD) : W81 m c main_arg4 = m ((c : Thread nD τ).loc main_arg4) :=
  (W81_of m c main_arg4 (by decide)).trans (W80_arg4 m c)
theorem W82_arg4 (c : Dev nD) : W82 m c main_arg4 = m ((c : Thread nD τ).loc main_arg4) :=
  (W82_of m c main_arg4 (by decide)).trans (W81_arg4 m c)
theorem W83_arg4 (c : Dev nD) : W83 m c main_arg4 = m ((c : Thread nD τ).loc main_arg4) :=
  (W83_of m c main_arg4 (by decide)).trans (W82_arg4 m c)
theorem W84_arg4 (c : Dev nD) : W84 m c main_arg4 = m ((c : Thread nD τ).loc main_arg4) :=
  (W84_of m c main_arg4 (by decide)).trans (W83_arg4 m c)
theorem W85_arg4 (c : Dev nD) : W85 m c main_arg4 = m ((c : Thread nD τ).loc main_arg4) :=
  (W85_of m c main_arg4 (by decide)).trans (W84_arg4 m c)
theorem W86_arg4 (c : Dev nD) : W86 m c main_arg4 = m ((c : Thread nD τ).loc main_arg4) :=
  (W86_of m c main_arg4 (by decide)).trans (W85_arg4 m c)
theorem W87_arg4 (c : Dev nD) : W87 m c main_arg4 = m ((c : Thread nD τ).loc main_arg4) :=
  (W87_of m c main_arg4 (by decide)).trans (W86_arg4 m c)
theorem W88_arg4 (c : Dev nD) : W88 m c main_arg4 = m ((c : Thread nD τ).loc main_arg4) :=
  (W88_of m c main_arg4 (by decide)).trans (W87_arg4 m c)
theorem W89_arg4 (c : Dev nD) : W89 m c main_arg4 = m ((c : Thread nD τ).loc main_arg4) :=
  (W89_of m c main_arg4 (by decide)).trans (W88_arg4 m c)
theorem W90_arg4 (c : Dev nD) : W90 m c main_arg4 = m ((c : Thread nD τ).loc main_arg4) :=
  (W90_of m c main_arg4 (by decide)).trans (W89_arg4 m c)
theorem W91_arg4 (c : Dev nD) : W91 m c main_arg4 = m ((c : Thread nD τ).loc main_arg4) :=
  (W91_of m c main_arg4 (by decide)).trans (W90_arg4 m c)
theorem W92_arg4 (c : Dev nD) : W92 m c main_arg4 = m ((c : Thread nD τ).loc main_arg4) :=
  (W92_of m c main_arg4 (by decide)).trans (W91_arg4 m c)
theorem W93_arg4 (c : Dev nD) : W93 m c main_arg4 = m ((c : Thread nD τ).loc main_arg4) :=
  (W93_of m c main_arg4 (by decide)).trans (W92_arg4 m c)
theorem W94_arg4 (c : Dev nD) : W94 m c main_arg4 = m ((c : Thread nD τ).loc main_arg4) :=
  (W94_of m c main_arg4 (by decide)).trans (W93_arg4 m c)
theorem W95_arg4 (c : Dev nD) : W95 m c main_arg4 = m ((c : Thread nD τ).loc main_arg4) :=
  (W95_of m c main_arg4 (by decide)).trans (W94_arg4 m c)
theorem W96_arg4 (c : Dev nD) : W96 m c main_arg4 = m ((c : Thread nD τ).loc main_arg4) :=
  (W96_of m c main_arg4 (by decide)).trans (W95_arg4 m c)
theorem W97_arg4 (c : Dev nD) : W97 m c main_arg4 = m ((c : Thread nD τ).loc main_arg4) :=
  (W97_of m c main_arg4 (by decide)).trans (W96_arg4 m c)
theorem W98_arg4 (c : Dev nD) : W98 m c main_arg4 = m ((c : Thread nD τ).loc main_arg4) :=
  (W98_of m c main_arg4 (by decide)).trans (W97_arg4 m c)
theorem W99_arg4 (c : Dev nD) : W99 m c main_arg4 = m ((c : Thread nD τ).loc main_arg4) :=
  (W99_of m c main_arg4 (by decide)).trans (W98_arg4 m c)
theorem W100_arg4 (c : Dev nD) : W100 m c main_arg4 = m ((c : Thread nD τ).loc main_arg4) :=
  (W100_of m c main_arg4 (by decide)).trans (W99_arg4 m c)
theorem W0_arg5 (c : Dev nD) : W0 m c main_arg5 = m ((c : Thread nD τ).loc main_arg5) := rfl
theorem W1_arg5 (c : Dev nD) : W1 m c main_arg5 = m ((c : Thread nD τ).loc main_arg5) :=
  (W1_of m c main_arg5 (by decide)).trans (W0_arg5 m c)
theorem W2_arg5 (c : Dev nD) : W2 m c main_arg5 = m ((c : Thread nD τ).loc main_arg5) :=
  (W2_of m c main_arg5 (by decide)).trans (W1_arg5 m c)
theorem W3_arg5 (c : Dev nD) : W3 m c main_arg5 = m ((c : Thread nD τ).loc main_arg5) :=
  (W3_of m c main_arg5 (by decide)).trans (W2_arg5 m c)
theorem W4_arg5 (c : Dev nD) : W4 m c main_arg5 = m ((c : Thread nD τ).loc main_arg5) :=
  (W4_of m c main_arg5 (by decide)).trans (W3_arg5 m c)
theorem W5_arg5 (c : Dev nD) : W5 m c main_arg5 = m ((c : Thread nD τ).loc main_arg5) :=
  (W5_of m c main_arg5 (by decide)).trans (W4_arg5 m c)
theorem W6_arg5 (c : Dev nD) : W6 m c main_arg5 = m ((c : Thread nD τ).loc main_arg5) :=
  (W6_of m c main_arg5 (by decide)).trans (W5_arg5 m c)
theorem W7_arg5 (c : Dev nD) : W7 m c main_arg5 = m ((c : Thread nD τ).loc main_arg5) :=
  (W7_of m c main_arg5 (by decide)).trans (W6_arg5 m c)
theorem W8_arg5 (c : Dev nD) : W8 m c main_arg5 = m ((c : Thread nD τ).loc main_arg5) :=
  (W8_of m c main_arg5 (by decide)).trans (W7_arg5 m c)
theorem W9_arg5 (c : Dev nD) : W9 m c main_arg5 = m ((c : Thread nD τ).loc main_arg5) :=
  (W9_of m c main_arg5 (by decide)).trans (W8_arg5 m c)
theorem W10_arg5 (c : Dev nD) : W10 m c main_arg5 = m ((c : Thread nD τ).loc main_arg5) :=
  (W10_of m c main_arg5 (by decide)).trans (W9_arg5 m c)
theorem W11_arg5 (c : Dev nD) : W11 m c main_arg5 = m ((c : Thread nD τ).loc main_arg5) :=
  (W11_of m c main_arg5 (by decide)).trans (W10_arg5 m c)
theorem W12_arg5 (c : Dev nD) : W12 m c main_arg5 = m ((c : Thread nD τ).loc main_arg5) :=
  (W12_of m c main_arg5 (by decide)).trans (W11_arg5 m c)
theorem W13_arg5 (c : Dev nD) : W13 m c main_arg5 = m ((c : Thread nD τ).loc main_arg5) :=
  (W13_of m c main_arg5 (by decide)).trans (W12_arg5 m c)
theorem W14_arg5 (c : Dev nD) : W14 m c main_arg5 = m ((c : Thread nD τ).loc main_arg5) :=
  (W14_of m c main_arg5 (by decide)).trans (W13_arg5 m c)
theorem W15_arg5 (c : Dev nD) : W15 m c main_arg5 = m ((c : Thread nD τ).loc main_arg5) :=
  (W15_of m c main_arg5 (by decide)).trans (W14_arg5 m c)
theorem W16_arg5 (c : Dev nD) : W16 m c main_arg5 = m ((c : Thread nD τ).loc main_arg5) :=
  (W16_of m c main_arg5 (by decide)).trans (W15_arg5 m c)
theorem W17_arg5 (c : Dev nD) : W17 m c main_arg5 = m ((c : Thread nD τ).loc main_arg5) :=
  (W17_of m c main_arg5 (by decide)).trans (W16_arg5 m c)
theorem W18_arg5 (c : Dev nD) : W18 m c main_arg5 = m ((c : Thread nD τ).loc main_arg5) :=
  (W18_of m c main_arg5 (by decide)).trans (W17_arg5 m c)
theorem W19_arg5 (c : Dev nD) : W19 m c main_arg5 = m ((c : Thread nD τ).loc main_arg5) :=
  (W19_of m c main_arg5 (by decide)).trans (W18_arg5 m c)
theorem W20_arg5 (c : Dev nD) : W20 m c main_arg5 = m ((c : Thread nD τ).loc main_arg5) :=
  (W20_of m c main_arg5 (by decide)).trans (W19_arg5 m c)
theorem W21_arg5 (c : Dev nD) : W21 m c main_arg5 = m ((c : Thread nD τ).loc main_arg5) :=
  (W21_of m c main_arg5 (by decide)).trans (W20_arg5 m c)
theorem W22_arg5 (c : Dev nD) : W22 m c main_arg5 = m ((c : Thread nD τ).loc main_arg5) :=
  (W22_of m c main_arg5 (by decide)).trans (W21_arg5 m c)
theorem W23_arg5 (c : Dev nD) : W23 m c main_arg5 = m ((c : Thread nD τ).loc main_arg5) :=
  (W23_of m c main_arg5 (by decide)).trans (W22_arg5 m c)
theorem W24_arg5 (c : Dev nD) : W24 m c main_arg5 = m ((c : Thread nD τ).loc main_arg5) :=
  (W24_of m c main_arg5 (by decide)).trans (W23_arg5 m c)
theorem W25_arg5 (c : Dev nD) : W25 m c main_arg5 = m ((c : Thread nD τ).loc main_arg5) :=
  (W25_of m c main_arg5 (by decide)).trans (W24_arg5 m c)
theorem W26_arg5 (c : Dev nD) : W26 m c main_arg5 = m ((c : Thread nD τ).loc main_arg5) :=
  (W26_of m c main_arg5 (by decide)).trans (W25_arg5 m c)
theorem W27_arg5 (c : Dev nD) : W27 m c main_arg5 = m ((c : Thread nD τ).loc main_arg5) :=
  (W27_of m c main_arg5 (by decide)).trans (W26_arg5 m c)
theorem W28_arg5 (c : Dev nD) : W28 m c main_arg5 = m ((c : Thread nD τ).loc main_arg5) :=
  (W28_of m c main_arg5 (by decide)).trans (W27_arg5 m c)
theorem W29_arg5 (c : Dev nD) : W29 m c main_arg5 = m ((c : Thread nD τ).loc main_arg5) :=
  (W29_of m c main_arg5 (by decide)).trans (W28_arg5 m c)
theorem W30_arg5 (c : Dev nD) : W30 m c main_arg5 = m ((c : Thread nD τ).loc main_arg5) :=
  (W30_of m c main_arg5 (by decide)).trans (W29_arg5 m c)
theorem W31_arg5 (c : Dev nD) : W31 m c main_arg5 = m ((c : Thread nD τ).loc main_arg5) :=
  (W31_of m c main_arg5 (by decide)).trans (W30_arg5 m c)
theorem W32_arg5 (c : Dev nD) : W32 m c main_arg5 = m ((c : Thread nD τ).loc main_arg5) :=
  (W32_of m c main_arg5 (by decide)).trans (W31_arg5 m c)
theorem W33_arg5 (c : Dev nD) : W33 m c main_arg5 = m ((c : Thread nD τ).loc main_arg5) :=
  (W33_of m c main_arg5 (by decide)).trans (W32_arg5 m c)
theorem W34_arg5 (c : Dev nD) : W34 m c main_arg5 = m ((c : Thread nD τ).loc main_arg5) :=
  (W34_of m c main_arg5 (by decide)).trans (W33_arg5 m c)
theorem W35_arg5 (c : Dev nD) : W35 m c main_arg5 = m ((c : Thread nD τ).loc main_arg5) :=
  (W35_of m c main_arg5 (by decide)).trans (W34_arg5 m c)
theorem W36_arg5 (c : Dev nD) : W36 m c main_arg5 = m ((c : Thread nD τ).loc main_arg5) :=
  (W36_of m c main_arg5 (by decide)).trans (W35_arg5 m c)
theorem W37_arg5 (c : Dev nD) : W37 m c main_arg5 = m ((c : Thread nD τ).loc main_arg5) :=
  (W37_of m c main_arg5 (by decide)).trans (W36_arg5 m c)
theorem W38_arg5 (c : Dev nD) : W38 m c main_arg5 = m ((c : Thread nD τ).loc main_arg5) :=
  (W38_of m c main_arg5 (by decide)).trans (W37_arg5 m c)
theorem W39_arg5 (c : Dev nD) : W39 m c main_arg5 = m ((c : Thread nD τ).loc main_arg5) :=
  (W39_of m c main_arg5 (by decide)).trans (W38_arg5 m c)
theorem W40_arg5 (c : Dev nD) : W40 m c main_arg5 = m ((c : Thread nD τ).loc main_arg5) :=
  (W40_of m c main_arg5 (by decide)).trans (W39_arg5 m c)
theorem W41_arg5 (c : Dev nD) : W41 m c main_arg5 = m ((c : Thread nD τ).loc main_arg5) :=
  (W41_of m c main_arg5 (by decide)).trans (W40_arg5 m c)
theorem W42_arg5 (c : Dev nD) : W42 m c main_arg5 = m ((c : Thread nD τ).loc main_arg5) :=
  (W42_of m c main_arg5 (by decide)).trans (W41_arg5 m c)
theorem W43_arg5 (c : Dev nD) : W43 m c main_arg5 = m ((c : Thread nD τ).loc main_arg5) :=
  (W43_of m c main_arg5 (by decide)).trans (W42_arg5 m c)
theorem W44_arg5 (c : Dev nD) : W44 m c main_arg5 = m ((c : Thread nD τ).loc main_arg5) :=
  (W44_of m c main_arg5 (by decide)).trans (W43_arg5 m c)
theorem W45_arg5 (c : Dev nD) : W45 m c main_arg5 = m ((c : Thread nD τ).loc main_arg5) :=
  (W45_of m c main_arg5 (by decide)).trans (W44_arg5 m c)
theorem W46_arg5 (c : Dev nD) : W46 m c main_arg5 = m ((c : Thread nD τ).loc main_arg5) :=
  (W46_of m c main_arg5 (by decide)).trans (W45_arg5 m c)
theorem W47_arg5 (c : Dev nD) : W47 m c main_arg5 = m ((c : Thread nD τ).loc main_arg5) :=
  (W47_of m c main_arg5 (by decide)).trans (W46_arg5 m c)
theorem W48_arg5 (c : Dev nD) : W48 m c main_arg5 = m ((c : Thread nD τ).loc main_arg5) :=
  (W48_of m c main_arg5 (by decide)).trans (W47_arg5 m c)
theorem W49_arg5 (c : Dev nD) : W49 m c main_arg5 = m ((c : Thread nD τ).loc main_arg5) :=
  (W49_of m c main_arg5 (by decide)).trans (W48_arg5 m c)
theorem W50_arg5 (c : Dev nD) : W50 m c main_arg5 = m ((c : Thread nD τ).loc main_arg5) :=
  (W50_of m c main_arg5 (by decide)).trans (W49_arg5 m c)
theorem W51_arg5 (c : Dev nD) : W51 m c main_arg5 = m ((c : Thread nD τ).loc main_arg5) :=
  (W51_of m c main_arg5 (by decide)).trans (W50_arg5 m c)
theorem W52_arg5 (c : Dev nD) : W52 m c main_arg5 = m ((c : Thread nD τ).loc main_arg5) :=
  (W52_of m c main_arg5 (by decide)).trans (W51_arg5 m c)
theorem W53_arg5 (c : Dev nD) : W53 m c main_arg5 = m ((c : Thread nD τ).loc main_arg5) :=
  (W53_of m c main_arg5 (by decide)).trans (W52_arg5 m c)
theorem W54_arg5 (c : Dev nD) : W54 m c main_arg5 = m ((c : Thread nD τ).loc main_arg5) :=
  (W54_of m c main_arg5 (by decide)).trans (W53_arg5 m c)
theorem W55_arg5 (c : Dev nD) : W55 m c main_arg5 = m ((c : Thread nD τ).loc main_arg5) :=
  (W55_of m c main_arg5 (by decide)).trans (W54_arg5 m c)
theorem W56_arg5 (c : Dev nD) : W56 m c main_arg5 = m ((c : Thread nD τ).loc main_arg5) :=
  (W56_of m c main_arg5 (by decide)).trans (W55_arg5 m c)
theorem W57_arg5 (c : Dev nD) : W57 m c main_arg5 = m ((c : Thread nD τ).loc main_arg5) :=
  (W57_of m c main_arg5 (by decide)).trans (W56_arg5 m c)
theorem W58_arg5 (c : Dev nD) : W58 m c main_arg5 = m ((c : Thread nD τ).loc main_arg5) :=
  (W58_of m c main_arg5 (by decide)).trans (W57_arg5 m c)
theorem W59_arg5 (c : Dev nD) : W59 m c main_arg5 = m ((c : Thread nD τ).loc main_arg5) :=
  (W59_of m c main_arg5 (by decide)).trans (W58_arg5 m c)
theorem W60_arg5 (c : Dev nD) : W60 m c main_arg5 = m ((c : Thread nD τ).loc main_arg5) :=
  (W60_of m c main_arg5 (by decide)).trans (W59_arg5 m c)
theorem W61_arg5 (c : Dev nD) : W61 m c main_arg5 = m ((c : Thread nD τ).loc main_arg5) :=
  (W61_of m c main_arg5 (by decide)).trans (W60_arg5 m c)
theorem W62_arg5 (c : Dev nD) : W62 m c main_arg5 = m ((c : Thread nD τ).loc main_arg5) :=
  (W62_of m c main_arg5 (by decide)).trans (W61_arg5 m c)
theorem W63_arg5 (c : Dev nD) : W63 m c main_arg5 = m ((c : Thread nD τ).loc main_arg5) :=
  (W63_of m c main_arg5 (by decide)).trans (W62_arg5 m c)
theorem W64_arg5 (c : Dev nD) : W64 m c main_arg5 = m ((c : Thread nD τ).loc main_arg5) :=
  (W64_of m c main_arg5 (by decide)).trans (W63_arg5 m c)
theorem W65_arg5 (c : Dev nD) : W65 m c main_arg5 = m ((c : Thread nD τ).loc main_arg5) :=
  (W65_of m c main_arg5 (by decide)).trans (W64_arg5 m c)
theorem W66_arg5 (c : Dev nD) : W66 m c main_arg5 = m ((c : Thread nD τ).loc main_arg5) :=
  (W66_of m c main_arg5 (by decide)).trans (W65_arg5 m c)
theorem W67_arg5 (c : Dev nD) : W67 m c main_arg5 = m ((c : Thread nD τ).loc main_arg5) :=
  (W67_of m c main_arg5 (by decide)).trans (W66_arg5 m c)
theorem W68_arg5 (c : Dev nD) : W68 m c main_arg5 = m ((c : Thread nD τ).loc main_arg5) :=
  (W68_of m c main_arg5 (by decide)).trans (W67_arg5 m c)
theorem W69_arg5 (c : Dev nD) : W69 m c main_arg5 = m ((c : Thread nD τ).loc main_arg5) :=
  (W69_of m c main_arg5 (by decide)).trans (W68_arg5 m c)
theorem W70_arg5 (c : Dev nD) : W70 m c main_arg5 = m ((c : Thread nD τ).loc main_arg5) :=
  (W70_of m c main_arg5 (by decide)).trans (W69_arg5 m c)
theorem W71_arg5 (c : Dev nD) : W71 m c main_arg5 = m ((c : Thread nD τ).loc main_arg5) :=
  (W71_of m c main_arg5 (by decide)).trans (W70_arg5 m c)
theorem W72_arg5 (c : Dev nD) : W72 m c main_arg5 = m ((c : Thread nD τ).loc main_arg5) :=
  (W72_of m c main_arg5 (by decide)).trans (W71_arg5 m c)
theorem W73_arg5 (c : Dev nD) : W73 m c main_arg5 = m ((c : Thread nD τ).loc main_arg5) :=
  (W73_of m c main_arg5 (by decide)).trans (W72_arg5 m c)
theorem W74_arg5 (c : Dev nD) : W74 m c main_arg5 = m ((c : Thread nD τ).loc main_arg5) :=
  (W74_of m c main_arg5 (by decide)).trans (W73_arg5 m c)
theorem W75_arg5 (c : Dev nD) : W75 m c main_arg5 = m ((c : Thread nD τ).loc main_arg5) :=
  (W75_of m c main_arg5 (by decide)).trans (W74_arg5 m c)
theorem W76_arg5 (c : Dev nD) : W76 m c main_arg5 = m ((c : Thread nD τ).loc main_arg5) :=
  (W76_of m c main_arg5 (by decide)).trans (W75_arg5 m c)
theorem W77_arg5 (c : Dev nD) : W77 m c main_arg5 = m ((c : Thread nD τ).loc main_arg5) :=
  (W77_of m c main_arg5 (by decide)).trans (W76_arg5 m c)
theorem W78_arg5 (c : Dev nD) : W78 m c main_arg5 = m ((c : Thread nD τ).loc main_arg5) :=
  (W78_of m c main_arg5 (by decide)).trans (W77_arg5 m c)
theorem W79_arg5 (c : Dev nD) : W79 m c main_arg5 = m ((c : Thread nD τ).loc main_arg5) :=
  (W79_of m c main_arg5 (by decide)).trans (W78_arg5 m c)
theorem W80_arg5 (c : Dev nD) : W80 m c main_arg5 = m ((c : Thread nD τ).loc main_arg5) :=
  (W80_of m c main_arg5 (by decide)).trans (W79_arg5 m c)
theorem W81_arg5 (c : Dev nD) : W81 m c main_arg5 = m ((c : Thread nD τ).loc main_arg5) :=
  (W81_of m c main_arg5 (by decide)).trans (W80_arg5 m c)
theorem W82_arg5 (c : Dev nD) : W82 m c main_arg5 = m ((c : Thread nD τ).loc main_arg5) :=
  (W82_of m c main_arg5 (by decide)).trans (W81_arg5 m c)
theorem W83_arg5 (c : Dev nD) : W83 m c main_arg5 = m ((c : Thread nD τ).loc main_arg5) :=
  (W83_of m c main_arg5 (by decide)).trans (W82_arg5 m c)
theorem W84_arg5 (c : Dev nD) : W84 m c main_arg5 = m ((c : Thread nD τ).loc main_arg5) :=
  (W84_of m c main_arg5 (by decide)).trans (W83_arg5 m c)
theorem W85_arg5 (c : Dev nD) : W85 m c main_arg5 = m ((c : Thread nD τ).loc main_arg5) :=
  (W85_of m c main_arg5 (by decide)).trans (W84_arg5 m c)
theorem W86_arg5 (c : Dev nD) : W86 m c main_arg5 = m ((c : Thread nD τ).loc main_arg5) :=
  (W86_of m c main_arg5 (by decide)).trans (W85_arg5 m c)
theorem W87_arg5 (c : Dev nD) : W87 m c main_arg5 = m ((c : Thread nD τ).loc main_arg5) :=
  (W87_of m c main_arg5 (by decide)).trans (W86_arg5 m c)
theorem W88_arg5 (c : Dev nD) : W88 m c main_arg5 = m ((c : Thread nD τ).loc main_arg5) :=
  (W88_of m c main_arg5 (by decide)).trans (W87_arg5 m c)
theorem W89_arg5 (c : Dev nD) : W89 m c main_arg5 = m ((c : Thread nD τ).loc main_arg5) :=
  (W89_of m c main_arg5 (by decide)).trans (W88_arg5 m c)
theorem W90_arg5 (c : Dev nD) : W90 m c main_arg5 = m ((c : Thread nD τ).loc main_arg5) :=
  (W90_of m c main_arg5 (by decide)).trans (W89_arg5 m c)
theorem W91_arg5 (c : Dev nD) : W91 m c main_arg5 = m ((c : Thread nD τ).loc main_arg5) :=
  (W91_of m c main_arg5 (by decide)).trans (W90_arg5 m c)
theorem W92_arg5 (c : Dev nD) : W92 m c main_arg5 = m ((c : Thread nD τ).loc main_arg5) :=
  (W92_of m c main_arg5 (by decide)).trans (W91_arg5 m c)
theorem W93_arg5 (c : Dev nD) : W93 m c main_arg5 = m ((c : Thread nD τ).loc main_arg5) :=
  (W93_of m c main_arg5 (by decide)).trans (W92_arg5 m c)
theorem W94_arg5 (c : Dev nD) : W94 m c main_arg5 = m ((c : Thread nD τ).loc main_arg5) :=
  (W94_of m c main_arg5 (by decide)).trans (W93_arg5 m c)
theorem W95_arg5 (c : Dev nD) : W95 m c main_arg5 = m ((c : Thread nD τ).loc main_arg5) :=
  (W95_of m c main_arg5 (by decide)).trans (W94_arg5 m c)
theorem W96_arg5 (c : Dev nD) : W96 m c main_arg5 = m ((c : Thread nD τ).loc main_arg5) :=
  (W96_of m c main_arg5 (by decide)).trans (W95_arg5 m c)
theorem W97_arg5 (c : Dev nD) : W97 m c main_arg5 = m ((c : Thread nD τ).loc main_arg5) :=
  (W97_of m c main_arg5 (by decide)).trans (W96_arg5 m c)
theorem W98_arg5 (c : Dev nD) : W98 m c main_arg5 = m ((c : Thread nD τ).loc main_arg5) :=
  (W98_of m c main_arg5 (by decide)).trans (W97_arg5 m c)
theorem W99_arg5 (c : Dev nD) : W99 m c main_arg5 = m ((c : Thread nD τ).loc main_arg5) :=
  (W99_of m c main_arg5 (by decide)).trans (W98_arg5 m c)
theorem W100_arg5 (c : Dev nD) : W100 m c main_arg5 = m ((c : Thread nD τ).loc main_arg5) :=
  (W100_of m c main_arg5 (by decide)).trans (W99_arg5 m c)
theorem W0_arg6 (c : Dev nD) : W0 m c main_arg6 = m ((c : Thread nD τ).loc main_arg6) := rfl
theorem W1_arg6 (c : Dev nD) : W1 m c main_arg6 = m ((c : Thread nD τ).loc main_arg6) :=
  (W1_of m c main_arg6 (by decide)).trans (W0_arg6 m c)
theorem W2_arg6 (c : Dev nD) : W2 m c main_arg6 = m ((c : Thread nD τ).loc main_arg6) :=
  (W2_of m c main_arg6 (by decide)).trans (W1_arg6 m c)
theorem W3_arg6 (c : Dev nD) : W3 m c main_arg6 = m ((c : Thread nD τ).loc main_arg6) :=
  (W3_of m c main_arg6 (by decide)).trans (W2_arg6 m c)
theorem W4_arg6 (c : Dev nD) : W4 m c main_arg6 = m ((c : Thread nD τ).loc main_arg6) :=
  (W4_of m c main_arg6 (by decide)).trans (W3_arg6 m c)
theorem W5_arg6 (c : Dev nD) : W5 m c main_arg6 = m ((c : Thread nD τ).loc main_arg6) :=
  (W5_of m c main_arg6 (by decide)).trans (W4_arg6 m c)
theorem W6_arg6 (c : Dev nD) : W6 m c main_arg6 = m ((c : Thread nD τ).loc main_arg6) :=
  (W6_of m c main_arg6 (by decide)).trans (W5_arg6 m c)
theorem W7_arg6 (c : Dev nD) : W7 m c main_arg6 = m ((c : Thread nD τ).loc main_arg6) :=
  (W7_of m c main_arg6 (by decide)).trans (W6_arg6 m c)
theorem W8_arg6 (c : Dev nD) : W8 m c main_arg6 = m ((c : Thread nD τ).loc main_arg6) :=
  (W8_of m c main_arg6 (by decide)).trans (W7_arg6 m c)
theorem W9_arg6 (c : Dev nD) : W9 m c main_arg6 = m ((c : Thread nD τ).loc main_arg6) :=
  (W9_of m c main_arg6 (by decide)).trans (W8_arg6 m c)
theorem W10_arg6 (c : Dev nD) : W10 m c main_arg6 = m ((c : Thread nD τ).loc main_arg6) :=
  (W10_of m c main_arg6 (by decide)).trans (W9_arg6 m c)
theorem W11_arg6 (c : Dev nD) : W11 m c main_arg6 = m ((c : Thread nD τ).loc main_arg6) :=
  (W11_of m c main_arg6 (by decide)).trans (W10_arg6 m c)
theorem W12_arg6 (c : Dev nD) : W12 m c main_arg6 = m ((c : Thread nD τ).loc main_arg6) :=
  (W12_of m c main_arg6 (by decide)).trans (W11_arg6 m c)
theorem W13_arg6 (c : Dev nD) : W13 m c main_arg6 = m ((c : Thread nD τ).loc main_arg6) :=
  (W13_of m c main_arg6 (by decide)).trans (W12_arg6 m c)
theorem W14_arg6 (c : Dev nD) : W14 m c main_arg6 = m ((c : Thread nD τ).loc main_arg6) :=
  (W14_of m c main_arg6 (by decide)).trans (W13_arg6 m c)
theorem W15_arg6 (c : Dev nD) : W15 m c main_arg6 = m ((c : Thread nD τ).loc main_arg6) :=
  (W15_of m c main_arg6 (by decide)).trans (W14_arg6 m c)
theorem W16_arg6 (c : Dev nD) : W16 m c main_arg6 = m ((c : Thread nD τ).loc main_arg6) :=
  (W16_of m c main_arg6 (by decide)).trans (W15_arg6 m c)
theorem W17_arg6 (c : Dev nD) : W17 m c main_arg6 = m ((c : Thread nD τ).loc main_arg6) :=
  (W17_of m c main_arg6 (by decide)).trans (W16_arg6 m c)
theorem W18_arg6 (c : Dev nD) : W18 m c main_arg6 = m ((c : Thread nD τ).loc main_arg6) :=
  (W18_of m c main_arg6 (by decide)).trans (W17_arg6 m c)
theorem W19_arg6 (c : Dev nD) : W19 m c main_arg6 = m ((c : Thread nD τ).loc main_arg6) :=
  (W19_of m c main_arg6 (by decide)).trans (W18_arg6 m c)
theorem W20_arg6 (c : Dev nD) : W20 m c main_arg6 = m ((c : Thread nD τ).loc main_arg6) :=
  (W20_of m c main_arg6 (by decide)).trans (W19_arg6 m c)
theorem W21_arg6 (c : Dev nD) : W21 m c main_arg6 = m ((c : Thread nD τ).loc main_arg6) :=
  (W21_of m c main_arg6 (by decide)).trans (W20_arg6 m c)
theorem W22_arg6 (c : Dev nD) : W22 m c main_arg6 = m ((c : Thread nD τ).loc main_arg6) :=
  (W22_of m c main_arg6 (by decide)).trans (W21_arg6 m c)
theorem W23_arg6 (c : Dev nD) : W23 m c main_arg6 = m ((c : Thread nD τ).loc main_arg6) :=
  (W23_of m c main_arg6 (by decide)).trans (W22_arg6 m c)
theorem W24_arg6 (c : Dev nD) : W24 m c main_arg6 = m ((c : Thread nD τ).loc main_arg6) :=
  (W24_of m c main_arg6 (by decide)).trans (W23_arg6 m c)
theorem W25_arg6 (c : Dev nD) : W25 m c main_arg6 = m ((c : Thread nD τ).loc main_arg6) :=
  (W25_of m c main_arg6 (by decide)).trans (W24_arg6 m c)
theorem W26_arg6 (c : Dev nD) : W26 m c main_arg6 = m ((c : Thread nD τ).loc main_arg6) :=
  (W26_of m c main_arg6 (by decide)).trans (W25_arg6 m c)
theorem W27_arg6 (c : Dev nD) : W27 m c main_arg6 = m ((c : Thread nD τ).loc main_arg6) :=
  (W27_of m c main_arg6 (by decide)).trans (W26_arg6 m c)
theorem W28_arg6 (c : Dev nD) : W28 m c main_arg6 = m ((c : Thread nD τ).loc main_arg6) :=
  (W28_of m c main_arg6 (by decide)).trans (W27_arg6 m c)
theorem W29_arg6 (c : Dev nD) : W29 m c main_arg6 = m ((c : Thread nD τ).loc main_arg6) :=
  (W29_of m c main_arg6 (by decide)).trans (W28_arg6 m c)
theorem W30_arg6 (c : Dev nD) : W30 m c main_arg6 = m ((c : Thread nD τ).loc main_arg6) :=
  (W30_of m c main_arg6 (by decide)).trans (W29_arg6 m c)
theorem W31_arg6 (c : Dev nD) : W31 m c main_arg6 = m ((c : Thread nD τ).loc main_arg6) :=
  (W31_of m c main_arg6 (by decide)).trans (W30_arg6 m c)
theorem W32_arg6 (c : Dev nD) : W32 m c main_arg6 = m ((c : Thread nD τ).loc main_arg6) :=
  (W32_of m c main_arg6 (by decide)).trans (W31_arg6 m c)
theorem W33_arg6 (c : Dev nD) : W33 m c main_arg6 = m ((c : Thread nD τ).loc main_arg6) :=
  (W33_of m c main_arg6 (by decide)).trans (W32_arg6 m c)
theorem W34_arg6 (c : Dev nD) : W34 m c main_arg6 = m ((c : Thread nD τ).loc main_arg6) :=
  (W34_of m c main_arg6 (by decide)).trans (W33_arg6 m c)
theorem W35_arg6 (c : Dev nD) : W35 m c main_arg6 = m ((c : Thread nD τ).loc main_arg6) :=
  (W35_of m c main_arg6 (by decide)).trans (W34_arg6 m c)
theorem W36_arg6 (c : Dev nD) : W36 m c main_arg6 = m ((c : Thread nD τ).loc main_arg6) :=
  (W36_of m c main_arg6 (by decide)).trans (W35_arg6 m c)
theorem W37_arg6 (c : Dev nD) : W37 m c main_arg6 = m ((c : Thread nD τ).loc main_arg6) :=
  (W37_of m c main_arg6 (by decide)).trans (W36_arg6 m c)
theorem W38_arg6 (c : Dev nD) : W38 m c main_arg6 = m ((c : Thread nD τ).loc main_arg6) :=
  (W38_of m c main_arg6 (by decide)).trans (W37_arg6 m c)
theorem W39_arg6 (c : Dev nD) : W39 m c main_arg6 = m ((c : Thread nD τ).loc main_arg6) :=
  (W39_of m c main_arg6 (by decide)).trans (W38_arg6 m c)
theorem W40_arg6 (c : Dev nD) : W40 m c main_arg6 = m ((c : Thread nD τ).loc main_arg6) :=
  (W40_of m c main_arg6 (by decide)).trans (W39_arg6 m c)
theorem W41_arg6 (c : Dev nD) : W41 m c main_arg6 = m ((c : Thread nD τ).loc main_arg6) :=
  (W41_of m c main_arg6 (by decide)).trans (W40_arg6 m c)
theorem W42_arg6 (c : Dev nD) : W42 m c main_arg6 = m ((c : Thread nD τ).loc main_arg6) :=
  (W42_of m c main_arg6 (by decide)).trans (W41_arg6 m c)
theorem W43_arg6 (c : Dev nD) : W43 m c main_arg6 = m ((c : Thread nD τ).loc main_arg6) :=
  (W43_of m c main_arg6 (by decide)).trans (W42_arg6 m c)
theorem W44_arg6 (c : Dev nD) : W44 m c main_arg6 = m ((c : Thread nD τ).loc main_arg6) :=
  (W44_of m c main_arg6 (by decide)).trans (W43_arg6 m c)
theorem W45_arg6 (c : Dev nD) : W45 m c main_arg6 = m ((c : Thread nD τ).loc main_arg6) :=
  (W45_of m c main_arg6 (by decide)).trans (W44_arg6 m c)
theorem W46_arg6 (c : Dev nD) : W46 m c main_arg6 = m ((c : Thread nD τ).loc main_arg6) :=
  (W46_of m c main_arg6 (by decide)).trans (W45_arg6 m c)
theorem W47_arg6 (c : Dev nD) : W47 m c main_arg6 = m ((c : Thread nD τ).loc main_arg6) :=
  (W47_of m c main_arg6 (by decide)).trans (W46_arg6 m c)
theorem W48_arg6 (c : Dev nD) : W48 m c main_arg6 = m ((c : Thread nD τ).loc main_arg6) :=
  (W48_of m c main_arg6 (by decide)).trans (W47_arg6 m c)
theorem W49_arg6 (c : Dev nD) : W49 m c main_arg6 = m ((c : Thread nD τ).loc main_arg6) :=
  (W49_of m c main_arg6 (by decide)).trans (W48_arg6 m c)
theorem W50_arg6 (c : Dev nD) : W50 m c main_arg6 = m ((c : Thread nD τ).loc main_arg6) :=
  (W50_of m c main_arg6 (by decide)).trans (W49_arg6 m c)
theorem W51_arg6 (c : Dev nD) : W51 m c main_arg6 = m ((c : Thread nD τ).loc main_arg6) :=
  (W51_of m c main_arg6 (by decide)).trans (W50_arg6 m c)
theorem W52_arg6 (c : Dev nD) : W52 m c main_arg6 = m ((c : Thread nD τ).loc main_arg6) :=
  (W52_of m c main_arg6 (by decide)).trans (W51_arg6 m c)
theorem W53_arg6 (c : Dev nD) : W53 m c main_arg6 = m ((c : Thread nD τ).loc main_arg6) :=
  (W53_of m c main_arg6 (by decide)).trans (W52_arg6 m c)
theorem W54_arg6 (c : Dev nD) : W54 m c main_arg6 = m ((c : Thread nD τ).loc main_arg6) :=
  (W54_of m c main_arg6 (by decide)).trans (W53_arg6 m c)
theorem W55_arg6 (c : Dev nD) : W55 m c main_arg6 = m ((c : Thread nD τ).loc main_arg6) :=
  (W55_of m c main_arg6 (by decide)).trans (W54_arg6 m c)
theorem W56_arg6 (c : Dev nD) : W56 m c main_arg6 = m ((c : Thread nD τ).loc main_arg6) :=
  (W56_of m c main_arg6 (by decide)).trans (W55_arg6 m c)
theorem W57_arg6 (c : Dev nD) : W57 m c main_arg6 = m ((c : Thread nD τ).loc main_arg6) :=
  (W57_of m c main_arg6 (by decide)).trans (W56_arg6 m c)
theorem W58_arg6 (c : Dev nD) : W58 m c main_arg6 = m ((c : Thread nD τ).loc main_arg6) :=
  (W58_of m c main_arg6 (by decide)).trans (W57_arg6 m c)
theorem W59_arg6 (c : Dev nD) : W59 m c main_arg6 = m ((c : Thread nD τ).loc main_arg6) :=
  (W59_of m c main_arg6 (by decide)).trans (W58_arg6 m c)
theorem W60_arg6 (c : Dev nD) : W60 m c main_arg6 = m ((c : Thread nD τ).loc main_arg6) :=
  (W60_of m c main_arg6 (by decide)).trans (W59_arg6 m c)
theorem W61_arg6 (c : Dev nD) : W61 m c main_arg6 = m ((c : Thread nD τ).loc main_arg6) :=
  (W61_of m c main_arg6 (by decide)).trans (W60_arg6 m c)
theorem W62_arg6 (c : Dev nD) : W62 m c main_arg6 = m ((c : Thread nD τ).loc main_arg6) :=
  (W62_of m c main_arg6 (by decide)).trans (W61_arg6 m c)
theorem W63_arg6 (c : Dev nD) : W63 m c main_arg6 = m ((c : Thread nD τ).loc main_arg6) :=
  (W63_of m c main_arg6 (by decide)).trans (W62_arg6 m c)
theorem W64_arg6 (c : Dev nD) : W64 m c main_arg6 = m ((c : Thread nD τ).loc main_arg6) :=
  (W64_of m c main_arg6 (by decide)).trans (W63_arg6 m c)
theorem W65_arg6 (c : Dev nD) : W65 m c main_arg6 = m ((c : Thread nD τ).loc main_arg6) :=
  (W65_of m c main_arg6 (by decide)).trans (W64_arg6 m c)
theorem W66_arg6 (c : Dev nD) : W66 m c main_arg6 = m ((c : Thread nD τ).loc main_arg6) :=
  (W66_of m c main_arg6 (by decide)).trans (W65_arg6 m c)
theorem W67_arg6 (c : Dev nD) : W67 m c main_arg6 = m ((c : Thread nD τ).loc main_arg6) :=
  (W67_of m c main_arg6 (by decide)).trans (W66_arg6 m c)
theorem W68_arg6 (c : Dev nD) : W68 m c main_arg6 = m ((c : Thread nD τ).loc main_arg6) :=
  (W68_of m c main_arg6 (by decide)).trans (W67_arg6 m c)
theorem W69_arg6 (c : Dev nD) : W69 m c main_arg6 = m ((c : Thread nD τ).loc main_arg6) :=
  (W69_of m c main_arg6 (by decide)).trans (W68_arg6 m c)
theorem W70_arg6 (c : Dev nD) : W70 m c main_arg6 = m ((c : Thread nD τ).loc main_arg6) :=
  (W70_of m c main_arg6 (by decide)).trans (W69_arg6 m c)
theorem W71_arg6 (c : Dev nD) : W71 m c main_arg6 = m ((c : Thread nD τ).loc main_arg6) :=
  (W71_of m c main_arg6 (by decide)).trans (W70_arg6 m c)
theorem W72_arg6 (c : Dev nD) : W72 m c main_arg6 = m ((c : Thread nD τ).loc main_arg6) :=
  (W72_of m c main_arg6 (by decide)).trans (W71_arg6 m c)
theorem W73_arg6 (c : Dev nD) : W73 m c main_arg6 = m ((c : Thread nD τ).loc main_arg6) :=
  (W73_of m c main_arg6 (by decide)).trans (W72_arg6 m c)
theorem W74_arg6 (c : Dev nD) : W74 m c main_arg6 = m ((c : Thread nD τ).loc main_arg6) :=
  (W74_of m c main_arg6 (by decide)).trans (W73_arg6 m c)
theorem W75_arg6 (c : Dev nD) : W75 m c main_arg6 = m ((c : Thread nD τ).loc main_arg6) :=
  (W75_of m c main_arg6 (by decide)).trans (W74_arg6 m c)
theorem W76_arg6 (c : Dev nD) : W76 m c main_arg6 = m ((c : Thread nD τ).loc main_arg6) :=
  (W76_of m c main_arg6 (by decide)).trans (W75_arg6 m c)
theorem W77_arg6 (c : Dev nD) : W77 m c main_arg6 = m ((c : Thread nD τ).loc main_arg6) :=
  (W77_of m c main_arg6 (by decide)).trans (W76_arg6 m c)
theorem W78_arg6 (c : Dev nD) : W78 m c main_arg6 = m ((c : Thread nD τ).loc main_arg6) :=
  (W78_of m c main_arg6 (by decide)).trans (W77_arg6 m c)
theorem W79_arg6 (c : Dev nD) : W79 m c main_arg6 = m ((c : Thread nD τ).loc main_arg6) :=
  (W79_of m c main_arg6 (by decide)).trans (W78_arg6 m c)
theorem W80_arg6 (c : Dev nD) : W80 m c main_arg6 = m ((c : Thread nD τ).loc main_arg6) :=
  (W80_of m c main_arg6 (by decide)).trans (W79_arg6 m c)
theorem W81_arg6 (c : Dev nD) : W81 m c main_arg6 = m ((c : Thread nD τ).loc main_arg6) :=
  (W81_of m c main_arg6 (by decide)).trans (W80_arg6 m c)
theorem W82_arg6 (c : Dev nD) : W82 m c main_arg6 = m ((c : Thread nD τ).loc main_arg6) :=
  (W82_of m c main_arg6 (by decide)).trans (W81_arg6 m c)
theorem W83_arg6 (c : Dev nD) : W83 m c main_arg6 = m ((c : Thread nD τ).loc main_arg6) :=
  (W83_of m c main_arg6 (by decide)).trans (W82_arg6 m c)
theorem W84_arg6 (c : Dev nD) : W84 m c main_arg6 = m ((c : Thread nD τ).loc main_arg6) :=
  (W84_of m c main_arg6 (by decide)).trans (W83_arg6 m c)
theorem W85_arg6 (c : Dev nD) : W85 m c main_arg6 = m ((c : Thread nD τ).loc main_arg6) :=
  (W85_of m c main_arg6 (by decide)).trans (W84_arg6 m c)
theorem W86_arg6 (c : Dev nD) : W86 m c main_arg6 = m ((c : Thread nD τ).loc main_arg6) :=
  (W86_of m c main_arg6 (by decide)).trans (W85_arg6 m c)
theorem W87_arg6 (c : Dev nD) : W87 m c main_arg6 = m ((c : Thread nD τ).loc main_arg6) :=
  (W87_of m c main_arg6 (by decide)).trans (W86_arg6 m c)
theorem W88_arg6 (c : Dev nD) : W88 m c main_arg6 = m ((c : Thread nD τ).loc main_arg6) :=
  (W88_of m c main_arg6 (by decide)).trans (W87_arg6 m c)
theorem W89_arg6 (c : Dev nD) : W89 m c main_arg6 = m ((c : Thread nD τ).loc main_arg6) :=
  (W89_of m c main_arg6 (by decide)).trans (W88_arg6 m c)
theorem W90_arg6 (c : Dev nD) : W90 m c main_arg6 = m ((c : Thread nD τ).loc main_arg6) :=
  (W90_of m c main_arg6 (by decide)).trans (W89_arg6 m c)
theorem W91_arg6 (c : Dev nD) : W91 m c main_arg6 = m ((c : Thread nD τ).loc main_arg6) :=
  (W91_of m c main_arg6 (by decide)).trans (W90_arg6 m c)
theorem W92_arg6 (c : Dev nD) : W92 m c main_arg6 = m ((c : Thread nD τ).loc main_arg6) :=
  (W92_of m c main_arg6 (by decide)).trans (W91_arg6 m c)
theorem W93_arg6 (c : Dev nD) : W93 m c main_arg6 = m ((c : Thread nD τ).loc main_arg6) :=
  (W93_of m c main_arg6 (by decide)).trans (W92_arg6 m c)
theorem W94_arg6 (c : Dev nD) : W94 m c main_arg6 = m ((c : Thread nD τ).loc main_arg6) :=
  (W94_of m c main_arg6 (by decide)).trans (W93_arg6 m c)
theorem W95_arg6 (c : Dev nD) : W95 m c main_arg6 = m ((c : Thread nD τ).loc main_arg6) :=
  (W95_of m c main_arg6 (by decide)).trans (W94_arg6 m c)
theorem W96_arg6 (c : Dev nD) : W96 m c main_arg6 = m ((c : Thread nD τ).loc main_arg6) :=
  (W96_of m c main_arg6 (by decide)).trans (W95_arg6 m c)
theorem W97_arg6 (c : Dev nD) : W97 m c main_arg6 = m ((c : Thread nD τ).loc main_arg6) :=
  (W97_of m c main_arg6 (by decide)).trans (W96_arg6 m c)
theorem W98_arg6 (c : Dev nD) : W98 m c main_arg6 = m ((c : Thread nD τ).loc main_arg6) :=
  (W98_of m c main_arg6 (by decide)).trans (W97_arg6 m c)
theorem W99_arg6 (c : Dev nD) : W99 m c main_arg6 = m ((c : Thread nD τ).loc main_arg6) :=
  (W99_of m c main_arg6 (by decide)).trans (W98_arg6 m c)
theorem W100_arg6 (c : Dev nD) : W100 m c main_arg6 = m ((c : Thread nD τ).loc main_arg6) :=
  (W100_of m c main_arg6 (by decide)).trans (W99_arg6 m c)

end Cert.KernelIdeal.Hand

end
-- ==== Proof.KI.TblReads.lean ====
/-
  The row numbers of each gather region.

  Before gather region K the host cuts the region's hundred thousand row numbers out of the long list of row
  numbers: the entries from 100000 ((K - 1) mod 16) on. Read here from any contents of the buffers the stretch
  starts from: the region's table holds that slice of whatever the long list's buffer held.
-/
import proofs.«421643_j28415503630349_2_alg».proof.Proof.Gen.KernelIdeal.Launch
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.StableHlo
open Idealize.SL.Sem

variable {F : FTy → Type} [FloatOps F]

/-- Region 1's table: the row numbers from 0 on. -/
theorem ktbl1 (Wb : Valuation τ sig (Elt F)) :
    StableHlo.after hostOps1 Wb (Proc.devRef .tc main_v5)
      = extractStridedSlice S100000 ![0] (Wb (Proc.devRef .tc main_arg4)) Shapes1.Facts₀.slices_S1600000_S100000_0 := by
  unfold hostOps1
  after_results

/-- Region 2's table: the row numbers from 100000 on. -/
theorem ktbl2 (Wb : Valuation τ sig (Elt F)) :
    StableHlo.after hostOps2 Wb (Proc.devRef .tc main_v9)
      = extractStridedSlice S100000 ![100000] (Wb (Proc.devRef .tc main_arg4)) Shapes1.Facts₀.slices_S1600000_S100000_100000 := by
  unfold hostOps2
  after_results

/-- Region 3's table: the row numbers from 200000 on. -/
theorem ktbl3 (Wb : Valuation τ sig (Elt F)) :
    StableHlo.after hostOps3 Wb (Proc.devRef .tc main_v13)
      = extractStridedSlice S100000 ![200000] (Wb (Proc.devRef .tc main_arg4)) Shapes1.Facts₀.slices_S1600000_S100000_200000 := by
  unfold hostOps3
  after_results

/-- Region 4's table: the row numbers from 300000 on. -/
theorem ktbl4 (Wb : Valuation τ sig (Elt F)) :
    StableHlo.after hostOps4 Wb (Proc.devRef .tc main_v17)
      = extractStridedSlice S100000 ![300000] (Wb (Proc.devRef .tc main_arg4)) Shapes1.Facts₀.slices_S1600000_S100000_300000 := by
  unfold hostOps4
  after_results

/-- Region 5's table: the row numbers from 400000 on. -/
theorem ktbl5 (Wb : Valuation τ sig (Elt F)) :
    StableHlo.after hostOps5 Wb (Proc.devRef .tc main_v21)
      = extractStridedSlice S100000 ![400000] (Wb (Proc.devRef .tc main_arg4)) Shapes1.Facts₀.slices_S1600000_S100000_400000 := by
  unfold hostOps5
  after_results

/-- Region 6's table: the row numbers from 500000 on. -/
theorem ktbl6 (Wb : Valuation τ sig (Elt F)) :
    StableHlo.after hostOps6 Wb (Proc.devRef .tc main_v25)
      = extractStridedSlice S100000 ![500000] (Wb (Proc.devRef .tc main_arg4)) Shapes1.Facts₀.slices_S1600000_S100000_500000 := by
  unfold hostOps6
  after_results

/-- Region 7's table: the row numbers from 600000 on. -/
theorem ktbl7 (Wb : Valuation τ sig (Elt F)) :
    StableHlo.after hostOps7 Wb (Proc.devRef .tc main_v29)
      = extractStridedSlice S100000 ![600000] (Wb (Proc.devRef .tc main_arg4)) Shapes1.Facts₀.slices_S1600000_S100000_600000 := by
  unfold hostOps7
  after_results

/-- Region 8's table: the row numbers from 700000 on. -/
theorem ktbl8 (Wb : Valuation τ sig (Elt F)) :
    StableHlo.after hostOps8 Wb (Proc.devRef .tc main_v33)
      = extractStridedSlice S100000 ![700000] (Wb (Proc.devRef .tc main_arg4)) Shapes1.Facts₀.slices_S1600000_S100000_700000 := by
  unfold hostOps8
  after_results

/-- Region 9's table: the row numbers from 800000 on. -/
theorem ktbl9 (Wb : Valuation τ sig (Elt F)) :
    StableHlo.after hostOps9 Wb (Proc.devRef .tc main_v37)
      = extractStridedSlice S100000 ![800000] (Wb (Proc.devRef .tc main_arg4)) Shapes1.Facts₀.slices_S1600000_S100000_800000 := by
  unfold hostOps9
  after_results

/-- Region 10's table: the row numbers from 900000 on. -/
theorem ktbl10 (Wb : Valuation τ sig (Elt F)) :
    StableHlo.after hostOps10 Wb (Proc.devRef .tc main_v41)
      = extractStridedSlice S100000 ![900000] (Wb (Proc.devRef .tc main_arg4)) Shapes1.Facts₀.slices_S1600000_S100000_900000 := by
  unfold hostOps10
  after_results

/-- Region 11's table: the row numbers from 1000000 on. -/
theorem ktbl11 (Wb : Valuation τ sig (Elt F)) :
    StableHlo.after hostOps11 Wb (Proc.devRef .tc main_v45)
      = extractStridedSlice S100000 ![1000000] (Wb (Proc.devRef .tc main_arg4)) Shapes1.Facts₀.slices_S1600000_S100000_1000000 := by
  unfold hostOps11
  after_results

/-- Region 12's table: the row numbers from 1100000 on. -/
theorem ktbl12 (Wb : Valuation τ sig (Elt F)) :
    StableHlo.after hostOps12 Wb (Proc.devRef .tc main_v49)
      = extractStridedSlice S100000 ![1100000] (Wb (Proc.devRef .tc main_arg4)) Shapes1.Facts₀.slices_S1600000_S100000_1100000 := by
  unfold hostOps12
  after_results

/-- Region 13's table: the row numbers from 1200000 on. -/
theorem ktbl13 (Wb : Valuation τ sig (Elt F)) :
    StableHlo.after hostOps13 Wb (Proc.devRef .tc main_v53)
      = extractStridedSlice S100000 ![1200000] (Wb (Proc.devRef .tc main_arg4)) Shapes1.Facts₀.slices_S1600000_S100000_1200000 := by
  unfold hostOps13
  after_results

/-- Region 14's table: the row numbers from 1300000 on. -/
theorem ktbl14 (Wb : Valuation τ sig (Elt F)) :
    StableHlo.after hostOps14 Wb (Proc.devRef .tc main_v57)
      = extractStridedSlice S100000 ![1300000] (Wb (Proc.devRef .tc main_arg4)) Shapes1.Facts₀.slices_S1600000_S100000_1300000 := by
  unfold hostOps14
  after_results

/-- Region 15's table: the row numbers from 1400000 on. -/
theorem ktbl15 (Wb : Valuation τ sig (Elt F)) :
    StableHlo.after hostOps15 Wb (Proc.devRef .tc main_v61)
      = extractStridedSlice S100000 ![1400000] (Wb (Proc.devRef .tc main_arg4)) Shapes1.Facts₀.slices_S1600000_S100000_1400000 := by
  unfold hostOps15
  after_results

/-- Region 16's table: the row numbers from 1500000 on. -/
theorem ktbl16 (Wb : Valuation τ sig (Elt F)) :
    StableHlo.after hostOps16 Wb (Proc.devRef .tc main_v65)
      = extractStridedSlice S100000 ![1500000] (Wb (Proc.devRef .tc main_arg4)) Shapes1.Facts₀.slices_S1600000_S100000_1500000 := by
  unfold hostOps16
  after_results

/-- Region 17's table: the row numbers from 0 on. -/
theorem ktbl17 (Wb : Valuation τ sig (Elt F)) :
    StableHlo.after hostOps17 Wb (Proc.devRef .tc main_v74)
      = extractStridedSlice S100000 ![0] (Wb (Proc.devRef .tc main_arg4)) Shapes1.Facts₀.slices_S1600000_S100000_0 := by
  unfold hostOps17
  after_results

/-- Region 18's table: the row numbers from 100000 on. -/
theorem ktbl18 (Wb : Valuation τ sig (Elt F)) :
    StableHlo.after hostOps18 Wb (Proc.devRef .tc main_v78)
      = extractStridedSlice S100000 ![100000] (Wb (Proc.devRef .tc main_arg4)) Shapes1.Facts₀.slices_S1600000_S100000_100000 := by
  unfold hostOps18
  after_results

/-- Region 19's table: the row numbers from 200000 on. -/
theorem ktbl19 (Wb : Valuation τ sig (Elt F)) :
    StableHlo.after hostOps19 Wb (Proc.devRef .tc main_v82)
      = extractStridedSlice S100000 ![200000] (Wb (Proc.devRef .tc main_arg4)) Shapes1.Facts₀.slices_S1600000_S100000_200000 := by
  unfold hostOps19
  after_results

/-- Region 20's table: the row numbers from 300000 on. -/
theorem ktbl20 (Wb : Valuation τ sig (Elt F)) :
    StableHlo.after hostOps20 Wb (Proc.devRef .tc main_v86)
      = extractStridedSlice S100000 ![300000] (Wb (Proc.devRef .tc main_arg4)) Shapes1.Facts₀.slices_S1600000_S100000_300000 := by
  unfold hostOps20
  after_results

/-- Region 21's table: the row numbers from 400000 on. -/
theorem ktbl21 (Wb : Valuation τ sig (Elt F)) :
    StableHlo.after hostOps21 Wb (Proc.devRef .tc main_v90)
      = extractStridedSlice S100000 ![400000] (Wb (Proc.devRef .tc main_arg4)) Shapes1.Facts₀.slices_S1600000_S100000_400000 := by
  unfold hostOps21
  after_results

/-- Region 22's table: the row numbers from 500000 on. -/
theorem ktbl22 (Wb : Valuation τ sig (Elt F)) :
    StableHlo.after hostOps22 Wb (Proc.devRef .tc main_v94)
      = extractStridedSlice S100000 ![500000] (Wb (Proc.devRef .tc main_arg4)) Shapes1.Facts₀.slices_S1600000_S100000_500000 := by
  unfold hostOps22
  after_results

/-- Region 23's table: the row numbers from 600000 on. -/
theorem ktbl23 (Wb : Valuation τ sig (Elt F)) :
    StableHlo.after hostOps23 Wb (Proc.devRef .tc main_v98)
      = extractStridedSlice S100000 ![600000] (Wb (Proc.devRef .tc main_arg4)) Shapes1.Facts₀.slices_S1600000_S100000_600000 := by
  unfold hostOps23
  after_results

/-- Region 24's table: the row numbers from 700000 on. -/
theorem ktbl24 (Wb : Valuation τ sig (Elt F)) :
    StableHlo.after hostOps24 Wb (Proc.devRef .tc main_v102)
      = extractStridedSlice S100000 ![700000] (Wb (Proc.devRef .tc main_arg4)) Shapes1.Facts₀.slices_S1600000_S100000_700000 := by
  unfold hostOps24
  after_results

/-- Region 25's table: the row numbers from 800000 on. -/
theorem ktbl25 (Wb : Valuation τ sig (Elt F)) :
    StableHlo.after hostOps25 Wb (Proc.devRef .tc main_v106)
      = extractStridedSlice S100000 ![800000] (Wb (Proc.devRef .tc main_arg4)) Shapes1.Facts₀.slices_S1600000_S100000_800000 := by
  unfold hostOps25
  after_results

/-- Region 26's table: the row numbers from 900000 on. -/
theorem ktbl26 (Wb : Valuation τ sig (Elt F)) :
    StableHlo.after hostOps26 Wb (Proc.devRef .tc main_v110)
      = extractStridedSlice S100000 ![900000] (Wb (Proc.devRef .tc main_arg4)) Shapes1.Facts₀.slices_S1600000_S100000_900000 := by
  unfold hostOps26
  after_results

/-- Region 27's table: the row numbers from 1000000 on. -/
theorem ktbl27 (Wb : Valuation τ sig (Elt F)) :
    StableHlo.after hostOps27 Wb (Proc.devRef .tc main_v114)
      = extractStridedSlice S100000 ![1000000] (Wb (Proc.devRef .tc main_arg4)) Shapes1.Facts₀.slices_S1600000_S100000_1000000 := by
  unfold hostOps27
  after_results

/-- Region 28's table: the row numbers from 1100000 on. -/
theorem ktbl28 (Wb : Valuation τ sig (Elt F)) :
    StableHlo.after hostOps28 Wb (Proc.devRef .tc main_v118)
      = extractStridedSlice S100000 ![1100000] (Wb (Proc.devRef .tc main_arg4)) Shapes1.Facts₀.slices_S1600000_S100000_1100000 := by
  unfold hostOps28
  after_results

/-- Region 29's table: the row numbers from 1200000 on. -/
theorem ktbl29 (Wb : Valuation τ sig (Elt F)) :
    StableHlo.after hostOps29 Wb (Proc.devRef .tc main_v122)
      = extractStridedSlice S100000 ![1200000] (Wb (Proc.devRef .tc main_arg4)) Shapes1.Facts₀.slices_S1600000_S100000_1200000 := by
  unfold hostOps29
  after_results

/-- Region 30's table: the row numbers from 1300000 on. -/
theorem ktbl30 (Wb : Valuation τ sig (Elt F)) :
    StableHlo.after hostOps30 Wb (Proc.devRef .tc main_v126)
      = extractStridedSlice S100000 ![1300000] (Wb (Proc.devRef .tc main_arg4)) Shapes1.Facts₀.slices_S1600000_S100000_1300000 := by
  unfold hostOps30
  after_results

/-- Region 31's table: the row numbers from 1400000 on. -/
theorem ktbl31 (Wb : Valuation τ sig (Elt F)) :
    StableHlo.after hostOps31 Wb (Proc.devRef .tc main_v130)
      = extractStridedSlice S100000 ![1400000] (Wb (Proc.devRef .tc main_arg4)) Shapes1.Facts₀.slices_S1600000_S100000_1400000 := by
  unfold hostOps31
  after_results

/-- Region 32's table: the row numbers from 1500000 on. -/
theorem ktbl32 (Wb : Valuation τ sig (Elt F)) :
    StableHlo.after hostOps32 Wb (Proc.devRef .tc main_v134)
      = extractStridedSlice S100000 ![1500000] (Wb (Proc.devRef .tc main_arg4)) Shapes1.Facts₀.slices_S1600000_S100000_1500000 := by
  unfold hostOps32
  after_results

/-- Region 33's table: the row numbers from 0 on. -/
theorem ktbl33 (Wb : Valuation τ sig (Elt F)) :
    StableHlo.after hostOps33 Wb (Proc.devRef .tc main_v143)
      = extractStridedSlice S100000 ![0] (Wb (Proc.devRef .tc main_arg4)) Shapes1.Facts₀.slices_S1600000_S100000_0 := by
  unfold hostOps33
  after_results

/-- Region 34's table: the row numbers from 100000 on. -/
theorem ktbl34 (Wb : Valuation τ sig (Elt F)) :
    StableHlo.after hostOps34 Wb (Proc.devRef .tc main_v147)
      = extractStridedSlice S100000 ![100000] (Wb (Proc.devRef .tc main_arg4)) Shapes1.Facts₀.slices_S1600000_S100000_100000 := by
  unfold hostOps34
  after_results

/-- Region 35's table: the row numbers from 200000 on. -/
theorem ktbl35 (Wb : Valuation τ sig (Elt F)) :
    StableHlo.after hostOps35 Wb (Proc.devRef .tc main_v151)
      = extractStridedSlice S100000 ![200000] (Wb (Proc.devRef .tc main_arg4)) Shapes1.Facts₀.slices_S1600000_S100000_200000 := by
  unfold hostOps35
  after_results

/-- Region 36's table: the row numbers from 300000 on. -/
theorem ktbl36 (Wb : Valuation τ sig (Elt F)) :
    StableHlo.after hostOps36 Wb (Proc.devRef .tc main_v155)
      = extractStridedSlice S100000 ![300000] (Wb (Proc.devRef .tc main_arg4)) Shapes1.Facts₀.slices_S1600000_S100000_300000 := by
  unfold hostOps36
  after_results

/-- Region 37's table: the row numbers from 400000 on. -/
theorem ktbl37 (Wb : Valuation τ sig (Elt F)) :
    StableHlo.after hostOps37 Wb (Proc.devRef .tc main_v159)
      = extractStridedSlice S100000 ![400000] (Wb (Proc.devRef .tc main_arg4)) Shapes1.Facts₀.slices_S1600000_S100000_400000 := by
  unfold hostOps37
  after_results

/-- Region 38's table: the row numbers from 500000 on. -/
theorem ktbl38 (Wb : Valuation τ sig (Elt F)) :
    StableHlo.after hostOps38 Wb (Proc.devRef .tc main_v163)
      = extractStridedSlice S100000 ![500000] (Wb (Proc.devRef .tc main_arg4)) Shapes1.Facts₀.slices_S1600000_S100000_500000 := by
  unfold hostOps38
  after_results

/-- Region 39's table: the row numbers from 600000 on. -/
theorem ktbl39 (Wb : Valuation τ sig (Elt F)) :
    StableHlo.after hostOps39 Wb (Proc.devRef .tc main_v167)
      = extractStridedSlice S100000 ![600000] (Wb (Proc.devRef .tc main_arg4)) Shapes1.Facts₀.slices_S1600000_S100000_600000 := by
  unfold hostOps39
  after_results

/-- Region 40's table: the row numbers from 700000 on. -/
theorem ktbl40 (Wb : Valuation τ sig (Elt F)) :
    StableHlo.after hostOps40 Wb (Proc.devRef .tc main_v171)
      = extractStridedSlice S100000 ![700000] (Wb (Proc.devRef .tc main_arg4)) Shapes1.Facts₀.slices_S1600000_S100000_700000 := by
  unfold hostOps40
  after_results

/-- Region 41's table: the row numbers from 800000 on. -/
theorem ktbl41 (Wb : Valuation τ sig (Elt F)) :
    StableHlo.after hostOps41 Wb (Proc.devRef .tc main_v175)
      = extractStridedSlice S100000 ![800000] (Wb (Proc.devRef .tc main_arg4)) Shapes1.Facts₀.slices_S1600000_S100000_800000 := by
  unfold hostOps41
  after_results

/-- Region 42's table: the row numbers from 900000 on. -/
theorem ktbl42 (Wb : Valuation τ sig (Elt F)) :
    StableHlo.after hostOps42 Wb (Proc.devRef .tc main_v179)
      = extractStridedSlice S100000 ![900000] (Wb (Proc.devRef .tc main_arg4)) Shapes1.Facts₀.slices_S1600000_S100000_900000 := by
  unfold hostOps42
  after_results

/-- Region 43's table: the row numbers from 1000000 on. -/
theorem ktbl43 (Wb : Valuation τ sig (Elt F)) :
    StableHlo.after hostOps43 Wb (Proc.devRef .tc main_v183)
      = extractStridedSlice S100000 ![1000000] (Wb (Proc.devRef .tc main_arg4)) Shapes1.Facts₀.slices_S1600000_S100000_1000000 := by
  unfold hostOps43
  after_results

/-- Region 44's table: the row numbers from 1100000 on. -/
theorem ktbl44 (Wb : Valuation τ sig (Elt F)) :
    StableHlo.after hostOps44 Wb (Proc.devRef .tc main_v187)
      = extractStridedSlice S100000 ![1100000] (Wb (Proc.devRef .tc main_arg4)) Shapes1.Facts₀.slices_S1600000_S100000_1100000 := by
  unfold hostOps44
  after_results

/-- Region 45's table: the row numbers from 1200000 on. -/
theorem ktbl45 (Wb : Valuation τ sig (Elt F)) :
    StableHlo.after hostOps45 Wb (Proc.devRef .tc main_v191)
      = extractStridedSlice S100000 ![1200000] (Wb (Proc.devRef .tc main_arg4)) Shapes1.Facts₀.slices_S1600000_S100000_1200000 := by
  unfold hostOps45
  after_results

/-- Region 46's table: the row numbers from 1300000 on. -/
theorem ktbl46 (Wb : Valuation τ sig (Elt F)) :
    StableHlo.after hostOps46 Wb (Proc.devRef .tc main_v195)
      = extractStridedSlice S100000 ![1300000] (Wb (Proc.devRef .tc main_arg4)) Shapes1.Facts₀.slices_S1600000_S100000_1300000 := by
  unfold hostOps46
  after_results

/-- Region 47's table: the row numbers from 1400000 on. -/
theorem ktbl47 (Wb : Valuation τ sig (Elt F)) :
    StableHlo.after hostOps47 Wb (Proc.devRef .tc main_v199)
      = extractStridedSlice S100000 ![1400000] (Wb (Proc.devRef .tc main_arg4)) Shapes1.Facts₀.slices_S1600000_S100000_1400000 := by
  unfold hostOps47
  after_results

/-- Region 48's table: the row numbers from 1500000 on. -/
theorem ktbl48 (Wb : Valuation τ sig (Elt F)) :
    StableHlo.after hostOps48 Wb (Proc.devRef .tc main_v203)
      = extractStridedSlice S100000 ![1500000] (Wb (Proc.devRef .tc main_arg4)) Shapes1.Facts₀.slices_S1600000_S100000_1500000 := by
  unfold hostOps48
  after_results

end Cert.KernelIdeal.Hand

end
-- ==== Proof.KI.Tables.lean ====
/-
  Each gather region's table at its entry is a slice of the column indices (written by the host stretch before the
  region from the argument array, which nothing changes), so under the precondition every word of it is a row of the
  node table.
-/
import proofs.«421643_j28415503630349_2_alg».proof.Proof.KI.Args
import proofs.«421643_j28415503630349_2_alg».proof.Proof.KI.PreCols
import proofs.«421643_j28415503630349_2_alg».proof.Proof.KI.TblReads

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

variable (m : (ℓ : Loc nD τ sig) → Buf (Elt F) ℓ)

variable (hcols : ∀ (c : Dev nD) (e : S1600000.Idx), (m ((c.tc : Thread nD τ).loc main_arg4) e).toNat < 100000)

theorem tbl_eq1 (c : Dev nD) : W4 m c main_v5 = extractStridedSlice S100000 ![0] (W3 m c main_arg4) Shapes1.Facts₀.slices_S1600000_S100000_0 :=
  ktbl1 (W3 m c)
attribute [local irreducible] W3 in
include hcols in
theorem tbl_lt1 : ∀ y, (((adm1 m).1 0) y).toNat < 100000 := fun y => by
  show (W4 m 0 main_v5 y).toNat < 100000
  rw [tbl_eq1 m 0, W3_arg4 m 0]
  exact slice_lt (hcols 0) _ _ y
theorem tbl_at1 (c : Dev nD) (k : Fin pre1.K) : Vof (W4 m) c (pre1.ref k) = (adm1 m).1 k := by
  obtain rfl : c = 0 := Subsingleton.elim _ _
  rfl
theorem tbl_eq2 (c : Dev nD) : W6 m c main_v9 = extractStridedSlice S100000 ![100000] (W5 m c main_arg4) Shapes1.Facts₀.slices_S1600000_S100000_100000 :=
  ktbl2 (W5 m c)
attribute [local irreducible] W5 in
include hcols in
theorem tbl_lt2 : ∀ y, (((adm2 m).1 0) y).toNat < 100000 := fun y => by
  show (W6 m 0 main_v9 y).toNat < 100000
  rw [tbl_eq2 m 0, W5_arg4 m 0]
  exact slice_lt (hcols 0) _ _ y
theorem tbl_at2 (c : Dev nD) (k : Fin pre2.K) : Vof (W6 m) c (pre2.ref k) = (adm2 m).1 k := by
  obtain rfl : c = 0 := Subsingleton.elim _ _
  rfl
theorem tbl_eq3 (c : Dev nD) : W8 m c main_v13 = extractStridedSlice S100000 ![200000] (W7 m c main_arg4) Shapes1.Facts₀.slices_S1600000_S100000_200000 :=
  ktbl3 (W7 m c)
attribute [local irreducible] W7 in
include hcols in
theorem tbl_lt3 : ∀ y, (((adm3 m).1 0) y).toNat < 100000 := fun y => by
  show (W8 m 0 main_v13 y).toNat < 100000
  rw [tbl_eq3 m 0, W7_arg4 m 0]
  exact slice_lt (hcols 0) _ _ y
theorem tbl_at3 (c : Dev nD) (k : Fin pre3.K) : Vof (W8 m) c (pre3.ref k) = (adm3 m).1 k := by
  obtain rfl : c = 0 := Subsingleton.elim _ _
  rfl
theorem tbl_eq4 (c : Dev nD) : W10 m c main_v17 = extractStridedSlice S100000 ![300000] (W9 m c main_arg4) Shapes1.Facts₀.slices_S1600000_S100000_300000 :=
  ktbl4 (W9 m c)
attribute [local irreducible] W9 in
include hcols in
theorem tbl_lt4 : ∀ y, (((adm4 m).1 0) y).toNat < 100000 := fun y => by
  show (W10 m 0 main_v17 y).toNat < 100000
  rw [tbl_eq4 m 0, W9_arg4 m 0]
  exact slice_lt (hcols 0) _ _ y
theorem tbl_at4 (c : Dev nD) (k : Fin pre4.K) : Vof (W10 m) c (pre4.ref k) = (adm4 m).1 k := by
  obtain rfl : c = 0 := Subsingleton.elim _ _
  rfl
theorem tbl_eq5 (c : Dev nD) : W12 m c main_v21 = extractStridedSlice S100000 ![400000] (W11 m c main_arg4) Shapes1.Facts₀.slices_S1600000_S100000_400000 :=
  ktbl5 (W11 m c)
attribute [local irreducible] W11 in
include hcols in
theorem tbl_lt5 : ∀ y, (((adm5 m).1 0) y).toNat < 100000 := fun y => by
  show (W12 m 0 main_v21 y).toNat < 100000
  rw [tbl_eq5 m 0, W11_arg4 m 0]
  exact slice_lt (hcols 0) _ _ y
theorem tbl_at5 (c : Dev nD) (k : Fin pre5.K) : Vof (W12 m) c (pre5.ref k) = (adm5 m).1 k := by
  obtain rfl : c = 0 := Subsingleton.elim _ _
  rfl
theorem tbl_eq6 (c : Dev nD) : W14 m c main_v25 = extractStridedSlice S100000 ![500000] (W13 m c main_arg4) Shapes1.Facts₀.slices_S1600000_S100000_500000 :=
  ktbl6 (W13 m c)
attribute [local irreducible] W13 in
include hcols in
theorem tbl_lt6 : ∀ y, (((adm6 m).1 0) y).toNat < 100000 := fun y => by
  show (W14 m 0 main_v25 y).toNat < 100000
  rw [tbl_eq6 m 0, W13_arg4 m 0]
  exact slice_lt (hcols 0) _ _ y
theorem tbl_at6 (c : Dev nD) (k : Fin pre6.K) : Vof (W14 m) c (pre6.ref k) = (adm6 m).1 k := by
  obtain rfl : c = 0 := Subsingleton.elim _ _
  rfl
theorem tbl_eq7 (c : Dev nD) : W16 m c main_v29 = extractStridedSlice S100000 ![600000] (W15 m c main_arg4) Shapes1.Facts₀.slices_S1600000_S100000_600000 :=
  ktbl7 (W15 m c)
attribute [local irreducible] W15 in
include hcols in
theorem tbl_lt7 : ∀ y, (((adm7 m).1 0) y).toNat < 100000 := fun y => by
  show (W16 m 0 main_v29 y).toNat < 100000
  rw [tbl_eq7 m 0, W15_arg4 m 0]
  exact slice_lt (hcols 0) _ _ y
theorem tbl_at7 (c : Dev nD) (k : Fin pre7.K) : Vof (W16 m) c (pre7.ref k) = (adm7 m).1 k := by
  obtain rfl : c = 0 := Subsingleton.elim _ _
  rfl
theorem tbl_eq8 (c : Dev nD) : W18 m c main_v33 = extractStridedSlice S100000 ![700000] (W17 m c main_arg4) Shapes1.Facts₀.slices_S1600000_S100000_700000 :=
  ktbl8 (W17 m c)
attribute [local irreducible] W17 in
include hcols in
theorem tbl_lt8 : ∀ y, (((adm8 m).1 0) y).toNat < 100000 := fun y => by
  show (W18 m 0 main_v33 y).toNat < 100000
  rw [tbl_eq8 m 0, W17_arg4 m 0]
  exact slice_lt (hcols 0) _ _ y
theorem tbl_at8 (c : Dev nD) (k : Fin pre8.K) : Vof (W18 m) c (pre8.ref k) = (adm8 m).1 k := by
  obtain rfl : c = 0 := Subsingleton.elim _ _
  rfl
theorem tbl_eq9 (c : Dev nD) : W20 m c main_v37 = extractStridedSlice S100000 ![800000] (W19 m c main_arg4) Shapes1.Facts₀.slices_S1600000_S100000_800000 :=
  ktbl9 (W19 m c)
attribute [local irreducible] W19 in
include hcols in
theorem tbl_lt9 : ∀ y, (((adm9 m).1 0) y).toNat < 100000 := fun y => by
  show (W20 m 0 main_v37 y).toNat < 100000
  rw [tbl_eq9 m 0, W19_arg4 m 0]
  exact slice_lt (hcols 0) _ _ y
theorem tbl_at9 (c : Dev nD) (k : Fin pre9.K) : Vof (W20 m) c (pre9.ref k) = (adm9 m).1 k := by
  obtain rfl : c = 0 := Subsingleton.elim _ _
  rfl
theorem tbl_eq10 (c : Dev nD) : W22 m c main_v41 = extractStridedSlice S100000 ![900000] (W21 m c main_arg4) Shapes1.Facts₀.slices_S1600000_S100000_900000 :=
  ktbl10 (W21 m c)
attribute [local irreducible] W21 in
include hcols in
theorem tbl_lt10 : ∀ y, (((adm10 m).1 0) y).toNat < 100000 := fun y => by
  show (W22 m 0 main_v41 y).toNat < 100000
  rw [tbl_eq10 m 0, W21_arg4 m 0]
  exact slice_lt (hcols 0) _ _ y
theorem tbl_at10 (c : Dev nD) (k : Fin pre10.K) : Vof (W22 m) c (pre10.ref k) = (adm10 m).1 k := by
  obtain rfl : c = 0 := Subsingleton.elim _ _
  rfl
theorem tbl_eq11 (c : Dev nD) : W24 m c main_v45 = extractStridedSlice S100000 ![1000000] (W23 m c main_arg4) Shapes1.Facts₀.slices_S1600000_S100000_1000000 :=
  ktbl11 (W23 m c)
attribute [local irreducible] W23 in
include hcols in
theorem tbl_lt11 : ∀ y, (((adm11 m).1 0) y).toNat < 100000 := fun y => by
  show (W24 m 0 main_v45 y).toNat < 100000
  rw [tbl_eq11 m 0, W23_arg4 m 0]
  exact slice_lt (hcols 0) _ _ y
theorem tbl_at11 (c : Dev nD) (k : Fin pre11.K) : Vof (W24 m) c (pre11.ref k) = (adm11 m).1 k := by
  obtain rfl : c = 0 := Subsingleton.elim _ _
  rfl
theorem tbl_eq12 (c : Dev nD) : W26 m c main_v49 = extractStridedSlice S100000 ![1100000] (W25 m c main_arg4) Shapes1.Facts₀.slices_S1600000_S100000_1100000 :=
  ktbl12 (W25 m c)
attribute [local irreducible] W25 in
include hcols in
theorem tbl_lt12 : ∀ y, (((adm12 m).1 0) y).toNat < 100000 := fun y => by
  show (W26 m 0 main_v49 y).toNat < 100000
  rw [tbl_eq12 m 0, W25_arg4 m 0]
  exact slice_lt (hcols 0) _ _ y
theorem tbl_at12 (c : Dev nD) (k : Fin pre12.K) : Vof (W26 m) c (pre12.ref k) = (adm12 m).1 k := by
  obtain rfl : c = 0 := Subsingleton.elim _ _
  rfl
theorem tbl_eq13 (c : Dev nD) : W28 m c main_v53 = extractStridedSlice S100000 ![1200000] (W27 m c main_arg4) Shapes1.Facts₀.slices_S1600000_S100000_1200000 :=
  ktbl13 (W27 m c)
attribute [local irreducible] W27 in
include hcols in
theorem tbl_lt13 : ∀ y, (((adm13 m).1 0) y).toNat < 100000 := fun y => by
  show (W28 m 0 main_v53 y).toNat < 100000
  rw [tbl_eq13 m 0, W27_arg4 m 0]
  exact slice_lt (hcols 0) _ _ y
theorem tbl_at13 (c : Dev nD) (k : Fin pre13.K) : Vof (W28 m) c (pre13.ref k) = (adm13 m).1 k := by
  obtain rfl : c = 0 := Subsingleton.elim _ _
  rfl
theorem tbl_eq14 (c : Dev nD) : W30 m c main_v57 = extractStridedSlice S100000 ![1300000] (W29 m c main_arg4) Shapes1.Facts₀.slices_S1600000_S100000_1300000 :=
  ktbl14 (W29 m c)
attribute [local irreducible] W29 in
include hcols in
theorem tbl_lt14 : ∀ y, (((adm14 m).1 0) y).toNat < 100000 := fun y => by
  show (W30 m 0 main_v57 y).toNat < 100000
  rw [tbl_eq14 m 0, W29_arg4 m 0]
  exact slice_lt (hcols 0) _ _ y
theorem tbl_at14 (c : Dev nD) (k : Fin pre14.K) : Vof (W30 m) c (pre14.ref k) = (adm14 m).1 k := by
  obtain rfl : c = 0 := Subsingleton.elim _ _
  rfl
theorem tbl_eq15 (c : Dev nD) : W32 m c main_v61 = extractStridedSlice S100000 ![1400000] (W31 m c main_arg4) Shapes1.Facts₀.slices_S1600000_S100000_1400000 :=
  ktbl15 (W31 m c)
attribute [local irreducible] W31 in
include hcols in
theorem tbl_lt15 : ∀ y, (((adm15 m).1 0) y).toNat < 100000 := fun y => by
  show (W32 m 0 main_v61 y).toNat < 100000
  rw [tbl_eq15 m 0, W31_arg4 m 0]
  exact slice_lt (hcols 0) _ _ y
theorem tbl_at15 (c : Dev nD) (k : Fin pre15.K) : Vof (W32 m) c (pre15.ref k) = (adm15 m).1 k := by
  obtain rfl : c = 0 := Subsingleton.elim _ _
  rfl
theorem tbl_eq16 (c : Dev nD) : W34 m c main_v65 = extractStridedSlice S100000 ![1500000] (W33 m c main_arg4) Shapes1.Facts₀.slices_S1600000_S100000_1500000 :=
  ktbl16 (W33 m c)
attribute [local irreducible] W33 in
include hcols in
theorem tbl_lt16 : ∀ y, (((adm16 m).1 0) y).toNat < 100000 := fun y => by
  show (W34 m 0 main_v65 y).toNat < 100000
  rw [tbl_eq16 m 0, W33_arg4 m 0]
  exact slice_lt (hcols 0) _ _ y
theorem tbl_at16 (c : Dev nD) (k : Fin pre16.K) : Vof (W34 m) c (pre16.ref k) = (adm16 m).1 k := by
  obtain rfl : c = 0 := Subsingleton.elim _ _
  rfl
theorem tbl_eq17 (c : Dev nD) : W36 m c main_v74 = extractStridedSlice S100000 ![0] (W35 m c main_arg4) Shapes1.Facts₀.slices_S1600000_S100000_0 :=
  ktbl17 (W35 m c)
attribute [local irreducible] W35 in
include hcols in
theorem tbl_lt17 : ∀ y, (((adm17 m).1 0) y).toNat < 100000 := fun y => by
  show (W36 m 0 main_v74 y).toNat < 100000
  rw [tbl_eq17 m 0, W35_arg4 m 0]
  exact slice_lt (hcols 0) _ _ y
theorem tbl_at17 (c : Dev nD) (k : Fin pre17.K) : Vof (W36 m) c (pre17.ref k) = (adm17 m).1 k := by
  obtain rfl : c = 0 := Subsingleton.elim _ _
  rfl
theorem tbl_eq18 (c : Dev nD) : W38 m c main_v78 = extractStridedSlice S100000 ![100000] (W37 m c main_arg4) Shapes1.Facts₀.slices_S1600000_S100000_100000 :=
  ktbl18 (W37 m c)
attribute [local irreducible] W37 in
include hcols in
theorem tbl_lt18 : ∀ y, (((adm18 m).1 0) y).toNat < 100000 := fun y => by
  show (W38 m 0 main_v78 y).toNat < 100000
  rw [tbl_eq18 m 0, W37_arg4 m 0]
  exact slice_lt (hcols 0) _ _ y
theorem tbl_at18 (c : Dev nD) (k : Fin pre18.K) : Vof (W38 m) c (pre18.ref k) = (adm18 m).1 k := by
  obtain rfl : c = 0 := Subsingleton.elim _ _
  rfl
theorem tbl_eq19 (c : Dev nD) : W40 m c main_v82 = extractStridedSlice S100000 ![200000] (W39 m c main_arg4) Shapes1.Facts₀.slices_S1600000_S100000_200000 :=
  ktbl19 (W39 m c)
attribute [local irreducible] W39 in
include hcols in
theorem tbl_lt19 : ∀ y, (((adm19 m).1 0) y).toNat < 100000 := fun y => by
  show (W40 m 0 main_v82 y).toNat < 100000
  rw [tbl_eq19 m 0, W39_arg4 m 0]
  exact slice_lt (hcols 0) _ _ y
theorem tbl_at19 (c : Dev nD) (k : Fin pre19.K) : Vof (W40 m) c (pre19.ref k) = (adm19 m).1 k := by
  obtain rfl : c = 0 := Subsingleton.elim _ _
  rfl
theorem tbl_eq20 (c : Dev nD) : W42 m c main_v86 = extractStridedSlice S100000 ![300000] (W41 m c main_arg4) Shapes1.Facts₀.slices_S1600000_S100000_300000 :=
  ktbl20 (W41 m c)
attribute [local irreducible] W41 in
include hcols in
theorem tbl_lt20 : ∀ y, (((adm20 m).1 0) y).toNat < 100000 := fun y => by
  show (W42 m 0 main_v86 y).toNat < 100000
  rw [tbl_eq20 m 0, W41_arg4 m 0]
  exact slice_lt (hcols 0) _ _ y
theorem tbl_at20 (c : Dev nD) (k : Fin pre20.K) : Vof (W42 m) c (pre20.ref k) = (adm20 m).1 k := by
  obtain rfl : c = 0 := Subsingleton.elim _ _
  rfl
theorem tbl_eq21 (c : Dev nD) : W44 m c main_v90 = extractStridedSlice S100000 ![400000] (W43 m c main_arg4) Shapes1.Facts₀.slices_S1600000_S100000_400000 :=
  ktbl21 (W43 m c)
attribute [local irreducible] W43 in
include hcols in
theorem tbl_lt21 : ∀ y, (((adm21 m).1 0) y).toNat < 100000 := fun y => by
  show (W44 m 0 main_v90 y).toNat < 100000
  rw [tbl_eq21 m 0, W43_arg4 m 0]
  exact slice_lt (hcols 0) _ _ y
theorem tbl_at21 (c : Dev nD) (k : Fin pre21.K) : Vof (W44 m) c (pre21.ref k) = (adm21 m).1 k := by
  obtain rfl : c = 0 := Subsingleton.elim _ _
  rfl
theorem tbl_eq22 (c : Dev nD) : W46 m c main_v94 = extractStridedSlice S100000 ![500000] (W45 m c main_arg4) Shapes1.Facts₀.slices_S1600000_S100000_500000 :=
  ktbl22 (W45 m c)
attribute [local irreducible] W45 in
include hcols in
theorem tbl_lt22 : ∀ y, (((adm22 m).1 0) y).toNat < 100000 := fun y => by
  show (W46 m 0 main_v94 y).toNat < 100000
  rw [tbl_eq22 m 0, W45_arg4 m 0]
  exact slice_lt (hcols 0) _ _ y
theorem tbl_at22 (c : Dev nD) (k : Fin pre22.K) : Vof (W46 m) c (pre22.ref k) = (adm22 m).1 k := by
  obtain rfl : c = 0 := Subsingleton.elim _ _
  rfl
theorem tbl_eq23 (c : Dev nD) : W48 m c main_v98 = extractStridedSlice S100000 ![600000] (W47 m c main_arg4) Shapes1.Facts₀.slices_S1600000_S100000_600000 :=
  ktbl23 (W47 m c)
attribute [local irreducible] W47 in
include hcols in
theorem tbl_lt23 : ∀ y, (((adm23 m).1 0) y).toNat < 100000 := fun y => by
  show (W48 m 0 main_v98 y).toNat < 100000
  rw [tbl_eq23 m 0, W47_arg4 m 0]
  exact slice_lt (hcols 0) _ _ y
theorem tbl_at23 (c : Dev nD) (k : Fin pre23.K) : Vof (W48 m) c (pre23.ref k) = (adm23 m).1 k := by
  obtain rfl : c = 0 := Subsingleton.elim _ _
  rfl
theorem tbl_eq24 (c : Dev nD) : W50 m c main_v102 = extractStridedSlice S100000 ![700000] (W49 m c main_arg4) Shapes1.Facts₀.slices_S1600000_S100000_700000 :=
  ktbl24 (W49 m c)
attribute [local irreducible] W49 in
include hcols in
theorem tbl_lt24 : ∀ y, (((adm24 m).1 0) y).toNat < 100000 := fun y => by
  show (W50 m 0 main_v102 y).toNat < 100000
  rw [tbl_eq24 m 0, W49_arg4 m 0]
  exact slice_lt (hcols 0) _ _ y
theorem tbl_at24 (c : Dev nD) (k : Fin pre24.K) : Vof (W50 m) c (pre24.ref k) = (adm24 m).1 k := by
  obtain rfl : c = 0 := Subsingleton.elim _ _
  rfl
theorem tbl_eq25 (c : Dev nD) : W52 m c main_v106 = extractStridedSlice S100000 ![800000] (W51 m c main_arg4) Shapes1.Facts₀.slices_S1600000_S100000_800000 :=
  ktbl25 (W51 m c)
attribute [local irreducible] W51 in
include hcols in
theorem tbl_lt25 : ∀ y, (((adm25 m).1 0) y).toNat < 100000 := fun y => by
  show (W52 m 0 main_v106 y).toNat < 100000
  rw [tbl_eq25 m 0, W51_arg4 m 0]
  exact slice_lt (hcols 0) _ _ y
theorem tbl_at25 (c : Dev nD) (k : Fin pre25.K) : Vof (W52 m) c (pre25.ref k) = (adm25 m).1 k := by
  obtain rfl : c = 0 := Subsingleton.elim _ _
  rfl
theorem tbl_eq26 (c : Dev nD) : W54 m c main_v110 = extractStridedSlice S100000 ![900000] (W53 m c main_arg4) Shapes1.Facts₀.slices_S1600000_S100000_900000 :=
  ktbl26 (W53 m c)
attribute [local irreducible] W53 in
include hcols in
theorem tbl_lt26 : ∀ y, (((adm26 m).1 0) y).toNat < 100000 := fun y => by
  show (W54 m 0 main_v110 y).toNat < 100000
  rw [tbl_eq26 m 0, W53_arg4 m 0]
  exact slice_lt (hcols 0) _ _ y
theorem tbl_at26 (c : Dev nD) (k : Fin pre26.K) : Vof (W54 m) c (pre26.ref k) = (adm26 m).1 k := by
  obtain rfl : c = 0 := Subsingleton.elim _ _
  rfl
theorem tbl_eq27 (c : Dev nD) : W56 m c main_v114 = extractStridedSlice S100000 ![1000000] (W55 m c main_arg4) Shapes1.Facts₀.slices_S1600000_S100000_1000000 :=
  ktbl27 (W55 m c)
attribute [local irreducible] W55 in
include hcols in
theorem tbl_lt27 : ∀ y, (((adm27 m).1 0) y).toNat < 100000 := fun y => by
  show (W56 m 0 main_v114 y).toNat < 100000
  rw [tbl_eq27 m 0, W55_arg4 m 0]
  exact slice_lt (hcols 0) _ _ y
theorem tbl_at27 (c : Dev nD) (k : Fin pre27.K) : Vof (W56 m) c (pre27.ref k) = (adm27 m).1 k := by
  obtain rfl : c = 0 := Subsingleton.elim _ _
  rfl
theorem tbl_eq28 (c : Dev nD) : W58 m c main_v118 = extractStridedSlice S100000 ![1100000] (W57 m c main_arg4) Shapes1.Facts₀.slices_S1600000_S100000_1100000 :=
  ktbl28 (W57 m c)
attribute [local irreducible] W57 in
include hcols in
theorem tbl_lt28 : ∀ y, (((adm28 m).1 0) y).toNat < 100000 := fun y => by
  show (W58 m 0 main_v118 y).toNat < 100000
  rw [tbl_eq28 m 0, W57_arg4 m 0]
  exact slice_lt (hcols 0) _ _ y
theorem tbl_at28 (c : Dev nD) (k : Fin pre28.K) : Vof (W58 m) c (pre28.ref k) = (adm28 m).1 k := by
  obtain rfl : c = 0 := Subsingleton.elim _ _
  rfl
theorem tbl_eq29 (c : Dev nD) : W60 m c main_v122 = extractStridedSlice S100000 ![1200000] (W59 m c main_arg4) Shapes1.Facts₀.slices_S1600000_S100000_1200000 :=
  ktbl29 (W59 m c)
attribute [local irreducible] W59 in
include hcols in
theorem tbl_lt29 : ∀ y, (((adm29 m).1 0) y).toNat < 100000 := fun y => by
  show (W60 m 0 main_v122 y).toNat < 100000
  rw [tbl_eq29 m 0, W59_arg4 m 0]
  exact slice_lt (hcols 0) _ _ y
theorem tbl_at29 (c : Dev nD) (k : Fin pre29.K) : Vof (W60 m) c (pre29.ref k) = (adm29 m).1 k := by
  obtain rfl : c = 0 := Subsingleton.elim _ _
  rfl
theorem tbl_eq30 (c : Dev nD) : W62 m c main_v126 = extractStridedSlice S100000 ![1300000] (W61 m c main_arg4) Shapes1.Facts₀.slices_S1600000_S100000_1300000 :=
  ktbl30 (W61 m c)
attribute [local irreducible] W61 in
include hcols in
theorem tbl_lt30 : ∀ y, (((adm30 m).1 0) y).toNat < 100000 := fun y => by
  show (W62 m 0 main_v126 y).toNat < 100000
  rw [tbl_eq30 m 0, W61_arg4 m 0]
  exact slice_lt (hcols 0) _ _ y
theorem tbl_at30 (c : Dev nD) (k : Fin pre30.K) : Vof (W62 m) c (pre30.ref k) = (adm30 m).1 k := by
  obtain rfl : c = 0 := Subsingleton.elim _ _
  rfl
theorem tbl_eq31 (c : Dev nD) : W64 m c main_v130 = extractStridedSlice S100000 ![1400000] (W63 m c main_arg4) Shapes1.Facts₀.slices_S1600000_S100000_1400000 :=
  ktbl31 (W63 m c)
attribute [local irreducible] W63 in
include hcols in
theorem tbl_lt31 : ∀ y, (((adm31 m).1 0) y).toNat < 100000 := fun y => by
  show (W64 m 0 main_v130 y).toNat < 100000
  rw [tbl_eq31 m 0, W63_arg4 m 0]
  exact slice_lt (hcols 0) _ _ y
theorem tbl_at31 (c : Dev nD) (k : Fin pre31.K) : Vof (W64 m) c (pre31.ref k) = (adm31 m).1 k := by
  obtain rfl : c = 0 := Subsingleton.elim _ _
  rfl
theorem tbl_eq32 (c : Dev nD) : W66 m c main_v134 = extractStridedSlice S100000 ![1500000] (W65 m c main_arg4) Shapes1.Facts₀.slices_S1600000_S100000_1500000 :=
  ktbl32 (W65 m c)
attribute [local irreducible] W65 in
include hcols in
theorem tbl_lt32 : ∀ y, (((adm32 m).1 0) y).toNat < 100000 := fun y => by
  show (W66 m 0 main_v134 y).toNat < 100000
  rw [tbl_eq32 m 0, W65_arg4 m 0]
  exact slice_lt (hcols 0) _ _ y
theorem tbl_at32 (c : Dev nD) (k : Fin pre32.K) : Vof (W66 m) c (pre32.ref k) = (adm32 m).1 k := by
  obtain rfl : c = 0 := Subsingleton.elim _ _
  rfl
theorem tbl_eq33 (c : Dev nD) : W68 m c main_v143 = extractStridedSlice S100000 ![0] (W67 m c main_arg4) Shapes1.Facts₀.slices_S1600000_S100000_0 :=
  ktbl33 (W67 m c)
attribute [local irreducible] W67 in
include hcols in
theorem tbl_lt33 : ∀ y, (((adm33 m).1 0) y).toNat < 100000 := fun y => by
  show (W68 m 0 main_v143 y).toNat < 100000
  rw [tbl_eq33 m 0, W67_arg4 m 0]
  exact slice_lt (hcols 0) _ _ y
theorem tbl_at33 (c : Dev nD) (k : Fin pre33.K) : Vof (W68 m) c (pre33.ref k) = (adm33 m).1 k := by
  obtain rfl : c = 0 := Subsingleton.elim _ _
  rfl
theorem tbl_eq34 (c : Dev nD) : W70 m c main_v147 = extractStridedSlice S100000 ![100000] (W69 m c main_arg4) Shapes1.Facts₀.slices_S1600000_S100000_100000 :=
  ktbl34 (W69 m c)
attribute [local irreducible] W69 in
include hcols in
theorem tbl_lt34 : ∀ y, (((adm34 m).1 0) y).toNat < 100000 := fun y => by
  show (W70 m 0 main_v147 y).toNat < 100000
  rw [tbl_eq34 m 0, W69_arg4 m 0]
  exact slice_lt (hcols 0) _ _ y
theorem tbl_at34 (c : Dev nD) (k : Fin pre34.K) : Vof (W70 m) c (pre34.ref k) = (adm34 m).1 k := by
  obtain rfl : c = 0 := Subsingleton.elim _ _
  rfl
theorem tbl_eq35 (c : Dev nD) : W72 m c main_v151 = extractStridedSlice S100000 ![200000] (W71 m c main_arg4) Shapes1.Facts₀.slices_S1600000_S100000_200000 :=
  ktbl35 (W71 m c)
attribute [local irreducible] W71 in
include hcols in
theorem tbl_lt35 : ∀ y, (((adm35 m).1 0) y).toNat < 100000 := fun y => by
  show (W72 m 0 main_v151 y).toNat < 100000
  rw [tbl_eq35 m 0, W71_arg4 m 0]
  exact slice_lt (hcols 0) _ _ y
theorem tbl_at35 (c : Dev nD) (k : Fin pre35.K) : Vof (W72 m) c (pre35.ref k) = (adm35 m).1 k := by
  obtain rfl : c = 0 := Subsingleton.elim _ _
  rfl
theorem tbl_eq36 (c : Dev nD) : W74 m c main_v155 = extractStridedSlice S100000 ![300000] (W73 m c main_arg4) Shapes1.Facts₀.slices_S1600000_S100000_300000 :=
  ktbl36 (W73 m c)
attribute [local irreducible] W73 in
include hcols in
theorem tbl_lt36 : ∀ y, (((adm36 m).1 0) y).toNat < 100000 := fun y => by
  show (W74 m 0 main_v155 y).toNat < 100000
  rw [tbl_eq36 m 0, W73_arg4 m 0]
  exact slice_lt (hcols 0) _ _ y
theorem tbl_at36 (c : Dev nD) (k : Fin pre36.K) : Vof (W74 m) c (pre36.ref k) = (adm36 m).1 k := by
  obtain rfl : c = 0 := Subsingleton.elim _ _
  rfl
theorem tbl_eq37 (c : Dev nD) : W76 m c main_v159 = extractStridedSlice S100000 ![400000] (W75 m c main_arg4) Shapes1.Facts₀.slices_S1600000_S100000_400000 :=
  ktbl37 (W75 m c)
attribute [local irreducible] W75 in
include hcols in
theorem tbl_lt37 : ∀ y, (((adm37 m).1 0) y).toNat < 100000 := fun y => by
  show (W76 m 0 main_v159 y).toNat < 100000
  rw [tbl_eq37 m 0, W75_arg4 m 0]
  exact slice_lt (hcols 0) _ _ y
theorem tbl_at37 (c : Dev nD) (k : Fin pre37.K) : Vof (W76 m) c (pre37.ref k) = (adm37 m).1 k := by
  obtain rfl : c = 0 := Subsingleton.elim _ _
  rfl
theorem tbl_eq38 (c : Dev nD) : W78 m c main_v163 = extractStridedSlice S100000 ![500000] (W77 m c main_arg4) Shapes1.Facts₀.slices_S1600000_S100000_500000 :=
  ktbl38 (W77 m c)
attribute [local irreducible] W77 in
include hcols in
theorem tbl_lt38 : ∀ y, (((adm38 m).1 0) y).toNat < 100000 := fun y => by
  show (W78 m 0 main_v163 y).toNat < 100000
  rw [tbl_eq38 m 0, W77_arg4 m 0]
  exact slice_lt (hcols 0) _ _ y
theorem tbl_at38 (c : Dev nD) (k : Fin pre38.K) : Vof (W78 m) c (pre38.ref k) = (adm38 m).1 k := by
  obtain rfl : c = 0 := Subsingleton.elim _ _
  rfl
theorem tbl_eq39 (c : Dev nD) : W80 m c main_v167 = extractStridedSlice S100000 ![600000] (W79 m c main_arg4) Shapes1.Facts₀.slices_S1600000_S100000_600000 :=
  ktbl39 (W79 m c)
attribute [local irreducible] W79 in
include hcols in
theorem tbl_lt39 : ∀ y, (((adm39 m).1 0) y).toNat < 100000 := fun y => by
  show (W80 m 0 main_v167 y).toNat < 100000
  rw [tbl_eq39 m 0, W79_arg4 m 0]
  exact slice_lt (hcols 0) _ _ y
theorem tbl_at39 (c : Dev nD) (k : Fin pre39.K) : Vof (W80 m) c (pre39.ref k) = (adm39 m).1 k := by
  obtain rfl : c = 0 := Subsingleton.elim _ _
  rfl
theorem tbl_eq40 (c : Dev nD) : W82 m c main_v171 = extractStridedSlice S100000 ![700000] (W81 m c main_arg4) Shapes1.Facts₀.slices_S1600000_S100000_700000 :=
  ktbl40 (W81 m c)
attribute [local irreducible] W81 in
include hcols in
theorem tbl_lt40 : ∀ y, (((adm40 m).1 0) y).toNat < 100000 := fun y => by
  show (W82 m 0 main_v171 y).toNat < 100000
  rw [tbl_eq40 m 0, W81_arg4 m 0]
  exact slice_lt (hcols 0) _ _ y
theorem tbl_at40 (c : Dev nD) (k : Fin pre40.K) : Vof (W82 m) c (pre40.ref k) = (adm40 m).1 k := by
  obtain rfl : c = 0 := Subsingleton.elim _ _
  rfl
theorem tbl_eq41 (c : Dev nD) : W84 m c main_v175 = extractStridedSlice S100000 ![800000] (W83 m c main_arg4) Shapes1.Facts₀.slices_S1600000_S100000_800000 :=
  ktbl41 (W83 m c)
attribute [local irreducible] W83 in
include hcols in
theorem tbl_lt41 : ∀ y, (((adm41 m).1 0) y).toNat < 100000 := fun y => by
  show (W84 m 0 main_v175 y).toNat < 100000
  rw [tbl_eq41 m 0, W83_arg4 m 0]
  exact slice_lt (hcols 0) _ _ y
theorem tbl_at41 (c : Dev nD) (k : Fin pre41.K) : Vof (W84 m) c (pre41.ref k) = (adm41 m).1 k := by
  obtain rfl : c = 0 := Subsingleton.elim _ _
  rfl
theorem tbl_eq42 (c : Dev nD) : W86 m c main_v179 = extractStridedSlice S100000 ![900000] (W85 m c main_arg4) Shapes1.Facts₀.slices_S1600000_S100000_900000 :=
  ktbl42 (W85 m c)
attribute [local irreducible] W85 in
include hcols in
theorem tbl_lt42 : ∀ y, (((adm42 m).1 0) y).toNat < 100000 := fun y => by
  show (W86 m 0 main_v179 y).toNat < 100000
  rw [tbl_eq42 m 0, W85_arg4 m 0]
  exact slice_lt (hcols 0) _ _ y
theorem tbl_at42 (c : Dev nD) (k : Fin pre42.K) : Vof (W86 m) c (pre42.ref k) = (adm42 m).1 k := by
  obtain rfl : c = 0 := Subsingleton.elim _ _
  rfl
theorem tbl_eq43 (c : Dev nD) : W88 m c main_v183 = extractStridedSlice S100000 ![1000000] (W87 m c main_arg4) Shapes1.Facts₀.slices_S1600000_S100000_1000000 :=
  ktbl43 (W87 m c)
attribute [local irreducible] W87 in
include hcols in
theorem tbl_lt43 : ∀ y, (((adm43 m).1 0) y).toNat < 100000 := fun y => by
  show (W88 m 0 main_v183 y).toNat < 100000
  rw [tbl_eq43 m 0, W87_arg4 m 0]
  exact slice_lt (hcols 0) _ _ y
theorem tbl_at43 (c : Dev nD) (k : Fin pre43.K) : Vof (W88 m) c (pre43.ref k) = (adm43 m).1 k := by
  obtain rfl : c = 0 := Subsingleton.elim _ _
  rfl
theorem tbl_eq44 (c : Dev nD) : W90 m c main_v187 = extractStridedSlice S100000 ![1100000] (W89 m c main_arg4) Shapes1.Facts₀.slices_S1600000_S100000_1100000 :=
  ktbl44 (W89 m c)
attribute [local irreducible] W89 in
include hcols in
theorem tbl_lt44 : ∀ y, (((adm44 m).1 0) y).toNat < 100000 := fun y => by
  show (W90 m 0 main_v187 y).toNat < 100000
  rw [tbl_eq44 m 0, W89_arg4 m 0]
  exact slice_lt (hcols 0) _ _ y
theorem tbl_at44 (c : Dev nD) (k : Fin pre44.K) : Vof (W90 m) c (pre44.ref k) = (adm44 m).1 k := by
  obtain rfl : c = 0 := Subsingleton.elim _ _
  rfl
theorem tbl_eq45 (c : Dev nD) : W92 m c main_v191 = extractStridedSlice S100000 ![1200000] (W91 m c main_arg4) Shapes1.Facts₀.slices_S1600000_S100000_1200000 :=
  ktbl45 (W91 m c)
attribute [local irreducible] W91 in
include hcols in
theorem tbl_lt45 : ∀ y, (((adm45 m).1 0) y).toNat < 100000 := fun y => by
  show (W92 m 0 main_v191 y).toNat < 100000
  rw [tbl_eq45 m 0, W91_arg4 m 0]
  exact slice_lt (hcols 0) _ _ y
theorem tbl_at45 (c : Dev nD) (k : Fin pre45.K) : Vof (W92 m) c (pre45.ref k) = (adm45 m).1 k := by
  obtain rfl : c = 0 := Subsingleton.elim _ _
  rfl
theorem tbl_eq46 (c : Dev nD) : W94 m c main_v195 = extractStridedSlice S100000 ![1300000] (W93 m c main_arg4) Shapes1.Facts₀.slices_S1600000_S100000_1300000 :=
  ktbl46 (W93 m c)
attribute [local irreducible] W93 in
include hcols in
theorem tbl_lt46 : ∀ y, (((adm46 m).1 0) y).toNat < 100000 := fun y => by
  show (W94 m 0 main_v195 y).toNat < 100000
  rw [tbl_eq46 m 0, W93_arg4 m 0]
  exact slice_lt (hcols 0) _ _ y
theorem tbl_at46 (c : Dev nD) (k : Fin pre46.K) : Vof (W94 m) c (pre46.ref k) = (adm46 m).1 k := by
  obtain rfl : c = 0 := Subsingleton.elim _ _
  rfl
theorem tbl_eq47 (c : Dev nD) : W96 m c main_v199 = extractStridedSlice S100000 ![1400000] (W95 m c main_arg4) Shapes1.Facts₀.slices_S1600000_S100000_1400000 :=
  ktbl47 (W95 m c)
attribute [local irreducible] W95 in
include hcols in
theorem tbl_lt47 : ∀ y, (((adm47 m).1 0) y).toNat < 100000 := fun y => by
  show (W96 m 0 main_v199 y).toNat < 100000
  rw [tbl_eq47 m 0, W95_arg4 m 0]
  exact slice_lt (hcols 0) _ _ y
theorem tbl_at47 (c : Dev nD) (k : Fin pre47.K) : Vof (W96 m) c (pre47.ref k) = (adm47 m).1 k := by
  obtain rfl : c = 0 := Subsingleton.elim _ _
  rfl
theorem tbl_eq48 (c : Dev nD) : W98 m c main_v203 = extractStridedSlice S100000 ![1500000] (W97 m c main_arg4) Shapes1.Facts₀.slices_S1600000_S100000_1500000 :=
  ktbl48 (W97 m c)
attribute [local irreducible] W97 in
include hcols in
theorem tbl_lt48 : ∀ y, (((adm48 m).1 0) y).toNat < 100000 := fun y => by
  show (W98 m 0 main_v203 y).toNat < 100000
  rw [tbl_eq48 m 0, W97_arg4 m 0]
  exact slice_lt (hcols 0) _ _ y
theorem tbl_at48 (c : Dev nD) (k : Fin pre48.K) : Vof (W98 m) c (pre48.ref k) = (adm48 m).1 k := by
  obtain rfl : c = 0 := Subsingleton.elim _ _
  rfl

end Cert.KernelIdeal.Hand

end
-- ==== Proof.KI.Regs.lean ====
/-
  The 49 kernel regions as segments of the launch: each entered from its boundary's contents and left at the next
  boundary's, its body obligation from the one body run (the table's words rows of the node table, by the precondition).
-/
import proofs.«421643_j28415503630349_2_alg».proof.Proof.KI.Pdats
import proofs.«421643_j28415503630349_2_alg».proof.Proof.KI.Tables

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

variable (m : (ℓ : Loc nD τ sig) → Buf (Elt F) ℓ)

variable (hcols : ∀ (c : Dev nD) (e : S1600000.Idx), (m ((c.tc : Thread nD τ).loc main_arg4) e).toNat < 100000)

def R0 : Pipeline.RegionSeg (pcfgs (F := F)) (adm m) (pdats m) () defs₀ 𝒱₀ L lv (0 : Fin 49) :=
  reg0 (adm m) (pdats m) (W2 m) (fun _ => rfl)
def R1 : Pipeline.RegionSeg (pcfgs (F := F)) (adm m) (pdats m) () defs₀ 𝒱₀ L lv (1 : Fin 49) :=
  reg1 (W4 m) (adm m) (outBlk1 (Vof (W4 m)) (adm1 m)) (pdats m) (fun _ => rfl) (tbl_at1 m)
    (fun c => bodyObligationOut1 (Vof (W4 m)) (adm1 m) (tbl_lt1 m hcols) c)
def R2 : Pipeline.RegionSeg (pcfgs (F := F)) (adm m) (pdats m) () defs₀ 𝒱₀ L lv (2 : Fin 49) :=
  reg2 (W6 m) (adm m) (outBlk2 (Vof (W6 m)) (adm2 m)) (pdats m) (fun _ => rfl) (tbl_at2 m)
    (fun c => bodyObligationOut2 (Vof (W6 m)) (adm2 m) (tbl_lt2 m hcols) c)
def R3 : Pipeline.RegionSeg (pcfgs (F := F)) (adm m) (pdats m) () defs₀ 𝒱₀ L lv (3 : Fin 49) :=
  reg3 (W8 m) (adm m) (outBlk3 (Vof (W8 m)) (adm3 m)) (pdats m) (fun _ => rfl) (tbl_at3 m)
    (fun c => bodyObligationOut3 (Vof (W8 m)) (adm3 m) (tbl_lt3 m hcols) c)
def R4 : Pipeline.RegionSeg (pcfgs (F := F)) (adm m) (pdats m) () defs₀ 𝒱₀ L lv (4 : Fin 49) :=
  reg4 (W10 m) (adm m) (outBlk4 (Vof (W10 m)) (adm4 m)) (pdats m) (fun _ => rfl) (tbl_at4 m)
    (fun c => bodyObligationOut4 (Vof (W10 m)) (adm4 m) (tbl_lt4 m hcols) c)
def R5 : Pipeline.RegionSeg (pcfgs (F := F)) (adm m) (pdats m) () defs₀ 𝒱₀ L lv (5 : Fin 49) :=
  reg5 (W12 m) (adm m) (outBlk5 (Vof (W12 m)) (adm5 m)) (pdats m) (fun _ => rfl) (tbl_at5 m)
    (fun c => bodyObligationOut5 (Vof (W12 m)) (adm5 m) (tbl_lt5 m hcols) c)
def R6 : Pipeline.RegionSeg (pcfgs (F := F)) (adm m) (pdats m) () defs₀ 𝒱₀ L lv (6 : Fin 49) :=
  reg6 (W14 m) (adm m) (outBlk6 (Vof (W14 m)) (adm6 m)) (pdats m) (fun _ => rfl) (tbl_at6 m)
    (fun c => bodyObligationOut6 (Vof (W14 m)) (adm6 m) (tbl_lt6 m hcols) c)
def R7 : Pipeline.RegionSeg (pcfgs (F := F)) (adm m) (pdats m) () defs₀ 𝒱₀ L lv (7 : Fin 49) :=
  reg7 (W16 m) (adm m) (outBlk7 (Vof (W16 m)) (adm7 m)) (pdats m) (fun _ => rfl) (tbl_at7 m)
    (fun c => bodyObligationOut7 (Vof (W16 m)) (adm7 m) (tbl_lt7 m hcols) c)
def R8 : Pipeline.RegionSeg (pcfgs (F := F)) (adm m) (pdats m) () defs₀ 𝒱₀ L lv (8 : Fin 49) :=
  reg8 (W18 m) (adm m) (outBlk8 (Vof (W18 m)) (adm8 m)) (pdats m) (fun _ => rfl) (tbl_at8 m)
    (fun c => bodyObligationOut8 (Vof (W18 m)) (adm8 m) (tbl_lt8 m hcols) c)
def R9 : Pipeline.RegionSeg (pcfgs (F := F)) (adm m) (pdats m) () defs₀ 𝒱₀ L lv (9 : Fin 49) :=
  reg9 (W20 m) (adm m) (outBlk9 (Vof (W20 m)) (adm9 m)) (pdats m) (fun _ => rfl) (tbl_at9 m)
    (fun c => bodyObligationOut9 (Vof (W20 m)) (adm9 m) (tbl_lt9 m hcols) c)
def R10 : Pipeline.RegionSeg (pcfgs (F := F)) (adm m) (pdats m) () defs₀ 𝒱₀ L lv (10 : Fin 49) :=
  reg10 (W22 m) (adm m) (outBlk10 (Vof (W22 m)) (adm10 m)) (pdats m) (fun _ => rfl) (tbl_at10 m)
    (fun c => bodyObligationOut10 (Vof (W22 m)) (adm10 m) (tbl_lt10 m hcols) c)
def R11 : Pipeline.RegionSeg (pcfgs (F := F)) (adm m) (pdats m) () defs₀ 𝒱₀ L lv (11 : Fin 49) :=
  reg11 (W24 m) (adm m) (outBlk11 (Vof (W24 m)) (adm11 m)) (pdats m) (fun _ => rfl) (tbl_at11 m)
    (fun c => bodyObligationOut11 (Vof (W24 m)) (adm11 m) (tbl_lt11 m hcols) c)
def R12 : Pipeline.RegionSeg (pcfgs (F := F)) (adm m) (pdats m) () defs₀ 𝒱₀ L lv (12 : Fin 49) :=
  reg12 (W26 m) (adm m) (outBlk12 (Vof (W26 m)) (adm12 m)) (pdats m) (fun _ => rfl) (tbl_at12 m)
    (fun c => bodyObligationOut12 (Vof (W26 m)) (adm12 m) (tbl_lt12 m hcols) c)
def R13 : Pipeline.RegionSeg (pcfgs (F := F)) (adm m) (pdats m) () defs₀ 𝒱₀ L lv (13 : Fin 49) :=
  reg13 (W28 m) (adm m) (outBlk13 (Vof (W28 m)) (adm13 m)) (pdats m) (fun _ => rfl) (tbl_at13 m)
    (fun c => bodyObligationOut13 (Vof (W28 m)) (adm13 m) (tbl_lt13 m hcols) c)
def R14 : Pipeline.RegionSeg (pcfgs (F := F)) (adm m) (pdats m) () defs₀ 𝒱₀ L lv (14 : Fin 49) :=
  reg14 (W30 m) (adm m) (outBlk14 (Vof (W30 m)) (adm14 m)) (pdats m) (fun _ => rfl) (tbl_at14 m)
    (fun c => bodyObligationOut14 (Vof (W30 m)) (adm14 m) (tbl_lt14 m hcols) c)
def R15 : Pipeline.RegionSeg (pcfgs (F := F)) (adm m) (pdats m) () defs₀ 𝒱₀ L lv (15 : Fin 49) :=
  reg15 (W32 m) (adm m) (outBlk15 (Vof (W32 m)) (adm15 m)) (pdats m) (fun _ => rfl) (tbl_at15 m)
    (fun c => bodyObligationOut15 (Vof (W32 m)) (adm15 m) (tbl_lt15 m hcols) c)
def R16 : Pipeline.RegionSeg (pcfgs (F := F)) (adm m) (pdats m) () defs₀ 𝒱₀ L lv (16 : Fin 49) :=
  reg16 (W34 m) (adm m) (outBlk16 (Vof (W34 m)) (adm16 m)) (pdats m) (fun _ => rfl) (tbl_at16 m)
    (fun c => bodyObligationOut16 (Vof (W34 m)) (adm16 m) (tbl_lt16 m hcols) c)
def R17 : Pipeline.RegionSeg (pcfgs (F := F)) (adm m) (pdats m) () defs₀ 𝒱₀ L lv (17 : Fin 49) :=
  reg17 (W36 m) (adm m) (outBlk17 (Vof (W36 m)) (adm17 m)) (pdats m) (fun _ => rfl) (tbl_at17 m)
    (fun c => bodyObligationOut17 (Vof (W36 m)) (adm17 m) (tbl_lt17 m hcols) c)
def R18 : Pipeline.RegionSeg (pcfgs (F := F)) (adm m) (pdats m) () defs₀ 𝒱₀ L lv (18 : Fin 49) :=
  reg18 (W38 m) (adm m) (outBlk18 (Vof (W38 m)) (adm18 m)) (pdats m) (fun _ => rfl) (tbl_at18 m)
    (fun c => bodyObligationOut18 (Vof (W38 m)) (adm18 m) (tbl_lt18 m hcols) c)
def R19 : Pipeline.RegionSeg (pcfgs (F := F)) (adm m) (pdats m) () defs₀ 𝒱₀ L lv (19 : Fin 49) :=
  reg19 (W40 m) (adm m) (outBlk19 (Vof (W40 m)) (adm19 m)) (pdats m) (fun _ => rfl) (tbl_at19 m)
    (fun c => bodyObligationOut19 (Vof (W40 m)) (adm19 m) (tbl_lt19 m hcols) c)
def R20 : Pipeline.RegionSeg (pcfgs (F := F)) (adm m) (pdats m) () defs₀ 𝒱₀ L lv (20 : Fin 49) :=
  reg20 (W42 m) (adm m) (outBlk20 (Vof (W42 m)) (adm20 m)) (pdats m) (fun _ => rfl) (tbl_at20 m)
    (fun c => bodyObligationOut20 (Vof (W42 m)) (adm20 m) (tbl_lt20 m hcols) c)
def R21 : Pipeline.RegionSeg (pcfgs (F := F)) (adm m) (pdats m) () defs₀ 𝒱₀ L lv (21 : Fin 49) :=
  reg21 (W44 m) (adm m) (outBlk21 (Vof (W44 m)) (adm21 m)) (pdats m) (fun _ => rfl) (tbl_at21 m)
    (fun c => bodyObligationOut21 (Vof (W44 m)) (adm21 m) (tbl_lt21 m hcols) c)
def R22 : Pipeline.RegionSeg (pcfgs (F := F)) (adm m) (pdats m) () defs₀ 𝒱₀ L lv (22 : Fin 49) :=
  reg22 (W46 m) (adm m) (outBlk22 (Vof (W46 m)) (adm22 m)) (pdats m) (fun _ => rfl) (tbl_at22 m)
    (fun c => bodyObligationOut22 (Vof (W46 m)) (adm22 m) (tbl_lt22 m hcols) c)
def R23 : Pipeline.RegionSeg (pcfgs (F := F)) (adm m) (pdats m) () defs₀ 𝒱₀ L lv (23 : Fin 49) :=
  reg23 (W48 m) (adm m) (outBlk23 (Vof (W48 m)) (adm23 m)) (pdats m) (fun _ => rfl) (tbl_at23 m)
    (fun c => bodyObligationOut23 (Vof (W48 m)) (adm23 m) (tbl_lt23 m hcols) c)
def R24 : Pipeline.RegionSeg (pcfgs (F := F)) (adm m) (pdats m) () defs₀ 𝒱₀ L lv (24 : Fin 49) :=
  reg24 (W50 m) (adm m) (outBlk24 (Vof (W50 m)) (adm24 m)) (pdats m) (fun _ => rfl) (tbl_at24 m)
    (fun c => bodyObligationOut24 (Vof (W50 m)) (adm24 m) (tbl_lt24 m hcols) c)
def R25 : Pipeline.RegionSeg (pcfgs (F := F)) (adm m) (pdats m) () defs₀ 𝒱₀ L lv (25 : Fin 49) :=
  reg25 (W52 m) (adm m) (outBlk25 (Vof (W52 m)) (adm25 m)) (pdats m) (fun _ => rfl) (tbl_at25 m)
    (fun c => bodyObligationOut25 (Vof (W52 m)) (adm25 m) (tbl_lt25 m hcols) c)
def R26 : Pipeline.RegionSeg (pcfgs (F := F)) (adm m) (pdats m) () defs₀ 𝒱₀ L lv (26 : Fin 49) :=
  reg26 (W54 m) (adm m) (outBlk26 (Vof (W54 m)) (adm26 m)) (pdats m) (fun _ => rfl) (tbl_at26 m)
    (fun c => bodyObligationOut26 (Vof (W54 m)) (adm26 m) (tbl_lt26 m hcols) c)
def R27 : Pipeline.RegionSeg (pcfgs (F := F)) (adm m) (pdats m) () defs₀ 𝒱₀ L lv (27 : Fin 49) :=
  reg27 (W56 m) (adm m) (outBlk27 (Vof (W56 m)) (adm27 m)) (pdats m) (fun _ => rfl) (tbl_at27 m)
    (fun c => bodyObligationOut27 (Vof (W56 m)) (adm27 m) (tbl_lt27 m hcols) c)
def R28 : Pipeline.RegionSeg (pcfgs (F := F)) (adm m) (pdats m) () defs₀ 𝒱₀ L lv (28 : Fin 49) :=
  reg28 (W58 m) (adm m) (outBlk28 (Vof (W58 m)) (adm28 m)) (pdats m) (fun _ => rfl) (tbl_at28 m)
    (fun c => bodyObligationOut28 (Vof (W58 m)) (adm28 m) (tbl_lt28 m hcols) c)
def R29 : Pipeline.RegionSeg (pcfgs (F := F)) (adm m) (pdats m) () defs₀ 𝒱₀ L lv (29 : Fin 49) :=
  reg29 (W60 m) (adm m) (outBlk29 (Vof (W60 m)) (adm29 m)) (pdats m) (fun _ => rfl) (tbl_at29 m)
    (fun c => bodyObligationOut29 (Vof (W60 m)) (adm29 m) (tbl_lt29 m hcols) c)
def R30 : Pipeline.RegionSeg (pcfgs (F := F)) (adm m) (pdats m) () defs₀ 𝒱₀ L lv (30 : Fin 49) :=
  reg30 (W62 m) (adm m) (outBlk30 (Vof (W62 m)) (adm30 m)) (pdats m) (fun _ => rfl) (tbl_at30 m)
    (fun c => bodyObligationOut30 (Vof (W62 m)) (adm30 m) (tbl_lt30 m hcols) c)
def R31 : Pipeline.RegionSeg (pcfgs (F := F)) (adm m) (pdats m) () defs₀ 𝒱₀ L lv (31 : Fin 49) :=
  reg31 (W64 m) (adm m) (outBlk31 (Vof (W64 m)) (adm31 m)) (pdats m) (fun _ => rfl) (tbl_at31 m)
    (fun c => bodyObligationOut31 (Vof (W64 m)) (adm31 m) (tbl_lt31 m hcols) c)
def R32 : Pipeline.RegionSeg (pcfgs (F := F)) (adm m) (pdats m) () defs₀ 𝒱₀ L lv (32 : Fin 49) :=
  reg32 (W66 m) (adm m) (outBlk32 (Vof (W66 m)) (adm32 m)) (pdats m) (fun _ => rfl) (tbl_at32 m)
    (fun c => bodyObligationOut32 (Vof (W66 m)) (adm32 m) (tbl_lt32 m hcols) c)
def R33 : Pipeline.RegionSeg (pcfgs (F := F)) (adm m) (pdats m) () defs₀ 𝒱₀ L lv (33 : Fin 49) :=
  reg33 (W68 m) (adm m) (outBlk33 (Vof (W68 m)) (adm33 m)) (pdats m) (fun _ => rfl) (tbl_at33 m)
    (fun c => bodyObligationOut33 (Vof (W68 m)) (adm33 m) (tbl_lt33 m hcols) c)
def R34 : Pipeline.RegionSeg (pcfgs (F := F)) (adm m) (pdats m) () defs₀ 𝒱₀ L lv (34 : Fin 49) :=
  reg34 (W70 m) (adm m) (outBlk34 (Vof (W70 m)) (adm34 m)) (pdats m) (fun _ => rfl) (tbl_at34 m)
    (fun c => bodyObligationOut34 (Vof (W70 m)) (adm34 m) (tbl_lt34 m hcols) c)
def R35 : Pipeline.RegionSeg (pcfgs (F := F)) (adm m) (pdats m) () defs₀ 𝒱₀ L lv (35 : Fin 49) :=
  reg35 (W72 m) (adm m) (outBlk35 (Vof (W72 m)) (adm35 m)) (pdats m) (fun _ => rfl) (tbl_at35 m)
    (fun c => bodyObligationOut35 (Vof (W72 m)) (adm35 m) (tbl_lt35 m hcols) c)
def R36 : Pipeline.RegionSeg (pcfgs (F := F)) (adm m) (pdats m) () defs₀ 𝒱₀ L lv (36 : Fin 49) :=
  reg36 (W74 m) (adm m) (outBlk36 (Vof (W74 m)) (adm36 m)) (pdats m) (fun _ => rfl) (tbl_at36 m)
    (fun c => bodyObligationOut36 (Vof (W74 m)) (adm36 m) (tbl_lt36 m hcols) c)
def R37 : Pipeline.RegionSeg (pcfgs (F := F)) (adm m) (pdats m) () defs₀ 𝒱₀ L lv (37 : Fin 49) :=
  reg37 (W76 m) (adm m) (outBlk37 (Vof (W76 m)) (adm37 m)) (pdats m) (fun _ => rfl) (tbl_at37 m)
    (fun c => bodyObligationOut37 (Vof (W76 m)) (adm37 m) (tbl_lt37 m hcols) c)
def R38 : Pipeline.RegionSeg (pcfgs (F := F)) (adm m) (pdats m) () defs₀ 𝒱₀ L lv (38 : Fin 49) :=
  reg38 (W78 m) (adm m) (outBlk38 (Vof (W78 m)) (adm38 m)) (pdats m) (fun _ => rfl) (tbl_at38 m)
    (fun c => bodyObligationOut38 (Vof (W78 m)) (adm38 m) (tbl_lt38 m hcols) c)
def R39 : Pipeline.RegionSeg (pcfgs (F := F)) (adm m) (pdats m) () defs₀ 𝒱₀ L lv (39 : Fin 49) :=
  reg39 (W80 m) (adm m) (outBlk39 (Vof (W80 m)) (adm39 m)) (pdats m) (fun _ => rfl) (tbl_at39 m)
    (fun c => bodyObligationOut39 (Vof (W80 m)) (adm39 m) (tbl_lt39 m hcols) c)
def R40 : Pipeline.RegionSeg (pcfgs (F := F)) (adm m) (pdats m) () defs₀ 𝒱₀ L lv (40 : Fin 49) :=
  reg40 (W82 m) (adm m) (outBlk40 (Vof (W82 m)) (adm40 m)) (pdats m) (fun _ => rfl) (tbl_at40 m)
    (fun c => bodyObligationOut40 (Vof (W82 m)) (adm40 m) (tbl_lt40 m hcols) c)
def R41 : Pipeline.RegionSeg (pcfgs (F := F)) (adm m) (pdats m) () defs₀ 𝒱₀ L lv (41 : Fin 49) :=
  reg41 (W84 m) (adm m) (outBlk41 (Vof (W84 m)) (adm41 m)) (pdats m) (fun _ => rfl) (tbl_at41 m)
    (fun c => bodyObligationOut41 (Vof (W84 m)) (adm41 m) (tbl_lt41 m hcols) c)
def R42 : Pipeline.RegionSeg (pcfgs (F := F)) (adm m) (pdats m) () defs₀ 𝒱₀ L lv (42 : Fin 49) :=
  reg42 (W86 m) (adm m) (outBlk42 (Vof (W86 m)) (adm42 m)) (pdats m) (fun _ => rfl) (tbl_at42 m)
    (fun c => bodyObligationOut42 (Vof (W86 m)) (adm42 m) (tbl_lt42 m hcols) c)
def R43 : Pipeline.RegionSeg (pcfgs (F := F)) (adm m) (pdats m) () defs₀ 𝒱₀ L lv (43 : Fin 49) :=
  reg43 (W88 m) (adm m) (outBlk43 (Vof (W88 m)) (adm43 m)) (pdats m) (fun _ => rfl) (tbl_at43 m)
    (fun c => bodyObligationOut43 (Vof (W88 m)) (adm43 m) (tbl_lt43 m hcols) c)
def R44 : Pipeline.RegionSeg (pcfgs (F := F)) (adm m) (pdats m) () defs₀ 𝒱₀ L lv (44 : Fin 49) :=
  reg44 (W90 m) (adm m) (outBlk44 (Vof (W90 m)) (adm44 m)) (pdats m) (fun _ => rfl) (tbl_at44 m)
    (fun c => bodyObligationOut44 (Vof (W90 m)) (adm44 m) (tbl_lt44 m hcols) c)
def R45 : Pipeline.RegionSeg (pcfgs (F := F)) (adm m) (pdats m) () defs₀ 𝒱₀ L lv (45 : Fin 49) :=
  reg45 (W92 m) (adm m) (outBlk45 (Vof (W92 m)) (adm45 m)) (pdats m) (fun _ => rfl) (tbl_at45 m)
    (fun c => bodyObligationOut45 (Vof (W92 m)) (adm45 m) (tbl_lt45 m hcols) c)
def R46 : Pipeline.RegionSeg (pcfgs (F := F)) (adm m) (pdats m) () defs₀ 𝒱₀ L lv (46 : Fin 49) :=
  reg46 (W94 m) (adm m) (outBlk46 (Vof (W94 m)) (adm46 m)) (pdats m) (fun _ => rfl) (tbl_at46 m)
    (fun c => bodyObligationOut46 (Vof (W94 m)) (adm46 m) (tbl_lt46 m hcols) c)
def R47 : Pipeline.RegionSeg (pcfgs (F := F)) (adm m) (pdats m) () defs₀ 𝒱₀ L lv (47 : Fin 49) :=
  reg47 (W96 m) (adm m) (outBlk47 (Vof (W96 m)) (adm47 m)) (pdats m) (fun _ => rfl) (tbl_at47 m)
    (fun c => bodyObligationOut47 (Vof (W96 m)) (adm47 m) (tbl_lt47 m hcols) c)
def R48 : Pipeline.RegionSeg (pcfgs (F := F)) (adm m) (pdats m) () defs₀ 𝒱₀ L lv (48 : Fin 49) :=
  reg48 (W98 m) (adm m) (outBlk48 (Vof (W98 m)) (adm48 m)) (pdats m) (fun _ => rfl) (tbl_at48 m)
    (fun c => bodyObligationOut48 (Vof (W98 m)) (adm48 m) (tbl_lt48 m hcols) c)

end Cert.KernelIdeal.Hand

end
-- ==== Proof.KI.Run.lean ====
/-
  The launch: @main as its 100 segments in order (51 stretches of host operations, 49 kernel regions), run from the
  launch memory under the precondition on the column indices; at the end every unscoped buffer holds the last
  boundary's contents.
-/
import proofs.«421643_j28415503630349_2_alg».proof.Proof.KI.Regs

set_option maxRecDepth 65536

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

variable (m : (ℓ : Loc nD τ sig) → Buf (Elt F) ℓ)

variable (ρ : Dev nD → PrngReg)
variable (hcols : ∀ (c : Dev nD) (e : S1600000.Idx), (m ((c.tc : Thread nD τ).loc main_arg4) e).toNat < 100000)

abbrev segs : List (Pipeline.Seg (pcfgs (F := F)) (adm m) (pdats m) () defs₀ 𝒱₀ L lv) :=
  [
    .host (hseg hostOps0 hostOps0_sub hostOps0_fresh (W0 m)),
    .host (hseg hostOps0_1 hostOps0_1_sub hostOps0_1_fresh (W1 m)),
    .region (R0 m),
    .host (hseg hostOps1 hostOps1_sub hostOps1_fresh (W3 m)),
    .region (R1 m hcols),
    .host (hseg hostOps2 hostOps2_sub hostOps2_fresh (W5 m)),
    .region (R2 m hcols),
    .host (hseg hostOps3 hostOps3_sub hostOps3_fresh (W7 m)),
    .region (R3 m hcols),
    .host (hseg hostOps4 hostOps4_sub hostOps4_fresh (W9 m)),
    .region (R4 m hcols),
    .host (hseg hostOps5 hostOps5_sub hostOps5_fresh (W11 m)),
    .region (R5 m hcols),
    .host (hseg hostOps6 hostOps6_sub hostOps6_fresh (W13 m)),
    .region (R6 m hcols),
    .host (hseg hostOps7 hostOps7_sub hostOps7_fresh (W15 m)),
    .region (R7 m hcols),
    .host (hseg hostOps8 hostOps8_sub hostOps8_fresh (W17 m)),
    .region (R8 m hcols),
    .host (hseg hostOps9 hostOps9_sub hostOps9_fresh (W19 m)),
    .region (R9 m hcols),
    .host (hseg hostOps10 hostOps10_sub hostOps10_fresh (W21 m)),
    .region (R10 m hcols),
    .host (hseg hostOps11 hostOps11_sub hostOps11_fresh (W23 m)),
    .region (R11 m hcols),
    .host (hseg hostOps12 hostOps12_sub hostOps12_fresh (W25 m)),
    .region (R12 m hcols),
    .host (hseg hostOps13 hostOps13_sub hostOps13_fresh (W27 m)),
    .region (R13 m hcols),
    .host (hseg hostOps14 hostOps14_sub hostOps14_fresh (W29 m)),
    .region (R14 m hcols),
    .host (hseg hostOps15 hostOps15_sub hostOps15_fresh (W31 m)),
    .region (R15 m hcols),
    .host (hseg hostOps16 hostOps16_sub hostOps16_fresh (W33 m)),
    .region (R16 m hcols),
    .host (hseg hostOps17 hostOps17_sub hostOps17_fresh (W35 m)),
    .region (R17 m hcols),
    .host (hseg hostOps18 hostOps18_sub hostOps18_fresh (W37 m)),
    .region (R18 m hcols),
    .host (hseg hostOps19 hostOps19_sub hostOps19_fresh (W39 m)),
    .region (R19 m hcols),
    .host (hseg hostOps20 hostOps20_sub hostOps20_fresh (W41 m)),
    .region (R20 m hcols),
    .host (hseg hostOps21 hostOps21_sub hostOps21_fresh (W43 m)),
    .region (R21 m hcols),
    .host (hseg hostOps22 hostOps22_sub hostOps22_fresh (W45 m)),
    .region (R22 m hcols),
    .host (hseg hostOps23 hostOps23_sub hostOps23_fresh (W47 m)),
    .region (R23 m hcols),
    .host (hseg hostOps24 hostOps24_sub hostOps24_fresh (W49 m)),
    .region (R24 m hcols),
    .host (hseg hostOps25 hostOps25_sub hostOps25_fresh (W51 m)),
    .region (R25 m hcols),
    .host (hseg hostOps26 hostOps26_sub hostOps26_fresh (W53 m)),
    .region (R26 m hcols),
    .host (hseg hostOps27 hostOps27_sub hostOps27_fresh (W55 m)),
    .region (R27 m hcols),
    .host (hseg hostOps28 hostOps28_sub hostOps28_fresh (W57 m)),
    .region (R28 m hcols),
    .host (hseg hostOps29 hostOps29_sub hostOps29_fresh (W59 m)),
    .region (R29 m hcols),
    .host (hseg hostOps30 hostOps30_sub hostOps30_fresh (W61 m)),
    .region (R30 m hcols),
    .host (hseg hostOps31 hostOps31_sub hostOps31_fresh (W63 m)),
    .region (R31 m hcols),
    .host (hseg hostOps32 hostOps32_sub hostOps32_fresh (W65 m)),
    .region (R32 m hcols),
    .host (hseg hostOps33 hostOps33_sub hostOps33_fresh (W67 m)),
    .region (R33 m hcols),
    .host (hseg hostOps34 hostOps34_sub hostOps34_fresh (W69 m)),
    .region (R34 m hcols),
    .host (hseg hostOps35 hostOps35_sub hostOps35_fresh (W71 m)),
    .region (R35 m hcols),
    .host (hseg hostOps36 hostOps36_sub hostOps36_fresh (W73 m)),
    .region (R36 m hcols),
    .host (hseg hostOps37 hostOps37_sub hostOps37_fresh (W75 m)),
    .region (R37 m hcols),
    .host (hseg hostOps38 hostOps38_sub hostOps38_fresh (W77 m)),
    .region (R38 m hcols),
    .host (hseg hostOps39 hostOps39_sub hostOps39_fresh (W79 m)),
    .region (R39 m hcols),
    .host (hseg hostOps40 hostOps40_sub hostOps40_fresh (W81 m)),
    .region (R40 m hcols),
    .host (hseg hostOps41 hostOps41_sub hostOps41_fresh (W83 m)),
    .region (R41 m hcols),
    .host (hseg hostOps42 hostOps42_sub hostOps42_fresh (W85 m)),
    .region (R42 m hcols),
    .host (hseg hostOps43 hostOps43_sub hostOps43_fresh (W87 m)),
    .region (R43 m hcols),
    .host (hseg hostOps44 hostOps44_sub hostOps44_fresh (W89 m)),
    .region (R44 m hcols),
    .host (hseg hostOps45 hostOps45_sub hostOps45_fresh (W91 m)),
    .region (R45 m hcols),
    .host (hseg hostOps46 hostOps46_sub hostOps46_fresh (W93 m)),
    .region (R46 m hcols),
    .host (hseg hostOps47 hostOps47_sub hostOps47_fresh (W95 m)),
    .region (R47 m hcols),
    .host (hseg hostOps48 hostOps48_sub hostOps48_fresh (W97 m)),
    .region (R48 m hcols),
    .host (hseg hostOps49 hostOps49_sub hostOps49_fresh (W99 m)) ]

set_option maxHeartbeats 4000000 in
/-- @main is the run of the segments. -/
theorem main_run (c : Dev nD) : main (F := F) c = Pipeline.Seg.run (segs m hcols) := (main_chain c).trans (by chain_rfl)

/-- The last thread state without the core's dues: every unscoped buffer at the last boundary's contents, the generator register at some state. -/
abbrev Tₙ (c : Dev nD) : sProp 𝕄 := iprop(StableHlo.held (c : Thread nD τ) (Pipeline.ucRefs τ sig) (W100 m c) ∗ ∃ r, prngReg c r)

/-- The last boundary's thread state is the final one beside the core owing nothing (the three parts regrouped). -/
theorem hlast (c : Dev nD) : iprop(StableHlo.held (c : Thread nD τ) (Pipeline.ucRefs τ sig) (W100 m c) ∗ R c)
    ⊢ (iprop(Tₙ m c ∗ ∃ W, owes (c.tc : Thread nD τ) (0 : CellTallies nD τ sig Unit) W) : sProp 𝕄) := by
  iintro ⟨Hh, Hp, HO⟩
  isplitl [Hh Hp]
  · isplitl [Hh]; · iexact Hh
    iexact Hp
  iexact HO

include hcols in
set_option backward.isDefEq.respectTransparency.types false in
set_option maxHeartbeats 4000000 in
/-- Every weakly fair execution of @main from memory m with zero counters terminates, nothing faulting, and every
    final memory holds each unscoped buffer at the last boundary's contents. -/
theorem run_all : θ_run defs (onTc (τ := τ) (main (F := F))) ⟨m, fun _ => 0, ρ⟩ (fun r => ∀ c : Dev nD, ∀ b ∈ Pipeline.ucRefs τ sig,
      r.2.mem ((c : Thread nD τ).1, b) = W100 m c b) :=
  Pipeline.θ_run_regions_kit (pcfgs (F := F)) (adm m) (pdats m) () (cellOf_inj (adm m)) embL defs₀ 𝒱₀ L lv m ρ main (segs m hcols)
    (fun c Q => by rw [main_run m hcols c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) (adm m)) (cellOf_inj (adm m))) (Pipeline.launchToks (Pipeline.pin (pcfgs (F := F)) (adm m)) (cellOf_inj (adm m))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => hlast m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W100 m c b)
    (hfin := fun c s' => by
      iintro ⟨⟨Hh, -⟩, HSI⟩
      unfold StableHlo.held
      imodintro
      iapply (pointsTo_read_all (Pipeline.ucRefs τ sig) (fun b => (((c : Thread nD τ)).1, b)) (W100 m c) s')
      isplitl [Hh] <;> iassumption)
    (hQ := fun s h => h)

include hcols in
/-- The frame: every weakly fair execution terminates, nothing faulting, and the seven argument arrays end as launched
    (no segment writes one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W100_arg0 m c),
     (h c _ (mem_uc main_arg1 (by decide))).trans (W100_arg1 m c),
     (h c _ (mem_uc main_arg2 (by decide))).trans (W100_arg2 m c),
     (h c _ (mem_uc main_arg3 (by decide))).trans (W100_arg3 m c),
     (h c _ (mem_uc main_arg4 (by decide))).trans (W100_arg4 m c),
     (h c _ (mem_uc main_arg5 (by decide))).trans (W100_arg5 m c),
     (h c _ (mem_uc main_arg6 (by decide))).trans (W100_arg6 m c)⟩)
    (run_all m ρ hcols)

end Cert.KernelIdeal.Hand

end
-- ==== Proof.KI.Keep.lean ====
/-
  What is made at one boundary and read at a later one is not written in between: the node table of a layer (from the
  stretch that makes it to the layer's last region), each region's output (to the stretch that concatenates the layer's
  sixteen), the running sum of layers (to the stretch that adds the next).
-/
import proofs.«421643_j28415503630349_2_alg».proof.Proof.KI.Chain

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

variable (m : (ℓ : Loc nD τ sig) → Buf (Elt F) ℓ)

theorem W5_main_v3 (c : Dev nD) : W5 m c main_v3 = W4 m c main_v3 := W5_of m c main_v3 (by decide)
theorem W6_main_v3 (c : Dev nD) : W6 m c main_v3 = W4 m c main_v3 := (W6_of m c main_v3 (by decide)).trans (W5_main_v3 m c)
theorem W7_main_v3 (c : Dev nD) : W7 m c main_v3 = W4 m c main_v3 := (W7_of m c main_v3 (by decide)).trans (W6_main_v3 m c)
theorem W8_main_v3 (c : Dev nD) : W8 m c main_v3 = W4 m c main_v3 := (W8_of m c main_v3 (by decide)).trans (W7_main_v3 m c)
theorem W9_main_v3 (c : Dev nD) : W9 m c main_v3 = W4 m c main_v3 := (W9_of m c main_v3 (by decide)).trans (W8_main_v3 m c)
theorem W10_main_v3 (c : Dev nD) : W10 m c main_v3 = W4 m c main_v3 := (W10_of m c main_v3 (by decide)).trans (W9_main_v3 m c)
theorem W11_main_v3 (c : Dev nD) : W11 m c main_v3 = W4 m c main_v3 := (W11_of m c main_v3 (by decide)).trans (W10_main_v3 m c)
theorem W12_main_v3 (c : Dev nD) : W12 m c main_v3 = W4 m c main_v3 := (W12_of m c main_v3 (by decide)).trans (W11_main_v3 m c)
theorem W13_main_v3 (c : Dev nD) : W13 m c main_v3 = W4 m c main_v3 := (W13_of m c main_v3 (by decide)).trans (W12_main_v3 m c)
theorem W14_main_v3 (c : Dev nD) : W14 m c main_v3 = W4 m c main_v3 := (W14_of m c main_v3 (by decide)).trans (W13_main_v3 m c)
theorem W15_main_v3 (c : Dev nD) : W15 m c main_v3 = W4 m c main_v3 := (W15_of m c main_v3 (by decide)).trans (W14_main_v3 m c)
theorem W16_main_v3 (c : Dev nD) : W16 m c main_v3 = W4 m c main_v3 := (W16_of m c main_v3 (by decide)).trans (W15_main_v3 m c)
theorem W17_main_v3 (c : Dev nD) : W17 m c main_v3 = W4 m c main_v3 := (W17_of m c main_v3 (by decide)).trans (W16_main_v3 m c)
theorem W18_main_v3 (c : Dev nD) : W18 m c main_v3 = W4 m c main_v3 := (W18_of m c main_v3 (by decide)).trans (W17_main_v3 m c)
theorem W19_main_v3 (c : Dev nD) : W19 m c main_v3 = W4 m c main_v3 := (W19_of m c main_v3 (by decide)).trans (W18_main_v3 m c)
theorem W20_main_v3 (c : Dev nD) : W20 m c main_v3 = W4 m c main_v3 := (W20_of m c main_v3 (by decide)).trans (W19_main_v3 m c)
theorem W21_main_v3 (c : Dev nD) : W21 m c main_v3 = W4 m c main_v3 := (W21_of m c main_v3 (by decide)).trans (W20_main_v3 m c)
theorem W22_main_v3 (c : Dev nD) : W22 m c main_v3 = W4 m c main_v3 := (W22_of m c main_v3 (by decide)).trans (W21_main_v3 m c)
theorem W23_main_v3 (c : Dev nD) : W23 m c main_v3 = W4 m c main_v3 := (W23_of m c main_v3 (by decide)).trans (W22_main_v3 m c)
theorem W24_main_v3 (c : Dev nD) : W24 m c main_v3 = W4 m c main_v3 := (W24_of m c main_v3 (by decide)).trans (W23_main_v3 m c)
theorem W25_main_v3 (c : Dev nD) : W25 m c main_v3 = W4 m c main_v3 := (W25_of m c main_v3 (by decide)).trans (W24_main_v3 m c)
theorem W26_main_v3 (c : Dev nD) : W26 m c main_v3 = W4 m c main_v3 := (W26_of m c main_v3 (by decide)).trans (W25_main_v3 m c)
theorem W27_main_v3 (c : Dev nD) : W27 m c main_v3 = W4 m c main_v3 := (W27_of m c main_v3 (by decide)).trans (W26_main_v3 m c)
theorem W28_main_v3 (c : Dev nD) : W28 m c main_v3 = W4 m c main_v3 := (W28_of m c main_v3 (by decide)).trans (W27_main_v3 m c)
theorem W29_main_v3 (c : Dev nD) : W29 m c main_v3 = W4 m c main_v3 := (W29_of m c main_v3 (by decide)).trans (W28_main_v3 m c)
theorem W30_main_v3 (c : Dev nD) : W30 m c main_v3 = W4 m c main_v3 := (W30_of m c main_v3 (by decide)).trans (W29_main_v3 m c)
theorem W31_main_v3 (c : Dev nD) : W31 m c main_v3 = W4 m c main_v3 := (W31_of m c main_v3 (by decide)).trans (W30_main_v3 m c)
theorem W32_main_v3 (c : Dev nD) : W32 m c main_v3 = W4 m c main_v3 := (W32_of m c main_v3 (by decide)).trans (W31_main_v3 m c)
theorem W33_main_v3 (c : Dev nD) : W33 m c main_v3 = W4 m c main_v3 := (W33_of m c main_v3 (by decide)).trans (W32_main_v3 m c)
theorem W34_main_v3 (c : Dev nD) : W34 m c main_v3 = W4 m c main_v3 := (W34_of m c main_v3 (by decide)).trans (W33_main_v3 m c)
theorem W35_main_v3 (c : Dev nD) : W35 m c main_v3 = W4 m c main_v3 := (W35_of m c main_v3 (by decide)).trans (W34_main_v3 m c)
theorem W37_main_v72 (c : Dev nD) : W37 m c main_v72 = W36 m c main_v72 := W37_of m c main_v72 (by decide)
theorem W38_main_v72 (c : Dev nD) : W38 m c main_v72 = W36 m c main_v72 := (W38_of m c main_v72 (by decide)).trans (W37_main_v72 m c)
theorem W39_main_v72 (c : Dev nD) : W39 m c main_v72 = W36 m c main_v72 := (W39_of m c main_v72 (by decide)).trans (W38_main_v72 m c)
theorem W40_main_v72 (c : Dev nD) : W40 m c main_v72 = W36 m c main_v72 := (W40_of m c main_v72 (by decide)).trans (W39_main_v72 m c)
theorem W41_main_v72 (c : Dev nD) : W41 m c main_v72 = W36 m c main_v72 := (W41_of m c main_v72 (by decide)).trans (W40_main_v72 m c)
theorem W42_main_v72 (c : Dev nD) : W42 m c main_v72 = W36 m c main_v72 := (W42_of m c main_v72 (by decide)).trans (W41_main_v72 m c)
theorem W43_main_v72 (c : Dev nD) : W43 m c main_v72 = W36 m c main_v72 := (W43_of m c main_v72 (by decide)).trans (W42_main_v72 m c)
theorem W44_main_v72 (c : Dev nD) : W44 m c main_v72 = W36 m c main_v72 := (W44_of m c main_v72 (by decide)).trans (W43_main_v72 m c)
theorem W45_main_v72 (c : Dev nD) : W45 m c main_v72 = W36 m c main_v72 := (W45_of m c main_v72 (by decide)).trans (W44_main_v72 m c)
theorem W46_main_v72 (c : Dev nD) : W46 m c main_v72 = W36 m c main_v72 := (W46_of m c main_v72 (by decide)).trans (W45_main_v72 m c)
theorem W47_main_v72 (c : Dev nD) : W47 m c main_v72 = W36 m c main_v72 := (W47_of m c main_v72 (by decide)).trans (W46_main_v72 m c)
theorem W48_main_v72 (c : Dev nD) : W48 m c main_v72 = W36 m c main_v72 := (W48_of m c main_v72 (by decide)).trans (W47_main_v72 m c)
theorem W49_main_v72 (c : Dev nD) : W49 m c main_v72 = W36 m c main_v72 := (W49_of m c main_v72 (by decide)).trans (W48_main_v72 m c)
theorem W50_main_v72 (c : Dev nD) : W50 m c main_v72 = W36 m c main_v72 := (W50_of m c main_v72 (by decide)).trans (W49_main_v72 m c)
theorem W51_main_v72 (c : Dev nD) : W51 m c main_v72 = W36 m c main_v72 := (W51_of m c main_v72 (by decide)).trans (W50_main_v72 m c)
theorem W52_main_v72 (c : Dev nD) : W52 m c main_v72 = W36 m c main_v72 := (W52_of m c main_v72 (by decide)).trans (W51_main_v72 m c)
theorem W53_main_v72 (c : Dev nD) : W53 m c main_v72 = W36 m c main_v72 := (W53_of m c main_v72 (by decide)).trans (W52_main_v72 m c)
theorem W54_main_v72 (c : Dev nD) : W54 m c main_v72 = W36 m c main_v72 := (W54_of m c main_v72 (by decide)).trans (W53_main_v72 m c)
theorem W55_main_v72 (c : Dev nD) : W55 m c main_v72 = W36 m c main_v72 := (W55_of m c main_v72 (by decide)).trans (W54_main_v72 m c)
theorem W56_main_v72 (c : Dev nD) : W56 m c main_v72 = W36 m c main_v72 := (W56_of m c main_v72 (by decide)).trans (W55_main_v72 m c)
theorem W57_main_v72 (c : Dev nD) : W57 m c main_v72 = W36 m c main_v72 := (W57_of m c main_v72 (by decide)).trans (W56_main_v72 m c)
theorem W58_main_v72 (c : Dev nD) : W58 m c main_v72 = W36 m c main_v72 := (W58_of m c main_v72 (by decide)).trans (W57_main_v72 m c)
theorem W59_main_v72 (c : Dev nD) : W59 m c main_v72 = W36 m c main_v72 := (W59_of m c main_v72 (by decide)).trans (W58_main_v72 m c)
theorem W60_main_v72 (c : Dev nD) : W60 m c main_v72 = W36 m c main_v72 := (W60_of m c main_v72 (by decide)).trans (W59_main_v72 m c)
theorem W61_main_v72 (c : Dev nD) : W61 m c main_v72 = W36 m c main_v72 := (W61_of m c main_v72 (by decide)).trans (W60_main_v72 m c)
theorem W62_main_v72 (c : Dev nD) : W62 m c main_v72 = W36 m c main_v72 := (W62_of m c main_v72 (by decide)).trans (W61_main_v72 m c)
theorem W63_main_v72 (c : Dev nD) : W63 m c main_v72 = W36 m c main_v72 := (W63_of m c main_v72 (by decide)).trans (W62_main_v72 m c)
theorem W64_main_v72 (c : Dev nD) : W64 m c main_v72 = W36 m c main_v72 := (W64_of m c main_v72 (by decide)).trans (W63_main_v72 m c)
theorem W65_main_v72 (c : Dev nD) : W65 m c main_v72 = W36 m c main_v72 := (W65_of m c main_v72 (by decide)).trans (W64_main_v72 m c)
theorem W66_main_v72 (c : Dev nD) : W66 m c main_v72 = W36 m c main_v72 := (W66_of m c main_v72 (by decide)).trans (W65_main_v72 m c)
theorem W67_main_v72 (c : Dev nD) : W67 m c main_v72 = W36 m c main_v72 := (W67_of m c main_v72 (by decide)).trans (W66_main_v72 m c)
theorem W69_main_v141 (c : Dev nD) : W69 m c main_v141 = W68 m c main_v141 := W69_of m c main_v141 (by decide)
theorem W70_main_v141 (c : Dev nD) : W70 m c main_v141 = W68 m c main_v141 := (W70_of m c main_v141 (by decide)).trans (W69_main_v141 m c)
theorem W71_main_v141 (c : Dev nD) : W71 m c main_v141 = W68 m c main_v141 := (W71_of m c main_v141 (by decide)).trans (W70_main_v141 m c)
theorem W72_main_v141 (c : Dev nD) : W72 m c main_v141 = W68 m c main_v141 := (W72_of m c main_v141 (by decide)).trans (W71_main_v141 m c)
theorem W73_main_v141 (c : Dev nD) : W73 m c main_v141 = W68 m c main_v141 := (W73_of m c main_v141 (by decide)).trans (W72_main_v141 m c)
theorem W74_main_v141 (c : Dev nD) : W74 m c main_v141 = W68 m c main_v141 := (W74_of m c main_v141 (by decide)).trans (W73_main_v141 m c)
theorem W75_main_v141 (c : Dev nD) : W75 m c main_v141 = W68 m c main_v141 := (W75_of m c main_v141 (by decide)).trans (W74_main_v141 m c)
theorem W76_main_v141 (c : Dev nD) : W76 m c main_v141 = W68 m c main_v141 := (W76_of m c main_v141 (by decide)).trans (W75_main_v141 m c)
theorem W77_main_v141 (c : Dev nD) : W77 m c main_v141 = W68 m c main_v141 := (W77_of m c main_v141 (by decide)).trans (W76_main_v141 m c)
theorem W78_main_v141 (c : Dev nD) : W78 m c main_v141 = W68 m c main_v141 := (W78_of m c main_v141 (by decide)).trans (W77_main_v141 m c)
theorem W79_main_v141 (c : Dev nD) : W79 m c main_v141 = W68 m c main_v141 := (W79_of m c main_v141 (by decide)).trans (W78_main_v141 m c)
theorem W80_main_v141 (c : Dev nD) : W80 m c main_v141 = W68 m c main_v141 := (W80_of m c main_v141 (by decide)).trans (W79_main_v141 m c)
theorem W81_main_v141 (c : Dev nD) : W81 m c main_v141 = W68 m c main_v141 := (W81_of m c main_v141 (by decide)).trans (W80_main_v141 m c)
theorem W82_main_v141 (c : Dev nD) : W82 m c main_v141 = W68 m c main_v141 := (W82_of m c main_v141 (by decide)).trans (W81_main_v141 m c)
theorem W83_main_v141 (c : Dev nD) : W83 m c main_v141 = W68 m c main_v141 := (W83_of m c main_v141 (by decide)).trans (W82_main_v141 m c)
theorem W84_main_v141 (c : Dev nD) : W84 m c main_v141 = W68 m c main_v141 := (W84_of m c main_v141 (by decide)).trans (W83_main_v141 m c)
theorem W85_main_v141 (c : Dev nD) : W85 m c main_v141 = W68 m c main_v141 := (W85_of m c main_v141 (by decide)).trans (W84_main_v141 m c)
theorem W86_main_v141 (c : Dev nD) : W86 m c main_v141 = W68 m c main_v141 := (W86_of m c main_v141 (by decide)).trans (W85_main_v141 m c)
theorem W87_main_v141 (c : Dev nD) : W87 m c main_v141 = W68 m c main_v141 := (W87_of m c main_v141 (by decide)).trans (W86_main_v141 m c)
theorem W88_main_v141 (c : Dev nD) : W88 m c main_v141 = W68 m c main_v141 := (W88_of m c main_v141 (by decide)).trans (W87_main_v141 m c)
theorem W89_main_v141 (c : Dev nD) : W89 m c main_v141 = W68 m c main_v141 := (W89_of m c main_v141 (by decide)).trans (W88_main_v141 m c)
theorem W90_main_v141 (c : Dev nD) : W90 m c main_v141 = W68 m c main_v141 := (W90_of m c main_v141 (by decide)).trans (W89_main_v141 m c)
theorem W91_main_v141 (c : Dev nD) : W91 m c main_v141 = W68 m c main_v141 := (W91_of m c main_v141 (by decide)).trans (W90_main_v141 m c)
theorem W92_main_v141 (c : Dev nD) : W92 m c main_v141 = W68 m c main_v141 := (W92_of m c main_v141 (by decide)).trans (W91_main_v141 m c)
theorem W93_main_v141 (c : Dev nD) : W93 m c main_v141 = W68 m c main_v141 := (W93_of m c main_v141 (by decide)).trans (W92_main_v141 m c)
theorem W94_main_v141 (c : Dev nD) : W94 m c main_v141 = W68 m c main_v141 := (W94_of m c main_v141 (by decide)).trans (W93_main_v141 m c)
theorem W95_main_v141 (c : Dev nD) : W95 m c main_v141 = W68 m c main_v141 := (W95_of m c main_v141 (by decide)).trans (W94_main_v141 m c)
theorem W96_main_v141 (c : Dev nD) : W96 m c main_v141 = W68 m c main_v141 := (W96_of m c main_v141 (by decide)).trans (W95_main_v141 m c)
theorem W97_main_v141 (c : Dev nD) : W97 m c main_v141 = W68 m c main_v141 := (W97_of m c main_v141 (by decide)).trans (W96_main_v141 m c)
theorem W98_main_v141 (c : Dev nD) : W98 m c main_v141 = W68 m c main_v141 := (W98_of m c main_v141 (by decide)).trans (W97_main_v141 m c)
theorem W99_main_v141 (c : Dev nD) : W99 m c main_v141 = W68 m c main_v141 := (W99_of m c main_v141 (by decide)).trans (W98_main_v141 m c)
theorem W5_main_v4 (c : Dev nD) : W5 m c main_v4 = W4 m c main_v4 := W5_of m c main_v4 (by decide)
theorem W6_main_v4 (c : Dev nD) : W6 m c main_v4 = W4 m c main_v4 := (W6_of m c main_v4 (by decide)).trans (W5_main_v4 m c)
theorem W7_main_v4 (c : Dev nD) : W7 m c main_v4 = W4 m c main_v4 := (W7_of m c main_v4 (by decide)).trans (W6_main_v4 m c)
theorem W8_main_v4 (c : Dev nD) : W8 m c main_v4 = W4 m c main_v4 := (W8_of m c main_v4 (by decide)).trans (W7_main_v4 m c)
theorem W9_main_v4 (c : Dev nD) : W9 m c main_v4 = W4 m c main_v4 := (W9_of m c main_v4 (by decide)).trans (W8_main_v4 m c)
theorem W10_main_v4 (c : Dev nD) : W10 m c main_v4 = W4 m c main_v4 := (W10_of m c main_v4 (by decide)).trans (W9_main_v4 m c)
theorem W11_main_v4 (c : Dev nD) : W11 m c main_v4 = W4 m c main_v4 := (W11_of m c main_v4 (by decide)).trans (W10_main_v4 m c)
theorem W12_main_v4 (c : Dev nD) : W12 m c main_v4 = W4 m c main_v4 := (W12_of m c main_v4 (by decide)).trans (W11_main_v4 m c)
theorem W13_main_v4 (c : Dev nD) : W13 m c main_v4 = W4 m c main_v4 := (W13_of m c main_v4 (by decide)).trans (W12_main_v4 m c)
theorem W14_main_v4 (c : Dev nD) : W14 m c main_v4 = W4 m c main_v4 := (W14_of m c main_v4 (by decide)).trans (W13_main_v4 m c)
theorem W15_main_v4 (c : Dev nD) : W15 m c main_v4 = W4 m c main_v4 := (W15_of m c main_v4 (by decide)).trans (W14_main_v4 m c)
theorem W16_main_v4 (c : Dev nD) : W16 m c main_v4 = W4 m c main_v4 := (W16_of m c main_v4 (by decide)).trans (W15_main_v4 m c)
theorem W17_main_v4 (c : Dev nD) : W17 m c main_v4 = W4 m c main_v4 := (W17_of m c main_v4 (by decide)).trans (W16_main_v4 m c)
theorem W18_main_v4 (c : Dev nD) : W18 m c main_v4 = W4 m c main_v4 := (W18_of m c main_v4 (by decide)).trans (W17_main_v4 m c)
theorem W19_main_v4 (c : Dev nD) : W19 m c main_v4 = W4 m c main_v4 := (W19_of m c main_v4 (by decide)).trans (W18_main_v4 m c)
theorem W20_main_v4 (c : Dev nD) : W20 m c main_v4 = W4 m c main_v4 := (W20_of m c main_v4 (by decide)).trans (W19_main_v4 m c)
theorem W21_main_v4 (c : Dev nD) : W21 m c main_v4 = W4 m c main_v4 := (W21_of m c main_v4 (by decide)).trans (W20_main_v4 m c)
theorem W22_main_v4 (c : Dev nD) : W22 m c main_v4 = W4 m c main_v4 := (W22_of m c main_v4 (by decide)).trans (W21_main_v4 m c)
theorem W23_main_v4 (c : Dev nD) : W23 m c main_v4 = W4 m c main_v4 := (W23_of m c main_v4 (by decide)).trans (W22_main_v4 m c)
theorem W24_main_v4 (c : Dev nD) : W24 m c main_v4 = W4 m c main_v4 := (W24_of m c main_v4 (by decide)).trans (W23_main_v4 m c)
theorem W25_main_v4 (c : Dev nD) : W25 m c main_v4 = W4 m c main_v4 := (W25_of m c main_v4 (by decide)).trans (W24_main_v4 m c)
theorem W26_main_v4 (c : Dev nD) : W26 m c main_v4 = W4 m c main_v4 := (W26_of m c main_v4 (by decide)).trans (W25_main_v4 m c)
theorem W27_main_v4 (c : Dev nD) : W27 m c main_v4 = W4 m c main_v4 := (W27_of m c main_v4 (by decide)).trans (W26_main_v4 m c)
theorem W28_main_v4 (c : Dev nD) : W28 m c main_v4 = W4 m c main_v4 := (W28_of m c main_v4 (by decide)).trans (W27_main_v4 m c)
theorem W29_main_v4 (c : Dev nD) : W29 m c main_v4 = W4 m c main_v4 := (W29_of m c main_v4 (by decide)).trans (W28_main_v4 m c)
theorem W30_main_v4 (c : Dev nD) : W30 m c main_v4 = W4 m c main_v4 := (W30_of m c main_v4 (by decide)).trans (W29_main_v4 m c)
theorem W31_main_v4 (c : Dev nD) : W31 m c main_v4 = W4 m c main_v4 := (W31_of m c main_v4 (by decide)).trans (W30_main_v4 m c)
theorem W32_main_v4 (c : Dev nD) : W32 m c main_v4 = W4 m c main_v4 := (W32_of m c main_v4 (by decide)).trans (W31_main_v4 m c)
theorem W33_main_v4 (c : Dev nD) : W33 m c main_v4 = W4 m c main_v4 := (W33_of m c main_v4 (by decide)).trans (W32_main_v4 m c)
theorem W34_main_v4 (c : Dev nD) : W34 m c main_v4 = W4 m c main_v4 := (W34_of m c main_v4 (by decide)).trans (W33_main_v4 m c)
theorem W35_main_v4 (c : Dev nD) : W35 m c main_v4 = W4 m c main_v4 := (W35_of m c main_v4 (by decide)).trans (W34_main_v4 m c)
theorem W37_main_v73 (c : Dev nD) : W37 m c main_v73 = W36 m c main_v73 := W37_of m c main_v73 (by decide)
theorem W38_main_v73 (c : Dev nD) : W38 m c main_v73 = W36 m c main_v73 := (W38_of m c main_v73 (by decide)).trans (W37_main_v73 m c)
theorem W39_main_v73 (c : Dev nD) : W39 m c main_v73 = W36 m c main_v73 := (W39_of m c main_v73 (by decide)).trans (W38_main_v73 m c)
theorem W40_main_v73 (c : Dev nD) : W40 m c main_v73 = W36 m c main_v73 := (W40_of m c main_v73 (by decide)).trans (W39_main_v73 m c)
theorem W41_main_v73 (c : Dev nD) : W41 m c main_v73 = W36 m c main_v73 := (W41_of m c main_v73 (by decide)).trans (W40_main_v73 m c)
theorem W42_main_v73 (c : Dev nD) : W42 m c main_v73 = W36 m c main_v73 := (W42_of m c main_v73 (by decide)).trans (W41_main_v73 m c)
theorem W43_main_v73 (c : Dev nD) : W43 m c main_v73 = W36 m c main_v73 := (W43_of m c main_v73 (by decide)).trans (W42_main_v73 m c)
theorem W44_main_v73 (c : Dev nD) : W44 m c main_v73 = W36 m c main_v73 := (W44_of m c main_v73 (by decide)).trans (W43_main_v73 m c)
theorem W45_main_v73 (c : Dev nD) : W45 m c main_v73 = W36 m c main_v73 := (W45_of m c main_v73 (by decide)).trans (W44_main_v73 m c)
theorem W46_main_v73 (c : Dev nD) : W46 m c main_v73 = W36 m c main_v73 := (W46_of m c main_v73 (by decide)).trans (W45_main_v73 m c)
theorem W47_main_v73 (c : Dev nD) : W47 m c main_v73 = W36 m c main_v73 := (W47_of m c main_v73 (by decide)).trans (W46_main_v73 m c)
theorem W48_main_v73 (c : Dev nD) : W48 m c main_v73 = W36 m c main_v73 := (W48_of m c main_v73 (by decide)).trans (W47_main_v73 m c)
theorem W49_main_v73 (c : Dev nD) : W49 m c main_v73 = W36 m c main_v73 := (W49_of m c main_v73 (by decide)).trans (W48_main_v73 m c)
theorem W50_main_v73 (c : Dev nD) : W50 m c main_v73 = W36 m c main_v73 := (W50_of m c main_v73 (by decide)).trans (W49_main_v73 m c)
theorem W51_main_v73 (c : Dev nD) : W51 m c main_v73 = W36 m c main_v73 := (W51_of m c main_v73 (by decide)).trans (W50_main_v73 m c)
theorem W52_main_v73 (c : Dev nD) : W52 m c main_v73 = W36 m c main_v73 := (W52_of m c main_v73 (by decide)).trans (W51_main_v73 m c)
theorem W53_main_v73 (c : Dev nD) : W53 m c main_v73 = W36 m c main_v73 := (W53_of m c main_v73 (by decide)).trans (W52_main_v73 m c)
theorem W54_main_v73 (c : Dev nD) : W54 m c main_v73 = W36 m c main_v73 := (W54_of m c main_v73 (by decide)).trans (W53_main_v73 m c)
theorem W55_main_v73 (c : Dev nD) : W55 m c main_v73 = W36 m c main_v73 := (W55_of m c main_v73 (by decide)).trans (W54_main_v73 m c)
theorem W56_main_v73 (c : Dev nD) : W56 m c main_v73 = W36 m c main_v73 := (W56_of m c main_v73 (by decide)).trans (W55_main_v73 m c)
theorem W57_main_v73 (c : Dev nD) : W57 m c main_v73 = W36 m c main_v73 := (W57_of m c main_v73 (by decide)).trans (W56_main_v73 m c)
theorem W58_main_v73 (c : Dev nD) : W58 m c main_v73 = W36 m c main_v73 := (W58_of m c main_v73 (by decide)).trans (W57_main_v73 m c)
theorem W59_main_v73 (c : Dev nD) : W59 m c main_v73 = W36 m c main_v73 := (W59_of m c main_v73 (by decide)).trans (W58_main_v73 m c)
theorem W60_main_v73 (c : Dev nD) : W60 m c main_v73 = W36 m c main_v73 := (W60_of m c main_v73 (by decide)).trans (W59_main_v73 m c)
theorem W61_main_v73 (c : Dev nD) : W61 m c main_v73 = W36 m c main_v73 := (W61_of m c main_v73 (by decide)).trans (W60_main_v73 m c)
theorem W62_main_v73 (c : Dev nD) : W62 m c main_v73 = W36 m c main_v73 := (W62_of m c main_v73 (by decide)).trans (W61_main_v73 m c)
theorem W63_main_v73 (c : Dev nD) : W63 m c main_v73 = W36 m c main_v73 := (W63_of m c main_v73 (by decide)).trans (W62_main_v73 m c)
theorem W64_main_v73 (c : Dev nD) : W64 m c main_v73 = W36 m c main_v73 := (W64_of m c main_v73 (by decide)).trans (W63_main_v73 m c)
theorem W65_main_v73 (c : Dev nD) : W65 m c main_v73 = W36 m c main_v73 := (W65_of m c main_v73 (by decide)).trans (W64_main_v73 m c)
theorem W66_main_v73 (c : Dev nD) : W66 m c main_v73 = W36 m c main_v73 := (W66_of m c main_v73 (by decide)).trans (W65_main_v73 m c)
theorem W67_main_v73 (c : Dev nD) : W67 m c main_v73 = W36 m c main_v73 := (W67_of m c main_v73 (by decide)).trans (W66_main_v73 m c)
theorem W69_main_v142 (c : Dev nD) : W69 m c main_v142 = W68 m c main_v142 := W69_of m c main_v142 (by decide)
theorem W70_main_v142 (c : Dev nD) : W70 m c main_v142 = W68 m c main_v142 := (W70_of m c main_v142 (by decide)).trans (W69_main_v142 m c)
theorem W71_main_v142 (c : Dev nD) : W71 m c main_v142 = W68 m c main_v142 := (W71_of m c main_v142 (by decide)).trans (W70_main_v142 m c)
theorem W72_main_v142 (c : Dev nD) : W72 m c main_v142 = W68 m c main_v142 := (W72_of m c main_v142 (by decide)).trans (W71_main_v142 m c)
theorem W73_main_v142 (c : Dev nD) : W73 m c main_v142 = W68 m c main_v142 := (W73_of m c main_v142 (by decide)).trans (W72_main_v142 m c)
theorem W74_main_v142 (c : Dev nD) : W74 m c main_v142 = W68 m c main_v142 := (W74_of m c main_v142 (by decide)).trans (W73_main_v142 m c)
theorem W75_main_v142 (c : Dev nD) : W75 m c main_v142 = W68 m c main_v142 := (W75_of m c main_v142 (by decide)).trans (W74_main_v142 m c)
theorem W76_main_v142 (c : Dev nD) : W76 m c main_v142 = W68 m c main_v142 := (W76_of m c main_v142 (by decide)).trans (W75_main_v142 m c)
theorem W77_main_v142 (c : Dev nD) : W77 m c main_v142 = W68 m c main_v142 := (W77_of m c main_v142 (by decide)).trans (W76_main_v142 m c)
theorem W78_main_v142 (c : Dev nD) : W78 m c main_v142 = W68 m c main_v142 := (W78_of m c main_v142 (by decide)).trans (W77_main_v142 m c)
theorem W79_main_v142 (c : Dev nD) : W79 m c main_v142 = W68 m c main_v142 := (W79_of m c main_v142 (by decide)).trans (W78_main_v142 m c)
theorem W80_main_v142 (c : Dev nD) : W80 m c main_v142 = W68 m c main_v142 := (W80_of m c main_v142 (by decide)).trans (W79_main_v142 m c)
theorem W81_main_v142 (c : Dev nD) : W81 m c main_v142 = W68 m c main_v142 := (W81_of m c main_v142 (by decide)).trans (W80_main_v142 m c)
theorem W82_main_v142 (c : Dev nD) : W82 m c main_v142 = W68 m c main_v142 := (W82_of m c main_v142 (by decide)).trans (W81_main_v142 m c)
theorem W83_main_v142 (c : Dev nD) : W83 m c main_v142 = W68 m c main_v142 := (W83_of m c main_v142 (by decide)).trans (W82_main_v142 m c)
theorem W84_main_v142 (c : Dev nD) : W84 m c main_v142 = W68 m c main_v142 := (W84_of m c main_v142 (by decide)).trans (W83_main_v142 m c)
theorem W85_main_v142 (c : Dev nD) : W85 m c main_v142 = W68 m c main_v142 := (W85_of m c main_v142 (by decide)).trans (W84_main_v142 m c)
theorem W86_main_v142 (c : Dev nD) : W86 m c main_v142 = W68 m c main_v142 := (W86_of m c main_v142 (by decide)).trans (W85_main_v142 m c)
theorem W87_main_v142 (c : Dev nD) : W87 m c main_v142 = W68 m c main_v142 := (W87_of m c main_v142 (by decide)).trans (W86_main_v142 m c)
theorem W88_main_v142 (c : Dev nD) : W88 m c main_v142 = W68 m c main_v142 := (W88_of m c main_v142 (by decide)).trans (W87_main_v142 m c)
theorem W89_main_v142 (c : Dev nD) : W89 m c main_v142 = W68 m c main_v142 := (W89_of m c main_v142 (by decide)).trans (W88_main_v142 m c)
theorem W90_main_v142 (c : Dev nD) : W90 m c main_v142 = W68 m c main_v142 := (W90_of m c main_v142 (by decide)).trans (W89_main_v142 m c)
theorem W91_main_v142 (c : Dev nD) : W91 m c main_v142 = W68 m c main_v142 := (W91_of m c main_v142 (by decide)).trans (W90_main_v142 m c)
theorem W92_main_v142 (c : Dev nD) : W92 m c main_v142 = W68 m c main_v142 := (W92_of m c main_v142 (by decide)).trans (W91_main_v142 m c)
theorem W93_main_v142 (c : Dev nD) : W93 m c main_v142 = W68 m c main_v142 := (W93_of m c main_v142 (by decide)).trans (W92_main_v142 m c)
theorem W94_main_v142 (c : Dev nD) : W94 m c main_v142 = W68 m c main_v142 := (W94_of m c main_v142 (by decide)).trans (W93_main_v142 m c)
theorem W95_main_v142 (c : Dev nD) : W95 m c main_v142 = W68 m c main_v142 := (W95_of m c main_v142 (by decide)).trans (W94_main_v142 m c)
theorem W96_main_v142 (c : Dev nD) : W96 m c main_v142 = W68 m c main_v142 := (W96_of m c main_v142 (by decide)).trans (W95_main_v142 m c)
theorem W97_main_v142 (c : Dev nD) : W97 m c main_v142 = W68 m c main_v142 := (W97_of m c main_v142 (by decide)).trans (W96_main_v142 m c)
theorem W98_main_v142 (c : Dev nD) : W98 m c main_v142 = W68 m c main_v142 := (W98_of m c main_v142 (by decide)).trans (W97_main_v142 m c)
theorem W99_main_v142 (c : Dev nD) : W99 m c main_v142 = W68 m c main_v142 := (W99_of m c main_v142 (by decide)).trans (W98_main_v142 m c)
theorem W6_main_v8 (c : Dev nD) : W6 m c main_v8 = W5 m c main_v8 := W6_of m c main_v8 (by decide)
theorem W7_main_v8 (c : Dev nD) : W7 m c main_v8 = W5 m c main_v8 := (W7_of m c main_v8 (by decide)).trans (W6_main_v8 m c)
theorem W8_main_v8 (c : Dev nD) : W8 m c main_v8 = W5 m c main_v8 := (W8_of m c main_v8 (by decide)).trans (W7_main_v8 m c)
theorem W9_main_v8 (c : Dev nD) : W9 m c main_v8 = W5 m c main_v8 := (W9_of m c main_v8 (by decide)).trans (W8_main_v8 m c)
theorem W10_main_v8 (c : Dev nD) : W10 m c main_v8 = W5 m c main_v8 := (W10_of m c main_v8 (by decide)).trans (W9_main_v8 m c)
theorem W11_main_v8 (c : Dev nD) : W11 m c main_v8 = W5 m c main_v8 := (W11_of m c main_v8 (by decide)).trans (W10_main_v8 m c)
theorem W12_main_v8 (c : Dev nD) : W12 m c main_v8 = W5 m c main_v8 := (W12_of m c main_v8 (by decide)).trans (W11_main_v8 m c)
theorem W13_main_v8 (c : Dev nD) : W13 m c main_v8 = W5 m c main_v8 := (W13_of m c main_v8 (by decide)).trans (W12_main_v8 m c)
theorem W14_main_v8 (c : Dev nD) : W14 m c main_v8 = W5 m c main_v8 := (W14_of m c main_v8 (by decide)).trans (W13_main_v8 m c)
theorem W15_main_v8 (c : Dev nD) : W15 m c main_v8 = W5 m c main_v8 := (W15_of m c main_v8 (by decide)).trans (W14_main_v8 m c)
theorem W16_main_v8 (c : Dev nD) : W16 m c main_v8 = W5 m c main_v8 := (W16_of m c main_v8 (by decide)).trans (W15_main_v8 m c)
theorem W17_main_v8 (c : Dev nD) : W17 m c main_v8 = W5 m c main_v8 := (W17_of m c main_v8 (by decide)).trans (W16_main_v8 m c)
theorem W18_main_v8 (c : Dev nD) : W18 m c main_v8 = W5 m c main_v8 := (W18_of m c main_v8 (by decide)).trans (W17_main_v8 m c)
theorem W19_main_v8 (c : Dev nD) : W19 m c main_v8 = W5 m c main_v8 := (W19_of m c main_v8 (by decide)).trans (W18_main_v8 m c)
theorem W20_main_v8 (c : Dev nD) : W20 m c main_v8 = W5 m c main_v8 := (W20_of m c main_v8 (by decide)).trans (W19_main_v8 m c)
theorem W21_main_v8 (c : Dev nD) : W21 m c main_v8 = W5 m c main_v8 := (W21_of m c main_v8 (by decide)).trans (W20_main_v8 m c)
theorem W22_main_v8 (c : Dev nD) : W22 m c main_v8 = W5 m c main_v8 := (W22_of m c main_v8 (by decide)).trans (W21_main_v8 m c)
theorem W23_main_v8 (c : Dev nD) : W23 m c main_v8 = W5 m c main_v8 := (W23_of m c main_v8 (by decide)).trans (W22_main_v8 m c)
theorem W24_main_v8 (c : Dev nD) : W24 m c main_v8 = W5 m c main_v8 := (W24_of m c main_v8 (by decide)).trans (W23_main_v8 m c)
theorem W25_main_v8 (c : Dev nD) : W25 m c main_v8 = W5 m c main_v8 := (W25_of m c main_v8 (by decide)).trans (W24_main_v8 m c)
theorem W26_main_v8 (c : Dev nD) : W26 m c main_v8 = W5 m c main_v8 := (W26_of m c main_v8 (by decide)).trans (W25_main_v8 m c)
theorem W27_main_v8 (c : Dev nD) : W27 m c main_v8 = W5 m c main_v8 := (W27_of m c main_v8 (by decide)).trans (W26_main_v8 m c)
theorem W28_main_v8 (c : Dev nD) : W28 m c main_v8 = W5 m c main_v8 := (W28_of m c main_v8 (by decide)).trans (W27_main_v8 m c)
theorem W29_main_v8 (c : Dev nD) : W29 m c main_v8 = W5 m c main_v8 := (W29_of m c main_v8 (by decide)).trans (W28_main_v8 m c)
theorem W30_main_v8 (c : Dev nD) : W30 m c main_v8 = W5 m c main_v8 := (W30_of m c main_v8 (by decide)).trans (W29_main_v8 m c)
theorem W31_main_v8 (c : Dev nD) : W31 m c main_v8 = W5 m c main_v8 := (W31_of m c main_v8 (by decide)).trans (W30_main_v8 m c)
theorem W32_main_v8 (c : Dev nD) : W32 m c main_v8 = W5 m c main_v8 := (W32_of m c main_v8 (by decide)).trans (W31_main_v8 m c)
theorem W33_main_v8 (c : Dev nD) : W33 m c main_v8 = W5 m c main_v8 := (W33_of m c main_v8 (by decide)).trans (W32_main_v8 m c)
theorem W34_main_v8 (c : Dev nD) : W34 m c main_v8 = W5 m c main_v8 := (W34_of m c main_v8 (by decide)).trans (W33_main_v8 m c)
theorem W35_main_v8 (c : Dev nD) : W35 m c main_v8 = W5 m c main_v8 := (W35_of m c main_v8 (by decide)).trans (W34_main_v8 m c)
theorem W8_main_v12 (c : Dev nD) : W8 m c main_v12 = W7 m c main_v12 := W8_of m c main_v12 (by decide)
theorem W9_main_v12 (c : Dev nD) : W9 m c main_v12 = W7 m c main_v12 := (W9_of m c main_v12 (by decide)).trans (W8_main_v12 m c)
theorem W10_main_v12 (c : Dev nD) : W10 m c main_v12 = W7 m c main_v12 := (W10_of m c main_v12 (by decide)).trans (W9_main_v12 m c)
theorem W11_main_v12 (c : Dev nD) : W11 m c main_v12 = W7 m c main_v12 := (W11_of m c main_v12 (by decide)).trans (W10_main_v12 m c)
theorem W12_main_v12 (c : Dev nD) : W12 m c main_v12 = W7 m c main_v12 := (W12_of m c main_v12 (by decide)).trans (W11_main_v12 m c)
theorem W13_main_v12 (c : Dev nD) : W13 m c main_v12 = W7 m c main_v12 := (W13_of m c main_v12 (by decide)).trans (W12_main_v12 m c)
theorem W14_main_v12 (c : Dev nD) : W14 m c main_v12 = W7 m c main_v12 := (W14_of m c main_v12 (by decide)).trans (W13_main_v12 m c)
theorem W15_main_v12 (c : Dev nD) : W15 m c main_v12 = W7 m c main_v12 := (W15_of m c main_v12 (by decide)).trans (W14_main_v12 m c)
theorem W16_main_v12 (c : Dev nD) : W16 m c main_v12 = W7 m c main_v12 := (W16_of m c main_v12 (by decide)).trans (W15_main_v12 m c)
theorem W17_main_v12 (c : Dev nD) : W17 m c main_v12 = W7 m c main_v12 := (W17_of m c main_v12 (by decide)).trans (W16_main_v12 m c)
theorem W18_main_v12 (c : Dev nD) : W18 m c main_v12 = W7 m c main_v12 := (W18_of m c main_v12 (by decide)).trans (W17_main_v12 m c)
theorem W19_main_v12 (c : Dev nD) : W19 m c main_v12 = W7 m c main_v12 := (W19_of m c main_v12 (by decide)).trans (W18_main_v12 m c)
theorem W20_main_v12 (c : Dev nD) : W20 m c main_v12 = W7 m c main_v12 := (W20_of m c main_v12 (by decide)).trans (W19_main_v12 m c)
theorem W21_main_v12 (c : Dev nD) : W21 m c main_v12 = W7 m c main_v12 := (W21_of m c main_v12 (by decide)).trans (W20_main_v12 m c)
theorem W22_main_v12 (c : Dev nD) : W22 m c main_v12 = W7 m c main_v12 := (W22_of m c main_v12 (by decide)).trans (W21_main_v12 m c)
theorem W23_main_v12 (c : Dev nD) : W23 m c main_v12 = W7 m c main_v12 := (W23_of m c main_v12 (by decide)).trans (W22_main_v12 m c)
theorem W24_main_v12 (c : Dev nD) : W24 m c main_v12 = W7 m c main_v12 := (W24_of m c main_v12 (by decide)).trans (W23_main_v12 m c)
theorem W25_main_v12 (c : Dev nD) : W25 m c main_v12 = W7 m c main_v12 := (W25_of m c main_v12 (by decide)).trans (W24_main_v12 m c)
theorem W26_main_v12 (c : Dev nD) : W26 m c main_v12 = W7 m c main_v12 := (W26_of m c main_v12 (by decide)).trans (W25_main_v12 m c)
theorem W27_main_v12 (c : Dev nD) : W27 m c main_v12 = W7 m c main_v12 := (W27_of m c main_v12 (by decide)).trans (W26_main_v12 m c)
theorem W28_main_v12 (c : Dev nD) : W28 m c main_v12 = W7 m c main_v12 := (W28_of m c main_v12 (by decide)).trans (W27_main_v12 m c)
theorem W29_main_v12 (c : Dev nD) : W29 m c main_v12 = W7 m c main_v12 := (W29_of m c main_v12 (by decide)).trans (W28_main_v12 m c)
theorem W30_main_v12 (c : Dev nD) : W30 m c main_v12 = W7 m c main_v12 := (W30_of m c main_v12 (by decide)).trans (W29_main_v12 m c)
theorem W31_main_v12 (c : Dev nD) : W31 m c main_v12 = W7 m c main_v12 := (W31_of m c main_v12 (by decide)).trans (W30_main_v12 m c)
theorem W32_main_v12 (c : Dev nD) : W32 m c main_v12 = W7 m c main_v12 := (W32_of m c main_v12 (by decide)).trans (W31_main_v12 m c)
theorem W33_main_v12 (c : Dev nD) : W33 m c main_v12 = W7 m c main_v12 := (W33_of m c main_v12 (by decide)).trans (W32_main_v12 m c)
theorem W34_main_v12 (c : Dev nD) : W34 m c main_v12 = W7 m c main_v12 := (W34_of m c main_v12 (by decide)).trans (W33_main_v12 m c)
theorem W35_main_v12 (c : Dev nD) : W35 m c main_v12 = W7 m c main_v12 := (W35_of m c main_v12 (by decide)).trans (W34_main_v12 m c)
theorem W10_main_v16 (c : Dev nD) : W10 m c main_v16 = W9 m c main_v16 := W10_of m c main_v16 (by decide)
theorem W11_main_v16 (c : Dev nD) : W11 m c main_v16 = W9 m c main_v16 := (W11_of m c main_v16 (by decide)).trans (W10_main_v16 m c)
theorem W12_main_v16 (c : Dev nD) : W12 m c main_v16 = W9 m c main_v16 := (W12_of m c main_v16 (by decide)).trans (W11_main_v16 m c)
theorem W13_main_v16 (c : Dev nD) : W13 m c main_v16 = W9 m c main_v16 := (W13_of m c main_v16 (by decide)).trans (W12_main_v16 m c)
theorem W14_main_v16 (c : Dev nD) : W14 m c main_v16 = W9 m c main_v16 := (W14_of m c main_v16 (by decide)).trans (W13_main_v16 m c)
theorem W15_main_v16 (c : Dev nD) : W15 m c main_v16 = W9 m c main_v16 := (W15_of m c main_v16 (by decide)).trans (W14_main_v16 m c)
theorem W16_main_v16 (c : Dev nD) : W16 m c main_v16 = W9 m c main_v16 := (W16_of m c main_v16 (by decide)).trans (W15_main_v16 m c)
theorem W17_main_v16 (c : Dev nD) : W17 m c main_v16 = W9 m c main_v16 := (W17_of m c main_v16 (by decide)).trans (W16_main_v16 m c)
theorem W18_main_v16 (c : Dev nD) : W18 m c main_v16 = W9 m c main_v16 := (W18_of m c main_v16 (by decide)).trans (W17_main_v16 m c)
theorem W19_main_v16 (c : Dev nD) : W19 m c main_v16 = W9 m c main_v16 := (W19_of m c main_v16 (by decide)).trans (W18_main_v16 m c)
theorem W20_main_v16 (c : Dev nD) : W20 m c main_v16 = W9 m c main_v16 := (W20_of m c main_v16 (by decide)).trans (W19_main_v16 m c)
theorem W21_main_v16 (c : Dev nD) : W21 m c main_v16 = W9 m c main_v16 := (W21_of m c main_v16 (by decide)).trans (W20_main_v16 m c)
theorem W22_main_v16 (c : Dev nD) : W22 m c main_v16 = W9 m c main_v16 := (W22_of m c main_v16 (by decide)).trans (W21_main_v16 m c)
theorem W23_main_v16 (c : Dev nD) : W23 m c main_v16 = W9 m c main_v16 := (W23_of m c main_v16 (by decide)).trans (W22_main_v16 m c)
theorem W24_main_v16 (c : Dev nD) : W24 m c main_v16 = W9 m c main_v16 := (W24_of m c main_v16 (by decide)).trans (W23_main_v16 m c)
theorem W25_main_v16 (c : Dev nD) : W25 m c main_v16 = W9 m c main_v16 := (W25_of m c main_v16 (by decide)).trans (W24_main_v16 m c)
theorem W26_main_v16 (c : Dev nD) : W26 m c main_v16 = W9 m c main_v16 := (W26_of m c main_v16 (by decide)).trans (W25_main_v16 m c)
theorem W27_main_v16 (c : Dev nD) : W27 m c main_v16 = W9 m c main_v16 := (W27_of m c main_v16 (by decide)).trans (W26_main_v16 m c)
theorem W28_main_v16 (c : Dev nD) : W28 m c main_v16 = W9 m c main_v16 := (W28_of m c main_v16 (by decide)).trans (W27_main_v16 m c)
theorem W29_main_v16 (c : Dev nD) : W29 m c main_v16 = W9 m c main_v16 := (W29_of m c main_v16 (by decide)).trans (W28_main_v16 m c)
theorem W30_main_v16 (c : Dev nD) : W30 m c main_v16 = W9 m c main_v16 := (W30_of m c main_v16 (by decide)).trans (W29_main_v16 m c)
theorem W31_main_v16 (c : Dev nD) : W31 m c main_v16 = W9 m c main_v16 := (W31_of m c main_v16 (by decide)).trans (W30_main_v16 m c)
theorem W32_main_v16 (c : Dev nD) : W32 m c main_v16 = W9 m c main_v16 := (W32_of m c main_v16 (by decide)).trans (W31_main_v16 m c)
theorem W33_main_v16 (c : Dev nD) : W33 m c main_v16 = W9 m c main_v16 := (W33_of m c main_v16 (by decide)).trans (W32_main_v16 m c)
theorem W34_main_v16 (c : Dev nD) : W34 m c main_v16 = W9 m c main_v16 := (W34_of m c main_v16 (by decide)).trans (W33_main_v16 m c)
theorem W35_main_v16 (c : Dev nD) : W35 m c main_v16 = W9 m c main_v16 := (W35_of m c main_v16 (by decide)).trans (W34_main_v16 m c)
theorem W12_main_v20 (c : Dev nD) : W12 m c main_v20 = W11 m c main_v20 := W12_of m c main_v20 (by decide)
theorem W13_main_v20 (c : Dev nD) : W13 m c main_v20 = W11 m c main_v20 := (W13_of m c main_v20 (by decide)).trans (W12_main_v20 m c)
theorem W14_main_v20 (c : Dev nD) : W14 m c main_v20 = W11 m c main_v20 := (W14_of m c main_v20 (by decide)).trans (W13_main_v20 m c)
theorem W15_main_v20 (c : Dev nD) : W15 m c main_v20 = W11 m c main_v20 := (W15_of m c main_v20 (by decide)).trans (W14_main_v20 m c)
theorem W16_main_v20 (c : Dev nD) : W16 m c main_v20 = W11 m c main_v20 := (W16_of m c main_v20 (by decide)).trans (W15_main_v20 m c)
theorem W17_main_v20 (c : Dev nD) : W17 m c main_v20 = W11 m c main_v20 := (W17_of m c main_v20 (by decide)).trans (W16_main_v20 m c)
theorem W18_main_v20 (c : Dev nD) : W18 m c main_v20 = W11 m c main_v20 := (W18_of m c main_v20 (by decide)).trans (W17_main_v20 m c)
theorem W19_main_v20 (c : Dev nD) : W19 m c main_v20 = W11 m c main_v20 := (W19_of m c main_v20 (by decide)).trans (W18_main_v20 m c)
theorem W20_main_v20 (c : Dev nD) : W20 m c main_v20 = W11 m c main_v20 := (W20_of m c main_v20 (by decide)).trans (W19_main_v20 m c)
theorem W21_main_v20 (c : Dev nD) : W21 m c main_v20 = W11 m c main_v20 := (W21_of m c main_v20 (by decide)).trans (W20_main_v20 m c)
theorem W22_main_v20 (c : Dev nD) : W22 m c main_v20 = W11 m c main_v20 := (W22_of m c main_v20 (by decide)).trans (W21_main_v20 m c)
theorem W23_main_v20 (c : Dev nD) : W23 m c main_v20 = W11 m c main_v20 := (W23_of m c main_v20 (by decide)).trans (W22_main_v20 m c)
theorem W24_main_v20 (c : Dev nD) : W24 m c main_v20 = W11 m c main_v20 := (W24_of m c main_v20 (by decide)).trans (W23_main_v20 m c)
theorem W25_main_v20 (c : Dev nD) : W25 m c main_v20 = W11 m c main_v20 := (W25_of m c main_v20 (by decide)).trans (W24_main_v20 m c)
theorem W26_main_v20 (c : Dev nD) : W26 m c main_v20 = W11 m c main_v20 := (W26_of m c main_v20 (by decide)).trans (W25_main_v20 m c)
theorem W27_main_v20 (c : Dev nD) : W27 m c main_v20 = W11 m c main_v20 := (W27_of m c main_v20 (by decide)).trans (W26_main_v20 m c)
theorem W28_main_v20 (c : Dev nD) : W28 m c main_v20 = W11 m c main_v20 := (W28_of m c main_v20 (by decide)).trans (W27_main_v20 m c)
theorem W29_main_v20 (c : Dev nD) : W29 m c main_v20 = W11 m c main_v20 := (W29_of m c main_v20 (by decide)).trans (W28_main_v20 m c)
theorem W30_main_v20 (c : Dev nD) : W30 m c main_v20 = W11 m c main_v20 := (W30_of m c main_v20 (by decide)).trans (W29_main_v20 m c)
theorem W31_main_v20 (c : Dev nD) : W31 m c main_v20 = W11 m c main_v20 := (W31_of m c main_v20 (by decide)).trans (W30_main_v20 m c)
theorem W32_main_v20 (c : Dev nD) : W32 m c main_v20 = W11 m c main_v20 := (W32_of m c main_v20 (by decide)).trans (W31_main_v20 m c)
theorem W33_main_v20 (c : Dev nD) : W33 m c main_v20 = W11 m c main_v20 := (W33_of m c main_v20 (by decide)).trans (W32_main_v20 m c)
theorem W34_main_v20 (c : Dev nD) : W34 m c main_v20 = W11 m c main_v20 := (W34_of m c main_v20 (by decide)).trans (W33_main_v20 m c)
theorem W35_main_v20 (c : Dev nD) : W35 m c main_v20 = W11 m c main_v20 := (W35_of m c main_v20 (by decide)).trans (W34_main_v20 m c)
theorem W14_main_v24 (c : Dev nD) : W14 m c main_v24 = W13 m c main_v24 := W14_of m c main_v24 (by decide)
theorem W15_main_v24 (c : Dev nD) : W15 m c main_v24 = W13 m c main_v24 := (W15_of m c main_v24 (by decide)).trans (W14_main_v24 m c)
theorem W16_main_v24 (c : Dev nD) : W16 m c main_v24 = W13 m c main_v24 := (W16_of m c main_v24 (by decide)).trans (W15_main_v24 m c)
theorem W17_main_v24 (c : Dev nD) : W17 m c main_v24 = W13 m c main_v24 := (W17_of m c main_v24 (by decide)).trans (W16_main_v24 m c)
theorem W18_main_v24 (c : Dev nD) : W18 m c main_v24 = W13 m c main_v24 := (W18_of m c main_v24 (by decide)).trans (W17_main_v24 m c)
theorem W19_main_v24 (c : Dev nD) : W19 m c main_v24 = W13 m c main_v24 := (W19_of m c main_v24 (by decide)).trans (W18_main_v24 m c)
theorem W20_main_v24 (c : Dev nD) : W20 m c main_v24 = W13 m c main_v24 := (W20_of m c main_v24 (by decide)).trans (W19_main_v24 m c)
theorem W21_main_v24 (c : Dev nD) : W21 m c main_v24 = W13 m c main_v24 := (W21_of m c main_v24 (by decide)).trans (W20_main_v24 m c)
theorem W22_main_v24 (c : Dev nD) : W22 m c main_v24 = W13 m c main_v24 := (W22_of m c main_v24 (by decide)).trans (W21_main_v24 m c)
theorem W23_main_v24 (c : Dev nD) : W23 m c main_v24 = W13 m c main_v24 := (W23_of m c main_v24 (by decide)).trans (W22_main_v24 m c)
theorem W24_main_v24 (c : Dev nD) : W24 m c main_v24 = W13 m c main_v24 := (W24_of m c main_v24 (by decide)).trans (W23_main_v24 m c)
theorem W25_main_v24 (c : Dev nD) : W25 m c main_v24 = W13 m c main_v24 := (W25_of m c main_v24 (by decide)).trans (W24_main_v24 m c)
theorem W26_main_v24 (c : Dev nD) : W26 m c main_v24 = W13 m c main_v24 := (W26_of m c main_v24 (by decide)).trans (W25_main_v24 m c)
theorem W27_main_v24 (c : Dev nD) : W27 m c main_v24 = W13 m c main_v24 := (W27_of m c main_v24 (by decide)).trans (W26_main_v24 m c)
theorem W28_main_v24 (c : Dev nD) : W28 m c main_v24 = W13 m c main_v24 := (W28_of m c main_v24 (by decide)).trans (W27_main_v24 m c)
theorem W29_main_v24 (c : Dev nD) : W29 m c main_v24 = W13 m c main_v24 := (W29_of m c main_v24 (by decide)).trans (W28_main_v24 m c)
theorem W30_main_v24 (c : Dev nD) : W30 m c main_v24 = W13 m c main_v24 := (W30_of m c main_v24 (by decide)).trans (W29_main_v24 m c)
theorem W31_main_v24 (c : Dev nD) : W31 m c main_v24 = W13 m c main_v24 := (W31_of m c main_v24 (by decide)).trans (W30_main_v24 m c)
theorem W32_main_v24 (c : Dev nD) : W32 m c main_v24 = W13 m c main_v24 := (W32_of m c main_v24 (by decide)).trans (W31_main_v24 m c)
theorem W33_main_v24 (c : Dev nD) : W33 m c main_v24 = W13 m c main_v24 := (W33_of m c main_v24 (by decide)).trans (W32_main_v24 m c)
theorem W34_main_v24 (c : Dev nD) : W34 m c main_v24 = W13 m c main_v24 := (W34_of m c main_v24 (by decide)).trans (W33_main_v24 m c)
theorem W35_main_v24 (c : Dev nD) : W35 m c main_v24 = W13 m c main_v24 := (W35_of m c main_v24 (by decide)).trans (W34_main_v24 m c)
theorem W16_main_v28 (c : Dev nD) : W16 m c main_v28 = W15 m c main_v28 := W16_of m c main_v28 (by decide)
theorem W17_main_v28 (c : Dev nD) : W17 m c main_v28 = W15 m c main_v28 := (W17_of m c main_v28 (by decide)).trans (W16_main_v28 m c)
theorem W18_main_v28 (c : Dev nD) : W18 m c main_v28 = W15 m c main_v28 := (W18_of m c main_v28 (by decide)).trans (W17_main_v28 m c)
theorem W19_main_v28 (c : Dev nD) : W19 m c main_v28 = W15 m c main_v28 := (W19_of m c main_v28 (by decide)).trans (W18_main_v28 m c)
theorem W20_main_v28 (c : Dev nD) : W20 m c main_v28 = W15 m c main_v28 := (W20_of m c main_v28 (by decide)).trans (W19_main_v28 m c)
theorem W21_main_v28 (c : Dev nD) : W21 m c main_v28 = W15 m c main_v28 := (W21_of m c main_v28 (by decide)).trans (W20_main_v28 m c)
theorem W22_main_v28 (c : Dev nD) : W22 m c main_v28 = W15 m c main_v28 := (W22_of m c main_v28 (by decide)).trans (W21_main_v28 m c)
theorem W23_main_v28 (c : Dev nD) : W23 m c main_v28 = W15 m c main_v28 := (W23_of m c main_v28 (by decide)).trans (W22_main_v28 m c)
theorem W24_main_v28 (c : Dev nD) : W24 m c main_v28 = W15 m c main_v28 := (W24_of m c main_v28 (by decide)).trans (W23_main_v28 m c)
theorem W25_main_v28 (c : Dev nD) : W25 m c main_v28 = W15 m c main_v28 := (W25_of m c main_v28 (by decide)).trans (W24_main_v28 m c)
theorem W26_main_v28 (c : Dev nD) : W26 m c main_v28 = W15 m c main_v28 := (W26_of m c main_v28 (by decide)).trans (W25_main_v28 m c)
theorem W27_main_v28 (c : Dev nD) : W27 m c main_v28 = W15 m c main_v28 := (W27_of m c main_v28 (by decide)).trans (W26_main_v28 m c)
theorem W28_main_v28 (c : Dev nD) : W28 m c main_v28 = W15 m c main_v28 := (W28_of m c main_v28 (by decide)).trans (W27_main_v28 m c)
theorem W29_main_v28 (c : Dev nD) : W29 m c main_v28 = W15 m c main_v28 := (W29_of m c main_v28 (by decide)).trans (W28_main_v28 m c)
theorem W30_main_v28 (c : Dev nD) : W30 m c main_v28 = W15 m c main_v28 := (W30_of m c main_v28 (by decide)).trans (W29_main_v28 m c)
theorem W31_main_v28 (c : Dev nD) : W31 m c main_v28 = W15 m c main_v28 := (W31_of m c main_v28 (by decide)).trans (W30_main_v28 m c)
theorem W32_main_v28 (c : Dev nD) : W32 m c main_v28 = W15 m c main_v28 := (W32_of m c main_v28 (by decide)).trans (W31_main_v28 m c)
theorem W33_main_v28 (c : Dev nD) : W33 m c main_v28 = W15 m c main_v28 := (W33_of m c main_v28 (by decide)).trans (W32_main_v28 m c)
theorem W34_main_v28 (c : Dev nD) : W34 m c main_v28 = W15 m c main_v28 := (W34_of m c main_v28 (by decide)).trans (W33_main_v28 m c)
theorem W35_main_v28 (c : Dev nD) : W35 m c main_v28 = W15 m c main_v28 := (W35_of m c main_v28 (by decide)).trans (W34_main_v28 m c)
theorem W18_main_v32 (c : Dev nD) : W18 m c main_v32 = W17 m c main_v32 := W18_of m c main_v32 (by decide)
theorem W19_main_v32 (c : Dev nD) : W19 m c main_v32 = W17 m c main_v32 := (W19_of m c main_v32 (by decide)).trans (W18_main_v32 m c)
theorem W20_main_v32 (c : Dev nD) : W20 m c main_v32 = W17 m c main_v32 := (W20_of m c main_v32 (by decide)).trans (W19_main_v32 m c)
theorem W21_main_v32 (c : Dev nD) : W21 m c main_v32 = W17 m c main_v32 := (W21_of m c main_v32 (by decide)).trans (W20_main_v32 m c)
theorem W22_main_v32 (c : Dev nD) : W22 m c main_v32 = W17 m c main_v32 := (W22_of m c main_v32 (by decide)).trans (W21_main_v32 m c)
theorem W23_main_v32 (c : Dev nD) : W23 m c main_v32 = W17 m c main_v32 := (W23_of m c main_v32 (by decide)).trans (W22_main_v32 m c)
theorem W24_main_v32 (c : Dev nD) : W24 m c main_v32 = W17 m c main_v32 := (W24_of m c main_v32 (by decide)).trans (W23_main_v32 m c)
theorem W25_main_v32 (c : Dev nD) : W25 m c main_v32 = W17 m c main_v32 := (W25_of m c main_v32 (by decide)).trans (W24_main_v32 m c)
theorem W26_main_v32 (c : Dev nD) : W26 m c main_v32 = W17 m c main_v32 := (W26_of m c main_v32 (by decide)).trans (W25_main_v32 m c)
theorem W27_main_v32 (c : Dev nD) : W27 m c main_v32 = W17 m c main_v32 := (W27_of m c main_v32 (by decide)).trans (W26_main_v32 m c)
theorem W28_main_v32 (c : Dev nD) : W28 m c main_v32 = W17 m c main_v32 := (W28_of m c main_v32 (by decide)).trans (W27_main_v32 m c)
theorem W29_main_v32 (c : Dev nD) : W29 m c main_v32 = W17 m c main_v32 := (W29_of m c main_v32 (by decide)).trans (W28_main_v32 m c)
theorem W30_main_v32 (c : Dev nD) : W30 m c main_v32 = W17 m c main_v32 := (W30_of m c main_v32 (by decide)).trans (W29_main_v32 m c)
theorem W31_main_v32 (c : Dev nD) : W31 m c main_v32 = W17 m c main_v32 := (W31_of m c main_v32 (by decide)).trans (W30_main_v32 m c)
theorem W32_main_v32 (c : Dev nD) : W32 m c main_v32 = W17 m c main_v32 := (W32_of m c main_v32 (by decide)).trans (W31_main_v32 m c)
theorem W33_main_v32 (c : Dev nD) : W33 m c main_v32 = W17 m c main_v32 := (W33_of m c main_v32 (by decide)).trans (W32_main_v32 m c)
theorem W34_main_v32 (c : Dev nD) : W34 m c main_v32 = W17 m c main_v32 := (W34_of m c main_v32 (by decide)).trans (W33_main_v32 m c)
theorem W35_main_v32 (c : Dev nD) : W35 m c main_v32 = W17 m c main_v32 := (W35_of m c main_v32 (by decide)).trans (W34_main_v32 m c)
theorem W20_main_v36 (c : Dev nD) : W20 m c main_v36 = W19 m c main_v36 := W20_of m c main_v36 (by decide)
theorem W21_main_v36 (c : Dev nD) : W21 m c main_v36 = W19 m c main_v36 := (W21_of m c main_v36 (by decide)).trans (W20_main_v36 m c)
theorem W22_main_v36 (c : Dev nD) : W22 m c main_v36 = W19 m c main_v36 := (W22_of m c main_v36 (by decide)).trans (W21_main_v36 m c)
theorem W23_main_v36 (c : Dev nD) : W23 m c main_v36 = W19 m c main_v36 := (W23_of m c main_v36 (by decide)).trans (W22_main_v36 m c)
theorem W24_main_v36 (c : Dev nD) : W24 m c main_v36 = W19 m c main_v36 := (W24_of m c main_v36 (by decide)).trans (W23_main_v36 m c)
theorem W25_main_v36 (c : Dev nD) : W25 m c main_v36 = W19 m c main_v36 := (W25_of m c main_v36 (by decide)).trans (W24_main_v36 m c)
theorem W26_main_v36 (c : Dev nD) : W26 m c main_v36 = W19 m c main_v36 := (W26_of m c main_v36 (by decide)).trans (W25_main_v36 m c)
theorem W27_main_v36 (c : Dev nD) : W27 m c main_v36 = W19 m c main_v36 := (W27_of m c main_v36 (by decide)).trans (W26_main_v36 m c)
theorem W28_main_v36 (c : Dev nD) : W28 m c main_v36 = W19 m c main_v36 := (W28_of m c main_v36 (by decide)).trans (W27_main_v36 m c)
theorem W29_main_v36 (c : Dev nD) : W29 m c main_v36 = W19 m c main_v36 := (W29_of m c main_v36 (by decide)).trans (W28_main_v36 m c)
theorem W30_main_v36 (c : Dev nD) : W30 m c main_v36 = W19 m c main_v36 := (W30_of m c main_v36 (by decide)).trans (W29_main_v36 m c)
theorem W31_main_v36 (c : Dev nD) : W31 m c main_v36 = W19 m c main_v36 := (W31_of m c main_v36 (by decide)).trans (W30_main_v36 m c)
theorem W32_main_v36 (c : Dev nD) : W32 m c main_v36 = W19 m c main_v36 := (W32_of m c main_v36 (by decide)).trans (W31_main_v36 m c)
theorem W33_main_v36 (c : Dev nD) : W33 m c main_v36 = W19 m c main_v36 := (W33_of m c main_v36 (by decide)).trans (W32_main_v36 m c)
theorem W34_main_v36 (c : Dev nD) : W34 m c main_v36 = W19 m c main_v36 := (W34_of m c main_v36 (by decide)).trans (W33_main_v36 m c)
theorem W35_main_v36 (c : Dev nD) : W35 m c main_v36 = W19 m c main_v36 := (W35_of m c main_v36 (by decide)).trans (W34_main_v36 m c)
theorem W22_main_v40 (c : Dev nD) : W22 m c main_v40 = W21 m c main_v40 := W22_of m c main_v40 (by decide)
theorem W23_main_v40 (c : Dev nD) : W23 m c main_v40 = W21 m c main_v40 := (W23_of m c main_v40 (by decide)).trans (W22_main_v40 m c)
theorem W24_main_v40 (c : Dev nD) : W24 m c main_v40 = W21 m c main_v40 := (W24_of m c main_v40 (by decide)).trans (W23_main_v40 m c)
theorem W25_main_v40 (c : Dev nD) : W25 m c main_v40 = W21 m c main_v40 := (W25_of m c main_v40 (by decide)).trans (W24_main_v40 m c)
theorem W26_main_v40 (c : Dev nD) : W26 m c main_v40 = W21 m c main_v40 := (W26_of m c main_v40 (by decide)).trans (W25_main_v40 m c)
theorem W27_main_v40 (c : Dev nD) : W27 m c main_v40 = W21 m c main_v40 := (W27_of m c main_v40 (by decide)).trans (W26_main_v40 m c)
theorem W28_main_v40 (c : Dev nD) : W28 m c main_v40 = W21 m c main_v40 := (W28_of m c main_v40 (by decide)).trans (W27_main_v40 m c)
theorem W29_main_v40 (c : Dev nD) : W29 m c main_v40 = W21 m c main_v40 := (W29_of m c main_v40 (by decide)).trans (W28_main_v40 m c)
theorem W30_main_v40 (c : Dev nD) : W30 m c main_v40 = W21 m c main_v40 := (W30_of m c main_v40 (by decide)).trans (W29_main_v40 m c)
theorem W31_main_v40 (c : Dev nD) : W31 m c main_v40 = W21 m c main_v40 := (W31_of m c main_v40 (by decide)).trans (W30_main_v40 m c)
theorem W32_main_v40 (c : Dev nD) : W32 m c main_v40 = W21 m c main_v40 := (W32_of m c main_v40 (by decide)).trans (W31_main_v40 m c)
theorem W33_main_v40 (c : Dev nD) : W33 m c main_v40 = W21 m c main_v40 := (W33_of m c main_v40 (by decide)).trans (W32_main_v40 m c)
theorem W34_main_v40 (c : Dev nD) : W34 m c main_v40 = W21 m c main_v40 := (W34_of m c main_v40 (by decide)).trans (W33_main_v40 m c)
theorem W35_main_v40 (c : Dev nD) : W35 m c main_v40 = W21 m c main_v40 := (W35_of m c main_v40 (by decide)).trans (W34_main_v40 m c)
theorem W24_main_v44 (c : Dev nD) : W24 m c main_v44 = W23 m c main_v44 := W24_of m c main_v44 (by decide)
theorem W25_main_v44 (c : Dev nD) : W25 m c main_v44 = W23 m c main_v44 := (W25_of m c main_v44 (by decide)).trans (W24_main_v44 m c)
theorem W26_main_v44 (c : Dev nD) : W26 m c main_v44 = W23 m c main_v44 := (W26_of m c main_v44 (by decide)).trans (W25_main_v44 m c)
theorem W27_main_v44 (c : Dev nD) : W27 m c main_v44 = W23 m c main_v44 := (W27_of m c main_v44 (by decide)).trans (W26_main_v44 m c)
theorem W28_main_v44 (c : Dev nD) : W28 m c main_v44 = W23 m c main_v44 := (W28_of m c main_v44 (by decide)).trans (W27_main_v44 m c)
theorem W29_main_v44 (c : Dev nD) : W29 m c main_v44 = W23 m c main_v44 := (W29_of m c main_v44 (by decide)).trans (W28_main_v44 m c)
theorem W30_main_v44 (c : Dev nD) : W30 m c main_v44 = W23 m c main_v44 := (W30_of m c main_v44 (by decide)).trans (W29_main_v44 m c)
theorem W31_main_v44 (c : Dev nD) : W31 m c main_v44 = W23 m c main_v44 := (W31_of m c main_v44 (by decide)).trans (W30_main_v44 m c)
theorem W32_main_v44 (c : Dev nD) : W32 m c main_v44 = W23 m c main_v44 := (W32_of m c main_v44 (by decide)).trans (W31_main_v44 m c)
theorem W33_main_v44 (c : Dev nD) : W33 m c main_v44 = W23 m c main_v44 := (W33_of m c main_v44 (by decide)).trans (W32_main_v44 m c)
theorem W34_main_v44 (c : Dev nD) : W34 m c main_v44 = W23 m c main_v44 := (W34_of m c main_v44 (by decide)).trans (W33_main_v44 m c)
theorem W35_main_v44 (c : Dev nD) : W35 m c main_v44 = W23 m c main_v44 := (W35_of m c main_v44 (by decide)).trans (W34_main_v44 m c)
theorem W26_main_v48 (c : Dev nD) : W26 m c main_v48 = W25 m c main_v48 := W26_of m c main_v48 (by decide)
theorem W27_main_v48 (c : Dev nD) : W27 m c main_v48 = W25 m c main_v48 := (W27_of m c main_v48 (by decide)).trans (W26_main_v48 m c)
theorem W28_main_v48 (c : Dev nD) : W28 m c main_v48 = W25 m c main_v48 := (W28_of m c main_v48 (by decide)).trans (W27_main_v48 m c)
theorem W29_main_v48 (c : Dev nD) : W29 m c main_v48 = W25 m c main_v48 := (W29_of m c main_v48 (by decide)).trans (W28_main_v48 m c)
theorem W30_main_v48 (c : Dev nD) : W30 m c main_v48 = W25 m c main_v48 := (W30_of m c main_v48 (by decide)).trans (W29_main_v48 m c)
theorem W31_main_v48 (c : Dev nD) : W31 m c main_v48 = W25 m c main_v48 := (W31_of m c main_v48 (by decide)).trans (W30_main_v48 m c)
theorem W32_main_v48 (c : Dev nD) : W32 m c main_v48 = W25 m c main_v48 := (W32_of m c main_v48 (by decide)).trans (W31_main_v48 m c)
theorem W33_main_v48 (c : Dev nD) : W33 m c main_v48 = W25 m c main_v48 := (W33_of m c main_v48 (by decide)).trans (W32_main_v48 m c)
theorem W34_main_v48 (c : Dev nD) : W34 m c main_v48 = W25 m c main_v48 := (W34_of m c main_v48 (by decide)).trans (W33_main_v48 m c)
theorem W35_main_v48 (c : Dev nD) : W35 m c main_v48 = W25 m c main_v48 := (W35_of m c main_v48 (by decide)).trans (W34_main_v48 m c)
theorem W28_main_v52 (c : Dev nD) : W28 m c main_v52 = W27 m c main_v52 := W28_of m c main_v52 (by decide)
theorem W29_main_v52 (c : Dev nD) : W29 m c main_v52 = W27 m c main_v52 := (W29_of m c main_v52 (by decide)).trans (W28_main_v52 m c)
theorem W30_main_v52 (c : Dev nD) : W30 m c main_v52 = W27 m c main_v52 := (W30_of m c main_v52 (by decide)).trans (W29_main_v52 m c)
theorem W31_main_v52 (c : Dev nD) : W31 m c main_v52 = W27 m c main_v52 := (W31_of m c main_v52 (by decide)).trans (W30_main_v52 m c)
theorem W32_main_v52 (c : Dev nD) : W32 m c main_v52 = W27 m c main_v52 := (W32_of m c main_v52 (by decide)).trans (W31_main_v52 m c)
theorem W33_main_v52 (c : Dev nD) : W33 m c main_v52 = W27 m c main_v52 := (W33_of m c main_v52 (by decide)).trans (W32_main_v52 m c)
theorem W34_main_v52 (c : Dev nD) : W34 m c main_v52 = W27 m c main_v52 := (W34_of m c main_v52 (by decide)).trans (W33_main_v52 m c)
theorem W35_main_v52 (c : Dev nD) : W35 m c main_v52 = W27 m c main_v52 := (W35_of m c main_v52 (by decide)).trans (W34_main_v52 m c)
theorem W30_main_v56 (c : Dev nD) : W30 m c main_v56 = W29 m c main_v56 := W30_of m c main_v56 (by decide)
theorem W31_main_v56 (c : Dev nD) : W31 m c main_v56 = W29 m c main_v56 := (W31_of m c main_v56 (by decide)).trans (W30_main_v56 m c)
theorem W32_main_v56 (c : Dev nD) : W32 m c main_v56 = W29 m c main_v56 := (W32_of m c main_v56 (by decide)).trans (W31_main_v56 m c)
theorem W33_main_v56 (c : Dev nD) : W33 m c main_v56 = W29 m c main_v56 := (W33_of m c main_v56 (by decide)).trans (W32_main_v56 m c)
theorem W34_main_v56 (c : Dev nD) : W34 m c main_v56 = W29 m c main_v56 := (W34_of m c main_v56 (by decide)).trans (W33_main_v56 m c)
theorem W35_main_v56 (c : Dev nD) : W35 m c main_v56 = W29 m c main_v56 := (W35_of m c main_v56 (by decide)).trans (W34_main_v56 m c)
theorem W32_main_v60 (c : Dev nD) : W32 m c main_v60 = W31 m c main_v60 := W32_of m c main_v60 (by decide)
theorem W33_main_v60 (c : Dev nD) : W33 m c main_v60 = W31 m c main_v60 := (W33_of m c main_v60 (by decide)).trans (W32_main_v60 m c)
theorem W34_main_v60 (c : Dev nD) : W34 m c main_v60 = W31 m c main_v60 := (W34_of m c main_v60 (by decide)).trans (W33_main_v60 m c)
theorem W35_main_v60 (c : Dev nD) : W35 m c main_v60 = W31 m c main_v60 := (W35_of m c main_v60 (by decide)).trans (W34_main_v60 m c)
theorem W34_main_v64 (c : Dev nD) : W34 m c main_v64 = W33 m c main_v64 := W34_of m c main_v64 (by decide)
theorem W35_main_v64 (c : Dev nD) : W35 m c main_v64 = W33 m c main_v64 := (W35_of m c main_v64 (by decide)).trans (W34_main_v64 m c)
theorem W38_main_v77 (c : Dev nD) : W38 m c main_v77 = W37 m c main_v77 := W38_of m c main_v77 (by decide)
theorem W39_main_v77 (c : Dev nD) : W39 m c main_v77 = W37 m c main_v77 := (W39_of m c main_v77 (by decide)).trans (W38_main_v77 m c)
theorem W40_main_v77 (c : Dev nD) : W40 m c main_v77 = W37 m c main_v77 := (W40_of m c main_v77 (by decide)).trans (W39_main_v77 m c)
theorem W41_main_v77 (c : Dev nD) : W41 m c main_v77 = W37 m c main_v77 := (W41_of m c main_v77 (by decide)).trans (W40_main_v77 m c)
theorem W42_main_v77 (c : Dev nD) : W42 m c main_v77 = W37 m c main_v77 := (W42_of m c main_v77 (by decide)).trans (W41_main_v77 m c)
theorem W43_main_v77 (c : Dev nD) : W43 m c main_v77 = W37 m c main_v77 := (W43_of m c main_v77 (by decide)).trans (W42_main_v77 m c)
theorem W44_main_v77 (c : Dev nD) : W44 m c main_v77 = W37 m c main_v77 := (W44_of m c main_v77 (by decide)).trans (W43_main_v77 m c)
theorem W45_main_v77 (c : Dev nD) : W45 m c main_v77 = W37 m c main_v77 := (W45_of m c main_v77 (by decide)).trans (W44_main_v77 m c)
theorem W46_main_v77 (c : Dev nD) : W46 m c main_v77 = W37 m c main_v77 := (W46_of m c main_v77 (by decide)).trans (W45_main_v77 m c)
theorem W47_main_v77 (c : Dev nD) : W47 m c main_v77 = W37 m c main_v77 := (W47_of m c main_v77 (by decide)).trans (W46_main_v77 m c)
theorem W48_main_v77 (c : Dev nD) : W48 m c main_v77 = W37 m c main_v77 := (W48_of m c main_v77 (by decide)).trans (W47_main_v77 m c)
theorem W49_main_v77 (c : Dev nD) : W49 m c main_v77 = W37 m c main_v77 := (W49_of m c main_v77 (by decide)).trans (W48_main_v77 m c)
theorem W50_main_v77 (c : Dev nD) : W50 m c main_v77 = W37 m c main_v77 := (W50_of m c main_v77 (by decide)).trans (W49_main_v77 m c)
theorem W51_main_v77 (c : Dev nD) : W51 m c main_v77 = W37 m c main_v77 := (W51_of m c main_v77 (by decide)).trans (W50_main_v77 m c)
theorem W52_main_v77 (c : Dev nD) : W52 m c main_v77 = W37 m c main_v77 := (W52_of m c main_v77 (by decide)).trans (W51_main_v77 m c)
theorem W53_main_v77 (c : Dev nD) : W53 m c main_v77 = W37 m c main_v77 := (W53_of m c main_v77 (by decide)).trans (W52_main_v77 m c)
theorem W54_main_v77 (c : Dev nD) : W54 m c main_v77 = W37 m c main_v77 := (W54_of m c main_v77 (by decide)).trans (W53_main_v77 m c)
theorem W55_main_v77 (c : Dev nD) : W55 m c main_v77 = W37 m c main_v77 := (W55_of m c main_v77 (by decide)).trans (W54_main_v77 m c)
theorem W56_main_v77 (c : Dev nD) : W56 m c main_v77 = W37 m c main_v77 := (W56_of m c main_v77 (by decide)).trans (W55_main_v77 m c)
theorem W57_main_v77 (c : Dev nD) : W57 m c main_v77 = W37 m c main_v77 := (W57_of m c main_v77 (by decide)).trans (W56_main_v77 m c)
theorem W58_main_v77 (c : Dev nD) : W58 m c main_v77 = W37 m c main_v77 := (W58_of m c main_v77 (by decide)).trans (W57_main_v77 m c)
theorem W59_main_v77 (c : Dev nD) : W59 m c main_v77 = W37 m c main_v77 := (W59_of m c main_v77 (by decide)).trans (W58_main_v77 m c)
theorem W60_main_v77 (c : Dev nD) : W60 m c main_v77 = W37 m c main_v77 := (W60_of m c main_v77 (by decide)).trans (W59_main_v77 m c)
theorem W61_main_v77 (c : Dev nD) : W61 m c main_v77 = W37 m c main_v77 := (W61_of m c main_v77 (by decide)).trans (W60_main_v77 m c)
theorem W62_main_v77 (c : Dev nD) : W62 m c main_v77 = W37 m c main_v77 := (W62_of m c main_v77 (by decide)).trans (W61_main_v77 m c)
theorem W63_main_v77 (c : Dev nD) : W63 m c main_v77 = W37 m c main_v77 := (W63_of m c main_v77 (by decide)).trans (W62_main_v77 m c)
theorem W64_main_v77 (c : Dev nD) : W64 m c main_v77 = W37 m c main_v77 := (W64_of m c main_v77 (by decide)).trans (W63_main_v77 m c)
theorem W65_main_v77 (c : Dev nD) : W65 m c main_v77 = W37 m c main_v77 := (W65_of m c main_v77 (by decide)).trans (W64_main_v77 m c)
theorem W66_main_v77 (c : Dev nD) : W66 m c main_v77 = W37 m c main_v77 := (W66_of m c main_v77 (by decide)).trans (W65_main_v77 m c)
theorem W67_main_v77 (c : Dev nD) : W67 m c main_v77 = W37 m c main_v77 := (W67_of m c main_v77 (by decide)).trans (W66_main_v77 m c)
theorem W40_main_v81 (c : Dev nD) : W40 m c main_v81 = W39 m c main_v81 := W40_of m c main_v81 (by decide)
theorem W41_main_v81 (c : Dev nD) : W41 m c main_v81 = W39 m c main_v81 := (W41_of m c main_v81 (by decide)).trans (W40_main_v81 m c)
theorem W42_main_v81 (c : Dev nD) : W42 m c main_v81 = W39 m c main_v81 := (W42_of m c main_v81 (by decide)).trans (W41_main_v81 m c)
theorem W43_main_v81 (c : Dev nD) : W43 m c main_v81 = W39 m c main_v81 := (W43_of m c main_v81 (by decide)).trans (W42_main_v81 m c)
theorem W44_main_v81 (c : Dev nD) : W44 m c main_v81 = W39 m c main_v81 := (W44_of m c main_v81 (by decide)).trans (W43_main_v81 m c)
theorem W45_main_v81 (c : Dev nD) : W45 m c main_v81 = W39 m c main_v81 := (W45_of m c main_v81 (by decide)).trans (W44_main_v81 m c)
theorem W46_main_v81 (c : Dev nD) : W46 m c main_v81 = W39 m c main_v81 := (W46_of m c main_v81 (by decide)).trans (W45_main_v81 m c)
theorem W47_main_v81 (c : Dev nD) : W47 m c main_v81 = W39 m c main_v81 := (W47_of m c main_v81 (by decide)).trans (W46_main_v81 m c)
theorem W48_main_v81 (c : Dev nD) : W48 m c main_v81 = W39 m c main_v81 := (W48_of m c main_v81 (by decide)).trans (W47_main_v81 m c)
theorem W49_main_v81 (c : Dev nD) : W49 m c main_v81 = W39 m c main_v81 := (W49_of m c main_v81 (by decide)).trans (W48_main_v81 m c)
theorem W50_main_v81 (c : Dev nD) : W50 m c main_v81 = W39 m c main_v81 := (W50_of m c main_v81 (by decide)).trans (W49_main_v81 m c)
theorem W51_main_v81 (c : Dev nD) : W51 m c main_v81 = W39 m c main_v81 := (W51_of m c main_v81 (by decide)).trans (W50_main_v81 m c)
theorem W52_main_v81 (c : Dev nD) : W52 m c main_v81 = W39 m c main_v81 := (W52_of m c main_v81 (by decide)).trans (W51_main_v81 m c)
theorem W53_main_v81 (c : Dev nD) : W53 m c main_v81 = W39 m c main_v81 := (W53_of m c main_v81 (by decide)).trans (W52_main_v81 m c)
theorem W54_main_v81 (c : Dev nD) : W54 m c main_v81 = W39 m c main_v81 := (W54_of m c main_v81 (by decide)).trans (W53_main_v81 m c)
theorem W55_main_v81 (c : Dev nD) : W55 m c main_v81 = W39 m c main_v81 := (W55_of m c main_v81 (by decide)).trans (W54_main_v81 m c)
theorem W56_main_v81 (c : Dev nD) : W56 m c main_v81 = W39 m c main_v81 := (W56_of m c main_v81 (by decide)).trans (W55_main_v81 m c)
theorem W57_main_v81 (c : Dev nD) : W57 m c main_v81 = W39 m c main_v81 := (W57_of m c main_v81 (by decide)).trans (W56_main_v81 m c)
theorem W58_main_v81 (c : Dev nD) : W58 m c main_v81 = W39 m c main_v81 := (W58_of m c main_v81 (by decide)).trans (W57_main_v81 m c)
theorem W59_main_v81 (c : Dev nD) : W59 m c main_v81 = W39 m c main_v81 := (W59_of m c main_v81 (by decide)).trans (W58_main_v81 m c)
theorem W60_main_v81 (c : Dev nD) : W60 m c main_v81 = W39 m c main_v81 := (W60_of m c main_v81 (by decide)).trans (W59_main_v81 m c)
theorem W61_main_v81 (c : Dev nD) : W61 m c main_v81 = W39 m c main_v81 := (W61_of m c main_v81 (by decide)).trans (W60_main_v81 m c)
theorem W62_main_v81 (c : Dev nD) : W62 m c main_v81 = W39 m c main_v81 := (W62_of m c main_v81 (by decide)).trans (W61_main_v81 m c)
theorem W63_main_v81 (c : Dev nD) : W63 m c main_v81 = W39 m c main_v81 := (W63_of m c main_v81 (by decide)).trans (W62_main_v81 m c)
theorem W64_main_v81 (c : Dev nD) : W64 m c main_v81 = W39 m c main_v81 := (W64_of m c main_v81 (by decide)).trans (W63_main_v81 m c)
theorem W65_main_v81 (c : Dev nD) : W65 m c main_v81 = W39 m c main_v81 := (W65_of m c main_v81 (by decide)).trans (W64_main_v81 m c)
theorem W66_main_v81 (c : Dev nD) : W66 m c main_v81 = W39 m c main_v81 := (W66_of m c main_v81 (by decide)).trans (W65_main_v81 m c)
theorem W67_main_v81 (c : Dev nD) : W67 m c main_v81 = W39 m c main_v81 := (W67_of m c main_v81 (by decide)).trans (W66_main_v81 m c)
theorem W42_main_v85 (c : Dev nD) : W42 m c main_v85 = W41 m c main_v85 := W42_of m c main_v85 (by decide)
theorem W43_main_v85 (c : Dev nD) : W43 m c main_v85 = W41 m c main_v85 := (W43_of m c main_v85 (by decide)).trans (W42_main_v85 m c)
theorem W44_main_v85 (c : Dev nD) : W44 m c main_v85 = W41 m c main_v85 := (W44_of m c main_v85 (by decide)).trans (W43_main_v85 m c)
theorem W45_main_v85 (c : Dev nD) : W45 m c main_v85 = W41 m c main_v85 := (W45_of m c main_v85 (by decide)).trans (W44_main_v85 m c)
theorem W46_main_v85 (c : Dev nD) : W46 m c main_v85 = W41 m c main_v85 := (W46_of m c main_v85 (by decide)).trans (W45_main_v85 m c)
theorem W47_main_v85 (c : Dev nD) : W47 m c main_v85 = W41 m c main_v85 := (W47_of m c main_v85 (by decide)).trans (W46_main_v85 m c)
theorem W48_main_v85 (c : Dev nD) : W48 m c main_v85 = W41 m c main_v85 := (W48_of m c main_v85 (by decide)).trans (W47_main_v85 m c)
theorem W49_main_v85 (c : Dev nD) : W49 m c main_v85 = W41 m c main_v85 := (W49_of m c main_v85 (by decide)).trans (W48_main_v85 m c)
theorem W50_main_v85 (c : Dev nD) : W50 m c main_v85 = W41 m c main_v85 := (W50_of m c main_v85 (by decide)).trans (W49_main_v85 m c)
theorem W51_main_v85 (c : Dev nD) : W51 m c main_v85 = W41 m c main_v85 := (W51_of m c main_v85 (by decide)).trans (W50_main_v85 m c)
theorem W52_main_v85 (c : Dev nD) : W52 m c main_v85 = W41 m c main_v85 := (W52_of m c main_v85 (by decide)).trans (W51_main_v85 m c)
theorem W53_main_v85 (c : Dev nD) : W53 m c main_v85 = W41 m c main_v85 := (W53_of m c main_v85 (by decide)).trans (W52_main_v85 m c)
theorem W54_main_v85 (c : Dev nD) : W54 m c main_v85 = W41 m c main_v85 := (W54_of m c main_v85 (by decide)).trans (W53_main_v85 m c)
theorem W55_main_v85 (c : Dev nD) : W55 m c main_v85 = W41 m c main_v85 := (W55_of m c main_v85 (by decide)).trans (W54_main_v85 m c)
theorem W56_main_v85 (c : Dev nD) : W56 m c main_v85 = W41 m c main_v85 := (W56_of m c main_v85 (by decide)).trans (W55_main_v85 m c)
theorem W57_main_v85 (c : Dev nD) : W57 m c main_v85 = W41 m c main_v85 := (W57_of m c main_v85 (by decide)).trans (W56_main_v85 m c)
theorem W58_main_v85 (c : Dev nD) : W58 m c main_v85 = W41 m c main_v85 := (W58_of m c main_v85 (by decide)).trans (W57_main_v85 m c)
theorem W59_main_v85 (c : Dev nD) : W59 m c main_v85 = W41 m c main_v85 := (W59_of m c main_v85 (by decide)).trans (W58_main_v85 m c)
theorem W60_main_v85 (c : Dev nD) : W60 m c main_v85 = W41 m c main_v85 := (W60_of m c main_v85 (by decide)).trans (W59_main_v85 m c)
theorem W61_main_v85 (c : Dev nD) : W61 m c main_v85 = W41 m c main_v85 := (W61_of m c main_v85 (by decide)).trans (W60_main_v85 m c)
theorem W62_main_v85 (c : Dev nD) : W62 m c main_v85 = W41 m c main_v85 := (W62_of m c main_v85 (by decide)).trans (W61_main_v85 m c)
theorem W63_main_v85 (c : Dev nD) : W63 m c main_v85 = W41 m c main_v85 := (W63_of m c main_v85 (by decide)).trans (W62_main_v85 m c)
theorem W64_main_v85 (c : Dev nD) : W64 m c main_v85 = W41 m c main_v85 := (W64_of m c main_v85 (by decide)).trans (W63_main_v85 m c)
theorem W65_main_v85 (c : Dev nD) : W65 m c main_v85 = W41 m c main_v85 := (W65_of m c main_v85 (by decide)).trans (W64_main_v85 m c)
theorem W66_main_v85 (c : Dev nD) : W66 m c main_v85 = W41 m c main_v85 := (W66_of m c main_v85 (by decide)).trans (W65_main_v85 m c)
theorem W67_main_v85 (c : Dev nD) : W67 m c main_v85 = W41 m c main_v85 := (W67_of m c main_v85 (by decide)).trans (W66_main_v85 m c)
theorem W44_main_v89 (c : Dev nD) : W44 m c main_v89 = W43 m c main_v89 := W44_of m c main_v89 (by decide)
theorem W45_main_v89 (c : Dev nD) : W45 m c main_v89 = W43 m c main_v89 := (W45_of m c main_v89 (by decide)).trans (W44_main_v89 m c)
theorem W46_main_v89 (c : Dev nD) : W46 m c main_v89 = W43 m c main_v89 := (W46_of m c main_v89 (by decide)).trans (W45_main_v89 m c)
theorem W47_main_v89 (c : Dev nD) : W47 m c main_v89 = W43 m c main_v89 := (W47_of m c main_v89 (by decide)).trans (W46_main_v89 m c)
theorem W48_main_v89 (c : Dev nD) : W48 m c main_v89 = W43 m c main_v89 := (W48_of m c main_v89 (by decide)).trans (W47_main_v89 m c)
theorem W49_main_v89 (c : Dev nD) : W49 m c main_v89 = W43 m c main_v89 := (W49_of m c main_v89 (by decide)).trans (W48_main_v89 m c)
theorem W50_main_v89 (c : Dev nD) : W50 m c main_v89 = W43 m c main_v89 := (W50_of m c main_v89 (by decide)).trans (W49_main_v89 m c)
theorem W51_main_v89 (c : Dev nD) : W51 m c main_v89 = W43 m c main_v89 := (W51_of m c main_v89 (by decide)).trans (W50_main_v89 m c)
theorem W52_main_v89 (c : Dev nD) : W52 m c main_v89 = W43 m c main_v89 := (W52_of m c main_v89 (by decide)).trans (W51_main_v89 m c)
theorem W53_main_v89 (c : Dev nD) : W53 m c main_v89 = W43 m c main_v89 := (W53_of m c main_v89 (by decide)).trans (W52_main_v89 m c)
theorem W54_main_v89 (c : Dev nD) : W54 m c main_v89 = W43 m c main_v89 := (W54_of m c main_v89 (by decide)).trans (W53_main_v89 m c)
theorem W55_main_v89 (c : Dev nD) : W55 m c main_v89 = W43 m c main_v89 := (W55_of m c main_v89 (by decide)).trans (W54_main_v89 m c)
theorem W56_main_v89 (c : Dev nD) : W56 m c main_v89 = W43 m c main_v89 := (W56_of m c main_v89 (by decide)).trans (W55_main_v89 m c)
theorem W57_main_v89 (c : Dev nD) : W57 m c main_v89 = W43 m c main_v89 := (W57_of m c main_v89 (by decide)).trans (W56_main_v89 m c)
theorem W58_main_v89 (c : Dev nD) : W58 m c main_v89 = W43 m c main_v89 := (W58_of m c main_v89 (by decide)).trans (W57_main_v89 m c)
theorem W59_main_v89 (c : Dev nD) : W59 m c main_v89 = W43 m c main_v89 := (W59_of m c main_v89 (by decide)).trans (W58_main_v89 m c)
theorem W60_main_v89 (c : Dev nD) : W60 m c main_v89 = W43 m c main_v89 := (W60_of m c main_v89 (by decide)).trans (W59_main_v89 m c)
theorem W61_main_v89 (c : Dev nD) : W61 m c main_v89 = W43 m c main_v89 := (W61_of m c main_v89 (by decide)).trans (W60_main_v89 m c)
theorem W62_main_v89 (c : Dev nD) : W62 m c main_v89 = W43 m c main_v89 := (W62_of m c main_v89 (by decide)).trans (W61_main_v89 m c)
theorem W63_main_v89 (c : Dev nD) : W63 m c main_v89 = W43 m c main_v89 := (W63_of m c main_v89 (by decide)).trans (W62_main_v89 m c)
theorem W64_main_v89 (c : Dev nD) : W64 m c main_v89 = W43 m c main_v89 := (W64_of m c main_v89 (by decide)).trans (W63_main_v89 m c)
theorem W65_main_v89 (c : Dev nD) : W65 m c main_v89 = W43 m c main_v89 := (W65_of m c main_v89 (by decide)).trans (W64_main_v89 m c)
theorem W66_main_v89 (c : Dev nD) : W66 m c main_v89 = W43 m c main_v89 := (W66_of m c main_v89 (by decide)).trans (W65_main_v89 m c)
theorem W67_main_v89 (c : Dev nD) : W67 m c main_v89 = W43 m c main_v89 := (W67_of m c main_v89 (by decide)).trans (W66_main_v89 m c)
theorem W46_main_v93 (c : Dev nD) : W46 m c main_v93 = W45 m c main_v93 := W46_of m c main_v93 (by decide)
theorem W47_main_v93 (c : Dev nD) : W47 m c main_v93 = W45 m c main_v93 := (W47_of m c main_v93 (by decide)).trans (W46_main_v93 m c)
theorem W48_main_v93 (c : Dev nD) : W48 m c main_v93 = W45 m c main_v93 := (W48_of m c main_v93 (by decide)).trans (W47_main_v93 m c)
theorem W49_main_v93 (c : Dev nD) : W49 m c main_v93 = W45 m c main_v93 := (W49_of m c main_v93 (by decide)).trans (W48_main_v93 m c)
theorem W50_main_v93 (c : Dev nD) : W50 m c main_v93 = W45 m c main_v93 := (W50_of m c main_v93 (by decide)).trans (W49_main_v93 m c)
theorem W51_main_v93 (c : Dev nD) : W51 m c main_v93 = W45 m c main_v93 := (W51_of m c main_v93 (by decide)).trans (W50_main_v93 m c)
theorem W52_main_v93 (c : Dev nD) : W52 m c main_v93 = W45 m c main_v93 := (W52_of m c main_v93 (by decide)).trans (W51_main_v93 m c)
theorem W53_main_v93 (c : Dev nD) : W53 m c main_v93 = W45 m c main_v93 := (W53_of m c main_v93 (by decide)).trans (W52_main_v93 m c)
theorem W54_main_v93 (c : Dev nD) : W54 m c main_v93 = W45 m c main_v93 := (W54_of m c main_v93 (by decide)).trans (W53_main_v93 m c)
theorem W55_main_v93 (c : Dev nD) : W55 m c main_v93 = W45 m c main_v93 := (W55_of m c main_v93 (by decide)).trans (W54_main_v93 m c)
theorem W56_main_v93 (c : Dev nD) : W56 m c main_v93 = W45 m c main_v93 := (W56_of m c main_v93 (by decide)).trans (W55_main_v93 m c)
theorem W57_main_v93 (c : Dev nD) : W57 m c main_v93 = W45 m c main_v93 := (W57_of m c main_v93 (by decide)).trans (W56_main_v93 m c)
theorem W58_main_v93 (c : Dev nD) : W58 m c main_v93 = W45 m c main_v93 := (W58_of m c main_v93 (by decide)).trans (W57_main_v93 m c)
theorem W59_main_v93 (c : Dev nD) : W59 m c main_v93 = W45 m c main_v93 := (W59_of m c main_v93 (by decide)).trans (W58_main_v93 m c)
theorem W60_main_v93 (c : Dev nD) : W60 m c main_v93 = W45 m c main_v93 := (W60_of m c main_v93 (by decide)).trans (W59_main_v93 m c)
theorem W61_main_v93 (c : Dev nD) : W61 m c main_v93 = W45 m c main_v93 := (W61_of m c main_v93 (by decide)).trans (W60_main_v93 m c)
theorem W62_main_v93 (c : Dev nD) : W62 m c main_v93 = W45 m c main_v93 := (W62_of m c main_v93 (by decide)).trans (W61_main_v93 m c)
theorem W63_main_v93 (c : Dev nD) : W63 m c main_v93 = W45 m c main_v93 := (W63_of m c main_v93 (by decide)).trans (W62_main_v93 m c)
theorem W64_main_v93 (c : Dev nD) : W64 m c main_v93 = W45 m c main_v93 := (W64_of m c main_v93 (by decide)).trans (W63_main_v93 m c)
theorem W65_main_v93 (c : Dev nD) : W65 m c main_v93 = W45 m c main_v93 := (W65_of m c main_v93 (by decide)).trans (W64_main_v93 m c)
theorem W66_main_v93 (c : Dev nD) : W66 m c main_v93 = W45 m c main_v93 := (W66_of m c main_v93 (by decide)).trans (W65_main_v93 m c)
theorem W67_main_v93 (c : Dev nD) : W67 m c main_v93 = W45 m c main_v93 := (W67_of m c main_v93 (by decide)).trans (W66_main_v93 m c)
theorem W48_main_v97 (c : Dev nD) : W48 m c main_v97 = W47 m c main_v97 := W48_of m c main_v97 (by decide)
theorem W49_main_v97 (c : Dev nD) : W49 m c main_v97 = W47 m c main_v97 := (W49_of m c main_v97 (by decide)).trans (W48_main_v97 m c)
theorem W50_main_v97 (c : Dev nD) : W50 m c main_v97 = W47 m c main_v97 := (W50_of m c main_v97 (by decide)).trans (W49_main_v97 m c)
theorem W51_main_v97 (c : Dev nD) : W51 m c main_v97 = W47 m c main_v97 := (W51_of m c main_v97 (by decide)).trans (W50_main_v97 m c)
theorem W52_main_v97 (c : Dev nD) : W52 m c main_v97 = W47 m c main_v97 := (W52_of m c main_v97 (by decide)).trans (W51_main_v97 m c)
theorem W53_main_v97 (c : Dev nD) : W53 m c main_v97 = W47 m c main_v97 := (W53_of m c main_v97 (by decide)).trans (W52_main_v97 m c)
theorem W54_main_v97 (c : Dev nD) : W54 m c main_v97 = W47 m c main_v97 := (W54_of m c main_v97 (by decide)).trans (W53_main_v97 m c)
theorem W55_main_v97 (c : Dev nD) : W55 m c main_v97 = W47 m c main_v97 := (W55_of m c main_v97 (by decide)).trans (W54_main_v97 m c)
theorem W56_main_v97 (c : Dev nD) : W56 m c main_v97 = W47 m c main_v97 := (W56_of m c main_v97 (by decide)).trans (W55_main_v97 m c)
theorem W57_main_v97 (c : Dev nD) : W57 m c main_v97 = W47 m c main_v97 := (W57_of m c main_v97 (by decide)).trans (W56_main_v97 m c)
theorem W58_main_v97 (c : Dev nD) : W58 m c main_v97 = W47 m c main_v97 := (W58_of m c main_v97 (by decide)).trans (W57_main_v97 m c)
theorem W59_main_v97 (c : Dev nD) : W59 m c main_v97 = W47 m c main_v97 := (W59_of m c main_v97 (by decide)).trans (W58_main_v97 m c)
theorem W60_main_v97 (c : Dev nD) : W60 m c main_v97 = W47 m c main_v97 := (W60_of m c main_v97 (by decide)).trans (W59_main_v97 m c)
theorem W61_main_v97 (c : Dev nD) : W61 m c main_v97 = W47 m c main_v97 := (W61_of m c main_v97 (by decide)).trans (W60_main_v97 m c)
theorem W62_main_v97 (c : Dev nD) : W62 m c main_v97 = W47 m c main_v97 := (W62_of m c main_v97 (by decide)).trans (W61_main_v97 m c)
theorem W63_main_v97 (c : Dev nD) : W63 m c main_v97 = W47 m c main_v97 := (W63_of m c main_v97 (by decide)).trans (W62_main_v97 m c)
theorem W64_main_v97 (c : Dev nD) : W64 m c main_v97 = W47 m c main_v97 := (W64_of m c main_v97 (by decide)).trans (W63_main_v97 m c)
theorem W65_main_v97 (c : Dev nD) : W65 m c main_v97 = W47 m c main_v97 := (W65_of m c main_v97 (by decide)).trans (W64_main_v97 m c)
theorem W66_main_v97 (c : Dev nD) : W66 m c main_v97 = W47 m c main_v97 := (W66_of m c main_v97 (by decide)).trans (W65_main_v97 m c)
theorem W67_main_v97 (c : Dev nD) : W67 m c main_v97 = W47 m c main_v97 := (W67_of m c main_v97 (by decide)).trans (W66_main_v97 m c)
theorem W50_main_v101 (c : Dev nD) : W50 m c main_v101 = W49 m c main_v101 := W50_of m c main_v101 (by decide)
theorem W51_main_v101 (c : Dev nD) : W51 m c main_v101 = W49 m c main_v101 := (W51_of m c main_v101 (by decide)).trans (W50_main_v101 m c)
theorem W52_main_v101 (c : Dev nD) : W52 m c main_v101 = W49 m c main_v101 := (W52_of m c main_v101 (by decide)).trans (W51_main_v101 m c)
theorem W53_main_v101 (c : Dev nD) : W53 m c main_v101 = W49 m c main_v101 := (W53_of m c main_v101 (by decide)).trans (W52_main_v101 m c)
theorem W54_main_v101 (c : Dev nD) : W54 m c main_v101 = W49 m c main_v101 := (W54_of m c main_v101 (by decide)).trans (W53_main_v101 m c)
theorem W55_main_v101 (c : Dev nD) : W55 m c main_v101 = W49 m c main_v101 := (W55_of m c main_v101 (by decide)).trans (W54_main_v101 m c)
theorem W56_main_v101 (c : Dev nD) : W56 m c main_v101 = W49 m c main_v101 := (W56_of m c main_v101 (by decide)).trans (W55_main_v101 m c)
theorem W57_main_v101 (c : Dev nD) : W57 m c main_v101 = W49 m c main_v101 := (W57_of m c main_v101 (by decide)).trans (W56_main_v101 m c)
theorem W58_main_v101 (c : Dev nD) : W58 m c main_v101 = W49 m c main_v101 := (W58_of m c main_v101 (by decide)).trans (W57_main_v101 m c)
theorem W59_main_v101 (c : Dev nD) : W59 m c main_v101 = W49 m c main_v101 := (W59_of m c main_v101 (by decide)).trans (W58_main_v101 m c)
theorem W60_main_v101 (c : Dev nD) : W60 m c main_v101 = W49 m c main_v101 := (W60_of m c main_v101 (by decide)).trans (W59_main_v101 m c)
theorem W61_main_v101 (c : Dev nD) : W61 m c main_v101 = W49 m c main_v101 := (W61_of m c main_v101 (by decide)).trans (W60_main_v101 m c)
theorem W62_main_v101 (c : Dev nD) : W62 m c main_v101 = W49 m c main_v101 := (W62_of m c main_v101 (by decide)).trans (W61_main_v101 m c)
theorem W63_main_v101 (c : Dev nD) : W63 m c main_v101 = W49 m c main_v101 := (W63_of m c main_v101 (by decide)).trans (W62_main_v101 m c)
theorem W64_main_v101 (c : Dev nD) : W64 m c main_v101 = W49 m c main_v101 := (W64_of m c main_v101 (by decide)).trans (W63_main_v101 m c)
theorem W65_main_v101 (c : Dev nD) : W65 m c main_v101 = W49 m c main_v101 := (W65_of m c main_v101 (by decide)).trans (W64_main_v101 m c)
theorem W66_main_v101 (c : Dev nD) : W66 m c main_v101 = W49 m c main_v101 := (W66_of m c main_v101 (by decide)).trans (W65_main_v101 m c)
theorem W67_main_v101 (c : Dev nD) : W67 m c main_v101 = W49 m c main_v101 := (W67_of m c main_v101 (by decide)).trans (W66_main_v101 m c)
theorem W52_main_v105 (c : Dev nD) : W52 m c main_v105 = W51 m c main_v105 := W52_of m c main_v105 (by decide)
theorem W53_main_v105 (c : Dev nD) : W53 m c main_v105 = W51 m c main_v105 := (W53_of m c main_v105 (by decide)).trans (W52_main_v105 m c)
theorem W54_main_v105 (c : Dev nD) : W54 m c main_v105 = W51 m c main_v105 := (W54_of m c main_v105 (by decide)).trans (W53_main_v105 m c)
theorem W55_main_v105 (c : Dev nD) : W55 m c main_v105 = W51 m c main_v105 := (W55_of m c main_v105 (by decide)).trans (W54_main_v105 m c)
theorem W56_main_v105 (c : Dev nD) : W56 m c main_v105 = W51 m c main_v105 := (W56_of m c main_v105 (by decide)).trans (W55_main_v105 m c)
theorem W57_main_v105 (c : Dev nD) : W57 m c main_v105 = W51 m c main_v105 := (W57_of m c main_v105 (by decide)).trans (W56_main_v105 m c)
theorem W58_main_v105 (c : Dev nD) : W58 m c main_v105 = W51 m c main_v105 := (W58_of m c main_v105 (by decide)).trans (W57_main_v105 m c)
theorem W59_main_v105 (c : Dev nD) : W59 m c main_v105 = W51 m c main_v105 := (W59_of m c main_v105 (by decide)).trans (W58_main_v105 m c)
theorem W60_main_v105 (c : Dev nD) : W60 m c main_v105 = W51 m c main_v105 := (W60_of m c main_v105 (by decide)).trans (W59_main_v105 m c)
theorem W61_main_v105 (c : Dev nD) : W61 m c main_v105 = W51 m c main_v105 := (W61_of m c main_v105 (by decide)).trans (W60_main_v105 m c)
theorem W62_main_v105 (c : Dev nD) : W62 m c main_v105 = W51 m c main_v105 := (W62_of m c main_v105 (by decide)).trans (W61_main_v105 m c)
theorem W63_main_v105 (c : Dev nD) : W63 m c main_v105 = W51 m c main_v105 := (W63_of m c main_v105 (by decide)).trans (W62_main_v105 m c)
theorem W64_main_v105 (c : Dev nD) : W64 m c main_v105 = W51 m c main_v105 := (W64_of m c main_v105 (by decide)).trans (W63_main_v105 m c)
theorem W65_main_v105 (c : Dev nD) : W65 m c main_v105 = W51 m c main_v105 := (W65_of m c main_v105 (by decide)).trans (W64_main_v105 m c)
theorem W66_main_v105 (c : Dev nD) : W66 m c main_v105 = W51 m c main_v105 := (W66_of m c main_v105 (by decide)).trans (W65_main_v105 m c)
theorem W67_main_v105 (c : Dev nD) : W67 m c main_v105 = W51 m c main_v105 := (W67_of m c main_v105 (by decide)).trans (W66_main_v105 m c)
theorem W54_main_v109 (c : Dev nD) : W54 m c main_v109 = W53 m c main_v109 := W54_of m c main_v109 (by decide)
theorem W55_main_v109 (c : Dev nD) : W55 m c main_v109 = W53 m c main_v109 := (W55_of m c main_v109 (by decide)).trans (W54_main_v109 m c)
theorem W56_main_v109 (c : Dev nD) : W56 m c main_v109 = W53 m c main_v109 := (W56_of m c main_v109 (by decide)).trans (W55_main_v109 m c)
theorem W57_main_v109 (c : Dev nD) : W57 m c main_v109 = W53 m c main_v109 := (W57_of m c main_v109 (by decide)).trans (W56_main_v109 m c)
theorem W58_main_v109 (c : Dev nD) : W58 m c main_v109 = W53 m c main_v109 := (W58_of m c main_v109 (by decide)).trans (W57_main_v109 m c)
theorem W59_main_v109 (c : Dev nD) : W59 m c main_v109 = W53 m c main_v109 := (W59_of m c main_v109 (by decide)).trans (W58_main_v109 m c)
theorem W60_main_v109 (c : Dev nD) : W60 m c main_v109 = W53 m c main_v109 := (W60_of m c main_v109 (by decide)).trans (W59_main_v109 m c)
theorem W61_main_v109 (c : Dev nD) : W61 m c main_v109 = W53 m c main_v109 := (W61_of m c main_v109 (by decide)).trans (W60_main_v109 m c)
theorem W62_main_v109 (c : Dev nD) : W62 m c main_v109 = W53 m c main_v109 := (W62_of m c main_v109 (by decide)).trans (W61_main_v109 m c)
theorem W63_main_v109 (c : Dev nD) : W63 m c main_v109 = W53 m c main_v109 := (W63_of m c main_v109 (by decide)).trans (W62_main_v109 m c)
theorem W64_main_v109 (c : Dev nD) : W64 m c main_v109 = W53 m c main_v109 := (W64_of m c main_v109 (by decide)).trans (W63_main_v109 m c)
theorem W65_main_v109 (c : Dev nD) : W65 m c main_v109 = W53 m c main_v109 := (W65_of m c main_v109 (by decide)).trans (W64_main_v109 m c)
theorem W66_main_v109 (c : Dev nD) : W66 m c main_v109 = W53 m c main_v109 := (W66_of m c main_v109 (by decide)).trans (W65_main_v109 m c)
theorem W67_main_v109 (c : Dev nD) : W67 m c main_v109 = W53 m c main_v109 := (W67_of m c main_v109 (by decide)).trans (W66_main_v109 m c)
theorem W56_main_v113 (c : Dev nD) : W56 m c main_v113 = W55 m c main_v113 := W56_of m c main_v113 (by decide)
theorem W57_main_v113 (c : Dev nD) : W57 m c main_v113 = W55 m c main_v113 := (W57_of m c main_v113 (by decide)).trans (W56_main_v113 m c)
theorem W58_main_v113 (c : Dev nD) : W58 m c main_v113 = W55 m c main_v113 := (W58_of m c main_v113 (by decide)).trans (W57_main_v113 m c)
theorem W59_main_v113 (c : Dev nD) : W59 m c main_v113 = W55 m c main_v113 := (W59_of m c main_v113 (by decide)).trans (W58_main_v113 m c)
theorem W60_main_v113 (c : Dev nD) : W60 m c main_v113 = W55 m c main_v113 := (W60_of m c main_v113 (by decide)).trans (W59_main_v113 m c)
theorem W61_main_v113 (c : Dev nD) : W61 m c main_v113 = W55 m c main_v113 := (W61_of m c main_v113 (by decide)).trans (W60_main_v113 m c)
theorem W62_main_v113 (c : Dev nD) : W62 m c main_v113 = W55 m c main_v113 := (W62_of m c main_v113 (by decide)).trans (W61_main_v113 m c)
theorem W63_main_v113 (c : Dev nD) : W63 m c main_v113 = W55 m c main_v113 := (W63_of m c main_v113 (by decide)).trans (W62_main_v113 m c)
theorem W64_main_v113 (c : Dev nD) : W64 m c main_v113 = W55 m c main_v113 := (W64_of m c main_v113 (by decide)).trans (W63_main_v113 m c)
theorem W65_main_v113 (c : Dev nD) : W65 m c main_v113 = W55 m c main_v113 := (W65_of m c main_v113 (by decide)).trans (W64_main_v113 m c)
theorem W66_main_v113 (c : Dev nD) : W66 m c main_v113 = W55 m c main_v113 := (W66_of m c main_v113 (by decide)).trans (W65_main_v113 m c)
theorem W67_main_v113 (c : Dev nD) : W67 m c main_v113 = W55 m c main_v113 := (W67_of m c main_v113 (by decide)).trans (W66_main_v113 m c)
theorem W58_main_v117 (c : Dev nD) : W58 m c main_v117 = W57 m c main_v117 := W58_of m c main_v117 (by decide)
theorem W59_main_v117 (c : Dev nD) : W59 m c main_v117 = W57 m c main_v117 := (W59_of m c main_v117 (by decide)).trans (W58_main_v117 m c)
theorem W60_main_v117 (c : Dev nD) : W60 m c main_v117 = W57 m c main_v117 := (W60_of m c main_v117 (by decide)).trans (W59_main_v117 m c)
theorem W61_main_v117 (c : Dev nD) : W61 m c main_v117 = W57 m c main_v117 := (W61_of m c main_v117 (by decide)).trans (W60_main_v117 m c)
theorem W62_main_v117 (c : Dev nD) : W62 m c main_v117 = W57 m c main_v117 := (W62_of m c main_v117 (by decide)).trans (W61_main_v117 m c)
theorem W63_main_v117 (c : Dev nD) : W63 m c main_v117 = W57 m c main_v117 := (W63_of m c main_v117 (by decide)).trans (W62_main_v117 m c)
theorem W64_main_v117 (c : Dev nD) : W64 m c main_v117 = W57 m c main_v117 := (W64_of m c main_v117 (by decide)).trans (W63_main_v117 m c)
theorem W65_main_v117 (c : Dev nD) : W65 m c main_v117 = W57 m c main_v117 := (W65_of m c main_v117 (by decide)).trans (W64_main_v117 m c)
theorem W66_main_v117 (c : Dev nD) : W66 m c main_v117 = W57 m c main_v117 := (W66_of m c main_v117 (by decide)).trans (W65_main_v117 m c)
theorem W67_main_v117 (c : Dev nD) : W67 m c main_v117 = W57 m c main_v117 := (W67_of m c main_v117 (by decide)).trans (W66_main_v117 m c)
theorem W60_main_v121 (c : Dev nD) : W60 m c main_v121 = W59 m c main_v121 := W60_of m c main_v121 (by decide)
theorem W61_main_v121 (c : Dev nD) : W61 m c main_v121 = W59 m c main_v121 := (W61_of m c main_v121 (by decide)).trans (W60_main_v121 m c)
theorem W62_main_v121 (c : Dev nD) : W62 m c main_v121 = W59 m c main_v121 := (W62_of m c main_v121 (by decide)).trans (W61_main_v121 m c)
theorem W63_main_v121 (c : Dev nD) : W63 m c main_v121 = W59 m c main_v121 := (W63_of m c main_v121 (by decide)).trans (W62_main_v121 m c)
theorem W64_main_v121 (c : Dev nD) : W64 m c main_v121 = W59 m c main_v121 := (W64_of m c main_v121 (by decide)).trans (W63_main_v121 m c)
theorem W65_main_v121 (c : Dev nD) : W65 m c main_v121 = W59 m c main_v121 := (W65_of m c main_v121 (by decide)).trans (W64_main_v121 m c)
theorem W66_main_v121 (c : Dev nD) : W66 m c main_v121 = W59 m c main_v121 := (W66_of m c main_v121 (by decide)).trans (W65_main_v121 m c)
theorem W67_main_v121 (c : Dev nD) : W67 m c main_v121 = W59 m c main_v121 := (W67_of m c main_v121 (by decide)).trans (W66_main_v121 m c)
theorem W62_main_v125 (c : Dev nD) : W62 m c main_v125 = W61 m c main_v125 := W62_of m c main_v125 (by decide)
theorem W63_main_v125 (c : Dev nD) : W63 m c main_v125 = W61 m c main_v125 := (W63_of m c main_v125 (by decide)).trans (W62_main_v125 m c)
theorem W64_main_v125 (c : Dev nD) : W64 m c main_v125 = W61 m c main_v125 := (W64_of m c main_v125 (by decide)).trans (W63_main_v125 m c)
theorem W65_main_v125 (c : Dev nD) : W65 m c main_v125 = W61 m c main_v125 := (W65_of m c main_v125 (by decide)).trans (W64_main_v125 m c)
theorem W66_main_v125 (c : Dev nD) : W66 m c main_v125 = W61 m c main_v125 := (W66_of m c main_v125 (by decide)).trans (W65_main_v125 m c)
theorem W67_main_v125 (c : Dev nD) : W67 m c main_v125 = W61 m c main_v125 := (W67_of m c main_v125 (by decide)).trans (W66_main_v125 m c)
theorem W64_main_v129 (c : Dev nD) : W64 m c main_v129 = W63 m c main_v129 := W64_of m c main_v129 (by decide)
theorem W65_main_v129 (c : Dev nD) : W65 m c main_v129 = W63 m c main_v129 := (W65_of m c main_v129 (by decide)).trans (W64_main_v129 m c)
theorem W66_main_v129 (c : Dev nD) : W66 m c main_v129 = W63 m c main_v129 := (W66_of m c main_v129 (by decide)).trans (W65_main_v129 m c)
theorem W67_main_v129 (c : Dev nD) : W67 m c main_v129 = W63 m c main_v129 := (W67_of m c main_v129 (by decide)).trans (W66_main_v129 m c)
theorem W66_main_v133 (c : Dev nD) : W66 m c main_v133 = W65 m c main_v133 := W66_of m c main_v133 (by decide)
theorem W67_main_v133 (c : Dev nD) : W67 m c main_v133 = W65 m c main_v133 := (W67_of m c main_v133 (by decide)).trans (W66_main_v133 m c)
theorem W70_main_v146 (c : Dev nD) : W70 m c main_v146 = W69 m c main_v146 := W70_of m c main_v146 (by decide)
theorem W71_main_v146 (c : Dev nD) : W71 m c main_v146 = W69 m c main_v146 := (W71_of m c main_v146 (by decide)).trans (W70_main_v146 m c)
theorem W72_main_v146 (c : Dev nD) : W72 m c main_v146 = W69 m c main_v146 := (W72_of m c main_v146 (by decide)).trans (W71_main_v146 m c)
theorem W73_main_v146 (c : Dev nD) : W73 m c main_v146 = W69 m c main_v146 := (W73_of m c main_v146 (by decide)).trans (W72_main_v146 m c)
theorem W74_main_v146 (c : Dev nD) : W74 m c main_v146 = W69 m c main_v146 := (W74_of m c main_v146 (by decide)).trans (W73_main_v146 m c)
theorem W75_main_v146 (c : Dev nD) : W75 m c main_v146 = W69 m c main_v146 := (W75_of m c main_v146 (by decide)).trans (W74_main_v146 m c)
theorem W76_main_v146 (c : Dev nD) : W76 m c main_v146 = W69 m c main_v146 := (W76_of m c main_v146 (by decide)).trans (W75_main_v146 m c)
theorem W77_main_v146 (c : Dev nD) : W77 m c main_v146 = W69 m c main_v146 := (W77_of m c main_v146 (by decide)).trans (W76_main_v146 m c)
theorem W78_main_v146 (c : Dev nD) : W78 m c main_v146 = W69 m c main_v146 := (W78_of m c main_v146 (by decide)).trans (W77_main_v146 m c)
theorem W79_main_v146 (c : Dev nD) : W79 m c main_v146 = W69 m c main_v146 := (W79_of m c main_v146 (by decide)).trans (W78_main_v146 m c)
theorem W80_main_v146 (c : Dev nD) : W80 m c main_v146 = W69 m c main_v146 := (W80_of m c main_v146 (by decide)).trans (W79_main_v146 m c)
theorem W81_main_v146 (c : Dev nD) : W81 m c main_v146 = W69 m c main_v146 := (W81_of m c main_v146 (by decide)).trans (W80_main_v146 m c)
theorem W82_main_v146 (c : Dev nD) : W82 m c main_v146 = W69 m c main_v146 := (W82_of m c main_v146 (by decide)).trans (W81_main_v146 m c)
theorem W83_main_v146 (c : Dev nD) : W83 m c main_v146 = W69 m c main_v146 := (W83_of m c main_v146 (by decide)).trans (W82_main_v146 m c)
theorem W84_main_v146 (c : Dev nD) : W84 m c main_v146 = W69 m c main_v146 := (W84_of m c main_v146 (by decide)).trans (W83_main_v146 m c)
theorem W85_main_v146 (c : Dev nD) : W85 m c main_v146 = W69 m c main_v146 := (W85_of m c main_v146 (by decide)).trans (W84_main_v146 m c)
theorem W86_main_v146 (c : Dev nD) : W86 m c main_v146 = W69 m c main_v146 := (W86_of m c main_v146 (by decide)).trans (W85_main_v146 m c)
theorem W87_main_v146 (c : Dev nD) : W87 m c main_v146 = W69 m c main_v146 := (W87_of m c main_v146 (by decide)).trans (W86_main_v146 m c)
theorem W88_main_v146 (c : Dev nD) : W88 m c main_v146 = W69 m c main_v146 := (W88_of m c main_v146 (by decide)).trans (W87_main_v146 m c)
theorem W89_main_v146 (c : Dev nD) : W89 m c main_v146 = W69 m c main_v146 := (W89_of m c main_v146 (by decide)).trans (W88_main_v146 m c)
theorem W90_main_v146 (c : Dev nD) : W90 m c main_v146 = W69 m c main_v146 := (W90_of m c main_v146 (by decide)).trans (W89_main_v146 m c)
theorem W91_main_v146 (c : Dev nD) : W91 m c main_v146 = W69 m c main_v146 := (W91_of m c main_v146 (by decide)).trans (W90_main_v146 m c)
theorem W92_main_v146 (c : Dev nD) : W92 m c main_v146 = W69 m c main_v146 := (W92_of m c main_v146 (by decide)).trans (W91_main_v146 m c)
theorem W93_main_v146 (c : Dev nD) : W93 m c main_v146 = W69 m c main_v146 := (W93_of m c main_v146 (by decide)).trans (W92_main_v146 m c)
theorem W94_main_v146 (c : Dev nD) : W94 m c main_v146 = W69 m c main_v146 := (W94_of m c main_v146 (by decide)).trans (W93_main_v146 m c)
theorem W95_main_v146 (c : Dev nD) : W95 m c main_v146 = W69 m c main_v146 := (W95_of m c main_v146 (by decide)).trans (W94_main_v146 m c)
theorem W96_main_v146 (c : Dev nD) : W96 m c main_v146 = W69 m c main_v146 := (W96_of m c main_v146 (by decide)).trans (W95_main_v146 m c)
theorem W97_main_v146 (c : Dev nD) : W97 m c main_v146 = W69 m c main_v146 := (W97_of m c main_v146 (by decide)).trans (W96_main_v146 m c)
theorem W98_main_v146 (c : Dev nD) : W98 m c main_v146 = W69 m c main_v146 := (W98_of m c main_v146 (by decide)).trans (W97_main_v146 m c)
theorem W99_main_v146 (c : Dev nD) : W99 m c main_v146 = W69 m c main_v146 := (W99_of m c main_v146 (by decide)).trans (W98_main_v146 m c)
theorem W72_main_v150 (c : Dev nD) : W72 m c main_v150 = W71 m c main_v150 := W72_of m c main_v150 (by decide)
theorem W73_main_v150 (c : Dev nD) : W73 m c main_v150 = W71 m c main_v150 := (W73_of m c main_v150 (by decide)).trans (W72_main_v150 m c)
theorem W74_main_v150 (c : Dev nD) : W74 m c main_v150 = W71 m c main_v150 := (W74_of m c main_v150 (by decide)).trans (W73_main_v150 m c)
theorem W75_main_v150 (c : Dev nD) : W75 m c main_v150 = W71 m c main_v150 := (W75_of m c main_v150 (by decide)).trans (W74_main_v150 m c)
theorem W76_main_v150 (c : Dev nD) : W76 m c main_v150 = W71 m c main_v150 := (W76_of m c main_v150 (by decide)).trans (W75_main_v150 m c)
theorem W77_main_v150 (c : Dev nD) : W77 m c main_v150 = W71 m c main_v150 := (W77_of m c main_v150 (by decide)).trans (W76_main_v150 m c)
theorem W78_main_v150 (c : Dev nD) : W78 m c main_v150 = W71 m c main_v150 := (W78_of m c main_v150 (by decide)).trans (W77_main_v150 m c)
theorem W79_main_v150 (c : Dev nD) : W79 m c main_v150 = W71 m c main_v150 := (W79_of m c main_v150 (by decide)).trans (W78_main_v150 m c)
theorem W80_main_v150 (c : Dev nD) : W80 m c main_v150 = W71 m c main_v150 := (W80_of m c main_v150 (by decide)).trans (W79_main_v150 m c)
theorem W81_main_v150 (c : Dev nD) : W81 m c main_v150 = W71 m c main_v150 := (W81_of m c main_v150 (by decide)).trans (W80_main_v150 m c)
theorem W82_main_v150 (c : Dev nD) : W82 m c main_v150 = W71 m c main_v150 := (W82_of m c main_v150 (by decide)).trans (W81_main_v150 m c)
theorem W83_main_v150 (c : Dev nD) : W83 m c main_v150 = W71 m c main_v150 := (W83_of m c main_v150 (by decide)).trans (W82_main_v150 m c)
theorem W84_main_v150 (c : Dev nD) : W84 m c main_v150 = W71 m c main_v150 := (W84_of m c main_v150 (by decide)).trans (W83_main_v150 m c)
theorem W85_main_v150 (c : Dev nD) : W85 m c main_v150 = W71 m c main_v150 := (W85_of m c main_v150 (by decide)).trans (W84_main_v150 m c)
theorem W86_main_v150 (c : Dev nD) : W86 m c main_v150 = W71 m c main_v150 := (W86_of m c main_v150 (by decide)).trans (W85_main_v150 m c)
theorem W87_main_v150 (c : Dev nD) : W87 m c main_v150 = W71 m c main_v150 := (W87_of m c main_v150 (by decide)).trans (W86_main_v150 m c)
theorem W88_main_v150 (c : Dev nD) : W88 m c main_v150 = W71 m c main_v150 := (W88_of m c main_v150 (by decide)).trans (W87_main_v150 m c)
theorem W89_main_v150 (c : Dev nD) : W89 m c main_v150 = W71 m c main_v150 := (W89_of m c main_v150 (by decide)).trans (W88_main_v150 m c)
theorem W90_main_v150 (c : Dev nD) : W90 m c main_v150 = W71 m c main_v150 := (W90_of m c main_v150 (by decide)).trans (W89_main_v150 m c)
theorem W91_main_v150 (c : Dev nD) : W91 m c main_v150 = W71 m c main_v150 := (W91_of m c main_v150 (by decide)).trans (W90_main_v150 m c)
theorem W92_main_v150 (c : Dev nD) : W92 m c main_v150 = W71 m c main_v150 := (W92_of m c main_v150 (by decide)).trans (W91_main_v150 m c)
theorem W93_main_v150 (c : Dev nD) : W93 m c main_v150 = W71 m c main_v150 := (W93_of m c main_v150 (by decide)).trans (W92_main_v150 m c)
theorem W94_main_v150 (c : Dev nD) : W94 m c main_v150 = W71 m c main_v150 := (W94_of m c main_v150 (by decide)).trans (W93_main_v150 m c)
theorem W95_main_v150 (c : Dev nD) : W95 m c main_v150 = W71 m c main_v150 := (W95_of m c main_v150 (by decide)).trans (W94_main_v150 m c)
theorem W96_main_v150 (c : Dev nD) : W96 m c main_v150 = W71 m c main_v150 := (W96_of m c main_v150 (by decide)).trans (W95_main_v150 m c)
theorem W97_main_v150 (c : Dev nD) : W97 m c main_v150 = W71 m c main_v150 := (W97_of m c main_v150 (by decide)).trans (W96_main_v150 m c)
theorem W98_main_v150 (c : Dev nD) : W98 m c main_v150 = W71 m c main_v150 := (W98_of m c main_v150 (by decide)).trans (W97_main_v150 m c)
theorem W99_main_v150 (c : Dev nD) : W99 m c main_v150 = W71 m c main_v150 := (W99_of m c main_v150 (by decide)).trans (W98_main_v150 m c)
theorem W74_main_v154 (c : Dev nD) : W74 m c main_v154 = W73 m c main_v154 := W74_of m c main_v154 (by decide)
theorem W75_main_v154 (c : Dev nD) : W75 m c main_v154 = W73 m c main_v154 := (W75_of m c main_v154 (by decide)).trans (W74_main_v154 m c)
theorem W76_main_v154 (c : Dev nD) : W76 m c main_v154 = W73 m c main_v154 := (W76_of m c main_v154 (by decide)).trans (W75_main_v154 m c)
theorem W77_main_v154 (c : Dev nD) : W77 m c main_v154 = W73 m c main_v154 := (W77_of m c main_v154 (by decide)).trans (W76_main_v154 m c)
theorem W78_main_v154 (c : Dev nD) : W78 m c main_v154 = W73 m c main_v154 := (W78_of m c main_v154 (by decide)).trans (W77_main_v154 m c)
theorem W79_main_v154 (c : Dev nD) : W79 m c main_v154 = W73 m c main_v154 := (W79_of m c main_v154 (by decide)).trans (W78_main_v154 m c)
theorem W80_main_v154 (c : Dev nD) : W80 m c main_v154 = W73 m c main_v154 := (W80_of m c main_v154 (by decide)).trans (W79_main_v154 m c)
theorem W81_main_v154 (c : Dev nD) : W81 m c main_v154 = W73 m c main_v154 := (W81_of m c main_v154 (by decide)).trans (W80_main_v154 m c)
theorem W82_main_v154 (c : Dev nD) : W82 m c main_v154 = W73 m c main_v154 := (W82_of m c main_v154 (by decide)).trans (W81_main_v154 m c)
theorem W83_main_v154 (c : Dev nD) : W83 m c main_v154 = W73 m c main_v154 := (W83_of m c main_v154 (by decide)).trans (W82_main_v154 m c)
theorem W84_main_v154 (c : Dev nD) : W84 m c main_v154 = W73 m c main_v154 := (W84_of m c main_v154 (by decide)).trans (W83_main_v154 m c)
theorem W85_main_v154 (c : Dev nD) : W85 m c main_v154 = W73 m c main_v154 := (W85_of m c main_v154 (by decide)).trans (W84_main_v154 m c)
theorem W86_main_v154 (c : Dev nD) : W86 m c main_v154 = W73 m c main_v154 := (W86_of m c main_v154 (by decide)).trans (W85_main_v154 m c)
theorem W87_main_v154 (c : Dev nD) : W87 m c main_v154 = W73 m c main_v154 := (W87_of m c main_v154 (by decide)).trans (W86_main_v154 m c)
theorem W88_main_v154 (c : Dev nD) : W88 m c main_v154 = W73 m c main_v154 := (W88_of m c main_v154 (by decide)).trans (W87_main_v154 m c)
theorem W89_main_v154 (c : Dev nD) : W89 m c main_v154 = W73 m c main_v154 := (W89_of m c main_v154 (by decide)).trans (W88_main_v154 m c)
theorem W90_main_v154 (c : Dev nD) : W90 m c main_v154 = W73 m c main_v154 := (W90_of m c main_v154 (by decide)).trans (W89_main_v154 m c)
theorem W91_main_v154 (c : Dev nD) : W91 m c main_v154 = W73 m c main_v154 := (W91_of m c main_v154 (by decide)).trans (W90_main_v154 m c)
theorem W92_main_v154 (c : Dev nD) : W92 m c main_v154 = W73 m c main_v154 := (W92_of m c main_v154 (by decide)).trans (W91_main_v154 m c)
theorem W93_main_v154 (c : Dev nD) : W93 m c main_v154 = W73 m c main_v154 := (W93_of m c main_v154 (by decide)).trans (W92_main_v154 m c)
theorem W94_main_v154 (c : Dev nD) : W94 m c main_v154 = W73 m c main_v154 := (W94_of m c main_v154 (by decide)).trans (W93_main_v154 m c)
theorem W95_main_v154 (c : Dev nD) : W95 m c main_v154 = W73 m c main_v154 := (W95_of m c main_v154 (by decide)).trans (W94_main_v154 m c)
theorem W96_main_v154 (c : Dev nD) : W96 m c main_v154 = W73 m c main_v154 := (W96_of m c main_v154 (by decide)).trans (W95_main_v154 m c)
theorem W97_main_v154 (c : Dev nD) : W97 m c main_v154 = W73 m c main_v154 := (W97_of m c main_v154 (by decide)).trans (W96_main_v154 m c)
theorem W98_main_v154 (c : Dev nD) : W98 m c main_v154 = W73 m c main_v154 := (W98_of m c main_v154 (by decide)).trans (W97_main_v154 m c)
theorem W99_main_v154 (c : Dev nD) : W99 m c main_v154 = W73 m c main_v154 := (W99_of m c main_v154 (by decide)).trans (W98_main_v154 m c)
theorem W76_main_v158 (c : Dev nD) : W76 m c main_v158 = W75 m c main_v158 := W76_of m c main_v158 (by decide)
theorem W77_main_v158 (c : Dev nD) : W77 m c main_v158 = W75 m c main_v158 := (W77_of m c main_v158 (by decide)).trans (W76_main_v158 m c)
theorem W78_main_v158 (c : Dev nD) : W78 m c main_v158 = W75 m c main_v158 := (W78_of m c main_v158 (by decide)).trans (W77_main_v158 m c)
theorem W79_main_v158 (c : Dev nD) : W79 m c main_v158 = W75 m c main_v158 := (W79_of m c main_v158 (by decide)).trans (W78_main_v158 m c)
theorem W80_main_v158 (c : Dev nD) : W80 m c main_v158 = W75 m c main_v158 := (W80_of m c main_v158 (by decide)).trans (W79_main_v158 m c)
theorem W81_main_v158 (c : Dev nD) : W81 m c main_v158 = W75 m c main_v158 := (W81_of m c main_v158 (by decide)).trans (W80_main_v158 m c)
theorem W82_main_v158 (c : Dev nD) : W82 m c main_v158 = W75 m c main_v158 := (W82_of m c main_v158 (by decide)).trans (W81_main_v158 m c)
theorem W83_main_v158 (c : Dev nD) : W83 m c main_v158 = W75 m c main_v158 := (W83_of m c main_v158 (by decide)).trans (W82_main_v158 m c)
theorem W84_main_v158 (c : Dev nD) : W84 m c main_v158 = W75 m c main_v158 := (W84_of m c main_v158 (by decide)).trans (W83_main_v158 m c)
theorem W85_main_v158 (c : Dev nD) : W85 m c main_v158 = W75 m c main_v158 := (W85_of m c main_v158 (by decide)).trans (W84_main_v158 m c)
theorem W86_main_v158 (c : Dev nD) : W86 m c main_v158 = W75 m c main_v158 := (W86_of m c main_v158 (by decide)).trans (W85_main_v158 m c)
theorem W87_main_v158 (c : Dev nD) : W87 m c main_v158 = W75 m c main_v158 := (W87_of m c main_v158 (by decide)).trans (W86_main_v158 m c)
theorem W88_main_v158 (c : Dev nD) : W88 m c main_v158 = W75 m c main_v158 := (W88_of m c main_v158 (by decide)).trans (W87_main_v158 m c)
theorem W89_main_v158 (c : Dev nD) : W89 m c main_v158 = W75 m c main_v158 := (W89_of m c main_v158 (by decide)).trans (W88_main_v158 m c)
theorem W90_main_v158 (c : Dev nD) : W90 m c main_v158 = W75 m c main_v158 := (W90_of m c main_v158 (by decide)).trans (W89_main_v158 m c)
theorem W91_main_v158 (c : Dev nD) : W91 m c main_v158 = W75 m c main_v158 := (W91_of m c main_v158 (by decide)).trans (W90_main_v158 m c)
theorem W92_main_v158 (c : Dev nD) : W92 m c main_v158 = W75 m c main_v158 := (W92_of m c main_v158 (by decide)).trans (W91_main_v158 m c)
theorem W93_main_v158 (c : Dev nD) : W93 m c main_v158 = W75 m c main_v158 := (W93_of m c main_v158 (by decide)).trans (W92_main_v158 m c)
theorem W94_main_v158 (c : Dev nD) : W94 m c main_v158 = W75 m c main_v158 := (W94_of m c main_v158 (by decide)).trans (W93_main_v158 m c)
theorem W95_main_v158 (c : Dev nD) : W95 m c main_v158 = W75 m c main_v158 := (W95_of m c main_v158 (by decide)).trans (W94_main_v158 m c)
theorem W96_main_v158 (c : Dev nD) : W96 m c main_v158 = W75 m c main_v158 := (W96_of m c main_v158 (by decide)).trans (W95_main_v158 m c)
theorem W97_main_v158 (c : Dev nD) : W97 m c main_v158 = W75 m c main_v158 := (W97_of m c main_v158 (by decide)).trans (W96_main_v158 m c)
theorem W98_main_v158 (c : Dev nD) : W98 m c main_v158 = W75 m c main_v158 := (W98_of m c main_v158 (by decide)).trans (W97_main_v158 m c)
theorem W99_main_v158 (c : Dev nD) : W99 m c main_v158 = W75 m c main_v158 := (W99_of m c main_v158 (by decide)).trans (W98_main_v158 m c)
theorem W78_main_v162 (c : Dev nD) : W78 m c main_v162 = W77 m c main_v162 := W78_of m c main_v162 (by decide)
theorem W79_main_v162 (c : Dev nD) : W79 m c main_v162 = W77 m c main_v162 := (W79_of m c main_v162 (by decide)).trans (W78_main_v162 m c)
theorem W80_main_v162 (c : Dev nD) : W80 m c main_v162 = W77 m c main_v162 := (W80_of m c main_v162 (by decide)).trans (W79_main_v162 m c)
theorem W81_main_v162 (c : Dev nD) : W81 m c main_v162 = W77 m c main_v162 := (W81_of m c main_v162 (by decide)).trans (W80_main_v162 m c)
theorem W82_main_v162 (c : Dev nD) : W82 m c main_v162 = W77 m c main_v162 := (W82_of m c main_v162 (by decide)).trans (W81_main_v162 m c)
theorem W83_main_v162 (c : Dev nD) : W83 m c main_v162 = W77 m c main_v162 := (W83_of m c main_v162 (by decide)).trans (W82_main_v162 m c)
theorem W84_main_v162 (c : Dev nD) : W84 m c main_v162 = W77 m c main_v162 := (W84_of m c main_v162 (by decide)).trans (W83_main_v162 m c)
theorem W85_main_v162 (c : Dev nD) : W85 m c main_v162 = W77 m c main_v162 := (W85_of m c main_v162 (by decide)).trans (W84_main_v162 m c)
theorem W86_main_v162 (c : Dev nD) : W86 m c main_v162 = W77 m c main_v162 := (W86_of m c main_v162 (by decide)).trans (W85_main_v162 m c)
theorem W87_main_v162 (c : Dev nD) : W87 m c main_v162 = W77 m c main_v162 := (W87_of m c main_v162 (by decide)).trans (W86_main_v162 m c)
theorem W88_main_v162 (c : Dev nD) : W88 m c main_v162 = W77 m c main_v162 := (W88_of m c main_v162 (by decide)).trans (W87_main_v162 m c)
theorem W89_main_v162 (c : Dev nD) : W89 m c main_v162 = W77 m c main_v162 := (W89_of m c main_v162 (by decide)).trans (W88_main_v162 m c)
theorem W90_main_v162 (c : Dev nD) : W90 m c main_v162 = W77 m c main_v162 := (W90_of m c main_v162 (by decide)).trans (W89_main_v162 m c)
theorem W91_main_v162 (c : Dev nD) : W91 m c main_v162 = W77 m c main_v162 := (W91_of m c main_v162 (by decide)).trans (W90_main_v162 m c)
theorem W92_main_v162 (c : Dev nD) : W92 m c main_v162 = W77 m c main_v162 := (W92_of m c main_v162 (by decide)).trans (W91_main_v162 m c)
theorem W93_main_v162 (c : Dev nD) : W93 m c main_v162 = W77 m c main_v162 := (W93_of m c main_v162 (by decide)).trans (W92_main_v162 m c)
theorem W94_main_v162 (c : Dev nD) : W94 m c main_v162 = W77 m c main_v162 := (W94_of m c main_v162 (by decide)).trans (W93_main_v162 m c)
theorem W95_main_v162 (c : Dev nD) : W95 m c main_v162 = W77 m c main_v162 := (W95_of m c main_v162 (by decide)).trans (W94_main_v162 m c)
theorem W96_main_v162 (c : Dev nD) : W96 m c main_v162 = W77 m c main_v162 := (W96_of m c main_v162 (by decide)).trans (W95_main_v162 m c)
theorem W97_main_v162 (c : Dev nD) : W97 m c main_v162 = W77 m c main_v162 := (W97_of m c main_v162 (by decide)).trans (W96_main_v162 m c)
theorem W98_main_v162 (c : Dev nD) : W98 m c main_v162 = W77 m c main_v162 := (W98_of m c main_v162 (by decide)).trans (W97_main_v162 m c)
theorem W99_main_v162 (c : Dev nD) : W99 m c main_v162 = W77 m c main_v162 := (W99_of m c main_v162 (by decide)).trans (W98_main_v162 m c)
theorem W80_main_v166 (c : Dev nD) : W80 m c main_v166 = W79 m c main_v166 := W80_of m c main_v166 (by decide)
theorem W81_main_v166 (c : Dev nD) : W81 m c main_v166 = W79 m c main_v166 := (W81_of m c main_v166 (by decide)).trans (W80_main_v166 m c)
theorem W82_main_v166 (c : Dev nD) : W82 m c main_v166 = W79 m c main_v166 := (W82_of m c main_v166 (by decide)).trans (W81_main_v166 m c)
theorem W83_main_v166 (c : Dev nD) : W83 m c main_v166 = W79 m c main_v166 := (W83_of m c main_v166 (by decide)).trans (W82_main_v166 m c)
theorem W84_main_v166 (c : Dev nD) : W84 m c main_v166 = W79 m c main_v166 := (W84_of m c main_v166 (by decide)).trans (W83_main_v166 m c)
theorem W85_main_v166 (c : Dev nD) : W85 m c main_v166 = W79 m c main_v166 := (W85_of m c main_v166 (by decide)).trans (W84_main_v166 m c)
theorem W86_main_v166 (c : Dev nD) : W86 m c main_v166 = W79 m c main_v166 := (W86_of m c main_v166 (by decide)).trans (W85_main_v166 m c)
theorem W87_main_v166 (c : Dev nD) : W87 m c main_v166 = W79 m c main_v166 := (W87_of m c main_v166 (by decide)).trans (W86_main_v166 m c)
theorem W88_main_v166 (c : Dev nD) : W88 m c main_v166 = W79 m c main_v166 := (W88_of m c main_v166 (by decide)).trans (W87_main_v166 m c)
theorem W89_main_v166 (c : Dev nD) : W89 m c main_v166 = W79 m c main_v166 := (W89_of m c main_v166 (by decide)).trans (W88_main_v166 m c)
theorem W90_main_v166 (c : Dev nD) : W90 m c main_v166 = W79 m c main_v166 := (W90_of m c main_v166 (by decide)).trans (W89_main_v166 m c)
theorem W91_main_v166 (c : Dev nD) : W91 m c main_v166 = W79 m c main_v166 := (W91_of m c main_v166 (by decide)).trans (W90_main_v166 m c)
theorem W92_main_v166 (c : Dev nD) : W92 m c main_v166 = W79 m c main_v166 := (W92_of m c main_v166 (by decide)).trans (W91_main_v166 m c)
theorem W93_main_v166 (c : Dev nD) : W93 m c main_v166 = W79 m c main_v166 := (W93_of m c main_v166 (by decide)).trans (W92_main_v166 m c)
theorem W94_main_v166 (c : Dev nD) : W94 m c main_v166 = W79 m c main_v166 := (W94_of m c main_v166 (by decide)).trans (W93_main_v166 m c)
theorem W95_main_v166 (c : Dev nD) : W95 m c main_v166 = W79 m c main_v166 := (W95_of m c main_v166 (by decide)).trans (W94_main_v166 m c)
theorem W96_main_v166 (c : Dev nD) : W96 m c main_v166 = W79 m c main_v166 := (W96_of m c main_v166 (by decide)).trans (W95_main_v166 m c)
theorem W97_main_v166 (c : Dev nD) : W97 m c main_v166 = W79 m c main_v166 := (W97_of m c main_v166 (by decide)).trans (W96_main_v166 m c)
theorem W98_main_v166 (c : Dev nD) : W98 m c main_v166 = W79 m c main_v166 := (W98_of m c main_v166 (by decide)).trans (W97_main_v166 m c)
theorem W99_main_v166 (c : Dev nD) : W99 m c main_v166 = W79 m c main_v166 := (W99_of m c main_v166 (by decide)).trans (W98_main_v166 m c)
theorem W82_main_v170 (c : Dev nD) : W82 m c main_v170 = W81 m c main_v170 := W82_of m c main_v170 (by decide)
theorem W83_main_v170 (c : Dev nD) : W83 m c main_v170 = W81 m c main_v170 := (W83_of m c main_v170 (by decide)).trans (W82_main_v170 m c)
theorem W84_main_v170 (c : Dev nD) : W84 m c main_v170 = W81 m c main_v170 := (W84_of m c main_v170 (by decide)).trans (W83_main_v170 m c)
theorem W85_main_v170 (c : Dev nD) : W85 m c main_v170 = W81 m c main_v170 := (W85_of m c main_v170 (by decide)).trans (W84_main_v170 m c)
theorem W86_main_v170 (c : Dev nD) : W86 m c main_v170 = W81 m c main_v170 := (W86_of m c main_v170 (by decide)).trans (W85_main_v170 m c)
theorem W87_main_v170 (c : Dev nD) : W87 m c main_v170 = W81 m c main_v170 := (W87_of m c main_v170 (by decide)).trans (W86_main_v170 m c)
theorem W88_main_v170 (c : Dev nD) : W88 m c main_v170 = W81 m c main_v170 := (W88_of m c main_v170 (by decide)).trans (W87_main_v170 m c)
theorem W89_main_v170 (c : Dev nD) : W89 m c main_v170 = W81 m c main_v170 := (W89_of m c main_v170 (by decide)).trans (W88_main_v170 m c)
theorem W90_main_v170 (c : Dev nD) : W90 m c main_v170 = W81 m c main_v170 := (W90_of m c main_v170 (by decide)).trans (W89_main_v170 m c)
theorem W91_main_v170 (c : Dev nD) : W91 m c main_v170 = W81 m c main_v170 := (W91_of m c main_v170 (by decide)).trans (W90_main_v170 m c)
theorem W92_main_v170 (c : Dev nD) : W92 m c main_v170 = W81 m c main_v170 := (W92_of m c main_v170 (by decide)).trans (W91_main_v170 m c)
theorem W93_main_v170 (c : Dev nD) : W93 m c main_v170 = W81 m c main_v170 := (W93_of m c main_v170 (by decide)).trans (W92_main_v170 m c)
theorem W94_main_v170 (c : Dev nD) : W94 m c main_v170 = W81 m c main_v170 := (W94_of m c main_v170 (by decide)).trans (W93_main_v170 m c)
theorem W95_main_v170 (c : Dev nD) : W95 m c main_v170 = W81 m c main_v170 := (W95_of m c main_v170 (by decide)).trans (W94_main_v170 m c)
theorem W96_main_v170 (c : Dev nD) : W96 m c main_v170 = W81 m c main_v170 := (W96_of m c main_v170 (by decide)).trans (W95_main_v170 m c)
theorem W97_main_v170 (c : Dev nD) : W97 m c main_v170 = W81 m c main_v170 := (W97_of m c main_v170 (by decide)).trans (W96_main_v170 m c)
theorem W98_main_v170 (c : Dev nD) : W98 m c main_v170 = W81 m c main_v170 := (W98_of m c main_v170 (by decide)).trans (W97_main_v170 m c)
theorem W99_main_v170 (c : Dev nD) : W99 m c main_v170 = W81 m c main_v170 := (W99_of m c main_v170 (by decide)).trans (W98_main_v170 m c)
theorem W84_main_v174 (c : Dev nD) : W84 m c main_v174 = W83 m c main_v174 := W84_of m c main_v174 (by decide)
theorem W85_main_v174 (c : Dev nD) : W85 m c main_v174 = W83 m c main_v174 := (W85_of m c main_v174 (by decide)).trans (W84_main_v174 m c)
theorem W86_main_v174 (c : Dev nD) : W86 m c main_v174 = W83 m c main_v174 := (W86_of m c main_v174 (by decide)).trans (W85_main_v174 m c)
theorem W87_main_v174 (c : Dev nD) : W87 m c main_v174 = W83 m c main_v174 := (W87_of m c main_v174 (by decide)).trans (W86_main_v174 m c)
theorem W88_main_v174 (c : Dev nD) : W88 m c main_v174 = W83 m c main_v174 := (W88_of m c main_v174 (by decide)).trans (W87_main_v174 m c)
theorem W89_main_v174 (c : Dev nD) : W89 m c main_v174 = W83 m c main_v174 := (W89_of m c main_v174 (by decide)).trans (W88_main_v174 m c)
theorem W90_main_v174 (c : Dev nD) : W90 m c main_v174 = W83 m c main_v174 := (W90_of m c main_v174 (by decide)).trans (W89_main_v174 m c)
theorem W91_main_v174 (c : Dev nD) : W91 m c main_v174 = W83 m c main_v174 := (W91_of m c main_v174 (by decide)).trans (W90_main_v174 m c)
theorem W92_main_v174 (c : Dev nD) : W92 m c main_v174 = W83 m c main_v174 := (W92_of m c main_v174 (by decide)).trans (W91_main_v174 m c)
theorem W93_main_v174 (c : Dev nD) : W93 m c main_v174 = W83 m c main_v174 := (W93_of m c main_v174 (by decide)).trans (W92_main_v174 m c)
theorem W94_main_v174 (c : Dev nD) : W94 m c main_v174 = W83 m c main_v174 := (W94_of m c main_v174 (by decide)).trans (W93_main_v174 m c)
theorem W95_main_v174 (c : Dev nD) : W95 m c main_v174 = W83 m c main_v174 := (W95_of m c main_v174 (by decide)).trans (W94_main_v174 m c)
theorem W96_main_v174 (c : Dev nD) : W96 m c main_v174 = W83 m c main_v174 := (W96_of m c main_v174 (by decide)).trans (W95_main_v174 m c)
theorem W97_main_v174 (c : Dev nD) : W97 m c main_v174 = W83 m c main_v174 := (W97_of m c main_v174 (by decide)).trans (W96_main_v174 m c)
theorem W98_main_v174 (c : Dev nD) : W98 m c main_v174 = W83 m c main_v174 := (W98_of m c main_v174 (by decide)).trans (W97_main_v174 m c)
theorem W99_main_v174 (c : Dev nD) : W99 m c main_v174 = W83 m c main_v174 := (W99_of m c main_v174 (by decide)).trans (W98_main_v174 m c)
theorem W86_main_v178 (c : Dev nD) : W86 m c main_v178 = W85 m c main_v178 := W86_of m c main_v178 (by decide)
theorem W87_main_v178 (c : Dev nD) : W87 m c main_v178 = W85 m c main_v178 := (W87_of m c main_v178 (by decide)).trans (W86_main_v178 m c)
theorem W88_main_v178 (c : Dev nD) : W88 m c main_v178 = W85 m c main_v178 := (W88_of m c main_v178 (by decide)).trans (W87_main_v178 m c)
theorem W89_main_v178 (c : Dev nD) : W89 m c main_v178 = W85 m c main_v178 := (W89_of m c main_v178 (by decide)).trans (W88_main_v178 m c)
theorem W90_main_v178 (c : Dev nD) : W90 m c main_v178 = W85 m c main_v178 := (W90_of m c main_v178 (by decide)).trans (W89_main_v178 m c)
theorem W91_main_v178 (c : Dev nD) : W91 m c main_v178 = W85 m c main_v178 := (W91_of m c main_v178 (by decide)).trans (W90_main_v178 m c)
theorem W92_main_v178 (c : Dev nD) : W92 m c main_v178 = W85 m c main_v178 := (W92_of m c main_v178 (by decide)).trans (W91_main_v178 m c)
theorem W93_main_v178 (c : Dev nD) : W93 m c main_v178 = W85 m c main_v178 := (W93_of m c main_v178 (by decide)).trans (W92_main_v178 m c)
theorem W94_main_v178 (c : Dev nD) : W94 m c main_v178 = W85 m c main_v178 := (W94_of m c main_v178 (by decide)).trans (W93_main_v178 m c)
theorem W95_main_v178 (c : Dev nD) : W95 m c main_v178 = W85 m c main_v178 := (W95_of m c main_v178 (by decide)).trans (W94_main_v178 m c)
theorem W96_main_v178 (c : Dev nD) : W96 m c main_v178 = W85 m c main_v178 := (W96_of m c main_v178 (by decide)).trans (W95_main_v178 m c)
theorem W97_main_v178 (c : Dev nD) : W97 m c main_v178 = W85 m c main_v178 := (W97_of m c main_v178 (by decide)).trans (W96_main_v178 m c)
theorem W98_main_v178 (c : Dev nD) : W98 m c main_v178 = W85 m c main_v178 := (W98_of m c main_v178 (by decide)).trans (W97_main_v178 m c)
theorem W99_main_v178 (c : Dev nD) : W99 m c main_v178 = W85 m c main_v178 := (W99_of m c main_v178 (by decide)).trans (W98_main_v178 m c)
theorem W88_main_v182 (c : Dev nD) : W88 m c main_v182 = W87 m c main_v182 := W88_of m c main_v182 (by decide)
theorem W89_main_v182 (c : Dev nD) : W89 m c main_v182 = W87 m c main_v182 := (W89_of m c main_v182 (by decide)).trans (W88_main_v182 m c)
theorem W90_main_v182 (c : Dev nD) : W90 m c main_v182 = W87 m c main_v182 := (W90_of m c main_v182 (by decide)).trans (W89_main_v182 m c)
theorem W91_main_v182 (c : Dev nD) : W91 m c main_v182 = W87 m c main_v182 := (W91_of m c main_v182 (by decide)).trans (W90_main_v182 m c)
theorem W92_main_v182 (c : Dev nD) : W92 m c main_v182 = W87 m c main_v182 := (W92_of m c main_v182 (by decide)).trans (W91_main_v182 m c)
theorem W93_main_v182 (c : Dev nD) : W93 m c main_v182 = W87 m c main_v182 := (W93_of m c main_v182 (by decide)).trans (W92_main_v182 m c)
theorem W94_main_v182 (c : Dev nD) : W94 m c main_v182 = W87 m c main_v182 := (W94_of m c main_v182 (by decide)).trans (W93_main_v182 m c)
theorem W95_main_v182 (c : Dev nD) : W95 m c main_v182 = W87 m c main_v182 := (W95_of m c main_v182 (by decide)).trans (W94_main_v182 m c)
theorem W96_main_v182 (c : Dev nD) : W96 m c main_v182 = W87 m c main_v182 := (W96_of m c main_v182 (by decide)).trans (W95_main_v182 m c)
theorem W97_main_v182 (c : Dev nD) : W97 m c main_v182 = W87 m c main_v182 := (W97_of m c main_v182 (by decide)).trans (W96_main_v182 m c)
theorem W98_main_v182 (c : Dev nD) : W98 m c main_v182 = W87 m c main_v182 := (W98_of m c main_v182 (by decide)).trans (W97_main_v182 m c)
theorem W99_main_v182 (c : Dev nD) : W99 m c main_v182 = W87 m c main_v182 := (W99_of m c main_v182 (by decide)).trans (W98_main_v182 m c)
theorem W90_main_v186 (c : Dev nD) : W90 m c main_v186 = W89 m c main_v186 := W90_of m c main_v186 (by decide)
theorem W91_main_v186 (c : Dev nD) : W91 m c main_v186 = W89 m c main_v186 := (W91_of m c main_v186 (by decide)).trans (W90_main_v186 m c)
theorem W92_main_v186 (c : Dev nD) : W92 m c main_v186 = W89 m c main_v186 := (W92_of m c main_v186 (by decide)).trans (W91_main_v186 m c)
theorem W93_main_v186 (c : Dev nD) : W93 m c main_v186 = W89 m c main_v186 := (W93_of m c main_v186 (by decide)).trans (W92_main_v186 m c)
theorem W94_main_v186 (c : Dev nD) : W94 m c main_v186 = W89 m c main_v186 := (W94_of m c main_v186 (by decide)).trans (W93_main_v186 m c)
theorem W95_main_v186 (c : Dev nD) : W95 m c main_v186 = W89 m c main_v186 := (W95_of m c main_v186 (by decide)).trans (W94_main_v186 m c)
theorem W96_main_v186 (c : Dev nD) : W96 m c main_v186 = W89 m c main_v186 := (W96_of m c main_v186 (by decide)).trans (W95_main_v186 m c)
theorem W97_main_v186 (c : Dev nD) : W97 m c main_v186 = W89 m c main_v186 := (W97_of m c main_v186 (by decide)).trans (W96_main_v186 m c)
theorem W98_main_v186 (c : Dev nD) : W98 m c main_v186 = W89 m c main_v186 := (W98_of m c main_v186 (by decide)).trans (W97_main_v186 m c)
theorem W99_main_v186 (c : Dev nD) : W99 m c main_v186 = W89 m c main_v186 := (W99_of m c main_v186 (by decide)).trans (W98_main_v186 m c)
theorem W92_main_v190 (c : Dev nD) : W92 m c main_v190 = W91 m c main_v190 := W92_of m c main_v190 (by decide)
theorem W93_main_v190 (c : Dev nD) : W93 m c main_v190 = W91 m c main_v190 := (W93_of m c main_v190 (by decide)).trans (W92_main_v190 m c)
theorem W94_main_v190 (c : Dev nD) : W94 m c main_v190 = W91 m c main_v190 := (W94_of m c main_v190 (by decide)).trans (W93_main_v190 m c)
theorem W95_main_v190 (c : Dev nD) : W95 m c main_v190 = W91 m c main_v190 := (W95_of m c main_v190 (by decide)).trans (W94_main_v190 m c)
theorem W96_main_v190 (c : Dev nD) : W96 m c main_v190 = W91 m c main_v190 := (W96_of m c main_v190 (by decide)).trans (W95_main_v190 m c)
theorem W97_main_v190 (c : Dev nD) : W97 m c main_v190 = W91 m c main_v190 := (W97_of m c main_v190 (by decide)).trans (W96_main_v190 m c)
theorem W98_main_v190 (c : Dev nD) : W98 m c main_v190 = W91 m c main_v190 := (W98_of m c main_v190 (by decide)).trans (W97_main_v190 m c)
theorem W99_main_v190 (c : Dev nD) : W99 m c main_v190 = W91 m c main_v190 := (W99_of m c main_v190 (by decide)).trans (W98_main_v190 m c)
theorem W94_main_v194 (c : Dev nD) : W94 m c main_v194 = W93 m c main_v194 := W94_of m c main_v194 (by decide)
theorem W95_main_v194 (c : Dev nD) : W95 m c main_v194 = W93 m c main_v194 := (W95_of m c main_v194 (by decide)).trans (W94_main_v194 m c)
theorem W96_main_v194 (c : Dev nD) : W96 m c main_v194 = W93 m c main_v194 := (W96_of m c main_v194 (by decide)).trans (W95_main_v194 m c)
theorem W97_main_v194 (c : Dev nD) : W97 m c main_v194 = W93 m c main_v194 := (W97_of m c main_v194 (by decide)).trans (W96_main_v194 m c)
theorem W98_main_v194 (c : Dev nD) : W98 m c main_v194 = W93 m c main_v194 := (W98_of m c main_v194 (by decide)).trans (W97_main_v194 m c)
theorem W99_main_v194 (c : Dev nD) : W99 m c main_v194 = W93 m c main_v194 := (W99_of m c main_v194 (by decide)).trans (W98_main_v194 m c)
theorem W96_main_v198 (c : Dev nD) : W96 m c main_v198 = W95 m c main_v198 := W96_of m c main_v198 (by decide)
theorem W97_main_v198 (c : Dev nD) : W97 m c main_v198 = W95 m c main_v198 := (W97_of m c main_v198 (by decide)).trans (W96_main_v198 m c)
theorem W98_main_v198 (c : Dev nD) : W98 m c main_v198 = W95 m c main_v198 := (W98_of m c main_v198 (by decide)).trans (W97_main_v198 m c)
theorem W99_main_v198 (c : Dev nD) : W99 m c main_v198 = W95 m c main_v198 := (W99_of m c main_v198 (by decide)).trans (W98_main_v198 m c)
theorem W98_main_v202 (c : Dev nD) : W98 m c main_v202 = W97 m c main_v202 := W98_of m c main_v202 (by decide)
theorem W99_main_v202 (c : Dev nD) : W99 m c main_v202 = W97 m c main_v202 := (W99_of m c main_v202 (by decide)).trans (W98_main_v202 m c)

end Cert.KernelIdeal.Hand

end
-- ==== Proof.Val.GatherSpec.lean ====
import Idealize.ShloMosaic.PureOps.Ideal
import Idealize.ShloMosaic.Lib.ValueIdx
import Idealize.ShloMosaic.Lib.Pipeline.Value
import Idealize.ShloMosaic.Lib.ValueLayout

/-!
# The weighted rows of one propagation layer

A table `x` of 100000 rows of 64 numbers, a list `cols` of 1600000 row numbers and a list `vals` of 1600000
weights give the array whose row `e` is row `cols e` of `x` scaled by `vals e` (`weightedSpec`).
The reference writes it as a product of a broadcast of the weights with a row gather whose start indices are
`cols` with 100000 added where negative (`ref_weighted`: for row numbers in range nothing is added, the gather's
clamp does nothing, and the product commutes). One block of eight rows of the kernel is the eight gathered rows times
the block's eight weights, each broadcast along its row (`kernel_block`).
-/

noncomputable section

namespace Cert.Value

open Idealize.ShloMosaic Idealize.ShloMosaic.ValueIdx

/-! ## The shapes -/

/-- The scalar shape. -/
abbrev T_ : Shape := ⟨0, ![]⟩
/-- A list of 1600000 entries. -/
abbrev T1600000 : Shape := ⟨1, ![1600000]⟩
/-- The same list as a column. -/
abbrev T1600000x1 : Shape := ⟨2, ![1600000, 1]⟩
/-- 1600000 rows of 64. -/
abbrev T1600000x64 : Shape := ⟨2, ![1600000, 64]⟩
/-- The table: 100000 rows of 64. -/
abbrev T100000x64 : Shape := ⟨2, ![100000, 64]⟩
/-- A block of eight rows of 64. -/
abbrev T8x64 : Shape := ⟨2, ![8, 64]⟩
/-- A block of eight weights, as a column. -/
abbrev T8x1 : Shape := ⟨2, ![8, 1]⟩

/-! ## A row gather read at an index -/

section Rows
variable {α : Type}

/-- The dimension numbers of a gather of whole rows: operand `[N, C]`, start indices `[R, 1]` (one row number
    each), result `[R, C]`; the row axis is collapsed, the column axis is the offset axis. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather at `(t, j)`: the operand's row number `idx[t, 0]`, read signed and clamped into
    `[0, N − 1]`, at column `j`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (rowDims N R C wf) x idx y
      = x (ix2 ⟨min (idx (ix2 ⟨(y 0).val, idx2_lt0 y⟩ (⟨0, Nat.one_pos⟩ : Fin 1))).toInt.toNat (N - 1), by omega⟩
            ⟨(y 1).val, idx2_lt1 y⟩) := by
  unfold Host.gather
  congr 1
  funext a
  refine Fin.ext ?_
  show (rowDims N R C wf).start y idx a + (rowDims N R C wf).batchCoord y a + (rowDims N R C wf).offCoord y a = _
  rw [GatherDims.batchCoord_eq_zero _ _ _ List.not_mem_nil, Nat.add_zero]
  match a with
  | ⟨0, h0⟩ =>
    rw [GatherDims.offCoord_eq_zero _ _ _
      (fun h => ((GatherDims.mem_sKept _ _).mp h).1 (List.mem_singleton.mpr rfl)), Nat.add_zero]
    unfold GatherDims.start
    rw [dif_pos (show (⟨0, h0⟩ : Fin 2) ∈ (rowDims N R C wf).startIndexMap from List.mem_singleton.mpr rfl)]
    have hsi : (rowDims N R C wf).siIdx y ⟨List.idxOf (⟨0, h0⟩ : Fin 2) (rowDims N R C wf).startIndexMap,
        List.idxOf_lt_length_iff.2 (List.mem_singleton.mpr rfl)⟩
        = ix2 ⟨(y 0).val, idx2_lt0 y⟩ (⟨0, Nat.one_pos⟩ : Fin 1) := by
      funext b; refine Fin.ext ?_
      match b with
      | ⟨0, _⟩ => rfl
      | ⟨1, _⟩ => rfl
    rw [hsi]
    rfl
  | ⟨1, h1⟩ =>
    have hs : (rowDims N R C wf).start y idx ⟨1, h1⟩ = 0 := by
      unfold GatherDims.start
      rw [dif_neg (show (⟨1, h1⟩ : Fin 2) ∉ (rowDims N R C wf).startIndexMap from
        fun h => Nat.one_ne_zero (congrArg Fin.val (List.mem_singleton.mp h)))]
    have ho : (rowDims N R C wf).offCoord y ⟨1, h1⟩ = (y 1).val := by
      unfold GatherDims.offCoord
      rw [dif_pos ((GatherDims.mem_sKept _ _).mpr
        ⟨fun h => Nat.one_ne_zero (congrArg Fin.val (List.mem_singleton.mp h)), List.not_mem_nil⟩)]
      rfl
    rw [hs, ho, Nat.zero_add]

end Rows

/-! ## Words: a row number in range -/

/-- A word below 100000 is not negative read signed: its signed comparison with zero answers `0`. -/
theorem cmpi_slt_zero_of_lt {c : BitVec 32} (h : c.toNat < 100000) : IntOp.cmpi .slt c 0#32 = 0#1 := by
  have hi : c.toInt = c.toNat := BitVec.toInt_eq_toNat_of_lt (by omega)
  have hs : c.slt 0#32 = false := by
    rw [BitVec.slt_eq_decide, hi, BitVec.toInt_zero]
    exact decide_eq_false (by omega)
  show BitVec.ofBool (c.slt 0#32) = 0#1
  rw [hs]
  rfl

/-- A word below 100000, read signed and clamped into `[0, 99999]`, is itself. -/
theorem clamp_of_lt {c : BitVec 32} (h : c.toNat < 100000) : min c.toInt.toNat (100000 - 1) = c.toNat := by
  have hi : c.toInt = c.toNat := BitVec.toInt_eq_toNat_of_lt (by omega)
  omega

/-! ## The weighted rows -/

/-- Row `e` is row `cols e` of the table scaled by `vals e`. -/
def weightedSpec (x : T100000x64.Idx → EReal) (cols : T1600000.Idx → BitVec 32) (vals : T1600000.Idx → EReal)
    (hcols : ∀ e, (cols e).toNat < 100000) : T1600000x64.Idx → EReal :=
  fun i => x (ix2 ⟨(cols (ix1 (i 0))).toNat, hcols _⟩ (i 1)) * vals (ix1 (i 0))

/-- The start indices the reference gathers at: `cols`, with 100000 added where negative, as a column. -/
abbrev refIdx (hb1 : T1600000.BroadcastsInDim T1600000x1 (![0] : Fin 1 → Fin T1600000x1.rank))
    (hb0 : T_.BroadcastsInDim T1600000 (![] : Fin 0 → Fin T1600000.rank))
    (cols : IVec T1600000 32) : IVec T1600000x1 32 :=
  broadcastInDim T1600000x1 ![0] hb1
    (select (cmpi .slt cols (broadcastInDim T1600000 ![] hb0 (constantI T_ 32 0#32)))
      (addi cols (broadcastInDim T1600000 ![] hb0 (constantI T_ 32 100000#32))) cols)

/-- For row numbers in range the start index of row `e` is `cols e`. -/
theorem refIdx_apply (hb1 : T1600000.BroadcastsInDim T1600000x1 (![0] : Fin 1 → Fin T1600000x1.rank))
    (hb0 : T_.BroadcastsInDim T1600000 (![] : Fin 0 → Fin T1600000.rank))
    (cols : IVec T1600000 32) (hcols : ∀ e, (cols e).toNat < 100000) (e : Fin 1600000) (z : Fin 1) :
    refIdx hb1 hb0 cols (ix2 e z) = cols (ix1 e) := by
  unfold refIdx
  rw [broadcastInDim_apply _ hb1 _ (ix2 e z) (ix1 e) (fun a => by match a with | ⟨0, _⟩ => rfl)]
  show Scalar.select (IntOp.cmpi .slt (cols (ix1 e)) 0#32) (IntOp.addi (cols (ix1 e)) 100000#32) (cols (ix1 e)) = _
  rw [cmpi_slt_zero_of_lt (hcols _), select_zero]

/-- THE REFERENCE'S WEIGHTED ROWS: the broadcast weights times the gathered rows are `weightedSpec`. -/
theorem ref_weighted (hb1 : T1600000.BroadcastsInDim T1600000x1 (![0] : Fin 1 → Fin T1600000x1.rank))
    (hb0 : T_.BroadcastsInDim T1600000 (![] : Fin 0 → Fin T1600000.rank))
    (hb2 : T1600000x1.BroadcastsInDim T1600000x64 (![0, 1] : Fin 2 → Fin T1600000x64.rank))
    (wf : GatherDims.WF T100000x64 T1600000x1 T1600000x64 [1] [0] [] [0] [] 1 ![1, 64])
    (x : FVec Ideal T100000x64 .f32) (cols : IVec T1600000 32) (vals : FVec Ideal T1600000 .f32)
    (hcols : ∀ e, (cols e).toNat < 100000) :
    mulf (broadcastInDim T1600000x64 ![0, 1] hb2 (broadcastInDim T1600000x1 ![0] hb1 vals))
        (Host.gather (rowDims 100000 1600000 64 wf) x (refIdx hb1 hb0 cols))
      = weightedSpec x cols vals hcols := by
  funext i
  rw [mulf_apply, gather_rows_apply (by decide), weightedSpec, mul_comm]
  congr 1
  · congr 1
    funext a
    refine Fin.ext ?_
    match a with
    | ⟨0, _⟩ =>
      show min (refIdx hb1 hb0 cols (ix2 ⟨(i 0).val, idx2_lt0 i⟩ (⟨0, Nat.one_pos⟩ : Fin 1))).toInt.toNat (100000 - 1)
        = (cols (ix1 (i 0))).toNat
      rw [refIdx_apply hb1 hb0 cols hcols]
      exact clamp_of_lt (hcols _)
    | ⟨1, _⟩ => rfl
  · rw [broadcastInDim_apply _ hb2 _ i (ix2 (i 0) (0 : Fin 1))
        (fun a => by match a with | ⟨0, _⟩ => rfl | ⟨1, _⟩ => rfl),
      broadcastInDim_apply _ hb1 _ (ix2 (i 0) (0 : Fin 1)) (ix1 (i 0)) (fun a => by match a with | ⟨0, _⟩ => rfl)]

/-! ## One block of the kernel -/

/-- A block of eight gathered rows `G` times the block's eight weights `v`, each broadcast along its row:
    at `(r, j)` it is `G (r, j) * v (r, 0)`. -/
theorem kernel_block (hsc : T8x1.ShapeCasts T8x1) (hbc : T8x1.Broadcasts T8x64)
    (G : FVec Ideal T8x64 .f32) (v : FVec Ideal T8x1 .f32) (r : Fin 8) (j : Fin 64) :
    mulf G (broadcastTo T8x64 (shapeCast T8x1 v hsc) hbc) (ix2 r j) = G (ix2 r j) * v (ix2 r (0 : Fin 1)) := by
  rw [mulf_apply, shapeCast_self,
    broadcastTo_apply v hbc (ix2 r j) (ix2 r (0 : Fin 1)) (fun a => by match a with | ⟨0, _⟩ => rfl | ⟨1, _⟩ => rfl)]

end Cert.Value

end
-- ==== Proof.Val.Cover.lean ====
import Idealize.ShloMosaic.PureOps.Ideal
import Idealize.ShloMosaic.Lib.ValueIdx
import Idealize.ShloMosaic.Lib.Pipeline.Value
import Idealize.ShloMosaic.Lib.ValueLayout
import proofs.«421643_j28415503630349_2_alg».proof.Proof.Val.GatherSpec

/-!
# The sixteen chunks cover the weighted rows

The 1600000 weighted rows are computed in sixteen chunks of 100000 rows: chunk `k` takes entries
`100000 k … 100000 k + 99999` of the row numbers and of the weights (a slice of each list, the weights as a column)
and produces rows `100000 k + e` of the weighted array (`chunkSpec`). Laid end to end along the rows the chunks are
the whole array (`concat_chunkSpec`, `weighted_of_chunks`): row `i` lies in chunk `i / 100000` at row
`i % 100000`. `chunkSpec_of_slices` reads one entry of a chunk from the chunk's own operands.
-/

noncomputable section

namespace Cert.Value

open Idealize.ShloMosaic Idealize.ShloMosaic.ValueIdx

/-! ## Reading a slice of a list, and a list as a column -/

/-- A list of 100000 entries: one chunk of row numbers or of weights. -/
abbrev T100000 : Shape := ⟨1, ![100000]⟩
/-- The same chunk as a column. -/
abbrev T100000x1 : Shape := ⟨2, ![100000, 1]⟩

section Reads
variable {α : Type}

/-- A slice of a list read at `e`: the list at `off + e`. -/
theorem slice_list_apply {M n : Nat} (off : Nat) (v : (⟨1, ![M]⟩ : Shape).Idx → α)
    (h : (⟨1, ![M]⟩ : Shape).Slices ![off] ⟨1, ![n]⟩) (e : Fin n) (hlt : off + e.val < M) :
    extractStridedSlice ⟨1, ![n]⟩ ![off] v h (ix1 e) = v (ix1 ⟨off + e.val, hlt⟩) :=
  extractStridedSlice_apply _ v h (ix1 e) (ix1 ⟨off + e.val, hlt⟩) (fun a => by match a with | ⟨0, _⟩ => rfl)

/-- A list cast to a column reads, at `(e, 0)`, the list at `e`. -/
theorem column_apply {n : Nat} (w : (⟨1, ![n]⟩ : Shape).Idx → α) (h : (⟨1, ![n]⟩ : Shape).ShapeCasts ⟨2, ![n, 1]⟩)
    (e : Fin n) (z : Fin 1) : shapeCast ⟨2, ![n, 1]⟩ w h (ix2 e z) = w (ix1 e) :=
  shapeCast_apply w h _ _ (by
    have hz : z.val = 0 := by omega
    rw [Shape.rowMajor_val_one, Shape.rowMajor_val_two]
    show e.val = e.val * 1 + z.val
    rw [hz, Nat.mul_one, Nat.add_zero])

end Reads

/-! ## The sixteen chunks cover the weighted rows -/

/-- One weighted row at one column: row `cols e` of the table at column `c`, scaled by `vals e`. -/
def rowAt (x : T100000x64.Idx → EReal) (cols : T1600000.Idx → BitVec 32) (vals : T1600000.Idx → EReal)
    (hcols : ∀ e, (cols e).toNat < 100000) (e : T1600000.Idx) (c : Fin 64) : EReal :=
  x (ix2 ⟨(cols e).toNat, hcols e⟩ c) * vals e

/-- The weighted rows are `rowAt` at each row and column. -/
theorem weightedSpec_apply (x : T100000x64.Idx → EReal) (cols : T1600000.Idx → BitVec 32) (vals : T1600000.Idx → EReal)
    (hcols : ∀ e, (cols e).toNat < 100000) (i : T1600000x64.Idx) :
    weightedSpec x cols vals hcols i = rowAt x cols vals hcols (ix1 (i 0)) (i 1) := rfl

/-- Entry `e` of chunk `k` is entry `100000 k + e` of the whole list. -/
theorem chunk_lt (k : Fin 16) (e : Fin 100000) : 100000 * k.val + e.val < 1600000 := by
  have := k.isLt; have := e.isLt; omega

/-- Chunk `k` of the weighted rows: its row `e` is the weighted row `100000 k + e`. -/
def chunkSpec (x : T100000x64.Idx → EReal) (cols : T1600000.Idx → BitVec 32) (vals : T1600000.Idx → EReal)
    (hcols : ∀ e, (cols e).toNat < 100000) (k : Fin 16) : T100000x64.Idx → EReal :=
  fun i => rowAt x cols vals hcols (ix1 ⟨100000 * k.val + (i 0).val, chunk_lt k (i 0)⟩) (i 1)

/-- The sixteen chunks laid end to end along the rows are the weighted rows. -/
theorem concat_chunkSpec (x : T100000x64.Idx → EReal) (cols : T1600000.Idx → BitVec 32) (vals : T1600000.Idx → EReal)
    (hcols : ∀ e, (cols e).toNat < 100000)
    (hcat : Shape.Concatenates ((List.ofFn fun n : Fin 16 =>
      (⟨T100000x64, chunkSpec x cols vals hcols n⟩ : (s : Shape) × (s.Idx → EReal))).map (·.1)) T1600000x64 0) :
    concatenate T1600000x64 0 (List.ofFn fun n : Fin 16 =>
      (⟨T100000x64, chunkSpec x cols vals hcols n⟩ : (s : Shape) × (s.Idx → EReal))) hcat
      = weightedSpec x cols vals hcols := by
  funext j
  have hj : (j 0).val < 1600000 := idx2_lt0 j
  have hk : (j 0).val / 100000 < 16 := by omega
  have hm : (j 0).val % 100000 < 100000 := Nat.mod_lt _ (by decide)
  rw [concatenate_ofFn_apply (0 : Fin T1600000x64.rank) (fun n : Fin 16 => chunkSpec x cols vals hcols n) hcat rfl 100000 rfl j
    ⟨(j 0).val / 100000, hk⟩ rfl (ix2 ⟨(j 0).val % 100000, hm⟩ (j 1)) rfl
    (fun b hb => by
      match b with
      | ⟨0, _⟩ => exact (hb (Fin.ext rfl)).elim
      | ⟨1, _⟩ => rfl)]
  rw [weightedSpec_apply]
  show rowAt x cols vals hcols (ix1 ⟨100000 * ((j 0).val / 100000) + (j 0).val % 100000, _⟩) (j 1) = _
  congr 2
  exact Fin.ext (Nat.div_add_mod _ _)

/-- The same with the sixteen pieces written out, each piece any array equal to its chunk. -/
theorem weighted_of_chunks (x : T100000x64.Idx → EReal) (cols : T1600000.Idx → BitVec 32) (vals : T1600000.Idx → EReal)
    (hcols : ∀ e, (cols e).toNat < 100000) (u : Fin 16 → T100000x64.Idx → EReal)
    (hu : ∀ k, u k = chunkSpec x cols vals hcols k)
    (hcat : Shape.Concatenates [T100000x64, T100000x64, T100000x64, T100000x64, T100000x64, T100000x64, T100000x64,
      T100000x64, T100000x64, T100000x64, T100000x64, T100000x64, T100000x64, T100000x64, T100000x64, T100000x64]
      T1600000x64 0) :
    concatenate T1600000x64 0 [⟨T100000x64, u 0⟩, ⟨T100000x64, u 1⟩, ⟨T100000x64, u 2⟩, ⟨T100000x64, u 3⟩,
      ⟨T100000x64, u 4⟩, ⟨T100000x64, u 5⟩, ⟨T100000x64, u 6⟩, ⟨T100000x64, u 7⟩, ⟨T100000x64, u 8⟩, ⟨T100000x64, u 9⟩,
      ⟨T100000x64, u 10⟩, ⟨T100000x64, u 11⟩, ⟨T100000x64, u 12⟩, ⟨T100000x64, u 13⟩, ⟨T100000x64, u 14⟩,
      ⟨T100000x64, u 15⟩] hcat = weightedSpec x cols vals hcols := by
  obtain rfl : u = fun k => chunkSpec x cols vals hcols k := funext hu
  exact concat_chunkSpec x cols vals hcols hcat

/-- ONE ENTRY OF A CHUNK from the chunk's own operands: with the chunk's row numbers the slice of `cols` at
    `off = 100000 k` and its weights the slice of `vals` there as a column, table row `r` — the row number
    read at `e` — at column `j` times the weight at `(e, 0)` is the chunk's entry `(e, j)`. -/
theorem chunkSpec_of_slices (x : T100000x64.Idx → EReal) (cols : T1600000.Idx → BitVec 32) (vals : T1600000.Idx → EReal)
    (hcols : ∀ e, (cols e).toNat < 100000) (k : Fin 16) (off : Nat) (hoff : off = 100000 * k.val)
    (hsl : T1600000.Slices ![off] T100000) (hsc : T100000.ShapeCasts T100000x1)
    (e : Fin 100000) (j : Fin 64) (z : Fin 1) (r : Fin 100000)
    (hr : r.val = (extractStridedSlice T100000 ![off] cols hsl (ix1 e)).toNat) :
    x (ix2 r j) * shapeCast T100000x1 (extractStridedSlice T100000 ![off] vals hsl) hsc (ix2 e z)
      = chunkSpec x cols vals hcols k (ix2 e j) := by
  subst hoff
  rw [column_apply, slice_list_apply _ vals hsl e (chunk_lt k e)]
  rw [slice_list_apply _ cols hsl e (chunk_lt k e)] at hr
  show _ = x (ix2 ⟨(cols (ix1 ⟨100000 * k.val + e.val, _⟩)).toNat, _⟩ j) * vals (ix1 ⟨100000 * k.val + e.val, _⟩)
  congr 3
  exact Fin.ext hr

end Cert.Value

end
-- ==== Proof.Val.ChunkArray1.lean ====
/-
  The array the first gather region leaves, as one function of its operands.

  The region runs 12500 points; at point t the body leaves in the output window's buffer a block of eight rows of 64:
  row r is the row of the far operand that word 8 t + r of the table names, scaled by entry r of the input window's
  block, which is entry 8 t + r of the column of weights. Both windows' index maps send point t to block (t, 0), so
  the output window's block at t is rows 8 t … 8 t + 7 of its array, every point writes its block back, and the
  blocks cover the array: row e lies in the block of point e / 8. Hence the array ends holding, at (e, j), the far
  operand's row named by word e at column j times weight e.

  Stated for any output block O whose entries are those products (the hypothesis hO), and then for the body's own
  block, the gathered rows scaled by the input block. Last, the array as the chunk of the weighted rows whose row
  numbers and weights are slices of two long lists.
-/
import proofs.«421643_j28415503630349_2_alg».proof.Proof.KI.Region1
import proofs.«421643_j28415503630349_2_alg».proof.Proof.KI.GatherDefs
import proofs.«421643_j28415503630349_2_alg».proof.Proof.Val.GatherSpec
import proofs.«421643_j28415503630349_2_alg».proof.Proof.Val.Cover
import Idealize.ShloMosaic.Lib.Pipeline.Value
import Idealize.ShloMosaic.Lib.ValueIdx

set_option maxRecDepth 16384

noncomputable section

namespace Cert.Value

open Cert.KernelIdeal Cert.KernelIdeal.Gen Cert.KernelIdeal.Hand
open Idealize.ShloMosaic Idealize.ShloMosaic.TcCoe
open Idealize.SL.Sem
open Idealize.ShloMosaic.Pipeline (Dat Cfg Window UD)

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg1 (F := Ideal)).Adm)
  (O : (c : Dev nD) → Fin (cfg1 a1).N → Vec Ideal S8x64 .f32)

/-- The grid has 12500 points. -/
theorem npoints1 : (cfg1 a1).N = 12500 := N_1

/-- A point's one coordinate is the point's number. -/
theorem coordsVal1 (t : Fin (cfg1 a1).N) : (((cfg1 a1).grid.coords t) 0).val = t.val := by
  have ht : t.val < 12500 := (npoints1 a1) ▸ t.isLt
  show t.val / grid1.stride 0 % 12500 = t.val
  rw [show grid1.stride 0 = 1 from by decide, Nat.div_one, Nat.mod_eq_of_lt ht]

/-- Both windows move with the point: block index (t, 0) at point t. -/
theorem idxInRow1 (t : Fin (cfg1 a1).N) : ((cfg1 a1).win 0).index t (0 : Fin 2) = t.val := by
  have ht : t.val < 12500 := (npoints1 a1) ▸ t.isLt
  show (BitVec.ofNat 32 (((cfg1 a1).grid.coords t) 0).val).toNat = t.val
  rw [coordsVal1, BitVec.toNat_ofNat, Nat.mod_eq_of_lt (by omega)]
theorem idxInCol1 (t : Fin (cfg1 a1).N) : ((cfg1 a1).win 0).index t (1 : Fin 2) = 0 := rfl
theorem idxOutRow1 (t : Fin (cfg1 a1).N) : ((cfg1 a1).win 1).index t (0 : Fin 2) = t.val := by
  have ht : t.val < 12500 := (npoints1 a1) ▸ t.isLt
  show (BitVec.ofNat 32 (((cfg1 a1).grid.coords t) 0).val).toNat = t.val
  rw [coordsVal1, BitVec.toNat_ofNat, Nat.mod_eq_of_lt (by omega)]
theorem idxOutCol1 (t : Fin (cfg1 a1).N) : ((cfg1 a1).win 1).index t (1 : Fin 2) = 0 := rfl

/-- The output window is written back at every point: the next point's block is another. -/
theorem flushOut1 (t : Fin (cfg1 a1).N) : ((cfg1 a1).win 1).flush t = true := by
  unfold Window.flush
  show (true && (decide (t.val + 1 = (cfg1 a1).N) || decide (∃ h : t.val + 1 < (cfg1 a1).N,
    ((cfg1 a1).win 1).index ⟨t.val + 1, h⟩ ≠ ((cfg1 a1).win 1).index t))) = true
  rw [Bool.true_and, Bool.or_eq_true, decide_eq_true_eq, decide_eq_true_eq]
  by_cases h : t.val + 1 = (cfg1 a1).N
  · exact Or.inl h
  · refine Or.inr ⟨by have := t.isLt; omega, fun e => ?_⟩
    have erow := congrFun e (0 : Fin 2)
    rw [idxOutRow1, idxOutRow1] at erow
    exact absurd erow (by show t.val + 1 ≠ t.val; omega)

/-! ## The operands at their literal types -/

/-- The table's words. -/
abbrev tbl1 : S100000.Idx → BitVec 32 := a1.1 0
/-- The far operand: the table of rows. -/
abbrev far1 (c : Dev nD) : S100000x64.Idx → EReal := V c main_v3
/-- The weights, as a column. -/
abbrev wts1 (c : Dev nD) : S100000x1.Idx → EReal := V c main_v7
/-- The input window's block at point t: eight weights. -/
abbrev inBlk1 (c : Dev nD) (t : Fin (cfg1 a1).N) : S8x1.Idx → EReal := iblk1 V a1 c 0 t

/-! ## The blocks -/

/-- Row r of the input window's block at point t is row 8 t + r of the column of weights. -/
theorem inBlk1_apply (c : Dev nD) (t : Fin (cfg1 a1).N) (r : Fin 8) (z : Fin 1) (k : S100000x1.Idx)
    (hkrow : (k 0).val = 8 * t.val + r.val) :
    inBlk1 V a1 c t (ValueIdx.ix2 r z) = wts1 V c k := by
  show wts1 V c ((((cfg1 a1).win 0).blk t).view.emb (ValueIdx.ix2 r z)) = wts1 V c k
  refine congrArg (wts1 V c) (funext fun a => Fin.ext ?_)
  match a with
  | ⟨0, _⟩ =>
    show ((cfg1 a1).win 0).index t (0 : Fin 2) * 8 + 1 * r.val = (k 0).val
    rw [idxInRow1, hkrow]; omega
  | ⟨1, _⟩ =>
    show ((cfg1 a1).win 0).index t (1 : Fin 2) * 1 + 1 * z.val = (k 1).val
    have hkcol : (k 1).val < 1 := idx2_lt1 k
    have hz : z.val < 1 := z.isLt
    rw [idxInCol1]; omega

/-- An index of the array is in point t's block iff each coordinate is in the block's range on its axis. -/
theorem mem_blkOut1 (t : Fin (cfg1 a1).N) (i : S100000x64.Idx) :
    i ∈ (((cfg1 a1).win 1).blk t).view.set ↔ ∀ a : Fin 2, ((cfg1 a1).win 1).index t a * S8x64.size a ≤ (i a).val
      ∧ (i a).val < ((cfg1 a1).win 1).index t a * S8x64.size a + S8x64.size a := by
  have hset : (((cfg1 a1).win 1).blk t).view.set = (((cfg1 a1).win 1).rect t : Rect S100000x64).set :=
    View.set_slice_whole main_v8 _
  have hmem : i ∈ (((cfg1 a1).win 1).rect t : Rect S100000x64).set ↔ ∀ a : Fin 2,
      ((cfg1 a1).win 1).index t a * S8x64.size a ≤ (i a).val
        ∧ (i a).val < ((cfg1 a1).win 1).index t a * S8x64.size a + S8x64.size a := Rect.mem_set_unit
  exact (Finset.ext_iff.mp hset i).trans hmem

/-- Every index of the array is in the block of the point its row over eight names. -/
theorem coverOut1 (i : S100000x64.Idx) :
    ∃ t : Fin (cfg1 a1).N, ((cfg1 a1).win 1).flush t = true ∧ i ∈ (((cfg1 a1).win 1).blk t).view.set := by
  have hirow : (i 0).val < 100000 := idx2_lt0 i
  have hicol : (i 1).val < 64 := idx2_lt1 i
  obtain ⟨t, ht⟩ : ∃ t : Fin (cfg1 a1).N, t.val = (i 0).val / 8 := ⟨⟨(i 0).val / 8, by rw [npoints1]; omega⟩, rfl⟩
  refine ⟨t, flushOut1 a1 t, ?_⟩
  rw [mem_blkOut1]
  intro a
  match a with
  | ⟨0, _⟩ =>
    show ((cfg1 a1).win 1).index t (0 : Fin 2) * 8 ≤ (i 0).val ∧ (i 0).val < ((cfg1 a1).win 1).index t (0 : Fin 2) * 8 + 8
    rw [idxOutRow1, ht]; omega
  | ⟨1, _⟩ =>
    show ((cfg1 a1).win 1).index t (1 : Fin 2) * 64 ≤ (i 1).val ∧ (i 1).val < ((cfg1 a1).win 1).index t (1 : Fin 2) * 64 + 64
    rw [idxOutCol1]; omega

/-! ## The array -/

/-- One weighted row at one column: the table row the e-th word names, at column j, times the e-th weight. -/
def chunkRow1 (hlt : ∀ y, (tbl1 a1 y).toNat < 100000) (c : Dev nD) (e : Fin 100000) (j : Fin 64) : EReal :=
  far1 V c (ValueIdx.ix2 ⟨(tbl1 a1 (ValueIdx.ix1 e)).toNat, hlt _⟩ j) * wts1 V c (ValueIdx.ix2 e (0 : Fin 1))

/-- The chunk's array as one function of the region's operands. -/
def chunkG1 (hlt : ∀ y, (tbl1 a1 y).toNat < 100000) (c : Dev nD) : S100000x64.Idx → EReal :=
  fun i => chunkRow1 V a1 hlt c (i 0) (i 1)

/-- Row r of point t's block lies in the table. -/
theorem row_lt1 (t : Fin (cfg1 a1).N) (r : Fin 8) : 8 * t.val + r.val < 100000 := by
  have ht : t.val < 12500 := (npoints1 a1) ▸ t.isLt
  have := r.isLt; omega

/-- WHAT POINT t WRITES BACK is block t of the chunk's array, when the body leaves in the output window's buffer,
    at (r, j), the table row that word 8 t + r names at column j times the input block's weight at (r, 0). -/
theorem flushedOut1_eq (hlt : ∀ y, (tbl1 a1 y).toNat < 100000)
    (hO : ∀ (c : Dev nD) (t : Fin (cfg1 a1).N) (r : Fin 8) (j : Fin 64), O c t (ValueIdx.ix2 r j)
      = far1 V c (ValueIdx.ix2 ⟨(tbl1 a1 (ValueIdx.ix1 ⟨8 * t.val + r.val, row_lt1 a1 t r⟩)).toNat, hlt _⟩ j)
        * inBlk1 V a1 c t (ValueIdx.ix2 r (0 : Fin 1)))
    (c : Dev nD) (t : Fin (cfg1 a1).N) :
    (dat1 V a1 O c).flushed 1 t = (((cfg1 a1).win 1).blk t).view.read (Elt Ideal) (chunkG1 V a1 hlt c) := by
  show ((cfg1 a1).win 1).cut ((cfg1 a1).grid.coords t) ((dat1 V a1 O c).after 1 t) = _
  rw [afterOut1]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG1 V a1 hlt c ((((cfg1 a1).win 1).blk t).view.emb (ValueIdx.ix2 r j))
  have hemb : (((cfg1 a1).win 1).blk t).view.emb (ValueIdx.ix2 r j)
      = (ValueIdx.ix2 ⟨8 * t.val + r.val, row_lt1 a1 t r⟩ j : S100000x64.Idx) := by
    funext a; apply Fin.ext
    match a with
    | ⟨0, _⟩ =>
      show ((cfg1 a1).win 1).index t (0 : Fin 2) * 8 + 1 * r.val = 8 * t.val + r.val
      rw [idxOutRow1]; omega
    | ⟨1, _⟩ =>
      show ((cfg1 a1).win 1).index t (1 : Fin 2) * 64 + 1 * j.val = j.val
      rw [idxOutCol1]; omega
  rw [hemb, hO c t r j,
    inBlk1_apply V a1 c t r 0 (ValueIdx.ix2 ⟨8 * t.val + r.val, row_lt1 a1 t r⟩ (0 : Fin 1)) rfl]
  rfl

/-- THE CHUNK'S ARRAY after the region: chunkG1. -/
theorem chunk_array1 (hlt : ∀ y, (tbl1 a1 y).toNat < 100000)
    (hO : ∀ (c : Dev nD) (t : Fin (cfg1 a1).N) (r : Fin 8) (j : Fin 64), O c t (ValueIdx.ix2 r j)
      = far1 V c (ValueIdx.ix2 ⟨(tbl1 a1 (ValueIdx.ix1 ⟨8 * t.val + r.val, row_lt1 a1 t r⟩)).toNat, hlt _⟩ j)
        * inBlk1 V a1 c t (ValueIdx.ix2 r (0 : Fin 1)))
    (c : Dev nD) :
    (dat1 V a1 O c).arrAt 1 (cfg1 a1).N = chunkG1 V a1 hlt c :=
  (dat1 V a1 O c).arrAt_eq_of_cover 1 (chunkG1 V a1 hlt c) (fun t _ => flushedOut1_eq V a1 O hlt hO c t) (coverOut1 a1)

/-! ## The body's own block -/

/-- Two rows of the far operand named by the same word are the same row. -/
theorem farRow1_congr (c : Dev nD) {e e' : Fin 100000} (h : e.val = e'.val) (j : Fin 64)
    (p : (tbl1 a1 (ValueIdx.ix1 e)).toNat < 100000) (p' : (tbl1 a1 (ValueIdx.ix1 e')).toNat < 100000) :
    far1 V c (ValueIdx.ix2 ⟨(tbl1 a1 (ValueIdx.ix1 e)).toNat, p⟩ j)
      = far1 V c (ValueIdx.ix2 ⟨(tbl1 a1 (ValueIdx.ix1 e')).toNat, p'⟩ j) := by
  obtain rfl : e = e' := Fin.ext h
  rfl

/-- The body's block at point t — the gathered rows scaled by the input block — has the entries hO asks. -/
theorem bodyBlk1_apply (hlt : ∀ y, (tbl1 a1 y).toNat < 100000) (c : Dev nD) (t : Fin (cfg1 a1).N) (r : Fin 8) (j : Fin 64) :
    gatherOut (gatherG (a1.1 0) (V c main_v3) (grid1.coords t)) (iblk1 V a1 c 0 t) (ValueIdx.ix2 r j)
      = far1 V c (ValueIdx.ix2 ⟨(tbl1 a1 (ValueIdx.ix1 ⟨8 * t.val + r.val, row_lt1 a1 t r⟩)).toNat, hlt _⟩ j)
        * inBlk1 V a1 c t (ValueIdx.ix2 r (0 : Fin 1)) := by
  have hpay : gatherOut (gatherG (a1.1 0) (V c main_v3) (grid1.coords t)) (iblk1 V a1 c 0 t) (ValueIdx.ix2 r j)
      = gatherG (F := Ideal) (tbl1 a1) (far1 V c) (grid1.coords t) (ValueIdx.ix2 r j) * inBlk1 V a1 c t (ValueIdx.ix2 r (0 : Fin 1)) :=
    Cert.Value.kernel_block (by decide) (by decide) (gatherG (F := Ideal) (tbl1 a1) (far1 V c) (grid1.coords t)) (inBlk1 V a1 c t) r j
  rw [hpay, gatherG_apply (F := Ideal) (tbl1 a1) (far1 V c) (grid1.coords t) r j (hlt _)]
  refine congrArg (· * inBlk1 V a1 c t (ValueIdx.ix2 r (0 : Fin 1))) ?_
  exact farRow1_congr V a1 c (by show 8 * ((grid1.coords t) 0).val + r.val = 8 * t.val + r.val; rw [coordsVal1 a1 t]) j _ _

/-- THE CHUNK'S ARRAY after the region, the output block being the body's own. -/
theorem chunk_array1_body (hlt : ∀ y, (tbl1 a1 y).toNat < 100000) (c : Dev nD) :
    (dat1 V a1 (fun c t => gatherOut (gatherG (a1.1 0) (V c main_v3) (grid1.coords t)) (iblk1 V a1 c 0 t)) c).arrAt 1 (cfg1 a1).N
      = chunkG1 V a1 hlt c :=
  chunk_array1 V a1 _ hlt (fun c t r j => bodyBlk1_apply V a1 hlt c t r j) c

/-! ## The array as a chunk of the weighted rows -/

/-- When the far operand is the table x, the region's table the slice of the row numbers cols at 100000 k and its
    weights the slice of vals there as a column, the region's array is chunk k of the weighted rows. -/
theorem chunkG1_eq_chunkSpec (hlt : ∀ y, (tbl1 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far1 V c = x) (ht : tbl1 a1 = extractStridedSlice Cert.Value.T100000 ![off] cols hsl)
    (hw : wts1 V c = shapeCast Cert.Value.T100000x1 (extractStridedSlice Cert.Value.T100000 ![off] vals hsl) hsc) :
    chunkG1 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl1 a1 (ValueIdx.ix1 e)).toNat, hlt _⟩ (congrArg (fun T : S100000.Idx → BitVec 32 => (T (ValueIdx.ix1 e)).toNat) ht), ← hx, ← hw]
  rfl

end Chunk

end Cert.Value

end
-- ==== Proof.Val.KVals.lean ====
/-
  The weights of each gather region.

  Before gather region K the host cuts the region's hundred thousand weights out of the long list of weights — the
  entries from 100000 ((K - 1) mod 16) on — and shapes them as a column. Read here from any contents of the buffers
  the stretch starts from, given the long list those contents hold.
-/
import proofs.«421643_j28415503630349_2_alg».proof.Proof.Gen.KernelIdeal.Launch
import Idealize.ShloMosaic.Lib.StableHlo.Run
import Idealize.ShloMosaic.PureOps.Ideal

noncomputable section

namespace Cert.Value

open Cert.KernelIdeal Cert.KernelIdeal.Gen
open Idealize.ShloMosaic Idealize.ShloMosaic.TcCoe Idealize.ShloMosaic.StableHlo
open Idealize.SL.Sem

/-- Region 1's weights: the weights from 0 on, as a column. -/
theorem kvals1 (Wb : Valuation τ sig (Elt Ideal)) (vals : FVec Ideal S1600000 .f32)
    (hv : Wb (Proc.devRef .tc main_arg2) = vals) :
    StableHlo.after hostOps1 Wb (Proc.devRef .tc main_v7)
      = shapeCast S100000x1 (extractStridedSlice S100000 ![0] vals Shapes1.Facts₀.slices_S1600000_S100000_0)
          Shapes1.Facts₀.shapeCasts_S100000_S100000x1 := by
  unfold hostOps1
  after_results
  rw [hv]
  rfl

/-- Region 2's weights: the weights from 100000 on, as a column. -/
theorem kvals2 (Wb : Valuation τ sig (Elt Ideal)) (vals : FVec Ideal S1600000 .f32)
    (hv : Wb (Proc.devRef .tc main_arg2) = vals) :
    StableHlo.after hostOps2 Wb (Proc.devRef .tc main_v11)
      = shapeCast S100000x1 (extractStridedSlice S100000 ![100000] vals Shapes1.Facts₀.slices_S1600000_S100000_100000)
          Shapes1.Facts₀.shapeCasts_S100000_S100000x1 := by
  unfold hostOps2
  after_results
  rw [hv]
  rfl

/-- Region 3's weights: the weights from 200000 on, as a column. -/
theorem kvals3 (Wb : Valuation τ sig (Elt Ideal)) (vals : FVec Ideal S1600000 .f32)
    (hv : Wb (Proc.devRef .tc main_arg2) = vals) :
    StableHlo.after hostOps3 Wb (Proc.devRef .tc main_v15)
      = shapeCast S100000x1 (extractStridedSlice S100000 ![200000] vals Shapes1.Facts₀.slices_S1600000_S100000_200000)
          Shapes1.Facts₀.shapeCasts_S100000_S100000x1 := by
  unfold hostOps3
  after_results
  rw [hv]
  rfl

/-- Region 4's weights: the weights from 300000 on, as a column. -/
theorem kvals4 (Wb : Valuation τ sig (Elt Ideal)) (vals : FVec Ideal S1600000 .f32)
    (hv : Wb (Proc.devRef .tc main_arg2) = vals) :
    StableHlo.after hostOps4 Wb (Proc.devRef .tc main_v19)
      = shapeCast S100000x1 (extractStridedSlice S100000 ![300000] vals Shapes1.Facts₀.slices_S1600000_S100000_300000)
          Shapes1.Facts₀.shapeCasts_S100000_S100000x1 := by
  unfold hostOps4
  after_results
  rw [hv]
  rfl

/-- Region 5's weights: the weights from 400000 on, as a column. -/
theorem kvals5 (Wb : Valuation τ sig (Elt Ideal)) (vals : FVec Ideal S1600000 .f32)
    (hv : Wb (Proc.devRef .tc main_arg2) = vals) :
    StableHlo.after hostOps5 Wb (Proc.devRef .tc main_v23)
      = shapeCast S100000x1 (extractStridedSlice S100000 ![400000] vals Shapes1.Facts₀.slices_S1600000_S100000_400000)
          Shapes1.Facts₀.shapeCasts_S100000_S100000x1 := by
  unfold hostOps5
  after_results
  rw [hv]
  rfl

/-- Region 6's weights: the weights from 500000 on, as a column. -/
theorem kvals6 (Wb : Valuation τ sig (Elt Ideal)) (vals : FVec Ideal S1600000 .f32)
    (hv : Wb (Proc.devRef .tc main_arg2) = vals) :
    StableHlo.after hostOps6 Wb (Proc.devRef .tc main_v27)
      = shapeCast S100000x1 (extractStridedSlice S100000 ![500000] vals Shapes1.Facts₀.slices_S1600000_S100000_500000)
          Shapes1.Facts₀.shapeCasts_S100000_S100000x1 := by
  unfold hostOps6
  after_results
  rw [hv]
  rfl

/-- Region 7's weights: the weights from 600000 on, as a column. -/
theorem kvals7 (Wb : Valuation τ sig (Elt Ideal)) (vals : FVec Ideal S1600000 .f32)
    (hv : Wb (Proc.devRef .tc main_arg2) = vals) :
    StableHlo.after hostOps7 Wb (Proc.devRef .tc main_v31)
      = shapeCast S100000x1 (extractStridedSlice S100000 ![600000] vals Shapes1.Facts₀.slices_S1600000_S100000_600000)
          Shapes1.Facts₀.shapeCasts_S100000_S100000x1 := by
  unfold hostOps7
  after_results
  rw [hv]
  rfl

/-- Region 8's weights: the weights from 700000 on, as a column. -/
theorem kvals8 (Wb : Valuation τ sig (Elt Ideal)) (vals : FVec Ideal S1600000 .f32)
    (hv : Wb (Proc.devRef .tc main_arg2) = vals) :
    StableHlo.after hostOps8 Wb (Proc.devRef .tc main_v35)
      = shapeCast S100000x1 (extractStridedSlice S100000 ![700000] vals Shapes1.Facts₀.slices_S1600000_S100000_700000)
          Shapes1.Facts₀.shapeCasts_S100000_S100000x1 := by
  unfold hostOps8
  after_results
  rw [hv]
  rfl

/-- Region 9's weights: the weights from 800000 on, as a column. -/
theorem kvals9 (Wb : Valuation τ sig (Elt Ideal)) (vals : FVec Ideal S1600000 .f32)
    (hv : Wb (Proc.devRef .tc main_arg2) = vals) :
    StableHlo.after hostOps9 Wb (Proc.devRef .tc main_v39)
      = shapeCast S100000x1 (extractStridedSlice S100000 ![800000] vals Shapes1.Facts₀.slices_S1600000_S100000_800000)
          Shapes1.Facts₀.shapeCasts_S100000_S100000x1 := by
  unfold hostOps9
  after_results
  rw [hv]
  rfl

/-- Region 10's weights: the weights from 900000 on, as a column. -/
theorem kvals10 (Wb : Valuation τ sig (Elt Ideal)) (vals : FVec Ideal S1600000 .f32)
    (hv : Wb (Proc.devRef .tc main_arg2) = vals) :
    StableHlo.after hostOps10 Wb (Proc.devRef .tc main_v43)
      = shapeCast S100000x1 (extractStridedSlice S100000 ![900000] vals Shapes1.Facts₀.slices_S1600000_S100000_900000)
          Shapes1.Facts₀.shapeCasts_S100000_S100000x1 := by
  unfold hostOps10
  after_results
  rw [hv]
  rfl

/-- Region 11's weights: the weights from 1000000 on, as a column. -/
theorem kvals11 (Wb : Valuation τ sig (Elt Ideal)) (vals : FVec Ideal S1600000 .f32)
    (hv : Wb (Proc.devRef .tc main_arg2) = vals) :
    StableHlo.after hostOps11 Wb (Proc.devRef .tc main_v47)
      = shapeCast S100000x1 (extractStridedSlice S100000 ![1000000] vals Shapes1.Facts₀.slices_S1600000_S100000_1000000)
          Shapes1.Facts₀.shapeCasts_S100000_S100000x1 := by
  unfold hostOps11
  after_results
  rw [hv]
  rfl

/-- Region 12's weights: the weights from 1100000 on, as a column. -/
theorem kvals12 (Wb : Valuation τ sig (Elt Ideal)) (vals : FVec Ideal S1600000 .f32)
    (hv : Wb (Proc.devRef .tc main_arg2) = vals) :
    StableHlo.after hostOps12 Wb (Proc.devRef .tc main_v51)
      = shapeCast S100000x1 (extractStridedSlice S100000 ![1100000] vals Shapes1.Facts₀.slices_S1600000_S100000_1100000)
          Shapes1.Facts₀.shapeCasts_S100000_S100000x1 := by
  unfold hostOps12
  after_results
  rw [hv]
  rfl

/-- Region 13's weights: the weights from 1200000 on, as a column. -/
theorem kvals13 (Wb : Valuation τ sig (Elt Ideal)) (vals : FVec Ideal S1600000 .f32)
    (hv : Wb (Proc.devRef .tc main_arg2) = vals) :
    StableHlo.after hostOps13 Wb (Proc.devRef .tc main_v55)
      = shapeCast S100000x1 (extractStridedSlice S100000 ![1200000] vals Shapes1.Facts₀.slices_S1600000_S100000_1200000)
          Shapes1.Facts₀.shapeCasts_S100000_S100000x1 := by
  unfold hostOps13
  after_results
  rw [hv]
  rfl

/-- Region 14's weights: the weights from 1300000 on, as a column. -/
theorem kvals14 (Wb : Valuation τ sig (Elt Ideal)) (vals : FVec Ideal S1600000 .f32)
    (hv : Wb (Proc.devRef .tc main_arg2) = vals) :
    StableHlo.after hostOps14 Wb (Proc.devRef .tc main_v59)
      = shapeCast S100000x1 (extractStridedSlice S100000 ![1300000] vals Shapes1.Facts₀.slices_S1600000_S100000_1300000)
          Shapes1.Facts₀.shapeCasts_S100000_S100000x1 := by
  unfold hostOps14
  after_results
  rw [hv]
  rfl

/-- Region 15's weights: the weights from 1400000 on, as a column. -/
theorem kvals15 (Wb : Valuation τ sig (Elt Ideal)) (vals : FVec Ideal S1600000 .f32)
    (hv : Wb (Proc.devRef .tc main_arg2) = vals) :
    StableHlo.after hostOps15 Wb (Proc.devRef .tc main_v63)
      = shapeCast S100000x1 (extractStridedSlice S100000 ![1400000] vals Shapes1.Facts₀.slices_S1600000_S100000_1400000)
          Shapes1.Facts₀.shapeCasts_S100000_S100000x1 := by
  unfold hostOps15
  after_results
  rw [hv]
  rfl

/-- Region 16's weights: the weights from 1500000 on, as a column. -/
theorem kvals16 (Wb : Valuation τ sig (Elt Ideal)) (vals : FVec Ideal S1600000 .f32)
    (hv : Wb (Proc.devRef .tc main_arg2) = vals) :
    StableHlo.after hostOps16 Wb (Proc.devRef .tc main_v67)
      = shapeCast S100000x1 (extractStridedSlice S100000 ![1500000] vals Shapes1.Facts₀.slices_S1600000_S100000_1500000)
          Shapes1.Facts₀.shapeCasts_S100000_S100000x1 := by
  unfold hostOps16
  after_results
  rw [hv]
  rfl

/-- Region 17's weights: the weights from 0 on, as a column. -/
theorem kvals17 (Wb : Valuation τ sig (Elt Ideal)) (vals : FVec Ideal S1600000 .f32)
    (hv : Wb (Proc.devRef .tc main_arg2) = vals) :
    StableHlo.after hostOps17 Wb (Proc.devRef .tc main_v76)
      = shapeCast S100000x1 (extractStridedSlice S100000 ![0] vals Shapes1.Facts₀.slices_S1600000_S100000_0)
          Shapes1.Facts₀.shapeCasts_S100000_S100000x1 := by
  unfold hostOps17
  after_results
  rw [hv]
  rfl

/-- Region 18's weights: the weights from 100000 on, as a column. -/
theorem kvals18 (Wb : Valuation τ sig (Elt Ideal)) (vals : FVec Ideal S1600000 .f32)
    (hv : Wb (Proc.devRef .tc main_arg2) = vals) :
    StableHlo.after hostOps18 Wb (Proc.devRef .tc main_v80)
      = shapeCast S100000x1 (extractStridedSlice S100000 ![100000] vals Shapes1.Facts₀.slices_S1600000_S100000_100000)
          Shapes1.Facts₀.shapeCasts_S100000_S100000x1 := by
  unfold hostOps18
  after_results
  rw [hv]
  rfl

/-- Region 19's weights: the weights from 200000 on, as a column. -/
theorem kvals19 (Wb : Valuation τ sig (Elt Ideal)) (vals : FVec Ideal S1600000 .f32)
    (hv : Wb (Proc.devRef .tc main_arg2) = vals) :
    StableHlo.after hostOps19 Wb (Proc.devRef .tc main_v84)
      = shapeCast S100000x1 (extractStridedSlice S100000 ![200000] vals Shapes1.Facts₀.slices_S1600000_S100000_200000)
          Shapes1.Facts₀.shapeCasts_S100000_S100000x1 := by
  unfold hostOps19
  after_results
  rw [hv]
  rfl

/-- Region 20's weights: the weights from 300000 on, as a column. -/
theorem kvals20 (Wb : Valuation τ sig (Elt Ideal)) (vals : FVec Ideal S1600000 .f32)
    (hv : Wb (Proc.devRef .tc main_arg2) = vals) :
    StableHlo.after hostOps20 Wb (Proc.devRef .tc main_v88)
      = shapeCast S100000x1 (extractStridedSlice S100000 ![300000] vals Shapes1.Facts₀.slices_S1600000_S100000_300000)
          Shapes1.Facts₀.shapeCasts_S100000_S100000x1 := by
  unfold hostOps20
  after_results
  rw [hv]
  rfl

/-- Region 21's weights: the weights from 400000 on, as a column. -/
theorem kvals21 (Wb : Valuation τ sig (Elt Ideal)) (vals : FVec Ideal S1600000 .f32)
    (hv : Wb (Proc.devRef .tc main_arg2) = vals) :
    StableHlo.after hostOps21 Wb (Proc.devRef .tc main_v92)
      = shapeCast S100000x1 (extractStridedSlice S100000 ![400000] vals Shapes1.Facts₀.slices_S1600000_S100000_400000)
          Shapes1.Facts₀.shapeCasts_S100000_S100000x1 := by
  unfold hostOps21
  after_results
  rw [hv]
  rfl

/-- Region 22's weights: the weights from 500000 on, as a column. -/
theorem kvals22 (Wb : Valuation τ sig (Elt Ideal)) (vals : FVec Ideal S1600000 .f32)
    (hv : Wb (Proc.devRef .tc main_arg2) = vals) :
    StableHlo.after hostOps22 Wb (Proc.devRef .tc main_v96)
      = shapeCast S100000x1 (extractStridedSlice S100000 ![500000] vals Shapes1.Facts₀.slices_S1600000_S100000_500000)
          Shapes1.Facts₀.shapeCasts_S100000_S100000x1 := by
  unfold hostOps22
  after_results
  rw [hv]
  rfl

/-- Region 23's weights: the weights from 600000 on, as a column. -/
theorem kvals23 (Wb : Valuation τ sig (Elt Ideal)) (vals : FVec Ideal S1600000 .f32)
    (hv : Wb (Proc.devRef .tc main_arg2) = vals) :
    StableHlo.after hostOps23 Wb (Proc.devRef .tc main_v100)
      = shapeCast S100000x1 (extractStridedSlice S100000 ![600000] vals Shapes1.Facts₀.slices_S1600000_S100000_600000)
          Shapes1.Facts₀.shapeCasts_S100000_S100000x1 := by
  unfold hostOps23
  after_results
  rw [hv]
  rfl

/-- Region 24's weights: the weights from 700000 on, as a column. -/
theorem kvals24 (Wb : Valuation τ sig (Elt Ideal)) (vals : FVec Ideal S1600000 .f32)
    (hv : Wb (Proc.devRef .tc main_arg2) = vals) :
    StableHlo.after hostOps24 Wb (Proc.devRef .tc main_v104)
      = shapeCast S100000x1 (extractStridedSlice S100000 ![700000] vals Shapes1.Facts₀.slices_S1600000_S100000_700000)
          Shapes1.Facts₀.shapeCasts_S100000_S100000x1 := by
  unfold hostOps24
  after_results
  rw [hv]
  rfl

/-- Region 25's weights: the weights from 800000 on, as a column. -/
theorem kvals25 (Wb : Valuation τ sig (Elt Ideal)) (vals : FVec Ideal S1600000 .f32)
    (hv : Wb (Proc.devRef .tc main_arg2) = vals) :
    StableHlo.after hostOps25 Wb (Proc.devRef .tc main_v108)
      = shapeCast S100000x1 (extractStridedSlice S100000 ![800000] vals Shapes1.Facts₀.slices_S1600000_S100000_800000)
          Shapes1.Facts₀.shapeCasts_S100000_S100000x1 := by
  unfold hostOps25
  after_results
  rw [hv]
  rfl

/-- Region 26's weights: the weights from 900000 on, as a column. -/
theorem kvals26 (Wb : Valuation τ sig (Elt Ideal)) (vals : FVec Ideal S1600000 .f32)
    (hv : Wb (Proc.devRef .tc main_arg2) = vals) :
    StableHlo.after hostOps26 Wb (Proc.devRef .tc main_v112)
      = shapeCast S100000x1 (extractStridedSlice S100000 ![900000] vals Shapes1.Facts₀.slices_S1600000_S100000_900000)
          Shapes1.Facts₀.shapeCasts_S100000_S100000x1 := by
  unfold hostOps26
  after_results
  rw [hv]
  rfl

/-- Region 27's weights: the weights from 1000000 on, as a column. -/
theorem kvals27 (Wb : Valuation τ sig (Elt Ideal)) (vals : FVec Ideal S1600000 .f32)
    (hv : Wb (Proc.devRef .tc main_arg2) = vals) :
    StableHlo.after hostOps27 Wb (Proc.devRef .tc main_v116)
      = shapeCast S100000x1 (extractStridedSlice S100000 ![1000000] vals Shapes1.Facts₀.slices_S1600000_S100000_1000000)
          Shapes1.Facts₀.shapeCasts_S100000_S100000x1 := by
  unfold hostOps27
  after_results
  rw [hv]
  rfl

/-- Region 28's weights: the weights from 1100000 on, as a column. -/
theorem kvals28 (Wb : Valuation τ sig (Elt Ideal)) (vals : FVec Ideal S1600000 .f32)
    (hv : Wb (Proc.devRef .tc main_arg2) = vals) :
    StableHlo.after hostOps28 Wb (Proc.devRef .tc main_v120)
      = shapeCast S100000x1 (extractStridedSlice S100000 ![1100000] vals Shapes1.Facts₀.slices_S1600000_S100000_1100000)
          Shapes1.Facts₀.shapeCasts_S100000_S100000x1 := by
  unfold hostOps28
  after_results
  rw [hv]
  rfl

/-- Region 29's weights: the weights from 1200000 on, as a column. -/
theorem kvals29 (Wb : Valuation τ sig (Elt Ideal)) (vals : FVec Ideal S1600000 .f32)
    (hv : Wb (Proc.devRef .tc main_arg2) = vals) :
    StableHlo.after hostOps29 Wb (Proc.devRef .tc main_v124)
      = shapeCast S100000x1 (extractStridedSlice S100000 ![1200000] vals Shapes1.Facts₀.slices_S1600000_S100000_1200000)
          Shapes1.Facts₀.shapeCasts_S100000_S100000x1 := by
  unfold hostOps29
  after_results
  rw [hv]
  rfl

/-- Region 30's weights: the weights from 1300000 on, as a column. -/
theorem kvals30 (Wb : Valuation τ sig (Elt Ideal)) (vals : FVec Ideal S1600000 .f32)
    (hv : Wb (Proc.devRef .tc main_arg2) = vals) :
    StableHlo.after hostOps30 Wb (Proc.devRef .tc main_v128)
      = shapeCast S100000x1 (extractStridedSlice S100000 ![1300000] vals Shapes1.Facts₀.slices_S1600000_S100000_1300000)
          Shapes1.Facts₀.shapeCasts_S100000_S100000x1 := by
  unfold hostOps30
  after_results
  rw [hv]
  rfl

/-- Region 31's weights: the weights from 1400000 on, as a column. -/
theorem kvals31 (Wb : Valuation τ sig (Elt Ideal)) (vals : FVec Ideal S1600000 .f32)
    (hv : Wb (Proc.devRef .tc main_arg2) = vals) :
    StableHlo.after hostOps31 Wb (Proc.devRef .tc main_v132)
      = shapeCast S100000x1 (extractStridedSlice S100000 ![1400000] vals Shapes1.Facts₀.slices_S1600000_S100000_1400000)
          Shapes1.Facts₀.shapeCasts_S100000_S100000x1 := by
  unfold hostOps31
  after_results
  rw [hv]
  rfl

/-- Region 32's weights: the weights from 1500000 on, as a column. -/
theorem kvals32 (Wb : Valuation τ sig (Elt Ideal)) (vals : FVec Ideal S1600000 .f32)
    (hv : Wb (Proc.devRef .tc main_arg2) = vals) :
    StableHlo.after hostOps32 Wb (Proc.devRef .tc main_v136)
      = shapeCast S100000x1 (extractStridedSlice S100000 ![1500000] vals Shapes1.Facts₀.slices_S1600000_S100000_1500000)
          Shapes1.Facts₀.shapeCasts_S100000_S100000x1 := by
  unfold hostOps32
  after_results
  rw [hv]
  rfl

/-- Region 33's weights: the weights from 0 on, as a column. -/
theorem kvals33 (Wb : Valuation τ sig (Elt Ideal)) (vals : FVec Ideal S1600000 .f32)
    (hv : Wb (Proc.devRef .tc main_arg2) = vals) :
    StableHlo.after hostOps33 Wb (Proc.devRef .tc main_v145)
      = shapeCast S100000x1 (extractStridedSlice S100000 ![0] vals Shapes1.Facts₀.slices_S1600000_S100000_0)
          Shapes1.Facts₀.shapeCasts_S100000_S100000x1 := by
  unfold hostOps33
  after_results
  rw [hv]
  rfl

/-- Region 34's weights: the weights from 100000 on, as a column. -/
theorem kvals34 (Wb : Valuation τ sig (Elt Ideal)) (vals : FVec Ideal S1600000 .f32)
    (hv : Wb (Proc.devRef .tc main_arg2) = vals) :
    StableHlo.after hostOps34 Wb (Proc.devRef .tc main_v149)
      = shapeCast S100000x1 (extractStridedSlice S100000 ![100000] vals Shapes1.Facts₀.slices_S1600000_S100000_100000)
          Shapes1.Facts₀.shapeCasts_S100000_S100000x1 := by
  unfold hostOps34
  after_results
  rw [hv]
  rfl

/-- Region 35's weights: the weights from 200000 on, as a column. -/
theorem kvals35 (Wb : Valuation τ sig (Elt Ideal)) (vals : FVec Ideal S1600000 .f32)
    (hv : Wb (Proc.devRef .tc main_arg2) = vals) :
    StableHlo.after hostOps35 Wb (Proc.devRef .tc main_v153)
      = shapeCast S100000x1 (extractStridedSlice S100000 ![200000] vals Shapes1.Facts₀.slices_S1600000_S100000_200000)
          Shapes1.Facts₀.shapeCasts_S100000_S100000x1 := by
  unfold hostOps35
  after_results
  rw [hv]
  rfl

/-- Region 36's weights: the weights from 300000 on, as a column. -/
theorem kvals36 (Wb : Valuation τ sig (Elt Ideal)) (vals : FVec Ideal S1600000 .f32)
    (hv : Wb (Proc.devRef .tc main_arg2) = vals) :
    StableHlo.after hostOps36 Wb (Proc.devRef .tc main_v157)
      = shapeCast S100000x1 (extractStridedSlice S100000 ![300000] vals Shapes1.Facts₀.slices_S1600000_S100000_300000)
          Shapes1.Facts₀.shapeCasts_S100000_S100000x1 := by
  unfold hostOps36
  after_results
  rw [hv]
  rfl

/-- Region 37's weights: the weights from 400000 on, as a column. -/
theorem kvals37 (Wb : Valuation τ sig (Elt Ideal)) (vals : FVec Ideal S1600000 .f32)
    (hv : Wb (Proc.devRef .tc main_arg2) = vals) :
    StableHlo.after hostOps37 Wb (Proc.devRef .tc main_v161)
      = shapeCast S100000x1 (extractStridedSlice S100000 ![400000] vals Shapes1.Facts₀.slices_S1600000_S100000_400000)
          Shapes1.Facts₀.shapeCasts_S100000_S100000x1 := by
  unfold hostOps37
  after_results
  rw [hv]
  rfl

/-- Region 38's weights: the weights from 500000 on, as a column. -/
theorem kvals38 (Wb : Valuation τ sig (Elt Ideal)) (vals : FVec Ideal S1600000 .f32)
    (hv : Wb (Proc.devRef .tc main_arg2) = vals) :
    StableHlo.after hostOps38 Wb (Proc.devRef .tc main_v165)
      = shapeCast S100000x1 (extractStridedSlice S100000 ![500000] vals Shapes1.Facts₀.slices_S1600000_S100000_500000)
          Shapes1.Facts₀.shapeCasts_S100000_S100000x1 := by
  unfold hostOps38
  after_results
  rw [hv]
  rfl

/-- Region 39's weights: the weights from 600000 on, as a column. -/
theorem kvals39 (Wb : Valuation τ sig (Elt Ideal)) (vals : FVec Ideal S1600000 .f32)
    (hv : Wb (Proc.devRef .tc main_arg2) = vals) :
    StableHlo.after hostOps39 Wb (Proc.devRef .tc main_v169)
      = shapeCast S100000x1 (extractStridedSlice S100000 ![600000] vals Shapes1.Facts₀.slices_S1600000_S100000_600000)
          Shapes1.Facts₀.shapeCasts_S100000_S100000x1 := by
  unfold hostOps39
  after_results
  rw [hv]
  rfl

/-- Region 40's weights: the weights from 700000 on, as a column. -/
theorem kvals40 (Wb : Valuation τ sig (Elt Ideal)) (vals : FVec Ideal S1600000 .f32)
    (hv : Wb (Proc.devRef .tc main_arg2) = vals) :
    StableHlo.after hostOps40 Wb (Proc.devRef .tc main_v173)
      = shapeCast S100000x1 (extractStridedSlice S100000 ![700000] vals Shapes1.Facts₀.slices_S1600000_S100000_700000)
          Shapes1.Facts₀.shapeCasts_S100000_S100000x1 := by
  unfold hostOps40
  after_results
  rw [hv]
  rfl

/-- Region 41's weights: the weights from 800000 on, as a column. -/
theorem kvals41 (Wb : Valuation τ sig (Elt Ideal)) (vals : FVec Ideal S1600000 .f32)
    (hv : Wb (Proc.devRef .tc main_arg2) = vals) :
    StableHlo.after hostOps41 Wb (Proc.devRef .tc main_v177)
      = shapeCast S100000x1 (extractStridedSlice S100000 ![800000] vals Shapes1.Facts₀.slices_S1600000_S100000_800000)
          Shapes1.Facts₀.shapeCasts_S100000_S100000x1 := by
  unfold hostOps41
  after_results
  rw [hv]
  rfl

/-- Region 42's weights: the weights from 900000 on, as a column. -/
theorem kvals42 (Wb : Valuation τ sig (Elt Ideal)) (vals : FVec Ideal S1600000 .f32)
    (hv : Wb (Proc.devRef .tc main_arg2) = vals) :
    StableHlo.after hostOps42 Wb (Proc.devRef .tc main_v181)
      = shapeCast S100000x1 (extractStridedSlice S100000 ![900000] vals Shapes1.Facts₀.slices_S1600000_S100000_900000)
          Shapes1.Facts₀.shapeCasts_S100000_S100000x1 := by
  unfold hostOps42
  after_results
  rw [hv]
  rfl

/-- Region 43's weights: the weights from 1000000 on, as a column. -/
theorem kvals43 (Wb : Valuation τ sig (Elt Ideal)) (vals : FVec Ideal S1600000 .f32)
    (hv : Wb (Proc.devRef .tc main_arg2) = vals) :
    StableHlo.after hostOps43 Wb (Proc.devRef .tc main_v185)
      = shapeCast S100000x1 (extractStridedSlice S100000 ![1000000] vals Shapes1.Facts₀.slices_S1600000_S100000_1000000)
          Shapes1.Facts₀.shapeCasts_S100000_S100000x1 := by
  unfold hostOps43
  after_results
  rw [hv]
  rfl

/-- Region 44's weights: the weights from 1100000 on, as a column. -/
theorem kvals44 (Wb : Valuation τ sig (Elt Ideal)) (vals : FVec Ideal S1600000 .f32)
    (hv : Wb (Proc.devRef .tc main_arg2) = vals) :
    StableHlo.after hostOps44 Wb (Proc.devRef .tc main_v189)
      = shapeCast S100000x1 (extractStridedSlice S100000 ![1100000] vals Shapes1.Facts₀.slices_S1600000_S100000_1100000)
          Shapes1.Facts₀.shapeCasts_S100000_S100000x1 := by
  unfold hostOps44
  after_results
  rw [hv]
  rfl

/-- Region 45's weights: the weights from 1200000 on, as a column. -/
theorem kvals45 (Wb : Valuation τ sig (Elt Ideal)) (vals : FVec Ideal S1600000 .f32)
    (hv : Wb (Proc.devRef .tc main_arg2) = vals) :
    StableHlo.after hostOps45 Wb (Proc.devRef .tc main_v193)
      = shapeCast S100000x1 (extractStridedSlice S100000 ![1200000] vals Shapes1.Facts₀.slices_S1600000_S100000_1200000)
          Shapes1.Facts₀.shapeCasts_S100000_S100000x1 := by
  unfold hostOps45
  after_results
  rw [hv]
  rfl

/-- Region 46's weights: the weights from 1300000 on, as a column. -/
theorem kvals46 (Wb : Valuation τ sig (Elt Ideal)) (vals : FVec Ideal S1600000 .f32)
    (hv : Wb (Proc.devRef .tc main_arg2) = vals) :
    StableHlo.after hostOps46 Wb (Proc.devRef .tc main_v197)
      = shapeCast S100000x1 (extractStridedSlice S100000 ![1300000] vals Shapes1.Facts₀.slices_S1600000_S100000_1300000)
          Shapes1.Facts₀.shapeCasts_S100000_S100000x1 := by
  unfold hostOps46
  after_results
  rw [hv]
  rfl

/-- Region 47's weights: the weights from 1400000 on, as a column. -/
theorem kvals47 (Wb : Valuation τ sig (Elt Ideal)) (vals : FVec Ideal S1600000 .f32)
    (hv : Wb (Proc.devRef .tc main_arg2) = vals) :
    StableHlo.after hostOps47 Wb (Proc.devRef .tc main_v201)
      = shapeCast S100000x1 (extractStridedSlice S100000 ![1400000] vals Shapes1.Facts₀.slices_S1600000_S100000_1400000)
          Shapes1.Facts₀.shapeCasts_S100000_S100000x1 := by
  unfold hostOps47
  after_results
  rw [hv]
  rfl

/-- Region 48's weights: the weights from 1500000 on, as a column. -/
theorem kvals48 (Wb : Valuation τ sig (Elt Ideal)) (vals : FVec Ideal S1600000 .f32)
    (hv : Wb (Proc.devRef .tc main_arg2) = vals) :
    StableHlo.after hostOps48 Wb (Proc.devRef .tc main_v205)
      = shapeCast S100000x1 (extractStridedSlice S100000 ![1500000] vals Shapes1.Facts₀.slices_S1600000_S100000_1500000)
          Shapes1.Facts₀.shapeCasts_S100000_S100000x1 := by
  unfold hostOps48
  after_results
  rw [hv]
  rfl

end Cert.Value

end
-- ==== Proof.Val.KOut1.lean ====
/-
  WHAT GATHER REGION 1 LEAVES IN ITS OUTPUT ARRAY, over the chain of boundary contents. The region is entered at
  boundary 4 and left at boundary 5. At its exit its output array holds what the pipeline's write-backs leave, which
  is one function of the region's three operands as the entry boundary has them: the table of rows (the far
  operand), the table of row numbers and the column of weights. The host stretch before the region makes the last two
  as the slices at offset 0 of the two long argument lists, which no segment ever writes; so, every word of the list
  of row numbers being a row of the table, the output array is chunk 0 of the weighted rows of the table.
-/
import proofs.«421643_j28415503630349_2_alg».proof.Proof.KI.Tables
import proofs.«421643_j28415503630349_2_alg».proof.Proof.Val.ChunkArray1
import proofs.«421643_j28415503630349_2_alg».proof.Proof.Val.KVals

set_option maxRecDepth 16384

noncomputable section

namespace Cert.Value

open Cert.KernelIdeal Cert.KernelIdeal.Gen Cert.KernelIdeal.Hand
open Idealize.ShloMosaic Idealize.ShloMosaic.TcCoe
open Idealize.SL.Sem

attribute [local irreducible] W3 in
/-- The output array of region 1 at its exit is chunk 0 of the weighted rows of the table the region entered with. -/
theorem kout1 (m : (ℓ : Loc nD τ sig) → Buf (Elt Ideal) ℓ)
    (hcols : ∀ (c : Dev nD) (e : S1600000.Idx), (m ((c.tc : Thread nD τ).loc main_arg4) e).toNat < 100000)
    (c : Dev nD) :
    W5 m c main_v8
      = chunkSpec (W4 m c main_v3) (m ((c.tc : Thread nD τ).loc main_arg4)) (m ((c.tc : Thread nD τ).loc main_arg2))
          (hcols c) (0 : Fin 16) := by
  -- one core: every core is core 0, the one the table's admissible contents are read at
  obtain rfl : c = 0 := Subsingleton.elim _ _
  -- the exit boundary at the output array is the pipeline's final array
  have harr : W5 m 0 main_v8
      = (dat1 (Vof (W4 m)) (adm1 m) (outBlk1 (Vof (W4 m)) (adm1 m)) 0).arrAt 1 (cfg1 (adm1 m)).N :=
    Wout1_arr (W4 m) (adm1 m) (outBlk1 (Vof (W4 m)) (adm1 m)) 0 1
  -- which is the one function of the operands at the entry boundary
  have hbody := chunk_array1_body (Vof (W4 m)) (adm1 m) (tbl_lt1 m hcols) 0
  -- the table of row numbers is the slice of the argument list
  have ht : tbl1 (adm1 m)
      = extractStridedSlice T100000 ![0] (m (((0 : Dev nD).tc : Thread nD τ).loc main_arg4)) slices_S1600000_S100000_0 := by
    show W4 m 0 main_v5 = _
    rw [tbl_eq1 m 0, W3_arg4 m 0]
  -- the column of weights is the slice of the argument list, as a column
  have hw : wts1 (Vof (W4 m)) 0
      = shapeCast T100000x1
          (extractStridedSlice T100000 ![0] (m (((0 : Dev nD).tc : Thread nD τ).loc main_arg2)) slices_S1600000_S100000_0)
          shapeCasts_S100000_S100000x1 :=
    kvals1 (W3 m 0) (m (((0 : Dev nD).tc : Thread nD τ).loc main_arg2)) (W3_arg2 m 0)
  exact harr.trans (hbody.trans
    (chunkG1_eq_chunkSpec (Vof (W4 m)) (adm1 m) (tbl_lt1 m hcols) 0
      (W4 m 0 main_v3) (m (((0 : Dev nD).tc : Thread nD τ).loc main_arg4))
      (m (((0 : Dev nD).tc : Thread nD τ).loc main_arg2)) (hcols 0) (0 : Fin 16) 0 (by decide)
      slices_S1600000_S100000_0 shapeCasts_S100000_S100000x1 rfl ht hw))

end Cert.Value

end
-- ==== Proof.Val.ChunkArrays_2_9.lean ====
/-
  Gather regions 2 to 9 of the host program, one after the other: for each, the region's output array as one function of the node table, the table's words and the weights,
  exactly as for region 1 (whose module says what each part is).
-/
import proofs.«421643_j28415503630349_2_alg».proof.Proof.KI.Regions_2_9
import proofs.«421643_j28415503630349_2_alg».proof.Proof.KI.GatherDefs
import proofs.«421643_j28415503630349_2_alg».proof.Proof.Val.GatherSpec
import proofs.«421643_j28415503630349_2_alg».proof.Proof.Val.Cover
import Idealize.ShloMosaic.Lib.Pipeline.Value
import Idealize.ShloMosaic.Lib.ValueIdx

set_option maxRecDepth 16384

noncomputable section

namespace Cert.Value

open Cert.KernelIdeal Cert.KernelIdeal.Gen Cert.KernelIdeal.Hand
open Idealize.ShloMosaic Idealize.ShloMosaic.TcCoe
open Idealize.SL.Sem
open Idealize.ShloMosaic.Pipeline (Dat Cfg Window UD)

/-! # Region 2 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg2 (F := Ideal)).Adm)
  (O : (c : Dev nD) → Fin (cfg2 a1).N → Vec Ideal S8x64 .f32)

/-- The grid has 12500 points. -/
theorem npoints2 : (cfg2 a1).N = 12500 := N_2

/-- A point's one coordinate is the point's number. -/
theorem coordsVal2 (t : Fin (cfg2 a1).N) : (((cfg2 a1).grid.coords t) 0).val = t.val := by
  have ht : t.val < 12500 := (npoints2 a1) ▸ t.isLt
  show t.val / grid2.stride 0 % 12500 = t.val
  rw [show grid2.stride 0 = 1 from by decide, Nat.div_one, Nat.mod_eq_of_lt ht]

/-- Both windows move with the point: block index (t, 0) at point t. -/
theorem idxInRow2 (t : Fin (cfg2 a1).N) : ((cfg2 a1).win 0).index t (0 : Fin 2) = t.val := by
  have ht : t.val < 12500 := (npoints2 a1) ▸ t.isLt
  show (BitVec.ofNat 32 (((cfg2 a1).grid.coords t) 0).val).toNat = t.val
  rw [coordsVal2, BitVec.toNat_ofNat, Nat.mod_eq_of_lt (by omega)]
theorem idxInCol2 (t : Fin (cfg2 a1).N) : ((cfg2 a1).win 0).index t (1 : Fin 2) = 0 := rfl
theorem idxOutRow2 (t : Fin (cfg2 a1).N) : ((cfg2 a1).win 1).index t (0 : Fin 2) = t.val := by
  have ht : t.val < 12500 := (npoints2 a1) ▸ t.isLt
  show (BitVec.ofNat 32 (((cfg2 a1).grid.coords t) 0).val).toNat = t.val
  rw [coordsVal2, BitVec.toNat_ofNat, Nat.mod_eq_of_lt (by omega)]
theorem idxOutCol2 (t : Fin (cfg2 a1).N) : ((cfg2 a1).win 1).index t (1 : Fin 2) = 0 := rfl

/-- The output window is written back at every point: the next point's block is another. -/
theorem flushOut2 (t : Fin (cfg2 a1).N) : ((cfg2 a1).win 1).flush t = true := by
  unfold Window.flush
  show (true && (decide (t.val + 1 = (cfg2 a1).N) || decide (∃ h : t.val + 1 < (cfg2 a1).N,
    ((cfg2 a1).win 1).index ⟨t.val + 1, h⟩ ≠ ((cfg2 a1).win 1).index t))) = true
  rw [Bool.true_and, Bool.or_eq_true, decide_eq_true_eq, decide_eq_true_eq]
  by_cases h : t.val + 1 = (cfg2 a1).N
  · exact Or.inl h
  · refine Or.inr ⟨by have := t.isLt; omega, fun e => ?_⟩
    have erow := congrFun e (0 : Fin 2)
    rw [idxOutRow2, idxOutRow2] at erow
    exact absurd erow (by show t.val + 1 ≠ t.val; omega)

/-! ## The operands at their literal types -/

/-- The table's words. -/
abbrev tbl2 : S100000.Idx → BitVec 32 := a1.1 0
/-- The far operand: the table of rows. -/
abbrev far2 (c : Dev nD) : S100000x64.Idx → EReal := V c main_v3
/-- The weights, as a column. -/
abbrev wts2 (c : Dev nD) : S100000x1.Idx → EReal := V c main_v11
/-- The input window's block at point t: eight weights. -/
abbrev inBlk2 (c : Dev nD) (t : Fin (cfg2 a1).N) : S8x1.Idx → EReal := iblk2 V a1 c 0 t

/-! ## The blocks -/

/-- Row r of the input window's block at point t is row 8 t + r of the column of weights. -/
theorem inBlk2_apply (c : Dev nD) (t : Fin (cfg2 a1).N) (r : Fin 8) (z : Fin 1) (k : S100000x1.Idx)
    (hkrow : (k 0).val = 8 * t.val + r.val) :
    inBlk2 V a1 c t (ValueIdx.ix2 r z) = wts2 V c k := by
  show wts2 V c ((((cfg2 a1).win 0).blk t).view.emb (ValueIdx.ix2 r z)) = wts2 V c k
  refine congrArg (wts2 V c) (funext fun a => Fin.ext ?_)
  match a with
  | ⟨0, _⟩ =>
    show ((cfg2 a1).win 0).index t (0 : Fin 2) * 8 + 1 * r.val = (k 0).val
    rw [idxInRow2, hkrow]; omega
  | ⟨1, _⟩ =>
    show ((cfg2 a1).win 0).index t (1 : Fin 2) * 1 + 1 * z.val = (k 1).val
    have hkcol : (k 1).val < 1 := idx2_lt1 k
    have hz : z.val < 1 := z.isLt
    rw [idxInCol2]; omega

/-- An index of the array is in point t's block iff each coordinate is in the block's range on its axis. -/
theorem mem_blkOut2 (t : Fin (cfg2 a1).N) (i : S100000x64.Idx) :
    i ∈ (((cfg2 a1).win 1).blk t).view.set ↔ ∀ a : Fin 2, ((cfg2 a1).win 1).index t a * S8x64.size a ≤ (i a).val
      ∧ (i a).val < ((cfg2 a1).win 1).index t a * S8x64.size a + S8x64.size a := by
  have hset : (((cfg2 a1).win 1).blk t).view.set = (((cfg2 a1).win 1).rect t : Rect S100000x64).set :=
    View.set_slice_whole main_v12 _
  have hmem : i ∈ (((cfg2 a1).win 1).rect t : Rect S100000x64).set ↔ ∀ a : Fin 2,
      ((cfg2 a1).win 1).index t a * S8x64.size a ≤ (i a).val
        ∧ (i a).val < ((cfg2 a1).win 1).index t a * S8x64.size a + S8x64.size a := Rect.mem_set_unit
  exact (Finset.ext_iff.mp hset i).trans hmem

/-- Every index of the array is in the block of the point its row over eight names. -/
theorem coverOut2 (i : S100000x64.Idx) :
    ∃ t : Fin (cfg2 a1).N, ((cfg2 a1).win 1).flush t = true ∧ i ∈ (((cfg2 a1).win 1).blk t).view.set := by
  have hirow : (i 0).val < 100000 := idx2_lt0 i
  have hicol : (i 1).val < 64 := idx2_lt1 i
  obtain ⟨t, ht⟩ : ∃ t : Fin (cfg2 a1).N, t.val = (i 0).val / 8 := ⟨⟨(i 0).val / 8, by rw [npoints2]; omega⟩, rfl⟩
  refine ⟨t, flushOut2 a1 t, ?_⟩
  rw [mem_blkOut2]
  intro a
  match a with
  | ⟨0, _⟩ =>
    show ((cfg2 a1).win 1).index t (0 : Fin 2) * 8 ≤ (i 0).val ∧ (i 0).val < ((cfg2 a1).win 1).index t (0 : Fin 2) * 8 + 8
    rw [idxOutRow2, ht]; omega
  | ⟨1, _⟩ =>
    show ((cfg2 a1).win 1).index t (1 : Fin 2) * 64 ≤ (i 1).val ∧ (i 1).val < ((cfg2 a1).win 1).index t (1 : Fin 2) * 64 + 64
    rw [idxOutCol2]; omega

/-! ## The array -/

/-- One weighted row at one column: the table row the e-th word names, at column j, times the e-th weight. -/
def chunkRow2 (hlt : ∀ y, (tbl2 a1 y).toNat < 100000) (c : Dev nD) (e : Fin 100000) (j : Fin 64) : EReal :=
  far2 V c (ValueIdx.ix2 ⟨(tbl2 a1 (ValueIdx.ix1 e)).toNat, hlt _⟩ j) * wts2 V c (ValueIdx.ix2 e (0 : Fin 1))

/-- The chunk's array as one function of the region's operands. -/
def chunkG2 (hlt : ∀ y, (tbl2 a1 y).toNat < 100000) (c : Dev nD) : S100000x64.Idx → EReal :=
  fun i => chunkRow2 V a1 hlt c (i 0) (i 1)

/-- Row r of point t's block lies in the table. -/
theorem row_lt2 (t : Fin (cfg2 a1).N) (r : Fin 8) : 8 * t.val + r.val < 100000 := by
  have ht : t.val < 12500 := (npoints2 a1) ▸ t.isLt
  have := r.isLt; omega

/-- WHAT POINT t WRITES BACK is block t of the chunk's array, when the body leaves in the output window's buffer,
    at (r, j), the table row that word 8 t + r names at column j times the input block's weight at (r, 0). -/
theorem flushedOut2_eq (hlt : ∀ y, (tbl2 a1 y).toNat < 100000)
    (hO : ∀ (c : Dev nD) (t : Fin (cfg2 a1).N) (r : Fin 8) (j : Fin 64), O c t (ValueIdx.ix2 r j)
      = far2 V c (ValueIdx.ix2 ⟨(tbl2 a1 (ValueIdx.ix1 ⟨8 * t.val + r.val, row_lt2 a1 t r⟩)).toNat, hlt _⟩ j)
        * inBlk2 V a1 c t (ValueIdx.ix2 r (0 : Fin 1)))
    (c : Dev nD) (t : Fin (cfg2 a1).N) :
    (dat2 V a1 O c).flushed 1 t = (((cfg2 a1).win 1).blk t).view.read (Elt Ideal) (chunkG2 V a1 hlt c) := by
  show ((cfg2 a1).win 1).cut ((cfg2 a1).grid.coords t) ((dat2 V a1 O c).after 1 t) = _
  rw [afterOut2]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG2 V a1 hlt c ((((cfg2 a1).win 1).blk t).view.emb (ValueIdx.ix2 r j))
  have hemb : (((cfg2 a1).win 1).blk t).view.emb (ValueIdx.ix2 r j)
      = (ValueIdx.ix2 ⟨8 * t.val + r.val, row_lt2 a1 t r⟩ j : S100000x64.Idx) := by
    funext a; apply Fin.ext
    match a with
    | ⟨0, _⟩ =>
      show ((cfg2 a1).win 1).index t (0 : Fin 2) * 8 + 1 * r.val = 8 * t.val + r.val
      rw [idxOutRow2]; omega
    | ⟨1, _⟩ =>
      show ((cfg2 a1).win 1).index t (1 : Fin 2) * 64 + 1 * j.val = j.val
      rw [idxOutCol2]; omega
  rw [hemb, hO c t r j,
    inBlk2_apply V a1 c t r 0 (ValueIdx.ix2 ⟨8 * t.val + r.val, row_lt2 a1 t r⟩ (0 : Fin 1)) rfl]
  rfl

/-- THE CHUNK'S ARRAY after the region: chunkG2. -/
theorem chunk_array2 (hlt : ∀ y, (tbl2 a1 y).toNat < 100000)
    (hO : ∀ (c : Dev nD) (t : Fin (cfg2 a1).N) (r : Fin 8) (j : Fin 64), O c t (ValueIdx.ix2 r j)
      = far2 V c (ValueIdx.ix2 ⟨(tbl2 a1 (ValueIdx.ix1 ⟨8 * t.val + r.val, row_lt2 a1 t r⟩)).toNat, hlt _⟩ j)
        * inBlk2 V a1 c t (ValueIdx.ix2 r (0 : Fin 1)))
    (c : Dev nD) :
    (dat2 V a1 O c).arrAt 1 (cfg2 a1).N = chunkG2 V a1 hlt c :=
  (dat2 V a1 O c).arrAt_eq_of_cover 1 (chunkG2 V a1 hlt c) (fun t _ => flushedOut2_eq V a1 O hlt hO c t) (coverOut2 a1)

/-! ## The body's own block -/

/-- Two rows of the far operand named by the same word are the same row. -/
theorem farRow2_congr (c : Dev nD) {e e' : Fin 100000} (h : e.val = e'.val) (j : Fin 64)
    (p : (tbl2 a1 (ValueIdx.ix1 e)).toNat < 100000) (p' : (tbl2 a1 (ValueIdx.ix1 e')).toNat < 100000) :
    far2 V c (ValueIdx.ix2 ⟨(tbl2 a1 (ValueIdx.ix1 e)).toNat, p⟩ j)
      = far2 V c (ValueIdx.ix2 ⟨(tbl2 a1 (ValueIdx.ix1 e')).toNat, p'⟩ j) := by
  obtain rfl : e = e' := Fin.ext h
  rfl

/-- The body's block at point t — the gathered rows scaled by the input block — has the entries hO asks. -/
theorem bodyBlk2_apply (hlt : ∀ y, (tbl2 a1 y).toNat < 100000) (c : Dev nD) (t : Fin (cfg2 a1).N) (r : Fin 8) (j : Fin 64) :
    gatherOut (gatherG (a1.1 0) (V c main_v3) (grid2.coords t)) (iblk2 V a1 c 0 t) (ValueIdx.ix2 r j)
      = far2 V c (ValueIdx.ix2 ⟨(tbl2 a1 (ValueIdx.ix1 ⟨8 * t.val + r.val, row_lt2 a1 t r⟩)).toNat, hlt _⟩ j)
        * inBlk2 V a1 c t (ValueIdx.ix2 r (0 : Fin 1)) := by
  have hpay : gatherOut (gatherG (a1.1 0) (V c main_v3) (grid2.coords t)) (iblk2 V a1 c 0 t) (ValueIdx.ix2 r j)
      = gatherG (F := Ideal) (tbl2 a1) (far2 V c) (grid2.coords t) (ValueIdx.ix2 r j) * inBlk2 V a1 c t (ValueIdx.ix2 r (0 : Fin 1)) :=
    Cert.Value.kernel_block (by decide) (by decide) (gatherG (F := Ideal) (tbl2 a1) (far2 V c) (grid2.coords t)) (inBlk2 V a1 c t) r j
  rw [hpay, gatherG_apply (F := Ideal) (tbl2 a1) (far2 V c) (grid2.coords t) r j (hlt _)]
  refine congrArg (· * inBlk2 V a1 c t (ValueIdx.ix2 r (0 : Fin 1))) ?_
  exact farRow2_congr V a1 c (by show 8 * ((grid2.coords t) 0).val + r.val = 8 * t.val + r.val; rw [coordsVal2 a1 t]) j _ _

/-- THE CHUNK'S ARRAY after the region, the output block being the body's own. -/
theorem chunk_array2_body (hlt : ∀ y, (tbl2 a1 y).toNat < 100000) (c : Dev nD) :
    (dat2 V a1 (fun c t => gatherOut (gatherG (a1.1 0) (V c main_v3) (grid2.coords t)) (iblk2 V a1 c 0 t)) c).arrAt 1 (cfg2 a1).N
      = chunkG2 V a1 hlt c :=
  chunk_array2 V a1 _ hlt (fun c t r j => bodyBlk2_apply V a1 hlt c t r j) c

/-! ## The array as a chunk of the weighted rows -/

/-- When the far operand is the table x, the region's table the slice of the row numbers cols at 100000 k and its
    weights the slice of vals there as a column, the region's array is chunk k of the weighted rows. -/
theorem chunkG2_eq_chunkSpec (hlt : ∀ y, (tbl2 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far2 V c = x) (ht : tbl2 a1 = extractStridedSlice Cert.Value.T100000 ![off] cols hsl)
    (hw : wts2 V c = shapeCast Cert.Value.T100000x1 (extractStridedSlice Cert.Value.T100000 ![off] vals hsl) hsc) :
    chunkG2 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl2 a1 (ValueIdx.ix1 e)).toNat, hlt _⟩ (congrArg (fun T : S100000.Idx → BitVec 32 => (T (ValueIdx.ix1 e)).toNat) ht), ← hx, ← hw]
  rfl

end Chunk

/-! # Region 3 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg3 (F := Ideal)).Adm)
  (O : (c : Dev nD) → Fin (cfg3 a1).N → Vec Ideal S8x64 .f32)

/-- The grid has 12500 points. -/
theorem npoints3 : (cfg3 a1).N = 12500 := N_3

/-- A point's one coordinate is the point's number. -/
theorem coordsVal3 (t : Fin (cfg3 a1).N) : (((cfg3 a1).grid.coords t) 0).val = t.val := by
  have ht : t.val < 12500 := (npoints3 a1) ▸ t.isLt
  show t.val / grid3.stride 0 % 12500 = t.val
  rw [show grid3.stride 0 = 1 from by decide, Nat.div_one, Nat.mod_eq_of_lt ht]

/-- Both windows move with the point: block index (t, 0) at point t. -/
theorem idxInRow3 (t : Fin (cfg3 a1).N) : ((cfg3 a1).win 0).index t (0 : Fin 2) = t.val := by
  have ht : t.val < 12500 := (npoints3 a1) ▸ t.isLt
  show (BitVec.ofNat 32 (((cfg3 a1).grid.coords t) 0).val).toNat = t.val
  rw [coordsVal3, BitVec.toNat_ofNat, Nat.mod_eq_of_lt (by omega)]
theorem idxInCol3 (t : Fin (cfg3 a1).N) : ((cfg3 a1).win 0).index t (1 : Fin 2) = 0 := rfl
theorem idxOutRow3 (t : Fin (cfg3 a1).N) : ((cfg3 a1).win 1).index t (0 : Fin 2) = t.val := by
  have ht : t.val < 12500 := (npoints3 a1) ▸ t.isLt
  show (BitVec.ofNat 32 (((cfg3 a1).grid.coords t) 0).val).toNat = t.val
  rw [coordsVal3, BitVec.toNat_ofNat, Nat.mod_eq_of_lt (by omega)]
theorem idxOutCol3 (t : Fin (cfg3 a1).N) : ((cfg3 a1).win 1).index t (1 : Fin 2) = 0 := rfl

/-- The output window is written back at every point: the next point's block is another. -/
theorem flushOut3 (t : Fin (cfg3 a1).N) : ((cfg3 a1).win 1).flush t = true := by
  unfold Window.flush
  show (true && (decide (t.val + 1 = (cfg3 a1).N) || decide (∃ h : t.val + 1 < (cfg3 a1).N,
    ((cfg3 a1).win 1).index ⟨t.val + 1, h⟩ ≠ ((cfg3 a1).win 1).index t))) = true
  rw [Bool.true_and, Bool.or_eq_true, decide_eq_true_eq, decide_eq_true_eq]
  by_cases h : t.val + 1 = (cfg3 a1).N
  · exact Or.inl h
  · refine Or.inr ⟨by have := t.isLt; omega, fun e => ?_⟩
    have erow := congrFun e (0 : Fin 2)
    rw [idxOutRow3, idxOutRow3] at erow
    exact absurd erow (by show t.val + 1 ≠ t.val; omega)

/-! ## The operands at their literal types -/

/-- The table's words. -/
abbrev tbl3 : S100000.Idx → BitVec 32 := a1.1 0
/-- The far operand: the table of rows. -/
abbrev far3 (c : Dev nD) : S100000x64.Idx → EReal := V c main_v3
/-- The weights, as a column. -/
abbrev wts3 (c : Dev nD) : S100000x1.Idx → EReal := V c main_v15
/-- The input window's block at point t: eight weights. -/
abbrev inBlk3 (c : Dev nD) (t : Fin (cfg3 a1).N) : S8x1.Idx → EReal := iblk3 V a1 c 0 t

/-! ## The blocks -/

/-- Row r of the input window's block at point t is row 8 t + r of the column of weights. -/
theorem inBlk3_apply (c : Dev nD) (t : Fin (cfg3 a1).N) (r : Fin 8) (z : Fin 1) (k : S100000x1.Idx)
    (hkrow : (k 0).val = 8 * t.val + r.val) :
    inBlk3 V a1 c t (ValueIdx.ix2 r z) = wts3 V c k := by
  show wts3 V c ((((cfg3 a1).win 0).blk t).view.emb (ValueIdx.ix2 r z)) = wts3 V c k
  refine congrArg (wts3 V c) (funext fun a => Fin.ext ?_)
  match a with
  | ⟨0, _⟩ =>
    show ((cfg3 a1).win 0).index t (0 : Fin 2) * 8 + 1 * r.val = (k 0).val
    rw [idxInRow3, hkrow]; omega
  | ⟨1, _⟩ =>
    show ((cfg3 a1).win 0).index t (1 : Fin 2) * 1 + 1 * z.val = (k 1).val
    have hkcol : (k 1).val < 1 := idx2_lt1 k
    have hz : z.val < 1 := z.isLt
    rw [idxInCol3]; omega

/-- An index of the array is in point t's block iff each coordinate is in the block's range on its axis. -/
theorem mem_blkOut3 (t : Fin (cfg3 a1).N) (i : S100000x64.Idx) :
    i ∈ (((cfg3 a1).win 1).blk t).view.set ↔ ∀ a : Fin 2, ((cfg3 a1).win 1).index t a * S8x64.size a ≤ (i a).val
      ∧ (i a).val < ((cfg3 a1).win 1).index t a * S8x64.size a + S8x64.size a := by
  have hset : (((cfg3 a1).win 1).blk t).view.set = (((cfg3 a1).win 1).rect t : Rect S100000x64).set :=
    View.set_slice_whole main_v16 _
  have hmem : i ∈ (((cfg3 a1).win 1).rect t : Rect S100000x64).set ↔ ∀ a : Fin 2,
      ((cfg3 a1).win 1).index t a * S8x64.size a ≤ (i a).val
        ∧ (i a).val < ((cfg3 a1).win 1).index t a * S8x64.size a + S8x64.size a := Rect.mem_set_unit
  exact (Finset.ext_iff.mp hset i).trans hmem

/-- Every index of the array is in the block of the point its row over eight names. -/
theorem coverOut3 (i : S100000x64.Idx) :
    ∃ t : Fin (cfg3 a1).N, ((cfg3 a1).win 1).flush t = true ∧ i ∈ (((cfg3 a1).win 1).blk t).view.set := by
  have hirow : (i 0).val < 100000 := idx2_lt0 i
  have hicol : (i 1).val < 64 := idx2_lt1 i
  obtain ⟨t, ht⟩ : ∃ t : Fin (cfg3 a1).N, t.val = (i 0).val / 8 := ⟨⟨(i 0).val / 8, by rw [npoints3]; omega⟩, rfl⟩
  refine ⟨t, flushOut3 a1 t, ?_⟩
  rw [mem_blkOut3]
  intro a
  match a with
  | ⟨0, _⟩ =>
    show ((cfg3 a1).win 1).index t (0 : Fin 2) * 8 ≤ (i 0).val ∧ (i 0).val < ((cfg3 a1).win 1).index t (0 : Fin 2) * 8 + 8
    rw [idxOutRow3, ht]; omega
  | ⟨1, _⟩ =>
    show ((cfg3 a1).win 1).index t (1 : Fin 2) * 64 ≤ (i 1).val ∧ (i 1).val < ((cfg3 a1).win 1).index t (1 : Fin 2) * 64 + 64
    rw [idxOutCol3]; omega

/-! ## The array -/

/-- One weighted row at one column: the table row the e-th word names, at column j, times the e-th weight. -/
def chunkRow3 (hlt : ∀ y, (tbl3 a1 y).toNat < 100000) (c : Dev nD) (e : Fin 100000) (j : Fin 64) : EReal :=
  far3 V c (ValueIdx.ix2 ⟨(tbl3 a1 (ValueIdx.ix1 e)).toNat, hlt _⟩ j) * wts3 V c (ValueIdx.ix2 e (0 : Fin 1))

/-- The chunk's array as one function of the region's operands. -/
def chunkG3 (hlt : ∀ y, (tbl3 a1 y).toNat < 100000) (c : Dev nD) : S100000x64.Idx → EReal :=
  fun i => chunkRow3 V a1 hlt c (i 0) (i 1)

/-- Row r of point t's block lies in the table. -/
theorem row_lt3 (t : Fin (cfg3 a1).N) (r : Fin 8) : 8 * t.val + r.val < 100000 := by
  have ht : t.val < 12500 := (npoints3 a1) ▸ t.isLt
  have := r.isLt; omega

/-- WHAT POINT t WRITES BACK is block t of the chunk's array, when the body leaves in the output window's buffer,
    at (r, j), the table row that word 8 t + r names at column j times the input block's weight at (r, 0). -/
theorem flushedOut3_eq (hlt : ∀ y, (tbl3 a1 y).toNat < 100000)
    (hO : ∀ (c : Dev nD) (t : Fin (cfg3 a1).N) (r : Fin 8) (j : Fin 64), O c t (ValueIdx.ix2 r j)
      = far3 V c (ValueIdx.ix2 ⟨(tbl3 a1 (ValueIdx.ix1 ⟨8 * t.val + r.val, row_lt3 a1 t r⟩)).toNat, hlt _⟩ j)
        * inBlk3 V a1 c t (ValueIdx.ix2 r (0 : Fin 1)))
    (c : Dev nD) (t : Fin (cfg3 a1).N) :
    (dat3 V a1 O c).flushed 1 t = (((cfg3 a1).win 1).blk t).view.read (Elt Ideal) (chunkG3 V a1 hlt c) := by
  show ((cfg3 a1).win 1).cut ((cfg3 a1).grid.coords t) ((dat3 V a1 O c).after 1 t) = _
  rw [afterOut3]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG3 V a1 hlt c ((((cfg3 a1).win 1).blk t).view.emb (ValueIdx.ix2 r j))
  have hemb : (((cfg3 a1).win 1).blk t).view.emb (ValueIdx.ix2 r j)
      = (ValueIdx.ix2 ⟨8 * t.val + r.val, row_lt3 a1 t r⟩ j : S100000x64.Idx) := by
    funext a; apply Fin.ext
    match a with
    | ⟨0, _⟩ =>
      show ((cfg3 a1).win 1).index t (0 : Fin 2) * 8 + 1 * r.val = 8 * t.val + r.val
      rw [idxOutRow3]; omega
    | ⟨1, _⟩ =>
      show ((cfg3 a1).win 1).index t (1 : Fin 2) * 64 + 1 * j.val = j.val
      rw [idxOutCol3]; omega
  rw [hemb, hO c t r j,
    inBlk3_apply V a1 c t r 0 (ValueIdx.ix2 ⟨8 * t.val + r.val, row_lt3 a1 t r⟩ (0 : Fin 1)) rfl]
  rfl

/-- THE CHUNK'S ARRAY after the region: chunkG3. -/
theorem chunk_array3 (hlt : ∀ y, (tbl3 a1 y).toNat < 100000)
    (hO : ∀ (c : Dev nD) (t : Fin (cfg3 a1).N) (r : Fin 8) (j : Fin 64), O c t (ValueIdx.ix2 r j)
      = far3 V c (ValueIdx.ix2 ⟨(tbl3 a1 (ValueIdx.ix1 ⟨8 * t.val + r.val, row_lt3 a1 t r⟩)).toNat, hlt _⟩ j)
        * inBlk3 V a1 c t (ValueIdx.ix2 r (0 : Fin 1)))
    (c : Dev nD) :
    (dat3 V a1 O c).arrAt 1 (cfg3 a1).N = chunkG3 V a1 hlt c :=
  (dat3 V a1 O c).arrAt_eq_of_cover 1 (chunkG3 V a1 hlt c) (fun t _ => flushedOut3_eq V a1 O hlt hO c t) (coverOut3 a1)

/-! ## The body's own block -/

/-- Two rows of the far operand named by the same word are the same row. -/
theorem farRow3_congr (c : Dev nD) {e e' : Fin 100000} (h : e.val = e'.val) (j : Fin 64)
    (p : (tbl3 a1 (ValueIdx.ix1 e)).toNat < 100000) (p' : (tbl3 a1 (ValueIdx.ix1 e')).toNat < 100000) :
    far3 V c (ValueIdx.ix2 ⟨(tbl3 a1 (ValueIdx.ix1 e)).toNat, p⟩ j)
      = far3 V c (ValueIdx.ix2 ⟨(tbl3 a1 (ValueIdx.ix1 e')).toNat, p'⟩ j) := by
  obtain rfl : e = e' := Fin.ext h
  rfl

/-- The body's block at point t — the gathered rows scaled by the input block — has the entries hO asks. -/
theorem bodyBlk3_apply (hlt : ∀ y, (tbl3 a1 y).toNat < 100000) (c : Dev nD) (t : Fin (cfg3 a1).N) (r : Fin 8) (j : Fin 64) :
    gatherOut (gatherG (a1.1 0) (V c main_v3) (grid3.coords t)) (iblk3 V a1 c 0 t) (ValueIdx.ix2 r j)
      = far3 V c (ValueIdx.ix2 ⟨(tbl3 a1 (ValueIdx.ix1 ⟨8 * t.val + r.val, row_lt3 a1 t r⟩)).toNat, hlt _⟩ j)
        * inBlk3 V a1 c t (ValueIdx.ix2 r (0 : Fin 1)) := by
  have hpay : gatherOut (gatherG (a1.1 0) (V c main_v3) (grid3.coords t)) (iblk3 V a1 c 0 t) (ValueIdx.ix2 r j)
      = gatherG (F := Ideal) (tbl3 a1) (far3 V c) (grid3.coords t) (ValueIdx.ix2 r j) * inBlk3 V a1 c t (ValueIdx.ix2 r (0 : Fin 1)) :=
    Cert.Value.kernel_block (by decide) (by decide) (gatherG (F := Ideal) (tbl3 a1) (far3 V c) (grid3.coords t)) (inBlk3 V a1 c t) r j
  rw [hpay, gatherG_apply (F := Ideal) (tbl3 a1) (far3 V c) (grid3.coords t) r j (hlt _)]
  refine congrArg (· * inBlk3 V a1 c t (ValueIdx.ix2 r (0 : Fin 1))) ?_
  exact farRow3_congr V a1 c (by show 8 * ((grid3.coords t) 0).val + r.val = 8 * t.val + r.val; rw [coordsVal3 a1 t]) j _ _

/-- THE CHUNK'S ARRAY after the region, the output block being the body's own. -/
theorem chunk_array3_body (hlt : ∀ y, (tbl3 a1 y).toNat < 100000) (c : Dev nD) :
    (dat3 V a1 (fun c t => gatherOut (gatherG (a1.1 0) (V c main_v3) (grid3.coords t)) (iblk3 V a1 c 0 t)) c).arrAt 1 (cfg3 a1).N
      = chunkG3 V a1 hlt c :=
  chunk_array3 V a1 _ hlt (fun c t r j => bodyBlk3_apply V a1 hlt c t r j) c

/-! ## The array as a chunk of the weighted rows -/

/-- When the far operand is the table x, the region's table the slice of the row numbers cols at 100000 k and its
    weights the slice of vals there as a column, the region's array is chunk k of the weighted rows. -/
theorem chunkG3_eq_chunkSpec (hlt : ∀ y, (tbl3 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far3 V c = x) (ht : tbl3 a1 = extractStridedSlice Cert.Value.T100000 ![off] cols hsl)
    (hw : wts3 V c = shapeCast Cert.Value.T100000x1 (extractStridedSlice Cert.Value.T100000 ![off] vals hsl) hsc) :
    chunkG3 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl3 a1 (ValueIdx.ix1 e)).toNat, hlt _⟩ (congrArg (fun T : S100000.Idx → BitVec 32 => (T (ValueIdx.ix1 e)).toNat) ht), ← hx, ← hw]
  rfl

end Chunk

/-! # Region 4 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg4 (F := Ideal)).Adm)
  (O : (c : Dev nD) → Fin (cfg4 a1).N → Vec Ideal S8x64 .f32)

/-- The grid has 12500 points. -/
theorem npoints4 : (cfg4 a1).N = 12500 := N_4

/-- A point's one coordinate is the point's number. -/
theorem coordsVal4 (t : Fin (cfg4 a1).N) : (((cfg4 a1).grid.coords t) 0).val = t.val := by
  have ht : t.val < 12500 := (npoints4 a1) ▸ t.isLt
  show t.val / grid4.stride 0 % 12500 = t.val
  rw [show grid4.stride 0 = 1 from by decide, Nat.div_one, Nat.mod_eq_of_lt ht]

/-- Both windows move with the point: block index (t, 0) at point t. -/
theorem idxInRow4 (t : Fin (cfg4 a1).N) : ((cfg4 a1).win 0).index t (0 : Fin 2) = t.val := by
  have ht : t.val < 12500 := (npoints4 a1) ▸ t.isLt
  show (BitVec.ofNat 32 (((cfg4 a1).grid.coords t) 0).val).toNat = t.val
  rw [coordsVal4, BitVec.toNat_ofNat, Nat.mod_eq_of_lt (by omega)]
theorem idxInCol4 (t : Fin (cfg4 a1).N) : ((cfg4 a1).win 0).index t (1 : Fin 2) = 0 := rfl
theorem idxOutRow4 (t : Fin (cfg4 a1).N) : ((cfg4 a1).win 1).index t (0 : Fin 2) = t.val := by
  have ht : t.val < 12500 := (npoints4 a1) ▸ t.isLt
  show (BitVec.ofNat 32 (((cfg4 a1).grid.coords t) 0).val).toNat = t.val
  rw [coordsVal4, BitVec.toNat_ofNat, Nat.mod_eq_of_lt (by omega)]
theorem idxOutCol4 (t : Fin (cfg4 a1).N) : ((cfg4 a1).win 1).index t (1 : Fin 2) = 0 := rfl

/-- The output window is written back at every point: the next point's block is another. -/
theorem flushOut4 (t : Fin (cfg4 a1).N) : ((cfg4 a1).win 1).flush t = true := by
  unfold Window.flush
  show (true && (decide (t.val + 1 = (cfg4 a1).N) || decide (∃ h : t.val + 1 < (cfg4 a1).N,
    ((cfg4 a1).win 1).index ⟨t.val + 1, h⟩ ≠ ((cfg4 a1).win 1).index t))) = true
  rw [Bool.true_and, Bool.or_eq_true, decide_eq_true_eq, decide_eq_true_eq]
  by_cases h : t.val + 1 = (cfg4 a1).N
  · exact Or.inl h
  · refine Or.inr ⟨by have := t.isLt; omega, fun e => ?_⟩
    have erow := congrFun e (0 : Fin 2)
    rw [idxOutRow4, idxOutRow4] at erow
    exact absurd erow (by show t.val + 1 ≠ t.val; omega)

/-! ## The operands at their literal types -/

/-- The table's words. -/
abbrev tbl4 : S100000.Idx → BitVec 32 := a1.1 0
/-- The far operand: the table of rows. -/
abbrev far4 (c : Dev nD) : S100000x64.Idx → EReal := V c main_v3
/-- The weights, as a column. -/
abbrev wts4 (c : Dev nD) : S100000x1.Idx → EReal := V c main_v19
/-- The input window's block at point t: eight weights. -/
abbrev inBlk4 (c : Dev nD) (t : Fin (cfg4 a1).N) : S8x1.Idx → EReal := iblk4 V a1 c 0 t

/-! ## The blocks -/

/-- Row r of the input window's block at point t is row 8 t + r of the column of weights. -/
theorem inBlk4_apply (c : Dev nD) (t : Fin (cfg4 a1).N) (r : Fin 8) (z : Fin 1) (k : S100000x1.Idx)
    (hkrow : (k 0).val = 8 * t.val + r.val) :
    inBlk4 V a1 c t (ValueIdx.ix2 r z) = wts4 V c k := by
  show wts4 V c ((((cfg4 a1).win 0).blk t).view.emb (ValueIdx.ix2 r z)) = wts4 V c k
  refine congrArg (wts4 V c) (funext fun a => Fin.ext ?_)
  match a with
  | ⟨0, _⟩ =>
    show ((cfg4 a1).win 0).index t (0 : Fin 2) * 8 + 1 * r.val = (k 0).val
    rw [idxInRow4, hkrow]; omega
  | ⟨1, _⟩ =>
    show ((cfg4 a1).win 0).index t (1 : Fin 2) * 1 + 1 * z.val = (k 1).val
    have hkcol : (k 1).val < 1 := idx2_lt1 k
    have hz : z.val < 1 := z.isLt
    rw [idxInCol4]; omega

/-- An index of the array is in point t's block iff each coordinate is in the block's range on its axis. -/
theorem mem_blkOut4 (t : Fin (cfg4 a1).N) (i : S100000x64.Idx) :
    i ∈ (((cfg4 a1).win 1).blk t).view.set ↔ ∀ a : Fin 2, ((cfg4 a1).win 1).index t a * S8x64.size a ≤ (i a).val
      ∧ (i a).val < ((cfg4 a1).win 1).index t a * S8x64.size a + S8x64.size a := by
  have hset : (((cfg4 a1).win 1).blk t).view.set = (((cfg4 a1).win 1).rect t : Rect S100000x64).set :=
    View.set_slice_whole main_v20 _
  have hmem : i ∈ (((cfg4 a1).win 1).rect t : Rect S100000x64).set ↔ ∀ a : Fin 2,
      ((cfg4 a1).win 1).index t a * S8x64.size a ≤ (i a).val
        ∧ (i a).val < ((cfg4 a1).win 1).index t a * S8x64.size a + S8x64.size a := Rect.mem_set_unit
  exact (Finset.ext_iff.mp hset i).trans hmem

/-- Every index of the array is in the block of the point its row over eight names. -/
theorem coverOut4 (i : S100000x64.Idx) :
    ∃ t : Fin (cfg4 a1).N, ((cfg4 a1).win 1).flush t = true ∧ i ∈ (((cfg4 a1).win 1).blk t).view.set := by
  have hirow : (i 0).val < 100000 := idx2_lt0 i
  have hicol : (i 1).val < 64 := idx2_lt1 i
  obtain ⟨t, ht⟩ : ∃ t : Fin (cfg4 a1).N, t.val = (i 0).val / 8 := ⟨⟨(i 0).val / 8, by rw [npoints4]; omega⟩, rfl⟩
  refine ⟨t, flushOut4 a1 t, ?_⟩
  rw [mem_blkOut4]
  intro a
  match a with
  | ⟨0, _⟩ =>
    show ((cfg4 a1).win 1).index t (0 : Fin 2) * 8 ≤ (i 0).val ∧ (i 0).val < ((cfg4 a1).win 1).index t (0 : Fin 2) * 8 + 8
    rw [idxOutRow4, ht]; omega
  | ⟨1, _⟩ =>
    show ((cfg4 a1).win 1).index t (1 : Fin 2) * 64 ≤ (i 1).val ∧ (i 1).val < ((cfg4 a1).win 1).index t (1 : Fin 2) * 64 + 64
    rw [idxOutCol4]; omega

/-! ## The array -/

/-- One weighted row at one column: the table row the e-th word names, at column j, times the e-th weight. -/
def chunkRow4 (hlt : ∀ y, (tbl4 a1 y).toNat < 100000) (c : Dev nD) (e : Fin 100000) (j : Fin 64) : EReal :=
  far4 V c (ValueIdx.ix2 ⟨(tbl4 a1 (ValueIdx.ix1 e)).toNat, hlt _⟩ j) * wts4 V c (ValueIdx.ix2 e (0 : Fin 1))

/-- The chunk's array as one function of the region's operands. -/
def chunkG4 (hlt : ∀ y, (tbl4 a1 y).toNat < 100000) (c : Dev nD) : S100000x64.Idx → EReal :=
  fun i => chunkRow4 V a1 hlt c (i 0) (i 1)

/-- Row r of point t's block lies in the table. -/
theorem row_lt4 (t : Fin (cfg4 a1).N) (r : Fin 8) : 8 * t.val + r.val < 100000 := by
  have ht : t.val < 12500 := (npoints4 a1) ▸ t.isLt
  have := r.isLt; omega

/-- WHAT POINT t WRITES BACK is block t of the chunk's array, when the body leaves in the output window's buffer,
    at (r, j), the table row that word 8 t + r names at column j times the input block's weight at (r, 0). -/
theorem flushedOut4_eq (hlt : ∀ y, (tbl4 a1 y).toNat < 100000)
    (hO : ∀ (c : Dev nD) (t : Fin (cfg4 a1).N) (r : Fin 8) (j : Fin 64), O c t (ValueIdx.ix2 r j)
      = far4 V c (ValueIdx.ix2 ⟨(tbl4 a1 (ValueIdx.ix1 ⟨8 * t.val + r.val, row_lt4 a1 t r⟩)).toNat, hlt _⟩ j)
        * inBlk4 V a1 c t (ValueIdx.ix2 r (0 : Fin 1)))
    (c : Dev nD) (t : Fin (cfg4 a1).N) :
    (dat4 V a1 O c).flushed 1 t = (((cfg4 a1).win 1).blk t).view.read (Elt Ideal) (chunkG4 V a1 hlt c) := by
  show ((cfg4 a1).win 1).cut ((cfg4 a1).grid.coords t) ((dat4 V a1 O c).after 1 t) = _
  rw [afterOut4]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG4 V a1 hlt c ((((cfg4 a1).win 1).blk t).view.emb (ValueIdx.ix2 r j))
  have hemb : (((cfg4 a1).win 1).blk t).view.emb (ValueIdx.ix2 r j)
      = (ValueIdx.ix2 ⟨8 * t.val + r.val, row_lt4 a1 t r⟩ j : S100000x64.Idx) := by
    funext a; apply Fin.ext
    match a with
    | ⟨0, _⟩ =>
      show ((cfg4 a1).win 1).index t (0 : Fin 2) * 8 + 1 * r.val = 8 * t.val + r.val
      rw [idxOutRow4]; omega
    | ⟨1, _⟩ =>
      show ((cfg4 a1).win 1).index t (1 : Fin 2) * 64 + 1 * j.val = j.val
      rw [idxOutCol4]; omega
  rw [hemb, hO c t r j,
    inBlk4_apply V a1 c t r 0 (ValueIdx.ix2 ⟨8 * t.val + r.val, row_lt4 a1 t r⟩ (0 : Fin 1)) rfl]
  rfl

/-- THE CHUNK'S ARRAY after the region: chunkG4. -/
theorem chunk_array4 (hlt : ∀ y, (tbl4 a1 y).toNat < 100000)
    (hO : ∀ (c : Dev nD) (t : Fin (cfg4 a1).N) (r : Fin 8) (j : Fin 64), O c t (ValueIdx.ix2 r j)
      = far4 V c (ValueIdx.ix2 ⟨(tbl4 a1 (ValueIdx.ix1 ⟨8 * t.val + r.val, row_lt4 a1 t r⟩)).toNat, hlt _⟩ j)
        * inBlk4 V a1 c t (ValueIdx.ix2 r (0 : Fin 1)))
    (c : Dev nD) :
    (dat4 V a1 O c).arrAt 1 (cfg4 a1).N = chunkG4 V a1 hlt c :=
  (dat4 V a1 O c).arrAt_eq_of_cover 1 (chunkG4 V a1 hlt c) (fun t _ => flushedOut4_eq V a1 O hlt hO c t) (coverOut4 a1)

/-! ## The body's own block -/

/-- Two rows of the far operand named by the same word are the same row. -/
theorem farRow4_congr (c : Dev nD) {e e' : Fin 100000} (h : e.val = e'.val) (j : Fin 64)
    (p : (tbl4 a1 (ValueIdx.ix1 e)).toNat < 100000) (p' : (tbl4 a1 (ValueIdx.ix1 e')).toNat < 100000) :
    far4 V c (ValueIdx.ix2 ⟨(tbl4 a1 (ValueIdx.ix1 e)).toNat, p⟩ j)
      = far4 V c (ValueIdx.ix2 ⟨(tbl4 a1 (ValueIdx.ix1 e')).toNat, p'⟩ j) := by
  obtain rfl : e = e' := Fin.ext h
  rfl

/-- The body's block at point t — the gathered rows scaled by the input block — has the entries hO asks. -/
theorem bodyBlk4_apply (hlt : ∀ y, (tbl4 a1 y).toNat < 100000) (c : Dev nD) (t : Fin (cfg4 a1).N) (r : Fin 8) (j : Fin 64) :
    gatherOut (gatherG (a1.1 0) (V c main_v3) (grid4.coords t)) (iblk4 V a1 c 0 t) (ValueIdx.ix2 r j)
      = far4 V c (ValueIdx.ix2 ⟨(tbl4 a1 (ValueIdx.ix1 ⟨8 * t.val + r.val, row_lt4 a1 t r⟩)).toNat, hlt _⟩ j)
        * inBlk4 V a1 c t (ValueIdx.ix2 r (0 : Fin 1)) := by
  have hpay : gatherOut (gatherG (a1.1 0) (V c main_v3) (grid4.coords t)) (iblk4 V a1 c 0 t) (ValueIdx.ix2 r j)
      = gatherG (F := Ideal) (tbl4 a1) (far4 V c) (grid4.coords t) (ValueIdx.ix2 r j) * inBlk4 V a1 c t (ValueIdx.ix2 r (0 : Fin 1)) :=
    Cert.Value.kernel_block (by decide) (by decide) (gatherG (F := Ideal) (tbl4 a1) (far4 V c) (grid4.coords t)) (inBlk4 V a1 c t) r j
  rw [hpay, gatherG_apply (F := Ideal) (tbl4 a1) (far4 V c) (grid4.coords t) r j (hlt _)]
  refine congrArg (· * inBlk4 V a1 c t (ValueIdx.ix2 r (0 : Fin 1))) ?_
  exact farRow4_congr V a1 c (by show 8 * ((grid4.coords t) 0).val + r.val = 8 * t.val + r.val; rw [coordsVal4 a1 t]) j _ _

/-- THE CHUNK'S ARRAY after the region, the output block being the body's own. -/
theorem chunk_array4_body (hlt : ∀ y, (tbl4 a1 y).toNat < 100000) (c : Dev nD) :
    (dat4 V a1 (fun c t => gatherOut (gatherG (a1.1 0) (V c main_v3) (grid4.coords t)) (iblk4 V a1 c 0 t)) c).arrAt 1 (cfg4 a1).N
      = chunkG4 V a1 hlt c :=
  chunk_array4 V a1 _ hlt (fun c t r j => bodyBlk4_apply V a1 hlt c t r j) c

/-! ## The array as a chunk of the weighted rows -/

/-- When the far operand is the table x, the region's table the slice of the row numbers cols at 100000 k and its
    weights the slice of vals there as a column, the region's array is chunk k of the weighted rows. -/
theorem chunkG4_eq_chunkSpec (hlt : ∀ y, (tbl4 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far4 V c = x) (ht : tbl4 a1 = extractStridedSlice Cert.Value.T100000 ![off] cols hsl)
    (hw : wts4 V c = shapeCast Cert.Value.T100000x1 (extractStridedSlice Cert.Value.T100000 ![off] vals hsl) hsc) :
    chunkG4 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl4 a1 (ValueIdx.ix1 e)).toNat, hlt _⟩ (congrArg (fun T : S100000.Idx → BitVec 32 => (T (ValueIdx.ix1 e)).toNat) ht), ← hx, ← hw]
  rfl

end Chunk

/-! # Region 5 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg5 (F := Ideal)).Adm)
  (O : (c : Dev nD) → Fin (cfg5 a1).N → Vec Ideal S8x64 .f32)

/-- The grid has 12500 points. -/
theorem npoints5 : (cfg5 a1).N = 12500 := N_5

/-- A point's one coordinate is the point's number. -/
theorem coordsVal5 (t : Fin (cfg5 a1).N) : (((cfg5 a1).grid.coords t) 0).val = t.val := by
  have ht : t.val < 12500 := (npoints5 a1) ▸ t.isLt
  show t.val / grid5.stride 0 % 12500 = t.val
  rw [show grid5.stride 0 = 1 from by decide, Nat.div_one, Nat.mod_eq_of_lt ht]

/-- Both windows move with the point: block index (t, 0) at point t. -/
theorem idxInRow5 (t : Fin (cfg5 a1).N) : ((cfg5 a1).win 0).index t (0 : Fin 2) = t.val := by
  have ht : t.val < 12500 := (npoints5 a1) ▸ t.isLt
  show (BitVec.ofNat 32 (((cfg5 a1).grid.coords t) 0).val).toNat = t.val
  rw [coordsVal5, BitVec.toNat_ofNat, Nat.mod_eq_of_lt (by omega)]
theorem idxInCol5 (t : Fin (cfg5 a1).N) : ((cfg5 a1).win 0).index t (1 : Fin 2) = 0 := rfl
theorem idxOutRow5 (t : Fin (cfg5 a1).N) : ((cfg5 a1).win 1).index t (0 : Fin 2) = t.val := by
  have ht : t.val < 12500 := (npoints5 a1) ▸ t.isLt
  show (BitVec.ofNat 32 (((cfg5 a1).grid.coords t) 0).val).toNat = t.val
  rw [coordsVal5, BitVec.toNat_ofNat, Nat.mod_eq_of_lt (by omega)]
theorem idxOutCol5 (t : Fin (cfg5 a1).N) : ((cfg5 a1).win 1).index t (1 : Fin 2) = 0 := rfl

/-- The output window is written back at every point: the next point's block is another. -/
theorem flushOut5 (t : Fin (cfg5 a1).N) : ((cfg5 a1).win 1).flush t = true := by
  unfold Window.flush
  show (true && (decide (t.val + 1 = (cfg5 a1).N) || decide (∃ h : t.val + 1 < (cfg5 a1).N,
    ((cfg5 a1).win 1).index ⟨t.val + 1, h⟩ ≠ ((cfg5 a1).win 1).index t))) = true
  rw [Bool.true_and, Bool.or_eq_true, decide_eq_true_eq, decide_eq_true_eq]
  by_cases h : t.val + 1 = (cfg5 a1).N
  · exact Or.inl h
  · refine Or.inr ⟨by have := t.isLt; omega, fun e => ?_⟩
    have erow := congrFun e (0 : Fin 2)
    rw [idxOutRow5, idxOutRow5] at erow
    exact absurd erow (by show t.val + 1 ≠ t.val; omega)

/-! ## The operands at their literal types -/

/-- The table's words. -/
abbrev tbl5 : S100000.Idx → BitVec 32 := a1.1 0
/-- The far operand: the table of rows. -/
abbrev far5 (c : Dev nD) : S100000x64.Idx → EReal := V c main_v3
/-- The weights, as a column. -/
abbrev wts5 (c : Dev nD) : S100000x1.Idx → EReal := V c main_v23
/-- The input window's block at point t: eight weights. -/
abbrev inBlk5 (c : Dev nD) (t : Fin (cfg5 a1).N) : S8x1.Idx → EReal := iblk5 V a1 c 0 t

/-! ## The blocks -/

/-- Row r of the input window's block at point t is row 8 t + r of the column of weights. -/
theorem inBlk5_apply (c : Dev nD) (t : Fin (cfg5 a1).N) (r : Fin 8) (z : Fin 1) (k : S100000x1.Idx)
    (hkrow : (k 0).val = 8 * t.val + r.val) :
    inBlk5 V a1 c t (ValueIdx.ix2 r z) = wts5 V c k := by
  show wts5 V c ((((cfg5 a1).win 0).blk t).view.emb (ValueIdx.ix2 r z)) = wts5 V c k
  refine congrArg (wts5 V c) (funext fun a => Fin.ext ?_)
  match a with
  | ⟨0, _⟩ =>
    show ((cfg5 a1).win 0).index t (0 : Fin 2) * 8 + 1 * r.val = (k 0).val
    rw [idxInRow5, hkrow]; omega
  | ⟨1, _⟩ =>
    show ((cfg5 a1).win 0).index t (1 : Fin 2) * 1 + 1 * z.val = (k 1).val
    have hkcol : (k 1).val < 1 := idx2_lt1 k
    have hz : z.val < 1 := z.isLt
    rw [idxInCol5]; omega

/-- An index of the array is in point t's block iff each coordinate is in the block's range on its axis. -/
theorem mem_blkOut5 (t : Fin (cfg5 a1).N) (i : S100000x64.Idx) :
    i ∈ (((cfg5 a1).win 1).blk t).view.set ↔ ∀ a : Fin 2, ((cfg5 a1).win 1).index t a * S8x64.size a ≤ (i a).val
      ∧ (i a).val < ((cfg5 a1).win 1).index t a * S8x64.size a + S8x64.size a := by
  have hset : (((cfg5 a1).win 1).blk t).view.set = (((cfg5 a1).win 1).rect t : Rect S100000x64).set :=
    View.set_slice_whole main_v24 _
  have hmem : i ∈ (((cfg5 a1).win 1).rect t : Rect S100000x64).set ↔ ∀ a : Fin 2,
      ((cfg5 a1).win 1).index t a * S8x64.size a ≤ (i a).val
        ∧ (i a).val < ((cfg5 a1).win 1).index t a * S8x64.size a + S8x64.size a := Rect.mem_set_unit
  exact (Finset.ext_iff.mp hset i).trans hmem

/-- Every index of the array is in the block of the point its row over eight names. -/
theorem coverOut5 (i : S100000x64.Idx) :
    ∃ t : Fin (cfg5 a1).N, ((cfg5 a1).win 1).flush t = true ∧ i ∈ (((cfg5 a1).win 1).blk t).view.set := by
  have hirow : (i 0).val < 100000 := idx2_lt0 i
  have hicol : (i 1).val < 64 := idx2_lt1 i
  obtain ⟨t, ht⟩ : ∃ t : Fin (cfg5 a1).N, t.val = (i 0).val / 8 := ⟨⟨(i 0).val / 8, by rw [npoints5]; omega⟩, rfl⟩
  refine ⟨t, flushOut5 a1 t, ?_⟩
  rw [mem_blkOut5]
  intro a
  match a with
  | ⟨0, _⟩ =>
    show ((cfg5 a1).win 1).index t (0 : Fin 2) * 8 ≤ (i 0).val ∧ (i 0).val < ((cfg5 a1).win 1).index t (0 : Fin 2) * 8 + 8
    rw [idxOutRow5, ht]; omega
  | ⟨1, _⟩ =>
    show ((cfg5 a1).win 1).index t (1 : Fin 2) * 64 ≤ (i 1).val ∧ (i 1).val < ((cfg5 a1).win 1).index t (1 : Fin 2) * 64 + 64
    rw [idxOutCol5]; omega

/-! ## The array -/

/-- One weighted row at one column: the table row the e-th word names, at column j, times the e-th weight. -/
def chunkRow5 (hlt : ∀ y, (tbl5 a1 y).toNat < 100000) (c : Dev nD) (e : Fin 100000) (j : Fin 64) : EReal :=
  far5 V c (ValueIdx.ix2 ⟨(tbl5 a1 (ValueIdx.ix1 e)).toNat, hlt _⟩ j) * wts5 V c (ValueIdx.ix2 e (0 : Fin 1))

/-- The chunk's array as one function of the region's operands. -/
def chunkG5 (hlt : ∀ y, (tbl5 a1 y).toNat < 100000) (c : Dev nD) : S100000x64.Idx → EReal :=
  fun i => chunkRow5 V a1 hlt c (i 0) (i 1)

/-- Row r of point t's block lies in the table. -/
theorem row_lt5 (t : Fin (cfg5 a1).N) (r : Fin 8) : 8 * t.val + r.val < 100000 := by
  have ht : t.val < 12500 := (npoints5 a1) ▸ t.isLt
  have := r.isLt; omega

/-- WHAT POINT t WRITES BACK is block t of the chunk's array, when the body leaves in the output window's buffer,
    at (r, j), the table row that word 8 t + r names at column j times the input block's weight at (r, 0). -/
theorem flushedOut5_eq (hlt : ∀ y, (tbl5 a1 y).toNat < 100000)
    (hO : ∀ (c : Dev nD) (t : Fin (cfg5 a1).N) (r : Fin 8) (j : Fin 64), O c t (ValueIdx.ix2 r j)
      = far5 V c (ValueIdx.ix2 ⟨(tbl5 a1 (ValueIdx.ix1 ⟨8 * t.val + r.val, row_lt5 a1 t r⟩)).toNat, hlt _⟩ j)
        * inBlk5 V a1 c t (ValueIdx.ix2 r (0 : Fin 1)))
    (c : Dev nD) (t : Fin (cfg5 a1).N) :
    (dat5 V a1 O c).flushed 1 t = (((cfg5 a1).win 1).blk t).view.read (Elt Ideal) (chunkG5 V a1 hlt c) := by
  show ((cfg5 a1).win 1).cut ((cfg5 a1).grid.coords t) ((dat5 V a1 O c).after 1 t) = _
  rw [afterOut5]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG5 V a1 hlt c ((((cfg5 a1).win 1).blk t).view.emb (ValueIdx.ix2 r j))
  have hemb : (((cfg5 a1).win 1).blk t).view.emb (ValueIdx.ix2 r j)
      = (ValueIdx.ix2 ⟨8 * t.val + r.val, row_lt5 a1 t r⟩ j : S100000x64.Idx) := by
    funext a; apply Fin.ext
    match a with
    | ⟨0, _⟩ =>
      show ((cfg5 a1).win 1).index t (0 : Fin 2) * 8 + 1 * r.val = 8 * t.val + r.val
      rw [idxOutRow5]; omega
    | ⟨1, _⟩ =>
      show ((cfg5 a1).win 1).index t (1 : Fin 2) * 64 + 1 * j.val = j.val
      rw [idxOutCol5]; omega
  rw [hemb, hO c t r j,
    inBlk5_apply V a1 c t r 0 (ValueIdx.ix2 ⟨8 * t.val + r.val, row_lt5 a1 t r⟩ (0 : Fin 1)) rfl]
  rfl

/-- THE CHUNK'S ARRAY after the region: chunkG5. -/
theorem chunk_array5 (hlt : ∀ y, (tbl5 a1 y).toNat < 100000)
    (hO : ∀ (c : Dev nD) (t : Fin (cfg5 a1).N) (r : Fin 8) (j : Fin 64), O c t (ValueIdx.ix2 r j)
      = far5 V c (ValueIdx.ix2 ⟨(tbl5 a1 (ValueIdx.ix1 ⟨8 * t.val + r.val, row_lt5 a1 t r⟩)).toNat, hlt _⟩ j)
        * inBlk5 V a1 c t (ValueIdx.ix2 r (0 : Fin 1)))
    (c : Dev nD) :
    (dat5 V a1 O c).arrAt 1 (cfg5 a1).N = chunkG5 V a1 hlt c :=
  (dat5 V a1 O c).arrAt_eq_of_cover 1 (chunkG5 V a1 hlt c) (fun t _ => flushedOut5_eq V a1 O hlt hO c t) (coverOut5 a1)

/-! ## The body's own block -/

/-- Two rows of the far operand named by the same word are the same row. -/
theorem farRow5_congr (c : Dev nD) {e e' : Fin 100000} (h : e.val = e'.val) (j : Fin 64)
    (p : (tbl5 a1 (ValueIdx.ix1 e)).toNat < 100000) (p' : (tbl5 a1 (ValueIdx.ix1 e')).toNat < 100000) :
    far5 V c (ValueIdx.ix2 ⟨(tbl5 a1 (ValueIdx.ix1 e)).toNat, p⟩ j)
      = far5 V c (ValueIdx.ix2 ⟨(tbl5 a1 (ValueIdx.ix1 e')).toNat, p'⟩ j) := by
  obtain rfl : e = e' := Fin.ext h
  rfl

/-- The body's block at point t — the gathered rows scaled by the input block — has the entries hO asks. -/
theorem bodyBlk5_apply (hlt : ∀ y, (tbl5 a1 y).toNat < 100000) (c : Dev nD) (t : Fin (cfg5 a1).N) (r : Fin 8) (j : Fin 64) :
    gatherOut (gatherG (a1.1 0) (V c main_v3) (grid5.coords t)) (iblk5 V a1 c 0 t) (ValueIdx.ix2 r j)
      = far5 V c (ValueIdx.ix2 ⟨(tbl5 a1 (ValueIdx.ix1 ⟨8 * t.val + r.val, row_lt5 a1 t r⟩)).toNat, hlt _⟩ j)
        * inBlk5 V a1 c t (ValueIdx.ix2 r (0 : Fin 1)) := by
  have hpay : gatherOut (gatherG (a1.1 0) (V c main_v3) (grid5.coords t)) (iblk5 V a1 c 0 t) (ValueIdx.ix2 r j)
      = gatherG (F := Ideal) (tbl5 a1) (far5 V c) (grid5.coords t) (ValueIdx.ix2 r j) * inBlk5 V a1 c t (ValueIdx.ix2 r (0 : Fin 1)) :=
    Cert.Value.kernel_block (by decide) (by decide) (gatherG (F := Ideal) (tbl5 a1) (far5 V c) (grid5.coords t)) (inBlk5 V a1 c t) r j
  rw [hpay, gatherG_apply (F := Ideal) (tbl5 a1) (far5 V c) (grid5.coords t) r j (hlt _)]
  refine congrArg (· * inBlk5 V a1 c t (ValueIdx.ix2 r (0 : Fin 1))) ?_
  exact farRow5_congr V a1 c (by show 8 * ((grid5.coords t) 0).val + r.val = 8 * t.val + r.val; rw [coordsVal5 a1 t]) j _ _

/-- THE CHUNK'S ARRAY after the region, the output block being the body's own. -/
theorem chunk_array5_body (hlt : ∀ y, (tbl5 a1 y).toNat < 100000) (c : Dev nD) :
    (dat5 V a1 (fun c t => gatherOut (gatherG (a1.1 0) (V c main_v3) (grid5.coords t)) (iblk5 V a1 c 0 t)) c).arrAt 1 (cfg5 a1).N
      = chunkG5 V a1 hlt c :=
  chunk_array5 V a1 _ hlt (fun c t r j => bodyBlk5_apply V a1 hlt c t r j) c

/-! ## The array as a chunk of the weighted rows -/

/-- When the far operand is the table x, the region's table the slice of the row numbers cols at 100000 k and its
    weights the slice of vals there as a column, the region's array is chunk k of the weighted rows. -/
theorem chunkG5_eq_chunkSpec (hlt : ∀ y, (tbl5 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far5 V c = x) (ht : tbl5 a1 = extractStridedSlice Cert.Value.T100000 ![off] cols hsl)
    (hw : wts5 V c = shapeCast Cert.Value.T100000x1 (extractStridedSlice Cert.Value.T100000 ![off] vals hsl) hsc) :
    chunkG5 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl5 a1 (ValueIdx.ix1 e)).toNat, hlt _⟩ (congrArg (fun T : S100000.Idx → BitVec 32 => (T (ValueIdx.ix1 e)).toNat) ht), ← hx, ← hw]
  rfl

end Chunk

/-! # Region 6 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg6 (F := Ideal)).Adm)
  (O : (c : Dev nD) → Fin (cfg6 a1).N → Vec Ideal S8x64 .f32)

/-- The grid has 12500 points. -/
theorem npoints6 : (cfg6 a1).N = 12500 := N_6

/-- A point's one coordinate is the point's number. -/
theorem coordsVal6 (t : Fin (cfg6 a1).N) : (((cfg6 a1).grid.coords t) 0).val = t.val := by
  have ht : t.val < 12500 := (npoints6 a1) ▸ t.isLt
  show t.val / grid6.stride 0 % 12500 = t.val
  rw [show grid6.stride 0 = 1 from by decide, Nat.div_one, Nat.mod_eq_of_lt ht]

/-- Both windows move with the point: block index (t, 0) at point t. -/
theorem idxInRow6 (t : Fin (cfg6 a1).N) : ((cfg6 a1).win 0).index t (0 : Fin 2) = t.val := by
  have ht : t.val < 12500 := (npoints6 a1) ▸ t.isLt
  show (BitVec.ofNat 32 (((cfg6 a1).grid.coords t) 0).val).toNat = t.val
  rw [coordsVal6, BitVec.toNat_ofNat, Nat.mod_eq_of_lt (by omega)]
theorem idxInCol6 (t : Fin (cfg6 a1).N) : ((cfg6 a1).win 0).index t (1 : Fin 2) = 0 := rfl
theorem idxOutRow6 (t : Fin (cfg6 a1).N) : ((cfg6 a1).win 1).index t (0 : Fin 2) = t.val := by
  have ht : t.val < 12500 := (npoints6 a1) ▸ t.isLt
  show (BitVec.ofNat 32 (((cfg6 a1).grid.coords t) 0).val).toNat = t.val
  rw [coordsVal6, BitVec.toNat_ofNat, Nat.mod_eq_of_lt (by omega)]
theorem idxOutCol6 (t : Fin (cfg6 a1).N) : ((cfg6 a1).win 1).index t (1 : Fin 2) = 0 := rfl

/-- The output window is written back at every point: the next point's block is another. -/
theorem flushOut6 (t : Fin (cfg6 a1).N) : ((cfg6 a1).win 1).flush t = true := by
  unfold Window.flush
  show (true && (decide (t.val + 1 = (cfg6 a1).N) || decide (∃ h : t.val + 1 < (cfg6 a1).N,
    ((cfg6 a1).win 1).index ⟨t.val + 1, h⟩ ≠ ((cfg6 a1).win 1).index t))) = true
  rw [Bool.true_and, Bool.or_eq_true, decide_eq_true_eq, decide_eq_true_eq]
  by_cases h : t.val + 1 = (cfg6 a1).N
  · exact Or.inl h
  · refine Or.inr ⟨by have := t.isLt; omega, fun e => ?_⟩
    have erow := congrFun e (0 : Fin 2)
    rw [idxOutRow6, idxOutRow6] at erow
    exact absurd erow (by show t.val + 1 ≠ t.val; omega)

/-! ## The operands at their literal types -/

/-- The table's words. -/
abbrev tbl6 : S100000.Idx → BitVec 32 := a1.1 0
/-- The far operand: the table of rows. -/
abbrev far6 (c : Dev nD) : S100000x64.Idx → EReal := V c main_v3
/-- The weights, as a column. -/
abbrev wts6 (c : Dev nD) : S100000x1.Idx → EReal := V c main_v27
/-- The input window's block at point t: eight weights. -/
abbrev inBlk6 (c : Dev nD) (t : Fin (cfg6 a1).N) : S8x1.Idx → EReal := iblk6 V a1 c 0 t

/-! ## The blocks -/

/-- Row r of the input window's block at point t is row 8 t + r of the column of weights. -/
theorem inBlk6_apply (c : Dev nD) (t : Fin (cfg6 a1).N) (r : Fin 8) (z : Fin 1) (k : S100000x1.Idx)
    (hkrow : (k 0).val = 8 * t.val + r.val) :
    inBlk6 V a1 c t (ValueIdx.ix2 r z) = wts6 V c k := by
  show wts6 V c ((((cfg6 a1).win 0).blk t).view.emb (ValueIdx.ix2 r z)) = wts6 V c k
  refine congrArg (wts6 V c) (funext fun a => Fin.ext ?_)
  match a with
  | ⟨0, _⟩ =>
    show ((cfg6 a1).win 0).index t (0 : Fin 2) * 8 + 1 * r.val = (k 0).val
    rw [idxInRow6, hkrow]; omega
  | ⟨1, _⟩ =>
    show ((cfg6 a1).win 0).index t (1 : Fin 2) * 1 + 1 * z.val = (k 1).val
    have hkcol : (k 1).val < 1 := idx2_lt1 k
    have hz : z.val < 1 := z.isLt
    rw [idxInCol6]; omega

/-- An index of the array is in point t's block iff each coordinate is in the block's range on its axis. -/
theorem mem_blkOut6 (t : Fin (cfg6 a1).N) (i : S100000x64.Idx) :
    i ∈ (((cfg6 a1).win 1).blk t).view.set ↔ ∀ a : Fin 2, ((cfg6 a1).win 1).index t a * S8x64.size a ≤ (i a).val
      ∧ (i a).val < ((cfg6 a1).win 1).index t a * S8x64.size a + S8x64.size a := by
  have hset : (((cfg6 a1).win 1).blk t).view.set = (((cfg6 a1).win 1).rect t : Rect S100000x64).set :=
    View.set_slice_whole main_v28 _
  have hmem : i ∈ (((cfg6 a1).win 1).rect t : Rect S100000x64).set ↔ ∀ a : Fin 2,
      ((cfg6 a1).win 1).index t a * S8x64.size a ≤ (i a).val
        ∧ (i a).val < ((cfg6 a1).win 1).index t a * S8x64.size a + S8x64.size a := Rect.mem_set_unit
  exact (Finset.ext_iff.mp hset i).trans hmem

/-- Every index of the array is in the block of the point its row over eight names. -/
theorem coverOut6 (i : S100000x64.Idx) :
    ∃ t : Fin (cfg6 a1).N, ((cfg6 a1).win 1).flush t = true ∧ i ∈ (((cfg6 a1).win 1).blk t).view.set := by
  have hirow : (i 0).val < 100000 := idx2_lt0 i
  have hicol : (i 1).val < 64 := idx2_lt1 i
  obtain ⟨t, ht⟩ : ∃ t : Fin (cfg6 a1).N, t.val = (i 0).val / 8 := ⟨⟨(i 0).val / 8, by rw [npoints6]; omega⟩, rfl⟩
  refine ⟨t, flushOut6 a1 t, ?_⟩
  rw [mem_blkOut6]
  intro a
  match a with
  | ⟨0, _⟩ =>
    show ((cfg6 a1).win 1).index t (0 : Fin 2) * 8 ≤ (i 0).val ∧ (i 0).val < ((cfg6 a1).win 1).index t (0 : Fin 2) * 8 + 8
    rw [idxOutRow6, ht]; omega
  | ⟨1, _⟩ =>
    show ((cfg6 a1).win 1).index t (1 : Fin 2) * 64 ≤ (i 1).val ∧ (i 1).val < ((cfg6 a1).win 1).index t (1 : Fin 2) * 64 + 64
    rw [idxOutCol6]; omega

/-! ## The array -/

/-- One weighted row at one column: the table row the e-th word names, at column j, times the e-th weight. -/
def chunkRow6 (hlt : ∀ y, (tbl6 a1 y).toNat < 100000) (c : Dev nD) (e : Fin 100000) (j : Fin 64) : EReal :=
  far6 V c (ValueIdx.ix2 ⟨(tbl6 a1 (ValueIdx.ix1 e)).toNat, hlt _⟩ j) * wts6 V c (ValueIdx.ix2 e (0 : Fin 1))

/-- The chunk's array as one function of the region's operands. -/
def chunkG6 (hlt : ∀ y, (tbl6 a1 y).toNat < 100000) (c : Dev nD) : S100000x64.Idx → EReal :=
  fun i => chunkRow6 V a1 hlt c (i 0) (i 1)

/-- Row r of point t's block lies in the table. -/
theorem row_lt6 (t : Fin (cfg6 a1).N) (r : Fin 8) : 8 * t.val + r.val < 100000 := by
  have ht : t.val < 12500 := (npoints6 a1) ▸ t.isLt
  have := r.isLt; omega

/-- WHAT POINT t WRITES BACK is block t of the chunk's array, when the body leaves in the output window's buffer,
    at (r, j), the table row that word 8 t + r names at column j times the input block's weight at (r, 0). -/
theorem flushedOut6_eq (hlt : ∀ y, (tbl6 a1 y).toNat < 100000)
    (hO : ∀ (c : Dev nD) (t : Fin (cfg6 a1).N) (r : Fin 8) (j : Fin 64), O c t (ValueIdx.ix2 r j)
      = far6 V c (ValueIdx.ix2 ⟨(tbl6 a1 (ValueIdx.ix1 ⟨8 * t.val + r.val, row_lt6 a1 t r⟩)).toNat, hlt _⟩ j)
        * inBlk6 V a1 c t (ValueIdx.ix2 r (0 : Fin 1)))
    (c : Dev nD) (t : Fin (cfg6 a1).N) :
    (dat6 V a1 O c).flushed 1 t = (((cfg6 a1).win 1).blk t).view.read (Elt Ideal) (chunkG6 V a1 hlt c) := by
  show ((cfg6 a1).win 1).cut ((cfg6 a1).grid.coords t) ((dat6 V a1 O c).after 1 t) = _
  rw [afterOut6]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG6 V a1 hlt c ((((cfg6 a1).win 1).blk t).view.emb (ValueIdx.ix2 r j))
  have hemb : (((cfg6 a1).win 1).blk t).view.emb (ValueIdx.ix2 r j)
      = (ValueIdx.ix2 ⟨8 * t.val + r.val, row_lt6 a1 t r⟩ j : S100000x64.Idx) := by
    funext a; apply Fin.ext
    match a with
    | ⟨0, _⟩ =>
      show ((cfg6 a1).win 1).index t (0 : Fin 2) * 8 + 1 * r.val = 8 * t.val + r.val
      rw [idxOutRow6]; omega
    | ⟨1, _⟩ =>
      show ((cfg6 a1).win 1).index t (1 : Fin 2) * 64 + 1 * j.val = j.val
      rw [idxOutCol6]; omega
  rw [hemb, hO c t r j,
    inBlk6_apply V a1 c t r 0 (ValueIdx.ix2 ⟨8 * t.val + r.val, row_lt6 a1 t r⟩ (0 : Fin 1)) rfl]
  rfl

/-- THE CHUNK'S ARRAY after the region: chunkG6. -/
theorem chunk_array6 (hlt : ∀ y, (tbl6 a1 y).toNat < 100000)
    (hO : ∀ (c : Dev nD) (t : Fin (cfg6 a1).N) (r : Fin 8) (j : Fin 64), O c t (ValueIdx.ix2 r j)
      = far6 V c (ValueIdx.ix2 ⟨(tbl6 a1 (ValueIdx.ix1 ⟨8 * t.val + r.val, row_lt6 a1 t r⟩)).toNat, hlt _⟩ j)
        * inBlk6 V a1 c t (ValueIdx.ix2 r (0 : Fin 1)))
    (c : Dev nD) :
    (dat6 V a1 O c).arrAt 1 (cfg6 a1).N = chunkG6 V a1 hlt c :=
  (dat6 V a1 O c).arrAt_eq_of_cover 1 (chunkG6 V a1 hlt c) (fun t _ => flushedOut6_eq V a1 O hlt hO c t) (coverOut6 a1)

/-! ## The body's own block -/

/-- Two rows of the far operand named by the same word are the same row. -/
theorem farRow6_congr (c : Dev nD) {e e' : Fin 100000} (h : e.val = e'.val) (j : Fin 64)
    (p : (tbl6 a1 (ValueIdx.ix1 e)).toNat < 100000) (p' : (tbl6 a1 (ValueIdx.ix1 e')).toNat < 100000) :
    far6 V c (ValueIdx.ix2 ⟨(tbl6 a1 (ValueIdx.ix1 e)).toNat, p⟩ j)
      = far6 V c (ValueIdx.ix2 ⟨(tbl6 a1 (ValueIdx.ix1 e')).toNat, p'⟩ j) := by
  obtain rfl : e = e' := Fin.ext h
  rfl

/-- The body's block at point t — the gathered rows scaled by the input block — has the entries hO asks. -/
theorem bodyBlk6_apply (hlt : ∀ y, (tbl6 a1 y).toNat < 100000) (c : Dev nD) (t : Fin (cfg6 a1).N) (r : Fin 8) (j : Fin 64) :
    gatherOut (gatherG (a1.1 0) (V c main_v3) (grid6.coords t)) (iblk6 V a1 c 0 t) (ValueIdx.ix2 r j)
      = far6 V c (ValueIdx.ix2 ⟨(tbl6 a1 (ValueIdx.ix1 ⟨8 * t.val + r.val, row_lt6 a1 t r⟩)).toNat, hlt _⟩ j)
        * inBlk6 V a1 c t (ValueIdx.ix2 r (0 : Fin 1)) := by
  have hpay : gatherOut (gatherG (a1.1 0) (V c main_v3) (grid6.coords t)) (iblk6 V a1 c 0 t) (ValueIdx.ix2 r j)
      = gatherG (F := Ideal) (tbl6 a1) (far6 V c) (grid6.coords t) (ValueIdx.ix2 r j) * inBlk6 V a1 c t (ValueIdx.ix2 r (0 : Fin 1)) :=
    Cert.Value.kernel_block (by decide) (by decide) (gatherG (F := Ideal) (tbl6 a1) (far6 V c) (grid6.coords t)) (inBlk6 V a1 c t) r j
  rw [hpay, gatherG_apply (F := Ideal) (tbl6 a1) (far6 V c) (grid6.coords t) r j (hlt _)]
  refine congrArg (· * inBlk6 V a1 c t (ValueIdx.ix2 r (0 : Fin 1))) ?_
  exact farRow6_congr V a1 c (by show 8 * ((grid6.coords t) 0).val + r.val = 8 * t.val + r.val; rw [coordsVal6 a1 t]) j _ _

/-- THE CHUNK'S ARRAY after the region, the output block being the body's own. -/
theorem chunk_array6_body (hlt : ∀ y, (tbl6 a1 y).toNat < 100000) (c : Dev nD) :
    (dat6 V a1 (fun c t => gatherOut (gatherG (a1.1 0) (V c main_v3) (grid6.coords t)) (iblk6 V a1 c 0 t)) c).arrAt 1 (cfg6 a1).N
      = chunkG6 V a1 hlt c :=
  chunk_array6 V a1 _ hlt (fun c t r j => bodyBlk6_apply V a1 hlt c t r j) c

/-! ## The array as a chunk of the weighted rows -/

/-- When the far operand is the table x, the region's table the slice of the row numbers cols at 100000 k and its
    weights the slice of vals there as a column, the region's array is chunk k of the weighted rows. -/
theorem chunkG6_eq_chunkSpec (hlt : ∀ y, (tbl6 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far6 V c = x) (ht : tbl6 a1 = extractStridedSlice Cert.Value.T100000 ![off] cols hsl)
    (hw : wts6 V c = shapeCast Cert.Value.T100000x1 (extractStridedSlice Cert.Value.T100000 ![off] vals hsl) hsc) :
    chunkG6 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl6 a1 (ValueIdx.ix1 e)).toNat, hlt _⟩ (congrArg (fun T : S100000.Idx → BitVec 32 => (T (ValueIdx.ix1 e)).toNat) ht), ← hx, ← hw]
  rfl

end Chunk

/-! # Region 7 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg7 (F := Ideal)).Adm)
  (O : (c : Dev nD) → Fin (cfg7 a1).N → Vec Ideal S8x64 .f32)

/-- The grid has 12500 points. -/
theorem npoints7 : (cfg7 a1).N = 12500 := N_7

/-- A point's one coordinate is the point's number. -/
theorem coordsVal7 (t : Fin (cfg7 a1).N) : (((cfg7 a1).grid.coords t) 0).val = t.val := by
  have ht : t.val < 12500 := (npoints7 a1) ▸ t.isLt
  show t.val / grid7.stride 0 % 12500 = t.val
  rw [show grid7.stride 0 = 1 from by decide, Nat.div_one, Nat.mod_eq_of_lt ht]

/-- Both windows move with the point: block index (t, 0) at point t. -/
theorem idxInRow7 (t : Fin (cfg7 a1).N) : ((cfg7 a1).win 0).index t (0 : Fin 2) = t.val := by
  have ht : t.val < 12500 := (npoints7 a1) ▸ t.isLt
  show (BitVec.ofNat 32 (((cfg7 a1).grid.coords t) 0).val).toNat = t.val
  rw [coordsVal7, BitVec.toNat_ofNat, Nat.mod_eq_of_lt (by omega)]
theorem idxInCol7 (t : Fin (cfg7 a1).N) : ((cfg7 a1).win 0).index t (1 : Fin 2) = 0 := rfl
theorem idxOutRow7 (t : Fin (cfg7 a1).N) : ((cfg7 a1).win 1).index t (0 : Fin 2) = t.val := by
  have ht : t.val < 12500 := (npoints7 a1) ▸ t.isLt
  show (BitVec.ofNat 32 (((cfg7 a1).grid.coords t) 0).val).toNat = t.val
  rw [coordsVal7, BitVec.toNat_ofNat, Nat.mod_eq_of_lt (by omega)]
theorem idxOutCol7 (t : Fin (cfg7 a1).N) : ((cfg7 a1).win 1).index t (1 : Fin 2) = 0 := rfl

/-- The output window is written back at every point: the next point's block is another. -/
theorem flushOut7 (t : Fin (cfg7 a1).N) : ((cfg7 a1).win 1).flush t = true := by
  unfold Window.flush
  show (true && (decide (t.val + 1 = (cfg7 a1).N) || decide (∃ h : t.val + 1 < (cfg7 a1).N,
    ((cfg7 a1).win 1).index ⟨t.val + 1, h⟩ ≠ ((cfg7 a1).win 1).index t))) = true
  rw [Bool.true_and, Bool.or_eq_true, decide_eq_true_eq, decide_eq_true_eq]
  by_cases h : t.val + 1 = (cfg7 a1).N
  · exact Or.inl h
  · refine Or.inr ⟨by have := t.isLt; omega, fun e => ?_⟩
    have erow := congrFun e (0 : Fin 2)
    rw [idxOutRow7, idxOutRow7] at erow
    exact absurd erow (by show t.val + 1 ≠ t.val; omega)

/-! ## The operands at their literal types -/

/-- The table's words. -/
abbrev tbl7 : S100000.Idx → BitVec 32 := a1.1 0
/-- The far operand: the table of rows. -/
abbrev far7 (c : Dev nD) : S100000x64.Idx → EReal := V c main_v3
/-- The weights, as a column. -/
abbrev wts7 (c : Dev nD) : S100000x1.Idx → EReal := V c main_v31
/-- The input window's block at point t: eight weights. -/
abbrev inBlk7 (c : Dev nD) (t : Fin (cfg7 a1).N) : S8x1.Idx → EReal := iblk7 V a1 c 0 t

/-! ## The blocks -/

/-- Row r of the input window's block at point t is row 8 t + r of the column of weights. -/
theorem inBlk7_apply (c : Dev nD) (t : Fin (cfg7 a1).N) (r : Fin 8) (z : Fin 1) (k : S100000x1.Idx)
    (hkrow : (k 0).val = 8 * t.val + r.val) :
    inBlk7 V a1 c t (ValueIdx.ix2 r z) = wts7 V c k := by
  show wts7 V c ((((cfg7 a1).win 0).blk t).view.emb (ValueIdx.ix2 r z)) = wts7 V c k
  refine congrArg (wts7 V c) (funext fun a => Fin.ext ?_)
  match a with
  | ⟨0, _⟩ =>
    show ((cfg7 a1).win 0).index t (0 : Fin 2) * 8 + 1 * r.val = (k 0).val
    rw [idxInRow7, hkrow]; omega
  | ⟨1, _⟩ =>
    show ((cfg7 a1).win 0).index t (1 : Fin 2) * 1 + 1 * z.val = (k 1).val
    have hkcol : (k 1).val < 1 := idx2_lt1 k
    have hz : z.val < 1 := z.isLt
    rw [idxInCol7]; omega

/-- An index of the array is in point t's block iff each coordinate is in the block's range on its axis. -/
theorem mem_blkOut7 (t : Fin (cfg7 a1).N) (i : S100000x64.Idx) :
    i ∈ (((cfg7 a1).win 1).blk t).view.set ↔ ∀ a : Fin 2, ((cfg7 a1).win 1).index t a * S8x64.size a ≤ (i a).val
      ∧ (i a).val < ((cfg7 a1).win 1).index t a * S8x64.size a + S8x64.size a := by
  have hset : (((cfg7 a1).win 1).blk t).view.set = (((cfg7 a1).win 1).rect t : Rect S100000x64).set :=
    View.set_slice_whole main_v32 _
  have hmem : i ∈ (((cfg7 a1).win 1).rect t : Rect S100000x64).set ↔ ∀ a : Fin 2,
      ((cfg7 a1).win 1).index t a * S8x64.size a ≤ (i a).val
        ∧ (i a).val < ((cfg7 a1).win 1).index t a * S8x64.size a + S8x64.size a := Rect.mem_set_unit
  exact (Finset.ext_iff.mp hset i).trans hmem

/-- Every index of the array is in the block of the point its row over eight names. -/
theorem coverOut7 (i : S100000x64.Idx) :
    ∃ t : Fin (cfg7 a1).N, ((cfg7 a1).win 1).flush t = true ∧ i ∈ (((cfg7 a1).win 1).blk t).view.set := by
  have hirow : (i 0).val < 100000 := idx2_lt0 i
  have hicol : (i 1).val < 64 := idx2_lt1 i
  obtain ⟨t, ht⟩ : ∃ t : Fin (cfg7 a1).N, t.val = (i 0).val / 8 := ⟨⟨(i 0).val / 8, by rw [npoints7]; omega⟩, rfl⟩
  refine ⟨t, flushOut7 a1 t, ?_⟩
  rw [mem_blkOut7]
  intro a
  match a with
  | ⟨0, _⟩ =>
    show ((cfg7 a1).win 1).index t (0 : Fin 2) * 8 ≤ (i 0).val ∧ (i 0).val < ((cfg7 a1).win 1).index t (0 : Fin 2) * 8 + 8
    rw [idxOutRow7, ht]; omega
  | ⟨1, _⟩ =>
    show ((cfg7 a1).win 1).index t (1 : Fin 2) * 64 ≤ (i 1).val ∧ (i 1).val < ((cfg7 a1).win 1).index t (1 : Fin 2) * 64 + 64
    rw [idxOutCol7]; omega

/-! ## The array -/

/-- One weighted row at one column: the table row the e-th word names, at column j, times the e-th weight. -/
def chunkRow7 (hlt : ∀ y, (tbl7 a1 y).toNat < 100000) (c : Dev nD) (e : Fin 100000) (j : Fin 64) : EReal :=
  far7 V c (ValueIdx.ix2 ⟨(tbl7 a1 (ValueIdx.ix1 e)).toNat, hlt _⟩ j) * wts7 V c (ValueIdx.ix2 e (0 : Fin 1))

/-- The chunk's array as one function of the region's operands. -/
def chunkG7 (hlt : ∀ y, (tbl7 a1 y).toNat < 100000) (c : Dev nD) : S100000x64.Idx → EReal :=
  fun i => chunkRow7 V a1 hlt c (i 0) (i 1)

/-- Row r of point t's block lies in the table. -/
theorem row_lt7 (t : Fin (cfg7 a1).N) (r : Fin 8) : 8 * t.val + r.val < 100000 := by
  have ht : t.val < 12500 := (npoints7 a1) ▸ t.isLt
  have := r.isLt; omega

/-- WHAT POINT t WRITES BACK is block t of the chunk's array, when the body leaves in the output window's buffer,
    at (r, j), the table row that word 8 t + r names at column j times the input block's weight at (r, 0). -/
theorem flushedOut7_eq (hlt : ∀ y, (tbl7 a1 y).toNat < 100000)
    (hO : ∀ (c : Dev nD) (t : Fin (cfg7 a1).N) (r : Fin 8) (j : Fin 64), O c t (ValueIdx.ix2 r j)
      = far7 V c (ValueIdx.ix2 ⟨(tbl7 a1 (ValueIdx.ix1 ⟨8 * t.val + r.val, row_lt7 a1 t r⟩)).toNat, hlt _⟩ j)
        * inBlk7 V a1 c t (ValueIdx.ix2 r (0 : Fin 1)))
    (c : Dev nD) (t : Fin (cfg7 a1).N) :
    (dat7 V a1 O c).flushed 1 t = (((cfg7 a1).win 1).blk t).view.read (Elt Ideal) (chunkG7 V a1 hlt c) := by
  show ((cfg7 a1).win 1).cut ((cfg7 a1).grid.coords t) ((dat7 V a1 O c).after 1 t) = _
  rw [afterOut7]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG7 V a1 hlt c ((((cfg7 a1).win 1).blk t).view.emb (ValueIdx.ix2 r j))
  have hemb : (((cfg7 a1).win 1).blk t).view.emb (ValueIdx.ix2 r j)
      = (ValueIdx.ix2 ⟨8 * t.val + r.val, row_lt7 a1 t r⟩ j : S100000x64.Idx) := by
    funext a; apply Fin.ext
    match a with
    | ⟨0, _⟩ =>
      show ((cfg7 a1).win 1).index t (0 : Fin 2) * 8 + 1 * r.val = 8 * t.val + r.val
      rw [idxOutRow7]; omega
    | ⟨1, _⟩ =>
      show ((cfg7 a1).win 1).index t (1 : Fin 2) * 64 + 1 * j.val = j.val
      rw [idxOutCol7]; omega
  rw [hemb, hO c t r j,
    inBlk7_apply V a1 c t r 0 (ValueIdx.ix2 ⟨8 * t.val + r.val, row_lt7 a1 t r⟩ (0 : Fin 1)) rfl]
  rfl

/-- THE CHUNK'S ARRAY after the region: chunkG7. -/
theorem chunk_array7 (hlt : ∀ y, (tbl7 a1 y).toNat < 100000)
    (hO : ∀ (c : Dev nD) (t : Fin (cfg7 a1).N) (r : Fin 8) (j : Fin 64), O c t (ValueIdx.ix2 r j)
      = far7 V c (ValueIdx.ix2 ⟨(tbl7 a1 (ValueIdx.ix1 ⟨8 * t.val + r.val, row_lt7 a1 t r⟩)).toNat, hlt _⟩ j)
        * inBlk7 V a1 c t (ValueIdx.ix2 r (0 : Fin 1)))
    (c : Dev nD) :
    (dat7 V a1 O c).arrAt 1 (cfg7 a1).N = chunkG7 V a1 hlt c :=
  (dat7 V a1 O c).arrAt_eq_of_cover 1 (chunkG7 V a1 hlt c) (fun t _ => flushedOut7_eq V a1 O hlt hO c t) (coverOut7 a1)

/-! ## The body's own block -/

/-- Two rows of the far operand named by the same word are the same row. -/
theorem farRow7_congr (c : Dev nD) {e e' : Fin 100000} (h : e.val = e'.val) (j : Fin 64)
    (p : (tbl7 a1 (ValueIdx.ix1 e)).toNat < 100000) (p' : (tbl7 a1 (ValueIdx.ix1 e')).toNat < 100000) :
    far7 V c (ValueIdx.ix2 ⟨(tbl7 a1 (ValueIdx.ix1 e)).toNat, p⟩ j)
      = far7 V c (ValueIdx.ix2 ⟨(tbl7 a1 (ValueIdx.ix1 e')).toNat, p'⟩ j) := by
  obtain rfl : e = e' := Fin.ext h
  rfl

/-- The body's block at point t — the gathered rows scaled by the input block — has the entries hO asks. -/
theorem bodyBlk7_apply (hlt : ∀ y, (tbl7 a1 y).toNat < 100000) (c : Dev nD) (t : Fin (cfg7 a1).N) (r : Fin 8) (j : Fin 64) :
    gatherOut (gatherG (a1.1 0) (V c main_v3) (grid7.coords t)) (iblk7 V a1 c 0 t) (ValueIdx.ix2 r j)
      = far7 V c (ValueIdx.ix2 ⟨(tbl7 a1 (ValueIdx.ix1 ⟨8 * t.val + r.val, row_lt7 a1 t r⟩)).toNat, hlt _⟩ j)
        * inBlk7 V a1 c t (ValueIdx.ix2 r (0 : Fin 1)) := by
  have hpay : gatherOut (gatherG (a1.1 0) (V c main_v3) (grid7.coords t)) (iblk7 V a1 c 0 t) (ValueIdx.ix2 r j)
      = gatherG (F := Ideal) (tbl7 a1) (far7 V c) (grid7.coords t) (ValueIdx.ix2 r j) * inBlk7 V a1 c t (ValueIdx.ix2 r (0 : Fin 1)) :=
    Cert.Value.kernel_block (by decide) (by decide) (gatherG (F := Ideal) (tbl7 a1) (far7 V c) (grid7.coords t)) (inBlk7 V a1 c t) r j
  rw [hpay, gatherG_apply (F := Ideal) (tbl7 a1) (far7 V c) (grid7.coords t) r j (hlt _)]
  refine congrArg (· * inBlk7 V a1 c t (ValueIdx.ix2 r (0 : Fin 1))) ?_
  exact farRow7_congr V a1 c (by show 8 * ((grid7.coords t) 0).val + r.val = 8 * t.val + r.val; rw [coordsVal7 a1 t]) j _ _

/-- THE CHUNK'S ARRAY after the region, the output block being the body's own. -/
theorem chunk_array7_body (hlt : ∀ y, (tbl7 a1 y).toNat < 100000) (c : Dev nD) :
    (dat7 V a1 (fun c t => gatherOut (gatherG (a1.1 0) (V c main_v3) (grid7.coords t)) (iblk7 V a1 c 0 t)) c).arrAt 1 (cfg7 a1).N
      = chunkG7 V a1 hlt c :=
  chunk_array7 V a1 _ hlt (fun c t r j => bodyBlk7_apply V a1 hlt c t r j) c

/-! ## The array as a chunk of the weighted rows -/

/-- When the far operand is the table x, the region's table the slice of the row numbers cols at 100000 k and its
    weights the slice of vals there as a column, the region's array is chunk k of the weighted rows. -/
theorem chunkG7_eq_chunkSpec (hlt : ∀ y, (tbl7 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far7 V c = x) (ht : tbl7 a1 = extractStridedSlice Cert.Value.T100000 ![off] cols hsl)
    (hw : wts7 V c = shapeCast Cert.Value.T100000x1 (extractStridedSlice Cert.Value.T100000 ![off] vals hsl) hsc) :
    chunkG7 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl7 a1 (ValueIdx.ix1 e)).toNat, hlt _⟩ (congrArg (fun T : S100000.Idx → BitVec 32 => (T (ValueIdx.ix1 e)).toNat) ht), ← hx, ← hw]
  rfl

end Chunk

/-! # Region 8 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg8 (F := Ideal)).Adm)
  (O : (c : Dev nD) → Fin (cfg8 a1).N → Vec Ideal S8x64 .f32)

/-- The grid has 12500 points. -/
theorem npoints8 : (cfg8 a1).N = 12500 := N_8

/-- A point's one coordinate is the point's number. -/
theorem coordsVal8 (t : Fin (cfg8 a1).N) : (((cfg8 a1).grid.coords t) 0).val = t.val := by
  have ht : t.val < 12500 := (npoints8 a1) ▸ t.isLt
  show t.val / grid8.stride 0 % 12500 = t.val
  rw [show grid8.stride 0 = 1 from by decide, Nat.div_one, Nat.mod_eq_of_lt ht]

/-- Both windows move with the point: block index (t, 0) at point t. -/
theorem idxInRow8 (t : Fin (cfg8 a1).N) : ((cfg8 a1).win 0).index t (0 : Fin 2) = t.val := by
  have ht : t.val < 12500 := (npoints8 a1) ▸ t.isLt
  show (BitVec.ofNat 32 (((cfg8 a1).grid.coords t) 0).val).toNat = t.val
  rw [coordsVal8, BitVec.toNat_ofNat, Nat.mod_eq_of_lt (by omega)]
theorem idxInCol8 (t : Fin (cfg8 a1).N) : ((cfg8 a1).win 0).index t (1 : Fin 2) = 0 := rfl
theorem idxOutRow8 (t : Fin (cfg8 a1).N) : ((cfg8 a1).win 1).index t (0 : Fin 2) = t.val := by
  have ht : t.val < 12500 := (npoints8 a1) ▸ t.isLt
  show (BitVec.ofNat 32 (((cfg8 a1).grid.coords t) 0).val).toNat = t.val
  rw [coordsVal8, BitVec.toNat_ofNat, Nat.mod_eq_of_lt (by omega)]
theorem idxOutCol8 (t : Fin (cfg8 a1).N) : ((cfg8 a1).win 1).index t (1 : Fin 2) = 0 := rfl

/-- The output window is written back at every point: the next point's block is another. -/
theorem flushOut8 (t : Fin (cfg8 a1).N) : ((cfg8 a1).win 1).flush t = true := by
  unfold Window.flush
  show (true && (decide (t.val + 1 = (cfg8 a1).N) || decide (∃ h : t.val + 1 < (cfg8 a1).N,
    ((cfg8 a1).win 1).index ⟨t.val + 1, h⟩ ≠ ((cfg8 a1).win 1).index t))) = true
  rw [Bool.true_and, Bool.or_eq_true, decide_eq_true_eq, decide_eq_true_eq]
  by_cases h : t.val + 1 = (cfg8 a1).N
  · exact Or.inl h
  · refine Or.inr ⟨by have := t.isLt; omega, fun e => ?_⟩
    have erow := congrFun e (0 : Fin 2)
    rw [idxOutRow8, idxOutRow8] at erow
    exact absurd erow (by show t.val + 1 ≠ t.val; omega)

/-! ## The operands at their literal types -/

/-- The table's words. -/
abbrev tbl8 : S100000.Idx → BitVec 32 := a1.1 0
/-- The far operand: the table of rows. -/
abbrev far8 (c : Dev nD) : S100000x64.Idx → EReal := V c main_v3
/-- The weights, as a column. -/
abbrev wts8 (c : Dev nD) : S100000x1.Idx → EReal := V c main_v35
/-- The input window's block at point t: eight weights. -/
abbrev inBlk8 (c : Dev nD) (t : Fin (cfg8 a1).N) : S8x1.Idx → EReal := iblk8 V a1 c 0 t

/-! ## The blocks -/

/-- Row r of the input window's block at point t is row 8 t + r of the column of weights. -/
theorem inBlk8_apply (c : Dev nD) (t : Fin (cfg8 a1).N) (r : Fin 8) (z : Fin 1) (k : S100000x1.Idx)
    (hkrow : (k 0).val = 8 * t.val + r.val) :
    inBlk8 V a1 c t (ValueIdx.ix2 r z) = wts8 V c k := by
  show wts8 V c ((((cfg8 a1).win 0).blk t).view.emb (ValueIdx.ix2 r z)) = wts8 V c k
  refine congrArg (wts8 V c) (funext fun a => Fin.ext ?_)
  match a with
  | ⟨0, _⟩ =>
    show ((cfg8 a1).win 0).index t (0 : Fin 2) * 8 + 1 * r.val = (k 0).val
    rw [idxInRow8, hkrow]; omega
  | ⟨1, _⟩ =>
    show ((cfg8 a1).win 0).index t (1 : Fin 2) * 1 + 1 * z.val = (k 1).val
    have hkcol : (k 1).val < 1 := idx2_lt1 k
    have hz : z.val < 1 := z.isLt
    rw [idxInCol8]; omega

/-- An index of the array is in point t's block iff each coordinate is in the block's range on its axis. -/
theorem mem_blkOut8 (t : Fin (cfg8 a1).N) (i : S100000x64.Idx) :
    i ∈ (((cfg8 a1).win 1).blk t).view.set ↔ ∀ a : Fin 2, ((cfg8 a1).win 1).index t a * S8x64.size a ≤ (i a).val
      ∧ (i a).val < ((cfg8 a1).win 1).index t a * S8x64.size a + S8x64.size a := by
  have hset : (((cfg8 a1).win 1).blk t).view.set = (((cfg8 a1).win 1).rect t : Rect S100000x64).set :=
    View.set_slice_whole main_v36 _
  have hmem : i ∈ (((cfg8 a1).win 1).rect t : Rect S100000x64).set ↔ ∀ a : Fin 2,
      ((cfg8 a1).win 1).index t a * S8x64.size a ≤ (i a).val
        ∧ (i a).val < ((cfg8 a1).win 1).index t a * S8x64.size a + S8x64.size a := Rect.mem_set_unit
  exact (Finset.ext_iff.mp hset i).trans hmem

/-- Every index of the array is in the block of the point its row over eight names. -/
theorem coverOut8 (i : S100000x64.Idx) :
    ∃ t : Fin (cfg8 a1).N, ((cfg8 a1).win 1).flush t = true ∧ i ∈ (((cfg8 a1).win 1).blk t).view.set := by
  have hirow : (i 0).val < 100000 := idx2_lt0 i
  have hicol : (i 1).val < 64 := idx2_lt1 i
  obtain ⟨t, ht⟩ : ∃ t : Fin (cfg8 a1).N, t.val = (i 0).val / 8 := ⟨⟨(i 0).val / 8, by rw [npoints8]; omega⟩, rfl⟩
  refine ⟨t, flushOut8 a1 t, ?_⟩
  rw [mem_blkOut8]
  intro a
  match a with
  | ⟨0, _⟩ =>
    show ((cfg8 a1).win 1).index t (0 : Fin 2) * 8 ≤ (i 0).val ∧ (i 0).val < ((cfg8 a1).win 1).index t (0 : Fin 2) * 8 + 8
    rw [idxOutRow8, ht]; omega
  | ⟨1, _⟩ =>
    show ((cfg8 a1).win 1).index t (1 : Fin 2) * 64 ≤ (i 1).val ∧ (i 1).val < ((cfg8 a1).win 1).index t (1 : Fin 2) * 64 + 64
    rw [idxOutCol8]; omega

/-! ## The array -/

/-- One weighted row at one column: the table row the e-th word names, at column j, times the e-th weight. -/
def chunkRow8 (hlt : ∀ y, (tbl8 a1 y).toNat < 100000) (c : Dev nD) (e : Fin 100000) (j : Fin 64) : EReal :=
  far8 V c (ValueIdx.ix2 ⟨(tbl8 a1 (ValueIdx.ix1 e)).toNat, hlt _⟩ j) * wts8 V c (ValueIdx.ix2 e (0 : Fin 1))

/-- The chunk's array as one function of the region's operands. -/
def chunkG8 (hlt : ∀ y, (tbl8 a1 y).toNat < 100000) (c : Dev nD) : S100000x64.Idx → EReal :=
  fun i => chunkRow8 V a1 hlt c (i 0) (i 1)

/-- Row r of point t's block lies in the table. -/
theorem row_lt8 (t : Fin (cfg8 a1).N) (r : Fin 8) : 8 * t.val + r.val < 100000 := by
  have ht : t.val < 12500 := (npoints8 a1) ▸ t.isLt
  have := r.isLt; omega

/-- WHAT POINT t WRITES BACK is block t of the chunk's array, when the body leaves in the output window's buffer,
    at (r, j), the table row that word 8 t + r names at column j times the input block's weight at (r, 0). -/
theorem flushedOut8_eq (hlt : ∀ y, (tbl8 a1 y).toNat < 100000)
    (hO : ∀ (c : Dev nD) (t : Fin (cfg8 a1).N) (r : Fin 8) (j : Fin 64), O c t (ValueIdx.ix2 r j)
      = far8 V c (ValueIdx.ix2 ⟨(tbl8 a1 (ValueIdx.ix1 ⟨8 * t.val + r.val, row_lt8 a1 t r⟩)).toNat, hlt _⟩ j)
        * inBlk8 V a1 c t (ValueIdx.ix2 r (0 : Fin 1)))
    (c : Dev nD) (t : Fin (cfg8 a1).N) :
    (dat8 V a1 O c).flushed 1 t = (((cfg8 a1).win 1).blk t).view.read (Elt Ideal) (chunkG8 V a1 hlt c) := by
  show ((cfg8 a1).win 1).cut ((cfg8 a1).grid.coords t) ((dat8 V a1 O c).after 1 t) = _
  rw [afterOut8]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG8 V a1 hlt c ((((cfg8 a1).win 1).blk t).view.emb (ValueIdx.ix2 r j))
  have hemb : (((cfg8 a1).win 1).blk t).view.emb (ValueIdx.ix2 r j)
      = (ValueIdx.ix2 ⟨8 * t.val + r.val, row_lt8 a1 t r⟩ j : S100000x64.Idx) := by
    funext a; apply Fin.ext
    match a with
    | ⟨0, _⟩ =>
      show ((cfg8 a1).win 1).index t (0 : Fin 2) * 8 + 1 * r.val = 8 * t.val + r.val
      rw [idxOutRow8]; omega
    | ⟨1, _⟩ =>
      show ((cfg8 a1).win 1).index t (1 : Fin 2) * 64 + 1 * j.val = j.val
      rw [idxOutCol8]; omega
  rw [hemb, hO c t r j,
    inBlk8_apply V a1 c t r 0 (ValueIdx.ix2 ⟨8 * t.val + r.val, row_lt8 a1 t r⟩ (0 : Fin 1)) rfl]
  rfl

/-- THE CHUNK'S ARRAY after the region: chunkG8. -/
theorem chunk_array8 (hlt : ∀ y, (tbl8 a1 y).toNat < 100000)
    (hO : ∀ (c : Dev nD) (t : Fin (cfg8 a1).N) (r : Fin 8) (j : Fin 64), O c t (ValueIdx.ix2 r j)
      = far8 V c (ValueIdx.ix2 ⟨(tbl8 a1 (ValueIdx.ix1 ⟨8 * t.val + r.val, row_lt8 a1 t r⟩)).toNat, hlt _⟩ j)
        * inBlk8 V a1 c t (ValueIdx.ix2 r (0 : Fin 1)))
    (c : Dev nD) :
    (dat8 V a1 O c).arrAt 1 (cfg8 a1).N = chunkG8 V a1 hlt c :=
  (dat8 V a1 O c).arrAt_eq_of_cover 1 (chunkG8 V a1 hlt c) (fun t _ => flushedOut8_eq V a1 O hlt hO c t) (coverOut8 a1)

/-! ## The body's own block -/

/-- Two rows of the far operand named by the same word are the same row. -/
theorem farRow8_congr (c : Dev nD) {e e' : Fin 100000} (h : e.val = e'.val) (j : Fin 64)
    (p : (tbl8 a1 (ValueIdx.ix1 e)).toNat < 100000) (p' : (tbl8 a1 (ValueIdx.ix1 e')).toNat < 100000) :
    far8 V c (ValueIdx.ix2 ⟨(tbl8 a1 (ValueIdx.ix1 e)).toNat, p⟩ j)
      = far8 V c (ValueIdx.ix2 ⟨(tbl8 a1 (ValueIdx.ix1 e')).toNat, p'⟩ j) := by
  obtain rfl : e = e' := Fin.ext h
  rfl

/-- The body's block at point t — the gathered rows scaled by the input block — has the entries hO asks. -/
theorem bodyBlk8_apply (hlt : ∀ y, (tbl8 a1 y).toNat < 100000) (c : Dev nD) (t : Fin (cfg8 a1).N) (r : Fin 8) (j : Fin 64) :
    gatherOut (gatherG (a1.1 0) (V c main_v3) (grid8.coords t)) (iblk8 V a1 c 0 t) (ValueIdx.ix2 r j)
      = far8 V c (ValueIdx.ix2 ⟨(tbl8 a1 (ValueIdx.ix1 ⟨8 * t.val + r.val, row_lt8 a1 t r⟩)).toNat, hlt _⟩ j)
        * inBlk8 V a1 c t (ValueIdx.ix2 r (0 : Fin 1)) := by
  have hpay : gatherOut (gatherG (a1.1 0) (V c main_v3) (grid8.coords t)) (iblk8 V a1 c 0 t) (ValueIdx.ix2 r j)
      = gatherG (F := Ideal) (tbl8 a1) (far8 V c) (grid8.coords t) (ValueIdx.ix2 r j) * inBlk8 V a1 c t (ValueIdx.ix2 r (0 : Fin 1)) :=
    Cert.Value.kernel_block (by decide) (by decide) (gatherG (F := Ideal) (tbl8 a1) (far8 V c) (grid8.coords t)) (inBlk8 V a1 c t) r j
  rw [hpay, gatherG_apply (F := Ideal) (tbl8 a1) (far8 V c) (grid8.coords t) r j (hlt _)]
  refine congrArg (· * inBlk8 V a1 c t (ValueIdx.ix2 r (0 : Fin 1))) ?_
  exact farRow8_congr V a1 c (by show 8 * ((grid8.coords t) 0).val + r.val = 8 * t.val + r.val; rw [coordsVal8 a1 t]) j _ _

/-- THE CHUNK'S ARRAY after the region, the output block being the body's own. -/
theorem chunk_array8_body (hlt : ∀ y, (tbl8 a1 y).toNat < 100000) (c : Dev nD) :
    (dat8 V a1 (fun c t => gatherOut (gatherG (a1.1 0) (V c main_v3) (grid8.coords t)) (iblk8 V a1 c 0 t)) c).arrAt 1 (cfg8 a1).N
      = chunkG8 V a1 hlt c :=
  chunk_array8 V a1 _ hlt (fun c t r j => bodyBlk8_apply V a1 hlt c t r j) c

/-! ## The array as a chunk of the weighted rows -/

/-- When the far operand is the table x, the region's table the slice of the row numbers cols at 100000 k and its
    weights the slice of vals there as a column, the region's array is chunk k of the weighted rows. -/
theorem chunkG8_eq_chunkSpec (hlt : ∀ y, (tbl8 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far8 V c = x) (ht : tbl8 a1 = extractStridedSlice Cert.Value.T100000 ![off] cols hsl)
    (hw : wts8 V c = shapeCast Cert.Value.T100000x1 (extractStridedSlice Cert.Value.T100000 ![off] vals hsl) hsc) :
    chunkG8 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl8 a1 (ValueIdx.ix1 e)).toNat, hlt _⟩ (congrArg (fun T : S100000.Idx → BitVec 32 => (T (ValueIdx.ix1 e)).toNat) ht), ← hx, ← hw]
  rfl

end Chunk

/-! # Region 9 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg9 (F := Ideal)).Adm)
  (O : (c : Dev nD) → Fin (cfg9 a1).N → Vec Ideal S8x64 .f32)

/-- The grid has 12500 points. -/
theorem npoints9 : (cfg9 a1).N = 12500 := N_9

/-- A point's one coordinate is the point's number. -/
theorem coordsVal9 (t : Fin (cfg9 a1).N) : (((cfg9 a1).grid.coords t) 0).val = t.val := by
  have ht : t.val < 12500 := (npoints9 a1) ▸ t.isLt
  show t.val / grid9.stride 0 % 12500 = t.val
  rw [show grid9.stride 0 = 1 from by decide, Nat.div_one, Nat.mod_eq_of_lt ht]

/-- Both windows move with the point: block index (t, 0) at point t. -/
theorem idxInRow9 (t : Fin (cfg9 a1).N) : ((cfg9 a1).win 0).index t (0 : Fin 2) = t.val := by
  have ht : t.val < 12500 := (npoints9 a1) ▸ t.isLt
  show (BitVec.ofNat 32 (((cfg9 a1).grid.coords t) 0).val).toNat = t.val
  rw [coordsVal9, BitVec.toNat_ofNat, Nat.mod_eq_of_lt (by omega)]
theorem idxInCol9 (t : Fin (cfg9 a1).N) : ((cfg9 a1).win 0).index t (1 : Fin 2) = 0 := rfl
theorem idxOutRow9 (t : Fin (cfg9 a1).N) : ((cfg9 a1).win 1).index t (0 : Fin 2) = t.val := by
  have ht : t.val < 12500 := (npoints9 a1) ▸ t.isLt
  show (BitVec.ofNat 32 (((cfg9 a1).grid.coords t) 0).val).toNat = t.val
  rw [coordsVal9, BitVec.toNat_ofNat, Nat.mod_eq_of_lt (by omega)]
theorem idxOutCol9 (t : Fin (cfg9 a1).N) : ((cfg9 a1).win 1).index t (1 : Fin 2) = 0 := rfl

/-- The output window is written back at every point: the next point's block is another. -/
theorem flushOut9 (t : Fin (cfg9 a1).N) : ((cfg9 a1).win 1).flush t = true := by
  unfold Window.flush
  show (true && (decide (t.val + 1 = (cfg9 a1).N) || decide (∃ h : t.val + 1 < (cfg9 a1).N,
    ((cfg9 a1).win 1).index ⟨t.val + 1, h⟩ ≠ ((cfg9 a1).win 1).index t))) = true
  rw [Bool.true_and, Bool.or_eq_true, decide_eq_true_eq, decide_eq_true_eq]
  by_cases h : t.val + 1 = (cfg9 a1).N
  · exact Or.inl h
  · refine Or.inr ⟨by have := t.isLt; omega, fun e => ?_⟩
    have erow := congrFun e (0 : Fin 2)
    rw [idxOutRow9, idxOutRow9] at erow
    exact absurd erow (by show t.val + 1 ≠ t.val; omega)

/-! ## The operands at their literal types -/

/-- The table's words. -/
abbrev tbl9 : S100000.Idx → BitVec 32 := a1.1 0
/-- The far operand: the table of rows. -/
abbrev far9 (c : Dev nD) : S100000x64.Idx → EReal := V c main_v3
/-- The weights, as a column. -/
abbrev wts9 (c : Dev nD) : S100000x1.Idx → EReal := V c main_v39
/-- The input window's block at point t: eight weights. -/
abbrev inBlk9 (c : Dev nD) (t : Fin (cfg9 a1).N) : S8x1.Idx → EReal := iblk9 V a1 c 0 t

/-! ## The blocks -/

/-- Row r of the input window's block at point t is row 8 t + r of the column of weights. -/
theorem inBlk9_apply (c : Dev nD) (t : Fin (cfg9 a1).N) (r : Fin 8) (z : Fin 1) (k : S100000x1.Idx)
    (hkrow : (k 0).val = 8 * t.val + r.val) :
    inBlk9 V a1 c t (ValueIdx.ix2 r z) = wts9 V c k := by
  show wts9 V c ((((cfg9 a1).win 0).blk t).view.emb (ValueIdx.ix2 r z)) = wts9 V c k
  refine congrArg (wts9 V c) (funext fun a => Fin.ext ?_)
  match a with
  | ⟨0, _⟩ =>
    show ((cfg9 a1).win 0).index t (0 : Fin 2) * 8 + 1 * r.val = (k 0).val
    rw [idxInRow9, hkrow]; omega
  | ⟨1, _⟩ =>
    show ((cfg9 a1).win 0).index t (1 : Fin 2) * 1 + 1 * z.val = (k 1).val
    have hkcol : (k 1).val < 1 := idx2_lt1 k
    have hz : z.val < 1 := z.isLt
    rw [idxInCol9]; omega

/-- An index of the array is in point t's block iff each coordinate is in the block's range on its axis. -/
theorem mem_blkOut9 (t : Fin (cfg9 a1).N) (i : S100000x64.Idx) :
    i ∈ (((cfg9 a1).win 1).blk t).view.set ↔ ∀ a : Fin 2, ((cfg9 a1).win 1).index t a * S8x64.size a ≤ (i a).val
      ∧ (i a).val < ((cfg9 a1).win 1).index t a * S8x64.size a + S8x64.size a := by
  have hset : (((cfg9 a1).win 1).blk t).view.set = (((cfg9 a1).win 1).rect t : Rect S100000x64).set :=
    View.set_slice_whole main_v40 _
  have hmem : i ∈ (((cfg9 a1).win 1).rect t : Rect S100000x64).set ↔ ∀ a : Fin 2,
      ((cfg9 a1).win 1).index t a * S8x64.size a ≤ (i a).val
        ∧ (i a).val < ((cfg9 a1).win 1).index t a * S8x64.size a + S8x64.size a := Rect.mem_set_unit
  exact (Finset.ext_iff.mp hset i).trans hmem

/-- Every index of the array is in the block of the point its row over eight names. -/
theorem coverOut9 (i : S100000x64.Idx) :
    ∃ t : Fin (cfg9 a1).N, ((cfg9 a1).win 1).flush t = true ∧ i ∈ (((cfg9 a1).win 1).blk t).view.set := by
  have hirow : (i 0).val < 100000 := idx2_lt0 i
  have hicol : (i 1).val < 64 := idx2_lt1 i
  obtain ⟨t, ht⟩ : ∃ t : Fin (cfg9 a1).N, t.val = (i 0).val / 8 := ⟨⟨(i 0).val / 8, by rw [npoints9]; omega⟩, rfl⟩
  refine ⟨t, flushOut9 a1 t, ?_⟩
  rw [mem_blkOut9]
  intro a
  match a with
  | ⟨0, _⟩ =>
    show ((cfg9 a1).win 1).index t (0 : Fin 2) * 8 ≤ (i 0).val ∧ (i 0).val < ((cfg9 a1).win 1).index t (0 : Fin 2) * 8 + 8
    rw [idxOutRow9, ht]; omega
  | ⟨1, _⟩ =>
    show ((cfg9 a1).win 1).index t (1 : Fin 2) * 64 ≤ (i 1).val ∧ (i 1).val < ((cfg9 a1).win 1).index t (1 : Fin 2) * 64 + 64
    rw [idxOutCol9]; omega

/-! ## The array -/

/-- One weighted row at one column: the table row the e-th word names, at column j, times the e-th weight. -/
def chunkRow9 (hlt : ∀ y, (tbl9 a1 y).toNat < 100000) (c : Dev nD) (e : Fin 100000) (j : Fin 64) : EReal :=
  far9 V c (ValueIdx.ix2 ⟨(tbl9 a1 (ValueIdx.ix1 e)).toNat, hlt _⟩ j) * wts9 V c (ValueIdx.ix2 e (0 : Fin 1))

/-- The chunk's array as one function of the region's operands. -/
def chunkG9 (hlt : ∀ y, (tbl9 a1 y).toNat < 100000) (c : Dev nD) : S100000x64.Idx → EReal :=
  fun i => chunkRow9 V a1 hlt c (i 0) (i 1)

/-- Row r of point t's block lies in the table. -/
theorem row_lt9 (t : Fin (cfg9 a1).N) (r : Fin 8) : 8 * t.val + r.val < 100000 := by
  have ht : t.val < 12500 := (npoints9 a1) ▸ t.isLt
  have := r.isLt; omega

/-- WHAT POINT t WRITES BACK is block t of the chunk's array, when the body leaves in the output window's buffer,
    at (r, j), the table row that word 8 t + r names at column j times the input block's weight at (r, 0). -/
theorem flushedOut9_eq (hlt : ∀ y, (tbl9 a1 y).toNat < 100000)
    (hO : ∀ (c : Dev nD) (t : Fin (cfg9 a1).N) (r : Fin 8) (j : Fin 64), O c t (ValueIdx.ix2 r j)
      = far9 V c (ValueIdx.ix2 ⟨(tbl9 a1 (ValueIdx.ix1 ⟨8 * t.val + r.val, row_lt9 a1 t r⟩)).toNat, hlt _⟩ j)
        * inBlk9 V a1 c t (ValueIdx.ix2 r (0 : Fin 1)))
    (c : Dev nD) (t : Fin (cfg9 a1).N) :
    (dat9 V a1 O c).flushed 1 t = (((cfg9 a1).win 1).blk t).view.read (Elt Ideal) (chunkG9 V a1 hlt c) := by
  show ((cfg9 a1).win 1).cut ((cfg9 a1).grid.coords t) ((dat9 V a1 O c).after 1 t) = _
  rw [afterOut9]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG9 V a1 hlt c ((((cfg9 a1).win 1).blk t).view.emb (ValueIdx.ix2 r j))
  have hemb : (((cfg9 a1).win 1).blk t).view.emb (ValueIdx.ix2 r j)
      = (ValueIdx.ix2 ⟨8 * t.val + r.val, row_lt9 a1 t r⟩ j : S100000x64.Idx) := by
    funext a; apply Fin.ext
    match a with
    | ⟨0, _⟩ =>
      show ((cfg9 a1).win 1).index t (0 : Fin 2) * 8 + 1 * r.val = 8 * t.val + r.val
      rw [idxOutRow9]; omega
    | ⟨1, _⟩ =>
      show ((cfg9 a1).win 1).index t (1 : Fin 2) * 64 + 1 * j.val = j.val
      rw [idxOutCol9]; omega
  rw [hemb, hO c t r j,
    inBlk9_apply V a1 c t r 0 (ValueIdx.ix2 ⟨8 * t.val + r.val, row_lt9 a1 t r⟩ (0 : Fin 1)) rfl]
  rfl

/-- THE CHUNK'S ARRAY after the region: chunkG9. -/
theorem chunk_array9 (hlt : ∀ y, (tbl9 a1 y).toNat < 100000)
    (hO : ∀ (c : Dev nD) (t : Fin (cfg9 a1).N) (r : Fin 8) (j : Fin 64), O c t (ValueIdx.ix2 r j)
      = far9 V c (ValueIdx.ix2 ⟨(tbl9 a1 (ValueIdx.ix1 ⟨8 * t.val + r.val, row_lt9 a1 t r⟩)).toNat, hlt _⟩ j)
        * inBlk9 V a1 c t (ValueIdx.ix2 r (0 : Fin 1)))
    (c : Dev nD) :
    (dat9 V a1 O c).arrAt 1 (cfg9 a1).N = chunkG9 V a1 hlt c :=
  (dat9 V a1 O c).arrAt_eq_of_cover 1 (chunkG9 V a1 hlt c) (fun t _ => flushedOut9_eq V a1 O hlt hO c t) (coverOut9 a1)

/-! ## The body's own block -/

/-- Two rows of the far operand named by the same word are the same row. -/
theorem farRow9_congr (c : Dev nD) {e e' : Fin 100000} (h : e.val = e'.val) (j : Fin 64)
    (p : (tbl9 a1 (ValueIdx.ix1 e)).toNat < 100000) (p' : (tbl9 a1 (ValueIdx.ix1 e')).toNat < 100000) :
    far9 V c (ValueIdx.ix2 ⟨(tbl9 a1 (ValueIdx.ix1 e)).toNat, p⟩ j)
      = far9 V c (ValueIdx.ix2 ⟨(tbl9 a1 (ValueIdx.ix1 e')).toNat, p'⟩ j) := by
  obtain rfl : e = e' := Fin.ext h
  rfl

/-- The body's block at point t — the gathered rows scaled by the input block — has the entries hO asks. -/
theorem bodyBlk9_apply (hlt : ∀ y, (tbl9 a1 y).toNat < 100000) (c : Dev nD) (t : Fin (cfg9 a1).N) (r : Fin 8) (j : Fin 64) :
    gatherOut (gatherG (a1.1 0) (V c main_v3) (grid9.coords t)) (iblk9 V a1 c 0 t) (ValueIdx.ix2 r j)
      = far9 V c (ValueIdx.ix2 ⟨(tbl9 a1 (ValueIdx.ix1 ⟨8 * t.val + r.val, row_lt9 a1 t r⟩)).toNat, hlt _⟩ j)
        * inBlk9 V a1 c t (ValueIdx.ix2 r (0 : Fin 1)) := by
  have hpay : gatherOut (gatherG (a1.1 0) (V c main_v3) (grid9.coords t)) (iblk9 V a1 c 0 t) (ValueIdx.ix2 r j)
      = gatherG (F := Ideal) (tbl9 a1) (far9 V c) (grid9.coords t) (ValueIdx.ix2 r j) * inBlk9 V a1 c t (ValueIdx.ix2 r (0 : Fin 1)) :=
    Cert.Value.kernel_block (by decide) (by decide) (gatherG (F := Ideal) (tbl9 a1) (far9 V c) (grid9.coords t)) (inBlk9 V a1 c t) r j
  rw [hpay, gatherG_apply (F := Ideal) (tbl9 a1) (far9 V c) (grid9.coords t) r j (hlt _)]
  refine congrArg (· * inBlk9 V a1 c t (ValueIdx.ix2 r (0 : Fin 1))) ?_
  exact farRow9_congr V a1 c (by show 8 * ((grid9.coords t) 0).val + r.val = 8 * t.val + r.val; rw [coordsVal9 a1 t]) j _ _

/-- THE CHUNK'S ARRAY after the region, the output block being the body's own. -/
theorem chunk_array9_body (hlt : ∀ y, (tbl9 a1 y).toNat < 100000) (c : Dev nD) :
    (dat9 V a1 (fun c t => gatherOut (gatherG (a1.1 0) (V c main_v3) (grid9.coords t)) (iblk9 V a1 c 0 t)) c).arrAt 1 (cfg9 a1).N
      = chunkG9 V a1 hlt c :=
  chunk_array9 V a1 _ hlt (fun c t r j => bodyBlk9_apply V a1 hlt c t r j) c

/-! ## The array as a chunk of the weighted rows -/

/-- When the far operand is the table x, the region's table the slice of the row numbers cols at 100000 k and its
    weights the slice of vals there as a column, the region's array is chunk k of the weighted rows. -/
theorem chunkG9_eq_chunkSpec (hlt : ∀ y, (tbl9 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far9 V c = x) (ht : tbl9 a1 = extractStridedSlice Cert.Value.T100000 ![off] cols hsl)
    (hw : wts9 V c = shapeCast Cert.Value.T100000x1 (extractStridedSlice Cert.Value.T100000 ![off] vals hsl) hsc) :
    chunkG9 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl9 a1 (ValueIdx.ix1 e)).toNat, hlt _⟩ (congrArg (fun T : S100000.Idx → BitVec 32 => (T (ValueIdx.ix1 e)).toNat) ht), ← hx, ← hw]
  rfl

end Chunk

end Cert.Value

end
-- ==== Proof.Val.KOuts_2_9.lean ====
/-
  Gather regions 2 to 9 of the host program, one after the other: for each, the region's output array at its exit boundary as a chunk of the layer's weighted rows,
  exactly as for region 1 (whose module says what each part is).
-/
import proofs.«421643_j28415503630349_2_alg».proof.Proof.KI.Tables
import proofs.«421643_j28415503630349_2_alg».proof.Proof.Val.ChunkArrays_2_9
import proofs.«421643_j28415503630349_2_alg».proof.Proof.Val.KVals

set_option maxRecDepth 16384

noncomputable section

namespace Cert.Value

open Cert.KernelIdeal Cert.KernelIdeal.Gen Cert.KernelIdeal.Hand
open Idealize.ShloMosaic Idealize.ShloMosaic.TcCoe
open Idealize.SL.Sem

/-! # Region 2 -/

attribute [local irreducible] W5 in
/-- The output array of region 2 at its exit is chunk 1 of the weighted rows of the table the region entered with. -/
theorem kout2 (m : (ℓ : Loc nD τ sig) → Buf (Elt Ideal) ℓ)
    (hcols : ∀ (c : Dev nD) (e : S1600000.Idx), (m ((c.tc : Thread nD τ).loc main_arg4) e).toNat < 100000)
    (c : Dev nD) :
    W7 m c main_v12
      = chunkSpec (W6 m c main_v3) (m ((c.tc : Thread nD τ).loc main_arg4)) (m ((c.tc : Thread nD τ).loc main_arg2))
          (hcols c) (1 : Fin 16) := by
  -- one core: every core is core 0, the one the table's admissible contents are read at
  obtain rfl : c = 0 := Subsingleton.elim _ _
  -- the exit boundary at the output array is the pipeline's final array
  have harr : W7 m 0 main_v12
      = (dat2 (Vof (W6 m)) (adm2 m) (outBlk2 (Vof (W6 m)) (adm2 m)) 0).arrAt 1 (cfg2 (adm2 m)).N :=
    Wout2_arr (W6 m) (adm2 m) (outBlk2 (Vof (W6 m)) (adm2 m)) 0 1
  -- which is the one function of the operands at the entry boundary
  have hbody := chunk_array2_body (Vof (W6 m)) (adm2 m) (tbl_lt2 m hcols) 0
  -- the table of row numbers is the slice of the argument list
  have ht : tbl2 (adm2 m)
      = extractStridedSlice T100000 ![100000] (m (((0 : Dev nD).tc : Thread nD τ).loc main_arg4)) slices_S1600000_S100000_100000 := by
    show W6 m 0 main_v9 = _
    rw [tbl_eq2 m 0, W5_arg4 m 0]
  -- the column of weights is the slice of the argument list, as a column
  have hw : wts2 (Vof (W6 m)) 0
      = shapeCast T100000x1
          (extractStridedSlice T100000 ![100000] (m (((0 : Dev nD).tc : Thread nD τ).loc main_arg2)) slices_S1600000_S100000_100000)
          shapeCasts_S100000_S100000x1 :=
    kvals2 (W5 m 0) (m (((0 : Dev nD).tc : Thread nD τ).loc main_arg2)) (W5_arg2 m 0)
  exact harr.trans (hbody.trans
    (chunkG2_eq_chunkSpec (Vof (W6 m)) (adm2 m) (tbl_lt2 m hcols) 0
      (W6 m 0 main_v3) (m (((0 : Dev nD).tc : Thread nD τ).loc main_arg4))
      (m (((0 : Dev nD).tc : Thread nD τ).loc main_arg2)) (hcols 0) (1 : Fin 16) 100000 (by decide)
      slices_S1600000_S100000_100000 shapeCasts_S100000_S100000x1 rfl ht hw))

/-! # Region 3 -/

attribute [local irreducible] W7 in
/-- The output array of region 3 at its exit is chunk 2 of the weighted rows of the table the region entered with. -/
theorem kout3 (m : (ℓ : Loc nD τ sig) → Buf (Elt Ideal) ℓ)
    (hcols : ∀ (c : Dev nD) (e : S1600000.Idx), (m ((c.tc : Thread nD τ).loc main_arg4) e).toNat < 100000)
    (c : Dev nD) :
    W9 m c main_v16
      = chunkSpec (W8 m c main_v3) (m ((c.tc : Thread nD τ).loc main_arg4)) (m ((c.tc : Thread nD τ).loc main_arg2))
          (hcols c) (2 : Fin 16) := by
  -- one core: every core is core 0, the one the table's admissible contents are read at
  obtain rfl : c = 0 := Subsingleton.elim _ _
  -- the exit boundary at the output array is the pipeline's final array
  have harr : W9 m 0 main_v16
      = (dat3 (Vof (W8 m)) (adm3 m) (outBlk3 (Vof (W8 m)) (adm3 m)) 0).arrAt 1 (cfg3 (adm3 m)).N :=
    Wout3_arr (W8 m) (adm3 m) (outBlk3 (Vof (W8 m)) (adm3 m)) 0 1
  -- which is the one function of the operands at the entry boundary
  have hbody := chunk_array3_body (Vof (W8 m)) (adm3 m) (tbl_lt3 m hcols) 0
  -- the table of row numbers is the slice of the argument list
  have ht : tbl3 (adm3 m)
      = extractStridedSlice T100000 ![200000] (m (((0 : Dev nD).tc : Thread nD τ).loc main_arg4)) slices_S1600000_S100000_200000 := by
    show W8 m 0 main_v13 = _
    rw [tbl_eq3 m 0, W7_arg4 m 0]
  -- the column of weights is the slice of the argument list, as a column
  have hw : wts3 (Vof (W8 m)) 0
      = shapeCast T100000x1
          (extractStridedSlice T100000 ![200000] (m (((0 : Dev nD).tc : Thread nD τ).loc main_arg2)) slices_S1600000_S100000_200000)
          shapeCasts_S100000_S100000x1 :=
    kvals3 (W7 m 0) (m (((0 : Dev nD).tc : Thread nD τ).loc main_arg2)) (W7_arg2 m 0)
  exact harr.trans (hbody.trans
    (chunkG3_eq_chunkSpec (Vof (W8 m)) (adm3 m) (tbl_lt3 m hcols) 0
      (W8 m 0 main_v3) (m (((0 : Dev nD).tc : Thread nD τ).loc main_arg4))
      (m (((0 : Dev nD).tc : Thread nD τ).loc main_arg2)) (hcols 0) (2 : Fin 16) 200000 (by decide)
      slices_S1600000_S100000_200000 shapeCasts_S100000_S100000x1 rfl ht hw))

/-! # Region 4 -/

attribute [local irreducible] W9 in
/-- The output array of region 4 at its exit is chunk 3 of the weighted rows of the table the region entered with. -/
theorem kout4 (m : (ℓ : Loc nD τ sig) → Buf (Elt Ideal) ℓ)
    (hcols : ∀ (c : Dev nD) (e : S1600000.Idx), (m ((c.tc : Thread nD τ).loc main_arg4) e).toNat < 100000)
    (c : Dev nD) :
    W11 m c main_v20
      = chunkSpec (W10 m c main_v3) (m ((c.tc : Thread nD τ).loc main_arg4)) (m ((c.tc : Thread nD τ).loc main_arg2))
          (hcols c) (3 : Fin 16) := by
  -- one core: every core is core 0, the one the table's admissible contents are read at
  obtain rfl : c = 0 := Subsingleton.elim _ _
  -- the exit boundary at the output array is the pipeline's final array
  have harr : W11 m 0 main_v20
      = (dat4 (Vof (W10 m)) (adm4 m) (outBlk4 (Vof (W10 m)) (adm4 m)) 0).arrAt 1 (cfg4 (adm4 m)).N :=
    Wout4_arr (W10 m) (adm4 m) (outBlk4 (Vof (W10 m)) (adm4 m)) 0 1
  -- which is the one function of the operands at the entry boundary
  have hbody := chunk_array4_body (Vof (W10 m)) (adm4 m) (tbl_lt4 m hcols) 0
  -- the table of row numbers is the slice of the argument list
  have ht : tbl4 (adm4 m)
      = extractStridedSlice T100000 ![300000] (m (((0 : Dev nD).tc : Thread nD τ).loc main_arg4)) slices_S1600000_S100000_300000 := by
    show W10 m 0 main_v17 = _
    rw [tbl_eq4 m 0, W9_arg4 m 0]
  -- the column of weights is the slice of the argument list, as a column
  have hw : wts4 (Vof (W10 m)) 0
      = shapeCast T100000x1
          (extractStridedSlice T100000 ![300000] (m (((0 : Dev nD).tc : Thread nD τ).loc main_arg2)) slices_S1600000_S100000_300000)
          shapeCasts_S100000_S100000x1 :=
    kvals4 (W9 m 0) (m (((0 : Dev nD).tc : Thread nD τ).loc main_arg2)) (W9_arg2 m 0)
  exact harr.trans (hbody.trans
    (chunkG4_eq_chunkSpec (Vof (W10 m)) (adm4 m) (tbl_lt4 m hcols) 0
      (W10 m 0 main_v3) (m (((0 : Dev nD).tc : Thread nD τ).loc main_arg4))
      (m (((0 : Dev nD).tc : Thread nD τ).loc main_arg2)) (hcols 0) (3 : Fin 16) 300000 (by decide)
      slices_S1600000_S100000_300000 shapeCasts_S100000_S100000x1 rfl ht hw))

/-! # Region 5 -/

attribute [local irreducible] W11 in
/-- The output array of region 5 at its exit is chunk 4 of the weighted rows of the table the region entered with. -/
theorem kout5 (m : (ℓ : Loc nD τ sig) → Buf (Elt Ideal) ℓ)
    (hcols : ∀ (c : Dev nD) (e : S1600000.Idx), (m ((c.tc : Thread nD τ).loc main_arg4) e).toNat < 100000)
    (c : Dev nD) :
    W13 m c main_v24
      = chunkSpec (W12 m c main_v3) (m ((c.tc : Thread nD τ).loc main_arg4)) (m ((c.tc : Thread nD τ).loc main_arg2))
          (hcols c) (4 : Fin 16) := by
  -- one core: every core is core 0, the one the table's admissible contents are read at
  obtain rfl : c = 0 := Subsingleton.elim _ _
  -- the exit boundary at the output array is the pipeline's final array
  have harr : W13 m 0 main_v24
      = (dat5 (Vof (W12 m)) (adm5 m) (outBlk5 (Vof (W12 m)) (adm5 m)) 0).arrAt 1 (cfg5 (adm5 m)).N :=
    Wout5_arr (W12 m) (adm5 m) (outBlk5 (Vof (W12 m)) (adm5 m)) 0 1
  -- which is the one function of the operands at the entry boundary
  have hbody := chunk_array5_body (Vof (W12 m)) (adm5 m) (tbl_lt5 m hcols) 0
  -- the table of row numbers is the slice of the argument list
  have ht : tbl5 (adm5 m)
      = extractStridedSlice T100000 ![400000] (m (((0 : Dev nD).tc : Thread nD τ).loc main_arg4)) slices_S1600000_S100000_400000 := by
    show W12 m 0 main_v21 = _
    rw [tbl_eq5 m 0, W11_arg4 m 0]
  -- the column of weights is the slice of the argument list, as a column
  have hw : wts5 (Vof (W12 m)) 0
      = shapeCast T100000x1
          (extractStridedSlice T100000 ![400000] (m (((0 : Dev nD).tc : Thread nD τ).loc main_arg2)) slices_S1600000_S100000_400000)
          shapeCasts_S100000_S100000x1 :=
    kvals5 (W11 m 0) (m (((0 : Dev nD).tc : Thread nD τ).loc main_arg2)) (W11_arg2 m 0)
  exact harr.trans (hbody.trans
    (chunkG5_eq_chunkSpec (Vof (W12 m)) (adm5 m) (tbl_lt5 m hcols) 0
      (W12 m 0 main_v3) (m (((0 : Dev nD).tc : Thread nD τ).loc main_arg4))
      (m (((0 : Dev nD).tc : Thread nD τ).loc main_arg2)) (hcols 0) (4 : Fin 16) 400000 (by decide)
      slices_S1600000_S100000_400000 shapeCasts_S100000_S100000x1 rfl ht hw))

/-! # Region 6 -/

attribute [local irreducible] W13 in
/-- The output array of region 6 at its exit is chunk 5 of the weighted rows of the table the region entered with. -/
theorem kout6 (m : (ℓ : Loc nD τ sig) → Buf (Elt Ideal) ℓ)
    (hcols : ∀ (c : Dev nD) (e : S1600000.Idx), (m ((c.tc : Thread nD τ).loc main_arg4) e).toNat < 100000)
    (c : Dev nD) :
    W15 m c main_v28
      = chunkSpec (W14 m c main_v3) (m ((c.tc : Thread nD τ).loc main_arg4)) (m ((c.tc : Thread nD τ).loc main_arg2))
          (hcols c) (5 : Fin 16) := by
  -- one core: every core is core 0, the one the table's admissible contents are read at
  obtain rfl : c = 0 := Subsingleton.elim _ _
  -- the exit boundary at the output array is the pipeline's final array
  have harr : W15 m 0 main_v28
      = (dat6 (Vof (W14 m)) (adm6 m) (outBlk6 (Vof (W14 m)) (adm6 m)) 0).arrAt 1 (cfg6 (adm6 m)).N :=
    Wout6_arr (W14 m) (adm6 m) (outBlk6 (Vof (W14 m)) (adm6 m)) 0 1
  -- which is the one function of the operands at the entry boundary
  have hbody := chunk_array6_body (Vof (W14 m)) (adm6 m) (tbl_lt6 m hcols) 0
  -- the table of row numbers is the slice of the argument list
  have ht : tbl6 (adm6 m)
      = extractStridedSlice T100000 ![500000] (m (((0 : Dev nD).tc : Thread nD τ).loc main_arg4)) slices_S1600000_S100000_500000 := by
    show W14 m 0 main_v25 = _
    rw [tbl_eq6 m 0, W13_arg4 m 0]
  -- the column of weights is the slice of the argument list, as a column
  have hw : wts6 (Vof (W14 m)) 0
      = shapeCast T100000x1
          (extractStridedSlice T100000 ![500000] (m (((0 : Dev nD).tc : Thread nD τ).loc main_arg2)) slices_S1600000_S100000_500000)
          shapeCasts_S100000_S100000x1 :=
    kvals6 (W13 m 0) (m (((0 : Dev nD).tc : Thread nD τ).loc main_arg2)) (W13_arg2 m 0)
  exact harr.trans (hbody.trans
    (chunkG6_eq_chunkSpec (Vof (W14 m)) (adm6 m) (tbl_lt6 m hcols) 0
      (W14 m 0 main_v3) (m (((0 : Dev nD).tc : Thread nD τ).loc main_arg4))
      (m (((0 : Dev nD).tc : Thread nD τ).loc main_arg2)) (hcols 0) (5 : Fin 16) 500000 (by decide)
      slices_S1600000_S100000_500000 shapeCasts_S100000_S100000x1 rfl ht hw))

/-! # Region 7 -/

attribute [local irreducible] W15 in
/-- The output array of region 7 at its exit is chunk 6 of the weighted rows of the table the region entered with. -/
theorem kout7 (m : (ℓ : Loc nD τ sig) → Buf (Elt Ideal) ℓ)
    (hcols : ∀ (c : Dev nD) (e : S1600000.Idx), (m ((c.tc : Thread nD τ).loc main_arg4) e).toNat < 100000)
    (c : Dev nD) :
    W17 m c main_v32
      = chunkSpec (W16 m c main_v3) (m ((c.tc : Thread nD τ).loc main_arg4)) (m ((c.tc : Thread nD τ).loc main_arg2))
          (hcols c) (6 : Fin 16) := by
  -- one core: every core is core 0, the one the table's admissible contents are read at
  obtain rfl : c = 0 := Subsingleton.elim _ _
  -- the exit boundary at the output array is the pipeline's final array
  have harr : W17 m 0 main_v32
      = (dat7 (Vof (W16 m)) (adm7 m) (outBlk7 (Vof (W16 m)) (adm7 m)) 0).arrAt 1 (cfg7 (adm7 m)).N :=
    Wout7_arr (W16 m) (adm7 m) (outBlk7 (Vof (W16 m)) (adm7 m)) 0 1
  -- which is the one function of the operands at the entry boundary
  have hbody := chunk_array7_body (Vof (W16 m)) (adm7 m) (tbl_lt7 m hcols) 0
  -- the table of row numbers is the slice of the argument list
  have ht : tbl7 (adm7 m)
      = extractStridedSlice T100000 ![600000] (m (((0 : Dev nD).tc : Thread nD τ).loc main_arg4)) slices_S1600000_S100000_600000 := by
    show W16 m 0 main_v29 = _
    rw [tbl_eq7 m 0, W15_arg4 m 0]
  -- the column of weights is the slice of the argument list, as a column
  have hw : wts7 (Vof (W16 m)) 0
      = shapeCast T100000x1
          (extractStridedSlice T100000 ![600000] (m (((0 : Dev nD).tc : Thread nD τ).loc main_arg2)) slices_S1600000_S100000_600000)
          shapeCasts_S100000_S100000x1 :=
    kvals7 (W15 m 0) (m (((0 : Dev nD).tc : Thread nD τ).loc main_arg2)) (W15_arg2 m 0)
  exact harr.trans (hbody.trans
    (chunkG7_eq_chunkSpec (Vof (W16 m)) (adm7 m) (tbl_lt7 m hcols) 0
      (W16 m 0 main_v3) (m (((0 : Dev nD).tc : Thread nD τ).loc main_arg4))
      (m (((0 : Dev nD).tc : Thread nD τ).loc main_arg2)) (hcols 0) (6 : Fin 16) 600000 (by decide)
      slices_S1600000_S100000_600000 shapeCasts_S100000_S100000x1 rfl ht hw))

/-! # Region 8 -/

attribute [local irreducible] W17 in
/-- The output array of region 8 at its exit is chunk 7 of the weighted rows of the table the region entered with. -/
theorem kout8 (m : (ℓ : Loc nD τ sig) → Buf (Elt Ideal) ℓ)
    (hcols : ∀ (c : Dev nD) (e : S1600000.Idx), (m ((c.tc : Thread nD τ).loc main_arg4) e).toNat < 100000)
    (c : Dev nD) :
    W19 m c main_v36
      = chunkSpec (W18 m c main_v3) (m ((c.tc : Thread nD τ).loc main_arg4)) (m ((c.tc : Thread nD τ).loc main_arg2))
          (hcols c) (7 : Fin 16) := by
  -- one core: every core is core 0, the one the table's admissible contents are read at
  obtain rfl : c = 0 := Subsingleton.elim _ _
  -- the exit boundary at the output array is the pipeline's final array
  have harr : W19 m 0 main_v36
      = (dat8 (Vof (W18 m)) (adm8 m) (outBlk8 (Vof (W18 m)) (adm8 m)) 0).arrAt 1 (cfg8 (adm8 m)).N :=
    Wout8_arr (W18 m) (adm8 m) (outBlk8 (Vof (W18 m)) (adm8 m)) 0 1
  -- which is the one function of the operands at the entry boundary
  have hbody := chunk_array8_body (Vof (W18 m)) (adm8 m) (tbl_lt8 m hcols) 0
  -- the table of row numbers is the slice of the argument list
  have ht : tbl8 (adm8 m)
      = extractStridedSlice T100000 ![700000] (m (((0 : Dev nD).tc : Thread nD τ).loc main_arg4)) slices_S1600000_S100000_700000 := by
    show W18 m 0 main_v33 = _
    rw [tbl_eq8 m 0, W17_arg4 m 0]
  -- the column of weights is the slice of the argument list, as a column
  have hw : wts8 (Vof (W18 m)) 0
      = shapeCast T100000x1
          (extractStridedSlice T100000 ![700000] (m (((0 : Dev nD).tc : Thread nD τ).loc main_arg2)) slices_S1600000_S100000_700000)
          shapeCasts_S100000_S100000x1 :=
    kvals8 (W17 m 0) (m (((0 : Dev nD).tc : Thread nD τ).loc main_arg2)) (W17_arg2 m 0)
  exact harr.trans (hbody.trans
    (chunkG8_eq_chunkSpec (Vof (W18 m)) (adm8 m) (tbl_lt8 m hcols) 0
      (W18 m 0 main_v3) (m (((0 : Dev nD).tc : Thread nD τ).loc main_arg4))
      (m (((0 : Dev nD).tc : Thread nD τ).loc main_arg2)) (hcols 0) (7 : Fin 16) 700000 (by decide)
      slices_S1600000_S100000_700000 shapeCasts_S100000_S100000x1 rfl ht hw))

/-! # Region 9 -/

attribute [local irreducible] W19 in
/-- The output array of region 9 at its exit is chunk 8 of the weighted rows of the table the region entered with. -/
theorem kout9 (m : (ℓ : Loc nD τ sig) → Buf (Elt Ideal) ℓ)
    (hcols : ∀ (c : Dev nD) (e : S1600000.Idx), (m ((c.tc : Thread nD τ).loc main_arg4) e).toNat < 100000)
    (c : Dev nD) :
    W21 m c main_v40
      = chunkSpec (W20 m c main_v3) (m ((c.tc : Thread nD τ).loc main_arg4)) (m ((c.tc : Thread nD τ).loc main_arg2))
          (hcols c) (8 : Fin 16) := by
  -- one core: every core is core 0, the one the table's admissible contents are read at
  obtain rfl : c = 0 := Subsingleton.elim _ _
  -- the exit boundary at the output array is the pipeline's final array
  have harr : W21 m 0 main_v40
      = (dat9 (Vof (W20 m)) (adm9 m) (outBlk9 (Vof (W20 m)) (adm9 m)) 0).arrAt 1 (cfg9 (adm9 m)).N :=
    Wout9_arr (W20 m) (adm9 m) (outBlk9 (Vof (W20 m)) (adm9 m)) 0 1
  -- which is the one function of the operands at the entry boundary
  have hbody := chunk_array9_body (Vof (W20 m)) (adm9 m) (tbl_lt9 m hcols) 0
  -- the table of row numbers is the slice of the argument list
  have ht : tbl9 (adm9 m)
      = extractStridedSlice T100000 ![800000] (m (((0 : Dev nD).tc : Thread nD τ).loc main_arg4)) slices_S1600000_S100000_800000 := by
    show W20 m 0 main_v37 = _
    rw [tbl_eq9 m 0, W19_arg4 m 0]
  -- the column of weights is the slice of the argument list, as a column
  have hw : wts9 (Vof (W20 m)) 0
      = shapeCast T100000x1
          (extractStridedSlice T100000 ![800000] (m (((0 : Dev nD).tc : Thread nD τ).loc main_arg2)) slices_S1600000_S100000_800000)
          shapeCasts_S100000_S100000x1 :=
    kvals9 (W19 m 0) (m (((0 : Dev nD).tc : Thread nD τ).loc main_arg2)) (W19_arg2 m 0)
  exact harr.trans (hbody.trans
    (chunkG9_eq_chunkSpec (Vof (W20 m)) (adm9 m) (tbl_lt9 m hcols) 0
      (W20 m 0 main_v3) (m (((0 : Dev nD).tc : Thread nD τ).loc main_arg4))
      (m (((0 : Dev nD).tc : Thread nD τ).loc main_arg2)) (hcols 0) (8 : Fin 16) 800000 (by decide)
      slices_S1600000_S100000_800000 shapeCasts_S100000_S100000x1 rfl ht hw))

end Cert.Value

end
-- ==== Proof.Val.ChunkArrays_10_17.lean ====
/-
  Gather regions 10 to 17 of the host program, one after the other: for each, the region's output array as one function of the node table, the table's words and the weights,
  exactly as for region 1 (whose module says what each part is).
-/
import proofs.«421643_j28415503630349_2_alg».proof.Proof.KI.Regions_10_17
import proofs.«421643_j28415503630349_2_alg».proof.Proof.KI.GatherDefs
import proofs.«421643_j28415503630349_2_alg».proof.Proof.Val.GatherSpec
import proofs.«421643_j28415503630349_2_alg».proof.Proof.Val.Cover
import Idealize.ShloMosaic.Lib.Pipeline.Value
import Idealize.ShloMosaic.Lib.ValueIdx

set_option maxRecDepth 16384

noncomputable section

namespace Cert.Value

open Cert.KernelIdeal Cert.KernelIdeal.Gen Cert.KernelIdeal.Hand
open Idealize.ShloMosaic Idealize.ShloMosaic.TcCoe
open Idealize.SL.Sem
open Idealize.ShloMosaic.Pipeline (Dat Cfg Window UD)

/-! # Region 10 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg10 (F := Ideal)).Adm)
  (O : (c : Dev nD) → Fin (cfg10 a1).N → Vec Ideal S8x64 .f32)

/-- The grid has 12500 points. -/
theorem npoints10 : (cfg10 a1).N = 12500 := N_10

/-- A point's one coordinate is the point's number. -/
theorem coordsVal10 (t : Fin (cfg10 a1).N) : (((cfg10 a1).grid.coords t) 0).val = t.val := by
  have ht : t.val < 12500 := (npoints10 a1) ▸ t.isLt
  show t.val / grid10.stride 0 % 12500 = t.val
  rw [show grid10.stride 0 = 1 from by decide, Nat.div_one, Nat.mod_eq_of_lt ht]

/-- Both windows move with the point: block index (t, 0) at point t. -/
theorem idxInRow10 (t : Fin (cfg10 a1).N) : ((cfg10 a1).win 0).index t (0 : Fin 2) = t.val := by
  have ht : t.val < 12500 := (npoints10 a1) ▸ t.isLt
  show (BitVec.ofNat 32 (((cfg10 a1).grid.coords t) 0).val).toNat = t.val
  rw [coordsVal10, BitVec.toNat_ofNat, Nat.mod_eq_of_lt (by omega)]
theorem idxInCol10 (t : Fin (cfg10 a1).N) : ((cfg10 a1).win 0).index t (1 : Fin 2) = 0 := rfl
theorem idxOutRow10 (t : Fin (cfg10 a1).N) : ((cfg10 a1).win 1).index t (0 : Fin 2) = t.val := by
  have ht : t.val < 12500 := (npoints10 a1) ▸ t.isLt
  show (BitVec.ofNat 32 (((cfg10 a1).grid.coords t) 0).val).toNat = t.val
  rw [coordsVal10, BitVec.toNat_ofNat, Nat.mod_eq_of_lt (by omega)]
theorem idxOutCol10 (t : Fin (cfg10 a1).N) : ((cfg10 a1).win 1).index t (1 : Fin 2) = 0 := rfl

/-- The output window is written back at every point: the next point's block is another. -/
theorem flushOut10 (t : Fin (cfg10 a1).N) : ((cfg10 a1).win 1).flush t = true := by
  unfold Window.flush
  show (true && (decide (t.val + 1 = (cfg10 a1).N) || decide (∃ h : t.val + 1 < (cfg10 a1).N,
    ((cfg10 a1).win 1).index ⟨t.val + 1, h⟩ ≠ ((cfg10 a1).win 1).index t))) = true
  rw [Bool.true_and, Bool.or_eq_true, decide_eq_true_eq, decide_eq_true_eq]
  by_cases h : t.val + 1 = (cfg10 a1).N
  · exact Or.inl h
  · refine Or.inr ⟨by have := t.isLt; omega, fun e => ?_⟩
    have erow := congrFun e (0 : Fin 2)
    rw [idxOutRow10, idxOutRow10] at erow
    exact absurd erow (by show t.val + 1 ≠ t.val; omega)

/-! ## The operands at their literal types -/

/-- The table's words. -/
abbrev tbl10 : S100000.Idx → BitVec 32 := a1.1 0
/-- The far operand: the table of rows. -/
abbrev far10 (c : Dev nD) : S100000x64.Idx → EReal := V c main_v3
/-- The weights, as a column. -/
abbrev wts10 (c : Dev nD) : S100000x1.Idx → EReal := V c main_v43
/-- The input window's block at point t: eight weights. -/
abbrev inBlk10 (c : Dev nD) (t : Fin (cfg10 a1).N) : S8x1.Idx → EReal := iblk10 V a1 c 0 t

/-! ## The blocks -/

/-- Row r of the input window's block at point t is row 8 t + r of the column of weights. -/
theorem inBlk10_apply (c : Dev nD) (t : Fin (cfg10 a1).N) (r : Fin 8) (z : Fin 1) (k : S100000x1.Idx)
    (hkrow : (k 0).val = 8 * t.val + r.val) :
    inBlk10 V a1 c t (ValueIdx.ix2 r z) = wts10 V c k := by
  show wts10 V c ((((cfg10 a1).win 0).blk t).view.emb (ValueIdx.ix2 r z)) = wts10 V c k
  refine congrArg (wts10 V c) (funext fun a => Fin.ext ?_)
  match a with
  | ⟨0, _⟩ =>
    show ((cfg10 a1).win 0).index t (0 : Fin 2) * 8 + 1 * r.val = (k 0).val
    rw [idxInRow10, hkrow]; omega
  | ⟨1, _⟩ =>
    show ((cfg10 a1).win 0).index t (1 : Fin 2) * 1 + 1 * z.val = (k 1).val
    have hkcol : (k 1).val < 1 := idx2_lt1 k
    have hz : z.val < 1 := z.isLt
    rw [idxInCol10]; omega

/-- An index of the array is in point t's block iff each coordinate is in the block's range on its axis. -/
theorem mem_blkOut10 (t : Fin (cfg10 a1).N) (i : S100000x64.Idx) :
    i ∈ (((cfg10 a1).win 1).blk t).view.set ↔ ∀ a : Fin 2, ((cfg10 a1).win 1).index t a * S8x64.size a ≤ (i a).val
      ∧ (i a).val < ((cfg10 a1).win 1).index t a * S8x64.size a + S8x64.size a := by
  have hset : (((cfg10 a1).win 1).blk t).view.set = (((cfg10 a1).win 1).rect t : Rect S100000x64).set :=
    View.set_slice_whole main_v44 _
  have hmem : i ∈ (((cfg10 a1).win 1).rect t : Rect S100000x64).set ↔ ∀ a : Fin 2,
      ((cfg10 a1).win 1).index t a * S8x64.size a ≤ (i a).val
        ∧ (i a).val < ((cfg10 a1).win 1).index t a * S8x64.size a + S8x64.size a := Rect.mem_set_unit
  exact (Finset.ext_iff.mp hset i).trans hmem

/-- Every index of the array is in the block of the point its row over eight names. -/
theorem coverOut10 (i : S100000x64.Idx) :
    ∃ t : Fin (cfg10 a1).N, ((cfg10 a1).win 1).flush t = true ∧ i ∈ (((cfg10 a1).win 1).blk t).view.set := by
  have hirow : (i 0).val < 100000 := idx2_lt0 i
  have hicol : (i 1).val < 64 := idx2_lt1 i
  obtain ⟨t, ht⟩ : ∃ t : Fin (cfg10 a1).N, t.val = (i 0).val / 8 := ⟨⟨(i 0).val / 8, by rw [npoints10]; omega⟩, rfl⟩
  refine ⟨t, flushOut10 a1 t, ?_⟩
  rw [mem_blkOut10]
  intro a
  match a with
  | ⟨0, _⟩ =>
    show ((cfg10 a1).win 1).index t (0 : Fin 2) * 8 ≤ (i 0).val ∧ (i 0).val < ((cfg10 a1).win 1).index t (0 : Fin 2) * 8 + 8
    rw [idxOutRow10, ht]; omega
  | ⟨1, _⟩ =>
    show ((cfg10 a1).win 1).index t (1 : Fin 2) * 64 ≤ (i 1).val ∧ (i 1).val < ((cfg10 a1).win 1).index t (1 : Fin 2) * 64 + 64
    rw [idxOutCol10]; omega

/-! ## The array -/

/-- One weighted row at one column: the table row the e-th word names, at column j, times the e-th weight. -/
def chunkRow10 (hlt : ∀ y, (tbl10 a1 y).toNat < 100000) (c : Dev nD) (e : Fin 100000) (j : Fin 64) : EReal :=
  far10 V c (ValueIdx.ix2 ⟨(tbl10 a1 (ValueIdx.ix1 e)).toNat, hlt _⟩ j) * wts10 V c (ValueIdx.ix2 e (0 : Fin 1))

/-- The chunk's array as one function of the region's operands. -/
def chunkG10 (hlt : ∀ y, (tbl10 a1 y).toNat < 100000) (c : Dev nD) : S100000x64.Idx → EReal :=
  fun i => chunkRow10 V a1 hlt c (i 0) (i 1)

/-- Row r of point t's block lies in the table. -/
theorem row_lt10 (t : Fin (cfg10 a1).N) (r : Fin 8) : 8 * t.val + r.val < 100000 := by
  have ht : t.val < 12500 := (npoints10 a1) ▸ t.isLt
  have := r.isLt; omega

/-- WHAT POINT t WRITES BACK is block t of the chunk's array, when the body leaves in the output window's buffer,
    at (r, j), the table row that word 8 t + r names at column j times the input block's weight at (r, 0). -/
theorem flushedOut10_eq (hlt : ∀ y, (tbl10 a1 y).toNat < 100000)
    (hO : ∀ (c : Dev nD) (t : Fin (cfg10 a1).N) (r : Fin 8) (j : Fin 64), O c t (ValueIdx.ix2 r j)
      = far10 V c (ValueIdx.ix2 ⟨(tbl10 a1 (ValueIdx.ix1 ⟨8 * t.val + r.val, row_lt10 a1 t r⟩)).toNat, hlt _⟩ j)
        * inBlk10 V a1 c t (ValueIdx.ix2 r (0 : Fin 1)))
    (c : Dev nD) (t : Fin (cfg10 a1).N) :
    (dat10 V a1 O c).flushed 1 t = (((cfg10 a1).win 1).blk t).view.read (Elt Ideal) (chunkG10 V a1 hlt c) := by
  show ((cfg10 a1).win 1).cut ((cfg10 a1).grid.coords t) ((dat10 V a1 O c).after 1 t) = _
  rw [afterOut10]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG10 V a1 hlt c ((((cfg10 a1).win 1).blk t).view.emb (ValueIdx.ix2 r j))
  have hemb : (((cfg10 a1).win 1).blk t).view.emb (ValueIdx.ix2 r j)
      = (ValueIdx.ix2 ⟨8 * t.val + r.val, row_lt10 a1 t r⟩ j : S100000x64.Idx) := by
    funext a; apply Fin.ext
    match a with
    | ⟨0, _⟩ =>
      show ((cfg10 a1).win 1).index t (0 : Fin 2) * 8 + 1 * r.val = 8 * t.val + r.val
      rw [idxOutRow10]; omega
    | ⟨1, _⟩ =>
      show ((cfg10 a1).win 1).index t (1 : Fin 2) * 64 + 1 * j.val = j.val
      rw [idxOutCol10]; omega
  rw [hemb, hO c t r j,
    inBlk10_apply V a1 c t r 0 (ValueIdx.ix2 ⟨8 * t.val + r.val, row_lt10 a1 t r⟩ (0 : Fin 1)) rfl]
  rfl

/-- THE CHUNK'S ARRAY after the region: chunkG10. -/
theorem chunk_array10 (hlt : ∀ y, (tbl10 a1 y).toNat < 100000)
    (hO : ∀ (c : Dev nD) (t : Fin (cfg10 a1).N) (r : Fin 8) (j : Fin 64), O c t (ValueIdx.ix2 r j)
      = far10 V c (ValueIdx.ix2 ⟨(tbl10 a1 (ValueIdx.ix1 ⟨8 * t.val + r.val, row_lt10 a1 t r⟩)).toNat, hlt _⟩ j)
        * inBlk10 V a1 c t (ValueIdx.ix2 r (0 : Fin 1)))
    (c : Dev nD) :
    (dat10 V a1 O c).arrAt 1 (cfg10 a1).N = chunkG10 V a1 hlt c :=
  (dat10 V a1 O c).arrAt_eq_of_cover 1 (chunkG10 V a1 hlt c) (fun t _ => flushedOut10_eq V a1 O hlt hO c t) (coverOut10 a1)

/-! ## The body's own block -/

/-- Two rows of the far operand named by the same word are the same row. -/
theorem farRow10_congr (c : Dev nD) {e e' : Fin 100000} (h : e.val = e'.val) (j : Fin 64)
    (p : (tbl10 a1 (ValueIdx.ix1 e)).toNat < 100000) (p' : (tbl10 a1 (ValueIdx.ix1 e')).toNat < 100000) :
    far10 V c (ValueIdx.ix2 ⟨(tbl10 a1 (ValueIdx.ix1 e)).toNat, p⟩ j)
      = far10 V c (ValueIdx.ix2 ⟨(tbl10 a1 (ValueIdx.ix1 e')).toNat, p'⟩ j) := by
  obtain rfl : e = e' := Fin.ext h
  rfl

/-- The body's block at point t — the gathered rows scaled by the input block — has the entries hO asks. -/
theorem bodyBlk10_apply (hlt : ∀ y, (tbl10 a1 y).toNat < 100000) (c : Dev nD) (t : Fin (cfg10 a1).N) (r : Fin 8) (j : Fin 64) :
    gatherOut (gatherG (a1.1 0) (V c main_v3) (grid10.coords t)) (iblk10 V a1 c 0 t) (ValueIdx.ix2 r j)
      = far10 V c (ValueIdx.ix2 ⟨(tbl10 a1 (ValueIdx.ix1 ⟨8 * t.val + r.val, row_lt10 a1 t r⟩)).toNat, hlt _⟩ j)
        * inBlk10 V a1 c t (ValueIdx.ix2 r (0 : Fin 1)) := by
  have hpay : gatherOut (gatherG (a1.1 0) (V c main_v3) (grid10.coords t)) (iblk10 V a1 c 0 t) (ValueIdx.ix2 r j)
      = gatherG (F := Ideal) (tbl10 a1) (far10 V c) (grid10.coords t) (ValueIdx.ix2 r j) * inBlk10 V a1 c t (ValueIdx.ix2 r (0 : Fin 1)) :=
    Cert.Value.kernel_block (by decide) (by decide) (gatherG (F := Ideal) (tbl10 a1) (far10 V c) (grid10.coords t)) (inBlk10 V a1 c t) r j
  rw [hpay, gatherG_apply (F := Ideal) (tbl10 a1) (far10 V c) (grid10.coords t) r j (hlt _)]
  refine congrArg (· * inBlk10 V a1 c t (ValueIdx.ix2 r (0 : Fin 1))) ?_
  exact farRow10_congr V a1 c (by show 8 * ((grid10.coords t) 0).val + r.val = 8 * t.val + r.val; rw [coordsVal10 a1 t]) j _ _

/-- THE CHUNK'S ARRAY after the region, the output block being the body's own. -/
theorem chunk_array10_body (hlt : ∀ y, (tbl10 a1 y).toNat < 100000) (c : Dev nD) :
    (dat10 V a1 (fun c t => gatherOut (gatherG (a1.1 0) (V c main_v3) (grid10.coords t)) (iblk10 V a1 c 0 t)) c).arrAt 1 (cfg10 a1).N
      = chunkG10 V a1 hlt c :=
  chunk_array10 V a1 _ hlt (fun c t r j => bodyBlk10_apply V a1 hlt c t r j) c

/-! ## The array as a chunk of the weighted rows -/

/-- When the far operand is the table x, the region's table the slice of the row numbers cols at 100000 k and its
    weights the slice of vals there as a column, the region's array is chunk k of the weighted rows. -/
theorem chunkG10_eq_chunkSpec (hlt : ∀ y, (tbl10 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far10 V c = x) (ht : tbl10 a1 = extractStridedSlice Cert.Value.T100000 ![off] cols hsl)
    (hw : wts10 V c = shapeCast Cert.Value.T100000x1 (extractStridedSlice Cert.Value.T100000 ![off] vals hsl) hsc) :
    chunkG10 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl10 a1 (ValueIdx.ix1 e)).toNat, hlt _⟩ (congrArg (fun T : S100000.Idx → BitVec 32 => (T (ValueIdx.ix1 e)).toNat) ht), ← hx, ← hw]
  rfl

end Chunk

/-! # Region 11 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg11 (F := Ideal)).Adm)
  (O : (c : Dev nD) → Fin (cfg11 a1).N → Vec Ideal S8x64 .f32)

/-- The grid has 12500 points. -/
theorem npoints11 : (cfg11 a1).N = 12500 := N_11

/-- A point's one coordinate is the point's number. -/
theorem coordsVal11 (t : Fin (cfg11 a1).N) : (((cfg11 a1).grid.coords t) 0).val = t.val := by
  have ht : t.val < 12500 := (npoints11 a1) ▸ t.isLt
  show t.val / grid11.stride 0 % 12500 = t.val
  rw [show grid11.stride 0 = 1 from by decide, Nat.div_one, Nat.mod_eq_of_lt ht]

/-- Both windows move with the point: block index (t, 0) at point t. -/
theorem idxInRow11 (t : Fin (cfg11 a1).N) : ((cfg11 a1).win 0).index t (0 : Fin 2) = t.val := by
  have ht : t.val < 12500 := (npoints11 a1) ▸ t.isLt
  show (BitVec.ofNat 32 (((cfg11 a1).grid.coords t) 0).val).toNat = t.val
  rw [coordsVal11, BitVec.toNat_ofNat, Nat.mod_eq_of_lt (by omega)]
theorem idxInCol11 (t : Fin (cfg11 a1).N) : ((cfg11 a1).win 0).index t (1 : Fin 2) = 0 := rfl
theorem idxOutRow11 (t : Fin (cfg11 a1).N) : ((cfg11 a1).win 1).index t (0 : Fin 2) = t.val := by
  have ht : t.val < 12500 := (npoints11 a1) ▸ t.isLt
  show (BitVec.ofNat 32 (((cfg11 a1).grid.coords t) 0).val).toNat = t.val
  rw [coordsVal11, BitVec.toNat_ofNat, Nat.mod_eq_of_lt (by omega)]
theorem idxOutCol11 (t : Fin (cfg11 a1).N) : ((cfg11 a1).win 1).index t (1 : Fin 2) = 0 := rfl

/-- The output window is written back at every point: the next point's block is another. -/
theorem flushOut11 (t : Fin (cfg11 a1).N) : ((cfg11 a1).win 1).flush t = true := by
  unfold Window.flush
  show (true && (decide (t.val + 1 = (cfg11 a1).N) || decide (∃ h : t.val + 1 < (cfg11 a1).N,
    ((cfg11 a1).win 1).index ⟨t.val + 1, h⟩ ≠ ((cfg11 a1).win 1).index t))) = true
  rw [Bool.true_and, Bool.or_eq_true, decide_eq_true_eq, decide_eq_true_eq]
  by_cases h : t.val + 1 = (cfg11 a1).N
  · exact Or.inl h
  · refine Or.inr ⟨by have := t.isLt; omega, fun e => ?_⟩
    have erow := congrFun e (0 : Fin 2)
    rw [idxOutRow11, idxOutRow11] at erow
    exact absurd erow (by show t.val + 1 ≠ t.val; omega)

/-! ## The operands at their literal types -/

/-- The table's words. -/
abbrev tbl11 : S100000.Idx → BitVec 32 := a1.1 0
/-- The far operand: the table of rows. -/
abbrev far11 (c : Dev nD) : S100000x64.Idx → EReal := V c main_v3
/-- The weights, as a column. -/
abbrev wts11 (c : Dev nD) : S100000x1.Idx → EReal := V c main_v47
/-- The input window's block at point t: eight weights. -/
abbrev inBlk11 (c : Dev nD) (t : Fin (cfg11 a1).N) : S8x1.Idx → EReal := iblk11 V a1 c 0 t

/-! ## The blocks -/

/-- Row r of the input window's block at point t is row 8 t + r of the column of weights. -/
theorem inBlk11_apply (c : Dev nD) (t : Fin (cfg11 a1).N) (r : Fin 8) (z : Fin 1) (k : S100000x1.Idx)
    (hkrow : (k 0).val = 8 * t.val + r.val) :
    inBlk11 V a1 c t (ValueIdx.ix2 r z) = wts11 V c k := by
  show wts11 V c ((((cfg11 a1).win 0).blk t).view.emb (ValueIdx.ix2 r z)) = wts11 V c k
  refine congrArg (wts11 V c) (funext fun a => Fin.ext ?_)
  match a with
  | ⟨0, _⟩ =>
    show ((cfg11 a1).win 0).index t (0 : Fin 2) * 8 + 1 * r.val = (k 0).val
    rw [idxInRow11, hkrow]; omega
  | ⟨1, _⟩ =>
    show ((cfg11 a1).win 0).index t (1 : Fin 2) * 1 + 1 * z.val = (k 1).val
    have hkcol : (k 1).val < 1 := idx2_lt1 k
    have hz : z.val < 1 := z.isLt
    rw [idxInCol11]; omega

/-- An index of the array is in point t's block iff each coordinate is in the block's range on its axis. -/
theorem mem_blkOut11 (t : Fin (cfg11 a1).N) (i : S100000x64.Idx) :
    i ∈ (((cfg11 a1).win 1).blk t).view.set ↔ ∀ a : Fin 2, ((cfg11 a1).win 1).index t a * S8x64.size a ≤ (i a).val
      ∧ (i a).val < ((cfg11 a1).win 1).index t a * S8x64.size a + S8x64.size a := by
  have hset : (((cfg11 a1).win 1).blk t).view.set = (((cfg11 a1).win 1).rect t : Rect S100000x64).set :=
    View.set_slice_whole main_v48 _
  have hmem : i ∈ (((cfg11 a1).win 1).rect t : Rect S100000x64).set ↔ ∀ a : Fin 2,
      ((cfg11 a1).win 1).index t a * S8x64.size a ≤ (i a).val
        ∧ (i a).val < ((cfg11 a1).win 1).index t a * S8x64.size a + S8x64.size a := Rect.mem_set_unit
  exact (Finset.ext_iff.mp hset i).trans hmem

/-- Every index of the array is in the block of the point its row over eight names. -/
theorem coverOut11 (i : S100000x64.Idx) :
    ∃ t : Fin (cfg11 a1).N, ((cfg11 a1).win 1).flush t = true ∧ i ∈ (((cfg11 a1).win 1).blk t).view.set := by
  have hirow : (i 0).val < 100000 := idx2_lt0 i
  have hicol : (i 1).val < 64 := idx2_lt1 i
  obtain ⟨t, ht⟩ : ∃ t : Fin (cfg11 a1).N, t.val = (i 0).val / 8 := ⟨⟨(i 0).val / 8, by rw [npoints11]; omega⟩, rfl⟩
  refine ⟨t, flushOut11 a1 t, ?_⟩
  rw [mem_blkOut11]
  intro a
  match a with
  | ⟨0, _⟩ =>
    show ((cfg11 a1).win 1).index t (0 : Fin 2) * 8 ≤ (i 0).val ∧ (i 0).val < ((cfg11 a1).win 1).index t (0 : Fin 2) * 8 + 8
    rw [idxOutRow11, ht]; omega
  | ⟨1, _⟩ =>
    show ((cfg11 a1).win 1).index t (1 : Fin 2) * 64 ≤ (i 1).val ∧ (i 1).val < ((cfg11 a1).win 1).index t (1 : Fin 2) * 64 + 64
    rw [idxOutCol11]; omega

/-! ## The array -/

/-- One weighted row at one column: the table row the e-th word names, at column j, times the e-th weight. -/
def chunkRow11 (hlt : ∀ y, (tbl11 a1 y).toNat < 100000) (c : Dev nD) (e : Fin 100000) (j : Fin 64) : EReal :=
  far11 V c (ValueIdx.ix2 ⟨(tbl11 a1 (ValueIdx.ix1 e)).toNat, hlt _⟩ j) * wts11 V c (ValueIdx.ix2 e (0 : Fin 1))

/-- The chunk's array as one function of the region's operands. -/
def chunkG11 (hlt : ∀ y, (tbl11 a1 y).toNat < 100000) (c : Dev nD) : S100000x64.Idx → EReal :=
  fun i => chunkRow11 V a1 hlt c (i 0) (i 1)

/-- Row r of point t's block lies in the table. -/
theorem row_lt11 (t : Fin (cfg11 a1).N) (r : Fin 8) : 8 * t.val + r.val < 100000 := by
  have ht : t.val < 12500 := (npoints11 a1) ▸ t.isLt
  have := r.isLt; omega

/-- WHAT POINT t WRITES BACK is block t of the chunk's array, when the body leaves in the output window's buffer,
    at (r, j), the table row that word 8 t + r names at column j times the input block's weight at (r, 0). -/
theorem flushedOut11_eq (hlt : ∀ y, (tbl11 a1 y).toNat < 100000)
    (hO : ∀ (c : Dev nD) (t : Fin (cfg11 a1).N) (r : Fin 8) (j : Fin 64), O c t (ValueIdx.ix2 r j)
      = far11 V c (ValueIdx.ix2 ⟨(tbl11 a1 (ValueIdx.ix1 ⟨8 * t.val + r.val, row_lt11 a1 t r⟩)).toNat, hlt _⟩ j)
        * inBlk11 V a1 c t (ValueIdx.ix2 r (0 : Fin 1)))
    (c : Dev nD) (t : Fin (cfg11 a1).N) :
    (dat11 V a1 O c).flushed 1 t = (((cfg11 a1).win 1).blk t).view.read (Elt Ideal) (chunkG11 V a1 hlt c) := by
  show ((cfg11 a1).win 1).cut ((cfg11 a1).grid.coords t) ((dat11 V a1 O c).after 1 t) = _
  rw [afterOut11]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG11 V a1 hlt c ((((cfg11 a1).win 1).blk t).view.emb (ValueIdx.ix2 r j))
  have hemb : (((cfg11 a1).win 1).blk t).view.emb (ValueIdx.ix2 r j)
      = (ValueIdx.ix2 ⟨8 * t.val + r.val, row_lt11 a1 t r⟩ j : S100000x64.Idx) := by
    funext a; apply Fin.ext
    match a with
    | ⟨0, _⟩ =>
      show ((cfg11 a1).win 1).index t (0 : Fin 2) * 8 + 1 * r.val = 8 * t.val + r.val
      rw [idxOutRow11]; omega
    | ⟨1, _⟩ =>
      show ((cfg11 a1).win 1).index t (1 : Fin 2) * 64 + 1 * j.val = j.val
      rw [idxOutCol11]; omega
  rw [hemb, hO c t r j,
    inBlk11_apply V a1 c t r 0 (ValueIdx.ix2 ⟨8 * t.val + r.val, row_lt11 a1 t r⟩ (0 : Fin 1)) rfl]
  rfl

/-- THE CHUNK'S ARRAY after the region: chunkG11. -/
theorem chunk_array11 (hlt : ∀ y, (tbl11 a1 y).toNat < 100000)
    (hO : ∀ (c : Dev nD) (t : Fin (cfg11 a1).N) (r : Fin 8) (j : Fin 64), O c t (ValueIdx.ix2 r j)
      = far11 V c (ValueIdx.ix2 ⟨(tbl11 a1 (ValueIdx.ix1 ⟨8 * t.val + r.val, row_lt11 a1 t r⟩)).toNat, hlt _⟩ j)
        * inBlk11 V a1 c t (ValueIdx.ix2 r (0 : Fin 1)))
    (c : Dev nD) :
    (dat11 V a1 O c).arrAt 1 (cfg11 a1).N = chunkG11 V a1 hlt c :=
  (dat11 V a1 O c).arrAt_eq_of_cover 1 (chunkG11 V a1 hlt c) (fun t _ => flushedOut11_eq V a1 O hlt hO c t) (coverOut11 a1)

/-! ## The body's own block -/

/-- Two rows of the far operand named by the same word are the same row. -/
theorem farRow11_congr (c : Dev nD) {e e' : Fin 100000} (h : e.val = e'.val) (j : Fin 64)
    (p : (tbl11 a1 (ValueIdx.ix1 e)).toNat < 100000) (p' : (tbl11 a1 (ValueIdx.ix1 e')).toNat < 100000) :
    far11 V c (ValueIdx.ix2 ⟨(tbl11 a1 (ValueIdx.ix1 e)).toNat, p⟩ j)
      = far11 V c (ValueIdx.ix2 ⟨(tbl11 a1 (ValueIdx.ix1 e')).toNat, p'⟩ j) := by
  obtain rfl : e = e' := Fin.ext h
  rfl

/-- The body's block at point t — the gathered rows scaled by the input block — has the entries hO asks. -/
theorem bodyBlk11_apply (hlt : ∀ y, (tbl11 a1 y).toNat < 100000) (c : Dev nD) (t : Fin (cfg11 a1).N) (r : Fin 8) (j : Fin 64) :
    gatherOut (gatherG (a1.1 0) (V c main_v3) (grid11.coords t)) (iblk11 V a1 c 0 t) (ValueIdx.ix2 r j)
      = far11 V c (ValueIdx.ix2 ⟨(tbl11 a1 (ValueIdx.ix1 ⟨8 * t.val + r.val, row_lt11 a1 t r⟩)).toNat, hlt _⟩ j)
        * inBlk11 V a1 c t (ValueIdx.ix2 r (0 : Fin 1)) := by
  have hpay : gatherOut (gatherG (a1.1 0) (V c main_v3) (grid11.coords t)) (iblk11 V a1 c 0 t) (ValueIdx.ix2 r j)
      = gatherG (F := Ideal) (tbl11 a1) (far11 V c) (grid11.coords t) (ValueIdx.ix2 r j) * inBlk11 V a1 c t (ValueIdx.ix2 r (0 : Fin 1)) :=
    Cert.Value.kernel_block (by decide) (by decide) (gatherG (F := Ideal) (tbl11 a1) (far11 V c) (grid11.coords t)) (inBlk11 V a1 c t) r j
  rw [hpay, gatherG_apply (F := Ideal) (tbl11 a1) (far11 V c) (grid11.coords t) r j (hlt _)]
  refine congrArg (· * inBlk11 V a1 c t (ValueIdx.ix2 r (0 : Fin 1))) ?_
  exact farRow11_congr V a1 c (by show 8 * ((grid11.coords t) 0).val + r.val = 8 * t.val + r.val; rw [coordsVal11 a1 t]) j _ _

/-- THE CHUNK'S ARRAY after the region, the output block being the body's own. -/
theorem chunk_array11_body (hlt : ∀ y, (tbl11 a1 y).toNat < 100000) (c : Dev nD) :
    (dat11 V a1 (fun c t => gatherOut (gatherG (a1.1 0) (V c main_v3) (grid11.coords t)) (iblk11 V a1 c 0 t)) c).arrAt 1 (cfg11 a1).N
      = chunkG11 V a1 hlt c :=
  chunk_array11 V a1 _ hlt (fun c t r j => bodyBlk11_apply V a1 hlt c t r j) c

/-! ## The array as a chunk of the weighted rows -/

/-- When the far operand is the table x, the region's table the slice of the row numbers cols at 100000 k and its
    weights the slice of vals there as a column, the region's array is chunk k of the weighted rows. -/
theorem chunkG11_eq_chunkSpec (hlt : ∀ y, (tbl11 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far11 V c = x) (ht : tbl11 a1 = extractStridedSlice Cert.Value.T100000 ![off] cols hsl)
    (hw : wts11 V c = shapeCast Cert.Value.T100000x1 (extractStridedSlice Cert.Value.T100000 ![off] vals hsl) hsc) :
    chunkG11 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl11 a1 (ValueIdx.ix1 e)).toNat, hlt _⟩ (congrArg (fun T : S100000.Idx → BitVec 32 => (T (ValueIdx.ix1 e)).toNat) ht), ← hx, ← hw]
  rfl

end Chunk

/-! # Region 12 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg12 (F := Ideal)).Adm)
  (O : (c : Dev nD) → Fin (cfg12 a1).N → Vec Ideal S8x64 .f32)

/-- The grid has 12500 points. -/
theorem npoints12 : (cfg12 a1).N = 12500 := N_12

/-- A point's one coordinate is the point's number. -/
theorem coordsVal12 (t : Fin (cfg12 a1).N) : (((cfg12 a1).grid.coords t) 0).val = t.val := by
  have ht : t.val < 12500 := (npoints12 a1) ▸ t.isLt
  show t.val / grid12.stride 0 % 12500 = t.val
  rw [show grid12.stride 0 = 1 from by decide, Nat.div_one, Nat.mod_eq_of_lt ht]

/-- Both windows move with the point: block index (t, 0) at point t. -/
theorem idxInRow12 (t : Fin (cfg12 a1).N) : ((cfg12 a1).win 0).index t (0 : Fin 2) = t.val := by
  have ht : t.val < 12500 := (npoints12 a1) ▸ t.isLt
  show (BitVec.ofNat 32 (((cfg12 a1).grid.coords t) 0).val).toNat = t.val
  rw [coordsVal12, BitVec.toNat_ofNat, Nat.mod_eq_of_lt (by omega)]
theorem idxInCol12 (t : Fin (cfg12 a1).N) : ((cfg12 a1).win 0).index t (1 : Fin 2) = 0 := rfl
theorem idxOutRow12 (t : Fin (cfg12 a1).N) : ((cfg12 a1).win 1).index t (0 : Fin 2) = t.val := by
  have ht : t.val < 12500 := (npoints12 a1) ▸ t.isLt
  show (BitVec.ofNat 32 (((cfg12 a1).grid.coords t) 0).val).toNat = t.val
  rw [coordsVal12, BitVec.toNat_ofNat, Nat.mod_eq_of_lt (by omega)]
theorem idxOutCol12 (t : Fin (cfg12 a1).N) : ((cfg12 a1).win 1).index t (1 : Fin 2) = 0 := rfl

/-- The output window is written back at every point: the next point's block is another. -/
theorem flushOut12 (t : Fin (cfg12 a1).N) : ((cfg12 a1).win 1).flush t = true := by
  unfold Window.flush
  show (true && (decide (t.val + 1 = (cfg12 a1).N) || decide (∃ h : t.val + 1 < (cfg12 a1).N,
    ((cfg12 a1).win 1).index ⟨t.val + 1, h⟩ ≠ ((cfg12 a1).win 1).index t))) = true
  rw [Bool.true_and, Bool.or_eq_true, decide_eq_true_eq, decide_eq_true_eq]
  by_cases h : t.val + 1 = (cfg12 a1).N
  · exact Or.inl h
  · refine Or.inr ⟨by have := t.isLt; omega, fun e => ?_⟩
    have erow := congrFun e (0 : Fin 2)
    rw [idxOutRow12, idxOutRow12] at erow
    exact absurd erow (by show t.val + 1 ≠ t.val; omega)

/-! ## The operands at their literal types -/

/-- The table's words. -/
abbrev tbl12 : S100000.Idx → BitVec 32 := a1.1 0
/-- The far operand: the table of rows. -/
abbrev far12 (c : Dev nD) : S100000x64.Idx → EReal := V c main_v3
/-- The weights, as a column. -/
abbrev wts12 (c : Dev nD) : S100000x1.Idx → EReal := V c main_v51
/-- The input window's block at point t: eight weights. -/
abbrev inBlk12 (c : Dev nD) (t : Fin (cfg12 a1).N) : S8x1.Idx → EReal := iblk12 V a1 c 0 t

/-! ## The blocks -/

/-- Row r of the input window's block at point t is row 8 t + r of the column of weights. -/
theorem inBlk12_apply (c : Dev nD) (t : Fin (cfg12 a1).N) (r : Fin 8) (z : Fin 1) (k : S100000x1.Idx)
    (hkrow : (k 0).val = 8 * t.val + r.val) :
    inBlk12 V a1 c t (ValueIdx.ix2 r z) = wts12 V c k := by
  show wts12 V c ((((cfg12 a1).win 0).blk t).view.emb (ValueIdx.ix2 r z)) = wts12 V c k
  refine congrArg (wts12 V c) (funext fun a => Fin.ext ?_)
  match a with
  | ⟨0, _⟩ =>
    show ((cfg12 a1).win 0).index t (0 : Fin 2) * 8 + 1 * r.val = (k 0).val
    rw [idxInRow12, hkrow]; omega
  | ⟨1, _⟩ =>
    show ((cfg12 a1).win 0).index t (1 : Fin 2) * 1 + 1 * z.val = (k 1).val
    have hkcol : (k 1).val < 1 := idx2_lt1 k
    have hz : z.val < 1 := z.isLt
    rw [idxInCol12]; omega

/-- An index of the array is in point t's block iff each coordinate is in the block's range on its axis. -/
theorem mem_blkOut12 (t : Fin (cfg12 a1).N) (i : S100000x64.Idx) :
    i ∈ (((cfg12 a1).win 1).blk t).view.set ↔ ∀ a : Fin 2, ((cfg12 a1).win 1).index t a * S8x64.size a ≤ (i a).val
      ∧ (i a).val < ((cfg12 a1).win 1).index t a * S8x64.size a + S8x64.size a := by
  have hset : (((cfg12 a1).win 1).blk t).view.set = (((cfg12 a1).win 1).rect t : Rect S100000x64).set :=
    View.set_slice_whole main_v52 _
  have hmem : i ∈ (((cfg12 a1).win 1).rect t : Rect S100000x64).set ↔ ∀ a : Fin 2,
      ((cfg12 a1).win 1).index t a * S8x64.size a ≤ (i a).val
        ∧ (i a).val < ((cfg12 a1).win 1).index t a * S8x64.size a + S8x64.size a := Rect.mem_set_unit
  exact (Finset.ext_iff.mp hset i).trans hmem

/-- Every index of the array is in the block of the point its row over eight names. -/
theorem coverOut12 (i : S100000x64.Idx) :
    ∃ t : Fin (cfg12 a1).N, ((cfg12 a1).win 1).flush t = true ∧ i ∈ (((cfg12 a1).win 1).blk t).view.set := by
  have hirow : (i 0).val < 100000 := idx2_lt0 i
  have hicol : (i 1).val < 64 := idx2_lt1 i
  obtain ⟨t, ht⟩ : ∃ t : Fin (cfg12 a1).N, t.val = (i 0).val / 8 := ⟨⟨(i 0).val / 8, by rw [npoints12]; omega⟩, rfl⟩
  refine ⟨t, flushOut12 a1 t, ?_⟩
  rw [mem_blkOut12]
  intro a
  match a with
  | ⟨0, _⟩ =>
    show ((cfg12 a1).win 1).index t (0 : Fin 2) * 8 ≤ (i 0).val ∧ (i 0).val < ((cfg12 a1).win 1).index t (0 : Fin 2) * 8 + 8
    rw [idxOutRow12, ht]; omega
  | ⟨1, _⟩ =>
    show ((cfg12 a1).win 1).index t (1 : Fin 2) * 64 ≤ (i 1).val ∧ (i 1).val < ((cfg12 a1).win 1).index t (1 : Fin 2) * 64 + 64
    rw [idxOutCol12]; omega

/-! ## The array -/

/-- One weighted row at one column: the table row the e-th word names, at column j, times the e-th weight. -/
def chunkRow12 (hlt : ∀ y, (tbl12 a1 y).toNat < 100000) (c : Dev nD) (e : Fin 100000) (j : Fin 64) : EReal :=
  far12 V c (ValueIdx.ix2 ⟨(tbl12 a1 (ValueIdx.ix1 e)).toNat, hlt _⟩ j) * wts12 V c (ValueIdx.ix2 e (0 : Fin 1))

/-- The chunk's array as one function of the region's operands. -/
def chunkG12 (hlt : ∀ y, (tbl12 a1 y).toNat < 100000) (c : Dev nD) : S100000x64.Idx → EReal :=
  fun i => chunkRow12 V a1 hlt c (i 0) (i 1)

/-- Row r of point t's block lies in the table. -/
theorem row_lt12 (t : Fin (cfg12 a1).N) (r : Fin 8) : 8 * t.val + r.val < 100000 := by
  have ht : t.val < 12500 := (npoints12 a1) ▸ t.isLt
  have := r.isLt; omega

/-- WHAT POINT t WRITES BACK is block t of the chunk's array, when the body leaves in the output window's buffer,
    at (r, j), the table row that word 8 t + r names at column j times the input block's weight at (r, 0). -/
theorem flushedOut12_eq (hlt : ∀ y, (tbl12 a1 y).toNat < 100000)
    (hO : ∀ (c : Dev nD) (t : Fin (cfg12 a1).N) (r : Fin 8) (j : Fin 64), O c t (ValueIdx.ix2 r j)
      = far12 V c (ValueIdx.ix2 ⟨(tbl12 a1 (ValueIdx.ix1 ⟨8 * t.val + r.val, row_lt12 a1 t r⟩)).toNat, hlt _⟩ j)
        * inBlk12 V a1 c t (ValueIdx.ix2 r (0 : Fin 1)))
    (c : Dev nD) (t : Fin (cfg12 a1).N) :
    (dat12 V a1 O c).flushed 1 t = (((cfg12 a1).win 1).blk t).view.read (Elt Ideal) (chunkG12 V a1 hlt c) := by
  show ((cfg12 a1).win 1).cut ((cfg12 a1).grid.coords t) ((dat12 V a1 O c).after 1 t) = _
  rw [afterOut12]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG12 V a1 hlt c ((((cfg12 a1).win 1).blk t).view.emb (ValueIdx.ix2 r j))
  have hemb : (((cfg12 a1).win 1).blk t).view.emb (ValueIdx.ix2 r j)
      = (ValueIdx.ix2 ⟨8 * t.val + r.val, row_lt12 a1 t r⟩ j : S100000x64.Idx) := by
    funext a; apply Fin.ext
    match a with
    | ⟨0, _⟩ =>
      show ((cfg12 a1).win 1).index t (0 : Fin 2) * 8 + 1 * r.val = 8 * t.val + r.val
      rw [idxOutRow12]; omega
    | ⟨1, _⟩ =>
      show ((cfg12 a1).win 1).index t (1 : Fin 2) * 64 + 1 * j.val = j.val
      rw [idxOutCol12]; omega
  rw [hemb, hO c t r j,
    inBlk12_apply V a1 c t r 0 (ValueIdx.ix2 ⟨8 * t.val + r.val, row_lt12 a1 t r⟩ (0 : Fin 1)) rfl]
  rfl

/-- THE CHUNK'S ARRAY after the region: chunkG12. -/
theorem chunk_array12 (hlt : ∀ y, (tbl12 a1 y).toNat < 100000)
    (hO : ∀ (c : Dev nD) (t : Fin (cfg12 a1).N) (r : Fin 8) (j : Fin 64), O c t (ValueIdx.ix2 r j)
      = far12 V c (ValueIdx.ix2 ⟨(tbl12 a1 (ValueIdx.ix1 ⟨8 * t.val + r.val, row_lt12 a1 t r⟩)).toNat, hlt _⟩ j)
        * inBlk12 V a1 c t (ValueIdx.ix2 r (0 : Fin 1)))
    (c : Dev nD) :
    (dat12 V a1 O c).arrAt 1 (cfg12 a1).N = chunkG12 V a1 hlt c :=
  (dat12 V a1 O c).arrAt_eq_of_cover 1 (chunkG12 V a1 hlt c) (fun t _ => flushedOut12_eq V a1 O hlt hO c t) (coverOut12 a1)

/-! ## The body's own block -/

/-- Two rows of the far operand named by the same word are the same row. -/
theorem farRow12_congr (c : Dev nD) {e e' : Fin 100000} (h : e.val = e'.val) (j : Fin 64)
    (p : (tbl12 a1 (ValueIdx.ix1 e)).toNat < 100000) (p' : (tbl12 a1 (ValueIdx.ix1 e')).toNat < 100000) :
    far12 V c (ValueIdx.ix2 ⟨(tbl12 a1 (ValueIdx.ix1 e)).toNat, p⟩ j)
      = far12 V c (ValueIdx.ix2 ⟨(tbl12 a1 (ValueIdx.ix1 e')).toNat, p'⟩ j) := by
  obtain rfl : e = e' := Fin.ext h
  rfl

/-- The body's block at point t — the gathered rows scaled by the input block — has the entries hO asks. -/
theorem bodyBlk12_apply (hlt : ∀ y, (tbl12 a1 y).toNat < 100000) (c : Dev nD) (t : Fin (cfg12 a1).N) (r : Fin 8) (j : Fin 64) :
    gatherOut (gatherG (a1.1 0) (V c main_v3) (grid12.coords t)) (iblk12 V a1 c 0 t) (ValueIdx.ix2 r j)
      = far12 V c (ValueIdx.ix2 ⟨(tbl12 a1 (ValueIdx.ix1 ⟨8 * t.val + r.val, row_lt12 a1 t r⟩)).toNat, hlt _⟩ j)
        * inBlk12 V a1 c t (ValueIdx.ix2 r (0 : Fin 1)) := by
  have hpay : gatherOut (gatherG (a1.1 0) (V c main_v3) (grid12.coords t)) (iblk12 V a1 c 0 t) (ValueIdx.ix2 r j)
      = gatherG (F := Ideal) (tbl12 a1) (far12 V c) (grid12.coords t) (ValueIdx.ix2 r j) * inBlk12 V a1 c t (ValueIdx.ix2 r (0 : Fin 1)) :=
    Cert.Value.kernel_block (by decide) (by decide) (gatherG (F := Ideal) (tbl12 a1) (far12 V c) (grid12.coords t)) (inBlk12 V a1 c t) r j
  rw [hpay, gatherG_apply (F := Ideal) (tbl12 a1) (far12 V c) (grid12.coords t) r j (hlt _)]
  refine congrArg (· * inBlk12 V a1 c t (ValueIdx.ix2 r (0 : Fin 1))) ?_
  exact farRow12_congr V a1 c (by show 8 * ((grid12.coords t) 0).val + r.val = 8 * t.val + r.val; rw [coordsVal12 a1 t]) j _ _

/-- THE CHUNK'S ARRAY after the region, the output block being the body's own. -/
theorem chunk_array12_body (hlt : ∀ y, (tbl12 a1 y).toNat < 100000) (c : Dev nD) :
    (dat12 V a1 (fun c t => gatherOut (gatherG (a1.1 0) (V c main_v3) (grid12.coords t)) (iblk12 V a1 c 0 t)) c).arrAt 1 (cfg12 a1).N
      = chunkG12 V a1 hlt c :=
  chunk_array12 V a1 _ hlt (fun c t r j => bodyBlk12_apply V a1 hlt c t r j) c

/-! ## The array as a chunk of the weighted rows -/

/-- When the far operand is the table x, the region's table the slice of the row numbers cols at 100000 k and its
    weights the slice of vals there as a column, the region's array is chunk k of the weighted rows. -/
theorem chunkG12_eq_chunkSpec (hlt : ∀ y, (tbl12 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far12 V c = x) (ht : tbl12 a1 = extractStridedSlice Cert.Value.T100000 ![off] cols hsl)
    (hw : wts12 V c = shapeCast Cert.Value.T100000x1 (extractStridedSlice Cert.Value.T100000 ![off] vals hsl) hsc) :
    chunkG12 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl12 a1 (ValueIdx.ix1 e)).toNat, hlt _⟩ (congrArg (fun T : S100000.Idx → BitVec 32 => (T (ValueIdx.ix1 e)).toNat) ht), ← hx, ← hw]
  rfl

end Chunk

/-! # Region 13 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg13 (F := Ideal)).Adm)
  (O : (c : Dev nD) → Fin (cfg13 a1).N → Vec Ideal S8x64 .f32)

/-- The grid has 12500 points. -/
theorem npoints13 : (cfg13 a1).N = 12500 := N_13

/-- A point's one coordinate is the point's number. -/
theorem coordsVal13 (t : Fin (cfg13 a1).N) : (((cfg13 a1).grid.coords t) 0).val = t.val := by
  have ht : t.val < 12500 := (npoints13 a1) ▸ t.isLt
  show t.val / grid13.stride 0 % 12500 = t.val
  rw [show grid13.stride 0 = 1 from by decide, Nat.div_one, Nat.mod_eq_of_lt ht]

/-- Both windows move with the point: block index (t, 0) at point t. -/
theorem idxInRow13 (t : Fin (cfg13 a1).N) : ((cfg13 a1).win 0).index t (0 : Fin 2) = t.val := by
  have ht : t.val < 12500 := (npoints13 a1) ▸ t.isLt
  show (BitVec.ofNat 32 (((cfg13 a1).grid.coords t) 0).val).toNat = t.val
  rw [coordsVal13, BitVec.toNat_ofNat, Nat.mod_eq_of_lt (by omega)]
theorem idxInCol13 (t : Fin (cfg13 a1).N) : ((cfg13 a1).win 0).index t (1 : Fin 2) = 0 := rfl
theorem idxOutRow13 (t : Fin (cfg13 a1).N) : ((cfg13 a1).win 1).index t (0 : Fin 2) = t.val := by
  have ht : t.val < 12500 := (npoints13 a1) ▸ t.isLt
  show (BitVec.ofNat 32 (((cfg13 a1).grid.coords t) 0).val).toNat = t.val
  rw [coordsVal13, BitVec.toNat_ofNat, Nat.mod_eq_of_lt (by omega)]
theorem idxOutCol13 (t : Fin (cfg13 a1).N) : ((cfg13 a1).win 1).index t (1 : Fin 2) = 0 := rfl

/-- The output window is written back at every point: the next point's block is another. -/
theorem flushOut13 (t : Fin (cfg13 a1).N) : ((cfg13 a1).win 1).flush t = true := by
  unfold Window.flush
  show (true && (decide (t.val + 1 = (cfg13 a1).N) || decide (∃ h : t.val + 1 < (cfg13 a1).N,
    ((cfg13 a1).win 1).index ⟨t.val + 1, h⟩ ≠ ((cfg13 a1).win 1).index t))) = true
  rw [Bool.true_and, Bool.or_eq_true, decide_eq_true_eq, decide_eq_true_eq]
  by_cases h : t.val + 1 = (cfg13 a1).N
  · exact Or.inl h
  · refine Or.inr ⟨by have := t.isLt; omega, fun e => ?_⟩
    have erow := congrFun e (0 : Fin 2)
    rw [idxOutRow13, idxOutRow13] at erow
    exact absurd erow (by show t.val + 1 ≠ t.val; omega)

/-! ## The operands at their literal types -/

/-- The table's words. -/
abbrev tbl13 : S100000.Idx → BitVec 32 := a1.1 0
/-- The far operand: the table of rows. -/
abbrev far13 (c : Dev nD) : S100000x64.Idx → EReal := V c main_v3
/-- The weights, as a column. -/
abbrev wts13 (c : Dev nD) : S100000x1.Idx → EReal := V c main_v55
/-- The input window's block at point t: eight weights. -/
abbrev inBlk13 (c : Dev nD) (t : Fin (cfg13 a1).N) : S8x1.Idx → EReal := iblk13 V a1 c 0 t

/-! ## The blocks -/

/-- Row r of the input window's block at point t is row 8 t + r of the column of weights. -/
theorem inBlk13_apply (c : Dev nD) (t : Fin (cfg13 a1).N) (r : Fin 8) (z : Fin 1) (k : S100000x1.Idx)
    (hkrow : (k 0).val = 8 * t.val + r.val) :
    inBlk13 V a1 c t (ValueIdx.ix2 r z) = wts13 V c k := by
  show wts13 V c ((((cfg13 a1).win 0).blk t).view.emb (ValueIdx.ix2 r z)) = wts13 V c k
  refine congrArg (wts13 V c) (funext fun a => Fin.ext ?_)
  match a with
  | ⟨0, _⟩ =>
    show ((cfg13 a1).win 0).index t (0 : Fin 2) * 8 + 1 * r.val = (k 0).val
    rw [idxInRow13, hkrow]; omega
  | ⟨1, _⟩ =>
    show ((cfg13 a1).win 0).index t (1 : Fin 2) * 1 + 1 * z.val = (k 1).val
    have hkcol : (k 1).val < 1 := idx2_lt1 k
    have hz : z.val < 1 := z.isLt
    rw [idxInCol13]; omega

/-- An index of the array is in point t's block iff each coordinate is in the block's range on its axis. -/
theorem mem_blkOut13 (t : Fin (cfg13 a1).N) (i : S100000x64.Idx) :
    i ∈ (((cfg13 a1).win 1).blk t).view.set ↔ ∀ a : Fin 2, ((cfg13 a1).win 1).index t a * S8x64.size a ≤ (i a).val
      ∧ (i a).val < ((cfg13 a1).win 1).index t a * S8x64.size a + S8x64.size a := by
  have hset : (((cfg13 a1).win 1).blk t).view.set = (((cfg13 a1).win 1).rect t : Rect S100000x64).set :=
    View.set_slice_whole main_v56 _
  have hmem : i ∈ (((cfg13 a1).win 1).rect t : Rect S100000x64).set ↔ ∀ a : Fin 2,
      ((cfg13 a1).win 1).index t a * S8x64.size a ≤ (i a).val
        ∧ (i a).val < ((cfg13 a1).win 1).index t a * S8x64.size a + S8x64.size a := Rect.mem_set_unit
  exact (Finset.ext_iff.mp hset i).trans hmem

/-- Every index of the array is in the block of the point its row over eight names. -/
theorem coverOut13 (i : S100000x64.Idx) :
    ∃ t : Fin (cfg13 a1).N, ((cfg13 a1).win 1).flush t = true ∧ i ∈ (((cfg13 a1).win 1).blk t).view.set := by
  have hirow : (i 0).val < 100000 := idx2_lt0 i
  have hicol : (i 1).val < 64 := idx2_lt1 i
  obtain ⟨t, ht⟩ : ∃ t : Fin (cfg13 a1).N, t.val = (i 0).val / 8 := ⟨⟨(i 0).val / 8, by rw [npoints13]; omega⟩, rfl⟩
  refine ⟨t, flushOut13 a1 t, ?_⟩
  rw [mem_blkOut13]
  intro a
  match a with
  | ⟨0, _⟩ =>
    show ((cfg13 a1).win 1).index t (0 : Fin 2) * 8 ≤ (i 0).val ∧ (i 0).val < ((cfg13 a1).win 1).index t (0 : Fin 2) * 8 + 8
    rw [idxOutRow13, ht]; omega
  | ⟨1, _⟩ =>
    show ((cfg13 a1).win 1).index t (1 : Fin 2) * 64 ≤ (i 1).val ∧ (i 1).val < ((cfg13 a1).win 1).index t (1 : Fin 2) * 64 + 64
    rw [idxOutCol13]; omega

/-! ## The array -/

/-- One weighted row at one column: the table row the e-th word names, at column j, times the e-th weight. -/
def chunkRow13 (hlt : ∀ y, (tbl13 a1 y).toNat < 100000) (c : Dev nD) (e : Fin 100000) (j : Fin 64) : EReal :=
  far13 V c (ValueIdx.ix2 ⟨(tbl13 a1 (ValueIdx.ix1 e)).toNat, hlt _⟩ j) * wts13 V c (ValueIdx.ix2 e (0 : Fin 1))

/-- The chunk's array as one function of the region's operands. -/
def chunkG13 (hlt : ∀ y, (tbl13 a1 y).toNat < 100000) (c : Dev nD) : S100000x64.Idx → EReal :=
  fun i => chunkRow13 V a1 hlt c (i 0) (i 1)

/-- Row r of point t's block lies in the table. -/
theorem row_lt13 (t : Fin (cfg13 a1).N) (r : Fin 8) : 8 * t.val + r.val < 100000 := by
  have ht : t.val < 12500 := (npoints13 a1) ▸ t.isLt
  have := r.isLt; omega

/-- WHAT POINT t WRITES BACK is block t of the chunk's array, when the body leaves in the output window's buffer,
    at (r, j), the table row that word 8 t + r names at column j times the input block's weight at (r, 0). -/
theorem flushedOut13_eq (hlt : ∀ y, (tbl13 a1 y).toNat < 100000)
    (hO : ∀ (c : Dev nD) (t : Fin (cfg13 a1).N) (r : Fin 8) (j : Fin 64), O c t (ValueIdx.ix2 r j)
      = far13 V c (ValueIdx.ix2 ⟨(tbl13 a1 (ValueIdx.ix1 ⟨8 * t.val + r.val, row_lt13 a1 t r⟩)).toNat, hlt _⟩ j)
        * inBlk13 V a1 c t (ValueIdx.ix2 r (0 : Fin 1)))
    (c : Dev nD) (t : Fin (cfg13 a1).N) :
    (dat13 V a1 O c).flushed 1 t = (((cfg13 a1).win 1).blk t).view.read (Elt Ideal) (chunkG13 V a1 hlt c) := by
  show ((cfg13 a1).win 1).cut ((cfg13 a1).grid.coords t) ((dat13 V a1 O c).after 1 t) = _
  rw [afterOut13]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG13 V a1 hlt c ((((cfg13 a1).win 1).blk t).view.emb (ValueIdx.ix2 r j))
  have hemb : (((cfg13 a1).win 1).blk t).view.emb (ValueIdx.ix2 r j)
      = (ValueIdx.ix2 ⟨8 * t.val + r.val, row_lt13 a1 t r⟩ j : S100000x64.Idx) := by
    funext a; apply Fin.ext
    match a with
    | ⟨0, _⟩ =>
      show ((cfg13 a1).win 1).index t (0 : Fin 2) * 8 + 1 * r.val = 8 * t.val + r.val
      rw [idxOutRow13]; omega
    | ⟨1, _⟩ =>
      show ((cfg13 a1).win 1).index t (1 : Fin 2) * 64 + 1 * j.val = j.val
      rw [idxOutCol13]; omega
  rw [hemb, hO c t r j,
    inBlk13_apply V a1 c t r 0 (ValueIdx.ix2 ⟨8 * t.val + r.val, row_lt13 a1 t r⟩ (0 : Fin 1)) rfl]
  rfl

/-- THE CHUNK'S ARRAY after the region: chunkG13. -/
theorem chunk_array13 (hlt : ∀ y, (tbl13 a1 y).toNat < 100000)
    (hO : ∀ (c : Dev nD) (t : Fin (cfg13 a1).N) (r : Fin 8) (j : Fin 64), O c t (ValueIdx.ix2 r j)
      = far13 V c (ValueIdx.ix2 ⟨(tbl13 a1 (ValueIdx.ix1 ⟨8 * t.val + r.val, row_lt13 a1 t r⟩)).toNat, hlt _⟩ j)
        * inBlk13 V a1 c t (ValueIdx.ix2 r (0 : Fin 1)))
    (c : Dev nD) :
    (dat13 V a1 O c).arrAt 1 (cfg13 a1).N = chunkG13 V a1 hlt c :=
  (dat13 V a1 O c).arrAt_eq_of_cover 1 (chunkG13 V a1 hlt c) (fun t _ => flushedOut13_eq V a1 O hlt hO c t) (coverOut13 a1)

/-! ## The body's own block -/

/-- Two rows of the far operand named by the same word are the same row. -/
theorem farRow13_congr (c : Dev nD) {e e' : Fin 100000} (h : e.val = e'.val) (j : Fin 64)
    (p : (tbl13 a1 (ValueIdx.ix1 e)).toNat < 100000) (p' : (tbl13 a1 (ValueIdx.ix1 e')).toNat < 100000) :
    far13 V c (ValueIdx.ix2 ⟨(tbl13 a1 (ValueIdx.ix1 e)).toNat, p⟩ j)
      = far13 V c (ValueIdx.ix2 ⟨(tbl13 a1 (ValueIdx.ix1 e')).toNat, p'⟩ j) := by
  obtain rfl : e = e' := Fin.ext h
  rfl

/-- The body's block at point t — the gathered rows scaled by the input block — has the entries hO asks. -/
theorem bodyBlk13_apply (hlt : ∀ y, (tbl13 a1 y).toNat < 100000) (c : Dev nD) (t : Fin (cfg13 a1).N) (r : Fin 8) (j : Fin 64) :
    gatherOut (gatherG (a1.1 0) (V c main_v3) (grid13.coords t)) (iblk13 V a1 c 0 t) (ValueIdx.ix2 r j)
      = far13 V c (ValueIdx.ix2 ⟨(tbl13 a1 (ValueIdx.ix1 ⟨8 * t.val + r.val, row_lt13 a1 t r⟩)).toNat, hlt _⟩ j)
        * inBlk13 V a1 c t (ValueIdx.ix2 r (0 : Fin 1)) := by
  have hpay : gatherOut (gatherG (a1.1 0) (V c main_v3) (grid13.coords t)) (iblk13 V a1 c 0 t) (ValueIdx.ix2 r j)
      = gatherG (F := Ideal) (tbl13 a1) (far13 V c) (grid13.coords t) (ValueIdx.ix2 r j) * inBlk13 V a1 c t (ValueIdx.ix2 r (0 : Fin 1)) :=
    Cert.Value.kernel_block (by decide) (by decide) (gatherG (F := Ideal) (tbl13 a1) (far13 V c) (grid13.coords t)) (inBlk13 V a1 c t) r j
  rw [hpay, gatherG_apply (F := Ideal) (tbl13 a1) (far13 V c) (grid13.coords t) r j (hlt _)]
  refine congrArg (· * inBlk13 V a1 c t (ValueIdx.ix2 r (0 : Fin 1))) ?_
  exact farRow13_congr V a1 c (by show 8 * ((grid13.coords t) 0).val + r.val = 8 * t.val + r.val; rw [coordsVal13 a1 t]) j _ _

/-- THE CHUNK'S ARRAY after the region, the output block being the body's own. -/
theorem chunk_array13_body (hlt : ∀ y, (tbl13 a1 y).toNat < 100000) (c : Dev nD) :
    (dat13 V a1 (fun c t => gatherOut (gatherG (a1.1 0) (V c main_v3) (grid13.coords t)) (iblk13 V a1 c 0 t)) c).arrAt 1 (cfg13 a1).N
      = chunkG13 V a1 hlt c :=
  chunk_array13 V a1 _ hlt (fun c t r j => bodyBlk13_apply V a1 hlt c t r j) c

/-! ## The array as a chunk of the weighted rows -/

/-- When the far operand is the table x, the region's table the slice of the row numbers cols at 100000 k and its
    weights the slice of vals there as a column, the region's array is chunk k of the weighted rows. -/
theorem chunkG13_eq_chunkSpec (hlt : ∀ y, (tbl13 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far13 V c = x) (ht : tbl13 a1 = extractStridedSlice Cert.Value.T100000 ![off] cols hsl)
    (hw : wts13 V c = shapeCast Cert.Value.T100000x1 (extractStridedSlice Cert.Value.T100000 ![off] vals hsl) hsc) :
    chunkG13 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl13 a1 (ValueIdx.ix1 e)).toNat, hlt _⟩ (congrArg (fun T : S100000.Idx → BitVec 32 => (T (ValueIdx.ix1 e)).toNat) ht), ← hx, ← hw]
  rfl

end Chunk

/-! # Region 14 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg14 (F := Ideal)).Adm)
  (O : (c : Dev nD) → Fin (cfg14 a1).N → Vec Ideal S8x64 .f32)

/-- The grid has 12500 points. -/
theorem npoints14 : (cfg14 a1).N = 12500 := N_14

/-- A point's one coordinate is the point's number. -/
theorem coordsVal14 (t : Fin (cfg14 a1).N) : (((cfg14 a1).grid.coords t) 0).val = t.val := by
  have ht : t.val < 12500 := (npoints14 a1) ▸ t.isLt
  show t.val / grid14.stride 0 % 12500 = t.val
  rw [show grid14.stride 0 = 1 from by decide, Nat.div_one, Nat.mod_eq_of_lt ht]

/-- Both windows move with the point: block index (t, 0) at point t. -/
theorem idxInRow14 (t : Fin (cfg14 a1).N) : ((cfg14 a1).win 0).index t (0 : Fin 2) = t.val := by
  have ht : t.val < 12500 := (npoints14 a1) ▸ t.isLt
  show (BitVec.ofNat 32 (((cfg14 a1).grid.coords t) 0).val).toNat = t.val
  rw [coordsVal14, BitVec.toNat_ofNat, Nat.mod_eq_of_lt (by omega)]
theorem idxInCol14 (t : Fin (cfg14 a1).N) : ((cfg14 a1).win 0).index t (1 : Fin 2) = 0 := rfl
theorem idxOutRow14 (t : Fin (cfg14 a1).N) : ((cfg14 a1).win 1).index t (0 : Fin 2) = t.val := by
  have ht : t.val < 12500 := (npoints14 a1) ▸ t.isLt
  show (BitVec.ofNat 32 (((cfg14 a1).grid.coords t) 0).val).toNat = t.val
  rw [coordsVal14, BitVec.toNat_ofNat, Nat.mod_eq_of_lt (by omega)]
theorem idxOutCol14 (t : Fin (cfg14 a1).N) : ((cfg14 a1).win 1).index t (1 : Fin 2) = 0 := rfl

/-- The output window is written back at every point: the next point's block is another. -/
theorem flushOut14 (t : Fin (cfg14 a1).N) : ((cfg14 a1).win 1).flush t = true := by
  unfold Window.flush
  show (true && (decide (t.val + 1 = (cfg14 a1).N) || decide (∃ h : t.val + 1 < (cfg14 a1).N,
    ((cfg14 a1).win 1).index ⟨t.val + 1, h⟩ ≠ ((cfg14 a1).win 1).index t))) = true
  rw [Bool.true_and, Bool.or_eq_true, decide_eq_true_eq, decide_eq_true_eq]
  by_cases h : t.val + 1 = (cfg14 a1).N
  · exact Or.inl h
  · refine Or.inr ⟨by have := t.isLt; omega, fun e => ?_⟩
    have erow := congrFun e (0 : Fin 2)
    rw [idxOutRow14, idxOutRow14] at erow
    exact absurd erow (by show t.val + 1 ≠ t.val; omega)

/-! ## The operands at their literal types -/

/-- The table's words. -/
abbrev tbl14 : S100000.Idx → BitVec 32 := a1.1 0
/-- The far operand: the table of rows. -/
abbrev far14 (c : Dev nD) : S100000x64.Idx → EReal := V c main_v3
/-- The weights, as a column. -/
abbrev wts14 (c : Dev nD) : S100000x1.Idx → EReal := V c main_v59
/-- The input window's block at point t: eight weights. -/
abbrev inBlk14 (c : Dev nD) (t : Fin (cfg14 a1).N) : S8x1.Idx → EReal := iblk14 V a1 c 0 t

/-! ## The blocks -/

/-- Row r of the input window's block at point t is row 8 t + r of the column of weights. -/
theorem inBlk14_apply (c : Dev nD) (t : Fin (cfg14 a1).N) (r : Fin 8) (z : Fin 1) (k : S100000x1.Idx)
    (hkrow : (k 0).val = 8 * t.val + r.val) :
    inBlk14 V a1 c t (ValueIdx.ix2 r z) = wts14 V c k := by
  show wts14 V c ((((cfg14 a1).win 0).blk t).view.emb (ValueIdx.ix2 r z)) = wts14 V c k
  refine congrArg (wts14 V c) (funext fun a => Fin.ext ?_)
  match a with
  | ⟨0, _⟩ =>
    show ((cfg14 a1).win 0).index t (0 : Fin 2) * 8 + 1 * r.val = (k 0).val
    rw [idxInRow14, hkrow]; omega
  | ⟨1, _⟩ =>
    show ((cfg14 a1).win 0).index t (1 : Fin 2) * 1 + 1 * z.val = (k 1).val
    have hkcol : (k 1).val < 1 := idx2_lt1 k
    have hz : z.val < 1 := z.isLt
    rw [idxInCol14]; omega

/-- An index of the array is in point t's block iff each coordinate is in the block's range on its axis. -/
theorem mem_blkOut14 (t : Fin (cfg14 a1).N) (i : S100000x64.Idx) :
    i ∈ (((cfg14 a1).win 1).blk t).view.set ↔ ∀ a : Fin 2, ((cfg14 a1).win 1).index t a * S8x64.size a ≤ (i a).val
      ∧ (i a).val < ((cfg14 a1).win 1).index t a * S8x64.size a + S8x64.size a := by
  have hset : (((cfg14 a1).win 1).blk t).view.set = (((cfg14 a1).win 1).rect t : Rect S100000x64).set :=
    View.set_slice_whole main_v60 _
  have hmem : i ∈ (((cfg14 a1).win 1).rect t : Rect S100000x64).set ↔ ∀ a : Fin 2,
      ((cfg14 a1).win 1).index t a * S8x64.size a ≤ (i a).val
        ∧ (i a).val < ((cfg14 a1).win 1).index t a * S8x64.size a + S8x64.size a := Rect.mem_set_unit
  exact (Finset.ext_iff.mp hset i).trans hmem

/-- Every index of the array is in the block of the point its row over eight names. -/
theorem coverOut14 (i : S100000x64.Idx) :
    ∃ t : Fin (cfg14 a1).N, ((cfg14 a1).win 1).flush t = true ∧ i ∈ (((cfg14 a1).win 1).blk t).view.set := by
  have hirow : (i 0).val < 100000 := idx2_lt0 i
  have hicol : (i 1).val < 64 := idx2_lt1 i
  obtain ⟨t, ht⟩ : ∃ t : Fin (cfg14 a1).N, t.val = (i 0).val / 8 := ⟨⟨(i 0).val / 8, by rw [npoints14]; omega⟩, rfl⟩
  refine ⟨t, flushOut14 a1 t, ?_⟩
  rw [mem_blkOut14]
  intro a
  match a with
  | ⟨0, _⟩ =>
    show ((cfg14 a1).win 1).index t (0 : Fin 2) * 8 ≤ (i 0).val ∧ (i 0).val < ((cfg14 a1).win 1).index t (0 : Fin 2) * 8 + 8
    rw [idxOutRow14, ht]; omega
  | ⟨1, _⟩ =>
    show ((cfg14 a1).win 1).index t (1 : Fin 2) * 64 ≤ (i 1).val ∧ (i 1).val < ((cfg14 a1).win 1).index t (1 : Fin 2) * 64 + 64
    rw [idxOutCol14]; omega

/-! ## The array -/

/-- One weighted row at one column: the table row the e-th word names, at column j, times the e-th weight. -/
def chunkRow14 (hlt : ∀ y, (tbl14 a1 y).toNat < 100000) (c : Dev nD) (e : Fin 100000) (j : Fin 64) : EReal :=
  far14 V c (ValueIdx.ix2 ⟨(tbl14 a1 (ValueIdx.ix1 e)).toNat, hlt _⟩ j) * wts14 V c (ValueIdx.ix2 e (0 : Fin 1))

/-- The chunk's array as one function of the region's operands. -/
def chunkG14 (hlt : ∀ y, (tbl14 a1 y).toNat < 100000) (c : Dev nD) : S100000x64.Idx → EReal :=
  fun i => chunkRow14 V a1 hlt c (i 0) (i 1)

/-- Row r of point t's block lies in the table. -/
theorem row_lt14 (t : Fin (cfg14 a1).N) (r : Fin 8) : 8 * t.val + r.val < 100000 := by
  have ht : t.val < 12500 := (npoints14 a1) ▸ t.isLt
  have := r.isLt; omega

/-- WHAT POINT t WRITES BACK is block t of the chunk's array, when the body leaves in the output window's buffer,
    at (r, j), the table row that word 8 t + r names at column j times the input block's weight at (r, 0). -/
theorem flushedOut14_eq (hlt : ∀ y, (tbl14 a1 y).toNat < 100000)
    (hO : ∀ (c : Dev nD) (t : Fin (cfg14 a1).N) (r : Fin 8) (j : Fin 64), O c t (ValueIdx.ix2 r j)
      = far14 V c (ValueIdx.ix2 ⟨(tbl14 a1 (ValueIdx.ix1 ⟨8 * t.val + r.val, row_lt14 a1 t r⟩)).toNat, hlt _⟩ j)
        * inBlk14 V a1 c t (ValueIdx.ix2 r (0 : Fin 1)))
    (c : Dev nD) (t : Fin (cfg14 a1).N) :
    (dat14 V a1 O c).flushed 1 t = (((cfg14 a1).win 1).blk t).view.read (Elt Ideal) (chunkG14 V a1 hlt c) := by
  show ((cfg14 a1).win 1).cut ((cfg14 a1).grid.coords t) ((dat14 V a1 O c).after 1 t) = _
  rw [afterOut14]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG14 V a1 hlt c ((((cfg14 a1).win 1).blk t).view.emb (ValueIdx.ix2 r j))
  have hemb : (((cfg14 a1).win 1).blk t).view.emb (ValueIdx.ix2 r j)
      = (ValueIdx.ix2 ⟨8 * t.val + r.val, row_lt14 a1 t r⟩ j : S100000x64.Idx) := by
    funext a; apply Fin.ext
    match a with
    | ⟨0, _⟩ =>
      show ((cfg14 a1).win 1).index t (0 : Fin 2) * 8 + 1 * r.val = 8 * t.val + r.val
      rw [idxOutRow14]; omega
    | ⟨1, _⟩ =>
      show ((cfg14 a1).win 1).index t (1 : Fin 2) * 64 + 1 * j.val = j.val
      rw [idxOutCol14]; omega
  rw [hemb, hO c t r j,
    inBlk14_apply V a1 c t r 0 (ValueIdx.ix2 ⟨8 * t.val + r.val, row_lt14 a1 t r⟩ (0 : Fin 1)) rfl]
  rfl

/-- THE CHUNK'S ARRAY after the region: chunkG14. -/
theorem chunk_array14 (hlt : ∀ y, (tbl14 a1 y).toNat < 100000)
    (hO : ∀ (c : Dev nD) (t : Fin (cfg14 a1).N) (r : Fin 8) (j : Fin 64), O c t (ValueIdx.ix2 r j)
      = far14 V c (ValueIdx.ix2 ⟨(tbl14 a1 (ValueIdx.ix1 ⟨8 * t.val + r.val, row_lt14 a1 t r⟩)).toNat, hlt _⟩ j)
        * inBlk14 V a1 c t (ValueIdx.ix2 r (0 : Fin 1)))
    (c : Dev nD) :
    (dat14 V a1 O c).arrAt 1 (cfg14 a1).N = chunkG14 V a1 hlt c :=
  (dat14 V a1 O c).arrAt_eq_of_cover 1 (chunkG14 V a1 hlt c) (fun t _ => flushedOut14_eq V a1 O hlt hO c t) (coverOut14 a1)

/-! ## The body's own block -/

/-- Two rows of the far operand named by the same word are the same row. -/
theorem farRow14_congr (c : Dev nD) {e e' : Fin 100000} (h : e.val = e'.val) (j : Fin 64)
    (p : (tbl14 a1 (ValueIdx.ix1 e)).toNat < 100000) (p' : (tbl14 a1 (ValueIdx.ix1 e')).toNat < 100000) :
    far14 V c (ValueIdx.ix2 ⟨(tbl14 a1 (ValueIdx.ix1 e)).toNat, p⟩ j)
      = far14 V c (ValueIdx.ix2 ⟨(tbl14 a1 (ValueIdx.ix1 e')).toNat, p'⟩ j) := by
  obtain rfl : e = e' := Fin.ext h
  rfl

/-- The body's block at point t — the gathered rows scaled by the input block — has the entries hO asks. -/
theorem bodyBlk14_apply (hlt : ∀ y, (tbl14 a1 y).toNat < 100000) (c : Dev nD) (t : Fin (cfg14 a1).N) (r : Fin 8) (j : Fin 64) :
    gatherOut (gatherG (a1.1 0) (V c main_v3) (grid14.coords t)) (iblk14 V a1 c 0 t) (ValueIdx.ix2 r j)
      = far14 V c (ValueIdx.ix2 ⟨(tbl14 a1 (ValueIdx.ix1 ⟨8 * t.val + r.val, row_lt14 a1 t r⟩)).toNat, hlt _⟩ j)
        * inBlk14 V a1 c t (ValueIdx.ix2 r (0 : Fin 1)) := by
  have hpay : gatherOut (gatherG (a1.1 0) (V c main_v3) (grid14.coords t)) (iblk14 V a1 c 0 t) (ValueIdx.ix2 r j)
      = gatherG (F := Ideal) (tbl14 a1) (far14 V c) (grid14.coords t) (ValueIdx.ix2 r j) * inBlk14 V a1 c t (ValueIdx.ix2 r (0 : Fin 1)) :=
    Cert.Value.kernel_block (by decide) (by decide) (gatherG (F := Ideal) (tbl14 a1) (far14 V c) (grid14.coords t)) (inBlk14 V a1 c t) r j
  rw [hpay, gatherG_apply (F := Ideal) (tbl14 a1) (far14 V c) (grid14.coords t) r j (hlt _)]
  refine congrArg (· * inBlk14 V a1 c t (ValueIdx.ix2 r (0 : Fin 1))) ?_
  exact farRow14_congr V a1 c (by show 8 * ((grid14.coords t) 0).val + r.val = 8 * t.val + r.val; rw [coordsVal14 a1 t]) j _ _

/-- THE CHUNK'S ARRAY after the region, the output block being the body's own. -/
theorem chunk_array14_body (hlt : ∀ y, (tbl14 a1 y).toNat < 100000) (c : Dev nD) :
    (dat14 V a1 (fun c t => gatherOut (gatherG (a1.1 0) (V c main_v3) (grid14.coords t)) (iblk14 V a1 c 0 t)) c).arrAt 1 (cfg14 a1).N
      = chunkG14 V a1 hlt c :=
  chunk_array14 V a1 _ hlt (fun c t r j => bodyBlk14_apply V a1 hlt c t r j) c

/-! ## The array as a chunk of the weighted rows -/

/-- When the far operand is the table x, the region's table the slice of the row numbers cols at 100000 k and its
    weights the slice of vals there as a column, the region's array is chunk k of the weighted rows. -/
theorem chunkG14_eq_chunkSpec (hlt : ∀ y, (tbl14 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far14 V c = x) (ht : tbl14 a1 = extractStridedSlice Cert.Value.T100000 ![off] cols hsl)
    (hw : wts14 V c = shapeCast Cert.Value.T100000x1 (extractStridedSlice Cert.Value.T100000 ![off] vals hsl) hsc) :
    chunkG14 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl14 a1 (ValueIdx.ix1 e)).toNat, hlt _⟩ (congrArg (fun T : S100000.Idx → BitVec 32 => (T (ValueIdx.ix1 e)).toNat) ht), ← hx, ← hw]
  rfl

end Chunk

/-! # Region 15 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg15 (F := Ideal)).Adm)
  (O : (c : Dev nD) → Fin (cfg15 a1).N → Vec Ideal S8x64 .f32)

/-- The grid has 12500 points. -/
theorem npoints15 : (cfg15 a1).N = 12500 := N_15

/-- A point's one coordinate is the point's number. -/
theorem coordsVal15 (t : Fin (cfg15 a1).N) : (((cfg15 a1).grid.coords t) 0).val = t.val := by
  have ht : t.val < 12500 := (npoints15 a1) ▸ t.isLt
  show t.val / grid15.stride 0 % 12500 = t.val
  rw [show grid15.stride 0 = 1 from by decide, Nat.div_one, Nat.mod_eq_of_lt ht]

/-- Both windows move with the point: block index (t, 0) at point t. -/
theorem idxInRow15 (t : Fin (cfg15 a1).N) : ((cfg15 a1).win 0).index t (0 : Fin 2) = t.val := by
  have ht : t.val < 12500 := (npoints15 a1) ▸ t.isLt
  show (BitVec.ofNat 32 (((cfg15 a1).grid.coords t) 0).val).toNat = t.val
  rw [coordsVal15, BitVec.toNat_ofNat, Nat.mod_eq_of_lt (by omega)]
theorem idxInCol15 (t : Fin (cfg15 a1).N) : ((cfg15 a1).win 0).index t (1 : Fin 2) = 0 := rfl
theorem idxOutRow15 (t : Fin (cfg15 a1).N) : ((cfg15 a1).win 1).index t (0 : Fin 2) = t.val := by
  have ht : t.val < 12500 := (npoints15 a1) ▸ t.isLt
  show (BitVec.ofNat 32 (((cfg15 a1).grid.coords t) 0).val).toNat = t.val
  rw [coordsVal15, BitVec.toNat_ofNat, Nat.mod_eq_of_lt (by omega)]
theorem idxOutCol15 (t : Fin (cfg15 a1).N) : ((cfg15 a1).win 1).index t (1 : Fin 2) = 0 := rfl

/-- The output window is written back at every point: the next point's block is another. -/
theorem flushOut15 (t : Fin (cfg15 a1).N) : ((cfg15 a1).win 1).flush t = true := by
  unfold Window.flush
  show (true && (decide (t.val + 1 = (cfg15 a1).N) || decide (∃ h : t.val + 1 < (cfg15 a1).N,
    ((cfg15 a1).win 1).index ⟨t.val + 1, h⟩ ≠ ((cfg15 a1).win 1).index t))) = true
  rw [Bool.true_and, Bool.or_eq_true, decide_eq_true_eq, decide_eq_true_eq]
  by_cases h : t.val + 1 = (cfg15 a1).N
  · exact Or.inl h
  · refine Or.inr ⟨by have := t.isLt; omega, fun e => ?_⟩
    have erow := congrFun e (0 : Fin 2)
    rw [idxOutRow15, idxOutRow15] at erow
    exact absurd erow (by show t.val + 1 ≠ t.val; omega)

/-! ## The operands at their literal types -/

/-- The table's words. -/
abbrev tbl15 : S100000.Idx → BitVec 32 := a1.1 0
/-- The far operand: the table of rows. -/
abbrev far15 (c : Dev nD) : S100000x64.Idx → EReal := V c main_v3
/-- The weights, as a column. -/
abbrev wts15 (c : Dev nD) : S100000x1.Idx → EReal := V c main_v63
/-- The input window's block at point t: eight weights. -/
abbrev inBlk15 (c : Dev nD) (t : Fin (cfg15 a1).N) : S8x1.Idx → EReal := iblk15 V a1 c 0 t

/-! ## The blocks -/

/-- Row r of the input window's block at point t is row 8 t + r of the column of weights. -/
theorem inBlk15_apply (c : Dev nD) (t : Fin (cfg15 a1).N) (r : Fin 8) (z : Fin 1) (k : S100000x1.Idx)
    (hkrow : (k 0).val = 8 * t.val + r.val) :
    inBlk15 V a1 c t (ValueIdx.ix2 r z) = wts15 V c k := by
  show wts15 V c ((((cfg15 a1).win 0).blk t).view.emb (ValueIdx.ix2 r z)) = wts15 V c k
  refine congrArg (wts15 V c) (funext fun a => Fin.ext ?_)
  match a with
  | ⟨0, _⟩ =>
    show ((cfg15 a1).win 0).index t (0 : Fin 2) * 8 + 1 * r.val = (k 0).val
    rw [idxInRow15, hkrow]; omega
  | ⟨1, _⟩ =>
    show ((cfg15 a1).win 0).index t (1 : Fin 2) * 1 + 1 * z.val = (k 1).val
    have hkcol : (k 1).val < 1 := idx2_lt1 k
    have hz : z.val < 1 := z.isLt
    rw [idxInCol15]; omega

/-- An index of the array is in point t's block iff each coordinate is in the block's range on its axis. -/
theorem mem_blkOut15 (t : Fin (cfg15 a1).N) (i : S100000x64.Idx) :
    i ∈ (((cfg15 a1).win 1).blk t).view.set ↔ ∀ a : Fin 2, ((cfg15 a1).win 1).index t a * S8x64.size a ≤ (i a).val
      ∧ (i a).val < ((cfg15 a1).win 1).index t a * S8x64.size a + S8x64.size a := by
  have hset : (((cfg15 a1).win 1).blk t).view.set = (((cfg15 a1).win 1).rect t : Rect S100000x64).set :=
    View.set_slice_whole main_v64 _
  have hmem : i ∈ (((cfg15 a1).win 1).rect t : Rect S100000x64).set ↔ ∀ a : Fin 2,
      ((cfg15 a1).win 1).index t a * S8x64.size a ≤ (i a).val
        ∧ (i a).val < ((cfg15 a1).win 1).index t a * S8x64.size a + S8x64.size a := Rect.mem_set_unit
  exact (Finset.ext_iff.mp hset i).trans hmem

/-- Every index of the array is in the block of the point its row over eight names. -/
theorem coverOut15 (i : S100000x64.Idx) :
    ∃ t : Fin (cfg15 a1).N, ((cfg15 a1).win 1).flush t = true ∧ i ∈ (((cfg15 a1).win 1).blk t).view.set := by
  have hirow : (i 0).val < 100000 := idx2_lt0 i
  have hicol : (i 1).val < 64 := idx2_lt1 i
  obtain ⟨t, ht⟩ : ∃ t : Fin (cfg15 a1).N, t.val = (i 0).val / 8 := ⟨⟨(i 0).val / 8, by rw [npoints15]; omega⟩, rfl⟩
  refine ⟨t, flushOut15 a1 t, ?_⟩
  rw [mem_blkOut15]
  intro a
  match a with
  | ⟨0, _⟩ =>
    show ((cfg15 a1).win 1).index t (0 : Fin 2) * 8 ≤ (i 0).val ∧ (i 0).val < ((cfg15 a1).win 1).index t (0 : Fin 2) * 8 + 8
    rw [idxOutRow15, ht]; omega
  | ⟨1, _⟩ =>
    show ((cfg15 a1).win 1).index t (1 : Fin 2) * 64 ≤ (i 1).val ∧ (i 1).val < ((cfg15 a1).win 1).index t (1 : Fin 2) * 64 + 64
    rw [idxOutCol15]; omega

/-! ## The array -/

/-- One weighted row at one column: the table row the e-th word names, at column j, times the e-th weight. -/
def chunkRow15 (hlt : ∀ y, (tbl15 a1 y).toNat < 100000) (c : Dev nD) (e : Fin 100000) (j : Fin 64) : EReal :=
  far15 V c (ValueIdx.ix2 ⟨(tbl15 a1 (ValueIdx.ix1 e)).toNat, hlt _⟩ j) * wts15 V c (ValueIdx.ix2 e (0 : Fin 1))

/-- The chunk's array as one function of the region's operands. -/
def chunkG15 (hlt : ∀ y, (tbl15 a1 y).toNat < 100000) (c : Dev nD) : S100000x64.Idx → EReal :=
  fun i => chunkRow15 V a1 hlt c (i 0) (i 1)

/-- Row r of point t's block lies in the table. -/
theorem row_lt15 (t : Fin (cfg15 a1).N) (r : Fin 8) : 8 * t.val + r.val < 100000 := by
  have ht : t.val < 12500 := (npoints15 a1) ▸ t.isLt
  have := r.isLt; omega

/-- WHAT POINT t WRITES BACK is block t of the chunk's array, when the body leaves in the output window's buffer,
    at (r, j), the table row that word 8 t + r names at column j times the input block's weight at (r, 0). -/
theorem flushedOut15_eq (hlt : ∀ y, (tbl15 a1 y).toNat < 100000)
    (hO : ∀ (c : Dev nD) (t : Fin (cfg15 a1).N) (r : Fin 8) (j : Fin 64), O c t (ValueIdx.ix2 r j)
      = far15 V c (ValueIdx.ix2 ⟨(tbl15 a1 (ValueIdx.ix1 ⟨8 * t.val + r.val, row_lt15 a1 t r⟩)).toNat, hlt _⟩ j)
        * inBlk15 V a1 c t (ValueIdx.ix2 r (0 : Fin 1)))
    (c : Dev nD) (t : Fin (cfg15 a1).N) :
    (dat15 V a1 O c).flushed 1 t = (((cfg15 a1).win 1).blk t).view.read (Elt Ideal) (chunkG15 V a1 hlt c) := by
  show ((cfg15 a1).win 1).cut ((cfg15 a1).grid.coords t) ((dat15 V a1 O c).after 1 t) = _
  rw [afterOut15]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG15 V a1 hlt c ((((cfg15 a1).win 1).blk t).view.emb (ValueIdx.ix2 r j))
  have hemb : (((cfg15 a1).win 1).blk t).view.emb (ValueIdx.ix2 r j)
      = (ValueIdx.ix2 ⟨8 * t.val + r.val, row_lt15 a1 t r⟩ j : S100000x64.Idx) := by
    funext a; apply Fin.ext
    match a with
    | ⟨0, _⟩ =>
      show ((cfg15 a1).win 1).index t (0 : Fin 2) * 8 + 1 * r.val = 8 * t.val + r.val
      rw [idxOutRow15]; omega
    | ⟨1, _⟩ =>
      show ((cfg15 a1).win 1).index t (1 : Fin 2) * 64 + 1 * j.val = j.val
      rw [idxOutCol15]; omega
  rw [hemb, hO c t r j,
    inBlk15_apply V a1 c t r 0 (ValueIdx.ix2 ⟨8 * t.val + r.val, row_lt15 a1 t r⟩ (0 : Fin 1)) rfl]
  rfl

/-- THE CHUNK'S ARRAY after the region: chunkG15. -/
theorem chunk_array15 (hlt : ∀ y, (tbl15 a1 y).toNat < 100000)
    (hO : ∀ (c : Dev nD) (t : Fin (cfg15 a1).N) (r : Fin 8) (j : Fin 64), O c t (ValueIdx.ix2 r j)
      = far15 V c (ValueIdx.ix2 ⟨(tbl15 a1 (ValueIdx.ix1 ⟨8 * t.val + r.val, row_lt15 a1 t r⟩)).toNat, hlt _⟩ j)
        * inBlk15 V a1 c t (ValueIdx.ix2 r (0 : Fin 1)))
    (c : Dev nD) :
    (dat15 V a1 O c).arrAt 1 (cfg15 a1).N = chunkG15 V a1 hlt c :=
  (dat15 V a1 O c).arrAt_eq_of_cover 1 (chunkG15 V a1 hlt c) (fun t _ => flushedOut15_eq V a1 O hlt hO c t) (coverOut15 a1)

/-! ## The body's own block -/

/-- Two rows of the far operand named by the same word are the same row. -/
theorem farRow15_congr (c : Dev nD) {e e' : Fin 100000} (h : e.val = e'.val) (j : Fin 64)
    (p : (tbl15 a1 (ValueIdx.ix1 e)).toNat < 100000) (p' : (tbl15 a1 (ValueIdx.ix1 e')).toNat < 100000) :
    far15 V c (ValueIdx.ix2 ⟨(tbl15 a1 (ValueIdx.ix1 e)).toNat, p⟩ j)
      = far15 V c (ValueIdx.ix2 ⟨(tbl15 a1 (ValueIdx.ix1 e')).toNat, p'⟩ j) := by
  obtain rfl : e = e' := Fin.ext h
  rfl

/-- The body's block at point t — the gathered rows scaled by the input block — has the entries hO asks. -/
theorem bodyBlk15_apply (hlt : ∀ y, (tbl15 a1 y).toNat < 100000) (c : Dev nD) (t : Fin (cfg15 a1).N) (r : Fin 8) (j : Fin 64) :
    gatherOut (gatherG (a1.1 0) (V c main_v3) (grid15.coords t)) (iblk15 V a1 c 0 t) (ValueIdx.ix2 r j)
      = far15 V c (ValueIdx.ix2 ⟨(tbl15 a1 (ValueIdx.ix1 ⟨8 * t.val + r.val, row_lt15 a1 t r⟩)).toNat, hlt _⟩ j)
        * inBlk15 V a1 c t (ValueIdx.ix2 r (0 : Fin 1)) := by
  have hpay : gatherOut (gatherG (a1.1 0) (V c main_v3) (grid15.coords t)) (iblk15 V a1 c 0 t) (ValueIdx.ix2 r j)
      = gatherG (F := Ideal) (tbl15 a1) (far15 V c) (grid15.coords t) (ValueIdx.ix2 r j) * inBlk15 V a1 c t (ValueIdx.ix2 r (0 : Fin 1)) :=
    Cert.Value.kernel_block (by decide) (by decide) (gatherG (F := Ideal) (tbl15 a1) (far15 V c) (grid15.coords t)) (inBlk15 V a1 c t) r j
  rw [hpay, gatherG_apply (F := Ideal) (tbl15 a1) (far15 V c) (grid15.coords t) r j (hlt _)]
  refine congrArg (· * inBlk15 V a1 c t (ValueIdx.ix2 r (0 : Fin 1))) ?_
  exact farRow15_congr V a1 c (by show 8 * ((grid15.coords t) 0).val + r.val = 8 * t.val + r.val; rw [coordsVal15 a1 t]) j _ _

/-- THE CHUNK'S ARRAY after the region, the output block being the body's own. -/
theorem chunk_array15_body (hlt : ∀ y, (tbl15 a1 y).toNat < 100000) (c : Dev nD) :
    (dat15 V a1 (fun c t => gatherOut (gatherG (a1.1 0) (V c main_v3) (grid15.coords t)) (iblk15 V a1 c 0 t)) c).arrAt 1 (cfg15 a1).N
      = chunkG15 V a1 hlt c :=
  chunk_array15 V a1 _ hlt (fun c t r j => bodyBlk15_apply V a1 hlt c t r j) c

/-! ## The array as a chunk of the weighted rows -/

/-- When the far operand is the table x, the region's table the slice of the row numbers cols at 100000 k and its
    weights the slice of vals there as a column, the region's array is chunk k of the weighted rows. -/
theorem chunkG15_eq_chunkSpec (hlt : ∀ y, (tbl15 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far15 V c = x) (ht : tbl15 a1 = extractStridedSlice Cert.Value.T100000 ![off] cols hsl)
    (hw : wts15 V c = shapeCast Cert.Value.T100000x1 (extractStridedSlice Cert.Value.T100000 ![off] vals hsl) hsc) :
    chunkG15 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl15 a1 (ValueIdx.ix1 e)).toNat, hlt _⟩ (congrArg (fun T : S100000.Idx → BitVec 32 => (T (ValueIdx.ix1 e)).toNat) ht), ← hx, ← hw]
  rfl

end Chunk

/-! # Region 16 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg16 (F := Ideal)).Adm)
  (O : (c : Dev nD) → Fin (cfg16 a1).N → Vec Ideal S8x64 .f32)

/-- The grid has 12500 points. -/
theorem npoints16 : (cfg16 a1).N = 12500 := N_16

/-- A point's one coordinate is the point's number. -/
theorem coordsVal16 (t : Fin (cfg16 a1).N) : (((cfg16 a1).grid.coords t) 0).val = t.val := by
  have ht : t.val < 12500 := (npoints16 a1) ▸ t.isLt
  show t.val / grid16.stride 0 % 12500 = t.val
  rw [show grid16.stride 0 = 1 from by decide, Nat.div_one, Nat.mod_eq_of_lt ht]

/-- Both windows move with the point: block index (t, 0) at point t. -/
theorem idxInRow16 (t : Fin (cfg16 a1).N) : ((cfg16 a1).win 0).index t (0 : Fin 2) = t.val := by
  have ht : t.val < 12500 := (npoints16 a1) ▸ t.isLt
  show (BitVec.ofNat 32 (((cfg16 a1).grid.coords t) 0).val).toNat = t.val
  rw [coordsVal16, BitVec.toNat_ofNat, Nat.mod_eq_of_lt (by omega)]
theorem idxInCol16 (t : Fin (cfg16 a1).N) : ((cfg16 a1).win 0).index t (1 : Fin 2) = 0 := rfl
theorem idxOutRow16 (t : Fin (cfg16 a1).N) : ((cfg16 a1).win 1).index t (0 : Fin 2) = t.val := by
  have ht : t.val < 12500 := (npoints16 a1) ▸ t.isLt
  show (BitVec.ofNat 32 (((cfg16 a1).grid.coords t) 0).val).toNat = t.val
  rw [coordsVal16, BitVec.toNat_ofNat, Nat.mod_eq_of_lt (by omega)]
theorem idxOutCol16 (t : Fin (cfg16 a1).N) : ((cfg16 a1).win 1).index t (1 : Fin 2) = 0 := rfl

/-- The output window is written back at every point: the next point's block is another. -/
theorem flushOut16 (t : Fin (cfg16 a1).N) : ((cfg16 a1).win 1).flush t = true := by
  unfold Window.flush
  show (true && (decide (t.val + 1 = (cfg16 a1).N) || decide (∃ h : t.val + 1 < (cfg16 a1).N,
    ((cfg16 a1).win 1).index ⟨t.val + 1, h⟩ ≠ ((cfg16 a1).win 1).index t))) = true
  rw [Bool.true_and, Bool.or_eq_true, decide_eq_true_eq, decide_eq_true_eq]
  by_cases h : t.val + 1 = (cfg16 a1).N
  · exact Or.inl h
  · refine Or.inr ⟨by have := t.isLt; omega, fun e => ?_⟩
    have erow := congrFun e (0 : Fin 2)
    rw [idxOutRow16, idxOutRow16] at erow
    exact absurd erow (by show t.val + 1 ≠ t.val; omega)

/-! ## The operands at their literal types -/

/-- The table's words. -/
abbrev tbl16 : S100000.Idx → BitVec 32 := a1.1 0
/-- The far operand: the table of rows. -/
abbrev far16 (c : Dev nD) : S100000x64.Idx → EReal := V c main_v3
/-- The weights, as a column. -/
abbrev wts16 (c : Dev nD) : S100000x1.Idx → EReal := V c main_v67
/-- The input window's block at point t: eight weights. -/
abbrev inBlk16 (c : Dev nD) (t : Fin (cfg16 a1).N) : S8x1.Idx → EReal := iblk16 V a1 c 0 t

/-! ## The blocks -/

/-- Row r of the input window's block at point t is row 8 t + r of the column of weights. -/
theorem inBlk16_apply (c : Dev nD) (t : Fin (cfg16 a1).N) (r : Fin 8) (z : Fin 1) (k : S100000x1.Idx)
    (hkrow : (k 0).val = 8 * t.val + r.val) :
    inBlk16 V a1 c t (ValueIdx.ix2 r z) = wts16 V c k := by
  show wts16 V c ((((cfg16 a1).win 0).blk t).view.emb (ValueIdx.ix2 r z)) = wts16 V c k
  refine congrArg (wts16 V c) (funext fun a => Fin.ext ?_)
  match a with
  | ⟨0, _⟩ =>
    show ((cfg16 a1).win 0).index t (0 : Fin 2) * 8 + 1 * r.val = (k 0).val
    rw [idxInRow16, hkrow]; omega
  | ⟨1, _⟩ =>
    show ((cfg16 a1).win 0).index t (1 : Fin 2) * 1 + 1 * z.val = (k 1).val
    have hkcol : (k 1).val < 1 := idx2_lt1 k
    have hz : z.val < 1 := z.isLt
    rw [idxInCol16]; omega

/-- An index of the array is in point t's block iff each coordinate is in the block's range on its axis. -/
theorem mem_blkOut16 (t : Fin (cfg16 a1).N) (i : S100000x64.Idx) :
    i ∈ (((cfg16 a1).win 1).blk t).view.set ↔ ∀ a : Fin 2, ((cfg16 a1).win 1).index t a * S8x64.size a ≤ (i a).val
      ∧ (i a).val < ((cfg16 a1).win 1).index t a * S8x64.size a + S8x64.size a := by
  have hset : (((cfg16 a1).win 1).blk t).view.set = (((cfg16 a1).win 1).rect t : Rect S100000x64).set :=
    View.set_slice_whole main_v68 _
  have hmem : i ∈ (((cfg16 a1).win 1).rect t : Rect S100000x64).set ↔ ∀ a : Fin 2,
      ((cfg16 a1).win 1).index t a * S8x64.size a ≤ (i a).val
        ∧ (i a).val < ((cfg16 a1).win 1).index t a * S8x64.size a + S8x64.size a := Rect.mem_set_unit
  exact (Finset.ext_iff.mp hset i).trans hmem

/-- Every index of the array is in the block of the point its row over eight names. -/
theorem coverOut16 (i : S100000x64.Idx) :
    ∃ t : Fin (cfg16 a1).N, ((cfg16 a1).win 1).flush t = true ∧ i ∈ (((cfg16 a1).win 1).blk t).view.set := by
  have hirow : (i 0).val < 100000 := idx2_lt0 i
  have hicol : (i 1).val < 64 := idx2_lt1 i
  obtain ⟨t, ht⟩ : ∃ t : Fin (cfg16 a1).N, t.val = (i 0).val / 8 := ⟨⟨(i 0).val / 8, by rw [npoints16]; omega⟩, rfl⟩
  refine ⟨t, flushOut16 a1 t, ?_⟩
  rw [mem_blkOut16]
  intro a
  match a with
  | ⟨0, _⟩ =>
    show ((cfg16 a1).win 1).index t (0 : Fin 2) * 8 ≤ (i 0).val ∧ (i 0).val < ((cfg16 a1).win 1).index t (0 : Fin 2) * 8 + 8
    rw [idxOutRow16, ht]; omega
  | ⟨1, _⟩ =>
    show ((cfg16 a1).win 1).index t (1 : Fin 2) * 64 ≤ (i 1).val ∧ (i 1).val < ((cfg16 a1).win 1).index t (1 : Fin 2) * 64 + 64
    rw [idxOutCol16]; omega

/-! ## The array -/

/-- One weighted row at one column: the table row the e-th word names, at column j, times the e-th weight. -/
def chunkRow16 (hlt : ∀ y, (tbl16 a1 y).toNat < 100000) (c : Dev nD) (e : Fin 100000) (j : Fin 64) : EReal :=
  far16 V c (ValueIdx.ix2 ⟨(tbl16 a1 (ValueIdx.ix1 e)).toNat, hlt _⟩ j) * wts16 V c (ValueIdx.ix2 e (0 : Fin 1))

/-- The chunk's array as one function of the region's operands. -/
def chunkG16 (hlt : ∀ y, (tbl16 a1 y).toNat < 100000) (c : Dev nD) : S100000x64.Idx → EReal :=
  fun i => chunkRow16 V a1 hlt c (i 0) (i 1)

/-- Row r of point t's block lies in the table. -/
theorem row_lt16 (t : Fin (cfg16 a1).N) (r : Fin 8) : 8 * t.val + r.val < 100000 := by
  have ht : t.val < 12500 := (npoints16 a1) ▸ t.isLt
  have := r.isLt; omega

/-- WHAT POINT t WRITES BACK is block t of the chunk's array, when the body leaves in the output window's buffer,
    at (r, j), the table row that word 8 t + r names at column j times the input block's weight at (r, 0). -/
theorem flushedOut16_eq (hlt : ∀ y, (tbl16 a1 y).toNat < 100000)
    (hO : ∀ (c : Dev nD) (t : Fin (cfg16 a1).N) (r : Fin 8) (j : Fin 64), O c t (ValueIdx.ix2 r j)
      = far16 V c (ValueIdx.ix2 ⟨(tbl16 a1 (ValueIdx.ix1 ⟨8 * t.val + r.val, row_lt16 a1 t r⟩)).toNat, hlt _⟩ j)
        * inBlk16 V a1 c t (ValueIdx.ix2 r (0 : Fin 1)))
    (c : Dev nD) (t : Fin (cfg16 a1).N) :
    (dat16 V a1 O c).flushed 1 t = (((cfg16 a1).win 1).blk t).view.read (Elt Ideal) (chunkG16 V a1 hlt c) := by
  show ((cfg16 a1).win 1).cut ((cfg16 a1).grid.coords t) ((dat16 V a1 O c).after 1 t) = _
  rw [afterOut16]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG16 V a1 hlt c ((((cfg16 a1).win 1).blk t).view.emb (ValueIdx.ix2 r j))
  have hemb : (((cfg16 a1).win 1).blk t).view.emb (ValueIdx.ix2 r j)
      = (ValueIdx.ix2 ⟨8 * t.val + r.val, row_lt16 a1 t r⟩ j : S100000x64.Idx) := by
    funext a; apply Fin.ext
    match a with
    | ⟨0, _⟩ =>
      show ((cfg16 a1).win 1).index t (0 : Fin 2) * 8 + 1 * r.val = 8 * t.val + r.val
      rw [idxOutRow16]; omega
    | ⟨1, _⟩ =>
      show ((cfg16 a1).win 1).index t (1 : Fin 2) * 64 + 1 * j.val = j.val
      rw [idxOutCol16]; omega
  rw [hemb, hO c t r j,
    inBlk16_apply V a1 c t r 0 (ValueIdx.ix2 ⟨8 * t.val + r.val, row_lt16 a1 t r⟩ (0 : Fin 1)) rfl]
  rfl

/-- THE CHUNK'S ARRAY after the region: chunkG16. -/
theorem chunk_array16 (hlt : ∀ y, (tbl16 a1 y).toNat < 100000)
    (hO : ∀ (c : Dev nD) (t : Fin (cfg16 a1).N) (r : Fin 8) (j : Fin 64), O c t (ValueIdx.ix2 r j)
      = far16 V c (ValueIdx.ix2 ⟨(tbl16 a1 (ValueIdx.ix1 ⟨8 * t.val + r.val, row_lt16 a1 t r⟩)).toNat, hlt _⟩ j)
        * inBlk16 V a1 c t (ValueIdx.ix2 r (0 : Fin 1)))
    (c : Dev nD) :
    (dat16 V a1 O c).arrAt 1 (cfg16 a1).N = chunkG16 V a1 hlt c :=
  (dat16 V a1 O c).arrAt_eq_of_cover 1 (chunkG16 V a1 hlt c) (fun t _ => flushedOut16_eq V a1 O hlt hO c t) (coverOut16 a1)

/-! ## The body's own block -/

/-- Two rows of the far operand named by the same word are the same row. -/
theorem farRow16_congr (c : Dev nD) {e e' : Fin 100000} (h : e.val = e'.val) (j : Fin 64)
    (p : (tbl16 a1 (ValueIdx.ix1 e)).toNat < 100000) (p' : (tbl16 a1 (ValueIdx.ix1 e')).toNat < 100000) :
    far16 V c (ValueIdx.ix2 ⟨(tbl16 a1 (ValueIdx.ix1 e)).toNat, p⟩ j)
      = far16 V c (ValueIdx.ix2 ⟨(tbl16 a1 (ValueIdx.ix1 e')).toNat, p'⟩ j) := by
  obtain rfl : e = e' := Fin.ext h
  rfl

/-- The body's block at point t — the gathered rows scaled by the input block — has the entries hO asks. -/
theorem bodyBlk16_apply (hlt : ∀ y, (tbl16 a1 y).toNat < 100000) (c : Dev nD) (t : Fin (cfg16 a1).N) (r : Fin 8) (j : Fin 64) :
    gatherOut (gatherG (a1.1 0) (V c main_v3) (grid16.coords t)) (iblk16 V a1 c 0 t) (ValueIdx.ix2 r j)
      = far16 V c (ValueIdx.ix2 ⟨(tbl16 a1 (ValueIdx.ix1 ⟨8 * t.val + r.val, row_lt16 a1 t r⟩)).toNat, hlt _⟩ j)
        * inBlk16 V a1 c t (ValueIdx.ix2 r (0 : Fin 1)) := by
  have hpay : gatherOut (gatherG (a1.1 0) (V c main_v3) (grid16.coords t)) (iblk16 V a1 c 0 t) (ValueIdx.ix2 r j)
      = gatherG (F := Ideal) (tbl16 a1) (far16 V c) (grid16.coords t) (ValueIdx.ix2 r j) * inBlk16 V a1 c t (ValueIdx.ix2 r (0 : Fin 1)) :=
    Cert.Value.kernel_block (by decide) (by decide) (gatherG (F := Ideal) (tbl16 a1) (far16 V c) (grid16.coords t)) (inBlk16 V a1 c t) r j
  rw [hpay, gatherG_apply (F := Ideal) (tbl16 a1) (far16 V c) (grid16.coords t) r j (hlt _)]
  refine congrArg (· * inBlk16 V a1 c t (ValueIdx.ix2 r (0 : Fin 1))) ?_
  exact farRow16_congr V a1 c (by show 8 * ((grid16.coords t) 0).val + r.val = 8 * t.val + r.val; rw [coordsVal16 a1 t]) j _ _

/-- THE CHUNK'S ARRAY after the region, the output block being the body's own. -/
theorem chunk_array16_body (hlt : ∀ y, (tbl16 a1 y).toNat < 100000) (c : Dev nD) :
    (dat16 V a1 (fun c t => gatherOut (gatherG (a1.1 0) (V c main_v3) (grid16.coords t)) (iblk16 V a1 c 0 t)) c).arrAt 1 (cfg16 a1).N
      = chunkG16 V a1 hlt c :=
  chunk_array16 V a1 _ hlt (fun c t r j => bodyBlk16_apply V a1 hlt c t r j) c

/-! ## The array as a chunk of the weighted rows -/

/-- When the far operand is the table x, the region's table the slice of the row numbers cols at 100000 k and its
    weights the slice of vals there as a column, the region's array is chunk k of the weighted rows. -/
theorem chunkG16_eq_chunkSpec (hlt : ∀ y, (tbl16 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far16 V c = x) (ht : tbl16 a1 = extractStridedSlice Cert.Value.T100000 ![off] cols hsl)
    (hw : wts16 V c = shapeCast Cert.Value.T100000x1 (extractStridedSlice Cert.Value.T100000 ![off] vals hsl) hsc) :
    chunkG16 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl16 a1 (ValueIdx.ix1 e)).toNat, hlt _⟩ (congrArg (fun T : S100000.Idx → BitVec 32 => (T (ValueIdx.ix1 e)).toNat) ht), ← hx, ← hw]
  rfl

end Chunk

/-! # Region 17 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg17 (F := Ideal)).Adm)
  (O : (c : Dev nD) → Fin (cfg17 a1).N → Vec Ideal S8x64 .f32)

/-- The grid has 12500 points. -/
theorem npoints17 : (cfg17 a1).N = 12500 := N_17

/-- A point's one coordinate is the point's number. -/
theorem coordsVal17 (t : Fin (cfg17 a1).N) : (((cfg17 a1).grid.coords t) 0).val = t.val := by
  have ht : t.val < 12500 := (npoints17 a1) ▸ t.isLt
  show t.val / grid17.stride 0 % 12500 = t.val
  rw [show grid17.stride 0 = 1 from by decide, Nat.div_one, Nat.mod_eq_of_lt ht]

/-- Both windows move with the point: block index (t, 0) at point t. -/
theorem idxInRow17 (t : Fin (cfg17 a1).N) : ((cfg17 a1).win 0).index t (0 : Fin 2) = t.val := by
  have ht : t.val < 12500 := (npoints17 a1) ▸ t.isLt
  show (BitVec.ofNat 32 (((cfg17 a1).grid.coords t) 0).val).toNat = t.val
  rw [coordsVal17, BitVec.toNat_ofNat, Nat.mod_eq_of_lt (by omega)]
theorem idxInCol17 (t : Fin (cfg17 a1).N) : ((cfg17 a1).win 0).index t (1 : Fin 2) = 0 := rfl
theorem idxOutRow17 (t : Fin (cfg17 a1).N) : ((cfg17 a1).win 1).index t (0 : Fin 2) = t.val := by
  have ht : t.val < 12500 := (npoints17 a1) ▸ t.isLt
  show (BitVec.ofNat 32 (((cfg17 a1).grid.coords t) 0).val).toNat = t.val
  rw [coordsVal17, BitVec.toNat_ofNat, Nat.mod_eq_of_lt (by omega)]
theorem idxOutCol17 (t : Fin (cfg17 a1).N) : ((cfg17 a1).win 1).index t (1 : Fin 2) = 0 := rfl

/-- The output window is written back at every point: the next point's block is another. -/
theorem flushOut17 (t : Fin (cfg17 a1).N) : ((cfg17 a1).win 1).flush t = true := by
  unfold Window.flush
  show (true && (decide (t.val + 1 = (cfg17 a1).N) || decide (∃ h : t.val + 1 < (cfg17 a1).N,
    ((cfg17 a1).win 1).index ⟨t.val + 1, h⟩ ≠ ((cfg17 a1).win 1).index t))) = true
  rw [Bool.true_and, Bool.or_eq_true, decide_eq_true_eq, decide_eq_true_eq]
  by_cases h : t.val + 1 = (cfg17 a1).N
  · exact Or.inl h
  · refine Or.inr ⟨by have := t.isLt; omega, fun e => ?_⟩
    have erow := congrFun e (0 : Fin 2)
    rw [idxOutRow17, idxOutRow17] at erow
    exact absurd erow (by show t.val + 1 ≠ t.val; omega)

/-! ## The operands at their literal types -/

/-- The table's words. -/
abbrev tbl17 : S100000.Idx → BitVec 32 := a1.1 0
/-- The far operand: the table of rows. -/
abbrev far17 (c : Dev nD) : S100000x64.Idx → EReal := V c main_v72
/-- The weights, as a column. -/
abbrev wts17 (c : Dev nD) : S100000x1.Idx → EReal := V c main_v76
/-- The input window's block at point t: eight weights. -/
abbrev inBlk17 (c : Dev nD) (t : Fin (cfg17 a1).N) : S8x1.Idx → EReal := iblk17 V a1 c 0 t

/-! ## The blocks -/

/-- Row r of the input window's block at point t is row 8 t + r of the column of weights. -/
theorem inBlk17_apply (c : Dev nD) (t : Fin (cfg17 a1).N) (r : Fin 8) (z : Fin 1) (k : S100000x1.Idx)
    (hkrow : (k 0).val = 8 * t.val + r.val) :
    inBlk17 V a1 c t (ValueIdx.ix2 r z) = wts17 V c k := by
  show wts17 V c ((((cfg17 a1).win 0).blk t).view.emb (ValueIdx.ix2 r z)) = wts17 V c k
  refine congrArg (wts17 V c) (funext fun a => Fin.ext ?_)
  match a with
  | ⟨0, _⟩ =>
    show ((cfg17 a1).win 0).index t (0 : Fin 2) * 8 + 1 * r.val = (k 0).val
    rw [idxInRow17, hkrow]; omega
  | ⟨1, _⟩ =>
    show ((cfg17 a1).win 0).index t (1 : Fin 2) * 1 + 1 * z.val = (k 1).val
    have hkcol : (k 1).val < 1 := idx2_lt1 k
    have hz : z.val < 1 := z.isLt
    rw [idxInCol17]; omega

/-- An index of the array is in point t's block iff each coordinate is in the block's range on its axis. -/
theorem mem_blkOut17 (t : Fin (cfg17 a1).N) (i : S100000x64.Idx) :
    i ∈ (((cfg17 a1).win 1).blk t).view.set ↔ ∀ a : Fin 2, ((cfg17 a1).win 1).index t a * S8x64.size a ≤ (i a).val
      ∧ (i a).val < ((cfg17 a1).win 1).index t a * S8x64.size a + S8x64.size a := by
  have hset : (((cfg17 a1).win 1).blk t).view.set = (((cfg17 a1).win 1).rect t : Rect S100000x64).set :=
    View.set_slice_whole main_v77 _
  have hmem : i ∈ (((cfg17 a1).win 1).rect t : Rect S100000x64).set ↔ ∀ a : Fin 2,
      ((cfg17 a1).win 1).index t a * S8x64.size a ≤ (i a).val
        ∧ (i a).val < ((cfg17 a1).win 1).index t a * S8x64.size a + S8x64.size a := Rect.mem_set_unit
  exact (Finset.ext_iff.mp hset i).trans hmem

/-- Every index of the array is in the block of the point its row over eight names. -/
theorem coverOut17 (i : S100000x64.Idx) :
    ∃ t : Fin (cfg17 a1).N, ((cfg17 a1).win 1).flush t = true ∧ i ∈ (((cfg17 a1).win 1).blk t).view.set := by
  have hirow : (i 0).val < 100000 := idx2_lt0 i
  have hicol : (i 1).val < 64 := idx2_lt1 i
  obtain ⟨t, ht⟩ : ∃ t : Fin (cfg17 a1).N, t.val = (i 0).val / 8 := ⟨⟨(i 0).val / 8, by rw [npoints17]; omega⟩, rfl⟩
  refine ⟨t, flushOut17 a1 t, ?_⟩
  rw [mem_blkOut17]
  intro a
  match a with
  | ⟨0, _⟩ =>
    show ((cfg17 a1).win 1).index t (0 : Fin 2) * 8 ≤ (i 0).val ∧ (i 0).val < ((cfg17 a1).win 1).index t (0 : Fin 2) * 8 + 8
    rw [idxOutRow17, ht]; omega
  | ⟨1, _⟩ =>
    show ((cfg17 a1).win 1).index t (1 : Fin 2) * 64 ≤ (i 1).val ∧ (i 1).val < ((cfg17 a1).win 1).index t (1 : Fin 2) * 64 + 64
    rw [idxOutCol17]; omega

/-! ## The array -/

/-- One weighted row at one column: the table row the e-th word names, at column j, times the e-th weight. -/
def chunkRow17 (hlt : ∀ y, (tbl17 a1 y).toNat < 100000) (c : Dev nD) (e : Fin 100000) (j : Fin 64) : EReal :=
  far17 V c (ValueIdx.ix2 ⟨(tbl17 a1 (ValueIdx.ix1 e)).toNat, hlt _⟩ j) * wts17 V c (ValueIdx.ix2 e (0 : Fin 1))

/-- The chunk's array as one function of the region's operands. -/
def chunkG17 (hlt : ∀ y, (tbl17 a1 y).toNat < 100000) (c : Dev nD) : S100000x64.Idx → EReal :=
  fun i => chunkRow17 V a1 hlt c (i 0) (i 1)

/-- Row r of point t's block lies in the table. -/
theorem row_lt17 (t : Fin (cfg17 a1).N) (r : Fin 8) : 8 * t.val + r.val < 100000 := by
  have ht : t.val < 12500 := (npoints17 a1) ▸ t.isLt
  have := r.isLt; omega

/-- WHAT POINT t WRITES BACK is block t of the chunk's array, when the body leaves in the output window's buffer,
    at (r, j), the table row that word 8 t + r names at column j times the input block's weight at (r, 0). -/
theorem flushedOut17_eq (hlt : ∀ y, (tbl17 a1 y).toNat < 100000)
    (hO : ∀ (c : Dev nD) (t : Fin (cfg17 a1).N) (r : Fin 8) (j : Fin 64), O c t (ValueIdx.ix2 r j)
      = far17 V c (ValueIdx.ix2 ⟨(tbl17 a1 (ValueIdx.ix1 ⟨8 * t.val + r.val, row_lt17 a1 t r⟩)).toNat, hlt _⟩ j)
        * inBlk17 V a1 c t (ValueIdx.ix2 r (0 : Fin 1)))
    (c : Dev nD) (t : Fin (cfg17 a1).N) :
    (dat17 V a1 O c).flushed 1 t = (((cfg17 a1).win 1).blk t).view.read (Elt Ideal) (chunkG17 V a1 hlt c) := by
  show ((cfg17 a1).win 1).cut ((cfg17 a1).grid.coords t) ((dat17 V a1 O c).after 1 t) = _
  rw [afterOut17]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG17 V a1 hlt c ((((cfg17 a1).win 1).blk t).view.emb (ValueIdx.ix2 r j))
  have hemb : (((cfg17 a1).win 1).blk t).view.emb (ValueIdx.ix2 r j)
      = (ValueIdx.ix2 ⟨8 * t.val + r.val, row_lt17 a1 t r⟩ j : S100000x64.Idx) := by
    funext a; apply Fin.ext
    match a with
    | ⟨0, _⟩ =>
      show ((cfg17 a1).win 1).index t (0 : Fin 2) * 8 + 1 * r.val = 8 * t.val + r.val
      rw [idxOutRow17]; omega
    | ⟨1, _⟩ =>
      show ((cfg17 a1).win 1).index t (1 : Fin 2) * 64 + 1 * j.val = j.val
      rw [idxOutCol17]; omega
  rw [hemb, hO c t r j,
    inBlk17_apply V a1 c t r 0 (ValueIdx.ix2 ⟨8 * t.val + r.val, row_lt17 a1 t r⟩ (0 : Fin 1)) rfl]
  rfl

/-- THE CHUNK'S ARRAY after the region: chunkG17. -/
theorem chunk_array17 (hlt : ∀ y, (tbl17 a1 y).toNat < 100000)
    (hO : ∀ (c : Dev nD) (t : Fin (cfg17 a1).N) (r : Fin 8) (j : Fin 64), O c t (ValueIdx.ix2 r j)
      = far17 V c (ValueIdx.ix2 ⟨(tbl17 a1 (ValueIdx.ix1 ⟨8 * t.val + r.val, row_lt17 a1 t r⟩)).toNat, hlt _⟩ j)
        * inBlk17 V a1 c t (ValueIdx.ix2 r (0 : Fin 1)))
    (c : Dev nD) :
    (dat17 V a1 O c).arrAt 1 (cfg17 a1).N = chunkG17 V a1 hlt c :=
  (dat17 V a1 O c).arrAt_eq_of_cover 1 (chunkG17 V a1 hlt c) (fun t _ => flushedOut17_eq V a1 O hlt hO c t) (coverOut17 a1)

/-! ## The body's own block -/

/-- Two rows of the far operand named by the same word are the same row. -/
theorem farRow17_congr (c : Dev nD) {e e' : Fin 100000} (h : e.val = e'.val) (j : Fin 64)
    (p : (tbl17 a1 (ValueIdx.ix1 e)).toNat < 100000) (p' : (tbl17 a1 (ValueIdx.ix1 e')).toNat < 100000) :
    far17 V c (ValueIdx.ix2 ⟨(tbl17 a1 (ValueIdx.ix1 e)).toNat, p⟩ j)
      = far17 V c (ValueIdx.ix2 ⟨(tbl17 a1 (ValueIdx.ix1 e')).toNat, p'⟩ j) := by
  obtain rfl : e = e' := Fin.ext h
  rfl

/-- The body's block at point t — the gathered rows scaled by the input block — has the entries hO asks. -/
theorem bodyBlk17_apply (hlt : ∀ y, (tbl17 a1 y).toNat < 100000) (c : Dev nD) (t : Fin (cfg17 a1).N) (r : Fin 8) (j : Fin 64) :
    gatherOut (gatherG (a1.1 0) (V c main_v72) (grid17.coords t)) (iblk17 V a1 c 0 t) (ValueIdx.ix2 r j)
      = far17 V c (ValueIdx.ix2 ⟨(tbl17 a1 (ValueIdx.ix1 ⟨8 * t.val + r.val, row_lt17 a1 t r⟩)).toNat, hlt _⟩ j)
        * inBlk17 V a1 c t (ValueIdx.ix2 r (0 : Fin 1)) := by
  have hpay : gatherOut (gatherG (a1.1 0) (V c main_v72) (grid17.coords t)) (iblk17 V a1 c 0 t) (ValueIdx.ix2 r j)
      = gatherG (F := Ideal) (tbl17 a1) (far17 V c) (grid17.coords t) (ValueIdx.ix2 r j) * inBlk17 V a1 c t (ValueIdx.ix2 r (0 : Fin 1)) :=
    Cert.Value.kernel_block (by decide) (by decide) (gatherG (F := Ideal) (tbl17 a1) (far17 V c) (grid17.coords t)) (inBlk17 V a1 c t) r j
  rw [hpay, gatherG_apply (F := Ideal) (tbl17 a1) (far17 V c) (grid17.coords t) r j (hlt _)]
  refine congrArg (· * inBlk17 V a1 c t (ValueIdx.ix2 r (0 : Fin 1))) ?_
  exact farRow17_congr V a1 c (by show 8 * ((grid17.coords t) 0).val + r.val = 8 * t.val + r.val; rw [coordsVal17 a1 t]) j _ _

/-- THE CHUNK'S ARRAY after the region, the output block being the body's own. -/
theorem chunk_array17_body (hlt : ∀ y, (tbl17 a1 y).toNat < 100000) (c : Dev nD) :
    (dat17 V a1 (fun c t => gatherOut (gatherG (a1.1 0) (V c main_v72) (grid17.coords t)) (iblk17 V a1 c 0 t)) c).arrAt 1 (cfg17 a1).N
      = chunkG17 V a1 hlt c :=
  chunk_array17 V a1 _ hlt (fun c t r j => bodyBlk17_apply V a1 hlt c t r j) c

/-! ## The array as a chunk of the weighted rows -/

/-- When the far operand is the table x, the region's table the slice of the row numbers cols at 100000 k and its
    weights the slice of vals there as a column, the region's array is chunk k of the weighted rows. -/
theorem chunkG17_eq_chunkSpec (hlt : ∀ y, (tbl17 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far17 V c = x) (ht : tbl17 a1 = extractStridedSlice Cert.Value.T100000 ![off] cols hsl)
    (hw : wts17 V c = shapeCast Cert.Value.T100000x1 (extractStridedSlice Cert.Value.T100000 ![off] vals hsl) hsc) :
    chunkG17 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl17 a1 (ValueIdx.ix1 e)).toNat, hlt _⟩ (congrArg (fun T : S100000.Idx → BitVec 32 => (T (ValueIdx.ix1 e)).toNat) ht), ← hx, ← hw]
  rfl

end Chunk

end Cert.Value

end
-- ==== Proof.Val.KOuts_10_17.lean ====
/-
  Gather regions 10 to 17 of the host program, one after the other: for each, the region's output array at its exit boundary as a chunk of the layer's weighted rows,
  exactly as for region 1 (whose module says what each part is).
-/
import proofs.«421643_j28415503630349_2_alg».proof.Proof.KI.Tables
import proofs.«421643_j28415503630349_2_alg».proof.Proof.Val.ChunkArrays_10_17
import proofs.«421643_j28415503630349_2_alg».proof.Proof.Val.KVals

set_option maxRecDepth 16384

noncomputable section

namespace Cert.Value

open Cert.KernelIdeal Cert.KernelIdeal.Gen Cert.KernelIdeal.Hand
open Idealize.ShloMosaic Idealize.ShloMosaic.TcCoe
open Idealize.SL.Sem

/-! # Region 10 -/

attribute [local irreducible] W21 in
/-- The output array of region 10 at its exit is chunk 9 of the weighted rows of the table the region entered with. -/
theorem kout10 (m : (ℓ : Loc nD τ sig) → Buf (Elt Ideal) ℓ)
    (hcols : ∀ (c : Dev nD) (e : S1600000.Idx), (m ((c.tc : Thread nD τ).loc main_arg4) e).toNat < 100000)
    (c : Dev nD) :
    W23 m c main_v44
      = chunkSpec (W22 m c main_v3) (m ((c.tc : Thread nD τ).loc main_arg4)) (m ((c.tc : Thread nD τ).loc main_arg2))
          (hcols c) (9 : Fin 16) := by
  -- one core: every core is core 0, the one the table's admissible contents are read at
  obtain rfl : c = 0 := Subsingleton.elim _ _
  -- the exit boundary at the output array is the pipeline's final array
  have harr : W23 m 0 main_v44
      = (dat10 (Vof (W22 m)) (adm10 m) (outBlk10 (Vof (W22 m)) (adm10 m)) 0).arrAt 1 (cfg10 (adm10 m)).N :=
    Wout10_arr (W22 m) (adm10 m) (outBlk10 (Vof (W22 m)) (adm10 m)) 0 1
  -- which is the one function of the operands at the entry boundary
  have hbody := chunk_array10_body (Vof (W22 m)) (adm10 m) (tbl_lt10 m hcols) 0
  -- the table of row numbers is the slice of the argument list
  have ht : tbl10 (adm10 m)
      = extractStridedSlice T100000 ![900000] (m (((0 : Dev nD).tc : Thread nD τ).loc main_arg4)) slices_S1600000_S100000_900000 := by
    show W22 m 0 main_v41 = _
    rw [tbl_eq10 m 0, W21_arg4 m 0]
  -- the column of weights is the slice of the argument list, as a column
  have hw : wts10 (Vof (W22 m)) 0
      = shapeCast T100000x1
          (extractStridedSlice T100000 ![900000] (m (((0 : Dev nD).tc : Thread nD τ).loc main_arg2)) slices_S1600000_S100000_900000)
          shapeCasts_S100000_S100000x1 :=
    kvals10 (W21 m 0) (m (((0 : Dev nD).tc : Thread nD τ).loc main_arg2)) (W21_arg2 m 0)
  exact harr.trans (hbody.trans
    (chunkG10_eq_chunkSpec (Vof (W22 m)) (adm10 m) (tbl_lt10 m hcols) 0
      (W22 m 0 main_v3) (m (((0 : Dev nD).tc : Thread nD τ).loc main_arg4))
      (m (((0 : Dev nD).tc : Thread nD τ).loc main_arg2)) (hcols 0) (9 : Fin 16) 900000 (by decide)
      slices_S1600000_S100000_900000 shapeCasts_S100000_S100000x1 rfl ht hw))

/-! # Region 11 -/

attribute [local irreducible] W23 in
/-- The output array of region 11 at its exit is chunk 10 of the weighted rows of the table the region entered with. -/
theorem kout11 (m : (ℓ : Loc nD τ sig) → Buf (Elt Ideal) ℓ)
    (hcols : ∀ (c : Dev nD) (e : S1600000.Idx), (m ((c.tc : Thread nD τ).loc main_arg4) e).toNat < 100000)
    (c : Dev nD) :
    W25 m c main_v48
      = chunkSpec (W24 m c main_v3) (m ((c.tc : Thread nD τ).loc main_arg4)) (m ((c.tc : Thread nD τ).loc main_arg2))
          (hcols c) (10 : Fin 16) := by
  -- one core: every core is core 0, the one the table's admissible contents are read at
  obtain rfl : c = 0 := Subsingleton.elim _ _
  -- the exit boundary at the output array is the pipeline's final array
  have harr : W25 m 0 main_v48
      = (dat11 (Vof (W24 m)) (adm11 m) (outBlk11 (Vof (W24 m)) (adm11 m)) 0).arrAt 1 (cfg11 (adm11 m)).N :=
    Wout11_arr (W24 m) (adm11 m) (outBlk11 (Vof (W24 m)) (adm11 m)) 0 1
  -- which is the one function of the operands at the entry boundary
  have hbody := chunk_array11_body (Vof (W24 m)) (adm11 m) (tbl_lt11 m hcols) 0
  -- the table of row numbers is the slice of the argument list
  have ht : tbl11 (adm11 m)
      = extractStridedSlice T100000 ![1000000] (m (((0 : Dev nD).tc : Thread nD τ).loc main_arg4)) slices_S1600000_S100000_1000000 := by
    show W24 m 0 main_v45 = _
    rw [tbl_eq11 m 0, W23_arg4 m 0]
  -- the column of weights is the slice of the argument list, as a column
  have hw : wts11 (Vof (W24 m)) 0
      = shapeCast T100000x1
          (extractStridedSlice T100000 ![1000000] (m (((0 : Dev nD).tc : Thread nD τ).loc main_arg2)) slices_S1600000_S100000_1000000)
          shapeCasts_S100000_S100000x1 :=
    kvals11 (W23 m 0) (m (((0 : Dev nD).tc : Thread nD τ).loc main_arg2)) (W23_arg2 m 0)
  exact harr.trans (hbody.trans
    (chunkG11_eq_chunkSpec (Vof (W24 m)) (adm11 m) (tbl_lt11 m hcols) 0
      (W24 m 0 main_v3) (m (((0 : Dev nD).tc : Thread nD τ).loc main_arg4))
      (m (((0 : Dev nD).tc : Thread nD τ).loc main_arg2)) (hcols 0) (10 : Fin 16) 1000000 (by decide)
      slices_S1600000_S100000_1000000 shapeCasts_S100000_S100000x1 rfl ht hw))

/-! # Region 12 -/

attribute [local irreducible] W25 in
/-- The output array of region 12 at its exit is chunk 11 of the weighted rows of the table the region entered with. -/
theorem kout12 (m : (ℓ : Loc nD τ sig) → Buf (Elt Ideal) ℓ)
    (hcols : ∀ (c : Dev nD) (e : S1600000.Idx), (m ((c.tc : Thread nD τ).loc main_arg4) e).toNat < 100000)
    (c : Dev nD) :
    W27 m c main_v52
      = chunkSpec (W26 m c main_v3) (m ((c.tc : Thread nD τ).loc main_arg4)) (m ((c.tc : Thread nD τ).loc main_arg2))
          (hcols c) (11 : Fin 16) := by
  -- one core: every core is core 0, the one the table's admissible contents are read at
  obtain rfl : c = 0 := Subsingleton.elim _ _
  -- the exit boundary at the output array is the pipeline's final array
  have harr : W27 m 0 main_v52
      = (dat12 (Vof (W26 m)) (adm12 m) (outBlk12 (Vof (W26 m)) (adm12 m)) 0).arrAt 1 (cfg12 (adm12 m)).N :=
    Wout12_arr (W26 m) (adm12 m) (outBlk12 (Vof (W26 m)) (adm12 m)) 0 1
  -- which is the one function of the operands at the entry boundary
  have hbody := chunk_array12_body (Vof (W26 m)) (adm12 m) (tbl_lt12 m hcols) 0
  -- the table of row numbers is the slice of the argument list
  have ht : tbl12 (adm12 m)
      = extractStridedSlice T100000 ![1100000] (m (((0 : Dev nD).tc : Thread nD τ).loc main_arg4)) slices_S1600000_S100000_1100000 := by
    show W26 m 0 main_v49 = _
    rw [tbl_eq12 m 0, W25_arg4 m 0]
  -- the column of weights is the slice of the argument list, as a column
  have hw : wts12 (Vof (W26 m)) 0
      = shapeCast T100000x1
          (extractStridedSlice T100000 ![1100000] (m (((0 : Dev nD).tc : Thread nD τ).loc main_arg2)) slices_S1600000_S100000_1100000)
          shapeCasts_S100000_S100000x1 :=
    kvals12 (W25 m 0) (m (((0 : Dev nD).tc : Thread nD τ).loc main_arg2)) (W25_arg2 m 0)
  exact harr.trans (hbody.trans
    (chunkG12_eq_chunkSpec (Vof (W26 m)) (adm12 m) (tbl_lt12 m hcols) 0
      (W26 m 0 main_v3) (m (((0 : Dev nD).tc : Thread nD τ).loc main_arg4))
      (m (((0 : Dev nD).tc : Thread nD τ).loc main_arg2)) (hcols 0) (11 : Fin 16) 1100000 (by decide)
      slices_S1600000_S100000_1100000 shapeCasts_S100000_S100000x1 rfl ht hw))

/-! # Region 13 -/

attribute [local irreducible] W27 in
/-- The output array of region 13 at its exit is chunk 12 of the weighted rows of the table the region entered with. -/
theorem kout13 (m : (ℓ : Loc nD τ sig) → Buf (Elt Ideal) ℓ)
    (hcols : ∀ (c : Dev nD) (e : S1600000.Idx), (m ((c.tc : Thread nD τ).loc main_arg4) e).toNat < 100000)
    (c : Dev nD) :
    W29 m c main_v56
      = chunkSpec (W28 m c main_v3) (m ((c.tc : Thread nD τ).loc main_arg4)) (m ((c.tc : Thread nD τ).loc main_arg2))
          (hcols c) (12 : Fin 16) := by
  -- one core: every core is core 0, the one the table's admissible contents are read at
  obtain rfl : c = 0 := Subsingleton.elim _ _
  -- the exit boundary at the output array is the pipeline's final array
  have harr : W29 m 0 main_v56
      = (dat13 (Vof (W28 m)) (adm13 m) (outBlk13 (Vof (W28 m)) (adm13 m)) 0).arrAt 1 (cfg13 (adm13 m)).N :=
    Wout13_arr (W28 m) (adm13 m) (outBlk13 (Vof (W28 m)) (adm13 m)) 0 1
  -- which is the one function of the operands at the entry boundary
  have hbody := chunk_array13_body (Vof (W28 m)) (adm13 m) (tbl_lt13 m hcols) 0
  -- the table of row numbers is the slice of the argument list
  have ht : tbl13 (adm13 m)
      = extractStridedSlice T100000 ![1200000] (m (((0 : Dev nD).tc : Thread nD τ).loc main_arg4)) slices_S1600000_S100000_1200000 := by
    show W28 m 0 main_v53 = _
    rw [tbl_eq13 m 0, W27_arg4 m 0]
  -- the column of weights is the slice of the argument list, as a column
  have hw : wts13 (Vof (W28 m)) 0
      = shapeCast T100000x1
          (extractStridedSlice T100000 ![1200000] (m (((0 : Dev nD).tc : Thread nD τ).loc main_arg2)) slices_S1600000_S100000_1200000)
          shapeCasts_S100000_S100000x1 :=
    kvals13 (W27 m 0) (m (((0 : Dev nD).tc : Thread nD τ).loc main_arg2)) (W27_arg2 m 0)
  exact harr.trans (hbody.trans
    (chunkG13_eq_chunkSpec (Vof (W28 m)) (adm13 m) (tbl_lt13 m hcols) 0
      (W28 m 0 main_v3) (m (((0 : Dev nD).tc : Thread nD τ).loc main_arg4))
      (m (((0 : Dev nD).tc : Thread nD τ).loc main_arg2)) (hcols 0) (12 : Fin 16) 1200000 (by decide)
      slices_S1600000_S100000_1200000 shapeCasts_S100000_S100000x1 rfl ht hw))

/-! # Region 14 -/

attribute [local irreducible] W29 in
/-- The output array of region 14 at its exit is chunk 13 of the weighted rows of the table the region entered with. -/
theorem kout14 (m : (ℓ : Loc nD τ sig) → Buf (Elt Ideal) ℓ)
    (hcols : ∀ (c : Dev nD) (e : S1600000.Idx), (m ((c.tc : Thread nD τ).loc main_arg4) e).toNat < 100000)
    (c : Dev nD) :
    W31 m c main_v60
      = chunkSpec (W30 m c main_v3) (m ((c.tc : Thread nD τ).loc main_arg4)) (m ((c.tc : Thread nD τ).loc main_arg2))
          (hcols c) (13 : Fin 16) := by
  -- one core: every core is core 0, the one the table's admissible contents are read at
  obtain rfl : c = 0 := Subsingleton.elim _ _
  -- the exit boundary at the output array is the pipeline's final array
  have harr : W31 m 0 main_v60
      = (dat14 (Vof (W30 m)) (adm14 m) (outBlk14 (Vof (W30 m)) (adm14 m)) 0).arrAt 1 (cfg14 (adm14 m)).N :=
    Wout14_arr (W30 m) (adm14 m) (outBlk14 (Vof (W30 m)) (adm14 m)) 0 1
  -- which is the one function of the operands at the entry boundary
  have hbody := chunk_array14_body (Vof (W30 m)) (adm14 m) (tbl_lt14 m hcols) 0
  -- the table of row numbers is the slice of the argument list
  have ht : tbl14 (adm14 m)
      = extractStridedSlice T100000 ![1300000] (m (((0 : Dev nD).tc : Thread nD τ).loc main_arg4)) slices_S1600000_S100000_1300000 := by
    show W30 m 0 main_v57 = _
    rw [tbl_eq14 m 0, W29_arg4 m 0]
  -- the column of weights is the slice of the argument list, as a column
  have hw : wts14 (Vof (W30 m)) 0
      = shapeCast T100000x1
          (extractStridedSlice T100000 ![1300000] (m (((0 : Dev nD).tc : Thread nD τ).loc main_arg2)) slices_S1600000_S100000_1300000)
          shapeCasts_S100000_S100000x1 :=
    kvals14 (W29 m 0) (m (((0 : Dev nD).tc : Thread nD τ).loc main_arg2)) (W29_arg2 m 0)
  exact harr.trans (hbody.trans
    (chunkG14_eq_chunkSpec (Vof (W30 m)) (adm14 m) (tbl_lt14 m hcols) 0
      (W30 m 0 main_v3) (m (((0 : Dev nD).tc : Thread nD τ).loc main_arg4))
      (m (((0 : Dev nD).tc : Thread nD τ).loc main_arg2)) (hcols 0) (13 : Fin 16) 1300000 (by decide)
      slices_S1600000_S100000_1300000 shapeCasts_S100000_S100000x1 rfl ht hw))

/-! # Region 15 -/

attribute [local irreducible] W31 in
/-- The output array of region 15 at its exit is chunk 14 of the weighted rows of the table the region entered with. -/
theorem kout15 (m : (ℓ : Loc nD τ sig) → Buf (Elt Ideal) ℓ)
    (hcols : ∀ (c : Dev nD) (e : S1600000.Idx), (m ((c.tc : Thread nD τ).loc main_arg4) e).toNat < 100000)
    (c : Dev nD) :
    W33 m c main_v64
      = chunkSpec (W32 m c main_v3) (m ((c.tc : Thread nD τ).loc main_arg4)) (m ((c.tc : Thread nD τ).loc main_arg2))
          (hcols c) (14 : Fin 16) := by
  -- one core: every core is core 0, the one the table's admissible contents are read at
  obtain rfl : c = 0 := Subsingleton.elim _ _
  -- the exit boundary at the output array is the pipeline's final array
  have harr : W33 m 0 main_v64
      = (dat15 (Vof (W32 m)) (adm15 m) (outBlk15 (Vof (W32 m)) (adm15 m)) 0).arrAt 1 (cfg15 (adm15 m)).N :=
    Wout15_arr (W32 m) (adm15 m) (outBlk15 (Vof (W32 m)) (adm15 m)) 0 1
  -- which is the one function of the operands at the entry boundary
  have hbody := chunk_array15_body (Vof (W32 m)) (adm15 m) (tbl_lt15 m hcols) 0
  -- the table of row numbers is the slice of the argument list
  have ht : tbl15 (adm15 m)
      = extractStridedSlice T100000 ![1400000] (m (((0 : Dev nD).tc : Thread nD τ).loc main_arg4)) slices_S1600000_S100000_1400000 := by
    show W32 m 0 main_v61 = _
    rw [tbl_eq15 m 0, W31_arg4 m 0]
  -- the column of weights is the slice of the argument list, as a column
  have hw : wts15 (Vof (W32 m)) 0
      = shapeCast T100000x1
          (extractStridedSlice T100000 ![1400000] (m (((0 : Dev nD).tc : Thread nD τ).loc main_arg2)) slices_S1600000_S100000_1400000)
          shapeCasts_S100000_S100000x1 :=
    kvals15 (W31 m 0) (m (((0 : Dev nD).tc : Thread nD τ).loc main_arg2)) (W31_arg2 m 0)
  exact harr.trans (hbody.trans
    (chunkG15_eq_chunkSpec (Vof (W32 m)) (adm15 m) (tbl_lt15 m hcols) 0
      (W32 m 0 main_v3) (m (((0 : Dev nD).tc : Thread nD τ).loc main_arg4))
      (m (((0 : Dev nD).tc : Thread nD τ).loc main_arg2)) (hcols 0) (14 : Fin 16) 1400000 (by decide)
      slices_S1600000_S100000_1400000 shapeCasts_S100000_S100000x1 rfl ht hw))

/-! # Region 16 -/

attribute [local irreducible] W33 in
/-- The output array of region 16 at its exit is chunk 15 of the weighted rows of the table the region entered with. -/
theorem kout16 (m : (ℓ : Loc nD τ sig) → Buf (Elt Ideal) ℓ)
    (hcols : ∀ (c : Dev nD) (e : S1600000.Idx), (m ((c.tc : Thread nD τ).loc main_arg4) e).toNat < 100000)
    (c : Dev nD) :
    W35 m c main_v68
      = chunkSpec (W34 m c main_v3) (m ((c.tc : Thread nD τ).loc main_arg4)) (m ((c.tc : Thread nD τ).loc main_arg2))
          (hcols c) (15 : Fin 16) := by
  -- one core: every core is core 0, the one the table's admissible contents are read at
  obtain rfl : c = 0 := Subsingleton.elim _ _
  -- the exit boundary at the output array is the pipeline's final array
  have harr : W35 m 0 main_v68
      = (dat16 (Vof (W34 m)) (adm16 m) (outBlk16 (Vof (W34 m)) (adm16 m)) 0).arrAt 1 (cfg16 (adm16 m)).N :=
    Wout16_arr (W34 m) (adm16 m) (outBlk16 (Vof (W34 m)) (adm16 m)) 0 1
  -- which is the one function of the operands at the entry boundary
  have hbody := chunk_array16_body (Vof (W34 m)) (adm16 m) (tbl_lt16 m hcols) 0
  -- the table of row numbers is the slice of the argument list
  have ht : tbl16 (adm16 m)
      = extractStridedSlice T100000 ![1500000] (m (((0 : Dev nD).tc : Thread nD τ).loc main_arg4)) slices_S1600000_S100000_1500000 := by
    show W34 m 0 main_v65 = _
    rw [tbl_eq16 m 0, W33_arg4 m 0]
  -- the column of weights is the slice of the argument list, as a column
  have hw : wts16 (Vof (W34 m)) 0
      = shapeCast T100000x1
          (extractStridedSlice T100000 ![1500000] (m (((0 : Dev nD).tc : Thread nD τ).loc main_arg2)) slices_S1600000_S100000_1500000)
          shapeCasts_S100000_S100000x1 :=
    kvals16 (W33 m 0) (m (((0 : Dev nD).tc : Thread nD τ).loc main_arg2)) (W33_arg2 m 0)
  exact harr.trans (hbody.trans
    (chunkG16_eq_chunkSpec (Vof (W34 m)) (adm16 m) (tbl_lt16 m hcols) 0
      (W34 m 0 main_v3) (m (((0 : Dev nD).tc : Thread nD τ).loc main_arg4))
      (m (((0 : Dev nD).tc : Thread nD τ).loc main_arg2)) (hcols 0) (15 : Fin 16) 1500000 (by decide)
      slices_S1600000_S100000_1500000 shapeCasts_S100000_S100000x1 rfl ht hw))

/-! # Region 17 -/

attribute [local irreducible] W35 in
/-- The output array of region 17 at its exit is chunk 0 of the weighted rows of the table the region entered with. -/
theorem kout17 (m : (ℓ : Loc nD τ sig) → Buf (Elt Ideal) ℓ)
    (hcols : ∀ (c : Dev nD) (e : S1600000.Idx), (m ((c.tc : Thread nD τ).loc main_arg4) e).toNat < 100000)
    (c : Dev nD) :
    W37 m c main_v77
      = chunkSpec (W36 m c main_v72) (m ((c.tc : Thread nD τ).loc main_arg4)) (m ((c.tc : Thread nD τ).loc main_arg2))
          (hcols c) (0 : Fin 16) := by
  -- one core: every core is core 0, the one the table's admissible contents are read at
  obtain rfl : c = 0 := Subsingleton.elim _ _
  -- the exit boundary at the output array is the pipeline's final array
  have harr : W37 m 0 main_v77
      = (dat17 (Vof (W36 m)) (adm17 m) (outBlk17 (Vof (W36 m)) (adm17 m)) 0).arrAt 1 (cfg17 (adm17 m)).N :=
    Wout17_arr (W36 m) (adm17 m) (outBlk17 (Vof (W36 m)) (adm17 m)) 0 1
  -- which is the one function of the operands at the entry boundary
  have hbody := chunk_array17_body (Vof (W36 m)) (adm17 m) (tbl_lt17 m hcols) 0
  -- the table of row numbers is the slice of the argument list
  have ht : tbl17 (adm17 m)
      = extractStridedSlice T100000 ![0] (m (((0 : Dev nD).tc : Thread nD τ).loc main_arg4)) slices_S1600000_S100000_0 := by
    show W36 m 0 main_v74 = _
    rw [tbl_eq17 m 0, W35_arg4 m 0]
  -- the column of weights is the slice of the argument list, as a column
  have hw : wts17 (Vof (W36 m)) 0
      = shapeCast T100000x1
          (extractStridedSlice T100000 ![0] (m (((0 : Dev nD).tc : Thread nD τ).loc main_arg2)) slices_S1600000_S100000_0)
          shapeCasts_S100000_S100000x1 :=
    kvals17 (W35 m 0) (m (((0 : Dev nD).tc : Thread nD τ).loc main_arg2)) (W35_arg2 m 0)
  exact harr.trans (hbody.trans
    (chunkG17_eq_chunkSpec (Vof (W36 m)) (adm17 m) (tbl_lt17 m hcols) 0
      (W36 m 0 main_v72) (m (((0 : Dev nD).tc : Thread nD τ).loc main_arg4))
      (m (((0 : Dev nD).tc : Thread nD τ).loc main_arg2)) (hcols 0) (0 : Fin 16) 0 (by decide)
      slices_S1600000_S100000_0 shapeCasts_S100000_S100000x1 rfl ht hw))

end Cert.Value

end
-- ==== Proof.Val.ChunkArrays_18_25.lean ====
/-
  Gather regions 18 to 25 of the host program, one after the other: for each, the region's output array as one function of the node table, the table's words and the weights,
  exactly as for region 1 (whose module says what each part is).
-/
import proofs.«421643_j28415503630349_2_alg».proof.Proof.KI.Regions_18_25
import proofs.«421643_j28415503630349_2_alg».proof.Proof.KI.GatherDefs
import proofs.«421643_j28415503630349_2_alg».proof.Proof.Val.GatherSpec
import proofs.«421643_j28415503630349_2_alg».proof.Proof.Val.Cover
import Idealize.ShloMosaic.Lib.Pipeline.Value
import Idealize.ShloMosaic.Lib.ValueIdx

set_option maxRecDepth 16384

noncomputable section

namespace Cert.Value

open Cert.KernelIdeal Cert.KernelIdeal.Gen Cert.KernelIdeal.Hand
open Idealize.ShloMosaic Idealize.ShloMosaic.TcCoe
open Idealize.SL.Sem
open Idealize.ShloMosaic.Pipeline (Dat Cfg Window UD)

/-! # Region 18 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg18 (F := Ideal)).Adm)
  (O : (c : Dev nD) → Fin (cfg18 a1).N → Vec Ideal S8x64 .f32)

/-- The grid has 12500 points. -/
theorem npoints18 : (cfg18 a1).N = 12500 := N_18

/-- A point's one coordinate is the point's number. -/
theorem coordsVal18 (t : Fin (cfg18 a1).N) : (((cfg18 a1).grid.coords t) 0).val = t.val := by
  have ht : t.val < 12500 := (npoints18 a1) ▸ t.isLt
  show t.val / grid18.stride 0 % 12500 = t.val
  rw [show grid18.stride 0 = 1 from by decide, Nat.div_one, Nat.mod_eq_of_lt ht]

/-- Both windows move with the point: block index (t, 0) at point t. -/
theorem idxInRow18 (t : Fin (cfg18 a1).N) : ((cfg18 a1).win 0).index t (0 : Fin 2) = t.val := by
  have ht : t.val < 12500 := (npoints18 a1) ▸ t.isLt
  show (BitVec.ofNat 32 (((cfg18 a1).grid.coords t) 0).val).toNat = t.val
  rw [coordsVal18, BitVec.toNat_ofNat, Nat.mod_eq_of_lt (by omega)]
theorem idxInCol18 (t : Fin (cfg18 a1).N) : ((cfg18 a1).win 0).index t (1 : Fin 2) = 0 := rfl
theorem idxOutRow18 (t : Fin (cfg18 a1).N) : ((cfg18 a1).win 1).index t (0 : Fin 2) = t.val := by
  have ht : t.val < 12500 := (npoints18 a1) ▸ t.isLt
  show (BitVec.ofNat 32 (((cfg18 a1).grid.coords t) 0).val).toNat = t.val
  rw [coordsVal18, BitVec.toNat_ofNat, Nat.mod_eq_of_lt (by omega)]
theorem idxOutCol18 (t : Fin (cfg18 a1).N) : ((cfg18 a1).win 1).index t (1 : Fin 2) = 0 := rfl

/-- The output window is written back at every point: the next point's block is another. -/
theorem flushOut18 (t : Fin (cfg18 a1).N) : ((cfg18 a1).win 1).flush t = true := by
  unfold Window.flush
  show (true && (decide (t.val + 1 = (cfg18 a1).N) || decide (∃ h : t.val + 1 < (cfg18 a1).N,
    ((cfg18 a1).win 1).index ⟨t.val + 1, h⟩ ≠ ((cfg18 a1).win 1).index t))) = true
  rw [Bool.true_and, Bool.or_eq_true, decide_eq_true_eq, decide_eq_true_eq]
  by_cases h : t.val + 1 = (cfg18 a1).N
  · exact Or.inl h
  · refine Or.inr ⟨by have := t.isLt; omega, fun e => ?_⟩
    have erow := congrFun e (0 : Fin 2)
    rw [idxOutRow18, idxOutRow18] at erow
    exact absurd erow (by show t.val + 1 ≠ t.val; omega)

/-! ## The operands at their literal types -/

/-- The table's words. -/
abbrev tbl18 : S100000.Idx → BitVec 32 := a1.1 0
/-- The far operand: the table of rows. -/
abbrev far18 (c : Dev nD) : S100000x64.Idx → EReal := V c main_v72
/-- The weights, as a column. -/
abbrev wts18 (c : Dev nD) : S100000x1.Idx → EReal := V c main_v80
/-- The input window's block at point t: eight weights. -/
abbrev inBlk18 (c : Dev nD) (t : Fin (cfg18 a1).N) : S8x1.Idx → EReal := iblk18 V a1 c 0 t

/-! ## The blocks -/

/-- Row r of the input window's block at point t is row 8 t + r of the column of weights. -/
theorem inBlk18_apply (c : Dev nD) (t : Fin (cfg18 a1).N) (r : Fin 8) (z : Fin 1) (k : S100000x1.Idx)
    (hkrow : (k 0).val = 8 * t.val + r.val) :
    inBlk18 V a1 c t (ValueIdx.ix2 r z) = wts18 V c k := by
  show wts18 V c ((((cfg18 a1).win 0).blk t).view.emb (ValueIdx.ix2 r z)) = wts18 V c k
  refine congrArg (wts18 V c) (funext fun a => Fin.ext ?_)
  match a with
  | ⟨0, _⟩ =>
    show ((cfg18 a1).win 0).index t (0 : Fin 2) * 8 + 1 * r.val = (k 0).val
    rw [idxInRow18, hkrow]; omega
  | ⟨1, _⟩ =>
    show ((cfg18 a1).win 0).index t (1 : Fin 2) * 1 + 1 * z.val = (k 1).val
    have hkcol : (k 1).val < 1 := idx2_lt1 k
    have hz : z.val < 1 := z.isLt
    rw [idxInCol18]; omega

/-- An index of the array is in point t's block iff each coordinate is in the block's range on its axis. -/
theorem mem_blkOut18 (t : Fin (cfg18 a1).N) (i : S100000x64.Idx) :
    i ∈ (((cfg18 a1).win 1).blk t).view.set ↔ ∀ a : Fin 2, ((cfg18 a1).win 1).index t a * S8x64.size a ≤ (i a).val
      ∧ (i a).val < ((cfg18 a1).win 1).index t a * S8x64.size a + S8x64.size a := by
  have hset : (((cfg18 a1).win 1).blk t).view.set = (((cfg18 a1).win 1).rect t : Rect S100000x64).set :=
    View.set_slice_whole main_v81 _
  have hmem : i ∈ (((cfg18 a1).win 1).rect t : Rect S100000x64).set ↔ ∀ a : Fin 2,
      ((cfg18 a1).win 1).index t a * S8x64.size a ≤ (i a).val
        ∧ (i a).val < ((cfg18 a1).win 1).index t a * S8x64.size a + S8x64.size a := Rect.mem_set_unit
  exact (Finset.ext_iff.mp hset i).trans hmem

/-- Every index of the array is in the block of the point its row over eight names. -/
theorem coverOut18 (i : S100000x64.Idx) :
    ∃ t : Fin (cfg18 a1).N, ((cfg18 a1).win 1).flush t = true ∧ i ∈ (((cfg18 a1).win 1).blk t).view.set := by
  have hirow : (i 0).val < 100000 := idx2_lt0 i
  have hicol : (i 1).val < 64 := idx2_lt1 i
  obtain ⟨t, ht⟩ : ∃ t : Fin (cfg18 a1).N, t.val = (i 0).val / 8 := ⟨⟨(i 0).val / 8, by rw [npoints18]; omega⟩, rfl⟩
  refine ⟨t, flushOut18 a1 t, ?_⟩
  rw [mem_blkOut18]
  intro a
  match a with
  | ⟨0, _⟩ =>
    show ((cfg18 a1).win 1).index t (0 : Fin 2) * 8 ≤ (i 0).val ∧ (i 0).val < ((cfg18 a1).win 1).index t (0 : Fin 2) * 8 + 8
    rw [idxOutRow18, ht]; omega
  | ⟨1, _⟩ =>
    show ((cfg18 a1).win 1).index t (1 : Fin 2) * 64 ≤ (i 1).val ∧ (i 1).val < ((cfg18 a1).win 1).index t (1 : Fin 2) * 64 + 64
    rw [idxOutCol18]; omega

/-! ## The array -/

/-- One weighted row at one column: the table row the e-th word names, at column j, times the e-th weight. -/
def chunkRow18 (hlt : ∀ y, (tbl18 a1 y).toNat < 100000) (c : Dev nD) (e : Fin 100000) (j : Fin 64) : EReal :=
  far18 V c (ValueIdx.ix2 ⟨(tbl18 a1 (ValueIdx.ix1 e)).toNat, hlt _⟩ j) * wts18 V c (ValueIdx.ix2 e (0 : Fin 1))

/-- The chunk's array as one function of the region's operands. -/
def chunkG18 (hlt : ∀ y, (tbl18 a1 y).toNat < 100000) (c : Dev nD) : S100000x64.Idx → EReal :=
  fun i => chunkRow18 V a1 hlt c (i 0) (i 1)

/-- Row r of point t's block lies in the table. -/
theorem row_lt18 (t : Fin (cfg18 a1).N) (r : Fin 8) : 8 * t.val + r.val < 100000 := by
  have ht : t.val < 12500 := (npoints18 a1) ▸ t.isLt
  have := r.isLt; omega

/-- WHAT POINT t WRITES BACK is block t of the chunk's array, when the body leaves in the output window's buffer,
    at (r, j), the table row that word 8 t + r names at column j times the input block's weight at (r, 0). -/
theorem flushedOut18_eq (hlt : ∀ y, (tbl18 a1 y).toNat < 100000)
    (hO : ∀ (c : Dev nD) (t : Fin (cfg18 a1).N) (r : Fin 8) (j : Fin 64), O c t (ValueIdx.ix2 r j)
      = far18 V c (ValueIdx.ix2 ⟨(tbl18 a1 (ValueIdx.ix1 ⟨8 * t.val + r.val, row_lt18 a1 t r⟩)).toNat, hlt _⟩ j)
        * inBlk18 V a1 c t (ValueIdx.ix2 r (0 : Fin 1)))
    (c : Dev nD) (t : Fin (cfg18 a1).N) :
    (dat18 V a1 O c).flushed 1 t = (((cfg18 a1).win 1).blk t).view.read (Elt Ideal) (chunkG18 V a1 hlt c) := by
  show ((cfg18 a1).win 1).cut ((cfg18 a1).grid.coords t) ((dat18 V a1 O c).after 1 t) = _
  rw [afterOut18]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG18 V a1 hlt c ((((cfg18 a1).win 1).blk t).view.emb (ValueIdx.ix2 r j))
  have hemb : (((cfg18 a1).win 1).blk t).view.emb (ValueIdx.ix2 r j)
      = (ValueIdx.ix2 ⟨8 * t.val + r.val, row_lt18 a1 t r⟩ j : S100000x64.Idx) := by
    funext a; apply Fin.ext
    match a with
    | ⟨0, _⟩ =>
      show ((cfg18 a1).win 1).index t (0 : Fin 2) * 8 + 1 * r.val = 8 * t.val + r.val
      rw [idxOutRow18]; omega
    | ⟨1, _⟩ =>
      show ((cfg18 a1).win 1).index t (1 : Fin 2) * 64 + 1 * j.val = j.val
      rw [idxOutCol18]; omega
  rw [hemb, hO c t r j,
    inBlk18_apply V a1 c t r 0 (ValueIdx.ix2 ⟨8 * t.val + r.val, row_lt18 a1 t r⟩ (0 : Fin 1)) rfl]
  rfl

/-- THE CHUNK'S ARRAY after the region: chunkG18. -/
theorem chunk_array18 (hlt : ∀ y, (tbl18 a1 y).toNat < 100000)
    (hO : ∀ (c : Dev nD) (t : Fin (cfg18 a1).N) (r : Fin 8) (j : Fin 64), O c t (ValueIdx.ix2 r j)
      = far18 V c (ValueIdx.ix2 ⟨(tbl18 a1 (ValueIdx.ix1 ⟨8 * t.val + r.val, row_lt18 a1 t r⟩)).toNat, hlt _⟩ j)
        * inBlk18 V a1 c t (ValueIdx.ix2 r (0 : Fin 1)))
    (c : Dev nD) :
    (dat18 V a1 O c).arrAt 1 (cfg18 a1).N = chunkG18 V a1 hlt c :=
  (dat18 V a1 O c).arrAt_eq_of_cover 1 (chunkG18 V a1 hlt c) (fun t _ => flushedOut18_eq V a1 O hlt hO c t) (coverOut18 a1)

/-! ## The body's own block -/

/-- Two rows of the far operand named by the same word are the same row. -/
theorem farRow18_congr (c : Dev nD) {e e' : Fin 100000} (h : e.val = e'.val) (j : Fin 64)
    (p : (tbl18 a1 (ValueIdx.ix1 e)).toNat < 100000) (p' : (tbl18 a1 (ValueIdx.ix1 e')).toNat < 100000) :
    far18 V c (ValueIdx.ix2 ⟨(tbl18 a1 (ValueIdx.ix1 e)).toNat, p⟩ j)
      = far18 V c (ValueIdx.ix2 ⟨(tbl18 a1 (ValueIdx.ix1 e')).toNat, p'⟩ j) := by
  obtain rfl : e = e' := Fin.ext h
  rfl

/-- The body's block at point t — the gathered rows scaled by the input block — has the entries hO asks. -/
theorem bodyBlk18_apply (hlt : ∀ y, (tbl18 a1 y).toNat < 100000) (c : Dev nD) (t : Fin (cfg18 a1).N) (r : Fin 8) (j : Fin 64) :
    gatherOut (gatherG (a1.1 0) (V c main_v72) (grid18.coords t)) (iblk18 V a1 c 0 t) (ValueIdx.ix2 r j)
      = far18 V c (ValueIdx.ix2 ⟨(tbl18 a1 (ValueIdx.ix1 ⟨8 * t.val + r.val, row_lt18 a1 t r⟩)).toNat, hlt _⟩ j)
        * inBlk18 V a1 c t (ValueIdx.ix2 r (0 : Fin 1)) := by
  have hpay : gatherOut (gatherG (a1.1 0) (V c main_v72) (grid18.coords t)) (iblk18 V a1 c 0 t) (ValueIdx.ix2 r j)
      = gatherG (F := Ideal) (tbl18 a1) (far18 V c) (grid18.coords t) (ValueIdx.ix2 r j) * inBlk18 V a1 c t (ValueIdx.ix2 r (0 : Fin 1)) :=
    Cert.Value.kernel_block (by decide) (by decide) (gatherG (F := Ideal) (tbl18 a1) (far18 V c) (grid18.coords t)) (inBlk18 V a1 c t) r j
  rw [hpay, gatherG_apply (F := Ideal) (tbl18 a1) (far18 V c) (grid18.coords t) r j (hlt _)]
  refine congrArg (· * inBlk18 V a1 c t (ValueIdx.ix2 r (0 : Fin 1))) ?_
  exact farRow18_congr V a1 c (by show 8 * ((grid18.coords t) 0).val + r.val = 8 * t.val + r.val; rw [coordsVal18 a1 t]) j _ _

/-- THE CHUNK'S ARRAY after the region, the output block being the body's own. -/
theorem chunk_array18_body (hlt : ∀ y, (tbl18 a1 y).toNat < 100000) (c : Dev nD) :
    (dat18 V a1 (fun c t => gatherOut (gatherG (a1.1 0) (V c main_v72) (grid18.coords t)) (iblk18 V a1 c 0 t)) c).arrAt 1 (cfg18 a1).N
      = chunkG18 V a1 hlt c :=
  chunk_array18 V a1 _ hlt (fun c t r j => bodyBlk18_apply V a1 hlt c t r j) c

/-! ## The array as a chunk of the weighted rows -/

/-- When the far operand is the table x, the region's table the slice of the row numbers cols at 100000 k and its
    weights the slice of vals there as a column, the region's array is chunk k of the weighted rows. -/
theorem chunkG18_eq_chunkSpec (hlt : ∀ y, (tbl18 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far18 V c = x) (ht : tbl18 a1 = extractStridedSlice Cert.Value.T100000 ![off] cols hsl)
    (hw : wts18 V c = shapeCast Cert.Value.T100000x1 (extractStridedSlice Cert.Value.T100000 ![off] vals hsl) hsc) :
    chunkG18 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl18 a1 (ValueIdx.ix1 e)).toNat, hlt _⟩ (congrArg (fun T : S100000.Idx → BitVec 32 => (T (ValueIdx.ix1 e)).toNat) ht), ← hx, ← hw]
  rfl

end Chunk

/-! # Region 19 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg19 (F := Ideal)).Adm)
  (O : (c : Dev nD) → Fin (cfg19 a1).N → Vec Ideal S8x64 .f32)

/-- The grid has 12500 points. -/
theorem npoints19 : (cfg19 a1).N = 12500 := N_19

/-- A point's one coordinate is the point's number. -/
theorem coordsVal19 (t : Fin (cfg19 a1).N) : (((cfg19 a1).grid.coords t) 0).val = t.val := by
  have ht : t.val < 12500 := (npoints19 a1) ▸ t.isLt
  show t.val / grid19.stride 0 % 12500 = t.val
  rw [show grid19.stride 0 = 1 from by decide, Nat.div_one, Nat.mod_eq_of_lt ht]

/-- Both windows move with the point: block index (t, 0) at point t. -/
theorem idxInRow19 (t : Fin (cfg19 a1).N) : ((cfg19 a1).win 0).index t (0 : Fin 2) = t.val := by
  have ht : t.val < 12500 := (npoints19 a1) ▸ t.isLt
  show (BitVec.ofNat 32 (((cfg19 a1).grid.coords t) 0).val).toNat = t.val
  rw [coordsVal19, BitVec.toNat_ofNat, Nat.mod_eq_of_lt (by omega)]
theorem idxInCol19 (t : Fin (cfg19 a1).N) : ((cfg19 a1).win 0).index t (1 : Fin 2) = 0 := rfl
theorem idxOutRow19 (t : Fin (cfg19 a1).N) : ((cfg19 a1).win 1).index t (0 : Fin 2) = t.val := by
  have ht : t.val < 12500 := (npoints19 a1) ▸ t.isLt
  show (BitVec.ofNat 32 (((cfg19 a1).grid.coords t) 0).val).toNat = t.val
  rw [coordsVal19, BitVec.toNat_ofNat, Nat.mod_eq_of_lt (by omega)]
theorem idxOutCol19 (t : Fin (cfg19 a1).N) : ((cfg19 a1).win 1).index t (1 : Fin 2) = 0 := rfl

/-- The output window is written back at every point: the next point's block is another. -/
theorem flushOut19 (t : Fin (cfg19 a1).N) : ((cfg19 a1).win 1).flush t = true := by
  unfold Window.flush
  show (true && (decide (t.val + 1 = (cfg19 a1).N) || decide (∃ h : t.val + 1 < (cfg19 a1).N,
    ((cfg19 a1).win 1).index ⟨t.val + 1, h⟩ ≠ ((cfg19 a1).win 1).index t))) = true
  rw [Bool.true_and, Bool.or_eq_true, decide_eq_true_eq, decide_eq_true_eq]
  by_cases h : t.val + 1 = (cfg19 a1).N
  · exact Or.inl h
  · refine Or.inr ⟨by have := t.isLt; omega, fun e => ?_⟩
    have erow := congrFun e (0 : Fin 2)
    rw [idxOutRow19, idxOutRow19] at erow
    exact absurd erow (by show t.val + 1 ≠ t.val; omega)

/-! ## The operands at their literal types -/

/-- The table's words. -/
abbrev tbl19 : S100000.Idx → BitVec 32 := a1.1 0
/-- The far operand: the table of rows. -/
abbrev far19 (c : Dev nD) : S100000x64.Idx → EReal := V c main_v72
/-- The weights, as a column. -/
abbrev wts19 (c : Dev nD) : S100000x1.Idx → EReal := V c main_v84
/-- The input window's block at point t: eight weights. -/
abbrev inBlk19 (c : Dev nD) (t : Fin (cfg19 a1).N) : S8x1.Idx → EReal := iblk19 V a1 c 0 t

/-! ## The blocks -/

/-- Row r of the input window's block at point t is row 8 t + r of the column of weights. -/
theorem inBlk19_apply (c : Dev nD) (t : Fin (cfg19 a1).N) (r : Fin 8) (z : Fin 1) (k : S100000x1.Idx)
    (hkrow : (k 0).val = 8 * t.val + r.val) :
    inBlk19 V a1 c t (ValueIdx.ix2 r z) = wts19 V c k := by
  show wts19 V c ((((cfg19 a1).win 0).blk t).view.emb (ValueIdx.ix2 r z)) = wts19 V c k
  refine congrArg (wts19 V c) (funext fun a => Fin.ext ?_)
  match a with
  | ⟨0, _⟩ =>
    show ((cfg19 a1).win 0).index t (0 : Fin 2) * 8 + 1 * r.val = (k 0).val
    rw [idxInRow19, hkrow]; omega
  | ⟨1, _⟩ =>
    show ((cfg19 a1).win 0).index t (1 : Fin 2) * 1 + 1 * z.val = (k 1).val
    have hkcol : (k 1).val < 1 := idx2_lt1 k
    have hz : z.val < 1 := z.isLt
    rw [idxInCol19]; omega

/-- An index of the array is in point t's block iff each coordinate is in the block's range on its axis. -/
theorem mem_blkOut19 (t : Fin (cfg19 a1).N) (i : S100000x64.Idx) :
    i ∈ (((cfg19 a1).win 1).blk t).view.set ↔ ∀ a : Fin 2, ((cfg19 a1).win 1).index t a * S8x64.size a ≤ (i a).val
      ∧ (i a).val < ((cfg19 a1).win 1).index t a * S8x64.size a + S8x64.size a := by
  have hset : (((cfg19 a1).win 1).blk t).view.set = (((cfg19 a1).win 1).rect t : Rect S100000x64).set :=
    View.set_slice_whole main_v85 _
  have hmem : i ∈ (((cfg19 a1).win 1).rect t : Rect S100000x64).set ↔ ∀ a : Fin 2,
      ((cfg19 a1).win 1).index t a * S8x64.size a ≤ (i a).val
        ∧ (i a).val < ((cfg19 a1).win 1).index t a * S8x64.size a + S8x64.size a := Rect.mem_set_unit
  exact (Finset.ext_iff.mp hset i).trans hmem

/-- Every index of the array is in the block of the point its row over eight names. -/
theorem coverOut19 (i : S100000x64.Idx) :
    ∃ t : Fin (cfg19 a1).N, ((cfg19 a1).win 1).flush t = true ∧ i ∈ (((cfg19 a1).win 1).blk t).view.set := by
  have hirow : (i 0).val < 100000 := idx2_lt0 i
  have hicol : (i 1).val < 64 := idx2_lt1 i
  obtain ⟨t, ht⟩ : ∃ t : Fin (cfg19 a1).N, t.val = (i 0).val / 8 := ⟨⟨(i 0).val / 8, by rw [npoints19]; omega⟩, rfl⟩
  refine ⟨t, flushOut19 a1 t, ?_⟩
  rw [mem_blkOut19]
  intro a
  match a with
  | ⟨0, _⟩ =>
    show ((cfg19 a1).win 1).index t (0 : Fin 2) * 8 ≤ (i 0).val ∧ (i 0).val < ((cfg19 a1).win 1).index t (0 : Fin 2) * 8 + 8
    rw [idxOutRow19, ht]; omega
  | ⟨1, _⟩ =>
    show ((cfg19 a1).win 1).index t (1 : Fin 2) * 64 ≤ (i 1).val ∧ (i 1).val < ((cfg19 a1).win 1).index t (1 : Fin 2) * 64 + 64
    rw [idxOutCol19]; omega

/-! ## The array -/

/-- One weighted row at one column: the table row the e-th word names, at column j, times the e-th weight. -/
def chunkRow19 (hlt : ∀ y, (tbl19 a1 y).toNat < 100000) (c : Dev nD) (e : Fin 100000) (j : Fin 64) : EReal :=
  far19 V c (ValueIdx.ix2 ⟨(tbl19 a1 (ValueIdx.ix1 e)).toNat, hlt _⟩ j) * wts19 V c (ValueIdx.ix2 e (0 : Fin 1))

/-- The chunk's array as one function of the region's operands. -/
def chunkG19 (hlt : ∀ y, (tbl19 a1 y).toNat < 100000) (c : Dev nD) : S100000x64.Idx → EReal :=
  fun i => chunkRow19 V a1 hlt c (i 0) (i 1)

/-- Row r of point t's block lies in the table. -/
theorem row_lt19 (t : Fin (cfg19 a1).N) (r : Fin 8) : 8 * t.val + r.val < 100000 := by
  have ht : t.val < 12500 := (npoints19 a1) ▸ t.isLt
  have := r.isLt; omega

/-- WHAT POINT t WRITES BACK is block t of the chunk's array, when the body leaves in the output window's buffer,
    at (r, j), the table row that word 8 t + r names at column j times the input block's weight at (r, 0). -/
theorem flushedOut19_eq (hlt : ∀ y, (tbl19 a1 y).toNat < 100000)
    (hO : ∀ (c : Dev nD) (t : Fin (cfg19 a1).N) (r : Fin 8) (j : Fin 64), O c t (ValueIdx.ix2 r j)
      = far19 V c (ValueIdx.ix2 ⟨(tbl19 a1 (ValueIdx.ix1 ⟨8 * t.val + r.val, row_lt19 a1 t r⟩)).toNat, hlt _⟩ j)
        * inBlk19 V a1 c t (ValueIdx.ix2 r (0 : Fin 1)))
    (c : Dev nD) (t : Fin (cfg19 a1).N) :
    (dat19 V a1 O c).flushed 1 t = (((cfg19 a1).win 1).blk t).view.read (Elt Ideal) (chunkG19 V a1 hlt c) := by
  show ((cfg19 a1).win 1).cut ((cfg19 a1).grid.coords t) ((dat19 V a1 O c).after 1 t) = _
  rw [afterOut19]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG19 V a1 hlt c ((((cfg19 a1).win 1).blk t).view.emb (ValueIdx.ix2 r j))
  have hemb : (((cfg19 a1).win 1).blk t).view.emb (ValueIdx.ix2 r j)
      = (ValueIdx.ix2 ⟨8 * t.val + r.val, row_lt19 a1 t r⟩ j : S100000x64.Idx) := by
    funext a; apply Fin.ext
    match a with
    | ⟨0, _⟩ =>
      show ((cfg19 a1).win 1).index t (0 : Fin 2) * 8 + 1 * r.val = 8 * t.val + r.val
      rw [idxOutRow19]; omega
    | ⟨1, _⟩ =>
      show ((cfg19 a1).win 1).index t (1 : Fin 2) * 64 + 1 * j.val = j.val
      rw [idxOutCol19]; omega
  rw [hemb, hO c t r j,
    inBlk19_apply V a1 c t r 0 (ValueIdx.ix2 ⟨8 * t.val + r.val, row_lt19 a1 t r⟩ (0 : Fin 1)) rfl]
  rfl

/-- THE CHUNK'S ARRAY after the region: chunkG19. -/
theorem chunk_array19 (hlt : ∀ y, (tbl19 a1 y).toNat < 100000)
    (hO : ∀ (c : Dev nD) (t : Fin (cfg19 a1).N) (r : Fin 8) (j : Fin 64), O c t (ValueIdx.ix2 r j)
      = far19 V c (ValueIdx.ix2 ⟨(tbl19 a1 (ValueIdx.ix1 ⟨8 * t.val + r.val, row_lt19 a1 t r⟩)).toNat, hlt _⟩ j)
        * inBlk19 V a1 c t (ValueIdx.ix2 r (0 : Fin 1)))
    (c : Dev nD) :
    (dat19 V a1 O c).arrAt 1 (cfg19 a1).N = chunkG19 V a1 hlt c :=
  (dat19 V a1 O c).arrAt_eq_of_cover 1 (chunkG19 V a1 hlt c) (fun t _ => flushedOut19_eq V a1 O hlt hO c t) (coverOut19 a1)

/-! ## The body's own block -/

/-- Two rows of the far operand named by the same word are the same row. -/
theorem farRow19_congr (c : Dev nD) {e e' : Fin 100000} (h : e.val = e'.val) (j : Fin 64)
    (p : (tbl19 a1 (ValueIdx.ix1 e)).toNat < 100000) (p' : (tbl19 a1 (ValueIdx.ix1 e')).toNat < 100000) :
    far19 V c (ValueIdx.ix2 ⟨(tbl19 a1 (ValueIdx.ix1 e)).toNat, p⟩ j)
      = far19 V c (ValueIdx.ix2 ⟨(tbl19 a1 (ValueIdx.ix1 e')).toNat, p'⟩ j) := by
  obtain rfl : e = e' := Fin.ext h
  rfl

/-- The body's block at point t — the gathered rows scaled by the input block — has the entries hO asks. -/
theorem bodyBlk19_apply (hlt : ∀ y, (tbl19 a1 y).toNat < 100000) (c : Dev nD) (t : Fin (cfg19 a1).N) (r : Fin 8) (j : Fin 64) :
    gatherOut (gatherG (a1.1 0) (V c main_v72) (grid19.coords t)) (iblk19 V a1 c 0 t) (ValueIdx.ix2 r j)
      = far19 V c (ValueIdx.ix2 ⟨(tbl19 a1 (ValueIdx.ix1 ⟨8 * t.val + r.val, row_lt19 a1 t r⟩)).toNat, hlt _⟩ j)
        * inBlk19 V a1 c t (ValueIdx.ix2 r (0 : Fin 1)) := by
  have hpay : gatherOut (gatherG (a1.1 0) (V c main_v72) (grid19.coords t)) (iblk19 V a1 c 0 t) (ValueIdx.ix2 r j)
      = gatherG (F := Ideal) (tbl19 a1) (far19 V c) (grid19.coords t) (ValueIdx.ix2 r j) * inBlk19 V a1 c t (ValueIdx.ix2 r (0 : Fin 1)) :=
    Cert.Value.kernel_block (by decide) (by decide) (gatherG (F := Ideal) (tbl19 a1) (far19 V c) (grid19.coords t)) (inBlk19 V a1 c t) r j
  rw [hpay, gatherG_apply (F := Ideal) (tbl19 a1) (far19 V c) (grid19.coords t) r j (hlt _)]
  refine congrArg (· * inBlk19 V a1 c t (ValueIdx.ix2 r (0 : Fin 1))) ?_
  exact farRow19_congr V a1 c (by show 8 * ((grid19.coords t) 0).val + r.val = 8 * t.val + r.val; rw [coordsVal19 a1 t]) j _ _

/-- THE CHUNK'S ARRAY after the region, the output block being the body's own. -/
theorem chunk_array19_body (hlt : ∀ y, (tbl19 a1 y).toNat < 100000) (c : Dev nD) :
    (dat19 V a1 (fun c t => gatherOut (gatherG (a1.1 0) (V c main_v72) (grid19.coords t)) (iblk19 V a1 c 0 t)) c).arrAt 1 (cfg19 a1).N
      = chunkG19 V a1 hlt c :=
  chunk_array19 V a1 _ hlt (fun c t r j => bodyBlk19_apply V a1 hlt c t r j) c

/-! ## The array as a chunk of the weighted rows -/

/-- When the far operand is the table x, the region's table the slice of the row numbers cols at 100000 k and its
    weights the slice of vals there as a column, the region's array is chunk k of the weighted rows. -/
theorem chunkG19_eq_chunkSpec (hlt : ∀ y, (tbl19 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far19 V c = x) (ht : tbl19 a1 = extractStridedSlice Cert.Value.T100000 ![off] cols hsl)
    (hw : wts19 V c = shapeCast Cert.Value.T100000x1 (extractStridedSlice Cert.Value.T100000 ![off] vals hsl) hsc) :
    chunkG19 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl19 a1 (ValueIdx.ix1 e)).toNat, hlt _⟩ (congrArg (fun T : S100000.Idx → BitVec 32 => (T (ValueIdx.ix1 e)).toNat) ht), ← hx, ← hw]
  rfl

end Chunk

/-! # Region 20 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg20 (F := Ideal)).Adm)
  (O : (c : Dev nD) → Fin (cfg20 a1).N → Vec Ideal S8x64 .f32)

/-- The grid has 12500 points. -/
theorem npoints20 : (cfg20 a1).N = 12500 := N_20

/-- A point's one coordinate is the point's number. -/
theorem coordsVal20 (t : Fin (cfg20 a1).N) : (((cfg20 a1).grid.coords t) 0).val = t.val := by
  have ht : t.val < 12500 := (npoints20 a1) ▸ t.isLt
  show t.val / grid20.stride 0 % 12500 = t.val
  rw [show grid20.stride 0 = 1 from by decide, Nat.div_one, Nat.mod_eq_of_lt ht]

/-- Both windows move with the point: block index (t, 0) at point t. -/
theorem idxInRow20 (t : Fin (cfg20 a1).N) : ((cfg20 a1).win 0).index t (0 : Fin 2) = t.val := by
  have ht : t.val < 12500 := (npoints20 a1) ▸ t.isLt
  show (BitVec.ofNat 32 (((cfg20 a1).grid.coords t) 0).val).toNat = t.val
  rw [coordsVal20, BitVec.toNat_ofNat, Nat.mod_eq_of_lt (by omega)]
theorem idxInCol20 (t : Fin (cfg20 a1).N) : ((cfg20 a1).win 0).index t (1 : Fin 2) = 0 := rfl
theorem idxOutRow20 (t : Fin (cfg20 a1).N) : ((cfg20 a1).win 1).index t (0 : Fin 2) = t.val := by
  have ht : t.val < 12500 := (npoints20 a1) ▸ t.isLt
  show (BitVec.ofNat 32 (((cfg20 a1).grid.coords t) 0).val).toNat = t.val
  rw [coordsVal20, BitVec.toNat_ofNat, Nat.mod_eq_of_lt (by omega)]
theorem idxOutCol20 (t : Fin (cfg20 a1).N) : ((cfg20 a1).win 1).index t (1 : Fin 2) = 0 := rfl

/-- The output window is written back at every point: the next point's block is another. -/
theorem flushOut20 (t : Fin (cfg20 a1).N) : ((cfg20 a1).win 1).flush t = true := by
  unfold Window.flush
  show (true && (decide (t.val + 1 = (cfg20 a1).N) || decide (∃ h : t.val + 1 < (cfg20 a1).N,
    ((cfg20 a1).win 1).index ⟨t.val + 1, h⟩ ≠ ((cfg20 a1).win 1).index t))) = true
  rw [Bool.true_and, Bool.or_eq_true, decide_eq_true_eq, decide_eq_true_eq]
  by_cases h : t.val + 1 = (cfg20 a1).N
  · exact Or.inl h
  · refine Or.inr ⟨by have := t.isLt; omega, fun e => ?_⟩
    have erow := congrFun e (0 : Fin 2)
    rw [idxOutRow20, idxOutRow20] at erow
    exact absurd erow (by show t.val + 1 ≠ t.val; omega)

/-! ## The operands at their literal types -/

/-- The table's words. -/
abbrev tbl20 : S100000.Idx → BitVec 32 := a1.1 0
/-- The far operand: the table of rows. -/
abbrev far20 (c : Dev nD) : S100000x64.Idx → EReal := V c main_v72
/-- The weights, as a column. -/
abbrev wts20 (c : Dev nD) : S100000x1.Idx → EReal := V c main_v88
/-- The input window's block at point t: eight weights. -/
abbrev inBlk20 (c : Dev nD) (t : Fin (cfg20 a1).N) : S8x1.Idx → EReal := iblk20 V a1 c 0 t

/-! ## The blocks -/

/-- Row r of the input window's block at point t is row 8 t + r of the column of weights. -/
theorem inBlk20_apply (c : Dev nD) (t : Fin (cfg20 a1).N) (r : Fin 8) (z : Fin 1) (k : S100000x1.Idx)
    (hkrow : (k 0).val = 8 * t.val + r.val) :
    inBlk20 V a1 c t (ValueIdx.ix2 r z) = wts20 V c k := by
  show wts20 V c ((((cfg20 a1).win 0).blk t).view.emb (ValueIdx.ix2 r z)) = wts20 V c k
  refine congrArg (wts20 V c) (funext fun a => Fin.ext ?_)
  match a with
  | ⟨0, _⟩ =>
    show ((cfg20 a1).win 0).index t (0 : Fin 2) * 8 + 1 * r.val = (k 0).val
    rw [idxInRow20, hkrow]; omega
  | ⟨1, _⟩ =>
    show ((cfg20 a1).win 0).index t (1 : Fin 2) * 1 + 1 * z.val = (k 1).val
    have hkcol : (k 1).val < 1 := idx2_lt1 k
    have hz : z.val < 1 := z.isLt
    rw [idxInCol20]; omega

/-- An index of the array is in point t's block iff each coordinate is in the block's range on its axis. -/
theorem mem_blkOut20 (t : Fin (cfg20 a1).N) (i : S100000x64.Idx) :
    i ∈ (((cfg20 a1).win 1).blk t).view.set ↔ ∀ a : Fin 2, ((cfg20 a1).win 1).index t a * S8x64.size a ≤ (i a).val
      ∧ (i a).val < ((cfg20 a1).win 1).index t a * S8x64.size a + S8x64.size a := by
  have hset : (((cfg20 a1).win 1).blk t).view.set = (((cfg20 a1).win 1).rect t : Rect S100000x64).set :=
    View.set_slice_whole main_v89 _
  have hmem : i ∈ (((cfg20 a1).win 1).rect t : Rect S100000x64).set ↔ ∀ a : Fin 2,
      ((cfg20 a1).win 1).index t a * S8x64.size a ≤ (i a).val
        ∧ (i a).val < ((cfg20 a1).win 1).index t a * S8x64.size a + S8x64.size a := Rect.mem_set_unit
  exact (Finset.ext_iff.mp hset i).trans hmem

/-- Every index of the array is in the block of the point its row over eight names. -/
theorem coverOut20 (i : S100000x64.Idx) :
    ∃ t : Fin (cfg20 a1).N, ((cfg20 a1).win 1).flush t = true ∧ i ∈ (((cfg20 a1).win 1).blk t).view.set := by
  have hirow : (i 0).val < 100000 := idx2_lt0 i
  have hicol : (i 1).val < 64 := idx2_lt1 i
  obtain ⟨t, ht⟩ : ∃ t : Fin (cfg20 a1).N, t.val = (i 0).val / 8 := ⟨⟨(i 0).val / 8, by rw [npoints20]; omega⟩, rfl⟩
  refine ⟨t, flushOut20 a1 t, ?_⟩
  rw [mem_blkOut20]
  intro a
  match a with
  | ⟨0, _⟩ =>
    show ((cfg20 a1).win 1).index t (0 : Fin 2) * 8 ≤ (i 0).val ∧ (i 0).val < ((cfg20 a1).win 1).index t (0 : Fin 2) * 8 + 8
    rw [idxOutRow20, ht]; omega
  | ⟨1, _⟩ =>
    show ((cfg20 a1).win 1).index t (1 : Fin 2) * 64 ≤ (i 1).val ∧ (i 1).val < ((cfg20 a1).win 1).index t (1 : Fin 2) * 64 + 64
    rw [idxOutCol20]; omega

/-! ## The array -/

/-- One weighted row at one column: the table row the e-th word names, at column j, times the e-th weight. -/
def chunkRow20 (hlt : ∀ y, (tbl20 a1 y).toNat < 100000) (c : Dev nD) (e : Fin 100000) (j : Fin 64) : EReal :=
  far20 V c (ValueIdx.ix2 ⟨(tbl20 a1 (ValueIdx.ix1 e)).toNat, hlt _⟩ j) * wts20 V c (ValueIdx.ix2 e (0 : Fin 1))

/-- The chunk's array as one function of the region's operands. -/
def chunkG20 (hlt : ∀ y, (tbl20 a1 y).toNat < 100000) (c : Dev nD) : S100000x64.Idx → EReal :=
  fun i => chunkRow20 V a1 hlt c (i 0) (i 1)

/-- Row r of point t's block lies in the table. -/
theorem row_lt20 (t : Fin (cfg20 a1).N) (r : Fin 8) : 8 * t.val + r.val < 100000 := by
  have ht : t.val < 12500 := (npoints20 a1) ▸ t.isLt
  have := r.isLt; omega

/-- WHAT POINT t WRITES BACK is block t of the chunk's array, when the body leaves in the output window's buffer,
    at (r, j), the table row that word 8 t + r names at column j times the input block's weight at (r, 0). -/
theorem flushedOut20_eq (hlt : ∀ y, (tbl20 a1 y).toNat < 100000)
    (hO : ∀ (c : Dev nD) (t : Fin (cfg20 a1).N) (r : Fin 8) (j : Fin 64), O c t (ValueIdx.ix2 r j)
      = far20 V c (ValueIdx.ix2 ⟨(tbl20 a1 (ValueIdx.ix1 ⟨8 * t.val + r.val, row_lt20 a1 t r⟩)).toNat, hlt _⟩ j)
        * inBlk20 V a1 c t (ValueIdx.ix2 r (0 : Fin 1)))
    (c : Dev nD) (t : Fin (cfg20 a1).N) :
    (dat20 V a1 O c).flushed 1 t = (((cfg20 a1).win 1).blk t).view.read (Elt Ideal) (chunkG20 V a1 hlt c) := by
  show ((cfg20 a1).win 1).cut ((cfg20 a1).grid.coords t) ((dat20 V a1 O c).after 1 t) = _
  rw [afterOut20]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG20 V a1 hlt c ((((cfg20 a1).win 1).blk t).view.emb (ValueIdx.ix2 r j))
  have hemb : (((cfg20 a1).win 1).blk t).view.emb (ValueIdx.ix2 r j)
      = (ValueIdx.ix2 ⟨8 * t.val + r.val, row_lt20 a1 t r⟩ j : S100000x64.Idx) := by
    funext a; apply Fin.ext
    match a with
    | ⟨0, _⟩ =>
      show ((cfg20 a1).win 1).index t (0 : Fin 2) * 8 + 1 * r.val = 8 * t.val + r.val
      rw [idxOutRow20]; omega
    | ⟨1, _⟩ =>
      show ((cfg20 a1).win 1).index t (1 : Fin 2) * 64 + 1 * j.val = j.val
      rw [idxOutCol20]; omega
  rw [hemb, hO c t r j,
    inBlk20_apply V a1 c t r 0 (ValueIdx.ix2 ⟨8 * t.val + r.val, row_lt20 a1 t r⟩ (0 : Fin 1)) rfl]
  rfl

/-- THE CHUNK'S ARRAY after the region: chunkG20. -/
theorem chunk_array20 (hlt : ∀ y, (tbl20 a1 y).toNat < 100000)
    (hO : ∀ (c : Dev nD) (t : Fin (cfg20 a1).N) (r : Fin 8) (j : Fin 64), O c t (ValueIdx.ix2 r j)
      = far20 V c (ValueIdx.ix2 ⟨(tbl20 a1 (ValueIdx.ix1 ⟨8 * t.val + r.val, row_lt20 a1 t r⟩)).toNat, hlt _⟩ j)
        * inBlk20 V a1 c t (ValueIdx.ix2 r (0 : Fin 1)))
    (c : Dev nD) :
    (dat20 V a1 O c).arrAt 1 (cfg20 a1).N = chunkG20 V a1 hlt c :=
  (dat20 V a1 O c).arrAt_eq_of_cover 1 (chunkG20 V a1 hlt c) (fun t _ => flushedOut20_eq V a1 O hlt hO c t) (coverOut20 a1)

/-! ## The body's own block -/

/-- Two rows of the far operand named by the same word are the same row. -/
theorem farRow20_congr (c : Dev nD) {e e' : Fin 100000} (h : e.val = e'.val) (j : Fin 64)
    (p : (tbl20 a1 (ValueIdx.ix1 e)).toNat < 100000) (p' : (tbl20 a1 (ValueIdx.ix1 e')).toNat < 100000) :
    far20 V c (ValueIdx.ix2 ⟨(tbl20 a1 (ValueIdx.ix1 e)).toNat, p⟩ j)
      = far20 V c (ValueIdx.ix2 ⟨(tbl20 a1 (ValueIdx.ix1 e')).toNat, p'⟩ j) := by
  obtain rfl : e = e' := Fin.ext h
  rfl

/-- The body's block at point t — the gathered rows scaled by the input block — has the entries hO asks. -/
theorem bodyBlk20_apply (hlt : ∀ y, (tbl20 a1 y).toNat < 100000) (c : Dev nD) (t : Fin (cfg20 a1).N) (r : Fin 8) (j : Fin 64) :
    gatherOut (gatherG (a1.1 0) (V c main_v72) (grid20.coords t)) (iblk20 V a1 c 0 t) (ValueIdx.ix2 r j)
      = far20 V c (ValueIdx.ix2 ⟨(tbl20 a1 (ValueIdx.ix1 ⟨8 * t.val + r.val, row_lt20 a1 t r⟩)).toNat, hlt _⟩ j)
        * inBlk20 V a1 c t (ValueIdx.ix2 r (0 : Fin 1)) := by
  have hpay : gatherOut (gatherG (a1.1 0) (V c main_v72) (grid20.coords t)) (iblk20 V a1 c 0 t) (ValueIdx.ix2 r j)
      = gatherG (F := Ideal) (tbl20 a1) (far20 V c) (grid20.coords t) (ValueIdx.ix2 r j) * inBlk20 V a1 c t (ValueIdx.ix2 r (0 : Fin 1)) :=
    Cert.Value.kernel_block (by decide) (by decide) (gatherG (F := Ideal) (tbl20 a1) (far20 V c) (grid20.coords t)) (inBlk20 V a1 c t) r j
  rw [hpay, gatherG_apply (F := Ideal) (tbl20 a1) (far20 V c) (grid20.coords t) r j (hlt _)]
  refine congrArg (· * inBlk20 V a1 c t (ValueIdx.ix2 r (0 : Fin 1))) ?_
  exact farRow20_congr V a1 c (by show 8 * ((grid20.coords t) 0).val + r.val = 8 * t.val + r.val; rw [coordsVal20 a1 t]) j _ _

/-- THE CHUNK'S ARRAY after the region, the output block being the body's own. -/
theorem chunk_array20_body (hlt : ∀ y, (tbl20 a1 y).toNat < 100000) (c : Dev nD) :
    (dat20 V a1 (fun c t => gatherOut (gatherG (a1.1 0) (V c main_v72) (grid20.coords t)) (iblk20 V a1 c 0 t)) c).arrAt 1 (cfg20 a1).N
      = chunkG20 V a1 hlt c :=
  chunk_array20 V a1 _ hlt (fun c t r j => bodyBlk20_apply V a1 hlt c t r j) c

/-! ## The array as a chunk of the weighted rows -/

/-- When the far operand is the table x, the region's table the slice of the row numbers cols at 100000 k and its
    weights the slice of vals there as a column, the region's array is chunk k of the weighted rows. -/
theorem chunkG20_eq_chunkSpec (hlt : ∀ y, (tbl20 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far20 V c = x) (ht : tbl20 a1 = extractStridedSlice Cert.Value.T100000 ![off] cols hsl)
    (hw : wts20 V c = shapeCast Cert.Value.T100000x1 (extractStridedSlice Cert.Value.T100000 ![off] vals hsl) hsc) :
    chunkG20 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl20 a1 (ValueIdx.ix1 e)).toNat, hlt _⟩ (congrArg (fun T : S100000.Idx → BitVec 32 => (T (ValueIdx.ix1 e)).toNat) ht), ← hx, ← hw]
  rfl

end Chunk

/-! # Region 21 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg21 (F := Ideal)).Adm)
  (O : (c : Dev nD) → Fin (cfg21 a1).N → Vec Ideal S8x64 .f32)

/-- The grid has 12500 points. -/
theorem npoints21 : (cfg21 a1).N = 12500 := N_21

/-- A point's one coordinate is the point's number. -/
theorem coordsVal21 (t : Fin (cfg21 a1).N) : (((cfg21 a1).grid.coords t) 0).val = t.val := by
  have ht : t.val < 12500 := (npoints21 a1) ▸ t.isLt
  show t.val / grid21.stride 0 % 12500 = t.val
  rw [show grid21.stride 0 = 1 from by decide, Nat.div_one, Nat.mod_eq_of_lt ht]

/-- Both windows move with the point: block index (t, 0) at point t. -/
theorem idxInRow21 (t : Fin (cfg21 a1).N) : ((cfg21 a1).win 0).index t (0 : Fin 2) = t.val := by
  have ht : t.val < 12500 := (npoints21 a1) ▸ t.isLt
  show (BitVec.ofNat 32 (((cfg21 a1).grid.coords t) 0).val).toNat = t.val
  rw [coordsVal21, BitVec.toNat_ofNat, Nat.mod_eq_of_lt (by omega)]
theorem idxInCol21 (t : Fin (cfg21 a1).N) : ((cfg21 a1).win 0).index t (1 : Fin 2) = 0 := rfl
theorem idxOutRow21 (t : Fin (cfg21 a1).N) : ((cfg21 a1).win 1).index t (0 : Fin 2) = t.val := by
  have ht : t.val < 12500 := (npoints21 a1) ▸ t.isLt
  show (BitVec.ofNat 32 (((cfg21 a1).grid.coords t) 0).val).toNat = t.val
  rw [coordsVal21, BitVec.toNat_ofNat, Nat.mod_eq_of_lt (by omega)]
theorem idxOutCol21 (t : Fin (cfg21 a1).N) : ((cfg21 a1).win 1).index t (1 : Fin 2) = 0 := rfl

/-- The output window is written back at every point: the next point's block is another. -/
theorem flushOut21 (t : Fin (cfg21 a1).N) : ((cfg21 a1).win 1).flush t = true := by
  unfold Window.flush
  show (true && (decide (t.val + 1 = (cfg21 a1).N) || decide (∃ h : t.val + 1 < (cfg21 a1).N,
    ((cfg21 a1).win 1).index ⟨t.val + 1, h⟩ ≠ ((cfg21 a1).win 1).index t))) = true
  rw [Bool.true_and, Bool.or_eq_true, decide_eq_true_eq, decide_eq_true_eq]
  by_cases h : t.val + 1 = (cfg21 a1).N
  · exact Or.inl h
  · refine Or.inr ⟨by have := t.isLt; omega, fun e => ?_⟩
    have erow := congrFun e (0 : Fin 2)
    rw [idxOutRow21, idxOutRow21] at erow
    exact absurd erow (by show t.val + 1 ≠ t.val; omega)

/-! ## The operands at their literal types -/

/-- The table's words. -/
abbrev tbl21 : S100000.Idx → BitVec 32 := a1.1 0
/-- The far operand: the table of rows. -/
abbrev far21 (c : Dev nD) : S100000x64.Idx → EReal := V c main_v72
/-- The weights, as a column. -/
abbrev wts21 (c : Dev nD) : S100000x1.Idx → EReal := V c main_v92
/-- The input window's block at point t: eight weights. -/
abbrev inBlk21 (c : Dev nD) (t : Fin (cfg21 a1).N) : S8x1.Idx → EReal := iblk21 V a1 c 0 t

/-! ## The blocks -/

/-- Row r of the input window's block at point t is row 8 t + r of the column of weights. -/
theorem inBlk21_apply (c : Dev nD) (t : Fin (cfg21 a1).N) (r : Fin 8) (z : Fin 1) (k : S100000x1.Idx)
    (hkrow : (k 0).val = 8 * t.val + r.val) :
    inBlk21 V a1 c t (ValueIdx.ix2 r z) = wts21 V c k := by
  show wts21 V c ((((cfg21 a1).win 0).blk t).view.emb (ValueIdx.ix2 r z)) = wts21 V c k
  refine congrArg (wts21 V c) (funext fun a => Fin.ext ?_)
  match a with
  | ⟨0, _⟩ =>
    show ((cfg21 a1).win 0).index t (0 : Fin 2) * 8 + 1 * r.val = (k 0).val
    rw [idxInRow21, hkrow]; omega
  | ⟨1, _⟩ =>
    show ((cfg21 a1).win 0).index t (1 : Fin 2) * 1 + 1 * z.val = (k 1).val
    have hkcol : (k 1).val < 1 := idx2_lt1 k
    have hz : z.val < 1 := z.isLt
    rw [idxInCol21]; omega

/-- An index of the array is in point t's block iff each coordinate is in the block's range on its axis. -/
theorem mem_blkOut21 (t : Fin (cfg21 a1).N) (i : S100000x64.Idx) :
    i ∈ (((cfg21 a1).win 1).blk t).view.set ↔ ∀ a : Fin 2, ((cfg21 a1).win 1).index t a * S8x64.size a ≤ (i a).val
      ∧ (i a).val < ((cfg21 a1).win 1).index t a * S8x64.size a + S8x64.size a := by
  have hset : (((cfg21 a1).win 1).blk t).view.set = (((cfg21 a1).win 1).rect t : Rect S100000x64).set :=
    View.set_slice_whole main_v93 _
  have hmem : i ∈ (((cfg21 a1).win 1).rect t : Rect S100000x64).set ↔ ∀ a : Fin 2,
      ((cfg21 a1).win 1).index t a * S8x64.size a ≤ (i a).val
        ∧ (i a).val < ((cfg21 a1).win 1).index t a * S8x64.size a + S8x64.size a := Rect.mem_set_unit
  exact (Finset.ext_iff.mp hset i).trans hmem

/-- Every index of the array is in the block of the point its row over eight names. -/
theorem coverOut21 (i : S100000x64.Idx) :
    ∃ t : Fin (cfg21 a1).N, ((cfg21 a1).win 1).flush t = true ∧ i ∈ (((cfg21 a1).win 1).blk t).view.set := by
  have hirow : (i 0).val < 100000 := idx2_lt0 i
  have hicol : (i 1).val < 64 := idx2_lt1 i
  obtain ⟨t, ht⟩ : ∃ t : Fin (cfg21 a1).N, t.val = (i 0).val / 8 := ⟨⟨(i 0).val / 8, by rw [npoints21]; omega⟩, rfl⟩
  refine ⟨t, flushOut21 a1 t, ?_⟩
  rw [mem_blkOut21]
  intro a
  match a with
  | ⟨0, _⟩ =>
    show ((cfg21 a1).win 1).index t (0 : Fin 2) * 8 ≤ (i 0).val ∧ (i 0).val < ((cfg21 a1).win 1).index t (0 : Fin 2) * 8 + 8
    rw [idxOutRow21, ht]; omega
  | ⟨1, _⟩ =>
    show ((cfg21 a1).win 1).index t (1 : Fin 2) * 64 ≤ (i 1).val ∧ (i 1).val < ((cfg21 a1).win 1).index t (1 : Fin 2) * 64 + 64
    rw [idxOutCol21]; omega

/-! ## The array -/

/-- One weighted row at one column: the table row the e-th word names, at column j, times the e-th weight. -/
def chunkRow21 (hlt : ∀ y, (tbl21 a1 y).toNat < 100000) (c : Dev nD) (e : Fin 100000) (j : Fin 64) : EReal :=
  far21 V c (ValueIdx.ix2 ⟨(tbl21 a1 (ValueIdx.ix1 e)).toNat, hlt _⟩ j) * wts21 V c (ValueIdx.ix2 e (0 : Fin 1))

/-- The chunk's array as one function of the region's operands. -/
def chunkG21 (hlt : ∀ y, (tbl21 a1 y).toNat < 100000) (c : Dev nD) : S100000x64.Idx → EReal :=
  fun i => chunkRow21 V a1 hlt c (i 0) (i 1)

/-- Row r of point t's block lies in the table. -/
theorem row_lt21 (t : Fin (cfg21 a1).N) (r : Fin 8) : 8 * t.val + r.val < 100000 := by
  have ht : t.val < 12500 := (npoints21 a1) ▸ t.isLt
  have := r.isLt; omega

/-- WHAT POINT t WRITES BACK is block t of the chunk's array, when the body leaves in the output window's buffer,
    at (r, j), the table row that word 8 t + r names at column j times the input block's weight at (r, 0). -/
theorem flushedOut21_eq (hlt : ∀ y, (tbl21 a1 y).toNat < 100000)
    (hO : ∀ (c : Dev nD) (t : Fin (cfg21 a1).N) (r : Fin 8) (j : Fin 64), O c t (ValueIdx.ix2 r j)
      = far21 V c (ValueIdx.ix2 ⟨(tbl21 a1 (ValueIdx.ix1 ⟨8 * t.val + r.val, row_lt21 a1 t r⟩)).toNat, hlt _⟩ j)
        * inBlk21 V a1 c t (ValueIdx.ix2 r (0 : Fin 1)))
    (c : Dev nD) (t : Fin (cfg21 a1).N) :
    (dat21 V a1 O c).flushed 1 t = (((cfg21 a1).win 1).blk t).view.read (Elt Ideal) (chunkG21 V a1 hlt c) := by
  show ((cfg21 a1).win 1).cut ((cfg21 a1).grid.coords t) ((dat21 V a1 O c).after 1 t) = _
  rw [afterOut21]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG21 V a1 hlt c ((((cfg21 a1).win 1).blk t).view.emb (ValueIdx.ix2 r j))
  have hemb : (((cfg21 a1).win 1).blk t).view.emb (ValueIdx.ix2 r j)
      = (ValueIdx.ix2 ⟨8 * t.val + r.val, row_lt21 a1 t r⟩ j : S100000x64.Idx) := by
    funext a; apply Fin.ext
    match a with
    | ⟨0, _⟩ =>
      show ((cfg21 a1).win 1).index t (0 : Fin 2) * 8 + 1 * r.val = 8 * t.val + r.val
      rw [idxOutRow21]; omega
    | ⟨1, _⟩ =>
      show ((cfg21 a1).win 1).index t (1 : Fin 2) * 64 + 1 * j.val = j.val
      rw [idxOutCol21]; omega
  rw [hemb, hO c t r j,
    inBlk21_apply V a1 c t r 0 (ValueIdx.ix2 ⟨8 * t.val + r.val, row_lt21 a1 t r⟩ (0 : Fin 1)) rfl]
  rfl

/-- THE CHUNK'S ARRAY after the region: chunkG21. -/
theorem chunk_array21 (hlt : ∀ y, (tbl21 a1 y).toNat < 100000)
    (hO : ∀ (c : Dev nD) (t : Fin (cfg21 a1).N) (r : Fin 8) (j : Fin 64), O c t (ValueIdx.ix2 r j)
      = far21 V c (ValueIdx.ix2 ⟨(tbl21 a1 (ValueIdx.ix1 ⟨8 * t.val + r.val, row_lt21 a1 t r⟩)).toNat, hlt _⟩ j)
        * inBlk21 V a1 c t (ValueIdx.ix2 r (0 : Fin 1)))
    (c : Dev nD) :
    (dat21 V a1 O c).arrAt 1 (cfg21 a1).N = chunkG21 V a1 hlt c :=
  (dat21 V a1 O c).arrAt_eq_of_cover 1 (chunkG21 V a1 hlt c) (fun t _ => flushedOut21_eq V a1 O hlt hO c t) (coverOut21 a1)

/-! ## The body's own block -/

/-- Two rows of the far operand named by the same word are the same row. -/
theorem farRow21_congr (c : Dev nD) {e e' : Fin 100000} (h : e.val = e'.val) (j : Fin 64)
    (p : (tbl21 a1 (ValueIdx.ix1 e)).toNat < 100000) (p' : (tbl21 a1 (ValueIdx.ix1 e')).toNat < 100000) :
    far21 V c (ValueIdx.ix2 ⟨(tbl21 a1 (ValueIdx.ix1 e)).toNat, p⟩ j)
      = far21 V c (ValueIdx.ix2 ⟨(tbl21 a1 (ValueIdx.ix1 e')).toNat, p'⟩ j) := by
  obtain rfl : e = e' := Fin.ext h
  rfl

/-- The body's block at point t — the gathered rows scaled by the input block — has the entries hO asks. -/
theorem bodyBlk21_apply (hlt : ∀ y, (tbl21 a1 y).toNat < 100000) (c : Dev nD) (t : Fin (cfg21 a1).N) (r : Fin 8) (j : Fin 64) :
    gatherOut (gatherG (a1.1 0) (V c main_v72) (grid21.coords t)) (iblk21 V a1 c 0 t) (ValueIdx.ix2 r j)
      = far21 V c (ValueIdx.ix2 ⟨(tbl21 a1 (ValueIdx.ix1 ⟨8 * t.val + r.val, row_lt21 a1 t r⟩)).toNat, hlt _⟩ j)
        * inBlk21 V a1 c t (ValueIdx.ix2 r (0 : Fin 1)) := by
  have hpay : gatherOut (gatherG (a1.1 0) (V c main_v72) (grid21.coords t)) (iblk21 V a1 c 0 t) (ValueIdx.ix2 r j)
      = gatherG (F := Ideal) (tbl21 a1) (far21 V c) (grid21.coords t) (ValueIdx.ix2 r j) * inBlk21 V a1 c t (ValueIdx.ix2 r (0 : Fin 1)) :=
    Cert.Value.kernel_block (by decide) (by decide) (gatherG (F := Ideal) (tbl21 a1) (far21 V c) (grid21.coords t)) (inBlk21 V a1 c t) r j
  rw [hpay, gatherG_apply (F := Ideal) (tbl21 a1) (far21 V c) (grid21.coords t) r j (hlt _)]
  refine congrArg (· * inBlk21 V a1 c t (ValueIdx.ix2 r (0 : Fin 1))) ?_
  exact farRow21_congr V a1 c (by show 8 * ((grid21.coords t) 0).val + r.val = 8 * t.val + r.val; rw [coordsVal21 a1 t]) j _ _

/-- THE CHUNK'S ARRAY after the region, the output block being the body's own. -/
theorem chunk_array21_body (hlt : ∀ y, (tbl21 a1 y).toNat < 100000) (c : Dev nD) :
    (dat21 V a1 (fun c t => gatherOut (gatherG (a1.1 0) (V c main_v72) (grid21.coords t)) (iblk21 V a1 c 0 t)) c).arrAt 1 (cfg21 a1).N
      = chunkG21 V a1 hlt c :=
  chunk_array21 V a1 _ hlt (fun c t r j => bodyBlk21_apply V a1 hlt c t r j) c

/-! ## The array as a chunk of the weighted rows -/

/-- When the far operand is the table x, the region's table the slice of the row numbers cols at 100000 k and its
    weights the slice of vals there as a column, the region's array is chunk k of the weighted rows. -/
theorem chunkG21_eq_chunkSpec (hlt : ∀ y, (tbl21 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far21 V c = x) (ht : tbl21 a1 = extractStridedSlice Cert.Value.T100000 ![off] cols hsl)
    (hw : wts21 V c = shapeCast Cert.Value.T100000x1 (extractStridedSlice Cert.Value.T100000 ![off] vals hsl) hsc) :
    chunkG21 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl21 a1 (ValueIdx.ix1 e)).toNat, hlt _⟩ (congrArg (fun T : S100000.Idx → BitVec 32 => (T (ValueIdx.ix1 e)).toNat) ht), ← hx, ← hw]
  rfl

end Chunk

/-! # Region 22 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg22 (F := Ideal)).Adm)
  (O : (c : Dev nD) → Fin (cfg22 a1).N → Vec Ideal S8x64 .f32)

/-- The grid has 12500 points. -/
theorem npoints22 : (cfg22 a1).N = 12500 := N_22

/-- A point's one coordinate is the point's number. -/
theorem coordsVal22 (t : Fin (cfg22 a1).N) : (((cfg22 a1).grid.coords t) 0).val = t.val := by
  have ht : t.val < 12500 := (npoints22 a1) ▸ t.isLt
  show t.val / grid22.stride 0 % 12500 = t.val
  rw [show grid22.stride 0 = 1 from by decide, Nat.div_one, Nat.mod_eq_of_lt ht]

/-- Both windows move with the point: block index (t, 0) at point t. -/
theorem idxInRow22 (t : Fin (cfg22 a1).N) : ((cfg22 a1).win 0).index t (0 : Fin 2) = t.val := by
  have ht : t.val < 12500 := (npoints22 a1) ▸ t.isLt
  show (BitVec.ofNat 32 (((cfg22 a1).grid.coords t) 0).val).toNat = t.val
  rw [coordsVal22, BitVec.toNat_ofNat, Nat.mod_eq_of_lt (by omega)]
theorem idxInCol22 (t : Fin (cfg22 a1).N) : ((cfg22 a1).win 0).index t (1 : Fin 2) = 0 := rfl
theorem idxOutRow22 (t : Fin (cfg22 a1).N) : ((cfg22 a1).win 1).index t (0 : Fin 2) = t.val := by
  have ht : t.val < 12500 := (npoints22 a1) ▸ t.isLt
  show (BitVec.ofNat 32 (((cfg22 a1).grid.coords t) 0).val).toNat = t.val
  rw [coordsVal22, BitVec.toNat_ofNat, Nat.mod_eq_of_lt (by omega)]
theorem idxOutCol22 (t : Fin (cfg22 a1).N) : ((cfg22 a1).win 1).index t (1 : Fin 2) = 0 := rfl

/-- The output window is written back at every point: the next point's block is another. -/
theorem flushOut22 (t : Fin (cfg22 a1).N) : ((cfg22 a1).win 1).flush t = true := by
  unfold Window.flush
  show (true && (decide (t.val + 1 = (cfg22 a1).N) || decide (∃ h : t.val + 1 < (cfg22 a1).N,
    ((cfg22 a1).win 1).index ⟨t.val + 1, h⟩ ≠ ((cfg22 a1).win 1).index t))) = true
  rw [Bool.true_and, Bool.or_eq_true, decide_eq_true_eq, decide_eq_true_eq]
  by_cases h : t.val + 1 = (cfg22 a1).N
  · exact Or.inl h
  · refine Or.inr ⟨by have := t.isLt; omega, fun e => ?_⟩
    have erow := congrFun e (0 : Fin 2)
    rw [idxOutRow22, idxOutRow22] at erow
    exact absurd erow (by show t.val + 1 ≠ t.val; omega)

/-! ## The operands at their literal types -/

/-- The table's words. -/
abbrev tbl22 : S100000.Idx → BitVec 32 := a1.1 0
/-- The far operand: the table of rows. -/
abbrev far22 (c : Dev nD) : S100000x64.Idx → EReal := V c main_v72
/-- The weights, as a column. -/
abbrev wts22 (c : Dev nD) : S100000x1.Idx → EReal := V c main_v96
/-- The input window's block at point t: eight weights. -/
abbrev inBlk22 (c : Dev nD) (t : Fin (cfg22 a1).N) : S8x1.Idx → EReal := iblk22 V a1 c 0 t

/-! ## The blocks -/

/-- Row r of the input window's block at point t is row 8 t + r of the column of weights. -/
theorem inBlk22_apply (c : Dev nD) (t : Fin (cfg22 a1).N) (r : Fin 8) (z : Fin 1) (k : S100000x1.Idx)
    (hkrow : (k 0).val = 8 * t.val + r.val) :
    inBlk22 V a1 c t (ValueIdx.ix2 r z) = wts22 V c k := by
  show wts22 V c ((((cfg22 a1).win 0).blk t).view.emb (ValueIdx.ix2 r z)) = wts22 V c k
  refine congrArg (wts22 V c) (funext fun a => Fin.ext ?_)
  match a with
  | ⟨0, _⟩ =>
    show ((cfg22 a1).win 0).index t (0 : Fin 2) * 8 + 1 * r.val = (k 0).val
    rw [idxInRow22, hkrow]; omega
  | ⟨1, _⟩ =>
    show ((cfg22 a1).win 0).index t (1 : Fin 2) * 1 + 1 * z.val = (k 1).val
    have hkcol : (k 1).val < 1 := idx2_lt1 k
    have hz : z.val < 1 := z.isLt
    rw [idxInCol22]; omega

/-- An index of the array is in point t's block iff each coordinate is in the block's range on its axis. -/
theorem mem_blkOut22 (t : Fin (cfg22 a1).N) (i : S100000x64.Idx) :
    i ∈ (((cfg22 a1).win 1).blk t).view.set ↔ ∀ a : Fin 2, ((cfg22 a1).win 1).index t a * S8x64.size a ≤ (i a).val
      ∧ (i a).val < ((cfg22 a1).win 1).index t a * S8x64.size a + S8x64.size a := by
  have hset : (((cfg22 a1).win 1).blk t).view.set = (((cfg22 a1).win 1).rect t : Rect S100000x64).set :=
    View.set_slice_whole main_v97 _
  have hmem : i ∈ (((cfg22 a1).win 1).rect t : Rect S100000x64).set ↔ ∀ a : Fin 2,
      ((cfg22 a1).win 1).index t a * S8x64.size a ≤ (i a).val
        ∧ (i a).val < ((cfg22 a1).win 1).index t a * S8x64.size a + S8x64.size a := Rect.mem_set_unit
  exact (Finset.ext_iff.mp hset i).trans hmem

/-- Every index of the array is in the block of the point its row over eight names. -/
theorem coverOut22 (i : S100000x64.Idx) :
    ∃ t : Fin (cfg22 a1).N, ((cfg22 a1).win 1).flush t = true ∧ i ∈ (((cfg22 a1).win 1).blk t).view.set := by
  have hirow : (i 0).val < 100000 := idx2_lt0 i
  have hicol : (i 1).val < 64 := idx2_lt1 i
  obtain ⟨t, ht⟩ : ∃ t : Fin (cfg22 a1).N, t.val = (i 0).val / 8 := ⟨⟨(i 0).val / 8, by rw [npoints22]; omega⟩, rfl⟩
  refine ⟨t, flushOut22 a1 t, ?_⟩
  rw [mem_blkOut22]
  intro a
  match a with
  | ⟨0, _⟩ =>
    show ((cfg22 a1).win 1).index t (0 : Fin 2) * 8 ≤ (i 0).val ∧ (i 0).val < ((cfg22 a1).win 1).index t (0 : Fin 2) * 8 + 8
    rw [idxOutRow22, ht]; omega
  | ⟨1, _⟩ =>
    show ((cfg22 a1).win 1).index t (1 : Fin 2) * 64 ≤ (i 1).val ∧ (i 1).val < ((cfg22 a1).win 1).index t (1 : Fin 2) * 64 + 64
    rw [idxOutCol22]; omega

/-! ## The array -/

/-- One weighted row at one column: the table row the e-th word names, at column j, times the e-th weight. -/
def chunkRow22 (hlt : ∀ y, (tbl22 a1 y).toNat < 100000) (c : Dev nD) (e : Fin 100000) (j : Fin 64) : EReal :=
  far22 V c (ValueIdx.ix2 ⟨(tbl22 a1 (ValueIdx.ix1 e)).toNat, hlt _⟩ j) * wts22 V c (ValueIdx.ix2 e (0 : Fin 1))

/-- The chunk's array as one function of the region's operands. -/
def chunkG22 (hlt : ∀ y, (tbl22 a1 y).toNat < 100000) (c : Dev nD) : S100000x64.Idx → EReal :=
  fun i => chunkRow22 V a1 hlt c (i 0) (i 1)

/-- Row r of point t's block lies in the table. -/
theorem row_lt22 (t : Fin (cfg22 a1).N) (r : Fin 8) : 8 * t.val + r.val < 100000 := by
  have ht : t.val < 12500 := (npoints22 a1) ▸ t.isLt
  have := r.isLt; omega

/-- WHAT POINT t WRITES BACK is block t of the chunk's array, when the body leaves in the output window's buffer,
    at (r, j), the table row that word 8 t + r names at column j times the input block's weight at (r, 0). -/
theorem flushedOut22_eq (hlt : ∀ y, (tbl22 a1 y).toNat < 100000)
    (hO : ∀ (c : Dev nD) (t : Fin (cfg22 a1).N) (r : Fin 8) (j : Fin 64), O c t (ValueIdx.ix2 r j)
      = far22 V c (ValueIdx.ix2 ⟨(tbl22 a1 (ValueIdx.ix1 ⟨8 * t.val + r.val, row_lt22 a1 t r⟩)).toNat, hlt _⟩ j)
        * inBlk22 V a1 c t (ValueIdx.ix2 r (0 : Fin 1)))
    (c : Dev nD) (t : Fin (cfg22 a1).N) :
    (dat22 V a1 O c).flushed 1 t = (((cfg22 a1).win 1).blk t).view.read (Elt Ideal) (chunkG22 V a1 hlt c) := by
  show ((cfg22 a1).win 1).cut ((cfg22 a1).grid.coords t) ((dat22 V a1 O c).after 1 t) = _
  rw [afterOut22]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG22 V a1 hlt c ((((cfg22 a1).win 1).blk t).view.emb (ValueIdx.ix2 r j))
  have hemb : (((cfg22 a1).win 1).blk t).view.emb (ValueIdx.ix2 r j)
      = (ValueIdx.ix2 ⟨8 * t.val + r.val, row_lt22 a1 t r⟩ j : S100000x64.Idx) := by
    funext a; apply Fin.ext
    match a with
    | ⟨0, _⟩ =>
      show ((cfg22 a1).win 1).index t (0 : Fin 2) * 8 + 1 * r.val = 8 * t.val + r.val
      rw [idxOutRow22]; omega
    | ⟨1, _⟩ =>
      show ((cfg22 a1).win 1).index t (1 : Fin 2) * 64 + 1 * j.val = j.val
      rw [idxOutCol22]; omega
  rw [hemb, hO c t r j,
    inBlk22_apply V a1 c t r 0 (ValueIdx.ix2 ⟨8 * t.val + r.val, row_lt22 a1 t r⟩ (0 : Fin 1)) rfl]
  rfl

/-- THE CHUNK'S ARRAY after the region: chunkG22. -/
theorem chunk_array22 (hlt : ∀ y, (tbl22 a1 y).toNat < 100000)
    (hO : ∀ (c : Dev nD) (t : Fin (cfg22 a1).N) (r : Fin 8) (j : Fin 64), O c t (ValueIdx.ix2 r j)
      = far22 V c (ValueIdx.ix2 ⟨(tbl22 a1 (ValueIdx.ix1 ⟨8 * t.val + r.val, row_lt22 a1 t r⟩)).toNat, hlt _⟩ j)
        * inBlk22 V a1 c t (ValueIdx.ix2 r (0 : Fin 1)))
    (c : Dev nD) :
    (dat22 V a1 O c).arrAt 1 (cfg22 a1).N = chunkG22 V a1 hlt c :=
  (dat22 V a1 O c).arrAt_eq_of_cover 1 (chunkG22 V a1 hlt c) (fun t _ => flushedOut22_eq V a1 O hlt hO c t) (coverOut22 a1)

/-! ## The body's own block -/

/-- Two rows of the far operand named by the same word are the same row. -/
theorem farRow22_congr (c : Dev nD) {e e' : Fin 100000} (h : e.val = e'.val) (j : Fin 64)
    (p : (tbl22 a1 (ValueIdx.ix1 e)).toNat < 100000) (p' : (tbl22 a1 (ValueIdx.ix1 e')).toNat < 100000) :
    far22 V c (ValueIdx.ix2 ⟨(tbl22 a1 (ValueIdx.ix1 e)).toNat, p⟩ j)
      = far22 V c (ValueIdx.ix2 ⟨(tbl22 a1 (ValueIdx.ix1 e')).toNat, p'⟩ j) := by
  obtain rfl : e = e' := Fin.ext h
  rfl

/-- The body's block at point t — the gathered rows scaled by the input block — has the entries hO asks. -/
theorem bodyBlk22_apply (hlt : ∀ y, (tbl22 a1 y).toNat < 100000) (c : Dev nD) (t : Fin (cfg22 a1).N) (r : Fin 8) (j : Fin 64) :
    gatherOut (gatherG (a1.1 0) (V c main_v72) (grid22.coords t)) (iblk22 V a1 c 0 t) (ValueIdx.ix2 r j)
      = far22 V c (ValueIdx.ix2 ⟨(tbl22 a1 (ValueIdx.ix1 ⟨8 * t.val + r.val, row_lt22 a1 t r⟩)).toNat, hlt _⟩ j)
        * inBlk22 V a1 c t (ValueIdx.ix2 r (0 : Fin 1)) := by
  have hpay : gatherOut (gatherG (a1.1 0) (V c main_v72) (grid22.coords t)) (iblk22 V a1 c 0 t) (ValueIdx.ix2 r j)
      = gatherG (F := Ideal) (tbl22 a1) (far22 V c) (grid22.coords t) (ValueIdx.ix2 r j) * inBlk22 V a1 c t (ValueIdx.ix2 r (0 : Fin 1)) :=
    Cert.Value.kernel_block (by decide) (by decide) (gatherG (F := Ideal) (tbl22 a1) (far22 V c) (grid22.coords t)) (inBlk22 V a1 c t) r j
  rw [hpay, gatherG_apply (F := Ideal) (tbl22 a1) (far22 V c) (grid22.coords t) r j (hlt _)]
  refine congrArg (· * inBlk22 V a1 c t (ValueIdx.ix2 r (0 : Fin 1))) ?_
  exact farRow22_congr V a1 c (by show 8 * ((grid22.coords t) 0).val + r.val = 8 * t.val + r.val; rw [coordsVal22 a1 t]) j _ _

/-- THE CHUNK'S ARRAY after the region, the output block being the body's own. -/
theorem chunk_array22_body (hlt : ∀ y, (tbl22 a1 y).toNat < 100000) (c : Dev nD) :
    (dat22 V a1 (fun c t => gatherOut (gatherG (a1.1 0) (V c main_v72) (grid22.coords t)) (iblk22 V a1 c 0 t)) c).arrAt 1 (cfg22 a1).N
      = chunkG22 V a1 hlt c :=
  chunk_array22 V a1 _ hlt (fun c t r j => bodyBlk22_apply V a1 hlt c t r j) c

/-! ## The array as a chunk of the weighted rows -/

/-- When the far operand is the table x, the region's table the slice of the row numbers cols at 100000 k and its
    weights the slice of vals there as a column, the region's array is chunk k of the weighted rows. -/
theorem chunkG22_eq_chunkSpec (hlt : ∀ y, (tbl22 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far22 V c = x) (ht : tbl22 a1 = extractStridedSlice Cert.Value.T100000 ![off] cols hsl)
    (hw : wts22 V c = shapeCast Cert.Value.T100000x1 (extractStridedSlice Cert.Value.T100000 ![off] vals hsl) hsc) :
    chunkG22 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl22 a1 (ValueIdx.ix1 e)).toNat, hlt _⟩ (congrArg (fun T : S100000.Idx → BitVec 32 => (T (ValueIdx.ix1 e)).toNat) ht), ← hx, ← hw]
  rfl

end Chunk

/-! # Region 23 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg23 (F := Ideal)).Adm)
  (O : (c : Dev nD) → Fin (cfg23 a1).N → Vec Ideal S8x64 .f32)

/-- The grid has 12500 points. -/
theorem npoints23 : (cfg23 a1).N = 12500 := N_23

/-- A point's one coordinate is the point's number. -/
theorem coordsVal23 (t : Fin (cfg23 a1).N) : (((cfg23 a1).grid.coords t) 0).val = t.val := by
  have ht : t.val < 12500 := (npoints23 a1) ▸ t.isLt
  show t.val / grid23.stride 0 % 12500 = t.val
  rw [show grid23.stride 0 = 1 from by decide, Nat.div_one, Nat.mod_eq_of_lt ht]

/-- Both windows move with the point: block index (t, 0) at point t. -/
theorem idxInRow23 (t : Fin (cfg23 a1).N) : ((cfg23 a1).win 0).index t (0 : Fin 2) = t.val := by
  have ht : t.val < 12500 := (npoints23 a1) ▸ t.isLt
  show (BitVec.ofNat 32 (((cfg23 a1).grid.coords t) 0).val).toNat = t.val
  rw [coordsVal23, BitVec.toNat_ofNat, Nat.mod_eq_of_lt (by omega)]
theorem idxInCol23 (t : Fin (cfg23 a1).N) : ((cfg23 a1).win 0).index t (1 : Fin 2) = 0 := rfl
theorem idxOutRow23 (t : Fin (cfg23 a1).N) : ((cfg23 a1).win 1).index t (0 : Fin 2) = t.val := by
  have ht : t.val < 12500 := (npoints23 a1) ▸ t.isLt
  show (BitVec.ofNat 32 (((cfg23 a1).grid.coords t) 0).val).toNat = t.val
  rw [coordsVal23, BitVec.toNat_ofNat, Nat.mod_eq_of_lt (by omega)]
theorem idxOutCol23 (t : Fin (cfg23 a1).N) : ((cfg23 a1).win 1).index t (1 : Fin 2) = 0 := rfl

/-- The output window is written back at every point: the next point's block is another. -/
theorem flushOut23 (t : Fin (cfg23 a1).N) : ((cfg23 a1).win 1).flush t = true := by
  unfold Window.flush
  show (true && (decide (t.val + 1 = (cfg23 a1).N) || decide (∃ h : t.val + 1 < (cfg23 a1).N,
    ((cfg23 a1).win 1).index ⟨t.val + 1, h⟩ ≠ ((cfg23 a1).win 1).index t))) = true
  rw [Bool.true_and, Bool.or_eq_true, decide_eq_true_eq, decide_eq_true_eq]
  by_cases h : t.val + 1 = (cfg23 a1).N
  · exact Or.inl h
  · refine Or.inr ⟨by have := t.isLt; omega, fun e => ?_⟩
    have erow := congrFun e (0 : Fin 2)
    rw [idxOutRow23, idxOutRow23] at erow
    exact absurd erow (by show t.val + 1 ≠ t.val; omega)

/-! ## The operands at their literal types -/

/-- The table's words. -/
abbrev tbl23 : S100000.Idx → BitVec 32 := a1.1 0
/-- The far operand: the table of rows. -/
abbrev far23 (c : Dev nD) : S100000x64.Idx → EReal := V c main_v72
/-- The weights, as a column. -/
abbrev wts23 (c : Dev nD) : S100000x1.Idx → EReal := V c main_v100
/-- The input window's block at point t: eight weights. -/
abbrev inBlk23 (c : Dev nD) (t : Fin (cfg23 a1).N) : S8x1.Idx → EReal := iblk23 V a1 c 0 t

/-! ## The blocks -/

/-- Row r of the input window's block at point t is row 8 t + r of the column of weights. -/
theorem inBlk23_apply (c : Dev nD) (t : Fin (cfg23 a1).N) (r : Fin 8) (z : Fin 1) (k : S100000x1.Idx)
    (hkrow : (k 0).val = 8 * t.val + r.val) :
    inBlk23 V a1 c t (ValueIdx.ix2 r z) = wts23 V c k := by
  show wts23 V c ((((cfg23 a1).win 0).blk t).view.emb (ValueIdx.ix2 r z)) = wts23 V c k
  refine congrArg (wts23 V c) (funext fun a => Fin.ext ?_)
  match a with
  | ⟨0, _⟩ =>
    show ((cfg23 a1).win 0).index t (0 : Fin 2) * 8 + 1 * r.val = (k 0).val
    rw [idxInRow23, hkrow]; omega
  | ⟨1, _⟩ =>
    show ((cfg23 a1).win 0).index t (1 : Fin 2) * 1 + 1 * z.val = (k 1).val
    have hkcol : (k 1).val < 1 := idx2_lt1 k
    have hz : z.val < 1 := z.isLt
    rw [idxInCol23]; omega

/-- An index of the array is in point t's block iff each coordinate is in the block's range on its axis. -/
theorem mem_blkOut23 (t : Fin (cfg23 a1).N) (i : S100000x64.Idx) :
    i ∈ (((cfg23 a1).win 1).blk t).view.set ↔ ∀ a : Fin 2, ((cfg23 a1).win 1).index t a * S8x64.size a ≤ (i a).val
      ∧ (i a).val < ((cfg23 a1).win 1).index t a * S8x64.size a + S8x64.size a := by
  have hset : (((cfg23 a1).win 1).blk t).view.set = (((cfg23 a1).win 1).rect t : Rect S100000x64).set :=
    View.set_slice_whole main_v101 _
  have hmem : i ∈ (((cfg23 a1).win 1).rect t : Rect S100000x64).set ↔ ∀ a : Fin 2,
      ((cfg23 a1).win 1).index t a * S8x64.size a ≤ (i a).val
        ∧ (i a).val < ((cfg23 a1).win 1).index t a * S8x64.size a + S8x64.size a := Rect.mem_set_unit
  exact (Finset.ext_iff.mp hset i).trans hmem

/-- Every index of the array is in the block of the point its row over eight names. -/
theorem coverOut23 (i : S100000x64.Idx) :
    ∃ t : Fin (cfg23 a1).N, ((cfg23 a1).win 1).flush t = true ∧ i ∈ (((cfg23 a1).win 1).blk t).view.set := by
  have hirow : (i 0).val < 100000 := idx2_lt0 i
  have hicol : (i 1).val < 64 := idx2_lt1 i
  obtain ⟨t, ht⟩ : ∃ t : Fin (cfg23 a1).N, t.val = (i 0).val / 8 := ⟨⟨(i 0).val / 8, by rw [npoints23]; omega⟩, rfl⟩
  refine ⟨t, flushOut23 a1 t, ?_⟩
  rw [mem_blkOut23]
  intro a
  match a with
  | ⟨0, _⟩ =>
    show ((cfg23 a1).win 1).index t (0 : Fin 2) * 8 ≤ (i 0).val ∧ (i 0).val < ((cfg23 a1).win 1).index t (0 : Fin 2) * 8 + 8
    rw [idxOutRow23, ht]; omega
  | ⟨1, _⟩ =>
    show ((cfg23 a1).win 1).index t (1 : Fin 2) * 64 ≤ (i 1).val ∧ (i 1).val < ((cfg23 a1).win 1).index t (1 : Fin 2) * 64 + 64
    rw [idxOutCol23]; omega

/-! ## The array -/

/-- One weighted row at one column: the table row the e-th word names, at column j, times the e-th weight. -/
def chunkRow23 (hlt : ∀ y, (tbl23 a1 y).toNat < 100000) (c : Dev nD) (e : Fin 100000) (j : Fin 64) : EReal :=
  far23 V c (ValueIdx.ix2 ⟨(tbl23 a1 (ValueIdx.ix1 e)).toNat, hlt _⟩ j) * wts23 V c (ValueIdx.ix2 e (0 : Fin 1))

/-- The chunk's array as one function of the region's operands. -/
def chunkG23 (hlt : ∀ y, (tbl23 a1 y).toNat < 100000) (c : Dev nD) : S100000x64.Idx → EReal :=
  fun i => chunkRow23 V a1 hlt c (i 0) (i 1)

/-- Row r of point t's block lies in the table. -/
theorem row_lt23 (t : Fin (cfg23 a1).N) (r : Fin 8) : 8 * t.val + r.val < 100000 := by
  have ht : t.val < 12500 := (npoints23 a1) ▸ t.isLt
  have := r.isLt; omega

/-- WHAT POINT t WRITES BACK is block t of the chunk's array, when the body leaves in the output window's buffer,
    at (r, j), the table row that word 8 t + r names at column j times the input block's weight at (r, 0). -/
theorem flushedOut23_eq (hlt : ∀ y, (tbl23 a1 y).toNat < 100000)
    (hO : ∀ (c : Dev nD) (t : Fin (cfg23 a1).N) (r : Fin 8) (j : Fin 64), O c t (ValueIdx.ix2 r j)
      = far23 V c (ValueIdx.ix2 ⟨(tbl23 a1 (ValueIdx.ix1 ⟨8 * t.val + r.val, row_lt23 a1 t r⟩)).toNat, hlt _⟩ j)
        * inBlk23 V a1 c t (ValueIdx.ix2 r (0 : Fin 1)))
    (c : Dev nD) (t : Fin (cfg23 a1).N) :
    (dat23 V a1 O c).flushed 1 t = (((cfg23 a1).win 1).blk t).view.read (Elt Ideal) (chunkG23 V a1 hlt c) := by
  show ((cfg23 a1).win 1).cut ((cfg23 a1).grid.coords t) ((dat23 V a1 O c).after 1 t) = _
  rw [afterOut23]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG23 V a1 hlt c ((((cfg23 a1).win 1).blk t).view.emb (ValueIdx.ix2 r j))
  have hemb : (((cfg23 a1).win 1).blk t).view.emb (ValueIdx.ix2 r j)
      = (ValueIdx.ix2 ⟨8 * t.val + r.val, row_lt23 a1 t r⟩ j : S100000x64.Idx) := by
    funext a; apply Fin.ext
    match a with
    | ⟨0, _⟩ =>
      show ((cfg23 a1).win 1).index t (0 : Fin 2) * 8 + 1 * r.val = 8 * t.val + r.val
      rw [idxOutRow23]; omega
    | ⟨1, _⟩ =>
      show ((cfg23 a1).win 1).index t (1 : Fin 2) * 64 + 1 * j.val = j.val
      rw [idxOutCol23]; omega
  rw [hemb, hO c t r j,
    inBlk23_apply V a1 c t r 0 (ValueIdx.ix2 ⟨8 * t.val + r.val, row_lt23 a1 t r⟩ (0 : Fin 1)) rfl]
  rfl

/-- THE CHUNK'S ARRAY after the region: chunkG23. -/
theorem chunk_array23 (hlt : ∀ y, (tbl23 a1 y).toNat < 100000)
    (hO : ∀ (c : Dev nD) (t : Fin (cfg23 a1).N) (r : Fin 8) (j : Fin 64), O c t (ValueIdx.ix2 r j)
      = far23 V c (ValueIdx.ix2 ⟨(tbl23 a1 (ValueIdx.ix1 ⟨8 * t.val + r.val, row_lt23 a1 t r⟩)).toNat, hlt _⟩ j)
        * inBlk23 V a1 c t (ValueIdx.ix2 r (0 : Fin 1)))
    (c : Dev nD) :
    (dat23 V a1 O c).arrAt 1 (cfg23 a1).N = chunkG23 V a1 hlt c :=
  (dat23 V a1 O c).arrAt_eq_of_cover 1 (chunkG23 V a1 hlt c) (fun t _ => flushedOut23_eq V a1 O hlt hO c t) (coverOut23 a1)

/-! ## The body's own block -/

/-- Two rows of the far operand named by the same word are the same row. -/
theorem farRow23_congr (c : Dev nD) {e e' : Fin 100000} (h : e.val = e'.val) (j : Fin 64)
    (p : (tbl23 a1 (ValueIdx.ix1 e)).toNat < 100000) (p' : (tbl23 a1 (ValueIdx.ix1 e')).toNat < 100000) :
    far23 V c (ValueIdx.ix2 ⟨(tbl23 a1 (ValueIdx.ix1 e)).toNat, p⟩ j)
      = far23 V c (ValueIdx.ix2 ⟨(tbl23 a1 (ValueIdx.ix1 e')).toNat, p'⟩ j) := by
  obtain rfl : e = e' := Fin.ext h
  rfl

/-- The body's block at point t — the gathered rows scaled by the input block — has the entries hO asks. -/
theorem bodyBlk23_apply (hlt : ∀ y, (tbl23 a1 y).toNat < 100000) (c : Dev nD) (t : Fin (cfg23 a1).N) (r : Fin 8) (j : Fin 64) :
    gatherOut (gatherG (a1.1 0) (V c main_v72) (grid23.coords t)) (iblk23 V a1 c 0 t) (ValueIdx.ix2 r j)
      = far23 V c (ValueIdx.ix2 ⟨(tbl23 a1 (ValueIdx.ix1 ⟨8 * t.val + r.val, row_lt23 a1 t r⟩)).toNat, hlt _⟩ j)
        * inBlk23 V a1 c t (ValueIdx.ix2 r (0 : Fin 1)) := by
  have hpay : gatherOut (gatherG (a1.1 0) (V c main_v72) (grid23.coords t)) (iblk23 V a1 c 0 t) (ValueIdx.ix2 r j)
      = gatherG (F := Ideal) (tbl23 a1) (far23 V c) (grid23.coords t) (ValueIdx.ix2 r j) * inBlk23 V a1 c t (ValueIdx.ix2 r (0 : Fin 1)) :=
    Cert.Value.kernel_block (by decide) (by decide) (gatherG (F := Ideal) (tbl23 a1) (far23 V c) (grid23.coords t)) (inBlk23 V a1 c t) r j
  rw [hpay, gatherG_apply (F := Ideal) (tbl23 a1) (far23 V c) (grid23.coords t) r j (hlt _)]
  refine congrArg (· * inBlk23 V a1 c t (ValueIdx.ix2 r (0 : Fin 1))) ?_
  exact farRow23_congr V a1 c (by show 8 * ((grid23.coords t) 0).val + r.val = 8 * t.val + r.val; rw [coordsVal23 a1 t]) j _ _

/-- THE CHUNK'S ARRAY after the region, the output block being the body's own. -/
theorem chunk_array23_body (hlt : ∀ y, (tbl23 a1 y).toNat < 100000) (c : Dev nD) :
    (dat23 V a1 (fun c t => gatherOut (gatherG (a1.1 0) (V c main_v72) (grid23.coords t)) (iblk23 V a1 c 0 t)) c).arrAt 1 (cfg23 a1).N
      = chunkG23 V a1 hlt c :=
  chunk_array23 V a1 _ hlt (fun c t r j => bodyBlk23_apply V a1 hlt c t r j) c

/-! ## The array as a chunk of the weighted rows -/

/-- When the far operand is the table x, the region's table the slice of the row numbers cols at 100000 k and its
    weights the slice of vals there as a column, the region's array is chunk k of the weighted rows. -/
theorem chunkG23_eq_chunkSpec (hlt : ∀ y, (tbl23 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far23 V c = x) (ht : tbl23 a1 = extractStridedSlice Cert.Value.T100000 ![off] cols hsl)
    (hw : wts23 V c = shapeCast Cert.Value.T100000x1 (extractStridedSlice Cert.Value.T100000 ![off] vals hsl) hsc) :
    chunkG23 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl23 a1 (ValueIdx.ix1 e)).toNat, hlt _⟩ (congrArg (fun T : S100000.Idx → BitVec 32 => (T (ValueIdx.ix1 e)).toNat) ht), ← hx, ← hw]
  rfl

end Chunk

/-! # Region 24 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg24 (F := Ideal)).Adm)
  (O : (c : Dev nD) → Fin (cfg24 a1).N → Vec Ideal S8x64 .f32)

/-- The grid has 12500 points. -/
theorem npoints24 : (cfg24 a1).N = 12500 := N_24

/-- A point's one coordinate is the point's number. -/
theorem coordsVal24 (t : Fin (cfg24 a1).N) : (((cfg24 a1).grid.coords t) 0).val = t.val := by
  have ht : t.val < 12500 := (npoints24 a1) ▸ t.isLt
  show t.val / grid24.stride 0 % 12500 = t.val
  rw [show grid24.stride 0 = 1 from by decide, Nat.div_one, Nat.mod_eq_of_lt ht]

/-- Both windows move with the point: block index (t, 0) at point t. -/
theorem idxInRow24 (t : Fin (cfg24 a1).N) : ((cfg24 a1).win 0).index t (0 : Fin 2) = t.val := by
  have ht : t.val < 12500 := (npoints24 a1) ▸ t.isLt
  show (BitVec.ofNat 32 (((cfg24 a1).grid.coords t) 0).val).toNat = t.val
  rw [coordsVal24, BitVec.toNat_ofNat, Nat.mod_eq_of_lt (by omega)]
theorem idxInCol24 (t : Fin (cfg24 a1).N) : ((cfg24 a1).win 0).index t (1 : Fin 2) = 0 := rfl
theorem idxOutRow24 (t : Fin (cfg24 a1).N) : ((cfg24 a1).win 1).index t (0 : Fin 2) = t.val := by
  have ht : t.val < 12500 := (npoints24 a1) ▸ t.isLt
  show (BitVec.ofNat 32 (((cfg24 a1).grid.coords t) 0).val).toNat = t.val
  rw [coordsVal24, BitVec.toNat_ofNat, Nat.mod_eq_of_lt (by omega)]
theorem idxOutCol24 (t : Fin (cfg24 a1).N) : ((cfg24 a1).win 1).index t (1 : Fin 2) = 0 := rfl

/-- The output window is written back at every point: the next point's block is another. -/
theorem flushOut24 (t : Fin (cfg24 a1).N) : ((cfg24 a1).win 1).flush t = true := by
  unfold Window.flush
  show (true && (decide (t.val + 1 = (cfg24 a1).N) || decide (∃ h : t.val + 1 < (cfg24 a1).N,
    ((cfg24 a1).win 1).index ⟨t.val + 1, h⟩ ≠ ((cfg24 a1).win 1).index t))) = true
  rw [Bool.true_and, Bool.or_eq_true, decide_eq_true_eq, decide_eq_true_eq]
  by_cases h : t.val + 1 = (cfg24 a1).N
  · exact Or.inl h
  · refine Or.inr ⟨by have := t.isLt; omega, fun e => ?_⟩
    have erow := congrFun e (0 : Fin 2)
    rw [idxOutRow24, idxOutRow24] at erow
    exact absurd erow (by show t.val + 1 ≠ t.val; omega)

/-! ## The operands at their literal types -/

/-- The table's words. -/
abbrev tbl24 : S100000.Idx → BitVec 32 := a1.1 0
/-- The far operand: the table of rows. -/
abbrev far24 (c : Dev nD) : S100000x64.Idx → EReal := V c main_v72
/-- The weights, as a column. -/
abbrev wts24 (c : Dev nD) : S100000x1.Idx → EReal := V c main_v104
/-- The input window's block at point t: eight weights. -/
abbrev inBlk24 (c : Dev nD) (t : Fin (cfg24 a1).N) : S8x1.Idx → EReal := iblk24 V a1 c 0 t

/-! ## The blocks -/

/-- Row r of the input window's block at point t is row 8 t + r of the column of weights. -/
theorem inBlk24_apply (c : Dev nD) (t : Fin (cfg24 a1).N) (r : Fin 8) (z : Fin 1) (k : S100000x1.Idx)
    (hkrow : (k 0).val = 8 * t.val + r.val) :
    inBlk24 V a1 c t (ValueIdx.ix2 r z) = wts24 V c k := by
  show wts24 V c ((((cfg24 a1).win 0).blk t).view.emb (ValueIdx.ix2 r z)) = wts24 V c k
  refine congrArg (wts24 V c) (funext fun a => Fin.ext ?_)
  match a with
  | ⟨0, _⟩ =>
    show ((cfg24 a1).win 0).index t (0 : Fin 2) * 8 + 1 * r.val = (k 0).val
    rw [idxInRow24, hkrow]; omega
  | ⟨1, _⟩ =>
    show ((cfg24 a1).win 0).index t (1 : Fin 2) * 1 + 1 * z.val = (k 1).val
    have hkcol : (k 1).val < 1 := idx2_lt1 k
    have hz : z.val < 1 := z.isLt
    rw [idxInCol24]; omega

/-- An index of the array is in point t's block iff each coordinate is in the block's range on its axis. -/
theorem mem_blkOut24 (t : Fin (cfg24 a1).N) (i : S100000x64.Idx) :
    i ∈ (((cfg24 a1).win 1).blk t).view.set ↔ ∀ a : Fin 2, ((cfg24 a1).win 1).index t a * S8x64.size a ≤ (i a).val
      ∧ (i a).val < ((cfg24 a1).win 1).index t a * S8x64.size a + S8x64.size a := by
  have hset : (((cfg24 a1).win 1).blk t).view.set = (((cfg24 a1).win 1).rect t : Rect S100000x64).set :=
    View.set_slice_whole main_v105 _
  have hmem : i ∈ (((cfg24 a1).win 1).rect t : Rect S100000x64).set ↔ ∀ a : Fin 2,
      ((cfg24 a1).win 1).index t a * S8x64.size a ≤ (i a).val
        ∧ (i a).val < ((cfg24 a1).win 1).index t a * S8x64.size a + S8x64.size a := Rect.mem_set_unit
  exact (Finset.ext_iff.mp hset i).trans hmem

/-- Every index of the array is in the block of the point its row over eight names. -/
theorem coverOut24 (i : S100000x64.Idx) :
    ∃ t : Fin (cfg24 a1).N, ((cfg24 a1).win 1).flush t = true ∧ i ∈ (((cfg24 a1).win 1).blk t).view.set := by
  have hirow : (i 0).val < 100000 := idx2_lt0 i
  have hicol : (i 1).val < 64 := idx2_lt1 i
  obtain ⟨t, ht⟩ : ∃ t : Fin (cfg24 a1).N, t.val = (i 0).val / 8 := ⟨⟨(i 0).val / 8, by rw [npoints24]; omega⟩, rfl⟩
  refine ⟨t, flushOut24 a1 t, ?_⟩
  rw [mem_blkOut24]
  intro a
  match a with
  | ⟨0, _⟩ =>
    show ((cfg24 a1).win 1).index t (0 : Fin 2) * 8 ≤ (i 0).val ∧ (i 0).val < ((cfg24 a1).win 1).index t (0 : Fin 2) * 8 + 8
    rw [idxOutRow24, ht]; omega
  | ⟨1, _⟩ =>
    show ((cfg24 a1).win 1).index t (1 : Fin 2) * 64 ≤ (i 1).val ∧ (i 1).val < ((cfg24 a1).win 1).index t (1 : Fin 2) * 64 + 64
    rw [idxOutCol24]; omega

/-! ## The array -/

/-- One weighted row at one column: the table row the e-th word names, at column j, times the e-th weight. -/
def chunkRow24 (hlt : ∀ y, (tbl24 a1 y).toNat < 100000) (c : Dev nD) (e : Fin 100000) (j : Fin 64) : EReal :=
  far24 V c (ValueIdx.ix2 ⟨(tbl24 a1 (ValueIdx.ix1 e)).toNat, hlt _⟩ j) * wts24 V c (ValueIdx.ix2 e (0 : Fin 1))

/-- The chunk's array as one function of the region's operands. -/
def chunkG24 (hlt : ∀ y, (tbl24 a1 y).toNat < 100000) (c : Dev nD) : S100000x64.Idx → EReal :=
  fun i => chunkRow24 V a1 hlt c (i 0) (i 1)

/-- Row r of point t's block lies in the table. -/
theorem row_lt24 (t : Fin (cfg24 a1).N) (r : Fin 8) : 8 * t.val + r.val < 100000 := by
  have ht : t.val < 12500 := (npoints24 a1) ▸ t.isLt
  have := r.isLt; omega

/-- WHAT POINT t WRITES BACK is block t of the chunk's array, when the body leaves in the output window's buffer,
    at (r, j), the table row that word 8 t + r names at column j times the input block's weight at (r, 0). -/
theorem flushedOut24_eq (hlt : ∀ y, (tbl24 a1 y).toNat < 100000)
    (hO : ∀ (c : Dev nD) (t : Fin (cfg24 a1).N) (r : Fin 8) (j : Fin 64), O c t (ValueIdx.ix2 r j)
      = far24 V c (ValueIdx.ix2 ⟨(tbl24 a1 (ValueIdx.ix1 ⟨8 * t.val + r.val, row_lt24 a1 t r⟩)).toNat, hlt _⟩ j)
        * inBlk24 V a1 c t (ValueIdx.ix2 r (0 : Fin 1)))
    (c : Dev nD) (t : Fin (cfg24 a1).N) :
    (dat24 V a1 O c).flushed 1 t = (((cfg24 a1).win 1).blk t).view.read (Elt Ideal) (chunkG24 V a1 hlt c) := by
  show ((cfg24 a1).win 1).cut ((cfg24 a1).grid.coords t) ((dat24 V a1 O c).after 1 t) = _
  rw [afterOut24]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG24 V a1 hlt c ((((cfg24 a1).win 1).blk t).view.emb (ValueIdx.ix2 r j))
  have hemb : (((cfg24 a1).win 1).blk t).view.emb (ValueIdx.ix2 r j)
      = (ValueIdx.ix2 ⟨8 * t.val + r.val, row_lt24 a1 t r⟩ j : S100000x64.Idx) := by
    funext a; apply Fin.ext
    match a with
    | ⟨0, _⟩ =>
      show ((cfg24 a1).win 1).index t (0 : Fin 2) * 8 + 1 * r.val = 8 * t.val + r.val
      rw [idxOutRow24]; omega
    | ⟨1, _⟩ =>
      show ((cfg24 a1).win 1).index t (1 : Fin 2) * 64 + 1 * j.val = j.val
      rw [idxOutCol24]; omega
  rw [hemb, hO c t r j,
    inBlk24_apply V a1 c t r 0 (ValueIdx.ix2 ⟨8 * t.val + r.val, row_lt24 a1 t r⟩ (0 : Fin 1)) rfl]
  rfl

/-- THE CHUNK'S ARRAY after the region: chunkG24. -/
theorem chunk_array24 (hlt : ∀ y, (tbl24 a1 y).toNat < 100000)
    (hO : ∀ (c : Dev nD) (t : Fin (cfg24 a1).N) (r : Fin 8) (j : Fin 64), O c t (ValueIdx.ix2 r j)
      = far24 V c (ValueIdx.ix2 ⟨(tbl24 a1 (ValueIdx.ix1 ⟨8 * t.val + r.val, row_lt24 a1 t r⟩)).toNat, hlt _⟩ j)
        * inBlk24 V a1 c t (ValueIdx.ix2 r (0 : Fin 1)))
    (c : Dev nD) :
    (dat24 V a1 O c).arrAt 1 (cfg24 a1).N = chunkG24 V a1 hlt c :=
  (dat24 V a1 O c).arrAt_eq_of_cover 1 (chunkG24 V a1 hlt c) (fun t _ => flushedOut24_eq V a1 O hlt hO c t) (coverOut24 a1)

/-! ## The body's own block -/

/-- Two rows of the far operand named by the same word are the same row. -/
theorem farRow24_congr (c : Dev nD) {e e' : Fin 100000} (h : e.val = e'.val) (j : Fin 64)
    (p : (tbl24 a1 (ValueIdx.ix1 e)).toNat < 100000) (p' : (tbl24 a1 (ValueIdx.ix1 e')).toNat < 100000) :
    far24 V c (ValueIdx.ix2 ⟨(tbl24 a1 (ValueIdx.ix1 e)).toNat, p⟩ j)
      = far24 V c (ValueIdx.ix2 ⟨(tbl24 a1 (ValueIdx.ix1 e')).toNat, p'⟩ j) := by
  obtain rfl : e = e' := Fin.ext h
  rfl

/-- The body's block at point t — the gathered rows scaled by the input block — has the entries hO asks. -/
theorem bodyBlk24_apply (hlt : ∀ y, (tbl24 a1 y).toNat < 100000) (c : Dev nD) (t : Fin (cfg24 a1).N) (r : Fin 8) (j : Fin 64) :
    gatherOut (gatherG (a1.1 0) (V c main_v72) (grid24.coords t)) (iblk24 V a1 c 0 t) (ValueIdx.ix2 r j)
      = far24 V c (ValueIdx.ix2 ⟨(tbl24 a1 (ValueIdx.ix1 ⟨8 * t.val + r.val, row_lt24 a1 t r⟩)).toNat, hlt _⟩ j)
        * inBlk24 V a1 c t (ValueIdx.ix2 r (0 : Fin 1)) := by
  have hpay : gatherOut (gatherG (a1.1 0) (V c main_v72) (grid24.coords t)) (iblk24 V a1 c 0 t) (ValueIdx.ix2 r j)
      = gatherG (F := Ideal) (tbl24 a1) (far24 V c) (grid24.coords t) (ValueIdx.ix2 r j) * inBlk24 V a1 c t (ValueIdx.ix2 r (0 : Fin 1)) :=
    Cert.Value.kernel_block (by decide) (by decide) (gatherG (F := Ideal) (tbl24 a1) (far24 V c) (grid24.coords t)) (inBlk24 V a1 c t) r j
  rw [hpay, gatherG_apply (F := Ideal) (tbl24 a1) (far24 V c) (grid24.coords t) r j (hlt _)]
  refine congrArg (· * inBlk24 V a1 c t (ValueIdx.ix2 r (0 : Fin 1))) ?_
  exact farRow24_congr V a1 c (by show 8 * ((grid24.coords t) 0).val + r.val = 8 * t.val + r.val; rw [coordsVal24 a1 t]) j _ _

/-- THE CHUNK'S ARRAY after the region, the output block being the body's own. -/
theorem chunk_array24_body (hlt : ∀ y, (tbl24 a1 y).toNat < 100000) (c : Dev nD) :
    (dat24 V a1 (fun c t => gatherOut (gatherG (a1.1 0) (V c main_v72) (grid24.coords t)) (iblk24 V a1 c 0 t)) c).arrAt 1 (cfg24 a1).N
      = chunkG24 V a1 hlt c :=
  chunk_array24 V a1 _ hlt (fun c t r j => bodyBlk24_apply V a1 hlt c t r j) c

/-! ## The array as a chunk of the weighted rows -/

/-- When the far operand is the table x, the region's table the slice of the row numbers cols at 100000 k and its
    weights the slice of vals there as a column, the region's array is chunk k of the weighted rows. -/
theorem chunkG24_eq_chunkSpec (hlt : ∀ y, (tbl24 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far24 V c = x) (ht : tbl24 a1 = extractStridedSlice Cert.Value.T100000 ![off] cols hsl)
    (hw : wts24 V c = shapeCast Cert.Value.T100000x1 (extractStridedSlice Cert.Value.T100000 ![off] vals hsl) hsc) :
    chunkG24 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl24 a1 (ValueIdx.ix1 e)).toNat, hlt _⟩ (congrArg (fun T : S100000.Idx → BitVec 32 => (T (ValueIdx.ix1 e)).toNat) ht), ← hx, ← hw]
  rfl

end Chunk

/-! # Region 25 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg25 (F := Ideal)).Adm)
  (O : (c : Dev nD) → Fin (cfg25 a1).N → Vec Ideal S8x64 .f32)

/-- The grid has 12500 points. -/
theorem npoints25 : (cfg25 a1).N = 12500 := N_25

/-- A point's one coordinate is the point's number. -/
theorem coordsVal25 (t : Fin (cfg25 a1).N) : (((cfg25 a1).grid.coords t) 0).val = t.val := by
  have ht : t.val < 12500 := (npoints25 a1) ▸ t.isLt
  show t.val / grid25.stride 0 % 12500 = t.val
  rw [show grid25.stride 0 = 1 from by decide, Nat.div_one, Nat.mod_eq_of_lt ht]

/-- Both windows move with the point: block index (t, 0) at point t. -/
theorem idxInRow25 (t : Fin (cfg25 a1).N) : ((cfg25 a1).win 0).index t (0 : Fin 2) = t.val := by
  have ht : t.val < 12500 := (npoints25 a1) ▸ t.isLt
  show (BitVec.ofNat 32 (((cfg25 a1).grid.coords t) 0).val).toNat = t.val
  rw [coordsVal25, BitVec.toNat_ofNat, Nat.mod_eq_of_lt (by omega)]
theorem idxInCol25 (t : Fin (cfg25 a1).N) : ((cfg25 a1).win 0).index t (1 : Fin 2) = 0 := rfl
theorem idxOutRow25 (t : Fin (cfg25 a1).N) : ((cfg25 a1).win 1).index t (0 : Fin 2) = t.val := by
  have ht : t.val < 12500 := (npoints25 a1) ▸ t.isLt
  show (BitVec.ofNat 32 (((cfg25 a1).grid.coords t) 0).val).toNat = t.val
  rw [coordsVal25, BitVec.toNat_ofNat, Nat.mod_eq_of_lt (by omega)]
theorem idxOutCol25 (t : Fin (cfg25 a1).N) : ((cfg25 a1).win 1).index t (1 : Fin 2) = 0 := rfl

/-- The output window is written back at every point: the next point's block is another. -/
theorem flushOut25 (t : Fin (cfg25 a1).N) : ((cfg25 a1).win 1).flush t = true := by
  unfold Window.flush
  show (true && (decide (t.val + 1 = (cfg25 a1).N) || decide (∃ h : t.val + 1 < (cfg25 a1).N,
    ((cfg25 a1).win 1).index ⟨t.val + 1, h⟩ ≠ ((cfg25 a1).win 1).index t))) = true
  rw [Bool.true_and, Bool.or_eq_true, decide_eq_true_eq, decide_eq_true_eq]
  by_cases h : t.val + 1 = (cfg25 a1).N
  · exact Or.inl h
  · refine Or.inr ⟨by have := t.isLt; omega, fun e => ?_⟩
    have erow := congrFun e (0 : Fin 2)
    rw [idxOutRow25, idxOutRow25] at erow
    exact absurd erow (by show t.val + 1 ≠ t.val; omega)

/-! ## The operands at their literal types -/

/-- The table's words. -/
abbrev tbl25 : S100000.Idx → BitVec 32 := a1.1 0
/-- The far operand: the table of rows. -/
abbrev far25 (c : Dev nD) : S100000x64.Idx → EReal := V c main_v72
/-- The weights, as a column. -/
abbrev wts25 (c : Dev nD) : S100000x1.Idx → EReal := V c main_v108
/-- The input window's block at point t: eight weights. -/
abbrev inBlk25 (c : Dev nD) (t : Fin (cfg25 a1).N) : S8x1.Idx → EReal := iblk25 V a1 c 0 t

/-! ## The blocks -/

/-- Row r of the input window's block at point t is row 8 t + r of the column of weights. -/
theorem inBlk25_apply (c : Dev nD) (t : Fin (cfg25 a1).N) (r : Fin 8) (z : Fin 1) (k : S100000x1.Idx)
    (hkrow : (k 0).val = 8 * t.val + r.val) :
    inBlk25 V a1 c t (ValueIdx.ix2 r z) = wts25 V c k := by
  show wts25 V c ((((cfg25 a1).win 0).blk t).view.emb (ValueIdx.ix2 r z)) = wts25 V c k
  refine congrArg (wts25 V c) (funext fun a => Fin.ext ?_)
  match a with
  | ⟨0, _⟩ =>
    show ((cfg25 a1).win 0).index t (0 : Fin 2) * 8 + 1 * r.val = (k 0).val
    rw [idxInRow25, hkrow]; omega
  | ⟨1, _⟩ =>
    show ((cfg25 a1).win 0).index t (1 : Fin 2) * 1 + 1 * z.val = (k 1).val
    have hkcol : (k 1).val < 1 := idx2_lt1 k
    have hz : z.val < 1 := z.isLt
    rw [idxInCol25]; omega

/-- An index of the array is in point t's block iff each coordinate is in the block's range on its axis. -/
theorem mem_blkOut25 (t : Fin (cfg25 a1).N) (i : S100000x64.Idx) :
    i ∈ (((cfg25 a1).win 1).blk t).view.set ↔ ∀ a : Fin 2, ((cfg25 a1).win 1).index t a * S8x64.size a ≤ (i a).val
      ∧ (i a).val < ((cfg25 a1).win 1).index t a * S8x64.size a + S8x64.size a := by
  have hset : (((cfg25 a1).win 1).blk t).view.set = (((cfg25 a1).win 1).rect t : Rect S100000x64).set :=
    View.set_slice_whole main_v109 _
  have hmem : i ∈ (((cfg25 a1).win 1).rect t : Rect S100000x64).set ↔ ∀ a : Fin 2,
      ((cfg25 a1).win 1).index t a * S8x64.size a ≤ (i a).val
        ∧ (i a).val < ((cfg25 a1).win 1).index t a * S8x64.size a + S8x64.size a := Rect.mem_set_unit
  exact (Finset.ext_iff.mp hset i).trans hmem

/-- Every index of the array is in the block of the point its row over eight names. -/
theorem coverOut25 (i : S100000x64.Idx) :
    ∃ t : Fin (cfg25 a1).N, ((cfg25 a1).win 1).flush t = true ∧ i ∈ (((cfg25 a1).win 1).blk t).view.set := by
  have hirow : (i 0).val < 100000 := idx2_lt0 i
  have hicol : (i 1).val < 64 := idx2_lt1 i
  obtain ⟨t, ht⟩ : ∃ t : Fin (cfg25 a1).N, t.val = (i 0).val / 8 := ⟨⟨(i 0).val / 8, by rw [npoints25]; omega⟩, rfl⟩
  refine ⟨t, flushOut25 a1 t, ?_⟩
  rw [mem_blkOut25]
  intro a
  match a with
  | ⟨0, _⟩ =>
    show ((cfg25 a1).win 1).index t (0 : Fin 2) * 8 ≤ (i 0).val ∧ (i 0).val < ((cfg25 a1).win 1).index t (0 : Fin 2) * 8 + 8
    rw [idxOutRow25, ht]; omega
  | ⟨1, _⟩ =>
    show ((cfg25 a1).win 1).index t (1 : Fin 2) * 64 ≤ (i 1).val ∧ (i 1).val < ((cfg25 a1).win 1).index t (1 : Fin 2) * 64 + 64
    rw [idxOutCol25]; omega

/-! ## The array -/

/-- One weighted row at one column: the table row the e-th word names, at column j, times the e-th weight. -/
def chunkRow25 (hlt : ∀ y, (tbl25 a1 y).toNat < 100000) (c : Dev nD) (e : Fin 100000) (j : Fin 64) : EReal :=
  far25 V c (ValueIdx.ix2 ⟨(tbl25 a1 (ValueIdx.ix1 e)).toNat, hlt _⟩ j) * wts25 V c (ValueIdx.ix2 e (0 : Fin 1))

/-- The chunk's array as one function of the region's operands. -/
def chunkG25 (hlt : ∀ y, (tbl25 a1 y).toNat < 100000) (c : Dev nD) : S100000x64.Idx → EReal :=
  fun i => chunkRow25 V a1 hlt c (i 0) (i 1)

/-- Row r of point t's block lies in the table. -/
theorem row_lt25 (t : Fin (cfg25 a1).N) (r : Fin 8) : 8 * t.val + r.val < 100000 := by
  have ht : t.val < 12500 := (npoints25 a1) ▸ t.isLt
  have := r.isLt; omega

/-- WHAT POINT t WRITES BACK is block t of the chunk's array, when the body leaves in the output window's buffer,
    at (r, j), the table row that word 8 t + r names at column j times the input block's weight at (r, 0). -/
theorem flushedOut25_eq (hlt : ∀ y, (tbl25 a1 y).toNat < 100000)
    (hO : ∀ (c : Dev nD) (t : Fin (cfg25 a1).N) (r : Fin 8) (j : Fin 64), O c t (ValueIdx.ix2 r j)
      = far25 V c (ValueIdx.ix2 ⟨(tbl25 a1 (ValueIdx.ix1 ⟨8 * t.val + r.val, row_lt25 a1 t r⟩)).toNat, hlt _⟩ j)
        * inBlk25 V a1 c t (ValueIdx.ix2 r (0 : Fin 1)))
    (c : Dev nD) (t : Fin (cfg25 a1).N) :
    (dat25 V a1 O c).flushed 1 t = (((cfg25 a1).win 1).blk t).view.read (Elt Ideal) (chunkG25 V a1 hlt c) := by
  show ((cfg25 a1).win 1).cut ((cfg25 a1).grid.coords t) ((dat25 V a1 O c).after 1 t) = _
  rw [afterOut25]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG25 V a1 hlt c ((((cfg25 a1).win 1).blk t).view.emb (ValueIdx.ix2 r j))
  have hemb : (((cfg25 a1).win 1).blk t).view.emb (ValueIdx.ix2 r j)
      = (ValueIdx.ix2 ⟨8 * t.val + r.val, row_lt25 a1 t r⟩ j : S100000x64.Idx) := by
    funext a; apply Fin.ext
    match a with
    | ⟨0, _⟩ =>
      show ((cfg25 a1).win 1).index t (0 : Fin 2) * 8 + 1 * r.val = 8 * t.val + r.val
      rw [idxOutRow25]; omega
    | ⟨1, _⟩ =>
      show ((cfg25 a1).win 1).index t (1 : Fin 2) * 64 + 1 * j.val = j.val
      rw [idxOutCol25]; omega
  rw [hemb, hO c t r j,
    inBlk25_apply V a1 c t r 0 (ValueIdx.ix2 ⟨8 * t.val + r.val, row_lt25 a1 t r⟩ (0 : Fin 1)) rfl]
  rfl

/-- THE CHUNK'S ARRAY after the region: chunkG25. -/
theorem chunk_array25 (hlt : ∀ y, (tbl25 a1 y).toNat < 100000)
    (hO : ∀ (c : Dev nD) (t : Fin (cfg25 a1).N) (r : Fin 8) (j : Fin 64), O c t (ValueIdx.ix2 r j)
      = far25 V c (ValueIdx.ix2 ⟨(tbl25 a1 (ValueIdx.ix1 ⟨8 * t.val + r.val, row_lt25 a1 t r⟩)).toNat, hlt _⟩ j)
        * inBlk25 V a1 c t (ValueIdx.ix2 r (0 : Fin 1)))
    (c : Dev nD) :
    (dat25 V a1 O c).arrAt 1 (cfg25 a1).N = chunkG25 V a1 hlt c :=
  (dat25 V a1 O c).arrAt_eq_of_cover 1 (chunkG25 V a1 hlt c) (fun t _ => flushedOut25_eq V a1 O hlt hO c t) (coverOut25 a1)

/-! ## The body's own block -/

/-- Two rows of the far operand named by the same word are the same row. -/
theorem farRow25_congr (c : Dev nD) {e e' : Fin 100000} (h : e.val = e'.val) (j : Fin 64)
    (p : (tbl25 a1 (ValueIdx.ix1 e)).toNat < 100000) (p' : (tbl25 a1 (ValueIdx.ix1 e')).toNat < 100000) :
    far25 V c (ValueIdx.ix2 ⟨(tbl25 a1 (ValueIdx.ix1 e)).toNat, p⟩ j)
      = far25 V c (ValueIdx.ix2 ⟨(tbl25 a1 (ValueIdx.ix1 e')).toNat, p'⟩ j) := by
  obtain rfl : e = e' := Fin.ext h
  rfl

/-- The body's block at point t — the gathered rows scaled by the input block — has the entries hO asks. -/
theorem bodyBlk25_apply (hlt : ∀ y, (tbl25 a1 y).toNat < 100000) (c : Dev nD) (t : Fin (cfg25 a1).N) (r : Fin 8) (j : Fin 64) :
    gatherOut (gatherG (a1.1 0) (V c main_v72) (grid25.coords t)) (iblk25 V a1 c 0 t) (ValueIdx.ix2 r j)
      = far25 V c (ValueIdx.ix2 ⟨(tbl25 a1 (ValueIdx.ix1 ⟨8 * t.val + r.val, row_lt25 a1 t r⟩)).toNat, hlt _⟩ j)
        * inBlk25 V a1 c t (ValueIdx.ix2 r (0 : Fin 1)) := by
  have hpay : gatherOut (gatherG (a1.1 0) (V c main_v72) (grid25.coords t)) (iblk25 V a1 c 0 t) (ValueIdx.ix2 r j)
      = gatherG (F := Ideal) (tbl25 a1) (far25 V c) (grid25.coords t) (ValueIdx.ix2 r j) * inBlk25 V a1 c t (ValueIdx.ix2 r (0 : Fin 1)) :=
    Cert.Value.kernel_block (by decide) (by decide) (gatherG (F := Ideal) (tbl25 a1) (far25 V c) (grid25.coords t)) (inBlk25 V a1 c t) r j
  rw [hpay, gatherG_apply (F := Ideal) (tbl25 a1) (far25 V c) (grid25.coords t) r j (hlt _)]
  refine congrArg (· * inBlk25 V a1 c t (ValueIdx.ix2 r (0 : Fin 1))) ?_
  exact farRow25_congr V a1 c (by show 8 * ((grid25.coords t) 0).val + r.val = 8 * t.val + r.val; rw [coordsVal25 a1 t]) j _ _

/-- THE CHUNK'S ARRAY after the region, the output block being the body's own. -/
theorem chunk_array25_body (hlt : ∀ y, (tbl25 a1 y).toNat < 100000) (c : Dev nD) :
    (dat25 V a1 (fun c t => gatherOut (gatherG (a1.1 0) (V c main_v72) (grid25.coords t)) (iblk25 V a1 c 0 t)) c).arrAt 1 (cfg25 a1).N
      = chunkG25 V a1 hlt c :=
  chunk_array25 V a1 _ hlt (fun c t r j => bodyBlk25_apply V a1 hlt c t r j) c

/-! ## The array as a chunk of the weighted rows -/

/-- When the far operand is the table x, the region's table the slice of the row numbers cols at 100000 k and its
    weights the slice of vals there as a column, the region's array is chunk k of the weighted rows. -/
theorem chunkG25_eq_chunkSpec (hlt : ∀ y, (tbl25 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far25 V c = x) (ht : tbl25 a1 = extractStridedSlice Cert.Value.T100000 ![off] cols hsl)
    (hw : wts25 V c = shapeCast Cert.Value.T100000x1 (extractStridedSlice Cert.Value.T100000 ![off] vals hsl) hsc) :
    chunkG25 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl25 a1 (ValueIdx.ix1 e)).toNat, hlt _⟩ (congrArg (fun T : S100000.Idx → BitVec 32 => (T (ValueIdx.ix1 e)).toNat) ht), ← hx, ← hw]
  rfl

end Chunk

end Cert.Value

end
-- ==== Proof.Val.KOuts_18_25.lean ====
/-
  Gather regions 18 to 25 of the host program, one after the other: for each, the region's output array at its exit boundary as a chunk of the layer's weighted rows,
  exactly as for region 1 (whose module says what each part is).
-/
import proofs.«421643_j28415503630349_2_alg».proof.Proof.KI.Tables
import proofs.«421643_j28415503630349_2_alg».proof.Proof.Val.ChunkArrays_18_25
import proofs.«421643_j28415503630349_2_alg».proof.Proof.Val.KVals

set_option maxRecDepth 16384

noncomputable section

namespace Cert.Value

open Cert.KernelIdeal Cert.KernelIdeal.Gen Cert.KernelIdeal.Hand
open Idealize.ShloMosaic Idealize.ShloMosaic.TcCoe
open Idealize.SL.Sem

/-! # Region 18 -/

attribute [local irreducible] W37 in
/-- The output array of region 18 at its exit is chunk 1 of the weighted rows of the table the region entered with. -/
theorem kout18 (m : (ℓ : Loc nD τ sig) → Buf (Elt Ideal) ℓ)
    (hcols : ∀ (c : Dev nD) (e : S1600000.Idx), (m ((c.tc : Thread nD τ).loc main_arg4) e).toNat < 100000)
    (c : Dev nD) :
    W39 m c main_v81
      = chunkSpec (W38 m c main_v72) (m ((c.tc : Thread nD τ).loc main_arg4)) (m ((c.tc : Thread nD τ).loc main_arg2))
          (hcols c) (1 : Fin 16) := by
  -- one core: every core is core 0, the one the table's admissible contents are read at
  obtain rfl : c = 0 := Subsingleton.elim _ _
  -- the exit boundary at the output array is the pipeline's final array
  have harr : W39 m 0 main_v81
      = (dat18 (Vof (W38 m)) (adm18 m) (outBlk18 (Vof (W38 m)) (adm18 m)) 0).arrAt 1 (cfg18 (adm18 m)).N :=
    Wout18_arr (W38 m) (adm18 m) (outBlk18 (Vof (W38 m)) (adm18 m)) 0 1
  -- which is the one function of the operands at the entry boundary
  have hbody := chunk_array18_body (Vof (W38 m)) (adm18 m) (tbl_lt18 m hcols) 0
  -- the table of row numbers is the slice of the argument list
  have ht : tbl18 (adm18 m)
      = extractStridedSlice T100000 ![100000] (m (((0 : Dev nD).tc : Thread nD τ).loc main_arg4)) slices_S1600000_S100000_100000 := by
    show W38 m 0 main_v78 = _
    rw [tbl_eq18 m 0, W37_arg4 m 0]
  -- the column of weights is the slice of the argument list, as a column
  have hw : wts18 (Vof (W38 m)) 0
      = shapeCast T100000x1
          (extractStridedSlice T100000 ![100000] (m (((0 : Dev nD).tc : Thread nD τ).loc main_arg2)) slices_S1600000_S100000_100000)
          shapeCasts_S100000_S100000x1 :=
    kvals18 (W37 m 0) (m (((0 : Dev nD).tc : Thread nD τ).loc main_arg2)) (W37_arg2 m 0)
  exact harr.trans (hbody.trans
    (chunkG18_eq_chunkSpec (Vof (W38 m)) (adm18 m) (tbl_lt18 m hcols) 0
      (W38 m 0 main_v72) (m (((0 : Dev nD).tc : Thread nD τ).loc main_arg4))
      (m (((0 : Dev nD).tc : Thread nD τ).loc main_arg2)) (hcols 0) (1 : Fin 16) 100000 (by decide)
      slices_S1600000_S100000_100000 shapeCasts_S100000_S100000x1 rfl ht hw))

/-! # Region 19 -/

attribute [local irreducible] W39 in
/-- The output array of region 19 at its exit is chunk 2 of the weighted rows of the table the region entered with. -/
theorem kout19 (m : (ℓ : Loc nD τ sig) → Buf (Elt Ideal) ℓ)
    (hcols : ∀ (c : Dev nD) (e : S1600000.Idx), (m ((c.tc : Thread nD τ).loc main_arg4) e).toNat < 100000)
    (c : Dev nD) :
    W41 m c main_v85
      = chunkSpec (W40 m c main_v72) (m ((c.tc : Thread nD τ).loc main_arg4)) (m ((c.tc : Thread nD τ).loc main_arg2))
          (hcols c) (2 : Fin 16) := by
  -- one core: every core is core 0, the one the table's admissible contents are read at
  obtain rfl : c = 0 := Subsingleton.elim _ _
  -- the exit boundary at the output array is the pipeline's final array
  have harr : W41 m 0 main_v85
      = (dat19 (Vof (W40 m)) (adm19 m) (outBlk19 (Vof (W40 m)) (adm19 m)) 0).arrAt 1 (cfg19 (adm19 m)).N :=
    Wout19_arr (W40 m) (adm19 m) (outBlk19 (Vof (W40 m)) (adm19 m)) 0 1
  -- which is the one function of the operands at the entry boundary
  have hbody := chunk_array19_body (Vof (W40 m)) (adm19 m) (tbl_lt19 m hcols) 0
  -- the table of row numbers is the slice of the argument list
  have ht : tbl19 (adm19 m)
      = extractStridedSlice T100000 ![200000] (m (((0 : Dev nD).tc : Thread nD τ).loc main_arg4)) slices_S1600000_S100000_200000 := by
    show W40 m 0 main_v82 = _
    rw [tbl_eq19 m 0, W39_arg4 m 0]
  -- the column of weights is the slice of the argument list, as a column
  have hw : wts19 (Vof (W40 m)) 0
      = shapeCast T100000x1
          (extractStridedSlice T100000 ![200000] (m (((0 : Dev nD).tc : Thread nD τ).loc main_arg2)) slices_S1600000_S100000_200000)
          shapeCasts_S100000_S100000x1 :=
    kvals19 (W39 m 0) (m (((0 : Dev nD).tc : Thread nD τ).loc main_arg2)) (W39_arg2 m 0)
  exact harr.trans (hbody.trans
    (chunkG19_eq_chunkSpec (Vof (W40 m)) (adm19 m) (tbl_lt19 m hcols) 0
      (W40 m 0 main_v72) (m (((0 : Dev nD).tc : Thread nD τ).loc main_arg4))
      (m (((0 : Dev nD).tc : Thread nD τ).loc main_arg2)) (hcols 0) (2 : Fin 16) 200000 (by decide)
      slices_S1600000_S100000_200000 shapeCasts_S100000_S100000x1 rfl ht hw))

/-! # Region 20 -/

attribute [local irreducible] W41 in
/-- The output array of region 20 at its exit is chunk 3 of the weighted rows of the table the region entered with. -/
theorem kout20 (m : (ℓ : Loc nD τ sig) → Buf (Elt Ideal) ℓ)
    (hcols : ∀ (c : Dev nD) (e : S1600000.Idx), (m ((c.tc : Thread nD τ).loc main_arg4) e).toNat < 100000)
    (c : Dev nD) :
    W43 m c main_v89
      = chunkSpec (W42 m c main_v72) (m ((c.tc : Thread nD τ).loc main_arg4)) (m ((c.tc : Thread nD τ).loc main_arg2))
          (hcols c) (3 : Fin 16) := by
  -- one core: every core is core 0, the one the table's admissible contents are read at
  obtain rfl : c = 0 := Subsingleton.elim _ _
  -- the exit boundary at the output array is the pipeline's final array
  have harr : W43 m 0 main_v89
      = (dat20 (Vof (W42 m)) (adm20 m) (outBlk20 (Vof (W42 m)) (adm20 m)) 0).arrAt 1 (cfg20 (adm20 m)).N :=
    Wout20_arr (W42 m) (adm20 m) (outBlk20 (Vof (W42 m)) (adm20 m)) 0 1
  -- which is the one function of the operands at the entry boundary
  have hbody := chunk_array20_body (Vof (W42 m)) (adm20 m) (tbl_lt20 m hcols) 0
  -- the table of row numbers is the slice of the argument list
  have ht : tbl20 (adm20 m)
      = extractStridedSlice T100000 ![300000] (m (((0 : Dev nD).tc : Thread nD τ).loc main_arg4)) slices_S1600000_S100000_300000 := by
    show W42 m 0 main_v86 = _
    rw [tbl_eq20 m 0, W41_arg4 m 0]
  -- the column of weights is the slice of the argument list, as a column
  have hw : wts20 (Vof (W42 m)) 0
      = shapeCast T100000x1
          (extractStridedSlice T100000 ![300000] (m (((0 : Dev nD).tc : Thread nD τ).loc main_arg2)) slices_S1600000_S100000_300000)
          shapeCasts_S100000_S100000x1 :=
    kvals20 (W41 m 0) (m (((0 : Dev nD).tc : Thread nD τ).loc main_arg2)) (W41_arg2 m 0)
  exact harr.trans (hbody.trans
    (chunkG20_eq_chunkSpec (Vof (W42 m)) (adm20 m) (tbl_lt20 m hcols) 0
      (W42 m 0 main_v72) (m (((0 : Dev nD).tc : Thread nD τ).loc main_arg4))
      (m (((0 : Dev nD).tc : Thread nD τ).loc main_arg2)) (hcols 0) (3 : Fin 16) 300000 (by decide)
      slices_S1600000_S100000_300000 shapeCasts_S100000_S100000x1 rfl ht hw))

/-! # Region 21 -/

attribute [local irreducible] W43 in
/-- The output array of region 21 at its exit is chunk 4 of the weighted rows of the table the region entered with. -/
theorem kout21 (m : (ℓ : Loc nD τ sig) → Buf (Elt Ideal) ℓ)
    (hcols : ∀ (c : Dev nD) (e : S1600000.Idx), (m ((c.tc : Thread nD τ).loc main_arg4) e).toNat < 100000)
    (c : Dev nD) :
    W45 m c main_v93
      = chunkSpec (W44 m c main_v72) (m ((c.tc : Thread nD τ).loc main_arg4)) (m ((c.tc : Thread nD τ).loc main_arg2))
          (hcols c) (4 : Fin 16) := by
  -- one core: every core is core 0, the one the table's admissible contents are read at
  obtain rfl : c = 0 := Subsingleton.elim _ _
  -- the exit boundary at the output array is the pipeline's final array
  have harr : W45 m 0 main_v93
      = (dat21 (Vof (W44 m)) (adm21 m) (outBlk21 (Vof (W44 m)) (adm21 m)) 0).arrAt 1 (cfg21 (adm21 m)).N :=
    Wout21_arr (W44 m) (adm21 m) (outBlk21 (Vof (W44 m)) (adm21 m)) 0 1
  -- which is the one function of the operands at the entry boundary
  have hbody := chunk_array21_body (Vof (W44 m)) (adm21 m) (tbl_lt21 m hcols) 0
  -- the table of row numbers is the slice of the argument list
  have ht : tbl21 (adm21 m)
      = extractStridedSlice T100000 ![400000] (m (((0 : Dev nD).tc : Thread nD τ).loc main_arg4)) slices_S1600000_S100000_400000 := by
    show W44 m 0 main_v90 = _
    rw [tbl_eq21 m 0, W43_arg4 m 0]
  -- the column of weights is the slice of the argument list, as a column
  have hw : wts21 (Vof (W44 m)) 0
      = shapeCast T100000x1
          (extractStridedSlice T100000 ![400000] (m (((0 : Dev nD).tc : Thread nD τ).loc main_arg2)) slices_S1600000_S100000_400000)
          shapeCasts_S100000_S100000x1 :=
    kvals21 (W43 m 0) (m (((0 : Dev nD).tc : Thread nD τ).loc main_arg2)) (W43_arg2 m 0)
  exact harr.trans (hbody.trans
    (chunkG21_eq_chunkSpec (Vof (W44 m)) (adm21 m) (tbl_lt21 m hcols) 0
      (W44 m 0 main_v72) (m (((0 : Dev nD).tc : Thread nD τ).loc main_arg4))
      (m (((0 : Dev nD).tc : Thread nD τ).loc main_arg2)) (hcols 0) (4 : Fin 16) 400000 (by decide)
      slices_S1600000_S100000_400000 shapeCasts_S100000_S100000x1 rfl ht hw))

/-! # Region 22 -/

attribute [local irreducible] W45 in
/-- The output array of region 22 at its exit is chunk 5 of the weighted rows of the table the region entered with. -/
theorem kout22 (m : (ℓ : Loc nD τ sig) → Buf (Elt Ideal) ℓ)
    (hcols : ∀ (c : Dev nD) (e : S1600000.Idx), (m ((c.tc : Thread nD τ).loc main_arg4) e).toNat < 100000)
    (c : Dev nD) :
    W47 m c main_v97
      = chunkSpec (W46 m c main_v72) (m ((c.tc : Thread nD τ).loc main_arg4)) (m ((c.tc : Thread nD τ).loc main_arg2))
          (hcols c) (5 : Fin 16) := by
  -- one core: every core is core 0, the one the table's admissible contents are read at
  obtain rfl : c = 0 := Subsingleton.elim _ _
  -- the exit boundary at the output array is the pipeline's final array
  have harr : W47 m 0 main_v97
      = (dat22 (Vof (W46 m)) (adm22 m) (outBlk22 (Vof (W46 m)) (adm22 m)) 0).arrAt 1 (cfg22 (adm22 m)).N :=
    Wout22_arr (W46 m) (adm22 m) (outBlk22 (Vof (W46 m)) (adm22 m)) 0 1
  -- which is the one function of the operands at the entry boundary
  have hbody := chunk_array22_body (Vof (W46 m)) (adm22 m) (tbl_lt22 m hcols) 0
  -- the table of row numbers is the slice of the argument list
  have ht : tbl22 (adm22 m)
      = extractStridedSlice T100000 ![500000] (m (((0 : Dev nD).tc : Thread nD τ).loc main_arg4)) slices_S1600000_S100000_500000 := by
    show W46 m 0 main_v94 = _
    rw [tbl_eq22 m 0, W45_arg4 m 0]
  -- the column of weights is the slice of the argument list, as a column
  have hw : wts22 (Vof (W46 m)) 0
      = shapeCast T100000x1
          (extractStridedSlice T100000 ![500000] (m (((0 : Dev nD).tc : Thread nD τ).loc main_arg2)) slices_S1600000_S100000_500000)
          shapeCasts_S100000_S100000x1 :=
    kvals22 (W45 m 0) (m (((0 : Dev nD).tc : Thread nD τ).loc main_arg2)) (W45_arg2 m 0)
  exact harr.trans (hbody.trans
    (chunkG22_eq_chunkSpec (Vof (W46 m)) (adm22 m) (tbl_lt22 m hcols) 0
      (W46 m 0 main_v72) (m (((0 : Dev nD).tc : Thread nD τ).loc main_arg4))
      (m (((0 : Dev nD).tc : Thread nD τ).loc main_arg2)) (hcols 0) (5 : Fin 16) 500000 (by decide)
      slices_S1600000_S100000_500000 shapeCasts_S100000_S100000x1 rfl ht hw))

/-! # Region 23 -/

attribute [local irreducible] W47 in
/-- The output array of region 23 at its exit is chunk 6 of the weighted rows of the table the region entered with. -/
theorem kout23 (m : (ℓ : Loc nD τ sig) → Buf (Elt Ideal) ℓ)
    (hcols : ∀ (c : Dev nD) (e : S1600000.Idx), (m ((c.tc : Thread nD τ).loc main_arg4) e).toNat < 100000)
    (c : Dev nD) :
    W49 m c main_v101
      = chunkSpec (W48 m c main_v72) (m ((c.tc : Thread nD τ).loc main_arg4)) (m ((c.tc : Thread nD τ).loc main_arg2))
          (hcols c) (6 : Fin 16) := by
  -- one core: every core is core 0, the one the table's admissible contents are read at
  obtain rfl : c = 0 := Subsingleton.elim _ _
  -- the exit boundary at the output array is the pipeline's final array
  have harr : W49 m 0 main_v101
      = (dat23 (Vof (W48 m)) (adm23 m) (outBlk23 (Vof (W48 m)) (adm23 m)) 0).arrAt 1 (cfg23 (adm23 m)).N :=
    Wout23_arr (W48 m) (adm23 m) (outBlk23 (Vof (W48 m)) (adm23 m)) 0 1
  -- which is the one function of the operands at the entry boundary
  have hbody := chunk_array23_body (Vof (W48 m)) (adm23 m) (tbl_lt23 m hcols) 0
  -- the table of row numbers is the slice of the argument list
  have ht : tbl23 (adm23 m)
      = extractStridedSlice T100000 ![600000] (m (((0 : Dev nD).tc : Thread nD τ).loc main_arg4)) slices_S1600000_S100000_600000 := by
    show W48 m 0 main_v98 = _
    rw [tbl_eq23 m 0, W47_arg4 m 0]
  -- the column of weights is the slice of the argument list, as a column
  have hw : wts23 (Vof (W48 m)) 0
      = shapeCast T100000x1
          (extractStridedSlice T100000 ![600000] (m (((0 : Dev nD).tc : Thread nD τ).loc main_arg2)) slices_S1600000_S100000_600000)
          shapeCasts_S100000_S100000x1 :=
    kvals23 (W47 m 0) (m (((0 : Dev nD).tc : Thread nD τ).loc main_arg2)) (W47_arg2 m 0)
  exact harr.trans (hbody.trans
    (chunkG23_eq_chunkSpec (Vof (W48 m)) (adm23 m) (tbl_lt23 m hcols) 0
      (W48 m 0 main_v72) (m (((0 : Dev nD).tc : Thread nD τ).loc main_arg4))
      (m (((0 : Dev nD).tc : Thread nD τ).loc main_arg2)) (hcols 0) (6 : Fin 16) 600000 (by decide)
      slices_S1600000_S100000_600000 shapeCasts_S100000_S100000x1 rfl ht hw))

/-! # Region 24 -/

attribute [local irreducible] W49 in
/-- The output array of region 24 at its exit is chunk 7 of the weighted rows of the table the region entered with. -/
theorem kout24 (m : (ℓ : Loc nD τ sig) → Buf (Elt Ideal) ℓ)
    (hcols : ∀ (c : Dev nD) (e : S1600000.Idx), (m ((c.tc : Thread nD τ).loc main_arg4) e).toNat < 100000)
    (c : Dev nD) :
    W51 m c main_v105
      = chunkSpec (W50 m c main_v72) (m ((c.tc : Thread nD τ).loc main_arg4)) (m ((c.tc : Thread nD τ).loc main_arg2))
          (hcols c) (7 : Fin 16) := by
  -- one core: every core is core 0, the one the table's admissible contents are read at
  obtain rfl : c = 0 := Subsingleton.elim _ _
  -- the exit boundary at the output array is the pipeline's final array
  have harr : W51 m 0 main_v105
      = (dat24 (Vof (W50 m)) (adm24 m) (outBlk24 (Vof (W50 m)) (adm24 m)) 0).arrAt 1 (cfg24 (adm24 m)).N :=
    Wout24_arr (W50 m) (adm24 m) (outBlk24 (Vof (W50 m)) (adm24 m)) 0 1
  -- which is the one function of the operands at the entry boundary
  have hbody := chunk_array24_body (Vof (W50 m)) (adm24 m) (tbl_lt24 m hcols) 0
  -- the table of row numbers is the slice of the argument list
  have ht : tbl24 (adm24 m)
      = extractStridedSlice T100000 ![700000] (m (((0 : Dev nD).tc : Thread nD τ).loc main_arg4)) slices_S1600000_S100000_700000 := by
    show W50 m 0 main_v102 = _
    rw [tbl_eq24 m 0, W49_arg4 m 0]
  -- the column of weights is the slice of the argument list, as a column
  have hw : wts24 (Vof (W50 m)) 0
      = shapeCast T100000x1
          (extractStridedSlice T100000 ![700000] (m (((0 : Dev nD).tc : Thread nD τ).loc main_arg2)) slices_S1600000_S100000_700000)
          shapeCasts_S100000_S100000x1 :=
    kvals24 (W49 m 0) (m (((0 : Dev nD).tc : Thread nD τ).loc main_arg2)) (W49_arg2 m 0)
  exact harr.trans (hbody.trans
    (chunkG24_eq_chunkSpec (Vof (W50 m)) (adm24 m) (tbl_lt24 m hcols) 0
      (W50 m 0 main_v72) (m (((0 : Dev nD).tc : Thread nD τ).loc main_arg4))
      (m (((0 : Dev nD).tc : Thread nD τ).loc main_arg2)) (hcols 0) (7 : Fin 16) 700000 (by decide)
      slices_S1600000_S100000_700000 shapeCasts_S100000_S100000x1 rfl ht hw))

/-! # Region 25 -/

attribute [local irreducible] W51 in
/-- The output array of region 25 at its exit is chunk 8 of the weighted rows of the table the region entered with. -/
theorem kout25 (m : (ℓ : Loc nD τ sig) → Buf (Elt Ideal) ℓ)
    (hcols : ∀ (c : Dev nD) (e : S1600000.Idx), (m ((c.tc : Thread nD τ).loc main_arg4) e).toNat < 100000)
    (c : Dev nD) :
    W53 m c main_v109
      = chunkSpec (W52 m c main_v72) (m ((c.tc : Thread nD τ).loc main_arg4)) (m ((c.tc : Thread nD τ).loc main_arg2))
          (hcols c) (8 : Fin 16) := by
  -- one core: every core is core 0, the one the table's admissible contents are read at
  obtain rfl : c = 0 := Subsingleton.elim _ _
  -- the exit boundary at the output array is the pipeline's final array
  have harr : W53 m 0 main_v109
      = (dat25 (Vof (W52 m)) (adm25 m) (outBlk25 (Vof (W52 m)) (adm25 m)) 0).arrAt 1 (cfg25 (adm25 m)).N :=
    Wout25_arr (W52 m) (adm25 m) (outBlk25 (Vof (W52 m)) (adm25 m)) 0 1
  -- which is the one function of the operands at the entry boundary
  have hbody := chunk_array25_body (Vof (W52 m)) (adm25 m) (tbl_lt25 m hcols) 0
  -- the table of row numbers is the slice of the argument list
  have ht : tbl25 (adm25 m)
      = extractStridedSlice T100000 ![800000] (m (((0 : Dev nD).tc : Thread nD τ).loc main_arg4)) slices_S1600000_S100000_800000 := by
    show W52 m 0 main_v106 = _
    rw [tbl_eq25 m 0, W51_arg4 m 0]
  -- the column of weights is the slice of the argument list, as a column
  have hw : wts25 (Vof (W52 m)) 0
      = shapeCast T100000x1
          (extractStridedSlice T100000 ![800000] (m (((0 : Dev nD).tc : Thread nD τ).loc main_arg2)) slices_S1600000_S100000_800000)
          shapeCasts_S100000_S100000x1 :=
    kvals25 (W51 m 0) (m (((0 : Dev nD).tc : Thread nD τ).loc main_arg2)) (W51_arg2 m 0)
  exact harr.trans (hbody.trans
    (chunkG25_eq_chunkSpec (Vof (W52 m)) (adm25 m) (tbl_lt25 m hcols) 0
      (W52 m 0 main_v72) (m (((0 : Dev nD).tc : Thread nD τ).loc main_arg4))
      (m (((0 : Dev nD).tc : Thread nD τ).loc main_arg2)) (hcols 0) (8 : Fin 16) 800000 (by decide)
      slices_S1600000_S100000_800000 shapeCasts_S100000_S100000x1 rfl ht hw))

end Cert.Value

end
-- ==== Proof.Val.ChunkArrays_26_33.lean ====
/-
  Gather regions 26 to 33 of the host program, one after the other: for each, the region's output array as one function of the node table, the table's words and the weights,
  exactly as for region 1 (whose module says what each part is).
-/
import proofs.«421643_j28415503630349_2_alg».proof.Proof.KI.Regions_26_33
import proofs.«421643_j28415503630349_2_alg».proof.Proof.KI.GatherDefs
import proofs.«421643_j28415503630349_2_alg».proof.Proof.Val.GatherSpec
import proofs.«421643_j28415503630349_2_alg».proof.Proof.Val.Cover
import Idealize.ShloMosaic.Lib.Pipeline.Value
import Idealize.ShloMosaic.Lib.ValueIdx

set_option maxRecDepth 16384

noncomputable section

namespace Cert.Value

open Cert.KernelIdeal Cert.KernelIdeal.Gen Cert.KernelIdeal.Hand
open Idealize.ShloMosaic Idealize.ShloMosaic.TcCoe
open Idealize.SL.Sem
open Idealize.ShloMosaic.Pipeline (Dat Cfg Window UD)

/-! # Region 26 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg26 (F := Ideal)).Adm)
  (O : (c : Dev nD) → Fin (cfg26 a1).N → Vec Ideal S8x64 .f32)

/-- The grid has 12500 points. -/
theorem npoints26 : (cfg26 a1).N = 12500 := N_26

/-- A point's one coordinate is the point's number. -/
theorem coordsVal26 (t : Fin (cfg26 a1).N) : (((cfg26 a1).grid.coords t) 0).val = t.val := by
  have ht : t.val < 12500 := (npoints26 a1) ▸ t.isLt
  show t.val / grid26.stride 0 % 12500 = t.val
  rw [show grid26.stride 0 = 1 from by decide, Nat.div_one, Nat.mod_eq_of_lt ht]

/-- Both windows move with the point: block index (t, 0) at point t. -/
theorem idxInRow26 (t : Fin (cfg26 a1).N) : ((cfg26 a1).win 0).index t (0 : Fin 2) = t.val := by
  have ht : t.val < 12500 := (npoints26 a1) ▸ t.isLt
  show (BitVec.ofNat 32 (((cfg26 a1).grid.coords t) 0).val).toNat = t.val
  rw [coordsVal26, BitVec.toNat_ofNat, Nat.mod_eq_of_lt (by omega)]
theorem idxInCol26 (t : Fin (cfg26 a1).N) : ((cfg26 a1).win 0).index t (1 : Fin 2) = 0 := rfl
theorem idxOutRow26 (t : Fin (cfg26 a1).N) : ((cfg26 a1).win 1).index t (0 : Fin 2) = t.val := by
  have ht : t.val < 12500 := (npoints26 a1) ▸ t.isLt
  show (BitVec.ofNat 32 (((cfg26 a1).grid.coords t) 0).val).toNat = t.val
  rw [coordsVal26, BitVec.toNat_ofNat, Nat.mod_eq_of_lt (by omega)]
theorem idxOutCol26 (t : Fin (cfg26 a1).N) : ((cfg26 a1).win 1).index t (1 : Fin 2) = 0 := rfl

/-- The output window is written back at every point: the next point's block is another. -/
theorem flushOut26 (t : Fin (cfg26 a1).N) : ((cfg26 a1).win 1).flush t = true := by
  unfold Window.flush
  show (true && (decide (t.val + 1 = (cfg26 a1).N) || decide (∃ h : t.val + 1 < (cfg26 a1).N,
    ((cfg26 a1).win 1).index ⟨t.val + 1, h⟩ ≠ ((cfg26 a1).win 1).index t))) = true
  rw [Bool.true_and, Bool.or_eq_true, decide_eq_true_eq, decide_eq_true_eq]
  by_cases h : t.val + 1 = (cfg26 a1).N
  · exact Or.inl h
  · refine Or.inr ⟨by have := t.isLt; omega, fun e => ?_⟩
    have erow := congrFun e (0 : Fin 2)
    rw [idxOutRow26, idxOutRow26] at erow
    exact absurd erow (by show t.val + 1 ≠ t.val; omega)

/-! ## The operands at their literal types -/

/-- The table's words. -/
abbrev tbl26 : S100000.Idx → BitVec 32 := a1.1 0
/-- The far operand: the table of rows. -/
abbrev far26 (c : Dev nD) : S100000x64.Idx → EReal := V c main_v72
/-- The weights, as a column. -/
abbrev wts26 (c : Dev nD) : S100000x1.Idx → EReal := V c main_v112
/-- The input window's block at point t: eight weights. -/
abbrev inBlk26 (c : Dev nD) (t : Fin (cfg26 a1).N) : S8x1.Idx → EReal := iblk26 V a1 c 0 t

/-! ## The blocks -/

/-- Row r of the input window's block at point t is row 8 t + r of the column of weights. -/
theorem inBlk26_apply (c : Dev nD) (t : Fin (cfg26 a1).N) (r : Fin 8) (z : Fin 1) (k : S100000x1.Idx)
    (hkrow : (k 0).val = 8 * t.val + r.val) :
    inBlk26 V a1 c t (ValueIdx.ix2 r z) = wts26 V c k := by
  show wts26 V c ((((cfg26 a1).win 0).blk t).view.emb (ValueIdx.ix2 r z)) = wts26 V c k
  refine congrArg (wts26 V c) (funext fun a => Fin.ext ?_)
  match a with
  | ⟨0, _⟩ =>
    show ((cfg26 a1).win 0).index t (0 : Fin 2) * 8 + 1 * r.val = (k 0).val
    rw [idxInRow26, hkrow]; omega
  | ⟨1, _⟩ =>
    show ((cfg26 a1).win 0).index t (1 : Fin 2) * 1 + 1 * z.val = (k 1).val
    have hkcol : (k 1).val < 1 := idx2_lt1 k
    have hz : z.val < 1 := z.isLt
    rw [idxInCol26]; omega

/-- An index of the array is in point t's block iff each coordinate is in the block's range on its axis. -/
theorem mem_blkOut26 (t : Fin (cfg26 a1).N) (i : S100000x64.Idx) :
    i ∈ (((cfg26 a1).win 1).blk t).view.set ↔ ∀ a : Fin 2, ((cfg26 a1).win 1).index t a * S8x64.size a ≤ (i a).val
      ∧ (i a).val < ((cfg26 a1).win 1).index t a * S8x64.size a + S8x64.size a := by
  have hset : (((cfg26 a1).win 1).blk t).view.set = (((cfg26 a1).win 1).rect t : Rect S100000x64).set :=
    View.set_slice_whole main_v113 _
  have hmem : i ∈ (((cfg26 a1).win 1).rect t : Rect S100000x64).set ↔ ∀ a : Fin 2,
      ((cfg26 a1).win 1).index t a * S8x64.size a ≤ (i a).val
        ∧ (i a).val < ((cfg26 a1).win 1).index t a * S8x64.size a + S8x64.size a := Rect.mem_set_unit
  exact (Finset.ext_iff.mp hset i).trans hmem

/-- Every index of the array is in the block of the point its row over eight names. -/
theorem coverOut26 (i : S100000x64.Idx) :
    ∃ t : Fin (cfg26 a1).N, ((cfg26 a1).win 1).flush t = true ∧ i ∈ (((cfg26 a1).win 1).blk t).view.set := by
  have hirow : (i 0).val < 100000 := idx2_lt0 i
  have hicol : (i 1).val < 64 := idx2_lt1 i
  obtain ⟨t, ht⟩ : ∃ t : Fin (cfg26 a1).N, t.val = (i 0).val / 8 := ⟨⟨(i 0).val / 8, by rw [npoints26]; omega⟩, rfl⟩
  refine ⟨t, flushOut26 a1 t, ?_⟩
  rw [mem_blkOut26]
  intro a
  match a with
  | ⟨0, _⟩ =>
    show ((cfg26 a1).win 1).index t (0 : Fin 2) * 8 ≤ (i 0).val ∧ (i 0).val < ((cfg26 a1).win 1).index t (0 : Fin 2) * 8 + 8
    rw [idxOutRow26, ht]; omega
  | ⟨1, _⟩ =>
    show ((cfg26 a1).win 1).index t (1 : Fin 2) * 64 ≤ (i 1).val ∧ (i 1).val < ((cfg26 a1).win 1).index t (1 : Fin 2) * 64 + 64
    rw [idxOutCol26]; omega

/-! ## The array -/

/-- One weighted row at one column: the table row the e-th word names, at column j, times the e-th weight. -/
def chunkRow26 (hlt : ∀ y, (tbl26 a1 y).toNat < 100000) (c : Dev nD) (e : Fin 100000) (j : Fin 64) : EReal :=
  far26 V c (ValueIdx.ix2 ⟨(tbl26 a1 (ValueIdx.ix1 e)).toNat, hlt _⟩ j) * wts26 V c (ValueIdx.ix2 e (0 : Fin 1))

/-- The chunk's array as one function of the region's operands. -/
def chunkG26 (hlt : ∀ y, (tbl26 a1 y).toNat < 100000) (c : Dev nD) : S100000x64.Idx → EReal :=
  fun i => chunkRow26 V a1 hlt c (i 0) (i 1)

/-- Row r of point t's block lies in the table. -/
theorem row_lt26 (t : Fin (cfg26 a1).N) (r : Fin 8) : 8 * t.val + r.val < 100000 := by
  have ht : t.val < 12500 := (npoints26 a1) ▸ t.isLt
  have := r.isLt; omega

/-- WHAT POINT t WRITES BACK is block t of the chunk's array, when the body leaves in the output window's buffer,
    at (r, j), the table row that word 8 t + r names at column j times the input block's weight at (r, 0). -/
theorem flushedOut26_eq (hlt : ∀ y, (tbl26 a1 y).toNat < 100000)
    (hO : ∀ (c : Dev nD) (t : Fin (cfg26 a1).N) (r : Fin 8) (j : Fin 64), O c t (ValueIdx.ix2 r j)
      = far26 V c (ValueIdx.ix2 ⟨(tbl26 a1 (ValueIdx.ix1 ⟨8 * t.val + r.val, row_lt26 a1 t r⟩)).toNat, hlt _⟩ j)
        * inBlk26 V a1 c t (ValueIdx.ix2 r (0 : Fin 1)))
    (c : Dev nD) (t : Fin (cfg26 a1).N) :
    (dat26 V a1 O c).flushed 1 t = (((cfg26 a1).win 1).blk t).view.read (Elt Ideal) (chunkG26 V a1 hlt c) := by
  show ((cfg26 a1).win 1).cut ((cfg26 a1).grid.coords t) ((dat26 V a1 O c).after 1 t) = _
  rw [afterOut26]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG26 V a1 hlt c ((((cfg26 a1).win 1).blk t).view.emb (ValueIdx.ix2 r j))
  have hemb : (((cfg26 a1).win 1).blk t).view.emb (ValueIdx.ix2 r j)
      = (ValueIdx.ix2 ⟨8 * t.val + r.val, row_lt26 a1 t r⟩ j : S100000x64.Idx) := by
    funext a; apply Fin.ext
    match a with
    | ⟨0, _⟩ =>
      show ((cfg26 a1).win 1).index t (0 : Fin 2) * 8 + 1 * r.val = 8 * t.val + r.val
      rw [idxOutRow26]; omega
    | ⟨1, _⟩ =>
      show ((cfg26 a1).win 1).index t (1 : Fin 2) * 64 + 1 * j.val = j.val
      rw [idxOutCol26]; omega
  rw [hemb, hO c t r j,
    inBlk26_apply V a1 c t r 0 (ValueIdx.ix2 ⟨8 * t.val + r.val, row_lt26 a1 t r⟩ (0 : Fin 1)) rfl]
  rfl

/-- THE CHUNK'S ARRAY after the region: chunkG26. -/
theorem chunk_array26 (hlt : ∀ y, (tbl26 a1 y).toNat < 100000)
    (hO : ∀ (c : Dev nD) (t : Fin (cfg26 a1).N) (r : Fin 8) (j : Fin 64), O c t (ValueIdx.ix2 r j)
      = far26 V c (ValueIdx.ix2 ⟨(tbl26 a1 (ValueIdx.ix1 ⟨8 * t.val + r.val, row_lt26 a1 t r⟩)).toNat, hlt _⟩ j)
        * inBlk26 V a1 c t (ValueIdx.ix2 r (0 : Fin 1)))
    (c : Dev nD) :
    (dat26 V a1 O c).arrAt 1 (cfg26 a1).N = chunkG26 V a1 hlt c :=
  (dat26 V a1 O c).arrAt_eq_of_cover 1 (chunkG26 V a1 hlt c) (fun t _ => flushedOut26_eq V a1 O hlt hO c t) (coverOut26 a1)

/-! ## The body's own block -/

/-- Two rows of the far operand named by the same word are the same row. -/
theorem farRow26_congr (c : Dev nD) {e e' : Fin 100000} (h : e.val = e'.val) (j : Fin 64)
    (p : (tbl26 a1 (ValueIdx.ix1 e)).toNat < 100000) (p' : (tbl26 a1 (ValueIdx.ix1 e')).toNat < 100000) :
    far26 V c (ValueIdx.ix2 ⟨(tbl26 a1 (ValueIdx.ix1 e)).toNat, p⟩ j)
      = far26 V c (ValueIdx.ix2 ⟨(tbl26 a1 (ValueIdx.ix1 e')).toNat, p'⟩ j) := by
  obtain rfl : e = e' := Fin.ext h
  rfl

/-- The body's block at point t — the gathered rows scaled by the input block — has the entries hO asks. -/
theorem bodyBlk26_apply (hlt : ∀ y, (tbl26 a1 y).toNat < 100000) (c : Dev nD) (t : Fin (cfg26 a1).N) (r : Fin 8) (j : Fin 64) :
    gatherOut (gatherG (a1.1 0) (V c main_v72) (grid26.coords t)) (iblk26 V a1 c 0 t) (ValueIdx.ix2 r j)
      = far26 V c (ValueIdx.ix2 ⟨(tbl26 a1 (ValueIdx.ix1 ⟨8 * t.val + r.val, row_lt26 a1 t r⟩)).toNat, hlt _⟩ j)
        * inBlk26 V a1 c t (ValueIdx.ix2 r (0 : Fin 1)) := by
  have hpay : gatherOut (gatherG (a1.1 0) (V c main_v72) (grid26.coords t)) (iblk26 V a1 c 0 t) (ValueIdx.ix2 r j)
      = gatherG (F := Ideal) (tbl26 a1) (far26 V c) (grid26.coords t) (ValueIdx.ix2 r j) * inBlk26 V a1 c t (ValueIdx.ix2 r (0 : Fin 1)) :=
    Cert.Value.kernel_block (by decide) (by decide) (gatherG (F := Ideal) (tbl26 a1) (far26 V c) (grid26.coords t)) (inBlk26 V a1 c t) r j
  rw [hpay, gatherG_apply (F := Ideal) (tbl26 a1) (far26 V c) (grid26.coords t) r j (hlt _)]
  refine congrArg (· * inBlk26 V a1 c t (ValueIdx.ix2 r (0 : Fin 1))) ?_
  exact farRow26_congr V a1 c (by show 8 * ((grid26.coords t) 0).val + r.val = 8 * t.val + r.val; rw [coordsVal26 a1 t]) j _ _

/-- THE CHUNK'S ARRAY after the region, the output block being the body's own. -/
theorem chunk_array26_body (hlt : ∀ y, (tbl26 a1 y).toNat < 100000) (c : Dev nD) :
    (dat26 V a1 (fun c t => gatherOut (gatherG (a1.1 0) (V c main_v72) (grid26.coords t)) (iblk26 V a1 c 0 t)) c).arrAt 1 (cfg26 a1).N
      = chunkG26 V a1 hlt c :=
  chunk_array26 V a1 _ hlt (fun c t r j => bodyBlk26_apply V a1 hlt c t r j) c

/-! ## The array as a chunk of the weighted rows -/

/-- When the far operand is the table x, the region's table the slice of the row numbers cols at 100000 k and its
    weights the slice of vals there as a column, the region's array is chunk k of the weighted rows. -/
theorem chunkG26_eq_chunkSpec (hlt : ∀ y, (tbl26 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far26 V c = x) (ht : tbl26 a1 = extractStridedSlice Cert.Value.T100000 ![off] cols hsl)
    (hw : wts26 V c = shapeCast Cert.Value.T100000x1 (extractStridedSlice Cert.Value.T100000 ![off] vals hsl) hsc) :
    chunkG26 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl26 a1 (ValueIdx.ix1 e)).toNat, hlt _⟩ (congrArg (fun T : S100000.Idx → BitVec 32 => (T (ValueIdx.ix1 e)).toNat) ht), ← hx, ← hw]
  rfl

end Chunk

/-! # Region 27 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg27 (F := Ideal)).Adm)
  (O : (c : Dev nD) → Fin (cfg27 a1).N → Vec Ideal S8x64 .f32)

/-- The grid has 12500 points. -/
theorem npoints27 : (cfg27 a1).N = 12500 := N_27

/-- A point's one coordinate is the point's number. -/
theorem coordsVal27 (t : Fin (cfg27 a1).N) : (((cfg27 a1).grid.coords t) 0).val = t.val := by
  have ht : t.val < 12500 := (npoints27 a1) ▸ t.isLt
  show t.val / grid27.stride 0 % 12500 = t.val
  rw [show grid27.stride 0 = 1 from by decide, Nat.div_one, Nat.mod_eq_of_lt ht]

/-- Both windows move with the point: block index (t, 0) at point t. -/
theorem idxInRow27 (t : Fin (cfg27 a1).N) : ((cfg27 a1).win 0).index t (0 : Fin 2) = t.val := by
  have ht : t.val < 12500 := (npoints27 a1) ▸ t.isLt
  show (BitVec.ofNat 32 (((cfg27 a1).grid.coords t) 0).val).toNat = t.val
  rw [coordsVal27, BitVec.toNat_ofNat, Nat.mod_eq_of_lt (by omega)]
theorem idxInCol27 (t : Fin (cfg27 a1).N) : ((cfg27 a1).win 0).index t (1 : Fin 2) = 0 := rfl
theorem idxOutRow27 (t : Fin (cfg27 a1).N) : ((cfg27 a1).win 1).index t (0 : Fin 2) = t.val := by
  have ht : t.val < 12500 := (npoints27 a1) ▸ t.isLt
  show (BitVec.ofNat 32 (((cfg27 a1).grid.coords t) 0).val).toNat = t.val
  rw [coordsVal27, BitVec.toNat_ofNat, Nat.mod_eq_of_lt (by omega)]
theorem idxOutCol27 (t : Fin (cfg27 a1).N) : ((cfg27 a1).win 1).index t (1 : Fin 2) = 0 := rfl

/-- The output window is written back at every point: the next point's block is another. -/
theorem flushOut27 (t : Fin (cfg27 a1).N) : ((cfg27 a1).win 1).flush t = true := by
  unfold Window.flush
  show (true && (decide (t.val + 1 = (cfg27 a1).N) || decide (∃ h : t.val + 1 < (cfg27 a1).N,
    ((cfg27 a1).win 1).index ⟨t.val + 1, h⟩ ≠ ((cfg27 a1).win 1).index t))) = true
  rw [Bool.true_and, Bool.or_eq_true, decide_eq_true_eq, decide_eq_true_eq]
  by_cases h : t.val + 1 = (cfg27 a1).N
  · exact Or.inl h
  · refine Or.inr ⟨by have := t.isLt; omega, fun e => ?_⟩
    have erow := congrFun e (0 : Fin 2)
    rw [idxOutRow27, idxOutRow27] at erow
    exact absurd erow (by show t.val + 1 ≠ t.val; omega)

/-! ## The operands at their literal types -/

/-- The table's words. -/
abbrev tbl27 : S100000.Idx → BitVec 32 := a1.1 0
/-- The far operand: the table of rows. -/
abbrev far27 (c : Dev nD) : S100000x64.Idx → EReal := V c main_v72
/-- The weights, as a column. -/
abbrev wts27 (c : Dev nD) : S100000x1.Idx → EReal := V c main_v116
/-- The input window's block at point t: eight weights. -/
abbrev inBlk27 (c : Dev nD) (t : Fin (cfg27 a1).N) : S8x1.Idx → EReal := iblk27 V a1 c 0 t

/-! ## The blocks -/

/-- Row r of the input window's block at point t is row 8 t + r of the column of weights. -/
theorem inBlk27_apply (c : Dev nD) (t : Fin (cfg27 a1).N) (r : Fin 8) (z : Fin 1) (k : S100000x1.Idx)
    (hkrow : (k 0).val = 8 * t.val + r.val) :
    inBlk27 V a1 c t (ValueIdx.ix2 r z) = wts27 V c k := by
  show wts27 V c ((((cfg27 a1).win 0).blk t).view.emb (ValueIdx.ix2 r z)) = wts27 V c k
  refine congrArg (wts27 V c) (funext fun a => Fin.ext ?_)
  match a with
  | ⟨0, _⟩ =>
    show ((cfg27 a1).win 0).index t (0 : Fin 2) * 8 + 1 * r.val = (k 0).val
    rw [idxInRow27, hkrow]; omega
  | ⟨1, _⟩ =>
    show ((cfg27 a1).win 0).index t (1 : Fin 2) * 1 + 1 * z.val = (k 1).val
    have hkcol : (k 1).val < 1 := idx2_lt1 k
    have hz : z.val < 1 := z.isLt
    rw [idxInCol27]; omega

/-- An index of the array is in point t's block iff each coordinate is in the block's range on its axis. -/
theorem mem_blkOut27 (t : Fin (cfg27 a1).N) (i : S100000x64.Idx) :
    i ∈ (((cfg27 a1).win 1).blk t).view.set ↔ ∀ a : Fin 2, ((cfg27 a1).win 1).index t a * S8x64.size a ≤ (i a).val
      ∧ (i a).val < ((cfg27 a1).win 1).index t a * S8x64.size a + S8x64.size a := by
  have hset : (((cfg27 a1).win 1).blk t).view.set = (((cfg27 a1).win 1).rect t : Rect S100000x64).set :=
    View.set_slice_whole main_v117 _
  have hmem : i ∈ (((cfg27 a1).win 1).rect t : Rect S100000x64).set ↔ ∀ a : Fin 2,
      ((cfg27 a1).win 1).index t a * S8x64.size a ≤ (i a).val
        ∧ (i a).val < ((cfg27 a1).win 1).index t a * S8x64.size a + S8x64.size a := Rect.mem_set_unit
  exact (Finset.ext_iff.mp hset i).trans hmem

/-- Every index of the array is in the block of the point its row over eight names. -/
theorem coverOut27 (i : S100000x64.Idx) :
    ∃ t : Fin (cfg27 a1).N, ((cfg27 a1).win 1).flush t = true ∧ i ∈ (((cfg27 a1).win 1).blk t).view.set := by
  have hirow : (i 0).val < 100000 := idx2_lt0 i
  have hicol : (i 1).val < 64 := idx2_lt1 i
  obtain ⟨t, ht⟩ : ∃ t : Fin (cfg27 a1).N, t.val = (i 0).val / 8 := ⟨⟨(i 0).val / 8, by rw [npoints27]; omega⟩, rfl⟩
  refine ⟨t, flushOut27 a1 t, ?_⟩
  rw [mem_blkOut27]
  intro a
  match a with
  | ⟨0, _⟩ =>
    show ((cfg27 a1).win 1).index t (0 : Fin 2) * 8 ≤ (i 0).val ∧ (i 0).val < ((cfg27 a1).win 1).index t (0 : Fin 2) * 8 + 8
    rw [idxOutRow27, ht]; omega
  | ⟨1, _⟩ =>
    show ((cfg27 a1).win 1).index t (1 : Fin 2) * 64 ≤ (i 1).val ∧ (i 1).val < ((cfg27 a1).win 1).index t (1 : Fin 2) * 64 + 64
    rw [idxOutCol27]; omega

/-! ## The array -/

/-- One weighted row at one column: the table row the e-th word names, at column j, times the e-th weight. -/
def chunkRow27 (hlt : ∀ y, (tbl27 a1 y).toNat < 100000) (c : Dev nD) (e : Fin 100000) (j : Fin 64) : EReal :=
  far27 V c (ValueIdx.ix2 ⟨(tbl27 a1 (ValueIdx.ix1 e)).toNat, hlt _⟩ j) * wts27 V c (ValueIdx.ix2 e (0 : Fin 1))

/-- The chunk's array as one function of the region's operands. -/
def chunkG27 (hlt : ∀ y, (tbl27 a1 y).toNat < 100000) (c : Dev nD) : S100000x64.Idx → EReal :=
  fun i => chunkRow27 V a1 hlt c (i 0) (i 1)

/-- Row r of point t's block lies in the table. -/
theorem row_lt27 (t : Fin (cfg27 a1).N) (r : Fin 8) : 8 * t.val + r.val < 100000 := by
  have ht : t.val < 12500 := (npoints27 a1) ▸ t.isLt
  have := r.isLt; omega

/-- WHAT POINT t WRITES BACK is block t of the chunk's array, when the body leaves in the output window's buffer,
    at (r, j), the table row that word 8 t + r names at column j times the input block's weight at (r, 0). -/
theorem flushedOut27_eq (hlt : ∀ y, (tbl27 a1 y).toNat < 100000)
    (hO : ∀ (c : Dev nD) (t : Fin (cfg27 a1).N) (r : Fin 8) (j : Fin 64), O c t (ValueIdx.ix2 r j)
      = far27 V c (ValueIdx.ix2 ⟨(tbl27 a1 (ValueIdx.ix1 ⟨8 * t.val + r.val, row_lt27 a1 t r⟩)).toNat, hlt _⟩ j)
        * inBlk27 V a1 c t (ValueIdx.ix2 r (0 : Fin 1)))
    (c : Dev nD) (t : Fin (cfg27 a1).N) :
    (dat27 V a1 O c).flushed 1 t = (((cfg27 a1).win 1).blk t).view.read (Elt Ideal) (chunkG27 V a1 hlt c) := by
  show ((cfg27 a1).win 1).cut ((cfg27 a1).grid.coords t) ((dat27 V a1 O c).after 1 t) = _
  rw [afterOut27]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG27 V a1 hlt c ((((cfg27 a1).win 1).blk t).view.emb (ValueIdx.ix2 r j))
  have hemb : (((cfg27 a1).win 1).blk t).view.emb (ValueIdx.ix2 r j)
      = (ValueIdx.ix2 ⟨8 * t.val + r.val, row_lt27 a1 t r⟩ j : S100000x64.Idx) := by
    funext a; apply Fin.ext
    match a with
    | ⟨0, _⟩ =>
      show ((cfg27 a1).win 1).index t (0 : Fin 2) * 8 + 1 * r.val = 8 * t.val + r.val
      rw [idxOutRow27]; omega
    | ⟨1, _⟩ =>
      show ((cfg27 a1).win 1).index t (1 : Fin 2) * 64 + 1 * j.val = j.val
      rw [idxOutCol27]; omega
  rw [hemb, hO c t r j,
    inBlk27_apply V a1 c t r 0 (ValueIdx.ix2 ⟨8 * t.val + r.val, row_lt27 a1 t r⟩ (0 : Fin 1)) rfl]
  rfl

/-- THE CHUNK'S ARRAY after the region: chunkG27. -/
theorem chunk_array27 (hlt : ∀ y, (tbl27 a1 y).toNat < 100000)
    (hO : ∀ (c : Dev nD) (t : Fin (cfg27 a1).N) (r : Fin 8) (j : Fin 64), O c t (ValueIdx.ix2 r j)
      = far27 V c (ValueIdx.ix2 ⟨(tbl27 a1 (ValueIdx.ix1 ⟨8 * t.val + r.val, row_lt27 a1 t r⟩)).toNat, hlt _⟩ j)
        * inBlk27 V a1 c t (ValueIdx.ix2 r (0 : Fin 1)))
    (c : Dev nD) :
    (dat27 V a1 O c).arrAt 1 (cfg27 a1).N = chunkG27 V a1 hlt c :=
  (dat27 V a1 O c).arrAt_eq_of_cover 1 (chunkG27 V a1 hlt c) (fun t _ => flushedOut27_eq V a1 O hlt hO c t) (coverOut27 a1)

/-! ## The body's own block -/

/-- Two rows of the far operand named by the same word are the same row. -/
theorem farRow27_congr (c : Dev nD) {e e' : Fin 100000} (h : e.val = e'.val) (j : Fin 64)
    (p : (tbl27 a1 (ValueIdx.ix1 e)).toNat < 100000) (p' : (tbl27 a1 (ValueIdx.ix1 e')).toNat < 100000) :
    far27 V c (ValueIdx.ix2 ⟨(tbl27 a1 (ValueIdx.ix1 e)).toNat, p⟩ j)
      = far27 V c (ValueIdx.ix2 ⟨(tbl27 a1 (ValueIdx.ix1 e')).toNat, p'⟩ j) := by
  obtain rfl : e = e' := Fin.ext h
  rfl

/-- The body's block at point t — the gathered rows scaled by the input block — has the entries hO asks. -/
theorem bodyBlk27_apply (hlt : ∀ y, (tbl27 a1 y).toNat < 100000) (c : Dev nD) (t : Fin (cfg27 a1).N) (r : Fin 8) (j : Fin 64) :
    gatherOut (gatherG (a1.1 0) (V c main_v72) (grid27.coords t)) (iblk27 V a1 c 0 t) (ValueIdx.ix2 r j)
      = far27 V c (ValueIdx.ix2 ⟨(tbl27 a1 (ValueIdx.ix1 ⟨8 * t.val + r.val, row_lt27 a1 t r⟩)).toNat, hlt _⟩ j)
        * inBlk27 V a1 c t (ValueIdx.ix2 r (0 : Fin 1)) := by
  have hpay : gatherOut (gatherG (a1.1 0) (V c main_v72) (grid27.coords t)) (iblk27 V a1 c 0 t) (ValueIdx.ix2 r j)
      = gatherG (F := Ideal) (tbl27 a1) (far27 V c) (grid27.coords t) (ValueIdx.ix2 r j) * inBlk27 V a1 c t (ValueIdx.ix2 r (0 : Fin 1)) :=
    Cert.Value.kernel_block (by decide) (by decide) (gatherG (F := Ideal) (tbl27 a1) (far27 V c) (grid27.coords t)) (inBlk27 V a1 c t) r j
  rw [hpay, gatherG_apply (F := Ideal) (tbl27 a1) (far27 V c) (grid27.coords t) r j (hlt _)]
  refine congrArg (· * inBlk27 V a1 c t (ValueIdx.ix2 r (0 : Fin 1))) ?_
  exact farRow27_congr V a1 c (by show 8 * ((grid27.coords t) 0).val + r.val = 8 * t.val + r.val; rw [coordsVal27 a1 t]) j _ _

/-- THE CHUNK'S ARRAY after the region, the output block being the body's own. -/
theorem chunk_array27_body (hlt : ∀ y, (tbl27 a1 y).toNat < 100000) (c : Dev nD) :
    (dat27 V a1 (fun c t => gatherOut (gatherG (a1.1 0) (V c main_v72) (grid27.coords t)) (iblk27 V a1 c 0 t)) c).arrAt 1 (cfg27 a1).N
      = chunkG27 V a1 hlt c :=
  chunk_array27 V a1 _ hlt (fun c t r j => bodyBlk27_apply V a1 hlt c t r j) c

/-! ## The array as a chunk of the weighted rows -/

/-- When the far operand is the table x, the region's table the slice of the row numbers cols at 100000 k and its
    weights the slice of vals there as a column, the region's array is chunk k of the weighted rows. -/
theorem chunkG27_eq_chunkSpec (hlt : ∀ y, (tbl27 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far27 V c = x) (ht : tbl27 a1 = extractStridedSlice Cert.Value.T100000 ![off] cols hsl)
    (hw : wts27 V c = shapeCast Cert.Value.T100000x1 (extractStridedSlice Cert.Value.T100000 ![off] vals hsl) hsc) :
    chunkG27 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl27 a1 (ValueIdx.ix1 e)).toNat, hlt _⟩ (congrArg (fun T : S100000.Idx → BitVec 32 => (T (ValueIdx.ix1 e)).toNat) ht), ← hx, ← hw]
  rfl

end Chunk

/-! # Region 28 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg28 (F := Ideal)).Adm)
  (O : (c : Dev nD) → Fin (cfg28 a1).N → Vec Ideal S8x64 .f32)

/-- The grid has 12500 points. -/
theorem npoints28 : (cfg28 a1).N = 12500 := N_28

/-- A point's one coordinate is the point's number. -/
theorem coordsVal28 (t : Fin (cfg28 a1).N) : (((cfg28 a1).grid.coords t) 0).val = t.val := by
  have ht : t.val < 12500 := (npoints28 a1) ▸ t.isLt
  show t.val / grid28.stride 0 % 12500 = t.val
  rw [show grid28.stride 0 = 1 from by decide, Nat.div_one, Nat.mod_eq_of_lt ht]

/-- Both windows move with the point: block index (t, 0) at point t. -/
theorem idxInRow28 (t : Fin (cfg28 a1).N) : ((cfg28 a1).win 0).index t (0 : Fin 2) = t.val := by
  have ht : t.val < 12500 := (npoints28 a1) ▸ t.isLt
  show (BitVec.ofNat 32 (((cfg28 a1).grid.coords t) 0).val).toNat = t.val
  rw [coordsVal28, BitVec.toNat_ofNat, Nat.mod_eq_of_lt (by omega)]
theorem idxInCol28 (t : Fin (cfg28 a1).N) : ((cfg28 a1).win 0).index t (1 : Fin 2) = 0 := rfl
theorem idxOutRow28 (t : Fin (cfg28 a1).N) : ((cfg28 a1).win 1).index t (0 : Fin 2) = t.val := by
  have ht : t.val < 12500 := (npoints28 a1) ▸ t.isLt
  show (BitVec.ofNat 32 (((cfg28 a1).grid.coords t) 0).val).toNat = t.val
  rw [coordsVal28, BitVec.toNat_ofNat, Nat.mod_eq_of_lt (by omega)]
theorem idxOutCol28 (t : Fin (cfg28 a1).N) : ((cfg28 a1).win 1).index t (1 : Fin 2) = 0 := rfl

/-- The output window is written back at every point: the next point's block is another. -/
theorem flushOut28 (t : Fin (cfg28 a1).N) : ((cfg28 a1).win 1).flush t = true := by
  unfold Window.flush
  show (true && (decide (t.val + 1 = (cfg28 a1).N) || decide (∃ h : t.val + 1 < (cfg28 a1).N,
    ((cfg28 a1).win 1).index ⟨t.val + 1, h⟩ ≠ ((cfg28 a1).win 1).index t))) = true
  rw [Bool.true_and, Bool.or_eq_true, decide_eq_true_eq, decide_eq_true_eq]
  by_cases h : t.val + 1 = (cfg28 a1).N
  · exact Or.inl h
  · refine Or.inr ⟨by have := t.isLt; omega, fun e => ?_⟩
    have erow := congrFun e (0 : Fin 2)
    rw [idxOutRow28, idxOutRow28] at erow
    exact absurd erow (by show t.val + 1 ≠ t.val; omega)

/-! ## The operands at their literal types -/

/-- The table's words. -/
abbrev tbl28 : S100000.Idx → BitVec 32 := a1.1 0
/-- The far operand: the table of rows. -/
abbrev far28 (c : Dev nD) : S100000x64.Idx → EReal := V c main_v72
/-- The weights, as a column. -/
abbrev wts28 (c : Dev nD) : S100000x1.Idx → EReal := V c main_v120
/-- The input window's block at point t: eight weights. -/
abbrev inBlk28 (c : Dev nD) (t : Fin (cfg28 a1).N) : S8x1.Idx → EReal := iblk28 V a1 c 0 t

/-! ## The blocks -/

/-- Row r of the input window's block at point t is row 8 t + r of the column of weights. -/
theorem inBlk28_apply (c : Dev nD) (t : Fin (cfg28 a1).N) (r : Fin 8) (z : Fin 1) (k : S100000x1.Idx)
    (hkrow : (k 0).val = 8 * t.val + r.val) :
    inBlk28 V a1 c t (ValueIdx.ix2 r z) = wts28 V c k := by
  show wts28 V c ((((cfg28 a1).win 0).blk t).view.emb (ValueIdx.ix2 r z)) = wts28 V c k
  refine congrArg (wts28 V c) (funext fun a => Fin.ext ?_)
  match a with
  | ⟨0, _⟩ =>
    show ((cfg28 a1).win 0).index t (0 : Fin 2) * 8 + 1 * r.val = (k 0).val
    rw [idxInRow28, hkrow]; omega
  | ⟨1, _⟩ =>
    show ((cfg28 a1).win 0).index t (1 : Fin 2) * 1 + 1 * z.val = (k 1).val
    have hkcol : (k 1).val < 1 := idx2_lt1 k
    have hz : z.val < 1 := z.isLt
    rw [idxInCol28]; omega

/-- An index of the array is in point t's block iff each coordinate is in the block's range on its axis. -/
theorem mem_blkOut28 (t : Fin (cfg28 a1).N) (i : S100000x64.Idx) :
    i ∈ (((cfg28 a1).win 1).blk t).view.set ↔ ∀ a : Fin 2, ((cfg28 a1).win 1).index t a * S8x64.size a ≤ (i a).val
      ∧ (i a).val < ((cfg28 a1).win 1).index t a * S8x64.size a + S8x64.size a := by
  have hset : (((cfg28 a1).win 1).blk t).view.set = (((cfg28 a1).win 1).rect t : Rect S100000x64).set :=
    View.set_slice_whole main_v121 _
  have hmem : i ∈ (((cfg28 a1).win 1).rect t : Rect S100000x64).set ↔ ∀ a : Fin 2,
      ((cfg28 a1).win 1).index t a * S8x64.size a ≤ (i a).val
        ∧ (i a).val < ((cfg28 a1).win 1).index t a * S8x64.size a + S8x64.size a := Rect.mem_set_unit
  exact (Finset.ext_iff.mp hset i).trans hmem

/-- Every index of the array is in the block of the point its row over eight names. -/
theorem coverOut28 (i : S100000x64.Idx) :
    ∃ t : Fin (cfg28 a1).N, ((cfg28 a1).win 1).flush t = true ∧ i ∈ (((cfg28 a1).win 1).blk t).view.set := by
  have hirow : (i 0).val < 100000 := idx2_lt0 i
  have hicol : (i 1).val < 64 := idx2_lt1 i
  obtain ⟨t, ht⟩ : ∃ t : Fin (cfg28 a1).N, t.val = (i 0).val / 8 := ⟨⟨(i 0).val / 8, by rw [npoints28]; omega⟩, rfl⟩
  refine ⟨t, flushOut28 a1 t, ?_⟩
  rw [mem_blkOut28]
  intro a
  match a with
  | ⟨0, _⟩ =>
    show ((cfg28 a1).win 1).index t (0 : Fin 2) * 8 ≤ (i 0).val ∧ (i 0).val < ((cfg28 a1).win 1).index t (0 : Fin 2) * 8 + 8
    rw [idxOutRow28, ht]; omega
  | ⟨1, _⟩ =>
    show ((cfg28 a1).win 1).index t (1 : Fin 2) * 64 ≤ (i 1).val ∧ (i 1).val < ((cfg28 a1).win 1).index t (1 : Fin 2) * 64 + 64
    rw [idxOutCol28]; omega

/-! ## The array -/

/-- One weighted row at one column: the table row the e-th word names, at column j, times the e-th weight. -/
def chunkRow28 (hlt : ∀ y, (tbl28 a1 y).toNat < 100000) (c : Dev nD) (e : Fin 100000) (j : Fin 64) : EReal :=
  far28 V c (ValueIdx.ix2 ⟨(tbl28 a1 (ValueIdx.ix1 e)).toNat, hlt _⟩ j) * wts28 V c (ValueIdx.ix2 e (0 : Fin 1))

/-- The chunk's array as one function of the region's operands. -/
def chunkG28 (hlt : ∀ y, (tbl28 a1 y).toNat < 100000) (c : Dev nD) : S100000x64.Idx → EReal :=
  fun i => chunkRow28 V a1 hlt c (i 0) (i 1)

/-- Row r of point t's block lies in the table. -/
theorem row_lt28 (t : Fin (cfg28 a1).N) (r : Fin 8) : 8 * t.val + r.val < 100000 := by
  have ht : t.val < 12500 := (npoints28 a1) ▸ t.isLt
  have := r.isLt; omega

/-- WHAT POINT t WRITES BACK is block t of the chunk's array, when the body leaves in the output window's buffer,
    at (r, j), the table row that word 8 t + r names at column j times the input block's weight at (r, 0). -/
theorem flushedOut28_eq (hlt : ∀ y, (tbl28 a1 y).toNat < 100000)
    (hO : ∀ (c : Dev nD) (t : Fin (cfg28 a1).N) (r : Fin 8) (j : Fin 64), O c t (ValueIdx.ix2 r j)
      = far28 V c (ValueIdx.ix2 ⟨(tbl28 a1 (ValueIdx.ix1 ⟨8 * t.val + r.val, row_lt28 a1 t r⟩)).toNat, hlt _⟩ j)
        * inBlk28 V a1 c t (ValueIdx.ix2 r (0 : Fin 1)))
    (c : Dev nD) (t : Fin (cfg28 a1).N) :
    (dat28 V a1 O c).flushed 1 t = (((cfg28 a1).win 1).blk t).view.read (Elt Ideal) (chunkG28 V a1 hlt c) := by
  show ((cfg28 a1).win 1).cut ((cfg28 a1).grid.coords t) ((dat28 V a1 O c).after 1 t) = _
  rw [afterOut28]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG28 V a1 hlt c ((((cfg28 a1).win 1).blk t).view.emb (ValueIdx.ix2 r j))
  have hemb : (((cfg28 a1).win 1).blk t).view.emb (ValueIdx.ix2 r j)
      = (ValueIdx.ix2 ⟨8 * t.val + r.val, row_lt28 a1 t r⟩ j : S100000x64.Idx) := by
    funext a; apply Fin.ext
    match a with
    | ⟨0, _⟩ =>
      show ((cfg28 a1).win 1).index t (0 : Fin 2) * 8 + 1 * r.val = 8 * t.val + r.val
      rw [idxOutRow28]; omega
    | ⟨1, _⟩ =>
      show ((cfg28 a1).win 1).index t (1 : Fin 2) * 64 + 1 * j.val = j.val
      rw [idxOutCol28]; omega
  rw [hemb, hO c t r j,
    inBlk28_apply V a1 c t r 0 (ValueIdx.ix2 ⟨8 * t.val + r.val, row_lt28 a1 t r⟩ (0 : Fin 1)) rfl]
  rfl

/-- THE CHUNK'S ARRAY after the region: chunkG28. -/
theorem chunk_array28 (hlt : ∀ y, (tbl28 a1 y).toNat < 100000)
    (hO : ∀ (c : Dev nD) (t : Fin (cfg28 a1).N) (r : Fin 8) (j : Fin 64), O c t (ValueIdx.ix2 r j)
      = far28 V c (ValueIdx.ix2 ⟨(tbl28 a1 (ValueIdx.ix1 ⟨8 * t.val + r.val, row_lt28 a1 t r⟩)).toNat, hlt _⟩ j)
        * inBlk28 V a1 c t (ValueIdx.ix2 r (0 : Fin 1)))
    (c : Dev nD) :
    (dat28 V a1 O c).arrAt 1 (cfg28 a1).N = chunkG28 V a1 hlt c :=
  (dat28 V a1 O c).arrAt_eq_of_cover 1 (chunkG28 V a1 hlt c) (fun t _ => flushedOut28_eq V a1 O hlt hO c t) (coverOut28 a1)

/-! ## The body's own block -/

/-- Two rows of the far operand named by the same word are the same row. -/
theorem farRow28_congr (c : Dev nD) {e e' : Fin 100000} (h : e.val = e'.val) (j : Fin 64)
    (p : (tbl28 a1 (ValueIdx.ix1 e)).toNat < 100000) (p' : (tbl28 a1 (ValueIdx.ix1 e')).toNat < 100000) :
    far28 V c (ValueIdx.ix2 ⟨(tbl28 a1 (ValueIdx.ix1 e)).toNat, p⟩ j)
      = far28 V c (ValueIdx.ix2 ⟨(tbl28 a1 (ValueIdx.ix1 e')).toNat, p'⟩ j) := by
  obtain rfl : e = e' := Fin.ext h
  rfl

/-- The body's block at point t — the gathered rows scaled by the input block — has the entries hO asks. -/
theorem bodyBlk28_apply (hlt : ∀ y, (tbl28 a1 y).toNat < 100000) (c : Dev nD) (t : Fin (cfg28 a1).N) (r : Fin 8) (j : Fin 64) :
    gatherOut (gatherG (a1.1 0) (V c main_v72) (grid28.coords t)) (iblk28 V a1 c 0 t) (ValueIdx.ix2 r j)
      = far28 V c (ValueIdx.ix2 ⟨(tbl28 a1 (ValueIdx.ix1 ⟨8 * t.val + r.val, row_lt28 a1 t r⟩)).toNat, hlt _⟩ j)
        * inBlk28 V a1 c t (ValueIdx.ix2 r (0 : Fin 1)) := by
  have hpay : gatherOut (gatherG (a1.1 0) (V c main_v72) (grid28.coords t)) (iblk28 V a1 c 0 t) (ValueIdx.ix2 r j)
      = gatherG (F := Ideal) (tbl28 a1) (far28 V c) (grid28.coords t) (ValueIdx.ix2 r j) * inBlk28 V a1 c t (ValueIdx.ix2 r (0 : Fin 1)) :=
    Cert.Value.kernel_block (by decide) (by decide) (gatherG (F := Ideal) (tbl28 a1) (far28 V c) (grid28.coords t)) (inBlk28 V a1 c t) r j
  rw [hpay, gatherG_apply (F := Ideal) (tbl28 a1) (far28 V c) (grid28.coords t) r j (hlt _)]
  refine congrArg (· * inBlk28 V a1 c t (ValueIdx.ix2 r (0 : Fin 1))) ?_
  exact farRow28_congr V a1 c (by show 8 * ((grid28.coords t) 0).val + r.val = 8 * t.val + r.val; rw [coordsVal28 a1 t]) j _ _

/-- THE CHUNK'S ARRAY after the region, the output block being the body's own. -/
theorem chunk_array28_body (hlt : ∀ y, (tbl28 a1 y).toNat < 100000) (c : Dev nD) :
    (dat28 V a1 (fun c t => gatherOut (gatherG (a1.1 0) (V c main_v72) (grid28.coords t)) (iblk28 V a1 c 0 t)) c).arrAt 1 (cfg28 a1).N
      = chunkG28 V a1 hlt c :=
  chunk_array28 V a1 _ hlt (fun c t r j => bodyBlk28_apply V a1 hlt c t r j) c

/-! ## The array as a chunk of the weighted rows -/

/-- When the far operand is the table x, the region's table the slice of the row numbers cols at 100000 k and its
    weights the slice of vals there as a column, the region's array is chunk k of the weighted rows. -/
theorem chunkG28_eq_chunkSpec (hlt : ∀ y, (tbl28 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far28 V c = x) (ht : tbl28 a1 = extractStridedSlice Cert.Value.T100000 ![off] cols hsl)
    (hw : wts28 V c = shapeCast Cert.Value.T100000x1 (extractStridedSlice Cert.Value.T100000 ![off] vals hsl) hsc) :
    chunkG28 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl28 a1 (ValueIdx.ix1 e)).toNat, hlt _⟩ (congrArg (fun T : S100000.Idx → BitVec 32 => (T (ValueIdx.ix1 e)).toNat) ht), ← hx, ← hw]
  rfl

end Chunk

/-! # Region 29 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg29 (F := Ideal)).Adm)
  (O : (c : Dev nD) → Fin (cfg29 a1).N → Vec Ideal S8x64 .f32)

/-- The grid has 12500 points. -/
theorem npoints29 : (cfg29 a1).N = 12500 := N_29

/-- A point's one coordinate is the point's number. -/
theorem coordsVal29 (t : Fin (cfg29 a1).N) : (((cfg29 a1).grid.coords t) 0).val = t.val := by
  have ht : t.val < 12500 := (npoints29 a1) ▸ t.isLt
  show t.val / grid29.stride 0 % 12500 = t.val
  rw [show grid29.stride 0 = 1 from by decide, Nat.div_one, Nat.mod_eq_of_lt ht]

/-- Both windows move with the point: block index (t, 0) at point t. -/
theorem idxInRow29 (t : Fin (cfg29 a1).N) : ((cfg29 a1).win 0).index t (0 : Fin 2) = t.val := by
  have ht : t.val < 12500 := (npoints29 a1) ▸ t.isLt
  show (BitVec.ofNat 32 (((cfg29 a1).grid.coords t) 0).val).toNat = t.val
  rw [coordsVal29, BitVec.toNat_ofNat, Nat.mod_eq_of_lt (by omega)]
theorem idxInCol29 (t : Fin (cfg29 a1).N) : ((cfg29 a1).win 0).index t (1 : Fin 2) = 0 := rfl
theorem idxOutRow29 (t : Fin (cfg29 a1).N) : ((cfg29 a1).win 1).index t (0 : Fin 2) = t.val := by
  have ht : t.val < 12500 := (npoints29 a1) ▸ t.isLt
  show (BitVec.ofNat 32 (((cfg29 a1).grid.coords t) 0).val).toNat = t.val
  rw [coordsVal29, BitVec.toNat_ofNat, Nat.mod_eq_of_lt (by omega)]
theorem idxOutCol29 (t : Fin (cfg29 a1).N) : ((cfg29 a1).win 1).index t (1 : Fin 2) = 0 := rfl

/-- The output window is written back at every point: the next point's block is another. -/
theorem flushOut29 (t : Fin (cfg29 a1).N) : ((cfg29 a1).win 1).flush t = true := by
  unfold Window.flush
  show (true && (decide (t.val + 1 = (cfg29 a1).N) || decide (∃ h : t.val + 1 < (cfg29 a1).N,
    ((cfg29 a1).win 1).index ⟨t.val + 1, h⟩ ≠ ((cfg29 a1).win 1).index t))) = true
  rw [Bool.true_and, Bool.or_eq_true, decide_eq_true_eq, decide_eq_true_eq]
  by_cases h : t.val + 1 = (cfg29 a1).N
  · exact Or.inl h
  · refine Or.inr ⟨by have := t.isLt; omega, fun e => ?_⟩
    have erow := congrFun e (0 : Fin 2)
    rw [idxOutRow29, idxOutRow29] at erow
    exact absurd erow (by show t.val + 1 ≠ t.val; omega)

/-! ## The operands at their literal types -/

/-- The table's words. -/
abbrev tbl29 : S100000.Idx → BitVec 32 := a1.1 0
/-- The far operand: the table of rows. -/
abbrev far29 (c : Dev nD) : S100000x64.Idx → EReal := V c main_v72
/-- The weights, as a column. -/
abbrev wts29 (c : Dev nD) : S100000x1.Idx → EReal := V c main_v124
/-- The input window's block at point t: eight weights. -/
abbrev inBlk29 (c : Dev nD) (t : Fin (cfg29 a1).N) : S8x1.Idx → EReal := iblk29 V a1 c 0 t

/-! ## The blocks -/

/-- Row r of the input window's block at point t is row 8 t + r of the column of weights. -/
theorem inBlk29_apply (c : Dev nD) (t : Fin (cfg29 a1).N) (r : Fin 8) (z : Fin 1) (k : S100000x1.Idx)
    (hkrow : (k 0).val = 8 * t.val + r.val) :
    inBlk29 V a1 c t (ValueIdx.ix2 r z) = wts29 V c k := by
  show wts29 V c ((((cfg29 a1).win 0).blk t).view.emb (ValueIdx.ix2 r z)) = wts29 V c k
  refine congrArg (wts29 V c) (funext fun a => Fin.ext ?_)
  match a with
  | ⟨0, _⟩ =>
    show ((cfg29 a1).win 0).index t (0 : Fin 2) * 8 + 1 * r.val = (k 0).val
    rw [idxInRow29, hkrow]; omega
  | ⟨1, _⟩ =>
    show ((cfg29 a1).win 0).index t (1 : Fin 2) * 1 + 1 * z.val = (k 1).val
    have hkcol : (k 1).val < 1 := idx2_lt1 k
    have hz : z.val < 1 := z.isLt
    rw [idxInCol29]; omega

/-- An index of the array is in point t's block iff each coordinate is in the block's range on its axis. -/
theorem mem_blkOut29 (t : Fin (cfg29 a1).N) (i : S100000x64.Idx) :
    i ∈ (((cfg29 a1).win 1).blk t).view.set ↔ ∀ a : Fin 2, ((cfg29 a1).win 1).index t a * S8x64.size a ≤ (i a).val
      ∧ (i a).val < ((cfg29 a1).win 1).index t a * S8x64.size a + S8x64.size a := by
  have hset : (((cfg29 a1).win 1).blk t).view.set = (((cfg29 a1).win 1).rect t : Rect S100000x64).set :=
    View.set_slice_whole main_v125 _
  have hmem : i ∈ (((cfg29 a1).win 1).rect t : Rect S100000x64).set ↔ ∀ a : Fin 2,
      ((cfg29 a1).win 1).index t a * S8x64.size a ≤ (i a).val
        ∧ (i a).val < ((cfg29 a1).win 1).index t a * S8x64.size a + S8x64.size a := Rect.mem_set_unit
  exact (Finset.ext_iff.mp hset i).trans hmem

/-- Every index of the array is in the block of the point its row over eight names. -/
theorem coverOut29 (i : S100000x64.Idx) :
    ∃ t : Fin (cfg29 a1).N, ((cfg29 a1).win 1).flush t = true ∧ i ∈ (((cfg29 a1).win 1).blk t).view.set := by
  have hirow : (i 0).val < 100000 := idx2_lt0 i
  have hicol : (i 1).val < 64 := idx2_lt1 i
  obtain ⟨t, ht⟩ : ∃ t : Fin (cfg29 a1).N, t.val = (i 0).val / 8 := ⟨⟨(i 0).val / 8, by rw [npoints29]; omega⟩, rfl⟩
  refine ⟨t, flushOut29 a1 t, ?_⟩
  rw [mem_blkOut29]
  intro a
  match a with
  | ⟨0, _⟩ =>
    show ((cfg29 a1).win 1).index t (0 : Fin 2) * 8 ≤ (i 0).val ∧ (i 0).val < ((cfg29 a1).win 1).index t (0 : Fin 2) * 8 + 8
    rw [idxOutRow29, ht]; omega
  | ⟨1, _⟩ =>
    show ((cfg29 a1).win 1).index t (1 : Fin 2) * 64 ≤ (i 1).val ∧ (i 1).val < ((cfg29 a1).win 1).index t (1 : Fin 2) * 64 + 64
    rw [idxOutCol29]; omega

/-! ## The array -/

/-- One weighted row at one column: the table row the e-th word names, at column j, times the e-th weight. -/
def chunkRow29 (hlt : ∀ y, (tbl29 a1 y).toNat < 100000) (c : Dev nD) (e : Fin 100000) (j : Fin 64) : EReal :=
  far29 V c (ValueIdx.ix2 ⟨(tbl29 a1 (ValueIdx.ix1 e)).toNat, hlt _⟩ j) * wts29 V c (ValueIdx.ix2 e (0 : Fin 1))

/-- The chunk's array as one function of the region's operands. -/
def chunkG29 (hlt : ∀ y, (tbl29 a1 y).toNat < 100000) (c : Dev nD) : S100000x64.Idx → EReal :=
  fun i => chunkRow29 V a1 hlt c (i 0) (i 1)

/-- Row r of point t's block lies in the table. -/
theorem row_lt29 (t : Fin (cfg29 a1).N) (r : Fin 8) : 8 * t.val + r.val < 100000 := by
  have ht : t.val < 12500 := (npoints29 a1) ▸ t.isLt
  have := r.isLt; omega

/-- WHAT POINT t WRITES BACK is block t of the chunk's array, when the body leaves in the output window's buffer,
    at (r, j), the table row that word 8 t + r names at column j times the input block's weight at (r, 0). -/
theorem flushedOut29_eq (hlt : ∀ y, (tbl29 a1 y).toNat < 100000)
    (hO : ∀ (c : Dev nD) (t : Fin (cfg29 a1).N) (r : Fin 8) (j : Fin 64), O c t (ValueIdx.ix2 r j)
      = far29 V c (ValueIdx.ix2 ⟨(tbl29 a1 (ValueIdx.ix1 ⟨8 * t.val + r.val, row_lt29 a1 t r⟩)).toNat, hlt _⟩ j)
        * inBlk29 V a1 c t (ValueIdx.ix2 r (0 : Fin 1)))
    (c : Dev nD) (t : Fin (cfg29 a1).N) :
    (dat29 V a1 O c).flushed 1 t = (((cfg29 a1).win 1).blk t).view.read (Elt Ideal) (chunkG29 V a1 hlt c) := by
  show ((cfg29 a1).win 1).cut ((cfg29 a1).grid.coords t) ((dat29 V a1 O c).after 1 t) = _
  rw [afterOut29]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG29 V a1 hlt c ((((cfg29 a1).win 1).blk t).view.emb (ValueIdx.ix2 r j))
  have hemb : (((cfg29 a1).win 1).blk t).view.emb (ValueIdx.ix2 r j)
      = (ValueIdx.ix2 ⟨8 * t.val + r.val, row_lt29 a1 t r⟩ j : S100000x64.Idx) := by
    funext a; apply Fin.ext
    match a with
    | ⟨0, _⟩ =>
      show ((cfg29 a1).win 1).index t (0 : Fin 2) * 8 + 1 * r.val = 8 * t.val + r.val
      rw [idxOutRow29]; omega
    | ⟨1, _⟩ =>
      show ((cfg29 a1).win 1).index t (1 : Fin 2) * 64 + 1 * j.val = j.val
      rw [idxOutCol29]; omega
  rw [hemb, hO c t r j,
    inBlk29_apply V a1 c t r 0 (ValueIdx.ix2 ⟨8 * t.val + r.val, row_lt29 a1 t r⟩ (0 : Fin 1)) rfl]
  rfl

/-- THE CHUNK'S ARRAY after the region: chunkG29. -/
theorem chunk_array29 (hlt : ∀ y, (tbl29 a1 y).toNat < 100000)
    (hO : ∀ (c : Dev nD) (t : Fin (cfg29 a1).N) (r : Fin 8) (j : Fin 64), O c t (ValueIdx.ix2 r j)
      = far29 V c (ValueIdx.ix2 ⟨(tbl29 a1 (ValueIdx.ix1 ⟨8 * t.val + r.val, row_lt29 a1 t r⟩)).toNat, hlt _⟩ j)
        * inBlk29 V a1 c t (ValueIdx.ix2 r (0 : Fin 1)))
    (c : Dev nD) :
    (dat29 V a1 O c).arrAt 1 (cfg29 a1).N = chunkG29 V a1 hlt c :=
  (dat29 V a1 O c).arrAt_eq_of_cover 1 (chunkG29 V a1 hlt c) (fun t _ => flushedOut29_eq V a1 O hlt hO c t) (coverOut29 a1)

/-! ## The body's own block -/

/-- Two rows of the far operand named by the same word are the same row. -/
theorem farRow29_congr (c : Dev nD) {e e' : Fin 100000} (h : e.val = e'.val) (j : Fin 64)
    (p : (tbl29 a1 (ValueIdx.ix1 e)).toNat < 100000) (p' : (tbl29 a1 (ValueIdx.ix1 e')).toNat < 100000) :
    far29 V c (ValueIdx.ix2 ⟨(tbl29 a1 (ValueIdx.ix1 e)).toNat, p⟩ j)
      = far29 V c (ValueIdx.ix2 ⟨(tbl29 a1 (ValueIdx.ix1 e')).toNat, p'⟩ j) := by
  obtain rfl : e = e' := Fin.ext h
  rfl

/-- The body's block at point t — the gathered rows scaled by the input block — has the entries hO asks. -/
theorem bodyBlk29_apply (hlt : ∀ y, (tbl29 a1 y).toNat < 100000) (c : Dev nD) (t : Fin (cfg29 a1).N) (r : Fin 8) (j : Fin 64) :
    gatherOut (gatherG (a1.1 0) (V c main_v72) (grid29.coords t)) (iblk29 V a1 c 0 t) (ValueIdx.ix2 r j)
      = far29 V c (ValueIdx.ix2 ⟨(tbl29 a1 (ValueIdx.ix1 ⟨8 * t.val + r.val, row_lt29 a1 t r⟩)).toNat, hlt _⟩ j)
        * inBlk29 V a1 c t (ValueIdx.ix2 r (0 : Fin 1)) := by
  have hpay : gatherOut (gatherG (a1.1 0) (V c main_v72) (grid29.coords t)) (iblk29 V a1 c 0 t) (ValueIdx.ix2 r j)
      = gatherG (F := Ideal) (tbl29 a1) (far29 V c) (grid29.coords t) (ValueIdx.ix2 r j) * inBlk29 V a1 c t (ValueIdx.ix2 r (0 : Fin 1)) :=
    Cert.Value.kernel_block (by decide) (by decide) (gatherG (F := Ideal) (tbl29 a1) (far29 V c) (grid29.coords t)) (inBlk29 V a1 c t) r j
  rw [hpay, gatherG_apply (F := Ideal) (tbl29 a1) (far29 V c) (grid29.coords t) r j (hlt _)]
  refine congrArg (· * inBlk29 V a1 c t (ValueIdx.ix2 r (0 : Fin 1))) ?_
  exact farRow29_congr V a1 c (by show 8 * ((grid29.coords t) 0).val + r.val = 8 * t.val + r.val; rw [coordsVal29 a1 t]) j _ _

/-- THE CHUNK'S ARRAY after the region, the output block being the body's own. -/
theorem chunk_array29_body (hlt : ∀ y, (tbl29 a1 y).toNat < 100000) (c : Dev nD) :
    (dat29 V a1 (fun c t => gatherOut (gatherG (a1.1 0) (V c main_v72) (grid29.coords t)) (iblk29 V a1 c 0 t)) c).arrAt 1 (cfg29 a1).N
      = chunkG29 V a1 hlt c :=
  chunk_array29 V a1 _ hlt (fun c t r j => bodyBlk29_apply V a1 hlt c t r j) c

/-! ## The array as a chunk of the weighted rows -/

/-- When the far operand is the table x, the region's table the slice of the row numbers cols at 100000 k and its
    weights the slice of vals there as a column, the region's array is chunk k of the weighted rows. -/
theorem chunkG29_eq_chunkSpec (hlt : ∀ y, (tbl29 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far29 V c = x) (ht : tbl29 a1 = extractStridedSlice Cert.Value.T100000 ![off] cols hsl)
    (hw : wts29 V c = shapeCast Cert.Value.T100000x1 (extractStridedSlice Cert.Value.T100000 ![off] vals hsl) hsc) :
    chunkG29 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl29 a1 (ValueIdx.ix1 e)).toNat, hlt _⟩ (congrArg (fun T : S100000.Idx → BitVec 32 => (T (ValueIdx.ix1 e)).toNat) ht), ← hx, ← hw]
  rfl

end Chunk

/-! # Region 30 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg30 (F := Ideal)).Adm)
  (O : (c : Dev nD) → Fin (cfg30 a1).N → Vec Ideal S8x64 .f32)

/-- The grid has 12500 points. -/
theorem npoints30 : (cfg30 a1).N = 12500 := N_30

/-- A point's one coordinate is the point's number. -/
theorem coordsVal30 (t : Fin (cfg30 a1).N) : (((cfg30 a1).grid.coords t) 0).val = t.val := by
  have ht : t.val < 12500 := (npoints30 a1) ▸ t.isLt
  show t.val / grid30.stride 0 % 12500 = t.val
  rw [show grid30.stride 0 = 1 from by decide, Nat.div_one, Nat.mod_eq_of_lt ht]

/-- Both windows move with the point: block index (t, 0) at point t. -/
theorem idxInRow30 (t : Fin (cfg30 a1).N) : ((cfg30 a1).win 0).index t (0 : Fin 2) = t.val := by
  have ht : t.val < 12500 := (npoints30 a1) ▸ t.isLt
  show (BitVec.ofNat 32 (((cfg30 a1).grid.coords t) 0).val).toNat = t.val
  rw [coordsVal30, BitVec.toNat_ofNat, Nat.mod_eq_of_lt (by omega)]
theorem idxInCol30 (t : Fin (cfg30 a1).N) : ((cfg30 a1).win 0).index t (1 : Fin 2) = 0 := rfl
theorem idxOutRow30 (t : Fin (cfg30 a1).N) : ((cfg30 a1).win 1).index t (0 : Fin 2) = t.val := by
  have ht : t.val < 12500 := (npoints30 a1) ▸ t.isLt
  show (BitVec.ofNat 32 (((cfg30 a1).grid.coords t) 0).val).toNat = t.val
  rw [coordsVal30, BitVec.toNat_ofNat, Nat.mod_eq_of_lt (by omega)]
theorem idxOutCol30 (t : Fin (cfg30 a1).N) : ((cfg30 a1).win 1).index t (1 : Fin 2) = 0 := rfl

/-- The output window is written back at every point: the next point's block is another. -/
theorem flushOut30 (t : Fin (cfg30 a1).N) : ((cfg30 a1).win 1).flush t = true := by
  unfold Window.flush
  show (true && (decide (t.val + 1 = (cfg30 a1).N) || decide (∃ h : t.val + 1 < (cfg30 a1).N,
    ((cfg30 a1).win 1).index ⟨t.val + 1, h⟩ ≠ ((cfg30 a1).win 1).index t))) = true
  rw [Bool.true_and, Bool.or_eq_true, decide_eq_true_eq, decide_eq_true_eq]
  by_cases h : t.val + 1 = (cfg30 a1).N
  · exact Or.inl h
  · refine Or.inr ⟨by have := t.isLt; omega, fun e => ?_⟩
    have erow := congrFun e (0 : Fin 2)
    rw [idxOutRow30, idxOutRow30] at erow
    exact absurd erow (by show t.val + 1 ≠ t.val; omega)

/-! ## The operands at their literal types -/

/-- The table's words. -/
abbrev tbl30 : S100000.Idx → BitVec 32 := a1.1 0
/-- The far operand: the table of rows. -/
abbrev far30 (c : Dev nD) : S100000x64.Idx → EReal := V c main_v72
/-- The weights, as a column. -/
abbrev wts30 (c : Dev nD) : S100000x1.Idx → EReal := V c main_v128
/-- The input window's block at point t: eight weights. -/
abbrev inBlk30 (c : Dev nD) (t : Fin (cfg30 a1).N) : S8x1.Idx → EReal := iblk30 V a1 c 0 t

/-! ## The blocks -/

/-- Row r of the input window's block at point t is row 8 t + r of the column of weights. -/
theorem inBlk30_apply (c : Dev nD) (t : Fin (cfg30 a1).N) (r : Fin 8) (z : Fin 1) (k : S100000x1.Idx)
    (hkrow : (k 0).val = 8 * t.val + r.val) :
    inBlk30 V a1 c t (ValueIdx.ix2 r z) = wts30 V c k := by
  show wts30 V c ((((cfg30 a1).win 0).blk t).view.emb (ValueIdx.ix2 r z)) = wts30 V c k
  refine congrArg (wts30 V c) (funext fun a => Fin.ext ?_)
  match a with
  | ⟨0, _⟩ =>
    show ((cfg30 a1).win 0).index t (0 : Fin 2) * 8 + 1 * r.val = (k 0).val
    rw [idxInRow30, hkrow]; omega
  | ⟨1, _⟩ =>
    show ((cfg30 a1).win 0).index t (1 : Fin 2) * 1 + 1 * z.val = (k 1).val
    have hkcol : (k 1).val < 1 := idx2_lt1 k
    have hz : z.val < 1 := z.isLt
    rw [idxInCol30]; omega

/-- An index of the array is in point t's block iff each coordinate is in the block's range on its axis. -/
theorem mem_blkOut30 (t : Fin (cfg30 a1).N) (i : S100000x64.Idx) :
    i ∈ (((cfg30 a1).win 1).blk t).view.set ↔ ∀ a : Fin 2, ((cfg30 a1).win 1).index t a * S8x64.size a ≤ (i a).val
      ∧ (i a).val < ((cfg30 a1).win 1).index t a * S8x64.size a + S8x64.size a := by
  have hset : (((cfg30 a1).win 1).blk t).view.set = (((cfg30 a1).win 1).rect t : Rect S100000x64).set :=
    View.set_slice_whole main_v129 _
  have hmem : i ∈ (((cfg30 a1).win 1).rect t : Rect S100000x64).set ↔ ∀ a : Fin 2,
      ((cfg30 a1).win 1).index t a * S8x64.size a ≤ (i a).val
        ∧ (i a).val < ((cfg30 a1).win 1).index t a * S8x64.size a + S8x64.size a := Rect.mem_set_unit
  exact (Finset.ext_iff.mp hset i).trans hmem

/-- Every index of the array is in the block of the point its row over eight names. -/
theorem coverOut30 (i : S100000x64.Idx) :
    ∃ t : Fin (cfg30 a1).N, ((cfg30 a1).win 1).flush t = true ∧ i ∈ (((cfg30 a1).win 1).blk t).view.set := by
  have hirow : (i 0).val < 100000 := idx2_lt0 i
  have hicol : (i 1).val < 64 := idx2_lt1 i
  obtain ⟨t, ht⟩ : ∃ t : Fin (cfg30 a1).N, t.val = (i 0).val / 8 := ⟨⟨(i 0).val / 8, by rw [npoints30]; omega⟩, rfl⟩
  refine ⟨t, flushOut30 a1 t, ?_⟩
  rw [mem_blkOut30]
  intro a
  match a with
  | ⟨0, _⟩ =>
    show ((cfg30 a1).win 1).index t (0 : Fin 2) * 8 ≤ (i 0).val ∧ (i 0).val < ((cfg30 a1).win 1).index t (0 : Fin 2) * 8 + 8
    rw [idxOutRow30, ht]; omega
  | ⟨1, _⟩ =>
    show ((cfg30 a1).win 1).index t (1 : Fin 2) * 64 ≤ (i 1).val ∧ (i 1).val < ((cfg30 a1).win 1).index t (1 : Fin 2) * 64 + 64
    rw [idxOutCol30]; omega

/-! ## The array -/

/-- One weighted row at one column: the table row the e-th word names, at column j, times the e-th weight. -/
def chunkRow30 (hlt : ∀ y, (tbl30 a1 y).toNat < 100000) (c : Dev nD) (e : Fin 100000) (j : Fin 64) : EReal :=
  far30 V c (ValueIdx.ix2 ⟨(tbl30 a1 (ValueIdx.ix1 e)).toNat, hlt _⟩ j) * wts30 V c (ValueIdx.ix2 e (0 : Fin 1))

/-- The chunk's array as one function of the region's operands. -/
def chunkG30 (hlt : ∀ y, (tbl30 a1 y).toNat < 100000) (c : Dev nD) : S100000x64.Idx → EReal :=
  fun i => chunkRow30 V a1 hlt c (i 0) (i 1)

/-- Row r of point t's block lies in the table. -/
theorem row_lt30 (t : Fin (cfg30 a1).N) (r : Fin 8) : 8 * t.val + r.val < 100000 := by
  have ht : t.val < 12500 := (npoints30 a1) ▸ t.isLt
  have := r.isLt; omega

/-- WHAT POINT t WRITES BACK is block t of the chunk's array, when the body leaves in the output window's buffer,
    at (r, j), the table row that word 8 t + r names at column j times the input block's weight at (r, 0). -/
theorem flushedOut30_eq (hlt : ∀ y, (tbl30 a1 y).toNat < 100000)
    (hO : ∀ (c : Dev nD) (t : Fin (cfg30 a1).N) (r : Fin 8) (j : Fin 64), O c t (ValueIdx.ix2 r j)
      = far30 V c (ValueIdx.ix2 ⟨(tbl30 a1 (ValueIdx.ix1 ⟨8 * t.val + r.val, row_lt30 a1 t r⟩)).toNat, hlt _⟩ j)
        * inBlk30 V a1 c t (ValueIdx.ix2 r (0 : Fin 1)))
    (c : Dev nD) (t : Fin (cfg30 a1).N) :
    (dat30 V a1 O c).flushed 1 t = (((cfg30 a1).win 1).blk t).view.read (Elt Ideal) (chunkG30 V a1 hlt c) := by
  show ((cfg30 a1).win 1).cut ((cfg30 a1).grid.coords t) ((dat30 V a1 O c).after 1 t) = _
  rw [afterOut30]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG30 V a1 hlt c ((((cfg30 a1).win 1).blk t).view.emb (ValueIdx.ix2 r j))
  have hemb : (((cfg30 a1).win 1).blk t).view.emb (ValueIdx.ix2 r j)
      = (ValueIdx.ix2 ⟨8 * t.val + r.val, row_lt30 a1 t r⟩ j : S100000x64.Idx) := by
    funext a; apply Fin.ext
    match a with
    | ⟨0, _⟩ =>
      show ((cfg30 a1).win 1).index t (0 : Fin 2) * 8 + 1 * r.val = 8 * t.val + r.val
      rw [idxOutRow30]; omega
    | ⟨1, _⟩ =>
      show ((cfg30 a1).win 1).index t (1 : Fin 2) * 64 + 1 * j.val = j.val
      rw [idxOutCol30]; omega
  rw [hemb, hO c t r j,
    inBlk30_apply V a1 c t r 0 (ValueIdx.ix2 ⟨8 * t.val + r.val, row_lt30 a1 t r⟩ (0 : Fin 1)) rfl]
  rfl

/-- THE CHUNK'S ARRAY after the region: chunkG30. -/
theorem chunk_array30 (hlt : ∀ y, (tbl30 a1 y).toNat < 100000)
    (hO : ∀ (c : Dev nD) (t : Fin (cfg30 a1).N) (r : Fin 8) (j : Fin 64), O c t (ValueIdx.ix2 r j)
      = far30 V c (ValueIdx.ix2 ⟨(tbl30 a1 (ValueIdx.ix1 ⟨8 * t.val + r.val, row_lt30 a1 t r⟩)).toNat, hlt _⟩ j)
        * inBlk30 V a1 c t (ValueIdx.ix2 r (0 : Fin 1)))
    (c : Dev nD) :
    (dat30 V a1 O c).arrAt 1 (cfg30 a1).N = chunkG30 V a1 hlt c :=
  (dat30 V a1 O c).arrAt_eq_of_cover 1 (chunkG30 V a1 hlt c) (fun t _ => flushedOut30_eq V a1 O hlt hO c t) (coverOut30 a1)

/-! ## The body's own block -/

/-- Two rows of the far operand named by the same word are the same row. -/
theorem farRow30_congr (c : Dev nD) {e e' : Fin 100000} (h : e.val = e'.val) (j : Fin 64)
    (p : (tbl30 a1 (ValueIdx.ix1 e)).toNat < 100000) (p' : (tbl30 a1 (ValueIdx.ix1 e')).toNat < 100000) :
    far30 V c (ValueIdx.ix2 ⟨(tbl30 a1 (ValueIdx.ix1 e)).toNat, p⟩ j)
      = far30 V c (ValueIdx.ix2 ⟨(tbl30 a1 (ValueIdx.ix1 e')).toNat, p'⟩ j) := by
  obtain rfl : e = e' := Fin.ext h
  rfl

/-- The body's block at point t — the gathered rows scaled by the input block — has the entries hO asks. -/
theorem bodyBlk30_apply (hlt : ∀ y, (tbl30 a1 y).toNat < 100000) (c : Dev nD) (t : Fin (cfg30 a1).N) (r : Fin 8) (j : Fin 64) :
    gatherOut (gatherG (a1.1 0) (V c main_v72) (grid30.coords t)) (iblk30 V a1 c 0 t) (ValueIdx.ix2 r j)
      = far30 V c (ValueIdx.ix2 ⟨(tbl30 a1 (ValueIdx.ix1 ⟨8 * t.val + r.val, row_lt30 a1 t r⟩)).toNat, hlt _⟩ j)
        * inBlk30 V a1 c t (ValueIdx.ix2 r (0 : Fin 1)) := by
  have hpay : gatherOut (gatherG (a1.1 0) (V c main_v72) (grid30.coords t)) (iblk30 V a1 c 0 t) (ValueIdx.ix2 r j)
      = gatherG (F := Ideal) (tbl30 a1) (far30 V c) (grid30.coords t) (ValueIdx.ix2 r j) * inBlk30 V a1 c t (ValueIdx.ix2 r (0 : Fin 1)) :=
    Cert.Value.kernel_block (by decide) (by decide) (gatherG (F := Ideal) (tbl30 a1) (far30 V c) (grid30.coords t)) (inBlk30 V a1 c t) r j
  rw [hpay, gatherG_apply (F := Ideal) (tbl30 a1) (far30 V c) (grid30.coords t) r j (hlt _)]
  refine congrArg (· * inBlk30 V a1 c t (ValueIdx.ix2 r (0 : Fin 1))) ?_
  exact farRow30_congr V a1 c (by show 8 * ((grid30.coords t) 0).val + r.val = 8 * t.val + r.val; rw [coordsVal30 a1 t]) j _ _

/-- THE CHUNK'S ARRAY after the region, the output block being the body's own. -/
theorem chunk_array30_body (hlt : ∀ y, (tbl30 a1 y).toNat < 100000) (c : Dev nD) :
    (dat30 V a1 (fun c t => gatherOut (gatherG (a1.1 0) (V c main_v72) (grid30.coords t)) (iblk30 V a1 c 0 t)) c).arrAt 1 (cfg30 a1).N
      = chunkG30 V a1 hlt c :=
  chunk_array30 V a1 _ hlt (fun c t r j => bodyBlk30_apply V a1 hlt c t r j) c

/-! ## The array as a chunk of the weighted rows -/

/-- When the far operand is the table x, the region's table the slice of the row numbers cols at 100000 k and its
    weights the slice of vals there as a column, the region's array is chunk k of the weighted rows. -/
theorem chunkG30_eq_chunkSpec (hlt : ∀ y, (tbl30 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far30 V c = x) (ht : tbl30 a1 = extractStridedSlice Cert.Value.T100000 ![off] cols hsl)
    (hw : wts30 V c = shapeCast Cert.Value.T100000x1 (extractStridedSlice Cert.Value.T100000 ![off] vals hsl) hsc) :
    chunkG30 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl30 a1 (ValueIdx.ix1 e)).toNat, hlt _⟩ (congrArg (fun T : S100000.Idx → BitVec 32 => (T (ValueIdx.ix1 e)).toNat) ht), ← hx, ← hw]
  rfl

end Chunk

/-! # Region 31 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg31 (F := Ideal)).Adm)
  (O : (c : Dev nD) → Fin (cfg31 a1).N → Vec Ideal S8x64 .f32)

/-- The grid has 12500 points. -/
theorem npoints31 : (cfg31 a1).N = 12500 := N_31

/-- A point's one coordinate is the point's number. -/
theorem coordsVal31 (t : Fin (cfg31 a1).N) : (((cfg31 a1).grid.coords t) 0).val = t.val := by
  have ht : t.val < 12500 := (npoints31 a1) ▸ t.isLt
  show t.val / grid31.stride 0 % 12500 = t.val
  rw [show grid31.stride 0 = 1 from by decide, Nat.div_one, Nat.mod_eq_of_lt ht]

/-- Both windows move with the point: block index (t, 0) at point t. -/
theorem idxInRow31 (t : Fin (cfg31 a1).N) : ((cfg31 a1).win 0).index t (0 : Fin 2) = t.val := by
  have ht : t.val < 12500 := (npoints31 a1) ▸ t.isLt
  show (BitVec.ofNat 32 (((cfg31 a1).grid.coords t) 0).val).toNat = t.val
  rw [coordsVal31, BitVec.toNat_ofNat, Nat.mod_eq_of_lt (by omega)]
theorem idxInCol31 (t : Fin (cfg31 a1).N) : ((cfg31 a1).win 0).index t (1 : Fin 2) = 0 := rfl
theorem idxOutRow31 (t : Fin (cfg31 a1).N) : ((cfg31 a1).win 1).index t (0 : Fin 2) = t.val := by
  have ht : t.val < 12500 := (npoints31 a1) ▸ t.isLt
  show (BitVec.ofNat 32 (((cfg31 a1).grid.coords t) 0).val).toNat = t.val
  rw [coordsVal31, BitVec.toNat_ofNat, Nat.mod_eq_of_lt (by omega)]
theorem idxOutCol31 (t : Fin (cfg31 a1).N) : ((cfg31 a1).win 1).index t (1 : Fin 2) = 0 := rfl

/-- The output window is written back at every point: the next point's block is another. -/
theorem flushOut31 (t : Fin (cfg31 a1).N) : ((cfg31 a1).win 1).flush t = true := by
  unfold Window.flush
  show (true && (decide (t.val + 1 = (cfg31 a1).N) || decide (∃ h : t.val + 1 < (cfg31 a1).N,
    ((cfg31 a1).win 1).index ⟨t.val + 1, h⟩ ≠ ((cfg31 a1).win 1).index t))) = true
  rw [Bool.true_and, Bool.or_eq_true, decide_eq_true_eq, decide_eq_true_eq]
  by_cases h : t.val + 1 = (cfg31 a1).N
  · exact Or.inl h
  · refine Or.inr ⟨by have := t.isLt; omega, fun e => ?_⟩
    have erow := congrFun e (0 : Fin 2)
    rw [idxOutRow31, idxOutRow31] at erow
    exact absurd erow (by show t.val + 1 ≠ t.val; omega)

/-! ## The operands at their literal types -/

/-- The table's words. -/
abbrev tbl31 : S100000.Idx → BitVec 32 := a1.1 0
/-- The far operand: the table of rows. -/
abbrev far31 (c : Dev nD) : S100000x64.Idx → EReal := V c main_v72
/-- The weights, as a column. -/
abbrev wts31 (c : Dev nD) : S100000x1.Idx → EReal := V c main_v132
/-- The input window's block at point t: eight weights. -/
abbrev inBlk31 (c : Dev nD) (t : Fin (cfg31 a1).N) : S8x1.Idx → EReal := iblk31 V a1 c 0 t

/-! ## The blocks -/

/-- Row r of the input window's block at point t is row 8 t + r of the column of weights. -/
theorem inBlk31_apply (c : Dev nD) (t : Fin (cfg31 a1).N) (r : Fin 8) (z : Fin 1) (k : S100000x1.Idx)
    (hkrow : (k 0).val = 8 * t.val + r.val) :
    inBlk31 V a1 c t (ValueIdx.ix2 r z) = wts31 V c k := by
  show wts31 V c ((((cfg31 a1).win 0).blk t).view.emb (ValueIdx.ix2 r z)) = wts31 V c k
  refine congrArg (wts31 V c) (funext fun a => Fin.ext ?_)
  match a with
  | ⟨0, _⟩ =>
    show ((cfg31 a1).win 0).index t (0 : Fin 2) * 8 + 1 * r.val = (k 0).val
    rw [idxInRow31, hkrow]; omega
  | ⟨1, _⟩ =>
    show ((cfg31 a1).win 0).index t (1 : Fin 2) * 1 + 1 * z.val = (k 1).val
    have hkcol : (k 1).val < 1 := idx2_lt1 k
    have hz : z.val < 1 := z.isLt
    rw [idxInCol31]; omega

/-- An index of the array is in point t's block iff each coordinate is in the block's range on its axis. -/
theorem mem_blkOut31 (t : Fin (cfg31 a1).N) (i : S100000x64.Idx) :
    i ∈ (((cfg31 a1).win 1).blk t).view.set ↔ ∀ a : Fin 2, ((cfg31 a1).win 1).index t a * S8x64.size a ≤ (i a).val
      ∧ (i a).val < ((cfg31 a1).win 1).index t a * S8x64.size a + S8x64.size a := by
  have hset : (((cfg31 a1).win 1).blk t).view.set = (((cfg31 a1).win 1).rect t : Rect S100000x64).set :=
    View.set_slice_whole main_v133 _
  have hmem : i ∈ (((cfg31 a1).win 1).rect t : Rect S100000x64).set ↔ ∀ a : Fin 2,
      ((cfg31 a1).win 1).index t a * S8x64.size a ≤ (i a).val
        ∧ (i a).val < ((cfg31 a1).win 1).index t a * S8x64.size a + S8x64.size a := Rect.mem_set_unit
  exact (Finset.ext_iff.mp hset i).trans hmem

/-- Every index of the array is in the block of the point its row over eight names. -/
theorem coverOut31 (i : S100000x64.Idx) :
    ∃ t : Fin (cfg31 a1).N, ((cfg31 a1).win 1).flush t = true ∧ i ∈ (((cfg31 a1).win 1).blk t).view.set := by
  have hirow : (i 0).val < 100000 := idx2_lt0 i
  have hicol : (i 1).val < 64 := idx2_lt1 i
  obtain ⟨t, ht⟩ : ∃ t : Fin (cfg31 a1).N, t.val = (i 0).val / 8 := ⟨⟨(i 0).val / 8, by rw [npoints31]; omega⟩, rfl⟩
  refine ⟨t, flushOut31 a1 t, ?_⟩
  rw [mem_blkOut31]
  intro a
  match a with
  | ⟨0, _⟩ =>
    show ((cfg31 a1).win 1).index t (0 : Fin 2) * 8 ≤ (i 0).val ∧ (i 0).val < ((cfg31 a1).win 1).index t (0 : Fin 2) * 8 + 8
    rw [idxOutRow31, ht]; omega
  | ⟨1, _⟩ =>
    show ((cfg31 a1).win 1).index t (1 : Fin 2) * 64 ≤ (i 1).val ∧ (i 1).val < ((cfg31 a1).win 1).index t (1 : Fin 2) * 64 + 64
    rw [idxOutCol31]; omega

/-! ## The array -/

/-- One weighted row at one column: the table row the e-th word names, at column j, times the e-th weight. -/
def chunkRow31 (hlt : ∀ y, (tbl31 a1 y).toNat < 100000) (c : Dev nD) (e : Fin 100000) (j : Fin 64) : EReal :=
  far31 V c (ValueIdx.ix2 ⟨(tbl31 a1 (ValueIdx.ix1 e)).toNat, hlt _⟩ j) * wts31 V c (ValueIdx.ix2 e (0 : Fin 1))

/-- The chunk's array as one function of the region's operands. -/
def chunkG31 (hlt : ∀ y, (tbl31 a1 y).toNat < 100000) (c : Dev nD) : S100000x64.Idx → EReal :=
  fun i => chunkRow31 V a1 hlt c (i 0) (i 1)

/-- Row r of point t's block lies in the table. -/
theorem row_lt31 (t : Fin (cfg31 a1).N) (r : Fin 8) : 8 * t.val + r.val < 100000 := by
  have ht : t.val < 12500 := (npoints31 a1) ▸ t.isLt
  have := r.isLt; omega

/-- WHAT POINT t WRITES BACK is block t of the chunk's array, when the body leaves in the output window's buffer,
    at (r, j), the table row that word 8 t + r names at column j times the input block's weight at (r, 0). -/
theorem flushedOut31_eq (hlt : ∀ y, (tbl31 a1 y).toNat < 100000)
    (hO : ∀ (c : Dev nD) (t : Fin (cfg31 a1).N) (r : Fin 8) (j : Fin 64), O c t (ValueIdx.ix2 r j)
      = far31 V c (ValueIdx.ix2 ⟨(tbl31 a1 (ValueIdx.ix1 ⟨8 * t.val + r.val, row_lt31 a1 t r⟩)).toNat, hlt _⟩ j)
        * inBlk31 V a1 c t (ValueIdx.ix2 r (0 : Fin 1)))
    (c : Dev nD) (t : Fin (cfg31 a1).N) :
    (dat31 V a1 O c).flushed 1 t = (((cfg31 a1).win 1).blk t).view.read (Elt Ideal) (chunkG31 V a1 hlt c) := by
  show ((cfg31 a1).win 1).cut ((cfg31 a1).grid.coords t) ((dat31 V a1 O c).after 1 t) = _
  rw [afterOut31]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG31 V a1 hlt c ((((cfg31 a1).win 1).blk t).view.emb (ValueIdx.ix2 r j))
  have hemb : (((cfg31 a1).win 1).blk t).view.emb (ValueIdx.ix2 r j)
      = (ValueIdx.ix2 ⟨8 * t.val + r.val, row_lt31 a1 t r⟩ j : S100000x64.Idx) := by
    funext a; apply Fin.ext
    match a with
    | ⟨0, _⟩ =>
      show ((cfg31 a1).win 1).index t (0 : Fin 2) * 8 + 1 * r.val = 8 * t.val + r.val
      rw [idxOutRow31]; omega
    | ⟨1, _⟩ =>
      show ((cfg31 a1).win 1).index t (1 : Fin 2) * 64 + 1 * j.val = j.val
      rw [idxOutCol31]; omega
  rw [hemb, hO c t r j,
    inBlk31_apply V a1 c t r 0 (ValueIdx.ix2 ⟨8 * t.val + r.val, row_lt31 a1 t r⟩ (0 : Fin 1)) rfl]
  rfl

/-- THE CHUNK'S ARRAY after the region: chunkG31. -/
theorem chunk_array31 (hlt : ∀ y, (tbl31 a1 y).toNat < 100000)
    (hO : ∀ (c : Dev nD) (t : Fin (cfg31 a1).N) (r : Fin 8) (j : Fin 64), O c t (ValueIdx.ix2 r j)
      = far31 V c (ValueIdx.ix2 ⟨(tbl31 a1 (ValueIdx.ix1 ⟨8 * t.val + r.val, row_lt31 a1 t r⟩)).toNat, hlt _⟩ j)
        * inBlk31 V a1 c t (ValueIdx.ix2 r (0 : Fin 1)))
    (c : Dev nD) :
    (dat31 V a1 O c).arrAt 1 (cfg31 a1).N = chunkG31 V a1 hlt c :=
  (dat31 V a1 O c).arrAt_eq_of_cover 1 (chunkG31 V a1 hlt c) (fun t _ => flushedOut31_eq V a1 O hlt hO c t) (coverOut31 a1)

/-! ## The body's own block -/

/-- Two rows of the far operand named by the same word are the same row. -/
theorem farRow31_congr (c : Dev nD) {e e' : Fin 100000} (h : e.val = e'.val) (j : Fin 64)
    (p : (tbl31 a1 (ValueIdx.ix1 e)).toNat < 100000) (p' : (tbl31 a1 (ValueIdx.ix1 e')).toNat < 100000) :
    far31 V c (ValueIdx.ix2 ⟨(tbl31 a1 (ValueIdx.ix1 e)).toNat, p⟩ j)
      = far31 V c (ValueIdx.ix2 ⟨(tbl31 a1 (ValueIdx.ix1 e')).toNat, p'⟩ j) := by
  obtain rfl : e = e' := Fin.ext h
  rfl

/-- The body's block at point t — the gathered rows scaled by the input block — has the entries hO asks. -/
theorem bodyBlk31_apply (hlt : ∀ y, (tbl31 a1 y).toNat < 100000) (c : Dev nD) (t : Fin (cfg31 a1).N) (r : Fin 8) (j : Fin 64) :
    gatherOut (gatherG (a1.1 0) (V c main_v72) (grid31.coords t)) (iblk31 V a1 c 0 t) (ValueIdx.ix2 r j)
      = far31 V c (ValueIdx.ix2 ⟨(tbl31 a1 (ValueIdx.ix1 ⟨8 * t.val + r.val, row_lt31 a1 t r⟩)).toNat, hlt _⟩ j)
        * inBlk31 V a1 c t (ValueIdx.ix2 r (0 : Fin 1)) := by
  have hpay : gatherOut (gatherG (a1.1 0) (V c main_v72) (grid31.coords t)) (iblk31 V a1 c 0 t) (ValueIdx.ix2 r j)
      = gatherG (F := Ideal) (tbl31 a1) (far31 V c) (grid31.coords t) (ValueIdx.ix2 r j) * inBlk31 V a1 c t (ValueIdx.ix2 r (0 : Fin 1)) :=
    Cert.Value.kernel_block (by decide) (by decide) (gatherG (F := Ideal) (tbl31 a1) (far31 V c) (grid31.coords t)) (inBlk31 V a1 c t) r j
  rw [hpay, gatherG_apply (F := Ideal) (tbl31 a1) (far31 V c) (grid31.coords t) r j (hlt _)]
  refine congrArg (· * inBlk31 V a1 c t (ValueIdx.ix2 r (0 : Fin 1))) ?_
  exact farRow31_congr V a1 c (by show 8 * ((grid31.coords t) 0).val + r.val = 8 * t.val + r.val; rw [coordsVal31 a1 t]) j _ _

/-- THE CHUNK'S ARRAY after the region, the output block being the body's own. -/
theorem chunk_array31_body (hlt : ∀ y, (tbl31 a1 y).toNat < 100000) (c : Dev nD) :
    (dat31 V a1 (fun c t => gatherOut (gatherG (a1.1 0) (V c main_v72) (grid31.coords t)) (iblk31 V a1 c 0 t)) c).arrAt 1 (cfg31 a1).N
      = chunkG31 V a1 hlt c :=
  chunk_array31 V a1 _ hlt (fun c t r j => bodyBlk31_apply V a1 hlt c t r j) c

/-! ## The array as a chunk of the weighted rows -/

/-- When the far operand is the table x, the region's table the slice of the row numbers cols at 100000 k and its
    weights the slice of vals there as a column, the region's array is chunk k of the weighted rows. -/
theorem chunkG31_eq_chunkSpec (hlt : ∀ y, (tbl31 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far31 V c = x) (ht : tbl31 a1 = extractStridedSlice Cert.Value.T100000 ![off] cols hsl)
    (hw : wts31 V c = shapeCast Cert.Value.T100000x1 (extractStridedSlice Cert.Value.T100000 ![off] vals hsl) hsc) :
    chunkG31 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl31 a1 (ValueIdx.ix1 e)).toNat, hlt _⟩ (congrArg (fun T : S100000.Idx → BitVec 32 => (T (ValueIdx.ix1 e)).toNat) ht), ← hx, ← hw]
  rfl

end Chunk

/-! # Region 32 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg32 (F := Ideal)).Adm)
  (O : (c : Dev nD) → Fin (cfg32 a1).N → Vec Ideal S8x64 .f32)

/-- The grid has 12500 points. -/
theorem npoints32 : (cfg32 a1).N = 12500 := N_32

/-- A point's one coordinate is the point's number. -/
theorem coordsVal32 (t : Fin (cfg32 a1).N) : (((cfg32 a1).grid.coords t) 0).val = t.val := by
  have ht : t.val < 12500 := (npoints32 a1) ▸ t.isLt
  show t.val / grid32.stride 0 % 12500 = t.val
  rw [show grid32.stride 0 = 1 from by decide, Nat.div_one, Nat.mod_eq_of_lt ht]

/-- Both windows move with the point: block index (t, 0) at point t. -/
theorem idxInRow32 (t : Fin (cfg32 a1).N) : ((cfg32 a1).win 0).index t (0 : Fin 2) = t.val := by
  have ht : t.val < 12500 := (npoints32 a1) ▸ t.isLt
  show (BitVec.ofNat 32 (((cfg32 a1).grid.coords t) 0).val).toNat = t.val
  rw [coordsVal32, BitVec.toNat_ofNat, Nat.mod_eq_of_lt (by omega)]
theorem idxInCol32 (t : Fin (cfg32 a1).N) : ((cfg32 a1).win 0).index t (1 : Fin 2) = 0 := rfl
theorem idxOutRow32 (t : Fin (cfg32 a1).N) : ((cfg32 a1).win 1).index t (0 : Fin 2) = t.val := by
  have ht : t.val < 12500 := (npoints32 a1) ▸ t.isLt
  show (BitVec.ofNat 32 (((cfg32 a1).grid.coords t) 0).val).toNat = t.val
  rw [coordsVal32, BitVec.toNat_ofNat, Nat.mod_eq_of_lt (by omega)]
theorem idxOutCol32 (t : Fin (cfg32 a1).N) : ((cfg32 a1).win 1).index t (1 : Fin 2) = 0 := rfl

/-- The output window is written back at every point: the next point's block is another. -/
theorem flushOut32 (t : Fin (cfg32 a1).N) : ((cfg32 a1).win 1).flush t = true := by
  unfold Window.flush
  show (true && (decide (t.val + 1 = (cfg32 a1).N) || decide (∃ h : t.val + 1 < (cfg32 a1).N,
    ((cfg32 a1).win 1).index ⟨t.val + 1, h⟩ ≠ ((cfg32 a1).win 1).index t))) = true
  rw [Bool.true_and, Bool.or_eq_true, decide_eq_true_eq, decide_eq_true_eq]
  by_cases h : t.val + 1 = (cfg32 a1).N
  · exact Or.inl h
  · refine Or.inr ⟨by have := t.isLt; omega, fun e => ?_⟩
    have erow := congrFun e (0 : Fin 2)
    rw [idxOutRow32, idxOutRow32] at erow
    exact absurd erow (by show t.val + 1 ≠ t.val; omega)

/-! ## The operands at their literal types -/

/-- The table's words. -/
abbrev tbl32 : S100000.Idx → BitVec 32 := a1.1 0
/-- The far operand: the table of rows. -/
abbrev far32 (c : Dev nD) : S100000x64.Idx → EReal := V c main_v72
/-- The weights, as a column. -/
abbrev wts32 (c : Dev nD) : S100000x1.Idx → EReal := V c main_v136
/-- The input window's block at point t: eight weights. -/
abbrev inBlk32 (c : Dev nD) (t : Fin (cfg32 a1).N) : S8x1.Idx → EReal := iblk32 V a1 c 0 t

/-! ## The blocks -/

/-- Row r of the input window's block at point t is row 8 t + r of the column of weights. -/
theorem inBlk32_apply (c : Dev nD) (t : Fin (cfg32 a1).N) (r : Fin 8) (z : Fin 1) (k : S100000x1.Idx)
    (hkrow : (k 0).val = 8 * t.val + r.val) :
    inBlk32 V a1 c t (ValueIdx.ix2 r z) = wts32 V c k := by
  show wts32 V c ((((cfg32 a1).win 0).blk t).view.emb (ValueIdx.ix2 r z)) = wts32 V c k
  refine congrArg (wts32 V c) (funext fun a => Fin.ext ?_)
  match a with
  | ⟨0, _⟩ =>
    show ((cfg32 a1).win 0).index t (0 : Fin 2) * 8 + 1 * r.val = (k 0).val
    rw [idxInRow32, hkrow]; omega
  | ⟨1, _⟩ =>
    show ((cfg32 a1).win 0).index t (1 : Fin 2) * 1 + 1 * z.val = (k 1).val
    have hkcol : (k 1).val < 1 := idx2_lt1 k
    have hz : z.val < 1 := z.isLt
    rw [idxInCol32]; omega

/-- An index of the array is in point t's block iff each coordinate is in the block's range on its axis. -/
theorem mem_blkOut32 (t : Fin (cfg32 a1).N) (i : S100000x64.Idx) :
    i ∈ (((cfg32 a1).win 1).blk t).view.set ↔ ∀ a : Fin 2, ((cfg32 a1).win 1).index t a * S8x64.size a ≤ (i a).val
      ∧ (i a).val < ((cfg32 a1).win 1).index t a * S8x64.size a + S8x64.size a := by
  have hset : (((cfg32 a1).win 1).blk t).view.set = (((cfg32 a1).win 1).rect t : Rect S100000x64).set :=
    View.set_slice_whole main_v137 _
  have hmem : i ∈ (((cfg32 a1).win 1).rect t : Rect S100000x64).set ↔ ∀ a : Fin 2,
      ((cfg32 a1).win 1).index t a * S8x64.size a ≤ (i a).val
        ∧ (i a).val < ((cfg32 a1).win 1).index t a * S8x64.size a + S8x64.size a := Rect.mem_set_unit
  exact (Finset.ext_iff.mp hset i).trans hmem

/-- Every index of the array is in the block of the point its row over eight names. -/
theorem coverOut32 (i : S100000x64.Idx) :
    ∃ t : Fin (cfg32 a1).N, ((cfg32 a1).win 1).flush t = true ∧ i ∈ (((cfg32 a1).win 1).blk t).view.set := by
  have hirow : (i 0).val < 100000 := idx2_lt0 i
  have hicol : (i 1).val < 64 := idx2_lt1 i
  obtain ⟨t, ht⟩ : ∃ t : Fin (cfg32 a1).N, t.val = (i 0).val / 8 := ⟨⟨(i 0).val / 8, by rw [npoints32]; omega⟩, rfl⟩
  refine ⟨t, flushOut32 a1 t, ?_⟩
  rw [mem_blkOut32]
  intro a
  match a with
  | ⟨0, _⟩ =>
    show ((cfg32 a1).win 1).index t (0 : Fin 2) * 8 ≤ (i 0).val ∧ (i 0).val < ((cfg32 a1).win 1).index t (0 : Fin 2) * 8 + 8
    rw [idxOutRow32, ht]; omega
  | ⟨1, _⟩ =>
    show ((cfg32 a1).win 1).index t (1 : Fin 2) * 64 ≤ (i 1).val ∧ (i 1).val < ((cfg32 a1).win 1).index t (1 : Fin 2) * 64 + 64
    rw [idxOutCol32]; omega

/-! ## The array -/

/-- One weighted row at one column: the table row the e-th word names, at column j, times the e-th weight. -/
def chunkRow32 (hlt : ∀ y, (tbl32 a1 y).toNat < 100000) (c : Dev nD) (e : Fin 100000) (j : Fin 64) : EReal :=
  far32 V c (ValueIdx.ix2 ⟨(tbl32 a1 (ValueIdx.ix1 e)).toNat, hlt _⟩ j) * wts32 V c (ValueIdx.ix2 e (0 : Fin 1))

/-- The chunk's array as one function of the region's operands. -/
def chunkG32 (hlt : ∀ y, (tbl32 a1 y).toNat < 100000) (c : Dev nD) : S100000x64.Idx → EReal :=
  fun i => chunkRow32 V a1 hlt c (i 0) (i 1)

/-- Row r of point t's block lies in the table. -/
theorem row_lt32 (t : Fin (cfg32 a1).N) (r : Fin 8) : 8 * t.val + r.val < 100000 := by
  have ht : t.val < 12500 := (npoints32 a1) ▸ t.isLt
  have := r.isLt; omega

/-- WHAT POINT t WRITES BACK is block t of the chunk's array, when the body leaves in the output window's buffer,
    at (r, j), the table row that word 8 t + r names at column j times the input block's weight at (r, 0). -/
theorem flushedOut32_eq (hlt : ∀ y, (tbl32 a1 y).toNat < 100000)
    (hO : ∀ (c : Dev nD) (t : Fin (cfg32 a1).N) (r : Fin 8) (j : Fin 64), O c t (ValueIdx.ix2 r j)
      = far32 V c (ValueIdx.ix2 ⟨(tbl32 a1 (ValueIdx.ix1 ⟨8 * t.val + r.val, row_lt32 a1 t r⟩)).toNat, hlt _⟩ j)
        * inBlk32 V a1 c t (ValueIdx.ix2 r (0 : Fin 1)))
    (c : Dev nD) (t : Fin (cfg32 a1).N) :
    (dat32 V a1 O c).flushed 1 t = (((cfg32 a1).win 1).blk t).view.read (Elt Ideal) (chunkG32 V a1 hlt c) := by
  show ((cfg32 a1).win 1).cut ((cfg32 a1).grid.coords t) ((dat32 V a1 O c).after 1 t) = _
  rw [afterOut32]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG32 V a1 hlt c ((((cfg32 a1).win 1).blk t).view.emb (ValueIdx.ix2 r j))
  have hemb : (((cfg32 a1).win 1).blk t).view.emb (ValueIdx.ix2 r j)
      = (ValueIdx.ix2 ⟨8 * t.val + r.val, row_lt32 a1 t r⟩ j : S100000x64.Idx) := by
    funext a; apply Fin.ext
    match a with
    | ⟨0, _⟩ =>
      show ((cfg32 a1).win 1).index t (0 : Fin 2) * 8 + 1 * r.val = 8 * t.val + r.val
      rw [idxOutRow32]; omega
    | ⟨1, _⟩ =>
      show ((cfg32 a1).win 1).index t (1 : Fin 2) * 64 + 1 * j.val = j.val
      rw [idxOutCol32]; omega
  rw [hemb, hO c t r j,
    inBlk32_apply V a1 c t r 0 (ValueIdx.ix2 ⟨8 * t.val + r.val, row_lt32 a1 t r⟩ (0 : Fin 1)) rfl]
  rfl

/-- THE CHUNK'S ARRAY after the region: chunkG32. -/
theorem chunk_array32 (hlt : ∀ y, (tbl32 a1 y).toNat < 100000)
    (hO : ∀ (c : Dev nD) (t : Fin (cfg32 a1).N) (r : Fin 8) (j : Fin 64), O c t (ValueIdx.ix2 r j)
      = far32 V c (ValueIdx.ix2 ⟨(tbl32 a1 (ValueIdx.ix1 ⟨8 * t.val + r.val, row_lt32 a1 t r⟩)).toNat, hlt _⟩ j)
        * inBlk32 V a1 c t (ValueIdx.ix2 r (0 : Fin 1)))
    (c : Dev nD) :
    (dat32 V a1 O c).arrAt 1 (cfg32 a1).N = chunkG32 V a1 hlt c :=
  (dat32 V a1 O c).arrAt_eq_of_cover 1 (chunkG32 V a1 hlt c) (fun t _ => flushedOut32_eq V a1 O hlt hO c t) (coverOut32 a1)

/-! ## The body's own block -/

/-- Two rows of the far operand named by the same word are the same row. -/
theorem farRow32_congr (c : Dev nD) {e e' : Fin 100000} (h : e.val = e'.val) (j : Fin 64)
    (p : (tbl32 a1 (ValueIdx.ix1 e)).toNat < 100000) (p' : (tbl32 a1 (ValueIdx.ix1 e')).toNat < 100000) :
    far32 V c (ValueIdx.ix2 ⟨(tbl32 a1 (ValueIdx.ix1 e)).toNat, p⟩ j)
      = far32 V c (ValueIdx.ix2 ⟨(tbl32 a1 (ValueIdx.ix1 e')).toNat, p'⟩ j) := by
  obtain rfl : e = e' := Fin.ext h
  rfl

/-- The body's block at point t — the gathered rows scaled by the input block — has the entries hO asks. -/
theorem bodyBlk32_apply (hlt : ∀ y, (tbl32 a1 y).toNat < 100000) (c : Dev nD) (t : Fin (cfg32 a1).N) (r : Fin 8) (j : Fin 64) :
    gatherOut (gatherG (a1.1 0) (V c main_v72) (grid32.coords t)) (iblk32 V a1 c 0 t) (ValueIdx.ix2 r j)
      = far32 V c (ValueIdx.ix2 ⟨(tbl32 a1 (ValueIdx.ix1 ⟨8 * t.val + r.val, row_lt32 a1 t r⟩)).toNat, hlt _⟩ j)
        * inBlk32 V a1 c t (ValueIdx.ix2 r (0 : Fin 1)) := by
  have hpay : gatherOut (gatherG (a1.1 0) (V c main_v72) (grid32.coords t)) (iblk32 V a1 c 0 t) (ValueIdx.ix2 r j)
      = gatherG (F := Ideal) (tbl32 a1) (far32 V c) (grid32.coords t) (ValueIdx.ix2 r j) * inBlk32 V a1 c t (ValueIdx.ix2 r (0 : Fin 1)) :=
    Cert.Value.kernel_block (by decide) (by decide) (gatherG (F := Ideal) (tbl32 a1) (far32 V c) (grid32.coords t)) (inBlk32 V a1 c t) r j
  rw [hpay, gatherG_apply (F := Ideal) (tbl32 a1) (far32 V c) (grid32.coords t) r j (hlt _)]
  refine congrArg (· * inBlk32 V a1 c t (ValueIdx.ix2 r (0 : Fin 1))) ?_
  exact farRow32_congr V a1 c (by show 8 * ((grid32.coords t) 0).val + r.val = 8 * t.val + r.val; rw [coordsVal32 a1 t]) j _ _

/-- THE CHUNK'S ARRAY after the region, the output block being the body's own. -/
theorem chunk_array32_body (hlt : ∀ y, (tbl32 a1 y).toNat < 100000) (c : Dev nD) :
    (dat32 V a1 (fun c t => gatherOut (gatherG (a1.1 0) (V c main_v72) (grid32.coords t)) (iblk32 V a1 c 0 t)) c).arrAt 1 (cfg32 a1).N
      = chunkG32 V a1 hlt c :=
  chunk_array32 V a1 _ hlt (fun c t r j => bodyBlk32_apply V a1 hlt c t r j) c

/-! ## The array as a chunk of the weighted rows -/

/-- When the far operand is the table x, the region's table the slice of the row numbers cols at 100000 k and its
    weights the slice of vals there as a column, the region's array is chunk k of the weighted rows. -/
theorem chunkG32_eq_chunkSpec (hlt : ∀ y, (tbl32 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far32 V c = x) (ht : tbl32 a1 = extractStridedSlice Cert.Value.T100000 ![off] cols hsl)
    (hw : wts32 V c = shapeCast Cert.Value.T100000x1 (extractStridedSlice Cert.Value.T100000 ![off] vals hsl) hsc) :
    chunkG32 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl32 a1 (ValueIdx.ix1 e)).toNat, hlt _⟩ (congrArg (fun T : S100000.Idx → BitVec 32 => (T (ValueIdx.ix1 e)).toNat) ht), ← hx, ← hw]
  rfl

end Chunk

/-! # Region 33 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg33 (F := Ideal)).Adm)
  (O : (c : Dev nD) → Fin (cfg33 a1).N → Vec Ideal S8x64 .f32)

/-- The grid has 12500 points. -/
theorem npoints33 : (cfg33 a1).N = 12500 := N_33

/-- A point's one coordinate is the point's number. -/
theorem coordsVal33 (t : Fin (cfg33 a1).N) : (((cfg33 a1).grid.coords t) 0).val = t.val := by
  have ht : t.val < 12500 := (npoints33 a1) ▸ t.isLt
  show t.val / grid33.stride 0 % 12500 = t.val
  rw [show grid33.stride 0 = 1 from by decide, Nat.div_one, Nat.mod_eq_of_lt ht]

/-- Both windows move with the point: block index (t, 0) at point t. -/
theorem idxInRow33 (t : Fin (cfg33 a1).N) : ((cfg33 a1).win 0).index t (0 : Fin 2) = t.val := by
  have ht : t.val < 12500 := (npoints33 a1) ▸ t.isLt
  show (BitVec.ofNat 32 (((cfg33 a1).grid.coords t) 0).val).toNat = t.val
  rw [coordsVal33, BitVec.toNat_ofNat, Nat.mod_eq_of_lt (by omega)]
theorem idxInCol33 (t : Fin (cfg33 a1).N) : ((cfg33 a1).win 0).index t (1 : Fin 2) = 0 := rfl
theorem idxOutRow33 (t : Fin (cfg33 a1).N) : ((cfg33 a1).win 1).index t (0 : Fin 2) = t.val := by
  have ht : t.val < 12500 := (npoints33 a1) ▸ t.isLt
  show (BitVec.ofNat 32 (((cfg33 a1).grid.coords t) 0).val).toNat = t.val
  rw [coordsVal33, BitVec.toNat_ofNat, Nat.mod_eq_of_lt (by omega)]
theorem idxOutCol33 (t : Fin (cfg33 a1).N) : ((cfg33 a1).win 1).index t (1 : Fin 2) = 0 := rfl

/-- The output window is written back at every point: the next point's block is another. -/
theorem flushOut33 (t : Fin (cfg33 a1).N) : ((cfg33 a1).win 1).flush t = true := by
  unfold Window.flush
  show (true && (decide (t.val + 1 = (cfg33 a1).N) || decide (∃ h : t.val + 1 < (cfg33 a1).N,
    ((cfg33 a1).win 1).index ⟨t.val + 1, h⟩ ≠ ((cfg33 a1).win 1).index t))) = true
  rw [Bool.true_and, Bool.or_eq_true, decide_eq_true_eq, decide_eq_true_eq]
  by_cases h : t.val + 1 = (cfg33 a1).N
  · exact Or.inl h
  · refine Or.inr ⟨by have := t.isLt; omega, fun e => ?_⟩
    have erow := congrFun e (0 : Fin 2)
    rw [idxOutRow33, idxOutRow33] at erow
    exact absurd erow (by show t.val + 1 ≠ t.val; omega)

/-! ## The operands at their literal types -/

/-- The table's words. -/
abbrev tbl33 : S100000.Idx → BitVec 32 := a1.1 0
/-- The far operand: the table of rows. -/
abbrev far33 (c : Dev nD) : S100000x64.Idx → EReal := V c main_v141
/-- The weights, as a column. -/
abbrev wts33 (c : Dev nD) : S100000x1.Idx → EReal := V c main_v145
/-- The input window's block at point t: eight weights. -/
abbrev inBlk33 (c : Dev nD) (t : Fin (cfg33 a1).N) : S8x1.Idx → EReal := iblk33 V a1 c 0 t

/-! ## The blocks -/

/-- Row r of the input window's block at point t is row 8 t + r of the column of weights. -/
theorem inBlk33_apply (c : Dev nD) (t : Fin (cfg33 a1).N) (r : Fin 8) (z : Fin 1) (k : S100000x1.Idx)
    (hkrow : (k 0).val = 8 * t.val + r.val) :
    inBlk33 V a1 c t (ValueIdx.ix2 r z) = wts33 V c k := by
  show wts33 V c ((((cfg33 a1).win 0).blk t).view.emb (ValueIdx.ix2 r z)) = wts33 V c k
  refine congrArg (wts33 V c) (funext fun a => Fin.ext ?_)
  match a with
  | ⟨0, _⟩ =>
    show ((cfg33 a1).win 0).index t (0 : Fin 2) * 8 + 1 * r.val = (k 0).val
    rw [idxInRow33, hkrow]; omega
  | ⟨1, _⟩ =>
    show ((cfg33 a1).win 0).index t (1 : Fin 2) * 1 + 1 * z.val = (k 1).val
    have hkcol : (k 1).val < 1 := idx2_lt1 k
    have hz : z.val < 1 := z.isLt
    rw [idxInCol33]; omega

/-- An index of the array is in point t's block iff each coordinate is in the block's range on its axis. -/
theorem mem_blkOut33 (t : Fin (cfg33 a1).N) (i : S100000x64.Idx) :
    i ∈ (((cfg33 a1).win 1).blk t).view.set ↔ ∀ a : Fin 2, ((cfg33 a1).win 1).index t a * S8x64.size a ≤ (i a).val
      ∧ (i a).val < ((cfg33 a1).win 1).index t a * S8x64.size a + S8x64.size a := by
  have hset : (((cfg33 a1).win 1).blk t).view.set = (((cfg33 a1).win 1).rect t : Rect S100000x64).set :=
    View.set_slice_whole main_v146 _
  have hmem : i ∈ (((cfg33 a1).win 1).rect t : Rect S100000x64).set ↔ ∀ a : Fin 2,
      ((cfg33 a1).win 1).index t a * S8x64.size a ≤ (i a).val
        ∧ (i a).val < ((cfg33 a1).win 1).index t a * S8x64.size a + S8x64.size a := Rect.mem_set_unit
  exact (Finset.ext_iff.mp hset i).trans hmem

/-- Every index of the array is in the block of the point its row over eight names. -/
theorem coverOut33 (i : S100000x64.Idx) :
    ∃ t : Fin (cfg33 a1).N, ((cfg33 a1).win 1).flush t = true ∧ i ∈ (((cfg33 a1).win 1).blk t).view.set := by
  have hirow : (i 0).val < 100000 := idx2_lt0 i
  have hicol : (i 1).val < 64 := idx2_lt1 i
  obtain ⟨t, ht⟩ : ∃ t : Fin (cfg33 a1).N, t.val = (i 0).val / 8 := ⟨⟨(i 0).val / 8, by rw [npoints33]; omega⟩, rfl⟩
  refine ⟨t, flushOut33 a1 t, ?_⟩
  rw [mem_blkOut33]
  intro a
  match a with
  | ⟨0, _⟩ =>
    show ((cfg33 a1).win 1).index t (0 : Fin 2) * 8 ≤ (i 0).val ∧ (i 0).val < ((cfg33 a1).win 1).index t (0 : Fin 2) * 8 + 8
    rw [idxOutRow33, ht]; omega
  | ⟨1, _⟩ =>
    show ((cfg33 a1).win 1).index t (1 : Fin 2) * 64 ≤ (i 1).val ∧ (i 1).val < ((cfg33 a1).win 1).index t (1 : Fin 2) * 64 + 64
    rw [idxOutCol33]; omega

/-! ## The array -/

/-- One weighted row at one column: the table row the e-th word names, at column j, times the e-th weight. -/
def chunkRow33 (hlt : ∀ y, (tbl33 a1 y).toNat < 100000) (c : Dev nD) (e : Fin 100000) (j : Fin 64) : EReal :=
  far33 V c (ValueIdx.ix2 ⟨(tbl33 a1 (ValueIdx.ix1 e)).toNat, hlt _⟩ j) * wts33 V c (ValueIdx.ix2 e (0 : Fin 1))

/-- The chunk's array as one function of the region's operands. -/
def chunkG33 (hlt : ∀ y, (tbl33 a1 y).toNat < 100000) (c : Dev nD) : S100000x64.Idx → EReal :=
  fun i => chunkRow33 V a1 hlt c (i 0) (i 1)

/-- Row r of point t's block lies in the table. -/
theorem row_lt33 (t : Fin (cfg33 a1).N) (r : Fin 8) : 8 * t.val + r.val < 100000 := by
  have ht : t.val < 12500 := (npoints33 a1) ▸ t.isLt
  have := r.isLt; omega

/-- WHAT POINT t WRITES BACK is block t of the chunk's array, when the body leaves in the output window's buffer,
    at (r, j), the table row that word 8 t + r names at column j times the input block's weight at (r, 0). -/
theorem flushedOut33_eq (hlt : ∀ y, (tbl33 a1 y).toNat < 100000)
    (hO : ∀ (c : Dev nD) (t : Fin (cfg33 a1).N) (r : Fin 8) (j : Fin 64), O c t (ValueIdx.ix2 r j)
      = far33 V c (ValueIdx.ix2 ⟨(tbl33 a1 (ValueIdx.ix1 ⟨8 * t.val + r.val, row_lt33 a1 t r⟩)).toNat, hlt _⟩ j)
        * inBlk33 V a1 c t (ValueIdx.ix2 r (0 : Fin 1)))
    (c : Dev nD) (t : Fin (cfg33 a1).N) :
    (dat33 V a1 O c).flushed 1 t = (((cfg33 a1).win 1).blk t).view.read (Elt Ideal) (chunkG33 V a1 hlt c) := by
  show ((cfg33 a1).win 1).cut ((cfg33 a1).grid.coords t) ((dat33 V a1 O c).after 1 t) = _
  rw [afterOut33]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG33 V a1 hlt c ((((cfg33 a1).win 1).blk t).view.emb (ValueIdx.ix2 r j))
  have hemb : (((cfg33 a1).win 1).blk t).view.emb (ValueIdx.ix2 r j)
      = (ValueIdx.ix2 ⟨8 * t.val + r.val, row_lt33 a1 t r⟩ j : S100000x64.Idx) := by
    funext a; apply Fin.ext
    match a with
    | ⟨0, _⟩ =>
      show ((cfg33 a1).win 1).index t (0 : Fin 2) * 8 + 1 * r.val = 8 * t.val + r.val
      rw [idxOutRow33]; omega
    | ⟨1, _⟩ =>
      show ((cfg33 a1).win 1).index t (1 : Fin 2) * 64 + 1 * j.val = j.val
      rw [idxOutCol33]; omega
  rw [hemb, hO c t r j,
    inBlk33_apply V a1 c t r 0 (ValueIdx.ix2 ⟨8 * t.val + r.val, row_lt33 a1 t r⟩ (0 : Fin 1)) rfl]
  rfl

/-- THE CHUNK'S ARRAY after the region: chunkG33. -/
theorem chunk_array33 (hlt : ∀ y, (tbl33 a1 y).toNat < 100000)
    (hO : ∀ (c : Dev nD) (t : Fin (cfg33 a1).N) (r : Fin 8) (j : Fin 64), O c t (ValueIdx.ix2 r j)
      = far33 V c (ValueIdx.ix2 ⟨(tbl33 a1 (ValueIdx.ix1 ⟨8 * t.val + r.val, row_lt33 a1 t r⟩)).toNat, hlt _⟩ j)
        * inBlk33 V a1 c t (ValueIdx.ix2 r (0 : Fin 1)))
    (c : Dev nD) :
    (dat33 V a1 O c).arrAt 1 (cfg33 a1).N = chunkG33 V a1 hlt c :=
  (dat33 V a1 O c).arrAt_eq_of_cover 1 (chunkG33 V a1 hlt c) (fun t _ => flushedOut33_eq V a1 O hlt hO c t) (coverOut33 a1)

/-! ## The body's own block -/

/-- Two rows of the far operand named by the same word are the same row. -/
theorem farRow33_congr (c : Dev nD) {e e' : Fin 100000} (h : e.val = e'.val) (j : Fin 64)
    (p : (tbl33 a1 (ValueIdx.ix1 e)).toNat < 100000) (p' : (tbl33 a1 (ValueIdx.ix1 e')).toNat < 100000) :
    far33 V c (ValueIdx.ix2 ⟨(tbl33 a1 (ValueIdx.ix1 e)).toNat, p⟩ j)
      = far33 V c (ValueIdx.ix2 ⟨(tbl33 a1 (ValueIdx.ix1 e')).toNat, p'⟩ j) := by
  obtain rfl : e = e' := Fin.ext h
  rfl

/-- The body's block at point t — the gathered rows scaled by the input block — has the entries hO asks. -/
theorem bodyBlk33_apply (hlt : ∀ y, (tbl33 a1 y).toNat < 100000) (c : Dev nD) (t : Fin (cfg33 a1).N) (r : Fin 8) (j : Fin 64) :
    gatherOut (gatherG (a1.1 0) (V c main_v141) (grid33.coords t)) (iblk33 V a1 c 0 t) (ValueIdx.ix2 r j)
      = far33 V c (ValueIdx.ix2 ⟨(tbl33 a1 (ValueIdx.ix1 ⟨8 * t.val + r.val, row_lt33 a1 t r⟩)).toNat, hlt _⟩ j)
        * inBlk33 V a1 c t (ValueIdx.ix2 r (0 : Fin 1)) := by
  have hpay : gatherOut (gatherG (a1.1 0) (V c main_v141) (grid33.coords t)) (iblk33 V a1 c 0 t) (ValueIdx.ix2 r j)
      = gatherG (F := Ideal) (tbl33 a1) (far33 V c) (grid33.coords t) (ValueIdx.ix2 r j) * inBlk33 V a1 c t (ValueIdx.ix2 r (0 : Fin 1)) :=
    Cert.Value.kernel_block (by decide) (by decide) (gatherG (F := Ideal) (tbl33 a1) (far33 V c) (grid33.coords t)) (inBlk33 V a1 c t) r j
  rw [hpay, gatherG_apply (F := Ideal) (tbl33 a1) (far33 V c) (grid33.coords t) r j (hlt _)]
  refine congrArg (· * inBlk33 V a1 c t (ValueIdx.ix2 r (0 : Fin 1))) ?_
  exact farRow33_congr V a1 c (by show 8 * ((grid33.coords t) 0).val + r.val = 8 * t.val + r.val; rw [coordsVal33 a1 t]) j _ _

/-- THE CHUNK'S ARRAY after the region, the output block being the body's own. -/
theorem chunk_array33_body (hlt : ∀ y, (tbl33 a1 y).toNat < 100000) (c : Dev nD) :
    (dat33 V a1 (fun c t => gatherOut (gatherG (a1.1 0) (V c main_v141) (grid33.coords t)) (iblk33 V a1 c 0 t)) c).arrAt 1 (cfg33 a1).N
      = chunkG33 V a1 hlt c :=
  chunk_array33 V a1 _ hlt (fun c t r j => bodyBlk33_apply V a1 hlt c t r j) c

/-! ## The array as a chunk of the weighted rows -/

/-- When the far operand is the table x, the region's table the slice of the row numbers cols at 100000 k and its
    weights the slice of vals there as a column, the region's array is chunk k of the weighted rows. -/
theorem chunkG33_eq_chunkSpec (hlt : ∀ y, (tbl33 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far33 V c = x) (ht : tbl33 a1 = extractStridedSlice Cert.Value.T100000 ![off] cols hsl)
    (hw : wts33 V c = shapeCast Cert.Value.T100000x1 (extractStridedSlice Cert.Value.T100000 ![off] vals hsl) hsc) :
    chunkG33 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl33 a1 (ValueIdx.ix1 e)).toNat, hlt _⟩ (congrArg (fun T : S100000.Idx → BitVec 32 => (T (ValueIdx.ix1 e)).toNat) ht), ← hx, ← hw]
  rfl

end Chunk

end Cert.Value

end
-- ==== Proof.Val.KOuts_26_33.lean ====
/-
  Gather regions 26 to 33 of the host program, one after the other: for each, the region's output array at its exit boundary as a chunk of the layer's weighted rows,
  exactly as for region 1 (whose module says what each part is).
-/
import proofs.«421643_j28415503630349_2_alg».proof.Proof.KI.Tables
import proofs.«421643_j28415503630349_2_alg».proof.Proof.Val.ChunkArrays_26_33
import proofs.«421643_j28415503630349_2_alg».proof.Proof.Val.KVals

set_option maxRecDepth 16384

noncomputable section

namespace Cert.Value

open Cert.KernelIdeal Cert.KernelIdeal.Gen Cert.KernelIdeal.Hand
open Idealize.ShloMosaic Idealize.ShloMosaic.TcCoe
open Idealize.SL.Sem

/-! # Region 26 -/

attribute [local irreducible] W53 in
/-- The output array of region 26 at its exit is chunk 9 of the weighted rows of the table the region entered with. -/
theorem kout26 (m : (ℓ : Loc nD τ sig) → Buf (Elt Ideal) ℓ)
    (hcols : ∀ (c : Dev nD) (e : S1600000.Idx), (m ((c.tc : Thread nD τ).loc main_arg4) e).toNat < 100000)
    (c : Dev nD) :
    W55 m c main_v113
      = chunkSpec (W54 m c main_v72) (m ((c.tc : Thread nD τ).loc main_arg4)) (m ((c.tc : Thread nD τ).loc main_arg2))
          (hcols c) (9 : Fin 16) := by
  -- one core: every core is core 0, the one the table's admissible contents are read at
  obtain rfl : c = 0 := Subsingleton.elim _ _
  -- the exit boundary at the output array is the pipeline's final array
  have harr : W55 m 0 main_v113
      = (dat26 (Vof (W54 m)) (adm26 m) (outBlk26 (Vof (W54 m)) (adm26 m)) 0).arrAt 1 (cfg26 (adm26 m)).N :=
    Wout26_arr (W54 m) (adm26 m) (outBlk26 (Vof (W54 m)) (adm26 m)) 0 1
  -- which is the one function of the operands at the entry boundary
  have hbody := chunk_array26_body (Vof (W54 m)) (adm26 m) (tbl_lt26 m hcols) 0
  -- the table of row numbers is the slice of the argument list
  have ht : tbl26 (adm26 m)
      = extractStridedSlice T100000 ![900000] (m (((0 : Dev nD).tc : Thread nD τ).loc main_arg4)) slices_S1600000_S100000_900000 := by
    show W54 m 0 main_v110 = _
    rw [tbl_eq26 m 0, W53_arg4 m 0]
  -- the column of weights is the slice of the argument list, as a column
  have hw : wts26 (Vof (W54 m)) 0
      = shapeCast T100000x1
          (extractStridedSlice T100000 ![900000] (m (((0 : Dev nD).tc : Thread nD τ).loc main_arg2)) slices_S1600000_S100000_900000)
          shapeCasts_S100000_S100000x1 :=
    kvals26 (W53 m 0) (m (((0 : Dev nD).tc : Thread nD τ).loc main_arg2)) (W53_arg2 m 0)
  exact harr.trans (hbody.trans
    (chunkG26_eq_chunkSpec (Vof (W54 m)) (adm26 m) (tbl_lt26 m hcols) 0
      (W54 m 0 main_v72) (m (((0 : Dev nD).tc : Thread nD τ).loc main_arg4))
      (m (((0 : Dev nD).tc : Thread nD τ).loc main_arg2)) (hcols 0) (9 : Fin 16) 900000 (by decide)
      slices_S1600000_S100000_900000 shapeCasts_S100000_S100000x1 rfl ht hw))

/-! # Region 27 -/

attribute [local irreducible] W55 in
/-- The output array of region 27 at its exit is chunk 10 of the weighted rows of the table the region entered with. -/
theorem kout27 (m : (ℓ : Loc nD τ sig) → Buf (Elt Ideal) ℓ)
    (hcols : ∀ (c : Dev nD) (e : S1600000.Idx), (m ((c.tc : Thread nD τ).loc main_arg4) e).toNat < 100000)
    (c : Dev nD) :
    W57 m c main_v117
      = chunkSpec (W56 m c main_v72) (m ((c.tc : Thread nD τ).loc main_arg4)) (m ((c.tc : Thread nD τ).loc main_arg2))
          (hcols c) (10 : Fin 16) := by
  -- one core: every core is core 0, the one the table's admissible contents are read at
  obtain rfl : c = 0 := Subsingleton.elim _ _
  -- the exit boundary at the output array is the pipeline's final array
  have harr : W57 m 0 main_v117
      = (dat27 (Vof (W56 m)) (adm27 m) (outBlk27 (Vof (W56 m)) (adm27 m)) 0).arrAt 1 (cfg27 (adm27 m)).N :=
    Wout27_arr (W56 m) (adm27 m) (outBlk27 (Vof (W56 m)) (adm27 m)) 0 1
  -- which is the one function of the operands at the entry boundary
  have hbody := chunk_array27_body (Vof (W56 m)) (adm27 m) (tbl_lt27 m hcols) 0
  -- the table of row numbers is the slice of the argument list
  have ht : tbl27 (adm27 m)
      = extractStridedSlice T100000 ![1000000] (m (((0 : Dev nD).tc : Thread nD τ).loc main_arg4)) slices_S1600000_S100000_1000000 := by
    show W56 m 0 main_v114 = _
    rw [tbl_eq27 m 0, W55_arg4 m 0]
  -- the column of weights is the slice of the argument list, as a column
  have hw : wts27 (Vof (W56 m)) 0
      = shapeCast T100000x1
          (extractStridedSlice T100000 ![1000000] (m (((0 : Dev nD).tc : Thread nD τ).loc main_arg2)) slices_S1600000_S100000_1000000)
          shapeCasts_S100000_S100000x1 :=
    kvals27 (W55 m 0) (m (((0 : Dev nD).tc : Thread nD τ).loc main_arg2)) (W55_arg2 m 0)
  exact harr.trans (hbody.trans
    (chunkG27_eq_chunkSpec (Vof (W56 m)) (adm27 m) (tbl_lt27 m hcols) 0
      (W56 m 0 main_v72) (m (((0 : Dev nD).tc : Thread nD τ).loc main_arg4))
      (m (((0 : Dev nD).tc : Thread nD τ).loc main_arg2)) (hcols 0) (10 : Fin 16) 1000000 (by decide)
      slices_S1600000_S100000_1000000 shapeCasts_S100000_S100000x1 rfl ht hw))

/-! # Region 28 -/

attribute [local irreducible] W57 in
/-- The output array of region 28 at its exit is chunk 11 of the weighted rows of the table the region entered with. -/
theorem kout28 (m : (ℓ : Loc nD τ sig) → Buf (Elt Ideal) ℓ)
    (hcols : ∀ (c : Dev nD) (e : S1600000.Idx), (m ((c.tc : Thread nD τ).loc main_arg4) e).toNat < 100000)
    (c : Dev nD) :
    W59 m c main_v121
      = chunkSpec (W58 m c main_v72) (m ((c.tc : Thread nD τ).loc main_arg4)) (m ((c.tc : Thread nD τ).loc main_arg2))
          (hcols c) (11 : Fin 16) := by
  -- one core: every core is core 0, the one the table's admissible contents are read at
  obtain rfl : c = 0 := Subsingleton.elim _ _
  -- the exit boundary at the output array is the pipeline's final array
  have harr : W59 m 0 main_v121
      = (dat28 (Vof (W58 m)) (adm28 m) (outBlk28 (Vof (W58 m)) (adm28 m)) 0).arrAt 1 (cfg28 (adm28 m)).N :=
    Wout28_arr (W58 m) (adm28 m) (outBlk28 (Vof (W58 m)) (adm28 m)) 0 1
  -- which is the one function of the operands at the entry boundary
  have hbody := chunk_array28_body (Vof (W58 m)) (adm28 m) (tbl_lt28 m hcols) 0
  -- the table of row numbers is the slice of the argument list
  have ht : tbl28 (adm28 m)
      = extractStridedSlice T100000 ![1100000] (m (((0 : Dev nD).tc : Thread nD τ).loc main_arg4)) slices_S1600000_S100000_1100000 := by
    show W58 m 0 main_v118 = _
    rw [tbl_eq28 m 0, W57_arg4 m 0]
  -- the column of weights is the slice of the argument list, as a column
  have hw : wts28 (Vof (W58 m)) 0
      = shapeCast T100000x1
          (extractStridedSlice T100000 ![1100000] (m (((0 : Dev nD).tc : Thread nD τ).loc main_arg2)) slices_S1600000_S100000_1100000)
          shapeCasts_S100000_S100000x1 :=
    kvals28 (W57 m 0) (m (((0 : Dev nD).tc : Thread nD τ).loc main_arg2)) (W57_arg2 m 0)
  exact harr.trans (hbody.trans
    (chunkG28_eq_chunkSpec (Vof (W58 m)) (adm28 m) (tbl_lt28 m hcols) 0
      (W58 m 0 main_v72) (m (((0 : Dev nD).tc : Thread nD τ).loc main_arg4))
      (m (((0 : Dev nD).tc : Thread nD τ).loc main_arg2)) (hcols 0) (11 : Fin 16) 1100000 (by decide)
      slices_S1600000_S100000_1100000 shapeCasts_S100000_S100000x1 rfl ht hw))

/-! # Region 29 -/

attribute [local irreducible] W59 in
/-- The output array of region 29 at its exit is chunk 12 of the weighted rows of the table the region entered with. -/
theorem kout29 (m : (ℓ : Loc nD τ sig) → Buf (Elt Ideal) ℓ)
    (hcols : ∀ (c : Dev nD) (e : S1600000.Idx), (m ((c.tc : Thread nD τ).loc main_arg4) e).toNat < 100000)
    (c : Dev nD) :
    W61 m c main_v125
      = chunkSpec (W60 m c main_v72) (m ((c.tc : Thread nD τ).loc main_arg4)) (m ((c.tc : Thread nD τ).loc main_arg2))
          (hcols c) (12 : Fin 16) := by
  -- one core: every core is core 0, the one the table's admissible contents are read at
  obtain rfl : c = 0 := Subsingleton.elim _ _
  -- the exit boundary at the output array is the pipeline's final array
  have harr : W61 m 0 main_v125
      = (dat29 (Vof (W60 m)) (adm29 m) (outBlk29 (Vof (W60 m)) (adm29 m)) 0).arrAt 1 (cfg29 (adm29 m)).N :=
    Wout29_arr (W60 m) (adm29 m) (outBlk29 (Vof (W60 m)) (adm29 m)) 0 1
  -- which is the one function of the operands at the entry boundary
  have hbody := chunk_array29_body (Vof (W60 m)) (adm29 m) (tbl_lt29 m hcols) 0
  -- the table of row numbers is the slice of the argument list
  have ht : tbl29 (adm29 m)
      = extractStridedSlice T100000 ![1200000] (m (((0 : Dev nD).tc : Thread nD τ).loc main_arg4)) slices_S1600000_S100000_1200000 := by
    show W60 m 0 main_v122 = _
    rw [tbl_eq29 m 0, W59_arg4 m 0]
  -- the column of weights is the slice of the argument list, as a column
  have hw : wts29 (Vof (W60 m)) 0
      = shapeCast T100000x1
          (extractStridedSlice T100000 ![1200000] (m (((0 : Dev nD).tc : Thread nD τ).loc main_arg2)) slices_S1600000_S100000_1200000)
          shapeCasts_S100000_S100000x1 :=
    kvals29 (W59 m 0) (m (((0 : Dev nD).tc : Thread nD τ).loc main_arg2)) (W59_arg2 m 0)
  exact harr.trans (hbody.trans
    (chunkG29_eq_chunkSpec (Vof (W60 m)) (adm29 m) (tbl_lt29 m hcols) 0
      (W60 m 0 main_v72) (m (((0 : Dev nD).tc : Thread nD τ).loc main_arg4))
      (m (((0 : Dev nD).tc : Thread nD τ).loc main_arg2)) (hcols 0) (12 : Fin 16) 1200000 (by decide)
      slices_S1600000_S100000_1200000 shapeCasts_S100000_S100000x1 rfl ht hw))

/-! # Region 30 -/

attribute [local irreducible] W61 in
/-- The output array of region 30 at its exit is chunk 13 of the weighted rows of the table the region entered with. -/
theorem kout30 (m : (ℓ : Loc nD τ sig) → Buf (Elt Ideal) ℓ)
    (hcols : ∀ (c : Dev nD) (e : S1600000.Idx), (m ((c.tc : Thread nD τ).loc main_arg4) e).toNat < 100000)
    (c : Dev nD) :
    W63 m c main_v129
      = chunkSpec (W62 m c main_v72) (m ((c.tc : Thread nD τ).loc main_arg4)) (m ((c.tc : Thread nD τ).loc main_arg2))
          (hcols c) (13 : Fin 16) := by
  -- one core: every core is core 0, the one the table's admissible contents are read at
  obtain rfl : c = 0 := Subsingleton.elim _ _
  -- the exit boundary at the output array is the pipeline's final array
  have harr : W63 m 0 main_v129
      = (dat30 (Vof (W62 m)) (adm30 m) (outBlk30 (Vof (W62 m)) (adm30 m)) 0).arrAt 1 (cfg30 (adm30 m)).N :=
    Wout30_arr (W62 m) (adm30 m) (outBlk30 (Vof (W62 m)) (adm30 m)) 0 1
  -- which is the one function of the operands at the entry boundary
  have hbody := chunk_array30_body (Vof (W62 m)) (adm30 m) (tbl_lt30 m hcols) 0
  -- the table of row numbers is the slice of the argument list
  have ht : tbl30 (adm30 m)
      = extractStridedSlice T100000 ![1300000] (m (((0 : Dev nD).tc : Thread nD τ).loc main_arg4)) slices_S1600000_S100000_1300000 := by
    show W62 m 0 main_v126 = _
    rw [tbl_eq30 m 0, W61_arg4 m 0]
  -- the column of weights is the slice of the argument list, as a column
  have hw : wts30 (Vof (W62 m)) 0
      = shapeCast T100000x1
          (extractStridedSlice T100000 ![1300000] (m (((0 : Dev nD).tc : Thread nD τ).loc main_arg2)) slices_S1600000_S100000_1300000)
          shapeCasts_S100000_S100000x1 :=
    kvals30 (W61 m 0) (m (((0 : Dev nD).tc : Thread nD τ).loc main_arg2)) (W61_arg2 m 0)
  exact harr.trans (hbody.trans
    (chunkG30_eq_chunkSpec (Vof (W62 m)) (adm30 m) (tbl_lt30 m hcols) 0
      (W62 m 0 main_v72) (m (((0 : Dev nD).tc : Thread nD τ).loc main_arg4))
      (m (((0 : Dev nD).tc : Thread nD τ).loc main_arg2)) (hcols 0) (13 : Fin 16) 1300000 (by decide)
      slices_S1600000_S100000_1300000 shapeCasts_S100000_S100000x1 rfl ht hw))

/-! # Region 31 -/

attribute [local irreducible] W63 in
/-- The output array of region 31 at its exit is chunk 14 of the weighted rows of the table the region entered with. -/
theorem kout31 (m : (ℓ : Loc nD τ sig) → Buf (Elt Ideal) ℓ)
    (hcols : ∀ (c : Dev nD) (e : S1600000.Idx), (m ((c.tc : Thread nD τ).loc main_arg4) e).toNat < 100000)
    (c : Dev nD) :
    W65 m c main_v133
      = chunkSpec (W64 m c main_v72) (m ((c.tc : Thread nD τ).loc main_arg4)) (m ((c.tc : Thread nD τ).loc main_arg2))
          (hcols c) (14 : Fin 16) := by
  -- one core: every core is core 0, the one the table's admissible contents are read at
  obtain rfl : c = 0 := Subsingleton.elim _ _
  -- the exit boundary at the output array is the pipeline's final array
  have harr : W65 m 0 main_v133
      = (dat31 (Vof (W64 m)) (adm31 m) (outBlk31 (Vof (W64 m)) (adm31 m)) 0).arrAt 1 (cfg31 (adm31 m)).N :=
    Wout31_arr (W64 m) (adm31 m) (outBlk31 (Vof (W64 m)) (adm31 m)) 0 1
  -- which is the one function of the operands at the entry boundary
  have hbody := chunk_array31_body (Vof (W64 m)) (adm31 m) (tbl_lt31 m hcols) 0
  -- the table of row numbers is the slice of the argument list
  have ht : tbl31 (adm31 m)
      = extractStridedSlice T100000 ![1400000] (m (((0 : Dev nD).tc : Thread nD τ).loc main_arg4)) slices_S1600000_S100000_1400000 := by
    show W64 m 0 main_v130 = _
    rw [tbl_eq31 m 0, W63_arg4 m 0]
  -- the column of weights is the slice of the argument list, as a column
  have hw : wts31 (Vof (W64 m)) 0
      = shapeCast T100000x1
          (extractStridedSlice T100000 ![1400000] (m (((0 : Dev nD).tc : Thread nD τ).loc main_arg2)) slices_S1600000_S100000_1400000)
          shapeCasts_S100000_S100000x1 :=
    kvals31 (W63 m 0) (m (((0 : Dev nD).tc : Thread nD τ).loc main_arg2)) (W63_arg2 m 0)
  exact harr.trans (hbody.trans
    (chunkG31_eq_chunkSpec (Vof (W64 m)) (adm31 m) (tbl_lt31 m hcols) 0
      (W64 m 0 main_v72) (m (((0 : Dev nD).tc : Thread nD τ).loc main_arg4))
      (m (((0 : Dev nD).tc : Thread nD τ).loc main_arg2)) (hcols 0) (14 : Fin 16) 1400000 (by decide)
      slices_S1600000_S100000_1400000 shapeCasts_S100000_S100000x1 rfl ht hw))

/-! # Region 32 -/

attribute [local irreducible] W65 in
/-- The output array of region 32 at its exit is chunk 15 of the weighted rows of the table the region entered with. -/
theorem kout32 (m : (ℓ : Loc nD τ sig) → Buf (Elt Ideal) ℓ)
    (hcols : ∀ (c : Dev nD) (e : S1600000.Idx), (m ((c.tc : Thread nD τ).loc main_arg4) e).toNat < 100000)
    (c : Dev nD) :
    W67 m c main_v137
      = chunkSpec (W66 m c main_v72) (m ((c.tc : Thread nD τ).loc main_arg4)) (m ((c.tc : Thread nD τ).loc main_arg2))
          (hcols c) (15 : Fin 16) := by
  -- one core: every core is core 0, the one the table's admissible contents are read at
  obtain rfl : c = 0 := Subsingleton.elim _ _
  -- the exit boundary at the output array is the pipeline's final array
  have harr : W67 m 0 main_v137
      = (dat32 (Vof (W66 m)) (adm32 m) (outBlk32 (Vof (W66 m)) (adm32 m)) 0).arrAt 1 (cfg32 (adm32 m)).N :=
    Wout32_arr (W66 m) (adm32 m) (outBlk32 (Vof (W66 m)) (adm32 m)) 0 1
  -- which is the one function of the operands at the entry boundary
  have hbody := chunk_array32_body (Vof (W66 m)) (adm32 m) (tbl_lt32 m hcols) 0
  -- the table of row numbers is the slice of the argument list
  have ht : tbl32 (adm32 m)
      = extractStridedSlice T100000 ![1500000] (m (((0 : Dev nD).tc : Thread nD τ).loc main_arg4)) slices_S1600000_S100000_1500000 := by
    show W66 m 0 main_v134 = _
    rw [tbl_eq32 m 0, W65_arg4 m 0]
  -- the column of weights is the slice of the argument list, as a column
  have hw : wts32 (Vof (W66 m)) 0
      = shapeCast T100000x1
          (extractStridedSlice T100000 ![1500000] (m (((0 : Dev nD).tc : Thread nD τ).loc main_arg2)) slices_S1600000_S100000_1500000)
          shapeCasts_S100000_S100000x1 :=
    kvals32 (W65 m 0) (m (((0 : Dev nD).tc : Thread nD τ).loc main_arg2)) (W65_arg2 m 0)
  exact harr.trans (hbody.trans
    (chunkG32_eq_chunkSpec (Vof (W66 m)) (adm32 m) (tbl_lt32 m hcols) 0
      (W66 m 0 main_v72) (m (((0 : Dev nD).tc : Thread nD τ).loc main_arg4))
      (m (((0 : Dev nD).tc : Thread nD τ).loc main_arg2)) (hcols 0) (15 : Fin 16) 1500000 (by decide)
      slices_S1600000_S100000_1500000 shapeCasts_S100000_S100000x1 rfl ht hw))

/-! # Region 33 -/

attribute [local irreducible] W67 in
/-- The output array of region 33 at its exit is chunk 0 of the weighted rows of the table the region entered with. -/
theorem kout33 (m : (ℓ : Loc nD τ sig) → Buf (Elt Ideal) ℓ)
    (hcols : ∀ (c : Dev nD) (e : S1600000.Idx), (m ((c.tc : Thread nD τ).loc main_arg4) e).toNat < 100000)
    (c : Dev nD) :
    W69 m c main_v146
      = chunkSpec (W68 m c main_v141) (m ((c.tc : Thread nD τ).loc main_arg4)) (m ((c.tc : Thread nD τ).loc main_arg2))
          (hcols c) (0 : Fin 16) := by
  -- one core: every core is core 0, the one the table's admissible contents are read at
  obtain rfl : c = 0 := Subsingleton.elim _ _
  -- the exit boundary at the output array is the pipeline's final array
  have harr : W69 m 0 main_v146
      = (dat33 (Vof (W68 m)) (adm33 m) (outBlk33 (Vof (W68 m)) (adm33 m)) 0).arrAt 1 (cfg33 (adm33 m)).N :=
    Wout33_arr (W68 m) (adm33 m) (outBlk33 (Vof (W68 m)) (adm33 m)) 0 1
  -- which is the one function of the operands at the entry boundary
  have hbody := chunk_array33_body (Vof (W68 m)) (adm33 m) (tbl_lt33 m hcols) 0
  -- the table of row numbers is the slice of the argument list
  have ht : tbl33 (adm33 m)
      = extractStridedSlice T100000 ![0] (m (((0 : Dev nD).tc : Thread nD τ).loc main_arg4)) slices_S1600000_S100000_0 := by
    show W68 m 0 main_v143 = _
    rw [tbl_eq33 m 0, W67_arg4 m 0]
  -- the column of weights is the slice of the argument list, as a column
  have hw : wts33 (Vof (W68 m)) 0
      = shapeCast T100000x1
          (extractStridedSlice T100000 ![0] (m (((0 : Dev nD).tc : Thread nD τ).loc main_arg2)) slices_S1600000_S100000_0)
          shapeCasts_S100000_S100000x1 :=
    kvals33 (W67 m 0) (m (((0 : Dev nD).tc : Thread nD τ).loc main_arg2)) (W67_arg2 m 0)
  exact harr.trans (hbody.trans
    (chunkG33_eq_chunkSpec (Vof (W68 m)) (adm33 m) (tbl_lt33 m hcols) 0
      (W68 m 0 main_v141) (m (((0 : Dev nD).tc : Thread nD τ).loc main_arg4))
      (m (((0 : Dev nD).tc : Thread nD τ).loc main_arg2)) (hcols 0) (0 : Fin 16) 0 (by decide)
      slices_S1600000_S100000_0 shapeCasts_S100000_S100000x1 rfl ht hw))

end Cert.Value

end
-- ==== Proof.Val.ChunkArrays_34_41.lean ====
/-
  Gather regions 34 to 41 of the host program, one after the other: for each, the region's output array as one function of the node table, the table's words and the weights,
  exactly as for region 1 (whose module says what each part is).
-/
import proofs.«421643_j28415503630349_2_alg».proof.Proof.KI.Regions_34_41
import proofs.«421643_j28415503630349_2_alg».proof.Proof.KI.GatherDefs
import proofs.«421643_j28415503630349_2_alg».proof.Proof.Val.GatherSpec
import proofs.«421643_j28415503630349_2_alg».proof.Proof.Val.Cover
import Idealize.ShloMosaic.Lib.Pipeline.Value
import Idealize.ShloMosaic.Lib.ValueIdx

set_option maxRecDepth 16384

noncomputable section

namespace Cert.Value

open Cert.KernelIdeal Cert.KernelIdeal.Gen Cert.KernelIdeal.Hand
open Idealize.ShloMosaic Idealize.ShloMosaic.TcCoe
open Idealize.SL.Sem
open Idealize.ShloMosaic.Pipeline (Dat Cfg Window UD)

/-! # Region 34 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg34 (F := Ideal)).Adm)
  (O : (c : Dev nD) → Fin (cfg34 a1).N → Vec Ideal S8x64 .f32)

/-- The grid has 12500 points. -/
theorem npoints34 : (cfg34 a1).N = 12500 := N_34

/-- A point's one coordinate is the point's number. -/
theorem coordsVal34 (t : Fin (cfg34 a1).N) : (((cfg34 a1).grid.coords t) 0).val = t.val := by
  have ht : t.val < 12500 := (npoints34 a1) ▸ t.isLt
  show t.val / grid34.stride 0 % 12500 = t.val
  rw [show grid34.stride 0 = 1 from by decide, Nat.div_one, Nat.mod_eq_of_lt ht]

/-- Both windows move with the point: block index (t, 0) at point t. -/
theorem idxInRow34 (t : Fin (cfg34 a1).N) : ((cfg34 a1).win 0).index t (0 : Fin 2) = t.val := by
  have ht : t.val < 12500 := (npoints34 a1) ▸ t.isLt
  show (BitVec.ofNat 32 (((cfg34 a1).grid.coords t) 0).val).toNat = t.val
  rw [coordsVal34, BitVec.toNat_ofNat, Nat.mod_eq_of_lt (by omega)]
theorem idxInCol34 (t : Fin (cfg34 a1).N) : ((cfg34 a1).win 0).index t (1 : Fin 2) = 0 := rfl
theorem idxOutRow34 (t : Fin (cfg34 a1).N) : ((cfg34 a1).win 1).index t (0 : Fin 2) = t.val := by
  have ht : t.val < 12500 := (npoints34 a1) ▸ t.isLt
  show (BitVec.ofNat 32 (((cfg34 a1).grid.coords t) 0).val).toNat = t.val
  rw [coordsVal34, BitVec.toNat_ofNat, Nat.mod_eq_of_lt (by omega)]
theorem idxOutCol34 (t : Fin (cfg34 a1).N) : ((cfg34 a1).win 1).index t (1 : Fin 2) = 0 := rfl

/-- The output window is written back at every point: the next point's block is another. -/
theorem flushOut34 (t : Fin (cfg34 a1).N) : ((cfg34 a1).win 1).flush t = true := by
  unfold Window.flush
  show (true && (decide (t.val + 1 = (cfg34 a1).N) || decide (∃ h : t.val + 1 < (cfg34 a1).N,
    ((cfg34 a1).win 1).index ⟨t.val + 1, h⟩ ≠ ((cfg34 a1).win 1).index t))) = true
  rw [Bool.true_and, Bool.or_eq_true, decide_eq_true_eq, decide_eq_true_eq]
  by_cases h : t.val + 1 = (cfg34 a1).N
  · exact Or.inl h
  · refine Or.inr ⟨by have := t.isLt; omega, fun e => ?_⟩
    have erow := congrFun e (0 : Fin 2)
    rw [idxOutRow34, idxOutRow34] at erow
    exact absurd erow (by show t.val + 1 ≠ t.val; omega)

/-! ## The operands at their literal types -/

/-- The table's words. -/
abbrev tbl34 : S100000.Idx → BitVec 32 := a1.1 0
/-- The far operand: the table of rows. -/
abbrev far34 (c : Dev nD) : S100000x64.Idx → EReal := V c main_v141
/-- The weights, as a column. -/
abbrev wts34 (c : Dev nD) : S100000x1.Idx → EReal := V c main_v149
/-- The input window's block at point t: eight weights. -/
abbrev inBlk34 (c : Dev nD) (t : Fin (cfg34 a1).N) : S8x1.Idx → EReal := iblk34 V a1 c 0 t

/-! ## The blocks -/

/-- Row r of the input window's block at point t is row 8 t + r of the column of weights. -/
theorem inBlk34_apply (c : Dev nD) (t : Fin (cfg34 a1).N) (r : Fin 8) (z : Fin 1) (k : S100000x1.Idx)
    (hkrow : (k 0).val = 8 * t.val + r.val) :
    inBlk34 V a1 c t (ValueIdx.ix2 r z) = wts34 V c k := by
  show wts34 V c ((((cfg34 a1).win 0).blk t).view.emb (ValueIdx.ix2 r z)) = wts34 V c k
  refine congrArg (wts34 V c) (funext fun a => Fin.ext ?_)
  match a with
  | ⟨0, _⟩ =>
    show ((cfg34 a1).win 0).index t (0 : Fin 2) * 8 + 1 * r.val = (k 0).val
    rw [idxInRow34, hkrow]; omega
  | ⟨1, _⟩ =>
    show ((cfg34 a1).win 0).index t (1 : Fin 2) * 1 + 1 * z.val = (k 1).val
    have hkcol : (k 1).val < 1 := idx2_lt1 k
    have hz : z.val < 1 := z.isLt
    rw [idxInCol34]; omega

/-- An index of the array is in point t's block iff each coordinate is in the block's range on its axis. -/
theorem mem_blkOut34 (t : Fin (cfg34 a1).N) (i : S100000x64.Idx) :
    i ∈ (((cfg34 a1).win 1).blk t).view.set ↔ ∀ a : Fin 2, ((cfg34 a1).win 1).index t a * S8x64.size a ≤ (i a).val
      ∧ (i a).val < ((cfg34 a1).win 1).index t a * S8x64.size a + S8x64.size a := by
  have hset : (((cfg34 a1).win 1).blk t).view.set = (((cfg34 a1).win 1).rect t : Rect S100000x64).set :=
    View.set_slice_whole main_v150 _
  have hmem : i ∈ (((cfg34 a1).win 1).rect t : Rect S100000x64).set ↔ ∀ a : Fin 2,
      ((cfg34 a1).win 1).index t a * S8x64.size a ≤ (i a).val
        ∧ (i a).val < ((cfg34 a1).win 1).index t a * S8x64.size a + S8x64.size a := Rect.mem_set_unit
  exact (Finset.ext_iff.mp hset i).trans hmem

/-- Every index of the array is in the block of the point its row over eight names. -/
theorem coverOut34 (i : S100000x64.Idx) :
    ∃ t : Fin (cfg34 a1).N, ((cfg34 a1).win 1).flush t = true ∧ i ∈ (((cfg34 a1).win 1).blk t).view.set := by
  have hirow : (i 0).val < 100000 := idx2_lt0 i
  have hicol : (i 1).val < 64 := idx2_lt1 i
  obtain ⟨t, ht⟩ : ∃ t : Fin (cfg34 a1).N, t.val = (i 0).val / 8 := ⟨⟨(i 0).val / 8, by rw [npoints34]; omega⟩, rfl⟩
  refine ⟨t, flushOut34 a1 t, ?_⟩
  rw [mem_blkOut34]
  intro a
  match a with
  | ⟨0, _⟩ =>
    show ((cfg34 a1).win 1).index t (0 : Fin 2) * 8 ≤ (i 0).val ∧ (i 0).val < ((cfg34 a1).win 1).index t (0 : Fin 2) * 8 + 8
    rw [idxOutRow34, ht]; omega
  | ⟨1, _⟩ =>
    show ((cfg34 a1).win 1).index t (1 : Fin 2) * 64 ≤ (i 1).val ∧ (i 1).val < ((cfg34 a1).win 1).index t (1 : Fin 2) * 64 + 64
    rw [idxOutCol34]; omega

/-! ## The array -/

/-- One weighted row at one column: the table row the e-th word names, at column j, times the e-th weight. -/
def chunkRow34 (hlt : ∀ y, (tbl34 a1 y).toNat < 100000) (c : Dev nD) (e : Fin 100000) (j : Fin 64) : EReal :=
  far34 V c (ValueIdx.ix2 ⟨(tbl34 a1 (ValueIdx.ix1 e)).toNat, hlt _⟩ j) * wts34 V c (ValueIdx.ix2 e (0 : Fin 1))

/-- The chunk's array as one function of the region's operands. -/
def chunkG34 (hlt : ∀ y, (tbl34 a1 y).toNat < 100000) (c : Dev nD) : S100000x64.Idx → EReal :=
  fun i => chunkRow34 V a1 hlt c (i 0) (i 1)

/-- Row r of point t's block lies in the table. -/
theorem row_lt34 (t : Fin (cfg34 a1).N) (r : Fin 8) : 8 * t.val + r.val < 100000 := by
  have ht : t.val < 12500 := (npoints34 a1) ▸ t.isLt
  have := r.isLt; omega

/-- WHAT POINT t WRITES BACK is block t of the chunk's array, when the body leaves in the output window's buffer,
    at (r, j), the table row that word 8 t + r names at column j times the input block's weight at (r, 0). -/
theorem flushedOut34_eq (hlt : ∀ y, (tbl34 a1 y).toNat < 100000)
    (hO : ∀ (c : Dev nD) (t : Fin (cfg34 a1).N) (r : Fin 8) (j : Fin 64), O c t (ValueIdx.ix2 r j)
      = far34 V c (ValueIdx.ix2 ⟨(tbl34 a1 (ValueIdx.ix1 ⟨8 * t.val + r.val, row_lt34 a1 t r⟩)).toNat, hlt _⟩ j)
        * inBlk34 V a1 c t (ValueIdx.ix2 r (0 : Fin 1)))
    (c : Dev nD) (t : Fin (cfg34 a1).N) :
    (dat34 V a1 O c).flushed 1 t = (((cfg34 a1).win 1).blk t).view.read (Elt Ideal) (chunkG34 V a1 hlt c) := by
  show ((cfg34 a1).win 1).cut ((cfg34 a1).grid.coords t) ((dat34 V a1 O c).after 1 t) = _
  rw [afterOut34]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG34 V a1 hlt c ((((cfg34 a1).win 1).blk t).view.emb (ValueIdx.ix2 r j))
  have hemb : (((cfg34 a1).win 1).blk t).view.emb (ValueIdx.ix2 r j)
      = (ValueIdx.ix2 ⟨8 * t.val + r.val, row_lt34 a1 t r⟩ j : S100000x64.Idx) := by
    funext a; apply Fin.ext
    match a with
    | ⟨0, _⟩ =>
      show ((cfg34 a1).win 1).index t (0 : Fin 2) * 8 + 1 * r.val = 8 * t.val + r.val
      rw [idxOutRow34]; omega
    | ⟨1, _⟩ =>
      show ((cfg34 a1).win 1).index t (1 : Fin 2) * 64 + 1 * j.val = j.val
      rw [idxOutCol34]; omega
  rw [hemb, hO c t r j,
    inBlk34_apply V a1 c t r 0 (ValueIdx.ix2 ⟨8 * t.val + r.val, row_lt34 a1 t r⟩ (0 : Fin 1)) rfl]
  rfl

/-- THE CHUNK'S ARRAY after the region: chunkG34. -/
theorem chunk_array34 (hlt : ∀ y, (tbl34 a1 y).toNat < 100000)
    (hO : ∀ (c : Dev nD) (t : Fin (cfg34 a1).N) (r : Fin 8) (j : Fin 64), O c t (ValueIdx.ix2 r j)
      = far34 V c (ValueIdx.ix2 ⟨(tbl34 a1 (ValueIdx.ix1 ⟨8 * t.val + r.val, row_lt34 a1 t r⟩)).toNat, hlt _⟩ j)
        * inBlk34 V a1 c t (ValueIdx.ix2 r (0 : Fin 1)))
    (c : Dev nD) :
    (dat34 V a1 O c).arrAt 1 (cfg34 a1).N = chunkG34 V a1 hlt c :=
  (dat34 V a1 O c).arrAt_eq_of_cover 1 (chunkG34 V a1 hlt c) (fun t _ => flushedOut34_eq V a1 O hlt hO c t) (coverOut34 a1)

/-! ## The body's own block -/

/-- Two rows of the far operand named by the same word are the same row. -/
theorem farRow34_congr (c : Dev nD) {e e' : Fin 100000} (h : e.val = e'.val) (j : Fin 64)
    (p : (tbl34 a1 (ValueIdx.ix1 e)).toNat < 100000) (p' : (tbl34 a1 (ValueIdx.ix1 e')).toNat < 100000) :
    far34 V c (ValueIdx.ix2 ⟨(tbl34 a1 (ValueIdx.ix1 e)).toNat, p⟩ j)
      = far34 V c (ValueIdx.ix2 ⟨(tbl34 a1 (ValueIdx.ix1 e')).toNat, p'⟩ j) := by
  obtain rfl : e = e' := Fin.ext h
  rfl

/-- The body's block at point t — the gathered rows scaled by the input block — has the entries hO asks. -/
theorem bodyBlk34_apply (hlt : ∀ y, (tbl34 a1 y).toNat < 100000) (c : Dev nD) (t : Fin (cfg34 a1).N) (r : Fin 8) (j : Fin 64) :
    gatherOut (gatherG (a1.1 0) (V c main_v141) (grid34.coords t)) (iblk34 V a1 c 0 t) (ValueIdx.ix2 r j)
      = far34 V c (ValueIdx.ix2 ⟨(tbl34 a1 (ValueIdx.ix1 ⟨8 * t.val + r.val, row_lt34 a1 t r⟩)).toNat, hlt _⟩ j)
        * inBlk34 V a1 c t (ValueIdx.ix2 r (0 : Fin 1)) := by
  have hpay : gatherOut (gatherG (a1.1 0) (V c main_v141) (grid34.coords t)) (iblk34 V a1 c 0 t) (ValueIdx.ix2 r j)
      = gatherG (F := Ideal) (tbl34 a1) (far34 V c) (grid34.coords t) (ValueIdx.ix2 r j) * inBlk34 V a1 c t (ValueIdx.ix2 r (0 : Fin 1)) :=
    Cert.Value.kernel_block (by decide) (by decide) (gatherG (F := Ideal) (tbl34 a1) (far34 V c) (grid34.coords t)) (inBlk34 V a1 c t) r j
  rw [hpay, gatherG_apply (F := Ideal) (tbl34 a1) (far34 V c) (grid34.coords t) r j (hlt _)]
  refine congrArg (· * inBlk34 V a1 c t (ValueIdx.ix2 r (0 : Fin 1))) ?_
  exact farRow34_congr V a1 c (by show 8 * ((grid34.coords t) 0).val + r.val = 8 * t.val + r.val; rw [coordsVal34 a1 t]) j _ _

/-- THE CHUNK'S ARRAY after the region, the output block being the body's own. -/
theorem chunk_array34_body (hlt : ∀ y, (tbl34 a1 y).toNat < 100000) (c : Dev nD) :
    (dat34 V a1 (fun c t => gatherOut (gatherG (a1.1 0) (V c main_v141) (grid34.coords t)) (iblk34 V a1 c 0 t)) c).arrAt 1 (cfg34 a1).N
      = chunkG34 V a1 hlt c :=
  chunk_array34 V a1 _ hlt (fun c t r j => bodyBlk34_apply V a1 hlt c t r j) c

/-! ## The array as a chunk of the weighted rows -/

/-- When the far operand is the table x, the region's table the slice of the row numbers cols at 100000 k and its
    weights the slice of vals there as a column, the region's array is chunk k of the weighted rows. -/
theorem chunkG34_eq_chunkSpec (hlt : ∀ y, (tbl34 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far34 V c = x) (ht : tbl34 a1 = extractStridedSlice Cert.Value.T100000 ![off] cols hsl)
    (hw : wts34 V c = shapeCast Cert.Value.T100000x1 (extractStridedSlice Cert.Value.T100000 ![off] vals hsl) hsc) :
    chunkG34 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl34 a1 (ValueIdx.ix1 e)).toNat, hlt _⟩ (congrArg (fun T : S100000.Idx → BitVec 32 => (T (ValueIdx.ix1 e)).toNat) ht), ← hx, ← hw]
  rfl

end Chunk

/-! # Region 35 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg35 (F := Ideal)).Adm)
  (O : (c : Dev nD) → Fin (cfg35 a1).N → Vec Ideal S8x64 .f32)

/-- The grid has 12500 points. -/
theorem npoints35 : (cfg35 a1).N = 12500 := N_35

/-- A point's one coordinate is the point's number. -/
theorem coordsVal35 (t : Fin (cfg35 a1).N) : (((cfg35 a1).grid.coords t) 0).val = t.val := by
  have ht : t.val < 12500 := (npoints35 a1) ▸ t.isLt
  show t.val / grid35.stride 0 % 12500 = t.val
  rw [show grid35.stride 0 = 1 from by decide, Nat.div_one, Nat.mod_eq_of_lt ht]

/-- Both windows move with the point: block index (t, 0) at point t. -/
theorem idxInRow35 (t : Fin (cfg35 a1).N) : ((cfg35 a1).win 0).index t (0 : Fin 2) = t.val := by
  have ht : t.val < 12500 := (npoints35 a1) ▸ t.isLt
  show (BitVec.ofNat 32 (((cfg35 a1).grid.coords t) 0).val).toNat = t.val
  rw [coordsVal35, BitVec.toNat_ofNat, Nat.mod_eq_of_lt (by omega)]
theorem idxInCol35 (t : Fin (cfg35 a1).N) : ((cfg35 a1).win 0).index t (1 : Fin 2) = 0 := rfl
theorem idxOutRow35 (t : Fin (cfg35 a1).N) : ((cfg35 a1).win 1).index t (0 : Fin 2) = t.val := by
  have ht : t.val < 12500 := (npoints35 a1) ▸ t.isLt
  show (BitVec.ofNat 32 (((cfg35 a1).grid.coords t) 0).val).toNat = t.val
  rw [coordsVal35, BitVec.toNat_ofNat, Nat.mod_eq_of_lt (by omega)]
theorem idxOutCol35 (t : Fin (cfg35 a1).N) : ((cfg35 a1).win 1).index t (1 : Fin 2) = 0 := rfl

/-- The output window is written back at every point: the next point's block is another. -/
theorem flushOut35 (t : Fin (cfg35 a1).N) : ((cfg35 a1).win 1).flush t = true := by
  unfold Window.flush
  show (true && (decide (t.val + 1 = (cfg35 a1).N) || decide (∃ h : t.val + 1 < (cfg35 a1).N,
    ((cfg35 a1).win 1).index ⟨t.val + 1, h⟩ ≠ ((cfg35 a1).win 1).index t))) = true
  rw [Bool.true_and, Bool.or_eq_true, decide_eq_true_eq, decide_eq_true_eq]
  by_cases h : t.val + 1 = (cfg35 a1).N
  · exact Or.inl h
  · refine Or.inr ⟨by have := t.isLt; omega, fun e => ?_⟩
    have erow := congrFun e (0 : Fin 2)
    rw [idxOutRow35, idxOutRow35] at erow
    exact absurd erow (by show t.val + 1 ≠ t.val; omega)

/-! ## The operands at their literal types -/

/-- The table's words. -/
abbrev tbl35 : S100000.Idx → BitVec 32 := a1.1 0
/-- The far operand: the table of rows. -/
abbrev far35 (c : Dev nD) : S100000x64.Idx → EReal := V c main_v141
/-- The weights, as a column. -/
abbrev wts35 (c : Dev nD) : S100000x1.Idx → EReal := V c main_v153
/-- The input window's block at point t: eight weights. -/
abbrev inBlk35 (c : Dev nD) (t : Fin (cfg35 a1).N) : S8x1.Idx → EReal := iblk35 V a1 c 0 t

/-! ## The blocks -/

/-- Row r of the input window's block at point t is row 8 t + r of the column of weights. -/
theorem inBlk35_apply (c : Dev nD) (t : Fin (cfg35 a1).N) (r : Fin 8) (z : Fin 1) (k : S100000x1.Idx)
    (hkrow : (k 0).val = 8 * t.val + r.val) :
    inBlk35 V a1 c t (ValueIdx.ix2 r z) = wts35 V c k := by
  show wts35 V c ((((cfg35 a1).win 0).blk t).view.emb (ValueIdx.ix2 r z)) = wts35 V c k
  refine congrArg (wts35 V c) (funext fun a => Fin.ext ?_)
  match a with
  | ⟨0, _⟩ =>
    show ((cfg35 a1).win 0).index t (0 : Fin 2) * 8 + 1 * r.val = (k 0).val
    rw [idxInRow35, hkrow]; omega
  | ⟨1, _⟩ =>
    show ((cfg35 a1).win 0).index t (1 : Fin 2) * 1 + 1 * z.val = (k 1).val
    have hkcol : (k 1).val < 1 := idx2_lt1 k
    have hz : z.val < 1 := z.isLt
    rw [idxInCol35]; omega

/-- An index of the array is in point t's block iff each coordinate is in the block's range on its axis. -/
theorem mem_blkOut35 (t : Fin (cfg35 a1).N) (i : S100000x64.Idx) :
    i ∈ (((cfg35 a1).win 1).blk t).view.set ↔ ∀ a : Fin 2, ((cfg35 a1).win 1).index t a * S8x64.size a ≤ (i a).val
      ∧ (i a).val < ((cfg35 a1).win 1).index t a * S8x64.size a + S8x64.size a := by
  have hset : (((cfg35 a1).win 1).blk t).view.set = (((cfg35 a1).win 1).rect t : Rect S100000x64).set :=
    View.set_slice_whole main_v154 _
  have hmem : i ∈ (((cfg35 a1).win 1).rect t : Rect S100000x64).set ↔ ∀ a : Fin 2,
      ((cfg35 a1).win 1).index t a * S8x64.size a ≤ (i a).val
        ∧ (i a).val < ((cfg35 a1).win 1).index t a * S8x64.size a + S8x64.size a := Rect.mem_set_unit
  exact (Finset.ext_iff.mp hset i).trans hmem

/-- Every index of the array is in the block of the point its row over eight names. -/
theorem coverOut35 (i : S100000x64.Idx) :
    ∃ t : Fin (cfg35 a1).N, ((cfg35 a1).win 1).flush t = true ∧ i ∈ (((cfg35 a1).win 1).blk t).view.set := by
  have hirow : (i 0).val < 100000 := idx2_lt0 i
  have hicol : (i 1).val < 64 := idx2_lt1 i
  obtain ⟨t, ht⟩ : ∃ t : Fin (cfg35 a1).N, t.val = (i 0).val / 8 := ⟨⟨(i 0).val / 8, by rw [npoints35]; omega⟩, rfl⟩
  refine ⟨t, flushOut35 a1 t, ?_⟩
  rw [mem_blkOut35]
  intro a
  match a with
  | ⟨0, _⟩ =>
    show ((cfg35 a1).win 1).index t (0 : Fin 2) * 8 ≤ (i 0).val ∧ (i 0).val < ((cfg35 a1).win 1).index t (0 : Fin 2) * 8 + 8
    rw [idxOutRow35, ht]; omega
  | ⟨1, _⟩ =>
    show ((cfg35 a1).win 1).index t (1 : Fin 2) * 64 ≤ (i 1).val ∧ (i 1).val < ((cfg35 a1).win 1).index t (1 : Fin 2) * 64 + 64
    rw [idxOutCol35]; omega

/-! ## The array -/

/-- One weighted row at one column: the table row the e-th word names, at column j, times the e-th weight. -/
def chunkRow35 (hlt : ∀ y, (tbl35 a1 y).toNat < 100000) (c : Dev nD) (e : Fin 100000) (j : Fin 64) : EReal :=
  far35 V c (ValueIdx.ix2 ⟨(tbl35 a1 (ValueIdx.ix1 e)).toNat, hlt _⟩ j) * wts35 V c (ValueIdx.ix2 e (0 : Fin 1))

/-- The chunk's array as one function of the region's operands. -/
def chunkG35 (hlt : ∀ y, (tbl35 a1 y).toNat < 100000) (c : Dev nD) : S100000x64.Idx → EReal :=
  fun i => chunkRow35 V a1 hlt c (i 0) (i 1)

/-- Row r of point t's block lies in the table. -/
theorem row_lt35 (t : Fin (cfg35 a1).N) (r : Fin 8) : 8 * t.val + r.val < 100000 := by
  have ht : t.val < 12500 := (npoints35 a1) ▸ t.isLt
  have := r.isLt; omega

/-- WHAT POINT t WRITES BACK is block t of the chunk's array, when the body leaves in the output window's buffer,
    at (r, j), the table row that word 8 t + r names at column j times the input block's weight at (r, 0). -/
theorem flushedOut35_eq (hlt : ∀ y, (tbl35 a1 y).toNat < 100000)
    (hO : ∀ (c : Dev nD) (t : Fin (cfg35 a1).N) (r : Fin 8) (j : Fin 64), O c t (ValueIdx.ix2 r j)
      = far35 V c (ValueIdx.ix2 ⟨(tbl35 a1 (ValueIdx.ix1 ⟨8 * t.val + r.val, row_lt35 a1 t r⟩)).toNat, hlt _⟩ j)
        * inBlk35 V a1 c t (ValueIdx.ix2 r (0 : Fin 1)))
    (c : Dev nD) (t : Fin (cfg35 a1).N) :
    (dat35 V a1 O c).flushed 1 t = (((cfg35 a1).win 1).blk t).view.read (Elt Ideal) (chunkG35 V a1 hlt c) := by
  show ((cfg35 a1).win 1).cut ((cfg35 a1).grid.coords t) ((dat35 V a1 O c).after 1 t) = _
  rw [afterOut35]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG35 V a1 hlt c ((((cfg35 a1).win 1).blk t).view.emb (ValueIdx.ix2 r j))
  have hemb : (((cfg35 a1).win 1).blk t).view.emb (ValueIdx.ix2 r j)
      = (ValueIdx.ix2 ⟨8 * t.val + r.val, row_lt35 a1 t r⟩ j : S100000x64.Idx) := by
    funext a; apply Fin.ext
    match a with
    | ⟨0, _⟩ =>
      show ((cfg35 a1).win 1).index t (0 : Fin 2) * 8 + 1 * r.val = 8 * t.val + r.val
      rw [idxOutRow35]; omega
    | ⟨1, _⟩ =>
      show ((cfg35 a1).win 1).index t (1 : Fin 2) * 64 + 1 * j.val = j.val
      rw [idxOutCol35]; omega
  rw [hemb, hO c t r j,
    inBlk35_apply V a1 c t r 0 (ValueIdx.ix2 ⟨8 * t.val + r.val, row_lt35 a1 t r⟩ (0 : Fin 1)) rfl]
  rfl

/-- THE CHUNK'S ARRAY after the region: chunkG35. -/
theorem chunk_array35 (hlt : ∀ y, (tbl35 a1 y).toNat < 100000)
    (hO : ∀ (c : Dev nD) (t : Fin (cfg35 a1).N) (r : Fin 8) (j : Fin 64), O c t (ValueIdx.ix2 r j)
      = far35 V c (ValueIdx.ix2 ⟨(tbl35 a1 (ValueIdx.ix1 ⟨8 * t.val + r.val, row_lt35 a1 t r⟩)).toNat, hlt _⟩ j)
        * inBlk35 V a1 c t (ValueIdx.ix2 r (0 : Fin 1)))
    (c : Dev nD) :
    (dat35 V a1 O c).arrAt 1 (cfg35 a1).N = chunkG35 V a1 hlt c :=
  (dat35 V a1 O c).arrAt_eq_of_cover 1 (chunkG35 V a1 hlt c) (fun t _ => flushedOut35_eq V a1 O hlt hO c t) (coverOut35 a1)

/-! ## The body's own block -/

/-- Two rows of the far operand named by the same word are the same row. -/
theorem farRow35_congr (c : Dev nD) {e e' : Fin 100000} (h : e.val = e'.val) (j : Fin 64)
    (p : (tbl35 a1 (ValueIdx.ix1 e)).toNat < 100000) (p' : (tbl35 a1 (ValueIdx.ix1 e')).toNat < 100000) :
    far35 V c (ValueIdx.ix2 ⟨(tbl35 a1 (ValueIdx.ix1 e)).toNat, p⟩ j)
      = far35 V c (ValueIdx.ix2 ⟨(tbl35 a1 (ValueIdx.ix1 e')).toNat, p'⟩ j) := by
  obtain rfl : e = e' := Fin.ext h
  rfl

/-- The body's block at point t — the gathered rows scaled by the input block — has the entries hO asks. -/
theorem bodyBlk35_apply (hlt : ∀ y, (tbl35 a1 y).toNat < 100000) (c : Dev nD) (t : Fin (cfg35 a1).N) (r : Fin 8) (j : Fin 64) :
    gatherOut (gatherG (a1.1 0) (V c main_v141) (grid35.coords t)) (iblk35 V a1 c 0 t) (ValueIdx.ix2 r j)
      = far35 V c (ValueIdx.ix2 ⟨(tbl35 a1 (ValueIdx.ix1 ⟨8 * t.val + r.val, row_lt35 a1 t r⟩)).toNat, hlt _⟩ j)
        * inBlk35 V a1 c t (ValueIdx.ix2 r (0 : Fin 1)) := by
  have hpay : gatherOut (gatherG (a1.1 0) (V c main_v141) (grid35.coords t)) (iblk35 V a1 c 0 t) (ValueIdx.ix2 r j)
      = gatherG (F := Ideal) (tbl35 a1) (far35 V c) (grid35.coords t) (ValueIdx.ix2 r j) * inBlk35 V a1 c t (ValueIdx.ix2 r (0 : Fin 1)) :=
    Cert.Value.kernel_block (by decide) (by decide) (gatherG (F := Ideal) (tbl35 a1) (far35 V c) (grid35.coords t)) (inBlk35 V a1 c t) r j
  rw [hpay, gatherG_apply (F := Ideal) (tbl35 a1) (far35 V c) (grid35.coords t) r j (hlt _)]
  refine congrArg (· * inBlk35 V a1 c t (ValueIdx.ix2 r (0 : Fin 1))) ?_
  exact farRow35_congr V a1 c (by show 8 * ((grid35.coords t) 0).val + r.val = 8 * t.val + r.val; rw [coordsVal35 a1 t]) j _ _

/-- THE CHUNK'S ARRAY after the region, the output block being the body's own. -/
theorem chunk_array35_body (hlt : ∀ y, (tbl35 a1 y).toNat < 100000) (c : Dev nD) :
    (dat35 V a1 (fun c t => gatherOut (gatherG (a1.1 0) (V c main_v141) (grid35.coords t)) (iblk35 V a1 c 0 t)) c).arrAt 1 (cfg35 a1).N
      = chunkG35 V a1 hlt c :=
  chunk_array35 V a1 _ hlt (fun c t r j => bodyBlk35_apply V a1 hlt c t r j) c

/-! ## The array as a chunk of the weighted rows -/

/-- When the far operand is the table x, the region's table the slice of the row numbers cols at 100000 k and its
    weights the slice of vals there as a column, the region's array is chunk k of the weighted rows. -/
theorem chunkG35_eq_chunkSpec (hlt : ∀ y, (tbl35 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far35 V c = x) (ht : tbl35 a1 = extractStridedSlice Cert.Value.T100000 ![off] cols hsl)
    (hw : wts35 V c = shapeCast Cert.Value.T100000x1 (extractStridedSlice Cert.Value.T100000 ![off] vals hsl) hsc) :
    chunkG35 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl35 a1 (ValueIdx.ix1 e)).toNat, hlt _⟩ (congrArg (fun T : S100000.Idx → BitVec 32 => (T (ValueIdx.ix1 e)).toNat) ht), ← hx, ← hw]
  rfl

end Chunk

/-! # Region 36 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg36 (F := Ideal)).Adm)
  (O : (c : Dev nD) → Fin (cfg36 a1).N → Vec Ideal S8x64 .f32)

/-- The grid has 12500 points. -/
theorem npoints36 : (cfg36 a1).N = 12500 := N_36

/-- A point's one coordinate is the point's number. -/
theorem coordsVal36 (t : Fin (cfg36 a1).N) : (((cfg36 a1).grid.coords t) 0).val = t.val := by
  have ht : t.val < 12500 := (npoints36 a1) ▸ t.isLt
  show t.val / grid36.stride 0 % 12500 = t.val
  rw [show grid36.stride 0 = 1 from by decide, Nat.div_one, Nat.mod_eq_of_lt ht]

/-- Both windows move with the point: block index (t, 0) at point t. -/
theorem idxInRow36 (t : Fin (cfg36 a1).N) : ((cfg36 a1).win 0).index t (0 : Fin 2) = t.val := by
  have ht : t.val < 12500 := (npoints36 a1) ▸ t.isLt
  show (BitVec.ofNat 32 (((cfg36 a1).grid.coords t) 0).val).toNat = t.val
  rw [coordsVal36, BitVec.toNat_ofNat, Nat.mod_eq_of_lt (by omega)]
theorem idxInCol36 (t : Fin (cfg36 a1).N) : ((cfg36 a1).win 0).index t (1 : Fin 2) = 0 := rfl
theorem idxOutRow36 (t : Fin (cfg36 a1).N) : ((cfg36 a1).win 1).index t (0 : Fin 2) = t.val := by
  have ht : t.val < 12500 := (npoints36 a1) ▸ t.isLt
  show (BitVec.ofNat 32 (((cfg36 a1).grid.coords t) 0).val).toNat = t.val
  rw [coordsVal36, BitVec.toNat_ofNat, Nat.mod_eq_of_lt (by omega)]
theorem idxOutCol36 (t : Fin (cfg36 a1).N) : ((cfg36 a1).win 1).index t (1 : Fin 2) = 0 := rfl

/-- The output window is written back at every point: the next point's block is another. -/
theorem flushOut36 (t : Fin (cfg36 a1).N) : ((cfg36 a1).win 1).flush t = true := by
  unfold Window.flush
  show (true && (decide (t.val + 1 = (cfg36 a1).N) || decide (∃ h : t.val + 1 < (cfg36 a1).N,
    ((cfg36 a1).win 1).index ⟨t.val + 1, h⟩ ≠ ((cfg36 a1).win 1).index t))) = true
  rw [Bool.true_and, Bool.or_eq_true, decide_eq_true_eq, decide_eq_true_eq]
  by_cases h : t.val + 1 = (cfg36 a1).N
  · exact Or.inl h
  · refine Or.inr ⟨by have := t.isLt; omega, fun e => ?_⟩
    have erow := congrFun e (0 : Fin 2)
    rw [idxOutRow36, idxOutRow36] at erow
    exact absurd erow (by show t.val + 1 ≠ t.val; omega)

/-! ## The operands at their literal types -/

/-- The table's words. -/
abbrev tbl36 : S100000.Idx → BitVec 32 := a1.1 0
/-- The far operand: the table of rows. -/
abbrev far36 (c : Dev nD) : S100000x64.Idx → EReal := V c main_v141
/-- The weights, as a column. -/
abbrev wts36 (c : Dev nD) : S100000x1.Idx → EReal := V c main_v157
/-- The input window's block at point t: eight weights. -/
abbrev inBlk36 (c : Dev nD) (t : Fin (cfg36 a1).N) : S8x1.Idx → EReal := iblk36 V a1 c 0 t

/-! ## The blocks -/

/-- Row r of the input window's block at point t is row 8 t + r of the column of weights. -/
theorem inBlk36_apply (c : Dev nD) (t : Fin (cfg36 a1).N) (r : Fin 8) (z : Fin 1) (k : S100000x1.Idx)
    (hkrow : (k 0).val = 8 * t.val + r.val) :
    inBlk36 V a1 c t (ValueIdx.ix2 r z) = wts36 V c k := by
  show wts36 V c ((((cfg36 a1).win 0).blk t).view.emb (ValueIdx.ix2 r z)) = wts36 V c k
  refine congrArg (wts36 V c) (funext fun a => Fin.ext ?_)
  match a with
  | ⟨0, _⟩ =>
    show ((cfg36 a1).win 0).index t (0 : Fin 2) * 8 + 1 * r.val = (k 0).val
    rw [idxInRow36, hkrow]; omega
  | ⟨1, _⟩ =>
    show ((cfg36 a1).win 0).index t (1 : Fin 2) * 1 + 1 * z.val = (k 1).val
    have hkcol : (k 1).val < 1 := idx2_lt1 k
    have hz : z.val < 1 := z.isLt
    rw [idxInCol36]; omega

/-- An index of the array is in point t's block iff each coordinate is in the block's range on its axis. -/
theorem mem_blkOut36 (t : Fin (cfg36 a1).N) (i : S100000x64.Idx) :
    i ∈ (((cfg36 a1).win 1).blk t).view.set ↔ ∀ a : Fin 2, ((cfg36 a1).win 1).index t a * S8x64.size a ≤ (i a).val
      ∧ (i a).val < ((cfg36 a1).win 1).index t a * S8x64.size a + S8x64.size a := by
  have hset : (((cfg36 a1).win 1).blk t).view.set = (((cfg36 a1).win 1).rect t : Rect S100000x64).set :=
    View.set_slice_whole main_v158 _
  have hmem : i ∈ (((cfg36 a1).win 1).rect t : Rect S100000x64).set ↔ ∀ a : Fin 2,
      ((cfg36 a1).win 1).index t a * S8x64.size a ≤ (i a).val
        ∧ (i a).val < ((cfg36 a1).win 1).index t a * S8x64.size a + S8x64.size a := Rect.mem_set_unit
  exact (Finset.ext_iff.mp hset i).trans hmem

/-- Every index of the array is in the block of the point its row over eight names. -/
theorem coverOut36 (i : S100000x64.Idx) :
    ∃ t : Fin (cfg36 a1).N, ((cfg36 a1).win 1).flush t = true ∧ i ∈ (((cfg36 a1).win 1).blk t).view.set := by
  have hirow : (i 0).val < 100000 := idx2_lt0 i
  have hicol : (i 1).val < 64 := idx2_lt1 i
  obtain ⟨t, ht⟩ : ∃ t : Fin (cfg36 a1).N, t.val = (i 0).val / 8 := ⟨⟨(i 0).val / 8, by rw [npoints36]; omega⟩, rfl⟩
  refine ⟨t, flushOut36 a1 t, ?_⟩
  rw [mem_blkOut36]
  intro a
  match a with
  | ⟨0, _⟩ =>
    show ((cfg36 a1).win 1).index t (0 : Fin 2) * 8 ≤ (i 0).val ∧ (i 0).val < ((cfg36 a1).win 1).index t (0 : Fin 2) * 8 + 8
    rw [idxOutRow36, ht]; omega
  | ⟨1, _⟩ =>
    show ((cfg36 a1).win 1).index t (1 : Fin 2) * 64 ≤ (i 1).val ∧ (i 1).val < ((cfg36 a1).win 1).index t (1 : Fin 2) * 64 + 64
    rw [idxOutCol36]; omega

/-! ## The array -/

/-- One weighted row at one column: the table row the e-th word names, at column j, times the e-th weight. -/
def chunkRow36 (hlt : ∀ y, (tbl36 a1 y).toNat < 100000) (c : Dev nD) (e : Fin 100000) (j : Fin 64) : EReal :=
  far36 V c (ValueIdx.ix2 ⟨(tbl36 a1 (ValueIdx.ix1 e)).toNat, hlt _⟩ j) * wts36 V c (ValueIdx.ix2 e (0 : Fin 1))

/-- The chunk's array as one function of the region's operands. -/
def chunkG36 (hlt : ∀ y, (tbl36 a1 y).toNat < 100000) (c : Dev nD) : S100000x64.Idx → EReal :=
  fun i => chunkRow36 V a1 hlt c (i 0) (i 1)

/-- Row r of point t's block lies in the table. -/
theorem row_lt36 (t : Fin (cfg36 a1).N) (r : Fin 8) : 8 * t.val + r.val < 100000 := by
  have ht : t.val < 12500 := (npoints36 a1) ▸ t.isLt
  have := r.isLt; omega

/-- WHAT POINT t WRITES BACK is block t of the chunk's array, when the body leaves in the output window's buffer,
    at (r, j), the table row that word 8 t + r names at column j times the input block's weight at (r, 0). -/
theorem flushedOut36_eq (hlt : ∀ y, (tbl36 a1 y).toNat < 100000)
    (hO : ∀ (c : Dev nD) (t : Fin (cfg36 a1).N) (r : Fin 8) (j : Fin 64), O c t (ValueIdx.ix2 r j)
      = far36 V c (ValueIdx.ix2 ⟨(tbl36 a1 (ValueIdx.ix1 ⟨8 * t.val + r.val, row_lt36 a1 t r⟩)).toNat, hlt _⟩ j)
        * inBlk36 V a1 c t (ValueIdx.ix2 r (0 : Fin 1)))
    (c : Dev nD) (t : Fin (cfg36 a1).N) :
    (dat36 V a1 O c).flushed 1 t = (((cfg36 a1).win 1).blk t).view.read (Elt Ideal) (chunkG36 V a1 hlt c) := by
  show ((cfg36 a1).win 1).cut ((cfg36 a1).grid.coords t) ((dat36 V a1 O c).after 1 t) = _
  rw [afterOut36]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG36 V a1 hlt c ((((cfg36 a1).win 1).blk t).view.emb (ValueIdx.ix2 r j))
  have hemb : (((cfg36 a1).win 1).blk t).view.emb (ValueIdx.ix2 r j)
      = (ValueIdx.ix2 ⟨8 * t.val + r.val, row_lt36 a1 t r⟩ j : S100000x64.Idx) := by
    funext a; apply Fin.ext
    match a with
    | ⟨0, _⟩ =>
      show ((cfg36 a1).win 1).index t (0 : Fin 2) * 8 + 1 * r.val = 8 * t.val + r.val
      rw [idxOutRow36]; omega
    | ⟨1, _⟩ =>
      show ((cfg36 a1).win 1).index t (1 : Fin 2) * 64 + 1 * j.val = j.val
      rw [idxOutCol36]; omega
  rw [hemb, hO c t r j,
    inBlk36_apply V a1 c t r 0 (ValueIdx.ix2 ⟨8 * t.val + r.val, row_lt36 a1 t r⟩ (0 : Fin 1)) rfl]
  rfl

/-- THE CHUNK'S ARRAY after the region: chunkG36. -/
theorem chunk_array36 (hlt : ∀ y, (tbl36 a1 y).toNat < 100000)
    (hO : ∀ (c : Dev nD) (t : Fin (cfg36 a1).N) (r : Fin 8) (j : Fin 64), O c t (ValueIdx.ix2 r j)
      = far36 V c (ValueIdx.ix2 ⟨(tbl36 a1 (ValueIdx.ix1 ⟨8 * t.val + r.val, row_lt36 a1 t r⟩)).toNat, hlt _⟩ j)
        * inBlk36 V a1 c t (ValueIdx.ix2 r (0 : Fin 1)))
    (c : Dev nD) :
    (dat36 V a1 O c).arrAt 1 (cfg36 a1).N = chunkG36 V a1 hlt c :=
  (dat36 V a1 O c).arrAt_eq_of_cover 1 (chunkG36 V a1 hlt c) (fun t _ => flushedOut36_eq V a1 O hlt hO c t) (coverOut36 a1)

/-! ## The body's own block -/

/-- Two rows of the far operand named by the same word are the same row. -/
theorem farRow36_congr (c : Dev nD) {e e' : Fin 100000} (h : e.val = e'.val) (j : Fin 64)
    (p : (tbl36 a1 (ValueIdx.ix1 e)).toNat < 100000) (p' : (tbl36 a1 (ValueIdx.ix1 e')).toNat < 100000) :
    far36 V c (ValueIdx.ix2 ⟨(tbl36 a1 (ValueIdx.ix1 e)).toNat, p⟩ j)
      = far36 V c (ValueIdx.ix2 ⟨(tbl36 a1 (ValueIdx.ix1 e')).toNat, p'⟩ j) := by
  obtain rfl : e = e' := Fin.ext h
  rfl

/-- The body's block at point t — the gathered rows scaled by the input block — has the entries hO asks. -/
theorem bodyBlk36_apply (hlt : ∀ y, (tbl36 a1 y).toNat < 100000) (c : Dev nD) (t : Fin (cfg36 a1).N) (r : Fin 8) (j : Fin 64) :
    gatherOut (gatherG (a1.1 0) (V c main_v141) (grid36.coords t)) (iblk36 V a1 c 0 t) (ValueIdx.ix2 r j)
      = far36 V c (ValueIdx.ix2 ⟨(tbl36 a1 (ValueIdx.ix1 ⟨8 * t.val + r.val, row_lt36 a1 t r⟩)).toNat, hlt _⟩ j)
        * inBlk36 V a1 c t (ValueIdx.ix2 r (0 : Fin 1)) := by
  have hpay : gatherOut (gatherG (a1.1 0) (V c main_v141) (grid36.coords t)) (iblk36 V a1 c 0 t) (ValueIdx.ix2 r j)
      = gatherG (F := Ideal) (tbl36 a1) (far36 V c) (grid36.coords t) (ValueIdx.ix2 r j) * inBlk36 V a1 c t (ValueIdx.ix2 r (0 : Fin 1)) :=
    Cert.Value.kernel_block (by decide) (by decide) (gatherG (F := Ideal) (tbl36 a1) (far36 V c) (grid36.coords t)) (inBlk36 V a1 c t) r j
  rw [hpay, gatherG_apply (F := Ideal) (tbl36 a1) (far36 V c) (grid36.coords t) r j (hlt _)]
  refine congrArg (· * inBlk36 V a1 c t (ValueIdx.ix2 r (0 : Fin 1))) ?_
  exact farRow36_congr V a1 c (by show 8 * ((grid36.coords t) 0).val + r.val = 8 * t.val + r.val; rw [coordsVal36 a1 t]) j _ _

/-- THE CHUNK'S ARRAY after the region, the output block being the body's own. -/
theorem chunk_array36_body (hlt : ∀ y, (tbl36 a1 y).toNat < 100000) (c : Dev nD) :
    (dat36 V a1 (fun c t => gatherOut (gatherG (a1.1 0) (V c main_v141) (grid36.coords t)) (iblk36 V a1 c 0 t)) c).arrAt 1 (cfg36 a1).N
      = chunkG36 V a1 hlt c :=
  chunk_array36 V a1 _ hlt (fun c t r j => bodyBlk36_apply V a1 hlt c t r j) c

/-! ## The array as a chunk of the weighted rows -/

/-- When the far operand is the table x, the region's table the slice of the row numbers cols at 100000 k and its
    weights the slice of vals there as a column, the region's array is chunk k of the weighted rows. -/
theorem chunkG36_eq_chunkSpec (hlt : ∀ y, (tbl36 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far36 V c = x) (ht : tbl36 a1 = extractStridedSlice Cert.Value.T100000 ![off] cols hsl)
    (hw : wts36 V c = shapeCast Cert.Value.T100000x1 (extractStridedSlice Cert.Value.T100000 ![off] vals hsl) hsc) :
    chunkG36 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl36 a1 (ValueIdx.ix1 e)).toNat, hlt _⟩ (congrArg (fun T : S100000.Idx → BitVec 32 => (T (ValueIdx.ix1 e)).toNat) ht), ← hx, ← hw]
  rfl

end Chunk

/-! # Region 37 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg37 (F := Ideal)).Adm)
  (O : (c : Dev nD) → Fin (cfg37 a1).N → Vec Ideal S8x64 .f32)

/-- The grid has 12500 points. -/
theorem npoints37 : (cfg37 a1).N = 12500 := N_37

/-- A point's one coordinate is the point's number. -/
theorem coordsVal37 (t : Fin (cfg37 a1).N) : (((cfg37 a1).grid.coords t) 0).val = t.val := by
  have ht : t.val < 12500 := (npoints37 a1) ▸ t.isLt
  show t.val / grid37.stride 0 % 12500 = t.val
  rw [show grid37.stride 0 = 1 from by decide, Nat.div_one, Nat.mod_eq_of_lt ht]

/-- Both windows move with the point: block index (t, 0) at point t. -/
theorem idxInRow37 (t : Fin (cfg37 a1).N) : ((cfg37 a1).win 0).index t (0 : Fin 2) = t.val := by
  have ht : t.val < 12500 := (npoints37 a1) ▸ t.isLt
  show (BitVec.ofNat 32 (((cfg37 a1).grid.coords t) 0).val).toNat = t.val
  rw [coordsVal37, BitVec.toNat_ofNat, Nat.mod_eq_of_lt (by omega)]
theorem idxInCol37 (t : Fin (cfg37 a1).N) : ((cfg37 a1).win 0).index t (1 : Fin 2) = 0 := rfl
theorem idxOutRow37 (t : Fin (cfg37 a1).N) : ((cfg37 a1).win 1).index t (0 : Fin 2) = t.val := by
  have ht : t.val < 12500 := (npoints37 a1) ▸ t.isLt
  show (BitVec.ofNat 32 (((cfg37 a1).grid.coords t) 0).val).toNat = t.val
  rw [coordsVal37, BitVec.toNat_ofNat, Nat.mod_eq_of_lt (by omega)]
theorem idxOutCol37 (t : Fin (cfg37 a1).N) : ((cfg37 a1).win 1).index t (1 : Fin 2) = 0 := rfl

/-- The output window is written back at every point: the next point's block is another. -/
theorem flushOut37 (t : Fin (cfg37 a1).N) : ((cfg37 a1).win 1).flush t = true := by
  unfold Window.flush
  show (true && (decide (t.val + 1 = (cfg37 a1).N) || decide (∃ h : t.val + 1 < (cfg37 a1).N,
    ((cfg37 a1).win 1).index ⟨t.val + 1, h⟩ ≠ ((cfg37 a1).win 1).index t))) = true
  rw [Bool.true_and, Bool.or_eq_true, decide_eq_true_eq, decide_eq_true_eq]
  by_cases h : t.val + 1 = (cfg37 a1).N
  · exact Or.inl h
  · refine Or.inr ⟨by have := t.isLt; omega, fun e => ?_⟩
    have erow := congrFun e (0 : Fin 2)
    rw [idxOutRow37, idxOutRow37] at erow
    exact absurd erow (by show t.val + 1 ≠ t.val; omega)

/-! ## The operands at their literal types -/

/-- The table's words. -/
abbrev tbl37 : S100000.Idx → BitVec 32 := a1.1 0
/-- The far operand: the table of rows. -/
abbrev far37 (c : Dev nD) : S100000x64.Idx → EReal := V c main_v141
/-- The weights, as a column. -/
abbrev wts37 (c : Dev nD) : S100000x1.Idx → EReal := V c main_v161
/-- The input window's block at point t: eight weights. -/
abbrev inBlk37 (c : Dev nD) (t : Fin (cfg37 a1).N) : S8x1.Idx → EReal := iblk37 V a1 c 0 t

/-! ## The blocks -/

/-- Row r of the input window's block at point t is row 8 t + r of the column of weights. -/
theorem inBlk37_apply (c : Dev nD) (t : Fin (cfg37 a1).N) (r : Fin 8) (z : Fin 1) (k : S100000x1.Idx)
    (hkrow : (k 0).val = 8 * t.val + r.val) :
    inBlk37 V a1 c t (ValueIdx.ix2 r z) = wts37 V c k := by
  show wts37 V c ((((cfg37 a1).win 0).blk t).view.emb (ValueIdx.ix2 r z)) = wts37 V c k
  refine congrArg (wts37 V c) (funext fun a => Fin.ext ?_)
  match a with
  | ⟨0, _⟩ =>
    show ((cfg37 a1).win 0).index t (0 : Fin 2) * 8 + 1 * r.val = (k 0).val
    rw [idxInRow37, hkrow]; omega
  | ⟨1, _⟩ =>
    show ((cfg37 a1).win 0).index t (1 : Fin 2) * 1 + 1 * z.val = (k 1).val
    have hkcol : (k 1).val < 1 := idx2_lt1 k
    have hz : z.val < 1 := z.isLt
    rw [idxInCol37]; omega

/-- An index of the array is in point t's block iff each coordinate is in the block's range on its axis. -/
theorem mem_blkOut37 (t : Fin (cfg37 a1).N) (i : S100000x64.Idx) :
    i ∈ (((cfg37 a1).win 1).blk t).view.set ↔ ∀ a : Fin 2, ((cfg37 a1).win 1).index t a * S8x64.size a ≤ (i a).val
      ∧ (i a).val < ((cfg37 a1).win 1).index t a * S8x64.size a + S8x64.size a := by
  have hset : (((cfg37 a1).win 1).blk t).view.set = (((cfg37 a1).win 1).rect t : Rect S100000x64).set :=
    View.set_slice_whole main_v162 _
  have hmem : i ∈ (((cfg37 a1).win 1).rect t : Rect S100000x64).set ↔ ∀ a : Fin 2,
      ((cfg37 a1).win 1).index t a * S8x64.size a ≤ (i a).val
        ∧ (i a).val < ((cfg37 a1).win 1).index t a * S8x64.size a + S8x64.size a := Rect.mem_set_unit
  exact (Finset.ext_iff.mp hset i).trans hmem

/-- Every index of the array is in the block of the point its row over eight names. -/
theorem coverOut37 (i : S100000x64.Idx) :
    ∃ t : Fin (cfg37 a1).N, ((cfg37 a1).win 1).flush t = true ∧ i ∈ (((cfg37 a1).win 1).blk t).view.set := by
  have hirow : (i 0).val < 100000 := idx2_lt0 i
  have hicol : (i 1).val < 64 := idx2_lt1 i
  obtain ⟨t, ht⟩ : ∃ t : Fin (cfg37 a1).N, t.val = (i 0).val / 8 := ⟨⟨(i 0).val / 8, by rw [npoints37]; omega⟩, rfl⟩
  refine ⟨t, flushOut37 a1 t, ?_⟩
  rw [mem_blkOut37]
  intro a
  match a with
  | ⟨0, _⟩ =>
    show ((cfg37 a1).win 1).index t (0 : Fin 2) * 8 ≤ (i 0).val ∧ (i 0).val < ((cfg37 a1).win 1).index t (0 : Fin 2) * 8 + 8
    rw [idxOutRow37, ht]; omega
  | ⟨1, _⟩ =>
    show ((cfg37 a1).win 1).index t (1 : Fin 2) * 64 ≤ (i 1).val ∧ (i 1).val < ((cfg37 a1).win 1).index t (1 : Fin 2) * 64 + 64
    rw [idxOutCol37]; omega

/-! ## The array -/

/-- One weighted row at one column: the table row the e-th word names, at column j, times the e-th weight. -/
def chunkRow37 (hlt : ∀ y, (tbl37 a1 y).toNat < 100000) (c : Dev nD) (e : Fin 100000) (j : Fin 64) : EReal :=
  far37 V c (ValueIdx.ix2 ⟨(tbl37 a1 (ValueIdx.ix1 e)).toNat, hlt _⟩ j) * wts37 V c (ValueIdx.ix2 e (0 : Fin 1))

/-- The chunk's array as one function of the region's operands. -/
def chunkG37 (hlt : ∀ y, (tbl37 a1 y).toNat < 100000) (c : Dev nD) : S100000x64.Idx → EReal :=
  fun i => chunkRow37 V a1 hlt c (i 0) (i 1)

/-- Row r of point t's block lies in the table. -/
theorem row_lt37 (t : Fin (cfg37 a1).N) (r : Fin 8) : 8 * t.val + r.val < 100000 := by
  have ht : t.val < 12500 := (npoints37 a1) ▸ t.isLt
  have := r.isLt; omega

/-- WHAT POINT t WRITES BACK is block t of the chunk's array, when the body leaves in the output window's buffer,
    at (r, j), the table row that word 8 t + r names at column j times the input block's weight at (r, 0). -/
theorem flushedOut37_eq (hlt : ∀ y, (tbl37 a1 y).toNat < 100000)
    (hO : ∀ (c : Dev nD) (t : Fin (cfg37 a1).N) (r : Fin 8) (j : Fin 64), O c t (ValueIdx.ix2 r j)
      = far37 V c (ValueIdx.ix2 ⟨(tbl37 a1 (ValueIdx.ix1 ⟨8 * t.val + r.val, row_lt37 a1 t r⟩)).toNat, hlt _⟩ j)
        * inBlk37 V a1 c t (ValueIdx.ix2 r (0 : Fin 1)))
    (c : Dev nD) (t : Fin (cfg37 a1).N) :
    (dat37 V a1 O c).flushed 1 t = (((cfg37 a1).win 1).blk t).view.read (Elt Ideal) (chunkG37 V a1 hlt c) := by
  show ((cfg37 a1).win 1).cut ((cfg37 a1).grid.coords t) ((dat37 V a1 O c).after 1 t) = _
  rw [afterOut37]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG37 V a1 hlt c ((((cfg37 a1).win 1).blk t).view.emb (ValueIdx.ix2 r j))
  have hemb : (((cfg37 a1).win 1).blk t).view.emb (ValueIdx.ix2 r j)
      = (ValueIdx.ix2 ⟨8 * t.val + r.val, row_lt37 a1 t r⟩ j : S100000x64.Idx) := by
    funext a; apply Fin.ext
    match a with
    | ⟨0, _⟩ =>
      show ((cfg37 a1).win 1).index t (0 : Fin 2) * 8 + 1 * r.val = 8 * t.val + r.val
      rw [idxOutRow37]; omega
    | ⟨1, _⟩ =>
      show ((cfg37 a1).win 1).index t (1 : Fin 2) * 64 + 1 * j.val = j.val
      rw [idxOutCol37]; omega
  rw [hemb, hO c t r j,
    inBlk37_apply V a1 c t r 0 (ValueIdx.ix2 ⟨8 * t.val + r.val, row_lt37 a1 t r⟩ (0 : Fin 1)) rfl]
  rfl

/-- THE CHUNK'S ARRAY after the region: chunkG37. -/
theorem chunk_array37 (hlt : ∀ y, (tbl37 a1 y).toNat < 100000)
    (hO : ∀ (c : Dev nD) (t : Fin (cfg37 a1).N) (r : Fin 8) (j : Fin 64), O c t (ValueIdx.ix2 r j)
      = far37 V c (ValueIdx.ix2 ⟨(tbl37 a1 (ValueIdx.ix1 ⟨8 * t.val + r.val, row_lt37 a1 t r⟩)).toNat, hlt _⟩ j)
        * inBlk37 V a1 c t (ValueIdx.ix2 r (0 : Fin 1)))
    (c : Dev nD) :
    (dat37 V a1 O c).arrAt 1 (cfg37 a1).N = chunkG37 V a1 hlt c :=
  (dat37 V a1 O c).arrAt_eq_of_cover 1 (chunkG37 V a1 hlt c) (fun t _ => flushedOut37_eq V a1 O hlt hO c t) (coverOut37 a1)

/-! ## The body's own block -/

/-- Two rows of the far operand named by the same word are the same row. -/
theorem farRow37_congr (c : Dev nD) {e e' : Fin 100000} (h : e.val = e'.val) (j : Fin 64)
    (p : (tbl37 a1 (ValueIdx.ix1 e)).toNat < 100000) (p' : (tbl37 a1 (ValueIdx.ix1 e')).toNat < 100000) :
    far37 V c (ValueIdx.ix2 ⟨(tbl37 a1 (ValueIdx.ix1 e)).toNat, p⟩ j)
      = far37 V c (ValueIdx.ix2 ⟨(tbl37 a1 (ValueIdx.ix1 e')).toNat, p'⟩ j) := by
  obtain rfl : e = e' := Fin.ext h
  rfl

/-- The body's block at point t — the gathered rows scaled by the input block — has the entries hO asks. -/
theorem bodyBlk37_apply (hlt : ∀ y, (tbl37 a1 y).toNat < 100000) (c : Dev nD) (t : Fin (cfg37 a1).N) (r : Fin 8) (j : Fin 64) :
    gatherOut (gatherG (a1.1 0) (V c main_v141) (grid37.coords t)) (iblk37 V a1 c 0 t) (ValueIdx.ix2 r j)
      = far37 V c (ValueIdx.ix2 ⟨(tbl37 a1 (ValueIdx.ix1 ⟨8 * t.val + r.val, row_lt37 a1 t r⟩)).toNat, hlt _⟩ j)
        * inBlk37 V a1 c t (ValueIdx.ix2 r (0 : Fin 1)) := by
  have hpay : gatherOut (gatherG (a1.1 0) (V c main_v141) (grid37.coords t)) (iblk37 V a1 c 0 t) (ValueIdx.ix2 r j)
      = gatherG (F := Ideal) (tbl37 a1) (far37 V c) (grid37.coords t) (ValueIdx.ix2 r j) * inBlk37 V a1 c t (ValueIdx.ix2 r (0 : Fin 1)) :=
    Cert.Value.kernel_block (by decide) (by decide) (gatherG (F := Ideal) (tbl37 a1) (far37 V c) (grid37.coords t)) (inBlk37 V a1 c t) r j
  rw [hpay, gatherG_apply (F := Ideal) (tbl37 a1) (far37 V c) (grid37.coords t) r j (hlt _)]
  refine congrArg (· * inBlk37 V a1 c t (ValueIdx.ix2 r (0 : Fin 1))) ?_
  exact farRow37_congr V a1 c (by show 8 * ((grid37.coords t) 0).val + r.val = 8 * t.val + r.val; rw [coordsVal37 a1 t]) j _ _

/-- THE CHUNK'S ARRAY after the region, the output block being the body's own. -/
theorem chunk_array37_body (hlt : ∀ y, (tbl37 a1 y).toNat < 100000) (c : Dev nD) :
    (dat37 V a1 (fun c t => gatherOut (gatherG (a1.1 0) (V c main_v141) (grid37.coords t)) (iblk37 V a1 c 0 t)) c).arrAt 1 (cfg37 a1).N
      = chunkG37 V a1 hlt c :=
  chunk_array37 V a1 _ hlt (fun c t r j => bodyBlk37_apply V a1 hlt c t r j) c

/-! ## The array as a chunk of the weighted rows -/

/-- When the far operand is the table x, the region's table the slice of the row numbers cols at 100000 k and its
    weights the slice of vals there as a column, the region's array is chunk k of the weighted rows. -/
theorem chunkG37_eq_chunkSpec (hlt : ∀ y, (tbl37 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far37 V c = x) (ht : tbl37 a1 = extractStridedSlice Cert.Value.T100000 ![off] cols hsl)
    (hw : wts37 V c = shapeCast Cert.Value.T100000x1 (extractStridedSlice Cert.Value.T100000 ![off] vals hsl) hsc) :
    chunkG37 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl37 a1 (ValueIdx.ix1 e)).toNat, hlt _⟩ (congrArg (fun T : S100000.Idx → BitVec 32 => (T (ValueIdx.ix1 e)).toNat) ht), ← hx, ← hw]
  rfl

end Chunk

/-! # Region 38 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg38 (F := Ideal)).Adm)
  (O : (c : Dev nD) → Fin (cfg38 a1).N → Vec Ideal S8x64 .f32)

/-- The grid has 12500 points. -/
theorem npoints38 : (cfg38 a1).N = 12500 := N_38

/-- A point's one coordinate is the point's number. -/
theorem coordsVal38 (t : Fin (cfg38 a1).N) : (((cfg38 a1).grid.coords t) 0).val = t.val := by
  have ht : t.val < 12500 := (npoints38 a1) ▸ t.isLt
  show t.val / grid38.stride 0 % 12500 = t.val
  rw [show grid38.stride 0 = 1 from by decide, Nat.div_one, Nat.mod_eq_of_lt ht]

/-- Both windows move with the point: block index (t, 0) at point t. -/
theorem idxInRow38 (t : Fin (cfg38 a1).N) : ((cfg38 a1).win 0).index t (0 : Fin 2) = t.val := by
  have ht : t.val < 12500 := (npoints38 a1) ▸ t.isLt
  show (BitVec.ofNat 32 (((cfg38 a1).grid.coords t) 0).val).toNat = t.val
  rw [coordsVal38, BitVec.toNat_ofNat, Nat.mod_eq_of_lt (by omega)]
theorem idxInCol38 (t : Fin (cfg38 a1).N) : ((cfg38 a1).win 0).index t (1 : Fin 2) = 0 := rfl
theorem idxOutRow38 (t : Fin (cfg38 a1).N) : ((cfg38 a1).win 1).index t (0 : Fin 2) = t.val := by
  have ht : t.val < 12500 := (npoints38 a1) ▸ t.isLt
  show (BitVec.ofNat 32 (((cfg38 a1).grid.coords t) 0).val).toNat = t.val
  rw [coordsVal38, BitVec.toNat_ofNat, Nat.mod_eq_of_lt (by omega)]
theorem idxOutCol38 (t : Fin (cfg38 a1).N) : ((cfg38 a1).win 1).index t (1 : Fin 2) = 0 := rfl

/-- The output window is written back at every point: the next point's block is another. -/
theorem flushOut38 (t : Fin (cfg38 a1).N) : ((cfg38 a1).win 1).flush t = true := by
  unfold Window.flush
  show (true && (decide (t.val + 1 = (cfg38 a1).N) || decide (∃ h : t.val + 1 < (cfg38 a1).N,
    ((cfg38 a1).win 1).index ⟨t.val + 1, h⟩ ≠ ((cfg38 a1).win 1).index t))) = true
  rw [Bool.true_and, Bool.or_eq_true, decide_eq_true_eq, decide_eq_true_eq]
  by_cases h : t.val + 1 = (cfg38 a1).N
  · exact Or.inl h
  · refine Or.inr ⟨by have := t.isLt; omega, fun e => ?_⟩
    have erow := congrFun e (0 : Fin 2)
    rw [idxOutRow38, idxOutRow38] at erow
    exact absurd erow (by show t.val + 1 ≠ t.val; omega)

/-! ## The operands at their literal types -/

/-- The table's words. -/
abbrev tbl38 : S100000.Idx → BitVec 32 := a1.1 0
/-- The far operand: the table of rows. -/
abbrev far38 (c : Dev nD) : S100000x64.Idx → EReal := V c main_v141
/-- The weights, as a column. -/
abbrev wts38 (c : Dev nD) : S100000x1.Idx → EReal := V c main_v165
/-- The input window's block at point t: eight weights. -/
abbrev inBlk38 (c : Dev nD) (t : Fin (cfg38 a1).N) : S8x1.Idx → EReal := iblk38 V a1 c 0 t

/-! ## The blocks -/

/-- Row r of the input window's block at point t is row 8 t + r of the column of weights. -/
theorem inBlk38_apply (c : Dev nD) (t : Fin (cfg38 a1).N) (r : Fin 8) (z : Fin 1) (k : S100000x1.Idx)
    (hkrow : (k 0).val = 8 * t.val + r.val) :
    inBlk38 V a1 c t (ValueIdx.ix2 r z) = wts38 V c k := by
  show wts38 V c ((((cfg38 a1).win 0).blk t).view.emb (ValueIdx.ix2 r z)) = wts38 V c k
  refine congrArg (wts38 V c) (funext fun a => Fin.ext ?_)
  match a with
  | ⟨0, _⟩ =>
    show ((cfg38 a1).win 0).index t (0 : Fin 2) * 8 + 1 * r.val = (k 0).val
    rw [idxInRow38, hkrow]; omega
  | ⟨1, _⟩ =>
    show ((cfg38 a1).win 0).index t (1 : Fin 2) * 1 + 1 * z.val = (k 1).val
    have hkcol : (k 1).val < 1 := idx2_lt1 k
    have hz : z.val < 1 := z.isLt
    rw [idxInCol38]; omega

/-- An index of the array is in point t's block iff each coordinate is in the block's range on its axis. -/
theorem mem_blkOut38 (t : Fin (cfg38 a1).N) (i : S100000x64.Idx) :
    i ∈ (((cfg38 a1).win 1).blk t).view.set ↔ ∀ a : Fin 2, ((cfg38 a1).win 1).index t a * S8x64.size a ≤ (i a).val
      ∧ (i a).val < ((cfg38 a1).win 1).index t a * S8x64.size a + S8x64.size a := by
  have hset : (((cfg38 a1).win 1).blk t).view.set = (((cfg38 a1).win 1).rect t : Rect S100000x64).set :=
    View.set_slice_whole main_v166 _
  have hmem : i ∈ (((cfg38 a1).win 1).rect t : Rect S100000x64).set ↔ ∀ a : Fin 2,
      ((cfg38 a1).win 1).index t a * S8x64.size a ≤ (i a).val
        ∧ (i a).val < ((cfg38 a1).win 1).index t a * S8x64.size a + S8x64.size a := Rect.mem_set_unit
  exact (Finset.ext_iff.mp hset i).trans hmem

/-- Every index of the array is in the block of the point its row over eight names. -/
theorem coverOut38 (i : S100000x64.Idx) :
    ∃ t : Fin (cfg38 a1).N, ((cfg38 a1).win 1).flush t = true ∧ i ∈ (((cfg38 a1).win 1).blk t).view.set := by
  have hirow : (i 0).val < 100000 := idx2_lt0 i
  have hicol : (i 1).val < 64 := idx2_lt1 i
  obtain ⟨t, ht⟩ : ∃ t : Fin (cfg38 a1).N, t.val = (i 0).val / 8 := ⟨⟨(i 0).val / 8, by rw [npoints38]; omega⟩, rfl⟩
  refine ⟨t, flushOut38 a1 t, ?_⟩
  rw [mem_blkOut38]
  intro a
  match a with
  | ⟨0, _⟩ =>
    show ((cfg38 a1).win 1).index t (0 : Fin 2) * 8 ≤ (i 0).val ∧ (i 0).val < ((cfg38 a1).win 1).index t (0 : Fin 2) * 8 + 8
    rw [idxOutRow38, ht]; omega
  | ⟨1, _⟩ =>
    show ((cfg38 a1).win 1).index t (1 : Fin 2) * 64 ≤ (i 1).val ∧ (i 1).val < ((cfg38 a1).win 1).index t (1 : Fin 2) * 64 + 64
    rw [idxOutCol38]; omega

/-! ## The array -/

/-- One weighted row at one column: the table row the e-th word names, at column j, times the e-th weight. -/
def chunkRow38 (hlt : ∀ y, (tbl38 a1 y).toNat < 100000) (c : Dev nD) (e : Fin 100000) (j : Fin 64) : EReal :=
  far38 V c (ValueIdx.ix2 ⟨(tbl38 a1 (ValueIdx.ix1 e)).toNat, hlt _⟩ j) * wts38 V c (ValueIdx.ix2 e (0 : Fin 1))

/-- The chunk's array as one function of the region's operands. -/
def chunkG38 (hlt : ∀ y, (tbl38 a1 y).toNat < 100000) (c : Dev nD) : S100000x64.Idx → EReal :=
  fun i => chunkRow38 V a1 hlt c (i 0) (i 1)

/-- Row r of point t's block lies in the table. -/
theorem row_lt38 (t : Fin (cfg38 a1).N) (r : Fin 8) : 8 * t.val + r.val < 100000 := by
  have ht : t.val < 12500 := (npoints38 a1) ▸ t.isLt
  have := r.isLt; omega

/-- WHAT POINT t WRITES BACK is block t of the chunk's array, when the body leaves in the output window's buffer,
    at (r, j), the table row that word 8 t + r names at column j times the input block's weight at (r, 0). -/
theorem flushedOut38_eq (hlt : ∀ y, (tbl38 a1 y).toNat < 100000)
    (hO : ∀ (c : Dev nD) (t : Fin (cfg38 a1).N) (r : Fin 8) (j : Fin 64), O c t (ValueIdx.ix2 r j)
      = far38 V c (ValueIdx.ix2 ⟨(tbl38 a1 (ValueIdx.ix1 ⟨8 * t.val + r.val, row_lt38 a1 t r⟩)).toNat, hlt _⟩ j)
        * inBlk38 V a1 c t (ValueIdx.ix2 r (0 : Fin 1)))
    (c : Dev nD) (t : Fin (cfg38 a1).N) :
    (dat38 V a1 O c).flushed 1 t = (((cfg38 a1).win 1).blk t).view.read (Elt Ideal) (chunkG38 V a1 hlt c) := by
  show ((cfg38 a1).win 1).cut ((cfg38 a1).grid.coords t) ((dat38 V a1 O c).after 1 t) = _
  rw [afterOut38]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG38 V a1 hlt c ((((cfg38 a1).win 1).blk t).view.emb (ValueIdx.ix2 r j))
  have hemb : (((cfg38 a1).win 1).blk t).view.emb (ValueIdx.ix2 r j)
      = (ValueIdx.ix2 ⟨8 * t.val + r.val, row_lt38 a1 t r⟩ j : S100000x64.Idx) := by
    funext a; apply Fin.ext
    match a with
    | ⟨0, _⟩ =>
      show ((cfg38 a1).win 1).index t (0 : Fin 2) * 8 + 1 * r.val = 8 * t.val + r.val
      rw [idxOutRow38]; omega
    | ⟨1, _⟩ =>
      show ((cfg38 a1).win 1).index t (1 : Fin 2) * 64 + 1 * j.val = j.val
      rw [idxOutCol38]; omega
  rw [hemb, hO c t r j,
    inBlk38_apply V a1 c t r 0 (ValueIdx.ix2 ⟨8 * t.val + r.val, row_lt38 a1 t r⟩ (0 : Fin 1)) rfl]
  rfl

/-- THE CHUNK'S ARRAY after the region: chunkG38. -/
theorem chunk_array38 (hlt : ∀ y, (tbl38 a1 y).toNat < 100000)
    (hO : ∀ (c : Dev nD) (t : Fin (cfg38 a1).N) (r : Fin 8) (j : Fin 64), O c t (ValueIdx.ix2 r j)
      = far38 V c (ValueIdx.ix2 ⟨(tbl38 a1 (ValueIdx.ix1 ⟨8 * t.val + r.val, row_lt38 a1 t r⟩)).toNat, hlt _⟩ j)
        * inBlk38 V a1 c t (ValueIdx.ix2 r (0 : Fin 1)))
    (c : Dev nD) :
    (dat38 V a1 O c).arrAt 1 (cfg38 a1).N = chunkG38 V a1 hlt c :=
  (dat38 V a1 O c).arrAt_eq_of_cover 1 (chunkG38 V a1 hlt c) (fun t _ => flushedOut38_eq V a1 O hlt hO c t) (coverOut38 a1)

/-! ## The body's own block -/

/-- Two rows of the far operand named by the same word are the same row. -/
theorem farRow38_congr (c : Dev nD) {e e' : Fin 100000} (h : e.val = e'.val) (j : Fin 64)
    (p : (tbl38 a1 (ValueIdx.ix1 e)).toNat < 100000) (p' : (tbl38 a1 (ValueIdx.ix1 e')).toNat < 100000) :
    far38 V c (ValueIdx.ix2 ⟨(tbl38 a1 (ValueIdx.ix1 e)).toNat, p⟩ j)
      = far38 V c (ValueIdx.ix2 ⟨(tbl38 a1 (ValueIdx.ix1 e')).toNat, p'⟩ j) := by
  obtain rfl : e = e' := Fin.ext h
  rfl

/-- The body's block at point t — the gathered rows scaled by the input block — has the entries hO asks. -/
theorem bodyBlk38_apply (hlt : ∀ y, (tbl38 a1 y).toNat < 100000) (c : Dev nD) (t : Fin (cfg38 a1).N) (r : Fin 8) (j : Fin 64) :
    gatherOut (gatherG (a1.1 0) (V c main_v141) (grid38.coords t)) (iblk38 V a1 c 0 t) (ValueIdx.ix2 r j)
      = far38 V c (ValueIdx.ix2 ⟨(tbl38 a1 (ValueIdx.ix1 ⟨8 * t.val + r.val, row_lt38 a1 t r⟩)).toNat, hlt _⟩ j)
        * inBlk38 V a1 c t (ValueIdx.ix2 r (0 : Fin 1)) := by
  have hpay : gatherOut (gatherG (a1.1 0) (V c main_v141) (grid38.coords t)) (iblk38 V a1 c 0 t) (ValueIdx.ix2 r j)
      = gatherG (F := Ideal) (tbl38 a1) (far38 V c) (grid38.coords t) (ValueIdx.ix2 r j) * inBlk38 V a1 c t (ValueIdx.ix2 r (0 : Fin 1)) :=
    Cert.Value.kernel_block (by decide) (by decide) (gatherG (F := Ideal) (tbl38 a1) (far38 V c) (grid38.coords t)) (inBlk38 V a1 c t) r j
  rw [hpay, gatherG_apply (F := Ideal) (tbl38 a1) (far38 V c) (grid38.coords t) r j (hlt _)]
  refine congrArg (· * inBlk38 V a1 c t (ValueIdx.ix2 r (0 : Fin 1))) ?_
  exact farRow38_congr V a1 c (by show 8 * ((grid38.coords t) 0).val + r.val = 8 * t.val + r.val; rw [coordsVal38 a1 t]) j _ _

/-- THE CHUNK'S ARRAY after the region, the output block being the body's own. -/
theorem chunk_array38_body (hlt : ∀ y, (tbl38 a1 y).toNat < 100000) (c : Dev nD) :
    (dat38 V a1 (fun c t => gatherOut (gatherG (a1.1 0) (V c main_v141) (grid38.coords t)) (iblk38 V a1 c 0 t)) c).arrAt 1 (cfg38 a1).N
      = chunkG38 V a1 hlt c :=
  chunk_array38 V a1 _ hlt (fun c t r j => bodyBlk38_apply V a1 hlt c t r j) c

/-! ## The array as a chunk of the weighted rows -/

/-- When the far operand is the table x, the region's table the slice of the row numbers cols at 100000 k and its
    weights the slice of vals there as a column, the region's array is chunk k of the weighted rows. -/
theorem chunkG38_eq_chunkSpec (hlt : ∀ y, (tbl38 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far38 V c = x) (ht : tbl38 a1 = extractStridedSlice Cert.Value.T100000 ![off] cols hsl)
    (hw : wts38 V c = shapeCast Cert.Value.T100000x1 (extractStridedSlice Cert.Value.T100000 ![off] vals hsl) hsc) :
    chunkG38 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl38 a1 (ValueIdx.ix1 e)).toNat, hlt _⟩ (congrArg (fun T : S100000.Idx → BitVec 32 => (T (ValueIdx.ix1 e)).toNat) ht), ← hx, ← hw]
  rfl

end Chunk

/-! # Region 39 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg39 (F := Ideal)).Adm)
  (O : (c : Dev nD) → Fin (cfg39 a1).N → Vec Ideal S8x64 .f32)

/-- The grid has 12500 points. -/
theorem npoints39 : (cfg39 a1).N = 12500 := N_39

/-- A point's one coordinate is the point's number. -/
theorem coordsVal39 (t : Fin (cfg39 a1).N) : (((cfg39 a1).grid.coords t) 0).val = t.val := by
  have ht : t.val < 12500 := (npoints39 a1) ▸ t.isLt
  show t.val / grid39.stride 0 % 12500 = t.val
  rw [show grid39.stride 0 = 1 from by decide, Nat.div_one, Nat.mod_eq_of_lt ht]

/-- Both windows move with the point: block index (t, 0) at point t. -/
theorem idxInRow39 (t : Fin (cfg39 a1).N) : ((cfg39 a1).win 0).index t (0 : Fin 2) = t.val := by
  have ht : t.val < 12500 := (npoints39 a1) ▸ t.isLt
  show (BitVec.ofNat 32 (((cfg39 a1).grid.coords t) 0).val).toNat = t.val
  rw [coordsVal39, BitVec.toNat_ofNat, Nat.mod_eq_of_lt (by omega)]
theorem idxInCol39 (t : Fin (cfg39 a1).N) : ((cfg39 a1).win 0).index t (1 : Fin 2) = 0 := rfl
theorem idxOutRow39 (t : Fin (cfg39 a1).N) : ((cfg39 a1).win 1).index t (0 : Fin 2) = t.val := by
  have ht : t.val < 12500 := (npoints39 a1) ▸ t.isLt
  show (BitVec.ofNat 32 (((cfg39 a1).grid.coords t) 0).val).toNat = t.val
  rw [coordsVal39, BitVec.toNat_ofNat, Nat.mod_eq_of_lt (by omega)]
theorem idxOutCol39 (t : Fin (cfg39 a1).N) : ((cfg39 a1).win 1).index t (1 : Fin 2) = 0 := rfl

/-- The output window is written back at every point: the next point's block is another. -/
theorem flushOut39 (t : Fin (cfg39 a1).N) : ((cfg39 a1).win 1).flush t = true := by
  unfold Window.flush
  show (true && (decide (t.val + 1 = (cfg39 a1).N) || decide (∃ h : t.val + 1 < (cfg39 a1).N,
    ((cfg39 a1).win 1).index ⟨t.val + 1, h⟩ ≠ ((cfg39 a1).win 1).index t))) = true
  rw [Bool.true_and, Bool.or_eq_true, decide_eq_true_eq, decide_eq_true_eq]
  by_cases h : t.val + 1 = (cfg39 a1).N
  · exact Or.inl h
  · refine Or.inr ⟨by have := t.isLt; omega, fun e => ?_⟩
    have erow := congrFun e (0 : Fin 2)
    rw [idxOutRow39, idxOutRow39] at erow
    exact absurd erow (by show t.val + 1 ≠ t.val; omega)

/-! ## The operands at their literal types -/

/-- The table's words. -/
abbrev tbl39 : S100000.Idx → BitVec 32 := a1.1 0
/-- The far operand: the table of rows. -/
abbrev far39 (c : Dev nD) : S100000x64.Idx → EReal := V c main_v141
/-- The weights, as a column. -/
abbrev wts39 (c : Dev nD) : S100000x1.Idx → EReal := V c main_v169
/-- The input window's block at point t: eight weights. -/
abbrev inBlk39 (c : Dev nD) (t : Fin (cfg39 a1).N) : S8x1.Idx → EReal := iblk39 V a1 c 0 t

/-! ## The blocks -/

/-- Row r of the input window's block at point t is row 8 t + r of the column of weights. -/
theorem inBlk39_apply (c : Dev nD) (t : Fin (cfg39 a1).N) (r : Fin 8) (z : Fin 1) (k : S100000x1.Idx)
    (hkrow : (k 0).val = 8 * t.val + r.val) :
    inBlk39 V a1 c t (ValueIdx.ix2 r z) = wts39 V c k := by
  show wts39 V c ((((cfg39 a1).win 0).blk t).view.emb (ValueIdx.ix2 r z)) = wts39 V c k
  refine congrArg (wts39 V c) (funext fun a => Fin.ext ?_)
  match a with
  | ⟨0, _⟩ =>
    show ((cfg39 a1).win 0).index t (0 : Fin 2) * 8 + 1 * r.val = (k 0).val
    rw [idxInRow39, hkrow]; omega
  | ⟨1, _⟩ =>
    show ((cfg39 a1).win 0).index t (1 : Fin 2) * 1 + 1 * z.val = (k 1).val
    have hkcol : (k 1).val < 1 := idx2_lt1 k
    have hz : z.val < 1 := z.isLt
    rw [idxInCol39]; omega

/-- An index of the array is in point t's block iff each coordinate is in the block's range on its axis. -/
theorem mem_blkOut39 (t : Fin (cfg39 a1).N) (i : S100000x64.Idx) :
    i ∈ (((cfg39 a1).win 1).blk t).view.set ↔ ∀ a : Fin 2, ((cfg39 a1).win 1).index t a * S8x64.size a ≤ (i a).val
      ∧ (i a).val < ((cfg39 a1).win 1).index t a * S8x64.size a + S8x64.size a := by
  have hset : (((cfg39 a1).win 1).blk t).view.set = (((cfg39 a1).win 1).rect t : Rect S100000x64).set :=
    View.set_slice_whole main_v170 _
  have hmem : i ∈ (((cfg39 a1).win 1).rect t : Rect S100000x64).set ↔ ∀ a : Fin 2,
      ((cfg39 a1).win 1).index t a * S8x64.size a ≤ (i a).val
        ∧ (i a).val < ((cfg39 a1).win 1).index t a * S8x64.size a + S8x64.size a := Rect.mem_set_unit
  exact (Finset.ext_iff.mp hset i).trans hmem

/-- Every index of the array is in the block of the point its row over eight names. -/
theorem coverOut39 (i : S100000x64.Idx) :
    ∃ t : Fin (cfg39 a1).N, ((cfg39 a1).win 1).flush t = true ∧ i ∈ (((cfg39 a1).win 1).blk t).view.set := by
  have hirow : (i 0).val < 100000 := idx2_lt0 i
  have hicol : (i 1).val < 64 := idx2_lt1 i
  obtain ⟨t, ht⟩ : ∃ t : Fin (cfg39 a1).N, t.val = (i 0).val / 8 := ⟨⟨(i 0).val / 8, by rw [npoints39]; omega⟩, rfl⟩
  refine ⟨t, flushOut39 a1 t, ?_⟩
  rw [mem_blkOut39]
  intro a
  match a with
  | ⟨0, _⟩ =>
    show ((cfg39 a1).win 1).index t (0 : Fin 2) * 8 ≤ (i 0).val ∧ (i 0).val < ((cfg39 a1).win 1).index t (0 : Fin 2) * 8 + 8
    rw [idxOutRow39, ht]; omega
  | ⟨1, _⟩ =>
    show ((cfg39 a1).win 1).index t (1 : Fin 2) * 64 ≤ (i 1).val ∧ (i 1).val < ((cfg39 a1).win 1).index t (1 : Fin 2) * 64 + 64
    rw [idxOutCol39]; omega

/-! ## The array -/

/-- One weighted row at one column: the table row the e-th word names, at column j, times the e-th weight. -/
def chunkRow39 (hlt : ∀ y, (tbl39 a1 y).toNat < 100000) (c : Dev nD) (e : Fin 100000) (j : Fin 64) : EReal :=
  far39 V c (ValueIdx.ix2 ⟨(tbl39 a1 (ValueIdx.ix1 e)).toNat, hlt _⟩ j) * wts39 V c (ValueIdx.ix2 e (0 : Fin 1))

/-- The chunk's array as one function of the region's operands. -/
def chunkG39 (hlt : ∀ y, (tbl39 a1 y).toNat < 100000) (c : Dev nD) : S100000x64.Idx → EReal :=
  fun i => chunkRow39 V a1 hlt c (i 0) (i 1)

/-- Row r of point t's block lies in the table. -/
theorem row_lt39 (t : Fin (cfg39 a1).N) (r : Fin 8) : 8 * t.val + r.val < 100000 := by
  have ht : t.val < 12500 := (npoints39 a1) ▸ t.isLt
  have := r.isLt; omega

/-- WHAT POINT t WRITES BACK is block t of the chunk's array, when the body leaves in the output window's buffer,
    at (r, j), the table row that word 8 t + r names at column j times the input block's weight at (r, 0). -/
theorem flushedOut39_eq (hlt : ∀ y, (tbl39 a1 y).toNat < 100000)
    (hO : ∀ (c : Dev nD) (t : Fin (cfg39 a1).N) (r : Fin 8) (j : Fin 64), O c t (ValueIdx.ix2 r j)
      = far39 V c (ValueIdx.ix2 ⟨(tbl39 a1 (ValueIdx.ix1 ⟨8 * t.val + r.val, row_lt39 a1 t r⟩)).toNat, hlt _⟩ j)
        * inBlk39 V a1 c t (ValueIdx.ix2 r (0 : Fin 1)))
    (c : Dev nD) (t : Fin (cfg39 a1).N) :
    (dat39 V a1 O c).flushed 1 t = (((cfg39 a1).win 1).blk t).view.read (Elt Ideal) (chunkG39 V a1 hlt c) := by
  show ((cfg39 a1).win 1).cut ((cfg39 a1).grid.coords t) ((dat39 V a1 O c).after 1 t) = _
  rw [afterOut39]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG39 V a1 hlt c ((((cfg39 a1).win 1).blk t).view.emb (ValueIdx.ix2 r j))
  have hemb : (((cfg39 a1).win 1).blk t).view.emb (ValueIdx.ix2 r j)
      = (ValueIdx.ix2 ⟨8 * t.val + r.val, row_lt39 a1 t r⟩ j : S100000x64.Idx) := by
    funext a; apply Fin.ext
    match a with
    | ⟨0, _⟩ =>
      show ((cfg39 a1).win 1).index t (0 : Fin 2) * 8 + 1 * r.val = 8 * t.val + r.val
      rw [idxOutRow39]; omega
    | ⟨1, _⟩ =>
      show ((cfg39 a1).win 1).index t (1 : Fin 2) * 64 + 1 * j.val = j.val
      rw [idxOutCol39]; omega
  rw [hemb, hO c t r j,
    inBlk39_apply V a1 c t r 0 (ValueIdx.ix2 ⟨8 * t.val + r.val, row_lt39 a1 t r⟩ (0 : Fin 1)) rfl]
  rfl

/-- THE CHUNK'S ARRAY after the region: chunkG39. -/
theorem chunk_array39 (hlt : ∀ y, (tbl39 a1 y).toNat < 100000)
    (hO : ∀ (c : Dev nD) (t : Fin (cfg39 a1).N) (r : Fin 8) (j : Fin 64), O c t (ValueIdx.ix2 r j)
      = far39 V c (ValueIdx.ix2 ⟨(tbl39 a1 (ValueIdx.ix1 ⟨8 * t.val + r.val, row_lt39 a1 t r⟩)).toNat, hlt _⟩ j)
        * inBlk39 V a1 c t (ValueIdx.ix2 r (0 : Fin 1)))
    (c : Dev nD) :
    (dat39 V a1 O c).arrAt 1 (cfg39 a1).N = chunkG39 V a1 hlt c :=
  (dat39 V a1 O c).arrAt_eq_of_cover 1 (chunkG39 V a1 hlt c) (fun t _ => flushedOut39_eq V a1 O hlt hO c t) (coverOut39 a1)

/-! ## The body's own block -/

/-- Two rows of the far operand named by the same word are the same row. -/
theorem farRow39_congr (c : Dev nD) {e e' : Fin 100000} (h : e.val = e'.val) (j : Fin 64)
    (p : (tbl39 a1 (ValueIdx.ix1 e)).toNat < 100000) (p' : (tbl39 a1 (ValueIdx.ix1 e')).toNat < 100000) :
    far39 V c (ValueIdx.ix2 ⟨(tbl39 a1 (ValueIdx.ix1 e)).toNat, p⟩ j)
      = far39 V c (ValueIdx.ix2 ⟨(tbl39 a1 (ValueIdx.ix1 e')).toNat, p'⟩ j) := by
  obtain rfl : e = e' := Fin.ext h
  rfl

/-- The body's block at point t — the gathered rows scaled by the input block — has the entries hO asks. -/
theorem bodyBlk39_apply (hlt : ∀ y, (tbl39 a1 y).toNat < 100000) (c : Dev nD) (t : Fin (cfg39 a1).N) (r : Fin 8) (j : Fin 64) :
    gatherOut (gatherG (a1.1 0) (V c main_v141) (grid39.coords t)) (iblk39 V a1 c 0 t) (ValueIdx.ix2 r j)
      = far39 V c (ValueIdx.ix2 ⟨(tbl39 a1 (ValueIdx.ix1 ⟨8 * t.val + r.val, row_lt39 a1 t r⟩)).toNat, hlt _⟩ j)
        * inBlk39 V a1 c t (ValueIdx.ix2 r (0 : Fin 1)) := by
  have hpay : gatherOut (gatherG (a1.1 0) (V c main_v141) (grid39.coords t)) (iblk39 V a1 c 0 t) (ValueIdx.ix2 r j)
      = gatherG (F := Ideal) (tbl39 a1) (far39 V c) (grid39.coords t) (ValueIdx.ix2 r j) * inBlk39 V a1 c t (ValueIdx.ix2 r (0 : Fin 1)) :=
    Cert.Value.kernel_block (by decide) (by decide) (gatherG (F := Ideal) (tbl39 a1) (far39 V c) (grid39.coords t)) (inBlk39 V a1 c t) r j
  rw [hpay, gatherG_apply (F := Ideal) (tbl39 a1) (far39 V c) (grid39.coords t) r j (hlt _)]
  refine congrArg (· * inBlk39 V a1 c t (ValueIdx.ix2 r (0 : Fin 1))) ?_
  exact farRow39_congr V a1 c (by show 8 * ((grid39.coords t) 0).val + r.val = 8 * t.val + r.val; rw [coordsVal39 a1 t]) j _ _

/-- THE CHUNK'S ARRAY after the region, the output block being the body's own. -/
theorem chunk_array39_body (hlt : ∀ y, (tbl39 a1 y).toNat < 100000) (c : Dev nD) :
    (dat39 V a1 (fun c t => gatherOut (gatherG (a1.1 0) (V c main_v141) (grid39.coords t)) (iblk39 V a1 c 0 t)) c).arrAt 1 (cfg39 a1).N
      = chunkG39 V a1 hlt c :=
  chunk_array39 V a1 _ hlt (fun c t r j => bodyBlk39_apply V a1 hlt c t r j) c

/-! ## The array as a chunk of the weighted rows -/

/-- When the far operand is the table x, the region's table the slice of the row numbers cols at 100000 k and its
    weights the slice of vals there as a column, the region's array is chunk k of the weighted rows. -/
theorem chunkG39_eq_chunkSpec (hlt : ∀ y, (tbl39 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far39 V c = x) (ht : tbl39 a1 = extractStridedSlice Cert.Value.T100000 ![off] cols hsl)
    (hw : wts39 V c = shapeCast Cert.Value.T100000x1 (extractStridedSlice Cert.Value.T100000 ![off] vals hsl) hsc) :
    chunkG39 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl39 a1 (ValueIdx.ix1 e)).toNat, hlt _⟩ (congrArg (fun T : S100000.Idx → BitVec 32 => (T (ValueIdx.ix1 e)).toNat) ht), ← hx, ← hw]
  rfl

end Chunk

/-! # Region 40 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg40 (F := Ideal)).Adm)
  (O : (c : Dev nD) → Fin (cfg40 a1).N → Vec Ideal S8x64 .f32)

/-- The grid has 12500 points. -/
theorem npoints40 : (cfg40 a1).N = 12500 := N_40

/-- A point's one coordinate is the point's number. -/
theorem coordsVal40 (t : Fin (cfg40 a1).N) : (((cfg40 a1).grid.coords t) 0).val = t.val := by
  have ht : t.val < 12500 := (npoints40 a1) ▸ t.isLt
  show t.val / grid40.stride 0 % 12500 = t.val
  rw [show grid40.stride 0 = 1 from by decide, Nat.div_one, Nat.mod_eq_of_lt ht]

/-- Both windows move with the point: block index (t, 0) at point t. -/
theorem idxInRow40 (t : Fin (cfg40 a1).N) : ((cfg40 a1).win 0).index t (0 : Fin 2) = t.val := by
  have ht : t.val < 12500 := (npoints40 a1) ▸ t.isLt
  show (BitVec.ofNat 32 (((cfg40 a1).grid.coords t) 0).val).toNat = t.val
  rw [coordsVal40, BitVec.toNat_ofNat, Nat.mod_eq_of_lt (by omega)]
theorem idxInCol40 (t : Fin (cfg40 a1).N) : ((cfg40 a1).win 0).index t (1 : Fin 2) = 0 := rfl
theorem idxOutRow40 (t : Fin (cfg40 a1).N) : ((cfg40 a1).win 1).index t (0 : Fin 2) = t.val := by
  have ht : t.val < 12500 := (npoints40 a1) ▸ t.isLt
  show (BitVec.ofNat 32 (((cfg40 a1).grid.coords t) 0).val).toNat = t.val
  rw [coordsVal40, BitVec.toNat_ofNat, Nat.mod_eq_of_lt (by omega)]
theorem idxOutCol40 (t : Fin (cfg40 a1).N) : ((cfg40 a1).win 1).index t (1 : Fin 2) = 0 := rfl

/-- The output window is written back at every point: the next point's block is another. -/
theorem flushOut40 (t : Fin (cfg40 a1).N) : ((cfg40 a1).win 1).flush t = true := by
  unfold Window.flush
  show (true && (decide (t.val + 1 = (cfg40 a1).N) || decide (∃ h : t.val + 1 < (cfg40 a1).N,
    ((cfg40 a1).win 1).index ⟨t.val + 1, h⟩ ≠ ((cfg40 a1).win 1).index t))) = true
  rw [Bool.true_and, Bool.or_eq_true, decide_eq_true_eq, decide_eq_true_eq]
  by_cases h : t.val + 1 = (cfg40 a1).N
  · exact Or.inl h
  · refine Or.inr ⟨by have := t.isLt; omega, fun e => ?_⟩
    have erow := congrFun e (0 : Fin 2)
    rw [idxOutRow40, idxOutRow40] at erow
    exact absurd erow (by show t.val + 1 ≠ t.val; omega)

/-! ## The operands at their literal types -/

/-- The table's words. -/
abbrev tbl40 : S100000.Idx → BitVec 32 := a1.1 0
/-- The far operand: the table of rows. -/
abbrev far40 (c : Dev nD) : S100000x64.Idx → EReal := V c main_v141
/-- The weights, as a column. -/
abbrev wts40 (c : Dev nD) : S100000x1.Idx → EReal := V c main_v173
/-- The input window's block at point t: eight weights. -/
abbrev inBlk40 (c : Dev nD) (t : Fin (cfg40 a1).N) : S8x1.Idx → EReal := iblk40 V a1 c 0 t

/-! ## The blocks -/

/-- Row r of the input window's block at point t is row 8 t + r of the column of weights. -/
theorem inBlk40_apply (c : Dev nD) (t : Fin (cfg40 a1).N) (r : Fin 8) (z : Fin 1) (k : S100000x1.Idx)
    (hkrow : (k 0).val = 8 * t.val + r.val) :
    inBlk40 V a1 c t (ValueIdx.ix2 r z) = wts40 V c k := by
  show wts40 V c ((((cfg40 a1).win 0).blk t).view.emb (ValueIdx.ix2 r z)) = wts40 V c k
  refine congrArg (wts40 V c) (funext fun a => Fin.ext ?_)
  match a with
  | ⟨0, _⟩ =>
    show ((cfg40 a1).win 0).index t (0 : Fin 2) * 8 + 1 * r.val = (k 0).val
    rw [idxInRow40, hkrow]; omega
  | ⟨1, _⟩ =>
    show ((cfg40 a1).win 0).index t (1 : Fin 2) * 1 + 1 * z.val = (k 1).val
    have hkcol : (k 1).val < 1 := idx2_lt1 k
    have hz : z.val < 1 := z.isLt
    rw [idxInCol40]; omega

/-- An index of the array is in point t's block iff each coordinate is in the block's range on its axis. -/
theorem mem_blkOut40 (t : Fin (cfg40 a1).N) (i : S100000x64.Idx) :
    i ∈ (((cfg40 a1).win 1).blk t).view.set ↔ ∀ a : Fin 2, ((cfg40 a1).win 1).index t a * S8x64.size a ≤ (i a).val
      ∧ (i a).val < ((cfg40 a1).win 1).index t a * S8x64.size a + S8x64.size a := by
  have hset : (((cfg40 a1).win 1).blk t).view.set = (((cfg40 a1).win 1).rect t : Rect S100000x64).set :=
    View.set_slice_whole main_v174 _
  have hmem : i ∈ (((cfg40 a1).win 1).rect t : Rect S100000x64).set ↔ ∀ a : Fin 2,
      ((cfg40 a1).win 1).index t a * S8x64.size a ≤ (i a).val
        ∧ (i a).val < ((cfg40 a1).win 1).index t a * S8x64.size a + S8x64.size a := Rect.mem_set_unit
  exact (Finset.ext_iff.mp hset i).trans hmem

/-- Every index of the array is in the block of the point its row over eight names. -/
theorem coverOut40 (i : S100000x64.Idx) :
    ∃ t : Fin (cfg40 a1).N, ((cfg40 a1).win 1).flush t = true ∧ i ∈ (((cfg40 a1).win 1).blk t).view.set := by
  have hirow : (i 0).val < 100000 := idx2_lt0 i
  have hicol : (i 1).val < 64 := idx2_lt1 i
  obtain ⟨t, ht⟩ : ∃ t : Fin (cfg40 a1).N, t.val = (i 0).val / 8 := ⟨⟨(i 0).val / 8, by rw [npoints40]; omega⟩, rfl⟩
  refine ⟨t, flushOut40 a1 t, ?_⟩
  rw [mem_blkOut40]
  intro a
  match a with
  | ⟨0, _⟩ =>
    show ((cfg40 a1).win 1).index t (0 : Fin 2) * 8 ≤ (i 0).val ∧ (i 0).val < ((cfg40 a1).win 1).index t (0 : Fin 2) * 8 + 8
    rw [idxOutRow40, ht]; omega
  | ⟨1, _⟩ =>
    show ((cfg40 a1).win 1).index t (1 : Fin 2) * 64 ≤ (i 1).val ∧ (i 1).val < ((cfg40 a1).win 1).index t (1 : Fin 2) * 64 + 64
    rw [idxOutCol40]; omega

/-! ## The array -/

/-- One weighted row at one column: the table row the e-th word names, at column j, times the e-th weight. -/
def chunkRow40 (hlt : ∀ y, (tbl40 a1 y).toNat < 100000) (c : Dev nD) (e : Fin 100000) (j : Fin 64) : EReal :=
  far40 V c (ValueIdx.ix2 ⟨(tbl40 a1 (ValueIdx.ix1 e)).toNat, hlt _⟩ j) * wts40 V c (ValueIdx.ix2 e (0 : Fin 1))

/-- The chunk's array as one function of the region's operands. -/
def chunkG40 (hlt : ∀ y, (tbl40 a1 y).toNat < 100000) (c : Dev nD) : S100000x64.Idx → EReal :=
  fun i => chunkRow40 V a1 hlt c (i 0) (i 1)

/-- Row r of point t's block lies in the table. -/
theorem row_lt40 (t : Fin (cfg40 a1).N) (r : Fin 8) : 8 * t.val + r.val < 100000 := by
  have ht : t.val < 12500 := (npoints40 a1) ▸ t.isLt
  have := r.isLt; omega

/-- WHAT POINT t WRITES BACK is block t of the chunk's array, when the body leaves in the output window's buffer,
    at (r, j), the table row that word 8 t + r names at column j times the input block's weight at (r, 0). -/
theorem flushedOut40_eq (hlt : ∀ y, (tbl40 a1 y).toNat < 100000)
    (hO : ∀ (c : Dev nD) (t : Fin (cfg40 a1).N) (r : Fin 8) (j : Fin 64), O c t (ValueIdx.ix2 r j)
      = far40 V c (ValueIdx.ix2 ⟨(tbl40 a1 (ValueIdx.ix1 ⟨8 * t.val + r.val, row_lt40 a1 t r⟩)).toNat, hlt _⟩ j)
        * inBlk40 V a1 c t (ValueIdx.ix2 r (0 : Fin 1)))
    (c : Dev nD) (t : Fin (cfg40 a1).N) :
    (dat40 V a1 O c).flushed 1 t = (((cfg40 a1).win 1).blk t).view.read (Elt Ideal) (chunkG40 V a1 hlt c) := by
  show ((cfg40 a1).win 1).cut ((cfg40 a1).grid.coords t) ((dat40 V a1 O c).after 1 t) = _
  rw [afterOut40]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG40 V a1 hlt c ((((cfg40 a1).win 1).blk t).view.emb (ValueIdx.ix2 r j))
  have hemb : (((cfg40 a1).win 1).blk t).view.emb (ValueIdx.ix2 r j)
      = (ValueIdx.ix2 ⟨8 * t.val + r.val, row_lt40 a1 t r⟩ j : S100000x64.Idx) := by
    funext a; apply Fin.ext
    match a with
    | ⟨0, _⟩ =>
      show ((cfg40 a1).win 1).index t (0 : Fin 2) * 8 + 1 * r.val = 8 * t.val + r.val
      rw [idxOutRow40]; omega
    | ⟨1, _⟩ =>
      show ((cfg40 a1).win 1).index t (1 : Fin 2) * 64 + 1 * j.val = j.val
      rw [idxOutCol40]; omega
  rw [hemb, hO c t r j,
    inBlk40_apply V a1 c t r 0 (ValueIdx.ix2 ⟨8 * t.val + r.val, row_lt40 a1 t r⟩ (0 : Fin 1)) rfl]
  rfl

/-- THE CHUNK'S ARRAY after the region: chunkG40. -/
theorem chunk_array40 (hlt : ∀ y, (tbl40 a1 y).toNat < 100000)
    (hO : ∀ (c : Dev nD) (t : Fin (cfg40 a1).N) (r : Fin 8) (j : Fin 64), O c t (ValueIdx.ix2 r j)
      = far40 V c (ValueIdx.ix2 ⟨(tbl40 a1 (ValueIdx.ix1 ⟨8 * t.val + r.val, row_lt40 a1 t r⟩)).toNat, hlt _⟩ j)
        * inBlk40 V a1 c t (ValueIdx.ix2 r (0 : Fin 1)))
    (c : Dev nD) :
    (dat40 V a1 O c).arrAt 1 (cfg40 a1).N = chunkG40 V a1 hlt c :=
  (dat40 V a1 O c).arrAt_eq_of_cover 1 (chunkG40 V a1 hlt c) (fun t _ => flushedOut40_eq V a1 O hlt hO c t) (coverOut40 a1)

/-! ## The body's own block -/

/-- Two rows of the far operand named by the same word are the same row. -/
theorem farRow40_congr (c : Dev nD) {e e' : Fin 100000} (h : e.val = e'.val) (j : Fin 64)
    (p : (tbl40 a1 (ValueIdx.ix1 e)).toNat < 100000) (p' : (tbl40 a1 (ValueIdx.ix1 e')).toNat < 100000) :
    far40 V c (ValueIdx.ix2 ⟨(tbl40 a1 (ValueIdx.ix1 e)).toNat, p⟩ j)
      = far40 V c (ValueIdx.ix2 ⟨(tbl40 a1 (ValueIdx.ix1 e')).toNat, p'⟩ j) := by
  obtain rfl : e = e' := Fin.ext h
  rfl

/-- The body's block at point t — the gathered rows scaled by the input block — has the entries hO asks. -/
theorem bodyBlk40_apply (hlt : ∀ y, (tbl40 a1 y).toNat < 100000) (c : Dev nD) (t : Fin (cfg40 a1).N) (r : Fin 8) (j : Fin 64) :
    gatherOut (gatherG (a1.1 0) (V c main_v141) (grid40.coords t)) (iblk40 V a1 c 0 t) (ValueIdx.ix2 r j)
      = far40 V c (ValueIdx.ix2 ⟨(tbl40 a1 (ValueIdx.ix1 ⟨8 * t.val + r.val, row_lt40 a1 t r⟩)).toNat, hlt _⟩ j)
        * inBlk40 V a1 c t (ValueIdx.ix2 r (0 : Fin 1)) := by
  have hpay : gatherOut (gatherG (a1.1 0) (V c main_v141) (grid40.coords t)) (iblk40 V a1 c 0 t) (ValueIdx.ix2 r j)
      = gatherG (F := Ideal) (tbl40 a1) (far40 V c) (grid40.coords t) (ValueIdx.ix2 r j) * inBlk40 V a1 c t (ValueIdx.ix2 r (0 : Fin 1)) :=
    Cert.Value.kernel_block (by decide) (by decide) (gatherG (F := Ideal) (tbl40 a1) (far40 V c) (grid40.coords t)) (inBlk40 V a1 c t) r j
  rw [hpay, gatherG_apply (F := Ideal) (tbl40 a1) (far40 V c) (grid40.coords t) r j (hlt _)]
  refine congrArg (· * inBlk40 V a1 c t (ValueIdx.ix2 r (0 : Fin 1))) ?_
  exact farRow40_congr V a1 c (by show 8 * ((grid40.coords t) 0).val + r.val = 8 * t.val + r.val; rw [coordsVal40 a1 t]) j _ _

/-- THE CHUNK'S ARRAY after the region, the output block being the body's own. -/
theorem chunk_array40_body (hlt : ∀ y, (tbl40 a1 y).toNat < 100000) (c : Dev nD) :
    (dat40 V a1 (fun c t => gatherOut (gatherG (a1.1 0) (V c main_v141) (grid40.coords t)) (iblk40 V a1 c 0 t)) c).arrAt 1 (cfg40 a1).N
      = chunkG40 V a1 hlt c :=
  chunk_array40 V a1 _ hlt (fun c t r j => bodyBlk40_apply V a1 hlt c t r j) c

/-! ## The array as a chunk of the weighted rows -/

/-- When the far operand is the table x, the region's table the slice of the row numbers cols at 100000 k and its
    weights the slice of vals there as a column, the region's array is chunk k of the weighted rows. -/
theorem chunkG40_eq_chunkSpec (hlt : ∀ y, (tbl40 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far40 V c = x) (ht : tbl40 a1 = extractStridedSlice Cert.Value.T100000 ![off] cols hsl)
    (hw : wts40 V c = shapeCast Cert.Value.T100000x1 (extractStridedSlice Cert.Value.T100000 ![off] vals hsl) hsc) :
    chunkG40 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl40 a1 (ValueIdx.ix1 e)).toNat, hlt _⟩ (congrArg (fun T : S100000.Idx → BitVec 32 => (T (ValueIdx.ix1 e)).toNat) ht), ← hx, ← hw]
  rfl

end Chunk

/-! # Region 41 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg41 (F := Ideal)).Adm)
  (O : (c : Dev nD) → Fin (cfg41 a1).N → Vec Ideal S8x64 .f32)

/-- The grid has 12500 points. -/
theorem npoints41 : (cfg41 a1).N = 12500 := N_41

/-- A point's one coordinate is the point's number. -/
theorem coordsVal41 (t : Fin (cfg41 a1).N) : (((cfg41 a1).grid.coords t) 0).val = t.val := by
  have ht : t.val < 12500 := (npoints41 a1) ▸ t.isLt
  show t.val / grid41.stride 0 % 12500 = t.val
  rw [show grid41.stride 0 = 1 from by decide, Nat.div_one, Nat.mod_eq_of_lt ht]

/-- Both windows move with the point: block index (t, 0) at point t. -/
theorem idxInRow41 (t : Fin (cfg41 a1).N) : ((cfg41 a1).win 0).index t (0 : Fin 2) = t.val := by
  have ht : t.val < 12500 := (npoints41 a1) ▸ t.isLt
  show (BitVec.ofNat 32 (((cfg41 a1).grid.coords t) 0).val).toNat = t.val
  rw [coordsVal41, BitVec.toNat_ofNat, Nat.mod_eq_of_lt (by omega)]
theorem idxInCol41 (t : Fin (cfg41 a1).N) : ((cfg41 a1).win 0).index t (1 : Fin 2) = 0 := rfl
theorem idxOutRow41 (t : Fin (cfg41 a1).N) : ((cfg41 a1).win 1).index t (0 : Fin 2) = t.val := by
  have ht : t.val < 12500 := (npoints41 a1) ▸ t.isLt
  show (BitVec.ofNat 32 (((cfg41 a1).grid.coords t) 0).val).toNat = t.val
  rw [coordsVal41, BitVec.toNat_ofNat, Nat.mod_eq_of_lt (by omega)]
theorem idxOutCol41 (t : Fin (cfg41 a1).N) : ((cfg41 a1).win 1).index t (1 : Fin 2) = 0 := rfl

/-- The output window is written back at every point: the next point's block is another. -/
theorem flushOut41 (t : Fin (cfg41 a1).N) : ((cfg41 a1).win 1).flush t = true := by
  unfold Window.flush
  show (true && (decide (t.val + 1 = (cfg41 a1).N) || decide (∃ h : t.val + 1 < (cfg41 a1).N,
    ((cfg41 a1).win 1).index ⟨t.val + 1, h⟩ ≠ ((cfg41 a1).win 1).index t))) = true
  rw [Bool.true_and, Bool.or_eq_true, decide_eq_true_eq, decide_eq_true_eq]
  by_cases h : t.val + 1 = (cfg41 a1).N
  · exact Or.inl h
  · refine Or.inr ⟨by have := t.isLt; omega, fun e => ?_⟩
    have erow := congrFun e (0 : Fin 2)
    rw [idxOutRow41, idxOutRow41] at erow
    exact absurd erow (by show t.val + 1 ≠ t.val; omega)

/-! ## The operands at their literal types -/

/-- The table's words. -/
abbrev tbl41 : S100000.Idx → BitVec 32 := a1.1 0
/-- The far operand: the table of rows. -/
abbrev far41 (c : Dev nD) : S100000x64.Idx → EReal := V c main_v141
/-- The weights, as a column. -/
abbrev wts41 (c : Dev nD) : S100000x1.Idx → EReal := V c main_v177
/-- The input window's block at point t: eight weights. -/
abbrev inBlk41 (c : Dev nD) (t : Fin (cfg41 a1).N) : S8x1.Idx → EReal := iblk41 V a1 c 0 t

/-! ## The blocks -/

/-- Row r of the input window's block at point t is row 8 t + r of the column of weights. -/
theorem inBlk41_apply (c : Dev nD) (t : Fin (cfg41 a1).N) (r : Fin 8) (z : Fin 1) (k : S100000x1.Idx)
    (hkrow : (k 0).val = 8 * t.val + r.val) :
    inBlk41 V a1 c t (ValueIdx.ix2 r z) = wts41 V c k := by
  show wts41 V c ((((cfg41 a1).win 0).blk t).view.emb (ValueIdx.ix2 r z)) = wts41 V c k
  refine congrArg (wts41 V c) (funext fun a => Fin.ext ?_)
  match a with
  | ⟨0, _⟩ =>
    show ((cfg41 a1).win 0).index t (0 : Fin 2) * 8 + 1 * r.val = (k 0).val
    rw [idxInRow41, hkrow]; omega
  | ⟨1, _⟩ =>
    show ((cfg41 a1).win 0).index t (1 : Fin 2) * 1 + 1 * z.val = (k 1).val
    have hkcol : (k 1).val < 1 := idx2_lt1 k
    have hz : z.val < 1 := z.isLt
    rw [idxInCol41]; omega

/-- An index of the array is in point t's block iff each coordinate is in the block's range on its axis. -/
theorem mem_blkOut41 (t : Fin (cfg41 a1).N) (i : S100000x64.Idx) :
    i ∈ (((cfg41 a1).win 1).blk t).view.set ↔ ∀ a : Fin 2, ((cfg41 a1).win 1).index t a * S8x64.size a ≤ (i a).val
      ∧ (i a).val < ((cfg41 a1).win 1).index t a * S8x64.size a + S8x64.size a := by
  have hset : (((cfg41 a1).win 1).blk t).view.set = (((cfg41 a1).win 1).rect t : Rect S100000x64).set :=
    View.set_slice_whole main_v178 _
  have hmem : i ∈ (((cfg41 a1).win 1).rect t : Rect S100000x64).set ↔ ∀ a : Fin 2,
      ((cfg41 a1).win 1).index t a * S8x64.size a ≤ (i a).val
        ∧ (i a).val < ((cfg41 a1).win 1).index t a * S8x64.size a + S8x64.size a := Rect.mem_set_unit
  exact (Finset.ext_iff.mp hset i).trans hmem

/-- Every index of the array is in the block of the point its row over eight names. -/
theorem coverOut41 (i : S100000x64.Idx) :
    ∃ t : Fin (cfg41 a1).N, ((cfg41 a1).win 1).flush t = true ∧ i ∈ (((cfg41 a1).win 1).blk t).view.set := by
  have hirow : (i 0).val < 100000 := idx2_lt0 i
  have hicol : (i 1).val < 64 := idx2_lt1 i
  obtain ⟨t, ht⟩ : ∃ t : Fin (cfg41 a1).N, t.val = (i 0).val / 8 := ⟨⟨(i 0).val / 8, by rw [npoints41]; omega⟩, rfl⟩
  refine ⟨t, flushOut41 a1 t, ?_⟩
  rw [mem_blkOut41]
  intro a
  match a with
  | ⟨0, _⟩ =>
    show ((cfg41 a1).win 1).index t (0 : Fin 2) * 8 ≤ (i 0).val ∧ (i 0).val < ((cfg41 a1).win 1).index t (0 : Fin 2) * 8 + 8
    rw [idxOutRow41, ht]; omega
  | ⟨1, _⟩ =>
    show ((cfg41 a1).win 1).index t (1 : Fin 2) * 64 ≤ (i 1).val ∧ (i 1).val < ((cfg41 a1).win 1).index t (1 : Fin 2) * 64 + 64
    rw [idxOutCol41]; omega

/-! ## The array -/

/-- One weighted row at one column: the table row the e-th word names, at column j, times the e-th weight. -/
def chunkRow41 (hlt : ∀ y, (tbl41 a1 y).toNat < 100000) (c : Dev nD) (e : Fin 100000) (j : Fin 64) : EReal :=
  far41 V c (ValueIdx.ix2 ⟨(tbl41 a1 (ValueIdx.ix1 e)).toNat, hlt _⟩ j) * wts41 V c (ValueIdx.ix2 e (0 : Fin 1))

/-- The chunk's array as one function of the region's operands. -/
def chunkG41 (hlt : ∀ y, (tbl41 a1 y).toNat < 100000) (c : Dev nD) : S100000x64.Idx → EReal :=
  fun i => chunkRow41 V a1 hlt c (i 0) (i 1)

/-- Row r of point t's block lies in the table. -/
theorem row_lt41 (t : Fin (cfg41 a1).N) (r : Fin 8) : 8 * t.val + r.val < 100000 := by
  have ht : t.val < 12500 := (npoints41 a1) ▸ t.isLt
  have := r.isLt; omega

/-- WHAT POINT t WRITES BACK is block t of the chunk's array, when the body leaves in the output window's buffer,
    at (r, j), the table row that word 8 t + r names at column j times the input block's weight at (r, 0). -/
theorem flushedOut41_eq (hlt : ∀ y, (tbl41 a1 y).toNat < 100000)
    (hO : ∀ (c : Dev nD) (t : Fin (cfg41 a1).N) (r : Fin 8) (j : Fin 64), O c t (ValueIdx.ix2 r j)
      = far41 V c (ValueIdx.ix2 ⟨(tbl41 a1 (ValueIdx.ix1 ⟨8 * t.val + r.val, row_lt41 a1 t r⟩)).toNat, hlt _⟩ j)
        * inBlk41 V a1 c t (ValueIdx.ix2 r (0 : Fin 1)))
    (c : Dev nD) (t : Fin (cfg41 a1).N) :
    (dat41 V a1 O c).flushed 1 t = (((cfg41 a1).win 1).blk t).view.read (Elt Ideal) (chunkG41 V a1 hlt c) := by
  show ((cfg41 a1).win 1).cut ((cfg41 a1).grid.coords t) ((dat41 V a1 O c).after 1 t) = _
  rw [afterOut41]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG41 V a1 hlt c ((((cfg41 a1).win 1).blk t).view.emb (ValueIdx.ix2 r j))
  have hemb : (((cfg41 a1).win 1).blk t).view.emb (ValueIdx.ix2 r j)
      = (ValueIdx.ix2 ⟨8 * t.val + r.val, row_lt41 a1 t r⟩ j : S100000x64.Idx) := by
    funext a; apply Fin.ext
    match a with
    | ⟨0, _⟩ =>
      show ((cfg41 a1).win 1).index t (0 : Fin 2) * 8 + 1 * r.val = 8 * t.val + r.val
      rw [idxOutRow41]; omega
    | ⟨1, _⟩ =>
      show ((cfg41 a1).win 1).index t (1 : Fin 2) * 64 + 1 * j.val = j.val
      rw [idxOutCol41]; omega
  rw [hemb, hO c t r j,
    inBlk41_apply V a1 c t r 0 (ValueIdx.ix2 ⟨8 * t.val + r.val, row_lt41 a1 t r⟩ (0 : Fin 1)) rfl]
  rfl

/-- THE CHUNK'S ARRAY after the region: chunkG41. -/
theorem chunk_array41 (hlt : ∀ y, (tbl41 a1 y).toNat < 100000)
    (hO : ∀ (c : Dev nD) (t : Fin (cfg41 a1).N) (r : Fin 8) (j : Fin 64), O c t (ValueIdx.ix2 r j)
      = far41 V c (ValueIdx.ix2 ⟨(tbl41 a1 (ValueIdx.ix1 ⟨8 * t.val + r.val, row_lt41 a1 t r⟩)).toNat, hlt _⟩ j)
        * inBlk41 V a1 c t (ValueIdx.ix2 r (0 : Fin 1)))
    (c : Dev nD) :
    (dat41 V a1 O c).arrAt 1 (cfg41 a1).N = chunkG41 V a1 hlt c :=
  (dat41 V a1 O c).arrAt_eq_of_cover 1 (chunkG41 V a1 hlt c) (fun t _ => flushedOut41_eq V a1 O hlt hO c t) (coverOut41 a1)

/-! ## The body's own block -/

/-- Two rows of the far operand named by the same word are the same row. -/
theorem farRow41_congr (c : Dev nD) {e e' : Fin 100000} (h : e.val = e'.val) (j : Fin 64)
    (p : (tbl41 a1 (ValueIdx.ix1 e)).toNat < 100000) (p' : (tbl41 a1 (ValueIdx.ix1 e')).toNat < 100000) :
    far41 V c (ValueIdx.ix2 ⟨(tbl41 a1 (ValueIdx.ix1 e)).toNat, p⟩ j)
      = far41 V c (ValueIdx.ix2 ⟨(tbl41 a1 (ValueIdx.ix1 e')).toNat, p'⟩ j) := by
  obtain rfl : e = e' := Fin.ext h
  rfl

/-- The body's block at point t — the gathered rows scaled by the input block — has the entries hO asks. -/
theorem bodyBlk41_apply (hlt : ∀ y, (tbl41 a1 y).toNat < 100000) (c : Dev nD) (t : Fin (cfg41 a1).N) (r : Fin 8) (j : Fin 64) :
    gatherOut (gatherG (a1.1 0) (V c main_v141) (grid41.coords t)) (iblk41 V a1 c 0 t) (ValueIdx.ix2 r j)
      = far41 V c (ValueIdx.ix2 ⟨(tbl41 a1 (ValueIdx.ix1 ⟨8 * t.val + r.val, row_lt41 a1 t r⟩)).toNat, hlt _⟩ j)
        * inBlk41 V a1 c t (ValueIdx.ix2 r (0 : Fin 1)) := by
  have hpay : gatherOut (gatherG (a1.1 0) (V c main_v141) (grid41.coords t)) (iblk41 V a1 c 0 t) (ValueIdx.ix2 r j)
      = gatherG (F := Ideal) (tbl41 a1) (far41 V c) (grid41.coords t) (ValueIdx.ix2 r j) * inBlk41 V a1 c t (ValueIdx.ix2 r (0 : Fin 1)) :=
    Cert.Value.kernel_block (by decide) (by decide) (gatherG (F := Ideal) (tbl41 a1) (far41 V c) (grid41.coords t)) (inBlk41 V a1 c t) r j
  rw [hpay, gatherG_apply (F := Ideal) (tbl41 a1) (far41 V c) (grid41.coords t) r j (hlt _)]
  refine congrArg (· * inBlk41 V a1 c t (ValueIdx.ix2 r (0 : Fin 1))) ?_
  exact farRow41_congr V a1 c (by show 8 * ((grid41.coords t) 0).val + r.val = 8 * t.val + r.val; rw [coordsVal41 a1 t]) j _ _

/-- THE CHUNK'S ARRAY after the region, the output block being the body's own. -/
theorem chunk_array41_body (hlt : ∀ y, (tbl41 a1 y).toNat < 100000) (c : Dev nD) :
    (dat41 V a1 (fun c t => gatherOut (gatherG (a1.1 0) (V c main_v141) (grid41.coords t)) (iblk41 V a1 c 0 t)) c).arrAt 1 (cfg41 a1).N
      = chunkG41 V a1 hlt c :=
  chunk_array41 V a1 _ hlt (fun c t r j => bodyBlk41_apply V a1 hlt c t r j) c

/-! ## The array as a chunk of the weighted rows -/

/-- When the far operand is the table x, the region's table the slice of the row numbers cols at 100000 k and its
    weights the slice of vals there as a column, the region's array is chunk k of the weighted rows. -/
theorem chunkG41_eq_chunkSpec (hlt : ∀ y, (tbl41 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far41 V c = x) (ht : tbl41 a1 = extractStridedSlice Cert.Value.T100000 ![off] cols hsl)
    (hw : wts41 V c = shapeCast Cert.Value.T100000x1 (extractStridedSlice Cert.Value.T100000 ![off] vals hsl) hsc) :
    chunkG41 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl41 a1 (ValueIdx.ix1 e)).toNat, hlt _⟩ (congrArg (fun T : S100000.Idx → BitVec 32 => (T (ValueIdx.ix1 e)).toNat) ht), ← hx, ← hw]
  rfl

end Chunk

end Cert.Value

end
-- ==== Proof.Val.KOuts_34_41.lean ====
/-
  Gather regions 34 to 41 of the host program, one after the other: for each, the region's output array at its exit boundary as a chunk of the layer's weighted rows,
  exactly as for region 1 (whose module says what each part is).
-/
import proofs.«421643_j28415503630349_2_alg».proof.Proof.KI.Tables
import proofs.«421643_j28415503630349_2_alg».proof.Proof.Val.ChunkArrays_34_41
import proofs.«421643_j28415503630349_2_alg».proof.Proof.Val.KVals

set_option maxRecDepth 16384

noncomputable section

namespace Cert.Value

open Cert.KernelIdeal Cert.KernelIdeal.Gen Cert.KernelIdeal.Hand
open Idealize.ShloMosaic Idealize.ShloMosaic.TcCoe
open Idealize.SL.Sem

/-! # Region 34 -/

attribute [local irreducible] W69 in
/-- The output array of region 34 at its exit is chunk 1 of the weighted rows of the table the region entered with. -/
theorem kout34 (m : (ℓ : Loc nD τ sig) → Buf (Elt Ideal) ℓ)
    (hcols : ∀ (c : Dev nD) (e : S1600000.Idx), (m ((c.tc : Thread nD τ).loc main_arg4) e).toNat < 100000)
    (c : Dev nD) :
    W71 m c main_v150
      = chunkSpec (W70 m c main_v141) (m ((c.tc : Thread nD τ).loc main_arg4)) (m ((c.tc : Thread nD τ).loc main_arg2))
          (hcols c) (1 : Fin 16) := by
  -- one core: every core is core 0, the one the table's admissible contents are read at
  obtain rfl : c = 0 := Subsingleton.elim _ _
  -- the exit boundary at the output array is the pipeline's final array
  have harr : W71 m 0 main_v150
      = (dat34 (Vof (W70 m)) (adm34 m) (outBlk34 (Vof (W70 m)) (adm34 m)) 0).arrAt 1 (cfg34 (adm34 m)).N :=
    Wout34_arr (W70 m) (adm34 m) (outBlk34 (Vof (W70 m)) (adm34 m)) 0 1
  -- which is the one function of the operands at the entry boundary
  have hbody := chunk_array34_body (Vof (W70 m)) (adm34 m) (tbl_lt34 m hcols) 0
  -- the table of row numbers is the slice of the argument list
  have ht : tbl34 (adm34 m)
      = extractStridedSlice T100000 ![100000] (m (((0 : Dev nD).tc : Thread nD τ).loc main_arg4)) slices_S1600000_S100000_100000 := by
    show W70 m 0 main_v147 = _
    rw [tbl_eq34 m 0, W69_arg4 m 0]
  -- the column of weights is the slice of the argument list, as a column
  have hw : wts34 (Vof (W70 m)) 0
      = shapeCast T100000x1
          (extractStridedSlice T100000 ![100000] (m (((0 : Dev nD).tc : Thread nD τ).loc main_arg2)) slices_S1600000_S100000_100000)
          shapeCasts_S100000_S100000x1 :=
    kvals34 (W69 m 0) (m (((0 : Dev nD).tc : Thread nD τ).loc main_arg2)) (W69_arg2 m 0)
  exact harr.trans (hbody.trans
    (chunkG34_eq_chunkSpec (Vof (W70 m)) (adm34 m) (tbl_lt34 m hcols) 0
      (W70 m 0 main_v141) (m (((0 : Dev nD).tc : Thread nD τ).loc main_arg4))
      (m (((0 : Dev nD).tc : Thread nD τ).loc main_arg2)) (hcols 0) (1 : Fin 16) 100000 (by decide)
      slices_S1600000_S100000_100000 shapeCasts_S100000_S100000x1 rfl ht hw))

/-! # Region 35 -/

attribute [local irreducible] W71 in
/-- The output array of region 35 at its exit is chunk 2 of the weighted rows of the table the region entered with. -/
theorem kout35 (m : (ℓ : Loc nD τ sig) → Buf (Elt Ideal) ℓ)
    (hcols : ∀ (c : Dev nD) (e : S1600000.Idx), (m ((c.tc : Thread nD τ).loc main_arg4) e).toNat < 100000)
    (c : Dev nD) :
    W73 m c main_v154
      = chunkSpec (W72 m c main_v141) (m ((c.tc : Thread nD τ).loc main_arg4)) (m ((c.tc : Thread nD τ).loc main_arg2))
          (hcols c) (2 : Fin 16) := by
  -- one core: every core is core 0, the one the table's admissible contents are read at
  obtain rfl : c = 0 := Subsingleton.elim _ _
  -- the exit boundary at the output array is the pipeline's final array
  have harr : W73 m 0 main_v154
      = (dat35 (Vof (W72 m)) (adm35 m) (outBlk35 (Vof (W72 m)) (adm35 m)) 0).arrAt 1 (cfg35 (adm35 m)).N :=
    Wout35_arr (W72 m) (adm35 m) (outBlk35 (Vof (W72 m)) (adm35 m)) 0 1
  -- which is the one function of the operands at the entry boundary
  have hbody := chunk_array35_body (Vof (W72 m)) (adm35 m) (tbl_lt35 m hcols) 0
  -- the table of row numbers is the slice of the argument list
  have ht : tbl35 (adm35 m)
      = extractStridedSlice T100000 ![200000] (m (((0 : Dev nD).tc : Thread nD τ).loc main_arg4)) slices_S1600000_S100000_200000 := by
    show W72 m 0 main_v151 = _
    rw [tbl_eq35 m 0, W71_arg4 m 0]
  -- the column of weights is the slice of the argument list, as a column
  have hw : wts35 (Vof (W72 m)) 0
      = shapeCast T100000x1
          (extractStridedSlice T100000 ![200000] (m (((0 : Dev nD).tc : Thread nD τ).loc main_arg2)) slices_S1600000_S100000_200000)
          shapeCasts_S100000_S100000x1 :=
    kvals35 (W71 m 0) (m (((0 : Dev nD).tc : Thread nD τ).loc main_arg2)) (W71_arg2 m 0)
  exact harr.trans (hbody.trans
    (chunkG35_eq_chunkSpec (Vof (W72 m)) (adm35 m) (tbl_lt35 m hcols) 0
      (W72 m 0 main_v141) (m (((0 : Dev nD).tc : Thread nD τ).loc main_arg4))
      (m (((0 : Dev nD).tc : Thread nD τ).loc main_arg2)) (hcols 0) (2 : Fin 16) 200000 (by decide)
      slices_S1600000_S100000_200000 shapeCasts_S100000_S100000x1 rfl ht hw))

/-! # Region 36 -/

attribute [local irreducible] W73 in
/-- The output array of region 36 at its exit is chunk 3 of the weighted rows of the table the region entered with. -/
theorem kout36 (m : (ℓ : Loc nD τ sig) → Buf (Elt Ideal) ℓ)
    (hcols : ∀ (c : Dev nD) (e : S1600000.Idx), (m ((c.tc : Thread nD τ).loc main_arg4) e).toNat < 100000)
    (c : Dev nD) :
    W75 m c main_v158
      = chunkSpec (W74 m c main_v141) (m ((c.tc : Thread nD τ).loc main_arg4)) (m ((c.tc : Thread nD τ).loc main_arg2))
          (hcols c) (3 : Fin 16) := by
  -- one core: every core is core 0, the one the table's admissible contents are read at
  obtain rfl : c = 0 := Subsingleton.elim _ _
  -- the exit boundary at the output array is the pipeline's final array
  have harr : W75 m 0 main_v158
      = (dat36 (Vof (W74 m)) (adm36 m) (outBlk36 (Vof (W74 m)) (adm36 m)) 0).arrAt 1 (cfg36 (adm36 m)).N :=
    Wout36_arr (W74 m) (adm36 m) (outBlk36 (Vof (W74 m)) (adm36 m)) 0 1
  -- which is the one function of the operands at the entry boundary
  have hbody := chunk_array36_body (Vof (W74 m)) (adm36 m) (tbl_lt36 m hcols) 0
  -- the table of row numbers is the slice of the argument list
  have ht : tbl36 (adm36 m)
      = extractStridedSlice T100000 ![300000] (m (((0 : Dev nD).tc : Thread nD τ).loc main_arg4)) slices_S1600000_S100000_300000 := by
    show W74 m 0 main_v155 = _
    rw [tbl_eq36 m 0, W73_arg4 m 0]
  -- the column of weights is the slice of the argument list, as a column
  have hw : wts36 (Vof (W74 m)) 0
      = shapeCast T100000x1
          (extractStridedSlice T100000 ![300000] (m (((0 : Dev nD).tc : Thread nD τ).loc main_arg2)) slices_S1600000_S100000_300000)
          shapeCasts_S100000_S100000x1 :=
    kvals36 (W73 m 0) (m (((0 : Dev nD).tc : Thread nD τ).loc main_arg2)) (W73_arg2 m 0)
  exact harr.trans (hbody.trans
    (chunkG36_eq_chunkSpec (Vof (W74 m)) (adm36 m) (tbl_lt36 m hcols) 0
      (W74 m 0 main_v141) (m (((0 : Dev nD).tc : Thread nD τ).loc main_arg4))
      (m (((0 : Dev nD).tc : Thread nD τ).loc main_arg2)) (hcols 0) (3 : Fin 16) 300000 (by decide)
      slices_S1600000_S100000_300000 shapeCasts_S100000_S100000x1 rfl ht hw))

/-! # Region 37 -/

attribute [local irreducible] W75 in
/-- The output array of region 37 at its exit is chunk 4 of the weighted rows of the table the region entered with. -/
theorem kout37 (m : (ℓ : Loc nD τ sig) → Buf (Elt Ideal) ℓ)
    (hcols : ∀ (c : Dev nD) (e : S1600000.Idx), (m ((c.tc : Thread nD τ).loc main_arg4) e).toNat < 100000)
    (c : Dev nD) :
    W77 m c main_v162
      = chunkSpec (W76 m c main_v141) (m ((c.tc : Thread nD τ).loc main_arg4)) (m ((c.tc : Thread nD τ).loc main_arg2))
          (hcols c) (4 : Fin 16) := by
  -- one core: every core is core 0, the one the table's admissible contents are read at
  obtain rfl : c = 0 := Subsingleton.elim _ _
  -- the exit boundary at the output array is the pipeline's final array
  have harr : W77 m 0 main_v162
      = (dat37 (Vof (W76 m)) (adm37 m) (outBlk37 (Vof (W76 m)) (adm37 m)) 0).arrAt 1 (cfg37 (adm37 m)).N :=
    Wout37_arr (W76 m) (adm37 m) (outBlk37 (Vof (W76 m)) (adm37 m)) 0 1
  -- which is the one function of the operands at the entry boundary
  have hbody := chunk_array37_body (Vof (W76 m)) (adm37 m) (tbl_lt37 m hcols) 0
  -- the table of row numbers is the slice of the argument list
  have ht : tbl37 (adm37 m)
      = extractStridedSlice T100000 ![400000] (m (((0 : Dev nD).tc : Thread nD τ).loc main_arg4)) slices_S1600000_S100000_400000 := by
    show W76 m 0 main_v159 = _
    rw [tbl_eq37 m 0, W75_arg4 m 0]
  -- the column of weights is the slice of the argument list, as a column
  have hw : wts37 (Vof (W76 m)) 0
      = shapeCast T100000x1
          (extractStridedSlice T100000 ![400000] (m (((0 : Dev nD).tc : Thread nD τ).loc main_arg2)) slices_S1600000_S100000_400000)
          shapeCasts_S100000_S100000x1 :=
    kvals37 (W75 m 0) (m (((0 : Dev nD).tc : Thread nD τ).loc main_arg2)) (W75_arg2 m 0)
  exact harr.trans (hbody.trans
    (chunkG37_eq_chunkSpec (Vof (W76 m)) (adm37 m) (tbl_lt37 m hcols) 0
      (W76 m 0 main_v141) (m (((0 : Dev nD).tc : Thread nD τ).loc main_arg4))
      (m (((0 : Dev nD).tc : Thread nD τ).loc main_arg2)) (hcols 0) (4 : Fin 16) 400000 (by decide)
      slices_S1600000_S100000_400000 shapeCasts_S100000_S100000x1 rfl ht hw))

/-! # Region 38 -/

attribute [local irreducible] W77 in
/-- The output array of region 38 at its exit is chunk 5 of the weighted rows of the table the region entered with. -/
theorem kout38 (m : (ℓ : Loc nD τ sig) → Buf (Elt Ideal) ℓ)
    (hcols : ∀ (c : Dev nD) (e : S1600000.Idx), (m ((c.tc : Thread nD τ).loc main_arg4) e).toNat < 100000)
    (c : Dev nD) :
    W79 m c main_v166
      = chunkSpec (W78 m c main_v141) (m ((c.tc : Thread nD τ).loc main_arg4)) (m ((c.tc : Thread nD τ).loc main_arg2))
          (hcols c) (5 : Fin 16) := by
  -- one core: every core is core 0, the one the table's admissible contents are read at
  obtain rfl : c = 0 := Subsingleton.elim _ _
  -- the exit boundary at the output array is the pipeline's final array
  have harr : W79 m 0 main_v166
      = (dat38 (Vof (W78 m)) (adm38 m) (outBlk38 (Vof (W78 m)) (adm38 m)) 0).arrAt 1 (cfg38 (adm38 m)).N :=
    Wout38_arr (W78 m) (adm38 m) (outBlk38 (Vof (W78 m)) (adm38 m)) 0 1
  -- which is the one function of the operands at the entry boundary
  have hbody := chunk_array38_body (Vof (W78 m)) (adm38 m) (tbl_lt38 m hcols) 0
  -- the table of row numbers is the slice of the argument list
  have ht : tbl38 (adm38 m)
      = extractStridedSlice T100000 ![500000] (m (((0 : Dev nD).tc : Thread nD τ).loc main_arg4)) slices_S1600000_S100000_500000 := by
    show W78 m 0 main_v163 = _
    rw [tbl_eq38 m 0, W77_arg4 m 0]
  -- the column of weights is the slice of the argument list, as a column
  have hw : wts38 (Vof (W78 m)) 0
      = shapeCast T100000x1
          (extractStridedSlice T100000 ![500000] (m (((0 : Dev nD).tc : Thread nD τ).loc main_arg2)) slices_S1600000_S100000_500000)
          shapeCasts_S100000_S100000x1 :=
    kvals38 (W77 m 0) (m (((0 : Dev nD).tc : Thread nD τ).loc main_arg2)) (W77_arg2 m 0)
  exact harr.trans (hbody.trans
    (chunkG38_eq_chunkSpec (Vof (W78 m)) (adm38 m) (tbl_lt38 m hcols) 0
      (W78 m 0 main_v141) (m (((0 : Dev nD).tc : Thread nD τ).loc main_arg4))
      (m (((0 : Dev nD).tc : Thread nD τ).loc main_arg2)) (hcols 0) (5 : Fin 16) 500000 (by decide)
      slices_S1600000_S100000_500000 shapeCasts_S100000_S100000x1 rfl ht hw))

/-! # Region 39 -/

attribute [local irreducible] W79 in
/-- The output array of region 39 at its exit is chunk 6 of the weighted rows of the table the region entered with. -/
theorem kout39 (m : (ℓ : Loc nD τ sig) → Buf (Elt Ideal) ℓ)
    (hcols : ∀ (c : Dev nD) (e : S1600000.Idx), (m ((c.tc : Thread nD τ).loc main_arg4) e).toNat < 100000)
    (c : Dev nD) :
    W81 m c main_v170
      = chunkSpec (W80 m c main_v141) (m ((c.tc : Thread nD τ).loc main_arg4)) (m ((c.tc : Thread nD τ).loc main_arg2))
          (hcols c) (6 : Fin 16) := by
  -- one core: every core is core 0, the one the table's admissible contents are read at
  obtain rfl : c = 0 := Subsingleton.elim _ _
  -- the exit boundary at the output array is the pipeline's final array
  have harr : W81 m 0 main_v170
      = (dat39 (Vof (W80 m)) (adm39 m) (outBlk39 (Vof (W80 m)) (adm39 m)) 0).arrAt 1 (cfg39 (adm39 m)).N :=
    Wout39_arr (W80 m) (adm39 m) (outBlk39 (Vof (W80 m)) (adm39 m)) 0 1
  -- which is the one function of the operands at the entry boundary
  have hbody := chunk_array39_body (Vof (W80 m)) (adm39 m) (tbl_lt39 m hcols) 0
  -- the table of row numbers is the slice of the argument list
  have ht : tbl39 (adm39 m)
      = extractStridedSlice T100000 ![600000] (m (((0 : Dev nD).tc : Thread nD τ).loc main_arg4)) slices_S1600000_S100000_600000 := by
    show W80 m 0 main_v167 = _
    rw [tbl_eq39 m 0, W79_arg4 m 0]
  -- the column of weights is the slice of the argument list, as a column
  have hw : wts39 (Vof (W80 m)) 0
      = shapeCast T100000x1
          (extractStridedSlice T100000 ![600000] (m (((0 : Dev nD).tc : Thread nD τ).loc main_arg2)) slices_S1600000_S100000_600000)
          shapeCasts_S100000_S100000x1 :=
    kvals39 (W79 m 0) (m (((0 : Dev nD).tc : Thread nD τ).loc main_arg2)) (W79_arg2 m 0)
  exact harr.trans (hbody.trans
    (chunkG39_eq_chunkSpec (Vof (W80 m)) (adm39 m) (tbl_lt39 m hcols) 0
      (W80 m 0 main_v141) (m (((0 : Dev nD).tc : Thread nD τ).loc main_arg4))
      (m (((0 : Dev nD).tc : Thread nD τ).loc main_arg2)) (hcols 0) (6 : Fin 16) 600000 (by decide)
      slices_S1600000_S100000_600000 shapeCasts_S100000_S100000x1 rfl ht hw))

/-! # Region 40 -/

attribute [local irreducible] W81 in
/-- The output array of region 40 at its exit is chunk 7 of the weighted rows of the table the region entered with. -/
theorem kout40 (m : (ℓ : Loc nD τ sig) → Buf (Elt Ideal) ℓ)
    (hcols : ∀ (c : Dev nD) (e : S1600000.Idx), (m ((c.tc : Thread nD τ).loc main_arg4) e).toNat < 100000)
    (c : Dev nD) :
    W83 m c main_v174
      = chunkSpec (W82 m c main_v141) (m ((c.tc : Thread nD τ).loc main_arg4)) (m ((c.tc : Thread nD τ).loc main_arg2))
          (hcols c) (7 : Fin 16) := by
  -- one core: every core is core 0, the one the table's admissible contents are read at
  obtain rfl : c = 0 := Subsingleton.elim _ _
  -- the exit boundary at the output array is the pipeline's final array
  have harr : W83 m 0 main_v174
      = (dat40 (Vof (W82 m)) (adm40 m) (outBlk40 (Vof (W82 m)) (adm40 m)) 0).arrAt 1 (cfg40 (adm40 m)).N :=
    Wout40_arr (W82 m) (adm40 m) (outBlk40 (Vof (W82 m)) (adm40 m)) 0 1
  -- which is the one function of the operands at the entry boundary
  have hbody := chunk_array40_body (Vof (W82 m)) (adm40 m) (tbl_lt40 m hcols) 0
  -- the table of row numbers is the slice of the argument list
  have ht : tbl40 (adm40 m)
      = extractStridedSlice T100000 ![700000] (m (((0 : Dev nD).tc : Thread nD τ).loc main_arg4)) slices_S1600000_S100000_700000 := by
    show W82 m 0 main_v171 = _
    rw [tbl_eq40 m 0, W81_arg4 m 0]
  -- the column of weights is the slice of the argument list, as a column
  have hw : wts40 (Vof (W82 m)) 0
      = shapeCast T100000x1
          (extractStridedSlice T100000 ![700000] (m (((0 : Dev nD).tc : Thread nD τ).loc main_arg2)) slices_S1600000_S100000_700000)
          shapeCasts_S100000_S100000x1 :=
    kvals40 (W81 m 0) (m (((0 : Dev nD).tc : Thread nD τ).loc main_arg2)) (W81_arg2 m 0)
  exact harr.trans (hbody.trans
    (chunkG40_eq_chunkSpec (Vof (W82 m)) (adm40 m) (tbl_lt40 m hcols) 0
      (W82 m 0 main_v141) (m (((0 : Dev nD).tc : Thread nD τ).loc main_arg4))
      (m (((0 : Dev nD).tc : Thread nD τ).loc main_arg2)) (hcols 0) (7 : Fin 16) 700000 (by decide)
      slices_S1600000_S100000_700000 shapeCasts_S100000_S100000x1 rfl ht hw))

/-! # Region 41 -/

attribute [local irreducible] W83 in
/-- The output array of region 41 at its exit is chunk 8 of the weighted rows of the table the region entered with. -/
theorem kout41 (m : (ℓ : Loc nD τ sig) → Buf (Elt Ideal) ℓ)
    (hcols : ∀ (c : Dev nD) (e : S1600000.Idx), (m ((c.tc : Thread nD τ).loc main_arg4) e).toNat < 100000)
    (c : Dev nD) :
    W85 m c main_v178
      = chunkSpec (W84 m c main_v141) (m ((c.tc : Thread nD τ).loc main_arg4)) (m ((c.tc : Thread nD τ).loc main_arg2))
          (hcols c) (8 : Fin 16) := by
  -- one core: every core is core 0, the one the table's admissible contents are read at
  obtain rfl : c = 0 := Subsingleton.elim _ _
  -- the exit boundary at the output array is the pipeline's final array
  have harr : W85 m 0 main_v178
      = (dat41 (Vof (W84 m)) (adm41 m) (outBlk41 (Vof (W84 m)) (adm41 m)) 0).arrAt 1 (cfg41 (adm41 m)).N :=
    Wout41_arr (W84 m) (adm41 m) (outBlk41 (Vof (W84 m)) (adm41 m)) 0 1
  -- which is the one function of the operands at the entry boundary
  have hbody := chunk_array41_body (Vof (W84 m)) (adm41 m) (tbl_lt41 m hcols) 0
  -- the table of row numbers is the slice of the argument list
  have ht : tbl41 (adm41 m)
      = extractStridedSlice T100000 ![800000] (m (((0 : Dev nD).tc : Thread nD τ).loc main_arg4)) slices_S1600000_S100000_800000 := by
    show W84 m 0 main_v175 = _
    rw [tbl_eq41 m 0, W83_arg4 m 0]
  -- the column of weights is the slice of the argument list, as a column
  have hw : wts41 (Vof (W84 m)) 0
      = shapeCast T100000x1
          (extractStridedSlice T100000 ![800000] (m (((0 : Dev nD).tc : Thread nD τ).loc main_arg2)) slices_S1600000_S100000_800000)
          shapeCasts_S100000_S100000x1 :=
    kvals41 (W83 m 0) (m (((0 : Dev nD).tc : Thread nD τ).loc main_arg2)) (W83_arg2 m 0)
  exact harr.trans (hbody.trans
    (chunkG41_eq_chunkSpec (Vof (W84 m)) (adm41 m) (tbl_lt41 m hcols) 0
      (W84 m 0 main_v141) (m (((0 : Dev nD).tc : Thread nD τ).loc main_arg4))
      (m (((0 : Dev nD).tc : Thread nD τ).loc main_arg2)) (hcols 0) (8 : Fin 16) 800000 (by decide)
      slices_S1600000_S100000_800000 shapeCasts_S100000_S100000x1 rfl ht hw))

end Cert.Value

end
-- ==== Proof.Val.ChunkArrays_42_48.lean ====
/-
  Gather regions 42 to 48 of the host program, one after the other: for each, the region's output array as one function of the node table, the table's words and the weights,
  exactly as for region 1 (whose module says what each part is).
-/
import proofs.«421643_j28415503630349_2_alg».proof.Proof.KI.Regions_42_48
import proofs.«421643_j28415503630349_2_alg».proof.Proof.KI.GatherDefs
import proofs.«421643_j28415503630349_2_alg».proof.Proof.Val.GatherSpec
import proofs.«421643_j28415503630349_2_alg».proof.Proof.Val.Cover
import Idealize.ShloMosaic.Lib.Pipeline.Value
import Idealize.ShloMosaic.Lib.ValueIdx

set_option maxRecDepth 16384

noncomputable section

namespace Cert.Value

open Cert.KernelIdeal Cert.KernelIdeal.Gen Cert.KernelIdeal.Hand
open Idealize.ShloMosaic Idealize.ShloMosaic.TcCoe
open Idealize.SL.Sem
open Idealize.ShloMosaic.Pipeline (Dat Cfg Window UD)

/-! # Region 42 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg42 (F := Ideal)).Adm)
  (O : (c : Dev nD) → Fin (cfg42 a1).N → Vec Ideal S8x64 .f32)

/-- The grid has 12500 points. -/
theorem npoints42 : (cfg42 a1).N = 12500 := N_42

/-- A point's one coordinate is the point's number. -/
theorem coordsVal42 (t : Fin (cfg42 a1).N) : (((cfg42 a1).grid.coords t) 0).val = t.val := by
  have ht : t.val < 12500 := (npoints42 a1) ▸ t.isLt
  show t.val / grid42.stride 0 % 12500 = t.val
  rw [show grid42.stride 0 = 1 from by decide, Nat.div_one, Nat.mod_eq_of_lt ht]

/-- Both windows move with the point: block index (t, 0) at point t. -/
theorem idxInRow42 (t : Fin (cfg42 a1).N) : ((cfg42 a1).win 0).index t (0 : Fin 2) = t.val := by
  have ht : t.val < 12500 := (npoints42 a1) ▸ t.isLt
  show (BitVec.ofNat 32 (((cfg42 a1).grid.coords t) 0).val).toNat = t.val
  rw [coordsVal42, BitVec.toNat_ofNat, Nat.mod_eq_of_lt (by omega)]
theorem idxInCol42 (t : Fin (cfg42 a1).N) : ((cfg42 a1).win 0).index t (1 : Fin 2) = 0 := rfl
theorem idxOutRow42 (t : Fin (cfg42 a1).N) : ((cfg42 a1).win 1).index t (0 : Fin 2) = t.val := by
  have ht : t.val < 12500 := (npoints42 a1) ▸ t.isLt
  show (BitVec.ofNat 32 (((cfg42 a1).grid.coords t) 0).val).toNat = t.val
  rw [coordsVal42, BitVec.toNat_ofNat, Nat.mod_eq_of_lt (by omega)]
theorem idxOutCol42 (t : Fin (cfg42 a1).N) : ((cfg42 a1).win 1).index t (1 : Fin 2) = 0 := rfl

/-- The output window is written back at every point: the next point's block is another. -/
theorem flushOut42 (t : Fin (cfg42 a1).N) : ((cfg42 a1).win 1).flush t = true := by
  unfold Window.flush
  show (true && (decide (t.val + 1 = (cfg42 a1).N) || decide (∃ h : t.val + 1 < (cfg42 a1).N,
    ((cfg42 a1).win 1).index ⟨t.val + 1, h⟩ ≠ ((cfg42 a1).win 1).index t))) = true
  rw [Bool.true_and, Bool.or_eq_true, decide_eq_true_eq, decide_eq_true_eq]
  by_cases h : t.val + 1 = (cfg42 a1).N
  · exact Or.inl h
  · refine Or.inr ⟨by have := t.isLt; omega, fun e => ?_⟩
    have erow := congrFun e (0 : Fin 2)
    rw [idxOutRow42, idxOutRow42] at erow
    exact absurd erow (by show t.val + 1 ≠ t.val; omega)

/-! ## The operands at their literal types -/

/-- The table's words. -/
abbrev tbl42 : S100000.Idx → BitVec 32 := a1.1 0
/-- The far operand: the table of rows. -/
abbrev far42 (c : Dev nD) : S100000x64.Idx → EReal := V c main_v141
/-- The weights, as a column. -/
abbrev wts42 (c : Dev nD) : S100000x1.Idx → EReal := V c main_v181
/-- The input window's block at point t: eight weights. -/
abbrev inBlk42 (c : Dev nD) (t : Fin (cfg42 a1).N) : S8x1.Idx → EReal := iblk42 V a1 c 0 t

/-! ## The blocks -/

/-- Row r of the input window's block at point t is row 8 t + r of the column of weights. -/
theorem inBlk42_apply (c : Dev nD) (t : Fin (cfg42 a1).N) (r : Fin 8) (z : Fin 1) (k : S100000x1.Idx)
    (hkrow : (k 0).val = 8 * t.val + r.val) :
    inBlk42 V a1 c t (ValueIdx.ix2 r z) = wts42 V c k := by
  show wts42 V c ((((cfg42 a1).win 0).blk t).view.emb (ValueIdx.ix2 r z)) = wts42 V c k
  refine congrArg (wts42 V c) (funext fun a => Fin.ext ?_)
  match a with
  | ⟨0, _⟩ =>
    show ((cfg42 a1).win 0).index t (0 : Fin 2) * 8 + 1 * r.val = (k 0).val
    rw [idxInRow42, hkrow]; omega
  | ⟨1, _⟩ =>
    show ((cfg42 a1).win 0).index t (1 : Fin 2) * 1 + 1 * z.val = (k 1).val
    have hkcol : (k 1).val < 1 := idx2_lt1 k
    have hz : z.val < 1 := z.isLt
    rw [idxInCol42]; omega

/-- An index of the array is in point t's block iff each coordinate is in the block's range on its axis. -/
theorem mem_blkOut42 (t : Fin (cfg42 a1).N) (i : S100000x64.Idx) :
    i ∈ (((cfg42 a1).win 1).blk t).view.set ↔ ∀ a : Fin 2, ((cfg42 a1).win 1).index t a * S8x64.size a ≤ (i a).val
      ∧ (i a).val < ((cfg42 a1).win 1).index t a * S8x64.size a + S8x64.size a := by
  have hset : (((cfg42 a1).win 1).blk t).view.set = (((cfg42 a1).win 1).rect t : Rect S100000x64).set :=
    View.set_slice_whole main_v182 _
  have hmem : i ∈ (((cfg42 a1).win 1).rect t : Rect S100000x64).set ↔ ∀ a : Fin 2,
      ((cfg42 a1).win 1).index t a * S8x64.size a ≤ (i a).val
        ∧ (i a).val < ((cfg42 a1).win 1).index t a * S8x64.size a + S8x64.size a := Rect.mem_set_unit
  exact (Finset.ext_iff.mp hset i).trans hmem

/-- Every index of the array is in the block of the point its row over eight names. -/
theorem coverOut42 (i : S100000x64.Idx) :
    ∃ t : Fin (cfg42 a1).N, ((cfg42 a1).win 1).flush t = true ∧ i ∈ (((cfg42 a1).win 1).blk t).view.set := by
  have hirow : (i 0).val < 100000 := idx2_lt0 i
  have hicol : (i 1).val < 64 := idx2_lt1 i
  obtain ⟨t, ht⟩ : ∃ t : Fin (cfg42 a1).N, t.val = (i 0).val / 8 := ⟨⟨(i 0).val / 8, by rw [npoints42]; omega⟩, rfl⟩
  refine ⟨t, flushOut42 a1 t, ?_⟩
  rw [mem_blkOut42]
  intro a
  match a with
  | ⟨0, _⟩ =>
    show ((cfg42 a1).win 1).index t (0 : Fin 2) * 8 ≤ (i 0).val ∧ (i 0).val < ((cfg42 a1).win 1).index t (0 : Fin 2) * 8 + 8
    rw [idxOutRow42, ht]; omega
  | ⟨1, _⟩ =>
    show ((cfg42 a1).win 1).index t (1 : Fin 2) * 64 ≤ (i 1).val ∧ (i 1).val < ((cfg42 a1).win 1).index t (1 : Fin 2) * 64 + 64
    rw [idxOutCol42]; omega

/-! ## The array -/

/-- One weighted row at one column: the table row the e-th word names, at column j, times the e-th weight. -/
def chunkRow42 (hlt : ∀ y, (tbl42 a1 y).toNat < 100000) (c : Dev nD) (e : Fin 100000) (j : Fin 64) : EReal :=
  far42 V c (ValueIdx.ix2 ⟨(tbl42 a1 (ValueIdx.ix1 e)).toNat, hlt _⟩ j) * wts42 V c (ValueIdx.ix2 e (0 : Fin 1))

/-- The chunk's array as one function of the region's operands. -/
def chunkG42 (hlt : ∀ y, (tbl42 a1 y).toNat < 100000) (c : Dev nD) : S100000x64.Idx → EReal :=
  fun i => chunkRow42 V a1 hlt c (i 0) (i 1)

/-- Row r of point t's block lies in the table. -/
theorem row_lt42 (t : Fin (cfg42 a1).N) (r : Fin 8) : 8 * t.val + r.val < 100000 := by
  have ht : t.val < 12500 := (npoints42 a1) ▸ t.isLt
  have := r.isLt; omega

/-- WHAT POINT t WRITES BACK is block t of the chunk's array, when the body leaves in the output window's buffer,
    at (r, j), the table row that word 8 t + r names at column j times the input block's weight at (r, 0). -/
theorem flushedOut42_eq (hlt : ∀ y, (tbl42 a1 y).toNat < 100000)
    (hO : ∀ (c : Dev nD) (t : Fin (cfg42 a1).N) (r : Fin 8) (j : Fin 64), O c t (ValueIdx.ix2 r j)
      = far42 V c (ValueIdx.ix2 ⟨(tbl42 a1 (ValueIdx.ix1 ⟨8 * t.val + r.val, row_lt42 a1 t r⟩)).toNat, hlt _⟩ j)
        * inBlk42 V a1 c t (ValueIdx.ix2 r (0 : Fin 1)))
    (c : Dev nD) (t : Fin (cfg42 a1).N) :
    (dat42 V a1 O c).flushed 1 t = (((cfg42 a1).win 1).blk t).view.read (Elt Ideal) (chunkG42 V a1 hlt c) := by
  show ((cfg42 a1).win 1).cut ((cfg42 a1).grid.coords t) ((dat42 V a1 O c).after 1 t) = _
  rw [afterOut42]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG42 V a1 hlt c ((((cfg42 a1).win 1).blk t).view.emb (ValueIdx.ix2 r j))
  have hemb : (((cfg42 a1).win 1).blk t).view.emb (ValueIdx.ix2 r j)
      = (ValueIdx.ix2 ⟨8 * t.val + r.val, row_lt42 a1 t r⟩ j : S100000x64.Idx) := by
    funext a; apply Fin.ext
    match a with
    | ⟨0, _⟩ =>
      show ((cfg42 a1).win 1).index t (0 : Fin 2) * 8 + 1 * r.val = 8 * t.val + r.val
      rw [idxOutRow42]; omega
    | ⟨1, _⟩ =>
      show ((cfg42 a1).win 1).index t (1 : Fin 2) * 64 + 1 * j.val = j.val
      rw [idxOutCol42]; omega
  rw [hemb, hO c t r j,
    inBlk42_apply V a1 c t r 0 (ValueIdx.ix2 ⟨8 * t.val + r.val, row_lt42 a1 t r⟩ (0 : Fin 1)) rfl]
  rfl

/-- THE CHUNK'S ARRAY after the region: chunkG42. -/
theorem chunk_array42 (hlt : ∀ y, (tbl42 a1 y).toNat < 100000)
    (hO : ∀ (c : Dev nD) (t : Fin (cfg42 a1).N) (r : Fin 8) (j : Fin 64), O c t (ValueIdx.ix2 r j)
      = far42 V c (ValueIdx.ix2 ⟨(tbl42 a1 (ValueIdx.ix1 ⟨8 * t.val + r.val, row_lt42 a1 t r⟩)).toNat, hlt _⟩ j)
        * inBlk42 V a1 c t (ValueIdx.ix2 r (0 : Fin 1)))
    (c : Dev nD) :
    (dat42 V a1 O c).arrAt 1 (cfg42 a1).N = chunkG42 V a1 hlt c :=
  (dat42 V a1 O c).arrAt_eq_of_cover 1 (chunkG42 V a1 hlt c) (fun t _ => flushedOut42_eq V a1 O hlt hO c t) (coverOut42 a1)

/-! ## The body's own block -/

/-- Two rows of the far operand named by the same word are the same row. -/
theorem farRow42_congr (c : Dev nD) {e e' : Fin 100000} (h : e.val = e'.val) (j : Fin 64)
    (p : (tbl42 a1 (ValueIdx.ix1 e)).toNat < 100000) (p' : (tbl42 a1 (ValueIdx.ix1 e')).toNat < 100000) :
    far42 V c (ValueIdx.ix2 ⟨(tbl42 a1 (ValueIdx.ix1 e)).toNat, p⟩ j)
      = far42 V c (ValueIdx.ix2 ⟨(tbl42 a1 (ValueIdx.ix1 e')).toNat, p'⟩ j) := by
  obtain rfl : e = e' := Fin.ext h
  rfl

/-- The body's block at point t — the gathered rows scaled by the input block — has the entries hO asks. -/
theorem bodyBlk42_apply (hlt : ∀ y, (tbl42 a1 y).toNat < 100000) (c : Dev nD) (t : Fin (cfg42 a1).N) (r : Fin 8) (j : Fin 64) :
    gatherOut (gatherG (a1.1 0) (V c main_v141) (grid42.coords t)) (iblk42 V a1 c 0 t) (ValueIdx.ix2 r j)
      = far42 V c (ValueIdx.ix2 ⟨(tbl42 a1 (ValueIdx.ix1 ⟨8 * t.val + r.val, row_lt42 a1 t r⟩)).toNat, hlt _⟩ j)
        * inBlk42 V a1 c t (ValueIdx.ix2 r (0 : Fin 1)) := by
  have hpay : gatherOut (gatherG (a1.1 0) (V c main_v141) (grid42.coords t)) (iblk42 V a1 c 0 t) (ValueIdx.ix2 r j)
      = gatherG (F := Ideal) (tbl42 a1) (far42 V c) (grid42.coords t) (ValueIdx.ix2 r j) * inBlk42 V a1 c t (ValueIdx.ix2 r (0 : Fin 1)) :=
    Cert.Value.kernel_block (by decide) (by decide) (gatherG (F := Ideal) (tbl42 a1) (far42 V c) (grid42.coords t)) (inBlk42 V a1 c t) r j
  rw [hpay, gatherG_apply (F := Ideal) (tbl42 a1) (far42 V c) (grid42.coords t) r j (hlt _)]
  refine congrArg (· * inBlk42 V a1 c t (ValueIdx.ix2 r (0 : Fin 1))) ?_
  exact farRow42_congr V a1 c (by show 8 * ((grid42.coords t) 0).val + r.val = 8 * t.val + r.val; rw [coordsVal42 a1 t]) j _ _

/-- THE CHUNK'S ARRAY after the region, the output block being the body's own. -/
theorem chunk_array42_body (hlt : ∀ y, (tbl42 a1 y).toNat < 100000) (c : Dev nD) :
    (dat42 V a1 (fun c t => gatherOut (gatherG (a1.1 0) (V c main_v141) (grid42.coords t)) (iblk42 V a1 c 0 t)) c).arrAt 1 (cfg42 a1).N
      = chunkG42 V a1 hlt c :=
  chunk_array42 V a1 _ hlt (fun c t r j => bodyBlk42_apply V a1 hlt c t r j) c

/-! ## The array as a chunk of the weighted rows -/

/-- When the far operand is the table x, the region's table the slice of the row numbers cols at 100000 k and its
    weights the slice of vals there as a column, the region's array is chunk k of the weighted rows. -/
theorem chunkG42_eq_chunkSpec (hlt : ∀ y, (tbl42 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far42 V c = x) (ht : tbl42 a1 = extractStridedSlice Cert.Value.T100000 ![off] cols hsl)
    (hw : wts42 V c = shapeCast Cert.Value.T100000x1 (extractStridedSlice Cert.Value.T100000 ![off] vals hsl) hsc) :
    chunkG42 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl42 a1 (ValueIdx.ix1 e)).toNat, hlt _⟩ (congrArg (fun T : S100000.Idx → BitVec 32 => (T (ValueIdx.ix1 e)).toNat) ht), ← hx, ← hw]
  rfl

end Chunk

/-! # Region 43 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg43 (F := Ideal)).Adm)
  (O : (c : Dev nD) → Fin (cfg43 a1).N → Vec Ideal S8x64 .f32)

/-- The grid has 12500 points. -/
theorem npoints43 : (cfg43 a1).N = 12500 := N_43

/-- A point's one coordinate is the point's number. -/
theorem coordsVal43 (t : Fin (cfg43 a1).N) : (((cfg43 a1).grid.coords t) 0).val = t.val := by
  have ht : t.val < 12500 := (npoints43 a1) ▸ t.isLt
  show t.val / grid43.stride 0 % 12500 = t.val
  rw [show grid43.stride 0 = 1 from by decide, Nat.div_one, Nat.mod_eq_of_lt ht]

/-- Both windows move with the point: block index (t, 0) at point t. -/
theorem idxInRow43 (t : Fin (cfg43 a1).N) : ((cfg43 a1).win 0).index t (0 : Fin 2) = t.val := by
  have ht : t.val < 12500 := (npoints43 a1) ▸ t.isLt
  show (BitVec.ofNat 32 (((cfg43 a1).grid.coords t) 0).val).toNat = t.val
  rw [coordsVal43, BitVec.toNat_ofNat, Nat.mod_eq_of_lt (by omega)]
theorem idxInCol43 (t : Fin (cfg43 a1).N) : ((cfg43 a1).win 0).index t (1 : Fin 2) = 0 := rfl
theorem idxOutRow43 (t : Fin (cfg43 a1).N) : ((cfg43 a1).win 1).index t (0 : Fin 2) = t.val := by
  have ht : t.val < 12500 := (npoints43 a1) ▸ t.isLt
  show (BitVec.ofNat 32 (((cfg43 a1).grid.coords t) 0).val).toNat = t.val
  rw [coordsVal43, BitVec.toNat_ofNat, Nat.mod_eq_of_lt (by omega)]
theorem idxOutCol43 (t : Fin (cfg43 a1).N) : ((cfg43 a1).win 1).index t (1 : Fin 2) = 0 := rfl

/-- The output window is written back at every point: the next point's block is another. -/
theorem flushOut43 (t : Fin (cfg43 a1).N) : ((cfg43 a1).win 1).flush t = true := by
  unfold Window.flush
  show (true && (decide (t.val + 1 = (cfg43 a1).N) || decide (∃ h : t.val + 1 < (cfg43 a1).N,
    ((cfg43 a1).win 1).index ⟨t.val + 1, h⟩ ≠ ((cfg43 a1).win 1).index t))) = true
  rw [Bool.true_and, Bool.or_eq_true, decide_eq_true_eq, decide_eq_true_eq]
  by_cases h : t.val + 1 = (cfg43 a1).N
  · exact Or.inl h
  · refine Or.inr ⟨by have := t.isLt; omega, fun e => ?_⟩
    have erow := congrFun e (0 : Fin 2)
    rw [idxOutRow43, idxOutRow43] at erow
    exact absurd erow (by show t.val + 1 ≠ t.val; omega)

/-! ## The operands at their literal types -/

/-- The table's words. -/
abbrev tbl43 : S100000.Idx → BitVec 32 := a1.1 0
/-- The far operand: the table of rows. -/
abbrev far43 (c : Dev nD) : S100000x64.Idx → EReal := V c main_v141
/-- The weights, as a column. -/
abbrev wts43 (c : Dev nD) : S100000x1.Idx → EReal := V c main_v185
/-- The input window's block at point t: eight weights. -/
abbrev inBlk43 (c : Dev nD) (t : Fin (cfg43 a1).N) : S8x1.Idx → EReal := iblk43 V a1 c 0 t

/-! ## The blocks -/

/-- Row r of the input window's block at point t is row 8 t + r of the column of weights. -/
theorem inBlk43_apply (c : Dev nD) (t : Fin (cfg43 a1).N) (r : Fin 8) (z : Fin 1) (k : S100000x1.Idx)
    (hkrow : (k 0).val = 8 * t.val + r.val) :
    inBlk43 V a1 c t (ValueIdx.ix2 r z) = wts43 V c k := by
  show wts43 V c ((((cfg43 a1).win 0).blk t).view.emb (ValueIdx.ix2 r z)) = wts43 V c k
  refine congrArg (wts43 V c) (funext fun a => Fin.ext ?_)
  match a with
  | ⟨0, _⟩ =>
    show ((cfg43 a1).win 0).index t (0 : Fin 2) * 8 + 1 * r.val = (k 0).val
    rw [idxInRow43, hkrow]; omega
  | ⟨1, _⟩ =>
    show ((cfg43 a1).win 0).index t (1 : Fin 2) * 1 + 1 * z.val = (k 1).val
    have hkcol : (k 1).val < 1 := idx2_lt1 k
    have hz : z.val < 1 := z.isLt
    rw [idxInCol43]; omega

/-- An index of the array is in point t's block iff each coordinate is in the block's range on its axis. -/
theorem mem_blkOut43 (t : Fin (cfg43 a1).N) (i : S100000x64.Idx) :
    i ∈ (((cfg43 a1).win 1).blk t).view.set ↔ ∀ a : Fin 2, ((cfg43 a1).win 1).index t a * S8x64.size a ≤ (i a).val
      ∧ (i a).val < ((cfg43 a1).win 1).index t a * S8x64.size a + S8x64.size a := by
  have hset : (((cfg43 a1).win 1).blk t).view.set = (((cfg43 a1).win 1).rect t : Rect S100000x64).set :=
    View.set_slice_whole main_v186 _
  have hmem : i ∈ (((cfg43 a1).win 1).rect t : Rect S100000x64).set ↔ ∀ a : Fin 2,
      ((cfg43 a1).win 1).index t a * S8x64.size a ≤ (i a).val
        ∧ (i a).val < ((cfg43 a1).win 1).index t a * S8x64.size a + S8x64.size a := Rect.mem_set_unit
  exact (Finset.ext_iff.mp hset i).trans hmem

/-- Every index of the array is in the block of the point its row over eight names. -/
theorem coverOut43 (i : S100000x64.Idx) :
    ∃ t : Fin (cfg43 a1).N, ((cfg43 a1).win 1).flush t = true ∧ i ∈ (((cfg43 a1).win 1).blk t).view.set := by
  have hirow : (i 0).val < 100000 := idx2_lt0 i
  have hicol : (i 1).val < 64 := idx2_lt1 i
  obtain ⟨t, ht⟩ : ∃ t : Fin (cfg43 a1).N, t.val = (i 0).val / 8 := ⟨⟨(i 0).val / 8, by rw [npoints43]; omega⟩, rfl⟩
  refine ⟨t, flushOut43 a1 t, ?_⟩
  rw [mem_blkOut43]
  intro a
  match a with
  | ⟨0, _⟩ =>
    show ((cfg43 a1).win 1).index t (0 : Fin 2) * 8 ≤ (i 0).val ∧ (i 0).val < ((cfg43 a1).win 1).index t (0 : Fin 2) * 8 + 8
    rw [idxOutRow43, ht]; omega
  | ⟨1, _⟩ =>
    show ((cfg43 a1).win 1).index t (1 : Fin 2) * 64 ≤ (i 1).val ∧ (i 1).val < ((cfg43 a1).win 1).index t (1 : Fin 2) * 64 + 64
    rw [idxOutCol43]; omega

/-! ## The array -/

/-- One weighted row at one column: the table row the e-th word names, at column j, times the e-th weight. -/
def chunkRow43 (hlt : ∀ y, (tbl43 a1 y).toNat < 100000) (c : Dev nD) (e : Fin 100000) (j : Fin 64) : EReal :=
  far43 V c (ValueIdx.ix2 ⟨(tbl43 a1 (ValueIdx.ix1 e)).toNat, hlt _⟩ j) * wts43 V c (ValueIdx.ix2 e (0 : Fin 1))

/-- The chunk's array as one function of the region's operands. -/
def chunkG43 (hlt : ∀ y, (tbl43 a1 y).toNat < 100000) (c : Dev nD) : S100000x64.Idx → EReal :=
  fun i => chunkRow43 V a1 hlt c (i 0) (i 1)

/-- Row r of point t's block lies in the table. -/
theorem row_lt43 (t : Fin (cfg43 a1).N) (r : Fin 8) : 8 * t.val + r.val < 100000 := by
  have ht : t.val < 12500 := (npoints43 a1) ▸ t.isLt
  have := r.isLt; omega

/-- WHAT POINT t WRITES BACK is block t of the chunk's array, when the body leaves in the output window's buffer,
    at (r, j), the table row that word 8 t + r names at column j times the input block's weight at (r, 0). -/
theorem flushedOut43_eq (hlt : ∀ y, (tbl43 a1 y).toNat < 100000)
    (hO : ∀ (c : Dev nD) (t : Fin (cfg43 a1).N) (r : Fin 8) (j : Fin 64), O c t (ValueIdx.ix2 r j)
      = far43 V c (ValueIdx.ix2 ⟨(tbl43 a1 (ValueIdx.ix1 ⟨8 * t.val + r.val, row_lt43 a1 t r⟩)).toNat, hlt _⟩ j)
        * inBlk43 V a1 c t (ValueIdx.ix2 r (0 : Fin 1)))
    (c : Dev nD) (t : Fin (cfg43 a1).N) :
    (dat43 V a1 O c).flushed 1 t = (((cfg43 a1).win 1).blk t).view.read (Elt Ideal) (chunkG43 V a1 hlt c) := by
  show ((cfg43 a1).win 1).cut ((cfg43 a1).grid.coords t) ((dat43 V a1 O c).after 1 t) = _
  rw [afterOut43]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG43 V a1 hlt c ((((cfg43 a1).win 1).blk t).view.emb (ValueIdx.ix2 r j))
  have hemb : (((cfg43 a1).win 1).blk t).view.emb (ValueIdx.ix2 r j)
      = (ValueIdx.ix2 ⟨8 * t.val + r.val, row_lt43 a1 t r⟩ j : S100000x64.Idx) := by
    funext a; apply Fin.ext
    match a with
    | ⟨0, _⟩ =>
      show ((cfg43 a1).win 1).index t (0 : Fin 2) * 8 + 1 * r.val = 8 * t.val + r.val
      rw [idxOutRow43]; omega
    | ⟨1, _⟩ =>
      show ((cfg43 a1).win 1).index t (1 : Fin 2) * 64 + 1 * j.val = j.val
      rw [idxOutCol43]; omega
  rw [hemb, hO c t r j,
    inBlk43_apply V a1 c t r 0 (ValueIdx.ix2 ⟨8 * t.val + r.val, row_lt43 a1 t r⟩ (0 : Fin 1)) rfl]
  rfl

/-- THE CHUNK'S ARRAY after the region: chunkG43. -/
theorem chunk_array43 (hlt : ∀ y, (tbl43 a1 y).toNat < 100000)
    (hO : ∀ (c : Dev nD) (t : Fin (cfg43 a1).N) (r : Fin 8) (j : Fin 64), O c t (ValueIdx.ix2 r j)
      = far43 V c (ValueIdx.ix2 ⟨(tbl43 a1 (ValueIdx.ix1 ⟨8 * t.val + r.val, row_lt43 a1 t r⟩)).toNat, hlt _⟩ j)
        * inBlk43 V a1 c t (ValueIdx.ix2 r (0 : Fin 1)))
    (c : Dev nD) :
    (dat43 V a1 O c).arrAt 1 (cfg43 a1).N = chunkG43 V a1 hlt c :=
  (dat43 V a1 O c).arrAt_eq_of_cover 1 (chunkG43 V a1 hlt c) (fun t _ => flushedOut43_eq V a1 O hlt hO c t) (coverOut43 a1)

/-! ## The body's own block -/

/-- Two rows of the far operand named by the same word are the same row. -/
theorem farRow43_congr (c : Dev nD) {e e' : Fin 100000} (h : e.val = e'.val) (j : Fin 64)
    (p : (tbl43 a1 (ValueIdx.ix1 e)).toNat < 100000) (p' : (tbl43 a1 (ValueIdx.ix1 e')).toNat < 100000) :
    far43 V c (ValueIdx.ix2 ⟨(tbl43 a1 (ValueIdx.ix1 e)).toNat, p⟩ j)
      = far43 V c (ValueIdx.ix2 ⟨(tbl43 a1 (ValueIdx.ix1 e')).toNat, p'⟩ j) := by
  obtain rfl : e = e' := Fin.ext h
  rfl

/-- The body's block at point t — the gathered rows scaled by the input block — has the entries hO asks. -/
theorem bodyBlk43_apply (hlt : ∀ y, (tbl43 a1 y).toNat < 100000) (c : Dev nD) (t : Fin (cfg43 a1).N) (r : Fin 8) (j : Fin 64) :
    gatherOut (gatherG (a1.1 0) (V c main_v141) (grid43.coords t)) (iblk43 V a1 c 0 t) (ValueIdx.ix2 r j)
      = far43 V c (ValueIdx.ix2 ⟨(tbl43 a1 (ValueIdx.ix1 ⟨8 * t.val + r.val, row_lt43 a1 t r⟩)).toNat, hlt _⟩ j)
        * inBlk43 V a1 c t (ValueIdx.ix2 r (0 : Fin 1)) := by
  have hpay : gatherOut (gatherG (a1.1 0) (V c main_v141) (grid43.coords t)) (iblk43 V a1 c 0 t) (ValueIdx.ix2 r j)
      = gatherG (F := Ideal) (tbl43 a1) (far43 V c) (grid43.coords t) (ValueIdx.ix2 r j) * inBlk43 V a1 c t (ValueIdx.ix2 r (0 : Fin 1)) :=
    Cert.Value.kernel_block (by decide) (by decide) (gatherG (F := Ideal) (tbl43 a1) (far43 V c) (grid43.coords t)) (inBlk43 V a1 c t) r j
  rw [hpay, gatherG_apply (F := Ideal) (tbl43 a1) (far43 V c) (grid43.coords t) r j (hlt _)]
  refine congrArg (· * inBlk43 V a1 c t (ValueIdx.ix2 r (0 : Fin 1))) ?_
  exact farRow43_congr V a1 c (by show 8 * ((grid43.coords t) 0).val + r.val = 8 * t.val + r.val; rw [coordsVal43 a1 t]) j _ _

/-- THE CHUNK'S ARRAY after the region, the output block being the body's own. -/
theorem chunk_array43_body (hlt : ∀ y, (tbl43 a1 y).toNat < 100000) (c : Dev nD) :
    (dat43 V a1 (fun c t => gatherOut (gatherG (a1.1 0) (V c main_v141) (grid43.coords t)) (iblk43 V a1 c 0 t)) c).arrAt 1 (cfg43 a1).N
      = chunkG43 V a1 hlt c :=
  chunk_array43 V a1 _ hlt (fun c t r j => bodyBlk43_apply V a1 hlt c t r j) c

/-! ## The array as a chunk of the weighted rows -/

/-- When the far operand is the table x, the region's table the slice of the row numbers cols at 100000 k and its
    weights the slice of vals there as a column, the region's array is chunk k of the weighted rows. -/
theorem chunkG43_eq_chunkSpec (hlt : ∀ y, (tbl43 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far43 V c = x) (ht : tbl43 a1 = extractStridedSlice Cert.Value.T100000 ![off] cols hsl)
    (hw : wts43 V c = shapeCast Cert.Value.T100000x1 (extractStridedSlice Cert.Value.T100000 ![off] vals hsl) hsc) :
    chunkG43 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl43 a1 (ValueIdx.ix1 e)).toNat, hlt _⟩ (congrArg (fun T : S100000.Idx → BitVec 32 => (T (ValueIdx.ix1 e)).toNat) ht), ← hx, ← hw]
  rfl

end Chunk

/-! # Region 44 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg44 (F := Ideal)).Adm)
  (O : (c : Dev nD) → Fin (cfg44 a1).N → Vec Ideal S8x64 .f32)

/-- The grid has 12500 points. -/
theorem npoints44 : (cfg44 a1).N = 12500 := N_44

/-- A point's one coordinate is the point's number. -/
theorem coordsVal44 (t : Fin (cfg44 a1).N) : (((cfg44 a1).grid.coords t) 0).val = t.val := by
  have ht : t.val < 12500 := (npoints44 a1) ▸ t.isLt
  show t.val / grid44.stride 0 % 12500 = t.val
  rw [show grid44.stride 0 = 1 from by decide, Nat.div_one, Nat.mod_eq_of_lt ht]

/-- Both windows move with the point: block index (t, 0) at point t. -/
theorem idxInRow44 (t : Fin (cfg44 a1).N) : ((cfg44 a1).win 0).index t (0 : Fin 2) = t.val := by
  have ht : t.val < 12500 := (npoints44 a1) ▸ t.isLt
  show (BitVec.ofNat 32 (((cfg44 a1).grid.coords t) 0).val).toNat = t.val
  rw [coordsVal44, BitVec.toNat_ofNat, Nat.mod_eq_of_lt (by omega)]
theorem idxInCol44 (t : Fin (cfg44 a1).N) : ((cfg44 a1).win 0).index t (1 : Fin 2) = 0 := rfl
theorem idxOutRow44 (t : Fin (cfg44 a1).N) : ((cfg44 a1).win 1).index t (0 : Fin 2) = t.val := by
  have ht : t.val < 12500 := (npoints44 a1) ▸ t.isLt
  show (BitVec.ofNat 32 (((cfg44 a1).grid.coords t) 0).val).toNat = t.val
  rw [coordsVal44, BitVec.toNat_ofNat, Nat.mod_eq_of_lt (by omega)]
theorem idxOutCol44 (t : Fin (cfg44 a1).N) : ((cfg44 a1).win 1).index t (1 : Fin 2) = 0 := rfl

/-- The output window is written back at every point: the next point's block is another. -/
theorem flushOut44 (t : Fin (cfg44 a1).N) : ((cfg44 a1).win 1).flush t = true := by
  unfold Window.flush
  show (true && (decide (t.val + 1 = (cfg44 a1).N) || decide (∃ h : t.val + 1 < (cfg44 a1).N,
    ((cfg44 a1).win 1).index ⟨t.val + 1, h⟩ ≠ ((cfg44 a1).win 1).index t))) = true
  rw [Bool.true_and, Bool.or_eq_true, decide_eq_true_eq, decide_eq_true_eq]
  by_cases h : t.val + 1 = (cfg44 a1).N
  · exact Or.inl h
  · refine Or.inr ⟨by have := t.isLt; omega, fun e => ?_⟩
    have erow := congrFun e (0 : Fin 2)
    rw [idxOutRow44, idxOutRow44] at erow
    exact absurd erow (by show t.val + 1 ≠ t.val; omega)

/-! ## The operands at their literal types -/

/-- The table's words. -/
abbrev tbl44 : S100000.Idx → BitVec 32 := a1.1 0
/-- The far operand: the table of rows. -/
abbrev far44 (c : Dev nD) : S100000x64.Idx → EReal := V c main_v141
/-- The weights, as a column. -/
abbrev wts44 (c : Dev nD) : S100000x1.Idx → EReal := V c main_v189
/-- The input window's block at point t: eight weights. -/
abbrev inBlk44 (c : Dev nD) (t : Fin (cfg44 a1).N) : S8x1.Idx → EReal := iblk44 V a1 c 0 t

/-! ## The blocks -/

/-- Row r of the input window's block at point t is row 8 t + r of the column of weights. -/
theorem inBlk44_apply (c : Dev nD) (t : Fin (cfg44 a1).N) (r : Fin 8) (z : Fin 1) (k : S100000x1.Idx)
    (hkrow : (k 0).val = 8 * t.val + r.val) :
    inBlk44 V a1 c t (ValueIdx.ix2 r z) = wts44 V c k := by
  show wts44 V c ((((cfg44 a1).win 0).blk t).view.emb (ValueIdx.ix2 r z)) = wts44 V c k
  refine congrArg (wts44 V c) (funext fun a => Fin.ext ?_)
  match a with
  | ⟨0, _⟩ =>
    show ((cfg44 a1).win 0).index t (0 : Fin 2) * 8 + 1 * r.val = (k 0).val
    rw [idxInRow44, hkrow]; omega
  | ⟨1, _⟩ =>
    show ((cfg44 a1).win 0).index t (1 : Fin 2) * 1 + 1 * z.val = (k 1).val
    have hkcol : (k 1).val < 1 := idx2_lt1 k
    have hz : z.val < 1 := z.isLt
    rw [idxInCol44]; omega

/-- An index of the array is in point t's block iff each coordinate is in the block's range on its axis. -/
theorem mem_blkOut44 (t : Fin (cfg44 a1).N) (i : S100000x64.Idx) :
    i ∈ (((cfg44 a1).win 1).blk t).view.set ↔ ∀ a : Fin 2, ((cfg44 a1).win 1).index t a * S8x64.size a ≤ (i a).val
      ∧ (i a).val < ((cfg44 a1).win 1).index t a * S8x64.size a + S8x64.size a := by
  have hset : (((cfg44 a1).win 1).blk t).view.set = (((cfg44 a1).win 1).rect t : Rect S100000x64).set :=
    View.set_slice_whole main_v190 _
  have hmem : i ∈ (((cfg44 a1).win 1).rect t : Rect S100000x64).set ↔ ∀ a : Fin 2,
      ((cfg44 a1).win 1).index t a * S8x64.size a ≤ (i a).val
        ∧ (i a).val < ((cfg44 a1).win 1).index t a * S8x64.size a + S8x64.size a := Rect.mem_set_unit
  exact (Finset.ext_iff.mp hset i).trans hmem

/-- Every index of the array is in the block of the point its row over eight names. -/
theorem coverOut44 (i : S100000x64.Idx) :
    ∃ t : Fin (cfg44 a1).N, ((cfg44 a1).win 1).flush t = true ∧ i ∈ (((cfg44 a1).win 1).blk t).view.set := by
  have hirow : (i 0).val < 100000 := idx2_lt0 i
  have hicol : (i 1).val < 64 := idx2_lt1 i
  obtain ⟨t, ht⟩ : ∃ t : Fin (cfg44 a1).N, t.val = (i 0).val / 8 := ⟨⟨(i 0).val / 8, by rw [npoints44]; omega⟩, rfl⟩
  refine ⟨t, flushOut44 a1 t, ?_⟩
  rw [mem_blkOut44]
  intro a
  match a with
  | ⟨0, _⟩ =>
    show ((cfg44 a1).win 1).index t (0 : Fin 2) * 8 ≤ (i 0).val ∧ (i 0).val < ((cfg44 a1).win 1).index t (0 : Fin 2) * 8 + 8
    rw [idxOutRow44, ht]; omega
  | ⟨1, _⟩ =>
    show ((cfg44 a1).win 1).index t (1 : Fin 2) * 64 ≤ (i 1).val ∧ (i 1).val < ((cfg44 a1).win 1).index t (1 : Fin 2) * 64 + 64
    rw [idxOutCol44]; omega

/-! ## The array -/

/-- One weighted row at one column: the table row the e-th word names, at column j, times the e-th weight. -/
def chunkRow44 (hlt : ∀ y, (tbl44 a1 y).toNat < 100000) (c : Dev nD) (e : Fin 100000) (j : Fin 64) : EReal :=
  far44 V c (ValueIdx.ix2 ⟨(tbl44 a1 (ValueIdx.ix1 e)).toNat, hlt _⟩ j) * wts44 V c (ValueIdx.ix2 e (0 : Fin 1))

/-- The chunk's array as one function of the region's operands. -/
def chunkG44 (hlt : ∀ y, (tbl44 a1 y).toNat < 100000) (c : Dev nD) : S100000x64.Idx → EReal :=
  fun i => chunkRow44 V a1 hlt c (i 0) (i 1)

/-- Row r of point t's block lies in the table. -/
theorem row_lt44 (t : Fin (cfg44 a1).N) (r : Fin 8) : 8 * t.val + r.val < 100000 := by
  have ht : t.val < 12500 := (npoints44 a1) ▸ t.isLt
  have := r.isLt; omega

/-- WHAT POINT t WRITES BACK is block t of the chunk's array, when the body leaves in the output window's buffer,
    at (r, j), the table row that word 8 t + r names at column j times the input block's weight at (r, 0). -/
theorem flushedOut44_eq (hlt : ∀ y, (tbl44 a1 y).toNat < 100000)
    (hO : ∀ (c : Dev nD) (t : Fin (cfg44 a1).N) (r : Fin 8) (j : Fin 64), O c t (ValueIdx.ix2 r j)
      = far44 V c (ValueIdx.ix2 ⟨(tbl44 a1 (ValueIdx.ix1 ⟨8 * t.val + r.val, row_lt44 a1 t r⟩)).toNat, hlt _⟩ j)
        * inBlk44 V a1 c t (ValueIdx.ix2 r (0 : Fin 1)))
    (c : Dev nD) (t : Fin (cfg44 a1).N) :
    (dat44 V a1 O c).flushed 1 t = (((cfg44 a1).win 1).blk t).view.read (Elt Ideal) (chunkG44 V a1 hlt c) := by
  show ((cfg44 a1).win 1).cut ((cfg44 a1).grid.coords t) ((dat44 V a1 O c).after 1 t) = _
  rw [afterOut44]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG44 V a1 hlt c ((((cfg44 a1).win 1).blk t).view.emb (ValueIdx.ix2 r j))
  have hemb : (((cfg44 a1).win 1).blk t).view.emb (ValueIdx.ix2 r j)
      = (ValueIdx.ix2 ⟨8 * t.val + r.val, row_lt44 a1 t r⟩ j : S100000x64.Idx) := by
    funext a; apply Fin.ext
    match a with
    | ⟨0, _⟩ =>
      show ((cfg44 a1).win 1).index t (0 : Fin 2) * 8 + 1 * r.val = 8 * t.val + r.val
      rw [idxOutRow44]; omega
    | ⟨1, _⟩ =>
      show ((cfg44 a1).win 1).index t (1 : Fin 2) * 64 + 1 * j.val = j.val
      rw [idxOutCol44]; omega
  rw [hemb, hO c t r j,
    inBlk44_apply V a1 c t r 0 (ValueIdx.ix2 ⟨8 * t.val + r.val, row_lt44 a1 t r⟩ (0 : Fin 1)) rfl]
  rfl

/-- THE CHUNK'S ARRAY after the region: chunkG44. -/
theorem chunk_array44 (hlt : ∀ y, (tbl44 a1 y).toNat < 100000)
    (hO : ∀ (c : Dev nD) (t : Fin (cfg44 a1).N) (r : Fin 8) (j : Fin 64), O c t (ValueIdx.ix2 r j)
      = far44 V c (ValueIdx.ix2 ⟨(tbl44 a1 (ValueIdx.ix1 ⟨8 * t.val + r.val, row_lt44 a1 t r⟩)).toNat, hlt _⟩ j)
        * inBlk44 V a1 c t (ValueIdx.ix2 r (0 : Fin 1)))
    (c : Dev nD) :
    (dat44 V a1 O c).arrAt 1 (cfg44 a1).N = chunkG44 V a1 hlt c :=
  (dat44 V a1 O c).arrAt_eq_of_cover 1 (chunkG44 V a1 hlt c) (fun t _ => flushedOut44_eq V a1 O hlt hO c t) (coverOut44 a1)

/-! ## The body's own block -/

/-- Two rows of the far operand named by the same word are the same row. -/
theorem farRow44_congr (c : Dev nD) {e e' : Fin 100000} (h : e.val = e'.val) (j : Fin 64)
    (p : (tbl44 a1 (ValueIdx.ix1 e)).toNat < 100000) (p' : (tbl44 a1 (ValueIdx.ix1 e')).toNat < 100000) :
    far44 V c (ValueIdx.ix2 ⟨(tbl44 a1 (ValueIdx.ix1 e)).toNat, p⟩ j)
      = far44 V c (ValueIdx.ix2 ⟨(tbl44 a1 (ValueIdx.ix1 e')).toNat, p'⟩ j) := by
  obtain rfl : e = e' := Fin.ext h
  rfl

/-- The body's block at point t — the gathered rows scaled by the input block — has the entries hO asks. -/
theorem bodyBlk44_apply (hlt : ∀ y, (tbl44 a1 y).toNat < 100000) (c : Dev nD) (t : Fin (cfg44 a1).N) (r : Fin 8) (j : Fin 64) :
    gatherOut (gatherG (a1.1 0) (V c main_v141) (grid44.coords t)) (iblk44 V a1 c 0 t) (ValueIdx.ix2 r j)
      = far44 V c (ValueIdx.ix2 ⟨(tbl44 a1 (ValueIdx.ix1 ⟨8 * t.val + r.val, row_lt44 a1 t r⟩)).toNat, hlt _⟩ j)
        * inBlk44 V a1 c t (ValueIdx.ix2 r (0 : Fin 1)) := by
  have hpay : gatherOut (gatherG (a1.1 0) (V c main_v141) (grid44.coords t)) (iblk44 V a1 c 0 t) (ValueIdx.ix2 r j)
      = gatherG (F := Ideal) (tbl44 a1) (far44 V c) (grid44.coords t) (ValueIdx.ix2 r j) * inBlk44 V a1 c t (ValueIdx.ix2 r (0 : Fin 1)) :=
    Cert.Value.kernel_block (by decide) (by decide) (gatherG (F := Ideal) (tbl44 a1) (far44 V c) (grid44.coords t)) (inBlk44 V a1 c t) r j
  rw [hpay, gatherG_apply (F := Ideal) (tbl44 a1) (far44 V c) (grid44.coords t) r j (hlt _)]
  refine congrArg (· * inBlk44 V a1 c t (ValueIdx.ix2 r (0 : Fin 1))) ?_
  exact farRow44_congr V a1 c (by show 8 * ((grid44.coords t) 0).val + r.val = 8 * t.val + r.val; rw [coordsVal44 a1 t]) j _ _

/-- THE CHUNK'S ARRAY after the region, the output block being the body's own. -/
theorem chunk_array44_body (hlt : ∀ y, (tbl44 a1 y).toNat < 100000) (c : Dev nD) :
    (dat44 V a1 (fun c t => gatherOut (gatherG (a1.1 0) (V c main_v141) (grid44.coords t)) (iblk44 V a1 c 0 t)) c).arrAt 1 (cfg44 a1).N
      = chunkG44 V a1 hlt c :=
  chunk_array44 V a1 _ hlt (fun c t r j => bodyBlk44_apply V a1 hlt c t r j) c

/-! ## The array as a chunk of the weighted rows -/

/-- When the far operand is the table x, the region's table the slice of the row numbers cols at 100000 k and its
    weights the slice of vals there as a column, the region's array is chunk k of the weighted rows. -/
theorem chunkG44_eq_chunkSpec (hlt : ∀ y, (tbl44 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far44 V c = x) (ht : tbl44 a1 = extractStridedSlice Cert.Value.T100000 ![off] cols hsl)
    (hw : wts44 V c = shapeCast Cert.Value.T100000x1 (extractStridedSlice Cert.Value.T100000 ![off] vals hsl) hsc) :
    chunkG44 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl44 a1 (ValueIdx.ix1 e)).toNat, hlt _⟩ (congrArg (fun T : S100000.Idx → BitVec 32 => (T (ValueIdx.ix1 e)).toNat) ht), ← hx, ← hw]
  rfl

end Chunk

/-! # Region 45 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg45 (F := Ideal)).Adm)
  (O : (c : Dev nD) → Fin (cfg45 a1).N → Vec Ideal S8x64 .f32)

/-- The grid has 12500 points. -/
theorem npoints45 : (cfg45 a1).N = 12500 := N_45

/-- A point's one coordinate is the point's number. -/
theorem coordsVal45 (t : Fin (cfg45 a1).N) : (((cfg45 a1).grid.coords t) 0).val = t.val := by
  have ht : t.val < 12500 := (npoints45 a1) ▸ t.isLt
  show t.val / grid45.stride 0 % 12500 = t.val
  rw [show grid45.stride 0 = 1 from by decide, Nat.div_one, Nat.mod_eq_of_lt ht]

/-- Both windows move with the point: block index (t, 0) at point t. -/
theorem idxInRow45 (t : Fin (cfg45 a1).N) : ((cfg45 a1).win 0).index t (0 : Fin 2) = t.val := by
  have ht : t.val < 12500 := (npoints45 a1) ▸ t.isLt
  show (BitVec.ofNat 32 (((cfg45 a1).grid.coords t) 0).val).toNat = t.val
  rw [coordsVal45, BitVec.toNat_ofNat, Nat.mod_eq_of_lt (by omega)]
theorem idxInCol45 (t : Fin (cfg45 a1).N) : ((cfg45 a1).win 0).index t (1 : Fin 2) = 0 := rfl
theorem idxOutRow45 (t : Fin (cfg45 a1).N) : ((cfg45 a1).win 1).index t (0 : Fin 2) = t.val := by
  have ht : t.val < 12500 := (npoints45 a1) ▸ t.isLt
  show (BitVec.ofNat 32 (((cfg45 a1).grid.coords t) 0).val).toNat = t.val
  rw [coordsVal45, BitVec.toNat_ofNat, Nat.mod_eq_of_lt (by omega)]
theorem idxOutCol45 (t : Fin (cfg45 a1).N) : ((cfg45 a1).win 1).index t (1 : Fin 2) = 0 := rfl

/-- The output window is written back at every point: the next point's block is another. -/
theorem flushOut45 (t : Fin (cfg45 a1).N) : ((cfg45 a1).win 1).flush t = true := by
  unfold Window.flush
  show (true && (decide (t.val + 1 = (cfg45 a1).N) || decide (∃ h : t.val + 1 < (cfg45 a1).N,
    ((cfg45 a1).win 1).index ⟨t.val + 1, h⟩ ≠ ((cfg45 a1).win 1).index t))) = true
  rw [Bool.true_and, Bool.or_eq_true, decide_eq_true_eq, decide_eq_true_eq]
  by_cases h : t.val + 1 = (cfg45 a1).N
  · exact Or.inl h
  · refine Or.inr ⟨by have := t.isLt; omega, fun e => ?_⟩
    have erow := congrFun e (0 : Fin 2)
    rw [idxOutRow45, idxOutRow45] at erow
    exact absurd erow (by show t.val + 1 ≠ t.val; omega)

/-! ## The operands at their literal types -/

/-- The table's words. -/
abbrev tbl45 : S100000.Idx → BitVec 32 := a1.1 0
/-- The far operand: the table of rows. -/
abbrev far45 (c : Dev nD) : S100000x64.Idx → EReal := V c main_v141
/-- The weights, as a column. -/
abbrev wts45 (c : Dev nD) : S100000x1.Idx → EReal := V c main_v193
/-- The input window's block at point t: eight weights. -/
abbrev inBlk45 (c : Dev nD) (t : Fin (cfg45 a1).N) : S8x1.Idx → EReal := iblk45 V a1 c 0 t

/-! ## The blocks -/

/-- Row r of the input window's block at point t is row 8 t + r of the column of weights. -/
theorem inBlk45_apply (c : Dev nD) (t : Fin (cfg45 a1).N) (r : Fin 8) (z : Fin 1) (k : S100000x1.Idx)
    (hkrow : (k 0).val = 8 * t.val + r.val) :
    inBlk45 V a1 c t (ValueIdx.ix2 r z) = wts45 V c k := by
  show wts45 V c ((((cfg45 a1).win 0).blk t).view.emb (ValueIdx.ix2 r z)) = wts45 V c k
  refine congrArg (wts45 V c) (funext fun a => Fin.ext ?_)
  match a with
  | ⟨0, _⟩ =>
    show ((cfg45 a1).win 0).index t (0 : Fin 2) * 8 + 1 * r.val = (k 0).val
    rw [idxInRow45, hkrow]; omega
  | ⟨1, _⟩ =>
    show ((cfg45 a1).win 0).index t (1 : Fin 2) * 1 + 1 * z.val = (k 1).val
    have hkcol : (k 1).val < 1 := idx2_lt1 k
    have hz : z.val < 1 := z.isLt
    rw [idxInCol45]; omega

/-- An index of the array is in point t's block iff each coordinate is in the block's range on its axis. -/
theorem mem_blkOut45 (t : Fin (cfg45 a1).N) (i : S100000x64.Idx) :
    i ∈ (((cfg45 a1).win 1).blk t).view.set ↔ ∀ a : Fin 2, ((cfg45 a1).win 1).index t a * S8x64.size a ≤ (i a).val
      ∧ (i a).val < ((cfg45 a1).win 1).index t a * S8x64.size a + S8x64.size a := by
  have hset : (((cfg45 a1).win 1).blk t).view.set = (((cfg45 a1).win 1).rect t : Rect S100000x64).set :=
    View.set_slice_whole main_v194 _
  have hmem : i ∈ (((cfg45 a1).win 1).rect t : Rect S100000x64).set ↔ ∀ a : Fin 2,
      ((cfg45 a1).win 1).index t a * S8x64.size a ≤ (i a).val
        ∧ (i a).val < ((cfg45 a1).win 1).index t a * S8x64.size a + S8x64.size a := Rect.mem_set_unit
  exact (Finset.ext_iff.mp hset i).trans hmem

/-- Every index of the array is in the block of the point its row over eight names. -/
theorem coverOut45 (i : S100000x64.Idx) :
    ∃ t : Fin (cfg45 a1).N, ((cfg45 a1).win 1).flush t = true ∧ i ∈ (((cfg45 a1).win 1).blk t).view.set := by
  have hirow : (i 0).val < 100000 := idx2_lt0 i
  have hicol : (i 1).val < 64 := idx2_lt1 i
  obtain ⟨t, ht⟩ : ∃ t : Fin (cfg45 a1).N, t.val = (i 0).val / 8 := ⟨⟨(i 0).val / 8, by rw [npoints45]; omega⟩, rfl⟩
  refine ⟨t, flushOut45 a1 t, ?_⟩
  rw [mem_blkOut45]
  intro a
  match a with
  | ⟨0, _⟩ =>
    show ((cfg45 a1).win 1).index t (0 : Fin 2) * 8 ≤ (i 0).val ∧ (i 0).val < ((cfg45 a1).win 1).index t (0 : Fin 2) * 8 + 8
    rw [idxOutRow45, ht]; omega
  | ⟨1, _⟩ =>
    show ((cfg45 a1).win 1).index t (1 : Fin 2) * 64 ≤ (i 1).val ∧ (i 1).val < ((cfg45 a1).win 1).index t (1 : Fin 2) * 64 + 64
    rw [idxOutCol45]; omega

/-! ## The array -/

/-- One weighted row at one column: the table row the e-th word names, at column j, times the e-th weight. -/
def chunkRow45 (hlt : ∀ y, (tbl45 a1 y).toNat < 100000) (c : Dev nD) (e : Fin 100000) (j : Fin 64) : EReal :=
  far45 V c (ValueIdx.ix2 ⟨(tbl45 a1 (ValueIdx.ix1 e)).toNat, hlt _⟩ j) * wts45 V c (ValueIdx.ix2 e (0 : Fin 1))

/-- The chunk's array as one function of the region's operands. -/
def chunkG45 (hlt : ∀ y, (tbl45 a1 y).toNat < 100000) (c : Dev nD) : S100000x64.Idx → EReal :=
  fun i => chunkRow45 V a1 hlt c (i 0) (i 1)

/-- Row r of point t's block lies in the table. -/
theorem row_lt45 (t : Fin (cfg45 a1).N) (r : Fin 8) : 8 * t.val + r.val < 100000 := by
  have ht : t.val < 12500 := (npoints45 a1) ▸ t.isLt
  have := r.isLt; omega

/-- WHAT POINT t WRITES BACK is block t of the chunk's array, when the body leaves in the output window's buffer,
    at (r, j), the table row that word 8 t + r names at column j times the input block's weight at (r, 0). -/
theorem flushedOut45_eq (hlt : ∀ y, (tbl45 a1 y).toNat < 100000)
    (hO : ∀ (c : Dev nD) (t : Fin (cfg45 a1).N) (r : Fin 8) (j : Fin 64), O c t (ValueIdx.ix2 r j)
      = far45 V c (ValueIdx.ix2 ⟨(tbl45 a1 (ValueIdx.ix1 ⟨8 * t.val + r.val, row_lt45 a1 t r⟩)).toNat, hlt _⟩ j)
        * inBlk45 V a1 c t (ValueIdx.ix2 r (0 : Fin 1)))
    (c : Dev nD) (t : Fin (cfg45 a1).N) :
    (dat45 V a1 O c).flushed 1 t = (((cfg45 a1).win 1).blk t).view.read (Elt Ideal) (chunkG45 V a1 hlt c) := by
  show ((cfg45 a1).win 1).cut ((cfg45 a1).grid.coords t) ((dat45 V a1 O c).after 1 t) = _
  rw [afterOut45]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG45 V a1 hlt c ((((cfg45 a1).win 1).blk t).view.emb (ValueIdx.ix2 r j))
  have hemb : (((cfg45 a1).win 1).blk t).view.emb (ValueIdx.ix2 r j)
      = (ValueIdx.ix2 ⟨8 * t.val + r.val, row_lt45 a1 t r⟩ j : S100000x64.Idx) := by
    funext a; apply Fin.ext
    match a with
    | ⟨0, _⟩ =>
      show ((cfg45 a1).win 1).index t (0 : Fin 2) * 8 + 1 * r.val = 8 * t.val + r.val
      rw [idxOutRow45]; omega
    | ⟨1, _⟩ =>
      show ((cfg45 a1).win 1).index t (1 : Fin 2) * 64 + 1 * j.val = j.val
      rw [idxOutCol45]; omega
  rw [hemb, hO c t r j,
    inBlk45_apply V a1 c t r 0 (ValueIdx.ix2 ⟨8 * t.val + r.val, row_lt45 a1 t r⟩ (0 : Fin 1)) rfl]
  rfl

/-- THE CHUNK'S ARRAY after the region: chunkG45. -/
theorem chunk_array45 (hlt : ∀ y, (tbl45 a1 y).toNat < 100000)
    (hO : ∀ (c : Dev nD) (t : Fin (cfg45 a1).N) (r : Fin 8) (j : Fin 64), O c t (ValueIdx.ix2 r j)
      = far45 V c (ValueIdx.ix2 ⟨(tbl45 a1 (ValueIdx.ix1 ⟨8 * t.val + r.val, row_lt45 a1 t r⟩)).toNat, hlt _⟩ j)
        * inBlk45 V a1 c t (ValueIdx.ix2 r (0 : Fin 1)))
    (c : Dev nD) :
    (dat45 V a1 O c).arrAt 1 (cfg45 a1).N = chunkG45 V a1 hlt c :=
  (dat45 V a1 O c).arrAt_eq_of_cover 1 (chunkG45 V a1 hlt c) (fun t _ => flushedOut45_eq V a1 O hlt hO c t) (coverOut45 a1)

/-! ## The body's own block -/

/-- Two rows of the far operand named by the same word are the same row. -/
theorem farRow45_congr (c : Dev nD) {e e' : Fin 100000} (h : e.val = e'.val) (j : Fin 64)
    (p : (tbl45 a1 (ValueIdx.ix1 e)).toNat < 100000) (p' : (tbl45 a1 (ValueIdx.ix1 e')).toNat < 100000) :
    far45 V c (ValueIdx.ix2 ⟨(tbl45 a1 (ValueIdx.ix1 e)).toNat, p⟩ j)
      = far45 V c (ValueIdx.ix2 ⟨(tbl45 a1 (ValueIdx.ix1 e')).toNat, p'⟩ j) := by
  obtain rfl : e = e' := Fin.ext h
  rfl

/-- The body's block at point t — the gathered rows scaled by the input block — has the entries hO asks. -/
theorem bodyBlk45_apply (hlt : ∀ y, (tbl45 a1 y).toNat < 100000) (c : Dev nD) (t : Fin (cfg45 a1).N) (r : Fin 8) (j : Fin 64) :
    gatherOut (gatherG (a1.1 0) (V c main_v141) (grid45.coords t)) (iblk45 V a1 c 0 t) (ValueIdx.ix2 r j)
      = far45 V c (ValueIdx.ix2 ⟨(tbl45 a1 (ValueIdx.ix1 ⟨8 * t.val + r.val, row_lt45 a1 t r⟩)).toNat, hlt _⟩ j)
        * inBlk45 V a1 c t (ValueIdx.ix2 r (0 : Fin 1)) := by
  have hpay : gatherOut (gatherG (a1.1 0) (V c main_v141) (grid45.coords t)) (iblk45 V a1 c 0 t) (ValueIdx.ix2 r j)
      = gatherG (F := Ideal) (tbl45 a1) (far45 V c) (grid45.coords t) (ValueIdx.ix2 r j) * inBlk45 V a1 c t (ValueIdx.ix2 r (0 : Fin 1)) :=
    Cert.Value.kernel_block (by decide) (by decide) (gatherG (F := Ideal) (tbl45 a1) (far45 V c) (grid45.coords t)) (inBlk45 V a1 c t) r j
  rw [hpay, gatherG_apply (F := Ideal) (tbl45 a1) (far45 V c) (grid45.coords t) r j (hlt _)]
  refine congrArg (· * inBlk45 V a1 c t (ValueIdx.ix2 r (0 : Fin 1))) ?_
  exact farRow45_congr V a1 c (by show 8 * ((grid45.coords t) 0).val + r.val = 8 * t.val + r.val; rw [coordsVal45 a1 t]) j _ _

/-- THE CHUNK'S ARRAY after the region, the output block being the body's own. -/
theorem chunk_array45_body (hlt : ∀ y, (tbl45 a1 y).toNat < 100000) (c : Dev nD) :
    (dat45 V a1 (fun c t => gatherOut (gatherG (a1.1 0) (V c main_v141) (grid45.coords t)) (iblk45 V a1 c 0 t)) c).arrAt 1 (cfg45 a1).N
      = chunkG45 V a1 hlt c :=
  chunk_array45 V a1 _ hlt (fun c t r j => bodyBlk45_apply V a1 hlt c t r j) c

/-! ## The array as a chunk of the weighted rows -/

/-- When the far operand is the table x, the region's table the slice of the row numbers cols at 100000 k and its
    weights the slice of vals there as a column, the region's array is chunk k of the weighted rows. -/
theorem chunkG45_eq_chunkSpec (hlt : ∀ y, (tbl45 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far45 V c = x) (ht : tbl45 a1 = extractStridedSlice Cert.Value.T100000 ![off] cols hsl)
    (hw : wts45 V c = shapeCast Cert.Value.T100000x1 (extractStridedSlice Cert.Value.T100000 ![off] vals hsl) hsc) :
    chunkG45 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl45 a1 (ValueIdx.ix1 e)).toNat, hlt _⟩ (congrArg (fun T : S100000.Idx → BitVec 32 => (T (ValueIdx.ix1 e)).toNat) ht), ← hx, ← hw]
  rfl

end Chunk

/-! # Region 46 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg46 (F := Ideal)).Adm)
  (O : (c : Dev nD) → Fin (cfg46 a1).N → Vec Ideal S8x64 .f32)

/-- The grid has 12500 points. -/
theorem npoints46 : (cfg46 a1).N = 12500 := N_46

/-- A point's one coordinate is the point's number. -/
theorem coordsVal46 (t : Fin (cfg46 a1).N) : (((cfg46 a1).grid.coords t) 0).val = t.val := by
  have ht : t.val < 12500 := (npoints46 a1) ▸ t.isLt
  show t.val / grid46.stride 0 % 12500 = t.val
  rw [show grid46.stride 0 = 1 from by decide, Nat.div_one, Nat.mod_eq_of_lt ht]

/-- Both windows move with the point: block index (t, 0) at point t. -/
theorem idxInRow46 (t : Fin (cfg46 a1).N) : ((cfg46 a1).win 0).index t (0 : Fin 2) = t.val := by
  have ht : t.val < 12500 := (npoints46 a1) ▸ t.isLt
  show (BitVec.ofNat 32 (((cfg46 a1).grid.coords t) 0).val).toNat = t.val
  rw [coordsVal46, BitVec.toNat_ofNat, Nat.mod_eq_of_lt (by omega)]
theorem idxInCol46 (t : Fin (cfg46 a1).N) : ((cfg46 a1).win 0).index t (1 : Fin 2) = 0 := rfl
theorem idxOutRow46 (t : Fin (cfg46 a1).N) : ((cfg46 a1).win 1).index t (0 : Fin 2) = t.val := by
  have ht : t.val < 12500 := (npoints46 a1) ▸ t.isLt
  show (BitVec.ofNat 32 (((cfg46 a1).grid.coords t) 0).val).toNat = t.val
  rw [coordsVal46, BitVec.toNat_ofNat, Nat.mod_eq_of_lt (by omega)]
theorem idxOutCol46 (t : Fin (cfg46 a1).N) : ((cfg46 a1).win 1).index t (1 : Fin 2) = 0 := rfl

/-- The output window is written back at every point: the next point's block is another. -/
theorem flushOut46 (t : Fin (cfg46 a1).N) : ((cfg46 a1).win 1).flush t = true := by
  unfold Window.flush
  show (true && (decide (t.val + 1 = (cfg46 a1).N) || decide (∃ h : t.val + 1 < (cfg46 a1).N,
    ((cfg46 a1).win 1).index ⟨t.val + 1, h⟩ ≠ ((cfg46 a1).win 1).index t))) = true
  rw [Bool.true_and, Bool.or_eq_true, decide_eq_true_eq, decide_eq_true_eq]
  by_cases h : t.val + 1 = (cfg46 a1).N
  · exact Or.inl h
  · refine Or.inr ⟨by have := t.isLt; omega, fun e => ?_⟩
    have erow := congrFun e (0 : Fin 2)
    rw [idxOutRow46, idxOutRow46] at erow
    exact absurd erow (by show t.val + 1 ≠ t.val; omega)

/-! ## The operands at their literal types -/

/-- The table's words. -/
abbrev tbl46 : S100000.Idx → BitVec 32 := a1.1 0
/-- The far operand: the table of rows. -/
abbrev far46 (c : Dev nD) : S100000x64.Idx → EReal := V c main_v141
/-- The weights, as a column. -/
abbrev wts46 (c : Dev nD) : S100000x1.Idx → EReal := V c main_v197
/-- The input window's block at point t: eight weights. -/
abbrev inBlk46 (c : Dev nD) (t : Fin (cfg46 a1).N) : S8x1.Idx → EReal := iblk46 V a1 c 0 t

/-! ## The blocks -/

/-- Row r of the input window's block at point t is row 8 t + r of the column of weights. -/
theorem inBlk46_apply (c : Dev nD) (t : Fin (cfg46 a1).N) (r : Fin 8) (z : Fin 1) (k : S100000x1.Idx)
    (hkrow : (k 0).val = 8 * t.val + r.val) :
    inBlk46 V a1 c t (ValueIdx.ix2 r z) = wts46 V c k := by
  show wts46 V c ((((cfg46 a1).win 0).blk t).view.emb (ValueIdx.ix2 r z)) = wts46 V c k
  refine congrArg (wts46 V c) (funext fun a => Fin.ext ?_)
  match a with
  | ⟨0, _⟩ =>
    show ((cfg46 a1).win 0).index t (0 : Fin 2) * 8 + 1 * r.val = (k 0).val
    rw [idxInRow46, hkrow]; omega
  | ⟨1, _⟩ =>
    show ((cfg46 a1).win 0).index t (1 : Fin 2) * 1 + 1 * z.val = (k 1).val
    have hkcol : (k 1).val < 1 := idx2_lt1 k
    have hz : z.val < 1 := z.isLt
    rw [idxInCol46]; omega

/-- An index of the array is in point t's block iff each coordinate is in the block's range on its axis. -/
theorem mem_blkOut46 (t : Fin (cfg46 a1).N) (i : S100000x64.Idx) :
    i ∈ (((cfg46 a1).win 1).blk t).view.set ↔ ∀ a : Fin 2, ((cfg46 a1).win 1).index t a * S8x64.size a ≤ (i a).val
      ∧ (i a).val < ((cfg46 a1).win 1).index t a * S8x64.size a + S8x64.size a := by
  have hset : (((cfg46 a1).win 1).blk t).view.set = (((cfg46 a1).win 1).rect t : Rect S100000x64).set :=
    View.set_slice_whole main_v198 _
  have hmem : i ∈ (((cfg46 a1).win 1).rect t : Rect S100000x64).set ↔ ∀ a : Fin 2,
      ((cfg46 a1).win 1).index t a * S8x64.size a ≤ (i a).val
        ∧ (i a).val < ((cfg46 a1).win 1).index t a * S8x64.size a + S8x64.size a := Rect.mem_set_unit
  exact (Finset.ext_iff.mp hset i).trans hmem

/-- Every index of the array is in the block of the point its row over eight names. -/
theorem coverOut46 (i : S100000x64.Idx) :
    ∃ t : Fin (cfg46 a1).N, ((cfg46 a1).win 1).flush t = true ∧ i ∈ (((cfg46 a1).win 1).blk t).view.set := by
  have hirow : (i 0).val < 100000 := idx2_lt0 i
  have hicol : (i 1).val < 64 := idx2_lt1 i
  obtain ⟨t, ht⟩ : ∃ t : Fin (cfg46 a1).N, t.val = (i 0).val / 8 := ⟨⟨(i 0).val / 8, by rw [npoints46]; omega⟩, rfl⟩
  refine ⟨t, flushOut46 a1 t, ?_⟩
  rw [mem_blkOut46]
  intro a
  match a with
  | ⟨0, _⟩ =>
    show ((cfg46 a1).win 1).index t (0 : Fin 2) * 8 ≤ (i 0).val ∧ (i 0).val < ((cfg46 a1).win 1).index t (0 : Fin 2) * 8 + 8
    rw [idxOutRow46, ht]; omega
  | ⟨1, _⟩ =>
    show ((cfg46 a1).win 1).index t (1 : Fin 2) * 64 ≤ (i 1).val ∧ (i 1).val < ((cfg46 a1).win 1).index t (1 : Fin 2) * 64 + 64
    rw [idxOutCol46]; omega

/-! ## The array -/

/-- One weighted row at one column: the table row the e-th word names, at column j, times the e-th weight. -/
def chunkRow46 (hlt : ∀ y, (tbl46 a1 y).toNat < 100000) (c : Dev nD) (e : Fin 100000) (j : Fin 64) : EReal :=
  far46 V c (ValueIdx.ix2 ⟨(tbl46 a1 (ValueIdx.ix1 e)).toNat, hlt _⟩ j) * wts46 V c (ValueIdx.ix2 e (0 : Fin 1))

/-- The chunk's array as one function of the region's operands. -/
def chunkG46 (hlt : ∀ y, (tbl46 a1 y).toNat < 100000) (c : Dev nD) : S100000x64.Idx → EReal :=
  fun i => chunkRow46 V a1 hlt c (i 0) (i 1)

/-- Row r of point t's block lies in the table. -/
theorem row_lt46 (t : Fin (cfg46 a1).N) (r : Fin 8) : 8 * t.val + r.val < 100000 := by
  have ht : t.val < 12500 := (npoints46 a1) ▸ t.isLt
  have := r.isLt; omega

/-- WHAT POINT t WRITES BACK is block t of the chunk's array, when the body leaves in the output window's buffer,
    at (r, j), the table row that word 8 t + r names at column j times the input block's weight at (r, 0). -/
theorem flushedOut46_eq (hlt : ∀ y, (tbl46 a1 y).toNat < 100000)
    (hO : ∀ (c : Dev nD) (t : Fin (cfg46 a1).N) (r : Fin 8) (j : Fin 64), O c t (ValueIdx.ix2 r j)
      = far46 V c (ValueIdx.ix2 ⟨(tbl46 a1 (ValueIdx.ix1 ⟨8 * t.val + r.val, row_lt46 a1 t r⟩)).toNat, hlt _⟩ j)
        * inBlk46 V a1 c t (ValueIdx.ix2 r (0 : Fin 1)))
    (c : Dev nD) (t : Fin (cfg46 a1).N) :
    (dat46 V a1 O c).flushed 1 t = (((cfg46 a1).win 1).blk t).view.read (Elt Ideal) (chunkG46 V a1 hlt c) := by
  show ((cfg46 a1).win 1).cut ((cfg46 a1).grid.coords t) ((dat46 V a1 O c).after 1 t) = _
  rw [afterOut46]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG46 V a1 hlt c ((((cfg46 a1).win 1).blk t).view.emb (ValueIdx.ix2 r j))
  have hemb : (((cfg46 a1).win 1).blk t).view.emb (ValueIdx.ix2 r j)
      = (ValueIdx.ix2 ⟨8 * t.val + r.val, row_lt46 a1 t r⟩ j : S100000x64.Idx) := by
    funext a; apply Fin.ext
    match a with
    | ⟨0, _⟩ =>
      show ((cfg46 a1).win 1).index t (0 : Fin 2) * 8 + 1 * r.val = 8 * t.val + r.val
      rw [idxOutRow46]; omega
    | ⟨1, _⟩ =>
      show ((cfg46 a1).win 1).index t (1 : Fin 2) * 64 + 1 * j.val = j.val
      rw [idxOutCol46]; omega
  rw [hemb, hO c t r j,
    inBlk46_apply V a1 c t r 0 (ValueIdx.ix2 ⟨8 * t.val + r.val, row_lt46 a1 t r⟩ (0 : Fin 1)) rfl]
  rfl

/-- THE CHUNK'S ARRAY after the region: chunkG46. -/
theorem chunk_array46 (hlt : ∀ y, (tbl46 a1 y).toNat < 100000)
    (hO : ∀ (c : Dev nD) (t : Fin (cfg46 a1).N) (r : Fin 8) (j : Fin 64), O c t (ValueIdx.ix2 r j)
      = far46 V c (ValueIdx.ix2 ⟨(tbl46 a1 (ValueIdx.ix1 ⟨8 * t.val + r.val, row_lt46 a1 t r⟩)).toNat, hlt _⟩ j)
        * inBlk46 V a1 c t (ValueIdx.ix2 r (0 : Fin 1)))
    (c : Dev nD) :
    (dat46 V a1 O c).arrAt 1 (cfg46 a1).N = chunkG46 V a1 hlt c :=
  (dat46 V a1 O c).arrAt_eq_of_cover 1 (chunkG46 V a1 hlt c) (fun t _ => flushedOut46_eq V a1 O hlt hO c t) (coverOut46 a1)

/-! ## The body's own block -/

/-- Two rows of the far operand named by the same word are the same row. -/
theorem farRow46_congr (c : Dev nD) {e e' : Fin 100000} (h : e.val = e'.val) (j : Fin 64)
    (p : (tbl46 a1 (ValueIdx.ix1 e)).toNat < 100000) (p' : (tbl46 a1 (ValueIdx.ix1 e')).toNat < 100000) :
    far46 V c (ValueIdx.ix2 ⟨(tbl46 a1 (ValueIdx.ix1 e)).toNat, p⟩ j)
      = far46 V c (ValueIdx.ix2 ⟨(tbl46 a1 (ValueIdx.ix1 e')).toNat, p'⟩ j) := by
  obtain rfl : e = e' := Fin.ext h
  rfl

/-- The body's block at point t — the gathered rows scaled by the input block — has the entries hO asks. -/
theorem bodyBlk46_apply (hlt : ∀ y, (tbl46 a1 y).toNat < 100000) (c : Dev nD) (t : Fin (cfg46 a1).N) (r : Fin 8) (j : Fin 64) :
    gatherOut (gatherG (a1.1 0) (V c main_v141) (grid46.coords t)) (iblk46 V a1 c 0 t) (ValueIdx.ix2 r j)
      = far46 V c (ValueIdx.ix2 ⟨(tbl46 a1 (ValueIdx.ix1 ⟨8 * t.val + r.val, row_lt46 a1 t r⟩)).toNat, hlt _⟩ j)
        * inBlk46 V a1 c t (ValueIdx.ix2 r (0 : Fin 1)) := by
  have hpay : gatherOut (gatherG (a1.1 0) (V c main_v141) (grid46.coords t)) (iblk46 V a1 c 0 t) (ValueIdx.ix2 r j)
      = gatherG (F := Ideal) (tbl46 a1) (far46 V c) (grid46.coords t) (ValueIdx.ix2 r j) * inBlk46 V a1 c t (ValueIdx.ix2 r (0 : Fin 1)) :=
    Cert.Value.kernel_block (by decide) (by decide) (gatherG (F := Ideal) (tbl46 a1) (far46 V c) (grid46.coords t)) (inBlk46 V a1 c t) r j
  rw [hpay, gatherG_apply (F := Ideal) (tbl46 a1) (far46 V c) (grid46.coords t) r j (hlt _)]
  refine congrArg (· * inBlk46 V a1 c t (ValueIdx.ix2 r (0 : Fin 1))) ?_
  exact farRow46_congr V a1 c (by show 8 * ((grid46.coords t) 0).val + r.val = 8 * t.val + r.val; rw [coordsVal46 a1 t]) j _ _

/-- THE CHUNK'S ARRAY after the region, the output block being the body's own. -/
theorem chunk_array46_body (hlt : ∀ y, (tbl46 a1 y).toNat < 100000) (c : Dev nD) :
    (dat46 V a1 (fun c t => gatherOut (gatherG (a1.1 0) (V c main_v141) (grid46.coords t)) (iblk46 V a1 c 0 t)) c).arrAt 1 (cfg46 a1).N
      = chunkG46 V a1 hlt c :=
  chunk_array46 V a1 _ hlt (fun c t r j => bodyBlk46_apply V a1 hlt c t r j) c

/-! ## The array as a chunk of the weighted rows -/

/-- When the far operand is the table x, the region's table the slice of the row numbers cols at 100000 k and its
    weights the slice of vals there as a column, the region's array is chunk k of the weighted rows. -/
theorem chunkG46_eq_chunkSpec (hlt : ∀ y, (tbl46 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far46 V c = x) (ht : tbl46 a1 = extractStridedSlice Cert.Value.T100000 ![off] cols hsl)
    (hw : wts46 V c = shapeCast Cert.Value.T100000x1 (extractStridedSlice Cert.Value.T100000 ![off] vals hsl) hsc) :
    chunkG46 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl46 a1 (ValueIdx.ix1 e)).toNat, hlt _⟩ (congrArg (fun T : S100000.Idx → BitVec 32 => (T (ValueIdx.ix1 e)).toNat) ht), ← hx, ← hw]
  rfl

end Chunk

/-! # Region 47 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg47 (F := Ideal)).Adm)
  (O : (c : Dev nD) → Fin (cfg47 a1).N → Vec Ideal S8x64 .f32)

/-- The grid has 12500 points. -/
theorem npoints47 : (cfg47 a1).N = 12500 := N_47

/-- A point's one coordinate is the point's number. -/
theorem coordsVal47 (t : Fin (cfg47 a1).N) : (((cfg47 a1).grid.coords t) 0).val = t.val := by
  have ht : t.val < 12500 := (npoints47 a1) ▸ t.isLt
  show t.val / grid47.stride 0 % 12500 = t.val
  rw [show grid47.stride 0 = 1 from by decide, Nat.div_one, Nat.mod_eq_of_lt ht]

/-- Both windows move with the point: block index (t, 0) at point t. -/
theorem idxInRow47 (t : Fin (cfg47 a1).N) : ((cfg47 a1).win 0).index t (0 : Fin 2) = t.val := by
  have ht : t.val < 12500 := (npoints47 a1) ▸ t.isLt
  show (BitVec.ofNat 32 (((cfg47 a1).grid.coords t) 0).val).toNat = t.val
  rw [coordsVal47, BitVec.toNat_ofNat, Nat.mod_eq_of_lt (by omega)]
theorem idxInCol47 (t : Fin (cfg47 a1).N) : ((cfg47 a1).win 0).index t (1 : Fin 2) = 0 := rfl
theorem idxOutRow47 (t : Fin (cfg47 a1).N) : ((cfg47 a1).win 1).index t (0 : Fin 2) = t.val := by
  have ht : t.val < 12500 := (npoints47 a1) ▸ t.isLt
  show (BitVec.ofNat 32 (((cfg47 a1).grid.coords t) 0).val).toNat = t.val
  rw [coordsVal47, BitVec.toNat_ofNat, Nat.mod_eq_of_lt (by omega)]
theorem idxOutCol47 (t : Fin (cfg47 a1).N) : ((cfg47 a1).win 1).index t (1 : Fin 2) = 0 := rfl

/-- The output window is written back at every point: the next point's block is another. -/
theorem flushOut47 (t : Fin (cfg47 a1).N) : ((cfg47 a1).win 1).flush t = true := by
  unfold Window.flush
  show (true && (decide (t.val + 1 = (cfg47 a1).N) || decide (∃ h : t.val + 1 < (cfg47 a1).N,
    ((cfg47 a1).win 1).index ⟨t.val + 1, h⟩ ≠ ((cfg47 a1).win 1).index t))) = true
  rw [Bool.true_and, Bool.or_eq_true, decide_eq_true_eq, decide_eq_true_eq]
  by_cases h : t.val + 1 = (cfg47 a1).N
  · exact Or.inl h
  · refine Or.inr ⟨by have := t.isLt; omega, fun e => ?_⟩
    have erow := congrFun e (0 : Fin 2)
    rw [idxOutRow47, idxOutRow47] at erow
    exact absurd erow (by show t.val + 1 ≠ t.val; omega)

/-! ## The operands at their literal types -/

/-- The table's words. -/
abbrev tbl47 : S100000.Idx → BitVec 32 := a1.1 0
/-- The far operand: the table of rows. -/
abbrev far47 (c : Dev nD) : S100000x64.Idx → EReal := V c main_v141
/-- The weights, as a column. -/
abbrev wts47 (c : Dev nD) : S100000x1.Idx → EReal := V c main_v201
/-- The input window's block at point t: eight weights. -/
abbrev inBlk47 (c : Dev nD) (t : Fin (cfg47 a1).N) : S8x1.Idx → EReal := iblk47 V a1 c 0 t

/-! ## The blocks -/

/-- Row r of the input window's block at point t is row 8 t + r of the column of weights. -/
theorem inBlk47_apply (c : Dev nD) (t : Fin (cfg47 a1).N) (r : Fin 8) (z : Fin 1) (k : S100000x1.Idx)
    (hkrow : (k 0).val = 8 * t.val + r.val) :
    inBlk47 V a1 c t (ValueIdx.ix2 r z) = wts47 V c k := by
  show wts47 V c ((((cfg47 a1).win 0).blk t).view.emb (ValueIdx.ix2 r z)) = wts47 V c k
  refine congrArg (wts47 V c) (funext fun a => Fin.ext ?_)
  match a with
  | ⟨0, _⟩ =>
    show ((cfg47 a1).win 0).index t (0 : Fin 2) * 8 + 1 * r.val = (k 0).val
    rw [idxInRow47, hkrow]; omega
  | ⟨1, _⟩ =>
    show ((cfg47 a1).win 0).index t (1 : Fin 2) * 1 + 1 * z.val = (k 1).val
    have hkcol : (k 1).val < 1 := idx2_lt1 k
    have hz : z.val < 1 := z.isLt
    rw [idxInCol47]; omega

/-- An index of the array is in point t's block iff each coordinate is in the block's range on its axis. -/
theorem mem_blkOut47 (t : Fin (cfg47 a1).N) (i : S100000x64.Idx) :
    i ∈ (((cfg47 a1).win 1).blk t).view.set ↔ ∀ a : Fin 2, ((cfg47 a1).win 1).index t a * S8x64.size a ≤ (i a).val
      ∧ (i a).val < ((cfg47 a1).win 1).index t a * S8x64.size a + S8x64.size a := by
  have hset : (((cfg47 a1).win 1).blk t).view.set = (((cfg47 a1).win 1).rect t : Rect S100000x64).set :=
    View.set_slice_whole main_v202 _
  have hmem : i ∈ (((cfg47 a1).win 1).rect t : Rect S100000x64).set ↔ ∀ a : Fin 2,
      ((cfg47 a1).win 1).index t a * S8x64.size a ≤ (i a).val
        ∧ (i a).val < ((cfg47 a1).win 1).index t a * S8x64.size a + S8x64.size a := Rect.mem_set_unit
  exact (Finset.ext_iff.mp hset i).trans hmem

/-- Every index of the array is in the block of the point its row over eight names. -/
theorem coverOut47 (i : S100000x64.Idx) :
    ∃ t : Fin (cfg47 a1).N, ((cfg47 a1).win 1).flush t = true ∧ i ∈ (((cfg47 a1).win 1).blk t).view.set := by
  have hirow : (i 0).val < 100000 := idx2_lt0 i
  have hicol : (i 1).val < 64 := idx2_lt1 i
  obtain ⟨t, ht⟩ : ∃ t : Fin (cfg47 a1).N, t.val = (i 0).val / 8 := ⟨⟨(i 0).val / 8, by rw [npoints47]; omega⟩, rfl⟩
  refine ⟨t, flushOut47 a1 t, ?_⟩
  rw [mem_blkOut47]
  intro a
  match a with
  | ⟨0, _⟩ =>
    show ((cfg47 a1).win 1).index t (0 : Fin 2) * 8 ≤ (i 0).val ∧ (i 0).val < ((cfg47 a1).win 1).index t (0 : Fin 2) * 8 + 8
    rw [idxOutRow47, ht]; omega
  | ⟨1, _⟩ =>
    show ((cfg47 a1).win 1).index t (1 : Fin 2) * 64 ≤ (i 1).val ∧ (i 1).val < ((cfg47 a1).win 1).index t (1 : Fin 2) * 64 + 64
    rw [idxOutCol47]; omega

/-! ## The array -/

/-- One weighted row at one column: the table row the e-th word names, at column j, times the e-th weight. -/
def chunkRow47 (hlt : ∀ y, (tbl47 a1 y).toNat < 100000) (c : Dev nD) (e : Fin 100000) (j : Fin 64) : EReal :=
  far47 V c (ValueIdx.ix2 ⟨(tbl47 a1 (ValueIdx.ix1 e)).toNat, hlt _⟩ j) * wts47 V c (ValueIdx.ix2 e (0 : Fin 1))

/-- The chunk's array as one function of the region's operands. -/
def chunkG47 (hlt : ∀ y, (tbl47 a1 y).toNat < 100000) (c : Dev nD) : S100000x64.Idx → EReal :=
  fun i => chunkRow47 V a1 hlt c (i 0) (i 1)

/-- Row r of point t's block lies in the table. -/
theorem row_lt47 (t : Fin (cfg47 a1).N) (r : Fin 8) : 8 * t.val + r.val < 100000 := by
  have ht : t.val < 12500 := (npoints47 a1) ▸ t.isLt
  have := r.isLt; omega

/-- WHAT POINT t WRITES BACK is block t of the chunk's array, when the body leaves in the output window's buffer,
    at (r, j), the table row that word 8 t + r names at column j times the input block's weight at (r, 0). -/
theorem flushedOut47_eq (hlt : ∀ y, (tbl47 a1 y).toNat < 100000)
    (hO : ∀ (c : Dev nD) (t : Fin (cfg47 a1).N) (r : Fin 8) (j : Fin 64), O c t (ValueIdx.ix2 r j)
      = far47 V c (ValueIdx.ix2 ⟨(tbl47 a1 (ValueIdx.ix1 ⟨8 * t.val + r.val, row_lt47 a1 t r⟩)).toNat, hlt _⟩ j)
        * inBlk47 V a1 c t (ValueIdx.ix2 r (0 : Fin 1)))
    (c : Dev nD) (t : Fin (cfg47 a1).N) :
    (dat47 V a1 O c).flushed 1 t = (((cfg47 a1).win 1).blk t).view.read (Elt Ideal) (chunkG47 V a1 hlt c) := by
  show ((cfg47 a1).win 1).cut ((cfg47 a1).grid.coords t) ((dat47 V a1 O c).after 1 t) = _
  rw [afterOut47]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG47 V a1 hlt c ((((cfg47 a1).win 1).blk t).view.emb (ValueIdx.ix2 r j))
  have hemb : (((cfg47 a1).win 1).blk t).view.emb (ValueIdx.ix2 r j)
      = (ValueIdx.ix2 ⟨8 * t.val + r.val, row_lt47 a1 t r⟩ j : S100000x64.Idx) := by
    funext a; apply Fin.ext
    match a with
    | ⟨0, _⟩ =>
      show ((cfg47 a1).win 1).index t (0 : Fin 2) * 8 + 1 * r.val = 8 * t.val + r.val
      rw [idxOutRow47]; omega
    | ⟨1, _⟩ =>
      show ((cfg47 a1).win 1).index t (1 : Fin 2) * 64 + 1 * j.val = j.val
      rw [idxOutCol47]; omega
  rw [hemb, hO c t r j,
    inBlk47_apply V a1 c t r 0 (ValueIdx.ix2 ⟨8 * t.val + r.val, row_lt47 a1 t r⟩ (0 : Fin 1)) rfl]
  rfl

/-- THE CHUNK'S ARRAY after the region: chunkG47. -/
theorem chunk_array47 (hlt : ∀ y, (tbl47 a1 y).toNat < 100000)
    (hO : ∀ (c : Dev nD) (t : Fin (cfg47 a1).N) (r : Fin 8) (j : Fin 64), O c t (ValueIdx.ix2 r j)
      = far47 V c (ValueIdx.ix2 ⟨(tbl47 a1 (ValueIdx.ix1 ⟨8 * t.val + r.val, row_lt47 a1 t r⟩)).toNat, hlt _⟩ j)
        * inBlk47 V a1 c t (ValueIdx.ix2 r (0 : Fin 1)))
    (c : Dev nD) :
    (dat47 V a1 O c).arrAt 1 (cfg47 a1).N = chunkG47 V a1 hlt c :=
  (dat47 V a1 O c).arrAt_eq_of_cover 1 (chunkG47 V a1 hlt c) (fun t _ => flushedOut47_eq V a1 O hlt hO c t) (coverOut47 a1)

/-! ## The body's own block -/

/-- Two rows of the far operand named by the same word are the same row. -/
theorem farRow47_congr (c : Dev nD) {e e' : Fin 100000} (h : e.val = e'.val) (j : Fin 64)
    (p : (tbl47 a1 (ValueIdx.ix1 e)).toNat < 100000) (p' : (tbl47 a1 (ValueIdx.ix1 e')).toNat < 100000) :
    far47 V c (ValueIdx.ix2 ⟨(tbl47 a1 (ValueIdx.ix1 e)).toNat, p⟩ j)
      = far47 V c (ValueIdx.ix2 ⟨(tbl47 a1 (ValueIdx.ix1 e')).toNat, p'⟩ j) := by
  obtain rfl : e = e' := Fin.ext h
  rfl

/-- The body's block at point t — the gathered rows scaled by the input block — has the entries hO asks. -/
theorem bodyBlk47_apply (hlt : ∀ y, (tbl47 a1 y).toNat < 100000) (c : Dev nD) (t : Fin (cfg47 a1).N) (r : Fin 8) (j : Fin 64) :
    gatherOut (gatherG (a1.1 0) (V c main_v141) (grid47.coords t)) (iblk47 V a1 c 0 t) (ValueIdx.ix2 r j)
      = far47 V c (ValueIdx.ix2 ⟨(tbl47 a1 (ValueIdx.ix1 ⟨8 * t.val + r.val, row_lt47 a1 t r⟩)).toNat, hlt _⟩ j)
        * inBlk47 V a1 c t (ValueIdx.ix2 r (0 : Fin 1)) := by
  have hpay : gatherOut (gatherG (a1.1 0) (V c main_v141) (grid47.coords t)) (iblk47 V a1 c 0 t) (ValueIdx.ix2 r j)
      = gatherG (F := Ideal) (tbl47 a1) (far47 V c) (grid47.coords t) (ValueIdx.ix2 r j) * inBlk47 V a1 c t (ValueIdx.ix2 r (0 : Fin 1)) :=
    Cert.Value.kernel_block (by decide) (by decide) (gatherG (F := Ideal) (tbl47 a1) (far47 V c) (grid47.coords t)) (inBlk47 V a1 c t) r j
  rw [hpay, gatherG_apply (F := Ideal) (tbl47 a1) (far47 V c) (grid47.coords t) r j (hlt _)]
  refine congrArg (· * inBlk47 V a1 c t (ValueIdx.ix2 r (0 : Fin 1))) ?_
  exact farRow47_congr V a1 c (by show 8 * ((grid47.coords t) 0).val + r.val = 8 * t.val + r.val; rw [coordsVal47 a1 t]) j _ _

/-- THE CHUNK'S ARRAY after the region, the output block being the body's own. -/
theorem chunk_array47_body (hlt : ∀ y, (tbl47 a1 y).toNat < 100000) (c : Dev nD) :
    (dat47 V a1 (fun c t => gatherOut (gatherG (a1.1 0) (V c main_v141) (grid47.coords t)) (iblk47 V a1 c 0 t)) c).arrAt 1 (cfg47 a1).N
      = chunkG47 V a1 hlt c :=
  chunk_array47 V a1 _ hlt (fun c t r j => bodyBlk47_apply V a1 hlt c t r j) c

/-! ## The array as a chunk of the weighted rows -/

/-- When the far operand is the table x, the region's table the slice of the row numbers cols at 100000 k and its
    weights the slice of vals there as a column, the region's array is chunk k of the weighted rows. -/
theorem chunkG47_eq_chunkSpec (hlt : ∀ y, (tbl47 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far47 V c = x) (ht : tbl47 a1 = extractStridedSlice Cert.Value.T100000 ![off] cols hsl)
    (hw : wts47 V c = shapeCast Cert.Value.T100000x1 (extractStridedSlice Cert.Value.T100000 ![off] vals hsl) hsc) :
    chunkG47 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl47 a1 (ValueIdx.ix1 e)).toNat, hlt _⟩ (congrArg (fun T : S100000.Idx → BitVec 32 => (T (ValueIdx.ix1 e)).toNat) ht), ← hx, ← hw]
  rfl

end Chunk

/-! # Region 48 -/

/-! ## The grid and the index maps -/

section Chunk
open Idealize.ShloMosaic.ValueIdx (idx2_lt0 idx2_lt1 eq_ix2)

variable (V : (c : Dev nD) → (b : Ref sig .tc) → Buf (Elt Ideal) ((c : Thread nD τ).loc b))
  (a1 : (pcfg48 (F := Ideal)).Adm)
  (O : (c : Dev nD) → Fin (cfg48 a1).N → Vec Ideal S8x64 .f32)

/-- The grid has 12500 points. -/
theorem npoints48 : (cfg48 a1).N = 12500 := N_48

/-- A point's one coordinate is the point's number. -/
theorem coordsVal48 (t : Fin (cfg48 a1).N) : (((cfg48 a1).grid.coords t) 0).val = t.val := by
  have ht : t.val < 12500 := (npoints48 a1) ▸ t.isLt
  show t.val / grid48.stride 0 % 12500 = t.val
  rw [show grid48.stride 0 = 1 from by decide, Nat.div_one, Nat.mod_eq_of_lt ht]

/-- Both windows move with the point: block index (t, 0) at point t. -/
theorem idxInRow48 (t : Fin (cfg48 a1).N) : ((cfg48 a1).win 0).index t (0 : Fin 2) = t.val := by
  have ht : t.val < 12500 := (npoints48 a1) ▸ t.isLt
  show (BitVec.ofNat 32 (((cfg48 a1).grid.coords t) 0).val).toNat = t.val
  rw [coordsVal48, BitVec.toNat_ofNat, Nat.mod_eq_of_lt (by omega)]
theorem idxInCol48 (t : Fin (cfg48 a1).N) : ((cfg48 a1).win 0).index t (1 : Fin 2) = 0 := rfl
theorem idxOutRow48 (t : Fin (cfg48 a1).N) : ((cfg48 a1).win 1).index t (0 : Fin 2) = t.val := by
  have ht : t.val < 12500 := (npoints48 a1) ▸ t.isLt
  show (BitVec.ofNat 32 (((cfg48 a1).grid.coords t) 0).val).toNat = t.val
  rw [coordsVal48, BitVec.toNat_ofNat, Nat.mod_eq_of_lt (by omega)]
theorem idxOutCol48 (t : Fin (cfg48 a1).N) : ((cfg48 a1).win 1).index t (1 : Fin 2) = 0 := rfl

/-- The output window is written back at every point: the next point's block is another. -/
theorem flushOut48 (t : Fin (cfg48 a1).N) : ((cfg48 a1).win 1).flush t = true := by
  unfold Window.flush
  show (true && (decide (t.val + 1 = (cfg48 a1).N) || decide (∃ h : t.val + 1 < (cfg48 a1).N,
    ((cfg48 a1).win 1).index ⟨t.val + 1, h⟩ ≠ ((cfg48 a1).win 1).index t))) = true
  rw [Bool.true_and, Bool.or_eq_true, decide_eq_true_eq, decide_eq_true_eq]
  by_cases h : t.val + 1 = (cfg48 a1).N
  · exact Or.inl h
  · refine Or.inr ⟨by have := t.isLt; omega, fun e => ?_⟩
    have erow := congrFun e (0 : Fin 2)
    rw [idxOutRow48, idxOutRow48] at erow
    exact absurd erow (by show t.val + 1 ≠ t.val; omega)

/-! ## The operands at their literal types -/

/-- The table's words. -/
abbrev tbl48 : S100000.Idx → BitVec 32 := a1.1 0
/-- The far operand: the table of rows. -/
abbrev far48 (c : Dev nD) : S100000x64.Idx → EReal := V c main_v141
/-- The weights, as a column. -/
abbrev wts48 (c : Dev nD) : S100000x1.Idx → EReal := V c main_v205
/-- The input window's block at point t: eight weights. -/
abbrev inBlk48 (c : Dev nD) (t : Fin (cfg48 a1).N) : S8x1.Idx → EReal := iblk48 V a1 c 0 t

/-! ## The blocks -/

/-- Row r of the input window's block at point t is row 8 t + r of the column of weights. -/
theorem inBlk48_apply (c : Dev nD) (t : Fin (cfg48 a1).N) (r : Fin 8) (z : Fin 1) (k : S100000x1.Idx)
    (hkrow : (k 0).val = 8 * t.val + r.val) :
    inBlk48 V a1 c t (ValueIdx.ix2 r z) = wts48 V c k := by
  show wts48 V c ((((cfg48 a1).win 0).blk t).view.emb (ValueIdx.ix2 r z)) = wts48 V c k
  refine congrArg (wts48 V c) (funext fun a => Fin.ext ?_)
  match a with
  | ⟨0, _⟩ =>
    show ((cfg48 a1).win 0).index t (0 : Fin 2) * 8 + 1 * r.val = (k 0).val
    rw [idxInRow48, hkrow]; omega
  | ⟨1, _⟩ =>
    show ((cfg48 a1).win 0).index t (1 : Fin 2) * 1 + 1 * z.val = (k 1).val
    have hkcol : (k 1).val < 1 := idx2_lt1 k
    have hz : z.val < 1 := z.isLt
    rw [idxInCol48]; omega

/-- An index of the array is in point t's block iff each coordinate is in the block's range on its axis. -/
theorem mem_blkOut48 (t : Fin (cfg48 a1).N) (i : S100000x64.Idx) :
    i ∈ (((cfg48 a1).win 1).blk t).view.set ↔ ∀ a : Fin 2, ((cfg48 a1).win 1).index t a * S8x64.size a ≤ (i a).val
      ∧ (i a).val < ((cfg48 a1).win 1).index t a * S8x64.size a + S8x64.size a := by
  have hset : (((cfg48 a1).win 1).blk t).view.set = (((cfg48 a1).win 1).rect t : Rect S100000x64).set :=
    View.set_slice_whole main_v206 _
  have hmem : i ∈ (((cfg48 a1).win 1).rect t : Rect S100000x64).set ↔ ∀ a : Fin 2,
      ((cfg48 a1).win 1).index t a * S8x64.size a ≤ (i a).val
        ∧ (i a).val < ((cfg48 a1).win 1).index t a * S8x64.size a + S8x64.size a := Rect.mem_set_unit
  exact (Finset.ext_iff.mp hset i).trans hmem

/-- Every index of the array is in the block of the point its row over eight names. -/
theorem coverOut48 (i : S100000x64.Idx) :
    ∃ t : Fin (cfg48 a1).N, ((cfg48 a1).win 1).flush t = true ∧ i ∈ (((cfg48 a1).win 1).blk t).view.set := by
  have hirow : (i 0).val < 100000 := idx2_lt0 i
  have hicol : (i 1).val < 64 := idx2_lt1 i
  obtain ⟨t, ht⟩ : ∃ t : Fin (cfg48 a1).N, t.val = (i 0).val / 8 := ⟨⟨(i 0).val / 8, by rw [npoints48]; omega⟩, rfl⟩
  refine ⟨t, flushOut48 a1 t, ?_⟩
  rw [mem_blkOut48]
  intro a
  match a with
  | ⟨0, _⟩ =>
    show ((cfg48 a1).win 1).index t (0 : Fin 2) * 8 ≤ (i 0).val ∧ (i 0).val < ((cfg48 a1).win 1).index t (0 : Fin 2) * 8 + 8
    rw [idxOutRow48, ht]; omega
  | ⟨1, _⟩ =>
    show ((cfg48 a1).win 1).index t (1 : Fin 2) * 64 ≤ (i 1).val ∧ (i 1).val < ((cfg48 a1).win 1).index t (1 : Fin 2) * 64 + 64
    rw [idxOutCol48]; omega

/-! ## The array -/

/-- One weighted row at one column: the table row the e-th word names, at column j, times the e-th weight. -/
def chunkRow48 (hlt : ∀ y, (tbl48 a1 y).toNat < 100000) (c : Dev nD) (e : Fin 100000) (j : Fin 64) : EReal :=
  far48 V c (ValueIdx.ix2 ⟨(tbl48 a1 (ValueIdx.ix1 e)).toNat, hlt _⟩ j) * wts48 V c (ValueIdx.ix2 e (0 : Fin 1))

/-- The chunk's array as one function of the region's operands. -/
def chunkG48 (hlt : ∀ y, (tbl48 a1 y).toNat < 100000) (c : Dev nD) : S100000x64.Idx → EReal :=
  fun i => chunkRow48 V a1 hlt c (i 0) (i 1)

/-- Row r of point t's block lies in the table. -/
theorem row_lt48 (t : Fin (cfg48 a1).N) (r : Fin 8) : 8 * t.val + r.val < 100000 := by
  have ht : t.val < 12500 := (npoints48 a1) ▸ t.isLt
  have := r.isLt; omega

/-- WHAT POINT t WRITES BACK is block t of the chunk's array, when the body leaves in the output window's buffer,
    at (r, j), the table row that word 8 t + r names at column j times the input block's weight at (r, 0). -/
theorem flushedOut48_eq (hlt : ∀ y, (tbl48 a1 y).toNat < 100000)
    (hO : ∀ (c : Dev nD) (t : Fin (cfg48 a1).N) (r : Fin 8) (j : Fin 64), O c t (ValueIdx.ix2 r j)
      = far48 V c (ValueIdx.ix2 ⟨(tbl48 a1 (ValueIdx.ix1 ⟨8 * t.val + r.val, row_lt48 a1 t r⟩)).toNat, hlt _⟩ j)
        * inBlk48 V a1 c t (ValueIdx.ix2 r (0 : Fin 1)))
    (c : Dev nD) (t : Fin (cfg48 a1).N) :
    (dat48 V a1 O c).flushed 1 t = (((cfg48 a1).win 1).blk t).view.read (Elt Ideal) (chunkG48 V a1 hlt c) := by
  show ((cfg48 a1).win 1).cut ((cfg48 a1).grid.coords t) ((dat48 V a1 O c).after 1 t) = _
  rw [afterOut48]
  refine funext fun (y : S8x64.Idx) => ?_
  obtain ⟨r, j, rfl⟩ : ∃ (r : Fin 8) (j : Fin 64), y = ValueIdx.ix2 r j := ⟨y 0, y 1, eq_ix2 y⟩
  show O c t (ValueIdx.ix2 r j) = chunkG48 V a1 hlt c ((((cfg48 a1).win 1).blk t).view.emb (ValueIdx.ix2 r j))
  have hemb : (((cfg48 a1).win 1).blk t).view.emb (ValueIdx.ix2 r j)
      = (ValueIdx.ix2 ⟨8 * t.val + r.val, row_lt48 a1 t r⟩ j : S100000x64.Idx) := by
    funext a; apply Fin.ext
    match a with
    | ⟨0, _⟩ =>
      show ((cfg48 a1).win 1).index t (0 : Fin 2) * 8 + 1 * r.val = 8 * t.val + r.val
      rw [idxOutRow48]; omega
    | ⟨1, _⟩ =>
      show ((cfg48 a1).win 1).index t (1 : Fin 2) * 64 + 1 * j.val = j.val
      rw [idxOutCol48]; omega
  rw [hemb, hO c t r j,
    inBlk48_apply V a1 c t r 0 (ValueIdx.ix2 ⟨8 * t.val + r.val, row_lt48 a1 t r⟩ (0 : Fin 1)) rfl]
  rfl

/-- THE CHUNK'S ARRAY after the region: chunkG48. -/
theorem chunk_array48 (hlt : ∀ y, (tbl48 a1 y).toNat < 100000)
    (hO : ∀ (c : Dev nD) (t : Fin (cfg48 a1).N) (r : Fin 8) (j : Fin 64), O c t (ValueIdx.ix2 r j)
      = far48 V c (ValueIdx.ix2 ⟨(tbl48 a1 (ValueIdx.ix1 ⟨8 * t.val + r.val, row_lt48 a1 t r⟩)).toNat, hlt _⟩ j)
        * inBlk48 V a1 c t (ValueIdx.ix2 r (0 : Fin 1)))
    (c : Dev nD) :
    (dat48 V a1 O c).arrAt 1 (cfg48 a1).N = chunkG48 V a1 hlt c :=
  (dat48 V a1 O c).arrAt_eq_of_cover 1 (chunkG48 V a1 hlt c) (fun t _ => flushedOut48_eq V a1 O hlt hO c t) (coverOut48 a1)

/-! ## The body's own block -/

/-- Two rows of the far operand named by the same word are the same row. -/
theorem farRow48_congr (c : Dev nD) {e e' : Fin 100000} (h : e.val = e'.val) (j : Fin 64)
    (p : (tbl48 a1 (ValueIdx.ix1 e)).toNat < 100000) (p' : (tbl48 a1 (ValueIdx.ix1 e')).toNat < 100000) :
    far48 V c (ValueIdx.ix2 ⟨(tbl48 a1 (ValueIdx.ix1 e)).toNat, p⟩ j)
      = far48 V c (ValueIdx.ix2 ⟨(tbl48 a1 (ValueIdx.ix1 e')).toNat, p'⟩ j) := by
  obtain rfl : e = e' := Fin.ext h
  rfl

/-- The body's block at point t — the gathered rows scaled by the input block — has the entries hO asks. -/
theorem bodyBlk48_apply (hlt : ∀ y, (tbl48 a1 y).toNat < 100000) (c : Dev nD) (t : Fin (cfg48 a1).N) (r : Fin 8) (j : Fin 64) :
    gatherOut (gatherG (a1.1 0) (V c main_v141) (grid48.coords t)) (iblk48 V a1 c 0 t) (ValueIdx.ix2 r j)
      = far48 V c (ValueIdx.ix2 ⟨(tbl48 a1 (ValueIdx.ix1 ⟨8 * t.val + r.val, row_lt48 a1 t r⟩)).toNat, hlt _⟩ j)
        * inBlk48 V a1 c t (ValueIdx.ix2 r (0 : Fin 1)) := by
  have hpay : gatherOut (gatherG (a1.1 0) (V c main_v141) (grid48.coords t)) (iblk48 V a1 c 0 t) (ValueIdx.ix2 r j)
      = gatherG (F := Ideal) (tbl48 a1) (far48 V c) (grid48.coords t) (ValueIdx.ix2 r j) * inBlk48 V a1 c t (ValueIdx.ix2 r (0 : Fin 1)) :=
    Cert.Value.kernel_block (by decide) (by decide) (gatherG (F := Ideal) (tbl48 a1) (far48 V c) (grid48.coords t)) (inBlk48 V a1 c t) r j
  rw [hpay, gatherG_apply (F := Ideal) (tbl48 a1) (far48 V c) (grid48.coords t) r j (hlt _)]
  refine congrArg (· * inBlk48 V a1 c t (ValueIdx.ix2 r (0 : Fin 1))) ?_
  exact farRow48_congr V a1 c (by show 8 * ((grid48.coords t) 0).val + r.val = 8 * t.val + r.val; rw [coordsVal48 a1 t]) j _ _

/-- THE CHUNK'S ARRAY after the region, the output block being the body's own. -/
theorem chunk_array48_body (hlt : ∀ y, (tbl48 a1 y).toNat < 100000) (c : Dev nD) :
    (dat48 V a1 (fun c t => gatherOut (gatherG (a1.1 0) (V c main_v141) (grid48.coords t)) (iblk48 V a1 c 0 t)) c).arrAt 1 (cfg48 a1).N
      = chunkG48 V a1 hlt c :=
  chunk_array48 V a1 _ hlt (fun c t r j => bodyBlk48_apply V a1 hlt c t r j) c

/-! ## The array as a chunk of the weighted rows -/

/-- When the far operand is the table x, the region's table the slice of the row numbers cols at 100000 k and its
    weights the slice of vals there as a column, the region's array is chunk k of the weighted rows. -/
theorem chunkG48_eq_chunkSpec (hlt : ∀ y, (tbl48 a1 y).toNat < 100000) (c : Dev nD)
    (x : Cert.Value.T100000x64.Idx → EReal) (cols : Cert.Value.T1600000.Idx → BitVec 32) (vals : Cert.Value.T1600000.Idx → EReal)
    (hcols : ∀ e, (cols e).toNat < 100000) (k : Fin 16) (off : Nat) (hoff : off = 100000 * k.val)
    (hsl : Cert.Value.T1600000.Slices ![off] Cert.Value.T100000) (hsc : Cert.Value.T100000.ShapeCasts Cert.Value.T100000x1)
    (hx : far48 V c = x) (ht : tbl48 a1 = extractStridedSlice Cert.Value.T100000 ![off] cols hsl)
    (hw : wts48 V c = shapeCast Cert.Value.T100000x1 (extractStridedSlice Cert.Value.T100000 ![off] vals hsl) hsc) :
    chunkG48 V a1 hlt c = Cert.Value.chunkSpec x cols vals hcols k := by
  funext i
  obtain ⟨e, j, rfl⟩ : ∃ (e : Fin 100000) (j : Fin 64), i = ValueIdx.ix2 e j := ⟨i 0, i 1, eq_ix2 i⟩
  rw [← Cert.Value.chunkSpec_of_slices x cols vals hcols k off hoff hsl hsc e j (0 : Fin 1)
    ⟨(tbl48 a1 (ValueIdx.ix1 e)).toNat, hlt _⟩ (congrArg (fun T : S100000.Idx → BitVec 32 => (T (ValueIdx.ix1 e)).toNat) ht), ← hx, ← hw]
  rfl

end Chunk

end Cert.Value

end
-- ==== Proof.Val.KOuts_42_48.lean ====
/-
  Gather regions 42 to 48 of the host program, one after the other: for each, the region's output array at its exit boundary as a chunk of the layer's weighted rows,
  exactly as for region 1 (whose module says what each part is).
-/
import proofs.«421643_j28415503630349_2_alg».proof.Proof.KI.Tables
import proofs.«421643_j28415503630349_2_alg».proof.Proof.Val.ChunkArrays_42_48
import proofs.«421643_j28415503630349_2_alg».proof.Proof.Val.KVals

set_option maxRecDepth 16384

noncomputable section

namespace Cert.Value

open Cert.KernelIdeal Cert.KernelIdeal.Gen Cert.KernelIdeal.Hand
open Idealize.ShloMosaic Idealize.ShloMosaic.TcCoe
open Idealize.SL.Sem

/-! # Region 42 -/

attribute [local irreducible] W85 in
/-- The output array of region 42 at its exit is chunk 9 of the weighted rows of the table the region entered with. -/
theorem kout42 (m : (ℓ : Loc nD τ sig) → Buf (Elt Ideal) ℓ)
    (hcols : ∀ (c : Dev nD) (e : S1600000.Idx), (m ((c.tc : Thread nD τ).loc main_arg4) e).toNat < 100000)
    (c : Dev nD) :
    W87 m c main_v182
      = chunkSpec (W86 m c main_v141) (m ((c.tc : Thread nD τ).loc main_arg4)) (m ((c.tc : Thread nD τ).loc main_arg2))
          (hcols c) (9 : Fin 16) := by
  -- one core: every core is core 0, the one the table's admissible contents are read at
  obtain rfl : c = 0 := Subsingleton.elim _ _
  -- the exit boundary at the output array is the pipeline's final array
  have harr : W87 m 0 main_v182
      = (dat42 (Vof (W86 m)) (adm42 m) (outBlk42 (Vof (W86 m)) (adm42 m)) 0).arrAt 1 (cfg42 (adm42 m)).N :=
    Wout42_arr (W86 m) (adm42 m) (outBlk42 (Vof (W86 m)) (adm42 m)) 0 1
  -- which is the one function of the operands at the entry boundary
  have hbody := chunk_array42_body (Vof (W86 m)) (adm42 m) (tbl_lt42 m hcols) 0
  -- the table of row numbers is the slice of the argument list
  have ht : tbl42 (adm42 m)
      = extractStridedSlice T100000 ![900000] (m (((0 : Dev nD).tc : Thread nD τ).loc main_arg4)) slices_S1600000_S100000_900000 := by
    show W86 m 0 main_v179 = _
    rw [tbl_eq42 m 0, W85_arg4 m 0]
  -- the column of weights is the slice of the argument list, as a column
  have hw : wts42 (Vof (W86 m)) 0
      = shapeCast T100000x1
          (extractStridedSlice T100000 ![900000] (m (((0 : Dev nD).tc : Thread nD τ).loc main_arg2)) slices_S1600000_S100000_900000)
          shapeCasts_S100000_S100000x1 :=
    kvals42 (W85 m 0) (m (((0 : Dev nD).tc : Thread nD τ).loc main_arg2)) (W85_arg2 m 0)
  exact harr.trans (hbody.trans
    (chunkG42_eq_chunkSpec (Vof (W86 m)) (adm42 m) (tbl_lt42 m hcols) 0
      (W86 m 0 main_v141) (m (((0 : Dev nD).tc : Thread nD τ).loc main_arg4))
      (m (((0 : Dev nD).tc : Thread nD τ).loc main_arg2)) (hcols 0) (9 : Fin 16) 900000 (by decide)
      slices_S1600000_S100000_900000 shapeCasts_S100000_S100000x1 rfl ht hw))

/-! # Region 43 -/

attribute [local irreducible] W87 in
/-- The output array of region 43 at its exit is chunk 10 of the weighted rows of the table the region entered with. -/
theorem kout43 (m : (ℓ : Loc nD τ sig) → Buf (Elt Ideal) ℓ)
    (hcols : ∀ (c : Dev nD) (e : S1600000.Idx), (m ((c.tc : Thread nD τ).loc main_arg4) e).toNat < 100000)
    (c : Dev nD) :
    W89 m c main_v186
      = chunkSpec (W88 m c main_v141) (m ((c.tc : Thread nD τ).loc main_arg4)) (m ((c.tc : Thread nD τ).loc main_arg2))
          (hcols c) (10 : Fin 16) := by
  -- one core: every core is core 0, the one the table's admissible contents are read at
  obtain rfl : c = 0 := Subsingleton.elim _ _
  -- the exit boundary at the output array is the pipeline's final array
  have harr : W89 m 0 main_v186
      = (dat43 (Vof (W88 m)) (adm43 m) (outBlk43 (Vof (W88 m)) (adm43 m)) 0).arrAt 1 (cfg43 (adm43 m)).N :=
    Wout43_arr (W88 m) (adm43 m) (outBlk43 (Vof (W88 m)) (adm43 m)) 0 1
  -- which is the one function of the operands at the entry boundary
  have hbody := chunk_array43_body (Vof (W88 m)) (adm43 m) (tbl_lt43 m hcols) 0
  -- the table of row numbers is the slice of the argument list
  have ht : tbl43 (adm43 m)
      = extractStridedSlice T100000 ![1000000] (m (((0 : Dev nD).tc : Thread nD τ).loc main_arg4)) slices_S1600000_S100000_1000000 := by
    show W88 m 0 main_v183 = _
    rw [tbl_eq43 m 0, W87_arg4 m 0]
  -- the column of weights is the slice of the argument list, as a column
  have hw : wts43 (Vof (W88 m)) 0
      = shapeCast T100000x1
          (extractStridedSlice T100000 ![1000000] (m (((0 : Dev nD).tc : Thread nD τ).loc main_arg2)) slices_S1600000_S100000_1000000)
          shapeCasts_S100000_S100000x1 :=
    kvals43 (W87 m 0) (m (((0 : Dev nD).tc : Thread nD τ).loc main_arg2)) (W87_arg2 m 0)
  exact harr.trans (hbody.trans
    (chunkG43_eq_chunkSpec (Vof (W88 m)) (adm43 m) (tbl_lt43 m hcols) 0
      (W88 m 0 main_v141) (m (((0 : Dev nD).tc : Thread nD τ).loc main_arg4))
      (m (((0 : Dev nD).tc : Thread nD τ).loc main_arg2)) (hcols 0) (10 : Fin 16) 1000000 (by decide)
      slices_S1600000_S100000_1000000 shapeCasts_S100000_S100000x1 rfl ht hw))

/-! # Region 44 -/

attribute [local irreducible] W89 in
/-- The output array of region 44 at its exit is chunk 11 of the weighted rows of the table the region entered with. -/
theorem kout44 (m : (ℓ : Loc nD τ sig) → Buf (Elt Ideal) ℓ)
    (hcols : ∀ (c : Dev nD) (e : S1600000.Idx), (m ((c.tc : Thread nD τ).loc main_arg4) e).toNat < 100000)
    (c : Dev nD) :
    W91 m c main_v190
      = chunkSpec (W90 m c main_v141) (m ((c.tc : Thread nD τ).loc main_arg4)) (m ((c.tc : Thread nD τ).loc main_arg2))
          (hcols c) (11 : Fin 16) := by
  -- one core: every core is core 0, the one the table's admissible contents are read at
  obtain rfl : c = 0 := Subsingleton.elim _ _
  -- the exit boundary at the output array is the pipeline's final array
  have harr : W91 m 0 main_v190
      = (dat44 (Vof (W90 m)) (adm44 m) (outBlk44 (Vof (W90 m)) (adm44 m)) 0).arrAt 1 (cfg44 (adm44 m)).N :=
    Wout44_arr (W90 m) (adm44 m) (outBlk44 (Vof (W90 m)) (adm44 m)) 0 1
  -- which is the one function of the operands at the entry boundary
  have hbody := chunk_array44_body (Vof (W90 m)) (adm44 m) (tbl_lt44 m hcols) 0
  -- the table of row numbers is the slice of the argument list
  have ht : tbl44 (adm44 m)
      = extractStridedSlice T100000 ![1100000] (m (((0 : Dev nD).tc : Thread nD τ).loc main_arg4)) slices_S1600000_S100000_1100000 := by
    show W90 m 0 main_v187 = _
    rw [tbl_eq44 m 0, W89_arg4 m 0]
  -- the column of weights is the slice of the argument list, as a column
  have hw : wts44 (Vof (W90 m)) 0
      = shapeCast T100000x1
          (extractStridedSlice T100000 ![1100000] (m (((0 : Dev nD).tc : Thread nD τ).loc main_arg2)) slices_S1600000_S100000_1100000)
          shapeCasts_S100000_S100000x1 :=
    kvals44 (W89 m 0) (m (((0 : Dev nD).tc : Thread nD τ).loc main_arg2)) (W89_arg2 m 0)
  exact harr.trans (hbody.trans
    (chunkG44_eq_chunkSpec (Vof (W90 m)) (adm44 m) (tbl_lt44 m hcols) 0
      (W90 m 0 main_v141) (m (((0 : Dev nD).tc : Thread nD τ).loc main_arg4))
      (m (((0 : Dev nD).tc : Thread nD τ).loc main_arg2)) (hcols 0) (11 : Fin 16) 1100000 (by decide)
      slices_S1600000_S100000_1100000 shapeCasts_S100000_S100000x1 rfl ht hw))

/-! # Region 45 -/

attribute [local irreducible] W91 in
/-- The output array of region 45 at its exit is chunk 12 of the weighted rows of the table the region entered with. -/
theorem kout45 (m : (ℓ : Loc nD τ sig) → Buf (Elt Ideal) ℓ)
    (hcols : ∀ (c : Dev nD) (e : S1600000.Idx), (m ((c.tc : Thread nD τ).loc main_arg4) e).toNat < 100000)
    (c : Dev nD) :
    W93 m c main_v194
      = chunkSpec (W92 m c main_v141) (m ((c.tc : Thread nD τ).loc main_arg4)) (m ((c.tc : Thread nD τ).loc main_arg2))
          (hcols c) (12 : Fin 16) := by
  -- one core: every core is core 0, the one the table's admissible contents are read at
  obtain rfl : c = 0 := Subsingleton.elim _ _
  -- the exit boundary at the output array is the pipeline's final array
  have harr : W93 m 0 main_v194
      = (dat45 (Vof (W92 m)) (adm45 m) (outBlk45 (Vof (W92 m)) (adm45 m)) 0).arrAt 1 (cfg45 (adm45 m)).N :=
    Wout45_arr (W92 m) (adm45 m) (outBlk45 (Vof (W92 m)) (adm45 m)) 0 1
  -- which is the one function of the operands at the entry boundary
  have hbody := chunk_array45_body (Vof (W92 m)) (adm45 m) (tbl_lt45 m hcols) 0
  -- the table of row numbers is the slice of the argument list
  have ht : tbl45 (adm45 m)
      = extractStridedSlice T100000 ![1200000] (m (((0 : Dev nD).tc : Thread nD τ).loc main_arg4)) slices_S1600000_S100000_1200000 := by
    show W92 m 0 main_v191 = _
    rw [tbl_eq45 m 0, W91_arg4 m 0]
  -- the column of weights is the slice of the argument list, as a column
  have hw : wts45 (Vof (W92 m)) 0
      = shapeCast T100000x1
          (extractStridedSlice T100000 ![1200000] (m (((0 : Dev nD).tc : Thread nD τ).loc main_arg2)) slices_S1600000_S100000_1200000)
          shapeCasts_S100000_S100000x1 :=
    kvals45 (W91 m 0) (m (((0 : Dev nD).tc : Thread nD τ).loc main_arg2)) (W91_arg2 m 0)
  exact harr.trans (hbody.trans
    (chunkG45_eq_chunkSpec (Vof (W92 m)) (adm45 m) (tbl_lt45 m hcols) 0
      (W92 m 0 main_v141) (m (((0 : Dev nD).tc : Thread nD τ).loc main_arg4))
      (m (((0 : Dev nD).tc : Thread nD τ).loc main_arg2)) (hcols 0) (12 : Fin 16) 1200000 (by decide)
      slices_S1600000_S100000_1200000 shapeCasts_S100000_S100000x1 rfl ht hw))

/-! # Region 46 -/

attribute [local irreducible] W93 in
/-- The output array of region 46 at its exit is chunk 13 of the weighted rows of the table the region entered with. -/
theorem kout46 (m : (ℓ : Loc nD τ sig) → Buf (Elt Ideal) ℓ)
    (hcols : ∀ (c : Dev nD) (e : S1600000.Idx), (m ((c.tc : Thread nD τ).loc main_arg4) e).toNat < 100000)
    (c : Dev nD) :
    W95 m c main_v198
      = chunkSpec (W94 m c main_v141) (m ((c.tc : Thread nD τ).loc main_arg4)) (m ((c.tc : Thread nD τ).loc main_arg2))
          (hcols c) (13 : Fin 16) := by
  -- one core: every core is core 0, the one the table's admissible contents are read at
  obtain rfl : c = 0 := Subsingleton.elim _ _
  -- the exit boundary at the output array is the pipeline's final array
  have harr : W95 m 0 main_v198
      = (dat46 (Vof (W94 m)) (adm46 m) (outBlk46 (Vof (W94 m)) (adm46 m)) 0).arrAt 1 (cfg46 (adm46 m)).N :=
    Wout46_arr (W94 m) (adm46 m) (outBlk46 (Vof (W94 m)) (adm46 m)) 0 1
  -- which is the one function of the operands at the entry boundary
  have hbody := chunk_array46_body (Vof (W94 m)) (adm46 m) (tbl_lt46 m hcols) 0
  -- the table of row numbers is the slice of the argument list
  have ht : tbl46 (adm46 m)
      = extractStridedSlice T100000 ![1300000] (m (((0 : Dev nD).tc : Thread nD τ).loc main_arg4)) slices_S1600000_S100000_1300000 := by
    show W94 m 0 main_v195 = _
    rw [tbl_eq46 m 0, W93_arg4 m 0]
  -- the column of weights is the slice of the argument list, as a column
  have hw : wts46 (Vof (W94 m)) 0
      = shapeCast T100000x1
          (extractStridedSlice T100000 ![1300000] (m (((0 : Dev nD).tc : Thread nD τ).loc main_arg2)) slices_S1600000_S100000_1300000)
          shapeCasts_S100000_S100000x1 :=
    kvals46 (W93 m 0) (m (((0 : Dev nD).tc : Thread nD τ).loc main_arg2)) (W93_arg2 m 0)
  exact harr.trans (hbody.trans
    (chunkG46_eq_chunkSpec (Vof (W94 m)) (adm46 m) (tbl_lt46 m hcols) 0
      (W94 m 0 main_v141) (m (((0 : Dev nD).tc : Thread nD τ).loc main_arg4))
      (m (((0 : Dev nD).tc : Thread nD τ).loc main_arg2)) (hcols 0) (13 : Fin 16) 1300000 (by decide)
      slices_S1600000_S100000_1300000 shapeCasts_S100000_S100000x1 rfl ht hw))

/-! # Region 47 -/

attribute [local irreducible] W95 in
/-- The output array of region 47 at its exit is chunk 14 of the weighted rows of the table the region entered with. -/
theorem kout47 (m : (ℓ : Loc nD τ sig) → Buf (Elt Ideal) ℓ)
    (hcols : ∀ (c : Dev nD) (e : S1600000.Idx), (m ((c.tc : Thread nD τ).loc main_arg4) e).toNat < 100000)
    (c : Dev nD) :
    W97 m c main_v202
      = chunkSpec (W96 m c main_v141) (m ((c.tc : Thread nD τ).loc main_arg4)) (m ((c.tc : Thread nD τ).loc main_arg2))
          (hcols c) (14 : Fin 16) := by
  -- one core: every core is core 0, the one the table's admissible contents are read at
  obtain rfl : c = 0 := Subsingleton.elim _ _
  -- the exit boundary at the output array is the pipeline's final array
  have harr : W97 m 0 main_v202
      = (dat47 (Vof (W96 m)) (adm47 m) (outBlk47 (Vof (W96 m)) (adm47 m)) 0).arrAt 1 (cfg47 (adm47 m)).N :=
    Wout47_arr (W96 m) (adm47 m) (outBlk47 (Vof (W96 m)) (adm47 m)) 0 1
  -- which is the one function of the operands at the entry boundary
  have hbody := chunk_array47_body (Vof (W96 m)) (adm47 m) (tbl_lt47 m hcols) 0
  -- the table of row numbers is the slice of the argument list
  have ht : tbl47 (adm47 m)
      = extractStridedSlice T100000 ![1400000] (m (((0 : Dev nD).tc : Thread nD τ).loc main_arg4)) slices_S1600000_S100000_1400000 := by
    show W96 m 0 main_v199 = _
    rw [tbl_eq47 m 0, W95_arg4 m 0]
  -- the column of weights is the slice of the argument list, as a column
  have hw : wts47 (Vof (W96 m)) 0
      = shapeCast T100000x1
          (extractStridedSlice T100000 ![1400000] (m (((0 : Dev nD).tc : Thread nD τ).loc main_arg2)) slices_S1600000_S100000_1400000)
          shapeCasts_S100000_S100000x1 :=
    kvals47 (W95 m 0) (m (((0 : Dev nD).tc : Thread nD τ).loc main_arg2)) (W95_arg2 m 0)
  exact harr.trans (hbody.trans
    (chunkG47_eq_chunkSpec (Vof (W96 m)) (adm47 m) (tbl_lt47 m hcols) 0
      (W96 m 0 main_v141) (m (((0 : Dev nD).tc : Thread nD τ).loc main_arg4))
      (m (((0 : Dev nD).tc : Thread nD τ).loc main_arg2)) (hcols 0) (14 : Fin 16) 1400000 (by decide)
      slices_S1600000_S100000_1400000 shapeCasts_S100000_S100000x1 rfl ht hw))

/-! # Region 48 -/

attribute [local irreducible] W97 in
/-- The output array of region 48 at its exit is chunk 15 of the weighted rows of the table the region entered with. -/
theorem kout48 (m : (ℓ : Loc nD τ sig) → Buf (Elt Ideal) ℓ)
    (hcols : ∀ (c : Dev nD) (e : S1600000.Idx), (m ((c.tc : Thread nD τ).loc main_arg4) e).toNat < 100000)
    (c : Dev nD) :
    W99 m c main_v206
      = chunkSpec (W98 m c main_v141) (m ((c.tc : Thread nD τ).loc main_arg4)) (m ((c.tc : Thread nD τ).loc main_arg2))
          (hcols c) (15 : Fin 16) := by
  -- one core: every core is core 0, the one the table's admissible contents are read at
  obtain rfl : c = 0 := Subsingleton.elim _ _
  -- the exit boundary at the output array is the pipeline's final array
  have harr : W99 m 0 main_v206
      = (dat48 (Vof (W98 m)) (adm48 m) (outBlk48 (Vof (W98 m)) (adm48 m)) 0).arrAt 1 (cfg48 (adm48 m)).N :=
    Wout48_arr (W98 m) (adm48 m) (outBlk48 (Vof (W98 m)) (adm48 m)) 0 1
  -- which is the one function of the operands at the entry boundary
  have hbody := chunk_array48_body (Vof (W98 m)) (adm48 m) (tbl_lt48 m hcols) 0
  -- the table of row numbers is the slice of the argument list
  have ht : tbl48 (adm48 m)
      = extractStridedSlice T100000 ![1500000] (m (((0 : Dev nD).tc : Thread nD τ).loc main_arg4)) slices_S1600000_S100000_1500000 := by
    show W98 m 0 main_v203 = _
    rw [tbl_eq48 m 0, W97_arg4 m 0]
  -- the column of weights is the slice of the argument list, as a column
  have hw : wts48 (Vof (W98 m)) 0
      = shapeCast T100000x1
          (extractStridedSlice T100000 ![1500000] (m (((0 : Dev nD).tc : Thread nD τ).loc main_arg2)) slices_S1600000_S100000_1500000)
          shapeCasts_S100000_S100000x1 :=
    kvals48 (W97 m 0) (m (((0 : Dev nD).tc : Thread nD τ).loc main_arg2)) (W97_arg2 m 0)
  exact harr.trans (hbody.trans
    (chunkG48_eq_chunkSpec (Vof (W98 m)) (adm48 m) (tbl_lt48 m hcols) 0
      (W98 m 0 main_v141) (m (((0 : Dev nD).tc : Thread nD τ).loc main_arg4))
      (m (((0 : Dev nD).tc : Thread nD τ).loc main_arg2)) (hcols 0) (15 : Fin 16) 1500000 (by decide)
      slices_S1600000_S100000_1500000 shapeCasts_S100000_S100000x1 rfl ht hw))

end Cert.Value

end
-- ==== Proof.Val.KOuts.lean ====
/-
  Every gather region's output array at its exit boundary (region 1's module and the six batches of its siblings),
  gathered under one import.
-/
import proofs.«421643_j28415503630349_2_alg».proof.Proof.Val.KOut1
import proofs.«421643_j28415503630349_2_alg».proof.Proof.Val.KOuts_2_9
import proofs.«421643_j28415503630349_2_alg».proof.Proof.Val.KOuts_10_17
import proofs.«421643_j28415503630349_2_alg».proof.Proof.Val.KOuts_18_25
import proofs.«421643_j28415503630349_2_alg».proof.Proof.Val.KOuts_26_33
import proofs.«421643_j28415503630349_2_alg».proof.Proof.Val.KOuts_34_41
import proofs.«421643_j28415503630349_2_alg».proof.Proof.Val.KOuts_42_48
-- ==== Proof.Val.KChunks.lean ====
/-
  Each gather region's output array, read at the END of its layer, is one chunk of the weighted rows of the table the
  layer STARTED from: the output is not written between the region's exit and the layer's end, and the table is not
  written between the stretch that makes it and the region's entry.
-/
import proofs.«421643_j28415503630349_2_alg».proof.Proof.KI.Keep
import proofs.«421643_j28415503630349_2_alg».proof.Proof.Val.KOuts

set_option maxRecDepth 16384

noncomputable section

namespace Cert.Value

open Cert.KernelIdeal Cert.KernelIdeal.Gen Cert.KernelIdeal.Hand
open Idealize.ShloMosaic Idealize.ShloMosaic.TcCoe
open Idealize.SL.Sem

variable (m : (ℓ : Loc nD τ sig) → Buf (Elt Ideal) ℓ)
  (hcols : ∀ (c : Dev nD) (e : S1600000.Idx), (m ((c.tc : Thread nD τ).loc main_arg4) e).toNat < 100000)

/-- Region 1: chunk 0 of layer 1. -/
theorem kchunk1 (c : Dev nD) :
    W35 m c main_v8
      = chunkSpec (W4 m c main_v3) (m ((c.tc : Thread nD τ).loc main_arg4)) (m ((c.tc : Thread nD τ).loc main_arg2))
          (hcols c) (0 : Fin 16) :=
  (W35_main_v8 m c).trans (kout1 m hcols c)

/-- Region 2: chunk 1 of layer 1. -/
theorem kchunk2 (c : Dev nD) :
    W35 m c main_v12
      = chunkSpec (W4 m c main_v3) (m ((c.tc : Thread nD τ).loc main_arg4)) (m ((c.tc : Thread nD τ).loc main_arg2))
          (hcols c) (1 : Fin 16) :=
  (W35_main_v12 m c).trans ((kout2 m hcols c).trans (congrArg (fun x => chunkSpec x (m ((c.tc : Thread nD τ).loc main_arg4)) (m ((c.tc : Thread nD τ).loc main_arg2)) (hcols c) (1 : Fin 16)) (W6_main_v3 m c)))

/-- Region 3: chunk 2 of layer 1. -/
theorem kchunk3 (c : Dev nD) :
    W35 m c main_v16
      = chunkSpec (W4 m c main_v3) (m ((c.tc : Thread nD τ).loc main_arg4)) (m ((c.tc : Thread nD τ).loc main_arg2))
          (hcols c) (2 : Fin 16) :=
  (W35_main_v16 m c).trans ((kout3 m hcols c).trans (congrArg (fun x => chunkSpec x (m ((c.tc : Thread nD τ).loc main_arg4)) (m ((c.tc : Thread nD τ).loc main_arg2)) (hcols c) (2 : Fin 16)) (W8_main_v3 m c)))

/-- Region 4: chunk 3 of layer 1. -/
theorem kchunk4 (c : Dev nD) :
    W35 m c main_v20
      = chunkSpec (W4 m c main_v3) (m ((c.tc : Thread nD τ).loc main_arg4)) (m ((c.tc : Thread nD τ).loc main_arg2))
          (hcols c) (3 : Fin 16) :=
  (W35_main_v20 m c).trans ((kout4 m hcols c).trans (congrArg (fun x => chunkSpec x (m ((c.tc : Thread nD τ).loc main_arg4)) (m ((c.tc : Thread nD τ).loc main_arg2)) (hcols c) (3 : Fin 16)) (W10_main_v3 m c)))

/-- Region 5: chunk 4 of layer 1. -/
theorem kchunk5 (c : Dev nD) :
    W35 m c main_v24
      = chunkSpec (W4 m c main_v3) (m ((c.tc : Thread nD τ).loc main_arg4)) (m ((c.tc : Thread nD τ).loc main_arg2))
          (hcols c) (4 : Fin 16) :=
  (W35_main_v24 m c).trans ((kout5 m hcols c).trans (congrArg (fun x => chunkSpec x (m ((c.tc : Thread nD τ).loc main_arg4)) (m ((c.tc : Thread nD τ).loc main_arg2)) (hcols c) (4 : Fin 16)) (W12_main_v3 m c)))

/-- Region 6: chunk 5 of layer 1. -/
theorem kchunk6 (c : Dev nD) :
    W35 m c main_v28
      = chunkSpec (W4 m c main_v3) (m ((c.tc : Thread nD τ).loc main_arg4)) (m ((c.tc : Thread nD τ).loc main_arg2))
          (hcols c) (5 : Fin 16) :=
  (W35_main_v28 m c).trans ((kout6 m hcols c).trans (congrArg (fun x => chunkSpec x (m ((c.tc : Thread nD τ).loc main_arg4)) (m ((c.tc : Thread nD τ).loc main_arg2)) (hcols c) (5 : Fin 16)) (W14_main_v3 m c)))

/-- Region 7: chunk 6 of layer 1. -/
theorem kchunk7 (c : Dev nD) :
    W35 m c main_v32
      = chunkSpec (W4 m c main_v3) (m ((c.tc : Thread nD τ).loc main_arg4)) (m ((c.tc : Thread nD τ).loc main_arg2))
          (hcols c) (6 : Fin 16) :=
  (W35_main_v32 m c).trans ((kout7 m hcols c).trans (congrArg (fun x => chunkSpec x (m ((c.tc : Thread nD τ).loc main_arg4)) (m ((c.tc : Thread nD τ).loc main_arg2)) (hcols c) (6 : Fin 16)) (W16_main_v3 m c)))

/-- Region 8: chunk 7 of layer 1. -/
theorem kchunk8 (c : Dev nD) :
    W35 m c main_v36
      = chunkSpec (W4 m c main_v3) (m ((c.tc : Thread nD τ).loc main_arg4)) (m ((c.tc : Thread nD τ).loc main_arg2))
          (hcols c) (7 : Fin 16) :=
  (W35_main_v36 m c).trans ((kout8 m hcols c).trans (congrArg (fun x => chunkSpec x (m ((c.tc : Thread nD τ).loc main_arg4)) (m ((c.tc : Thread nD τ).loc main_arg2)) (hcols c) (7 : Fin 16)) (W18_main_v3 m c)))

/-- Region 9: chunk 8 of layer 1. -/
theorem kchunk9 (c : Dev nD) :
    W35 m c main_v40
      = chunkSpec (W4 m c main_v3) (m ((c.tc : Thread nD τ).loc main_arg4)) (m ((c.tc : Thread nD τ).loc main_arg2))
          (hcols c) (8 : Fin 16) :=
  (W35_main_v40 m c).trans ((kout9 m hcols c).trans (congrArg (fun x => chunkSpec x (m ((c.tc : Thread nD τ).loc main_arg4)) (m ((c.tc : Thread nD τ).loc main_arg2)) (hcols c) (8 : Fin 16)) (W20_main_v3 m c)))

/-- Region 10: chunk 9 of layer 1. -/
theorem kchunk10 (c : Dev nD) :
    W35 m c main_v44
      = chunkSpec (W4 m c main_v3) (m ((c.tc : Thread nD τ).loc main_arg4)) (m ((c.tc : Thread nD τ).loc main_arg2))
          (hcols c) (9 : Fin 16) :=
  (W35_main_v44 m c).trans ((kout10 m hcols c).trans (congrArg (fun x => chunkSpec x (m ((c.tc : Thread nD τ).loc main_arg4)) (m ((c.tc : Thread nD τ).loc main_arg2)) (hcols c) (9 : Fin 16)) (W22_main_v3 m c)))

/-- Region 11: chunk 10 of layer 1. -/
theorem kchunk11 (c : Dev nD) :
    W35 m c main_v48
      = chunkSpec (W4 m c main_v3) (m ((c.tc : Thread nD τ).loc main_arg4)) (m ((c.tc : Thread nD τ).loc main_arg2))
          (hcols c) (10 : Fin 16) :=
  (W35_main_v48 m c).trans ((kout11 m hcols c).trans (congrArg (fun x => chunkSpec x (m ((c.tc : Thread nD τ).loc main_arg4)) (m ((c.tc : Thread nD τ).loc main_arg2)) (hcols c) (10 : Fin 16)) (W24_main_v3 m c)))

/-- Region 12: chunk 11 of layer 1. -/
theorem kchunk12 (c : Dev nD) :
    W35 m c main_v52
      = chunkSpec (W4 m c main_v3) (m ((c.tc : Thread nD τ).loc main_arg4)) (m ((c.tc : Thread nD τ).loc main_arg2))
          (hcols c) (11 : Fin 16) :=
  (W35_main_v52 m c).trans ((kout12 m hcols c).trans (congrArg (fun x => chunkSpec x (m ((c.tc : Thread nD τ).loc main_arg4)) (m ((c.tc : Thread nD τ).loc main_arg2)) (hcols c) (11 : Fin 16)) (W26_main_v3 m c)))

/-- Region 13: chunk 12 of layer 1. -/
theorem kchunk13 (c : Dev nD) :
    W35 m c main_v56
      = chunkSpec (W4 m c main_v3) (m ((c.tc : Thread nD τ).loc main_arg4)) (m ((c.tc : Thread nD τ).loc main_arg2))
          (hcols c) (12 : Fin 16) :=
  (W35_main_v56 m c).trans ((kout13 m hcols c).trans (congrArg (fun x => chunkSpec x (m ((c.tc : Thread nD τ).loc main_arg4)) (m ((c.tc : Thread nD τ).loc main_arg2)) (hcols c) (12 : Fin 16)) (W28_main_v3 m c)))

/-- Region 14: chunk 13 of layer 1. -/
theorem kchunk14 (c : Dev nD) :
    W35 m c main_v60
      = chunkSpec (W4 m c main_v3) (m ((c.tc : Thread nD τ).loc main_arg4)) (m ((c.tc : Thread nD τ).loc main_arg2))
          (hcols c) (13 : Fin 16) :=
  (W35_main_v60 m c).trans ((kout14 m hcols c).trans (congrArg (fun x => chunkSpec x (m ((c.tc : Thread nD τ).loc main_arg4)) (m ((c.tc : Thread nD τ).loc main_arg2)) (hcols c) (13 : Fin 16)) (W30_main_v3 m c)))

/-- Region 15: chunk 14 of layer 1. -/
theorem kchunk15 (c : Dev nD) :
    W35 m c main_v64
      = chunkSpec (W4 m c main_v3) (m ((c.tc : Thread nD τ).loc main_arg4)) (m ((c.tc : Thread nD τ).loc main_arg2))
          (hcols c) (14 : Fin 16) :=
  (W35_main_v64 m c).trans ((kout15 m hcols c).trans (congrArg (fun x => chunkSpec x (m ((c.tc : Thread nD τ).loc main_arg4)) (m ((c.tc : Thread nD τ).loc main_arg2)) (hcols c) (14 : Fin 16)) (W32_main_v3 m c)))

/-- Region 16: chunk 15 of layer 1. -/
theorem kchunk16 (c : Dev nD) :
    W35 m c main_v68
      = chunkSpec (W4 m c main_v3) (m ((c.tc : Thread nD τ).loc main_arg4)) (m ((c.tc : Thread nD τ).loc main_arg2))
          (hcols c) (15 : Fin 16) :=
  (kout16 m hcols c).trans (congrArg (fun x => chunkSpec x (m ((c.tc : Thread nD τ).loc main_arg4)) (m ((c.tc : Thread nD τ).loc main_arg2)) (hcols c) (15 : Fin 16)) (W34_main_v3 m c))

/-- Region 17: chunk 0 of layer 2. -/
theorem kchunk17 (c : Dev nD) :
    W67 m c main_v77
      = chunkSpec (W36 m c main_v72) (m ((c.tc : Thread nD τ).loc main_arg4)) (m ((c.tc : Thread nD τ).loc main_arg2))
          (hcols c) (0 : Fin 16) :=
  (W67_main_v77 m c).trans (kout17 m hcols c)

/-- Region 18: chunk 1 of layer 2. -/
theorem kchunk18 (c : Dev nD) :
    W67 m c main_v81
      = chunkSpec (W36 m c main_v72) (m ((c.tc : Thread nD τ).loc main_arg4)) (m ((c.tc : Thread nD τ).loc main_arg2))
          (hcols c) (1 : Fin 16) :=
  (W67_main_v81 m c).trans ((kout18 m hcols c).trans (congrArg (fun x => chunkSpec x (m ((c.tc : Thread nD τ).loc main_arg4)) (m ((c.tc : Thread nD τ).loc main_arg2)) (hcols c) (1 : Fin 16)) (W38_main_v72 m c)))

/-- Region 19: chunk 2 of layer 2. -/
theorem kchunk19 (c : Dev nD) :
    W67 m c main_v85
      = chunkSpec (W36 m c main_v72) (m ((c.tc : Thread nD τ).loc main_arg4)) (m ((c.tc : Thread nD τ).loc main_arg2))
          (hcols c) (2 : Fin 16) :=
  (W67_main_v85 m c).trans ((kout19 m hcols c).trans (congrArg (fun x => chunkSpec x (m ((c.tc : Thread nD τ).loc main_arg4)) (m ((c.tc : Thread nD τ).loc main_arg2)) (hcols c) (2 : Fin 16)) (W40_main_v72 m c)))

/-- Region 20: chunk 3 of layer 2. -/
theorem kchunk20 (c : Dev nD) :
    W67 m c main_v89
      = chunkSpec (W36 m c main_v72) (m ((c.tc : Thread nD τ).loc main_arg4)) (m ((c.tc : Thread nD τ).loc main_arg2))
          (hcols c) (3 : Fin 16) :=
  (W67_main_v89 m c).trans ((kout20 m hcols c).trans (congrArg (fun x => chunkSpec x (m ((c.tc : Thread nD τ).loc main_arg4)) (m ((c.tc : Thread nD τ).loc main_arg2)) (hcols c) (3 : Fin 16)) (W42_main_v72 m c)))

/-- Region 21: chunk 4 of layer 2. -/
theorem kchunk21 (c : Dev nD) :
    W67 m c main_v93
      = chunkSpec (W36 m c main_v72) (m ((c.tc : Thread nD τ).loc main_arg4)) (m ((c.tc : Thread nD τ).loc main_arg2))
          (hcols c) (4 : Fin 16) :=
  (W67_main_v93 m c).trans ((kout21 m hcols c).trans (congrArg (fun x => chunkSpec x (m ((c.tc : Thread nD τ).loc main_arg4)) (m ((c.tc : Thread nD τ).loc main_arg2)) (hcols c) (4 : Fin 16)) (W44_main_v72 m c)))

/-- Region 22: chunk 5 of layer 2. -/
theorem kchunk22 (c : Dev nD) :
    W67 m c main_v97
      = chunkSpec (W36 m c main_v72) (m ((c.tc : Thread nD τ).loc main_arg4)) (m ((c.tc : Thread nD τ).loc main_arg2))
          (hcols c) (5 : Fin 16) :=
  (W67_main_v97 m c).trans ((kout22 m hcols c).trans (congrArg (fun x => chunkSpec x (m ((c.tc : Thread nD τ).loc main_arg4)) (m ((c.tc : Thread nD τ).loc main_arg2)) (hcols c) (5 : Fin 16)) (W46_main_v72 m c)))

/-- Region 23: chunk 6 of layer 2. -/
theorem kchunk23 (c : Dev nD) :
    W67 m c main_v101
      = chunkSpec (W36 m c main_v72) (m ((c.tc : Thread nD τ).loc main_arg4)) (m ((c.tc : Thread nD τ).loc main_arg2))
          (hcols c) (6 : Fin 16) :=
  (W67_main_v101 m c).trans ((kout23 m hcols c).trans (congrArg (fun x => chunkSpec x (m ((c.tc : Thread nD τ).loc main_arg4)) (m ((c.tc : Thread nD τ).loc main_arg2)) (hcols c) (6 : Fin 16)) (W48_main_v72 m c)))

/-- Region 24: chunk 7 of layer 2. -/
theorem kchunk24 (c : Dev nD) :
    W67 m c main_v105
      = chunkSpec (W36 m c main_v72) (m ((c.tc : Thread nD τ).loc main_arg4)) (m ((c.tc : Thread nD τ).loc main_arg2))
          (hcols c) (7 : Fin 16) :=
  (W67_main_v105 m c).trans ((kout24 m hcols c).trans (congrArg (fun x => chunkSpec x (m ((c.tc : Thread nD τ).loc main_arg4)) (m ((c.tc : Thread nD τ).loc main_arg2)) (hcols c) (7 : Fin 16)) (W50_main_v72 m c)))

/-- Region 25: chunk 8 of layer 2. -/
theorem kchunk25 (c : Dev nD) :
    W67 m c main_v109
      = chunkSpec (W36 m c main_v72) (m ((c.tc : Thread nD τ).loc main_arg4)) (m ((c.tc : Thread nD τ).loc main_arg2))
          (hcols c) (8 : Fin 16) :=
  (W67_main_v109 m c).trans ((kout25 m hcols c).trans (congrArg (fun x => chunkSpec x (m ((c.tc : Thread nD τ).loc main_arg4)) (m ((c.tc : Thread nD τ).loc main_arg2)) (hcols c) (8 : Fin 16)) (W52_main_v72 m c)))

/-- Region 26: chunk 9 of layer 2. -/
theorem kchunk26 (c : Dev nD) :
    W67 m c main_v113
      = chunkSpec (W36 m c main_v72) (m ((c.tc : Thread nD τ).loc main_arg4)) (m ((c.tc : Thread nD τ).loc main_arg2))
          (hcols c) (9 : Fin 16) :=
  (W67_main_v113 m c).trans ((kout26 m hcols c).trans (congrArg (fun x => chunkSpec x (m ((c.tc : Thread nD τ).loc main_arg4)) (m ((c.tc : Thread nD τ).loc main_arg2)) (hcols c) (9 : Fin 16)) (W54_main_v72 m c)))

/-- Region 27: chunk 10 of layer 2. -/
theorem kchunk27 (c : Dev nD) :
    W67 m c main_v117
      = chunkSpec (W36 m c main_v72) (m ((c.tc : Thread nD τ).loc main_arg4)) (m ((c.tc : Thread nD τ).loc main_arg2))
          (hcols c) (10 : Fin 16) :=
  (W67_main_v117 m c).trans ((kout27 m hcols c).trans (congrArg (fun x => chunkSpec x (m ((c.tc : Thread nD τ).loc main_arg4)) (m ((c.tc : Thread nD τ).loc main_arg2)) (hcols c) (10 : Fin 16)) (W56_main_v72 m c)))

/-- Region 28: chunk 11 of layer 2. -/
theorem kchunk28 (c : Dev nD) :
    W67 m c main_v121
      = chunkSpec (W36 m c main_v72) (m ((c.tc : Thread nD τ).loc main_arg4)) (m ((c.tc : Thread nD τ).loc main_arg2))
          (hcols c) (11 : Fin 16) :=
  (W67_main_v121 m c).trans ((kout28 m hcols c).trans (congrArg (fun x => chunkSpec x (m ((c.tc : Thread nD τ).loc main_arg4)) (m ((c.tc : Thread nD τ).loc main_arg2)) (hcols c) (11 : Fin 16)) (W58_main_v72 m c)))

/-- Region 29: chunk 12 of layer 2. -/
theorem kchunk29 (c : Dev nD) :
    W67 m c main_v125
      = chunkSpec (W36 m c main_v72) (m ((c.tc : Thread nD τ).loc main_arg4)) (m ((c.tc : Thread nD τ).loc main_arg2))
          (hcols c) (12 : Fin 16) :=
  (W67_main_v125 m c).trans ((kout29 m hcols c).trans (congrArg (fun x => chunkSpec x (m ((c.tc : Thread nD τ).loc main_arg4)) (m ((c.tc : Thread nD τ).loc main_arg2)) (hcols c) (12 : Fin 16)) (W60_main_v72 m c)))

/-- Region 30: chunk 13 of layer 2. -/
theorem kchunk30 (c : Dev nD) :
    W67 m c main_v129
      = chunkSpec (W36 m c main_v72) (m ((c.tc : Thread nD τ).loc main_arg4)) (m ((c.tc : Thread nD τ).loc main_arg2))
          (hcols c) (13 : Fin 16) :=
  (W67_main_v129 m c).trans ((kout30 m hcols c).trans (congrArg (fun x => chunkSpec x (m ((c.tc : Thread nD τ).loc main_arg4)) (m ((c.tc : Thread nD τ).loc main_arg2)) (hcols c) (13 : Fin 16)) (W62_main_v72 m c)))

/-- Region 31: chunk 14 of layer 2. -/
theorem kchunk31 (c : Dev nD) :
    W67 m c main_v133
      = chunkSpec (W36 m c main_v72) (m ((c.tc : Thread nD τ).loc main_arg4)) (m ((c.tc : Thread nD τ).loc main_arg2))
          (hcols c) (14 : Fin 16) :=
  (W67_main_v133 m c).trans ((kout31 m hcols c).trans (congrArg (fun x => chunkSpec x (m ((c.tc : Thread nD τ).loc main_arg4)) (m ((c.tc : Thread nD τ).loc main_arg2)) (hcols c) (14 : Fin 16)) (W64_main_v72 m c)))

/-- Region 32: chunk 15 of layer 2. -/
theorem kchunk32 (c : Dev nD) :
    W67 m c main_v137
      = chunkSpec (W36 m c main_v72) (m ((c.tc : Thread nD τ).loc main_arg4)) (m ((c.tc : Thread nD τ).loc main_arg2))
          (hcols c) (15 : Fin 16) :=
  (kout32 m hcols c).trans (congrArg (fun x => chunkSpec x (m ((c.tc : Thread nD τ).loc main_arg4)) (m ((c.tc : Thread nD τ).loc main_arg2)) (hcols c) (15 : Fin 16)) (W66_main_v72 m c))

/-- Region 33: chunk 0 of layer 3. -/
theorem kchunk33 (c : Dev nD) :
    W99 m c main_v146
      = chunkSpec (W68 m c main_v141) (m ((c.tc : Thread nD τ).loc main_arg4)) (m ((c.tc : Thread nD τ).loc main_arg2))
          (hcols c) (0 : Fin 16) :=
  (W99_main_v146 m c).trans (kout33 m hcols c)

/-- Region 34: chunk 1 of layer 3. -/
theorem kchunk34 (c : Dev nD) :
    W99 m c main_v150
      = chunkSpec (W68 m c main_v141) (m ((c.tc : Thread nD τ).loc main_arg4)) (m ((c.tc : Thread nD τ).loc main_arg2))
          (hcols c) (1 : Fin 16) :=
  (W99_main_v150 m c).trans ((kout34 m hcols c).trans (congrArg (fun x => chunkSpec x (m ((c.tc : Thread nD τ).loc main_arg4)) (m ((c.tc : Thread nD τ).loc main_arg2)) (hcols c) (1 : Fin 16)) (W70_main_v141 m c)))

/-- Region 35: chunk 2 of layer 3. -/
theorem kchunk35 (c : Dev nD) :
    W99 m c main_v154
      = chunkSpec (W68 m c main_v141) (m ((c.tc : Thread nD τ).loc main_arg4)) (m ((c.tc : Thread nD τ).loc main_arg2))
          (hcols c) (2 : Fin 16) :=
  (W99_main_v154 m c).trans ((kout35 m hcols c).trans (congrArg (fun x => chunkSpec x (m ((c.tc : Thread nD τ).loc main_arg4)) (m ((c.tc : Thread nD τ).loc main_arg2)) (hcols c) (2 : Fin 16)) (W72_main_v141 m c)))

/-- Region 36: chunk 3 of layer 3. -/
theorem kchunk36 (c : Dev nD) :
    W99 m c main_v158
      = chunkSpec (W68 m c main_v141) (m ((c.tc : Thread nD τ).loc main_arg4)) (m ((c.tc : Thread nD τ).loc main_arg2))
          (hcols c) (3 : Fin 16) :=
  (W99_main_v158 m c).trans ((kout36 m hcols c).trans (congrArg (fun x => chunkSpec x (m ((c.tc : Thread nD τ).loc main_arg4)) (m ((c.tc : Thread nD τ).loc main_arg2)) (hcols c) (3 : Fin 16)) (W74_main_v141 m c)))

/-- Region 37: chunk 4 of layer 3. -/
theorem kchunk37 (c : Dev nD) :
    W99 m c main_v162
      = chunkSpec (W68 m c main_v141) (m ((c.tc : Thread nD τ).loc main_arg4)) (m ((c.tc : Thread nD τ).loc main_arg2))
          (hcols c) (4 : Fin 16) :=
  (W99_main_v162 m c).trans ((kout37 m hcols c).trans (congrArg (fun x => chunkSpec x (m ((c.tc : Thread nD τ).loc main_arg4)) (m ((c.tc : Thread nD τ).loc main_arg2)) (hcols c) (4 : Fin 16)) (W76_main_v141 m c)))

/-- Region 38: chunk 5 of layer 3. -/
theorem kchunk38 (c : Dev nD) :
    W99 m c main_v166
      = chunkSpec (W68 m c main_v141) (m ((c.tc : Thread nD τ).loc main_arg4)) (m ((c.tc : Thread nD τ).loc main_arg2))
          (hcols c) (5 : Fin 16) :=
  (W99_main_v166 m c).trans ((kout38 m hcols c).trans (congrArg (fun x => chunkSpec x (m ((c.tc : Thread nD τ).loc main_arg4)) (m ((c.tc : Thread nD τ).loc main_arg2)) (hcols c) (5 : Fin 16)) (W78_main_v141 m c)))

/-- Region 39: chunk 6 of layer 3. -/
theorem kchunk39 (c : Dev nD) :
    W99 m c main_v170
      = chunkSpec (W68 m c main_v141) (m ((c.tc : Thread nD τ).loc main_arg4)) (m ((c.tc : Thread nD τ).loc main_arg2))
          (hcols c) (6 : Fin 16) :=
  (W99_main_v170 m c).trans ((kout39 m hcols c).trans (congrArg (fun x => chunkSpec x (m ((c.tc : Thread nD τ).loc main_arg4)) (m ((c.tc : Thread nD τ).loc main_arg2)) (hcols c) (6 : Fin 16)) (W80_main_v141 m c)))

/-- Region 40: chunk 7 of layer 3. -/
theorem kchunk40 (c : Dev nD) :
    W99 m c main_v174
      = chunkSpec (W68 m c main_v141) (m ((c.tc : Thread nD τ).loc main_arg4)) (m ((c.tc : Thread nD τ).loc main_arg2))
          (hcols c) (7 : Fin 16) :=
  (W99_main_v174 m c).trans ((kout40 m hcols c).trans (congrArg (fun x => chunkSpec x (m ((c.tc : Thread nD τ).loc main_arg4)) (m ((c.tc : Thread nD τ).loc main_arg2)) (hcols c) (7 : Fin 16)) (W82_main_v141 m c)))

/-- Region 41: chunk 8 of layer 3. -/
theorem kchunk41 (c : Dev nD) :
    W99 m c main_v178
      = chunkSpec (W68 m c main_v141) (m ((c.tc : Thread nD τ).loc main_arg4)) (m ((c.tc : Thread nD τ).loc main_arg2))
          (hcols c) (8 : Fin 16) :=
  (W99_main_v178 m c).trans ((kout41 m hcols c).trans (congrArg (fun x => chunkSpec x (m ((c.tc : Thread nD τ).loc main_arg4)) (m ((c.tc : Thread nD τ).loc main_arg2)) (hcols c) (8 : Fin 16)) (W84_main_v141 m c)))

/-- Region 42: chunk 9 of layer 3. -/
theorem kchunk42 (c : Dev nD) :
    W99 m c main_v182
      = chunkSpec (W68 m c main_v141) (m ((c.tc : Thread nD τ).loc main_arg4)) (m ((c.tc : Thread nD τ).loc main_arg2))
          (hcols c) (9 : Fin 16) :=
  (W99_main_v182 m c).trans ((kout42 m hcols c).trans (congrArg (fun x => chunkSpec x (m ((c.tc : Thread nD τ).loc main_arg4)) (m ((c.tc : Thread nD τ).loc main_arg2)) (hcols c) (9 : Fin 16)) (W86_main_v141 m c)))

/-- Region 43: chunk 10 of layer 3. -/
theorem kchunk43 (c : Dev nD) :
    W99 m c main_v186
      = chunkSpec (W68 m c main_v141) (m ((c.tc : Thread nD τ).loc main_arg4)) (m ((c.tc : Thread nD τ).loc main_arg2))
          (hcols c) (10 : Fin 16) :=
  (W99_main_v186 m c).trans ((kout43 m hcols c).trans (congrArg (fun x => chunkSpec x (m ((c.tc : Thread nD τ).loc main_arg4)) (m ((c.tc : Thread nD τ).loc main_arg2)) (hcols c) (10 : Fin 16)) (W88_main_v141 m c)))

/-- Region 44: chunk 11 of layer 3. -/
theorem kchunk44 (c : Dev nD) :
    W99 m c main_v190
      = chunkSpec (W68 m c main_v141) (m ((c.tc : Thread nD τ).loc main_arg4)) (m ((c.tc : Thread nD τ).loc main_arg2))
          (hcols c) (11 : Fin 16) :=
  (W99_main_v190 m c).trans ((kout44 m hcols c).trans (congrArg (fun x => chunkSpec x (m ((c.tc : Thread nD τ).loc main_arg4)) (m ((c.tc : Thread nD τ).loc main_arg2)) (hcols c) (11 : Fin 16)) (W90_main_v141 m c)))

/-- Region 45: chunk 12 of layer 3. -/
theorem kchunk45 (c : Dev nD) :
    W99 m c main_v194
      = chunkSpec (W68 m c main_v141) (m ((c.tc : Thread nD τ).loc main_arg4)) (m ((c.tc : Thread nD τ).loc main_arg2))
          (hcols c) (12 : Fin 16) :=
  (W99_main_v194 m c).trans ((kout45 m hcols c).trans (congrArg (fun x => chunkSpec x (m ((c.tc : Thread nD τ).loc main_arg4)) (m ((c.tc : Thread nD τ).loc main_arg2)) (hcols c) (12 : Fin 16)) (W92_main_v141 m c)))

/-- Region 46: chunk 13 of layer 3. -/
theorem kchunk46 (c : Dev nD) :
    W99 m c main_v198
      = chunkSpec (W68 m c main_v141) (m ((c.tc : Thread nD τ).loc main_arg4)) (m ((c.tc : Thread nD τ).loc main_arg2))
          (hcols c) (13 : Fin 16) :=
  (W99_main_v198 m c).trans ((kout46 m hcols c).trans (congrArg (fun x => chunkSpec x (m ((c.tc : Thread nD τ).loc main_arg4)) (m ((c.tc : Thread nD τ).loc main_arg2)) (hcols c) (13 : Fin 16)) (W94_main_v141 m c)))

/-- Region 47: chunk 14 of layer 3. -/
theorem kchunk47 (c : Dev nD) :
    W99 m c main_v202
      = chunkSpec (W68 m c main_v141) (m ((c.tc : Thread nD τ).loc main_arg4)) (m ((c.tc : Thread nD τ).loc main_arg2))
          (hcols c) (14 : Fin 16) :=
  (W99_main_v202 m c).trans ((kout47 m hcols c).trans (congrArg (fun x => chunkSpec x (m ((c.tc : Thread nD τ).loc main_arg4)) (m ((c.tc : Thread nD τ).loc main_arg2)) (hcols c) (14 : Fin 16)) (W96_main_v141 m c)))

/-- Region 48: chunk 15 of layer 3. -/
theorem kchunk48 (c : Dev nD) :
    W99 m c main_v206
      = chunkSpec (W68 m c main_v141) (m ((c.tc : Thread nD τ).loc main_arg4)) (m ((c.tc : Thread nD τ).loc main_arg2))
          (hcols c) (15 : Fin 16) :=
  (kout48 m hcols c).trans (congrArg (fun x => chunkSpec x (m ((c.tc : Thread nD τ).loc main_arg4)) (m ((c.tc : Thread nD τ).loc main_arg2)) (hcols c) (15 : Fin 16)) (W98_main_v141 m c))

end Cert.Value

end
-- ==== Proof.Val.LayerSpec.lean ====
import proofs.«421643_j28415503630349_2_alg».proof.Proof.Val.GatherSpec

/-!
# The host steps around the weighted rows, and the results

Each propagation layer takes the 1600000 weighted rows and sums them into 100000 rows by the row numbers `rows`
(a scatter-add of the weighted rows into an array of zeros, the row numbers given as a column): that sum is the next
table (`layerStep`), and it is added to the running total (`accum`), which starts at zero (`light0`). After three
layers the total is cut into its first 40000 rows (users) and its last 60000 rows (items); the results are the user rows
at the numbers `user`, the item rows at the numbers `pos` — each number with the table's height added where it is
negative — and the item rows themselves (`tail3`). Both programs write exactly these terms; the scatter-add and the
row gathers are left as the library's operations and never opened here.

Every side condition the operations take (a broadcast's, a slice's, a dimension record's well-formedness) is a
proposition, collected in `GlueFacts`; any two proofs of it give the same terms.
-/

noncomputable section

namespace Cert.Value

open Idealize.ShloMosaic Idealize.ShloMosaic.ValueIdx

/-! ## The shapes -/

/-- The user rows: 40000 rows of 64. -/
abbrev T40000x64 : Shape := ⟨2, ![40000, 64]⟩
/-- The item rows: 60000 rows of 64. -/
abbrev T60000x64 : Shape := ⟨2, ![60000, 64]⟩
/-- A list of 4096 row numbers. -/
abbrev T4096 : Shape := ⟨1, ![4096]⟩
/-- The same list as a column. -/
abbrev T4096x1 : Shape := ⟨2, ![4096, 1]⟩
/-- 4096 gathered rows of 64. -/
abbrev T4096x64 : Shape := ⟨2, ![4096, 64]⟩

/-! ## The side conditions -/

/-- The side conditions of the host steps, as each program states them of its own shapes. -/
structure GlueFacts : Prop where
  bcast_zero : T_.BroadcastsInDim T100000x64 (![] : Fin 0 → Fin T100000x64.rank)
  bcast_rows : T1600000.BroadcastsInDim T1600000x1 (![0] : Fin 1 → Fin T1600000x1.rank)
  seg_wf : ScatterDims.WF T100000x64 T1600000x1 T1600000x64 [1] [0] [0] 1
  slices_users : T100000x64.Slices ![0, 0] T40000x64
  slices_items : T100000x64.Slices ![40000, 0] T60000x64
  bcast_num : T_.BroadcastsInDim T4096 (![] : Fin 0 → Fin T4096.rank)
  bcast_col : T4096.BroadcastsInDim T4096x1 (![0] : Fin 1 → Fin T4096x1.rank)
  users_wf : GatherDims.WF T40000x64 T4096x1 T4096x64 [1] [0] [] [0] [] 1 ![1, 64]
  items_wf : GatherDims.WF T60000x64 T4096x1 T4096x64 [1] [0] [] [0] [] 1 ![1, 64]

/-- The dimension numbers of the sum by row numbers: updates `[E, C]` go, row by row, to the row of the `[N, C]`
    operand that the `[E, 1]` index column names; the column axis is the window axis. -/
abbrev segDims (wf : ScatterDims.WF T100000x64 T1600000x1 T1600000x64 [1] [0] [0] 1) :
    ScatterDims T100000x64 T1600000x1 T1600000x64 where
  updateWindowDims := [1]
  insertedWindowDims := [0]
  scatterDimsToOperandDims := [0]
  indexVectorDim := 1
  wf := wf

variable (G : GlueFacts)

/-! ## One layer -/

/-- The array of zeros the sums start from; also the running total before the first layer. -/
def light0 : FVec Ideal T100000x64 .f32 :=
  broadcastInDim T100000x64 ![] G.bcast_zero (constant T_ .f32 0x00000000#32)

/-- The next table: the weighted rows summed by their row numbers into an array of zeros. -/
def layerStep (weighted : FVec Ideal T1600000x64 .f32) (rows : IVec T1600000 32) : FVec Ideal T100000x64 .f32 :=
  Host.scatterAdd (segDims G.seg_wf)
    (broadcastInDim T100000x64 ![] G.bcast_zero (constant T_ .f32 0x00000000#32))
    (broadcastInDim T1600000x1 ![0] G.bcast_rows rows) weighted

/-- The running total after a layer: the total so far plus the layer's table. -/
def accum (light x : FVec Ideal T100000x64 .f32) : FVec Ideal T100000x64 .f32 := addf light x

/-! ## The results -/

/-- The first 40000 rows of the total. -/
def usersOf (light : FVec Ideal T100000x64 .f32) : FVec Ideal T40000x64 .f32 :=
  extractStridedSlice T40000x64 ![0, 0] light G.slices_users

/-- The last 60000 rows of the total. -/
def itemsOf (light : FVec Ideal T100000x64 .f32) : FVec Ideal T60000x64 .f32 :=
  extractStridedSlice T60000x64 ![40000, 0] light G.slices_items

/-- 4096 row numbers, each with `n` added where it is negative, as a column. -/
def numCol (n : BitVec 32) (idx : IVec T4096 32) : IVec T4096x1 32 :=
  broadcastInDim T4096x1 ![0] G.bcast_col
    (select (cmpi .slt idx (broadcastInDim T4096 ![] G.bcast_num (constantI T_ 32 0#32)))
      (addi idx (broadcastInDim T4096 ![] G.bcast_num (constantI T_ 32 n))) idx)

/-- The three results: the user rows at `user`, the item rows at `pos`, the item rows. -/
def tail3 (light : FVec Ideal T100000x64 .f32) (user pos : IVec T4096 32) :
    FVec Ideal T4096x64 .f32 × FVec Ideal T4096x64 .f32 × FVec Ideal T60000x64 .f32 :=
  (Host.gather (rowDims 40000 4096 64 G.users_wf) (usersOf G light) (numCol G 40000#32 user),
   Host.gather (rowDims 60000 4096 64 G.items_wf) (itemsOf G light) (numCol G 60000#32 pos),
   itemsOf G light)

/-! ## Three layers -/

/-- The whole host side over an unspecified way `W` of making the weighted rows from a table: three layers from the
    table `x0`, then the results. -/
def forward3 (W : FVec Ideal T100000x64 .f32 → FVec Ideal T1600000x64 .f32) (x0 : FVec Ideal T100000x64 .f32)
    (rows : IVec T1600000 32) (user pos : IVec T4096 32) :
    FVec Ideal T4096x64 .f32 × FVec Ideal T4096x64 .f32 × FVec Ideal T60000x64 .f32 :=
  let x1 := layerStep G (W x0) rows
  let x2 := layerStep G (W x1) rows
  let x3 := layerStep G (W x2) rows
  tail3 G (accum (accum (accum (light0 G) x1) x2) x3) user pos

/-- Any two proofs of the side conditions give the same terms. -/
theorem glue_irrel (G G' : GlueFacts) : G = G' := rfl

end Cert.Value

end
-- ==== Proof.Val.GlueK.lean ====
import proofs.«421643_j28415503630349_2_alg».proof.Proof.Gen.KernelIdeal
import proofs.«421643_j28415503630349_2_alg».proof.Proof.Val.LayerSpec

/-! # The host steps' side conditions, of this program's shapes

The broadcasts', the slices', the scatter's and the two gathers' side conditions, each decided of the program's own
shape names; collected so that the host side's terms can be written once over them. -/

noncomputable section

namespace Cert.Value

open Cert.KernelIdeal Cert.KernelIdeal.Gen
open Idealize.ShloMosaic

/-- The side conditions of the host steps, as this program states them of its shapes. -/
theorem GK : GlueFacts :=
  ⟨bcast_S_S100000x64, bcast_S1600000_S1600000x1_0, scatter_S100000x64_S1600000x1_S1600000x64_1_0_0_1_wf,
   slices_S100000x64_S40000x64_0_0, slices_S100000x64_S60000x64_40000_0, bcast_S_S4096, bcast_S4096_S4096x1_0,
   gather_S40000x64_S4096x1_S4096x64_1_0_n_n_0_1_164_wf, gather_S60000x64_S4096x1_S4096x64_1_0_n_n_0_1_164_wf⟩

end Cert.Value

end
-- ==== Proof.Val.KLayer.lean ====
/-
  The kernel program's host stretches, read at the values the layer's specification names.

  Between the gather regions the host program lays the sixteen chunk arrays end to end, sums the rows by their row
  numbers into an array of zeros and adds the sum to the running total; after the third layer it cuts the total into
  user rows and item rows and gathers the result rows. Each stretch is read here from ANY contents of the buffers it
  starts from, given what those contents hold at the buffers the stretch reads: the sixteen chunk arrays (each the
  chunk of the weighted rows), the row numbers, the running total, the two lists of result row numbers.
-/
import proofs.«421643_j28415503630349_2_alg».proof.Proof.Gen.KernelIdeal.Launch
import proofs.«421643_j28415503630349_2_alg».proof.Proof.Val.LayerSpec
import proofs.«421643_j28415503630349_2_alg».proof.Proof.Val.Cover
import proofs.«421643_j28415503630349_2_alg».proof.Proof.Val.GatherSpec
import proofs.«421643_j28415503630349_2_alg».proof.Proof.Val.GlueK
import Idealize.ShloMosaic.Lib.StableHlo.Run

noncomputable section

namespace Cert.Value

open Cert.KernelIdeal Cert.KernelIdeal.Gen
open Idealize.ShloMosaic Idealize.ShloMosaic.TcCoe Idealize.ShloMosaic.StableHlo
open Idealize.SL.Sem

/-! ## Sixteen chunks, one by one -/

/-- The sixteen pieces written out as sixteen arrays, each equal to its chunk. -/
theorem weighted_of_chunks16 (x : T100000x64.Idx → EReal) (cols : T1600000.Idx → BitVec 32) (vals : T1600000.Idx → EReal)
    (hcols : ∀ e, (cols e).toNat < 100000)
    (ua ub uc ud ue uf ug uh ui uj uk ul um un uo up : T100000x64.Idx → EReal)
    (ha : ua = chunkSpec x cols vals hcols 0) (hb : ub = chunkSpec x cols vals hcols 1)
    (hc : uc = chunkSpec x cols vals hcols 2) (hd : ud = chunkSpec x cols vals hcols 3)
    (he : ue = chunkSpec x cols vals hcols 4) (hf : uf = chunkSpec x cols vals hcols 5)
    (hg : ug = chunkSpec x cols vals hcols 6) (hh : uh = chunkSpec x cols vals hcols 7)
    (hi : ui = chunkSpec x cols vals hcols 8) (hj : uj = chunkSpec x cols vals hcols 9)
    (hk : uk = chunkSpec x cols vals hcols 10) (hl : ul = chunkSpec x cols vals hcols 11)
    (hm : um = chunkSpec x cols vals hcols 12) (hn : un = chunkSpec x cols vals hcols 13)
    (ho : uo = chunkSpec x cols vals hcols 14) (hp : up = chunkSpec x cols vals hcols 15)
    (hcat : Shape.Concatenates [T100000x64, T100000x64, T100000x64, T100000x64, T100000x64, T100000x64, T100000x64,
      T100000x64, T100000x64, T100000x64, T100000x64, T100000x64, T100000x64, T100000x64, T100000x64, T100000x64]
      T1600000x64 0) :
    concatenate T1600000x64 0 [⟨T100000x64, ua⟩, ⟨T100000x64, ub⟩, ⟨T100000x64, uc⟩, ⟨T100000x64, ud⟩,
      ⟨T100000x64, ue⟩, ⟨T100000x64, uf⟩, ⟨T100000x64, ug⟩, ⟨T100000x64, uh⟩, ⟨T100000x64, ui⟩, ⟨T100000x64, uj⟩,
      ⟨T100000x64, uk⟩, ⟨T100000x64, ul⟩, ⟨T100000x64, um⟩, ⟨T100000x64, un⟩, ⟨T100000x64, uo⟩,
      ⟨T100000x64, up⟩] hcat = weightedSpec x cols vals hcols := by
  subst ha hb hc hd he hf hg hh hi hj hk hl hm hn ho hp
  exact weighted_of_chunks x cols vals hcols (fun k => chunkSpec x cols vals hcols k) (fun _ => rfl) hcat

/-! ## The three layers -/

/-- Layer 1: the sixteen chunk arrays laid end to end are the weighted rows; their sum by row numbers is the next
    table, and the running total takes it. -/
theorem klayer1 (Wb : Valuation τ sig (Elt Ideal)) (x : FVec Ideal S100000x64 .f32) (cols rows : IVec S1600000 32)
    (vals : FVec Ideal S1600000 .f32) (hcols : ∀ e, (cols e).toNat < 100000) (light : FVec Ideal S100000x64 .f32)
    (ha : Wb (Proc.devRef .tc main_v8) = chunkSpec x cols vals hcols 0)
    (hb : Wb (Proc.devRef .tc main_v12) = chunkSpec x cols vals hcols 1)
    (hc : Wb (Proc.devRef .tc main_v16) = chunkSpec x cols vals hcols 2)
    (hd : Wb (Proc.devRef .tc main_v20) = chunkSpec x cols vals hcols 3)
    (he : Wb (Proc.devRef .tc main_v24) = chunkSpec x cols vals hcols 4)
    (hf : Wb (Proc.devRef .tc main_v28) = chunkSpec x cols vals hcols 5)
    (hg : Wb (Proc.devRef .tc main_v32) = chunkSpec x cols vals hcols 6)
    (hh : Wb (Proc.devRef .tc main_v36) = chunkSpec x cols vals hcols 7)
    (hi : Wb (Proc.devRef .tc main_v40) = chunkSpec x cols vals hcols 8)
    (hj : Wb (Proc.devRef .tc main_v44) = chunkSpec x cols vals hcols 9)
    (hk : Wb (Proc.devRef .tc main_v48) = chunkSpec x cols vals hcols 10)
    (hl : Wb (Proc.devRef .tc main_v52) = chunkSpec x cols vals hcols 11)
    (hm : Wb (Proc.devRef .tc main_v56) = chunkSpec x cols vals hcols 12)
    (hn : Wb (Proc.devRef .tc main_v60) = chunkSpec x cols vals hcols 13)
    (ho : Wb (Proc.devRef .tc main_v64) = chunkSpec x cols vals hcols 14)
    (hp : Wb (Proc.devRef .tc main_v68) = chunkSpec x cols vals hcols 15)
    (hrows : Wb (Proc.devRef .tc main_arg3) = rows) (hlight : Wb (Proc.devRef .tc main_v4) = light) :
    StableHlo.after hostOps17 Wb (Proc.devRef .tc main_v72) = layerStep GK (weightedSpec x cols vals hcols) rows
    ∧ StableHlo.after hostOps17 Wb (Proc.devRef .tc main_v73)
        = accum light (layerStep GK (weightedSpec x cols vals hcols) rows) := by
  have hW := weighted_of_chunks16 x cols vals hcols _ _ _ _ _ _ _ _ _ _ _ _ _ _ _ _ ha hb hc hd he hf hg hh hi hj hk hl hm hn ho hp
    Shapes1.Facts₀.concatenates_S100000x64_S100000x64_S100000x64_S100000x64_S100000x64_S100000x64_S100000x64_S100000x64_S100000x64_S100000x64_S100000x64_S100000x64_S100000x64_S100000x64_S100000x64_S100000x64_S1600000x64_d0
  constructor
  · unfold hostOps17
    after_results
    dsimp only [Matrix.cons_val]
    rw [hW, hrows]
    rfl
  · unfold hostOps17
    after_results
    dsimp only [Matrix.cons_val]
    rw [hW, hrows, hlight]
    rfl

/-- Layer 2: the sixteen chunk arrays laid end to end are the weighted rows; their sum by row numbers is the next
    table, and the running total takes it. -/
theorem klayer2 (Wb : Valuation τ sig (Elt Ideal)) (x : FVec Ideal S100000x64 .f32) (cols rows : IVec S1600000 32)
    (vals : FVec Ideal S1600000 .f32) (hcols : ∀ e, (cols e).toNat < 100000) (light : FVec Ideal S100000x64 .f32)
    (ha : Wb (Proc.devRef .tc main_v77) = chunkSpec x cols vals hcols 0)
    (hb : Wb (Proc.devRef .tc main_v81) = chunkSpec x cols vals hcols 1)
    (hc : Wb (Proc.devRef .tc main_v85) = chunkSpec x cols vals hcols 2)
    (hd : Wb (Proc.devRef .tc main_v89) = chunkSpec x cols vals hcols 3)
    (he : Wb (Proc.devRef .tc main_v93) = chunkSpec x cols vals hcols 4)
    (hf : Wb (Proc.devRef .tc main_v97) = chunkSpec x cols vals hcols 5)
    (hg : Wb (Proc.devRef .tc main_v101) = chunkSpec x cols vals hcols 6)
    (hh : Wb (Proc.devRef .tc main_v105) = chunkSpec x cols vals hcols 7)
    (hi : Wb (Proc.devRef .tc main_v109) = chunkSpec x cols vals hcols 8)
    (hj : Wb (Proc.devRef .tc main_v113) = chunkSpec x cols vals hcols 9)
    (hk : Wb (Proc.devRef .tc main_v117) = chunkSpec x cols vals hcols 10)
    (hl : Wb (Proc.devRef .tc main_v121) = chunkSpec x cols vals hcols 11)
    (hm : Wb (Proc.devRef .tc main_v125) = chunkSpec x cols vals hcols 12)
    (hn : Wb (Proc.devRef .tc main_v129) = chunkSpec x cols vals hcols 13)
    (ho : Wb (Proc.devRef .tc main_v133) = chunkSpec x cols vals hcols 14)
    (hp : Wb (Proc.devRef .tc main_v137) = chunkSpec x cols vals hcols 15)
    (hrows : Wb (Proc.devRef .tc main_arg3) = rows) (hlight : Wb (Proc.devRef .tc main_v73) = light) :
    StableHlo.after hostOps33 Wb (Proc.devRef .tc main_v141) = layerStep GK (weightedSpec x cols vals hcols) rows
    ∧ StableHlo.after hostOps33 Wb (Proc.devRef .tc main_v142)
        = accum light (layerStep GK (weightedSpec x cols vals hcols) rows) := by
  have hW := weighted_of_chunks16 x cols vals hcols _ _ _ _ _ _ _ _ _ _ _ _ _ _ _ _ ha hb hc hd he hf hg hh hi hj hk hl hm hn ho hp
    Shapes1.Facts₀.concatenates_S100000x64_S100000x64_S100000x64_S100000x64_S100000x64_S100000x64_S100000x64_S100000x64_S100000x64_S100000x64_S100000x64_S100000x64_S100000x64_S100000x64_S100000x64_S100000x64_S1600000x64_d0
  constructor
  · unfold hostOps33
    after_results
    dsimp only [Matrix.cons_val]
    rw [hW, hrows]
    rfl
  · unfold hostOps33
    after_results
    dsimp only [Matrix.cons_val]
    rw [hW, hrows, hlight]
    rfl

/-! ## Layer three and the results -/

set_option maxHeartbeats 4000000 in
/-- Layer 3's table: the weighted rows summed by their row numbers. -/
theorem ktail_next (Wb : Valuation τ sig (Elt Ideal)) (x : FVec Ideal S100000x64 .f32) (cols rows : IVec S1600000 32)
    (vals : FVec Ideal S1600000 .f32) (hcols : ∀ e, (cols e).toNat < 100000) (light : FVec Ideal S100000x64 .f32)
    (user pos : IVec S4096 32)
    (ha : Wb (Proc.devRef .tc main_v146) = chunkSpec x cols vals hcols 0)
    (hb : Wb (Proc.devRef .tc main_v150) = chunkSpec x cols vals hcols 1)
    (hc : Wb (Proc.devRef .tc main_v154) = chunkSpec x cols vals hcols 2)
    (hd : Wb (Proc.devRef .tc main_v158) = chunkSpec x cols vals hcols 3)
    (he : Wb (Proc.devRef .tc main_v162) = chunkSpec x cols vals hcols 4)
    (hf : Wb (Proc.devRef .tc main_v166) = chunkSpec x cols vals hcols 5)
    (hg : Wb (Proc.devRef .tc main_v170) = chunkSpec x cols vals hcols 6)
    (hh : Wb (Proc.devRef .tc main_v174) = chunkSpec x cols vals hcols 7)
    (hi : Wb (Proc.devRef .tc main_v178) = chunkSpec x cols vals hcols 8)
    (hj : Wb (Proc.devRef .tc main_v182) = chunkSpec x cols vals hcols 9)
    (hk : Wb (Proc.devRef .tc main_v186) = chunkSpec x cols vals hcols 10)
    (hl : Wb (Proc.devRef .tc main_v190) = chunkSpec x cols vals hcols 11)
    (hm : Wb (Proc.devRef .tc main_v194) = chunkSpec x cols vals hcols 12)
    (hn : Wb (Proc.devRef .tc main_v198) = chunkSpec x cols vals hcols 13)
    (ho : Wb (Proc.devRef .tc main_v202) = chunkSpec x cols vals hcols 14)
    (hp : Wb (Proc.devRef .tc main_v206) = chunkSpec x cols vals hcols 15)
    (hrows : Wb (Proc.devRef .tc main_arg3) = rows) (hlight : Wb (Proc.devRef .tc main_v142) = light)
    (huser : Wb (Proc.devRef .tc main_arg5) = user) (hpos : Wb (Proc.devRef .tc main_arg6) = pos) :
    StableHlo.after hostOps49 Wb (Proc.devRef .tc main_v210) = layerStep GK (weightedSpec x cols vals hcols) rows := by
  have hW := weighted_of_chunks16 x cols vals hcols _ _ _ _ _ _ _ _ _ _ _ _ _ _ _ _ ha hb hc hd he hf hg hh hi hj hk hl hm hn ho hp
    Shapes1.Facts₀.concatenates_S100000x64_S100000x64_S100000x64_S100000x64_S100000x64_S100000x64_S100000x64_S100000x64_S100000x64_S100000x64_S100000x64_S100000x64_S100000x64_S100000x64_S100000x64_S100000x64_S1600000x64_d0
  unfold hostOps49
  after_results
  dsimp only [Matrix.cons_val]
  rw [hW, hrows]
  rfl

set_option maxHeartbeats 4000000 in
/-- The final total. -/
theorem ktail_total (Wb : Valuation τ sig (Elt Ideal)) (x : FVec Ideal S100000x64 .f32) (cols rows : IVec S1600000 32)
    (vals : FVec Ideal S1600000 .f32) (hcols : ∀ e, (cols e).toNat < 100000) (light : FVec Ideal S100000x64 .f32)
    (user pos : IVec S4096 32)
    (ha : Wb (Proc.devRef .tc main_v146) = chunkSpec x cols vals hcols 0)
    (hb : Wb (Proc.devRef .tc main_v150) = chunkSpec x cols vals hcols 1)
    (hc : Wb (Proc.devRef .tc main_v154) = chunkSpec x cols vals hcols 2)
    (hd : Wb (Proc.devRef .tc main_v158) = chunkSpec x cols vals hcols 3)
    (he : Wb (Proc.devRef .tc main_v162) = chunkSpec x cols vals hcols 4)
    (hf : Wb (Proc.devRef .tc main_v166) = chunkSpec x cols vals hcols 5)
    (hg : Wb (Proc.devRef .tc main_v170) = chunkSpec x cols vals hcols 6)
    (hh : Wb (Proc.devRef .tc main_v174) = chunkSpec x cols vals hcols 7)
    (hi : Wb (Proc.devRef .tc main_v178) = chunkSpec x cols vals hcols 8)
    (hj : Wb (Proc.devRef .tc main_v182) = chunkSpec x cols vals hcols 9)
    (hk : Wb (Proc.devRef .tc main_v186) = chunkSpec x cols vals hcols 10)
    (hl : Wb (Proc.devRef .tc main_v190) = chunkSpec x cols vals hcols 11)
    (hm : Wb (Proc.devRef .tc main_v194) = chunkSpec x cols vals hcols 12)
    (hn : Wb (Proc.devRef .tc main_v198) = chunkSpec x cols vals hcols 13)
    (ho : Wb (Proc.devRef .tc main_v202) = chunkSpec x cols vals hcols 14)
    (hp : Wb (Proc.devRef .tc main_v206) = chunkSpec x cols vals hcols 15)
    (hrows : Wb (Proc.devRef .tc main_arg3) = rows) (hlight : Wb (Proc.devRef .tc main_v142) = light)
    (huser : Wb (Proc.devRef .tc main_arg5) = user) (hpos : Wb (Proc.devRef .tc main_arg6) = pos) :
    StableHlo.after hostOps49 Wb (Proc.devRef .tc main_v211) = accum light (layerStep GK (weightedSpec x cols vals hcols) rows) := by
  have hW := weighted_of_chunks16 x cols vals hcols _ _ _ _ _ _ _ _ _ _ _ _ _ _ _ _ ha hb hc hd he hf hg hh hi hj hk hl hm hn ho hp
    Shapes1.Facts₀.concatenates_S100000x64_S100000x64_S100000x64_S100000x64_S100000x64_S100000x64_S100000x64_S100000x64_S100000x64_S100000x64_S100000x64_S100000x64_S100000x64_S100000x64_S100000x64_S100000x64_S1600000x64_d0
  unfold hostOps49
  after_results
  dsimp only [Matrix.cons_val]
  rw [hW, hrows, hlight]
  rfl

set_option maxHeartbeats 4000000 in
/-- The user rows of the final total at the numbers user. -/
theorem ktail_users (Wb : Valuation τ sig (Elt Ideal)) (x : FVec Ideal S100000x64 .f32) (cols rows : IVec S1600000 32)
    (vals : FVec Ideal S1600000 .f32) (hcols : ∀ e, (cols e).toNat < 100000) (light : FVec Ideal S100000x64 .f32)
    (user pos : IVec S4096 32)
    (ha : Wb (Proc.devRef .tc main_v146) = chunkSpec x cols vals hcols 0)
    (hb : Wb (Proc.devRef .tc main_v150) = chunkSpec x cols vals hcols 1)
    (hc : Wb (Proc.devRef .tc main_v154) = chunkSpec x cols vals hcols 2)
    (hd : Wb (Proc.devRef .tc main_v158) = chunkSpec x cols vals hcols 3)
    (he : Wb (Proc.devRef .tc main_v162) = chunkSpec x cols vals hcols 4)
    (hf : Wb (Proc.devRef .tc main_v166) = chunkSpec x cols vals hcols 5)
    (hg : Wb (Proc.devRef .tc main_v170) = chunkSpec x cols vals hcols 6)
    (hh : Wb (Proc.devRef .tc main_v174) = chunkSpec x cols vals hcols 7)
    (hi : Wb (Proc.devRef .tc main_v178) = chunkSpec x cols vals hcols 8)
    (hj : Wb (Proc.devRef .tc main_v182) = chunkSpec x cols vals hcols 9)
    (hk : Wb (Proc.devRef .tc main_v186) = chunkSpec x cols vals hcols 10)
    (hl : Wb (Proc.devRef .tc main_v190) = chunkSpec x cols vals hcols 11)
    (hm : Wb (Proc.devRef .tc main_v194) = chunkSpec x cols vals hcols 12)
    (hn : Wb (Proc.devRef .tc main_v198) = chunkSpec x cols vals hcols 13)
    (ho : Wb (Proc.devRef .tc main_v202) = chunkSpec x cols vals hcols 14)
    (hp : Wb (Proc.devRef .tc main_v206) = chunkSpec x cols vals hcols 15)
    (hrows : Wb (Proc.devRef .tc main_arg3) = rows) (hlight : Wb (Proc.devRef .tc main_v142) = light)
    (huser : Wb (Proc.devRef .tc main_arg5) = user) (hpos : Wb (Proc.devRef .tc main_arg6) = pos) :
    StableHlo.after hostOps49 Wb (Proc.devRef .tc main_v220) = (tail3 GK (accum light (layerStep GK (weightedSpec x cols vals hcols) rows)) user pos).1 := by
  have hW := weighted_of_chunks16 x cols vals hcols _ _ _ _ _ _ _ _ _ _ _ _ _ _ _ _ ha hb hc hd he hf hg hh hi hj hk hl hm hn ho hp
    Shapes1.Facts₀.concatenates_S100000x64_S100000x64_S100000x64_S100000x64_S100000x64_S100000x64_S100000x64_S100000x64_S100000x64_S100000x64_S100000x64_S100000x64_S100000x64_S100000x64_S100000x64_S100000x64_S1600000x64_d0
  unfold hostOps49
  after_results
  dsimp only [Matrix.cons_val]
  rw [hW, hrows, hlight, huser]
  rfl

set_option maxHeartbeats 4000000 in
/-- The item rows of the final total at the numbers pos. -/
theorem ktail_items (Wb : Valuation τ sig (Elt Ideal)) (x : FVec Ideal S100000x64 .f32) (cols rows : IVec S1600000 32)
    (vals : FVec Ideal S1600000 .f32) (hcols : ∀ e, (cols e).toNat < 100000) (light : FVec Ideal S100000x64 .f32)
    (user pos : IVec S4096 32)
    (ha : Wb (Proc.devRef .tc main_v146) = chunkSpec x cols vals hcols 0)
    (hb : Wb (Proc.devRef .tc main_v150) = chunkSpec x cols vals hcols 1)
    (hc : Wb (Proc.devRef .tc main_v154) = chunkSpec x cols vals hcols 2)
    (hd : Wb (Proc.devRef .tc main_v158) = chunkSpec x cols vals hcols 3)
    (he : Wb (Proc.devRef .tc main_v162) = chunkSpec x cols vals hcols 4)
    (hf : Wb (Proc.devRef .tc main_v166) = chunkSpec x cols vals hcols 5)
    (hg : Wb (Proc.devRef .tc main_v170) = chunkSpec x cols vals hcols 6)
    (hh : Wb (Proc.devRef .tc main_v174) = chunkSpec x cols vals hcols 7)
    (hi : Wb (Proc.devRef .tc main_v178) = chunkSpec x cols vals hcols 8)
    (hj : Wb (Proc.devRef .tc main_v182) = chunkSpec x cols vals hcols 9)
    (hk : Wb (Proc.devRef .tc main_v186) = chunkSpec x cols vals hcols 10)
    (hl : Wb (Proc.devRef .tc main_v190) = chunkSpec x cols vals hcols 11)
    (hm : Wb (Proc.devRef .tc main_v194) = chunkSpec x cols vals hcols 12)
    (hn : Wb (Proc.devRef .tc main_v198) = chunkSpec x cols vals hcols 13)
    (ho : Wb (Proc.devRef .tc main_v202) = chunkSpec x cols vals hcols 14)
    (hp : Wb (Proc.devRef .tc main_v206) = chunkSpec x cols vals hcols 15)
    (hrows : Wb (Proc.devRef .tc main_arg3) = rows) (hlight : Wb (Proc.devRef .tc main_v142) = light)
    (huser : Wb (Proc.devRef .tc main_arg5) = user) (hpos : Wb (Proc.devRef .tc main_arg6) = pos) :
    StableHlo.after hostOps49 Wb (Proc.devRef .tc main_v227) = (tail3 GK (accum light (layerStep GK (weightedSpec x cols vals hcols) rows)) user pos).2.1 := by
  have hW := weighted_of_chunks16 x cols vals hcols _ _ _ _ _ _ _ _ _ _ _ _ _ _ _ _ ha hb hc hd he hf hg hh hi hj hk hl hm hn ho hp
    Shapes1.Facts₀.concatenates_S100000x64_S100000x64_S100000x64_S100000x64_S100000x64_S100000x64_S100000x64_S100000x64_S100000x64_S100000x64_S100000x64_S100000x64_S100000x64_S100000x64_S100000x64_S100000x64_S1600000x64_d0
  unfold hostOps49
  after_results
  dsimp only [Matrix.cons_val]
  rw [hW, hrows, hlight, hpos]
  rfl

set_option maxHeartbeats 4000000 in
/-- The item rows of the final total. -/
theorem ktail_itemRows (Wb : Valuation τ sig (Elt Ideal)) (x : FVec Ideal S100000x64 .f32) (cols rows : IVec S1600000 32)
    (vals : FVec Ideal S1600000 .f32) (hcols : ∀ e, (cols e).toNat < 100000) (light : FVec Ideal S100000x64 .f32)
    (user pos : IVec S4096 32)
    (ha : Wb (Proc.devRef .tc main_v146) = chunkSpec x cols vals hcols 0)
    (hb : Wb (Proc.devRef .tc main_v150) = chunkSpec x cols vals hcols 1)
    (hc : Wb (Proc.devRef .tc main_v154) = chunkSpec x cols vals hcols 2)
    (hd : Wb (Proc.devRef .tc main_v158) = chunkSpec x cols vals hcols 3)
    (he : Wb (Proc.devRef .tc main_v162) = chunkSpec x cols vals hcols 4)
    (hf : Wb (Proc.devRef .tc main_v166) = chunkSpec x cols vals hcols 5)
    (hg : Wb (Proc.devRef .tc main_v170) = chunkSpec x cols vals hcols 6)
    (hh : Wb (Proc.devRef .tc main_v174) = chunkSpec x cols vals hcols 7)
    (hi : Wb (Proc.devRef .tc main_v178) = chunkSpec x cols vals hcols 8)
    (hj : Wb (Proc.devRef .tc main_v182) = chunkSpec x cols vals hcols 9)
    (hk : Wb (Proc.devRef .tc main_v186) = chunkSpec x cols vals hcols 10)
    (hl : Wb (Proc.devRef .tc main_v190) = chunkSpec x cols vals hcols 11)
    (hm : Wb (Proc.devRef .tc main_v194) = chunkSpec x cols vals hcols 12)
    (hn : Wb (Proc.devRef .tc main_v198) = chunkSpec x cols vals hcols 13)
    (ho : Wb (Proc.devRef .tc main_v202) = chunkSpec x cols vals hcols 14)
    (hp : Wb (Proc.devRef .tc main_v206) = chunkSpec x cols vals hcols 15)
    (hrows : Wb (Proc.devRef .tc main_arg3) = rows) (hlight : Wb (Proc.devRef .tc main_v142) = light)
    (huser : Wb (Proc.devRef .tc main_arg5) = user) (hpos : Wb (Proc.devRef .tc main_arg6) = pos) :
    StableHlo.after hostOps49 Wb (Proc.devRef .tc main_v213) = (tail3 GK (accum light (layerStep GK (weightedSpec x cols vals hcols) rows)) user pos).2.2 := by
  have hW := weighted_of_chunks16 x cols vals hcols _ _ _ _ _ _ _ _ _ _ _ _ _ _ _ _ ha hb hc hd he hf hg hh hi hj hk hl hm hn ho hp
    Shapes1.Facts₀.concatenates_S100000x64_S100000x64_S100000x64_S100000x64_S100000x64_S100000x64_S100000x64_S100000x64_S100000x64_S100000x64_S100000x64_S100000x64_S100000x64_S100000x64_S100000x64_S100000x64_S1600000x64_d0
  unfold hostOps49
  after_results
  dsimp only [Matrix.cons_val]
  rw [hW, hrows, hlight]
  rfl

/-- Layer 3 and the results together. -/
theorem klayer3_tail (Wb : Valuation τ sig (Elt Ideal)) (x : FVec Ideal S100000x64 .f32) (cols rows : IVec S1600000 32)
    (vals : FVec Ideal S1600000 .f32) (hcols : ∀ e, (cols e).toNat < 100000) (light : FVec Ideal S100000x64 .f32)
    (user pos : IVec S4096 32)
    (ha : Wb (Proc.devRef .tc main_v146) = chunkSpec x cols vals hcols 0)
    (hb : Wb (Proc.devRef .tc main_v150) = chunkSpec x cols vals hcols 1)
    (hc : Wb (Proc.devRef .tc main_v154) = chunkSpec x cols vals hcols 2)
    (hd : Wb (Proc.devRef .tc main_v158) = chunkSpec x cols vals hcols 3)
    (he : Wb (Proc.devRef .tc main_v162) = chunkSpec x cols vals hcols 4)
    (hf : Wb (Proc.devRef .tc main_v166) = chunkSpec x cols vals hcols 5)
    (hg : Wb (Proc.devRef .tc main_v170) = chunkSpec x cols vals hcols 6)
    (hh : Wb (Proc.devRef .tc main_v174) = chunkSpec x cols vals hcols 7)
    (hi : Wb (Proc.devRef .tc main_v178) = chunkSpec x cols vals hcols 8)
    (hj : Wb (Proc.devRef .tc main_v182) = chunkSpec x cols vals hcols 9)
    (hk : Wb (Proc.devRef .tc main_v186) = chunkSpec x cols vals hcols 10)
    (hl : Wb (Proc.devRef .tc main_v190) = chunkSpec x cols vals hcols 11)
    (hm : Wb (Proc.devRef .tc main_v194) = chunkSpec x cols vals hcols 12)
    (hn : Wb (Proc.devRef .tc main_v198) = chunkSpec x cols vals hcols 13)
    (ho : Wb (Proc.devRef .tc main_v202) = chunkSpec x cols vals hcols 14)
    (hp : Wb (Proc.devRef .tc main_v206) = chunkSpec x cols vals hcols 15)
    (hrows : Wb (Proc.devRef .tc main_arg3) = rows) (hlight : Wb (Proc.devRef .tc main_v142) = light)
    (huser : Wb (Proc.devRef .tc main_arg5) = user) (hpos : Wb (Proc.devRef .tc main_arg6) = pos) :
    StableHlo.after hostOps49 Wb (Proc.devRef .tc main_v210) = layerStep GK (weightedSpec x cols vals hcols) rows
    ∧ StableHlo.after hostOps49 Wb (Proc.devRef .tc main_v211) = accum light (layerStep GK (weightedSpec x cols vals hcols) rows)
    ∧ StableHlo.after hostOps49 Wb (Proc.devRef .tc main_v220) = (tail3 GK (accum light (layerStep GK (weightedSpec x cols vals hcols) rows)) user pos).1
    ∧ StableHlo.after hostOps49 Wb (Proc.devRef .tc main_v227) = (tail3 GK (accum light (layerStep GK (weightedSpec x cols vals hcols) rows)) user pos).2.1
    ∧ StableHlo.after hostOps49 Wb (Proc.devRef .tc main_v213) = (tail3 GK (accum light (layerStep GK (weightedSpec x cols vals hcols) rows)) user pos).2.2 :=
  ⟨ktail_next Wb x cols rows vals hcols light user pos ha hb hc hd he hf hg hh hi hj hk hl hm hn ho hp hrows hlight huser hpos, ktail_total Wb x cols rows vals hcols light user pos ha hb hc hd he hf hg hh hi hj hk hl hm hn ho hp hrows hlight huser hpos, ktail_users Wb x cols rows vals hcols light user pos ha hb hc hd he hf hg hh hi hj hk hl hm hn ho hp hrows hlight huser hpos, ktail_items Wb x cols rows vals hcols light user pos ha hb hc hd he hf hg hh hi hj hk hl hm hn ho hp hrows hlight huser hpos, ktail_itemRows Wb x cols rows vals hcols light user pos ha hb hc hd he hf hg hh hi hj hk hl hm hn ho hp hrows hlight huser hpos⟩

end Cert.Value

end
-- ==== Proof.Val.HypSpec.lean ====
/-
  THE VALUE SPECIFICATION OF THE HYPERBOLIC ROW MAP, as one function of one row.

  A row `x` of 64 extended reals has a time coordinate `x 0`, which the map ignores, and 63 spatial
  coordinates `x 1 … x 63`. With `ss = Σ_{k<63} x(1+k)²` the squared Euclidean norm of the spatial part,
    θ      = max(1.00000012, max(1.00000012, sqrt(max(1e-7, 1 + ss)) / 1)),
    scale  = 1 · log(θ + sqrt(θ·θ − 1))            (the inverse hyperbolic cosine of θ),
    den    = max(1e-15, sqrt ss),
  the result row is `0` at coordinate 0 and `scale · x(1+j) / den` at coordinate `1 + j`: the logarithmic map
  at the origin of the hyperboloid, with its time coordinate put to zero. Every operation is the ideal
  instance's (extended reals, `Ideal.sqrt`, `Ideal.log`, `Ideal.div`), and the float literals stay the words
  the two programs print, so that the same word on both sides is never evaluated.
-/
import Idealize.ShloMosaic.PureOps.Ideal
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Value

open Idealize.ShloMosaic

/-- Coordinate `1 + k` of a 64-wide row, for `k < 63`: the spatial coordinates follow the time coordinate. -/
def tailIdx (k : Fin 63) : Fin 64 := ⟨1 + k.val, by have := k.isLt; omega⟩

@[simp] theorem tailIdx_val (k : Fin 63) : (tailIdx k).val = 1 + k.val := rfl

/-- The squared Euclidean norm of a row's spatial part: the sum of the squares of coordinates 1 … 63. -/
def hypSS (x : Fin 64 → EReal) : EReal := ∑ k : Fin 63, x (tailIdx k) * x (tailIdx k)

/-- θ of a squared norm `ss`: `sqrt(max(1e-7, 1 + ss)) / 1`, clipped from below at `1.00000012` twice. -/
def hypTheta (ss : EReal) : EReal :=
  max (Ideal.ofBits .f32 0x3F800001#32)
    (max (Ideal.ofBits .f32 0x3F800001#32)
      (Ideal.div (Ideal.sqrt (max (Ideal.ofBits .f32 0x33D6BF95#32) (Ideal.ofBits .f32 0x3F800000#32 + ss)))
        (Ideal.ofBits .f32 0x3F800000#32)))

/-- The factor on the spatial part: `1 · log(θ + sqrt(θ·θ − 1))`. -/
def hypScale (ss : EReal) : EReal :=
  Ideal.ofBits .f32 0x3F800000#32
    * Ideal.log (hypTheta ss + Ideal.sqrt (hypTheta ss * hypTheta ss - Ideal.ofBits .f32 0x3F800000#32))

/-- The divisor: the spatial part's Euclidean norm, clipped from below at `1e-15`. -/
def hypDen (ss : EReal) : EReal := max (Ideal.ofBits .f32 0x26901D7D#32) (Ideal.sqrt ss)

/-- A spatial coordinate `y` of a row whose spatial part has squared norm `ss`, mapped: `scale · y / den`. -/
def hypCoord (ss y : EReal) : EReal := Ideal.div (hypScale ss * y) (hypDen ss)

/-- THE ROW MAP: `0` at coordinate 0, and the spatial coordinate scaled elsewhere. -/
def hypRow (x : Fin 64 → EReal) (q : Fin 64) : EReal :=
  if q.val = 0 then Ideal.ofBits .f32 0x00000000#32 else hypCoord (hypSS x) (x q)

/-- At coordinate 0 the result is the zero word's value. -/
theorem hypRow_zero (x : Fin 64 → EReal) (q : Fin 64) (hq : q.val = 0) :
    hypRow x q = Ideal.ofBits .f32 0x00000000#32 := if_pos hq

/-- Off coordinate 0 the result is the scaled spatial coordinate. -/
theorem hypRow_pos (x : Fin 64 → EReal) (q : Fin 64) (hq : ¬q.val = 0) :
    hypRow x q = hypCoord (hypSS x) (x q) := if_neg hq

/-- The same at a spatial coordinate written `1 + k`. -/
theorem hypRow_tail (x : Fin 64 → EReal) (k : Fin 63) :
    hypRow x (tailIdx k) = hypCoord (hypSS x) (x (tailIdx k)) :=
  if_neg (by show ¬(1 + k.val = 0); omega)

/-- A coordinate that is not 0 is `1 + k` for the `k` one below it. -/
theorem eq_tailIdx (q : Fin 64) (hq : ¬q.val = 0) : q = tailIdx ⟨q.val - 1, by have := q.isLt; omega⟩ :=
  Fin.ext (by show q.val = 1 + (q.val - 1); omega)

end Cert.Value

end
-- ==== Proof.Val.HypLayout.lean ====
/-
  LAYOUT OPERATIONS OF A ROW-WISE NORMALISATION READ AT AN INDEX GIVEN BY COORDINATES.

  A block `[a, b]` whose rows are summed with the reduced axis kept meets three re-indexings on the way: the lane
  sum `[a, b] → [a]`, which at row `p` is the sum over the row's coordinates; the shape cast `[a] → [a, 1]` that
  puts the reduced axis back as a unit axis, which at `(p, u)` reads the operand at `p`; and the broadcast of that
  column `[a, 1] → [a, b]`, which at `(p, c)` reads the column at row `p`. Each is stated over indices built from
  their coordinates, so that it applies to a printed operation by unification.
-/
import Idealize.ShloMosaic.PureOps.Ideal
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Value

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index over row `p` with coordinate `k` on the summed axis is `(p, k)`. -/
theorem lift_ix1 {a b : ℕ} (h : (⟨2, ![a, b]⟩ : Shape).Reduces [1] ⟨1, ![a]⟩) (p : Fin a) (k : Fin b) :
    h.lift (ix1 p) k = ix2 p k := by
  funext c
  refine Fin.ext ?_
  match c with
  | ⟨0, _⟩ => rfl
  | ⟨1, _⟩ => rfl

/-- At the ideal values the lane sum of an `[a, b]` block is, at row `p`, the sum of that row's `b` elements. The
    accumulator's evidence is typed as a printed payload carries it: the zero word equal to itself. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_ix1 h p k)

end Cert.Value

end
-- ==== Proof.Val.HypKernel.lean ====
/-
  THE KERNEL'S PAYLOAD AT AN INDEX. The block the first kernel stores is a chain of whole-block operations on the block
  it loaded: the spatial part cut off (columns 1 … 63), squared and summed along the lanes with the axis kept, the
  scalar chain θ → log(θ + sqrt(θ·θ − 1)) on that column, the column broadcast back over the 63 lanes, the
  quotient by the clipped norm, and a zero column put in front. Read at `(p, q)` every whole-block operation is
  its scalar operation at one index of its operand: the cut at `(p, 1 + k)`, the lane sum as the sum over `k < 63`,
  the kept axis and the broadcast at row `p`, the concatenation at its first piece for `q = 0` and at column
  `q − 1` of its second otherwise. What is left is the row map of `HypSpec` at row `p` of the loaded block.
-/
import proofs.«421643_j28415503630349_2_alg».proof.Proof.Gen.KernelIdeal.Skeleton
import proofs.«421643_j28415503630349_2_alg».proof.Proof.Val.HypSpec
import proofs.«421643_j28415503630349_2_alg».proof.Proof.Val.HypLayout

noncomputable section

open scoped BigOperators

namespace Cert.Value

open Idealize.ShloMosaic Idealize.ShloMosaic.ValueIdx Cert.KernelIdeal

/-- The spatial part of a block, read at `(p, k)`: the block at `(p, 1 + k)`. (The cast of the loaded block to its own
    shape is the identity.) -/
theorem tail_apply (x0 : FVec Ideal S4096x64 .f32) (p : Fin 4096) (k : Fin 63) :
    extractStridedSlice S4096x63 ![0, 1] (shapeCast S4096x64 x0 Gen.shapeCasts_S4096x64_S4096x64)
        Gen.slices_S4096x64_o0_1_S4096x63 (ix2 p k)
      = x0 (ix2 p (tailIdx k)) := by
  rw [shapeCast_self]
  exact slice2_axis1_apply 1 x0 _ p k (tailIdx k) rfl

/-- The lane sum of the squared spatial part with its axis kept, read at `(p, u)`: the squared norm of row `p`'s
    spatial part. -/
theorem ss_apply (x0 : FVec Ideal S4096x64 .f32) (p : Fin 4096) (u : Fin 1) :
    shapeCast S4096x1
        (multiReduction .add [1] S4096
          (mulf
            (extractStridedSlice S4096x63 ![0, 1] (shapeCast S4096x64 x0 Gen.shapeCasts_S4096x64_S4096x64)
              Gen.slices_S4096x64_o0_1_S4096x63)
            (extractStridedSlice S4096x63 ![0, 1] (shapeCast S4096x64 x0 Gen.shapeCasts_S4096x64_S4096x64)
              Gen.slices_S4096x64_o0_1_S4096x63))
          0x00000000#32 Gen.reduces_S4096x63_S4096 (.inl rfl) rfl)
        Gen.shapeCasts_S4096_S4096x1 (ix2 p u)
      = hypSS (fun j => x0 (ix2 p j)) := by
  refine (shapeCast_a_a1_apply _ _ p u).trans ?_
  refine (laneSum_apply _ _ _ _ p).trans ?_
  unfold hypSS
  refine Finset.sum_congr rfl fun k _ => ?_
  refine (mulf_apply _ _ _).trans ?_
  rw [tail_apply x0 p k]

/-- THE PAYLOAD AT AN INDEX: the block the kernel stores, read at `(p, q)`, is the row map of row `p` of the block it
    loaded, at coordinate `q`. -/
theorem k0_pay1_apply (x0 : Vec Ideal S4096x64 .f32) (p : Fin 4096) (q : Fin 64) :
    Gen.k0_pay1 (F := Ideal) x0 (ix2 p q) = hypRow (fun j => x0 (ix2 p j)) q := by
  unfold Gen.k0_pay1
  by_cases hq : q.val = 0
  · rw [hypRow_zero _ _ hq]
    exact concatenate_pair_apply_left (t := S4096x64) (s₁ := S4096x1) (s₂ := S4096x63) _ _ _ _ (ix2 p q) rfl
      (ix2 p (0 : Fin 1)) (fun b => by
        match b with
        | ⟨0, _⟩ => rfl
        | ⟨1, _⟩ => exact hq.symm)
  · have hk : q.val - 1 < 63 := by have := q.isLt; omega
    have hss := ss_apply x0 p 0
    rw [hypRow_pos _ _ hq]
    refine (concatenate_pair_apply_right (t := S4096x64) (s₁ := S4096x1) (s₂ := S4096x63) _ _ _ _ (ix2 p q) rfl rfl
      (ix2 p (⟨q.val - 1, hk⟩ : Fin 63)) (fun b hb => ?_) ?_).trans ?_
    · match b, hb with
      | ⟨0, _⟩, _ => rfl
      | ⟨1, _⟩, hb => exact absurd rfl hb
    · show q.val - 1 + 1 = q.val
      omega
    · refine (divf_apply _ _ _).trans ?_
      rw [broadcastTo_a1_ab_apply]
      refine congrArg₂ Ideal.div ?_ ?_
      · refine (mulf_apply _ _ _).trans ?_
        rw [broadcastTo_a1_ab_apply, tail_apply x0 p ⟨q.val - 1, hk⟩, ← eq_tailIdx q hq]
        unfold hypScale hypTheta
        rw [← hss]
        rfl
      · unfold hypDen
        rw [← hss]
        rfl

/-- The same for the whole block: the stored block is, index by index, the row map of the loaded block's rows. -/
theorem k0_pay1_eq (x0 : Vec Ideal S4096x64 .f32) :
    Gen.k0_pay1 (F := Ideal) x0
      = fun i : S4096x64.Idx => hypRow (fun j => x0 (ix2 (n0 := 4096) (n1 := 64) (i 0) j)) (i 1) := by
  funext i
  obtain ⟨p, q, rfl⟩ : ∃ (p : Fin 4096) (q : Fin 64), i = ix2 p q := ⟨i 0, i 1, eq_ix2 i⟩
  exact k0_pay1_apply x0 p q

end Cert.Value

end
-- ==== Proof.Val.HypGlue.lean ====
/-
  THE HOST'S ARRANGEMENT AROUND THE ROW MAP, READ AT AN INDEX.

  The table the first kernel maps is the two embedding tables stacked by rows, then padded at the end with rows of
  a constant up to a whole number of blocks; of the mapped array only the first rows, those of the stacked table, are
  kept. Read at row `r` and column `j`: the stack is the first table at `r` below its height and the second at
  `r` less that height from there on; the padded array is the operand on the operand's rows and the constant past
  them; the cut is the operand at the same row. Since the row map acts on each row by itself, the kept rows of the
  mapped padded array are the mapped rows of the stacked table: the padding rows are never read.
-/
import Idealize.ShloMosaic.PureOps.Ideal
import Idealize.ShloMosaic.Lib.ValueIdx
import Idealize.ShloMosaic.Lib.Pipeline.Value
import Idealize.ShloMosaic.Lib.ValueLayout
import Idealize.ShloMosaic.PureOps.Ideal.Laws
import Idealize.ShloMosaic.Lib.KernelVsHost
import proofs.«421643_j28415503630349_2_alg».proof.Proof.Val.HypSpec

noncomputable section

open scoped BigOperators

namespace Cert.Value

open Idealize.ShloMosaic Idealize.ShloMosaic.ValueIdx

variable {α : Type}

/-! ## Two tables stacked by rows -/

/-- Below the first table's height the stack reads the first table at the same row. -/
theorem concat_rows_apply_lt {n₁ n₂ N m : ℕ} (a : (⟨2, ![n₁, m]⟩ : Shape).Idx → α) (b : (⟨2, ![n₂, m]⟩ : Shape).Idx → α)
    (h : Shape.Concatenates [(⟨2, ![n₁, m]⟩ : Shape), ⟨2, ![n₂, m]⟩] ⟨2, ![N, m]⟩ 0) (r : Fin N) (j : Fin m)
    (hr : r.val < n₁) :
    concatenate ⟨2, ![N, m]⟩ 0 [⟨⟨2, ![n₁, m]⟩, a⟩, ⟨⟨2, ![n₂, m]⟩, b⟩] h (ix2 r j) = a (ix2 ⟨r.val, hr⟩ j) :=
  concatenate_pair_apply_left (t := ⟨2, ![N, m]⟩) (s₁ := ⟨2, ![n₁, m]⟩) (s₂ := ⟨2, ![n₂, m]⟩) 0 a b h (ix2 r j) rfl
    (ix2 ⟨r.val, hr⟩ j) (fun c => by
      match c with
      | ⟨0, _⟩ => rfl
      | ⟨1, _⟩ => rfl)

/-- From the first table's height on the stack reads the second table at the row less that height. -/
theorem concat_rows_apply_ge {n₁ n₂ N m : ℕ} (a : (⟨2, ![n₁, m]⟩ : Shape).Idx → α) (b : (⟨2, ![n₂, m]⟩ : Shape).Idx → α)
    (h : Shape.Concatenates [(⟨2, ![n₁, m]⟩ : Shape), ⟨2, ![n₂, m]⟩] ⟨2, ![N, m]⟩ 0) (r : Fin N) (j : Fin m)
    (hr : n₁ ≤ r.val) (hr' : r.val - n₁ < n₂) :
    concatenate ⟨2, ![N, m]⟩ 0 [⟨⟨2, ![n₁, m]⟩, a⟩, ⟨⟨2, ![n₂, m]⟩, b⟩] h (ix2 r j) = b (ix2 ⟨r.val - n₁, hr'⟩ j) :=
  concatenate_pair_apply_right (t := ⟨2, ![N, m]⟩) (s₁ := ⟨2, ![n₁, m]⟩) (s₂ := ⟨2, ![n₂, m]⟩) 0 a b h (ix2 r j) rfl rfl
    (ix2 ⟨r.val - n₁, hr'⟩ j) (fun c hc => by
      match c, hc with
      | ⟨0, _⟩, hc => exact absurd rfl hc
      | ⟨1, _⟩, _ => rfl)
    (by show r.val - n₁ + n₁ = r.val; omega)

/-- Row `r` of the stack of two tables of heights `n₁` and `n₂`, as a function of the column. -/
def catRow {n₁ n₂ N m : ℕ} (hN : N = n₁ + n₂) (a : (⟨2, ![n₁, m]⟩ : Shape).Idx → α)
    (b : (⟨2, ![n₂, m]⟩ : Shape).Idx → α) (r : Fin N) : Fin m → α :=
  fun j => if hr : r.val < n₁ then a (ix2 ⟨r.val, hr⟩ j) else b (ix2 ⟨r.val - n₁, by have := r.isLt; omega⟩ j)

/-- The stack read at `(r, j)` is row `r` of the stack at `j`. -/
theorem concat_rows_apply {n₁ n₂ N m : ℕ} (hN : N = n₁ + n₂) (a : (⟨2, ![n₁, m]⟩ : Shape).Idx → α)
    (b : (⟨2, ![n₂, m]⟩ : Shape).Idx → α)
    (h : Shape.Concatenates [(⟨2, ![n₁, m]⟩ : Shape), ⟨2, ![n₂, m]⟩] ⟨2, ![N, m]⟩ 0) (r : Fin N) (j : Fin m) :
    concatenate ⟨2, ![N, m]⟩ 0 [⟨⟨2, ![n₁, m]⟩, a⟩, ⟨⟨2, ![n₂, m]⟩, b⟩] h (ix2 r j) = catRow hN a b r j := by
  unfold catRow
  by_cases hr : r.val < n₁
  · rw [dif_pos hr]; exact concat_rows_apply_lt a b h r j hr
  · rw [dif_neg hr]; exact concat_rows_apply_ge a b h r j (Nat.le_of_not_lt hr) _

/-! ## Rows of a constant added at the end -/

/-- On the operand's rows the padded array is the operand. -/
theorem pad_rows_apply_lt {n N m p : ℕ} (x : (⟨2, ![n, m]⟩ : Shape).Idx → α) {u : Shape} (v : u.Idx → α)
    (h : (⟨2, ![n, m]⟩ : Shape).Pads ![0, 0] ![p, 0] ![0, 0] ⟨2, ![N, m]⟩) (hu : 0 < u.numel)
    (r : Fin N) (j : Fin m) (hr : r.val < n) :
    pad ⟨2, ![N, m]⟩ ![0, 0] ![p, 0] ![0, 0] x v h hu (ix2 r j) = x (ix2 ⟨r.val, hr⟩ j) :=
  pad_apply_of_inside _ _ _ x v h hu (ix2 r j) (ix2 ⟨r.val, hr⟩ j) (fun c => by
    match c with
    | ⟨0, _⟩ => show r.val = 0 + r.val * (0 + 1); omega
    | ⟨1, _⟩ => show j.val = 0 + j.val * (0 + 1); omega)

/-- Past the operand's rows the padded array is the constant. -/
theorem pad_rows_apply_ge {n N m p : ℕ} (x : (⟨2, ![n, m]⟩ : Shape).Idx → α) {u : Shape} (v : u.Idx → α)
    (h : (⟨2, ![n, m]⟩ : Shape).Pads ![0, 0] ![p, 0] ![0, 0] ⟨2, ![N, m]⟩) (hu : 0 < u.numel)
    (r : Fin N) (j : Fin m) (hr : n ≤ r.val) :
    pad ⟨2, ![N, m]⟩ ![0, 0] ![p, 0] ![0, 0] x v h hu (ix2 r j) = v (Shape.Idx.first hu) :=
  pad_apply_of_not_inside _ _ _ x v h hu (ix2 r j) (0 : Fin 2) (fun hin => by
    have h3 : (r.val - 0) / (0 + 1) < n := hin.2.2
    rw [Nat.sub_zero, Nat.zero_add, Nat.div_one] at h3
    omega)

/-! ## The first rows kept -/

/-- The first `n` rows cut out of an array read the array at the same row and column. -/
theorem slice_rows_apply {n N m : ℕ} (X : (⟨2, ![N, m]⟩ : Shape).Idx → α)
    (h : (⟨2, ![N, m]⟩ : Shape).Slices ![0, 0] ⟨2, ![n, m]⟩) (r : Fin n) (j : Fin m) (hr : r.val < N) :
    extractStridedSlice ⟨2, ![n, m]⟩ ![0, 0] X h (ix2 r j) = X (ix2 ⟨r.val, hr⟩ j) :=
  slice2_axis0_apply 0 X h r j ⟨r.val, hr⟩ (Nat.zero_add _).symm

/-! ## The row map over a whole array, and the composite -/

/-- An array of 64-wide rows mapped row by row. -/
def hypArray {n : ℕ} (X : (⟨2, ![n, 64]⟩ : Shape).Idx → EReal) : (⟨2, ![n, 64]⟩ : Shape).Idx → EReal :=
  fun i => hypRow (fun j => X (ix2 (n0 := n) (n1 := 64) (i 0) j)) (i 1)

/-- At `(r, q)` the mapped array is the row map of row `r` at `q`. -/
theorem hypArray_apply {n : ℕ} (X : (⟨2, ![n, 64]⟩ : Shape).Idx → EReal) (r : Fin n) (q : Fin 64) :
    hypArray X (ix2 r q) = hypRow (fun j => X (ix2 r j)) q := rfl

/-- THE COMPOSITE: pad a table with rows of a constant, map every row, keep the table's rows — what is kept is the
    table mapped row by row. -/
theorem slice_hypArray_pad_apply {n N p : ℕ} (W : (⟨2, ![n, 64]⟩ : Shape).Idx → EReal) {u : Shape} (z : u.Idx → EReal)
    (hp : (⟨2, ![n, 64]⟩ : Shape).Pads ![0, 0] ![p, 0] ![0, 0] ⟨2, ![N, 64]⟩) (hu : 0 < u.numel)
    (hs : (⟨2, ![N, 64]⟩ : Shape).Slices ![0, 0] ⟨2, ![n, 64]⟩) (r : Fin n) (q : Fin 64) :
    extractStridedSlice ⟨2, ![n, 64]⟩ ![0, 0] (hypArray (pad ⟨2, ![N, 64]⟩ ![0, 0] ![p, 0] ![0, 0] W z hp hu)) hs (ix2 r q)
      = hypRow (fun j => W (ix2 r j)) q := by
  have hr : r.val < N := Nat.lt_of_lt_of_le r.isLt (by have := hs.2 0; simpa using this)
  rw [slice_rows_apply _ hs r q hr, hypArray_apply]
  exact congrArg (fun f => hypRow f q) (funext fun j => pad_rows_apply_lt W z hp hu ⟨r.val, hr⟩ j r.isLt)

/-- The same with the table a stack of two: the kept rows are the mapped rows of the stack. -/
theorem slice_hypArray_pad_concat_apply {n₁ n₂ n N p : ℕ} (hn : n = n₁ + n₂)
    (a : (⟨2, ![n₁, 64]⟩ : Shape).Idx → EReal) (b : (⟨2, ![n₂, 64]⟩ : Shape).Idx → EReal)
    (hc : Shape.Concatenates [(⟨2, ![n₁, 64]⟩ : Shape), ⟨2, ![n₂, 64]⟩] ⟨2, ![n, 64]⟩ 0)
    {u : Shape} (z : u.Idx → EReal)
    (hp : (⟨2, ![n, 64]⟩ : Shape).Pads ![0, 0] ![p, 0] ![0, 0] ⟨2, ![N, 64]⟩) (hu : 0 < u.numel)
    (hs : (⟨2, ![N, 64]⟩ : Shape).Slices ![0, 0] ⟨2, ![n, 64]⟩) (r : Fin n) (q : Fin 64) :
    extractStridedSlice ⟨2, ![n, 64]⟩ ![0, 0]
        (hypArray (pad ⟨2, ![N, 64]⟩ ![0, 0] ![p, 0] ![0, 0]
          (concatenate ⟨2, ![n, 64]⟩ 0 [⟨⟨2, ![n₁, 64]⟩, a⟩, ⟨⟨2, ![n₂, 64]⟩, b⟩] hc) z hp hu)) hs (ix2 r q)
      = hypRow (catRow hn a b r) q := by
  rw [slice_hypArray_pad_apply]
  exact congrArg (fun f => hypRow f q) (funext fun j => concat_rows_apply hn a b hc r j)

end Cert.Value

end
-- ==== Proof.Val.HypArray.lean ====
/-
  FROM BLOCKS TO THE ARRAY, for the row map's region. The region walks 25 points; at point `t` it is handed block `t`
  of the padded table (rows 4096 t … 4096 t + 4095, every column) and writes back, to the same rows of the output
  array, the payload of that block. The payload maps each row of its block by itself, and a block spans whole rows;
  so what point `t` writes back is block `t` of ONE array, the padded table mapped row by row. The 25 blocks cover
  the output array (row `r` lies in the block of point `r / 4096`), hence after the region the output array IS that
  array. The index maps' values are decided once over the grid; the rest is arithmetic on coordinates.
-/
import proofs.«421643_j28415503630349_2_alg».proof.Proof.KI.Region0
import proofs.«421643_j28415503630349_2_alg».proof.Proof.Val.HypKernel
import proofs.«421643_j28415503630349_2_alg».proof.Proof.Val.HypGlue
import Idealize.ShloMosaic.Lib.Pipeline.Value

set_option maxRecDepth 16384

noncomputable section

open scoped BigOperators

namespace Cert.Value

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

section Array0

variable (V : (c : Dev nD) → (b : Ref sig .tc) → Buf (Elt Ideal) ((c : Thread nD τ).loc b))

/-- The row map does not tell apart two rows equal column by column, nor two spellings of one coordinate. -/
theorem hypRow_congr {x y : Fin 64 → EReal} {q q' : Fin 64} (hx : ∀ j, x j = y j) (hq : q.val = q'.val) :
    hypRow x q = hypRow y q' := by
  obtain rfl : q = q' := Fin.ext hq
  rw [funext hx]

theorem hz0 : (![0, 0] : Fin 2 → Nat) = fun _ => 0 := funext fun a => by fin_cases a <;> rfl

/-- The printed index maps, decided over the grid: at point `t` both windows are at block row `t`, block column 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- WHAT POINT `t` WRITES BACK is block `t` of the padded array mapped row by row: the payload maps each row of the
    loaded block by itself, the loaded block is block `t` of the padded array, and both blocks span whole rows. -/
theorem flushed0_1_eq (c : Dev nD) (t : Fin cfg0.N) :
    (dat0 (F := Ideal) V c).flushed 1 t
      = ((cfg0.win 1).blk t).view.read (Elt Ideal) (hypArray (n := 102400) (V c main_v1)) := by
  show (cfg0.win 1).cut (grid0.coords t) ((dat0 V c).after 1 t) = _
  rw [after0_1]
  unfold out0_1
  rw [View.canon_unit_zero hz0]
  simp only [View.ld_unit_zero (S := S4096x64) hz0]
  rw [k0_pay1_eq]
  obtain ⟨e0, e1, e2, e3⟩ := idx_facts0 t
  funext j
  have hj0 : (j 0).val < 4096 := (j 0).isLt
  have hj1 : (j 1).val < 64 := (j 1).isLt
  show hypRow _ _ = hypRow _ _
  refine hypRow_congr (fun j' => ?_) ?_
  · show V c main_v1 _ = V c main_v1 _
    refine congrArg (V c main_v1) (funext fun a => Fin.ext ?_)
    match a with
    | ⟨0, _⟩ =>
      show win0_0.index t (0 : Fin 2) * 4096 + 1 * (j 0).val = win0_1.index t (0 : Fin 2) * 4096 + 1 * (j 0).val
      omega
    | ⟨1, _⟩ =>
      show win0_0.index t (1 : Fin 2) * 64 + 1 * j'.val = j'.val
      omega
  · show (j 1).val = win0_1.index t (1 : Fin 2) * 64 + 1 * (j 1).val
    omega

/-- An index of the output array is in point `t`'s block iff each coordinate is in the block's range on its axis. -/
theorem mem_blk0_1 (t : Fin cfg0.N) (i : S102400x64.Idx) :
    i ∈ ((cfg0.win 1).blk t).view.set ↔ ∀ a : Fin 2, win0_1.index t a * S4096x64.size a ≤ (i a).val
      ∧ (i a).val < win0_1.index t a * S4096x64.size a + S4096x64.size a := by
  show i ∈ ((View.whole main_v2).slice (win0_1.rect t)).set ↔ _
  rw [View.set_slice_whole, Rect.mem_set_unit]
  exact Iff.rfl

/-- Every index of the output array is in some point's block: row `r` is in the block of point `r / 4096`. -/
theorem blocks_cover0_1 (i : S102400x64.Idx) :
    ∃ t : Fin cfg0.N, (cfg0.win 1).flush t = true ∧ i ∈ ((cfg0.win 1).blk t).view.set := by
  have hi0 : (i 0).val < 102400 := (i 0).isLt
  have hi1 : (i 1).val < 64 := (i 1).isLt
  have hN : cfg0.N = 25 := rfl
  have ht : (i 0).val / 4096 < cfg0.N := by rw [hN]; omega
  obtain ⟨e0, e1, e2, e3⟩ := idx_facts0 ⟨(i 0).val / 4096, ht⟩
  refine ⟨⟨(i 0).val / 4096, ht⟩, flush0_1 _, ?_⟩
  rw [mem_blk0_1]
  intro a
  match a with
  | ⟨0, _⟩ =>
    show win0_1.index ⟨(i 0).val / 4096, ht⟩ (0 : Fin 2) * 4096 ≤ (i 0).val
      ∧ (i 0).val < win0_1.index ⟨(i 0).val / 4096, ht⟩ (0 : Fin 2) * 4096 + 4096
    rw [e2]
    show (i 0).val / 4096 * 4096 ≤ (i 0).val ∧ (i 0).val < (i 0).val / 4096 * 4096 + 4096
    omega
  | ⟨1, _⟩ =>
    show win0_1.index ⟨(i 0).val / 4096, ht⟩ (1 : Fin 2) * 64 ≤ (i 1).val
      ∧ (i 1).val < win0_1.index ⟨(i 0).val / 4096, ht⟩ (1 : Fin 2) * 64 + 64
    rw [e3]
    omega

/-- THE OUTPUT ARRAY AFTER THE REGION: the padded array as the region found it, mapped row by row. -/
theorem hyp_final (c : Dev nD) :
    (dat0 (F := Ideal) V c).arrAt 1 cfg0.N = hypArray (n := 102400) (V c main_v1) :=
  (dat0 V c).arrAt_eq_of_cover 1 _ (fun t _ => flushed0_1_eq V c t) blocks_cover0_1

end Array0

end Cert.Value

end
-- ==== Proof.Val.KernelX0.lean ====
import proofs.«421643_j28415503630349_2_alg».proof.Proof.KI.Region0
import proofs.«421643_j28415503630349_2_alg».proof.Proof.Val.HypArray
import proofs.«421643_j28415503630349_2_alg».proof.Proof.Val.HypGlue
import proofs.«421643_j28415503630349_2_alg».proof.Proof.Val.LayerSpec
import proofs.«421643_j28415503630349_2_alg».proof.Proof.Val.GlueK
import Idealize.ShloMosaic.Lib.StableHlo.Run

/-! # The table the layers start from, and the zero total

Before the first layer the host program stacks the user rows on the item rows (100000 rows of 64), adds 2400 rows of a
constant to reach 102400, lets the first region map every row by the row map, and keeps the first 100000 rows. Read
back through those steps, what it keeps is the stack mapped row by row: the added rows never reach a kept row, because
the row map of a row reads that row alone. Beside it the host program makes an array of zeros, the running total before
the first layer.

The boundary valuations are written out here under local names with the bodies the run's chain gives them. -/

set_option maxRecDepth 16384

noncomputable section

namespace Cert.Value

open Cert.KernelIdeal Cert.KernelIdeal.Gen Cert.KernelIdeal.Hand
open Idealize.ShloMosaic Idealize.ShloMosaic.TcCoe Idealize.ShloMosaic.ValueIdx Idealize.SL.Sem

/-! ## The first five boundaries -/

section Chain

variable {F : FTy → Type} [FloatOps F] (m : (ℓ : Loc nD τ sig) → Buf (Elt F) ℓ)

/-- The launch memory of core c. -/
abbrev Wa0 : Dev nD → Valuation τ sig (Elt F) := fun c b => m (c, b)
/-- After the stacking of the two argument tables. -/
abbrev Wa1 : Dev nD → Valuation τ sig (Elt F) := fun c => StableHlo.after hostOps0 (Wa0 m c)
/-- After the padding. -/
abbrev Wa2 : Dev nD → Valuation τ sig (Elt F) := fun c => StableHlo.after hostOps0_1 (Wa1 m c)
/-- After the first region. -/
def Wa3 : Dev nD → Valuation τ sig (Elt F) := fun c => Wout0 (Wa2 m) c
/-- After the cut back to 100000 rows, the zeros, and the first chunk's slices. -/
abbrev Wa4 : Dev nD → Valuation τ sig (Elt F) := fun c => StableHlo.after hostOps1 (Wa3 m c)

end Chain

/-! ## Each step read back -/

section Read

variable (m : (ℓ : Loc nD τ sig) → Buf (Elt Ideal) ℓ)

/-- The stack: the two argument tables, the first on top. -/
theorem x0_cat (c : Dev nD) :
    Wa1 m c (Proc.devRef .tc main_v0)
      = concatenate S100000x64 0 [⟨S40000x64, m (c, Proc.devRef .tc main_arg0)⟩, ⟨S60000x64, m (c, Proc.devRef .tc main_arg1)⟩]
          concatenates_S40000x64_S60000x64_S100000x64_d0 := by
  show StableHlo.after hostOps0 _ (Proc.devRef .tc main_v0) = _
  unfold hostOps0
  after_results
  try rfl

/-- The padded array: the stack with 2400 rows of a constant added below. -/
theorem x0_pad (c : Dev nD) :
    Wa2 m c (Proc.devRef .tc main_v1)
      = pad S102400x64 ![0, 0] ![2400, 0] ![0, 0] (Wa1 m c (Proc.devRef .tc main_v0) : FVec Ideal S100000x64 .f32)
          (sitofp .f32 (Wa1 m c (Proc.devRef .tc main_c) : IVec S_ 32) : FVec Ideal S_ .f32)
          pads_S100000x64_S102400x64_024000_000 h_S_ := by
  show StableHlo.after hostOps0_1 _ (Proc.devRef .tc main_v1) = _
  unfold hostOps0_1
  after_results
  try rfl

/-- The region's output array when it is left: the padded array as the region found it, mapped row by row. -/
theorem x0_arr (c : Dev nD) :
    Wa3 m c (Proc.devRef .tc main_v2) = hypArray (n := 102400) (Wa2 m c (Proc.devRef .tc main_v1)) :=
  (Wout0_arr (Wa2 m) c 1).trans (hyp_final (Vof (Wa2 m)) c)

/-- The table the layers start from: the first 100000 rows of the region's output array. -/
theorem x0_slice (c : Dev nD) :
    Wa4 m c (Proc.devRef .tc main_v3)
      = extractStridedSlice S100000x64 ![0, 0] (Wa3 m c (Proc.devRef .tc main_v2)) slices_S102400x64_S100000x64_0_0 := by
  show StableHlo.after hostOps1 _ (Proc.devRef .tc main_v3) = _
  unfold hostOps1
  after_results
  try rfl

/-! ## The two results -/

/-- THE STARTING TABLE: row r of it is the row map of row r of the stack of the two argument tables. -/
theorem kernel_x0 (c : Dev nD) :
    Wa4 m c main_v3 = fun i : S100000x64.Idx =>
      hypRow (catRow (n₁ := 40000) (n₂ := 60000) (N := 100000) (m := 64) rfl
        (m ((c : Thread nD τ).loc main_arg0)) (m ((c : Thread nD τ).loc main_arg1)) (i 0)) (i 1) := by
  funext i
  obtain ⟨r, q, rfl⟩ : ∃ r q, i = ValueIdx.ix2 r q := ⟨i 0, i 1, ValueIdx.eq_ix2 i⟩
  show Wa4 m c (Proc.devRef .tc main_v3) (ValueIdx.ix2 r q) = _
  rw [x0_slice, x0_arr, x0_pad, x0_cat]
  exact slice_hypArray_pad_concat_apply (n₁ := 40000) (n₂ := 60000) (n := 100000) (N := 102400) (p := 2400) rfl
    _ _ concatenates_S40000x64_S60000x64_S100000x64_d0 _ pads_S100000x64_S102400x64_024000_000 h_S_
    slices_S102400x64_S100000x64_0_0 r q

/-- THE TOTAL BEFORE THE FIRST LAYER: zeros. -/
theorem kernel_light0 (c : Dev nD) : Wa4 m c main_v4 = light0 GK := by
  show StableHlo.after hostOps1 _ (Proc.devRef .tc main_v4) = _
  unfold hostOps1
  after_results
  try rfl

end Read

end Cert.Value

end
-- ==== Proof.Val.FirstTable.lean ====
import proofs.«421643_j28415503630349_2_alg».proof.Proof.Val.HypGlue
import proofs.«421643_j28415503630349_2_alg».proof.Proof.Val.LayerSpec

/-!
# The first table

Both programs start the three layers from the same table of 100000 rows of 64: the 40000 user rows followed by the
60000 item rows, every row mapped by `hypRow`. Row `r` of it is `hypRow` of row `r` of the two tables laid end to
end (`catRow`). Stated over the arrays alone, so that either program's side can name it.
-/

noncomputable section

namespace Cert.Value

open Idealize.ShloMosaic Idealize.ShloMosaic.ValueIdx

/-- The first table: at `(r, q)`, coordinate `q` of `hypRow` of row `r` of the user rows followed by the item rows. -/
def X0 (u : FVec Ideal T40000x64 .f32) (it : FVec Ideal T60000x64 .f32) : FVec Ideal T100000x64 .f32 :=
  fun i => hypRow (catRow (N := 100000) (n₁ := 40000) (n₂ := 60000) (by decide) u it (i 0)) (i 1)

end Cert.Value

end
-- ==== Proof.Val.KernelValue.lean ====
import proofs.«421643_j28415503630349_2_alg».proof.Proof.KI.Args
import proofs.«421643_j28415503630349_2_alg».proof.Proof.KI.Keep
import proofs.«421643_j28415503630349_2_alg».proof.Proof.Val.KChunks
import proofs.«421643_j28415503630349_2_alg».proof.Proof.Val.KLayer
import proofs.«421643_j28415503630349_2_alg».proof.Proof.Val.KernelX0
import proofs.«421643_j28415503630349_2_alg».proof.Proof.Val.FirstTable

/-! # What the kernel program returns

Three layers. Each layer's sixteen gather regions leave the sixteen chunks of the weighted rows of the table the layer
started from; the host stretch after them lays the chunks end to end, sums the rows by their row numbers into the next
table and adds it to the running total. The first table is the stacked argument tables mapped row by row, the first
total is zero. After the third layer the total is cut into user rows and item rows and the three results are read off.
Written over the seven argument arrays alone, this is the host side's specification at this program's side conditions,
with "the weighted rows of a table" as the way a layer's rows are made. -/

set_option maxRecDepth 16384

noncomputable section

namespace Cert.Value

open Cert.KernelIdeal Cert.KernelIdeal.Gen Cert.KernelIdeal.Hand
open Idealize.ShloMosaic Idealize.ShloMosaic.TcCoe
open Idealize.SL.Sem

/-- A chunk of the weighted rows of a table is the same chunk of any equal table. -/
theorem chunk_congr {x x' : T100000x64.Idx → EReal} (hx : x = x') {cols : T1600000.Idx → BitVec 32}
    {vals : T1600000.Idx → EReal} {hcols : ∀ e, (cols e).toNat < 100000} {k : Fin 16} {A : T100000x64.Idx → EReal}
    (h : A = chunkSpec x cols vals hcols k) : A = chunkSpec x' cols vals hcols k := by
  subst hx; exact h

section Assembly

variable (m : (ℓ : Loc nD τ sig) → Buf (Elt Ideal) ℓ)
  (hcols : ∀ (c : Dev nD) (e : S1600000.Idx), (m ((c.tc : Thread nD τ).loc main_arg4) e).toNat < 100000)
  (c : Dev nD)

/-! ## The arguments, and the terms of the specification over them -/

/-- The seven argument arrays on core c: user rows, item rows, weights, row numbers to sum by, row numbers to gather at,
    and the two lists of result row numbers. -/
abbrev kvUsers : FVec Ideal T40000x64 .f32 := m ((c.tc : Thread nD τ).loc main_arg0)
abbrev kvItems : FVec Ideal T60000x64 .f32 := m ((c.tc : Thread nD τ).loc main_arg1)
abbrev kvVals : FVec Ideal T1600000 .f32 := m ((c.tc : Thread nD τ).loc main_arg2)
abbrev kvRows : IVec T1600000 32 := m ((c.tc : Thread nD τ).loc main_arg3)
abbrev kvCols : IVec T1600000 32 := m ((c.tc : Thread nD τ).loc main_arg4)
abbrev kvUser : IVec T4096 32 := m ((c.tc : Thread nD τ).loc main_arg5)
abbrev kvPos : IVec T4096 32 := m ((c.tc : Thread nD τ).loc main_arg6)

/-- How a layer's rows are made from its table. -/
abbrev kvW : FVec Ideal T100000x64 .f32 → FVec Ideal T1600000x64 .f32 :=
  fun x => weightedSpec x (kvCols m c) (kvVals m c) (hcols c)

/-- The table each layer starts from, and the table the last one makes. -/
abbrev kvT0 : FVec Ideal T100000x64 .f32 := X0 (kvUsers m c) (kvItems m c)
abbrev kvT1 : FVec Ideal T100000x64 .f32 := layerStep GK (kvW m hcols c (kvT0 m c)) (kvRows m c)
abbrev kvT2 : FVec Ideal T100000x64 .f32 := layerStep GK (kvW m hcols c (kvT1 m hcols c)) (kvRows m c)
abbrev kvT3 : FVec Ideal T100000x64 .f32 := layerStep GK (kvW m hcols c (kvT2 m hcols c)) (kvRows m c)

/-- The running total after each layer. -/
abbrev kvL1 : FVec Ideal T100000x64 .f32 := accum (light0 GK) (kvT1 m hcols c)
abbrev kvL2 : FVec Ideal T100000x64 .f32 := accum (kvL1 m hcols c) (kvT2 m hcols c)
abbrev kvL3 : FVec Ideal T100000x64 .f32 := accum (kvL2 m hcols c) (kvT3 m hcols c)

/-! ## Before the first layer -/

/-- The first table, at the boundary that makes it. -/
theorem kv_x0 : W4 m c main_v3 = kvT0 m c := kernel_x0 m c

/-- The zero total, at the same boundary. -/
theorem kv_light0 : W4 m c main_v4 = light0 GK := kernel_light0 m c

/-! ## The three layers -/

/-- LAYER 1: at its end the sixteen outputs are the sixteen chunks of the weighted rows of the first table; the stretch
    after them makes the second table and the first total. -/
theorem kv_layer1 : W36 m c main_v72 = kvT1 m hcols c ∧ W36 m c main_v73 = kvL1 m hcols c :=
  klayer1 (W35 m c) (kvT0 m c) (kvCols m c) (kvRows m c) (kvVals m c) (hcols c) (light0 GK)
    (chunk_congr (kv_x0 m c) (kchunk1 m hcols c))
    (chunk_congr (kv_x0 m c) (kchunk2 m hcols c))
    (chunk_congr (kv_x0 m c) (kchunk3 m hcols c))
    (chunk_congr (kv_x0 m c) (kchunk4 m hcols c))
    (chunk_congr (kv_x0 m c) (kchunk5 m hcols c))
    (chunk_congr (kv_x0 m c) (kchunk6 m hcols c))
    (chunk_congr (kv_x0 m c) (kchunk7 m hcols c))
    (chunk_congr (kv_x0 m c) (kchunk8 m hcols c))
    (chunk_congr (kv_x0 m c) (kchunk9 m hcols c))
    (chunk_congr (kv_x0 m c) (kchunk10 m hcols c))
    (chunk_congr (kv_x0 m c) (kchunk11 m hcols c))
    (chunk_congr (kv_x0 m c) (kchunk12 m hcols c))
    (chunk_congr (kv_x0 m c) (kchunk13 m hcols c))
    (chunk_congr (kv_x0 m c) (kchunk14 m hcols c))
    (chunk_congr (kv_x0 m c) (kchunk15 m hcols c))
    (chunk_congr (kv_x0 m c) (kchunk16 m hcols c))
    (W35_arg3 m c) ((W35_main_v4 m c).trans (kv_light0 m c))

/-- LAYER 2: the same from the second table and the first total. -/
theorem kv_layer2 : W68 m c main_v141 = kvT2 m hcols c ∧ W68 m c main_v142 = kvL2 m hcols c :=
  klayer2 (W67 m c) (kvT1 m hcols c) (kvCols m c) (kvRows m c) (kvVals m c) (hcols c) (kvL1 m hcols c)
    (chunk_congr (kv_layer1 m hcols c).1 (kchunk17 m hcols c))
    (chunk_congr (kv_layer1 m hcols c).1 (kchunk18 m hcols c))
    (chunk_congr (kv_layer1 m hcols c).1 (kchunk19 m hcols c))
    (chunk_congr (kv_layer1 m hcols c).1 (kchunk20 m hcols c))
    (chunk_congr (kv_layer1 m hcols c).1 (kchunk21 m hcols c))
    (chunk_congr (kv_layer1 m hcols c).1 (kchunk22 m hcols c))
    (chunk_congr (kv_layer1 m hcols c).1 (kchunk23 m hcols c))
    (chunk_congr (kv_layer1 m hcols c).1 (kchunk24 m hcols c))
    (chunk_congr (kv_layer1 m hcols c).1 (kchunk25 m hcols c))
    (chunk_congr (kv_layer1 m hcols c).1 (kchunk26 m hcols c))
    (chunk_congr (kv_layer1 m hcols c).1 (kchunk27 m hcols c))
    (chunk_congr (kv_layer1 m hcols c).1 (kchunk28 m hcols c))
    (chunk_congr (kv_layer1 m hcols c).1 (kchunk29 m hcols c))
    (chunk_congr (kv_layer1 m hcols c).1 (kchunk30 m hcols c))
    (chunk_congr (kv_layer1 m hcols c).1 (kchunk31 m hcols c))
    (chunk_congr (kv_layer1 m hcols c).1 (kchunk32 m hcols c))
    (W67_arg3 m c) ((W67_main_v73 m c).trans (kv_layer1 m hcols c).2)

/-- LAYER 3 AND THE RESULTS: the same from the third table and the second total, then the cut and the two gathers. -/
theorem kv_tail :
    W100 m c main_v210 = kvT3 m hcols c ∧ W100 m c main_v211 = kvL3 m hcols c
      ∧ W100 m c main_v220 = (tail3 GK (kvL3 m hcols c) (kvUser m c) (kvPos m c)).1
      ∧ W100 m c main_v227 = (tail3 GK (kvL3 m hcols c) (kvUser m c) (kvPos m c)).2.1
      ∧ W100 m c main_v213 = (tail3 GK (kvL3 m hcols c) (kvUser m c) (kvPos m c)).2.2 :=
  klayer3_tail (W99 m c) (kvT2 m hcols c) (kvCols m c) (kvRows m c) (kvVals m c) (hcols c) (kvL2 m hcols c)
    (kvUser m c) (kvPos m c)
    (chunk_congr (kv_layer2 m hcols c).1 (kchunk33 m hcols c))
    (chunk_congr (kv_layer2 m hcols c).1 (kchunk34 m hcols c))
    (chunk_congr (kv_layer2 m hcols c).1 (kchunk35 m hcols c))
    (chunk_congr (kv_layer2 m hcols c).1 (kchunk36 m hcols c))
    (chunk_congr (kv_layer2 m hcols c).1 (kchunk37 m hcols c))
    (chunk_congr (kv_layer2 m hcols c).1 (kchunk38 m hcols c))
    (chunk_congr (kv_layer2 m hcols c).1 (kchunk39 m hcols c))
    (chunk_congr (kv_layer2 m hcols c).1 (kchunk40 m hcols c))
    (chunk_congr (kv_layer2 m hcols c).1 (kchunk41 m hcols c))
    (chunk_congr (kv_layer2 m hcols c).1 (kchunk42 m hcols c))
    (chunk_congr (kv_layer2 m hcols c).1 (kchunk43 m hcols c))
    (chunk_congr (kv_layer2 m hcols c).1 (kchunk44 m hcols c))
    (chunk_congr (kv_layer2 m hcols c).1 (kchunk45 m hcols c))
    (chunk_congr (kv_layer2 m hcols c).1 (kchunk46 m hcols c))
    (chunk_congr (kv_layer2 m hcols c).1 (kchunk47 m hcols c))
    (chunk_congr (kv_layer2 m hcols c).1 (kchunk48 m hcols c))
    (W99_arg3 m c) ((W99_main_v142 m c).trans (kv_layer2 m hcols c).2) (W99_arg5 m c) (W99_arg6 m c)

/-! ## The value -/

/-- THE KERNEL SIDE'S VALUE: the three results at the last boundary are the host side's specification of three layers,
    at this program's side conditions, over the seven argument arrays. -/
theorem kernel_value :
    ((W100 m c main_v220, W100 m c main_v227, W100 m c main_v213) :
        FVec Ideal T4096x64 .f32 × FVec Ideal T4096x64 .f32 × FVec Ideal T60000x64 .f32)
      = forward3 GK (fun x => weightedSpec x (m ((c.tc : Thread nD τ).loc main_arg4)) (m ((c.tc : Thread nD τ).loc main_arg2)) (hcols c))
          (X0 (m ((c.tc : Thread nD τ).loc main_arg0)) (m ((c.tc : Thread nD τ).loc main_arg1)))
          (m ((c.tc : Thread nD τ).loc main_arg3)) (m ((c.tc : Thread nD τ).loc main_arg5))
          (m ((c.tc : Thread nD τ).loc main_arg6)) := by
  obtain ⟨-, -, hU, hI, hR⟩ := kv_tail m hcols c
  show _ = tail3 GK (kvL3 m hcols c) (kvUser m c) (kvPos m c)
  exact Prod.ext hU (Prod.ext hI hR)

end Assembly

end Cert.Value

end
-- ==== Proof.Val.RefRun.lean ====
/-
  The reference program's run and its operations read at an index: the generated modules, gathered under one
  import for the modules that bridge the reference's result to the shared specification.
-/
import proofs.«421643_j28415503630349_2_alg».proof.Proof.Gen.ReferenceIdeal.Run
import proofs.«421643_j28415503630349_2_alg».proof.Proof.Gen.ReferenceIdeal.Read
-- ==== Proof.Val.HypRef.lean ====
/-
  THE REFERENCE'S STARTING TABLE. The reference maps the users' table and the items' table separately, each by the same
  chain of host operations, and stacks the results. On one table of `n` rows the chain is: cut off the spatial part
  (columns 1 … 63); recompute the time coordinate as `sqrt(max(1e-7, 1 + ss))` from the rows' sums of squares `ss`
  and put it back in column 0; from that table read θ (column 0 over 1, clipped twice from below at 1.00000012) and
  the spatial part again, whose norm `sqrt ss` is clipped from below at 1e-15; scale the spatial part by
  `1 · log(θ + sqrt(θ·θ − 1))`, divide by the clipped norm, and put a zero column in front. Every sum starts from a
  zero initial value, which adds nothing, and every clip is the maximum with the scalar on the left. Read at `(p, q)`
  this is the row map of `HypSpec` at row `p` of the table: the same function the kernel's block payload computes.
-/
import proofs.«421643_j28415503630349_2_alg».proof.ReferenceIdeal
import proofs.«421643_j28415503630349_2_alg».proof.Proof.Val.HypSpec
import proofs.«421643_j28415503630349_2_alg».proof.Proof.Val.HypLayout
import proofs.«421643_j28415503630349_2_alg».proof.Proof.Val.HypGlue

noncomputable section

open scoped BigOperators

namespace Cert.Value

open Idealize.ShloMosaic Idealize.ShloMosaic.ValueIdx

/-! ## Host re-indexings of a row-wise normalisation, read at an index -/

section HostLayout
variable {α : Type}

/-- An `[a]` array broadcast in dimension 0 to `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- An `[a, 1]` column broadcast in dimensions (0, 1) to `[a, b]` reads, at `(p, c)`, the column at row `p`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

end HostLayout

/-- At the ideal values the host's sum of an `[a, b]` array along its rows is, at row `p`, the initial value plus the
    sum of that row's `b` elements. -/
theorem hostLaneSum_apply {a b : ℕ} (src : FVec Ideal ⟨2, ![a, b]⟩ .f32) {u : Shape} (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd src init h' hu (ix1 p) = init (Shape.Idx.first hu) + ∑ k : Fin b, src (ix2 p k) := by
  refine (Ideal.hostReduceAdd_single h' h src _ (ix1 p)).trans ?_
  exact congrArg (_ + ·) (Finset.sum_congr rfl fun k _ => congrArg src (lift_ix1 h p k))

/-! ## The reference's operations on one table, as one term -/

section RefTerm

/-- The scalar shape. -/
abbrev Sc : Shape := ⟨0, ![]⟩

variable {n : ℕ}
  (hsl1 : (⟨2, ![n, 64]⟩ : Shape).Slices ![0, 1] ⟨2, ![n, 63]⟩)
  (hred : (⟨2, ![n, 63]⟩ : Shape).ReducesTo [1] ⟨1, ![n]⟩)
  (hS : 0 < Sc.numel)
  (hb0 : (⟨1, ![n]⟩ : Shape).BroadcastsInDim ⟨2, ![n, 1]⟩ (![0] : Fin 1 → Fin 2))
  (hbS : Sc.BroadcastsInDim ⟨2, ![n, 1]⟩ (![] : Fin 0 → Fin 2))
  (hcat : Shape.Concatenates [(⟨2, ![n, 1]⟩ : Shape), ⟨2, ![n, 63]⟩] ⟨2, ![n, 64]⟩ 1)
  (hsl0 : (⟨2, ![n, 64]⟩ : Shape).Slices ![0, 0] ⟨2, ![n, 1]⟩)
  (hb01 : (⟨2, ![n, 1]⟩ : Shape).BroadcastsInDim ⟨2, ![n, 63]⟩ (![0, 1] : Fin 2 → Fin 2))

/-- A scalar word as a column. -/
def refSplat (b : BitVec 32) : FVec Ideal ⟨2, ![n, 1]⟩ .f32 :=
  broadcastInDim ⟨2, ![n, 1]⟩ ![] hbS (constant (F := Ideal) Sc .f32 b)

/-- The reference's clip from below: the maximum of the scalar, converted and broadcast, with the column. -/
def refClip (b : BitVec 32) (x : FVec Ideal ⟨2, ![n, 1]⟩ .f32) : FVec Ideal ⟨2, ![n, 1]⟩ .f32 :=
  maximumf (broadcastInDim ⟨2, ![n, 1]⟩ ![] hbS (id (constant (F := Ideal) Sc .f32 b))) x

/-- The spatial part of the table: columns 1 … 63. -/
def refTail (w : FVec Ideal ⟨2, ![n, 64]⟩ .f32) : FVec Ideal ⟨2, ![n, 63]⟩ .f32 :=
  extractStridedSlice ⟨2, ![n, 63]⟩ ![0, 1] w hsl1

/-- The rows' sums of squares, from a zero initial value, as a column. -/
def refSumSq (y : FVec Ideal ⟨2, ![n, 63]⟩ .f32) : FVec Ideal ⟨2, ![n, 1]⟩ .f32 :=
  broadcastInDim ⟨2, ![n, 1]⟩ ![0] hb0
    (Host.reduceAdd (mulf y y) (constant (F := Ideal) Sc .f32 0x00000000#32) hred hS)

/-- The table with its time coordinate recomputed: `sqrt(max(1e-7, 1 + ss))` in column 0, the spatial part after it. -/
def refFull (w : FVec Ideal ⟨2, ![n, 64]⟩ .f32) : FVec Ideal ⟨2, ![n, 64]⟩ .f32 :=
  concatenate ⟨2, ![n, 64]⟩ 1
    [⟨⟨2, ![n, 1]⟩, Host.sqrt (refClip hbS 0x33D6BF95#32
        (addf (refSplat hbS 0x3F800000#32) (refSumSq hred hS hb0 (refTail hsl1 w))))⟩,
      ⟨⟨2, ![n, 63]⟩, refTail hsl1 w⟩] hcat

/-- θ as a column: the time coordinate over 1, clipped twice from below. -/
def refTheta (w : FVec Ideal ⟨2, ![n, 64]⟩ .f32) : FVec Ideal ⟨2, ![n, 1]⟩ .f32 :=
  refClip hbS 0x3F800001#32 (refClip hbS 0x3F800001#32
    (Host.divf (extractStridedSlice ⟨2, ![n, 1]⟩ ![0, 0] (refFull hsl1 hred hS hb0 hbS hcat w) hsl0)
      (refSplat hbS 0x3F800000#32)))

/-- THE REFERENCE'S MAP OF ONE TABLE: the zero column, then the spatial part of the recomputed table scaled by
    `1 · log(θ + sqrt(θ·θ − 1))` and divided by its clipped norm. -/
def refHyp (w : FVec Ideal ⟨2, ![n, 64]⟩ .f32) : FVec Ideal ⟨2, ![n, 64]⟩ .f32 :=
  concatenate ⟨2, ![n, 64]⟩ 1
    [⟨⟨2, ![n, 1]⟩, refSplat hbS 0x00000000#32⟩,
      ⟨⟨2, ![n, 63]⟩, Host.divf
        (mulf
          (broadcastInDim ⟨2, ![n, 63]⟩ ![0, 1] hb01
            (mulf (refSplat hbS 0x3F800000#32)
              (Host.log (addf (refTheta hsl1 hred hS hb0 hbS hcat hsl0 w)
                (Host.sqrt (subf (mulf (refTheta hsl1 hred hS hb0 hbS hcat hsl0 w) (refTheta hsl1 hred hS hb0 hbS hcat hsl0 w))
                  (refSplat hbS 0x3F800000#32)))))))
          (extractStridedSlice ⟨2, ![n, 63]⟩ ![0, 1] (refFull hsl1 hred hS hb0 hbS hcat w) hsl1))
        (broadcastInDim ⟨2, ![n, 63]⟩ ![0, 1] hb01
          (refClip hbS 0x26901D7D#32
            (Host.sqrt (refSumSq hred hS hb0
              (extractStridedSlice ⟨2, ![n, 63]⟩ ![0, 1] (refFull hsl1 hred hS hb0 hbS hcat w) hsl1)))))⟩] hcat

/-! ### Its pieces read at an index -/

variable (hR : (⟨2, ![n, 63]⟩ : Shape).Reduces [1] ⟨1, ![n]⟩)

theorem refTail_apply (w : FVec Ideal ⟨2, ![n, 64]⟩ .f32) (p : Fin n) (k : Fin 63) :
    refTail hsl1 w (ix2 p k) = w (ix2 p (tailIdx k)) :=
  slice2_axis1_apply 1 w hsl1 p k (tailIdx k) rfl

/-- The recomputed table keeps the spatial part. -/
theorem refFull_tail_apply (w : FVec Ideal ⟨2, ![n, 64]⟩ .f32) (p : Fin n) (k : Fin 63) :
    extractStridedSlice ⟨2, ![n, 63]⟩ ![0, 1] (refFull hsl1 hred hS hb0 hbS hcat w) hsl1 (ix2 p k)
      = w (ix2 p (tailIdx k)) := by
  rw [slice2_axis1_apply 1 _ hsl1 p k (tailIdx k) rfl]
  unfold refFull
  refine (concatenate_pair_apply_right (t := ⟨2, ![n, 64]⟩) (s₁ := ⟨2, ![n, 1]⟩) (s₂ := ⟨2, ![n, 63]⟩) 1 _ _ hcat
    (ix2 p (tailIdx k)) rfl rfl (ix2 p k) (fun b hb => ?_) ?_).trans (refTail_apply hsl1 w p k)
  · match b, hb with
    | ⟨0, _⟩, _ => rfl
    | ⟨1, _⟩, hb => exact absurd rfl hb
  · show k.val + 1 = 1 + k.val
    omega

include hR

/-- The sum of squares of any `[n, 63]` array at row `p`: the zero initial value adds nothing. -/
theorem refSumSq_apply (y : FVec Ideal ⟨2, ![n, 63]⟩ .f32) (p : Fin n) (u : Fin 1) :
    refSumSq hred hS hb0 y (ix2 p u) = ∑ k : Fin 63, y (ix2 p k) * y (ix2 p k) := by
  unfold refSumSq
  rw [broadcastInDim_a_a1_apply, hostLaneSum_apply _ _ hred hR hS p]
  show Ideal.ofBits .f32 0x00000000#32 + _ = _
  rw [Ideal.ofBits_zero_f32, zero_add]
  rfl

/-- Of the table's spatial part it is the squared norm of row `p`'s spatial part. -/
theorem refSumSq_tail_apply (w : FVec Ideal ⟨2, ![n, 64]⟩ .f32) (p : Fin n) (u : Fin 1) :
    refSumSq hred hS hb0 (refTail hsl1 w) (ix2 p u) = hypSS (fun j => w (ix2 p j)) := by
  rw [refSumSq_apply hred hS hb0 hR]
  unfold hypSS
  exact Finset.sum_congr rfl fun k _ => by rw [refTail_apply]

/-- Its column 0 is the recomputed time coordinate. -/
theorem refFull_time_apply (w : FVec Ideal ⟨2, ![n, 64]⟩ .f32) (p : Fin n) (u : Fin 1) :
    extractStridedSlice ⟨2, ![n, 1]⟩ ![0, 0] (refFull hsl1 hred hS hb0 hbS hcat w) hsl0 (ix2 p u)
      = Ideal.sqrt (max (Ideal.ofBits .f32 0x33D6BF95#32)
          (Ideal.ofBits .f32 0x3F800000#32 + hypSS (fun j => w (ix2 p j)))) := by
  have hu : u.val = 0 := by omega
  rw [slice2_axis1_apply 0 _ hsl0 p u (⟨0, by omega⟩ : Fin 64) (by show 0 = 0 + u.val; omega)]
  unfold refFull
  refine (concatenate_pair_apply_left (t := ⟨2, ![n, 64]⟩) (s₁ := ⟨2, ![n, 1]⟩) (s₂ := ⟨2, ![n, 63]⟩) 1 _ _ hcat
    (ix2 p (⟨0, by omega⟩ : Fin 64)) rfl (ix2 p (0 : Fin 1)) (fun b => ?_)).trans ?_
  · match b with
    | ⟨0, _⟩ => rfl
    | ⟨1, _⟩ => rfl
  · rw [← refSumSq_tail_apply hsl1 hred hS hb0 hR w p 0]
    rfl

/-- The clipped norm of the recomputed table's spatial part at row `p`. -/
theorem refDen_apply (w : FVec Ideal ⟨2, ![n, 64]⟩ .f32) (p : Fin n) (u : Fin 1) :
    refClip hbS 0x26901D7D#32 (Host.sqrt (refSumSq hred hS hb0
        (extractStridedSlice ⟨2, ![n, 63]⟩ ![0, 1] (refFull hsl1 hred hS hb0 hbS hcat w) hsl1))) (ix2 p u)
      = hypDen (hypSS (fun j => w (ix2 p j))) := by
  have h : refSumSq hred hS hb0
      (extractStridedSlice ⟨2, ![n, 63]⟩ ![0, 1] (refFull hsl1 hred hS hb0 hbS hcat w) hsl1) (ix2 p u)
        = hypSS (fun j => w (ix2 p j)) := by
    rw [refSumSq_apply hred hS hb0 hR]
    unfold hypSS
    exact Finset.sum_congr rfl fun k _ => by rw [refFull_tail_apply]
  unfold hypDen
  rw [← h]
  rfl

/-- θ at row `p`. -/
theorem refTheta_apply (w : FVec Ideal ⟨2, ![n, 64]⟩ .f32) (p : Fin n) (u : Fin 1) :
    refTheta hsl1 hred hS hb0 hbS hcat hsl0 w (ix2 p u) = hypTheta (hypSS (fun j => w (ix2 p j))) := by
  unfold hypTheta
  rw [← refFull_time_apply hsl1 hred hS hb0 hbS hcat hsl0 hR w p u]
  rfl

/-- THE REFERENCE'S MAP AT AN INDEX is the row map of row `p` at coordinate `q`. -/
theorem refHyp_apply (w : FVec Ideal ⟨2, ![n, 64]⟩ .f32) (p : Fin n) (q : Fin 64) :
    refHyp hsl1 hred hS hb0 hbS hcat hsl0 hb01 w (ix2 p q) = hypRow (fun j => w (ix2 p j)) q := by
  unfold refHyp
  by_cases hq : q.val = 0
  · rw [hypRow_zero _ _ hq]
    exact concatenate_pair_apply_left (t := ⟨2, ![n, 64]⟩) (s₁ := ⟨2, ![n, 1]⟩) (s₂ := ⟨2, ![n, 63]⟩) 1 _ _ hcat
      (ix2 p q) rfl (ix2 p (0 : Fin 1)) (fun b => by
        match b with
        | ⟨0, _⟩ => rfl
        | ⟨1, _⟩ => exact hq.symm)
  · have hk : q.val - 1 < 63 := by have := q.isLt; omega
    have hθ := refTheta_apply hsl1 hred hS hb0 hbS hcat hsl0 hR w p 0
    rw [hypRow_pos _ _ hq]
    refine (concatenate_pair_apply_right (t := ⟨2, ![n, 64]⟩) (s₁ := ⟨2, ![n, 1]⟩) (s₂ := ⟨2, ![n, 63]⟩) 1 _ _ hcat
      (ix2 p q) rfl rfl (ix2 p (⟨q.val - 1, hk⟩ : Fin 63)) (fun b hb => ?_) ?_).trans ?_
    · match b, hb with
      | ⟨0, _⟩, _ => rfl
      | ⟨1, _⟩, hb => exact absurd rfl hb
    · show q.val - 1 + 1 = q.val
      omega
    · show Ideal.div (_ * _) _ = _
      rw [broadcastInDim_a1_ab_apply, broadcastInDim_a1_ab_apply, refFull_tail_apply, ← eq_tailIdx q hq,
        refDen_apply hsl1 hred hS hb0 hbS hcat hR]
      unfold hypCoord
      refine congrArg₂ Ideal.div (congrArg₂ (· * ·) ?_ rfl) rfl
      unfold hypScale
      rw [← hθ]
      rfl

/-- So the reference's map of a table is the table mapped row by row. -/
theorem refHyp_eq (w : FVec Ideal ⟨2, ![n, 64]⟩ .f32) :
    refHyp hsl1 hred hS hb0 hbS hcat hsl0 hb01 w = hypArray (n := n) w := by
  funext i
  obtain ⟨p, q, rfl⟩ : ∃ (p : Fin n) (q : Fin 64), i = ix2 p q := ⟨i 0, i 1, eq_ix2 i⟩
  exact refHyp_apply hsl1 hred hS hb0 hbS hcat hsl0 hb01 hR w p q

end RefTerm

/-! ## The two mapped tables stacked -/

/-- Two tables mapped row by row and then stacked: at row `r` the row map of row `r` of the stack. -/
theorem concat_hypArray_eq {n₁ n₂ N : ℕ} (hN : N = n₁ + n₂) (a : (⟨2, ![n₁, 64]⟩ : Shape).Idx → EReal)
    (b : (⟨2, ![n₂, 64]⟩ : Shape).Idx → EReal)
    (h : Shape.Concatenates [(⟨2, ![n₁, 64]⟩ : Shape), ⟨2, ![n₂, 64]⟩] ⟨2, ![N, 64]⟩ 0) :
    concatenate ⟨2, ![N, 64]⟩ 0 [⟨⟨2, ![n₁, 64]⟩, hypArray a⟩, ⟨⟨2, ![n₂, 64]⟩, hypArray b⟩] h
      = fun i : (⟨2, ![N, 64]⟩ : Shape).Idx => hypRow (catRow hN a b (i 0)) (i 1) := by
  funext i
  obtain ⟨r, q, rfl⟩ : ∃ (r : Fin N) (q : Fin 64), i = ix2 r q := ⟨i 0, i 1, eq_ix2 i⟩
  rw [concat_rows_apply hN]
  show catRow hN (hypArray a) (hypArray b) r q = hypRow (catRow hN a b r) q
  unfold catRow
  by_cases hr : r.val < n₁
  · simp only [dif_pos hr]; rfl
  · simp only [dif_neg hr]; rfl

/-! ## The reference's two tables -/

section Tables

open Cert.ReferenceIdeal Cert.ReferenceIdeal.Facts₀

variable [Cert.ReferenceIdeal.Facts₀]

/-- The reference's map of the users' table: the term above at 40000 rows, with the program's own shape facts. -/
def refHypUsers (w : FVec Ideal S40000x64 .f32) : FVec Ideal S40000x64 .f32 :=
  refHyp (n := 40000) slices_S40000x64_S40000x63_0_1 reducesTo_S40000x63_S40000_d1 h_S_ bcast_S40000_S40000x1_0 bcast_S_S40000x1
    concatenates_S40000x1_S40000x63_S40000x64_d1 slices_S40000x64_S40000x1_0_0 bcast_S40000x1_S40000x63_0_1 w

/-- It is the users' table mapped row by row. -/
theorem refHypUsers_eq (w : FVec Ideal S40000x64 .f32) : refHypUsers w = hypArray (n := 40000) w :=
  refHyp_eq _ _ _ _ _ _ _ _ (by decide) w

/-- The reference's map of the items' table: the term above at 60000 rows, with the program's own shape facts. -/
def refHypItems (w : FVec Ideal S60000x64 .f32) : FVec Ideal S60000x64 .f32 :=
  refHyp (n := 60000) slices_S60000x64_S60000x63_0_1 reducesTo_S60000x63_S60000_d1 h_S_ bcast_S60000_S60000x1_0 bcast_S_S60000x1
    concatenates_S60000x1_S60000x63_S60000x64_d1 slices_S60000x64_S60000x1_0_0 bcast_S60000x1_S60000x63_0_1 w

/-- It is the items' table mapped row by row. -/
theorem refHypItems_eq (w : FVec Ideal S60000x64 .f32) : refHypItems w = hypArray (n := 60000) w :=
  refHyp_eq _ _ _ _ _ _ _ _ (by decide) w

/-- The printed operations on the Users table, statement by statement, compose to the term above: by unfolding. -/
theorem refHypUsers_printed (w : FVec Ideal S40000x64 .f32) :
    (let v0 := extractStridedSlice S40000x63 ![0, 1] w slices_S40000x64_S40000x63_0_1
     let v1 := mulf v0 v0
     let v2 := Host.reduceAdd v1 (constant (F := Ideal) S_ .f32 0x00000000#32) reducesTo_S40000x63_S40000_d1 h_S_
     let v3 := broadcastInDim S40000x1 ![0] bcast_S40000_S40000x1_0 v2
     let v4 := broadcastInDim S40000x1 ![] bcast_S_S40000x1 (constant (F := Ideal) S_ .f32 0x3F800000#32)
     let v5 := addf v4 v3
     let v6 := maximumf (broadcastInDim S40000x1 ![] bcast_S_S40000x1 (id (constant (F := Ideal) S_ .f32 0x33D6BF95#32))) v5
     let v7 := Host.sqrt v6
     let v8 := concatenate S40000x64 1 [⟨S40000x1, v7⟩, ⟨S40000x63, v0⟩] concatenates_S40000x1_S40000x63_S40000x64_d1
     let v9 := extractStridedSlice S40000x63 ![0, 1] v8 slices_S40000x64_S40000x63_0_1
     let n0 := mulf v9 v9
     let n1 := Host.reduceAdd n0 (constant (F := Ideal) S_ .f32 0x00000000#32) reducesTo_S40000x63_S40000_d1 h_S_
     let n2 := broadcastInDim S40000x1 ![0] bcast_S40000_S40000x1_0 n1
     let v10 := Host.sqrt n2
     let v11 := maximumf (broadcastInDim S40000x1 ![] bcast_S_S40000x1 (id (constant (F := Ideal) S_ .f32 0x26901D7D#32))) v10
     let v12 := extractStridedSlice S40000x1 ![0, 0] v8 slices_S40000x64_S40000x1_0_0
     let v13 := broadcastInDim S40000x1 ![] bcast_S_S40000x1 (constant (F := Ideal) S_ .f32 0x3F800000#32)
     let v14 := Host.divf v12 v13
     let v15 := maximumf (broadcastInDim S40000x1 ![] bcast_S_S40000x1 (id (constant (F := Ideal) S_ .f32 0x3F800001#32))) v14
     let v16 := maximumf (broadcastInDim S40000x1 ![] bcast_S_S40000x1 (id (constant (F := Ideal) S_ .f32 0x3F800001#32))) v15
     let v17 := mulf v16 v16
     let v18 := broadcastInDim S40000x1 ![] bcast_S_S40000x1 (constant (F := Ideal) S_ .f32 0x3F800000#32)
     let v19 := subf v17 v18
     let v20 := Host.sqrt v19
     let v21 := addf v16 v20
     let v22 := Host.log v21
     let v23 := broadcastInDim S40000x1 ![] bcast_S_S40000x1 (constant (F := Ideal) S_ .f32 0x3F800000#32)
     let v24 := mulf v23 v22
     let v25 := broadcastInDim S40000x63 ![0, 1] bcast_S40000x1_S40000x63_0_1 v24
     let v26 := mulf v25 v9
     let v27 := broadcastInDim S40000x63 ![0, 1] bcast_S40000x1_S40000x63_0_1 v11
     let v28 := Host.divf v26 v27
     let v30 := broadcastInDim S40000x1 ![] bcast_S_S40000x1 (constant (F := Ideal) S_ .f32 0x00000000#32)
     concatenate S40000x64 1 [⟨S40000x1, v30⟩, ⟨S40000x63, v28⟩] concatenates_S40000x1_S40000x63_S40000x64_d1)
      = refHypUsers w := rfl

/-- The printed operations on the Items table, statement by statement, compose to the term above: by unfolding. -/
theorem refHypItems_printed (w : FVec Ideal S60000x64 .f32) :
    (let v0 := extractStridedSlice S60000x63 ![0, 1] w slices_S60000x64_S60000x63_0_1
     let v1 := mulf v0 v0
     let v2 := Host.reduceAdd v1 (constant (F := Ideal) S_ .f32 0x00000000#32) reducesTo_S60000x63_S60000_d1 h_S_
     let v3 := broadcastInDim S60000x1 ![0] bcast_S60000_S60000x1_0 v2
     let v4 := broadcastInDim S60000x1 ![] bcast_S_S60000x1 (constant (F := Ideal) S_ .f32 0x3F800000#32)
     let v5 := addf v4 v3
     let v6 := maximumf (broadcastInDim S60000x1 ![] bcast_S_S60000x1 (id (constant (F := Ideal) S_ .f32 0x33D6BF95#32))) v5
     let v7 := Host.sqrt v6
     let v8 := concatenate S60000x64 1 [⟨S60000x1, v7⟩, ⟨S60000x63, v0⟩] concatenates_S60000x1_S60000x63_S60000x64_d1
     let v9 := extractStridedSlice S60000x63 ![0, 1] v8 slices_S60000x64_S60000x63_0_1
     let n0 := mulf v9 v9
     let n1 := Host.reduceAdd n0 (constant (F := Ideal) S_ .f32 0x00000000#32) reducesTo_S60000x63_S60000_d1 h_S_
     let n2 := broadcastInDim S60000x1 ![0] bcast_S60000_S60000x1_0 n1
     let v10 := Host.sqrt n2
     let v11 := maximumf (broadcastInDim S60000x1 ![] bcast_S_S60000x1 (id (constant (F := Ideal) S_ .f32 0x26901D7D#32))) v10
     let v12 := extractStridedSlice S60000x1 ![0, 0] v8 slices_S60000x64_S60000x1_0_0
     let v13 := broadcastInDim S60000x1 ![] bcast_S_S60000x1 (constant (F := Ideal) S_ .f32 0x3F800000#32)
     let v14 := Host.divf v12 v13
     let v15 := maximumf (broadcastInDim S60000x1 ![] bcast_S_S60000x1 (id (constant (F := Ideal) S_ .f32 0x3F800001#32))) v14
     let v16 := maximumf (broadcastInDim S60000x1 ![] bcast_S_S60000x1 (id (constant (F := Ideal) S_ .f32 0x3F800001#32))) v15
     let v17 := mulf v16 v16
     let v18 := broadcastInDim S60000x1 ![] bcast_S_S60000x1 (constant (F := Ideal) S_ .f32 0x3F800000#32)
     let v19 := subf v17 v18
     let v20 := Host.sqrt v19
     let v21 := addf v16 v20
     let v22 := Host.log v21
     let v23 := broadcastInDim S60000x1 ![] bcast_S_S60000x1 (constant (F := Ideal) S_ .f32 0x3F800000#32)
     let v24 := mulf v23 v22
     let v25 := broadcastInDim S60000x63 ![0, 1] bcast_S60000x1_S60000x63_0_1 v24
     let v26 := mulf v25 v9
     let v27 := broadcastInDim S60000x63 ![0, 1] bcast_S60000x1_S60000x63_0_1 v11
     let v28 := Host.divf v26 v27
     let v30 := broadcastInDim S60000x1 ![] bcast_S_S60000x1 (constant (F := Ideal) S_ .f32 0x00000000#32)
     concatenate S60000x64 1 [⟨S60000x1, v30⟩, ⟨S60000x63, v28⟩] concatenates_S60000x1_S60000x63_S60000x64_d1)
      = refHypItems w := rfl

/-- THE REFERENCE'S STARTING TABLE: the two mapped tables stacked are, at row `r`, the row map of row `r` of the two
    tables stacked. -/
theorem refTables_eq (u : FVec Ideal S40000x64 .f32) (it : FVec Ideal S60000x64 .f32) :
    concatenate S100000x64 0 [⟨S40000x64, refHypUsers u⟩, ⟨S60000x64, refHypItems it⟩]
        concatenates_S40000x64_S60000x64_S100000x64_d0
      = fun i : S100000x64.Idx =>
          hypRow (catRow (N := 100000) (n₁ := 40000) (n₂ := 60000) (by decide) u it (i 0)) (i 1) := by
  rw [refHypUsers_eq, refHypItems_eq]
  exact concat_hypArray_eq (by decide) u it _

end Tables

end Cert.Value

end
-- ==== Proof.Val.RefForward.lean ====
import proofs.«421643_j28415503630349_2_alg».proof.ReferenceIdeal
import proofs.«421643_j28415503630349_2_alg».proof.Proof.Val.LayerSpec

/-!
# The reference from its first table to its results

The reference's host operations from the first table `x0` (its `%64`) on, written as one term over variables in the
order and with the side conditions the printed program gives them (`refFrom`): three times — the weights as a column,
the row numbers `cols` with 100000 added where negative as a column, the row gather, the weights broadcast along the
rows, the product, zeros, `rows` as a column, the scatter-add, the running total — and then the two slices, the two
normalised index columns and the two row gathers of the results.

It equals the shared specification `forward3` at the weighted rows `weightedSpec` when every word of `cols` is a row
number (`refFrom_eq`): the steps around the weighted rows are the specification's by unfolding (`refFrom_glue`), and
each layer's weighted rows are `weightedSpec` by `ref_weighted` (`refW_eq`).
-/

noncomputable section

namespace Cert.Value

open Idealize.ShloMosaic Idealize.ShloMosaic.ValueIdx
open Cert.ReferenceIdeal Cert.ReferenceIdeal.Facts₀

variable [Cert.ReferenceIdeal.Facts₀]

/-- The host steps' side conditions, as the reference states them. -/
theorem GR : GlueFacts :=
  ⟨bcast_S_S100000x64, bcast_S1600000_S1600000x1_0, scatter_S100000x64_S1600000x1_S1600000x64_1_0_0_1_wf,
   slices_S100000x64_S40000x64_0_0, slices_S100000x64_S60000x64_40000_0, bcast_S_S4096, bcast_S4096_S4096x1_0,
   gather_S40000x64_S4096x1_S4096x64_1_0_n_n_0_1_164_wf, gather_S60000x64_S4096x1_S4096x64_1_0_n_n_0_1_164_wf⟩

/-- One layer's weighted rows as the reference writes them: the weights broadcast along the rows times the rows of the
    table `x` gathered at `cols` (with 100000 added where negative). -/
def refW (vals : FVec Ideal S1600000 .f32) (cols : IVec S1600000 32) (x : FVec Ideal S100000x64 .f32) :
    FVec Ideal S1600000x64 .f32 :=
  mulf
    (broadcastInDim S1600000x64 ![0, 1] bcast_S1600000x1_S1600000x64_0_1
      (broadcastInDim S1600000x1 ![0] bcast_S1600000_S1600000x1_0 vals))
    (Host.gather gather_S100000x64_S1600000x1_S1600000x64_1_0_n_n_0_1_164 x
      (broadcastInDim S1600000x1 ![0] bcast_S1600000_S1600000x1_0
        (select (cmpi .slt cols (broadcastInDim S1600000 ![] bcast_S_S1600000 (constantI S_ 32 0#32)))
          (addi cols (broadcastInDim S1600000 ![] bcast_S_S1600000 (constantI S_ 32 100000#32))) cols)))

/-- The results from the running total `%107`: operations `%108` … `%123` in order, under their printed names; the
    results are `%116`, `%123`, `%109`. -/
def refFrom_part3 (user pos : IVec S4096 32) (main_v107 : FVec Ideal S100000x64 .f32) :
    FVec Ideal S4096x64 .f32 × FVec Ideal S4096x64 .f32 × FVec Ideal S60000x64 .f32 :=
  let main_v108 : FVec Ideal S40000x64 .f32 :=
    extractStridedSlice S40000x64 ![0, 0] main_v107 slices_S100000x64_S40000x64_0_0
  let main_v109 : FVec Ideal S60000x64 .f32 :=
    extractStridedSlice S60000x64 ![40000, 0] main_v107 slices_S100000x64_S60000x64_40000_0
  let main_c_28 : IVec S_ 32 := constantI S_ 32 0#32
  let main_v110 : IVec S4096 32 := broadcastInDim S4096 ![] bcast_S_S4096 main_c_28
  let main_v111 : IVec S4096 1 := cmpi .slt user main_v110
  let main_c_29 : IVec S_ 32 := constantI S_ 32 40000#32
  let main_v112 : IVec S4096 32 := broadcastInDim S4096 ![] bcast_S_S4096 main_c_29
  let main_v113 : IVec S4096 32 := addi user main_v112
  let main_v114 : IVec S4096 32 := select main_v111 main_v113 user
  let main_v115 : IVec S4096x1 32 := broadcastInDim S4096x1 ![0] bcast_S4096_S4096x1_0 main_v114
  let main_v116 : FVec Ideal S4096x64 .f32 :=
    Host.gather gather_S40000x64_S4096x1_S4096x64_1_0_n_n_0_1_164 main_v108 main_v115
  let main_c_30 : IVec S_ 32 := constantI S_ 32 0#32
  let main_v117 : IVec S4096 32 := broadcastInDim S4096 ![] bcast_S_S4096 main_c_30
  let main_v118 : IVec S4096 1 := cmpi .slt pos main_v117
  let main_c_31 : IVec S_ 32 := constantI S_ 32 60000#32
  let main_v119 : IVec S4096 32 := broadcastInDim S4096 ![] bcast_S_S4096 main_c_31
  let main_v120 : IVec S4096 32 := addi pos main_v119
  let main_v121 : IVec S4096 32 := select main_v118 main_v120 pos
  let main_v122 : IVec S4096x1 32 := broadcastInDim S4096x1 ![0] bcast_S4096_S4096x1_0 main_v121
  let main_v123 : FVec Ideal S4096x64 .f32 :=
    Host.gather gather_S60000x64_S4096x1_S4096x64_1_0_n_n_0_1_164 main_v109 main_v122
  (main_v116, main_v123, main_v109)

/-- The third layer from the second table `%92` and the total so far `%93`: operations `%94` … `%107`, then the
    results. -/
def refFrom_part2 (vals : FVec Ideal S1600000 .f32) (rows cols : IVec S1600000 32) (user pos : IVec S4096 32)
    (main_v92 main_v93 : FVec Ideal S100000x64 .f32) :
    FVec Ideal S4096x64 .f32 × FVec Ideal S4096x64 .f32 × FVec Ideal S60000x64 .f32 :=
  let main_v94 : FVec Ideal S1600000x1 .f32 := broadcastInDim S1600000x1 ![0] bcast_S1600000_S1600000x1_0 vals
  let main_c_25 : IVec S_ 32 := constantI S_ 32 0#32
  let main_v95 : IVec S1600000 32 := broadcastInDim S1600000 ![] bcast_S_S1600000 main_c_25
  let main_v96 : IVec S1600000 1 := cmpi .slt cols main_v95
  let main_c_26 : IVec S_ 32 := constantI S_ 32 100000#32
  let main_v97 : IVec S1600000 32 := broadcastInDim S1600000 ![] bcast_S_S1600000 main_c_26
  let main_v98 : IVec S1600000 32 := addi cols main_v97
  let main_v99 : IVec S1600000 32 := select main_v96 main_v98 cols
  let main_v100 : IVec S1600000x1 32 := broadcastInDim S1600000x1 ![0] bcast_S1600000_S1600000x1_0 main_v99
  let main_v101 : FVec Ideal S1600000x64 .f32 :=
    Host.gather gather_S100000x64_S1600000x1_S1600000x64_1_0_n_n_0_1_164 main_v92 main_v100
  let main_v102 : FVec Ideal S1600000x64 .f32 :=
    broadcastInDim S1600000x64 ![0, 1] bcast_S1600000x1_S1600000x64_0_1 main_v94
  let main_v103 : FVec Ideal S1600000x64 .f32 := mulf main_v102 main_v101
  let main_cst_27 : FVec Ideal S_ .f32 := constant S_ .f32 0x00000000#32
  let main_v104 : FVec Ideal S100000x64 .f32 := broadcastInDim S100000x64 ![] bcast_S_S100000x64 main_cst_27
  let main_v105 : IVec S1600000x1 32 := broadcastInDim S1600000x1 ![0] bcast_S1600000_S1600000x1_0 rows
  let main_v106 : FVec Ideal S100000x64 .f32 :=
    Host.scatterAdd scatter_S100000x64_S1600000x1_S1600000x64_1_0_0_1 main_v104 main_v105 main_v103
  let main_v107 : FVec Ideal S100000x64 .f32 := addf main_v93 main_v106
  refFrom_part3 user pos main_v107

/-- The second layer from the first table `%78` and the total so far `%79`: operations `%80` … `%93`, then the rest. -/
def refFrom_part1 (vals : FVec Ideal S1600000 .f32) (rows cols : IVec S1600000 32) (user pos : IVec S4096 32)
    (main_v78 main_v79 : FVec Ideal S100000x64 .f32) :
    FVec Ideal S4096x64 .f32 × FVec Ideal S4096x64 .f32 × FVec Ideal S60000x64 .f32 :=
  let main_v80 : FVec Ideal S1600000x1 .f32 := broadcastInDim S1600000x1 ![0] bcast_S1600000_S1600000x1_0 vals
  let main_c_22 : IVec S_ 32 := constantI S_ 32 0#32
  let main_v81 : IVec S1600000 32 := broadcastInDim S1600000 ![] bcast_S_S1600000 main_c_22
  let main_v82 : IVec S1600000 1 := cmpi .slt cols main_v81
  let main_c_23 : IVec S_ 32 := constantI S_ 32 100000#32
  let main_v83 : IVec S1600000 32 := broadcastInDim S1600000 ![] bcast_S_S1600000 main_c_23
  let main_v84 : IVec S1600000 32 := addi cols main_v83
  let main_v85 : IVec S1600000 32 := select main_v82 main_v84 cols
  let main_v86 : IVec S1600000x1 32 := broadcastInDim S1600000x1 ![0] bcast_S1600000_S1600000x1_0 main_v85
  let main_v87 : FVec Ideal S1600000x64 .f32 :=
    Host.gather gather_S100000x64_S1600000x1_S1600000x64_1_0_n_n_0_1_164 main_v78 main_v86
  let main_v88 : FVec Ideal S1600000x64 .f32 :=
    broadcastInDim S1600000x64 ![0, 1] bcast_S1600000x1_S1600000x64_0_1 main_v80
  let main_v89 : FVec Ideal S1600000x64 .f32 := mulf main_v88 main_v87
  let main_cst_24 : FVec Ideal S_ .f32 := constant S_ .f32 0x00000000#32
  let main_v90 : FVec Ideal S100000x64 .f32 := broadcastInDim S100000x64 ![] bcast_S_S100000x64 main_cst_24
  let main_v91 : IVec S1600000x1 32 := broadcastInDim S1600000x1 ![0] bcast_S1600000_S1600000x1_0 rows
  let main_v92 : FVec Ideal S100000x64 .f32 :=
    Host.scatterAdd scatter_S100000x64_S1600000x1_S1600000x64_1_0_0_1 main_v90 main_v91 main_v89
  let main_v93 : FVec Ideal S100000x64 .f32 := addf main_v79 main_v92
  refFrom_part2 vals rows cols user pos main_v92 main_v93

/-- The reference from its first table `x0` (its `%64`): operations `%65` … `%79` (the zero total and the first
    layer) in order, under their printed names, then the rest. The chain is cut by layers, each part taking the names
    live at its head; unfolding the parts gives back the one chain `%65` … `%123`. -/
def refFrom (x0 : FVec Ideal S100000x64 .f32) (vals : FVec Ideal S1600000 .f32) (rows cols : IVec S1600000 32)
    (user pos : IVec S4096 32) :
    FVec Ideal S4096x64 .f32 × FVec Ideal S4096x64 .f32 × FVec Ideal S60000x64 .f32 :=
  let main_cst_19 : FVec Ideal S_ .f32 := constant S_ .f32 0x00000000#32
  let main_v65 : FVec Ideal S100000x64 .f32 := broadcastInDim S100000x64 ![] bcast_S_S100000x64 main_cst_19
  -- the first layer
  let main_v66 : FVec Ideal S1600000x1 .f32 := broadcastInDim S1600000x1 ![0] bcast_S1600000_S1600000x1_0 vals
  let main_c : IVec S_ 32 := constantI S_ 32 0#32
  let main_v67 : IVec S1600000 32 := broadcastInDim S1600000 ![] bcast_S_S1600000 main_c
  let main_v68 : IVec S1600000 1 := cmpi .slt cols main_v67
  let main_c_20 : IVec S_ 32 := constantI S_ 32 100000#32
  let main_v69 : IVec S1600000 32 := broadcastInDim S1600000 ![] bcast_S_S1600000 main_c_20
  let main_v70 : IVec S1600000 32 := addi cols main_v69
  let main_v71 : IVec S1600000 32 := select main_v68 main_v70 cols
  let main_v72 : IVec S1600000x1 32 := broadcastInDim S1600000x1 ![0] bcast_S1600000_S1600000x1_0 main_v71
  let main_v73 : FVec Ideal S1600000x64 .f32 :=
    Host.gather gather_S100000x64_S1600000x1_S1600000x64_1_0_n_n_0_1_164 x0 main_v72
  let main_v74 : FVec Ideal S1600000x64 .f32 :=
    broadcastInDim S1600000x64 ![0, 1] bcast_S1600000x1_S1600000x64_0_1 main_v66
  let main_v75 : FVec Ideal S1600000x64 .f32 := mulf main_v74 main_v73
  let main_cst_21 : FVec Ideal S_ .f32 := constant S_ .f32 0x00000000#32
  let main_v76 : FVec Ideal S100000x64 .f32 := broadcastInDim S100000x64 ![] bcast_S_S100000x64 main_cst_21
  let main_v77 : IVec S1600000x1 32 := broadcastInDim S1600000x1 ![0] bcast_S1600000_S1600000x1_0 rows
  let main_v78 : FVec Ideal S100000x64 .f32 :=
    Host.scatterAdd scatter_S100000x64_S1600000x1_S1600000x64_1_0_0_1 main_v76 main_v77 main_v75
  let main_v79 : FVec Ideal S100000x64 .f32 := addf main_v65 main_v78
  refFrom_part1 vals rows cols user pos main_v78 main_v79

/-- The steps around the weighted rows are the specification's: the same operations at the same operands, the
    specification's side conditions being the reference's. -/
theorem refFrom_glue (x0 : FVec Ideal S100000x64 .f32) (vals : FVec Ideal S1600000 .f32) (rows cols : IVec S1600000 32)
    (user pos : IVec S4096 32) :
    refFrom x0 vals rows cols user pos = forward3 GR (refW vals cols) x0 rows user pos :=
  rfl

/-- A layer's weighted rows, when every word of `cols` is a row number: row `cols e` of the table scaled by
    `vals e`. -/
theorem refW_eq (vals : FVec Ideal S1600000 .f32) (cols : IVec S1600000 32) (hcols : ∀ e, (cols e).toNat < 100000)
    (x : FVec Ideal S100000x64 .f32) : refW vals cols x = weightedSpec x cols vals hcols := by
  unfold refW
  exact ref_weighted bcast_S1600000_S1600000x1_0 bcast_S_S1600000 bcast_S1600000x1_S1600000x64_0_1
    gather_S100000x64_S1600000x1_S1600000x64_1_0_n_n_0_1_164_wf x cols vals hcols

/-- THE REFERENCE FROM ITS FIRST TABLE IS THE SPECIFICATION at the weighted rows `weightedSpec`. -/
theorem refFrom_eq (x0 : FVec Ideal S100000x64 .f32) (vals : FVec Ideal S1600000 .f32) (rows cols : IVec S1600000 32)
    (user pos : IVec S4096 32) (hcols : ∀ e, (cols e).toNat < 100000) :
    refFrom x0 vals rows cols user pos
      = forward3 GR (fun x => weightedSpec x cols vals hcols) x0 rows user pos :=
  (refFrom_glue x0 vals rows cols user pos).trans
    (congrArg (fun W => forward3 GR W x0 rows user pos) (funext (refW_eq vals cols hcols)))

end Cert.Value

end
-- ==== Proof.Val.RefAll.lean ====
import proofs.«421643_j28415503630349_2_alg».proof.Proof.Val.HypRef
import proofs.«421643_j28415503630349_2_alg».proof.Proof.Val.RefForward
import proofs.«421643_j28415503630349_2_alg».proof.Proof.Val.FirstTable

/-!
# The whole reference

The reference maps the user rows and the item rows by its own host operations (`refHypUsers`, `refHypItems`), lays
them end to end, and runs the three layers and the results from that table (`refFrom`). The table is the shared first
table `X0` (`refTables_eq`), and from any table the rest is the shared specification (`refFrom_eq`); so the whole
reference is the specification from `X0` (`refAll_eq`).
-/

noncomputable section

namespace Cert.Value

open Idealize.ShloMosaic Idealize.ShloMosaic.ValueIdx
open Cert.ReferenceIdeal Cert.ReferenceIdeal.Facts₀

variable [Cert.ReferenceIdeal.Facts₀]

/-- The reference's three results from its seven arguments' arrays: the first table as the reference makes it, then
    the layers and the results. -/
def refAll (u : FVec Ideal S40000x64 .f32) (it : FVec Ideal S60000x64 .f32) (vals : FVec Ideal S1600000 .f32)
    (rows cols : IVec S1600000 32) (user pos : IVec S4096 32) :
    FVec Ideal S4096x64 .f32 × FVec Ideal S4096x64 .f32 × FVec Ideal S60000x64 .f32 :=
  refFrom
    (concatenate S100000x64 0 [⟨S40000x64, refHypUsers u⟩, ⟨S60000x64, refHypItems it⟩]
      concatenates_S40000x64_S60000x64_S100000x64_d0)
    vals rows cols user pos

/-- THE WHOLE REFERENCE IS THE SPECIFICATION from the shared first table, when every word of `cols` is a row number. -/
theorem refAll_eq (u : FVec Ideal S40000x64 .f32) (it : FVec Ideal S60000x64 .f32) (vals : FVec Ideal S1600000 .f32)
    (rows cols : IVec S1600000 32) (user pos : IVec S4096 32) (hcols : ∀ e, (cols e).toNat < 100000) :
    refAll u it vals rows cols user pos
      = forward3 GR (fun x => weightedSpec x cols vals hcols) (X0 u it) rows user pos :=
  (congrArg (fun x => refFrom x vals rows cols user pos) (refTables_eq u it)).trans
    (refFrom_eq (X0 u it) vals rows cols user pos hcols)

end Cert.Value

end
-- ==== Proof.Val.RefValue.lean ====
/-
  THE REFERENCE'S RUN, READ. The generated run of the reference states each of its three results as one composed term
  of the seven argument arrays, and the generated reading of the program names every intermediate value of that
  term, one operation at a time. Those named values are, operation for operation, the terms transcribed by hand: the
  two tables mapped row by row and stacked (the first table), and from that table the three layers and the three
  results. Both identifications hold by unfolding alone, which is what makes the transcriptions faithful. So every
  weakly fair execution of the reference ends with its three results at the transcribed reference of the seven
  arguments' launch contents, and the arguments unchanged.
-/
import proofs.«421643_j28415503630349_2_alg».proof.Proof.Val.RefRun
import proofs.«421643_j28415503630349_2_alg».proof.Proof.Val.RefAll

noncomputable section

namespace Cert.Value

open Idealize.ShloMosaic Idealize.ShloMosaic.TcCoe Idealize.SL.Sem Idealize.ShloMosaic.StableHlo
open Cert.ReferenceIdeal Cert.ReferenceIdeal.Facts₀ Cert.ReferenceIdeal.Read

/-! ## The generated values of the first table are the transcribed terms -/

/-- The generated value of `%31` is the transcribed term at the users' table: the same operations in the same order. -/
theorem val_main_v31_eq_refHypUsers (x0 : FVec Ideal S40000x64 .f32) :
    val_main_v31 (F := Ideal) x0 = refHypUsers x0 := rfl

/-- The generated value of `%63` is the transcribed term at the items' table. -/
theorem val_main_v63_eq_refHypItems (x1 : FVec Ideal S60000x64 .f32) :
    val_main_v63 (F := Ideal) x1 = refHypItems x1 := rfl

/-- The generated value of `%64`, the reference's first table, is the two transcribed terms stacked. -/
theorem val_main_v64_eq (x0 : FVec Ideal S40000x64 .f32) (x1 : FVec Ideal S60000x64 .f32) :
    val_main_v64 (F := Ideal) x0 x1
      = concatenate S100000x64 0 [⟨S40000x64, refHypUsers x0⟩, ⟨S60000x64, refHypItems x1⟩]
          concatenates_S40000x64_S60000x64_S100000x64_d0 := by
  unfold val_main_v64
  rw [val_main_v31_eq_refHypUsers, val_main_v63_eq_refHypItems]

/-! ## The generated values of the three results are the transcribed chain from the first table -/

/-- `%116`, the users' rows picked out of the running total, from the generated first table. -/
theorem val_main_v116_eq_refFrom (x0 : FVec Ideal S40000x64 .f32) (x1 : FVec Ideal S60000x64 .f32)
    (x2 : FVec Ideal S1600000 .f32) (x3 x4 : IVec S1600000 32) (x5 x6 : IVec S4096 32) :
    val_main_v116 (F := Ideal) x0 x1 x2 x3 x4 x5 = (refFrom (val_main_v64 (F := Ideal) x0 x1) x2 x3 x4 x5 x6).1 := rfl

/-- `%123`, the items' rows picked out of the running total. -/
theorem val_main_v123_eq_refFrom (x0 : FVec Ideal S40000x64 .f32) (x1 : FVec Ideal S60000x64 .f32)
    (x2 : FVec Ideal S1600000 .f32) (x3 x4 : IVec S1600000 32) (x5 x6 : IVec S4096 32) :
    val_main_v123 (F := Ideal) x0 x1 x2 x3 x4 x6 = (refFrom (val_main_v64 (F := Ideal) x0 x1) x2 x3 x4 x5 x6).2.1 := rfl

/-- `%109`, the items' part of the running total. -/
theorem val_main_v109_eq_refFrom (x0 : FVec Ideal S40000x64 .f32) (x1 : FVec Ideal S60000x64 .f32)
    (x2 : FVec Ideal S1600000 .f32) (x3 x4 : IVec S1600000 32) (x5 x6 : IVec S4096 32) :
    val_main_v109 (F := Ideal) x0 x1 x2 x3 x4 = (refFrom (val_main_v64 (F := Ideal) x0 x1) x2 x3 x4 x5 x6).2.2 := rfl

/-- So the three generated results are the whole transcribed reference at the seven arguments. -/
theorem val_results_eq_refAll (x0 : FVec Ideal S40000x64 .f32) (x1 : FVec Ideal S60000x64 .f32)
    (x2 : FVec Ideal S1600000 .f32) (x3 x4 : IVec S1600000 32) (x5 x6 : IVec S4096 32) :
    val_main_v116 (F := Ideal) x0 x1 x2 x3 x4 x5 = (refAll x0 x1 x2 x3 x4 x5 x6).1
      ∧ val_main_v123 (F := Ideal) x0 x1 x2 x3 x4 x6 = (refAll x0 x1 x2 x3 x4 x5 x6).2.1
      ∧ val_main_v109 (F := Ideal) x0 x1 x2 x3 x4 = (refAll x0 x1 x2 x3 x4 x5 x6).2.2 := by
  unfold refAll
  rw [← val_main_v64_eq]
  exact ⟨val_main_v116_eq_refFrom x0 x1 x2 x3 x4 x5 x6, val_main_v123_eq_refFrom x0 x1 x2 x3 x4 x5 x6,
    val_main_v109_eq_refFrom x0 x1 x2 x3 x4 x5 x6⟩

/-! ## The run -/

/-- The transcribed reference at the launch contents of the seven arguments on core `c`: values, row numbers of the
    sums, row numbers of the gathers, and the two lists of rows to return, in the program's argument order. -/
def refRes (m' : (ℓ : Loc nD τ sig) → Buf (Elt Ideal) ℓ) (c : Dev nD) :
    FVec Ideal S4096x64 .f32 × FVec Ideal S4096x64 .f32 × FVec Ideal S60000x64 .f32 :=
  refAll (m' ((c.tc : Thread nD τ).loc main_arg0)) (m' ((c.tc : Thread nD τ).loc main_arg1))
    (m' ((c.tc : Thread nD τ).loc main_arg2)) (m' ((c.tc : Thread nD τ).loc main_arg3))
    (m' ((c.tc : Thread nD τ).loc main_arg4)) (m' ((c.tc : Thread nD τ).loc main_arg5))
    (m' ((c.tc : Thread nD τ).loc main_arg6))

/-- THE REFERENCE'S RUN: from any memory with zero counters every weakly fair execution terminates with the three
    results at the transcribed reference of the arguments' launch contents, and the seven arguments unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v116) = (refRes m' c).1
      ∧ r.2.mem ((c.tc : Thread nD τ).loc main_v123) = (refRes m' c).2.1
      ∧ r.2.mem ((c.tc : Thread nD τ).loc main_v109) = (refRes m' c).2.2
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6) :=
  (θ_run defs _ _).mono (fun r h c => by
      obtain ⟨h116, h123, h109, hargs⟩ := h c
      obtain ⟨e116, e123, e109⟩ := val_results_eq_refAll
        (m' ((c.tc : Thread nD τ).loc main_arg0)) (m' ((c.tc : Thread nD τ).loc main_arg1))
        (m' ((c.tc : Thread nD τ).loc main_arg2)) (m' ((c.tc : Thread nD τ).loc main_arg3))
        (m' ((c.tc : Thread nD τ).loc main_arg4)) (m' ((c.tc : Thread nD τ).loc main_arg5))
        (m' ((c.tc : Thread nD τ).loc main_arg6))
      exact ⟨h116.trans ((val_main_v116_eq m' c).trans e116), h123.trans ((val_main_v123_eq m' c).trans e123),
        h109.trans ((val_main_v109_eq m' c).trans e109), hargs⟩)
    (Cert.ReferenceIdeal.Value.run m' ρ')

end Cert.Value

end
-- ==== Proof.Claims.lean ====
/-
  The five claims. Under the precondition every column index is a row of the node table, so each gather region's
  row copies stay inside the table: that is all the two kernel frames need of it, and each is the whole program's run
  with its results dropped. At the ideal instance the run also names the three results: the final boundary's contents,
  which are the shared forward function of the argument arrays (three rounds of: gather the neighbours' rows, weight
  them, sum them by destination, add to the running sum; then the users' and items' rows looked up), the same function
  the reference's operations compose to. No ledger entry: the idealization is the program's own text.
-/
import proofs.«421643_j28415503630349_2_alg».proof.Defs
import proofs.«421643_j28415503630349_2_alg».proof.Proof.Gen.Kernel
import proofs.«421643_j28415503630349_2_alg».proof.Proof.Gen.KernelIdeal
import proofs.«421643_j28415503630349_2_alg».proof.Proof.Gen.ReferenceIdeal
import proofs.«421643_j28415503630349_2_alg».proof.Proof.Gen.Pre_finite_inputs
import proofs.«421643_j28415503630349_2_alg».proof.Proof.K.Run
import proofs.«421643_j28415503630349_2_alg».proof.Proof.KI.Run
import proofs.«421643_j28415503630349_2_alg».proof.Proof.Val.KernelValue
import proofs.«421643_j28415503630349_2_alg».proof.Proof.Val.RefValue

noncomputable section

namespace Cert.Proof.Claims

open Idealize.ShloMosaic Idealize.ShloMosaic.TcCoe Idealize.SL.Sem

theorem frame_k : Cert.frame_Kernel := fun m ρ hpre =>
  Cert.Kernel.Hand.frame m ρ (Cert.Kernel.Hand.cols_lt m hpre)

theorem frame_ki : Cert.frame_KernelIdeal := fun m ρ hpre =>
  Cert.KernelIdeal.Hand.frame m ρ (Cert.KernelIdeal.Hand.cols_lt m hpre)

theorem frame_ri : Cert.frame_ReferenceIdeal := fun m ρ _ =>
  (θ_run Cert.ReferenceIdeal.defs _ _).mono (fun _ h c => (h c).2.2.2) (Cert.Value.ref_run m ρ)

theorem preserves : Cert.preserves_Kernel_KernelIdeal := trivial

open Cert.KernelIdeal Cert.KernelIdeal.Hand in
theorem algebraic : Cert.algebraic_KernelIdeal_ReferenceIdeal := by
  intro m ρ m' ρ' hpre hagree
  have hcols := Cert.KernelIdeal.Hand.cols_lt m hpre
  refine ⟨fun c => W100 m c main_v220, fun c => W100 m c main_v227, fun c => W100 m c main_v213, ?_, ?_⟩
  · exact (θ_run Cert.KernelIdeal.defs _ _).mono (fun r h c =>
      ⟨h c _ (mem_uc main_v220 (by decide)), h c _ (mem_uc main_v227 (by decide)), h c _ (mem_uc main_v213 (by decide)),
       (h c _ (mem_uc main_arg0 (by decide))).trans (W100_arg0 m c), (h c _ (mem_uc main_arg1 (by decide))).trans (W100_arg1 m c),
       (h c _ (mem_uc main_arg2 (by decide))).trans (W100_arg2 m c), (h c _ (mem_uc main_arg3 (by decide))).trans (W100_arg3 m c),
       (h c _ (mem_uc main_arg4 (by decide))).trans (W100_arg4 m c), (h c _ (mem_uc main_arg5 (by decide))).trans (W100_arg5 m c),
       (h c _ (mem_uc main_arg6 (by decide))).trans (W100_arg6 m c)⟩) (run_all m ρ hcols)
  · refine (θ_run Cert.ReferenceIdeal.defs _ _).mono (fun r h c => ?_) (Cert.Value.ref_run m' ρ')
    obtain ⟨h0, h1, h2, hargs⟩ := h c
    obtain ⟨e0, e1, e2, e3, e4, e5, e6⟩ := hagree c
    have hk := Cert.Value.kernel_value m hcols c
    have hr := Cert.Value.refAll_eq (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (hcols c)
    have hres : Cert.Value.refRes m' c = (W100 m c main_v220, W100 m c main_v227, W100 m c main_v213) := by
      unfold Cert.Value.refRes
      rw [e0, e1, e2, e3, e4, e5, e6]
      exact hr.trans hk.symm
    exact ⟨h0.trans (congrArg (·.1) hres), h1.trans (congrArg (·.2.1) hres), h2.trans (congrArg (·.2.2) hres), hargs⟩

end Cert.Proof.Claims

end
-- ==== Proof.lean ====
/-
  The certificate of the graph-convolution forward pass: three rounds of neighbour aggregation over a sparse adjacency
  (for every edge, the source node's feature row scaled by the edge weight, summed by destination node), started from
  the logarithmic map of the hyperboloid projection of the two embedding tables and summed over the rounds, then the
  rows of the chosen users and items looked up.

  The kernel program maps the tables in one region (one block of 4096 rows per point) and gathers the neighbours' rows in
  48 regions of one body (16 chunks of the edges per round; eight row copies per point, taken by the words of a
  prefetched table); the sums by destination and the look-ups are host operations, the same in both programs.
  Under the precondition (finite floats; every column index a row of the node table) each region's body runs at every
  point, so the whole program runs and leaves its arguments as launched (the two kernel frames: Proof/K, Proof/KI); the
  reference's run is its operations' (Proof/Val/RefValue); and at the ideal instance the two programs' results are one
  function of the arguments (Proof/Val: the table map row by row, each chunk's output as the weighted rows of its
  edges, the rounds and the look-ups by the shared host operations). The claims are assembled in Proof/Claims.
-/
import proofs.«421643_j28415503630349_2_alg».proof.Defs
import proofs.«421643_j28415503630349_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
   Claims.frame_k, Claims.frame_ki, Claims.frame_ri, Claims.preserves, Claims.algebraic⟩

end Cert.Proof

end
